-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![16384, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S512x1024 : Shape := ⟨2, ![512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S1024x512 .f32) (main_arg1 : FVec F S512x1024 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Pre_finite_inputs_ReferenceIdeal.lean ====
abbrev S1024x16384 : Shape := ⟨2, ![1024, 16384]⟩
abbrev S16384x1024 : Shape := ⟨2, ![16384, 1024]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S1024x16384 .f32) (main_arg1 : FVec F S16384x1024 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Kernel.lean ====
abbrev S1024x512 : Shape := ⟨2, ![1024, 512]⟩
abbrev S512x1024 : Shape := ⟨2, ![512, 1024]⟩
abbrev S1024x1024 : Shape := ⟨2, ![1024, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S5x3x2 : Shape := ⟨3, ![5, 3, 2]⟩
abbrev S_ : Shape := ⟨0, ![]⟩
abbrev S512x512 : Shape := ⟨2, ![512, 512]⟩
abbrev S512x384 : Shape := ⟨2, ![512, 384]⟩
abbrev S1x1x1 : Shape := ⟨3, ![1, 1, 1]⟩
abbrev S256x384 : Shape := ⟨2, ![256, 384]⟩
abbrev S512x256 : Shape := ⟨2, ![512, 256]⟩
abbrev S256x256 : Shape := ⟨2, ![256, 256]⟩
abbrev S128x384 : Shape := ⟨2, ![128, 384]⟩
abbrev S128x256 : Shape := ⟨2, ![128, 256]⟩
abbrev S64x384 : Shape := ⟨2, ![64, 384]⟩
abbrev S64x256 : Shape := ⟨2, ![64, 256]⟩
abbrev S32x384 : Shape := ⟨2, ![32, 384]⟩
abbrev S32x256 : Shape := ⟨2, ![32, 256]⟩

abbrev nBuf : Space → Nat
  | .hbm => 3
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .bf16⟩
  | .local _ .vmem, ⟨0, _⟩ => ⟨S1024x512, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .f32⟩
  | .local _ .vmem, ⟨4, _⟩ => ⟨S512x1024, .bf16⟩
  | .local _ .vmem, ⟨5, _⟩ => ⟨S256x1024, .bf16⟩
  | .local _ .vmem, ⟨6, _⟩ => ⟨S128x1024, .bf16⟩
  | .local _ .vmem, ⟨7, _⟩ => ⟨S64x1024, .bf16⟩
  | .local _ .vmem, ⟨8, _⟩ => ⟨S32x1024, .bf16⟩
  | .local _ .vmem, ⟨9, _⟩ => ⟨S512x1024, .bf16⟩
  | .local _ .vmem, ⟨10, _⟩ => ⟨S256x1024, .bf16⟩
  | .local _ .vmem, ⟨11, _⟩ => ⟨S128x1024, .bf16⟩
  | .local _ .vmem, ⟨12, _⟩ => ⟨S64x1024, .bf16⟩
  | .local _ .vmem, ⟨13, _⟩ => ⟨S32x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 123 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | _ => false

abbrev sig : RefSig :=
  (ofTc nBuf bufTy 1 123 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_20 : BitVec 32 := 1#32
  let v30 : BitVec 32 := Scalar.muli v3 c1_i32_20
  let v31 : BitVec 32 := Scalar.addi c0_i32 v30
  v31.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v4 : BitVec 32 := Scalar.xori v2 c3_i32
  let c1_i32_22 : BitVec 32 := 1#32
  let v32 : BitVec 32 := Scalar.muli v4 c1_i32_22
  let v33 : BitVec 32 := Scalar.addi c0_i32_23 v32
  v33.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v5 : BitVec 32 := Scalar.xori v2 c8_i32
  let c1_i32_25 : BitVec 32 := 1#32
  let v34 : BitVec 32 := Scalar.muli v5 c1_i32_25
  let v35 : BitVec 32 := Scalar.addi c0_i32_26 v34
  v35.toNat
def k0_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v6 : BitVec 32 := Scalar.xori v2 c4_i32
  let c1_i32_28 : BitVec 32 := 1#32
  let v36 : BitVec 32 := Scalar.muli v6 c1_i32_28
  let v37 : BitVec 32 := Scalar.addi c0_i32_29 v36
  v37.toNat
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_31 : BitVec 32 := 1#32
  let v38 : BitVec 32 := Scalar.muli v7 c1_i32_31
  let v39 : BitVec 32 := Scalar.addi c0_i32_32 v38
  v39.toNat
def k0_off1 (d0 : Dev nD) : Fin 2 → Nat :=
  let c1_i32_33 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let v41 : BitVec 32 := Scalar.subi c1_i32_33 v27
  let c512_i32_34 : BitVec 32 := 512#32
  let v42 : BitVec 32 := Scalar.muli v41 c512_i32_34
  let v43 : Index := Scalar.indexCast v42
  let c0 : Index := 0#32
  ![v43.toNat, 0]
def k0_off2 (d0 : Dev nD) : Fin 2 → Nat :=
  let c1_i32_39 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let v55 : BitVec 32 := Scalar.subi c1_i32_39 v20
  let c256_i32 : BitVec 32 := 256#32
  let v56 : BitVec 32 := Scalar.muli v55 c256_i32
  let c0_i32_49 : BitVec 32 := 0#32
  ![v56.toNat, 0]
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_47 : BitVec 32 := 1#32
  let v58 : BitVec 32 := Scalar.muli v3 c1_i32_47
  let v59 : BitVec 32 := Scalar.addi c0_i32_48 v58
  v59.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c256_i32_40 : BitVec 32 := 256#32
  let v57 : BitVec 32 := Scalar.muli v20 c256_i32_40
  let c0_i32_59 : BitVec 32 := 0#32
  ![v57.toNat, 0]
def k0_dev7 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_57 : BitVec 32 := 1#32
  let v66 : BitVec 32 := Scalar.muli v3 c1_i32_57
  let v67 : BitVec 32 := Scalar.addi c0_i32_58 v66
  v67.toNat
def k0_off4 (d0 : Dev nD) (c1_i32_12 : BitVec 32) : Fin 2 → Nat :=
  let c1_i32_62 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v19 : BitVec 32 := Scalar.shrsi v2 c1_i32_12
  let c1_i32_13 : BitVec 32 := 1#32
  let v20 : BitVec 32 := Scalar.andi v19 c1_i32_13
  let v75 : BitVec 32 := Scalar.subi c1_i32_62 v20
  let c512_i32_63 : BitVec 32 := 512#32
  let v76 : BitVec 32 := Scalar.muli v75 c512_i32_63
  let v77 : Index := Scalar.indexCast v76
  let c0_64 : Index := 0#32
  ![v77.toNat, 0]
def k0_off5 (d0 : Dev nD) : Fin 2 → Nat :=
  let c1_i32_69 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let v89 : BitVec 32 := Scalar.subi c1_i32_69 v24
  let c256_i32_70 : BitVec 32 := 256#32
  let v90 : BitVec 32 := Scalar.muli v89 c256_i32_70
  let c384_i32 : BitVec 32 := 384#32
  ![v90.toNat, 384]
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1 : BitVec 32 := 3#32
  let v8 : BitVec 32 := Scalar.xori v2 c3_i32_1
  let c1_i32_78 : BitVec 32 := 1#32
  let v92 : BitVec 32 := Scalar.muli v8 c1_i32_78
  let v93 : BitVec 32 := Scalar.addi c0_i32_79 v92
  v93.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c256_i32_71 : BitVec 32 := 256#32
  let v91 : BitVec 32 := Scalar.muli v24 c256_i32_71
  let c384_i32_89 : BitVec 32 := 384#32
  ![v91.toNat, 384]
def k0_dev9 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1 : BitVec 32 := 3#32
  let v8 : BitVec 32 := Scalar.xori v2 c3_i32_1
  let c1_i32_87 : BitVec 32 := 1#32
  let v100 : BitVec 32 := Scalar.muli v8 c1_i32_87
  let v101 : BitVec 32 := Scalar.addi c0_i32_88 v100
  v101.toNat
def k0_off7 (d0 : Dev nD) : Fin 2 → Nat :=
  let c1_i32_99 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let v123 : BitVec 32 := Scalar.subi c1_i32_99 v28
  let c256_i32_100 : BitVec 32 := 256#32
  let v124 : BitVec 32 := Scalar.muli v123 c256_i32_100
  let c768_i32 : BitVec 32 := 768#32
  ![v124.toNat, 768]
def k0_dev10 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_6 : BitVec 32 := 8#32
  let v13 : BitVec 32 := Scalar.xori v2 c8_i32_6
  let c1_i32_108 : BitVec 32 := 1#32
  let v126 : BitVec 32 := Scalar.muli v13 c1_i32_108
  let v127 : BitVec 32 := Scalar.addi c0_i32_109 v126
  v127.toNat
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_101 : BitVec 32 := 256#32
  let v125 : BitVec 32 := Scalar.muli v28 c256_i32_101
  let c768_i32_119 : BitVec 32 := 768#32
  ![v125.toNat, 768]
def k0_dev11 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_6 : BitVec 32 := 8#32
  let v13 : BitVec 32 := Scalar.xori v2 c8_i32_6
  let c1_i32_117 : BitVec 32 := 1#32
  let v134 : BitVec 32 := Scalar.muli v13 c1_i32_117
  let v135 : BitVec 32 := Scalar.addi c0_i32_118 v134
  v135.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let v142 : Index := Scalar.indexCast v40
  let c0_121 : Index := 0#32
  ![v142.toNat, 0]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let v150 : Index := Scalar.indexCast v40
  let c0_125 : Index := 0#32
  ![v150.toNat, 0]
def k0_off11 (d0 : Dev nD) (c1_i32_12 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let v154 : Index := Scalar.indexCast v74
  let c0_126 : Index := 0#32
  ![v154.toNat, 0]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let v162 : Index := Scalar.indexCast v74
  let c384_130 : Index := 384#32
  ![v162.toNat, 384]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let v174 : Index := Scalar.indexCast v108
  let c768_135 : Index := 768#32
  ![v174.toNat, 768]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c1_i32_137 : BitVec 32 := 1#32
  let v180 : BitVec 32 := Scalar.subi c1_i32_137 v20
  let c256_i32_138 : BitVec 32 := 256#32
  let v181 : BitVec 32 := Scalar.muli v180 c256_i32_138
  let v182 : BitVec 32 := Scalar.addi v40 v181
  let v194 : Index := Scalar.indexCast v182
  let c0_158 : Index := 0#32
  ![v194.toNat, 0]
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c1_i32_137 : BitVec 32 := 1#32
  let v180 : BitVec 32 := Scalar.subi c1_i32_137 v20
  let c256_i32_138 : BitVec 32 := 256#32
  let v181 : BitVec 32 := Scalar.muli v180 c256_i32_138
  let v182 : BitVec 32 := Scalar.addi v40 v181
  let v193 : BitVec 32 := Scalar.subi v182 v40
  let v196 : Index := Scalar.indexCast v193
  let c0_159 : Index := 0#32
  ![v196.toNat, 0]
def k0_off16 (d0 : Dev nD) : Fin 2 → Nat :=
  let c1_i32_164 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let v210 : BitVec 32 := Scalar.subi c1_i32_164 v24
  let c128_i32 : BitVec 32 := 128#32
  let v211 : BitVec 32 := Scalar.muli v210 c128_i32
  let c0_i32_174 : BitVec 32 := 0#32
  ![v211.toNat, 0]
def k0_dev12 (d0 : Dev nD) : Nat :=
  let c0_i32_173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v4 : BitVec 32 := Scalar.xori v2 c3_i32
  let c1_i32_172 : BitVec 32 := 1#32
  let v213 : BitVec 32 := Scalar.muli v4 c1_i32_172
  let v214 : BitVec 32 := Scalar.addi c0_i32_173 v213
  v214.toNat
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c128_i32_165 : BitVec 32 := 128#32
  let v212 : BitVec 32 := Scalar.muli v24 c128_i32_165
  let c0_i32_184 : BitVec 32 := 0#32
  ![v212.toNat, 0]
def k0_dev13 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v4 : BitVec 32 := Scalar.xori v2 c3_i32
  let c1_i32_182 : BitVec 32 := 1#32
  let v221 : BitVec 32 := Scalar.muli v4 c1_i32_182
  let v222 : BitVec 32 := Scalar.addi c0_i32_183 v221
  v222.toNat
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c1_i32_187 : BitVec 32 := 1#32
  let c3_i32_15 : BitVec 32 := 3#32
  let v23 : BitVec 32 := Scalar.shrsi v2 c3_i32_15
  let c1_i32_16 : BitVec 32 := 1#32
  let v24 : BitVec 32 := Scalar.andi v23 c1_i32_16
  let v232 : BitVec 32 := Scalar.subi c1_i32_187 v24
  let c256_i32_188 : BitVec 32 := 256#32
  let v233 : BitVec 32 := Scalar.muli v232 c256_i32_188
  let v234 : BitVec 32 := Scalar.addi v74 v233
  let v246 : Index := Scalar.indexCast v234
  let c384_208 : Index := 384#32
  ![v246.toNat, 384]
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c1_i32_187 : BitVec 32 := 1#32
  let c3_i32_15 : BitVec 32 := 3#32
  let v23 : BitVec 32 := Scalar.shrsi v2 c3_i32_15
  let c1_i32_16 : BitVec 32 := 1#32
  let v24 : BitVec 32 := Scalar.andi v23 c1_i32_16
  let v232 : BitVec 32 := Scalar.subi c1_i32_187 v24
  let c256_i32_188 : BitVec 32 := 256#32
  let v233 : BitVec 32 := Scalar.muli v232 c256_i32_188
  let v234 : BitVec 32 := Scalar.addi v74 v233
  let v245 : BitVec 32 := Scalar.subi v234 v74
  let v248 : Index := Scalar.indexCast v245
  let c384_209 : Index := 384#32
  ![v248.toNat, 384]
def k0_off20 (d0 : Dev nD) : Fin 2 → Nat :=
  let c1_i32_214 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let v262 : BitVec 32 := Scalar.subi c1_i32_214 v18
  let c128_i32_215 : BitVec 32 := 128#32
  let v263 : BitVec 32 := Scalar.muli v262 c128_i32_215
  let c384_i32_225 : BitVec 32 := 384#32
  ![v263.toNat, 384]
def k0_dev14 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2 : BitVec 32 := 8#32
  let v9 : BitVec 32 := Scalar.xori v2 c8_i32_2
  let c1_i32_223 : BitVec 32 := 1#32
  let v265 : BitVec 32 := Scalar.muli v9 c1_i32_223
  let v266 : BitVec 32 := Scalar.addi c0_i32_224 v265
  v266.toNat
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c128_i32_216 : BitVec 32 := 128#32
  let v264 : BitVec 32 := Scalar.muli v18 c128_i32_216
  let c384_i32_235 : BitVec 32 := 384#32
  ![v264.toNat, 384]
def k0_dev15 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2 : BitVec 32 := 8#32
  let v9 : BitVec 32 := Scalar.xori v2 c8_i32_2
  let c1_i32_233 : BitVec 32 := 1#32
  let v273 : BitVec 32 := Scalar.muli v9 c1_i32_233
  let v274 : BitVec 32 := Scalar.addi c0_i32_234 v273
  v274.toNat
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_238 : BitVec 32 := 1#32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let v284 : BitVec 32 := Scalar.subi c1_i32_238 v28
  let c256_i32_239 : BitVec 32 := 256#32
  let v285 : BitVec 32 := Scalar.muli v284 c256_i32_239
  let v286 : BitVec 32 := Scalar.addi v108 v285
  let v298 : Index := Scalar.indexCast v286
  let c768_259 : Index := 768#32
  ![v298.toNat, 768]
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_238 : BitVec 32 := 1#32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let v284 : BitVec 32 := Scalar.subi c1_i32_238 v28
  let c256_i32_239 : BitVec 32 := 256#32
  let v285 : BitVec 32 := Scalar.muli v284 c256_i32_239
  let v286 : BitVec 32 := Scalar.addi v108 v285
  let v297 : BitVec 32 := Scalar.subi v286 v108
  let v300 : Index := Scalar.indexCast v297
  let c768_260 : Index := 768#32
  ![v300.toNat, 768]
def k0_off24 (d0 : Dev nD) : Fin 2 → Nat :=
  let c1_i32_265 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let v314 : BitVec 32 := Scalar.subi c1_i32_265 v20
  let c128_i32_266 : BitVec 32 := 128#32
  let v315 : BitVec 32 := Scalar.muli v314 c128_i32_266
  let c768_i32_276 : BitVec 32 := 768#32
  ![v315.toNat, 768]
def k0_dev16 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v14 : BitVec 32 := Scalar.xori v2 c1_i32_7
  let c1_i32_274 : BitVec 32 := 1#32
  let v317 : BitVec 32 := Scalar.muli v14 c1_i32_274
  let v318 : BitVec 32 := Scalar.addi c0_i32_275 v317
  v318.toNat
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c128_i32_267 : BitVec 32 := 128#32
  let v316 : BitVec 32 := Scalar.muli v20 c128_i32_267
  let c768_i32_286 : BitVec 32 := 768#32
  ![v316.toNat, 768]
def k0_dev17 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v14 : BitVec 32 := Scalar.xori v2 c1_i32_7
  let c1_i32_284 : BitVec 32 := 1#32
  let v325 : BitVec 32 := Scalar.muli v14 c1_i32_284
  let v326 : BitVec 32 := Scalar.addi c0_i32_285 v325
  v326.toNat
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let v344 : Index := Scalar.indexCast v179
  let c0_307 : Index := 0#32
  ![v344.toNat, 0]
def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let v229 : BitVec 32 := Scalar.subi v179 v40
  let v346 : Index := Scalar.indexCast v229
  let c0_308 : Index := 0#32
  ![v346.toNat, 0]
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let v364 : Index := Scalar.indexCast v231
  let c384_329 : Index := 384#32
  ![v364.toNat, 384]
def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let v281 : BitVec 32 := Scalar.subi v231 v74
  let v366 : Index := Scalar.indexCast v281
  let c384_330 : Index := 384#32
  ![v366.toNat, 384]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let v384 : Index := Scalar.indexCast v283
  let c768_351 : Index := 768#32
  ![v384.toNat, 768]
def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let v333 : BitVec 32 := Scalar.subi v283 v108
  let v386 : Index := Scalar.indexCast v333
  let c768_352 : Index := 768#32
  ![v386.toNat, 768]
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c1_i32_355 : BitVec 32 := 1#32
  let c3_i32_15 : BitVec 32 := 3#32
  let v23 : BitVec 32 := Scalar.shrsi v2 c3_i32_15
  let c1_i32_16 : BitVec 32 := 1#32
  let v24 : BitVec 32 := Scalar.andi v23 c1_i32_16
  let v396 : BitVec 32 := Scalar.subi c1_i32_355 v24
  let c128_i32_356 : BitVec 32 := 128#32
  let v397 : BitVec 32 := Scalar.muli v396 c128_i32_356
  let v398 : BitVec 32 := Scalar.addi v179 v397
  let v410 : Index := Scalar.indexCast v398
  let c0_376 : Index := 0#32
  ![v410.toNat, 0]
def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c1_i32_355 : BitVec 32 := 1#32
  let c3_i32_15 : BitVec 32 := 3#32
  let v23 : BitVec 32 := Scalar.shrsi v2 c3_i32_15
  let c1_i32_16 : BitVec 32 := 1#32
  let v24 : BitVec 32 := Scalar.andi v23 c1_i32_16
  let v396 : BitVec 32 := Scalar.subi c1_i32_355 v24
  let c128_i32_356 : BitVec 32 := 128#32
  let v397 : BitVec 32 := Scalar.muli v396 c128_i32_356
  let v398 : BitVec 32 := Scalar.addi v179 v397
  let v409 : BitVec 32 := Scalar.subi v398 v179
  let v412 : Index := Scalar.indexCast v409
  let c0_377 : Index := 0#32
  ![v412.toNat, 0]
def k0_off34 (d0 : Dev nD) : Fin 2 → Nat :=
  let c1_i32_382 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v21 : BitVec 32 := Scalar.shrsi v2 c2_i32
  let c1_i32_14 : BitVec 32 := 1#32
  let v22 : BitVec 32 := Scalar.andi v21 c1_i32_14
  let v426 : BitVec 32 := Scalar.subi c1_i32_382 v22
  let c64_i32 : BitVec 32 := 64#32
  let v427 : BitVec 32 := Scalar.muli v426 c64_i32
  let c0_i32_392 : BitVec 32 := 0#32
  ![v427.toNat, 0]
def k0_dev18 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v5 : BitVec 32 := Scalar.xori v2 c8_i32
  let c1_i32_390 : BitVec 32 := 1#32
  let v429 : BitVec 32 := Scalar.muli v5 c1_i32_390
  let v430 : BitVec 32 := Scalar.addi c0_i32_391 v429
  v430.toNat
def k0_off35 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v21 : BitVec 32 := Scalar.shrsi v2 c2_i32
  let c1_i32_14 : BitVec 32 := 1#32
  let v22 : BitVec 32 := Scalar.andi v21 c1_i32_14
  let c64_i32_383 : BitVec 32 := 64#32
  let v428 : BitVec 32 := Scalar.muli v22 c64_i32_383
  let c0_i32_402 : BitVec 32 := 0#32
  ![v428.toNat, 0]
def k0_dev19 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v5 : BitVec 32 := Scalar.xori v2 c8_i32
  let c1_i32_400 : BitVec 32 := 1#32
  let v437 : BitVec 32 := Scalar.muli v5 c1_i32_400
  let v438 : BitVec 32 := Scalar.addi c0_i32_401 v437
  v438.toNat
def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_405 : BitVec 32 := 1#32
  let c1_i32_11 : BitVec 32 := 1#32
  let v18 : BitVec 32 := Scalar.andi v2 c1_i32_11
  let v448 : BitVec 32 := Scalar.subi c1_i32_405 v18
  let c128_i32_406 : BitVec 32 := 128#32
  let v449 : BitVec 32 := Scalar.muli v448 c128_i32_406
  let v450 : BitVec 32 := Scalar.addi v231 v449
  let v462 : Index := Scalar.indexCast v450
  let c384_426 : Index := 384#32
  ![v462.toNat, 384]
def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_405 : BitVec 32 := 1#32
  let c1_i32_11 : BitVec 32 := 1#32
  let v18 : BitVec 32 := Scalar.andi v2 c1_i32_11
  let v448 : BitVec 32 := Scalar.subi c1_i32_405 v18
  let c128_i32_406 : BitVec 32 := 128#32
  let v449 : BitVec 32 := Scalar.muli v448 c128_i32_406
  let v450 : BitVec 32 := Scalar.addi v231 v449
  let v461 : BitVec 32 := Scalar.subi v450 v231
  let v464 : Index := Scalar.indexCast v461
  let c384_427 : Index := 384#32
  ![v464.toNat, 384]
def k0_off38 (d0 : Dev nD) : Fin 2 → Nat :=
  let c1_i32_432 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_17 : BitVec 32 := 4#32
  let v25 : BitVec 32 := Scalar.shrsi v2 c4_i32_17
  let c1_i32_18 : BitVec 32 := 1#32
  let v26 : BitVec 32 := Scalar.andi v25 c1_i32_18
  let v478 : BitVec 32 := Scalar.subi c1_i32_432 v26
  let c64_i32_433 : BitVec 32 := 64#32
  let v479 : BitVec 32 := Scalar.muli v478 c64_i32_433
  let c384_i32_443 : BitVec 32 := 384#32
  ![v479.toNat, 384]
def k0_dev20 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v10 : BitVec 32 := Scalar.xori v2 c1_i32_3
  let c1_i32_441 : BitVec 32 := 1#32
  let v481 : BitVec 32 := Scalar.muli v10 c1_i32_441
  let v482 : BitVec 32 := Scalar.addi c0_i32_442 v481
  v482.toNat
def k0_off39 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_17 : BitVec 32 := 4#32
  let v25 : BitVec 32 := Scalar.shrsi v2 c4_i32_17
  let c1_i32_18 : BitVec 32 := 1#32
  let v26 : BitVec 32 := Scalar.andi v25 c1_i32_18
  let c64_i32_434 : BitVec 32 := 64#32
  let v480 : BitVec 32 := Scalar.muli v26 c64_i32_434
  let c384_i32_453 : BitVec 32 := 384#32
  ![v480.toNat, 384]
def k0_dev21 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v10 : BitVec 32 := Scalar.xori v2 c1_i32_3
  let c1_i32_451 : BitVec 32 := 1#32
  let v489 : BitVec 32 := Scalar.muli v10 c1_i32_451
  let v490 : BitVec 32 := Scalar.addi c0_i32_452 v489
  v490.toNat
def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c1_i32_456 : BitVec 32 := 1#32
  let v500 : BitVec 32 := Scalar.subi c1_i32_456 v20
  let c128_i32_457 : BitVec 32 := 128#32
  let v501 : BitVec 32 := Scalar.muli v500 c128_i32_457
  let v502 : BitVec 32 := Scalar.addi v283 v501
  let v514 : Index := Scalar.indexCast v502
  let c768_477 : Index := 768#32
  ![v514.toNat, 768]
def k0_off41 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c1_i32_456 : BitVec 32 := 1#32
  let v500 : BitVec 32 := Scalar.subi c1_i32_456 v20
  let c128_i32_457 : BitVec 32 := 128#32
  let v501 : BitVec 32 := Scalar.muli v500 c128_i32_457
  let v502 : BitVec 32 := Scalar.addi v283 v501
  let v513 : BitVec 32 := Scalar.subi v502 v283
  let v516 : Index := Scalar.indexCast v513
  let c768_478 : Index := 768#32
  ![v516.toNat, 768]
def k0_off42 (d0 : Dev nD) : Fin 2 → Nat :=
  let c1_i32_483 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_17 : BitVec 32 := 4#32
  let v25 : BitVec 32 := Scalar.shrsi v2 c4_i32_17
  let c1_i32_18 : BitVec 32 := 1#32
  let v26 : BitVec 32 := Scalar.andi v25 c1_i32_18
  let v530 : BitVec 32 := Scalar.subi c1_i32_483 v26
  let c64_i32_484 : BitVec 32 := 64#32
  let v531 : BitVec 32 := Scalar.muli v530 c64_i32_484
  let c768_i32_494 : BitVec 32 := 768#32
  ![v531.toNat, 768]
def k0_dev22 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_8 : BitVec 32 := 3#32
  let v15 : BitVec 32 := Scalar.xori v2 c3_i32_8
  let c1_i32_492 : BitVec 32 := 1#32
  let v533 : BitVec 32 := Scalar.muli v15 c1_i32_492
  let v534 : BitVec 32 := Scalar.addi c0_i32_493 v533
  v534.toNat
def k0_off43 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_17 : BitVec 32 := 4#32
  let v25 : BitVec 32 := Scalar.shrsi v2 c4_i32_17
  let c1_i32_18 : BitVec 32 := 1#32
  let v26 : BitVec 32 := Scalar.andi v25 c1_i32_18
  let c64_i32_485 : BitVec 32 := 64#32
  let v532 : BitVec 32 := Scalar.muli v26 c64_i32_485
  let c768_i32_504 : BitVec 32 := 768#32
  ![v532.toNat, 768]
def k0_dev23 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_8 : BitVec 32 := 3#32
  let v15 : BitVec 32 := Scalar.xori v2 c3_i32_8
  let c1_i32_502 : BitVec 32 := 1#32
  let v541 : BitVec 32 := Scalar.muli v15 c1_i32_502
  let v542 : BitVec 32 := Scalar.addi c0_i32_503 v541
  v542.toNat
def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let v560 : Index := Scalar.indexCast v395
  let c0_525 : Index := 0#32
  ![v560.toNat, 0]
def k0_off45 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let v445 : BitVec 32 := Scalar.subi v395 v179
  let v562 : Index := Scalar.indexCast v445
  let c0_526 : Index := 0#32
  ![v562.toNat, 0]
def k0_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let v580 : Index := Scalar.indexCast v447
  let c384_547 : Index := 384#32
  ![v580.toNat, 384]
def k0_off47 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let v497 : BitVec 32 := Scalar.subi v447 v231
  let v582 : Index := Scalar.indexCast v497
  let c384_548 : Index := 384#32
  ![v582.toNat, 384]
def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let v600 : Index := Scalar.indexCast v499
  let c768_569 : Index := 768#32
  ![v600.toNat, 768]
def k0_off49 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let v549 : BitVec 32 := Scalar.subi v499 v283
  let v602 : Index := Scalar.indexCast v549
  let c768_570 : Index := 768#32
  ![v602.toNat, 768]
def k0_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c1_i32_573 : BitVec 32 := 1#32
  let c2_i32 : BitVec 32 := 2#32
  let v21 : BitVec 32 := Scalar.shrsi v2 c2_i32
  let c1_i32_14 : BitVec 32 := 1#32
  let v22 : BitVec 32 := Scalar.andi v21 c1_i32_14
  let v612 : BitVec 32 := Scalar.subi c1_i32_573 v22
  let c64_i32_574 : BitVec 32 := 64#32
  let v613 : BitVec 32 := Scalar.muli v612 c64_i32_574
  let v614 : BitVec 32 := Scalar.addi v395 v613
  let v626 : Index := Scalar.indexCast v614
  let c0_594 : Index := 0#32
  ![v626.toNat, 0]
def k0_off51 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c1_i32_573 : BitVec 32 := 1#32
  let c2_i32 : BitVec 32 := 2#32
  let v21 : BitVec 32 := Scalar.shrsi v2 c2_i32
  let c1_i32_14 : BitVec 32 := 1#32
  let v22 : BitVec 32 := Scalar.andi v21 c1_i32_14
  let v612 : BitVec 32 := Scalar.subi c1_i32_573 v22
  let c64_i32_574 : BitVec 32 := 64#32
  let v613 : BitVec 32 := Scalar.muli v612 c64_i32_574
  let v614 : BitVec 32 := Scalar.addi v395 v613
  let v625 : BitVec 32 := Scalar.subi v614 v395
  let v628 : Index := Scalar.indexCast v625
  let c0_595 : Index := 0#32
  ![v628.toNat, 0]
def k0_off52 (d0 : Dev nD) : Fin 2 → Nat :=
  let c1_i32_600 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_17 : BitVec 32 := 4#32
  let v25 : BitVec 32 := Scalar.shrsi v2 c4_i32_17
  let c1_i32_18 : BitVec 32 := 1#32
  let v26 : BitVec 32 := Scalar.andi v25 c1_i32_18
  let v642 : BitVec 32 := Scalar.subi c1_i32_600 v26
  let c32_i32_601 : BitVec 32 := 32#32
  let v643 : BitVec 32 := Scalar.muli v642 c32_i32_601
  let c0_i32_611 : BitVec 32 := 0#32
  ![v643.toNat, 0]
def k0_dev24 (d0 : Dev nD) : Nat :=
  let c0_i32_610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v6 : BitVec 32 := Scalar.xori v2 c4_i32
  let c1_i32_609 : BitVec 32 := 1#32
  let v645 : BitVec 32 := Scalar.muli v6 c1_i32_609
  let v646 : BitVec 32 := Scalar.addi c0_i32_610 v645
  v646.toNat
def k0_off53 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_17 : BitVec 32 := 4#32
  let v25 : BitVec 32 := Scalar.shrsi v2 c4_i32_17
  let c1_i32_18 : BitVec 32 := 1#32
  let v26 : BitVec 32 := Scalar.andi v25 c1_i32_18
  let c32_i32_602 : BitVec 32 := 32#32
  let v644 : BitVec 32 := Scalar.muli v26 c32_i32_602
  let c0_i32_621 : BitVec 32 := 0#32
  ![v644.toNat, 0]
def k0_dev25 (d0 : Dev nD) : Nat :=
  let c0_i32_620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v6 : BitVec 32 := Scalar.xori v2 c4_i32
  let c1_i32_619 : BitVec 32 := 1#32
  let v653 : BitVec 32 := Scalar.muli v6 c1_i32_619
  let v654 : BitVec 32 := Scalar.addi c0_i32_620 v653
  v654.toNat
def k0_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c1_i32_624 : BitVec 32 := 1#32
  let c4_i32_17 : BitVec 32 := 4#32
  let v25 : BitVec 32 := Scalar.shrsi v2 c4_i32_17
  let c1_i32_18 : BitVec 32 := 1#32
  let v26 : BitVec 32 := Scalar.andi v25 c1_i32_18
  let v664 : BitVec 32 := Scalar.subi c1_i32_624 v26
  let c64_i32_625 : BitVec 32 := 64#32
  let v665 : BitVec 32 := Scalar.muli v664 c64_i32_625
  let v666 : BitVec 32 := Scalar.addi v447 v665
  let v678 : Index := Scalar.indexCast v666
  let c384_645 : Index := 384#32
  ![v678.toNat, 384]
def k0_off55 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c1_i32_624 : BitVec 32 := 1#32
  let c4_i32_17 : BitVec 32 := 4#32
  let v25 : BitVec 32 := Scalar.shrsi v2 c4_i32_17
  let c1_i32_18 : BitVec 32 := 1#32
  let v26 : BitVec 32 := Scalar.andi v25 c1_i32_18
  let v664 : BitVec 32 := Scalar.subi c1_i32_624 v26
  let c64_i32_625 : BitVec 32 := 64#32
  let v665 : BitVec 32 := Scalar.muli v664 c64_i32_625
  let v666 : BitVec 32 := Scalar.addi v447 v665
  let v677 : BitVec 32 := Scalar.subi v666 v447
  let v680 : Index := Scalar.indexCast v677
  let c384_646 : Index := 384#32
  ![v680.toNat, 384]
def k0_off56 (d0 : Dev nD) : Fin 2 → Nat :=
  let c1_i32_651 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v21 : BitVec 32 := Scalar.shrsi v2 c2_i32
  let c1_i32_14 : BitVec 32 := 1#32
  let v22 : BitVec 32 := Scalar.andi v21 c1_i32_14
  let v694 : BitVec 32 := Scalar.subi c1_i32_651 v22
  let c32_i32_652 : BitVec 32 := 32#32
  let v695 : BitVec 32 := Scalar.muli v694 c32_i32_652
  let c384_i32_662 : BitVec 32 := 384#32
  ![v695.toNat, 384]
def k0_dev26 (d0 : Dev nD) : Nat :=
  let c0_i32_661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4 : BitVec 32 := 16#32
  let v11 : BitVec 32 := Scalar.xori v2 c16_i32_4
  let c1_i32_660 : BitVec 32 := 1#32
  let v697 : BitVec 32 := Scalar.muli v11 c1_i32_660
  let v698 : BitVec 32 := Scalar.addi c0_i32_661 v697
  v698.toNat
def k0_off57 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v21 : BitVec 32 := Scalar.shrsi v2 c2_i32
  let c1_i32_14 : BitVec 32 := 1#32
  let v22 : BitVec 32 := Scalar.andi v21 c1_i32_14
  let c32_i32_653 : BitVec 32 := 32#32
  let v696 : BitVec 32 := Scalar.muli v22 c32_i32_653
  let c384_i32_672 : BitVec 32 := 384#32
  ![v696.toNat, 384]
def k0_dev27 (d0 : Dev nD) : Nat :=
  let c0_i32_671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4 : BitVec 32 := 16#32
  let v11 : BitVec 32 := Scalar.xori v2 c16_i32_4
  let c1_i32_670 : BitVec 32 := 1#32
  let v705 : BitVec 32 := Scalar.muli v11 c1_i32_670
  let v706 : BitVec 32 := Scalar.addi c0_i32_671 v705
  v706.toNat
def k0_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c1_i32_675 : BitVec 32 := 1#32
  let c4_i32_17 : BitVec 32 := 4#32
  let v25 : BitVec 32 := Scalar.shrsi v2 c4_i32_17
  let c1_i32_18 : BitVec 32 := 1#32
  let v26 : BitVec 32 := Scalar.andi v25 c1_i32_18
  let v716 : BitVec 32 := Scalar.subi c1_i32_675 v26
  let c64_i32_676 : BitVec 32 := 64#32
  let v717 : BitVec 32 := Scalar.muli v716 c64_i32_676
  let v718 : BitVec 32 := Scalar.addi v499 v717
  let v730 : Index := Scalar.indexCast v718
  let c768_696 : Index := 768#32
  ![v730.toNat, 768]
def k0_off59 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c1_i32_675 : BitVec 32 := 1#32
  let c4_i32_17 : BitVec 32 := 4#32
  let v25 : BitVec 32 := Scalar.shrsi v2 c4_i32_17
  let c1_i32_18 : BitVec 32 := 1#32
  let v26 : BitVec 32 := Scalar.andi v25 c1_i32_18
  let v716 : BitVec 32 := Scalar.subi c1_i32_675 v26
  let c64_i32_676 : BitVec 32 := 64#32
  let v717 : BitVec 32 := Scalar.muli v716 c64_i32_676
  let v718 : BitVec 32 := Scalar.addi v499 v717
  let v729 : BitVec 32 := Scalar.subi v718 v499
  let v732 : Index := Scalar.indexCast v729
  let c768_697 : Index := 768#32
  ![v732.toNat, 768]
def k0_off60 (d0 : Dev nD) : Fin 2 → Nat :=
  let c1_i32_702 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v21 : BitVec 32 := Scalar.shrsi v2 c2_i32
  let c1_i32_14 : BitVec 32 := 1#32
  let v22 : BitVec 32 := Scalar.andi v21 c1_i32_14
  let v746 : BitVec 32 := Scalar.subi c1_i32_702 v22
  let c32_i32_703 : BitVec 32 := 32#32
  let v747 : BitVec 32 := Scalar.muli v746 c32_i32_703
  let c768_i32_713 : BitVec 32 := 768#32
  ![v747.toNat, 768]
def k0_dev28 (d0 : Dev nD) : Nat :=
  let c0_i32_712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_9 : BitVec 32 := 16#32
  let v16 : BitVec 32 := Scalar.xori v2 c16_i32_9
  let c1_i32_711 : BitVec 32 := 1#32
  let v749 : BitVec 32 := Scalar.muli v16 c1_i32_711
  let v750 : BitVec 32 := Scalar.addi c0_i32_712 v749
  v750.toNat
def k0_off61 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v21 : BitVec 32 := Scalar.shrsi v2 c2_i32
  let c1_i32_14 : BitVec 32 := 1#32
  let v22 : BitVec 32 := Scalar.andi v21 c1_i32_14
  let c32_i32_704 : BitVec 32 := 32#32
  let v748 : BitVec 32 := Scalar.muli v22 c32_i32_704
  let c768_i32_723 : BitVec 32 := 768#32
  ![v748.toNat, 768]
def k0_dev29 (d0 : Dev nD) : Nat :=
  let c0_i32_722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_9 : BitVec 32 := 16#32
  let v16 : BitVec 32 := Scalar.xori v2 c16_i32_9
  let c1_i32_721 : BitVec 32 := 1#32
  let v757 : BitVec 32 := Scalar.muli v16 c1_i32_721
  let v758 : BitVec 32 := Scalar.addi c0_i32_722 v757
  v758.toNat
def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let v776 : Index := Scalar.indexCast v611
  let c0_744 : Index := 0#32
  ![v776.toNat, 0]
def k0_off63 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let v661 : BitVec 32 := Scalar.subi v611 v395
  let v778 : Index := Scalar.indexCast v661
  let c0_745 : Index := 0#32
  ![v778.toNat, 0]
def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let v796 : Index := Scalar.indexCast v663
  let c384_766 : Index := 384#32
  ![v796.toNat, 384]
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let v713 : BitVec 32 := Scalar.subi v663 v447
  let v798 : Index := Scalar.indexCast v713
  let c384_767 : Index := 384#32
  ![v798.toNat, 384]
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let v816 : Index := Scalar.indexCast v715
  let c768_788 : Index := 768#32
  ![v816.toNat, 768]
def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let v765 : BitVec 32 := Scalar.subi v715 v499
  let v818 : Index := Scalar.indexCast v765
  let c768_789 : Index := 768#32
  ![v818.toNat, 768]
def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c1_i32_792 : BitVec 32 := 1#32
  let c4_i32_17 : BitVec 32 := 4#32
  let v25 : BitVec 32 := Scalar.shrsi v2 c4_i32_17
  let c1_i32_18 : BitVec 32 := 1#32
  let v26 : BitVec 32 := Scalar.andi v25 c1_i32_18
  let v828 : BitVec 32 := Scalar.subi c1_i32_792 v26
  let c32_i32_793 : BitVec 32 := 32#32
  let v829 : BitVec 32 := Scalar.muli v828 c32_i32_793
  let v830 : BitVec 32 := Scalar.addi v611 v829
  let v842 : Index := Scalar.indexCast v830
  let c0_813 : Index := 0#32
  ![v842.toNat, 0]
def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c1_i32_792 : BitVec 32 := 1#32
  let c4_i32_17 : BitVec 32 := 4#32
  let v25 : BitVec 32 := Scalar.shrsi v2 c4_i32_17
  let c1_i32_18 : BitVec 32 := 1#32
  let v26 : BitVec 32 := Scalar.andi v25 c1_i32_18
  let v828 : BitVec 32 := Scalar.subi c1_i32_792 v26
  let c32_i32_793 : BitVec 32 := 32#32
  let v829 : BitVec 32 := Scalar.muli v828 c32_i32_793
  let v830 : BitVec 32 := Scalar.addi v611 v829
  let v841 : BitVec 32 := Scalar.subi v830 v611
  let v844 : Index := Scalar.indexCast v841
  let c0_814 : Index := 0#32
  ![v844.toNat, 0]
def k0_dev30 (d0 : Dev nD) : Nat :=
  let c0_i32_826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_825 : BitVec 32 := 1#32
  let v858 : BitVec 32 := Scalar.muli v7 c1_i32_825
  let v859 : BitVec 32 := Scalar.addi c0_i32_826 v858
  v859.toNat
def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c1_i32_832 : BitVec 32 := 1#32
  let c2_i32 : BitVec 32 := 2#32
  let v21 : BitVec 32 := Scalar.shrsi v2 c2_i32
  let c1_i32_14 : BitVec 32 := 1#32
  let v22 : BitVec 32 := Scalar.andi v21 c1_i32_14
  let v869 : BitVec 32 := Scalar.subi c1_i32_832 v22
  let c32_i32_833 : BitVec 32 := 32#32
  let v870 : BitVec 32 := Scalar.muli v869 c32_i32_833
  let v871 : BitVec 32 := Scalar.addi v663 v870
  let v883 : Index := Scalar.indexCast v871
  let c384_853 : Index := 384#32
  ![v883.toNat, 384]
def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c1_i32_832 : BitVec 32 := 1#32
  let c2_i32 : BitVec 32 := 2#32
  let v21 : BitVec 32 := Scalar.shrsi v2 c2_i32
  let c1_i32_14 : BitVec 32 := 1#32
  let v22 : BitVec 32 := Scalar.andi v21 c1_i32_14
  let v869 : BitVec 32 := Scalar.subi c1_i32_832 v22
  let c32_i32_833 : BitVec 32 := 32#32
  let v870 : BitVec 32 := Scalar.muli v869 c32_i32_833
  let v871 : BitVec 32 := Scalar.addi v663 v870
  let v882 : BitVec 32 := Scalar.subi v871 v663
  let v885 : Index := Scalar.indexCast v882
  let c384_854 : Index := 384#32
  ![v885.toNat, 384]
def k0_dev31 (d0 : Dev nD) : Nat :=
  let c0_i32_866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_5 : BitVec 32 := 4#32
  let v12 : BitVec 32 := Scalar.xori v2 c4_i32_5
  let c1_i32_865 : BitVec 32 := 1#32
  let v899 : BitVec 32 := Scalar.muli v12 c1_i32_865
  let v900 : BitVec 32 := Scalar.addi c0_i32_866 v899
  v900.toNat
def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c1_i32_872 : BitVec 32 := 1#32
  let c2_i32 : BitVec 32 := 2#32
  let v21 : BitVec 32 := Scalar.shrsi v2 c2_i32
  let c1_i32_14 : BitVec 32 := 1#32
  let v22 : BitVec 32 := Scalar.andi v21 c1_i32_14
  let v910 : BitVec 32 := Scalar.subi c1_i32_872 v22
  let c32_i32_873 : BitVec 32 := 32#32
  let v911 : BitVec 32 := Scalar.muli v910 c32_i32_873
  let v912 : BitVec 32 := Scalar.addi v715 v911
  let v924 : Index := Scalar.indexCast v912
  let c768_893 : Index := 768#32
  ![v924.toNat, 768]
def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c1_i32_872 : BitVec 32 := 1#32
  let c2_i32 : BitVec 32 := 2#32
  let v21 : BitVec 32 := Scalar.shrsi v2 c2_i32
  let c1_i32_14 : BitVec 32 := 1#32
  let v22 : BitVec 32 := Scalar.andi v21 c1_i32_14
  let v910 : BitVec 32 := Scalar.subi c1_i32_872 v22
  let c32_i32_873 : BitVec 32 := 32#32
  let v911 : BitVec 32 := Scalar.muli v910 c32_i32_873
  let v912 : BitVec 32 := Scalar.addi v715 v911
  let v923 : BitVec 32 := Scalar.subi v912 v715
  let v926 : Index := Scalar.indexCast v923
  let c768_894 : Index := 768#32
  ![v926.toNat, 768]
def k0_dev32 (d0 : Dev nD) : Nat :=
  let c0_i32_906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_10 : BitVec 32 := 4#32
  let v17 : BitVec 32 := Scalar.xori v2 c4_i32_10
  let c1_i32_905 : BitVec 32 := 1#32
  let v940 : BitVec 32 := Scalar.muli v17 c1_i32_905
  let v941 : BitVec 32 := Scalar.addi c0_i32_906 v940
  v941.toNat
def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let v959 : Index := Scalar.indexCast v827
  let c0_930 : Index := 0#32
  ![v959.toNat, 0]
def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let v866 : BitVec 32 := Scalar.subi v827 v611
  let v961 : Index := Scalar.indexCast v866
  let c0_931 : Index := 0#32
  ![v961.toNat, 0]
def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let v979 : Index := Scalar.indexCast v868
  let c384_952 : Index := 384#32
  ![v979.toNat, 384]
def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let v907 : BitVec 32 := Scalar.subi v868 v663
  let v981 : Index := Scalar.indexCast v907
  let c384_953 : Index := 384#32
  ![v981.toNat, 384]
def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let v999 : Index := Scalar.indexCast v909
  let c768_974 : Index := 768#32
  ![v999.toNat, 768]
def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let v948 : BitVec 32 := Scalar.subi v909 v715
  let v1001 : Index := Scalar.indexCast v948
  let c768_975 : Index := 768#32
  ![v1001.toNat, 768]
def k0_mult1 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  v827
def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let v1102 : BitVec 32 := v827
  let c0_i32_1078 : BitVec 32 := 0#32
  ![v1102.toNat, 0]
def k0_dev33 (d0 : Dev nD) : Nat :=
  let c0_i32_1077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v7 : BitVec 32 := Scalar.xori v2 c16_i32
  let c1_i32_1076 : BitVec 32 := 1#32
  let v1103 : BitVec 32 := Scalar.muli v7 c1_i32_1076
  let v1104 : BitVec 32 := Scalar.addi c0_i32_1077 v1103
  v1104.toNat
def k0_mult2 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  v868
def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let v1111 : BitVec 32 := v868
  let c384_i32_1088 : BitVec 32 := 384#32
  ![v1111.toNat, 384]
def k0_dev34 (d0 : Dev nD) : Nat :=
  let c0_i32_1087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_5 : BitVec 32 := 4#32
  let v12 : BitVec 32 := Scalar.xori v2 c4_i32_5
  let c1_i32_1086 : BitVec 32 := 1#32
  let v1112 : BitVec 32 := Scalar.muli v12 c1_i32_1086
  let v1113 : BitVec 32 := Scalar.addi c0_i32_1087 v1112
  v1113.toNat
def k0_mult3 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  v909
def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let v1120 : BitVec 32 := v909
  let c768_i32_1098 : BitVec 32 := 768#32
  ![v1120.toNat, 768]
def k0_dev35 (d0 : Dev nD) : Nat :=
  let c0_i32_1097 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_10 : BitVec 32 := 4#32
  let v17 : BitVec 32 := Scalar.xori v2 c4_i32_10
  let c1_i32_1096 : BitVec 32 := 1#32
  let v1121 : BitVec 32 := Scalar.muli v17 c1_i32_1096
  let v1122 : BitVec 32 := Scalar.addi c0_i32_1097 v1121
  v1122.toNat
def k0_mult4 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  v827
def k0_dev36 (d0 : Dev nD) : Nat :=
  let c0_i32_1107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v6 : BitVec 32 := Scalar.xori v2 c4_i32
  let c1_i32_1106 : BitVec 32 := 1#32
  let v1130 : BitVec 32 := Scalar.muli v6 c1_i32_1106
  let v1131 : BitVec 32 := Scalar.addi c0_i32_1107 v1130
  v1131.toNat
def k0_mult5 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let c1_i32_1130 : BitVec 32 := 1#32
  let c2_i32_1129 : BitVec 32 := 2#32
  let v1148 : BitVec 32 := Scalar.muli c2_i32_1129 v26
  let v1149 : BitVec 32 := Scalar.subi c1_i32_1130 v1148
  let c32_i32_1131 : BitVec 32 := 32#32
  let v1150 : BitVec 32 := Scalar.muli v1149 c32_i32_1131
  let v1151 : BitVec 32 := Scalar.addi v827 v1150
  v1151
def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let c1_i32_1130 : BitVec 32 := 1#32
  let c2_i32_1129 : BitVec 32 := 2#32
  let v1148 : BitVec 32 := Scalar.muli c2_i32_1129 v26
  let v1149 : BitVec 32 := Scalar.subi c1_i32_1130 v1148
  let c32_i32_1131 : BitVec 32 := 32#32
  let v1150 : BitVec 32 := Scalar.muli v1149 c32_i32_1131
  let v1151 : BitVec 32 := Scalar.addi v827 v1150
  let v1152 : BitVec 32 := v1151
  let c0_i32_1140 : BitVec 32 := 0#32
  ![v1152.toNat, 0]
def k0_dev37 (d0 : Dev nD) : Nat :=
  let c0_i32_1139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v6 : BitVec 32 := Scalar.xori v2 c4_i32
  let c1_i32_1138 : BitVec 32 := 1#32
  let v1153 : BitVec 32 := Scalar.muli v6 c1_i32_1138
  let v1154 : BitVec 32 := Scalar.addi c0_i32_1139 v1153
  v1154.toNat
def k0_mult6 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  v868
def k0_dev38 (d0 : Dev nD) : Nat :=
  let c0_i32_1150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4 : BitVec 32 := 16#32
  let v11 : BitVec 32 := Scalar.xori v2 c16_i32_4
  let c1_i32_1149 : BitVec 32 := 1#32
  let v1164 : BitVec 32 := Scalar.muli v11 c1_i32_1149
  let v1165 : BitVec 32 := Scalar.addi c0_i32_1150 v1164
  v1165.toNat
def k0_mult7 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let c1_i32_1173 : BitVec 32 := 1#32
  let c2_i32_1172 : BitVec 32 := 2#32
  let v1182 : BitVec 32 := Scalar.muli c2_i32_1172 v22
  let v1183 : BitVec 32 := Scalar.subi c1_i32_1173 v1182
  let c32_i32_1174 : BitVec 32 := 32#32
  let v1184 : BitVec 32 := Scalar.muli v1183 c32_i32_1174
  let v1185 : BitVec 32 := Scalar.addi v868 v1184
  v1185
def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let c1_i32_1173 : BitVec 32 := 1#32
  let c2_i32_1172 : BitVec 32 := 2#32
  let v1182 : BitVec 32 := Scalar.muli c2_i32_1172 v22
  let v1183 : BitVec 32 := Scalar.subi c1_i32_1173 v1182
  let c32_i32_1174 : BitVec 32 := 32#32
  let v1184 : BitVec 32 := Scalar.muli v1183 c32_i32_1174
  let v1185 : BitVec 32 := Scalar.addi v868 v1184
  let v1186 : BitVec 32 := v1185
  let c384_i32_1183 : BitVec 32 := 384#32
  ![v1186.toNat, 384]
def k0_dev39 (d0 : Dev nD) : Nat :=
  let c0_i32_1182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_4 : BitVec 32 := 16#32
  let v11 : BitVec 32 := Scalar.xori v2 c16_i32_4
  let c1_i32_1181 : BitVec 32 := 1#32
  let v1187 : BitVec 32 := Scalar.muli v11 c1_i32_1181
  let v1188 : BitVec 32 := Scalar.addi c0_i32_1182 v1187
  v1188.toNat
def k0_mult8 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  v909
def k0_dev40 (d0 : Dev nD) : Nat :=
  let c0_i32_1193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_9 : BitVec 32 := 16#32
  let v16 : BitVec 32 := Scalar.xori v2 c16_i32_9
  let c1_i32_1192 : BitVec 32 := 1#32
  let v1198 : BitVec 32 := Scalar.muli v16 c1_i32_1192
  let v1199 : BitVec 32 := Scalar.addi c0_i32_1193 v1198
  v1199.toNat
def k0_mult9 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let c1_i32_1216 : BitVec 32 := 1#32
  let c2_i32_1215 : BitVec 32 := 2#32
  let v1216 : BitVec 32 := Scalar.muli c2_i32_1215 v22
  let v1217 : BitVec 32 := Scalar.subi c1_i32_1216 v1216
  let c32_i32_1217 : BitVec 32 := 32#32
  let v1218 : BitVec 32 := Scalar.muli v1217 c32_i32_1217
  let v1219 : BitVec 32 := Scalar.addi v909 v1218
  v1219
def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let c1_i32_1216 : BitVec 32 := 1#32
  let c2_i32_1215 : BitVec 32 := 2#32
  let v1216 : BitVec 32 := Scalar.muli c2_i32_1215 v22
  let v1217 : BitVec 32 := Scalar.subi c1_i32_1216 v1216
  let c32_i32_1217 : BitVec 32 := 32#32
  let v1218 : BitVec 32 := Scalar.muli v1217 c32_i32_1217
  let v1219 : BitVec 32 := Scalar.addi v909 v1218
  let v1220 : BitVec 32 := v1219
  let c768_i32_1226 : BitVec 32 := 768#32
  ![v1220.toNat, 768]
def k0_dev41 (d0 : Dev nD) : Nat :=
  let c0_i32_1225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_9 : BitVec 32 := 16#32
  let v16 : BitVec 32 := Scalar.xori v2 c16_i32_9
  let c1_i32_1224 : BitVec 32 := 1#32
  let v1221 : BitVec 32 := Scalar.muli v16 c1_i32_1224
  let v1222 : BitVec 32 := Scalar.addi c0_i32_1225 v1221
  v1222.toNat
def k0_mult10 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let c32_i32_1142 : BitVec 32 := 32#32
  let v1161 : BitVec 32 := Scalar.muli v26 c32_i32_1142
  let v1162 : BitVec 32 := Scalar.subi v827 v1161
  v1162
def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let c32_i32_1142 : BitVec 32 := 32#32
  let v1161 : BitVec 32 := Scalar.muli v26 c32_i32_1142
  let v1162 : BitVec 32 := Scalar.subi v827 v1161
  let v1231 : BitVec 32 := v1162
  let c0_i32_1237 : BitVec 32 := 0#32
  ![v1231.toNat, 0]
def k0_dev42 (d0 : Dev nD) : Nat :=
  let c0_i32_1236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v5 : BitVec 32 := Scalar.xori v2 c8_i32
  let c1_i32_1235 : BitVec 32 := 1#32
  let v1232 : BitVec 32 := Scalar.muli v5 c1_i32_1235
  let v1233 : BitVec 32 := Scalar.addi c0_i32_1236 v1232
  v1233.toNat
def k0_mult11 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let c32_i32_1142 : BitVec 32 := 32#32
  let v1161 : BitVec 32 := Scalar.muli v26 c32_i32_1142
  let v1162 : BitVec 32 := Scalar.subi v827 v1161
  let c1_i32_1278 : BitVec 32 := 1#32
  let c2_i32_1277 : BitVec 32 := 2#32
  let v1260 : BitVec 32 := Scalar.muli c2_i32_1277 v22
  let v1261 : BitVec 32 := Scalar.subi c1_i32_1278 v1260
  let c64_i32_1279 : BitVec 32 := 64#32
  let v1262 : BitVec 32 := Scalar.muli v1261 c64_i32_1279
  let v1263 : BitVec 32 := Scalar.addi v1162 v1262
  v1263
def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let c32_i32_1142 : BitVec 32 := 32#32
  let v1161 : BitVec 32 := Scalar.muli v26 c32_i32_1142
  let v1162 : BitVec 32 := Scalar.subi v827 v1161
  let c1_i32_1278 : BitVec 32 := 1#32
  let c2_i32_1277 : BitVec 32 := 2#32
  let v1260 : BitVec 32 := Scalar.muli c2_i32_1277 v22
  let v1261 : BitVec 32 := Scalar.subi c1_i32_1278 v1260
  let c64_i32_1279 : BitVec 32 := 64#32
  let v1262 : BitVec 32 := Scalar.muli v1261 c64_i32_1279
  let v1263 : BitVec 32 := Scalar.addi v1162 v1262
  let v1264 : BitVec 32 := v1263
  let c0_i32_1288 : BitVec 32 := 0#32
  ![v1264.toNat, 0]
def k0_dev43 (d0 : Dev nD) : Nat :=
  let c0_i32_1287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v5 : BitVec 32 := Scalar.xori v2 c8_i32
  let c1_i32_1286 : BitVec 32 := 1#32
  let v1265 : BitVec 32 := Scalar.muli v5 c1_i32_1286
  let v1266 : BitVec 32 := Scalar.addi c0_i32_1287 v1265
  v1266.toNat
def k0_mult12 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let c32_i32_1185 : BitVec 32 := 32#32
  let v1195 : BitVec 32 := Scalar.muli v22 c32_i32_1185
  let v1196 : BitVec 32 := Scalar.subi v868 v1195
  v1196
def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let c32_i32_1185 : BitVec 32 := 32#32
  let v1195 : BitVec 32 := Scalar.muli v22 c32_i32_1185
  let v1196 : BitVec 32 := Scalar.subi v868 v1195
  let v1275 : BitVec 32 := v1196
  let c384_i32_1299 : BitVec 32 := 384#32
  ![v1275.toNat, 384]
def k0_dev44 (d0 : Dev nD) : Nat :=
  let c0_i32_1298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v10 : BitVec 32 := Scalar.xori v2 c1_i32_3
  let c1_i32_1297 : BitVec 32 := 1#32
  let v1276 : BitVec 32 := Scalar.muli v10 c1_i32_1297
  let v1277 : BitVec 32 := Scalar.addi c0_i32_1298 v1276
  v1277.toNat
def k0_mult13 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let c32_i32_1185 : BitVec 32 := 32#32
  let v1195 : BitVec 32 := Scalar.muli v22 c32_i32_1185
  let v1196 : BitVec 32 := Scalar.subi v868 v1195
  let c1_i32_1340 : BitVec 32 := 1#32
  let c2_i32_1339 : BitVec 32 := 2#32
  let v1304 : BitVec 32 := Scalar.muli c2_i32_1339 v26
  let v1305 : BitVec 32 := Scalar.subi c1_i32_1340 v1304
  let c64_i32_1341 : BitVec 32 := 64#32
  let v1306 : BitVec 32 := Scalar.muli v1305 c64_i32_1341
  let v1307 : BitVec 32 := Scalar.addi v1196 v1306
  v1307
def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let c32_i32_1185 : BitVec 32 := 32#32
  let v1195 : BitVec 32 := Scalar.muli v22 c32_i32_1185
  let v1196 : BitVec 32 := Scalar.subi v868 v1195
  let c1_i32_1340 : BitVec 32 := 1#32
  let c2_i32_1339 : BitVec 32 := 2#32
  let v1304 : BitVec 32 := Scalar.muli c2_i32_1339 v26
  let v1305 : BitVec 32 := Scalar.subi c1_i32_1340 v1304
  let c64_i32_1341 : BitVec 32 := 64#32
  let v1306 : BitVec 32 := Scalar.muli v1305 c64_i32_1341
  let v1307 : BitVec 32 := Scalar.addi v1196 v1306
  let v1308 : BitVec 32 := v1307
  let c384_i32_1350 : BitVec 32 := 384#32
  ![v1308.toNat, 384]
def k0_dev45 (d0 : Dev nD) : Nat :=
  let c0_i32_1349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v10 : BitVec 32 := Scalar.xori v2 c1_i32_3
  let c1_i32_1348 : BitVec 32 := 1#32
  let v1309 : BitVec 32 := Scalar.muli v10 c1_i32_1348
  let v1310 : BitVec 32 := Scalar.addi c0_i32_1349 v1309
  v1310.toNat
def k0_mult14 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let c32_i32_1228 : BitVec 32 := 32#32
  let v1229 : BitVec 32 := Scalar.muli v22 c32_i32_1228
  let v1230 : BitVec 32 := Scalar.subi v909 v1229
  v1230
def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let c32_i32_1228 : BitVec 32 := 32#32
  let v1229 : BitVec 32 := Scalar.muli v22 c32_i32_1228
  let v1230 : BitVec 32 := Scalar.subi v909 v1229
  let v1319 : BitVec 32 := v1230
  let c768_i32_1361 : BitVec 32 := 768#32
  ![v1319.toNat, 768]
def k0_dev46 (d0 : Dev nD) : Nat :=
  let c0_i32_1360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_8 : BitVec 32 := 3#32
  let v15 : BitVec 32 := Scalar.xori v2 c3_i32_8
  let c1_i32_1359 : BitVec 32 := 1#32
  let v1320 : BitVec 32 := Scalar.muli v15 c1_i32_1359
  let v1321 : BitVec 32 := Scalar.addi c0_i32_1360 v1320
  v1321.toNat
def k0_mult15 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let c32_i32_1228 : BitVec 32 := 32#32
  let v1229 : BitVec 32 := Scalar.muli v22 c32_i32_1228
  let v1230 : BitVec 32 := Scalar.subi v909 v1229
  let c1_i32_1402 : BitVec 32 := 1#32
  let c2_i32_1401 : BitVec 32 := 2#32
  let v1348 : BitVec 32 := Scalar.muli c2_i32_1401 v26
  let v1349 : BitVec 32 := Scalar.subi c1_i32_1402 v1348
  let c64_i32_1403 : BitVec 32 := 64#32
  let v1350 : BitVec 32 := Scalar.muli v1349 c64_i32_1403
  let v1351 : BitVec 32 := Scalar.addi v1230 v1350
  v1351
def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let c32_i32_1228 : BitVec 32 := 32#32
  let v1229 : BitVec 32 := Scalar.muli v22 c32_i32_1228
  let v1230 : BitVec 32 := Scalar.subi v909 v1229
  let c1_i32_1402 : BitVec 32 := 1#32
  let c2_i32_1401 : BitVec 32 := 2#32
  let v1348 : BitVec 32 := Scalar.muli c2_i32_1401 v26
  let v1349 : BitVec 32 := Scalar.subi c1_i32_1402 v1348
  let c64_i32_1403 : BitVec 32 := 64#32
  let v1350 : BitVec 32 := Scalar.muli v1349 c64_i32_1403
  let v1351 : BitVec 32 := Scalar.addi v1230 v1350
  let v1352 : BitVec 32 := v1351
  let c768_i32_1412 : BitVec 32 := 768#32
  ![v1352.toNat, 768]
def k0_dev47 (d0 : Dev nD) : Nat :=
  let c0_i32_1411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_8 : BitVec 32 := 3#32
  let v15 : BitVec 32 := Scalar.xori v2 c3_i32_8
  let c1_i32_1410 : BitVec 32 := 1#32
  let v1353 : BitVec 32 := Scalar.muli v15 c1_i32_1410
  let v1354 : BitVec 32 := Scalar.addi c0_i32_1411 v1353
  v1354.toNat
def k0_mult16 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let c32_i32_1142 : BitVec 32 := 32#32
  let v1161 : BitVec 32 := Scalar.muli v26 c32_i32_1142
  let v1162 : BitVec 32 := Scalar.subi v827 v1161
  let c64_i32_1290 : BitVec 32 := 64#32
  let v1273 : BitVec 32 := Scalar.muli v22 c64_i32_1290
  let v1274 : BitVec 32 := Scalar.subi v1162 v1273
  v1274
def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let c32_i32_1142 : BitVec 32 := 32#32
  let v1161 : BitVec 32 := Scalar.muli v26 c32_i32_1142
  let v1162 : BitVec 32 := Scalar.subi v827 v1161
  let c64_i32_1290 : BitVec 32 := 64#32
  let v1273 : BitVec 32 := Scalar.muli v22 c64_i32_1290
  let v1274 : BitVec 32 := Scalar.subi v1162 v1273
  let v1363 : BitVec 32 := v1274
  let c0_i32_1423 : BitVec 32 := 0#32
  ![v1363.toNat, 0]
def k0_dev48 (d0 : Dev nD) : Nat :=
  let c0_i32_1422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v4 : BitVec 32 := Scalar.xori v2 c3_i32
  let c1_i32_1421 : BitVec 32 := 1#32
  let v1364 : BitVec 32 := Scalar.muli v4 c1_i32_1421
  let v1365 : BitVec 32 := Scalar.addi c0_i32_1422 v1364
  v1365.toNat
def k0_mult17 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let c32_i32_1142 : BitVec 32 := 32#32
  let v1161 : BitVec 32 := Scalar.muli v26 c32_i32_1142
  let v1162 : BitVec 32 := Scalar.subi v827 v1161
  let c64_i32_1290 : BitVec 32 := 64#32
  let v1273 : BitVec 32 := Scalar.muli v22 c64_i32_1290
  let v1274 : BitVec 32 := Scalar.subi v1162 v1273
  let c1_i32_1464 : BitVec 32 := 1#32
  let c2_i32_1463 : BitVec 32 := 2#32
  let v1392 : BitVec 32 := Scalar.muli c2_i32_1463 v24
  let v1393 : BitVec 32 := Scalar.subi c1_i32_1464 v1392
  let c128_i32_1465 : BitVec 32 := 128#32
  let v1394 : BitVec 32 := Scalar.muli v1393 c128_i32_1465
  let v1395 : BitVec 32 := Scalar.addi v1274 v1394
  v1395
def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let c32_i32_1142 : BitVec 32 := 32#32
  let v1161 : BitVec 32 := Scalar.muli v26 c32_i32_1142
  let v1162 : BitVec 32 := Scalar.subi v827 v1161
  let c64_i32_1290 : BitVec 32 := 64#32
  let v1273 : BitVec 32 := Scalar.muli v22 c64_i32_1290
  let v1274 : BitVec 32 := Scalar.subi v1162 v1273
  let c1_i32_1464 : BitVec 32 := 1#32
  let c2_i32_1463 : BitVec 32 := 2#32
  let v1392 : BitVec 32 := Scalar.muli c2_i32_1463 v24
  let v1393 : BitVec 32 := Scalar.subi c1_i32_1464 v1392
  let c128_i32_1465 : BitVec 32 := 128#32
  let v1394 : BitVec 32 := Scalar.muli v1393 c128_i32_1465
  let v1395 : BitVec 32 := Scalar.addi v1274 v1394
  let v1396 : BitVec 32 := v1395
  let c0_i32_1474 : BitVec 32 := 0#32
  ![v1396.toNat, 0]
def k0_dev49 (d0 : Dev nD) : Nat :=
  let c0_i32_1473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v4 : BitVec 32 := Scalar.xori v2 c3_i32
  let c1_i32_1472 : BitVec 32 := 1#32
  let v1397 : BitVec 32 := Scalar.muli v4 c1_i32_1472
  let v1398 : BitVec 32 := Scalar.addi c0_i32_1473 v1397
  v1398.toNat
def k0_mult18 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let c32_i32_1185 : BitVec 32 := 32#32
  let v1195 : BitVec 32 := Scalar.muli v22 c32_i32_1185
  let v1196 : BitVec 32 := Scalar.subi v868 v1195
  let c64_i32_1352 : BitVec 32 := 64#32
  let v1317 : BitVec 32 := Scalar.muli v26 c64_i32_1352
  let v1318 : BitVec 32 := Scalar.subi v1196 v1317
  v1318
def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let c32_i32_1185 : BitVec 32 := 32#32
  let v1195 : BitVec 32 := Scalar.muli v22 c32_i32_1185
  let v1196 : BitVec 32 := Scalar.subi v868 v1195
  let c64_i32_1352 : BitVec 32 := 64#32
  let v1317 : BitVec 32 := Scalar.muli v26 c64_i32_1352
  let v1318 : BitVec 32 := Scalar.subi v1196 v1317
  let v1407 : BitVec 32 := v1318
  let c384_i32_1485 : BitVec 32 := 384#32
  ![v1407.toNat, 384]
def k0_dev50 (d0 : Dev nD) : Nat :=
  let c0_i32_1484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2 : BitVec 32 := 8#32
  let v9 : BitVec 32 := Scalar.xori v2 c8_i32_2
  let c1_i32_1483 : BitVec 32 := 1#32
  let v1408 : BitVec 32 := Scalar.muli v9 c1_i32_1483
  let v1409 : BitVec 32 := Scalar.addi c0_i32_1484 v1408
  v1409.toNat
def k0_mult19 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let c32_i32_1185 : BitVec 32 := 32#32
  let v1195 : BitVec 32 := Scalar.muli v22 c32_i32_1185
  let v1196 : BitVec 32 := Scalar.subi v868 v1195
  let c64_i32_1352 : BitVec 32 := 64#32
  let v1317 : BitVec 32 := Scalar.muli v26 c64_i32_1352
  let v1318 : BitVec 32 := Scalar.subi v1196 v1317
  let c1_i32_1526 : BitVec 32 := 1#32
  let c2_i32_1525 : BitVec 32 := 2#32
  let v1436 : BitVec 32 := Scalar.muli c2_i32_1525 v18
  let v1437 : BitVec 32 := Scalar.subi c1_i32_1526 v1436
  let c128_i32_1527 : BitVec 32 := 128#32
  let v1438 : BitVec 32 := Scalar.muli v1437 c128_i32_1527
  let v1439 : BitVec 32 := Scalar.addi v1318 v1438
  v1439
def k0_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let c32_i32_1185 : BitVec 32 := 32#32
  let v1195 : BitVec 32 := Scalar.muli v22 c32_i32_1185
  let v1196 : BitVec 32 := Scalar.subi v868 v1195
  let c64_i32_1352 : BitVec 32 := 64#32
  let v1317 : BitVec 32 := Scalar.muli v26 c64_i32_1352
  let v1318 : BitVec 32 := Scalar.subi v1196 v1317
  let c1_i32_1526 : BitVec 32 := 1#32
  let c2_i32_1525 : BitVec 32 := 2#32
  let v1436 : BitVec 32 := Scalar.muli c2_i32_1525 v18
  let v1437 : BitVec 32 := Scalar.subi c1_i32_1526 v1436
  let c128_i32_1527 : BitVec 32 := 128#32
  let v1438 : BitVec 32 := Scalar.muli v1437 c128_i32_1527
  let v1439 : BitVec 32 := Scalar.addi v1318 v1438
  let v1440 : BitVec 32 := v1439
  let c384_i32_1536 : BitVec 32 := 384#32
  ![v1440.toNat, 384]
def k0_dev51 (d0 : Dev nD) : Nat :=
  let c0_i32_1535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2 : BitVec 32 := 8#32
  let v9 : BitVec 32 := Scalar.xori v2 c8_i32_2
  let c1_i32_1534 : BitVec 32 := 1#32
  let v1441 : BitVec 32 := Scalar.muli v9 c1_i32_1534
  let v1442 : BitVec 32 := Scalar.addi c0_i32_1535 v1441
  v1442.toNat
def k0_mult20 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let c32_i32_1228 : BitVec 32 := 32#32
  let v1229 : BitVec 32 := Scalar.muli v22 c32_i32_1228
  let v1230 : BitVec 32 := Scalar.subi v909 v1229
  let c64_i32_1414 : BitVec 32 := 64#32
  let v1361 : BitVec 32 := Scalar.muli v26 c64_i32_1414
  let v1362 : BitVec 32 := Scalar.subi v1230 v1361
  v1362
def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let c32_i32_1228 : BitVec 32 := 32#32
  let v1229 : BitVec 32 := Scalar.muli v22 c32_i32_1228
  let v1230 : BitVec 32 := Scalar.subi v909 v1229
  let c64_i32_1414 : BitVec 32 := 64#32
  let v1361 : BitVec 32 := Scalar.muli v26 c64_i32_1414
  let v1362 : BitVec 32 := Scalar.subi v1230 v1361
  let v1451 : BitVec 32 := v1362
  let c768_i32_1547 : BitVec 32 := 768#32
  ![v1451.toNat, 768]
def k0_dev52 (d0 : Dev nD) : Nat :=
  let c0_i32_1546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v14 : BitVec 32 := Scalar.xori v2 c1_i32_7
  let c1_i32_1545 : BitVec 32 := 1#32
  let v1452 : BitVec 32 := Scalar.muli v14 c1_i32_1545
  let v1453 : BitVec 32 := Scalar.addi c0_i32_1546 v1452
  v1453.toNat
def k0_mult21 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let c32_i32_1228 : BitVec 32 := 32#32
  let v1229 : BitVec 32 := Scalar.muli v22 c32_i32_1228
  let v1230 : BitVec 32 := Scalar.subi v909 v1229
  let c64_i32_1414 : BitVec 32 := 64#32
  let v1361 : BitVec 32 := Scalar.muli v26 c64_i32_1414
  let v1362 : BitVec 32 := Scalar.subi v1230 v1361
  let c1_i32_1588 : BitVec 32 := 1#32
  let c2_i32_1587 : BitVec 32 := 2#32
  let v1480 : BitVec 32 := Scalar.muli c2_i32_1587 v20
  let v1481 : BitVec 32 := Scalar.subi c1_i32_1588 v1480
  let c128_i32_1589 : BitVec 32 := 128#32
  let v1482 : BitVec 32 := Scalar.muli v1481 c128_i32_1589
  let v1483 : BitVec 32 := Scalar.addi v1362 v1482
  v1483
def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let c32_i32_1228 : BitVec 32 := 32#32
  let v1229 : BitVec 32 := Scalar.muli v22 c32_i32_1228
  let v1230 : BitVec 32 := Scalar.subi v909 v1229
  let c64_i32_1414 : BitVec 32 := 64#32
  let v1361 : BitVec 32 := Scalar.muli v26 c64_i32_1414
  let v1362 : BitVec 32 := Scalar.subi v1230 v1361
  let c1_i32_1588 : BitVec 32 := 1#32
  let c2_i32_1587 : BitVec 32 := 2#32
  let v1480 : BitVec 32 := Scalar.muli c2_i32_1587 v20
  let v1481 : BitVec 32 := Scalar.subi c1_i32_1588 v1480
  let c128_i32_1589 : BitVec 32 := 128#32
  let v1482 : BitVec 32 := Scalar.muli v1481 c128_i32_1589
  let v1483 : BitVec 32 := Scalar.addi v1362 v1482
  let v1484 : BitVec 32 := v1483
  let c768_i32_1598 : BitVec 32 := 768#32
  ![v1484.toNat, 768]
def k0_dev53 (d0 : Dev nD) : Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v14 : BitVec 32 := Scalar.xori v2 c1_i32_7
  let c1_i32_1596 : BitVec 32 := 1#32
  let v1485 : BitVec 32 := Scalar.muli v14 c1_i32_1596
  let v1486 : BitVec 32 := Scalar.addi c0_i32_1597 v1485
  v1486.toNat
def k0_mult22 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let c32_i32_1142 : BitVec 32 := 32#32
  let v1161 : BitVec 32 := Scalar.muli v26 c32_i32_1142
  let v1162 : BitVec 32 := Scalar.subi v827 v1161
  let c64_i32_1290 : BitVec 32 := 64#32
  let v1273 : BitVec 32 := Scalar.muli v22 c64_i32_1290
  let v1274 : BitVec 32 := Scalar.subi v1162 v1273
  let c128_i32_1476 : BitVec 32 := 128#32
  let v1405 : BitVec 32 := Scalar.muli v24 c128_i32_1476
  let v1406 : BitVec 32 := Scalar.subi v1274 v1405
  v1406
def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let c32_i32_1142 : BitVec 32 := 32#32
  let v1161 : BitVec 32 := Scalar.muli v26 c32_i32_1142
  let v1162 : BitVec 32 := Scalar.subi v827 v1161
  let c64_i32_1290 : BitVec 32 := 64#32
  let v1273 : BitVec 32 := Scalar.muli v22 c64_i32_1290
  let v1274 : BitVec 32 := Scalar.subi v1162 v1273
  let c128_i32_1476 : BitVec 32 := 128#32
  let v1405 : BitVec 32 := Scalar.muli v24 c128_i32_1476
  let v1406 : BitVec 32 := Scalar.subi v1274 v1405
  let v1495 : BitVec 32 := v1406
  let c0_i32_1609 : BitVec 32 := 0#32
  ![v1495.toNat, 0]
def k0_dev54 (d0 : Dev nD) : Nat :=
  let c0_i32_1608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_1607 : BitVec 32 := 1#32
  let v1496 : BitVec 32 := Scalar.muli v3 c1_i32_1607
  let v1497 : BitVec 32 := Scalar.addi c0_i32_1608 v1496
  v1497.toNat
def k0_mult23 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let c32_i32_1142 : BitVec 32 := 32#32
  let v1161 : BitVec 32 := Scalar.muli v26 c32_i32_1142
  let v1162 : BitVec 32 := Scalar.subi v827 v1161
  let c64_i32_1290 : BitVec 32 := 64#32
  let v1273 : BitVec 32 := Scalar.muli v22 c64_i32_1290
  let v1274 : BitVec 32 := Scalar.subi v1162 v1273
  let c128_i32_1476 : BitVec 32 := 128#32
  let v1405 : BitVec 32 := Scalar.muli v24 c128_i32_1476
  let v1406 : BitVec 32 := Scalar.subi v1274 v1405
  let c1_i32_1650 : BitVec 32 := 1#32
  let c2_i32_1649 : BitVec 32 := 2#32
  let v1524 : BitVec 32 := Scalar.muli c2_i32_1649 v20
  let v1525 : BitVec 32 := Scalar.subi c1_i32_1650 v1524
  let c256_i32_1651 : BitVec 32 := 256#32
  let v1526 : BitVec 32 := Scalar.muli v1525 c256_i32_1651
  let v1527 : BitVec 32 := Scalar.addi v1406 v1526
  v1527
def k0_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v27 : BitVec 32 := Scalar.xori v18 v20
  let c512_i32 : BitVec 32 := 512#32
  let v40 : BitVec 32 := Scalar.muli v27 c512_i32
  let c256_i32_136 : BitVec 32 := 256#32
  let v178 : BitVec 32 := Scalar.muli v20 c256_i32_136
  let v179 : BitVec 32 := Scalar.addi v40 v178
  let c3_i32_15 : BitVec 32 := 3#32
  let v23 : BitVec 32 := Scalar.shrsi v2 c3_i32_15
  let c1_i32_16 : BitVec 32 := 1#32
  let v24 : BitVec 32 := Scalar.andi v23 c1_i32_16
  let c128_i32_354 : BitVec 32 := 128#32
  let v394 : BitVec 32 := Scalar.muli v24 c128_i32_354
  let v395 : BitVec 32 := Scalar.addi v179 v394
  let c2_i32 : BitVec 32 := 2#32
  let v21 : BitVec 32 := Scalar.shrsi v2 c2_i32
  let c1_i32_14 : BitVec 32 := 1#32
  let v22 : BitVec 32 := Scalar.andi v21 c1_i32_14
  let c64_i32_572 : BitVec 32 := 64#32
  let v610 : BitVec 32 := Scalar.muli v22 c64_i32_572
  let v611 : BitVec 32 := Scalar.addi v395 v610
  let c4_i32_17 : BitVec 32 := 4#32
  let v25 : BitVec 32 := Scalar.shrsi v2 c4_i32_17
  let c1_i32_18 : BitVec 32 := 1#32
  let v26 : BitVec 32 := Scalar.andi v25 c1_i32_18
  let c32_i32_791 : BitVec 32 := 32#32
  let v826 : BitVec 32 := Scalar.muli v26 c32_i32_791
  let v827 : BitVec 32 := Scalar.addi v611 v826
  let c32_i32_1142 : BitVec 32 := 32#32
  let v1161 : BitVec 32 := Scalar.muli v26 c32_i32_1142
  let v1162 : BitVec 32 := Scalar.subi v827 v1161
  let c64_i32_1290 : BitVec 32 := 64#32
  let v1273 : BitVec 32 := Scalar.muli v22 c64_i32_1290
  let v1274 : BitVec 32 := Scalar.subi v1162 v1273
  let c128_i32_1476 : BitVec 32 := 128#32
  let v1405 : BitVec 32 := Scalar.muli v24 c128_i32_1476
  let v1406 : BitVec 32 := Scalar.subi v1274 v1405
  let c1_i32_1650 : BitVec 32 := 1#32
  let c2_i32_1649 : BitVec 32 := 2#32
  let v1524 : BitVec 32 := Scalar.muli c2_i32_1649 v20
  let v1525 : BitVec 32 := Scalar.subi c1_i32_1650 v1524
  let c256_i32_1651 : BitVec 32 := 256#32
  let v1526 : BitVec 32 := Scalar.muli v1525 c256_i32_1651
  let v1527 : BitVec 32 := Scalar.addi v1406 v1526
  let v1528 : BitVec 32 := v1527
  let c0_i32_1660 : BitVec 32 := 0#32
  ![v1528.toNat, 0]
def k0_dev55 (d0 : Dev nD) : Nat :=
  let c0_i32_1659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.xori v2 c1_i32_0
  let c1_i32_1658 : BitVec 32 := 1#32
  let v1529 : BitVec 32 := Scalar.muli v3 c1_i32_1658
  let v1530 : BitVec 32 := Scalar.addi c0_i32_1659 v1529
  v1530.toNat
def k0_mult24 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let c32_i32_1185 : BitVec 32 := 32#32
  let v1195 : BitVec 32 := Scalar.muli v22 c32_i32_1185
  let v1196 : BitVec 32 := Scalar.subi v868 v1195
  let c64_i32_1352 : BitVec 32 := 64#32
  let v1317 : BitVec 32 := Scalar.muli v26 c64_i32_1352
  let v1318 : BitVec 32 := Scalar.subi v1196 v1317
  let c128_i32_1538 : BitVec 32 := 128#32
  let v1449 : BitVec 32 := Scalar.muli v18 c128_i32_1538
  let v1450 : BitVec 32 := Scalar.subi v1318 v1449
  v1450
def k0_off100 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let c32_i32_1185 : BitVec 32 := 32#32
  let v1195 : BitVec 32 := Scalar.muli v22 c32_i32_1185
  let v1196 : BitVec 32 := Scalar.subi v868 v1195
  let c64_i32_1352 : BitVec 32 := 64#32
  let v1317 : BitVec 32 := Scalar.muli v26 c64_i32_1352
  let v1318 : BitVec 32 := Scalar.subi v1196 v1317
  let c128_i32_1538 : BitVec 32 := 128#32
  let v1449 : BitVec 32 := Scalar.muli v18 c128_i32_1538
  let v1450 : BitVec 32 := Scalar.subi v1318 v1449
  let v1537 : BitVec 32 := v1450
  let c384_i32_1670 : BitVec 32 := 384#32
  ![v1537.toNat, 384]
def k0_dev56 (d0 : Dev nD) : Nat :=
  let c0_i32_1669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1 : BitVec 32 := 3#32
  let v8 : BitVec 32 := Scalar.xori v2 c3_i32_1
  let c1_i32_1668 : BitVec 32 := 1#32
  let v1538 : BitVec 32 := Scalar.muli v8 c1_i32_1668
  let v1539 : BitVec 32 := Scalar.addi c0_i32_1669 v1538
  v1539.toNat
def k0_mult25 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let c32_i32_1185 : BitVec 32 := 32#32
  let v1195 : BitVec 32 := Scalar.muli v22 c32_i32_1185
  let v1196 : BitVec 32 := Scalar.subi v868 v1195
  let c64_i32_1352 : BitVec 32 := 64#32
  let v1317 : BitVec 32 := Scalar.muli v26 c64_i32_1352
  let v1318 : BitVec 32 := Scalar.subi v1196 v1317
  let c128_i32_1538 : BitVec 32 := 128#32
  let v1449 : BitVec 32 := Scalar.muli v18 c128_i32_1538
  let v1450 : BitVec 32 := Scalar.subi v1318 v1449
  let c1_i32_1711 : BitVec 32 := 1#32
  let c2_i32_1710 : BitVec 32 := 2#32
  let v1566 : BitVec 32 := Scalar.muli c2_i32_1710 v24
  let v1567 : BitVec 32 := Scalar.subi c1_i32_1711 v1566
  let c256_i32_1712 : BitVec 32 := 256#32
  let v1568 : BitVec 32 := Scalar.muli v1567 c256_i32_1712
  let v1569 : BitVec 32 := Scalar.addi v1450 v1568
  v1569
def k0_off101 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v19 : BitVec 32 := Scalar.shrsi v2 c1_i32_12
  let c1_i32_13 : BitVec 32 := 1#32
  let v20 : BitVec 32 := Scalar.andi v19 c1_i32_13
  let c512_i32_61 : BitVec 32 := 512#32
  let v74 : BitVec 32 := Scalar.muli v20 c512_i32_61
  let c3_i32_15 : BitVec 32 := 3#32
  let v23 : BitVec 32 := Scalar.shrsi v2 c3_i32_15
  let c1_i32_16 : BitVec 32 := 1#32
  let v24 : BitVec 32 := Scalar.andi v23 c1_i32_16
  let c256_i32_186 : BitVec 32 := 256#32
  let v230 : BitVec 32 := Scalar.muli v24 c256_i32_186
  let v231 : BitVec 32 := Scalar.addi v74 v230
  let c1_i32_11 : BitVec 32 := 1#32
  let v18 : BitVec 32 := Scalar.andi v2 c1_i32_11
  let c128_i32_404 : BitVec 32 := 128#32
  let v446 : BitVec 32 := Scalar.muli v18 c128_i32_404
  let v447 : BitVec 32 := Scalar.addi v231 v446
  let c4_i32_17 : BitVec 32 := 4#32
  let v25 : BitVec 32 := Scalar.shrsi v2 c4_i32_17
  let c1_i32_18 : BitVec 32 := 1#32
  let v26 : BitVec 32 := Scalar.andi v25 c1_i32_18
  let c64_i32_623 : BitVec 32 := 64#32
  let v662 : BitVec 32 := Scalar.muli v26 c64_i32_623
  let v663 : BitVec 32 := Scalar.addi v447 v662
  let c2_i32 : BitVec 32 := 2#32
  let v21 : BitVec 32 := Scalar.shrsi v2 c2_i32
  let c1_i32_14 : BitVec 32 := 1#32
  let v22 : BitVec 32 := Scalar.andi v21 c1_i32_14
  let c32_i32_831 : BitVec 32 := 32#32
  let v867 : BitVec 32 := Scalar.muli v22 c32_i32_831
  let v868 : BitVec 32 := Scalar.addi v663 v867
  let c32_i32_1185 : BitVec 32 := 32#32
  let v1195 : BitVec 32 := Scalar.muli v22 c32_i32_1185
  let v1196 : BitVec 32 := Scalar.subi v868 v1195
  let c64_i32_1352 : BitVec 32 := 64#32
  let v1317 : BitVec 32 := Scalar.muli v26 c64_i32_1352
  let v1318 : BitVec 32 := Scalar.subi v1196 v1317
  let c128_i32_1538 : BitVec 32 := 128#32
  let v1449 : BitVec 32 := Scalar.muli v18 c128_i32_1538
  let v1450 : BitVec 32 := Scalar.subi v1318 v1449
  let c1_i32_1711 : BitVec 32 := 1#32
  let c2_i32_1710 : BitVec 32 := 2#32
  let v1566 : BitVec 32 := Scalar.muli c2_i32_1710 v24
  let v1567 : BitVec 32 := Scalar.subi c1_i32_1711 v1566
  let c256_i32_1712 : BitVec 32 := 256#32
  let v1568 : BitVec 32 := Scalar.muli v1567 c256_i32_1712
  let v1569 : BitVec 32 := Scalar.addi v1450 v1568
  let v1570 : BitVec 32 := v1569
  let c384_i32_1721 : BitVec 32 := 384#32
  ![v1570.toNat, 384]
def k0_dev57 (d0 : Dev nD) : Nat :=
  let c0_i32_1720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1 : BitVec 32 := 3#32
  let v8 : BitVec 32 := Scalar.xori v2 c3_i32_1
  let c1_i32_1719 : BitVec 32 := 1#32
  let v1571 : BitVec 32 := Scalar.muli v8 c1_i32_1719
  let v1572 : BitVec 32 := Scalar.addi c0_i32_1720 v1571
  v1572.toNat
def k0_mult26 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let c32_i32_1228 : BitVec 32 := 32#32
  let v1229 : BitVec 32 := Scalar.muli v22 c32_i32_1228
  let v1230 : BitVec 32 := Scalar.subi v909 v1229
  let c64_i32_1414 : BitVec 32 := 64#32
  let v1361 : BitVec 32 := Scalar.muli v26 c64_i32_1414
  let v1362 : BitVec 32 := Scalar.subi v1230 v1361
  let c128_i32_1600 : BitVec 32 := 128#32
  let v1493 : BitVec 32 := Scalar.muli v20 c128_i32_1600
  let v1494 : BitVec 32 := Scalar.subi v1362 v1493
  v1494
def k0_off102 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let c32_i32_1228 : BitVec 32 := 32#32
  let v1229 : BitVec 32 := Scalar.muli v22 c32_i32_1228
  let v1230 : BitVec 32 := Scalar.subi v909 v1229
  let c64_i32_1414 : BitVec 32 := 64#32
  let v1361 : BitVec 32 := Scalar.muli v26 c64_i32_1414
  let v1362 : BitVec 32 := Scalar.subi v1230 v1361
  let c128_i32_1600 : BitVec 32 := 128#32
  let v1493 : BitVec 32 := Scalar.muli v20 c128_i32_1600
  let v1494 : BitVec 32 := Scalar.subi v1362 v1493
  let v1579 : BitVec 32 := v1494
  let c768_i32_1731 : BitVec 32 := 768#32
  ![v1579.toNat, 768]
def k0_dev58 (d0 : Dev nD) : Nat :=
  let c0_i32_1730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_6 : BitVec 32 := 8#32
  let v13 : BitVec 32 := Scalar.xori v2 c8_i32_6
  let c1_i32_1729 : BitVec 32 := 1#32
  let v1580 : BitVec 32 := Scalar.muli v13 c1_i32_1729
  let v1581 : BitVec 32 := Scalar.addi c0_i32_1730 v1580
  v1581.toNat
def k0_mult27 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let c32_i32_1228 : BitVec 32 := 32#32
  let v1229 : BitVec 32 := Scalar.muli v22 c32_i32_1228
  let v1230 : BitVec 32 := Scalar.subi v909 v1229
  let c64_i32_1414 : BitVec 32 := 64#32
  let v1361 : BitVec 32 := Scalar.muli v26 c64_i32_1414
  let v1362 : BitVec 32 := Scalar.subi v1230 v1361
  let c128_i32_1600 : BitVec 32 := 128#32
  let v1493 : BitVec 32 := Scalar.muli v20 c128_i32_1600
  let v1494 : BitVec 32 := Scalar.subi v1362 v1493
  let c1_i32_1772 : BitVec 32 := 1#32
  let c2_i32_1771 : BitVec 32 := 2#32
  let v1608 : BitVec 32 := Scalar.muli c2_i32_1771 v28
  let v1609 : BitVec 32 := Scalar.subi c1_i32_1772 v1608
  let c256_i32_1773 : BitVec 32 := 256#32
  let v1610 : BitVec 32 := Scalar.muli v1609 c256_i32_1773
  let v1611 : BitVec 32 := Scalar.addi v1494 v1610
  v1611
def k0_off103 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_15 : BitVec 32 := 3#32
  let v23 : BitVec 32 := Scalar.shrsi v2 c3_i32_15
  let c1_i32_16 : BitVec 32 := 1#32
  let v24 : BitVec 32 := Scalar.andi v23 c1_i32_16
  let c512_i32_91 : BitVec 32 := 512#32
  let v108 : BitVec 32 := Scalar.muli v24 c512_i32_91
  let c1_i32_11 : BitVec 32 := 1#32
  let v18 : BitVec 32 := Scalar.andi v2 c1_i32_11
  let c1_i32_12 : BitVec 32 := 1#32
  let v19 : BitVec 32 := Scalar.shrsi v2 c1_i32_12
  let c1_i32_13 : BitVec 32 := 1#32
  let v20 : BitVec 32 := Scalar.andi v19 c1_i32_13
  let v28 : BitVec 32 := Scalar.xori v18 v20
  let c256_i32_237 : BitVec 32 := 256#32
  let v282 : BitVec 32 := Scalar.muli v28 c256_i32_237
  let v283 : BitVec 32 := Scalar.addi v108 v282
  let c128_i32_455 : BitVec 32 := 128#32
  let v498 : BitVec 32 := Scalar.muli v20 c128_i32_455
  let v499 : BitVec 32 := Scalar.addi v283 v498
  let c4_i32_17 : BitVec 32 := 4#32
  let v25 : BitVec 32 := Scalar.shrsi v2 c4_i32_17
  let c1_i32_18 : BitVec 32 := 1#32
  let v26 : BitVec 32 := Scalar.andi v25 c1_i32_18
  let c64_i32_674 : BitVec 32 := 64#32
  let v714 : BitVec 32 := Scalar.muli v26 c64_i32_674
  let v715 : BitVec 32 := Scalar.addi v499 v714
  let c2_i32 : BitVec 32 := 2#32
  let v21 : BitVec 32 := Scalar.shrsi v2 c2_i32
  let c1_i32_14 : BitVec 32 := 1#32
  let v22 : BitVec 32 := Scalar.andi v21 c1_i32_14
  let c32_i32_871 : BitVec 32 := 32#32
  let v908 : BitVec 32 := Scalar.muli v22 c32_i32_871
  let v909 : BitVec 32 := Scalar.addi v715 v908
  let c32_i32_1228 : BitVec 32 := 32#32
  let v1229 : BitVec 32 := Scalar.muli v22 c32_i32_1228
  let v1230 : BitVec 32 := Scalar.subi v909 v1229
  let c64_i32_1414 : BitVec 32 := 64#32
  let v1361 : BitVec 32 := Scalar.muli v26 c64_i32_1414
  let v1362 : BitVec 32 := Scalar.subi v1230 v1361
  let c128_i32_1600 : BitVec 32 := 128#32
  let v1493 : BitVec 32 := Scalar.muli v20 c128_i32_1600
  let v1494 : BitVec 32 := Scalar.subi v1362 v1493
  let c1_i32_1772 : BitVec 32 := 1#32
  let c2_i32_1771 : BitVec 32 := 2#32
  let v1608 : BitVec 32 := Scalar.muli c2_i32_1771 v28
  let v1609 : BitVec 32 := Scalar.subi c1_i32_1772 v1608
  let c256_i32_1773 : BitVec 32 := 256#32
  let v1610 : BitVec 32 := Scalar.muli v1609 c256_i32_1773
  let v1611 : BitVec 32 := Scalar.addi v1494 v1610
  let v1612 : BitVec 32 := v1611
  let c768_i32_1782 : BitVec 32 := 768#32
  ![v1612.toNat, 768]
def k0_dev59 (d0 : Dev nD) : Nat :=
  let c0_i32_1781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_6 : BitVec 32 := 8#32
  let v13 : BitVec 32 := Scalar.xori v2 c8_i32_6
  let c1_i32_1780 : BitVec 32 := 1#32
  let v1613 : BitVec 32 := Scalar.muli v13 c1_i32_1780
  let v1614 : BitVec 32 := Scalar.addi c0_i32_1781 v1613
  v1614.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  hamt_5 : (5#32 : BitVec 32).msb = false
  h_S512x512 : 0 < S512x512.numel
  shapeCasts_S512x512_S512x512 : S512x512.ShapeCasts S512x512
  bitsLt_bf16_f32 : FTy.bits .bf16 < FTy.bits .f32
  inb_S512x1024_S512x384_0_0 : ∀ a, (![0, 0] : Fin 2 → Nat) a + S512x384.size a ≤ S512x1024.size a
  h_S512x384 : 0 < S512x384.numel
  shapeCasts_S512x384_S512x384 : S512x384.ShapeCasts S512x384
  packedbf16_S512x1024_S512x384_0_0 : (Rect.unit (s := S512x1024) ![0, 0] S512x384.size inb_S512x1024_S512x384_0_0).PackedRows (EltTy.packing .bf16)
  inb_S5x3x2_S1x1x1_0_0_0 : ∀ a, (![0, 0, 0] : Fin 3 → Nat) a + S1x1x1.size a ≤ S5x3x2.size a
  squeezes_S1x1x1_S_ : S1x1x1.Squeezes S_
  inb_S5x3x2_S1x1x1_0_0_1 : ∀ a, (![0, 0, 1] : Fin 3 → Nat) a + S1x1x1.size a ≤ S5x3x2.size a
  inb_S512x1024_S512x384_0_384 : ∀ a, (![0, 384] : Fin 2 → Nat) a + S512x384.size a ≤ S512x1024.size a
  packedbf16_S512x1024_S512x384_0_384 : (Rect.unit (s := S512x1024) ![0, 384] S512x384.size inb_S512x1024_S512x384_0_384).PackedRows (EltTy.packing .bf16)
  inb_S5x3x2_S1x1x1_0_1_0 : ∀ a, (![0, 1, 0] : Fin 3 → Nat) a + S1x1x1.size a ≤ S5x3x2.size a
  inb_S5x3x2_S1x1x1_0_1_1 : ∀ a, (![0, 1, 1] : Fin 3 → Nat) a + S1x1x1.size a ≤ S5x3x2.size a
  inb_S512x1024_S512x256_0_768 : ∀ a, (![0, 768] : Fin 2 → Nat) a + S512x256.size a ≤ S512x1024.size a
  h_S512x256 : 0 < S512x256.numel
  shapeCasts_S512x256_S512x256 : S512x256.ShapeCasts S512x256
  packedbf16_S512x1024_S512x256_0_768 : (Rect.unit (s := S512x1024) ![0, 768] S512x256.size inb_S512x1024_S512x256_0_768).PackedRows (EltTy.packing .bf16)
  inb_S5x3x2_S1x1x1_0_2_0 : ∀ a, (![0, 2, 0] : Fin 3 → Nat) a + S1x1x1.size a ≤ S5x3x2.size a
  inb_S5x3x2_S1x1x1_0_2_1 : ∀ a, (![0, 2, 1] : Fin 3 → Nat) a + S1x1x1.size a ≤ S5x3x2.size a
  h_S256x384 : 0 < S256x384.numel
  shapeCasts_S256x384_S256x384 : S256x384.ShapeCasts S256x384
  inb_S256x1024_S256x384_0_0 : ∀ a, (![0, 0] : Fin 2 → Nat) a + S256x384.size a ≤ S256x1024.size a
  packedbf16_S256x1024_S256x384_0_0 : (Rect.unit (s := S256x1024) ![0, 0] S256x384.size inb_S256x1024_S256x384_0_0).PackedRows (EltTy.packing .bf16)
  inb_S5x3x2_S1x1x1_1_0_0 : ∀ a, (![1, 0, 0] : Fin 3 → Nat) a + S1x1x1.size a ≤ S5x3x2.size a
  inb_S5x3x2_S1x1x1_1_0_1 : ∀ a, (![1, 0, 1] : Fin 3 → Nat) a + S1x1x1.size a ≤ S5x3x2.size a
  inb_S256x1024_S256x384_0_384 : ∀ a, (![0, 384] : Fin 2 → Nat) a + S256x384.size a ≤ S256x1024.size a
  packedbf16_S256x1024_S256x384_0_384 : (Rect.unit (s := S256x1024) ![0, 384] S256x384.size inb_S256x1024_S256x384_0_384).PackedRows (EltTy.packing .bf16)
  inb_S5x3x2_S1x1x1_1_1_0 : ∀ a, (![1, 1, 0] : Fin 3 → Nat) a + S1x1x1.size a ≤ S5x3x2.size a
  inb_S5x3x2_S1x1x1_1_1_1 : ∀ a, (![1, 1, 1] : Fin 3 → Nat) a + S1x1x1.size a ≤ S5x3x2.size a
  h_S256x256 : 0 < S256x256.numel
  shapeCasts_S256x256_S256x256 : S256x256.ShapeCasts S256x256
  inb_S256x1024_S256x256_0_768 : ∀ a, (![0, 768] : Fin 2 → Nat) a + S256x256.size a ≤ S256x1024.size a
  packedbf16_S256x1024_S256x256_0_768 : (Rect.unit (s := S256x1024) ![0, 768] S256x256.size inb_S256x1024_S256x256_0_768).PackedRows (EltTy.packing .bf16)
  inb_S5x3x2_S1x1x1_1_2_0 : ∀ a, (![1, 2, 0] : Fin 3 → Nat) a + S1x1x1.size a ≤ S5x3x2.size a
  inb_S5x3x2_S1x1x1_1_2_1 : ∀ a, (![1, 2, 1] : Fin 3 → Nat) a + S1x1x1.size a ≤ S5x3x2.size a
  h_S128x384 : 0 < S128x384.numel
  shapeCasts_S128x384_S128x384 : S128x384.ShapeCasts S128x384
  inb_S128x1024_S128x384_0_0 : ∀ a, (![0, 0] : Fin 2 → Nat) a + S128x384.size a ≤ S128x1024.size a
  packedbf16_S128x1024_S128x384_0_0 : (Rect.unit (s := S128x1024) ![0, 0] S128x384.size inb_S128x1024_S128x384_0_0).PackedRows (EltTy.packing .bf16)
  inb_S5x3x2_S1x1x1_2_0_0 : ∀ a, (![2, 0, 0] : Fin 3 → Nat) a + S1x1x1.size a ≤ S5x3x2.size a
  inb_S5x3x2_S1x1x1_2_0_1 : ∀ a, (![2, 0, 1] : Fin 3 → Nat) a + S1x1x1.size a ≤ S5x3x2.size a
  inb_S128x1024_S128x384_0_384 : ∀ a, (![0, 384] : Fin 2 → Nat) a + S128x384.size a ≤ S128x1024.size a
  packedbf16_S128x1024_S128x384_0_384 : (Rect.unit (s := S128x1024) ![0, 384] S128x384.size inb_S128x1024_S128x384_0_384).PackedRows (EltTy.packing .bf16)
  inb_S5x3x2_S1x1x1_2_1_0 : ∀ a, (![2, 1, 0] : Fin 3 → Nat) a + S1x1x1.size a ≤ S5x3x2.size a
  inb_S5x3x2_S1x1x1_2_1_1 : ∀ a, (![2, 1, 1] : Fin 3 → Nat) a + S1x1x1.size a ≤ S5x3x2.size a
  h_S128x256 : 0 < S128x256.numel
  shapeCasts_S128x256_S128x256 : S128x256.ShapeCasts S128x256
  inb_S128x1024_S128x256_0_768 : ∀ a, (![0, 768] : Fin 2 → Nat) a + S128x256.size a ≤ S128x1024.size a
  packedbf16_S128x1024_S128x256_0_768 : (Rect.unit (s := S128x1024) ![0, 768] S128x256.size inb_S128x1024_S128x256_0_768).PackedRows (EltTy.packing .bf16)
  inb_S5x3x2_S1x1x1_2_2_0 : ∀ a, (![2, 2, 0] : Fin 3 → Nat) a + S1x1x1.size a ≤ S5x3x2.size a
  inb_S5x3x2_S1x1x1_2_2_1 : ∀ a, (![2, 2, 1] : Fin 3 → Nat) a + S1x1x1.size a ≤ S5x3x2.size a
  h_S64x384 : 0 < S64x384.numel
  shapeCasts_S64x384_S64x384 : S64x384.ShapeCasts S64x384
  inb_S64x1024_S64x384_0_0 : ∀ a, (![0, 0] : Fin 2 → Nat) a + S64x384.size a ≤ S64x1024.size a
  packedbf16_S64x1024_S64x384_0_0 : (Rect.unit (s := S64x1024) ![0, 0] S64x384.size inb_S64x1024_S64x384_0_0).PackedRows (EltTy.packing .bf16)
  inb_S5x3x2_S1x1x1_3_0_0 : ∀ a, (![3, 0, 0] : Fin 3 → Nat) a + S1x1x1.size a ≤ S5x3x2.size a
  inb_S5x3x2_S1x1x1_3_0_1 : ∀ a, (![3, 0, 1] : Fin 3 → Nat) a + S1x1x1.size a ≤ S5x3x2.size a
  inb_S64x1024_S64x384_0_384 : ∀ a, (![0, 384] : Fin 2 → Nat) a + S64x384.size a ≤ S64x1024.size a
  packedbf16_S64x1024_S64x384_0_384 : (Rect.unit (s := S64x1024) ![0, 384] S64x384.size inb_S64x1024_S64x384_0_384).PackedRows (EltTy.packing .bf16)
  inb_S5x3x2_S1x1x1_3_1_0 : ∀ a, (![3, 1, 0] : Fin 3 → Nat) a + S1x1x1.size a ≤ S5x3x2.size a
  inb_S5x3x2_S1x1x1_3_1_1 : ∀ a, (![3, 1, 1] : Fin 3 → Nat) a + S1x1x1.size a ≤ S5x3x2.size a
  h_S64x256 : 0 < S64x256.numel
  shapeCasts_S64x256_S64x256 : S64x256.ShapeCasts S64x256
  inb_S64x1024_S64x256_0_768 : ∀ a, (![0, 768] : Fin 2 → Nat) a + S64x256.size a ≤ S64x1024.size a
  packedbf16_S64x1024_S64x256_0_768 : (Rect.unit (s := S64x1024) ![0, 768] S64x256.size inb_S64x1024_S64x256_0_768).PackedRows (EltTy.packing .bf16)
  inb_S5x3x2_S1x1x1_3_2_0 : ∀ a, (![3, 2, 0] : Fin 3 → Nat) a + S1x1x1.size a ≤ S5x3x2.size a
  inb_S5x3x2_S1x1x1_3_2_1 : ∀ a, (![3, 2, 1] : Fin 3 → Nat) a + S1x1x1.size a ≤ S5x3x2.size a
  h_S32x384 : 0 < S32x384.numel
  shapeCasts_S32x384_S32x384 : S32x384.ShapeCasts S32x384
  inb_S32x1024_S32x384_0_0 : ∀ a, (![0, 0] : Fin 2 → Nat) a + S32x384.size a ≤ S32x1024.size a
  packedbf16_S32x1024_S32x384_0_0 : (Rect.unit (s := S32x1024) ![0, 0] S32x384.size inb_S32x1024_S32x384_0_0).PackedRows (EltTy.packing .bf16)
  inb_S5x3x2_S1x1x1_4_0_0 : ∀ a, (![4, 0, 0] : Fin 3 → Nat) a + S1x1x1.size a ≤ S5x3x2.size a
  wordsbf16_S32x1024_S32x384_0_0 : (Rect.unit (s := S32x1024) ![0, 0] S32x384.size inb_S32x1024_S32x384_0_0).WholeWords (EltTy.packing .bf16)
  inb_S32x1024_S32x384_0_384 : ∀ a, (![0, 384] : Fin 2 → Nat) a + S32x384.size a ≤ S32x1024.size a
  packedbf16_S32x1024_S32x384_0_384 : (Rect.unit (s := S32x1024) ![0, 384] S32x384.size inb_S32x1024_S32x384_0_384).PackedRows (EltTy.packing .bf16)
  inb_S5x3x2_S1x1x1_4_1_0 : ∀ a, (![4, 1, 0] : Fin 3 → Nat) a + S1x1x1.size a ≤ S5x3x2.size a
  wordsbf16_S32x1024_S32x384_0_384 : (Rect.unit (s := S32x1024) ![0, 384] S32x384.size inb_S32x1024_S32x384_0_384).WholeWords (EltTy.packing .bf16)
  h_S32x256 : 0 < S32x256.numel
  shapeCasts_S32x256_S32x256 : S32x256.ShapeCasts S32x256
  inb_S32x1024_S32x256_0_768 : ∀ a, (![0, 768] : Fin 2 → Nat) a + S32x256.size a ≤ S32x1024.size a
  packedbf16_S32x1024_S32x256_0_768 : (Rect.unit (s := S32x1024) ![0, 768] S32x256.size inb_S32x1024_S32x256_0_768).PackedRows (EltTy.packing .bf16)
  inb_S5x3x2_S1x1x1_4_2_0 : ∀ a, (![4, 2, 0] : Fin 3 → Nat) a + S1x1x1.size a ≤ S5x3x2.size a
  wordsbf16_S32x1024_S32x256_0_768 : (Rect.unit (s := S32x1024) ![0, 768] S32x256.size inb_S32x1024_S32x256_0_768).WholeWords (EltTy.packing .bf16)
  dot_S512x512_S512x384_S512x384_1_0_0_1_n_n_wf : DotDims.WF S512x512 S512x384 S512x384 [1] [0] [0] [1] [] []
  dot_S512x512_S512x256_S512x256_1_0_0_1_n_n_wf : DotDims.WF S512x512 S512x256 S512x256 [1] [0] [0] [1] [] []
  hcc0_scratch11 : 3 + S5x3x2.numel ≤ 123
  hcc0_scratch12 : 33 + S5x3x2.numel ≤ 123
  hcc0_scratch13 : 63 + S5x3x2.numel ≤ 123
  hcc0_scratch14 : 93 + S5x3x2.numel ≤ 123
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_off1_inb : ∀ d0 : Dev nD, ∀ a, (k0_off1 d0) a + S512x512.size a ≤ S1024x512.size a
  k0_off2_inb : ∀ d0 : Dev nD, ∀ a, (k0_off2 d0) a + S256x384.size a ≤ S512x1024.size a
  k0_off2_wordsbf16 : ∀ d0 : Dev nD, (Rect.unit (s := S512x1024) (k0_off2 d0) S256x384.size (k0_off2_inb d0)).WholeWords (EltTy.packing .bf16)
  k0_dev6_lt : ∀ d0 : Dev nD, (k0_dev6 d0) < nD
  k0_off3_inb : ∀ d0 : Dev nD, ∀ a, (k0_off3 d0) a + S256x384.size a ≤ S512x1024.size a
  k0_off3_wordsbf16 : ∀ d0 : Dev nD, (Rect.unit (s := S512x1024) (k0_off3 d0) S256x384.size (k0_off3_inb d0)).WholeWords (EltTy.packing .bf16)
  k0_dev7_lt : ∀ d0 : Dev nD, (k0_dev7 d0) < nD
  k0_off4_inb : ∀ d0 : Dev nD, ∀ (r : Fin 2), ∀ a, (k0_off4 d0 (BitVec.ofNat 32 (1 + 2 * r.val))) a + S512x512.size a ≤ S1024x512.size a
  k0_off5_inb : ∀ d0 : Dev nD, ∀ a, (k0_off5 d0) a + S256x384.size a ≤ S512x1024.size a
  k0_off5_wordsbf16 : ∀ d0 : Dev nD, (Rect.unit (s := S512x1024) (k0_off5 d0) S256x384.size (k0_off5_inb d0)).WholeWords (EltTy.packing .bf16)
  k0_dev8_lt : ∀ d0 : Dev nD, (k0_dev8 d0) < nD
  k0_off6_inb : ∀ d0 : Dev nD, ∀ a, (k0_off6 d0) a + S256x384.size a ≤ S512x1024.size a
  k0_off6_wordsbf16 : ∀ d0 : Dev nD, (Rect.unit (s := S512x1024) (k0_off6 d0) S256x384.size (k0_off6_inb d0)).WholeWords (EltTy.packing .bf16)
  k0_dev9_lt : ∀ d0 : Dev nD, (k0_dev9 d0) < nD
  k0_off7_inb : ∀ d0 : Dev nD, ∀ a, (k0_off7 d0) a + S256x256.size a ≤ S512x1024.size a
  k0_off7_wordsbf16 : ∀ d0 : Dev nD, (Rect.unit (s := S512x1024) (k0_off7 d0) S256x256.size (k0_off7_inb d0)).WholeWords (EltTy.packing .bf16)
  k0_dev10_lt : ∀ d0 : Dev nD, (k0_dev10 d0) < nD
  k0_off8_inb : ∀ d0 : Dev nD, ∀ a, (k0_off8 d0) a + S256x256.size a ≤ S512x1024.size a
  k0_off8_wordsbf16 : ∀ d0 : Dev nD, (Rect.unit (s := S512x1024) (k0_off8 d0) S256x256.size (k0_off8_inb d0)).WholeWords (EltTy.packing .bf16)
  k0_dev11_lt : ∀ d0 : Dev nD, (k0_dev11 d0) < nD
  k0_off9_inb : ∀ d0 : Dev nD, ∀ a, (k0_off9 d0) a + S512x512.size a ≤ S1024x512.size a
  k0_off10_inb : ∀ d0 : Dev nD, ∀ a, (k0_off10 d0) a + S512x384.size a ≤ S1024x1024.size a
  k0_off11_inb : ∀ d0 : Dev nD, ∀ (r : Fin 2), ∀ a, (k0_off11 d0 (BitVec.ofNat 32 (1 + 2 * r.val))) a + S512x512.size a ≤ S1024x512.size a
  k0_off12_inb : ∀ d0 : Dev nD, ∀ a, (k0_off12 d0) a + S512x384.size a ≤ S1024x1024.size a
  k0_off13_inb : ∀ d0 : Dev nD, ∀ a, (k0_off13 d0) a + S512x256.size a ≤ S1024x1024.size a
  k0_off14_inb : ∀ d0 : Dev nD, ∀ a, (k0_off14 d0) a + S256x384.size a ≤ S1024x1024.size a
  k0_off15_inb : ∀ d0 : Dev nD, ∀ a, (k0_off15 d0) a + S256x384.size a ≤ S512x1024.size a
  k0_off16_inb : ∀ d0 : Dev nD, ∀ a, (k0_off16 d0) a + S128x384.size a ≤ S256x1024.size a
  k0_off16_wordsbf16 : ∀ d0 : Dev nD, (Rect.unit (s := S256x1024) (k0_off16 d0) S128x384.size (k0_off16_inb d0)).WholeWords (EltTy.packing .bf16)
  k0_dev12_lt : ∀ d0 : Dev nD, (k0_dev12 d0) < nD
  k0_off17_inb : ∀ d0 : Dev nD, ∀ a, (k0_off17 d0) a + S128x384.size a ≤ S256x1024.size a
  k0_off17_wordsbf16 : ∀ d0 : Dev nD, (Rect.unit (s := S256x1024) (k0_off17 d0) S128x384.size (k0_off17_inb d0)).WholeWords (EltTy.packing .bf16)
  k0_dev13_lt : ∀ d0 : Dev nD, (k0_dev13 d0) < nD
  k0_off18_inb : ∀ d0 : Dev nD, ∀ a, (k0_off18 d0) a + S256x384.size a ≤ S1024x1024.size a
  k0_off19_inb : ∀ d0 : Dev nD, ∀ a, (k0_off19 d0) a + S256x384.size a ≤ S512x1024.size a
  k0_off20_inb : ∀ d0 : Dev nD, ∀ a, (k0_off20 d0) a + S128x384.size a ≤ S256x1024.size a
  k0_off20_wordsbf16 : ∀ d0 : Dev nD, (Rect.unit (s := S256x1024) (k0_off20 d0) S128x384.size (k0_off20_inb d0)).WholeWords (EltTy.packing .bf16)
  k0_dev14_lt : ∀ d0 : Dev nD, (k0_dev14 d0) < nD
  k0_off21_inb : ∀ d0 : Dev nD, ∀ a, (k0_off21 d0) a + S128x384.size a ≤ S256x1024.size a
  k0_off21_wordsbf16 : ∀ d0 : Dev nD, (Rect.unit (s := S256x1024) (k0_off21 d0) S128x384.size (k0_off21_inb d0)).WholeWords (EltTy.packing .bf16)
  k0_dev15_lt : ∀ d0 : Dev nD, (k0_dev15 d0) < nD
  k0_off22_inb : ∀ d0 : Dev nD, ∀ a, (k0_off22 d0) a + S256x256.size a ≤ S1024x1024.size a
  k0_off23_inb : ∀ d0 : Dev nD, ∀ a, (k0_off23 d0) a + S256x256.size a ≤ S512x1024.size a
  k0_off24_inb : ∀ d0 : Dev nD, ∀ a, (k0_off24 d0) a + S128x256.size a ≤ S256x1024.size a
  k0_off24_wordsbf16 : ∀ d0 : Dev nD, (Rect.unit (s := S256x1024) (k0_off24 d0) S128x256.size (k0_off24_inb d0)).WholeWords (EltTy.packing .bf16)
  k0_dev16_lt : ∀ d0 : Dev nD, (k0_dev16 d0) < nD
  k0_off25_inb : ∀ d0 : Dev nD, ∀ a, (k0_off25 d0) a + S128x256.size a ≤ S256x1024.size a
  k0_off25_wordsbf16 : ∀ d0 : Dev nD, (Rect.unit (s := S256x1024) (k0_off25 d0) S128x256.size (k0_off25_inb d0)).WholeWords (EltTy.packing .bf16)
  k0_dev17_lt : ∀ d0 : Dev nD, (k0_dev17 d0) < nD
  k0_off26_inb : ∀ d0 : Dev nD, ∀ a, (k0_off26 d0) a + S256x384.size a ≤ S1024x1024.size a
  k0_off27_inb : ∀ d0 : Dev nD, ∀ a, (k0_off27 d0) a + S256x384.size a ≤ S512x1024.size a
  k0_off28_inb : ∀ d0 : Dev nD, ∀ a, (k0_off28 d0) a + S256x384.size a ≤ S1024x1024.size a
  k0_off29_inb : ∀ d0 : Dev nD, ∀ a, (k0_off29 d0) a + S256x384.size a ≤ S512x1024.size a
  k0_off30_inb : ∀ d0 : Dev nD, ∀ a, (k0_off30 d0) a + S256x256.size a ≤ S1024x1024.size a
  k0_off31_inb : ∀ d0 : Dev nD, ∀ a, (k0_off31 d0) a + S256x256.size a ≤ S512x1024.size a
  k0_off32_inb : ∀ d0 : Dev nD, ∀ a, (k0_off32 d0) a + S128x384.size a ≤ S1024x1024.size a
  k0_off33_inb : ∀ d0 : Dev nD, ∀ a, (k0_off33 d0) a + S128x384.size a ≤ S256x1024.size a
  k0_off34_inb : ∀ d0 : Dev nD, ∀ a, (k0_off34 d0) a + S64x384.size a ≤ S128x1024.size a
  k0_off34_wordsbf16 : ∀ d0 : Dev nD, (Rect.unit (s := S128x1024) (k0_off34 d0) S64x384.size (k0_off34_inb d0)).WholeWords (EltTy.packing .bf16)
  k0_dev18_lt : ∀ d0 : Dev nD, (k0_dev18 d0) < nD
  k0_off35_inb : ∀ d0 : Dev nD, ∀ a, (k0_off35 d0) a + S64x384.size a ≤ S128x1024.size a
  k0_off35_wordsbf16 : ∀ d0 : Dev nD, (Rect.unit (s := S128x1024) (k0_off35 d0) S64x384.size (k0_off35_inb d0)).WholeWords (EltTy.packing .bf16)
  k0_dev19_lt : ∀ d0 : Dev nD, (k0_dev19 d0) < nD
  k0_off36_inb : ∀ d0 : Dev nD, ∀ a, (k0_off36 d0) a + S128x384.size a ≤ S1024x1024.size a
  k0_off37_inb : ∀ d0 : Dev nD, ∀ a, (k0_off37 d0) a + S128x384.size a ≤ S256x1024.size a
  k0_off38_inb : ∀ d0 : Dev nD, ∀ a, (k0_off38 d0) a + S64x384.size a ≤ S128x1024.size a
  k0_off38_wordsbf16 : ∀ d0 : Dev nD, (Rect.unit (s := S128x1024) (k0_off38 d0) S64x384.size (k0_off38_inb d0)).WholeWords (EltTy.packing .bf16)
  k0_dev20_lt : ∀ d0 : Dev nD, (k0_dev20 d0) < nD
  k0_off39_inb : ∀ d0 : Dev nD, ∀ a, (k0_off39 d0) a + S64x384.size a ≤ S128x1024.size a
  k0_off39_wordsbf16 : ∀ d0 : Dev nD, (Rect.unit (s := S128x1024) (k0_off39 d0) S64x384.size (k0_off39_inb d0)).WholeWords (EltTy.packing .bf16)
  k0_dev21_lt : ∀ d0 : Dev nD, (k0_dev21 d0) < nD
  k0_off40_inb : ∀ d0 : Dev nD, ∀ a, (k0_off40 d0) a + S128x256.size a ≤ S1024x1024.size a
  k0_off41_inb : ∀ d0 : Dev nD, ∀ a, (k0_off41 d0) a + S128x256.size a ≤ S256x1024.size a
  k0_off42_inb : ∀ d0 : Dev nD, ∀ a, (k0_off42 d0) a + S64x256.size a ≤ S128x1024.size a
  k0_off42_wordsbf16 : ∀ d0 : Dev nD, (Rect.unit (s := S128x1024) (k0_off42 d0) S64x256.size (k0_off42_inb d0)).WholeWords (EltTy.packing .bf16)
  k0_dev22_lt : ∀ d0 : Dev nD, (k0_dev22 d0) < nD
  k0_off43_inb : ∀ d0 : Dev nD, ∀ a, (k0_off43 d0) a + S64x256.size a ≤ S128x1024.size a
  k0_off43_wordsbf16 : ∀ d0 : Dev nD, (Rect.unit (s := S128x1024) (k0_off43 d0) S64x256.size (k0_off43_inb d0)).WholeWords (EltTy.packing .bf16)
  k0_dev23_lt : ∀ d0 : Dev nD, (k0_dev23 d0) < nD
  k0_off44_inb : ∀ d0 : Dev nD, ∀ a, (k0_off44 d0) a + S128x384.size a ≤ S1024x1024.size a
  k0_off45_inb : ∀ d0 : Dev nD, ∀ a, (k0_off45 d0) a + S128x384.size a ≤ S256x1024.size a
  k0_off46_inb : ∀ d0 : Dev nD, ∀ a, (k0_off46 d0) a + S128x384.size a ≤ S1024x1024.size a
  k0_off47_inb : ∀ d0 : Dev nD, ∀ a, (k0_off47 d0) a + S128x384.size a ≤ S256x1024.size a
  k0_off48_inb : ∀ d0 : Dev nD, ∀ a, (k0_off48 d0) a + S128x256.size a ≤ S1024x1024.size a
  k0_off49_inb : ∀ d0 : Dev nD, ∀ a, (k0_off49 d0) a + S128x256.size a ≤ S256x1024.size a
  k0_off50_inb : ∀ d0 : Dev nD, ∀ a, (k0_off50 d0) a + S64x384.size a ≤ S1024x1024.size a
  k0_off51_inb : ∀ d0 : Dev nD, ∀ a, (k0_off51 d0) a + S64x384.size a ≤ S128x1024.size a
  k0_off52_inb : ∀ d0 : Dev nD, ∀ a, (k0_off52 d0) a + S32x384.size a ≤ S64x1024.size a
  k0_off52_wordsbf16 : ∀ d0 : Dev nD, (Rect.unit (s := S64x1024) (k0_off52 d0) S32x384.size (k0_off52_inb d0)).WholeWords (EltTy.packing .bf16)
  k0_dev24_lt : ∀ d0 : Dev nD, (k0_dev24 d0) < nD
  k0_off53_inb : ∀ d0 : Dev nD, ∀ a, (k0_off53 d0) a + S32x384.size a ≤ S64x1024.size a
  k0_off53_wordsbf16 : ∀ d0 : Dev nD, (Rect.unit (s := S64x1024) (k0_off53 d0) S32x384.size (k0_off53_inb d0)).WholeWords (EltTy.packing .bf16)
  k0_dev25_lt : ∀ d0 : Dev nD, (k0_dev25 d0) < nD
  k0_off54_inb : ∀ d0 : Dev nD, ∀ a, (k0_off54 d0) a + S64x384.size a ≤ S1024x1024.size a
  k0_off55_inb : ∀ d0 : Dev nD, ∀ a, (k0_off55 d0) a + S64x384.size a ≤ S128x1024.size a
  k0_off56_inb : ∀ d0 : Dev nD, ∀ a, (k0_off56 d0) a + S32x384.size a ≤ S64x1024.size a
  k0_off56_wordsbf16 : ∀ d0 : Dev nD, (Rect.unit (s := S64x1024) (k0_off56 d0) S32x384.size (k0_off56_inb d0)).WholeWords (EltTy.packing .bf16)
  k0_dev26_lt : ∀ d0 : Dev nD, (k0_dev26 d0) < nD
  k0_off57_inb : ∀ d0 : Dev nD, ∀ a, (k0_off57 d0) a + S32x384.size a ≤ S64x1024.size a
  k0_off57_wordsbf16 : ∀ d0 : Dev nD, (Rect.unit (s := S64x1024) (k0_off57 d0) S32x384.size (k0_off57_inb d0)).WholeWords (EltTy.packing .bf16)
  k0_dev27_lt : ∀ d0 : Dev nD, (k0_dev27 d0) < nD
  k0_off58_inb : ∀ d0 : Dev nD, ∀ a, (k0_off58 d0) a + S64x256.size a ≤ S1024x1024.size a
  k0_off59_inb : ∀ d0 : Dev nD, ∀ a, (k0_off59 d0) a + S64x256.size a ≤ S128x1024.size a
  k0_off60_inb : ∀ d0 : Dev nD, ∀ a, (k0_off60 d0) a + S32x256.size a ≤ S64x1024.size a
  k0_off60_wordsbf16 : ∀ d0 : Dev nD, (Rect.unit (s := S64x1024) (k0_off60 d0) S32x256.size (k0_off60_inb d0)).WholeWords (EltTy.packing .bf16)
  k0_dev28_lt : ∀ d0 : Dev nD, (k0_dev28 d0) < nD
  k0_off61_inb : ∀ d0 : Dev nD, ∀ a, (k0_off61 d0) a + S32x256.size a ≤ S64x1024.size a
  k0_off61_wordsbf16 : ∀ d0 : Dev nD, (Rect.unit (s := S64x1024) (k0_off61 d0) S32x256.size (k0_off61_inb d0)).WholeWords (EltTy.packing .bf16)
  k0_dev29_lt : ∀ d0 : Dev nD, (k0_dev29 d0) < nD
  k0_off62_inb : ∀ d0 : Dev nD, ∀ a, (k0_off62 d0) a + S64x384.size a ≤ S1024x1024.size a
  k0_off63_inb : ∀ d0 : Dev nD, ∀ a, (k0_off63 d0) a + S64x384.size a ≤ S128x1024.size a
  k0_off64_inb : ∀ d0 : Dev nD, ∀ a, (k0_off64 d0) a + S64x384.size a ≤ S1024x1024.size a
  k0_off65_inb : ∀ d0 : Dev nD, ∀ a, (k0_off65 d0) a + S64x384.size a ≤ S128x1024.size a
  k0_off66_inb : ∀ d0 : Dev nD, ∀ a, (k0_off66 d0) a + S64x256.size a ≤ S1024x1024.size a
  k0_off67_inb : ∀ d0 : Dev nD, ∀ a, (k0_off67 d0) a + S64x256.size a ≤ S128x1024.size a
  k0_off68_inb : ∀ d0 : Dev nD, ∀ a, (k0_off68 d0) a + S32x384.size a ≤ S1024x1024.size a
  k0_off69_inb : ∀ d0 : Dev nD, ∀ a, (k0_off69 d0) a + S32x384.size a ≤ S64x1024.size a
  k0_dev30_lt : ∀ d0 : Dev nD, (k0_dev30 d0) < nD
  k0_off70_inb : ∀ d0 : Dev nD, ∀ a, (k0_off70 d0) a + S32x384.size a ≤ S1024x1024.size a
  k0_off71_inb : ∀ d0 : Dev nD, ∀ a, (k0_off71 d0) a + S32x384.size a ≤ S64x1024.size a
  k0_dev31_lt : ∀ d0 : Dev nD, (k0_dev31 d0) < nD
  k0_off72_inb : ∀ d0 : Dev nD, ∀ a, (k0_off72 d0) a + S32x256.size a ≤ S1024x1024.size a
  k0_off73_inb : ∀ d0 : Dev nD, ∀ a, (k0_off73 d0) a + S32x256.size a ≤ S64x1024.size a
  k0_dev32_lt : ∀ d0 : Dev nD, (k0_dev32 d0) < nD
  k0_off74_inb : ∀ d0 : Dev nD, ∀ a, (k0_off74 d0) a + S32x384.size a ≤ S1024x1024.size a
  k0_off75_inb : ∀ d0 : Dev nD, ∀ a, (k0_off75 d0) a + S32x384.size a ≤ S64x1024.size a
  k0_off76_inb : ∀ d0 : Dev nD, ∀ a, (k0_off76 d0) a + S32x384.size a ≤ S1024x1024.size a
  k0_off77_inb : ∀ d0 : Dev nD, ∀ a, (k0_off77 d0) a + S32x384.size a ≤ S64x1024.size a
  k0_off78_inb : ∀ d0 : Dev nD, ∀ a, (k0_off78 d0) a + S32x256.size a ≤ S1024x1024.size a
  k0_off79_inb : ∀ d0 : Dev nD, ∀ a, (k0_off79 d0) a + S32x256.size a ≤ S64x1024.size a
  k0_off74_packedbf16 : ∀ d0 : Dev nD, (Rect.unit (s := S1024x1024) (k0_off74 d0) S32x384.size (k0_off74_inb d0)).PackedRows (EltTy.packing .bf16)
  k0_off76_packedbf16 : ∀ d0 : Dev nD, (Rect.unit (s := S1024x1024) (k0_off76 d0) S32x384.size (k0_off76_inb d0)).PackedRows (EltTy.packing .bf16)
  k0_off78_packedbf16 : ∀ d0 : Dev nD, (Rect.unit (s := S1024x1024) (k0_off78 d0) S32x256.size (k0_off78_inb d0)).PackedRows (EltTy.packing .bf16)
  k0_mult1_dvd : ∀ d0 : Dev nD, 32 ∣ (k0_mult1 d0).toNat
  k0_off80_inb : ∀ d0 : Dev nD, ∀ a, (k0_off80 d0) a + S32x384.size a ≤ S1024x1024.size a
  k0_off80_wordsbf16 : ∀ d0 : Dev nD, (Rect.unit (s := S1024x1024) (k0_off80 d0) S32x384.size (k0_off80_inb d0)).WholeWords (EltTy.packing .bf16)
  k0_dev33_lt : ∀ d0 : Dev nD, (k0_dev33 d0) < nD
  k0_mult2_dvd : ∀ d0 : Dev nD, 32 ∣ (k0_mult2 d0).toNat
  k0_off81_inb : ∀ d0 : Dev nD, ∀ a, (k0_off81 d0) a + S32x384.size a ≤ S1024x1024.size a
  k0_off81_wordsbf16 : ∀ d0 : Dev nD, (Rect.unit (s := S1024x1024) (k0_off81 d0) S32x384.size (k0_off81_inb d0)).WholeWords (EltTy.packing .bf16)
  k0_dev34_lt : ∀ d0 : Dev nD, (k0_dev34 d0) < nD
  k0_mult3_dvd : ∀ d0 : Dev nD, 32 ∣ (k0_mult3 d0).toNat
  k0_off82_inb : ∀ d0 : Dev nD, ∀ a, (k0_off82 d0) a + S32x256.size a ≤ S1024x1024.size a
  k0_off82_wordsbf16 : ∀ d0 : Dev nD, (Rect.unit (s := S1024x1024) (k0_off82 d0) S32x256.size (k0_off82_inb d0)).WholeWords (EltTy.packing .bf16)
  k0_dev35_lt : ∀ d0 : Dev nD, (k0_dev35 d0) < nD
  k0_mult4_dvd : ∀ d0 : Dev nD, 32 ∣ (k0_mult4 d0).toNat
  k0_dev36_lt : ∀ d0 : Dev nD, (k0_dev36 d0) < nD
  k0_mult5_dvd : ∀ d0 : Dev nD, 32 ∣ (k0_mult5 d0).toNat
  k0_off83_inb : ∀ d0 : Dev nD, ∀ a, (k0_off83 d0) a + S32x384.size a ≤ S1024x1024.size a
  k0_off83_wordsbf16 : ∀ d0 : Dev nD, (Rect.unit (s := S1024x1024) (k0_off83 d0) S32x384.size (k0_off83_inb d0)).WholeWords (EltTy.packing .bf16)
  k0_dev37_lt : ∀ d0 : Dev nD, (k0_dev37 d0) < nD
  k0_mult6_dvd : ∀ d0 : Dev nD, 32 ∣ (k0_mult6 d0).toNat
  k0_dev38_lt : ∀ d0 : Dev nD, (k0_dev38 d0) < nD
  k0_mult7_dvd : ∀ d0 : Dev nD, 32 ∣ (k0_mult7 d0).toNat
  k0_off84_inb : ∀ d0 : Dev nD, ∀ a, (k0_off84 d0) a + S32x384.size a ≤ S1024x1024.size a
  k0_off84_wordsbf16 : ∀ d0 : Dev nD, (Rect.unit (s := S1024x1024) (k0_off84 d0) S32x384.size (k0_off84_inb d0)).WholeWords (EltTy.packing .bf16)
  k0_dev39_lt : ∀ d0 : Dev nD, (k0_dev39 d0) < nD
  k0_mult8_dvd : ∀ d0 : Dev nD, 32 ∣ (k0_mult8 d0).toNat
  k0_dev40_lt : ∀ d0 : Dev nD, (k0_dev40 d0) < nD
  k0_mult9_dvd : ∀ d0 : Dev nD, 32 ∣ (k0_mult9 d0).toNat
  k0_off85_inb : ∀ d0 : Dev nD, ∀ a, (k0_off85 d0) a + S32x256.size a ≤ S1024x1024.size a
  k0_off85_wordsbf16 : ∀ d0 : Dev nD, (Rect.unit (s := S1024x1024) (k0_off85 d0) S32x256.size (k0_off85_inb d0)).WholeWords (EltTy.packing .bf16)
  k0_dev41_lt : ∀ d0 : Dev nD, (k0_dev41 d0) < nD
  k0_mult10_dvd : ∀ d0 : Dev nD, 64 ∣ (k0_mult10 d0).toNat
  k0_off86_inb : ∀ d0 : Dev nD, ∀ a, (k0_off86 d0) a + S64x384.size a ≤ S1024x1024.size a
  k0_off86_wordsbf16 : ∀ d0 : Dev nD, (Rect.unit (s := S1024x1024) (k0_off86 d0) S64x384.size (k0_off86_inb d0)).WholeWords (EltTy.packing .bf16)
  k0_dev42_lt : ∀ d0 : Dev nD, (k0_dev42 d0) < nD
  k0_mult11_dvd : ∀ d0 : Dev nD, 64 ∣ (k0_mult11 d0).toNat
  k0_off87_inb : ∀ d0 : Dev nD, ∀ a, (k0_off87 d0) a + S64x384.size a ≤ S1024x1024.size a
  k0_off87_wordsbf16 : ∀ d0 : Dev nD, (Rect.unit (s := S1024x1024) (k0_off87 d0) S64x384.size (k0_off87_inb d0)).WholeWords (EltTy.packing .bf16)
  k0_dev43_lt : ∀ d0 : Dev nD, (k0_dev43 d0) < nD
  k0_mult12_dvd : ∀ d0 : Dev nD, 64 ∣ (k0_mult12 d0).toNat
  k0_off88_inb : ∀ d0 : Dev nD, ∀ a, (k0_off88 d0) a + S64x384.size a ≤ S1024x1024.size a
  k0_off88_wordsbf16 : ∀ d0 : Dev nD, (Rect.unit (s := S1024x1024) (k0_off88 d0) S64x384.size (k0_off88_inb d0)).WholeWords (EltTy.packing .bf16)
  k0_dev44_lt : ∀ d0 : Dev nD, (k0_dev44 d0) < nD
  k0_mult13_dvd : ∀ d0 : Dev nD, 64 ∣ (k0_mult13 d0).toNat
  k0_off89_inb : ∀ d0 : Dev nD, ∀ a, (k0_off89 d0) a + S64x384.size a ≤ S1024x1024.size a
  k0_off89_wordsbf16 : ∀ d0 : Dev nD, (Rect.unit (s := S1024x1024) (k0_off89 d0) S64x384.size (k0_off89_inb d0)).WholeWords (EltTy.packing .bf16)
  k0_dev45_lt : ∀ d0 : Dev nD, (k0_dev45 d0) < nD
  k0_mult14_dvd : ∀ d0 : Dev nD, 64 ∣ (k0_mult14 d0).toNat
  k0_off90_inb : ∀ d0 : Dev nD, ∀ a, (k0_off90 d0) a + S64x256.size a ≤ S1024x1024.size a
  k0_off90_wordsbf16 : ∀ d0 : Dev nD, (Rect.unit (s := S1024x1024) (k0_off90 d0) S64x256.size (k0_off90_inb d0)).WholeWords (EltTy.packing .bf16)
  k0_dev46_lt : ∀ d0 : Dev nD, (k0_dev46 d0) < nD
  k0_mult15_dvd : ∀ d0 : Dev nD, 64 ∣ (k0_mult15 d0).toNat
  k0_off91_inb : ∀ d0 : Dev nD, ∀ a, (k0_off91 d0) a + S64x256.size a ≤ S1024x1024.size a
  k0_off91_wordsbf16 : ∀ d0 : Dev nD, (Rect.unit (s := S1024x1024) (k0_off91 d0) S64x256.size (k0_off91_inb d0)).WholeWords (EltTy.packing .bf16)
  k0_dev47_lt : ∀ d0 : Dev nD, (k0_dev47 d0) < nD
  k0_mult16_dvd : ∀ d0 : Dev nD, 128 ∣ (k0_mult16 d0).toNat
  k0_off92_inb : ∀ d0 : Dev nD, ∀ a, (k0_off92 d0) a + S128x384.size a ≤ S1024x1024.size a
  k0_off92_wordsbf16 : ∀ d0 : Dev nD, (Rect.unit (s := S1024x1024) (k0_off92 d0) S128x384.size (k0_off92_inb d0)).WholeWords (EltTy.packing .bf16)
  k0_dev48_lt : ∀ d0 : Dev nD, (k0_dev48 d0) < nD
  k0_mult17_dvd : ∀ d0 : Dev nD, 128 ∣ (k0_mult17 d0).toNat
  k0_off93_inb : ∀ d0 : Dev nD, ∀ a, (k0_off93 d0) a + S128x384.size a ≤ S1024x1024.size a
  k0_off93_wordsbf16 : ∀ d0 : Dev nD, (Rect.unit (s := S1024x1024) (k0_off93 d0) S128x384.size (k0_off93_inb d0)).WholeWords (EltTy.packing .bf16)
  k0_dev49_lt : ∀ d0 : Dev nD, (k0_dev49 d0) < nD
  k0_mult18_dvd : ∀ d0 : Dev nD, 128 ∣ (k0_mult18 d0).toNat
  k0_off94_inb : ∀ d0 : Dev nD, ∀ a, (k0_off94 d0) a + S128x384.size a ≤ S1024x1024.size a
  k0_off94_wordsbf16 : ∀ d0 : Dev nD, (Rect.unit (s := S1024x1024) (k0_off94 d0) S128x384.size (k0_off94_inb d0)).WholeWords (EltTy.packing .bf16)
  k0_dev50_lt : ∀ d0 : Dev nD, (k0_dev50 d0) < nD
  k0_mult19_dvd : ∀ d0 : Dev nD, 128 ∣ (k0_mult19 d0).toNat
  k0_off95_inb : ∀ d0 : Dev nD, ∀ a, (k0_off95 d0) a + S128x384.size a ≤ S1024x1024.size a
  k0_off95_wordsbf16 : ∀ d0 : Dev nD, (Rect.unit (s := S1024x1024) (k0_off95 d0) S128x384.size (k0_off95_inb d0)).WholeWords (EltTy.packing .bf16)
  k0_dev51_lt : ∀ d0 : Dev nD, (k0_dev51 d0) < nD
  k0_mult20_dvd : ∀ d0 : Dev nD, 128 ∣ (k0_mult20 d0).toNat
  k0_off96_inb : ∀ d0 : Dev nD, ∀ a, (k0_off96 d0) a + S128x256.size a ≤ S1024x1024.size a
  k0_off96_wordsbf16 : ∀ d0 : Dev nD, (Rect.unit (s := S1024x1024) (k0_off96 d0) S128x256.size (k0_off96_inb d0)).WholeWords (EltTy.packing .bf16)
  k0_dev52_lt : ∀ d0 : Dev nD, (k0_dev52 d0) < nD
  k0_mult21_dvd : ∀ d0 : Dev nD, 128 ∣ (k0_mult21 d0).toNat
  k0_off97_inb : ∀ d0 : Dev nD, ∀ a, (k0_off97 d0) a + S128x256.size a ≤ S1024x1024.size a
  k0_off97_wordsbf16 : ∀ d0 : Dev nD, (Rect.unit (s := S1024x1024) (k0_off97 d0) S128x256.size (k0_off97_inb d0)).WholeWords (EltTy.packing .bf16)
  k0_dev53_lt : ∀ d0 : Dev nD, (k0_dev53 d0) < nD
  k0_mult22_dvd : ∀ d0 : Dev nD, 256 ∣ (k0_mult22 d0).toNat
  k0_off98_inb : ∀ d0 : Dev nD, ∀ a, (k0_off98 d0) a + S256x384.size a ≤ S1024x1024.size a
  k0_off98_wordsbf16 : ∀ d0 : Dev nD, (Rect.unit (s := S1024x1024) (k0_off98 d0) S256x384.size (k0_off98_inb d0)).WholeWords (EltTy.packing .bf16)
  k0_dev54_lt : ∀ d0 : Dev nD, (k0_dev54 d0) < nD
  k0_mult23_dvd : ∀ d0 : Dev nD, 256 ∣ (k0_mult23 d0).toNat
  k0_off99_inb : ∀ d0 : Dev nD, ∀ a, (k0_off99 d0) a + S256x384.size a ≤ S1024x1024.size a
  k0_off99_wordsbf16 : ∀ d0 : Dev nD, (Rect.unit (s := S1024x1024) (k0_off99 d0) S256x384.size (k0_off99_inb d0)).WholeWords (EltTy.packing .bf16)
  k0_dev55_lt : ∀ d0 : Dev nD, (k0_dev55 d0) < nD
  k0_mult24_dvd : ∀ d0 : Dev nD, 256 ∣ (k0_mult24 d0).toNat
  k0_off100_inb : ∀ d0 : Dev nD, ∀ a, (k0_off100 d0) a + S256x384.size a ≤ S1024x1024.size a
  k0_off100_wordsbf16 : ∀ d0 : Dev nD, (Rect.unit (s := S1024x1024) (k0_off100 d0) S256x384.size (k0_off100_inb d0)).WholeWords (EltTy.packing .bf16)
  k0_dev56_lt : ∀ d0 : Dev nD, (k0_dev56 d0) < nD
  k0_mult25_dvd : ∀ d0 : Dev nD, 256 ∣ (k0_mult25 d0).toNat
  k0_off101_inb : ∀ d0 : Dev nD, ∀ a, (k0_off101 d0) a + S256x384.size a ≤ S1024x1024.size a
  k0_off101_wordsbf16 : ∀ d0 : Dev nD, (Rect.unit (s := S1024x1024) (k0_off101 d0) S256x384.size (k0_off101_inb d0)).WholeWords (EltTy.packing .bf16)
  k0_dev57_lt : ∀ d0 : Dev nD, (k0_dev57 d0) < nD
  k0_mult26_dvd : ∀ d0 : Dev nD, 256 ∣ (k0_mult26 d0).toNat
  k0_off102_inb : ∀ d0 : Dev nD, ∀ a, (k0_off102 d0) a + S256x256.size a ≤ S1024x1024.size a
  k0_off102_wordsbf16 : ∀ d0 : Dev nD, (Rect.unit (s := S1024x1024) (k0_off102 d0) S256x256.size (k0_off102_inb d0)).WholeWords (EltTy.packing .bf16)
  k0_dev58_lt : ∀ d0 : Dev nD, (k0_dev58 d0) < nD
  k0_mult27_dvd : ∀ d0 : Dev nD, 256 ∣ (k0_mult27 d0).toNat
  k0_off103_inb : ∀ d0 : Dev nD, ∀ a, (k0_off103 d0) a + S256x256.size a ≤ S1024x1024.size a
  k0_off103_wordsbf16 : ∀ d0 : Dev nD, (Rect.unit (s := S1024x1024) (k0_off103 d0) S256x256.size (k0_off103_inb d0)).WholeWords (EltTy.packing .bf16)
  k0_dev59_lt : ∀ d0 : Dev nD, (k0_dev59 d0) < nD
  hstage0_0 : ∀ j, (stage0_0 j).IsWhole
  hstage0_1 : ∀ j, (stage0_1 j).IsWhole
  hstage0_2 : ∀ j, (stage0_2 j).IsWhole

variable [Facts₀]

abbrev cc0_scratch11 : DmaSems sig S5x3x2 := SemArray.consecutive 3 S5x3x2 hcc0_scratch11
abbrev cc0_scratch12 : DmaSems sig S5x3x2 := SemArray.consecutive 33 S5x3x2 hcc0_scratch12
abbrev cc0_scratch13 : DmaSems sig S5x3x2 := SemArray.consecutive 63 S5x3x2 hcc0_scratch13
abbrev cc0_scratch14 : DmaSems sig S5x3x2 := SemArray.consecutive 93 S5x3x2 hcc0_scratch14
def dot_S512x512_S512x384_S512x384_1_0_0_1_n_n : DotDims S512x512 S512x384 S512x384 where
  lhsContracting := [1]
  rhsContracting := [0]
  lhsNonContracting := [0]
  rhsNonContracting := [1]
  lhsBatch := []
  rhsBatch := []
  wf := dot_S512x512_S512x384_S512x384_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x16384 : Shape := ⟨2, ![1024, 16384]⟩
abbrev S16384x1024 : Shape := ⟨2, ![16384, 1024]⟩
abbrev S1024x1024 : Shape := ⟨2, ![1024, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S16384x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .bf16⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bitsLt_bf16_f32 : FTy.bits .bf16 < FTy.bits .f32
  dot_S1024x16384_S16384x1024_S1024x1024_1_0_0_1_n_n_wf : DotDims.WF S1024x16384 S16384x1024 S1024x1024 [1] [0] [0] [1] [] []

variable [Facts₀]

def dot_S1024x16384_S16384x1024_S1024x1024_1_0_0_1_n_n : DotDims S1024x16384 S16384x1024 S1024x1024 where
  lhsContracting := [1]
  rhsContracting := [0]
  lhsNonContracting := [0]
  rhsNonContracting := [1]
  lhsBatch := []
  rhsBatch := []
  wf := dot_S1024x16384_S16384x1024_S1024x1024_1_0_0_1_n_n_wf

class Facts : Prop extends Facts₀ where

variable [Facts]
-- ==== Proof.RefSide.lean ====
/-
  The reference's side: its run, its frame, and its result read at an index as
  gelu (∑ k, A i k * B k j) over the extended reals.
-/
import proofs.«900879_g7700000000000880_dist_matmul_gelu_kshard_i_m1024_n1024_k512_v7x_i32_bf16_1_alg».proof.Defs
import proofs.«900879_g7700000000000880_dist_matmul_gelu_kshard_i_m1024_n1024_k512_v7x_i32_bf16_1_alg».proof.Proof.Gen.ReferenceIdeal
import proofs.«900879_g7700000000000880_dist_matmul_gelu_kshard_i_m1024_n1024_k512_v7x_i32_bf16_1_alg».proof.Proof.Gen.ReferenceIdeal.Run
import proofs.«900879_g7700000000000880_dist_matmul_gelu_kshard_i_m1024_n1024_k512_v7x_i32_bf16_1_alg».proof.Proof.Gen.ReferenceIdeal.Read
import proofs.«900879_g7700000000000880_dist_matmul_gelu_kshard_i_m1024_n1024_k512_v7x_i32_bf16_1_alg».proof.Proof.Gen.Pre_finite_inputs_ReferenceIdeal
import Idealize.ShloMosaic.Lib.ValueIdx
import Idealize.ShloMosaic.PureOps.Ideal.Laws

noncomputable section

namespace Cert.RefSide

open Idealize.ShloMosaic Idealize.ShloMosaic.TcCoe Idealize.SL.Sem
open Cert.ReferenceIdeal Cert.ReferenceIdeal.Gen

/-- The tanh form of gelu on the extended reals, each of the reference's four single-precision constants kept as its
    word: `(h · z) · (u + tanh (s · (z + ((a · z) · z) · z)))` with `h` the word of one half, `a` of 0.044715,
    `s` of √(2/π) rounded, `u` of one. The products and sums associate exactly as the reference applies them. -/
def gelu (z : EReal) : EReal :=
  (Ideal.ofBits .f32 0x3F000000#32 * z) *
    (Ideal.ofBits .f32 0x3F800000#32 +
      Ideal.tanh (Ideal.ofBits .f32 0x3F4C422A#32 *
        (z + ((Ideal.ofBits .f32 0x3D372713#32 * z) * z) * z)))

/-- The reference's result as one function of its two argument arrays: entry `(p, q)` is gelu of the inner product
    of row `p` of `A` with column `q` of `B`, the sum taken over all 16384 contraction indices at once. -/
def Spec (A : (⟨S1024x16384, .f32⟩ : BufTy).Contents (Elt Ideal)) (B : (⟨S16384x1024, .f32⟩ : BufTy).Contents (Elt Ideal)) :
    (⟨S1024x1024, .bf16⟩ : BufTy).Contents (Elt Ideal) :=
  fun i => gelu (∑ k : Fin 16384, A (ValueIdx.ix2 (i 0) k) * B (ValueIdx.ix2 k (i 1)))

/-- `Spec` at the entry of row `p` and column `q`. -/
theorem Spec_apply (A : (⟨S1024x16384, .f32⟩ : BufTy).Contents (Elt Ideal)) (B : (⟨S16384x1024, .f32⟩ : BufTy).Contents (Elt Ideal))
    (p q : Fin 1024) :
    Spec A B (ValueIdx.ix2 p q) = gelu (∑ k : Fin 16384, A (ValueIdx.ix2 p k) * B (ValueIdx.ix2 k q)) := rfl

/-- The left operand of the contraction is read at row `i 0`, column `k`. -/
theorem lidx_eq (i : S1024x1024.Idx) (k : Fin 16384) :
    Read.lidx_main_v0 i k = ValueIdx.ix2 (i 0) k :=
  funext fun a => by match a with | ⟨0, _⟩ => rfl | ⟨1, _⟩ => rfl

/-- The right operand of the contraction is read at row `k`, column `i 1`. -/
theorem ridx_eq (i : S1024x1024.Idx) (k : Fin 16384) :
    Read.ridx_main_v0 i k = ValueIdx.ix2 k (i 1) :=
  funext fun a => by match a with | ⟨0, _⟩ => rfl | ⟨1, _⟩ => rfl

/-- Every stage after the contraction is pointwise: the last stage at an index is gelu of the contraction at that
    index (the four constants broadcast from rank 0, the final change of format the identity on extended reals). -/
theorem stages_apply (A : (⟨S1024x16384, .f32⟩ : BufTy).Contents (Elt Ideal)) (B : (⟨S16384x1024, .f32⟩ : BufTy).Contents (Elt Ideal))
    (i : S1024x1024.Idx) :
    Read.val_main_v14 (F := Ideal) A B i = gelu (Read.val_main_v0 (F := Ideal) A B i) := by
  rw [Read.val_main_v14_apply, Read.val_main_v13_apply, Read.val_main_v12_apply, Read.val_main_v11_apply,
    Read.val_main_cst_2_apply, Read.val_main_v10_apply, Read.val_main_v9_apply, Read.val_main_v8_apply,
    Read.val_main_cst_1_apply, Read.val_main_v7_apply, Read.val_main_v6_apply, Read.val_main_v5_apply,
    Read.val_main_v4_apply, Read.val_main_v3_apply, Read.val_main_cst_0_apply, Read.val_main_v2_apply,
    Read.val_main_v1_apply, Read.val_main_cst_apply]
  simp only [Ideal.truncf_def, Ideal.mulf_def, Ideal.addf_def, Ideal.hostUnary_tanh_def, Ideal.ofBits_def]
  rfl

/-- The reference's last stage is `Spec` of the argument arrays. -/
theorem ref_value (A : (⟨S1024x16384, .f32⟩ : BufTy).Contents (Elt Ideal)) (B : (⟨S16384x1024, .f32⟩ : BufTy).Contents (Elt Ideal)) :
    Read.val_main_v14 (F := Ideal) A B = Spec A B := by
  funext i
  rw [stages_apply, Read.val_main_v0_apply]
  exact congrArg gelu (Finset.sum_congr rfl fun k _ => by rw [lidx_eq, ridx_eq]; rfl)

/-- The reference runs, its result array ends at `Spec` of its argument arrays, and those end unchanged. -/
theorem ref_run (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v14)
          = Spec (m' (((0 : Dev Cert.ReferenceIdeal.nD).tc : Thread Cert.ReferenceIdeal.nD Cert.ReferenceIdeal.τ).loc Cert.ReferenceIdeal.main_arg0))
              (m' (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run Cert.ReferenceIdeal.defs _ _).mono
    (fun _ h => ⟨(h 0).1.trans ((Read.val_main_v14_eq _ _).trans (ref_value _ _)), (h 0).2⟩)
    (Cert.ReferenceIdeal.Value.run (F := Ideal) m' ρ')

/-- The reference runs and leaves its argument arrays unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.RefSide

end
-- ==== Proof.Proto.lean ====
/-
  The exchange pattern of the kernel, as mathematics.

  Thirty-two devices, indexed by five bits. For each of three column blocks k the devices sum their
  partial products by recursive halving over five stages: at stage s device c exchanges with the
  device whose index differs from c's by the bit pattern `mask k s`, keeps one half of its current
  row range (chosen by the bit `bit k s c`) and sends the other. After the fifth stage each device
  owns 32 rows of each column block; it applies the pointwise function and the devices then gather
  all row chunks by recursive doubling over the same partners in reverse order.

  This module fixes the names: partners, the half-selecting bits, the semaphore cells, and the
  contract `ok` on values that the exchanged pieces carry.
-/
import proofs.«900879_g7700000000000880_dist_matmul_gelu_kshard_i_m1024_n1024_k512_v7x_i32_bf16_1_alg».proof.Proof.Gen.KernelIdeal
import proofs.«900879_g7700000000000880_dist_matmul_gelu_kshard_i_m1024_n1024_k512_v7x_i32_bf16_1_alg».proof.Proof.Gen.KernelIdeal.Skeleton
import proofs.«900879_g7700000000000880_dist_matmul_gelu_kshard_i_m1024_n1024_k512_v7x_i32_bf16_1_alg».proof.Proof.Gen.KernelIdeal.Launch
import proofs.«900879_g7700000000000880_dist_matmul_gelu_kshard_i_m1024_n1024_k512_v7x_i32_bf16_1_alg».proof.Proof.Gen.KernelIdeal.Points
import proofs.«900879_g7700000000000880_dist_matmul_gelu_kshard_i_m1024_n1024_k512_v7x_i32_bf16_1_alg».proof.Proof.Gen.KernelIdeal.Frame
import Idealize.ShloMosaic.Lib.Pipeline.Launch
import Idealize.ShloMosaic.Lib.Pipeline.Kit
import Idealize.ShloMosaic.Lib.Rounds
import Idealize.ShloMosaic.Lib.Tactic

noncomputable section

namespace Cert.KernelIdeal.Proto

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Partners -/

/-- The device whose index is `c`'s with the bits of `μ` flipped. -/
def xr (c : Dev nD) (μ : Fin 32) : Dev nD := ⟨c.val ^^^ μ.val, Nat.xor_lt_two_pow (n := 5) c.isLt μ.isLt⟩

theorem xr_xr : ∀ (c : Dev nD) (μ : Fin 32), xr (xr c μ) μ = c := by decide
theorem xr_inj : ∀ (c d : Dev nD) (μ : Fin 32), xr c μ = xr d μ → c = d := by decide

/-- The bit pattern separating a device from its stage-`s` partner in column block `k`. -/
def mask : Fin 3 → Fin 5 → Fin 32
  | 0 => ![1, 3, 8, 4, 16]
  | 1 => ![3, 8, 1, 16, 4]
  | 2 => ![8, 1, 3, 16, 4]

/-- The five partners of a device, in the order of the entry handshake. -/
def hmask : Fin 5 → Fin 32 := ![1, 3, 8, 4, 16]

theorem hmask_inj : Function.Injective hmask := by decide
/-- Every exchange partner is a handshake partner. -/
theorem mask_mem : ∀ (k : Fin 3) (s : Fin 5), ∃ i : Fin 5, hmask i = mask k s := by decide

/-- The stage-`s` partner of `c` in column block `k`. -/
def peer (k : Fin 3) (s : Fin 5) (c : Dev nD) : Dev nD := xr c (mask k s)

theorem peer_peer (k : Fin 3) (s : Fin 5) (c : Dev nD) : peer k s (peer k s c) = c := xr_xr c _

/-- Bit `i` of a device's index. -/
def dbit (c : Dev nD) (i : ℕ) : ℕ := (c.val >>> i) % 2

/-- The bit that decides which half device `c` keeps at stage `s` of column block `k`. -/
def bit : Fin 3 → Fin 5 → Dev nD → ℕ
  | 0 => fun s c => (![(dbit c 0 + dbit c 1) % 2, dbit c 1, dbit c 3, dbit c 2, dbit c 4] : Fin 5 → ℕ) s
  | 1 => fun s c => (![dbit c 1, dbit c 3, dbit c 0, dbit c 4, dbit c 2] : Fin 5 → ℕ) s
  | 2 => fun s c => (![dbit c 3, (dbit c 0 + dbit c 1) % 2, dbit c 1, dbit c 4, dbit c 2] : Fin 5 → ℕ) s

/-- Partners at stage `s` disagree on the stage's bit and agree on every other stage's bit. -/
theorem bit_peer_self : ∀ (k : Fin 3) (s : Fin 5) (c : Dev nD), bit k s (peer k s c) = 1 - bit k s c := by decide
theorem bit_peer_lt : ∀ (k : Fin 3) (s t : Fin 5) (c : Dev nD), t < s → bit k t (peer k s c) = bit k t c := by decide
theorem bit_peer_succ : ∀ (k : Fin 3) (s t : Fin 5) (c : Dev nD), t.val = s.val + 1 → bit k t (peer k s c) = bit k t c := by decide
theorem bit_le_one : ∀ (k : Fin 3) (s : Fin 5) (c : Dev nD), bit k s c ≤ 1 := by decide

/-- Rows of the range a device still holds after `s` stages: `1024 / 2^s`. -/
def half (s : ℕ) : ℕ := 1024 >>> (s + 1)

/-- First row of the range device `c` holds in column block `k` after `s` stages. -/
def lo (k : Fin 3) (c : Dev nD) : ℕ → ℕ
  | 0 => 0
  | s + 1 => lo k c s + (if h : s < 5 then bit k ⟨s, h⟩ c * half s else 0)

/-- First column and width of column block `k`. -/
def col0 : Fin 3 → ℕ := ![0, 384, 768]
def colw : Fin 3 → ℕ := ![384, 384, 256]

/-! ## Cells -/

/-- The runtime's barrier semaphore of this collective. -/
abbrev barS : Sem sig := (SemArray.scalar (sig.barrier 0 rfl) : Sems sig S_).sem

/-- The four arrays of transfer semaphores: 0 and 1 the summing phase's send and receive cells,
    2 and 3 the gathering phase's; cell `(a, s, k, j)` is piece `j` of stage `s` of column block `k`. -/
def dsem (a : Fin 4) (s : Fin 5) (k : Fin 3) (j : Fin 2) : DmaSem sig :=
  ⟨3 + 30 * a.val + 6 * s.val + 2 * k.val + j.val, by
    have := a.isLt; have := s.isLt; have := k.isLt; have := j.isLt; show _ < 123; omega⟩

abbrev barCell (c : Dev nD) : GSem nD τ sig := ((c : Thread nD τ), .reg barS)
abbrev dcell (c : Dev nD) (a : Fin 4) (s : Fin 5) (k : Fin 3) (j : Fin 2) : GSem nD τ sig := ((c : Thread nD τ), .dma (dsem a s k j))

/-- A stage has two pieces, except the last, which has one. -/
def used (s : Fin 5) (j : Fin 2) : Prop := s.val < 4 ∨ j.val = 0
instance (s : Fin 5) (j : Fin 2) : Decidable (used s j) := by unfold used; infer_instance

theorem dsem_inj : ∀ a a' s s' k k' j j', dsem a s k j = dsem a' s' k' j' → a = a' ∧ s = s' ∧ k = k' ∧ j = j' := by decide

/-! ## The contract on values -/

variable {F : FTy → Type} [FloatOps F]

/-- The column block a column lies in. -/
def blk (q : ℕ) : Fin 3 := if q < 384 then 0 else if q < 768 then 1 else 2

/-- What a certificate over these names assumes of values. The frames take every field true; the
    value claim takes them to be the mathematics of the sum: `okSS s c r q v` — `v` is right for
    local row `r`, column `q` of what device `c` sends at stage `s` —, `okAcc t c r q v` — for row `r`,
    column `q` of device `c`'s running sum over the `2^t` devices it has met —, `okOut r q v` — for
    row `r`, column `q` of the result, the same on every device. -/
structure Contract (F : FTy → Type) [FloatOps F] where
  okSS : Fin 5 → Dev nD → ℕ → ℕ → F .bf16 → Prop
  okAcc : ℕ → Dev nD → ℕ → ℕ → F .f32 → Prop
  okOut : ℕ → ℕ → F .bf16 → Prop

/-- The contract that asks nothing. -/
def Contract.trivial : Contract F := ⟨fun _ _ _ _ _ => True, fun _ _ _ _ _ => True, fun _ _ _ => True⟩

/-- The two algebras side by side: the pipeline library's and the exchange's (duties `Fin 5`: the five
    handshake partners; a transfer cell has the one duty `0`). -/
abbrev UB : Type := URounds (GSem nD τ sig) (Fin 5)
abbrev UU : Type := UR sig nD τ × UB

end Cert.KernelIdeal.Proto

end
-- ==== Proof.Tab.lean ====
import proofs.«900879_g7700000000000880_dist_matmul_gelu_kshard_i_m1024_n1024_k512_v7x_i32_bf16_1_alg».proof.Proof.Proto

noncomputable section

namespace Cert.KernelIdeal.Tab

open Cert.KernelIdeal Cert.KernelIdeal.Gen Cert.KernelIdeal.Proto
open Idealize.ShloMosaic Idealize.ShloMosaic.TcCoe Idealize.SL.Sem

/-- summing phase, stage 0, column block 0, piece 0: the rows device `c` sends, in its own buffer and in its partner's -/
abbrev src_rs_0_0_0 (c : Dev nD) : Memref sig .tc .vmem S256x384 .bf16 :=
  (Memref.whole cc0_scratch6 : Memref sig .tc .vmem S512x1024 .bf16).slice (Rect.unit (s := S512x1024) (k0_off2 c) S256x384.size (k0_off2_inb c)) (fun _ => rfl)
abbrev dst_rs_0_0_0 (c : Dev nD) : Memref sig .tc .vmem S256x384 .bf16 :=
  (Memref.whole cc0_scratch1 : Memref sig .tc .vmem S512x1024 .bf16).slice (Rect.unit (s := S512x1024) (k0_off2 c) S256x384.size (k0_off2_inb c)) (fun _ => rfl)
theorem dev_rs_0_0_0 : ∀ c : Dev nD, (⟨k0_dev6 c, k0_dev6_lt c⟩ : Dev nD) = peer 0 0 c := by decide +kernel

/-- summing phase, stage 0, column block 0, piece 1: the rows device `c` sends, in its own buffer and in its partner's -/
abbrev src_rs_0_0_1 (c : Dev nD) : Memref sig .tc .vmem S256x384 .bf16 :=
  (Memref.whole cc0_scratch6 : Memref sig .tc .vmem S512x1024 .bf16).slice (Rect.unit (s := S512x1024) (k0_off3 c) S256x384.size (k0_off3_inb c)) (fun _ => rfl)
abbrev dst_rs_0_0_1 (c : Dev nD) : Memref sig .tc .vmem S256x384 .bf16 :=
  (Memref.whole cc0_scratch1 : Memref sig .tc .vmem S512x1024 .bf16).slice (Rect.unit (s := S512x1024) (k0_off3 c) S256x384.size (k0_off3_inb c)) (fun _ => rfl)
theorem dev_rs_0_0_1 : ∀ c : Dev nD, (⟨k0_dev7 c, k0_dev7_lt c⟩ : Dev nD) = peer 0 0 c := by decide +kernel

/-- summing phase, stage 0, column block 1, piece 0: the rows device `c` sends, in its own buffer and in its partner's -/
abbrev src_rs_0_1_0 (c : Dev nD) : Memref sig .tc .vmem S256x384 .bf16 :=
  (Memref.whole cc0_scratch6 : Memref sig .tc .vmem S512x1024 .bf16).slice (Rect.unit (s := S512x1024) (k0_off5 c) S256x384.size (k0_off5_inb c)) (fun _ => rfl)
abbrev dst_rs_0_1_0 (c : Dev nD) : Memref sig .tc .vmem S256x384 .bf16 :=
  (Memref.whole cc0_scratch1 : Memref sig .tc .vmem S512x1024 .bf16).slice (Rect.unit (s := S512x1024) (k0_off5 c) S256x384.size (k0_off5_inb c)) (fun _ => rfl)
theorem dev_rs_0_1_0 : ∀ c : Dev nD, (⟨k0_dev8 c, k0_dev8_lt c⟩ : Dev nD) = peer 1 0 c := by decide +kernel

/-- summing phase, stage 0, column block 1, piece 1: the rows device `c` sends, in its own buffer and in its partner's -/
abbrev src_rs_0_1_1 (c : Dev nD) : Memref sig .tc .vmem S256x384 .bf16 :=
  (Memref.whole cc0_scratch6 : Memref sig .tc .vmem S512x1024 .bf16).slice (Rect.unit (s := S512x1024) (k0_off6 c) S256x384.size (k0_off6_inb c)) (fun _ => rfl)
abbrev dst_rs_0_1_1 (c : Dev nD) : Memref sig .tc .vmem S256x384 .bf16 :=
  (Memref.whole cc0_scratch1 : Memref sig .tc .vmem S512x1024 .bf16).slice (Rect.unit (s := S512x1024) (k0_off6 c) S256x384.size (k0_off6_inb c)) (fun _ => rfl)
theorem dev_rs_0_1_1 : ∀ c : Dev nD, (⟨k0_dev9 c, k0_dev9_lt c⟩ : Dev nD) = peer 1 0 c := by decide +kernel

/-- summing phase, stage 0, column block 2, piece 0: the rows device `c` sends, in its own buffer and in its partner's -/
abbrev src_rs_0_2_0 (c : Dev nD) : Memref sig .tc .vmem S256x256 .bf16 :=
  (Memref.whole cc0_scratch6 : Memref sig .tc .vmem S512x1024 .bf16).slice (Rect.unit (s := S512x1024) (k0_off7 c) S256x256.size (k0_off7_inb c)) (fun _ => rfl)
abbrev dst_rs_0_2_0 (c : Dev nD) : Memref sig .tc .vmem S256x256 .bf16 :=
  (Memref.whole cc0_scratch1 : Memref sig .tc .vmem S512x1024 .bf16).slice (Rect.unit (s := S512x1024) (k0_off7 c) S256x256.size (k0_off7_inb c)) (fun _ => rfl)
theorem dev_rs_0_2_0 : ∀ c : Dev nD, (⟨k0_dev10 c, k0_dev10_lt c⟩ : Dev nD) = peer 2 0 c := by decide +kernel

/-- summing phase, stage 0, column block 2, piece 1: the rows device `c` sends, in its own buffer and in its partner's -/
abbrev src_rs_0_2_1 (c : Dev nD) : Memref sig .tc .vmem S256x256 .bf16 :=
  (Memref.whole cc0_scratch6 : Memref sig .tc .vmem S512x1024 .bf16).slice (Rect.unit (s := S512x1024) (k0_off8 c) S256x256.size (k0_off8_inb c)) (fun _ => rfl)
abbrev dst_rs_0_2_1 (c : Dev nD) : Memref sig .tc .vmem S256x256 .bf16 :=
  (Memref.whole cc0_scratch1 : Memref sig .tc .vmem S512x1024 .bf16).slice (Rect.unit (s := S512x1024) (k0_off8 c) S256x256.size (k0_off8_inb c)) (fun _ => rfl)
theorem dev_rs_0_2_1 : ∀ c : Dev nD, (⟨k0_dev11 c, k0_dev11_lt c⟩ : Dev nD) = peer 2 0 c := by decide +kernel

/-- summing phase, stage 1, column block 0, piece 0: the rows device `c` sends, in its own buffer and in its partner's -/
abbrev src_rs_1_0_0 (c : Dev nD) : Memref sig .tc .vmem S128x384 .bf16 :=
  (Memref.whole cc0_scratch7 : Memref sig .tc .vmem S256x1024 .bf16).slice (Rect.unit (s := S256x1024) (k0_off16 c) S128x384.size (k0_off16_inb c)) (fun _ => rfl)
abbrev dst_rs_1_0_0 (c : Dev nD) : Memref sig .tc .vmem S128x384 .bf16 :=
  (Memref.whole cc0_scratch2 : Memref sig .tc .vmem S256x1024 .bf16).slice (Rect.unit (s := S256x1024) (k0_off16 c) S128x384.size (k0_off16_inb c)) (fun _ => rfl)
theorem dev_rs_1_0_0 : ∀ c : Dev nD, (⟨k0_dev12 c, k0_dev12_lt c⟩ : Dev nD) = peer 0 1 c := by decide +kernel

/-- summing phase, stage 1, column block 0, piece 1: the rows device `c` sends, in its own buffer and in its partner's -/
abbrev src_rs_1_0_1 (c : Dev nD) : Memref sig .tc .vmem S128x384 .bf16 :=
  (Memref.whole cc0_scratch7 : Memref sig .tc .vmem S256x1024 .bf16).slice (Rect.unit (s := S256x1024) (k0_off17 c) S128x384.size (k0_off17_inb c)) (fun _ => rfl)
abbrev dst_rs_1_0_1 (c : Dev nD) : Memref sig .tc .vmem S128x384 .bf16 :=
  (Memref.whole cc0_scratch2 : Memref sig .tc .vmem S256x1024 .bf16).slice (Rect.unit (s := S256x1024) (k0_off17 c) S128x384.size (k0_off17_inb c)) (fun _ => rfl)
theorem dev_rs_1_0_1 : ∀ c : Dev nD, (⟨k0_dev13 c, k0_dev13_lt c⟩ : Dev nD) = peer 0 1 c := by decide +kernel

/-- summing phase, stage 1, column block 1, piece 0: the rows device `c` sends, in its own buffer and in its partner's -/
abbrev src_rs_1_1_0 (c : Dev nD) : Memref sig .tc .vmem S128x384 .bf16 :=
  (Memref.whole cc0_scratch7 : Memref sig .tc .vmem S256x1024 .bf16).slice (Rect.unit (s := S256x1024) (k0_off20 c) S128x384.size (k0_off20_inb c)) (fun _ => rfl)
abbrev dst_rs_1_1_0 (c : Dev nD) : Memref sig .tc .vmem S128x384 .bf16 :=
  (Memref.whole cc0_scratch2 : Memref sig .tc .vmem S256x1024 .bf16).slice (Rect.unit (s := S256x1024) (k0_off20 c) S128x384.size (k0_off20_inb c)) (fun _ => rfl)
theorem dev_rs_1_1_0 : ∀ c : Dev nD, (⟨k0_dev14 c, k0_dev14_lt c⟩ : Dev nD) = peer 1 1 c := by decide +kernel

/-- summing phase, stage 1, column block 1, piece 1: the rows device `c` sends, in its own buffer and in its partner's -/
abbrev src_rs_1_1_1 (c : Dev nD) : Memref sig .tc .vmem S128x384 .bf16 :=
  (Memref.whole cc0_scratch7 : Memref sig .tc .vmem S256x1024 .bf16).slice (Rect.unit (s := S256x1024) (k0_off21 c) S128x384.size (k0_off21_inb c)) (fun _ => rfl)
abbrev dst_rs_1_1_1 (c : Dev nD) : Memref sig .tc .vmem S128x384 .bf16 :=
  (Memref.whole cc0_scratch2 : Memref sig .tc .vmem S256x1024 .bf16).slice (Rect.unit (s := S256x1024) (k0_off21 c) S128x384.size (k0_off21_inb c)) (fun _ => rfl)
theorem dev_rs_1_1_1 : ∀ c : Dev nD, (⟨k0_dev15 c, k0_dev15_lt c⟩ : Dev nD) = peer 1 1 c := by decide +kernel

/-- summing phase, stage 1, column block 2, piece 0: the rows device `c` sends, in its own buffer and in its partner's -/
abbrev src_rs_1_2_0 (c : Dev nD) : Memref sig .tc .vmem S128x256 .bf16 :=
  (Memref.whole cc0_scratch7 : Memref sig .tc .vmem S256x1024 .bf16).slice (Rect.unit (s := S256x1024) (k0_off24 c) S128x256.size (k0_off24_inb c)) (fun _ => rfl)
abbrev dst_rs_1_2_0 (c : Dev nD) : Memref sig .tc .vmem S128x256 .bf16 :=
  (Memref.whole cc0_scratch2 : Memref sig .tc .vmem S256x1024 .bf16).slice (Rect.unit (s := S256x1024) (k0_off24 c) S128x256.size (k0_off24_inb c)) (fun _ => rfl)
theorem dev_rs_1_2_0 : ∀ c : Dev nD, (⟨k0_dev16 c, k0_dev16_lt c⟩ : Dev nD) = peer 2 1 c := by decide +kernel

/-- summing phase, stage 1, column block 2, piece 1: the rows device `c` sends, in its own buffer and in its partner's -/
abbrev src_rs_1_2_1 (c : Dev nD) : Memref sig .tc .vmem S128x256 .bf16 :=
  (Memref.whole cc0_scratch7 : Memref sig .tc .vmem S256x1024 .bf16).slice (Rect.unit (s := S256x1024) (k0_off25 c) S128x256.size (k0_off25_inb c)) (fun _ => rfl)
abbrev dst_rs_1_2_1 (c : Dev nD) : Memref sig .tc .vmem S128x256 .bf16 :=
  (Memref.whole cc0_scratch2 : Memref sig .tc .vmem S256x1024 .bf16).slice (Rect.unit (s := S256x1024) (k0_off25 c) S128x256.size (k0_off25_inb c)) (fun _ => rfl)
theorem dev_rs_1_2_1 : ∀ c : Dev nD, (⟨k0_dev17 c, k0_dev17_lt c⟩ : Dev nD) = peer 2 1 c := by decide +kernel

/-- summing phase, stage 2, column block 0, piece 0: the rows device `c` sends, in its own buffer and in its partner's -/
abbrev src_rs_2_0_0 (c : Dev nD) : Memref sig .tc .vmem S64x384 .bf16 :=
  (Memref.whole cc0_scratch8 : Memref sig .tc .vmem S128x1024 .bf16).slice (Rect.unit (s := S128x1024) (k0_off34 c) S64x384.size (k0_off34_inb c)) (fun _ => rfl)
abbrev dst_rs_2_0_0 (c : Dev nD) : Memref sig .tc .vmem S64x384 .bf16 :=
  (Memref.whole cc0_scratch3 : Memref sig .tc .vmem S128x1024 .bf16).slice (Rect.unit (s := S128x1024) (k0_off34 c) S64x384.size (k0_off34_inb c)) (fun _ => rfl)
theorem dev_rs_2_0_0 : ∀ c : Dev nD, (⟨k0_dev18 c, k0_dev18_lt c⟩ : Dev nD) = peer 0 2 c := by decide +kernel

/-- summing phase, stage 2, column block 0, piece 1: the rows device `c` sends, in its own buffer and in its partner's -/
abbrev src_rs_2_0_1 (c : Dev nD) : Memref sig .tc .vmem S64x384 .bf16 :=
  (Memref.whole cc0_scratch8 : Memref sig .tc .vmem S128x1024 .bf16).slice (Rect.unit (s := S128x1024) (k0_off35 c) S64x384.size (k0_off35_inb c)) (fun _ => rfl)
abbrev dst_rs_2_0_1 (c : Dev nD) : Memref sig .tc .vmem S64x384 .bf16 :=
  (Memref.whole cc0_scratch3 : Memref sig .tc .vmem S128x1024 .bf16).slice (Rect.unit (s := S128x1024) (k0_off35 c) S64x384.size (k0_off35_inb c)) (fun _ => rfl)
theorem dev_rs_2_0_1 : ∀ c : Dev nD, (⟨k0_dev19 c, k0_dev19_lt c⟩ : Dev nD) = peer 0 2 c := by decide +kernel

/-- summing phase, stage 2, column block 1, piece 0: the rows device `c` sends, in its own buffer and in its partner's -/
abbrev src_rs_2_1_0 (c : Dev nD) : Memref sig .tc .vmem S64x384 .bf16 :=
  (Memref.whole cc0_scratch8 : Memref sig .tc .vmem S128x1024 .bf16).slice (Rect.unit (s := S128x1024) (k0_off38 c) S64x384.size (k0_off38_inb c)) (fun _ => rfl)
abbrev dst_rs_2_1_0 (c : Dev nD) : Memref sig .tc .vmem S64x384 .bf16 :=
  (Memref.whole cc0_scratch3 : Memref sig .tc .vmem S128x1024 .bf16).slice (Rect.unit (s := S128x1024) (k0_off38 c) S64x384.size (k0_off38_inb c)) (fun _ => rfl)
theorem dev_rs_2_1_0 : ∀ c : Dev nD, (⟨k0_dev20 c, k0_dev20_lt c⟩ : Dev nD) = peer 1 2 c := by decide +kernel

/-- summing phase, stage 2, column block 1, piece 1: the rows device `c` sends, in its own buffer and in its partner's -/
abbrev src_rs_2_1_1 (c : Dev nD) : Memref sig .tc .vmem S64x384 .bf16 :=
  (Memref.whole cc0_scratch8 : Memref sig .tc .vmem S128x1024 .bf16).slice (Rect.unit (s := S128x1024) (k0_off39 c) S64x384.size (k0_off39_inb c)) (fun _ => rfl)
abbrev dst_rs_2_1_1 (c : Dev nD) : Memref sig .tc .vmem S64x384 .bf16 :=
  (Memref.whole cc0_scratch3 : Memref sig .tc .vmem S128x1024 .bf16).slice (Rect.unit (s := S128x1024) (k0_off39 c) S64x384.size (k0_off39_inb c)) (fun _ => rfl)
theorem dev_rs_2_1_1 : ∀ c : Dev nD, (⟨k0_dev21 c, k0_dev21_lt c⟩ : Dev nD) = peer 1 2 c := by decide +kernel

/-- summing phase, stage 2, column block 2, piece 0: the rows device `c` sends, in its own buffer and in its partner's -/
abbrev src_rs_2_2_0 (c : Dev nD) : Memref sig .tc .vmem S64x256 .bf16 :=
  (Memref.whole cc0_scratch8 : Memref sig .tc .vmem S128x1024 .bf16).slice (Rect.unit (s := S128x1024) (k0_off42 c) S64x256.size (k0_off42_inb c)) (fun _ => rfl)
abbrev dst_rs_2_2_0 (c : Dev nD) : Memref sig .tc .vmem S64x256 .bf16 :=
  (Memref.whole cc0_scratch3 : Memref sig .tc .vmem S128x1024 .bf16).slice (Rect.unit (s := S128x1024) (k0_off42 c) S64x256.size (k0_off42_inb c)) (fun _ => rfl)
theorem dev_rs_2_2_0 : ∀ c : Dev nD, (⟨k0_dev22 c, k0_dev22_lt c⟩ : Dev nD) = peer 2 2 c := by decide +kernel

/-- summing phase, stage 2, column block 2, piece 1: the rows device `c` sends, in its own buffer and in its partner's -/
abbrev src_rs_2_2_1 (c : Dev nD) : Memref sig .tc .vmem S64x256 .bf16 :=
  (Memref.whole cc0_scratch8 : Memref sig .tc .vmem S128x1024 .bf16).slice (Rect.unit (s := S128x1024) (k0_off43 c) S64x256.size (k0_off43_inb c)) (fun _ => rfl)
abbrev dst_rs_2_2_1 (c : Dev nD) : Memref sig .tc .vmem S64x256 .bf16 :=
  (Memref.whole cc0_scratch3 : Memref sig .tc .vmem S128x1024 .bf16).slice (Rect.unit (s := S128x1024) (k0_off43 c) S64x256.size (k0_off43_inb c)) (fun _ => rfl)
theorem dev_rs_2_2_1 : ∀ c : Dev nD, (⟨k0_dev23 c, k0_dev23_lt c⟩ : Dev nD) = peer 2 2 c := by decide +kernel

/-- summing phase, stage 3, column block 0, piece 0: the rows device `c` sends, in its own buffer and in its partner's -/
abbrev src_rs_3_0_0 (c : Dev nD) : Memref sig .tc .vmem S32x384 .bf16 :=
  (Memref.whole cc0_scratch9 : Memref sig .tc .vmem S64x1024 .bf16).slice (Rect.unit (s := S64x1024) (k0_off52 c) S32x384.size (k0_off52_inb c)) (fun _ => rfl)
abbrev dst_rs_3_0_0 (c : Dev nD) : Memref sig .tc .vmem S32x384 .bf16 :=
  (Memref.whole cc0_scratch4 : Memref sig .tc .vmem S64x1024 .bf16).slice (Rect.unit (s := S64x1024) (k0_off52 c) S32x384.size (k0_off52_inb c)) (fun _ => rfl)
theorem dev_rs_3_0_0 : ∀ c : Dev nD, (⟨k0_dev24 c, k0_dev24_lt c⟩ : Dev nD) = peer 0 3 c := by decide +kernel

/-- summing phase, stage 3, column block 0, piece 1: the rows device `c` sends, in its own buffer and in its partner's -/
abbrev src_rs_3_0_1 (c : Dev nD) : Memref sig .tc .vmem S32x384 .bf16 :=
  (Memref.whole cc0_scratch9 : Memref sig .tc .vmem S64x1024 .bf16).slice (Rect.unit (s := S64x1024) (k0_off53 c) S32x384.size (k0_off53_inb c)) (fun _ => rfl)
abbrev dst_rs_3_0_1 (c : Dev nD) : Memref sig .tc .vmem S32x384 .bf16 :=
  (Memref.whole cc0_scratch4 : Memref sig .tc .vmem S64x1024 .bf16).slice (Rect.unit (s := S64x1024) (k0_off53 c) S32x384.size (k0_off53_inb c)) (fun _ => rfl)
theorem dev_rs_3_0_1 : ∀ c : Dev nD, (⟨k0_dev25 c, k0_dev25_lt c⟩ : Dev nD) = peer 0 3 c := by decide +kernel

/-- summing phase, stage 3, column block 1, piece 0: the rows device `c` sends, in its own buffer and in its partner's -/
abbrev src_rs_3_1_0 (c : Dev nD) : Memref sig .tc .vmem S32x384 .bf16 :=
  (Memref.whole cc0_scratch9 : Memref sig .tc .vmem S64x1024 .bf16).slice (Rect.unit (s := S64x1024) (k0_off56 c) S32x384.size (k0_off56_inb c)) (fun _ => rfl)
abbrev dst_rs_3_1_0 (c : Dev nD) : Memref sig .tc .vmem S32x384 .bf16 :=
  (Memref.whole cc0_scratch4 : Memref sig .tc .vmem S64x1024 .bf16).slice (Rect.unit (s := S64x1024) (k0_off56 c) S32x384.size (k0_off56_inb c)) (fun _ => rfl)
theorem dev_rs_3_1_0 : ∀ c : Dev nD, (⟨k0_dev26 c, k0_dev26_lt c⟩ : Dev nD) = peer 1 3 c := by decide +kernel

/-- summing phase, stage 3, column block 1, piece 1: the rows device `c` sends, in its own buffer and in its partner's -/
abbrev src_rs_3_1_1 (c : Dev nD) : Memref sig .tc .vmem S32x384 .bf16 :=
  (Memref.whole cc0_scratch9 : Memref sig .tc .vmem S64x1024 .bf16).slice (Rect.unit (s := S64x1024) (k0_off57 c) S32x384.size (k0_off57_inb c)) (fun _ => rfl)
abbrev dst_rs_3_1_1 (c : Dev nD) : Memref sig .tc .vmem S32x384 .bf16 :=
  (Memref.whole cc0_scratch4 : Memref sig .tc .vmem S64x1024 .bf16).slice (Rect.unit (s := S64x1024) (k0_off57 c) S32x384.size (k0_off57_inb c)) (fun _ => rfl)
theorem dev_rs_3_1_1 : ∀ c : Dev nD, (⟨k0_dev27 c, k0_dev27_lt c⟩ : Dev nD) = peer 1 3 c := by decide +kernel

/-- summing phase, stage 3, column block 2, piece 0: the rows device `c` sends, in its own buffer and in its partner's -/
abbrev src_rs_3_2_0 (c : Dev nD) : Memref sig .tc .vmem S32x256 .bf16 :=
  (Memref.whole cc0_scratch9 : Memref sig .tc .vmem S64x1024 .bf16).slice (Rect.unit (s := S64x1024) (k0_off60 c) S32x256.size (k0_off60_inb c)) (fun _ => rfl)
abbrev dst_rs_3_2_0 (c : Dev nD) : Memref sig .tc .vmem S32x256 .bf16 :=
  (Memref.whole cc0_scratch4 : Memref sig .tc .vmem S64x1024 .bf16).slice (Rect.unit (s := S64x1024) (k0_off60 c) S32x256.size (k0_off60_inb c)) (fun _ => rfl)
theorem dev_rs_3_2_0 : ∀ c : Dev nD, (⟨k0_dev28 c, k0_dev28_lt c⟩ : Dev nD) = peer 2 3 c := by decide +kernel

/-- summing phase, stage 3, column block 2, piece 1: the rows device `c` sends, in its own buffer and in its partner's -/
abbrev src_rs_3_2_1 (c : Dev nD) : Memref sig .tc .vmem S32x256 .bf16 :=
  (Memref.whole cc0_scratch9 : Memref sig .tc .vmem S64x1024 .bf16).slice (Rect.unit (s := S64x1024) (k0_off61 c) S32x256.size (k0_off61_inb c)) (fun _ => rfl)
abbrev dst_rs_3_2_1 (c : Dev nD) : Memref sig .tc .vmem S32x256 .bf16 :=
  (Memref.whole cc0_scratch4 : Memref sig .tc .vmem S64x1024 .bf16).slice (Rect.unit (s := S64x1024) (k0_off61 c) S32x256.size (k0_off61_inb c)) (fun _ => rfl)
theorem dev_rs_3_2_1 : ∀ c : Dev nD, (⟨k0_dev29 c, k0_dev29_lt c⟩ : Dev nD) = peer 2 3 c := by decide +kernel

/-- summing phase, stage 4, column block 0, piece 0: the rows device `c` sends, in its own buffer and in its partner's -/
abbrev src_rs_4_0_0 (c : Dev nD) : Memref sig .tc .vmem S32x384 .bf16 :=
  (Memref.whole cc0_scratch10 : Memref sig .tc .vmem S32x1024 .bf16).slice (Rect.unit (s := S32x1024) ![0, 0] S32x384.size inb_S32x1024_S32x384_0_0) (fun _ => rfl)
abbrev dst_rs_4_0_0 (c : Dev nD) : Memref sig .tc .vmem S32x384 .bf16 :=
  (Memref.whole cc0_scratch5 : Memref sig .tc .vmem S32x1024 .bf16).slice (Rect.unit (s := S32x1024) ![0, 0] S32x384.size inb_S32x1024_S32x384_0_0) (fun _ => rfl)
theorem dev_rs_4_0_0 : ∀ c : Dev nD, (⟨k0_dev30 c, k0_dev30_lt c⟩ : Dev nD) = peer 0 4 c := by decide +kernel

/-- summing phase, stage 4, column block 1, piece 0: the rows device `c` sends, in its own buffer and in its partner's -/
abbrev src_rs_4_1_0 (c : Dev nD) : Memref sig .tc .vmem S32x384 .bf16 :=
  (Memref.whole cc0_scratch10 : Memref sig .tc .vmem S32x1024 .bf16).slice (Rect.unit (s := S32x1024) ![0, 384] S32x384.size inb_S32x1024_S32x384_0_384) (fun _ => rfl)
abbrev dst_rs_4_1_0 (c : Dev nD) : Memref sig .tc .vmem S32x384 .bf16 :=
  (Memref.whole cc0_scratch5 : Memref sig .tc .vmem S32x1024 .bf16).slice (Rect.unit (s := S32x1024) ![0, 384] S32x384.size inb_S32x1024_S32x384_0_384) (fun _ => rfl)
theorem dev_rs_4_1_0 : ∀ c : Dev nD, (⟨k0_dev31 c, k0_dev31_lt c⟩ : Dev nD) = peer 1 4 c := by decide +kernel

/-- summing phase, stage 4, column block 2, piece 0: the rows device `c` sends, in its own buffer and in its partner's -/
abbrev src_rs_4_2_0 (c : Dev nD) : Memref sig .tc .vmem S32x256 .bf16 :=
  (Memref.whole cc0_scratch10 : Memref sig .tc .vmem S32x1024 .bf16).slice (Rect.unit (s := S32x1024) ![0, 768] S32x256.size inb_S32x1024_S32x256_0_768) (fun _ => rfl)
abbrev dst_rs_4_2_0 (c : Dev nD) : Memref sig .tc .vmem S32x256 .bf16 :=
  (Memref.whole cc0_scratch5 : Memref sig .tc .vmem S32x1024 .bf16).slice (Rect.unit (s := S32x1024) ![0, 768] S32x256.size inb_S32x1024_S32x256_0_768) (fun _ => rfl)
theorem dev_rs_4_2_0 : ∀ c : Dev nD, (⟨k0_dev32 c, k0_dev32_lt c⟩ : Dev nD) = peer 2 4 c := by decide +kernel

/-- gathering phase, stage 4, column block 0, piece 0: the rows device `c` sends, in its own buffer and in its partner's -/
abbrev src_ag_4_0_0 (c : Dev nD) : Memref sig .tc .vmem S32x384 .bf16 :=
  (Memref.whole cc0_stg2_0 : Memref sig .tc .vmem S1024x1024 .bf16).slice (Rect.unit (s := S1024x1024) (k0_off80 c) S32x384.size (k0_off80_inb c)) (fun _ => rfl)
abbrev dst_ag_4_0_0 (c : Dev nD) : Memref sig .tc .vmem S32x384 .bf16 :=
  (Memref.whole cc0_stg2_0 : Memref sig .tc .vmem S1024x1024 .bf16).slice (Rect.unit (s := S1024x1024) (k0_off80 c) S32x384.size (k0_off80_inb c)) (fun _ => rfl)
theorem dev_ag_4_0_0 : ∀ c : Dev nD, (⟨k0_dev33 c, k0_dev33_lt c⟩ : Dev nD) = peer 0 4 c := by decide +kernel

/-- gathering phase, stage 4, column block 1, piece 0: the rows device `c` sends, in its own buffer and in its partner's -/
abbrev src_ag_4_1_0 (c : Dev nD) : Memref sig .tc .vmem S32x384 .bf16 :=
  (Memref.whole cc0_stg2_0 : Memref sig .tc .vmem S1024x1024 .bf16).slice (Rect.unit (s := S1024x1024) (k0_off81 c) S32x384.size (k0_off81_inb c)) (fun _ => rfl)
abbrev dst_ag_4_1_0 (c : Dev nD) : Memref sig .tc .vmem S32x384 .bf16 :=
  (Memref.whole cc0_stg2_0 : Memref sig .tc .vmem S1024x1024 .bf16).slice (Rect.unit (s := S1024x1024) (k0_off81 c) S32x384.size (k0_off81_inb c)) (fun _ => rfl)
theorem dev_ag_4_1_0 : ∀ c : Dev nD, (⟨k0_dev34 c, k0_dev34_lt c⟩ : Dev nD) = peer 1 4 c := by decide +kernel

/-- gathering phase, stage 4, column block 2, piece 0: the rows device `c` sends, in its own buffer and in its partner's -/
abbrev src_ag_4_2_0 (c : Dev nD) : Memref sig .tc .vmem S32x256 .bf16 :=
  (Memref.whole cc0_stg2_0 : Memref sig .tc .vmem S1024x1024 .bf16).slice (Rect.unit (s := S1024x1024) (k0_off82 c) S32x256.size (k0_off82_inb c)) (fun _ => rfl)
abbrev dst_ag_4_2_0 (c : Dev nD) : Memref sig .tc .vmem S32x256 .bf16 :=
  (Memref.whole cc0_stg2_0 : Memref sig .tc .vmem S1024x1024 .bf16).slice (Rect.unit (s := S1024x1024) (k0_off82 c) S32x256.size (k0_off82_inb c)) (fun _ => rfl)
theorem dev_ag_4_2_0 : ∀ c : Dev nD, (⟨k0_dev35 c, k0_dev35_lt c⟩ : Dev nD) = peer 2 4 c := by decide +kernel

/-- gathering phase, stage 3, column block 0, piece 0: the rows device `c` sends, in its own buffer and in its partner's -/
abbrev src_ag_3_0_0 (c : Dev nD) : Memref sig .tc .vmem S32x384 .bf16 :=
  (Memref.whole cc0_stg2_0 : Memref sig .tc .vmem S1024x1024 .bf16).slice (Rect.unit (s := S1024x1024) (k0_off80 c) S32x384.size (k0_off80_inb c)) (fun _ => rfl)
abbrev dst_ag_3_0_0 (c : Dev nD) : Memref sig .tc .vmem S32x384 .bf16 :=
  (Memref.whole cc0_stg2_0 : Memref sig .tc .vmem S1024x1024 .bf16).slice (Rect.unit (s := S1024x1024) (k0_off80 c) S32x384.size (k0_off80_inb c)) (fun _ => rfl)
theorem dev_ag_3_0_0 : ∀ c : Dev nD, (⟨k0_dev36 c, k0_dev36_lt c⟩ : Dev nD) = peer 0 3 c := by decide +kernel

/-- gathering phase, stage 3, column block 0, piece 1: the rows device `c` sends, in its own buffer and in its partner's -/
abbrev src_ag_3_0_1 (c : Dev nD) : Memref sig .tc .vmem S32x384 .bf16 :=
  (Memref.whole cc0_stg2_0 : Memref sig .tc .vmem S1024x1024 .bf16).slice (Rect.unit (s := S1024x1024) (k0_off83 c) S32x384.size (k0_off83_inb c)) (fun _ => rfl)
abbrev dst_ag_3_0_1 (c : Dev nD) : Memref sig .tc .vmem S32x384 .bf16 :=
  (Memref.whole cc0_stg2_0 : Memref sig .tc .vmem S1024x1024 .bf16).slice (Rect.unit (s := S1024x1024) (k0_off83 c) S32x384.size (k0_off83_inb c)) (fun _ => rfl)
theorem dev_ag_3_0_1 : ∀ c : Dev nD, (⟨k0_dev37 c, k0_dev37_lt c⟩ : Dev nD) = peer 0 3 c := by decide +kernel

/-- gathering phase, stage 3, column block 1, piece 0: the rows device `c` sends, in its own buffer and in its partner's -/
abbrev src_ag_3_1_0 (c : Dev nD) : Memref sig .tc .vmem S32x384 .bf16 :=
  (Memref.whole cc0_stg2_0 : Memref sig .tc .vmem S1024x1024 .bf16).slice (Rect.unit (s := S1024x1024) (k0_off81 c) S32x384.size (k0_off81_inb c)) (fun _ => rfl)
abbrev dst_ag_3_1_0 (c : Dev nD) : Memref sig .tc .vmem S32x384 .bf16 :=
  (Memref.whole cc0_stg2_0 : Memref sig .tc .vmem S1024x1024 .bf16).slice (Rect.unit (s := S1024x1024) (k0_off81 c) S32x384.size (k0_off81_inb c)) (fun _ => rfl)
theorem dev_ag_3_1_0 : ∀ c : Dev nD, (⟨k0_dev38 c, k0_dev38_lt c⟩ : Dev nD) = peer 1 3 c := by decide +kernel

/-- gathering phase, stage 3, column block 1, piece 1: the rows device `c` sends, in its own buffer and in its partner's -/
abbrev src_ag_3_1_1 (c : Dev nD) : Memref sig .tc .vmem S32x384 .bf16 :=
  (Memref.whole cc0_stg2_0 : Memref sig .tc .vmem S1024x1024 .bf16).slice (Rect.unit (s := S1024x1024) (k0_off84 c) S32x384.size (k0_off84_inb c)) (fun _ => rfl)
abbrev dst_ag_3_1_1 (c : Dev nD) : Memref sig .tc .vmem S32x384 .bf16 :=
  (Memref.whole cc0_stg2_0 : Memref sig .tc .vmem S1024x1024 .bf16).slice (Rect.unit (s := S1024x1024) (k0_off84 c) S32x384.size (k0_off84_inb c)) (fun _ => rfl)
theorem dev_ag_3_1_1 : ∀ c : Dev nD, (⟨k0_dev39 c, k0_dev39_lt c⟩ : Dev nD) = peer 1 3 c := by decide +kernel

/-- gathering phase, stage 3, column block 2, piece 0: the rows device `c` sends, in its own buffer and in its partner's -/
abbrev src_ag_3_2_0 (c : Dev nD) : Memref sig .tc .vmem S32x256 .bf16 :=
  (Memref.whole cc0_stg2_0 : Memref sig .tc .vmem S1024x1024 .bf16).slice (Rect.unit (s := S1024x1024) (k0_off82 c) S32x256.size (k0_off82_inb c)) (fun _ => rfl)
abbrev dst_ag_3_2_0 (c : Dev nD) : Memref sig .tc .vmem S32x256 .bf16 :=
  (Memref.whole cc0_stg2_0 : Memref sig .tc .vmem S1024x1024 .bf16).slice (Rect.unit (s := S1024x1024) (k0_off82 c) S32x256.size (k0_off82_inb c)) (fun _ => rfl)
theorem dev_ag_3_2_0 : ∀ c : Dev nD, (⟨k0_dev40 c, k0_dev40_lt c⟩ : Dev nD) = peer 2 3 c := by decide +kernel

/-- gathering phase, stage 3, column block 2, piece 1: the rows device `c` sends, in its own buffer and in its partner's -/
abbrev src_ag_3_2_1 (c : Dev nD) : Memref sig .tc .vmem S32x256 .bf16 :=
  (Memref.whole cc0_stg2_0 : Memref sig .tc .vmem S1024x1024 .bf16).slice (Rect.unit (s := S1024x1024) (k0_off85 c) S32x256.size (k0_off85_inb c)) (fun _ => rfl)
abbrev dst_ag_3_2_1 (c : Dev nD) : Memref sig .tc .vmem S32x256 .bf16 :=
  (Memref.whole cc0_stg2_0 : Memref sig .tc .vmem S1024x1024 .bf16).slice (Rect.unit (s := S1024x1024) (k0_off85 c) S32x256.size (k0_off85_inb c)) (fun _ => rfl)
theorem dev_ag_3_2_1 : ∀ c : Dev nD, (⟨k0_dev41 c, k0_dev41_lt c⟩ : Dev nD) = peer 2 3 c := by decide +kernel

/-- gathering phase, stage 2, column block 0, piece 0: the rows device `c` sends, in its own buffer and in its partner's -/
abbrev src_ag_2_0_0 (c : Dev nD) : Memref sig .tc .vmem S64x384 .bf16 :=
  (Memref.whole cc0_stg2_0 : Memref sig .tc .vmem S1024x1024 .bf16).slice (Rect.unit (s := S1024x1024) (k0_off86 c) S64x384.size (k0_off86_inb c)) (fun _ => rfl)
abbrev dst_ag_2_0_0 (c : Dev nD) : Memref sig .tc .vmem S64x384 .bf16 :=
  (Memref.whole cc0_stg2_0 : Memref sig .tc .vmem S1024x1024 .bf16).slice (Rect.unit (s := S1024x1024) (k0_off86 c) S64x384.size (k0_off86_inb c)) (fun _ => rfl)
theorem dev_ag_2_0_0 : ∀ c : Dev nD, (⟨k0_dev42 c, k0_dev42_lt c⟩ : Dev nD) = peer 0 2 c := by decide +kernel

/-- gathering phase, stage 2, column block 0, piece 1: the rows device `c` sends, in its own buffer and in its partner's -/
abbrev src_ag_2_0_1 (c : Dev nD) : Memref sig .tc .vmem S64x384 .bf16 :=
  (Memref.whole cc0_stg2_0 : Memref sig .tc .vmem S1024x1024 .bf16).slice (Rect.unit (s := S1024x1024) (k0_off87 c) S64x384.size (k0_off87_inb c)) (fun _ => rfl)
abbrev dst_ag_2_0_1 (c : Dev nD) : Memref sig .tc .vmem S64x384 .bf16 :=
  (Memref.whole cc0_stg2_0 : Memref sig .tc .vmem S1024x1024 .bf16).slice (Rect.unit (s := S1024x1024) (k0_off87 c) S64x384.size (k0_off87_inb c)) (fun _ => rfl)
theorem dev_ag_2_0_1 : ∀ c : Dev nD, (⟨k0_dev43 c, k0_dev43_lt c⟩ : Dev nD) = peer 0 2 c := by decide +kernel

/-- gathering phase, stage 2, column block 1, piece 0: the rows device `c` sends, in its own buffer and in its partner's -/
abbrev src_ag_2_1_0 (c : Dev nD) : Memref sig .tc .vmem S64x384 .bf16 :=
  (Memref.whole cc0_stg2_0 : Memref sig .tc .vmem S1024x1024 .bf16).slice (Rect.unit (s := S1024x1024) (k0_off88 c) S64x384.size (k0_off88_inb c)) (fun _ => rfl)
abbrev dst_ag_2_1_0 (c : Dev nD) : Memref sig .tc .vmem S64x384 .bf16 :=
  (Memref.whole cc0_stg2_0 : Memref sig .tc .vmem S1024x1024 .bf16).slice (Rect.unit (s := S1024x1024) (k0_off88 c) S64x384.size (k0_off88_inb c)) (fun _ => rfl)
theorem dev_ag_2_1_0 : ∀ c : Dev nD, (⟨k0_dev44 c, k0_dev44_lt c⟩ : Dev nD) = peer 1 2 c := by decide +kernel

/-- gathering phase, stage 2, column block 1, piece 1: the rows device `c` sends, in its own buffer and in its partner's -/
abbrev src_ag_2_1_1 (c : Dev nD) : Memref sig .tc .vmem S64x384 .bf16 :=
  (Memref.whole cc0_stg2_0 : Memref sig .tc .vmem S1024x1024 .bf16).slice (Rect.unit (s := S1024x1024) (k0_off89 c) S64x384.size (k0_off89_inb c)) (fun _ => rfl)
abbrev dst_ag_2_1_1 (c : Dev nD) : Memref sig .tc .vmem S64x384 .bf16 :=
  (Memref.whole cc0_stg2_0 : Memref sig .tc .vmem S1024x1024 .bf16).slice (Rect.unit (s := S1024x1024) (k0_off89 c) S64x384.size (k0_off89_inb c)) (fun _ => rfl)
theorem dev_ag_2_1_1 : ∀ c : Dev nD, (⟨k0_dev45 c, k0_dev45_lt c⟩ : Dev nD) = peer 1 2 c := by decide +kernel

/-- gathering phase, stage 2, column block 2, piece 0: the rows device `c` sends, in its own buffer and in its partner's -/
abbrev src_ag_2_2_0 (c : Dev nD) : Memref sig .tc .vmem S64x256 .bf16 :=
  (Memref.whole cc0_stg2_0 : Memref sig .tc .vmem S1024x1024 .bf16).slice (Rect.unit (s := S1024x1024) (k0_off90 c) S64x256.size (k0_off90_inb c)) (fun _ => rfl)
abbrev dst_ag_2_2_0 (c : Dev nD) : Memref sig .tc .vmem S64x256 .bf16 :=
  (Memref.whole cc0_stg2_0 : Memref sig .tc .vmem S1024x1024 .bf16).slice (Rect.unit (s := S1024x1024) (k0_off90 c) S64x256.size (k0_off90_inb c)) (fun _ => rfl)
theorem dev_ag_2_2_0 : ∀ c : Dev nD, (⟨k0_dev46 c, k0_dev46_lt c⟩ : Dev nD) = peer 2 2 c := by decide +kernel

/-- gathering phase, stage 2, column block 2, piece 1: the rows device `c` sends, in its own buffer and in its partner's -/
abbrev src_ag_2_2_1 (c : Dev nD) : Memref sig .tc .vmem S64x256 .bf16 :=
  (Memref.whole cc0_stg2_0 : Memref sig .tc .vmem S1024x1024 .bf16).slice (Rect.unit (s := S1024x1024) (k0_off91 c) S64x256.size (k0_off91_inb c)) (fun _ => rfl)
abbrev dst_ag_2_2_1 (c : Dev nD) : Memref sig .tc .vmem S64x256 .bf16 :=
  (Memref.whole cc0_stg2_0 : Memref sig .tc .vmem S1024x1024 .bf16).slice (Rect.unit (s := S1024x1024) (k0_off91 c) S64x256.size (k0_off91_inb c)) (fun _ => rfl)
theorem dev_ag_2_2_1 : ∀ c : Dev nD, (⟨k0_dev47 c, k0_dev47_lt c⟩ : Dev nD) = peer 2 2 c := by decide +kernel

/-- gathering phase, stage 1, column block 0, piece 0: the rows device `c` sends, in its own buffer and in its partner's -/
abbrev src_ag_1_0_0 (c : Dev nD) : Memref sig .tc .vmem S128x384 .bf16 :=
  (Memref.whole cc0_stg2_0 : Memref sig .tc .vmem S1024x1024 .bf16).slice (Rect.unit (s := S1024x1024) (k0_off92 c) S128x384.size (k0_off92_inb c)) (fun _ => rfl)
abbrev dst_ag_1_0_0 (c : Dev nD) : Memref sig .tc .vmem S128x384 .bf16 :=
  (Memref.whole cc0_stg2_0 : Memref sig .tc .vmem S1024x1024 .bf16).slice (Rect.unit (s := S1024x1024) (k0_off92 c) S128x384.size (k0_off92_inb c)) (fun _ => rfl)
theorem dev_ag_1_0_0 : ∀ c : Dev nD, (⟨k0_dev48 c, k0_dev48_lt c⟩ : Dev nD) = peer 0 1 c := by decide +kernel

/-- gathering phase, stage 1, column block 0, piece 1: the rows device `c` sends, in its own buffer and in its partner's -/
abbrev src_ag_1_0_1 (c : Dev nD) : Memref sig .tc .vmem S128x384 .bf16 :=
  (Memref.whole cc0_stg2_0 : Memref sig .tc .vmem S1024x1024 .bf16).slice (Rect.unit (s := S1024x1024) (k0_off93 c) S128x384.size (k0_off93_inb c)) (fun _ => rfl)
abbrev dst_ag_1_0_1 (c : Dev nD) : Memref sig .tc .vmem S128x384 .bf16 :=
  (Memref.whole cc0_stg2_0 : Memref sig .tc .vmem S1024x1024 .bf16).slice (Rect.unit (s := S1024x1024) (k0_off93 c) S128x384.size (k0_off93_inb c)) (fun _ => rfl)
theorem dev_ag_1_0_1 : ∀ c : Dev nD, (⟨k0_dev49 c, k0_dev49_lt c⟩ : Dev nD) = peer 0 1 c := by decide +kernel

/-- gathering phase, stage 1, column block 1, piece 0: the rows device `c` sends, in its own buffer and in its partner's -/
abbrev src_ag_1_1_0 (c : Dev nD) : Memref sig .tc .vmem S128x384 .bf16 :=
  (Memref.whole cc0_stg2_0 : Memref sig .tc .vmem S1024x1024 .bf16).slice (Rect.unit (s := S1024x1024) (k0_off94 c) S128x384.size (k0_off94_inb c)) (fun _ => rfl)
abbrev dst_ag_1_1_0 (c : Dev nD) : Memref sig .tc .vmem S128x384 .bf16 :=
  (Memref.whole cc0_stg2_0 : Memref sig .tc .vmem S1024x1024 .bf16).slice (Rect.unit (s := S1024x1024) (k0_off94 c) S128x384.size (k0_off94_inb c)) (fun _ => rfl)
theorem dev_ag_1_1_0 : ∀ c : Dev nD, (⟨k0_dev50 c, k0_dev50_lt c⟩ : Dev nD) = peer 1 1 c := by decide +kernel

/-- gathering phase, stage 1, column block 1, piece 1: the rows device `c` sends, in its own buffer and in its partner's -/
abbrev src_ag_1_1_1 (c : Dev nD) : Memref sig .tc .vmem S128x384 .bf16 :=
  (Memref.whole cc0_stg2_0 : Memref sig .tc .vmem S1024x1024 .bf16).slice (Rect.unit (s := S1024x1024) (k0_off95 c) S128x384.size (k0_off95_inb c)) (fun _ => rfl)
abbrev dst_ag_1_1_1 (c : Dev nD) : Memref sig .tc .vmem S128x384 .bf16 :=
  (Memref.whole cc0_stg2_0 : Memref sig .tc .vmem S1024x1024 .bf16).slice (Rect.unit (s := S1024x1024) (k0_off95 c) S128x384.size (k0_off95_inb c)) (fun _ => rfl)
theorem dev_ag_1_1_1 : ∀ c : Dev nD, (⟨k0_dev51 c, k0_dev51_lt c⟩ : Dev nD) = peer 1 1 c := by decide +kernel

/-- gathering phase, stage 1, column block 2, piece 0: the rows device `c` sends, in its own buffer and in its partner's -/
abbrev src_ag_1_2_0 (c : Dev nD) : Memref sig .tc .vmem S128x256 .bf16 :=
  (Memref.whole cc0_stg2_0 : Memref sig .tc .vmem S1024x1024 .bf16).slice (Rect.unit (s := S1024x1024) (k0_off96 c) S128x256.size (k0_off96_inb c)) (fun _ => rfl)
abbrev dst_ag_1_2_0 (c : Dev nD) : Memref sig .tc .vmem S128x256 .bf16 :=
  (Memref.whole cc0_stg2_0 : Memref sig .tc .vmem S1024x1024 .bf16).slice (Rect.unit (s := S1024x1024) (k0_off96 c) S128x256.size (k0_off96_inb c)) (fun _ => rfl)
theorem dev_ag_1_2_0 : ∀ c : Dev nD, (⟨k0_dev52 c, k0_dev52_lt c⟩ : Dev nD) = peer 2 1 c := by decide +kernel

/-- gathering phase, stage 1, column block 2, piece 1: the rows device `c` sends, in its own buffer and in its partner's -/
abbrev src_ag_1_2_1 (c : Dev nD) : Memref sig .tc .vmem S128x256 .bf16 :=
  (Memref.whole cc0_stg2_0 : Memref sig .tc .vmem S1024x1024 .bf16).slice (Rect.unit (s := S1024x1024) (k0_off97 c) S128x256.size (k0_off97_inb c)) (fun _ => rfl)
abbrev dst_ag_1_2_1 (c : Dev nD) : Memref sig .tc .vmem S128x256 .bf16 :=
  (Memref.whole cc0_stg2_0 : Memref sig .tc .vmem S1024x1024 .bf16).slice (Rect.unit (s := S1024x1024) (k0_off97 c) S128x256.size (k0_off97_inb c)) (fun _ => rfl)
theorem dev_ag_1_2_1 : ∀ c : Dev nD, (⟨k0_dev53 c, k0_dev53_lt c⟩ : Dev nD) = peer 2 1 c := by decide +kernel

/-- gathering phase, stage 0, column block 0, piece 0: the rows device `c` sends, in its own buffer and in its partner's -/
abbrev src_ag_0_0_0 (c : Dev nD) : Memref sig .tc .vmem S256x384 .bf16 :=
  (Memref.whole cc0_stg2_0 : Memref sig .tc .vmem S1024x1024 .bf16).slice (Rect.unit (s := S1024x1024) (k0_off98 c) S256x384.size (k0_off98_inb c)) (fun _ => rfl)
abbrev dst_ag_0_0_0 (c : Dev nD) : Memref sig .tc .vmem S256x384 .bf16 :=
  (Memref.whole cc0_stg2_0 : Memref sig .tc .vmem S1024x1024 .bf16).slice (Rect.unit (s := S1024x1024) (k0_off98 c) S256x384.size (k0_off98_inb c)) (fun _ => rfl)
theorem dev_ag_0_0_0 : ∀ c : Dev nD, (⟨k0_dev54 c, k0_dev54_lt c⟩ : Dev nD) = peer 0 0 c := by decide +kernel

/-- gathering phase, stage 0, column block 0, piece 1: the rows device `c` sends, in its own buffer and in its partner's -/
abbrev src_ag_0_0_1 (c : Dev nD) : Memref sig .tc .vmem S256x384 .bf16 :=
  (Memref.whole cc0_stg2_0 : Memref sig .tc .vmem S1024x1024 .bf16).slice (Rect.unit (s := S1024x1024) (k0_off99 c) S256x384.size (k0_off99_inb c)) (fun _ => rfl)
abbrev dst_ag_0_0_1 (c : Dev nD) : Memref sig .tc .vmem S256x384 .bf16 :=
  (Memref.whole cc0_stg2_0 : Memref sig .tc .vmem S1024x1024 .bf16).slice (Rect.unit (s := S1024x1024) (k0_off99 c) S256x384.size (k0_off99_inb c)) (fun _ => rfl)
theorem dev_ag_0_0_1 : ∀ c : Dev nD, (⟨k0_dev55 c, k0_dev55_lt c⟩ : Dev nD) = peer 0 0 c := by decide +kernel

/-- gathering phase, stage 0, column block 1, piece 0: the rows device `c` sends, in its own buffer and in its partner's -/
abbrev src_ag_0_1_0 (c : Dev nD) : Memref sig .tc .vmem S256x384 .bf16 :=
  (Memref.whole cc0_stg2_0 : Memref sig .tc .vmem S1024x1024 .bf16).slice (Rect.unit (s := S1024x1024) (k0_off100 c) S256x384.size (k0_off100_inb c)) (fun _ => rfl)
abbrev dst_ag_0_1_0 (c : Dev nD) : Memref sig .tc .vmem S256x384 .bf16 :=
  (Memref.whole cc0_stg2_0 : Memref sig .tc .vmem S1024x1024 .bf16).slice (Rect.unit (s := S1024x1024) (k0_off100 c) S256x384.size (k0_off100_inb c)) (fun _ => rfl)
theorem dev_ag_0_1_0 : ∀ c : Dev nD, (⟨k0_dev56 c, k0_dev56_lt c⟩ : Dev nD) = peer 1 0 c := by decide +kernel

/-- gathering phase, stage 0, column block 1, piece 1: the rows device `c` sends, in its own buffer and in its partner's -/
abbrev src_ag_0_1_1 (c : Dev nD) : Memref sig .tc .vmem S256x384 .bf16 :=
  (Memref.whole cc0_stg2_0 : Memref sig .tc .vmem S1024x1024 .bf16).slice (Rect.unit (s := S1024x1024) (k0_off101 c) S256x384.size (k0_off101_inb c)) (fun _ => rfl)
abbrev dst_ag_0_1_1 (c : Dev nD) : Memref sig .tc .vmem S256x384 .bf16 :=
  (Memref.whole cc0_stg2_0 : Memref sig .tc .vmem S1024x1024 .bf16).slice (Rect.unit (s := S1024x1024) (k0_off101 c) S256x384.size (k0_off101_inb c)) (fun _ => rfl)
theorem dev_ag_0_1_1 : ∀ c : Dev nD, (⟨k0_dev57 c, k0_dev57_lt c⟩ : Dev nD) = peer 1 0 c := by decide +kernel

/-- gathering phase, stage 0, column block 2, piece 0: the rows device `c` sends, in its own buffer and in its partner's -/
abbrev src_ag_0_2_0 (c : Dev nD) : Memref sig .tc .vmem S256x256 .bf16 :=
  (Memref.whole cc0_stg2_0 : Memref sig .tc .vmem S1024x1024 .bf16).slice (Rect.unit (s := S1024x1024) (k0_off102 c) S256x256.size (k0_off102_inb c)) (fun _ => rfl)
abbrev dst_ag_0_2_0 (c : Dev nD) : Memref sig .tc .vmem S256x256 .bf16 :=
  (Memref.whole cc0_stg2_0 : Memref sig .tc .vmem S1024x1024 .bf16).slice (Rect.unit (s := S1024x1024) (k0_off102 c) S256x256.size (k0_off102_inb c)) (fun _ => rfl)
theorem dev_ag_0_2_0 : ∀ c : Dev nD, (⟨k0_dev58 c, k0_dev58_lt c⟩ : Dev nD) = peer 2 0 c := by decide +kernel

/-- gathering phase, stage 0, column block 2, piece 1: the rows device `c` sends, in its own buffer and in its partner's -/
abbrev src_ag_0_2_1 (c : Dev nD) : Memref sig .tc .vmem S256x256 .bf16 :=
  (Memref.whole cc0_stg2_0 : Memref sig .tc .vmem S1024x1024 .bf16).slice (Rect.unit (s := S1024x1024) (k0_off103 c) S256x256.size (k0_off103_inb c)) (fun _ => rfl)
abbrev dst_ag_0_2_1 (c : Dev nD) : Memref sig .tc .vmem S256x256 .bf16 :=
  (Memref.whole cc0_stg2_0 : Memref sig .tc .vmem S1024x1024 .bf16).slice (Rect.unit (s := S1024x1024) (k0_off103 c) S256x256.size (k0_off103_inb c)) (fun _ => rfl)
theorem dev_ag_0_2_1 : ∀ c : Dev nD, (⟨k0_dev59 c, k0_dev59_lt c⟩ : Dev nD) = peer 2 0 c := by decide +kernel

/-- the five handshake signals go to the five partners -/
theorem dev_bar_0 : ∀ c : Dev nD, (⟨k0_dev1 c, k0_dev1_lt c⟩ : Dev nD) = xr c (hmask 0) := by decide +kernel
theorem dev_bar_1 : ∀ c : Dev nD, (⟨k0_dev2 c, k0_dev2_lt c⟩ : Dev nD) = xr c (hmask 1) := by decide +kernel
theorem dev_bar_2 : ∀ c : Dev nD, (⟨k0_dev3 c, k0_dev3_lt c⟩ : Dev nD) = xr c (hmask 2) := by decide +kernel
theorem dev_bar_3 : ∀ c : Dev nD, (⟨k0_dev4 c, k0_dev4_lt c⟩ : Dev nD) = xr c (hmask 3) := by decide +kernel
theorem dev_bar_4 : ∀ c : Dev nD, (⟨k0_dev5 c, k0_dev5_lt c⟩ : Dev nD) = xr c (hmask 4) := by decide +kernel

end Cert.KernelIdeal.Tab

end
-- ==== Proof.Held.lean ====
/-
  Pieces of buffers as assertions: a piece held with contents that satisfy the contract, and a piece
  lent at any contents. The schedule's payloads are made of these.
-/
import proofs.«900879_g7700000000000880_dist_matmul_gelu_kshard_i_m1024_n1024_k512_v7x_i32_bf16_1_alg».proof.Proof.Gen.KernelIdeal
import proofs.«900879_g7700000000000880_dist_matmul_gelu_kshard_i_m1024_n1024_k512_v7x_i32_bf16_1_alg».proof.Proof.Gen.KernelIdeal.Skeleton
import proofs.«900879_g7700000000000880_dist_matmul_gelu_kshard_i_m1024_n1024_k512_v7x_i32_bf16_1_alg».proof.Proof.Gen.KernelIdeal.Launch
import proofs.«900879_g7700000000000880_dist_matmul_gelu_kshard_i_m1024_n1024_k512_v7x_i32_bf16_1_alg».proof.Proof.Gen.KernelIdeal.Points
import proofs.«900879_g7700000000000880_dist_matmul_gelu_kshard_i_m1024_n1024_k512_v7x_i32_bf16_1_alg».proof.Proof.Gen.KernelIdeal.Frame
import Idealize.ShloMosaic.Lib.Pipeline.Launch
import Idealize.ShloMosaic.Lib.Pipeline.Kit
import Idealize.ShloMosaic.Lib.Rounds
import Idealize.ShloMosaic.Lib.Tactic
import proofs.«900879_g7700000000000880_dist_matmul_gelu_kshard_i_m1024_n1024_k512_v7x_i32_bf16_1_alg».proof.Proof.Proto
import proofs.«900879_g7700000000000880_dist_matmul_gelu_kshard_i_m1024_n1024_k512_v7x_i32_bf16_1_alg».proof.Proof.Tab

noncomputable section

namespace Cert.KernelIdeal.Held

open Cert.KernelIdeal Cert.KernelIdeal.Gen Cert.KernelIdeal.Proto Cert.KernelIdeal.Tab
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The elements of the view `v` on device `c`, at share `q`, holding values every one of which
    satisfies `P` at its position. -/
def heldV {sh : Shape} {e : EltTy} (c : Dev nD) (v : Memref sig .tc .vmem sh e) (q : PosShare TreeShare)
    (P : v.view.ty.Idx → Elt F v.view.ty.elt → Prop) : sProp 𝕄 :=
  iprop(∃ f : Buf (Elt F) (v.view.loc (c : Thread nD τ)), (v.view.loc (c : Thread nD τ) ↦[v.view.set]{q} f) ∗ ⌜∀ i ∈ v.view.set, P i (f i)⌝)

/-- The elements of the view `v` on device `c`, whole, at some contents: a landing place lent to the
    device that will write it. -/
def loanV {sh : Shape} {e : EltTy} (c : Dev nD) (v : Memref sig .tc .vmem sh e) : sProp 𝕄 :=
  iprop(∃ f : Buf (Elt F) (v.view.loc (c : Thread nD τ)), (v.view.loc (c : Thread nD τ) ↦[v.view.set]{fullShare} f))

omit [FloatOps F] in
instance heldV_storable {sh : Shape} {e : EltTy} (c : Dev nD) (v : Memref sig .tc .vmem sh e) (q) (P) :
    BI.Storable (upEmb : UEmb _ 𝕄) (heldV (F := F) c v q P) := by unfold heldV; infer_instance
omit [FloatOps F] in
instance loanV_storable {sh : Shape} {e : EltTy} (c : Dev nD) (v : Memref sig .tc .vmem sh e) :
    BI.Storable (upEmb : UEmb _ 𝕄) (loanV (F := F) c v) := by unfold loanV; infer_instance

/-- Two gathering exchanges in flight read the same rows: consecutive stages take opposite halves of the share. -/
def shr (s : Fin 5) : PosShare TreeShare := if s.val % 2 = 0 then fullShare.left else fullShare.right

variable (ct : Contract F)

/-- The contract on a send buffer's positions, on a receive buffer's (what the partner sent), and on the result's. -/
def pSS (s : Fin 5) (c : Dev nD) {sh : Shape} (i : sh.Idx) (v : F .bf16) (h : sh.rank = 2 := by rfl) : Prop :=
  ct.okSS s c (i ⟨0, by omega⟩).val (i ⟨1, by omega⟩).val v
def pRS (s : Fin 5) (c : Dev nD) {sh : Shape} (i : sh.Idx) (v : F .bf16) (h : sh.rank = 2 := by rfl) : Prop :=
  ct.okSS s (peer (blk (i ⟨1, by omega⟩).val) s c) (i ⟨0, by omega⟩).val (i ⟨1, by omega⟩).val v
def pOut {sh : Shape} (i : sh.Idx) (v : F .bf16) (h : sh.rank = 2 := by rfl) : Prop :=
  ct.okOut (i ⟨0, by omega⟩).val (i ⟨1, by omega⟩).val v

-- the shapes fit: a piece of the stage-0 receive buffer of the partner, under the contract
example (p : Dev nD) : sProp 𝕄 := heldV p (dst_rs_0_0_0 (peer 0 0 p)) fullShare (fun i v => pRS ct 0 p (sh := S512x1024) i v)
example (p : Dev nD) : sProp 𝕄 := heldV p (dst_ag_3_1_1 (peer 1 3 p)) (shr 3) (fun i v => pOut ct (sh := S1024x1024) i v)

end Cert.KernelIdeal.Held

end
-- ==== Proof.PayTab.lean ====
import proofs.«900879_g7700000000000880_dist_matmul_gelu_kshard_i_m1024_n1024_k512_v7x_i32_bf16_1_alg».proof.Proof.Held

noncomputable section

namespace Cert.KernelIdeal.PayTab

open Cert.KernelIdeal Cert.KernelIdeal.Gen Cert.KernelIdeal.Proto Cert.KernelIdeal.Tab Cert.KernelIdeal.Held
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ UU ℕ

/-- the sender gets its rows back -/
def send_rs_0_0_0 (ct : Contract F) (c : Dev nD) : sProp 𝕄 := loanV c (src_rs_0_0_0 c)
/-- the receiver gets the rows its partner sent, right under the contract -/
def recv_rs_0_0_0 (ct : Contract F) (p : Dev nD) : sProp 𝕄 :=
  heldV p (dst_rs_0_0_0 (peer 0 0 p)) fullShare (fun i v => pRS ct 0 p (sh := S512x1024) i v)
/-- the sender gets its rows back -/
def send_rs_0_0_1 (ct : Contract F) (c : Dev nD) : sProp 𝕄 := loanV c (src_rs_0_0_1 c)
/-- the receiver gets the rows its partner sent, right under the contract -/
def recv_rs_0_0_1 (ct : Contract F) (p : Dev nD) : sProp 𝕄 :=
  heldV p (dst_rs_0_0_1 (peer 0 0 p)) fullShare (fun i v => pRS ct 0 p (sh := S512x1024) i v)
/-- the sender gets its rows back -/
def send_rs_0_1_0 (ct : Contract F) (c : Dev nD) : sProp 𝕄 := loanV c (src_rs_0_1_0 c)
/-- the receiver gets the rows its partner sent, right under the contract -/
def recv_rs_0_1_0 (ct : Contract F) (p : Dev nD) : sProp 𝕄 :=
  heldV p (dst_rs_0_1_0 (peer 1 0 p)) fullShare (fun i v => pRS ct 0 p (sh := S512x1024) i v)
/-- the sender gets its rows back -/
def send_rs_0_1_1 (ct : Contract F) (c : Dev nD) : sProp 𝕄 := loanV c (src_rs_0_1_1 c)
/-- the receiver gets the rows its partner sent, right under the contract -/
def recv_rs_0_1_1 (ct : Contract F) (p : Dev nD) : sProp 𝕄 :=
  heldV p (dst_rs_0_1_1 (peer 1 0 p)) fullShare (fun i v => pRS ct 0 p (sh := S512x1024) i v)
/-- the sender gets its rows back -/
def send_rs_0_2_0 (ct : Contract F) (c : Dev nD) : sProp 𝕄 := loanV c (src_rs_0_2_0 c)
/-- the receiver gets the rows its partner sent, right under the contract -/
def recv_rs_0_2_0 (ct : Contract F) (p : Dev nD) : sProp 𝕄 :=
  heldV p (dst_rs_0_2_0 (peer 2 0 p)) fullShare (fun i v => pRS ct 0 p (sh := S512x1024) i v)
/-- the sender gets its rows back -/
def send_rs_0_2_1 (ct : Contract F) (c : Dev nD) : sProp 𝕄 := loanV c (src_rs_0_2_1 c)
/-- the receiver gets the rows its partner sent, right under the contract -/
def recv_rs_0_2_1 (ct : Contract F) (p : Dev nD) : sProp 𝕄 :=
  heldV p (dst_rs_0_2_1 (peer 2 0 p)) fullShare (fun i v => pRS ct 0 p (sh := S512x1024) i v)
/-- the sender gets its rows back -/
def send_rs_1_0_0 (ct : Contract F) (c : Dev nD) : sProp 𝕄 := loanV c (src_rs_1_0_0 c)
/-- the receiver gets the rows its partner sent, right under the contract -/
def recv_rs_1_0_0 (ct : Contract F) (p : Dev nD) : sProp 𝕄 :=
  heldV p (dst_rs_1_0_0 (peer 0 1 p)) fullShare (fun i v => pRS ct 1 p (sh := S256x1024) i v)
/-- the sender gets its rows back -/
def send_rs_1_0_1 (ct : Contract F) (c : Dev nD) : sProp 𝕄 := loanV c (src_rs_1_0_1 c)
/-- the receiver gets the rows its partner sent, right under the contract -/
def recv_rs_1_0_1 (ct : Contract F) (p : Dev nD) : sProp 𝕄 :=
  heldV p (dst_rs_1_0_1 (peer 0 1 p)) fullShare (fun i v => pRS ct 1 p (sh := S256x1024) i v)
/-- the sender gets its rows back -/
def send_rs_1_1_0 (ct : Contract F) (c : Dev nD) : sProp 𝕄 := loanV c (src_rs_1_1_0 c)
/-- the receiver gets the rows its partner sent, right under the contract -/
def recv_rs_1_1_0 (ct : Contract F) (p : Dev nD) : sProp 𝕄 :=
  heldV p (dst_rs_1_1_0 (peer 1 1 p)) fullShare (fun i v => pRS ct 1 p (sh := S256x1024) i v)
/-- the sender gets its rows back -/
def send_rs_1_1_1 (ct : Contract F) (c : Dev nD) : sProp 𝕄 := loanV c (src_rs_1_1_1 c)
/-- the receiver gets the rows its partner sent, right under the contract -/
def recv_rs_1_1_1 (ct : Contract F) (p : Dev nD) : sProp 𝕄 :=
  heldV p (dst_rs_1_1_1 (peer 1 1 p)) fullShare (fun i v => pRS ct 1 p (sh := S256x1024) i v)
/-- the sender gets its rows back -/
def send_rs_1_2_0 (ct : Contract F) (c : Dev nD) : sProp 𝕄 := loanV c (src_rs_1_2_0 c)
/-- the receiver gets the rows its partner sent, right under the contract -/
def recv_rs_1_2_0 (ct : Contract F) (p : Dev nD) : sProp 𝕄 :=
  heldV p (dst_rs_1_2_0 (peer 2 1 p)) fullShare (fun i v => pRS ct 1 p (sh := S256x1024) i v)
/-- the sender gets its rows back -/
def send_rs_1_2_1 (ct : Contract F) (c : Dev nD) : sProp 𝕄 := loanV c (src_rs_1_2_1 c)
/-- the receiver gets the rows its partner sent, right under the contract -/
def recv_rs_1_2_1 (ct : Contract F) (p : Dev nD) : sProp 𝕄 :=
  heldV p (dst_rs_1_2_1 (peer 2 1 p)) fullShare (fun i v => pRS ct 1 p (sh := S256x1024) i v)
/-- the sender gets its rows back -/
def send_rs_2_0_0 (ct : Contract F) (c : Dev nD) : sProp 𝕄 := loanV c (src_rs_2_0_0 c)
/-- the receiver gets the rows its partner sent, right under the contract -/
def recv_rs_2_0_0 (ct : Contract F) (p : Dev nD) : sProp 𝕄 :=
  heldV p (dst_rs_2_0_0 (peer 0 2 p)) fullShare (fun i v => pRS ct 2 p (sh := S128x1024) i v)
/-- the sender gets its rows back -/
def send_rs_2_0_1 (ct : Contract F) (c : Dev nD) : sProp 𝕄 := loanV c (src_rs_2_0_1 c)
/-- the receiver gets the rows its partner sent, right under the contract -/
def recv_rs_2_0_1 (ct : Contract F) (p : Dev nD) : sProp 𝕄 :=
  heldV p (dst_rs_2_0_1 (peer 0 2 p)) fullShare (fun i v => pRS ct 2 p (sh := S128x1024) i v)
/-- the sender gets its rows back -/
def send_rs_2_1_0 (ct : Contract F) (c : Dev nD) : sProp 𝕄 := loanV c (src_rs_2_1_0 c)
/-- the receiver gets the rows its partner sent, right under the contract -/
def recv_rs_2_1_0 (ct : Contract F) (p : Dev nD) : sProp 𝕄 :=
  heldV p (dst_rs_2_1_0 (peer 1 2 p)) fullShare (fun i v => pRS ct 2 p (sh := S128x1024) i v)
/-- the sender gets its rows back -/
def send_rs_2_1_1 (ct : Contract F) (c : Dev nD) : sProp 𝕄 := loanV c (src_rs_2_1_1 c)
/-- the receiver gets the rows its partner sent, right under the contract -/
def recv_rs_2_1_1 (ct : Contract F) (p : Dev nD) : sProp 𝕄 :=
  heldV p (dst_rs_2_1_1 (peer 1 2 p)) fullShare (fun i v => pRS ct 2 p (sh := S128x1024) i v)
/-- the sender gets its rows back -/
def send_rs_2_2_0 (ct : Contract F) (c : Dev nD) : sProp 𝕄 := loanV c (src_rs_2_2_0 c)
/-- the receiver gets the rows its partner sent, right under the contract -/
def recv_rs_2_2_0 (ct : Contract F) (p : Dev nD) : sProp 𝕄 :=
  heldV p (dst_rs_2_2_0 (peer 2 2 p)) fullShare (fun i v => pRS ct 2 p (sh := S128x1024) i v)
/-- the sender gets its rows back -/
def send_rs_2_2_1 (ct : Contract F) (c : Dev nD) : sProp 𝕄 := loanV c (src_rs_2_2_1 c)
/-- the receiver gets the rows its partner sent, right under the contract -/
def recv_rs_2_2_1 (ct : Contract F) (p : Dev nD) : sProp 𝕄 :=
  heldV p (dst_rs_2_2_1 (peer 2 2 p)) fullShare (fun i v => pRS ct 2 p (sh := S128x1024) i v)
/-- the sender gets its rows back -/
def send_rs_3_0_0 (ct : Contract F) (c : Dev nD) : sProp 𝕄 := loanV c (src_rs_3_0_0 c)
/-- the receiver gets the rows its partner sent, right under the contract -/
def recv_rs_3_0_0 (ct : Contract F) (p : Dev nD) : sProp 𝕄 :=
  heldV p (dst_rs_3_0_0 (peer 0 3 p)) fullShare (fun i v => pRS ct 3 p (sh := S64x1024) i v)
/-- the sender gets its rows back -/
def send_rs_3_0_1 (ct : Contract F) (c : Dev nD) : sProp 𝕄 := loanV c (src_rs_3_0_1 c)
/-- the receiver gets the rows its partner sent, right under the contract -/
def recv_rs_3_0_1 (ct : Contract F) (p : Dev nD) : sProp 𝕄 :=
  heldV p (dst_rs_3_0_1 (peer 0 3 p)) fullShare (fun i v => pRS ct 3 p (sh := S64x1024) i v)
/-- the sender gets its rows back -/
def send_rs_3_1_0 (ct : Contract F) (c : Dev nD) : sProp 𝕄 := loanV c (src_rs_3_1_0 c)
/-- the receiver gets the rows its partner sent, right under the contract -/
def recv_rs_3_1_0 (ct : Contract F) (p : Dev nD) : sProp 𝕄 :=
  heldV p (dst_rs_3_1_0 (peer 1 3 p)) fullShare (fun i v => pRS ct 3 p (sh := S64x1024) i v)
/-- the sender gets its rows back -/
def send_rs_3_1_1 (ct : Contract F) (c : Dev nD) : sProp 𝕄 := loanV c (src_rs_3_1_1 c)
/-- the receiver gets the rows its partner sent, right under the contract -/
def recv_rs_3_1_1 (ct : Contract F) (p : Dev nD) : sProp 𝕄 :=
  heldV p (dst_rs_3_1_1 (peer 1 3 p)) fullShare (fun i v => pRS ct 3 p (sh := S64x1024) i v)
/-- the sender gets its rows back -/
def send_rs_3_2_0 (ct : Contract F) (c : Dev nD) : sProp 𝕄 := loanV c (src_rs_3_2_0 c)
/-- the receiver gets the rows its partner sent, right under the contract -/
def recv_rs_3_2_0 (ct : Contract F) (p : Dev nD) : sProp 𝕄 :=
  heldV p (dst_rs_3_2_0 (peer 2 3 p)) fullShare (fun i v => pRS ct 3 p (sh := S64x1024) i v)
/-- the sender gets its rows back -/
def send_rs_3_2_1 (ct : Contract F) (c : Dev nD) : sProp 𝕄 := loanV c (src_rs_3_2_1 c)
/-- the receiver gets the rows its partner sent, right under the contract -/
def recv_rs_3_2_1 (ct : Contract F) (p : Dev nD) : sProp 𝕄 :=
  heldV p (dst_rs_3_2_1 (peer 2 3 p)) fullShare (fun i v => pRS ct 3 p (sh := S64x1024) i v)
/-- the sender gets its rows back -/
def send_rs_4_0_0 (ct : Contract F) (c : Dev nD) : sProp 𝕄 := loanV c (src_rs_4_0_0 c)
/-- the receiver gets the rows its partner sent, right under the contract -/
def recv_rs_4_0_0 (ct : Contract F) (p : Dev nD) : sProp 𝕄 :=
  heldV p (dst_rs_4_0_0 (peer 0 4 p)) fullShare (fun i v => pRS ct 4 p (sh := S32x1024) i v)
/-- the sender gets its rows back -/
def send_rs_4_1_0 (ct : Contract F) (c : Dev nD) : sProp 𝕄 := loanV c (src_rs_4_1_0 c)
/-- the receiver gets the rows its partner sent, right under the contract -/
def recv_rs_4_1_0 (ct : Contract F) (p : Dev nD) : sProp 𝕄 :=
  heldV p (dst_rs_4_1_0 (peer 1 4 p)) fullShare (fun i v => pRS ct 4 p (sh := S32x1024) i v)
/-- the sender gets its rows back -/
def send_rs_4_2_0 (ct : Contract F) (c : Dev nD) : sProp 𝕄 := loanV c (src_rs_4_2_0 c)
/-- the receiver gets the rows its partner sent, right under the contract -/
def recv_rs_4_2_0 (ct : Contract F) (p : Dev nD) : sProp 𝕄 :=
  heldV p (dst_rs_4_2_0 (peer 2 4 p)) fullShare (fun i v => pRS ct 4 p (sh := S32x1024) i v)
/-- the sender gets its share of the rows back, as right as they were -/
def send_ag_4_0_0 (ct : Contract F) (c : Dev nD) : sProp 𝕄 :=
  heldV c (src_ag_4_0_0 c) (shr 4) (fun i v => pOut ct (sh := S1024x1024) i v)
/-- the receiver gets the rows of the result its partner sent -/
def recv_ag_4_0_0 (ct : Contract F) (p : Dev nD) : sProp 𝕄 :=
  heldV p (dst_ag_4_0_0 (peer 0 4 p)) fullShare (fun i v => pOut ct (sh := S1024x1024) i v)
/-- the sender gets its share of the rows back, as right as they were -/
def send_ag_4_1_0 (ct : Contract F) (c : Dev nD) : sProp 𝕄 :=
  heldV c (src_ag_4_1_0 c) (shr 4) (fun i v => pOut ct (sh := S1024x1024) i v)
/-- the receiver gets the rows of the result its partner sent -/
def recv_ag_4_1_0 (ct : Contract F) (p : Dev nD) : sProp 𝕄 :=
  heldV p (dst_ag_4_1_0 (peer 1 4 p)) fullShare (fun i v => pOut ct (sh := S1024x1024) i v)
/-- the sender gets its share of the rows back, as right as they were -/
def send_ag_4_2_0 (ct : Contract F) (c : Dev nD) : sProp 𝕄 :=
  heldV c (src_ag_4_2_0 c) (shr 4) (fun i v => pOut ct (sh := S1024x1024) i v)
/-- the receiver gets the rows of the result its partner sent -/
def recv_ag_4_2_0 (ct : Contract F) (p : Dev nD) : sProp 𝕄 :=
  heldV p (dst_ag_4_2_0 (peer 2 4 p)) fullShare (fun i v => pOut ct (sh := S1024x1024) i v)
/-- the sender gets its share of the rows back, as right as they were -/
def send_ag_3_0_0 (ct : Contract F) (c : Dev nD) : sProp 𝕄 :=
  heldV c (src_ag_3_0_0 c) (shr 3) (fun i v => pOut ct (sh := S1024x1024) i v)
/-- the receiver gets the rows of the result its partner sent -/
def recv_ag_3_0_0 (ct : Contract F) (p : Dev nD) : sProp 𝕄 :=
  heldV p (dst_ag_3_0_0 (peer 0 3 p)) fullShare (fun i v => pOut ct (sh := S1024x1024) i v)
/-- the sender gets its share of the rows back, as right as they were -/
def send_ag_3_0_1 (ct : Contract F) (c : Dev nD) : sProp 𝕄 :=
  heldV c (src_ag_3_0_1 c) (shr 3) (fun i v => pOut ct (sh := S1024x1024) i v)
/-- the receiver gets the rows of the result its partner sent -/
def recv_ag_3_0_1 (ct : Contract F) (p : Dev nD) : sProp 𝕄 :=
  heldV p (dst_ag_3_0_1 (peer 0 3 p)) fullShare (fun i v => pOut ct (sh := S1024x1024) i v)
/-- the sender gets its share of the rows back, as right as they were -/
def send_ag_3_1_0 (ct : Contract F) (c : Dev nD) : sProp 𝕄 :=
  heldV c (src_ag_3_1_0 c) (shr 3) (fun i v => pOut ct (sh := S1024x1024) i v)
/-- the receiver gets the rows of the result its partner sent -/
def recv_ag_3_1_0 (ct : Contract F) (p : Dev nD) : sProp 𝕄 :=
  heldV p (dst_ag_3_1_0 (peer 1 3 p)) fullShare (fun i v => pOut ct (sh := S1024x1024) i v)
/-- the sender gets its share of the rows back, as right as they were -/
def send_ag_3_1_1 (ct : Contract F) (c : Dev nD) : sProp 𝕄 :=
  heldV c (src_ag_3_1_1 c) (shr 3) (fun i v => pOut ct (sh := S1024x1024) i v)
/-- the receiver gets the rows of the result its partner sent -/
def recv_ag_3_1_1 (ct : Contract F) (p : Dev nD) : sProp 𝕄 :=
  heldV p (dst_ag_3_1_1 (peer 1 3 p)) fullShare (fun i v => pOut ct (sh := S1024x1024) i v)
/-- the sender gets its share of the rows back, as right as they were -/
def send_ag_3_2_0 (ct : Contract F) (c : Dev nD) : sProp 𝕄 :=
  heldV c (src_ag_3_2_0 c) (shr 3) (fun i v => pOut ct (sh := S1024x1024) i v)
/-- the receiver gets the rows of the result its partner sent -/
def recv_ag_3_2_0 (ct : Contract F) (p : Dev nD) : sProp 𝕄 :=
  heldV p (dst_ag_3_2_0 (peer 2 3 p)) fullShare (fun i v => pOut ct (sh := S1024x1024) i v)
/-- the sender gets its share of the rows back, as right as they were -/
def send_ag_3_2_1 (ct : Contract F) (c : Dev nD) : sProp 𝕄 :=
  heldV c (src_ag_3_2_1 c) (shr 3) (fun i v => pOut ct (sh := S1024x1024) i v)
/-- the receiver gets the rows of the result its partner sent -/
def recv_ag_3_2_1 (ct : Contract F) (p : Dev nD) : sProp 𝕄 :=
  heldV p (dst_ag_3_2_1 (peer 2 3 p)) fullShare (fun i v => pOut ct (sh := S1024x1024) i v)
/-- the sender gets its share of the rows back, as right as they were -/
def send_ag_2_0_0 (ct : Contract F) (c : Dev nD) : sProp 𝕄 :=
  heldV c (src_ag_2_0_0 c) (shr 2) (fun i v => pOut ct (sh := S1024x1024) i v)
/-- the receiver gets the rows of the result its partner sent -/
def recv_ag_2_0_0 (ct : Contract F) (p : Dev nD) : sProp 𝕄 :=
  heldV p (dst_ag_2_0_0 (peer 0 2 p)) fullShare (fun i v => pOut ct (sh := S1024x1024) i v)
/-- the sender gets its share of the rows back, as right as they were -/
def send_ag_2_0_1 (ct : Contract F) (c : Dev nD) : sProp 𝕄 :=
  heldV c (src_ag_2_0_1 c) (shr 2) (fun i v => pOut ct (sh := S1024x1024) i v)
/-- the receiver gets the rows of the result its partner sent -/
def recv_ag_2_0_1 (ct : Contract F) (p : Dev nD) : sProp 𝕄 :=
  heldV p (dst_ag_2_0_1 (peer 0 2 p)) fullShare (fun i v => pOut ct (sh := S1024x1024) i v)
/-- the sender gets its share of the rows back, as right as they were -/
def send_ag_2_1_0 (ct : Contract F) (c : Dev nD) : sProp 𝕄 :=
  heldV c (src_ag_2_1_0 c) (shr 2) (fun i v => pOut ct (sh := S1024x1024) i v)
/-- the receiver gets the rows of the result its partner sent -/
def recv_ag_2_1_0 (ct : Contract F) (p : Dev nD) : sProp 𝕄 :=
  heldV p (dst_ag_2_1_0 (peer 1 2 p)) fullShare (fun i v => pOut ct (sh := S1024x1024) i v)
/-- the sender gets its share of the rows back, as right as they were -/
def send_ag_2_1_1 (ct : Contract F) (c : Dev nD) : sProp 𝕄 :=
  heldV c (src_ag_2_1_1 c) (shr 2) (fun i v => pOut ct (sh := S1024x1024) i v)
/-- the receiver gets the rows of the result its partner sent -/
def recv_ag_2_1_1 (ct : Contract F) (p : Dev nD) : sProp 𝕄 :=
  heldV p (dst_ag_2_1_1 (peer 1 2 p)) fullShare (fun i v => pOut ct (sh := S1024x1024) i v)
/-- the sender gets its share of the rows back, as right as they were -/
def send_ag_2_2_0 (ct : Contract F) (c : Dev nD) : sProp 𝕄 :=
  heldV c (src_ag_2_2_0 c) (shr 2) (fun i v => pOut ct (sh := S1024x1024) i v)
/-- the receiver gets the rows of the result its partner sent -/
def recv_ag_2_2_0 (ct : Contract F) (p : Dev nD) : sProp 𝕄 :=
  heldV p (dst_ag_2_2_0 (peer 2 2 p)) fullShare (fun i v => pOut ct (sh := S1024x1024) i v)
/-- the sender gets its share of the rows back, as right as they were -/
def send_ag_2_2_1 (ct : Contract F) (c : Dev nD) : sProp 𝕄 :=
  heldV c (src_ag_2_2_1 c) (shr 2) (fun i v => pOut ct (sh := S1024x1024) i v)
/-- the receiver gets the rows of the result its partner sent -/
def recv_ag_2_2_1 (ct : Contract F) (p : Dev nD) : sProp 𝕄 :=
  heldV p (dst_ag_2_2_1 (peer 2 2 p)) fullShare (fun i v => pOut ct (sh := S1024x1024) i v)
/-- the sender gets its share of the rows back, as right as they were -/
def send_ag_1_0_0 (ct : Contract F) (c : Dev nD) : sProp 𝕄 :=
  heldV c (src_ag_1_0_0 c) (shr 1) (fun i v => pOut ct (sh := S1024x1024) i v)
/-- the receiver gets the rows of the result its partner sent -/
def recv_ag_1_0_0 (ct : Contract F) (p : Dev nD) : sProp 𝕄 :=
  heldV p (dst_ag_1_0_0 (peer 0 1 p)) fullShare (fun i v => pOut ct (sh := S1024x1024) i v)
/-- the sender gets its share of the rows back, as right as they were -/
def send_ag_1_0_1 (ct : Contract F) (c : Dev nD) : sProp 𝕄 :=
  heldV c (src_ag_1_0_1 c) (shr 1) (fun i v => pOut ct (sh := S1024x1024) i v)
/-- the receiver gets the rows of the result its partner sent -/
def recv_ag_1_0_1 (ct : Contract F) (p : Dev nD) : sProp 𝕄 :=
  heldV p (dst_ag_1_0_1 (peer 0 1 p)) fullShare (fun i v => pOut ct (sh := S1024x1024) i v)
/-- the sender gets its share of the rows back, as right as they were -/
def send_ag_1_1_0 (ct : Contract F) (c : Dev nD) : sProp 𝕄 :=
  heldV c (src_ag_1_1_0 c) (shr 1) (fun i v => pOut ct (sh := S1024x1024) i v)
/-- the receiver gets the rows of the result its partner sent -/
def recv_ag_1_1_0 (ct : Contract F) (p : Dev nD) : sProp 𝕄 :=
  heldV p (dst_ag_1_1_0 (peer 1 1 p)) fullShare (fun i v => pOut ct (sh := S1024x1024) i v)
/-- the sender gets its share of the rows back, as right as they were -/
def send_ag_1_1_1 (ct : Contract F) (c : Dev nD) : sProp 𝕄 :=
  heldV c (src_ag_1_1_1 c) (shr 1) (fun i v => pOut ct (sh := S1024x1024) i v)
/-- the receiver gets the rows of the result its partner sent -/
def recv_ag_1_1_1 (ct : Contract F) (p : Dev nD) : sProp 𝕄 :=
  heldV p (dst_ag_1_1_1 (peer 1 1 p)) fullShare (fun i v => pOut ct (sh := S1024x1024) i v)
/-- the sender gets its share of the rows back, as right as they were -/
def send_ag_1_2_0 (ct : Contract F) (c : Dev nD) : sProp 𝕄 :=
  heldV c (src_ag_1_2_0 c) (shr 1) (fun i v => pOut ct (sh := S1024x1024) i v)
/-- the receiver gets the rows of the result its partner sent -/
def recv_ag_1_2_0 (ct : Contract F) (p : Dev nD) : sProp 𝕄 :=
  heldV p (dst_ag_1_2_0 (peer 2 1 p)) fullShare (fun i v => pOut ct (sh := S1024x1024) i v)
/-- the sender gets its share of the rows back, as right as they were -/
def send_ag_1_2_1 (ct : Contract F) (c : Dev nD) : sProp 𝕄 :=
  heldV c (src_ag_1_2_1 c) (shr 1) (fun i v => pOut ct (sh := S1024x1024) i v)
/-- the receiver gets the rows of the result its partner sent -/
def recv_ag_1_2_1 (ct : Contract F) (p : Dev nD) : sProp 𝕄 :=
  heldV p (dst_ag_1_2_1 (peer 2 1 p)) fullShare (fun i v => pOut ct (sh := S1024x1024) i v)
/-- the sender gets its share of the rows back, as right as they were -/
def send_ag_0_0_0 (ct : Contract F) (c : Dev nD) : sProp 𝕄 :=
  heldV c (src_ag_0_0_0 c) (shr 0) (fun i v => pOut ct (sh := S1024x1024) i v)
/-- the receiver gets the rows of the result its partner sent -/
def recv_ag_0_0_0 (ct : Contract F) (p : Dev nD) : sProp 𝕄 :=
  heldV p (dst_ag_0_0_0 (peer 0 0 p)) fullShare (fun i v => pOut ct (sh := S1024x1024) i v)
/-- the sender gets its share of the rows back, as right as they were -/
def send_ag_0_0_1 (ct : Contract F) (c : Dev nD) : sProp 𝕄 :=
  heldV c (src_ag_0_0_1 c) (shr 0) (fun i v => pOut ct (sh := S1024x1024) i v)
/-- the receiver gets the rows of the result its partner sent -/
def recv_ag_0_0_1 (ct : Contract F) (p : Dev nD) : sProp 𝕄 :=
  heldV p (dst_ag_0_0_1 (peer 0 0 p)) fullShare (fun i v => pOut ct (sh := S1024x1024) i v)
/-- the sender gets its share of the rows back, as right as they were -/
def send_ag_0_1_0 (ct : Contract F) (c : Dev nD) : sProp 𝕄 :=
  heldV c (src_ag_0_1_0 c) (shr 0) (fun i v => pOut ct (sh := S1024x1024) i v)
/-- the receiver gets the rows of the result its partner sent -/
def recv_ag_0_1_0 (ct : Contract F) (p : Dev nD) : sProp 𝕄 :=
  heldV p (dst_ag_0_1_0 (peer 1 0 p)) fullShare (fun i v => pOut ct (sh := S1024x1024) i v)
/-- the sender gets its share of the rows back, as right as they were -/
def send_ag_0_1_1 (ct : Contract F) (c : Dev nD) : sProp 𝕄 :=
  heldV c (src_ag_0_1_1 c) (shr 0) (fun i v => pOut ct (sh := S1024x1024) i v)
/-- the receiver gets the rows of the result its partner sent -/
def recv_ag_0_1_1 (ct : Contract F) (p : Dev nD) : sProp 𝕄 :=
  heldV p (dst_ag_0_1_1 (peer 1 0 p)) fullShare (fun i v => pOut ct (sh := S1024x1024) i v)
/-- the sender gets its share of the rows back, as right as they were -/
def send_ag_0_2_0 (ct : Contract F) (c : Dev nD) : sProp 𝕄 :=
  heldV c (src_ag_0_2_0 c) (shr 0) (fun i v => pOut ct (sh := S1024x1024) i v)
/-- the receiver gets the rows of the result its partner sent -/
def recv_ag_0_2_0 (ct : Contract F) (p : Dev nD) : sProp 𝕄 :=
  heldV p (dst_ag_0_2_0 (peer 2 0 p)) fullShare (fun i v => pOut ct (sh := S1024x1024) i v)
/-- the sender gets its share of the rows back, as right as they were -/
def send_ag_0_2_1 (ct : Contract F) (c : Dev nD) : sProp 𝕄 :=
  heldV c (src_ag_0_2_1 c) (shr 0) (fun i v => pOut ct (sh := S1024x1024) i v)
/-- the receiver gets the rows of the result its partner sent -/
def recv_ag_0_2_1 (ct : Contract F) (p : Dev nD) : sProp 𝕄 :=
  heldV p (dst_ag_0_2_1 (peer 2 0 p)) fullShare (fun i v => pOut ct (sh := S1024x1024) i v)

instance (ct : Contract F) (c : Dev nD) : BI.Storable (upEmb : UEmb _ 𝕄) (send_rs_0_0_0 ct c) := by unfold send_rs_0_0_0; infer_instance
instance (ct : Contract F) (c : Dev nD) : BI.Storable (upEmb : UEmb _ 𝕄) (recv_rs_0_0_0 ct c) := by unfold recv_rs_0_0_0; infer_instance
instance (ct : Contract F) (c : Dev nD) : BI.Storable (upEmb : UEmb _ 𝕄) (send_rs_0_0_1 ct c) := by unfold send_rs_0_0_1; infer_instance
instance (ct : Contract F) (c : Dev nD) : BI.Storable (upEmb : UEmb _ 𝕄) (recv_rs_0_0_1 ct c) := by unfold recv_rs_0_0_1; infer_instance
instance (ct : Contract F) (c : Dev nD) : BI.Storable (upEmb : UEmb _ 𝕄) (send_rs_0_1_0 ct c) := by unfold send_rs_0_1_0; infer_instance
instance (ct : Contract F) (c : Dev nD) : BI.Storable (upEmb : UEmb _ 𝕄) (recv_rs_0_1_0 ct c) := by unfold recv_rs_0_1_0; infer_instance
instance (ct : Contract F) (c : Dev nD) : BI.Storable (upEmb : UEmb _ 𝕄) (send_rs_0_1_1 ct c) := by unfold send_rs_0_1_1; infer_instance
instance (ct : Contract F) (c : Dev nD) : BI.Storable (upEmb : UEmb _ 𝕄) (recv_rs_0_1_1 ct c) := by unfold recv_rs_0_1_1; infer_instance
instance (ct : Contract F) (c : Dev nD) : BI.Storable (upEmb : UEmb _ 𝕄) (send_rs_0_2_0 ct c) := by unfold send_rs_0_2_0; infer_instance
instance (ct : Contract F) (c : Dev nD) : BI.Storable (upEmb : UEmb _ 𝕄) (recv_rs_0_2_0 ct c) := by unfold recv_rs_0_2_0; infer_instance
instance (ct : Contract F) (c : Dev nD) : BI.Storable (upEmb : UEmb _ 𝕄) (send_rs_0_2_1 ct c) := by unfold send_rs_0_2_1; infer_instance
instance (ct : Contract F) (c : Dev nD) : BI.Storable (upEmb : UEmb _ 𝕄) (recv_rs_0_2_1 ct c) := by unfold recv_rs_0_2_1; infer_instance
instance (ct : Contract F) (c : Dev nD) : BI.Storable (upEmb : UEmb _ 𝕄) (send_rs_1_0_0 ct c) := by unfold send_rs_1_0_0; infer_instance
instance (ct : Contract F) (c : Dev nD) : BI.Storable (upEmb : UEmb _ 𝕄) (recv_rs_1_0_0 ct c) := by unfold recv_rs_1_0_0; infer_instance
instance (ct : Contract F) (c : Dev nD) : BI.Storable (upEmb : UEmb _ 𝕄) (send_rs_1_0_1 ct c) := by unfold send_rs_1_0_1; infer_instance
instance (ct : Contract F) (c : Dev nD) : BI.Storable (upEmb : UEmb _ 𝕄) (recv_rs_1_0_1 ct c) := by unfold recv_rs_1_0_1; infer_instance
instance (ct : Contract F) (c : Dev nD) : BI.Storable (upEmb : UEmb _ 𝕄) (send_rs_1_1_0 ct c) := by unfold send_rs_1_1_0; infer_instance
instance (ct : Contract F) (c : Dev nD) : BI.Storable (upEmb : UEmb _ 𝕄) (recv_rs_1_1_0 ct c) := by unfold recv_rs_1_1_0; infer_instance
instance (ct : Contract F) (c : Dev nD) : BI.Storable (upEmb : UEmb _ 𝕄) (send_rs_1_1_1 ct c) := by unfold send_rs_1_1_1; infer_instance
instance (ct : Contract F) (c : Dev nD) : BI.Storable (upEmb : UEmb _ 𝕄) (recv_rs_1_1_1 ct c) := by unfold recv_rs_1_1_1; infer_instance
instance (ct : Contract F) (c : Dev nD) : BI.Storable (upEmb : UEmb _ 𝕄) (send_rs_1_2_0 ct c) := by unfold send_rs_1_2_0; infer_instance
instance (ct : Contract F) (c : Dev nD) : BI.Storable (upEmb : UEmb _ 𝕄) (recv_rs_1_2_0 ct c) := by unfold recv_rs_1_2_0; infer_instance
instance (ct : Contract F) (c : Dev nD) : BI.Storable (upEmb : UEmb _ 𝕄) (send_rs_1_2_1 ct c) := by unfold send_rs_1_2_1; infer_instance
instance (ct : Contract F) (c : Dev nD) : BI.Storable (upEmb : UEmb _ 𝕄) (recv_rs_1_2_1 ct c) := by unfold recv_rs_1_2_1; infer_instance
instance (ct : Contract F) (c : Dev nD) : BI.Storable (upEmb : UEmb _ 𝕄) (send_rs_2_0_0 ct c) := by unfold send_rs_2_0_0; infer_instance
instance (ct : Contract F) (c : Dev nD) : BI.Storable (upEmb : UEmb _ 𝕄) (recv_rs_2_0_0 ct c) := by unfold recv_rs_2_0_0; infer_instance
instance (ct : Contract F) (c : Dev nD) : BI.Storable (upEmb : UEmb _ 𝕄) (send_rs_2_0_1 ct c) := by unfold send_rs_2_0_1; infer_instance
instance (ct : Contract F) (c : Dev nD) : BI.Storable (upEmb : UEmb _ 𝕄) (recv_rs_2_0_1 ct c) := by unfold recv_rs_2_0_1; infer_instance
instance (ct : Contract F) (c : Dev nD) : BI.Storable (upEmb : UEmb _ 𝕄) (send_rs_2_1_0 ct c) := by unfold send_rs_2_1_0; infer_instance
instance (ct : Contract F) (c : Dev nD) : BI.Storable (upEmb : UEmb _ 𝕄) (recv_rs_2_1_0 ct c) := by unfold recv_rs_2_1_0; infer_instance
instance (ct : Contract F) (c : Dev nD) : BI.Storable (upEmb : UEmb _ 𝕄) (send_rs_2_1_1 ct c) := by unfold send_rs_2_1_1; infer_instance
instance (ct : Contract F) (c : Dev nD) : BI.Storable (upEmb : UEmb _ 𝕄) (recv_rs_2_1_1 ct c) := by unfold recv_rs_2_1_1; infer_instance
instance (ct : Contract F) (c : Dev nD) : BI.Storable (upEmb : UEmb _ 𝕄) (send_rs_2_2_0 ct c) := by unfold send_rs_2_2_0; infer_instance
instance (ct : Contract F) (c : Dev nD) : BI.Storable (upEmb : UEmb _ 𝕄) (recv_rs_2_2_0 ct c) := by unfold recv_rs_2_2_0; infer_instance
instance (ct : Contract F) (c : Dev nD) : BI.Storable (upEmb : UEmb _ 𝕄) (send_rs_2_2_1 ct c) := by unfold send_rs_2_2_1; infer_instance
instance (ct : Contract F) (c : Dev nD) : BI.Storable (upEmb : UEmb _ 𝕄) (recv_rs_2_2_1 ct c) := by unfold recv_rs_2_2_1; infer_instance
instance (ct : Contract F) (c : Dev nD) : BI.Storable (upEmb : UEmb _ 𝕄) (send_rs_3_0_0 ct c) := by unfold send_rs_3_0_0; infer_instance
instance (ct : Contract F) (c : Dev nD) : BI.Storable (upEmb : UEmb _ 𝕄) (recv_rs_3_0_0 ct c) := by unfold recv_rs_3_0_0; infer_instance
instance (ct : Contract F) (c : Dev nD) : BI.Storable (upEmb : UEmb _ 𝕄) (send_rs_3_0_1 ct c) := by unfold send_rs_3_0_1; infer_instance
instance (ct : Contract F) (c : Dev nD) : BI.Storable (upEmb : UEmb _ 𝕄) (recv_rs_3_0_1 ct c) := by unfold recv_rs_3_0_1; infer_instance
instance (ct : Contract F) (c : Dev nD) : BI.Storable (upEmb : UEmb _ 𝕄) (send_rs_3_1_0 ct c) := by unfold send_rs_3_1_0; infer_instance
instance (ct : Contract F) (c : Dev nD) : BI.Storable (upEmb : UEmb _ 𝕄) (recv_rs_3_1_0 ct c) := by unfold recv_rs_3_1_0; infer_instance
instance (ct : Contract F) (c : Dev nD) : BI.Storable (upEmb : UEmb _ 𝕄) (send_rs_3_1_1 ct c) := by unfold send_rs_3_1_1; infer_instance
instance (ct : Contract F) (c : Dev nD) : BI.Storable (upEmb : UEmb _ 𝕄) (recv_rs_3_1_1 ct c) := by unfold recv_rs_3_1_1; infer_instance
instance (ct : Contract F) (c : Dev nD) : BI.Storable (upEmb : UEmb _ 𝕄) (send_rs_3_2_0 ct c) := by unfold send_rs_3_2_0; infer_instance
instance (ct : Contract F) (c : Dev nD) : BI.Storable (upEmb : UEmb _ 𝕄) (recv_rs_3_2_0 ct c) := by unfold recv_rs_3_2_0; infer_instance
instance (ct : Contract F) (c : Dev nD) : BI.Storable (upEmb : UEmb _ 𝕄) (send_rs_3_2_1 ct c) := by unfold send_rs_3_2_1; infer_instance
instance (ct : Contract F) (c : Dev nD) : BI.Storable (upEmb : UEmb _ 𝕄) (recv_rs_3_2_1 ct c) := by unfold recv_rs_3_2_1; infer_instance
instance (ct : Contract F) (c : Dev nD) : BI.Storable (upEmb : UEmb _ 𝕄) (send_rs_4_0_0 ct c) := by unfold send_rs_4_0_0; infer_instance
instance (ct : Contract F) (c : Dev nD) : BI.Storable (upEmb : UEmb _ 𝕄) (recv_rs_4_0_0 ct c) := by unfold recv_rs_4_0_0; infer_instance
instance (ct : Contract F) (c : Dev nD) : BI.Storable (upEmb : UEmb _ 𝕄) (send_rs_4_1_0 ct c) := by unfold send_rs_4_1_0; infer_instance
instance (ct : Contract F) (c : Dev nD) : BI.Storable (upEmb : UEmb _ 𝕄) (recv_rs_4_1_0 ct c) := by unfold recv_rs_4_1_0; infer_instance
instance (ct : Contract F) (c : Dev nD) : BI.Storable (upEmb : UEmb _ 𝕄) (send_rs_4_2_0 ct c) := by unfold send_rs_4_2_0; infer_instance
instance (ct : Contract F) (c : Dev nD) : BI.Storable (upEmb : UEmb _ 𝕄) (recv_rs_4_2_0 ct c) := by unfold recv_rs_4_2_0; infer_instance
instance (ct : Contract F) (c : Dev nD) : BI.Storable (upEmb : UEmb _ 𝕄) (send_ag_4_0_0 ct c) := by unfold send_ag_4_0_0; infer_instance
instance (ct : Contract F) (c : Dev nD) : BI.Storable (upEmb : UEmb _ 𝕄) (recv_ag_4_0_0 ct c) := by unfold recv_ag_4_0_0; infer_instance
instance (ct : Contract F) (c : Dev nD) : BI.Storable (upEmb : UEmb _ 𝕄) (send_ag_4_1_0 ct c) := by unfold send_ag_4_1_0; infer_instance
instance (ct : Contract F) (c : Dev nD) : BI.Storable (upEmb : UEmb _ 𝕄) (recv_ag_4_1_0 ct c) := by unfold recv_ag_4_1_0; infer_instance
instance (ct : Contract F) (c : Dev nD) : BI.Storable (upEmb : UEmb _ 𝕄) (send_ag_4_2_0 ct c) := by unfold send_ag_4_2_0; infer_instance
instance (ct : Contract F) (c : Dev nD) : BI.Storable (upEmb : UEmb _ 𝕄) (recv_ag_4_2_0 ct c) := by unfold recv_ag_4_2_0; infer_instance
instance (ct : Contract F) (c : Dev nD) : BI.Storable (upEmb : UEmb _ 𝕄) (send_ag_3_0_0 ct c) := by unfold send_ag_3_0_0; infer_instance
instance (ct : Contract F) (c : Dev nD) : BI.Storable (upEmb : UEmb _ 𝕄) (recv_ag_3_0_0 ct c) := by unfold recv_ag_3_0_0; infer_instance
instance (ct : Contract F) (c : Dev nD) : BI.Storable (upEmb : UEmb _ 𝕄) (send_ag_3_0_1 ct c) := by unfold send_ag_3_0_1; infer_instance
instance (ct : Contract F) (c : Dev nD) : BI.Storable (upEmb : UEmb _ 𝕄) (recv_ag_3_0_1 ct c) := by unfold recv_ag_3_0_1; infer_instance
instance (ct : Contract F) (c : Dev nD) : BI.Storable (upEmb : UEmb _ 𝕄) (send_ag_3_1_0 ct c) := by unfold send_ag_3_1_0; infer_instance
instance (ct : Contract F) (c : Dev nD) : BI.Storable (upEmb : UEmb _ 𝕄) (recv_ag_3_1_0 ct c) := by unfold recv_ag_3_1_0; infer_instance
instance (ct : Contract F) (c : Dev nD) : BI.Storable (upEmb : UEmb _ 𝕄) (send_ag_3_1_1 ct c) := by unfold send_ag_3_1_1; infer_instance
instance (ct : Contract F) (c : Dev nD) : BI.Storable (upEmb : UEmb _ 𝕄) (recv_ag_3_1_1 ct c) := by unfold recv_ag_3_1_1; infer_instance
instance (ct : Contract F) (c : Dev nD) : BI.Storable (upEmb : UEmb _ 𝕄) (send_ag_3_2_0 ct c) := by unfold send_ag_3_2_0; infer_instance
instance (ct : Contract F) (c : Dev nD) : BI.Storable (upEmb : UEmb _ 𝕄) (recv_ag_3_2_0 ct c) := by unfold recv_ag_3_2_0; infer_instance
instance (ct : Contract F) (c : Dev nD) : BI.Storable (upEmb : UEmb _ 𝕄) (send_ag_3_2_1 ct c) := by unfold send_ag_3_2_1; infer_instance
instance (ct : Contract F) (c : Dev nD) : BI.Storable (upEmb : UEmb _ 𝕄) (recv_ag_3_2_1 ct c) := by unfold recv_ag_3_2_1; infer_instance
instance (ct : Contract F) (c : Dev nD) : BI.Storable (upEmb : UEmb _ 𝕄) (send_ag_2_0_0 ct c) := by unfold send_ag_2_0_0; infer_instance
instance (ct : Contract F) (c : Dev nD) : BI.Storable (upEmb : UEmb _ 𝕄) (recv_ag_2_0_0 ct c) := by unfold recv_ag_2_0_0; infer_instance
instance (ct : Contract F) (c : Dev nD) : BI.Storable (upEmb : UEmb _ 𝕄) (send_ag_2_0_1 ct c) := by unfold send_ag_2_0_1; infer_instance
instance (ct : Contract F) (c : Dev nD) : BI.Storable (upEmb : UEmb _ 𝕄) (recv_ag_2_0_1 ct c) := by unfold recv_ag_2_0_1; infer_instance
instance (ct : Contract F) (c : Dev nD) : BI.Storable (upEmb : UEmb _ 𝕄) (send_ag_2_1_0 ct c) := by unfold send_ag_2_1_0; infer_instance
instance (ct : Contract F) (c : Dev nD) : BI.Storable (upEmb : UEmb _ 𝕄) (recv_ag_2_1_0 ct c) := by unfold recv_ag_2_1_0; infer_instance
instance (ct : Contract F) (c : Dev nD) : BI.Storable (upEmb : UEmb _ 𝕄) (send_ag_2_1_1 ct c) := by unfold send_ag_2_1_1; infer_instance
instance (ct : Contract F) (c : Dev nD) : BI.Storable (upEmb : UEmb _ 𝕄) (recv_ag_2_1_1 ct c) := by unfold recv_ag_2_1_1; infer_instance
instance (ct : Contract F) (c : Dev nD) : BI.Storable (upEmb : UEmb _ 𝕄) (send_ag_2_2_0 ct c) := by unfold send_ag_2_2_0; infer_instance
instance (ct : Contract F) (c : Dev nD) : BI.Storable (upEmb : UEmb _ 𝕄) (recv_ag_2_2_0 ct c) := by unfold recv_ag_2_2_0; infer_instance
instance (ct : Contract F) (c : Dev nD) : BI.Storable (upEmb : UEmb _ 𝕄) (send_ag_2_2_1 ct c) := by unfold send_ag_2_2_1; infer_instance
instance (ct : Contract F) (c : Dev nD) : BI.Storable (upEmb : UEmb _ 𝕄) (recv_ag_2_2_1 ct c) := by unfold recv_ag_2_2_1; infer_instance
instance (ct : Contract F) (c : Dev nD) : BI.Storable (upEmb : UEmb _ 𝕄) (send_ag_1_0_0 ct c) := by unfold send_ag_1_0_0; infer_instance
instance (ct : Contract F) (c : Dev nD) : BI.Storable (upEmb : UEmb _ 𝕄) (recv_ag_1_0_0 ct c) := by unfold recv_ag_1_0_0; infer_instance
instance (ct : Contract F) (c : Dev nD) : BI.Storable (upEmb : UEmb _ 𝕄) (send_ag_1_0_1 ct c) := by unfold send_ag_1_0_1; infer_instance
instance (ct : Contract F) (c : Dev nD) : BI.Storable (upEmb : UEmb _ 𝕄) (recv_ag_1_0_1 ct c) := by unfold recv_ag_1_0_1; infer_instance
instance (ct : Contract F) (c : Dev nD) : BI.Storable (upEmb : UEmb _ 𝕄) (send_ag_1_1_0 ct c) := by unfold send_ag_1_1_0; infer_instance
instance (ct : Contract F) (c : Dev nD) : BI.Storable (upEmb : UEmb _ 𝕄) (recv_ag_1_1_0 ct c) := by unfold recv_ag_1_1_0; infer_instance
instance (ct : Contract F) (c : Dev nD) : BI.Storable (upEmb : UEmb _ 𝕄) (send_ag_1_1_1 ct c) := by unfold send_ag_1_1_1; infer_instance
instance (ct : Contract F) (c : Dev nD) : BI.Storable (upEmb : UEmb _ 𝕄) (recv_ag_1_1_1 ct c) := by unfold recv_ag_1_1_1; infer_instance
instance (ct : Contract F) (c : Dev nD) : BI.Storable (upEmb : UEmb _ 𝕄) (send_ag_1_2_0 ct c) := by unfold send_ag_1_2_0; infer_instance
instance (ct : Contract F) (c : Dev nD) : BI.Storable (upEmb : UEmb _ 𝕄) (recv_ag_1_2_0 ct c) := by unfold recv_ag_1_2_0; infer_instance
instance (ct : Contract F) (c : Dev nD) : BI.Storable (upEmb : UEmb _ 𝕄) (send_ag_1_2_1 ct c) := by unfold send_ag_1_2_1; infer_instance
instance (ct : Contract F) (c : Dev nD) : BI.Storable (upEmb : UEmb _ 𝕄) (recv_ag_1_2_1 ct c) := by unfold recv_ag_1_2_1; infer_instance
instance (ct : Contract F) (c : Dev nD) : BI.Storable (upEmb : UEmb _ 𝕄) (send_ag_0_0_0 ct c) := by unfold send_ag_0_0_0; infer_instance
instance (ct : Contract F) (c : Dev nD) : BI.Storable (upEmb : UEmb _ 𝕄) (recv_ag_0_0_0 ct c) := by unfold recv_ag_0_0_0; infer_instance
instance (ct : Contract F) (c : Dev nD) : BI.Storable (upEmb : UEmb _ 𝕄) (send_ag_0_0_1 ct c) := by unfold send_ag_0_0_1; infer_instance
instance (ct : Contract F) (c : Dev nD) : BI.Storable (upEmb : UEmb _ 𝕄) (recv_ag_0_0_1 ct c) := by unfold recv_ag_0_0_1; infer_instance
instance (ct : Contract F) (c : Dev nD) : BI.Storable (upEmb : UEmb _ 𝕄) (send_ag_0_1_0 ct c) := by unfold send_ag_0_1_0; infer_instance
instance (ct : Contract F) (c : Dev nD) : BI.Storable (upEmb : UEmb _ 𝕄) (recv_ag_0_1_0 ct c) := by unfold recv_ag_0_1_0; infer_instance
instance (ct : Contract F) (c : Dev nD) : BI.Storable (upEmb : UEmb _ 𝕄) (send_ag_0_1_1 ct c) := by unfold send_ag_0_1_1; infer_instance
instance (ct : Contract F) (c : Dev nD) : BI.Storable (upEmb : UEmb _ 𝕄) (recv_ag_0_1_1 ct c) := by unfold recv_ag_0_1_1; infer_instance
instance (ct : Contract F) (c : Dev nD) : BI.Storable (upEmb : UEmb _ 𝕄) (send_ag_0_2_0 ct c) := by unfold send_ag_0_2_0; infer_instance
instance (ct : Contract F) (c : Dev nD) : BI.Storable (upEmb : UEmb _ 𝕄) (recv_ag_0_2_0 ct c) := by unfold recv_ag_0_2_0; infer_instance
instance (ct : Contract F) (c : Dev nD) : BI.Storable (upEmb : UEmb _ 𝕄) (send_ag_0_2_1 ct c) := by unfold send_ag_0_2_1; infer_instance
instance (ct : Contract F) (c : Dev nD) : BI.Storable (upEmb : UEmb _ 𝕄) (recv_ag_0_2_1 ct c) := by unfold recv_ag_0_2_1; infer_instance

/-- What partner number `i` of device `p` lends `p` with its handshake signal: the landing rows in its
    buffers that `p` will write. -/
def barPay (p : Dev nD) : Fin 5 → sProp 𝕄
  | 0 => iprop(loanV (peer 0 0 p) (dst_rs_0_0_0 p) ∗ loanV (peer 0 0 p) (dst_rs_0_0_1 p) ∗ loanV (peer 2 1 p) (dst_rs_1_2_0 p) ∗ loanV (peer 2 1 p) (dst_rs_1_2_1 p) ∗ loanV (peer 1 2 p) (dst_rs_2_1_0 p) ∗ loanV (peer 1 2 p) (dst_rs_2_1_1 p) ∗ loanV (peer 1 2 p) (dst_ag_2_1_0 p) ∗ loanV (peer 1 2 p) (dst_ag_2_1_1 p) ∗ loanV (peer 2 1 p) (dst_ag_1_2_0 p) ∗ loanV (peer 2 1 p) (dst_ag_1_2_1 p) ∗ loanV (peer 0 0 p) (dst_ag_0_0_0 p) ∗ loanV (peer 0 0 p) (dst_ag_0_0_1 p))
  | 1 => iprop(loanV (peer 1 0 p) (dst_rs_0_1_0 p) ∗ loanV (peer 1 0 p) (dst_rs_0_1_1 p) ∗ loanV (peer 0 1 p) (dst_rs_1_0_0 p) ∗ loanV (peer 0 1 p) (dst_rs_1_0_1 p) ∗ loanV (peer 2 2 p) (dst_rs_2_2_0 p) ∗ loanV (peer 2 2 p) (dst_rs_2_2_1 p) ∗ loanV (peer 2 2 p) (dst_ag_2_2_0 p) ∗ loanV (peer 2 2 p) (dst_ag_2_2_1 p) ∗ loanV (peer 0 1 p) (dst_ag_1_0_0 p) ∗ loanV (peer 0 1 p) (dst_ag_1_0_1 p) ∗ loanV (peer 1 0 p) (dst_ag_0_1_0 p) ∗ loanV (peer 1 0 p) (dst_ag_0_1_1 p))
  | 2 => iprop(loanV (peer 2 0 p) (dst_rs_0_2_0 p) ∗ loanV (peer 2 0 p) (dst_rs_0_2_1 p) ∗ loanV (peer 1 1 p) (dst_rs_1_1_0 p) ∗ loanV (peer 1 1 p) (dst_rs_1_1_1 p) ∗ loanV (peer 0 2 p) (dst_rs_2_0_0 p) ∗ loanV (peer 0 2 p) (dst_rs_2_0_1 p) ∗ loanV (peer 0 2 p) (dst_ag_2_0_0 p) ∗ loanV (peer 0 2 p) (dst_ag_2_0_1 p) ∗ loanV (peer 1 1 p) (dst_ag_1_1_0 p) ∗ loanV (peer 1 1 p) (dst_ag_1_1_1 p) ∗ loanV (peer 2 0 p) (dst_ag_0_2_0 p) ∗ loanV (peer 2 0 p) (dst_ag_0_2_1 p))
  | 3 => iprop(loanV (peer 0 3 p) (dst_rs_3_0_0 p) ∗ loanV (peer 0 3 p) (dst_rs_3_0_1 p) ∗ loanV (peer 1 4 p) (dst_rs_4_1_0 p) ∗ loanV (peer 2 4 p) (dst_rs_4_2_0 p) ∗ loanV (peer 1 4 p) (dst_ag_4_1_0 p) ∗ loanV (peer 2 4 p) (dst_ag_4_2_0 p) ∗ loanV (peer 0 3 p) (dst_ag_3_0_0 p) ∗ loanV (peer 0 3 p) (dst_ag_3_0_1 p))
  | 4 => iprop(loanV (peer 1 3 p) (dst_rs_3_1_0 p) ∗ loanV (peer 1 3 p) (dst_rs_3_1_1 p) ∗ loanV (peer 2 3 p) (dst_rs_3_2_0 p) ∗ loanV (peer 2 3 p) (dst_rs_3_2_1 p) ∗ loanV (peer 0 4 p) (dst_rs_4_0_0 p) ∗ loanV (peer 0 4 p) (dst_ag_4_0_0 p) ∗ loanV (peer 1 3 p) (dst_ag_3_1_0 p) ∗ loanV (peer 1 3 p) (dst_ag_3_1_1 p) ∗ loanV (peer 2 3 p) (dst_ag_3_2_0 p) ∗ loanV (peer 2 3 p) (dst_ag_3_2_1 p))

/-- The payload of the transfer cell with index `n` on device `c`. -/
def dmaPay (ct : Contract F) (c : Dev nD) (n : ℕ) : sProp 𝕄 :=
  match n with
  | 3 => send_rs_0_0_0 ct c
  | 33 => recv_rs_0_0_0 ct c
  | 4 => send_rs_0_0_1 ct c
  | 34 => recv_rs_0_0_1 ct c
  | 5 => send_rs_0_1_0 ct c
  | 35 => recv_rs_0_1_0 ct c
  | 6 => send_rs_0_1_1 ct c
  | 36 => recv_rs_0_1_1 ct c
  | 7 => send_rs_0_2_0 ct c
  | 37 => recv_rs_0_2_0 ct c
  | 8 => send_rs_0_2_1 ct c
  | 38 => recv_rs_0_2_1 ct c
  | 9 => send_rs_1_0_0 ct c
  | 39 => recv_rs_1_0_0 ct c
  | 10 => send_rs_1_0_1 ct c
  | 40 => recv_rs_1_0_1 ct c
  | 11 => send_rs_1_1_0 ct c
  | 41 => recv_rs_1_1_0 ct c
  | 12 => send_rs_1_1_1 ct c
  | 42 => recv_rs_1_1_1 ct c
  | 13 => send_rs_1_2_0 ct c
  | 43 => recv_rs_1_2_0 ct c
  | 14 => send_rs_1_2_1 ct c
  | 44 => recv_rs_1_2_1 ct c
  | 15 => send_rs_2_0_0 ct c
  | 45 => recv_rs_2_0_0 ct c
  | 16 => send_rs_2_0_1 ct c
  | 46 => recv_rs_2_0_1 ct c
  | 17 => send_rs_2_1_0 ct c
  | 47 => recv_rs_2_1_0 ct c
  | 18 => send_rs_2_1_1 ct c
  | 48 => recv_rs_2_1_1 ct c
  | 19 => send_rs_2_2_0 ct c
  | 49 => recv_rs_2_2_0 ct c
  | 20 => send_rs_2_2_1 ct c
  | 50 => recv_rs_2_2_1 ct c
  | 21 => send_rs_3_0_0 ct c
  | 51 => recv_rs_3_0_0 ct c
  | 22 => send_rs_3_0_1 ct c
  | 52 => recv_rs_3_0_1 ct c
  | 23 => send_rs_3_1_0 ct c
  | 53 => recv_rs_3_1_0 ct c
  | 24 => send_rs_3_1_1 ct c
  | 54 => recv_rs_3_1_1 ct c
  | 25 => send_rs_3_2_0 ct c
  | 55 => recv_rs_3_2_0 ct c
  | 26 => send_rs_3_2_1 ct c
  | 56 => recv_rs_3_2_1 ct c
  | 27 => send_rs_4_0_0 ct c
  | 57 => recv_rs_4_0_0 ct c
  | 29 => send_rs_4_1_0 ct c
  | 59 => recv_rs_4_1_0 ct c
  | 31 => send_rs_4_2_0 ct c
  | 61 => recv_rs_4_2_0 ct c
  | 87 => send_ag_4_0_0 ct c
  | 117 => recv_ag_4_0_0 ct c
  | 89 => send_ag_4_1_0 ct c
  | 119 => recv_ag_4_1_0 ct c
  | 91 => send_ag_4_2_0 ct c
  | 121 => recv_ag_4_2_0 ct c
  | 81 => send_ag_3_0_0 ct c
  | 111 => recv_ag_3_0_0 ct c
  | 82 => send_ag_3_0_1 ct c
  | 112 => recv_ag_3_0_1 ct c
  | 83 => send_ag_3_1_0 ct c
  | 113 => recv_ag_3_1_0 ct c
  | 84 => send_ag_3_1_1 ct c
  | 114 => recv_ag_3_1_1 ct c
  | 85 => send_ag_3_2_0 ct c
  | 115 => recv_ag_3_2_0 ct c
  | 86 => send_ag_3_2_1 ct c
  | 116 => recv_ag_3_2_1 ct c
  | 75 => send_ag_2_0_0 ct c
  | 105 => recv_ag_2_0_0 ct c
  | 76 => send_ag_2_0_1 ct c
  | 106 => recv_ag_2_0_1 ct c
  | 77 => send_ag_2_1_0 ct c
  | 107 => recv_ag_2_1_0 ct c
  | 78 => send_ag_2_1_1 ct c
  | 108 => recv_ag_2_1_1 ct c
  | 79 => send_ag_2_2_0 ct c
  | 109 => recv_ag_2_2_0 ct c
  | 80 => send_ag_2_2_1 ct c
  | 110 => recv_ag_2_2_1 ct c
  | 69 => send_ag_1_0_0 ct c
  | 99 => recv_ag_1_0_0 ct c
  | 70 => send_ag_1_0_1 ct c
  | 100 => recv_ag_1_0_1 ct c
  | 71 => send_ag_1_1_0 ct c
  | 101 => recv_ag_1_1_0 ct c
  | 72 => send_ag_1_1_1 ct c
  | 102 => recv_ag_1_1_1 ct c
  | 73 => send_ag_1_2_0 ct c
  | 103 => recv_ag_1_2_0 ct c
  | 74 => send_ag_1_2_1 ct c
  | 104 => recv_ag_1_2_1 ct c
  | 63 => send_ag_0_0_0 ct c
  | 93 => recv_ag_0_0_0 ct c
  | 64 => send_ag_0_0_1 ct c
  | 94 => recv_ag_0_0_1 ct c
  | 65 => send_ag_0_1_0 ct c
  | 95 => recv_ag_0_1_0 ct c
  | 66 => send_ag_0_1_1 ct c
  | 96 => recv_ag_0_1_1 ct c
  | 67 => send_ag_0_2_0 ct c
  | 97 => recv_ag_0_2_0 ct c
  | 68 => send_ag_0_2_1 ct c
  | 98 => recv_ag_0_2_1 ct c
  | _ => iprop(emp)

/-- The units a transfer on the cell with index `n` credits. -/
def amtIx (n : ℕ) : ℕ :=
  match n with
  | 3 => (dst_rs_0_0_0 (0 : Dev nD)).view.dmaCredit
  | 33 => (dst_rs_0_0_0 (0 : Dev nD)).view.dmaCredit
  | 4 => (dst_rs_0_0_1 (0 : Dev nD)).view.dmaCredit
  | 34 => (dst_rs_0_0_1 (0 : Dev nD)).view.dmaCredit
  | 5 => (dst_rs_0_1_0 (0 : Dev nD)).view.dmaCredit
  | 35 => (dst_rs_0_1_0 (0 : Dev nD)).view.dmaCredit
  | 6 => (dst_rs_0_1_1 (0 : Dev nD)).view.dmaCredit
  | 36 => (dst_rs_0_1_1 (0 : Dev nD)).view.dmaCredit
  | 7 => (dst_rs_0_2_0 (0 : Dev nD)).view.dmaCredit
  | 37 => (dst_rs_0_2_0 (0 : Dev nD)).view.dmaCredit
  | 8 => (dst_rs_0_2_1 (0 : Dev nD)).view.dmaCredit
  | 38 => (dst_rs_0_2_1 (0 : Dev nD)).view.dmaCredit
  | 9 => (dst_rs_1_0_0 (0 : Dev nD)).view.dmaCredit
  | 39 => (dst_rs_1_0_0 (0 : Dev nD)).view.dmaCredit
  | 10 => (dst_rs_1_0_1 (0 : Dev nD)).view.dmaCredit
  | 40 => (dst_rs_1_0_1 (0 : Dev nD)).view.dmaCredit
  | 11 => (dst_rs_1_1_0 (0 : Dev nD)).view.dmaCredit
  | 41 => (dst_rs_1_1_0 (0 : Dev nD)).view.dmaCredit
  | 12 => (dst_rs_1_1_1 (0 : Dev nD)).view.dmaCredit
  | 42 => (dst_rs_1_1_1 (0 : Dev nD)).view.dmaCredit
  | 13 => (dst_rs_1_2_0 (0 : Dev nD)).view.dmaCredit
  | 43 => (dst_rs_1_2_0 (0 : Dev nD)).view.dmaCredit
  | 14 => (dst_rs_1_2_1 (0 : Dev nD)).view.dmaCredit
  | 44 => (dst_rs_1_2_1 (0 : Dev nD)).view.dmaCredit
  | 15 => (dst_rs_2_0_0 (0 : Dev nD)).view.dmaCredit
  | 45 => (dst_rs_2_0_0 (0 : Dev nD)).view.dmaCredit
  | 16 => (dst_rs_2_0_1 (0 : Dev nD)).view.dmaCredit
  | 46 => (dst_rs_2_0_1 (0 : Dev nD)).view.dmaCredit
  | 17 => (dst_rs_2_1_0 (0 : Dev nD)).view.dmaCredit
  | 47 => (dst_rs_2_1_0 (0 : Dev nD)).view.dmaCredit
  | 18 => (dst_rs_2_1_1 (0 : Dev nD)).view.dmaCredit
  | 48 => (dst_rs_2_1_1 (0 : Dev nD)).view.dmaCredit
  | 19 => (dst_rs_2_2_0 (0 : Dev nD)).view.dmaCredit
  | 49 => (dst_rs_2_2_0 (0 : Dev nD)).view.dmaCredit
  | 20 => (dst_rs_2_2_1 (0 : Dev nD)).view.dmaCredit
  | 50 => (dst_rs_2_2_1 (0 : Dev nD)).view.dmaCredit
  | 21 => (dst_rs_3_0_0 (0 : Dev nD)).view.dmaCredit
  | 51 => (dst_rs_3_0_0 (0 : Dev nD)).view.dmaCredit
  | 22 => (dst_rs_3_0_1 (0 : Dev nD)).view.dmaCredit
  | 52 => (dst_rs_3_0_1 (0 : Dev nD)).view.dmaCredit
  | 23 => (dst_rs_3_1_0 (0 : Dev nD)).view.dmaCredit
  | 53 => (dst_rs_3_1_0 (0 : Dev nD)).view.dmaCredit
  | 24 => (dst_rs_3_1_1 (0 : Dev nD)).view.dmaCredit
  | 54 => (dst_rs_3_1_1 (0 : Dev nD)).view.dmaCredit
  | 25 => (dst_rs_3_2_0 (0 : Dev nD)).view.dmaCredit
  | 55 => (dst_rs_3_2_0 (0 : Dev nD)).view.dmaCredit
  | 26 => (dst_rs_3_2_1 (0 : Dev nD)).view.dmaCredit
  | 56 => (dst_rs_3_2_1 (0 : Dev nD)).view.dmaCredit
  | 27 => (dst_rs_4_0_0 (0 : Dev nD)).view.dmaCredit
  | 57 => (dst_rs_4_0_0 (0 : Dev nD)).view.dmaCredit
  | 29 => (dst_rs_4_1_0 (0 : Dev nD)).view.dmaCredit
  | 59 => (dst_rs_4_1_0 (0 : Dev nD)).view.dmaCredit
  | 31 => (dst_rs_4_2_0 (0 : Dev nD)).view.dmaCredit
  | 61 => (dst_rs_4_2_0 (0 : Dev nD)).view.dmaCredit
  | 87 => (dst_ag_4_0_0 (0 : Dev nD)).view.dmaCredit
  | 117 => (dst_ag_4_0_0 (0 : Dev nD)).view.dmaCredit
  | 89 => (dst_ag_4_1_0 (0 : Dev nD)).view.dmaCredit
  | 119 => (dst_ag_4_1_0 (0 : Dev nD)).view.dmaCredit
  | 91 => (dst_ag_4_2_0 (0 : Dev nD)).view.dmaCredit
  | 121 => (dst_ag_4_2_0 (0 : Dev nD)).view.dmaCredit
  | 81 => (dst_ag_3_0_0 (0 : Dev nD)).view.dmaCredit
  | 111 => (dst_ag_3_0_0 (0 : Dev nD)).view.dmaCredit
  | 82 => (dst_ag_3_0_1 (0 : Dev nD)).view.dmaCredit
  | 112 => (dst_ag_3_0_1 (0 : Dev nD)).view.dmaCredit
  | 83 => (dst_ag_3_1_0 (0 : Dev nD)).view.dmaCredit
  | 113 => (dst_ag_3_1_0 (0 : Dev nD)).view.dmaCredit
  | 84 => (dst_ag_3_1_1 (0 : Dev nD)).view.dmaCredit
  | 114 => (dst_ag_3_1_1 (0 : Dev nD)).view.dmaCredit
  | 85 => (dst_ag_3_2_0 (0 : Dev nD)).view.dmaCredit
  | 115 => (dst_ag_3_2_0 (0 : Dev nD)).view.dmaCredit
  | 86 => (dst_ag_3_2_1 (0 : Dev nD)).view.dmaCredit
  | 116 => (dst_ag_3_2_1 (0 : Dev nD)).view.dmaCredit
  | 75 => (dst_ag_2_0_0 (0 : Dev nD)).view.dmaCredit
  | 105 => (dst_ag_2_0_0 (0 : Dev nD)).view.dmaCredit
  | 76 => (dst_ag_2_0_1 (0 : Dev nD)).view.dmaCredit
  | 106 => (dst_ag_2_0_1 (0 : Dev nD)).view.dmaCredit
  | 77 => (dst_ag_2_1_0 (0 : Dev nD)).view.dmaCredit
  | 107 => (dst_ag_2_1_0 (0 : Dev nD)).view.dmaCredit
  | 78 => (dst_ag_2_1_1 (0 : Dev nD)).view.dmaCredit
  | 108 => (dst_ag_2_1_1 (0 : Dev nD)).view.dmaCredit
  | 79 => (dst_ag_2_2_0 (0 : Dev nD)).view.dmaCredit
  | 109 => (dst_ag_2_2_0 (0 : Dev nD)).view.dmaCredit
  | 80 => (dst_ag_2_2_1 (0 : Dev nD)).view.dmaCredit
  | 110 => (dst_ag_2_2_1 (0 : Dev nD)).view.dmaCredit
  | 69 => (dst_ag_1_0_0 (0 : Dev nD)).view.dmaCredit
  | 99 => (dst_ag_1_0_0 (0 : Dev nD)).view.dmaCredit
  | 70 => (dst_ag_1_0_1 (0 : Dev nD)).view.dmaCredit
  | 100 => (dst_ag_1_0_1 (0 : Dev nD)).view.dmaCredit
  | 71 => (dst_ag_1_1_0 (0 : Dev nD)).view.dmaCredit
  | 101 => (dst_ag_1_1_0 (0 : Dev nD)).view.dmaCredit
  | 72 => (dst_ag_1_1_1 (0 : Dev nD)).view.dmaCredit
  | 102 => (dst_ag_1_1_1 (0 : Dev nD)).view.dmaCredit
  | 73 => (dst_ag_1_2_0 (0 : Dev nD)).view.dmaCredit
  | 103 => (dst_ag_1_2_0 (0 : Dev nD)).view.dmaCredit
  | 74 => (dst_ag_1_2_1 (0 : Dev nD)).view.dmaCredit
  | 104 => (dst_ag_1_2_1 (0 : Dev nD)).view.dmaCredit
  | 63 => (dst_ag_0_0_0 (0 : Dev nD)).view.dmaCredit
  | 93 => (dst_ag_0_0_0 (0 : Dev nD)).view.dmaCredit
  | 64 => (dst_ag_0_0_1 (0 : Dev nD)).view.dmaCredit
  | 94 => (dst_ag_0_0_1 (0 : Dev nD)).view.dmaCredit
  | 65 => (dst_ag_0_1_0 (0 : Dev nD)).view.dmaCredit
  | 95 => (dst_ag_0_1_0 (0 : Dev nD)).view.dmaCredit
  | 66 => (dst_ag_0_1_1 (0 : Dev nD)).view.dmaCredit
  | 96 => (dst_ag_0_1_1 (0 : Dev nD)).view.dmaCredit
  | 67 => (dst_ag_0_2_0 (0 : Dev nD)).view.dmaCredit
  | 97 => (dst_ag_0_2_0 (0 : Dev nD)).view.dmaCredit
  | 68 => (dst_ag_0_2_1 (0 : Dev nD)).view.dmaCredit
  | 98 => (dst_ag_0_2_1 (0 : Dev nD)).view.dmaCredit
  | _ => 1

/-- Whether the cell with index `n` carries a transfer at all. -/
def usedIx (n : ℕ) : Bool :=
  match n with
  | 3 | 33 | 4 | 34 | 5 | 35 | 6 | 36 | 7 | 37 | 8 | 38 | 9 | 39 | 10 | 40 | 11 | 41 | 12 | 42 | 13 | 43 | 14 | 44 | 15 | 45 | 16 | 46 | 17 | 47 | 18 | 48 | 19 | 49 | 20 | 50 | 21 | 51 | 22 | 52 | 23 | 53 | 24 | 54 | 25 | 55 | 26 | 56 | 27 | 57 | 29 | 59 | 31 | 61 | 87 | 117 | 89 | 119 | 91 | 121 | 81 | 111 | 82 | 112 | 83 | 113 | 84 | 114 | 85 | 115 | 86 | 116 | 75 | 105 | 76 | 106 | 77 | 107 | 78 | 108 | 79 | 109 | 80 | 110 | 69 | 99 | 70 | 100 | 71 | 101 | 72 | 102 | 73 | 103 | 74 | 104 | 63 | 93 | 64 | 94 | 65 | 95 | 66 | 96 | 67 | 97 | 68 | 98 => true
  | _ => false

end Cert.KernelIdeal.PayTab

end
-- ==== Proof.Sched.lean ====
/-
  The schedule of the exchange: which semaphore expects what, from whom, carrying what.

  Every cell has ONE round. A device's handshake cell expects five signals of one unit, one from each
  partner, each lending the landing rows that partner's buffers offer; a transfer cell expects the one
  transfer that names it, whose payload is the rows it moved (to the receiver: right under the
  contract; to the sender: its own rows back).
-/
import proofs.«900879_g7700000000000880_dist_matmul_gelu_kshard_i_m1024_n1024_k512_v7x_i32_bf16_1_alg».proof.Proof.Gen.KernelIdeal
import proofs.«900879_g7700000000000880_dist_matmul_gelu_kshard_i_m1024_n1024_k512_v7x_i32_bf16_1_alg».proof.Proof.Gen.KernelIdeal.Skeleton
import proofs.«900879_g7700000000000880_dist_matmul_gelu_kshard_i_m1024_n1024_k512_v7x_i32_bf16_1_alg».proof.Proof.Gen.KernelIdeal.Launch
import proofs.«900879_g7700000000000880_dist_matmul_gelu_kshard_i_m1024_n1024_k512_v7x_i32_bf16_1_alg».proof.Proof.Gen.KernelIdeal.Points
import proofs.«900879_g7700000000000880_dist_matmul_gelu_kshard_i_m1024_n1024_k512_v7x_i32_bf16_1_alg».proof.Proof.Gen.KernelIdeal.Frame
import Idealize.ShloMosaic.Lib.Pipeline.Launch
import Idealize.ShloMosaic.Lib.Pipeline.Kit
import Idealize.ShloMosaic.Lib.Rounds
import Idealize.ShloMosaic.Lib.Tactic
import proofs.«900879_g7700000000000880_dist_matmul_gelu_kshard_i_m1024_n1024_k512_v7x_i32_bf16_1_alg».proof.Proof.PayTab

noncomputable section

namespace Cert.KernelIdeal.Sched

open Cert.KernelIdeal Cert.KernelIdeal.Gen Cert.KernelIdeal.Proto Cert.KernelIdeal.Tab Cert.KernelIdeal.Held Cert.KernelIdeal.PayTab
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ct : Contract F)

/-- The duties of a cell: the five partners' signals on a TensorCore's handshake cell, the one transfer
    on a transfer cell in use. -/
def dutiesOf (g : GSem nD τ sig) : Finset (Fin 5) :=
  if g.1.2 = .tc then
    (match g.2 with
      | .reg s => if s = barS then Finset.univ else ∅
      | .dma q => if usedIx q.val = true then {0} else ∅)
  else ∅

def amountOfCell (g : GSem nD τ sig) : ℕ :=
  match g.2 with
  | .reg _ => 1
  | .dma q => amtIx q.val

def payloadOf (g : GSem nD τ sig) (d : Fin 5) : sProp 𝕄 :=
  match g.2 with
  | .reg _ => barPay g.1.1 d
  | .dma q => dmaPay ct g.1.1 q.val

theorem amtIx_pos (n : ℕ) : 0 < amtIx n := by
  unfold amtIx
  split <;> first | exact Nat.one_pos | exact View.dmaCredit_pos _ (by decide)

/-- One round, round 0. -/
def sched : Rounds.Schedule (GSem nD τ sig) (Fin 5) 𝕄 where
  duties g r := if r = 0 then dutiesOf g else ∅
  amount g _ _ := amountOfCell g
  payload g _ d := payloadOf ct g d
  amount_pos g _ _ _ := by
    unfold amountOfCell
    split
    · exact Nat.one_pos
    · exact amtIx_pos _

theorem duties_later (g : GSem nD τ sig) : ∀ r, 1 ≤ r → (sched ct).duties g r = ∅ :=
  fun r hr => by dsimp only [sched]; rw [if_neg (by omega)]

section Tables
variable (c : Dev nD)

theorem duties_bar : (sched ct).duties (barCell c) 0 = Finset.univ := by
  dsimp only [sched]; rw [if_pos rfl]; unfold dutiesOf; rw [if_pos rfl]; exact if_pos rfl

theorem duties_dma (a : Fin 4) (s : Fin 5) (k : Fin 3) (j : Fin 2) (h : usedIx (dsem a s k j).val = true) :
    (sched ct).duties (dcell c a s k j) 0 = {0} := by
  dsimp only [sched]; rw [if_pos rfl]; unfold dutiesOf; rw [if_pos rfl]; exact if_pos h

theorem amount_bar (d : Fin 5) : (sched ct).amount (barCell c) 0 d = 1 := rfl
theorem amount_dma (a : Fin 4) (s : Fin 5) (k : Fin 3) (j : Fin 2) (d : Fin 5) :
    (sched ct).amount (dcell c a s k j) 0 d = amtIx (dsem a s k j).val := rfl

theorem expect_bar : (sched ct).expect (barCell c) 0 = 5 := by
  unfold Schedule.expect Schedule.amountOf
  rw [duties_bar, Finset.sum_congr rfl fun d _ => amount_bar ct c d, Finset.sum_const, Finset.card_univ, Fintype.card_fin, smul_eq_mul]

theorem expect_dma (a : Fin 4) (s : Fin 5) (k : Fin 3) (j : Fin 2) (h : usedIx (dsem a s k j).val = true) :
    (sched ct).expect (dcell c a s k j) 0 = amtIx (dsem a s k j).val := by
  unfold Schedule.expect Schedule.amountOf; rw [duties_dma ct c a s k j h, Finset.sum_singleton, amount_dma]

theorem payload_bar (d : Fin 5) : (sched ct).payload (barCell c) 0 d = barPay c d := rfl
theorem payload_dma (a : Fin 4) (s : Fin 5) (k : Fin 3) (j : Fin 2) (d : Fin 5) :
    (sched ct).payload (dcell c a s k j) 0 d = dmaPay ct c (dsem a s k j).val := rfl

/-- The rest of a transfer cell's round, nothing taken: its one payload. -/
theorem rest_dma (a : Fin 4) (s : Fin 5) (k : Fin 3) (j : Fin 2) (h : usedIx (dsem a s k j).val = true) :
    bigSep ((sched ct).duties (dcell c a s k j) 0 \ ∅) (fun d => (sched ct).payload (dcell c a s k j) 0 d)
      = dmaPay ct c (dsem a s k j).val := by
  rw [Finset.sdiff_empty, duties_dma ct c a s k j h, bigSep_singleton, payload_dma]

/-- The rest of the handshake cell's round, nothing taken: the five partners' loans. -/
theorem rest_bar :
    bigSep ((sched ct).duties (barCell c) 0 \ ∅) (fun d => (sched ct).payload (barCell c) 0 d)
      = iprop(barPay (F := F) c 0 ∗ barPay c 1 ∗ barPay c 2 ∗ barPay c 3 ∗ barPay c 4) := by
  rw [Finset.sdiff_empty, duties_bar, bigSep_univ_eq_bigSepL [(0 : Fin 5), 1, 2, 3, 4] (by decide) (by decide)]
  simp only [bigSepL_cons_cons, bigSepL_singleton, payload_bar]
  rfl

end Tables

instance sched_payload_storable (g : GSem nD τ sig) (r : ℕ) (d : Fin 5) :
    BI.Storable (upEmb : UEmb _ 𝕄) ((sched ct).payload g r d) := by
  show BI.Storable upEmb (payloadOf ct g d)
  unfold payloadOf
  split
  · unfold barPay; split <;> infer_instance
  · unfold dmaPay; split <;> infer_instance

end Cert.KernelIdeal.Sched

end
-- ==== Proof.GhostTab.lean ====
import proofs.«900879_g7700000000000880_dist_matmul_gelu_kshard_i_m1024_n1024_k512_v7x_i32_bf16_1_alg».proof.Proof.Sched

noncomputable section

namespace Cert.KernelIdeal.GhostTab

open Cert.KernelIdeal Cert.KernelIdeal.Gen Cert.KernelIdeal.Proto Cert.KernelIdeal.Held Cert.KernelIdeal.PayTab
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

local notation "𝕄" => MT nD τ sig Unit (Elt F) ℕ UU ℕ

/-- The tokens of the five handshake duties device `c` pays: duty `i` of partner `i`'s cell. -/
def barToks (c : Dev nD) : sProp 𝕄 :=
  iprop(dutyTok ER (barCell (xr c (hmask 0))) 0 0 ∗ dutyTok ER (barCell (xr c (hmask 1))) 0 1 ∗ dutyTok ER (barCell (xr c (hmask 2))) 0 2 ∗ dutyTok ER (barCell (xr c (hmask 3))) 0 3 ∗ dutyTok ER (barCell (xr c (hmask 4))) 0 4)

/-- Per transfer, in program order: the token of its own send cell's duty and of its partner's receive cell's duty. -/
def xferToks (c : Dev nD) : sProp 𝕄 :=
  iprop((dutyTok ER (dcell c 0 0 0 0) 0 0 ∗ dutyTok ER (dcell (peer 0 0 c) 1 0 0 0) 0 0)
    ∗ (dutyTok ER (dcell c 0 0 0 1) 0 0 ∗ dutyTok ER (dcell (peer 0 0 c) 1 0 0 1) 0 0)
    ∗ (dutyTok ER (dcell c 0 0 1 0) 0 0 ∗ dutyTok ER (dcell (peer 1 0 c) 1 0 1 0) 0 0)
    ∗ (dutyTok ER (dcell c 0 0 1 1) 0 0 ∗ dutyTok ER (dcell (peer 1 0 c) 1 0 1 1) 0 0)
    ∗ (dutyTok ER (dcell c 0 0 2 0) 0 0 ∗ dutyTok ER (dcell (peer 2 0 c) 1 0 2 0) 0 0)
    ∗ (dutyTok ER (dcell c 0 0 2 1) 0 0 ∗ dutyTok ER (dcell (peer 2 0 c) 1 0 2 1) 0 0)
    ∗ (dutyTok ER (dcell c 0 1 0 0) 0 0 ∗ dutyTok ER (dcell (peer 0 1 c) 1 1 0 0) 0 0)
    ∗ (dutyTok ER (dcell c 0 1 0 1) 0 0 ∗ dutyTok ER (dcell (peer 0 1 c) 1 1 0 1) 0 0)
    ∗ (dutyTok ER (dcell c 0 1 1 0) 0 0 ∗ dutyTok ER (dcell (peer 1 1 c) 1 1 1 0) 0 0)
    ∗ (dutyTok ER (dcell c 0 1 1 1) 0 0 ∗ dutyTok ER (dcell (peer 1 1 c) 1 1 1 1) 0 0)
    ∗ (dutyTok ER (dcell c 0 1 2 0) 0 0 ∗ dutyTok ER (dcell (peer 2 1 c) 1 1 2 0) 0 0)
    ∗ (dutyTok ER (dcell c 0 1 2 1) 0 0 ∗ dutyTok ER (dcell (peer 2 1 c) 1 1 2 1) 0 0)
    ∗ (dutyTok ER (dcell c 0 2 0 0) 0 0 ∗ dutyTok ER (dcell (peer 0 2 c) 1 2 0 0) 0 0)
    ∗ (dutyTok ER (dcell c 0 2 0 1) 0 0 ∗ dutyTok ER (dcell (peer 0 2 c) 1 2 0 1) 0 0)
    ∗ (dutyTok ER (dcell c 0 2 1 0) 0 0 ∗ dutyTok ER (dcell (peer 1 2 c) 1 2 1 0) 0 0)
    ∗ (dutyTok ER (dcell c 0 2 1 1) 0 0 ∗ dutyTok ER (dcell (peer 1 2 c) 1 2 1 1) 0 0)
    ∗ (dutyTok ER (dcell c 0 2 2 0) 0 0 ∗ dutyTok ER (dcell (peer 2 2 c) 1 2 2 0) 0 0)
    ∗ (dutyTok ER (dcell c 0 2 2 1) 0 0 ∗ dutyTok ER (dcell (peer 2 2 c) 1 2 2 1) 0 0)
    ∗ (dutyTok ER (dcell c 0 3 0 0) 0 0 ∗ dutyTok ER (dcell (peer 0 3 c) 1 3 0 0) 0 0)
    ∗ (dutyTok ER (dcell c 0 3 0 1) 0 0 ∗ dutyTok ER (dcell (peer 0 3 c) 1 3 0 1) 0 0)
    ∗ (dutyTok ER (dcell c 0 3 1 0) 0 0 ∗ dutyTok ER (dcell (peer 1 3 c) 1 3 1 0) 0 0)
    ∗ (dutyTok ER (dcell c 0 3 1 1) 0 0 ∗ dutyTok ER (dcell (peer 1 3 c) 1 3 1 1) 0 0)
    ∗ (dutyTok ER (dcell c 0 3 2 0) 0 0 ∗ dutyTok ER (dcell (peer 2 3 c) 1 3 2 0) 0 0)
    ∗ (dutyTok ER (dcell c 0 3 2 1) 0 0 ∗ dutyTok ER (dcell (peer 2 3 c) 1 3 2 1) 0 0)
    ∗ (dutyTok ER (dcell c 0 4 0 0) 0 0 ∗ dutyTok ER (dcell (peer 0 4 c) 1 4 0 0) 0 0)
    ∗ (dutyTok ER (dcell c 0 4 1 0) 0 0 ∗ dutyTok ER (dcell (peer 1 4 c) 1 4 1 0) 0 0)
    ∗ (dutyTok ER (dcell c 0 4 2 0) 0 0 ∗ dutyTok ER (dcell (peer 2 4 c) 1 4 2 0) 0 0)
    ∗ (dutyTok ER (dcell c 2 4 0 0) 0 0 ∗ dutyTok ER (dcell (peer 0 4 c) 3 4 0 0) 0 0)
    ∗ (dutyTok ER (dcell c 2 4 1 0) 0 0 ∗ dutyTok ER (dcell (peer 1 4 c) 3 4 1 0) 0 0)
    ∗ (dutyTok ER (dcell c 2 4 2 0) 0 0 ∗ dutyTok ER (dcell (peer 2 4 c) 3 4 2 0) 0 0)
    ∗ (dutyTok ER (dcell c 2 3 0 0) 0 0 ∗ dutyTok ER (dcell (peer 0 3 c) 3 3 0 0) 0 0)
    ∗ (dutyTok ER (dcell c 2 3 0 1) 0 0 ∗ dutyTok ER (dcell (peer 0 3 c) 3 3 0 1) 0 0)
    ∗ (dutyTok ER (dcell c 2 3 1 0) 0 0 ∗ dutyTok ER (dcell (peer 1 3 c) 3 3 1 0) 0 0)
    ∗ (dutyTok ER (dcell c 2 3 1 1) 0 0 ∗ dutyTok ER (dcell (peer 1 3 c) 3 3 1 1) 0 0)
    ∗ (dutyTok ER (dcell c 2 3 2 0) 0 0 ∗ dutyTok ER (dcell (peer 2 3 c) 3 3 2 0) 0 0)
    ∗ (dutyTok ER (dcell c 2 3 2 1) 0 0 ∗ dutyTok ER (dcell (peer 2 3 c) 3 3 2 1) 0 0)
    ∗ (dutyTok ER (dcell c 2 2 0 0) 0 0 ∗ dutyTok ER (dcell (peer 0 2 c) 3 2 0 0) 0 0)
    ∗ (dutyTok ER (dcell c 2 2 0 1) 0 0 ∗ dutyTok ER (dcell (peer 0 2 c) 3 2 0 1) 0 0)
    ∗ (dutyTok ER (dcell c 2 2 1 0) 0 0 ∗ dutyTok ER (dcell (peer 1 2 c) 3 2 1 0) 0 0)
    ∗ (dutyTok ER (dcell c 2 2 1 1) 0 0 ∗ dutyTok ER (dcell (peer 1 2 c) 3 2 1 1) 0 0)
    ∗ (dutyTok ER (dcell c 2 2 2 0) 0 0 ∗ dutyTok ER (dcell (peer 2 2 c) 3 2 2 0) 0 0)
    ∗ (dutyTok ER (dcell c 2 2 2 1) 0 0 ∗ dutyTok ER (dcell (peer 2 2 c) 3 2 2 1) 0 0)
    ∗ (dutyTok ER (dcell c 2 1 0 0) 0 0 ∗ dutyTok ER (dcell (peer 0 1 c) 3 1 0 0) 0 0)
    ∗ (dutyTok ER (dcell c 2 1 0 1) 0 0 ∗ dutyTok ER (dcell (peer 0 1 c) 3 1 0 1) 0 0)
    ∗ (dutyTok ER (dcell c 2 1 1 0) 0 0 ∗ dutyTok ER (dcell (peer 1 1 c) 3 1 1 0) 0 0)
    ∗ (dutyTok ER (dcell c 2 1 1 1) 0 0 ∗ dutyTok ER (dcell (peer 1 1 c) 3 1 1 1) 0 0)
    ∗ (dutyTok ER (dcell c 2 1 2 0) 0 0 ∗ dutyTok ER (dcell (peer 2 1 c) 3 1 2 0) 0 0)
    ∗ (dutyTok ER (dcell c 2 1 2 1) 0 0 ∗ dutyTok ER (dcell (peer 2 1 c) 3 1 2 1) 0 0)
    ∗ (dutyTok ER (dcell c 2 0 0 0) 0 0 ∗ dutyTok ER (dcell (peer 0 0 c) 3 0 0 0) 0 0)
    ∗ (dutyTok ER (dcell c 2 0 0 1) 0 0 ∗ dutyTok ER (dcell (peer 0 0 c) 3 0 0 1) 0 0)
    ∗ (dutyTok ER (dcell c 2 0 1 0) 0 0 ∗ dutyTok ER (dcell (peer 1 0 c) 3 0 1 0) 0 0)
    ∗ (dutyTok ER (dcell c 2 0 1 1) 0 0 ∗ dutyTok ER (dcell (peer 1 0 c) 3 0 1 1) 0 0)
    ∗ (dutyTok ER (dcell c 2 0 2 0) 0 0 ∗ dutyTok ER (dcell (peer 2 0 c) 3 0 2 0) 0 0)
    ∗ (dutyTok ER (dcell c 2 0 2 1) 0 0 ∗ dutyTok ER (dcell (peer 2 0 c) 3 0 2 1) 0 0))

/-- Its positions: on its handshake cell and, per transfer, on its own send and receive cells. -/
def positions (c : Dev nD) : sProp 𝕄 :=
  iprop(atPos ER (barCell c) 0 ∅ 0
    ∗ (atPos ER (dcell c 0 0 0 0) 0 ∅ 0 ∗ atPos ER (dcell c 1 0 0 0) 0 ∅ 0)
    ∗ (atPos ER (dcell c 0 0 0 1) 0 ∅ 0 ∗ atPos ER (dcell c 1 0 0 1) 0 ∅ 0)
    ∗ (atPos ER (dcell c 0 0 1 0) 0 ∅ 0 ∗ atPos ER (dcell c 1 0 1 0) 0 ∅ 0)
    ∗ (atPos ER (dcell c 0 0 1 1) 0 ∅ 0 ∗ atPos ER (dcell c 1 0 1 1) 0 ∅ 0)
    ∗ (atPos ER (dcell c 0 0 2 0) 0 ∅ 0 ∗ atPos ER (dcell c 1 0 2 0) 0 ∅ 0)
    ∗ (atPos ER (dcell c 0 0 2 1) 0 ∅ 0 ∗ atPos ER (dcell c 1 0 2 1) 0 ∅ 0)
    ∗ (atPos ER (dcell c 0 1 0 0) 0 ∅ 0 ∗ atPos ER (dcell c 1 1 0 0) 0 ∅ 0)
    ∗ (atPos ER (dcell c 0 1 0 1) 0 ∅ 0 ∗ atPos ER (dcell c 1 1 0 1) 0 ∅ 0)
    ∗ (atPos ER (dcell c 0 1 1 0) 0 ∅ 0 ∗ atPos ER (dcell c 1 1 1 0) 0 ∅ 0)
    ∗ (atPos ER (dcell c 0 1 1 1) 0 ∅ 0 ∗ atPos ER (dcell c 1 1 1 1) 0 ∅ 0)
    ∗ (atPos ER (dcell c 0 1 2 0) 0 ∅ 0 ∗ atPos ER (dcell c 1 1 2 0) 0 ∅ 0)
    ∗ (atPos ER (dcell c 0 1 2 1) 0 ∅ 0 ∗ atPos ER (dcell c 1 1 2 1) 0 ∅ 0)
    ∗ (atPos ER (dcell c 0 2 0 0) 0 ∅ 0 ∗ atPos ER (dcell c 1 2 0 0) 0 ∅ 0)
    ∗ (atPos ER (dcell c 0 2 0 1) 0 ∅ 0 ∗ atPos ER (dcell c 1 2 0 1) 0 ∅ 0)
    ∗ (atPos ER (dcell c 0 2 1 0) 0 ∅ 0 ∗ atPos ER (dcell c 1 2 1 0) 0 ∅ 0)
    ∗ (atPos ER (dcell c 0 2 1 1) 0 ∅ 0 ∗ atPos ER (dcell c 1 2 1 1) 0 ∅ 0)
    ∗ (atPos ER (dcell c 0 2 2 0) 0 ∅ 0 ∗ atPos ER (dcell c 1 2 2 0) 0 ∅ 0)
    ∗ (atPos ER (dcell c 0 2 2 1) 0 ∅ 0 ∗ atPos ER (dcell c 1 2 2 1) 0 ∅ 0)
    ∗ (atPos ER (dcell c 0 3 0 0) 0 ∅ 0 ∗ atPos ER (dcell c 1 3 0 0) 0 ∅ 0)
    ∗ (atPos ER (dcell c 0 3 0 1) 0 ∅ 0 ∗ atPos ER (dcell c 1 3 0 1) 0 ∅ 0)
    ∗ (atPos ER (dcell c 0 3 1 0) 0 ∅ 0 ∗ atPos ER (dcell c 1 3 1 0) 0 ∅ 0)
    ∗ (atPos ER (dcell c 0 3 1 1) 0 ∅ 0 ∗ atPos ER (dcell c 1 3 1 1) 0 ∅ 0)
    ∗ (atPos ER (dcell c 0 3 2 0) 0 ∅ 0 ∗ atPos ER (dcell c 1 3 2 0) 0 ∅ 0)
    ∗ (atPos ER (dcell c 0 3 2 1) 0 ∅ 0 ∗ atPos ER (dcell c 1 3 2 1) 0 ∅ 0)
    ∗ (atPos ER (dcell c 0 4 0 0) 0 ∅ 0 ∗ atPos ER (dcell c 1 4 0 0) 0 ∅ 0)
    ∗ (atPos ER (dcell c 0 4 1 0) 0 ∅ 0 ∗ atPos ER (dcell c 1 4 1 0) 0 ∅ 0)
    ∗ (atPos ER (dcell c 0 4 2 0) 0 ∅ 0 ∗ atPos ER (dcell c 1 4 2 0) 0 ∅ 0)
    ∗ (atPos ER (dcell c 2 4 0 0) 0 ∅ 0 ∗ atPos ER (dcell c 3 4 0 0) 0 ∅ 0)
    ∗ (atPos ER (dcell c 2 4 1 0) 0 ∅ 0 ∗ atPos ER (dcell c 3 4 1 0) 0 ∅ 0)
    ∗ (atPos ER (dcell c 2 4 2 0) 0 ∅ 0 ∗ atPos ER (dcell c 3 4 2 0) 0 ∅ 0)
    ∗ (atPos ER (dcell c 2 3 0 0) 0 ∅ 0 ∗ atPos ER (dcell c 3 3 0 0) 0 ∅ 0)
    ∗ (atPos ER (dcell c 2 3 0 1) 0 ∅ 0 ∗ atPos ER (dcell c 3 3 0 1) 0 ∅ 0)
    ∗ (atPos ER (dcell c 2 3 1 0) 0 ∅ 0 ∗ atPos ER (dcell c 3 3 1 0) 0 ∅ 0)
    ∗ (atPos ER (dcell c 2 3 1 1) 0 ∅ 0 ∗ atPos ER (dcell c 3 3 1 1) 0 ∅ 0)
    ∗ (atPos ER (dcell c 2 3 2 0) 0 ∅ 0 ∗ atPos ER (dcell c 3 3 2 0) 0 ∅ 0)
    ∗ (atPos ER (dcell c 2 3 2 1) 0 ∅ 0 ∗ atPos ER (dcell c 3 3 2 1) 0 ∅ 0)
    ∗ (atPos ER (dcell c 2 2 0 0) 0 ∅ 0 ∗ atPos ER (dcell c 3 2 0 0) 0 ∅ 0)
    ∗ (atPos ER (dcell c 2 2 0 1) 0 ∅ 0 ∗ atPos ER (dcell c 3 2 0 1) 0 ∅ 0)
    ∗ (atPos ER (dcell c 2 2 1 0) 0 ∅ 0 ∗ atPos ER (dcell c 3 2 1 0) 0 ∅ 0)
    ∗ (atPos ER (dcell c 2 2 1 1) 0 ∅ 0 ∗ atPos ER (dcell c 3 2 1 1) 0 ∅ 0)
    ∗ (atPos ER (dcell c 2 2 2 0) 0 ∅ 0 ∗ atPos ER (dcell c 3 2 2 0) 0 ∅ 0)
    ∗ (atPos ER (dcell c 2 2 2 1) 0 ∅ 0 ∗ atPos ER (dcell c 3 2 2 1) 0 ∅ 0)
    ∗ (atPos ER (dcell c 2 1 0 0) 0 ∅ 0 ∗ atPos ER (dcell c 3 1 0 0) 0 ∅ 0)
    ∗ (atPos ER (dcell c 2 1 0 1) 0 ∅ 0 ∗ atPos ER (dcell c 3 1 0 1) 0 ∅ 0)
    ∗ (atPos ER (dcell c 2 1 1 0) 0 ∅ 0 ∗ atPos ER (dcell c 3 1 1 0) 0 ∅ 0)
    ∗ (atPos ER (dcell c 2 1 1 1) 0 ∅ 0 ∗ atPos ER (dcell c 3 1 1 1) 0 ∅ 0)
    ∗ (atPos ER (dcell c 2 1 2 0) 0 ∅ 0 ∗ atPos ER (dcell c 3 1 2 0) 0 ∅ 0)
    ∗ (atPos ER (dcell c 2 1 2 1) 0 ∅ 0 ∗ atPos ER (dcell c 3 1 2 1) 0 ∅ 0)
    ∗ (atPos ER (dcell c 2 0 0 0) 0 ∅ 0 ∗ atPos ER (dcell c 3 0 0 0) 0 ∅ 0)
    ∗ (atPos ER (dcell c 2 0 0 1) 0 ∅ 0 ∗ atPos ER (dcell c 3 0 0 1) 0 ∅ 0)
    ∗ (atPos ER (dcell c 2 0 1 0) 0 ∅ 0 ∗ atPos ER (dcell c 3 0 1 0) 0 ∅ 0)
    ∗ (atPos ER (dcell c 2 0 1 1) 0 ∅ 0 ∗ atPos ER (dcell c 3 0 1 1) 0 ∅ 0)
    ∗ (atPos ER (dcell c 2 0 2 0) 0 ∅ 0 ∗ atPos ER (dcell c 3 0 2 0) 0 ∅ 0)
    ∗ (atPos ER (dcell c 2 0 2 1) 0 ∅ 0 ∗ atPos ER (dcell c 3 0 2 1) 0 ∅ 0))

/-- The credit dealt at launch: five units on its handshake cell, a transfer's units on each receive cell. -/
def credits (c : Dev nD) : sProp 𝕄 :=
  iprop(cred (tallyAt (barCell c) () 5)
    ∗ cred (tallyAt (dcell c 1 0 0 0) () (amtIx (dsem 1 0 0 0).val))
    ∗ cred (tallyAt (dcell c 1 0 0 1) () (amtIx (dsem 1 0 0 1).val))
    ∗ cred (tallyAt (dcell c 1 0 1 0) () (amtIx (dsem 1 0 1 0).val))
    ∗ cred (tallyAt (dcell c 1 0 1 1) () (amtIx (dsem 1 0 1 1).val))
    ∗ cred (tallyAt (dcell c 1 0 2 0) () (amtIx (dsem 1 0 2 0).val))
    ∗ cred (tallyAt (dcell c 1 0 2 1) () (amtIx (dsem 1 0 2 1).val))
    ∗ cred (tallyAt (dcell c 1 1 0 0) () (amtIx (dsem 1 1 0 0).val))
    ∗ cred (tallyAt (dcell c 1 1 0 1) () (amtIx (dsem 1 1 0 1).val))
    ∗ cred (tallyAt (dcell c 1 1 1 0) () (amtIx (dsem 1 1 1 0).val))
    ∗ cred (tallyAt (dcell c 1 1 1 1) () (amtIx (dsem 1 1 1 1).val))
    ∗ cred (tallyAt (dcell c 1 1 2 0) () (amtIx (dsem 1 1 2 0).val))
    ∗ cred (tallyAt (dcell c 1 1 2 1) () (amtIx (dsem 1 1 2 1).val))
    ∗ cred (tallyAt (dcell c 1 2 0 0) () (amtIx (dsem 1 2 0 0).val))
    ∗ cred (tallyAt (dcell c 1 2 0 1) () (amtIx (dsem 1 2 0 1).val))
    ∗ cred (tallyAt (dcell c 1 2 1 0) () (amtIx (dsem 1 2 1 0).val))
    ∗ cred (tallyAt (dcell c 1 2 1 1) () (amtIx (dsem 1 2 1 1).val))
    ∗ cred (tallyAt (dcell c 1 2 2 0) () (amtIx (dsem 1 2 2 0).val))
    ∗ cred (tallyAt (dcell c 1 2 2 1) () (amtIx (dsem 1 2 2 1).val))
    ∗ cred (tallyAt (dcell c 1 3 0 0) () (amtIx (dsem 1 3 0 0).val))
    ∗ cred (tallyAt (dcell c 1 3 0 1) () (amtIx (dsem 1 3 0 1).val))
    ∗ cred (tallyAt (dcell c 1 3 1 0) () (amtIx (dsem 1 3 1 0).val))
    ∗ cred (tallyAt (dcell c 1 3 1 1) () (amtIx (dsem 1 3 1 1).val))
    ∗ cred (tallyAt (dcell c 1 3 2 0) () (amtIx (dsem 1 3 2 0).val))
    ∗ cred (tallyAt (dcell c 1 3 2 1) () (amtIx (dsem 1 3 2 1).val))
    ∗ cred (tallyAt (dcell c 1 4 0 0) () (amtIx (dsem 1 4 0 0).val))
    ∗ cred (tallyAt (dcell c 1 4 1 0) () (amtIx (dsem 1 4 1 0).val))
    ∗ cred (tallyAt (dcell c 1 4 2 0) () (amtIx (dsem 1 4 2 0).val))
    ∗ cred (tallyAt (dcell c 3 4 0 0) () (amtIx (dsem 3 4 0 0).val))
    ∗ cred (tallyAt (dcell c 3 4 1 0) () (amtIx (dsem 3 4 1 0).val))
    ∗ cred (tallyAt (dcell c 3 4 2 0) () (amtIx (dsem 3 4 2 0).val))
    ∗ cred (tallyAt (dcell c 3 3 0 0) () (amtIx (dsem 3 3 0 0).val))
    ∗ cred (tallyAt (dcell c 3 3 0 1) () (amtIx (dsem 3 3 0 1).val))
    ∗ cred (tallyAt (dcell c 3 3 1 0) () (amtIx (dsem 3 3 1 0).val))
    ∗ cred (tallyAt (dcell c 3 3 1 1) () (amtIx (dsem 3 3 1 1).val))
    ∗ cred (tallyAt (dcell c 3 3 2 0) () (amtIx (dsem 3 3 2 0).val))
    ∗ cred (tallyAt (dcell c 3 3 2 1) () (amtIx (dsem 3 3 2 1).val))
    ∗ cred (tallyAt (dcell c 3 2 0 0) () (amtIx (dsem 3 2 0 0).val))
    ∗ cred (tallyAt (dcell c 3 2 0 1) () (amtIx (dsem 3 2 0 1).val))
    ∗ cred (tallyAt (dcell c 3 2 1 0) () (amtIx (dsem 3 2 1 0).val))
    ∗ cred (tallyAt (dcell c 3 2 1 1) () (amtIx (dsem 3 2 1 1).val))
    ∗ cred (tallyAt (dcell c 3 2 2 0) () (amtIx (dsem 3 2 2 0).val))
    ∗ cred (tallyAt (dcell c 3 2 2 1) () (amtIx (dsem 3 2 2 1).val))
    ∗ cred (tallyAt (dcell c 3 1 0 0) () (amtIx (dsem 3 1 0 0).val))
    ∗ cred (tallyAt (dcell c 3 1 0 1) () (amtIx (dsem 3 1 0 1).val))
    ∗ cred (tallyAt (dcell c 3 1 1 0) () (amtIx (dsem 3 1 1 0).val))
    ∗ cred (tallyAt (dcell c 3 1 1 1) () (amtIx (dsem 3 1 1 1).val))
    ∗ cred (tallyAt (dcell c 3 1 2 0) () (amtIx (dsem 3 1 2 0).val))
    ∗ cred (tallyAt (dcell c 3 1 2 1) () (amtIx (dsem 3 1 2 1).val))
    ∗ cred (tallyAt (dcell c 3 0 0 0) () (amtIx (dsem 3 0 0 0).val))
    ∗ cred (tallyAt (dcell c 3 0 0 1) () (amtIx (dsem 3 0 0 1).val))
    ∗ cred (tallyAt (dcell c 3 0 1 0) () (amtIx (dsem 3 0 1 0).val))
    ∗ cred (tallyAt (dcell c 3 0 1 1) () (amtIx (dsem 3 0 1 1).val))
    ∗ cred (tallyAt (dcell c 3 0 2 0) () (amtIx (dsem 3 0 2 0).val))
    ∗ cred (tallyAt (dcell c 3 0 2 1) () (amtIx (dsem 3 0 2 1).val)))

/-- The twelve transfer semaphores no transfer uses (the last stage has one piece), at zero throughout. -/
def idle (c : Dev nD) : sProp 𝕄 :=
  iprop(semVal (dcell c 0 4 0 1) 0 ∗ semVal (dcell c 0 4 1 1) 0 ∗ semVal (dcell c 0 4 2 1) 0 ∗ semVal (dcell c 1 4 0 1) 0 ∗ semVal (dcell c 1 4 1 1) 0 ∗ semVal (dcell c 1 4 2 1) 0 ∗ semVal (dcell c 2 4 0 1) 0 ∗ semVal (dcell c 2 4 1 1) 0 ∗ semVal (dcell c 2 4 2 1) 0 ∗ semVal (dcell c 3 4 0 1) 0 ∗ semVal (dcell c 3 4 1 1) 0 ∗ semVal (dcell c 3 4 2 1) 0)

end Cert.KernelIdeal.GhostTab

end
-- ==== Proof.Owed.lean ====
/-
  What each device owes, payment by payment.

  A device pays fifty-nine times, in program order: five handshake signals of one unit, one to each
  partner's handshake cell; then the fifty-four transfers, each crediting the receive cell of the
  partner it is addressed to with the units of the block it moves — the summing phase stage by stage,
  then the gathering phase in the reverse order of stages. `owedFrom c n` is what device `c` still owes
  after its first `n` payments.

  Levels. The handshake cells sit at level 1, the summing phase's cells of stage `s` at `2 + s`, the
  gathering phase's cells of stage `s` at `11 - s`, the staging cells at 0: the levels of the payments
  never decrease along the program, so a device that waits on a cell of its own strictly below the
  next payment's level waits below everything it still owes.

  Launch credit. Every payment is addressed to the device whose index differs from the payer's by a
  fixed bit pattern, so summed over the payers each cell receives one payment per entry of the table
  that names its semaphore: five units on a handshake cell, the block's units on a receive cell in use,
  nothing anywhere else.
-/
import proofs.«900879_g7700000000000880_dist_matmul_gelu_kshard_i_m1024_n1024_k512_v7x_i32_bf16_1_alg».proof.Proof.Sched

noncomputable section

namespace Cert.KernelIdeal.Owed

open Cert.KernelIdeal Cert.KernelIdeal.Gen Cert.KernelIdeal.Proto Cert.KernelIdeal.PayTab
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The payments -/

/-- The fifty-nine payments of device `c`, in program order: the cell credited and the units. -/
def pays (c : Dev nD) : List (GSem nD τ sig × ℕ) :=
  [ (barCell (xr c (hmask 0)), 1),
    (barCell (xr c (hmask 1)), 1),
    (barCell (xr c (hmask 2)), 1),
    (barCell (xr c (hmask 3)), 1),
    (barCell (xr c (hmask 4)), 1),
    (dcell (peer 0 0 c) 1 0 0 0, amtIx (dsem 1 0 0 0).val),
    (dcell (peer 0 0 c) 1 0 0 1, amtIx (dsem 1 0 0 1).val),
    (dcell (peer 1 0 c) 1 0 1 0, amtIx (dsem 1 0 1 0).val),
    (dcell (peer 1 0 c) 1 0 1 1, amtIx (dsem 1 0 1 1).val),
    (dcell (peer 2 0 c) 1 0 2 0, amtIx (dsem 1 0 2 0).val),
    (dcell (peer 2 0 c) 1 0 2 1, amtIx (dsem 1 0 2 1).val),
    (dcell (peer 0 1 c) 1 1 0 0, amtIx (dsem 1 1 0 0).val),
    (dcell (peer 0 1 c) 1 1 0 1, amtIx (dsem 1 1 0 1).val),
    (dcell (peer 1 1 c) 1 1 1 0, amtIx (dsem 1 1 1 0).val),
    (dcell (peer 1 1 c) 1 1 1 1, amtIx (dsem 1 1 1 1).val),
    (dcell (peer 2 1 c) 1 1 2 0, amtIx (dsem 1 1 2 0).val),
    (dcell (peer 2 1 c) 1 1 2 1, amtIx (dsem 1 1 2 1).val),
    (dcell (peer 0 2 c) 1 2 0 0, amtIx (dsem 1 2 0 0).val),
    (dcell (peer 0 2 c) 1 2 0 1, amtIx (dsem 1 2 0 1).val),
    (dcell (peer 1 2 c) 1 2 1 0, amtIx (dsem 1 2 1 0).val),
    (dcell (peer 1 2 c) 1 2 1 1, amtIx (dsem 1 2 1 1).val),
    (dcell (peer 2 2 c) 1 2 2 0, amtIx (dsem 1 2 2 0).val),
    (dcell (peer 2 2 c) 1 2 2 1, amtIx (dsem 1 2 2 1).val),
    (dcell (peer 0 3 c) 1 3 0 0, amtIx (dsem 1 3 0 0).val),
    (dcell (peer 0 3 c) 1 3 0 1, amtIx (dsem 1 3 0 1).val),
    (dcell (peer 1 3 c) 1 3 1 0, amtIx (dsem 1 3 1 0).val),
    (dcell (peer 1 3 c) 1 3 1 1, amtIx (dsem 1 3 1 1).val),
    (dcell (peer 2 3 c) 1 3 2 0, amtIx (dsem 1 3 2 0).val),
    (dcell (peer 2 3 c) 1 3 2 1, amtIx (dsem 1 3 2 1).val),
    (dcell (peer 0 4 c) 1 4 0 0, amtIx (dsem 1 4 0 0).val),
    (dcell (peer 1 4 c) 1 4 1 0, amtIx (dsem 1 4 1 0).val),
    (dcell (peer 2 4 c) 1 4 2 0, amtIx (dsem 1 4 2 0).val),
    (dcell (peer 0 4 c) 3 4 0 0, amtIx (dsem 3 4 0 0).val),
    (dcell (peer 1 4 c) 3 4 1 0, amtIx (dsem 3 4 1 0).val),
    (dcell (peer 2 4 c) 3 4 2 0, amtIx (dsem 3 4 2 0).val),
    (dcell (peer 0 3 c) 3 3 0 0, amtIx (dsem 3 3 0 0).val),
    (dcell (peer 0 3 c) 3 3 0 1, amtIx (dsem 3 3 0 1).val),
    (dcell (peer 1 3 c) 3 3 1 0, amtIx (dsem 3 3 1 0).val),
    (dcell (peer 1 3 c) 3 3 1 1, amtIx (dsem 3 3 1 1).val),
    (dcell (peer 2 3 c) 3 3 2 0, amtIx (dsem 3 3 2 0).val),
    (dcell (peer 2 3 c) 3 3 2 1, amtIx (dsem 3 3 2 1).val),
    (dcell (peer 0 2 c) 3 2 0 0, amtIx (dsem 3 2 0 0).val),
    (dcell (peer 0 2 c) 3 2 0 1, amtIx (dsem 3 2 0 1).val),
    (dcell (peer 1 2 c) 3 2 1 0, amtIx (dsem 3 2 1 0).val),
    (dcell (peer 1 2 c) 3 2 1 1, amtIx (dsem 3 2 1 1).val),
    (dcell (peer 2 2 c) 3 2 2 0, amtIx (dsem 3 2 2 0).val),
    (dcell (peer 2 2 c) 3 2 2 1, amtIx (dsem 3 2 2 1).val),
    (dcell (peer 0 1 c) 3 1 0 0, amtIx (dsem 3 1 0 0).val),
    (dcell (peer 0 1 c) 3 1 0 1, amtIx (dsem 3 1 0 1).val),
    (dcell (peer 1 1 c) 3 1 1 0, amtIx (dsem 3 1 1 0).val),
    (dcell (peer 1 1 c) 3 1 1 1, amtIx (dsem 3 1 1 1).val),
    (dcell (peer 2 1 c) 3 1 2 0, amtIx (dsem 3 1 2 0).val),
    (dcell (peer 2 1 c) 3 1 2 1, amtIx (dsem 3 1 2 1).val),
    (dcell (peer 0 0 c) 3 0 0 0, amtIx (dsem 3 0 0 0).val),
    (dcell (peer 0 0 c) 3 0 0 1, amtIx (dsem 3 0 0 1).val),
    (dcell (peer 1 0 c) 3 0 1 0, amtIx (dsem 3 0 1 0).val),
    (dcell (peer 1 0 c) 3 0 1 1, amtIx (dsem 3 0 1 1).val),
    (dcell (peer 2 0 c) 3 0 2 0, amtIx (dsem 3 0 2 0).val),
    (dcell (peer 2 0 c) 3 0 2 1, amtIx (dsem 3 0 2 1).val) ]

/-- The tallies a list of payments adds up to. -/
def tallyOf (l : List (GSem nD τ sig × ℕ)) : CellTallies nD τ sig Unit :=
  l.foldr (fun p acc => acc + tallyAt p.1 () p.2) 0

/-- What device `c` still owes after its first `n` payments. -/
def owedFrom (c : Dev nD) (n : ℕ) : CellTallies nD τ sig Unit :=
  ((pays c).drop n).foldr (fun p acc => acc + tallyAt p.1 () p.2) 0

theorem owedFrom_eq (c : Dev nD) (n : ℕ) : owedFrom c n = tallyOf ((pays c).drop n) := rfl

theorem pays_length (c : Dev nD) : (pays c).length = 59 := rfl

/-- After the last payment nothing is owed. -/
theorem owedFrom_59 (c : Dev nD) : owedFrom c 59 = 0 := rfl

/-! ### One payment at a time -/

theorem owed_step_0 (c : Dev nD) : owedFrom c 0 = owedFrom c 1 + tallyAt (barCell (xr c (hmask 0))) () (1) := rfl
theorem owed_step_1 (c : Dev nD) : owedFrom c 1 = owedFrom c 2 + tallyAt (barCell (xr c (hmask 1))) () (1) := rfl
theorem owed_step_2 (c : Dev nD) : owedFrom c 2 = owedFrom c 3 + tallyAt (barCell (xr c (hmask 2))) () (1) := rfl
theorem owed_step_3 (c : Dev nD) : owedFrom c 3 = owedFrom c 4 + tallyAt (barCell (xr c (hmask 3))) () (1) := rfl
theorem owed_step_4 (c : Dev nD) : owedFrom c 4 = owedFrom c 5 + tallyAt (barCell (xr c (hmask 4))) () (1) := rfl
theorem owed_step_5 (c : Dev nD) : owedFrom c 5 = owedFrom c 6 + tallyAt (dcell (peer 0 0 c) 1 0 0 0) () (amtIx (dsem 1 0 0 0).val) := rfl
theorem owed_step_6 (c : Dev nD) : owedFrom c 6 = owedFrom c 7 + tallyAt (dcell (peer 0 0 c) 1 0 0 1) () (amtIx (dsem 1 0 0 1).val) := rfl
theorem owed_step_7 (c : Dev nD) : owedFrom c 7 = owedFrom c 8 + tallyAt (dcell (peer 1 0 c) 1 0 1 0) () (amtIx (dsem 1 0 1 0).val) := rfl
theorem owed_step_8 (c : Dev nD) : owedFrom c 8 = owedFrom c 9 + tallyAt (dcell (peer 1 0 c) 1 0 1 1) () (amtIx (dsem 1 0 1 1).val) := rfl
theorem owed_step_9 (c : Dev nD) : owedFrom c 9 = owedFrom c 10 + tallyAt (dcell (peer 2 0 c) 1 0 2 0) () (amtIx (dsem 1 0 2 0).val) := rfl
theorem owed_step_10 (c : Dev nD) : owedFrom c 10 = owedFrom c 11 + tallyAt (dcell (peer 2 0 c) 1 0 2 1) () (amtIx (dsem 1 0 2 1).val) := rfl
theorem owed_step_11 (c : Dev nD) : owedFrom c 11 = owedFrom c 12 + tallyAt (dcell (peer 0 1 c) 1 1 0 0) () (amtIx (dsem 1 1 0 0).val) := rfl
theorem owed_step_12 (c : Dev nD) : owedFrom c 12 = owedFrom c 13 + tallyAt (dcell (peer 0 1 c) 1 1 0 1) () (amtIx (dsem 1 1 0 1).val) := rfl
theorem owed_step_13 (c : Dev nD) : owedFrom c 13 = owedFrom c 14 + tallyAt (dcell (peer 1 1 c) 1 1 1 0) () (amtIx (dsem 1 1 1 0).val) := rfl
theorem owed_step_14 (c : Dev nD) : owedFrom c 14 = owedFrom c 15 + tallyAt (dcell (peer 1 1 c) 1 1 1 1) () (amtIx (dsem 1 1 1 1).val) := rfl
theorem owed_step_15 (c : Dev nD) : owedFrom c 15 = owedFrom c 16 + tallyAt (dcell (peer 2 1 c) 1 1 2 0) () (amtIx (dsem 1 1 2 0).val) := rfl
theorem owed_step_16 (c : Dev nD) : owedFrom c 16 = owedFrom c 17 + tallyAt (dcell (peer 2 1 c) 1 1 2 1) () (amtIx (dsem 1 1 2 1).val) := rfl
theorem owed_step_17 (c : Dev nD) : owedFrom c 17 = owedFrom c 18 + tallyAt (dcell (peer 0 2 c) 1 2 0 0) () (amtIx (dsem 1 2 0 0).val) := rfl
theorem owed_step_18 (c : Dev nD) : owedFrom c 18 = owedFrom c 19 + tallyAt (dcell (peer 0 2 c) 1 2 0 1) () (amtIx (dsem 1 2 0 1).val) := rfl
theorem owed_step_19 (c : Dev nD) : owedFrom c 19 = owedFrom c 20 + tallyAt (dcell (peer 1 2 c) 1 2 1 0) () (amtIx (dsem 1 2 1 0).val) := rfl
theorem owed_step_20 (c : Dev nD) : owedFrom c 20 = owedFrom c 21 + tallyAt (dcell (peer 1 2 c) 1 2 1 1) () (amtIx (dsem 1 2 1 1).val) := rfl
theorem owed_step_21 (c : Dev nD) : owedFrom c 21 = owedFrom c 22 + tallyAt (dcell (peer 2 2 c) 1 2 2 0) () (amtIx (dsem 1 2 2 0).val) := rfl
theorem owed_step_22 (c : Dev nD) : owedFrom c 22 = owedFrom c 23 + tallyAt (dcell (peer 2 2 c) 1 2 2 1) () (amtIx (dsem 1 2 2 1).val) := rfl
theorem owed_step_23 (c : Dev nD) : owedFrom c 23 = owedFrom c 24 + tallyAt (dcell (peer 0 3 c) 1 3 0 0) () (amtIx (dsem 1 3 0 0).val) := rfl
theorem owed_step_24 (c : Dev nD) : owedFrom c 24 = owedFrom c 25 + tallyAt (dcell (peer 0 3 c) 1 3 0 1) () (amtIx (dsem 1 3 0 1).val) := rfl
theorem owed_step_25 (c : Dev nD) : owedFrom c 25 = owedFrom c 26 + tallyAt (dcell (peer 1 3 c) 1 3 1 0) () (amtIx (dsem 1 3 1 0).val) := rfl
theorem owed_step_26 (c : Dev nD) : owedFrom c 26 = owedFrom c 27 + tallyAt (dcell (peer 1 3 c) 1 3 1 1) () (amtIx (dsem 1 3 1 1).val) := rfl
theorem owed_step_27 (c : Dev nD) : owedFrom c 27 = owedFrom c 28 + tallyAt (dcell (peer 2 3 c) 1 3 2 0) () (amtIx (dsem 1 3 2 0).val) := rfl
theorem owed_step_28 (c : Dev nD) : owedFrom c 28 = owedFrom c 29 + tallyAt (dcell (peer 2 3 c) 1 3 2 1) () (amtIx (dsem 1 3 2 1).val) := rfl
theorem owed_step_29 (c : Dev nD) : owedFrom c 29 = owedFrom c 30 + tallyAt (dcell (peer 0 4 c) 1 4 0 0) () (amtIx (dsem 1 4 0 0).val) := rfl
theorem owed_step_30 (c : Dev nD) : owedFrom c 30 = owedFrom c 31 + tallyAt (dcell (peer 1 4 c) 1 4 1 0) () (amtIx (dsem 1 4 1 0).val) := rfl
theorem owed_step_31 (c : Dev nD) : owedFrom c 31 = owedFrom c 32 + tallyAt (dcell (peer 2 4 c) 1 4 2 0) () (amtIx (dsem 1 4 2 0).val) := rfl
theorem owed_step_32 (c : Dev nD) : owedFrom c 32 = owedFrom c 33 + tallyAt (dcell (peer 0 4 c) 3 4 0 0) () (amtIx (dsem 3 4 0 0).val) := rfl
theorem owed_step_33 (c : Dev nD) : owedFrom c 33 = owedFrom c 34 + tallyAt (dcell (peer 1 4 c) 3 4 1 0) () (amtIx (dsem 3 4 1 0).val) := rfl
theorem owed_step_34 (c : Dev nD) : owedFrom c 34 = owedFrom c 35 + tallyAt (dcell (peer 2 4 c) 3 4 2 0) () (amtIx (dsem 3 4 2 0).val) := rfl
theorem owed_step_35 (c : Dev nD) : owedFrom c 35 = owedFrom c 36 + tallyAt (dcell (peer 0 3 c) 3 3 0 0) () (amtIx (dsem 3 3 0 0).val) := rfl
theorem owed_step_36 (c : Dev nD) : owedFrom c 36 = owedFrom c 37 + tallyAt (dcell (peer 0 3 c) 3 3 0 1) () (amtIx (dsem 3 3 0 1).val) := rfl
theorem owed_step_37 (c : Dev nD) : owedFrom c 37 = owedFrom c 38 + tallyAt (dcell (peer 1 3 c) 3 3 1 0) () (amtIx (dsem 3 3 1 0).val) := rfl
theorem owed_step_38 (c : Dev nD) : owedFrom c 38 = owedFrom c 39 + tallyAt (dcell (peer 1 3 c) 3 3 1 1) () (amtIx (dsem 3 3 1 1).val) := rfl
theorem owed_step_39 (c : Dev nD) : owedFrom c 39 = owedFrom c 40 + tallyAt (dcell (peer 2 3 c) 3 3 2 0) () (amtIx (dsem 3 3 2 0).val) := rfl
theorem owed_step_40 (c : Dev nD) : owedFrom c 40 = owedFrom c 41 + tallyAt (dcell (peer 2 3 c) 3 3 2 1) () (amtIx (dsem 3 3 2 1).val) := rfl
theorem owed_step_41 (c : Dev nD) : owedFrom c 41 = owedFrom c 42 + tallyAt (dcell (peer 0 2 c) 3 2 0 0) () (amtIx (dsem 3 2 0 0).val) := rfl
theorem owed_step_42 (c : Dev nD) : owedFrom c 42 = owedFrom c 43 + tallyAt (dcell (peer 0 2 c) 3 2 0 1) () (amtIx (dsem 3 2 0 1).val) := rfl
theorem owed_step_43 (c : Dev nD) : owedFrom c 43 = owedFrom c 44 + tallyAt (dcell (peer 1 2 c) 3 2 1 0) () (amtIx (dsem 3 2 1 0).val) := rfl
theorem owed_step_44 (c : Dev nD) : owedFrom c 44 = owedFrom c 45 + tallyAt (dcell (peer 1 2 c) 3 2 1 1) () (amtIx (dsem 3 2 1 1).val) := rfl
theorem owed_step_45 (c : Dev nD) : owedFrom c 45 = owedFrom c 46 + tallyAt (dcell (peer 2 2 c) 3 2 2 0) () (amtIx (dsem 3 2 2 0).val) := rfl
theorem owed_step_46 (c : Dev nD) : owedFrom c 46 = owedFrom c 47 + tallyAt (dcell (peer 2 2 c) 3 2 2 1) () (amtIx (dsem 3 2 2 1).val) := rfl
theorem owed_step_47 (c : Dev nD) : owedFrom c 47 = owedFrom c 48 + tallyAt (dcell (peer 0 1 c) 3 1 0 0) () (amtIx (dsem 3 1 0 0).val) := rfl
theorem owed_step_48 (c : Dev nD) : owedFrom c 48 = owedFrom c 49 + tallyAt (dcell (peer 0 1 c) 3 1 0 1) () (amtIx (dsem 3 1 0 1).val) := rfl
theorem owed_step_49 (c : Dev nD) : owedFrom c 49 = owedFrom c 50 + tallyAt (dcell (peer 1 1 c) 3 1 1 0) () (amtIx (dsem 3 1 1 0).val) := rfl
theorem owed_step_50 (c : Dev nD) : owedFrom c 50 = owedFrom c 51 + tallyAt (dcell (peer 1 1 c) 3 1 1 1) () (amtIx (dsem 3 1 1 1).val) := rfl
theorem owed_step_51 (c : Dev nD) : owedFrom c 51 = owedFrom c 52 + tallyAt (dcell (peer 2 1 c) 3 1 2 0) () (amtIx (dsem 3 1 2 0).val) := rfl
theorem owed_step_52 (c : Dev nD) : owedFrom c 52 = owedFrom c 53 + tallyAt (dcell (peer 2 1 c) 3 1 2 1) () (amtIx (dsem 3 1 2 1).val) := rfl
theorem owed_step_53 (c : Dev nD) : owedFrom c 53 = owedFrom c 54 + tallyAt (dcell (peer 0 0 c) 3 0 0 0) () (amtIx (dsem 3 0 0 0).val) := rfl
theorem owed_step_54 (c : Dev nD) : owedFrom c 54 = owedFrom c 55 + tallyAt (dcell (peer 0 0 c) 3 0 0 1) () (amtIx (dsem 3 0 0 1).val) := rfl
theorem owed_step_55 (c : Dev nD) : owedFrom c 55 = owedFrom c 56 + tallyAt (dcell (peer 1 0 c) 3 0 1 0) () (amtIx (dsem 3 0 1 0).val) := rfl
theorem owed_step_56 (c : Dev nD) : owedFrom c 56 = owedFrom c 57 + tallyAt (dcell (peer 1 0 c) 3 0 1 1) () (amtIx (dsem 3 0 1 1).val) := rfl
theorem owed_step_57 (c : Dev nD) : owedFrom c 57 = owedFrom c 58 + tallyAt (dcell (peer 2 0 c) 3 0 2 0) () (amtIx (dsem 3 0 2 0).val) := rfl
theorem owed_step_58 (c : Dev nD) : owedFrom c 58 = owedFrom c 59 + tallyAt (dcell (peer 2 0 c) 3 0 2 1) () (amtIx (dsem 3 0 2 1).val) := rfl

/-! ## The table behind the payments -/

/-- Each payment as the bit pattern separating the payer from the payee, and the payee's semaphore. -/
def payTab : List (Fin 32 × SemLoc sig) :=
  [ (hmask 0, .reg barS), (hmask 1, .reg barS), (hmask 2, .reg barS),
    (hmask 3, .reg barS), (hmask 4, .reg barS), (mask 0 0, .dma (dsem 1 0 0 0)),
    (mask 0 0, .dma (dsem 1 0 0 1)), (mask 1 0, .dma (dsem 1 0 1 0)), (mask 1 0, .dma (dsem 1 0 1 1)),
    (mask 2 0, .dma (dsem 1 0 2 0)), (mask 2 0, .dma (dsem 1 0 2 1)), (mask 0 1, .dma (dsem 1 1 0 0)),
    (mask 0 1, .dma (dsem 1 1 0 1)), (mask 1 1, .dma (dsem 1 1 1 0)), (mask 1 1, .dma (dsem 1 1 1 1)),
    (mask 2 1, .dma (dsem 1 1 2 0)), (mask 2 1, .dma (dsem 1 1 2 1)), (mask 0 2, .dma (dsem 1 2 0 0)),
    (mask 0 2, .dma (dsem 1 2 0 1)), (mask 1 2, .dma (dsem 1 2 1 0)), (mask 1 2, .dma (dsem 1 2 1 1)),
    (mask 2 2, .dma (dsem 1 2 2 0)), (mask 2 2, .dma (dsem 1 2 2 1)), (mask 0 3, .dma (dsem 1 3 0 0)),
    (mask 0 3, .dma (dsem 1 3 0 1)), (mask 1 3, .dma (dsem 1 3 1 0)), (mask 1 3, .dma (dsem 1 3 1 1)),
    (mask 2 3, .dma (dsem 1 3 2 0)), (mask 2 3, .dma (dsem 1 3 2 1)), (mask 0 4, .dma (dsem 1 4 0 0)),
    (mask 1 4, .dma (dsem 1 4 1 0)), (mask 2 4, .dma (dsem 1 4 2 0)), (mask 0 4, .dma (dsem 3 4 0 0)),
    (mask 1 4, .dma (dsem 3 4 1 0)), (mask 2 4, .dma (dsem 3 4 2 0)), (mask 0 3, .dma (dsem 3 3 0 0)),
    (mask 0 3, .dma (dsem 3 3 0 1)), (mask 1 3, .dma (dsem 3 3 1 0)), (mask 1 3, .dma (dsem 3 3 1 1)),
    (mask 2 3, .dma (dsem 3 3 2 0)), (mask 2 3, .dma (dsem 3 3 2 1)), (mask 0 2, .dma (dsem 3 2 0 0)),
    (mask 0 2, .dma (dsem 3 2 0 1)), (mask 1 2, .dma (dsem 3 2 1 0)), (mask 1 2, .dma (dsem 3 2 1 1)),
    (mask 2 2, .dma (dsem 3 2 2 0)), (mask 2 2, .dma (dsem 3 2 2 1)), (mask 0 1, .dma (dsem 3 1 0 0)),
    (mask 0 1, .dma (dsem 3 1 0 1)), (mask 1 1, .dma (dsem 3 1 1 0)), (mask 1 1, .dma (dsem 3 1 1 1)),
    (mask 2 1, .dma (dsem 3 1 2 0)), (mask 2 1, .dma (dsem 3 1 2 1)), (mask 0 0, .dma (dsem 3 0 0 0)),
    (mask 0 0, .dma (dsem 3 0 0 1)), (mask 1 0, .dma (dsem 3 0 1 0)), (mask 1 0, .dma (dsem 3 0 1 1)),
    (mask 2 0, .dma (dsem 3 0 2 0)), (mask 2 0, .dma (dsem 3 0 2 1)) ]

/-- The cell an entry of the table names, seen from the payer `c`. -/
def cellOf (c : Dev nD) (e : Fin 32 × SemLoc sig) : GSem nD τ sig := ((xr c e.1).tc, e.2)

/-- The units a payment to a semaphore carries: one for a signal, the block's units for a transfer. -/
def amtOf : SemLoc sig → ℕ
  | .reg _ => 1
  | .dma q => amtIx q.val

theorem pays_eq (c : Dev nD) : pays c = payTab.map fun e => (cellOf c e, amtOf e.2) := rfl

theorem payTab_length : payTab.length = 59 := rfl

/-! ## Where something is still owed -/

/-- A sum of payments is positive only at a cell one of them credits. -/
theorem tallyOf_pos {l : List (GSem nD τ sig × ℕ)} {g : GSem nD τ sig} {u : Unit} (h : 0 < tallyOf l g u) : ∃ p ∈ l, g = p.1 := by
  induction l with
  | nil => exact absurd (show (0 : ℕ) < 0 from h) (Nat.lt_irrefl 0)
  | cons p l ih =>
    rcases Pipeline.add_pos_cases (D₁ := tallyOf l) (D₂ := tallyAt p.1 () p.2) h with h | h
    · obtain ⟨q, hq, hg⟩ := ih h
      exact ⟨q, List.mem_cons_of_mem _ hq, hg⟩
    · exact ⟨p, List.mem_cons_self, (Pipeline.tallyAt_pos h).1⟩

/-- What is still owed after `n` payments is owed to a cell named by a later entry of the table. -/
theorem owed_mem {c : Dev nD} {n : ℕ} {g : GSem nD τ sig} {u : Unit} (h : 0 < owedFrom c n g u) :
    ∃ e ∈ payTab.drop n, g = cellOf c e := by
  obtain ⟨p, hp, hg⟩ := tallyOf_pos (l := (pays c).drop n) h
  rw [pays_eq, ← List.map_drop] at hp
  obtain ⟨e, he, rfl⟩ := List.mem_map.mp hp
  exact ⟨e, he, hg⟩

/-- What is still owed after `n` payments is owed to the cell of a payment not yet made. -/
theorem owed_pos {c : Dev nD} {n : ℕ} {g : GSem nD τ sig} {u : Unit} (h : 0 < owedFrom c n g u) :
    ∃ i, ∃ hi : i < (pays c).length, n ≤ i ∧ i < 59 ∧ g = ((pays c)[i]'hi).1 := by
  obtain ⟨p, hp, hg⟩ := tallyOf_pos (l := (pays c).drop n) h
  obtain ⟨i, hi, rfl⟩ := List.mem_iff_getElem.mp hp
  rw [List.length_drop] at hi
  have hi' : n + i < (pays c).length := by omega
  refine ⟨n + i, hi', Nat.le_add_right n i, by rw [pays_length] at hi'; exact hi', ?_⟩
  rw [hg, List.getElem_drop]

/-! ## Levels -/

/-- Only a TensorCore's cells carry a level. -/
def L (g : GSem nD τ sig) : Finset Unit := if g.1.2 = .tc then {()} else ∅

/-- The level of the transfer semaphore with index `n`: the three staging semaphores at 0; the summing phase's
    cells of stage `s` at `2 + s`; the gathering phase's at `11 - s`. -/
def lvIx (n : ℕ) : ℕ :=
  if n < 3 then 0 else if (n - 3) / 30 < 2 then 2 + ((n - 3) % 30) / 6 else 11 - ((n - 3) % 30) / 6

/-- The level of a semaphore: the handshake semaphore (every regular one) at 1, a transfer semaphore by its index. -/
def lvSem : SemLoc sig → ℕ
  | .reg _ => 1
  | .dma q => lvIx q.val

def lv (g : GSem nD τ sig) (_ : Unit) : ℕ := lvSem g.2

theorem lv_reg (t : Thread nD τ) (s : Sem sig) (u : Unit) : lv (t, .reg s) u = 1 := rfl
theorem lv_dma (t : Thread nD τ) (q : DmaSem sig) (u : Unit) : lv (t, .dma q) u = lvIx q.val := rfl

theorem L_of_ne (g : GSem nD τ sig) (h : g.1.2 ≠ .tc) : L g = ∅ := if_neg h
theorem L_tc (c : Dev nD) (sm : SemLoc sig) : L ((c : Thread nD τ), sm) = {()} := if_pos rfl
theorem L_cell (c : Dev nD) (e : Fin 32 × SemLoc sig) : L (cellOf c e) = {()} := if_pos rfl
theorem lv_cell (c : Dev nD) (e : Fin 32 × SemLoc sig) (u : Unit) : lv (cellOf c e) u = lvSem e.2 := rfl

/-- The level of the `n`-th payment — the least level still owed after `n` payments; above every level once all are made. -/
def lvPayMin (n : ℕ) : ℕ :=
  match payTab.drop n with
  | [] => 12
  | e :: _ => lvSem e.2

/-- The payments' levels never decrease along the program. -/
theorem lvPay_mono_fin : ∀ n : Fin 60, (payTab.drop n.val).all (fun e => decide (lvPayMin n.val ≤ lvSem e.2)) = true := by decide +kernel

theorem lvPay_mono (n : ℕ) : ∀ e ∈ payTab.drop n, lvPayMin n ≤ lvSem e.2 := by
  by_cases hn : n < 60
  · intro e he
    exact of_decide_eq_true (List.all_eq_true.mp (lvPay_mono_fin ⟨n, hn⟩) e he)
  · intro e he
    rw [List.drop_eq_nil_of_le (by rw [payTab_length]; omega)] at he
    exact absurd he List.not_mem_nil

/-! ## The launch credit -/

/-- A cell is the one an entry names, seen from payer `d`, exactly when `d` is the cell's device with the entry's bits
    flipped and the semaphore is the entry's. -/
theorem cell_eq_iff (c d : Dev nD) (e : Fin 32 × SemLoc sig) (sm : SemLoc sig) :
    Iff (((c : Thread nD τ), sm) = cellOf d e) (d = xr c e.1 ∧ e.2 = sm) := by
  constructor
  · intro h
    have h1 : c = xr d e.1 := congrArg (fun g : GSem nD τ sig => g.1.1) h
    have h2 : sm = e.2 := congrArg (fun g : GSem nD τ sig => g.2) h
    exact ⟨by rw [h1, xr_xr], h2.symm⟩
  · rintro ⟨rfl, rfl⟩
    unfold cellOf; rw [xr_xr]

/-- Summed over the payers, a cell receives one payment for every entry of the table that names its semaphore. -/
theorem sum_owed (l : List (Fin 32 × SemLoc sig)) (c : Dev nD) (sm : SemLoc sig) :
    ∑ d : Dev nD, tallyOf (l.map fun e => (cellOf d e, amtOf e.2)) ((c : Thread nD τ), sm) ()
      = (l.filter fun e => e.2 = sm).length * amtOf sm := by
  induction l with
  | nil => exact (Finset.sum_const_zero).trans (Nat.zero_mul _).symm
  | cons e l ih =>
    have step (d : Dev nD) : tallyOf ((e :: l).map fun e => (cellOf d e, amtOf e.2)) ((c : Thread nD τ), sm) ()
        = tallyOf (l.map fun e => (cellOf d e, amtOf e.2)) ((c : Thread nD τ), sm) ()
          + (if d = xr c e.1 then (if e.2 = sm then amtOf sm else 0) else 0) := by
      show (tallyOf (l.map fun e => (cellOf d e, amtOf e.2)) + tallyAt (cellOf d e) () (amtOf e.2)) ((c : Thread nD τ), sm) () = _
      rw [Pi.add_apply, Finsupp.add_apply, tallyAt_apply]
      refine congrArg (fun x => tallyOf (l.map fun e => (cellOf d e, amtOf e.2)) ((c : Thread nD τ), sm) () + x) ?_
      by_cases h : d = xr c e.1 ∧ e.2 = sm
      · rw [if_pos ⟨(cell_eq_iff c d e sm).mpr h, rfl⟩, if_pos h.1, if_pos h.2, h.2]
      · rw [if_neg (fun h' => h ((cell_eq_iff c d e sm).mp h'.1))]
        by_cases h1 : d = xr c e.1
        · rw [if_pos h1, if_neg (fun h2 => h ⟨h1, h2⟩)]
        · rw [if_neg h1]
    refine (Finset.sum_congr rfl fun d _ => step d).trans ?_
    rw [Finset.sum_add_distrib, ih,
      Finset.sum_ite_eq' Finset.univ (xr c e.1) fun _ => if e.2 = sm then amtOf sm else 0, if_pos (Finset.mem_univ _)]
    by_cases hs : e.2 = sm
    · rw [if_pos hs, List.filter_cons_of_pos (by simpa using hs), List.length_cons, Nat.succ_mul]
    · rw [if_neg hs, List.filter_cons_of_neg (by simpa using hs), Nat.add_zero]

/-- The launch credit of a TensorCore's cell: the entries naming its semaphore, times the units of one payment. -/
theorem launch_at (c : Dev nD) (sm : SemLoc sig) :
    launchCredit (Pipeline.owing fun d => owedFrom d 0) 0 ((c : Thread nD τ), sm) ()
      = (payTab.filter fun e => e.2 = sm).length * amtOf sm := by
  rw [Pipeline.launchCredit_owing]
  exact sum_owed payTab c sm

/-- How many payments name each semaphore: five the handshake semaphore, one a receive semaphore in use, none any other. -/
theorem count_bar : (payTab.filter fun e => e.2 = SemLoc.reg barS).length = 5 := by decide +kernel
theorem count_recv : ∀ (a : Fin 4) (s : Fin 5) (k : Fin 3) (j : Fin 2), a = 1 ∨ a = 3 → used s j →
    (payTab.filter fun e => e.2 = SemLoc.dma (dsem a s k j)).length = 1 := by decide +kernel
theorem count_send : ∀ (a : Fin 4) (s : Fin 5) (k : Fin 3) (j : Fin 2), a = 0 ∨ a = 2 →
    (payTab.filter fun e => e.2 = SemLoc.dma (dsem a s k j)).length = 0 := by decide +kernel
theorem count_unused : ∀ (a : Fin 4) (s : Fin 5) (k : Fin 3) (j : Fin 2), ¬ used s j →
    (payTab.filter fun e => e.2 = SemLoc.dma (dsem a s k j)).length = 0 := by decide +kernel
theorem count_stage : ∀ q : DmaSem sig, q.val < 3 → (payTab.filter fun e => e.2 = SemLoc.dma q).length = 0 := by decide +kernel
theorem count_reg : ∀ s : Sem sig, s ≠ barS → (payTab.filter fun e => e.2 = SemLoc.reg s).length = 0 := by decide +kernel

/-- A handshake cell is dealt five units: one per partner. -/
theorem launch_bar (c : Dev nD) :
    tallyOn (barCell c) (launchCredit (Pipeline.owing fun d => owedFrom d 0) 0 (barCell c))
      = (tallyAt (barCell c) () 5 : CellTallies nD τ sig Unit) := by
  unfold tallyAt; refine congrArg _ (Finsupp.ext fun u => ?_); cases u
  rw [launch_at, count_bar, Finsupp.single_eq_same]; rfl

/-- A receive cell in use is dealt the units of the one block that lands under it. -/
theorem launch_recv (c : Dev nD) (a : Fin 4) (s : Fin 5) (k : Fin 3) (j : Fin 2) (ha : a = 1 ∨ a = 3) (hu : used s j) :
    tallyOn (dcell c a s k j) (launchCredit (Pipeline.owing fun d => owedFrom d 0) 0 (dcell c a s k j))
      = (tallyAt (dcell c a s k j) () (amtIx (dsem a s k j).val) : CellTallies nD τ sig Unit) := by
  unfold tallyAt; refine congrArg _ (Finsupp.ext fun u => ?_); cases u
  rw [launch_at, count_recv a s k j ha hu, Finsupp.single_eq_same, Nat.one_mul]; rfl

/-- A cell whose semaphore no payment names is dealt nothing. -/
theorem launch_zero (c : Dev nD) (sm : SemLoc sig) (h : (payTab.filter fun e => e.2 = sm).length = 0) :
    launchCredit (Pipeline.owing fun d => owedFrom d 0) 0 ((c : Thread nD τ), sm) = 0 :=
  Finsupp.ext fun u => by cases u; rw [launch_at, h, Nat.zero_mul]; rfl

theorem launch_send (c : Dev nD) (a : Fin 4) (s : Fin 5) (k : Fin 3) (j : Fin 2) (ha : a = 0 ∨ a = 2) :
    launchCredit (Pipeline.owing fun d => owedFrom d 0) 0 (dcell c a s k j) = 0 :=
  launch_zero c _ (count_send a s k j ha)

theorem launch_unused (c : Dev nD) (a : Fin 4) (s : Fin 5) (k : Fin 3) (j : Fin 2) (hu : ¬ used s j) :
    launchCredit (Pipeline.owing fun d => owedFrom d 0) 0 (dcell c a s k j) = 0 :=
  launch_zero c _ (count_unused a s k j hu)

theorem launch_stage (c : Dev nD) (q : DmaSem sig) (hq : q.val < 3) :
    launchCredit (Pipeline.owing fun d => owedFrom d 0) 0 ((c : Thread nD τ), .dma q) = 0 :=
  launch_zero c _ (count_stage q hq)

theorem launch_reg (c : Dev nD) (s : Sem sig) (hs : s ≠ barS) :
    launchCredit (Pipeline.owing fun d => owedFrom d 0) 0 ((c : Thread nD τ), .reg s) = 0 :=
  launch_zero c _ (count_reg s hs)

/-! ## The evidence a wait presents -/

variable {F : FTy → Type} [FloatOps F]

local notation "𝕄" => MT nD τ sig Unit (Elt F) ℕ UU ℕ

/-- A device that has made `n` payments may wait on any cell of its own that lies strictly below the level of the next one. -/
theorem mayWait_sem (c : Dev nD) (w : SemLoc sig) (n : ℕ) (h : lvSem w < lvPayMin n) :
    (levAts L lv : sProp 𝕄) ⊢ MayWait (c : Thread nD τ) w () (owedFrom c n) :=
  Pipeline.mayWait_of_levAts (L := L) (lev := lv) (by rw [L_tc]; exact Finset.mem_singleton_self _)
    (fun g u hg => by
      obtain ⟨e, he, rfl⟩ := owed_mem hg
      exact ⟨by rw [L_cell]; exact Finset.mem_singleton.mpr rfl, lt_of_lt_of_le h (lvPay_mono n e he)⟩)

/-- The same, the payments still to come named one by one. -/
theorem mayWait_from (c : Dev nD) (w : SemLoc sig) (n : ℕ)
    (hw : ∀ i (hi : i < (pays c).length), n ≤ i → lv ((c : Thread nD τ), w) () < lv ((pays c)[i]'hi).1 ()) :
    (levAts L lv : sProp 𝕄) ⊢ MayWait (c : Thread nD τ) w () (owedFrom c n) :=
  Pipeline.mayWait_of_levAts (L := L) (lev := lv) (by rw [L_tc]; exact Finset.mem_singleton_self _)
    (fun g u hg => by
      obtain ⟨e, _, hge⟩ := owed_mem hg
      obtain ⟨i, hi, hni, _, rfl⟩ := owed_pos hg
      exact ⟨by rw [hge, L_cell]; exact Finset.mem_singleton.mpr rfl, hw i hi hni⟩)

/-- The wait on one of the device's own transfer cells. -/
theorem mayWait_cell (c : Dev nD) (a : Fin 4) (s : Fin 5) (k : Fin 3) (j : Fin 2) (n : ℕ) (h : lvIx (dsem a s k j).val < lvPayMin n) :
    (levAts L lv : sProp 𝕄) ⊢ MayWait (c : Thread nD τ) (.dma (dsem a s k j)) () (owedFrom c n) :=
  mayWait_sem c _ n h

/-- The handshake wait: the five signals are out, every transfer is still owed, and all of those lie above level 1. -/
theorem mayWait_bar (c : Dev nD) :
    (levAts L lv : sProp 𝕄) ⊢ MayWait (c : Thread nD τ) (.reg barS) () (owedFrom c 5) :=
  mayWait_sem c _ 5 (by decide +kernel)

/-- The staging waits of the pipeline: level 0, below everything. -/
theorem mayWait_stage (c : Dev nD) (q : DmaSem sig) (hq : q.val < 3) (O : CellTallies nD τ sig Unit) (hO : O = owedFrom c 0 ∨ O = 0) :
    (levAts L lv : sProp 𝕄) ⊢ MayWait (c : Thread nD τ) (.dma q) () O := by
  rcases hO with rfl | rfl
  · exact mayWait_sem c _ 0 (by show lvIx q.val < lvPayMin 0; unfold lvIx; rw [if_pos hq]; decide +kernel)
  · rw [MayWait_zero]; iintro -; iempintro

end Cert.KernelIdeal.Owed

end
-- ==== Proof.Ghost.lean ====
/-
  What each device holds through the kernel: the cells' invariants (shared by all devices), its own
  positions, tokens and credit, its scratch buffers; and the pipeline's proof data over them. The data are
  relational: an input window's staging buffer is left as found, the result window's is left with every
  value right under the contract.
-/
import proofs.«900879_g7700000000000880_dist_matmul_gelu_kshard_i_m1024_n1024_k512_v7x_i32_bf16_1_alg».proof.Proof.Gen.KernelIdeal
import proofs.«900879_g7700000000000880_dist_matmul_gelu_kshard_i_m1024_n1024_k512_v7x_i32_bf16_1_alg».proof.Proof.Gen.KernelIdeal.Skeleton
import proofs.«900879_g7700000000000880_dist_matmul_gelu_kshard_i_m1024_n1024_k512_v7x_i32_bf16_1_alg».proof.Proof.Gen.KernelIdeal.Launch
import proofs.«900879_g7700000000000880_dist_matmul_gelu_kshard_i_m1024_n1024_k512_v7x_i32_bf16_1_alg».proof.Proof.Gen.KernelIdeal.Points
import proofs.«900879_g7700000000000880_dist_matmul_gelu_kshard_i_m1024_n1024_k512_v7x_i32_bf16_1_alg».proof.Proof.Gen.KernelIdeal.Frame
import Idealize.ShloMosaic.Lib.Pipeline.Launch
import Idealize.ShloMosaic.Lib.Pipeline.Kit
import Idealize.ShloMosaic.Lib.Rounds
import Idealize.ShloMosaic.Lib.Tactic
import proofs.«900879_g7700000000000880_dist_matmul_gelu_kshard_i_m1024_n1024_k512_v7x_i32_bf16_1_alg».proof.Proof.GhostTab
import proofs.«900879_g7700000000000880_dist_matmul_gelu_kshard_i_m1024_n1024_k512_v7x_i32_bf16_1_alg».proof.Proof.Owed

noncomputable section

namespace Cert.KernelIdeal.Ghost

open Cert.KernelIdeal Cert.KernelIdeal.Gen Cert.KernelIdeal.Proto Cert.KernelIdeal.Tab Cert.KernelIdeal.Held Cert.KernelIdeal.PayTab
open Cert.KernelIdeal.Sched Cert.KernelIdeal.GhostTab Cert.KernelIdeal.Owed
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (ct : Contract F)

/-! ## Cells by index -/

/-- Index 0..122: the transfer semaphores; index 123: the handshake semaphore. -/
def cix (n : Fin 124) : SemLoc sig := if h : n.val < 123 then .dma ⟨n.val, h⟩ else .reg barS
abbrev kcell (p : Dev nD × Fin 124) : GSem nD τ sig := ((p.1 : Thread nD τ), cix p.2)

theorem cix_inj : Function.Injective cix := by
  intro a b h
  unfold cix at h
  split at h <;> split at h
  · exact Fin.ext (by injection h with h; exact Fin.mk.inj h)
  · cases h
  · cases h
  · exact Fin.ext (by omega)

theorem kcell_inj : Function.Injective (kcell : Dev nD × Fin 124 → GSem nD τ sig) := by
  rintro ⟨c, n⟩ ⟨c', n'⟩ h
  have h1 : c = c' := congrArg (fun g : GSem nD τ sig => g.1.1) h
  have h2 : cix n = cix n' := congrArg Prod.snd h
  rw [h1, cix_inj h2]

/-- The cells the exchange uses: every device's handshake cell and its transfer cells in use. -/
def ours (n : Fin 124) : Bool := decide (n.val = 123) || usedIx n.val
def ourIx : Finset (Dev nD × Fin 124) := Finset.univ.filter fun p => ours p.2 = true

theorem kcell_bar (c : Dev nD) : kcell (c, (123 : Fin 124)) = barCell c := rfl
theorem kcell_dma (c : Dev nD) (a : Fin 4) (s : Fin 5) (k : Fin 3) (j : Fin 2) :
    kcell (c, ⟨(dsem a s k j).val, Nat.lt_trans (dsem a s k j).isLt (by decide)⟩) = dcell c a s k j := by
  unfold kcell cix; rw [dif_pos (dsem a s k j).isLt]

/-! ## The records every device holds -/

def records (K : Dev nD × Fin 124 → ℕ) : sProp 𝕄 :=
  iprop((bigSep ourIx fun p => cellInv ER (sched ct) (K p) (kcell p)) ∗ bigSep ourIx fun p => reached ER (kcell p) 0)

instance records_persistent (K : Dev nD × Fin 124 → ℕ) : BI.Persistent (records ct K) := by unfold records; infer_instance

theorem inv_at (K : Dev nD × Fin 124 → ℕ) (p : Dev nD × Fin 124) (hp : p ∈ ourIx) :
    records ct K ⊢ cellInv ER (sched ct) (K p) (kcell p) := by
  unfold records
  exact sep_elim_left.trans (bigSep_elim (s := ourIx) (Φ := fun p => (cellInv ER (sched ct) (K p) (kcell p) : sProp 𝕄)) hp)
theorem reached_at (K : Dev nD × Fin 124 → ℕ) (p : Dev nD × Fin 124) (hp : p ∈ ourIx) :
    records ct K ⊢ reached ER (kcell p) 0 := by
  unfold records
  exact sep_elim_right.trans (bigSep_elim (s := ourIx) (Φ := fun p => (reached ER (kcell p) 0 : sProp 𝕄)) hp)

/-! ## What a device starts from, and the invariant around the one point -/

/-- The kernel's own semaphores: the 120 transfer semaphores. -/
abbrev osem : Fin 120 → SemLoc sig := fun i => .dma ⟨3 + i.val, by have := i.isLt; show _ < 123; omega⟩

def start (c : Dev nD) : sProp 𝕄 :=
  iprop((∃ K, records ct K ∗ positions c ∗ barToks c ∗ xferToks c) ∗ credits c ∗ idle c ∗ levAts L lv)

def Φ₀ (c : Dev nD) : sProp 𝕄 :=
  iprop(start ct c ∗ Pipeline.scopedRest (Ix := Unit) (Name := ℕ) (U := UU) (Lvl := ℕ) (Val := Elt F) spec0 c)

def Φ₁ (c : Dev nD) : sProp 𝕄 :=
  iprop(Pipeline.scopedRest (Ix := Unit) (Name := ℕ) (U := UU) (Lvl := ℕ) (Val := Elt F) spec0 c
    ∗ Pipeline.ownSems0 (Ix := Unit) (Name := ℕ) (U := UU) (Lvl := ℕ) (Val := Elt F) (τ := τ) osem c)

variable (m : (ℓ : Loc nD τ sig) → Buf (Elt F) ℓ)

/-- The proof data: the argument windows are left as found; the result window is left right under the contract. -/
def rdats (_ : Fin 1) (c : Dev nD) : RDat τ (Elt F) Unit ℕ UU ℕ cfg0 c where
  A w := m ((cfg0.win w).arr.view.loc (c : Thread nD τ))
  after w _ Y X := match w, Y, X with
    | ⟨0, _⟩, Y, X => X = Y
    | ⟨1, _⟩, Y, X => X = Y
    | ⟨2, _⟩, _, X => ∀ i : S1024x1024.Idx, ct.okOut (i 0).val (i 1).val (X i)
    | ⟨n + 3, h⟩, _, _ => False.elim (by have : cfg0.W = 3 := rfl; omega)
  Φ t := match t with
    | ⟨0, _⟩ => Φ₀ ct c
    | ⟨_ + 1, _⟩ => Φ₁ c
  q _ := fullShare
  owed t := match t with
    | ⟨0, _⟩ => owedFrom c 0
    | ⟨_ + 1, _⟩ => 0

end Cert.KernelIdeal.Ghost

end
-- ==== Proof.Run.lean ====
/-
  The launch: from the launch's resources to each device's starting holdings, the run of the program
  under the exchange's schedule, and what the final arrays hold.
-/
import proofs.«900879_g7700000000000880_dist_matmul_gelu_kshard_i_m1024_n1024_k512_v7x_i32_bf16_1_alg».proof.Proof.Ghost

noncomputable section

namespace Cert.KernelIdeal.Run

open Cert.KernelIdeal Cert.KernelIdeal.Gen Cert.KernelIdeal.Proto Cert.KernelIdeal.Tab Cert.KernelIdeal.Held Cert.KernelIdeal.PayTab
open Cert.KernelIdeal.Sched Cert.KernelIdeal.GhostTab Cert.KernelIdeal.Owed Cert.KernelIdeal.Ghost
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-! ## The credit a device is dealt -/

/-- The semaphores whose cells are dealt credit, in the order the device holds the credit: the handshake semaphore,
    then the receive semaphore of every transfer in program order. -/
def credList : List (SemLoc sig) :=
  [ .reg barS,
    .dma (dsem 1 0 0 0), .dma (dsem 1 0 0 1), .dma (dsem 1 0 1 0), .dma (dsem 1 0 1 1), .dma (dsem 1 0 2 0), .dma (dsem 1 0 2 1),
    .dma (dsem 1 1 0 0), .dma (dsem 1 1 0 1), .dma (dsem 1 1 1 0), .dma (dsem 1 1 1 1), .dma (dsem 1 1 2 0), .dma (dsem 1 1 2 1),
    .dma (dsem 1 2 0 0), .dma (dsem 1 2 0 1), .dma (dsem 1 2 1 0), .dma (dsem 1 2 1 1), .dma (dsem 1 2 2 0), .dma (dsem 1 2 2 1),
    .dma (dsem 1 3 0 0), .dma (dsem 1 3 0 1), .dma (dsem 1 3 1 0), .dma (dsem 1 3 1 1), .dma (dsem 1 3 2 0), .dma (dsem 1 3 2 1),
    .dma (dsem 1 4 0 0), .dma (dsem 1 4 1 0), .dma (dsem 1 4 2 0), .dma (dsem 3 4 0 0), .dma (dsem 3 4 1 0), .dma (dsem 3 4 2 0),
    .dma (dsem 3 3 0 0), .dma (dsem 3 3 0 1), .dma (dsem 3 3 1 0), .dma (dsem 3 3 1 1), .dma (dsem 3 3 2 0), .dma (dsem 3 3 2 1),
    .dma (dsem 3 2 0 0), .dma (dsem 3 2 0 1), .dma (dsem 3 2 1 0), .dma (dsem 3 2 1 1), .dma (dsem 3 2 2 0), .dma (dsem 3 2 2 1),
    .dma (dsem 3 1 0 0), .dma (dsem 3 1 0 1), .dma (dsem 3 1 1 0), .dma (dsem 3 1 1 1), .dma (dsem 3 1 2 0), .dma (dsem 3 1 2 1),
    .dma (dsem 3 0 0 0), .dma (dsem 3 0 0 1), .dma (dsem 3 0 1 0), .dma (dsem 3 0 1 1), .dma (dsem 3 0 2 0), .dma (dsem 3 0 2 1) ]

theorem credList_nodup : credList.Nodup := by decide +kernel

/-- The payments naming a credited semaphore: five for the handshake semaphore, one for a receive semaphore. -/
def cnt : SemLoc sig → ℕ
  | .reg _ => 5
  | .dma _ => 1

theorem credList_cnt : credList.all (fun sm => decide ((payTab.filter fun e => e.2 = sm).length = cnt sm)) = true := by decide +kernel

/-- The units dealt to a credited semaphore's cell. -/
def creditAmt : SemLoc sig → ℕ
  | .reg _ => 5
  | .dma q => amtIx q.val

theorem credit_units (sm : SemLoc sig) (h : (payTab.filter fun e => e.2 = sm).length = cnt sm) :
    (payTab.filter fun e => e.2 = sm).length * amtOf sm = creditAmt sm := by
  rw [h]
  cases sm with
  | reg s => exact Nat.mul_one 5
  | dma q => exact Nat.one_mul _

variable {F : FTy → Type} [FloatOps F]

local notation "𝕄" => MT nD τ sig Unit (Elt F) ℕ UU ℕ

/-- A chain over a list depends only on the summands at the list's members. -/
theorem bigSepL_congr {I : Type} (l : List I) (Φ Ψ : I → sProp 𝕄) (h : ∀ i ∈ l, Φ i = Ψ i) : bigSepL l Φ = bigSepL l Ψ := by
  induction l with
  | nil => rfl
  | cons i l ih =>
    rw [bigSepL_cons, bigSepL_cons, h i List.mem_cons_self, ih fun j hj => h j (List.mem_cons_of_mem _ hj)]

/-- The launch credit of a credited cell, as one tally. -/
theorem cred_cell (c : Dev nD) (sm : SemLoc sig) (h : (payTab.filter fun e => e.2 = sm).length = cnt sm) :
    tallyOn ((c : Thread nD τ), sm) (launchCredit (Pipeline.owing fun d => owedFrom d 0) 0 ((c : Thread nD τ), sm))
      = (tallyAt ((c : Thread nD τ), sm) () (creditAmt sm) : CellTallies nD τ sig Unit) := by
  unfold tallyAt; refine congrArg _ (Finsupp.ext fun u => ?_); cases u
  rw [launch_at, Finsupp.single_eq_same, credit_units sm h]

/-- Of the credit the launch deals a device it keeps that of its handshake cell and of its receive cells. -/
theorem creds (c : Dev nD) : (Pipeline.launchCred (fun d => owedFrom d 0) c : sProp 𝕄) ⊢ credits c := by
  unfold Pipeline.launchCred
  refine (bigSep_subset (Finset.subset_univ credList.toFinset)).trans ?_
  rw [bigSep_eq_bigSepL credList credList_nodup,
    bigSepL_congr credList _ (fun sm => (cred (tallyAt ((c : Thread nD τ), sm) () (creditAmt sm)) : sProp 𝕄)) fun sm hsm =>
      congrArg _ (cred_cell c sm (of_decide_eq_true (List.all_eq_true.mp credList_cnt sm hsm)))]
  have e : bigSepL credList (fun sm => (cred (tallyAt ((c : Thread nD τ), sm) () (creditAmt sm)) : sProp 𝕄)) = credits c := rfl
  rw [e]
  exact BI.Entails.refl _

/-! ## The layout facts of the launch -/

/-- The kernel's own semaphores are scoped, distinct, and none is a staging semaphore. -/
theorem ownSemFacts : Pipeline.OwnSemFacts cfg0.spec osem := by decide +kernel

variable (ct : Contract F) (m : (ℓ : Loc nD τ sig) → Buf (Elt F) ℓ) (ρ : Dev nD → PrngReg)

theorem share_eq (c : Dev nD) (w : Fin cfg0.W) : (rdats ct m 0 c).share w = fullShare := by unfold RDat.share; split <;> rfl

/-- The staging waits of the pipeline sit below everything a device owes. -/
theorem waits (c : Dev nD) : (levAts L lv : sProp 𝕄) ⊢ Pipeline.RDat.cellsWaits cfgs (rdats ct m) () 0 c :=
  Pipeline.RDat.cellsWaits_intro cfgs (rdats ct m) () 0 c fun w s t =>
    mayWait_stage c _ (by fin_cases w <;> fin_cases s <;> decide) _ (by
      rcases t with ⟨_ | _, ht⟩
      · exact Or.inl rfl
      · exact Or.inr rfl)

/-! ## Into and out of the one point -/

/-- What the global step of the launch leaves each device: the records of every cell of the exchange, its own positions
    and the tokens of the duties it pays, and its idle semaphores at zero. -/
def held (c : Dev nD) : sProp 𝕄 :=
  iprop((∃ K, records ct K ∗ positions c ∗ barToks c ∗ xferToks c) ∗ idle c)

/-- What the launch hands a device, with the records and tokens the global step made, is what it starts from. -/
theorem start_intro (c : Dev nD) :
    iprop(Pipeline.unscopedRestP Pipeline.Prefetch.none cfg0.spec c (fun b => m ((c : Thread nD τ).loc b)) ∗ levAts L lv
        ∗ Pipeline.launchCred (fun d => owedFrom d 0) c ∗ prngReg c (ρ c) ∗ held ct c)
      ⊢ |={Set.univ}=> iprop(start ct c ∗ emp) := by
  unfold held
  iintro ⟨-, Hlev, Hcr, -, HGI⟩
  icases HGI with ⟨HG, Hidle⟩
  ihave Hc := (creds (F := F) c) $$ Hcr
  imodintro
  unfold start
  isplitl
  · isplitl [HG]
    · iexact HG
    isplitl [Hc]
    · iexact Hc
    isplitl [Hidle]
    · iexact Hidle
    iexact Hlev
  · iempintro

theorem phi0_intro (c : Dev nD) :
    iprop(start ct c ∗ Pipeline.prefHeld Pipeline.Prefetch.none c (fun _ => fullShare.right) (fun k => k.elim0) ∗ Pipeline.scopedRest cfg0.spec c)
      ⊢ (rdats ct m 0 c).Φ 0 := by
  rw [show (rdats ct m 0 c).Φ 0 = Φ₀ ct c from rfl]
  unfold Φ₀
  iintro ⟨Hs, -, Hr⟩
  isplitl [Hs]; · iexact Hs
  iexact Hr

theorem phi1_exit (c : Dev nD) :
    (rdats ct m 0 c).Φ (Fin.last cfg0.N) ⊢ iprop(emp ∗ Pipeline.ownSems0 osem c ∗ Pipeline.scopedRest cfg0.spec c) := by
  rw [show (rdats ct m 0 c).Φ (Fin.last cfg0.N) = Φ₁ c from rfl]
  unfold Φ₁
  iintro ⟨Hr, Hs⟩
  isplitr; · iempintro
  isplitl [Hs]; · iexact Hs
  iexact Hr

/-! ## The run -/

section Launch

variable (u₀ : UU) (G : Dev nD → sProp (MT nD τ sig Unit (Elt F) ℕ UU ℕ))
  (hu₀ : (ownU u₀ : sProp (MT nD τ sig Unit (Elt F) ℕ UU ℕ))
    ⊢ |={Set.univ}=> iprop(BI.own (EP (initOf (Pipeline.cells cfgs cellOf_inj) (Pipeline.launchToks cfgs cellOf_inj))) ∗ bigSep Finset.univ G))
  (hglob : (bigSep Finset.univ fun c => iprop(Pipeline.ownSems0 (Ix := Unit) (Name := ℕ) (U := UU) (Lvl := ℕ) (Val := Elt F) (τ := τ) osem c
      ∗ unscopedSems0 c ∗ G c) : sProp (MT nD τ sig Unit (Elt F) ℕ UU ℕ)) ⊢ |={Set.univ}=> bigSep Finset.univ (held ct))

/-- What the run establishes: on every device, every windowed array holds contents it may hold after the point's write-back. -/
def QR : PUnit × MemSt nD τ sig (Elt F) → Prop := fun r =>
  ∀ c : Dev nD, ∀ w : Fin cfg0.W, (rdats ct m 0 c).ArrAt w cfg0.N (r.2.mem ((cfg0.win w).arr.view.loc (c : Thread nD τ)))

include hu₀ hglob in
set_option maxRecDepth 8000 in
/-- On the thirty-two devices, for any float values, from any memory with zero counters: every weakly fair execution of
    the program terminates, and every final state has each device's arrays at contents the proof data admit. -/
theorem run_main (hbody : ∀ c, (rdats ct m 0 c).BodyObligation (defs₀ (F := F)) Variants.none () Set.univ) :
    θ_run defs (onTc (τ := τ) (main (F := F))) ⟨m, fun _ => 0, ρ⟩ (QR ct m) :=
  Pipeline.RDat.θ_run_region_owing_glob_pf (fun p => (cfgs p).toPCfg) (fun p => (cfgs p).toPCfg_adm) (rdats ct m) () cellOf_inj (0 : Fin 1)
    winFacts0.to₀ ownSemFacts (Pipeline.PreFacts.none _) EP defs₀ Variants.none m ρ main
    (hmain := fun _ => rfl)
    (hbody := hbody) (hne := block_pos0) (harr := arr_whole0) (hstage := stage_whole0) (hshare := share_eq ct m)
    (hdistinct := winFacts0.arr_inj)
    (O₀ := fun d => owedFrom d 0) (howed₀ := fun _ => rfl) (howedN := fun _ => rfl)
    (L := L) (lv := lv) (hL := L_of_ne) (hwaits := waits ct m)
    (G := G) (G' := held ct) (u₀ := u₀) (hu₀ := hu₀) (hglob := hglob)
    (hA := fun _ _ => rfl) (hpf := fun _ k => k.elim0)
    (X := start ct) (Y := fun _ => iprop(emp)) (Z := fun _ => iprop(emp))
    (hX := start_intro ct m ρ) (hin := phi0_intro ct m) (hout := phi1_exit ct m)
    (QY := fun _ _ => True)
    (hY := fun c s' => by
      iintro ⟨-, -, HSI⟩
      imodintro
      isplitr; · ipureintro; trivial
      iexact HSI)
    (hQ := fun _ h c w => (h c).1 w)

end Launch

/-! ## What the arrays hold at the end -/

/-- An argument array ends as it began. -/
theorem final_in (c : Dev nD) (w : Fin cfg0.W) (hw : (cfg0.win w).isOut = false)
    (X : Buf (Elt F) ((cfg0.win w).arr.view.loc (c : Thread nD τ))) (h : (rdats ct m 0 c).ArrAt w cfg0.N X) :
    X = m ((cfg0.win w).arr.view.loc (c : Thread nD τ)) := by
  rw [Pipeline.RDat.ArrAt_in (rdats ct m 0 c) w hw] at h
  exact h

/-- The result array ends with every value right under the contract: its one block is the whole array, written back
    once, from contents the body left in the relation the proof data name. -/
theorem final_out (c : Dev nD) (X : Buf (Elt F) ((cfg0.win (2 : Fin 3)).arr.view.loc (c : Thread nD τ)))
    (h : (rdats ct m 0 c).ArrAt (2 : Fin 3) cfg0.N X) :
    ∀ i : S1024x1024.Idx, ct.okOut (i 0).val (i 1).val (X i) := by
  have h1 : (rdats ct m 0 c).ArrAt (2 : Fin 3) (t0_0.val + 1) X := h
  rw [Pipeline.RDat.ArrAt_succ (rdats ct m 0 c) (2 : Fin 3) t0_0, if_pos (by decide)] at h1
  obtain ⟨G₀, Y, -, ⟨Y₀, -, hY⟩, rfl⟩ := h1
  have hY' : ∀ i : S1024x1024.Idx, ct.okOut (i 0).val (i 1).val (Y i) := hY
  intro i
  have hw : ((cfg0.win (2 : Fin 3)).blk t0_0).view.write (Elt F) G₀ ((cfg0.win (2 : Fin 3)).cut (cfg0.grid.coords t0_0) Y) Finset.univ = Y :=
    Memref.write_access_unit_zero_univ (Elt F) main_v1 (off := fun a => 0 * (main_v1 : Ref sig .tc).ty.shape.size a)
      (funext fun a => Nat.zero_mul _) _ G₀ Y
  rw [hw]
  exact hY' i

end Cert.KernelIdeal.Run

end
-- ==== Proof.SumMath.lean ====
import Mathlib.Algebra.BigOperators.Fin
import Mathlib.Data.Fintype.BigOperators
import Mathlib.Data.Fin.VecNotation
import Mathlib.Logic.Equiv.Fin.Basic
import Mathlib.Tactic.FinCases

/-!
# Summation by recursive halving over exclusive-or partners, and regrouping by blocks

Thirty-two participants are indexed by the five-bit numbers `c : Fin 32`.  Participant `c`
starts with a value `P c` in an additive commutative monoid.  In round `s` (five rounds, with
masks `μ 0, …, μ 4`) every participant adds to its own running value the running value of its
partner `c xor μ s`.  When the five masks are linearly independent over the field with two
elements, the partners reached from `c` after five rounds are all of `Fin 32`, each exactly once,
so that every participant ends with the full sum `∑ d, P d`.

No subtraction or cancellation is used: everything holds in an `AddCommMonoid`.

The second part regroups a sum over `16384 = 32 * 512` indices into `32` blocks of `512`
consecutive indices.
-/

namespace Cert.SumMath

/-! ## Exclusive or on five-bit numbers -/

/-- Bitwise exclusive or of two numbers below `32 = 2 ^ 5` stays below `32`. -/
def xr (c μ : Fin 32) : Fin 32 :=
  ⟨c.val ^^^ μ.val, Nat.xor_lt_two_pow (n := 5) c.isLt μ.isLt⟩

@[simp] theorem xr_val (c μ : Fin 32) : (xr c μ).val = c.val ^^^ μ.val := rfl

/-- Exclusive or with a fixed mask is an involution. -/
theorem xr_xr_cancel (c μ : Fin 32) : xr (xr c μ) μ = c := by
  apply Fin.ext
  simp only [xr_val]
  rw [Nat.xor_assoc, Nat.xor_self, Nat.xor_zero]

/-- Exclusive or with a nonzero mask has no fixed point. -/
theorem xr_ne_self (c : Fin 32) {μ : Fin 32} (hμ : μ ≠ 0) : xr c μ ≠ c := by
  intro h
  apply hμ
  apply Fin.ext
  have h1 : c.val ^^^ μ.val = c.val := congrArg Fin.val h
  have h2 : c.val ^^^ (c.val ^^^ μ.val) = c.val ^^^ c.val := congrArg (c.val ^^^ ·) h1
  rw [← Nat.xor_assoc, Nat.xor_self, Nat.zero_xor] at h2
  exact h2

theorem xr_zero (c : Fin 32) : xr c 0 = c := by
  apply Fin.ext
  simp [xr_val]

theorem xr_comm (c μ : Fin 32) : xr c μ = xr μ c := by
  apply Fin.ext
  simp only [xr_val]
  exact Nat.xor_comm _ _

theorem xr_assoc (c μ ν : Fin 32) : xr (xr c μ) ν = xr c (xr μ ν) := by
  apply Fin.ext
  simp only [xr_val]
  exact Nat.xor_assoc _ _ _

/-- The partner map `c ↦ c xor μ` is injective. -/
theorem xr_left_injective (μ : Fin 32) : Function.Injective (fun c => xr c μ) := by
  intro a b h
  have := congrArg (fun x => xr x μ) h
  simpa only [xr_xr_cancel] using this

variable {M : Type*} [AddCommMonoid M]

/-! ## The five rounds -/

/-- Running values before the first round. -/
def T0 (P : Fin 32 → M) : Fin 32 → M := P

/-- Running values after round `0`. -/
def T1 (μ : Fin 5 → Fin 32) (P : Fin 32 → M) : Fin 32 → M :=
  fun c => T0 P c + T0 P (xr c (μ 0))

/-- Running values after round `1`. -/
def T2 (μ : Fin 5 → Fin 32) (P : Fin 32 → M) : Fin 32 → M :=
  fun c => T1 μ P c + T1 μ P (xr c (μ 1))

/-- Running values after round `2`. -/
def T3 (μ : Fin 5 → Fin 32) (P : Fin 32 → M) : Fin 32 → M :=
  fun c => T2 μ P c + T2 μ P (xr c (μ 2))

/-- Running values after round `3`. -/
def T4 (μ : Fin 5 → Fin 32) (P : Fin 32 → M) : Fin 32 → M :=
  fun c => T3 μ P c + T3 μ P (xr c (μ 3))

/-- Running values after round `4`, the last one. -/
def T5 (μ : Fin 5 → Fin 32) (P : Fin 32 → M) : Fin 32 → M :=
  fun c => T4 μ P c + T4 μ P (xr c (μ 4))

theorem T0_apply (P : Fin 32 → M) (c : Fin 32) : T0 P c = P c := rfl

theorem T1_apply (μ : Fin 5 → Fin 32) (P : Fin 32 → M) (c : Fin 32) :
    T1 μ P c = T0 P c + T0 P (xr c (μ 0)) := rfl

theorem T2_apply (μ : Fin 5 → Fin 32) (P : Fin 32 → M) (c : Fin 32) :
    T2 μ P c = T1 μ P c + T1 μ P (xr c (μ 1)) := rfl

theorem T3_apply (μ : Fin 5 → Fin 32) (P : Fin 32 → M) (c : Fin 32) :
    T3 μ P c = T2 μ P c + T2 μ P (xr c (μ 2)) := rfl

theorem T4_apply (μ : Fin 5 → Fin 32) (P : Fin 32 → M) (c : Fin 32) :
    T4 μ P c = T3 μ P c + T3 μ P (xr c (μ 3)) := rfl

theorem T5_apply (μ : Fin 5 → Fin 32) (P : Fin 32 → M) (c : Fin 32) :
    T5 μ P c = T4 μ P c + T4 μ P (xr c (μ 4)) := rfl

/-- The running values after `s` rounds (`s ≤ 5`; constant from `5` on). -/
def T (μ : Fin 5 → Fin 32) (P : Fin 32 → M) : ℕ → Fin 32 → M
  | 0 => T0 P
  | 1 => T1 μ P
  | 2 => T2 μ P
  | 3 => T3 μ P
  | 4 => T4 μ P
  | _ + 5 => T5 μ P

theorem T_zero (μ : Fin 5 → Fin 32) (P : Fin 32 → M) : T μ P 0 = T0 P := rfl
theorem T_one (μ : Fin 5 → Fin 32) (P : Fin 32 → M) : T μ P 1 = T1 μ P := rfl
theorem T_two (μ : Fin 5 → Fin 32) (P : Fin 32 → M) : T μ P 2 = T2 μ P := rfl
theorem T_three (μ : Fin 5 → Fin 32) (P : Fin 32 → M) : T μ P 3 = T3 μ P := rfl
theorem T_four (μ : Fin 5 → Fin 32) (P : Fin 32 → M) : T μ P 4 = T4 μ P := rfl
theorem T_five (μ : Fin 5 → Fin 32) (P : Fin 32 → M) : T μ P 5 = T5 μ P := rfl

/-- One round: for `s < 5`, `T (s + 1) c = T s c + T s (c xor μ s)`. -/
theorem T_succ (μ : Fin 5 → Fin 32) (P : Fin 32 → M) (s : Fin 5) (c : Fin 32) :
    T μ P (s.val + 1) c = T μ P s.val c + T μ P s.val (xr c (μ s)) := by
  fin_cases s <;> rfl

/-! ## Rounds along a list of masks, and the partners they reach -/

/-- Running value of `c` after the rounds whose masks are listed in `L`, the head of `L` being
the mask of the *last* round. -/
def Tl : List (Fin 32) → (Fin 32 → M) → Fin 32 → M
  | [], P, c => P c
  | m :: L, P, c => Tl L P c + Tl L P (xr c m)

/-- The participants whose starting values have been added into the running value of `c`
after the rounds listed in `L`, with multiplicity. -/
def orbit : List (Fin 32) → Fin 32 → Multiset (Fin 32)
  | [], c => {c}
  | m :: L, c => orbit L c + orbit L (xr c m)

/-- The running value is the sum of the starting values over the partners reached. -/
theorem Tl_eq_orbit_sum (L : List (Fin 32)) (P : Fin 32 → M) (c : Fin 32) :
    Tl L P c = ((orbit L c).map P).sum := by
  induction L generalizing c with
  | nil => simp [Tl, orbit]
  | cons m L ih => simp only [Tl, orbit, Multiset.map_add, Multiset.sum_add, ih]

/-- If the partners reached from every `c` are all of `Fin 32`, each once, the running value
is the full sum. -/
theorem Tl_eq_sum (L : List (Fin 32)) (hL : ∀ c, orbit L c = Finset.univ.val)
    (P : Fin 32 → M) (c : Fin 32) : Tl L P c = ∑ d : Fin 32, P d := by
  rw [Tl_eq_orbit_sum, hL c]
  rfl

theorem T1_eq_Tl (μ : Fin 5 → Fin 32) (P : Fin 32 → M) (c : Fin 32) :
    T1 μ P c = Tl [μ 0] P c := rfl

theorem T2_eq_Tl (μ : Fin 5 → Fin 32) (P : Fin 32 → M) (c : Fin 32) :
    T2 μ P c = Tl [μ 1, μ 0] P c := rfl

theorem T3_eq_Tl (μ : Fin 5 → Fin 32) (P : Fin 32 → M) (c : Fin 32) :
    T3 μ P c = Tl [μ 2, μ 1, μ 0] P c := rfl

theorem T4_eq_Tl (μ : Fin 5 → Fin 32) (P : Fin 32 → M) (c : Fin 32) :
    T4 μ P c = Tl [μ 3, μ 2, μ 1, μ 0] P c := rfl

theorem T5_eq_Tl (μ : Fin 5 → Fin 32) (P : Fin 32 → M) (c : Fin 32) :
    T5 μ P c = Tl [μ 4, μ 3, μ 2, μ 1, μ 0] P c := rfl

/-- Five rounds give the full sum as soon as the partners reached from every `c` are all of
`Fin 32`, each once. -/
theorem T5_eq_sum_of_orbit (μ : Fin 5 → Fin 32)
    (hμ : ∀ c, orbit [μ 4, μ 3, μ 2, μ 1, μ 0] c = Finset.univ.val)
    (P : Fin 32 → M) (c : Fin 32) : T5 μ P c = ∑ d : Fin 32, P d := by
  rw [T5_eq_Tl]
  exact Tl_eq_sum _ hμ P c

/-! ## The three mask orders

Each of the three orders uses the masks `1, 3, 4, 8, 16`, which are linearly independent over
the field with two elements (`1, 1 xor 3 = 2, 4, 8, 16` are the five unit vectors).  That the
thirty-two partners reached from `c` are all distinct is checked by evaluating them, for each
of the thirty-two values of `c`. -/

/-- First mask order. -/
def μ₀ : Fin 5 → Fin 32 := ![1, 3, 8, 4, 16]

/-- Second mask order. -/
def μ₁ : Fin 5 → Fin 32 := ![3, 8, 1, 16, 4]

/-- Third mask order. -/
def μ₂ : Fin 5 → Fin 32 := ![8, 1, 3, 16, 4]

theorem orbit_order₀ : ∀ c, orbit [16, 4, 8, 3, 1] c = Finset.univ.val := by decide

theorem orbit_order₁ : ∀ c, orbit [4, 16, 1, 8, 3] c = Finset.univ.val := by decide

theorem orbit_order₂ : ∀ c, orbit [4, 16, 3, 1, 8] c = Finset.univ.val := by decide

/-- Five rounds with masks `1, 3, 8, 4, 16` (given by their values) give the full sum. -/
theorem T5_eq_sum_of_vals₀ (μ : Fin 5 → Fin 32) (h0 : μ 0 = 1) (h1 : μ 1 = 3) (h2 : μ 2 = 8)
    (h3 : μ 3 = 4) (h4 : μ 4 = 16) (P : Fin 32 → M) (c : Fin 32) :
    T5 μ P c = ∑ d : Fin 32, P d := by
  apply T5_eq_sum_of_orbit
  rw [h0, h1, h2, h3, h4]
  exact orbit_order₀

/-- Five rounds with masks `3, 8, 1, 16, 4` (given by their values) give the full sum. -/
theorem T5_eq_sum_of_vals₁ (μ : Fin 5 → Fin 32) (h0 : μ 0 = 3) (h1 : μ 1 = 8) (h2 : μ 2 = 1)
    (h3 : μ 3 = 16) (h4 : μ 4 = 4) (P : Fin 32 → M) (c : Fin 32) :
    T5 μ P c = ∑ d : Fin 32, P d := by
  apply T5_eq_sum_of_orbit
  rw [h0, h1, h2, h3, h4]
  exact orbit_order₁

/-- Five rounds with masks `8, 1, 3, 16, 4` (given by their values) give the full sum. -/
theorem T5_eq_sum_of_vals₂ (μ : Fin 5 → Fin 32) (h0 : μ 0 = 8) (h1 : μ 1 = 1) (h2 : μ 2 = 3)
    (h3 : μ 3 = 16) (h4 : μ 4 = 4) (P : Fin 32 → M) (c : Fin 32) :
    T5 μ P c = ∑ d : Fin 32, P d := by
  apply T5_eq_sum_of_orbit
  rw [h0, h1, h2, h3, h4]
  exact orbit_order₂

/-- Recursive halving with the first mask order gives every participant the full sum. -/
theorem T5_eq_sum_μ₀ (P : Fin 32 → M) (c : Fin 32) : T5 μ₀ P c = ∑ d : Fin 32, P d :=
  T5_eq_sum_of_vals₀ μ₀ rfl rfl rfl rfl rfl P c

/-- Recursive halving with the second mask order gives every participant the full sum. -/
theorem T5_eq_sum_μ₁ (P : Fin 32 → M) (c : Fin 32) : T5 μ₁ P c = ∑ d : Fin 32, P d :=
  T5_eq_sum_of_vals₁ μ₁ rfl rfl rfl rfl rfl P c

/-- Recursive halving with the third mask order gives every participant the full sum. -/
theorem T5_eq_sum_μ₂ (P : Fin 32 → M) (c : Fin 32) : T5 μ₂ P c = ∑ d : Fin 32, P d :=
  T5_eq_sum_of_vals₂ μ₂ rfl rfl rfl rfl rfl P c

/-! ## Regrouping a sum by blocks -/

/-- A sum over `m * n` indices is the sum over `m` blocks of the sums over the `n` consecutive
indices `d * n, …, d * n + (n - 1)` of block `d`. -/
theorem sum_blocks_mul (m n : ℕ) (f : Fin (m * n) → M) :
    ∑ k : Fin (m * n), f k
      = ∑ d : Fin m, ∑ κ : Fin n, f ⟨d.val * n + κ.val, by
          calc d.val * n + κ.val < d.val * n + n := Nat.add_lt_add_left κ.isLt _
            _ = (d.val + 1) * n := (Nat.succ_mul _ _).symm
            _ ≤ m * n := Nat.mul_le_mul_right _ d.isLt⟩ := by
  rw [← Equiv.sum_comp finProdFinEquiv f, Fintype.sum_prod_type]
  refine Finset.sum_congr rfl fun d _ => Finset.sum_congr rfl fun κ _ => ?_
  congr 1
  apply Fin.ext
  simp only [finProdFinEquiv_apply_val]
  rw [Nat.add_comm, Nat.mul_comm]

/-- A sum over `16384 = 32 * 512` indices, regrouped into `32` blocks of `512` consecutive
indices: block `d` holds the indices `d * 512, …, d * 512 + 511`. -/
theorem sum_blocks (f : Fin 16384 → M) :
    ∑ k : Fin 16384, f k
      = ∑ d : Fin 32, ∑ κ : Fin 512, f ⟨d.val * 512 + κ.val, by
          have := d.isLt; have := κ.isLt; omega⟩ :=
  sum_blocks_mul 32 512 f

end Cert.SumMath

/-- info: 'Cert.SumMath.T5_eq_sum_μ₀' depends on axioms: [propext, Classical.choice, Quot.sound] -/
#guard_msgs in #print axioms Cert.SumMath.T5_eq_sum_μ₀

/-- info: 'Cert.SumMath.T5_eq_sum_μ₁' depends on axioms: [propext, Classical.choice, Quot.sound] -/
#guard_msgs in #print axioms Cert.SumMath.T5_eq_sum_μ₁

/-- info: 'Cert.SumMath.T5_eq_sum_μ₂' depends on axioms: [propext, Classical.choice, Quot.sound] -/
#guard_msgs in #print axioms Cert.SumMath.T5_eq_sum_μ₂

/-- info: 'Cert.SumMath.T5_eq_sum_of_vals₀' depends on axioms: [propext, Classical.choice, Quot.sound] -/
#guard_msgs in #print axioms Cert.SumMath.T5_eq_sum_of_vals₀

/-- info: 'Cert.SumMath.T5_eq_sum_of_vals₁' depends on axioms: [propext, Classical.choice, Quot.sound] -/
#guard_msgs in #print axioms Cert.SumMath.T5_eq_sum_of_vals₁

/-- info: 'Cert.SumMath.T5_eq_sum_of_vals₂' depends on axioms: [propext, Classical.choice, Quot.sound] -/
#guard_msgs in #print axioms Cert.SumMath.T5_eq_sum_of_vals₂

/-- info: 'Cert.SumMath.T5_eq_sum_of_orbit' depends on axioms: [propext, Classical.choice, Quot.sound] -/
#guard_msgs in #print axioms Cert.SumMath.T5_eq_sum_of_orbit

/-- info: 'Cert.SumMath.sum_blocks' depends on axioms: [propext, Classical.choice, Quot.sound] -/
#guard_msgs in #print axioms Cert.SumMath.sum_blocks

/-- info: 'Cert.SumMath.xr_xr_cancel' depends on axioms: [propext, Quot.sound] -/
#guard_msgs in #print axioms Cert.SumMath.xr_xr_cancel

/-- info: 'Cert.SumMath.xr_ne_self' depends on axioms: [propext, Quot.sound] -/
#guard_msgs in #print axioms Cert.SumMath.xr_ne_self
-- ==== Proof.ValueMath.lean ====
/-
  The values of the kernel, as mathematics.

  Device `c` of thirty-two holds the block `A_c` (all 1024 rows, columns `512 c … 512 c + 511`) of the left operand
  and the block `B_c` (rows `512 c … 512 c + 511`, all 1024 columns) of the right operand. Its partial product is
  `Part c = A_c · B_c`. For each column block the devices sum their partial products by recursive halving: after `t`
  stages device `c`'s running sum is `Tt t c`, the sum of `Part d` over the `2 ^ t` devices `d` it has met; after five
  stages that is the sum over all devices, which is the inner product over all 16384 contraction indices of the whole
  operands; the result is the pointwise function `gelu` of it.

  This module defines `Part` and `Tt`, the contract `idealCt` that says every exchanged piece carries these values,
  the two local laws (adding a partner's piece; applying the pointwise function), what each printed payload computes
  index by index at the ideal values, and the bridge from the devices' blocks to the whole arrays.
-/
import proofs.«900879_g7700000000000880_dist_matmul_gelu_kshard_i_m1024_n1024_k512_v7x_i32_bf16_1_alg».proof.Proof.Proto
import proofs.«900879_g7700000000000880_dist_matmul_gelu_kshard_i_m1024_n1024_k512_v7x_i32_bf16_1_alg».proof.Proof.SumMath
import proofs.«900879_g7700000000000880_dist_matmul_gelu_kshard_i_m1024_n1024_k512_v7x_i32_bf16_1_alg».proof.Proof.RefSide
import Idealize.ShloMosaic.PureOps.Ideal
import Idealize.ShloMosaic.PureOps.Ideal.Laws
import Idealize.ShloMosaic.Lib.ValueIdx
import Idealize.ShloMosaic.Lib.Layout
import Idealize.ShloMosaic.Lib.Pipeline.Value

noncomputable section

namespace Cert.ValueMath

open Cert.KernelIdeal Cert.KernelIdeal.Gen Cert.KernelIdeal.Proto
open Idealize.ShloMosaic Idealize.ShloMosaic.TcCoe Idealize.SL.Sem Idealize.ShloMosaic.ValueIdx

/-! ## The partial products and the running sums -/

/-- A machine memory at the ideal values. -/
abbrev Mem : Type := (ℓ : Loc nD τ sig) → Buf (Elt Ideal) ℓ

/-- Device `c`'s block of the left operand: rows `0 … 1023`, columns `512 c … 512 c + 511` of the whole. -/
def argA (m : Mem) (c : Dev nD) : S1024x512.Idx → EReal := m ((c.tc : Thread nD τ).loc main_arg0)

/-- Device `c`'s block of the right operand: rows `512 c … 512 c + 511` of the whole, columns `0 … 1023`. -/
def argB (m : Mem) (c : Dev nD) : S512x1024.Idx → EReal := m ((c.tc : Thread nD τ).loc main_arg1)

/-- The inner product of row `r` of `A` with column `q` of `B` over the 512 local contraction indices
    (`0` outside the arrays). -/
def dot (A : S1024x512.Idx → EReal) (B : S512x1024.Idx → EReal) (r q : ℕ) : EReal :=
  if h : r < 1024 ∧ q < 1024 then ∑ κ : Fin 512, A (ix2 ⟨r, h.1⟩ κ) * B (ix2 κ ⟨q, h.2⟩) else 0

theorem dot_of_lt (A : S1024x512.Idx → EReal) (B : S512x1024.Idx → EReal) (r q : Fin 1024) :
    dot A B r.val q.val = ∑ κ : Fin 512, A (ix2 r κ) * B (ix2 κ q) := by
  unfold dot
  rw [dif_pos ⟨r.isLt, q.isLt⟩]

/-- Device `c`'s partial product at row `r`, column `q`. -/
def Part (m : Mem) (c : Dev nD) (r q : ℕ) : EReal := dot (argA m c) (argB m c) r q

/-- The exchange partner map is exclusive or on five-bit numbers. -/
theorem xr_eq (c : Dev nD) (μ : Fin 32) : Proto.xr c μ = Cert.SumMath.xr c μ := rfl

theorem peer_eq (k : Fin 3) (s : Fin 5) (c : Dev nD) : peer k s c = Cert.SumMath.xr c (mask k s) := rfl

/-- Device `c`'s running sum after `t` stages of column block `k`, at row `r` and column `q`: the sum of the
    partial products over the `2 ^ t` devices it has met. -/
def Tt (m : Mem) (k : Fin 3) (t : ℕ) (c : Dev nD) (r q : ℕ) : EReal :=
  Cert.SumMath.T (mask k) (fun d => Part m d r q) t c

theorem Tt_zero (m : Mem) (k : Fin 3) (c : Dev nD) (r q : ℕ) : Tt m k 0 c r q = Part m c r q := rfl

/-- One stage: the running sums of a device and of its partner add to the device's next running sum. -/
theorem Tt_succ (m : Mem) (k : Fin 3) (t : ℕ) (ht : t < 5) (c : Dev nD) (r q : ℕ) :
    Tt m k (t + 1) c r q = Tt m k t c r q + Tt m k t (peer k ⟨t, ht⟩ c) r q :=
  Cert.SumMath.T_succ (mask k) (fun d => Part m d r q) ⟨t, ht⟩ c

/-- After the fifth stage every device holds the sum over all thirty-two devices. -/
theorem Tt_five (m : Mem) (k : Fin 3) (c : Dev nD) (r q : ℕ) :
    Tt m k 5 c r q = ∑ d : Dev nD, Part m d r q := by
  unfold Tt
  rw [Cert.SumMath.T_five]
  match k with
  | 0 => exact Cert.SumMath.T5_eq_sum_of_vals₀ (mask 0) rfl rfl rfl rfl rfl _ c
  | 1 => exact Cert.SumMath.T5_eq_sum_of_vals₁ (mask 1) rfl rfl rfl rfl rfl _ c
  | 2 => exact Cert.SumMath.T5_eq_sum_of_vals₂ (mask 2) rfl rfl rfl rfl rfl _ c

/-- The contract of the value claim: every exchanged piece carries the mathematics of the sum. -/
def idealCt (m : Mem) : Proto.Contract Ideal where
  okSS s c r q v := v = Tt m (blk q) s.val c (lo (blk q) c s.val + (1 - bit (blk q) s c) * half s.val + r) q
  okAcc t c r q v := v = Tt m (blk q) t c r q
  okOut r q v := v = Cert.RefSide.gelu (∑ d : Dev nD, Part m d r q)

theorem add_law (m : Mem) (k : Fin 3) (t : ℕ) (ht : t < 5) (c : Dev nD) (r q : ℕ) (v w : EReal)
    (hv : v = Tt m k t c r q) (hw : w = Tt m k t (peer k ⟨t, ht⟩ c) r q) :
    v + w = Tt m k (t + 1) c r q := by
  rw [hv, hw, Tt_succ m k t ht]

theorem out_law (m : Mem) (k : Fin 3) (c : Dev nD) (r q : ℕ) (z : EReal) (hz : z = Tt m k 5 c r q) :
    Cert.RefSide.gelu z = Cert.RefSide.gelu (∑ d : Dev nD, Part m d r q) := by
  rw [hz, Tt_five]

/-! ## Which rows a partner's piece lands on -/

/-- What a device sends at stage `s` is its running sum on the rows of the half it gives away. -/
theorem okSS_iff_okAcc (m : Mem) (s : Fin 5) (c : Dev nD) (r q : ℕ) (v : EReal) :
    (idealCt m).okSS s c r q v
      ↔ (idealCt m).okAcc s.val c (lo (blk q) c s.val + (1 - bit (blk q) s c) * half s.val + r) q v := Iff.rfl

/-- Partners at stage `s` hold the same row range before it: they agree on every earlier stage's bit. -/
theorem lo_peer (k : Fin 3) (s : Fin 5) (c : Dev nD) : ∀ t : ℕ, t ≤ s.val → lo k (peer k s c) t = lo k c t
  | 0, _ => rfl
  | t + 1, ht => by
    have ht5 : t < 5 := by have := s.isLt; omega
    show lo k (peer k s c) t + (if h : t < 5 then bit k ⟨t, h⟩ (peer k s c) * half t else 0)
      = lo k c t + (if h : t < 5 then bit k ⟨t, h⟩ c * half t else 0)
    rw [lo_peer k s c t (by omega), dif_pos ht5, dif_pos ht5,
      bit_peer_lt k s ⟨t, ht5⟩ c (show t < s.val by omega)]

/-- The half a device's partner gives away at stage `s` is the half the device keeps. -/
theorem send_start_peer (k : Fin 3) (s : Fin 5) (c : Dev nD) :
    lo k (peer k s c) s.val + (1 - bit k s (peer k s c)) * half s.val = lo k c (s.val + 1) := by
  rw [lo_peer k s c s.val le_rfl, bit_peer_self]
  show _ = lo k c s.val + (if h : s.val < 5 then bit k ⟨s.val, h⟩ c * half s.val else 0)
  rw [dif_pos s.isLt]
  have hb := bit_le_one k s c
  have h1 : 1 - (1 - bit k s c) = bit k s c := by omega
  rw [h1]

/-- Receiving at stage `s`: the partner's piece at its local row `r` and the device's own running sum at row `r` of
    the half it keeps add to the next running sum there. -/
theorem recv_law (m : Mem) (s : Fin 5) (c : Dev nD) (r q : ℕ) (v : EReal) (w : EReal)
    (hv : (idealCt m).okAcc s.val c (lo (blk q) c (s.val + 1) + r) q v)
    (hw : (idealCt m).okSS s (peer (blk q) s c) r q w) :
    (idealCt m).okAcc (s.val + 1) c (lo (blk q) c (s.val + 1) + r) q (v + w) := by
  have hw' : w = Tt m (blk q) s.val (peer (blk q) s c) (lo (blk q) c (s.val + 1) + r) q := by
    rw [← send_start_peer (blk q) s c]; exact hw
  show v + w = Tt m (blk q) (s.val + 1) c (lo (blk q) c (s.val + 1) + r) q
  exact add_law m (blk q) s.val s.isLt c _ q v w hv hw'

/-! ## From the devices' blocks to the whole arrays -/

/-- Column `κ` of device `d`'s block of the left operand is column `512 d + κ` of the whole. -/
theorem block_cols_apply (A : (⟨2, ![1024, 16384]⟩ : Shape).Idx → EReal) (d : Fin 32) (r : Fin 1024) (κ : Fin 512) :
    (Layout.block ⟨2, ![1024, 512]⟩ ⟨2, ![1024, 16384]⟩ 1 32 d A) (ix2 r κ)
      = A (ix2 r ⟨d.val * 512 + κ.val, by have := d.isLt; have := κ.isLt; omega⟩) := by
  rw [Layout.block_apply]
  congr 1
  funext a
  apply Fin.ext
  match a with
  | ⟨0, _⟩ => rfl
  | ⟨1, _⟩ => rfl

/-- Row `κ` of device `d`'s block of the right operand is row `512 d + κ` of the whole. -/
theorem block_rows_apply (B : (⟨2, ![16384, 1024]⟩ : Shape).Idx → EReal) (d : Fin 32) (κ : Fin 512) (q : Fin 1024) :
    (Layout.block ⟨2, ![512, 1024]⟩ ⟨2, ![16384, 1024]⟩ 0 32 d B) (ix2 κ q)
      = B (ix2 ⟨d.val * 512 + κ.val, by have := d.isLt; have := κ.isLt; omega⟩ q) := by
  rw [Layout.block_apply]
  congr 1
  funext a
  apply Fin.ext
  match a with
  | ⟨0, _⟩ => rfl
  | ⟨1, _⟩ => rfl

/-- The devices' partial products add up to the inner product over all 16384 contraction indices. -/
theorem sum_Part_eq (m : Mem) (A : (⟨2, ![1024, 16384]⟩ : Shape).Idx → EReal) (B : (⟨2, ![16384, 1024]⟩ : Shape).Idx → EReal)
    (hA : ∀ c : Dev nD, m ((c.tc : Thread nD τ).loc main_arg0) = Layout.block ⟨2, ![1024, 512]⟩ ⟨2, ![1024, 16384]⟩ 1 32 c A)
    (hB : ∀ c : Dev nD, m ((c.tc : Thread nD τ).loc main_arg1) = Layout.block ⟨2, ![512, 1024]⟩ ⟨2, ![16384, 1024]⟩ 0 32 c B)
    (r q : Fin 1024) :
    ∑ d : Dev nD, Part m d r.val q.val = ∑ k' : Fin 16384, A (ix2 r k') * B (ix2 k' q) := by
  rw [Cert.SumMath.sum_blocks (fun k' : Fin 16384 => A (ix2 r k') * B (ix2 k' q))]
  refine Finset.sum_congr rfl fun d _ => ?_
  unfold Part
  rw [dot_of_lt]
  unfold argA argB
  rw [hA d, hB d]
  refine Finset.sum_congr rfl fun κ _ => ?_
  rw [block_cols_apply, block_rows_apply]

/-- The contract's result value is the reference's. -/
theorem okOut_iff (m : Mem) (A : (⟨2, ![1024, 16384]⟩ : Shape).Idx → EReal) (B : (⟨2, ![16384, 1024]⟩ : Shape).Idx → EReal)
    (hA : ∀ c : Dev nD, m ((c.tc : Thread nD τ).loc main_arg0) = Layout.block ⟨2, ![1024, 512]⟩ ⟨2, ![1024, 16384]⟩ 1 32 c A)
    (hB : ∀ c : Dev nD, m ((c.tc : Thread nD τ).loc main_arg1) = Layout.block ⟨2, ![512, 1024]⟩ ⟨2, ![16384, 1024]⟩ 0 32 c B)
    (r q : Fin 1024) (v : EReal) :
    (idealCt m).okOut r.val q.val v ↔ v = Cert.RefSide.Spec A B (ix2 r q) := by
  show v = Cert.RefSide.gelu (∑ d : Dev nD, Part m d r.val q.val) ↔ _
  rw [sum_Part_eq m A B hA hB r q, Cert.RefSide.Spec_apply]

/-! ## A local product read at an index

The two contraction records of the kernel: a `512 × 512` block times a `512 × 384` or a `512 × 256` block.
Each contracts the left operand's axis 1 with the right operand's axis 0. -/

theorem lhs384_0 (i : S512x384.Idx) (q : dot_S512x512_S512x384_S512x384_1_0_0_1_n_n.contr.Idx) :
    (dot_S512x512_S512x384_S512x384_1_0_0_1_n_n.lhsIdx i q 0).val = (i 0).val := by
  unfold DotDims.lhsIdx
  rw [dif_neg (show ¬(0 : Fin S512x512.rank) ∈ dot_S512x512_S512x384_S512x384_1_0_0_1_n_n.lhsBatch by decide), dif_pos (show (0 : Fin S512x512.rank) ∈ dot_S512x512_S512x384_S512x384_1_0_0_1_n_n.lhsNonContracting by decide)]
  rfl
theorem lhs384_1 (i : S512x384.Idx) (q : dot_S512x512_S512x384_S512x384_1_0_0_1_n_n.contr.Idx) :
    (dot_S512x512_S512x384_S512x384_1_0_0_1_n_n.lhsIdx i q 1).val = (q ⟨0, by decide⟩).val :=
  dot_S512x512_S512x384_S512x384_1_0_0_1_n_n.lhsIdx_val_of_single rfl i q
theorem rhs384_0 (i : S512x384.Idx) (q : dot_S512x512_S512x384_S512x384_1_0_0_1_n_n.contr.Idx) :
    (dot_S512x512_S512x384_S512x384_1_0_0_1_n_n.rhsIdx i q 0).val = (q ⟨0, by decide⟩).val :=
  dot_S512x512_S512x384_S512x384_1_0_0_1_n_n.rhsIdx_val_of_single rfl i q
theorem rhs384_1 (i : S512x384.Idx) (q : dot_S512x512_S512x384_S512x384_1_0_0_1_n_n.contr.Idx) :
    (dot_S512x512_S512x384_S512x384_1_0_0_1_n_n.rhsIdx i q 1).val = (i 1).val := by
  unfold DotDims.rhsIdx
  rw [dif_neg (show ¬(1 : Fin S512x384.rank) ∈ dot_S512x512_S512x384_S512x384_1_0_0_1_n_n.rhsBatch by decide), dif_pos (show (1 : Fin S512x384.rank) ∈ dot_S512x512_S512x384_S512x384_1_0_0_1_n_n.rhsNonContracting by decide)]
  rfl

/-- The product of a `512 × 512` block with a `512 × 384` block, accumulated into zero, read at an index: the
    sum over the 512 contraction indices of the operands' products. -/
theorem matmul384_apply {φ₁ φ₂ : FTy} (x : FVec Ideal S512x512 φ₁) (y : FVec Ideal S512x384 φ₂) (j : S512x384.Idx) :
    matmul dot_S512x512_S512x384_S512x384_1_0_0_1_n_n none x y (constant (F := Ideal) S512x384 .f32 0x00000000#32) j
      = ∑ κ : Fin 512, x (ix2 (j 0) κ) * y (ix2 κ (j 1)) := by
  simp only [matmul]
  rw [Ideal.matmul_constant_zero_apply, ← Equiv.sum_comp (contrEquiv1 dot_S512x512_S512x384_S512x384_1_0_0_1_n_n 512 rfl rfl).symm]
  refine Finset.sum_congr rfl fun k _ => ?_
  have hk := contrEquiv1_symm_val dot_S512x512_S512x384_S512x384_1_0_0_1_n_n 512 rfl rfl k
  have el : dot_S512x512_S512x384_S512x384_1_0_0_1_n_n.lhsIdx j ((contrEquiv1 dot_S512x512_S512x384_S512x384_1_0_0_1_n_n 512 rfl rfl).symm k) = ix2 (j 0) k := funext fun a => Fin.ext (by
    match a with
    | ⟨0, _⟩ => exact lhs384_0 _ _
    | ⟨1, _⟩ => exact (lhs384_1 _ _).trans hk)
  have er : dot_S512x512_S512x384_S512x384_1_0_0_1_n_n.rhsIdx j ((contrEquiv1 dot_S512x512_S512x384_S512x384_1_0_0_1_n_n 512 rfl rfl).symm k) = ix2 k (j 1) := funext fun a => Fin.ext (by
    match a with
    | ⟨0, _⟩ => exact (rhs384_0 _ _).trans hk
    | ⟨1, _⟩ => exact rhs384_1 _ _)
  exact congrArg₂ (· * ·) (congrArg x el) (congrArg y er)

theorem lhs256_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs256_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs256_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs256_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The product of a `512 × 512` block with a `512 × 256` block, accumulated into zero, read at an index: the
    sum over the 512 contraction indices of the operands' products. -/
theorem matmul256_apply {φ₁ φ₂ : FTy} (x : FVec Ideal S512x512 φ₁) (y : FVec Ideal S512x256 φ₂) (j : S512x256.Idx) :
    matmul dot_S512x512_S512x256_S512x256_1_0_0_1_n_n none x y (constant (F := Ideal) S512x256 .f32 0x00000000#32) j
      = ∑ κ : Fin 512, x (ix2 (j 0) κ) * y (ix2 κ (j 1)) := by
  simp only [matmul]
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx j ((contrEquiv1 dot_S512x512_S512x256_S512x256_1_0_0_1_n_n 512 rfl rfl).symm k) = ix2 (j 0) k := funext fun a => Fin.ext (by
    match a with
    | ⟨0, _⟩ => exact lhs256_0 _ _
    | ⟨1, _⟩ => exact (lhs256_1 _ _).trans hk)
  have er : dot_S512x512_S512x256_S512x256_1_0_0_1_n_n.rhsIdx j ((contrEquiv1 dot_S512x512_S512x256_S512x256_1_0_0_1_n_n 512 rfl rfl).symm k) = ix2 k (j 1) := funext fun a => Fin.ext (by
    match a with
    | ⟨0, _⟩ => exact (rhs256_0 _ _).trans hk
    | ⟨1, _⟩ => exact rhs256_1 _ _)
  exact congrArg₂ (· * ·) (congrArg x el) (congrArg y er)

/-! ## What each printed payload computes, index by index

At the ideal values a change of float format and a shape cast to the same shape are the identity, and the
arithmetic is the extended reals'. -/

/-! ### The local products -/

theorem pay1_apply (x : Vec Ideal S512x512 .f32) (y : Vec Ideal S512x384 .f32) (j : S512x384.Idx) :
    k0_pay1 x y j = ∑ κ : Fin 512, x (ix2 (j 0) κ) * y (ix2 κ (j 1)) := by
  unfold k0_pay1
  simp only [shapeCast_self]
  exact matmul384_apply _ _ j

theorem pay2_apply (x : Vec Ideal S512x512 .f32) (y : Vec Ideal S512x384 .f32) (j : S512x384.Idx) :
    k0_pay2 x y j = ∑ κ : Fin 512, x (ix2 (j 0) κ) * y (ix2 κ (j 1)) := by
  unfold k0_pay2
  simp only [shapeCast_self]
  exact matmul384_apply _ _ j

theorem pay3_apply (x : FVec Ideal S512x384 .bf16) (j : S512x384.Idx) : k0_pay3 x j = x j := by
  unfold k0_pay3
  simp only [shapeCast_self]

theorem pay4_apply (x : Vec Ideal S512x512 .f32) (j : S512x512.Idx) : k0_pay4 x j = x j := by
  unfold k0_pay4
  simp only [shapeCast_self]
  rfl

theorem pay5_apply (x : FVec Ideal S512x512 .bf16) (y : Vec Ideal S512x256 .f32) (j : S512x256.Idx) :
    k0_pay5 x y j = ∑ κ : Fin 512, x (ix2 (j 0) κ) * y (ix2 κ (j 1)) := by
  unfold k0_pay5
  simp only [shapeCast_self]
  exact matmul256_apply _ _ j

theorem pay6_apply (x : Vec Ideal S512x512 .f32) (y : Vec Ideal S512x384 .f32) (j : S512x384.Idx) :
    k0_pay6 x y j = ∑ κ : Fin 512, x (ix2 (j 0) κ) * y (ix2 κ (j 1)) := by
  unfold k0_pay6
  simp only [shapeCast_self]
  exact matmul384_apply _ _ j

theorem pay7_apply (x : Vec Ideal S512x512 .f32) (y : Vec Ideal S512x384 .f32) (j : S512x384.Idx) :
    k0_pay7 x y j = ∑ κ : Fin 512, x (ix2 (j 0) κ) * y (ix2 κ (j 1)) := by
  unfold k0_pay7
  simp only [shapeCast_self]
  exact matmul384_apply _ _ j

theorem pay8_apply (x : Vec Ideal S512x512 .f32) (y : Vec Ideal S512x256 .f32) (j : S512x256.Idx) :
    k0_pay8 x y j = ∑ κ : Fin 512, x (ix2 (j 0) κ) * y (ix2 κ (j 1)) := by
  unfold k0_pay8
  simp only [shapeCast_self]
  exact matmul256_apply _ _ j

/-! ### Stage 0: 256 rows -/

theorem pay9_apply (x : Vec Ideal S256x384 .f32) (y : Vec Ideal S256x384 .bf16) (j : S256x384.Idx) :
    k0_pay9 x y j = x j + y j := by
  unfold k0_pay9
  simp only [shapeCast_self]
  rfl

theorem pay10_apply (x : Vec Ideal S256x384 .f32) (j : S256x384.Idx) : k0_pay10 x j = x j := by
  unfold k0_pay10
  simp only [shapeCast_self]
  rfl

theorem pay11_apply (x : Vec Ideal S256x384 .f32) (y : Vec Ideal S256x384 .bf16) (j : S256x384.Idx) :
    k0_pay11 x y j = x j + y j := by
  unfold k0_pay11
  simp only [shapeCast_self]
  rfl

theorem pay12_apply (x : Vec Ideal S256x384 .f32) (j : S256x384.Idx) : k0_pay12 x j = x j := by
  unfold k0_pay12
  simp only [shapeCast_self]
  rfl

theorem pay13_apply (x : Vec Ideal S256x256 .f32) (y : Vec Ideal S256x256 .bf16) (j : S256x256.Idx) :
    k0_pay13 x y j = x j + y j := by
  unfold k0_pay13
  simp only [shapeCast_self]
  rfl

theorem pay14_apply (x : Vec Ideal S256x256 .f32) (j : S256x256.Idx) : k0_pay14 x j = x j := by
  unfold k0_pay14
  simp only [shapeCast_self]
  rfl

theorem pay15_apply (x : Vec Ideal S256x384 .f32) (y : Vec Ideal S256x384 .bf16) (j : S256x384.Idx) :
    k0_pay15 x y j = x j + y j := rfl

theorem pay16_apply (x : FVec Ideal S256x384 .f32) (j : S256x384.Idx) : k0_pay16 x j = x j := by
  unfold k0_pay16
  simp only [shapeCast_self]

theorem pay17_apply (x : Vec Ideal S256x384 .f32) (y : Vec Ideal S256x384 .bf16) (j : S256x384.Idx) :
    k0_pay17 x y j = x j + y j := by
  unfold k0_pay17
  simp only [shapeCast_self]
  rfl

theorem pay18_apply (x : Vec Ideal S256x256 .f32) (y : Vec Ideal S256x256 .bf16) (j : S256x256.Idx) :
    k0_pay18 x y j = x j + y j := by
  unfold k0_pay18
  simp only [shapeCast_self]
  rfl

/-! ### Stage 1: 128 rows -/

theorem pay19_apply (x : Vec Ideal S128x384 .f32) (y : Vec Ideal S128x384 .bf16) (j : S128x384.Idx) :
    k0_pay19 x y j = x j + y j := by
  unfold k0_pay19
  simp only [shapeCast_self]
  rfl

theorem pay20_apply (x : Vec Ideal S128x384 .f32) (j : S128x384.Idx) : k0_pay20 x j = x j := by
  unfold k0_pay20
  simp only [shapeCast_self]
  rfl

theorem pay21_apply (x : Vec Ideal S128x384 .f32) (y : Vec Ideal S128x384 .bf16) (j : S128x384.Idx) :
    k0_pay21 x y j = x j + y j := by
  unfold k0_pay21
  simp only [shapeCast_self]
  rfl

theorem pay22_apply (x : Vec Ideal S128x384 .f32) (j : S128x384.Idx) : k0_pay22 x j = x j := by
  unfold k0_pay22
  simp only [shapeCast_self]
  rfl

theorem pay23_apply (x : Vec Ideal S128x256 .f32) (y : Vec Ideal S128x256 .bf16) (j : S128x256.Idx) :
    k0_pay23 x y j = x j + y j := rfl

theorem pay24_apply (x : FVec Ideal S128x256 .f32) (j : S128x256.Idx) : k0_pay24 x j = x j := by
  unfold k0_pay24
  simp only [shapeCast_self]

theorem pay25_apply (x : Vec Ideal S128x256 .f32) (j : S128x256.Idx) : k0_pay25 x j = x j := by
  unfold k0_pay25
  simp only [shapeCast_self]
  rfl

theorem pay26_apply (x : Vec Ideal S128x384 .f32) (y : Vec Ideal S128x384 .bf16) (j : S128x384.Idx) :
    k0_pay26 x y j = x j + y j := by
  unfold k0_pay26
  simp only [shapeCast_self]
  rfl

theorem pay27_apply (x : Vec Ideal S128x384 .f32) (y : Vec Ideal S128x384 .bf16) (j : S128x384.Idx) :
    k0_pay27 x y j = x j + y j := by
  unfold k0_pay27
  simp only [shapeCast_self]
  rfl

theorem pay28_apply (x : Vec Ideal S128x256 .f32) (y : Vec Ideal S128x256 .bf16) (j : S128x256.Idx) :
    k0_pay28 x y j = x j + y j := by
  unfold k0_pay28
  simp only [shapeCast_self]
  rfl

/-! ### Stage 2: 64 rows -/

theorem pay29_apply (x : Vec Ideal S64x384 .f32) (y : Vec Ideal S64x384 .bf16) (j : S64x384.Idx) :
    k0_pay29 x y j = x j + y j := by
  unfold k0_pay29
  simp only [shapeCast_self]
  rfl

theorem pay30_apply (x : Vec Ideal S64x384 .f32) (j : S64x384.Idx) : k0_pay30 x j = x j := by
  unfold k0_pay30
  simp only [shapeCast_self]
  rfl

theorem pay31_apply (x : Vec Ideal S64x384 .f32) (y : Vec Ideal S64x384 .bf16) (j : S64x384.Idx) :
    k0_pay31 x y j = x j + y j := by
  unfold k0_pay31
  simp only [shapeCast_self]
  rfl

theorem pay32_apply (x : Vec Ideal S64x384 .f32) (j : S64x384.Idx) : k0_pay32 x j = x j := by
  unfold k0_pay32
  simp only [shapeCast_self]
  rfl

theorem pay33_apply (x : Vec Ideal S64x256 .f32) (y : Vec Ideal S64x256 .bf16) (j : S64x256.Idx) :
    k0_pay33 x y j = x j + y j := by
  unfold k0_pay33
  simp only [shapeCast_self]
  rfl

theorem pay34_apply (x : Vec Ideal S64x256 .f32) (j : S64x256.Idx) : k0_pay34 x j = x j := by
  unfold k0_pay34
  simp only [shapeCast_self]
  rfl

theorem pay35_apply (x : Vec Ideal S64x384 .f32) (y : Vec Ideal S64x384 .bf16) (j : S64x384.Idx) :
    k0_pay35 x y j = x j + y j := by
  unfold k0_pay35
  simp only [shapeCast_self]
  rfl

theorem pay36_apply (x : Vec Ideal S64x384 .f32) (y : Vec Ideal S64x384 .bf16) (j : S64x384.Idx) :
    k0_pay36 x y j = x j + y j := by
  unfold k0_pay36
  simp only [shapeCast_self]
  rfl

theorem pay37_apply (x : Vec Ideal S64x256 .f32) (y : Vec Ideal S64x256 .bf16) (j : S64x256.Idx) :
    k0_pay37 x y j = x j + y j := by
  unfold k0_pay37
  simp only [shapeCast_self]
  rfl

/-! ### Stages 3 and 4: 32 rows -/

theorem pay38_apply (x : Vec Ideal S32x384 .f32) (y : Vec Ideal S32x384 .bf16) (j : S32x384.Idx) :
    k0_pay38 x y j = x j + y j := by
  unfold k0_pay38
  simp only [shapeCast_self]
  rfl

theorem pay39_apply (x : Vec Ideal S32x384 .f32) (j : S32x384.Idx) : k0_pay39 x j = x j := by
  unfold k0_pay39
  simp only [shapeCast_self]
  rfl

theorem pay40_apply (x : Vec Ideal S32x384 .f32) (y : Vec Ideal S32x384 .bf16) (j : S32x384.Idx) :
    k0_pay40 x y j = x j + y j := by
  unfold k0_pay40
  simp only [shapeCast_self]
  rfl

theorem pay41_apply (x : Vec Ideal S32x384 .f32) (j : S32x384.Idx) : k0_pay41 x j = x j := by
  unfold k0_pay41
  simp only [shapeCast_self]
  rfl

theorem pay42_apply (x : Vec Ideal S32x256 .f32) (y : Vec Ideal S32x256 .bf16) (j : S32x256.Idx) :
    k0_pay42 x y j = x j + y j := by
  unfold k0_pay42
  simp only [shapeCast_self]
  rfl

theorem pay43_apply (x : Vec Ideal S32x256 .f32) (j : S32x256.Idx) : k0_pay43 x j = x j := by
  unfold k0_pay43
  simp only [shapeCast_self]
  rfl

theorem pay44_apply (x : Vec Ideal S32x384 .f32) (y : Vec Ideal S32x384 .bf16) (j : S32x384.Idx) :
    k0_pay44 x y j = x j + y j := by
  unfold k0_pay44
  simp only [shapeCast_self]
  rfl

theorem pay45_apply (x : Vec Ideal S32x384 .f32) (y : Vec Ideal S32x384 .bf16) (j : S32x384.Idx) :
    k0_pay45 x y j = x j + y j := by
  unfold k0_pay45
  simp only [shapeCast_self]
  rfl

theorem pay46_apply (x : Vec Ideal S32x256 .f32) (y : Vec Ideal S32x256 .bf16) (j : S32x256.Idx) :
    k0_pay46 x y j = x j + y j := by
  unfold k0_pay46
  simp only [shapeCast_self]
  rfl

/-! ### The result: the pointwise function of the last sum -/

theorem pay47_apply (x : Vec Ideal S32x384 .f32) (y : Vec Ideal S32x384 .bf16) (j : S32x384.Idx) :
    k0_pay47 x y j = Cert.RefSide.gelu (x j + y j) := rfl

theorem pay48_apply (x : Vec Ideal S32x384 .f32) (y : Vec Ideal S32x384 .bf16) (j : S32x384.Idx) :
    k0_pay48 x y j = Cert.RefSide.gelu (x j + y j) := rfl

theorem pay49_apply (x : Vec Ideal S32x256 .f32) (y : Vec Ideal S32x256 .bf16) (j : S32x256.Idx) :
    k0_pay49 x y j = Cert.RefSide.gelu (x j + y j) := rfl

end Cert.ValueMath
end

/-- info: 'Cert.ValueMath.Tt_succ' depends on axioms: [propext, Classical.choice, Quot.sound] -/
#guard_msgs in #print axioms Cert.ValueMath.Tt_succ

/-- info: 'Cert.ValueMath.Tt_five' depends on axioms: [propext, Classical.choice, Quot.sound] -/
#guard_msgs in #print axioms Cert.ValueMath.Tt_five

/-- info: 'Cert.ValueMath.add_law' depends on axioms: [propext, Classical.choice, Quot.sound] -/
#guard_msgs in #print axioms Cert.ValueMath.add_law

/-- info: 'Cert.ValueMath.out_law' depends on axioms: [propext, Classical.choice, Quot.sound] -/
#guard_msgs in #print axioms Cert.ValueMath.out_law

/-- info: 'Cert.ValueMath.recv_law' depends on axioms: [propext, Classical.choice, Quot.sound] -/
#guard_msgs in #print axioms Cert.ValueMath.recv_law

/-- info: 'Cert.ValueMath.sum_Part_eq' depends on axioms: [propext, Classical.choice, Quot.sound] -/
#guard_msgs in #print axioms Cert.ValueMath.sum_Part_eq

/-- info: 'Cert.ValueMath.okOut_iff' depends on axioms: [propext, Classical.choice, Quot.sound] -/
#guard_msgs in #print axioms Cert.ValueMath.okOut_iff

/-- info: 'Cert.ValueMath.matmul384_apply' depends on axioms: [propext, Classical.choice, Quot.sound] -/
#guard_msgs in #print axioms Cert.ValueMath.matmul384_apply

/-- info: 'Cert.ValueMath.matmul256_apply' depends on axioms: [propext, Classical.choice, Quot.sound] -/
#guard_msgs in #print axioms Cert.ValueMath.matmul256_apply

/-- info: 'Cert.ValueMath.pay1_apply' depends on axioms: [propext, Classical.choice, Quot.sound] -/
#guard_msgs in #print axioms Cert.ValueMath.pay1_apply

/-- info: 'Cert.ValueMath.pay5_apply' depends on axioms: [propext, Classical.choice, Quot.sound] -/
#guard_msgs in #print axioms Cert.ValueMath.pay5_apply

/-- info: 'Cert.ValueMath.pay8_apply' depends on axioms: [propext, Classical.choice, Quot.sound] -/
#guard_msgs in #print axioms Cert.ValueMath.pay8_apply

/-- info: 'Cert.ValueMath.pay9_apply' depends on axioms: [propext, Classical.choice, Quot.sound] -/
#guard_msgs in #print axioms Cert.ValueMath.pay9_apply

/-- info: 'Cert.ValueMath.pay10_apply' depends on axioms: [propext, Classical.choice, Quot.sound] -/
#guard_msgs in #print axioms Cert.ValueMath.pay10_apply

/-- info: 'Cert.ValueMath.pay47_apply' depends on axioms: [propext, Classical.choice, Quot.sound] -/
#guard_msgs in #print axioms Cert.ValueMath.pay47_apply

/-- info: 'Cert.ValueMath.pay49_apply' depends on axioms: [propext, Classical.choice, Quot.sound] -/
#guard_msgs in #print axioms Cert.ValueMath.pay49_apply
-- ==== Proof.Claims.lean ====
/-
  The two claims about the kernel, from its run: it leaves its argument arrays as they were, and at the
  ideal values every device's result array ends at the reference's function of the whole arrays.
-/
import proofs.«900879_g7700000000000880_dist_matmul_gelu_kshard_i_m1024_n1024_k512_v7x_i32_bf16_1_alg».proof.Proof.Run
import proofs.«900879_g7700000000000880_dist_matmul_gelu_kshard_i_m1024_n1024_k512_v7x_i32_bf16_1_alg».proof.Defs
import proofs.«900879_g7700000000000880_dist_matmul_gelu_kshard_i_m1024_n1024_k512_v7x_i32_bf16_1_alg».proof.Proof.Gen.Pre_finite_inputs_Kernel
import proofs.«900879_g7700000000000880_dist_matmul_gelu_kshard_i_m1024_n1024_k512_v7x_i32_bf16_1_alg».proof.Proof.ValueMath

noncomputable section

namespace Cert.KernelIdeal.Run

open Cert.KernelIdeal Cert.KernelIdeal.Gen Cert.KernelIdeal.Proto Cert.KernelIdeal.Tab Cert.KernelIdeal.Held Cert.KernelIdeal.PayTab
open Cert.KernelIdeal.Sched Cert.KernelIdeal.GhostTab Cert.KernelIdeal.Owed Cert.KernelIdeal.Ghost
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-! ## The two claims about the kernel -/

section Claims

open Cert.ValueMath (Mem idealCt)

variable (u₀ : UU) (G : Contract Ideal → Dev nD → sProp (MT nD τ sig Unit (Elt Ideal) ℕ UU ℕ))
  (hu₀ : ∀ ct : Contract Ideal, (ownU u₀ : sProp (MT nD τ sig Unit (Elt Ideal) ℕ UU ℕ))
    ⊢ |={Set.univ}=> iprop(BI.own (EP (F := Ideal) (initOf (Pipeline.cells cfgs cellOf_inj) (Pipeline.launchToks cfgs cellOf_inj))) ∗ bigSep Finset.univ (G ct)))
  (hglob : ∀ ct : Contract Ideal,
    (bigSep Finset.univ fun c => iprop(Pipeline.ownSems0 (Ix := Unit) (Name := ℕ) (U := UU) (Lvl := ℕ) (Val := Elt Ideal) (τ := τ) osem c
      ∗ unscopedSems0 c ∗ G ct c) : sProp (MT nD τ sig Unit (Elt Ideal) ℕ UU ℕ)) ⊢ |={Set.univ}=> bigSep Finset.univ (held ct))

include hu₀ hglob in
/-- The kernel runs and leaves its two argument arrays as they were: the run under the contract that asks nothing. -/
theorem frame_of_run
    (hbody : ∀ (m : Mem) (c : Dev nD), (rdats (Contract.trivial (F := Ideal)) m 0 c).BodyObligation (defs₀ (F := Ideal)) Variants.none () Set.univ) :
    Cert.frame_KernelIdeal := fun m g _ =>
  (θ_run (defs (F := Ideal)) _ _).mono
    (fun r h c => ⟨final_in Contract.trivial m c (0 : Fin 3) rfl _ (h c 0), final_in Contract.trivial m c (1 : Fin 3) rfl _ (h c 1)⟩)
    (run_main Contract.trivial m g u₀ (G _) (hu₀ _) (hglob _) (hbody m))

include hu₀ hglob in
/-- From memories holding each device's blocks of `A` and `B`, the kernel runs, every device's result array ends at the
    reference's function of `A` and `B`, and the argument arrays end as they were: the run under the contract of the sum. -/
theorem value_of_run
    (hbody : ∀ (m : Mem) (c : Dev nD), (rdats (idealCt m) m 0 c).BodyObligation (defs₀ (F := Ideal)) Variants.none () Set.univ)
    (m : Mem) (g : Dev nD → PrngReg)
    (A : (⟨2, ![1024, 16384]⟩ : Shape).Idx → EReal) (B : (⟨2, ![16384, 1024]⟩ : Shape).Idx → EReal)
    (hA : ∀ c : Dev nD, m ((c.tc : Thread nD τ).loc main_arg0) = Layout.block ⟨2, ![1024, 512]⟩ ⟨2, ![1024, 16384]⟩ 1 32 c A)
    (hB : ∀ c : Dev nD, m ((c.tc : Thread nD τ).loc main_arg1) = Layout.block ⟨2, ![512, 1024]⟩ ⟨2, ![16384, 1024]⟩ 0 32 c B) :
    θ_run (defs (F := Ideal)) (onTc (τ := τ) (main (F := Ideal))) ⟨m, fun _ => 0, g⟩ (fun r => ∀ c : Dev nD,
      r.2.mem ((c.tc : Thread nD τ).loc main_v1) = Cert.RefSide.Spec A B
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun r h c => ⟨funext fun i : S1024x1024.Idx => by
        have hi := final_out (idealCt m) m c _ (h c 2) i
        rw [Cert.ValueMath.okOut_iff m A B hA hB (i 0) (i 1)] at hi
        exact hi.trans (congrArg (Cert.RefSide.Spec A B) (ValueIdx.eq_ix2 i).symm),
      final_in (idealCt m) m c (0 : Fin 3) rfl _ (h c 0), final_in (idealCt m) m c (1 : Fin 3) rfl _ (h c 1)⟩)
    (run_main (idealCt m) m g u₀ (G _) (hu₀ _) (hglob _) (hbody m))

include hu₀ hglob in
/-- The kernel on thirty-two devices and the reference on one end at the same array. -/
theorem algebraic_of_run
    (hbody : ∀ (m : Mem) (c : Dev nD), (rdats (idealCt m) m 0 c).BodyObligation (defs₀ (F := Ideal)) Variants.none () Set.univ) :
    Cert.algebraic_KernelIdeal_ReferenceIdeal := by
  intro m g m' g' _ hagree
  exact ⟨_, value_of_run u₀ G hu₀ hglob hbody m g _ _ (fun c => (hagree c).1) (fun c => (hagree c).2), Cert.RefSide.ref_run m' g'⟩

end Claims

end Cert.KernelIdeal.Run

end
-- ==== Proof.Fund.lean ====
/-
  The ghost funding of the launch.

  At launch one element of the ghost algebra is owned: the pipeline library's part, and for the exchange
  every cell in use in its launch state together with one token per duty of each cell. This module splits
  that element into what each device is dealt (its cells' round states, its positions, its own cells'
  tokens), allocates every cell's invariant from the semaphores at zero, and deals the tokens around to
  the devices that pay them: a handshake duty's to the partner that sends the signal, a receive cell's to
  the sender of the transfer; a send cell's stays. The twelve transfer semaphores no transfer uses are
  kept at zero by their device.
-/
import proofs.«900879_g7700000000000880_dist_matmul_gelu_kshard_i_m1024_n1024_k512_v7x_i32_bf16_1_alg».proof.Proof.Ghost

noncomputable section

namespace Cert.KernelIdeal.Fund

open Cert.KernelIdeal Cert.KernelIdeal.Gen Cert.KernelIdeal.Proto Cert.KernelIdeal.Tab Cert.KernelIdeal.Held Cert.KernelIdeal.PayTab
open Cert.KernelIdeal.Sched Cert.KernelIdeal.GhostTab Cert.KernelIdeal.Owed Cert.KernelIdeal.Ghost
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (ct : Contract F)

/-! ## The cells and the tokens minted at launch -/

/-- The cells of the exchange: every device's handshake cell and its transfer cells in use. -/
def ringCells : Finset (GSem nD τ sig) := ourIx.map ⟨kcell, kcell_inj⟩

/-- The indices of a device's cells in use. -/
def ourN : Finset (Fin 124) := Finset.univ.filter fun n => ours n = true

/-- Duty `x.2` is a duty of the cell with index `x.1`: all five on the handshake cell, duty `0` on a transfer cell in use. -/
def tokOk (x : Fin 124 × Fin 5) : Prop := x.1.val = 123 ∨ (usedIx x.1.val = true ∧ x.2 = 0)
instance : DecidablePred tokOk := fun x => by unfold tokOk; infer_instance

/-- The duties of one device's cells. -/
def tokN : Finset (Fin 124 × Fin 5) := Finset.univ.filter tokOk

/-- The duties of all devices' cells. -/
def tokIx : Finset (Dev nD × Fin 124 × Fin 5) := Finset.univ.filter fun x => tokOk x.2

/-- The token of a duty: its cell, round 0, the duty. -/
abbrev tokOf (x : Dev nD × Fin 124 × Fin 5) : GSem nD τ sig × ℕ × Fin 5 := (kcell (x.1, x.2.1), 0, x.2.2)

theorem tokOf_inj : Function.Injective (tokOf : Dev nD × Fin 124 × Fin 5 → GSem nD τ sig × ℕ × Fin 5) := by
  rintro ⟨c, n, i⟩ ⟨c', n', i'⟩ h
  have h1 : kcell (c, n) = kcell (c', n') := congrArg (fun x : GSem nD τ sig × ℕ × Fin 5 => x.1) h
  have h2 : i = i' := congrArg (fun x : GSem nD τ sig × ℕ × Fin 5 => x.2.2) h
  have h3 := kcell_inj h1
  rw [Prod.mk.injEq] at h3
  rw [h3.1, h3.2, h2]

def ringToks : Finset (GSem nD τ sig × ℕ × Fin 5) := tokIx.map ⟨tokOf, tokOf_inj⟩

/-- The launch element: the pipeline library's, and the exchange's cells with their tokens. -/
def u₀ : UU :=
  (initOf (Pipeline.cells cfgs cellOf_inj) (Pipeline.launchToks cfgs cellOf_inj), initOf ringCells ringToks)

/-- What the launch element deals device `c`: its cells' round states, its positions on them with round 0
    reached, and the tokens of its own cells' duties. -/
def G (c : Dev nD) : sProp 𝕄 :=
  iprop((bigSep ourN fun n => roundState ER (sched ct) (kcell (c, n)) 0)
    ∗ (bigSep ourN fun n => iprop(atPos ER (kcell (c, n)) 0 ∅ 0 ∗ reached ER (kcell (c, n)) 0))
    ∗ bigSep tokN fun x => dutyTok ER (kcell (c, x.1)) 0 x.2)

/-- What the global step makes of it. -/
def G' (c : Dev nD) : sProp 𝕄 :=
  iprop((∃ K, records ct K ∗ positions c ∗ barToks c ∗ xferToks c) ∗ idle c)

omit [FloatOps F] in
/-- A sum over the pairs whose second coordinate passes a test is the iterated sum. -/
theorem bigSep_filter_snd {α β : Type} [Fintype α] [Fintype β] [DecidableEq α] [DecidableEq β] (p : β → Prop) [DecidablePred p]
    (Ψ : α × β → sProp 𝕄) :
    bigSep (Finset.univ.filter fun x : α × β => p x.2) Ψ
      = bigSep Finset.univ fun a => bigSep (Finset.univ.filter p) fun b => Ψ (a, b) := by
  rw [bigSep_filter, bigSep_univ_prod]
  exact bigSep_congr fun a _ => (bigSep_filter Finset.univ p fun b => Ψ (a, b)).symm

omit [FloatOps F] in
theorem ringCells_sep (Φ : GSem nD τ sig → sProp 𝕄) :
    bigSep ringCells Φ = bigSep Finset.univ fun c : Dev nD => bigSep ourN fun n => Φ (kcell (c, n)) := by
  unfold ringCells ourIx ourN
  rw [bigSep_map, bigSep_filter_snd (fun n : Fin 124 => ours n = true)]
  rfl

omit [FloatOps F] in
theorem ringToks_sep :
    bigSep ringToks (fun x => (dutyTok ER x.1 x.2.1 x.2.2 : sProp 𝕄))
      = bigSep Finset.univ fun c : Dev nD => bigSep tokN fun x => dutyTok ER (kcell (c, x.1)) 0 x.2 := by
  unfold ringToks tokIx tokN
  rw [bigSep_map, bigSep_filter_snd tokOk]
  rfl

theorem fund_ring : BI.own (ER (initOf ringCells ringToks)) ⊢ (|==> bigSep Finset.univ (G ct) : sProp 𝕄) := by
  iintro HX
  imod (Rounds.fund ER (sched ct) ringCells ringToks) $$ HX with ⟨Hst, Hr, Hat, Htok⟩
  imodintro
  ihave Hst' := (Entails.of_eq (ringCells_sep fun g => roundState ER (sched ct) g 0)) $$ Hst
  ihave Hat' := (Entails.of_eq (ringCells_sep fun g => atPos ER g 0 ∅ 0)) $$ Hat
  ihave Hr' := (Entails.of_eq (ringCells_sep fun g => reached ER g 0)) $$ Hr
  ihave Htok' := (Entails.of_eq ringToks_sep) $$ Htok
  unfold G; simp only [bigSep_sep']
  isplitl [Hst']; · iexact Hst'
  isplitl [Hat' Hr']
  · isplitl [Hat'] <;> iassumption
  iexact Htok'

/-- The launch element funds the pipeline library's cells and every device's share of the exchange's. -/
theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G ct)) := by
  unfold u₀
  iintro Hu
  ihave H := (ownU_pair _ _) $$ Hu
  icases H with ⟨HP, HX⟩
  imod (fund_ring ct) $$ HX with HG
  imodintro
  isplitl [HP] <;> iassumption

/-! ## The semaphores at zero: the cells in use and the idle ones -/

/-- The kernel's own semaphore `i` is the cell with index `3 + i`. -/
def emb120 : Fin 120 ↪ Fin 124 :=
  ⟨fun i => ⟨3 + i.val, by have := i.isLt; omega⟩, fun a b h => Fin.ext (by have := congrArg Fin.val h; simp only at this; omega)⟩

omit [FloatOps F] in
theorem kcell_emb120 (c : Dev nD) (i : Fin 120) : kcell (c, emb120 i) = ((c : Thread nD τ), osem i) := by
  unfold kcell cix
  have h : (emb120 i).val < 123 := by show 3 + i.val < 123; have := i.isLt; omega
  rw [dif_pos h]
  rfl

/-- Of the kernel's own 120 semaphores, those in use are the device's transfer cells in use. -/
theorem used120 : (Finset.univ.filter fun i : Fin 120 => usedIx (3 + i.val) = true).map emb120 = ourN.erase (123 : Fin 124) := by decide

/-- The twelve others. -/
theorem idle120 : (Finset.univ.filter fun i : Fin 120 => ¬ usedIx (3 + i.val) = true)
    = ([25, 27, 29, 55, 57, 59, 85, 87, 89, 115, 117, 119] : List (Fin 120)).toFinset := by decide

omit [FloatOps F] in
/-- The handshake semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own semaphores and the handshake semaphore, all at zero, are the device's cells in use at zero
    and the twelve idle ones. -/
theorem sems0_eq (c : Dev nD) :
    iprop(Pipeline.ownSems0 (Ix := Unit) (Name := ℕ) (U := UU) (Lvl := ℕ) (Val := Elt F) (τ := τ) osem c ∗ unscopedSems0 c)
      ⊢ iprop((bigSep ourN fun n => semVal (kcell (c, n)) 0) ∗ idle c : sProp 𝕄) := by
  have hown : (Pipeline.ownSems0 (Ix := Unit) (Name := ℕ) (U := UU) (Lvl := ℕ) (Val := Elt F) (τ := τ) osem c : sProp 𝕄)
      = iprop((bigSep (ourN.erase (123 : Fin 124)) fun n => semVal (kcell (c, n)) 0) ∗ idle c) := by
    unfold Pipeline.ownSems0
    rw [bigSep_filter_split Finset.univ (fun i : Fin 120 => usedIx (3 + i.val) = true), ← used120, bigSep_map,
      bigSep_eq_bigSepL_of_eq _ idle120 (by decide)]
    congr 1
  have hN : (bigSep ourN fun n => (semVal (kcell (c, n)) 0 : sProp 𝕄))
      = iprop(semVal (barCell c) 0 ∗ bigSep (ourN.erase (123 : Fin 124)) fun n => semVal (kcell (c, n)) 0) :=
    bigSep_erase (show (123 : Fin 124) ∈ ourN by decide)
  rw [hown, unscopedSems0_eq, hN]
  iintro ⟨⟨Hu, Hi⟩, Hb⟩
  isplitr [Hi]
  · isplitl [Hb]; · iexact Hb
    iexact Hu
  iexact Hi

/-- Each cell in use gets its invariant; the idle semaphores stay as they are. -/
theorem core_alloc (c : Dev nD) :
    iprop(Pipeline.ownSems0 (Ix := Unit) (Name := ℕ) (U := UU) (Lvl := ℕ) (Val := Elt F) (τ := τ) osem c ∗ unscopedSems0 c ∗ G ct c)
      ⊢ |={Set.univ}=> iprop((bigSep ourN fun n => iprop(∃ κ : ℕ, cellInv ER (sched ct) κ (kcell (c, n))))
          ∗ (bigSep ourN fun n => iprop(atPos ER (kcell (c, n)) 0 ∅ 0 ∗ reached ER (kcell (c, n)) 0))
          ∗ (bigSep tokN fun x => dutyTok ER (kcell (c, x.1)) 0 x.2) ∗ idle c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep ourN fun n => semVal (kcell (c, n)) 0) ∗ bigSep ourN fun n => roundState ER (sched ct) (kcell (c, n)) 0)
      ⊢ (|={Set.univ}=> bigSep ourN fun n => iprop(∃ κ : ℕ, cellInv ER (sched ct) κ (kcell (c, n))) : sProp 𝕄) from by
        rw [← bigSep_sep']
        exact (bigSep_mono fun n _ => (Rounds.body_intro ER (sched ct) (kcell (c, n))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-! ## The transfers of a device, in program order -/

/-- A transfer: the phase (0 summing, 1 gathering), the stage, the column block, the piece. -/
abbrev Tr : Type := Fin 2 × Fin 5 × Fin 3 × Fin 2

/-- The last stage has one piece. -/
def usedT (t : Tr) : Prop := t.2.1.val < 4 ∨ t.2.2.2.val = 0
instance : DecidablePred usedT := fun t => by unfold usedT; infer_instance

/-- The transfers that take place. -/
abbrev Tu : Type := {t : Tr // usedT t}

/-- The send and the receive semaphore array of a phase. -/
def sa : Fin 2 → Fin 4
  | 0 => 0
  | 1 => 2
def ra : Fin 2 → Fin 4
  | 0 => 1
  | 1 => 3

/-- The index of a transfer's send cell and of its receive cell. -/
def sIx (t : Tr) : Fin 124 := ⟨(dsem (sa t.1) t.2.1 t.2.2.1 t.2.2.2).val, Nat.lt_trans (dsem (sa t.1) t.2.1 t.2.2.1 t.2.2.2).isLt (by decide)⟩
def rIx (t : Tr) : Fin 124 := ⟨(dsem (ra t.1) t.2.1 t.2.2.1 t.2.2.2).val, Nat.lt_trans (dsem (ra t.1) t.2.1 t.2.2.1 t.2.2.2).isLt (by decide)⟩

theorem sIx_inj : Function.Injective sIx := by decide
theorem rIx_inj : Function.Injective rIx := by decide

/-- A device's cells in use: its handshake cell, and the send and the receive cell of every transfer. -/
theorem ourN_eq : ourN = insert (123 : Fin 124)
    (((Finset.univ.filter usedT).map ⟨sIx, sIx_inj⟩) ∪ ((Finset.univ.filter usedT).map ⟨rIx, rIx_inj⟩)) := by decide

theorem ourN_disj : Disjoint ((Finset.univ.filter usedT).map ⟨sIx, sIx_inj⟩) ((Finset.univ.filter usedT).map ⟨rIx, rIx_inj⟩) := by decide

theorem ourN_bar : (123 : Fin 124) ∉ (((Finset.univ.filter usedT).map ⟨sIx, sIx_inj⟩) ∪ ((Finset.univ.filter usedT).map ⟨rIx, rIx_inj⟩)) := by decide

omit [FloatOps F] in
/-- A sum over a device's cells in use, by kind of cell. -/
theorem ourN_sep (Φ : Fin 124 → sProp 𝕄) :
    bigSep ourN Φ = iprop(Φ 123 ∗ bigSep (Finset.univ.filter usedT) fun t => iprop(Φ (sIx t) ∗ Φ (rIx t))) := by
  rw [ourN_eq, bigSep_insert ourN_bar, bigSep_union ourN_disj, bigSep_map, bigSep_map, bigSep_sep']
  rfl

/-- The transfers in program order: the summing phase by rising stage, the gathering phase by falling stage. -/
def xl : List Tr :=
  [(0, 0, 0, 0), (0, 0, 0, 1), (0, 0, 1, 0), (0, 0, 1, 1), (0, 0, 2, 0), (0, 0, 2, 1),
   (0, 1, 0, 0), (0, 1, 0, 1), (0, 1, 1, 0), (0, 1, 1, 1), (0, 1, 2, 0), (0, 1, 2, 1),
   (0, 2, 0, 0), (0, 2, 0, 1), (0, 2, 1, 0), (0, 2, 1, 1), (0, 2, 2, 0), (0, 2, 2, 1),
   (0, 3, 0, 0), (0, 3, 0, 1), (0, 3, 1, 0), (0, 3, 1, 1), (0, 3, 2, 0), (0, 3, 2, 1),
   (0, 4, 0, 0), (0, 4, 1, 0), (0, 4, 2, 0),
   (1, 4, 0, 0), (1, 4, 1, 0), (1, 4, 2, 0),
   (1, 3, 0, 0), (1, 3, 0, 1), (1, 3, 1, 0), (1, 3, 1, 1), (1, 3, 2, 0), (1, 3, 2, 1),
   (1, 2, 0, 0), (1, 2, 0, 1), (1, 2, 1, 0), (1, 2, 1, 1), (1, 2, 2, 0), (1, 2, 2, 1),
   (1, 1, 0, 0), (1, 1, 0, 1), (1, 1, 1, 0), (1, 1, 1, 1), (1, 1, 2, 0), (1, 1, 2, 1),
   (1, 0, 0, 0), (1, 0, 0, 1), (1, 0, 1, 0), (1, 0, 1, 1), (1, 0, 2, 0), (1, 0, 2, 1)]

theorem xl_eq : Finset.univ.filter usedT = xl.toFinset := by decide
theorem xl_nodup : xl.Nodup := by decide

/-- A transfer's send cell on device `c`, and its receive cell. -/
abbrev sCell (c : Dev nD) (t : Tr) : GSem nD τ sig := dcell c (sa t.1) t.2.1 t.2.2.1 t.2.2.2
abbrev rCell (c : Dev nD) (t : Tr) : GSem nD τ sig := dcell c (ra t.1) t.2.1 t.2.2.1 t.2.2.2

omit [FloatOps F] in
theorem kcell_sIx (c : Dev nD) (t : Tr) : kcell (c, sIx t) = sCell c t := kcell_dma c _ _ _ _
omit [FloatOps F] in
theorem kcell_rIx (c : Dev nD) (t : Tr) : kcell (c, rIx t) = rCell c t := kcell_dma c _ _ _ _

omit [FloatOps F] in
/-- A device's positions, as a sum over its transfers. -/
theorem positions_eq (c : Dev nD) :
    (positions c : sProp 𝕄)
      = iprop(atPos ER (barCell c) 0 ∅ 0 ∗ bigSep (Finset.univ.filter usedT) fun t => iprop(atPos ER (sCell c t) 0 ∅ 0 ∗ atPos ER (rCell c t) 0 ∅ 0)) := by
  rw [bigSep_eq_bigSepL_of_eq xl xl_eq xl_nodup]
  rfl

omit [FloatOps F] in
/-- The tokens a device pays its transfers with, as a sum over its transfers. -/
theorem xferToks_eq (c : Dev nD) :
    (xferToks c : sProp 𝕄)
      = bigSep (Finset.univ.filter usedT) fun t => iprop(dutyTok ER (sCell c t) 0 0 ∗ dutyTok ER (rCell (peer t.2.2.1 t.2.1 c) t) 0 0) := by
  rw [bigSep_eq_bigSepL_of_eq xl xl_eq xl_nodup]
  rfl

omit [FloatOps F] in
/-- The tokens a device pays its handshakes with, as a sum over the five partners. -/
theorem barToks_eq (c : Dev nD) :
    (barToks c : sProp 𝕄) = bigSep Finset.univ fun i : Fin 5 => dutyTok ER (barCell (xr c (hmask i))) 0 i := by
  rw [bigSep_univ_eq_bigSepL [(0 : Fin 5), 1, 2, 3, 4] (by decide) (by decide)]
  rfl

/-! ## The tokens dealt around -/

/-- Flipping the bits of `μ` is a permutation of the devices. -/
def xrE (μ : Fin 32) : Dev nD ≃ Dev nD := ⟨fun c => xr c μ, fun c => xr c μ, fun c => xr_xr c μ, fun c => xr_xr c μ⟩

omit [FloatOps F] in
/-- Dealing around: in a sum over devices and kinds, each kind's summands may be handed to a permuted device. -/
theorem deal {T : Type} [Fintype T] (e : T → Dev nD ≃ Dev nD) (B : Dev nD → T → sProp 𝕄) :
    (bigSep Finset.univ fun c => bigSep Finset.univ fun t => B c t)
      = bigSep Finset.univ fun c => bigSep Finset.univ fun t => B (e t c) t := by
  rw [bigSep_univ_comm, bigSep_congr (fun t _ => bigSep_univ_equiv (e t) (fun c => B c t)), bigSep_univ_comm]

def bTok : Fin 5 ↪ Fin 124 × Fin 5 := ⟨fun i => (123, i), fun a b h => congrArg Prod.snd h⟩
def sTok : Tr ↪ Fin 124 × Fin 5 := ⟨fun t => (sIx t, 0), fun a b h => sIx_inj (congrArg Prod.fst h)⟩
def rTok : Tr ↪ Fin 124 × Fin 5 := ⟨fun t => (rIx t, 0), fun a b h => rIx_inj (congrArg Prod.fst h)⟩

/-- The duties of a device's cells: the five of its handshake cell, one per send cell, one per receive cell. -/
theorem tokN_eq : tokN = Finset.univ.map bTok ∪ ((Finset.univ.filter usedT).map sTok ∪ (Finset.univ.filter usedT).map rTok) := by decide
theorem tokN_disj1 : Disjoint (Finset.univ.map bTok) ((Finset.univ.filter usedT).map sTok ∪ (Finset.univ.filter usedT).map rTok) := by decide
theorem tokN_disj2 : Disjoint ((Finset.univ.filter usedT).map sTok) ((Finset.univ.filter usedT).map rTok) := by decide

omit [FloatOps F] in
theorem tokN_sep (Ψ : Fin 124 × Fin 5 → sProp 𝕄) :
    bigSep tokN Ψ = iprop((bigSep Finset.univ fun i : Fin 5 => Ψ (123, i))
      ∗ ((bigSep (Finset.univ.filter usedT) fun t => Ψ (sIx t, 0)) ∗ bigSep (Finset.univ.filter usedT) fun t => Ψ (rIx t, 0))) := by
  rw [tokN_eq, bigSep_union tokN_disj1, bigSep_union tokN_disj2, bigSep_map, bigSep_map, bigSep_map]
  rfl

omit [FloatOps F] in
/-- Every device's own cells' tokens, dealt around: a handshake duty's to the partner that pays it, a receive
    cell's to the sender; a send cell's stays. -/
theorem toks_around :
    (bigSep Finset.univ fun c : Dev nD => bigSep tokN fun x => (dutyTok ER (kcell (c, x.1)) 0 x.2 : sProp 𝕄))
      = bigSep Finset.univ fun c : Dev nD => iprop(barToks c ∗ xferToks c) := by
  have hL (c : Dev nD) : (bigSep tokN fun x => (dutyTok ER (kcell (c, x.1)) 0 x.2 : sProp 𝕄))
      = iprop((bigSep Finset.univ fun i : Fin 5 => dutyTok ER (barCell c) 0 i)
        ∗ ((bigSep Finset.univ fun t : Tu => dutyTok ER (sCell c t.1) 0 0) ∗ bigSep Finset.univ fun t : Tu => dutyTok ER (rCell c t.1) 0 0)) := by
    rw [tokN_sep, bigSep_subtype usedT (fun t => (dutyTok ER (sCell c t) 0 0 : sProp 𝕄)),
      bigSep_subtype usedT (fun t => (dutyTok ER (rCell c t) 0 0 : sProp 𝕄))]
    simp only [kcell_sIx, kcell_rIx]
    rfl
  have hR (c : Dev nD) : (iprop(barToks c ∗ xferToks c) : sProp 𝕄)
      = iprop((bigSep Finset.univ fun i : Fin 5 => dutyTok ER (barCell (xrE (hmask i) c)) 0 i)
        ∗ ((bigSep Finset.univ fun t : Tu => dutyTok ER (sCell c t.1) 0 0)
          ∗ bigSep Finset.univ fun t : Tu => dutyTok ER (rCell (xrE (mask t.1.2.2.1 t.1.2.1) c) t.1) 0 0)) := by
    rw [barToks_eq, xferToks_eq, bigSep_sep', bigSep_subtype usedT (fun t => (dutyTok ER (sCell c t) 0 0 : sProp 𝕄)),
      bigSep_subtype usedT (fun t => (dutyTok ER (rCell (xrE (mask t.2.2.1 t.2.1) c) t) 0 0 : sProp 𝕄))]
    rfl
  rw [bigSep_congr (fun c _ => hL c), bigSep_congr (fun c _ => hR c), bigSep_sep', bigSep_sep', bigSep_sep', bigSep_sep',
    deal (fun i : Fin 5 => xrE (hmask i)) (fun c i => (dutyTok ER (barCell c) 0 i : sProp 𝕄)),
    deal (fun t : Tu => xrE (mask t.1.2.2.1 t.1.2.1)) (fun c t => (dutyTok ER (rCell c t.1) 0 0 : sProp 𝕄))]

/-! ## The global step -/

omit [FloatOps F] in
theorem ourIx_sep (Ψ : Dev nD × Fin 124 → sProp 𝕄) :
    bigSep ourIx Ψ = bigSep Finset.univ fun c : Dev nD => bigSep ourN fun n => Ψ (c, n) := by
  unfold ourIx ourN
  exact bigSep_filter_snd (fun n : Fin 124 => ours n = true) Ψ

omit [FloatOps F] in
/-- A device's positions are its positions on its cells in use. -/
theorem positions_ourN (c : Dev nD) :
    (bigSep ourN fun n => (atPos ER (kcell (c, n)) 0 ∅ 0 : sProp 𝕄)) = positions c := by
  rw [ourN_sep, positions_eq]
  simp only [kcell_sIx, kcell_rIx]
  rfl

/-- What stays with device `c`: its positions, the tokens of the duties it pays, its idle semaphores. -/
def linear (c : Dev nD) : sProp 𝕄 := iprop(positions c ∗ iprop(barToks c ∗ xferToks c) ∗ idle c)

omit [FloatOps F] in
theorem linear_sep :
    (iprop(bigSep Finset.univ (fun c : Dev nD => (positions c : sProp 𝕄))
      ∗ (bigSep Finset.univ fun c : Dev nD => iprop(barToks c ∗ xferToks c)) ∗ bigSep Finset.univ fun c : Dev nD => idle c) : sProp 𝕄)
      = bigSep Finset.univ fun c : Dev nD => linear c := by
  unfold linear
  exact ((bigSep_sep' Finset.univ (fun c : Dev nD => (positions c : sProp 𝕄)) (fun c => iprop(iprop(barToks c ∗ xferToks c) ∗ idle c))).trans
    (congrArg (fun X => iprop(bigSep Finset.univ (fun c : Dev nD => (positions c : sProp 𝕄)) ∗ X))
      (bigSep_sep' Finset.univ (fun c : Dev nD => (iprop(barToks c ∗ xferToks c) : sProp 𝕄)) (fun c => idle c)))).symm

theorem ghost_intro (K : Dev nD × Fin 124 → ℕ) (c : Dev nD) : iprop(records ct K ∗ linear c) ⊢ G' ct c := by
  unfold linear G'
  iintro ⟨#HR, Hp, ⟨Hb, Hx⟩, Hi⟩
  isplitr [Hi]
  · iexists K
    isplitr; · iexact HR
    isplitl [Hp]; · iexact Hp
    isplitl [Hb]; · iexact Hb
    iexact Hx
  iexact Hi

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep ourN fun n => iprop(∃ κ : ℕ, cellInv ER (sched ct) κ (kcell (c, n))))
          ∗ (bigSep ourN fun n => iprop(atPos ER (kcell (c, n)) 0 ∅ 0 ∗ reached ER (kcell (c, n)) 0))
          ∗ (bigSep tokN fun x => dutyTok ER (kcell (c, x.1)) 0 x.2) ∗ idle c) : sProp 𝕄)
      ⊢ bigSep Finset.univ (G' ct) := by
  rw [bigSep_sep', bigSep_sep', bigSep_sep',
    ← ourIx_sep (fun p : Dev nD × Fin 124 => iprop(∃ κ : ℕ, cellInv ER (sched ct) κ (kcell p))),
    bigSep_congr (s := Finset.univ) (fun (c : Dev nD) _ => bigSep_sep' ourN (fun n => (atPos ER (kcell (c, n)) 0 ∅ 0 : sProp 𝕄)) (fun n => reached ER (kcell (c, n)) 0)),
    bigSep_sep', ← ourIx_sep (fun p : Dev nD × Fin 124 => (reached ER (kcell p) 0 : sProp 𝕄)),
    bigSep_congr (s := Finset.univ) (fun (c : Dev nD) _ => positions_ourN c), toks_around]
  iintro ⟨HI, ⟨Hat, #HR⟩, Htok, Hidle⟩
  ihave HK := (BI.bigSep_exists_pi ourIx (fun (p : Dev nD × Fin 124) (κ : ℕ) => (cellInv ER (sched ct) κ (kcell p) : sProp 𝕄))) $$ HI
  icases HK with ⟨%K, #HI⟩
  iapply (bigSep_with_persistent (R := records ct K) fun c _ => ghost_intro ct K c)
  isplitr
  · unfold records; isplitl; · iexact HI
    iexact HR
  · iapply (Entails.of_eq (linear_sep (F := F)))
    isplitl [Hat]; · iexact Hat
    isplitl [Htok]; · iexact Htok
    iexact Hidle

/-- The global step: the own and the unscoped semaphores of every device at once. -/
theorem hglob : (bigSep Finset.univ fun c => iprop(Pipeline.ownSems0 (Ix := Unit) (Name := ℕ) (U := UU) (Lvl := ℕ) (Val := Elt F) (τ := τ) osem c ∗ unscopedSems0 c ∗ G ct c) : sProp 𝕄)
    ⊢ |={Set.univ}=> bigSep Finset.univ (G' ct) :=
  ((bigSep_mono fun c _ => core_alloc ct c).trans (bigSep_fupd _ _)).trans (BI.fupd_mono (regroup ct))

end Cert.KernelIdeal.Fund
end

/-- info: 'Cert.KernelIdeal.Fund.hu₀' depends on axioms: [propext, Classical.choice, Quot.sound] -/
#guard_msgs in #print axioms Cert.KernelIdeal.Fund.hu₀

/-- info: 'Cert.KernelIdeal.Fund.core_alloc' depends on axioms: [propext, Classical.choice, Quot.sound] -/
#guard_msgs in #print axioms Cert.KernelIdeal.Fund.core_alloc

/-- info: 'Cert.KernelIdeal.Fund.toks_around' depends on axioms: [propext, Classical.choice, Quot.sound] -/
#guard_msgs in #print axioms Cert.KernelIdeal.Fund.toks_around

/-- info: 'Cert.KernelIdeal.Fund.regroup' depends on axioms: [propext, Classical.choice, Quot.sound] -/
#guard_msgs in #print axioms Cert.KernelIdeal.Fund.regroup

/-- info: 'Cert.KernelIdeal.Fund.hglob' depends on axioms: [propext, Classical.choice, Quot.sound] -/
#guard_msgs in #print axioms Cert.KernelIdeal.Fund.hglob
-- ==== Proof.StateTab.lean ====
import proofs.«900879_g7700000000000880_dist_matmul_gelu_kshard_i_m1024_n1024_k512_v7x_i32_bf16_1_alg».proof.Proof.Ghost

noncomputable section

namespace Cert.KernelIdeal.StateTab

open Cert.KernelIdeal Cert.KernelIdeal.Gen Cert.KernelIdeal.Proto Cert.KernelIdeal.Tab Cert.KernelIdeal.Held Cert.KernelIdeal.PayTab
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

local notation "𝕄" => MT nD τ sig Unit (Elt F) ℕ UU ℕ

/-- The tokens of the transfers after the first stage's six. -/
def toksFrom6 (c : Dev nD) : sProp 𝕄 :=
  iprop((dutyTok ER (dcell c 0 1 0 0) 0 0 ∗ dutyTok ER (dcell (peer 0 1 c) 1 1 0 0) 0 0)
    ∗ (dutyTok ER (dcell c 0 1 0 1) 0 0 ∗ dutyTok ER (dcell (peer 0 1 c) 1 1 0 1) 0 0)
    ∗ (dutyTok ER (dcell c 0 1 1 0) 0 0 ∗ dutyTok ER (dcell (peer 1 1 c) 1 1 1 0) 0 0)
    ∗ (dutyTok ER (dcell c 0 1 1 1) 0 0 ∗ dutyTok ER (dcell (peer 1 1 c) 1 1 1 1) 0 0)
    ∗ (dutyTok ER (dcell c 0 1 2 0) 0 0 ∗ dutyTok ER (dcell (peer 2 1 c) 1 1 2 0) 0 0)
    ∗ (dutyTok ER (dcell c 0 1 2 1) 0 0 ∗ dutyTok ER (dcell (peer 2 1 c) 1 1 2 1) 0 0)
    ∗ (dutyTok ER (dcell c 0 2 0 0) 0 0 ∗ dutyTok ER (dcell (peer 0 2 c) 1 2 0 0) 0 0)
    ∗ (dutyTok ER (dcell c 0 2 0 1) 0 0 ∗ dutyTok ER (dcell (peer 0 2 c) 1 2 0 1) 0 0)
    ∗ (dutyTok ER (dcell c 0 2 1 0) 0 0 ∗ dutyTok ER (dcell (peer 1 2 c) 1 2 1 0) 0 0)
    ∗ (dutyTok ER (dcell c 0 2 1 1) 0 0 ∗ dutyTok ER (dcell (peer 1 2 c) 1 2 1 1) 0 0)
    ∗ (dutyTok ER (dcell c 0 2 2 0) 0 0 ∗ dutyTok ER (dcell (peer 2 2 c) 1 2 2 0) 0 0)
    ∗ (dutyTok ER (dcell c 0 2 2 1) 0 0 ∗ dutyTok ER (dcell (peer 2 2 c) 1 2 2 1) 0 0)
    ∗ (dutyTok ER (dcell c 0 3 0 0) 0 0 ∗ dutyTok ER (dcell (peer 0 3 c) 1 3 0 0) 0 0)
    ∗ (dutyTok ER (dcell c 0 3 0 1) 0 0 ∗ dutyTok ER (dcell (peer 0 3 c) 1 3 0 1) 0 0)
    ∗ (dutyTok ER (dcell c 0 3 1 0) 0 0 ∗ dutyTok ER (dcell (peer 1 3 c) 1 3 1 0) 0 0)
    ∗ (dutyTok ER (dcell c 0 3 1 1) 0 0 ∗ dutyTok ER (dcell (peer 1 3 c) 1 3 1 1) 0 0)
    ∗ (dutyTok ER (dcell c 0 3 2 0) 0 0 ∗ dutyTok ER (dcell (peer 2 3 c) 1 3 2 0) 0 0)
    ∗ (dutyTok ER (dcell c 0 3 2 1) 0 0 ∗ dutyTok ER (dcell (peer 2 3 c) 1 3 2 1) 0 0)
    ∗ (dutyTok ER (dcell c 0 4 0 0) 0 0 ∗ dutyTok ER (dcell (peer 0 4 c) 1 4 0 0) 0 0)
    ∗ (dutyTok ER (dcell c 0 4 1 0) 0 0 ∗ dutyTok ER (dcell (peer 1 4 c) 1 4 1 0) 0 0)
    ∗ (dutyTok ER (dcell c 0 4 2 0) 0 0 ∗ dutyTok ER (dcell (peer 2 4 c) 1 4 2 0) 0 0)
    ∗ (dutyTok ER (dcell c 2 4 0 0) 0 0 ∗ dutyTok ER (dcell (peer 0 4 c) 3 4 0 0) 0 0)
    ∗ (dutyTok ER (dcell c 2 4 1 0) 0 0 ∗ dutyTok ER (dcell (peer 1 4 c) 3 4 1 0) 0 0)
    ∗ (dutyTok ER (dcell c 2 4 2 0) 0 0 ∗ dutyTok ER (dcell (peer 2 4 c) 3 4 2 0) 0 0)
    ∗ (dutyTok ER (dcell c 2 3 0 0) 0 0 ∗ dutyTok ER (dcell (peer 0 3 c) 3 3 0 0) 0 0)
    ∗ (dutyTok ER (dcell c 2 3 0 1) 0 0 ∗ dutyTok ER (dcell (peer 0 3 c) 3 3 0 1) 0 0)
    ∗ (dutyTok ER (dcell c 2 3 1 0) 0 0 ∗ dutyTok ER (dcell (peer 1 3 c) 3 3 1 0) 0 0)
    ∗ (dutyTok ER (dcell c 2 3 1 1) 0 0 ∗ dutyTok ER (dcell (peer 1 3 c) 3 3 1 1) 0 0)
    ∗ (dutyTok ER (dcell c 2 3 2 0) 0 0 ∗ dutyTok ER (dcell (peer 2 3 c) 3 3 2 0) 0 0)
    ∗ (dutyTok ER (dcell c 2 3 2 1) 0 0 ∗ dutyTok ER (dcell (peer 2 3 c) 3 3 2 1) 0 0)
    ∗ (dutyTok ER (dcell c 2 2 0 0) 0 0 ∗ dutyTok ER (dcell (peer 0 2 c) 3 2 0 0) 0 0)
    ∗ (dutyTok ER (dcell c 2 2 0 1) 0 0 ∗ dutyTok ER (dcell (peer 0 2 c) 3 2 0 1) 0 0)
    ∗ (dutyTok ER (dcell c 2 2 1 0) 0 0 ∗ dutyTok ER (dcell (peer 1 2 c) 3 2 1 0) 0 0)
    ∗ (dutyTok ER (dcell c 2 2 1 1) 0 0 ∗ dutyTok ER (dcell (peer 1 2 c) 3 2 1 1) 0 0)
    ∗ (dutyTok ER (dcell c 2 2 2 0) 0 0 ∗ dutyTok ER (dcell (peer 2 2 c) 3 2 2 0) 0 0)
    ∗ (dutyTok ER (dcell c 2 2 2 1) 0 0 ∗ dutyTok ER (dcell (peer 2 2 c) 3 2 2 1) 0 0)
    ∗ (dutyTok ER (dcell c 2 1 0 0) 0 0 ∗ dutyTok ER (dcell (peer 0 1 c) 3 1 0 0) 0 0)
    ∗ (dutyTok ER (dcell c 2 1 0 1) 0 0 ∗ dutyTok ER (dcell (peer 0 1 c) 3 1 0 1) 0 0)
    ∗ (dutyTok ER (dcell c 2 1 1 0) 0 0 ∗ dutyTok ER (dcell (peer 1 1 c) 3 1 1 0) 0 0)
    ∗ (dutyTok ER (dcell c 2 1 1 1) 0 0 ∗ dutyTok ER (dcell (peer 1 1 c) 3 1 1 1) 0 0)
    ∗ (dutyTok ER (dcell c 2 1 2 0) 0 0 ∗ dutyTok ER (dcell (peer 2 1 c) 3 1 2 0) 0 0)
    ∗ (dutyTok ER (dcell c 2 1 2 1) 0 0 ∗ dutyTok ER (dcell (peer 2 1 c) 3 1 2 1) 0 0)
    ∗ (dutyTok ER (dcell c 2 0 0 0) 0 0 ∗ dutyTok ER (dcell (peer 0 0 c) 3 0 0 0) 0 0)
    ∗ (dutyTok ER (dcell c 2 0 0 1) 0 0 ∗ dutyTok ER (dcell (peer 0 0 c) 3 0 0 1) 0 0)
    ∗ (dutyTok ER (dcell c 2 0 1 0) 0 0 ∗ dutyTok ER (dcell (peer 1 0 c) 3 0 1 0) 0 0)
    ∗ (dutyTok ER (dcell c 2 0 1 1) 0 0 ∗ dutyTok ER (dcell (peer 1 0 c) 3 0 1 1) 0 0)
    ∗ (dutyTok ER (dcell c 2 0 2 0) 0 0 ∗ dutyTok ER (dcell (peer 2 0 c) 3 0 2 0) 0 0)
    ∗ (dutyTok ER (dcell c 2 0 2 1) 0 0 ∗ dutyTok ER (dcell (peer 2 0 c) 3 0 2 1) 0 0))

/-- The tokens of the gathering phase's 27 transfers. -/
def toksAG (c : Dev nD) : sProp 𝕄 :=
  iprop((dutyTok ER (dcell c 2 4 0 0) 0 0 ∗ dutyTok ER (dcell (peer 0 4 c) 3 4 0 0) 0 0)
    ∗ (dutyTok ER (dcell c 2 4 1 0) 0 0 ∗ dutyTok ER (dcell (peer 1 4 c) 3 4 1 0) 0 0)
    ∗ (dutyTok ER (dcell c 2 4 2 0) 0 0 ∗ dutyTok ER (dcell (peer 2 4 c) 3 4 2 0) 0 0)
    ∗ (dutyTok ER (dcell c 2 3 0 0) 0 0 ∗ dutyTok ER (dcell (peer 0 3 c) 3 3 0 0) 0 0)
    ∗ (dutyTok ER (dcell c 2 3 0 1) 0 0 ∗ dutyTok ER (dcell (peer 0 3 c) 3 3 0 1) 0 0)
    ∗ (dutyTok ER (dcell c 2 3 1 0) 0 0 ∗ dutyTok ER (dcell (peer 1 3 c) 3 3 1 0) 0 0)
    ∗ (dutyTok ER (dcell c 2 3 1 1) 0 0 ∗ dutyTok ER (dcell (peer 1 3 c) 3 3 1 1) 0 0)
    ∗ (dutyTok ER (dcell c 2 3 2 0) 0 0 ∗ dutyTok ER (dcell (peer 2 3 c) 3 3 2 0) 0 0)
    ∗ (dutyTok ER (dcell c 2 3 2 1) 0 0 ∗ dutyTok ER (dcell (peer 2 3 c) 3 3 2 1) 0 0)
    ∗ (dutyTok ER (dcell c 2 2 0 0) 0 0 ∗ dutyTok ER (dcell (peer 0 2 c) 3 2 0 0) 0 0)
    ∗ (dutyTok ER (dcell c 2 2 0 1) 0 0 ∗ dutyTok ER (dcell (peer 0 2 c) 3 2 0 1) 0 0)
    ∗ (dutyTok ER (dcell c 2 2 1 0) 0 0 ∗ dutyTok ER (dcell (peer 1 2 c) 3 2 1 0) 0 0)
    ∗ (dutyTok ER (dcell c 2 2 1 1) 0 0 ∗ dutyTok ER (dcell (peer 1 2 c) 3 2 1 1) 0 0)
    ∗ (dutyTok ER (dcell c 2 2 2 0) 0 0 ∗ dutyTok ER (dcell (peer 2 2 c) 3 2 2 0) 0 0)
    ∗ (dutyTok ER (dcell c 2 2 2 1) 0 0 ∗ dutyTok ER (dcell (peer 2 2 c) 3 2 2 1) 0 0)
    ∗ (dutyTok ER (dcell c 2 1 0 0) 0 0 ∗ dutyTok ER (dcell (peer 0 1 c) 3 1 0 0) 0 0)
    ∗ (dutyTok ER (dcell c 2 1 0 1) 0 0 ∗ dutyTok ER (dcell (peer 0 1 c) 3 1 0 1) 0 0)
    ∗ (dutyTok ER (dcell c 2 1 1 0) 0 0 ∗ dutyTok ER (dcell (peer 1 1 c) 3 1 1 0) 0 0)
    ∗ (dutyTok ER (dcell c 2 1 1 1) 0 0 ∗ dutyTok ER (dcell (peer 1 1 c) 3 1 1 1) 0 0)
    ∗ (dutyTok ER (dcell c 2 1 2 0) 0 0 ∗ dutyTok ER (dcell (peer 2 1 c) 3 1 2 0) 0 0)
    ∗ (dutyTok ER (dcell c 2 1 2 1) 0 0 ∗ dutyTok ER (dcell (peer 2 1 c) 3 1 2 1) 0 0)
    ∗ (dutyTok ER (dcell c 2 0 0 0) 0 0 ∗ dutyTok ER (dcell (peer 0 0 c) 3 0 0 0) 0 0)
    ∗ (dutyTok ER (dcell c 2 0 0 1) 0 0 ∗ dutyTok ER (dcell (peer 0 0 c) 3 0 0 1) 0 0)
    ∗ (dutyTok ER (dcell c 2 0 1 0) 0 0 ∗ dutyTok ER (dcell (peer 1 0 c) 3 0 1 0) 0 0)
    ∗ (dutyTok ER (dcell c 2 0 1 1) 0 0 ∗ dutyTok ER (dcell (peer 1 0 c) 3 0 1 1) 0 0)
    ∗ (dutyTok ER (dcell c 2 0 2 0) 0 0 ∗ dutyTok ER (dcell (peer 2 0 c) 3 0 2 0) 0 0)
    ∗ (dutyTok ER (dcell c 2 0 2 1) 0 0 ∗ dutyTok ER (dcell (peer 2 0 c) 3 0 2 1) 0 0))

/-- The positions on the summing phase's cells, none waited yet. -/
def posRS (c : Dev nD) : sProp 𝕄 :=
  iprop((atPos ER (dcell c 0 0 0 0) 0 ∅ 0 ∗ atPos ER (dcell c 1 0 0 0) 0 ∅ 0)
    ∗ (atPos ER (dcell c 0 0 0 1) 0 ∅ 0 ∗ atPos ER (dcell c 1 0 0 1) 0 ∅ 0)
    ∗ (atPos ER (dcell c 0 0 1 0) 0 ∅ 0 ∗ atPos ER (dcell c 1 0 1 0) 0 ∅ 0)
    ∗ (atPos ER (dcell c 0 0 1 1) 0 ∅ 0 ∗ atPos ER (dcell c 1 0 1 1) 0 ∅ 0)
    ∗ (atPos ER (dcell c 0 0 2 0) 0 ∅ 0 ∗ atPos ER (dcell c 1 0 2 0) 0 ∅ 0)
    ∗ (atPos ER (dcell c 0 0 2 1) 0 ∅ 0 ∗ atPos ER (dcell c 1 0 2 1) 0 ∅ 0)
    ∗ (atPos ER (dcell c 0 1 0 0) 0 ∅ 0 ∗ atPos ER (dcell c 1 1 0 0) 0 ∅ 0)
    ∗ (atPos ER (dcell c 0 1 0 1) 0 ∅ 0 ∗ atPos ER (dcell c 1 1 0 1) 0 ∅ 0)
    ∗ (atPos ER (dcell c 0 1 1 0) 0 ∅ 0 ∗ atPos ER (dcell c 1 1 1 0) 0 ∅ 0)
    ∗ (atPos ER (dcell c 0 1 1 1) 0 ∅ 0 ∗ atPos ER (dcell c 1 1 1 1) 0 ∅ 0)
    ∗ (atPos ER (dcell c 0 1 2 0) 0 ∅ 0 ∗ atPos ER (dcell c 1 1 2 0) 0 ∅ 0)
    ∗ (atPos ER (dcell c 0 1 2 1) 0 ∅ 0 ∗ atPos ER (dcell c 1 1 2 1) 0 ∅ 0)
    ∗ (atPos ER (dcell c 0 2 0 0) 0 ∅ 0 ∗ atPos ER (dcell c 1 2 0 0) 0 ∅ 0)
    ∗ (atPos ER (dcell c 0 2 0 1) 0 ∅ 0 ∗ atPos ER (dcell c 1 2 0 1) 0 ∅ 0)
    ∗ (atPos ER (dcell c 0 2 1 0) 0 ∅ 0 ∗ atPos ER (dcell c 1 2 1 0) 0 ∅ 0)
    ∗ (atPos ER (dcell c 0 2 1 1) 0 ∅ 0 ∗ atPos ER (dcell c 1 2 1 1) 0 ∅ 0)
    ∗ (atPos ER (dcell c 0 2 2 0) 0 ∅ 0 ∗ atPos ER (dcell c 1 2 2 0) 0 ∅ 0)
    ∗ (atPos ER (dcell c 0 2 2 1) 0 ∅ 0 ∗ atPos ER (dcell c 1 2 2 1) 0 ∅ 0)
    ∗ (atPos ER (dcell c 0 3 0 0) 0 ∅ 0 ∗ atPos ER (dcell c 1 3 0 0) 0 ∅ 0)
    ∗ (atPos ER (dcell c 0 3 0 1) 0 ∅ 0 ∗ atPos ER (dcell c 1 3 0 1) 0 ∅ 0)
    ∗ (atPos ER (dcell c 0 3 1 0) 0 ∅ 0 ∗ atPos ER (dcell c 1 3 1 0) 0 ∅ 0)
    ∗ (atPos ER (dcell c 0 3 1 1) 0 ∅ 0 ∗ atPos ER (dcell c 1 3 1 1) 0 ∅ 0)
    ∗ (atPos ER (dcell c 0 3 2 0) 0 ∅ 0 ∗ atPos ER (dcell c 1 3 2 0) 0 ∅ 0)
    ∗ (atPos ER (dcell c 0 3 2 1) 0 ∅ 0 ∗ atPos ER (dcell c 1 3 2 1) 0 ∅ 0)
    ∗ (atPos ER (dcell c 0 4 0 0) 0 ∅ 0 ∗ atPos ER (dcell c 1 4 0 0) 0 ∅ 0)
    ∗ (atPos ER (dcell c 0 4 1 0) 0 ∅ 0 ∗ atPos ER (dcell c 1 4 1 0) 0 ∅ 0)
    ∗ (atPos ER (dcell c 0 4 2 0) 0 ∅ 0 ∗ atPos ER (dcell c 1 4 2 0) 0 ∅ 0))

/-- The positions on the gathering phase's cells, none waited yet. -/
def posAG (c : Dev nD) : sProp 𝕄 :=
  iprop((atPos ER (dcell c 2 4 0 0) 0 ∅ 0 ∗ atPos ER (dcell c 3 4 0 0) 0 ∅ 0)
    ∗ (atPos ER (dcell c 2 4 1 0) 0 ∅ 0 ∗ atPos ER (dcell c 3 4 1 0) 0 ∅ 0)
    ∗ (atPos ER (dcell c 2 4 2 0) 0 ∅ 0 ∗ atPos ER (dcell c 3 4 2 0) 0 ∅ 0)
    ∗ (atPos ER (dcell c 2 3 0 0) 0 ∅ 0 ∗ atPos ER (dcell c 3 3 0 0) 0 ∅ 0)
    ∗ (atPos ER (dcell c 2 3 0 1) 0 ∅ 0 ∗ atPos ER (dcell c 3 3 0 1) 0 ∅ 0)
    ∗ (atPos ER (dcell c 2 3 1 0) 0 ∅ 0 ∗ atPos ER (dcell c 3 3 1 0) 0 ∅ 0)
    ∗ (atPos ER (dcell c 2 3 1 1) 0 ∅ 0 ∗ atPos ER (dcell c 3 3 1 1) 0 ∅ 0)
    ∗ (atPos ER (dcell c 2 3 2 0) 0 ∅ 0 ∗ atPos ER (dcell c 3 3 2 0) 0 ∅ 0)
    ∗ (atPos ER (dcell c 2 3 2 1) 0 ∅ 0 ∗ atPos ER (dcell c 3 3 2 1) 0 ∅ 0)
    ∗ (atPos ER (dcell c 2 2 0 0) 0 ∅ 0 ∗ atPos ER (dcell c 3 2 0 0) 0 ∅ 0)
    ∗ (atPos ER (dcell c 2 2 0 1) 0 ∅ 0 ∗ atPos ER (dcell c 3 2 0 1) 0 ∅ 0)
    ∗ (atPos ER (dcell c 2 2 1 0) 0 ∅ 0 ∗ atPos ER (dcell c 3 2 1 0) 0 ∅ 0)
    ∗ (atPos ER (dcell c 2 2 1 1) 0 ∅ 0 ∗ atPos ER (dcell c 3 2 1 1) 0 ∅ 0)
    ∗ (atPos ER (dcell c 2 2 2 0) 0 ∅ 0 ∗ atPos ER (dcell c 3 2 2 0) 0 ∅ 0)
    ∗ (atPos ER (dcell c 2 2 2 1) 0 ∅ 0 ∗ atPos ER (dcell c 3 2 2 1) 0 ∅ 0)
    ∗ (atPos ER (dcell c 2 1 0 0) 0 ∅ 0 ∗ atPos ER (dcell c 3 1 0 0) 0 ∅ 0)
    ∗ (atPos ER (dcell c 2 1 0 1) 0 ∅ 0 ∗ atPos ER (dcell c 3 1 0 1) 0 ∅ 0)
    ∗ (atPos ER (dcell c 2 1 1 0) 0 ∅ 0 ∗ atPos ER (dcell c 3 1 1 0) 0 ∅ 0)
    ∗ (atPos ER (dcell c 2 1 1 1) 0 ∅ 0 ∗ atPos ER (dcell c 3 1 1 1) 0 ∅ 0)
    ∗ (atPos ER (dcell c 2 1 2 0) 0 ∅ 0 ∗ atPos ER (dcell c 3 1 2 0) 0 ∅ 0)
    ∗ (atPos ER (dcell c 2 1 2 1) 0 ∅ 0 ∗ atPos ER (dcell c 3 1 2 1) 0 ∅ 0)
    ∗ (atPos ER (dcell c 2 0 0 0) 0 ∅ 0 ∗ atPos ER (dcell c 3 0 0 0) 0 ∅ 0)
    ∗ (atPos ER (dcell c 2 0 0 1) 0 ∅ 0 ∗ atPos ER (dcell c 3 0 0 1) 0 ∅ 0)
    ∗ (atPos ER (dcell c 2 0 1 0) 0 ∅ 0 ∗ atPos ER (dcell c 3 0 1 0) 0 ∅ 0)
    ∗ (atPos ER (dcell c 2 0 1 1) 0 ∅ 0 ∗ atPos ER (dcell c 3 0 1 1) 0 ∅ 0)
    ∗ (atPos ER (dcell c 2 0 2 0) 0 ∅ 0 ∗ atPos ER (dcell c 3 0 2 0) 0 ∅ 0)
    ∗ (atPos ER (dcell c 2 0 2 1) 0 ∅ 0 ∗ atPos ER (dcell c 3 0 2 1) 0 ∅ 0))

/-- The launch credit on the summing phase's receive cells. -/
def credRS (c : Dev nD) : sProp 𝕄 :=
  iprop(cred (tallyAt (dcell c 1 0 0 0) () (amtIx (dsem 1 0 0 0).val))
    ∗ cred (tallyAt (dcell c 1 0 0 1) () (amtIx (dsem 1 0 0 1).val))
    ∗ cred (tallyAt (dcell c 1 0 1 0) () (amtIx (dsem 1 0 1 0).val))
    ∗ cred (tallyAt (dcell c 1 0 1 1) () (amtIx (dsem 1 0 1 1).val))
    ∗ cred (tallyAt (dcell c 1 0 2 0) () (amtIx (dsem 1 0 2 0).val))
    ∗ cred (tallyAt (dcell c 1 0 2 1) () (amtIx (dsem 1 0 2 1).val))
    ∗ cred (tallyAt (dcell c 1 1 0 0) () (amtIx (dsem 1 1 0 0).val))
    ∗ cred (tallyAt (dcell c 1 1 0 1) () (amtIx (dsem 1 1 0 1).val))
    ∗ cred (tallyAt (dcell c 1 1 1 0) () (amtIx (dsem 1 1 1 0).val))
    ∗ cred (tallyAt (dcell c 1 1 1 1) () (amtIx (dsem 1 1 1 1).val))
    ∗ cred (tallyAt (dcell c 1 1 2 0) () (amtIx (dsem 1 1 2 0).val))
    ∗ cred (tallyAt (dcell c 1 1 2 1) () (amtIx (dsem 1 1 2 1).val))
    ∗ cred (tallyAt (dcell c 1 2 0 0) () (amtIx (dsem 1 2 0 0).val))
    ∗ cred (tallyAt (dcell c 1 2 0 1) () (amtIx (dsem 1 2 0 1).val))
    ∗ cred (tallyAt (dcell c 1 2 1 0) () (amtIx (dsem 1 2 1 0).val))
    ∗ cred (tallyAt (dcell c 1 2 1 1) () (amtIx (dsem 1 2 1 1).val))
    ∗ cred (tallyAt (dcell c 1 2 2 0) () (amtIx (dsem 1 2 2 0).val))
    ∗ cred (tallyAt (dcell c 1 2 2 1) () (amtIx (dsem 1 2 2 1).val))
    ∗ cred (tallyAt (dcell c 1 3 0 0) () (amtIx (dsem 1 3 0 0).val))
    ∗ cred (tallyAt (dcell c 1 3 0 1) () (amtIx (dsem 1 3 0 1).val))
    ∗ cred (tallyAt (dcell c 1 3 1 0) () (amtIx (dsem 1 3 1 0).val))
    ∗ cred (tallyAt (dcell c 1 3 1 1) () (amtIx (dsem 1 3 1 1).val))
    ∗ cred (tallyAt (dcell c 1 3 2 0) () (amtIx (dsem 1 3 2 0).val))
    ∗ cred (tallyAt (dcell c 1 3 2 1) () (amtIx (dsem 1 3 2 1).val))
    ∗ cred (tallyAt (dcell c 1 4 0 0) () (amtIx (dsem 1 4 0 0).val))
    ∗ cred (tallyAt (dcell c 1 4 1 0) () (amtIx (dsem 1 4 1 0).val))
    ∗ cred (tallyAt (dcell c 1 4 2 0) () (amtIx (dsem 1 4 2 0).val)))

/-- The launch credit on the gathering phase's receive cells. -/
def credAG (c : Dev nD) : sProp 𝕄 :=
  iprop(cred (tallyAt (dcell c 3 4 0 0) () (amtIx (dsem 3 4 0 0).val))
    ∗ cred (tallyAt (dcell c 3 4 1 0) () (amtIx (dsem 3 4 1 0).val))
    ∗ cred (tallyAt (dcell c 3 4 2 0) () (amtIx (dsem 3 4 2 0).val))
    ∗ cred (tallyAt (dcell c 3 3 0 0) () (amtIx (dsem 3 3 0 0).val))
    ∗ cred (tallyAt (dcell c 3 3 0 1) () (amtIx (dsem 3 3 0 1).val))
    ∗ cred (tallyAt (dcell c 3 3 1 0) () (amtIx (dsem 3 3 1 0).val))
    ∗ cred (tallyAt (dcell c 3 3 1 1) () (amtIx (dsem 3 3 1 1).val))
    ∗ cred (tallyAt (dcell c 3 3 2 0) () (amtIx (dsem 3 3 2 0).val))
    ∗ cred (tallyAt (dcell c 3 3 2 1) () (amtIx (dsem 3 3 2 1).val))
    ∗ cred (tallyAt (dcell c 3 2 0 0) () (amtIx (dsem 3 2 0 0).val))
    ∗ cred (tallyAt (dcell c 3 2 0 1) () (amtIx (dsem 3 2 0 1).val))
    ∗ cred (tallyAt (dcell c 3 2 1 0) () (amtIx (dsem 3 2 1 0).val))
    ∗ cred (tallyAt (dcell c 3 2 1 1) () (amtIx (dsem 3 2 1 1).val))
    ∗ cred (tallyAt (dcell c 3 2 2 0) () (amtIx (dsem 3 2 2 0).val))
    ∗ cred (tallyAt (dcell c 3 2 2 1) () (amtIx (dsem 3 2 2 1).val))
    ∗ cred (tallyAt (dcell c 3 1 0 0) () (amtIx (dsem 3 1 0 0).val))
    ∗ cred (tallyAt (dcell c 3 1 0 1) () (amtIx (dsem 3 1 0 1).val))
    ∗ cred (tallyAt (dcell c 3 1 1 0) () (amtIx (dsem 3 1 1 0).val))
    ∗ cred (tallyAt (dcell c 3 1 1 1) () (amtIx (dsem 3 1 1 1).val))
    ∗ cred (tallyAt (dcell c 3 1 2 0) () (amtIx (dsem 3 1 2 0).val))
    ∗ cred (tallyAt (dcell c 3 1 2 1) () (amtIx (dsem 3 1 2 1).val))
    ∗ cred (tallyAt (dcell c 3 0 0 0) () (amtIx (dsem 3 0 0 0).val))
    ∗ cred (tallyAt (dcell c 3 0 0 1) () (amtIx (dsem 3 0 0 1).val))
    ∗ cred (tallyAt (dcell c 3 0 1 0) () (amtIx (dsem 3 0 1 0).val))
    ∗ cred (tallyAt (dcell c 3 0 1 1) () (amtIx (dsem 3 0 1 1).val))
    ∗ cred (tallyAt (dcell c 3 0 2 0) () (amtIx (dsem 3 0 2 0).val))
    ∗ cred (tallyAt (dcell c 3 0 2 1) () (amtIx (dsem 3 0 2 1).val)))

/-- The credit the first stage's six transfers returned on their send cells. -/
def sendCred0 (c : Dev nD) : sProp 𝕄 :=
  iprop(cred (tallyAt (dcell c 0 0 0 0) () (amtIx (dsem 0 0 0 0).val))
    ∗ cred (tallyAt (dcell c 0 0 0 1) () (amtIx (dsem 0 0 0 1).val))
    ∗ cred (tallyAt (dcell c 0 0 1 0) () (amtIx (dsem 0 0 1 0).val))
    ∗ cred (tallyAt (dcell c 0 0 1 1) () (amtIx (dsem 0 0 1 1).val))
    ∗ cred (tallyAt (dcell c 0 0 2 0) () (amtIx (dsem 0 0 2 0).val))
    ∗ cred (tallyAt (dcell c 0 0 2 1) () (amtIx (dsem 0 0 2 1).val)))

/-- The landing rows on the partners still lent to this device: those of the transfers after the first six. -/
def landFrom6 (c : Dev nD) : sProp 𝕄 :=
  iprop(loanV (peer 0 1 c) (dst_rs_1_0_0 c)
    ∗ loanV (peer 0 1 c) (dst_rs_1_0_1 c)
    ∗ loanV (peer 1 1 c) (dst_rs_1_1_0 c)
    ∗ loanV (peer 1 1 c) (dst_rs_1_1_1 c)
    ∗ loanV (peer 2 1 c) (dst_rs_1_2_0 c)
    ∗ loanV (peer 2 1 c) (dst_rs_1_2_1 c)
    ∗ loanV (peer 0 2 c) (dst_rs_2_0_0 c)
    ∗ loanV (peer 0 2 c) (dst_rs_2_0_1 c)
    ∗ loanV (peer 1 2 c) (dst_rs_2_1_0 c)
    ∗ loanV (peer 1 2 c) (dst_rs_2_1_1 c)
    ∗ loanV (peer 2 2 c) (dst_rs_2_2_0 c)
    ∗ loanV (peer 2 2 c) (dst_rs_2_2_1 c)
    ∗ loanV (peer 0 3 c) (dst_rs_3_0_0 c)
    ∗ loanV (peer 0 3 c) (dst_rs_3_0_1 c)
    ∗ loanV (peer 1 3 c) (dst_rs_3_1_0 c)
    ∗ loanV (peer 1 3 c) (dst_rs_3_1_1 c)
    ∗ loanV (peer 2 3 c) (dst_rs_3_2_0 c)
    ∗ loanV (peer 2 3 c) (dst_rs_3_2_1 c)
    ∗ loanV (peer 0 4 c) (dst_rs_4_0_0 c)
    ∗ loanV (peer 1 4 c) (dst_rs_4_1_0 c)
    ∗ loanV (peer 2 4 c) (dst_rs_4_2_0 c)
    ∗ loanV (peer 0 4 c) (dst_ag_4_0_0 c)
    ∗ loanV (peer 1 4 c) (dst_ag_4_1_0 c)
    ∗ loanV (peer 2 4 c) (dst_ag_4_2_0 c)
    ∗ loanV (peer 0 3 c) (dst_ag_3_0_0 c)
    ∗ loanV (peer 0 3 c) (dst_ag_3_0_1 c)
    ∗ loanV (peer 1 3 c) (dst_ag_3_1_0 c)
    ∗ loanV (peer 1 3 c) (dst_ag_3_1_1 c)
    ∗ loanV (peer 2 3 c) (dst_ag_3_2_0 c)
    ∗ loanV (peer 2 3 c) (dst_ag_3_2_1 c)
    ∗ loanV (peer 0 2 c) (dst_ag_2_0_0 c)
    ∗ loanV (peer 0 2 c) (dst_ag_2_0_1 c)
    ∗ loanV (peer 1 2 c) (dst_ag_2_1_0 c)
    ∗ loanV (peer 1 2 c) (dst_ag_2_1_1 c)
    ∗ loanV (peer 2 2 c) (dst_ag_2_2_0 c)
    ∗ loanV (peer 2 2 c) (dst_ag_2_2_1 c)
    ∗ loanV (peer 0 1 c) (dst_ag_1_0_0 c)
    ∗ loanV (peer 0 1 c) (dst_ag_1_0_1 c)
    ∗ loanV (peer 1 1 c) (dst_ag_1_1_0 c)
    ∗ loanV (peer 1 1 c) (dst_ag_1_1_1 c)
    ∗ loanV (peer 2 1 c) (dst_ag_1_2_0 c)
    ∗ loanV (peer 2 1 c) (dst_ag_1_2_1 c)
    ∗ loanV (peer 0 0 c) (dst_ag_0_0_0 c)
    ∗ loanV (peer 0 0 c) (dst_ag_0_0_1 c)
    ∗ loanV (peer 1 0 c) (dst_ag_0_1_0 c)
    ∗ loanV (peer 1 0 c) (dst_ag_0_1_1 c)
    ∗ loanV (peer 2 0 c) (dst_ag_0_2_0 c)
    ∗ loanV (peer 2 0 c) (dst_ag_0_2_1 c))

/-- The landing rows on the partners for the gathering phase. -/
def landAG (c : Dev nD) : sProp 𝕄 :=
  iprop(loanV (peer 0 4 c) (dst_ag_4_0_0 c)
    ∗ loanV (peer 1 4 c) (dst_ag_4_1_0 c)
    ∗ loanV (peer 2 4 c) (dst_ag_4_2_0 c)
    ∗ loanV (peer 0 3 c) (dst_ag_3_0_0 c)
    ∗ loanV (peer 0 3 c) (dst_ag_3_0_1 c)
    ∗ loanV (peer 1 3 c) (dst_ag_3_1_0 c)
    ∗ loanV (peer 1 3 c) (dst_ag_3_1_1 c)
    ∗ loanV (peer 2 3 c) (dst_ag_3_2_0 c)
    ∗ loanV (peer 2 3 c) (dst_ag_3_2_1 c)
    ∗ loanV (peer 0 2 c) (dst_ag_2_0_0 c)
    ∗ loanV (peer 0 2 c) (dst_ag_2_0_1 c)
    ∗ loanV (peer 1 2 c) (dst_ag_2_1_0 c)
    ∗ loanV (peer 1 2 c) (dst_ag_2_1_1 c)
    ∗ loanV (peer 2 2 c) (dst_ag_2_2_0 c)
    ∗ loanV (peer 2 2 c) (dst_ag_2_2_1 c)
    ∗ loanV (peer 0 1 c) (dst_ag_1_0_0 c)
    ∗ loanV (peer 0 1 c) (dst_ag_1_0_1 c)
    ∗ loanV (peer 1 1 c) (dst_ag_1_1_0 c)
    ∗ loanV (peer 1 1 c) (dst_ag_1_1_1 c)
    ∗ loanV (peer 2 1 c) (dst_ag_1_2_0 c)
    ∗ loanV (peer 2 1 c) (dst_ag_1_2_1 c)
    ∗ loanV (peer 0 0 c) (dst_ag_0_0_0 c)
    ∗ loanV (peer 0 0 c) (dst_ag_0_0_1 c)
    ∗ loanV (peer 1 0 c) (dst_ag_0_1_0 c)
    ∗ loanV (peer 1 0 c) (dst_ag_0_1_1 c)
    ∗ loanV (peer 2 0 c) (dst_ag_0_2_0 c)
    ∗ loanV (peer 2 0 c) (dst_ag_0_2_1 c))

/-- The summing phase's cells, waited and closed: their semaphores at zero again. -/
def closedRS (c : Dev nD) : sProp 𝕄 :=
  iprop((semVal (dcell c 0 0 0 0) 0 ∗ semVal (dcell c 1 0 0 0) 0)
    ∗ (semVal (dcell c 0 0 0 1) 0 ∗ semVal (dcell c 1 0 0 1) 0)
    ∗ (semVal (dcell c 0 0 1 0) 0 ∗ semVal (dcell c 1 0 1 0) 0)
    ∗ (semVal (dcell c 0 0 1 1) 0 ∗ semVal (dcell c 1 0 1 1) 0)
    ∗ (semVal (dcell c 0 0 2 0) 0 ∗ semVal (dcell c 1 0 2 0) 0)
    ∗ (semVal (dcell c 0 0 2 1) 0 ∗ semVal (dcell c 1 0 2 1) 0)
    ∗ (semVal (dcell c 0 1 0 0) 0 ∗ semVal (dcell c 1 1 0 0) 0)
    ∗ (semVal (dcell c 0 1 0 1) 0 ∗ semVal (dcell c 1 1 0 1) 0)
    ∗ (semVal (dcell c 0 1 1 0) 0 ∗ semVal (dcell c 1 1 1 0) 0)
    ∗ (semVal (dcell c 0 1 1 1) 0 ∗ semVal (dcell c 1 1 1 1) 0)
    ∗ (semVal (dcell c 0 1 2 0) 0 ∗ semVal (dcell c 1 1 2 0) 0)
    ∗ (semVal (dcell c 0 1 2 1) 0 ∗ semVal (dcell c 1 1 2 1) 0)
    ∗ (semVal (dcell c 0 2 0 0) 0 ∗ semVal (dcell c 1 2 0 0) 0)
    ∗ (semVal (dcell c 0 2 0 1) 0 ∗ semVal (dcell c 1 2 0 1) 0)
    ∗ (semVal (dcell c 0 2 1 0) 0 ∗ semVal (dcell c 1 2 1 0) 0)
    ∗ (semVal (dcell c 0 2 1 1) 0 ∗ semVal (dcell c 1 2 1 1) 0)
    ∗ (semVal (dcell c 0 2 2 0) 0 ∗ semVal (dcell c 1 2 2 0) 0)
    ∗ (semVal (dcell c 0 2 2 1) 0 ∗ semVal (dcell c 1 2 2 1) 0)
    ∗ (semVal (dcell c 0 3 0 0) 0 ∗ semVal (dcell c 1 3 0 0) 0)
    ∗ (semVal (dcell c 0 3 0 1) 0 ∗ semVal (dcell c 1 3 0 1) 0)
    ∗ (semVal (dcell c 0 3 1 0) 0 ∗ semVal (dcell c 1 3 1 0) 0)
    ∗ (semVal (dcell c 0 3 1 1) 0 ∗ semVal (dcell c 1 3 1 1) 0)
    ∗ (semVal (dcell c 0 3 2 0) 0 ∗ semVal (dcell c 1 3 2 0) 0)
    ∗ (semVal (dcell c 0 3 2 1) 0 ∗ semVal (dcell c 1 3 2 1) 0)
    ∗ (semVal (dcell c 0 4 0 0) 0 ∗ semVal (dcell c 1 4 0 0) 0)
    ∗ (semVal (dcell c 0 4 1 0) 0 ∗ semVal (dcell c 1 4 1 0) 0)
    ∗ (semVal (dcell c 0 4 2 0) 0 ∗ semVal (dcell c 1 4 2 0) 0))

/-- The gathering phase's cells, waited and closed. -/
def closedAG (c : Dev nD) : sProp 𝕄 :=
  iprop((semVal (dcell c 2 4 0 0) 0 ∗ semVal (dcell c 3 4 0 0) 0)
    ∗ (semVal (dcell c 2 4 1 0) 0 ∗ semVal (dcell c 3 4 1 0) 0)
    ∗ (semVal (dcell c 2 4 2 0) 0 ∗ semVal (dcell c 3 4 2 0) 0)
    ∗ (semVal (dcell c 2 3 0 0) 0 ∗ semVal (dcell c 3 3 0 0) 0)
    ∗ (semVal (dcell c 2 3 0 1) 0 ∗ semVal (dcell c 3 3 0 1) 0)
    ∗ (semVal (dcell c 2 3 1 0) 0 ∗ semVal (dcell c 3 3 1 0) 0)
    ∗ (semVal (dcell c 2 3 1 1) 0 ∗ semVal (dcell c 3 3 1 1) 0)
    ∗ (semVal (dcell c 2 3 2 0) 0 ∗ semVal (dcell c 3 3 2 0) 0)
    ∗ (semVal (dcell c 2 3 2 1) 0 ∗ semVal (dcell c 3 3 2 1) 0)
    ∗ (semVal (dcell c 2 2 0 0) 0 ∗ semVal (dcell c 3 2 0 0) 0)
    ∗ (semVal (dcell c 2 2 0 1) 0 ∗ semVal (dcell c 3 2 0 1) 0)
    ∗ (semVal (dcell c 2 2 1 0) 0 ∗ semVal (dcell c 3 2 1 0) 0)
    ∗ (semVal (dcell c 2 2 1 1) 0 ∗ semVal (dcell c 3 2 1 1) 0)
    ∗ (semVal (dcell c 2 2 2 0) 0 ∗ semVal (dcell c 3 2 2 0) 0)
    ∗ (semVal (dcell c 2 2 2 1) 0 ∗ semVal (dcell c 3 2 2 1) 0)
    ∗ (semVal (dcell c 2 1 0 0) 0 ∗ semVal (dcell c 3 1 0 0) 0)
    ∗ (semVal (dcell c 2 1 0 1) 0 ∗ semVal (dcell c 3 1 0 1) 0)
    ∗ (semVal (dcell c 2 1 1 0) 0 ∗ semVal (dcell c 3 1 1 0) 0)
    ∗ (semVal (dcell c 2 1 1 1) 0 ∗ semVal (dcell c 3 1 1 1) 0)
    ∗ (semVal (dcell c 2 1 2 0) 0 ∗ semVal (dcell c 3 1 2 0) 0)
    ∗ (semVal (dcell c 2 1 2 1) 0 ∗ semVal (dcell c 3 1 2 1) 0)
    ∗ (semVal (dcell c 2 0 0 0) 0 ∗ semVal (dcell c 3 0 0 0) 0)
    ∗ (semVal (dcell c 2 0 0 1) 0 ∗ semVal (dcell c 3 0 0 1) 0)
    ∗ (semVal (dcell c 2 0 1 0) 0 ∗ semVal (dcell c 3 0 1 0) 0)
    ∗ (semVal (dcell c 2 0 1 1) 0 ∗ semVal (dcell c 3 0 1 1) 0)
    ∗ (semVal (dcell c 2 0 2 0) 0 ∗ semVal (dcell c 3 0 2 0) 0)
    ∗ (semVal (dcell c 2 0 2 1) 0 ∗ semVal (dcell c 3 0 2 1) 0))

end Cert.KernelIdeal.StateTab

end
-- ==== Proof.Laws.lean ====
/-
  What the exchange needs of the contract on values, device by device: each computing step of the
  kernel carries right values to right values. The frames take the trivial contract, for which every
  field is trivial; the value claim proves them from the mathematics of the sum.
-/
import proofs.«900879_g7700000000000880_dist_matmul_gelu_kshard_i_m1024_n1024_k512_v7x_i32_bf16_1_alg».proof.Proof.Gen.KernelIdeal
import proofs.«900879_g7700000000000880_dist_matmul_gelu_kshard_i_m1024_n1024_k512_v7x_i32_bf16_1_alg».proof.Proof.Gen.KernelIdeal.Skeleton
import proofs.«900879_g7700000000000880_dist_matmul_gelu_kshard_i_m1024_n1024_k512_v7x_i32_bf16_1_alg».proof.Proof.Gen.KernelIdeal.Launch
import proofs.«900879_g7700000000000880_dist_matmul_gelu_kshard_i_m1024_n1024_k512_v7x_i32_bf16_1_alg».proof.Proof.Gen.KernelIdeal.Points
import proofs.«900879_g7700000000000880_dist_matmul_gelu_kshard_i_m1024_n1024_k512_v7x_i32_bf16_1_alg».proof.Proof.Gen.KernelIdeal.Frame
import Idealize.ShloMosaic.Lib.Pipeline.Launch
import Idealize.ShloMosaic.Lib.Pipeline.Kit
import Idealize.ShloMosaic.Lib.Rounds
import Idealize.ShloMosaic.Lib.Tactic
import proofs.«900879_g7700000000000880_dist_matmul_gelu_kshard_i_m1024_n1024_k512_v7x_i32_bf16_1_alg».proof.Proof.Ghost

noncomputable section

namespace Cert.KernelIdeal.Laws

open Cert.KernelIdeal Cert.KernelIdeal.Gen Cert.KernelIdeal.Proto
open Idealize.ShloMosaic Idealize.ShloMosaic.TcCoe Idealize.SL.Sem

variable {F : FTy → Type} [FloatOps F]

/-- The pointwise function the kernel applies to a finished sum `z`, operation by operation as the program
    prints it: `(h·z)·(u + tanh(s·(z + ((a·z)·z)·z)))`, then the change of format. -/
def geluS (z : F .f32) : F .bf16 :=
  FloatOps.truncf .bf16 bitsLt_bf16_f32
    (FloatOps.mulf (FloatOps.mulf (Scalar.ofBits .f32 0x3F000000#32) z)
      (FloatOps.addf (Scalar.ofBits .f32 0x3F800000#32)
        (FloatOps.tanh (FloatOps.mulf (Scalar.ofBits .f32 0x3F4C422A#32)
          (FloatOps.addf z (FloatOps.mulf (FloatOps.mulf (FloatOps.mulf (Scalar.ofBits .f32 0x3D372713#32) z) z) z))))))

/-- The laws at device `c`, whose argument blocks hold `YA` (1024 × 512) and `YB` (512 × 1024). -/
structure Laws (ct : Contract F) (c : Dev nD) (YA : S1024x512.Idx → F .f32) (YB : S512x1024.Idx → F .f32) : Prop where
  /-- the first stage's products of the half that is sent, column blocks 0, 1, 2 -/
  mm_ss0 : ∀ (x : Vec F S512x512 .f32) (y : Vec F S512x384 .f32),
    (∀ j i, (i 0).val = (1 - bit 0 0 c) * 512 + (j 0).val → (i 1).val = (j 1).val → x j = YA i) →
    (∀ j i, (i 0).val = (j 0).val → (i 1).val = (j 1).val → y j = YB i) →
    ∀ j, ct.okSS 0 c (j 0).val (j 1).val (k0_pay1 x y j)
  mm_ss1 : ∀ (x : Vec F S512x512 .f32) (y : Vec F S512x384 .f32),
    (∀ j i, (i 0).val = (1 - bit 1 0 c) * 512 + (j 0).val → (i 1).val = (j 1).val → x j = YA i) →
    (∀ j i, (i 0).val = (j 0).val → (i 1).val = 384 + (j 1).val → y j = YB i) →
    ∀ j, ct.okSS 0 c (j 0).val (384 + (j 1).val) (k0_pay3 (k0_pay2 x y) j)
  mm_ss2 : ∀ (x : Vec F S512x512 .f32) (y : Vec F S512x256 .f32),
    (∀ j i, (i 0).val = (1 - bit 2 0 c) * 512 + (j 0).val → (i 1).val = (j 1).val → x j = YA i) →
    (∀ j i, (i 0).val = (j 0).val → (i 1).val = 768 + (j 1).val → y j = YB i) →
    ∀ j, ct.okSS 0 c (j 0).val (768 + (j 1).val) (k0_pay5 (k0_pay4 x) y j)
  /-- the first stage's products of the half that is kept -/
  mm_acc0 : ∀ (x : Vec F S512x512 .f32) (y : Vec F S512x384 .f32),
    (∀ j i, (i 0).val = lo 0 c 1 + (j 0).val → (i 1).val = (j 1).val → x j = YA i) →
    (∀ j i, (i 0).val = (j 0).val → (i 1).val = (j 1).val → y j = YB i) →
    ∀ j, ct.okAcc 0 c (lo 0 c 1 + (j 0).val) (j 1).val (k0_pay6 x y j)
  mm_acc1 : ∀ (x : Vec F S512x512 .f32) (y : Vec F S512x384 .f32),
    (∀ j i, (i 0).val = lo 1 c 1 + (j 0).val → (i 1).val = (j 1).val → x j = YA i) →
    (∀ j i, (i 0).val = (j 0).val → (i 1).val = 384 + (j 1).val → y j = YB i) →
    ∀ j, ct.okAcc 0 c (lo 1 c 1 + (j 0).val) (384 + (j 1).val) (k0_pay7 x y j)
  mm_acc2 : ∀ (x : Vec F S512x512 .f32) (y : Vec F S512x256 .f32),
    (∀ j i, (i 0).val = lo 2 c 1 + (j 0).val → (i 1).val = (j 1).val → x j = YA i) →
    (∀ j i, (i 0).val = (j 0).val → (i 1).val = 768 + (j 1).val → y j = YB i) →
    ∀ j, ct.okAcc 0 c (lo 2 c 1 + (j 0).val) (768 + (j 1).val) (k0_pay8 x y j)
  /-- adding what the stage-`s` partner sent: the running sum doubles its devices -/
  add_ok : ∀ (s : Fin 5) (k : Fin 3) (r q : ℕ) (v : F .f32) (w : F .bf16), s.val < 4 → blk q = k →
    ct.okAcc s.val c (lo k c (s.val + 1) + r) q v → ct.okSS s (peer k s c) r q w →
    ct.okAcc (s.val + 1) c (lo k c (s.val + 1) + r) q (FloatOps.addf v (FloatOps.extf .f32 bitsLt_bf16_f32 w))
  /-- what is sent at stage `s ≥ 1` is the running sum on the rows given away -/
  trunc_ok : ∀ (s : Fin 5) (k : Fin 3) (r q : ℕ) (v : F .f32), 0 < s.val → blk q = k →
    ct.okAcc s.val c (lo k c s.val + (1 - bit k s c) * half s.val + r) q v →
    ct.okSS s c r q (FloatOps.truncf .bf16 bitsLt_bf16_f32 v)
  /-- the last partner's rows complete the sum; the pointwise function gives the result -/
  out_ok : ∀ (k : Fin 3) (r q : ℕ) (v : F .f32) (w : F .bf16), blk q = k →
    ct.okAcc 4 c (lo k c 5 + r) q v → ct.okSS 4 (peer k 4 c) r q w →
    ct.okOut (lo k c 5 + r) q (geluS (FloatOps.addf v (FloatOps.extf .f32 bitsLt_bf16_f32 w)))

end Cert.KernelIdeal.Laws

end
-- ==== Proof.Cut.lean ====
import proofs.«900879_g7700000000000880_dist_matmul_gelu_kshard_i_m1024_n1024_k512_v7x_i32_bf16_1_alg».proof.Proof.Gen.KernelIdeal.Skeleton

set_option synthInstance.maxSize 4096
set_option maxRecDepth 65536

noncomputable section

namespace Cert.KernelIdeal.Cut

open Cert.KernelIdeal Cert.KernelIdeal.Gen Idealize.ShloMosaic Idealize.SL.Sem

variable {F : FTy → Type} [FloatOps F]

/-- The gathering phase: the chain from its fortieth part on. -/
noncomputable def rest40 (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2) (d0 : Dev nD) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v827 : BitVec 32) (v868 : BitVec 32) (v909 : BitVec 32) :
    Prog (TpuEff nD τ sig (Elt F) Λ₀ .tc) (Σ' (d0 : Dev nD) (v3 : BitVec 32) (v8 : BitVec 32) (v13 : BitVec 32) (v28 : BitVec 32), BitVec 32) := do
  k0_part40 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6 v12 v17 v827 v868 v909
  k0_part41 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6 v7 v26 v827
  let ⟨v1162, v1182, c1_i32_1173⟩ : Σ' (v1162 : BitVec 32) (v1182 : BitVec 32), BitVec 32 ← k0_part42 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v11 v12 v22 v26 v827 v868
  let v1196 : BitVec 32 ← k0_part43 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v11 v16 v22 v868 v909 v1182 c1_i32_1173
  let v1230 : BitVec 32 ← k0_part44 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v16 v17 v22 v909 v1162
  let c1_i32_1273 : BitVec 32 ← k0_part45 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6
  let v1274 : BitVec 32 ← k0_part46 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v6 v10 v22 v1162 v1196 c1_i32_1273
  k0_part47 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v11
  let v1318 : BitVec 32 ← k0_part48 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v10 v15 v26 v1196 v1230
  let v1350 : BitVec 32 ← k0_part49 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v16 v26
  let v1362 : BitVec 32 ← k0_part50 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v15 v26 v1230 v1274 v1350
  k0_part51 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v24 v1274
  let v1406 : BitVec 32 ← k0_part52 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v9 v10 v24 v1274 v1318
  k0_part53 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v9 v10 v18 v1318
  let v1450 : BitVec 32 ← k0_part54 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v14 v15 v18 v1318 v1362
  let v1494 : BitVec 32 ← k0_part55 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v14 v15 v20 v1362
  k0_part56 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v1406
  k0_part57 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v8 v20 v1406 v1450
  k0_part58 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v9
  k0_part59 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v8 v9 v13 v24 v1450 v1494
  k0_part60 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v14
  pure ⟨d0, v3, v8, v13, v28, v1494⟩

/-- Stages one to four of the summing phase and the pointwise function, then the gathering phase. -/
noncomputable def rest7 (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2) (d0 : Dev nD) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v40 : BitVec 32) (v74 : BitVec 32) (v108 : BitVec 32) (v179 : BitVec 32) (v182 : BitVec 32) :
    Prog (TpuEff nD τ sig (Elt F) Λ₀ .tc) (Σ' (d0 : Dev nD) (v3 : BitVec 32) (v8 : BitVec 32) (v13 : BitVec 32) (v28 : BitVec 32), BitVec 32) := do
  let c128_i32_165 : BitVec 32 ← k0_part7 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v24 v40 v182
  let ⟨v229, v231, v234⟩ : Σ' (v229 : BitVec 32) (v231 : BitVec 32), BitVec 32 ← k0_part8 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v24 v40 v74 v179 c128_i32_165
  k0_part9 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v8 v9 v18 v74 v234
  let ⟨v281, v283, v286, v291, c0_i32_256⟩ : Σ' (v281 : BitVec 32) (v283 : BitVec 32) (v286 : BitVec 32) (v291 : BitVec 32), BitVec 32 ← k0_part10 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v9 v13 v28 v74 v108 v231
  k0_part11 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v14 v20 v108 v286 v291 c0_i32_256
  let ⟨v333, v349, v351⟩ : Σ' (v333 : BitVec 32) (v349 : FVec F S256x384 .f32), Vec F S256x384 .f32 ← k0_part12 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v14 v108 v179 v229 v283
  k0_part13 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v8 v231 v281 v349 v351
  let ⟨v395, v398⟩ : Σ' (v395 : BitVec 32), BitVec 32 ← k0_part14 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v13 v24 v179 v283 v333
  k0_part15 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v5 v22 v179 v398
  let ⟨v445, v447, v450⟩ : Σ' (v445 : BitVec 32) (v447 : BitVec 32), BitVec 32 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v9 v18 v179 v231 v395
  let ⟨v489, c0_i32_452⟩ : Σ' (v489 : BitVec 32), BitVec 32 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v10 v26 v231 v450
  let ⟨v497, v499, v502, v519⟩ : Σ' (v497 : BitVec 32) (v499 : BitVec 32) (v502 : BitVec 32), FVec F S128x256 .f32 ← k0_part18 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v14 v20 v231 v283 v447 v489 c0_i32_452
  let v549 : BitVec 32 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v15 v26 v283 v499 v502 v519
  k0_part20 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v395 v445
  k0_part21 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v9 v14 v447 v497
  let ⟨v611, v614, v627⟩ : Σ' (v611 : BitVec 32) (v614 : BitVec 32), Vec F S64x384 .f32 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v22 v395 v499 v549
  k0_part23 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6 v26 v614 v627
  let ⟨v661, v663⟩ : Σ' (v661 : BitVec 32), BitVec 32 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v10 v26 v395 v447 v611
  let ⟨v713, v715, v717⟩ : Σ' (v713 : BitVec 32) (v715 : BitVec 32), BitVec 32 ← k0_part25 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v11 v22 v26 v447 v499 v663
  let ⟨v746, c32_i32_703⟩ : Σ' (v746 : BitVec 32), BitVec 32 ← k0_part26 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v15 v22 v499 v717
  let v765 : BitVec 32 ← k0_part27 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v16 v22 v499 v715 v746 c32_i32_703
  k0_part28 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v10 v611 v661 v663
  let v827 : BitVec 32 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v15 v26 v611 v663 v713 v715 v765
  let v857 : FVec F S32x384 .bf16 ← k0_part30 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6 v26 v611
  let ⟨v866, v868, v871⟩ : Σ' (v866 : BitVec 32) (v868 : BitVec 32), BitVec 32 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v7 v11 v22 v611 v663 v827 v857
  let ⟨v907, v909, v912⟩ : Σ' (v907 : BitVec 32) (v909 : BitVec 32), BitVec 32 ← k0_part32 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v12 v22 v663 v715 v868 v871
  let c1_i32_905 : BitVec 32 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v16 v715 v912
  let v948 : BitVec 32 ← k0_part34 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6 v17 v715 v827 v866 v909 c1_i32_905
  k0_part35 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v11 v868 v907
  k0_part36 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v7 v16 v909 v948
  let ⟨v1044, c0_i32_1026⟩ : Σ' (v1044 : BitVec 32), BitVec 32 ← k0_part37 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v12 v827
  k0_part38 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v868 v1044 c0_i32_1026
  k0_part39 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v7 v17 v827 v909
  rest40 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v5 v6 v7 v8 v9 v10 v11 v12 v13 v14 v15 v16 v17 v18 v20 v22 v24 v26 v28 v827 v868 v909

/-- The chain is its first six parts followed by `rest7`. -/
theorem part64_cut7 (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2) :
    k0_part64_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 = (do
  let ⟨d0, v3, v4, v5, v6, v7, v8, v9, v10, v11, v12, v13, v14, v15, v16, v17, v18, v20, v22, v24, v26, v27, v28, v29, v30⟩ : Σ' (d0 : Dev nD) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v27 : BitVec 32) (v28 : BitVec 32) (v29 : Sems sig S_), BitVec 32 ← k0_part1 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17
  let ⟨v40, c256_i32_40⟩ : Σ' (v40 : BitVec 32), BitVec 32 ← k0_part2 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v5 v6 v7 v20 v27 v29 v30
  let ⟨v74, v85⟩ : Σ' (v74 : BitVec 32), FVec F S512x384 .bf16 ← k0_part3 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v20 c256_i32_40
  let ⟨v108, v114⟩ : Σ' (v108 : BitVec 32), FVec F S512x512 .bf16 ← k0_part4 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v8 v24 v85
  let v143 : Vec F S512x512 .f32 ← k0_part5 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v13 v28 v40 v114
  let ⟨v179, v182⟩ : Σ' (v179 : BitVec 32), BitVec 32 ← k0_part6 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v20 v40 v74 v108 v143
  rest7 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v5 v6 v7 v8 v9 v10 v11 v12 v13 v14 v15 v16 v17 v18 v20 v22 v24 v26 v28 v40 v74 v108 v179 v182) := rfl

/-- The end of the gathering phase: the body after its chain of sixty parts. -/
noncomputable def tail61 (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2) (d0 : Dev nD) (v3 : BitVec 32) (v8 : BitVec 32) (v13 : BitVec 32) (v28 : BitVec 32) (v1494 : BitVec 32) :
    Prog (TpuEff nD τ sig (Elt F) Λ₀ .tc) PUnit := do
  k0_part61 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v13 v28 v1494
  k0_part62 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v8
  k0_part63 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v8 v13
  let v1670 : Memref sig .tc .vmem S256x256 .bf16 := arg2.slice (Rect.unit (s := S1024x1024) (k0_off102 d0) S256x256.size (k0_off102_inb d0)) (fun _ => rfl)
  let v1667 : DmaSems sig S1x1x1 := arg17.slice (Rect.unit (s := S5x3x2) ![0, 2, 0] S1x1x1.size inb_S5x3x2_S1x1x1_0_2_0)
  let v1668 : DmaSems sig S_ := v1667.squeeze S_ squeezes_S1x1x1_S_
  let v1669 : Memref sig .tc .vmem S256x256 .bf16 := arg2.slice (Rect.unit (s := S1024x1024) (k0_off102 d0) S256x256.size (k0_off102_inb d0)) (fun _ => rfl)
  Prog.lift (.waitDma2 v1668.sem v1670 v1669 (harg2.wordExact_slice rfl _ (k0_off102_wordsbf16 d0)) (harg2.wordExact_slice rfl _ (k0_off102_wordsbf16 d0)))
  let v1671 : DmaSems sig S1x1x1 := arg16.slice (Rect.unit (s := S5x3x2) ![0, 2, 1] S1x1x1.size inb_S5x3x2_S1x1x1_0_2_1)
  let v1672 : DmaSems sig S_ := v1671.squeeze S_ squeezes_S1x1x1_S_
  let v1673 : Memref sig .tc .vmem S256x256 .bf16 := arg2.slice (Rect.unit (s := S1024x1024) (k0_off103 d0) S256x256.size (k0_off103_inb d0)) (fun _ => rfl)
  let v1674 : Memref sig .tc .vmem S256x256 .bf16 := arg2.slice (Rect.unit (s := S1024x1024) (k0_off103 d0) S256x256.size (k0_off103_inb d0)) (fun _ => rfl)
  Prog.lift (.waitDma2 v1672.sem v1674 v1673 (harg2.wordExact_slice rfl _ (k0_off103_wordsbf16 d0)) (harg2.wordExact_slice rfl _ (k0_off103_wordsbf16 d0)))
  let v1677 : DmaSems sig S1x1x1 := arg17.slice (Rect.unit (s := S5x3x2) ![0, 2, 1] S1x1x1.size inb_S5x3x2_S1x1x1_0_2_1)
  let v1678 : DmaSems sig S_ := v1677.squeeze S_ squeezes_S1x1x1_S_
  let v1679 : Memref sig .tc .vmem S256x256 .bf16 := arg2.slice (Rect.unit (s := S1024x1024) (k0_off103 d0) S256x256.size (k0_off103_inb d0)) (fun _ => rfl)
  let v1680 : Memref sig .tc .vmem S256x256 .bf16 := arg2.slice (Rect.unit (s := S1024x1024) (k0_off103 d0) S256x256.size (k0_off103_inb d0)) (fun _ => rfl)
  Prog.lift (.waitDma2 v1678.sem v1680 v1679 (harg2.wordExact_slice rfl _ (k0_off103_wordsbf16 d0)) (harg2.wordExact_slice rfl _ (k0_off103_wordsbf16 d0)))
  pure ⟨⟩

/-- The body is its chain of sixty parts followed by `tail61`. -/
theorem body_cut (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2) :
    cc0_body_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 = (do
  let ⟨d0, v3, v8, v13, v28, v1494⟩ ← k0_part64 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17
  tail61 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v8 v13 v28 v1494) := rfl

end Cert.KernelIdeal.Cut

end
-- ==== Proof.Segs.lean ====
/-
  The body in three segments: the handshake and the first stage of the summing phase; stages one to
  four and the pointwise function; the gathering phase. Between them, what a device holds is stated
  whole: the records, what it still owes, its remaining tokens, positions and credit, and every piece of
  every buffer with what is known of its contents.
-/
import proofs.«900879_g7700000000000880_dist_matmul_gelu_kshard_i_m1024_n1024_k512_v7x_i32_bf16_1_alg».proof.Proof.Gen.KernelIdeal
import proofs.«900879_g7700000000000880_dist_matmul_gelu_kshard_i_m1024_n1024_k512_v7x_i32_bf16_1_alg».proof.Proof.Gen.KernelIdeal.Skeleton
import proofs.«900879_g7700000000000880_dist_matmul_gelu_kshard_i_m1024_n1024_k512_v7x_i32_bf16_1_alg».proof.Proof.Gen.KernelIdeal.Launch
import proofs.«900879_g7700000000000880_dist_matmul_gelu_kshard_i_m1024_n1024_k512_v7x_i32_bf16_1_alg».proof.Proof.Gen.KernelIdeal.Points
import proofs.«900879_g7700000000000880_dist_matmul_gelu_kshard_i_m1024_n1024_k512_v7x_i32_bf16_1_alg».proof.Proof.Gen.KernelIdeal.Frame
import Idealize.ShloMosaic.Lib.Pipeline.Launch
import Idealize.ShloMosaic.Lib.Pipeline.Kit
import Idealize.ShloMosaic.Lib.Rounds
import Idealize.ShloMosaic.Lib.Tactic
import proofs.«900879_g7700000000000880_dist_matmul_gelu_kshard_i_m1024_n1024_k512_v7x_i32_bf16_1_alg».proof.Proof.StateTab
import proofs.«900879_g7700000000000880_dist_matmul_gelu_kshard_i_m1024_n1024_k512_v7x_i32_bf16_1_alg».proof.Proof.Laws
import proofs.«900879_g7700000000000880_dist_matmul_gelu_kshard_i_m1024_n1024_k512_v7x_i32_bf16_1_alg».proof.Proof.Cut

noncomputable section

namespace Cert.KernelIdeal.Segs

open Cert.KernelIdeal Cert.KernelIdeal.Gen Cert.KernelIdeal.Proto Cert.KernelIdeal.Tab Cert.KernelIdeal.Held Cert.KernelIdeal.PayTab
open Cert.KernelIdeal.Sched Cert.KernelIdeal.GhostTab Cert.KernelIdeal.Owed Cert.KernelIdeal.Ghost Cert.KernelIdeal.StateTab
open Cert.KernelIdeal.Laws Cert.KernelIdeal.Cut
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ct : Contract F) (K : Dev nD × Fin 124 → ℕ) (c : Dev nD)
variable (YA : S1024x512.Idx → F .f32) (YB : S512x1024.Idx → F .f32)

abbrev 𝒱₀ : Variants := Variants.none

/-- A whole buffer at some contents. -/
abbrev someAt (b : Ref sig .tc) : sProp 𝕄 := iprop(∃ f : Buf (Elt F) ((c : Thread nD τ).loc b), ((c : Thread nD τ).loc b) ↦{fullShare} f)

/-- The rows of the accumulator that hold column block `k`'s kept half after the first stage. -/
abbrev accKeep0_0 : Finset S1024x1024.Idx := ((Memref.whole cc0_scratch0 : Memref sig .tc .vmem S1024x1024 .f32).access (Rect.unit (s := S1024x1024) (k0_off10 c) S512x384.size (k0_off10_inb c))).set
abbrev accKeep0_1 : Finset S1024x1024.Idx := ((Memref.whole cc0_scratch0 : Memref sig .tc .vmem S1024x1024 .f32).access (Rect.unit (s := S1024x1024) (k0_off12 c) S512x384.size (k0_off12_inb c))).set
abbrev accKeep0_2 : Finset S1024x1024.Idx := ((Memref.whole cc0_scratch0 : Memref sig .tc .vmem S1024x1024 .f32).access (Rect.unit (s := S1024x1024) (k0_off13 c) S512x256.size (k0_off13_inb c))).set

/-- Before the body: what the launch hands it, the records' names opened. -/
def PreA : sProp 𝕄 :=
  iprop(records ct K ∗ levAts L lv ∗ (∃ W, owes (c : Thread nD τ) (owedFrom c 0) W)
    ∗ positions c ∗ barToks c ∗ xferToks c ∗ credits c ∗ idle c
    ∗ Pipeline.scopedRest (Ix := Unit) (Name := ℕ) (U := UU) (Lvl := ℕ) (Val := Elt F) spec0 c
    ∗ (((c : Thread nD τ).loc cc0_stg0_0) ↦{fullShare} YA) ∗ (((c : Thread nD τ).loc cc0_stg1_0) ↦{fullShare} YB)
    ∗ someAt c cc0_stg2_0)

/-- After the first stage: six transfers in flight; the accumulator holds the kept halves' products. -/
def Pre7 : sProp 𝕄 :=
  iprop(records ct K ∗ levAts L lv ∗ (∃ W, owes (c : Thread nD τ) (owedFrom c 11) W)
    ∗ toksFrom6 c ∗ posRS c ∗ posAG c ∗ credRS c ∗ credAG c ∗ sendCred0 c ∗ idle c
    ∗ (((c : Thread nD τ).loc cc0_stg0_0) ↦{fullShare} YA) ∗ (((c : Thread nD τ).loc cc0_stg1_0) ↦{fullShare} YB)
    ∗ (loanV c (src_ag_4_0_0 c) ∗ loanV c (src_ag_4_1_0 c) ∗ loanV c (src_ag_4_2_0 c))
    ∗ (∃ fa : Buf (Elt F) ((c : Thread nD τ).loc cc0_scratch0), (((c : Thread nD τ).loc cc0_scratch0) ↦{fullShare} fa)
        ∗ ⌜(∀ i ∈ accKeep0_0 c, ct.okAcc 0 c (i 0).val (i 1).val (fa i)) ∧ (∀ i ∈ accKeep0_1 c, ct.okAcc 0 c (i 0).val (i 1).val (fa i))
            ∧ (∀ i ∈ accKeep0_2 c, ct.okAcc 0 c (i 0).val (i 1).val (fa i))⌝)
    ∗ (someAt c cc0_scratch7 ∗ someAt c cc0_scratch8 ∗ someAt c cc0_scratch9 ∗ someAt c cc0_scratch10)
    ∗ landFrom6 c)

/-- After the pointwise function: the summing phase's cells closed, its buffers whole again; the device's own
    32 rows of each column block hold the result. -/
def Pre40 : sProp 𝕄 :=
  iprop(records ct K ∗ levAts L lv ∗ (∃ W, owes (c : Thread nD τ) (owedFrom c 32) W)
    ∗ toksAG c ∗ posAG c ∗ credAG c ∗ closedRS c ∗ idle c
    ∗ (((c : Thread nD τ).loc cc0_stg0_0) ↦{fullShare} YA) ∗ (((c : Thread nD τ).loc cc0_stg1_0) ↦{fullShare} YB)
    ∗ (heldV c (src_ag_4_0_0 c) fullShare (fun i v => pOut ct (sh := S1024x1024) i v)
        ∗ heldV c (src_ag_4_1_0 c) fullShare (fun i v => pOut ct (sh := S1024x1024) i v)
        ∗ heldV c (src_ag_4_2_0 c) fullShare (fun i v => pOut ct (sh := S1024x1024) i v))
    ∗ Pipeline.scopedRest (Ix := Unit) (Name := ℕ) (U := UU) (Lvl := ℕ) (Val := Elt F) spec0 c
    ∗ landAG c)

/-- After the body: every scratch buffer whole, every own semaphore at zero, nothing owed; the arguments'
    blocks as found, the result right under the contract. -/
def PostBody : sProp 𝕄 :=
  iprop((∃ W, owes (c : Thread nD τ) 0 W) ∗ closedRS c ∗ closedAG c ∗ idle c
    ∗ Pipeline.scopedRest (Ix := Unit) (Name := ℕ) (U := UU) (Lvl := ℕ) (Val := Elt F) spec0 c
    ∗ (((c : Thread nD τ).loc cc0_stg0_0) ↦{fullShare} YA) ∗ (((c : Thread nD τ).loc cc0_stg1_0) ↦{fullShare} YB)
    ∗ (∃ X : Buf (Elt F) ((c : Thread nD τ).loc cc0_stg2_0), ⌜∀ i : S1024x1024.Idx, ct.okOut (i 0).val (i 1).val (X i)⌝ ∗ (((c : Thread nD τ).loc cc0_stg2_0) ↦{fullShare} X)))

/-- The first segment: the handshake and the first stage. -/
def SegA {R : Type} (T : (Σ' (d0 : Dev nD) (v3 : BitVec 32) (v8 : BitVec 32) (v13 : BitVec 32) (v28 : BitVec 32), BitVec 32) → Prog (TpuEff nD τ sig (Elt F) Λ₀ .tc) R) (Kt : R → sProp (MT nD τ sig Unit (Elt F) ℕ UU ℕ)) : Prop :=
  iprop(PreA ct K c YA YB ∗ (∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v40 : BitVec 32) (v74 : BitVec 32) (v108 : BitVec 32) (v179 : BitVec 32) (v182 : BitVec 32), Pre7 ct K c YA YB -∗
        wp frame (wpE (defs₀ (F := F)) 𝒱₀ (c : Thread nD τ) none) Set.univ (rest7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v40 v74 v108 v179 v182 >>= T) Kt))
    ⊢ wp frame (wpE (defs₀ (F := F)) 𝒱₀ (c : Thread nD τ) none) Set.univ (k0_part64_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 >>= T) Kt

/-- The second segment: stages one to four of the summing phase and the pointwise function. -/
def SegB {R : Type} (T : (Σ' (d0 : Dev nD) (v3 : BitVec 32) (v8 : BitVec 32) (v13 : BitVec 32) (v28 : BitVec 32), BitVec 32) → Prog (TpuEff nD τ sig (Elt F) Λ₀ .tc) R) (Kt : R → sProp (MT nD τ sig Unit (Elt F) ℕ UU ℕ)) : Prop :=
  ∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v40 : BitVec 32) (v74 : BitVec 32) (v108 : BitVec 32) (v179 : BitVec 32) (v182 : BitVec 32),
  iprop(Pre7 ct K c YA YB ∗ (∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v827 : BitVec 32) (v868 : BitVec 32) (v909 : BitVec 32), Pre40 ct K c YA YB -∗
        wp frame (wpE (defs₀ (F := F)) 𝒱₀ (c : Thread nD τ) none) Set.univ (rest40 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v827 v868 v909 >>= T) Kt))
    ⊢ wp frame (wpE (defs₀ (F := F)) 𝒱₀ (c : Thread nD τ) none) Set.univ (rest7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v40 v74 v108 v179 v182 >>= T) Kt

/-- The third segment: the gathering phase, to the end of the body. -/
def SegC (Kt : PUnit → sProp (MT nD τ sig Unit (Elt F) ℕ UU ℕ)) : Prop :=
  ∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v827 : BitVec 32) (v868 : BitVec 32) (v909 : BitVec 32),
  iprop(Pre40 ct K c YA YB ∗ (PostBody ct c YA YB -∗ Kt ⟨⟩))
    ⊢ wp frame (wpE (defs₀ (F := F)) 𝒱₀ (c : Thread nD τ) none) Set.univ
        (rest40 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v827 v868 v909 >>= fun r => tail61 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 r.1 r.2.1 r.2.2.1 r.2.2.2.1 r.2.2.2.2.1 r.2.2.2.2.2) Kt

end Cert.KernelIdeal.Segs

end
-- ==== Proof.LawsTriv.lean ====
import proofs.«900879_g7700000000000880_dist_matmul_gelu_kshard_i_m1024_n1024_k512_v7x_i32_bf16_1_alg».proof.Proof.Laws

noncomputable section

namespace Cert.KernelIdeal.LawsTriv

open Cert.KernelIdeal Cert.KernelIdeal.Gen Cert.KernelIdeal.Proto Cert.KernelIdeal.Laws
open Idealize.ShloMosaic Idealize.ShloMosaic.TcCoe Idealize.SL.Sem

/-- Under the contract that asks nothing every law holds. -/
theorem laws_trivial {F : FTy → Type} [FloatOps F] (c : Dev nD) (YA : S1024x512.Idx → F .f32) (YB : S512x1024.Idx → F .f32) :
    Laws (Contract.trivial (F := F)) c YA YB := by
  constructor <;> intros <;> trivial

end Cert.KernelIdeal.LawsTriv
end

/-- info: 'Cert.KernelIdeal.LawsTriv.laws_trivial' depends on axioms: [propext, Classical.choice, Quot.sound] -/
#guard_msgs in #print axioms Cert.KernelIdeal.LawsTriv.laws_trivial
-- ==== Proof.BodyOb.lean ====
/-
  From the three segments of the body to the body obligation of the proof data: what the obligation
  hands the body is the first segment's precondition, and what the last segment leaves is what the
  obligation asks back.
-/
import proofs.«900879_g7700000000000880_dist_matmul_gelu_kshard_i_m1024_n1024_k512_v7x_i32_bf16_1_alg».proof.Proof.Segs
import proofs.«900879_g7700000000000880_dist_matmul_gelu_kshard_i_m1024_n1024_k512_v7x_i32_bf16_1_alg».proof.Proof.Fund
import proofs.«900879_g7700000000000880_dist_matmul_gelu_kshard_i_m1024_n1024_k512_v7x_i32_bf16_1_alg».proof.Proof.LawsTriv

noncomputable section

namespace Cert.KernelIdeal.BodyOb

open Cert.KernelIdeal Cert.KernelIdeal.Gen Cert.KernelIdeal.Proto Cert.KernelIdeal.Tab Cert.KernelIdeal.Held Cert.KernelIdeal.PayTab
open Cert.KernelIdeal.Sched Cert.KernelIdeal.GhostTab Cert.KernelIdeal.Owed Cert.KernelIdeal.Ghost Cert.KernelIdeal.StateTab
open Cert.KernelIdeal.Laws Cert.KernelIdeal.Cut Cert.KernelIdeal.Segs Cert.KernelIdeal.Fund
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (ct : Contract F) (m : (ℓ : Loc nD τ sig) → Buf (Elt F) ℓ) (c : Dev nD)

/-! ## What the body finds in the argument windows -/

/-- The one point's fetch fills the first argument's staging buffer with the whole array. -/
theorem finds_0 (Y : (cfg0.win (0 : Fin 3)).block.Idx → Elt F (cfg0.win (0 : Fin 3)).elt) (h : (rdats ct m 0 c).Finds (0 : Fin 3) t0_0 Y) :
    Y = m ((c : Thread nD τ).loc main_arg0) := by
  rw [(rdats ct m 0 c).finds_of_fetch (fetch0_0 t0_0)] at h
  obtain ⟨d, rfl⟩ := h
  have hb : (rdats ct m 0 c).blockOf (0 : Fin 3) t0_0 = m ((c : Thread nD τ).loc main_arg0) :=
    Memref.read_access_unit_zero (Elt F) main_arg0 (off := fun a => 0 * (main_arg0 : Ref sig .tc).ty.shape.size a)
      (funext fun a => Nat.zero_mul _) _ _
  funext j
  exact ((cfg0.win (0 : Fin 3)).fill_xinj (cfg0.grid.coords t0_0) d _ j).trans (congrFun hb j)

/-- And the second argument's with the whole array. -/
theorem finds_1 (Y : (cfg0.win (1 : Fin 3)).block.Idx → Elt F (cfg0.win (1 : Fin 3)).elt) (h : (rdats ct m 0 c).Finds (1 : Fin 3) t0_0 Y) :
    Y = m ((c : Thread nD τ).loc main_arg1) := by
  rw [(rdats ct m 0 c).finds_of_fetch (fetch0_1 t0_0)] at h
  obtain ⟨d, rfl⟩ := h
  have hb : (rdats ct m 0 c).blockOf (1 : Fin 3) t0_0 = m ((c : Thread nD τ).loc main_arg1) :=
    Memref.read_access_unit_zero (Elt F) main_arg1 (off := fun a => 0 * (main_arg1 : Ref sig .tc).ty.shape.size a)
      (funext fun a => Nat.zero_mul _) _ _
  funext j
  exact ((cfg0.win (1 : Fin 3)).fill_xinj (cfg0.grid.coords t0_0) d _ j).trans (congrFun hb j)

/-! ## The kernel's own semaphores, closed -/

omit [FloatOps F] in
/-- A chain over two lists in turn is the two chains. -/
theorem bigSepL_append {I : Type} (l₁ l₂ : List I) (Φ : I → sProp 𝕄) :
    bigSepL (l₁ ++ l₂) Φ = iprop(bigSepL l₁ Φ ∗ bigSepL l₂ Φ) := by
  induction l₁ with
  | nil => exact (equiv_iff.mp emp_sep).symm
  | cons i l ih => rw [List.cons_append, bigSepL_cons, ih, bigSepL_cons]; exact (equiv_iff.mp ⟨Idealize.SL.BI.sep_assoc, Idealize.SL.BI.sep_assoc'⟩).symm

omit [FloatOps F] in
/-- The transfer cells in use, all at zero, are the closed cells of the two phases. -/
theorem closed_eq :
    (bigSep (ourN.erase (123 : Fin 124)) fun n => semVal (kcell (c, n)) 0 : sProp 𝕄) = iprop(closedRS c ∗ closedAG c) := by
  have he : ourN.erase (123 : Fin 124)
      = (Finset.univ.filter usedT).map ⟨sIx, sIx_inj⟩ ∪ (Finset.univ.filter usedT).map ⟨rIx, rIx_inj⟩ := by
    rw [ourN_eq, Finset.erase_insert ourN_bar]
  rw [he, bigSep_union ourN_disj, bigSep_map, bigSep_map, ← bigSep_sep, bigSep_eq_bigSepL_of_eq xl xl_eq xl_nodup]
  simp only [Function.Embedding.coeFn_mk, kcell_sIx, kcell_rIx]
  rw [← List.take_append_drop 27 xl, bigSepL_append]
  rfl

omit [FloatOps F] in
/-- The kernel's 120 own semaphores at zero: the closed cells of the two phases and the twelve idle ones. -/
theorem ownSems0_closed :
    iprop(closedRS c ∗ closedAG c ∗ idle c)
      ⊢ (Pipeline.ownSems0 (Ix := Unit) (Name := ℕ) (U := UU) (Lvl := ℕ) (Val := Elt F) (τ := τ) osem c : sProp 𝕄) := by
  have hown : (Pipeline.ownSems0 (Ix := Unit) (Name := ℕ) (U := UU) (Lvl := ℕ) (Val := Elt F) (τ := τ) osem c : sProp 𝕄)
      = iprop((bigSep (ourN.erase (123 : Fin 124)) fun n => semVal (kcell (c, n)) 0) ∗ idle c) := by
    unfold Pipeline.ownSems0
    rw [bigSep_filter_split Finset.univ (fun i : Fin 120 => usedIx (3 + i.val) = true), ← used120, bigSep_map,
      bigSep_eq_bigSepL_of_eq _ idle120 (by decide)]
    congr 1
  rw [hown, closed_eq]
  iintro ⟨HRS, HAG, Hidle⟩
  isplitr [Hidle]
  · isplitl [HRS]
    · iexact HRS
    iexact HAG
  iexact Hidle

/-! ## The segments in turn -/

/-- What the chain of parts hands the end of the body. -/
abbrev Sg : Type := Σ' (d0 : Dev nD) (v3 : BitVec 32) (v8 : BitVec 32) (v13 : BitVec 32) (v28 : BitVec 32), BitVec 32

/-- The body is its chain of parts followed by its end, the end read off the chain's result by its components. -/
theorem body_cut' :
    cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14
      = (k0_part64_skel (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 >>= (fun r => tail61 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 r.1 r.2.1 r.2.2.1 r.2.2.2.1 r.2.2.2.2.1 r.2.2.2.2.2)) := by
  rw [cc0_body_eq_skeleton, body_cut, k0_part64_eq_skeleton]

variable (K : Dev nD × Fin 124 → ℕ) (YA : S1024x512.Idx → F .f32) (YB : S512x1024.Idx → F .f32)

/-- The three segments one after the other run the whole body from the first one's precondition to the last one's
    postcondition. -/
theorem body_of_segs
    (hA : ∀ {R : Type} (T : Sg → Prog (TpuEff nD τ sig (Elt F) Λ₀ .tc) R) (Kt : R → sProp (MT nD τ sig Unit (Elt F) ℕ UU ℕ)), SegA ct K c YA YB T Kt)
    (hB : ∀ {R : Type} (T : Sg → Prog (TpuEff nD τ sig (Elt F) Λ₀ .tc) R) (Kt : R → sProp (MT nD τ sig Unit (Elt F) ℕ UU ℕ)), SegB ct K c YA YB T Kt)
    (hC : ∀ (Kt : PUnit → sProp (MT nD τ sig Unit (Elt F) ℕ UU ℕ)), SegC ct K c YA YB Kt)
    (Kt : PUnit → sProp (MT nD τ sig Unit (Elt F) ℕ UU ℕ)) :
    iprop(PreA ct K c YA YB ∗ (PostBody ct c YA YB -∗ Kt ⟨⟩))
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14) Kt := by
  rw [body_cut']
  unfold SegB at hB
  unfold SegC at hC
  iintro ⟨HP, HK⟩
  have hA' := hA (fun r => tail61 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 r.1 r.2.1 r.2.2.1 r.2.2.2.1 r.2.2.2.2.1 r.2.2.2.2.2) Kt
  unfold SegA at hA'
  iapply hA'
  isplitl [HP]
  · iexact HP
  iintro %v3 %v4 %v5 %v6 %v7 %v8 %v9 %v10 %v11 %v12 %v13 %v14 %v15 %v16 %v17 %v18 %v20 %v22 %v24 %v26 %v28 %v40 %v74 %v108 %v179 %v182
  iintro H7
  have hB' := hB (fun r => tail61 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 r.1 r.2.1 r.2.2.1 r.2.2.2.1 r.2.2.2.2.1 r.2.2.2.2.2) Kt v3 v4 v5 v6 v7 v8 v9 v10 v11 v12 v13 v14 v15 v16 v17 v18 v20 v22 v24 v26 v28 v40 v74 v108 v179 v182
  iapply hB'
  isplitl [H7]
  · iexact H7
  iintro %w3 %w4 %w5 %w6 %w7 %w8 %w9 %w10 %w11 %w12 %w13 %w14 %w15 %w16 %w17 %w18 %w20 %w22 %w24 %w26 %w28 %w827 %w868 %w909
  iintro H40
  have hC' := hC Kt w3 w4 w5 w6 w7 w8 w9 w10 w11 w12 w13 w14 w15 w16 w17 w18 w20 w22 w24 w26 w28 w827 w868 w909
  iapply hC'
  isplitl [H40]
  · iexact H40
  iexact HK

/-! ## The obligation -/

/-- What the obligation hands the body is the first segment's precondition, the cells' names opened. -/
theorem pre_of (Y : (w : Fin cfg0.W) → (cfg0.win w).block.Idx → Elt F (cfg0.win w).elt)
    (h0 : Y (0 : Fin 3) = m ((c : Thread nD τ).loc main_arg0)) (h1 : Y (1 : Fin 3) = m ((c : Thread nD τ).loc main_arg1)) :
    iprop((rdats ct m 0 c).Φ t0_0.castSucc ∗ (rdats ct m 0 c).owesAt () t0_0.castSucc
        ∗ bigSep Finset.univ fun w => owns (c : Thread nD τ) ((cfg0.win w).stage (cfg0.slots t0_0 w)) fullShare (Y w))
      ⊢ iprop(∃ K, PreA ct K c (m ((c : Thread nD τ).loc main_arg0)) (m ((c : Thread nD τ).loc main_arg1))) := by
  rw [bigSep_W0]
  show iprop(Φ₀ ct c ∗ (∃ W, ⌜↑W ⊆ (rdats ct m 0 c).bound () t0_0.castSucc⌝ ∗ owes (c : Thread nD τ) (owedFrom c 0) W)
      ∗ owns (c : Thread nD τ) (Memref.whole cc0_stg0_0) fullShare (Y (0 : Fin 3))
      ∗ owns (c : Thread nD τ) (Memref.whole cc0_stg1_0) fullShare (Y (1 : Fin 3))
      ∗ owns (c : Thread nD τ) (Memref.whole cc0_stg2_0) fullShare (Y (2 : Fin 3))) ⊢ _
  rw [owns_whole, owns_whole, owns_whole, h0, h1]
  unfold Φ₀ start PreA someAt
  iintro ⟨HΦ, Ho, H0, H1, H2⟩
  icases HΦ with ⟨Hs, Hrest⟩
  icases Hs with ⟨HK, Hcred, Hidle, Hlev⟩
  icases HK with ⟨%K, Hrec, Hpos, Hbar, Hx⟩
  icases Ho with ⟨%W, -, Ho⟩
  iexists K
  isplitl [Hrec]
  · iexact Hrec
  isplitl [Hlev]
  · iexact Hlev
  isplitl [Ho]
  · iexists W; iexact Ho
  isplitl [Hpos]
  · iexact Hpos
  isplitl [Hbar]
  · iexact Hbar
  isplitl [Hx]
  · iexact Hx
  isplitl [Hcred]
  · iexact Hcred
  isplitl [Hidle]
  · iexact Hidle
  isplitl [Hrest]
  · iexact Hrest
  isplitl [H0]
  · iexact H0
  isplitl [H1]
  · iexact H1
  iexists _; iexact H2

/-- What the last segment leaves is what the obligation asks back. -/
theorem post_of (Y : (w : Fin cfg0.W) → (cfg0.win w).block.Idx → Elt F (cfg0.win w).elt)
    (h0 : Y (0 : Fin 3) = m ((c : Thread nD τ).loc main_arg0)) (h1 : Y (1 : Fin 3) = m ((c : Thread nD τ).loc main_arg1)) :
    PostBody ct c (m ((c : Thread nD τ).loc main_arg0)) (m ((c : Thread nD τ).loc main_arg1))
      ⊢ iprop((rdats ct m 0 c).Φ t0_0.succ ∗ (rdats ct m 0 c).owesAt () t0_0.succ
          ∗ bigSep Finset.univ fun w => iprop(∃ X, ⌜(rdats ct m 0 c).after w t0_0 (Y w) X⌝
              ∗ owns (c : Thread nD τ) ((cfg0.win w).stage (cfg0.slots t0_0 w)) fullShare X)) := by
  rw [bigSep_W0]
  show _ ⊢ iprop(Φ₁ c ∗ (∃ W, ⌜↑W ⊆ (rdats ct m 0 c).bound () t0_0.succ⌝ ∗ owes (c : Thread nD τ) 0 W)
      ∗ (∃ X, ⌜X = Y (0 : Fin 3)⌝ ∗ owns (c : Thread nD τ) (Memref.whole cc0_stg0_0) fullShare X)
      ∗ (∃ X, ⌜X = Y (1 : Fin 3)⌝ ∗ owns (c : Thread nD τ) (Memref.whole cc0_stg1_0) fullShare X)
      ∗ (∃ X, ⌜∀ i : S1024x1024.Idx, ct.okOut (i 0).val (i 1).val (X i)⌝ ∗ owns (c : Thread nD τ) (Memref.whole cc0_stg2_0) fullShare X))
  simp only [owns_whole]
  unfold PostBody Φ₁
  iintro ⟨Ho, HRS, HAG, Hidle, Hrest, H0, H1, H2⟩
  icases Ho with ⟨%W, Ho⟩
  isplitl [HRS HAG Hidle Hrest]
  · isplitl [Hrest]
    · iexact Hrest
    iapply (ownSems0_closed (F := F) c)
    isplitl [HRS]
    · iexact HRS
    isplitl [HAG]
    · iexact HAG
    iexact Hidle
  isplitl [Ho]
  · iexists W
    isplitr
    · ipureintro; exact fun _ _ => Or.inl trivial
    iexact Ho
  isplitl [H0]
  · iexists _
    isplitr
    · ipureintro; exact h0.symm
    iexact H0
  isplitl [H1]
  · iexists _
    isplitr
    · ipureintro; exact h1.symm
    iexact H1
  iexact H2

/-- The library's body obligation on device `c`, from the three segments and the laws at the argument arrays. -/
theorem body_obligation
    (laws : Laws ct c (m ((c : Thread nD τ).loc main_arg0)) (m ((c : Thread nD τ).loc main_arg1)))
    (hA : ∀ (K : Dev nD × Fin 124 → ℕ) (YA : S1024x512.Idx → F .f32) (YB : S512x1024.Idx → F .f32), Laws ct c YA YB →
      ∀ {R : Type} (T : Sg → Prog (TpuEff nD τ sig (Elt F) Λ₀ .tc) R) (Kt : R → sProp (MT nD τ sig Unit (Elt F) ℕ UU ℕ)), SegA ct K c YA YB T Kt)
    (hB : ∀ (K : Dev nD × Fin 124 → ℕ) (YA : S1024x512.Idx → F .f32) (YB : S512x1024.Idx → F .f32), Laws ct c YA YB →
      ∀ {R : Type} (T : Sg → Prog (TpuEff nD τ sig (Elt F) Λ₀ .tc) R) (Kt : R → sProp (MT nD τ sig Unit (Elt F) ℕ UU ℕ)), SegB ct K c YA YB T Kt)
    (hC : ∀ (K : Dev nD × Fin 124 → ℕ) (YA : S1024x512.Idx → F .f32) (YB : S512x1024.Idx → F .f32), Laws ct c YA YB →
      ∀ (Kt : PUnit → sProp (MT nD τ sig Unit (Elt F) ℕ UU ℕ)), SegC ct K c YA YB Kt) :
    (rdats ct m 0 c).BodyObligation (defs₀ (F := F)) Variants.none () Set.univ := by
  intro t Y hY
  obtain rfl := fin_N0 t
  have h0 := finds_0 ct m c (Y (0 : Fin 3)) (hY 0)
  have h1 := finds_1 ct m c (Y (1 : Fin 3)) (hY 1)
  refine (pre_of ct m c Y h0 h1).trans ?_
  show iprop(∃ K, PreA ct K c (m ((c : Thread nD τ).loc main_arg0)) (m ((c : Thread nD τ).loc main_arg1))) ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14) _
  iintro ⟨%K, HP⟩
  iapply (body_of_segs ct c K _ _ (hA K _ _ laws) (hB K _ _ laws) (hC K _ _ laws) _)
  isplitl [HP]
  · iexact HP
  iintro HQ
  iapply (post_of ct m c Y h0 h1)
  iexact HQ

/-- Under the contract that asks nothing the laws hold of any contents: the obligation of the frame claim. -/
theorem body_trivial
    (hA : ∀ (K : Dev nD × Fin 124 → ℕ) (YA : S1024x512.Idx → F .f32) (YB : S512x1024.Idx → F .f32), Laws (Contract.trivial (F := F)) c YA YB →
      ∀ {R : Type} (T : Sg → Prog (TpuEff nD τ sig (Elt F) Λ₀ .tc) R) (Kt : R → sProp (MT nD τ sig Unit (Elt F) ℕ UU ℕ)), SegA (Contract.trivial (F := F)) K c YA YB T Kt)
    (hB : ∀ (K : Dev nD × Fin 124 → ℕ) (YA : S1024x512.Idx → F .f32) (YB : S512x1024.Idx → F .f32), Laws (Contract.trivial (F := F)) c YA YB →
      ∀ {R : Type} (T : Sg → Prog (TpuEff nD τ sig (Elt F) Λ₀ .tc) R) (Kt : R → sProp (MT nD τ sig Unit (Elt F) ℕ UU ℕ)), SegB (Contract.trivial (F := F)) K c YA YB T Kt)
    (hC : ∀ (K : Dev nD × Fin 124 → ℕ) (YA : S1024x512.Idx → F .f32) (YB : S512x1024.Idx → F .f32), Laws (Contract.trivial (F := F)) c YA YB →
      ∀ (Kt : PUnit → sProp (MT nD τ sig Unit (Elt F) ℕ UU ℕ)), SegC (Contract.trivial (F := F)) K c YA YB Kt) :
    (rdats (Contract.trivial (F := F)) m 0 c).BodyObligation (defs₀ (F := F)) Variants.none () Set.univ :=
  body_obligation Contract.trivial m c (Cert.KernelIdeal.LawsTriv.laws_trivial c _ _) hA hB hC

end Cert.KernelIdeal.BodyOb

end
-- ==== Proof.LawsInst.lean ====
/-
  The laws of the exchange hold for the contract of the sum: every computing step of the kernel carries the
  mathematics of the partial sums to the mathematics of the next partial sums, and the last one to the result.
-/
import proofs.«900879_g7700000000000880_dist_matmul_gelu_kshard_i_m1024_n1024_k512_v7x_i32_bf16_1_alg».proof.Proof.Laws
import proofs.«900879_g7700000000000880_dist_matmul_gelu_kshard_i_m1024_n1024_k512_v7x_i32_bf16_1_alg».proof.Proof.ValueMath

noncomputable section

namespace Cert.KernelIdeal.LawsInst

open Cert.KernelIdeal Cert.KernelIdeal.Gen Cert.KernelIdeal.Proto Cert.KernelIdeal.Laws
open Idealize.ShloMosaic Idealize.ShloMosaic.TcCoe Idealize.SL.Sem Idealize.ShloMosaic.ValueIdx
open Cert.ValueMath

/-- The pointwise function, operation by operation, is the reference's on the extended reals. -/
theorem geluS_ideal (z : EReal) : geluS (F := Ideal) z = Cert.RefSide.gelu z := rfl

/-- A product of 512 rows of the left block, starting at row `r0`, with the columns of the right block starting at
    `q0`, read at an index, is the device's partial product at that row and column. -/
theorem mm_core (m : Mem) (c : Dev nD) (r0 q0 W : ℕ) (x : S512x512.Idx → EReal) (y : (⟨2, ![512, W]⟩ : Shape).Idx → EReal)
    (hx : ∀ (j : S512x512.Idx) (i : S1024x512.Idx), (i 0).val = r0 + (j 0).val → (i 1).val = (j 1).val → x j = argA m c i)
    (hy : ∀ (j : (⟨2, ![512, W]⟩ : Shape).Idx) (i : S512x1024.Idx), (i 0).val = (j 0).val → (i 1).val = q0 + (j 1).val → y j = argB m c i)
    (hr : r0 + 512 ≤ 1024) (hq : q0 + W ≤ 1024) (j : (⟨2, ![512, W]⟩ : Shape).Idx) :
    ∑ κ : Fin 512, x (ix2 (j 0) κ) * y (ix2 κ (j 1)) = Cert.ValueMath.Part m c (r0 + (j 0).val) (q0 + (j 1).val) := by
  have h0 : (j 0).val < 512 := (j 0).isLt
  have h1 : (j 1).val < W := (j 1).isLt
  have hR : r0 + (j 0).val < 1024 := by omega
  have hQ : q0 + (j 1).val < 1024 := by omega
  unfold Cert.ValueMath.Part dot
  rw [dif_pos ⟨hR, hQ⟩]
  refine Finset.sum_congr rfl fun κ _ => ?_
  rw [hx (ix2 (j 0) κ) (ix2 ⟨r0 + (j 0).val, hR⟩ κ) rfl rfl, hy (ix2 κ (j 1)) (ix2 κ ⟨q0 + (j 1).val, hQ⟩) rfl rfl]

theorem half_zero : half 0 = 512 := by decide
theorem lo_zero (k : Fin 3) (c : Dev nD) : lo k c 0 = 0 := rfl
theorem lo_one (k : Fin 3) (c : Dev nD) : lo k c 1 = bit k 0 c * 512 := by
  show 0 + (if h : 0 < 5 then bit k ⟨0, h⟩ c * half 0 else 0) = _
  rw [dif_pos (by decide), half_zero, Nat.zero_add]
  rfl

theorem blk_0 {q : ℕ} (h : q < 384) : blk q = 0 := by unfold blk; rw [if_pos h]
theorem blk_1 {q : ℕ} (h : q < 384) : blk (384 + q) = 1 := by
  unfold blk; rw [if_neg (by omega), if_pos (by omega)]
theorem blk_2 (q : ℕ) : blk (768 + q) = 2 := by
  unfold blk; rw [if_neg (by omega), if_neg (by omega)]

/-- The contract of the sum satisfies every law: the local products are the partial products, adding a partner's
    piece doubles the devices summed over, what is sent is the running sum, and the pointwise function of the
    complete sum is the result. -/
theorem laws_ideal (m : Mem) (c : Dev nD) : Laws (idealCt m) c (argA m c) (argB m c) where
  mm_ss0 := by
    intro x y hx hy j
    have hq : (j 1).val < 384 := (j 1).isLt
    have hb := bit_le_one 0 0 c
    show k0_pay1 x y j = Tt m (blk (j 1).val) 0 c (lo (blk (j 1).val) c 0 + (1 - bit (blk (j 1).val) 0 c) * half 0 + (j 0).val) (j 1).val
    rw [blk_0 hq, pay1_apply, Tt_zero, lo_zero, half_zero, Nat.zero_add]
    have h := mm_core m c ((1 - bit 0 0 c) * 512) 0 384 x y hx (fun j i a b => hy j i a (by omega)) (by omega) (by omega) j
    rw [Nat.zero_add] at h
    exact h
  mm_ss1 := by
    intro x y hx hy j
    have hq : (j 1).val < 384 := (j 1).isLt
    show k0_pay3 (k0_pay2 x y) j = Tt m (blk (384 + (j 1).val)) 0 c (lo (blk (384 + (j 1).val)) c 0 + (1 - bit (blk (384 + (j 1).val)) 0 c) * half 0 + (j 0).val) (384 + (j 1).val)
    rw [blk_1 hq, pay3_apply, pay2_apply, Tt_zero, lo_zero, half_zero, Nat.zero_add]
    exact mm_core m c ((1 - bit 1 0 c) * 512) 384 384 x y hx hy (by omega) (by omega) j
  mm_ss2 := by
    intro x y hx hy j
    show k0_pay5 (k0_pay4 x) y j = Tt m (blk (768 + (j 1).val)) 0 c (lo (blk (768 + (j 1).val)) c 0 + (1 - bit (blk (768 + (j 1).val)) 0 c) * half 0 + (j 0).val) (768 + (j 1).val)
    rw [blk_2, pay5_apply, Tt_zero, lo_zero, half_zero, Nat.zero_add]
    simp only [pay4_apply]
    exact mm_core m c ((1 - bit 2 0 c) * 512) 768 256 x y hx hy (by omega) (by omega) j
  mm_acc0 := by
    intro x y hx hy j
    have hq : (j 1).val < 384 := (j 1).isLt
    have hb := bit_le_one 0 0 c
    show k0_pay6 x y j = Tt m (blk (j 1).val) 0 c (lo 0 c 1 + (j 0).val) (j 1).val
    rw [blk_0 hq, pay6_apply, Tt_zero]
    have h := mm_core m c (lo 0 c 1) 0 384 x y hx (fun j i a b => hy j i a (by omega)) (by rw [lo_one]; omega) (by omega) j
    rw [Nat.zero_add] at h
    exact h
  mm_acc1 := by
    intro x y hx hy j
    have hq : (j 1).val < 384 := (j 1).isLt
    have hb := bit_le_one 1 0 c
    show k0_pay7 x y j = Tt m (blk (384 + (j 1).val)) 0 c (lo 1 c 1 + (j 0).val) (384 + (j 1).val)
    rw [blk_1 hq, pay7_apply, Tt_zero]
    exact mm_core m c (lo 1 c 1) 384 384 x y hx hy (by rw [lo_one]; omega) (by omega) j
  mm_acc2 := by
    intro x y hx hy j
    have hb := bit_le_one 2 0 c
    show k0_pay8 x y j = Tt m (blk (768 + (j 1).val)) 0 c (lo 2 c 1 + (j 0).val) (768 + (j 1).val)
    rw [blk_2, pay8_apply, Tt_zero]
    exact mm_core m c (lo 2 c 1) 768 256 x y hx hy (by rw [lo_one]; omega) (by omega) j
  add_ok := by
    intro s k r q v w hs hk hv hw
    subst hk
    exact recv_law m s c r q v w hv hw
  trunc_ok := by
    intro s k r q v hs hk hv
    subst hk
    exact (okSS_iff_okAcc m s c r q v).mpr hv
  out_ok := by
    intro k r q v w hk hv hw
    subst hk
    have h5 := recv_law m 4 c r q v w hv hw
    show geluS (F := Ideal) (v + w) = Cert.RefSide.gelu (∑ d : Dev nD, Cert.ValueMath.Part m d (lo (blk q) c 5 + r) q)
    rw [geluS_ideal]
    exact out_law m (blk q) c _ q (v + w) h5

end Cert.KernelIdeal.LawsInst
end

/-- info: 'Cert.KernelIdeal.LawsInst.laws_ideal' depends on axioms: [propext, Classical.choice, Quot.sound] -/
#guard_msgs in #print axioms Cert.KernelIdeal.LawsInst.laws_ideal
-- ==== Proof.BodyIdeal.lean ====
/-
  The body obligation at the ideal values, under the contract of the sum: the laws hold at each device's
  blocks of the two operands.
-/
import proofs.«900879_g7700000000000880_dist_matmul_gelu_kshard_i_m1024_n1024_k512_v7x_i32_bf16_1_alg».proof.Proof.BodyOb
import proofs.«900879_g7700000000000880_dist_matmul_gelu_kshard_i_m1024_n1024_k512_v7x_i32_bf16_1_alg».proof.Proof.LawsInst
import proofs.«900879_g7700000000000880_dist_matmul_gelu_kshard_i_m1024_n1024_k512_v7x_i32_bf16_1_alg».proof.Proof.ValueMath

noncomputable section

namespace Cert.KernelIdeal.BodyIdeal

open Cert.KernelIdeal Cert.KernelIdeal.Gen Cert.KernelIdeal.Proto Cert.KernelIdeal.Ghost
open Cert.KernelIdeal.Laws Cert.KernelIdeal.Segs Cert.KernelIdeal.BodyOb
open Idealize.ShloMosaic Idealize.ShloMosaic.TcCoe
open Idealize.SL Idealize.SL.RA Idealize.SL.BI
open Idealize.SL.Sem
open Idealize.ShloMosaic.Pipeline (RDat)
open Cert.ValueMath (Mem idealCt)

/-- The obligation of the value claim: the staging buffers of the two operands hold the device's blocks, of which
    the laws of the sum hold. -/
theorem body_ideal (m : Mem) (c : Dev nD)
    (hA : ∀ (K : Dev nD × Fin 124 → ℕ) (YA : S1024x512.Idx → Ideal .f32) (YB : S512x1024.Idx → Ideal .f32), Laws (idealCt m) c YA YB →
      ∀ {R : Type} (T : Sg → Prog (TpuEff nD τ sig (Elt Ideal) Λ₀ .tc) R) (Kt : R → sProp (MT nD τ sig Unit (Elt Ideal) ℕ UU ℕ)), SegA (idealCt m) K c YA YB T Kt)
    (hB : ∀ (K : Dev nD × Fin 124 → ℕ) (YA : S1024x512.Idx → Ideal .f32) (YB : S512x1024.Idx → Ideal .f32), Laws (idealCt m) c YA YB →
      ∀ {R : Type} (T : Sg → Prog (TpuEff nD τ sig (Elt Ideal) Λ₀ .tc) R) (Kt : R → sProp (MT nD τ sig Unit (Elt Ideal) ℕ UU ℕ)), SegB (idealCt m) K c YA YB T Kt)
    (hC : ∀ (K : Dev nD × Fin 124 → ℕ) (YA : S1024x512.Idx → Ideal .f32) (YB : S512x1024.Idx → Ideal .f32), Laws (idealCt m) c YA YB →
      ∀ (Kt : PUnit → sProp (MT nD τ sig Unit (Elt Ideal) ℕ UU ℕ)), SegC (idealCt m) K c YA YB Kt) :
    (rdats (idealCt m) m 0 c).BodyObligation (defs₀ (F := Ideal)) Variants.none () Set.univ :=
  body_obligation (idealCt m) m c (Cert.KernelIdeal.LawsInst.laws_ideal m c) hA hB hC

end Cert.KernelIdeal.BodyIdeal

end
-- ==== Proof.Geo.lean ====
/-
  The kernel's addresses in closed form.

  Every row and column at which the kernel reads, writes or transfers a block is computed from the
  device's index by word arithmetic. Here each such pair is identified, on all thirty-two devices,
  with its meaning in the exchange pattern: `bit k s c` selects the half device `c` keeps at stage `s`
  of column block `k`, `lo k c s` is the first row of the range it still holds after `s` stages, the
  halves have 512, 256, 128, 64, 32 rows, and the column blocks start at columns 0, 384, 768.

  Summing phase, stage `s`, column block `k`: the half that is sent starts at row
  `lo k c s + (1 - bit k s c) * half s` of the accumulator and at row `(1 - bit k s c) * half s` of the
  previous stage's receive buffer; the half that is kept at `lo k c (s + 1)` and `bit k s c * half s`; the
  two pieces of the send buffer at rows `(1 - bit k (s+1) c) * half (s+1)` and `bit k (s+1) c * half (s+1)`.
  Gathering phase, stage `s` (descending): the device sends the range it holds, starting at
  `lo k c (s + 2)`, and then its sibling range, starting at `lo k c (s + 1) + (1 - bit k (s+1) c) * half (s+1)`.
-/
import proofs.«900879_g7700000000000880_dist_matmul_gelu_kshard_i_m1024_n1024_k512_v7x_i32_bf16_1_alg».proof.Proof.Proto

namespace Cert.KernelIdeal.Geo

open Cert.KernelIdeal Cert.KernelIdeal.Proto
open Idealize.ShloMosaic

/-! ## Summing phase, stage 0: the two products of each column block, and the pieces sent -/

theorem off1_eq : ∀ c : Dev nD, k0_off1 c = ![(1 - bit 0 0 c) * 512, 0] := by decide +kernel
theorem off2_eq : ∀ c : Dev nD, k0_off2 c = ![(1 - bit 0 1 c) * 256, 0] := by decide +kernel
theorem off3_eq : ∀ c : Dev nD, k0_off3 c = ![bit 0 1 c * 256, 0] := by decide +kernel
theorem off4_1_eq : ∀ c : Dev nD, k0_off4 c 1#32 = ![(1 - bit 1 0 c) * 512, 0] := by decide +kernel
theorem off4_3_eq : ∀ c : Dev nD, k0_off4 c 3#32 = ![(1 - bit 2 0 c) * 512, 0] := by decide +kernel
theorem off5_eq : ∀ c : Dev nD, k0_off5 c = ![(1 - bit 1 1 c) * 256, 384] := by decide +kernel
theorem off6_eq : ∀ c : Dev nD, k0_off6 c = ![bit 1 1 c * 256, 384] := by decide +kernel
theorem off7_eq : ∀ c : Dev nD, k0_off7 c = ![(1 - bit 2 1 c) * 256, 768] := by decide +kernel
theorem off8_eq : ∀ c : Dev nD, k0_off8 c = ![bit 2 1 c * 256, 768] := by decide +kernel
theorem off9_eq : ∀ c : Dev nD, k0_off9 c = ![lo 0 c 1, 0] := by decide +kernel
theorem off10_eq : ∀ c : Dev nD, k0_off10 c = ![lo 0 c 1, 0] := by decide +kernel
theorem off11_1_eq : ∀ c : Dev nD, k0_off11 c 1#32 = ![lo 1 c 1, 0] := by decide +kernel
theorem off11_3_eq : ∀ c : Dev nD, k0_off11 c 3#32 = ![lo 2 c 1, 0] := by decide +kernel
theorem off12_eq : ∀ c : Dev nD, k0_off12 c = ![lo 1 c 1, 384] := by decide +kernel
theorem off13_eq : ∀ c : Dev nD, k0_off13 c = ![lo 2 c 1, 768] := by decide +kernel

/-! ## Summing phase, stage 1 -/

theorem off14_eq : ∀ c : Dev nD, k0_off14 c = ![lo 0 c 1 + (1 - bit 0 1 c) * 256, 0] := by decide +kernel
theorem off15_eq : ∀ c : Dev nD, k0_off15 c = ![(1 - bit 0 1 c) * 256, 0] := by decide +kernel
theorem off16_eq : ∀ c : Dev nD, k0_off16 c = ![(1 - bit 0 2 c) * 128, 0] := by decide +kernel
theorem off17_eq : ∀ c : Dev nD, k0_off17 c = ![bit 0 2 c * 128, 0] := by decide +kernel
theorem off18_eq : ∀ c : Dev nD, k0_off18 c = ![lo 1 c 1 + (1 - bit 1 1 c) * 256, 384] := by decide +kernel
theorem off19_eq : ∀ c : Dev nD, k0_off19 c = ![(1 - bit 1 1 c) * 256, 384] := by decide +kernel
theorem off20_eq : ∀ c : Dev nD, k0_off20 c = ![(1 - bit 1 2 c) * 128, 384] := by decide +kernel
theorem off21_eq : ∀ c : Dev nD, k0_off21 c = ![bit 1 2 c * 128, 384] := by decide +kernel
theorem off22_eq : ∀ c : Dev nD, k0_off22 c = ![lo 2 c 1 + (1 - bit 2 1 c) * 256, 768] := by decide +kernel
theorem off23_eq : ∀ c : Dev nD, k0_off23 c = ![(1 - bit 2 1 c) * 256, 768] := by decide +kernel
theorem off24_eq : ∀ c : Dev nD, k0_off24 c = ![(1 - bit 2 2 c) * 128, 768] := by decide +kernel
theorem off25_eq : ∀ c : Dev nD, k0_off25 c = ![bit 2 2 c * 128, 768] := by decide +kernel
theorem off26_eq : ∀ c : Dev nD, k0_off26 c = ![lo 0 c 2, 0] := by decide +kernel
theorem off27_eq : ∀ c : Dev nD, k0_off27 c = ![bit 0 1 c * 256, 0] := by decide +kernel
theorem off28_eq : ∀ c : Dev nD, k0_off28 c = ![lo 1 c 2, 384] := by decide +kernel
theorem off29_eq : ∀ c : Dev nD, k0_off29 c = ![bit 1 1 c * 256, 384] := by decide +kernel
theorem off30_eq : ∀ c : Dev nD, k0_off30 c = ![lo 2 c 2, 768] := by decide +kernel
theorem off31_eq : ∀ c : Dev nD, k0_off31 c = ![bit 2 1 c * 256, 768] := by decide +kernel

/-! ## Summing phase, stage 2 -/

theorem off32_eq : ∀ c : Dev nD, k0_off32 c = ![lo 0 c 2 + (1 - bit 0 2 c) * 128, 0] := by decide +kernel
theorem off33_eq : ∀ c : Dev nD, k0_off33 c = ![(1 - bit 0 2 c) * 128, 0] := by decide +kernel
theorem off34_eq : ∀ c : Dev nD, k0_off34 c = ![(1 - bit 0 3 c) * 64, 0] := by decide +kernel
theorem off35_eq : ∀ c : Dev nD, k0_off35 c = ![bit 0 3 c * 64, 0] := by decide +kernel
theorem off36_eq : ∀ c : Dev nD, k0_off36 c = ![lo 1 c 2 + (1 - bit 1 2 c) * 128, 384] := by decide +kernel
theorem off37_eq : ∀ c : Dev nD, k0_off37 c = ![(1 - bit 1 2 c) * 128, 384] := by decide +kernel
theorem off38_eq : ∀ c : Dev nD, k0_off38 c = ![(1 - bit 1 3 c) * 64, 384] := by decide +kernel
theorem off39_eq : ∀ c : Dev nD, k0_off39 c = ![bit 1 3 c * 64, 384] := by decide +kernel
theorem off40_eq : ∀ c : Dev nD, k0_off40 c = ![lo 2 c 2 + (1 - bit 2 2 c) * 128, 768] := by decide +kernel
theorem off41_eq : ∀ c : Dev nD, k0_off41 c = ![(1 - bit 2 2 c) * 128, 768] := by decide +kernel
theorem off42_eq : ∀ c : Dev nD, k0_off42 c = ![(1 - bit 2 3 c) * 64, 768] := by decide +kernel
theorem off43_eq : ∀ c : Dev nD, k0_off43 c = ![bit 2 3 c * 64, 768] := by decide +kernel
theorem off44_eq : ∀ c : Dev nD, k0_off44 c = ![lo 0 c 3, 0] := by decide +kernel
theorem off45_eq : ∀ c : Dev nD, k0_off45 c = ![bit 0 2 c * 128, 0] := by decide +kernel
theorem off46_eq : ∀ c : Dev nD, k0_off46 c = ![lo 1 c 3, 384] := by decide +kernel
theorem off47_eq : ∀ c : Dev nD, k0_off47 c = ![bit 1 2 c * 128, 384] := by decide +kernel
theorem off48_eq : ∀ c : Dev nD, k0_off48 c = ![lo 2 c 3, 768] := by decide +kernel
theorem off49_eq : ∀ c : Dev nD, k0_off49 c = ![bit 2 2 c * 128, 768] := by decide +kernel

/-! ## Summing phase, stage 3 -/

theorem off50_eq : ∀ c : Dev nD, k0_off50 c = ![lo 0 c 3 + (1 - bit 0 3 c) * 64, 0] := by decide +kernel
theorem off51_eq : ∀ c : Dev nD, k0_off51 c = ![(1 - bit 0 3 c) * 64, 0] := by decide +kernel
theorem off52_eq : ∀ c : Dev nD, k0_off52 c = ![(1 - bit 0 4 c) * 32, 0] := by decide +kernel
theorem off53_eq : ∀ c : Dev nD, k0_off53 c = ![bit 0 4 c * 32, 0] := by decide +kernel
theorem off54_eq : ∀ c : Dev nD, k0_off54 c = ![lo 1 c 3 + (1 - bit 1 3 c) * 64, 384] := by decide +kernel
theorem off55_eq : ∀ c : Dev nD, k0_off55 c = ![(1 - bit 1 3 c) * 64, 384] := by decide +kernel
theorem off56_eq : ∀ c : Dev nD, k0_off56 c = ![(1 - bit 1 4 c) * 32, 384] := by decide +kernel
theorem off57_eq : ∀ c : Dev nD, k0_off57 c = ![bit 1 4 c * 32, 384] := by decide +kernel
theorem off58_eq : ∀ c : Dev nD, k0_off58 c = ![lo 2 c 3 + (1 - bit 2 3 c) * 64, 768] := by decide +kernel
theorem off59_eq : ∀ c : Dev nD, k0_off59 c = ![(1 - bit 2 3 c) * 64, 768] := by decide +kernel
theorem off60_eq : ∀ c : Dev nD, k0_off60 c = ![(1 - bit 2 4 c) * 32, 768] := by decide +kernel
theorem off61_eq : ∀ c : Dev nD, k0_off61 c = ![bit 2 4 c * 32, 768] := by decide +kernel
theorem off62_eq : ∀ c : Dev nD, k0_off62 c = ![lo 0 c 4, 0] := by decide +kernel
theorem off63_eq : ∀ c : Dev nD, k0_off63 c = ![bit 0 3 c * 64, 0] := by decide +kernel
theorem off64_eq : ∀ c : Dev nD, k0_off64 c = ![lo 1 c 4, 384] := by decide +kernel
theorem off65_eq : ∀ c : Dev nD, k0_off65 c = ![bit 1 3 c * 64, 384] := by decide +kernel
theorem off66_eq : ∀ c : Dev nD, k0_off66 c = ![lo 2 c 4, 768] := by decide +kernel
theorem off67_eq : ∀ c : Dev nD, k0_off67 c = ![bit 2 3 c * 64, 768] := by decide +kernel

/-! ## Summing phase, stage 4, and the rows each device owns at the end -/

theorem off68_eq : ∀ c : Dev nD, k0_off68 c = ![lo 0 c 4 + (1 - bit 0 4 c) * 32, 0] := by decide +kernel
theorem off69_eq : ∀ c : Dev nD, k0_off69 c = ![(1 - bit 0 4 c) * 32, 0] := by decide +kernel
theorem off70_eq : ∀ c : Dev nD, k0_off70 c = ![lo 1 c 4 + (1 - bit 1 4 c) * 32, 384] := by decide +kernel
theorem off71_eq : ∀ c : Dev nD, k0_off71 c = ![(1 - bit 1 4 c) * 32, 384] := by decide +kernel
theorem off72_eq : ∀ c : Dev nD, k0_off72 c = ![lo 2 c 4 + (1 - bit 2 4 c) * 32, 768] := by decide +kernel
theorem off73_eq : ∀ c : Dev nD, k0_off73 c = ![(1 - bit 2 4 c) * 32, 768] := by decide +kernel
theorem off74_eq : ∀ c : Dev nD, k0_off74 c = ![lo 0 c 5, 0] := by decide +kernel
theorem off75_eq : ∀ c : Dev nD, k0_off75 c = ![bit 0 4 c * 32, 0] := by decide +kernel
theorem off76_eq : ∀ c : Dev nD, k0_off76 c = ![lo 1 c 5, 384] := by decide +kernel
theorem off77_eq : ∀ c : Dev nD, k0_off77 c = ![bit 1 4 c * 32, 384] := by decide +kernel
theorem off78_eq : ∀ c : Dev nD, k0_off78 c = ![lo 2 c 5, 768] := by decide +kernel
theorem off79_eq : ∀ c : Dev nD, k0_off79 c = ![bit 2 4 c * 32, 768] := by decide +kernel

/-! ## Gathering phase: the range held, then the sibling range, stage by stage -/

theorem off80_eq : ∀ c : Dev nD, k0_off80 c = ![lo 0 c 5, 0] := by decide +kernel
theorem off81_eq : ∀ c : Dev nD, k0_off81 c = ![lo 1 c 5, 384] := by decide +kernel
theorem off82_eq : ∀ c : Dev nD, k0_off82 c = ![lo 2 c 5, 768] := by decide +kernel
theorem off83_eq : ∀ c : Dev nD, k0_off83 c = ![lo 0 c 4 + (1 - bit 0 4 c) * 32, 0] := by decide +kernel
theorem off84_eq : ∀ c : Dev nD, k0_off84 c = ![lo 1 c 4 + (1 - bit 1 4 c) * 32, 384] := by decide +kernel
theorem off85_eq : ∀ c : Dev nD, k0_off85 c = ![lo 2 c 4 + (1 - bit 2 4 c) * 32, 768] := by decide +kernel
theorem off86_eq : ∀ c : Dev nD, k0_off86 c = ![lo 0 c 4, 0] := by decide +kernel
theorem off87_eq : ∀ c : Dev nD, k0_off87 c = ![lo 0 c 3 + (1 - bit 0 3 c) * 64, 0] := by decide +kernel
theorem off88_eq : ∀ c : Dev nD, k0_off88 c = ![lo 1 c 4, 384] := by decide +kernel
theorem off89_eq : ∀ c : Dev nD, k0_off89 c = ![lo 1 c 3 + (1 - bit 1 3 c) * 64, 384] := by decide +kernel
theorem off90_eq : ∀ c : Dev nD, k0_off90 c = ![lo 2 c 4, 768] := by decide +kernel
theorem off91_eq : ∀ c : Dev nD, k0_off91 c = ![lo 2 c 3 + (1 - bit 2 3 c) * 64, 768] := by decide +kernel
theorem off92_eq : ∀ c : Dev nD, k0_off92 c = ![lo 0 c 3, 0] := by decide +kernel
theorem off93_eq : ∀ c : Dev nD, k0_off93 c = ![lo 0 c 2 + (1 - bit 0 2 c) * 128, 0] := by decide +kernel
theorem off94_eq : ∀ c : Dev nD, k0_off94 c = ![lo 1 c 3, 384] := by decide +kernel
theorem off95_eq : ∀ c : Dev nD, k0_off95 c = ![lo 1 c 2 + (1 - bit 1 2 c) * 128, 384] := by decide +kernel
theorem off96_eq : ∀ c : Dev nD, k0_off96 c = ![lo 2 c 3, 768] := by decide +kernel
theorem off97_eq : ∀ c : Dev nD, k0_off97 c = ![lo 2 c 2 + (1 - bit 2 2 c) * 128, 768] := by decide +kernel
theorem off98_eq : ∀ c : Dev nD, k0_off98 c = ![lo 0 c 2, 0] := by decide +kernel
theorem off99_eq : ∀ c : Dev nD, k0_off99 c = ![lo 0 c 1 + (1 - bit 0 1 c) * 256, 0] := by decide +kernel
theorem off100_eq : ∀ c : Dev nD, k0_off100 c = ![lo 1 c 2, 384] := by decide +kernel
theorem off101_eq : ∀ c : Dev nD, k0_off101 c = ![lo 1 c 1 + (1 - bit 1 1 c) * 256, 384] := by decide +kernel
theorem off102_eq : ∀ c : Dev nD, k0_off102 c = ![lo 2 c 2, 768] := by decide +kernel
theorem off103_eq : ∀ c : Dev nD, k0_off103 c = ![lo 2 c 1 + (1 - bit 2 1 c) * 256, 768] := by decide +kernel

/-! ## The row words the gathering phase declares aligned are the same rows -/

theorem mult1_eq : ∀ c : Dev nD, (k0_mult1 c).toNat = lo 0 c 5 := by decide +kernel
theorem mult2_eq : ∀ c : Dev nD, (k0_mult2 c).toNat = lo 1 c 5 := by decide +kernel
theorem mult3_eq : ∀ c : Dev nD, (k0_mult3 c).toNat = lo 2 c 5 := by decide +kernel
theorem mult4_eq : ∀ c : Dev nD, (k0_mult4 c).toNat = lo 0 c 5 := by decide +kernel
theorem mult5_eq : ∀ c : Dev nD, (k0_mult5 c).toNat = lo 0 c 4 + (1 - bit 0 4 c) * 32 := by decide +kernel
theorem mult6_eq : ∀ c : Dev nD, (k0_mult6 c).toNat = lo 1 c 5 := by decide +kernel
theorem mult7_eq : ∀ c : Dev nD, (k0_mult7 c).toNat = lo 1 c 4 + (1 - bit 1 4 c) * 32 := by decide +kernel
theorem mult8_eq : ∀ c : Dev nD, (k0_mult8 c).toNat = lo 2 c 5 := by decide +kernel
theorem mult9_eq : ∀ c : Dev nD, (k0_mult9 c).toNat = lo 2 c 4 + (1 - bit 2 4 c) * 32 := by decide +kernel
theorem mult10_eq : ∀ c : Dev nD, (k0_mult10 c).toNat = lo 0 c 4 := by decide +kernel
theorem mult11_eq : ∀ c : Dev nD, (k0_mult11 c).toNat = lo 0 c 3 + (1 - bit 0 3 c) * 64 := by decide +kernel
theorem mult12_eq : ∀ c : Dev nD, (k0_mult12 c).toNat = lo 1 c 4 := by decide +kernel
theorem mult13_eq : ∀ c : Dev nD, (k0_mult13 c).toNat = lo 1 c 3 + (1 - bit 1 3 c) * 64 := by decide +kernel
theorem mult14_eq : ∀ c : Dev nD, (k0_mult14 c).toNat = lo 2 c 4 := by decide +kernel
theorem mult15_eq : ∀ c : Dev nD, (k0_mult15 c).toNat = lo 2 c 3 + (1 - bit 2 3 c) * 64 := by decide +kernel
theorem mult16_eq : ∀ c : Dev nD, (k0_mult16 c).toNat = lo 0 c 3 := by decide +kernel
theorem mult17_eq : ∀ c : Dev nD, (k0_mult17 c).toNat = lo 0 c 2 + (1 - bit 0 2 c) * 128 := by decide +kernel
theorem mult18_eq : ∀ c : Dev nD, (k0_mult18 c).toNat = lo 1 c 3 := by decide +kernel
theorem mult19_eq : ∀ c : Dev nD, (k0_mult19 c).toNat = lo 1 c 2 + (1 - bit 1 2 c) * 128 := by decide +kernel
theorem mult20_eq : ∀ c : Dev nD, (k0_mult20 c).toNat = lo 2 c 3 := by decide +kernel
theorem mult21_eq : ∀ c : Dev nD, (k0_mult21 c).toNat = lo 2 c 2 + (1 - bit 2 2 c) * 128 := by decide +kernel
theorem mult22_eq : ∀ c : Dev nD, (k0_mult22 c).toNat = lo 0 c 2 := by decide +kernel
theorem mult23_eq : ∀ c : Dev nD, (k0_mult23 c).toNat = lo 0 c 1 + (1 - bit 0 1 c) * 256 := by decide +kernel
theorem mult24_eq : ∀ c : Dev nD, (k0_mult24 c).toNat = lo 1 c 2 := by decide +kernel
theorem mult25_eq : ∀ c : Dev nD, (k0_mult25 c).toNat = lo 1 c 1 + (1 - bit 1 1 c) * 256 := by decide +kernel
theorem mult26_eq : ∀ c : Dev nD, (k0_mult26 c).toNat = lo 2 c 2 := by decide +kernel
theorem mult27_eq : ∀ c : Dev nD, (k0_mult27 c).toNat = lo 2 c 1 + (1 - bit 2 1 c) * 256 := by decide +kernel

end Cert.KernelIdeal.Geo
-- ==== Proof.RegionsCut.lean ====
/-
  Cutting a buffer into rectangles.

  A buffer of two axes is covered by its three column blocks, and a column block by two row pieces
  stacked one on the other. Here: the rectangles as sets of positions (membership is a pair of
  interval conditions, one per axis, so disjointness and covering are linear arithmetic), and the
  matching laws of the points-to assertion, both at named contents and at some contents.
-/
import proofs.«900879_g7700000000000880_dist_matmul_gelu_kshard_i_m1024_n1024_k512_v7x_i32_bf16_1_alg».proof.Proof.Held
import Idealize.ShloMosaic.Rules.PointsTo

noncomputable section

namespace Cert.KernelIdeal.RegionsCut

open Cert.KernelIdeal Cert.KernelIdeal.Gen Cert.KernelIdeal.Proto Cert.KernelIdeal.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Rectangles of a two-axis shape as sets of positions -/

section Sets
variable {d : Fin 2 → ℕ}

/-- A position lies in a unit-stride rectangle when its row lies in the rectangle's rows and its
    column in the rectangle's columns. -/
theorem mem_unit2 {off size : Fin 2 → ℕ} {inb : ∀ a, off a + size a ≤ (⟨2, d⟩ : Shape).size a} {i : (⟨2, d⟩ : Shape).Idx} :
    i ∈ (Rect.unit (s := ⟨2, d⟩) off size inb).set
      ↔ (off 0 ≤ (i 0 : ℕ) ∧ (i 0 : ℕ) < off 0 + size 0) ∧ (off 1 ≤ (i 1 : ℕ) ∧ (i 1 : ℕ) < off 1 + size 1) := by
  rw [Rect.mem_set_unit]; exact Fin.forall_fin_two

/-- Two rectangles over the columns of a block `K`, one starting at `K`'s first row and the other
    where the first ends (in either order), whose heights add up to `K`'s: they are disjoint and
    cover `K`. -/
theorem rows_part {oA oB oK zA zB zK : Fin 2 → ℕ} {inbA inbB inbK}
    (hcol : oA 1 = oK 1 ∧ oB 1 = oK 1 ∧ zA 1 = zK 1 ∧ zB 1 = zK 1)
    (hrow : zA 0 + zB 0 = zK 0 ∧ ((oA 0 = oK 0 ∧ oB 0 = oK 0 + zA 0) ∨ (oB 0 = oK 0 ∧ oA 0 = oK 0 + zB 0))) :
    Disjoint (Rect.unit (s := ⟨2, d⟩) oA zA inbA).set (Rect.unit (s := ⟨2, d⟩) oB zB inbB).set
      ∧ (Rect.unit (s := ⟨2, d⟩) oA zA inbA).set ∪ (Rect.unit (s := ⟨2, d⟩) oB zB inbB).set
          = (Rect.unit (s := ⟨2, d⟩) oK zK inbK).set := by
  refine ⟨Finset.disjoint_left.mpr fun i hA hB => ?_, Finset.ext fun i => ?_⟩
  · rw [mem_unit2] at hA hB; omega
  · rw [Finset.mem_union, mem_unit2, mem_unit2, mem_unit2]; omega

/-- Three rectangles of all rows whose column ranges follow one another from column 0 to the last:
    they are pairwise disjoint and cover the shape. -/
theorem cols_part {o0 o1 o2 z0 z1 z2 : Fin 2 → ℕ} {inb0 inb1 inb2}
    (hrow : (o0 0 = 0 ∧ o1 0 = 0 ∧ o2 0 = 0) ∧ z0 0 = d 0 ∧ z1 0 = d 0 ∧ z2 0 = d 0)
    (hcol : o0 1 = 0 ∧ o1 1 = z0 1 ∧ o2 1 = z0 1 + z1 1 ∧ z0 1 + z1 1 + z2 1 = d 1) :
    (Disjoint (Rect.unit (s := ⟨2, d⟩) o0 z0 inb0).set (Rect.unit (s := ⟨2, d⟩) o1 z1 inb1).set
      ∧ Disjoint (Rect.unit (s := ⟨2, d⟩) o0 z0 inb0).set (Rect.unit (s := ⟨2, d⟩) o2 z2 inb2).set
      ∧ Disjoint (Rect.unit (s := ⟨2, d⟩) o1 z1 inb1).set (Rect.unit (s := ⟨2, d⟩) o2 z2 inb2).set)
      ∧ (Rect.unit (s := ⟨2, d⟩) o0 z0 inb0).set ∪ ((Rect.unit (s := ⟨2, d⟩) o1 z1 inb1).set ∪ (Rect.unit (s := ⟨2, d⟩) o2 z2 inb2).set)
          = Finset.univ := by
  refine ⟨⟨Finset.disjoint_left.mpr fun i hA hB => ?_, Finset.disjoint_left.mpr fun i hA hB => ?_,
    Finset.disjoint_left.mpr fun i hA hB => ?_⟩, Finset.ext fun i => ?_⟩
  · rw [mem_unit2] at hA hB; omega
  · rw [mem_unit2] at hA hB; omega
  · rw [mem_unit2] at hA hB; omega
  · have h0 : (i 0 : ℕ) < d 0 := (i 0).isLt
    have h1 : (i 1 : ℕ) < d 1 := (i 1).isLt
    rw [Finset.mem_union, Finset.mem_union, mem_unit2, mem_unit2, mem_unit2]
    simp only [Finset.mem_univ, iff_true]; omega

end Sets

/-- A half-selecting bit is 0 or 1. -/
theorem bit01 (k : Fin 3) (s : Fin 5) (c : Dev nD) : bit k s c = 0 ∨ bit k s c = 1 := by
  have := bit_le_one k s c; omega

/-! ## The same partitions under other spellings of the sets -/

theorem part2_congr {α : Type} [DecidableEq α] {A B K A' B' K' : Finset α} (hA : A' = A) (hB : B' = B) (hK : K' = K)
    (h : Disjoint A B ∧ A ∪ B = K) : Disjoint A' B' ∧ A' ∪ B' = K' := by
  subst hA hB hK; exact h

theorem part3_congr {α : Type} [DecidableEq α] {A B C K A' B' C' K' : Finset α} (hA : A' = A) (hB : B' = B) (hC : C' = C) (hK : K' = K)
    (h : (Disjoint A B ∧ Disjoint A C ∧ Disjoint B C) ∧ A ∪ (B ∪ C) = K) :
    (Disjoint A' B' ∧ Disjoint A' C' ∧ Disjoint B' C') ∧ A' ∪ (B' ∪ C') = K' := by
  subst hA hB hC hK; exact h

/-! ## The points-to assertion along a partition -/

section Cut
variable {ℓ : Loc nD τ sig} {q : PosShare TreeShare}

/-! ### At named contents -/

omit [FloatOps F] in
theorem at_cut2 {A B S : Finset (Idx ℓ)} (h : Disjoint A B ∧ A ∪ B = S) (f : Buf (Elt F) ℓ) :
    (ℓ ↦[S]{q} f : sProp 𝕄) ⊣⊢ iprop((ℓ ↦[A]{q} f) ∗ ℓ ↦[B]{q} f) := by
  obtain ⟨hd, rfl⟩ := h
  exact pointsTo_union hd

omit [FloatOps F] in
theorem at_cut3 {A B C S : Finset (Idx ℓ)} (h : (Disjoint A B ∧ Disjoint A C ∧ Disjoint B C) ∧ A ∪ (B ∪ C) = S) (f : Buf (Elt F) ℓ) :
    (ℓ ↦[S]{q} f : sProp 𝕄) ⊣⊢ iprop((ℓ ↦[A]{q} f) ∗ (ℓ ↦[B]{q} f) ∗ ℓ ↦[C]{q} f) := by
  obtain ⟨⟨hab, hac, hbc⟩, rfl⟩ := h
  have h1 : (ℓ ↦[A ∪ (B ∪ C)]{q} f : sProp 𝕄) ⊣⊢ iprop((ℓ ↦[A]{q} f) ∗ ℓ ↦[B ∪ C]{q} f) :=
    pointsTo_union (Finset.disjoint_union_right.mpr ⟨hab, hac⟩)
  have h2 : (ℓ ↦[B ∪ C]{q} f : sProp 𝕄) ⊣⊢ iprop((ℓ ↦[B]{q} f) ∗ ℓ ↦[C]{q} f) := pointsTo_union hbc
  exact ⟨h1.1.trans (sep_mono .rfl h2.1), (sep_mono .rfl h2.2).trans h1.2⟩

/-! ### At some contents -/

omit [FloatOps F] in
theorem any_split2 {A B S : Finset (Idx ℓ)} (h : Disjoint A B ∧ A ∪ B = S) :
    (iprop(∃ f : Buf (Elt F) ℓ, ℓ ↦[S]{q} f) : sProp 𝕄)
      ⊢ iprop((∃ f : Buf (Elt F) ℓ, ℓ ↦[A]{q} f) ∗ (∃ f : Buf (Elt F) ℓ, ℓ ↦[B]{q} f)) := by
  iintro ⟨%f, H⟩
  ihave H' := (at_cut2 h f).1 $$ H
  icases H' with ⟨H1, H2⟩
  isplitl [H1]
  · iexists f; iexact H1
  · iexists f; iexact H2

omit [FloatOps F] in
theorem any_join2 {A B S : Finset (Idx ℓ)} (h : Disjoint A B ∧ A ∪ B = S) :
    (iprop((∃ f : Buf (Elt F) ℓ, ℓ ↦[A]{q} f) ∗ (∃ f : Buf (Elt F) ℓ, ℓ ↦[B]{q} f)) : sProp 𝕄)
      ⊢ iprop(∃ f : Buf (Elt F) ℓ, ℓ ↦[S]{q} f) := by
  obtain ⟨hd, rfl⟩ := h
  iintro ⟨⟨%f, H1⟩, ⟨%g, H2⟩⟩
  iexists (B.piecewise g f)
  iapply (pointsTo_join hd)
  isplitl [H1]
  · iexact H1
  · iexact H2

omit [FloatOps F] in
theorem any_split3 {A B C S : Finset (Idx ℓ)} (h : (Disjoint A B ∧ Disjoint A C ∧ Disjoint B C) ∧ A ∪ (B ∪ C) = S) :
    (iprop(∃ f : Buf (Elt F) ℓ, ℓ ↦[S]{q} f) : sProp 𝕄)
      ⊢ iprop((∃ f : Buf (Elt F) ℓ, ℓ ↦[A]{q} f) ∗ (∃ f : Buf (Elt F) ℓ, ℓ ↦[B]{q} f) ∗ (∃ f : Buf (Elt F) ℓ, ℓ ↦[C]{q} f)) := by
  obtain ⟨⟨hab, hac, hbc⟩, hu⟩ := h
  iintro H
  ihave H := (any_split2 (A := A) (B := B ∪ C) ⟨Finset.disjoint_union_right.mpr ⟨hab, hac⟩, hu⟩) $$ H
  icases H with ⟨HA, HBC⟩
  isplitl [HA]
  · iexact HA
  · iapply (any_split2 (A := B) (B := C) ⟨hbc, rfl⟩) $$ HBC

omit [FloatOps F] in
theorem any_join3 {A B C S : Finset (Idx ℓ)} (h : (Disjoint A B ∧ Disjoint A C ∧ Disjoint B C) ∧ A ∪ (B ∪ C) = S) :
    (iprop((∃ f : Buf (Elt F) ℓ, ℓ ↦[A]{q} f) ∗ (∃ f : Buf (Elt F) ℓ, ℓ ↦[B]{q} f) ∗ (∃ f : Buf (Elt F) ℓ, ℓ ↦[C]{q} f)) : sProp 𝕄)
      ⊢ iprop(∃ f : Buf (Elt F) ℓ, ℓ ↦[S]{q} f) := by
  obtain ⟨⟨hab, hac, hbc⟩, hu⟩ := h
  iintro ⟨HA, HBC⟩
  ihave HBC := (any_join2 (A := B) (B := C) ⟨hbc, rfl⟩) $$ HBC
  iapply (any_join2 (A := A) (B := B ∪ C) ⟨Finset.disjoint_union_right.mpr ⟨hab, hac⟩, hu⟩)
  isplitl [HA]
  · iexact HA
  · iexact HBC

omit [FloatOps F] in
/-- The whole buffer into three column blocks and each of these into two row pieces. -/
theorem any_split6 {K0 K1 K2 A0 A1 B0 B1 C0 C1 : Finset (Idx ℓ)}
    (hK : (Disjoint K0 K1 ∧ Disjoint K0 K2 ∧ Disjoint K1 K2) ∧ K0 ∪ (K1 ∪ K2) = Finset.univ)
    (hA : Disjoint A0 A1 ∧ A0 ∪ A1 = K0) (hB : Disjoint B0 B1 ∧ B0 ∪ B1 = K1) (hC : Disjoint C0 C1 ∧ C0 ∪ C1 = K2) :
    (iprop(∃ f : Buf (Elt F) ℓ, ℓ ↦{q} f) : sProp 𝕄)
      ⊢ iprop((∃ f : Buf (Elt F) ℓ, ℓ ↦[A0]{q} f) ∗ (∃ f : Buf (Elt F) ℓ, ℓ ↦[A1]{q} f)
          ∗ (∃ f : Buf (Elt F) ℓ, ℓ ↦[B0]{q} f) ∗ (∃ f : Buf (Elt F) ℓ, ℓ ↦[B1]{q} f)
          ∗ (∃ f : Buf (Elt F) ℓ, ℓ ↦[C0]{q} f) ∗ (∃ f : Buf (Elt F) ℓ, ℓ ↦[C1]{q} f)) := by
  iintro H
  ihave H := (any_split3 hK) $$ H
  icases H with ⟨H0, H1, H2⟩
  ihave H0 := (any_split2 hA) $$ H0
  ihave H1 := (any_split2 hB) $$ H1
  ihave H2 := (any_split2 hC) $$ H2
  icases H0 with ⟨H00, H01⟩
  icases H1 with ⟨H10, H11⟩
  icases H2 with ⟨H20, H21⟩
  isplitl [H00]; · iexact H00
  isplitl [H01]; · iexact H01
  isplitl [H10]; · iexact H10
  isplitl [H11]; · iexact H11
  isplitl [H20]; · iexact H20
  iexact H21

omit [FloatOps F] in
theorem any_join6 {K0 K1 K2 A0 A1 B0 B1 C0 C1 : Finset (Idx ℓ)}
    (hK : (Disjoint K0 K1 ∧ Disjoint K0 K2 ∧ Disjoint K1 K2) ∧ K0 ∪ (K1 ∪ K2) = Finset.univ)
    (hA : Disjoint A0 A1 ∧ A0 ∪ A1 = K0) (hB : Disjoint B0 B1 ∧ B0 ∪ B1 = K1) (hC : Disjoint C0 C1 ∧ C0 ∪ C1 = K2) :
    (iprop((∃ f : Buf (Elt F) ℓ, ℓ ↦[A0]{q} f) ∗ (∃ f : Buf (Elt F) ℓ, ℓ ↦[A1]{q} f)
          ∗ (∃ f : Buf (Elt F) ℓ, ℓ ↦[B0]{q} f) ∗ (∃ f : Buf (Elt F) ℓ, ℓ ↦[B1]{q} f)
          ∗ (∃ f : Buf (Elt F) ℓ, ℓ ↦[C0]{q} f) ∗ (∃ f : Buf (Elt F) ℓ, ℓ ↦[C1]{q} f)) : sProp 𝕄)
      ⊢ iprop(∃ f : Buf (Elt F) ℓ, ℓ ↦{q} f) := by
  iintro ⟨H00, H01, H10, H11, H20, H21⟩
  iapply (any_join3 hK)
  isplitl [H00 H01]
  · iapply (any_join2 hA)
    isplitl [H00]
    · iexact H00
    · iexact H01
  isplitl [H10 H11]
  · iapply (any_join2 hB)
    isplitl [H10]
    · iexact H10
    · iexact H11
  · iapply (any_join2 hC)
    isplitl [H20]
    · iexact H20
    · iexact H21

end Cut

end Cert.KernelIdeal.RegionsCut

end
-- ==== Proof.RegionsRS.lean ====
import proofs.«900879_g7700000000000880_dist_matmul_gelu_kshard_i_m1024_n1024_k512_v7x_i32_bf16_1_alg».proof.Proof.Held
import proofs.«900879_g7700000000000880_dist_matmul_gelu_kshard_i_m1024_n1024_k512_v7x_i32_bf16_1_alg».proof.Proof.Geo
import proofs.«900879_g7700000000000880_dist_matmul_gelu_kshard_i_m1024_n1024_k512_v7x_i32_bf16_1_alg».proof.Proof.RegionsCut

noncomputable section

namespace Cert.KernelIdeal.RegionsRS

open Cert.KernelIdeal Cert.KernelIdeal.Gen Cert.KernelIdeal.Proto Cert.KernelIdeal.Tab Cert.KernelIdeal.Held Cert.KernelIdeal.Geo Cert.KernelIdeal.RegionsCut
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Stage 0: buffers of 512 rows -/

/-- The three column blocks are pairwise disjoint and cover the buffer. -/
theorem cols_0 :
    (Disjoint (Rect.unit (s := S512x1024) ![0, 0] S512x384.size inb_S512x1024_S512x384_0_0).set (Rect.unit (s := S512x1024) ![0, 384] S512x384.size inb_S512x1024_S512x384_0_384).set ∧ Disjoint (Rect.unit (s := S512x1024) ![0, 0] S512x384.size inb_S512x1024_S512x384_0_0).set (Rect.unit (s := S512x1024) ![0, 768] S512x256.size inb_S512x1024_S512x256_0_768).set ∧ Disjoint (Rect.unit (s := S512x1024) ![0, 384] S512x384.size inb_S512x1024_S512x384_0_384).set (Rect.unit (s := S512x1024) ![0, 768] S512x256.size inb_S512x1024_S512x256_0_768).set) ∧ (Rect.unit (s := S512x1024) ![0, 0] S512x384.size inb_S512x1024_S512x384_0_0).set ∪ ((Rect.unit (s := S512x1024) ![0, 384] S512x384.size inb_S512x1024_S512x384_0_384).set ∪ (Rect.unit (s := S512x1024) ![0, 768] S512x256.size inb_S512x1024_S512x256_0_768).set) = Finset.univ :=
  cols_part (by decide) (by decide)

/-- Column block 0 of the stage's send buffer: the positions its store goes through. -/
abbrev ssCol_0_0 : Finset S512x1024.Idx := ((Memref.whole cc0_scratch6 : Memref sig .tc .vmem S512x1024 .bf16).access (Rect.unit (s := S512x1024) ![0, 0] S512x384.size inb_S512x1024_S512x384_0_0)).set
theorem ssCol_0_0_eq : ssCol_0_0 = (Rect.unit (s := S512x1024) ![0, 0] S512x384.size inb_S512x1024_S512x384_0_0).set := View.set_slice_whole _ _

/-- Column block 1 of the stage's send buffer: the positions its store goes through. -/
abbrev ssCol_0_1 : Finset S512x1024.Idx := ((Memref.whole cc0_scratch6 : Memref sig .tc .vmem S512x1024 .bf16).access (Rect.unit (s := S512x1024) ![0, 384] S512x384.size inb_S512x1024_S512x384_0_384)).set
theorem ssCol_0_1_eq : ssCol_0_1 = (Rect.unit (s := S512x1024) ![0, 384] S512x384.size inb_S512x1024_S512x384_0_384).set := View.set_slice_whole _ _

/-- Column block 2 of the stage's send buffer: the positions its store goes through. -/
abbrev ssCol_0_2 : Finset S512x1024.Idx := ((Memref.whole cc0_scratch6 : Memref sig .tc .vmem S512x1024 .bf16).access (Rect.unit (s := S512x1024) ![0, 768] S512x256.size inb_S512x1024_S512x256_0_768)).set
theorem ssCol_0_2_eq : ssCol_0_2 = (Rect.unit (s := S512x1024) ![0, 768] S512x256.size inb_S512x1024_S512x256_0_768).set := View.set_slice_whole _ _

theorem colsSS_0 : (Disjoint ssCol_0_0 ssCol_0_1 ∧ Disjoint ssCol_0_0 ssCol_0_2 ∧ Disjoint ssCol_0_1 ssCol_0_2) ∧ ssCol_0_0 ∪ (ssCol_0_1 ∪ ssCol_0_2) = Finset.univ :=
  part3_congr ssCol_0_0_eq ssCol_0_1_eq ssCol_0_2_eq rfl cols_0

/-- The two row pieces of column block 0, at any device's offsets, are disjoint and cover the block. -/
theorem rows_0_0 (p : Dev nD) :
    Disjoint (Rect.unit (s := S512x1024) (k0_off2 p) S256x384.size (k0_off2_inb p)).set (Rect.unit (s := S512x1024) (k0_off3 p) S256x384.size (k0_off3_inb p)).set ∧ (Rect.unit (s := S512x1024) (k0_off2 p) S256x384.size (k0_off2_inb p)).set ∪ (Rect.unit (s := S512x1024) (k0_off3 p) S256x384.size (k0_off3_inb p)).set = (Rect.unit (s := S512x1024) ![0, 0] S512x384.size inb_S512x1024_S512x384_0_0).set :=
  rows_part (by rw [off2_eq, off3_eq]; exact ⟨rfl, rfl, rfl, rfl⟩)
    (by obtain h | h := bit01 0 1 p <;> rw [off2_eq, off3_eq, h] <;> decide)
theorem rowsRS_0_0 (p : Dev nD) : Disjoint (dst_rs_0_0_0 p).view.set (dst_rs_0_0_1 p).view.set ∧ (dst_rs_0_0_0 p).view.set ∪ (dst_rs_0_0_1 p).view.set = (Rect.unit (s := S512x1024) ![0, 0] S512x384.size inb_S512x1024_S512x384_0_0).set :=
  part2_congr (View.set_slice_whole _ _) (View.set_slice_whole _ _) rfl (rows_0_0 p)
theorem rowsSS_0_0 (p : Dev nD) : Disjoint (src_rs_0_0_0 p).view.set (src_rs_0_0_1 p).view.set ∧ (src_rs_0_0_0 p).view.set ∪ (src_rs_0_0_1 p).view.set = (Rect.unit (s := S512x1024) ![0, 0] S512x384.size inb_S512x1024_S512x384_0_0).set :=
  part2_congr (View.set_slice_whole _ _) (View.set_slice_whole _ _) rfl (rows_0_0 p)
theorem rowsSSc_0_0 (p : Dev nD) : Disjoint (src_rs_0_0_0 p).view.set (src_rs_0_0_1 p).view.set ∧ (src_rs_0_0_0 p).view.set ∪ (src_rs_0_0_1 p).view.set = ssCol_0_0 :=
  part2_congr (View.set_slice_whole _ _) (View.set_slice_whole _ _) ssCol_0_0_eq (rows_0_0 p)

/-- The two row pieces of column block 1, at any device's offsets, are disjoint and cover the block. -/
theorem rows_0_1 (p : Dev nD) :
    Disjoint (Rect.unit (s := S512x1024) (k0_off5 p) S256x384.size (k0_off5_inb p)).set (Rect.unit (s := S512x1024) (k0_off6 p) S256x384.size (k0_off6_inb p)).set ∧ (Rect.unit (s := S512x1024) (k0_off5 p) S256x384.size (k0_off5_inb p)).set ∪ (Rect.unit (s := S512x1024) (k0_off6 p) S256x384.size (k0_off6_inb p)).set = (Rect.unit (s := S512x1024) ![0, 384] S512x384.size inb_S512x1024_S512x384_0_384).set :=
  rows_part (by rw [off5_eq, off6_eq]; exact ⟨rfl, rfl, rfl, rfl⟩)
    (by obtain h | h := bit01 1 1 p <;> rw [off5_eq, off6_eq, h] <;> decide)
theorem rowsRS_0_1 (p : Dev nD) : Disjoint (dst_rs_0_1_0 p).view.set (dst_rs_0_1_1 p).view.set ∧ (dst_rs_0_1_0 p).view.set ∪ (dst_rs_0_1_1 p).view.set = (Rect.unit (s := S512x1024) ![0, 384] S512x384.size inb_S512x1024_S512x384_0_384).set :=
  part2_congr (View.set_slice_whole _ _) (View.set_slice_whole _ _) rfl (rows_0_1 p)
theorem rowsSS_0_1 (p : Dev nD) : Disjoint (src_rs_0_1_0 p).view.set (src_rs_0_1_1 p).view.set ∧ (src_rs_0_1_0 p).view.set ∪ (src_rs_0_1_1 p).view.set = (Rect.unit (s := S512x1024) ![0, 384] S512x384.size inb_S512x1024_S512x384_0_384).set :=
  part2_congr (View.set_slice_whole _ _) (View.set_slice_whole _ _) rfl (rows_0_1 p)
theorem rowsSSc_0_1 (p : Dev nD) : Disjoint (src_rs_0_1_0 p).view.set (src_rs_0_1_1 p).view.set ∧ (src_rs_0_1_0 p).view.set ∪ (src_rs_0_1_1 p).view.set = ssCol_0_1 :=
  part2_congr (View.set_slice_whole _ _) (View.set_slice_whole _ _) ssCol_0_1_eq (rows_0_1 p)

/-- The two row pieces of column block 2, at any device's offsets, are disjoint and cover the block. -/
theorem rows_0_2 (p : Dev nD) :
    Disjoint (Rect.unit (s := S512x1024) (k0_off7 p) S256x256.size (k0_off7_inb p)).set (Rect.unit (s := S512x1024) (k0_off8 p) S256x256.size (k0_off8_inb p)).set ∧ (Rect.unit (s := S512x1024) (k0_off7 p) S256x256.size (k0_off7_inb p)).set ∪ (Rect.unit (s := S512x1024) (k0_off8 p) S256x256.size (k0_off8_inb p)).set = (Rect.unit (s := S512x1024) ![0, 768] S512x256.size inb_S512x1024_S512x256_0_768).set :=
  rows_part (by rw [off7_eq, off8_eq]; exact ⟨rfl, rfl, rfl, rfl⟩)
    (by obtain h | h := bit01 2 1 p <;> rw [off7_eq, off8_eq, h] <;> decide)
theorem rowsRS_0_2 (p : Dev nD) : Disjoint (dst_rs_0_2_0 p).view.set (dst_rs_0_2_1 p).view.set ∧ (dst_rs_0_2_0 p).view.set ∪ (dst_rs_0_2_1 p).view.set = (Rect.unit (s := S512x1024) ![0, 768] S512x256.size inb_S512x1024_S512x256_0_768).set :=
  part2_congr (View.set_slice_whole _ _) (View.set_slice_whole _ _) rfl (rows_0_2 p)
theorem rowsSS_0_2 (p : Dev nD) : Disjoint (src_rs_0_2_0 p).view.set (src_rs_0_2_1 p).view.set ∧ (src_rs_0_2_0 p).view.set ∪ (src_rs_0_2_1 p).view.set = (Rect.unit (s := S512x1024) ![0, 768] S512x256.size inb_S512x1024_S512x256_0_768).set :=
  part2_congr (View.set_slice_whole _ _) (View.set_slice_whole _ _) rfl (rows_0_2 p)
theorem rowsSSc_0_2 (p : Dev nD) : Disjoint (src_rs_0_2_0 p).view.set (src_rs_0_2_1 p).view.set ∧ (src_rs_0_2_0 p).view.set ∪ (src_rs_0_2_1 p).view.set = ssCol_0_2 :=
  part2_congr (View.set_slice_whole _ _) (View.set_slice_whole _ _) ssCol_0_2_eq (rows_0_2 p)

/-- The stage's receive buffer, lent piece by piece at the partners' offsets. -/
theorem rs_split_0 (c : Dev nD) :
    (iprop(∃ f : Buf (Elt F) ((c : Thread nD τ).loc cc0_scratch1), ((c : Thread nD τ).loc cc0_scratch1) ↦{fullShare} f) : sProp 𝕄)
      ⊢ iprop(loanV c (dst_rs_0_0_0 (peer 0 0 c)) ∗ loanV c (dst_rs_0_0_1 (peer 0 0 c)) ∗ loanV c (dst_rs_0_1_0 (peer 1 0 c)) ∗ loanV c (dst_rs_0_1_1 (peer 1 0 c)) ∗ loanV c (dst_rs_0_2_0 (peer 2 0 c)) ∗ loanV c (dst_rs_0_2_1 (peer 2 0 c))) :=
  any_split6 (F := F) (ℓ := ((c : Thread nD τ).loc cc0_scratch1)) (q := fullShare) cols_0 (rowsRS_0_0 (peer 0 0 c)) (rowsRS_0_1 (peer 1 0 c)) (rowsRS_0_2 (peer 2 0 c))

theorem rs_join_0 (c : Dev nD) :
    (iprop(loanV c (dst_rs_0_0_0 (peer 0 0 c)) ∗ loanV c (dst_rs_0_0_1 (peer 0 0 c)) ∗ loanV c (dst_rs_0_1_0 (peer 1 0 c)) ∗ loanV c (dst_rs_0_1_1 (peer 1 0 c)) ∗ loanV c (dst_rs_0_2_0 (peer 2 0 c)) ∗ loanV c (dst_rs_0_2_1 (peer 2 0 c))) : sProp 𝕄)
      ⊢ iprop(∃ f : Buf (Elt F) ((c : Thread nD τ).loc cc0_scratch1), ((c : Thread nD τ).loc cc0_scratch1) ↦{fullShare} f) :=
  any_join6 (F := F) (ℓ := ((c : Thread nD τ).loc cc0_scratch1)) (q := fullShare) cols_0 (rowsRS_0_0 (peer 0 0 c)) (rowsRS_0_1 (peer 1 0 c)) (rowsRS_0_2 (peer 2 0 c))

/-- The stage's send buffer, piece by piece at the device's own offsets. -/
theorem ss_split_0 (c : Dev nD) :
    (iprop(∃ f : Buf (Elt F) ((c : Thread nD τ).loc cc0_scratch6), ((c : Thread nD τ).loc cc0_scratch6) ↦{fullShare} f) : sProp 𝕄)
      ⊢ iprop(loanV c (src_rs_0_0_0 c) ∗ loanV c (src_rs_0_0_1 c) ∗ loanV c (src_rs_0_1_0 c) ∗ loanV c (src_rs_0_1_1 c) ∗ loanV c (src_rs_0_2_0 c) ∗ loanV c (src_rs_0_2_1 c)) :=
  any_split6 (F := F) (ℓ := ((c : Thread nD τ).loc cc0_scratch6)) (q := fullShare) cols_0 (rowsSS_0_0 c) (rowsSS_0_1 c) (rowsSS_0_2 c)

theorem ss_join_0 (c : Dev nD) :
    (iprop(loanV c (src_rs_0_0_0 c) ∗ loanV c (src_rs_0_0_1 c) ∗ loanV c (src_rs_0_1_0 c) ∗ loanV c (src_rs_0_1_1 c) ∗ loanV c (src_rs_0_2_0 c) ∗ loanV c (src_rs_0_2_1 c)) : sProp 𝕄)
      ⊢ iprop(∃ f : Buf (Elt F) ((c : Thread nD τ).loc cc0_scratch6), ((c : Thread nD τ).loc cc0_scratch6) ↦{fullShare} f) :=
  any_join6 (F := F) (ℓ := ((c : Thread nD τ).loc cc0_scratch6)) (q := fullShare) cols_0 (rowsSS_0_0 c) (rowsSS_0_1 c) (rowsSS_0_2 c)

/-- The send buffer into the column blocks its stores go through, and back. -/
theorem ss_cols_0 (c : Dev nD) :
    (iprop(∃ f : Buf (Elt F) ((c : Thread nD τ).loc cc0_scratch6), ((c : Thread nD τ).loc cc0_scratch6) ↦{fullShare} f) : sProp 𝕄)
      ⊢ iprop((∃ f : Buf (Elt F) ((c : Thread nD τ).loc cc0_scratch6), ((c : Thread nD τ).loc cc0_scratch6) ↦[ssCol_0_0]{fullShare} f) ∗ (∃ f : Buf (Elt F) ((c : Thread nD τ).loc cc0_scratch6), ((c : Thread nD τ).loc cc0_scratch6) ↦[ssCol_0_1]{fullShare} f) ∗ (∃ f : Buf (Elt F) ((c : Thread nD τ).loc cc0_scratch6), ((c : Thread nD τ).loc cc0_scratch6) ↦[ssCol_0_2]{fullShare} f)) :=
  any_split3 (F := F) (ℓ := ((c : Thread nD τ).loc cc0_scratch6)) (q := fullShare) colsSS_0

theorem ss_cols_join_0 (c : Dev nD) :
    (iprop((∃ f : Buf (Elt F) ((c : Thread nD τ).loc cc0_scratch6), ((c : Thread nD τ).loc cc0_scratch6) ↦[ssCol_0_0]{fullShare} f) ∗ (∃ f : Buf (Elt F) ((c : Thread nD τ).loc cc0_scratch6), ((c : Thread nD τ).loc cc0_scratch6) ↦[ssCol_0_1]{fullShare} f) ∗ (∃ f : Buf (Elt F) ((c : Thread nD τ).loc cc0_scratch6), ((c : Thread nD τ).loc cc0_scratch6) ↦[ssCol_0_2]{fullShare} f)) : sProp 𝕄)
      ⊢ iprop(∃ f : Buf (Elt F) ((c : Thread nD τ).loc cc0_scratch6), ((c : Thread nD τ).loc cc0_scratch6) ↦{fullShare} f) :=
  any_join3 (F := F) (ℓ := ((c : Thread nD τ).loc cc0_scratch6)) (q := fullShare) colsSS_0

/-- The same at named contents and any share. -/
theorem ss_cols_at_0 (c : Dev nD) (q : PosShare TreeShare) (f : Buf (Elt F) ((c : Thread nD τ).loc cc0_scratch6)) :
    ((((c : Thread nD τ).loc cc0_scratch6) ↦{q} f) : sProp 𝕄)
      ⊣⊢ iprop((((c : Thread nD τ).loc cc0_scratch6) ↦[ssCol_0_0]{q} f) ∗ (((c : Thread nD τ).loc cc0_scratch6) ↦[ssCol_0_1]{q} f) ∗ (((c : Thread nD τ).loc cc0_scratch6) ↦[ssCol_0_2]{q} f)) :=
  at_cut3 (F := F) (ℓ := ((c : Thread nD τ).loc cc0_scratch6)) (q := q) colsSS_0 f

/-- Column block 0 of the send buffer into the two row pieces the device sends, and back. -/
theorem ss_rows_0_0 (c : Dev nD) :
    (iprop(∃ f : Buf (Elt F) ((c : Thread nD τ).loc cc0_scratch6), ((c : Thread nD τ).loc cc0_scratch6) ↦[ssCol_0_0]{fullShare} f) : sProp 𝕄)
      ⊢ iprop(loanV c (src_rs_0_0_0 c) ∗ loanV c (src_rs_0_0_1 c)) :=
  any_split2 (F := F) (ℓ := ((c : Thread nD τ).loc cc0_scratch6)) (q := fullShare) (rowsSSc_0_0 c)

theorem ss_rows_join_0_0 (c : Dev nD) :
    (iprop(loanV c (src_rs_0_0_0 c) ∗ loanV c (src_rs_0_0_1 c)) : sProp 𝕄)
      ⊢ iprop(∃ f : Buf (Elt F) ((c : Thread nD τ).loc cc0_scratch6), ((c : Thread nD τ).loc cc0_scratch6) ↦[ssCol_0_0]{fullShare} f) :=
  any_join2 (F := F) (ℓ := ((c : Thread nD τ).loc cc0_scratch6)) (q := fullShare) (rowsSSc_0_0 c)

theorem ss_rows_at_0_0 (c : Dev nD) (q : PosShare TreeShare) (f : Buf (Elt F) ((c : Thread nD τ).loc cc0_scratch6)) :
    ((((c : Thread nD τ).loc cc0_scratch6) ↦[ssCol_0_0]{q} f) : sProp 𝕄)
      ⊣⊢ iprop((((c : Thread nD τ).loc cc0_scratch6) ↦[(src_rs_0_0_0 c).view.set]{q} f) ∗ (((c : Thread nD τ).loc cc0_scratch6) ↦[(src_rs_0_0_1 c).view.set]{q} f)) :=
  at_cut2 (F := F) (ℓ := ((c : Thread nD τ).loc cc0_scratch6)) (q := q) (rowsSSc_0_0 c) f

/-- Column block 1 of the send buffer into the two row pieces the device sends, and back. -/
theorem ss_rows_0_1 (c : Dev nD) :
    (iprop(∃ f : Buf (Elt F) ((c : Thread nD τ).loc cc0_scratch6), ((c : Thread nD τ).loc cc0_scratch6) ↦[ssCol_0_1]{fullShare} f) : sProp 𝕄)
      ⊢ iprop(loanV c (src_rs_0_1_0 c) ∗ loanV c (src_rs_0_1_1 c)) :=
  any_split2 (F := F) (ℓ := ((c : Thread nD τ).loc cc0_scratch6)) (q := fullShare) (rowsSSc_0_1 c)

theorem ss_rows_join_0_1 (c : Dev nD) :
    (iprop(loanV c (src_rs_0_1_0 c) ∗ loanV c (src_rs_0_1_1 c)) : sProp 𝕄)
      ⊢ iprop(∃ f : Buf (Elt F) ((c : Thread nD τ).loc cc0_scratch6), ((c : Thread nD τ).loc cc0_scratch6) ↦[ssCol_0_1]{fullShare} f) :=
  any_join2 (F := F) (ℓ := ((c : Thread nD τ).loc cc0_scratch6)) (q := fullShare) (rowsSSc_0_1 c)

theorem ss_rows_at_0_1 (c : Dev nD) (q : PosShare TreeShare) (f : Buf (Elt F) ((c : Thread nD τ).loc cc0_scratch6)) :
    ((((c : Thread nD τ).loc cc0_scratch6) ↦[ssCol_0_1]{q} f) : sProp 𝕄)
      ⊣⊢ iprop((((c : Thread nD τ).loc cc0_scratch6) ↦[(src_rs_0_1_0 c).view.set]{q} f) ∗ (((c : Thread nD τ).loc cc0_scratch6) ↦[(src_rs_0_1_1 c).view.set]{q} f)) :=
  at_cut2 (F := F) (ℓ := ((c : Thread nD τ).loc cc0_scratch6)) (q := q) (rowsSSc_0_1 c) f

/-- Column block 2 of the send buffer into the two row pieces the device sends, and back. -/
theorem ss_rows_0_2 (c : Dev nD) :
    (iprop(∃ f : Buf (Elt F) ((c : Thread nD τ).loc cc0_scratch6), ((c : Thread nD τ).loc cc0_scratch6) ↦[ssCol_0_2]{fullShare} f) : sProp 𝕄)
      ⊢ iprop(loanV c (src_rs_0_2_0 c) ∗ loanV c (src_rs_0_2_1 c)) :=
  any_split2 (F := F) (ℓ := ((c : Thread nD τ).loc cc0_scratch6)) (q := fullShare) (rowsSSc_0_2 c)

theorem ss_rows_join_0_2 (c : Dev nD) :
    (iprop(loanV c (src_rs_0_2_0 c) ∗ loanV c (src_rs_0_2_1 c)) : sProp 𝕄)
      ⊢ iprop(∃ f : Buf (Elt F) ((c : Thread nD τ).loc cc0_scratch6), ((c : Thread nD τ).loc cc0_scratch6) ↦[ssCol_0_2]{fullShare} f) :=
  any_join2 (F := F) (ℓ := ((c : Thread nD τ).loc cc0_scratch6)) (q := fullShare) (rowsSSc_0_2 c)

theorem ss_rows_at_0_2 (c : Dev nD) (q : PosShare TreeShare) (f : Buf (Elt F) ((c : Thread nD τ).loc cc0_scratch6)) :
    ((((c : Thread nD τ).loc cc0_scratch6) ↦[ssCol_0_2]{q} f) : sProp 𝕄)
      ⊣⊢ iprop((((c : Thread nD τ).loc cc0_scratch6) ↦[(src_rs_0_2_0 c).view.set]{q} f) ∗ (((c : Thread nD τ).loc cc0_scratch6) ↦[(src_rs_0_2_1 c).view.set]{q} f)) :=
  at_cut2 (F := F) (ℓ := ((c : Thread nD τ).loc cc0_scratch6)) (q := q) (rowsSSc_0_2 c) f

/-! ### Stage 0: the partner's offsets are the device's own, and the loads from the receive buffer read the pieces -/

theorem off2_peer : ∀ c : Dev nD, k0_off2 (peer 0 0 c) = k0_off2 c := by decide +kernel
theorem dst_rs_0_0_0_peer (c : Dev nD) : dst_rs_0_0_0 (peer 0 0 c) = dst_rs_0_0_0 c := by
  have h := off2_peer c
  unfold dst_rs_0_0_0
  congr 2
theorem off15_eq_off2 : ∀ c : Dev nD, k0_off15 c = k0_off2 c := by decide +kernel
theorem rsLoad_0_0_0 (c : Dev nD) :
    ((Memref.whole cc0_scratch1 : Memref sig .tc .vmem S512x1024 .bf16).access (Rect.unit (s := S512x1024) (k0_off15 c) S256x384.size (k0_off15_inb c))).set
      = (dst_rs_0_0_0 (peer 0 0 c)).view.set := by
  have h : k0_off15 c = k0_off2 (peer 0 0 c) := (off15_eq_off2 c).trans (off2_peer c).symm
  refine (View.set_slice_whole _ _).trans (Eq.trans ?_ (View.set_slice_whole _ _).symm)
  congr 3

theorem off3_peer : ∀ c : Dev nD, k0_off3 (peer 0 0 c) = k0_off3 c := by decide +kernel
theorem dst_rs_0_0_1_peer (c : Dev nD) : dst_rs_0_0_1 (peer 0 0 c) = dst_rs_0_0_1 c := by
  have h := off3_peer c
  unfold dst_rs_0_0_1
  congr 2
theorem off27_eq_off3 : ∀ c : Dev nD, k0_off27 c = k0_off3 c := by decide +kernel
theorem rsLoad_0_0_1 (c : Dev nD) :
    ((Memref.whole cc0_scratch1 : Memref sig .tc .vmem S512x1024 .bf16).access (Rect.unit (s := S512x1024) (k0_off27 c) S256x384.size (k0_off27_inb c))).set
      = (dst_rs_0_0_1 (peer 0 0 c)).view.set := by
  have h : k0_off27 c = k0_off3 (peer 0 0 c) := (off27_eq_off3 c).trans (off3_peer c).symm
  refine (View.set_slice_whole _ _).trans (Eq.trans ?_ (View.set_slice_whole _ _).symm)
  congr 3

theorem off5_peer : ∀ c : Dev nD, k0_off5 (peer 1 0 c) = k0_off5 c := by decide +kernel
theorem dst_rs_0_1_0_peer (c : Dev nD) : dst_rs_0_1_0 (peer 1 0 c) = dst_rs_0_1_0 c := by
  have h := off5_peer c
  unfold dst_rs_0_1_0
  congr 2
theorem off19_eq_off5 : ∀ c : Dev nD, k0_off19 c = k0_off5 c := by decide +kernel
theorem rsLoad_0_1_0 (c : Dev nD) :
    ((Memref.whole cc0_scratch1 : Memref sig .tc .vmem S512x1024 .bf16).access (Rect.unit (s := S512x1024) (k0_off19 c) S256x384.size (k0_off19_inb c))).set
      = (dst_rs_0_1_0 (peer 1 0 c)).view.set := by
  have h : k0_off19 c = k0_off5 (peer 1 0 c) := (off19_eq_off5 c).trans (off5_peer c).symm
  refine (View.set_slice_whole _ _).trans (Eq.trans ?_ (View.set_slice_whole _ _).symm)
  congr 3

theorem off6_peer : ∀ c : Dev nD, k0_off6 (peer 1 0 c) = k0_off6 c := by decide +kernel
theorem dst_rs_0_1_1_peer (c : Dev nD) : dst_rs_0_1_1 (peer 1 0 c) = dst_rs_0_1_1 c := by
  have h := off6_peer c
  unfold dst_rs_0_1_1
  congr 2
theorem off29_eq_off6 : ∀ c : Dev nD, k0_off29 c = k0_off6 c := by decide +kernel
theorem rsLoad_0_1_1 (c : Dev nD) :
    ((Memref.whole cc0_scratch1 : Memref sig .tc .vmem S512x1024 .bf16).access (Rect.unit (s := S512x1024) (k0_off29 c) S256x384.size (k0_off29_inb c))).set
      = (dst_rs_0_1_1 (peer 1 0 c)).view.set := by
  have h : k0_off29 c = k0_off6 (peer 1 0 c) := (off29_eq_off6 c).trans (off6_peer c).symm
  refine (View.set_slice_whole _ _).trans (Eq.trans ?_ (View.set_slice_whole _ _).symm)
  congr 3

theorem off7_peer : ∀ c : Dev nD, k0_off7 (peer 2 0 c) = k0_off7 c := by decide +kernel
theorem dst_rs_0_2_0_peer (c : Dev nD) : dst_rs_0_2_0 (peer 2 0 c) = dst_rs_0_2_0 c := by
  have h := off7_peer c
  unfold dst_rs_0_2_0
  congr 2
theorem off23_eq_off7 : ∀ c : Dev nD, k0_off23 c = k0_off7 c := by decide +kernel
theorem rsLoad_0_2_0 (c : Dev nD) :
    ((Memref.whole cc0_scratch1 : Memref sig .tc .vmem S512x1024 .bf16).access (Rect.unit (s := S512x1024) (k0_off23 c) S256x256.size (k0_off23_inb c))).set
      = (dst_rs_0_2_0 (peer 2 0 c)).view.set := by
  have h : k0_off23 c = k0_off7 (peer 2 0 c) := (off23_eq_off7 c).trans (off7_peer c).symm
  refine (View.set_slice_whole _ _).trans (Eq.trans ?_ (View.set_slice_whole _ _).symm)
  congr 3

theorem off8_peer : ∀ c : Dev nD, k0_off8 (peer 2 0 c) = k0_off8 c := by decide +kernel
theorem dst_rs_0_2_1_peer (c : Dev nD) : dst_rs_0_2_1 (peer 2 0 c) = dst_rs_0_2_1 c := by
  have h := off8_peer c
  unfold dst_rs_0_2_1
  congr 2
theorem off31_eq_off8 : ∀ c : Dev nD, k0_off31 c = k0_off8 c := by decide +kernel
theorem rsLoad_0_2_1 (c : Dev nD) :
    ((Memref.whole cc0_scratch1 : Memref sig .tc .vmem S512x1024 .bf16).access (Rect.unit (s := S512x1024) (k0_off31 c) S256x256.size (k0_off31_inb c))).set
      = (dst_rs_0_2_1 (peer 2 0 c)).view.set := by
  have h : k0_off31 c = k0_off8 (peer 2 0 c) := (off31_eq_off8 c).trans (off8_peer c).symm
  refine (View.set_slice_whole _ _).trans (Eq.trans ?_ (View.set_slice_whole _ _).symm)
  congr 3

/-! ## Stage 1: buffers of 256 rows -/

/-- The three column blocks are pairwise disjoint and cover the buffer. -/
theorem cols_1 :
    (Disjoint (Rect.unit (s := S256x1024) ![0, 0] S256x384.size inb_S256x1024_S256x384_0_0).set (Rect.unit (s := S256x1024) ![0, 384] S256x384.size inb_S256x1024_S256x384_0_384).set ∧ Disjoint (Rect.unit (s := S256x1024) ![0, 0] S256x384.size inb_S256x1024_S256x384_0_0).set (Rect.unit (s := S256x1024) ![0, 768] S256x256.size inb_S256x1024_S256x256_0_768).set ∧ Disjoint (Rect.unit (s := S256x1024) ![0, 384] S256x384.size inb_S256x1024_S256x384_0_384).set (Rect.unit (s := S256x1024) ![0, 768] S256x256.size inb_S256x1024_S256x256_0_768).set) ∧ (Rect.unit (s := S256x1024) ![0, 0] S256x384.size inb_S256x1024_S256x384_0_0).set ∪ ((Rect.unit (s := S256x1024) ![0, 384] S256x384.size inb_S256x1024_S256x384_0_384).set ∪ (Rect.unit (s := S256x1024) ![0, 768] S256x256.size inb_S256x1024_S256x256_0_768).set) = Finset.univ :=
  cols_part (by decide) (by decide)

/-- Column block 0 of the stage's send buffer: the positions its store goes through. -/
abbrev ssCol_1_0 : Finset S256x1024.Idx := ((Memref.whole cc0_scratch7 : Memref sig .tc .vmem S256x1024 .bf16).access (Rect.unit (s := S256x1024) ![0, 0] S256x384.size inb_S256x1024_S256x384_0_0)).set
theorem ssCol_1_0_eq : ssCol_1_0 = (Rect.unit (s := S256x1024) ![0, 0] S256x384.size inb_S256x1024_S256x384_0_0).set := View.set_slice_whole _ _

/-- Column block 1 of the stage's send buffer: the positions its store goes through. -/
abbrev ssCol_1_1 : Finset S256x1024.Idx := ((Memref.whole cc0_scratch7 : Memref sig .tc .vmem S256x1024 .bf16).access (Rect.unit (s := S256x1024) ![0, 384] S256x384.size inb_S256x1024_S256x384_0_384)).set
theorem ssCol_1_1_eq : ssCol_1_1 = (Rect.unit (s := S256x1024) ![0, 384] S256x384.size inb_S256x1024_S256x384_0_384).set := View.set_slice_whole _ _

/-- Column block 2 of the stage's send buffer: the positions its store goes through. -/
abbrev ssCol_1_2 : Finset S256x1024.Idx := ((Memref.whole cc0_scratch7 : Memref sig .tc .vmem S256x1024 .bf16).access (Rect.unit (s := S256x1024) ![0, 768] S256x256.size inb_S256x1024_S256x256_0_768)).set
theorem ssCol_1_2_eq : ssCol_1_2 = (Rect.unit (s := S256x1024) ![0, 768] S256x256.size inb_S256x1024_S256x256_0_768).set := View.set_slice_whole _ _

theorem colsSS_1 : (Disjoint ssCol_1_0 ssCol_1_1 ∧ Disjoint ssCol_1_0 ssCol_1_2 ∧ Disjoint ssCol_1_1 ssCol_1_2) ∧ ssCol_1_0 ∪ (ssCol_1_1 ∪ ssCol_1_2) = Finset.univ :=
  part3_congr ssCol_1_0_eq ssCol_1_1_eq ssCol_1_2_eq rfl cols_1

/-- The two row pieces of column block 0, at any device's offsets, are disjoint and cover the block. -/
theorem rows_1_0 (p : Dev nD) :
    Disjoint (Rect.unit (s := S256x1024) (k0_off16 p) S128x384.size (k0_off16_inb p)).set (Rect.unit (s := S256x1024) (k0_off17 p) S128x384.size (k0_off17_inb p)).set ∧ (Rect.unit (s := S256x1024) (k0_off16 p) S128x384.size (k0_off16_inb p)).set ∪ (Rect.unit (s := S256x1024) (k0_off17 p) S128x384.size (k0_off17_inb p)).set = (Rect.unit (s := S256x1024) ![0, 0] S256x384.size inb_S256x1024_S256x384_0_0).set :=
  rows_part (by rw [off16_eq, off17_eq]; exact ⟨rfl, rfl, rfl, rfl⟩)
    (by obtain h | h := bit01 0 2 p <;> rw [off16_eq, off17_eq, h] <;> decide)
theorem rowsRS_1_0 (p : Dev nD) : Disjoint (dst_rs_1_0_0 p).view.set (dst_rs_1_0_1 p).view.set ∧ (dst_rs_1_0_0 p).view.set ∪ (dst_rs_1_0_1 p).view.set = (Rect.unit (s := S256x1024) ![0, 0] S256x384.size inb_S256x1024_S256x384_0_0).set :=
  part2_congr (View.set_slice_whole _ _) (View.set_slice_whole _ _) rfl (rows_1_0 p)
theorem rowsSS_1_0 (p : Dev nD) : Disjoint (src_rs_1_0_0 p).view.set (src_rs_1_0_1 p).view.set ∧ (src_rs_1_0_0 p).view.set ∪ (src_rs_1_0_1 p).view.set = (Rect.unit (s := S256x1024) ![0, 0] S256x384.size inb_S256x1024_S256x384_0_0).set :=
  part2_congr (View.set_slice_whole _ _) (View.set_slice_whole _ _) rfl (rows_1_0 p)
theorem rowsSSc_1_0 (p : Dev nD) : Disjoint (src_rs_1_0_0 p).view.set (src_rs_1_0_1 p).view.set ∧ (src_rs_1_0_0 p).view.set ∪ (src_rs_1_0_1 p).view.set = ssCol_1_0 :=
  part2_congr (View.set_slice_whole _ _) (View.set_slice_whole _ _) ssCol_1_0_eq (rows_1_0 p)

/-- The two row pieces of column block 1, at any device's offsets, are disjoint and cover the block. -/
theorem rows_1_1 (p : Dev nD) :
    Disjoint (Rect.unit (s := S256x1024) (k0_off20 p) S128x384.size (k0_off20_inb p)).set (Rect.unit (s := S256x1024) (k0_off21 p) S128x384.size (k0_off21_inb p)).set ∧ (Rect.unit (s := S256x1024) (k0_off20 p) S128x384.size (k0_off20_inb p)).set ∪ (Rect.unit (s := S256x1024) (k0_off21 p) S128x384.size (k0_off21_inb p)).set = (Rect.unit (s := S256x1024) ![0, 384] S256x384.size inb_S256x1024_S256x384_0_384).set :=
  rows_part (by rw [off20_eq, off21_eq]; exact ⟨rfl, rfl, rfl, rfl⟩)
    (by obtain h | h := bit01 1 2 p <;> rw [off20_eq, off21_eq, h] <;> decide)
theorem rowsRS_1_1 (p : Dev nD) : Disjoint (dst_rs_1_1_0 p).view.set (dst_rs_1_1_1 p).view.set ∧ (dst_rs_1_1_0 p).view.set ∪ (dst_rs_1_1_1 p).view.set = (Rect.unit (s := S256x1024) ![0, 384] S256x384.size inb_S256x1024_S256x384_0_384).set :=
  part2_congr (View.set_slice_whole _ _) (View.set_slice_whole _ _) rfl (rows_1_1 p)
theorem rowsSS_1_1 (p : Dev nD) : Disjoint (src_rs_1_1_0 p).view.set (src_rs_1_1_1 p).view.set ∧ (src_rs_1_1_0 p).view.set ∪ (src_rs_1_1_1 p).view.set = (Rect.unit (s := S256x1024) ![0, 384] S256x384.size inb_S256x1024_S256x384_0_384).set :=
  part2_congr (View.set_slice_whole _ _) (View.set_slice_whole _ _) rfl (rows_1_1 p)
theorem rowsSSc_1_1 (p : Dev nD) : Disjoint (src_rs_1_1_0 p).view.set (src_rs_1_1_1 p).view.set ∧ (src_rs_1_1_0 p).view.set ∪ (src_rs_1_1_1 p).view.set = ssCol_1_1 :=
  part2_congr (View.set_slice_whole _ _) (View.set_slice_whole _ _) ssCol_1_1_eq (rows_1_1 p)

/-- The two row pieces of column block 2, at any device's offsets, are disjoint and cover the block. -/
theorem rows_1_2 (p : Dev nD) :
    Disjoint (Rect.unit (s := S256x1024) (k0_off24 p) S128x256.size (k0_off24_inb p)).set (Rect.unit (s := S256x1024) (k0_off25 p) S128x256.size (k0_off25_inb p)).set ∧ (Rect.unit (s := S256x1024) (k0_off24 p) S128x256.size (k0_off24_inb p)).set ∪ (Rect.unit (s := S256x1024) (k0_off25 p) S128x256.size (k0_off25_inb p)).set = (Rect.unit (s := S256x1024) ![0, 768] S256x256.size inb_S256x1024_S256x256_0_768).set :=
  rows_part (by rw [off24_eq, off25_eq]; exact ⟨rfl, rfl, rfl, rfl⟩)
    (by obtain h | h := bit01 2 2 p <;> rw [off24_eq, off25_eq, h] <;> decide)
theorem rowsRS_1_2 (p : Dev nD) : Disjoint (dst_rs_1_2_0 p).view.set (dst_rs_1_2_1 p).view.set ∧ (dst_rs_1_2_0 p).view.set ∪ (dst_rs_1_2_1 p).view.set = (Rect.unit (s := S256x1024) ![0, 768] S256x256.size inb_S256x1024_S256x256_0_768).set :=
  part2_congr (View.set_slice_whole _ _) (View.set_slice_whole _ _) rfl (rows_1_2 p)
theorem rowsSS_1_2 (p : Dev nD) : Disjoint (src_rs_1_2_0 p).view.set (src_rs_1_2_1 p).view.set ∧ (src_rs_1_2_0 p).view.set ∪ (src_rs_1_2_1 p).view.set = (Rect.unit (s := S256x1024) ![0, 768] S256x256.size inb_S256x1024_S256x256_0_768).set :=
  part2_congr (View.set_slice_whole _ _) (View.set_slice_whole _ _) rfl (rows_1_2 p)
theorem rowsSSc_1_2 (p : Dev nD) : Disjoint (src_rs_1_2_0 p).view.set (src_rs_1_2_1 p).view.set ∧ (src_rs_1_2_0 p).view.set ∪ (src_rs_1_2_1 p).view.set = ssCol_1_2 :=
  part2_congr (View.set_slice_whole _ _) (View.set_slice_whole _ _) ssCol_1_2_eq (rows_1_2 p)

/-- The stage's receive buffer, lent piece by piece at the partners' offsets. -/
theorem rs_split_1 (c : Dev nD) :
    (iprop(∃ f : Buf (Elt F) ((c : Thread nD τ).loc cc0_scratch2), ((c : Thread nD τ).loc cc0_scratch2) ↦{fullShare} f) : sProp 𝕄)
      ⊢ iprop(loanV c (dst_rs_1_0_0 (peer 0 1 c)) ∗ loanV c (dst_rs_1_0_1 (peer 0 1 c)) ∗ loanV c (dst_rs_1_1_0 (peer 1 1 c)) ∗ loanV c (dst_rs_1_1_1 (peer 1 1 c)) ∗ loanV c (dst_rs_1_2_0 (peer 2 1 c)) ∗ loanV c (dst_rs_1_2_1 (peer 2 1 c))) :=
  any_split6 (F := F) (ℓ := ((c : Thread nD τ).loc cc0_scratch2)) (q := fullShare) cols_1 (rowsRS_1_0 (peer 0 1 c)) (rowsRS_1_1 (peer 1 1 c)) (rowsRS_1_2 (peer 2 1 c))

theorem rs_join_1 (c : Dev nD) :
    (iprop(loanV c (dst_rs_1_0_0 (peer 0 1 c)) ∗ loanV c (dst_rs_1_0_1 (peer 0 1 c)) ∗ loanV c (dst_rs_1_1_0 (peer 1 1 c)) ∗ loanV c (dst_rs_1_1_1 (peer 1 1 c)) ∗ loanV c (dst_rs_1_2_0 (peer 2 1 c)) ∗ loanV c (dst_rs_1_2_1 (peer 2 1 c))) : sProp 𝕄)
      ⊢ iprop(∃ f : Buf (Elt F) ((c : Thread nD τ).loc cc0_scratch2), ((c : Thread nD τ).loc cc0_scratch2) ↦{fullShare} f) :=
  any_join6 (F := F) (ℓ := ((c : Thread nD τ).loc cc0_scratch2)) (q := fullShare) cols_1 (rowsRS_1_0 (peer 0 1 c)) (rowsRS_1_1 (peer 1 1 c)) (rowsRS_1_2 (peer 2 1 c))

/-- The stage's send buffer, piece by piece at the device's own offsets. -/
theorem ss_split_1 (c : Dev nD) :
    (iprop(∃ f : Buf (Elt F) ((c : Thread nD τ).loc cc0_scratch7), ((c : Thread nD τ).loc cc0_scratch7) ↦{fullShare} f) : sProp 𝕄)
      ⊢ iprop(loanV c (src_rs_1_0_0 c) ∗ loanV c (src_rs_1_0_1 c) ∗ loanV c (src_rs_1_1_0 c) ∗ loanV c (src_rs_1_1_1 c) ∗ loanV c (src_rs_1_2_0 c) ∗ loanV c (src_rs_1_2_1 c)) :=
  any_split6 (F := F) (ℓ := ((c : Thread nD τ).loc cc0_scratch7)) (q := fullShare) cols_1 (rowsSS_1_0 c) (rowsSS_1_1 c) (rowsSS_1_2 c)

theorem ss_join_1 (c : Dev nD) :
    (iprop(loanV c (src_rs_1_0_0 c) ∗ loanV c (src_rs_1_0_1 c) ∗ loanV c (src_rs_1_1_0 c) ∗ loanV c (src_rs_1_1_1 c) ∗ loanV c (src_rs_1_2_0 c) ∗ loanV c (src_rs_1_2_1 c)) : sProp 𝕄)
      ⊢ iprop(∃ f : Buf (Elt F) ((c : Thread nD τ).loc cc0_scratch7), ((c : Thread nD τ).loc cc0_scratch7) ↦{fullShare} f) :=
  any_join6 (F := F) (ℓ := ((c : Thread nD τ).loc cc0_scratch7)) (q := fullShare) cols_1 (rowsSS_1_0 c) (rowsSS_1_1 c) (rowsSS_1_2 c)

/-- The send buffer into the column blocks its stores go through, and back. -/
theorem ss_cols_1 (c : Dev nD) :
    (iprop(∃ f : Buf (Elt F) ((c : Thread nD τ).loc cc0_scratch7), ((c : Thread nD τ).loc cc0_scratch7) ↦{fullShare} f) : sProp 𝕄)
      ⊢ iprop((∃ f : Buf (Elt F) ((c : Thread nD τ).loc cc0_scratch7), ((c : Thread nD τ).loc cc0_scratch7) ↦[ssCol_1_0]{fullShare} f) ∗ (∃ f : Buf (Elt F) ((c : Thread nD τ).loc cc0_scratch7), ((c : Thread nD τ).loc cc0_scratch7) ↦[ssCol_1_1]{fullShare} f) ∗ (∃ f : Buf (Elt F) ((c : Thread nD τ).loc cc0_scratch7), ((c : Thread nD τ).loc cc0_scratch7) ↦[ssCol_1_2]{fullShare} f)) :=
  any_split3 (F := F) (ℓ := ((c : Thread nD τ).loc cc0_scratch7)) (q := fullShare) colsSS_1

theorem ss_cols_join_1 (c : Dev nD) :
    (iprop((∃ f : Buf (Elt F) ((c : Thread nD τ).loc cc0_scratch7), ((c : Thread nD τ).loc cc0_scratch7) ↦[ssCol_1_0]{fullShare} f) ∗ (∃ f : Buf (Elt F) ((c : Thread nD τ).loc cc0_scratch7), ((c : Thread nD τ).loc cc0_scratch7) ↦[ssCol_1_1]{fullShare} f) ∗ (∃ f : Buf (Elt F) ((c : Thread nD τ).loc cc0_scratch7), ((c : Thread nD τ).loc cc0_scratch7) ↦[ssCol_1_2]{fullShare} f)) : sProp 𝕄)
      ⊢ iprop(∃ f : Buf (Elt F) ((c : Thread nD τ).loc cc0_scratch7), ((c : Thread nD τ).loc cc0_scratch7) ↦{fullShare} f) :=
  any_join3 (F := F) (ℓ := ((c : Thread nD τ).loc cc0_scratch7)) (q := fullShare) colsSS_1

/-- The same at named contents and any share. -/
theorem ss_cols_at_1 (c : Dev nD) (q : PosShare TreeShare) (f : Buf (Elt F) ((c : Thread nD τ).loc cc0_scratch7)) :
    ((((c : Thread nD τ).loc cc0_scratch7) ↦{q} f) : sProp 𝕄)
      ⊣⊢ iprop((((c : Thread nD τ).loc cc0_scratch7) ↦[ssCol_1_0]{q} f) ∗ (((c : Thread nD τ).loc cc0_scratch7) ↦[ssCol_1_1]{q} f) ∗ (((c : Thread nD τ).loc cc0_scratch7) ↦[ssCol_1_2]{q} f)) :=
  at_cut3 (F := F) (ℓ := ((c : Thread nD τ).loc cc0_scratch7)) (q := q) colsSS_1 f

/-- Column block 0 of the send buffer into the two row pieces the device sends, and back. -/
theorem ss_rows_1_0 (c : Dev nD) :
    (iprop(∃ f : Buf (Elt F) ((c : Thread nD τ).loc cc0_scratch7), ((c : Thread nD τ).loc cc0_scratch7) ↦[ssCol_1_0]{fullShare} f) : sProp 𝕄)
      ⊢ iprop(loanV c (src_rs_1_0_0 c) ∗ loanV c (src_rs_1_0_1 c)) :=
  any_split2 (F := F) (ℓ := ((c : Thread nD τ).loc cc0_scratch7)) (q := fullShare) (rowsSSc_1_0 c)

theorem ss_rows_join_1_0 (c : Dev nD) :
    (iprop(loanV c (src_rs_1_0_0 c) ∗ loanV c (src_rs_1_0_1 c)) : sProp 𝕄)
      ⊢ iprop(∃ f : Buf (Elt F) ((c : Thread nD τ).loc cc0_scratch7), ((c : Thread nD τ).loc cc0_scratch7) ↦[ssCol_1_0]{fullShare} f) :=
  any_join2 (F := F) (ℓ := ((c : Thread nD τ).loc cc0_scratch7)) (q := fullShare) (rowsSSc_1_0 c)

theorem ss_rows_at_1_0 (c : Dev nD) (q : PosShare TreeShare) (f : Buf (Elt F) ((c : Thread nD τ).loc cc0_scratch7)) :
    ((((c : Thread nD τ).loc cc0_scratch7) ↦[ssCol_1_0]{q} f) : sProp 𝕄)
      ⊣⊢ iprop((((c : Thread nD τ).loc cc0_scratch7) ↦[(src_rs_1_0_0 c).view.set]{q} f) ∗ (((c : Thread nD τ).loc cc0_scratch7) ↦[(src_rs_1_0_1 c).view.set]{q} f)) :=
  at_cut2 (F := F) (ℓ := ((c : Thread nD τ).loc cc0_scratch7)) (q := q) (rowsSSc_1_0 c) f

/-- Column block 1 of the send buffer into the two row pieces the device sends, and back. -/
theorem ss_rows_1_1 (c : Dev nD) :
    (iprop(∃ f : Buf (Elt F) ((c : Thread nD τ).loc cc0_scratch7), ((c : Thread nD τ).loc cc0_scratch7) ↦[ssCol_1_1]{fullShare} f) : sProp 𝕄)
      ⊢ iprop(loanV c (src_rs_1_1_0 c) ∗ loanV c (src_rs_1_1_1 c)) :=
  any_split2 (F := F) (ℓ := ((c : Thread nD τ).loc cc0_scratch7)) (q := fullShare) (rowsSSc_1_1 c)

theorem ss_rows_join_1_1 (c : Dev nD) :
    (iprop(loanV c (src_rs_1_1_0 c) ∗ loanV c (src_rs_1_1_1 c)) : sProp 𝕄)
      ⊢ iprop(∃ f : Buf (Elt F) ((c : Thread nD τ).loc cc0_scratch7), ((c : Thread nD τ).loc cc0_scratch7) ↦[ssCol_1_1]{fullShare} f) :=
  any_join2 (F := F) (ℓ := ((c : Thread nD τ).loc cc0_scratch7)) (q := fullShare) (rowsSSc_1_1 c)

theorem ss_rows_at_1_1 (c : Dev nD) (q : PosShare TreeShare) (f : Buf (Elt F) ((c : Thread nD τ).loc cc0_scratch7)) :
    ((((c : Thread nD τ).loc cc0_scratch7) ↦[ssCol_1_1]{q} f) : sProp 𝕄)
      ⊣⊢ iprop((((c : Thread nD τ).loc cc0_scratch7) ↦[(src_rs_1_1_0 c).view.set]{q} f) ∗ (((c : Thread nD τ).loc cc0_scratch7) ↦[(src_rs_1_1_1 c).view.set]{q} f)) :=
  at_cut2 (F := F) (ℓ := ((c : Thread nD τ).loc cc0_scratch7)) (q := q) (rowsSSc_1_1 c) f

/-- Column block 2 of the send buffer into the two row pieces the device sends, and back. -/
theorem ss_rows_1_2 (c : Dev nD) :
    (iprop(∃ f : Buf (Elt F) ((c : Thread nD τ).loc cc0_scratch7), ((c : Thread nD τ).loc cc0_scratch7) ↦[ssCol_1_2]{fullShare} f) : sProp 𝕄)
      ⊢ iprop(loanV c (src_rs_1_2_0 c) ∗ loanV c (src_rs_1_2_1 c)) :=
  any_split2 (F := F) (ℓ := ((c : Thread nD τ).loc cc0_scratch7)) (q := fullShare) (rowsSSc_1_2 c)

theorem ss_rows_join_1_2 (c : Dev nD) :
    (iprop(loanV c (src_rs_1_2_0 c) ∗ loanV c (src_rs_1_2_1 c)) : sProp 𝕄)
      ⊢ iprop(∃ f : Buf (Elt F) ((c : Thread nD τ).loc cc0_scratch7), ((c : Thread nD τ).loc cc0_scratch7) ↦[ssCol_1_2]{fullShare} f) :=
  any_join2 (F := F) (ℓ := ((c : Thread nD τ).loc cc0_scratch7)) (q := fullShare) (rowsSSc_1_2 c)

theorem ss_rows_at_1_2 (c : Dev nD) (q : PosShare TreeShare) (f : Buf (Elt F) ((c : Thread nD τ).loc cc0_scratch7)) :
    ((((c : Thread nD τ).loc cc0_scratch7) ↦[ssCol_1_2]{q} f) : sProp 𝕄)
      ⊣⊢ iprop((((c : Thread nD τ).loc cc0_scratch7) ↦[(src_rs_1_2_0 c).view.set]{q} f) ∗ (((c : Thread nD τ).loc cc0_scratch7) ↦[(src_rs_1_2_1 c).view.set]{q} f)) :=
  at_cut2 (F := F) (ℓ := ((c : Thread nD τ).loc cc0_scratch7)) (q := q) (rowsSSc_1_2 c) f

/-! ### Stage 1: the partner's offsets are the device's own, and the loads from the receive buffer read the pieces -/

theorem off16_peer : ∀ c : Dev nD, k0_off16 (peer 0 1 c) = k0_off16 c := by decide +kernel
theorem dst_rs_1_0_0_peer (c : Dev nD) : dst_rs_1_0_0 (peer 0 1 c) = dst_rs_1_0_0 c := by
  have h := off16_peer c
  unfold dst_rs_1_0_0
  congr 2
theorem off33_eq_off16 : ∀ c : Dev nD, k0_off33 c = k0_off16 c := by decide +kernel
theorem rsLoad_1_0_0 (c : Dev nD) :
    ((Memref.whole cc0_scratch2 : Memref sig .tc .vmem S256x1024 .bf16).access (Rect.unit (s := S256x1024) (k0_off33 c) S128x384.size (k0_off33_inb c))).set
      = (dst_rs_1_0_0 (peer 0 1 c)).view.set := by
  have h : k0_off33 c = k0_off16 (peer 0 1 c) := (off33_eq_off16 c).trans (off16_peer c).symm
  refine (View.set_slice_whole _ _).trans (Eq.trans ?_ (View.set_slice_whole _ _).symm)
  congr 3

theorem off17_peer : ∀ c : Dev nD, k0_off17 (peer 0 1 c) = k0_off17 c := by decide +kernel
theorem dst_rs_1_0_1_peer (c : Dev nD) : dst_rs_1_0_1 (peer 0 1 c) = dst_rs_1_0_1 c := by
  have h := off17_peer c
  unfold dst_rs_1_0_1
  congr 2
theorem off45_eq_off17 : ∀ c : Dev nD, k0_off45 c = k0_off17 c := by decide +kernel
theorem rsLoad_1_0_1 (c : Dev nD) :
    ((Memref.whole cc0_scratch2 : Memref sig .tc .vmem S256x1024 .bf16).access (Rect.unit (s := S256x1024) (k0_off45 c) S128x384.size (k0_off45_inb c))).set
      = (dst_rs_1_0_1 (peer 0 1 c)).view.set := by
  have h : k0_off45 c = k0_off17 (peer 0 1 c) := (off45_eq_off17 c).trans (off17_peer c).symm
  refine (View.set_slice_whole _ _).trans (Eq.trans ?_ (View.set_slice_whole _ _).symm)
  congr 3

theorem off20_peer : ∀ c : Dev nD, k0_off20 (peer 1 1 c) = k0_off20 c := by decide +kernel
theorem dst_rs_1_1_0_peer (c : Dev nD) : dst_rs_1_1_0 (peer 1 1 c) = dst_rs_1_1_0 c := by
  have h := off20_peer c
  unfold dst_rs_1_1_0
  congr 2
theorem off37_eq_off20 : ∀ c : Dev nD, k0_off37 c = k0_off20 c := by decide +kernel
theorem rsLoad_1_1_0 (c : Dev nD) :
    ((Memref.whole cc0_scratch2 : Memref sig .tc .vmem S256x1024 .bf16).access (Rect.unit (s := S256x1024) (k0_off37 c) S128x384.size (k0_off37_inb c))).set
      = (dst_rs_1_1_0 (peer 1 1 c)).view.set := by
  have h : k0_off37 c = k0_off20 (peer 1 1 c) := (off37_eq_off20 c).trans (off20_peer c).symm
  refine (View.set_slice_whole _ _).trans (Eq.trans ?_ (View.set_slice_whole _ _).symm)
  congr 3

theorem off21_peer : ∀ c : Dev nD, k0_off21 (peer 1 1 c) = k0_off21 c := by decide +kernel
theorem dst_rs_1_1_1_peer (c : Dev nD) : dst_rs_1_1_1 (peer 1 1 c) = dst_rs_1_1_1 c := by
  have h := off21_peer c
  unfold dst_rs_1_1_1
  congr 2
theorem off47_eq_off21 : ∀ c : Dev nD, k0_off47 c = k0_off21 c := by decide +kernel
theorem rsLoad_1_1_1 (c : Dev nD) :
    ((Memref.whole cc0_scratch2 : Memref sig .tc .vmem S256x1024 .bf16).access (Rect.unit (s := S256x1024) (k0_off47 c) S128x384.size (k0_off47_inb c))).set
      = (dst_rs_1_1_1 (peer 1 1 c)).view.set := by
  have h : k0_off47 c = k0_off21 (peer 1 1 c) := (off47_eq_off21 c).trans (off21_peer c).symm
  refine (View.set_slice_whole _ _).trans (Eq.trans ?_ (View.set_slice_whole _ _).symm)
  congr 3

theorem off24_peer : ∀ c : Dev nD, k0_off24 (peer 2 1 c) = k0_off24 c := by decide +kernel
theorem dst_rs_1_2_0_peer (c : Dev nD) : dst_rs_1_2_0 (peer 2 1 c) = dst_rs_1_2_0 c := by
  have h := off24_peer c
  unfold dst_rs_1_2_0
  congr 2
theorem off41_eq_off24 : ∀ c : Dev nD, k0_off41 c = k0_off24 c := by decide +kernel
theorem rsLoad_1_2_0 (c : Dev nD) :
    ((Memref.whole cc0_scratch2 : Memref sig .tc .vmem S256x1024 .bf16).access (Rect.unit (s := S256x1024) (k0_off41 c) S128x256.size (k0_off41_inb c))).set
      = (dst_rs_1_2_0 (peer 2 1 c)).view.set := by
  have h : k0_off41 c = k0_off24 (peer 2 1 c) := (off41_eq_off24 c).trans (off24_peer c).symm
  refine (View.set_slice_whole _ _).trans (Eq.trans ?_ (View.set_slice_whole _ _).symm)
  congr 3

theorem off25_peer : ∀ c : Dev nD, k0_off25 (peer 2 1 c) = k0_off25 c := by decide +kernel
theorem dst_rs_1_2_1_peer (c : Dev nD) : dst_rs_1_2_1 (peer 2 1 c) = dst_rs_1_2_1 c := by
  have h := off25_peer c
  unfold dst_rs_1_2_1
  congr 2
theorem off49_eq_off25 : ∀ c : Dev nD, k0_off49 c = k0_off25 c := by decide +kernel
theorem rsLoad_1_2_1 (c : Dev nD) :
    ((Memref.whole cc0_scratch2 : Memref sig .tc .vmem S256x1024 .bf16).access (Rect.unit (s := S256x1024) (k0_off49 c) S128x256.size (k0_off49_inb c))).set
      = (dst_rs_1_2_1 (peer 2 1 c)).view.set := by
  have h : k0_off49 c = k0_off25 (peer 2 1 c) := (off49_eq_off25 c).trans (off25_peer c).symm
  refine (View.set_slice_whole _ _).trans (Eq.trans ?_ (View.set_slice_whole _ _).symm)
  congr 3

/-! ## Stage 2: buffers of 128 rows -/

/-- The three column blocks are pairwise disjoint and cover the buffer. -/
theorem cols_2 :
    (Disjoint (Rect.unit (s := S128x1024) ![0, 0] S128x384.size inb_S128x1024_S128x384_0_0).set (Rect.unit (s := S128x1024) ![0, 384] S128x384.size inb_S128x1024_S128x384_0_384).set ∧ Disjoint (Rect.unit (s := S128x1024) ![0, 0] S128x384.size inb_S128x1024_S128x384_0_0).set (Rect.unit (s := S128x1024) ![0, 768] S128x256.size inb_S128x1024_S128x256_0_768).set ∧ Disjoint (Rect.unit (s := S128x1024) ![0, 384] S128x384.size inb_S128x1024_S128x384_0_384).set (Rect.unit (s := S128x1024) ![0, 768] S128x256.size inb_S128x1024_S128x256_0_768).set) ∧ (Rect.unit (s := S128x1024) ![0, 0] S128x384.size inb_S128x1024_S128x384_0_0).set ∪ ((Rect.unit (s := S128x1024) ![0, 384] S128x384.size inb_S128x1024_S128x384_0_384).set ∪ (Rect.unit (s := S128x1024) ![0, 768] S128x256.size inb_S128x1024_S128x256_0_768).set) = Finset.univ :=
  cols_part (by decide) (by decide)

/-- Column block 0 of the stage's send buffer: the positions its store goes through. -/
abbrev ssCol_2_0 : Finset S128x1024.Idx := ((Memref.whole cc0_scratch8 : Memref sig .tc .vmem S128x1024 .bf16).access (Rect.unit (s := S128x1024) ![0, 0] S128x384.size inb_S128x1024_S128x384_0_0)).set
theorem ssCol_2_0_eq : ssCol_2_0 = (Rect.unit (s := S128x1024) ![0, 0] S128x384.size inb_S128x1024_S128x384_0_0).set := View.set_slice_whole _ _

/-- Column block 1 of the stage's send buffer: the positions its store goes through. -/
abbrev ssCol_2_1 : Finset S128x1024.Idx := ((Memref.whole cc0_scratch8 : Memref sig .tc .vmem S128x1024 .bf16).access (Rect.unit (s := S128x1024) ![0, 384] S128x384.size inb_S128x1024_S128x384_0_384)).set
theorem ssCol_2_1_eq : ssCol_2_1 = (Rect.unit (s := S128x1024) ![0, 384] S128x384.size inb_S128x1024_S128x384_0_384).set := View.set_slice_whole _ _

/-- Column block 2 of the stage's send buffer: the positions its store goes through. -/
abbrev ssCol_2_2 : Finset S128x1024.Idx := ((Memref.whole cc0_scratch8 : Memref sig .tc .vmem S128x1024 .bf16).access (Rect.unit (s := S128x1024) ![0, 768] S128x256.size inb_S128x1024_S128x256_0_768)).set
theorem ssCol_2_2_eq : ssCol_2_2 = (Rect.unit (s := S128x1024) ![0, 768] S128x256.size inb_S128x1024_S128x256_0_768).set := View.set_slice_whole _ _

theorem colsSS_2 : (Disjoint ssCol_2_0 ssCol_2_1 ∧ Disjoint ssCol_2_0 ssCol_2_2 ∧ Disjoint ssCol_2_1 ssCol_2_2) ∧ ssCol_2_0 ∪ (ssCol_2_1 ∪ ssCol_2_2) = Finset.univ :=
  part3_congr ssCol_2_0_eq ssCol_2_1_eq ssCol_2_2_eq rfl cols_2

/-- The two row pieces of column block 0, at any device's offsets, are disjoint and cover the block. -/
theorem rows_2_0 (p : Dev nD) :
    Disjoint (Rect.unit (s := S128x1024) (k0_off34 p) S64x384.size (k0_off34_inb p)).set (Rect.unit (s := S128x1024) (k0_off35 p) S64x384.size (k0_off35_inb p)).set ∧ (Rect.unit (s := S128x1024) (k0_off34 p) S64x384.size (k0_off34_inb p)).set ∪ (Rect.unit (s := S128x1024) (k0_off35 p) S64x384.size (k0_off35_inb p)).set = (Rect.unit (s := S128x1024) ![0, 0] S128x384.size inb_S128x1024_S128x384_0_0).set :=
  rows_part (by rw [off34_eq, off35_eq]; exact ⟨rfl, rfl, rfl, rfl⟩)
    (by obtain h | h := bit01 0 3 p <;> rw [off34_eq, off35_eq, h] <;> decide)
theorem rowsRS_2_0 (p : Dev nD) : Disjoint (dst_rs_2_0_0 p).view.set (dst_rs_2_0_1 p).view.set ∧ (dst_rs_2_0_0 p).view.set ∪ (dst_rs_2_0_1 p).view.set = (Rect.unit (s := S128x1024) ![0, 0] S128x384.size inb_S128x1024_S128x384_0_0).set :=
  part2_congr (View.set_slice_whole _ _) (View.set_slice_whole _ _) rfl (rows_2_0 p)
theorem rowsSS_2_0 (p : Dev nD) : Disjoint (src_rs_2_0_0 p).view.set (src_rs_2_0_1 p).view.set ∧ (src_rs_2_0_0 p).view.set ∪ (src_rs_2_0_1 p).view.set = (Rect.unit (s := S128x1024) ![0, 0] S128x384.size inb_S128x1024_S128x384_0_0).set :=
  part2_congr (View.set_slice_whole _ _) (View.set_slice_whole _ _) rfl (rows_2_0 p)
theorem rowsSSc_2_0 (p : Dev nD) : Disjoint (src_rs_2_0_0 p).view.set (src_rs_2_0_1 p).view.set ∧ (src_rs_2_0_0 p).view.set ∪ (src_rs_2_0_1 p).view.set = ssCol_2_0 :=
  part2_congr (View.set_slice_whole _ _) (View.set_slice_whole _ _) ssCol_2_0_eq (rows_2_0 p)

/-- The two row pieces of column block 1, at any device's offsets, are disjoint and cover the block. -/
theorem rows_2_1 (p : Dev nD) :
    Disjoint (Rect.unit (s := S128x1024) (k0_off38 p) S64x384.size (k0_off38_inb p)).set (Rect.unit (s := S128x1024) (k0_off39 p) S64x384.size (k0_off39_inb p)).set ∧ (Rect.unit (s := S128x1024) (k0_off38 p) S64x384.size (k0_off38_inb p)).set ∪ (Rect.unit (s := S128x1024) (k0_off39 p) S64x384.size (k0_off39_inb p)).set = (Rect.unit (s := S128x1024) ![0, 384] S128x384.size inb_S128x1024_S128x384_0_384).set :=
  rows_part (by rw [off38_eq, off39_eq]; exact ⟨rfl, rfl, rfl, rfl⟩)
    (by obtain h | h := bit01 1 3 p <;> rw [off38_eq, off39_eq, h] <;> decide)
theorem rowsRS_2_1 (p : Dev nD) : Disjoint (dst_rs_2_1_0 p).view.set (dst_rs_2_1_1 p).view.set ∧ (dst_rs_2_1_0 p).view.set ∪ (dst_rs_2_1_1 p).view.set = (Rect.unit (s := S128x1024) ![0, 384] S128x384.size inb_S128x1024_S128x384_0_384).set :=
  part2_congr (View.set_slice_whole _ _) (View.set_slice_whole _ _) rfl (rows_2_1 p)
theorem rowsSS_2_1 (p : Dev nD) : Disjoint (src_rs_2_1_0 p).view.set (src_rs_2_1_1 p).view.set ∧ (src_rs_2_1_0 p).view.set ∪ (src_rs_2_1_1 p).view.set = (Rect.unit (s := S128x1024) ![0, 384] S128x384.size inb_S128x1024_S128x384_0_384).set :=
  part2_congr (View.set_slice_whole _ _) (View.set_slice_whole _ _) rfl (rows_2_1 p)
theorem rowsSSc_2_1 (p : Dev nD) : Disjoint (src_rs_2_1_0 p).view.set (src_rs_2_1_1 p).view.set ∧ (src_rs_2_1_0 p).view.set ∪ (src_rs_2_1_1 p).view.set = ssCol_2_1 :=
  part2_congr (View.set_slice_whole _ _) (View.set_slice_whole _ _) ssCol_2_1_eq (rows_2_1 p)

/-- The two row pieces of column block 2, at any device's offsets, are disjoint and cover the block. -/
theorem rows_2_2 (p : Dev nD) :
    Disjoint (Rect.unit (s := S128x1024) (k0_off42 p) S64x256.size (k0_off42_inb p)).set (Rect.unit (s := S128x1024) (k0_off43 p) S64x256.size (k0_off43_inb p)).set ∧ (Rect.unit (s := S128x1024) (k0_off42 p) S64x256.size (k0_off42_inb p)).set ∪ (Rect.unit (s := S128x1024) (k0_off43 p) S64x256.size (k0_off43_inb p)).set = (Rect.unit (s := S128x1024) ![0, 768] S128x256.size inb_S128x1024_S128x256_0_768).set :=
  rows_part (by rw [off42_eq, off43_eq]; exact ⟨rfl, rfl, rfl, rfl⟩)
    (by obtain h | h := bit01 2 3 p <;> rw [off42_eq, off43_eq, h] <;> decide)
theorem rowsRS_2_2 (p : Dev nD) : Disjoint (dst_rs_2_2_0 p).view.set (dst_rs_2_2_1 p).view.set ∧ (dst_rs_2_2_0 p).view.set ∪ (dst_rs_2_2_1 p).view.set = (Rect.unit (s := S128x1024) ![0, 768] S128x256.size inb_S128x1024_S128x256_0_768).set :=
  part2_congr (View.set_slice_whole _ _) (View.set_slice_whole _ _) rfl (rows_2_2 p)
theorem rowsSS_2_2 (p : Dev nD) : Disjoint (src_rs_2_2_0 p).view.set (src_rs_2_2_1 p).view.set ∧ (src_rs_2_2_0 p).view.set ∪ (src_rs_2_2_1 p).view.set = (Rect.unit (s := S128x1024) ![0, 768] S128x256.size inb_S128x1024_S128x256_0_768).set :=
  part2_congr (View.set_slice_whole _ _) (View.set_slice_whole _ _) rfl (rows_2_2 p)
theorem rowsSSc_2_2 (p : Dev nD) : Disjoint (src_rs_2_2_0 p).view.set (src_rs_2_2_1 p).view.set ∧ (src_rs_2_2_0 p).view.set ∪ (src_rs_2_2_1 p).view.set = ssCol_2_2 :=
  part2_congr (View.set_slice_whole _ _) (View.set_slice_whole _ _) ssCol_2_2_eq (rows_2_2 p)

/-- The stage's receive buffer, lent piece by piece at the partners' offsets. -/
theorem rs_split_2 (c : Dev nD) :
    (iprop(∃ f : Buf (Elt F) ((c : Thread nD τ).loc cc0_scratch3), ((c : Thread nD τ).loc cc0_scratch3) ↦{fullShare} f) : sProp 𝕄)
      ⊢ iprop(loanV c (dst_rs_2_0_0 (peer 0 2 c)) ∗ loanV c (dst_rs_2_0_1 (peer 0 2 c)) ∗ loanV c (dst_rs_2_1_0 (peer 1 2 c)) ∗ loanV c (dst_rs_2_1_1 (peer 1 2 c)) ∗ loanV c (dst_rs_2_2_0 (peer 2 2 c)) ∗ loanV c (dst_rs_2_2_1 (peer 2 2 c))) :=
  any_split6 (F := F) (ℓ := ((c : Thread nD τ).loc cc0_scratch3)) (q := fullShare) cols_2 (rowsRS_2_0 (peer 0 2 c)) (rowsRS_2_1 (peer 1 2 c)) (rowsRS_2_2 (peer 2 2 c))

theorem rs_join_2 (c : Dev nD) :
    (iprop(loanV c (dst_rs_2_0_0 (peer 0 2 c)) ∗ loanV c (dst_rs_2_0_1 (peer 0 2 c)) ∗ loanV c (dst_rs_2_1_0 (peer 1 2 c)) ∗ loanV c (dst_rs_2_1_1 (peer 1 2 c)) ∗ loanV c (dst_rs_2_2_0 (peer 2 2 c)) ∗ loanV c (dst_rs_2_2_1 (peer 2 2 c))) : sProp 𝕄)
      ⊢ iprop(∃ f : Buf (Elt F) ((c : Thread nD τ).loc cc0_scratch3), ((c : Thread nD τ).loc cc0_scratch3) ↦{fullShare} f) :=
  any_join6 (F := F) (ℓ := ((c : Thread nD τ).loc cc0_scratch3)) (q := fullShare) cols_2 (rowsRS_2_0 (peer 0 2 c)) (rowsRS_2_1 (peer 1 2 c)) (rowsRS_2_2 (peer 2 2 c))

/-- The stage's send buffer, piece by piece at the device's own offsets. -/
theorem ss_split_2 (c : Dev nD) :
    (iprop(∃ f : Buf (Elt F) ((c : Thread nD τ).loc cc0_scratch8), ((c : Thread nD τ).loc cc0_scratch8) ↦{fullShare} f) : sProp 𝕄)
      ⊢ iprop(loanV c (src_rs_2_0_0 c) ∗ loanV c (src_rs_2_0_1 c) ∗ loanV c (src_rs_2_1_0 c) ∗ loanV c (src_rs_2_1_1 c) ∗ loanV c (src_rs_2_2_0 c) ∗ loanV c (src_rs_2_2_1 c)) :=
  any_split6 (F := F) (ℓ := ((c : Thread nD τ).loc cc0_scratch8)) (q := fullShare) cols_2 (rowsSS_2_0 c) (rowsSS_2_1 c) (rowsSS_2_2 c)

theorem ss_join_2 (c : Dev nD) :
    (iprop(loanV c (src_rs_2_0_0 c) ∗ loanV c (src_rs_2_0_1 c) ∗ loanV c (src_rs_2_1_0 c) ∗ loanV c (src_rs_2_1_1 c) ∗ loanV c (src_rs_2_2_0 c) ∗ loanV c (src_rs_2_2_1 c)) : sProp 𝕄)
      ⊢ iprop(∃ f : Buf (Elt F) ((c : Thread nD τ).loc cc0_scratch8), ((c : Thread nD τ).loc cc0_scratch8) ↦{fullShare} f) :=
  any_join6 (F := F) (ℓ := ((c : Thread nD τ).loc cc0_scratch8)) (q := fullShare) cols_2 (rowsSS_2_0 c) (rowsSS_2_1 c) (rowsSS_2_2 c)

/-- The send buffer into the column blocks its stores go through, and back. -/
theorem ss_cols_2 (c : Dev nD) :
    (iprop(∃ f : Buf (Elt F) ((c : Thread nD τ).loc cc0_scratch8), ((c : Thread nD τ).loc cc0_scratch8) ↦{fullShare} f) : sProp 𝕄)
      ⊢ iprop((∃ f : Buf (Elt F) ((c : Thread nD τ).loc cc0_scratch8), ((c : Thread nD τ).loc cc0_scratch8) ↦[ssCol_2_0]{fullShare} f) ∗ (∃ f : Buf (Elt F) ((c : Thread nD τ).loc cc0_scratch8), ((c : Thread nD τ).loc cc0_scratch8) ↦[ssCol_2_1]{fullShare} f) ∗ (∃ f : Buf (Elt F) ((c : Thread nD τ).loc cc0_scratch8), ((c : Thread nD τ).loc cc0_scratch8) ↦[ssCol_2_2]{fullShare} f)) :=
  any_split3 (F := F) (ℓ := ((c : Thread nD τ).loc cc0_scratch8)) (q := fullShare) colsSS_2

theorem ss_cols_join_2 (c : Dev nD) :
    (iprop((∃ f : Buf (Elt F) ((c : Thread nD τ).loc cc0_scratch8), ((c : Thread nD τ).loc cc0_scratch8) ↦[ssCol_2_0]{fullShare} f) ∗ (∃ f : Buf (Elt F) ((c : Thread nD τ).loc cc0_scratch8), ((c : Thread nD τ).loc cc0_scratch8) ↦[ssCol_2_1]{fullShare} f) ∗ (∃ f : Buf (Elt F) ((c : Thread nD τ).loc cc0_scratch8), ((c : Thread nD τ).loc cc0_scratch8) ↦[ssCol_2_2]{fullShare} f)) : sProp 𝕄)
      ⊢ iprop(∃ f : Buf (Elt F) ((c : Thread nD τ).loc cc0_scratch8), ((c : Thread nD τ).loc cc0_scratch8) ↦{fullShare} f) :=
  any_join3 (F := F) (ℓ := ((c : Thread nD τ).loc cc0_scratch8)) (q := fullShare) colsSS_2

/-- The same at named contents and any share. -/
theorem ss_cols_at_2 (c : Dev nD) (q : PosShare TreeShare) (f : Buf (Elt F) ((c : Thread nD τ).loc cc0_scratch8)) :
    ((((c : Thread nD τ).loc cc0_scratch8) ↦{q} f) : sProp 𝕄)
      ⊣⊢ iprop((((c : Thread nD τ).loc cc0_scratch8) ↦[ssCol_2_0]{q} f) ∗ (((c : Thread nD τ).loc cc0_scratch8) ↦[ssCol_2_1]{q} f) ∗ (((c : Thread nD τ).loc cc0_scratch8) ↦[ssCol_2_2]{q} f)) :=
  at_cut3 (F := F) (ℓ := ((c : Thread nD τ).loc cc0_scratch8)) (q := q) colsSS_2 f

/-- Column block 0 of the send buffer into the two row pieces the device sends, and back. -/
theorem ss_rows_2_0 (c : Dev nD) :
    (iprop(∃ f : Buf (Elt F) ((c : Thread nD τ).loc cc0_scratch8), ((c : Thread nD τ).loc cc0_scratch8) ↦[ssCol_2_0]{fullShare} f) : sProp 𝕄)
      ⊢ iprop(loanV c (src_rs_2_0_0 c) ∗ loanV c (src_rs_2_0_1 c)) :=
  any_split2 (F := F) (ℓ := ((c : Thread nD τ).loc cc0_scratch8)) (q := fullShare) (rowsSSc_2_0 c)

theorem ss_rows_join_2_0 (c : Dev nD) :
    (iprop(loanV c (src_rs_2_0_0 c) ∗ loanV c (src_rs_2_0_1 c)) : sProp 𝕄)
      ⊢ iprop(∃ f : Buf (Elt F) ((c : Thread nD τ).loc cc0_scratch8), ((c : Thread nD τ).loc cc0_scratch8) ↦[ssCol_2_0]{fullShare} f) :=
  any_join2 (F := F) (ℓ := ((c : Thread nD τ).loc cc0_scratch8)) (q := fullShare) (rowsSSc_2_0 c)

theorem ss_rows_at_2_0 (c : Dev nD) (q : PosShare TreeShare) (f : Buf (Elt F) ((c : Thread nD τ).loc cc0_scratch8)) :
    ((((c : Thread nD τ).loc cc0_scratch8) ↦[ssCol_2_0]{q} f) : sProp 𝕄)
      ⊣⊢ iprop((((c : Thread nD τ).loc cc0_scratch8) ↦[(src_rs_2_0_0 c).view.set]{q} f) ∗ (((c : Thread nD τ).loc cc0_scratch8) ↦[(src_rs_2_0_1 c).view.set]{q} f)) :=
  at_cut2 (F := F) (ℓ := ((c : Thread nD τ).loc cc0_scratch8)) (q := q) (rowsSSc_2_0 c) f

/-- Column block 1 of the send buffer into the two row pieces the device sends, and back. -/
theorem ss_rows_2_1 (c : Dev nD) :
    (iprop(∃ f : Buf (Elt F) ((c : Thread nD τ).loc cc0_scratch8), ((c : Thread nD τ).loc cc0_scratch8) ↦[ssCol_2_1]{fullShare} f) : sProp 𝕄)
      ⊢ iprop(loanV c (src_rs_2_1_0 c) ∗ loanV c (src_rs_2_1_1 c)) :=
  any_split2 (F := F) (ℓ := ((c : Thread nD τ).loc cc0_scratch8)) (q := fullShare) (rowsSSc_2_1 c)

theorem ss_rows_join_2_1 (c : Dev nD) :
    (iprop(loanV c (src_rs_2_1_0 c) ∗ loanV c (src_rs_2_1_1 c)) : sProp 𝕄)
      ⊢ iprop(∃ f : Buf (Elt F) ((c : Thread nD τ).loc cc0_scratch8), ((c : Thread nD τ).loc cc0_scratch8) ↦[ssCol_2_1]{fullShare} f) :=
  any_join2 (F := F) (ℓ := ((c : Thread nD τ).loc cc0_scratch8)) (q := fullShare) (rowsSSc_2_1 c)

theorem ss_rows_at_2_1 (c : Dev nD) (q : PosShare TreeShare) (f : Buf (Elt F) ((c : Thread nD τ).loc cc0_scratch8)) :
    ((((c : Thread nD τ).loc cc0_scratch8) ↦[ssCol_2_1]{q} f) : sProp 𝕄)
      ⊣⊢ iprop((((c : Thread nD τ).loc cc0_scratch8) ↦[(src_rs_2_1_0 c).view.set]{q} f) ∗ (((c : Thread nD τ).loc cc0_scratch8) ↦[(src_rs_2_1_1 c).view.set]{q} f)) :=
  at_cut2 (F := F) (ℓ := ((c : Thread nD τ).loc cc0_scratch8)) (q := q) (rowsSSc_2_1 c) f

/-- Column block 2 of the send buffer into the two row pieces the device sends, and back. -/
theorem ss_rows_2_2 (c : Dev nD) :
    (iprop(∃ f : Buf (Elt F) ((c : Thread nD τ).loc cc0_scratch8), ((c : Thread nD τ).loc cc0_scratch8) ↦[ssCol_2_2]{fullShare} f) : sProp 𝕄)
      ⊢ iprop(loanV c (src_rs_2_2_0 c) ∗ loanV c (src_rs_2_2_1 c)) :=
  any_split2 (F := F) (ℓ := ((c : Thread nD τ).loc cc0_scratch8)) (q := fullShare) (rowsSSc_2_2 c)

theorem ss_rows_join_2_2 (c : Dev nD) :
    (iprop(loanV c (src_rs_2_2_0 c) ∗ loanV c (src_rs_2_2_1 c)) : sProp 𝕄)
      ⊢ iprop(∃ f : Buf (Elt F) ((c : Thread nD τ).loc cc0_scratch8), ((c : Thread nD τ).loc cc0_scratch8) ↦[ssCol_2_2]{fullShare} f) :=
  any_join2 (F := F) (ℓ := ((c : Thread nD τ).loc cc0_scratch8)) (q := fullShare) (rowsSSc_2_2 c)

theorem ss_rows_at_2_2 (c : Dev nD) (q : PosShare TreeShare) (f : Buf (Elt F) ((c : Thread nD τ).loc cc0_scratch8)) :
    ((((c : Thread nD τ).loc cc0_scratch8) ↦[ssCol_2_2]{q} f) : sProp 𝕄)
      ⊣⊢ iprop((((c : Thread nD τ).loc cc0_scratch8) ↦[(src_rs_2_2_0 c).view.set]{q} f) ∗ (((c : Thread nD τ).loc cc0_scratch8) ↦[(src_rs_2_2_1 c).view.set]{q} f)) :=
  at_cut2 (F := F) (ℓ := ((c : Thread nD τ).loc cc0_scratch8)) (q := q) (rowsSSc_2_2 c) f

/-! ### Stage 2: the partner's offsets are the device's own, and the loads from the receive buffer read the pieces -/

theorem off34_peer : ∀ c : Dev nD, k0_off34 (peer 0 2 c) = k0_off34 c := by decide +kernel
theorem dst_rs_2_0_0_peer (c : Dev nD) : dst_rs_2_0_0 (peer 0 2 c) = dst_rs_2_0_0 c := by
  have h := off34_peer c
  unfold dst_rs_2_0_0
  congr 2
theorem off51_eq_off34 : ∀ c : Dev nD, k0_off51 c = k0_off34 c := by decide +kernel
theorem rsLoad_2_0_0 (c : Dev nD) :
    ((Memref.whole cc0_scratch3 : Memref sig .tc .vmem S128x1024 .bf16).access (Rect.unit (s := S128x1024) (k0_off51 c) S64x384.size (k0_off51_inb c))).set
      = (dst_rs_2_0_0 (peer 0 2 c)).view.set := by
  have h : k0_off51 c = k0_off34 (peer 0 2 c) := (off51_eq_off34 c).trans (off34_peer c).symm
  refine (View.set_slice_whole _ _).trans (Eq.trans ?_ (View.set_slice_whole _ _).symm)
  congr 3

theorem off35_peer : ∀ c : Dev nD, k0_off35 (peer 0 2 c) = k0_off35 c := by decide +kernel
theorem dst_rs_2_0_1_peer (c : Dev nD) : dst_rs_2_0_1 (peer 0 2 c) = dst_rs_2_0_1 c := by
  have h := off35_peer c
  unfold dst_rs_2_0_1
  congr 2
theorem off63_eq_off35 : ∀ c : Dev nD, k0_off63 c = k0_off35 c := by decide +kernel
theorem rsLoad_2_0_1 (c : Dev nD) :
    ((Memref.whole cc0_scratch3 : Memref sig .tc .vmem S128x1024 .bf16).access (Rect.unit (s := S128x1024) (k0_off63 c) S64x384.size (k0_off63_inb c))).set
      = (dst_rs_2_0_1 (peer 0 2 c)).view.set := by
  have h : k0_off63 c = k0_off35 (peer 0 2 c) := (off63_eq_off35 c).trans (off35_peer c).symm
  refine (View.set_slice_whole _ _).trans (Eq.trans ?_ (View.set_slice_whole _ _).symm)
  congr 3

theorem off38_peer : ∀ c : Dev nD, k0_off38 (peer 1 2 c) = k0_off38 c := by decide +kernel
theorem dst_rs_2_1_0_peer (c : Dev nD) : dst_rs_2_1_0 (peer 1 2 c) = dst_rs_2_1_0 c := by
  have h := off38_peer c
  unfold dst_rs_2_1_0
  congr 2
theorem off55_eq_off38 : ∀ c : Dev nD, k0_off55 c = k0_off38 c := by decide +kernel
theorem rsLoad_2_1_0 (c : Dev nD) :
    ((Memref.whole cc0_scratch3 : Memref sig .tc .vmem S128x1024 .bf16).access (Rect.unit (s := S128x1024) (k0_off55 c) S64x384.size (k0_off55_inb c))).set
      = (dst_rs_2_1_0 (peer 1 2 c)).view.set := by
  have h : k0_off55 c = k0_off38 (peer 1 2 c) := (off55_eq_off38 c).trans (off38_peer c).symm
  refine (View.set_slice_whole _ _).trans (Eq.trans ?_ (View.set_slice_whole _ _).symm)
  congr 3

theorem off39_peer : ∀ c : Dev nD, k0_off39 (peer 1 2 c) = k0_off39 c := by decide +kernel
theorem dst_rs_2_1_1_peer (c : Dev nD) : dst_rs_2_1_1 (peer 1 2 c) = dst_rs_2_1_1 c := by
  have h := off39_peer c
  unfold dst_rs_2_1_1
  congr 2
theorem off65_eq_off39 : ∀ c : Dev nD, k0_off65 c = k0_off39 c := by decide +kernel
theorem rsLoad_2_1_1 (c : Dev nD) :
    ((Memref.whole cc0_scratch3 : Memref sig .tc .vmem S128x1024 .bf16).access (Rect.unit (s := S128x1024) (k0_off65 c) S64x384.size (k0_off65_inb c))).set
      = (dst_rs_2_1_1 (peer 1 2 c)).view.set := by
  have h : k0_off65 c = k0_off39 (peer 1 2 c) := (off65_eq_off39 c).trans (off39_peer c).symm
  refine (View.set_slice_whole _ _).trans (Eq.trans ?_ (View.set_slice_whole _ _).symm)
  congr 3

theorem off42_peer : ∀ c : Dev nD, k0_off42 (peer 2 2 c) = k0_off42 c := by decide +kernel
theorem dst_rs_2_2_0_peer (c : Dev nD) : dst_rs_2_2_0 (peer 2 2 c) = dst_rs_2_2_0 c := by
  have h := off42_peer c
  unfold dst_rs_2_2_0
  congr 2
theorem off59_eq_off42 : ∀ c : Dev nD, k0_off59 c = k0_off42 c := by decide +kernel
theorem rsLoad_2_2_0 (c : Dev nD) :
    ((Memref.whole cc0_scratch3 : Memref sig .tc .vmem S128x1024 .bf16).access (Rect.unit (s := S128x1024) (k0_off59 c) S64x256.size (k0_off59_inb c))).set
      = (dst_rs_2_2_0 (peer 2 2 c)).view.set := by
  have h : k0_off59 c = k0_off42 (peer 2 2 c) := (off59_eq_off42 c).trans (off42_peer c).symm
  refine (View.set_slice_whole _ _).trans (Eq.trans ?_ (View.set_slice_whole _ _).symm)
  congr 3

theorem off43_peer : ∀ c : Dev nD, k0_off43 (peer 2 2 c) = k0_off43 c := by decide +kernel
theorem dst_rs_2_2_1_peer (c : Dev nD) : dst_rs_2_2_1 (peer 2 2 c) = dst_rs_2_2_1 c := by
  have h := off43_peer c
  unfold dst_rs_2_2_1
  congr 2
theorem off67_eq_off43 : ∀ c : Dev nD, k0_off67 c = k0_off43 c := by decide +kernel
theorem rsLoad_2_2_1 (c : Dev nD) :
    ((Memref.whole cc0_scratch3 : Memref sig .tc .vmem S128x1024 .bf16).access (Rect.unit (s := S128x1024) (k0_off67 c) S64x256.size (k0_off67_inb c))).set
      = (dst_rs_2_2_1 (peer 2 2 c)).view.set := by
  have h : k0_off67 c = k0_off43 (peer 2 2 c) := (off67_eq_off43 c).trans (off43_peer c).symm
  refine (View.set_slice_whole _ _).trans (Eq.trans ?_ (View.set_slice_whole _ _).symm)
  congr 3

/-! ## Stage 3: buffers of 64 rows -/

/-- The three column blocks are pairwise disjoint and cover the buffer. -/
theorem cols_3 :
    (Disjoint (Rect.unit (s := S64x1024) ![0, 0] S64x384.size inb_S64x1024_S64x384_0_0).set (Rect.unit (s := S64x1024) ![0, 384] S64x384.size inb_S64x1024_S64x384_0_384).set ∧ Disjoint (Rect.unit (s := S64x1024) ![0, 0] S64x384.size inb_S64x1024_S64x384_0_0).set (Rect.unit (s := S64x1024) ![0, 768] S64x256.size inb_S64x1024_S64x256_0_768).set ∧ Disjoint (Rect.unit (s := S64x1024) ![0, 384] S64x384.size inb_S64x1024_S64x384_0_384).set (Rect.unit (s := S64x1024) ![0, 768] S64x256.size inb_S64x1024_S64x256_0_768).set) ∧ (Rect.unit (s := S64x1024) ![0, 0] S64x384.size inb_S64x1024_S64x384_0_0).set ∪ ((Rect.unit (s := S64x1024) ![0, 384] S64x384.size inb_S64x1024_S64x384_0_384).set ∪ (Rect.unit (s := S64x1024) ![0, 768] S64x256.size inb_S64x1024_S64x256_0_768).set) = Finset.univ :=
  cols_part (by decide) (by decide)

/-- Column block 0 of the stage's send buffer: the positions its store goes through. -/
abbrev ssCol_3_0 : Finset S64x1024.Idx := ((Memref.whole cc0_scratch9 : Memref sig .tc .vmem S64x1024 .bf16).access (Rect.unit (s := S64x1024) ![0, 0] S64x384.size inb_S64x1024_S64x384_0_0)).set
theorem ssCol_3_0_eq : ssCol_3_0 = (Rect.unit (s := S64x1024) ![0, 0] S64x384.size inb_S64x1024_S64x384_0_0).set := View.set_slice_whole _ _

/-- Column block 1 of the stage's send buffer: the positions its store goes through. -/
abbrev ssCol_3_1 : Finset S64x1024.Idx := ((Memref.whole cc0_scratch9 : Memref sig .tc .vmem S64x1024 .bf16).access (Rect.unit (s := S64x1024) ![0, 384] S64x384.size inb_S64x1024_S64x384_0_384)).set
theorem ssCol_3_1_eq : ssCol_3_1 = (Rect.unit (s := S64x1024) ![0, 384] S64x384.size inb_S64x1024_S64x384_0_384).set := View.set_slice_whole _ _

/-- Column block 2 of the stage's send buffer: the positions its store goes through. -/
abbrev ssCol_3_2 : Finset S64x1024.Idx := ((Memref.whole cc0_scratch9 : Memref sig .tc .vmem S64x1024 .bf16).access (Rect.unit (s := S64x1024) ![0, 768] S64x256.size inb_S64x1024_S64x256_0_768)).set
theorem ssCol_3_2_eq : ssCol_3_2 = (Rect.unit (s := S64x1024) ![0, 768] S64x256.size inb_S64x1024_S64x256_0_768).set := View.set_slice_whole _ _

theorem colsSS_3 : (Disjoint ssCol_3_0 ssCol_3_1 ∧ Disjoint ssCol_3_0 ssCol_3_2 ∧ Disjoint ssCol_3_1 ssCol_3_2) ∧ ssCol_3_0 ∪ (ssCol_3_1 ∪ ssCol_3_2) = Finset.univ :=
  part3_congr ssCol_3_0_eq ssCol_3_1_eq ssCol_3_2_eq rfl cols_3

/-- The two row pieces of column block 0, at any device's offsets, are disjoint and cover the block. -/
theorem rows_3_0 (p : Dev nD) :
    Disjoint (Rect.unit (s := S64x1024) (k0_off52 p) S32x384.size (k0_off52_inb p)).set (Rect.unit (s := S64x1024) (k0_off53 p) S32x384.size (k0_off53_inb p)).set ∧ (Rect.unit (s := S64x1024) (k0_off52 p) S32x384.size (k0_off52_inb p)).set ∪ (Rect.unit (s := S64x1024) (k0_off53 p) S32x384.size (k0_off53_inb p)).set = (Rect.unit (s := S64x1024) ![0, 0] S64x384.size inb_S64x1024_S64x384_0_0).set :=
  rows_part (by rw [off52_eq, off53_eq]; exact ⟨rfl, rfl, rfl, rfl⟩)
    (by obtain h | h := bit01 0 4 p <;> rw [off52_eq, off53_eq, h] <;> decide)
theorem rowsRS_3_0 (p : Dev nD) : Disjoint (dst_rs_3_0_0 p).view.set (dst_rs_3_0_1 p).view.set ∧ (dst_rs_3_0_0 p).view.set ∪ (dst_rs_3_0_1 p).view.set = (Rect.unit (s := S64x1024) ![0, 0] S64x384.size inb_S64x1024_S64x384_0_0).set :=
  part2_congr (View.set_slice_whole _ _) (View.set_slice_whole _ _) rfl (rows_3_0 p)
theorem rowsSS_3_0 (p : Dev nD) : Disjoint (src_rs_3_0_0 p).view.set (src_rs_3_0_1 p).view.set ∧ (src_rs_3_0_0 p).view.set ∪ (src_rs_3_0_1 p).view.set = (Rect.unit (s := S64x1024) ![0, 0] S64x384.size inb_S64x1024_S64x384_0_0).set :=
  part2_congr (View.set_slice_whole _ _) (View.set_slice_whole _ _) rfl (rows_3_0 p)
theorem rowsSSc_3_0 (p : Dev nD) : Disjoint (src_rs_3_0_0 p).view.set (src_rs_3_0_1 p).view.set ∧ (src_rs_3_0_0 p).view.set ∪ (src_rs_3_0_1 p).view.set = ssCol_3_0 :=
  part2_congr (View.set_slice_whole _ _) (View.set_slice_whole _ _) ssCol_3_0_eq (rows_3_0 p)

/-- The two row pieces of column block 1, at any device's offsets, are disjoint and cover the block. -/
theorem rows_3_1 (p : Dev nD) :
    Disjoint (Rect.unit (s := S64x1024) (k0_off56 p) S32x384.size (k0_off56_inb p)).set (Rect.unit (s := S64x1024) (k0_off57 p) S32x384.size (k0_off57_inb p)).set ∧ (Rect.unit (s := S64x1024) (k0_off56 p) S32x384.size (k0_off56_inb p)).set ∪ (Rect.unit (s := S64x1024) (k0_off57 p) S32x384.size (k0_off57_inb p)).set = (Rect.unit (s := S64x1024) ![0, 384] S64x384.size inb_S64x1024_S64x384_0_384).set :=
  rows_part (by rw [off56_eq, off57_eq]; exact ⟨rfl, rfl, rfl, rfl⟩)
    (by obtain h | h := bit01 1 4 p <;> rw [off56_eq, off57_eq, h] <;> decide)
theorem rowsRS_3_1 (p : Dev nD) : Disjoint (dst_rs_3_1_0 p).view.set (dst_rs_3_1_1 p).view.set ∧ (dst_rs_3_1_0 p).view.set ∪ (dst_rs_3_1_1 p).view.set = (Rect.unit (s := S64x1024) ![0, 384] S64x384.size inb_S64x1024_S64x384_0_384).set :=
  part2_congr (View.set_slice_whole _ _) (View.set_slice_whole _ _) rfl (rows_3_1 p)
theorem rowsSS_3_1 (p : Dev nD) : Disjoint (src_rs_3_1_0 p).view.set (src_rs_3_1_1 p).view.set ∧ (src_rs_3_1_0 p).view.set ∪ (src_rs_3_1_1 p).view.set = (Rect.unit (s := S64x1024) ![0, 384] S64x384.size inb_S64x1024_S64x384_0_384).set :=
  part2_congr (View.set_slice_whole _ _) (View.set_slice_whole _ _) rfl (rows_3_1 p)
theorem rowsSSc_3_1 (p : Dev nD) : Disjoint (src_rs_3_1_0 p).view.set (src_rs_3_1_1 p).view.set ∧ (src_rs_3_1_0 p).view.set ∪ (src_rs_3_1_1 p).view.set = ssCol_3_1 :=
  part2_congr (View.set_slice_whole _ _) (View.set_slice_whole _ _) ssCol_3_1_eq (rows_3_1 p)

/-- The two row pieces of column block 2, at any device's offsets, are disjoint and cover the block. -/
theorem rows_3_2 (p : Dev nD) :
    Disjoint (Rect.unit (s := S64x1024) (k0_off60 p) S32x256.size (k0_off60_inb p)).set (Rect.unit (s := S64x1024) (k0_off61 p) S32x256.size (k0_off61_inb p)).set ∧ (Rect.unit (s := S64x1024) (k0_off60 p) S32x256.size (k0_off60_inb p)).set ∪ (Rect.unit (s := S64x1024) (k0_off61 p) S32x256.size (k0_off61_inb p)).set = (Rect.unit (s := S64x1024) ![0, 768] S64x256.size inb_S64x1024_S64x256_0_768).set :=
  rows_part (by rw [off60_eq, off61_eq]; exact ⟨rfl, rfl, rfl, rfl⟩)
    (by obtain h | h := bit01 2 4 p <;> rw [off60_eq, off61_eq, h] <;> decide)
theorem rowsRS_3_2 (p : Dev nD) : Disjoint (dst_rs_3_2_0 p).view.set (dst_rs_3_2_1 p).view.set ∧ (dst_rs_3_2_0 p).view.set ∪ (dst_rs_3_2_1 p).view.set = (Rect.unit (s := S64x1024) ![0, 768] S64x256.size inb_S64x1024_S64x256_0_768).set :=
  part2_congr (View.set_slice_whole _ _) (View.set_slice_whole _ _) rfl (rows_3_2 p)
theorem rowsSS_3_2 (p : Dev nD) : Disjoint (src_rs_3_2_0 p).view.set (src_rs_3_2_1 p).view.set ∧ (src_rs_3_2_0 p).view.set ∪ (src_rs_3_2_1 p).view.set = (Rect.unit (s := S64x1024) ![0, 768] S64x256.size inb_S64x1024_S64x256_0_768).set :=
  part2_congr (View.set_slice_whole _ _) (View.set_slice_whole _ _) rfl (rows_3_2 p)
theorem rowsSSc_3_2 (p : Dev nD) : Disjoint (src_rs_3_2_0 p).view.set (src_rs_3_2_1 p).view.set ∧ (src_rs_3_2_0 p).view.set ∪ (src_rs_3_2_1 p).view.set = ssCol_3_2 :=
  part2_congr (View.set_slice_whole _ _) (View.set_slice_whole _ _) ssCol_3_2_eq (rows_3_2 p)

/-- The stage's receive buffer, lent piece by piece at the partners' offsets. -/
theorem rs_split_3 (c : Dev nD) :
    (iprop(∃ f : Buf (Elt F) ((c : Thread nD τ).loc cc0_scratch4), ((c : Thread nD τ).loc cc0_scratch4) ↦{fullShare} f) : sProp 𝕄)
      ⊢ iprop(loanV c (dst_rs_3_0_0 (peer 0 3 c)) ∗ loanV c (dst_rs_3_0_1 (peer 0 3 c)) ∗ loanV c (dst_rs_3_1_0 (peer 1 3 c)) ∗ loanV c (dst_rs_3_1_1 (peer 1 3 c)) ∗ loanV c (dst_rs_3_2_0 (peer 2 3 c)) ∗ loanV c (dst_rs_3_2_1 (peer 2 3 c))) :=
  any_split6 (F := F) (ℓ := ((c : Thread nD τ).loc cc0_scratch4)) (q := fullShare) cols_3 (rowsRS_3_0 (peer 0 3 c)) (rowsRS_3_1 (peer 1 3 c)) (rowsRS_3_2 (peer 2 3 c))

theorem rs_join_3 (c : Dev nD) :
    (iprop(loanV c (dst_rs_3_0_0 (peer 0 3 c)) ∗ loanV c (dst_rs_3_0_1 (peer 0 3 c)) ∗ loanV c (dst_rs_3_1_0 (peer 1 3 c)) ∗ loanV c (dst_rs_3_1_1 (peer 1 3 c)) ∗ loanV c (dst_rs_3_2_0 (peer 2 3 c)) ∗ loanV c (dst_rs_3_2_1 (peer 2 3 c))) : sProp 𝕄)
      ⊢ iprop(∃ f : Buf (Elt F) ((c : Thread nD τ).loc cc0_scratch4), ((c : Thread nD τ).loc cc0_scratch4) ↦{fullShare} f) :=
  any_join6 (F := F) (ℓ := ((c : Thread nD τ).loc cc0_scratch4)) (q := fullShare) cols_3 (rowsRS_3_0 (peer 0 3 c)) (rowsRS_3_1 (peer 1 3 c)) (rowsRS_3_2 (peer 2 3 c))

/-- The stage's send buffer, piece by piece at the device's own offsets. -/
theorem ss_split_3 (c : Dev nD) :
    (iprop(∃ f : Buf (Elt F) ((c : Thread nD τ).loc cc0_scratch9), ((c : Thread nD τ).loc cc0_scratch9) ↦{fullShare} f) : sProp 𝕄)
      ⊢ iprop(loanV c (src_rs_3_0_0 c) ∗ loanV c (src_rs_3_0_1 c) ∗ loanV c (src_rs_3_1_0 c) ∗ loanV c (src_rs_3_1_1 c) ∗ loanV c (src_rs_3_2_0 c) ∗ loanV c (src_rs_3_2_1 c)) :=
  any_split6 (F := F) (ℓ := ((c : Thread nD τ).loc cc0_scratch9)) (q := fullShare) cols_3 (rowsSS_3_0 c) (rowsSS_3_1 c) (rowsSS_3_2 c)

theorem ss_join_3 (c : Dev nD) :
    (iprop(loanV c (src_rs_3_0_0 c) ∗ loanV c (src_rs_3_0_1 c) ∗ loanV c (src_rs_3_1_0 c) ∗ loanV c (src_rs_3_1_1 c) ∗ loanV c (src_rs_3_2_0 c) ∗ loanV c (src_rs_3_2_1 c)) : sProp 𝕄)
      ⊢ iprop(∃ f : Buf (Elt F) ((c : Thread nD τ).loc cc0_scratch9), ((c : Thread nD τ).loc cc0_scratch9) ↦{fullShare} f) :=
  any_join6 (F := F) (ℓ := ((c : Thread nD τ).loc cc0_scratch9)) (q := fullShare) cols_3 (rowsSS_3_0 c) (rowsSS_3_1 c) (rowsSS_3_2 c)

/-- The send buffer into the column blocks its stores go through, and back. -/
theorem ss_cols_3 (c : Dev nD) :
    (iprop(∃ f : Buf (Elt F) ((c : Thread nD τ).loc cc0_scratch9), ((c : Thread nD τ).loc cc0_scratch9) ↦{fullShare} f) : sProp 𝕄)
      ⊢ iprop((∃ f : Buf (Elt F) ((c : Thread nD τ).loc cc0_scratch9), ((c : Thread nD τ).loc cc0_scratch9) ↦[ssCol_3_0]{fullShare} f) ∗ (∃ f : Buf (Elt F) ((c : Thread nD τ).loc cc0_scratch9), ((c : Thread nD τ).loc cc0_scratch9) ↦[ssCol_3_1]{fullShare} f) ∗ (∃ f : Buf (Elt F) ((c : Thread nD τ).loc cc0_scratch9), ((c : Thread nD τ).loc cc0_scratch9) ↦[ssCol_3_2]{fullShare} f)) :=
  any_split3 (F := F) (ℓ := ((c : Thread nD τ).loc cc0_scratch9)) (q := fullShare) colsSS_3

theorem ss_cols_join_3 (c : Dev nD) :
    (iprop((∃ f : Buf (Elt F) ((c : Thread nD τ).loc cc0_scratch9), ((c : Thread nD τ).loc cc0_scratch9) ↦[ssCol_3_0]{fullShare} f) ∗ (∃ f : Buf (Elt F) ((c : Thread nD τ).loc cc0_scratch9), ((c : Thread nD τ).loc cc0_scratch9) ↦[ssCol_3_1]{fullShare} f) ∗ (∃ f : Buf (Elt F) ((c : Thread nD τ).loc cc0_scratch9), ((c : Thread nD τ).loc cc0_scratch9) ↦[ssCol_3_2]{fullShare} f)) : sProp 𝕄)
      ⊢ iprop(∃ f : Buf (Elt F) ((c : Thread nD τ).loc cc0_scratch9), ((c : Thread nD τ).loc cc0_scratch9) ↦{fullShare} f) :=
  any_join3 (F := F) (ℓ := ((c : Thread nD τ).loc cc0_scratch9)) (q := fullShare) colsSS_3

/-- The same at named contents and any share. -/
theorem ss_cols_at_3 (c : Dev nD) (q : PosShare TreeShare) (f : Buf (Elt F) ((c : Thread nD τ).loc cc0_scratch9)) :
    ((((c : Thread nD τ).loc cc0_scratch9) ↦{q} f) : sProp 𝕄)
      ⊣⊢ iprop((((c : Thread nD τ).loc cc0_scratch9) ↦[ssCol_3_0]{q} f) ∗ (((c : Thread nD τ).loc cc0_scratch9) ↦[ssCol_3_1]{q} f) ∗ (((c : Thread nD τ).loc cc0_scratch9) ↦[ssCol_3_2]{q} f)) :=
  at_cut3 (F := F) (ℓ := ((c : Thread nD τ).loc cc0_scratch9)) (q := q) colsSS_3 f

/-- Column block 0 of the send buffer into the two row pieces the device sends, and back. -/
theorem ss_rows_3_0 (c : Dev nD) :
    (iprop(∃ f : Buf (Elt F) ((c : Thread nD τ).loc cc0_scratch9), ((c : Thread nD τ).loc cc0_scratch9) ↦[ssCol_3_0]{fullShare} f) : sProp 𝕄)
      ⊢ iprop(loanV c (src_rs_3_0_0 c) ∗ loanV c (src_rs_3_0_1 c)) :=
  any_split2 (F := F) (ℓ := ((c : Thread nD τ).loc cc0_scratch9)) (q := fullShare) (rowsSSc_3_0 c)

theorem ss_rows_join_3_0 (c : Dev nD) :
    (iprop(loanV c (src_rs_3_0_0 c) ∗ loanV c (src_rs_3_0_1 c)) : sProp 𝕄)
      ⊢ iprop(∃ f : Buf (Elt F) ((c : Thread nD τ).loc cc0_scratch9), ((c : Thread nD τ).loc cc0_scratch9) ↦[ssCol_3_0]{fullShare} f) :=
  any_join2 (F := F) (ℓ := ((c : Thread nD τ).loc cc0_scratch9)) (q := fullShare) (rowsSSc_3_0 c)

theorem ss_rows_at_3_0 (c : Dev nD) (q : PosShare TreeShare) (f : Buf (Elt F) ((c : Thread nD τ).loc cc0_scratch9)) :
    ((((c : Thread nD τ).loc cc0_scratch9) ↦[ssCol_3_0]{q} f) : sProp 𝕄)
      ⊣⊢ iprop((((c : Thread nD τ).loc cc0_scratch9) ↦[(src_rs_3_0_0 c).view.set]{q} f) ∗ (((c : Thread nD τ).loc cc0_scratch9) ↦[(src_rs_3_0_1 c).view.set]{q} f)) :=
  at_cut2 (F := F) (ℓ := ((c : Thread nD τ).loc cc0_scratch9)) (q := q) (rowsSSc_3_0 c) f

/-- Column block 1 of the send buffer into the two row pieces the device sends, and back. -/
theorem ss_rows_3_1 (c : Dev nD) :
    (iprop(∃ f : Buf (Elt F) ((c : Thread nD τ).loc cc0_scratch9), ((c : Thread nD τ).loc cc0_scratch9) ↦[ssCol_3_1]{fullShare} f) : sProp 𝕄)
      ⊢ iprop(loanV c (src_rs_3_1_0 c) ∗ loanV c (src_rs_3_1_1 c)) :=
  any_split2 (F := F) (ℓ := ((c : Thread nD τ).loc cc0_scratch9)) (q := fullShare) (rowsSSc_3_1 c)

theorem ss_rows_join_3_1 (c : Dev nD) :
    (iprop(loanV c (src_rs_3_1_0 c) ∗ loanV c (src_rs_3_1_1 c)) : sProp 𝕄)
      ⊢ iprop(∃ f : Buf (Elt F) ((c : Thread nD τ).loc cc0_scratch9), ((c : Thread nD τ).loc cc0_scratch9) ↦[ssCol_3_1]{fullShare} f) :=
  any_join2 (F := F) (ℓ := ((c : Thread nD τ).loc cc0_scratch9)) (q := fullShare) (rowsSSc_3_1 c)

theorem ss_rows_at_3_1 (c : Dev nD) (q : PosShare TreeShare) (f : Buf (Elt F) ((c : Thread nD τ).loc cc0_scratch9)) :
    ((((c : Thread nD τ).loc cc0_scratch9) ↦[ssCol_3_1]{q} f) : sProp 𝕄)
      ⊣⊢ iprop((((c : Thread nD τ).loc cc0_scratch9) ↦[(src_rs_3_1_0 c).view.set]{q} f) ∗ (((c : Thread nD τ).loc cc0_scratch9) ↦[(src_rs_3_1_1 c).view.set]{q} f)) :=
  at_cut2 (F := F) (ℓ := ((c : Thread nD τ).loc cc0_scratch9)) (q := q) (rowsSSc_3_1 c) f

/-- Column block 2 of the send buffer into the two row pieces the device sends, and back. -/
theorem ss_rows_3_2 (c : Dev nD) :
    (iprop(∃ f : Buf (Elt F) ((c : Thread nD τ).loc cc0_scratch9), ((c : Thread nD τ).loc cc0_scratch9) ↦[ssCol_3_2]{fullShare} f) : sProp 𝕄)
      ⊢ iprop(loanV c (src_rs_3_2_0 c) ∗ loanV c (src_rs_3_2_1 c)) :=
  any_split2 (F := F) (ℓ := ((c : Thread nD τ).loc cc0_scratch9)) (q := fullShare) (rowsSSc_3_2 c)

theorem ss_rows_join_3_2 (c : Dev nD) :
    (iprop(loanV c (src_rs_3_2_0 c) ∗ loanV c (src_rs_3_2_1 c)) : sProp 𝕄)
      ⊢ iprop(∃ f : Buf (Elt F) ((c : Thread nD τ).loc cc0_scratch9), ((c : Thread nD τ).loc cc0_scratch9) ↦[ssCol_3_2]{fullShare} f) :=
  any_join2 (F := F) (ℓ := ((c : Thread nD τ).loc cc0_scratch9)) (q := fullShare) (rowsSSc_3_2 c)

theorem ss_rows_at_3_2 (c : Dev nD) (q : PosShare TreeShare) (f : Buf (Elt F) ((c : Thread nD τ).loc cc0_scratch9)) :
    ((((c : Thread nD τ).loc cc0_scratch9) ↦[ssCol_3_2]{q} f) : sProp 𝕄)
      ⊣⊢ iprop((((c : Thread nD τ).loc cc0_scratch9) ↦[(src_rs_3_2_0 c).view.set]{q} f) ∗ (((c : Thread nD τ).loc cc0_scratch9) ↦[(src_rs_3_2_1 c).view.set]{q} f)) :=
  at_cut2 (F := F) (ℓ := ((c : Thread nD τ).loc cc0_scratch9)) (q := q) (rowsSSc_3_2 c) f

/-! ### Stage 3: the partner's offsets are the device's own, and the loads from the receive buffer read the pieces -/

theorem off52_peer : ∀ c : Dev nD, k0_off52 (peer 0 3 c) = k0_off52 c := by decide +kernel
theorem dst_rs_3_0_0_peer (c : Dev nD) : dst_rs_3_0_0 (peer 0 3 c) = dst_rs_3_0_0 c := by
  have h := off52_peer c
  unfold dst_rs_3_0_0
  congr 2
theorem off69_eq_off52 : ∀ c : Dev nD, k0_off69 c = k0_off52 c := by decide +kernel
theorem rsLoad_3_0_0 (c : Dev nD) :
    ((Memref.whole cc0_scratch4 : Memref sig .tc .vmem S64x1024 .bf16).access (Rect.unit (s := S64x1024) (k0_off69 c) S32x384.size (k0_off69_inb c))).set
      = (dst_rs_3_0_0 (peer 0 3 c)).view.set := by
  have h : k0_off69 c = k0_off52 (peer 0 3 c) := (off69_eq_off52 c).trans (off52_peer c).symm
  refine (View.set_slice_whole _ _).trans (Eq.trans ?_ (View.set_slice_whole _ _).symm)
  congr 3

theorem off53_peer : ∀ c : Dev nD, k0_off53 (peer 0 3 c) = k0_off53 c := by decide +kernel
theorem dst_rs_3_0_1_peer (c : Dev nD) : dst_rs_3_0_1 (peer 0 3 c) = dst_rs_3_0_1 c := by
  have h := off53_peer c
  unfold dst_rs_3_0_1
  congr 2
theorem off75_eq_off53 : ∀ c : Dev nD, k0_off75 c = k0_off53 c := by decide +kernel
theorem rsLoad_3_0_1 (c : Dev nD) :
    ((Memref.whole cc0_scratch4 : Memref sig .tc .vmem S64x1024 .bf16).access (Rect.unit (s := S64x1024) (k0_off75 c) S32x384.size (k0_off75_inb c))).set
      = (dst_rs_3_0_1 (peer 0 3 c)).view.set := by
  have h : k0_off75 c = k0_off53 (peer 0 3 c) := (off75_eq_off53 c).trans (off53_peer c).symm
  refine (View.set_slice_whole _ _).trans (Eq.trans ?_ (View.set_slice_whole _ _).symm)
  congr 3

theorem off56_peer : ∀ c : Dev nD, k0_off56 (peer 1 3 c) = k0_off56 c := by decide +kernel
theorem dst_rs_3_1_0_peer (c : Dev nD) : dst_rs_3_1_0 (peer 1 3 c) = dst_rs_3_1_0 c := by
  have h := off56_peer c
  unfold dst_rs_3_1_0
  congr 2
theorem off71_eq_off56 : ∀ c : Dev nD, k0_off71 c = k0_off56 c := by decide +kernel
theorem rsLoad_3_1_0 (c : Dev nD) :
    ((Memref.whole cc0_scratch4 : Memref sig .tc .vmem S64x1024 .bf16).access (Rect.unit (s := S64x1024) (k0_off71 c) S32x384.size (k0_off71_inb c))).set
      = (dst_rs_3_1_0 (peer 1 3 c)).view.set := by
  have h : k0_off71 c = k0_off56 (peer 1 3 c) := (off71_eq_off56 c).trans (off56_peer c).symm
  refine (View.set_slice_whole _ _).trans (Eq.trans ?_ (View.set_slice_whole _ _).symm)
  congr 3

theorem off57_peer : ∀ c : Dev nD, k0_off57 (peer 1 3 c) = k0_off57 c := by decide +kernel
theorem dst_rs_3_1_1_peer (c : Dev nD) : dst_rs_3_1_1 (peer 1 3 c) = dst_rs_3_1_1 c := by
  have h := off57_peer c
  unfold dst_rs_3_1_1
  congr 2
theorem off77_eq_off57 : ∀ c : Dev nD, k0_off77 c = k0_off57 c := by decide +kernel
theorem rsLoad_3_1_1 (c : Dev nD) :
    ((Memref.whole cc0_scratch4 : Memref sig .tc .vmem S64x1024 .bf16).access (Rect.unit (s := S64x1024) (k0_off77 c) S32x384.size (k0_off77_inb c))).set
      = (dst_rs_3_1_1 (peer 1 3 c)).view.set := by
  have h : k0_off77 c = k0_off57 (peer 1 3 c) := (off77_eq_off57 c).trans (off57_peer c).symm
  refine (View.set_slice_whole _ _).trans (Eq.trans ?_ (View.set_slice_whole _ _).symm)
  congr 3

theorem off60_peer : ∀ c : Dev nD, k0_off60 (peer 2 3 c) = k0_off60 c := by decide +kernel
theorem dst_rs_3_2_0_peer (c : Dev nD) : dst_rs_3_2_0 (peer 2 3 c) = dst_rs_3_2_0 c := by
  have h := off60_peer c
  unfold dst_rs_3_2_0
  congr 2
theorem off73_eq_off60 : ∀ c : Dev nD, k0_off73 c = k0_off60 c := by decide +kernel
theorem rsLoad_3_2_0 (c : Dev nD) :
    ((Memref.whole cc0_scratch4 : Memref sig .tc .vmem S64x1024 .bf16).access (Rect.unit (s := S64x1024) (k0_off73 c) S32x256.size (k0_off73_inb c))).set
      = (dst_rs_3_2_0 (peer 2 3 c)).view.set := by
  have h : k0_off73 c = k0_off60 (peer 2 3 c) := (off73_eq_off60 c).trans (off60_peer c).symm
  refine (View.set_slice_whole _ _).trans (Eq.trans ?_ (View.set_slice_whole _ _).symm)
  congr 3

theorem off61_peer : ∀ c : Dev nD, k0_off61 (peer 2 3 c) = k0_off61 c := by decide +kernel
theorem dst_rs_3_2_1_peer (c : Dev nD) : dst_rs_3_2_1 (peer 2 3 c) = dst_rs_3_2_1 c := by
  have h := off61_peer c
  unfold dst_rs_3_2_1
  congr 2
theorem off79_eq_off61 : ∀ c : Dev nD, k0_off79 c = k0_off61 c := by decide +kernel
theorem rsLoad_3_2_1 (c : Dev nD) :
    ((Memref.whole cc0_scratch4 : Memref sig .tc .vmem S64x1024 .bf16).access (Rect.unit (s := S64x1024) (k0_off79 c) S32x256.size (k0_off79_inb c))).set
      = (dst_rs_3_2_1 (peer 2 3 c)).view.set := by
  have h : k0_off79 c = k0_off61 (peer 2 3 c) := (off79_eq_off61 c).trans (off61_peer c).symm
  refine (View.set_slice_whole _ _).trans (Eq.trans ?_ (View.set_slice_whole _ _).symm)
  congr 3

/-! ## Stage 4: buffers of 32 rows -/

/-- The three column blocks are pairwise disjoint and cover the buffer. -/
theorem cols_4 :
    (Disjoint (Rect.unit (s := S32x1024) ![0, 0] S32x384.size inb_S32x1024_S32x384_0_0).set (Rect.unit (s := S32x1024) ![0, 384] S32x384.size inb_S32x1024_S32x384_0_384).set ∧ Disjoint (Rect.unit (s := S32x1024) ![0, 0] S32x384.size inb_S32x1024_S32x384_0_0).set (Rect.unit (s := S32x1024) ![0, 768] S32x256.size inb_S32x1024_S32x256_0_768).set ∧ Disjoint (Rect.unit (s := S32x1024) ![0, 384] S32x384.size inb_S32x1024_S32x384_0_384).set (Rect.unit (s := S32x1024) ![0, 768] S32x256.size inb_S32x1024_S32x256_0_768).set) ∧ (Rect.unit (s := S32x1024) ![0, 0] S32x384.size inb_S32x1024_S32x384_0_0).set ∪ ((Rect.unit (s := S32x1024) ![0, 384] S32x384.size inb_S32x1024_S32x384_0_384).set ∪ (Rect.unit (s := S32x1024) ![0, 768] S32x256.size inb_S32x1024_S32x256_0_768).set) = Finset.univ :=
  cols_part (by decide) (by decide)

/-- Column block 0 of the stage's send buffer: the positions its store goes through. -/
abbrev ssCol_4_0 : Finset S32x1024.Idx := ((Memref.whole cc0_scratch10 : Memref sig .tc .vmem S32x1024 .bf16).access (Rect.unit (s := S32x1024) ![0, 0] S32x384.size inb_S32x1024_S32x384_0_0)).set
theorem ssCol_4_0_eq : ssCol_4_0 = (Rect.unit (s := S32x1024) ![0, 0] S32x384.size inb_S32x1024_S32x384_0_0).set := View.set_slice_whole _ _

/-- Column block 1 of the stage's send buffer: the positions its store goes through. -/
abbrev ssCol_4_1 : Finset S32x1024.Idx := ((Memref.whole cc0_scratch10 : Memref sig .tc .vmem S32x1024 .bf16).access (Rect.unit (s := S32x1024) ![0, 384] S32x384.size inb_S32x1024_S32x384_0_384)).set
theorem ssCol_4_1_eq : ssCol_4_1 = (Rect.unit (s := S32x1024) ![0, 384] S32x384.size inb_S32x1024_S32x384_0_384).set := View.set_slice_whole _ _

/-- Column block 2 of the stage's send buffer: the positions its store goes through. -/
abbrev ssCol_4_2 : Finset S32x1024.Idx := ((Memref.whole cc0_scratch10 : Memref sig .tc .vmem S32x1024 .bf16).access (Rect.unit (s := S32x1024) ![0, 768] S32x256.size inb_S32x1024_S32x256_0_768)).set
theorem ssCol_4_2_eq : ssCol_4_2 = (Rect.unit (s := S32x1024) ![0, 768] S32x256.size inb_S32x1024_S32x256_0_768).set := View.set_slice_whole _ _

theorem colsSS_4 : (Disjoint ssCol_4_0 ssCol_4_1 ∧ Disjoint ssCol_4_0 ssCol_4_2 ∧ Disjoint ssCol_4_1 ssCol_4_2) ∧ ssCol_4_0 ∪ (ssCol_4_1 ∪ ssCol_4_2) = Finset.univ :=
  part3_congr ssCol_4_0_eq ssCol_4_1_eq ssCol_4_2_eq rfl cols_4

/-- At the last stage the pieces are the column blocks. -/
theorem colsRS_4 (c : Dev nD) : (Disjoint (dst_rs_4_0_0 c).view.set (dst_rs_4_1_0 c).view.set ∧ Disjoint (dst_rs_4_0_0 c).view.set (dst_rs_4_2_0 c).view.set ∧ Disjoint (dst_rs_4_1_0 c).view.set (dst_rs_4_2_0 c).view.set) ∧ (dst_rs_4_0_0 c).view.set ∪ ((dst_rs_4_1_0 c).view.set ∪ (dst_rs_4_2_0 c).view.set) = Finset.univ :=
  part3_congr (View.set_slice_whole _ _) (View.set_slice_whole _ _) (View.set_slice_whole _ _) rfl cols_4
theorem colsSSv_4 (c : Dev nD) : (Disjoint (src_rs_4_0_0 c).view.set (src_rs_4_1_0 c).view.set ∧ Disjoint (src_rs_4_0_0 c).view.set (src_rs_4_2_0 c).view.set ∧ Disjoint (src_rs_4_1_0 c).view.set (src_rs_4_2_0 c).view.set) ∧ (src_rs_4_0_0 c).view.set ∪ ((src_rs_4_1_0 c).view.set ∪ (src_rs_4_2_0 c).view.set) = Finset.univ :=
  part3_congr (View.set_slice_whole _ _) (View.set_slice_whole _ _) (View.set_slice_whole _ _) rfl cols_4

/-- The stage's receive buffer, lent piece by piece at the partners' offsets. -/
theorem rs_split_4 (c : Dev nD) :
    (iprop(∃ f : Buf (Elt F) ((c : Thread nD τ).loc cc0_scratch5), ((c : Thread nD τ).loc cc0_scratch5) ↦{fullShare} f) : sProp 𝕄)
      ⊢ iprop(loanV c (dst_rs_4_0_0 (peer 0 4 c)) ∗ loanV c (dst_rs_4_1_0 (peer 1 4 c)) ∗ loanV c (dst_rs_4_2_0 (peer 2 4 c))) :=
  any_split3 (F := F) (ℓ := ((c : Thread nD τ).loc cc0_scratch5)) (q := fullShare) (colsRS_4 c)

theorem rs_join_4 (c : Dev nD) :
    (iprop(loanV c (dst_rs_4_0_0 (peer 0 4 c)) ∗ loanV c (dst_rs_4_1_0 (peer 1 4 c)) ∗ loanV c (dst_rs_4_2_0 (peer 2 4 c))) : sProp 𝕄)
      ⊢ iprop(∃ f : Buf (Elt F) ((c : Thread nD τ).loc cc0_scratch5), ((c : Thread nD τ).loc cc0_scratch5) ↦{fullShare} f) :=
  any_join3 (F := F) (ℓ := ((c : Thread nD τ).loc cc0_scratch5)) (q := fullShare) (colsRS_4 c)

/-- The stage's send buffer, piece by piece at the device's own offsets. -/
theorem ss_split_4 (c : Dev nD) :
    (iprop(∃ f : Buf (Elt F) ((c : Thread nD τ).loc cc0_scratch10), ((c : Thread nD τ).loc cc0_scratch10) ↦{fullShare} f) : sProp 𝕄)
      ⊢ iprop(loanV c (src_rs_4_0_0 c) ∗ loanV c (src_rs_4_1_0 c) ∗ loanV c (src_rs_4_2_0 c)) :=
  any_split3 (F := F) (ℓ := ((c : Thread nD τ).loc cc0_scratch10)) (q := fullShare) (colsSSv_4 c)

theorem ss_join_4 (c : Dev nD) :
    (iprop(loanV c (src_rs_4_0_0 c) ∗ loanV c (src_rs_4_1_0 c) ∗ loanV c (src_rs_4_2_0 c)) : sProp 𝕄)
      ⊢ iprop(∃ f : Buf (Elt F) ((c : Thread nD τ).loc cc0_scratch10), ((c : Thread nD τ).loc cc0_scratch10) ↦{fullShare} f) :=
  any_join3 (F := F) (ℓ := ((c : Thread nD τ).loc cc0_scratch10)) (q := fullShare) (colsSSv_4 c)

/-- The send buffer into the column blocks its stores go through, and back. -/
theorem ss_cols_4 (c : Dev nD) :
    (iprop(∃ f : Buf (Elt F) ((c : Thread nD τ).loc cc0_scratch10), ((c : Thread nD τ).loc cc0_scratch10) ↦{fullShare} f) : sProp 𝕄)
      ⊢ iprop((∃ f : Buf (Elt F) ((c : Thread nD τ).loc cc0_scratch10), ((c : Thread nD τ).loc cc0_scratch10) ↦[ssCol_4_0]{fullShare} f) ∗ (∃ f : Buf (Elt F) ((c : Thread nD τ).loc cc0_scratch10), ((c : Thread nD τ).loc cc0_scratch10) ↦[ssCol_4_1]{fullShare} f) ∗ (∃ f : Buf (Elt F) ((c : Thread nD τ).loc cc0_scratch10), ((c : Thread nD τ).loc cc0_scratch10) ↦[ssCol_4_2]{fullShare} f)) :=
  any_split3 (F := F) (ℓ := ((c : Thread nD τ).loc cc0_scratch10)) (q := fullShare) colsSS_4

theorem ss_cols_join_4 (c : Dev nD) :
    (iprop((∃ f : Buf (Elt F) ((c : Thread nD τ).loc cc0_scratch10), ((c : Thread nD τ).loc cc0_scratch10) ↦[ssCol_4_0]{fullShare} f) ∗ (∃ f : Buf (Elt F) ((c : Thread nD τ).loc cc0_scratch10), ((c : Thread nD τ).loc cc0_scratch10) ↦[ssCol_4_1]{fullShare} f) ∗ (∃ f : Buf (Elt F) ((c : Thread nD τ).loc cc0_scratch10), ((c : Thread nD τ).loc cc0_scratch10) ↦[ssCol_4_2]{fullShare} f)) : sProp 𝕄)
      ⊢ iprop(∃ f : Buf (Elt F) ((c : Thread nD τ).loc cc0_scratch10), ((c : Thread nD τ).loc cc0_scratch10) ↦{fullShare} f) :=
  any_join3 (F := F) (ℓ := ((c : Thread nD τ).loc cc0_scratch10)) (q := fullShare) colsSS_4

/-- The same at named contents and any share. -/
theorem ss_cols_at_4 (c : Dev nD) (q : PosShare TreeShare) (f : Buf (Elt F) ((c : Thread nD τ).loc cc0_scratch10)) :
    ((((c : Thread nD τ).loc cc0_scratch10) ↦{q} f) : sProp 𝕄)
      ⊣⊢ iprop((((c : Thread nD τ).loc cc0_scratch10) ↦[ssCol_4_0]{q} f) ∗ (((c : Thread nD τ).loc cc0_scratch10) ↦[ssCol_4_1]{q} f) ∗ (((c : Thread nD τ).loc cc0_scratch10) ↦[ssCol_4_2]{q} f)) :=
  at_cut3 (F := F) (ℓ := ((c : Thread nD τ).loc cc0_scratch10)) (q := q) colsSS_4 f

/-- At the last stage column block 0 is the one piece the device sends. -/
theorem ss_rows_4_0 (c : Dev nD) :
    (iprop(∃ f : Buf (Elt F) ((c : Thread nD τ).loc cc0_scratch10), ((c : Thread nD τ).loc cc0_scratch10) ↦[ssCol_4_0]{fullShare} f) : sProp 𝕄) = loanV c (src_rs_4_0_0 c) := rfl

/-- At the last stage column block 1 is the one piece the device sends. -/
theorem ss_rows_4_1 (c : Dev nD) :
    (iprop(∃ f : Buf (Elt F) ((c : Thread nD τ).loc cc0_scratch10), ((c : Thread nD τ).loc cc0_scratch10) ↦[ssCol_4_1]{fullShare} f) : sProp 𝕄) = loanV c (src_rs_4_1_0 c) := rfl

/-- At the last stage column block 2 is the one piece the device sends. -/
theorem ss_rows_4_2 (c : Dev nD) :
    (iprop(∃ f : Buf (Elt F) ((c : Thread nD τ).loc cc0_scratch10), ((c : Thread nD τ).loc cc0_scratch10) ↦[ssCol_4_2]{fullShare} f) : sProp 𝕄) = loanV c (src_rs_4_2_0 c) := rfl

/-! ### Stage 4: the partner's offsets are the device's own, and the loads from the receive buffer read the pieces -/

theorem dst_rs_4_0_0_peer (c : Dev nD) : dst_rs_4_0_0 (peer 0 4 c) = dst_rs_4_0_0 c := rfl
theorem rsLoad_4_0_0 (c : Dev nD) :
    ((Memref.whole cc0_scratch5 : Memref sig .tc .vmem S32x1024 .bf16).access (Rect.unit (s := S32x1024) ![0, 0] S32x384.size inb_S32x1024_S32x384_0_0)).set
      = (dst_rs_4_0_0 (peer 0 4 c)).view.set := rfl

theorem dst_rs_4_1_0_peer (c : Dev nD) : dst_rs_4_1_0 (peer 1 4 c) = dst_rs_4_1_0 c := rfl
theorem rsLoad_4_1_0 (c : Dev nD) :
    ((Memref.whole cc0_scratch5 : Memref sig .tc .vmem S32x1024 .bf16).access (Rect.unit (s := S32x1024) ![0, 384] S32x384.size inb_S32x1024_S32x384_0_384)).set
      = (dst_rs_4_1_0 (peer 1 4 c)).view.set := rfl

theorem dst_rs_4_2_0_peer (c : Dev nD) : dst_rs_4_2_0 (peer 2 4 c) = dst_rs_4_2_0 c := rfl
theorem rsLoad_4_2_0 (c : Dev nD) :
    ((Memref.whole cc0_scratch5 : Memref sig .tc .vmem S32x1024 .bf16).access (Rect.unit (s := S32x1024) ![0, 768] S32x256.size inb_S32x1024_S32x256_0_768)).set
      = (dst_rs_4_2_0 (peer 2 4 c)).view.set := rfl

end Cert.KernelIdeal.RegionsRS

end
-- ==== Proof.RegionsOut.lean ====
/-
  The result buffer during the gathering phase.

  After the summing phase device `c` owns, in each of the three column blocks `k`, the 32 rows
  `[lo k c 5, lo k c 5 + 32)` of the result. The gathering phase doubles this range five times: at
  exchange `s` (4, 3, 2, 1, 0) the device sends the rows it holds, `[lo k c (s + 1), + 2 · half (s + 1))`
  (at exchange 4, its own 32 rows), to the partner `peer k s c`, and the partner writes its own rows of the
  same size into the sibling range. The rows a device holds before exchange `s` are sent as two pieces: the
  range it held one exchange earlier, and the range the previous exchange brought.

  This module states that geometry on the printed slices of the buffer, as identities between sets of
  positions, and lifts it to assertions: a piece lent (whole, at any contents) or held (at a share, under a
  contract on the values) is the two pieces it is made of; the buffer is the thirty pieces — the device's
  own rows of the three column blocks and the twenty-seven landing places —, and the thirty pieces, filled,
  are the buffer.
-/
import proofs.«900879_g7700000000000880_dist_matmul_gelu_kshard_i_m1024_n1024_k512_v7x_i32_bf16_1_alg».proof.Proof.Held
import proofs.«900879_g7700000000000880_dist_matmul_gelu_kshard_i_m1024_n1024_k512_v7x_i32_bf16_1_alg».proof.Proof.Geo
import Idealize.ShloMosaic.Rules.PointsTo
import Mathlib.Data.Finset.Piecewise
import Mathlib.Data.Finset.Disjoint
import Mathlib.Data.Finset.Lattice.Basic
import Mathlib.Data.Fin.VecNotation

noncomputable section

namespace Cert.KernelIdeal.RegionsOut

open Cert.KernelIdeal Cert.KernelIdeal.Gen Cert.KernelIdeal.Proto Cert.KernelIdeal.Tab Cert.KernelIdeal.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The first rows, unfolded: `lo k c (t + 1) = lo k c t + bit k t c * half t` -/

theorem lo5 (k : Fin 3) (c : Dev nD) : lo k c 5 = lo k c 4 + bit k 4 c * 32 := rfl
theorem lo4 (k : Fin 3) (c : Dev nD) : lo k c 4 = lo k c 3 + bit k 3 c * 64 := rfl
theorem lo3 (k : Fin 3) (c : Dev nD) : lo k c 3 = lo k c 2 + bit k 2 c * 128 := rfl
theorem lo2 (k : Fin 3) (c : Dev nD) : lo k c 2 = lo k c 1 + bit k 1 c * 256 := rfl
theorem lo1 (k : Fin 3) (c : Dev nD) : lo k c 1 = bit k 0 c * 512 := by
  show 0 + bit k 0 c * 512 = _; omega

theorem col0_0 : col0 0 = 0 := rfl
theorem col0_1 : col0 1 = 384 := rfl
theorem col0_2 : col0 2 = 768 := rfl
theorem colw_0 : colw 0 = 384 := rfl
theorem colw_1 : colw 1 = 384 := rfl
theorem colw_2 : colw 2 = 256 := rfl

/-- Membership in a unit-stride slice of the result buffer, axis by axis. -/
theorem mem_out {off size : Fin 2 → ℕ} {inb} {i : S1024x1024.Idx} :
    i ∈ ((View.whole cc0_stg2_0 : View sig .tc .vmem S1024x1024 .bf16).slice
          (Rect.unit (s := S1024x1024) off size inb)).set ↔
      (off 0 ≤ (i 0).val ∧ (i 0).val < off 0 + size 0) ∧ (off 1 ≤ (i 1).val ∧ (i 1).val < off 1 + size 1) :=
  (Finset.ext_iff.mp (View.set_slice_whole cc0_stg2_0 (Rect.unit (s := S1024x1024) off size inb)) i).trans
    (Rect.mem_set_unit.trans Fin.forall_fin_two)

/-! ## Pieces of one buffer, as assertions on sets of positions -/

section Pieces

variable {ℓ : Loc nD τ sig} {I A B : Finset (Idx ℓ)} {q : PosShare TreeShare}

/-- The positions `I` of the buffer at `ℓ`, whole, at some contents. -/
def slotS (ℓ : Loc nD τ sig) (I : Finset (Idx ℓ)) : sProp 𝕄 :=
  iprop(∃ f : Buf (Elt F) ℓ, ℓ ↦[I]{fullShare} f)

/-- The positions `I` of the buffer at `ℓ`, at share `q`, holding values every one of which satisfies `P`
    at its position. -/
def heldS (ℓ : Loc nD τ sig) (I : Finset (Idx ℓ)) (q : PosShare TreeShare)
    (P : Idx ℓ → Elt F ℓ.ty.elt → Prop) : sProp 𝕄 :=
  iprop(∃ f : Buf (Elt F) ℓ, (ℓ ↦[I]{q} f) ∗ ⌜∀ i ∈ I, P i (f i)⌝)

omit [FloatOps F] in
/-- Two disjoint sets of positions at some contents are their union at some contents, and back. -/
theorem slotS_union (hd : Disjoint A B) :
    slotS (F := F) ℓ (A ∪ B) ⊣⊢ iprop(slotS ℓ A ∗ slotS ℓ B) := by
  unfold slotS
  constructor
  · iintro ⟨%f, H⟩
    ihave H' := (pointsTo_union hd).1 $$ H
    icases H' with ⟨HA, HB⟩
    isplitl [HA]
    · iexists f; iexact HA
    · iexists f; iexact HB
  · iintro ⟨⟨%f, HA⟩, ⟨%g, HB⟩⟩
    iexists (B.piecewise g f)
    iapply (pointsTo_join hd); isplitl [HA]
    · iexact HA
    · iexact HB

omit [FloatOps F] in
/-- The same with the contract on the values: it holds on the union exactly when it holds on both parts. -/
theorem heldS_union (hd : Disjoint A B) (P : Idx ℓ → Elt F ℓ.ty.elt → Prop) :
    heldS (F := F) ℓ (A ∪ B) q P ⊣⊢ iprop(heldS ℓ A q P ∗ heldS ℓ B q P) := by
  unfold heldS
  constructor
  · iintro ⟨%f, H, %hP⟩
    ihave H' := (pointsTo_union hd).1 $$ H
    icases H' with ⟨HA, HB⟩
    isplitl [HA]
    · iexists f; isplitl [HA]
      · iexact HA
      · ipureintro; exact fun i hi => hP i (Finset.mem_union_left _ hi)
    · iexists f; isplitl [HB]
      · iexact HB
      · ipureintro; exact fun i hi => hP i (Finset.mem_union_right _ hi)
  · iintro ⟨⟨%f, HA, %hf⟩, ⟨%g, HB, %hg⟩⟩
    iexists (B.piecewise g f)
    isplitl [HA HB]
    · iapply (pointsTo_join hd); isplitl [HA]
      · iexact HA
      · iexact HB
    · ipureintro; intro i hi; by_cases hB : i ∈ B
      · rw [Finset.piecewise_eq_of_mem _ _ _ hB]; exact hg i hB
      · rw [Finset.piecewise_eq_of_notMem _ _ _ hB]
        exact hf i ((Finset.mem_union.mp hi).resolve_right hB)

omit [FloatOps F] in
/-- A piece held whole is held as its two half shares, and back. -/
theorem pointsTo_halves (f : Buf (Elt F) ℓ) :
    (ℓ ↦[I]{fullShare} f : sProp 𝕄) ⊣⊢ iprop((ℓ ↦[I]{fullShare.left} f) ∗ ℓ ↦[I]{fullShare.right} f) :=
  pointsTo_share (PosShare.mem_left_op_right fullShare)

omit [FloatOps F] in
/-- Every position held under the contract: the buffer holds values that satisfy it everywhere. -/
theorem heldS_univ (P : Idx ℓ → Elt F ℓ.ty.elt → Prop) :
    heldS (F := F) ℓ Finset.univ q P ⊢ iprop(∃ X : Buf (Elt F) ℓ, ⌜∀ i, P i (X i)⌝ ∗ ℓ ↦{q} X) := by
  unfold heldS
  iintro ⟨%X, H, %hX⟩
  iexists X
  isplitr
  · ipureintro; exact fun i => hX i (Finset.mem_univ i)
  · iexact H

end Pieces

section Shares

open PCS

variable {ℓ : Loc nD τ sig} {I : Finset (Idx ℓ)}

omit [FloatOps F] in
/-- Consecutive exchanges take opposite halves of the share: a piece held whole is the share of the one
    and the share of the other. -/
theorem pointsTo_shr (s t : Fin 5) (h : t.val = s.val + 1) (f : Buf (Elt F) ℓ) :
    (ℓ ↦[I]{fullShare} f : sProp 𝕄) ⊣⊢ iprop((ℓ ↦[I]{shr s} f) ∗ ℓ ↦[I]{shr t} f) := by
  by_cases hs : s.val % 2 = 0
  · have ht : ¬ t.val % 2 = 0 := by omega
    rw [shr, shr, if_pos hs, if_neg ht]
    exact pointsTo_share (PosShare.mem_left_op_right fullShare)
  · have ht : t.val % 2 = 0 := by omega
    rw [shr, shr, if_neg hs, if_pos ht]
    exact pointsTo_share (PCS.mem_op_comm.mp (PosShare.mem_left_op_right fullShare))

omit [FloatOps F] in
/-- Two complementary shares of one piece, each under the contract, are the piece whole under the contract,
    and back: the two holders agree on the contents. -/
theorem heldS_share {q q₁ q₂ : PosShare TreeShare} (hq : q ∈ q₁ ·? q₂) (P : Idx ℓ → Elt F ℓ.ty.elt → Prop) :
    heldS (F := F) ℓ I q P ⊣⊢ iprop(heldS ℓ I q₁ P ∗ heldS ℓ I q₂ P) := by
  unfold heldS
  constructor
  · iintro ⟨%f, H, %hP⟩
    ihave H' := (pointsTo_share hq).1 $$ H
    icases H' with ⟨HA, HB⟩
    isplitl [HA]
    · iexists f; isplitl [HA]
      · iexact HA
      · ipureintro; exact hP
    · iexists f; isplitl [HB]
      · iexact HB
      · ipureintro; exact hP
  · iintro ⟨⟨%f, HA, %hf⟩, ⟨%g, HB, %hg⟩⟩
    icombine HA HB gives %hfg
    have e : (ℓ ↦[I]{q₂} g : sProp 𝕄) = ℓ ↦[I]{q₂} f :=
      pointsTo_congr fun i hi => ((hfg i (Finset.mem_inter.mpr ⟨hi, hi⟩)).1).symm
    ihave HB := (Entails.of_eq e) $$ HB
    iexists f
    isplitl [HA HB]
    · iapply (pointsTo_share hq).2; isplitl [HA]
      · iexact HA
      · iexact HB
    · ipureintro; exact hf

omit [FloatOps F] in
theorem heldS_shr (s t : Fin 5) (h : t.val = s.val + 1) (P : Idx ℓ → Elt F ℓ.ty.elt → Prop) :
    heldS (F := F) ℓ I fullShare P ⊣⊢ iprop(heldS ℓ I (shr s) P ∗ heldS ℓ I (shr t) P) := by
  by_cases hs : s.val % 2 = 0
  · have ht : ¬ t.val % 2 = 0 := by omega
    rw [shr, shr, if_pos hs, if_neg ht]
    exact heldS_share (PosShare.mem_left_op_right fullShare) P
  · have ht : t.val % 2 = 0 := by omega
    rw [shr, shr, if_neg hs, if_pos ht]
    exact heldS_share (PCS.mem_op_comm.mp (PosShare.mem_left_op_right fullShare)) P

end Shares

/-! ## Pieces named by a slice -/

section Bridge

variable {sh : Shape} {e : EltTy}

omit [FloatOps F] in
theorem heldV_eq (c : Dev nD) (v : Memref sig .tc .vmem sh e) (q : PosShare TreeShare)
    (P : v.view.ty.Idx → Elt F v.view.ty.elt → Prop) :
    heldV c v q P = heldS (F := F) (v.view.loc (c : Thread nD τ)) v.view.set q P := rfl

omit [FloatOps F] in
theorem loanV_eq (c : Dev nD) (v : Memref sig .tc .vmem sh e) :
    loanV (F := F) c v = slotS (v.view.loc (c : Thread nD τ)) v.view.set := rfl

omit [FloatOps F] in
/-- A piece held whole under the contract is the shares of two consecutive exchanges, each under the contract. -/
theorem heldV_shr (c : Dev nD) (v : Memref sig .tc .vmem sh e) (s t : Fin 5) (h : t.val = s.val + 1)
    (P : v.view.ty.Idx → Elt F v.view.ty.elt → Prop) :
    heldV c v fullShare P ⊣⊢ iprop(heldV c v (shr s) P ∗ heldV c v (shr t) P) :=
  heldS_shr (F := F) (ℓ := v.view.loc (c : Thread nD τ)) (I := v.view.set) s t h P

end Bridge

/-! ## The rows of the gathering phase

Before exchange `s` device `c` holds, in column block `k`, the rows of its block after `s + 1` halvings;
the piece it sends first is the part it held one exchange earlier, the piece it sends second is the
part the previous exchange brought. Each identity below says so of the printed slices. -/

/-- exchange 3, column block 0: the two pieces are apart -/
theorem src_ag_3_0_disj (c : Dev nD) :
    Disjoint (src_ag_3_0_0 c).view.set (src_ag_3_0_1 c).view.set := by
  refine Finset.disjoint_left.mpr fun (i : S1024x1024.Idx) hi hj => ?_
  have h1 := mem_out.mp hi
  have h2 := mem_out.mp hj
  simp only [Geo.off80_eq, Geo.off83_eq, lo5, lo4, lo3, lo2, lo1, Matrix.cons_val_zero, Matrix.cons_val_one, Matrix.head_cons] at h1 h2
  have hb0 := bit_le_one 0 0 c
  have hb1 := bit_le_one 0 1 c
  have hb2 := bit_le_one 0 2 c
  have hb3 := bit_le_one 0 3 c
  have hb4 := bit_le_one 0 4 c
  omega
theorem dst_ag_3_0_disj (p : Dev nD) :
    Disjoint (dst_ag_3_0_0 p).view.set (dst_ag_3_0_1 p).view.set := src_ag_3_0_disj p

/-- exchange 2, column block 0: the two pieces are apart -/
theorem src_ag_2_0_disj (c : Dev nD) :
    Disjoint (src_ag_2_0_0 c).view.set (src_ag_2_0_1 c).view.set := by
  refine Finset.disjoint_left.mpr fun (i : S1024x1024.Idx) hi hj => ?_
  have h1 := mem_out.mp hi
  have h2 := mem_out.mp hj
  simp only [Geo.off86_eq, Geo.off87_eq, lo5, lo4, lo3, lo2, lo1, Matrix.cons_val_zero, Matrix.cons_val_one, Matrix.head_cons] at h1 h2
  have hb0 := bit_le_one 0 0 c
  have hb1 := bit_le_one 0 1 c
  have hb2 := bit_le_one 0 2 c
  have hb3 := bit_le_one 0 3 c
  have hb4 := bit_le_one 0 4 c
  omega
theorem dst_ag_2_0_disj (p : Dev nD) :
    Disjoint (dst_ag_2_0_0 p).view.set (dst_ag_2_0_1 p).view.set := src_ag_2_0_disj p

/-- exchange 1, column block 0: the two pieces are apart -/
theorem src_ag_1_0_disj (c : Dev nD) :
    Disjoint (src_ag_1_0_0 c).view.set (src_ag_1_0_1 c).view.set := by
  refine Finset.disjoint_left.mpr fun (i : S1024x1024.Idx) hi hj => ?_
  have h1 := mem_out.mp hi
  have h2 := mem_out.mp hj
  simp only [Geo.off92_eq, Geo.off93_eq, lo5, lo4, lo3, lo2, lo1, Matrix.cons_val_zero, Matrix.cons_val_one, Matrix.head_cons] at h1 h2
  have hb0 := bit_le_one 0 0 c
  have hb1 := bit_le_one 0 1 c
  have hb2 := bit_le_one 0 2 c
  have hb3 := bit_le_one 0 3 c
  have hb4 := bit_le_one 0 4 c
  omega
theorem dst_ag_1_0_disj (p : Dev nD) :
    Disjoint (dst_ag_1_0_0 p).view.set (dst_ag_1_0_1 p).view.set := src_ag_1_0_disj p

/-- exchange 0, column block 0: the two pieces are apart -/
theorem src_ag_0_0_disj (c : Dev nD) :
    Disjoint (src_ag_0_0_0 c).view.set (src_ag_0_0_1 c).view.set := by
  refine Finset.disjoint_left.mpr fun (i : S1024x1024.Idx) hi hj => ?_
  have h1 := mem_out.mp hi
  have h2 := mem_out.mp hj
  simp only [Geo.off98_eq, Geo.off99_eq, lo5, lo4, lo3, lo2, lo1, Matrix.cons_val_zero, Matrix.cons_val_one, Matrix.head_cons] at h1 h2
  have hb0 := bit_le_one 0 0 c
  have hb1 := bit_le_one 0 1 c
  have hb2 := bit_le_one 0 2 c
  have hb3 := bit_le_one 0 3 c
  have hb4 := bit_le_one 0 4 c
  omega
theorem dst_ag_0_0_disj (p : Dev nD) :
    Disjoint (dst_ag_0_0_0 p).view.set (dst_ag_0_0_1 p).view.set := src_ag_0_0_disj p

/-- exchange 2, column block 0: the first piece is the two pieces of exchange 3 -/
theorem src_ag_2_0_0_eq (c : Dev nD) :
    (src_ag_2_0_0 c).view.set = (src_ag_3_0_0 c).view.set ∪ (src_ag_3_0_1 c).view.set := by
  refine Finset.ext fun (i : S1024x1024.Idx) => ?_
  refine mem_out.trans (Iff.trans ?_ (Finset.mem_union.trans (or_congr mem_out mem_out)).symm)
  simp only [Geo.off86_eq, Geo.off80_eq, Geo.off83_eq, lo5, lo4, lo3, lo2, lo1, Matrix.cons_val_zero, Matrix.cons_val_one, Matrix.head_cons]
  have hb0 := bit_le_one 0 0 c
  have hb1 := bit_le_one 0 1 c
  have hb2 := bit_le_one 0 2 c
  have hb3 := bit_le_one 0 3 c
  have hb4 := bit_le_one 0 4 c
  omega

/-- exchange 1, column block 0: the first piece is the two pieces of exchange 2 -/
theorem src_ag_1_0_0_eq (c : Dev nD) :
    (src_ag_1_0_0 c).view.set = (src_ag_2_0_0 c).view.set ∪ (src_ag_2_0_1 c).view.set := by
  refine Finset.ext fun (i : S1024x1024.Idx) => ?_
  refine mem_out.trans (Iff.trans ?_ (Finset.mem_union.trans (or_congr mem_out mem_out)).symm)
  simp only [Geo.off92_eq, Geo.off86_eq, Geo.off87_eq, lo5, lo4, lo3, lo2, lo1, Matrix.cons_val_zero, Matrix.cons_val_one, Matrix.head_cons]
  have hb0 := bit_le_one 0 0 c
  have hb1 := bit_le_one 0 1 c
  have hb2 := bit_le_one 0 2 c
  have hb3 := bit_le_one 0 3 c
  have hb4 := bit_le_one 0 4 c
  omega

/-- exchange 0, column block 0: the first piece is the two pieces of exchange 1 -/
theorem src_ag_0_0_0_eq (c : Dev nD) :
    (src_ag_0_0_0 c).view.set = (src_ag_1_0_0 c).view.set ∪ (src_ag_1_0_1 c).view.set := by
  refine Finset.ext fun (i : S1024x1024.Idx) => ?_
  refine mem_out.trans (Iff.trans ?_ (Finset.mem_union.trans (or_congr mem_out mem_out)).symm)
  simp only [Geo.off98_eq, Geo.off92_eq, Geo.off93_eq, lo5, lo4, lo3, lo2, lo1, Matrix.cons_val_zero, Matrix.cons_val_one, Matrix.head_cons]
  have hb0 := bit_le_one 0 0 c
  have hb1 := bit_le_one 0 1 c
  have hb2 := bit_le_one 0 2 c
  have hb3 := bit_le_one 0 3 c
  have hb4 := bit_le_one 0 4 c
  omega

/-- exchange 3, column block 0: the first piece is the device's own rows -/
theorem src_ag_3_0_0_eq (c : Dev nD) : (src_ag_3_0_0 c).view.set = (src_ag_4_0_0 c).view.set := rfl

/-- exchange 2, column block 0: the second piece is what the partner of exchange 3 wrote -/
theorem src_ag_2_0_1_eq (c : Dev nD) :
    (src_ag_2_0_1 c).view.set =
      (dst_ag_3_0_0 (peer 0 3 c)).view.set ∪ (dst_ag_3_0_1 (peer 0 3 c)).view.set := by
  refine Finset.ext fun (i : S1024x1024.Idx) => ?_
  refine mem_out.trans (Iff.trans ?_ (Finset.mem_union.trans (or_congr mem_out mem_out)).symm)
  simp only [Geo.off87_eq, Geo.off80_eq, Geo.off83_eq, lo5, lo4, lo3, lo2, lo1, Matrix.cons_val_zero, Matrix.cons_val_one, Matrix.head_cons, bit_peer_self 0 3 c, bit_peer_lt 0 3 0 c (by decide), bit_peer_lt 0 3 1 c (by decide), bit_peer_lt 0 3 2 c (by decide), bit_peer_succ 0 3 4 c rfl]
  have hb0 := bit_le_one 0 0 c
  have hb1 := bit_le_one 0 1 c
  have hb2 := bit_le_one 0 2 c
  have hb3 := bit_le_one 0 3 c
  have hb4 := bit_le_one 0 4 c
  omega

/-- exchange 1, column block 0: the second piece is what the partner of exchange 2 wrote -/
theorem src_ag_1_0_1_eq (c : Dev nD) :
    (src_ag_1_0_1 c).view.set =
      (dst_ag_2_0_0 (peer 0 2 c)).view.set ∪ (dst_ag_2_0_1 (peer 0 2 c)).view.set := by
  refine Finset.ext fun (i : S1024x1024.Idx) => ?_
  refine mem_out.trans (Iff.trans ?_ (Finset.mem_union.trans (or_congr mem_out mem_out)).symm)
  simp only [Geo.off93_eq, Geo.off86_eq, Geo.off87_eq, lo5, lo4, lo3, lo2, lo1, Matrix.cons_val_zero, Matrix.cons_val_one, Matrix.head_cons, bit_peer_self 0 2 c, bit_peer_lt 0 2 0 c (by decide), bit_peer_lt 0 2 1 c (by decide), bit_peer_succ 0 2 3 c rfl]
  have hb0 := bit_le_one 0 0 c
  have hb1 := bit_le_one 0 1 c
  have hb2 := bit_le_one 0 2 c
  have hb3 := bit_le_one 0 3 c
  have hb4 := bit_le_one 0 4 c
  omega

/-- exchange 0, column block 0: the second piece is what the partner of exchange 1 wrote -/
theorem src_ag_0_0_1_eq (c : Dev nD) :
    (src_ag_0_0_1 c).view.set =
      (dst_ag_1_0_0 (peer 0 1 c)).view.set ∪ (dst_ag_1_0_1 (peer 0 1 c)).view.set := by
  refine Finset.ext fun (i : S1024x1024.Idx) => ?_
  refine mem_out.trans (Iff.trans ?_ (Finset.mem_union.trans (or_congr mem_out mem_out)).symm)
  simp only [Geo.off99_eq, Geo.off92_eq, Geo.off93_eq, lo5, lo4, lo3, lo2, lo1, Matrix.cons_val_zero, Matrix.cons_val_one, Matrix.head_cons, bit_peer_self 0 1 c, bit_peer_lt 0 1 0 c (by decide), bit_peer_succ 0 1 2 c rfl]
  have hb0 := bit_le_one 0 0 c
  have hb1 := bit_le_one 0 1 c
  have hb2 := bit_le_one 0 2 c
  have hb3 := bit_le_one 0 3 c
  have hb4 := bit_le_one 0 4 c
  omega

/-- exchange 3, column block 0: the second piece is what the partner of exchange 4 wrote -/
theorem src_ag_3_0_1_eq (c : Dev nD) :
    (src_ag_3_0_1 c).view.set = (dst_ag_4_0_0 (peer 0 4 c)).view.set := by
  refine Finset.ext fun (i : S1024x1024.Idx) => ?_
  refine mem_out.trans (Iff.trans ?_ mem_out.symm)
  simp only [Geo.off83_eq, Geo.off80_eq, lo5, lo4, lo3, lo2, lo1, Matrix.cons_val_zero, Matrix.cons_val_one, Matrix.head_cons, bit_peer_self 0 4 c, bit_peer_lt 0 4 0 c (by decide), bit_peer_lt 0 4 1 c (by decide), bit_peer_lt 0 4 2 c (by decide), bit_peer_lt 0 4 3 c (by decide)]

/-- exchange 3, column block 1: the two pieces are apart -/
theorem src_ag_3_1_disj (c : Dev nD) :
    Disjoint (src_ag_3_1_0 c).view.set (src_ag_3_1_1 c).view.set := by
  refine Finset.disjoint_left.mpr fun (i : S1024x1024.Idx) hi hj => ?_
  have h1 := mem_out.mp hi
  have h2 := mem_out.mp hj
  simp only [Geo.off81_eq, Geo.off84_eq, lo5, lo4, lo3, lo2, lo1, Matrix.cons_val_zero, Matrix.cons_val_one, Matrix.head_cons] at h1 h2
  have hb0 := bit_le_one 1 0 c
  have hb1 := bit_le_one 1 1 c
  have hb2 := bit_le_one 1 2 c
  have hb3 := bit_le_one 1 3 c
  have hb4 := bit_le_one 1 4 c
  omega
theorem dst_ag_3_1_disj (p : Dev nD) :
    Disjoint (dst_ag_3_1_0 p).view.set (dst_ag_3_1_1 p).view.set := src_ag_3_1_disj p

/-- exchange 2, column block 1: the two pieces are apart -/
theorem src_ag_2_1_disj (c : Dev nD) :
    Disjoint (src_ag_2_1_0 c).view.set (src_ag_2_1_1 c).view.set := by
  refine Finset.disjoint_left.mpr fun (i : S1024x1024.Idx) hi hj => ?_
  have h1 := mem_out.mp hi
  have h2 := mem_out.mp hj
  simp only [Geo.off88_eq, Geo.off89_eq, lo5, lo4, lo3, lo2, lo1, Matrix.cons_val_zero, Matrix.cons_val_one, Matrix.head_cons] at h1 h2
  have hb0 := bit_le_one 1 0 c
  have hb1 := bit_le_one 1 1 c
  have hb2 := bit_le_one 1 2 c
  have hb3 := bit_le_one 1 3 c
  have hb4 := bit_le_one 1 4 c
  omega
theorem dst_ag_2_1_disj (p : Dev nD) :
    Disjoint (dst_ag_2_1_0 p).view.set (dst_ag_2_1_1 p).view.set := src_ag_2_1_disj p

/-- exchange 1, column block 1: the two pieces are apart -/
theorem src_ag_1_1_disj (c : Dev nD) :
    Disjoint (src_ag_1_1_0 c).view.set (src_ag_1_1_1 c).view.set := by
  refine Finset.disjoint_left.mpr fun (i : S1024x1024.Idx) hi hj => ?_
  have h1 := mem_out.mp hi
  have h2 := mem_out.mp hj
  simp only [Geo.off94_eq, Geo.off95_eq, lo5, lo4, lo3, lo2, lo1, Matrix.cons_val_zero, Matrix.cons_val_one, Matrix.head_cons] at h1 h2
  have hb0 := bit_le_one 1 0 c
  have hb1 := bit_le_one 1 1 c
  have hb2 := bit_le_one 1 2 c
  have hb3 := bit_le_one 1 3 c
  have hb4 := bit_le_one 1 4 c
  omega
theorem dst_ag_1_1_disj (p : Dev nD) :
    Disjoint (dst_ag_1_1_0 p).view.set (dst_ag_1_1_1 p).view.set := src_ag_1_1_disj p

/-- exchange 0, column block 1: the two pieces are apart -/
theorem src_ag_0_1_disj (c : Dev nD) :
    Disjoint (src_ag_0_1_0 c).view.set (src_ag_0_1_1 c).view.set := by
  refine Finset.disjoint_left.mpr fun (i : S1024x1024.Idx) hi hj => ?_
  have h1 := mem_out.mp hi
  have h2 := mem_out.mp hj
  simp only [Geo.off100_eq, Geo.off101_eq, lo5, lo4, lo3, lo2, lo1, Matrix.cons_val_zero, Matrix.cons_val_one, Matrix.head_cons] at h1 h2
  have hb0 := bit_le_one 1 0 c
  have hb1 := bit_le_one 1 1 c
  have hb2 := bit_le_one 1 2 c
  have hb3 := bit_le_one 1 3 c
  have hb4 := bit_le_one 1 4 c
  omega
theorem dst_ag_0_1_disj (p : Dev nD) :
    Disjoint (dst_ag_0_1_0 p).view.set (dst_ag_0_1_1 p).view.set := src_ag_0_1_disj p

/-- exchange 2, column block 1: the first piece is the two pieces of exchange 3 -/
theorem src_ag_2_1_0_eq (c : Dev nD) :
    (src_ag_2_1_0 c).view.set = (src_ag_3_1_0 c).view.set ∪ (src_ag_3_1_1 c).view.set := by
  refine Finset.ext fun (i : S1024x1024.Idx) => ?_
  refine mem_out.trans (Iff.trans ?_ (Finset.mem_union.trans (or_congr mem_out mem_out)).symm)
  simp only [Geo.off88_eq, Geo.off81_eq, Geo.off84_eq, lo5, lo4, lo3, lo2, lo1, Matrix.cons_val_zero, Matrix.cons_val_one, Matrix.head_cons]
  have hb0 := bit_le_one 1 0 c
  have hb1 := bit_le_one 1 1 c
  have hb2 := bit_le_one 1 2 c
  have hb3 := bit_le_one 1 3 c
  have hb4 := bit_le_one 1 4 c
  omega

/-- exchange 1, column block 1: the first piece is the two pieces of exchange 2 -/
theorem src_ag_1_1_0_eq (c : Dev nD) :
    (src_ag_1_1_0 c).view.set = (src_ag_2_1_0 c).view.set ∪ (src_ag_2_1_1 c).view.set := by
  refine Finset.ext fun (i : S1024x1024.Idx) => ?_
  refine mem_out.trans (Iff.trans ?_ (Finset.mem_union.trans (or_congr mem_out mem_out)).symm)
  simp only [Geo.off94_eq, Geo.off88_eq, Geo.off89_eq, lo5, lo4, lo3, lo2, lo1, Matrix.cons_val_zero, Matrix.cons_val_one, Matrix.head_cons]
  have hb0 := bit_le_one 1 0 c
  have hb1 := bit_le_one 1 1 c
  have hb2 := bit_le_one 1 2 c
  have hb3 := bit_le_one 1 3 c
  have hb4 := bit_le_one 1 4 c
  omega

/-- exchange 0, column block 1: the first piece is the two pieces of exchange 1 -/
theorem src_ag_0_1_0_eq (c : Dev nD) :
    (src_ag_0_1_0 c).view.set = (src_ag_1_1_0 c).view.set ∪ (src_ag_1_1_1 c).view.set := by
  refine Finset.ext fun (i : S1024x1024.Idx) => ?_
  refine mem_out.trans (Iff.trans ?_ (Finset.mem_union.trans (or_congr mem_out mem_out)).symm)
  simp only [Geo.off100_eq, Geo.off94_eq, Geo.off95_eq, lo5, lo4, lo3, lo2, lo1, Matrix.cons_val_zero, Matrix.cons_val_one, Matrix.head_cons]
  have hb0 := bit_le_one 1 0 c
  have hb1 := bit_le_one 1 1 c
  have hb2 := bit_le_one 1 2 c
  have hb3 := bit_le_one 1 3 c
  have hb4 := bit_le_one 1 4 c
  omega

/-- exchange 3, column block 1: the first piece is the device's own rows -/
theorem src_ag_3_1_0_eq (c : Dev nD) : (src_ag_3_1_0 c).view.set = (src_ag_4_1_0 c).view.set := rfl

/-- exchange 2, column block 1: the second piece is what the partner of exchange 3 wrote -/
theorem src_ag_2_1_1_eq (c : Dev nD) :
    (src_ag_2_1_1 c).view.set =
      (dst_ag_3_1_0 (peer 1 3 c)).view.set ∪ (dst_ag_3_1_1 (peer 1 3 c)).view.set := by
  refine Finset.ext fun (i : S1024x1024.Idx) => ?_
  refine mem_out.trans (Iff.trans ?_ (Finset.mem_union.trans (or_congr mem_out mem_out)).symm)
  simp only [Geo.off89_eq, Geo.off81_eq, Geo.off84_eq, lo5, lo4, lo3, lo2, lo1, Matrix.cons_val_zero, Matrix.cons_val_one, Matrix.head_cons, bit_peer_self 1 3 c, bit_peer_lt 1 3 0 c (by decide), bit_peer_lt 1 3 1 c (by decide), bit_peer_lt 1 3 2 c (by decide), bit_peer_succ 1 3 4 c rfl]
  have hb0 := bit_le_one 1 0 c
  have hb1 := bit_le_one 1 1 c
  have hb2 := bit_le_one 1 2 c
  have hb3 := bit_le_one 1 3 c
  have hb4 := bit_le_one 1 4 c
  omega

/-- exchange 1, column block 1: the second piece is what the partner of exchange 2 wrote -/
theorem src_ag_1_1_1_eq (c : Dev nD) :
    (src_ag_1_1_1 c).view.set =
      (dst_ag_2_1_0 (peer 1 2 c)).view.set ∪ (dst_ag_2_1_1 (peer 1 2 c)).view.set := by
  refine Finset.ext fun (i : S1024x1024.Idx) => ?_
  refine mem_out.trans (Iff.trans ?_ (Finset.mem_union.trans (or_congr mem_out mem_out)).symm)
  simp only [Geo.off95_eq, Geo.off88_eq, Geo.off89_eq, lo5, lo4, lo3, lo2, lo1, Matrix.cons_val_zero, Matrix.cons_val_one, Matrix.head_cons, bit_peer_self 1 2 c, bit_peer_lt 1 2 0 c (by decide), bit_peer_lt 1 2 1 c (by decide), bit_peer_succ 1 2 3 c rfl]
  have hb0 := bit_le_one 1 0 c
  have hb1 := bit_le_one 1 1 c
  have hb2 := bit_le_one 1 2 c
  have hb3 := bit_le_one 1 3 c
  have hb4 := bit_le_one 1 4 c
  omega

/-- exchange 0, column block 1: the second piece is what the partner of exchange 1 wrote -/
theorem src_ag_0_1_1_eq (c : Dev nD) :
    (src_ag_0_1_1 c).view.set =
      (dst_ag_1_1_0 (peer 1 1 c)).view.set ∪ (dst_ag_1_1_1 (peer 1 1 c)).view.set := by
  refine Finset.ext fun (i : S1024x1024.Idx) => ?_
  refine mem_out.trans (Iff.trans ?_ (Finset.mem_union.trans (or_congr mem_out mem_out)).symm)
  simp only [Geo.off101_eq, Geo.off94_eq, Geo.off95_eq, lo5, lo4, lo3, lo2, lo1, Matrix.cons_val_zero, Matrix.cons_val_one, Matrix.head_cons, bit_peer_self 1 1 c, bit_peer_lt 1 1 0 c (by decide), bit_peer_succ 1 1 2 c rfl]
  have hb0 := bit_le_one 1 0 c
  have hb1 := bit_le_one 1 1 c
  have hb2 := bit_le_one 1 2 c
  have hb3 := bit_le_one 1 3 c
  have hb4 := bit_le_one 1 4 c
  omega

/-- exchange 3, column block 1: the second piece is what the partner of exchange 4 wrote -/
theorem src_ag_3_1_1_eq (c : Dev nD) :
    (src_ag_3_1_1 c).view.set = (dst_ag_4_1_0 (peer 1 4 c)).view.set := by
  refine Finset.ext fun (i : S1024x1024.Idx) => ?_
  refine mem_out.trans (Iff.trans ?_ mem_out.symm)
  simp only [Geo.off84_eq, Geo.off81_eq, lo5, lo4, lo3, lo2, lo1, Matrix.cons_val_zero, Matrix.cons_val_one, Matrix.head_cons, bit_peer_self 1 4 c, bit_peer_lt 1 4 0 c (by decide), bit_peer_lt 1 4 1 c (by decide), bit_peer_lt 1 4 2 c (by decide), bit_peer_lt 1 4 3 c (by decide)]

/-- exchange 3, column block 2: the two pieces are apart -/
theorem src_ag_3_2_disj (c : Dev nD) :
    Disjoint (src_ag_3_2_0 c).view.set (src_ag_3_2_1 c).view.set := by
  refine Finset.disjoint_left.mpr fun (i : S1024x1024.Idx) hi hj => ?_
  have h1 := mem_out.mp hi
  have h2 := mem_out.mp hj
  simp only [Geo.off82_eq, Geo.off85_eq, lo5, lo4, lo3, lo2, lo1, Matrix.cons_val_zero, Matrix.cons_val_one, Matrix.head_cons] at h1 h2
  have hb0 := bit_le_one 2 0 c
  have hb1 := bit_le_one 2 1 c
  have hb2 := bit_le_one 2 2 c
  have hb3 := bit_le_one 2 3 c
  have hb4 := bit_le_one 2 4 c
  omega
theorem dst_ag_3_2_disj (p : Dev nD) :
    Disjoint (dst_ag_3_2_0 p).view.set (dst_ag_3_2_1 p).view.set := src_ag_3_2_disj p

/-- exchange 2, column block 2: the two pieces are apart -/
theorem src_ag_2_2_disj (c : Dev nD) :
    Disjoint (src_ag_2_2_0 c).view.set (src_ag_2_2_1 c).view.set := by
  refine Finset.disjoint_left.mpr fun (i : S1024x1024.Idx) hi hj => ?_
  have h1 := mem_out.mp hi
  have h2 := mem_out.mp hj
  simp only [Geo.off90_eq, Geo.off91_eq, lo5, lo4, lo3, lo2, lo1, Matrix.cons_val_zero, Matrix.cons_val_one, Matrix.head_cons] at h1 h2
  have hb0 := bit_le_one 2 0 c
  have hb1 := bit_le_one 2 1 c
  have hb2 := bit_le_one 2 2 c
  have hb3 := bit_le_one 2 3 c
  have hb4 := bit_le_one 2 4 c
  omega
theorem dst_ag_2_2_disj (p : Dev nD) :
    Disjoint (dst_ag_2_2_0 p).view.set (dst_ag_2_2_1 p).view.set := src_ag_2_2_disj p

/-- exchange 1, column block 2: the two pieces are apart -/
theorem src_ag_1_2_disj (c : Dev nD) :
    Disjoint (src_ag_1_2_0 c).view.set (src_ag_1_2_1 c).view.set := by
  refine Finset.disjoint_left.mpr fun (i : S1024x1024.Idx) hi hj => ?_
  have h1 := mem_out.mp hi
  have h2 := mem_out.mp hj
  simp only [Geo.off96_eq, Geo.off97_eq, lo5, lo4, lo3, lo2, lo1, Matrix.cons_val_zero, Matrix.cons_val_one, Matrix.head_cons] at h1 h2
  have hb0 := bit_le_one 2 0 c
  have hb1 := bit_le_one 2 1 c
  have hb2 := bit_le_one 2 2 c
  have hb3 := bit_le_one 2 3 c
  have hb4 := bit_le_one 2 4 c
  omega
theorem dst_ag_1_2_disj (p : Dev nD) :
    Disjoint (dst_ag_1_2_0 p).view.set (dst_ag_1_2_1 p).view.set := src_ag_1_2_disj p

/-- exchange 0, column block 2: the two pieces are apart -/
theorem src_ag_0_2_disj (c : Dev nD) :
    Disjoint (src_ag_0_2_0 c).view.set (src_ag_0_2_1 c).view.set := by
  refine Finset.disjoint_left.mpr fun (i : S1024x1024.Idx) hi hj => ?_
  have h1 := mem_out.mp hi
  have h2 := mem_out.mp hj
  simp only [Geo.off102_eq, Geo.off103_eq, lo5, lo4, lo3, lo2, lo1, Matrix.cons_val_zero, Matrix.cons_val_one, Matrix.head_cons] at h1 h2
  have hb0 := bit_le_one 2 0 c
  have hb1 := bit_le_one 2 1 c
  have hb2 := bit_le_one 2 2 c
  have hb3 := bit_le_one 2 3 c
  have hb4 := bit_le_one 2 4 c
  omega
theorem dst_ag_0_2_disj (p : Dev nD) :
    Disjoint (dst_ag_0_2_0 p).view.set (dst_ag_0_2_1 p).view.set := src_ag_0_2_disj p

/-- exchange 2, column block 2: the first piece is the two pieces of exchange 3 -/
theorem src_ag_2_2_0_eq (c : Dev nD) :
    (src_ag_2_2_0 c).view.set = (src_ag_3_2_0 c).view.set ∪ (src_ag_3_2_1 c).view.set := by
  refine Finset.ext fun (i : S1024x1024.Idx) => ?_
  refine mem_out.trans (Iff.trans ?_ (Finset.mem_union.trans (or_congr mem_out mem_out)).symm)
  simp only [Geo.off90_eq, Geo.off82_eq, Geo.off85_eq, lo5, lo4, lo3, lo2, lo1, Matrix.cons_val_zero, Matrix.cons_val_one, Matrix.head_cons]
  have hb0 := bit_le_one 2 0 c
  have hb1 := bit_le_one 2 1 c
  have hb2 := bit_le_one 2 2 c
  have hb3 := bit_le_one 2 3 c
  have hb4 := bit_le_one 2 4 c
  omega

/-- exchange 1, column block 2: the first piece is the two pieces of exchange 2 -/
theorem src_ag_1_2_0_eq (c : Dev nD) :
    (src_ag_1_2_0 c).view.set = (src_ag_2_2_0 c).view.set ∪ (src_ag_2_2_1 c).view.set := by
  refine Finset.ext fun (i : S1024x1024.Idx) => ?_
  refine mem_out.trans (Iff.trans ?_ (Finset.mem_union.trans (or_congr mem_out mem_out)).symm)
  simp only [Geo.off96_eq, Geo.off90_eq, Geo.off91_eq, lo5, lo4, lo3, lo2, lo1, Matrix.cons_val_zero, Matrix.cons_val_one, Matrix.head_cons]
  have hb0 := bit_le_one 2 0 c
  have hb1 := bit_le_one 2 1 c
  have hb2 := bit_le_one 2 2 c
  have hb3 := bit_le_one 2 3 c
  have hb4 := bit_le_one 2 4 c
  omega

/-- exchange 0, column block 2: the first piece is the two pieces of exchange 1 -/
theorem src_ag_0_2_0_eq (c : Dev nD) :
    (src_ag_0_2_0 c).view.set = (src_ag_1_2_0 c).view.set ∪ (src_ag_1_2_1 c).view.set := by
  refine Finset.ext fun (i : S1024x1024.Idx) => ?_
  refine mem_out.trans (Iff.trans ?_ (Finset.mem_union.trans (or_congr mem_out mem_out)).symm)
  simp only [Geo.off102_eq, Geo.off96_eq, Geo.off97_eq, lo5, lo4, lo3, lo2, lo1, Matrix.cons_val_zero, Matrix.cons_val_one, Matrix.head_cons]
  have hb0 := bit_le_one 2 0 c
  have hb1 := bit_le_one 2 1 c
  have hb2 := bit_le_one 2 2 c
  have hb3 := bit_le_one 2 3 c
  have hb4 := bit_le_one 2 4 c
  omega

/-- exchange 3, column block 2: the first piece is the device's own rows -/
theorem src_ag_3_2_0_eq (c : Dev nD) : (src_ag_3_2_0 c).view.set = (src_ag_4_2_0 c).view.set := rfl

/-- exchange 2, column block 2: the second piece is what the partner of exchange 3 wrote -/
theorem src_ag_2_2_1_eq (c : Dev nD) :
    (src_ag_2_2_1 c).view.set =
      (dst_ag_3_2_0 (peer 2 3 c)).view.set ∪ (dst_ag_3_2_1 (peer 2 3 c)).view.set := by
  refine Finset.ext fun (i : S1024x1024.Idx) => ?_
  refine mem_out.trans (Iff.trans ?_ (Finset.mem_union.trans (or_congr mem_out mem_out)).symm)
  simp only [Geo.off91_eq, Geo.off82_eq, Geo.off85_eq, lo5, lo4, lo3, lo2, lo1, Matrix.cons_val_zero, Matrix.cons_val_one, Matrix.head_cons, bit_peer_self 2 3 c, bit_peer_lt 2 3 0 c (by decide), bit_peer_lt 2 3 1 c (by decide), bit_peer_lt 2 3 2 c (by decide), bit_peer_succ 2 3 4 c rfl]
  have hb0 := bit_le_one 2 0 c
  have hb1 := bit_le_one 2 1 c
  have hb2 := bit_le_one 2 2 c
  have hb3 := bit_le_one 2 3 c
  have hb4 := bit_le_one 2 4 c
  omega

/-- exchange 1, column block 2: the second piece is what the partner of exchange 2 wrote -/
theorem src_ag_1_2_1_eq (c : Dev nD) :
    (src_ag_1_2_1 c).view.set =
      (dst_ag_2_2_0 (peer 2 2 c)).view.set ∪ (dst_ag_2_2_1 (peer 2 2 c)).view.set := by
  refine Finset.ext fun (i : S1024x1024.Idx) => ?_
  refine mem_out.trans (Iff.trans ?_ (Finset.mem_union.trans (or_congr mem_out mem_out)).symm)
  simp only [Geo.off97_eq, Geo.off90_eq, Geo.off91_eq, lo5, lo4, lo3, lo2, lo1, Matrix.cons_val_zero, Matrix.cons_val_one, Matrix.head_cons, bit_peer_self 2 2 c, bit_peer_lt 2 2 0 c (by decide), bit_peer_lt 2 2 1 c (by decide), bit_peer_succ 2 2 3 c rfl]
  have hb0 := bit_le_one 2 0 c
  have hb1 := bit_le_one 2 1 c
  have hb2 := bit_le_one 2 2 c
  have hb3 := bit_le_one 2 3 c
  have hb4 := bit_le_one 2 4 c
  omega

/-- exchange 0, column block 2: the second piece is what the partner of exchange 1 wrote -/
theorem src_ag_0_2_1_eq (c : Dev nD) :
    (src_ag_0_2_1 c).view.set =
      (dst_ag_1_2_0 (peer 2 1 c)).view.set ∪ (dst_ag_1_2_1 (peer 2 1 c)).view.set := by
  refine Finset.ext fun (i : S1024x1024.Idx) => ?_
  refine mem_out.trans (Iff.trans ?_ (Finset.mem_union.trans (or_congr mem_out mem_out)).symm)
  simp only [Geo.off103_eq, Geo.off96_eq, Geo.off97_eq, lo5, lo4, lo3, lo2, lo1, Matrix.cons_val_zero, Matrix.cons_val_one, Matrix.head_cons, bit_peer_self 2 1 c, bit_peer_lt 2 1 0 c (by decide), bit_peer_succ 2 1 2 c rfl]
  have hb0 := bit_le_one 2 0 c
  have hb1 := bit_le_one 2 1 c
  have hb2 := bit_le_one 2 2 c
  have hb3 := bit_le_one 2 3 c
  have hb4 := bit_le_one 2 4 c
  omega

/-- exchange 3, column block 2: the second piece is what the partner of exchange 4 wrote -/
theorem src_ag_3_2_1_eq (c : Dev nD) :
    (src_ag_3_2_1 c).view.set = (dst_ag_4_2_0 (peer 2 4 c)).view.set := by
  refine Finset.ext fun (i : S1024x1024.Idx) => ?_
  refine mem_out.trans (Iff.trans ?_ mem_out.symm)
  simp only [Geo.off85_eq, Geo.off82_eq, lo5, lo4, lo3, lo2, lo1, Matrix.cons_val_zero, Matrix.cons_val_one, Matrix.head_cons, bit_peer_self 2 4 c, bit_peer_lt 2 4 0 c (by decide), bit_peer_lt 2 4 1 c (by decide), bit_peer_lt 2 4 2 c (by decide), bit_peer_lt 2 4 3 c (by decide)]

/-! ## The column blocks

The rows of column block `k` are the half that holds the device's own rows — the two pieces of the
last exchange — and the other half, which the partner of the last exchange writes. -/

/-- The positions of column block `k`. -/
def colS (k : Fin 3) : Finset S1024x1024.Idx :=
  Finset.univ.filter fun i => col0 k ≤ (i 1).val ∧ (i 1).val < col0 k + colw k

theorem mem_colS {k : Fin 3} {i : S1024x1024.Idx} : i ∈ colS k ↔ col0 k ≤ (i 1).val ∧ (i 1).val < col0 k + colw k := by
  unfold colS; rw [Finset.mem_filter]; exact and_iff_right (Finset.mem_univ i)

theorem univ_eq_cols : (Finset.univ : Finset S1024x1024.Idx) = colS 0 ∪ (colS 1 ∪ colS 2) := by
  refine Finset.ext fun i => ?_
  simp only [Finset.mem_univ, Finset.mem_union, mem_colS, col0_0, col0_1, col0_2, colw_0, colw_1, colw_2, true_iff]
  have : (i 1).val < 1024 := (i 1).isLt
  omega
theorem colS_disj_0 : Disjoint (colS 0) (colS 1 ∪ colS 2) := by
  refine Finset.disjoint_left.mpr fun i hi hj => ?_
  simp only [Finset.mem_union, mem_colS, col0_0, col0_1, col0_2, colw_0, colw_1, colw_2] at hi hj
  omega
theorem colS_disj_1 : Disjoint (colS 1) (colS 2) := by
  refine Finset.disjoint_left.mpr fun i hi hj => ?_
  simp only [mem_colS, col0_0, col0_1, col0_2, colw_0, colw_1, colw_2] at hi hj
  omega

/-- column block 0: the two pieces of the last exchange and the two the last partner writes -/
theorem colS_0_eq (c : Dev nD) :
    colS 0 = ((src_ag_0_0_0 c).view.set ∪ (src_ag_0_0_1 c).view.set) ∪
      ((dst_ag_0_0_0 (peer 0 0 c)).view.set ∪ (dst_ag_0_0_1 (peer 0 0 c)).view.set) := by
  refine Finset.ext fun (i : S1024x1024.Idx) => ?_
  refine mem_colS.trans (Iff.trans ?_ (Finset.mem_union.trans (or_congr
    (Finset.mem_union.trans (or_congr mem_out mem_out)) (Finset.mem_union.trans (or_congr mem_out mem_out)))).symm)
  simp only [Geo.off98_eq, Geo.off99_eq, lo5, lo4, lo3, lo2, lo1, Matrix.cons_val_zero, Matrix.cons_val_one, Matrix.head_cons, col0_0, col0_1, col0_2, colw_0, colw_1, colw_2, bit_peer_self 0 0 c, bit_peer_succ 0 0 1 c rfl]
  have hb0 := bit_le_one 0 0 c
  have hb1 := bit_le_one 0 1 c
  have hb2 := bit_le_one 0 2 c
  have hb3 := bit_le_one 0 3 c
  have hb4 := bit_le_one 0 4 c
  have : (i 0).val < 1024 := (i 0).isLt
  omega
theorem colS_0_disj (c : Dev nD) :
    Disjoint ((src_ag_0_0_0 c).view.set ∪ (src_ag_0_0_1 c).view.set)
      ((dst_ag_0_0_0 (peer 0 0 c)).view.set ∪ (dst_ag_0_0_1 (peer 0 0 c)).view.set) := by
  refine Finset.disjoint_left.mpr fun (i : S1024x1024.Idx) hi hj => ?_
  have h1 := (Finset.mem_union.trans (or_congr mem_out mem_out)).mp hi
  have h2 := (Finset.mem_union.trans (or_congr mem_out mem_out)).mp hj
  simp only [Geo.off98_eq, Geo.off99_eq, lo5, lo4, lo3, lo2, lo1, Matrix.cons_val_zero, Matrix.cons_val_one, Matrix.head_cons, bit_peer_self 0 0 c, bit_peer_succ 0 0 1 c rfl] at h1 h2
  have hb0 := bit_le_one 0 0 c
  have hb1 := bit_le_one 0 1 c
  have hb2 := bit_le_one 0 2 c
  have hb3 := bit_le_one 0 3 c
  have hb4 := bit_le_one 0 4 c
  omega

/-- column block 1: the two pieces of the last exchange and the two the last partner writes -/
theorem colS_1_eq (c : Dev nD) :
    colS 1 = ((src_ag_0_1_0 c).view.set ∪ (src_ag_0_1_1 c).view.set) ∪
      ((dst_ag_0_1_0 (peer 1 0 c)).view.set ∪ (dst_ag_0_1_1 (peer 1 0 c)).view.set) := by
  refine Finset.ext fun (i : S1024x1024.Idx) => ?_
  refine mem_colS.trans (Iff.trans ?_ (Finset.mem_union.trans (or_congr
    (Finset.mem_union.trans (or_congr mem_out mem_out)) (Finset.mem_union.trans (or_congr mem_out mem_out)))).symm)
  simp only [Geo.off100_eq, Geo.off101_eq, lo5, lo4, lo3, lo2, lo1, Matrix.cons_val_zero, Matrix.cons_val_one, Matrix.head_cons, col0_0, col0_1, col0_2, colw_0, colw_1, colw_2, bit_peer_self 1 0 c, bit_peer_succ 1 0 1 c rfl]
  have hb0 := bit_le_one 1 0 c
  have hb1 := bit_le_one 1 1 c
  have hb2 := bit_le_one 1 2 c
  have hb3 := bit_le_one 1 3 c
  have hb4 := bit_le_one 1 4 c
  have : (i 0).val < 1024 := (i 0).isLt
  omega
theorem colS_1_disj (c : Dev nD) :
    Disjoint ((src_ag_0_1_0 c).view.set ∪ (src_ag_0_1_1 c).view.set)
      ((dst_ag_0_1_0 (peer 1 0 c)).view.set ∪ (dst_ag_0_1_1 (peer 1 0 c)).view.set) := by
  refine Finset.disjoint_left.mpr fun (i : S1024x1024.Idx) hi hj => ?_
  have h1 := (Finset.mem_union.trans (or_congr mem_out mem_out)).mp hi
  have h2 := (Finset.mem_union.trans (or_congr mem_out mem_out)).mp hj
  simp only [Geo.off100_eq, Geo.off101_eq, lo5, lo4, lo3, lo2, lo1, Matrix.cons_val_zero, Matrix.cons_val_one, Matrix.head_cons, bit_peer_self 1 0 c, bit_peer_succ 1 0 1 c rfl] at h1 h2
  have hb0 := bit_le_one 1 0 c
  have hb1 := bit_le_one 1 1 c
  have hb2 := bit_le_one 1 2 c
  have hb3 := bit_le_one 1 3 c
  have hb4 := bit_le_one 1 4 c
  omega

/-- column block 2: the two pieces of the last exchange and the two the last partner writes -/
theorem colS_2_eq (c : Dev nD) :
    colS 2 = ((src_ag_0_2_0 c).view.set ∪ (src_ag_0_2_1 c).view.set) ∪
      ((dst_ag_0_2_0 (peer 2 0 c)).view.set ∪ (dst_ag_0_2_1 (peer 2 0 c)).view.set) := by
  refine Finset.ext fun (i : S1024x1024.Idx) => ?_
  refine mem_colS.trans (Iff.trans ?_ (Finset.mem_union.trans (or_congr
    (Finset.mem_union.trans (or_congr mem_out mem_out)) (Finset.mem_union.trans (or_congr mem_out mem_out)))).symm)
  simp only [Geo.off102_eq, Geo.off103_eq, lo5, lo4, lo3, lo2, lo1, Matrix.cons_val_zero, Matrix.cons_val_one, Matrix.head_cons, col0_0, col0_1, col0_2, colw_0, colw_1, colw_2, bit_peer_self 2 0 c, bit_peer_succ 2 0 1 c rfl]
  have hb0 := bit_le_one 2 0 c
  have hb1 := bit_le_one 2 1 c
  have hb2 := bit_le_one 2 2 c
  have hb3 := bit_le_one 2 3 c
  have hb4 := bit_le_one 2 4 c
  have : (i 0).val < 1024 := (i 0).isLt
  omega
theorem colS_2_disj (c : Dev nD) :
    Disjoint ((src_ag_0_2_0 c).view.set ∪ (src_ag_0_2_1 c).view.set)
      ((dst_ag_0_2_0 (peer 2 0 c)).view.set ∪ (dst_ag_0_2_1 (peer 2 0 c)).view.set) := by
  refine Finset.disjoint_left.mpr fun (i : S1024x1024.Idx) hi hj => ?_
  have h1 := (Finset.mem_union.trans (or_congr mem_out mem_out)).mp hi
  have h2 := (Finset.mem_union.trans (or_congr mem_out mem_out)).mp hj
  simp only [Geo.off102_eq, Geo.off103_eq, lo5, lo4, lo3, lo2, lo1, Matrix.cons_val_zero, Matrix.cons_val_one, Matrix.head_cons, bit_peer_self 2 0 c, bit_peer_succ 2 0 1 c rfl] at h1 h2
  have hb0 := bit_le_one 2 0 c
  have hb1 := bit_le_one 2 1 c
  have hb2 := bit_le_one 2 2 c
  have hb3 := bit_le_one 2 3 c
  have hb4 := bit_le_one 2 4 c
  omega

/-! ## The same identities on assertions

A piece lent, or held under a contract, is the two pieces it is made of, lent or held the same way. -/

theorem loan_src_ag_2_0_0 (c : Dev nD) :
    loanV (F := F) c (src_ag_2_0_0 c) ⊣⊢ iprop(loanV c (src_ag_3_0_0 c) ∗ loanV c (src_ag_3_0_1 c)) := by
  have h := slotS_union (F := F) (ℓ := (src_ag_2_0_0 c).view.loc (c : Thread nD τ)) (src_ag_3_0_disj c)
  rw [← src_ag_2_0_0_eq c] at h
  exact h
theorem held_src_ag_2_0_0 (c : Dev nD) (q : PosShare TreeShare) (P : S1024x1024.Idx → Elt F .bf16 → Prop) :
    heldV c (src_ag_2_0_0 c) q (fun i v => P i v) ⊣⊢
      iprop(heldV c (src_ag_3_0_0 c) q (fun i v => P i v) ∗ heldV c (src_ag_3_0_1 c) q (fun i v => P i v)) := by
  have h := heldS_union (F := F) (ℓ := (src_ag_2_0_0 c).view.loc (c : Thread nD τ)) (q := q) (src_ag_3_0_disj c) P
  rw [← src_ag_2_0_0_eq c] at h
  exact h
theorem loan_src_ag_2_0_1 (c : Dev nD) :
    loanV (F := F) c (src_ag_2_0_1 c) ⊣⊢
      iprop(loanV c (dst_ag_3_0_0 (peer 0 3 c)) ∗ loanV c (dst_ag_3_0_1 (peer 0 3 c))) := by
  have h := slotS_union (F := F) (ℓ := (src_ag_2_0_1 c).view.loc (c : Thread nD τ)) (dst_ag_3_0_disj (peer 0 3 c))
  rw [← src_ag_2_0_1_eq c] at h
  exact h
theorem held_src_ag_2_0_1 (c : Dev nD) (q : PosShare TreeShare) (P : S1024x1024.Idx → Elt F .bf16 → Prop) :
    heldV c (src_ag_2_0_1 c) q (fun i v => P i v) ⊣⊢
      iprop(heldV c (dst_ag_3_0_0 (peer 0 3 c)) q (fun i v => P i v) ∗
        heldV c (dst_ag_3_0_1 (peer 0 3 c)) q (fun i v => P i v)) := by
  have h := heldS_union (F := F) (ℓ := (src_ag_2_0_1 c).view.loc (c : Thread nD τ)) (q := q) (dst_ag_3_0_disj (peer 0 3 c)) P
  rw [← src_ag_2_0_1_eq c] at h
  exact h

theorem loan_src_ag_1_0_0 (c : Dev nD) :
    loanV (F := F) c (src_ag_1_0_0 c) ⊣⊢ iprop(loanV c (src_ag_2_0_0 c) ∗ loanV c (src_ag_2_0_1 c)) := by
  have h := slotS_union (F := F) (ℓ := (src_ag_1_0_0 c).view.loc (c : Thread nD τ)) (src_ag_2_0_disj c)
  rw [← src_ag_1_0_0_eq c] at h
  exact h
theorem held_src_ag_1_0_0 (c : Dev nD) (q : PosShare TreeShare) (P : S1024x1024.Idx → Elt F .bf16 → Prop) :
    heldV c (src_ag_1_0_0 c) q (fun i v => P i v) ⊣⊢
      iprop(heldV c (src_ag_2_0_0 c) q (fun i v => P i v) ∗ heldV c (src_ag_2_0_1 c) q (fun i v => P i v)) := by
  have h := heldS_union (F := F) (ℓ := (src_ag_1_0_0 c).view.loc (c : Thread nD τ)) (q := q) (src_ag_2_0_disj c) P
  rw [← src_ag_1_0_0_eq c] at h
  exact h
theorem loan_src_ag_1_0_1 (c : Dev nD) :
    loanV (F := F) c (src_ag_1_0_1 c) ⊣⊢
      iprop(loanV c (dst_ag_2_0_0 (peer 0 2 c)) ∗ loanV c (dst_ag_2_0_1 (peer 0 2 c))) := by
  have h := slotS_union (F := F) (ℓ := (src_ag_1_0_1 c).view.loc (c : Thread nD τ)) (dst_ag_2_0_disj (peer 0 2 c))
  rw [← src_ag_1_0_1_eq c] at h
  exact h
theorem held_src_ag_1_0_1 (c : Dev nD) (q : PosShare TreeShare) (P : S1024x1024.Idx → Elt F .bf16 → Prop) :
    heldV c (src_ag_1_0_1 c) q (fun i v => P i v) ⊣⊢
      iprop(heldV c (dst_ag_2_0_0 (peer 0 2 c)) q (fun i v => P i v) ∗
        heldV c (dst_ag_2_0_1 (peer 0 2 c)) q (fun i v => P i v)) := by
  have h := heldS_union (F := F) (ℓ := (src_ag_1_0_1 c).view.loc (c : Thread nD τ)) (q := q) (dst_ag_2_0_disj (peer 0 2 c)) P
  rw [← src_ag_1_0_1_eq c] at h
  exact h

theorem loan_src_ag_0_0_0 (c : Dev nD) :
    loanV (F := F) c (src_ag_0_0_0 c) ⊣⊢ iprop(loanV c (src_ag_1_0_0 c) ∗ loanV c (src_ag_1_0_1 c)) := by
  have h := slotS_union (F := F) (ℓ := (src_ag_0_0_0 c).view.loc (c : Thread nD τ)) (src_ag_1_0_disj c)
  rw [← src_ag_0_0_0_eq c] at h
  exact h
theorem held_src_ag_0_0_0 (c : Dev nD) (q : PosShare TreeShare) (P : S1024x1024.Idx → Elt F .bf16 → Prop) :
    heldV c (src_ag_0_0_0 c) q (fun i v => P i v) ⊣⊢
      iprop(heldV c (src_ag_1_0_0 c) q (fun i v => P i v) ∗ heldV c (src_ag_1_0_1 c) q (fun i v => P i v)) := by
  have h := heldS_union (F := F) (ℓ := (src_ag_0_0_0 c).view.loc (c : Thread nD τ)) (q := q) (src_ag_1_0_disj c) P
  rw [← src_ag_0_0_0_eq c] at h
  exact h
theorem loan_src_ag_0_0_1 (c : Dev nD) :
    loanV (F := F) c (src_ag_0_0_1 c) ⊣⊢
      iprop(loanV c (dst_ag_1_0_0 (peer 0 1 c)) ∗ loanV c (dst_ag_1_0_1 (peer 0 1 c))) := by
  have h := slotS_union (F := F) (ℓ := (src_ag_0_0_1 c).view.loc (c : Thread nD τ)) (dst_ag_1_0_disj (peer 0 1 c))
  rw [← src_ag_0_0_1_eq c] at h
  exact h
theorem held_src_ag_0_0_1 (c : Dev nD) (q : PosShare TreeShare) (P : S1024x1024.Idx → Elt F .bf16 → Prop) :
    heldV c (src_ag_0_0_1 c) q (fun i v => P i v) ⊣⊢
      iprop(heldV c (dst_ag_1_0_0 (peer 0 1 c)) q (fun i v => P i v) ∗
        heldV c (dst_ag_1_0_1 (peer 0 1 c)) q (fun i v => P i v)) := by
  have h := heldS_union (F := F) (ℓ := (src_ag_0_0_1 c).view.loc (c : Thread nD τ)) (q := q) (dst_ag_1_0_disj (peer 0 1 c)) P
  rw [← src_ag_0_0_1_eq c] at h
  exact h

theorem loan_src_ag_3_0_1 (c : Dev nD) :
    loanV (F := F) c (src_ag_3_0_1 c) = loanV c (dst_ag_4_0_0 (peer 0 4 c)) := by
  unfold loanV; rw [src_ag_3_0_1_eq c]
theorem held_src_ag_3_0_1 (c : Dev nD) (q : PosShare TreeShare) (P : S1024x1024.Idx → Elt F .bf16 → Prop) :
    heldV c (src_ag_3_0_1 c) q (fun i v => P i v) = heldV c (dst_ag_4_0_0 (peer 0 4 c)) q (fun i v => P i v) := by
  unfold heldV; rw [src_ag_3_0_1_eq c]
theorem loan_colS_0 (c : Dev nD) :
    slotS (F := F) ((c : Thread nD τ).loc cc0_stg2_0) (colS 0) ⊣⊢
      iprop((loanV c (src_ag_0_0_0 c) ∗ loanV c (src_ag_0_0_1 c)) ∗
        (loanV c (dst_ag_0_0_0 (peer 0 0 c)) ∗ loanV c (dst_ag_0_0_1 (peer 0 0 c)))) := by
  have h := slotS_union (F := F) (ℓ := (c : Thread nD τ).loc cc0_stg2_0) (colS_0_disj c)
  rw [← colS_0_eq c] at h
  have h1 := slotS_union (F := F) (ℓ := (c : Thread nD τ).loc cc0_stg2_0) (src_ag_0_0_disj c)
  have h2 := slotS_union (F := F) (ℓ := (c : Thread nD τ).loc cc0_stg2_0) (dst_ag_0_0_disj (peer 0 0 c))
  exact ⟨h.1.trans (BIClass.sep_mono h1.1 h2.1), (BIClass.sep_mono h1.2 h2.2).trans h.2⟩
theorem held_colS_0 (c : Dev nD) (q : PosShare TreeShare) (P : S1024x1024.Idx → Elt F .bf16 → Prop) :
    heldS (F := F) ((c : Thread nD τ).loc cc0_stg2_0) (colS 0) q (fun i v => P i v) ⊣⊢
      iprop((heldV c (src_ag_0_0_0 c) q (fun i v => P i v) ∗ heldV c (src_ag_0_0_1 c) q (fun i v => P i v)) ∗
        (heldV c (dst_ag_0_0_0 (peer 0 0 c)) q (fun i v => P i v) ∗ heldV c (dst_ag_0_0_1 (peer 0 0 c)) q (fun i v => P i v))) := by
  have h := heldS_union (F := F) (ℓ := (c : Thread nD τ).loc cc0_stg2_0) (q := q) (colS_0_disj c) P
  rw [← colS_0_eq c] at h
  have h1 := heldS_union (F := F) (ℓ := (c : Thread nD τ).loc cc0_stg2_0) (q := q) (src_ag_0_0_disj c) P
  have h2 := heldS_union (F := F) (ℓ := (c : Thread nD τ).loc cc0_stg2_0) (q := q) (dst_ag_0_0_disj (peer 0 0 c)) P
  exact ⟨h.1.trans (BIClass.sep_mono h1.1 h2.1), (BIClass.sep_mono h1.2 h2.2).trans h.2⟩

theorem loan_src_ag_2_1_0 (c : Dev nD) :
    loanV (F := F) c (src_ag_2_1_0 c) ⊣⊢ iprop(loanV c (src_ag_3_1_0 c) ∗ loanV c (src_ag_3_1_1 c)) := by
  have h := slotS_union (F := F) (ℓ := (src_ag_2_1_0 c).view.loc (c : Thread nD τ)) (src_ag_3_1_disj c)
  rw [← src_ag_2_1_0_eq c] at h
  exact h
theorem held_src_ag_2_1_0 (c : Dev nD) (q : PosShare TreeShare) (P : S1024x1024.Idx → Elt F .bf16 → Prop) :
    heldV c (src_ag_2_1_0 c) q (fun i v => P i v) ⊣⊢
      iprop(heldV c (src_ag_3_1_0 c) q (fun i v => P i v) ∗ heldV c (src_ag_3_1_1 c) q (fun i v => P i v)) := by
  have h := heldS_union (F := F) (ℓ := (src_ag_2_1_0 c).view.loc (c : Thread nD τ)) (q := q) (src_ag_3_1_disj c) P
  rw [← src_ag_2_1_0_eq c] at h
  exact h
theorem loan_src_ag_2_1_1 (c : Dev nD) :
    loanV (F := F) c (src_ag_2_1_1 c) ⊣⊢
      iprop(loanV c (dst_ag_3_1_0 (peer 1 3 c)) ∗ loanV c (dst_ag_3_1_1 (peer 1 3 c))) := by
  have h := slotS_union (F := F) (ℓ := (src_ag_2_1_1 c).view.loc (c : Thread nD τ)) (dst_ag_3_1_disj (peer 1 3 c))
  rw [← src_ag_2_1_1_eq c] at h
  exact h
theorem held_src_ag_2_1_1 (c : Dev nD) (q : PosShare TreeShare) (P : S1024x1024.Idx → Elt F .bf16 → Prop) :
    heldV c (src_ag_2_1_1 c) q (fun i v => P i v) ⊣⊢
      iprop(heldV c (dst_ag_3_1_0 (peer 1 3 c)) q (fun i v => P i v) ∗
        heldV c (dst_ag_3_1_1 (peer 1 3 c)) q (fun i v => P i v)) := by
  have h := heldS_union (F := F) (ℓ := (src_ag_2_1_1 c).view.loc (c : Thread nD τ)) (q := q) (dst_ag_3_1_disj (peer 1 3 c)) P
  rw [← src_ag_2_1_1_eq c] at h
  exact h

theorem loan_src_ag_1_1_0 (c : Dev nD) :
    loanV (F := F) c (src_ag_1_1_0 c) ⊣⊢ iprop(loanV c (src_ag_2_1_0 c) ∗ loanV c (src_ag_2_1_1 c)) := by
  have h := slotS_union (F := F) (ℓ := (src_ag_1_1_0 c).view.loc (c : Thread nD τ)) (src_ag_2_1_disj c)
  rw [← src_ag_1_1_0_eq c] at h
  exact h
theorem held_src_ag_1_1_0 (c : Dev nD) (q : PosShare TreeShare) (P : S1024x1024.Idx → Elt F .bf16 → Prop) :
    heldV c (src_ag_1_1_0 c) q (fun i v => P i v) ⊣⊢
      iprop(heldV c (src_ag_2_1_0 c) q (fun i v => P i v) ∗ heldV c (src_ag_2_1_1 c) q (fun i v => P i v)) := by
  have h := heldS_union (F := F) (ℓ := (src_ag_1_1_0 c).view.loc (c : Thread nD τ)) (q := q) (src_ag_2_1_disj c) P
  rw [← src_ag_1_1_0_eq c] at h
  exact h
theorem loan_src_ag_1_1_1 (c : Dev nD) :
    loanV (F := F) c (src_ag_1_1_1 c) ⊣⊢
      iprop(loanV c (dst_ag_2_1_0 (peer 1 2 c)) ∗ loanV c (dst_ag_2_1_1 (peer 1 2 c))) := by
  have h := slotS_union (F := F) (ℓ := (src_ag_1_1_1 c).view.loc (c : Thread nD τ)) (dst_ag_2_1_disj (peer 1 2 c))
  rw [← src_ag_1_1_1_eq c] at h
  exact h
theorem held_src_ag_1_1_1 (c : Dev nD) (q : PosShare TreeShare) (P : S1024x1024.Idx → Elt F .bf16 → Prop) :
    heldV c (src_ag_1_1_1 c) q (fun i v => P i v) ⊣⊢
      iprop(heldV c (dst_ag_2_1_0 (peer 1 2 c)) q (fun i v => P i v) ∗
        heldV c (dst_ag_2_1_1 (peer 1 2 c)) q (fun i v => P i v)) := by
  have h := heldS_union (F := F) (ℓ := (src_ag_1_1_1 c).view.loc (c : Thread nD τ)) (q := q) (dst_ag_2_1_disj (peer 1 2 c)) P
  rw [← src_ag_1_1_1_eq c] at h
  exact h

theorem loan_src_ag_0_1_0 (c : Dev nD) :
    loanV (F := F) c (src_ag_0_1_0 c) ⊣⊢ iprop(loanV c (src_ag_1_1_0 c) ∗ loanV c (src_ag_1_1_1 c)) := by
  have h := slotS_union (F := F) (ℓ := (src_ag_0_1_0 c).view.loc (c : Thread nD τ)) (src_ag_1_1_disj c)
  rw [← src_ag_0_1_0_eq c] at h
  exact h
theorem held_src_ag_0_1_0 (c : Dev nD) (q : PosShare TreeShare) (P : S1024x1024.Idx → Elt F .bf16 → Prop) :
    heldV c (src_ag_0_1_0 c) q (fun i v => P i v) ⊣⊢
      iprop(heldV c (src_ag_1_1_0 c) q (fun i v => P i v) ∗ heldV c (src_ag_1_1_1 c) q (fun i v => P i v)) := by
  have h := heldS_union (F := F) (ℓ := (src_ag_0_1_0 c).view.loc (c : Thread nD τ)) (q := q) (src_ag_1_1_disj c) P
  rw [← src_ag_0_1_0_eq c] at h
  exact h
theorem loan_src_ag_0_1_1 (c : Dev nD) :
    loanV (F := F) c (src_ag_0_1_1 c) ⊣⊢
      iprop(loanV c (dst_ag_1_1_0 (peer 1 1 c)) ∗ loanV c (dst_ag_1_1_1 (peer 1 1 c))) := by
  have h := slotS_union (F := F) (ℓ := (src_ag_0_1_1 c).view.loc (c : Thread nD τ)) (dst_ag_1_1_disj (peer 1 1 c))
  rw [← src_ag_0_1_1_eq c] at h
  exact h
theorem held_src_ag_0_1_1 (c : Dev nD) (q : PosShare TreeShare) (P : S1024x1024.Idx → Elt F .bf16 → Prop) :
    heldV c (src_ag_0_1_1 c) q (fun i v => P i v) ⊣⊢
      iprop(heldV c (dst_ag_1_1_0 (peer 1 1 c)) q (fun i v => P i v) ∗
        heldV c (dst_ag_1_1_1 (peer 1 1 c)) q (fun i v => P i v)) := by
  have h := heldS_union (F := F) (ℓ := (src_ag_0_1_1 c).view.loc (c : Thread nD τ)) (q := q) (dst_ag_1_1_disj (peer 1 1 c)) P
  rw [← src_ag_0_1_1_eq c] at h
  exact h

theorem loan_src_ag_3_1_1 (c : Dev nD) :
    loanV (F := F) c (src_ag_3_1_1 c) = loanV c (dst_ag_4_1_0 (peer 1 4 c)) := by
  unfold loanV; rw [src_ag_3_1_1_eq c]
theorem held_src_ag_3_1_1 (c : Dev nD) (q : PosShare TreeShare) (P : S1024x1024.Idx → Elt F .bf16 → Prop) :
    heldV c (src_ag_3_1_1 c) q (fun i v => P i v) = heldV c (dst_ag_4_1_0 (peer 1 4 c)) q (fun i v => P i v) := by
  unfold heldV; rw [src_ag_3_1_1_eq c]
theorem loan_colS_1 (c : Dev nD) :
    slotS (F := F) ((c : Thread nD τ).loc cc0_stg2_0) (colS 1) ⊣⊢
      iprop((loanV c (src_ag_0_1_0 c) ∗ loanV c (src_ag_0_1_1 c)) ∗
        (loanV c (dst_ag_0_1_0 (peer 1 0 c)) ∗ loanV c (dst_ag_0_1_1 (peer 1 0 c)))) := by
  have h := slotS_union (F := F) (ℓ := (c : Thread nD τ).loc cc0_stg2_0) (colS_1_disj c)
  rw [← colS_1_eq c] at h
  have h1 := slotS_union (F := F) (ℓ := (c : Thread nD τ).loc cc0_stg2_0) (src_ag_0_1_disj c)
  have h2 := slotS_union (F := F) (ℓ := (c : Thread nD τ).loc cc0_stg2_0) (dst_ag_0_1_disj (peer 1 0 c))
  exact ⟨h.1.trans (BIClass.sep_mono h1.1 h2.1), (BIClass.sep_mono h1.2 h2.2).trans h.2⟩
theorem held_colS_1 (c : Dev nD) (q : PosShare TreeShare) (P : S1024x1024.Idx → Elt F .bf16 → Prop) :
    heldS (F := F) ((c : Thread nD τ).loc cc0_stg2_0) (colS 1) q (fun i v => P i v) ⊣⊢
      iprop((heldV c (src_ag_0_1_0 c) q (fun i v => P i v) ∗ heldV c (src_ag_0_1_1 c) q (fun i v => P i v)) ∗
        (heldV c (dst_ag_0_1_0 (peer 1 0 c)) q (fun i v => P i v) ∗ heldV c (dst_ag_0_1_1 (peer 1 0 c)) q (fun i v => P i v))) := by
  have h := heldS_union (F := F) (ℓ := (c : Thread nD τ).loc cc0_stg2_0) (q := q) (colS_1_disj c) P
  rw [← colS_1_eq c] at h
  have h1 := heldS_union (F := F) (ℓ := (c : Thread nD τ).loc cc0_stg2_0) (q := q) (src_ag_0_1_disj c) P
  have h2 := heldS_union (F := F) (ℓ := (c : Thread nD τ).loc cc0_stg2_0) (q := q) (dst_ag_0_1_disj (peer 1 0 c)) P
  exact ⟨h.1.trans (BIClass.sep_mono h1.1 h2.1), (BIClass.sep_mono h1.2 h2.2).trans h.2⟩

theorem loan_src_ag_2_2_0 (c : Dev nD) :
    loanV (F := F) c (src_ag_2_2_0 c) ⊣⊢ iprop(loanV c (src_ag_3_2_0 c) ∗ loanV c (src_ag_3_2_1 c)) := by
  have h := slotS_union (F := F) (ℓ := (src_ag_2_2_0 c).view.loc (c : Thread nD τ)) (src_ag_3_2_disj c)
  rw [← src_ag_2_2_0_eq c] at h
  exact h
theorem held_src_ag_2_2_0 (c : Dev nD) (q : PosShare TreeShare) (P : S1024x1024.Idx → Elt F .bf16 → Prop) :
    heldV c (src_ag_2_2_0 c) q (fun i v => P i v) ⊣⊢
      iprop(heldV c (src_ag_3_2_0 c) q (fun i v => P i v) ∗ heldV c (src_ag_3_2_1 c) q (fun i v => P i v)) := by
  have h := heldS_union (F := F) (ℓ := (src_ag_2_2_0 c).view.loc (c : Thread nD τ)) (q := q) (src_ag_3_2_disj c) P
  rw [← src_ag_2_2_0_eq c] at h
  exact h
theorem loan_src_ag_2_2_1 (c : Dev nD) :
    loanV (F := F) c (src_ag_2_2_1 c) ⊣⊢
      iprop(loanV c (dst_ag_3_2_0 (peer 2 3 c)) ∗ loanV c (dst_ag_3_2_1 (peer 2 3 c))) := by
  have h := slotS_union (F := F) (ℓ := (src_ag_2_2_1 c).view.loc (c : Thread nD τ)) (dst_ag_3_2_disj (peer 2 3 c))
  rw [← src_ag_2_2_1_eq c] at h
  exact h
theorem held_src_ag_2_2_1 (c : Dev nD) (q : PosShare TreeShare) (P : S1024x1024.Idx → Elt F .bf16 → Prop) :
    heldV c (src_ag_2_2_1 c) q (fun i v => P i v) ⊣⊢
      iprop(heldV c (dst_ag_3_2_0 (peer 2 3 c)) q (fun i v => P i v) ∗
        heldV c (dst_ag_3_2_1 (peer 2 3 c)) q (fun i v => P i v)) := by
  have h := heldS_union (F := F) (ℓ := (src_ag_2_2_1 c).view.loc (c : Thread nD τ)) (q := q) (dst_ag_3_2_disj (peer 2 3 c)) P
  rw [← src_ag_2_2_1_eq c] at h
  exact h

theorem loan_src_ag_1_2_0 (c : Dev nD) :
    loanV (F := F) c (src_ag_1_2_0 c) ⊣⊢ iprop(loanV c (src_ag_2_2_0 c) ∗ loanV c (src_ag_2_2_1 c)) := by
  have h := slotS_union (F := F) (ℓ := (src_ag_1_2_0 c).view.loc (c : Thread nD τ)) (src_ag_2_2_disj c)
  rw [← src_ag_1_2_0_eq c] at h
  exact h
theorem held_src_ag_1_2_0 (c : Dev nD) (q : PosShare TreeShare) (P : S1024x1024.Idx → Elt F .bf16 → Prop) :
    heldV c (src_ag_1_2_0 c) q (fun i v => P i v) ⊣⊢
      iprop(heldV c (src_ag_2_2_0 c) q (fun i v => P i v) ∗ heldV c (src_ag_2_2_1 c) q (fun i v => P i v)) := by
  have h := heldS_union (F := F) (ℓ := (src_ag_1_2_0 c).view.loc (c : Thread nD τ)) (q := q) (src_ag_2_2_disj c) P
  rw [← src_ag_1_2_0_eq c] at h
  exact h
theorem loan_src_ag_1_2_1 (c : Dev nD) :
    loanV (F := F) c (src_ag_1_2_1 c) ⊣⊢
      iprop(loanV c (dst_ag_2_2_0 (peer 2 2 c)) ∗ loanV c (dst_ag_2_2_1 (peer 2 2 c))) := by
  have h := slotS_union (F := F) (ℓ := (src_ag_1_2_1 c).view.loc (c : Thread nD τ)) (dst_ag_2_2_disj (peer 2 2 c))
  rw [← src_ag_1_2_1_eq c] at h
  exact h
theorem held_src_ag_1_2_1 (c : Dev nD) (q : PosShare TreeShare) (P : S1024x1024.Idx → Elt F .bf16 → Prop) :
    heldV c (src_ag_1_2_1 c) q (fun i v => P i v) ⊣⊢
      iprop(heldV c (dst_ag_2_2_0 (peer 2 2 c)) q (fun i v => P i v) ∗
        heldV c (dst_ag_2_2_1 (peer 2 2 c)) q (fun i v => P i v)) := by
  have h := heldS_union (F := F) (ℓ := (src_ag_1_2_1 c).view.loc (c : Thread nD τ)) (q := q) (dst_ag_2_2_disj (peer 2 2 c)) P
  rw [← src_ag_1_2_1_eq c] at h
  exact h

theorem loan_src_ag_0_2_0 (c : Dev nD) :
    loanV (F := F) c (src_ag_0_2_0 c) ⊣⊢ iprop(loanV c (src_ag_1_2_0 c) ∗ loanV c (src_ag_1_2_1 c)) := by
  have h := slotS_union (F := F) (ℓ := (src_ag_0_2_0 c).view.loc (c : Thread nD τ)) (src_ag_1_2_disj c)
  rw [← src_ag_0_2_0_eq c] at h
  exact h
theorem held_src_ag_0_2_0 (c : Dev nD) (q : PosShare TreeShare) (P : S1024x1024.Idx → Elt F .bf16 → Prop) :
    heldV c (src_ag_0_2_0 c) q (fun i v => P i v) ⊣⊢
      iprop(heldV c (src_ag_1_2_0 c) q (fun i v => P i v) ∗ heldV c (src_ag_1_2_1 c) q (fun i v => P i v)) := by
  have h := heldS_union (F := F) (ℓ := (src_ag_0_2_0 c).view.loc (c : Thread nD τ)) (q := q) (src_ag_1_2_disj c) P
  rw [← src_ag_0_2_0_eq c] at h
  exact h
theorem loan_src_ag_0_2_1 (c : Dev nD) :
    loanV (F := F) c (src_ag_0_2_1 c) ⊣⊢
      iprop(loanV c (dst_ag_1_2_0 (peer 2 1 c)) ∗ loanV c (dst_ag_1_2_1 (peer 2 1 c))) := by
  have h := slotS_union (F := F) (ℓ := (src_ag_0_2_1 c).view.loc (c : Thread nD τ)) (dst_ag_1_2_disj (peer 2 1 c))
  rw [← src_ag_0_2_1_eq c] at h
  exact h
theorem held_src_ag_0_2_1 (c : Dev nD) (q : PosShare TreeShare) (P : S1024x1024.Idx → Elt F .bf16 → Prop) :
    heldV c (src_ag_0_2_1 c) q (fun i v => P i v) ⊣⊢
      iprop(heldV c (dst_ag_1_2_0 (peer 2 1 c)) q (fun i v => P i v) ∗
        heldV c (dst_ag_1_2_1 (peer 2 1 c)) q (fun i v => P i v)) := by
  have h := heldS_union (F := F) (ℓ := (src_ag_0_2_1 c).view.loc (c : Thread nD τ)) (q := q) (dst_ag_1_2_disj (peer 2 1 c)) P
  rw [← src_ag_0_2_1_eq c] at h
  exact h

theorem loan_src_ag_3_2_1 (c : Dev nD) :
    loanV (F := F) c (src_ag_3_2_1 c) = loanV c (dst_ag_4_2_0 (peer 2 4 c)) := by
  unfold loanV; rw [src_ag_3_2_1_eq c]
theorem held_src_ag_3_2_1 (c : Dev nD) (q : PosShare TreeShare) (P : S1024x1024.Idx → Elt F .bf16 → Prop) :
    heldV c (src_ag_3_2_1 c) q (fun i v => P i v) = heldV c (dst_ag_4_2_0 (peer 2 4 c)) q (fun i v => P i v) := by
  unfold heldV; rw [src_ag_3_2_1_eq c]
theorem loan_colS_2 (c : Dev nD) :
    slotS (F := F) ((c : Thread nD τ).loc cc0_stg2_0) (colS 2) ⊣⊢
      iprop((loanV c (src_ag_0_2_0 c) ∗ loanV c (src_ag_0_2_1 c)) ∗
        (loanV c (dst_ag_0_2_0 (peer 2 0 c)) ∗ loanV c (dst_ag_0_2_1 (peer 2 0 c)))) := by
  have h := slotS_union (F := F) (ℓ := (c : Thread nD τ).loc cc0_stg2_0) (colS_2_disj c)
  rw [← colS_2_eq c] at h
  have h1 := slotS_union (F := F) (ℓ := (c : Thread nD τ).loc cc0_stg2_0) (src_ag_0_2_disj c)
  have h2 := slotS_union (F := F) (ℓ := (c : Thread nD τ).loc cc0_stg2_0) (dst_ag_0_2_disj (peer 2 0 c))
  exact ⟨h.1.trans (BIClass.sep_mono h1.1 h2.1), (BIClass.sep_mono h1.2 h2.2).trans h.2⟩
theorem held_colS_2 (c : Dev nD) (q : PosShare TreeShare) (P : S1024x1024.Idx → Elt F .bf16 → Prop) :
    heldS (F := F) ((c : Thread nD τ).loc cc0_stg2_0) (colS 2) q (fun i v => P i v) ⊣⊢
      iprop((heldV c (src_ag_0_2_0 c) q (fun i v => P i v) ∗ heldV c (src_ag_0_2_1 c) q (fun i v => P i v)) ∗
        (heldV c (dst_ag_0_2_0 (peer 2 0 c)) q (fun i v => P i v) ∗ heldV c (dst_ag_0_2_1 (peer 2 0 c)) q (fun i v => P i v))) := by
  have h := heldS_union (F := F) (ℓ := (c : Thread nD τ).loc cc0_stg2_0) (q := q) (colS_2_disj c) P
  rw [← colS_2_eq c] at h
  have h1 := heldS_union (F := F) (ℓ := (c : Thread nD τ).loc cc0_stg2_0) (q := q) (src_ag_0_2_disj c) P
  have h2 := heldS_union (F := F) (ℓ := (c : Thread nD τ).loc cc0_stg2_0) (q := q) (dst_ag_0_2_disj (peer 2 0 c)) P
  exact ⟨h.1.trans (BIClass.sep_mono h1.1 h2.1), (BIClass.sep_mono h1.2 h2.2).trans h.2⟩

/-! ## The whole result buffer

At the start of the gathering phase the buffer is the device's own rows of the three column blocks
and the twenty-seven landing places of the partners' pieces; at the end, those thirty pieces, each
holding values that satisfy the contract, are the buffer holding such values everywhere. -/

omit [FloatOps F] in
theorem slot_cols (c : Dev nD) :
    iprop(∃ f : Buf (Elt F) ((c : Thread nD τ).loc cc0_stg2_0), ((c : Thread nD τ).loc cc0_stg2_0) ↦{fullShare} f) ⊢
      (iprop(slotS ((c : Thread nD τ).loc cc0_stg2_0) (colS 0) ∗ slotS ((c : Thread nD τ).loc cc0_stg2_0) (colS 1) ∗ slotS ((c : Thread nD τ).loc cc0_stg2_0) (colS 2)) : sProp 𝕄) := by
  have h := slotS_union (F := F) (ℓ := ((c : Thread nD τ).loc cc0_stg2_0)) colS_disj_0
  rw [← univ_eq_cols] at h
  have h' := slotS_union (F := F) (ℓ := ((c : Thread nD τ).loc cc0_stg2_0)) colS_disj_1
  exact h.1.trans (BIClass.sep_mono (BIClass.entails_refl _) h'.1)

omit [FloatOps F] in
theorem held_cols (c : Dev nD) (P : S1024x1024.Idx → Elt F .bf16 → Prop) :
    iprop(heldS ((c : Thread nD τ).loc cc0_stg2_0) (colS 0) fullShare (fun i v => P i v) ∗ heldS ((c : Thread nD τ).loc cc0_stg2_0) (colS 1) fullShare (fun i v => P i v) ∗
        heldS ((c : Thread nD τ).loc cc0_stg2_0) (colS 2) fullShare (fun i v => P i v)) ⊢
      (iprop(∃ X : Buf (Elt F) ((c : Thread nD τ).loc cc0_stg2_0), ⌜∀ i, P i (X i)⌝ ∗ ((c : Thread nD τ).loc cc0_stg2_0) ↦{fullShare} X) : sProp 𝕄) := by
  have h := heldS_union (F := F) (ℓ := ((c : Thread nD τ).loc cc0_stg2_0)) (q := fullShare) colS_disj_0 P
  rw [← univ_eq_cols] at h
  have h' := heldS_union (F := F) (ℓ := ((c : Thread nD τ).loc cc0_stg2_0)) (q := fullShare) colS_disj_1 P
  exact ((BIClass.sep_mono (BIClass.entails_refl _) h'.2).trans h.2).trans (heldS_univ _)

/-- The buffer, whole, at any contents, is the device's own rows of the three column blocks and the
    landing places of the twenty-seven pieces its partners send it, each at any contents. The landing place
    of a piece is named by its sender's slice. -/
theorem out_split (c : Dev nD) :
    iprop(∃ f : Buf (Elt F) ((c : Thread nD τ).loc cc0_stg2_0), ((c : Thread nD τ).loc cc0_stg2_0) ↦{fullShare} f) ⊢
      (iprop(loanV c (src_ag_4_0_0 c) ∗
        loanV c (src_ag_4_1_0 c) ∗
        loanV c (src_ag_4_2_0 c) ∗
        loanV c (dst_ag_4_0_0 (peer 0 4 c)) ∗
        loanV c (dst_ag_4_1_0 (peer 1 4 c)) ∗
        loanV c (dst_ag_4_2_0 (peer 2 4 c)) ∗
        loanV c (dst_ag_3_0_0 (peer 0 3 c)) ∗
        loanV c (dst_ag_3_0_1 (peer 0 3 c)) ∗
        loanV c (dst_ag_3_1_0 (peer 1 3 c)) ∗
        loanV c (dst_ag_3_1_1 (peer 1 3 c)) ∗
        loanV c (dst_ag_3_2_0 (peer 2 3 c)) ∗
        loanV c (dst_ag_3_2_1 (peer 2 3 c)) ∗
        loanV c (dst_ag_2_0_0 (peer 0 2 c)) ∗
        loanV c (dst_ag_2_0_1 (peer 0 2 c)) ∗
        loanV c (dst_ag_2_1_0 (peer 1 2 c)) ∗
        loanV c (dst_ag_2_1_1 (peer 1 2 c)) ∗
        loanV c (dst_ag_2_2_0 (peer 2 2 c)) ∗
        loanV c (dst_ag_2_2_1 (peer 2 2 c)) ∗
        loanV c (dst_ag_1_0_0 (peer 0 1 c)) ∗
        loanV c (dst_ag_1_0_1 (peer 0 1 c)) ∗
        loanV c (dst_ag_1_1_0 (peer 1 1 c)) ∗
        loanV c (dst_ag_1_1_1 (peer 1 1 c)) ∗
        loanV c (dst_ag_1_2_0 (peer 2 1 c)) ∗
        loanV c (dst_ag_1_2_1 (peer 2 1 c)) ∗
        loanV c (dst_ag_0_0_0 (peer 0 0 c)) ∗
        loanV c (dst_ag_0_0_1 (peer 0 0 c)) ∗
        loanV c (dst_ag_0_1_0 (peer 1 0 c)) ∗
        loanV c (dst_ag_0_1_1 (peer 1 0 c)) ∗
        loanV c (dst_ag_0_2_0 (peer 2 0 c)) ∗
        loanV c (dst_ag_0_2_1 (peer 2 0 c))) : sProp 𝕄) := by
  iintro H
  ihave H := (slot_cols c) $$ H
  icases H with ⟨C0, C1, C2⟩
  -- column block 0, from the last exchange down to the first
  ihave C0 := (loan_colS_0 c).1 $$ C0
  icases C0 with ⟨⟨R, L⟩, ⟨D000, D001⟩⟩
  ihave L := (loan_src_ag_0_0_1 c).1 $$ L
  icases L with ⟨D100, D101⟩
  ihave R := (loan_src_ag_0_0_0 c).1 $$ R
  icases R with ⟨R, L⟩
  ihave L := (loan_src_ag_1_0_1 c).1 $$ L
  icases L with ⟨D200, D201⟩
  ihave R := (loan_src_ag_1_0_0 c).1 $$ R
  icases R with ⟨R, L⟩
  ihave L := (loan_src_ag_2_0_1 c).1 $$ L
  icases L with ⟨D300, D301⟩
  ihave R := (loan_src_ag_2_0_0 c).1 $$ R
  icases R with ⟨O0, L⟩
  ihave D400 := (Entails.of_eq (loan_src_ag_3_0_1 (F := F) c)) $$ L
  -- column block 1, from the last exchange down to the first
  ihave C1 := (loan_colS_1 c).1 $$ C1
  icases C1 with ⟨⟨R, L⟩, ⟨D010, D011⟩⟩
  ihave L := (loan_src_ag_0_1_1 c).1 $$ L
  icases L with ⟨D110, D111⟩
  ihave R := (loan_src_ag_0_1_0 c).1 $$ R
  icases R with ⟨R, L⟩
  ihave L := (loan_src_ag_1_1_1 c).1 $$ L
  icases L with ⟨D210, D211⟩
  ihave R := (loan_src_ag_1_1_0 c).1 $$ R
  icases R with ⟨R, L⟩
  ihave L := (loan_src_ag_2_1_1 c).1 $$ L
  icases L with ⟨D310, D311⟩
  ihave R := (loan_src_ag_2_1_0 c).1 $$ R
  icases R with ⟨O1, L⟩
  ihave D410 := (Entails.of_eq (loan_src_ag_3_1_1 (F := F) c)) $$ L
  -- column block 2, from the last exchange down to the first
  ihave C2 := (loan_colS_2 c).1 $$ C2
  icases C2 with ⟨⟨R, L⟩, ⟨D020, D021⟩⟩
  ihave L := (loan_src_ag_0_2_1 c).1 $$ L
  icases L with ⟨D120, D121⟩
  ihave R := (loan_src_ag_0_2_0 c).1 $$ R
  icases R with ⟨R, L⟩
  ihave L := (loan_src_ag_1_2_1 c).1 $$ L
  icases L with ⟨D220, D221⟩
  ihave R := (loan_src_ag_1_2_0 c).1 $$ R
  icases R with ⟨R, L⟩
  ihave L := (loan_src_ag_2_2_1 c).1 $$ L
  icases L with ⟨D320, D321⟩
  ihave R := (loan_src_ag_2_2_0 c).1 $$ R
  icases R with ⟨O2, L⟩
  ihave D420 := (Entails.of_eq (loan_src_ag_3_2_1 (F := F) c)) $$ L
  isplitl [O0]
  · iexact O0
  isplitl [O1]
  · iexact O1
  isplitl [O2]
  · iexact O2
  isplitl [D400]
  · iexact D400
  isplitl [D410]
  · iexact D410
  isplitl [D420]
  · iexact D420
  isplitl [D300]
  · iexact D300
  isplitl [D301]
  · iexact D301
  isplitl [D310]
  · iexact D310
  isplitl [D311]
  · iexact D311
  isplitl [D320]
  · iexact D320
  isplitl [D321]
  · iexact D321
  isplitl [D200]
  · iexact D200
  isplitl [D201]
  · iexact D201
  isplitl [D210]
  · iexact D210
  isplitl [D211]
  · iexact D211
  isplitl [D220]
  · iexact D220
  isplitl [D221]
  · iexact D221
  isplitl [D100]
  · iexact D100
  isplitl [D101]
  · iexact D101
  isplitl [D110]
  · iexact D110
  isplitl [D111]
  · iexact D111
  isplitl [D120]
  · iexact D120
  isplitl [D121]
  · iexact D121
  isplitl [D000]
  · iexact D000
  isplitl [D001]
  · iexact D001
  isplitl [D010]
  · iexact D010
  isplitl [D011]
  · iexact D011
  isplitl [D020]
  · iexact D020
  iexact D021

/-- The thirty pieces, each whole and holding values that satisfy `P` at their positions, are the buffer,
    whole, holding values that satisfy `P` everywhere. -/
theorem out_join (c : Dev nD) (P : S1024x1024.Idx → Elt F .bf16 → Prop) :
    iprop(heldV c (src_ag_4_0_0 c) fullShare (fun i v => P i v) ∗
        heldV c (src_ag_4_1_0 c) fullShare (fun i v => P i v) ∗
        heldV c (src_ag_4_2_0 c) fullShare (fun i v => P i v) ∗
        heldV c (dst_ag_4_0_0 (peer 0 4 c)) fullShare (fun i v => P i v) ∗
        heldV c (dst_ag_4_1_0 (peer 1 4 c)) fullShare (fun i v => P i v) ∗
        heldV c (dst_ag_4_2_0 (peer 2 4 c)) fullShare (fun i v => P i v) ∗
        heldV c (dst_ag_3_0_0 (peer 0 3 c)) fullShare (fun i v => P i v) ∗
        heldV c (dst_ag_3_0_1 (peer 0 3 c)) fullShare (fun i v => P i v) ∗
        heldV c (dst_ag_3_1_0 (peer 1 3 c)) fullShare (fun i v => P i v) ∗
        heldV c (dst_ag_3_1_1 (peer 1 3 c)) fullShare (fun i v => P i v) ∗
        heldV c (dst_ag_3_2_0 (peer 2 3 c)) fullShare (fun i v => P i v) ∗
        heldV c (dst_ag_3_2_1 (peer 2 3 c)) fullShare (fun i v => P i v) ∗
        heldV c (dst_ag_2_0_0 (peer 0 2 c)) fullShare (fun i v => P i v) ∗
        heldV c (dst_ag_2_0_1 (peer 0 2 c)) fullShare (fun i v => P i v) ∗
        heldV c (dst_ag_2_1_0 (peer 1 2 c)) fullShare (fun i v => P i v) ∗
        heldV c (dst_ag_2_1_1 (peer 1 2 c)) fullShare (fun i v => P i v) ∗
        heldV c (dst_ag_2_2_0 (peer 2 2 c)) fullShare (fun i v => P i v) ∗
        heldV c (dst_ag_2_2_1 (peer 2 2 c)) fullShare (fun i v => P i v) ∗
        heldV c (dst_ag_1_0_0 (peer 0 1 c)) fullShare (fun i v => P i v) ∗
        heldV c (dst_ag_1_0_1 (peer 0 1 c)) fullShare (fun i v => P i v) ∗
        heldV c (dst_ag_1_1_0 (peer 1 1 c)) fullShare (fun i v => P i v) ∗
        heldV c (dst_ag_1_1_1 (peer 1 1 c)) fullShare (fun i v => P i v) ∗
        heldV c (dst_ag_1_2_0 (peer 2 1 c)) fullShare (fun i v => P i v) ∗
        heldV c (dst_ag_1_2_1 (peer 2 1 c)) fullShare (fun i v => P i v) ∗
        heldV c (dst_ag_0_0_0 (peer 0 0 c)) fullShare (fun i v => P i v) ∗
        heldV c (dst_ag_0_0_1 (peer 0 0 c)) fullShare (fun i v => P i v) ∗
        heldV c (dst_ag_0_1_0 (peer 1 0 c)) fullShare (fun i v => P i v) ∗
        heldV c (dst_ag_0_1_1 (peer 1 0 c)) fullShare (fun i v => P i v) ∗
        heldV c (dst_ag_0_2_0 (peer 2 0 c)) fullShare (fun i v => P i v) ∗
        heldV c (dst_ag_0_2_1 (peer 2 0 c)) fullShare (fun i v => P i v)) ⊢
      (iprop(∃ X : Buf (Elt F) ((c : Thread nD τ).loc cc0_stg2_0), ⌜∀ i, P i (X i)⌝ ∗ ((c : Thread nD τ).loc cc0_stg2_0) ↦{fullShare} X) : sProp 𝕄) := by
  iintro ⟨O0, O1, O2, D400, D410, D420, D300, D301, D310, D311, D320, D321, D200, D201, D210, D211, D220, D221, D100, D101, D110, D111, D120, D121, D000, D001, D010, D011, D020, D021⟩
  -- column block 0, from the first exchange up to the last
  ihave L := (Entails.of_eq (held_src_ag_3_0_1 c fullShare P).symm) $$ D400
  ihave R := (held_src_ag_2_0_0 c fullShare P).2 $$ [O0 L]
  · isplitl [O0]
    · iexact O0
    · iexact L
  ihave L := (held_src_ag_2_0_1 c fullShare P).2 $$ [D300 D301]
  · isplitl [D300]
    · iexact D300
    · iexact D301
  ihave R := (held_src_ag_1_0_0 c fullShare P).2 $$ [R L]
  · isplitl [R]
    · iexact R
    · iexact L
  ihave L := (held_src_ag_1_0_1 c fullShare P).2 $$ [D200 D201]
  · isplitl [D200]
    · iexact D200
    · iexact D201
  ihave R := (held_src_ag_0_0_0 c fullShare P).2 $$ [R L]
  · isplitl [R]
    · iexact R
    · iexact L
  ihave L := (held_src_ag_0_0_1 c fullShare P).2 $$ [D100 D101]
  · isplitl [D100]
    · iexact D100
    · iexact D101
  ihave C0 := (held_colS_0 c fullShare P).2 $$ [R L D000 D001]
  · isplitl [R L]
    · isplitl [R]
      · iexact R
      · iexact L
    · isplitl [D000]
      · iexact D000
      · iexact D001
  -- column block 1, from the first exchange up to the last
  ihave L := (Entails.of_eq (held_src_ag_3_1_1 c fullShare P).symm) $$ D410
  ihave R := (held_src_ag_2_1_0 c fullShare P).2 $$ [O1 L]
  · isplitl [O1]
    · iexact O1
    · iexact L
  ihave L := (held_src_ag_2_1_1 c fullShare P).2 $$ [D310 D311]
  · isplitl [D310]
    · iexact D310
    · iexact D311
  ihave R := (held_src_ag_1_1_0 c fullShare P).2 $$ [R L]
  · isplitl [R]
    · iexact R
    · iexact L
  ihave L := (held_src_ag_1_1_1 c fullShare P).2 $$ [D210 D211]
  · isplitl [D210]
    · iexact D210
    · iexact D211
  ihave R := (held_src_ag_0_1_0 c fullShare P).2 $$ [R L]
  · isplitl [R]
    · iexact R
    · iexact L
  ihave L := (held_src_ag_0_1_1 c fullShare P).2 $$ [D110 D111]
  · isplitl [D110]
    · iexact D110
    · iexact D111
  ihave C1 := (held_colS_1 c fullShare P).2 $$ [R L D010 D011]
  · isplitl [R L]
    · isplitl [R]
      · iexact R
      · iexact L
    · isplitl [D010]
      · iexact D010
      · iexact D011
  -- column block 2, from the first exchange up to the last
  ihave L := (Entails.of_eq (held_src_ag_3_2_1 c fullShare P).symm) $$ D420
  ihave R := (held_src_ag_2_2_0 c fullShare P).2 $$ [O2 L]
  · isplitl [O2]
    · iexact O2
    · iexact L
  ihave L := (held_src_ag_2_2_1 c fullShare P).2 $$ [D320 D321]
  · isplitl [D320]
    · iexact D320
    · iexact D321
  ihave R := (held_src_ag_1_2_0 c fullShare P).2 $$ [R L]
  · isplitl [R]
    · iexact R
    · iexact L
  ihave L := (held_src_ag_1_2_1 c fullShare P).2 $$ [D220 D221]
  · isplitl [D220]
    · iexact D220
    · iexact D221
  ihave R := (held_src_ag_0_2_0 c fullShare P).2 $$ [R L]
  · isplitl [R]
    · iexact R
    · iexact L
  ihave L := (held_src_ag_0_2_1 c fullShare P).2 $$ [D120 D121]
  · isplitl [D120]
    · iexact D120
    · iexact D121
  ihave C2 := (held_colS_2 c fullShare P).2 $$ [R L D020 D021]
  · isplitl [R L]
    · isplitl [R]
      · iexact R
      · iexact L
    · isplitl [D020]
      · iexact D020
      · iexact D021
  iapply (held_cols c P)
  isplitl [C0]
  · iexact C0
  isplitl [C1]
  · iexact C1
  · iexact C2

end Cert.KernelIdeal.RegionsOut

end
-- ==== Proof.SendStep.lean ====
/-
  One addressed transfer of the exchange as a single rule: the rows a device sends come back to it with
  the credit of its own cell, and the rows landed at the partner are handed to the partner's cell
  together with the fact that they satisfy the predicate that cell's payload states.
-/
import proofs.«900879_g7700000000000880_dist_matmul_gelu_kshard_i_m1024_n1024_k512_v7x_i32_bf16_1_alg».proof.Proof.Sched
import Idealize.ShloMosaic.Lib.Tactic

noncomputable section

namespace Cert.KernelIdeal.SendStep

open Cert.KernelIdeal Cert.KernelIdeal.Gen Cert.KernelIdeal.Proto Cert.KernelIdeal.Tab Cert.KernelIdeal.Held Cert.KernelIdeal.PayTab Cert.KernelIdeal.Sched
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

variable (ct : Contract F)

abbrev 𝒱₀ : Variants := Variants.none

/-- One addressed transfer of the exchange, generic over the two pieces: the sender's rows go back to it with
    its own cell's credit; the rows landed at the partner satisfy the receive cell's contract. -/
theorem send_step {s : Shape} {e : EltTy} (K₁ K₂ : ℕ) (c n p : Dev nD) (hn : n = p)
    (src dst : Memref sig .tc .vmem s e) (js jr : DmaSem sig)
    {hsc : (dst : Memref sig (Dev.tc n : Thread nD τ).2.kind .vmem s e).view.ref.isScScratch = false}
    {hsrc : src.view.WordExact} {hdst : dst.view.WordExact}
    {hsem : DmaTarget.Typed .vmem (.dma jr) (.remote (Dev.tc n : Thread nD τ) dst (.dma js) hsc)}
    {α : Type} {Q : α → sProp 𝕄} {k : PUnit → Prog (TpuEff nD τ sig (Elt F) Λ₀ .tc) α}
    (fs : Buf (Elt F) (src.view.loc (c : Thread nD τ))) (fd : Buf (Elt F) (dst.view.loc (p : Thread nD τ)))
    (O : CellTallies nD τ sig Unit) (W : Waits sig Unit)
    (P : dst.view.ty.Idx → Elt F dst.view.ty.elt → Prop)
    (hds : (sched ct).duties ((c : Thread nD τ), .dma js) 0 = {0})
    (hdr : (sched ct).duties ((p : Thread nD τ), .dma jr) 0 = {0})
    (N : ℕ) (hN : dst.view.amount (.dma jr) = N) (hks : amtIx js.val = N) (hkr : amtIx jr.val = N)
    (hps : dmaPay ct c js.val = loanV c src)
    (hpr : dmaPay ct p jr.val = heldV p dst fullShare P)
    (hlaw : ∀ i ∈ dst.view.set, P i ((dst.view.write (Elt F) fd (src.view.read (Elt F) fs) Finset.univ) i)) :
    iprop(cellInv ER (sched ct) K₁ ((c : Thread nD τ), .dma js) ∗ cellInv ER (sched ct) K₂ ((p : Thread nD τ), .dma jr)
        ∗ (src.view.loc (c : Thread nD τ) ↦[src.view.set]{fullShare} fs) ∗ (dst.view.loc (p : Thread nD τ) ↦[dst.view.set]{fullShare} fd)
        ∗ owes (c : Thread nD τ) (O + tallyAt ((p : Thread nD τ), .dma jr) () N) W
        ∗ dutyTok ER ((c : Thread nD τ), .dma js) 0 (0 : Fin 5) ∗ reached ER ((c : Thread nD τ), .dma js) 0
        ∗ dutyTok ER ((p : Thread nD τ), .dma jr) 0 (0 : Fin 5) ∗ reached ER ((p : Thread nD τ), .dma jr) 0)
      ⊢ iprop(((cred (tallyAt ((c : Thread nD τ), .dma js) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma js) hsc) (.dma jr) hsrc hdst hsem) k) Q) := by
  subst hn
  exact Rounds.wp_send_pointsTo 𝒱₀ ER (sched ct) (c : Thread nD τ) none (κ₁ := K₁) (κ₂ := K₂)
    (r₁ := 0) (r₂ := 0) (d₁ := (0 : Fin 5)) (d₂ := (0 : Fin 5)) (fd := fd) (fs := fs) (q := fullShare)
    (src := src) (dst := dst) (sS := SemLoc.dma js) (sem := SemLoc.dma jr) (c' := (n : Thread nD τ))
    (by rw [hds]; exact Finset.mem_singleton_self _) (by rw [hdr]; exact Finset.mem_singleton_self _)
    () () N hN ((rfl : (sched ct).amount ((c : Thread nD τ), SemLoc.dma js) 0 0 = amtIx js.val).trans hks)
    ((rfl : (sched ct).amount ((n : Thread nD τ), SemLoc.dma jr) 0 0 = amtIx jr.val).trans hkr) O rfl
    (by
      show _ ⊢ dmaPay ct c js.val
      rw [hps]; unfold loanV; exact exists_intro (Φ := fun f => iprop(src.view.loc (c : Thread nD τ) ↦[src.view.set]{fullShare} f)) fs)
    (by
      show _ ⊢ dmaPay ct n jr.val
      rw [hpr]; unfold heldV
      iintro H; iexists _; isplitl [H]; · iexact H
      ipureintro; exact hlaw)

end Cert.KernelIdeal.SendStep

end
-- ==== Proof.Plumb.lean ====
/-
  Reading and writing a buffer through rectangles, index by index: what a load at a rectangle reads, what
  a store through a rectangle leaves, and what a transfer between the same rectangle of two buffers of one
  shape moves. Stated over the coordinates, with the rectangle's offsets given by an equation.
-/
import proofs.«900879_g7700000000000880_dist_matmul_gelu_kshard_i_m1024_n1024_k512_v7x_i32_bf16_1_alg».proof.Proof.Held
import proofs.«900879_g7700000000000880_dist_matmul_gelu_kshard_i_m1024_n1024_k512_v7x_i32_bf16_1_alg».proof.Proof.Geo
import Idealize.ShloMosaic.Lib.WritesUnit
import Idealize.ShloMosaic.Lib.Pipeline.Value

noncomputable section

namespace Cert.KernelIdeal.Plumb

open Idealize.ShloMosaic Idealize.ShloMosaic.TcCoe Idealize.SL.Sem

variable {sig : RefSig} {κ κ' : Kind} {sp sp' : Space} {s : Shape} {e : EltTy} {Val : EltTy → Type}

/-- The index of the buffer under index `x` of a unit-stride rectangle: the offsets plus `x`. -/
theorem emb_unit_val {off size : Fin s.rank → ℕ} (inb : ∀ a, off a + size a ≤ s.size a)
    (x : (Rect.unit off size inb).shape.Idx) (a : Fin s.rank) :
    ((Rect.unit off size inb).emb x a).val = off a + (x a).val := by
  show off a + 1 * (x a).val = _
  rw [Nat.one_mul]

/-- An index whose coordinates are the offsets plus `x`'s is the one under `x`. -/
theorem emb_unit_eq {off off' size : Fin s.rank → ℕ} (inb : ∀ a, off a + size a ≤ s.size a)
    (x : (Rect.unit off size inb).shape.Idx) (y : s.Idx) (heq : off = off')
    (hy : ∀ a, (y a).val = off' a + (x a).val) : (Rect.unit off size inb).emb x = y := by
  subst heq
  exact funext fun a => Fin.ext (by rw [emb_unit_val, hy a])

/-- A load at a unit-stride rectangle reads, at `j`, the view's element at the offsets plus `j`. -/
theorem readAt_unit (v : View sig κ sp s e) {off off' size : Fin s.rank → ℕ} (inb : ∀ a, off a + size a ≤ s.size a)
    (f : v.ty.Contents Val) (j : (Rect.unit off size inb).shape.Idx) (y : s.Idx) (heq : off = off')
    (hy : ∀ a, (y a).val = off' a + (j a).val) :
    v.readAt Val (Rect.unit off size inb).toLoadRect f j = v.read Val f y := by
  rw [View.readAt_apply]
  exact congrArg (v.read Val f) (emb_unit_eq inb j y heq hy)

/-- For a whole buffer: the load reads the contents at the offsets plus `j`. -/
theorem readAt_unit_whole (b : Ref sig κ) {off off' size : Fin b.ty.shape.rank → ℕ} (inb : ∀ a, off a + size a ≤ b.ty.shape.size a)
    (f : b.ty.Contents Val) (j : (Rect.unit off size inb).shape.Idx) (y : b.ty.shape.Idx) (heq : off = off')
    (hy : ∀ a, (y a).val = off' a + (j a).val) :
    (Memref.whole b).view.readAt Val (Rect.unit off size inb).toLoadRect f j = f y :=
  readAt_unit (View.whole b) inb f j y heq hy

/-- After a list of stores whose newest goes through a unit-stride rectangle, a whole buffer holds, at the
    offsets plus `x`, the newest payload at `x`; -/
theorem writes_unit_whole_of_mem (b : Ref sig κ) (f : b.ty.Contents Val) {off off' size : Fin b.ty.shape.rank → ℕ}
    (inb : ∀ a, off a + size a ≤ b.ty.shape.size a) (w : (Rect.unit off size inb).shape.Idx → Val b.ty.elt)
    (L : List (View.Piece Val b.ty.shape b.ty.elt)) (y : b.ty.shape.Idx) (x : (Rect.unit off size inb).shape.Idx)
    (heq : off = off') (hx : ∀ a, (y a).val = off' a + (x a).val) :
    (Memref.whole b).view.writes Val f ((⟨Rect.unit off size inb, w⟩ : View.Piece Val b.ty.shape b.ty.elt) :: L) y = w x :=
  View.read_writes_cons_unit_of_mem (View.whole b) f inb w L y x heq hx

/-- Outside the rectangle on some axis, what the rest of the list left. -/
theorem writes_unit_whole_of_not_mem (b : Ref sig κ) (f : b.ty.Contents Val) {off off' size : Fin b.ty.shape.rank → ℕ}
    (inb : ∀ a, off a + size a ≤ b.ty.shape.size a) (w : (Rect.unit off size inb).shape.Idx → Val b.ty.elt)
    (L : List (View.Piece Val b.ty.shape b.ty.elt)) (y : b.ty.shape.Idx) (heq : off = off')
    (a : Fin b.ty.shape.rank) (ha : (y a).val < off' a ∨ off' a + size a ≤ (y a).val) :
    (Memref.whole b).view.writes Val f ((⟨Rect.unit off size inb, w⟩ : View.Piece Val b.ty.shape b.ty.elt) :: L) y
      = (Memref.whole b).view.writes Val f L y :=
  View.read_writes_cons_unit_of_not_mem (View.whole b) f inb w L y heq a ha

/-- A transfer between the same rectangle of two views of one shape: the destination, read at an index of
    the rectangle, holds what the source read there. -/
theorem xfer_read (vd : View sig κ sp s e) (vs : View sig κ' sp' s e) (r : Rect s) (fd : vd.ty.Contents Val)
    (fs : vs.ty.Contents Val) (x : r.shape.Idx) :
    vd.read Val ((vd.slice r).write Val fd ((vs.slice r).read Val fs) Finset.univ) (r.emb x) = vs.read Val fs (r.emb x) :=
  View.read_slice_write_emb r fd _ (Finset.mem_univ x)

/-- Every element the destination rectangle covers is under one of the rectangle's indices. -/
theorem mem_slice_set (vd : View sig κ sp s e) (r : Rect s) {i : vd.ty.Idx} (h : i ∈ (vd.slice r).set) :
    ∃ x : r.shape.Idx, vd.emb (r.emb x) = i :=
  View.exists_emb_of_mem_set (vd.slice r) h

/-- For whole buffers of one shape and element type (`bs`'s stated through `hs`, `he`), sliced by one
    unit-stride rectangle: at every element the destination covers, the transfer leaves the source's contents at
    the same coordinates. -/
theorem xfer_whole (bd : Ref sig κ) (vs : View sig κ' sp' bd.ty.shape bd.ty.elt) {off size : Fin bd.ty.shape.rank → ℕ}
    (inb : ∀ a, off a + size a ≤ bd.ty.shape.size a) (fd : bd.ty.Contents Val) (fs : vs.ty.Contents Val)
    (i : bd.ty.shape.Idx) (hi : i ∈ ((View.whole bd).slice (Rect.unit off size inb)).set) :
    ((View.whole bd).slice (Rect.unit off size inb)).write Val fd ((vs.slice (Rect.unit off size inb)).read Val fs) Finset.univ i
      = vs.read Val fs i := by
  obtain ⟨x, rfl⟩ := mem_slice_set (View.whole bd) (Rect.unit off size inb) hi
  exact xfer_read (View.whole bd) vs (Rect.unit off size inb) fd fs x

/-- An index of the buffer lies under a unit-stride rectangle of a whole buffer exactly when every coordinate lies
    in the rectangle's range. -/
theorem mem_slice_unit_whole (b : Ref sig κ) {off off' size : Fin b.ty.shape.rank → ℕ} (inb : ∀ a, off a + size a ≤ b.ty.shape.size a)
    (heq : off = off') (i : b.ty.shape.Idx) :
    i ∈ ((View.whole b).slice (Rect.unit off size inb)).set ↔ ∀ a, off' a ≤ (i a).val ∧ (i a).val < off' a + size a := by
  subst heq
  rw [View.set_slice_whole, Rect.mem_set_unit]

/-- One store through a unit-stride rectangle of a whole buffer leaves, at the offsets plus `x`, the payload
    at `x`; -/
theorem write_unit_whole_of_mem (b : Ref sig κ) (f : b.ty.Contents Val) {off off' size : Fin b.ty.shape.rank → ℕ}
    (inb : ∀ a, off a + size a ≤ b.ty.shape.size a) (w : (Rect.unit off size inb).shape.Idx → Val b.ty.elt)
    (y : b.ty.shape.Idx) (x : (Rect.unit off size inb).shape.Idx)
    (heq : off = off') (hx : ∀ a, (y a).val = off' a + (x a).val) :
    ((View.whole b).slice (Rect.unit off size inb)).write Val f w Finset.univ y = w x :=
  writes_unit_whole_of_mem b f inb w [] y x heq hx

/-- Outside the rectangle on some axis, what the buffer held. -/
theorem write_unit_whole_of_not_mem (b : Ref sig κ) (f : b.ty.Contents Val) {off off' size : Fin b.ty.shape.rank → ℕ}
    (inb : ∀ a, off a + size a ≤ b.ty.shape.size a) (w : (Rect.unit off size inb).shape.Idx → Val b.ty.elt)
    (y : b.ty.shape.Idx) (heq : off = off')
    (a : Fin b.ty.shape.rank) (ha : (y a).val < off' a ∨ off' a + size a ≤ (y a).val) :
    ((View.whole b).slice (Rect.unit off size inb)).write Val f w Finset.univ y = f y :=
  writes_unit_whole_of_not_mem b f inb w [] y heq a ha

/-- A landed piece is right wherever the source's contents are: if the source's contents satisfy `P` at every
    element the rectangle covers, so does the destination after the transfer. -/
theorem xfer_whole_of_forall (bd : Ref sig κ) (vs : View sig κ' sp' bd.ty.shape bd.ty.elt) {off size : Fin bd.ty.shape.rank → ℕ}
    (inb : ∀ a, off a + size a ≤ bd.ty.shape.size a) (fd : bd.ty.Contents Val) (fs : vs.ty.Contents Val)
    (P : bd.ty.shape.Idx → Val bd.ty.elt → Prop)
    (h : ∀ i ∈ ((View.whole bd).slice (Rect.unit off size inb)).set, P i (vs.read Val fs i)) :
    ∀ i ∈ ((View.whole bd).slice (Rect.unit off size inb)).set,
      P i (((View.whole bd).slice (Rect.unit off size inb)).write Val fd ((vs.slice (Rect.unit off size inb)).read Val fs) Finset.univ i) := by
  intro i hi
  rw [xfer_whole bd vs inb fd fs i hi]
  exact h i hi

/-- A store through a unit-stride rectangle of a whole buffer is right on the rectangle if the payload is,
    index by index: whatever `P` says of the payload at `x`, placed at the offsets plus `x`, it says of the
    buffer's contents there after the store. -/
theorem write_unit_whole_forall (b : Ref sig κ) (f : b.ty.Contents Val) {off off' size : Fin b.ty.shape.rank → ℕ}
    (inb : ∀ a, off a + size a ≤ b.ty.shape.size a) (w : (Rect.unit off size inb).shape.Idx → Val b.ty.elt)
    (heq : off = off') (P : b.ty.shape.Idx → Val b.ty.elt → Prop)
    (hw : ∀ (x : (Rect.unit off size inb).shape.Idx) (y : b.ty.shape.Idx), (∀ a, (y a).val = off' a + (x a).val) → P y (w x))
    (y : b.ty.shape.Idx) (hy : ∀ a, off' a ≤ (y a).val ∧ (y a).val < off' a + size a) :
    P y (((View.whole b).slice (Rect.unit off size inb)).write Val f w Finset.univ y) := by
  have hx : ∀ a, (y a).val = off' a + ((Rect.unitLocal (s := b.ty.shape) (off := off') (size := size) y hy) a).val := fun a => by
    have := hy a
    rw [Rect.unitLocal_val]
    omega
  rw [write_unit_whole_of_mem b f inb w y (Rect.unitLocal (s := b.ty.shape) (off := off') (size := size) y hy) heq hx]
  exact hw _ y hx

end Cert.KernelIdeal.Plumb
end

/-- info: 'Cert.KernelIdeal.Plumb.readAt_unit_whole' depends on axioms: [propext, Classical.choice, Quot.sound] -/
#guard_msgs in #print axioms Cert.KernelIdeal.Plumb.readAt_unit_whole

/-- info: 'Cert.KernelIdeal.Plumb.writes_unit_whole_of_mem' depends on axioms: [propext, Classical.choice, Quot.sound] -/
#guard_msgs in #print axioms Cert.KernelIdeal.Plumb.writes_unit_whole_of_mem

/-- info: 'Cert.KernelIdeal.Plumb.writes_unit_whole_of_not_mem' depends on axioms: [propext, Classical.choice, Quot.sound] -/
#guard_msgs in #print axioms Cert.KernelIdeal.Plumb.writes_unit_whole_of_not_mem

/-- info: 'Cert.KernelIdeal.Plumb.xfer_whole' depends on axioms: [propext, Classical.choice, Quot.sound] -/
#guard_msgs in #print axioms Cert.KernelIdeal.Plumb.xfer_whole

/-- info: 'Cert.KernelIdeal.Plumb.mem_slice_unit_whole' depends on axioms: [propext, Classical.choice, Quot.sound] -/
#guard_msgs in #print axioms Cert.KernelIdeal.Plumb.mem_slice_unit_whole
-- ==== Proof.SegAValP.lean ====
/-
  The values of the first stage, stated over the terms its stores write: the send buffer is right on the
  columns of each block once that block's product is stored; a piece of it landed at the partner is right
  under the partner's receive contract; the accumulator is right on the rows kept.
-/
import proofs.«900879_g7700000000000880_dist_matmul_gelu_kshard_i_m1024_n1024_k512_v7x_i32_bf16_1_alg».proof.Proof.Laws
import proofs.«900879_g7700000000000880_dist_matmul_gelu_kshard_i_m1024_n1024_k512_v7x_i32_bf16_1_alg».proof.Proof.Plumb

noncomputable section

namespace Cert.KernelIdeal.SegAValP

open Cert.KernelIdeal Cert.KernelIdeal.Gen Cert.KernelIdeal.Proto Cert.KernelIdeal.Tab Cert.KernelIdeal.Held
open Cert.KernelIdeal.Laws Cert.KernelIdeal.Plumb
open Idealize.ShloMosaic Idealize.ShloMosaic.TcCoe Idealize.SL.Sem

variable {F : FTy → Type} [FloatOps F]
variable (ct : Contract F) (c : Dev nD) (YA : S1024x512.Idx → F .f32) (YB : S512x1024.Idx → F .f32)

theorem blk_of_lt {q : ℕ} (h : q < 384) : blk q = 0 := by unfold blk; rw [if_pos h]
theorem blk_of_mid {q : ℕ} (h1 : 384 ≤ q) (h2 : q < 768) : blk q = 1 := by
  unfold blk; rw [if_neg (by omega), if_pos h2]
theorem blk_of_ge {q : ℕ} (h : 768 ≤ q) : blk q = 2 := by
  unfold blk; rw [if_neg (by omega), if_neg (by omega)]

/-- A piece of the first send buffer, landed in the partner's first receive buffer through the same rectangle, is
    right under the partner's receive contract wherever the send buffer is right under the sender's. -/
theorem landed0 (k : Fin 3) {off size : Fin 2 → ℕ} {r1 q0 : ℕ} (inb : ∀ a, off a + size a ≤ S512x1024.size a)
    (heq : off = ![r1, q0]) (hblk : ∀ q, q0 ≤ q → q < q0 + size 1 → blk q = k)
    (FS : S512x1024.Idx → F .bf16)
    (hFS : ∀ i : S512x1024.Idx, q0 ≤ (i 1).val → (i 1).val < q0 + size 1 → ct.okSS 0 c (i 0).val (i 1).val (FS i))
    (fd : S512x1024.Idx → F .bf16) :
    ∀ i ∈ ((View.whole cc0_scratch1).slice (Rect.unit (s := S512x1024) off size inb)).set,
      pRS ct 0 (peer k 0 c) (sh := S512x1024) i
        ((((View.whole cc0_scratch1).slice (Rect.unit (s := S512x1024) off size inb)).write (Elt F) fd
          (((View.whole cc0_scratch6).slice (Rect.unit (s := S512x1024) off size inb)).read (Elt F) FS) Finset.univ) i) := by
  refine xfer_whole_of_forall (Val := Elt F) cc0_scratch1 (View.whole cc0_scratch6) inb fd FS
    (fun i v => pRS ct 0 (peer k 0 c) (sh := S512x1024) i v) ?_
  intro i hi
  have hm := (mem_slice_unit_whole cc0_scratch1 inb heq i).mp hi
  have h1 := hm 1
  have hq0 : q0 ≤ (i 1).val := h1.1
  have hq1 : (i 1).val < q0 + size 1 := h1.2
  rw [View.read_whole]
  show ct.okSS 0 (peer (blk (i 1).val) 0 (peer k 0 c)) (i 0).val (i 1).val (FS i)
  rw [hblk _ hq0 hq1, peer_peer]
  exact hFS i hq0 hq1

/-! ## What the loads of the first stage read -/

/-- A load of 512 rows of the left block from row `r0` reads, at `j`, the block at row `r0 + j 0`, column `j 1`. -/
theorem loadA {off : Fin 2 → ℕ} {r0 : ℕ} (inb : ∀ a, off a + S512x512.size a ≤ S1024x512.size a) (heq : off = ![r0, 0]) :
    ∀ (j : S512x512.Idx) (i : S1024x512.Idx), (i 0).val = r0 + (j 0).val → (i 1).val = (j 1).val →
      View.readAt (Elt F) (Memref.whole cc0_stg0_0 : Memref sig .tc .vmem S1024x512 .f32).view (Rect.unit (s := S1024x512) off S512x512.size inb).toLoadRect YA j = YA i :=
  fun j i a b => readAt_unit_whole (Val := Elt F) cc0_stg0_0 inb YA j i heq
    (Fin.forall_fin_two.mpr ⟨a, b.trans (Nat.zero_add _).symm⟩)

/-- A load of the columns of the right block from column `q0` reads, at `j`, the block at row `j 0`, column `q0 + j 1`. -/
theorem loadB {W q0 : ℕ} {off : Fin 2 → ℕ} (inb : ∀ a, off a + (![512, W] : Fin 2 → ℕ) a ≤ S512x1024.size a) (heq : off = ![0, q0]) :
    ∀ (j : (⟨2, ![512, W]⟩ : Shape).Idx) (i : S512x1024.Idx), (i 0).val = (j 0).val → (i 1).val = q0 + (j 1).val →
      View.readAt (Elt F) (Memref.whole cc0_stg1_0 : Memref sig .tc .vmem S512x1024 .f32).view (Rect.unit (s := S512x1024) off ![512, W] inb).toLoadRect YB j = YB i :=
  fun j i a b => readAt_unit_whole (Val := Elt F) cc0_stg1_0 inb YB j i heq
    (Fin.forall_fin_two.mpr ⟨a.trans (Nat.zero_add _).symm, b⟩)

/-! ## The send buffer after each block's store -/

/-- After the store of column block 0 the first send buffer is right on columns `0 … 383`. -/
theorem ss_core0 (laws : Laws ct c YA YB) (g : S512x1024.Idx → F .bf16) (x : Vec F S512x512 .f32) (y : Vec F S512x384 .f32)
    (hx : ∀ j i, (i 0).val = (1 - bit 0 0 c) * 512 + (j 0).val → (i 1).val = (j 1).val → x j = YA i)
    (hy : ∀ j i, (i 0).val = (j 0).val → (i 1).val = (j 1).val → y j = YB i) :
    ∀ i : S512x1024.Idx, 0 ≤ (i 1).val → (i 1).val < 0 + S512x384.size 1 → ct.okSS 0 c (i 0).val (i 1).val
      ((((View.whole cc0_scratch6).slice (Rect.unit (s := S512x1024) ![0, 0] S512x384.size inb_S512x1024_S512x384_0_0)).write (Elt F) g (k0_pay1 x y) Finset.univ) i) := by
  intro i h1 h2
  refine write_unit_whole_forall (Val := Elt F) cc0_scratch6 g inb_S512x1024_S512x384_0_0 (k0_pay1 x y) rfl
    (fun i v => ct.okSS 0 c (i 0).val (i 1).val v) ?_ i (Fin.forall_fin_two.mpr ⟨⟨Nat.zero_le _, ?_⟩, ⟨h1, h2⟩⟩)
  · intro j i' hi'
    have e0 : (i' 0).val = (j 0).val := (hi' 0).trans (Nat.zero_add _)
    have e1 : (i' 1).val = (j 1).val := (hi' 1).trans (Nat.zero_add _)
    show ct.okSS 0 c (i' 0).val (i' 1).val (k0_pay1 x y j)
    rw [e0, e1]
    exact laws.mm_ss0 x y hx hy j
  · show (i 0).val < 0 + 512
    have h512 : (i 0).val < 512 := (i 0).isLt
    omega

/-- After the store of column block 1 the first send buffer is right on columns `384 … 767`. -/
theorem ss_core1 (laws : Laws ct c YA YB) (g : S512x1024.Idx → F .bf16) (x : Vec F S512x512 .f32) (y : Vec F S512x384 .f32)
    (hx : ∀ j i, (i 0).val = (1 - bit 1 0 c) * 512 + (j 0).val → (i 1).val = (j 1).val → x j = YA i)
    (hy : ∀ j i, (i 0).val = (j 0).val → (i 1).val = 384 + (j 1).val → y j = YB i) :
    ∀ i : S512x1024.Idx, 384 ≤ (i 1).val → (i 1).val < 384 + S512x384.size 1 → ct.okSS 0 c (i 0).val (i 1).val
      ((((View.whole cc0_scratch6).slice (Rect.unit (s := S512x1024) ![0, 384] S512x384.size inb_S512x1024_S512x384_0_384)).write (Elt F) g (k0_pay3 (k0_pay2 x y)) Finset.univ) i) := by
  intro i h1 h2
  have h512 : (i 0).val < 512 := (i 0).isLt
  refine write_unit_whole_forall (Val := Elt F) cc0_scratch6 g inb_S512x1024_S512x384_0_384 (k0_pay3 (k0_pay2 x y)) rfl
    (fun i v => ct.okSS 0 c (i 0).val (i 1).val v) ?_ i (Fin.forall_fin_two.mpr ⟨⟨Nat.zero_le _, ?_⟩, ⟨h1, h2⟩⟩)
  · intro j i' hi'
    have e0 : (i' 0).val = (j 0).val := (hi' 0).trans (Nat.zero_add _)
    have e1 : (i' 1).val = 384 + (j 1).val := hi' 1
    show ct.okSS 0 c (i' 0).val (i' 1).val (k0_pay3 (k0_pay2 x y) j)
    rw [e0, e1]
    exact laws.mm_ss1 x y hx hy j
  · show (i 0).val < 0 + 512
    omega

/-- After the store of column block 2 the first send buffer is right on columns `768 … 1023`. -/
theorem ss_core2 (laws : Laws ct c YA YB) (g : S512x1024.Idx → F .bf16) (x : Vec F S512x512 .f32) (y : Vec F S512x256 .f32)
    (hx : ∀ j i, (i 0).val = (1 - bit 2 0 c) * 512 + (j 0).val → (i 1).val = (j 1).val → x j = YA i)
    (hy : ∀ j i, (i 0).val = (j 0).val → (i 1).val = 768 + (j 1).val → y j = YB i) :
    ∀ i : S512x1024.Idx, 768 ≤ (i 1).val → (i 1).val < 768 + S512x256.size 1 → ct.okSS 0 c (i 0).val (i 1).val
      ((((View.whole cc0_scratch6).slice (Rect.unit (s := S512x1024) ![0, 768] S512x256.size inb_S512x1024_S512x256_0_768)).write (Elt F) g (k0_pay5 (k0_pay4 x) y) Finset.univ) i) := by
  intro i h1 h2
  have h512 : (i 0).val < 512 := (i 0).isLt
  refine write_unit_whole_forall (Val := Elt F) cc0_scratch6 g inb_S512x1024_S512x256_0_768 (k0_pay5 (k0_pay4 x) y) rfl
    (fun i v => ct.okSS 0 c (i 0).val (i 1).val v) ?_ i (Fin.forall_fin_two.mpr ⟨⟨Nat.zero_le _, ?_⟩, ⟨h1, h2⟩⟩)
  · intro j i' hi'
    have e0 : (i' 0).val = (j 0).val := (hi' 0).trans (Nat.zero_add _)
    have e1 : (i' 1).val = 768 + (j 1).val := hi' 1
    show ct.okSS 0 c (i' 0).val (i' 1).val (k0_pay5 (k0_pay4 x) y j)
    rw [e0, e1]
    exact laws.mm_ss2 x y hx hy j
  · show (i 0).val < 0 + 512
    omega

/-! ## The accumulator after each block's store -/

/-- After the store of column block 0 the accumulator is right on the rows kept, columns `0 … 383`. -/
theorem acc_core0 (laws : Laws ct c YA YB) (g : S1024x1024.Idx → F .f32) (x : Vec F S512x512 .f32) (y : Vec F S512x384 .f32)
    {off : Fin 2 → ℕ} (inb : ∀ a, off a + S512x384.size a ≤ S1024x1024.size a) (heq : off = ![lo 0 c 1, 0])
    (hx : ∀ j i, (i 0).val = lo 0 c 1 + (j 0).val → (i 1).val = (j 1).val → x j = YA i)
    (hy : ∀ j i, (i 0).val = (j 0).val → (i 1).val = (j 1).val → y j = YB i) :
    ∀ i : S1024x1024.Idx, (∀ a, (![lo 0 c 1, 0] : Fin 2 → ℕ) a ≤ (i a).val ∧ (i a).val < (![lo 0 c 1, 0] : Fin 2 → ℕ) a + S512x384.size a) →
      ct.okAcc 0 c (i 0).val (i 1).val
        ((((View.whole cc0_scratch0).slice (Rect.unit (s := S1024x1024) off S512x384.size inb)).write (Elt F) g (k0_pay6 x y) Finset.univ) i) := by
  intro i hi
  refine write_unit_whole_forall (Val := Elt F) cc0_scratch0 g inb (k0_pay6 x y) heq
    (fun i v => ct.okAcc 0 c (i 0).val (i 1).val v) ?_ i hi
  intro j i' hi'
  have e0 : (i' 0).val = lo 0 c 1 + (j 0).val := hi' 0
  have e1 : (i' 1).val = (j 1).val := (hi' 1).trans (Nat.zero_add _)
  show ct.okAcc 0 c (i' 0).val (i' 1).val (k0_pay6 x y j)
  rw [e0, e1]
  exact laws.mm_acc0 x y hx hy j

/-- After the store of column block 1 the accumulator is right on the rows kept, columns `384 … 767`. -/
theorem acc_core1 (laws : Laws ct c YA YB) (g : S1024x1024.Idx → F .f32) (x : Vec F S512x512 .f32) (y : Vec F S512x384 .f32)
    {off : Fin 2 → ℕ} (inb : ∀ a, off a + S512x384.size a ≤ S1024x1024.size a) (heq : off = ![lo 1 c 1, 384])
    (hx : ∀ j i, (i 0).val = lo 1 c 1 + (j 0).val → (i 1).val = (j 1).val → x j = YA i)
    (hy : ∀ j i, (i 0).val = (j 0).val → (i 1).val = 384 + (j 1).val → y j = YB i) :
    ∀ i : S1024x1024.Idx, (∀ a, (![lo 1 c 1, 384] : Fin 2 → ℕ) a ≤ (i a).val ∧ (i a).val < (![lo 1 c 1, 384] : Fin 2 → ℕ) a + S512x384.size a) →
      ct.okAcc 0 c (i 0).val (i 1).val
        ((((View.whole cc0_scratch0).slice (Rect.unit (s := S1024x1024) off S512x384.size inb)).write (Elt F) g (k0_pay7 x y) Finset.univ) i) := by
  intro i hi
  refine write_unit_whole_forall (Val := Elt F) cc0_scratch0 g inb (k0_pay7 x y) heq
    (fun i v => ct.okAcc 0 c (i 0).val (i 1).val v) ?_ i hi
  intro j i' hi'
  have e0 : (i' 0).val = lo 1 c 1 + (j 0).val := hi' 0
  have e1 : (i' 1).val = 384 + (j 1).val := hi' 1
  show ct.okAcc 0 c (i' 0).val (i' 1).val (k0_pay7 x y j)
  rw [e0, e1]
  exact laws.mm_acc1 x y hx hy j

/-- After the store of column block 2 the accumulator is right on the rows kept, columns `768 … 1023`. -/
theorem acc_core2 (laws : Laws ct c YA YB) (g : S1024x1024.Idx → F .f32) (x : Vec F S512x512 .f32) (y : Vec F S512x256 .f32)
    {off : Fin 2 → ℕ} (inb : ∀ a, off a + S512x256.size a ≤ S1024x1024.size a) (heq : off = ![lo 2 c 1, 768])
    (hx : ∀ j i, (i 0).val = lo 2 c 1 + (j 0).val → (i 1).val = (j 1).val → x j = YA i)
    (hy : ∀ j i, (i 0).val = (j 0).val → (i 1).val = 768 + (j 1).val → y j = YB i) :
    ∀ i : S1024x1024.Idx, (∀ a, (![lo 2 c 1, 768] : Fin 2 → ℕ) a ≤ (i a).val ∧ (i a).val < (![lo 2 c 1, 768] : Fin 2 → ℕ) a + S512x256.size a) →
      ct.okAcc 0 c (i 0).val (i 1).val
        ((((View.whole cc0_scratch0).slice (Rect.unit (s := S1024x1024) off S512x256.size inb)).write (Elt F) g (k0_pay8 x y) Finset.univ) i) := by
  intro i hi
  refine write_unit_whole_forall (Val := Elt F) cc0_scratch0 g inb (k0_pay8 x y) heq
    (fun i v => ct.okAcc 0 c (i 0).val (i 1).val v) ?_ i hi
  intro j i' hi'
  have e0 : (i' 0).val = lo 2 c 1 + (j 0).val := hi' 0
  have e1 : (i' 1).val = 768 + (j 1).val := hi' 1
  show ct.okAcc 0 c (i' 0).val (i' 1).val (k0_pay8 x y j)
  rw [e0, e1]
  exact laws.mm_acc2 x y hx hy j

end Cert.KernelIdeal.SegAValP
end
-- ==== Proof.SegAVal.lean ====
/-
  The values of the first segment: what the first stage's stores put into the send buffer and the accumulator
  satisfies the contract, stated over the very terms the stores write.
-/
import proofs.«900879_g7700000000000880_dist_matmul_gelu_kshard_i_m1024_n1024_k512_v7x_i32_bf16_1_alg».proof.Proof.Segs
import proofs.«900879_g7700000000000880_dist_matmul_gelu_kshard_i_m1024_n1024_k512_v7x_i32_bf16_1_alg».proof.Proof.Geo
import proofs.«900879_g7700000000000880_dist_matmul_gelu_kshard_i_m1024_n1024_k512_v7x_i32_bf16_1_alg».proof.Proof.SegAValP

noncomputable section

namespace Cert.KernelIdeal.SegAVal

open Cert.KernelIdeal Cert.KernelIdeal.Gen Cert.KernelIdeal.Proto Cert.KernelIdeal.Tab Cert.KernelIdeal.Held Cert.KernelIdeal.PayTab
open Cert.KernelIdeal.Laws Cert.KernelIdeal.Segs Cert.KernelIdeal.Geo
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
variable (ct : Contract F) (c : Dev nD) (YA : S1024x512.Idx → F .f32) (YB : S512x1024.Idx → F .f32)

/-- The send buffer's column block 0 after its store: the product of the rows of `YA` the device gives away in that
    block and the block's columns of `YB`, written over whatever the buffer held. -/
def ssW0 (g : Buf (Elt F) ((c : Thread nD τ).loc cc0_scratch6)) : Buf (Elt F) ((c : Thread nD τ).loc cc0_scratch6) :=
  View.write (Elt F) ((Memref.whole cc0_scratch6 : Memref sig .tc .vmem S512x1024 .bf16).access (Rect.unit (s := S512x1024) ![0, 0] S512x384.size inb_S512x1024_S512x384_0_0))
    g
    (k0_pay1 (View.readAt (Elt F) (Memref.whole cc0_stg0_0 : Memref sig .tc .vmem S1024x512 .f32).view (Rect.unit (s := S1024x512) (k0_off1 c) S512x512.size (k0_off1_inb c)).toLoadRect YA) (View.readAt (Elt F) (Memref.whole cc0_stg1_0 : Memref sig .tc .vmem S512x1024 .f32).view (Rect.unit (s := S512x1024) ![0, 0] S512x384.size inb_S512x1024_S512x384_0_0).toLoadRect YB))
    Finset.univ

/-- Piece 0 of column block 0, landed at the partner, is right under the partner's receive contract. -/
theorem hlaw_0_0_0 (laws : Laws ct c YA YB) (g : Buf (Elt F) ((c : Thread nD τ).loc cc0_scratch6))
    (fd : Buf (Elt F) ((dst_rs_0_0_0 c).view.loc (peer 0 0 c : Thread nD τ))) :
    ∀ i ∈ (dst_rs_0_0_0 c).view.set, pRS ct 0 (peer 0 0 c) (sh := S512x1024) i
      (((dst_rs_0_0_0 c).view.write (Elt F) fd ((src_rs_0_0_0 c).view.read (Elt F) (ssW0 c YA YB g)) Finset.univ) i) := by
  have hcore := SegAValP.ss_core0 ct c YA YB laws g _ _
    (SegAValP.loadA YA (k0_off1_inb c) (Geo.off1_eq c))
    (fun j i a b => SegAValP.loadB (W := 384) (q0 := 0) YB inb_S512x1024_S512x384_0_0 rfl j i a (b.trans (Nat.zero_add _).symm))
  exact SegAValP.landed0 ct c 0 (k0_off2_inb c) (Geo.off2_eq c)
    (fun q _ h => SegAValP.blk_of_lt (by have : q < 0 + 384 := h; omega)) (ssW0 c YA YB g) hcore fd

/-- Piece 1 of column block 0, landed at the partner, is right under the partner's receive contract. -/
theorem hlaw_0_0_1 (laws : Laws ct c YA YB) (g : Buf (Elt F) ((c : Thread nD τ).loc cc0_scratch6))
    (fd : Buf (Elt F) ((dst_rs_0_0_1 c).view.loc (peer 0 0 c : Thread nD τ))) :
    ∀ i ∈ (dst_rs_0_0_1 c).view.set, pRS ct 0 (peer 0 0 c) (sh := S512x1024) i
      (((dst_rs_0_0_1 c).view.write (Elt F) fd ((src_rs_0_0_1 c).view.read (Elt F) (ssW0 c YA YB g)) Finset.univ) i) := by
  have hcore := SegAValP.ss_core0 ct c YA YB laws g _ _
    (SegAValP.loadA YA (k0_off1_inb c) (Geo.off1_eq c))
    (fun j i a b => SegAValP.loadB (W := 384) (q0 := 0) YB inb_S512x1024_S512x384_0_0 rfl j i a (b.trans (Nat.zero_add _).symm))
  exact SegAValP.landed0 ct c 0 (k0_off3_inb c) (Geo.off3_eq c)
    (fun q _ h => SegAValP.blk_of_lt (by have : q < 0 + 384 := h; omega)) (ssW0 c YA YB g) hcore fd

/-- The send buffer's column block 1 after its store: the product of the rows of `YA` the device gives away in that
    block and the block's columns of `YB`, written over whatever the buffer held. -/
def ssW1 (g : Buf (Elt F) ((c : Thread nD τ).loc cc0_scratch6)) : Buf (Elt F) ((c : Thread nD τ).loc cc0_scratch6) :=
  View.write (Elt F) ((Memref.whole cc0_scratch6 : Memref sig .tc .vmem S512x1024 .bf16).access (Rect.unit (s := S512x1024) ![0, 384] S512x384.size inb_S512x1024_S512x384_0_384))
    g
    (k0_pay3 (k0_pay2 (View.readAt (Elt F) (Memref.whole cc0_stg0_0 : Memref sig .tc .vmem S1024x512 .f32).view (Rect.unit (s := S1024x512) (k0_off4 c 1#32) S512x512.size (k0_off4_inb c 0)).toLoadRect YA) (View.readAt (Elt F) (Memref.whole cc0_stg1_0 : Memref sig .tc .vmem S512x1024 .f32).view (Rect.unit (s := S512x1024) ![0, 384] S512x384.size inb_S512x1024_S512x384_0_384).toLoadRect YB)))
    Finset.univ

/-- Piece 0 of column block 1, landed at the partner, is right under the partner's receive contract. -/
theorem hlaw_0_1_0 (laws : Laws ct c YA YB) (g : Buf (Elt F) ((c : Thread nD τ).loc cc0_scratch6))
    (fd : Buf (Elt F) ((dst_rs_0_1_0 c).view.loc (peer 1 0 c : Thread nD τ))) :
    ∀ i ∈ (dst_rs_0_1_0 c).view.set, pRS ct 0 (peer 1 0 c) (sh := S512x1024) i
      (((dst_rs_0_1_0 c).view.write (Elt F) fd ((src_rs_0_1_0 c).view.read (Elt F) (ssW1 c YA YB g)) Finset.univ) i) := by
  have hcore := SegAValP.ss_core1 ct c YA YB laws g _ _
    (SegAValP.loadA YA (k0_off4_inb c 0) (Geo.off4_1_eq c))
    (SegAValP.loadB (W := 384) (q0 := 384) YB inb_S512x1024_S512x384_0_384 rfl)
  exact SegAValP.landed0 ct c 1 (k0_off5_inb c) (Geo.off5_eq c)
    (fun q h1 h2 => SegAValP.blk_of_mid h1 (by have : q < 384 + 384 := h2; omega)) (ssW1 c YA YB g) hcore fd

/-- Piece 1 of column block 1, landed at the partner, is right under the partner's receive contract. -/
theorem hlaw_0_1_1 (laws : Laws ct c YA YB) (g : Buf (Elt F) ((c : Thread nD τ).loc cc0_scratch6))
    (fd : Buf (Elt F) ((dst_rs_0_1_1 c).view.loc (peer 1 0 c : Thread nD τ))) :
    ∀ i ∈ (dst_rs_0_1_1 c).view.set, pRS ct 0 (peer 1 0 c) (sh := S512x1024) i
      (((dst_rs_0_1_1 c).view.write (Elt F) fd ((src_rs_0_1_1 c).view.read (Elt F) (ssW1 c YA YB g)) Finset.univ) i) := by
  have hcore := SegAValP.ss_core1 ct c YA YB laws g _ _
    (SegAValP.loadA YA (k0_off4_inb c 0) (Geo.off4_1_eq c))
    (SegAValP.loadB (W := 384) (q0 := 384) YB inb_S512x1024_S512x384_0_384 rfl)
  exact SegAValP.landed0 ct c 1 (k0_off6_inb c) (Geo.off6_eq c)
    (fun q h1 h2 => SegAValP.blk_of_mid h1 (by have : q < 384 + 384 := h2; omega)) (ssW1 c YA YB g) hcore fd

/-- The send buffer's column block 2 after its store: the product of the rows of `YA` the device gives away in that
    block and the block's columns of `YB`, written over whatever the buffer held. -/
def ssW2 (g : Buf (Elt F) ((c : Thread nD τ).loc cc0_scratch6)) : Buf (Elt F) ((c : Thread nD τ).loc cc0_scratch6) :=
  View.write (Elt F) ((Memref.whole cc0_scratch6 : Memref sig .tc .vmem S512x1024 .bf16).access (Rect.unit (s := S512x1024) ![0, 768] S512x256.size inb_S512x1024_S512x256_0_768))
    g
    (k0_pay5 (k0_pay4 (View.readAt (Elt F) (Memref.whole cc0_stg0_0 : Memref sig .tc .vmem S1024x512 .f32).view (Rect.unit (s := S1024x512) (k0_off4 c 3#32) S512x512.size (k0_off4_inb c 1)).toLoadRect YA)) (View.readAt (Elt F) (Memref.whole cc0_stg1_0 : Memref sig .tc .vmem S512x1024 .f32).view (Rect.unit (s := S512x1024) ![0, 768] S512x256.size inb_S512x1024_S512x256_0_768).toLoadRect YB))
    Finset.univ

/-- Piece 0 of column block 2, landed at the partner, is right under the partner's receive contract. -/
theorem hlaw_0_2_0 (laws : Laws ct c YA YB) (g : Buf (Elt F) ((c : Thread nD τ).loc cc0_scratch6))
    (fd : Buf (Elt F) ((dst_rs_0_2_0 c).view.loc (peer 2 0 c : Thread nD τ))) :
    ∀ i ∈ (dst_rs_0_2_0 c).view.set, pRS ct 0 (peer 2 0 c) (sh := S512x1024) i
      (((dst_rs_0_2_0 c).view.write (Elt F) fd ((src_rs_0_2_0 c).view.read (Elt F) (ssW2 c YA YB g)) Finset.univ) i) := by
  have hcore := SegAValP.ss_core2 ct c YA YB laws g _ _
    (SegAValP.loadA YA (k0_off4_inb c 1) (Geo.off4_3_eq c))
    (SegAValP.loadB (W := 256) (q0 := 768) YB inb_S512x1024_S512x256_0_768 rfl)
  exact SegAValP.landed0 ct c 2 (k0_off7_inb c) (Geo.off7_eq c)
    (fun q h1 _ => SegAValP.blk_of_ge h1) (ssW2 c YA YB g) hcore fd

/-- Piece 1 of column block 2, landed at the partner, is right under the partner's receive contract. -/
theorem hlaw_0_2_1 (laws : Laws ct c YA YB) (g : Buf (Elt F) ((c : Thread nD τ).loc cc0_scratch6))
    (fd : Buf (Elt F) ((dst_rs_0_2_1 c).view.loc (peer 2 0 c : Thread nD τ))) :
    ∀ i ∈ (dst_rs_0_2_1 c).view.set, pRS ct 0 (peer 2 0 c) (sh := S512x1024) i
      (((dst_rs_0_2_1 c).view.write (Elt F) fd ((src_rs_0_2_1 c).view.read (Elt F) (ssW2 c YA YB g)) Finset.univ) i) := by
  have hcore := SegAValP.ss_core2 ct c YA YB laws g _ _
    (SegAValP.loadA YA (k0_off4_inb c 1) (Geo.off4_3_eq c))
    (SegAValP.loadB (W := 256) (q0 := 768) YB inb_S512x1024_S512x256_0_768 rfl)
  exact SegAValP.landed0 ct c 2 (k0_off8_inb c) (Geo.off8_eq c)
    (fun q h1 _ => SegAValP.blk_of_ge h1) (ssW2 c YA YB g) hcore fd

/-- The accumulator after the three stores of the kept halves' products, over whatever it held. -/
def accW (fa : Buf (Elt F) ((c : Thread nD τ).loc cc0_scratch0)) : Buf (Elt F) ((c : Thread nD τ).loc cc0_scratch0) :=
  (Memref.whole cc0_scratch0 : Memref sig .tc .vmem S1024x1024 .f32).view.writes (Elt F) fa
    [⟨Rect.unit (s := S1024x1024) (k0_off13 c) S512x256.size (k0_off13_inb c),
        k0_pay8 (View.readAt (Elt F) (Memref.whole cc0_stg0_0 : Memref sig .tc .vmem S1024x512 .f32).view (Rect.unit (s := S1024x512) (k0_off11 c 3#32) S512x512.size (k0_off11_inb c 1)).toLoadRect YA) (View.readAt (Elt F) (Memref.whole cc0_stg1_0 : Memref sig .tc .vmem S512x1024 .f32).view (Rect.unit (s := S512x1024) ![0, 768] S512x256.size inb_S512x1024_S512x256_0_768).toLoadRect YB)⟩,
      ⟨Rect.unit (s := S1024x1024) (k0_off12 c) S512x384.size (k0_off12_inb c),
        k0_pay7 (View.readAt (Elt F) (Memref.whole cc0_stg0_0 : Memref sig .tc .vmem S1024x512 .f32).view (Rect.unit (s := S1024x512) (k0_off11 c 1#32) S512x512.size (k0_off11_inb c 0)).toLoadRect YA) (View.readAt (Elt F) (Memref.whole cc0_stg1_0 : Memref sig .tc .vmem S512x1024 .f32).view (Rect.unit (s := S512x1024) ![0, 384] S512x384.size inb_S512x1024_S512x384_0_384).toLoadRect YB)⟩,
      ⟨Rect.unit (s := S1024x1024) (k0_off10 c) S512x384.size (k0_off10_inb c),
        k0_pay6 (View.readAt (Elt F) (Memref.whole cc0_stg0_0 : Memref sig .tc .vmem S1024x512 .f32).view (Rect.unit (s := S1024x512) (k0_off9 c) S512x512.size (k0_off9_inb c)).toLoadRect YA) (View.readAt (Elt F) (Memref.whole cc0_stg1_0 : Memref sig .tc .vmem S512x1024 .f32).view (Rect.unit (s := S512x1024) ![0, 0] S512x384.size inb_S512x1024_S512x384_0_0).toLoadRect YB)⟩]

/-- The kept halves' products in the accumulator are right under the contract, column block by column block. -/
theorem acc_law (laws : Laws ct c YA YB) (fa : Buf (Elt F) ((c : Thread nD τ).loc cc0_scratch0)) :
    (∀ i ∈ accKeep0_0 c, ct.okAcc 0 c (i 0).val (i 1).val (accW c YA YB fa i))
      ∧ (∀ i ∈ accKeep0_1 c, ct.okAcc 0 c (i 0).val (i 1).val (accW c YA YB fa i))
      ∧ (∀ i ∈ accKeep0_2 c, ct.okAcc 0 c (i 0).val (i 1).val (accW c YA YB fa i)) := by
  have hA0 := SegAValP.loadA YA (k0_off9_inb c) (Geo.off9_eq c)
  have hA1 := SegAValP.loadA YA (k0_off11_inb c 0) (Geo.off11_1_eq c)
  have hA2 := SegAValP.loadA YA (k0_off11_inb c 1) (Geo.off11_3_eq c)
  have hB0 : ∀ (j : S512x384.Idx) (i : S512x1024.Idx), (i 0).val = (j 0).val → (i 1).val = (j 1).val → _ = YB i :=
    fun j i a b => SegAValP.loadB (W := 384) (q0 := 0) YB inb_S512x1024_S512x384_0_0 rfl j i a (b.trans (Nat.zero_add _).symm)
  have hB1 := SegAValP.loadB (W := 384) (q0 := 384) YB inb_S512x1024_S512x384_0_384 rfl
  have hB2 := SegAValP.loadB (W := 256) (q0 := 768) YB inb_S512x1024_S512x256_0_768 rfl
  refine ⟨fun i hi => ?_, fun i hi => ?_, fun i hi => ?_⟩
  · have hm := (Plumb.mem_slice_unit_whole cc0_scratch0 (k0_off10_inb c) (Geo.off10_eq c) i).mp hi
    have h1 := (hm 1).2
    unfold accW
    rw [Plumb.writes_unit_whole_of_not_mem (Val := Elt F) cc0_scratch0 fa (k0_off13_inb c) _ _ i (Geo.off13_eq c) 1
        (Or.inl (by have : (i 1).val < 0 + 384 := h1; show (i 1).val < 768; omega)),
      Plumb.writes_unit_whole_of_not_mem (Val := Elt F) cc0_scratch0 fa (k0_off12_inb c) _ _ i (Geo.off12_eq c) 1
        (Or.inl (by have : (i 1).val < 0 + 384 := h1; show (i 1).val < 384; omega))]
    exact SegAValP.acc_core0 ct c YA YB laws fa _ _ (k0_off10_inb c) (Geo.off10_eq c) hA0 hB0 i hm
  · have hm := (Plumb.mem_slice_unit_whole cc0_scratch0 (k0_off12_inb c) (Geo.off12_eq c) i).mp hi
    have h1 := (hm 1).1
    unfold accW
    rw [Plumb.writes_unit_whole_of_not_mem (Val := Elt F) cc0_scratch0 fa (k0_off13_inb c) _ _ i (Geo.off13_eq c) 1
        (Or.inl (by have h2 := (hm 1).2; have : (i 1).val < 384 + 384 := h2; show (i 1).val < 768; omega))]
    exact SegAValP.acc_core1 ct c YA YB laws _ _ _ (k0_off12_inb c) (Geo.off12_eq c) hA1 hB1 i hm
  · have hm := (Plumb.mem_slice_unit_whole cc0_scratch0 (k0_off13_inb c) (Geo.off13_eq c) i).mp hi
    unfold accW
    exact SegAValP.acc_core2 ct c YA YB laws _ _ _ (k0_off13_inb c) (Geo.off13_eq c) hA2 hB2 i hm

end Cert.KernelIdeal.SegAVal

end
-- ==== Proof.SegA.lean ====
/-
  The first segment of the body: the entry handshake and the first stage of the summing phase.
-/
import proofs.«900879_g7700000000000880_dist_matmul_gelu_kshard_i_m1024_n1024_k512_v7x_i32_bf16_1_alg».proof.Proof.Segs
import proofs.«900879_g7700000000000880_dist_matmul_gelu_kshard_i_m1024_n1024_k512_v7x_i32_bf16_1_alg».proof.Proof.RegionsRS
import proofs.«900879_g7700000000000880_dist_matmul_gelu_kshard_i_m1024_n1024_k512_v7x_i32_bf16_1_alg».proof.Proof.RegionsOut
import proofs.«900879_g7700000000000880_dist_matmul_gelu_kshard_i_m1024_n1024_k512_v7x_i32_bf16_1_alg».proof.Proof.SendStep
import proofs.«900879_g7700000000000880_dist_matmul_gelu_kshard_i_m1024_n1024_k512_v7x_i32_bf16_1_alg».proof.Proof.SegAVal
set_option synthInstance.maxSize 4096
set_option maxRecDepth 65536

noncomputable section

namespace Cert.KernelIdeal.SegA

open Cert.KernelIdeal Cert.KernelIdeal.Gen Cert.KernelIdeal.Proto Cert.KernelIdeal.Tab Cert.KernelIdeal.Held Cert.KernelIdeal.PayTab
open Cert.KernelIdeal.Sched Cert.KernelIdeal.GhostTab Cert.KernelIdeal.Owed Cert.KernelIdeal.Ghost Cert.KernelIdeal.StateTab
open Cert.KernelIdeal.Laws Cert.KernelIdeal.Cut Cert.KernelIdeal.Segs Cert.KernelIdeal.RegionsRS Cert.KernelIdeal.RegionsOut Cert.KernelIdeal.Geo Cert.KernelIdeal.RegionsCut
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.SendStep (send_step)

variable {F : FTy → Type} [FloatOps F]

/-- The chain's first six parts, then any continuation of the words they leave. -/
noncomputable def front {R : Type} (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2)
    (G : Dev nD → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → Prog (TpuEff nD τ sig (Elt F) Λ₀ .tc) R) :
    Prog (TpuEff nD τ sig (Elt F) Λ₀ .tc) R := do
  let ⟨d0, v3, v4, v5, v6, v7, v8, v9, v10, v11, v12, v13, v14, v15, v16, v17, v18, v20, v22, v24, v26, v27, v28, v29, v30⟩ : Σ' (d0 : Dev nD) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v27 : BitVec 32) (v28 : BitVec 32) (v29 : Sems sig S_), BitVec 32 ← k0_part1 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17
  let ⟨v40, c256_i32_40⟩ : Σ' (v40 : BitVec 32), BitVec 32 ← k0_part2 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v5 v6 v7 v20 v27 v29 v30
  let ⟨v74, v85⟩ : Σ' (v74 : BitVec 32), FVec F S512x384 .bf16 ← k0_part3 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v20 c256_i32_40
  let ⟨v108, v114⟩ : Σ' (v108 : BitVec 32), FVec F S512x512 .bf16 ← k0_part4 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v8 v24 v85
  let v143 : Vec F S512x512 .f32 ← k0_part5 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v13 v28 v40 v114
  let ⟨v179, v182⟩ : Σ' (v179 : BitVec 32), BitVec 32 ← k0_part6 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v20 v40 v74 v108 v143
  G d0 v3 v4 v5 v6 v7 v8 v9 v10 v11 v12 v13 v14 v15 v16 v17 v18 v20 v22 v24 v26 v28 v40 v74 v108 v179 v182

/-- The chain followed by a continuation is its first six parts followed by the rest under that continuation. -/
theorem front_eq {R : Type} (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2)
    (T : (Σ' (d0 : Dev nD) (v3 : BitVec 32) (v8 : BitVec 32) (v13 : BitVec 32) (v28 : BitVec 32), BitVec 32) → Prog (TpuEff nD τ sig (Elt F) Λ₀ .tc) R) :
    (k0_part64_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 >>= T)
      = front arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 (fun d0 v3 v4 v5 v6 v7 v8 v9 v10 v11 v12 v13 v14 v15 v16 v17 v18 v20 v22 v24 v26 v28 v40 v74 v108 v179 v182 => rest7 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v5 v6 v7 v8 v9 v10 v11 v12 v13 v14 v15 v16 v17 v18 v20 v22 v24 v26 v28 v40 v74 v108 v179 v182 >>= T) := by
  rw [part64_cut7]
  rfl

theorem peer_xr : ∀ (k : Fin 3) (s : Fin 5) (i : Fin 5) (c : Dev nD), mask k s = hmask i → peer k s (xr c (hmask i)) = c := by decide

theorem sep_assoc_eq (P Q R : sProp (MT nD τ sig Unit (Elt F) ℕ UU ℕ)) : iprop((P ∗ Q) ∗ R) = iprop(P ∗ Q ∗ R) := equiv_iff.mp ⟨BI.sep_assoc, BI.sep_assoc'⟩
theorem sep_spell (P Q : sProp (MT nD τ sig Unit (Elt F) ℕ UU ℕ)) : Idealize.SL.BI.sep P Q = iprop(P ∗ Q) := rfl

/-- What device `c` lends its partner number `0` with the handshake signal, spelt from `c`'s side. -/
theorem barPay_self_0 (c : Dev nD) : barPay (F := F) (xr c (hmask 0)) 0 = iprop(loanV c (dst_rs_0_0_0 (peer 0 0 c)) ∗ loanV c (dst_rs_0_0_1 (peer 0 0 c)) ∗ loanV c (dst_rs_1_2_0 (peer 2 1 c)) ∗ loanV c (dst_rs_1_2_1 (peer 2 1 c)) ∗ loanV c (dst_rs_2_1_0 (peer 1 2 c)) ∗ loanV c (dst_rs_2_1_1 (peer 1 2 c)) ∗ loanV c (dst_ag_2_1_0 (peer 1 2 c)) ∗ loanV c (dst_ag_2_1_1 (peer 1 2 c)) ∗ loanV c (dst_ag_1_2_0 (peer 2 1 c)) ∗ loanV c (dst_ag_1_2_1 (peer 2 1 c)) ∗ loanV c (dst_ag_0_0_0 (peer 0 0 c)) ∗ loanV c (dst_ag_0_0_1 (peer 0 0 c))) := by
  show iprop(loanV (peer 0 0 (xr c (hmask 0))) (dst_rs_0_0_0 (xr c (hmask 0))) ∗ loanV (peer 0 0 (xr c (hmask 0))) (dst_rs_0_0_1 (xr c (hmask 0))) ∗ loanV (peer 2 1 (xr c (hmask 0))) (dst_rs_1_2_0 (xr c (hmask 0))) ∗ loanV (peer 2 1 (xr c (hmask 0))) (dst_rs_1_2_1 (xr c (hmask 0))) ∗ loanV (peer 1 2 (xr c (hmask 0))) (dst_rs_2_1_0 (xr c (hmask 0))) ∗ loanV (peer 1 2 (xr c (hmask 0))) (dst_rs_2_1_1 (xr c (hmask 0))) ∗ loanV (peer 1 2 (xr c (hmask 0))) (dst_ag_2_1_0 (xr c (hmask 0))) ∗ loanV (peer 1 2 (xr c (hmask 0))) (dst_ag_2_1_1 (xr c (hmask 0))) ∗ loanV (peer 2 1 (xr c (hmask 0))) (dst_ag_1_2_0 (xr c (hmask 0))) ∗ loanV (peer 2 1 (xr c (hmask 0))) (dst_ag_1_2_1 (xr c (hmask 0))) ∗ loanV (peer 0 0 (xr c (hmask 0))) (dst_ag_0_0_0 (xr c (hmask 0))) ∗ loanV (peer 0 0 (xr c (hmask 0))) (dst_ag_0_0_1 (xr c (hmask 0)))) = _
  rw [peer_xr 0 0 0 c (by decide), peer_xr 2 1 0 c (by decide), peer_xr 1 2 0 c (by decide)]
  rfl

/-- What device `c` lends its partner number `1` with the handshake signal, spelt from `c`'s side. -/
theorem barPay_self_1 (c : Dev nD) : barPay (F := F) (xr c (hmask 1)) 1 = iprop(loanV c (dst_rs_0_1_0 (peer 1 0 c)) ∗ loanV c (dst_rs_0_1_1 (peer 1 0 c)) ∗ loanV c (dst_rs_1_0_0 (peer 0 1 c)) ∗ loanV c (dst_rs_1_0_1 (peer 0 1 c)) ∗ loanV c (dst_rs_2_2_0 (peer 2 2 c)) ∗ loanV c (dst_rs_2_2_1 (peer 2 2 c)) ∗ loanV c (dst_ag_2_2_0 (peer 2 2 c)) ∗ loanV c (dst_ag_2_2_1 (peer 2 2 c)) ∗ loanV c (dst_ag_1_0_0 (peer 0 1 c)) ∗ loanV c (dst_ag_1_0_1 (peer 0 1 c)) ∗ loanV c (dst_ag_0_1_0 (peer 1 0 c)) ∗ loanV c (dst_ag_0_1_1 (peer 1 0 c))) := by
  show iprop(loanV (peer 1 0 (xr c (hmask 1))) (dst_rs_0_1_0 (xr c (hmask 1))) ∗ loanV (peer 1 0 (xr c (hmask 1))) (dst_rs_0_1_1 (xr c (hmask 1))) ∗ loanV (peer 0 1 (xr c (hmask 1))) (dst_rs_1_0_0 (xr c (hmask 1))) ∗ loanV (peer 0 1 (xr c (hmask 1))) (dst_rs_1_0_1 (xr c (hmask 1))) ∗ loanV (peer 2 2 (xr c (hmask 1))) (dst_rs_2_2_0 (xr c (hmask 1))) ∗ loanV (peer 2 2 (xr c (hmask 1))) (dst_rs_2_2_1 (xr c (hmask 1))) ∗ loanV (peer 2 2 (xr c (hmask 1))) (dst_ag_2_2_0 (xr c (hmask 1))) ∗ loanV (peer 2 2 (xr c (hmask 1))) (dst_ag_2_2_1 (xr c (hmask 1))) ∗ loanV (peer 0 1 (xr c (hmask 1))) (dst_ag_1_0_0 (xr c (hmask 1))) ∗ loanV (peer 0 1 (xr c (hmask 1))) (dst_ag_1_0_1 (xr c (hmask 1))) ∗ loanV (peer 1 0 (xr c (hmask 1))) (dst_ag_0_1_0 (xr c (hmask 1))) ∗ loanV (peer 1 0 (xr c (hmask 1))) (dst_ag_0_1_1 (xr c (hmask 1)))) = _
  rw [peer_xr 1 0 1 c (by decide), peer_xr 0 1 1 c (by decide), peer_xr 2 2 1 c (by decide)]
  rfl

/-- What device `c` lends its partner number `2` with the handshake signal, spelt from `c`'s side. -/
theorem barPay_self_2 (c : Dev nD) : barPay (F := F) (xr c (hmask 2)) 2 = iprop(loanV c (dst_rs_0_2_0 (peer 2 0 c)) ∗ loanV c (dst_rs_0_2_1 (peer 2 0 c)) ∗ loanV c (dst_rs_1_1_0 (peer 1 1 c)) ∗ loanV c (dst_rs_1_1_1 (peer 1 1 c)) ∗ loanV c (dst_rs_2_0_0 (peer 0 2 c)) ∗ loanV c (dst_rs_2_0_1 (peer 0 2 c)) ∗ loanV c (dst_ag_2_0_0 (peer 0 2 c)) ∗ loanV c (dst_ag_2_0_1 (peer 0 2 c)) ∗ loanV c (dst_ag_1_1_0 (peer 1 1 c)) ∗ loanV c (dst_ag_1_1_1 (peer 1 1 c)) ∗ loanV c (dst_ag_0_2_0 (peer 2 0 c)) ∗ loanV c (dst_ag_0_2_1 (peer 2 0 c))) := by
  show iprop(loanV (peer 2 0 (xr c (hmask 2))) (dst_rs_0_2_0 (xr c (hmask 2))) ∗ loanV (peer 2 0 (xr c (hmask 2))) (dst_rs_0_2_1 (xr c (hmask 2))) ∗ loanV (peer 1 1 (xr c (hmask 2))) (dst_rs_1_1_0 (xr c (hmask 2))) ∗ loanV (peer 1 1 (xr c (hmask 2))) (dst_rs_1_1_1 (xr c (hmask 2))) ∗ loanV (peer 0 2 (xr c (hmask 2))) (dst_rs_2_0_0 (xr c (hmask 2))) ∗ loanV (peer 0 2 (xr c (hmask 2))) (dst_rs_2_0_1 (xr c (hmask 2))) ∗ loanV (peer 0 2 (xr c (hmask 2))) (dst_ag_2_0_0 (xr c (hmask 2))) ∗ loanV (peer 0 2 (xr c (hmask 2))) (dst_ag_2_0_1 (xr c (hmask 2))) ∗ loanV (peer 1 1 (xr c (hmask 2))) (dst_ag_1_1_0 (xr c (hmask 2))) ∗ loanV (peer 1 1 (xr c (hmask 2))) (dst_ag_1_1_1 (xr c (hmask 2))) ∗ loanV (peer 2 0 (xr c (hmask 2))) (dst_ag_0_2_0 (xr c (hmask 2))) ∗ loanV (peer 2 0 (xr c (hmask 2))) (dst_ag_0_2_1 (xr c (hmask 2)))) = _
  rw [peer_xr 2 0 2 c (by decide), peer_xr 1 1 2 c (by decide), peer_xr 0 2 2 c (by decide)]
  rfl

/-- What device `c` lends its partner number `3` with the handshake signal, spelt from `c`'s side. -/
theorem barPay_self_3 (c : Dev nD) : barPay (F := F) (xr c (hmask 3)) 3 = iprop(loanV c (dst_rs_3_0_0 (peer 0 3 c)) ∗ loanV c (dst_rs_3_0_1 (peer 0 3 c)) ∗ loanV c (dst_rs_4_1_0 (peer 1 4 c)) ∗ loanV c (dst_rs_4_2_0 (peer 2 4 c)) ∗ loanV c (dst_ag_4_1_0 (peer 1 4 c)) ∗ loanV c (dst_ag_4_2_0 (peer 2 4 c)) ∗ loanV c (dst_ag_3_0_0 (peer 0 3 c)) ∗ loanV c (dst_ag_3_0_1 (peer 0 3 c))) := by
  show iprop(loanV (peer 0 3 (xr c (hmask 3))) (dst_rs_3_0_0 (xr c (hmask 3))) ∗ loanV (peer 0 3 (xr c (hmask 3))) (dst_rs_3_0_1 (xr c (hmask 3))) ∗ loanV (peer 1 4 (xr c (hmask 3))) (dst_rs_4_1_0 (xr c (hmask 3))) ∗ loanV (peer 2 4 (xr c (hmask 3))) (dst_rs_4_2_0 (xr c (hmask 3))) ∗ loanV (peer 1 4 (xr c (hmask 3))) (dst_ag_4_1_0 (xr c (hmask 3))) ∗ loanV (peer 2 4 (xr c (hmask 3))) (dst_ag_4_2_0 (xr c (hmask 3))) ∗ loanV (peer 0 3 (xr c (hmask 3))) (dst_ag_3_0_0 (xr c (hmask 3))) ∗ loanV (peer 0 3 (xr c (hmask 3))) (dst_ag_3_0_1 (xr c (hmask 3)))) = _
  rw [peer_xr 0 3 3 c (by decide), peer_xr 1 4 3 c (by decide), peer_xr 2 4 3 c (by decide)]
  rfl

/-- What device `c` lends its partner number `4` with the handshake signal, spelt from `c`'s side. -/
theorem barPay_self_4 (c : Dev nD) : barPay (F := F) (xr c (hmask 4)) 4 = iprop(loanV c (dst_rs_3_1_0 (peer 1 3 c)) ∗ loanV c (dst_rs_3_1_1 (peer 1 3 c)) ∗ loanV c (dst_rs_3_2_0 (peer 2 3 c)) ∗ loanV c (dst_rs_3_2_1 (peer 2 3 c)) ∗ loanV c (dst_rs_4_0_0 (peer 0 4 c)) ∗ loanV c (dst_ag_4_0_0 (peer 0 4 c)) ∗ loanV c (dst_ag_3_1_0 (peer 1 3 c)) ∗ loanV c (dst_ag_3_1_1 (peer 1 3 c)) ∗ loanV c (dst_ag_3_2_0 (peer 2 3 c)) ∗ loanV c (dst_ag_3_2_1 (peer 2 3 c))) := by
  show iprop(loanV (peer 1 3 (xr c (hmask 4))) (dst_rs_3_1_0 (xr c (hmask 4))) ∗ loanV (peer 1 3 (xr c (hmask 4))) (dst_rs_3_1_1 (xr c (hmask 4))) ∗ loanV (peer 2 3 (xr c (hmask 4))) (dst_rs_3_2_0 (xr c (hmask 4))) ∗ loanV (peer 2 3 (xr c (hmask 4))) (dst_rs_3_2_1 (xr c (hmask 4))) ∗ loanV (peer 0 4 (xr c (hmask 4))) (dst_rs_4_0_0 (xr c (hmask 4))) ∗ loanV (peer 0 4 (xr c (hmask 4))) (dst_ag_4_0_0 (xr c (hmask 4))) ∗ loanV (peer 1 3 (xr c (hmask 4))) (dst_ag_3_1_0 (xr c (hmask 4))) ∗ loanV (peer 1 3 (xr c (hmask 4))) (dst_ag_3_1_1 (xr c (hmask 4))) ∗ loanV (peer 2 3 (xr c (hmask 4))) (dst_ag_3_2_0 (xr c (hmask 4))) ∗ loanV (peer 2 3 (xr c (hmask 4))) (dst_ag_3_2_1 (xr c (hmask 4)))) = _
  rw [peer_xr 1 3 4 c (by decide), peer_xr 2 3 4 c (by decide), peer_xr 0 4 4 c (by decide)]
  rfl

/-- The five partners' loans, piece by piece. -/
theorem rest_bar_flat (c : Dev nD) : bigSep (Finset.univ : Finset (Fin 5)) (fun d => barPay (F := F) c d)
    = iprop(loanV (peer 0 0 c) (dst_rs_0_0_0 c) ∗ loanV (peer 0 0 c) (dst_rs_0_0_1 c) ∗ loanV (peer 2 1 c) (dst_rs_1_2_0 c) ∗ loanV (peer 2 1 c) (dst_rs_1_2_1 c) ∗ loanV (peer 1 2 c) (dst_rs_2_1_0 c) ∗ loanV (peer 1 2 c) (dst_rs_2_1_1 c) ∗ loanV (peer 1 2 c) (dst_ag_2_1_0 c) ∗ loanV (peer 1 2 c) (dst_ag_2_1_1 c) ∗ loanV (peer 2 1 c) (dst_ag_1_2_0 c) ∗ loanV (peer 2 1 c) (dst_ag_1_2_1 c) ∗ loanV (peer 0 0 c) (dst_ag_0_0_0 c) ∗ loanV (peer 0 0 c) (dst_ag_0_0_1 c) ∗ loanV (peer 1 0 c) (dst_rs_0_1_0 c) ∗ loanV (peer 1 0 c) (dst_rs_0_1_1 c) ∗ loanV (peer 0 1 c) (dst_rs_1_0_0 c) ∗ loanV (peer 0 1 c) (dst_rs_1_0_1 c) ∗ loanV (peer 2 2 c) (dst_rs_2_2_0 c) ∗ loanV (peer 2 2 c) (dst_rs_2_2_1 c) ∗ loanV (peer 2 2 c) (dst_ag_2_2_0 c) ∗ loanV (peer 2 2 c) (dst_ag_2_2_1 c) ∗ loanV (peer 0 1 c) (dst_ag_1_0_0 c) ∗ loanV (peer 0 1 c) (dst_ag_1_0_1 c) ∗ loanV (peer 1 0 c) (dst_ag_0_1_0 c) ∗ loanV (peer 1 0 c) (dst_ag_0_1_1 c) ∗ loanV (peer 2 0 c) (dst_rs_0_2_0 c) ∗ loanV (peer 2 0 c) (dst_rs_0_2_1 c) ∗ loanV (peer 1 1 c) (dst_rs_1_1_0 c) ∗ loanV (peer 1 1 c) (dst_rs_1_1_1 c) ∗ loanV (peer 0 2 c) (dst_rs_2_0_0 c) ∗ loanV (peer 0 2 c) (dst_rs_2_0_1 c) ∗ loanV (peer 0 2 c) (dst_ag_2_0_0 c) ∗ loanV (peer 0 2 c) (dst_ag_2_0_1 c) ∗ loanV (peer 1 1 c) (dst_ag_1_1_0 c) ∗ loanV (peer 1 1 c) (dst_ag_1_1_1 c) ∗ loanV (peer 2 0 c) (dst_ag_0_2_0 c) ∗ loanV (peer 2 0 c) (dst_ag_0_2_1 c) ∗ loanV (peer 0 3 c) (dst_rs_3_0_0 c) ∗ loanV (peer 0 3 c) (dst_rs_3_0_1 c) ∗ loanV (peer 1 4 c) (dst_rs_4_1_0 c) ∗ loanV (peer 2 4 c) (dst_rs_4_2_0 c) ∗ loanV (peer 1 4 c) (dst_ag_4_1_0 c) ∗ loanV (peer 2 4 c) (dst_ag_4_2_0 c) ∗ loanV (peer 0 3 c) (dst_ag_3_0_0 c) ∗ loanV (peer 0 3 c) (dst_ag_3_0_1 c) ∗ loanV (peer 1 3 c) (dst_rs_3_1_0 c) ∗ loanV (peer 1 3 c) (dst_rs_3_1_1 c) ∗ loanV (peer 2 3 c) (dst_rs_3_2_0 c) ∗ loanV (peer 2 3 c) (dst_rs_3_2_1 c) ∗ loanV (peer 0 4 c) (dst_rs_4_0_0 c) ∗ loanV (peer 0 4 c) (dst_ag_4_0_0 c) ∗ loanV (peer 1 3 c) (dst_ag_3_1_0 c) ∗ loanV (peer 1 3 c) (dst_ag_3_1_1 c) ∗ loanV (peer 2 3 c) (dst_ag_3_2_0 c) ∗ loanV (peer 2 3 c) (dst_ag_3_2_1 c)) := by
  rw [bigSep_univ_eq_bigSepL [(0 : Fin 5), 1, 2, 3, 4] (by decide) (by decide)]
  simp only [bigSepL_cons_cons, bigSepL_singleton, barPay, sep_spell, sep_assoc_eq]

variable (ct : Contract F) (K : Dev nD × Fin 124 → ℕ)

theorem mem_bar (d : Dev nD) : (d, (123 : Fin 124)) ∈ (ourIx : Finset (Dev nD × Fin 124)) :=
  Finset.mem_filter.mpr ⟨Finset.mem_univ _, (by decide : ours (123 : Fin 124) = true)⟩
theorem inv_bar (d : Dev nD) : records ct K ⊢ cellInv ER (sched ct) (K (d, 123)) (barCell d) := inv_at ct K (d, 123) (mem_bar d)
theorem reached_bar (d : Dev nD) : records ct K ⊢ reached ER (barCell d) 0 := reached_at ct K (d, 123) (mem_bar d)
theorem inv_dma (d : Dev nD) (a : Fin 4) (s : Fin 5) (k : Fin 3) (j : Fin 2)
    (h : ours ⟨(dsem a s k j).val, Nat.lt_trans (dsem a s k j).isLt (by decide)⟩ = true) :
    records ct K ⊢ cellInv ER (sched ct) (K (d, ⟨(dsem a s k j).val, Nat.lt_trans (dsem a s k j).isLt (by decide)⟩)) (dcell d a s k j) := by
  rw [← kcell_dma d a s k j]; exact inv_at ct K _ (Finset.mem_filter.mpr ⟨Finset.mem_univ _, h⟩)
theorem reached_dma (d : Dev nD) (a : Fin 4) (s : Fin 5) (k : Fin 3) (j : Fin 2)
    (h : ours ⟨(dsem a s k j).val, Nat.lt_trans (dsem a s k j).isLt (by decide)⟩ = true) :
    records ct K ⊢ reached ER (dcell d a s k j) 0 := by
  rw [← kcell_dma d a s k j]; exact reached_at ct K _ (Finset.mem_filter.mpr ⟨Finset.mem_univ _, h⟩)

attribute [local sl_rounds] duties_bar amount_bar expect_bar payload_bar rest_bar_flat barPay_self_0 barPay_self_1 barPay_self_2 barPay_self_3 barPay_self_4
attribute [local sl_canon] dev_bar_0 dev_bar_1 dev_bar_2 dev_bar_3 dev_bar_4

variable (c : Dev nD) (YA : S1024x512.Idx → F .f32) (YB : S512x1024.Idx → F .f32)

/-- A whole buffer, spelt through its whole view. -/
theorem ptsA (c : Dev nD) (q : PosShare TreeShare) (f : Buf (Elt F) ((c : Thread nD τ).loc cc0_stg0_0)) :
    ((((c : Thread nD τ).loc cc0_stg0_0) ↦{q} f) : sProp (MT nD τ sig Unit (Elt F) ℕ UU ℕ))
      ⊢ ((Memref.whole cc0_stg0_0 : Memref sig .tc .vmem S1024x512 .f32).view.loc (c : Thread nD τ) ↦{q} f) := BI.Entails.refl _
theorem ptsB (c : Dev nD) (q : PosShare TreeShare) (f : Buf (Elt F) ((c : Thread nD τ).loc cc0_stg1_0)) :
    ((((c : Thread nD τ).loc cc0_stg1_0) ↦{q} f) : sProp (MT nD τ sig Unit (Elt F) ℕ UU ℕ))
      ⊢ ((Memref.whole cc0_stg1_0 : Memref sig .tc .vmem S512x1024 .f32).view.loc (c : Thread nD τ) ↦{q} f) := BI.Entails.refl _
theorem ptsAcc (c : Dev nD) (q : PosShare TreeShare) (f : Buf (Elt F) ((c : Thread nD τ).loc cc0_scratch0)) :
    ((((c : Thread nD τ).loc cc0_scratch0) ↦{q} f) : sProp (MT nD τ sig Unit (Elt F) ℕ UU ℕ))
      ⊢ ((Memref.whole cc0_scratch0 : Memref sig .tc .vmem S1024x1024 .f32).view.loc (c : Thread nD τ) ↦{q} f) := BI.Entails.refl _
theorem ptsSS0 (c : Dev nD) (q : PosShare TreeShare) (f : Buf (Elt F) ((c : Thread nD τ).loc cc0_scratch6)) :
    ((((c : Thread nD τ).loc cc0_scratch6) ↦{q} f) : sProp (MT nD τ sig Unit (Elt F) ℕ UU ℕ))
      ⊢ ((Memref.whole cc0_scratch6 : Memref sig .tc .vmem S512x1024 .bf16).view.loc (c : Thread nD τ) ↦{q} f) := BI.Entails.refl _

/-- The send buffer's column blocks as memrefs. -/
abbrev ssM0 : Memref sig .tc .vmem S512x384 .bf16 :=
  (Memref.whole cc0_scratch6 : Memref sig .tc .vmem S512x1024 .bf16).slice (Rect.unit (s := S512x1024) ![0, 0] S512x384.size inb_S512x1024_S512x384_0_0) (fun _ => rfl)
theorem colpts0 (c : Dev nD) (q : PosShare TreeShare) (f : Buf (Elt F) ((c : Thread nD τ).loc cc0_scratch6)) :
    ((((c : Thread nD τ).loc cc0_scratch6) ↦[ssCol_0_0]{q} f) : sProp (MT nD τ sig Unit (Elt F) ℕ UU ℕ))
      ⊢ ((ssM0).view.loc (c : Thread nD τ) ↦[(ssM0).view.set]{q} f) := BI.Entails.refl _
theorem colpts0' (c : Dev nD) (q : PosShare TreeShare) (f : Buf (Elt F) ((c : Thread nD τ).loc cc0_scratch6)) :
    (((ssM0).view.loc (c : Thread nD τ) ↦[(ssM0).view.set]{q} f) : sProp (MT nD τ sig Unit (Elt F) ℕ UU ℕ))
      ⊢ (((c : Thread nD τ).loc cc0_scratch6) ↦[ssCol_0_0]{q} f) := BI.Entails.refl _
abbrev ssM1 : Memref sig .tc .vmem S512x384 .bf16 :=
  (Memref.whole cc0_scratch6 : Memref sig .tc .vmem S512x1024 .bf16).slice (Rect.unit (s := S512x1024) ![0, 384] S512x384.size inb_S512x1024_S512x384_0_384) (fun _ => rfl)
theorem colpts1 (c : Dev nD) (q : PosShare TreeShare) (f : Buf (Elt F) ((c : Thread nD τ).loc cc0_scratch6)) :
    ((((c : Thread nD τ).loc cc0_scratch6) ↦[ssCol_0_1]{q} f) : sProp (MT nD τ sig Unit (Elt F) ℕ UU ℕ))
      ⊢ ((ssM1).view.loc (c : Thread nD τ) ↦[(ssM1).view.set]{q} f) := BI.Entails.refl _
theorem colpts1' (c : Dev nD) (q : PosShare TreeShare) (f : Buf (Elt F) ((c : Thread nD τ).loc cc0_scratch6)) :
    (((ssM1).view.loc (c : Thread nD τ) ↦[(ssM1).view.set]{q} f) : sProp (MT nD τ sig Unit (Elt F) ℕ UU ℕ))
      ⊢ (((c : Thread nD τ).loc cc0_scratch6) ↦[ssCol_0_1]{q} f) := BI.Entails.refl _
abbrev ssM2 : Memref sig .tc .vmem S512x256 .bf16 :=
  (Memref.whole cc0_scratch6 : Memref sig .tc .vmem S512x1024 .bf16).slice (Rect.unit (s := S512x1024) ![0, 768] S512x256.size inb_S512x1024_S512x256_0_768) (fun _ => rfl)
theorem colpts2 (c : Dev nD) (q : PosShare TreeShare) (f : Buf (Elt F) ((c : Thread nD τ).loc cc0_scratch6)) :
    ((((c : Thread nD τ).loc cc0_scratch6) ↦[ssCol_0_2]{q} f) : sProp (MT nD τ sig Unit (Elt F) ℕ UU ℕ))
      ⊢ ((ssM2).view.loc (c : Thread nD τ) ↦[(ssM2).view.set]{q} f) := BI.Entails.refl _
theorem colpts2' (c : Dev nD) (q : PosShare TreeShare) (f : Buf (Elt F) ((c : Thread nD τ).loc cc0_scratch6)) :
    (((ssM2).view.loc (c : Thread nD τ) ↦[(ssM2).view.set]{q} f) : sProp (MT nD τ sig Unit (Elt F) ℕ UU ℕ))
      ⊢ (((c : Thread nD τ).loc cc0_scratch6) ↦[ssCol_0_2]{q} f) := BI.Entails.refl _
theorem rowpts_0_0 (c : Dev nD) (q : PosShare TreeShare) (f : Buf (Elt F) ((c : Thread nD τ).loc cc0_scratch6)) :
    ((((c : Thread nD τ).loc cc0_scratch6) ↦[(src_rs_0_0_0 c).view.set]{q} f) : sProp (MT nD τ sig Unit (Elt F) ℕ UU ℕ))
      ⊢ ((src_rs_0_0_0 c).view.loc (c : Thread nD τ) ↦[(src_rs_0_0_0 c).view.set]{q} f) := BI.Entails.refl _
theorem rowpts_0_1 (c : Dev nD) (q : PosShare TreeShare) (f : Buf (Elt F) ((c : Thread nD τ).loc cc0_scratch6)) :
    ((((c : Thread nD τ).loc cc0_scratch6) ↦[(src_rs_0_0_1 c).view.set]{q} f) : sProp (MT nD τ sig Unit (Elt F) ℕ UU ℕ))
      ⊢ ((src_rs_0_0_1 c).view.loc (c : Thread nD τ) ↦[(src_rs_0_0_1 c).view.set]{q} f) := BI.Entails.refl _
theorem rowpts_1_0 (c : Dev nD) (q : PosShare TreeShare) (f : Buf (Elt F) ((c : Thread nD τ).loc cc0_scratch6)) :
    ((((c : Thread nD τ).loc cc0_scratch6) ↦[(src_rs_0_1_0 c).view.set]{q} f) : sProp (MT nD τ sig Unit (Elt F) ℕ UU ℕ))
      ⊢ ((src_rs_0_1_0 c).view.loc (c : Thread nD τ) ↦[(src_rs_0_1_0 c).view.set]{q} f) := BI.Entails.refl _
theorem rowpts_1_1 (c : Dev nD) (q : PosShare TreeShare) (f : Buf (Elt F) ((c : Thread nD τ).loc cc0_scratch6)) :
    ((((c : Thread nD τ).loc cc0_scratch6) ↦[(src_rs_0_1_1 c).view.set]{q} f) : sProp (MT nD τ sig Unit (Elt F) ℕ UU ℕ))
      ⊢ ((src_rs_0_1_1 c).view.loc (c : Thread nD τ) ↦[(src_rs_0_1_1 c).view.set]{q} f) := BI.Entails.refl _
theorem rowpts_2_0 (c : Dev nD) (q : PosShare TreeShare) (f : Buf (Elt F) ((c : Thread nD τ).loc cc0_scratch6)) :
    ((((c : Thread nD τ).loc cc0_scratch6) ↦[(src_rs_0_2_0 c).view.set]{q} f) : sProp (MT nD τ sig Unit (Elt F) ℕ UU ℕ))
      ⊢ ((src_rs_0_2_0 c).view.loc (c : Thread nD τ) ↦[(src_rs_0_2_0 c).view.set]{q} f) := BI.Entails.refl _
theorem rowpts_2_1 (c : Dev nD) (q : PosShare TreeShare) (f : Buf (Elt F) ((c : Thread nD τ).loc cc0_scratch6)) :
    ((((c : Thread nD τ).loc cc0_scratch6) ↦[(src_rs_0_2_1 c).view.set]{q} f) : sProp (MT nD τ sig Unit (Elt F) ℕ UU ℕ))
      ⊢ ((src_rs_0_2_1 c).view.loc (c : Thread nD τ) ↦[(src_rs_0_2_1 c).view.set]{q} f) := BI.Entails.refl _

theorem loanV_open {sh : Shape} {e : EltTy} (d : Dev nD) (v : Memref sig .tc .vmem sh e) :
    (loanV (F := F) d v : sProp (MT nD τ sig Unit (Elt F) ℕ UU ℕ)) ⊢ iprop(∃ f : Buf (Elt F) (v.view.loc (d : Thread nD τ)), (v.view.loc (d : Thread nD τ) ↦[v.view.set]{fullShare} f)) := BI.Entails.refl _
theorem heldV_unfold {sh : Shape} {e : EltTy} (d : Dev nD) (v : Memref sig .tc .vmem sh e) (q : PosShare TreeShare)
    (P : v.view.ty.Idx → Elt F v.view.ty.elt → Prop) :
    heldV (F := F) d v q P = iprop(∃ f : Buf (Elt F) (v.view.loc (d : Thread nD τ)), (v.view.loc (d : Thread nD τ) ↦[v.view.set]{q} f) ∗ ⌜∀ i ∈ v.view.set, P i (f i)⌝) := rfl
theorem loanV_unfold {sh : Shape} {e : EltTy} (d : Dev nD) (v : Memref sig .tc .vmem sh e) :
    loanV (F := F) d v = iprop(∃ f : Buf (Elt F) (v.view.loc (d : Thread nD τ)), (v.view.loc (d : Thread nD τ) ↦[v.view.set]{fullShare} f)) := rfl

theorem duties_S_0_0 (d : Dev nD) : (sched ct).duties (dcell d 0 0 0 0) 0 = {0} := duties_dma ct d 0 0 0 0 rfl
theorem duties_R_0_0 (d : Dev nD) : (sched ct).duties (dcell d 1 0 0 0) 0 = {0} := duties_dma ct d 1 0 0 0 rfl
theorem pay_S_0_0 (d : Dev nD) : dmaPay ct d (dsem 0 0 0 0).val = iprop(∃ f : Buf (Elt F) ((src_rs_0_0_0 d).view.loc (d : Thread nD τ)), ((src_rs_0_0_0 d).view.loc (d : Thread nD τ) ↦[(src_rs_0_0_0 d).view.set]{fullShare} f)) := rfl
theorem pay_R_0_0 (c : Dev nD) : dmaPay ct (peer 0 0 c) (dsem 1 0 0 0).val
    = heldV (peer 0 0 c) (dst_rs_0_0_0 c) fullShare (fun i v => pRS ct 0 (peer 0 0 c) (sh := S512x1024) i v) := by
  show recv_rs_0_0_0 ct (peer 0 0 c) = _
  unfold recv_rs_0_0_0; rw [peer_peer]
theorem duties_S_0_1 (d : Dev nD) : (sched ct).duties (dcell d 0 0 0 1) 0 = {0} := duties_dma ct d 0 0 0 1 rfl
theorem duties_R_0_1 (d : Dev nD) : (sched ct).duties (dcell d 1 0 0 1) 0 = {0} := duties_dma ct d 1 0 0 1 rfl
theorem pay_S_0_1 (d : Dev nD) : dmaPay ct d (dsem 0 0 0 1).val = iprop(∃ f : Buf (Elt F) ((src_rs_0_0_1 d).view.loc (d : Thread nD τ)), ((src_rs_0_0_1 d).view.loc (d : Thread nD τ) ↦[(src_rs_0_0_1 d).view.set]{fullShare} f)) := rfl
theorem pay_R_0_1 (c : Dev nD) : dmaPay ct (peer 0 0 c) (dsem 1 0 0 1).val
    = heldV (peer 0 0 c) (dst_rs_0_0_1 c) fullShare (fun i v => pRS ct 0 (peer 0 0 c) (sh := S512x1024) i v) := by
  show recv_rs_0_0_1 ct (peer 0 0 c) = _
  unfold recv_rs_0_0_1; rw [peer_peer]
theorem duties_S_1_0 (d : Dev nD) : (sched ct).duties (dcell d 0 0 1 0) 0 = {0} := duties_dma ct d 0 0 1 0 rfl
theorem duties_R_1_0 (d : Dev nD) : (sched ct).duties (dcell d 1 0 1 0) 0 = {0} := duties_dma ct d 1 0 1 0 rfl
theorem pay_S_1_0 (d : Dev nD) : dmaPay ct d (dsem 0 0 1 0).val = iprop(∃ f : Buf (Elt F) ((src_rs_0_1_0 d).view.loc (d : Thread nD τ)), ((src_rs_0_1_0 d).view.loc (d : Thread nD τ) ↦[(src_rs_0_1_0 d).view.set]{fullShare} f)) := rfl
theorem pay_R_1_0 (c : Dev nD) : dmaPay ct (peer 1 0 c) (dsem 1 0 1 0).val
    = heldV (peer 1 0 c) (dst_rs_0_1_0 c) fullShare (fun i v => pRS ct 0 (peer 1 0 c) (sh := S512x1024) i v) := by
  show recv_rs_0_1_0 ct (peer 1 0 c) = _
  unfold recv_rs_0_1_0; rw [peer_peer]
theorem duties_S_1_1 (d : Dev nD) : (sched ct).duties (dcell d 0 0 1 1) 0 = {0} := duties_dma ct d 0 0 1 1 rfl
theorem duties_R_1_1 (d : Dev nD) : (sched ct).duties (dcell d 1 0 1 1) 0 = {0} := duties_dma ct d 1 0 1 1 rfl
theorem pay_S_1_1 (d : Dev nD) : dmaPay ct d (dsem 0 0 1 1).val = iprop(∃ f : Buf (Elt F) ((src_rs_0_1_1 d).view.loc (d : Thread nD τ)), ((src_rs_0_1_1 d).view.loc (d : Thread nD τ) ↦[(src_rs_0_1_1 d).view.set]{fullShare} f)) := rfl
theorem pay_R_1_1 (c : Dev nD) : dmaPay ct (peer 1 0 c) (dsem 1 0 1 1).val
    = heldV (peer 1 0 c) (dst_rs_0_1_1 c) fullShare (fun i v => pRS ct 0 (peer 1 0 c) (sh := S512x1024) i v) := by
  show recv_rs_0_1_1 ct (peer 1 0 c) = _
  unfold recv_rs_0_1_1; rw [peer_peer]
theorem duties_S_2_0 (d : Dev nD) : (sched ct).duties (dcell d 0 0 2 0) 0 = {0} := duties_dma ct d 0 0 2 0 rfl
theorem duties_R_2_0 (d : Dev nD) : (sched ct).duties (dcell d 1 0 2 0) 0 = {0} := duties_dma ct d 1 0 2 0 rfl
theorem pay_S_2_0 (d : Dev nD) : dmaPay ct d (dsem 0 0 2 0).val = iprop(∃ f : Buf (Elt F) ((src_rs_0_2_0 d).view.loc (d : Thread nD τ)), ((src_rs_0_2_0 d).view.loc (d : Thread nD τ) ↦[(src_rs_0_2_0 d).view.set]{fullShare} f)) := rfl
theorem pay_R_2_0 (c : Dev nD) : dmaPay ct (peer 2 0 c) (dsem 1 0 2 0).val
    = heldV (peer 2 0 c) (dst_rs_0_2_0 c) fullShare (fun i v => pRS ct 0 (peer 2 0 c) (sh := S512x1024) i v) := by
  show recv_rs_0_2_0 ct (peer 2 0 c) = _
  unfold recv_rs_0_2_0; rw [peer_peer]
theorem duties_S_2_1 (d : Dev nD) : (sched ct).duties (dcell d 0 0 2 1) 0 = {0} := duties_dma ct d 0 0 2 1 rfl
theorem duties_R_2_1 (d : Dev nD) : (sched ct).duties (dcell d 1 0 2 1) 0 = {0} := duties_dma ct d 1 0 2 1 rfl
theorem pay_S_2_1 (d : Dev nD) : dmaPay ct d (dsem 0 0 2 1).val = iprop(∃ f : Buf (Elt F) ((src_rs_0_2_1 d).view.loc (d : Thread nD τ)), ((src_rs_0_2_1 d).view.loc (d : Thread nD τ) ↦[(src_rs_0_2_1 d).view.set]{fullShare} f)) := rfl
theorem pay_R_2_1 (c : Dev nD) : dmaPay ct (peer 2 0 c) (dsem 1 0 2 1).val
    = heldV (peer 2 0 c) (dst_rs_0_2_1 c) fullShare (fun i v => pRS ct 0 (peer 2 0 c) (sh := S512x1024) i v) := by
  show recv_rs_0_2_1 ct (peer 2 0 c) = _
  unfold recv_rs_0_2_1; rw [peer_peer]

attribute [local sl_rounds] amount_dma payload_dma heldV_unfold duties_S_0_0 duties_R_0_0 pay_S_0_0 pay_R_0_0 duties_S_0_1 duties_R_0_1 pay_S_0_1 pay_R_0_1 duties_S_1_0 duties_R_1_0 pay_S_1_0 pay_R_1_0 duties_S_1_1 duties_R_1_1 pay_S_1_1 pay_R_1_1 duties_S_2_0 duties_R_2_0 pay_S_2_0 pay_R_2_0 duties_S_2_1 duties_R_2_1 pay_S_2_1 pay_R_2_1
attribute [local sl_canon] dev_rs_0_0_0 dev_rs_0_0_1 dev_rs_0_1_0 dev_rs_0_1_1 dev_rs_0_2_0 dev_rs_0_2_1

/-- The positions: the handshake cell's, the summing phase's, the gathering phase's. -/
theorem positions_eq3 (c : Dev nD) : positions (F := F) c = iprop(atPos ER (barCell c) 0 ∅ 0 ∗ posRS c ∗ posAG c) := by
  unfold positions posRS posAG; simp only [sep_assoc_eq]
/-- The launch credit: the handshake cell's, the summing phase's, the gathering phase's. -/
theorem credits_eq3 (c : Dev nD) : credits (F := F) c = iprop(cred (tallyAt (barCell c) () 5) ∗ credRS c ∗ credAG c) := by
  unfold credits credRS credAG; simp only [sep_assoc_eq]
/-- The transfers' tokens: the first stage's six pairs, then the rest. -/
theorem xferToks_eq6 (c : Dev nD) : xferToks (F := F) c = iprop((dutyTok ER (dcell c 0 0 0 0) 0 0 ∗ dutyTok ER (dcell (peer 0 0 c) 1 0 0 0) 0 0) ∗ (dutyTok ER (dcell c 0 0 0 1) 0 0 ∗ dutyTok ER (dcell (peer 0 0 c) 1 0 0 1) 0 0) ∗ (dutyTok ER (dcell c 0 0 1 0) 0 0 ∗ dutyTok ER (dcell (peer 1 0 c) 1 0 1 0) 0 0) ∗ (dutyTok ER (dcell c 0 0 1 1) 0 0 ∗ dutyTok ER (dcell (peer 1 0 c) 1 0 1 1) 0 0) ∗ (dutyTok ER (dcell c 0 0 2 0) 0 0 ∗ dutyTok ER (dcell (peer 2 0 c) 1 0 2 0) 0 0) ∗ (dutyTok ER (dcell c 0 0 2 1) 0 0 ∗ dutyTok ER (dcell (peer 2 0 c) 1 0 2 1) 0 0) ∗ toksFrom6 c) := by
  unfold xferToks toksFrom6; rfl

theorem prog_ret_bind {E : Type → Type} {α β : Type} (a : α) (k : α → Prog E β) : (Prog.ret a).bind k = k a := rfl

set_option maxHeartbeats 4000000 in
theorem segA_core (laws : Laws ct c YA YB) {R : Type}
    (G : Dev nD → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → Prog (TpuEff nD τ sig (Elt F) Λ₀ .tc) R)
    (Kt : R → sProp (MT nD τ sig Unit (Elt F) ℕ UU ℕ)) :
    iprop(PreA ct K c YA YB ∗ (∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v40 : BitVec 32) (v74 : BitVec 32) (v108 : BitVec 32) (v179 : BitVec 32) (v182 : BitVec 32), Pre7 ct K c YA YB -∗
        wp frame (wpE (defs₀ (F := F)) 𝒱₀ (c : Thread nD τ) none) Set.univ (G c v3 v4 v5 v6 v7 v8 v9 v10 v11 v12 v13 v14 v15 v16 v17 v18 v20 v22 v24 v26 v28 v40 v74 v108 v179 v182) Kt))
      ⊢ wp frame (wpE (defs₀ (F := F)) 𝒱₀ (c : Thread nD τ) none) Set.univ (front (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 G) Kt := by
  unfold front PreA
  rw [scopedRest0_eq]
  rw [owed_step_0 c, owed_step_1 c, owed_step_2 c, owed_step_3 c, owed_step_4 c]
  rw [positions_eq3 c, credits_eq3 c, xferToks_eq6 c]
  unfold barToks
  iintro ⟨Hpre, Hk⟩
  icases Hpre with ⟨#Hrec, #Hlev, HOw, Hpos, Hbt, Hxt, Hcr, Hidle, Hsc, HA, HB, Hout⟩
  icases HOw with ⟨%W, HO⟩
  icases Hbt with ⟨Ht0, Ht1, Ht2, Ht3, Ht4⟩
  icases Hpos with ⟨HatB, HposRS, HposAG⟩
  icases Hcr with ⟨HcrB, HcrRS, HcrAG⟩
  icases Hsc with ⟨Hacc, Hrs0, Hrs1, Hrs2, Hrs3, Hrs4, Hss0, Hss1, Hss2, Hss3, Hss4⟩
  ihave Hl0 := (rs_split_0 (F := F) c) $$ Hrs0
  ihave Hl1 := (rs_split_1 (F := F) c) $$ Hrs1
  ihave Hl2 := (rs_split_2 (F := F) c) $$ Hrs2
  ihave Hl3 := (rs_split_3 (F := F) c) $$ Hrs3
  ihave Hl4 := (rs_split_4 (F := F) c) $$ Hrs4
  ihave Hlo := (out_split (F := F) c) $$ Hout
  icases Hl0 with ⟨Hl0_0, Hl0_1, Hl0_2, Hl0_3, Hl0_4, Hl0_5⟩
  icases Hl1 with ⟨Hl1_0, Hl1_1, Hl1_2, Hl1_3, Hl1_4, Hl1_5⟩
  icases Hl2 with ⟨Hl2_0, Hl2_1, Hl2_2, Hl2_3, Hl2_4, Hl2_5⟩
  icases Hl3 with ⟨Hl3_0, Hl3_1, Hl3_2, Hl3_3, Hl3_4, Hl3_5⟩
  icases Hl4 with ⟨Hl4_0, Hl4_1, Hl4_2⟩
  icases Hlo with ⟨Hown0, Hown1, Hown2, Hlo0, Hlo1, Hlo2, Hlo3, Hlo4, Hlo5, Hlo6, Hlo7, Hlo8, Hlo9, Hlo10, Hlo11, Hlo12, Hlo13, Hlo14, Hlo15, Hlo16, Hlo17, Hlo18, Hlo19, Hlo20, Hlo21, Hlo22, Hlo23, Hlo24, Hlo25, Hlo26⟩
  ihave #HIc := (inv_bar ct K c) $$ Hrec
  ihave #HI0 := (inv_bar ct K (xr c (hmask 0))) $$ Hrec
  ihave #Hr0 := (reached_bar ct K (xr c (hmask 0))) $$ Hrec
  ihave #HI1 := (inv_bar ct K (xr c (hmask 1))) $$ Hrec
  ihave #Hr1 := (reached_bar ct K (xr c (hmask 1))) $$ Hrec
  ihave #HI2 := (inv_bar ct K (xr c (hmask 2))) $$ Hrec
  ihave #Hr2 := (reached_bar ct K (xr c (hmask 2))) $$ Hrec
  ihave #HI3 := (inv_bar ct K (xr c (hmask 3))) $$ Hrec
  ihave #Hr3 := (reached_bar ct K (xr c (hmask 3))) $$ Hrec
  ihave #HI4 := (inv_bar ct K (xr c (hmask 4))) $$ Hrec
  ihave #Hr4 := (reached_bar ct K (xr c (hmask 4))) $$ Hrec
  ihave #Hmw := (mayWait_bar (F := F) c) $$ Hlev
  ihave HA := (ptsA c fullShare YA) $$ HA
  ihave HB := (ptsB c fullShare YB) $$ HB
  icases Hacc with ⟨%facc, Hacc⟩
  ihave Hacc := (ptsAcc c fullShare facc) $$ Hacc
  ihave Hcols := (ss_cols_0 (F := F) c) $$ Hss0
  icases Hcols with ⟨⟨%g0, Hc0⟩, ⟨%g1, Hc1⟩, ⟨%g2, Hc2⟩⟩
  ihave Hc0 := (colpts0 c fullShare g0) $$ Hc0
  ihave Hc1 := (colpts1 c fullShare g1) $$ Hc1
  ihave Hc2 := (colpts2 c fullShare g2) $$ Hc2
  icases Hxt with ⟨⟨Hts00, Htr00⟩, ⟨Hts01, Htr01⟩, ⟨Hts10, Htr10⟩, ⟨Hts11, Htr11⟩, ⟨Hts20, Htr20⟩, ⟨Hts21, Htr21⟩, Hxt⟩
  ihave #HIs00 := (inv_dma ct K c 0 0 0 0 (by decide)) $$ Hrec
  ihave #HIr00 := (inv_dma ct K (peer 0 0 c) 1 0 0 0 (by decide)) $$ Hrec
  ihave #Hrs00 := (reached_dma ct K c 0 0 0 0 (by decide)) $$ Hrec
  ihave #Hrr00 := (reached_dma ct K (peer 0 0 c) 1 0 0 0 (by decide)) $$ Hrec
  ihave #HIs01 := (inv_dma ct K c 0 0 0 1 (by decide)) $$ Hrec
  ihave #HIr01 := (inv_dma ct K (peer 0 0 c) 1 0 0 1 (by decide)) $$ Hrec
  ihave #Hrs01 := (reached_dma ct K c 0 0 0 1 (by decide)) $$ Hrec
  ihave #Hrr01 := (reached_dma ct K (peer 0 0 c) 1 0 0 1 (by decide)) $$ Hrec
  ihave #HIs10 := (inv_dma ct K c 0 0 1 0 (by decide)) $$ Hrec
  ihave #HIr10 := (inv_dma ct K (peer 1 0 c) 1 0 1 0 (by decide)) $$ Hrec
  ihave #Hrs10 := (reached_dma ct K c 0 0 1 0 (by decide)) $$ Hrec
  ihave #Hrr10 := (reached_dma ct K (peer 1 0 c) 1 0 1 0 (by decide)) $$ Hrec
  ihave #HIs11 := (inv_dma ct K c 0 0 1 1 (by decide)) $$ Hrec
  ihave #HIr11 := (inv_dma ct K (peer 1 0 c) 1 0 1 1 (by decide)) $$ Hrec
  ihave #Hrs11 := (reached_dma ct K c 0 0 1 1 (by decide)) $$ Hrec
  ihave #Hrr11 := (reached_dma ct K (peer 1 0 c) 1 0 1 1 (by decide)) $$ Hrec
  ihave #HIs20 := (inv_dma ct K c 0 0 2 0 (by decide)) $$ Hrec
  ihave #HIr20 := (inv_dma ct K (peer 2 0 c) 1 0 2 0 (by decide)) $$ Hrec
  ihave #Hrs20 := (reached_dma ct K c 0 0 2 0 (by decide)) $$ Hrec
  ihave #Hrr20 := (reached_dma ct K (peer 2 0 c) 1 0 2 0 (by decide)) $$ Hrec
  ihave #HIs21 := (inv_dma ct K c 0 0 2 1 (by decide)) $$ Hrec
  ihave #HIr21 := (inv_dma ct K (peer 2 0 c) 1 0 2 1 (by decide)) $$ Hrec
  ihave #Hrs21 := (reached_dma ct K c 0 0 2 1 (by decide)) $$ Hrec
  ihave #Hrr21 := (reached_dma ct K (peer 2 0 c) 1 0 2 1 (by decide)) $$ Hrec
  sl_exec
  -- column block 0 of the send buffer into the two row pieces sent
  ihave Hc0 := (colpts0' c fullShare _) $$ Hc0
  ihave Hrows0 := ((ss_rows_at_0_0 (F := F) c fullShare _).1) $$ Hc0
  icases Hrows0 with ⟨Hs00, Hs01⟩
  ihave Hs00 := (rowpts_0_0 c fullShare _) $$ Hs00
  ihave Hs01 := (rowpts_0_1 c fullShare _) $$ Hs01
  -- the transfer of piece 0 of column block 0
  ihave Hd00 := (loanV_open (peer 0 0 c) (dst_rs_0_0_0 c)) $$ HatB_pay1
  icases Hd00 with ⟨%fd00, Hd00⟩
  rw [owed_step_5 c]
  iapply (send_step ct (K _) (K _) c _ (peer 0 0 c) (dev_rs_0_0_0 c)
      (src_rs_0_0_0 c) (dst_rs_0_0_0 c) (dsem 0 0 0 0) (dsem 1 0 0 0) _ fd00
      (owedFrom c 6) _ _
      (duties_S_0_0 ct c) (duties_R_0_0 ct (peer 0 0 c)) (amtIx (dsem 1 0 0 0).val) rfl rfl rfl rfl (pay_R_0_0 ct c) (SegAVal.hlaw_0_0_0 ct c YA YB laws g0 fd00))
    $$ [Hs00 Hd00 HO Hts00 Htr00]
  · isplitr; · iexact HIs00
    isplitr; · iexact HIr00
    isplitl [Hs00]; · iexact Hs00
    isplitl [Hd00]; · iexact Hd00
    isplitl [HO]; · iexact HO
    isplitl [Hts00]; · iexact Hts00
    isplitr; · iexact Hrs00
    isplitl [Htr00]; · iexact Htr00
    iexact Hrr00
  iintro ⟨Hcs00, HO⟩
  -- the transfer of piece 1 of column block 0
  ihave Hd01 := (loanV_open (peer 0 0 c) (dst_rs_0_0_1 c)) $$ HatB_pay2
  icases Hd01 with ⟨%fd01, Hd01⟩
  rw [owed_step_6 c]
  iapply (send_step ct (K _) (K _) c _ (peer 0 0 c) (dev_rs_0_0_1 c)
      (src_rs_0_0_1 c) (dst_rs_0_0_1 c) (dsem 0 0 0 1) (dsem 1 0 0 1) _ fd01
      (owedFrom c 7) _ _
      (duties_S_0_1 ct c) (duties_R_0_1 ct (peer 0 0 c)) (amtIx (dsem 1 0 0 1).val) rfl rfl rfl rfl (pay_R_0_1 ct c) (SegAVal.hlaw_0_0_1 ct c YA YB laws g0 fd01))
    $$ [Hs01 Hd01 HO Hts01 Htr01]
  · isplitr; · iexact HIs01
    isplitr; · iexact HIr01
    isplitl [Hs01]; · iexact Hs01
    isplitl [Hd01]; · iexact Hd01
    isplitl [HO]; · iexact HO
    isplitl [Hts01]; · iexact Hts01
    isplitr; · iexact Hrs01
    isplitl [Htr01]; · iexact Htr01
    iexact Hrr01
  iintro ⟨Hcs01, HO⟩
  rw [prog_ret_bind]
  sl_exec
  -- column block 1 of the send buffer into the two row pieces sent
  ihave Hc1 := (colpts1' c fullShare _) $$ Hc1
  ihave Hrows1 := ((ss_rows_at_0_1 (F := F) c fullShare _).1) $$ Hc1
  icases Hrows1 with ⟨Hs10, Hs11⟩
  ihave Hs10 := (rowpts_1_0 c fullShare _) $$ Hs10
  ihave Hs11 := (rowpts_1_1 c fullShare _) $$ Hs11
  -- the transfer of piece 0 of column block 1
  ihave Hd10 := (loanV_open (peer 1 0 c) (dst_rs_0_1_0 c)) $$ HatB_pay13
  icases Hd10 with ⟨%fd10, Hd10⟩
  rw [owed_step_7 c]
  iapply (send_step ct (K _) (K _) c _ (peer 1 0 c) (dev_rs_0_1_0 c)
      (src_rs_0_1_0 c) (dst_rs_0_1_0 c) (dsem 0 0 1 0) (dsem 1 0 1 0) _ fd10
      (owedFrom c 8) _ _
      (duties_S_1_0 ct c) (duties_R_1_0 ct (peer 1 0 c)) (amtIx (dsem 1 0 1 0).val) rfl rfl rfl rfl (pay_R_1_0 ct c) (SegAVal.hlaw_0_1_0 ct c YA YB laws g1 fd10))
    $$ [Hs10 Hd10 HO Hts10 Htr10]
  · isplitr; · iexact HIs10
    isplitr; · iexact HIr10
    isplitl [Hs10]; · iexact Hs10
    isplitl [Hd10]; · iexact Hd10
    isplitl [HO]; · iexact HO
    isplitl [Hts10]; · iexact Hts10
    isplitr; · iexact Hrs10
    isplitl [Htr10]; · iexact Htr10
    iexact Hrr10
  iintro ⟨Hcs10, HO⟩
  -- the transfer of piece 1 of column block 1
  ihave Hd11 := (loanV_open (peer 1 0 c) (dst_rs_0_1_1 c)) $$ HatB_pay14
  icases Hd11 with ⟨%fd11, Hd11⟩
  rw [owed_step_8 c]
  iapply (send_step ct (K _) (K _) c _ (peer 1 0 c) (dev_rs_0_1_1 c)
      (src_rs_0_1_1 c) (dst_rs_0_1_1 c) (dsem 0 0 1 1) (dsem 1 0 1 1) _ fd11
      (owedFrom c 9) _ _
      (duties_S_1_1 ct c) (duties_R_1_1 ct (peer 1 0 c)) (amtIx (dsem 1 0 1 1).val) rfl rfl rfl rfl (pay_R_1_1 ct c) (SegAVal.hlaw_0_1_1 ct c YA YB laws g1 fd11))
    $$ [Hs11 Hd11 HO Hts11 Htr11]
  · isplitr; · iexact HIs11
    isplitr; · iexact HIr11
    isplitl [Hs11]; · iexact Hs11
    isplitl [Hd11]; · iexact Hd11
    isplitl [HO]; · iexact HO
    isplitl [Hts11]; · iexact Hts11
    isplitr; · iexact Hrs11
    isplitl [Htr11]; · iexact Htr11
    iexact Hrr11
  iintro ⟨Hcs11, HO⟩
  rw [prog_ret_bind]
  sl_exec
  -- column block 2 of the send buffer into the two row pieces sent
  ihave Hc2 := (colpts2' c fullShare _) $$ Hc2
  ihave Hrows2 := ((ss_rows_at_0_2 (F := F) c fullShare _).1) $$ Hc2
  icases Hrows2 with ⟨Hs20, Hs21⟩
  ihave Hs20 := (rowpts_2_0 c fullShare _) $$ Hs20
  ihave Hs21 := (rowpts_2_1 c fullShare _) $$ Hs21
  -- the transfer of piece 0 of column block 2
  ihave Hd20 := (loanV_open (peer 2 0 c) (dst_rs_0_2_0 c)) $$ HatB_pay25
  icases Hd20 with ⟨%fd20, Hd20⟩
  rw [owed_step_9 c]
  iapply (send_step ct (K _) (K _) c _ (peer 2 0 c) (dev_rs_0_2_0 c)
      (src_rs_0_2_0 c) (dst_rs_0_2_0 c) (dsem 0 0 2 0) (dsem 1 0 2 0) _ fd20
      (owedFrom c 10) _ _
      (duties_S_2_0 ct c) (duties_R_2_0 ct (peer 2 0 c)) (amtIx (dsem 1 0 2 0).val) rfl rfl rfl rfl (pay_R_2_0 ct c) (SegAVal.hlaw_0_2_0 ct c YA YB laws g2 fd20))
    $$ [Hs20 Hd20 HO Hts20 Htr20]
  · isplitr; · iexact HIs20
    isplitr; · iexact HIr20
    isplitl [Hs20]; · iexact Hs20
    isplitl [Hd20]; · iexact Hd20
    isplitl [HO]; · iexact HO
    isplitl [Hts20]; · iexact Hts20
    isplitr; · iexact Hrs20
    isplitl [Htr20]; · iexact Htr20
    iexact Hrr20
  iintro ⟨Hcs20, HO⟩
  -- the transfer of piece 1 of column block 2
  ihave Hd21 := (loanV_open (peer 2 0 c) (dst_rs_0_2_1 c)) $$ HatB_pay26
  icases Hd21 with ⟨%fd21, Hd21⟩
  rw [owed_step_10 c]
  iapply (send_step ct (K _) (K _) c _ (peer 2 0 c) (dev_rs_0_2_1 c)
      (src_rs_0_2_1 c) (dst_rs_0_2_1 c) (dsem 0 0 2 1) (dsem 1 0 2 1) _ fd21
      (owedFrom c 11) _ _
      (duties_S_2_1 ct c) (duties_R_2_1 ct (peer 2 0 c)) (amtIx (dsem 1 0 2 1).val) rfl rfl rfl rfl (pay_R_2_1 ct c) (SegAVal.hlaw_0_2_1 ct c YA YB laws g2 fd21))
    $$ [Hs21 Hd21 HO Hts21 Htr21]
  · isplitr; · iexact HIs21
    isplitr; · iexact HIr21
    isplitl [Hs21]; · iexact Hs21
    isplitl [Hd21]; · iexact Hd21
    isplitl [HO]; · iexact HO
    isplitl [Hts21]; · iexact Hts21
    isplitr; · iexact Hrs21
    isplitl [Htr21]; · iexact Htr21
    iexact Hrr21
  iintro ⟨Hcs21, HO⟩
  rw [prog_ret_bind]
  sl_exec
  -- the state after the first stage
  iapply Hk
  unfold Pre7
  isplitr; · iexact Hrec
  isplitr; · iexact Hlev
  isplitl [HO]; · iexists _; iexact HO
  isplitl [Hxt]; · iexact Hxt
  isplitl [HposRS]; · iexact HposRS
  isplitl [HposAG]; · iexact HposAG
  isplitl [HcrRS]; · iexact HcrRS
  isplitl [HcrAG]; · iexact HcrAG
  isplitl [Hcs00 Hcs01 Hcs10 Hcs11 Hcs20 Hcs21]
  · unfold sendCred0
    isplitl [Hcs00]; · iexact Hcs00
    isplitl [Hcs01]; · iexact Hcs01
    isplitl [Hcs10]; · iexact Hcs10
    isplitl [Hcs11]; · iexact Hcs11
    isplitl [Hcs20]; · iexact Hcs20
    iexact Hcs21
  isplitl [Hidle]; · iexact Hidle
  isplitl [HA]; · iexact HA
  isplitl [HB]; · iexact HB
  isplitl [Hown0 Hown1 Hown2]
  · isplitl [Hown0]; · iexact Hown0
    isplitl [Hown1]; · iexact Hown1
    iexact Hown2
  isplitl [Hacc]
  · iexists _
    isplitl [Hacc]; · iexact Hacc
    ipureintro
    exact (SegAVal.acc_law ct c YA YB laws facc)
  isplitl [Hss1 Hss2 Hss3 Hss4]
  · isplitl [Hss1]; · iexact Hss1
    isplitl [Hss2]; · iexact Hss2
    isplitl [Hss3]; · iexact Hss3
    iexact Hss4
  unfold landFrom6
  isplitl [HatB_pay15]; · iexact HatB_pay15
  isplitl [HatB_pay16]; · iexact HatB_pay16
  isplitl [HatB_pay27]; · iexact HatB_pay27
  isplitl [HatB_pay28]; · iexact HatB_pay28
  isplitl [HatB_pay3]; · iexact HatB_pay3
  isplitl [HatB_pay4]; · iexact HatB_pay4
  isplitl [HatB_pay29]; · iexact HatB_pay29
  isplitl [HatB_pay30]; · iexact HatB_pay30
  isplitl [HatB_pay5]; · iexact HatB_pay5
  isplitl [HatB_pay6]; · iexact HatB_pay6
  isplitl [HatB_pay17]; · iexact HatB_pay17
  isplitl [HatB_pay18]; · iexact HatB_pay18
  isplitl [HatB_pay37]; · iexact HatB_pay37
  isplitl [HatB_pay38]; · iexact HatB_pay38
  isplitl [HatB_pay45]; · iexact HatB_pay45
  isplitl [HatB_pay46]; · iexact HatB_pay46
  isplitl [HatB_pay47]; · iexact HatB_pay47
  isplitl [HatB_pay48]; · iexact HatB_pay48
  isplitl [HatB_pay49]; · iexact HatB_pay49
  isplitl [HatB_pay39]; · iexact HatB_pay39
  isplitl [HatB_pay40]; · iexact HatB_pay40
  isplitl [HatB_pay50]; · iexact HatB_pay50
  isplitl [HatB_pay41]; · iexact HatB_pay41
  isplitl [HatB_pay42]; · iexact HatB_pay42
  isplitl [HatB_pay43]; · iexact HatB_pay43
  isplitl [HatB_pay44]; · iexact HatB_pay44
  isplitl [HatB_pay51]; · iexact HatB_pay51
  isplitl [HatB_pay52]; · iexact HatB_pay52
  isplitl [HatB_pay53]; · iexact HatB_pay53
  isplitl [HatB_pay54]; · iexact HatB_pay54
  isplitl [HatB_pay31]; · iexact HatB_pay31
  isplitl [HatB_pay32]; · iexact HatB_pay32
  isplitl [HatB_pay7]; · iexact HatB_pay7
  isplitl [HatB_pay8]; · iexact HatB_pay8
  isplitl [HatB_pay19]; · iexact HatB_pay19
  isplitl [HatB_pay20]; · iexact HatB_pay20
  isplitl [HatB_pay21]; · iexact HatB_pay21
  isplitl [HatB_pay22]; · iexact HatB_pay22
  isplitl [HatB_pay33]; · iexact HatB_pay33
  isplitl [HatB_pay34]; · iexact HatB_pay34
  isplitl [HatB_pay9]; · iexact HatB_pay9
  isplitl [HatB_pay10]; · iexact HatB_pay10
  isplitl [HatB_pay11]; · iexact HatB_pay11
  isplitl [HatB_pay12]; · iexact HatB_pay12
  isplitl [HatB_pay23]; · iexact HatB_pay23
  isplitl [HatB_pay24]; · iexact HatB_pay24
  isplitl [HatB_pay35]; · iexact HatB_pay35
  iexact HatB_pay36

/-- The first segment: the handshake and the first stage. -/
theorem segA (laws : Laws ct c YA YB) {R : Type}
    (T : (Σ' (d0 : Dev nD) (v3 : BitVec 32) (v8 : BitVec 32) (v13 : BitVec 32) (v28 : BitVec 32), BitVec 32) → Prog (TpuEff nD τ sig (Elt F) Λ₀ .tc) R)
    (Kt : R → sProp (MT nD τ sig Unit (Elt F) ℕ UU ℕ)) : SegA ct K c YA YB T Kt := by
  unfold SegA
  rw [front_eq]
  exact segA_core (ct := ct) (K := K) (c := c) (YA := YA) (YB := YB) laws (fun d0 v3 v4 v5 v6 v7 v8 v9 v10 v11 v12 v13 v14 v15 v16 v17 v18 v20 v22 v24 v26 v28 v40 v74 v108 v179 v182 => rest7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 d0 v3 v4 v5 v6 v7 v8 v9 v10 v11 v12 v13 v14 v15 v16 v17 v18 v20 v22 v24 v26 v28 v40 v74 v108 v179 v182 >>= T) Kt

end Cert.KernelIdeal.SegA

end
-- ==== Proof.SegBMid.lean ====
import proofs.«900879_g7700000000000880_dist_matmul_gelu_kshard_i_m1024_n1024_k512_v7x_i32_bf16_1_alg».proof.Proof.Segs

set_option synthInstance.maxSize 4096
set_option maxRecDepth 65536

noncomputable section

namespace Cert.KernelIdeal.SegBMid

open Cert.KernelIdeal Cert.KernelIdeal.Gen Cert.KernelIdeal.Proto Cert.KernelIdeal.Tab Cert.KernelIdeal.Held Cert.KernelIdeal.PayTab
open Cert.KernelIdeal.Sched Cert.KernelIdeal.GhostTab Cert.KernelIdeal.Owed Cert.KernelIdeal.Ghost Cert.KernelIdeal.StateTab
open Cert.KernelIdeal.Laws Cert.KernelIdeal.Cut Cert.KernelIdeal.Segs
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Stage four and the pointwise function, then the gathering phase: the chain from its thirtieth part on. -/
noncomputable def rest30 (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2) (d0 : Dev nD) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v611 : BitVec 32) (v663 : BitVec 32) (v715 : BitVec 32) (v827 : BitVec 32) :
    Prog (TpuEff nD τ sig (Elt F) Λ₀ .tc) (Σ' (d0 : Dev nD) (v3 : BitVec 32) (v8 : BitVec 32) (v13 : BitVec 32) (v28 : BitVec 32), BitVec 32) := do
  let v857 : FVec F S32x384 .bf16 ← k0_part30 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6 v26 v611
  let ⟨v866, v868, v871⟩ : Σ' (v866 : BitVec 32) (v868 : BitVec 32), BitVec 32 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v7 v11 v22 v611 v663 v827 v857
  let ⟨v907, v909, v912⟩ : Σ' (v907 : BitVec 32) (v909 : BitVec 32), BitVec 32 ← k0_part32 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v12 v22 v663 v715 v868 v871
  let c1_i32_905 : BitVec 32 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v16 v715 v912
  let v948 : BitVec 32 ← k0_part34 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6 v17 v715 v827 v866 v909 c1_i32_905
  k0_part35 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v11 v868 v907
  k0_part36 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v7 v16 v909 v948
  let ⟨v1044, c0_i32_1026⟩ : Σ' (v1044 : BitVec 32), BitVec 32 ← k0_part37 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v12 v827
  k0_part38 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v868 v1044 c0_i32_1026
  k0_part39 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v7 v17 v827 v909
  rest40 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v5 v6 v7 v8 v9 v10 v11 v12 v13 v14 v15 v16 v17 v18 v20 v22 v24 v26 v28 v827 v868 v909

/-- The second stage's kept halves and stage three, then the rest: the chain from its twentieth part on. -/
noncomputable def rest20 (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2) (d0 : Dev nD) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v395 : BitVec 32) (v445 : BitVec 32) (v447 : BitVec 32) (v497 : BitVec 32) (v499 : BitVec 32) (v549 : BitVec 32) :
    Prog (TpuEff nD τ sig (Elt F) Λ₀ .tc) (Σ' (d0 : Dev nD) (v3 : BitVec 32) (v8 : BitVec 32) (v13 : BitVec 32) (v28 : BitVec 32), BitVec 32) := do
  k0_part20 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v395 v445
  k0_part21 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v9 v14 v447 v497
  let ⟨v611, v614, v627⟩ : Σ' (v611 : BitVec 32) (v614 : BitVec 32), Vec F S64x384 .f32 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v22 v395 v499 v549
  k0_part23 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6 v26 v614 v627
  let ⟨v661, v663⟩ : Σ' (v661 : BitVec 32), BitVec 32 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v10 v26 v395 v447 v611
  let ⟨v713, v715, v717⟩ : Σ' (v713 : BitVec 32) (v715 : BitVec 32), BitVec 32 ← k0_part25 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v11 v22 v26 v447 v499 v663
  let ⟨v746, c32_i32_703⟩ : Σ' (v746 : BitVec 32), BitVec 32 ← k0_part26 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v15 v22 v499 v717
  let v765 : BitVec 32 ← k0_part27 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v16 v22 v499 v715 v746 c32_i32_703
  k0_part28 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v10 v611 v661 v663
  let v827 : BitVec 32 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v15 v26 v611 v663 v713 v715 v765
  rest30 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v5 v6 v7 v8 v9 v10 v11 v12 v13 v14 v15 v16 v17 v18 v20 v22 v24 v26 v28 v611 v663 v715 v827

/-- The chain from its seventh part on is its parts 7 to 19 followed by the chain from its twentieth. -/
theorem rest7_cut20 (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2) (d0 : Dev nD) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v40 : BitVec 32) (v74 : BitVec 32) (v108 : BitVec 32) (v179 : BitVec 32) (v182 : BitVec 32) :
    rest7 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v5 v6 v7 v8 v9 v10 v11 v12 v13 v14 v15 v16 v17 v18 v20 v22 v24 v26 v28 v40 v74 v108 v179 v182 = (do
  let c128_i32_165 : BitVec 32 ← k0_part7 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v24 v40 v182
  let ⟨v229, v231, v234⟩ : Σ' (v229 : BitVec 32) (v231 : BitVec 32), BitVec 32 ← k0_part8 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v24 v40 v74 v179 c128_i32_165
  k0_part9 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v8 v9 v18 v74 v234
  let ⟨v281, v283, v286, v291, c0_i32_256⟩ : Σ' (v281 : BitVec 32) (v283 : BitVec 32) (v286 : BitVec 32) (v291 : BitVec 32), BitVec 32 ← k0_part10 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v9 v13 v28 v74 v108 v231
  k0_part11 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v14 v20 v108 v286 v291 c0_i32_256
  let ⟨v333, v349, v351⟩ : Σ' (v333 : BitVec 32) (v349 : FVec F S256x384 .f32), Vec F S256x384 .f32 ← k0_part12 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v14 v108 v179 v229 v283
  k0_part13 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v8 v231 v281 v349 v351
  let ⟨v395, v398⟩ : Σ' (v395 : BitVec 32), BitVec 32 ← k0_part14 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v13 v24 v179 v283 v333
  k0_part15 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v5 v22 v179 v398
  let ⟨v445, v447, v450⟩ : Σ' (v445 : BitVec 32) (v447 : BitVec 32), BitVec 32 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v9 v18 v179 v231 v395
  let ⟨v489, c0_i32_452⟩ : Σ' (v489 : BitVec 32), BitVec 32 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v10 v26 v231 v450
  let ⟨v497, v499, v502, v519⟩ : Σ' (v497 : BitVec 32) (v499 : BitVec 32) (v502 : BitVec 32), FVec F S128x256 .f32 ← k0_part18 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v14 v20 v231 v283 v447 v489 c0_i32_452
  let v549 : BitVec 32 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v15 v26 v283 v499 v502 v519
  rest20 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v5 v6 v7 v8 v9 v10 v11 v12 v13 v14 v15 v16 v17 v18 v20 v22 v24 v26 v28 v395 v445 v447 v497 v499 v549) := rfl

variable (ct : Contract F) (K : Dev nD × Fin 124 → ℕ) (c : Dev nD)
variable (YA : S1024x512.Idx → F .f32) (YB : S512x1024.Idx → F .f32)

/-! ## Before part 20: stages 0 and 1 done but for stage 1's second pieces; stage 2's sends out -/

/-- The tokens of the summing phase's transfers not yet issued before part 20. -/
def toks20 (c : Dev nD) : sProp (MT nD τ sig Unit (Elt F) ℕ UU ℕ) :=
  iprop((dutyTok ER (dcell c 0 3 0 0) 0 0 ∗ dutyTok ER (dcell (peer 0 3 c) 1 3 0 0) 0 0)
    ∗ (dutyTok ER (dcell c 0 3 0 1) 0 0 ∗ dutyTok ER (dcell (peer 0 3 c) 1 3 0 1) 0 0)
    ∗ (dutyTok ER (dcell c 0 3 1 0) 0 0 ∗ dutyTok ER (dcell (peer 1 3 c) 1 3 1 0) 0 0)
    ∗ (dutyTok ER (dcell c 0 3 1 1) 0 0 ∗ dutyTok ER (dcell (peer 1 3 c) 1 3 1 1) 0 0)
    ∗ (dutyTok ER (dcell c 0 3 2 0) 0 0 ∗ dutyTok ER (dcell (peer 2 3 c) 1 3 2 0) 0 0)
    ∗ (dutyTok ER (dcell c 0 3 2 1) 0 0 ∗ dutyTok ER (dcell (peer 2 3 c) 1 3 2 1) 0 0)
    ∗ (dutyTok ER (dcell c 0 4 0 0) 0 0 ∗ dutyTok ER (dcell (peer 0 4 c) 1 4 0 0) 0 0)
    ∗ (dutyTok ER (dcell c 0 4 1 0) 0 0 ∗ dutyTok ER (dcell (peer 1 4 c) 1 4 1 0) 0 0)
    ∗ (dutyTok ER (dcell c 0 4 2 0) 0 0 ∗ dutyTok ER (dcell (peer 2 4 c) 1 4 2 0) 0 0))

/-- The positions on the summing phase's cells not yet waited before part 20. -/
def pos20 (c : Dev nD) : sProp (MT nD τ sig Unit (Elt F) ℕ UU ℕ) :=
  iprop((atPos ER (dcell c 0 1 0 1) 0 ∅ 0 ∗ atPos ER (dcell c 1 1 0 1) 0 ∅ 0)
    ∗ (atPos ER (dcell c 0 1 1 1) 0 ∅ 0 ∗ atPos ER (dcell c 1 1 1 1) 0 ∅ 0)
    ∗ (atPos ER (dcell c 0 1 2 1) 0 ∅ 0 ∗ atPos ER (dcell c 1 1 2 1) 0 ∅ 0)
    ∗ (atPos ER (dcell c 0 2 0 0) 0 ∅ 0 ∗ atPos ER (dcell c 1 2 0 0) 0 ∅ 0)
    ∗ (atPos ER (dcell c 0 2 0 1) 0 ∅ 0 ∗ atPos ER (dcell c 1 2 0 1) 0 ∅ 0)
    ∗ (atPos ER (dcell c 0 2 1 0) 0 ∅ 0 ∗ atPos ER (dcell c 1 2 1 0) 0 ∅ 0)
    ∗ (atPos ER (dcell c 0 2 1 1) 0 ∅ 0 ∗ atPos ER (dcell c 1 2 1 1) 0 ∅ 0)
    ∗ (atPos ER (dcell c 0 2 2 0) 0 ∅ 0 ∗ atPos ER (dcell c 1 2 2 0) 0 ∅ 0)
    ∗ (atPos ER (dcell c 0 2 2 1) 0 ∅ 0 ∗ atPos ER (dcell c 1 2 2 1) 0 ∅ 0)
    ∗ (atPos ER (dcell c 0 3 0 0) 0 ∅ 0 ∗ atPos ER (dcell c 1 3 0 0) 0 ∅ 0)
    ∗ (atPos ER (dcell c 0 3 0 1) 0 ∅ 0 ∗ atPos ER (dcell c 1 3 0 1) 0 ∅ 0)
    ∗ (atPos ER (dcell c 0 3 1 0) 0 ∅ 0 ∗ atPos ER (dcell c 1 3 1 0) 0 ∅ 0)
    ∗ (atPos ER (dcell c 0 3 1 1) 0 ∅ 0 ∗ atPos ER (dcell c 1 3 1 1) 0 ∅ 0)
    ∗ (atPos ER (dcell c 0 3 2 0) 0 ∅ 0 ∗ atPos ER (dcell c 1 3 2 0) 0 ∅ 0)
    ∗ (atPos ER (dcell c 0 3 2 1) 0 ∅ 0 ∗ atPos ER (dcell c 1 3 2 1) 0 ∅ 0)
    ∗ (atPos ER (dcell c 0 4 0 0) 0 ∅ 0 ∗ atPos ER (dcell c 1 4 0 0) 0 ∅ 0)
    ∗ (atPos ER (dcell c 0 4 1 0) 0 ∅ 0 ∗ atPos ER (dcell c 1 4 1 0) 0 ∅ 0)
    ∗ (atPos ER (dcell c 0 4 2 0) 0 ∅ 0 ∗ atPos ER (dcell c 1 4 2 0) 0 ∅ 0))

/-- The summing phase's cells waited and closed before part 20. -/
def closed20 (c : Dev nD) : sProp (MT nD τ sig Unit (Elt F) ℕ UU ℕ) :=
  iprop((semVal (dcell c 0 0 0 0) 0 ∗ semVal (dcell c 1 0 0 0) 0)
    ∗ (semVal (dcell c 0 0 0 1) 0 ∗ semVal (dcell c 1 0 0 1) 0)
    ∗ (semVal (dcell c 0 0 1 0) 0 ∗ semVal (dcell c 1 0 1 0) 0)
    ∗ (semVal (dcell c 0 0 1 1) 0 ∗ semVal (dcell c 1 0 1 1) 0)
    ∗ (semVal (dcell c 0 0 2 0) 0 ∗ semVal (dcell c 1 0 2 0) 0)
    ∗ (semVal (dcell c 0 0 2 1) 0 ∗ semVal (dcell c 1 0 2 1) 0)
    ∗ (semVal (dcell c 0 1 0 0) 0 ∗ semVal (dcell c 1 1 0 0) 0)
    ∗ (semVal (dcell c 0 1 1 0) 0 ∗ semVal (dcell c 1 1 1 0) 0)
    ∗ (semVal (dcell c 0 1 2 0) 0 ∗ semVal (dcell c 1 1 2 0) 0))

/-- The credit for the receive waits still to come before part 20. -/
def credR20 (c : Dev nD) : sProp (MT nD τ sig Unit (Elt F) ℕ UU ℕ) :=
  iprop(cred (tallyAt (dcell c 1 1 0 1) () (amtIx (dsem 1 1 0 1).val))
    ∗ cred (tallyAt (dcell c 1 1 1 1) () (amtIx (dsem 1 1 1 1).val))
    ∗ cred (tallyAt (dcell c 1 1 2 1) () (amtIx (dsem 1 1 2 1).val))
    ∗ cred (tallyAt (dcell c 1 2 0 0) () (amtIx (dsem 1 2 0 0).val))
    ∗ cred (tallyAt (dcell c 1 2 0 1) () (amtIx (dsem 1 2 0 1).val))
    ∗ cred (tallyAt (dcell c 1 2 1 0) () (amtIx (dsem 1 2 1 0).val))
    ∗ cred (tallyAt (dcell c 1 2 1 1) () (amtIx (dsem 1 2 1 1).val))
    ∗ cred (tallyAt (dcell c 1 2 2 0) () (amtIx (dsem 1 2 2 0).val))
    ∗ cred (tallyAt (dcell c 1 2 2 1) () (amtIx (dsem 1 2 2 1).val))
    ∗ cred (tallyAt (dcell c 1 3 0 0) () (amtIx (dsem 1 3 0 0).val))
    ∗ cred (tallyAt (dcell c 1 3 0 1) () (amtIx (dsem 1 3 0 1).val))
    ∗ cred (tallyAt (dcell c 1 3 1 0) () (amtIx (dsem 1 3 1 0).val))
    ∗ cred (tallyAt (dcell c 1 3 1 1) () (amtIx (dsem 1 3 1 1).val))
    ∗ cred (tallyAt (dcell c 1 3 2 0) () (amtIx (dsem 1 3 2 0).val))
    ∗ cred (tallyAt (dcell c 1 3 2 1) () (amtIx (dsem 1 3 2 1).val))
    ∗ cred (tallyAt (dcell c 1 4 0 0) () (amtIx (dsem 1 4 0 0).val))
    ∗ cred (tallyAt (dcell c 1 4 1 0) () (amtIx (dsem 1 4 1 0).val))
    ∗ cred (tallyAt (dcell c 1 4 2 0) () (amtIx (dsem 1 4 2 0).val)))

/-- The credit for the send waits of the transfers in flight before part 20. -/
def credS20 (c : Dev nD) : sProp (MT nD τ sig Unit (Elt F) ℕ UU ℕ) :=
  iprop(cred (tallyAt (dcell c 0 1 0 1) () (amtIx (dsem 0 1 0 1).val))
    ∗ cred (tallyAt (dcell c 0 1 1 1) () (amtIx (dsem 0 1 1 1).val))
    ∗ cred (tallyAt (dcell c 0 1 2 1) () (amtIx (dsem 0 1 2 1).val))
    ∗ cred (tallyAt (dcell c 0 2 0 0) () (amtIx (dsem 0 2 0 0).val))
    ∗ cred (tallyAt (dcell c 0 2 0 1) () (amtIx (dsem 0 2 0 1).val))
    ∗ cred (tallyAt (dcell c 0 2 1 0) () (amtIx (dsem 0 2 1 0).val))
    ∗ cred (tallyAt (dcell c 0 2 1 1) () (amtIx (dsem 0 2 1 1).val))
    ∗ cred (tallyAt (dcell c 0 2 2 0) () (amtIx (dsem 0 2 2 0).val))
    ∗ cred (tallyAt (dcell c 0 2 2 1) () (amtIx (dsem 0 2 2 1).val)))

/-- The landing rows on the partners still lent to this device before part 20: the summing phase's. -/
def land20 (c : Dev nD) : sProp (MT nD τ sig Unit (Elt F) ℕ UU ℕ) :=
  iprop(loanV (peer 0 3 c) (dst_rs_3_0_0 c)
    ∗ loanV (peer 0 3 c) (dst_rs_3_0_1 c)
    ∗ loanV (peer 1 3 c) (dst_rs_3_1_0 c)
    ∗ loanV (peer 1 3 c) (dst_rs_3_1_1 c)
    ∗ loanV (peer 2 3 c) (dst_rs_3_2_0 c)
    ∗ loanV (peer 2 3 c) (dst_rs_3_2_1 c)
    ∗ loanV (peer 0 4 c) (dst_rs_4_0_0 c)
    ∗ loanV (peer 1 4 c) (dst_rs_4_1_0 c)
    ∗ loanV (peer 2 4 c) (dst_rs_4_2_0 c))

/-- The rows of the accumulator that hold column block `k`'s kept half of the second stage. -/
abbrev accRows20_0 : Finset S1024x1024.Idx := ((Memref.whole cc0_scratch0 : Memref sig .tc .vmem S1024x1024 .f32).access (Rect.unit (s := S1024x1024) (k0_off44 c) S128x384.size (k0_off44_inb c))).set
abbrev accRows20_1 : Finset S1024x1024.Idx := ((Memref.whole cc0_scratch0 : Memref sig .tc .vmem S1024x1024 .f32).access (Rect.unit (s := S1024x1024) (k0_off46 c) S128x384.size (k0_off46_inb c))).set
abbrev accRows20_2 : Finset S1024x1024.Idx := ((Memref.whole cc0_scratch0 : Memref sig .tc .vmem S1024x1024 .f32).access (Rect.unit (s := S1024x1024) (k0_off48 c) S128x256.size (k0_off48_inb c))).set

/-- Before part 20. The first stage's buffers are whole again; of the second stage's (RS1, SS1) the first pieces
    are back and the second in flight; the third stage's send buffer is all in flight; the accumulator's kept
    rows of the second stage hold the sum over two devices. -/
def Pre20 : sProp (MT nD τ sig Unit (Elt F) ℕ UU ℕ) :=
  iprop(records ct K ∗ levAts L lv ∗ (∃ W, owes (c : Thread nD τ) (owedFrom c 23) W)
    ∗ toks20 c ∗ toksAG c ∗ pos20 c ∗ posAG c ∗ closed20 c ∗ credR20 c ∗ credS20 c ∗ credAG c ∗ idle c
    ∗ (((c : Thread nD τ).loc cc0_stg0_0) ↦{fullShare} YA) ∗ (((c : Thread nD τ).loc cc0_stg1_0) ↦{fullShare} YB)
    ∗ (loanV c (src_ag_4_0_0 c) ∗ loanV c (src_ag_4_1_0 c) ∗ loanV c (src_ag_4_2_0 c))
    ∗ (∃ fa : Buf (Elt F) ((c : Thread nD τ).loc cc0_scratch0), (((c : Thread nD τ).loc cc0_scratch0) ↦{fullShare} fa)
        ∗ ⌜(∀ i ∈ accRows20_0 c, ct.okAcc 1 c (i 0).val (i 1).val (fa i)) ∧ (∀ i ∈ accRows20_1 c, ct.okAcc 1 c (i 0).val (i 1).val (fa i)) ∧ (∀ i ∈ accRows20_2 c, ct.okAcc 1 c (i 0).val (i 1).val (fa i))⌝)
    ∗ (someAt c cc0_scratch1 ∗ someAt c cc0_scratch6)
    ∗ (loanV c (dst_rs_1_0_0 (peer 0 1 c)) ∗ loanV c (dst_rs_1_1_0 (peer 1 1 c)) ∗ loanV c (dst_rs_1_2_0 (peer 2 1 c)))
    ∗ (loanV c (src_rs_1_0_0 c) ∗ loanV c (src_rs_1_1_0 c) ∗ loanV c (src_rs_1_2_0 c))
    ∗ (someAt c cc0_scratch9 ∗ someAt c cc0_scratch10)
    ∗ land20 c ∗ landAG c)

/-! ## Before part 30: stages 0 to 2 done; stage 3's sends out -/

/-- The tokens of the summing phase's transfers not yet issued before part 30. -/
def toks30 (c : Dev nD) : sProp (MT nD τ sig Unit (Elt F) ℕ UU ℕ) :=
  iprop((dutyTok ER (dcell c 0 4 0 0) 0 0 ∗ dutyTok ER (dcell (peer 0 4 c) 1 4 0 0) 0 0)
    ∗ (dutyTok ER (dcell c 0 4 1 0) 0 0 ∗ dutyTok ER (dcell (peer 1 4 c) 1 4 1 0) 0 0)
    ∗ (dutyTok ER (dcell c 0 4 2 0) 0 0 ∗ dutyTok ER (dcell (peer 2 4 c) 1 4 2 0) 0 0))

/-- The positions on the summing phase's cells not yet waited before part 30. -/
def pos30 (c : Dev nD) : sProp (MT nD τ sig Unit (Elt F) ℕ UU ℕ) :=
  iprop((atPos ER (dcell c 0 3 0 0) 0 ∅ 0 ∗ atPos ER (dcell c 1 3 0 0) 0 ∅ 0)
    ∗ (atPos ER (dcell c 0 3 0 1) 0 ∅ 0 ∗ atPos ER (dcell c 1 3 0 1) 0 ∅ 0)
    ∗ (atPos ER (dcell c 0 3 1 0) 0 ∅ 0 ∗ atPos ER (dcell c 1 3 1 0) 0 ∅ 0)
    ∗ (atPos ER (dcell c 0 3 1 1) 0 ∅ 0 ∗ atPos ER (dcell c 1 3 1 1) 0 ∅ 0)
    ∗ (atPos ER (dcell c 0 3 2 0) 0 ∅ 0 ∗ atPos ER (dcell c 1 3 2 0) 0 ∅ 0)
    ∗ (atPos ER (dcell c 0 3 2 1) 0 ∅ 0 ∗ atPos ER (dcell c 1 3 2 1) 0 ∅ 0)
    ∗ (atPos ER (dcell c 0 4 0 0) 0 ∅ 0 ∗ atPos ER (dcell c 1 4 0 0) 0 ∅ 0)
    ∗ (atPos ER (dcell c 0 4 1 0) 0 ∅ 0 ∗ atPos ER (dcell c 1 4 1 0) 0 ∅ 0)
    ∗ (atPos ER (dcell c 0 4 2 0) 0 ∅ 0 ∗ atPos ER (dcell c 1 4 2 0) 0 ∅ 0))

/-- The summing phase's cells waited and closed before part 30. -/
def closed30 (c : Dev nD) : sProp (MT nD τ sig Unit (Elt F) ℕ UU ℕ) :=
  iprop((semVal (dcell c 0 0 0 0) 0 ∗ semVal (dcell c 1 0 0 0) 0)
    ∗ (semVal (dcell c 0 0 0 1) 0 ∗ semVal (dcell c 1 0 0 1) 0)
    ∗ (semVal (dcell c 0 0 1 0) 0 ∗ semVal (dcell c 1 0 1 0) 0)
    ∗ (semVal (dcell c 0 0 1 1) 0 ∗ semVal (dcell c 1 0 1 1) 0)
    ∗ (semVal (dcell c 0 0 2 0) 0 ∗ semVal (dcell c 1 0 2 0) 0)
    ∗ (semVal (dcell c 0 0 2 1) 0 ∗ semVal (dcell c 1 0 2 1) 0)
    ∗ (semVal (dcell c 0 1 0 0) 0 ∗ semVal (dcell c 1 1 0 0) 0)
    ∗ (semVal (dcell c 0 1 0 1) 0 ∗ semVal (dcell c 1 1 0 1) 0)
    ∗ (semVal (dcell c 0 1 1 0) 0 ∗ semVal (dcell c 1 1 1 0) 0)
    ∗ (semVal (dcell c 0 1 1 1) 0 ∗ semVal (dcell c 1 1 1 1) 0)
    ∗ (semVal (dcell c 0 1 2 0) 0 ∗ semVal (dcell c 1 1 2 0) 0)
    ∗ (semVal (dcell c 0 1 2 1) 0 ∗ semVal (dcell c 1 1 2 1) 0)
    ∗ (semVal (dcell c 0 2 0 0) 0 ∗ semVal (dcell c 1 2 0 0) 0)
    ∗ (semVal (dcell c 0 2 0 1) 0 ∗ semVal (dcell c 1 2 0 1) 0)
    ∗ (semVal (dcell c 0 2 1 0) 0 ∗ semVal (dcell c 1 2 1 0) 0)
    ∗ (semVal (dcell c 0 2 1 1) 0 ∗ semVal (dcell c 1 2 1 1) 0)
    ∗ (semVal (dcell c 0 2 2 0) 0 ∗ semVal (dcell c 1 2 2 0) 0)
    ∗ (semVal (dcell c 0 2 2 1) 0 ∗ semVal (dcell c 1 2 2 1) 0))

/-- The credit for the receive waits still to come before part 30. -/
def credR30 (c : Dev nD) : sProp (MT nD τ sig Unit (Elt F) ℕ UU ℕ) :=
  iprop(cred (tallyAt (dcell c 1 3 0 0) () (amtIx (dsem 1 3 0 0).val))
    ∗ cred (tallyAt (dcell c 1 3 0 1) () (amtIx (dsem 1 3 0 1).val))
    ∗ cred (tallyAt (dcell c 1 3 1 0) () (amtIx (dsem 1 3 1 0).val))
    ∗ cred (tallyAt (dcell c 1 3 1 1) () (amtIx (dsem 1 3 1 1).val))
    ∗ cred (tallyAt (dcell c 1 3 2 0) () (amtIx (dsem 1 3 2 0).val))
    ∗ cred (tallyAt (dcell c 1 3 2 1) () (amtIx (dsem 1 3 2 1).val))
    ∗ cred (tallyAt (dcell c 1 4 0 0) () (amtIx (dsem 1 4 0 0).val))
    ∗ cred (tallyAt (dcell c 1 4 1 0) () (amtIx (dsem 1 4 1 0).val))
    ∗ cred (tallyAt (dcell c 1 4 2 0) () (amtIx (dsem 1 4 2 0).val)))

/-- The credit for the send waits of the transfers in flight before part 30. -/
def credS30 (c : Dev nD) : sProp (MT nD τ sig Unit (Elt F) ℕ UU ℕ) :=
  iprop(cred (tallyAt (dcell c 0 3 0 0) () (amtIx (dsem 0 3 0 0).val))
    ∗ cred (tallyAt (dcell c 0 3 0 1) () (amtIx (dsem 0 3 0 1).val))
    ∗ cred (tallyAt (dcell c 0 3 1 0) () (amtIx (dsem 0 3 1 0).val))
    ∗ cred (tallyAt (dcell c 0 3 1 1) () (amtIx (dsem 0 3 1 1).val))
    ∗ cred (tallyAt (dcell c 0 3 2 0) () (amtIx (dsem 0 3 2 0).val))
    ∗ cred (tallyAt (dcell c 0 3 2 1) () (amtIx (dsem 0 3 2 1).val)))

/-- The landing rows on the partners still lent to this device before part 30: the summing phase's. -/
def land30 (c : Dev nD) : sProp (MT nD τ sig Unit (Elt F) ℕ UU ℕ) :=
  iprop(loanV (peer 0 4 c) (dst_rs_4_0_0 c)
    ∗ loanV (peer 1 4 c) (dst_rs_4_1_0 c)
    ∗ loanV (peer 2 4 c) (dst_rs_4_2_0 c))

/-- The rows of the accumulator that hold column block `k`'s kept half of the fourth stage. -/
abbrev accRows30_0 : Finset S1024x1024.Idx := ((Memref.whole cc0_scratch0 : Memref sig .tc .vmem S1024x1024 .f32).access (Rect.unit (s := S1024x1024) (k0_off62 c) S64x384.size (k0_off62_inb c))).set
abbrev accRows30_1 : Finset S1024x1024.Idx := ((Memref.whole cc0_scratch0 : Memref sig .tc .vmem S1024x1024 .f32).access (Rect.unit (s := S1024x1024) (k0_off64 c) S64x384.size (k0_off64_inb c))).set
abbrev accRows30_2 : Finset S1024x1024.Idx := ((Memref.whole cc0_scratch0 : Memref sig .tc .vmem S1024x1024 .f32).access (Rect.unit (s := S1024x1024) (k0_off66 c) S64x256.size (k0_off66_inb c))).set

/-- Before part 30. The buffers of stages 0 to 2 are whole again; the fourth stage's send buffer is all in
    flight; the accumulator's kept rows hold the sum over eight devices. -/
def Pre30 : sProp (MT nD τ sig Unit (Elt F) ℕ UU ℕ) :=
  iprop(records ct K ∗ levAts L lv ∗ (∃ W, owes (c : Thread nD τ) (owedFrom c 29) W)
    ∗ toks30 c ∗ toksAG c ∗ pos30 c ∗ posAG c ∗ closed30 c ∗ credR30 c ∗ credS30 c ∗ credAG c ∗ idle c
    ∗ (((c : Thread nD τ).loc cc0_stg0_0) ↦{fullShare} YA) ∗ (((c : Thread nD τ).loc cc0_stg1_0) ↦{fullShare} YB)
    ∗ (loanV c (src_ag_4_0_0 c) ∗ loanV c (src_ag_4_1_0 c) ∗ loanV c (src_ag_4_2_0 c))
    ∗ (∃ fa : Buf (Elt F) ((c : Thread nD τ).loc cc0_scratch0), (((c : Thread nD τ).loc cc0_scratch0) ↦{fullShare} fa)
        ∗ ⌜(∀ i ∈ accRows30_0 c, ct.okAcc 3 c (i 0).val (i 1).val (fa i)) ∧ (∀ i ∈ accRows30_1 c, ct.okAcc 3 c (i 0).val (i 1).val (fa i)) ∧ (∀ i ∈ accRows30_2 c, ct.okAcc 3 c (i 0).val (i 1).val (fa i))⌝)
    ∗ (someAt c cc0_scratch1 ∗ someAt c cc0_scratch2 ∗ someAt c cc0_scratch3 ∗ someAt c cc0_scratch6 ∗ someAt c cc0_scratch7 ∗ someAt c cc0_scratch8)
    ∗ someAt c cc0_scratch10
    ∗ land30 c ∗ landAG c)

/-- Parts 7 to 19: stage one, and stage two as far as its sends. -/
def SegB1 {R : Type} (T : (Σ' (d0 : Dev nD) (v3 : BitVec 32) (v8 : BitVec 32) (v13 : BitVec 32) (v28 : BitVec 32), BitVec 32) → Prog (TpuEff nD τ sig (Elt F) Λ₀ .tc) R) (Kt : R → sProp (MT nD τ sig Unit (Elt F) ℕ UU ℕ)) : Prop :=
  ∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v40 : BitVec 32) (v74 : BitVec 32) (v108 : BitVec 32) (v179 : BitVec 32) (v182 : BitVec 32),
  iprop(Pre7 ct K c YA YB ∗ (∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v395 : BitVec 32) (v445 : BitVec 32) (v447 : BitVec 32) (v497 : BitVec 32) (v499 : BitVec 32) (v549 : BitVec 32), Pre20 ct K c YA YB -∗
        wp frame (wpE (defs₀ (F := F)) 𝒱₀ (c : Thread nD τ) none) Set.univ (rest20 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v395 v445 v447 v497 v499 v549 >>= T) Kt))
    ⊢ wp frame (wpE (defs₀ (F := F)) 𝒱₀ (c : Thread nD τ) none) Set.univ (rest7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v40 v74 v108 v179 v182 >>= T) Kt

/-- Parts 20 to 29: stage two's kept halves and stage three. -/
def SegB2 {R : Type} (T : (Σ' (d0 : Dev nD) (v3 : BitVec 32) (v8 : BitVec 32) (v13 : BitVec 32) (v28 : BitVec 32), BitVec 32) → Prog (TpuEff nD τ sig (Elt F) Λ₀ .tc) R) (Kt : R → sProp (MT nD τ sig Unit (Elt F) ℕ UU ℕ)) : Prop :=
  ∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v395 : BitVec 32) (v445 : BitVec 32) (v447 : BitVec 32) (v497 : BitVec 32) (v499 : BitVec 32) (v549 : BitVec 32),
  iprop(Pre20 ct K c YA YB ∗ (∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v611 : BitVec 32) (v663 : BitVec 32) (v715 : BitVec 32) (v827 : BitVec 32), Pre30 ct K c YA YB -∗
        wp frame (wpE (defs₀ (F := F)) 𝒱₀ (c : Thread nD τ) none) Set.univ (rest30 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v611 v663 v715 v827 >>= T) Kt))
    ⊢ wp frame (wpE (defs₀ (F := F)) 𝒱₀ (c : Thread nD τ) none) Set.univ (rest20 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v395 v445 v447 v497 v499 v549 >>= T) Kt

/-- Parts 30 to 39: stage four and the pointwise function. -/
def SegB3 {R : Type} (T : (Σ' (d0 : Dev nD) (v3 : BitVec 32) (v8 : BitVec 32) (v13 : BitVec 32) (v28 : BitVec 32), BitVec 32) → Prog (TpuEff nD τ sig (Elt F) Λ₀ .tc) R) (Kt : R → sProp (MT nD τ sig Unit (Elt F) ℕ UU ℕ)) : Prop :=
  ∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v611 : BitVec 32) (v663 : BitVec 32) (v715 : BitVec 32) (v827 : BitVec 32),
  iprop(Pre30 ct K c YA YB ∗ (∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v827 : BitVec 32) (v868 : BitVec 32) (v909 : BitVec 32), Pre40 ct K c YA YB -∗
        wp frame (wpE (defs₀ (F := F)) 𝒱₀ (c : Thread nD τ) none) Set.univ (rest40 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v827 v868 v909 >>= T) Kt))
    ⊢ wp frame (wpE (defs₀ (F := F)) 𝒱₀ (c : Thread nD τ) none) Set.univ (rest30 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v611 v663 v715 v827 >>= T) Kt

end Cert.KernelIdeal.SegBMid

end
-- ==== Proof.SegBGlue.lean ====
/-
  The second segment from its three pieces: parts 7 to 19, parts 20 to 29, parts 30 to 39.
-/
import proofs.«900879_g7700000000000880_dist_matmul_gelu_kshard_i_m1024_n1024_k512_v7x_i32_bf16_1_alg».proof.Proof.SegBMid

noncomputable section

namespace Cert.KernelIdeal.SegBGlue

open Cert.KernelIdeal Cert.KernelIdeal.Gen Cert.KernelIdeal.Proto Cert.KernelIdeal.Held
open Cert.KernelIdeal.Laws Cert.KernelIdeal.Cut Cert.KernelIdeal.Segs Cert.KernelIdeal.SegBMid
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The three pieces in sequence: each hands the next its state and the values the chain has bound. -/
theorem segB_of_parts (ct : Contract F) (K : Dev nD × Fin 124 → ℕ) (c : Dev nD)
    (YA : S1024x512.Idx → F .f32) (YB : S512x1024.Idx → F .f32) {R : Type}
    (T : (Σ' (d0 : Dev nD) (v3 : BitVec 32) (v8 : BitVec 32) (v13 : BitVec 32) (v28 : BitVec 32), BitVec 32) → Prog (TpuEff nD τ sig (Elt F) Λ₀ .tc) R)
    (Kt : R → sProp (MT nD τ sig Unit (Elt F) ℕ UU ℕ))
    (h1 : SegB1 ct K c YA YB T Kt) (h2 : SegB2 ct K c YA YB T Kt) (h3 : SegB3 ct K c YA YB T Kt) :
    SegB ct K c YA YB T Kt := by
  intro v3 v4 v5 v6 v7 v8 v9 v10 v11 v12 v13 v14 v15 v16 v17 v18 v20 v22 v24 v26 v28 v40 v74 v108 v179 v182
  refine BIBase.Entails.trans ?_ (h1 v3 v4 v5 v6 v7 v8 v9 v10 v11 v12 v13 v14 v15 v16 v17 v18 v20 v22 v24 v26 v28 v40 v74 v108 v179 v182)
  iintro ⟨Hpre, Hk⟩
  isplitl [Hpre]
  · iexact Hpre
  iintro %a3 %a4 %a5 %a6 %a7 %a8 %a9 %a10 %a11 %a12 %a13 %a14 %a15 %a16 %a17 %a18 %a20 %a22 %a24 %a26 %a28 %a395 %a445 %a447 %a497 %a499 %a549 H20
  iapply (h2 a3 a4 a5 a6 a7 a8 a9 a10 a11 a12 a13 a14 a15 a16 a17 a18 a20 a22 a24 a26 a28 a395 a445 a447 a497 a499 a549)
  isplitl [H20]
  · iexact H20
  iintro %b3 %b4 %b5 %b6 %b7 %b8 %b9 %b10 %b11 %b12 %b13 %b14 %b15 %b16 %b17 %b18 %b20 %b22 %b24 %b26 %b28 %b611 %b663 %b715 %b827 H30
  iapply (h3 b3 b4 b5 b6 b7 b8 b9 b10 b11 b12 b13 b14 b15 b16 b17 b18 b20 b22 b24 b26 b28 b611 b663 b715 b827)
  isplitl [H30]
  · iexact H30
  iintro %d3 %d4 %d5 %d6 %d7 %d8 %d9 %d10 %d11 %d12 %d13 %d14 %d15 %d16 %d17 %d18 %d20 %d22 %d24 %d26 %d28 %d827 %d868 %d909 H40
  iapply Hk $$ %d3 %d4 %d5 %d6 %d7 %d8 %d9 %d10 %d11 %d12 %d13 %d14 %d15 %d16 %d17 %d18 %d20 %d22 %d24 %d26 %d28 %d827 %d868 %d909
  iexact H40

end Cert.KernelIdeal.SegBGlue

end
-- ==== Proof.PayPoint.lean ====
import proofs.«900879_g7700000000000880_dist_matmul_gelu_kshard_i_m1024_n1024_k512_v7x_i32_bf16_1_alg».proof.Proof.Laws
import Idealize.ShloMosaic.Lib.Pipeline.Value

noncomputable section

namespace Cert.KernelIdeal.PayPoint

open Cert.KernelIdeal Cert.KernelIdeal.Gen Cert.KernelIdeal.Laws
open Idealize.ShloMosaic Idealize.SL.Sem

variable {F : FTy → Type} [FloatOps F]

theorem pay3_at (x : FVec F S512x384 .bf16) (j : S512x384.Idx) : k0_pay3 x j = x j := by
  unfold k0_pay3
  rw [shapeCast_self]

theorem pay4_at (x : Vec F S512x512 .f32) (j : S512x512.Idx) :
    k0_pay4 x j = FloatOps.truncf .bf16 bitsLt_bf16_f32 (x j) := by
  unfold k0_pay4
  rw [shapeCast_self]
  rfl

theorem pay9_at (x : Vec F S256x384 .f32) (y : Vec F S256x384 .bf16) (j : S256x384.Idx) :
    k0_pay9 x y j = FloatOps.addf (x j) (FloatOps.extf .f32 bitsLt_bf16_f32 (y j)) := by
  unfold k0_pay9
  rw [shapeCast_self]
  rfl

theorem pay10_at (x : Vec F S256x384 .f32) (j : S256x384.Idx) :
    k0_pay10 x j = FloatOps.truncf .bf16 bitsLt_bf16_f32 (x j) := by
  unfold k0_pay10
  rw [shapeCast_self]
  rfl

theorem pay11_at (x : Vec F S256x384 .f32) (y : Vec F S256x384 .bf16) (j : S256x384.Idx) :
    k0_pay11 x y j = FloatOps.addf (x j) (FloatOps.extf .f32 bitsLt_bf16_f32 (y j)) := by
  unfold k0_pay11
  rw [shapeCast_self]
  rfl

theorem pay12_at (x : Vec F S256x384 .f32) (j : S256x384.Idx) :
    k0_pay12 x j = FloatOps.truncf .bf16 bitsLt_bf16_f32 (x j) := by
  unfold k0_pay12
  rw [shapeCast_self]
  rfl

theorem pay13_at (x : Vec F S256x256 .f32) (y : Vec F S256x256 .bf16) (j : S256x256.Idx) :
    k0_pay13 x y j = FloatOps.addf (x j) (FloatOps.extf .f32 bitsLt_bf16_f32 (y j)) := by
  unfold k0_pay13
  rw [shapeCast_self]
  rfl

theorem pay14_at (x : Vec F S256x256 .f32) (j : S256x256.Idx) :
    k0_pay14 x j = FloatOps.truncf .bf16 bitsLt_bf16_f32 (x j) := by
  unfold k0_pay14
  rw [shapeCast_self]
  rfl

theorem pay15_at (x : Vec F S256x384 .f32) (y : Vec F S256x384 .bf16) (j : S256x384.Idx) :
    k0_pay15 x y j = FloatOps.addf (x j) (FloatOps.extf .f32 bitsLt_bf16_f32 (y j)) := by
  unfold k0_pay15
  rfl

theorem pay16_at (x : FVec F S256x384 .f32) (j : S256x384.Idx) : k0_pay16 x j = x j := by
  unfold k0_pay16
  rw [shapeCast_self]

theorem pay17_at (x : Vec F S256x384 .f32) (y : Vec F S256x384 .bf16) (j : S256x384.Idx) :
    k0_pay17 x y j = FloatOps.addf (x j) (FloatOps.extf .f32 bitsLt_bf16_f32 (y j)) := by
  unfold k0_pay17
  rw [shapeCast_self]
  rfl

theorem pay18_at (x : Vec F S256x256 .f32) (y : Vec F S256x256 .bf16) (j : S256x256.Idx) :
    k0_pay18 x y j = FloatOps.addf (x j) (FloatOps.extf .f32 bitsLt_bf16_f32 (y j)) := by
  unfold k0_pay18
  rw [shapeCast_self]
  rfl

theorem pay19_at (x : Vec F S128x384 .f32) (y : Vec F S128x384 .bf16) (j : S128x384.Idx) :
    k0_pay19 x y j = FloatOps.addf (x j) (FloatOps.extf .f32 bitsLt_bf16_f32 (y j)) := by
  unfold k0_pay19
  rw [shapeCast_self]
  rfl

theorem pay20_at (x : Vec F S128x384 .f32) (j : S128x384.Idx) :
    k0_pay20 x j = FloatOps.truncf .bf16 bitsLt_bf16_f32 (x j) := by
  unfold k0_pay20
  rw [shapeCast_self]
  rfl

theorem pay21_at (x : Vec F S128x384 .f32) (y : Vec F S128x384 .bf16) (j : S128x384.Idx) :
    k0_pay21 x y j = FloatOps.addf (x j) (FloatOps.extf .f32 bitsLt_bf16_f32 (y j)) := by
  unfold k0_pay21
  rw [shapeCast_self]
  rfl

theorem pay22_at (x : Vec F S128x384 .f32) (j : S128x384.Idx) :
    k0_pay22 x j = FloatOps.truncf .bf16 bitsLt_bf16_f32 (x j) := by
  unfold k0_pay22
  rw [shapeCast_self]
  rfl

theorem pay23_at (x : Vec F S128x256 .f32) (y : Vec F S128x256 .bf16) (j : S128x256.Idx) :
    k0_pay23 x y j = FloatOps.addf (x j) (FloatOps.extf .f32 bitsLt_bf16_f32 (y j)) := by
  unfold k0_pay23
  rfl

theorem pay24_at (x : FVec F S128x256 .f32) (j : S128x256.Idx) : k0_pay24 x j = x j := by
  unfold k0_pay24
  rw [shapeCast_self]

theorem pay25_at (x : Vec F S128x256 .f32) (j : S128x256.Idx) :
    k0_pay25 x j = FloatOps.truncf .bf16 bitsLt_bf16_f32 (x j) := by
  unfold k0_pay25
  rw [shapeCast_self]
  rfl

theorem pay26_at (x : Vec F S128x384 .f32) (y : Vec F S128x384 .bf16) (j : S128x384.Idx) :
    k0_pay26 x y j = FloatOps.addf (x j) (FloatOps.extf .f32 bitsLt_bf16_f32 (y j)) := by
  unfold k0_pay26
  rw [shapeCast_self]
  rfl

theorem pay27_at (x : Vec F S128x384 .f32) (y : Vec F S128x384 .bf16) (j : S128x384.Idx) :
    k0_pay27 x y j = FloatOps.addf (x j) (FloatOps.extf .f32 bitsLt_bf16_f32 (y j)) := by
  unfold k0_pay27
  rw [shapeCast_self]
  rfl

theorem pay28_at (x : Vec F S128x256 .f32) (y : Vec F S128x256 .bf16) (j : S128x256.Idx) :
    k0_pay28 x y j = FloatOps.addf (x j) (FloatOps.extf .f32 bitsLt_bf16_f32 (y j)) := by
  unfold k0_pay28
  rw [shapeCast_self]
  rfl

theorem pay29_at (x : Vec F S64x384 .f32) (y : Vec F S64x384 .bf16) (j : S64x384.Idx) :
    k0_pay29 x y j = FloatOps.addf (x j) (FloatOps.extf .f32 bitsLt_bf16_f32 (y j)) := by
  unfold k0_pay29
  rw [shapeCast_self]
  rfl

theorem pay30_at (x : Vec F S64x384 .f32) (j : S64x384.Idx) :
    k0_pay30 x j = FloatOps.truncf .bf16 bitsLt_bf16_f32 (x j) := by
  unfold k0_pay30
  rw [shapeCast_self]
  rfl

theorem pay31_at (x : Vec F S64x384 .f32) (y : Vec F S64x384 .bf16) (j : S64x384.Idx) :
    k0_pay31 x y j = FloatOps.addf (x j) (FloatOps.extf .f32 bitsLt_bf16_f32 (y j)) := by
  unfold k0_pay31
  rw [shapeCast_self]
  rfl

theorem pay32_at (x : Vec F S64x384 .f32) (j : S64x384.Idx) :
    k0_pay32 x j = FloatOps.truncf .bf16 bitsLt_bf16_f32 (x j) := by
  unfold k0_pay32
  rw [shapeCast_self]
  rfl

theorem pay33_at (x : Vec F S64x256 .f32) (y : Vec F S64x256 .bf16) (j : S64x256.Idx) :
    k0_pay33 x y j = FloatOps.addf (x j) (FloatOps.extf .f32 bitsLt_bf16_f32 (y j)) := by
  unfold k0_pay33
  rw [shapeCast_self]
  rfl

theorem pay34_at (x : Vec F S64x256 .f32) (j : S64x256.Idx) :
    k0_pay34 x j = FloatOps.truncf .bf16 bitsLt_bf16_f32 (x j) := by
  unfold k0_pay34
  rw [shapeCast_self]
  rfl

theorem pay35_at (x : Vec F S64x384 .f32) (y : Vec F S64x384 .bf16) (j : S64x384.Idx) :
    k0_pay35 x y j = FloatOps.addf (x j) (FloatOps.extf .f32 bitsLt_bf16_f32 (y j)) := by
  unfold k0_pay35
  rw [shapeCast_self]
  rfl

theorem pay36_at (x : Vec F S64x384 .f32) (y : Vec F S64x384 .bf16) (j : S64x384.Idx) :
    k0_pay36 x y j = FloatOps.addf (x j) (FloatOps.extf .f32 bitsLt_bf16_f32 (y j)) := by
  unfold k0_pay36
  rw [shapeCast_self]
  rfl

theorem pay37_at (x : Vec F S64x256 .f32) (y : Vec F S64x256 .bf16) (j : S64x256.Idx) :
    k0_pay37 x y j = FloatOps.addf (x j) (FloatOps.extf .f32 bitsLt_bf16_f32 (y j)) := by
  unfold k0_pay37
  rw [shapeCast_self]
  rfl

theorem pay38_at (x : Vec F S32x384 .f32) (y : Vec F S32x384 .bf16) (j : S32x384.Idx) :
    k0_pay38 x y j = FloatOps.addf (x j) (FloatOps.extf .f32 bitsLt_bf16_f32 (y j)) := by
  unfold k0_pay38
  rw [shapeCast_self]
  rfl

theorem pay39_at (x : Vec F S32x384 .f32) (j : S32x384.Idx) :
    k0_pay39 x j = FloatOps.truncf .bf16 bitsLt_bf16_f32 (x j) := by
  unfold k0_pay39
  rw [shapeCast_self]
  rfl

theorem pay40_at (x : Vec F S32x384 .f32) (y : Vec F S32x384 .bf16) (j : S32x384.Idx) :
    k0_pay40 x y j = FloatOps.addf (x j) (FloatOps.extf .f32 bitsLt_bf16_f32 (y j)) := by
  unfold k0_pay40
  rw [shapeCast_self]
  rfl

theorem pay41_at (x : Vec F S32x384 .f32) (j : S32x384.Idx) :
    k0_pay41 x j = FloatOps.truncf .bf16 bitsLt_bf16_f32 (x j) := by
  unfold k0_pay41
  rw [shapeCast_self]
  rfl

theorem pay42_at (x : Vec F S32x256 .f32) (y : Vec F S32x256 .bf16) (j : S32x256.Idx) :
    k0_pay42 x y j = FloatOps.addf (x j) (FloatOps.extf .f32 bitsLt_bf16_f32 (y j)) := by
  unfold k0_pay42
  rw [shapeCast_self]
  rfl

theorem pay43_at (x : Vec F S32x256 .f32) (j : S32x256.Idx) :
    k0_pay43 x j = FloatOps.truncf .bf16 bitsLt_bf16_f32 (x j) := by
  unfold k0_pay43
  rw [shapeCast_self]
  rfl

theorem pay44_at (x : Vec F S32x384 .f32) (y : Vec F S32x384 .bf16) (j : S32x384.Idx) :
    k0_pay44 x y j = FloatOps.addf (x j) (FloatOps.extf .f32 bitsLt_bf16_f32 (y j)) := by
  unfold k0_pay44
  rw [shapeCast_self]
  rfl

theorem pay45_at (x : Vec F S32x384 .f32) (y : Vec F S32x384 .bf16) (j : S32x384.Idx) :
    k0_pay45 x y j = FloatOps.addf (x j) (FloatOps.extf .f32 bitsLt_bf16_f32 (y j)) := by
  unfold k0_pay45
  rw [shapeCast_self]
  rfl

theorem pay46_at (x : Vec F S32x256 .f32) (y : Vec F S32x256 .bf16) (j : S32x256.Idx) :
    k0_pay46 x y j = FloatOps.addf (x j) (FloatOps.extf .f32 bitsLt_bf16_f32 (y j)) := by
  unfold k0_pay46
  rw [shapeCast_self]
  rfl

theorem pay47_at (x : Vec F S32x384 .f32) (y : Vec F S32x384 .bf16) (j : S32x384.Idx) :
    k0_pay47 x y j = geluS (FloatOps.addf (x j) (FloatOps.extf .f32 bitsLt_bf16_f32 (y j))) := rfl

theorem pay48_at (x : Vec F S32x384 .f32) (y : Vec F S32x384 .bf16) (j : S32x384.Idx) :
    k0_pay48 x y j = geluS (FloatOps.addf (x j) (FloatOps.extf .f32 bitsLt_bf16_f32 (y j))) := rfl

theorem pay49_at (x : Vec F S32x256 .f32) (y : Vec F S32x256 .bf16) (j : S32x256.Idx) :
    k0_pay49 x y j = geluS (FloatOps.addf (x j) (FloatOps.extf .f32 bitsLt_bf16_f32 (y j))) := rfl

end Cert.KernelIdeal.PayPoint

end
-- ==== Proof.SegBValP.lean ====
import proofs.«900879_g7700000000000880_dist_matmul_gelu_kshard_i_m1024_n1024_k512_v7x_i32_bf16_1_alg».proof.Proof.Laws
import proofs.«900879_g7700000000000880_dist_matmul_gelu_kshard_i_m1024_n1024_k512_v7x_i32_bf16_1_alg».proof.Proof.Plumb

noncomputable section

namespace Cert.KernelIdeal.SegBValP

open Cert.KernelIdeal Cert.KernelIdeal.Gen Cert.KernelIdeal.Proto Cert.KernelIdeal.Tab Cert.KernelIdeal.Held
open Cert.KernelIdeal.Laws Cert.KernelIdeal.Plumb
open Idealize.ShloMosaic Idealize.ShloMosaic.TcCoe Idealize.SL.Sem

variable {F : FTy → Type} [FloatOps F]
variable (ct : Contract F) (c : Dev nD)

/-! ## A piece landed at the partner -/

/-- Stage 1: a piece of the send buffer landed in the partner's receive buffer through the same rectangle is right
    under the partner's receive contract wherever the send buffer is right under the sender's. -/
theorem landed1 (k : Fin 3) {off size : Fin 2 → ℕ} {r1 q0 : ℕ} (inb : ∀ a, off a + size a ≤ S256x1024.size a)
    (heq : off = ![r1, q0]) (hblk : ∀ q, q0 ≤ q → q < q0 + size 1 → blk q = k)
    (FS : S256x1024.Idx → F .bf16)
    (hFS : ∀ i : S256x1024.Idx, (∀ a, (![r1, q0] : Fin 2 → ℕ) a ≤ (i a).val ∧ (i a).val < (![r1, q0] : Fin 2 → ℕ) a + size a) →
      ct.okSS 1 c (i 0).val (i 1).val (FS i))
    (fd : S256x1024.Idx → F .bf16) :
    ∀ i ∈ ((View.whole cc0_scratch2).slice (Rect.unit (s := S256x1024) off size inb)).set,
      pRS ct 1 (peer k 1 c) (sh := S256x1024) i
        ((((View.whole cc0_scratch2).slice (Rect.unit (s := S256x1024) off size inb)).write (Elt F) fd
          (((View.whole cc0_scratch7).slice (Rect.unit (s := S256x1024) off size inb)).read (Elt F) FS) Finset.univ) i) := by
  refine xfer_whole_of_forall (Val := Elt F) cc0_scratch2 (View.whole cc0_scratch7) inb fd FS
    (fun i v => pRS ct 1 (peer k 1 c) (sh := S256x1024) i v) ?_
  intro i hi
  have hm := (mem_slice_unit_whole cc0_scratch2 inb heq i).mp hi
  have h1 := hm 1
  rw [View.read_whole]
  show ct.okSS 1 (peer (blk (i 1).val) 1 (peer k 1 c)) (i 0).val (i 1).val (FS i)
  rw [hblk _ h1.1 h1.2, peer_peer]
  exact hFS i hm

/-- Stage 2: a piece of the send buffer landed in the partner's receive buffer through the same rectangle is right
    under the partner's receive contract wherever the send buffer is right under the sender's. -/
theorem landed2 (k : Fin 3) {off size : Fin 2 → ℕ} {r1 q0 : ℕ} (inb : ∀ a, off a + size a ≤ S128x1024.size a)
    (heq : off = ![r1, q0]) (hblk : ∀ q, q0 ≤ q → q < q0 + size 1 → blk q = k)
    (FS : S128x1024.Idx → F .bf16)
    (hFS : ∀ i : S128x1024.Idx, (∀ a, (![r1, q0] : Fin 2 → ℕ) a ≤ (i a).val ∧ (i a).val < (![r1, q0] : Fin 2 → ℕ) a + size a) →
      ct.okSS 2 c (i 0).val (i 1).val (FS i))
    (fd : S128x1024.Idx → F .bf16) :
    ∀ i ∈ ((View.whole cc0_scratch3).slice (Rect.unit (s := S128x1024) off size inb)).set,
      pRS ct 2 (peer k 2 c) (sh := S128x1024) i
        ((((View.whole cc0_scratch3).slice (Rect.unit (s := S128x1024) off size inb)).write (Elt F) fd
          (((View.whole cc0_scratch8).slice (Rect.unit (s := S128x1024) off size inb)).read (Elt F) FS) Finset.univ) i) := by
  refine xfer_whole_of_forall (Val := Elt F) cc0_scratch3 (View.whole cc0_scratch8) inb fd FS
    (fun i v => pRS ct 2 (peer k 2 c) (sh := S128x1024) i v) ?_
  intro i hi
  have hm := (mem_slice_unit_whole cc0_scratch3 inb heq i).mp hi
  have h1 := hm 1
  rw [View.read_whole]
  show ct.okSS 2 (peer (blk (i 1).val) 2 (peer k 2 c)) (i 0).val (i 1).val (FS i)
  rw [hblk _ h1.1 h1.2, peer_peer]
  exact hFS i hm

/-- Stage 3: a piece of the send buffer landed in the partner's receive buffer through the same rectangle is right
    under the partner's receive contract wherever the send buffer is right under the sender's. -/
theorem landed3 (k : Fin 3) {off size : Fin 2 → ℕ} {r1 q0 : ℕ} (inb : ∀ a, off a + size a ≤ S64x1024.size a)
    (heq : off = ![r1, q0]) (hblk : ∀ q, q0 ≤ q → q < q0 + size 1 → blk q = k)
    (FS : S64x1024.Idx → F .bf16)
    (hFS : ∀ i : S64x1024.Idx, (∀ a, (![r1, q0] : Fin 2 → ℕ) a ≤ (i a).val ∧ (i a).val < (![r1, q0] : Fin 2 → ℕ) a + size a) →
      ct.okSS 3 c (i 0).val (i 1).val (FS i))
    (fd : S64x1024.Idx → F .bf16) :
    ∀ i ∈ ((View.whole cc0_scratch4).slice (Rect.unit (s := S64x1024) off size inb)).set,
      pRS ct 3 (peer k 3 c) (sh := S64x1024) i
        ((((View.whole cc0_scratch4).slice (Rect.unit (s := S64x1024) off size inb)).write (Elt F) fd
          (((View.whole cc0_scratch9).slice (Rect.unit (s := S64x1024) off size inb)).read (Elt F) FS) Finset.univ) i) := by
  refine xfer_whole_of_forall (Val := Elt F) cc0_scratch4 (View.whole cc0_scratch9) inb fd FS
    (fun i v => pRS ct 3 (peer k 3 c) (sh := S64x1024) i v) ?_
  intro i hi
  have hm := (mem_slice_unit_whole cc0_scratch4 inb heq i).mp hi
  have h1 := hm 1
  rw [View.read_whole]
  show ct.okSS 3 (peer (blk (i 1).val) 3 (peer k 3 c)) (i 0).val (i 1).val (FS i)
  rw [hblk _ h1.1 h1.2, peer_peer]
  exact hFS i hm

/-- Stage 4: a piece of the send buffer landed in the partner's receive buffer through the same rectangle is right
    under the partner's receive contract wherever the send buffer is right under the sender's. -/
theorem landed4 (k : Fin 3) {off size : Fin 2 → ℕ} {r1 q0 : ℕ} (inb : ∀ a, off a + size a ≤ S32x1024.size a)
    (heq : off = ![r1, q0]) (hblk : ∀ q, q0 ≤ q → q < q0 + size 1 → blk q = k)
    (FS : S32x1024.Idx → F .bf16)
    (hFS : ∀ i : S32x1024.Idx, (∀ a, (![r1, q0] : Fin 2 → ℕ) a ≤ (i a).val ∧ (i a).val < (![r1, q0] : Fin 2 → ℕ) a + size a) →
      ct.okSS 4 c (i 0).val (i 1).val (FS i))
    (fd : S32x1024.Idx → F .bf16) :
    ∀ i ∈ ((View.whole cc0_scratch5).slice (Rect.unit (s := S32x1024) off size inb)).set,
      pRS ct 4 (peer k 4 c) (sh := S32x1024) i
        ((((View.whole cc0_scratch5).slice (Rect.unit (s := S32x1024) off size inb)).write (Elt F) fd
          (((View.whole cc0_scratch10).slice (Rect.unit (s := S32x1024) off size inb)).read (Elt F) FS) Finset.univ) i) := by
  refine xfer_whole_of_forall (Val := Elt F) cc0_scratch5 (View.whole cc0_scratch10) inb fd FS
    (fun i v => pRS ct 4 (peer k 4 c) (sh := S32x1024) i v) ?_
  intro i hi
  have hm := (mem_slice_unit_whole cc0_scratch5 inb heq i).mp hi
  have h1 := hm 1
  rw [View.read_whole]
  show ct.okSS 4 (peer (blk (i 1).val) 4 (peer k 4 c)) (i 0).val (i 1).val (FS i)
  rw [hblk _ h1.1 h1.2, peer_peer]
  exact hFS i hm

/-- The gathering phase: a piece of the result landed in the partner's result buffer through the same rectangle is
    right wherever the sender's is: the result's contract is the same on every device. -/
theorem landedOut {off size : Fin 2 → ℕ} (inb : ∀ a, off a + size a ≤ S1024x1024.size a)
    (FS : S1024x1024.Idx → F .bf16)
    (hFS : ∀ i ∈ ((View.whole cc0_stg2_0).slice (Rect.unit (s := S1024x1024) off size inb)).set, ct.okOut (i 0).val (i 1).val (FS i))
    (fd : S1024x1024.Idx → F .bf16) :
    ∀ i ∈ ((View.whole cc0_stg2_0).slice (Rect.unit (s := S1024x1024) off size inb)).set,
      pOut ct (sh := S1024x1024) i
        ((((View.whole cc0_stg2_0).slice (Rect.unit (s := S1024x1024) off size inb)).write (Elt F) fd
          (((View.whole cc0_stg2_0).slice (Rect.unit (s := S1024x1024) off size inb)).read (Elt F) FS) Finset.univ) i) := by
  refine xfer_whole_of_forall (Val := Elt F) cc0_stg2_0 (View.whole cc0_stg2_0) inb fd FS
    (fun i v => pOut ct (sh := S1024x1024) i v) ?_
  intro i hi
  rw [View.read_whole]
  exact hFS i hi

/-! ## What a load reads is right where the buffer is -/

/-- A load at a unit-stride rectangle of a whole buffer reads, at `j`, the contents at the index whose coordinates are
    the offsets plus `j`'s; whatever holds of the contents on the rectangle holds of what is read. -/
theorem load_ok {sig : RefSig} {κ : Kind} {Val : EltTy → Type} (b : Ref sig κ) {off off' size : Fin b.ty.shape.rank → ℕ}
    (inb : ∀ a, off a + size a ≤ b.ty.shape.size a) (f : b.ty.Contents Val) (heq : off = off')
    (P : b.ty.shape.Idx → Val b.ty.elt → Prop)
    (hf : ∀ y : b.ty.shape.Idx, (∀ a, off' a ≤ (y a).val ∧ (y a).val < off' a + size a) → P y (f y))
    (j : (Rect.unit off size inb).shape.Idx) :
    ∃ y : b.ty.shape.Idx, (∀ a, (y a).val = off' a + (j a).val) ∧
      P y ((Memref.whole b).view.readAt Val (Rect.unit off size inb).toLoadRect f j) := by
  subst heq
  refine ⟨(Rect.unit off size inb).emb j, fun a => emb_unit_val inb j a, ?_⟩
  rw [readAt_unit_whole b inb f j ((Rect.unit off size inb).emb j) rfl (fun a => emb_unit_val inb j a)]
  exact hf _ fun a => by
    rw [emb_unit_val inb j a]
    have := (j a).isLt
    exact ⟨Nat.le_add_right _ _, Nat.add_lt_add_left this _⟩

/-! ## The stores of a stage: adding the partner's piece, handing on the half given away, the result -/

/-- Adding what the stage-`s` partner sent into the rows `lo k c (s + 1) + ρ …` of the accumulator: if the payload is,
    index by index, the sum of a right running sum and a right received piece, the accumulator is right at stage
    `s + 1` on the rectangle stored. -/
theorem add_store_ok (YA : S1024x512.Idx → F .f32) (YB : S512x1024.Idx → F .f32) (laws : Laws ct c YA YB)
    (s : Fin 5) (hs : s.val < 4) (k : Fin 3) {off sz : Fin 2 → ℕ} {ρ q0 : ℕ}
    (inb : ∀ a, off a + sz a ≤ S1024x1024.size a) (heq : off = ![lo k c (s.val + 1) + ρ, q0])
    (hblk : ∀ q, q0 ≤ q → q < q0 + sz 1 → blk q = k)
    (g : S1024x1024.Idx → F .f32) (w X : (⟨2, sz⟩ : Shape).Idx → F .f32) (Y : (⟨2, sz⟩ : Shape).Idx → F .bf16)
    (hw : ∀ j, w j = FloatOps.addf (X j) (FloatOps.extf .f32 bitsLt_bf16_f32 (Y j)))
    (hX : ∀ j, ct.okAcc s.val c (lo k c (s.val + 1) + (ρ + (j 0).val)) (q0 + (j 1).val) (X j))
    (hY : ∀ j, ct.okSS s (peer k s c) (ρ + (j 0).val) (q0 + (j 1).val) (Y j)) :
    ∀ i : S1024x1024.Idx, (∀ a, (![lo k c (s.val + 1) + ρ, q0] : Fin 2 → ℕ) a ≤ (i a).val ∧ (i a).val < (![lo k c (s.val + 1) + ρ, q0] : Fin 2 → ℕ) a + sz a) →
      ct.okAcc (s.val + 1) c (i 0).val (i 1).val
        ((((View.whole cc0_scratch0).slice (Rect.unit (s := S1024x1024) off sz inb)).write (Elt F) g w Finset.univ) i) := by
  intro i hi
  refine write_unit_whole_forall (Val := Elt F) cc0_scratch0 g inb w heq
    (fun i v => ct.okAcc (s.val + 1) c (i 0).val (i 1).val v) ?_ i hi
  intro j i' hi'
  have e0 : (i' 0).val = lo k c (s.val + 1) + (ρ + (j 0).val) := (hi' 0).trans (Nat.add_assoc _ _ _)
  have e1 : (i' 1).val = q0 + (j 1).val := hi' 1
  have hj1 : (j 1).val < sz 1 := (j 1).isLt
  show ct.okAcc (s.val + 1) c (i' 0).val (i' 1).val (w j)
  rw [e0, e1, hw j]
  exact laws.add_ok s k (ρ + (j 0).val) (q0 + (j 1).val) (X j) (Y j) hs
    (hblk _ (Nat.le_add_right _ _) (Nat.add_lt_add_left hj1 _)) (hX j) (hY j)

/-- Handing on the half given away at stage `s ≥ 1`: if the payload is, index by index, a right running sum on the
    rows given away, narrowed, it is right for the send buffer's local rows. -/
theorem trunc_store_ok (YA : S1024x512.Idx → F .f32) (YB : S512x1024.Idx → F .f32) (laws : Laws ct c YA YB)
    (s : Fin 5) (hs : 0 < s.val) (k : Fin 3) {sz : Fin 2 → ℕ} {q0 : ℕ}
    (hblk : ∀ q, q0 ≤ q → q < q0 + sz 1 → blk q = k)
    (w : (⟨2, sz⟩ : Shape).Idx → F .bf16) (X : (⟨2, sz⟩ : Shape).Idx → F .f32)
    (hw : ∀ j, w j = FloatOps.truncf .bf16 bitsLt_bf16_f32 (X j))
    (hX : ∀ j, ct.okAcc s.val c (lo k c s.val + (1 - bit k s c) * half s.val + (j 0).val) (q0 + (j 1).val) (X j)) :
    ∀ j : (⟨2, sz⟩ : Shape).Idx, ct.okSS s c (j 0).val (q0 + (j 1).val) (w j) := by
  intro j
  have hj1 : (j 1).val < sz 1 := (j 1).isLt
  rw [hw j]
  exact laws.trunc_ok s k (j 0).val (q0 + (j 1).val) (X j) hs
    (hblk _ (Nat.le_add_right _ _) (Nat.add_lt_add_left hj1 _)) (hX j)

/-- The result: if the payload is, index by index, the pointwise function of a right running sum plus the last
    partner's right piece, the rows of the result stored are right. -/
theorem out_point_ok (YA : S1024x512.Idx → F .f32) (YB : S512x1024.Idx → F .f32) (laws : Laws ct c YA YB)
    (k : Fin 3) {sz : Fin 2 → ℕ} {q0 : ℕ}
    (hblk : ∀ q, q0 ≤ q → q < q0 + sz 1 → blk q = k)
    (w : (⟨2, sz⟩ : Shape).Idx → F .bf16) (X : (⟨2, sz⟩ : Shape).Idx → F .f32) (Y : (⟨2, sz⟩ : Shape).Idx → F .bf16)
    (hw : ∀ j, w j = geluS (FloatOps.addf (X j) (FloatOps.extf .f32 bitsLt_bf16_f32 (Y j))))
    (hX : ∀ j, ct.okAcc 4 c (lo k c 5 + (j 0).val) (q0 + (j 1).val) (X j))
    (hY : ∀ j, ct.okSS 4 (peer k 4 c) (j 0).val (q0 + (j 1).val) (Y j)) :
    ∀ j : (⟨2, sz⟩ : Shape).Idx, ct.okOut (lo k c 5 + (j 0).val) (q0 + (j 1).val) (w j) := by
  intro j
  have hj1 : (j 1).val < sz 1 := (j 1).isLt
  rw [hw j]
  exact laws.out_ok k (j 0).val (q0 + (j 1).val) (X j) (Y j)
    (hblk _ (Nat.le_add_right _ _) (Nat.add_lt_add_left hj1 _)) (hX j) (hY j)

end Cert.KernelIdeal.SegBValP

end
-- ==== Proof.SegBCore.lean ====
/-
  The value steps of a stage, independent of the buffers: what stays right off a store's rectangle, what a
  load of a right piece reads, and the two computing steps — adding the partner's piece to the rows handed on
  and narrowing them for sending; adding it to the rows kept.
-/
import proofs.«900879_g7700000000000880_dist_matmul_gelu_kshard_i_m1024_n1024_k512_v7x_i32_bf16_1_alg».proof.Proof.Laws
import proofs.«900879_g7700000000000880_dist_matmul_gelu_kshard_i_m1024_n1024_k512_v7x_i32_bf16_1_alg».proof.Proof.Plumb

noncomputable section

namespace Cert.KernelIdeal.SegBCore

open Cert.KernelIdeal Cert.KernelIdeal.Gen Cert.KernelIdeal.Proto Cert.KernelIdeal.Tab Cert.KernelIdeal.Held
open Cert.KernelIdeal.Laws Cert.KernelIdeal.Plumb
open Idealize.ShloMosaic Idealize.ShloMosaic.TcCoe Idealize.SL.Sem

/-! ## Rows -/

theorem lo_succ (k : Fin 3) (c : Dev nD) (s : Fin 5) : lo k c (s.val + 1) = lo k c s.val + bit k s c * half s.val := by
  show lo k c s.val + (if h : s.val < 5 then bit k ⟨s.val, h⟩ c * half s.val else 0) = _
  rw [dif_pos s.isLt]

theorem half_0 : half 0 = 512 := by decide
theorem half_1 : half 1 = 256 := by decide
theorem half_2 : half 2 = 128 := by decide
theorem half_3 : half 3 = 64 := by decide
theorem half_4 : half 4 = 32 := by decide

theorem lo_1 (k : Fin 3) (c : Dev nD) : lo k c 1 = bit k 0 c * 512 := by
  have h : lo k c 1 = lo k c 0 + bit k 0 c * half 0 := lo_succ k c 0
  rw [half_0] at h
  exact h.trans (Nat.zero_add _)
theorem lo_2 (k : Fin 3) (c : Dev nD) : lo k c 2 = lo k c 1 + bit k 1 c * 256 := by
  have h : lo k c 2 = lo k c 1 + bit k 1 c * half 1 := lo_succ k c 1
  rw [half_1] at h; exact h
theorem lo_3 (k : Fin 3) (c : Dev nD) : lo k c 3 = lo k c 2 + bit k 2 c * 128 := by
  have h : lo k c 3 = lo k c 2 + bit k 2 c * half 2 := lo_succ k c 2
  rw [half_2] at h; exact h
theorem lo_4 (k : Fin 3) (c : Dev nD) : lo k c 4 = lo k c 3 + bit k 3 c * 64 := by
  have h : lo k c 4 = lo k c 3 + bit k 3 c * half 3 := lo_succ k c 3
  rw [half_3] at h; exact h
theorem lo_5 (k : Fin 3) (c : Dev nD) : lo k c 5 = lo k c 4 + bit k 4 c * 32 := by
  have h : lo k c 5 = lo k c 4 + bit k 4 c * half 4 := lo_succ k c 4
  rw [half_4] at h; exact h

/-! ## Off a store's rectangle; inside a right rectangle -/

section Generic
variable {sig : RefSig} {κ : Kind} {Val : EltTy → Type}

/-- What holds of a buffer's contents on a rectangle `T` holds, after a store through a rectangle `W`, on every
    rectangle `S` inside `T` that misses `W` on some axis. -/
theorem keep_of (b : Ref sig κ) (f : b.ty.Contents Val) (P : b.ty.shape.Idx → Val b.ty.elt → Prop)
    {offW offW' szW : Fin b.ty.shape.rank → ℕ} (inbW : ∀ a, offW a + szW a ≤ b.ty.shape.size a) (heqW : offW = offW')
    (w : (Rect.unit offW szW inbW).shape.Idx → Val b.ty.elt)
    {offT offT' szT : Fin b.ty.shape.rank → ℕ} (inbT : ∀ a, offT a + szT a ≤ b.ty.shape.size a) (heqT : offT = offT')
    {offS offS' szS : Fin b.ty.shape.rank → ℕ} (inbS : ∀ a, offS a + szS a ≤ b.ty.shape.size a) (heqS : offS = offS')
    (hT : ∀ i ∈ ((View.whole b).slice (Rect.unit offT szT inbT)).set, P i (f i))
    (hsub : ∀ a, offT' a ≤ offS' a ∧ offS' a + szS a ≤ offT' a + szT a)
    (hdis : ∃ a, offS' a + szS a ≤ offW' a ∨ offW' a + szW a ≤ offS' a) :
    ∀ i ∈ ((View.whole b).slice (Rect.unit offS szS inbS)).set,
      P i (((View.whole b).slice (Rect.unit offW szW inbW)).write Val f w Finset.univ i) := by
  intro i hi
  have hm := (mem_slice_unit_whole b inbS heqS i).mp hi
  obtain ⟨a, ha⟩ := hdis
  rw [write_unit_whole_of_not_mem b f inbW w i heqW a (by have := hm a; omega)]
  exact hT i ((mem_slice_unit_whole b inbT heqT i).mpr fun a' => by
    have h1 := hm a'
    have h2 := hsub a'
    omega)

/-- What holds of a buffer's contents on a rectangle holds of what a load inside the rectangle reads. -/
theorem load_sub_ok (b : Ref sig κ) (g : b.ty.Contents Val) (P : b.ty.shape.Idx → Val b.ty.elt → Prop)
    {offP offP' szP : Fin b.ty.shape.rank → ℕ} (inbP : ∀ a, offP a + szP a ≤ b.ty.shape.size a) (heqP : offP = offP')
    (hg : ∀ i ∈ ((View.whole b).slice (Rect.unit offP szP inbP)).set, P i (g i))
    {offR offR' szR : Fin b.ty.shape.rank → ℕ} (inbR : ∀ a, offR a + szR a ≤ b.ty.shape.size a) (heqR : offR = offR')
    (hin : ∀ a, offP' a ≤ offR' a ∧ offR' a + szR a ≤ offP' a + szP a)
    (j : (Rect.unit offR szR inbR).shape.Idx) :
    ∃ y : b.ty.shape.Idx, (∀ a, (y a).val = offR' a + (j a).val) ∧
      P y ((Memref.whole b).view.readAt Val (Rect.unit offR szR inbR).toLoadRect g j) := by
  subst heqR
  refine ⟨(Rect.unit offR szR inbR).emb j, fun a => emb_unit_val inbR j a, ?_⟩
  rw [readAt_unit_whole b inbR g j ((Rect.unit offR szR inbR).emb j) rfl (fun a => emb_unit_val inbR j a)]
  exact hg _ ((mem_slice_unit_whole b inbP heqP _).mpr fun a => by
    rw [emb_unit_val inbR j a]
    have h1 := hin a
    have h2 : (j a).val < szR a := (j a).isLt
    omega)

end Generic

variable {F : FTy → Type} [FloatOps F]
variable (ct : Contract F) (c : Dev nD) (YA : S1024x512.Idx → F .f32) (YB : S512x1024.Idx → F .f32)

/-! ## The two computing steps of a stage -/

/-- The rows handed on: a right running sum of stage `s` plus the stage-`s` partner's right piece, narrowed, is right
    for the stage-`s + 1` send buffer's local rows. -/
theorem send_point (laws : Laws ct c YA YB) (s s1 : Fin 5) (hs : s.val < 4) (hs1 : s1.val = s.val + 1) (k : Fin 3)
    (r q : ℕ) (hq : blk q = k) (v : F .f32) (w : F .bf16)
    (hv : ct.okAcc s.val c (lo k c (s.val + 1) + ((1 - bit k s1 c) * half s1.val + r)) q v)
    (hw : ct.okSS s (peer k s c) ((1 - bit k s1 c) * half s1.val + r) q w) :
    ct.okSS s1 c r q (FloatOps.truncf .bf16 bitsLt_bf16_f32 (FloatOps.addf v (FloatOps.extf .f32 bitsLt_bf16_f32 w))) := by
  have h1 := laws.add_ok s k ((1 - bit k s1 c) * half s1.val + r) q v w hs hq hv hw
  refine laws.trunc_ok s1 k r q _ (by omega) hq ?_
  rw [hs1, ← Nat.add_assoc] at *
  exact h1

/-- The contract on a received element, read as the sender's send contract. -/
theorem pRS_to_okSS (s : Fin 5) (k : Fin 3) (c' : Dev nD) {sh : Shape} (h2 : sh.rank = 2) (y : sh.Idx) (v : F .bf16) (r q : ℕ)
    (e0 : (y ⟨0, by omega⟩).val = r) (e1 : (y ⟨1, by omega⟩).val = q) (hb : blk q = k)
    (h : pRS ct s c' y v h2) : ct.okSS s (peer k s c') r q v := by
  unfold pRS at h
  rw [e0, e1, hb] at h
  exact h

/-- The rows handed on at stage `s1 = s + 1` of column block `k`: the accumulator is right at level `s` on the rectangle
    `RA` of those rows, the received piece `Y` is right; the part adds `Y` into `RA` (payload `wA`) and narrows what
    `RA` then holds (payload `wT`): `wT` is right for the stage's send buffer, index by index. -/
theorem ss_core (laws : Laws ct c YA YB) (s s1 : Fin 5) (hs : s.val < 4) (hs1 : s1.val = s.val + 1) (k : Fin 3)
    {offA sz : Fin 2 → ℕ} {q0 : ℕ} (inbA : ∀ a, offA a + sz a ≤ S1024x1024.size a)
    (heqA : offA = ![lo k c (s.val + 1) + (1 - bit k s1 c) * half s1.val, q0])
    (hblk : ∀ q, q0 ≤ q → q < q0 + sz 1 → blk q = k)
    (fa : S1024x1024.Idx → F .f32)
    (hA : ∀ i ∈ ((View.whole cc0_scratch0).slice (Rect.unit (s := S1024x1024) offA sz inbA)).set, ct.okAcc s.val c (i 0).val (i 1).val (fa i))
    (Y : (⟨2, sz⟩ : Shape).Idx → F .bf16)
    (hY : ∀ j, ct.okSS s (peer k s c) ((1 - bit k s1 c) * half s1.val + (j 0).val) (q0 + (j 1).val) (Y j))
    (wA : (⟨2, sz⟩ : Shape).Idx → F .f32)
    (hwA : ∀ j, wA j = FloatOps.addf ((Memref.whole cc0_scratch0).view.readAt (Elt F) (Rect.unit (s := S1024x1024) offA sz inbA).toLoadRect fa j)
      (FloatOps.extf .f32 bitsLt_bf16_f32 (Y j)))
    (wT : (⟨2, sz⟩ : Shape).Idx → F .bf16)
    (hwT : ∀ j, wT j = FloatOps.truncf .bf16 bitsLt_bf16_f32 ((Memref.whole cc0_scratch0).view.readAt (Elt F) (Rect.unit (s := S1024x1024) offA sz inbA).toLoadRect
      (((View.whole cc0_scratch0).slice (Rect.unit (s := S1024x1024) offA sz inbA)).write (Elt F) fa wA Finset.univ) j)) :
    ∀ j : (⟨2, sz⟩ : Shape).Idx, ct.okSS s1 c (j 0).val (q0 + (j 1).val) (wT j) := by
  intro j
  have hy : ∀ a, (((Rect.unit (s := S1024x1024) offA sz inbA).emb j) a).val
      = (![lo k c (s.val + 1) + (1 - bit k s1 c) * half s1.val, q0] : Fin 2 → ℕ) a + (j a).val := fun a => by
    rw [emb_unit_val inbA j a]
    exact congrArg (fun o : Fin 2 → ℕ => o a + (j a).val) heqA
  have hj1 : (j 1).val < sz 1 := (j 1).isLt
  rw [hwT j, readAt_unit_whole (Val := Elt F) cc0_scratch0 inbA _ j _ heqA hy,
    write_unit_whole_of_mem (Val := Elt F) cc0_scratch0 fa inbA wA _ j heqA hy, hwA j,
    readAt_unit_whole (Val := Elt F) cc0_scratch0 inbA fa j _ heqA hy]
  refine send_point ct c YA YB laws s s1 hs hs1 k (j 0).val (q0 + (j 1).val)
    (hblk _ (Nat.le_add_right _ _) (Nat.add_lt_add_left hj1 _)) _ _ ?_ (hY j)
  have hmem := hA _ ((mem_slice_unit_whole cc0_scratch0 inbA heqA _).mpr fun a => by
    rw [hy a]
    have h2 : (j a).val < sz a := (j a).isLt
    omega)
  have e0 := hy 0
  have e1 := hy 1
  rw [e0, e1] at hmem
  rw [← Nat.add_assoc]
  exact hmem

/-- The rows kept at stage `s1 = s + 1` of column block `k`: the accumulator is right at level `s` on the rectangle of
    those rows and the received piece `Y` is right; after the part adds `Y` into them they are right at level `s + 1`. -/
theorem keep_core (laws : Laws ct c YA YB) (s s1 : Fin 5) (hs : s.val < 4) (hs1 : s1.val = s.val + 1) (k : Fin 3)
    {offA sz : Fin 2 → ℕ} {q0 : ℕ} (inbA : ∀ a, offA a + sz a ≤ S1024x1024.size a)
    (heqA : offA = ![lo k c (s.val + 1) + bit k s1 c * half s1.val, q0])
    (hblk : ∀ q, q0 ≤ q → q < q0 + sz 1 → blk q = k)
    (fa : S1024x1024.Idx → F .f32)
    (hA : ∀ i ∈ ((View.whole cc0_scratch0).slice (Rect.unit (s := S1024x1024) offA sz inbA)).set, ct.okAcc s.val c (i 0).val (i 1).val (fa i))
    (Y : (⟨2, sz⟩ : Shape).Idx → F .bf16)
    (hY : ∀ j, ct.okSS s (peer k s c) (bit k s1 c * half s1.val + (j 0).val) (q0 + (j 1).val) (Y j))
    (wA : (⟨2, sz⟩ : Shape).Idx → F .f32)
    (hwA : ∀ j, wA j = FloatOps.addf ((Memref.whole cc0_scratch0).view.readAt (Elt F) (Rect.unit (s := S1024x1024) offA sz inbA).toLoadRect fa j)
      (FloatOps.extf .f32 bitsLt_bf16_f32 (Y j))) :
    ∀ i ∈ ((View.whole cc0_scratch0).slice (Rect.unit (s := S1024x1024) offA sz inbA)).set,
      ct.okAcc (s.val + 1) c (i 0).val (i 1).val
        ((((View.whole cc0_scratch0).slice (Rect.unit (s := S1024x1024) offA sz inbA)).write (Elt F) fa wA Finset.univ) i) := by
  intro i hi
  have hm := (mem_slice_unit_whole cc0_scratch0 inbA heqA i).mp hi
  refine write_unit_whole_forall (Val := Elt F) cc0_scratch0 fa inbA wA heqA
    (fun i v => ct.okAcc (s.val + 1) c (i 0).val (i 1).val v) ?_ i hm
  intro j i' hi'
  have e0 : (i' 0).val = lo k c (s.val + 1) + (bit k s1 c * half s1.val + (j 0).val) := (hi' 0).trans (Nat.add_assoc _ _ _)
  have e1 : (i' 1).val = q0 + (j 1).val := hi' 1
  have hj1 : (j 1).val < sz 1 := (j 1).isLt
  show ct.okAcc (s.val + 1) c (i' 0).val (i' 1).val (wA j)
  rw [e0, e1, hwA j, readAt_unit_whole (Val := Elt F) cc0_scratch0 inbA fa j i' heqA hi']
  refine laws.add_ok s k (bit k s1 c * half s1.val + (j 0).val) (q0 + (j 1).val) (fa i') (Y j) hs
    (hblk _ (Nat.le_add_right _ _) (Nat.add_lt_add_left hj1 _)) ?_ (hY j)
  have hmem := hA i' ((mem_slice_unit_whole cc0_scratch0 inbA heqA i').mpr fun a => by
    rw [hi' a]
    have h2 : (j a).val < sz a := (j a).isLt
    omega)
  rw [e0, e1] at hmem
  exact hmem

end Cert.KernelIdeal.SegBCore
end
-- ==== Proof.SegB1AltVal.lean ====
/-
  The values along the second and third stages of the summing phase: the accumulator's and the two send
  buffers' contents step by step, what the twelve pieces sent carry, and what the kept rows hold at the end.
-/
import proofs.«900879_g7700000000000880_dist_matmul_gelu_kshard_i_m1024_n1024_k512_v7x_i32_bf16_1_alg».proof.Proof.SegBMid
import proofs.«900879_g7700000000000880_dist_matmul_gelu_kshard_i_m1024_n1024_k512_v7x_i32_bf16_1_alg».proof.Proof.Geo
import proofs.«900879_g7700000000000880_dist_matmul_gelu_kshard_i_m1024_n1024_k512_v7x_i32_bf16_1_alg».proof.Proof.Plumb
import proofs.«900879_g7700000000000880_dist_matmul_gelu_kshard_i_m1024_n1024_k512_v7x_i32_bf16_1_alg».proof.Proof.PayPoint
import proofs.«900879_g7700000000000880_dist_matmul_gelu_kshard_i_m1024_n1024_k512_v7x_i32_bf16_1_alg».proof.Proof.SegAValP
import proofs.«900879_g7700000000000880_dist_matmul_gelu_kshard_i_m1024_n1024_k512_v7x_i32_bf16_1_alg».proof.Proof.SegBValP
import proofs.«900879_g7700000000000880_dist_matmul_gelu_kshard_i_m1024_n1024_k512_v7x_i32_bf16_1_alg».proof.Proof.SegBCore

noncomputable section

namespace Cert.KernelIdeal.SegB1AltVal

open Cert.KernelIdeal Cert.KernelIdeal.Gen Cert.KernelIdeal.Proto Cert.KernelIdeal.Tab Cert.KernelIdeal.Held Cert.KernelIdeal.PayTab
open Cert.KernelIdeal.Laws
open Idealize.ShloMosaic Idealize.ShloMosaic.TcCoe Idealize.SL.Sem

variable {F : FTy → Type} [FloatOps F]

/-! ## The rectangles the segment reads and writes -/

abbrev RA14 (c : Dev nD) : Rect S1024x1024 := Rect.unit (s := S1024x1024) (k0_off14 c) S256x384.size (k0_off14_inb c)
abbrev RR15 (c : Dev nD) : Rect S512x1024 := Rect.unit (s := S512x1024) (k0_off15 c) S256x384.size (k0_off15_inb c)
abbrev RA26 (c : Dev nD) : Rect S1024x1024 := Rect.unit (s := S1024x1024) (k0_off26 c) S256x384.size (k0_off26_inb c)
abbrev RR27 (c : Dev nD) : Rect S512x1024 := Rect.unit (s := S512x1024) (k0_off27 c) S256x384.size (k0_off27_inb c)
abbrev RA32 (c : Dev nD) : Rect S1024x1024 := Rect.unit (s := S1024x1024) (k0_off32 c) S128x384.size (k0_off32_inb c)
abbrev RR33 (c : Dev nD) : Rect S256x1024 := Rect.unit (s := S256x1024) (k0_off33 c) S128x384.size (k0_off33_inb c)
abbrev RC1b0 : Rect S256x1024 := Rect.unit (s := S256x1024) ![0, 0] S256x384.size inb_S256x1024_S256x384_0_0
abbrev RC2b0 : Rect S128x1024 := Rect.unit (s := S128x1024) ![0, 0] S128x384.size inb_S128x1024_S128x384_0_0
abbrev RA18 (c : Dev nD) : Rect S1024x1024 := Rect.unit (s := S1024x1024) (k0_off18 c) S256x384.size (k0_off18_inb c)
abbrev RR19 (c : Dev nD) : Rect S512x1024 := Rect.unit (s := S512x1024) (k0_off19 c) S256x384.size (k0_off19_inb c)
abbrev RA28 (c : Dev nD) : Rect S1024x1024 := Rect.unit (s := S1024x1024) (k0_off28 c) S256x384.size (k0_off28_inb c)
abbrev RR29 (c : Dev nD) : Rect S512x1024 := Rect.unit (s := S512x1024) (k0_off29 c) S256x384.size (k0_off29_inb c)
abbrev RA36 (c : Dev nD) : Rect S1024x1024 := Rect.unit (s := S1024x1024) (k0_off36 c) S128x384.size (k0_off36_inb c)
abbrev RR37 (c : Dev nD) : Rect S256x1024 := Rect.unit (s := S256x1024) (k0_off37 c) S128x384.size (k0_off37_inb c)
abbrev RC1b1 : Rect S256x1024 := Rect.unit (s := S256x1024) ![0, 384] S256x384.size inb_S256x1024_S256x384_0_384
abbrev RC2b1 : Rect S128x1024 := Rect.unit (s := S128x1024) ![0, 384] S128x384.size inb_S128x1024_S128x384_0_384
abbrev RA22 (c : Dev nD) : Rect S1024x1024 := Rect.unit (s := S1024x1024) (k0_off22 c) S256x256.size (k0_off22_inb c)
abbrev RR23 (c : Dev nD) : Rect S512x1024 := Rect.unit (s := S512x1024) (k0_off23 c) S256x256.size (k0_off23_inb c)
abbrev RA30 (c : Dev nD) : Rect S1024x1024 := Rect.unit (s := S1024x1024) (k0_off30 c) S256x256.size (k0_off30_inb c)
abbrev RR31 (c : Dev nD) : Rect S512x1024 := Rect.unit (s := S512x1024) (k0_off31 c) S256x256.size (k0_off31_inb c)
abbrev RA40 (c : Dev nD) : Rect S1024x1024 := Rect.unit (s := S1024x1024) (k0_off40 c) S128x256.size (k0_off40_inb c)
abbrev RR41 (c : Dev nD) : Rect S256x1024 := Rect.unit (s := S256x1024) (k0_off41 c) S128x256.size (k0_off41_inb c)
abbrev RC1b2 : Rect S256x1024 := Rect.unit (s := S256x1024) ![0, 768] S256x256.size inb_S256x1024_S256x256_0_768
abbrev RC2b2 : Rect S128x1024 := Rect.unit (s := S128x1024) ![0, 768] S128x256.size inb_S128x1024_S128x256_0_768

/-! ## One addition, one rounding -/

/-- The accumulator after the partner's rows of the second stage, column block 0, are added on the rows given away. -/
def addP0 (c : Dev nD) (a : Buf (Elt F) ((c : Thread nD τ).loc cc0_scratch0)) (g : Buf (Elt F) ((c : Thread nD τ).loc cc0_scratch1)) : Buf (Elt F) ((c : Thread nD τ).loc cc0_scratch0) :=
  ((Memref.whole cc0_scratch0 : Memref sig .tc .vmem S1024x1024 .f32).access (RA14 c)).write (Elt F) a
    (k0_pay9 ((Memref.whole cc0_scratch0 : Memref sig .tc .vmem S1024x1024 .f32).view.readAt (Elt F) (RA14 c).toLoadRect a) ((Memref.whole cc0_scratch1 : Memref sig .tc .vmem S512x1024 .bf16).view.readAt (Elt F) (RR15 c).toLoadRect g)) Finset.univ
/-- The second stage's send buffer after column block 0's rows to give away are rounded into it. -/
def sendP0 (c : Dev nD) (a : Buf (Elt F) ((c : Thread nD τ).loc cc0_scratch0)) (g7 : Buf (Elt F) ((c : Thread nD τ).loc cc0_scratch7)) : Buf (Elt F) ((c : Thread nD τ).loc cc0_scratch7) :=
  ((Memref.whole cc0_scratch7 : Memref sig .tc .vmem S256x1024 .bf16).access RC1b0).write (Elt F) g7 (k0_pay10 ((Memref.whole cc0_scratch0 : Memref sig .tc .vmem S1024x1024 .f32).view.readAt (Elt F) (RA14 c).toLoadRect a)) Finset.univ
/-- The accumulator after the partner's rows of the second stage, column block 0, are added on the rows kept. -/
def addQ0 (c : Dev nD) (a : Buf (Elt F) ((c : Thread nD τ).loc cc0_scratch0)) (g : Buf (Elt F) ((c : Thread nD τ).loc cc0_scratch1)) : Buf (Elt F) ((c : Thread nD τ).loc cc0_scratch0) :=
  ((Memref.whole cc0_scratch0 : Memref sig .tc .vmem S1024x1024 .f32).access (RA26 c)).write (Elt F) a
    (k0_pay16 (k0_pay15 ((Memref.whole cc0_scratch0 : Memref sig .tc .vmem S1024x1024 .f32).view.readAt (Elt F) (RA26 c).toLoadRect a) ((Memref.whole cc0_scratch1 : Memref sig .tc .vmem S512x1024 .bf16).view.readAt (Elt F) (RR27 c).toLoadRect g))) Finset.univ
/-- The accumulator after the partner's rows of the third stage, column block 0, are added on the rows given away. -/
def addR0 (c : Dev nD) (a : Buf (Elt F) ((c : Thread nD τ).loc cc0_scratch0)) (g : Buf (Elt F) ((c : Thread nD τ).loc cc0_scratch2)) : Buf (Elt F) ((c : Thread nD τ).loc cc0_scratch0) :=
  ((Memref.whole cc0_scratch0 : Memref sig .tc .vmem S1024x1024 .f32).access (RA32 c)).write (Elt F) a
    (k0_pay19 ((Memref.whole cc0_scratch0 : Memref sig .tc .vmem S1024x1024 .f32).view.readAt (Elt F) (RA32 c).toLoadRect a) ((Memref.whole cc0_scratch2 : Memref sig .tc .vmem S256x1024 .bf16).view.readAt (Elt F) (RR33 c).toLoadRect g)) Finset.univ
/-- The third stage's send buffer after column block 0's rows to give away are rounded into it. -/
def sendR0 (c : Dev nD) (a : Buf (Elt F) ((c : Thread nD τ).loc cc0_scratch0)) (g8 : Buf (Elt F) ((c : Thread nD τ).loc cc0_scratch8)) : Buf (Elt F) ((c : Thread nD τ).loc cc0_scratch8) :=
  ((Memref.whole cc0_scratch8 : Memref sig .tc .vmem S128x1024 .bf16).access RC2b0).write (Elt F) g8 (k0_pay20 ((Memref.whole cc0_scratch0 : Memref sig .tc .vmem S1024x1024 .f32).view.readAt (Elt F) (RA32 c).toLoadRect a)) Finset.univ

/-- The accumulator after the partner's rows of the second stage, column block 1, are added on the rows given away. -/
def addP1 (c : Dev nD) (a : Buf (Elt F) ((c : Thread nD τ).loc cc0_scratch0)) (g : Buf (Elt F) ((c : Thread nD τ).loc cc0_scratch1)) : Buf (Elt F) ((c : Thread nD τ).loc cc0_scratch0) :=
  ((Memref.whole cc0_scratch0 : Memref sig .tc .vmem S1024x1024 .f32).access (RA18 c)).write (Elt F) a
    (k0_pay11 ((Memref.whole cc0_scratch0 : Memref sig .tc .vmem S1024x1024 .f32).view.readAt (Elt F) (RA18 c).toLoadRect a) ((Memref.whole cc0_scratch1 : Memref sig .tc .vmem S512x1024 .bf16).view.readAt (Elt F) (RR19 c).toLoadRect g)) Finset.univ
/-- The second stage's send buffer after column block 1's rows to give away are rounded into it. -/
def sendP1 (c : Dev nD) (a : Buf (Elt F) ((c : Thread nD τ).loc cc0_scratch0)) (g7 : Buf (Elt F) ((c : Thread nD τ).loc cc0_scratch7)) : Buf (Elt F) ((c : Thread nD τ).loc cc0_scratch7) :=
  ((Memref.whole cc0_scratch7 : Memref sig .tc .vmem S256x1024 .bf16).access RC1b1).write (Elt F) g7 (k0_pay12 ((Memref.whole cc0_scratch0 : Memref sig .tc .vmem S1024x1024 .f32).view.readAt (Elt F) (RA18 c).toLoadRect a)) Finset.univ
/-- The accumulator after the partner's rows of the second stage, column block 1, are added on the rows kept. -/
def addQ1 (c : Dev nD) (a : Buf (Elt F) ((c : Thread nD τ).loc cc0_scratch0)) (g : Buf (Elt F) ((c : Thread nD τ).loc cc0_scratch1)) : Buf (Elt F) ((c : Thread nD τ).loc cc0_scratch0) :=
  ((Memref.whole cc0_scratch0 : Memref sig .tc .vmem S1024x1024 .f32).access (RA28 c)).write (Elt F) a
    (k0_pay17 ((Memref.whole cc0_scratch0 : Memref sig .tc .vmem S1024x1024 .f32).view.readAt (Elt F) (RA28 c).toLoadRect a) ((Memref.whole cc0_scratch1 : Memref sig .tc .vmem S512x1024 .bf16).view.readAt (Elt F) (RR29 c).toLoadRect g)) Finset.univ
/-- The accumulator after the partner's rows of the third stage, column block 1, are added on the rows given away. -/
def addR1 (c : Dev nD) (a : Buf (Elt F) ((c : Thread nD τ).loc cc0_scratch0)) (g : Buf (Elt F) ((c : Thread nD τ).loc cc0_scratch2)) : Buf (Elt F) ((c : Thread nD τ).loc cc0_scratch0) :=
  ((Memref.whole cc0_scratch0 : Memref sig .tc .vmem S1024x1024 .f32).access (RA36 c)).write (Elt F) a
    (k0_pay21 ((Memref.whole cc0_scratch0 : Memref sig .tc .vmem S1024x1024 .f32).view.readAt (Elt F) (RA36 c).toLoadRect a) ((Memref.whole cc0_scratch2 : Memref sig .tc .vmem S256x1024 .bf16).view.readAt (Elt F) (RR37 c).toLoadRect g)) Finset.univ
/-- The third stage's send buffer after column block 1's rows to give away are rounded into it. -/
def sendR1 (c : Dev nD) (a : Buf (Elt F) ((c : Thread nD τ).loc cc0_scratch0)) (g8 : Buf (Elt F) ((c : Thread nD τ).loc cc0_scratch8)) : Buf (Elt F) ((c : Thread nD τ).loc cc0_scratch8) :=
  ((Memref.whole cc0_scratch8 : Memref sig .tc .vmem S128x1024 .bf16).access RC2b1).write (Elt F) g8 (k0_pay22 ((Memref.whole cc0_scratch0 : Memref sig .tc .vmem S1024x1024 .f32).view.readAt (Elt F) (RA36 c).toLoadRect a)) Finset.univ

/-- The accumulator after the partner's rows of the second stage, column block 2, are added on the rows given away. -/
def addP2 (c : Dev nD) (a : Buf (Elt F) ((c : Thread nD τ).loc cc0_scratch0)) (g : Buf (Elt F) ((c : Thread nD τ).loc cc0_scratch1)) : Buf (Elt F) ((c : Thread nD τ).loc cc0_scratch0) :=
  ((Memref.whole cc0_scratch0 : Memref sig .tc .vmem S1024x1024 .f32).access (RA22 c)).write (Elt F) a
    (k0_pay13 ((Memref.whole cc0_scratch0 : Memref sig .tc .vmem S1024x1024 .f32).view.readAt (Elt F) (RA22 c).toLoadRect a) ((Memref.whole cc0_scratch1 : Memref sig .tc .vmem S512x1024 .bf16).view.readAt (Elt F) (RR23 c).toLoadRect g)) Finset.univ
/-- The second stage's send buffer after column block 2's rows to give away are rounded into it. -/
def sendP2 (c : Dev nD) (a : Buf (Elt F) ((c : Thread nD τ).loc cc0_scratch0)) (g7 : Buf (Elt F) ((c : Thread nD τ).loc cc0_scratch7)) : Buf (Elt F) ((c : Thread nD τ).loc cc0_scratch7) :=
  ((Memref.whole cc0_scratch7 : Memref sig .tc .vmem S256x1024 .bf16).access RC1b2).write (Elt F) g7 (k0_pay14 ((Memref.whole cc0_scratch0 : Memref sig .tc .vmem S1024x1024 .f32).view.readAt (Elt F) (RA22 c).toLoadRect a)) Finset.univ
/-- The accumulator after the partner's rows of the second stage, column block 2, are added on the rows kept. -/
def addQ2 (c : Dev nD) (a : Buf (Elt F) ((c : Thread nD τ).loc cc0_scratch0)) (g : Buf (Elt F) ((c : Thread nD τ).loc cc0_scratch1)) : Buf (Elt F) ((c : Thread nD τ).loc cc0_scratch0) :=
  ((Memref.whole cc0_scratch0 : Memref sig .tc .vmem S1024x1024 .f32).access (RA30 c)).write (Elt F) a
    (k0_pay18 ((Memref.whole cc0_scratch0 : Memref sig .tc .vmem S1024x1024 .f32).view.readAt (Elt F) (RA30 c).toLoadRect a) ((Memref.whole cc0_scratch1 : Memref sig .tc .vmem S512x1024 .bf16).view.readAt (Elt F) (RR31 c).toLoadRect g)) Finset.univ
/-- The accumulator after the partner's rows of the third stage, column block 2, are added on the rows given away. -/
def addR2 (c : Dev nD) (a : Buf (Elt F) ((c : Thread nD τ).loc cc0_scratch0)) (g : Buf (Elt F) ((c : Thread nD τ).loc cc0_scratch2)) : Buf (Elt F) ((c : Thread nD τ).loc cc0_scratch0) :=
  ((Memref.whole cc0_scratch0 : Memref sig .tc .vmem S1024x1024 .f32).access (RA40 c)).write (Elt F) a
    (k0_pay24 (k0_pay23 ((Memref.whole cc0_scratch0 : Memref sig .tc .vmem S1024x1024 .f32).view.readAt (Elt F) (RA40 c).toLoadRect a) ((Memref.whole cc0_scratch2 : Memref sig .tc .vmem S256x1024 .bf16).view.readAt (Elt F) (RR41 c).toLoadRect g))) Finset.univ
/-- The third stage's send buffer after column block 2's rows to give away are rounded into it. -/
def sendR2 (c : Dev nD) (a : Buf (Elt F) ((c : Thread nD τ).loc cc0_scratch0)) (g8 : Buf (Elt F) ((c : Thread nD τ).loc cc0_scratch8)) : Buf (Elt F) ((c : Thread nD τ).loc cc0_scratch8) :=
  ((Memref.whole cc0_scratch8 : Memref sig .tc .vmem S128x1024 .bf16).access RC2b2).write (Elt F) g8 (k0_pay25 ((Memref.whole cc0_scratch0 : Memref sig .tc .vmem S1024x1024 .f32).view.readAt (Elt F) (RA40 c).toLoadRect a)) Finset.univ

/-- The accumulator's contents along the segment, from its contents `fa` at entry and the rows received. -/
def dcc1 (c : Dev nD) (fa : Buf (Elt F) ((c : Thread nD τ).loc cc0_scratch0)) (g000 : Buf (Elt F) ((c : Thread nD τ).loc cc0_scratch1)) : Buf (Elt F) ((c : Thread nD τ).loc cc0_scratch0) := addP0 c (fa) g000
def dcc2 (c : Dev nD) (fa : Buf (Elt F) ((c : Thread nD τ).loc cc0_scratch0)) (g000 g010 : Buf (Elt F) ((c : Thread nD τ).loc cc0_scratch1)) : Buf (Elt F) ((c : Thread nD τ).loc cc0_scratch0) := addP1 c (dcc1 c fa g000) g010
def dcc3 (c : Dev nD) (fa : Buf (Elt F) ((c : Thread nD τ).loc cc0_scratch0)) (g000 g010 g020 : Buf (Elt F) ((c : Thread nD τ).loc cc0_scratch1)) : Buf (Elt F) ((c : Thread nD τ).loc cc0_scratch0) := addP2 c (dcc2 c fa g000 g010) g020
def dcc4 (c : Dev nD) (fa : Buf (Elt F) ((c : Thread nD τ).loc cc0_scratch0)) (g000 g010 g020 g001 : Buf (Elt F) ((c : Thread nD τ).loc cc0_scratch1)) : Buf (Elt F) ((c : Thread nD τ).loc cc0_scratch0) := addQ0 c (dcc3 c fa g000 g010 g020) g001
def dcc5 (c : Dev nD) (fa : Buf (Elt F) ((c : Thread nD τ).loc cc0_scratch0)) (g000 g010 g020 g001 g011 : Buf (Elt F) ((c : Thread nD τ).loc cc0_scratch1)) : Buf (Elt F) ((c : Thread nD τ).loc cc0_scratch0) := addQ1 c (dcc4 c fa g000 g010 g020 g001) g011
def dcc6 (c : Dev nD) (fa : Buf (Elt F) ((c : Thread nD τ).loc cc0_scratch0)) (g000 g010 g020 g001 g011 g021 : Buf (Elt F) ((c : Thread nD τ).loc cc0_scratch1)) : Buf (Elt F) ((c : Thread nD τ).loc cc0_scratch0) := addQ2 c (dcc5 c fa g000 g010 g020 g001 g011) g021
def dcc7 (c : Dev nD) (fa : Buf (Elt F) ((c : Thread nD τ).loc cc0_scratch0)) (g000 g010 g020 g001 g011 g021 : Buf (Elt F) ((c : Thread nD τ).loc cc0_scratch1)) (g100 : Buf (Elt F) ((c : Thread nD τ).loc cc0_scratch2)) : Buf (Elt F) ((c : Thread nD τ).loc cc0_scratch0) := addR0 c (dcc6 c fa g000 g010 g020 g001 g011 g021) g100
def dcc8 (c : Dev nD) (fa : Buf (Elt F) ((c : Thread nD τ).loc cc0_scratch0)) (g000 g010 g020 g001 g011 g021 : Buf (Elt F) ((c : Thread nD τ).loc cc0_scratch1)) (g100 g110 : Buf (Elt F) ((c : Thread nD τ).loc cc0_scratch2)) : Buf (Elt F) ((c : Thread nD τ).loc cc0_scratch0) := addR1 c (dcc7 c fa g000 g010 g020 g001 g011 g021 g100) g110
def dcc9 (c : Dev nD) (fa : Buf (Elt F) ((c : Thread nD τ).loc cc0_scratch0)) (g000 g010 g020 g001 g011 g021 : Buf (Elt F) ((c : Thread nD τ).loc cc0_scratch1)) (g100 g110 g120 : Buf (Elt F) ((c : Thread nD τ).loc cc0_scratch2)) : Buf (Elt F) ((c : Thread nD τ).loc cc0_scratch0) := addR2 c (dcc8 c fa g000 g010 g020 g001 g011 g021 g100 g110) g120

variable (ct : Contract F) (c : Dev nD) (YA : S1024x512.Idx → F .f32) (YB : S512x1024.Idx → F .f32)

/-! ## The steps of the segment, one column block at a time -/

/-- What a store into the accumulator leaves untouched: right contents on a rectangle that misses the stored one on some axis stay right. -/
theorem fr (lvl : ℕ) {offW szW offS szS : Fin 2 → ℕ} {rW qW rS qS : ℕ} (inbW : ∀ a, offW a + szW a ≤ S1024x1024.size a) (heqW : offW = ![rW, qW])
    (w : (Rect.unit (s := S1024x1024) offW szW inbW).shape.Idx → F .f32) (inbS : ∀ a, offS a + szS a ≤ S1024x1024.size a) (heqS : offS = ![rS, qS])
    (a : S1024x1024.Idx → F .f32)
    (h : ∀ i ∈ ((View.whole cc0_scratch0).slice (Rect.unit (s := S1024x1024) offS szS inbS)).set, ct.okAcc lvl c (i 0).val (i 1).val (a i))
    (hd : (rS + szS 0 ≤ rW ∨ rW + szW 0 ≤ rS) ∨ (qS + szS 1 ≤ qW ∨ qW + szW 1 ≤ qS)) :
    ∀ i ∈ ((View.whole cc0_scratch0).slice (Rect.unit (s := S1024x1024) offS szS inbS)).set,
      ct.okAcc lvl c (i 0).val (i 1).val ((((View.whole cc0_scratch0).slice (Rect.unit (s := S1024x1024) offW szW inbW)).write (Elt F) a w Finset.univ) i) :=
  SegBCore.keep_of (Val := Elt F) cc0_scratch0 a (fun i v => ct.okAcc lvl c (i 0).val (i 1).val v) inbW heqW w inbS heqS inbS heqS h
    (fun _ => ⟨Nat.le_refl _, Nat.le_refl _⟩) (hd.elim (fun h0 => ⟨0, h0⟩) (fun h1 => ⟨1, h1⟩))

/-- Column block 0: the rows handed on at stage 1, after the stage-0 partner's first piece is added and the sum rounded, are right for the send buffer. -/
theorem stepP0 (laws : Laws ct c YA YB) (a : S1024x1024.Idx → F .f32) (g : S512x1024.Idx → F .bf16)
    (ha : ∀ i ∈ ((View.whole cc0_scratch0).slice (Rect.unit (s := S1024x1024) (k0_off10 c) S512x384.size (k0_off10_inb c))).set, ct.okAcc 0 c (i 0).val (i 1).val (a i))
    (hg : ∀ i ∈ (dst_rs_0_0_0 (peer 0 0 c)).view.set, pRS ct 0 c (sh := S512x1024) i (g i)) :
    ∀ j : S256x384.Idx, ct.okSS 1 c (j 0).val (0 + (j 1).val)
      (k0_pay10 ((Memref.whole cc0_scratch0 : Memref sig .tc .vmem S1024x1024 .f32).view.readAt (Elt F) (RA14 c).toLoadRect (addP0 c a g)) j) := by
  have hb := bit_le_one 0 1 c
  have hpeer : k0_off2 (peer 0 0 c) = ![(1 - bit 0 1 c) * 256, 0] := by
    rw [Geo.off2_eq, bit_peer_succ 0 0 1 c rfl]
  have hY : ∀ j : S256x384.Idx, ct.okSS 0 (peer 0 0 c) ((1 - bit 0 1 c) * half 1 + (j 0).val) (0 + (j 1).val)
      ((Memref.whole cc0_scratch1 : Memref sig .tc .vmem S512x1024 .bf16).view.readAt (Elt F) (Rect.unit (s := S512x1024) (k0_off15 c) S256x384.size (k0_off15_inb c)).toLoadRect g j) := fun j => by
    obtain ⟨y, hy, hP⟩ := SegBCore.load_sub_ok (Val := Elt F) cc0_scratch1 g (fun i v => pRS ct 0 c (sh := S512x1024) i v)
      (k0_off2_inb (peer 0 0 c)) hpeer hg (k0_off15_inb c) (Geo.off15_eq c) (fun a => ⟨Nat.le_refl _, Nat.le_refl _⟩) j
    have hj1 : (j 1).val < 384 := (j 1).isLt
    rw [SegBCore.half_1]
    exact SegBCore.pRS_to_okSS ct 0 0 c rfl y _ _ _ (hy 0) (hy 1) (SegAValP.blk_of_lt (by omega)) hP
  have hA : ∀ i ∈ ((View.whole cc0_scratch0).slice (Rect.unit (s := S1024x1024) (k0_off14 c) S256x384.size (k0_off14_inb c))).set, ct.okAcc 0 c (i 0).val (i 1).val (a i) := fun i hi => ha i (by
    have hm := (Plumb.mem_slice_unit_whole cc0_scratch0 (k0_off14_inb c) (Geo.off14_eq c) i).mp hi
    exact (Plumb.mem_slice_unit_whole cc0_scratch0 (k0_off10_inb c) (Geo.off10_eq c) i).mpr (Fin.forall_fin_two.mpr
      ⟨by have h' : lo 0 c 1 + (1 - bit 0 1 c) * 256 ≤ (i 0).val ∧ (i 0).val < lo 0 c 1 + (1 - bit 0 1 c) * 256 + 256 := hm 0
          show lo 0 c 1 ≤ (i 0).val ∧ (i 0).val < lo 0 c 1 + 512
          omega, hm 1⟩))
  unfold addP0
  exact SegBCore.ss_core ct c YA YB laws 0 1 (by decide) rfl 0 (k0_off14_inb c)
    ((Geo.off14_eq c).trans (by show _ = ![lo 0 c 1 + (1 - bit 0 1 c) * half 1, 0]; rw [SegBCore.half_1]))
    (fun q h1 h2 => SegAValP.blk_of_lt (by have h2' : q < 0 + 384 := h2; omega)) a hA _ hY _
    (fun j => PayPoint.pay9_at _ _ j) _ (fun j => PayPoint.pay10_at _ j)

theorem frP0 (lvl : ℕ) {offS szS : Fin 2 → ℕ} {rS qS : ℕ} (inbS : ∀ a, offS a + szS a ≤ S1024x1024.size a) (heqS : offS = ![rS, qS])
    (a : S1024x1024.Idx → F .f32) (g : S512x1024.Idx → F .bf16)
    (h : ∀ i ∈ ((View.whole cc0_scratch0).slice (Rect.unit (s := S1024x1024) offS szS inbS)).set, ct.okAcc lvl c (i 0).val (i 1).val (a i))
    (hd : (rS + szS 0 ≤ lo 0 c 1 + (1 - bit 0 1 c) * 256 ∨ lo 0 c 1 + (1 - bit 0 1 c) * 256 + 256 ≤ rS) ∨ (qS + szS 1 ≤ 0 ∨ 0 + 384 ≤ qS)) :
    ∀ i ∈ ((View.whole cc0_scratch0).slice (Rect.unit (s := S1024x1024) offS szS inbS)).set, ct.okAcc lvl c (i 0).val (i 1).val (addP0 c a g i) := by
  unfold addP0
  exact fr ct c lvl (k0_off14_inb c) (Geo.off14_eq c) _ inbS heqS a h hd

/-- Column block 0: adding the second piece of the stage-0 partner to the rows kept brings them to the sum over two devices. -/
theorem stepQ0 (laws : Laws ct c YA YB) (a : S1024x1024.Idx → F .f32) (g : S512x1024.Idx → F .bf16)
    (ha : ∀ i ∈ ((View.whole cc0_scratch0).slice (Rect.unit (s := S1024x1024) (k0_off26 c) S256x384.size (k0_off26_inb c))).set, ct.okAcc 0 c (i 0).val (i 1).val (a i))
    (hg : ∀ i ∈ (dst_rs_0_0_1 (peer 0 0 c)).view.set, pRS ct 0 c (sh := S512x1024) i (g i)) :
    ∀ i ∈ ((View.whole cc0_scratch0).slice (Rect.unit (s := S1024x1024) (k0_off26 c) S256x384.size (k0_off26_inb c))).set, ct.okAcc 1 c (i 0).val (i 1).val (addQ0 c a g i) := by
  have hpeer : k0_off3 (peer 0 0 c) = ![bit 0 1 c * 256, 0] := by
    rw [Geo.off3_eq, bit_peer_succ 0 0 1 c rfl]
  have hY : ∀ j : S256x384.Idx, ct.okSS 0 (peer 0 0 c) (bit 0 1 c * half 1 + (j 0).val) (0 + (j 1).val)
      ((Memref.whole cc0_scratch1 : Memref sig .tc .vmem S512x1024 .bf16).view.readAt (Elt F) (Rect.unit (s := S512x1024) (k0_off27 c) S256x384.size (k0_off27_inb c)).toLoadRect g j) := fun j => by
    obtain ⟨y, hy, hP⟩ := SegBCore.load_sub_ok (Val := Elt F) cc0_scratch1 g (fun i v => pRS ct 0 c (sh := S512x1024) i v)
      (k0_off3_inb (peer 0 0 c)) hpeer hg (k0_off27_inb c) (Geo.off27_eq c) (fun a => ⟨Nat.le_refl _, Nat.le_refl _⟩) j
    have hj1 : (j 1).val < 384 := (j 1).isLt
    rw [SegBCore.half_1]
    exact SegBCore.pRS_to_okSS ct 0 0 c rfl y _ _ _ (hy 0) (hy 1) (SegAValP.blk_of_lt (by omega)) hP
  unfold addQ0
  exact SegBCore.keep_core ct c YA YB laws 0 1 (by decide) rfl 0 (k0_off26_inb c)
    ((Geo.off26_eq c).trans (by show ![lo 0 c 2, 0] = ![lo 0 c 1 + bit 0 1 c * half 1, 0]; rw [show lo 0 c 2 = lo 0 c 1 + bit 0 1 c * half 1 from SegBCore.lo_succ 0 c 1]))
    (fun q h1 h2 => SegAValP.blk_of_lt (by have h2' : q < 0 + 384 := h2; omega)) a ha _ hY _ (fun j => (PayPoint.pay16_at _ j).trans (PayPoint.pay15_at _ _ j))

theorem frQ0 (lvl : ℕ) {offS szS : Fin 2 → ℕ} {rS qS : ℕ} (inbS : ∀ a, offS a + szS a ≤ S1024x1024.size a) (heqS : offS = ![rS, qS])
    (a : S1024x1024.Idx → F .f32) (g : S512x1024.Idx → F .bf16)
    (h : ∀ i ∈ ((View.whole cc0_scratch0).slice (Rect.unit (s := S1024x1024) offS szS inbS)).set, ct.okAcc lvl c (i 0).val (i 1).val (a i))
    (hd : (rS + szS 0 ≤ lo 0 c 2 ∨ lo 0 c 2 + 256 ≤ rS) ∨ (qS + szS 1 ≤ 0 ∨ 0 + 384 ≤ qS)) :
    ∀ i ∈ ((View.whole cc0_scratch0).slice (Rect.unit (s := S1024x1024) offS szS inbS)).set, ct.okAcc lvl c (i 0).val (i 1).val (addQ0 c a g i) := by
  unfold addQ0
  exact fr ct c lvl (k0_off26_inb c) (Geo.off26_eq c) _ inbS heqS a h hd

/-- Column block 0: the rows handed on at stage 2, after the stage-1 partner's first piece is added and the sum rounded, are right for the send buffer. -/
theorem stepR0 (laws : Laws ct c YA YB) (a : S1024x1024.Idx → F .f32) (g : S256x1024.Idx → F .bf16)
    (ha : ∀ i ∈ ((View.whole cc0_scratch0).slice (Rect.unit (s := S1024x1024) (k0_off26 c) S256x384.size (k0_off26_inb c))).set, ct.okAcc 1 c (i 0).val (i 1).val (a i))
    (hg : ∀ i ∈ (dst_rs_1_0_0 (peer 0 1 c)).view.set, pRS ct 1 c (sh := S256x1024) i (g i)) :
    ∀ j : S128x384.Idx, ct.okSS 2 c (j 0).val (0 + (j 1).val)
      (k0_pay20 ((Memref.whole cc0_scratch0 : Memref sig .tc .vmem S1024x1024 .f32).view.readAt (Elt F) (RA32 c).toLoadRect (addR0 c a g)) j) := by
  have hb := bit_le_one 0 2 c
  have hpeer : k0_off16 (peer 0 1 c) = ![(1 - bit 0 2 c) * 128, 0] := by
    rw [Geo.off16_eq, bit_peer_succ 0 1 2 c rfl]
  have hY : ∀ j : S128x384.Idx, ct.okSS 1 (peer 0 1 c) ((1 - bit 0 2 c) * half 2 + (j 0).val) (0 + (j 1).val)
      ((Memref.whole cc0_scratch2 : Memref sig .tc .vmem S256x1024 .bf16).view.readAt (Elt F) (Rect.unit (s := S256x1024) (k0_off33 c) S128x384.size (k0_off33_inb c)).toLoadRect g j) := fun j => by
    obtain ⟨y, hy, hP⟩ := SegBCore.load_sub_ok (Val := Elt F) cc0_scratch2 g (fun i v => pRS ct 1 c (sh := S256x1024) i v)
      (k0_off16_inb (peer 0 1 c)) hpeer hg (k0_off33_inb c) (Geo.off33_eq c) (fun a => ⟨Nat.le_refl _, Nat.le_refl _⟩) j
    have hj1 : (j 1).val < 384 := (j 1).isLt
    rw [SegBCore.half_2]
    exact SegBCore.pRS_to_okSS ct 1 0 c rfl y _ _ _ (hy 0) (hy 1) (SegAValP.blk_of_lt (by omega)) hP
  have hA : ∀ i ∈ ((View.whole cc0_scratch0).slice (Rect.unit (s := S1024x1024) (k0_off32 c) S128x384.size (k0_off32_inb c))).set, ct.okAcc 1 c (i 0).val (i 1).val (a i) := fun i hi => ha i (by
    have hm := (Plumb.mem_slice_unit_whole cc0_scratch0 (k0_off32_inb c) (Geo.off32_eq c) i).mp hi
    exact (Plumb.mem_slice_unit_whole cc0_scratch0 (k0_off26_inb c) (Geo.off26_eq c) i).mpr (Fin.forall_fin_two.mpr
      ⟨by have h' : lo 0 c 2 + (1 - bit 0 2 c) * 128 ≤ (i 0).val ∧ (i 0).val < lo 0 c 2 + (1 - bit 0 2 c) * 128 + 128 := hm 0
          show lo 0 c 2 ≤ (i 0).val ∧ (i 0).val < lo 0 c 2 + 256
          omega, hm 1⟩))
  unfold addR0
  exact SegBCore.ss_core ct c YA YB laws 1 2 (by decide) rfl 0 (k0_off32_inb c)
    ((Geo.off32_eq c).trans (by show _ = ![lo 0 c 2 + (1 - bit 0 2 c) * half 2, 0]; rw [SegBCore.half_2]))
    (fun q h1 h2 => SegAValP.blk_of_lt (by have h2' : q < 0 + 384 := h2; omega)) a hA _ hY _
    (fun j => PayPoint.pay19_at _ _ j) _ (fun j => PayPoint.pay20_at _ j)

theorem frR0 (lvl : ℕ) {offS szS : Fin 2 → ℕ} {rS qS : ℕ} (inbS : ∀ a, offS a + szS a ≤ S1024x1024.size a) (heqS : offS = ![rS, qS])
    (a : S1024x1024.Idx → F .f32) (g : S256x1024.Idx → F .bf16)
    (h : ∀ i ∈ ((View.whole cc0_scratch0).slice (Rect.unit (s := S1024x1024) offS szS inbS)).set, ct.okAcc lvl c (i 0).val (i 1).val (a i))
    (hd : (rS + szS 0 ≤ lo 0 c 2 + (1 - bit 0 2 c) * 128 ∨ lo 0 c 2 + (1 - bit 0 2 c) * 128 + 128 ≤ rS) ∨ (qS + szS 1 ≤ 0 ∨ 0 + 384 ≤ qS)) :
    ∀ i ∈ ((View.whole cc0_scratch0).slice (Rect.unit (s := S1024x1024) offS szS inbS)).set, ct.okAcc lvl c (i 0).val (i 1).val (addR0 c a g i) := by
  unfold addR0
  exact fr ct c lvl (k0_off32_inb c) (Geo.off32_eq c) _ inbS heqS a h hd

/-- Column block 1: the rows handed on at stage 1, after the stage-0 partner's first piece is added and the sum rounded, are right for the send buffer. -/
theorem stepP1 (laws : Laws ct c YA YB) (a : S1024x1024.Idx → F .f32) (g : S512x1024.Idx → F .bf16)
    (ha : ∀ i ∈ ((View.whole cc0_scratch0).slice (Rect.unit (s := S1024x1024) (k0_off12 c) S512x384.size (k0_off12_inb c))).set, ct.okAcc 0 c (i 0).val (i 1).val (a i))
    (hg : ∀ i ∈ (dst_rs_0_1_0 (peer 1 0 c)).view.set, pRS ct 0 c (sh := S512x1024) i (g i)) :
    ∀ j : S256x384.Idx, ct.okSS 1 c (j 0).val (384 + (j 1).val)
      (k0_pay12 ((Memref.whole cc0_scratch0 : Memref sig .tc .vmem S1024x1024 .f32).view.readAt (Elt F) (RA18 c).toLoadRect (addP1 c a g)) j) := by
  have hb := bit_le_one 1 1 c
  have hpeer : k0_off5 (peer 1 0 c) = ![(1 - bit 1 1 c) * 256, 384] := by
    rw [Geo.off5_eq, bit_peer_succ 1 0 1 c rfl]
  have hY : ∀ j : S256x384.Idx, ct.okSS 0 (peer 1 0 c) ((1 - bit 1 1 c) * half 1 + (j 0).val) (384 + (j 1).val)
      ((Memref.whole cc0_scratch1 : Memref sig .tc .vmem S512x1024 .bf16).view.readAt (Elt F) (Rect.unit (s := S512x1024) (k0_off19 c) S256x384.size (k0_off19_inb c)).toLoadRect g j) := fun j => by
    obtain ⟨y, hy, hP⟩ := SegBCore.load_sub_ok (Val := Elt F) cc0_scratch1 g (fun i v => pRS ct 0 c (sh := S512x1024) i v)
      (k0_off5_inb (peer 1 0 c)) hpeer hg (k0_off19_inb c) (Geo.off19_eq c) (fun a => ⟨Nat.le_refl _, Nat.le_refl _⟩) j
    have hj1 : (j 1).val < 384 := (j 1).isLt
    rw [SegBCore.half_1]
    exact SegBCore.pRS_to_okSS ct 0 1 c rfl y _ _ _ (hy 0) (hy 1) (SegAValP.blk_of_mid (by omega) (by omega)) hP
  have hA : ∀ i ∈ ((View.whole cc0_scratch0).slice (Rect.unit (s := S1024x1024) (k0_off18 c) S256x384.size (k0_off18_inb c))).set, ct.okAcc 0 c (i 0).val (i 1).val (a i) := fun i hi => ha i (by
    have hm := (Plumb.mem_slice_unit_whole cc0_scratch0 (k0_off18_inb c) (Geo.off18_eq c) i).mp hi
    exact (Plumb.mem_slice_unit_whole cc0_scratch0 (k0_off12_inb c) (Geo.off12_eq c) i).mpr (Fin.forall_fin_two.mpr
      ⟨by have h' : lo 1 c 1 + (1 - bit 1 1 c) * 256 ≤ (i 0).val ∧ (i 0).val < lo 1 c 1 + (1 - bit 1 1 c) * 256 + 256 := hm 0
          show lo 1 c 1 ≤ (i 0).val ∧ (i 0).val < lo 1 c 1 + 512
          omega, hm 1⟩))
  unfold addP1
  exact SegBCore.ss_core ct c YA YB laws 0 1 (by decide) rfl 1 (k0_off18_inb c)
    ((Geo.off18_eq c).trans (by show _ = ![lo 1 c 1 + (1 - bit 1 1 c) * half 1, 384]; rw [SegBCore.half_1]))
    (fun q h1 h2 => SegAValP.blk_of_mid (by have h2' : q < 384 + 384 := h2; omega) (by have h2' : q < 384 + 384 := h2; omega)) a hA _ hY _
    (fun j => PayPoint.pay11_at _ _ j) _ (fun j => PayPoint.pay12_at _ j)

theorem frP1 (lvl : ℕ) {offS szS : Fin 2 → ℕ} {rS qS : ℕ} (inbS : ∀ a, offS a + szS a ≤ S1024x1024.size a) (heqS : offS = ![rS, qS])
    (a : S1024x1024.Idx → F .f32) (g : S512x1024.Idx → F .bf16)
    (h : ∀ i ∈ ((View.whole cc0_scratch0).slice (Rect.unit (s := S1024x1024) offS szS inbS)).set, ct.okAcc lvl c (i 0).val (i 1).val (a i))
    (hd : (rS + szS 0 ≤ lo 1 c 1 + (1 - bit 1 1 c) * 256 ∨ lo 1 c 1 + (1 - bit 1 1 c) * 256 + 256 ≤ rS) ∨ (qS + szS 1 ≤ 384 ∨ 384 + 384 ≤ qS)) :
    ∀ i ∈ ((View.whole cc0_scratch0).slice (Rect.unit (s := S1024x1024) offS szS inbS)).set, ct.okAcc lvl c (i 0).val (i 1).val (addP1 c a g i) := by
  unfold addP1
  exact fr ct c lvl (k0_off18_inb c) (Geo.off18_eq c) _ inbS heqS a h hd

/-- Column block 1: adding the second piece of the stage-0 partner to the rows kept brings them to the sum over two devices. -/
theorem stepQ1 (laws : Laws ct c YA YB) (a : S1024x1024.Idx → F .f32) (g : S512x1024.Idx → F .bf16)
    (ha : ∀ i ∈ ((View.whole cc0_scratch0).slice (Rect.unit (s := S1024x1024) (k0_off28 c) S256x384.size (k0_off28_inb c))).set, ct.okAcc 0 c (i 0).val (i 1).val (a i))
    (hg : ∀ i ∈ (dst_rs_0_1_1 (peer 1 0 c)).view.set, pRS ct 0 c (sh := S512x1024) i (g i)) :
    ∀ i ∈ ((View.whole cc0_scratch0).slice (Rect.unit (s := S1024x1024) (k0_off28 c) S256x384.size (k0_off28_inb c))).set, ct.okAcc 1 c (i 0).val (i 1).val (addQ1 c a g i) := by
  have hpeer : k0_off6 (peer 1 0 c) = ![bit 1 1 c * 256, 384] := by
    rw [Geo.off6_eq, bit_peer_succ 1 0 1 c rfl]
  have hY : ∀ j : S256x384.Idx, ct.okSS 0 (peer 1 0 c) (bit 1 1 c * half 1 + (j 0).val) (384 + (j 1).val)
      ((Memref.whole cc0_scratch1 : Memref sig .tc .vmem S512x1024 .bf16).view.readAt (Elt F) (Rect.unit (s := S512x1024) (k0_off29 c) S256x384.size (k0_off29_inb c)).toLoadRect g j) := fun j => by
    obtain ⟨y, hy, hP⟩ := SegBCore.load_sub_ok (Val := Elt F) cc0_scratch1 g (fun i v => pRS ct 0 c (sh := S512x1024) i v)
      (k0_off6_inb (peer 1 0 c)) hpeer hg (k0_off29_inb c) (Geo.off29_eq c) (fun a => ⟨Nat.le_refl _, Nat.le_refl _⟩) j
    have hj1 : (j 1).val < 384 := (j 1).isLt
    rw [SegBCore.half_1]
    exact SegBCore.pRS_to_okSS ct 0 1 c rfl y _ _ _ (hy 0) (hy 1) (SegAValP.blk_of_mid (by omega) (by omega)) hP
  unfold addQ1
  exact SegBCore.keep_core ct c YA YB laws 0 1 (by decide) rfl 1 (k0_off28_inb c)
    ((Geo.off28_eq c).trans (by show ![lo 1 c 2, 384] = ![lo 1 c 1 + bit 1 1 c * half 1, 384]; rw [show lo 1 c 2 = lo 1 c 1 + bit 1 1 c * half 1 from SegBCore.lo_succ 1 c 1]))
    (fun q h1 h2 => SegAValP.blk_of_mid (by have h2' : q < 384 + 384 := h2; omega) (by have h2' : q < 384 + 384 := h2; omega)) a ha _ hY _ (fun j => PayPoint.pay17_at _ _ j)

theorem frQ1 (lvl : ℕ) {offS szS : Fin 2 → ℕ} {rS qS : ℕ} (inbS : ∀ a, offS a + szS a ≤ S1024x1024.size a) (heqS : offS = ![rS, qS])
    (a : S1024x1024.Idx → F .f32) (g : S512x1024.Idx → F .bf16)
    (h : ∀ i ∈ ((View.whole cc0_scratch0).slice (Rect.unit (s := S1024x1024) offS szS inbS)).set, ct.okAcc lvl c (i 0).val (i 1).val (a i))
    (hd : (rS + szS 0 ≤ lo 1 c 2 ∨ lo 1 c 2 + 256 ≤ rS) ∨ (qS + szS 1 ≤ 384 ∨ 384 + 384 ≤ qS)) :
    ∀ i ∈ ((View.whole cc0_scratch0).slice (Rect.unit (s := S1024x1024) offS szS inbS)).set, ct.okAcc lvl c (i 0).val (i 1).val (addQ1 c a g i) := by
  unfold addQ1
  exact fr ct c lvl (k0_off28_inb c) (Geo.off28_eq c) _ inbS heqS a h hd

/-- Column block 1: the rows handed on at stage 2, after the stage-1 partner's first piece is added and the sum rounded, are right for the send buffer. -/
theorem stepR1 (laws : Laws ct c YA YB) (a : S1024x1024.Idx → F .f32) (g : S256x1024.Idx → F .bf16)
    (ha : ∀ i ∈ ((View.whole cc0_scratch0).slice (Rect.unit (s := S1024x1024) (k0_off28 c) S256x384.size (k0_off28_inb c))).set, ct.okAcc 1 c (i 0).val (i 1).val (a i))
    (hg : ∀ i ∈ (dst_rs_1_1_0 (peer 1 1 c)).view.set, pRS ct 1 c (sh := S256x1024) i (g i)) :
    ∀ j : S128x384.Idx, ct.okSS 2 c (j 0).val (384 + (j 1).val)
      (k0_pay22 ((Memref.whole cc0_scratch0 : Memref sig .tc .vmem S1024x1024 .f32).view.readAt (Elt F) (RA36 c).toLoadRect (addR1 c a g)) j) := by
  have hb := bit_le_one 1 2 c
  have hpeer : k0_off20 (peer 1 1 c) = ![(1 - bit 1 2 c) * 128, 384] := by
    rw [Geo.off20_eq, bit_peer_succ 1 1 2 c rfl]
  have hY : ∀ j : S128x384.Idx, ct.okSS 1 (peer 1 1 c) ((1 - bit 1 2 c) * half 2 + (j 0).val) (384 + (j 1).val)
      ((Memref.whole cc0_scratch2 : Memref sig .tc .vmem S256x1024 .bf16).view.readAt (Elt F) (Rect.unit (s := S256x1024) (k0_off37 c) S128x384.size (k0_off37_inb c)).toLoadRect g j) := fun j => by
    obtain ⟨y, hy, hP⟩ := SegBCore.load_sub_ok (Val := Elt F) cc0_scratch2 g (fun i v => pRS ct 1 c (sh := S256x1024) i v)
      (k0_off20_inb (peer 1 1 c)) hpeer hg (k0_off37_inb c) (Geo.off37_eq c) (fun a => ⟨Nat.le_refl _, Nat.le_refl _⟩) j
    have hj1 : (j 1).val < 384 := (j 1).isLt
    rw [SegBCore.half_2]
    exact SegBCore.pRS_to_okSS ct 1 1 c rfl y _ _ _ (hy 0) (hy 1) (SegAValP.blk_of_mid (by omega) (by omega)) hP
  have hA : ∀ i ∈ ((View.whole cc0_scratch0).slice (Rect.unit (s := S1024x1024) (k0_off36 c) S128x384.size (k0_off36_inb c))).set, ct.okAcc 1 c (i 0).val (i 1).val (a i) := fun i hi => ha i (by
    have hm := (Plumb.mem_slice_unit_whole cc0_scratch0 (k0_off36_inb c) (Geo.off36_eq c) i).mp hi
    exact (Plumb.mem_slice_unit_whole cc0_scratch0 (k0_off28_inb c) (Geo.off28_eq c) i).mpr (Fin.forall_fin_two.mpr
      ⟨by have h' : lo 1 c 2 + (1 - bit 1 2 c) * 128 ≤ (i 0).val ∧ (i 0).val < lo 1 c 2 + (1 - bit 1 2 c) * 128 + 128 := hm 0
          show lo 1 c 2 ≤ (i 0).val ∧ (i 0).val < lo 1 c 2 + 256
          omega, hm 1⟩))
  unfold addR1
  exact SegBCore.ss_core ct c YA YB laws 1 2 (by decide) rfl 1 (k0_off36_inb c)
    ((Geo.off36_eq c).trans (by show _ = ![lo 1 c 2 + (1 - bit 1 2 c) * half 2, 384]; rw [SegBCore.half_2]))
    (fun q h1 h2 => SegAValP.blk_of_mid (by have h2' : q < 384 + 384 := h2; omega) (by have h2' : q < 384 + 384 := h2; omega)) a hA _ hY _
    (fun j => PayPoint.pay21_at _ _ j) _ (fun j => PayPoint.pay22_at _ j)

theorem frR1 (lvl : ℕ) {offS szS : Fin 2 → ℕ} {rS qS : ℕ} (inbS : ∀ a, offS a + szS a ≤ S1024x1024.size a) (heqS : offS = ![rS, qS])
    (a : S1024x1024.Idx → F .f32) (g : S256x1024.Idx → F .bf16)
    (h : ∀ i ∈ ((View.whole cc0_scratch0).slice (Rect.unit (s := S1024x1024) offS szS inbS)).set, ct.okAcc lvl c (i 0).val (i 1).val (a i))
    (hd : (rS + szS 0 ≤ lo 1 c 2 + (1 - bit 1 2 c) * 128 ∨ lo 1 c 2 + (1 - bit 1 2 c) * 128 + 128 ≤ rS) ∨ (qS + szS 1 ≤ 384 ∨ 384 + 384 ≤ qS)) :
    ∀ i ∈ ((View.whole cc0_scratch0).slice (Rect.unit (s := S1024x1024) offS szS inbS)).set, ct.okAcc lvl c (i 0).val (i 1).val (addR1 c a g i) := by
  unfold addR1
  exact fr ct c lvl (k0_off36_inb c) (Geo.off36_eq c) _ inbS heqS a h hd

/-- Column block 2: the rows handed on at stage 1, after the stage-0 partner's first piece is added and the sum rounded, are right for the send buffer. -/
theorem stepP2 (laws : Laws ct c YA YB) (a : S1024x1024.Idx → F .f32) (g : S512x1024.Idx → F .bf16)
    (ha : ∀ i ∈ ((View.whole cc0_scratch0).slice (Rect.unit (s := S1024x1024) (k0_off13 c) S512x256.size (k0_off13_inb c))).set, ct.okAcc 0 c (i 0).val (i 1).val (a i))
    (hg : ∀ i ∈ (dst_rs_0_2_0 (peer 2 0 c)).view.set, pRS ct 0 c (sh := S512x1024) i (g i)) :
    ∀ j : S256x256.Idx, ct.okSS 1 c (j 0).val (768 + (j 1).val)
      (k0_pay14 ((Memref.whole cc0_scratch0 : Memref sig .tc .vmem S1024x1024 .f32).view.readAt (Elt F) (RA22 c).toLoadRect (addP2 c a g)) j) := by
  have hb := bit_le_one 2 1 c
  have hpeer : k0_off7 (peer 2 0 c) = ![(1 - bit 2 1 c) * 256, 768] := by
    rw [Geo.off7_eq, bit_peer_succ 2 0 1 c rfl]
  have hY : ∀ j : S256x256.Idx, ct.okSS 0 (peer 2 0 c) ((1 - bit 2 1 c) * half 1 + (j 0).val) (768 + (j 1).val)
      ((Memref.whole cc0_scratch1 : Memref sig .tc .vmem S512x1024 .bf16).view.readAt (Elt F) (Rect.unit (s := S512x1024) (k0_off23 c) S256x256.size (k0_off23_inb c)).toLoadRect g j) := fun j => by
    obtain ⟨y, hy, hP⟩ := SegBCore.load_sub_ok (Val := Elt F) cc0_scratch1 g (fun i v => pRS ct 0 c (sh := S512x1024) i v)
      (k0_off7_inb (peer 2 0 c)) hpeer hg (k0_off23_inb c) (Geo.off23_eq c) (fun a => ⟨Nat.le_refl _, Nat.le_refl _⟩) j
    have hj1 : (j 1).val < 256 := (j 1).isLt
    rw [SegBCore.half_1]
    exact SegBCore.pRS_to_okSS ct 0 2 c rfl y _ _ _ (hy 0) (hy 1) (SegAValP.blk_of_ge (by omega)) hP
  have hA : ∀ i ∈ ((View.whole cc0_scratch0).slice (Rect.unit (s := S1024x1024) (k0_off22 c) S256x256.size (k0_off22_inb c))).set, ct.okAcc 0 c (i 0).val (i 1).val (a i) := fun i hi => ha i (by
    have hm := (Plumb.mem_slice_unit_whole cc0_scratch0 (k0_off22_inb c) (Geo.off22_eq c) i).mp hi
    exact (Plumb.mem_slice_unit_whole cc0_scratch0 (k0_off13_inb c) (Geo.off13_eq c) i).mpr (Fin.forall_fin_two.mpr
      ⟨by have h' : lo 2 c 1 + (1 - bit 2 1 c) * 256 ≤ (i 0).val ∧ (i 0).val < lo 2 c 1 + (1 - bit 2 1 c) * 256 + 256 := hm 0
          show lo 2 c 1 ≤ (i 0).val ∧ (i 0).val < lo 2 c 1 + 512
          omega, hm 1⟩))
  unfold addP2
  exact SegBCore.ss_core ct c YA YB laws 0 1 (by decide) rfl 2 (k0_off22_inb c)
    ((Geo.off22_eq c).trans (by show _ = ![lo 2 c 1 + (1 - bit 2 1 c) * half 1, 768]; rw [SegBCore.half_1]))
    (fun q h1 h2 => SegAValP.blk_of_ge (by have h2' : q < 768 + 256 := h2; omega)) a hA _ hY _
    (fun j => PayPoint.pay13_at _ _ j) _ (fun j => PayPoint.pay14_at _ j)

theorem frP2 (lvl : ℕ) {offS szS : Fin 2 → ℕ} {rS qS : ℕ} (inbS : ∀ a, offS a + szS a ≤ S1024x1024.size a) (heqS : offS = ![rS, qS])
    (a : S1024x1024.Idx → F .f32) (g : S512x1024.Idx → F .bf16)
    (h : ∀ i ∈ ((View.whole cc0_scratch0).slice (Rect.unit (s := S1024x1024) offS szS inbS)).set, ct.okAcc lvl c (i 0).val (i 1).val (a i))
    (hd : (rS + szS 0 ≤ lo 2 c 1 + (1 - bit 2 1 c) * 256 ∨ lo 2 c 1 + (1 - bit 2 1 c) * 256 + 256 ≤ rS) ∨ (qS + szS 1 ≤ 768 ∨ 768 + 256 ≤ qS)) :
    ∀ i ∈ ((View.whole cc0_scratch0).slice (Rect.unit (s := S1024x1024) offS szS inbS)).set, ct.okAcc lvl c (i 0).val (i 1).val (addP2 c a g i) := by
  unfold addP2
  exact fr ct c lvl (k0_off22_inb c) (Geo.off22_eq c) _ inbS heqS a h hd

/-- Column block 2: adding the second piece of the stage-0 partner to the rows kept brings them to the sum over two devices. -/
theorem stepQ2 (laws : Laws ct c YA YB) (a : S1024x1024.Idx → F .f32) (g : S512x1024.Idx → F .bf16)
    (ha : ∀ i ∈ ((View.whole cc0_scratch0).slice (Rect.unit (s := S1024x1024) (k0_off30 c) S256x256.size (k0_off30_inb c))).set, ct.okAcc 0 c (i 0).val (i 1).val (a i))
    (hg : ∀ i ∈ (dst_rs_0_2_1 (peer 2 0 c)).view.set, pRS ct 0 c (sh := S512x1024) i (g i)) :
    ∀ i ∈ ((View.whole cc0_scratch0).slice (Rect.unit (s := S1024x1024) (k0_off30 c) S256x256.size (k0_off30_inb c))).set, ct.okAcc 1 c (i 0).val (i 1).val (addQ2 c a g i) := by
  have hpeer : k0_off8 (peer 2 0 c) = ![bit 2 1 c * 256, 768] := by
    rw [Geo.off8_eq, bit_peer_succ 2 0 1 c rfl]
  have hY : ∀ j : S256x256.Idx, ct.okSS 0 (peer 2 0 c) (bit 2 1 c * half 1 + (j 0).val) (768 + (j 1).val)
      ((Memref.whole cc0_scratch1 : Memref sig .tc .vmem S512x1024 .bf16).view.readAt (Elt F) (Rect.unit (s := S512x1024) (k0_off31 c) S256x256.size (k0_off31_inb c)).toLoadRect g j) := fun j => by
    obtain ⟨y, hy, hP⟩ := SegBCore.load_sub_ok (Val := Elt F) cc0_scratch1 g (fun i v => pRS ct 0 c (sh := S512x1024) i v)
      (k0_off8_inb (peer 2 0 c)) hpeer hg (k0_off31_inb c) (Geo.off31_eq c) (fun a => ⟨Nat.le_refl _, Nat.le_refl _⟩) j
    have hj1 : (j 1).val < 256 := (j 1).isLt
    rw [SegBCore.half_1]
    exact SegBCore.pRS_to_okSS ct 0 2 c rfl y _ _ _ (hy 0) (hy 1) (SegAValP.blk_of_ge (by omega)) hP
  unfold addQ2
  exact SegBCore.keep_core ct c YA YB laws 0 1 (by decide) rfl 2 (k0_off30_inb c)
    ((Geo.off30_eq c).trans (by show ![lo 2 c 2, 768] = ![lo 2 c 1 + bit 2 1 c * half 1, 768]; rw [show lo 2 c 2 = lo 2 c 1 + bit 2 1 c * half 1 from SegBCore.lo_succ 2 c 1]))
    (fun q h1 h2 => SegAValP.blk_of_ge (by have h2' : q < 768 + 256 := h2; omega)) a ha _ hY _ (fun j => PayPoint.pay18_at _ _ j)

theorem frQ2 (lvl : ℕ) {offS szS : Fin 2 → ℕ} {rS qS : ℕ} (inbS : ∀ a, offS a + szS a ≤ S1024x1024.size a) (heqS : offS = ![rS, qS])
    (a : S1024x1024.Idx → F .f32) (g : S512x1024.Idx → F .bf16)
    (h : ∀ i ∈ ((View.whole cc0_scratch0).slice (Rect.unit (s := S1024x1024) offS szS inbS)).set, ct.okAcc lvl c (i 0).val (i 1).val (a i))
    (hd : (rS + szS 0 ≤ lo 2 c 2 ∨ lo 2 c 2 + 256 ≤ rS) ∨ (qS + szS 1 ≤ 768 ∨ 768 + 256 ≤ qS)) :
    ∀ i ∈ ((View.whole cc0_scratch0).slice (Rect.unit (s := S1024x1024) offS szS inbS)).set, ct.okAcc lvl c (i 0).val (i 1).val (addQ2 c a g i) := by
  unfold addQ2
  exact fr ct c lvl (k0_off30_inb c) (Geo.off30_eq c) _ inbS heqS a h hd

/-- Column block 2: the rows handed on at stage 2, after the stage-1 partner's first piece is added and the sum rounded, are right for the send buffer. -/
theorem stepR2 (laws : Laws ct c YA YB) (a : S1024x1024.Idx → F .f32) (g : S256x1024.Idx → F .bf16)
    (ha : ∀ i ∈ ((View.whole cc0_scratch0).slice (Rect.unit (s := S1024x1024) (k0_off30 c) S256x256.size (k0_off30_inb c))).set, ct.okAcc 1 c (i 0).val (i 1).val (a i))
    (hg : ∀ i ∈ (dst_rs_1_2_0 (peer 2 1 c)).view.set, pRS ct 1 c (sh := S256x1024) i (g i)) :
    ∀ j : S128x256.Idx, ct.okSS 2 c (j 0).val (768 + (j 1).val)
      (k0_pay25 ((Memref.whole cc0_scratch0 : Memref sig .tc .vmem S1024x1024 .f32).view.readAt (Elt F) (RA40 c).toLoadRect (addR2 c a g)) j) := by
  have hb := bit_le_one 2 2 c
  have hpeer : k0_off24 (peer 2 1 c) = ![(1 - bit 2 2 c) * 128, 768] := by
    rw [Geo.off24_eq, bit_peer_succ 2 1 2 c rfl]
  have hY : ∀ j : S128x256.Idx, ct.okSS 1 (peer 2 1 c) ((1 - bit 2 2 c) * half 2 + (j 0).val) (768 + (j 1).val)
      ((Memref.whole cc0_scratch2 : Memref sig .tc .vmem S256x1024 .bf16).view.readAt (Elt F) (Rect.unit (s := S256x1024) (k0_off41 c) S128x256.size (k0_off41_inb c)).toLoadRect g j) := fun j => by
    obtain ⟨y, hy, hP⟩ := SegBCore.load_sub_ok (Val := Elt F) cc0_scratch2 g (fun i v => pRS ct 1 c (sh := S256x1024) i v)
      (k0_off24_inb (peer 2 1 c)) hpeer hg (k0_off41_inb c) (Geo.off41_eq c) (fun a => ⟨Nat.le_refl _, Nat.le_refl _⟩) j
    have hj1 : (j 1).val < 256 := (j 1).isLt
    rw [SegBCore.half_2]
    exact SegBCore.pRS_to_okSS ct 1 2 c rfl y _ _ _ (hy 0) (hy 1) (SegAValP.blk_of_ge (by omega)) hP
  have hA : ∀ i ∈ ((View.whole cc0_scratch0).slice (Rect.unit (s := S1024x1024) (k0_off40 c) S128x256.size (k0_off40_inb c))).set, ct.okAcc 1 c (i 0).val (i 1).val (a i) := fun i hi => ha i (by
    have hm := (Plumb.mem_slice_unit_whole cc0_scratch0 (k0_off40_inb c) (Geo.off40_eq c) i).mp hi
    exact (Plumb.mem_slice_unit_whole cc0_scratch0 (k0_off30_inb c) (Geo.off30_eq c) i).mpr (Fin.forall_fin_two.mpr
      ⟨by have h' : lo 2 c 2 + (1 - bit 2 2 c) * 128 ≤ (i 0).val ∧ (i 0).val < lo 2 c 2 + (1 - bit 2 2 c) * 128 + 128 := hm 0
          show lo 2 c 2 ≤ (i 0).val ∧ (i 0).val < lo 2 c 2 + 256
          omega, hm 1⟩))
  unfold addR2
  exact SegBCore.ss_core ct c YA YB laws 1 2 (by decide) rfl 2 (k0_off40_inb c)
    ((Geo.off40_eq c).trans (by show _ = ![lo 2 c 2 + (1 - bit 2 2 c) * half 2, 768]; rw [SegBCore.half_2]))
    (fun q h1 h2 => SegAValP.blk_of_ge (by have h2' : q < 768 + 256 := h2; omega)) a hA _ hY _
    (fun j => (PayPoint.pay24_at _ j).trans (PayPoint.pay23_at _ _ j)) _ (fun j => PayPoint.pay25_at _ j)

theorem frR2 (lvl : ℕ) {offS szS : Fin 2 → ℕ} {rS qS : ℕ} (inbS : ∀ a, offS a + szS a ≤ S1024x1024.size a) (heqS : offS = ![rS, qS])
    (a : S1024x1024.Idx → F .f32) (g : S256x1024.Idx → F .bf16)
    (h : ∀ i ∈ ((View.whole cc0_scratch0).slice (Rect.unit (s := S1024x1024) offS szS inbS)).set, ct.okAcc lvl c (i 0).val (i 1).val (a i))
    (hd : (rS + szS 0 ≤ lo 2 c 2 + (1 - bit 2 2 c) * 128 ∨ lo 2 c 2 + (1 - bit 2 2 c) * 128 + 128 ≤ rS) ∨ (qS + szS 1 ≤ 768 ∨ 768 + 256 ≤ qS)) :
    ∀ i ∈ ((View.whole cc0_scratch0).slice (Rect.unit (s := S1024x1024) offS szS inbS)).set, ct.okAcc lvl c (i 0).val (i 1).val (addR2 c a g i) := by
  unfold addR2
  exact fr ct c lvl (k0_off40_inb c) (Geo.off40_eq c) _ inbS heqS a h hd

/-! ## What the pieces sent carry, and what the kept rows hold -/

/-- What lands at the partner of the second stage, column block 0, piece 0, is right under the contract. -/
theorem sent_1_0_0 (laws : Laws ct c YA YB) (fa : Buf (Elt F) ((c : Thread nD τ).loc cc0_scratch0)) (g000 : Buf (Elt F) ((c : Thread nD τ).loc cc0_scratch1)) (g7 : Buf (Elt F) ((c : Thread nD τ).loc cc0_scratch7))
    (fd : Buf (Elt F) ((dst_rs_1_0_0 c).view.loc ((peer 0 1 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) :
    ∀ i ∈ (dst_rs_1_0_0 c).view.set, pRS ct 1 (peer 0 1 c) (sh := S256x1024) i
      (((dst_rs_1_0_0 c).view.write (Elt F) fd ((src_rs_1_0_0 c).view.read (Elt F) (sendP0 c (dcc1 c fa g000) g7)) Finset.univ) i) := by
  have hA : ∀ i ∈ ((View.whole cc0_scratch0).slice (Rect.unit (s := S1024x1024) (k0_off10 c) S512x384.size (k0_off10_inb c))).set, ct.okAcc 0 c (i 0).val (i 1).val ((fa) i) := by
    exact hfa.1
  have hcore := stepP0 ct c YA YB laws _ _ hA hg000
  refine SegBValP.landed1 ct c 0 (k0_off16_inb c) (Geo.off16_eq c)
    (fun q h1 h2 => SegAValP.blk_of_lt (by have h2' : q < 0 + 384 := h2; omega)) (sendP0 c (dcc1 c fa g000) g7) ?_ fd
  intro i hi
  unfold sendP0 dcc1
  refine Plumb.write_unit_whole_forall (Val := Elt F) cc0_scratch7 g7 inb_S256x1024_S256x384_0_0 _ rfl
    (fun i v => ct.okSS 1 c (i 0).val (i 1).val v) ?_ i (Fin.forall_fin_two.mpr
      ⟨⟨Nat.zero_le _, by have h' : (i 0).val < 256 := (i 0).isLt; show (i 0).val < 0 + 256; omega⟩, hi 1⟩)
  intro j i' hi'
  have e0 : (i' 0).val = (j 0).val := (hi' 0).trans (Nat.zero_add _)
  have e1 : (i' 1).val = 0 + (j 1).val := hi' 1
  show ct.okSS 1 c (i' 0).val (i' 1).val _
  rw [e0, e1]
  exact hcore j

/-- What lands at the partner of the second stage, column block 0, piece 1, is right under the contract. -/
theorem sent_1_0_1 (laws : Laws ct c YA YB) (fa : Buf (Elt F) ((c : Thread nD τ).loc cc0_scratch0)) (g000 : Buf (Elt F) ((c : Thread nD τ).loc cc0_scratch1)) (g7 : Buf (Elt F) ((c : Thread nD τ).loc cc0_scratch7))
    (fd : Buf (Elt F) ((dst_rs_1_0_1 c).view.loc ((peer 0 1 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) :
    ∀ i ∈ (dst_rs_1_0_1 c).view.set, pRS ct 1 (peer 0 1 c) (sh := S256x1024) i
      (((dst_rs_1_0_1 c).view.write (Elt F) fd ((src_rs_1_0_1 c).view.read (Elt F) (sendP0 c (dcc1 c fa g000) g7)) Finset.univ) i) := by
  have hA : ∀ i ∈ ((View.whole cc0_scratch0).slice (Rect.unit (s := S1024x1024) (k0_off10 c) S512x384.size (k0_off10_inb c))).set, ct.okAcc 0 c (i 0).val (i 1).val ((fa) i) := by
    exact hfa.1
  have hcore := stepP0 ct c YA YB laws _ _ hA hg000
  refine SegBValP.landed1 ct c 0 (k0_off17_inb c) (Geo.off17_eq c)
    (fun q h1 h2 => SegAValP.blk_of_lt (by have h2' : q < 0 + 384 := h2; omega)) (sendP0 c (dcc1 c fa g000) g7) ?_ fd
  intro i hi
  unfold sendP0 dcc1
  refine Plumb.write_unit_whole_forall (Val := Elt F) cc0_scratch7 g7 inb_S256x1024_S256x384_0_0 _ rfl
    (fun i v => ct.okSS 1 c (i 0).val (i 1).val v) ?_ i (Fin.forall_fin_two.mpr
      ⟨⟨Nat.zero_le _, by have h' : (i 0).val < 256 := (i 0).isLt; show (i 0).val < 0 + 256; omega⟩, hi 1⟩)
  intro j i' hi'
  have e0 : (i' 0).val = (j 0).val := (hi' 0).trans (Nat.zero_add _)
  have e1 : (i' 1).val = 0 + (j 1).val := hi' 1
  show ct.okSS 1 c (i' 0).val (i' 1).val _
  rw [e0, e1]
  exact hcore j

/-- What lands at the partner of the second stage, column block 1, piece 0, is right under the contract. -/
theorem sent_1_1_0 (laws : Laws ct c YA YB) (fa : Buf (Elt F) ((c : Thread nD τ).loc cc0_scratch0)) (g000 g010 : Buf (Elt F) ((c : Thread nD τ).loc cc0_scratch1)) (g7 : Buf (Elt F) ((c : Thread nD τ).loc cc0_scratch7))
    (fd : Buf (Elt F) ((dst_rs_1_1_0 c).view.loc ((peer 1 1 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) :
    ∀ i ∈ (dst_rs_1_1_0 c).view.set, pRS ct 1 (peer 1 1 c) (sh := S256x1024) i
      (((dst_rs_1_1_0 c).view.write (Elt F) fd ((src_rs_1_1_0 c).view.read (Elt F) (sendP1 c (dcc2 c fa g000 g010) g7)) Finset.univ) i) := by
  have hA : ∀ i ∈ ((View.whole cc0_scratch0).slice (Rect.unit (s := S1024x1024) (k0_off12 c) S512x384.size (k0_off12_inb c))).set, ct.okAcc 0 c (i 0).val (i 1).val ((dcc1 c fa g000) i) := by
    unfold dcc1
    exact frP0 ct c 0 (k0_off12_inb c) (Geo.off12_eq c) _ _ (hfa.2.1) (Or.inr (by show 384 + 384 ≤ 0 ∨ 0 + 384 ≤ 384; omega))
  have hcore := stepP1 ct c YA YB laws _ _ hA hg010
  refine SegBValP.landed1 ct c 1 (k0_off20_inb c) (Geo.off20_eq c)
    (fun q h1 h2 => SegAValP.blk_of_mid (by have h2' : q < 384 + 384 := h2; omega) (by have h2' : q < 384 + 384 := h2; omega)) (sendP1 c (dcc2 c fa g000 g010) g7) ?_ fd
  intro i hi
  unfold sendP1 dcc2
  refine Plumb.write_unit_whole_forall (Val := Elt F) cc0_scratch7 g7 inb_S256x1024_S256x384_0_384 _ rfl
    (fun i v => ct.okSS 1 c (i 0).val (i 1).val v) ?_ i (Fin.forall_fin_two.mpr
      ⟨⟨Nat.zero_le _, by have h' : (i 0).val < 256 := (i 0).isLt; show (i 0).val < 0 + 256; omega⟩, hi 1⟩)
  intro j i' hi'
  have e0 : (i' 0).val = (j 0).val := (hi' 0).trans (Nat.zero_add _)
  have e1 : (i' 1).val = 384 + (j 1).val := hi' 1
  show ct.okSS 1 c (i' 0).val (i' 1).val _
  rw [e0, e1]
  exact hcore j

/-- What lands at the partner of the second stage, column block 1, piece 1, is right under the contract. -/
theorem sent_1_1_1 (laws : Laws ct c YA YB) (fa : Buf (Elt F) ((c : Thread nD τ).loc cc0_scratch0)) (g000 g010 : Buf (Elt F) ((c : Thread nD τ).loc cc0_scratch1)) (g7 : Buf (Elt F) ((c : Thread nD τ).loc cc0_scratch7))
    (fd : Buf (Elt F) ((dst_rs_1_1_1 c).view.loc ((peer 1 1 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) :
    ∀ i ∈ (dst_rs_1_1_1 c).view.set, pRS ct 1 (peer 1 1 c) (sh := S256x1024) i
      (((dst_rs_1_1_1 c).view.write (Elt F) fd ((src_rs_1_1_1 c).view.read (Elt F) (sendP1 c (dcc2 c fa g000 g010) g7)) Finset.univ) i) := by
  have hA : ∀ i ∈ ((View.whole cc0_scratch0).slice (Rect.unit (s := S1024x1024) (k0_off12 c) S512x384.size (k0_off12_inb c))).set, ct.okAcc 0 c (i 0).val (i 1).val ((dcc1 c fa g000) i) := by
    unfold dcc1
    exact frP0 ct c 0 (k0_off12_inb c) (Geo.off12_eq c) _ _ (hfa.2.1) (Or.inr (by show 384 + 384 ≤ 0 ∨ 0 + 384 ≤ 384; omega))
  have hcore := stepP1 ct c YA YB laws _ _ hA hg010
  refine SegBValP.landed1 ct c 1 (k0_off21_inb c) (Geo.off21_eq c)
    (fun q h1 h2 => SegAValP.blk_of_mid (by have h2' : q < 384 + 384 := h2; omega) (by have h2' : q < 384 + 384 := h2; omega)) (sendP1 c (dcc2 c fa g000 g010) g7) ?_ fd
  intro i hi
  unfold sendP1 dcc2
  refine Plumb.write_unit_whole_forall (Val := Elt F) cc0_scratch7 g7 inb_S256x1024_S256x384_0_384 _ rfl
    (fun i v => ct.okSS 1 c (i 0).val (i 1).val v) ?_ i (Fin.forall_fin_two.mpr
      ⟨⟨Nat.zero_le _, by have h' : (i 0).val < 256 := (i 0).isLt; show (i 0).val < 0 + 256; omega⟩, hi 1⟩)
  intro j i' hi'
  have e0 : (i' 0).val = (j 0).val := (hi' 0).trans (Nat.zero_add _)
  have e1 : (i' 1).val = 384 + (j 1).val := hi' 1
  show ct.okSS 1 c (i' 0).val (i' 1).val _
  rw [e0, e1]
  exact hcore j

/-- What lands at the partner of the second stage, column block 2, piece 0, is right under the contract. -/
theorem sent_1_2_0 (laws : Laws ct c YA YB) (fa : Buf (Elt F) ((c : Thread nD τ).loc cc0_scratch0)) (g000 g010 g020 : Buf (Elt F) ((c : Thread nD τ).loc cc0_scratch1)) (g7 : Buf (Elt F) ((c : Thread nD τ).loc cc0_scratch7))
    (fd : Buf (Elt F) ((dst_rs_1_2_0 c).view.loc ((peer 2 1 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) :
    ∀ i ∈ (dst_rs_1_2_0 c).view.set, pRS ct 1 (peer 2 1 c) (sh := S256x1024) i
      (((dst_rs_1_2_0 c).view.write (Elt F) fd ((src_rs_1_2_0 c).view.read (Elt F) (sendP2 c (dcc3 c fa g000 g010 g020) g7)) Finset.univ) i) := by
  have hA : ∀ i ∈ ((View.whole cc0_scratch0).slice (Rect.unit (s := S1024x1024) (k0_off13 c) S512x256.size (k0_off13_inb c))).set, ct.okAcc 0 c (i 0).val (i 1).val ((dcc2 c fa g000 g010) i) := by
    unfold dcc2 dcc1
    exact frP1 ct c 0 (k0_off13_inb c) (Geo.off13_eq c) _ _ (frP0 ct c 0 (k0_off13_inb c) (Geo.off13_eq c) _ _ (hfa.2.2) (Or.inr (by show 768 + 256 ≤ 0 ∨ 0 + 384 ≤ 768; omega))) (Or.inr (by show 768 + 256 ≤ 384 ∨ 384 + 384 ≤ 768; omega))
  have hcore := stepP2 ct c YA YB laws _ _ hA hg020
  refine SegBValP.landed1 ct c 2 (k0_off24_inb c) (Geo.off24_eq c)
    (fun q h1 h2 => SegAValP.blk_of_ge (by have h2' : q < 768 + 256 := h2; omega)) (sendP2 c (dcc3 c fa g000 g010 g020) g7) ?_ fd
  intro i hi
  unfold sendP2 dcc3
  refine Plumb.write_unit_whole_forall (Val := Elt F) cc0_scratch7 g7 inb_S256x1024_S256x256_0_768 _ rfl
    (fun i v => ct.okSS 1 c (i 0).val (i 1).val v) ?_ i (Fin.forall_fin_two.mpr
      ⟨⟨Nat.zero_le _, by have h' : (i 0).val < 256 := (i 0).isLt; show (i 0).val < 0 + 256; omega⟩, hi 1⟩)
  intro j i' hi'
  have e0 : (i' 0).val = (j 0).val := (hi' 0).trans (Nat.zero_add _)
  have e1 : (i' 1).val = 768 + (j 1).val := hi' 1
  show ct.okSS 1 c (i' 0).val (i' 1).val _
  rw [e0, e1]
  exact hcore j

/-- What lands at the partner of the second stage, column block 2, piece 1, is right under the contract. -/
theorem sent_1_2_1 (laws : Laws ct c YA YB) (fa : Buf (Elt F) ((c : Thread nD τ).loc cc0_scratch0)) (g000 g010 g020 : Buf (Elt F) ((c : Thread nD τ).loc cc0_scratch1)) (g7 : Buf (Elt F) ((c : Thread nD τ).loc cc0_scratch7))
    (fd : Buf (Elt F) ((dst_rs_1_2_1 c).view.loc ((peer 2 1 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) :
    ∀ i ∈ (dst_rs_1_2_1 c).view.set, pRS ct 1 (peer 2 1 c) (sh := S256x1024) i
      (((dst_rs_1_2_1 c).view.write (Elt F) fd ((src_rs_1_2_1 c).view.read (Elt F) (sendP2 c (dcc3 c fa g000 g010 g020) g7)) Finset.univ) i) := by
  have hA : ∀ i ∈ ((View.whole cc0_scratch0).slice (Rect.unit (s := S1024x1024) (k0_off13 c) S512x256.size (k0_off13_inb c))).set, ct.okAcc 0 c (i 0).val (i 1).val ((dcc2 c fa g000 g010) i) := by
    unfold dcc2 dcc1
    exact frP1 ct c 0 (k0_off13_inb c) (Geo.off13_eq c) _ _ (frP0 ct c 0 (k0_off13_inb c) (Geo.off13_eq c) _ _ (hfa.2.2) (Or.inr (by show 768 + 256 ≤ 0 ∨ 0 + 384 ≤ 768; omega))) (Or.inr (by show 768 + 256 ≤ 384 ∨ 384 + 384 ≤ 768; omega))
  have hcore := stepP2 ct c YA YB laws _ _ hA hg020
  refine SegBValP.landed1 ct c 2 (k0_off25_inb c) (Geo.off25_eq c)
    (fun q h1 h2 => SegAValP.blk_of_ge (by have h2' : q < 768 + 256 := h2; omega)) (sendP2 c (dcc3 c fa g000 g010 g020) g7) ?_ fd
  intro i hi
  unfold sendP2 dcc3
  refine Plumb.write_unit_whole_forall (Val := Elt F) cc0_scratch7 g7 inb_S256x1024_S256x256_0_768 _ rfl
    (fun i v => ct.okSS 1 c (i 0).val (i 1).val v) ?_ i (Fin.forall_fin_two.mpr
      ⟨⟨Nat.zero_le _, by have h' : (i 0).val < 256 := (i 0).isLt; show (i 0).val < 0 + 256; omega⟩, hi 1⟩)
  intro j i' hi'
  have e0 : (i' 0).val = (j 0).val := (hi' 0).trans (Nat.zero_add _)
  have e1 : (i' 1).val = 768 + (j 1).val := hi' 1
  show ct.okSS 1 c (i' 0).val (i' 1).val _
  rw [e0, e1]
  exact hcore j

/-- What lands at the partner of the third stage, column block 0, piece 0, is right under the contract. -/
theorem sent_2_0_0 (laws : Laws ct c YA YB) (fa : Buf (Elt F) ((c : Thread nD τ).loc cc0_scratch0)) (g000 g010 g020 g001 g011 g021 : Buf (Elt F) ((c : Thread nD τ).loc cc0_scratch1)) (g100 : Buf (Elt F) ((c : Thread nD τ).loc cc0_scratch2)) (g8 : Buf (Elt F) ((c : Thread nD τ).loc cc0_scratch8))
    (fd : Buf (Elt F) ((dst_rs_2_0_0 c).view.loc ((peer 0 2 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) :
    ∀ i ∈ (dst_rs_2_0_0 c).view.set, pRS ct 2 (peer 0 2 c) (sh := S128x1024) i
      (((dst_rs_2_0_0 c).view.write (Elt F) fd ((src_rs_2_0_0 c).view.read (Elt F) (sendR0 c (dcc7 c fa g000 g010 g020 g001 g011 g021 g100) g8)) Finset.univ) i) := by
  have hb := bit_le_one 0 1 c
  have hl := SegBCore.lo_2 0 c
  have hb2 := bit_le_one 0 2 c
  have hl3 := SegBCore.lo_3 0 c
  have h0 : ∀ i ∈ ((View.whole cc0_scratch0).slice (Rect.unit (s := S1024x1024) (k0_off26 c) S256x384.size (k0_off26_inb c))).set, ct.okAcc 0 c (i 0).val (i 1).val (fa i) := fun i hi => hfa.1 i (by
    have hm := (Plumb.mem_slice_unit_whole cc0_scratch0 (k0_off26_inb c) (Geo.off26_eq c) i).mp hi
    exact (Plumb.mem_slice_unit_whole cc0_scratch0 (k0_off10_inb c) (Geo.off10_eq c) i).mpr (Fin.forall_fin_two.mpr
      ⟨by have h' : lo 0 c 2 ≤ (i 0).val ∧ (i 0).val < lo 0 c 2 + 256 := hm 0
          show lo 0 c 1 ≤ (i 0).val ∧ (i 0).val < lo 0 c 1 + 512
          omega, hm 1⟩))
  have h3 : ∀ i ∈ ((View.whole cc0_scratch0).slice (Rect.unit (s := S1024x1024) (k0_off26 c) S256x384.size (k0_off26_inb c))).set, ct.okAcc 0 c (i 0).val (i 1).val (dcc3 c fa g000 g010 g020 i) := by
    unfold dcc3 dcc2 dcc1
    exact frP2 ct c 0 (k0_off26_inb c) (Geo.off26_eq c) _ _ (frP1 ct c 0 (k0_off26_inb c) (Geo.off26_eq c) _ _ (frP0 ct c 0 (k0_off26_inb c) (Geo.off26_eq c) _ _ (h0) (Or.inl (by show lo 0 c 2 + 256 ≤ lo 0 c 1 + (1 - bit 0 1 c) * 256 ∨ lo 0 c 1 + (1 - bit 0 1 c) * 256 + 256 ≤ lo 0 c 2; omega))) (Or.inr (by show 0 + 384 ≤ 384 ∨ 384 + 384 ≤ 0; omega))) (Or.inr (by show 0 + 384 ≤ 768 ∨ 768 + 256 ≤ 0; omega))
  have h6 : ∀ i ∈ ((View.whole cc0_scratch0).slice (Rect.unit (s := S1024x1024) (k0_off26 c) S256x384.size (k0_off26_inb c))).set, ct.okAcc 1 c (i 0).val (i 1).val (dcc6 c fa g000 g010 g020 g001 g011 g021 i) := by
    unfold dcc6 dcc5 dcc4
    exact frQ2 ct c 1 (k0_off26_inb c) (Geo.off26_eq c) _ _ (frQ1 ct c 1 (k0_off26_inb c) (Geo.off26_eq c) _ _ (stepQ0 ct c YA YB laws _ _ (h3) hg001) (Or.inr (by show 0 + 384 ≤ 384 ∨ 384 + 384 ≤ 0; omega))) (Or.inr (by show 0 + 384 ≤ 768 ∨ 768 + 256 ≤ 0; omega))
  have hA : ∀ i ∈ ((View.whole cc0_scratch0).slice (Rect.unit (s := S1024x1024) (k0_off26 c) S256x384.size (k0_off26_inb c))).set, ct.okAcc 1 c (i 0).val (i 1).val ((dcc6 c fa g000 g010 g020 g001 g011 g021) i) := by
    exact h6
  have hcore := stepR0 ct c YA YB laws _ _ hA hg100
  refine SegBValP.landed2 ct c 0 (k0_off34_inb c) (Geo.off34_eq c)
    (fun q h1 h2 => SegAValP.blk_of_lt (by have h2' : q < 0 + 384 := h2; omega)) (sendR0 c (dcc7 c fa g000 g010 g020 g001 g011 g021 g100) g8) ?_ fd
  intro i hi
  unfold sendR0 dcc7
  refine Plumb.write_unit_whole_forall (Val := Elt F) cc0_scratch8 g8 inb_S128x1024_S128x384_0_0 _ rfl
    (fun i v => ct.okSS 2 c (i 0).val (i 1).val v) ?_ i (Fin.forall_fin_two.mpr
      ⟨⟨Nat.zero_le _, by have h' : (i 0).val < 128 := (i 0).isLt; show (i 0).val < 0 + 128; omega⟩, hi 1⟩)
  intro j i' hi'
  have e0 : (i' 0).val = (j 0).val := (hi' 0).trans (Nat.zero_add _)
  have e1 : (i' 1).val = 0 + (j 1).val := hi' 1
  show ct.okSS 2 c (i' 0).val (i' 1).val _
  rw [e0, e1]
  exact hcore j

/-- What lands at the partner of the third stage, column block 0, piece 1, is right under the contract. -/
theorem sent_2_0_1 (laws : Laws ct c YA YB) (fa : Buf (Elt F) ((c : Thread nD τ).loc cc0_scratch0)) (g000 g010 g020 g001 g011 g021 : Buf (Elt F) ((c : Thread nD τ).loc cc0_scratch1)) (g100 : Buf (Elt F) ((c : Thread nD τ).loc cc0_scratch2)) (g8 : Buf (Elt F) ((c : Thread nD τ).loc cc0_scratch8))
    (fd : Buf (Elt F) ((dst_rs_2_0_1 c).view.loc ((peer 0 2 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) :
    ∀ i ∈ (dst_rs_2_0_1 c).view.set, pRS ct 2 (peer 0 2 c) (sh := S128x1024) i
      (((dst_rs_2_0_1 c).view.write (Elt F) fd ((src_rs_2_0_1 c).view.read (Elt F) (sendR0 c (dcc7 c fa g000 g010 g020 g001 g011 g021 g100) g8)) Finset.univ) i) := by
  have hb := bit_le_one 0 1 c
  have hl := SegBCore.lo_2 0 c
  have hb2 := bit_le_one 0 2 c
  have hl3 := SegBCore.lo_3 0 c
  have h0 : ∀ i ∈ ((View.whole cc0_scratch0).slice (Rect.unit (s := S1024x1024) (k0_off26 c) S256x384.size (k0_off26_inb c))).set, ct.okAcc 0 c (i 0).val (i 1).val (fa i) := fun i hi => hfa.1 i (by
    have hm := (Plumb.mem_slice_unit_whole cc0_scratch0 (k0_off26_inb c) (Geo.off26_eq c) i).mp hi
    exact (Plumb.mem_slice_unit_whole cc0_scratch0 (k0_off10_inb c) (Geo.off10_eq c) i).mpr (Fin.forall_fin_two.mpr
      ⟨by have h' : lo 0 c 2 ≤ (i 0).val ∧ (i 0).val < lo 0 c 2 + 256 := hm 0
          show lo 0 c 1 ≤ (i 0).val ∧ (i 0).val < lo 0 c 1 + 512
          omega, hm 1⟩))
  have h3 : ∀ i ∈ ((View.whole cc0_scratch0).slice (Rect.unit (s := S1024x1024) (k0_off26 c) S256x384.size (k0_off26_inb c))).set, ct.okAcc 0 c (i 0).val (i 1).val (dcc3 c fa g000 g010 g020 i) := by
    unfold dcc3 dcc2 dcc1
    exact frP2 ct c 0 (k0_off26_inb c) (Geo.off26_eq c) _ _ (frP1 ct c 0 (k0_off26_inb c) (Geo.off26_eq c) _ _ (frP0 ct c 0 (k0_off26_inb c) (Geo.off26_eq c) _ _ (h0) (Or.inl (by show lo 0 c 2 + 256 ≤ lo 0 c 1 + (1 - bit 0 1 c) * 256 ∨ lo 0 c 1 + (1 - bit 0 1 c) * 256 + 256 ≤ lo 0 c 2; omega))) (Or.inr (by show 0 + 384 ≤ 384 ∨ 384 + 384 ≤ 0; omega))) (Or.inr (by show 0 + 384 ≤ 768 ∨ 768 + 256 ≤ 0; omega))
  have h6 : ∀ i ∈ ((View.whole cc0_scratch0).slice (Rect.unit (s := S1024x1024) (k0_off26 c) S256x384.size (k0_off26_inb c))).set, ct.okAcc 1 c (i 0).val (i 1).val (dcc6 c fa g000 g010 g020 g001 g011 g021 i) := by
    unfold dcc6 dcc5 dcc4
    exact frQ2 ct c 1 (k0_off26_inb c) (Geo.off26_eq c) _ _ (frQ1 ct c 1 (k0_off26_inb c) (Geo.off26_eq c) _ _ (stepQ0 ct c YA YB laws _ _ (h3) hg001) (Or.inr (by show 0 + 384 ≤ 384 ∨ 384 + 384 ≤ 0; omega))) (Or.inr (by show 0 + 384 ≤ 768 ∨ 768 + 256 ≤ 0; omega))
  have hA : ∀ i ∈ ((View.whole cc0_scratch0).slice (Rect.unit (s := S1024x1024) (k0_off26 c) S256x384.size (k0_off26_inb c))).set, ct.okAcc 1 c (i 0).val (i 1).val ((dcc6 c fa g000 g010 g020 g001 g011 g021) i) := by
    exact h6
  have hcore := stepR0 ct c YA YB laws _ _ hA hg100
  refine SegBValP.landed2 ct c 0 (k0_off35_inb c) (Geo.off35_eq c)
    (fun q h1 h2 => SegAValP.blk_of_lt (by have h2' : q < 0 + 384 := h2; omega)) (sendR0 c (dcc7 c fa g000 g010 g020 g001 g011 g021 g100) g8) ?_ fd
  intro i hi
  unfold sendR0 dcc7
  refine Plumb.write_unit_whole_forall (Val := Elt F) cc0_scratch8 g8 inb_S128x1024_S128x384_0_0 _ rfl
    (fun i v => ct.okSS 2 c (i 0).val (i 1).val v) ?_ i (Fin.forall_fin_two.mpr
      ⟨⟨Nat.zero_le _, by have h' : (i 0).val < 128 := (i 0).isLt; show (i 0).val < 0 + 128; omega⟩, hi 1⟩)
  intro j i' hi'
  have e0 : (i' 0).val = (j 0).val := (hi' 0).trans (Nat.zero_add _)
  have e1 : (i' 1).val = 0 + (j 1).val := hi' 1
  show ct.okSS 2 c (i' 0).val (i' 1).val _
  rw [e0, e1]
  exact hcore j

/-- What lands at the partner of the third stage, column block 1, piece 0, is right under the contract. -/
theorem sent_2_1_0 (laws : Laws ct c YA YB) (fa : Buf (Elt F) ((c : Thread nD τ).loc cc0_scratch0)) (g000 g010 g020 g001 g011 g021 : Buf (Elt F) ((c : Thread nD τ).loc cc0_scratch1)) (g100 g110 : Buf (Elt F) ((c : Thread nD τ).loc cc0_scratch2)) (g8 : Buf (Elt F) ((c : Thread nD τ).loc cc0_scratch8))
    (fd : Buf (Elt F) ((dst_rs_2_1_0 c).view.loc ((peer 1 2 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) (hg110 : ∀ i ∈ (dst_rs_1_1_0 (peer 1 1 c)).view.set, pRS ct 1 c (sh := S256x1024) i (g110 i)) :
    ∀ i ∈ (dst_rs_2_1_0 c).view.set, pRS ct 2 (peer 1 2 c) (sh := S128x1024) i
      (((dst_rs_2_1_0 c).view.write (Elt F) fd ((src_rs_2_1_0 c).view.read (Elt F) (sendR1 c (dcc8 c fa g000 g010 g020 g001 g011 g021 g100 g110) g8)) Finset.univ) i) := by
  have hb := bit_le_one 1 1 c
  have hl := SegBCore.lo_2 1 c
  have hb2 := bit_le_one 1 2 c
  have hl3 := SegBCore.lo_3 1 c
  have h0 : ∀ i ∈ ((View.whole cc0_scratch0).slice (Rect.unit (s := S1024x1024) (k0_off28 c) S256x384.size (k0_off28_inb c))).set, ct.okAcc 0 c (i 0).val (i 1).val (fa i) := fun i hi => hfa.2.1 i (by
    have hm := (Plumb.mem_slice_unit_whole cc0_scratch0 (k0_off28_inb c) (Geo.off28_eq c) i).mp hi
    exact (Plumb.mem_slice_unit_whole cc0_scratch0 (k0_off12_inb c) (Geo.off12_eq c) i).mpr (Fin.forall_fin_two.mpr
      ⟨by have h' : lo 1 c 2 ≤ (i 0).val ∧ (i 0).val < lo 1 c 2 + 256 := hm 0
          show lo 1 c 1 ≤ (i 0).val ∧ (i 0).val < lo 1 c 1 + 512
          omega, hm 1⟩))
  have h3 : ∀ i ∈ ((View.whole cc0_scratch0).slice (Rect.unit (s := S1024x1024) (k0_off28 c) S256x384.size (k0_off28_inb c))).set, ct.okAcc 0 c (i 0).val (i 1).val (dcc3 c fa g000 g010 g020 i) := by
    unfold dcc3 dcc2 dcc1
    exact frP2 ct c 0 (k0_off28_inb c) (Geo.off28_eq c) _ _ (frP1 ct c 0 (k0_off28_inb c) (Geo.off28_eq c) _ _ (frP0 ct c 0 (k0_off28_inb c) (Geo.off28_eq c) _ _ (h0) (Or.inr (by show 384 + 384 ≤ 0 ∨ 0 + 384 ≤ 384; omega))) (Or.inl (by show lo 1 c 2 + 256 ≤ lo 1 c 1 + (1 - bit 1 1 c) * 256 ∨ lo 1 c 1 + (1 - bit 1 1 c) * 256 + 256 ≤ lo 1 c 2; omega))) (Or.inr (by show 384 + 384 ≤ 768 ∨ 768 + 256 ≤ 384; omega))
  have h6 : ∀ i ∈ ((View.whole cc0_scratch0).slice (Rect.unit (s := S1024x1024) (k0_off28 c) S256x384.size (k0_off28_inb c))).set, ct.okAcc 1 c (i 0).val (i 1).val (dcc6 c fa g000 g010 g020 g001 g011 g021 i) := by
    unfold dcc6 dcc5 dcc4
    exact frQ2 ct c 1 (k0_off28_inb c) (Geo.off28_eq c) _ _ (stepQ1 ct c YA YB laws _ _ (frQ0 ct c 0 (k0_off28_inb c) (Geo.off28_eq c) _ _ (h3) (Or.inr (by show 384 + 384 ≤ 0 ∨ 0 + 384 ≤ 384; omega))) hg011) (Or.inr (by show 384 + 384 ≤ 768 ∨ 768 + 256 ≤ 384; omega))
  have hA : ∀ i ∈ ((View.whole cc0_scratch0).slice (Rect.unit (s := S1024x1024) (k0_off28 c) S256x384.size (k0_off28_inb c))).set, ct.okAcc 1 c (i 0).val (i 1).val ((dcc7 c fa g000 g010 g020 g001 g011 g021 g100) i) := by
    unfold dcc7
    exact frR0 ct c 1 (k0_off28_inb c) (Geo.off28_eq c) _ _ (h6) (Or.inr (by show 384 + 384 ≤ 0 ∨ 0 + 384 ≤ 384; omega))
  have hcore := stepR1 ct c YA YB laws _ _ hA hg110
  refine SegBValP.landed2 ct c 1 (k0_off38_inb c) (Geo.off38_eq c)
    (fun q h1 h2 => SegAValP.blk_of_mid (by have h2' : q < 384 + 384 := h2; omega) (by have h2' : q < 384 + 384 := h2; omega)) (sendR1 c (dcc8 c fa g000 g010 g020 g001 g011 g021 g100 g110) g8) ?_ fd
  intro i hi
  unfold sendR1 dcc8
  refine Plumb.write_unit_whole_forall (Val := Elt F) cc0_scratch8 g8 inb_S128x1024_S128x384_0_384 _ rfl
    (fun i v => ct.okSS 2 c (i 0).val (i 1).val v) ?_ i (Fin.forall_fin_two.mpr
      ⟨⟨Nat.zero_le _, by have h' : (i 0).val < 128 := (i 0).isLt; show (i 0).val < 0 + 128; omega⟩, hi 1⟩)
  intro j i' hi'
  have e0 : (i' 0).val = (j 0).val := (hi' 0).trans (Nat.zero_add _)
  have e1 : (i' 1).val = 384 + (j 1).val := hi' 1
  show ct.okSS 2 c (i' 0).val (i' 1).val _
  rw [e0, e1]
  exact hcore j

/-- What lands at the partner of the third stage, column block 1, piece 1, is right under the contract. -/
theorem sent_2_1_1 (laws : Laws ct c YA YB) (fa : Buf (Elt F) ((c : Thread nD τ).loc cc0_scratch0)) (g000 g010 g020 g001 g011 g021 : Buf (Elt F) ((c : Thread nD τ).loc cc0_scratch1)) (g100 g110 : Buf (Elt F) ((c : Thread nD τ).loc cc0_scratch2)) (g8 : Buf (Elt F) ((c : Thread nD τ).loc cc0_scratch8))
    (fd : Buf (Elt F) ((dst_rs_2_1_1 c).view.loc ((peer 1 2 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) (hg110 : ∀ i ∈ (dst_rs_1_1_0 (peer 1 1 c)).view.set, pRS ct 1 c (sh := S256x1024) i (g110 i)) :
    ∀ i ∈ (dst_rs_2_1_1 c).view.set, pRS ct 2 (peer 1 2 c) (sh := S128x1024) i
      (((dst_rs_2_1_1 c).view.write (Elt F) fd ((src_rs_2_1_1 c).view.read (Elt F) (sendR1 c (dcc8 c fa g000 g010 g020 g001 g011 g021 g100 g110) g8)) Finset.univ) i) := by
  have hb := bit_le_one 1 1 c
  have hl := SegBCore.lo_2 1 c
  have hb2 := bit_le_one 1 2 c
  have hl3 := SegBCore.lo_3 1 c
  have h0 : ∀ i ∈ ((View.whole cc0_scratch0).slice (Rect.unit (s := S1024x1024) (k0_off28 c) S256x384.size (k0_off28_inb c))).set, ct.okAcc 0 c (i 0).val (i 1).val (fa i) := fun i hi => hfa.2.1 i (by
    have hm := (Plumb.mem_slice_unit_whole cc0_scratch0 (k0_off28_inb c) (Geo.off28_eq c) i).mp hi
    exact (Plumb.mem_slice_unit_whole cc0_scratch0 (k0_off12_inb c) (Geo.off12_eq c) i).mpr (Fin.forall_fin_two.mpr
      ⟨by have h' : lo 1 c 2 ≤ (i 0).val ∧ (i 0).val < lo 1 c 2 + 256 := hm 0
          show lo 1 c 1 ≤ (i 0).val ∧ (i 0).val < lo 1 c 1 + 512
          omega, hm 1⟩))
  have h3 : ∀ i ∈ ((View.whole cc0_scratch0).slice (Rect.unit (s := S1024x1024) (k0_off28 c) S256x384.size (k0_off28_inb c))).set, ct.okAcc 0 c (i 0).val (i 1).val (dcc3 c fa g000 g010 g020 i) := by
    unfold dcc3 dcc2 dcc1
    exact frP2 ct c 0 (k0_off28_inb c) (Geo.off28_eq c) _ _ (frP1 ct c 0 (k0_off28_inb c) (Geo.off28_eq c) _ _ (frP0 ct c 0 (k0_off28_inb c) (Geo.off28_eq c) _ _ (h0) (Or.inr (by show 384 + 384 ≤ 0 ∨ 0 + 384 ≤ 384; omega))) (Or.inl (by show lo 1 c 2 + 256 ≤ lo 1 c 1 + (1 - bit 1 1 c) * 256 ∨ lo 1 c 1 + (1 - bit 1 1 c) * 256 + 256 ≤ lo 1 c 2; omega))) (Or.inr (by show 384 + 384 ≤ 768 ∨ 768 + 256 ≤ 384; omega))
  have h6 : ∀ i ∈ ((View.whole cc0_scratch0).slice (Rect.unit (s := S1024x1024) (k0_off28 c) S256x384.size (k0_off28_inb c))).set, ct.okAcc 1 c (i 0).val (i 1).val (dcc6 c fa g000 g010 g020 g001 g011 g021 i) := by
    unfold dcc6 dcc5 dcc4
    exact frQ2 ct c 1 (k0_off28_inb c) (Geo.off28_eq c) _ _ (stepQ1 ct c YA YB laws _ _ (frQ0 ct c 0 (k0_off28_inb c) (Geo.off28_eq c) _ _ (h3) (Or.inr (by show 384 + 384 ≤ 0 ∨ 0 + 384 ≤ 384; omega))) hg011) (Or.inr (by show 384 + 384 ≤ 768 ∨ 768 + 256 ≤ 384; omega))
  have hA : ∀ i ∈ ((View.whole cc0_scratch0).slice (Rect.unit (s := S1024x1024) (k0_off28 c) S256x384.size (k0_off28_inb c))).set, ct.okAcc 1 c (i 0).val (i 1).val ((dcc7 c fa g000 g010 g020 g001 g011 g021 g100) i) := by
    unfold dcc7
    exact frR0 ct c 1 (k0_off28_inb c) (Geo.off28_eq c) _ _ (h6) (Or.inr (by show 384 + 384 ≤ 0 ∨ 0 + 384 ≤ 384; omega))
  have hcore := stepR1 ct c YA YB laws _ _ hA hg110
  refine SegBValP.landed2 ct c 1 (k0_off39_inb c) (Geo.off39_eq c)
    (fun q h1 h2 => SegAValP.blk_of_mid (by have h2' : q < 384 + 384 := h2; omega) (by have h2' : q < 384 + 384 := h2; omega)) (sendR1 c (dcc8 c fa g000 g010 g020 g001 g011 g021 g100 g110) g8) ?_ fd
  intro i hi
  unfold sendR1 dcc8
  refine Plumb.write_unit_whole_forall (Val := Elt F) cc0_scratch8 g8 inb_S128x1024_S128x384_0_384 _ rfl
    (fun i v => ct.okSS 2 c (i 0).val (i 1).val v) ?_ i (Fin.forall_fin_two.mpr
      ⟨⟨Nat.zero_le _, by have h' : (i 0).val < 128 := (i 0).isLt; show (i 0).val < 0 + 128; omega⟩, hi 1⟩)
  intro j i' hi'
  have e0 : (i' 0).val = (j 0).val := (hi' 0).trans (Nat.zero_add _)
  have e1 : (i' 1).val = 384 + (j 1).val := hi' 1
  show ct.okSS 2 c (i' 0).val (i' 1).val _
  rw [e0, e1]
  exact hcore j

/-- What lands at the partner of the third stage, column block 2, piece 0, is right under the contract. -/
theorem sent_2_2_0 (laws : Laws ct c YA YB) (fa : Buf (Elt F) ((c : Thread nD τ).loc cc0_scratch0)) (g000 g010 g020 g001 g011 g021 : Buf (Elt F) ((c : Thread nD τ).loc cc0_scratch1)) (g100 g110 g120 : Buf (Elt F) ((c : Thread nD τ).loc cc0_scratch2)) (g8 : Buf (Elt F) ((c : Thread nD τ).loc cc0_scratch8))
    (fd : Buf (Elt F) ((dst_rs_2_2_0 c).view.loc ((peer 2 2 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) (hg110 : ∀ i ∈ (dst_rs_1_1_0 (peer 1 1 c)).view.set, pRS ct 1 c (sh := S256x1024) i (g110 i)) (hg120 : ∀ i ∈ (dst_rs_1_2_0 (peer 2 1 c)).view.set, pRS ct 1 c (sh := S256x1024) i (g120 i)) :
    ∀ i ∈ (dst_rs_2_2_0 c).view.set, pRS ct 2 (peer 2 2 c) (sh := S128x1024) i
      (((dst_rs_2_2_0 c).view.write (Elt F) fd ((src_rs_2_2_0 c).view.read (Elt F) (sendR2 c (dcc9 c fa g000 g010 g020 g001 g011 g021 g100 g110 g120) g8)) Finset.univ) i) := by
  have hb := bit_le_one 2 1 c
  have hl := SegBCore.lo_2 2 c
  have hb2 := bit_le_one 2 2 c
  have hl3 := SegBCore.lo_3 2 c
  have h0 : ∀ i ∈ ((View.whole cc0_scratch0).slice (Rect.unit (s := S1024x1024) (k0_off30 c) S256x256.size (k0_off30_inb c))).set, ct.okAcc 0 c (i 0).val (i 1).val (fa i) := fun i hi => hfa.2.2 i (by
    have hm := (Plumb.mem_slice_unit_whole cc0_scratch0 (k0_off30_inb c) (Geo.off30_eq c) i).mp hi
    exact (Plumb.mem_slice_unit_whole cc0_scratch0 (k0_off13_inb c) (Geo.off13_eq c) i).mpr (Fin.forall_fin_two.mpr
      ⟨by have h' : lo 2 c 2 ≤ (i 0).val ∧ (i 0).val < lo 2 c 2 + 256 := hm 0
          show lo 2 c 1 ≤ (i 0).val ∧ (i 0).val < lo 2 c 1 + 512
          omega, hm 1⟩))
  have h3 : ∀ i ∈ ((View.whole cc0_scratch0).slice (Rect.unit (s := S1024x1024) (k0_off30 c) S256x256.size (k0_off30_inb c))).set, ct.okAcc 0 c (i 0).val (i 1).val (dcc3 c fa g000 g010 g020 i) := by
    unfold dcc3 dcc2 dcc1
    exact frP2 ct c 0 (k0_off30_inb c) (Geo.off30_eq c) _ _ (frP1 ct c 0 (k0_off30_inb c) (Geo.off30_eq c) _ _ (frP0 ct c 0 (k0_off30_inb c) (Geo.off30_eq c) _ _ (h0) (Or.inr (by show 768 + 256 ≤ 0 ∨ 0 + 384 ≤ 768; omega))) (Or.inr (by show 768 + 256 ≤ 384 ∨ 384 + 384 ≤ 768; omega))) (Or.inl (by show lo 2 c 2 + 256 ≤ lo 2 c 1 + (1 - bit 2 1 c) * 256 ∨ lo 2 c 1 + (1 - bit 2 1 c) * 256 + 256 ≤ lo 2 c 2; omega))
  have h6 : ∀ i ∈ ((View.whole cc0_scratch0).slice (Rect.unit (s := S1024x1024) (k0_off30 c) S256x256.size (k0_off30_inb c))).set, ct.okAcc 1 c (i 0).val (i 1).val (dcc6 c fa g000 g010 g020 g001 g011 g021 i) := by
    unfold dcc6 dcc5 dcc4
    exact stepQ2 ct c YA YB laws _ _ (frQ1 ct c 0 (k0_off30_inb c) (Geo.off30_eq c) _ _ (frQ0 ct c 0 (k0_off30_inb c) (Geo.off30_eq c) _ _ (h3) (Or.inr (by show 768 + 256 ≤ 0 ∨ 0 + 384 ≤ 768; omega))) (Or.inr (by show 768 + 256 ≤ 384 ∨ 384 + 384 ≤ 768; omega))) hg021
  have hA : ∀ i ∈ ((View.whole cc0_scratch0).slice (Rect.unit (s := S1024x1024) (k0_off30 c) S256x256.size (k0_off30_inb c))).set, ct.okAcc 1 c (i 0).val (i 1).val ((dcc8 c fa g000 g010 g020 g001 g011 g021 g100 g110) i) := by
    unfold dcc8 dcc7
    exact frR1 ct c 1 (k0_off30_inb c) (Geo.off30_eq c) _ _ (frR0 ct c 1 (k0_off30_inb c) (Geo.off30_eq c) _ _ (h6) (Or.inr (by show 768 + 256 ≤ 0 ∨ 0 + 384 ≤ 768; omega))) (Or.inr (by show 768 + 256 ≤ 384 ∨ 384 + 384 ≤ 768; omega))
  have hcore := stepR2 ct c YA YB laws _ _ hA hg120
  refine SegBValP.landed2 ct c 2 (k0_off42_inb c) (Geo.off42_eq c)
    (fun q h1 h2 => SegAValP.blk_of_ge (by have h2' : q < 768 + 256 := h2; omega)) (sendR2 c (dcc9 c fa g000 g010 g020 g001 g011 g021 g100 g110 g120) g8) ?_ fd
  intro i hi
  unfold sendR2 dcc9
  refine Plumb.write_unit_whole_forall (Val := Elt F) cc0_scratch8 g8 inb_S128x1024_S128x256_0_768 _ rfl
    (fun i v => ct.okSS 2 c (i 0).val (i 1).val v) ?_ i (Fin.forall_fin_two.mpr
      ⟨⟨Nat.zero_le _, by have h' : (i 0).val < 128 := (i 0).isLt; show (i 0).val < 0 + 128; omega⟩, hi 1⟩)
  intro j i' hi'
  have e0 : (i' 0).val = (j 0).val := (hi' 0).trans (Nat.zero_add _)
  have e1 : (i' 1).val = 768 + (j 1).val := hi' 1
  show ct.okSS 2 c (i' 0).val (i' 1).val _
  rw [e0, e1]
  exact hcore j

/-- What lands at the partner of the third stage, column block 2, piece 1, is right under the contract. -/
theorem sent_2_2_1 (laws : Laws ct c YA YB) (fa : Buf (Elt F) ((c : Thread nD τ).loc cc0_scratch0)) (g000 g010 g020 g001 g011 g021 : Buf (Elt F) ((c : Thread nD τ).loc cc0_scratch1)) (g100 g110 g120 : Buf (Elt F) ((c : Thread nD τ).loc cc0_scratch2)) (g8 : Buf (Elt F) ((c : Thread nD τ).loc cc0_scratch8))
    (fd : Buf (Elt F) ((dst_rs_2_2_1 c).view.loc ((peer 2 2 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) (hg110 : ∀ i ∈ (dst_rs_1_1_0 (peer 1 1 c)).view.set, pRS ct 1 c (sh := S256x1024) i (g110 i)) (hg120 : ∀ i ∈ (dst_rs_1_2_0 (peer 2 1 c)).view.set, pRS ct 1 c (sh := S256x1024) i (g120 i)) :
    ∀ i ∈ (dst_rs_2_2_1 c).view.set, pRS ct 2 (peer 2 2 c) (sh := S128x1024) i
      (((dst_rs_2_2_1 c).view.write (Elt F) fd ((src_rs_2_2_1 c).view.read (Elt F) (sendR2 c (dcc9 c fa g000 g010 g020 g001 g011 g021 g100 g110 g120) g8)) Finset.univ) i) := by
  have hb := bit_le_one 2 1 c
  have hl := SegBCore.lo_2 2 c
  have hb2 := bit_le_one 2 2 c
  have hl3 := SegBCore.lo_3 2 c
  have h0 : ∀ i ∈ ((View.whole cc0_scratch0).slice (Rect.unit (s := S1024x1024) (k0_off30 c) S256x256.size (k0_off30_inb c))).set, ct.okAcc 0 c (i 0).val (i 1).val (fa i) := fun i hi => hfa.2.2 i (by
    have hm := (Plumb.mem_slice_unit_whole cc0_scratch0 (k0_off30_inb c) (Geo.off30_eq c) i).mp hi
    exact (Plumb.mem_slice_unit_whole cc0_scratch0 (k0_off13_inb c) (Geo.off13_eq c) i).mpr (Fin.forall_fin_two.mpr
      ⟨by have h' : lo 2 c 2 ≤ (i 0).val ∧ (i 0).val < lo 2 c 2 + 256 := hm 0
          show lo 2 c 1 ≤ (i 0).val ∧ (i 0).val < lo 2 c 1 + 512
          omega, hm 1⟩))
  have h3 : ∀ i ∈ ((View.whole cc0_scratch0).slice (Rect.unit (s := S1024x1024) (k0_off30 c) S256x256.size (k0_off30_inb c))).set, ct.okAcc 0 c (i 0).val (i 1).val (dcc3 c fa g000 g010 g020 i) := by
    unfold dcc3 dcc2 dcc1
    exact frP2 ct c 0 (k0_off30_inb c) (Geo.off30_eq c) _ _ (frP1 ct c 0 (k0_off30_inb c) (Geo.off30_eq c) _ _ (frP0 ct c 0 (k0_off30_inb c) (Geo.off30_eq c) _ _ (h0) (Or.inr (by show 768 + 256 ≤ 0 ∨ 0 + 384 ≤ 768; omega))) (Or.inr (by show 768 + 256 ≤ 384 ∨ 384 + 384 ≤ 768; omega))) (Or.inl (by show lo 2 c 2 + 256 ≤ lo 2 c 1 + (1 - bit 2 1 c) * 256 ∨ lo 2 c 1 + (1 - bit 2 1 c) * 256 + 256 ≤ lo 2 c 2; omega))
  have h6 : ∀ i ∈ ((View.whole cc0_scratch0).slice (Rect.unit (s := S1024x1024) (k0_off30 c) S256x256.size (k0_off30_inb c))).set, ct.okAcc 1 c (i 0).val (i 1).val (dcc6 c fa g000 g010 g020 g001 g011 g021 i) := by
    unfold dcc6 dcc5 dcc4
    exact stepQ2 ct c YA YB laws _ _ (frQ1 ct c 0 (k0_off30_inb c) (Geo.off30_eq c) _ _ (frQ0 ct c 0 (k0_off30_inb c) (Geo.off30_eq c) _ _ (h3) (Or.inr (by show 768 + 256 ≤ 0 ∨ 0 + 384 ≤ 768; omega))) (Or.inr (by show 768 + 256 ≤ 384 ∨ 384 + 384 ≤ 768; omega))) hg021
  have hA : ∀ i ∈ ((View.whole cc0_scratch0).slice (Rect.unit (s := S1024x1024) (k0_off30 c) S256x256.size (k0_off30_inb c))).set, ct.okAcc 1 c (i 0).val (i 1).val ((dcc8 c fa g000 g010 g020 g001 g011 g021 g100 g110) i) := by
    unfold dcc8 dcc7
    exact frR1 ct c 1 (k0_off30_inb c) (Geo.off30_eq c) _ _ (frR0 ct c 1 (k0_off30_inb c) (Geo.off30_eq c) _ _ (h6) (Or.inr (by show 768 + 256 ≤ 0 ∨ 0 + 384 ≤ 768; omega))) (Or.inr (by show 768 + 256 ≤ 384 ∨ 384 + 384 ≤ 768; omega))
  have hcore := stepR2 ct c YA YB laws _ _ hA hg120
  refine SegBValP.landed2 ct c 2 (k0_off43_inb c) (Geo.off43_eq c)
    (fun q h1 h2 => SegAValP.blk_of_ge (by have h2' : q < 768 + 256 := h2; omega)) (sendR2 c (dcc9 c fa g000 g010 g020 g001 g011 g021 g100 g110 g120) g8) ?_ fd
  intro i hi
  unfold sendR2 dcc9
  refine Plumb.write_unit_whole_forall (Val := Elt F) cc0_scratch8 g8 inb_S128x1024_S128x256_0_768 _ rfl
    (fun i v => ct.okSS 2 c (i 0).val (i 1).val v) ?_ i (Fin.forall_fin_two.mpr
      ⟨⟨Nat.zero_le _, by have h' : (i 0).val < 128 := (i 0).isLt; show (i 0).val < 0 + 128; omega⟩, hi 1⟩)
  intro j i' hi'
  have e0 : (i' 0).val = (j 0).val := (hi' 0).trans (Nat.zero_add _)
  have e1 : (i' 1).val = 768 + (j 1).val := hi' 1
  show ct.okSS 2 c (i' 0).val (i' 1).val _
  rw [e0, e1]
  exact hcore j

/-- The kept rows of the third stage, column block 0, hold the sum over two devices. -/
theorem kept_0 (laws : Laws ct c YA YB) (fa : Buf (Elt F) ((c : Thread nD τ).loc cc0_scratch0)) (g000 g010 g020 g001 g011 g021 : Buf (Elt F) ((c : Thread nD τ).loc cc0_scratch1)) (g100 g110 g120 : Buf (Elt F) ((c : Thread nD τ).loc cc0_scratch2))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) (hg110 : ∀ i ∈ (dst_rs_1_1_0 (peer 1 1 c)).view.set, pRS ct 1 c (sh := S256x1024) i (g110 i)) (hg120 : ∀ i ∈ (dst_rs_1_2_0 (peer 2 1 c)).view.set, pRS ct 1 c (sh := S256x1024) i (g120 i)) :
    ∀ i ∈ SegBMid.accRows20_0 c, ct.okAcc 1 c (i 0).val (i 1).val (dcc9 c fa g000 g010 g020 g001 g011 g021 g100 g110 g120 i) := by
  have hb := bit_le_one 0 1 c
  have hl := SegBCore.lo_2 0 c
  have hb2 := bit_le_one 0 2 c
  have hl3 := SegBCore.lo_3 0 c
  have h0 : ∀ i ∈ ((View.whole cc0_scratch0).slice (Rect.unit (s := S1024x1024) (k0_off26 c) S256x384.size (k0_off26_inb c))).set, ct.okAcc 0 c (i 0).val (i 1).val (fa i) := fun i hi => hfa.1 i (by
    have hm := (Plumb.mem_slice_unit_whole cc0_scratch0 (k0_off26_inb c) (Geo.off26_eq c) i).mp hi
    exact (Plumb.mem_slice_unit_whole cc0_scratch0 (k0_off10_inb c) (Geo.off10_eq c) i).mpr (Fin.forall_fin_two.mpr
      ⟨by have h' : lo 0 c 2 ≤ (i 0).val ∧ (i 0).val < lo 0 c 2 + 256 := hm 0
          show lo 0 c 1 ≤ (i 0).val ∧ (i 0).val < lo 0 c 1 + 512
          omega, hm 1⟩))
  have h3 : ∀ i ∈ ((View.whole cc0_scratch0).slice (Rect.unit (s := S1024x1024) (k0_off26 c) S256x384.size (k0_off26_inb c))).set, ct.okAcc 0 c (i 0).val (i 1).val (dcc3 c fa g000 g010 g020 i) := by
    unfold dcc3 dcc2 dcc1
    exact frP2 ct c 0 (k0_off26_inb c) (Geo.off26_eq c) _ _ (frP1 ct c 0 (k0_off26_inb c) (Geo.off26_eq c) _ _ (frP0 ct c 0 (k0_off26_inb c) (Geo.off26_eq c) _ _ (h0) (Or.inl (by show lo 0 c 2 + 256 ≤ lo 0 c 1 + (1 - bit 0 1 c) * 256 ∨ lo 0 c 1 + (1 - bit 0 1 c) * 256 + 256 ≤ lo 0 c 2; omega))) (Or.inr (by show 0 + 384 ≤ 384 ∨ 384 + 384 ≤ 0; omega))) (Or.inr (by show 0 + 384 ≤ 768 ∨ 768 + 256 ≤ 0; omega))
  have h6 : ∀ i ∈ ((View.whole cc0_scratch0).slice (Rect.unit (s := S1024x1024) (k0_off26 c) S256x384.size (k0_off26_inb c))).set, ct.okAcc 1 c (i 0).val (i 1).val (dcc6 c fa g000 g010 g020 g001 g011 g021 i) := by
    unfold dcc6 dcc5 dcc4
    exact frQ2 ct c 1 (k0_off26_inb c) (Geo.off26_eq c) _ _ (frQ1 ct c 1 (k0_off26_inb c) (Geo.off26_eq c) _ _ (stepQ0 ct c YA YB laws _ _ (h3) hg001) (Or.inr (by show 0 + 384 ≤ 384 ∨ 384 + 384 ≤ 0; omega))) (Or.inr (by show 0 + 384 ≤ 768 ∨ 768 + 256 ≤ 0; omega))
  have h6' : ∀ i ∈ ((View.whole cc0_scratch0).slice (Rect.unit (s := S1024x1024) (k0_off44 c) S128x384.size (k0_off44_inb c))).set, ct.okAcc 1 c (i 0).val (i 1).val (dcc6 c fa g000 g010 g020 g001 g011 g021 i) := fun i hi => h6 i (by
    have hm := (Plumb.mem_slice_unit_whole cc0_scratch0 (k0_off44_inb c) (Geo.off44_eq c) i).mp hi
    exact (Plumb.mem_slice_unit_whole cc0_scratch0 (k0_off26_inb c) (Geo.off26_eq c) i).mpr (Fin.forall_fin_two.mpr
      ⟨by have h' : lo 0 c 3 ≤ (i 0).val ∧ (i 0).val < lo 0 c 3 + 128 := hm 0
          show lo 0 c 2 ≤ (i 0).val ∧ (i 0).val < lo 0 c 2 + 256
          omega, hm 1⟩))
  unfold dcc9 dcc8 dcc7
  exact frR2 ct c 1 (k0_off44_inb c) (Geo.off44_eq c) _ _ (frR1 ct c 1 (k0_off44_inb c) (Geo.off44_eq c) _ _ (frR0 ct c 1 (k0_off44_inb c) (Geo.off44_eq c) _ _ (h6') (Or.inl (by show lo 0 c 3 + 128 ≤ lo 0 c 2 + (1 - bit 0 2 c) * 128 ∨ lo 0 c 2 + (1 - bit 0 2 c) * 128 + 128 ≤ lo 0 c 3; omega))) (Or.inr (by show 0 + 384 ≤ 384 ∨ 384 + 384 ≤ 0; omega))) (Or.inr (by show 0 + 384 ≤ 768 ∨ 768 + 256 ≤ 0; omega))

/-- The kept rows of the third stage, column block 1, hold the sum over two devices. -/
theorem kept_1 (laws : Laws ct c YA YB) (fa : Buf (Elt F) ((c : Thread nD τ).loc cc0_scratch0)) (g000 g010 g020 g001 g011 g021 : Buf (Elt F) ((c : Thread nD τ).loc cc0_scratch1)) (g100 g110 g120 : Buf (Elt F) ((c : Thread nD τ).loc cc0_scratch2))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) (hg110 : ∀ i ∈ (dst_rs_1_1_0 (peer 1 1 c)).view.set, pRS ct 1 c (sh := S256x1024) i (g110 i)) (hg120 : ∀ i ∈ (dst_rs_1_2_0 (peer 2 1 c)).view.set, pRS ct 1 c (sh := S256x1024) i (g120 i)) :
    ∀ i ∈ SegBMid.accRows20_1 c, ct.okAcc 1 c (i 0).val (i 1).val (dcc9 c fa g000 g010 g020 g001 g011 g021 g100 g110 g120 i) := by
  have hb := bit_le_one 1 1 c
  have hl := SegBCore.lo_2 1 c
  have hb2 := bit_le_one 1 2 c
  have hl3 := SegBCore.lo_3 1 c
  have h0 : ∀ i ∈ ((View.whole cc0_scratch0).slice (Rect.unit (s := S1024x1024) (k0_off28 c) S256x384.size (k0_off28_inb c))).set, ct.okAcc 0 c (i 0).val (i 1).val (fa i) := fun i hi => hfa.2.1 i (by
    have hm := (Plumb.mem_slice_unit_whole cc0_scratch0 (k0_off28_inb c) (Geo.off28_eq c) i).mp hi
    exact (Plumb.mem_slice_unit_whole cc0_scratch0 (k0_off12_inb c) (Geo.off12_eq c) i).mpr (Fin.forall_fin_two.mpr
      ⟨by have h' : lo 1 c 2 ≤ (i 0).val ∧ (i 0).val < lo 1 c 2 + 256 := hm 0
          show lo 1 c 1 ≤ (i 0).val ∧ (i 0).val < lo 1 c 1 + 512
          omega, hm 1⟩))
  have h3 : ∀ i ∈ ((View.whole cc0_scratch0).slice (Rect.unit (s := S1024x1024) (k0_off28 c) S256x384.size (k0_off28_inb c))).set, ct.okAcc 0 c (i 0).val (i 1).val (dcc3 c fa g000 g010 g020 i) := by
    unfold dcc3 dcc2 dcc1
    exact frP2 ct c 0 (k0_off28_inb c) (Geo.off28_eq c) _ _ (frP1 ct c 0 (k0_off28_inb c) (Geo.off28_eq c) _ _ (frP0 ct c 0 (k0_off28_inb c) (Geo.off28_eq c) _ _ (h0) (Or.inr (by show 384 + 384 ≤ 0 ∨ 0 + 384 ≤ 384; omega))) (Or.inl (by show lo 1 c 2 + 256 ≤ lo 1 c 1 + (1 - bit 1 1 c) * 256 ∨ lo 1 c 1 + (1 - bit 1 1 c) * 256 + 256 ≤ lo 1 c 2; omega))) (Or.inr (by show 384 + 384 ≤ 768 ∨ 768 + 256 ≤ 384; omega))
  have h6 : ∀ i ∈ ((View.whole cc0_scratch0).slice (Rect.unit (s := S1024x1024) (k0_off28 c) S256x384.size (k0_off28_inb c))).set, ct.okAcc 1 c (i 0).val (i 1).val (dcc6 c fa g000 g010 g020 g001 g011 g021 i) := by
    unfold dcc6 dcc5 dcc4
    exact frQ2 ct c 1 (k0_off28_inb c) (Geo.off28_eq c) _ _ (stepQ1 ct c YA YB laws _ _ (frQ0 ct c 0 (k0_off28_inb c) (Geo.off28_eq c) _ _ (h3) (Or.inr (by show 384 + 384 ≤ 0 ∨ 0 + 384 ≤ 384; omega))) hg011) (Or.inr (by show 384 + 384 ≤ 768 ∨ 768 + 256 ≤ 384; omega))
  have h6' : ∀ i ∈ ((View.whole cc0_scratch0).slice (Rect.unit (s := S1024x1024) (k0_off46 c) S128x384.size (k0_off46_inb c))).set, ct.okAcc 1 c (i 0).val (i 1).val (dcc6 c fa g000 g010 g020 g001 g011 g021 i) := fun i hi => h6 i (by
    have hm := (Plumb.mem_slice_unit_whole cc0_scratch0 (k0_off46_inb c) (Geo.off46_eq c) i).mp hi
    exact (Plumb.mem_slice_unit_whole cc0_scratch0 (k0_off28_inb c) (Geo.off28_eq c) i).mpr (Fin.forall_fin_two.mpr
      ⟨by have h' : lo 1 c 3 ≤ (i 0).val ∧ (i 0).val < lo 1 c 3 + 128 := hm 0
          show lo 1 c 2 ≤ (i 0).val ∧ (i 0).val < lo 1 c 2 + 256
          omega, hm 1⟩))
  unfold dcc9 dcc8 dcc7
  exact frR2 ct c 1 (k0_off46_inb c) (Geo.off46_eq c) _ _ (frR1 ct c 1 (k0_off46_inb c) (Geo.off46_eq c) _ _ (frR0 ct c 1 (k0_off46_inb c) (Geo.off46_eq c) _ _ (h6') (Or.inr (by show 384 + 384 ≤ 0 ∨ 0 + 384 ≤ 384; omega))) (Or.inl (by show lo 1 c 3 + 128 ≤ lo 1 c 2 + (1 - bit 1 2 c) * 128 ∨ lo 1 c 2 + (1 - bit 1 2 c) * 128 + 128 ≤ lo 1 c 3; omega))) (Or.inr (by show 384 + 384 ≤ 768 ∨ 768 + 256 ≤ 384; omega))

/-- The kept rows of the third stage, column block 2, hold the sum over two devices. -/
theorem kept_2 (laws : Laws ct c YA YB) (fa : Buf (Elt F) ((c : Thread nD τ).loc cc0_scratch0)) (g000 g010 g020 g001 g011 g021 : Buf (Elt F) ((c : Thread nD τ).loc cc0_scratch1)) (g100 g110 g120 : Buf (Elt F) ((c : Thread nD τ).loc cc0_scratch2))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) (hg110 : ∀ i ∈ (dst_rs_1_1_0 (peer 1 1 c)).view.set, pRS ct 1 c (sh := S256x1024) i (g110 i)) (hg120 : ∀ i ∈ (dst_rs_1_2_0 (peer 2 1 c)).view.set, pRS ct 1 c (sh := S256x1024) i (g120 i)) :
    ∀ i ∈ SegBMid.accRows20_2 c, ct.okAcc 1 c (i 0).val (i 1).val (dcc9 c fa g000 g010 g020 g001 g011 g021 g100 g110 g120 i) := by
  have hb := bit_le_one 2 1 c
  have hl := SegBCore.lo_2 2 c
  have hb2 := bit_le_one 2 2 c
  have hl3 := SegBCore.lo_3 2 c
  have h0 : ∀ i ∈ ((View.whole cc0_scratch0).slice (Rect.unit (s := S1024x1024) (k0_off30 c) S256x256.size (k0_off30_inb c))).set, ct.okAcc 0 c (i 0).val (i 1).val (fa i) := fun i hi => hfa.2.2 i (by
    have hm := (Plumb.mem_slice_unit_whole cc0_scratch0 (k0_off30_inb c) (Geo.off30_eq c) i).mp hi
    exact (Plumb.mem_slice_unit_whole cc0_scratch0 (k0_off13_inb c) (Geo.off13_eq c) i).mpr (Fin.forall_fin_two.mpr
      ⟨by have h' : lo 2 c 2 ≤ (i 0).val ∧ (i 0).val < lo 2 c 2 + 256 := hm 0
          show lo 2 c 1 ≤ (i 0).val ∧ (i 0).val < lo 2 c 1 + 512
          omega, hm 1⟩))
  have h3 : ∀ i ∈ ((View.whole cc0_scratch0).slice (Rect.unit (s := S1024x1024) (k0_off30 c) S256x256.size (k0_off30_inb c))).set, ct.okAcc 0 c (i 0).val (i 1).val (dcc3 c fa g000 g010 g020 i) := by
    unfold dcc3 dcc2 dcc1
    exact frP2 ct c 0 (k0_off30_inb c) (Geo.off30_eq c) _ _ (frP1 ct c 0 (k0_off30_inb c) (Geo.off30_eq c) _ _ (frP0 ct c 0 (k0_off30_inb c) (Geo.off30_eq c) _ _ (h0) (Or.inr (by show 768 + 256 ≤ 0 ∨ 0 + 384 ≤ 768; omega))) (Or.inr (by show 768 + 256 ≤ 384 ∨ 384 + 384 ≤ 768; omega))) (Or.inl (by show lo 2 c 2 + 256 ≤ lo 2 c 1 + (1 - bit 2 1 c) * 256 ∨ lo 2 c 1 + (1 - bit 2 1 c) * 256 + 256 ≤ lo 2 c 2; omega))
  have h6 : ∀ i ∈ ((View.whole cc0_scratch0).slice (Rect.unit (s := S1024x1024) (k0_off30 c) S256x256.size (k0_off30_inb c))).set, ct.okAcc 1 c (i 0).val (i 1).val (dcc6 c fa g000 g010 g020 g001 g011 g021 i) := by
    unfold dcc6 dcc5 dcc4
    exact stepQ2 ct c YA YB laws _ _ (frQ1 ct c 0 (k0_off30_inb c) (Geo.off30_eq c) _ _ (frQ0 ct c 0 (k0_off30_inb c) (Geo.off30_eq c) _ _ (h3) (Or.inr (by show 768 + 256 ≤ 0 ∨ 0 + 384 ≤ 768; omega))) (Or.inr (by show 768 + 256 ≤ 384 ∨ 384 + 384 ≤ 768; omega))) hg021
  have h6' : ∀ i ∈ ((View.whole cc0_scratch0).slice (Rect.unit (s := S1024x1024) (k0_off48 c) S128x256.size (k0_off48_inb c))).set, ct.okAcc 1 c (i 0).val (i 1).val (dcc6 c fa g000 g010 g020 g001 g011 g021 i) := fun i hi => h6 i (by
    have hm := (Plumb.mem_slice_unit_whole cc0_scratch0 (k0_off48_inb c) (Geo.off48_eq c) i).mp hi
    exact (Plumb.mem_slice_unit_whole cc0_scratch0 (k0_off30_inb c) (Geo.off30_eq c) i).mpr (Fin.forall_fin_two.mpr
      ⟨by have h' : lo 2 c 3 ≤ (i 0).val ∧ (i 0).val < lo 2 c 3 + 128 := hm 0
          show lo 2 c 2 ≤ (i 0).val ∧ (i 0).val < lo 2 c 2 + 256
          omega, hm 1⟩))
  unfold dcc9 dcc8 dcc7
  exact frR2 ct c 1 (k0_off48_inb c) (Geo.off48_eq c) _ _ (frR1 ct c 1 (k0_off48_inb c) (Geo.off48_eq c) _ _ (frR0 ct c 1 (k0_off48_inb c) (Geo.off48_eq c) _ _ (h6') (Or.inr (by show 768 + 256 ≤ 0 ∨ 0 + 384 ≤ 768; omega))) (Or.inr (by show 768 + 256 ≤ 384 ∨ 384 + 384 ≤ 768; omega))) (Or.inl (by show lo 2 c 3 + 128 ≤ lo 2 c 2 + (1 - bit 2 2 c) * 128 ∨ lo 2 c 2 + (1 - bit 2 2 c) * 128 + 128 ≤ lo 2 c 3; omega))

end Cert.KernelIdeal.SegB1AltVal

end
-- ==== Proof.SegB1Alt.lean ====
/-
  The second and third stages of the summing phase: per column block the partner's rows added to the
  half that is given away, that half rounded into the stage's send buffer and sent in two pieces; between
  the two stages the kept halves of the second stage added.
-/
import proofs.«900879_g7700000000000880_dist_matmul_gelu_kshard_i_m1024_n1024_k512_v7x_i32_bf16_1_alg».proof.Proof.Segs
import proofs.«900879_g7700000000000880_dist_matmul_gelu_kshard_i_m1024_n1024_k512_v7x_i32_bf16_1_alg».proof.Proof.SendStep
import proofs.«900879_g7700000000000880_dist_matmul_gelu_kshard_i_m1024_n1024_k512_v7x_i32_bf16_1_alg».proof.Proof.SegBMid
import proofs.«900879_g7700000000000880_dist_matmul_gelu_kshard_i_m1024_n1024_k512_v7x_i32_bf16_1_alg».proof.Proof.SegB1AltVal
import proofs.«900879_g7700000000000880_dist_matmul_gelu_kshard_i_m1024_n1024_k512_v7x_i32_bf16_1_alg».proof.Proof.RegionsRS
import proofs.«900879_g7700000000000880_dist_matmul_gelu_kshard_i_m1024_n1024_k512_v7x_i32_bf16_1_alg».proof.Proof.RegionsOut
set_option synthInstance.maxSize 4096
set_option maxRecDepth 65536

noncomputable section

namespace Cert.KernelIdeal.SegB1Alt

open Cert.KernelIdeal Cert.KernelIdeal.Gen Cert.KernelIdeal.Proto Cert.KernelIdeal.Tab Cert.KernelIdeal.Held Cert.KernelIdeal.PayTab
open Cert.KernelIdeal.Sched Cert.KernelIdeal.GhostTab Cert.KernelIdeal.Owed Cert.KernelIdeal.Ghost Cert.KernelIdeal.StateTab
open Cert.KernelIdeal.Laws Cert.KernelIdeal.Cut Cert.KernelIdeal.Segs Cert.KernelIdeal.RegionsRS Cert.KernelIdeal.RegionsOut Cert.KernelIdeal.RegionsCut
open Cert.KernelIdeal.SendStep
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (ct : Contract F) (K : Dev nD × Fin 124 → ℕ)

/-! ## The cells' records, one cell at a time -/

theorem inv_dma (c : Dev nD) (a : Fin 4) (s : Fin 5) (k : Fin 3) (j : Fin 2) (h : usedIx (dsem a s k j).val = true) :
    (records ct K : sProp (MT nD τ sig Unit (Elt F) ℕ UU ℕ)) ⊢
      cellInv ER (sched ct) (K (c, ⟨(dsem a s k j).val, Nat.lt_trans (dsem a s k j).isLt (by decide)⟩)) (dcell c a s k j) := by
  have h0 := inv_at ct K (c, ⟨(dsem a s k j).val, Nat.lt_trans (dsem a s k j).isLt (by decide)⟩)
    (by unfold ourIx; rw [Finset.mem_filter]; exact ⟨Finset.mem_univ _, by unfold ours; rw [h]; exact Bool.or_true _⟩)
  rw [kcell_dma] at h0
  exact h0

theorem reached_dma (c : Dev nD) (a : Fin 4) (s : Fin 5) (k : Fin 3) (j : Fin 2) (h : usedIx (dsem a s k j).val = true) :
    (records ct K : sProp (MT nD τ sig Unit (Elt F) ℕ UU ℕ)) ⊢ reached ER (dcell c a s k j) 0 := by
  have h0 := reached_at ct K (c, ⟨(dsem a s k j).val, Nat.lt_trans (dsem a s k j).isLt (by decide)⟩)
    (by unfold ourIx; rw [Finset.mem_filter]; exact ⟨Finset.mem_univ _, by unfold ours; rw [h]; exact Bool.or_true _⟩)
  rw [kcell_dma] at h0
  exact h0

theorem heldV_open {sh : Shape} {e : EltTy} (d : Dev nD) (v : Memref sig .tc .vmem sh e) (q : PosShare TreeShare)
    (P : v.view.ty.Idx → Elt F v.view.ty.elt → Prop) :
    (heldV (F := F) d v q P : sProp (MT nD τ sig Unit (Elt F) ℕ UU ℕ))
      ⊢ iprop(∃ f : Buf (Elt F) (v.view.loc (d : Thread nD τ)), (v.view.loc (d : Thread nD τ) ↦[v.view.set]{q} f) ∗ ⌜∀ i ∈ v.view.set, P i (f i)⌝) := BI.Entails.refl _
theorem loanV_open {sh : Shape} {e : EltTy} (d : Dev nD) (v : Memref sig .tc .vmem sh e) :
    (loanV (F := F) d v : sProp (MT nD τ sig Unit (Elt F) ℕ UU ℕ))
      ⊢ iprop(∃ f : Buf (Elt F) (v.view.loc (d : Thread nD τ)), (v.view.loc (d : Thread nD τ) ↦[v.view.set]{fullShare} f)) := BI.Entails.refl _

theorem loanV_fold {sh : Shape} {e : EltTy} (d : Dev nD) (v : Memref sig .tc .vmem sh e) (f : Buf (Elt F) (v.view.loc (d : Thread nD τ))) :
    ((v.view.loc (d : Thread nD τ) ↦[v.view.set]{fullShare} f) : sProp (MT nD τ sig Unit (Elt F) ℕ UU ℕ)) ⊢ loanV (F := F) d v := by
  unfold loanV; iintro H; iexists f; iexact H

variable (c : Dev nD) (YA : S1024x512.Idx → F .f32) (YB : S512x1024.Idx → F .f32)

set_option maxHeartbeats 4000000 in
theorem segB1 (laws : Laws ct c YA YB) {R : Type}
    (T : (Σ' (d0 : Dev nD) (v3 : BitVec 32) (v8 : BitVec 32) (v13 : BitVec 32) (v28 : BitVec 32), BitVec 32) → Prog (TpuEff nD τ sig (Elt F) Λ₀ .tc) R)
    (Kt : R → sProp (MT nD τ sig Unit (Elt F) ℕ UU ℕ)) : SegBMid.SegB1 ct K c YA YB T Kt := by
  unfold SegBMid.SegB1
  intro v3 v4 v5 v6 v7 v8 v9 v10 v11 v12 v13 v14 v15 v16 v17 v18 v20 v22 v24 v26 v28 v40 v74 v108 v179 v182
  rw [SegBMid.rest7_cut20]
  simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part7_skel k0_part8_skel k0_part9_skel k0_part10_skel k0_part11_skel k0_part12_skel k0_part13_skel k0_part14_skel k0_part15_skel k0_part16_skel k0_part17_skel k0_part18_skel k0_part19_skel
  simp only [Prog.lift, Prog.bind_op, Prog.bind_ret, Prog.pure_eq_ret, bind_assoc, Prog.bind_assoc]
  unfold Segs.Pre7 toksFrom6 posRS credRS sendCred0 landFrom6
  iintro H
  icases H with ⟨Hpre, Hk⟩
  icases Hpre with ⟨#HR, #Hlev, HowE, Htoks, Hpos, HposAG, HcredR, HcredAG, HcredS, Hidle, HA, HB, Hown, Hacc, Hsomes, Hland⟩
  icases HowE with ⟨%W, How⟩
  icases Htoks with ⟨⟨TS100, TR100⟩, ⟨TS101, TR101⟩, ⟨TS110, TR110⟩, ⟨TS111, TR111⟩, ⟨TS120, TR120⟩, ⟨TS121, TR121⟩, ⟨TS200, TR200⟩, ⟨TS201, TR201⟩, ⟨TS210, TR210⟩, ⟨TS211, TR211⟩, ⟨TS220, TR220⟩, ⟨TS221, TR221⟩, Q300, Q301, Q310, Q311, Q320, Q321, Q400, Q410, Q420, HtoksAG⟩
  icases Hpos with ⟨⟨PS000, PR000⟩, ⟨PS001, PR001⟩, ⟨PS010, PR010⟩, ⟨PS011, PR011⟩, ⟨PS020, PR020⟩, ⟨PS021, PR021⟩, ⟨PS100, PR100⟩, PP101, ⟨PS110, PR110⟩, PP111, ⟨PS120, PR120⟩, PP121, PP200, PP201, PP210, PP211, PP220, PP221, PP300, PP301, PP310, PP311, PP320, PP321, PP400, PP410, PP420⟩
  icases HcredR with ⟨CR000, CR001, CR010, CR011, CR020, CR021, CR100, CR101, CR110, CR111, CR120, CR121, CR200, CR201, CR210, CR211, CR220, CR221, CR300, CR301, CR310, CR311, CR320, CR321, CR400, CR410, CR420⟩
  icases HcredS with ⟨CS000, CS001, CS010, CS011, CS020, CS021⟩
  icases Hland with ⟨LD100, LD101, LD110, LD111, LD120, LD121, LD200, LD201, LD210, LD211, LD220, LD221, LD300, LD301, LD310, LD311, LD320, LD321, LD400, LD410, LD420, HlandAG⟩
  icases Hacc with ⟨%fa, Hacc, %hfa⟩
  icases Hsomes with ⟨Hs7, Hs8, Hs9, Hs10⟩
  ihave Hcols := (ss_cols_1 (F := F) c) $$ Hs7
  icases Hcols with ⟨He0, He1, He2⟩
  icases He0 with ⟨%g70, He0⟩
  icases He1 with ⟨%g71, He1⟩
  icases He2 with ⟨%g72, He2⟩
  ihave Hcols := (ss_cols_2 (F := F) c) $$ Hs8
  icases Hcols with ⟨Hf0, Hf1, Hf2⟩
  icases Hf0 with ⟨%g80, Hf0⟩
  icases Hf1 with ⟨%g81, Hf1⟩
  icases Hf2 with ⟨%g82, Hf2⟩
  -- the wait on cell (0, 0, 0, 0), and the cell closed
  ihave #MWS000 := (mayWait_cell (F := F) c 0 0 0 0 11 (by decide +kernel)) $$ Hlev
  ihave #HIS000 := (inv_dma ct K c 0 0 0 0 rfl) $$ HR
  iapply (Rounds.wp_wait_rest_token Segs.𝒱₀ ER (sched ct) (c : Thread nD τ) none (κ := (K (c, ⟨(dsem 0 0 0 0).val, Nat.lt_trans (dsem 0 0 0 0).isLt (by decide)⟩))) (sm := SemLoc.dma (dsem 0 0 0 0))
      (wpE_waitDma2_eq Segs.𝒱₀ (c : Thread nD τ) none Set.univ) (Set.mem_univ _) () (O := owedFrom c 11) (W := W) (R := 0) (m := 0) (T := ∅)
      (by rw [Nat.zero_add, expect_dma ct c 0 0 0 0 rfl]; rfl)) $$ [CS000 How PS000]
  · isplitr
    · iexact HIS000
    isplitl [CS000]
    · iexact CS000
    isplitl [How]
    · iexact How
    isplitr
    · iexact MWS000
    iexact PS000
  iintro ⟨How, PS000, -, Hpay⟩
  imod (Rounds.cell_close ER (sched ct) (g := dcell c 0 0 0 0) (Set.mem_univ _) (fun h => h) (R := 1)
    (fun r hr => duties_later ct _ r hr)) $$ [PS000] with VS000
  · isplitr
    · iexact HIS000
    iexact PS000
  ihave BS000 := (Entails.of_eq (show bigSep ((sched ct).duties (dcell c 0 0 0 0) 0 \ ∅) (fun d => (sched ct).payload (dcell c 0 0 0 0) 0 d)
      = loanV c (src_rs_0_0_0 c) from rest_dma ct c 0 0 0 0 rfl)) $$ Hpay
  -- the wait on cell (1, 0, 0, 0), and the cell closed
  ihave #MWR000 := (mayWait_cell (F := F) c 1 0 0 0 11 (by decide +kernel)) $$ Hlev
  ihave #HIR000 := (inv_dma ct K c 1 0 0 0 rfl) $$ HR
  iapply (Rounds.wp_wait_rest_token Segs.𝒱₀ ER (sched ct) (c : Thread nD τ) none (κ := (K (c, ⟨(dsem 1 0 0 0).val, Nat.lt_trans (dsem 1 0 0 0).isLt (by decide)⟩))) (sm := SemLoc.dma (dsem 1 0 0 0))
      (wpE_waitDma2_eq Segs.𝒱₀ (c : Thread nD τ) none Set.univ) (Set.mem_univ _) () (O := owedFrom c 11) (W := (insert (SemLoc.dma (dsem 0 0 0 0), ()) W)) (R := 0) (m := 0) (T := ∅)
      (by rw [Nat.zero_add, expect_dma ct c 1 0 0 0 rfl]; rfl)) $$ [CR000 How PR000]
  · isplitr
    · iexact HIR000
    isplitl [CR000]
    · iexact CR000
    isplitl [How]
    · iexact How
    isplitr
    · iexact MWR000
    iexact PR000
  iintro ⟨How, PR000, -, Hpay⟩
  imod (Rounds.cell_close ER (sched ct) (g := dcell c 1 0 0 0) (Set.mem_univ _) (fun h => h) (R := 1)
    (fun r hr => duties_later ct _ r hr)) $$ [PR000] with VR000
  · isplitr
    · iexact HIR000
    iexact PR000
  ihave BR000 := (Entails.of_eq (show bigSep ((sched ct).duties (dcell c 1 0 0 0) 0 \ ∅) (fun d => (sched ct).payload (dcell c 1 0 0 0) 0 d)
      = heldV c (dst_rs_0_0_0 (peer 0 0 c)) fullShare (fun i v => pRS ct 0 c (sh := S512x1024) i v) from rest_dma ct c 1 0 0 0 rfl)) $$ Hpay
  ihave BR000 := (heldV_open (F := F) c _ fullShare _) $$ BR000
  icases BR000 with ⟨%g000, BR000, %hg000⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch1 : Memref sig .tc .vmem S512x1024 .bf16))
      (S := (dst_rs_0_0_0 (peer 0 0 c)).view.set) (by rw [← rsLoad_0_0_0 c]; exact (View.set_slice _ _).symm.subset)) $$ BR000; iintro BR000
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off14 c) S256x384.size (k0_off14_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch7 : Memref sig .tc .vmem S256x1024 .bf16))
      (S := ssCol_1_0) ((View.set_slice _ _).symm.subset)) $$ He0; iintro He0
  iapply (wp_store Segs.𝒱₀ (c : Thread nD τ) none Set.univ (m := (Memref.whole cc0_scratch7 : Memref sig .tc .vmem S256x1024 .bf16)) (r := Rect.unit (s := S256x1024) ![0, 0] S256x384.size inb_S256x1024_S256x384_0_0) (Mk := Finset.univ)
      (S := ssCol_1_0) (Finset.Subset.refl _)) $$ He0; iintro He0
  ihave Hrows := ((ss_rows_at_1_0 (F := F) c fullShare _).1) $$ He0
  icases Hrows with ⟨Hsrc100, Hsrc101⟩
  ihave LD100 := (loanV_open (F := F) (peer 0 1 c) (dst_rs_1_0_0 c)) $$ LD100
  icases LD100 with ⟨%fd100, LD100⟩
  ihave #HIS100 := (inv_dma ct K c 0 1 0 0 rfl) $$ HR
  ihave #HIR100 := (inv_dma ct K (peer 0 1 c) 1 1 0 0 rfl) $$ HR
  ihave #HrS100 := (reached_dma ct K c 0 1 0 0 rfl) $$ HR
  ihave #HrR100 := (reached_dma ct K (peer 0 1 c) 1 1 0 0 rfl) $$ HR
  iapply (send_step ct (K (c, ⟨(dsem 0 1 0 0).val, Nat.lt_trans (dsem 0 1 0 0).isLt (by decide)⟩)) (K (peer 0 1 c, ⟨(dsem 1 1 0 0).val, Nat.lt_trans (dsem 1 1 0 0).isLt (by decide)⟩)) c _ (peer 0 1 c) (dev_rs_1_0_0 c) (src_rs_1_0_0 c) (dst_rs_1_0_0 c) (dsem 0 1 0 0) (dsem 1 1 0 0)
      (SegB1AltVal.sendP0 c (SegB1AltVal.dcc1 c fa g000) g70) fd100 (owedFrom c 12) (insert (SemLoc.dma (dsem 1 0 0 0), ()) (insert (SemLoc.dma (dsem 0 0 0 0), ()) W))
      (fun i v => pRS ct 1 (peer 0 1 c) (sh := S256x1024) i v)
      (duties_dma ct c 0 1 0 0 rfl) (duties_dma ct (peer 0 1 c) 1 1 0 0 rfl) (amtIx (dsem 1 1 0 0).val) rfl rfl rfl rfl
      (by show recv_rs_1_0_0 ct (peer 0 1 c) = _; unfold recv_rs_1_0_0; rw [peer_peer])
      (SegB1AltVal.sent_1_0_0 ct c YA YB laws fa g000 g70 fd100 hfa hg000)) $$ [Hsrc100 LD100 How TS100 TR100]
  · isplitr
    · iexact HIS100
    isplitr
    · iexact HIR100
    isplitl [Hsrc100]
    · iexact Hsrc100
    isplitl [LD100]
    · iexact LD100
    isplitl [How]
    · iexact How
    isplitl [TS100]
    · iexact TS100
    isplitr
    · iexact HrS100
    isplitl [TR100]
    · iexact TR100
    iexact HrR100
  iintro ⟨CS100, How⟩
  ihave LD101 := (loanV_open (F := F) (peer 0 1 c) (dst_rs_1_0_1 c)) $$ LD101
  icases LD101 with ⟨%fd101, LD101⟩
  ihave #HIS101 := (inv_dma ct K c 0 1 0 1 rfl) $$ HR
  ihave #HIR101 := (inv_dma ct K (peer 0 1 c) 1 1 0 1 rfl) $$ HR
  ihave #HrS101 := (reached_dma ct K c 0 1 0 1 rfl) $$ HR
  ihave #HrR101 := (reached_dma ct K (peer 0 1 c) 1 1 0 1 rfl) $$ HR
  iapply (send_step ct (K (c, ⟨(dsem 0 1 0 1).val, Nat.lt_trans (dsem 0 1 0 1).isLt (by decide)⟩)) (K (peer 0 1 c, ⟨(dsem 1 1 0 1).val, Nat.lt_trans (dsem 1 1 0 1).isLt (by decide)⟩)) c _ (peer 0 1 c) (dev_rs_1_0_1 c) (src_rs_1_0_1 c) (dst_rs_1_0_1 c) (dsem 0 1 0 1) (dsem 1 1 0 1)
      (SegB1AltVal.sendP0 c (SegB1AltVal.dcc1 c fa g000) g70) fd101 (owedFrom c 13) (insert (SemLoc.dma (dsem 1 0 0 0), ()) (insert (SemLoc.dma (dsem 0 0 0 0), ()) W))
      (fun i v => pRS ct 1 (peer 0 1 c) (sh := S256x1024) i v)
      (duties_dma ct c 0 1 0 1 rfl) (duties_dma ct (peer 0 1 c) 1 1 0 1 rfl) (amtIx (dsem 1 1 0 1).val) rfl rfl rfl rfl
      (by show recv_rs_1_0_1 ct (peer 0 1 c) = _; unfold recv_rs_1_0_1; rw [peer_peer])
      (SegB1AltVal.sent_1_0_1 ct c YA YB laws fa g000 g70 fd101 hfa hg000)) $$ [Hsrc101 LD101 How TS101 TR101]
  · isplitr
    · iexact HIS101
    isplitr
    · iexact HIR101
    isplitl [Hsrc101]
    · iexact Hsrc101
    isplitl [LD101]
    · iexact LD101
    isplitl [How]
    · iexact How
    isplitl [TS101]
    · iexact TS101
    isplitr
    · iexact HrS101
    isplitl [TR101]
    · iexact TR101
    iexact HrR101
  iintro ⟨CS101, How⟩
  -- the wait on cell (0, 0, 1, 0), and the cell closed
  ihave #MWS010 := (mayWait_cell (F := F) c 0 0 1 0 13 (by decide +kernel)) $$ Hlev
  ihave #HIS010 := (inv_dma ct K c 0 0 1 0 rfl) $$ HR
  iapply (Rounds.wp_wait_rest_token Segs.𝒱₀ ER (sched ct) (c : Thread nD τ) none (κ := (K (c, ⟨(dsem 0 0 1 0).val, Nat.lt_trans (dsem 0 0 1 0).isLt (by decide)⟩))) (sm := SemLoc.dma (dsem 0 0 1 0))
      (wpE_waitDma2_eq Segs.𝒱₀ (c : Thread nD τ) none Set.univ) (Set.mem_univ _) () (O := owedFrom c 13) (W := (insert (SemLoc.dma (dsem 1 0 0 0), ()) (insert (SemLoc.dma (dsem 0 0 0 0), ()) W))) (R := 0) (m := 0) (T := ∅)
      (by rw [Nat.zero_add, expect_dma ct c 0 0 1 0 rfl]; rfl)) $$ [CS010 How PS010]
  · isplitr
    · iexact HIS010
    isplitl [CS010]
    · iexact CS010
    isplitl [How]
    · iexact How
    isplitr
    · iexact MWS010
    iexact PS010
  iintro ⟨How, PS010, -, Hpay⟩
  imod (Rounds.cell_close ER (sched ct) (g := dcell c 0 0 1 0) (Set.mem_univ _) (fun h => h) (R := 1)
    (fun r hr => duties_later ct _ r hr)) $$ [PS010] with VS010
  · isplitr
    · iexact HIS010
    iexact PS010
  ihave BS010 := (Entails.of_eq (show bigSep ((sched ct).duties (dcell c 0 0 1 0) 0 \ ∅) (fun d => (sched ct).payload (dcell c 0 0 1 0) 0 d)
      = loanV c (src_rs_0_1_0 c) from rest_dma ct c 0 0 1 0 rfl)) $$ Hpay
  -- the wait on cell (1, 0, 1, 0), and the cell closed
  ihave #MWR010 := (mayWait_cell (F := F) c 1 0 1 0 13 (by decide +kernel)) $$ Hlev
  ihave #HIR010 := (inv_dma ct K c 1 0 1 0 rfl) $$ HR
  iapply (Rounds.wp_wait_rest_token Segs.𝒱₀ ER (sched ct) (c : Thread nD τ) none (κ := (K (c, ⟨(dsem 1 0 1 0).val, Nat.lt_trans (dsem 1 0 1 0).isLt (by decide)⟩))) (sm := SemLoc.dma (dsem 1 0 1 0))
      (wpE_waitDma2_eq Segs.𝒱₀ (c : Thread nD τ) none Set.univ) (Set.mem_univ _) () (O := owedFrom c 13) (W := (insert (SemLoc.dma (dsem 0 0 1 0), ()) (insert (SemLoc.dma (dsem 1 0 0 0), ()) (insert (SemLoc.dma (dsem 0 0 0 0), ()) W)))) (R := 0) (m := 0) (T := ∅)
      (by rw [Nat.zero_add, expect_dma ct c 1 0 1 0 rfl]; rfl)) $$ [CR010 How PR010]
  · isplitr
    · iexact HIR010
    isplitl [CR010]
    · iexact CR010
    isplitl [How]
    · iexact How
    isplitr
    · iexact MWR010
    iexact PR010
  iintro ⟨How, PR010, -, Hpay⟩
  imod (Rounds.cell_close ER (sched ct) (g := dcell c 1 0 1 0) (Set.mem_univ _) (fun h => h) (R := 1)
    (fun r hr => duties_later ct _ r hr)) $$ [PR010] with VR010
  · isplitr
    · iexact HIR010
    iexact PR010
  ihave BR010 := (Entails.of_eq (show bigSep ((sched ct).duties (dcell c 1 0 1 0) 0 \ ∅) (fun d => (sched ct).payload (dcell c 1 0 1 0) 0 d)
      = heldV c (dst_rs_0_1_0 (peer 1 0 c)) fullShare (fun i v => pRS ct 0 c (sh := S512x1024) i v) from rest_dma ct c 1 0 1 0 rfl)) $$ Hpay
  ihave BR010 := (heldV_open (F := F) c _ fullShare _) $$ BR010
  icases BR010 with ⟨%g010, BR010, %hg010⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch1 : Memref sig .tc .vmem S512x1024 .bf16))
      (S := (dst_rs_0_1_0 (peer 1 0 c)).view.set) (by rw [← rsLoad_0_1_0 c]; exact (View.set_slice _ _).symm.subset)) $$ BR010; iintro BR010
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off18 c) S256x384.size (k0_off18_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch7 : Memref sig .tc .vmem S256x1024 .bf16))
      (S := ssCol_1_1) ((View.set_slice _ _).symm.subset)) $$ He1; iintro He1
  iapply (wp_store Segs.𝒱₀ (c : Thread nD τ) none Set.univ (m := (Memref.whole cc0_scratch7 : Memref sig .tc .vmem S256x1024 .bf16)) (r := Rect.unit (s := S256x1024) ![0, 384] S256x384.size inb_S256x1024_S256x384_0_384) (Mk := Finset.univ)
      (S := ssCol_1_1) (Finset.Subset.refl _)) $$ He1; iintro He1
  ihave Hrows := ((ss_rows_at_1_1 (F := F) c fullShare _).1) $$ He1
  icases Hrows with ⟨Hsrc110, Hsrc111⟩
  ihave LD110 := (loanV_open (F := F) (peer 1 1 c) (dst_rs_1_1_0 c)) $$ LD110
  icases LD110 with ⟨%fd110, LD110⟩
  ihave #HIS110 := (inv_dma ct K c 0 1 1 0 rfl) $$ HR
  ihave #HIR110 := (inv_dma ct K (peer 1 1 c) 1 1 1 0 rfl) $$ HR
  ihave #HrS110 := (reached_dma ct K c 0 1 1 0 rfl) $$ HR
  ihave #HrR110 := (reached_dma ct K (peer 1 1 c) 1 1 1 0 rfl) $$ HR
  iapply (send_step ct (K (c, ⟨(dsem 0 1 1 0).val, Nat.lt_trans (dsem 0 1 1 0).isLt (by decide)⟩)) (K (peer 1 1 c, ⟨(dsem 1 1 1 0).val, Nat.lt_trans (dsem 1 1 1 0).isLt (by decide)⟩)) c _ (peer 1 1 c) (dev_rs_1_1_0 c) (src_rs_1_1_0 c) (dst_rs_1_1_0 c) (dsem 0 1 1 0) (dsem 1 1 1 0)
      (SegB1AltVal.sendP1 c (SegB1AltVal.dcc2 c fa g000 g010) g71) fd110 (owedFrom c 14) (insert (SemLoc.dma (dsem 1 0 1 0), ()) (insert (SemLoc.dma (dsem 0 0 1 0), ()) (insert (SemLoc.dma (dsem 1 0 0 0), ()) (insert (SemLoc.dma (dsem 0 0 0 0), ()) W))))
      (fun i v => pRS ct 1 (peer 1 1 c) (sh := S256x1024) i v)
      (duties_dma ct c 0 1 1 0 rfl) (duties_dma ct (peer 1 1 c) 1 1 1 0 rfl) (amtIx (dsem 1 1 1 0).val) rfl rfl rfl rfl
      (by show recv_rs_1_1_0 ct (peer 1 1 c) = _; unfold recv_rs_1_1_0; rw [peer_peer])
      (SegB1AltVal.sent_1_1_0 ct c YA YB laws fa g000 g010 g71 fd110 hfa hg000 hg010)) $$ [Hsrc110 LD110 How TS110 TR110]
  · isplitr
    · iexact HIS110
    isplitr
    · iexact HIR110
    isplitl [Hsrc110]
    · iexact Hsrc110
    isplitl [LD110]
    · iexact LD110
    isplitl [How]
    · iexact How
    isplitl [TS110]
    · iexact TS110
    isplitr
    · iexact HrS110
    isplitl [TR110]
    · iexact TR110
    iexact HrR110
  iintro ⟨CS110, How⟩
  ihave LD111 := (loanV_open (F := F) (peer 1 1 c) (dst_rs_1_1_1 c)) $$ LD111
  icases LD111 with ⟨%fd111, LD111⟩
  ihave #HIS111 := (inv_dma ct K c 0 1 1 1 rfl) $$ HR
  ihave #HIR111 := (inv_dma ct K (peer 1 1 c) 1 1 1 1 rfl) $$ HR
  ihave #HrS111 := (reached_dma ct K c 0 1 1 1 rfl) $$ HR
  ihave #HrR111 := (reached_dma ct K (peer 1 1 c) 1 1 1 1 rfl) $$ HR
  iapply (send_step ct (K (c, ⟨(dsem 0 1 1 1).val, Nat.lt_trans (dsem 0 1 1 1).isLt (by decide)⟩)) (K (peer 1 1 c, ⟨(dsem 1 1 1 1).val, Nat.lt_trans (dsem 1 1 1 1).isLt (by decide)⟩)) c _ (peer 1 1 c) (dev_rs_1_1_1 c) (src_rs_1_1_1 c) (dst_rs_1_1_1 c) (dsem 0 1 1 1) (dsem 1 1 1 1)
      (SegB1AltVal.sendP1 c (SegB1AltVal.dcc2 c fa g000 g010) g71) fd111 (owedFrom c 15) (insert (SemLoc.dma (dsem 1 0 1 0), ()) (insert (SemLoc.dma (dsem 0 0 1 0), ()) (insert (SemLoc.dma (dsem 1 0 0 0), ()) (insert (SemLoc.dma (dsem 0 0 0 0), ()) W))))
      (fun i v => pRS ct 1 (peer 1 1 c) (sh := S256x1024) i v)
      (duties_dma ct c 0 1 1 1 rfl) (duties_dma ct (peer 1 1 c) 1 1 1 1 rfl) (amtIx (dsem 1 1 1 1).val) rfl rfl rfl rfl
      (by show recv_rs_1_1_1 ct (peer 1 1 c) = _; unfold recv_rs_1_1_1; rw [peer_peer])
      (SegB1AltVal.sent_1_1_1 ct c YA YB laws fa g000 g010 g71 fd111 hfa hg000 hg010)) $$ [Hsrc111 LD111 How TS111 TR111]
  · isplitr
    · iexact HIS111
    isplitr
    · iexact HIR111
    isplitl [Hsrc111]
    · iexact Hsrc111
    isplitl [LD111]
    · iexact LD111
    isplitl [How]
    · iexact How
    isplitl [TS111]
    · iexact TS111
    isplitr
    · iexact HrS111
    isplitl [TR111]
    · iexact TR111
    iexact HrR111
  iintro ⟨CS111, How⟩
  -- the wait on cell (0, 0, 2, 0), and the cell closed
  ihave #MWS020 := (mayWait_cell (F := F) c 0 0 2 0 15 (by decide +kernel)) $$ Hlev
  ihave #HIS020 := (inv_dma ct K c 0 0 2 0 rfl) $$ HR
  iapply (Rounds.wp_wait_rest_token Segs.𝒱₀ ER (sched ct) (c : Thread nD τ) none (κ := (K (c, ⟨(dsem 0 0 2 0).val, Nat.lt_trans (dsem 0 0 2 0).isLt (by decide)⟩))) (sm := SemLoc.dma (dsem 0 0 2 0))
      (wpE_waitDma2_eq Segs.𝒱₀ (c : Thread nD τ) none Set.univ) (Set.mem_univ _) () (O := owedFrom c 15) (W := (insert (SemLoc.dma (dsem 1 0 1 0), ()) (insert (SemLoc.dma (dsem 0 0 1 0), ()) (insert (SemLoc.dma (dsem 1 0 0 0), ()) (insert (SemLoc.dma (dsem 0 0 0 0), ()) W))))) (R := 0) (m := 0) (T := ∅)
      (by rw [Nat.zero_add, expect_dma ct c 0 0 2 0 rfl]; rfl)) $$ [CS020 How PS020]
  · isplitr
    · iexact HIS020
    isplitl [CS020]
    · iexact CS020
    isplitl [How]
    · iexact How
    isplitr
    · iexact MWS020
    iexact PS020
  iintro ⟨How, PS020, -, Hpay⟩
  imod (Rounds.cell_close ER (sched ct) (g := dcell c 0 0 2 0) (Set.mem_univ _) (fun h => h) (R := 1)
    (fun r hr => duties_later ct _ r hr)) $$ [PS020] with VS020
  · isplitr
    · iexact HIS020
    iexact PS020
  ihave BS020 := (Entails.of_eq (show bigSep ((sched ct).duties (dcell c 0 0 2 0) 0 \ ∅) (fun d => (sched ct).payload (dcell c 0 0 2 0) 0 d)
      = loanV c (src_rs_0_2_0 c) from rest_dma ct c 0 0 2 0 rfl)) $$ Hpay
  -- the wait on cell (1, 0, 2, 0), and the cell closed
  ihave #MWR020 := (mayWait_cell (F := F) c 1 0 2 0 15 (by decide +kernel)) $$ Hlev
  ihave #HIR020 := (inv_dma ct K c 1 0 2 0 rfl) $$ HR
  iapply (Rounds.wp_wait_rest_token Segs.𝒱₀ ER (sched ct) (c : Thread nD τ) none (κ := (K (c, ⟨(dsem 1 0 2 0).val, Nat.lt_trans (dsem 1 0 2 0).isLt (by decide)⟩))) (sm := SemLoc.dma (dsem 1 0 2 0))
      (wpE_waitDma2_eq Segs.𝒱₀ (c : Thread nD τ) none Set.univ) (Set.mem_univ _) () (O := owedFrom c 15) (W := (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W)))))) (R := 0) (m := 0) (T := ∅)
      (by rw [Nat.zero_add, expect_dma ct c 1 0 2 0 rfl]; rfl)) $$ [CR020 How PR020]
  · isplitr
    · iexact HIR020
    isplitl [CR020]
    · iexact CR020
    isplitl [How]
    · iexact How
    isplitr
    · iexact MWR020
    iexact PR020
  iintro ⟨How, PR020, -, Hpay⟩
  imod (Rounds.cell_close ER (sched ct) (g := dcell c 1 0 2 0) (Set.mem_univ _) (fun h => h) (R := 1)
    (fun r hr => duties_later ct _ r hr)) $$ [PR020] with VR020
  · isplitr
    · iexact HIR020
    iexact PR020
  ihave BR020 := (Entails.of_eq (show bigSep ((sched ct).duties (dcell c 1 0 2 0) 0 \ ∅) (fun d => (sched ct).payload (dcell c 1 0 2 0) 0 d)
      = heldV c (dst_rs_0_2_0 (peer 2 0 c)) fullShare (fun i v => pRS ct 0 c (sh := S512x1024) i v) from rest_dma ct c 1 0 2 0 rfl)) $$ Hpay
  ihave BR020 := (heldV_open (F := F) c _ fullShare _) $$ BR020
  icases BR020 with ⟨%g020, BR020, %hg020⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch1 : Memref sig .tc .vmem S512x1024 .bf16))
      (S := (dst_rs_0_2_0 (peer 2 0 c)).view.set) (by rw [← rsLoad_0_2_0 c]; exact (View.set_slice _ _).symm.subset)) $$ BR020; iintro BR020
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off22 c) S256x256.size (k0_off22_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch7 : Memref sig .tc .vmem S256x1024 .bf16))
      (S := ssCol_1_2) ((View.set_slice _ _).symm.subset)) $$ He2; iintro He2
  iapply (wp_store Segs.𝒱₀ (c : Thread nD τ) none Set.univ (m := (Memref.whole cc0_scratch7 : Memref sig .tc .vmem S256x1024 .bf16)) (r := Rect.unit (s := S256x1024) ![0, 768] S256x256.size inb_S256x1024_S256x256_0_768) (Mk := Finset.univ)
      (S := ssCol_1_2) (Finset.Subset.refl _)) $$ He2; iintro He2
  ihave Hrows := ((ss_rows_at_1_2 (F := F) c fullShare _).1) $$ He2
  icases Hrows with ⟨Hsrc120, Hsrc121⟩
  ihave LD120 := (loanV_open (F := F) (peer 2 1 c) (dst_rs_1_2_0 c)) $$ LD120
  icases LD120 with ⟨%fd120, LD120⟩
  ihave #HIS120 := (inv_dma ct K c 0 1 2 0 rfl) $$ HR
  ihave #HIR120 := (inv_dma ct K (peer 2 1 c) 1 1 2 0 rfl) $$ HR
  ihave #HrS120 := (reached_dma ct K c 0 1 2 0 rfl) $$ HR
  ihave #HrR120 := (reached_dma ct K (peer 2 1 c) 1 1 2 0 rfl) $$ HR
  iapply (send_step ct (K (c, ⟨(dsem 0 1 2 0).val, Nat.lt_trans (dsem 0 1 2 0).isLt (by decide)⟩)) (K (peer 2 1 c, ⟨(dsem 1 1 2 0).val, Nat.lt_trans (dsem 1 1 2 0).isLt (by decide)⟩)) c _ (peer 2 1 c) (dev_rs_1_2_0 c) (src_rs_1_2_0 c) (dst_rs_1_2_0 c) (dsem 0 1 2 0) (dsem 1 1 2 0)
      (SegB1AltVal.sendP2 c (SegB1AltVal.dcc3 c fa g000 g010 g020) g72) fd120 (owedFrom c 16) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))
      (fun i v => pRS ct 1 (peer 2 1 c) (sh := S256x1024) i v)
      (duties_dma ct c 0 1 2 0 rfl) (duties_dma ct (peer 2 1 c) 1 1 2 0 rfl) (amtIx (dsem 1 1 2 0).val) rfl rfl rfl rfl
      (by show recv_rs_1_2_0 ct (peer 2 1 c) = _; unfold recv_rs_1_2_0; rw [peer_peer])
      (SegB1AltVal.sent_1_2_0 ct c YA YB laws fa g000 g010 g020 g72 fd120 hfa hg000 hg010 hg020)) $$ [Hsrc120 LD120 How TS120 TR120]
  · isplitr
    · iexact HIS120
    isplitr
    · iexact HIR120
    isplitl [Hsrc120]
    · iexact Hsrc120
    isplitl [LD120]
    · iexact LD120
    isplitl [How]
    · iexact How
    isplitl [TS120]
    · iexact TS120
    isplitr
    · iexact HrS120
    isplitl [TR120]
    · iexact TR120
    iexact HrR120
  iintro ⟨CS120, How⟩
  ihave LD121 := (loanV_open (F := F) (peer 2 1 c) (dst_rs_1_2_1 c)) $$ LD121
  icases LD121 with ⟨%fd121, LD121⟩
  ihave #HIS121 := (inv_dma ct K c 0 1 2 1 rfl) $$ HR
  ihave #HIR121 := (inv_dma ct K (peer 2 1 c) 1 1 2 1 rfl) $$ HR
  ihave #HrS121 := (reached_dma ct K c 0 1 2 1 rfl) $$ HR
  ihave #HrR121 := (reached_dma ct K (peer 2 1 c) 1 1 2 1 rfl) $$ HR
  iapply (send_step ct (K (c, ⟨(dsem 0 1 2 1).val, Nat.lt_trans (dsem 0 1 2 1).isLt (by decide)⟩)) (K (peer 2 1 c, ⟨(dsem 1 1 2 1).val, Nat.lt_trans (dsem 1 1 2 1).isLt (by decide)⟩)) c _ (peer 2 1 c) (dev_rs_1_2_1 c) (src_rs_1_2_1 c) (dst_rs_1_2_1 c) (dsem 0 1 2 1) (dsem 1 1 2 1)
      (SegB1AltVal.sendP2 c (SegB1AltVal.dcc3 c fa g000 g010 g020) g72) fd121 (owedFrom c 17) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))
      (fun i v => pRS ct 1 (peer 2 1 c) (sh := S256x1024) i v)
      (duties_dma ct c 0 1 2 1 rfl) (duties_dma ct (peer 2 1 c) 1 1 2 1 rfl) (amtIx (dsem 1 1 2 1).val) rfl rfl rfl rfl
      (by show recv_rs_1_2_1 ct (peer 2 1 c) = _; unfold recv_rs_1_2_1; rw [peer_peer])
      (SegB1AltVal.sent_1_2_1 ct c YA YB laws fa g000 g010 g020 g72 fd121 hfa hg000 hg010 hg020)) $$ [Hsrc121 LD121 How TS121 TR121]
  · isplitr
    · iexact HIS121
    isplitr
    · iexact HIR121
    isplitl [Hsrc121]
    · iexact Hsrc121
    isplitl [LD121]
    · iexact LD121
    isplitl [How]
    · iexact How
    isplitl [TS121]
    · iexact TS121
    isplitr
    · iexact HrS121
    isplitl [TR121]
    · iexact TR121
    iexact HrR121
  iintro ⟨CS121, How⟩
  -- the wait on cell (0, 0, 0, 1), and the cell closed
  ihave #MWS001 := (mayWait_cell (F := F) c 0 0 0 1 17 (by decide +kernel)) $$ Hlev
  ihave #HIS001 := (inv_dma ct K c 0 0 0 1 rfl) $$ HR
  iapply (Rounds.wp_wait_rest_token Segs.𝒱₀ ER (sched ct) (c : Thread nD τ) none (κ := (K (c, ⟨(dsem 0 0 0 1).val, Nat.lt_trans (dsem 0 0 0 1).isLt (by decide)⟩))) (sm := SemLoc.dma (dsem 0 0 0 1))
      (wpE_waitDma2_eq Segs.𝒱₀ (c : Thread nD τ) none Set.univ) (Set.mem_univ _) () (O := owedFrom c 17) (W := (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))) (R := 0) (m := 0) (T := ∅)
      (by rw [Nat.zero_add, expect_dma ct c 0 0 0 1 rfl]; rfl)) $$ [CS001 How PS001]
  · isplitr
    · iexact HIS001
    isplitl [CS001]
    · iexact CS001
    isplitl [How]
    · iexact How
    isplitr
    · iexact MWS001
    iexact PS001
  iintro ⟨How, PS001, -, Hpay⟩
  imod (Rounds.cell_close ER (sched ct) (g := dcell c 0 0 0 1) (Set.mem_univ _) (fun h => h) (R := 1)
    (fun r hr => duties_later ct _ r hr)) $$ [PS001] with VS001
  · isplitr
    · iexact HIS001
    iexact PS001
  ihave BS001 := (Entails.of_eq (show bigSep ((sched ct).duties (dcell c 0 0 0 1) 0 \ ∅) (fun d => (sched ct).payload (dcell c 0 0 0 1) 0 d)
      = loanV c (src_rs_0_0_1 c) from rest_dma ct c 0 0 0 1 rfl)) $$ Hpay
  -- the wait on cell (1, 0, 0, 1), and the cell closed
  ihave #MWR001 := (mayWait_cell (F := F) c 1 0 0 1 17 (by decide +kernel)) $$ Hlev
  ihave #HIR001 := (inv_dma ct K c 1 0 0 1 rfl) $$ HR
  iapply (Rounds.wp_wait_rest_token Segs.𝒱₀ ER (sched ct) (c : Thread nD τ) none (κ := (K (c, ⟨(dsem 1 0 0 1).val, Nat.lt_trans (dsem 1 0 0 1).isLt (by decide)⟩))) (sm := SemLoc.dma (dsem 1 0 0 1))
      (wpE_waitDma2_eq Segs.𝒱₀ (c : Thread nD τ) none Set.univ) (Set.mem_univ _) () (O := owedFrom c 17) (W := (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W)))))))) (R := 0) (m := 0) (T := ∅)
      (by rw [Nat.zero_add, expect_dma ct c 1 0 0 1 rfl]; rfl)) $$ [CR001 How PR001]
  · isplitr
    · iexact HIR001
    isplitl [CR001]
    · iexact CR001
    isplitl [How]
    · iexact How
    isplitr
    · iexact MWR001
    iexact PR001
  iintro ⟨How, PR001, -, Hpay⟩
  imod (Rounds.cell_close ER (sched ct) (g := dcell c 1 0 0 1) (Set.mem_univ _) (fun h => h) (R := 1)
    (fun r hr => duties_later ct _ r hr)) $$ [PR001] with VR001
  · isplitr
    · iexact HIR001
    iexact PR001
  ihave BR001 := (Entails.of_eq (show bigSep ((sched ct).duties (dcell c 1 0 0 1) 0 \ ∅) (fun d => (sched ct).payload (dcell c 1 0 0 1) 0 d)
      = heldV c (dst_rs_0_0_1 (peer 0 0 c)) fullShare (fun i v => pRS ct 0 c (sh := S512x1024) i v) from rest_dma ct c 1 0 0 1 rfl)) $$ Hpay
  ihave BR001 := (heldV_open (F := F) c _ fullShare _) $$ BR001
  icases BR001 with ⟨%g001, BR001, %hg001⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch1 : Memref sig .tc .vmem S512x1024 .bf16))
      (S := (dst_rs_0_0_1 (peer 0 0 c)).view.set) (by rw [← rsLoad_0_0_1 c]; exact (View.set_slice _ _).symm.subset)) $$ BR001; iintro BR001
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off26 c) S256x384.size (k0_off26_inb c)) (Mk := Finset.univ) (Finset.subset_univ _)) $$ Hacc; iintro Hacc
  -- the wait on cell (0, 0, 1, 1), and the cell closed
  ihave #MWS011 := (mayWait_cell (F := F) c 0 0 1 1 17 (by decide +kernel)) $$ Hlev
  ihave #HIS011 := (inv_dma ct K c 0 0 1 1 rfl) $$ HR
  iapply (Rounds.wp_wait_rest_token Segs.𝒱₀ ER (sched ct) (c : Thread nD τ) none (κ := (K (c, ⟨(dsem 0 0 1 1).val, Nat.lt_trans (dsem 0 0 1 1).isLt (by decide)⟩))) (sm := SemLoc.dma (dsem 0 0 1 1))
      (wpE_waitDma2_eq Segs.𝒱₀ (c : Thread nD τ) none Set.univ) (Set.mem_univ _) () (O := owedFrom c 17) (W := (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))) (R := 0) (m := 0) (T := ∅)
      (by rw [Nat.zero_add, expect_dma ct c 0 0 1 1 rfl]; rfl)) $$ [CS011 How PS011]
  · isplitr
    · iexact HIS011
    isplitl [CS011]
    · iexact CS011
    isplitl [How]
    · iexact How
    isplitr
    · iexact MWS011
    iexact PS011
  iintro ⟨How, PS011, -, Hpay⟩
  imod (Rounds.cell_close ER (sched ct) (g := dcell c 0 0 1 1) (Set.mem_univ _) (fun h => h) (R := 1)
    (fun r hr => duties_later ct _ r hr)) $$ [PS011] with VS011
  · isplitr
    · iexact HIS011
    iexact PS011
  ihave BS011 := (Entails.of_eq (show bigSep ((sched ct).duties (dcell c 0 0 1 1) 0 \ ∅) (fun d => (sched ct).payload (dcell c 0 0 1 1) 0 d)
      = loanV c (src_rs_0_1_1 c) from rest_dma ct c 0 0 1 1 rfl)) $$ Hpay
  -- the wait on cell (1, 0, 1, 1), and the cell closed
  ihave #MWR011 := (mayWait_cell (F := F) c 1 0 1 1 17 (by decide +kernel)) $$ Hlev
  ihave #HIR011 := (inv_dma ct K c 1 0 1 1 rfl) $$ HR
  iapply (Rounds.wp_wait_rest_token Segs.𝒱₀ ER (sched ct) (c : Thread nD τ) none (κ := (K (c, ⟨(dsem 1 0 1 1).val, Nat.lt_trans (dsem 1 0 1 1).isLt (by decide)⟩))) (sm := SemLoc.dma (dsem 1 0 1 1))
      (wpE_waitDma2_eq Segs.𝒱₀ (c : Thread nD τ) none Set.univ) (Set.mem_univ _) () (O := owedFrom c 17) (W := (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W)))))))))) (R := 0) (m := 0) (T := ∅)
      (by rw [Nat.zero_add, expect_dma ct c 1 0 1 1 rfl]; rfl)) $$ [CR011 How PR011]
  · isplitr
    · iexact HIR011
    isplitl [CR011]
    · iexact CR011
    isplitl [How]
    · iexact How
    isplitr
    · iexact MWR011
    iexact PR011
  iintro ⟨How, PR011, -, Hpay⟩
  imod (Rounds.cell_close ER (sched ct) (g := dcell c 1 0 1 1) (Set.mem_univ _) (fun h => h) (R := 1)
    (fun r hr => duties_later ct _ r hr)) $$ [PR011] with VR011
  · isplitr
    · iexact HIR011
    iexact PR011
  ihave BR011 := (Entails.of_eq (show bigSep ((sched ct).duties (dcell c 1 0 1 1) 0 \ ∅) (fun d => (sched ct).payload (dcell c 1 0 1 1) 0 d)
      = heldV c (dst_rs_0_1_1 (peer 1 0 c)) fullShare (fun i v => pRS ct 0 c (sh := S512x1024) i v) from rest_dma ct c 1 0 1 1 rfl)) $$ Hpay
  ihave BR011 := (heldV_open (F := F) c _ fullShare _) $$ BR011
  icases BR011 with ⟨%g011, BR011, %hg011⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch1 : Memref sig .tc .vmem S512x1024 .bf16))
      (S := (dst_rs_0_1_1 (peer 1 0 c)).view.set) (by rw [← rsLoad_0_1_1 c]; exact (View.set_slice _ _).symm.subset)) $$ BR011; iintro BR011
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off28 c) S256x384.size (k0_off28_inb c)) (Mk := Finset.univ) (Finset.subset_univ _)) $$ Hacc; iintro Hacc
  -- the wait on cell (0, 0, 2, 1), and the cell closed
  ihave #MWS021 := (mayWait_cell (F := F) c 0 0 2 1 17 (by decide +kernel)) $$ Hlev
  ihave #HIS021 := (inv_dma ct K c 0 0 2 1 rfl) $$ HR
  iapply (Rounds.wp_wait_rest_token Segs.𝒱₀ ER (sched ct) (c : Thread nD τ) none (κ := (K (c, ⟨(dsem 0 0 2 1).val, Nat.lt_trans (dsem 0 0 2 1).isLt (by decide)⟩))) (sm := SemLoc.dma (dsem 0 0 2 1))
      (wpE_waitDma2_eq Segs.𝒱₀ (c : Thread nD τ) none Set.univ) (Set.mem_univ _) () (O := owedFrom c 17) (W := (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))) (R := 0) (m := 0) (T := ∅)
      (by rw [Nat.zero_add, expect_dma ct c 0 0 2 1 rfl]; rfl)) $$ [CS021 How PS021]
  · isplitr
    · iexact HIS021
    isplitl [CS021]
    · iexact CS021
    isplitl [How]
    · iexact How
    isplitr
    · iexact MWS021
    iexact PS021
  iintro ⟨How, PS021, -, Hpay⟩
  imod (Rounds.cell_close ER (sched ct) (g := dcell c 0 0 2 1) (Set.mem_univ _) (fun h => h) (R := 1)
    (fun r hr => duties_later ct _ r hr)) $$ [PS021] with VS021
  · isplitr
    · iexact HIS021
    iexact PS021
  ihave BS021 := (Entails.of_eq (show bigSep ((sched ct).duties (dcell c 0 0 2 1) 0 \ ∅) (fun d => (sched ct).payload (dcell c 0 0 2 1) 0 d)
      = loanV c (src_rs_0_2_1 c) from rest_dma ct c 0 0 2 1 rfl)) $$ Hpay
  -- the wait on cell (1, 0, 2, 1), and the cell closed
  ihave #MWR021 := (mayWait_cell (F := F) c 1 0 2 1 17 (by decide +kernel)) $$ Hlev
  ihave #HIR021 := (inv_dma ct K c 1 0 2 1 rfl) $$ HR
  iapply (Rounds.wp_wait_rest_token Segs.𝒱₀ ER (sched ct) (c : Thread nD τ) none (κ := (K (c, ⟨(dsem 1 0 2 1).val, Nat.lt_trans (dsem 1 0 2 1).isLt (by decide)⟩))) (sm := SemLoc.dma (dsem 1 0 2 1))
      (wpE_waitDma2_eq Segs.𝒱₀ (c : Thread nD τ) none Set.univ) (Set.mem_univ _) () (O := owedFrom c 17) (W := (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W)))))))))))) (R := 0) (m := 0) (T := ∅)
      (by rw [Nat.zero_add, expect_dma ct c 1 0 2 1 rfl]; rfl)) $$ [CR021 How PR021]
  · isplitr
    · iexact HIR021
    isplitl [CR021]
    · iexact CR021
    isplitl [How]
    · iexact How
    isplitr
    · iexact MWR021
    iexact PR021
  iintro ⟨How, PR021, -, Hpay⟩
  imod (Rounds.cell_close ER (sched ct) (g := dcell c 1 0 2 1) (Set.mem_univ _) (fun h => h) (R := 1)
    (fun r hr => duties_later ct _ r hr)) $$ [PR021] with VR021
  · isplitr
    · iexact HIR021
    iexact PR021
  ihave BR021 := (Entails.of_eq (show bigSep ((sched ct).duties (dcell c 1 0 2 1) 0 \ ∅) (fun d => (sched ct).payload (dcell c 1 0 2 1) 0 d)
      = heldV c (dst_rs_0_2_1 (peer 2 0 c)) fullShare (fun i v => pRS ct 0 c (sh := S512x1024) i v) from rest_dma ct c 1 0 2 1 rfl)) $$ Hpay
  ihave BR021 := (heldV_open (F := F) c _ fullShare _) $$ BR021
  icases BR021 with ⟨%g021, BR021, %hg021⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch1 : Memref sig .tc .vmem S512x1024 .bf16))
      (S := (dst_rs_0_2_1 (peer 2 0 c)).view.set) (by rw [← rsLoad_0_2_1 c]; exact (View.set_slice _ _).symm.subset)) $$ BR021; iintro BR021
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off30 c) S256x256.size (k0_off30_inb c)) (Mk := Finset.univ) (Finset.subset_univ _)) $$ Hacc; iintro Hacc
  -- the wait on cell (0, 1, 0, 0), and the cell closed
  ihave #MWS100 := (mayWait_cell (F := F) c 0 1 0 0 17 (by decide +kernel)) $$ Hlev
  ihave #HIS100 := (inv_dma ct K c 0 1 0 0 rfl) $$ HR
  iapply (Rounds.wp_wait_rest_token Segs.𝒱₀ ER (sched ct) (c : Thread nD τ) none (κ := (K (c, ⟨(dsem 0 1 0 0).val, Nat.lt_trans (dsem 0 1 0 0).isLt (by decide)⟩))) (sm := SemLoc.dma (dsem 0 1 0 0))
      (wpE_waitDma2_eq Segs.𝒱₀ (c : Thread nD τ) none Set.univ) (Set.mem_univ _) () (O := owedFrom c 17) (W := (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))) (R := 0) (m := 0) (T := ∅)
      (by rw [Nat.zero_add, expect_dma ct c 0 1 0 0 rfl]; rfl)) $$ [CS100 How PS100]
  · isplitr
    · iexact HIS100
    isplitl [CS100]
    · iexact CS100
    isplitl [How]
    · iexact How
    isplitr
    · iexact MWS100
    iexact PS100
  iintro ⟨How, PS100, -, Hpay⟩
  imod (Rounds.cell_close ER (sched ct) (g := dcell c 0 1 0 0) (Set.mem_univ _) (fun h => h) (R := 1)
    (fun r hr => duties_later ct _ r hr)) $$ [PS100] with VS100
  · isplitr
    · iexact HIS100
    iexact PS100
  ihave BS100 := (Entails.of_eq (show bigSep ((sched ct).duties (dcell c 0 1 0 0) 0 \ ∅) (fun d => (sched ct).payload (dcell c 0 1 0 0) 0 d)
      = loanV c (src_rs_1_0_0 c) from rest_dma ct c 0 1 0 0 rfl)) $$ Hpay
  -- the wait on cell (1, 1, 0, 0), and the cell closed
  ihave #MWR100 := (mayWait_cell (F := F) c 1 1 0 0 17 (by decide +kernel)) $$ Hlev
  ihave #HIR100 := (inv_dma ct K c 1 1 0 0 rfl) $$ HR
  iapply (Rounds.wp_wait_rest_token Segs.𝒱₀ ER (sched ct) (c : Thread nD τ) none (κ := (K (c, ⟨(dsem 1 1 0 0).val, Nat.lt_trans (dsem 1 1 0 0).isLt (by decide)⟩))) (sm := SemLoc.dma (dsem 1 1 0 0))
      (wpE_waitDma2_eq Segs.𝒱₀ (c : Thread nD τ) none Set.univ) (Set.mem_univ _) () (O := owedFrom c 17) (W := (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W)))))))))))))) (R := 0) (m := 0) (T := ∅)
      (by rw [Nat.zero_add, expect_dma ct c 1 1 0 0 rfl]; rfl)) $$ [CR100 How PR100]
  · isplitr
    · iexact HIR100
    isplitl [CR100]
    · iexact CR100
    isplitl [How]
    · iexact How
    isplitr
    · iexact MWR100
    iexact PR100
  iintro ⟨How, PR100, -, Hpay⟩
  imod (Rounds.cell_close ER (sched ct) (g := dcell c 1 1 0 0) (Set.mem_univ _) (fun h => h) (R := 1)
    (fun r hr => duties_later ct _ r hr)) $$ [PR100] with VR100
  · isplitr
    · iexact HIR100
    iexact PR100
  ihave BR100 := (Entails.of_eq (show bigSep ((sched ct).duties (dcell c 1 1 0 0) 0 \ ∅) (fun d => (sched ct).payload (dcell c 1 1 0 0) 0 d)
      = heldV c (dst_rs_1_0_0 (peer 0 1 c)) fullShare (fun i v => pRS ct 1 c (sh := S256x1024) i v) from rest_dma ct c 1 1 0 0 rfl)) $$ Hpay
  ihave BR100 := (heldV_open (F := F) c _ fullShare _) $$ BR100
  icases BR100 with ⟨%g100, BR100, %hg100⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch2 : Memref sig .tc .vmem S256x1024 .bf16))
      (S := (dst_rs_1_0_0 (peer 0 1 c)).view.set) (by rw [← rsLoad_1_0_0 c]; exact (View.set_slice _ _).symm.subset)) $$ BR100; iintro BR100
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off32 c) S128x384.size (k0_off32_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch8 : Memref sig .tc .vmem S128x1024 .bf16))
      (S := ssCol_2_0) ((View.set_slice _ _).symm.subset)) $$ Hf0; iintro Hf0
  iapply (wp_store Segs.𝒱₀ (c : Thread nD τ) none Set.univ (m := (Memref.whole cc0_scratch8 : Memref sig .tc .vmem S128x1024 .bf16)) (r := Rect.unit (s := S128x1024) ![0, 0] S128x384.size inb_S128x1024_S128x384_0_0) (Mk := Finset.univ)
      (S := ssCol_2_0) (Finset.Subset.refl _)) $$ Hf0; iintro Hf0
  ihave Hrows := ((ss_rows_at_2_0 (F := F) c fullShare _).1) $$ Hf0
  icases Hrows with ⟨Hsrc200, Hsrc201⟩
  ihave LD200 := (loanV_open (F := F) (peer 0 2 c) (dst_rs_2_0_0 c)) $$ LD200
  icases LD200 with ⟨%fd200, LD200⟩
  ihave #HIS200 := (inv_dma ct K c 0 2 0 0 rfl) $$ HR
  ihave #HIR200 := (inv_dma ct K (peer 0 2 c) 1 2 0 0 rfl) $$ HR
  ihave #HrS200 := (reached_dma ct K c 0 2 0 0 rfl) $$ HR
  ihave #HrR200 := (reached_dma ct K (peer 0 2 c) 1 2 0 0 rfl) $$ HR
  iapply (send_step ct (K (c, ⟨(dsem 0 2 0 0).val, Nat.lt_trans (dsem 0 2 0 0).isLt (by decide)⟩)) (K (peer 0 2 c, ⟨(dsem 1 2 0 0).val, Nat.lt_trans (dsem 1 2 0 0).isLt (by decide)⟩)) c _ (peer 0 2 c) (dev_rs_2_0_0 c) (src_rs_2_0_0 c) (dst_rs_2_0_0 c) (dsem 0 2 0 0) (dsem 1 2 0 0)
      (SegB1AltVal.sendR0 c (SegB1AltVal.dcc7 c fa g000 g010 g020 g001 g011 g021 g100) g80) fd200 (owedFrom c 18) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))))
      (fun i v => pRS ct 2 (peer 0 2 c) (sh := S128x1024) i v)
      (duties_dma ct c 0 2 0 0 rfl) (duties_dma ct (peer 0 2 c) 1 2 0 0 rfl) (amtIx (dsem 1 2 0 0).val) rfl rfl rfl rfl
      (by show recv_rs_2_0_0 ct (peer 0 2 c) = _; unfold recv_rs_2_0_0; rw [peer_peer])
      (SegB1AltVal.sent_2_0_0 ct c YA YB laws fa g000 g010 g020 g001 g011 g021 g100 g80 fd200 hfa hg000 hg010 hg020 hg001 hg011 hg021 hg100)) $$ [Hsrc200 LD200 How TS200 TR200]
  · isplitr
    · iexact HIS200
    isplitr
    · iexact HIR200
    isplitl [Hsrc200]
    · iexact Hsrc200
    isplitl [LD200]
    · iexact LD200
    isplitl [How]
    · iexact How
    isplitl [TS200]
    · iexact TS200
    isplitr
    · iexact HrS200
    isplitl [TR200]
    · iexact TR200
    iexact HrR200
  iintro ⟨CS200, How⟩
  ihave LD201 := (loanV_open (F := F) (peer 0 2 c) (dst_rs_2_0_1 c)) $$ LD201
  icases LD201 with ⟨%fd201, LD201⟩
  ihave #HIS201 := (inv_dma ct K c 0 2 0 1 rfl) $$ HR
  ihave #HIR201 := (inv_dma ct K (peer 0 2 c) 1 2 0 1 rfl) $$ HR
  ihave #HrS201 := (reached_dma ct K c 0 2 0 1 rfl) $$ HR
  ihave #HrR201 := (reached_dma ct K (peer 0 2 c) 1 2 0 1 rfl) $$ HR
  iapply (send_step ct (K (c, ⟨(dsem 0 2 0 1).val, Nat.lt_trans (dsem 0 2 0 1).isLt (by decide)⟩)) (K (peer 0 2 c, ⟨(dsem 1 2 0 1).val, Nat.lt_trans (dsem 1 2 0 1).isLt (by decide)⟩)) c _ (peer 0 2 c) (dev_rs_2_0_1 c) (src_rs_2_0_1 c) (dst_rs_2_0_1 c) (dsem 0 2 0 1) (dsem 1 2 0 1)
      (SegB1AltVal.sendR0 c (SegB1AltVal.dcc7 c fa g000 g010 g020 g001 g011 g021 g100) g80) fd201 (owedFrom c 19) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))))
      (fun i v => pRS ct 2 (peer 0 2 c) (sh := S128x1024) i v)
      (duties_dma ct c 0 2 0 1 rfl) (duties_dma ct (peer 0 2 c) 1 2 0 1 rfl) (amtIx (dsem 1 2 0 1).val) rfl rfl rfl rfl
      (by show recv_rs_2_0_1 ct (peer 0 2 c) = _; unfold recv_rs_2_0_1; rw [peer_peer])
      (SegB1AltVal.sent_2_0_1 ct c YA YB laws fa g000 g010 g020 g001 g011 g021 g100 g80 fd201 hfa hg000 hg010 hg020 hg001 hg011 hg021 hg100)) $$ [Hsrc201 LD201 How TS201 TR201]
  · isplitr
    · iexact HIS201
    isplitr
    · iexact HIR201
    isplitl [Hsrc201]
    · iexact Hsrc201
    isplitl [LD201]
    · iexact LD201
    isplitl [How]
    · iexact How
    isplitl [TS201]
    · iexact TS201
    isplitr
    · iexact HrS201
    isplitl [TR201]
    · iexact TR201
    iexact HrR201
  iintro ⟨CS201, How⟩
  -- the wait on cell (0, 1, 1, 0), and the cell closed
  ihave #MWS110 := (mayWait_cell (F := F) c 0 1 1 0 19 (by decide +kernel)) $$ Hlev
  ihave #HIS110 := (inv_dma ct K c 0 1 1 0 rfl) $$ HR
  iapply (Rounds.wp_wait_rest_token Segs.𝒱₀ ER (sched ct) (c : Thread nD τ) none (κ := (K (c, ⟨(dsem 0 1 1 0).val, Nat.lt_trans (dsem 0 1 1 0).isLt (by decide)⟩))) (sm := SemLoc.dma (dsem 0 1 1 0))
      (wpE_waitDma2_eq Segs.𝒱₀ (c : Thread nD τ) none Set.univ) (Set.mem_univ _) () (O := owedFrom c 19) (W := (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))))) (R := 0) (m := 0) (T := ∅)
      (by rw [Nat.zero_add, expect_dma ct c 0 1 1 0 rfl]; rfl)) $$ [CS110 How PS110]
  · isplitr
    · iexact HIS110
    isplitl [CS110]
    · iexact CS110
    isplitl [How]
    · iexact How
    isplitr
    · iexact MWS110
    iexact PS110
  iintro ⟨How, PS110, -, Hpay⟩
  imod (Rounds.cell_close ER (sched ct) (g := dcell c 0 1 1 0) (Set.mem_univ _) (fun h => h) (R := 1)
    (fun r hr => duties_later ct _ r hr)) $$ [PS110] with VS110
  · isplitr
    · iexact HIS110
    iexact PS110
  ihave BS110 := (Entails.of_eq (show bigSep ((sched ct).duties (dcell c 0 1 1 0) 0 \ ∅) (fun d => (sched ct).payload (dcell c 0 1 1 0) 0 d)
      = loanV c (src_rs_1_1_0 c) from rest_dma ct c 0 1 1 0 rfl)) $$ Hpay
  -- the wait on cell (1, 1, 1, 0), and the cell closed
  ihave #MWR110 := (mayWait_cell (F := F) c 1 1 1 0 19 (by decide +kernel)) $$ Hlev
  ihave #HIR110 := (inv_dma ct K c 1 1 1 0 rfl) $$ HR
  iapply (Rounds.wp_wait_rest_token Segs.𝒱₀ ER (sched ct) (c : Thread nD τ) none (κ := (K (c, ⟨(dsem 1 1 1 0).val, Nat.lt_trans (dsem 1 1 1 0).isLt (by decide)⟩))) (sm := SemLoc.dma (dsem 1 1 1 0))
      (wpE_waitDma2_eq Segs.𝒱₀ (c : Thread nD τ) none Set.univ) (Set.mem_univ _) () (O := owedFrom c 19) (W := (insert (SemLoc.dma (dsem 0 1 1 0), ()) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W)))))))))))))))) (R := 0) (m := 0) (T := ∅)
      (by rw [Nat.zero_add, expect_dma ct c 1 1 1 0 rfl]; rfl)) $$ [CR110 How PR110]
  · isplitr
    · iexact HIR110
    isplitl [CR110]
    · iexact CR110
    isplitl [How]
    · iexact How
    isplitr
    · iexact MWR110
    iexact PR110
  iintro ⟨How, PR110, -, Hpay⟩
  imod (Rounds.cell_close ER (sched ct) (g := dcell c 1 1 1 0) (Set.mem_univ _) (fun h => h) (R := 1)
    (fun r hr => duties_later ct _ r hr)) $$ [PR110] with VR110
  · isplitr
    · iexact HIR110
    iexact PR110
  ihave BR110 := (Entails.of_eq (show bigSep ((sched ct).duties (dcell c 1 1 1 0) 0 \ ∅) (fun d => (sched ct).payload (dcell c 1 1 1 0) 0 d)
      = heldV c (dst_rs_1_1_0 (peer 1 1 c)) fullShare (fun i v => pRS ct 1 c (sh := S256x1024) i v) from rest_dma ct c 1 1 1 0 rfl)) $$ Hpay
  ihave BR110 := (heldV_open (F := F) c _ fullShare _) $$ BR110
  icases BR110 with ⟨%g110, BR110, %hg110⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch2 : Memref sig .tc .vmem S256x1024 .bf16))
      (S := (dst_rs_1_1_0 (peer 1 1 c)).view.set) (by rw [← rsLoad_1_1_0 c]; exact (View.set_slice _ _).symm.subset)) $$ BR110; iintro BR110
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off36 c) S128x384.size (k0_off36_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch8 : Memref sig .tc .vmem S128x1024 .bf16))
      (S := ssCol_2_1) ((View.set_slice _ _).symm.subset)) $$ Hf1; iintro Hf1
  iapply (wp_store Segs.𝒱₀ (c : Thread nD τ) none Set.univ (m := (Memref.whole cc0_scratch8 : Memref sig .tc .vmem S128x1024 .bf16)) (r := Rect.unit (s := S128x1024) ![0, 384] S128x384.size inb_S128x1024_S128x384_0_384) (Mk := Finset.univ)
      (S := ssCol_2_1) (Finset.Subset.refl _)) $$ Hf1; iintro Hf1
  ihave Hrows := ((ss_rows_at_2_1 (F := F) c fullShare _).1) $$ Hf1
  icases Hrows with ⟨Hsrc210, Hsrc211⟩
  ihave LD210 := (loanV_open (F := F) (peer 1 2 c) (dst_rs_2_1_0 c)) $$ LD210
  icases LD210 with ⟨%fd210, LD210⟩
  ihave #HIS210 := (inv_dma ct K c 0 2 1 0 rfl) $$ HR
  ihave #HIR210 := (inv_dma ct K (peer 1 2 c) 1 2 1 0 rfl) $$ HR
  ihave #HrS210 := (reached_dma ct K c 0 2 1 0 rfl) $$ HR
  ihave #HrR210 := (reached_dma ct K (peer 1 2 c) 1 2 1 0 rfl) $$ HR
  iapply (send_step ct (K (c, ⟨(dsem 0 2 1 0).val, Nat.lt_trans (dsem 0 2 1 0).isLt (by decide)⟩)) (K (peer 1 2 c, ⟨(dsem 1 2 1 0).val, Nat.lt_trans (dsem 1 2 1 0).isLt (by decide)⟩)) c _ (peer 1 2 c) (dev_rs_2_1_0 c) (src_rs_2_1_0 c) (dst_rs_2_1_0 c) (dsem 0 2 1 0) (dsem 1 2 1 0)
      (SegB1AltVal.sendR1 c (SegB1AltVal.dcc8 c fa g000 g010 g020 g001 g011 g021 g100 g110) g81) fd210 (owedFrom c 20) (insert (SemLoc.dma (dsem 1 1 1 0), ()) (insert (SemLoc.dma (dsem 0 1 1 0), ()) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))))))
      (fun i v => pRS ct 2 (peer 1 2 c) (sh := S128x1024) i v)
      (duties_dma ct c 0 2 1 0 rfl) (duties_dma ct (peer 1 2 c) 1 2 1 0 rfl) (amtIx (dsem 1 2 1 0).val) rfl rfl rfl rfl
      (by show recv_rs_2_1_0 ct (peer 1 2 c) = _; unfold recv_rs_2_1_0; rw [peer_peer])
      (SegB1AltVal.sent_2_1_0 ct c YA YB laws fa g000 g010 g020 g001 g011 g021 g100 g110 g81 fd210 hfa hg000 hg010 hg020 hg001 hg011 hg021 hg100 hg110)) $$ [Hsrc210 LD210 How TS210 TR210]
  · isplitr
    · iexact HIS210
    isplitr
    · iexact HIR210
    isplitl [Hsrc210]
    · iexact Hsrc210
    isplitl [LD210]
    · iexact LD210
    isplitl [How]
    · iexact How
    isplitl [TS210]
    · iexact TS210
    isplitr
    · iexact HrS210
    isplitl [TR210]
    · iexact TR210
    iexact HrR210
  iintro ⟨CS210, How⟩
  ihave LD211 := (loanV_open (F := F) (peer 1 2 c) (dst_rs_2_1_1 c)) $$ LD211
  icases LD211 with ⟨%fd211, LD211⟩
  ihave #HIS211 := (inv_dma ct K c 0 2 1 1 rfl) $$ HR
  ihave #HIR211 := (inv_dma ct K (peer 1 2 c) 1 2 1 1 rfl) $$ HR
  ihave #HrS211 := (reached_dma ct K c 0 2 1 1 rfl) $$ HR
  ihave #HrR211 := (reached_dma ct K (peer 1 2 c) 1 2 1 1 rfl) $$ HR
  iapply (send_step ct (K (c, ⟨(dsem 0 2 1 1).val, Nat.lt_trans (dsem 0 2 1 1).isLt (by decide)⟩)) (K (peer 1 2 c, ⟨(dsem 1 2 1 1).val, Nat.lt_trans (dsem 1 2 1 1).isLt (by decide)⟩)) c _ (peer 1 2 c) (dev_rs_2_1_1 c) (src_rs_2_1_1 c) (dst_rs_2_1_1 c) (dsem 0 2 1 1) (dsem 1 2 1 1)
      (SegB1AltVal.sendR1 c (SegB1AltVal.dcc8 c fa g000 g010 g020 g001 g011 g021 g100 g110) g81) fd211 (owedFrom c 21) (insert (SemLoc.dma (dsem 1 1 1 0), ()) (insert (SemLoc.dma (dsem 0 1 1 0), ()) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))))))
      (fun i v => pRS ct 2 (peer 1 2 c) (sh := S128x1024) i v)
      (duties_dma ct c 0 2 1 1 rfl) (duties_dma ct (peer 1 2 c) 1 2 1 1 rfl) (amtIx (dsem 1 2 1 1).val) rfl rfl rfl rfl
      (by show recv_rs_2_1_1 ct (peer 1 2 c) = _; unfold recv_rs_2_1_1; rw [peer_peer])
      (SegB1AltVal.sent_2_1_1 ct c YA YB laws fa g000 g010 g020 g001 g011 g021 g100 g110 g81 fd211 hfa hg000 hg010 hg020 hg001 hg011 hg021 hg100 hg110)) $$ [Hsrc211 LD211 How TS211 TR211]
  · isplitr
    · iexact HIS211
    isplitr
    · iexact HIR211
    isplitl [Hsrc211]
    · iexact Hsrc211
    isplitl [LD211]
    · iexact LD211
    isplitl [How]
    · iexact How
    isplitl [TS211]
    · iexact TS211
    isplitr
    · iexact HrS211
    isplitl [TR211]
    · iexact TR211
    iexact HrR211
  iintro ⟨CS211, How⟩
  -- the wait on cell (0, 1, 2, 0), and the cell closed
  ihave #MWS120 := (mayWait_cell (F := F) c 0 1 2 0 21 (by decide +kernel)) $$ Hlev
  ihave #HIS120 := (inv_dma ct K c 0 1 2 0 rfl) $$ HR
  iapply (Rounds.wp_wait_rest_token Segs.𝒱₀ ER (sched ct) (c : Thread nD τ) none (κ := (K (c, ⟨(dsem 0 1 2 0).val, Nat.lt_trans (dsem 0 1 2 0).isLt (by decide)⟩))) (sm := SemLoc.dma (dsem 0 1 2 0))
      (wpE_waitDma2_eq Segs.𝒱₀ (c : Thread nD τ) none Set.univ) (Set.mem_univ _) () (O := owedFrom c 21) (W := (insert (SemLoc.dma (dsem 1 1 1 0), ()) (insert (SemLoc.dma (dsem 0 1 1 0), ()) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))))))) (R := 0) (m := 0) (T := ∅)
      (by rw [Nat.zero_add, expect_dma ct c 0 1 2 0 rfl]; rfl)) $$ [CS120 How PS120]
  · isplitr
    · iexact HIS120
    isplitl [CS120]
    · iexact CS120
    isplitl [How]
    · iexact How
    isplitr
    · iexact MWS120
    iexact PS120
  iintro ⟨How, PS120, -, Hpay⟩
  imod (Rounds.cell_close ER (sched ct) (g := dcell c 0 1 2 0) (Set.mem_univ _) (fun h => h) (R := 1)
    (fun r hr => duties_later ct _ r hr)) $$ [PS120] with VS120
  · isplitr
    · iexact HIS120
    iexact PS120
  ihave BS120 := (Entails.of_eq (show bigSep ((sched ct).duties (dcell c 0 1 2 0) 0 \ ∅) (fun d => (sched ct).payload (dcell c 0 1 2 0) 0 d)
      = loanV c (src_rs_1_2_0 c) from rest_dma ct c 0 1 2 0 rfl)) $$ Hpay
  -- the wait on cell (1, 1, 2, 0), and the cell closed
  ihave #MWR120 := (mayWait_cell (F := F) c 1 1 2 0 21 (by decide +kernel)) $$ Hlev
  ihave #HIR120 := (inv_dma ct K c 1 1 2 0 rfl) $$ HR
  iapply (Rounds.wp_wait_rest_token Segs.𝒱₀ ER (sched ct) (c : Thread nD τ) none (κ := (K (c, ⟨(dsem 1 1 2 0).val, Nat.lt_trans (dsem 1 1 2 0).isLt (by decide)⟩))) (sm := SemLoc.dma (dsem 1 1 2 0))
      (wpE_waitDma2_eq Segs.𝒱₀ (c : Thread nD τ) none Set.univ) (Set.mem_univ _) () (O := owedFrom c 21) (W := (insert (SemLoc.dma (dsem 0 1 2 0), ()) (insert (SemLoc.dma (dsem 1 1 1 0), ()) (insert (SemLoc.dma (dsem 0 1 1 0), ()) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W)))))))))))))))))) (R := 0) (m := 0) (T := ∅)
      (by rw [Nat.zero_add, expect_dma ct c 1 1 2 0 rfl]; rfl)) $$ [CR120 How PR120]
  · isplitr
    · iexact HIR120
    isplitl [CR120]
    · iexact CR120
    isplitl [How]
    · iexact How
    isplitr
    · iexact MWR120
    iexact PR120
  iintro ⟨How, PR120, -, Hpay⟩
  imod (Rounds.cell_close ER (sched ct) (g := dcell c 1 1 2 0) (Set.mem_univ _) (fun h => h) (R := 1)
    (fun r hr => duties_later ct _ r hr)) $$ [PR120] with VR120
  · isplitr
    · iexact HIR120
    iexact PR120
  ihave BR120 := (Entails.of_eq (show bigSep ((sched ct).duties (dcell c 1 1 2 0) 0 \ ∅) (fun d => (sched ct).payload (dcell c 1 1 2 0) 0 d)
      = heldV c (dst_rs_1_2_0 (peer 2 1 c)) fullShare (fun i v => pRS ct 1 c (sh := S256x1024) i v) from rest_dma ct c 1 1 2 0 rfl)) $$ Hpay
  ihave BR120 := (heldV_open (F := F) c _ fullShare _) $$ BR120
  icases BR120 with ⟨%g120, BR120, %hg120⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch2 : Memref sig .tc .vmem S256x1024 .bf16))
      (S := (dst_rs_1_2_0 (peer 2 1 c)).view.set) (by rw [← rsLoad_1_2_0 c]; exact (View.set_slice _ _).symm.subset)) $$ BR120; iintro BR120
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off40 c) S128x256.size (k0_off40_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch8 : Memref sig .tc .vmem S128x1024 .bf16))
      (S := ssCol_2_2) ((View.set_slice _ _).symm.subset)) $$ Hf2; iintro Hf2
  iapply (wp_store Segs.𝒱₀ (c : Thread nD τ) none Set.univ (m := (Memref.whole cc0_scratch8 : Memref sig .tc .vmem S128x1024 .bf16)) (r := Rect.unit (s := S128x1024) ![0, 768] S128x256.size inb_S128x1024_S128x256_0_768) (Mk := Finset.univ)
      (S := ssCol_2_2) (Finset.Subset.refl _)) $$ Hf2; iintro Hf2
  ihave Hrows := ((ss_rows_at_2_2 (F := F) c fullShare _).1) $$ Hf2
  icases Hrows with ⟨Hsrc220, Hsrc221⟩
  ihave LD220 := (loanV_open (F := F) (peer 2 2 c) (dst_rs_2_2_0 c)) $$ LD220
  icases LD220 with ⟨%fd220, LD220⟩
  ihave #HIS220 := (inv_dma ct K c 0 2 2 0 rfl) $$ HR
  ihave #HIR220 := (inv_dma ct K (peer 2 2 c) 1 2 2 0 rfl) $$ HR
  ihave #HrS220 := (reached_dma ct K c 0 2 2 0 rfl) $$ HR
  ihave #HrR220 := (reached_dma ct K (peer 2 2 c) 1 2 2 0 rfl) $$ HR
  iapply (send_step ct (K (c, ⟨(dsem 0 2 2 0).val, Nat.lt_trans (dsem 0 2 2 0).isLt (by decide)⟩)) (K (peer 2 2 c, ⟨(dsem 1 2 2 0).val, Nat.lt_trans (dsem 1 2 2 0).isLt (by decide)⟩)) c _ (peer 2 2 c) (dev_rs_2_2_0 c) (src_rs_2_2_0 c) (dst_rs_2_2_0 c) (dsem 0 2 2 0) (dsem 1 2 2 0)
      (SegB1AltVal.sendR2 c (SegB1AltVal.dcc9 c fa g000 g010 g020 g001 g011 g021 g100 g110 g120) g82) fd220 (owedFrom c 22) (insert (SemLoc.dma (dsem 1 1 2 0), ()) (insert (SemLoc.dma (dsem 0 1 2 0), ()) (insert (SemLoc.dma (dsem 1 1 1 0), ()) (insert (SemLoc.dma (dsem 0 1 1 0), ()) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))))))))
      (fun i v => pRS ct 2 (peer 2 2 c) (sh := S128x1024) i v)
      (duties_dma ct c 0 2 2 0 rfl) (duties_dma ct (peer 2 2 c) 1 2 2 0 rfl) (amtIx (dsem 1 2 2 0).val) rfl rfl rfl rfl
      (by show recv_rs_2_2_0 ct (peer 2 2 c) = _; unfold recv_rs_2_2_0; rw [peer_peer])
      (SegB1AltVal.sent_2_2_0 ct c YA YB laws fa g000 g010 g020 g001 g011 g021 g100 g110 g120 g82 fd220 hfa hg000 hg010 hg020 hg001 hg011 hg021 hg100 hg110 hg120)) $$ [Hsrc220 LD220 How TS220 TR220]
  · isplitr
    · iexact HIS220
    isplitr
    · iexact HIR220
    isplitl [Hsrc220]
    · iexact Hsrc220
    isplitl [LD220]
    · iexact LD220
    isplitl [How]
    · iexact How
    isplitl [TS220]
    · iexact TS220
    isplitr
    · iexact HrS220
    isplitl [TR220]
    · iexact TR220
    iexact HrR220
  iintro ⟨CS220, How⟩
  ihave LD221 := (loanV_open (F := F) (peer 2 2 c) (dst_rs_2_2_1 c)) $$ LD221
  icases LD221 with ⟨%fd221, LD221⟩
  ihave #HIS221 := (inv_dma ct K c 0 2 2 1 rfl) $$ HR
  ihave #HIR221 := (inv_dma ct K (peer 2 2 c) 1 2 2 1 rfl) $$ HR
  ihave #HrS221 := (reached_dma ct K c 0 2 2 1 rfl) $$ HR
  ihave #HrR221 := (reached_dma ct K (peer 2 2 c) 1 2 2 1 rfl) $$ HR
  iapply (send_step ct (K (c, ⟨(dsem 0 2 2 1).val, Nat.lt_trans (dsem 0 2 2 1).isLt (by decide)⟩)) (K (peer 2 2 c, ⟨(dsem 1 2 2 1).val, Nat.lt_trans (dsem 1 2 2 1).isLt (by decide)⟩)) c _ (peer 2 2 c) (dev_rs_2_2_1 c) (src_rs_2_2_1 c) (dst_rs_2_2_1 c) (dsem 0 2 2 1) (dsem 1 2 2 1)
      (SegB1AltVal.sendR2 c (SegB1AltVal.dcc9 c fa g000 g010 g020 g001 g011 g021 g100 g110 g120) g82) fd221 (owedFrom c 23) (insert (SemLoc.dma (dsem 1 1 2 0), ()) (insert (SemLoc.dma (dsem 0 1 2 0), ()) (insert (SemLoc.dma (dsem 1 1 1 0), ()) (insert (SemLoc.dma (dsem 0 1 1 0), ()) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))))))))
      (fun i v => pRS ct 2 (peer 2 2 c) (sh := S128x1024) i v)
      (duties_dma ct c 0 2 2 1 rfl) (duties_dma ct (peer 2 2 c) 1 2 2 1 rfl) (amtIx (dsem 1 2 2 1).val) rfl rfl rfl rfl
      (by show recv_rs_2_2_1 ct (peer 2 2 c) = _; unfold recv_rs_2_2_1; rw [peer_peer])
      (SegB1AltVal.sent_2_2_1 ct c YA YB laws fa g000 g010 g020 g001 g011 g021 g100 g110 g120 g82 fd221 hfa hg000 hg010 hg020 hg001 hg011 hg021 hg100 hg110 hg120)) $$ [Hsrc221 LD221 How TS221 TR221]
  · isplitr
    · iexact HIS221
    isplitr
    · iexact HIR221
    isplitl [Hsrc221]
    · iexact Hsrc221
    isplitl [LD221]
    · iexact LD221
    isplitl [How]
    · iexact How
    isplitl [TS221]
    · iexact TS221
    isplitr
    · iexact HrS221
    isplitl [TR221]
    · iexact TR221
    iexact HrR221
  iintro ⟨CS221, How⟩
  ihave BR000 := (loanV_fold (F := F) c (dst_rs_0_0_0 (peer 0 0 c)) _) $$ BR000
  ihave BR001 := (loanV_fold (F := F) c (dst_rs_0_0_1 (peer 0 0 c)) _) $$ BR001
  ihave BR010 := (loanV_fold (F := F) c (dst_rs_0_1_0 (peer 1 0 c)) _) $$ BR010
  ihave BR011 := (loanV_fold (F := F) c (dst_rs_0_1_1 (peer 1 0 c)) _) $$ BR011
  ihave BR020 := (loanV_fold (F := F) c (dst_rs_0_2_0 (peer 2 0 c)) _) $$ BR020
  ihave BR021 := (loanV_fold (F := F) c (dst_rs_0_2_1 (peer 2 0 c)) _) $$ BR021
  ihave BR100 := (loanV_fold (F := F) c (dst_rs_1_0_0 (peer 0 1 c)) _) $$ BR100
  ihave BR110 := (loanV_fold (F := F) c (dst_rs_1_1_0 (peer 1 1 c)) _) $$ BR110
  ihave BR120 := (loanV_fold (F := F) c (dst_rs_1_2_0 (peer 2 1 c)) _) $$ BR120
  ihave Hrs0w := (rs_join_0 (F := F) c) $$ [BR000 BR001 BR010 BR011 BR020 BR021]
  · isplitl [BR000]
    · iexact BR000
    isplitl [BR001]
    · iexact BR001
    isplitl [BR010]
    · iexact BR010
    isplitl [BR011]
    · iexact BR011
    isplitl [BR020]
    · iexact BR020
    iexact BR021
  ihave Hss0w := (ss_join_0 (F := F) c) $$ [BS000 BS001 BS010 BS011 BS020 BS021]
  · isplitl [BS000]
    · iexact BS000
    isplitl [BS001]
    · iexact BS001
    isplitl [BS010]
    · iexact BS010
    isplitl [BS011]
    · iexact BS011
    isplitl [BS020]
    · iexact BS020
    iexact BS021
  iapply Hk $$ %v3 %v4 %v5 %v6 %v7 %v8 %v9 %v10 %v11 %v12 %v13 %v14 %v15 %v16 %v17 %v18 %v20 %v22 %v24 %v26 %v28 %(Scalar.addi v179 (Scalar.muli v24 128#32)) %(Scalar.subi (Scalar.addi v179 (Scalar.muli v24 128#32)) v179) %(Scalar.addi (Scalar.addi v74 (Scalar.muli v24 256#32)) (Scalar.muli v18 128#32)) %(Scalar.subi (Scalar.addi (Scalar.addi v74 (Scalar.muli v24 256#32)) (Scalar.muli v18 128#32)) (Scalar.addi v74 (Scalar.muli v24 256#32))) %(Scalar.addi (Scalar.addi v108 (Scalar.muli v28 256#32)) (Scalar.muli v20 128#32)) %(Scalar.subi (Scalar.addi (Scalar.addi v108 (Scalar.muli v28 256#32)) (Scalar.muli v20 128#32)) (Scalar.addi v108 (Scalar.muli v28 256#32)))
  unfold SegBMid.Pre20 SegBMid.toks20 SegBMid.pos20 SegBMid.closed20 SegBMid.credR20 SegBMid.credS20 SegBMid.land20 someAt toksAG landAG
  isplitr
  · iexact HR
  isplitr
  · iexact Hlev
  isplitl [How]
  · iexists _
    iexact How
  isplitl [Q300 Q301 Q310 Q311 Q320 Q321 Q400 Q410 Q420]
  · isplitl [Q300]
    · iexact Q300
    isplitl [Q301]
    · iexact Q301
    isplitl [Q310]
    · iexact Q310
    isplitl [Q311]
    · iexact Q311
    isplitl [Q320]
    · iexact Q320
    isplitl [Q321]
    · iexact Q321
    isplitl [Q400]
    · iexact Q400
    isplitl [Q410]
    · iexact Q410
    iexact Q420
  isplitl [HtoksAG]
  · iexact HtoksAG
  isplitl [PP101 PP111 PP121 PP200 PP201 PP210 PP211 PP220 PP221 PP300 PP301 PP310 PP311 PP320 PP321 PP400 PP410 PP420]
  · isplitl [PP101]
    · iexact PP101
    isplitl [PP111]
    · iexact PP111
    isplitl [PP121]
    · iexact PP121
    isplitl [PP200]
    · iexact PP200
    isplitl [PP201]
    · iexact PP201
    isplitl [PP210]
    · iexact PP210
    isplitl [PP211]
    · iexact PP211
    isplitl [PP220]
    · iexact PP220
    isplitl [PP221]
    · iexact PP221
    isplitl [PP300]
    · iexact PP300
    isplitl [PP301]
    · iexact PP301
    isplitl [PP310]
    · iexact PP310
    isplitl [PP311]
    · iexact PP311
    isplitl [PP320]
    · iexact PP320
    isplitl [PP321]
    · iexact PP321
    isplitl [PP400]
    · iexact PP400
    isplitl [PP410]
    · iexact PP410
    iexact PP420
  isplitl [HposAG]
  · iexact HposAG
  isplitl [VS000 VR000 VS001 VR001 VS010 VR010 VS011 VR011 VS020 VR020 VS021 VR021 VS100 VR100 VS110 VR110 VS120 VR120]
  · isplitl [VS000 VR000]
    · isplitl [VS000]
      · iexact VS000
      iexact VR000
    isplitl [VS001 VR001]
    · isplitl [VS001]
      · iexact VS001
      iexact VR001
    isplitl [VS010 VR010]
    · isplitl [VS010]
      · iexact VS010
      iexact VR010
    isplitl [VS011 VR011]
    · isplitl [VS011]
      · iexact VS011
      iexact VR011
    isplitl [VS020 VR020]
    · isplitl [VS020]
      · iexact VS020
      iexact VR020
    isplitl [VS021 VR021]
    · isplitl [VS021]
      · iexact VS021
      iexact VR021
    isplitl [VS100 VR100]
    · isplitl [VS100]
      · iexact VS100
      iexact VR100
    isplitl [VS110 VR110]
    · isplitl [VS110]
      · iexact VS110
      iexact VR110
    isplitl [VS120]
    · iexact VS120
    iexact VR120
  isplitl [CR101 CR111 CR121 CR200 CR201 CR210 CR211 CR220 CR221 CR300 CR301 CR310 CR311 CR320 CR321 CR400 CR410 CR420]
  · isplitl [CR101]
    · iexact CR101
    isplitl [CR111]
    · iexact CR111
    isplitl [CR121]
    · iexact CR121
    isplitl [CR200]
    · iexact CR200
    isplitl [CR201]
    · iexact CR201
    isplitl [CR210]
    · iexact CR210
    isplitl [CR211]
    · iexact CR211
    isplitl [CR220]
    · iexact CR220
    isplitl [CR221]
    · iexact CR221
    isplitl [CR300]
    · iexact CR300
    isplitl [CR301]
    · iexact CR301
    isplitl [CR310]
    · iexact CR310
    isplitl [CR311]
    · iexact CR311
    isplitl [CR320]
    · iexact CR320
    isplitl [CR321]
    · iexact CR321
    isplitl [CR400]
    · iexact CR400
    isplitl [CR410]
    · iexact CR410
    iexact CR420
  isplitl [CS101 CS111 CS121 CS200 CS201 CS210 CS211 CS220 CS221]
  · isplitl [CS101]
    · iexact CS101
    isplitl [CS111]
    · iexact CS111
    isplitl [CS121]
    · iexact CS121
    isplitl [CS200]
    · iexact CS200
    isplitl [CS201]
    · iexact CS201
    isplitl [CS210]
    · iexact CS210
    isplitl [CS211]
    · iexact CS211
    isplitl [CS220]
    · iexact CS220
    iexact CS221
  isplitl [HcredAG]
  · iexact HcredAG
  isplitl [Hidle]
  · iexact Hidle
  isplitl [HA]
  · iexact HA
  isplitl [HB]
  · iexact HB
  isplitl [Hown]
  · iexact Hown
  isplitl [Hacc]
  · iexists _
    isplitl [Hacc]
    · iexact Hacc
    ipureintro
    exact ⟨SegB1AltVal.kept_0 ct c YA YB laws fa g000 g010 g020 g001 g011 g021 g100 g110 g120 hfa hg000 hg010 hg020 hg001 hg011 hg021 hg100 hg110 hg120,
      SegB1AltVal.kept_1 ct c YA YB laws fa g000 g010 g020 g001 g011 g021 g100 g110 g120 hfa hg000 hg010 hg020 hg001 hg011 hg021 hg100 hg110 hg120,
      SegB1AltVal.kept_2 ct c YA YB laws fa g000 g010 g020 g001 g011 g021 g100 g110 g120 hfa hg000 hg010 hg020 hg001 hg011 hg021 hg100 hg110 hg120⟩
  isplitl [Hrs0w Hss0w]
  · isplitl [Hrs0w]
    · iexact Hrs0w
    iexact Hss0w
  isplitl [BR100 BR110 BR120]
  · isplitl [BR100]
    · iexact BR100
    isplitl [BR110]
    · iexact BR110
    iexact BR120
  isplitl [BS100 BS110 BS120]
  · isplitl [BS100]
    · iexact BS100
    isplitl [BS110]
    · iexact BS110
    iexact BS120
  isplitl [Hs9 Hs10]
  · isplitl [Hs9]
    · iexact Hs9
    iexact Hs10
  isplitl [LD300 LD301 LD310 LD311 LD320 LD321 LD400 LD410 LD420]
  · isplitl [LD300]
    · iexact LD300
    isplitl [LD301]
    · iexact LD301
    isplitl [LD310]
    · iexact LD310
    isplitl [LD311]
    · iexact LD311
    isplitl [LD320]
    · iexact LD320
    isplitl [LD321]
    · iexact LD321
    isplitl [LD400]
    · iexact LD400
    isplitl [LD410]
    · iexact LD410
    iexact LD420
  iexact HlandAG

end Cert.KernelIdeal.SegB1Alt

end
-- ==== Proof.SegB2Val.lean ====
/-
  The values along the middle of the summing phase: the accumulator's and the fourth stage's send buffer's
  contents step by step, what the six pieces sent carry, and what the kept rows hold at the end.
-/
import proofs.«900879_g7700000000000880_dist_matmul_gelu_kshard_i_m1024_n1024_k512_v7x_i32_bf16_1_alg».proof.Proof.SegBMid
import proofs.«900879_g7700000000000880_dist_matmul_gelu_kshard_i_m1024_n1024_k512_v7x_i32_bf16_1_alg».proof.Proof.Geo
import proofs.«900879_g7700000000000880_dist_matmul_gelu_kshard_i_m1024_n1024_k512_v7x_i32_bf16_1_alg».proof.Proof.Plumb
import proofs.«900879_g7700000000000880_dist_matmul_gelu_kshard_i_m1024_n1024_k512_v7x_i32_bf16_1_alg».proof.Proof.PayPoint
import proofs.«900879_g7700000000000880_dist_matmul_gelu_kshard_i_m1024_n1024_k512_v7x_i32_bf16_1_alg».proof.Proof.SegAValP
import proofs.«900879_g7700000000000880_dist_matmul_gelu_kshard_i_m1024_n1024_k512_v7x_i32_bf16_1_alg».proof.Proof.SegBValP
import proofs.«900879_g7700000000000880_dist_matmul_gelu_kshard_i_m1024_n1024_k512_v7x_i32_bf16_1_alg».proof.Proof.SegBCore

noncomputable section

namespace Cert.KernelIdeal.SegB2Val

open Cert.KernelIdeal Cert.KernelIdeal.Gen Cert.KernelIdeal.Proto Cert.KernelIdeal.Tab Cert.KernelIdeal.Held Cert.KernelIdeal.PayTab
open Cert.KernelIdeal.Laws
open Idealize.ShloMosaic Idealize.ShloMosaic.TcCoe Idealize.SL.Sem

variable {F : FTy → Type} [FloatOps F]

/-! ## The rectangles the segment reads and writes -/

abbrev RA44 (c : Dev nD) : Rect S1024x1024 := Rect.unit (s := S1024x1024) (k0_off44 c) S128x384.size (k0_off44_inb c)
abbrev RR45 (c : Dev nD) : Rect S256x1024 := Rect.unit (s := S256x1024) (k0_off45 c) S128x384.size (k0_off45_inb c)
abbrev RA46 (c : Dev nD) : Rect S1024x1024 := Rect.unit (s := S1024x1024) (k0_off46 c) S128x384.size (k0_off46_inb c)
abbrev RR47 (c : Dev nD) : Rect S256x1024 := Rect.unit (s := S256x1024) (k0_off47 c) S128x384.size (k0_off47_inb c)
abbrev RA48 (c : Dev nD) : Rect S1024x1024 := Rect.unit (s := S1024x1024) (k0_off48 c) S128x256.size (k0_off48_inb c)
abbrev RR49 (c : Dev nD) : Rect S256x1024 := Rect.unit (s := S256x1024) (k0_off49 c) S128x256.size (k0_off49_inb c)
abbrev RA50 (c : Dev nD) : Rect S1024x1024 := Rect.unit (s := S1024x1024) (k0_off50 c) S64x384.size (k0_off50_inb c)
abbrev RR51 (c : Dev nD) : Rect S128x1024 := Rect.unit (s := S128x1024) (k0_off51 c) S64x384.size (k0_off51_inb c)
abbrev RA54 (c : Dev nD) : Rect S1024x1024 := Rect.unit (s := S1024x1024) (k0_off54 c) S64x384.size (k0_off54_inb c)
abbrev RR55 (c : Dev nD) : Rect S128x1024 := Rect.unit (s := S128x1024) (k0_off55 c) S64x384.size (k0_off55_inb c)
abbrev RA58 (c : Dev nD) : Rect S1024x1024 := Rect.unit (s := S1024x1024) (k0_off58 c) S64x256.size (k0_off58_inb c)
abbrev RR59 (c : Dev nD) : Rect S128x1024 := Rect.unit (s := S128x1024) (k0_off59 c) S64x256.size (k0_off59_inb c)
abbrev RA62 (c : Dev nD) : Rect S1024x1024 := Rect.unit (s := S1024x1024) (k0_off62 c) S64x384.size (k0_off62_inb c)
abbrev RR63 (c : Dev nD) : Rect S128x1024 := Rect.unit (s := S128x1024) (k0_off63 c) S64x384.size (k0_off63_inb c)
abbrev RA64 (c : Dev nD) : Rect S1024x1024 := Rect.unit (s := S1024x1024) (k0_off64 c) S64x384.size (k0_off64_inb c)
abbrev RR65 (c : Dev nD) : Rect S128x1024 := Rect.unit (s := S128x1024) (k0_off65 c) S64x384.size (k0_off65_inb c)
abbrev RA66 (c : Dev nD) : Rect S1024x1024 := Rect.unit (s := S1024x1024) (k0_off66 c) S64x256.size (k0_off66_inb c)
abbrev RR67 (c : Dev nD) : Rect S128x1024 := Rect.unit (s := S128x1024) (k0_off67 c) S64x256.size (k0_off67_inb c)

/-! ## One addition, one rounding -/

/-- The accumulator after the partner's rows of stage 1, column block 0, are added on the rows at offset 44. -/
def addK0 (c : Dev nD) (a : Buf (Elt F) ((c : Thread nD τ).loc cc0_scratch0)) (g : Buf (Elt F) ((c : Thread nD τ).loc cc0_scratch2)) : Buf (Elt F) ((c : Thread nD τ).loc cc0_scratch0) :=
  ((Memref.whole cc0_scratch0 : Memref sig .tc .vmem S1024x1024 .f32).access (RA44 c)).write (Elt F) a
    (k0_pay26 ((Memref.whole cc0_scratch0 : Memref sig .tc .vmem S1024x1024 .f32).view.readAt (Elt F) (RA44 c).toLoadRect a) ((Memref.whole cc0_scratch2 : Memref sig .tc .vmem S256x1024 .bf16).view.readAt (Elt F) (RR45 c).toLoadRect g)) Finset.univ

/-- The accumulator after the partner's rows of stage 1, column block 1, are added on the rows at offset 46. -/
def addK1 (c : Dev nD) (a : Buf (Elt F) ((c : Thread nD τ).loc cc0_scratch0)) (g : Buf (Elt F) ((c : Thread nD τ).loc cc0_scratch2)) : Buf (Elt F) ((c : Thread nD τ).loc cc0_scratch0) :=
  ((Memref.whole cc0_scratch0 : Memref sig .tc .vmem S1024x1024 .f32).access (RA46 c)).write (Elt F) a
    (k0_pay27 ((Memref.whole cc0_scratch0 : Memref sig .tc .vmem S1024x1024 .f32).view.readAt (Elt F) (RA46 c).toLoadRect a) ((Memref.whole cc0_scratch2 : Memref sig .tc .vmem S256x1024 .bf16).view.readAt (Elt F) (RR47 c).toLoadRect g)) Finset.univ

/-- The accumulator after the partner's rows of stage 1, column block 2, are added on the rows at offset 48. -/
def addK2 (c : Dev nD) (a : Buf (Elt F) ((c : Thread nD τ).loc cc0_scratch0)) (g : Buf (Elt F) ((c : Thread nD τ).loc cc0_scratch2)) : Buf (Elt F) ((c : Thread nD τ).loc cc0_scratch0) :=
  ((Memref.whole cc0_scratch0 : Memref sig .tc .vmem S1024x1024 .f32).access (RA48 c)).write (Elt F) a
    (k0_pay28 ((Memref.whole cc0_scratch0 : Memref sig .tc .vmem S1024x1024 .f32).view.readAt (Elt F) (RA48 c).toLoadRect a) ((Memref.whole cc0_scratch2 : Memref sig .tc .vmem S256x1024 .bf16).view.readAt (Elt F) (RR49 c).toLoadRect g)) Finset.univ

/-- The accumulator after the partner's rows of stage 2, column block 0, are added on the rows at offset 50. -/
def addS0 (c : Dev nD) (a : Buf (Elt F) ((c : Thread nD τ).loc cc0_scratch0)) (g : Buf (Elt F) ((c : Thread nD τ).loc cc0_scratch3)) : Buf (Elt F) ((c : Thread nD τ).loc cc0_scratch0) :=
  ((Memref.whole cc0_scratch0 : Memref sig .tc .vmem S1024x1024 .f32).access (RA50 c)).write (Elt F) a
    (k0_pay29 ((Memref.whole cc0_scratch0 : Memref sig .tc .vmem S1024x1024 .f32).view.readAt (Elt F) (RA50 c).toLoadRect a) ((Memref.whole cc0_scratch3 : Memref sig .tc .vmem S128x1024 .bf16).view.readAt (Elt F) (RR51 c).toLoadRect g)) Finset.univ

/-- The accumulator after the partner's rows of stage 2, column block 1, are added on the rows at offset 54. -/
def addS1 (c : Dev nD) (a : Buf (Elt F) ((c : Thread nD τ).loc cc0_scratch0)) (g : Buf (Elt F) ((c : Thread nD τ).loc cc0_scratch3)) : Buf (Elt F) ((c : Thread nD τ).loc cc0_scratch0) :=
  ((Memref.whole cc0_scratch0 : Memref sig .tc .vmem S1024x1024 .f32).access (RA54 c)).write (Elt F) a
    (k0_pay31 ((Memref.whole cc0_scratch0 : Memref sig .tc .vmem S1024x1024 .f32).view.readAt (Elt F) (RA54 c).toLoadRect a) ((Memref.whole cc0_scratch3 : Memref sig .tc .vmem S128x1024 .bf16).view.readAt (Elt F) (RR55 c).toLoadRect g)) Finset.univ

/-- The accumulator after the partner's rows of stage 2, column block 2, are added on the rows at offset 58. -/
def addS2 (c : Dev nD) (a : Buf (Elt F) ((c : Thread nD τ).loc cc0_scratch0)) (g : Buf (Elt F) ((c : Thread nD τ).loc cc0_scratch3)) : Buf (Elt F) ((c : Thread nD τ).loc cc0_scratch0) :=
  ((Memref.whole cc0_scratch0 : Memref sig .tc .vmem S1024x1024 .f32).access (RA58 c)).write (Elt F) a
    (k0_pay33 ((Memref.whole cc0_scratch0 : Memref sig .tc .vmem S1024x1024 .f32).view.readAt (Elt F) (RA58 c).toLoadRect a) ((Memref.whole cc0_scratch3 : Memref sig .tc .vmem S128x1024 .bf16).view.readAt (Elt F) (RR59 c).toLoadRect g)) Finset.univ

/-- The accumulator after the partner's rows of stage 2, column block 0, are added on the rows at offset 62. -/
def addL0 (c : Dev nD) (a : Buf (Elt F) ((c : Thread nD τ).loc cc0_scratch0)) (g : Buf (Elt F) ((c : Thread nD τ).loc cc0_scratch3)) : Buf (Elt F) ((c : Thread nD τ).loc cc0_scratch0) :=
  ((Memref.whole cc0_scratch0 : Memref sig .tc .vmem S1024x1024 .f32).access (RA62 c)).write (Elt F) a
    (k0_pay35 ((Memref.whole cc0_scratch0 : Memref sig .tc .vmem S1024x1024 .f32).view.readAt (Elt F) (RA62 c).toLoadRect a) ((Memref.whole cc0_scratch3 : Memref sig .tc .vmem S128x1024 .bf16).view.readAt (Elt F) (RR63 c).toLoadRect g)) Finset.univ

/-- The accumulator after the partner's rows of stage 2, column block 1, are added on the rows at offset 64. -/
def addL1 (c : Dev nD) (a : Buf (Elt F) ((c : Thread nD τ).loc cc0_scratch0)) (g : Buf (Elt F) ((c : Thread nD τ).loc cc0_scratch3)) : Buf (Elt F) ((c : Thread nD τ).loc cc0_scratch0) :=
  ((Memref.whole cc0_scratch0 : Memref sig .tc .vmem S1024x1024 .f32).access (RA64 c)).write (Elt F) a
    (k0_pay36 ((Memref.whole cc0_scratch0 : Memref sig .tc .vmem S1024x1024 .f32).view.readAt (Elt F) (RA64 c).toLoadRect a) ((Memref.whole cc0_scratch3 : Memref sig .tc .vmem S128x1024 .bf16).view.readAt (Elt F) (RR65 c).toLoadRect g)) Finset.univ

/-- The accumulator after the partner's rows of stage 2, column block 2, are added on the rows at offset 66. -/
def addL2 (c : Dev nD) (a : Buf (Elt F) ((c : Thread nD τ).loc cc0_scratch0)) (g : Buf (Elt F) ((c : Thread nD τ).loc cc0_scratch3)) : Buf (Elt F) ((c : Thread nD τ).loc cc0_scratch0) :=
  ((Memref.whole cc0_scratch0 : Memref sig .tc .vmem S1024x1024 .f32).access (RA66 c)).write (Elt F) a
    (k0_pay37 ((Memref.whole cc0_scratch0 : Memref sig .tc .vmem S1024x1024 .f32).view.readAt (Elt F) (RA66 c).toLoadRect a) ((Memref.whole cc0_scratch3 : Memref sig .tc .vmem S128x1024 .bf16).view.readAt (Elt F) (RR67 c).toLoadRect g)) Finset.univ

abbrev RS3b0 : Rect S64x1024 := Rect.unit (s := S64x1024) ![0, 0] S64x384.size inb_S64x1024_S64x384_0_0
/-- The fourth stage's send buffer after column block 0's rows to give away are rounded into it. -/
def sendK0 (c : Dev nD) (a : Buf (Elt F) ((c : Thread nD τ).loc cc0_scratch0)) (g9 : Buf (Elt F) ((c : Thread nD τ).loc cc0_scratch9)) : Buf (Elt F) ((c : Thread nD τ).loc cc0_scratch9) :=
  ((Memref.whole cc0_scratch9 : Memref sig .tc .vmem S64x1024 .bf16).access RS3b0).write (Elt F) g9 (k0_pay30 ((Memref.whole cc0_scratch0 : Memref sig .tc .vmem S1024x1024 .f32).view.readAt (Elt F) (RA50 c).toLoadRect a)) Finset.univ

abbrev RS3b1 : Rect S64x1024 := Rect.unit (s := S64x1024) ![0, 384] S64x384.size inb_S64x1024_S64x384_0_384
/-- The fourth stage's send buffer after column block 1's rows to give away are rounded into it. -/
def sendK1 (c : Dev nD) (a : Buf (Elt F) ((c : Thread nD τ).loc cc0_scratch0)) (g9 : Buf (Elt F) ((c : Thread nD τ).loc cc0_scratch9)) : Buf (Elt F) ((c : Thread nD τ).loc cc0_scratch9) :=
  ((Memref.whole cc0_scratch9 : Memref sig .tc .vmem S64x1024 .bf16).access RS3b1).write (Elt F) g9 (k0_pay32 ((Memref.whole cc0_scratch0 : Memref sig .tc .vmem S1024x1024 .f32).view.readAt (Elt F) (RA54 c).toLoadRect a)) Finset.univ

abbrev RS3b2 : Rect S64x1024 := Rect.unit (s := S64x1024) ![0, 768] S64x256.size inb_S64x1024_S64x256_0_768
/-- The fourth stage's send buffer after column block 2's rows to give away are rounded into it. -/
def sendK2 (c : Dev nD) (a : Buf (Elt F) ((c : Thread nD τ).loc cc0_scratch0)) (g9 : Buf (Elt F) ((c : Thread nD τ).loc cc0_scratch9)) : Buf (Elt F) ((c : Thread nD τ).loc cc0_scratch9) :=
  ((Memref.whole cc0_scratch9 : Memref sig .tc .vmem S64x1024 .bf16).access RS3b2).write (Elt F) g9 (k0_pay34 ((Memref.whole cc0_scratch0 : Memref sig .tc .vmem S1024x1024 .f32).view.readAt (Elt F) (RA58 c).toLoadRect a)) Finset.univ

/-- The accumulator's contents along the segment, from its contents `fa` at entry and the rows received. -/
def acc1 (c : Dev nD) (fa : Buf (Elt F) ((c : Thread nD τ).loc cc0_scratch0)) (g101 : Buf (Elt F) ((c : Thread nD τ).loc cc0_scratch2)) : Buf (Elt F) ((c : Thread nD τ).loc cc0_scratch0) := addK0 c fa g101
def acc2 (c : Dev nD) (fa : Buf (Elt F) ((c : Thread nD τ).loc cc0_scratch0)) (g101 g111 : Buf (Elt F) ((c : Thread nD τ).loc cc0_scratch2)) : Buf (Elt F) ((c : Thread nD τ).loc cc0_scratch0) := addK1 c (acc1 c fa g101) g111
def acc3 (c : Dev nD) (fa : Buf (Elt F) ((c : Thread nD τ).loc cc0_scratch0)) (g101 g111 g121 : Buf (Elt F) ((c : Thread nD τ).loc cc0_scratch2)) : Buf (Elt F) ((c : Thread nD τ).loc cc0_scratch0) := addK2 c (acc2 c fa g101 g111) g121
def acc4 (c : Dev nD) (fa : Buf (Elt F) ((c : Thread nD τ).loc cc0_scratch0)) (g101 g111 g121 : Buf (Elt F) ((c : Thread nD τ).loc cc0_scratch2)) (g200 : Buf (Elt F) ((c : Thread nD τ).loc cc0_scratch3)) : Buf (Elt F) ((c : Thread nD τ).loc cc0_scratch0) := addS0 c (acc3 c fa g101 g111 g121) g200
def acc5 (c : Dev nD) (fa : Buf (Elt F) ((c : Thread nD τ).loc cc0_scratch0)) (g101 g111 g121 : Buf (Elt F) ((c : Thread nD τ).loc cc0_scratch2)) (g200 g210 : Buf (Elt F) ((c : Thread nD τ).loc cc0_scratch3)) : Buf (Elt F) ((c : Thread nD τ).loc cc0_scratch0) := addS1 c (acc4 c fa g101 g111 g121 g200) g210
def acc6 (c : Dev nD) (fa : Buf (Elt F) ((c : Thread nD τ).loc cc0_scratch0)) (g101 g111 g121 : Buf (Elt F) ((c : Thread nD τ).loc cc0_scratch2)) (g200 g210 g220 : Buf (Elt F) ((c : Thread nD τ).loc cc0_scratch3)) : Buf (Elt F) ((c : Thread nD τ).loc cc0_scratch0) := addS2 c (acc5 c fa g101 g111 g121 g200 g210) g220
def acc7 (c : Dev nD) (fa : Buf (Elt F) ((c : Thread nD τ).loc cc0_scratch0)) (g101 g111 g121 : Buf (Elt F) ((c : Thread nD τ).loc cc0_scratch2)) (g200 g210 g220 g201 : Buf (Elt F) ((c : Thread nD τ).loc cc0_scratch3)) : Buf (Elt F) ((c : Thread nD τ).loc cc0_scratch0) := addL0 c (acc6 c fa g101 g111 g121 g200 g210 g220) g201
def acc8 (c : Dev nD) (fa : Buf (Elt F) ((c : Thread nD τ).loc cc0_scratch0)) (g101 g111 g121 : Buf (Elt F) ((c : Thread nD τ).loc cc0_scratch2)) (g200 g210 g220 g201 g211 : Buf (Elt F) ((c : Thread nD τ).loc cc0_scratch3)) : Buf (Elt F) ((c : Thread nD τ).loc cc0_scratch0) := addL1 c (acc7 c fa g101 g111 g121 g200 g210 g220 g201) g211
def acc9 (c : Dev nD) (fa : Buf (Elt F) ((c : Thread nD τ).loc cc0_scratch0)) (g101 g111 g121 : Buf (Elt F) ((c : Thread nD τ).loc cc0_scratch2)) (g200 g210 g220 g201 g211 g221 : Buf (Elt F) ((c : Thread nD τ).loc cc0_scratch3)) : Buf (Elt F) ((c : Thread nD τ).loc cc0_scratch0) := addL2 c (acc8 c fa g101 g111 g121 g200 g210 g220 g201 g211) g221

variable (ct : Contract F) (c : Dev nD) (YA : S1024x512.Idx → F .f32) (YB : S512x1024.Idx → F .f32)

/-! ## The steps of the segment, one column block at a time -/

/-- What a store into the accumulator leaves untouched: right contents on a rectangle that misses the stored one on some axis stay right. -/
theorem fr (lvl : ℕ) {offW szW offS szS : Fin 2 → ℕ} {rW qW rS qS : ℕ} (inbW : ∀ a, offW a + szW a ≤ S1024x1024.size a) (heqW : offW = ![rW, qW])
    (w : (Rect.unit (s := S1024x1024) offW szW inbW).shape.Idx → F .f32) (inbS : ∀ a, offS a + szS a ≤ S1024x1024.size a) (heqS : offS = ![rS, qS])
    (a : S1024x1024.Idx → F .f32)
    (h : ∀ i ∈ ((View.whole cc0_scratch0).slice (Rect.unit (s := S1024x1024) offS szS inbS)).set, ct.okAcc lvl c (i 0).val (i 1).val (a i))
    (hd : (rS + szS 0 ≤ rW ∨ rW + szW 0 ≤ rS) ∨ (qS + szS 1 ≤ qW ∨ qW + szW 1 ≤ qS)) :
    ∀ i ∈ ((View.whole cc0_scratch0).slice (Rect.unit (s := S1024x1024) offS szS inbS)).set,
      ct.okAcc lvl c (i 0).val (i 1).val ((((View.whole cc0_scratch0).slice (Rect.unit (s := S1024x1024) offW szW inbW)).write (Elt F) a w Finset.univ) i) :=
  SegBCore.keep_of (Val := Elt F) cc0_scratch0 a (fun i v => ct.okAcc lvl c (i 0).val (i 1).val v) inbW heqW w inbS heqS inbS heqS h
    (fun _ => ⟨Nat.le_refl _, Nat.le_refl _⟩) (hd.elim (fun h0 => ⟨0, h0⟩) (fun h1 => ⟨1, h1⟩))

/-- Column block 0: adding the second piece of the stage-1 partner to the rows kept brings them to the sum over four devices. -/
theorem stepK0 (laws : Laws ct c YA YB) (a : S1024x1024.Idx → F .f32) (g : S256x1024.Idx → F .bf16)
    (ha : ∀ i ∈ ((View.whole cc0_scratch0).slice (Rect.unit (s := S1024x1024) (k0_off44 c) S128x384.size (k0_off44_inb c))).set, ct.okAcc 1 c (i 0).val (i 1).val (a i))
    (hg : ∀ i ∈ (dst_rs_1_0_1 (peer 0 1 c)).view.set, pRS ct 1 c (sh := S256x1024) i (g i)) :
    ∀ i ∈ ((View.whole cc0_scratch0).slice (Rect.unit (s := S1024x1024) (k0_off44 c) S128x384.size (k0_off44_inb c))).set, ct.okAcc 2 c (i 0).val (i 1).val (addK0 c a g i) := by
  have hpeer : k0_off17 (peer 0 1 c) = ![bit 0 2 c * 128, 0] := by
    rw [Geo.off17_eq, bit_peer_succ 0 1 2 c rfl]
  have hY : ∀ j : S128x384.Idx, ct.okSS 1 (peer 0 1 c) (bit 0 2 c * half 2 + (j 0).val) (0 + (j 1).val)
      ((Memref.whole cc0_scratch2 : Memref sig .tc .vmem S256x1024 .bf16).view.readAt (Elt F) (Rect.unit (s := S256x1024) (k0_off45 c) S128x384.size (k0_off45_inb c)).toLoadRect g j) := fun j => by
    obtain ⟨y, hy, hP⟩ := SegBCore.load_sub_ok (Val := Elt F) cc0_scratch2 g (fun i v => pRS ct 1 c (sh := S256x1024) i v)
      (k0_off17_inb (peer 0 1 c)) hpeer hg (k0_off45_inb c) (Geo.off45_eq c) (fun a => ⟨Nat.le_refl _, Nat.le_refl _⟩) j
    have hj1 : (j 1).val < 384 := (j 1).isLt
    rw [SegBCore.half_2]
    exact SegBCore.pRS_to_okSS ct 1 0 c rfl y _ _ _ (hy 0) (hy 1) (SegAValP.blk_of_lt (by omega)) hP
  unfold addK0
  exact SegBCore.keep_core ct c YA YB laws 1 2 (by decide) rfl 0 (k0_off44_inb c)
    ((Geo.off44_eq c).trans (by show ![lo 0 c 3, 0] = ![lo 0 c 2 + bit 0 2 c * half 2, 0]; rw [show lo 0 c 3 = lo 0 c 2 + bit 0 2 c * half 2 from SegBCore.lo_succ 0 c 2]))
    (fun q h1 h2 => SegAValP.blk_of_lt (by have h2' : q < 0 + 384 := h2; omega)) a ha _ hY _ (fun j => PayPoint.pay26_at _ _ j)

theorem frK0 (lvl : ℕ) {offS szS : Fin 2 → ℕ} {rS qS : ℕ} (inbS : ∀ a, offS a + szS a ≤ S1024x1024.size a) (heqS : offS = ![rS, qS])
    (a : S1024x1024.Idx → F .f32) (g : S256x1024.Idx → F .bf16)
    (h : ∀ i ∈ ((View.whole cc0_scratch0).slice (Rect.unit (s := S1024x1024) offS szS inbS)).set, ct.okAcc lvl c (i 0).val (i 1).val (a i))
    (hd : (rS + szS 0 ≤ lo 0 c 3 ∨ lo 0 c 3 + 128 ≤ rS) ∨ (qS + szS 1 ≤ 0 ∨ 0 + 384 ≤ qS)) :
    ∀ i ∈ ((View.whole cc0_scratch0).slice (Rect.unit (s := S1024x1024) offS szS inbS)).set, ct.okAcc lvl c (i 0).val (i 1).val (addK0 c a g i) := by
  unfold addK0
  exact fr ct c lvl (k0_off44_inb c) (Geo.off44_eq c) _ inbS heqS a h hd

/-- Column block 0: the rows handed on at the fourth stage, after the stage-2 partner's first piece is added and the sum rounded, are right for the send buffer. -/
theorem stepS0 (laws : Laws ct c YA YB) (a : S1024x1024.Idx → F .f32) (g : S128x1024.Idx → F .bf16)
    (ha : ∀ i ∈ ((View.whole cc0_scratch0).slice (Rect.unit (s := S1024x1024) (k0_off44 c) S128x384.size (k0_off44_inb c))).set, ct.okAcc 2 c (i 0).val (i 1).val (a i))
    (hg : ∀ i ∈ (dst_rs_2_0_0 (peer 0 2 c)).view.set, pRS ct 2 c (sh := S128x1024) i (g i)) :
    ∀ j : S64x384.Idx, ct.okSS 3 c (j 0).val (0 + (j 1).val)
      (k0_pay30 ((Memref.whole cc0_scratch0 : Memref sig .tc .vmem S1024x1024 .f32).view.readAt (Elt F) (RA50 c).toLoadRect (addS0 c a g)) j) := by
  have hb := bit_le_one 0 3 c
  have hpeer : k0_off34 (peer 0 2 c) = ![(1 - bit 0 3 c) * 64, 0] := by
    rw [Geo.off34_eq, bit_peer_succ 0 2 3 c rfl]
  have hY : ∀ j : S64x384.Idx, ct.okSS 2 (peer 0 2 c) ((1 - bit 0 3 c) * half 3 + (j 0).val) (0 + (j 1).val)
      ((Memref.whole cc0_scratch3 : Memref sig .tc .vmem S128x1024 .bf16).view.readAt (Elt F) (Rect.unit (s := S128x1024) (k0_off51 c) S64x384.size (k0_off51_inb c)).toLoadRect g j) := fun j => by
    obtain ⟨y, hy, hP⟩ := SegBCore.load_sub_ok (Val := Elt F) cc0_scratch3 g (fun i v => pRS ct 2 c (sh := S128x1024) i v)
      (k0_off34_inb (peer 0 2 c)) hpeer hg (k0_off51_inb c) (Geo.off51_eq c) (fun a => ⟨Nat.le_refl _, Nat.le_refl _⟩) j
    have hj1 : (j 1).val < 384 := (j 1).isLt
    rw [SegBCore.half_3]
    exact SegBCore.pRS_to_okSS ct 2 0 c rfl y _ _ _ (hy 0) (hy 1) (SegAValP.blk_of_lt (by omega)) hP
  have hA : ∀ i ∈ ((View.whole cc0_scratch0).slice (Rect.unit (s := S1024x1024) (k0_off50 c) S64x384.size (k0_off50_inb c))).set, ct.okAcc 2 c (i 0).val (i 1).val (a i) := fun i hi => ha i (by
    have hm := (Plumb.mem_slice_unit_whole cc0_scratch0 (k0_off50_inb c) (Geo.off50_eq c) i).mp hi
    exact (Plumb.mem_slice_unit_whole cc0_scratch0 (k0_off44_inb c) (Geo.off44_eq c) i).mpr (Fin.forall_fin_two.mpr
      ⟨by have h' : lo 0 c 3 + (1 - bit 0 3 c) * 64 ≤ (i 0).val ∧ (i 0).val < lo 0 c 3 + (1 - bit 0 3 c) * 64 + 64 := hm 0
          show lo 0 c 3 ≤ (i 0).val ∧ (i 0).val < lo 0 c 3 + 128
          omega, hm 1⟩))
  unfold addS0
  exact SegBCore.ss_core ct c YA YB laws 2 3 (by decide) rfl 0 (k0_off50_inb c)
    ((Geo.off50_eq c).trans (by show _ = ![lo 0 c 3 + (1 - bit 0 3 c) * half 3, 0]; rw [SegBCore.half_3]))
    (fun q h1 h2 => SegAValP.blk_of_lt (by have h2' : q < 0 + 384 := h2; omega)) a hA _ hY _
    (fun j => PayPoint.pay29_at _ _ j) _ (fun j => PayPoint.pay30_at _ j)

theorem frS0 (lvl : ℕ) {offS szS : Fin 2 → ℕ} {rS qS : ℕ} (inbS : ∀ a, offS a + szS a ≤ S1024x1024.size a) (heqS : offS = ![rS, qS])
    (a : S1024x1024.Idx → F .f32) (g : S128x1024.Idx → F .bf16)
    (h : ∀ i ∈ ((View.whole cc0_scratch0).slice (Rect.unit (s := S1024x1024) offS szS inbS)).set, ct.okAcc lvl c (i 0).val (i 1).val (a i))
    (hd : (rS + szS 0 ≤ lo 0 c 3 + (1 - bit 0 3 c) * 64 ∨ lo 0 c 3 + (1 - bit 0 3 c) * 64 + 64 ≤ rS) ∨ (qS + szS 1 ≤ 0 ∨ 0 + 384 ≤ qS)) :
    ∀ i ∈ ((View.whole cc0_scratch0).slice (Rect.unit (s := S1024x1024) offS szS inbS)).set, ct.okAcc lvl c (i 0).val (i 1).val (addS0 c a g i) := by
  unfold addS0
  exact fr ct c lvl (k0_off50_inb c) (Geo.off50_eq c) _ inbS heqS a h hd

/-- Column block 0: adding the second piece of the stage-2 partner to the rows kept brings them to the sum over eight devices. -/
theorem stepL0 (laws : Laws ct c YA YB) (a : S1024x1024.Idx → F .f32) (g : S128x1024.Idx → F .bf16)
    (ha : ∀ i ∈ ((View.whole cc0_scratch0).slice (Rect.unit (s := S1024x1024) (k0_off62 c) S64x384.size (k0_off62_inb c))).set, ct.okAcc 2 c (i 0).val (i 1).val (a i))
    (hg : ∀ i ∈ (dst_rs_2_0_1 (peer 0 2 c)).view.set, pRS ct 2 c (sh := S128x1024) i (g i)) :
    ∀ i ∈ ((View.whole cc0_scratch0).slice (Rect.unit (s := S1024x1024) (k0_off62 c) S64x384.size (k0_off62_inb c))).set, ct.okAcc 3 c (i 0).val (i 1).val (addL0 c a g i) := by
  have hpeer : k0_off35 (peer 0 2 c) = ![bit 0 3 c * 64, 0] := by
    rw [Geo.off35_eq, bit_peer_succ 0 2 3 c rfl]
  have hY : ∀ j : S64x384.Idx, ct.okSS 2 (peer 0 2 c) (bit 0 3 c * half 3 + (j 0).val) (0 + (j 1).val)
      ((Memref.whole cc0_scratch3 : Memref sig .tc .vmem S128x1024 .bf16).view.readAt (Elt F) (Rect.unit (s := S128x1024) (k0_off63 c) S64x384.size (k0_off63_inb c)).toLoadRect g j) := fun j => by
    obtain ⟨y, hy, hP⟩ := SegBCore.load_sub_ok (Val := Elt F) cc0_scratch3 g (fun i v => pRS ct 2 c (sh := S128x1024) i v)
      (k0_off35_inb (peer 0 2 c)) hpeer hg (k0_off63_inb c) (Geo.off63_eq c) (fun a => ⟨Nat.le_refl _, Nat.le_refl _⟩) j
    have hj1 : (j 1).val < 384 := (j 1).isLt
    rw [SegBCore.half_3]
    exact SegBCore.pRS_to_okSS ct 2 0 c rfl y _ _ _ (hy 0) (hy 1) (SegAValP.blk_of_lt (by omega)) hP
  unfold addL0
  exact SegBCore.keep_core ct c YA YB laws 2 3 (by decide) rfl 0 (k0_off62_inb c)
    ((Geo.off62_eq c).trans (by show ![lo 0 c 4, 0] = ![lo 0 c 3 + bit 0 3 c * half 3, 0]; rw [show lo 0 c 4 = lo 0 c 3 + bit 0 3 c * half 3 from SegBCore.lo_succ 0 c 3]))
    (fun q h1 h2 => SegAValP.blk_of_lt (by have h2' : q < 0 + 384 := h2; omega)) a ha _ hY _ (fun j => PayPoint.pay35_at _ _ j)

theorem frL0 (lvl : ℕ) {offS szS : Fin 2 → ℕ} {rS qS : ℕ} (inbS : ∀ a, offS a + szS a ≤ S1024x1024.size a) (heqS : offS = ![rS, qS])
    (a : S1024x1024.Idx → F .f32) (g : S128x1024.Idx → F .bf16)
    (h : ∀ i ∈ ((View.whole cc0_scratch0).slice (Rect.unit (s := S1024x1024) offS szS inbS)).set, ct.okAcc lvl c (i 0).val (i 1).val (a i))
    (hd : (rS + szS 0 ≤ lo 0 c 4 ∨ lo 0 c 4 + 64 ≤ rS) ∨ (qS + szS 1 ≤ 0 ∨ 0 + 384 ≤ qS)) :
    ∀ i ∈ ((View.whole cc0_scratch0).slice (Rect.unit (s := S1024x1024) offS szS inbS)).set, ct.okAcc lvl c (i 0).val (i 1).val (addL0 c a g i) := by
  unfold addL0
  exact fr ct c lvl (k0_off62_inb c) (Geo.off62_eq c) _ inbS heqS a h hd

/-- Column block 1: adding the second piece of the stage-1 partner to the rows kept brings them to the sum over four devices. -/
theorem stepK1 (laws : Laws ct c YA YB) (a : S1024x1024.Idx → F .f32) (g : S256x1024.Idx → F .bf16)
    (ha : ∀ i ∈ ((View.whole cc0_scratch0).slice (Rect.unit (s := S1024x1024) (k0_off46 c) S128x384.size (k0_off46_inb c))).set, ct.okAcc 1 c (i 0).val (i 1).val (a i))
    (hg : ∀ i ∈ (dst_rs_1_1_1 (peer 1 1 c)).view.set, pRS ct 1 c (sh := S256x1024) i (g i)) :
    ∀ i ∈ ((View.whole cc0_scratch0).slice (Rect.unit (s := S1024x1024) (k0_off46 c) S128x384.size (k0_off46_inb c))).set, ct.okAcc 2 c (i 0).val (i 1).val (addK1 c a g i) := by
  have hpeer : k0_off21 (peer 1 1 c) = ![bit 1 2 c * 128, 384] := by
    rw [Geo.off21_eq, bit_peer_succ 1 1 2 c rfl]
  have hY : ∀ j : S128x384.Idx, ct.okSS 1 (peer 1 1 c) (bit 1 2 c * half 2 + (j 0).val) (384 + (j 1).val)
      ((Memref.whole cc0_scratch2 : Memref sig .tc .vmem S256x1024 .bf16).view.readAt (Elt F) (Rect.unit (s := S256x1024) (k0_off47 c) S128x384.size (k0_off47_inb c)).toLoadRect g j) := fun j => by
    obtain ⟨y, hy, hP⟩ := SegBCore.load_sub_ok (Val := Elt F) cc0_scratch2 g (fun i v => pRS ct 1 c (sh := S256x1024) i v)
      (k0_off21_inb (peer 1 1 c)) hpeer hg (k0_off47_inb c) (Geo.off47_eq c) (fun a => ⟨Nat.le_refl _, Nat.le_refl _⟩) j
    have hj1 : (j 1).val < 384 := (j 1).isLt
    rw [SegBCore.half_2]
    exact SegBCore.pRS_to_okSS ct 1 1 c rfl y _ _ _ (hy 0) (hy 1) (SegAValP.blk_of_mid (by omega) (by omega)) hP
  unfold addK1
  exact SegBCore.keep_core ct c YA YB laws 1 2 (by decide) rfl 1 (k0_off46_inb c)
    ((Geo.off46_eq c).trans (by show ![lo 1 c 3, 384] = ![lo 1 c 2 + bit 1 2 c * half 2, 384]; rw [show lo 1 c 3 = lo 1 c 2 + bit 1 2 c * half 2 from SegBCore.lo_succ 1 c 2]))
    (fun q h1 h2 => SegAValP.blk_of_mid (by have h2' : q < 384 + 384 := h2; omega) (by have h2' : q < 384 + 384 := h2; omega)) a ha _ hY _ (fun j => PayPoint.pay27_at _ _ j)

theorem frK1 (lvl : ℕ) {offS szS : Fin 2 → ℕ} {rS qS : ℕ} (inbS : ∀ a, offS a + szS a ≤ S1024x1024.size a) (heqS : offS = ![rS, qS])
    (a : S1024x1024.Idx → F .f32) (g : S256x1024.Idx → F .bf16)
    (h : ∀ i ∈ ((View.whole cc0_scratch0).slice (Rect.unit (s := S1024x1024) offS szS inbS)).set, ct.okAcc lvl c (i 0).val (i 1).val (a i))
    (hd : (rS + szS 0 ≤ lo 1 c 3 ∨ lo 1 c 3 + 128 ≤ rS) ∨ (qS + szS 1 ≤ 384 ∨ 384 + 384 ≤ qS)) :
    ∀ i ∈ ((View.whole cc0_scratch0).slice (Rect.unit (s := S1024x1024) offS szS inbS)).set, ct.okAcc lvl c (i 0).val (i 1).val (addK1 c a g i) := by
  unfold addK1
  exact fr ct c lvl (k0_off46_inb c) (Geo.off46_eq c) _ inbS heqS a h hd

/-- Column block 1: the rows handed on at the fourth stage, after the stage-2 partner's first piece is added and the sum rounded, are right for the send buffer. -/
theorem stepS1 (laws : Laws ct c YA YB) (a : S1024x1024.Idx → F .f32) (g : S128x1024.Idx → F .bf16)
    (ha : ∀ i ∈ ((View.whole cc0_scratch0).slice (Rect.unit (s := S1024x1024) (k0_off46 c) S128x384.size (k0_off46_inb c))).set, ct.okAcc 2 c (i 0).val (i 1).val (a i))
    (hg : ∀ i ∈ (dst_rs_2_1_0 (peer 1 2 c)).view.set, pRS ct 2 c (sh := S128x1024) i (g i)) :
    ∀ j : S64x384.Idx, ct.okSS 3 c (j 0).val (384 + (j 1).val)
      (k0_pay32 ((Memref.whole cc0_scratch0 : Memref sig .tc .vmem S1024x1024 .f32).view.readAt (Elt F) (RA54 c).toLoadRect (addS1 c a g)) j) := by
  have hb := bit_le_one 1 3 c
  have hpeer : k0_off38 (peer 1 2 c) = ![(1 - bit 1 3 c) * 64, 384] := by
    rw [Geo.off38_eq, bit_peer_succ 1 2 3 c rfl]
  have hY : ∀ j : S64x384.Idx, ct.okSS 2 (peer 1 2 c) ((1 - bit 1 3 c) * half 3 + (j 0).val) (384 + (j 1).val)
      ((Memref.whole cc0_scratch3 : Memref sig .tc .vmem S128x1024 .bf16).view.readAt (Elt F) (Rect.unit (s := S128x1024) (k0_off55 c) S64x384.size (k0_off55_inb c)).toLoadRect g j) := fun j => by
    obtain ⟨y, hy, hP⟩ := SegBCore.load_sub_ok (Val := Elt F) cc0_scratch3 g (fun i v => pRS ct 2 c (sh := S128x1024) i v)
      (k0_off38_inb (peer 1 2 c)) hpeer hg (k0_off55_inb c) (Geo.off55_eq c) (fun a => ⟨Nat.le_refl _, Nat.le_refl _⟩) j
    have hj1 : (j 1).val < 384 := (j 1).isLt
    rw [SegBCore.half_3]
    exact SegBCore.pRS_to_okSS ct 2 1 c rfl y _ _ _ (hy 0) (hy 1) (SegAValP.blk_of_mid (by omega) (by omega)) hP
  have hA : ∀ i ∈ ((View.whole cc0_scratch0).slice (Rect.unit (s := S1024x1024) (k0_off54 c) S64x384.size (k0_off54_inb c))).set, ct.okAcc 2 c (i 0).val (i 1).val (a i) := fun i hi => ha i (by
    have hm := (Plumb.mem_slice_unit_whole cc0_scratch0 (k0_off54_inb c) (Geo.off54_eq c) i).mp hi
    exact (Plumb.mem_slice_unit_whole cc0_scratch0 (k0_off46_inb c) (Geo.off46_eq c) i).mpr (Fin.forall_fin_two.mpr
      ⟨by have h' : lo 1 c 3 + (1 - bit 1 3 c) * 64 ≤ (i 0).val ∧ (i 0).val < lo 1 c 3 + (1 - bit 1 3 c) * 64 + 64 := hm 0
          show lo 1 c 3 ≤ (i 0).val ∧ (i 0).val < lo 1 c 3 + 128
          omega, hm 1⟩))
  unfold addS1
  exact SegBCore.ss_core ct c YA YB laws 2 3 (by decide) rfl 1 (k0_off54_inb c)
    ((Geo.off54_eq c).trans (by show _ = ![lo 1 c 3 + (1 - bit 1 3 c) * half 3, 384]; rw [SegBCore.half_3]))
    (fun q h1 h2 => SegAValP.blk_of_mid (by have h2' : q < 384 + 384 := h2; omega) (by have h2' : q < 384 + 384 := h2; omega)) a hA _ hY _
    (fun j => PayPoint.pay31_at _ _ j) _ (fun j => PayPoint.pay32_at _ j)

theorem frS1 (lvl : ℕ) {offS szS : Fin 2 → ℕ} {rS qS : ℕ} (inbS : ∀ a, offS a + szS a ≤ S1024x1024.size a) (heqS : offS = ![rS, qS])
    (a : S1024x1024.Idx → F .f32) (g : S128x1024.Idx → F .bf16)
    (h : ∀ i ∈ ((View.whole cc0_scratch0).slice (Rect.unit (s := S1024x1024) offS szS inbS)).set, ct.okAcc lvl c (i 0).val (i 1).val (a i))
    (hd : (rS + szS 0 ≤ lo 1 c 3 + (1 - bit 1 3 c) * 64 ∨ lo 1 c 3 + (1 - bit 1 3 c) * 64 + 64 ≤ rS) ∨ (qS + szS 1 ≤ 384 ∨ 384 + 384 ≤ qS)) :
    ∀ i ∈ ((View.whole cc0_scratch0).slice (Rect.unit (s := S1024x1024) offS szS inbS)).set, ct.okAcc lvl c (i 0).val (i 1).val (addS1 c a g i) := by
  unfold addS1
  exact fr ct c lvl (k0_off54_inb c) (Geo.off54_eq c) _ inbS heqS a h hd

/-- Column block 1: adding the second piece of the stage-2 partner to the rows kept brings them to the sum over eight devices. -/
theorem stepL1 (laws : Laws ct c YA YB) (a : S1024x1024.Idx → F .f32) (g : S128x1024.Idx → F .bf16)
    (ha : ∀ i ∈ ((View.whole cc0_scratch0).slice (Rect.unit (s := S1024x1024) (k0_off64 c) S64x384.size (k0_off64_inb c))).set, ct.okAcc 2 c (i 0).val (i 1).val (a i))
    (hg : ∀ i ∈ (dst_rs_2_1_1 (peer 1 2 c)).view.set, pRS ct 2 c (sh := S128x1024) i (g i)) :
    ∀ i ∈ ((View.whole cc0_scratch0).slice (Rect.unit (s := S1024x1024) (k0_off64 c) S64x384.size (k0_off64_inb c))).set, ct.okAcc 3 c (i 0).val (i 1).val (addL1 c a g i) := by
  have hpeer : k0_off39 (peer 1 2 c) = ![bit 1 3 c * 64, 384] := by
    rw [Geo.off39_eq, bit_peer_succ 1 2 3 c rfl]
  have hY : ∀ j : S64x384.Idx, ct.okSS 2 (peer 1 2 c) (bit 1 3 c * half 3 + (j 0).val) (384 + (j 1).val)
      ((Memref.whole cc0_scratch3 : Memref sig .tc .vmem S128x1024 .bf16).view.readAt (Elt F) (Rect.unit (s := S128x1024) (k0_off65 c) S64x384.size (k0_off65_inb c)).toLoadRect g j) := fun j => by
    obtain ⟨y, hy, hP⟩ := SegBCore.load_sub_ok (Val := Elt F) cc0_scratch3 g (fun i v => pRS ct 2 c (sh := S128x1024) i v)
      (k0_off39_inb (peer 1 2 c)) hpeer hg (k0_off65_inb c) (Geo.off65_eq c) (fun a => ⟨Nat.le_refl _, Nat.le_refl _⟩) j
    have hj1 : (j 1).val < 384 := (j 1).isLt
    rw [SegBCore.half_3]
    exact SegBCore.pRS_to_okSS ct 2 1 c rfl y _ _ _ (hy 0) (hy 1) (SegAValP.blk_of_mid (by omega) (by omega)) hP
  unfold addL1
  exact SegBCore.keep_core ct c YA YB laws 2 3 (by decide) rfl 1 (k0_off64_inb c)
    ((Geo.off64_eq c).trans (by show ![lo 1 c 4, 384] = ![lo 1 c 3 + bit 1 3 c * half 3, 384]; rw [show lo 1 c 4 = lo 1 c 3 + bit 1 3 c * half 3 from SegBCore.lo_succ 1 c 3]))
    (fun q h1 h2 => SegAValP.blk_of_mid (by have h2' : q < 384 + 384 := h2; omega) (by have h2' : q < 384 + 384 := h2; omega)) a ha _ hY _ (fun j => PayPoint.pay36_at _ _ j)

theorem frL1 (lvl : ℕ) {offS szS : Fin 2 → ℕ} {rS qS : ℕ} (inbS : ∀ a, offS a + szS a ≤ S1024x1024.size a) (heqS : offS = ![rS, qS])
    (a : S1024x1024.Idx → F .f32) (g : S128x1024.Idx → F .bf16)
    (h : ∀ i ∈ ((View.whole cc0_scratch0).slice (Rect.unit (s := S1024x1024) offS szS inbS)).set, ct.okAcc lvl c (i 0).val (i 1).val (a i))
    (hd : (rS + szS 0 ≤ lo 1 c 4 ∨ lo 1 c 4 + 64 ≤ rS) ∨ (qS + szS 1 ≤ 384 ∨ 384 + 384 ≤ qS)) :
    ∀ i ∈ ((View.whole cc0_scratch0).slice (Rect.unit (s := S1024x1024) offS szS inbS)).set, ct.okAcc lvl c (i 0).val (i 1).val (addL1 c a g i) := by
  unfold addL1
  exact fr ct c lvl (k0_off64_inb c) (Geo.off64_eq c) _ inbS heqS a h hd

/-- Column block 2: adding the second piece of the stage-1 partner to the rows kept brings them to the sum over four devices. -/
theorem stepK2 (laws : Laws ct c YA YB) (a : S1024x1024.Idx → F .f32) (g : S256x1024.Idx → F .bf16)
    (ha : ∀ i ∈ ((View.whole cc0_scratch0).slice (Rect.unit (s := S1024x1024) (k0_off48 c) S128x256.size (k0_off48_inb c))).set, ct.okAcc 1 c (i 0).val (i 1).val (a i))
    (hg : ∀ i ∈ (dst_rs_1_2_1 (peer 2 1 c)).view.set, pRS ct 1 c (sh := S256x1024) i (g i)) :
    ∀ i ∈ ((View.whole cc0_scratch0).slice (Rect.unit (s := S1024x1024) (k0_off48 c) S128x256.size (k0_off48_inb c))).set, ct.okAcc 2 c (i 0).val (i 1).val (addK2 c a g i) := by
  have hpeer : k0_off25 (peer 2 1 c) = ![bit 2 2 c * 128, 768] := by
    rw [Geo.off25_eq, bit_peer_succ 2 1 2 c rfl]
  have hY : ∀ j : S128x256.Idx, ct.okSS 1 (peer 2 1 c) (bit 2 2 c * half 2 + (j 0).val) (768 + (j 1).val)
      ((Memref.whole cc0_scratch2 : Memref sig .tc .vmem S256x1024 .bf16).view.readAt (Elt F) (Rect.unit (s := S256x1024) (k0_off49 c) S128x256.size (k0_off49_inb c)).toLoadRect g j) := fun j => by
    obtain ⟨y, hy, hP⟩ := SegBCore.load_sub_ok (Val := Elt F) cc0_scratch2 g (fun i v => pRS ct 1 c (sh := S256x1024) i v)
      (k0_off25_inb (peer 2 1 c)) hpeer hg (k0_off49_inb c) (Geo.off49_eq c) (fun a => ⟨Nat.le_refl _, Nat.le_refl _⟩) j
    have hj1 : (j 1).val < 256 := (j 1).isLt
    rw [SegBCore.half_2]
    exact SegBCore.pRS_to_okSS ct 1 2 c rfl y _ _ _ (hy 0) (hy 1) (SegAValP.blk_of_ge (by omega)) hP
  unfold addK2
  exact SegBCore.keep_core ct c YA YB laws 1 2 (by decide) rfl 2 (k0_off48_inb c)
    ((Geo.off48_eq c).trans (by show ![lo 2 c 3, 768] = ![lo 2 c 2 + bit 2 2 c * half 2, 768]; rw [show lo 2 c 3 = lo 2 c 2 + bit 2 2 c * half 2 from SegBCore.lo_succ 2 c 2]))
    (fun q h1 h2 => SegAValP.blk_of_ge (by have h2' : q < 768 + 256 := h2; omega)) a ha _ hY _ (fun j => PayPoint.pay28_at _ _ j)

theorem frK2 (lvl : ℕ) {offS szS : Fin 2 → ℕ} {rS qS : ℕ} (inbS : ∀ a, offS a + szS a ≤ S1024x1024.size a) (heqS : offS = ![rS, qS])
    (a : S1024x1024.Idx → F .f32) (g : S256x1024.Idx → F .bf16)
    (h : ∀ i ∈ ((View.whole cc0_scratch0).slice (Rect.unit (s := S1024x1024) offS szS inbS)).set, ct.okAcc lvl c (i 0).val (i 1).val (a i))
    (hd : (rS + szS 0 ≤ lo 2 c 3 ∨ lo 2 c 3 + 128 ≤ rS) ∨ (qS + szS 1 ≤ 768 ∨ 768 + 256 ≤ qS)) :
    ∀ i ∈ ((View.whole cc0_scratch0).slice (Rect.unit (s := S1024x1024) offS szS inbS)).set, ct.okAcc lvl c (i 0).val (i 1).val (addK2 c a g i) := by
  unfold addK2
  exact fr ct c lvl (k0_off48_inb c) (Geo.off48_eq c) _ inbS heqS a h hd

/-- Column block 2: the rows handed on at the fourth stage, after the stage-2 partner's first piece is added and the sum rounded, are right for the send buffer. -/
theorem stepS2 (laws : Laws ct c YA YB) (a : S1024x1024.Idx → F .f32) (g : S128x1024.Idx → F .bf16)
    (ha : ∀ i ∈ ((View.whole cc0_scratch0).slice (Rect.unit (s := S1024x1024) (k0_off48 c) S128x256.size (k0_off48_inb c))).set, ct.okAcc 2 c (i 0).val (i 1).val (a i))
    (hg : ∀ i ∈ (dst_rs_2_2_0 (peer 2 2 c)).view.set, pRS ct 2 c (sh := S128x1024) i (g i)) :
    ∀ j : S64x256.Idx, ct.okSS 3 c (j 0).val (768 + (j 1).val)
      (k0_pay34 ((Memref.whole cc0_scratch0 : Memref sig .tc .vmem S1024x1024 .f32).view.readAt (Elt F) (RA58 c).toLoadRect (addS2 c a g)) j) := by
  have hb := bit_le_one 2 3 c
  have hpeer : k0_off42 (peer 2 2 c) = ![(1 - bit 2 3 c) * 64, 768] := by
    rw [Geo.off42_eq, bit_peer_succ 2 2 3 c rfl]
  have hY : ∀ j : S64x256.Idx, ct.okSS 2 (peer 2 2 c) ((1 - bit 2 3 c) * half 3 + (j 0).val) (768 + (j 1).val)
      ((Memref.whole cc0_scratch3 : Memref sig .tc .vmem S128x1024 .bf16).view.readAt (Elt F) (Rect.unit (s := S128x1024) (k0_off59 c) S64x256.size (k0_off59_inb c)).toLoadRect g j) := fun j => by
    obtain ⟨y, hy, hP⟩ := SegBCore.load_sub_ok (Val := Elt F) cc0_scratch3 g (fun i v => pRS ct 2 c (sh := S128x1024) i v)
      (k0_off42_inb (peer 2 2 c)) hpeer hg (k0_off59_inb c) (Geo.off59_eq c) (fun a => ⟨Nat.le_refl _, Nat.le_refl _⟩) j
    have hj1 : (j 1).val < 256 := (j 1).isLt
    rw [SegBCore.half_3]
    exact SegBCore.pRS_to_okSS ct 2 2 c rfl y _ _ _ (hy 0) (hy 1) (SegAValP.blk_of_ge (by omega)) hP
  have hA : ∀ i ∈ ((View.whole cc0_scratch0).slice (Rect.unit (s := S1024x1024) (k0_off58 c) S64x256.size (k0_off58_inb c))).set, ct.okAcc 2 c (i 0).val (i 1).val (a i) := fun i hi => ha i (by
    have hm := (Plumb.mem_slice_unit_whole cc0_scratch0 (k0_off58_inb c) (Geo.off58_eq c) i).mp hi
    exact (Plumb.mem_slice_unit_whole cc0_scratch0 (k0_off48_inb c) (Geo.off48_eq c) i).mpr (Fin.forall_fin_two.mpr
      ⟨by have h' : lo 2 c 3 + (1 - bit 2 3 c) * 64 ≤ (i 0).val ∧ (i 0).val < lo 2 c 3 + (1 - bit 2 3 c) * 64 + 64 := hm 0
          show lo 2 c 3 ≤ (i 0).val ∧ (i 0).val < lo 2 c 3 + 128
          omega, hm 1⟩))
  unfold addS2
  exact SegBCore.ss_core ct c YA YB laws 2 3 (by decide) rfl 2 (k0_off58_inb c)
    ((Geo.off58_eq c).trans (by show _ = ![lo 2 c 3 + (1 - bit 2 3 c) * half 3, 768]; rw [SegBCore.half_3]))
    (fun q h1 h2 => SegAValP.blk_of_ge (by have h2' : q < 768 + 256 := h2; omega)) a hA _ hY _
    (fun j => PayPoint.pay33_at _ _ j) _ (fun j => PayPoint.pay34_at _ j)

theorem frS2 (lvl : ℕ) {offS szS : Fin 2 → ℕ} {rS qS : ℕ} (inbS : ∀ a, offS a + szS a ≤ S1024x1024.size a) (heqS : offS = ![rS, qS])
    (a : S1024x1024.Idx → F .f32) (g : S128x1024.Idx → F .bf16)
    (h : ∀ i ∈ ((View.whole cc0_scratch0).slice (Rect.unit (s := S1024x1024) offS szS inbS)).set, ct.okAcc lvl c (i 0).val (i 1).val (a i))
    (hd : (rS + szS 0 ≤ lo 2 c 3 + (1 - bit 2 3 c) * 64 ∨ lo 2 c 3 + (1 - bit 2 3 c) * 64 + 64 ≤ rS) ∨ (qS + szS 1 ≤ 768 ∨ 768 + 256 ≤ qS)) :
    ∀ i ∈ ((View.whole cc0_scratch0).slice (Rect.unit (s := S1024x1024) offS szS inbS)).set, ct.okAcc lvl c (i 0).val (i 1).val (addS2 c a g i) := by
  unfold addS2
  exact fr ct c lvl (k0_off58_inb c) (Geo.off58_eq c) _ inbS heqS a h hd

/-- Column block 2: adding the second piece of the stage-2 partner to the rows kept brings them to the sum over eight devices. -/
theorem stepL2 (laws : Laws ct c YA YB) (a : S1024x1024.Idx → F .f32) (g : S128x1024.Idx → F .bf16)
    (ha : ∀ i ∈ ((View.whole cc0_scratch0).slice (Rect.unit (s := S1024x1024) (k0_off66 c) S64x256.size (k0_off66_inb c))).set, ct.okAcc 2 c (i 0).val (i 1).val (a i))
    (hg : ∀ i ∈ (dst_rs_2_2_1 (peer 2 2 c)).view.set, pRS ct 2 c (sh := S128x1024) i (g i)) :
    ∀ i ∈ ((View.whole cc0_scratch0).slice (Rect.unit (s := S1024x1024) (k0_off66 c) S64x256.size (k0_off66_inb c))).set, ct.okAcc 3 c (i 0).val (i 1).val (addL2 c a g i) := by
  have hpeer : k0_off43 (peer 2 2 c) = ![bit 2 3 c * 64, 768] := by
    rw [Geo.off43_eq, bit_peer_succ 2 2 3 c rfl]
  have hY : ∀ j : S64x256.Idx, ct.okSS 2 (peer 2 2 c) (bit 2 3 c * half 3 + (j 0).val) (768 + (j 1).val)
      ((Memref.whole cc0_scratch3 : Memref sig .tc .vmem S128x1024 .bf16).view.readAt (Elt F) (Rect.unit (s := S128x1024) (k0_off67 c) S64x256.size (k0_off67_inb c)).toLoadRect g j) := fun j => by
    obtain ⟨y, hy, hP⟩ := SegBCore.load_sub_ok (Val := Elt F) cc0_scratch3 g (fun i v => pRS ct 2 c (sh := S128x1024) i v)
      (k0_off43_inb (peer 2 2 c)) hpeer hg (k0_off67_inb c) (Geo.off67_eq c) (fun a => ⟨Nat.le_refl _, Nat.le_refl _⟩) j
    have hj1 : (j 1).val < 256 := (j 1).isLt
    rw [SegBCore.half_3]
    exact SegBCore.pRS_to_okSS ct 2 2 c rfl y _ _ _ (hy 0) (hy 1) (SegAValP.blk_of_ge (by omega)) hP
  unfold addL2
  exact SegBCore.keep_core ct c YA YB laws 2 3 (by decide) rfl 2 (k0_off66_inb c)
    ((Geo.off66_eq c).trans (by show ![lo 2 c 4, 768] = ![lo 2 c 3 + bit 2 3 c * half 3, 768]; rw [show lo 2 c 4 = lo 2 c 3 + bit 2 3 c * half 3 from SegBCore.lo_succ 2 c 3]))
    (fun q h1 h2 => SegAValP.blk_of_ge (by have h2' : q < 768 + 256 := h2; omega)) a ha _ hY _ (fun j => PayPoint.pay37_at _ _ j)

theorem frL2 (lvl : ℕ) {offS szS : Fin 2 → ℕ} {rS qS : ℕ} (inbS : ∀ a, offS a + szS a ≤ S1024x1024.size a) (heqS : offS = ![rS, qS])
    (a : S1024x1024.Idx → F .f32) (g : S128x1024.Idx → F .bf16)
    (h : ∀ i ∈ ((View.whole cc0_scratch0).slice (Rect.unit (s := S1024x1024) offS szS inbS)).set, ct.okAcc lvl c (i 0).val (i 1).val (a i))
    (hd : (rS + szS 0 ≤ lo 2 c 4 ∨ lo 2 c 4 + 64 ≤ rS) ∨ (qS + szS 1 ≤ 768 ∨ 768 + 256 ≤ qS)) :
    ∀ i ∈ ((View.whole cc0_scratch0).slice (Rect.unit (s := S1024x1024) offS szS inbS)).set, ct.okAcc lvl c (i 0).val (i 1).val (addL2 c a g i) := by
  unfold addL2
  exact fr ct c lvl (k0_off66_inb c) (Geo.off66_eq c) _ inbS heqS a h hd

/-! ## What the pieces sent carry -/

/-- What lands at the partner of the fourth stage, column block 0, piece 0, is right under the contract. -/
theorem sent_3_0_0 (laws : Laws ct c YA YB) (fa : Buf (Elt F) ((c : Thread nD τ).loc cc0_scratch0)) (g101 g111 g121 : Buf (Elt F) ((c : Thread nD τ).loc cc0_scratch2)) (g200 : Buf (Elt F) ((c : Thread nD τ).loc cc0_scratch3)) (g9 : Buf (Elt F) ((c : Thread nD τ).loc cc0_scratch9))
    (fd : Buf (Elt F) ((dst_rs_3_0_0 c).view.loc ((peer 0 3 c : Dev nD) : Thread nD τ)))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) :
    ∀ i ∈ (dst_rs_3_0_0 c).view.set, pRS ct 3 (peer 0 3 c) (sh := S64x1024) i
      (((dst_rs_3_0_0 c).view.write (Elt F) fd ((src_rs_3_0_0 c).view.read (Elt F) (sendK0 c (acc4 c fa g101 g111 g121 g200) g9)) Finset.univ) i) := by
  have hA : ∀ i ∈ ((View.whole cc0_scratch0).slice (Rect.unit (s := S1024x1024) (k0_off44 c) S128x384.size (k0_off44_inb c))).set, ct.okAcc 2 c (i 0).val (i 1).val (acc3 c fa g101 g111 g121 i) := by
    unfold acc3 acc2 acc1
    exact frK2 ct c 2 (k0_off44_inb c) (Geo.off44_eq c) _ _ (frK1 ct c 2 (k0_off44_inb c) (Geo.off44_eq c) _ _ (stepK0 ct c YA YB laws _ _ (hfa.1) hg101) (Or.inr (by show 0 + 384 ≤ 384 ∨ 384 + 384 ≤ 0; omega))) (Or.inr (by show 0 + 384 ≤ 768 ∨ 768 + 256 ≤ 0; omega))
  have hcore := stepS0 ct c YA YB laws _ _ hA hg200
  refine SegBValP.landed3 ct c 0 (k0_off52_inb c) (Geo.off52_eq c)
    (fun q h1 h2 => SegAValP.blk_of_lt (by have h2' : q < 0 + 384 := h2; omega)) (sendK0 c (acc4 c fa g101 g111 g121 g200) g9) ?_ fd
  intro i hi
  unfold sendK0 acc4
  refine Plumb.write_unit_whole_forall (Val := Elt F) cc0_scratch9 g9 inb_S64x1024_S64x384_0_0 _ rfl
    (fun i v => ct.okSS 3 c (i 0).val (i 1).val v) ?_ i (Fin.forall_fin_two.mpr
      ⟨⟨Nat.zero_le _, by have h' : (i 0).val < 64 := (i 0).isLt; show (i 0).val < 0 + 64; omega⟩, hi 1⟩)
  intro j i' hi'
  have e0 : (i' 0).val = (j 0).val := (hi' 0).trans (Nat.zero_add _)
  have e1 : (i' 1).val = 0 + (j 1).val := hi' 1
  show ct.okSS 3 c (i' 0).val (i' 1).val _
  rw [e0, e1]
  exact hcore j

/-- What lands at the partner of the fourth stage, column block 0, piece 1, is right under the contract. -/
theorem sent_3_0_1 (laws : Laws ct c YA YB) (fa : Buf (Elt F) ((c : Thread nD τ).loc cc0_scratch0)) (g101 g111 g121 : Buf (Elt F) ((c : Thread nD τ).loc cc0_scratch2)) (g200 : Buf (Elt F) ((c : Thread nD τ).loc cc0_scratch3)) (g9 : Buf (Elt F) ((c : Thread nD τ).loc cc0_scratch9))
    (fd : Buf (Elt F) ((dst_rs_3_0_1 c).view.loc ((peer 0 3 c : Dev nD) : Thread nD τ)))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) :
    ∀ i ∈ (dst_rs_3_0_1 c).view.set, pRS ct 3 (peer 0 3 c) (sh := S64x1024) i
      (((dst_rs_3_0_1 c).view.write (Elt F) fd ((src_rs_3_0_1 c).view.read (Elt F) (sendK0 c (acc4 c fa g101 g111 g121 g200) g9)) Finset.univ) i) := by
  have hA : ∀ i ∈ ((View.whole cc0_scratch0).slice (Rect.unit (s := S1024x1024) (k0_off44 c) S128x384.size (k0_off44_inb c))).set, ct.okAcc 2 c (i 0).val (i 1).val (acc3 c fa g101 g111 g121 i) := by
    unfold acc3 acc2 acc1
    exact frK2 ct c 2 (k0_off44_inb c) (Geo.off44_eq c) _ _ (frK1 ct c 2 (k0_off44_inb c) (Geo.off44_eq c) _ _ (stepK0 ct c YA YB laws _ _ (hfa.1) hg101) (Or.inr (by show 0 + 384 ≤ 384 ∨ 384 + 384 ≤ 0; omega))) (Or.inr (by show 0 + 384 ≤ 768 ∨ 768 + 256 ≤ 0; omega))
  have hcore := stepS0 ct c YA YB laws _ _ hA hg200
  refine SegBValP.landed3 ct c 0 (k0_off53_inb c) (Geo.off53_eq c)
    (fun q h1 h2 => SegAValP.blk_of_lt (by have h2' : q < 0 + 384 := h2; omega)) (sendK0 c (acc4 c fa g101 g111 g121 g200) g9) ?_ fd
  intro i hi
  unfold sendK0 acc4
  refine Plumb.write_unit_whole_forall (Val := Elt F) cc0_scratch9 g9 inb_S64x1024_S64x384_0_0 _ rfl
    (fun i v => ct.okSS 3 c (i 0).val (i 1).val v) ?_ i (Fin.forall_fin_two.mpr
      ⟨⟨Nat.zero_le _, by have h' : (i 0).val < 64 := (i 0).isLt; show (i 0).val < 0 + 64; omega⟩, hi 1⟩)
  intro j i' hi'
  have e0 : (i' 0).val = (j 0).val := (hi' 0).trans (Nat.zero_add _)
  have e1 : (i' 1).val = 0 + (j 1).val := hi' 1
  show ct.okSS 3 c (i' 0).val (i' 1).val _
  rw [e0, e1]
  exact hcore j

/-- What lands at the partner of the fourth stage, column block 1, piece 0, is right under the contract. -/
theorem sent_3_1_0 (laws : Laws ct c YA YB) (fa : Buf (Elt F) ((c : Thread nD τ).loc cc0_scratch0)) (g101 g111 g121 : Buf (Elt F) ((c : Thread nD τ).loc cc0_scratch2)) (g200 g210 : Buf (Elt F) ((c : Thread nD τ).loc cc0_scratch3)) (g9 : Buf (Elt F) ((c : Thread nD τ).loc cc0_scratch9))
    (fd : Buf (Elt F) ((dst_rs_3_1_0 c).view.loc ((peer 1 3 c : Dev nD) : Thread nD τ)))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) (hg210 : ∀ i ∈ (dst_rs_2_1_0 (peer 1 2 c)).view.set, pRS ct 2 c (sh := S128x1024) i (g210 i)) :
    ∀ i ∈ (dst_rs_3_1_0 c).view.set, pRS ct 3 (peer 1 3 c) (sh := S64x1024) i
      (((dst_rs_3_1_0 c).view.write (Elt F) fd ((src_rs_3_1_0 c).view.read (Elt F) (sendK1 c (acc5 c fa g101 g111 g121 g200 g210) g9)) Finset.univ) i) := by
  have hA : ∀ i ∈ ((View.whole cc0_scratch0).slice (Rect.unit (s := S1024x1024) (k0_off46 c) S128x384.size (k0_off46_inb c))).set, ct.okAcc 2 c (i 0).val (i 1).val (acc4 c fa g101 g111 g121 g200 i) := by
    unfold acc4 acc3 acc2 acc1
    exact frS0 ct c 2 (k0_off46_inb c) (Geo.off46_eq c) _ _ (frK2 ct c 2 (k0_off46_inb c) (Geo.off46_eq c) _ _ (stepK1 ct c YA YB laws _ _ (frK0 ct c 1 (k0_off46_inb c) (Geo.off46_eq c) _ _ (hfa.2.1) (Or.inr (by show 384 + 384 ≤ 0 ∨ 0 + 384 ≤ 384; omega))) hg111) (Or.inr (by show 384 + 384 ≤ 768 ∨ 768 + 256 ≤ 384; omega))) (Or.inr (by show 384 + 384 ≤ 0 ∨ 0 + 384 ≤ 384; omega))
  have hcore := stepS1 ct c YA YB laws _ _ hA hg210
  refine SegBValP.landed3 ct c 1 (k0_off56_inb c) (Geo.off56_eq c)
    (fun q h1 h2 => SegAValP.blk_of_mid (by have h2' : q < 384 + 384 := h2; omega) (by have h2' : q < 384 + 384 := h2; omega)) (sendK1 c (acc5 c fa g101 g111 g121 g200 g210) g9) ?_ fd
  intro i hi
  unfold sendK1 acc5
  refine Plumb.write_unit_whole_forall (Val := Elt F) cc0_scratch9 g9 inb_S64x1024_S64x384_0_384 _ rfl
    (fun i v => ct.okSS 3 c (i 0).val (i 1).val v) ?_ i (Fin.forall_fin_two.mpr
      ⟨⟨Nat.zero_le _, by have h' : (i 0).val < 64 := (i 0).isLt; show (i 0).val < 0 + 64; omega⟩, hi 1⟩)
  intro j i' hi'
  have e0 : (i' 0).val = (j 0).val := (hi' 0).trans (Nat.zero_add _)
  have e1 : (i' 1).val = 384 + (j 1).val := hi' 1
  show ct.okSS 3 c (i' 0).val (i' 1).val _
  rw [e0, e1]
  exact hcore j

/-- What lands at the partner of the fourth stage, column block 1, piece 1, is right under the contract. -/
theorem sent_3_1_1 (laws : Laws ct c YA YB) (fa : Buf (Elt F) ((c : Thread nD τ).loc cc0_scratch0)) (g101 g111 g121 : Buf (Elt F) ((c : Thread nD τ).loc cc0_scratch2)) (g200 g210 : Buf (Elt F) ((c : Thread nD τ).loc cc0_scratch3)) (g9 : Buf (Elt F) ((c : Thread nD τ).loc cc0_scratch9))
    (fd : Buf (Elt F) ((dst_rs_3_1_1 c).view.loc ((peer 1 3 c : Dev nD) : Thread nD τ)))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) (hg210 : ∀ i ∈ (dst_rs_2_1_0 (peer 1 2 c)).view.set, pRS ct 2 c (sh := S128x1024) i (g210 i)) :
    ∀ i ∈ (dst_rs_3_1_1 c).view.set, pRS ct 3 (peer 1 3 c) (sh := S64x1024) i
      (((dst_rs_3_1_1 c).view.write (Elt F) fd ((src_rs_3_1_1 c).view.read (Elt F) (sendK1 c (acc5 c fa g101 g111 g121 g200 g210) g9)) Finset.univ) i) := by
  have hA : ∀ i ∈ ((View.whole cc0_scratch0).slice (Rect.unit (s := S1024x1024) (k0_off46 c) S128x384.size (k0_off46_inb c))).set, ct.okAcc 2 c (i 0).val (i 1).val (acc4 c fa g101 g111 g121 g200 i) := by
    unfold acc4 acc3 acc2 acc1
    exact frS0 ct c 2 (k0_off46_inb c) (Geo.off46_eq c) _ _ (frK2 ct c 2 (k0_off46_inb c) (Geo.off46_eq c) _ _ (stepK1 ct c YA YB laws _ _ (frK0 ct c 1 (k0_off46_inb c) (Geo.off46_eq c) _ _ (hfa.2.1) (Or.inr (by show 384 + 384 ≤ 0 ∨ 0 + 384 ≤ 384; omega))) hg111) (Or.inr (by show 384 + 384 ≤ 768 ∨ 768 + 256 ≤ 384; omega))) (Or.inr (by show 384 + 384 ≤ 0 ∨ 0 + 384 ≤ 384; omega))
  have hcore := stepS1 ct c YA YB laws _ _ hA hg210
  refine SegBValP.landed3 ct c 1 (k0_off57_inb c) (Geo.off57_eq c)
    (fun q h1 h2 => SegAValP.blk_of_mid (by have h2' : q < 384 + 384 := h2; omega) (by have h2' : q < 384 + 384 := h2; omega)) (sendK1 c (acc5 c fa g101 g111 g121 g200 g210) g9) ?_ fd
  intro i hi
  unfold sendK1 acc5
  refine Plumb.write_unit_whole_forall (Val := Elt F) cc0_scratch9 g9 inb_S64x1024_S64x384_0_384 _ rfl
    (fun i v => ct.okSS 3 c (i 0).val (i 1).val v) ?_ i (Fin.forall_fin_two.mpr
      ⟨⟨Nat.zero_le _, by have h' : (i 0).val < 64 := (i 0).isLt; show (i 0).val < 0 + 64; omega⟩, hi 1⟩)
  intro j i' hi'
  have e0 : (i' 0).val = (j 0).val := (hi' 0).trans (Nat.zero_add _)
  have e1 : (i' 1).val = 384 + (j 1).val := hi' 1
  show ct.okSS 3 c (i' 0).val (i' 1).val _
  rw [e0, e1]
  exact hcore j

/-- What lands at the partner of the fourth stage, column block 2, piece 0, is right under the contract. -/
theorem sent_3_2_0 (laws : Laws ct c YA YB) (fa : Buf (Elt F) ((c : Thread nD τ).loc cc0_scratch0)) (g101 g111 g121 : Buf (Elt F) ((c : Thread nD τ).loc cc0_scratch2)) (g200 g210 g220 : Buf (Elt F) ((c : Thread nD τ).loc cc0_scratch3)) (g9 : Buf (Elt F) ((c : Thread nD τ).loc cc0_scratch9))
    (fd : Buf (Elt F) ((dst_rs_3_2_0 c).view.loc ((peer 2 3 c : Dev nD) : Thread nD τ)))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) (hg210 : ∀ i ∈ (dst_rs_2_1_0 (peer 1 2 c)).view.set, pRS ct 2 c (sh := S128x1024) i (g210 i)) (hg220 : ∀ i ∈ (dst_rs_2_2_0 (peer 2 2 c)).view.set, pRS ct 2 c (sh := S128x1024) i (g220 i)) :
    ∀ i ∈ (dst_rs_3_2_0 c).view.set, pRS ct 3 (peer 2 3 c) (sh := S64x1024) i
      (((dst_rs_3_2_0 c).view.write (Elt F) fd ((src_rs_3_2_0 c).view.read (Elt F) (sendK2 c (acc6 c fa g101 g111 g121 g200 g210 g220) g9)) Finset.univ) i) := by
  have hA : ∀ i ∈ ((View.whole cc0_scratch0).slice (Rect.unit (s := S1024x1024) (k0_off48 c) S128x256.size (k0_off48_inb c))).set, ct.okAcc 2 c (i 0).val (i 1).val (acc5 c fa g101 g111 g121 g200 g210 i) := by
    unfold acc5 acc4 acc3 acc2 acc1
    exact frS1 ct c 2 (k0_off48_inb c) (Geo.off48_eq c) _ _ (frS0 ct c 2 (k0_off48_inb c) (Geo.off48_eq c) _ _ (stepK2 ct c YA YB laws _ _ (frK1 ct c 1 (k0_off48_inb c) (Geo.off48_eq c) _ _ (frK0 ct c 1 (k0_off48_inb c) (Geo.off48_eq c) _ _ (hfa.2.2) (Or.inr (by show 768 + 256 ≤ 0 ∨ 0 + 384 ≤ 768; omega))) (Or.inr (by show 768 + 256 ≤ 384 ∨ 384 + 384 ≤ 768; omega))) hg121) (Or.inr (by show 768 + 256 ≤ 0 ∨ 0 + 384 ≤ 768; omega))) (Or.inr (by show 768 + 256 ≤ 384 ∨ 384 + 384 ≤ 768; omega))
  have hcore := stepS2 ct c YA YB laws _ _ hA hg220
  refine SegBValP.landed3 ct c 2 (k0_off60_inb c) (Geo.off60_eq c)
    (fun q h1 h2 => SegAValP.blk_of_ge (by have h2' : q < 768 + 256 := h2; omega)) (sendK2 c (acc6 c fa g101 g111 g121 g200 g210 g220) g9) ?_ fd
  intro i hi
  unfold sendK2 acc6
  refine Plumb.write_unit_whole_forall (Val := Elt F) cc0_scratch9 g9 inb_S64x1024_S64x256_0_768 _ rfl
    (fun i v => ct.okSS 3 c (i 0).val (i 1).val v) ?_ i (Fin.forall_fin_two.mpr
      ⟨⟨Nat.zero_le _, by have h' : (i 0).val < 64 := (i 0).isLt; show (i 0).val < 0 + 64; omega⟩, hi 1⟩)
  intro j i' hi'
  have e0 : (i' 0).val = (j 0).val := (hi' 0).trans (Nat.zero_add _)
  have e1 : (i' 1).val = 768 + (j 1).val := hi' 1
  show ct.okSS 3 c (i' 0).val (i' 1).val _
  rw [e0, e1]
  exact hcore j

/-- What lands at the partner of the fourth stage, column block 2, piece 1, is right under the contract. -/
theorem sent_3_2_1 (laws : Laws ct c YA YB) (fa : Buf (Elt F) ((c : Thread nD τ).loc cc0_scratch0)) (g101 g111 g121 : Buf (Elt F) ((c : Thread nD τ).loc cc0_scratch2)) (g200 g210 g220 : Buf (Elt F) ((c : Thread nD τ).loc cc0_scratch3)) (g9 : Buf (Elt F) ((c : Thread nD τ).loc cc0_scratch9))
    (fd : Buf (Elt F) ((dst_rs_3_2_1 c).view.loc ((peer 2 3 c : Dev nD) : Thread nD τ)))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) (hg210 : ∀ i ∈ (dst_rs_2_1_0 (peer 1 2 c)).view.set, pRS ct 2 c (sh := S128x1024) i (g210 i)) (hg220 : ∀ i ∈ (dst_rs_2_2_0 (peer 2 2 c)).view.set, pRS ct 2 c (sh := S128x1024) i (g220 i)) :
    ∀ i ∈ (dst_rs_3_2_1 c).view.set, pRS ct 3 (peer 2 3 c) (sh := S64x1024) i
      (((dst_rs_3_2_1 c).view.write (Elt F) fd ((src_rs_3_2_1 c).view.read (Elt F) (sendK2 c (acc6 c fa g101 g111 g121 g200 g210 g220) g9)) Finset.univ) i) := by
  have hA : ∀ i ∈ ((View.whole cc0_scratch0).slice (Rect.unit (s := S1024x1024) (k0_off48 c) S128x256.size (k0_off48_inb c))).set, ct.okAcc 2 c (i 0).val (i 1).val (acc5 c fa g101 g111 g121 g200 g210 i) := by
    unfold acc5 acc4 acc3 acc2 acc1
    exact frS1 ct c 2 (k0_off48_inb c) (Geo.off48_eq c) _ _ (frS0 ct c 2 (k0_off48_inb c) (Geo.off48_eq c) _ _ (stepK2 ct c YA YB laws _ _ (frK1 ct c 1 (k0_off48_inb c) (Geo.off48_eq c) _ _ (frK0 ct c 1 (k0_off48_inb c) (Geo.off48_eq c) _ _ (hfa.2.2) (Or.inr (by show 768 + 256 ≤ 0 ∨ 0 + 384 ≤ 768; omega))) (Or.inr (by show 768 + 256 ≤ 384 ∨ 384 + 384 ≤ 768; omega))) hg121) (Or.inr (by show 768 + 256 ≤ 0 ∨ 0 + 384 ≤ 768; omega))) (Or.inr (by show 768 + 256 ≤ 384 ∨ 384 + 384 ≤ 768; omega))
  have hcore := stepS2 ct c YA YB laws _ _ hA hg220
  refine SegBValP.landed3 ct c 2 (k0_off61_inb c) (Geo.off61_eq c)
    (fun q h1 h2 => SegAValP.blk_of_ge (by have h2' : q < 768 + 256 := h2; omega)) (sendK2 c (acc6 c fa g101 g111 g121 g200 g210 g220) g9) ?_ fd
  intro i hi
  unfold sendK2 acc6
  refine Plumb.write_unit_whole_forall (Val := Elt F) cc0_scratch9 g9 inb_S64x1024_S64x256_0_768 _ rfl
    (fun i v => ct.okSS 3 c (i 0).val (i 1).val v) ?_ i (Fin.forall_fin_two.mpr
      ⟨⟨Nat.zero_le _, by have h' : (i 0).val < 64 := (i 0).isLt; show (i 0).val < 0 + 64; omega⟩, hi 1⟩)
  intro j i' hi'
  have e0 : (i' 0).val = (j 0).val := (hi' 0).trans (Nat.zero_add _)
  have e1 : (i' 1).val = 768 + (j 1).val := hi' 1
  show ct.okSS 3 c (i' 0).val (i' 1).val _
  rw [e0, e1]
  exact hcore j

/-! ## What the kept rows hold at the end -/

/-- The kept rows of the fourth stage, column block 0, hold the sum over eight devices. -/
theorem kept_0 (laws : Laws ct c YA YB) (fa : Buf (Elt F) ((c : Thread nD τ).loc cc0_scratch0)) (g101 g111 g121 : Buf (Elt F) ((c : Thread nD τ).loc cc0_scratch2)) (g200 g210 g220 g201 g211 g221 : Buf (Elt F) ((c : Thread nD τ).loc cc0_scratch3))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) (hg210 : ∀ i ∈ (dst_rs_2_1_0 (peer 1 2 c)).view.set, pRS ct 2 c (sh := S128x1024) i (g210 i)) (hg220 : ∀ i ∈ (dst_rs_2_2_0 (peer 2 2 c)).view.set, pRS ct 2 c (sh := S128x1024) i (g220 i)) (hg201 : ∀ i ∈ (dst_rs_2_0_1 (peer 0 2 c)).view.set, pRS ct 2 c (sh := S128x1024) i (g201 i)) (hg211 : ∀ i ∈ (dst_rs_2_1_1 (peer 1 2 c)).view.set, pRS ct 2 c (sh := S128x1024) i (g211 i)) (hg221 : ∀ i ∈ (dst_rs_2_2_1 (peer 2 2 c)).view.set, pRS ct 2 c (sh := S128x1024) i (g221 i)) :
    ∀ i ∈ SegBMid.accRows30_0 c, ct.okAcc 3 c (i 0).val (i 1).val (acc9 c fa g101 g111 g121 g200 g210 g220 g201 g211 g221 i) := by
  have hb := bit_le_one 0 3 c
  have hl := SegBCore.lo_4 0 c
  have h3 : ∀ i ∈ ((View.whole cc0_scratch0).slice (Rect.unit (s := S1024x1024) (k0_off44 c) S128x384.size (k0_off44_inb c))).set, ct.okAcc 2 c (i 0).val (i 1).val (acc3 c fa g101 g111 g121 i) := by
    unfold acc3 acc2 acc1
    exact frK2 ct c 2 (k0_off44_inb c) (Geo.off44_eq c) _ _ (frK1 ct c 2 (k0_off44_inb c) (Geo.off44_eq c) _ _ (stepK0 ct c YA YB laws _ _ (hfa.1) hg101) (Or.inr (by show 0 + 384 ≤ 384 ∨ 384 + 384 ≤ 0; omega))) (Or.inr (by show 0 + 384 ≤ 768 ∨ 768 + 256 ≤ 0; omega))
  have h3' : ∀ i ∈ ((View.whole cc0_scratch0).slice (Rect.unit (s := S1024x1024) (k0_off62 c) S64x384.size (k0_off62_inb c))).set, ct.okAcc 2 c (i 0).val (i 1).val (acc3 c fa g101 g111 g121 i) := fun i hi => h3 i (by
    have hm := (Plumb.mem_slice_unit_whole cc0_scratch0 (k0_off62_inb c) (Geo.off62_eq c) i).mp hi
    exact (Plumb.mem_slice_unit_whole cc0_scratch0 (k0_off44_inb c) (Geo.off44_eq c) i).mpr (Fin.forall_fin_two.mpr
      ⟨by have h' : lo 0 c 4 ≤ (i 0).val ∧ (i 0).val < lo 0 c 4 + 64 := hm 0
          show lo 0 c 3 ≤ (i 0).val ∧ (i 0).val < lo 0 c 3 + 128
          omega, hm 1⟩))
  have h6 : ∀ i ∈ ((View.whole cc0_scratch0).slice (Rect.unit (s := S1024x1024) (k0_off62 c) S64x384.size (k0_off62_inb c))).set, ct.okAcc 2 c (i 0).val (i 1).val (acc6 c fa g101 g111 g121 g200 g210 g220 i) := by
    unfold acc6 acc5 acc4
    exact frS2 ct c 2 (k0_off62_inb c) (Geo.off62_eq c) _ _ (frS1 ct c 2 (k0_off62_inb c) (Geo.off62_eq c) _ _ (frS0 ct c 2 (k0_off62_inb c) (Geo.off62_eq c) _ _ (h3') (Or.inl (by have hb := bit_le_one 0 3 c; have hl := SegBCore.lo_4 0 c; show lo 0 c 4 + 64 ≤ lo 0 c 3 + (1 - bit 0 3 c) * 64 ∨ lo 0 c 3 + (1 - bit 0 3 c) * 64 + 64 ≤ lo 0 c 4; omega))) (Or.inr (by show 0 + 384 ≤ 384 ∨ 384 + 384 ≤ 0; omega))) (Or.inr (by show 0 + 384 ≤ 768 ∨ 768 + 256 ≤ 0; omega))
  unfold acc9 acc8 acc7
  exact frL2 ct c 3 (k0_off62_inb c) (Geo.off62_eq c) _ _ (frL1 ct c 3 (k0_off62_inb c) (Geo.off62_eq c) _ _ (stepL0 ct c YA YB laws _ _ (h6) hg201) (Or.inr (by show 0 + 384 ≤ 384 ∨ 384 + 384 ≤ 0; omega))) (Or.inr (by show 0 + 384 ≤ 768 ∨ 768 + 256 ≤ 0; omega))

/-- The kept rows of the fourth stage, column block 1, hold the sum over eight devices. -/
theorem kept_1 (laws : Laws ct c YA YB) (fa : Buf (Elt F) ((c : Thread nD τ).loc cc0_scratch0)) (g101 g111 g121 : Buf (Elt F) ((c : Thread nD τ).loc cc0_scratch2)) (g200 g210 g220 g201 g211 g221 : Buf (Elt F) ((c : Thread nD τ).loc cc0_scratch3))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) (hg210 : ∀ i ∈ (dst_rs_2_1_0 (peer 1 2 c)).view.set, pRS ct 2 c (sh := S128x1024) i (g210 i)) (hg220 : ∀ i ∈ (dst_rs_2_2_0 (peer 2 2 c)).view.set, pRS ct 2 c (sh := S128x1024) i (g220 i)) (hg201 : ∀ i ∈ (dst_rs_2_0_1 (peer 0 2 c)).view.set, pRS ct 2 c (sh := S128x1024) i (g201 i)) (hg211 : ∀ i ∈ (dst_rs_2_1_1 (peer 1 2 c)).view.set, pRS ct 2 c (sh := S128x1024) i (g211 i)) (hg221 : ∀ i ∈ (dst_rs_2_2_1 (peer 2 2 c)).view.set, pRS ct 2 c (sh := S128x1024) i (g221 i)) :
    ∀ i ∈ SegBMid.accRows30_1 c, ct.okAcc 3 c (i 0).val (i 1).val (acc9 c fa g101 g111 g121 g200 g210 g220 g201 g211 g221 i) := by
  have hb := bit_le_one 1 3 c
  have hl := SegBCore.lo_4 1 c
  have h3 : ∀ i ∈ ((View.whole cc0_scratch0).slice (Rect.unit (s := S1024x1024) (k0_off46 c) S128x384.size (k0_off46_inb c))).set, ct.okAcc 2 c (i 0).val (i 1).val (acc3 c fa g101 g111 g121 i) := by
    unfold acc3 acc2 acc1
    exact frK2 ct c 2 (k0_off46_inb c) (Geo.off46_eq c) _ _ (stepK1 ct c YA YB laws _ _ (frK0 ct c 1 (k0_off46_inb c) (Geo.off46_eq c) _ _ (hfa.2.1) (Or.inr (by show 384 + 384 ≤ 0 ∨ 0 + 384 ≤ 384; omega))) hg111) (Or.inr (by show 384 + 384 ≤ 768 ∨ 768 + 256 ≤ 384; omega))
  have h3' : ∀ i ∈ ((View.whole cc0_scratch0).slice (Rect.unit (s := S1024x1024) (k0_off64 c) S64x384.size (k0_off64_inb c))).set, ct.okAcc 2 c (i 0).val (i 1).val (acc3 c fa g101 g111 g121 i) := fun i hi => h3 i (by
    have hm := (Plumb.mem_slice_unit_whole cc0_scratch0 (k0_off64_inb c) (Geo.off64_eq c) i).mp hi
    exact (Plumb.mem_slice_unit_whole cc0_scratch0 (k0_off46_inb c) (Geo.off46_eq c) i).mpr (Fin.forall_fin_two.mpr
      ⟨by have h' : lo 1 c 4 ≤ (i 0).val ∧ (i 0).val < lo 1 c 4 + 64 := hm 0
          show lo 1 c 3 ≤ (i 0).val ∧ (i 0).val < lo 1 c 3 + 128
          omega, hm 1⟩))
  have h6 : ∀ i ∈ ((View.whole cc0_scratch0).slice (Rect.unit (s := S1024x1024) (k0_off64 c) S64x384.size (k0_off64_inb c))).set, ct.okAcc 2 c (i 0).val (i 1).val (acc6 c fa g101 g111 g121 g200 g210 g220 i) := by
    unfold acc6 acc5 acc4
    exact frS2 ct c 2 (k0_off64_inb c) (Geo.off64_eq c) _ _ (frS1 ct c 2 (k0_off64_inb c) (Geo.off64_eq c) _ _ (frS0 ct c 2 (k0_off64_inb c) (Geo.off64_eq c) _ _ (h3') (Or.inr (by show 384 + 384 ≤ 0 ∨ 0 + 384 ≤ 384; omega))) (Or.inl (by have hb := bit_le_one 1 3 c; have hl := SegBCore.lo_4 1 c; show lo 1 c 4 + 64 ≤ lo 1 c 3 + (1 - bit 1 3 c) * 64 ∨ lo 1 c 3 + (1 - bit 1 3 c) * 64 + 64 ≤ lo 1 c 4; omega))) (Or.inr (by show 384 + 384 ≤ 768 ∨ 768 + 256 ≤ 384; omega))
  unfold acc9 acc8 acc7
  exact frL2 ct c 3 (k0_off64_inb c) (Geo.off64_eq c) _ _ (stepL1 ct c YA YB laws _ _ (frL0 ct c 2 (k0_off64_inb c) (Geo.off64_eq c) _ _ (h6) (Or.inr (by show 384 + 384 ≤ 0 ∨ 0 + 384 ≤ 384; omega))) hg211) (Or.inr (by show 384 + 384 ≤ 768 ∨ 768 + 256 ≤ 384; omega))

/-- The kept rows of the fourth stage, column block 2, hold the sum over eight devices. -/
theorem kept_2 (laws : Laws ct c YA YB) (fa : Buf (Elt F) ((c : Thread nD τ).loc cc0_scratch0)) (g101 g111 g121 : Buf (Elt F) ((c : Thread nD τ).loc cc0_scratch2)) (g200 g210 g220 g201 g211 g221 : Buf (Elt F) ((c : Thread nD τ).loc cc0_scratch3))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) (hg210 : ∀ i ∈ (dst_rs_2_1_0 (peer 1 2 c)).view.set, pRS ct 2 c (sh := S128x1024) i (g210 i)) (hg220 : ∀ i ∈ (dst_rs_2_2_0 (peer 2 2 c)).view.set, pRS ct 2 c (sh := S128x1024) i (g220 i)) (hg201 : ∀ i ∈ (dst_rs_2_0_1 (peer 0 2 c)).view.set, pRS ct 2 c (sh := S128x1024) i (g201 i)) (hg211 : ∀ i ∈ (dst_rs_2_1_1 (peer 1 2 c)).view.set, pRS ct 2 c (sh := S128x1024) i (g211 i)) (hg221 : ∀ i ∈ (dst_rs_2_2_1 (peer 2 2 c)).view.set, pRS ct 2 c (sh := S128x1024) i (g221 i)) :
    ∀ i ∈ SegBMid.accRows30_2 c, ct.okAcc 3 c (i 0).val (i 1).val (acc9 c fa g101 g111 g121 g200 g210 g220 g201 g211 g221 i) := by
  have hb := bit_le_one 2 3 c
  have hl := SegBCore.lo_4 2 c
  have h3 : ∀ i ∈ ((View.whole cc0_scratch0).slice (Rect.unit (s := S1024x1024) (k0_off48 c) S128x256.size (k0_off48_inb c))).set, ct.okAcc 2 c (i 0).val (i 1).val (acc3 c fa g101 g111 g121 i) := by
    unfold acc3 acc2 acc1
    exact stepK2 ct c YA YB laws _ _ (frK1 ct c 1 (k0_off48_inb c) (Geo.off48_eq c) _ _ (frK0 ct c 1 (k0_off48_inb c) (Geo.off48_eq c) _ _ (hfa.2.2) (Or.inr (by show 768 + 256 ≤ 0 ∨ 0 + 384 ≤ 768; omega))) (Or.inr (by show 768 + 256 ≤ 384 ∨ 384 + 384 ≤ 768; omega))) hg121
  have h3' : ∀ i ∈ ((View.whole cc0_scratch0).slice (Rect.unit (s := S1024x1024) (k0_off66 c) S64x256.size (k0_off66_inb c))).set, ct.okAcc 2 c (i 0).val (i 1).val (acc3 c fa g101 g111 g121 i) := fun i hi => h3 i (by
    have hm := (Plumb.mem_slice_unit_whole cc0_scratch0 (k0_off66_inb c) (Geo.off66_eq c) i).mp hi
    exact (Plumb.mem_slice_unit_whole cc0_scratch0 (k0_off48_inb c) (Geo.off48_eq c) i).mpr (Fin.forall_fin_two.mpr
      ⟨by have h' : lo 2 c 4 ≤ (i 0).val ∧ (i 0).val < lo 2 c 4 + 64 := hm 0
          show lo 2 c 3 ≤ (i 0).val ∧ (i 0).val < lo 2 c 3 + 128
          omega, hm 1⟩))
  have h6 : ∀ i ∈ ((View.whole cc0_scratch0).slice (Rect.unit (s := S1024x1024) (k0_off66 c) S64x256.size (k0_off66_inb c))).set, ct.okAcc 2 c (i 0).val (i 1).val (acc6 c fa g101 g111 g121 g200 g210 g220 i) := by
    unfold acc6 acc5 acc4
    exact frS2 ct c 2 (k0_off66_inb c) (Geo.off66_eq c) _ _ (frS1 ct c 2 (k0_off66_inb c) (Geo.off66_eq c) _ _ (frS0 ct c 2 (k0_off66_inb c) (Geo.off66_eq c) _ _ (h3') (Or.inr (by show 768 + 256 ≤ 0 ∨ 0 + 384 ≤ 768; omega))) (Or.inr (by show 768 + 256 ≤ 384 ∨ 384 + 384 ≤ 768; omega))) (Or.inl (by have hb := bit_le_one 2 3 c; have hl := SegBCore.lo_4 2 c; show lo 2 c 4 + 64 ≤ lo 2 c 3 + (1 - bit 2 3 c) * 64 ∨ lo 2 c 3 + (1 - bit 2 3 c) * 64 + 64 ≤ lo 2 c 4; omega))
  unfold acc9 acc8 acc7
  exact stepL2 ct c YA YB laws _ _ (frL1 ct c 2 (k0_off66_inb c) (Geo.off66_eq c) _ _ (frL0 ct c 2 (k0_off66_inb c) (Geo.off66_eq c) _ _ (h6) (Or.inr (by show 768 + 256 ≤ 0 ∨ 0 + 384 ≤ 768; omega))) (Or.inr (by show 768 + 256 ≤ 384 ∨ 384 + 384 ≤ 768; omega))) hg221

end Cert.KernelIdeal.SegB2Val

end
-- ==== Proof.SegB2.lean ====
/-
  The middle of the summing phase: the kept halves of its third stage added, then its fourth stage —
  per column block the partner's rows added to the half that is given away, that half rounded into the
  send buffer and sent in two pieces — and the kept halves of the fourth stage added.
-/
import proofs.«900879_g7700000000000880_dist_matmul_gelu_kshard_i_m1024_n1024_k512_v7x_i32_bf16_1_alg».proof.Proof.Segs
import proofs.«900879_g7700000000000880_dist_matmul_gelu_kshard_i_m1024_n1024_k512_v7x_i32_bf16_1_alg».proof.Proof.SendStep
import proofs.«900879_g7700000000000880_dist_matmul_gelu_kshard_i_m1024_n1024_k512_v7x_i32_bf16_1_alg».proof.Proof.SegBMid
import proofs.«900879_g7700000000000880_dist_matmul_gelu_kshard_i_m1024_n1024_k512_v7x_i32_bf16_1_alg».proof.Proof.SegB2Val
import proofs.«900879_g7700000000000880_dist_matmul_gelu_kshard_i_m1024_n1024_k512_v7x_i32_bf16_1_alg».proof.Proof.RegionsRS
import proofs.«900879_g7700000000000880_dist_matmul_gelu_kshard_i_m1024_n1024_k512_v7x_i32_bf16_1_alg».proof.Proof.RegionsOut
set_option synthInstance.maxSize 4096
set_option maxRecDepth 65536

noncomputable section

namespace Cert.KernelIdeal.SegB2

open Cert.KernelIdeal Cert.KernelIdeal.Gen Cert.KernelIdeal.Proto Cert.KernelIdeal.Tab Cert.KernelIdeal.Held Cert.KernelIdeal.PayTab
open Cert.KernelIdeal.Sched Cert.KernelIdeal.GhostTab Cert.KernelIdeal.Owed Cert.KernelIdeal.Ghost Cert.KernelIdeal.StateTab
open Cert.KernelIdeal.Laws Cert.KernelIdeal.Cut Cert.KernelIdeal.Segs Cert.KernelIdeal.RegionsRS Cert.KernelIdeal.RegionsOut Cert.KernelIdeal.RegionsCut
open Cert.KernelIdeal.SendStep
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (ct : Contract F) (K : Dev nD × Fin 124 → ℕ)

/-! ## The cells' records, one cell at a time -/

theorem inv_dma (c : Dev nD) (a : Fin 4) (s : Fin 5) (k : Fin 3) (j : Fin 2) (h : usedIx (dsem a s k j).val = true) :
    (records ct K : sProp (MT nD τ sig Unit (Elt F) ℕ UU ℕ)) ⊢
      cellInv ER (sched ct) (K (c, ⟨(dsem a s k j).val, Nat.lt_trans (dsem a s k j).isLt (by decide)⟩)) (dcell c a s k j) := by
  have h0 := inv_at ct K (c, ⟨(dsem a s k j).val, Nat.lt_trans (dsem a s k j).isLt (by decide)⟩)
    (by unfold ourIx; rw [Finset.mem_filter]; exact ⟨Finset.mem_univ _, by unfold ours; rw [h]; exact Bool.or_true _⟩)
  rw [kcell_dma] at h0
  exact h0

theorem reached_dma (c : Dev nD) (a : Fin 4) (s : Fin 5) (k : Fin 3) (j : Fin 2) (h : usedIx (dsem a s k j).val = true) :
    (records ct K : sProp (MT nD τ sig Unit (Elt F) ℕ UU ℕ)) ⊢ reached ER (dcell c a s k j) 0 := by
  have h0 := reached_at ct K (c, ⟨(dsem a s k j).val, Nat.lt_trans (dsem a s k j).isLt (by decide)⟩)
    (by unfold ourIx; rw [Finset.mem_filter]; exact ⟨Finset.mem_univ _, by unfold ours; rw [h]; exact Bool.or_true _⟩)
  rw [kcell_dma] at h0
  exact h0

/-! ## Pieces opened at their contents, and folded back -/

theorem heldV_open {sh : Shape} {e : EltTy} (d : Dev nD) (v : Memref sig .tc .vmem sh e) (q : PosShare TreeShare)
    (P : v.view.ty.Idx → Elt F v.view.ty.elt → Prop) :
    (heldV (F := F) d v q P : sProp (MT nD τ sig Unit (Elt F) ℕ UU ℕ))
      ⊢ iprop(∃ f : Buf (Elt F) (v.view.loc (d : Thread nD τ)), (v.view.loc (d : Thread nD τ) ↦[v.view.set]{q} f) ∗ ⌜∀ i ∈ v.view.set, P i (f i)⌝) := BI.Entails.refl _
theorem loanV_open {sh : Shape} {e : EltTy} (d : Dev nD) (v : Memref sig .tc .vmem sh e) :
    (loanV (F := F) d v : sProp (MT nD τ sig Unit (Elt F) ℕ UU ℕ))
      ⊢ iprop(∃ f : Buf (Elt F) (v.view.loc (d : Thread nD τ)), (v.view.loc (d : Thread nD τ) ↦[v.view.set]{fullShare} f)) := BI.Entails.refl _

theorem loanV_fold {sh : Shape} {e : EltTy} (d : Dev nD) (v : Memref sig .tc .vmem sh e) (f : Buf (Elt F) (v.view.loc (d : Thread nD τ))) :
    ((v.view.loc (d : Thread nD τ) ↦[v.view.set]{fullShare} f) : sProp (MT nD τ sig Unit (Elt F) ℕ UU ℕ)) ⊢ loanV (F := F) d v := by
  unfold loanV; iintro H; iexists f; iexact H

variable (c : Dev nD) (YA : S1024x512.Idx → F .f32) (YB : S512x1024.Idx → F .f32)

set_option maxHeartbeats 4000000 in
theorem segB2 (laws : Laws ct c YA YB) {R : Type}
    (T : (Σ' (d0 : Dev nD) (v3 : BitVec 32) (v8 : BitVec 32) (v13 : BitVec 32) (v28 : BitVec 32), BitVec 32) → Prog (TpuEff nD τ sig (Elt F) Λ₀ .tc) R)
    (Kt : R → sProp (MT nD τ sig Unit (Elt F) ℕ UU ℕ)) : SegBMid.SegB2 ct K c YA YB T Kt := by
  unfold SegBMid.SegB2
  intro v3 v4 v5 v6 v7 v8 v9 v10 v11 v12 v13 v14 v15 v16 v17 v18 v20 v22 v24 v26 v28 v395 v445 v447 v497 v499 v549
  unfold SegBMid.rest20
  simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold k0_part20_skel k0_part21_skel k0_part22_skel k0_part23_skel k0_part24_skel k0_part25_skel k0_part26_skel k0_part27_skel k0_part28_skel k0_part29_skel
  simp only [Prog.lift, Prog.bind_op, Prog.bind_ret, Prog.pure_eq_ret, bind_assoc, Prog.bind_assoc]
  unfold SegBMid.Pre20 SegBMid.toks20 SegBMid.pos20 SegBMid.closed20 SegBMid.credR20 SegBMid.credS20 SegBMid.land20
  iintro H
  icases H with ⟨Hpre, Hk⟩
  icases Hpre with ⟨#HR, #Hlev, HowE, Htoks, HtoksAG, Hpos, HposAG, Hclosed, HcredR, HcredS, HcredAG, Hidle, HA, HB, Hown, Hacc, Hs16, Hrs1a, Hss1a, Hs910, Hland, HlandAG⟩
  icases HowE with ⟨%W, How⟩
  icases Hpos with ⟨⟨PS101, PR101⟩, ⟨PS111, PR111⟩, ⟨PS121, PR121⟩, ⟨PS200, PR200⟩, ⟨PS201, PR201⟩, ⟨PS210, PR210⟩, ⟨PS211, PR211⟩, ⟨PS220, PR220⟩, ⟨PS221, PR221⟩, ⟨PS300, PR300⟩, ⟨PS301, PR301⟩, ⟨PS310, PR310⟩, ⟨PS311, PR311⟩, ⟨PS320, PR320⟩, ⟨PS321, PR321⟩, ⟨PS400, PR400⟩, ⟨PS410, PR410⟩, ⟨PS420, PR420⟩⟩
  icases HcredR with ⟨CR101, CR111, CR121, CR200, CR201, CR210, CR211, CR220, CR221, CR300, CR301, CR310, CR311, CR320, CR321, CR400, CR410, CR420⟩
  icases HcredS with ⟨CS101, CS111, CS121, CS200, CS201, CS210, CS211, CS220, CS221⟩
  icases Htoks with ⟨⟨TS300, TR300⟩, ⟨TS301, TR301⟩, ⟨TS310, TR310⟩, ⟨TS311, TR311⟩, ⟨TS320, TR320⟩, ⟨TS321, TR321⟩, ⟨TS400, TR400⟩, ⟨TS410, TR410⟩, ⟨TS420, TR420⟩⟩
  icases Hland with ⟨LD300, LD301, LD310, LD311, LD320, LD321, LD400, LD410, LD420⟩
  icases Hacc with ⟨%fa, Hacc, %hfa⟩
  icases Hs910 with ⟨Hs9, Hs10⟩
  ihave Hcols := (ss_cols_3 (F := F) c) $$ Hs9
  icases Hcols with ⟨Hc0, Hc1, Hc2⟩
  icases Hc0 with ⟨%g90, Hc0⟩
  icases Hc1 with ⟨%g91, Hc1⟩
  icases Hc2 with ⟨%g92, Hc2⟩
  -- the wait on cell (0, 1, 0, 1), and the cell closed
  ihave #MWS101 := (mayWait_cell (F := F) c 0 1 0 1 23 (by decide +kernel)) $$ Hlev
  ihave #HIS101 := (inv_dma ct K c 0 1 0 1 rfl) $$ HR
  iapply (Rounds.wp_wait_rest_token Segs.𝒱₀ ER (sched ct) (c : Thread nD τ) none (κ := (K (c, ⟨(dsem 0 1 0 1).val, Nat.lt_trans (dsem 0 1 0 1).isLt (by decide)⟩))) (sm := SemLoc.dma (dsem 0 1 0 1))
      (wpE_waitDma2_eq Segs.𝒱₀ (c : Thread nD τ) none Set.univ) (Set.mem_univ _) () (O := owedFrom c 23) (W := W) (R := 0) (m := 0) (T := ∅)
      (by rw [Nat.zero_add, expect_dma ct c 0 1 0 1 rfl]; rfl)) $$ [CS101 How PS101]
  · isplitr
    · iexact HIS101
    isplitl [CS101]
    · iexact CS101
    isplitl [How]
    · iexact How
    isplitr
    · iexact MWS101
    iexact PS101
  iintro ⟨How, PS101, -, Hpay⟩
  imod (Rounds.cell_close ER (sched ct) (g := dcell c 0 1 0 1) (Set.mem_univ _) (fun h => h) (R := 1)
    (fun r hr => duties_later ct _ r hr)) $$ [PS101] with VS101
  · isplitr
    · iexact HIS101
    iexact PS101
  ihave BS101 := (Entails.of_eq (show bigSep ((sched ct).duties (dcell c 0 1 0 1) 0 \ ∅) (fun d => (sched ct).payload (dcell c 0 1 0 1) 0 d)
      = loanV c (src_rs_1_0_1 c) from rest_dma ct c 0 1 0 1 rfl)) $$ Hpay
  -- the wait on cell (1, 1, 0, 1), and the cell closed
  ihave #MWR101 := (mayWait_cell (F := F) c 1 1 0 1 23 (by decide +kernel)) $$ Hlev
  ihave #HIR101 := (inv_dma ct K c 1 1 0 1 rfl) $$ HR
  iapply (Rounds.wp_wait_rest_token Segs.𝒱₀ ER (sched ct) (c : Thread nD τ) none (κ := (K (c, ⟨(dsem 1 1 0 1).val, Nat.lt_trans (dsem 1 1 0 1).isLt (by decide)⟩))) (sm := SemLoc.dma (dsem 1 1 0 1))
      (wpE_waitDma2_eq Segs.𝒱₀ (c : Thread nD τ) none Set.univ) (Set.mem_univ _) () (O := owedFrom c 23) (W := (insert (SemLoc.dma (dsem 0 1 0 1), ()) W)) (R := 0) (m := 0) (T := ∅)
      (by rw [Nat.zero_add, expect_dma ct c 1 1 0 1 rfl]; rfl)) $$ [CR101 How PR101]
  · isplitr
    · iexact HIR101
    isplitl [CR101]
    · iexact CR101
    isplitl [How]
    · iexact How
    isplitr
    · iexact MWR101
    iexact PR101
  iintro ⟨How, PR101, -, Hpay⟩
  imod (Rounds.cell_close ER (sched ct) (g := dcell c 1 1 0 1) (Set.mem_univ _) (fun h => h) (R := 1)
    (fun r hr => duties_later ct _ r hr)) $$ [PR101] with VR101
  · isplitr
    · iexact HIR101
    iexact PR101
  ihave BR101 := (Entails.of_eq (show bigSep ((sched ct).duties (dcell c 1 1 0 1) 0 \ ∅) (fun d => (sched ct).payload (dcell c 1 1 0 1) 0 d)
      = heldV c (dst_rs_1_0_1 (peer 0 1 c)) fullShare (fun i v => pRS ct 1 c (sh := S256x1024) i v) from rest_dma ct c 1 1 0 1 rfl)) $$ Hpay
  -- the partner's rows opened at their contents
  ihave BR101 := (heldV_open (F := F) c _ fullShare _) $$ BR101
  icases BR101 with ⟨%g101, BR101, %hg101⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch2 : Memref sig .tc .vmem S256x1024 .bf16))
      (S := (dst_rs_1_0_1 (peer 0 1 c)).view.set) (by rw [← rsLoad_1_0_1 c]; exact (View.set_slice _ _).symm.subset)) $$ BR101; iintro BR101
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off44 c) S128x384.size (k0_off44_inb c)) (Mk := Finset.univ) (Finset.subset_univ _)) $$ Hacc; iintro Hacc
  -- the wait on cell (0, 1, 1, 1), and the cell closed
  ihave #MWS111 := (mayWait_cell (F := F) c 0 1 1 1 23 (by decide +kernel)) $$ Hlev
  ihave #HIS111 := (inv_dma ct K c 0 1 1 1 rfl) $$ HR
  iapply (Rounds.wp_wait_rest_token Segs.𝒱₀ ER (sched ct) (c : Thread nD τ) none (κ := (K (c, ⟨(dsem 0 1 1 1).val, Nat.lt_trans (dsem 0 1 1 1).isLt (by decide)⟩))) (sm := SemLoc.dma (dsem 0 1 1 1))
      (wpE_waitDma2_eq Segs.𝒱₀ (c : Thread nD τ) none Set.univ) (Set.mem_univ _) () (O := owedFrom c 23) (W := (insert (SemLoc.dma (dsem 1 1 0 1), ()) (insert (SemLoc.dma (dsem 0 1 0 1), ()) W))) (R := 0) (m := 0) (T := ∅)
      (by rw [Nat.zero_add, expect_dma ct c 0 1 1 1 rfl]; rfl)) $$ [CS111 How PS111]
  · isplitr
    · iexact HIS111
    isplitl [CS111]
    · iexact CS111
    isplitl [How]
    · iexact How
    isplitr
    · iexact MWS111
    iexact PS111
  iintro ⟨How, PS111, -, Hpay⟩
  imod (Rounds.cell_close ER (sched ct) (g := dcell c 0 1 1 1) (Set.mem_univ _) (fun h => h) (R := 1)
    (fun r hr => duties_later ct _ r hr)) $$ [PS111] with VS111
  · isplitr
    · iexact HIS111
    iexact PS111
  ihave BS111 := (Entails.of_eq (show bigSep ((sched ct).duties (dcell c 0 1 1 1) 0 \ ∅) (fun d => (sched ct).payload (dcell c 0 1 1 1) 0 d)
      = loanV c (src_rs_1_1_1 c) from rest_dma ct c 0 1 1 1 rfl)) $$ Hpay
  -- the wait on cell (1, 1, 1, 1), and the cell closed
  ihave #MWR111 := (mayWait_cell (F := F) c 1 1 1 1 23 (by decide +kernel)) $$ Hlev
  ihave #HIR111 := (inv_dma ct K c 1 1 1 1 rfl) $$ HR
  iapply (Rounds.wp_wait_rest_token Segs.𝒱₀ ER (sched ct) (c : Thread nD τ) none (κ := (K (c, ⟨(dsem 1 1 1 1).val, Nat.lt_trans (dsem 1 1 1 1).isLt (by decide)⟩))) (sm := SemLoc.dma (dsem 1 1 1 1))
      (wpE_waitDma2_eq Segs.𝒱₀ (c : Thread nD τ) none Set.univ) (Set.mem_univ _) () (O := owedFrom c 23) (W := (insert (SemLoc.dma (dsem 0 1 1 1), ()) (insert (SemLoc.dma (dsem 1 1 0 1), ()) (insert (SemLoc.dma (dsem 0 1 0 1), ()) W)))) (R := 0) (m := 0) (T := ∅)
      (by rw [Nat.zero_add, expect_dma ct c 1 1 1 1 rfl]; rfl)) $$ [CR111 How PR111]
  · isplitr
    · iexact HIR111
    isplitl [CR111]
    · iexact CR111
    isplitl [How]
    · iexact How
    isplitr
    · iexact MWR111
    iexact PR111
  iintro ⟨How, PR111, -, Hpay⟩
  imod (Rounds.cell_close ER (sched ct) (g := dcell c 1 1 1 1) (Set.mem_univ _) (fun h => h) (R := 1)
    (fun r hr => duties_later ct _ r hr)) $$ [PR111] with VR111
  · isplitr
    · iexact HIR111
    iexact PR111
  ihave BR111 := (Entails.of_eq (show bigSep ((sched ct).duties (dcell c 1 1 1 1) 0 \ ∅) (fun d => (sched ct).payload (dcell c 1 1 1 1) 0 d)
      = heldV c (dst_rs_1_1_1 (peer 1 1 c)) fullShare (fun i v => pRS ct 1 c (sh := S256x1024) i v) from rest_dma ct c 1 1 1 1 rfl)) $$ Hpay
  -- the partner's rows opened at their contents
  ihave BR111 := (heldV_open (F := F) c _ fullShare _) $$ BR111
  icases BR111 with ⟨%g111, BR111, %hg111⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch2 : Memref sig .tc .vmem S256x1024 .bf16))
      (S := (dst_rs_1_1_1 (peer 1 1 c)).view.set) (by rw [← rsLoad_1_1_1 c]; exact (View.set_slice _ _).symm.subset)) $$ BR111; iintro BR111
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off46 c) S128x384.size (k0_off46_inb c)) (Mk := Finset.univ) (Finset.subset_univ _)) $$ Hacc; iintro Hacc
  -- the wait on cell (0, 1, 2, 1), and the cell closed
  ihave #MWS121 := (mayWait_cell (F := F) c 0 1 2 1 23 (by decide +kernel)) $$ Hlev
  ihave #HIS121 := (inv_dma ct K c 0 1 2 1 rfl) $$ HR
  iapply (Rounds.wp_wait_rest_token Segs.𝒱₀ ER (sched ct) (c : Thread nD τ) none (κ := (K (c, ⟨(dsem 0 1 2 1).val, Nat.lt_trans (dsem 0 1 2 1).isLt (by decide)⟩))) (sm := SemLoc.dma (dsem 0 1 2 1))
      (wpE_waitDma2_eq Segs.𝒱₀ (c : Thread nD τ) none Set.univ) (Set.mem_univ _) () (O := owedFrom c 23) (W := (insert (SemLoc.dma (dsem 1 1 1 1), ()) (insert (SemLoc.dma (dsem 0 1 1 1), ()) (insert (SemLoc.dma (dsem 1 1 0 1), ()) (insert (SemLoc.dma (dsem 0 1 0 1), ()) W))))) (R := 0) (m := 0) (T := ∅)
      (by rw [Nat.zero_add, expect_dma ct c 0 1 2 1 rfl]; rfl)) $$ [CS121 How PS121]
  · isplitr
    · iexact HIS121
    isplitl [CS121]
    · iexact CS121
    isplitl [How]
    · iexact How
    isplitr
    · iexact MWS121
    iexact PS121
  iintro ⟨How, PS121, -, Hpay⟩
  imod (Rounds.cell_close ER (sched ct) (g := dcell c 0 1 2 1) (Set.mem_univ _) (fun h => h) (R := 1)
    (fun r hr => duties_later ct _ r hr)) $$ [PS121] with VS121
  · isplitr
    · iexact HIS121
    iexact PS121
  ihave BS121 := (Entails.of_eq (show bigSep ((sched ct).duties (dcell c 0 1 2 1) 0 \ ∅) (fun d => (sched ct).payload (dcell c 0 1 2 1) 0 d)
      = loanV c (src_rs_1_2_1 c) from rest_dma ct c 0 1 2 1 rfl)) $$ Hpay
  -- the wait on cell (1, 1, 2, 1), and the cell closed
  ihave #MWR121 := (mayWait_cell (F := F) c 1 1 2 1 23 (by decide +kernel)) $$ Hlev
  ihave #HIR121 := (inv_dma ct K c 1 1 2 1 rfl) $$ HR
  iapply (Rounds.wp_wait_rest_token Segs.𝒱₀ ER (sched ct) (c : Thread nD τ) none (κ := (K (c, ⟨(dsem 1 1 2 1).val, Nat.lt_trans (dsem 1 1 2 1).isLt (by decide)⟩))) (sm := SemLoc.dma (dsem 1 1 2 1))
      (wpE_waitDma2_eq Segs.𝒱₀ (c : Thread nD τ) none Set.univ) (Set.mem_univ _) () (O := owedFrom c 23) (W := (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W)))))) (R := 0) (m := 0) (T := ∅)
      (by rw [Nat.zero_add, expect_dma ct c 1 1 2 1 rfl]; rfl)) $$ [CR121 How PR121]
  · isplitr
    · iexact HIR121
    isplitl [CR121]
    · iexact CR121
    isplitl [How]
    · iexact How
    isplitr
    · iexact MWR121
    iexact PR121
  iintro ⟨How, PR121, -, Hpay⟩
  imod (Rounds.cell_close ER (sched ct) (g := dcell c 1 1 2 1) (Set.mem_univ _) (fun h => h) (R := 1)
    (fun r hr => duties_later ct _ r hr)) $$ [PR121] with VR121
  · isplitr
    · iexact HIR121
    iexact PR121
  ihave BR121 := (Entails.of_eq (show bigSep ((sched ct).duties (dcell c 1 1 2 1) 0 \ ∅) (fun d => (sched ct).payload (dcell c 1 1 2 1) 0 d)
      = heldV c (dst_rs_1_2_1 (peer 2 1 c)) fullShare (fun i v => pRS ct 1 c (sh := S256x1024) i v) from rest_dma ct c 1 1 2 1 rfl)) $$ Hpay
  -- the partner's rows opened at their contents
  ihave BR121 := (heldV_open (F := F) c _ fullShare _) $$ BR121
  icases BR121 with ⟨%g121, BR121, %hg121⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch2 : Memref sig .tc .vmem S256x1024 .bf16))
      (S := (dst_rs_1_2_1 (peer 2 1 c)).view.set) (by rw [← rsLoad_1_2_1 c]; exact (View.set_slice _ _).symm.subset)) $$ BR121; iintro BR121
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off48 c) S128x256.size (k0_off48_inb c)) (Mk := Finset.univ) (Finset.subset_univ _)) $$ Hacc; iintro Hacc
  -- the wait on cell (0, 2, 0, 0), and the cell closed
  ihave #MWS200 := (mayWait_cell (F := F) c 0 2 0 0 23 (by decide +kernel)) $$ Hlev
  ihave #HIS200 := (inv_dma ct K c 0 2 0 0 rfl) $$ HR
  iapply (Rounds.wp_wait_rest_token Segs.𝒱₀ ER (sched ct) (c : Thread nD τ) none (κ := (K (c, ⟨(dsem 0 2 0 0).val, Nat.lt_trans (dsem 0 2 0 0).isLt (by decide)⟩))) (sm := SemLoc.dma (dsem 0 2 0 0))
      (wpE_waitDma2_eq Segs.𝒱₀ (c : Thread nD τ) none Set.univ) (Set.mem_univ _) () (O := owedFrom c 23) (W := (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))) (R := 0) (m := 0) (T := ∅)
      (by rw [Nat.zero_add, expect_dma ct c 0 2 0 0 rfl]; rfl)) $$ [CS200 How PS200]
  · isplitr
    · iexact HIS200
    isplitl [CS200]
    · iexact CS200
    isplitl [How]
    · iexact How
    isplitr
    · iexact MWS200
    iexact PS200
  iintro ⟨How, PS200, -, Hpay⟩
  imod (Rounds.cell_close ER (sched ct) (g := dcell c 0 2 0 0) (Set.mem_univ _) (fun h => h) (R := 1)
    (fun r hr => duties_later ct _ r hr)) $$ [PS200] with VS200
  · isplitr
    · iexact HIS200
    iexact PS200
  ihave BS200 := (Entails.of_eq (show bigSep ((sched ct).duties (dcell c 0 2 0 0) 0 \ ∅) (fun d => (sched ct).payload (dcell c 0 2 0 0) 0 d)
      = loanV c (src_rs_2_0_0 c) from rest_dma ct c 0 2 0 0 rfl)) $$ Hpay
  -- the wait on cell (1, 2, 0, 0), and the cell closed
  ihave #MWR200 := (mayWait_cell (F := F) c 1 2 0 0 23 (by decide +kernel)) $$ Hlev
  ihave #HIR200 := (inv_dma ct K c 1 2 0 0 rfl) $$ HR
  iapply (Rounds.wp_wait_rest_token Segs.𝒱₀ ER (sched ct) (c : Thread nD τ) none (κ := (K (c, ⟨(dsem 1 2 0 0).val, Nat.lt_trans (dsem 1 2 0 0).isLt (by decide)⟩))) (sm := SemLoc.dma (dsem 1 2 0 0))
      (wpE_waitDma2_eq Segs.𝒱₀ (c : Thread nD τ) none Set.univ) (Set.mem_univ _) () (O := owedFrom c 23) (W := (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W)))))))) (R := 0) (m := 0) (T := ∅)
      (by rw [Nat.zero_add, expect_dma ct c 1 2 0 0 rfl]; rfl)) $$ [CR200 How PR200]
  · isplitr
    · iexact HIR200
    isplitl [CR200]
    · iexact CR200
    isplitl [How]
    · iexact How
    isplitr
    · iexact MWR200
    iexact PR200
  iintro ⟨How, PR200, -, Hpay⟩
  imod (Rounds.cell_close ER (sched ct) (g := dcell c 1 2 0 0) (Set.mem_univ _) (fun h => h) (R := 1)
    (fun r hr => duties_later ct _ r hr)) $$ [PR200] with VR200
  · isplitr
    · iexact HIR200
    iexact PR200
  ihave BR200 := (Entails.of_eq (show bigSep ((sched ct).duties (dcell c 1 2 0 0) 0 \ ∅) (fun d => (sched ct).payload (dcell c 1 2 0 0) 0 d)
      = heldV c (dst_rs_2_0_0 (peer 0 2 c)) fullShare (fun i v => pRS ct 2 c (sh := S128x1024) i v) from rest_dma ct c 1 2 0 0 rfl)) $$ Hpay
  ihave BR200 := (heldV_open (F := F) c _ fullShare _) $$ BR200
  icases BR200 with ⟨%g200, BR200, %hg200⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch3 : Memref sig .tc .vmem S128x1024 .bf16))
      (S := (dst_rs_2_0_0 (peer 0 2 c)).view.set) (by rw [← rsLoad_2_0_0 c]; exact (View.set_slice _ _).symm.subset)) $$ BR200; iintro BR200
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off50 c) S64x384.size (k0_off50_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch9 : Memref sig .tc .vmem S64x1024 .bf16))
      (S := ssCol_3_0) ((View.set_slice _ _).symm.subset)) $$ Hc0; iintro Hc0
  iapply (wp_store Segs.𝒱₀ (c : Thread nD τ) none Set.univ (m := (Memref.whole cc0_scratch9 : Memref sig .tc .vmem S64x1024 .bf16)) (r := Rect.unit (s := S64x1024) ![0, 0] S64x384.size inb_S64x1024_S64x384_0_0) (Mk := Finset.univ)
      (S := ssCol_3_0) (Finset.Subset.refl _)) $$ Hc0; iintro Hc0
  -- column block 0 of the send buffer, cut into the two pieces sent
  ihave Hrows := ((ss_rows_at_3_0 (F := F) c fullShare _).1) $$ Hc0
  icases Hrows with ⟨Hsrc00, Hsrc01⟩
  -- piece 0 goes to the partner
  ihave LD300 := (loanV_open (F := F) (peer 0 3 c) (dst_rs_3_0_0 c)) $$ LD300
  icases LD300 with ⟨%fd300, LD300⟩
  ihave #HIS300 := (inv_dma ct K c 0 3 0 0 rfl) $$ HR
  ihave #HIR300 := (inv_dma ct K (peer 0 3 c) 1 3 0 0 rfl) $$ HR
  ihave #HrS300 := (reached_dma ct K c 0 3 0 0 rfl) $$ HR
  ihave #HrR300 := (reached_dma ct K (peer 0 3 c) 1 3 0 0 rfl) $$ HR
  iapply (send_step ct (K (c, ⟨(dsem 0 3 0 0).val, Nat.lt_trans (dsem 0 3 0 0).isLt (by decide)⟩)) (K (peer 0 3 c, ⟨(dsem 1 3 0 0).val, Nat.lt_trans (dsem 1 3 0 0).isLt (by decide)⟩)) c _ (peer 0 3 c) (dev_rs_3_0_0 c) (src_rs_3_0_0 c) (dst_rs_3_0_0 c) (dsem 0 3 0 0) (dsem 1 3 0 0)
      (SegB2Val.sendK0 c (SegB2Val.acc4 c fa g101 g111 g121 g200) g90) fd300 (owedFrom c 24) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))
      (fun i v => pRS ct 3 (peer 0 3 c) (sh := S64x1024) i v)
      (duties_dma ct c 0 3 0 0 rfl) (duties_dma ct (peer 0 3 c) 1 3 0 0 rfl) (amtIx (dsem 1 3 0 0).val) rfl rfl rfl rfl
      (by show recv_rs_3_0_0 ct (peer 0 3 c) = _; unfold recv_rs_3_0_0; rw [peer_peer])
      (SegB2Val.sent_3_0_0 ct c YA YB laws fa g101 g111 g121 g200 g90 fd300 hfa hg101 hg111 hg121 hg200)) $$ [Hsrc00 LD300 How TS300 TR300]
  · isplitr
    · iexact HIS300
    isplitr
    · iexact HIR300
    isplitl [Hsrc00]
    · iexact Hsrc00
    isplitl [LD300]
    · iexact LD300
    isplitl [How]
    · iexact How
    isplitl [TS300]
    · iexact TS300
    isplitr
    · iexact HrS300
    isplitl [TR300]
    · iexact TR300
    iexact HrR300
  iintro ⟨CS300, How⟩
  -- piece 1 goes to the partner
  ihave LD301 := (loanV_open (F := F) (peer 0 3 c) (dst_rs_3_0_1 c)) $$ LD301
  icases LD301 with ⟨%fd301, LD301⟩
  ihave #HIS301 := (inv_dma ct K c 0 3 0 1 rfl) $$ HR
  ihave #HIR301 := (inv_dma ct K (peer 0 3 c) 1 3 0 1 rfl) $$ HR
  ihave #HrS301 := (reached_dma ct K c 0 3 0 1 rfl) $$ HR
  ihave #HrR301 := (reached_dma ct K (peer 0 3 c) 1 3 0 1 rfl) $$ HR
  iapply (send_step ct (K (c, ⟨(dsem 0 3 0 1).val, Nat.lt_trans (dsem 0 3 0 1).isLt (by decide)⟩)) (K (peer 0 3 c, ⟨(dsem 1 3 0 1).val, Nat.lt_trans (dsem 1 3 0 1).isLt (by decide)⟩)) c _ (peer 0 3 c) (dev_rs_3_0_1 c) (src_rs_3_0_1 c) (dst_rs_3_0_1 c) (dsem 0 3 0 1) (dsem 1 3 0 1)
      (SegB2Val.sendK0 c (SegB2Val.acc4 c fa g101 g111 g121 g200) g90) fd301 (owedFrom c 25) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))
      (fun i v => pRS ct 3 (peer 0 3 c) (sh := S64x1024) i v)
      (duties_dma ct c 0 3 0 1 rfl) (duties_dma ct (peer 0 3 c) 1 3 0 1 rfl) (amtIx (dsem 1 3 0 1).val) rfl rfl rfl rfl
      (by show recv_rs_3_0_1 ct (peer 0 3 c) = _; unfold recv_rs_3_0_1; rw [peer_peer])
      (SegB2Val.sent_3_0_1 ct c YA YB laws fa g101 g111 g121 g200 g90 fd301 hfa hg101 hg111 hg121 hg200)) $$ [Hsrc01 LD301 How TS301 TR301]
  · isplitr
    · iexact HIS301
    isplitr
    · iexact HIR301
    isplitl [Hsrc01]
    · iexact Hsrc01
    isplitl [LD301]
    · iexact LD301
    isplitl [How]
    · iexact How
    isplitl [TS301]
    · iexact TS301
    isplitr
    · iexact HrS301
    isplitl [TR301]
    · iexact TR301
    iexact HrR301
  iintro ⟨CS301, How⟩
  -- the wait on cell (0, 2, 1, 0), and the cell closed
  ihave #MWS210 := (mayWait_cell (F := F) c 0 2 1 0 25 (by decide +kernel)) $$ Hlev
  ihave #HIS210 := (inv_dma ct K c 0 2 1 0 rfl) $$ HR
  iapply (Rounds.wp_wait_rest_token Segs.𝒱₀ ER (sched ct) (c : Thread nD τ) none (κ := (K (c, ⟨(dsem 0 2 1 0).val, Nat.lt_trans (dsem 0 2 1 0).isLt (by decide)⟩))) (sm := SemLoc.dma (dsem 0 2 1 0))
      (wpE_waitDma2_eq Segs.𝒱₀ (c : Thread nD τ) none Set.univ) (Set.mem_univ _) () (O := owedFrom c 25) (W := (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))) (R := 0) (m := 0) (T := ∅)
      (by rw [Nat.zero_add, expect_dma ct c 0 2 1 0 rfl]; rfl)) $$ [CS210 How PS210]
  · isplitr
    · iexact HIS210
    isplitl [CS210]
    · iexact CS210
    isplitl [How]
    · iexact How
    isplitr
    · iexact MWS210
    iexact PS210
  iintro ⟨How, PS210, -, Hpay⟩
  imod (Rounds.cell_close ER (sched ct) (g := dcell c 0 2 1 0) (Set.mem_univ _) (fun h => h) (R := 1)
    (fun r hr => duties_later ct _ r hr)) $$ [PS210] with VS210
  · isplitr
    · iexact HIS210
    iexact PS210
  ihave BS210 := (Entails.of_eq (show bigSep ((sched ct).duties (dcell c 0 2 1 0) 0 \ ∅) (fun d => (sched ct).payload (dcell c 0 2 1 0) 0 d)
      = loanV c (src_rs_2_1_0 c) from rest_dma ct c 0 2 1 0 rfl)) $$ Hpay
  -- the wait on cell (1, 2, 1, 0), and the cell closed
  ihave #MWR210 := (mayWait_cell (F := F) c 1 2 1 0 25 (by decide +kernel)) $$ Hlev
  ihave #HIR210 := (inv_dma ct K c 1 2 1 0 rfl) $$ HR
  iapply (Rounds.wp_wait_rest_token Segs.𝒱₀ ER (sched ct) (c : Thread nD τ) none (κ := (K (c, ⟨(dsem 1 2 1 0).val, Nat.lt_trans (dsem 1 2 1 0).isLt (by decide)⟩))) (sm := SemLoc.dma (dsem 1 2 1 0))
      (wpE_waitDma2_eq Segs.𝒱₀ (c : Thread nD τ) none Set.univ) (Set.mem_univ _) () (O := owedFrom c 25) (W := (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W)))))))))) (R := 0) (m := 0) (T := ∅)
      (by rw [Nat.zero_add, expect_dma ct c 1 2 1 0 rfl]; rfl)) $$ [CR210 How PR210]
  · isplitr
    · iexact HIR210
    isplitl [CR210]
    · iexact CR210
    isplitl [How]
    · iexact How
    isplitr
    · iexact MWR210
    iexact PR210
  iintro ⟨How, PR210, -, Hpay⟩
  imod (Rounds.cell_close ER (sched ct) (g := dcell c 1 2 1 0) (Set.mem_univ _) (fun h => h) (R := 1)
    (fun r hr => duties_later ct _ r hr)) $$ [PR210] with VR210
  · isplitr
    · iexact HIR210
    iexact PR210
  ihave BR210 := (Entails.of_eq (show bigSep ((sched ct).duties (dcell c 1 2 1 0) 0 \ ∅) (fun d => (sched ct).payload (dcell c 1 2 1 0) 0 d)
      = heldV c (dst_rs_2_1_0 (peer 1 2 c)) fullShare (fun i v => pRS ct 2 c (sh := S128x1024) i v) from rest_dma ct c 1 2 1 0 rfl)) $$ Hpay
  ihave BR210 := (heldV_open (F := F) c _ fullShare _) $$ BR210
  icases BR210 with ⟨%g210, BR210, %hg210⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch3 : Memref sig .tc .vmem S128x1024 .bf16))
      (S := (dst_rs_2_1_0 (peer 1 2 c)).view.set) (by rw [← rsLoad_2_1_0 c]; exact (View.set_slice _ _).symm.subset)) $$ BR210; iintro BR210
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off54 c) S64x384.size (k0_off54_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch9 : Memref sig .tc .vmem S64x1024 .bf16))
      (S := ssCol_3_1) ((View.set_slice _ _).symm.subset)) $$ Hc1; iintro Hc1
  iapply (wp_store Segs.𝒱₀ (c : Thread nD τ) none Set.univ (m := (Memref.whole cc0_scratch9 : Memref sig .tc .vmem S64x1024 .bf16)) (r := Rect.unit (s := S64x1024) ![0, 384] S64x384.size inb_S64x1024_S64x384_0_384) (Mk := Finset.univ)
      (S := ssCol_3_1) (Finset.Subset.refl _)) $$ Hc1; iintro Hc1
  -- column block 1 of the send buffer, cut into the two pieces sent
  ihave Hrows := ((ss_rows_at_3_1 (F := F) c fullShare _).1) $$ Hc1
  icases Hrows with ⟨Hsrc10, Hsrc11⟩
  -- piece 0 goes to the partner
  ihave LD310 := (loanV_open (F := F) (peer 1 3 c) (dst_rs_3_1_0 c)) $$ LD310
  icases LD310 with ⟨%fd310, LD310⟩
  ihave #HIS310 := (inv_dma ct K c 0 3 1 0 rfl) $$ HR
  ihave #HIR310 := (inv_dma ct K (peer 1 3 c) 1 3 1 0 rfl) $$ HR
  ihave #HrS310 := (reached_dma ct K c 0 3 1 0 rfl) $$ HR
  ihave #HrR310 := (reached_dma ct K (peer 1 3 c) 1 3 1 0 rfl) $$ HR
  iapply (send_step ct (K (c, ⟨(dsem 0 3 1 0).val, Nat.lt_trans (dsem 0 3 1 0).isLt (by decide)⟩)) (K (peer 1 3 c, ⟨(dsem 1 3 1 0).val, Nat.lt_trans (dsem 1 3 1 0).isLt (by decide)⟩)) c _ (peer 1 3 c) (dev_rs_3_1_0 c) (src_rs_3_1_0 c) (dst_rs_3_1_0 c) (dsem 0 3 1 0) (dsem 1 3 1 0)
      (SegB2Val.sendK1 c (SegB2Val.acc5 c fa g101 g111 g121 g200 g210) g91) fd310 (owedFrom c 26) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))))
      (fun i v => pRS ct 3 (peer 1 3 c) (sh := S64x1024) i v)
      (duties_dma ct c 0 3 1 0 rfl) (duties_dma ct (peer 1 3 c) 1 3 1 0 rfl) (amtIx (dsem 1 3 1 0).val) rfl rfl rfl rfl
      (by show recv_rs_3_1_0 ct (peer 1 3 c) = _; unfold recv_rs_3_1_0; rw [peer_peer])
      (SegB2Val.sent_3_1_0 ct c YA YB laws fa g101 g111 g121 g200 g210 g91 fd310 hfa hg101 hg111 hg121 hg200 hg210)) $$ [Hsrc10 LD310 How TS310 TR310]
  · isplitr
    · iexact HIS310
    isplitr
    · iexact HIR310
    isplitl [Hsrc10]
    · iexact Hsrc10
    isplitl [LD310]
    · iexact LD310
    isplitl [How]
    · iexact How
    isplitl [TS310]
    · iexact TS310
    isplitr
    · iexact HrS310
    isplitl [TR310]
    · iexact TR310
    iexact HrR310
  iintro ⟨CS310, How⟩
  -- piece 1 goes to the partner
  ihave LD311 := (loanV_open (F := F) (peer 1 3 c) (dst_rs_3_1_1 c)) $$ LD311
  icases LD311 with ⟨%fd311, LD311⟩
  ihave #HIS311 := (inv_dma ct K c 0 3 1 1 rfl) $$ HR
  ihave #HIR311 := (inv_dma ct K (peer 1 3 c) 1 3 1 1 rfl) $$ HR
  ihave #HrS311 := (reached_dma ct K c 0 3 1 1 rfl) $$ HR
  ihave #HrR311 := (reached_dma ct K (peer 1 3 c) 1 3 1 1 rfl) $$ HR
  iapply (send_step ct (K (c, ⟨(dsem 0 3 1 1).val, Nat.lt_trans (dsem 0 3 1 1).isLt (by decide)⟩)) (K (peer 1 3 c, ⟨(dsem 1 3 1 1).val, Nat.lt_trans (dsem 1 3 1 1).isLt (by decide)⟩)) c _ (peer 1 3 c) (dev_rs_3_1_1 c) (src_rs_3_1_1 c) (dst_rs_3_1_1 c) (dsem 0 3 1 1) (dsem 1 3 1 1)
      (SegB2Val.sendK1 c (SegB2Val.acc5 c fa g101 g111 g121 g200 g210) g91) fd311 (owedFrom c 27) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))))
      (fun i v => pRS ct 3 (peer 1 3 c) (sh := S64x1024) i v)
      (duties_dma ct c 0 3 1 1 rfl) (duties_dma ct (peer 1 3 c) 1 3 1 1 rfl) (amtIx (dsem 1 3 1 1).val) rfl rfl rfl rfl
      (by show recv_rs_3_1_1 ct (peer 1 3 c) = _; unfold recv_rs_3_1_1; rw [peer_peer])
      (SegB2Val.sent_3_1_1 ct c YA YB laws fa g101 g111 g121 g200 g210 g91 fd311 hfa hg101 hg111 hg121 hg200 hg210)) $$ [Hsrc11 LD311 How TS311 TR311]
  · isplitr
    · iexact HIS311
    isplitr
    · iexact HIR311
    isplitl [Hsrc11]
    · iexact Hsrc11
    isplitl [LD311]
    · iexact LD311
    isplitl [How]
    · iexact How
    isplitl [TS311]
    · iexact TS311
    isplitr
    · iexact HrS311
    isplitl [TR311]
    · iexact TR311
    iexact HrR311
  iintro ⟨CS311, How⟩
  -- the wait on cell (0, 2, 2, 0), and the cell closed
  ihave #MWS220 := (mayWait_cell (F := F) c 0 2 2 0 27 (by decide +kernel)) $$ Hlev
  ihave #HIS220 := (inv_dma ct K c 0 2 2 0 rfl) $$ HR
  iapply (Rounds.wp_wait_rest_token Segs.𝒱₀ ER (sched ct) (c : Thread nD τ) none (κ := (K (c, ⟨(dsem 0 2 2 0).val, Nat.lt_trans (dsem 0 2 2 0).isLt (by decide)⟩))) (sm := SemLoc.dma (dsem 0 2 2 0))
      (wpE_waitDma2_eq Segs.𝒱₀ (c : Thread nD τ) none Set.univ) (Set.mem_univ _) () (O := owedFrom c 27) (W := (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))))) (R := 0) (m := 0) (T := ∅)
      (by rw [Nat.zero_add, expect_dma ct c 0 2 2 0 rfl]; rfl)) $$ [CS220 How PS220]
  · isplitr
    · iexact HIS220
    isplitl [CS220]
    · iexact CS220
    isplitl [How]
    · iexact How
    isplitr
    · iexact MWS220
    iexact PS220
  iintro ⟨How, PS220, -, Hpay⟩
  imod (Rounds.cell_close ER (sched ct) (g := dcell c 0 2 2 0) (Set.mem_univ _) (fun h => h) (R := 1)
    (fun r hr => duties_later ct _ r hr)) $$ [PS220] with VS220
  · isplitr
    · iexact HIS220
    iexact PS220
  ihave BS220 := (Entails.of_eq (show bigSep ((sched ct).duties (dcell c 0 2 2 0) 0 \ ∅) (fun d => (sched ct).payload (dcell c 0 2 2 0) 0 d)
      = loanV c (src_rs_2_2_0 c) from rest_dma ct c 0 2 2 0 rfl)) $$ Hpay
  -- the wait on cell (1, 2, 2, 0), and the cell closed
  ihave #MWR220 := (mayWait_cell (F := F) c 1 2 2 0 27 (by decide +kernel)) $$ Hlev
  ihave #HIR220 := (inv_dma ct K c 1 2 2 0 rfl) $$ HR
  iapply (Rounds.wp_wait_rest_token Segs.𝒱₀ ER (sched ct) (c : Thread nD τ) none (κ := (K (c, ⟨(dsem 1 2 2 0).val, Nat.lt_trans (dsem 1 2 2 0).isLt (by decide)⟩))) (sm := SemLoc.dma (dsem 1 2 2 0))
      (wpE_waitDma2_eq Segs.𝒱₀ (c : Thread nD τ) none Set.univ) (Set.mem_univ _) () (O := owedFrom c 27) (W := (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W)))))))))))) (R := 0) (m := 0) (T := ∅)
      (by rw [Nat.zero_add, expect_dma ct c 1 2 2 0 rfl]; rfl)) $$ [CR220 How PR220]
  · isplitr
    · iexact HIR220
    isplitl [CR220]
    · iexact CR220
    isplitl [How]
    · iexact How
    isplitr
    · iexact MWR220
    iexact PR220
  iintro ⟨How, PR220, -, Hpay⟩
  imod (Rounds.cell_close ER (sched ct) (g := dcell c 1 2 2 0) (Set.mem_univ _) (fun h => h) (R := 1)
    (fun r hr => duties_later ct _ r hr)) $$ [PR220] with VR220
  · isplitr
    · iexact HIR220
    iexact PR220
  ihave BR220 := (Entails.of_eq (show bigSep ((sched ct).duties (dcell c 1 2 2 0) 0 \ ∅) (fun d => (sched ct).payload (dcell c 1 2 2 0) 0 d)
      = heldV c (dst_rs_2_2_0 (peer 2 2 c)) fullShare (fun i v => pRS ct 2 c (sh := S128x1024) i v) from rest_dma ct c 1 2 2 0 rfl)) $$ Hpay
  ihave BR220 := (heldV_open (F := F) c _ fullShare _) $$ BR220
  icases BR220 with ⟨%g220, BR220, %hg220⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch3 : Memref sig .tc .vmem S128x1024 .bf16))
      (S := (dst_rs_2_2_0 (peer 2 2 c)).view.set) (by rw [← rsLoad_2_2_0 c]; exact (View.set_slice _ _).symm.subset)) $$ BR220; iintro BR220
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off58 c) S64x256.size (k0_off58_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch9 : Memref sig .tc .vmem S64x1024 .bf16))
      (S := ssCol_3_2) ((View.set_slice _ _).symm.subset)) $$ Hc2; iintro Hc2
  iapply (wp_store Segs.𝒱₀ (c : Thread nD τ) none Set.univ (m := (Memref.whole cc0_scratch9 : Memref sig .tc .vmem S64x1024 .bf16)) (r := Rect.unit (s := S64x1024) ![0, 768] S64x256.size inb_S64x1024_S64x256_0_768) (Mk := Finset.univ)
      (S := ssCol_3_2) (Finset.Subset.refl _)) $$ Hc2; iintro Hc2
  -- column block 2 of the send buffer, cut into the two pieces sent
  ihave Hrows := ((ss_rows_at_3_2 (F := F) c fullShare _).1) $$ Hc2
  icases Hrows with ⟨Hsrc20, Hsrc21⟩
  -- piece 0 goes to the partner
  ihave LD320 := (loanV_open (F := F) (peer 2 3 c) (dst_rs_3_2_0 c)) $$ LD320
  icases LD320 with ⟨%fd320, LD320⟩
  ihave #HIS320 := (inv_dma ct K c 0 3 2 0 rfl) $$ HR
  ihave #HIR320 := (inv_dma ct K (peer 2 3 c) 1 3 2 0 rfl) $$ HR
  ihave #HrS320 := (reached_dma ct K c 0 3 2 0 rfl) $$ HR
  ihave #HrR320 := (reached_dma ct K (peer 2 3 c) 1 3 2 0 rfl) $$ HR
  iapply (send_step ct (K (c, ⟨(dsem 0 3 2 0).val, Nat.lt_trans (dsem 0 3 2 0).isLt (by decide)⟩)) (K (peer 2 3 c, ⟨(dsem 1 3 2 0).val, Nat.lt_trans (dsem 1 3 2 0).isLt (by decide)⟩)) c _ (peer 2 3 c) (dev_rs_3_2_0 c) (src_rs_3_2_0 c) (dst_rs_3_2_0 c) (dsem 0 3 2 0) (dsem 1 3 2 0)
      (SegB2Val.sendK2 c (SegB2Val.acc6 c fa g101 g111 g121 g200 g210 g220) g92) fd320 (owedFrom c 28) (insert (SemLoc.dma (dsem 1 2 2 0), ()) (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))))))
      (fun i v => pRS ct 3 (peer 2 3 c) (sh := S64x1024) i v)
      (duties_dma ct c 0 3 2 0 rfl) (duties_dma ct (peer 2 3 c) 1 3 2 0 rfl) (amtIx (dsem 1 3 2 0).val) rfl rfl rfl rfl
      (by show recv_rs_3_2_0 ct (peer 2 3 c) = _; unfold recv_rs_3_2_0; rw [peer_peer])
      (SegB2Val.sent_3_2_0 ct c YA YB laws fa g101 g111 g121 g200 g210 g220 g92 fd320 hfa hg101 hg111 hg121 hg200 hg210 hg220)) $$ [Hsrc20 LD320 How TS320 TR320]
  · isplitr
    · iexact HIS320
    isplitr
    · iexact HIR320
    isplitl [Hsrc20]
    · iexact Hsrc20
    isplitl [LD320]
    · iexact LD320
    isplitl [How]
    · iexact How
    isplitl [TS320]
    · iexact TS320
    isplitr
    · iexact HrS320
    isplitl [TR320]
    · iexact TR320
    iexact HrR320
  iintro ⟨CS320, How⟩
  -- piece 1 goes to the partner
  ihave LD321 := (loanV_open (F := F) (peer 2 3 c) (dst_rs_3_2_1 c)) $$ LD321
  icases LD321 with ⟨%fd321, LD321⟩
  ihave #HIS321 := (inv_dma ct K c 0 3 2 1 rfl) $$ HR
  ihave #HIR321 := (inv_dma ct K (peer 2 3 c) 1 3 2 1 rfl) $$ HR
  ihave #HrS321 := (reached_dma ct K c 0 3 2 1 rfl) $$ HR
  ihave #HrR321 := (reached_dma ct K (peer 2 3 c) 1 3 2 1 rfl) $$ HR
  iapply (send_step ct (K (c, ⟨(dsem 0 3 2 1).val, Nat.lt_trans (dsem 0 3 2 1).isLt (by decide)⟩)) (K (peer 2 3 c, ⟨(dsem 1 3 2 1).val, Nat.lt_trans (dsem 1 3 2 1).isLt (by decide)⟩)) c _ (peer 2 3 c) (dev_rs_3_2_1 c) (src_rs_3_2_1 c) (dst_rs_3_2_1 c) (dsem 0 3 2 1) (dsem 1 3 2 1)
      (SegB2Val.sendK2 c (SegB2Val.acc6 c fa g101 g111 g121 g200 g210 g220) g92) fd321 (owedFrom c 29) (insert (SemLoc.dma (dsem 1 2 2 0), ()) (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))))))
      (fun i v => pRS ct 3 (peer 2 3 c) (sh := S64x1024) i v)
      (duties_dma ct c 0 3 2 1 rfl) (duties_dma ct (peer 2 3 c) 1 3 2 1 rfl) (amtIx (dsem 1 3 2 1).val) rfl rfl rfl rfl
      (by show recv_rs_3_2_1 ct (peer 2 3 c) = _; unfold recv_rs_3_2_1; rw [peer_peer])
      (SegB2Val.sent_3_2_1 ct c YA YB laws fa g101 g111 g121 g200 g210 g220 g92 fd321 hfa hg101 hg111 hg121 hg200 hg210 hg220)) $$ [Hsrc21 LD321 How TS321 TR321]
  · isplitr
    · iexact HIS321
    isplitr
    · iexact HIR321
    isplitl [Hsrc21]
    · iexact Hsrc21
    isplitl [LD321]
    · iexact LD321
    isplitl [How]
    · iexact How
    isplitl [TS321]
    · iexact TS321
    isplitr
    · iexact HrS321
    isplitl [TR321]
    · iexact TR321
    iexact HrR321
  iintro ⟨CS321, How⟩
  -- the wait on cell (0, 2, 0, 1), and the cell closed
  ihave #MWS201 := (mayWait_cell (F := F) c 0 2 0 1 29 (by decide +kernel)) $$ Hlev
  ihave #HIS201 := (inv_dma ct K c 0 2 0 1 rfl) $$ HR
  iapply (Rounds.wp_wait_rest_token Segs.𝒱₀ ER (sched ct) (c : Thread nD τ) none (κ := (K (c, ⟨(dsem 0 2 0 1).val, Nat.lt_trans (dsem 0 2 0 1).isLt (by decide)⟩))) (sm := SemLoc.dma (dsem 0 2 0 1))
      (wpE_waitDma2_eq Segs.𝒱₀ (c : Thread nD τ) none Set.univ) (Set.mem_univ _) () (O := owedFrom c 29) (W := (insert (SemLoc.dma (dsem 1 2 2 0), ()) (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))))))) (R := 0) (m := 0) (T := ∅)
      (by rw [Nat.zero_add, expect_dma ct c 0 2 0 1 rfl]; rfl)) $$ [CS201 How PS201]
  · isplitr
    · iexact HIS201
    isplitl [CS201]
    · iexact CS201
    isplitl [How]
    · iexact How
    isplitr
    · iexact MWS201
    iexact PS201
  iintro ⟨How, PS201, -, Hpay⟩
  imod (Rounds.cell_close ER (sched ct) (g := dcell c 0 2 0 1) (Set.mem_univ _) (fun h => h) (R := 1)
    (fun r hr => duties_later ct _ r hr)) $$ [PS201] with VS201
  · isplitr
    · iexact HIS201
    iexact PS201
  ihave BS201 := (Entails.of_eq (show bigSep ((sched ct).duties (dcell c 0 2 0 1) 0 \ ∅) (fun d => (sched ct).payload (dcell c 0 2 0 1) 0 d)
      = loanV c (src_rs_2_0_1 c) from rest_dma ct c 0 2 0 1 rfl)) $$ Hpay
  -- the wait on cell (1, 2, 0, 1), and the cell closed
  ihave #MWR201 := (mayWait_cell (F := F) c 1 2 0 1 29 (by decide +kernel)) $$ Hlev
  ihave #HIR201 := (inv_dma ct K c 1 2 0 1 rfl) $$ HR
  iapply (Rounds.wp_wait_rest_token Segs.𝒱₀ ER (sched ct) (c : Thread nD τ) none (κ := (K (c, ⟨(dsem 1 2 0 1).val, Nat.lt_trans (dsem 1 2 0 1).isLt (by decide)⟩))) (sm := SemLoc.dma (dsem 1 2 0 1))
      (wpE_waitDma2_eq Segs.𝒱₀ (c : Thread nD τ) none Set.univ) (Set.mem_univ _) () (O := owedFrom c 29) (W := (insert (SemLoc.dma (dsem 0 2 0 1), ()) (insert (SemLoc.dma (dsem 1 2 2 0), ()) (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W)))))))))))))) (R := 0) (m := 0) (T := ∅)
      (by rw [Nat.zero_add, expect_dma ct c 1 2 0 1 rfl]; rfl)) $$ [CR201 How PR201]
  · isplitr
    · iexact HIR201
    isplitl [CR201]
    · iexact CR201
    isplitl [How]
    · iexact How
    isplitr
    · iexact MWR201
    iexact PR201
  iintro ⟨How, PR201, -, Hpay⟩
  imod (Rounds.cell_close ER (sched ct) (g := dcell c 1 2 0 1) (Set.mem_univ _) (fun h => h) (R := 1)
    (fun r hr => duties_later ct _ r hr)) $$ [PR201] with VR201
  · isplitr
    · iexact HIR201
    iexact PR201
  ihave BR201 := (Entails.of_eq (show bigSep ((sched ct).duties (dcell c 1 2 0 1) 0 \ ∅) (fun d => (sched ct).payload (dcell c 1 2 0 1) 0 d)
      = heldV c (dst_rs_2_0_1 (peer 0 2 c)) fullShare (fun i v => pRS ct 2 c (sh := S128x1024) i v) from rest_dma ct c 1 2 0 1 rfl)) $$ Hpay
  -- the partner's rows opened at their contents
  ihave BR201 := (heldV_open (F := F) c _ fullShare _) $$ BR201
  icases BR201 with ⟨%g201, BR201, %hg201⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch3 : Memref sig .tc .vmem S128x1024 .bf16))
      (S := (dst_rs_2_0_1 (peer 0 2 c)).view.set) (by rw [← rsLoad_2_0_1 c]; exact (View.set_slice _ _).symm.subset)) $$ BR201; iintro BR201
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off62 c) S64x384.size (k0_off62_inb c)) (Mk := Finset.univ) (Finset.subset_univ _)) $$ Hacc; iintro Hacc
  -- the wait on cell (0, 2, 1, 1), and the cell closed
  ihave #MWS211 := (mayWait_cell (F := F) c 0 2 1 1 29 (by decide +kernel)) $$ Hlev
  ihave #HIS211 := (inv_dma ct K c 0 2 1 1 rfl) $$ HR
  iapply (Rounds.wp_wait_rest_token Segs.𝒱₀ ER (sched ct) (c : Thread nD τ) none (κ := (K (c, ⟨(dsem 0 2 1 1).val, Nat.lt_trans (dsem 0 2 1 1).isLt (by decide)⟩))) (sm := SemLoc.dma (dsem 0 2 1 1))
      (wpE_waitDma2_eq Segs.𝒱₀ (c : Thread nD τ) none Set.univ) (Set.mem_univ _) () (O := owedFrom c 29) (W := (insert (SemLoc.dma (dsem 1 2 0 1), ()) (insert (SemLoc.dma (dsem 0 2 0 1), ()) (insert (SemLoc.dma (dsem 1 2 2 0), ()) (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))))))))) (R := 0) (m := 0) (T := ∅)
      (by rw [Nat.zero_add, expect_dma ct c 0 2 1 1 rfl]; rfl)) $$ [CS211 How PS211]
  · isplitr
    · iexact HIS211
    isplitl [CS211]
    · iexact CS211
    isplitl [How]
    · iexact How
    isplitr
    · iexact MWS211
    iexact PS211
  iintro ⟨How, PS211, -, Hpay⟩
  imod (Rounds.cell_close ER (sched ct) (g := dcell c 0 2 1 1) (Set.mem_univ _) (fun h => h) (R := 1)
    (fun r hr => duties_later ct _ r hr)) $$ [PS211] with VS211
  · isplitr
    · iexact HIS211
    iexact PS211
  ihave BS211 := (Entails.of_eq (show bigSep ((sched ct).duties (dcell c 0 2 1 1) 0 \ ∅) (fun d => (sched ct).payload (dcell c 0 2 1 1) 0 d)
      = loanV c (src_rs_2_1_1 c) from rest_dma ct c 0 2 1 1 rfl)) $$ Hpay
  -- the wait on cell (1, 2, 1, 1), and the cell closed
  ihave #MWR211 := (mayWait_cell (F := F) c 1 2 1 1 29 (by decide +kernel)) $$ Hlev
  ihave #HIR211 := (inv_dma ct K c 1 2 1 1 rfl) $$ HR
  iapply (Rounds.wp_wait_rest_token Segs.𝒱₀ ER (sched ct) (c : Thread nD τ) none (κ := (K (c, ⟨(dsem 1 2 1 1).val, Nat.lt_trans (dsem 1 2 1 1).isLt (by decide)⟩))) (sm := SemLoc.dma (dsem 1 2 1 1))
      (wpE_waitDma2_eq Segs.𝒱₀ (c : Thread nD τ) none Set.univ) (Set.mem_univ _) () (O := owedFrom c 29) (W := (insert (SemLoc.dma (dsem 0 2 1 1), ()) (insert (SemLoc.dma (dsem 1 2 0 1), ()) (insert (SemLoc.dma (dsem 0 2 0 1), ()) (insert (SemLoc.dma (dsem 1 2 2 0), ()) (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W)))))))))))))))) (R := 0) (m := 0) (T := ∅)
      (by rw [Nat.zero_add, expect_dma ct c 1 2 1 1 rfl]; rfl)) $$ [CR211 How PR211]
  · isplitr
    · iexact HIR211
    isplitl [CR211]
    · iexact CR211
    isplitl [How]
    · iexact How
    isplitr
    · iexact MWR211
    iexact PR211
  iintro ⟨How, PR211, -, Hpay⟩
  imod (Rounds.cell_close ER (sched ct) (g := dcell c 1 2 1 1) (Set.mem_univ _) (fun h => h) (R := 1)
    (fun r hr => duties_later ct _ r hr)) $$ [PR211] with VR211
  · isplitr
    · iexact HIR211
    iexact PR211
  ihave BR211 := (Entails.of_eq (show bigSep ((sched ct).duties (dcell c 1 2 1 1) 0 \ ∅) (fun d => (sched ct).payload (dcell c 1 2 1 1) 0 d)
      = heldV c (dst_rs_2_1_1 (peer 1 2 c)) fullShare (fun i v => pRS ct 2 c (sh := S128x1024) i v) from rest_dma ct c 1 2 1 1 rfl)) $$ Hpay
  -- the partner's rows opened at their contents
  ihave BR211 := (heldV_open (F := F) c _ fullShare _) $$ BR211
  icases BR211 with ⟨%g211, BR211, %hg211⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch3 : Memref sig .tc .vmem S128x1024 .bf16))
      (S := (dst_rs_2_1_1 (peer 1 2 c)).view.set) (by rw [← rsLoad_2_1_1 c]; exact (View.set_slice _ _).symm.subset)) $$ BR211; iintro BR211
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off64 c) S64x384.size (k0_off64_inb c)) (Mk := Finset.univ) (Finset.subset_univ _)) $$ Hacc; iintro Hacc
  -- the wait on cell (0, 2, 2, 1), and the cell closed
  ihave #MWS221 := (mayWait_cell (F := F) c 0 2 2 1 29 (by decide +kernel)) $$ Hlev
  ihave #HIS221 := (inv_dma ct K c 0 2 2 1 rfl) $$ HR
  iapply (Rounds.wp_wait_rest_token Segs.𝒱₀ ER (sched ct) (c : Thread nD τ) none (κ := (K (c, ⟨(dsem 0 2 2 1).val, Nat.lt_trans (dsem 0 2 2 1).isLt (by decide)⟩))) (sm := SemLoc.dma (dsem 0 2 2 1))
      (wpE_waitDma2_eq Segs.𝒱₀ (c : Thread nD τ) none Set.univ) (Set.mem_univ _) () (O := owedFrom c 29) (W := (insert (SemLoc.dma (dsem 1 2 1 1), ()) (insert (SemLoc.dma (dsem 0 2 1 1), ()) (insert (SemLoc.dma (dsem 1 2 0 1), ()) (insert (SemLoc.dma (dsem 0 2 0 1), ()) (insert (SemLoc.dma (dsem 1 2 2 0), ()) (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))))))))))) (R := 0) (m := 0) (T := ∅)
      (by rw [Nat.zero_add, expect_dma ct c 0 2 2 1 rfl]; rfl)) $$ [CS221 How PS221]
  · isplitr
    · iexact HIS221
    isplitl [CS221]
    · iexact CS221
    isplitl [How]
    · iexact How
    isplitr
    · iexact MWS221
    iexact PS221
  iintro ⟨How, PS221, -, Hpay⟩
  imod (Rounds.cell_close ER (sched ct) (g := dcell c 0 2 2 1) (Set.mem_univ _) (fun h => h) (R := 1)
    (fun r hr => duties_later ct _ r hr)) $$ [PS221] with VS221
  · isplitr
    · iexact HIS221
    iexact PS221
  ihave BS221 := (Entails.of_eq (show bigSep ((sched ct).duties (dcell c 0 2 2 1) 0 \ ∅) (fun d => (sched ct).payload (dcell c 0 2 2 1) 0 d)
      = loanV c (src_rs_2_2_1 c) from rest_dma ct c 0 2 2 1 rfl)) $$ Hpay
  -- the wait on cell (1, 2, 2, 1), and the cell closed
  ihave #MWR221 := (mayWait_cell (F := F) c 1 2 2 1 29 (by decide +kernel)) $$ Hlev
  ihave #HIR221 := (inv_dma ct K c 1 2 2 1 rfl) $$ HR
  iapply (Rounds.wp_wait_rest_token Segs.𝒱₀ ER (sched ct) (c : Thread nD τ) none (κ := (K (c, ⟨(dsem 1 2 2 1).val, Nat.lt_trans (dsem 1 2 2 1).isLt (by decide)⟩))) (sm := SemLoc.dma (dsem 1 2 2 1))
      (wpE_waitDma2_eq Segs.𝒱₀ (c : Thread nD τ) none Set.univ) (Set.mem_univ _) () (O := owedFrom c 29) (W := (insert (SemLoc.dma (dsem 0 2 2 1), ()) (insert (SemLoc.dma (dsem 1 2 1 1), ()) (insert (SemLoc.dma (dsem 0 2 1 1), ()) (insert (SemLoc.dma (dsem 1 2 0 1), ()) (insert (SemLoc.dma (dsem 0 2 0 1), ()) (insert (SemLoc.dma (dsem 1 2 2 0), ()) (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W)))))))))))))))))) (R := 0) (m := 0) (T := ∅)
      (by rw [Nat.zero_add, expect_dma ct c 1 2 2 1 rfl]; rfl)) $$ [CR221 How PR221]
  · isplitr
    · iexact HIR221
    isplitl [CR221]
    · iexact CR221
    isplitl [How]
    · iexact How
    isplitr
    · iexact MWR221
    iexact PR221
  iintro ⟨How, PR221, -, Hpay⟩
  imod (Rounds.cell_close ER (sched ct) (g := dcell c 1 2 2 1) (Set.mem_univ _) (fun h => h) (R := 1)
    (fun r hr => duties_later ct _ r hr)) $$ [PR221] with VR221
  · isplitr
    · iexact HIR221
    iexact PR221
  ihave BR221 := (Entails.of_eq (show bigSep ((sched ct).duties (dcell c 1 2 2 1) 0 \ ∅) (fun d => (sched ct).payload (dcell c 1 2 2 1) 0 d)
      = heldV c (dst_rs_2_2_1 (peer 2 2 c)) fullShare (fun i v => pRS ct 2 c (sh := S128x1024) i v) from rest_dma ct c 1 2 2 1 rfl)) $$ Hpay
  -- the partner's rows opened at their contents
  ihave BR221 := (heldV_open (F := F) c _ fullShare _) $$ BR221
  icases BR221 with ⟨%g221, BR221, %hg221⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch3 : Memref sig .tc .vmem S128x1024 .bf16))
      (S := (dst_rs_2_2_1 (peer 2 2 c)).view.set) (by rw [← rsLoad_2_2_1 c]; exact (View.set_slice _ _).symm.subset)) $$ BR221; iintro BR221
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off66 c) S64x256.size (k0_off66_inb c)) (Mk := Finset.univ) (Finset.subset_univ _)) $$ Hacc; iintro Hacc
  icases Hclosed with ⟨⟨VS000, VR000⟩, ⟨VS001, VR001⟩, ⟨VS010, VR010⟩, ⟨VS011, VR011⟩, ⟨VS020, VR020⟩, ⟨VS021, VR021⟩, ⟨VS100, VR100⟩, ⟨VS110, VR110⟩, ⟨VS120, VR120⟩⟩
  icases Hrs1a with ⟨L100, L110, L120⟩
  icases Hss1a with ⟨M100, M110, M120⟩
  icases Hs16 with ⟨Hs1, Hs6⟩
  ihave BR101 := (loanV_fold (F := F) c (dst_rs_1_0_1 (peer 0 1 c)) _) $$ BR101
  ihave BR111 := (loanV_fold (F := F) c (dst_rs_1_1_1 (peer 1 1 c)) _) $$ BR111
  ihave BR121 := (loanV_fold (F := F) c (dst_rs_1_2_1 (peer 2 1 c)) _) $$ BR121
  ihave BR200 := (loanV_fold (F := F) c (dst_rs_2_0_0 (peer 0 2 c)) _) $$ BR200
  ihave BR201 := (loanV_fold (F := F) c (dst_rs_2_0_1 (peer 0 2 c)) _) $$ BR201
  ihave BR210 := (loanV_fold (F := F) c (dst_rs_2_1_0 (peer 1 2 c)) _) $$ BR210
  ihave BR211 := (loanV_fold (F := F) c (dst_rs_2_1_1 (peer 1 2 c)) _) $$ BR211
  ihave BR220 := (loanV_fold (F := F) c (dst_rs_2_2_0 (peer 2 2 c)) _) $$ BR220
  ihave BR221 := (loanV_fold (F := F) c (dst_rs_2_2_1 (peer 2 2 c)) _) $$ BR221
  ihave Hrs1w := (rs_join_1 (F := F) c) $$ [L100 BR101 L110 BR111 L120 BR121]
  · isplitl [L100]
    · iexact L100
    isplitl [BR101]
    · iexact BR101
    isplitl [L110]
    · iexact L110
    isplitl [BR111]
    · iexact BR111
    isplitl [L120]
    · iexact L120
    iexact BR121
  ihave Hrs2w := (rs_join_2 (F := F) c) $$ [BR200 BR201 BR210 BR211 BR220 BR221]
  · isplitl [BR200]
    · iexact BR200
    isplitl [BR201]
    · iexact BR201
    isplitl [BR210]
    · iexact BR210
    isplitl [BR211]
    · iexact BR211
    isplitl [BR220]
    · iexact BR220
    iexact BR221
  ihave Hss1w := (ss_join_1 (F := F) c) $$ [M100 BS101 M110 BS111 M120 BS121]
  · isplitl [M100]
    · iexact M100
    isplitl [BS101]
    · iexact BS101
    isplitl [M110]
    · iexact M110
    isplitl [BS111]
    · iexact BS111
    isplitl [M120]
    · iexact M120
    iexact BS121
  ihave Hss2w := (ss_join_2 (F := F) c) $$ [BS200 BS201 BS210 BS211 BS220 BS221]
  · isplitl [BS200]
    · iexact BS200
    isplitl [BS201]
    · iexact BS201
    isplitl [BS210]
    · iexact BS210
    isplitl [BS211]
    · iexact BS211
    isplitl [BS220]
    · iexact BS220
    iexact BS221
  iapply Hk $$ %v3 %v4 %v5 %v6 %v7 %v8 %v9 %v10 %v11 %v12 %v13 %v14 %v15 %v16 %v17 %v18 %v20 %v22 %v24 %v26 %v28 %(Scalar.addi v395 (Scalar.muli v22 64#32)) %(Scalar.addi v447 (Scalar.muli v26 64#32)) %(Scalar.addi v499 (Scalar.muli v26 64#32)) %(Scalar.addi (Scalar.addi v395 (Scalar.muli v22 64#32)) (Scalar.muli v26 32#32))
  unfold SegBMid.Pre30 SegBMid.toks30 SegBMid.pos30 SegBMid.closed30 SegBMid.credR30 SegBMid.credS30 SegBMid.land30 someAt
  isplitr
  · iexact HR
  isplitr
  · iexact Hlev
  isplitl [How]
  · iexists _
    iexact How
  isplitl [TS400 TR400 TS410 TR410 TS420 TR420]
  · isplitl [TS400 TR400]
    · isplitl [TS400]
      · iexact TS400
      iexact TR400
    isplitl [TS410 TR410]
    · isplitl [TS410]
      · iexact TS410
      iexact TR410
    isplitl [TS420]
    · iexact TS420
    iexact TR420
  isplitl [HtoksAG]
  · iexact HtoksAG
  isplitl [PS300 PR300 PS301 PR301 PS310 PR310 PS311 PR311 PS320 PR320 PS321 PR321 PS400 PR400 PS410 PR410 PS420 PR420]
  · isplitl [PS300 PR300]
    · isplitl [PS300]
      · iexact PS300
      iexact PR300
    isplitl [PS301 PR301]
    · isplitl [PS301]
      · iexact PS301
      iexact PR301
    isplitl [PS310 PR310]
    · isplitl [PS310]
      · iexact PS310
      iexact PR310
    isplitl [PS311 PR311]
    · isplitl [PS311]
      · iexact PS311
      iexact PR311
    isplitl [PS320 PR320]
    · isplitl [PS320]
      · iexact PS320
      iexact PR320
    isplitl [PS321 PR321]
    · isplitl [PS321]
      · iexact PS321
      iexact PR321
    isplitl [PS400 PR400]
    · isplitl [PS400]
      · iexact PS400
      iexact PR400
    isplitl [PS410 PR410]
    · isplitl [PS410]
      · iexact PS410
      iexact PR410
    isplitl [PS420]
    · iexact PS420
    iexact PR420
  isplitl [HposAG]
  · iexact HposAG
  isplitl [VS000 VR000 VS001 VR001 VS010 VR010 VS011 VR011 VS020 VR020 VS021 VR021 VS100 VR100 VS101 VR101 VS110 VR110 VS111 VR111 VS120 VR120 VS121 VR121 VS200 VR200 VS201 VR201 VS210 VR210 VS211 VR211 VS220 VR220 VS221 VR221]
  · isplitl [VS000 VR000]
    · isplitl [VS000]
      · iexact VS000
      iexact VR000
    isplitl [VS001 VR001]
    · isplitl [VS001]
      · iexact VS001
      iexact VR001
    isplitl [VS010 VR010]
    · isplitl [VS010]
      · iexact VS010
      iexact VR010
    isplitl [VS011 VR011]
    · isplitl [VS011]
      · iexact VS011
      iexact VR011
    isplitl [VS020 VR020]
    · isplitl [VS020]
      · iexact VS020
      iexact VR020
    isplitl [VS021 VR021]
    · isplitl [VS021]
      · iexact VS021
      iexact VR021
    isplitl [VS100 VR100]
    · isplitl [VS100]
      · iexact VS100
      iexact VR100
    isplitl [VS101 VR101]
    · isplitl [VS101]
      · iexact VS101
      iexact VR101
    isplitl [VS110 VR110]
    · isplitl [VS110]
      · iexact VS110
      iexact VR110
    isplitl [VS111 VR111]
    · isplitl [VS111]
      · iexact VS111
      iexact VR111
    isplitl [VS120 VR120]
    · isplitl [VS120]
      · iexact VS120
      iexact VR120
    isplitl [VS121 VR121]
    · isplitl [VS121]
      · iexact VS121
      iexact VR121
    isplitl [VS200 VR200]
    · isplitl [VS200]
      · iexact VS200
      iexact VR200
    isplitl [VS201 VR201]
    · isplitl [VS201]
      · iexact VS201
      iexact VR201
    isplitl [VS210 VR210]
    · isplitl [VS210]
      · iexact VS210
      iexact VR210
    isplitl [VS211 VR211]
    · isplitl [VS211]
      · iexact VS211
      iexact VR211
    isplitl [VS220 VR220]
    · isplitl [VS220]
      · iexact VS220
      iexact VR220
    isplitl [VS221]
    · iexact VS221
    iexact VR221
  isplitl [CR300 CR301 CR310 CR311 CR320 CR321 CR400 CR410 CR420]
  · isplitl [CR300]
    · iexact CR300
    isplitl [CR301]
    · iexact CR301
    isplitl [CR310]
    · iexact CR310
    isplitl [CR311]
    · iexact CR311
    isplitl [CR320]
    · iexact CR320
    isplitl [CR321]
    · iexact CR321
    isplitl [CR400]
    · iexact CR400
    isplitl [CR410]
    · iexact CR410
    iexact CR420
  isplitl [CS300 CS301 CS310 CS311 CS320 CS321]
  · isplitl [CS300]
    · iexact CS300
    isplitl [CS301]
    · iexact CS301
    isplitl [CS310]
    · iexact CS310
    isplitl [CS311]
    · iexact CS311
    isplitl [CS320]
    · iexact CS320
    iexact CS321
  isplitl [HcredAG]
  · iexact HcredAG
  isplitl [Hidle]
  · iexact Hidle
  isplitl [HA]
  · iexact HA
  isplitl [HB]
  · iexact HB
  isplitl [Hown]
  · iexact Hown
  isplitl [Hacc]
  · iexists _
    isplitl [Hacc]
    · iexact Hacc
    ipureintro
    exact ⟨SegB2Val.kept_0 ct c YA YB laws fa g101 g111 g121 g200 g210 g220 g201 g211 g221 hfa hg101 hg111 hg121 hg200 hg210 hg220 hg201 hg211 hg221,
      SegB2Val.kept_1 ct c YA YB laws fa g101 g111 g121 g200 g210 g220 g201 g211 g221 hfa hg101 hg111 hg121 hg200 hg210 hg220 hg201 hg211 hg221,
      SegB2Val.kept_2 ct c YA YB laws fa g101 g111 g121 g200 g210 g220 g201 g211 g221 hfa hg101 hg111 hg121 hg200 hg210 hg220 hg201 hg211 hg221⟩
  isplitl [Hs1 Hrs1w Hrs2w Hs6 Hss1w Hss2w]
  · isplitl [Hs1]
    · iexact Hs1
    isplitl [Hrs1w]
    · iexact Hrs1w
    isplitl [Hrs2w]
    · iexact Hrs2w
    isplitl [Hs6]
    · iexact Hs6
    isplitl [Hss1w]
    · iexact Hss1w
    iexact Hss2w
  isplitl [Hs10]
  · iexact Hs10
  isplitl [LD400 LD410 LD420]
  · isplitl [LD400]
    · iexact LD400
    isplitl [LD410]
    · iexact LD410
    iexact LD420
  iexact HlandAG

end Cert.KernelIdeal.SegB2

end
-- ==== Proof.SegB3Val.lean ====
/-
  The values along the end of the summing phase: the accumulator's and the last stage's send buffer's
  contents step by step, what the three pieces sent carry, and what the result's own rows hold.
-/
import proofs.«900879_g7700000000000880_dist_matmul_gelu_kshard_i_m1024_n1024_k512_v7x_i32_bf16_1_alg».proof.Proof.SegBMid
import proofs.«900879_g7700000000000880_dist_matmul_gelu_kshard_i_m1024_n1024_k512_v7x_i32_bf16_1_alg».proof.Proof.Geo
import proofs.«900879_g7700000000000880_dist_matmul_gelu_kshard_i_m1024_n1024_k512_v7x_i32_bf16_1_alg».proof.Proof.Plumb
import proofs.«900879_g7700000000000880_dist_matmul_gelu_kshard_i_m1024_n1024_k512_v7x_i32_bf16_1_alg».proof.Proof.PayPoint
import proofs.«900879_g7700000000000880_dist_matmul_gelu_kshard_i_m1024_n1024_k512_v7x_i32_bf16_1_alg».proof.Proof.SegAValP
import proofs.«900879_g7700000000000880_dist_matmul_gelu_kshard_i_m1024_n1024_k512_v7x_i32_bf16_1_alg».proof.Proof.SegBValP
import proofs.«900879_g7700000000000880_dist_matmul_gelu_kshard_i_m1024_n1024_k512_v7x_i32_bf16_1_alg».proof.Proof.SegBCore

noncomputable section

namespace Cert.KernelIdeal.SegB3Val

open Cert.KernelIdeal Cert.KernelIdeal.Gen Cert.KernelIdeal.Proto Cert.KernelIdeal.Tab Cert.KernelIdeal.Held Cert.KernelIdeal.PayTab
open Cert.KernelIdeal.Laws
open Idealize.ShloMosaic Idealize.ShloMosaic.TcCoe Idealize.SL.Sem

variable {F : FTy → Type} [FloatOps F]

/-! ## The rectangles the segment reads and writes -/

abbrev RA68 (c : Dev nD) : Rect S1024x1024 := Rect.unit (s := S1024x1024) (k0_off68 c) S32x384.size (k0_off68_inb c)
abbrev RR69 (c : Dev nD) : Rect S64x1024 := Rect.unit (s := S64x1024) (k0_off69 c) S32x384.size (k0_off69_inb c)
abbrev RA74 (c : Dev nD) : Rect S1024x1024 := Rect.unit (s := S1024x1024) (k0_off74 c) S32x384.size (k0_off74_inb c)
abbrev RR75 (c : Dev nD) : Rect S64x1024 := Rect.unit (s := S64x1024) (k0_off75 c) S32x384.size (k0_off75_inb c)
abbrev RC4b0 : Rect S32x1024 := Rect.unit (s := S32x1024) ![0, 0] S32x384.size inb_S32x1024_S32x384_0_0
abbrev RA70 (c : Dev nD) : Rect S1024x1024 := Rect.unit (s := S1024x1024) (k0_off70 c) S32x384.size (k0_off70_inb c)
abbrev RR71 (c : Dev nD) : Rect S64x1024 := Rect.unit (s := S64x1024) (k0_off71 c) S32x384.size (k0_off71_inb c)
abbrev RA76 (c : Dev nD) : Rect S1024x1024 := Rect.unit (s := S1024x1024) (k0_off76 c) S32x384.size (k0_off76_inb c)
abbrev RR77 (c : Dev nD) : Rect S64x1024 := Rect.unit (s := S64x1024) (k0_off77 c) S32x384.size (k0_off77_inb c)
abbrev RC4b1 : Rect S32x1024 := Rect.unit (s := S32x1024) ![0, 384] S32x384.size inb_S32x1024_S32x384_0_384
abbrev RA72 (c : Dev nD) : Rect S1024x1024 := Rect.unit (s := S1024x1024) (k0_off72 c) S32x256.size (k0_off72_inb c)
abbrev RR73 (c : Dev nD) : Rect S64x1024 := Rect.unit (s := S64x1024) (k0_off73 c) S32x256.size (k0_off73_inb c)
abbrev RA78 (c : Dev nD) : Rect S1024x1024 := Rect.unit (s := S1024x1024) (k0_off78 c) S32x256.size (k0_off78_inb c)
abbrev RR79 (c : Dev nD) : Rect S64x1024 := Rect.unit (s := S64x1024) (k0_off79 c) S32x256.size (k0_off79_inb c)
abbrev RC4b2 : Rect S32x1024 := Rect.unit (s := S32x1024) ![0, 768] S32x256.size inb_S32x1024_S32x256_0_768

/-! ## One addition, one rounding, one result -/

/-- The accumulator after the partner's rows of the fourth stage, column block 0, are added on the rows given away. -/
def addT0 (c : Dev nD) (a : Buf (Elt F) ((c : Thread nD τ).loc cc0_scratch0)) (g : Buf (Elt F) ((c : Thread nD τ).loc cc0_scratch4)) : Buf (Elt F) ((c : Thread nD τ).loc cc0_scratch0) :=
  ((Memref.whole cc0_scratch0 : Memref sig .tc .vmem S1024x1024 .f32).access (RA68 c)).write (Elt F) a
    (k0_pay38 ((Memref.whole cc0_scratch0 : Memref sig .tc .vmem S1024x1024 .f32).view.readAt (Elt F) (RA68 c).toLoadRect a) ((Memref.whole cc0_scratch4 : Memref sig .tc .vmem S64x1024 .bf16).view.readAt (Elt F) (RR69 c).toLoadRect g)) Finset.univ
/-- The last stage's send buffer after column block 0's rows to give away are rounded into it. -/
def sendQ0 (c : Dev nD) (a : Buf (Elt F) ((c : Thread nD τ).loc cc0_scratch0)) (g10 : Buf (Elt F) ((c : Thread nD τ).loc cc0_scratch10)) : Buf (Elt F) ((c : Thread nD τ).loc cc0_scratch10) :=
  ((Memref.whole cc0_scratch10 : Memref sig .tc .vmem S32x1024 .bf16).access RC4b0).write (Elt F) g10 (k0_pay39 ((Memref.whole cc0_scratch0 : Memref sig .tc .vmem S1024x1024 .f32).view.readAt (Elt F) (RA68 c).toLoadRect a)) Finset.univ
/-- The accumulator after the partner's rows of the fourth stage, column block 0, are added on the rows kept. -/
def addM0 (c : Dev nD) (a : Buf (Elt F) ((c : Thread nD τ).loc cc0_scratch0)) (g : Buf (Elt F) ((c : Thread nD τ).loc cc0_scratch4)) : Buf (Elt F) ((c : Thread nD τ).loc cc0_scratch0) :=
  ((Memref.whole cc0_scratch0 : Memref sig .tc .vmem S1024x1024 .f32).access (RA74 c)).write (Elt F) a
    (k0_pay44 ((Memref.whole cc0_scratch0 : Memref sig .tc .vmem S1024x1024 .f32).view.readAt (Elt F) (RA74 c).toLoadRect a) ((Memref.whole cc0_scratch4 : Memref sig .tc .vmem S64x1024 .bf16).view.readAt (Elt F) (RR75 c).toLoadRect g)) Finset.univ
/-- The result's own rows of column block 0: the last partner's rows added, the pointwise function applied. -/
def outK0 (c : Dev nD) (a : Buf (Elt F) ((c : Thread nD τ).loc cc0_scratch0)) (g : Buf (Elt F) ((c : Thread nD τ).loc cc0_scratch5)) (o : Buf (Elt F) ((c : Thread nD τ).loc cc0_stg2_0)) : Buf (Elt F) ((c : Thread nD τ).loc cc0_stg2_0) :=
  ((Memref.whole cc0_stg2_0 : Memref sig .tc .vmem S1024x1024 .bf16).access (RA74 c)).write (Elt F) o
    (k0_pay47 ((Memref.whole cc0_scratch0 : Memref sig .tc .vmem S1024x1024 .f32).view.readAt (Elt F) (RA74 c).toLoadRect a) ((Memref.whole cc0_scratch5 : Memref sig .tc .vmem S32x1024 .bf16).view.readAt (Elt F) RC4b0.toLoadRect g)) Finset.univ

/-- The accumulator after the partner's rows of the fourth stage, column block 1, are added on the rows given away. -/
def addT1 (c : Dev nD) (a : Buf (Elt F) ((c : Thread nD τ).loc cc0_scratch0)) (g : Buf (Elt F) ((c : Thread nD τ).loc cc0_scratch4)) : Buf (Elt F) ((c : Thread nD τ).loc cc0_scratch0) :=
  ((Memref.whole cc0_scratch0 : Memref sig .tc .vmem S1024x1024 .f32).access (RA70 c)).write (Elt F) a
    (k0_pay40 ((Memref.whole cc0_scratch0 : Memref sig .tc .vmem S1024x1024 .f32).view.readAt (Elt F) (RA70 c).toLoadRect a) ((Memref.whole cc0_scratch4 : Memref sig .tc .vmem S64x1024 .bf16).view.readAt (Elt F) (RR71 c).toLoadRect g)) Finset.univ
/-- The last stage's send buffer after column block 1's rows to give away are rounded into it. -/
def sendQ1 (c : Dev nD) (a : Buf (Elt F) ((c : Thread nD τ).loc cc0_scratch0)) (g10 : Buf (Elt F) ((c : Thread nD τ).loc cc0_scratch10)) : Buf (Elt F) ((c : Thread nD τ).loc cc0_scratch10) :=
  ((Memref.whole cc0_scratch10 : Memref sig .tc .vmem S32x1024 .bf16).access RC4b1).write (Elt F) g10 (k0_pay41 ((Memref.whole cc0_scratch0 : Memref sig .tc .vmem S1024x1024 .f32).view.readAt (Elt F) (RA70 c).toLoadRect a)) Finset.univ
/-- The accumulator after the partner's rows of the fourth stage, column block 1, are added on the rows kept. -/
def addM1 (c : Dev nD) (a : Buf (Elt F) ((c : Thread nD τ).loc cc0_scratch0)) (g : Buf (Elt F) ((c : Thread nD τ).loc cc0_scratch4)) : Buf (Elt F) ((c : Thread nD τ).loc cc0_scratch0) :=
  ((Memref.whole cc0_scratch0 : Memref sig .tc .vmem S1024x1024 .f32).access (RA76 c)).write (Elt F) a
    (k0_pay45 ((Memref.whole cc0_scratch0 : Memref sig .tc .vmem S1024x1024 .f32).view.readAt (Elt F) (RA76 c).toLoadRect a) ((Memref.whole cc0_scratch4 : Memref sig .tc .vmem S64x1024 .bf16).view.readAt (Elt F) (RR77 c).toLoadRect g)) Finset.univ
/-- The result's own rows of column block 1: the last partner's rows added, the pointwise function applied. -/
def outK1 (c : Dev nD) (a : Buf (Elt F) ((c : Thread nD τ).loc cc0_scratch0)) (g : Buf (Elt F) ((c : Thread nD τ).loc cc0_scratch5)) (o : Buf (Elt F) ((c : Thread nD τ).loc cc0_stg2_0)) : Buf (Elt F) ((c : Thread nD τ).loc cc0_stg2_0) :=
  ((Memref.whole cc0_stg2_0 : Memref sig .tc .vmem S1024x1024 .bf16).access (RA76 c)).write (Elt F) o
    (k0_pay48 ((Memref.whole cc0_scratch0 : Memref sig .tc .vmem S1024x1024 .f32).view.readAt (Elt F) (RA76 c).toLoadRect a) ((Memref.whole cc0_scratch5 : Memref sig .tc .vmem S32x1024 .bf16).view.readAt (Elt F) RC4b1.toLoadRect g)) Finset.univ

/-- The accumulator after the partner's rows of the fourth stage, column block 2, are added on the rows given away. -/
def addT2 (c : Dev nD) (a : Buf (Elt F) ((c : Thread nD τ).loc cc0_scratch0)) (g : Buf (Elt F) ((c : Thread nD τ).loc cc0_scratch4)) : Buf (Elt F) ((c : Thread nD τ).loc cc0_scratch0) :=
  ((Memref.whole cc0_scratch0 : Memref sig .tc .vmem S1024x1024 .f32).access (RA72 c)).write (Elt F) a
    (k0_pay42 ((Memref.whole cc0_scratch0 : Memref sig .tc .vmem S1024x1024 .f32).view.readAt (Elt F) (RA72 c).toLoadRect a) ((Memref.whole cc0_scratch4 : Memref sig .tc .vmem S64x1024 .bf16).view.readAt (Elt F) (RR73 c).toLoadRect g)) Finset.univ
/-- The last stage's send buffer after column block 2's rows to give away are rounded into it. -/
def sendQ2 (c : Dev nD) (a : Buf (Elt F) ((c : Thread nD τ).loc cc0_scratch0)) (g10 : Buf (Elt F) ((c : Thread nD τ).loc cc0_scratch10)) : Buf (Elt F) ((c : Thread nD τ).loc cc0_scratch10) :=
  ((Memref.whole cc0_scratch10 : Memref sig .tc .vmem S32x1024 .bf16).access RC4b2).write (Elt F) g10 (k0_pay43 ((Memref.whole cc0_scratch0 : Memref sig .tc .vmem S1024x1024 .f32).view.readAt (Elt F) (RA72 c).toLoadRect a)) Finset.univ
/-- The accumulator after the partner's rows of the fourth stage, column block 2, are added on the rows kept. -/
def addM2 (c : Dev nD) (a : Buf (Elt F) ((c : Thread nD τ).loc cc0_scratch0)) (g : Buf (Elt F) ((c : Thread nD τ).loc cc0_scratch4)) : Buf (Elt F) ((c : Thread nD τ).loc cc0_scratch0) :=
  ((Memref.whole cc0_scratch0 : Memref sig .tc .vmem S1024x1024 .f32).access (RA78 c)).write (Elt F) a
    (k0_pay46 ((Memref.whole cc0_scratch0 : Memref sig .tc .vmem S1024x1024 .f32).view.readAt (Elt F) (RA78 c).toLoadRect a) ((Memref.whole cc0_scratch4 : Memref sig .tc .vmem S64x1024 .bf16).view.readAt (Elt F) (RR79 c).toLoadRect g)) Finset.univ
/-- The result's own rows of column block 2: the last partner's rows added, the pointwise function applied. -/
def outK2 (c : Dev nD) (a : Buf (Elt F) ((c : Thread nD τ).loc cc0_scratch0)) (g : Buf (Elt F) ((c : Thread nD τ).loc cc0_scratch5)) (o : Buf (Elt F) ((c : Thread nD τ).loc cc0_stg2_0)) : Buf (Elt F) ((c : Thread nD τ).loc cc0_stg2_0) :=
  ((Memref.whole cc0_stg2_0 : Memref sig .tc .vmem S1024x1024 .bf16).access (RA78 c)).write (Elt F) o
    (k0_pay49 ((Memref.whole cc0_scratch0 : Memref sig .tc .vmem S1024x1024 .f32).view.readAt (Elt F) (RA78 c).toLoadRect a) ((Memref.whole cc0_scratch5 : Memref sig .tc .vmem S32x1024 .bf16).view.readAt (Elt F) RC4b2.toLoadRect g)) Finset.univ

/-- The accumulator's contents along the segment, from its contents `fa` at entry and the rows received. -/
def bcc1 (c : Dev nD) (fa : Buf (Elt F) ((c : Thread nD τ).loc cc0_scratch0)) (g300 : Buf (Elt F) ((c : Thread nD τ).loc cc0_scratch4)) : Buf (Elt F) ((c : Thread nD τ).loc cc0_scratch0) := addT0 c fa g300
def bcc2 (c : Dev nD) (fa : Buf (Elt F) ((c : Thread nD τ).loc cc0_scratch0)) (g300 g310 : Buf (Elt F) ((c : Thread nD τ).loc cc0_scratch4)) : Buf (Elt F) ((c : Thread nD τ).loc cc0_scratch0) := addT1 c (bcc1 c fa g300) g310
def bcc3 (c : Dev nD) (fa : Buf (Elt F) ((c : Thread nD τ).loc cc0_scratch0)) (g300 g310 g320 : Buf (Elt F) ((c : Thread nD τ).loc cc0_scratch4)) : Buf (Elt F) ((c : Thread nD τ).loc cc0_scratch0) := addT2 c (bcc2 c fa g300 g310) g320
def bcc4 (c : Dev nD) (fa : Buf (Elt F) ((c : Thread nD τ).loc cc0_scratch0)) (g300 g310 g320 g301 : Buf (Elt F) ((c : Thread nD τ).loc cc0_scratch4)) : Buf (Elt F) ((c : Thread nD τ).loc cc0_scratch0) := addM0 c (bcc3 c fa g300 g310 g320) g301
def bcc5 (c : Dev nD) (fa : Buf (Elt F) ((c : Thread nD τ).loc cc0_scratch0)) (g300 g310 g320 g301 g311 : Buf (Elt F) ((c : Thread nD τ).loc cc0_scratch4)) : Buf (Elt F) ((c : Thread nD τ).loc cc0_scratch0) := addM1 c (bcc4 c fa g300 g310 g320 g301) g311
def bcc6 (c : Dev nD) (fa : Buf (Elt F) ((c : Thread nD τ).loc cc0_scratch0)) (g300 g310 g320 g301 g311 g321 : Buf (Elt F) ((c : Thread nD τ).loc cc0_scratch4)) : Buf (Elt F) ((c : Thread nD τ).loc cc0_scratch0) := addM2 c (bcc5 c fa g300 g310 g320 g301 g311) g321

variable (ct : Contract F) (c : Dev nD) (YA : S1024x512.Idx → F .f32) (YB : S512x1024.Idx → F .f32)

/-! ## The steps of the segment, one column block at a time -/

/-- What a store into the accumulator leaves untouched: right contents on a rectangle that misses the stored one on some axis stay right. -/
theorem fr (lvl : ℕ) {offW szW offS szS : Fin 2 → ℕ} {rW qW rS qS : ℕ} (inbW : ∀ a, offW a + szW a ≤ S1024x1024.size a) (heqW : offW = ![rW, qW])
    (w : (Rect.unit (s := S1024x1024) offW szW inbW).shape.Idx → F .f32) (inbS : ∀ a, offS a + szS a ≤ S1024x1024.size a) (heqS : offS = ![rS, qS])
    (a : S1024x1024.Idx → F .f32)
    (h : ∀ i ∈ ((View.whole cc0_scratch0).slice (Rect.unit (s := S1024x1024) offS szS inbS)).set, ct.okAcc lvl c (i 0).val (i 1).val (a i))
    (hd : (rS + szS 0 ≤ rW ∨ rW + szW 0 ≤ rS) ∨ (qS + szS 1 ≤ qW ∨ qW + szW 1 ≤ qS)) :
    ∀ i ∈ ((View.whole cc0_scratch0).slice (Rect.unit (s := S1024x1024) offS szS inbS)).set,
      ct.okAcc lvl c (i 0).val (i 1).val ((((View.whole cc0_scratch0).slice (Rect.unit (s := S1024x1024) offW szW inbW)).write (Elt F) a w Finset.univ) i) :=
  SegBCore.keep_of (Val := Elt F) cc0_scratch0 a (fun i v => ct.okAcc lvl c (i 0).val (i 1).val v) inbW heqW w inbS heqS inbS heqS h
    (fun _ => ⟨Nat.le_refl _, Nat.le_refl _⟩) (hd.elim (fun h0 => ⟨0, h0⟩) (fun h1 => ⟨1, h1⟩))

/-- Column block 0: the rows handed on at the last stage, after the stage-3 partner's first piece is added and the sum rounded, are right for the send buffer. -/
theorem stepT0 (laws : Laws ct c YA YB) (a : S1024x1024.Idx → F .f32) (g : S64x1024.Idx → F .bf16)
    (ha : ∀ i ∈ ((View.whole cc0_scratch0).slice (Rect.unit (s := S1024x1024) (k0_off62 c) S64x384.size (k0_off62_inb c))).set, ct.okAcc 3 c (i 0).val (i 1).val (a i))
    (hg : ∀ i ∈ (dst_rs_3_0_0 (peer 0 3 c)).view.set, pRS ct 3 c (sh := S64x1024) i (g i)) :
    ∀ j : S32x384.Idx, ct.okSS 4 c (j 0).val (0 + (j 1).val)
      (k0_pay39 ((Memref.whole cc0_scratch0 : Memref sig .tc .vmem S1024x1024 .f32).view.readAt (Elt F) (RA68 c).toLoadRect (addT0 c a g)) j) := by
  have hb := bit_le_one 0 4 c
  have hpeer : k0_off52 (peer 0 3 c) = ![(1 - bit 0 4 c) * 32, 0] := by
    rw [Geo.off52_eq, bit_peer_succ 0 3 4 c rfl]
  have hY : ∀ j : S32x384.Idx, ct.okSS 3 (peer 0 3 c) ((1 - bit 0 4 c) * half 4 + (j 0).val) (0 + (j 1).val)
      ((Memref.whole cc0_scratch4 : Memref sig .tc .vmem S64x1024 .bf16).view.readAt (Elt F) (Rect.unit (s := S64x1024) (k0_off69 c) S32x384.size (k0_off69_inb c)).toLoadRect g j) := fun j => by
    obtain ⟨y, hy, hP⟩ := SegBCore.load_sub_ok (Val := Elt F) cc0_scratch4 g (fun i v => pRS ct 3 c (sh := S64x1024) i v)
      (k0_off52_inb (peer 0 3 c)) hpeer hg (k0_off69_inb c) (Geo.off69_eq c) (fun a => ⟨Nat.le_refl _, Nat.le_refl _⟩) j
    have hj1 : (j 1).val < 384 := (j 1).isLt
    rw [SegBCore.half_4]
    exact SegBCore.pRS_to_okSS ct 3 0 c rfl y _ _ _ (hy 0) (hy 1) (SegAValP.blk_of_lt (by omega)) hP
  have hA : ∀ i ∈ ((View.whole cc0_scratch0).slice (Rect.unit (s := S1024x1024) (k0_off68 c) S32x384.size (k0_off68_inb c))).set, ct.okAcc 3 c (i 0).val (i 1).val (a i) := fun i hi => ha i (by
    have hm := (Plumb.mem_slice_unit_whole cc0_scratch0 (k0_off68_inb c) (Geo.off68_eq c) i).mp hi
    exact (Plumb.mem_slice_unit_whole cc0_scratch0 (k0_off62_inb c) (Geo.off62_eq c) i).mpr (Fin.forall_fin_two.mpr
      ⟨by have h' : lo 0 c 4 + (1 - bit 0 4 c) * 32 ≤ (i 0).val ∧ (i 0).val < lo 0 c 4 + (1 - bit 0 4 c) * 32 + 32 := hm 0
          show lo 0 c 4 ≤ (i 0).val ∧ (i 0).val < lo 0 c 4 + 64
          omega, hm 1⟩))
  unfold addT0
  exact SegBCore.ss_core ct c YA YB laws 3 4 (by decide) rfl 0 (k0_off68_inb c)
    ((Geo.off68_eq c).trans (by show _ = ![lo 0 c 4 + (1 - bit 0 4 c) * half 4, 0]; rw [SegBCore.half_4]))
    (fun q h1 h2 => SegAValP.blk_of_lt (by have h2' : q < 0 + 384 := h2; omega)) a hA _ hY _
    (fun j => PayPoint.pay38_at _ _ j) _ (fun j => PayPoint.pay39_at _ j)

theorem frT0 (lvl : ℕ) {offS szS : Fin 2 → ℕ} {rS qS : ℕ} (inbS : ∀ a, offS a + szS a ≤ S1024x1024.size a) (heqS : offS = ![rS, qS])
    (a : S1024x1024.Idx → F .f32) (g : S64x1024.Idx → F .bf16)
    (h : ∀ i ∈ ((View.whole cc0_scratch0).slice (Rect.unit (s := S1024x1024) offS szS inbS)).set, ct.okAcc lvl c (i 0).val (i 1).val (a i))
    (hd : (rS + szS 0 ≤ lo 0 c 4 + (1 - bit 0 4 c) * 32 ∨ lo 0 c 4 + (1 - bit 0 4 c) * 32 + 32 ≤ rS) ∨ (qS + szS 1 ≤ 0 ∨ 0 + 384 ≤ qS)) :
    ∀ i ∈ ((View.whole cc0_scratch0).slice (Rect.unit (s := S1024x1024) offS szS inbS)).set, ct.okAcc lvl c (i 0).val (i 1).val (addT0 c a g i) := by
  unfold addT0
  exact fr ct c lvl (k0_off68_inb c) (Geo.off68_eq c) _ inbS heqS a h hd

/-- Column block 0: adding the second piece of the stage-3 partner to the rows kept brings them to the sum over sixteen devices. -/
theorem stepM0 (laws : Laws ct c YA YB) (a : S1024x1024.Idx → F .f32) (g : S64x1024.Idx → F .bf16)
    (ha : ∀ i ∈ ((View.whole cc0_scratch0).slice (Rect.unit (s := S1024x1024) (k0_off74 c) S32x384.size (k0_off74_inb c))).set, ct.okAcc 3 c (i 0).val (i 1).val (a i))
    (hg : ∀ i ∈ (dst_rs_3_0_1 (peer 0 3 c)).view.set, pRS ct 3 c (sh := S64x1024) i (g i)) :
    ∀ i ∈ ((View.whole cc0_scratch0).slice (Rect.unit (s := S1024x1024) (k0_off74 c) S32x384.size (k0_off74_inb c))).set, ct.okAcc 4 c (i 0).val (i 1).val (addM0 c a g i) := by
  have hpeer : k0_off53 (peer 0 3 c) = ![bit 0 4 c * 32, 0] := by
    rw [Geo.off53_eq, bit_peer_succ 0 3 4 c rfl]
  have hY : ∀ j : S32x384.Idx, ct.okSS 3 (peer 0 3 c) (bit 0 4 c * half 4 + (j 0).val) (0 + (j 1).val)
      ((Memref.whole cc0_scratch4 : Memref sig .tc .vmem S64x1024 .bf16).view.readAt (Elt F) (Rect.unit (s := S64x1024) (k0_off75 c) S32x384.size (k0_off75_inb c)).toLoadRect g j) := fun j => by
    obtain ⟨y, hy, hP⟩ := SegBCore.load_sub_ok (Val := Elt F) cc0_scratch4 g (fun i v => pRS ct 3 c (sh := S64x1024) i v)
      (k0_off53_inb (peer 0 3 c)) hpeer hg (k0_off75_inb c) (Geo.off75_eq c) (fun a => ⟨Nat.le_refl _, Nat.le_refl _⟩) j
    have hj1 : (j 1).val < 384 := (j 1).isLt
    rw [SegBCore.half_4]
    exact SegBCore.pRS_to_okSS ct 3 0 c rfl y _ _ _ (hy 0) (hy 1) (SegAValP.blk_of_lt (by omega)) hP
  unfold addM0
  exact SegBCore.keep_core ct c YA YB laws 3 4 (by decide) rfl 0 (k0_off74_inb c)
    ((Geo.off74_eq c).trans (by show ![lo 0 c 5, 0] = ![lo 0 c 4 + bit 0 4 c * half 4, 0]; rw [show lo 0 c 5 = lo 0 c 4 + bit 0 4 c * half 4 from SegBCore.lo_succ 0 c 4]))
    (fun q h1 h2 => SegAValP.blk_of_lt (by have h2' : q < 0 + 384 := h2; omega)) a ha _ hY _ (fun j => PayPoint.pay44_at _ _ j)

theorem frM0 (lvl : ℕ) {offS szS : Fin 2 → ℕ} {rS qS : ℕ} (inbS : ∀ a, offS a + szS a ≤ S1024x1024.size a) (heqS : offS = ![rS, qS])
    (a : S1024x1024.Idx → F .f32) (g : S64x1024.Idx → F .bf16)
    (h : ∀ i ∈ ((View.whole cc0_scratch0).slice (Rect.unit (s := S1024x1024) offS szS inbS)).set, ct.okAcc lvl c (i 0).val (i 1).val (a i))
    (hd : (rS + szS 0 ≤ lo 0 c 5 ∨ lo 0 c 5 + 32 ≤ rS) ∨ (qS + szS 1 ≤ 0 ∨ 0 + 384 ≤ qS)) :
    ∀ i ∈ ((View.whole cc0_scratch0).slice (Rect.unit (s := S1024x1024) offS szS inbS)).set, ct.okAcc lvl c (i 0).val (i 1).val (addM0 c a g i) := by
  unfold addM0
  exact fr ct c lvl (k0_off74_inb c) (Geo.off74_eq c) _ inbS heqS a h hd

/-- Column block 1: the rows handed on at the last stage, after the stage-3 partner's first piece is added and the sum rounded, are right for the send buffer. -/
theorem stepT1 (laws : Laws ct c YA YB) (a : S1024x1024.Idx → F .f32) (g : S64x1024.Idx → F .bf16)
    (ha : ∀ i ∈ ((View.whole cc0_scratch0).slice (Rect.unit (s := S1024x1024) (k0_off64 c) S64x384.size (k0_off64_inb c))).set, ct.okAcc 3 c (i 0).val (i 1).val (a i))
    (hg : ∀ i ∈ (dst_rs_3_1_0 (peer 1 3 c)).view.set, pRS ct 3 c (sh := S64x1024) i (g i)) :
    ∀ j : S32x384.Idx, ct.okSS 4 c (j 0).val (384 + (j 1).val)
      (k0_pay41 ((Memref.whole cc0_scratch0 : Memref sig .tc .vmem S1024x1024 .f32).view.readAt (Elt F) (RA70 c).toLoadRect (addT1 c a g)) j) := by
  have hb := bit_le_one 1 4 c
  have hpeer : k0_off56 (peer 1 3 c) = ![(1 - bit 1 4 c) * 32, 384] := by
    rw [Geo.off56_eq, bit_peer_succ 1 3 4 c rfl]
  have hY : ∀ j : S32x384.Idx, ct.okSS 3 (peer 1 3 c) ((1 - bit 1 4 c) * half 4 + (j 0).val) (384 + (j 1).val)
      ((Memref.whole cc0_scratch4 : Memref sig .tc .vmem S64x1024 .bf16).view.readAt (Elt F) (Rect.unit (s := S64x1024) (k0_off71 c) S32x384.size (k0_off71_inb c)).toLoadRect g j) := fun j => by
    obtain ⟨y, hy, hP⟩ := SegBCore.load_sub_ok (Val := Elt F) cc0_scratch4 g (fun i v => pRS ct 3 c (sh := S64x1024) i v)
      (k0_off56_inb (peer 1 3 c)) hpeer hg (k0_off71_inb c) (Geo.off71_eq c) (fun a => ⟨Nat.le_refl _, Nat.le_refl _⟩) j
    have hj1 : (j 1).val < 384 := (j 1).isLt
    rw [SegBCore.half_4]
    exact SegBCore.pRS_to_okSS ct 3 1 c rfl y _ _ _ (hy 0) (hy 1) (SegAValP.blk_of_mid (by omega) (by omega)) hP
  have hA : ∀ i ∈ ((View.whole cc0_scratch0).slice (Rect.unit (s := S1024x1024) (k0_off70 c) S32x384.size (k0_off70_inb c))).set, ct.okAcc 3 c (i 0).val (i 1).val (a i) := fun i hi => ha i (by
    have hm := (Plumb.mem_slice_unit_whole cc0_scratch0 (k0_off70_inb c) (Geo.off70_eq c) i).mp hi
    exact (Plumb.mem_slice_unit_whole cc0_scratch0 (k0_off64_inb c) (Geo.off64_eq c) i).mpr (Fin.forall_fin_two.mpr
      ⟨by have h' : lo 1 c 4 + (1 - bit 1 4 c) * 32 ≤ (i 0).val ∧ (i 0).val < lo 1 c 4 + (1 - bit 1 4 c) * 32 + 32 := hm 0
          show lo 1 c 4 ≤ (i 0).val ∧ (i 0).val < lo 1 c 4 + 64
          omega, hm 1⟩))
  unfold addT1
  exact SegBCore.ss_core ct c YA YB laws 3 4 (by decide) rfl 1 (k0_off70_inb c)
    ((Geo.off70_eq c).trans (by show _ = ![lo 1 c 4 + (1 - bit 1 4 c) * half 4, 384]; rw [SegBCore.half_4]))
    (fun q h1 h2 => SegAValP.blk_of_mid (by have h2' : q < 384 + 384 := h2; omega) (by have h2' : q < 384 + 384 := h2; omega)) a hA _ hY _
    (fun j => PayPoint.pay40_at _ _ j) _ (fun j => PayPoint.pay41_at _ j)

theorem frT1 (lvl : ℕ) {offS szS : Fin 2 → ℕ} {rS qS : ℕ} (inbS : ∀ a, offS a + szS a ≤ S1024x1024.size a) (heqS : offS = ![rS, qS])
    (a : S1024x1024.Idx → F .f32) (g : S64x1024.Idx → F .bf16)
    (h : ∀ i ∈ ((View.whole cc0_scratch0).slice (Rect.unit (s := S1024x1024) offS szS inbS)).set, ct.okAcc lvl c (i 0).val (i 1).val (a i))
    (hd : (rS + szS 0 ≤ lo 1 c 4 + (1 - bit 1 4 c) * 32 ∨ lo 1 c 4 + (1 - bit 1 4 c) * 32 + 32 ≤ rS) ∨ (qS + szS 1 ≤ 384 ∨ 384 + 384 ≤ qS)) :
    ∀ i ∈ ((View.whole cc0_scratch0).slice (Rect.unit (s := S1024x1024) offS szS inbS)).set, ct.okAcc lvl c (i 0).val (i 1).val (addT1 c a g i) := by
  unfold addT1
  exact fr ct c lvl (k0_off70_inb c) (Geo.off70_eq c) _ inbS heqS a h hd

/-- Column block 1: adding the second piece of the stage-3 partner to the rows kept brings them to the sum over sixteen devices. -/
theorem stepM1 (laws : Laws ct c YA YB) (a : S1024x1024.Idx → F .f32) (g : S64x1024.Idx → F .bf16)
    (ha : ∀ i ∈ ((View.whole cc0_scratch0).slice (Rect.unit (s := S1024x1024) (k0_off76 c) S32x384.size (k0_off76_inb c))).set, ct.okAcc 3 c (i 0).val (i 1).val (a i))
    (hg : ∀ i ∈ (dst_rs_3_1_1 (peer 1 3 c)).view.set, pRS ct 3 c (sh := S64x1024) i (g i)) :
    ∀ i ∈ ((View.whole cc0_scratch0).slice (Rect.unit (s := S1024x1024) (k0_off76 c) S32x384.size (k0_off76_inb c))).set, ct.okAcc 4 c (i 0).val (i 1).val (addM1 c a g i) := by
  have hpeer : k0_off57 (peer 1 3 c) = ![bit 1 4 c * 32, 384] := by
    rw [Geo.off57_eq, bit_peer_succ 1 3 4 c rfl]
  have hY : ∀ j : S32x384.Idx, ct.okSS 3 (peer 1 3 c) (bit 1 4 c * half 4 + (j 0).val) (384 + (j 1).val)
      ((Memref.whole cc0_scratch4 : Memref sig .tc .vmem S64x1024 .bf16).view.readAt (Elt F) (Rect.unit (s := S64x1024) (k0_off77 c) S32x384.size (k0_off77_inb c)).toLoadRect g j) := fun j => by
    obtain ⟨y, hy, hP⟩ := SegBCore.load_sub_ok (Val := Elt F) cc0_scratch4 g (fun i v => pRS ct 3 c (sh := S64x1024) i v)
      (k0_off57_inb (peer 1 3 c)) hpeer hg (k0_off77_inb c) (Geo.off77_eq c) (fun a => ⟨Nat.le_refl _, Nat.le_refl _⟩) j
    have hj1 : (j 1).val < 384 := (j 1).isLt
    rw [SegBCore.half_4]
    exact SegBCore.pRS_to_okSS ct 3 1 c rfl y _ _ _ (hy 0) (hy 1) (SegAValP.blk_of_mid (by omega) (by omega)) hP
  unfold addM1
  exact SegBCore.keep_core ct c YA YB laws 3 4 (by decide) rfl 1 (k0_off76_inb c)
    ((Geo.off76_eq c).trans (by show ![lo 1 c 5, 384] = ![lo 1 c 4 + bit 1 4 c * half 4, 384]; rw [show lo 1 c 5 = lo 1 c 4 + bit 1 4 c * half 4 from SegBCore.lo_succ 1 c 4]))
    (fun q h1 h2 => SegAValP.blk_of_mid (by have h2' : q < 384 + 384 := h2; omega) (by have h2' : q < 384 + 384 := h2; omega)) a ha _ hY _ (fun j => PayPoint.pay45_at _ _ j)

theorem frM1 (lvl : ℕ) {offS szS : Fin 2 → ℕ} {rS qS : ℕ} (inbS : ∀ a, offS a + szS a ≤ S1024x1024.size a) (heqS : offS = ![rS, qS])
    (a : S1024x1024.Idx → F .f32) (g : S64x1024.Idx → F .bf16)
    (h : ∀ i ∈ ((View.whole cc0_scratch0).slice (Rect.unit (s := S1024x1024) offS szS inbS)).set, ct.okAcc lvl c (i 0).val (i 1).val (a i))
    (hd : (rS + szS 0 ≤ lo 1 c 5 ∨ lo 1 c 5 + 32 ≤ rS) ∨ (qS + szS 1 ≤ 384 ∨ 384 + 384 ≤ qS)) :
    ∀ i ∈ ((View.whole cc0_scratch0).slice (Rect.unit (s := S1024x1024) offS szS inbS)).set, ct.okAcc lvl c (i 0).val (i 1).val (addM1 c a g i) := by
  unfold addM1
  exact fr ct c lvl (k0_off76_inb c) (Geo.off76_eq c) _ inbS heqS a h hd

/-- Column block 2: the rows handed on at the last stage, after the stage-3 partner's first piece is added and the sum rounded, are right for the send buffer. -/
theorem stepT2 (laws : Laws ct c YA YB) (a : S1024x1024.Idx → F .f32) (g : S64x1024.Idx → F .bf16)
    (ha : ∀ i ∈ ((View.whole cc0_scratch0).slice (Rect.unit (s := S1024x1024) (k0_off66 c) S64x256.size (k0_off66_inb c))).set, ct.okAcc 3 c (i 0).val (i 1).val (a i))
    (hg : ∀ i ∈ (dst_rs_3_2_0 (peer 2 3 c)).view.set, pRS ct 3 c (sh := S64x1024) i (g i)) :
    ∀ j : S32x256.Idx, ct.okSS 4 c (j 0).val (768 + (j 1).val)
      (k0_pay43 ((Memref.whole cc0_scratch0 : Memref sig .tc .vmem S1024x1024 .f32).view.readAt (Elt F) (RA72 c).toLoadRect (addT2 c a g)) j) := by
  have hb := bit_le_one 2 4 c
  have hpeer : k0_off60 (peer 2 3 c) = ![(1 - bit 2 4 c) * 32, 768] := by
    rw [Geo.off60_eq, bit_peer_succ 2 3 4 c rfl]
  have hY : ∀ j : S32x256.Idx, ct.okSS 3 (peer 2 3 c) ((1 - bit 2 4 c) * half 4 + (j 0).val) (768 + (j 1).val)
      ((Memref.whole cc0_scratch4 : Memref sig .tc .vmem S64x1024 .bf16).view.readAt (Elt F) (Rect.unit (s := S64x1024) (k0_off73 c) S32x256.size (k0_off73_inb c)).toLoadRect g j) := fun j => by
    obtain ⟨y, hy, hP⟩ := SegBCore.load_sub_ok (Val := Elt F) cc0_scratch4 g (fun i v => pRS ct 3 c (sh := S64x1024) i v)
      (k0_off60_inb (peer 2 3 c)) hpeer hg (k0_off73_inb c) (Geo.off73_eq c) (fun a => ⟨Nat.le_refl _, Nat.le_refl _⟩) j
    have hj1 : (j 1).val < 256 := (j 1).isLt
    rw [SegBCore.half_4]
    exact SegBCore.pRS_to_okSS ct 3 2 c rfl y _ _ _ (hy 0) (hy 1) (SegAValP.blk_of_ge (by omega)) hP
  have hA : ∀ i ∈ ((View.whole cc0_scratch0).slice (Rect.unit (s := S1024x1024) (k0_off72 c) S32x256.size (k0_off72_inb c))).set, ct.okAcc 3 c (i 0).val (i 1).val (a i) := fun i hi => ha i (by
    have hm := (Plumb.mem_slice_unit_whole cc0_scratch0 (k0_off72_inb c) (Geo.off72_eq c) i).mp hi
    exact (Plumb.mem_slice_unit_whole cc0_scratch0 (k0_off66_inb c) (Geo.off66_eq c) i).mpr (Fin.forall_fin_two.mpr
      ⟨by have h' : lo 2 c 4 + (1 - bit 2 4 c) * 32 ≤ (i 0).val ∧ (i 0).val < lo 2 c 4 + (1 - bit 2 4 c) * 32 + 32 := hm 0
          show lo 2 c 4 ≤ (i 0).val ∧ (i 0).val < lo 2 c 4 + 64
          omega, hm 1⟩))
  unfold addT2
  exact SegBCore.ss_core ct c YA YB laws 3 4 (by decide) rfl 2 (k0_off72_inb c)
    ((Geo.off72_eq c).trans (by show _ = ![lo 2 c 4 + (1 - bit 2 4 c) * half 4, 768]; rw [SegBCore.half_4]))
    (fun q h1 h2 => SegAValP.blk_of_ge (by have h2' : q < 768 + 256 := h2; omega)) a hA _ hY _
    (fun j => PayPoint.pay42_at _ _ j) _ (fun j => PayPoint.pay43_at _ j)

theorem frT2 (lvl : ℕ) {offS szS : Fin 2 → ℕ} {rS qS : ℕ} (inbS : ∀ a, offS a + szS a ≤ S1024x1024.size a) (heqS : offS = ![rS, qS])
    (a : S1024x1024.Idx → F .f32) (g : S64x1024.Idx → F .bf16)
    (h : ∀ i ∈ ((View.whole cc0_scratch0).slice (Rect.unit (s := S1024x1024) offS szS inbS)).set, ct.okAcc lvl c (i 0).val (i 1).val (a i))
    (hd : (rS + szS 0 ≤ lo 2 c 4 + (1 - bit 2 4 c) * 32 ∨ lo 2 c 4 + (1 - bit 2 4 c) * 32 + 32 ≤ rS) ∨ (qS + szS 1 ≤ 768 ∨ 768 + 256 ≤ qS)) :
    ∀ i ∈ ((View.whole cc0_scratch0).slice (Rect.unit (s := S1024x1024) offS szS inbS)).set, ct.okAcc lvl c (i 0).val (i 1).val (addT2 c a g i) := by
  unfold addT2
  exact fr ct c lvl (k0_off72_inb c) (Geo.off72_eq c) _ inbS heqS a h hd

/-- Column block 2: adding the second piece of the stage-3 partner to the rows kept brings them to the sum over sixteen devices. -/
theorem stepM2 (laws : Laws ct c YA YB) (a : S1024x1024.Idx → F .f32) (g : S64x1024.Idx → F .bf16)
    (ha : ∀ i ∈ ((View.whole cc0_scratch0).slice (Rect.unit (s := S1024x1024) (k0_off78 c) S32x256.size (k0_off78_inb c))).set, ct.okAcc 3 c (i 0).val (i 1).val (a i))
    (hg : ∀ i ∈ (dst_rs_3_2_1 (peer 2 3 c)).view.set, pRS ct 3 c (sh := S64x1024) i (g i)) :
    ∀ i ∈ ((View.whole cc0_scratch0).slice (Rect.unit (s := S1024x1024) (k0_off78 c) S32x256.size (k0_off78_inb c))).set, ct.okAcc 4 c (i 0).val (i 1).val (addM2 c a g i) := by
  have hpeer : k0_off61 (peer 2 3 c) = ![bit 2 4 c * 32, 768] := by
    rw [Geo.off61_eq, bit_peer_succ 2 3 4 c rfl]
  have hY : ∀ j : S32x256.Idx, ct.okSS 3 (peer 2 3 c) (bit 2 4 c * half 4 + (j 0).val) (768 + (j 1).val)
      ((Memref.whole cc0_scratch4 : Memref sig .tc .vmem S64x1024 .bf16).view.readAt (Elt F) (Rect.unit (s := S64x1024) (k0_off79 c) S32x256.size (k0_off79_inb c)).toLoadRect g j) := fun j => by
    obtain ⟨y, hy, hP⟩ := SegBCore.load_sub_ok (Val := Elt F) cc0_scratch4 g (fun i v => pRS ct 3 c (sh := S64x1024) i v)
      (k0_off61_inb (peer 2 3 c)) hpeer hg (k0_off79_inb c) (Geo.off79_eq c) (fun a => ⟨Nat.le_refl _, Nat.le_refl _⟩) j
    have hj1 : (j 1).val < 256 := (j 1).isLt
    rw [SegBCore.half_4]
    exact SegBCore.pRS_to_okSS ct 3 2 c rfl y _ _ _ (hy 0) (hy 1) (SegAValP.blk_of_ge (by omega)) hP
  unfold addM2
  exact SegBCore.keep_core ct c YA YB laws 3 4 (by decide) rfl 2 (k0_off78_inb c)
    ((Geo.off78_eq c).trans (by show ![lo 2 c 5, 768] = ![lo 2 c 4 + bit 2 4 c * half 4, 768]; rw [show lo 2 c 5 = lo 2 c 4 + bit 2 4 c * half 4 from SegBCore.lo_succ 2 c 4]))
    (fun q h1 h2 => SegAValP.blk_of_ge (by have h2' : q < 768 + 256 := h2; omega)) a ha _ hY _ (fun j => PayPoint.pay46_at _ _ j)

theorem frM2 (lvl : ℕ) {offS szS : Fin 2 → ℕ} {rS qS : ℕ} (inbS : ∀ a, offS a + szS a ≤ S1024x1024.size a) (heqS : offS = ![rS, qS])
    (a : S1024x1024.Idx → F .f32) (g : S64x1024.Idx → F .bf16)
    (h : ∀ i ∈ ((View.whole cc0_scratch0).slice (Rect.unit (s := S1024x1024) offS szS inbS)).set, ct.okAcc lvl c (i 0).val (i 1).val (a i))
    (hd : (rS + szS 0 ≤ lo 2 c 5 ∨ lo 2 c 5 + 32 ≤ rS) ∨ (qS + szS 1 ≤ 768 ∨ 768 + 256 ≤ qS)) :
    ∀ i ∈ ((View.whole cc0_scratch0).slice (Rect.unit (s := S1024x1024) offS szS inbS)).set, ct.okAcc lvl c (i 0).val (i 1).val (addM2 c a g i) := by
  unfold addM2
  exact fr ct c lvl (k0_off78_inb c) (Geo.off78_eq c) _ inbS heqS a h hd

/-! ## What the pieces sent carry -/

/-- What lands at the partner of the last stage, column block 0, is right under the contract. -/
theorem sent_4_0 (laws : Laws ct c YA YB) (fa : Buf (Elt F) ((c : Thread nD τ).loc cc0_scratch0)) (g300 : Buf (Elt F) ((c : Thread nD τ).loc cc0_scratch4)) (g10 : Buf (Elt F) ((c : Thread nD τ).loc cc0_scratch10))
    (fd : Buf (Elt F) ((dst_rs_4_0_0 c).view.loc ((peer 0 4 c : Dev nD) : Thread nD τ)))
    (hfa : (∀ i ∈ SegBMid.accRows30_0 c, ct.okAcc 3 c (i 0).val (i 1).val (fa i)) ∧ (∀ i ∈ SegBMid.accRows30_1 c, ct.okAcc 3 c (i 0).val (i 1).val (fa i)) ∧ (∀ i ∈ SegBMid.accRows30_2 c, ct.okAcc 3 c (i 0).val (i 1).val (fa i)))
    (hg300 : ∀ i ∈ (dst_rs_3_0_0 (peer 0 3 c)).view.set, pRS ct 3 c (sh := S64x1024) i (g300 i)) :
    ∀ i ∈ (dst_rs_4_0_0 c).view.set, pRS ct 4 (peer 0 4 c) (sh := S32x1024) i
      (((dst_rs_4_0_0 c).view.write (Elt F) fd ((src_rs_4_0_0 c).view.read (Elt F) (sendQ0 c (bcc1 c fa g300) g10)) Finset.univ) i) := by
  have hA : ∀ i ∈ ((View.whole cc0_scratch0).slice (Rect.unit (s := S1024x1024) (k0_off62 c) S64x384.size (k0_off62_inb c))).set, ct.okAcc 3 c (i 0).val (i 1).val ((fa) i) := by
    exact hfa.1
  have hcore := stepT0 ct c YA YB laws _ _ hA hg300
  refine SegBValP.landed4 ct c 0 inb_S32x1024_S32x384_0_0 rfl
    (fun q h1 h2 => SegAValP.blk_of_lt (by have h2' : q < 0 + 384 := h2; omega)) (sendQ0 c (bcc1 c fa g300) g10) ?_ fd
  intro i hi
  unfold sendQ0 bcc1
  refine Plumb.write_unit_whole_forall (Val := Elt F) cc0_scratch10 g10 inb_S32x1024_S32x384_0_0 _ rfl
    (fun i v => ct.okSS 4 c (i 0).val (i 1).val v) ?_ i (Fin.forall_fin_two.mpr
      ⟨⟨Nat.zero_le _, by have h' : (i 0).val < 32 := (i 0).isLt; show (i 0).val < 0 + 32; omega⟩, hi 1⟩)
  intro j i' hi'
  have e0 : (i' 0).val = (j 0).val := (hi' 0).trans (Nat.zero_add _)
  have e1 : (i' 1).val = 0 + (j 1).val := hi' 1
  show ct.okSS 4 c (i' 0).val (i' 1).val _
  rw [e0, e1]
  exact hcore j

/-- What lands at the partner of the last stage, column block 1, is right under the contract. -/
theorem sent_4_1 (laws : Laws ct c YA YB) (fa : Buf (Elt F) ((c : Thread nD τ).loc cc0_scratch0)) (g300 g310 : Buf (Elt F) ((c : Thread nD τ).loc cc0_scratch4)) (g10 : Buf (Elt F) ((c : Thread nD τ).loc cc0_scratch10))
    (fd : Buf (Elt F) ((dst_rs_4_1_0 c).view.loc ((peer 1 4 c : Dev nD) : Thread nD τ)))
    (hfa : (∀ i ∈ SegBMid.accRows30_0 c, ct.okAcc 3 c (i 0).val (i 1).val (fa i)) ∧ (∀ i ∈ SegBMid.accRows30_1 c, ct.okAcc 3 c (i 0).val (i 1).val (fa i)) ∧ (∀ i ∈ SegBMid.accRows30_2 c, ct.okAcc 3 c (i 0).val (i 1).val (fa i)))
    (hg300 : ∀ i ∈ (dst_rs_3_0_0 (peer 0 3 c)).view.set, pRS ct 3 c (sh := S64x1024) i (g300 i)) (hg310 : ∀ i ∈ (dst_rs_3_1_0 (peer 1 3 c)).view.set, pRS ct 3 c (sh := S64x1024) i (g310 i)) :
    ∀ i ∈ (dst_rs_4_1_0 c).view.set, pRS ct 4 (peer 1 4 c) (sh := S32x1024) i
      (((dst_rs_4_1_0 c).view.write (Elt F) fd ((src_rs_4_1_0 c).view.read (Elt F) (sendQ1 c (bcc2 c fa g300 g310) g10)) Finset.univ) i) := by
  have hA : ∀ i ∈ ((View.whole cc0_scratch0).slice (Rect.unit (s := S1024x1024) (k0_off64 c) S64x384.size (k0_off64_inb c))).set, ct.okAcc 3 c (i 0).val (i 1).val ((bcc1 c fa g300) i) := by
    unfold bcc1
    exact frT0 ct c 3 (k0_off64_inb c) (Geo.off64_eq c) _ _ (hfa.2.1) (Or.inr (by show 384 + 384 ≤ 0 ∨ 0 + 384 ≤ 384; omega))
  have hcore := stepT1 ct c YA YB laws _ _ hA hg310
  refine SegBValP.landed4 ct c 1 inb_S32x1024_S32x384_0_384 rfl
    (fun q h1 h2 => SegAValP.blk_of_mid (by have h2' : q < 384 + 384 := h2; omega) (by have h2' : q < 384 + 384 := h2; omega)) (sendQ1 c (bcc2 c fa g300 g310) g10) ?_ fd
  intro i hi
  unfold sendQ1 bcc2
  refine Plumb.write_unit_whole_forall (Val := Elt F) cc0_scratch10 g10 inb_S32x1024_S32x384_0_384 _ rfl
    (fun i v => ct.okSS 4 c (i 0).val (i 1).val v) ?_ i (Fin.forall_fin_two.mpr
      ⟨⟨Nat.zero_le _, by have h' : (i 0).val < 32 := (i 0).isLt; show (i 0).val < 0 + 32; omega⟩, hi 1⟩)
  intro j i' hi'
  have e0 : (i' 0).val = (j 0).val := (hi' 0).trans (Nat.zero_add _)
  have e1 : (i' 1).val = 384 + (j 1).val := hi' 1
  show ct.okSS 4 c (i' 0).val (i' 1).val _
  rw [e0, e1]
  exact hcore j

/-- What lands at the partner of the last stage, column block 2, is right under the contract. -/
theorem sent_4_2 (laws : Laws ct c YA YB) (fa : Buf (Elt F) ((c : Thread nD τ).loc cc0_scratch0)) (g300 g310 g320 : Buf (Elt F) ((c : Thread nD τ).loc cc0_scratch4)) (g10 : Buf (Elt F) ((c : Thread nD τ).loc cc0_scratch10))
    (fd : Buf (Elt F) ((dst_rs_4_2_0 c).view.loc ((peer 2 4 c : Dev nD) : Thread nD τ)))
    (hfa : (∀ i ∈ SegBMid.accRows30_0 c, ct.okAcc 3 c (i 0).val (i 1).val (fa i)) ∧ (∀ i ∈ SegBMid.accRows30_1 c, ct.okAcc 3 c (i 0).val (i 1).val (fa i)) ∧ (∀ i ∈ SegBMid.accRows30_2 c, ct.okAcc 3 c (i 0).val (i 1).val (fa i)))
    (hg300 : ∀ i ∈ (dst_rs_3_0_0 (peer 0 3 c)).view.set, pRS ct 3 c (sh := S64x1024) i (g300 i)) (hg310 : ∀ i ∈ (dst_rs_3_1_0 (peer 1 3 c)).view.set, pRS ct 3 c (sh := S64x1024) i (g310 i)) (hg320 : ∀ i ∈ (dst_rs_3_2_0 (peer 2 3 c)).view.set, pRS ct 3 c (sh := S64x1024) i (g320 i)) :
    ∀ i ∈ (dst_rs_4_2_0 c).view.set, pRS ct 4 (peer 2 4 c) (sh := S32x1024) i
      (((dst_rs_4_2_0 c).view.write (Elt F) fd ((src_rs_4_2_0 c).view.read (Elt F) (sendQ2 c (bcc3 c fa g300 g310 g320) g10)) Finset.univ) i) := by
  have hA : ∀ i ∈ ((View.whole cc0_scratch0).slice (Rect.unit (s := S1024x1024) (k0_off66 c) S64x256.size (k0_off66_inb c))).set, ct.okAcc 3 c (i 0).val (i 1).val ((bcc2 c fa g300 g310) i) := by
    unfold bcc2 bcc1
    exact frT1 ct c 3 (k0_off66_inb c) (Geo.off66_eq c) _ _ (frT0 ct c 3 (k0_off66_inb c) (Geo.off66_eq c) _ _ (hfa.2.2) (Or.inr (by show 768 + 256 ≤ 0 ∨ 0 + 384 ≤ 768; omega))) (Or.inr (by show 768 + 256 ≤ 384 ∨ 384 + 384 ≤ 768; omega))
  have hcore := stepT2 ct c YA YB laws _ _ hA hg320
  refine SegBValP.landed4 ct c 2 inb_S32x1024_S32x256_0_768 rfl
    (fun q h1 h2 => SegAValP.blk_of_ge (by have h2' : q < 768 + 256 := h2; omega)) (sendQ2 c (bcc3 c fa g300 g310 g320) g10) ?_ fd
  intro i hi
  unfold sendQ2 bcc3
  refine Plumb.write_unit_whole_forall (Val := Elt F) cc0_scratch10 g10 inb_S32x1024_S32x256_0_768 _ rfl
    (fun i v => ct.okSS 4 c (i 0).val (i 1).val v) ?_ i (Fin.forall_fin_two.mpr
      ⟨⟨Nat.zero_le _, by have h' : (i 0).val < 32 := (i 0).isLt; show (i 0).val < 0 + 32; omega⟩, hi 1⟩)
  intro j i' hi'
  have e0 : (i' 0).val = (j 0).val := (hi' 0).trans (Nat.zero_add _)
  have e1 : (i' 1).val = 768 + (j 1).val := hi' 1
  show ct.okSS 4 c (i' 0).val (i' 1).val _
  rw [e0, e1]
  exact hcore j

/-! ## What the result's own rows hold -/

/-- The result's own rows of column block 0 are right under the contract. -/
theorem out_0 (laws : Laws ct c YA YB) (fa : Buf (Elt F) ((c : Thread nD τ).loc cc0_scratch0)) (g300 g310 g320 g301 g311 g321 : Buf (Elt F) ((c : Thread nD τ).loc cc0_scratch4)) (g4 : Buf (Elt F) ((c : Thread nD τ).loc cc0_scratch5)) (o : Buf (Elt F) ((c : Thread nD τ).loc cc0_stg2_0))
    (hfa : (∀ i ∈ SegBMid.accRows30_0 c, ct.okAcc 3 c (i 0).val (i 1).val (fa i)) ∧ (∀ i ∈ SegBMid.accRows30_1 c, ct.okAcc 3 c (i 0).val (i 1).val (fa i)) ∧ (∀ i ∈ SegBMid.accRows30_2 c, ct.okAcc 3 c (i 0).val (i 1).val (fa i)))
    (hg300 : ∀ i ∈ (dst_rs_3_0_0 (peer 0 3 c)).view.set, pRS ct 3 c (sh := S64x1024) i (g300 i)) (hg310 : ∀ i ∈ (dst_rs_3_1_0 (peer 1 3 c)).view.set, pRS ct 3 c (sh := S64x1024) i (g310 i)) (hg320 : ∀ i ∈ (dst_rs_3_2_0 (peer 2 3 c)).view.set, pRS ct 3 c (sh := S64x1024) i (g320 i)) (hg301 : ∀ i ∈ (dst_rs_3_0_1 (peer 0 3 c)).view.set, pRS ct 3 c (sh := S64x1024) i (g301 i)) (hg311 : ∀ i ∈ (dst_rs_3_1_1 (peer 1 3 c)).view.set, pRS ct 3 c (sh := S64x1024) i (g311 i)) (hg321 : ∀ i ∈ (dst_rs_3_2_1 (peer 2 3 c)).view.set, pRS ct 3 c (sh := S64x1024) i (g321 i))
    (hg4 : ∀ i ∈ (dst_rs_4_0_0 (peer 0 4 c)).view.set, pRS ct 4 c (sh := S32x1024) i (g4 i)) :
    ∀ i ∈ (src_ag_4_0_0 c).view.set, pOut ct (sh := S1024x1024) i (outK0 c (bcc6 c fa g300 g310 g320 g301 g311 g321) g4 o i) := by
  have hb := bit_le_one 0 4 c
  have hl := SegBCore.lo_5 0 c
  have h0 : ∀ i ∈ ((View.whole cc0_scratch0).slice (Rect.unit (s := S1024x1024) (k0_off74 c) S32x384.size (k0_off74_inb c))).set, ct.okAcc 3 c (i 0).val (i 1).val (fa i) := fun i hi => hfa.1 i (by
    have hm := (Plumb.mem_slice_unit_whole cc0_scratch0 (k0_off74_inb c) (Geo.off74_eq c) i).mp hi
    exact (Plumb.mem_slice_unit_whole cc0_scratch0 (k0_off62_inb c) (Geo.off62_eq c) i).mpr (Fin.forall_fin_two.mpr
      ⟨by have h' : lo 0 c 5 ≤ (i 0).val ∧ (i 0).val < lo 0 c 5 + 32 := hm 0
          show lo 0 c 4 ≤ (i 0).val ∧ (i 0).val < lo 0 c 4 + 64
          omega, hm 1⟩))
  have h3 : ∀ i ∈ ((View.whole cc0_scratch0).slice (Rect.unit (s := S1024x1024) (k0_off74 c) S32x384.size (k0_off74_inb c))).set, ct.okAcc 3 c (i 0).val (i 1).val (bcc3 c fa g300 g310 g320 i) := by
    unfold bcc3 bcc2 bcc1
    exact frT2 ct c 3 (k0_off74_inb c) (Geo.off74_eq c) _ _ (frT1 ct c 3 (k0_off74_inb c) (Geo.off74_eq c) _ _ (frT0 ct c 3 (k0_off74_inb c) (Geo.off74_eq c) _ _ (h0) (Or.inl (by show lo 0 c 5 + 32 ≤ lo 0 c 4 + (1 - bit 0 4 c) * 32 ∨ lo 0 c 4 + (1 - bit 0 4 c) * 32 + 32 ≤ lo 0 c 5; omega))) (Or.inr (by show 0 + 384 ≤ 384 ∨ 384 + 384 ≤ 0; omega))) (Or.inr (by show 0 + 384 ≤ 768 ∨ 768 + 256 ≤ 0; omega))
  have h6 : ∀ i ∈ ((View.whole cc0_scratch0).slice (Rect.unit (s := S1024x1024) (k0_off74 c) S32x384.size (k0_off74_inb c))).set, ct.okAcc 4 c (i 0).val (i 1).val (bcc6 c fa g300 g310 g320 g301 g311 g321 i) := by
    unfold bcc6 bcc5 bcc4
    exact frM2 ct c 4 (k0_off74_inb c) (Geo.off74_eq c) _ _ (frM1 ct c 4 (k0_off74_inb c) (Geo.off74_eq c) _ _ (stepM0 ct c YA YB laws _ _ (h3) hg301) (Or.inr (by show 0 + 384 ≤ 384 ∨ 384 + 384 ≤ 0; omega))) (Or.inr (by show 0 + 384 ≤ 768 ∨ 768 + 256 ≤ 0; omega))
  have hX : ∀ j : S32x384.Idx, ct.okAcc 4 c (lo 0 c 5 + (j 0).val) (0 + (j 1).val)
      ((Memref.whole cc0_scratch0 : Memref sig .tc .vmem S1024x1024 .f32).view.readAt (Elt F) (RA74 c).toLoadRect (bcc6 c fa g300 g310 g320 g301 g311 g321) j) := fun j => by
    obtain ⟨y, hy, hP⟩ := SegBCore.load_sub_ok (Val := Elt F) cc0_scratch0 (bcc6 c fa g300 g310 g320 g301 g311 g321) (fun i v => ct.okAcc 4 c (i 0).val (i 1).val v)
      (k0_off74_inb c) (Geo.off74_eq c) h6 (k0_off74_inb c) (Geo.off74_eq c) (fun a => ⟨Nat.le_refl _, Nat.le_refl _⟩) j
    have e0 : (y 0).val = lo 0 c 5 + (j 0).val := hy 0
    have e1 : (y 1).val = 0 + (j 1).val := hy 1
    have hP' : ct.okAcc 4 c (y 0).val (y 1).val _ := hP
    rw [e0, e1] at hP'
    exact hP'
  have hY : ∀ j : S32x384.Idx, ct.okSS 4 (peer 0 4 c) (j 0).val (0 + (j 1).val)
      ((Memref.whole cc0_scratch5 : Memref sig .tc .vmem S32x1024 .bf16).view.readAt (Elt F) RC4b0.toLoadRect g4 j) := fun j => by
    obtain ⟨y, hy, hP⟩ := SegBCore.load_sub_ok (Val := Elt F) cc0_scratch5 g4 (fun i v => pRS ct 4 c (sh := S32x1024) i v)
      inb_S32x1024_S32x384_0_0 rfl hg4 inb_S32x1024_S32x384_0_0 rfl (fun a => ⟨Nat.le_refl _, Nat.le_refl _⟩) j
    have hj1 : (j 1).val < 384 := (j 1).isLt
    exact SegBCore.pRS_to_okSS ct 4 0 c rfl y _ _ _ ((hy 0).trans (Nat.zero_add _)) (hy 1) (SegAValP.blk_of_lt (by omega)) hP
  have hpt := SegBValP.out_point_ok ct c YA YB laws 0 (sz := S32x384.size) (q0 := 0)
    (fun q h1 h2 => SegAValP.blk_of_lt (by have h2' : q < 0 + 384 := h2; omega)) _ _ _ (fun j => PayPoint.pay47_at _ _ j) hX hY
  intro i hi
  have hm := (Plumb.mem_slice_unit_whole cc0_stg2_0 (k0_off80_inb c) (Geo.off80_eq c) i).mp hi
  unfold outK0
  refine Plumb.write_unit_whole_forall (Val := Elt F) cc0_stg2_0 o (k0_off74_inb c) _ (Geo.off74_eq c)
    (fun i v => pOut ct (sh := S1024x1024) i v) ?_ i hm
  intro j i' hi'
  have e0 : (i' 0).val = lo 0 c 5 + (j 0).val := hi' 0
  have e1 : (i' 1).val = 0 + (j 1).val := hi' 1
  show ct.okOut (i' 0).val (i' 1).val _
  rw [e0, e1]
  exact hpt j

/-- The result's own rows of column block 1 are right under the contract. -/
theorem out_1 (laws : Laws ct c YA YB) (fa : Buf (Elt F) ((c : Thread nD τ).loc cc0_scratch0)) (g300 g310 g320 g301 g311 g321 : Buf (Elt F) ((c : Thread nD τ).loc cc0_scratch4)) (g4 : Buf (Elt F) ((c : Thread nD τ).loc cc0_scratch5)) (o : Buf (Elt F) ((c : Thread nD τ).loc cc0_stg2_0))
    (hfa : (∀ i ∈ SegBMid.accRows30_0 c, ct.okAcc 3 c (i 0).val (i 1).val (fa i)) ∧ (∀ i ∈ SegBMid.accRows30_1 c, ct.okAcc 3 c (i 0).val (i 1).val (fa i)) ∧ (∀ i ∈ SegBMid.accRows30_2 c, ct.okAcc 3 c (i 0).val (i 1).val (fa i)))
    (hg300 : ∀ i ∈ (dst_rs_3_0_0 (peer 0 3 c)).view.set, pRS ct 3 c (sh := S64x1024) i (g300 i)) (hg310 : ∀ i ∈ (dst_rs_3_1_0 (peer 1 3 c)).view.set, pRS ct 3 c (sh := S64x1024) i (g310 i)) (hg320 : ∀ i ∈ (dst_rs_3_2_0 (peer 2 3 c)).view.set, pRS ct 3 c (sh := S64x1024) i (g320 i)) (hg301 : ∀ i ∈ (dst_rs_3_0_1 (peer 0 3 c)).view.set, pRS ct 3 c (sh := S64x1024) i (g301 i)) (hg311 : ∀ i ∈ (dst_rs_3_1_1 (peer 1 3 c)).view.set, pRS ct 3 c (sh := S64x1024) i (g311 i)) (hg321 : ∀ i ∈ (dst_rs_3_2_1 (peer 2 3 c)).view.set, pRS ct 3 c (sh := S64x1024) i (g321 i))
    (hg4 : ∀ i ∈ (dst_rs_4_1_0 (peer 1 4 c)).view.set, pRS ct 4 c (sh := S32x1024) i (g4 i)) :
    ∀ i ∈ (src_ag_4_1_0 c).view.set, pOut ct (sh := S1024x1024) i (outK1 c (bcc6 c fa g300 g310 g320 g301 g311 g321) g4 o i) := by
  have hb := bit_le_one 1 4 c
  have hl := SegBCore.lo_5 1 c
  have h0 : ∀ i ∈ ((View.whole cc0_scratch0).slice (Rect.unit (s := S1024x1024) (k0_off76 c) S32x384.size (k0_off76_inb c))).set, ct.okAcc 3 c (i 0).val (i 1).val (fa i) := fun i hi => hfa.2.1 i (by
    have hm := (Plumb.mem_slice_unit_whole cc0_scratch0 (k0_off76_inb c) (Geo.off76_eq c) i).mp hi
    exact (Plumb.mem_slice_unit_whole cc0_scratch0 (k0_off64_inb c) (Geo.off64_eq c) i).mpr (Fin.forall_fin_two.mpr
      ⟨by have h' : lo 1 c 5 ≤ (i 0).val ∧ (i 0).val < lo 1 c 5 + 32 := hm 0
          show lo 1 c 4 ≤ (i 0).val ∧ (i 0).val < lo 1 c 4 + 64
          omega, hm 1⟩))
  have h3 : ∀ i ∈ ((View.whole cc0_scratch0).slice (Rect.unit (s := S1024x1024) (k0_off76 c) S32x384.size (k0_off76_inb c))).set, ct.okAcc 3 c (i 0).val (i 1).val (bcc3 c fa g300 g310 g320 i) := by
    unfold bcc3 bcc2 bcc1
    exact frT2 ct c 3 (k0_off76_inb c) (Geo.off76_eq c) _ _ (frT1 ct c 3 (k0_off76_inb c) (Geo.off76_eq c) _ _ (frT0 ct c 3 (k0_off76_inb c) (Geo.off76_eq c) _ _ (h0) (Or.inr (by show 384 + 384 ≤ 0 ∨ 0 + 384 ≤ 384; omega))) (Or.inl (by show lo 1 c 5 + 32 ≤ lo 1 c 4 + (1 - bit 1 4 c) * 32 ∨ lo 1 c 4 + (1 - bit 1 4 c) * 32 + 32 ≤ lo 1 c 5; omega))) (Or.inr (by show 384 + 384 ≤ 768 ∨ 768 + 256 ≤ 384; omega))
  have h6 : ∀ i ∈ ((View.whole cc0_scratch0).slice (Rect.unit (s := S1024x1024) (k0_off76 c) S32x384.size (k0_off76_inb c))).set, ct.okAcc 4 c (i 0).val (i 1).val (bcc6 c fa g300 g310 g320 g301 g311 g321 i) := by
    unfold bcc6 bcc5 bcc4
    exact frM2 ct c 4 (k0_off76_inb c) (Geo.off76_eq c) _ _ (stepM1 ct c YA YB laws _ _ (frM0 ct c 3 (k0_off76_inb c) (Geo.off76_eq c) _ _ (h3) (Or.inr (by show 384 + 384 ≤ 0 ∨ 0 + 384 ≤ 384; omega))) hg311) (Or.inr (by show 384 + 384 ≤ 768 ∨ 768 + 256 ≤ 384; omega))
  have hX : ∀ j : S32x384.Idx, ct.okAcc 4 c (lo 1 c 5 + (j 0).val) (384 + (j 1).val)
      ((Memref.whole cc0_scratch0 : Memref sig .tc .vmem S1024x1024 .f32).view.readAt (Elt F) (RA76 c).toLoadRect (bcc6 c fa g300 g310 g320 g301 g311 g321) j) := fun j => by
    obtain ⟨y, hy, hP⟩ := SegBCore.load_sub_ok (Val := Elt F) cc0_scratch0 (bcc6 c fa g300 g310 g320 g301 g311 g321) (fun i v => ct.okAcc 4 c (i 0).val (i 1).val v)
      (k0_off76_inb c) (Geo.off76_eq c) h6 (k0_off76_inb c) (Geo.off76_eq c) (fun a => ⟨Nat.le_refl _, Nat.le_refl _⟩) j
    have e0 : (y 0).val = lo 1 c 5 + (j 0).val := hy 0
    have e1 : (y 1).val = 384 + (j 1).val := hy 1
    have hP' : ct.okAcc 4 c (y 0).val (y 1).val _ := hP
    rw [e0, e1] at hP'
    exact hP'
  have hY : ∀ j : S32x384.Idx, ct.okSS 4 (peer 1 4 c) (j 0).val (384 + (j 1).val)
      ((Memref.whole cc0_scratch5 : Memref sig .tc .vmem S32x1024 .bf16).view.readAt (Elt F) RC4b1.toLoadRect g4 j) := fun j => by
    obtain ⟨y, hy, hP⟩ := SegBCore.load_sub_ok (Val := Elt F) cc0_scratch5 g4 (fun i v => pRS ct 4 c (sh := S32x1024) i v)
      inb_S32x1024_S32x384_0_384 rfl hg4 inb_S32x1024_S32x384_0_384 rfl (fun a => ⟨Nat.le_refl _, Nat.le_refl _⟩) j
    have hj1 : (j 1).val < 384 := (j 1).isLt
    exact SegBCore.pRS_to_okSS ct 4 1 c rfl y _ _ _ ((hy 0).trans (Nat.zero_add _)) (hy 1) (SegAValP.blk_of_mid (by omega) (by omega)) hP
  have hpt := SegBValP.out_point_ok ct c YA YB laws 1 (sz := S32x384.size) (q0 := 384)
    (fun q h1 h2 => SegAValP.blk_of_mid (by have h2' : q < 384 + 384 := h2; omega) (by have h2' : q < 384 + 384 := h2; omega)) _ _ _ (fun j => PayPoint.pay48_at _ _ j) hX hY
  intro i hi
  have hm := (Plumb.mem_slice_unit_whole cc0_stg2_0 (k0_off81_inb c) (Geo.off81_eq c) i).mp hi
  unfold outK1
  refine Plumb.write_unit_whole_forall (Val := Elt F) cc0_stg2_0 o (k0_off76_inb c) _ (Geo.off76_eq c)
    (fun i v => pOut ct (sh := S1024x1024) i v) ?_ i hm
  intro j i' hi'
  have e0 : (i' 0).val = lo 1 c 5 + (j 0).val := hi' 0
  have e1 : (i' 1).val = 384 + (j 1).val := hi' 1
  show ct.okOut (i' 0).val (i' 1).val _
  rw [e0, e1]
  exact hpt j

/-- The result's own rows of column block 2 are right under the contract. -/
theorem out_2 (laws : Laws ct c YA YB) (fa : Buf (Elt F) ((c : Thread nD τ).loc cc0_scratch0)) (g300 g310 g320 g301 g311 g321 : Buf (Elt F) ((c : Thread nD τ).loc cc0_scratch4)) (g4 : Buf (Elt F) ((c : Thread nD τ).loc cc0_scratch5)) (o : Buf (Elt F) ((c : Thread nD τ).loc cc0_stg2_0))
    (hfa : (∀ i ∈ SegBMid.accRows30_0 c, ct.okAcc 3 c (i 0).val (i 1).val (fa i)) ∧ (∀ i ∈ SegBMid.accRows30_1 c, ct.okAcc 3 c (i 0).val (i 1).val (fa i)) ∧ (∀ i ∈ SegBMid.accRows30_2 c, ct.okAcc 3 c (i 0).val (i 1).val (fa i)))
    (hg300 : ∀ i ∈ (dst_rs_3_0_0 (peer 0 3 c)).view.set, pRS ct 3 c (sh := S64x1024) i (g300 i)) (hg310 : ∀ i ∈ (dst_rs_3_1_0 (peer 1 3 c)).view.set, pRS ct 3 c (sh := S64x1024) i (g310 i)) (hg320 : ∀ i ∈ (dst_rs_3_2_0 (peer 2 3 c)).view.set, pRS ct 3 c (sh := S64x1024) i (g320 i)) (hg301 : ∀ i ∈ (dst_rs_3_0_1 (peer 0 3 c)).view.set, pRS ct 3 c (sh := S64x1024) i (g301 i)) (hg311 : ∀ i ∈ (dst_rs_3_1_1 (peer 1 3 c)).view.set, pRS ct 3 c (sh := S64x1024) i (g311 i)) (hg321 : ∀ i ∈ (dst_rs_3_2_1 (peer 2 3 c)).view.set, pRS ct 3 c (sh := S64x1024) i (g321 i))
    (hg4 : ∀ i ∈ (dst_rs_4_2_0 (peer 2 4 c)).view.set, pRS ct 4 c (sh := S32x1024) i (g4 i)) :
    ∀ i ∈ (src_ag_4_2_0 c).view.set, pOut ct (sh := S1024x1024) i (outK2 c (bcc6 c fa g300 g310 g320 g301 g311 g321) g4 o i) := by
  have hb := bit_le_one 2 4 c
  have hl := SegBCore.lo_5 2 c
  have h0 : ∀ i ∈ ((View.whole cc0_scratch0).slice (Rect.unit (s := S1024x1024) (k0_off78 c) S32x256.size (k0_off78_inb c))).set, ct.okAcc 3 c (i 0).val (i 1).val (fa i) := fun i hi => hfa.2.2 i (by
    have hm := (Plumb.mem_slice_unit_whole cc0_scratch0 (k0_off78_inb c) (Geo.off78_eq c) i).mp hi
    exact (Plumb.mem_slice_unit_whole cc0_scratch0 (k0_off66_inb c) (Geo.off66_eq c) i).mpr (Fin.forall_fin_two.mpr
      ⟨by have h' : lo 2 c 5 ≤ (i 0).val ∧ (i 0).val < lo 2 c 5 + 32 := hm 0
          show lo 2 c 4 ≤ (i 0).val ∧ (i 0).val < lo 2 c 4 + 64
          omega, hm 1⟩))
  have h3 : ∀ i ∈ ((View.whole cc0_scratch0).slice (Rect.unit (s := S1024x1024) (k0_off78 c) S32x256.size (k0_off78_inb c))).set, ct.okAcc 3 c (i 0).val (i 1).val (bcc3 c fa g300 g310 g320 i) := by
    unfold bcc3 bcc2 bcc1
    exact frT2 ct c 3 (k0_off78_inb c) (Geo.off78_eq c) _ _ (frT1 ct c 3 (k0_off78_inb c) (Geo.off78_eq c) _ _ (frT0 ct c 3 (k0_off78_inb c) (Geo.off78_eq c) _ _ (h0) (Or.inr (by show 768 + 256 ≤ 0 ∨ 0 + 384 ≤ 768; omega))) (Or.inr (by show 768 + 256 ≤ 384 ∨ 384 + 384 ≤ 768; omega))) (Or.inl (by show lo 2 c 5 + 32 ≤ lo 2 c 4 + (1 - bit 2 4 c) * 32 ∨ lo 2 c 4 + (1 - bit 2 4 c) * 32 + 32 ≤ lo 2 c 5; omega))
  have h6 : ∀ i ∈ ((View.whole cc0_scratch0).slice (Rect.unit (s := S1024x1024) (k0_off78 c) S32x256.size (k0_off78_inb c))).set, ct.okAcc 4 c (i 0).val (i 1).val (bcc6 c fa g300 g310 g320 g301 g311 g321 i) := by
    unfold bcc6 bcc5 bcc4
    exact stepM2 ct c YA YB laws _ _ (frM1 ct c 3 (k0_off78_inb c) (Geo.off78_eq c) _ _ (frM0 ct c 3 (k0_off78_inb c) (Geo.off78_eq c) _ _ (h3) (Or.inr (by show 768 + 256 ≤ 0 ∨ 0 + 384 ≤ 768; omega))) (Or.inr (by show 768 + 256 ≤ 384 ∨ 384 + 384 ≤ 768; omega))) hg321
  have hX : ∀ j : S32x256.Idx, ct.okAcc 4 c (lo 2 c 5 + (j 0).val) (768 + (j 1).val)
      ((Memref.whole cc0_scratch0 : Memref sig .tc .vmem S1024x1024 .f32).view.readAt (Elt F) (RA78 c).toLoadRect (bcc6 c fa g300 g310 g320 g301 g311 g321) j) := fun j => by
    obtain ⟨y, hy, hP⟩ := SegBCore.load_sub_ok (Val := Elt F) cc0_scratch0 (bcc6 c fa g300 g310 g320 g301 g311 g321) (fun i v => ct.okAcc 4 c (i 0).val (i 1).val v)
      (k0_off78_inb c) (Geo.off78_eq c) h6 (k0_off78_inb c) (Geo.off78_eq c) (fun a => ⟨Nat.le_refl _, Nat.le_refl _⟩) j
    have e0 : (y 0).val = lo 2 c 5 + (j 0).val := hy 0
    have e1 : (y 1).val = 768 + (j 1).val := hy 1
    have hP' : ct.okAcc 4 c (y 0).val (y 1).val _ := hP
    rw [e0, e1] at hP'
    exact hP'
  have hY : ∀ j : S32x256.Idx, ct.okSS 4 (peer 2 4 c) (j 0).val (768 + (j 1).val)
      ((Memref.whole cc0_scratch5 : Memref sig .tc .vmem S32x1024 .bf16).view.readAt (Elt F) RC4b2.toLoadRect g4 j) := fun j => by
    obtain ⟨y, hy, hP⟩ := SegBCore.load_sub_ok (Val := Elt F) cc0_scratch5 g4 (fun i v => pRS ct 4 c (sh := S32x1024) i v)
      inb_S32x1024_S32x256_0_768 rfl hg4 inb_S32x1024_S32x256_0_768 rfl (fun a => ⟨Nat.le_refl _, Nat.le_refl _⟩) j
    have hj1 : (j 1).val < 256 := (j 1).isLt
    exact SegBCore.pRS_to_okSS ct 4 2 c rfl y _ _ _ ((hy 0).trans (Nat.zero_add _)) (hy 1) (SegAValP.blk_of_ge (by omega)) hP
  have hpt := SegBValP.out_point_ok ct c YA YB laws 2 (sz := S32x256.size) (q0 := 768)
    (fun q h1 h2 => SegAValP.blk_of_ge (by have h2' : q < 768 + 256 := h2; omega)) _ _ _ (fun j => PayPoint.pay49_at _ _ j) hX hY
  intro i hi
  have hm := (Plumb.mem_slice_unit_whole cc0_stg2_0 (k0_off82_inb c) (Geo.off82_eq c) i).mp hi
  unfold outK2
  refine Plumb.write_unit_whole_forall (Val := Elt F) cc0_stg2_0 o (k0_off78_inb c) _ (Geo.off78_eq c)
    (fun i v => pOut ct (sh := S1024x1024) i v) ?_ i hm
  intro j i' hi'
  have e0 : (i' 0).val = lo 2 c 5 + (j 0).val := hi' 0
  have e1 : (i' 1).val = 768 + (j 1).val := hi' 1
  show ct.okOut (i' 0).val (i' 1).val _
  rw [e0, e1]
  exact hpt j

end Cert.KernelIdeal.SegB3Val

end
-- ==== Proof.SegB3.lean ====
/-
  The end of the summing phase: its last stage — per column block the partner's rows added to the half
  that is given away, that half rounded into the send buffer and sent whole —, the kept halves of the
  stage before added, and, the last partner's rows in, the pointwise function applied on the rows the
  device owns.
-/
import proofs.«900879_g7700000000000880_dist_matmul_gelu_kshard_i_m1024_n1024_k512_v7x_i32_bf16_1_alg».proof.Proof.Segs
import proofs.«900879_g7700000000000880_dist_matmul_gelu_kshard_i_m1024_n1024_k512_v7x_i32_bf16_1_alg».proof.Proof.SendStep
import proofs.«900879_g7700000000000880_dist_matmul_gelu_kshard_i_m1024_n1024_k512_v7x_i32_bf16_1_alg».proof.Proof.SegBMid
import proofs.«900879_g7700000000000880_dist_matmul_gelu_kshard_i_m1024_n1024_k512_v7x_i32_bf16_1_alg».proof.Proof.SegB3Val
import proofs.«900879_g7700000000000880_dist_matmul_gelu_kshard_i_m1024_n1024_k512_v7x_i32_bf16_1_alg».proof.Proof.RegionsRS
import proofs.«900879_g7700000000000880_dist_matmul_gelu_kshard_i_m1024_n1024_k512_v7x_i32_bf16_1_alg».proof.Proof.RegionsOut
set_option synthInstance.maxSize 4096
set_option maxRecDepth 65536

noncomputable section

namespace Cert.KernelIdeal.SegB3

open Cert.KernelIdeal Cert.KernelIdeal.Gen Cert.KernelIdeal.Proto Cert.KernelIdeal.Tab Cert.KernelIdeal.Held Cert.KernelIdeal.PayTab
open Cert.KernelIdeal.Sched Cert.KernelIdeal.GhostTab Cert.KernelIdeal.Owed Cert.KernelIdeal.Ghost Cert.KernelIdeal.StateTab
open Cert.KernelIdeal.Laws Cert.KernelIdeal.Cut Cert.KernelIdeal.Segs Cert.KernelIdeal.RegionsRS Cert.KernelIdeal.RegionsOut Cert.KernelIdeal.RegionsCut
open Cert.KernelIdeal.SendStep
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (ct : Contract F) (K : Dev nD × Fin 124 → ℕ)

/-! ## The cells' records, one cell at a time -/

theorem inv_dma (c : Dev nD) (a : Fin 4) (s : Fin 5) (k : Fin 3) (j : Fin 2) (h : usedIx (dsem a s k j).val = true) :
    (records ct K : sProp (MT nD τ sig Unit (Elt F) ℕ UU ℕ)) ⊢
      cellInv ER (sched ct) (K (c, ⟨(dsem a s k j).val, Nat.lt_trans (dsem a s k j).isLt (by decide)⟩)) (dcell c a s k j) := by
  have h0 := inv_at ct K (c, ⟨(dsem a s k j).val, Nat.lt_trans (dsem a s k j).isLt (by decide)⟩)
    (by unfold ourIx; rw [Finset.mem_filter]; exact ⟨Finset.mem_univ _, by unfold ours; rw [h]; exact Bool.or_true _⟩)
  rw [kcell_dma] at h0
  exact h0

theorem reached_dma (c : Dev nD) (a : Fin 4) (s : Fin 5) (k : Fin 3) (j : Fin 2) (h : usedIx (dsem a s k j).val = true) :
    (records ct K : sProp (MT nD τ sig Unit (Elt F) ℕ UU ℕ)) ⊢ reached ER (dcell c a s k j) 0 := by
  have h0 := reached_at ct K (c, ⟨(dsem a s k j).val, Nat.lt_trans (dsem a s k j).isLt (by decide)⟩)
    (by unfold ourIx; rw [Finset.mem_filter]; exact ⟨Finset.mem_univ _, by unfold ours; rw [h]; exact Bool.or_true _⟩)
  rw [kcell_dma] at h0
  exact h0

theorem heldV_open {sh : Shape} {e : EltTy} (d : Dev nD) (v : Memref sig .tc .vmem sh e) (q : PosShare TreeShare)
    (P : v.view.ty.Idx → Elt F v.view.ty.elt → Prop) :
    (heldV (F := F) d v q P : sProp (MT nD τ sig Unit (Elt F) ℕ UU ℕ))
      ⊢ iprop(∃ f : Buf (Elt F) (v.view.loc (d : Thread nD τ)), (v.view.loc (d : Thread nD τ) ↦[v.view.set]{q} f) ∗ ⌜∀ i ∈ v.view.set, P i (f i)⌝) := BI.Entails.refl _
theorem loanV_open {sh : Shape} {e : EltTy} (d : Dev nD) (v : Memref sig .tc .vmem sh e) :
    (loanV (F := F) d v : sProp (MT nD τ sig Unit (Elt F) ℕ UU ℕ))
      ⊢ iprop(∃ f : Buf (Elt F) (v.view.loc (d : Thread nD τ)), (v.view.loc (d : Thread nD τ) ↦[v.view.set]{fullShare} f)) := BI.Entails.refl _

theorem loanV_fold {sh : Shape} {e : EltTy} (d : Dev nD) (v : Memref sig .tc .vmem sh e) (f : Buf (Elt F) (v.view.loc (d : Thread nD τ))) :
    ((v.view.loc (d : Thread nD τ) ↦[v.view.set]{fullShare} f) : sProp (MT nD τ sig Unit (Elt F) ℕ UU ℕ)) ⊢ loanV (F := F) d v := by
  unfold loanV; iintro H; iexists f; iexact H

/-! ## The result's own rows, as the program addresses them -/

theorem off80_eq_off74 : ∀ c : Dev nD, k0_off80 c = k0_off74 c := by decide +kernel
theorem off81_eq_off76 : ∀ c : Dev nD, k0_off81 c = k0_off76 c := by decide +kernel
theorem off82_eq_off78 : ∀ c : Dev nD, k0_off82 c = k0_off78 c := by decide +kernel
abbrev outM_0 (c : Dev nD) : Memref sig .tc .vmem S32x384 .bf16 :=
  (Memref.whole cc0_stg2_0 : Memref sig .tc .vmem S1024x1024 .bf16).slice (Rect.unit (s := S1024x1024) (k0_off74 c) S32x384.size (k0_off74_inb c)) (fun _ => rfl)
theorem outM_0_set (c : Dev nD) : (outM_0 c).view.set = (src_ag_4_0_0 c).view.set := by
  have h : k0_off74 c = k0_off80 c := (off80_eq_off74 c).symm
  refine (View.set_slice_whole _ _).trans (Eq.trans ?_ (View.set_slice_whole _ _).symm)
  congr 3
abbrev outM_1 (c : Dev nD) : Memref sig .tc .vmem S32x384 .bf16 :=
  (Memref.whole cc0_stg2_0 : Memref sig .tc .vmem S1024x1024 .bf16).slice (Rect.unit (s := S1024x1024) (k0_off76 c) S32x384.size (k0_off76_inb c)) (fun _ => rfl)
theorem outM_1_set (c : Dev nD) : (outM_1 c).view.set = (src_ag_4_1_0 c).view.set := by
  have h : k0_off76 c = k0_off81 c := (off81_eq_off76 c).symm
  refine (View.set_slice_whole _ _).trans (Eq.trans ?_ (View.set_slice_whole _ _).symm)
  congr 3
abbrev outM_2 (c : Dev nD) : Memref sig .tc .vmem S32x256 .bf16 :=
  (Memref.whole cc0_stg2_0 : Memref sig .tc .vmem S1024x1024 .bf16).slice (Rect.unit (s := S1024x1024) (k0_off78 c) S32x256.size (k0_off78_inb c)) (fun _ => rfl)
theorem outM_2_set (c : Dev nD) : (outM_2 c).view.set = (src_ag_4_2_0 c).view.set := by
  have h : k0_off78 c = k0_off82 c := (off82_eq_off78 c).symm
  refine (View.set_slice_whole _ _).trans (Eq.trans ?_ (View.set_slice_whole _ _).symm)
  congr 3

theorem heldV_fold {sh : Shape} {e : EltTy} (d : Dev nD) (v : Memref sig .tc .vmem sh e) (q : PosShare TreeShare)
    (P : v.view.ty.Idx → Elt F v.view.ty.elt → Prop) (f : Buf (Elt F) (v.view.loc (d : Thread nD τ))) (h : ∀ i ∈ v.view.set, P i (f i)) :
    ((v.view.loc (d : Thread nD τ) ↦[v.view.set]{q} f) : sProp (MT nD τ sig Unit (Elt F) ℕ UU ℕ)) ⊢ heldV (F := F) d v q P := by
  unfold heldV; iintro H; iexists f; isplitl [H]
  · iexact H
  ipureintro; exact h

variable (c : Dev nD) (YA : S1024x512.Idx → F .f32) (YB : S512x1024.Idx → F .f32)

set_option maxHeartbeats 4000000 in
theorem segB3 (laws : Laws ct c YA YB) {R : Type}
    (T : (Σ' (d0 : Dev nD) (v3 : BitVec 32) (v8 : BitVec 32) (v13 : BitVec 32) (v28 : BitVec 32), BitVec 32) → Prog (TpuEff nD τ sig (Elt F) Λ₀ .tc) R)
    (Kt : R → sProp (MT nD τ sig Unit (Elt F) ℕ UU ℕ)) : SegBMid.SegB3 ct K c YA YB T Kt := by
  unfold SegBMid.SegB3
  intro v3 v4 v5 v6 v7 v8 v9 v10 v11 v12 v13 v14 v15 v16 v17 v18 v20 v22 v24 v26 v28 v611 v663 v715 v827
  unfold SegBMid.rest30
  simp only [k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
  unfold k0_part30_skel k0_part31_skel k0_part32_skel k0_part33_skel k0_part34_skel k0_part35_skel k0_part36_skel k0_part37_skel k0_part38_skel k0_part39_skel
  simp only [Prog.lift, Prog.bind_op, Prog.bind_ret, Prog.pure_eq_ret, bind_assoc, Prog.bind_assoc]
  unfold SegBMid.Pre30 SegBMid.toks30 SegBMid.pos30 SegBMid.closed30 SegBMid.credR30 SegBMid.credS30 SegBMid.land30
  iintro H
  icases H with ⟨Hpre, Hk⟩
  icases Hpre with ⟨#HR, #Hlev, HowE, Htoks, HtoksAG, Hpos, HposAG, Hclosed, HcredR, HcredS, HcredAG, Hidle, HA, HB, Hown, Hacc, Hsomes, Hs10, Hland, HlandAG⟩
  icases HowE with ⟨%W, How⟩
  icases Hpos with ⟨⟨PS300, PR300⟩, ⟨PS301, PR301⟩, ⟨PS310, PR310⟩, ⟨PS311, PR311⟩, ⟨PS320, PR320⟩, ⟨PS321, PR321⟩, ⟨PS400, PR400⟩, ⟨PS410, PR410⟩, ⟨PS420, PR420⟩⟩
  icases HcredR with ⟨CR300, CR301, CR310, CR311, CR320, CR321, CR400, CR410, CR420⟩
  icases HcredS with ⟨CS300, CS301, CS310, CS311, CS320, CS321⟩
  icases Htoks with ⟨⟨TS400, TR400⟩, ⟨TS410, TR410⟩, ⟨TS420, TR420⟩⟩
  icases Hland with ⟨LD400, LD410, LD420⟩
  icases Hclosed with ⟨⟨VS000, VR000⟩, ⟨VS001, VR001⟩, ⟨VS010, VR010⟩, ⟨VS011, VR011⟩, ⟨VS020, VR020⟩, ⟨VS021, VR021⟩, ⟨VS100, VR100⟩, ⟨VS101, VR101⟩, ⟨VS110, VR110⟩, ⟨VS111, VR111⟩, ⟨VS120, VR120⟩, ⟨VS121, VR121⟩, ⟨VS200, VR200⟩, ⟨VS201, VR201⟩, ⟨VS210, VR210⟩, ⟨VS211, VR211⟩, ⟨VS220, VR220⟩, ⟨VS221, VR221⟩⟩
  icases Hsomes with ⟨Hs1, Hs2, Hs3, Hs6, Hs7, Hs8⟩
  icases Hacc with ⟨%fa, Hacc, %hfa⟩
  icases Hown with ⟨Ho0, Ho1, Ho2⟩
  ihave Ho0 := (loanV_open (F := F) c (src_ag_4_0_0 c)) $$ Ho0
  icases Ho0 with ⟨%o0, Ho0⟩
  ihave Ho1 := (loanV_open (F := F) c (src_ag_4_1_0 c)) $$ Ho1
  icases Ho1 with ⟨%o1, Ho1⟩
  ihave Ho2 := (loanV_open (F := F) c (src_ag_4_2_0 c)) $$ Ho2
  icases Ho2 with ⟨%o2, Ho2⟩
  ihave Hcols := (ss_cols_4 (F := F) c) $$ Hs10
  icases Hcols with ⟨Hd0, Hd1, Hd2⟩
  icases Hd0 with ⟨%g100, Hd0⟩
  icases Hd1 with ⟨%g101, Hd1⟩
  icases Hd2 with ⟨%g102, Hd2⟩
  -- the wait on cell (0, 3, 0, 0), and the cell closed
  ihave #MWS300 := (mayWait_cell (F := F) c 0 3 0 0 29 (by decide +kernel)) $$ Hlev
  ihave #HIS300 := (inv_dma ct K c 0 3 0 0 rfl) $$ HR
  iapply (Rounds.wp_wait_rest_token Segs.𝒱₀ ER (sched ct) (c : Thread nD τ) none (κ := (K (c, ⟨(dsem 0 3 0 0).val, Nat.lt_trans (dsem 0 3 0 0).isLt (by decide)⟩))) (sm := SemLoc.dma (dsem 0 3 0 0))
      (wpE_waitDma2_eq Segs.𝒱₀ (c : Thread nD τ) none Set.univ) (Set.mem_univ _) () (O := owedFrom c 29) (W := W) (R := 0) (m := 0) (T := ∅)
      (by rw [Nat.zero_add, expect_dma ct c 0 3 0 0 rfl]; rfl)) $$ [CS300 How PS300]
  · isplitr
    · iexact HIS300
    isplitl [CS300]
    · iexact CS300
    isplitl [How]
    · iexact How
    isplitr
    · iexact MWS300
    iexact PS300
  iintro ⟨How, PS300, -, Hpay⟩
  imod (Rounds.cell_close ER (sched ct) (g := dcell c 0 3 0 0) (Set.mem_univ _) (fun h => h) (R := 1)
    (fun r hr => duties_later ct _ r hr)) $$ [PS300] with VS300
  · isplitr
    · iexact HIS300
    iexact PS300
  ihave BS300 := (Entails.of_eq (show bigSep ((sched ct).duties (dcell c 0 3 0 0) 0 \ ∅) (fun d => (sched ct).payload (dcell c 0 3 0 0) 0 d)
      = loanV c (src_rs_3_0_0 c) from rest_dma ct c 0 3 0 0 rfl)) $$ Hpay
  -- the wait on cell (1, 3, 0, 0), and the cell closed
  ihave #MWR300 := (mayWait_cell (F := F) c 1 3 0 0 29 (by decide +kernel)) $$ Hlev
  ihave #HIR300 := (inv_dma ct K c 1 3 0 0 rfl) $$ HR
  iapply (Rounds.wp_wait_rest_token Segs.𝒱₀ ER (sched ct) (c : Thread nD τ) none (κ := (K (c, ⟨(dsem 1 3 0 0).val, Nat.lt_trans (dsem 1 3 0 0).isLt (by decide)⟩))) (sm := SemLoc.dma (dsem 1 3 0 0))
      (wpE_waitDma2_eq Segs.𝒱₀ (c : Thread nD τ) none Set.univ) (Set.mem_univ _) () (O := owedFrom c 29) (W := (insert (SemLoc.dma (dsem 0 3 0 0), ()) W)) (R := 0) (m := 0) (T := ∅)
      (by rw [Nat.zero_add, expect_dma ct c 1 3 0 0 rfl]; rfl)) $$ [CR300 How PR300]
  · isplitr
    · iexact HIR300
    isplitl [CR300]
    · iexact CR300
    isplitl [How]
    · iexact How
    isplitr
    · iexact MWR300
    iexact PR300
  iintro ⟨How, PR300, -, Hpay⟩
  imod (Rounds.cell_close ER (sched ct) (g := dcell c 1 3 0 0) (Set.mem_univ _) (fun h => h) (R := 1)
    (fun r hr => duties_later ct _ r hr)) $$ [PR300] with VR300
  · isplitr
    · iexact HIR300
    iexact PR300
  ihave BR300 := (Entails.of_eq (show bigSep ((sched ct).duties (dcell c 1 3 0 0) 0 \ ∅) (fun d => (sched ct).payload (dcell c 1 3 0 0) 0 d)
      = heldV c (dst_rs_3_0_0 (peer 0 3 c)) fullShare (fun i v => pRS ct 3 c (sh := S64x1024) i v) from rest_dma ct c 1 3 0 0 rfl)) $$ Hpay
  ihave BR300 := (heldV_open (F := F) c _ fullShare _) $$ BR300
  icases BR300 with ⟨%g300, BR300, %hg300⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch4 : Memref sig .tc .vmem S64x1024 .bf16))
      (S := (dst_rs_3_0_0 (peer 0 3 c)).view.set) (by rw [← rsLoad_3_0_0 c]; exact (View.set_slice _ _).symm.subset)) $$ BR300; iintro BR300
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off68 c) S32x384.size (k0_off68_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch10 : Memref sig .tc .vmem S32x1024 .bf16))
      (S := ssCol_4_0) ((View.set_slice _ _).symm.subset)) $$ Hd0; iintro Hd0
  iapply (wp_store Segs.𝒱₀ (c : Thread nD τ) none Set.univ (m := (Memref.whole cc0_scratch10 : Memref sig .tc .vmem S32x1024 .bf16)) (r := Rect.unit (s := S32x1024) ![0, 0] S32x384.size inb_S32x1024_S32x384_0_0) (Mk := Finset.univ)
      (S := ssCol_4_0) (Finset.Subset.refl _)) $$ Hd0; iintro Hd0
  -- the column block goes to the partner
  ihave LD400 := (loanV_open (F := F) (peer 0 4 c) (dst_rs_4_0_0 c)) $$ LD400
  icases LD400 with ⟨%fd400, LD400⟩
  ihave #HIS400 := (inv_dma ct K c 0 4 0 0 rfl) $$ HR
  ihave #HIR400 := (inv_dma ct K (peer 0 4 c) 1 4 0 0 rfl) $$ HR
  ihave #HrS400 := (reached_dma ct K c 0 4 0 0 rfl) $$ HR
  ihave #HrR400 := (reached_dma ct K (peer 0 4 c) 1 4 0 0 rfl) $$ HR
  iapply (send_step ct (K (c, ⟨(dsem 0 4 0 0).val, Nat.lt_trans (dsem 0 4 0 0).isLt (by decide)⟩)) (K (peer 0 4 c, ⟨(dsem 1 4 0 0).val, Nat.lt_trans (dsem 1 4 0 0).isLt (by decide)⟩)) c _ (peer 0 4 c) (dev_rs_4_0_0 c) (src_rs_4_0_0 c) (dst_rs_4_0_0 c) (dsem 0 4 0 0) (dsem 1 4 0 0)
      (SegB3Val.sendQ0 c (SegB3Val.bcc1 c fa g300) g100) fd400 (owedFrom c 30) (insert (SemLoc.dma (dsem 1 3 0 0), ()) (insert (SemLoc.dma (dsem 0 3 0 0), ()) W))
      (fun i v => pRS ct 4 (peer 0 4 c) (sh := S32x1024) i v)
      (duties_dma ct c 0 4 0 0 rfl) (duties_dma ct (peer 0 4 c) 1 4 0 0 rfl) (amtIx (dsem 1 4 0 0).val) rfl rfl rfl rfl
      (by show recv_rs_4_0_0 ct (peer 0 4 c) = _; unfold recv_rs_4_0_0; rw [peer_peer])
      (SegB3Val.sent_4_0 ct c YA YB laws fa g300 g100 fd400 hfa hg300)) $$ [Hd0 LD400 How TS400 TR400]
  · isplitr
    · iexact HIS400
    isplitr
    · iexact HIR400
    isplitl [Hd0]
    · iexact Hd0
    isplitl [LD400]
    · iexact LD400
    isplitl [How]
    · iexact How
    isplitl [TS400]
    · iexact TS400
    isplitr
    · iexact HrS400
    isplitl [TR400]
    · iexact TR400
    iexact HrR400
  iintro ⟨CS400, How⟩
  -- the wait on cell (0, 3, 1, 0), and the cell closed
  ihave #MWS310 := (mayWait_cell (F := F) c 0 3 1 0 30 (by decide +kernel)) $$ Hlev
  ihave #HIS310 := (inv_dma ct K c 0 3 1 0 rfl) $$ HR
  iapply (Rounds.wp_wait_rest_token Segs.𝒱₀ ER (sched ct) (c : Thread nD τ) none (κ := (K (c, ⟨(dsem 0 3 1 0).val, Nat.lt_trans (dsem 0 3 1 0).isLt (by decide)⟩))) (sm := SemLoc.dma (dsem 0 3 1 0))
      (wpE_waitDma2_eq Segs.𝒱₀ (c : Thread nD τ) none Set.univ) (Set.mem_univ _) () (O := owedFrom c 30) (W := (insert (SemLoc.dma (dsem 1 3 0 0), ()) (insert (SemLoc.dma (dsem 0 3 0 0), ()) W))) (R := 0) (m := 0) (T := ∅)
      (by rw [Nat.zero_add, expect_dma ct c 0 3 1 0 rfl]; rfl)) $$ [CS310 How PS310]
  · isplitr
    · iexact HIS310
    isplitl [CS310]
    · iexact CS310
    isplitl [How]
    · iexact How
    isplitr
    · iexact MWS310
    iexact PS310
  iintro ⟨How, PS310, -, Hpay⟩
  imod (Rounds.cell_close ER (sched ct) (g := dcell c 0 3 1 0) (Set.mem_univ _) (fun h => h) (R := 1)
    (fun r hr => duties_later ct _ r hr)) $$ [PS310] with VS310
  · isplitr
    · iexact HIS310
    iexact PS310
  ihave BS310 := (Entails.of_eq (show bigSep ((sched ct).duties (dcell c 0 3 1 0) 0 \ ∅) (fun d => (sched ct).payload (dcell c 0 3 1 0) 0 d)
      = loanV c (src_rs_3_1_0 c) from rest_dma ct c 0 3 1 0 rfl)) $$ Hpay
  -- the wait on cell (1, 3, 1, 0), and the cell closed
  ihave #MWR310 := (mayWait_cell (F := F) c 1 3 1 0 30 (by decide +kernel)) $$ Hlev
  ihave #HIR310 := (inv_dma ct K c 1 3 1 0 rfl) $$ HR
  iapply (Rounds.wp_wait_rest_token Segs.𝒱₀ ER (sched ct) (c : Thread nD τ) none (κ := (K (c, ⟨(dsem 1 3 1 0).val, Nat.lt_trans (dsem 1 3 1 0).isLt (by decide)⟩))) (sm := SemLoc.dma (dsem 1 3 1 0))
      (wpE_waitDma2_eq Segs.𝒱₀ (c : Thread nD τ) none Set.univ) (Set.mem_univ _) () (O := owedFrom c 30) (W := (insert (SemLoc.dma (dsem 0 3 1 0), ()) (insert (SemLoc.dma (dsem 1 3 0 0), ()) (insert (SemLoc.dma (dsem 0 3 0 0), ()) W)))) (R := 0) (m := 0) (T := ∅)
      (by rw [Nat.zero_add, expect_dma ct c 1 3 1 0 rfl]; rfl)) $$ [CR310 How PR310]
  · isplitr
    · iexact HIR310
    isplitl [CR310]
    · iexact CR310
    isplitl [How]
    · iexact How
    isplitr
    · iexact MWR310
    iexact PR310
  iintro ⟨How, PR310, -, Hpay⟩
  imod (Rounds.cell_close ER (sched ct) (g := dcell c 1 3 1 0) (Set.mem_univ _) (fun h => h) (R := 1)
    (fun r hr => duties_later ct _ r hr)) $$ [PR310] with VR310
  · isplitr
    · iexact HIR310
    iexact PR310
  ihave BR310 := (Entails.of_eq (show bigSep ((sched ct).duties (dcell c 1 3 1 0) 0 \ ∅) (fun d => (sched ct).payload (dcell c 1 3 1 0) 0 d)
      = heldV c (dst_rs_3_1_0 (peer 1 3 c)) fullShare (fun i v => pRS ct 3 c (sh := S64x1024) i v) from rest_dma ct c 1 3 1 0 rfl)) $$ Hpay
  ihave BR310 := (heldV_open (F := F) c _ fullShare _) $$ BR310
  icases BR310 with ⟨%g310, BR310, %hg310⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch4 : Memref sig .tc .vmem S64x1024 .bf16))
      (S := (dst_rs_3_1_0 (peer 1 3 c)).view.set) (by rw [← rsLoad_3_1_0 c]; exact (View.set_slice _ _).symm.subset)) $$ BR310; iintro BR310
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off70 c) S32x384.size (k0_off70_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch10 : Memref sig .tc .vmem S32x1024 .bf16))
      (S := ssCol_4_1) ((View.set_slice _ _).symm.subset)) $$ Hd1; iintro Hd1
  iapply (wp_store Segs.𝒱₀ (c : Thread nD τ) none Set.univ (m := (Memref.whole cc0_scratch10 : Memref sig .tc .vmem S32x1024 .bf16)) (r := Rect.unit (s := S32x1024) ![0, 384] S32x384.size inb_S32x1024_S32x384_0_384) (Mk := Finset.univ)
      (S := ssCol_4_1) (Finset.Subset.refl _)) $$ Hd1; iintro Hd1
  -- the column block goes to the partner
  ihave LD410 := (loanV_open (F := F) (peer 1 4 c) (dst_rs_4_1_0 c)) $$ LD410
  icases LD410 with ⟨%fd410, LD410⟩
  ihave #HIS410 := (inv_dma ct K c 0 4 1 0 rfl) $$ HR
  ihave #HIR410 := (inv_dma ct K (peer 1 4 c) 1 4 1 0 rfl) $$ HR
  ihave #HrS410 := (reached_dma ct K c 0 4 1 0 rfl) $$ HR
  ihave #HrR410 := (reached_dma ct K (peer 1 4 c) 1 4 1 0 rfl) $$ HR
  iapply (send_step ct (K (c, ⟨(dsem 0 4 1 0).val, Nat.lt_trans (dsem 0 4 1 0).isLt (by decide)⟩)) (K (peer 1 4 c, ⟨(dsem 1 4 1 0).val, Nat.lt_trans (dsem 1 4 1 0).isLt (by decide)⟩)) c _ (peer 1 4 c) (dev_rs_4_1_0 c) (src_rs_4_1_0 c) (dst_rs_4_1_0 c) (dsem 0 4 1 0) (dsem 1 4 1 0)
      (SegB3Val.sendQ1 c (SegB3Val.bcc2 c fa g300 g310) g101) fd410 (owedFrom c 31) (insert (SemLoc.dma (dsem 1 3 1 0), ()) (insert (SemLoc.dma (dsem 0 3 1 0), ()) (insert (SemLoc.dma (dsem 1 3 0 0), ()) (insert (SemLoc.dma (dsem 0 3 0 0), ()) W))))
      (fun i v => pRS ct 4 (peer 1 4 c) (sh := S32x1024) i v)
      (duties_dma ct c 0 4 1 0 rfl) (duties_dma ct (peer 1 4 c) 1 4 1 0 rfl) (amtIx (dsem 1 4 1 0).val) rfl rfl rfl rfl
      (by show recv_rs_4_1_0 ct (peer 1 4 c) = _; unfold recv_rs_4_1_0; rw [peer_peer])
      (SegB3Val.sent_4_1 ct c YA YB laws fa g300 g310 g101 fd410 hfa hg300 hg310)) $$ [Hd1 LD410 How TS410 TR410]
  · isplitr
    · iexact HIS410
    isplitr
    · iexact HIR410
    isplitl [Hd1]
    · iexact Hd1
    isplitl [LD410]
    · iexact LD410
    isplitl [How]
    · iexact How
    isplitl [TS410]
    · iexact TS410
    isplitr
    · iexact HrS410
    isplitl [TR410]
    · iexact TR410
    iexact HrR410
  iintro ⟨CS410, How⟩
  -- the wait on cell (0, 3, 2, 0), and the cell closed
  ihave #MWS320 := (mayWait_cell (F := F) c 0 3 2 0 31 (by decide +kernel)) $$ Hlev
  ihave #HIS320 := (inv_dma ct K c 0 3 2 0 rfl) $$ HR
  iapply (Rounds.wp_wait_rest_token Segs.𝒱₀ ER (sched ct) (c : Thread nD τ) none (κ := (K (c, ⟨(dsem 0 3 2 0).val, Nat.lt_trans (dsem 0 3 2 0).isLt (by decide)⟩))) (sm := SemLoc.dma (dsem 0 3 2 0))
      (wpE_waitDma2_eq Segs.𝒱₀ (c : Thread nD τ) none Set.univ) (Set.mem_univ _) () (O := owedFrom c 31) (W := (insert (SemLoc.dma (dsem 1 3 1 0), ()) (insert (SemLoc.dma (dsem 0 3 1 0), ()) (insert (SemLoc.dma (dsem 1 3 0 0), ()) (insert (SemLoc.dma (dsem 0 3 0 0), ()) W))))) (R := 0) (m := 0) (T := ∅)
      (by rw [Nat.zero_add, expect_dma ct c 0 3 2 0 rfl]; rfl)) $$ [CS320 How PS320]
  · isplitr
    · iexact HIS320
    isplitl [CS320]
    · iexact CS320
    isplitl [How]
    · iexact How
    isplitr
    · iexact MWS320
    iexact PS320
  iintro ⟨How, PS320, -, Hpay⟩
  imod (Rounds.cell_close ER (sched ct) (g := dcell c 0 3 2 0) (Set.mem_univ _) (fun h => h) (R := 1)
    (fun r hr => duties_later ct _ r hr)) $$ [PS320] with VS320
  · isplitr
    · iexact HIS320
    iexact PS320
  ihave BS320 := (Entails.of_eq (show bigSep ((sched ct).duties (dcell c 0 3 2 0) 0 \ ∅) (fun d => (sched ct).payload (dcell c 0 3 2 0) 0 d)
      = loanV c (src_rs_3_2_0 c) from rest_dma ct c 0 3 2 0 rfl)) $$ Hpay
  -- the wait on cell (1, 3, 2, 0), and the cell closed
  ihave #MWR320 := (mayWait_cell (F := F) c 1 3 2 0 31 (by decide +kernel)) $$ Hlev
  ihave #HIR320 := (inv_dma ct K c 1 3 2 0 rfl) $$ HR
  iapply (Rounds.wp_wait_rest_token Segs.𝒱₀ ER (sched ct) (c : Thread nD τ) none (κ := (K (c, ⟨(dsem 1 3 2 0).val, Nat.lt_trans (dsem 1 3 2 0).isLt (by decide)⟩))) (sm := SemLoc.dma (dsem 1 3 2 0))
      (wpE_waitDma2_eq Segs.𝒱₀ (c : Thread nD τ) none Set.univ) (Set.mem_univ _) () (O := owedFrom c 31) (W := (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W)))))) (R := 0) (m := 0) (T := ∅)
      (by rw [Nat.zero_add, expect_dma ct c 1 3 2 0 rfl]; rfl)) $$ [CR320 How PR320]
  · isplitr
    · iexact HIR320
    isplitl [CR320]
    · iexact CR320
    isplitl [How]
    · iexact How
    isplitr
    · iexact MWR320
    iexact PR320
  iintro ⟨How, PR320, -, Hpay⟩
  imod (Rounds.cell_close ER (sched ct) (g := dcell c 1 3 2 0) (Set.mem_univ _) (fun h => h) (R := 1)
    (fun r hr => duties_later ct _ r hr)) $$ [PR320] with VR320
  · isplitr
    · iexact HIR320
    iexact PR320
  ihave BR320 := (Entails.of_eq (show bigSep ((sched ct).duties (dcell c 1 3 2 0) 0 \ ∅) (fun d => (sched ct).payload (dcell c 1 3 2 0) 0 d)
      = heldV c (dst_rs_3_2_0 (peer 2 3 c)) fullShare (fun i v => pRS ct 3 c (sh := S64x1024) i v) from rest_dma ct c 1 3 2 0 rfl)) $$ Hpay
  ihave BR320 := (heldV_open (F := F) c _ fullShare _) $$ BR320
  icases BR320 with ⟨%g320, BR320, %hg320⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch4 : Memref sig .tc .vmem S64x1024 .bf16))
      (S := (dst_rs_3_2_0 (peer 2 3 c)).view.set) (by rw [← rsLoad_3_2_0 c]; exact (View.set_slice _ _).symm.subset)) $$ BR320; iintro BR320
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off72 c) S32x256.size (k0_off72_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch10 : Memref sig .tc .vmem S32x1024 .bf16))
      (S := ssCol_4_2) ((View.set_slice _ _).symm.subset)) $$ Hd2; iintro Hd2
  iapply (wp_store Segs.𝒱₀ (c : Thread nD τ) none Set.univ (m := (Memref.whole cc0_scratch10 : Memref sig .tc .vmem S32x1024 .bf16)) (r := Rect.unit (s := S32x1024) ![0, 768] S32x256.size inb_S32x1024_S32x256_0_768) (Mk := Finset.univ)
      (S := ssCol_4_2) (Finset.Subset.refl _)) $$ Hd2; iintro Hd2
  -- the column block goes to the partner
  ihave LD420 := (loanV_open (F := F) (peer 2 4 c) (dst_rs_4_2_0 c)) $$ LD420
  icases LD420 with ⟨%fd420, LD420⟩
  ihave #HIS420 := (inv_dma ct K c 0 4 2 0 rfl) $$ HR
  ihave #HIR420 := (inv_dma ct K (peer 2 4 c) 1 4 2 0 rfl) $$ HR
  ihave #HrS420 := (reached_dma ct K c 0 4 2 0 rfl) $$ HR
  ihave #HrR420 := (reached_dma ct K (peer 2 4 c) 1 4 2 0 rfl) $$ HR
  iapply (send_step ct (K (c, ⟨(dsem 0 4 2 0).val, Nat.lt_trans (dsem 0 4 2 0).isLt (by decide)⟩)) (K (peer 2 4 c, ⟨(dsem 1 4 2 0).val, Nat.lt_trans (dsem 1 4 2 0).isLt (by decide)⟩)) c _ (peer 2 4 c) (dev_rs_4_2_0 c) (src_rs_4_2_0 c) (dst_rs_4_2_0 c) (dsem 0 4 2 0) (dsem 1 4 2 0)
      (SegB3Val.sendQ2 c (SegB3Val.bcc3 c fa g300 g310 g320) g102) fd420 (owedFrom c 32) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W))))))
      (fun i v => pRS ct 4 (peer 2 4 c) (sh := S32x1024) i v)
      (duties_dma ct c 0 4 2 0 rfl) (duties_dma ct (peer 2 4 c) 1 4 2 0 rfl) (amtIx (dsem 1 4 2 0).val) rfl rfl rfl rfl
      (by show recv_rs_4_2_0 ct (peer 2 4 c) = _; unfold recv_rs_4_2_0; rw [peer_peer])
      (SegB3Val.sent_4_2 ct c YA YB laws fa g300 g310 g320 g102 fd420 hfa hg300 hg310 hg320)) $$ [Hd2 LD420 How TS420 TR420]
  · isplitr
    · iexact HIS420
    isplitr
    · iexact HIR420
    isplitl [Hd2]
    · iexact Hd2
    isplitl [LD420]
    · iexact LD420
    isplitl [How]
    · iexact How
    isplitl [TS420]
    · iexact TS420
    isplitr
    · iexact HrS420
    isplitl [TR420]
    · iexact TR420
    iexact HrR420
  iintro ⟨CS420, How⟩
  -- the wait on cell (0, 3, 0, 1), and the cell closed
  ihave #MWS301 := (mayWait_cell (F := F) c 0 3 0 1 32 (by decide +kernel)) $$ Hlev
  ihave #HIS301 := (inv_dma ct K c 0 3 0 1 rfl) $$ HR
  iapply (Rounds.wp_wait_rest_token Segs.𝒱₀ ER (sched ct) (c : Thread nD τ) none (κ := (K (c, ⟨(dsem 0 3 0 1).val, Nat.lt_trans (dsem 0 3 0 1).isLt (by decide)⟩))) (sm := SemLoc.dma (dsem 0 3 0 1))
      (wpE_waitDma2_eq Segs.𝒱₀ (c : Thread nD τ) none Set.univ) (Set.mem_univ _) () (O := owedFrom c 32) (W := (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W))))))) (R := 0) (m := 0) (T := ∅)
      (by rw [Nat.zero_add, expect_dma ct c 0 3 0 1 rfl]; rfl)) $$ [CS301 How PS301]
  · isplitr
    · iexact HIS301
    isplitl [CS301]
    · iexact CS301
    isplitl [How]
    · iexact How
    isplitr
    · iexact MWS301
    iexact PS301
  iintro ⟨How, PS301, -, Hpay⟩
  imod (Rounds.cell_close ER (sched ct) (g := dcell c 0 3 0 1) (Set.mem_univ _) (fun h => h) (R := 1)
    (fun r hr => duties_later ct _ r hr)) $$ [PS301] with VS301
  · isplitr
    · iexact HIS301
    iexact PS301
  ihave BS301 := (Entails.of_eq (show bigSep ((sched ct).duties (dcell c 0 3 0 1) 0 \ ∅) (fun d => (sched ct).payload (dcell c 0 3 0 1) 0 d)
      = loanV c (src_rs_3_0_1 c) from rest_dma ct c 0 3 0 1 rfl)) $$ Hpay
  -- the wait on cell (1, 3, 0, 1), and the cell closed
  ihave #MWR301 := (mayWait_cell (F := F) c 1 3 0 1 32 (by decide +kernel)) $$ Hlev
  ihave #HIR301 := (inv_dma ct K c 1 3 0 1 rfl) $$ HR
  iapply (Rounds.wp_wait_rest_token Segs.𝒱₀ ER (sched ct) (c : Thread nD τ) none (κ := (K (c, ⟨(dsem 1 3 0 1).val, Nat.lt_trans (dsem 1 3 0 1).isLt (by decide)⟩))) (sm := SemLoc.dma (dsem 1 3 0 1))
      (wpE_waitDma2_eq Segs.𝒱₀ (c : Thread nD τ) none Set.univ) (Set.mem_univ _) () (O := owedFrom c 32) (W := (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W)))))))) (R := 0) (m := 0) (T := ∅)
      (by rw [Nat.zero_add, expect_dma ct c 1 3 0 1 rfl]; rfl)) $$ [CR301 How PR301]
  · isplitr
    · iexact HIR301
    isplitl [CR301]
    · iexact CR301
    isplitl [How]
    · iexact How
    isplitr
    · iexact MWR301
    iexact PR301
  iintro ⟨How, PR301, -, Hpay⟩
  imod (Rounds.cell_close ER (sched ct) (g := dcell c 1 3 0 1) (Set.mem_univ _) (fun h => h) (R := 1)
    (fun r hr => duties_later ct _ r hr)) $$ [PR301] with VR301
  · isplitr
    · iexact HIR301
    iexact PR301
  ihave BR301 := (Entails.of_eq (show bigSep ((sched ct).duties (dcell c 1 3 0 1) 0 \ ∅) (fun d => (sched ct).payload (dcell c 1 3 0 1) 0 d)
      = heldV c (dst_rs_3_0_1 (peer 0 3 c)) fullShare (fun i v => pRS ct 3 c (sh := S64x1024) i v) from rest_dma ct c 1 3 0 1 rfl)) $$ Hpay
  ihave BR301 := (heldV_open (F := F) c _ fullShare _) $$ BR301
  icases BR301 with ⟨%g301, BR301, %hg301⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch4 : Memref sig .tc .vmem S64x1024 .bf16))
      (S := (dst_rs_3_0_1 (peer 0 3 c)).view.set) (by rw [← rsLoad_3_0_1 c]; exact (View.set_slice _ _).symm.subset)) $$ BR301; iintro BR301
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off74 c) S32x384.size (k0_off74_inb c)) (Mk := Finset.univ) (Finset.subset_univ _)) $$ Hacc; iintro Hacc
  -- the wait on cell (0, 3, 1, 1), and the cell closed
  ihave #MWS311 := (mayWait_cell (F := F) c 0 3 1 1 32 (by decide +kernel)) $$ Hlev
  ihave #HIS311 := (inv_dma ct K c 0 3 1 1 rfl) $$ HR
  iapply (Rounds.wp_wait_rest_token Segs.𝒱₀ ER (sched ct) (c : Thread nD τ) none (κ := (K (c, ⟨(dsem 0 3 1 1).val, Nat.lt_trans (dsem 0 3 1 1).isLt (by decide)⟩))) (sm := SemLoc.dma (dsem 0 3 1 1))
      (wpE_waitDma2_eq Segs.𝒱₀ (c : Thread nD τ) none Set.univ) (Set.mem_univ _) () (O := owedFrom c 32) (W := (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W))))))))) (R := 0) (m := 0) (T := ∅)
      (by rw [Nat.zero_add, expect_dma ct c 0 3 1 1 rfl]; rfl)) $$ [CS311 How PS311]
  · isplitr
    · iexact HIS311
    isplitl [CS311]
    · iexact CS311
    isplitl [How]
    · iexact How
    isplitr
    · iexact MWS311
    iexact PS311
  iintro ⟨How, PS311, -, Hpay⟩
  imod (Rounds.cell_close ER (sched ct) (g := dcell c 0 3 1 1) (Set.mem_univ _) (fun h => h) (R := 1)
    (fun r hr => duties_later ct _ r hr)) $$ [PS311] with VS311
  · isplitr
    · iexact HIS311
    iexact PS311
  ihave BS311 := (Entails.of_eq (show bigSep ((sched ct).duties (dcell c 0 3 1 1) 0 \ ∅) (fun d => (sched ct).payload (dcell c 0 3 1 1) 0 d)
      = loanV c (src_rs_3_1_1 c) from rest_dma ct c 0 3 1 1 rfl)) $$ Hpay
  -- the wait on cell (1, 3, 1, 1), and the cell closed
  ihave #MWR311 := (mayWait_cell (F := F) c 1 3 1 1 32 (by decide +kernel)) $$ Hlev
  ihave #HIR311 := (inv_dma ct K c 1 3 1 1 rfl) $$ HR
  iapply (Rounds.wp_wait_rest_token Segs.𝒱₀ ER (sched ct) (c : Thread nD τ) none (κ := (K (c, ⟨(dsem 1 3 1 1).val, Nat.lt_trans (dsem 1 3 1 1).isLt (by decide)⟩))) (sm := SemLoc.dma (dsem 1 3 1 1))
      (wpE_waitDma2_eq Segs.𝒱₀ (c : Thread nD τ) none Set.univ) (Set.mem_univ _) () (O := owedFrom c 32) (W := (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W)))))))))) (R := 0) (m := 0) (T := ∅)
      (by rw [Nat.zero_add, expect_dma ct c 1 3 1 1 rfl]; rfl)) $$ [CR311 How PR311]
  · isplitr
    · iexact HIR311
    isplitl [CR311]
    · iexact CR311
    isplitl [How]
    · iexact How
    isplitr
    · iexact MWR311
    iexact PR311
  iintro ⟨How, PR311, -, Hpay⟩
  imod (Rounds.cell_close ER (sched ct) (g := dcell c 1 3 1 1) (Set.mem_univ _) (fun h => h) (R := 1)
    (fun r hr => duties_later ct _ r hr)) $$ [PR311] with VR311
  · isplitr
    · iexact HIR311
    iexact PR311
  ihave BR311 := (Entails.of_eq (show bigSep ((sched ct).duties (dcell c 1 3 1 1) 0 \ ∅) (fun d => (sched ct).payload (dcell c 1 3 1 1) 0 d)
      = heldV c (dst_rs_3_1_1 (peer 1 3 c)) fullShare (fun i v => pRS ct 3 c (sh := S64x1024) i v) from rest_dma ct c 1 3 1 1 rfl)) $$ Hpay
  ihave BR311 := (heldV_open (F := F) c _ fullShare _) $$ BR311
  icases BR311 with ⟨%g311, BR311, %hg311⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch4 : Memref sig .tc .vmem S64x1024 .bf16))
      (S := (dst_rs_3_1_1 (peer 1 3 c)).view.set) (by rw [← rsLoad_3_1_1 c]; exact (View.set_slice _ _).symm.subset)) $$ BR311; iintro BR311
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off76 c) S32x384.size (k0_off76_inb c)) (Mk := Finset.univ) (Finset.subset_univ _)) $$ Hacc; iintro Hacc
  -- the wait on cell (0, 3, 2, 1), and the cell closed
  ihave #MWS321 := (mayWait_cell (F := F) c 0 3 2 1 32 (by decide +kernel)) $$ Hlev
  ihave #HIS321 := (inv_dma ct K c 0 3 2 1 rfl) $$ HR
  iapply (Rounds.wp_wait_rest_token Segs.𝒱₀ ER (sched ct) (c : Thread nD τ) none (κ := (K (c, ⟨(dsem 0 3 2 1).val, Nat.lt_trans (dsem 0 3 2 1).isLt (by decide)⟩))) (sm := SemLoc.dma (dsem 0 3 2 1))
      (wpE_waitDma2_eq Segs.𝒱₀ (c : Thread nD τ) none Set.univ) (Set.mem_univ _) () (O := owedFrom c 32) (W := (insert (SemLoc.dma (dsem 1 3 1 1), ()) (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W))))))))))) (R := 0) (m := 0) (T := ∅)
      (by rw [Nat.zero_add, expect_dma ct c 0 3 2 1 rfl]; rfl)) $$ [CS321 How PS321]
  · isplitr
    · iexact HIS321
    isplitl [CS321]
    · iexact CS321
    isplitl [How]
    · iexact How
    isplitr
    · iexact MWS321
    iexact PS321
  iintro ⟨How, PS321, -, Hpay⟩
  imod (Rounds.cell_close ER (sched ct) (g := dcell c 0 3 2 1) (Set.mem_univ _) (fun h => h) (R := 1)
    (fun r hr => duties_later ct _ r hr)) $$ [PS321] with VS321
  · isplitr
    · iexact HIS321
    iexact PS321
  ihave BS321 := (Entails.of_eq (show bigSep ((sched ct).duties (dcell c 0 3 2 1) 0 \ ∅) (fun d => (sched ct).payload (dcell c 0 3 2 1) 0 d)
      = loanV c (src_rs_3_2_1 c) from rest_dma ct c 0 3 2 1 rfl)) $$ Hpay
  -- the wait on cell (1, 3, 2, 1), and the cell closed
  ihave #MWR321 := (mayWait_cell (F := F) c 1 3 2 1 32 (by decide +kernel)) $$ Hlev
  ihave #HIR321 := (inv_dma ct K c 1 3 2 1 rfl) $$ HR
  iapply (Rounds.wp_wait_rest_token Segs.𝒱₀ ER (sched ct) (c : Thread nD τ) none (κ := (K (c, ⟨(dsem 1 3 2 1).val, Nat.lt_trans (dsem 1 3 2 1).isLt (by decide)⟩))) (sm := SemLoc.dma (dsem 1 3 2 1))
      (wpE_waitDma2_eq Segs.𝒱₀ (c : Thread nD τ) none Set.univ) (Set.mem_univ _) () (O := owedFrom c 32) (W := (insert (SemLoc.dma (dsem 0 3 2 1), ()) (insert (SemLoc.dma (dsem 1 3 1 1), ()) (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W)))))))))))) (R := 0) (m := 0) (T := ∅)
      (by rw [Nat.zero_add, expect_dma ct c 1 3 2 1 rfl]; rfl)) $$ [CR321 How PR321]
  · isplitr
    · iexact HIR321
    isplitl [CR321]
    · iexact CR321
    isplitl [How]
    · iexact How
    isplitr
    · iexact MWR321
    iexact PR321
  iintro ⟨How, PR321, -, Hpay⟩
  imod (Rounds.cell_close ER (sched ct) (g := dcell c 1 3 2 1) (Set.mem_univ _) (fun h => h) (R := 1)
    (fun r hr => duties_later ct _ r hr)) $$ [PR321] with VR321
  · isplitr
    · iexact HIR321
    iexact PR321
  ihave BR321 := (Entails.of_eq (show bigSep ((sched ct).duties (dcell c 1 3 2 1) 0 \ ∅) (fun d => (sched ct).payload (dcell c 1 3 2 1) 0 d)
      = heldV c (dst_rs_3_2_1 (peer 2 3 c)) fullShare (fun i v => pRS ct 3 c (sh := S64x1024) i v) from rest_dma ct c 1 3 2 1 rfl)) $$ Hpay
  ihave BR321 := (heldV_open (F := F) c _ fullShare _) $$ BR321
  icases BR321 with ⟨%g321, BR321, %hg321⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch4 : Memref sig .tc .vmem S64x1024 .bf16))
      (S := (dst_rs_3_2_1 (peer 2 3 c)).view.set) (by rw [← rsLoad_3_2_1 c]; exact (View.set_slice _ _).symm.subset)) $$ BR321; iintro BR321
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off78 c) S32x256.size (k0_off78_inb c)) (Mk := Finset.univ) (Finset.subset_univ _)) $$ Hacc; iintro Hacc
  -- the wait on cell (0, 4, 0, 0), and the cell closed
  ihave #MWS400 := (mayWait_cell (F := F) c 0 4 0 0 32 (by decide +kernel)) $$ Hlev
  ihave #HIS400 := (inv_dma ct K c 0 4 0 0 rfl) $$ HR
  iapply (Rounds.wp_wait_rest_token Segs.𝒱₀ ER (sched ct) (c : Thread nD τ) none (κ := (K (c, ⟨(dsem 0 4 0 0).val, Nat.lt_trans (dsem 0 4 0 0).isLt (by decide)⟩))) (sm := SemLoc.dma (dsem 0 4 0 0))
      (wpE_waitDma2_eq Segs.𝒱₀ (c : Thread nD τ) none Set.univ) (Set.mem_univ _) () (O := owedFrom c 32) (W := (insert (SemLoc.dma (dsem 1 3 2 1), ()) (insert (SemLoc.dma (dsem 0 3 2 1), ()) (insert (SemLoc.dma (dsem 1 3 1 1), ()) (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W))))))))))))) (R := 0) (m := 0) (T := ∅)
      (by rw [Nat.zero_add, expect_dma ct c 0 4 0 0 rfl]; rfl)) $$ [CS400 How PS400]
  · isplitr
    · iexact HIS400
    isplitl [CS400]
    · iexact CS400
    isplitl [How]
    · iexact How
    isplitr
    · iexact MWS400
    iexact PS400
  iintro ⟨How, PS400, -, Hpay⟩
  imod (Rounds.cell_close ER (sched ct) (g := dcell c 0 4 0 0) (Set.mem_univ _) (fun h => h) (R := 1)
    (fun r hr => duties_later ct _ r hr)) $$ [PS400] with VS400
  · isplitr
    · iexact HIS400
    iexact PS400
  ihave BS400 := (Entails.of_eq (show bigSep ((sched ct).duties (dcell c 0 4 0 0) 0 \ ∅) (fun d => (sched ct).payload (dcell c 0 4 0 0) 0 d)
      = loanV c (src_rs_4_0_0 c) from rest_dma ct c 0 4 0 0 rfl)) $$ Hpay
  -- the wait on cell (1, 4, 0, 0), and the cell closed
  ihave #MWR400 := (mayWait_cell (F := F) c 1 4 0 0 32 (by decide +kernel)) $$ Hlev
  ihave #HIR400 := (inv_dma ct K c 1 4 0 0 rfl) $$ HR
  iapply (Rounds.wp_wait_rest_token Segs.𝒱₀ ER (sched ct) (c : Thread nD τ) none (κ := (K (c, ⟨(dsem 1 4 0 0).val, Nat.lt_trans (dsem 1 4 0 0).isLt (by decide)⟩))) (sm := SemLoc.dma (dsem 1 4 0 0))
      (wpE_waitDma2_eq Segs.𝒱₀ (c : Thread nD τ) none Set.univ) (Set.mem_univ _) () (O := owedFrom c 32) (W := (insert (SemLoc.dma (dsem 0 4 0 0), ()) (insert (SemLoc.dma (dsem 1 3 2 1), ()) (insert (SemLoc.dma (dsem 0 3 2 1), ()) (insert (SemLoc.dma (dsem 1 3 1 1), ()) (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W)))))))))))))) (R := 0) (m := 0) (T := ∅)
      (by rw [Nat.zero_add, expect_dma ct c 1 4 0 0 rfl]; rfl)) $$ [CR400 How PR400]
  · isplitr
    · iexact HIR400
    isplitl [CR400]
    · iexact CR400
    isplitl [How]
    · iexact How
    isplitr
    · iexact MWR400
    iexact PR400
  iintro ⟨How, PR400, -, Hpay⟩
  imod (Rounds.cell_close ER (sched ct) (g := dcell c 1 4 0 0) (Set.mem_univ _) (fun h => h) (R := 1)
    (fun r hr => duties_later ct _ r hr)) $$ [PR400] with VR400
  · isplitr
    · iexact HIR400
    iexact PR400
  ihave BR400 := (Entails.of_eq (show bigSep ((sched ct).duties (dcell c 1 4 0 0) 0 \ ∅) (fun d => (sched ct).payload (dcell c 1 4 0 0) 0 d)
      = heldV c (dst_rs_4_0_0 (peer 0 4 c)) fullShare (fun i v => pRS ct 4 c (sh := S32x1024) i v) from rest_dma ct c 1 4 0 0 rfl)) $$ Hpay
  ihave BR400 := (heldV_open (F := F) c _ fullShare _) $$ BR400
  icases BR400 with ⟨%g400, BR400, %hg400⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch5 : Memref sig .tc .vmem S32x1024 .bf16))
      (S := (dst_rs_4_0_0 (peer 0 4 c)).view.set) (by rw [← rsLoad_4_0_0 c]; exact (View.set_slice _ _).symm.subset)) $$ BR400; iintro BR400
  iapply (wp_load Segs.𝒱₀ (c : Thread nD τ) none Set.univ (m := (Memref.whole cc0_stg2_0 : Memref sig .tc .vmem S1024x1024 .bf16))
      (S := (src_ag_4_0_0 c).view.set) (by rw [← outM_0_set c]; exact (View.set_slice _ _).symm.subset)) $$ Ho0; iintro Ho0
  iapply (wp_store Segs.𝒱₀ (c : Thread nD τ) none Set.univ (m := (Memref.whole cc0_stg2_0 : Memref sig .tc .vmem S1024x1024 .bf16)) (r := Rect.unit (s := S1024x1024) (k0_off74 c) S32x384.size (k0_off74_inb c)) (Mk := Finset.univ)
      (S := (src_ag_4_0_0 c).view.set) (by rw [← outM_0_set c]; exact Finset.Subset.refl _)) $$ Ho0; iintro Ho0
  -- the wait on cell (0, 4, 1, 0), and the cell closed
  ihave #MWS410 := (mayWait_cell (F := F) c 0 4 1 0 32 (by decide +kernel)) $$ Hlev
  ihave #HIS410 := (inv_dma ct K c 0 4 1 0 rfl) $$ HR
  iapply (Rounds.wp_wait_rest_token Segs.𝒱₀ ER (sched ct) (c : Thread nD τ) none (κ := (K (c, ⟨(dsem 0 4 1 0).val, Nat.lt_trans (dsem 0 4 1 0).isLt (by decide)⟩))) (sm := SemLoc.dma (dsem 0 4 1 0))
      (wpE_waitDma2_eq Segs.𝒱₀ (c : Thread nD τ) none Set.univ) (Set.mem_univ _) () (O := owedFrom c 32) (W := (insert (SemLoc.dma (dsem 1 4 0 0), ()) (insert (SemLoc.dma (dsem 0 4 0 0), ()) (insert (SemLoc.dma (dsem 1 3 2 1), ()) (insert (SemLoc.dma (dsem 0 3 2 1), ()) (insert (SemLoc.dma (dsem 1 3 1 1), ()) (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W))))))))))))))) (R := 0) (m := 0) (T := ∅)
      (by rw [Nat.zero_add, expect_dma ct c 0 4 1 0 rfl]; rfl)) $$ [CS410 How PS410]
  · isplitr
    · iexact HIS410
    isplitl [CS410]
    · iexact CS410
    isplitl [How]
    · iexact How
    isplitr
    · iexact MWS410
    iexact PS410
  iintro ⟨How, PS410, -, Hpay⟩
  imod (Rounds.cell_close ER (sched ct) (g := dcell c 0 4 1 0) (Set.mem_univ _) (fun h => h) (R := 1)
    (fun r hr => duties_later ct _ r hr)) $$ [PS410] with VS410
  · isplitr
    · iexact HIS410
    iexact PS410
  ihave BS410 := (Entails.of_eq (show bigSep ((sched ct).duties (dcell c 0 4 1 0) 0 \ ∅) (fun d => (sched ct).payload (dcell c 0 4 1 0) 0 d)
      = loanV c (src_rs_4_1_0 c) from rest_dma ct c 0 4 1 0 rfl)) $$ Hpay
  -- the wait on cell (1, 4, 1, 0), and the cell closed
  ihave #MWR410 := (mayWait_cell (F := F) c 1 4 1 0 32 (by decide +kernel)) $$ Hlev
  ihave #HIR410 := (inv_dma ct K c 1 4 1 0 rfl) $$ HR
  iapply (Rounds.wp_wait_rest_token Segs.𝒱₀ ER (sched ct) (c : Thread nD τ) none (κ := (K (c, ⟨(dsem 1 4 1 0).val, Nat.lt_trans (dsem 1 4 1 0).isLt (by decide)⟩))) (sm := SemLoc.dma (dsem 1 4 1 0))
      (wpE_waitDma2_eq Segs.𝒱₀ (c : Thread nD τ) none Set.univ) (Set.mem_univ _) () (O := owedFrom c 32) (W := (insert (SemLoc.dma (dsem 0 4 1 0), ()) (insert (SemLoc.dma (dsem 1 4 0 0), ()) (insert (SemLoc.dma (dsem 0 4 0 0), ()) (insert (SemLoc.dma (dsem 1 3 2 1), ()) (insert (SemLoc.dma (dsem 0 3 2 1), ()) (insert (SemLoc.dma (dsem 1 3 1 1), ()) (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W)))))))))))))))) (R := 0) (m := 0) (T := ∅)
      (by rw [Nat.zero_add, expect_dma ct c 1 4 1 0 rfl]; rfl)) $$ [CR410 How PR410]
  · isplitr
    · iexact HIR410
    isplitl [CR410]
    · iexact CR410
    isplitl [How]
    · iexact How
    isplitr
    · iexact MWR410
    iexact PR410
  iintro ⟨How, PR410, -, Hpay⟩
  imod (Rounds.cell_close ER (sched ct) (g := dcell c 1 4 1 0) (Set.mem_univ _) (fun h => h) (R := 1)
    (fun r hr => duties_later ct _ r hr)) $$ [PR410] with VR410
  · isplitr
    · iexact HIR410
    iexact PR410
  ihave BR410 := (Entails.of_eq (show bigSep ((sched ct).duties (dcell c 1 4 1 0) 0 \ ∅) (fun d => (sched ct).payload (dcell c 1 4 1 0) 0 d)
      = heldV c (dst_rs_4_1_0 (peer 1 4 c)) fullShare (fun i v => pRS ct 4 c (sh := S32x1024) i v) from rest_dma ct c 1 4 1 0 rfl)) $$ Hpay
  ihave BR410 := (heldV_open (F := F) c _ fullShare _) $$ BR410
  icases BR410 with ⟨%g410, BR410, %hg410⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch5 : Memref sig .tc .vmem S32x1024 .bf16))
      (S := (dst_rs_4_1_0 (peer 1 4 c)).view.set) (by rw [← rsLoad_4_1_0 c]; exact (View.set_slice _ _).symm.subset)) $$ BR410; iintro BR410
  iapply (wp_load Segs.𝒱₀ (c : Thread nD τ) none Set.univ (m := (Memref.whole cc0_stg2_0 : Memref sig .tc .vmem S1024x1024 .bf16))
      (S := (src_ag_4_1_0 c).view.set) (by rw [← outM_1_set c]; exact (View.set_slice _ _).symm.subset)) $$ Ho1; iintro Ho1
  iapply (wp_store Segs.𝒱₀ (c : Thread nD τ) none Set.univ (m := (Memref.whole cc0_stg2_0 : Memref sig .tc .vmem S1024x1024 .bf16)) (r := Rect.unit (s := S1024x1024) (k0_off76 c) S32x384.size (k0_off76_inb c)) (Mk := Finset.univ)
      (S := (src_ag_4_1_0 c).view.set) (by rw [← outM_1_set c]; exact Finset.Subset.refl _)) $$ Ho1; iintro Ho1
  -- the wait on cell (0, 4, 2, 0), and the cell closed
  ihave #MWS420 := (mayWait_cell (F := F) c 0 4 2 0 32 (by decide +kernel)) $$ Hlev
  ihave #HIS420 := (inv_dma ct K c 0 4 2 0 rfl) $$ HR
  iapply (Rounds.wp_wait_rest_token Segs.𝒱₀ ER (sched ct) (c : Thread nD τ) none (κ := (K (c, ⟨(dsem 0 4 2 0).val, Nat.lt_trans (dsem 0 4 2 0).isLt (by decide)⟩))) (sm := SemLoc.dma (dsem 0 4 2 0))
      (wpE_waitDma2_eq Segs.𝒱₀ (c : Thread nD τ) none Set.univ) (Set.mem_univ _) () (O := owedFrom c 32) (W := (insert (SemLoc.dma (dsem 1 4 1 0), ()) (insert (SemLoc.dma (dsem 0 4 1 0), ()) (insert (SemLoc.dma (dsem 1 4 0 0), ()) (insert (SemLoc.dma (dsem 0 4 0 0), ()) (insert (SemLoc.dma (dsem 1 3 2 1), ()) (insert (SemLoc.dma (dsem 0 3 2 1), ()) (insert (SemLoc.dma (dsem 1 3 1 1), ()) (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W))))))))))))))))) (R := 0) (m := 0) (T := ∅)
      (by rw [Nat.zero_add, expect_dma ct c 0 4 2 0 rfl]; rfl)) $$ [CS420 How PS420]
  · isplitr
    · iexact HIS420
    isplitl [CS420]
    · iexact CS420
    isplitl [How]
    · iexact How
    isplitr
    · iexact MWS420
    iexact PS420
  iintro ⟨How, PS420, -, Hpay⟩
  imod (Rounds.cell_close ER (sched ct) (g := dcell c 0 4 2 0) (Set.mem_univ _) (fun h => h) (R := 1)
    (fun r hr => duties_later ct _ r hr)) $$ [PS420] with VS420
  · isplitr
    · iexact HIS420
    iexact PS420
  ihave BS420 := (Entails.of_eq (show bigSep ((sched ct).duties (dcell c 0 4 2 0) 0 \ ∅) (fun d => (sched ct).payload (dcell c 0 4 2 0) 0 d)
      = loanV c (src_rs_4_2_0 c) from rest_dma ct c 0 4 2 0 rfl)) $$ Hpay
  -- the wait on cell (1, 4, 2, 0), and the cell closed
  ihave #MWR420 := (mayWait_cell (F := F) c 1 4 2 0 32 (by decide +kernel)) $$ Hlev
  ihave #HIR420 := (inv_dma ct K c 1 4 2 0 rfl) $$ HR
  iapply (Rounds.wp_wait_rest_token Segs.𝒱₀ ER (sched ct) (c : Thread nD τ) none (κ := (K (c, ⟨(dsem 1 4 2 0).val, Nat.lt_trans (dsem 1 4 2 0).isLt (by decide)⟩))) (sm := SemLoc.dma (dsem 1 4 2 0))
      (wpE_waitDma2_eq Segs.𝒱₀ (c : Thread nD τ) none Set.univ) (Set.mem_univ _) () (O := owedFrom c 32) (W := (insert (SemLoc.dma (dsem 0 4 2 0), ()) (insert (SemLoc.dma (dsem 1 4 1 0), ()) (insert (SemLoc.dma (dsem 0 4 1 0), ()) (insert (SemLoc.dma (dsem 1 4 0 0), ()) (insert (SemLoc.dma (dsem 0 4 0 0), ()) (insert (SemLoc.dma (dsem 1 3 2 1), ()) (insert (SemLoc.dma (dsem 0 3 2 1), ()) (insert (SemLoc.dma (dsem 1 3 1 1), ()) (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W)))))))))))))))))) (R := 0) (m := 0) (T := ∅)
      (by rw [Nat.zero_add, expect_dma ct c 1 4 2 0 rfl]; rfl)) $$ [CR420 How PR420]
  · isplitr
    · iexact HIR420
    isplitl [CR420]
    · iexact CR420
    isplitl [How]
    · iexact How
    isplitr
    · iexact MWR420
    iexact PR420
  iintro ⟨How, PR420, -, Hpay⟩
  imod (Rounds.cell_close ER (sched ct) (g := dcell c 1 4 2 0) (Set.mem_univ _) (fun h => h) (R := 1)
    (fun r hr => duties_later ct _ r hr)) $$ [PR420] with VR420
  · isplitr
    · iexact HIR420
    iexact PR420
  ihave BR420 := (Entails.of_eq (show bigSep ((sched ct).duties (dcell c 1 4 2 0) 0 \ ∅) (fun d => (sched ct).payload (dcell c 1 4 2 0) 0 d)
      = heldV c (dst_rs_4_2_0 (peer 2 4 c)) fullShare (fun i v => pRS ct 4 c (sh := S32x1024) i v) from rest_dma ct c 1 4 2 0 rfl)) $$ Hpay
  ihave BR420 := (heldV_open (F := F) c _ fullShare _) $$ BR420
  icases BR420 with ⟨%g420, BR420, %hg420⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch5 : Memref sig .tc .vmem S32x1024 .bf16))
      (S := (dst_rs_4_2_0 (peer 2 4 c)).view.set) (by rw [← rsLoad_4_2_0 c]; exact (View.set_slice _ _).symm.subset)) $$ BR420; iintro BR420
  iapply (wp_load Segs.𝒱₀ (c : Thread nD τ) none Set.univ (m := (Memref.whole cc0_stg2_0 : Memref sig .tc .vmem S1024x1024 .bf16))
      (S := (src_ag_4_2_0 c).view.set) (by rw [← outM_2_set c]; exact (View.set_slice _ _).symm.subset)) $$ Ho2; iintro Ho2
  iapply (wp_store Segs.𝒱₀ (c : Thread nD τ) none Set.univ (m := (Memref.whole cc0_stg2_0 : Memref sig .tc .vmem S1024x1024 .bf16)) (r := Rect.unit (s := S1024x1024) (k0_off78 c) S32x256.size (k0_off78_inb c)) (Mk := Finset.univ)
      (S := (src_ag_4_2_0 c).view.set) (by rw [← outM_2_set c]; exact Finset.Subset.refl _)) $$ Ho2; iintro Ho2
  ihave BR300 := (loanV_fold (F := F) c (dst_rs_3_0_0 (peer 0 3 c)) _) $$ BR300
  ihave BR301 := (loanV_fold (F := F) c (dst_rs_3_0_1 (peer 0 3 c)) _) $$ BR301
  ihave BR310 := (loanV_fold (F := F) c (dst_rs_3_1_0 (peer 1 3 c)) _) $$ BR310
  ihave BR311 := (loanV_fold (F := F) c (dst_rs_3_1_1 (peer 1 3 c)) _) $$ BR311
  ihave BR320 := (loanV_fold (F := F) c (dst_rs_3_2_0 (peer 2 3 c)) _) $$ BR320
  ihave BR321 := (loanV_fold (F := F) c (dst_rs_3_2_1 (peer 2 3 c)) _) $$ BR321
  ihave BR400 := (loanV_fold (F := F) c (dst_rs_4_0_0 (peer 0 4 c)) _) $$ BR400
  ihave BR410 := (loanV_fold (F := F) c (dst_rs_4_1_0 (peer 1 4 c)) _) $$ BR410
  ihave BR420 := (loanV_fold (F := F) c (dst_rs_4_2_0 (peer 2 4 c)) _) $$ BR420
  ihave Hrs3w := (rs_join_3 (F := F) c) $$ [BR300 BR301 BR310 BR311 BR320 BR321]
  · isplitl [BR300]
    · iexact BR300
    isplitl [BR301]
    · iexact BR301
    isplitl [BR310]
    · iexact BR310
    isplitl [BR311]
    · iexact BR311
    isplitl [BR320]
    · iexact BR320
    iexact BR321
  ihave Hrs4w := (rs_join_4 (F := F) c) $$ [BR400 BR410 BR420]
  · isplitl [BR400]
    · iexact BR400
    isplitl [BR410]
    · iexact BR410
    iexact BR420
  ihave Hss3w := (ss_join_3 (F := F) c) $$ [BS300 BS301 BS310 BS311 BS320 BS321]
  · isplitl [BS300]
    · iexact BS300
    isplitl [BS301]
    · iexact BS301
    isplitl [BS310]
    · iexact BS310
    isplitl [BS311]
    · iexact BS311
    isplitl [BS320]
    · iexact BS320
    iexact BS321
  ihave Hss4w := (ss_join_4 (F := F) c) $$ [BS400 BS410 BS420]
  · isplitl [BS400]
    · iexact BS400
    isplitl [BS410]
    · iexact BS410
    iexact BS420
  iapply Hk $$ %v3 %v4 %v5 %v6 %v7 %v8 %v9 %v10 %v11 %v12 %v13 %v14 %v15 %v16 %v17 %v18 %v20 %v22 %v24 %v26 %v28 %v827 %(Scalar.addi v663 (Scalar.muli v22 32#32)) %(Scalar.addi v715 (Scalar.muli v22 32#32))
  unfold Segs.Pre40 closedRS
  rw [scopedRest0_eq]
  isplitr
  · iexact HR
  isplitr
  · iexact Hlev
  isplitl [How]
  · iexists _
    iexact How
  isplitl [HtoksAG]
  · iexact HtoksAG
  isplitl [HposAG]
  · iexact HposAG
  isplitl [HcredAG]
  · iexact HcredAG
  isplitl [VS000 VR000 VS001 VR001 VS010 VR010 VS011 VR011 VS020 VR020 VS021 VR021 VS100 VR100 VS101 VR101 VS110 VR110 VS111 VR111 VS120 VR120 VS121 VR121 VS200 VR200 VS201 VR201 VS210 VR210 VS211 VR211 VS220 VR220 VS221 VR221 VS300 VR300 VS301 VR301 VS310 VR310 VS311 VR311 VS320 VR320 VS321 VR321 VS400 VR400 VS410 VR410 VS420 VR420]
  · isplitl [VS000 VR000]
    · isplitl [VS000]
      · iexact VS000
      iexact VR000
    isplitl [VS001 VR001]
    · isplitl [VS001]
      · iexact VS001
      iexact VR001
    isplitl [VS010 VR010]
    · isplitl [VS010]
      · iexact VS010
      iexact VR010
    isplitl [VS011 VR011]
    · isplitl [VS011]
      · iexact VS011
      iexact VR011
    isplitl [VS020 VR020]
    · isplitl [VS020]
      · iexact VS020
      iexact VR020
    isplitl [VS021 VR021]
    · isplitl [VS021]
      · iexact VS021
      iexact VR021
    isplitl [VS100 VR100]
    · isplitl [VS100]
      · iexact VS100
      iexact VR100
    isplitl [VS101 VR101]
    · isplitl [VS101]
      · iexact VS101
      iexact VR101
    isplitl [VS110 VR110]
    · isplitl [VS110]
      · iexact VS110
      iexact VR110
    isplitl [VS111 VR111]
    · isplitl [VS111]
      · iexact VS111
      iexact VR111
    isplitl [VS120 VR120]
    · isplitl [VS120]
      · iexact VS120
      iexact VR120
    isplitl [VS121 VR121]
    · isplitl [VS121]
      · iexact VS121
      iexact VR121
    isplitl [VS200 VR200]
    · isplitl [VS200]
      · iexact VS200
      iexact VR200
    isplitl [VS201 VR201]
    · isplitl [VS201]
      · iexact VS201
      iexact VR201
    isplitl [VS210 VR210]
    · isplitl [VS210]
      · iexact VS210
      iexact VR210
    isplitl [VS211 VR211]
    · isplitl [VS211]
      · iexact VS211
      iexact VR211
    isplitl [VS220 VR220]
    · isplitl [VS220]
      · iexact VS220
      iexact VR220
    isplitl [VS221 VR221]
    · isplitl [VS221]
      · iexact VS221
      iexact VR221
    isplitl [VS300 VR300]
    · isplitl [VS300]
      · iexact VS300
      iexact VR300
    isplitl [VS301 VR301]
    · isplitl [VS301]
      · iexact VS301
      iexact VR301
    isplitl [VS310 VR310]
    · isplitl [VS310]
      · iexact VS310
      iexact VR310
    isplitl [VS311 VR311]
    · isplitl [VS311]
      · iexact VS311
      iexact VR311
    isplitl [VS320 VR320]
    · isplitl [VS320]
      · iexact VS320
      iexact VR320
    isplitl [VS321 VR321]
    · isplitl [VS321]
      · iexact VS321
      iexact VR321
    isplitl [VS400 VR400]
    · isplitl [VS400]
      · iexact VS400
      iexact VR400
    isplitl [VS410 VR410]
    · isplitl [VS410]
      · iexact VS410
      iexact VR410
    isplitl [VS420]
    · iexact VS420
    iexact VR420
  isplitl [Hidle]
  · iexact Hidle
  isplitl [HA]
  · iexact HA
  isplitl [HB]
  · iexact HB
  isplitl [Ho0 Ho1 Ho2]
  · isplitl [Ho0]
    · iapply (heldV_fold (F := F) c (src_ag_4_0_0 c) fullShare _ _ (SegB3Val.out_0 ct c YA YB laws fa g300 g310 g320 g301 g311 g321 g400 o0 hfa hg300 hg310 hg320 hg301 hg311 hg321 hg400))
      iexact Ho0
    isplitl [Ho1]
    · iapply (heldV_fold (F := F) c (src_ag_4_1_0 c) fullShare _ _ (SegB3Val.out_1 ct c YA YB laws fa g300 g310 g320 g301 g311 g321 g410 o1 hfa hg300 hg310 hg320 hg301 hg311 hg321 hg410))
      iexact Ho1
    iapply (heldV_fold (F := F) c (src_ag_4_2_0 c) fullShare _ _ (SegB3Val.out_2 ct c YA YB laws fa g300 g310 g320 g301 g311 g321 g420 o2 hfa hg300 hg310 hg320 hg301 hg311 hg321 hg420))
    iexact Ho2
  isplitl [Hacc Hs1 Hs2 Hs3 Hrs3w Hrs4w Hs6 Hs7 Hs8 Hss3w Hss4w]
  · isplitl [Hacc]
    · iexists _
      iexact Hacc
    isplitl [Hs1]
    · iexact Hs1
    isplitl [Hs2]
    · iexact Hs2
    isplitl [Hs3]
    · iexact Hs3
    isplitl [Hrs3w]
    · iexact Hrs3w
    isplitl [Hrs4w]
    · iexact Hrs4w
    isplitl [Hs6]
    · iexact Hs6
    isplitl [Hs7]
    · iexact Hs7
    isplitl [Hs8]
    · iexact Hs8
    isplitl [Hss3w]
    · iexact Hss3w
    iexact Hss4w
  iexact HlandAG

end Cert.KernelIdeal.SegB3

end
-- ==== Proof.SegB.lean ====
/-
  The second segment of the body: stages one to four of the summing phase and the pointwise function.
-/
import proofs.«900879_g7700000000000880_dist_matmul_gelu_kshard_i_m1024_n1024_k512_v7x_i32_bf16_1_alg».proof.Proof.SegBGlue
import proofs.«900879_g7700000000000880_dist_matmul_gelu_kshard_i_m1024_n1024_k512_v7x_i32_bf16_1_alg».proof.Proof.SegB1Alt
import proofs.«900879_g7700000000000880_dist_matmul_gelu_kshard_i_m1024_n1024_k512_v7x_i32_bf16_1_alg».proof.Proof.SegB2
import proofs.«900879_g7700000000000880_dist_matmul_gelu_kshard_i_m1024_n1024_k512_v7x_i32_bf16_1_alg».proof.Proof.SegB3

noncomputable section

namespace Cert.KernelIdeal.SegB

open Cert.KernelIdeal Cert.KernelIdeal.Gen Cert.KernelIdeal.Proto Cert.KernelIdeal.Held
open Cert.KernelIdeal.Laws Cert.KernelIdeal.Segs Cert.KernelIdeal.SegBMid
open Idealize.ShloMosaic Idealize.ShloMosaic.TcCoe Idealize.SL Idealize.SL.BI Idealize.SL.Sem

variable {F : FTy → Type} [FloatOps F]

theorem segB (ct : Contract F) (K : Dev nD × Fin 124 → ℕ) (c : Dev nD)
    (YA : S1024x512.Idx → F .f32) (YB : S512x1024.Idx → F .f32) (laws : Laws ct c YA YB) {R : Type}
    (T : (Σ' (d0 : Dev nD) (v3 : BitVec 32) (v8 : BitVec 32) (v13 : BitVec 32) (v28 : BitVec 32), BitVec 32) → Prog (TpuEff nD τ sig (Elt F) Λ₀ .tc) R)
    (Kt : R → sProp (MT nD τ sig Unit (Elt F) ℕ UU ℕ)) : SegB ct K c YA YB T Kt :=
  SegBGlue.segB_of_parts ct K c YA YB T Kt (SegB1Alt.segB1 ct K c YA YB laws T Kt) (SegB2.segB2 ct K c YA YB laws T Kt) (SegB3.segB3 ct K c YA YB laws T Kt)

end Cert.KernelIdeal.SegB

end
-- ==== Proof.SegC.lean ====
/-
  The gathering phase: the third segment of the body.

  Each device sends, for each column block, its own 32 rows to the partner of exchange 4, and then, exchange
  by exchange (3, 2, 1, 0), the rows it holds as two pieces: the part it held one exchange earlier and the part
  the previous exchange brought. A piece goes out at one half of its share while the transfer of the previous
  exchange, which reads the same rows, still holds the other half; the halves alternate with the exchange.
  Every transfer returns its source share on the departure cell with the contract's fact about the rows, and
  hands the partner the landed rows under the same fact: the rows land at the positions they were read from.
  Each cell is closed right after its wait. At the end every share is home; the thirty pieces of the result
  buffer, whole and right, are the buffer.
-/
import proofs.«900879_g7700000000000880_dist_matmul_gelu_kshard_i_m1024_n1024_k512_v7x_i32_bf16_1_alg».proof.Proof.Segs
import proofs.«900879_g7700000000000880_dist_matmul_gelu_kshard_i_m1024_n1024_k512_v7x_i32_bf16_1_alg».proof.Proof.RegionsOut
import Idealize.ShloMosaic.Lib.Rounds
import Idealize.ShloMosaic.Rules.Footprints
set_option maxRecDepth 65536

noncomputable section

namespace Cert.KernelIdeal.SegC

open Cert.KernelIdeal Cert.KernelIdeal.Gen Cert.KernelIdeal.Proto Cert.KernelIdeal.Tab Cert.KernelIdeal.Held Cert.KernelIdeal.PayTab
open Cert.KernelIdeal.Sched Cert.KernelIdeal.GhostTab Cert.KernelIdeal.Owed Cert.KernelIdeal.Ghost Cert.KernelIdeal.StateTab
open Cert.KernelIdeal.Laws Cert.KernelIdeal.Cut Cert.KernelIdeal.Segs Cert.KernelIdeal.RegionsOut
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A piece at known contents that satisfy the contract is the piece held under the contract. -/
theorem hpay1 {sh : Shape} (c : Dev nD) (m : Memref sig .tc .vmem sh .bf16) (q : PosShare TreeShare)
    (P : m.view.ty.Idx → Elt F m.view.ty.elt → Prop)
    (fs : Buf (Elt F) (m.view.loc (c : Thread nD τ))) (h : ∀ i ∈ m.view.set, P i (fs i)) :
    (m.view.loc (c : Thread nD τ) ↦[m.view.set]{q} fs : sProp (MT nD τ sig Unit (Elt F) ℕ UU ℕ)) ⊢ heldV c m q P := by
  unfold heldV
  iintro H
  iexists fs
  isplitl [H]
  · iexact H
  · ipureintro; exact h

/-- Rows copied onto the same rows of another device satisfy there what they satisfied at home. -/
theorem hpay2 {sh : Shape} (c p : Dev nD) (m : Memref sig .tc .vmem sh .bf16)
    (P : m.view.ty.Idx → Elt F m.view.ty.elt → Prop)
    (fs : Buf (Elt F) (m.view.loc (c : Thread nD τ))) (fd : Buf (Elt F) (m.view.loc (p : Thread nD τ)))
    (h : ∀ i ∈ m.view.set, P i (fs i)) :
    (m.view.loc (p : Thread nD τ) ↦[m.view.set]{fullShare} (m.view.write (Elt F) fd (m.view.read (Elt F) fs) Finset.univ)
      : sProp (MT nD τ sig Unit (Elt F) ℕ UU ℕ)) ⊢ heldV p m fullShare P := by
  refine hpay1 p m fullShare P _ ?_
  intro i hi
  rw [View.write_read_eq_piecewise, View.setOn_univ, Finset.piecewise_eq_of_mem _ _ _ hi]
  exact h i hi

/-- The source held under the contract and the landing place lent, opened at their contents. -/
theorem open_send {sh : Shape} (c p : Dev nD) (m : Memref sig .tc .vmem sh .bf16) (q : PosShare TreeShare)
    (P : m.view.ty.Idx → Elt F m.view.ty.elt → Prop) {A₁ A₂ B G : sProp (MT nD τ sig Unit (Elt F) ℕ UU ℕ)}
    (h : ∀ (fs : Buf (Elt F) (m.view.loc (c : Thread nD τ))) (fd : Buf (Elt F) (m.view.loc (p : Thread nD τ))),
        (∀ i ∈ m.view.set, P i (fs i)) →
        iprop(A₁ ∗ A₂ ∗ (m.view.loc (c : Thread nD τ) ↦[m.view.set]{q} fs)
          ∗ (m.view.loc (p : Thread nD τ) ↦[m.view.set]{fullShare} fd) ∗ B) ⊢ G) :
    iprop(A₁ ∗ A₂ ∗ heldV c m q P ∗ loanV p m ∗ B) ⊢ G := by
  unfold heldV loanV
  iintro H
  icases H with ⟨HA₁, HA₂, HS, HD, HB⟩
  icases HS with ⟨%fs, Hs, %hfs⟩
  icases HD with ⟨%fd, Hd⟩
  iapply (h fs fd hfs)
  isplitl [HA₁]
  · iexact HA₁
  isplitl [HA₂]
  · iexact HA₂
  isplitl [Hs]
  · iexact Hs
  isplitl [Hd]
  · iexact Hd
  iexact HB

variable (ct : Contract F) (K : Dev nD × Fin 124 → ℕ)

theorem inv_dma (c : Dev nD) (a : Fin 4) (s : Fin 5) (k : Fin 3) (j : Fin 2) (h : usedIx (dsem a s k j).val = true) :
    (records ct K : sProp (MT nD τ sig Unit (Elt F) ℕ UU ℕ)) ⊢
      cellInv ER (sched ct) (K (c, ⟨(dsem a s k j).val, Nat.lt_trans (dsem a s k j).isLt (by decide)⟩)) (dcell c a s k j) := by
  have h0 := inv_at ct K (c, ⟨(dsem a s k j).val, Nat.lt_trans (dsem a s k j).isLt (by decide)⟩)
    (by unfold ourIx; rw [Finset.mem_filter]; exact ⟨Finset.mem_univ _, by unfold ours; rw [h]; exact Bool.or_true _⟩)
  rw [kcell_dma] at h0
  exact h0

theorem reached_dma (c : Dev nD) (a : Fin 4) (s : Fin 5) (k : Fin 3) (j : Fin 2) (h : usedIx (dsem a s k j).val = true) :
    (records ct K : sProp (MT nD τ sig Unit (Elt F) ℕ UU ℕ)) ⊢ reached ER (dcell c a s k j) 0 := by
  have h0 := reached_at ct K (c, ⟨(dsem a s k j).val, Nat.lt_trans (dsem a s k j).isLt (by decide)⟩)
    (by unfold ourIx; rw [Finset.mem_filter]; exact ⟨Finset.mem_univ _, by unfold ours; rw [h]; exact Bool.or_true _⟩)
  rw [kcell_dma] at h0
  exact h0

theorem heldV_cast {sh : Shape} {e : EltTy} (c : Dev nD) (v : Memref sig .tc .vmem sh e) {q q' : PosShare TreeShare} (h : q = q')
    (P : v.view.ty.Idx → Elt F v.view.ty.elt → Prop) :
    (heldV c v q P : sProp (MT nD τ sig Unit (Elt F) ℕ UU ℕ)) ⊢ heldV c v q' P := by subst h; exact .rfl
theorem shr42 : shr (4 : Fin 5) = shr 2 := rfl
theorem shr31 : shr (3 : Fin 5) = shr 1 := rfl
theorem shr20 : shr (2 : Fin 5) = shr 0 := rfl

theorem duty_mem (c : Dev nD) (a : Fin 4) (s : Fin 5) (k : Fin 3) (j : Fin 2) (h : usedIx (dsem a s k j).val = true) :
    (0 : Fin 5) ∈ (sched ct).duties (dcell c a s k j) 0 := by
  rw [duties_dma ct c a s k j h]; exact Finset.mem_singleton_self _
theorem expect_at (c : Dev nD) (a : Fin 4) (s : Fin 5) (k : Fin 3) (j : Fin 2) (h : usedIx (dsem a s k j).val = true) :
    0 + amtIx (dsem a s k j).val = (sched ct).expect (dcell c a s k j) 0 := by
  rw [expect_dma ct c a s k j h, Nat.zero_add]

theorem recv_at_peer_4_0_0 (c : Dev nD) :
    (sched ct).payload (dcell (peer 0 4 c) 3 4 0 0) 0 0 = heldV (peer 0 4 c) (dst_ag_4_0_0 c) fullShare (fun i v => pOut ct (sh := S1024x1024) i v rfl) := by
  show recv_ag_4_0_0 ct (peer 0 4 c) = _
  unfold recv_ag_4_0_0; rw [peer_peer]
theorem rest_S_4_0_0 (c : Dev nD) :
    bigSep ((sched ct).duties (dcell c 2 4 0 0) 0 \ ∅) (fun d => (sched ct).payload (dcell c 2 4 0 0) 0 d)
      = heldV c (src_ag_4_0_0 c) (shr 4) (fun i v => pOut ct (sh := S1024x1024) i v rfl) := rest_dma ct c 2 4 0 0 rfl
theorem rest_R_4_0_0 (c : Dev nD) :
    bigSep ((sched ct).duties (dcell c 3 4 0 0) 0 \ ∅) (fun d => (sched ct).payload (dcell c 3 4 0 0) 0 d)
      = heldV c (dst_ag_4_0_0 (peer 0 4 c)) fullShare (fun i v => pOut ct (sh := S1024x1024) i v rfl) := rest_dma ct c 3 4 0 0 rfl

theorem recv_at_peer_4_1_0 (c : Dev nD) :
    (sched ct).payload (dcell (peer 1 4 c) 3 4 1 0) 0 0 = heldV (peer 1 4 c) (dst_ag_4_1_0 c) fullShare (fun i v => pOut ct (sh := S1024x1024) i v rfl) := by
  show recv_ag_4_1_0 ct (peer 1 4 c) = _
  unfold recv_ag_4_1_0; rw [peer_peer]
theorem rest_S_4_1_0 (c : Dev nD) :
    bigSep ((sched ct).duties (dcell c 2 4 1 0) 0 \ ∅) (fun d => (sched ct).payload (dcell c 2 4 1 0) 0 d)
      = heldV c (src_ag_4_1_0 c) (shr 4) (fun i v => pOut ct (sh := S1024x1024) i v rfl) := rest_dma ct c 2 4 1 0 rfl
theorem rest_R_4_1_0 (c : Dev nD) :
    bigSep ((sched ct).duties (dcell c 3 4 1 0) 0 \ ∅) (fun d => (sched ct).payload (dcell c 3 4 1 0) 0 d)
      = heldV c (dst_ag_4_1_0 (peer 1 4 c)) fullShare (fun i v => pOut ct (sh := S1024x1024) i v rfl) := rest_dma ct c 3 4 1 0 rfl

theorem recv_at_peer_4_2_0 (c : Dev nD) :
    (sched ct).payload (dcell (peer 2 4 c) 3 4 2 0) 0 0 = heldV (peer 2 4 c) (dst_ag_4_2_0 c) fullShare (fun i v => pOut ct (sh := S1024x1024) i v rfl) := by
  show recv_ag_4_2_0 ct (peer 2 4 c) = _
  unfold recv_ag_4_2_0; rw [peer_peer]
theorem rest_S_4_2_0 (c : Dev nD) :
    bigSep ((sched ct).duties (dcell c 2 4 2 0) 0 \ ∅) (fun d => (sched ct).payload (dcell c 2 4 2 0) 0 d)
      = heldV c (src_ag_4_2_0 c) (shr 4) (fun i v => pOut ct (sh := S1024x1024) i v rfl) := rest_dma ct c 2 4 2 0 rfl
theorem rest_R_4_2_0 (c : Dev nD) :
    bigSep ((sched ct).duties (dcell c 3 4 2 0) 0 \ ∅) (fun d => (sched ct).payload (dcell c 3 4 2 0) 0 d)
      = heldV c (dst_ag_4_2_0 (peer 2 4 c)) fullShare (fun i v => pOut ct (sh := S1024x1024) i v rfl) := rest_dma ct c 3 4 2 0 rfl

theorem recv_at_peer_3_0_0 (c : Dev nD) :
    (sched ct).payload (dcell (peer 0 3 c) 3 3 0 0) 0 0 = heldV (peer 0 3 c) (dst_ag_3_0_0 c) fullShare (fun i v => pOut ct (sh := S1024x1024) i v rfl) := by
  show recv_ag_3_0_0 ct (peer 0 3 c) = _
  unfold recv_ag_3_0_0; rw [peer_peer]
theorem rest_S_3_0_0 (c : Dev nD) :
    bigSep ((sched ct).duties (dcell c 2 3 0 0) 0 \ ∅) (fun d => (sched ct).payload (dcell c 2 3 0 0) 0 d)
      = heldV c (src_ag_3_0_0 c) (shr 3) (fun i v => pOut ct (sh := S1024x1024) i v rfl) := rest_dma ct c 2 3 0 0 rfl
theorem rest_R_3_0_0 (c : Dev nD) :
    bigSep ((sched ct).duties (dcell c 3 3 0 0) 0 \ ∅) (fun d => (sched ct).payload (dcell c 3 3 0 0) 0 d)
      = heldV c (dst_ag_3_0_0 (peer 0 3 c)) fullShare (fun i v => pOut ct (sh := S1024x1024) i v rfl) := rest_dma ct c 3 3 0 0 rfl

theorem recv_at_peer_3_0_1 (c : Dev nD) :
    (sched ct).payload (dcell (peer 0 3 c) 3 3 0 1) 0 0 = heldV (peer 0 3 c) (dst_ag_3_0_1 c) fullShare (fun i v => pOut ct (sh := S1024x1024) i v rfl) := by
  show recv_ag_3_0_1 ct (peer 0 3 c) = _
  unfold recv_ag_3_0_1; rw [peer_peer]
theorem rest_S_3_0_1 (c : Dev nD) :
    bigSep ((sched ct).duties (dcell c 2 3 0 1) 0 \ ∅) (fun d => (sched ct).payload (dcell c 2 3 0 1) 0 d)
      = heldV c (src_ag_3_0_1 c) (shr 3) (fun i v => pOut ct (sh := S1024x1024) i v rfl) := rest_dma ct c 2 3 0 1 rfl
theorem rest_R_3_0_1 (c : Dev nD) :
    bigSep ((sched ct).duties (dcell c 3 3 0 1) 0 \ ∅) (fun d => (sched ct).payload (dcell c 3 3 0 1) 0 d)
      = heldV c (dst_ag_3_0_1 (peer 0 3 c)) fullShare (fun i v => pOut ct (sh := S1024x1024) i v rfl) := rest_dma ct c 3 3 0 1 rfl

theorem recv_at_peer_3_1_0 (c : Dev nD) :
    (sched ct).payload (dcell (peer 1 3 c) 3 3 1 0) 0 0 = heldV (peer 1 3 c) (dst_ag_3_1_0 c) fullShare (fun i v => pOut ct (sh := S1024x1024) i v rfl) := by
  show recv_ag_3_1_0 ct (peer 1 3 c) = _
  unfold recv_ag_3_1_0; rw [peer_peer]
theorem rest_S_3_1_0 (c : Dev nD) :
    bigSep ((sched ct).duties (dcell c 2 3 1 0) 0 \ ∅) (fun d => (sched ct).payload (dcell c 2 3 1 0) 0 d)
      = heldV c (src_ag_3_1_0 c) (shr 3) (fun i v => pOut ct (sh := S1024x1024) i v rfl) := rest_dma ct c 2 3 1 0 rfl
theorem rest_R_3_1_0 (c : Dev nD) :
    bigSep ((sched ct).duties (dcell c 3 3 1 0) 0 \ ∅) (fun d => (sched ct).payload (dcell c 3 3 1 0) 0 d)
      = heldV c (dst_ag_3_1_0 (peer 1 3 c)) fullShare (fun i v => pOut ct (sh := S1024x1024) i v rfl) := rest_dma ct c 3 3 1 0 rfl

theorem recv_at_peer_3_1_1 (c : Dev nD) :
    (sched ct).payload (dcell (peer 1 3 c) 3 3 1 1) 0 0 = heldV (peer 1 3 c) (dst_ag_3_1_1 c) fullShare (fun i v => pOut ct (sh := S1024x1024) i v rfl) := by
  show recv_ag_3_1_1 ct (peer 1 3 c) = _
  unfold recv_ag_3_1_1; rw [peer_peer]
theorem rest_S_3_1_1 (c : Dev nD) :
    bigSep ((sched ct).duties (dcell c 2 3 1 1) 0 \ ∅) (fun d => (sched ct).payload (dcell c 2 3 1 1) 0 d)
      = heldV c (src_ag_3_1_1 c) (shr 3) (fun i v => pOut ct (sh := S1024x1024) i v rfl) := rest_dma ct c 2 3 1 1 rfl
theorem rest_R_3_1_1 (c : Dev nD) :
    bigSep ((sched ct).duties (dcell c 3 3 1 1) 0 \ ∅) (fun d => (sched ct).payload (dcell c 3 3 1 1) 0 d)
      = heldV c (dst_ag_3_1_1 (peer 1 3 c)) fullShare (fun i v => pOut ct (sh := S1024x1024) i v rfl) := rest_dma ct c 3 3 1 1 rfl

theorem recv_at_peer_3_2_0 (c : Dev nD) :
    (sched ct).payload (dcell (peer 2 3 c) 3 3 2 0) 0 0 = heldV (peer 2 3 c) (dst_ag_3_2_0 c) fullShare (fun i v => pOut ct (sh := S1024x1024) i v rfl) := by
  show recv_ag_3_2_0 ct (peer 2 3 c) = _
  unfold recv_ag_3_2_0; rw [peer_peer]
theorem rest_S_3_2_0 (c : Dev nD) :
    bigSep ((sched ct).duties (dcell c 2 3 2 0) 0 \ ∅) (fun d => (sched ct).payload (dcell c 2 3 2 0) 0 d)
      = heldV c (src_ag_3_2_0 c) (shr 3) (fun i v => pOut ct (sh := S1024x1024) i v rfl) := rest_dma ct c 2 3 2 0 rfl
theorem rest_R_3_2_0 (c : Dev nD) :
    bigSep ((sched ct).duties (dcell c 3 3 2 0) 0 \ ∅) (fun d => (sched ct).payload (dcell c 3 3 2 0) 0 d)
      = heldV c (dst_ag_3_2_0 (peer 2 3 c)) fullShare (fun i v => pOut ct (sh := S1024x1024) i v rfl) := rest_dma ct c 3 3 2 0 rfl

theorem recv_at_peer_3_2_1 (c : Dev nD) :
    (sched ct).payload (dcell (peer 2 3 c) 3 3 2 1) 0 0 = heldV (peer 2 3 c) (dst_ag_3_2_1 c) fullShare (fun i v => pOut ct (sh := S1024x1024) i v rfl) := by
  show recv_ag_3_2_1 ct (peer 2 3 c) = _
  unfold recv_ag_3_2_1; rw [peer_peer]
theorem rest_S_3_2_1 (c : Dev nD) :
    bigSep ((sched ct).duties (dcell c 2 3 2 1) 0 \ ∅) (fun d => (sched ct).payload (dcell c 2 3 2 1) 0 d)
      = heldV c (src_ag_3_2_1 c) (shr 3) (fun i v => pOut ct (sh := S1024x1024) i v rfl) := rest_dma ct c 2 3 2 1 rfl
theorem rest_R_3_2_1 (c : Dev nD) :
    bigSep ((sched ct).duties (dcell c 3 3 2 1) 0 \ ∅) (fun d => (sched ct).payload (dcell c 3 3 2 1) 0 d)
      = heldV c (dst_ag_3_2_1 (peer 2 3 c)) fullShare (fun i v => pOut ct (sh := S1024x1024) i v rfl) := rest_dma ct c 3 3 2 1 rfl

theorem recv_at_peer_2_0_0 (c : Dev nD) :
    (sched ct).payload (dcell (peer 0 2 c) 3 2 0 0) 0 0 = heldV (peer 0 2 c) (dst_ag_2_0_0 c) fullShare (fun i v => pOut ct (sh := S1024x1024) i v rfl) := by
  show recv_ag_2_0_0 ct (peer 0 2 c) = _
  unfold recv_ag_2_0_0; rw [peer_peer]
theorem rest_S_2_0_0 (c : Dev nD) :
    bigSep ((sched ct).duties (dcell c 2 2 0 0) 0 \ ∅) (fun d => (sched ct).payload (dcell c 2 2 0 0) 0 d)
      = heldV c (src_ag_2_0_0 c) (shr 2) (fun i v => pOut ct (sh := S1024x1024) i v rfl) := rest_dma ct c 2 2 0 0 rfl
theorem rest_R_2_0_0 (c : Dev nD) :
    bigSep ((sched ct).duties (dcell c 3 2 0 0) 0 \ ∅) (fun d => (sched ct).payload (dcell c 3 2 0 0) 0 d)
      = heldV c (dst_ag_2_0_0 (peer 0 2 c)) fullShare (fun i v => pOut ct (sh := S1024x1024) i v rfl) := rest_dma ct c 3 2 0 0 rfl

theorem recv_at_peer_2_0_1 (c : Dev nD) :
    (sched ct).payload (dcell (peer 0 2 c) 3 2 0 1) 0 0 = heldV (peer 0 2 c) (dst_ag_2_0_1 c) fullShare (fun i v => pOut ct (sh := S1024x1024) i v rfl) := by
  show recv_ag_2_0_1 ct (peer 0 2 c) = _
  unfold recv_ag_2_0_1; rw [peer_peer]
theorem rest_S_2_0_1 (c : Dev nD) :
    bigSep ((sched ct).duties (dcell c 2 2 0 1) 0 \ ∅) (fun d => (sched ct).payload (dcell c 2 2 0 1) 0 d)
      = heldV c (src_ag_2_0_1 c) (shr 2) (fun i v => pOut ct (sh := S1024x1024) i v rfl) := rest_dma ct c 2 2 0 1 rfl
theorem rest_R_2_0_1 (c : Dev nD) :
    bigSep ((sched ct).duties (dcell c 3 2 0 1) 0 \ ∅) (fun d => (sched ct).payload (dcell c 3 2 0 1) 0 d)
      = heldV c (dst_ag_2_0_1 (peer 0 2 c)) fullShare (fun i v => pOut ct (sh := S1024x1024) i v rfl) := rest_dma ct c 3 2 0 1 rfl

theorem recv_at_peer_2_1_0 (c : Dev nD) :
    (sched ct).payload (dcell (peer 1 2 c) 3 2 1 0) 0 0 = heldV (peer 1 2 c) (dst_ag_2_1_0 c) fullShare (fun i v => pOut ct (sh := S1024x1024) i v rfl) := by
  show recv_ag_2_1_0 ct (peer 1 2 c) = _
  unfold recv_ag_2_1_0; rw [peer_peer]
theorem rest_S_2_1_0 (c : Dev nD) :
    bigSep ((sched ct).duties (dcell c 2 2 1 0) 0 \ ∅) (fun d => (sched ct).payload (dcell c 2 2 1 0) 0 d)
      = heldV c (src_ag_2_1_0 c) (shr 2) (fun i v => pOut ct (sh := S1024x1024) i v rfl) := rest_dma ct c 2 2 1 0 rfl
theorem rest_R_2_1_0 (c : Dev nD) :
    bigSep ((sched ct).duties (dcell c 3 2 1 0) 0 \ ∅) (fun d => (sched ct).payload (dcell c 3 2 1 0) 0 d)
      = heldV c (dst_ag_2_1_0 (peer 1 2 c)) fullShare (fun i v => pOut ct (sh := S1024x1024) i v rfl) := rest_dma ct c 3 2 1 0 rfl

theorem recv_at_peer_2_1_1 (c : Dev nD) :
    (sched ct).payload (dcell (peer 1 2 c) 3 2 1 1) 0 0 = heldV (peer 1 2 c) (dst_ag_2_1_1 c) fullShare (fun i v => pOut ct (sh := S1024x1024) i v rfl) := by
  show recv_ag_2_1_1 ct (peer 1 2 c) = _
  unfold recv_ag_2_1_1; rw [peer_peer]
theorem rest_S_2_1_1 (c : Dev nD) :
    bigSep ((sched ct).duties (dcell c 2 2 1 1) 0 \ ∅) (fun d => (sched ct).payload (dcell c 2 2 1 1) 0 d)
      = heldV c (src_ag_2_1_1 c) (shr 2) (fun i v => pOut ct (sh := S1024x1024) i v rfl) := rest_dma ct c 2 2 1 1 rfl
theorem rest_R_2_1_1 (c : Dev nD) :
    bigSep ((sched ct).duties (dcell c 3 2 1 1) 0 \ ∅) (fun d => (sched ct).payload (dcell c 3 2 1 1) 0 d)
      = heldV c (dst_ag_2_1_1 (peer 1 2 c)) fullShare (fun i v => pOut ct (sh := S1024x1024) i v rfl) := rest_dma ct c 3 2 1 1 rfl

theorem recv_at_peer_2_2_0 (c : Dev nD) :
    (sched ct).payload (dcell (peer 2 2 c) 3 2 2 0) 0 0 = heldV (peer 2 2 c) (dst_ag_2_2_0 c) fullShare (fun i v => pOut ct (sh := S1024x1024) i v rfl) := by
  show recv_ag_2_2_0 ct (peer 2 2 c) = _
  unfold recv_ag_2_2_0; rw [peer_peer]
theorem rest_S_2_2_0 (c : Dev nD) :
    bigSep ((sched ct).duties (dcell c 2 2 2 0) 0 \ ∅) (fun d => (sched ct).payload (dcell c 2 2 2 0) 0 d)
      = heldV c (src_ag_2_2_0 c) (shr 2) (fun i v => pOut ct (sh := S1024x1024) i v rfl) := rest_dma ct c 2 2 2 0 rfl
theorem rest_R_2_2_0 (c : Dev nD) :
    bigSep ((sched ct).duties (dcell c 3 2 2 0) 0 \ ∅) (fun d => (sched ct).payload (dcell c 3 2 2 0) 0 d)
      = heldV c (dst_ag_2_2_0 (peer 2 2 c)) fullShare (fun i v => pOut ct (sh := S1024x1024) i v rfl) := rest_dma ct c 3 2 2 0 rfl

theorem recv_at_peer_2_2_1 (c : Dev nD) :
    (sched ct).payload (dcell (peer 2 2 c) 3 2 2 1) 0 0 = heldV (peer 2 2 c) (dst_ag_2_2_1 c) fullShare (fun i v => pOut ct (sh := S1024x1024) i v rfl) := by
  show recv_ag_2_2_1 ct (peer 2 2 c) = _
  unfold recv_ag_2_2_1; rw [peer_peer]
theorem rest_S_2_2_1 (c : Dev nD) :
    bigSep ((sched ct).duties (dcell c 2 2 2 1) 0 \ ∅) (fun d => (sched ct).payload (dcell c 2 2 2 1) 0 d)
      = heldV c (src_ag_2_2_1 c) (shr 2) (fun i v => pOut ct (sh := S1024x1024) i v rfl) := rest_dma ct c 2 2 2 1 rfl
theorem rest_R_2_2_1 (c : Dev nD) :
    bigSep ((sched ct).duties (dcell c 3 2 2 1) 0 \ ∅) (fun d => (sched ct).payload (dcell c 3 2 2 1) 0 d)
      = heldV c (dst_ag_2_2_1 (peer 2 2 c)) fullShare (fun i v => pOut ct (sh := S1024x1024) i v rfl) := rest_dma ct c 3 2 2 1 rfl

theorem recv_at_peer_1_0_0 (c : Dev nD) :
    (sched ct).payload (dcell (peer 0 1 c) 3 1 0 0) 0 0 = heldV (peer 0 1 c) (dst_ag_1_0_0 c) fullShare (fun i v => pOut ct (sh := S1024x1024) i v rfl) := by
  show recv_ag_1_0_0 ct (peer 0 1 c) = _
  unfold recv_ag_1_0_0; rw [peer_peer]
theorem rest_S_1_0_0 (c : Dev nD) :
    bigSep ((sched ct).duties (dcell c 2 1 0 0) 0 \ ∅) (fun d => (sched ct).payload (dcell c 2 1 0 0) 0 d)
      = heldV c (src_ag_1_0_0 c) (shr 1) (fun i v => pOut ct (sh := S1024x1024) i v rfl) := rest_dma ct c 2 1 0 0 rfl
theorem rest_R_1_0_0 (c : Dev nD) :
    bigSep ((sched ct).duties (dcell c 3 1 0 0) 0 \ ∅) (fun d => (sched ct).payload (dcell c 3 1 0 0) 0 d)
      = heldV c (dst_ag_1_0_0 (peer 0 1 c)) fullShare (fun i v => pOut ct (sh := S1024x1024) i v rfl) := rest_dma ct c 3 1 0 0 rfl

theorem recv_at_peer_1_0_1 (c : Dev nD) :
    (sched ct).payload (dcell (peer 0 1 c) 3 1 0 1) 0 0 = heldV (peer 0 1 c) (dst_ag_1_0_1 c) fullShare (fun i v => pOut ct (sh := S1024x1024) i v rfl) := by
  show recv_ag_1_0_1 ct (peer 0 1 c) = _
  unfold recv_ag_1_0_1; rw [peer_peer]
theorem rest_S_1_0_1 (c : Dev nD) :
    bigSep ((sched ct).duties (dcell c 2 1 0 1) 0 \ ∅) (fun d => (sched ct).payload (dcell c 2 1 0 1) 0 d)
      = heldV c (src_ag_1_0_1 c) (shr 1) (fun i v => pOut ct (sh := S1024x1024) i v rfl) := rest_dma ct c 2 1 0 1 rfl
theorem rest_R_1_0_1 (c : Dev nD) :
    bigSep ((sched ct).duties (dcell c 3 1 0 1) 0 \ ∅) (fun d => (sched ct).payload (dcell c 3 1 0 1) 0 d)
      = heldV c (dst_ag_1_0_1 (peer 0 1 c)) fullShare (fun i v => pOut ct (sh := S1024x1024) i v rfl) := rest_dma ct c 3 1 0 1 rfl

theorem recv_at_peer_1_1_0 (c : Dev nD) :
    (sched ct).payload (dcell (peer 1 1 c) 3 1 1 0) 0 0 = heldV (peer 1 1 c) (dst_ag_1_1_0 c) fullShare (fun i v => pOut ct (sh := S1024x1024) i v rfl) := by
  show recv_ag_1_1_0 ct (peer 1 1 c) = _
  unfold recv_ag_1_1_0; rw [peer_peer]
theorem rest_S_1_1_0 (c : Dev nD) :
    bigSep ((sched ct).duties (dcell c 2 1 1 0) 0 \ ∅) (fun d => (sched ct).payload (dcell c 2 1 1 0) 0 d)
      = heldV c (src_ag_1_1_0 c) (shr 1) (fun i v => pOut ct (sh := S1024x1024) i v rfl) := rest_dma ct c 2 1 1 0 rfl
theorem rest_R_1_1_0 (c : Dev nD) :
    bigSep ((sched ct).duties (dcell c 3 1 1 0) 0 \ ∅) (fun d => (sched ct).payload (dcell c 3 1 1 0) 0 d)
      = heldV c (dst_ag_1_1_0 (peer 1 1 c)) fullShare (fun i v => pOut ct (sh := S1024x1024) i v rfl) := rest_dma ct c 3 1 1 0 rfl

theorem recv_at_peer_1_1_1 (c : Dev nD) :
    (sched ct).payload (dcell (peer 1 1 c) 3 1 1 1) 0 0 = heldV (peer 1 1 c) (dst_ag_1_1_1 c) fullShare (fun i v => pOut ct (sh := S1024x1024) i v rfl) := by
  show recv_ag_1_1_1 ct (peer 1 1 c) = _
  unfold recv_ag_1_1_1; rw [peer_peer]
theorem rest_S_1_1_1 (c : Dev nD) :
    bigSep ((sched ct).duties (dcell c 2 1 1 1) 0 \ ∅) (fun d => (sched ct).payload (dcell c 2 1 1 1) 0 d)
      = heldV c (src_ag_1_1_1 c) (shr 1) (fun i v => pOut ct (sh := S1024x1024) i v rfl) := rest_dma ct c 2 1 1 1 rfl
theorem rest_R_1_1_1 (c : Dev nD) :
    bigSep ((sched ct).duties (dcell c 3 1 1 1) 0 \ ∅) (fun d => (sched ct).payload (dcell c 3 1 1 1) 0 d)
      = heldV c (dst_ag_1_1_1 (peer 1 1 c)) fullShare (fun i v => pOut ct (sh := S1024x1024) i v rfl) := rest_dma ct c 3 1 1 1 rfl

theorem recv_at_peer_1_2_0 (c : Dev nD) :
    (sched ct).payload (dcell (peer 2 1 c) 3 1 2 0) 0 0 = heldV (peer 2 1 c) (dst_ag_1_2_0 c) fullShare (fun i v => pOut ct (sh := S1024x1024) i v rfl) := by
  show recv_ag_1_2_0 ct (peer 2 1 c) = _
  unfold recv_ag_1_2_0; rw [peer_peer]
theorem rest_S_1_2_0 (c : Dev nD) :
    bigSep ((sched ct).duties (dcell c 2 1 2 0) 0 \ ∅) (fun d => (sched ct).payload (dcell c 2 1 2 0) 0 d)
      = heldV c (src_ag_1_2_0 c) (shr 1) (fun i v => pOut ct (sh := S1024x1024) i v rfl) := rest_dma ct c 2 1 2 0 rfl
theorem rest_R_1_2_0 (c : Dev nD) :
    bigSep ((sched ct).duties (dcell c 3 1 2 0) 0 \ ∅) (fun d => (sched ct).payload (dcell c 3 1 2 0) 0 d)
      = heldV c (dst_ag_1_2_0 (peer 2 1 c)) fullShare (fun i v => pOut ct (sh := S1024x1024) i v rfl) := rest_dma ct c 3 1 2 0 rfl

theorem recv_at_peer_1_2_1 (c : Dev nD) :
    (sched ct).payload (dcell (peer 2 1 c) 3 1 2 1) 0 0 = heldV (peer 2 1 c) (dst_ag_1_2_1 c) fullShare (fun i v => pOut ct (sh := S1024x1024) i v rfl) := by
  show recv_ag_1_2_1 ct (peer 2 1 c) = _
  unfold recv_ag_1_2_1; rw [peer_peer]
theorem rest_S_1_2_1 (c : Dev nD) :
    bigSep ((sched ct).duties (dcell c 2 1 2 1) 0 \ ∅) (fun d => (sched ct).payload (dcell c 2 1 2 1) 0 d)
      = heldV c (src_ag_1_2_1 c) (shr 1) (fun i v => pOut ct (sh := S1024x1024) i v rfl) := rest_dma ct c 2 1 2 1 rfl
theorem rest_R_1_2_1 (c : Dev nD) :
    bigSep ((sched ct).duties (dcell c 3 1 2 1) 0 \ ∅) (fun d => (sched ct).payload (dcell c 3 1 2 1) 0 d)
      = heldV c (dst_ag_1_2_1 (peer 2 1 c)) fullShare (fun i v => pOut ct (sh := S1024x1024) i v rfl) := rest_dma ct c 3 1 2 1 rfl

theorem recv_at_peer_0_0_0 (c : Dev nD) :
    (sched ct).payload (dcell (peer 0 0 c) 3 0 0 0) 0 0 = heldV (peer 0 0 c) (dst_ag_0_0_0 c) fullShare (fun i v => pOut ct (sh := S1024x1024) i v rfl) := by
  show recv_ag_0_0_0 ct (peer 0 0 c) = _
  unfold recv_ag_0_0_0; rw [peer_peer]
theorem rest_S_0_0_0 (c : Dev nD) :
    bigSep ((sched ct).duties (dcell c 2 0 0 0) 0 \ ∅) (fun d => (sched ct).payload (dcell c 2 0 0 0) 0 d)
      = heldV c (src_ag_0_0_0 c) (shr 0) (fun i v => pOut ct (sh := S1024x1024) i v rfl) := rest_dma ct c 2 0 0 0 rfl
theorem rest_R_0_0_0 (c : Dev nD) :
    bigSep ((sched ct).duties (dcell c 3 0 0 0) 0 \ ∅) (fun d => (sched ct).payload (dcell c 3 0 0 0) 0 d)
      = heldV c (dst_ag_0_0_0 (peer 0 0 c)) fullShare (fun i v => pOut ct (sh := S1024x1024) i v rfl) := rest_dma ct c 3 0 0 0 rfl

theorem recv_at_peer_0_0_1 (c : Dev nD) :
    (sched ct).payload (dcell (peer 0 0 c) 3 0 0 1) 0 0 = heldV (peer 0 0 c) (dst_ag_0_0_1 c) fullShare (fun i v => pOut ct (sh := S1024x1024) i v rfl) := by
  show recv_ag_0_0_1 ct (peer 0 0 c) = _
  unfold recv_ag_0_0_1; rw [peer_peer]
theorem rest_S_0_0_1 (c : Dev nD) :
    bigSep ((sched ct).duties (dcell c 2 0 0 1) 0 \ ∅) (fun d => (sched ct).payload (dcell c 2 0 0 1) 0 d)
      = heldV c (src_ag_0_0_1 c) (shr 0) (fun i v => pOut ct (sh := S1024x1024) i v rfl) := rest_dma ct c 2 0 0 1 rfl
theorem rest_R_0_0_1 (c : Dev nD) :
    bigSep ((sched ct).duties (dcell c 3 0 0 1) 0 \ ∅) (fun d => (sched ct).payload (dcell c 3 0 0 1) 0 d)
      = heldV c (dst_ag_0_0_1 (peer 0 0 c)) fullShare (fun i v => pOut ct (sh := S1024x1024) i v rfl) := rest_dma ct c 3 0 0 1 rfl

theorem recv_at_peer_0_1_0 (c : Dev nD) :
    (sched ct).payload (dcell (peer 1 0 c) 3 0 1 0) 0 0 = heldV (peer 1 0 c) (dst_ag_0_1_0 c) fullShare (fun i v => pOut ct (sh := S1024x1024) i v rfl) := by
  show recv_ag_0_1_0 ct (peer 1 0 c) = _
  unfold recv_ag_0_1_0; rw [peer_peer]
theorem rest_S_0_1_0 (c : Dev nD) :
    bigSep ((sched ct).duties (dcell c 2 0 1 0) 0 \ ∅) (fun d => (sched ct).payload (dcell c 2 0 1 0) 0 d)
      = heldV c (src_ag_0_1_0 c) (shr 0) (fun i v => pOut ct (sh := S1024x1024) i v rfl) := rest_dma ct c 2 0 1 0 rfl
theorem rest_R_0_1_0 (c : Dev nD) :
    bigSep ((sched ct).duties (dcell c 3 0 1 0) 0 \ ∅) (fun d => (sched ct).payload (dcell c 3 0 1 0) 0 d)
      = heldV c (dst_ag_0_1_0 (peer 1 0 c)) fullShare (fun i v => pOut ct (sh := S1024x1024) i v rfl) := rest_dma ct c 3 0 1 0 rfl

theorem recv_at_peer_0_1_1 (c : Dev nD) :
    (sched ct).payload (dcell (peer 1 0 c) 3 0 1 1) 0 0 = heldV (peer 1 0 c) (dst_ag_0_1_1 c) fullShare (fun i v => pOut ct (sh := S1024x1024) i v rfl) := by
  show recv_ag_0_1_1 ct (peer 1 0 c) = _
  unfold recv_ag_0_1_1; rw [peer_peer]
theorem rest_S_0_1_1 (c : Dev nD) :
    bigSep ((sched ct).duties (dcell c 2 0 1 1) 0 \ ∅) (fun d => (sched ct).payload (dcell c 2 0 1 1) 0 d)
      = heldV c (src_ag_0_1_1 c) (shr 0) (fun i v => pOut ct (sh := S1024x1024) i v rfl) := rest_dma ct c 2 0 1 1 rfl
theorem rest_R_0_1_1 (c : Dev nD) :
    bigSep ((sched ct).duties (dcell c 3 0 1 1) 0 \ ∅) (fun d => (sched ct).payload (dcell c 3 0 1 1) 0 d)
      = heldV c (dst_ag_0_1_1 (peer 1 0 c)) fullShare (fun i v => pOut ct (sh := S1024x1024) i v rfl) := rest_dma ct c 3 0 1 1 rfl

theorem recv_at_peer_0_2_0 (c : Dev nD) :
    (sched ct).payload (dcell (peer 2 0 c) 3 0 2 0) 0 0 = heldV (peer 2 0 c) (dst_ag_0_2_0 c) fullShare (fun i v => pOut ct (sh := S1024x1024) i v rfl) := by
  show recv_ag_0_2_0 ct (peer 2 0 c) = _
  unfold recv_ag_0_2_0; rw [peer_peer]
theorem rest_S_0_2_0 (c : Dev nD) :
    bigSep ((sched ct).duties (dcell c 2 0 2 0) 0 \ ∅) (fun d => (sched ct).payload (dcell c 2 0 2 0) 0 d)
      = heldV c (src_ag_0_2_0 c) (shr 0) (fun i v => pOut ct (sh := S1024x1024) i v rfl) := rest_dma ct c 2 0 2 0 rfl
theorem rest_R_0_2_0 (c : Dev nD) :
    bigSep ((sched ct).duties (dcell c 3 0 2 0) 0 \ ∅) (fun d => (sched ct).payload (dcell c 3 0 2 0) 0 d)
      = heldV c (dst_ag_0_2_0 (peer 2 0 c)) fullShare (fun i v => pOut ct (sh := S1024x1024) i v rfl) := rest_dma ct c 3 0 2 0 rfl

theorem recv_at_peer_0_2_1 (c : Dev nD) :
    (sched ct).payload (dcell (peer 2 0 c) 3 0 2 1) 0 0 = heldV (peer 2 0 c) (dst_ag_0_2_1 c) fullShare (fun i v => pOut ct (sh := S1024x1024) i v rfl) := by
  show recv_ag_0_2_1 ct (peer 2 0 c) = _
  unfold recv_ag_0_2_1; rw [peer_peer]
theorem rest_S_0_2_1 (c : Dev nD) :
    bigSep ((sched ct).duties (dcell c 2 0 2 1) 0 \ ∅) (fun d => (sched ct).payload (dcell c 2 0 2 1) 0 d)
      = heldV c (src_ag_0_2_1 c) (shr 0) (fun i v => pOut ct (sh := S1024x1024) i v rfl) := rest_dma ct c 2 0 2 1 rfl
theorem rest_R_0_2_1 (c : Dev nD) :
    bigSep ((sched ct).duties (dcell c 3 0 2 1) 0 \ ∅) (fun d => (sched ct).payload (dcell c 3 0 2 1) 0 d)
      = heldV c (dst_ag_0_2_1 (peer 2 0 c)) fullShare (fun i v => pOut ct (sh := S1024x1024) i v rfl) := rest_dma ct c 3 0 2 1 rfl

theorem owes_end (c : Dev nD) (W : Waits sig Unit) :
    (owes (c : Thread nD τ) (owedFrom c 59) W : sProp (MT nD τ sig Unit (Elt F) ℕ UU ℕ)) ⊢ owes (c : Thread nD τ) 0 W :=
  Entails.of_eq (by rw [owedFrom_59])

/-- One transfer of the gathering phase: the source rows held at a share under the contract and the partner's
    landing rows lent go out; the departure's credit comes back and one payment less is owed. The partner is
    named by the program's word for it. -/
theorem ag_send {sh : Shape} (c p p' : Dev nD) (hp : p' = p) (m : Memref sig .tc .vmem sh .bf16) (semS semR : DmaSem sig)
    {hsc : m.view.ref.isScScratch = false} {hsrc hdst : m.view.WordExact}
    {hsem : DmaTarget.Typed (nD := nD) (τ := τ) .vmem (SemLoc.dma semR) (.remote ((p' : Dev nD) : Thread nD τ) m (SemLoc.dma semS) hsc)}
    {α : Type} {k : PUnit → Prog (TpuEff nD τ sig (Elt F) Λ₀ .tc) α} {Q : α → sProp (MT nD τ sig Unit (Elt F) ℕ UU ℕ)}
    (q : PosShare TreeShare) (P : m.view.ty.Idx → Elt F m.view.ty.elt → Prop)
    {κ₁ κ₂ : ℕ} {O₀ : CellTallies nD τ sig Unit} (O : CellTallies nD τ sig Unit) {W : Waits sig Unit} (N : ℕ)
    (hd₁ : (0 : Fin 5) ∈ (sched ct).duties ((c : Thread nD τ), SemLoc.dma semS) 0)
    (hd₂ : (0 : Fin 5) ∈ (sched ct).duties ((p : Thread nD τ), SemLoc.dma semR) 0)
    (hN : m.view.amount (SemLoc.dma semR) = N)
    (hk₁ : (sched ct).amount ((c : Thread nD τ), SemLoc.dma semS) 0 0 = N)
    (hk₂ : (sched ct).amount ((p : Thread nD τ), SemLoc.dma semR) 0 0 = N)
    (hO : O₀ = O + tallyAt ((p : Thread nD τ), SemLoc.dma semR) () N)
    (hp₁ : (sched ct).payload ((c : Thread nD τ), SemLoc.dma semS) 0 0 = heldV c m q P)
    (hp₂ : (sched ct).payload ((p : Thread nD τ), SemLoc.dma semR) 0 0 = heldV p m fullShare P) :
    iprop(cellInv ER (sched ct) κ₁ ((c : Thread nD τ), SemLoc.dma semS) ∗ cellInv ER (sched ct) κ₂ ((p : Thread nD τ), SemLoc.dma semR)
        ∗ heldV c m q P ∗ loanV p m ∗ owes (c : Thread nD τ) O₀ W
        ∗ dutyTok ER ((c : Thread nD τ), SemLoc.dma semS) 0 0 ∗ reached ER ((c : Thread nD τ), SemLoc.dma semS) 0
        ∗ dutyTok ER ((p : Thread nD τ), SemLoc.dma semR) 0 0 ∗ reached ER ((p : Thread nD τ), SemLoc.dma semR) 0)
      ⊢ iprop(((cred (tallyAt ((c : Thread nD τ), SemLoc.dma semS) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma m (.remote ((p' : Dev nD) : Thread nD τ) m (SemLoc.dma semS) hsc) (SemLoc.dma semR) hsrc hdst hsem) k) Q) := by
  subst hp
  exact open_send c p' m q P (fun fs fd hfs =>
    Rounds.wp_send_pointsTo 𝒱₀ ER (sched ct) (c : Thread nD τ) none (c' := ((p' : Dev nD) : Thread nD τ))
      (src := m) (dst := m) (sS := SemLoc.dma semS) (sem := SemLoc.dma semR)
      (q := q) (fs := fs) (fd := fd) (r₁ := 0) (r₂ := 0) (d₁ := 0) (d₂ := 0)
      hd₁ hd₂ () () N hN hk₁ hk₂ O hO
      ((hpay1 c m q P fs hfs).trans (Entails.of_eq hp₁.symm))
      ((hpay2 c p' m P fs fd hfs).trans (Entails.of_eq hp₂.symm)) (hr := Topo.routes_tc _ _))

/-- One wait of the gathering phase on one of the device's own transfer cells, and the cell closed: the round's
    payload comes out and the semaphore is at zero again. -/
theorem ag_wait {sh : Shape} (c : Dev nD) (a : Fin 4) (s : Fin 5) (k : Fin 3) (j : Fin 2) (h : usedIx (dsem a s k j).val = true)
    (m : Memref sig .tc .vmem sh .bf16) {hsrc hdst : m.view.WordExact}
    {α : Type} {kk : PUnit → Prog (TpuEff nD τ sig (Elt F) Λ₀ .tc) α} {Q : α → sProp (MT nD τ sig Unit (Elt F) ℕ UU ℕ)}
    {O : CellTallies nD τ sig Unit} {W : Waits sig Unit} (Pay : sProp (MT nD τ sig Unit (Elt F) ℕ UU ℕ))
    (hcred : m.view.dmaCredit = amtIx (dsem a s k j).val)
    (hrest : bigSep ((sched ct).duties (dcell c a s k j) 0 \ ∅) (fun d => (sched ct).payload (dcell c a s k j) 0 d) = Pay) :
    iprop(records ct K ∗ cred (tallyAt (dcell c a s k j) () (amtIx (dsem a s k j).val)) ∗ owes (c : Thread nD τ) O W
        ∗ MayWait (c : Thread nD τ) (SemLoc.dma (dsem a s k j)) () O ∗ atPos ER (dcell c a s k j) 0 ∅ 0)
      ⊢ iprop(((owes (c : Thread nD τ) O (insert (SemLoc.dma (dsem a s k j), ()) W) ∗ semVal (dcell c a s k j) 0 ∗ Pay)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (dsem a s k j) m m hsrc hdst) kk) Q) := by
  subst hrest
  have hw : ∀ Kc : PUnit → sProp (MT nD τ sig Unit (Elt F) ℕ UU ℕ),
      wpE (defs₀ (F := F)) 𝒱₀ (c : Thread nD τ) none Set.univ (.waitDma2 (dsem a s k j) m m hsrc hdst) Kc
        = waitSpec (c : Thread nD τ) Set.univ (SemLoc.dma (dsem a s k j)) (amtIx (dsem a s k j).val) Kc :=
    fun Kc => hcred ▸ wpE_waitDma2_eq 𝒱₀ (c : Thread nD τ) none Set.univ Kc
  iintro H Hk
  icases H with ⟨#HR, Hc, How, #Hmw, Hat⟩
  ihave HI := (inv_dma ct K c a s k j h) $$ HR
  icases HI with #HI
  iapply (Rounds.wp_wait_rest_token 𝒱₀ ER (sched ct) (c : Thread nD τ) none hw
    (Set.mem_univ _) () (R := 0) (T := ∅) (m := 0) (expect_at ct c a s k j h)) $$ [Hc How Hat]
  · isplitr
    · iexact HI
    isplitl [Hc]
    · iexact Hc
    isplitl [How]
    · iexact How
    isplitr
    · iexact Hmw
    iexact Hat
  iintro H
  icases H with ⟨How, Hat, -, Hpay⟩
  imod (Rounds.cell_close ER (sched ct) (g := dcell c a s k j) (Set.mem_univ _) (fun h => h) (R := 1)
    (fun r hr => duties_later ct _ r hr)) $$ [Hat] with Hv
  · isplitr
    · iexact HI
    iexact Hat
  iapply Hk
  isplitl [How]
  · iexact How
  isplitl [Hv]
  · iexact Hv
  iexact Hpay

variable (c : Dev nD) (YA : S1024x512.Idx → F .f32) (YB : S512x1024.Idx → F .f32)

set_option maxHeartbeats 4000000 in
theorem segC (Kt : PUnit → sProp (MT nD τ sig Unit (Elt F) ℕ UU ℕ)) : SegC ct K c YA YB Kt := by
  unfold SegC
  intro v3 v4 v5 v6 v7 v8 v9 v10 v11 v12 v13 v14 v15 v16 v17 v18 v20 v22 v24 v26 v28 v827 v868 v909
  unfold Pre40 toksAG posAG credAG landAG
  iintro H
  icases H with ⟨H, HK⟩
  icases H with ⟨#HR, #Hlev, HowE, Htoks, Hpos, Hcred, HcRS, Hidle, HYA, HYB, Hown, Hsc, Hland⟩
  icases HowE with ⟨%W, How⟩
  icases Htoks with ⟨⟨TS400, TR400⟩, ⟨TS410, TR410⟩, ⟨TS420, TR420⟩, ⟨TS300, TR300⟩, ⟨TS301, TR301⟩, ⟨TS310, TR310⟩, ⟨TS311, TR311⟩, ⟨TS320, TR320⟩, ⟨TS321, TR321⟩, ⟨TS200, TR200⟩, ⟨TS201, TR201⟩, ⟨TS210, TR210⟩, ⟨TS211, TR211⟩, ⟨TS220, TR220⟩, ⟨TS221, TR221⟩, ⟨TS100, TR100⟩, ⟨TS101, TR101⟩, ⟨TS110, TR110⟩, ⟨TS111, TR111⟩, ⟨TS120, TR120⟩, ⟨TS121, TR121⟩, ⟨TS000, TR000⟩, ⟨TS001, TR001⟩, ⟨TS010, TR010⟩, ⟨TS011, TR011⟩, ⟨TS020, TR020⟩, ⟨TS021, TR021⟩⟩
  icases Hpos with ⟨⟨PS400, PR400⟩, ⟨PS410, PR410⟩, ⟨PS420, PR420⟩, ⟨PS300, PR300⟩, ⟨PS301, PR301⟩, ⟨PS310, PR310⟩, ⟨PS311, PR311⟩, ⟨PS320, PR320⟩, ⟨PS321, PR321⟩, ⟨PS200, PR200⟩, ⟨PS201, PR201⟩, ⟨PS210, PR210⟩, ⟨PS211, PR211⟩, ⟨PS220, PR220⟩, ⟨PS221, PR221⟩, ⟨PS100, PR100⟩, ⟨PS101, PR101⟩, ⟨PS110, PR110⟩, ⟨PS111, PR111⟩, ⟨PS120, PR120⟩, ⟨PS121, PR121⟩, ⟨PS000, PR000⟩, ⟨PS001, PR001⟩, ⟨PS010, PR010⟩, ⟨PS011, PR011⟩, ⟨PS020, PR020⟩, ⟨PS021, PR021⟩⟩
  icases Hcred with ⟨CR400, CR410, CR420, CR300, CR301, CR310, CR311, CR320, CR321, CR200, CR201, CR210, CR211, CR220, CR221, CR100, CR101, CR110, CR111, CR120, CR121, CR000, CR001, CR010, CR011, CR020, CR021⟩
  icases Hland with ⟨LD400, LD410, LD420, LD300, LD301, LD310, LD311, LD320, LD321, LD200, LD201, LD210, LD211, LD220, LD221, LD100, LD101, LD110, LD111, LD120, LD121, LD000, LD001, LD010, LD011, LD020, LD021⟩
  icases Hown with ⟨O0, O1, O2⟩
  ihave O0 := (heldV_shr c (src_ag_4_0_0 c) 3 4 rfl (fun i v => pOut ct (sh := S1024x1024) i v rfl)).1 $$ O0
  icases O0 with ⟨A3_0, A4_0⟩
  ihave O1 := (heldV_shr c (src_ag_4_1_0 c) 3 4 rfl (fun i v => pOut ct (sh := S1024x1024) i v rfl)).1 $$ O1
  icases O1 with ⟨A3_1, A4_1⟩
  ihave O2 := (heldV_shr c (src_ag_4_2_0 c) 3 4 rfl (fun i v => pOut ct (sh := S1024x1024) i v rfl)).1 $$ O2
  icases O2 with ⟨A3_2, A4_2⟩
  -- exchange 4, column block 0, piece 0: the transfer
  iapply (ag_send ct c (peer 0 4 c) _ (dev_ag_4_0_0 c) (src_ag_4_0_0 c) (dsem 2 4 0 0) (dsem 3 4 0 0) (shr 4) (fun i v => pOut ct (sh := S1024x1024) i v rfl)
    (owedFrom c 33) (amtIx (dsem 2 4 0 0).val)
    (duty_mem ct c 2 4 0 0 rfl) (duty_mem ct (peer 0 4 c) 3 4 0 0 rfl) rfl rfl rfl (owed_step_32 c) rfl
    (recv_at_peer_4_0_0 ct c)) $$ [A4_0 LD400 How TS400 TR400]
  · isplitr
    · iapply (inv_dma ct K c 2 4 0 0 rfl); iexact HR
    isplitr
    · iapply (inv_dma ct K (peer 0 4 c) 3 4 0 0 rfl); iexact HR
    isplitl [A4_0]
    · iexact A4_0
    isplitl [LD400]
    · iexact LD400
    isplitl [How]
    · iexact How
    isplitl [TS400]
    · iexact TS400
    isplitr
    · iapply (reached_dma ct K c 2 4 0 0 rfl); iexact HR
    isplitl [TR400]
    · iexact TR400
    iapply (reached_dma ct K (peer 0 4 c) 3 4 0 0 rfl); iexact HR
  iintro H
  icases H with ⟨CS400, How⟩
  -- exchange 4, column block 1, piece 0: the transfer
  iapply (ag_send ct c (peer 1 4 c) _ (dev_ag_4_1_0 c) (src_ag_4_1_0 c) (dsem 2 4 1 0) (dsem 3 4 1 0) (shr 4) (fun i v => pOut ct (sh := S1024x1024) i v rfl)
    (owedFrom c 34) (amtIx (dsem 2 4 1 0).val)
    (duty_mem ct c 2 4 1 0 rfl) (duty_mem ct (peer 1 4 c) 3 4 1 0 rfl) rfl rfl rfl (owed_step_33 c) rfl
    (recv_at_peer_4_1_0 ct c)) $$ [A4_1 LD410 How TS410 TR410]
  · isplitr
    · iapply (inv_dma ct K c 2 4 1 0 rfl); iexact HR
    isplitr
    · iapply (inv_dma ct K (peer 1 4 c) 3 4 1 0 rfl); iexact HR
    isplitl [A4_1]
    · iexact A4_1
    isplitl [LD410]
    · iexact LD410
    isplitl [How]
    · iexact How
    isplitl [TS410]
    · iexact TS410
    isplitr
    · iapply (reached_dma ct K c 2 4 1 0 rfl); iexact HR
    isplitl [TR410]
    · iexact TR410
    iapply (reached_dma ct K (peer 1 4 c) 3 4 1 0 rfl); iexact HR
  iintro H
  icases H with ⟨CS410, How⟩
  -- exchange 4, column block 2, piece 0: the transfer
  iapply (ag_send ct c (peer 2 4 c) _ (dev_ag_4_2_0 c) (src_ag_4_2_0 c) (dsem 2 4 2 0) (dsem 3 4 2 0) (shr 4) (fun i v => pOut ct (sh := S1024x1024) i v rfl)
    (owedFrom c 35) (amtIx (dsem 2 4 2 0).val)
    (duty_mem ct c 2 4 2 0 rfl) (duty_mem ct (peer 2 4 c) 3 4 2 0 rfl) rfl rfl rfl (owed_step_34 c) rfl
    (recv_at_peer_4_2_0 ct c)) $$ [A4_2 LD420 How TS420 TR420]
  · isplitr
    · iapply (inv_dma ct K c 2 4 2 0 rfl); iexact HR
    isplitr
    · iapply (inv_dma ct K (peer 2 4 c) 3 4 2 0 rfl); iexact HR
    isplitl [A4_2]
    · iexact A4_2
    isplitl [LD420]
    · iexact LD420
    isplitl [How]
    · iexact How
    isplitl [TS420]
    · iexact TS420
    isplitr
    · iapply (reached_dma ct K c 2 4 2 0 rfl); iexact HR
    isplitl [TR420]
    · iexact TR420
    iapply (reached_dma ct K (peer 2 4 c) 3 4 2 0 rfl); iexact HR
  iintro H
  icases H with ⟨CS420, How⟩
  -- exchange 3, column block 0, piece 0: the transfer
  iapply (ag_send ct c (peer 0 3 c) _ (dev_ag_3_0_0 c) (src_ag_3_0_0 c) (dsem 2 3 0 0) (dsem 3 3 0 0) (shr 3) (fun i v => pOut ct (sh := S1024x1024) i v rfl)
    (owedFrom c 36) (amtIx (dsem 2 3 0 0).val)
    (duty_mem ct c 2 3 0 0 rfl) (duty_mem ct (peer 0 3 c) 3 3 0 0 rfl) rfl rfl rfl (owed_step_35 c) rfl
    (recv_at_peer_3_0_0 ct c)) $$ [A3_0 LD300 How TS300 TR300]
  · isplitr
    · iapply (inv_dma ct K c 2 3 0 0 rfl); iexact HR
    isplitr
    · iapply (inv_dma ct K (peer 0 3 c) 3 3 0 0 rfl); iexact HR
    isplitl [A3_0]
    · iexact A3_0
    isplitl [LD300]
    · iexact LD300
    isplitl [How]
    · iexact How
    isplitl [TS300]
    · iexact TS300
    isplitr
    · iapply (reached_dma ct K c 2 3 0 0 rfl); iexact HR
    isplitl [TR300]
    · iexact TR300
    iapply (reached_dma ct K (peer 0 3 c) 3 3 0 0 rfl); iexact HR
  iintro H
  icases H with ⟨CS300, How⟩
  -- exchange 4, column block 0, piece 0: the wait on the departure cell, and the cell closed
  iapply (ag_wait ct K c 2 4 0 0 rfl (src_ag_4_0_0 c) _ rfl (rest_S_4_0_0 ct c)) $$ [CS400 How PS400]
  · isplitr
    · iexact HR
    isplitl [CS400]
    · iexact CS400
    isplitl [How]
    · iexact How
    isplitr
    · iapply (mayWait_cell c 2 4 0 0 36 (by decide +kernel)); iexact Hlev
    iexact PS400
  iintro H
  icases H with ⟨How, VS400, GS400⟩
  -- exchange 4, column block 0, piece 0: the wait on the arrival cell, and the cell closed
  iapply (ag_wait ct K c 3 4 0 0 rfl (src_ag_4_0_0 c) _ rfl (rest_R_4_0_0 ct c)) $$ [CR400 How PR400]
  · isplitr
    · iexact HR
    isplitl [CR400]
    · iexact CR400
    isplitl [How]
    · iexact How
    isplitr
    · iapply (mayWait_cell c 3 4 0 0 36 (by decide +kernel)); iexact Hlev
    iexact PR400
  iintro H
  icases H with ⟨How, VR400, GR400⟩
  ihave L := (Entails.of_eq (held_src_ag_3_0_1 c fullShare (fun (i : S1024x1024.Idx) (v : Elt F .bf16) => pOut ct (sh := S1024x1024) i v rfl)).symm) $$ GR400
  ihave L := (heldV_shr c (src_ag_3_0_1 c) 3 4 rfl (fun i v => pOut ct (sh := S1024x1024) i v rfl)).1 $$ L
  icases L with ⟨B3_0, Y3_0⟩
  -- exchange 3, column block 0, piece 1: the transfer
  iapply (ag_send ct c (peer 0 3 c) _ (dev_ag_3_0_1 c) (src_ag_3_0_1 c) (dsem 2 3 0 1) (dsem 3 3 0 1) (shr 3) (fun i v => pOut ct (sh := S1024x1024) i v rfl)
    (owedFrom c 37) (amtIx (dsem 2 3 0 1).val)
    (duty_mem ct c 2 3 0 1 rfl) (duty_mem ct (peer 0 3 c) 3 3 0 1 rfl) rfl rfl rfl (owed_step_36 c) rfl
    (recv_at_peer_3_0_1 ct c)) $$ [B3_0 LD301 How TS301 TR301]
  · isplitr
    · iapply (inv_dma ct K c 2 3 0 1 rfl); iexact HR
    isplitr
    · iapply (inv_dma ct K (peer 0 3 c) 3 3 0 1 rfl); iexact HR
    isplitl [B3_0]
    · iexact B3_0
    isplitl [LD301]
    · iexact LD301
    isplitl [How]
    · iexact How
    isplitl [TS301]
    · iexact TS301
    isplitr
    · iapply (reached_dma ct K c 2 3 0 1 rfl); iexact HR
    isplitl [TR301]
    · iexact TR301
    iapply (reached_dma ct K (peer 0 3 c) 3 3 0 1 rfl); iexact HR
  iintro H
  icases H with ⟨CS301, How⟩
  -- exchange 3, column block 1, piece 0: the transfer
  iapply (ag_send ct c (peer 1 3 c) _ (dev_ag_3_1_0 c) (src_ag_3_1_0 c) (dsem 2 3 1 0) (dsem 3 3 1 0) (shr 3) (fun i v => pOut ct (sh := S1024x1024) i v rfl)
    (owedFrom c 38) (amtIx (dsem 2 3 1 0).val)
    (duty_mem ct c 2 3 1 0 rfl) (duty_mem ct (peer 1 3 c) 3 3 1 0 rfl) rfl rfl rfl (owed_step_37 c) rfl
    (recv_at_peer_3_1_0 ct c)) $$ [A3_1 LD310 How TS310 TR310]
  · isplitr
    · iapply (inv_dma ct K c 2 3 1 0 rfl); iexact HR
    isplitr
    · iapply (inv_dma ct K (peer 1 3 c) 3 3 1 0 rfl); iexact HR
    isplitl [A3_1]
    · iexact A3_1
    isplitl [LD310]
    · iexact LD310
    isplitl [How]
    · iexact How
    isplitl [TS310]
    · iexact TS310
    isplitr
    · iapply (reached_dma ct K c 2 3 1 0 rfl); iexact HR
    isplitl [TR310]
    · iexact TR310
    iapply (reached_dma ct K (peer 1 3 c) 3 3 1 0 rfl); iexact HR
  iintro H
  icases H with ⟨CS310, How⟩
  -- exchange 4, column block 1, piece 0: the wait on the departure cell, and the cell closed
  iapply (ag_wait ct K c 2 4 1 0 rfl (src_ag_4_1_0 c) _ rfl (rest_S_4_1_0 ct c)) $$ [CS410 How PS410]
  · isplitr
    · iexact HR
    isplitl [CS410]
    · iexact CS410
    isplitl [How]
    · iexact How
    isplitr
    · iapply (mayWait_cell c 2 4 1 0 38 (by decide +kernel)); iexact Hlev
    iexact PS410
  iintro H
  icases H with ⟨How, VS410, GS410⟩
  -- exchange 4, column block 1, piece 0: the wait on the arrival cell, and the cell closed
  iapply (ag_wait ct K c 3 4 1 0 rfl (src_ag_4_1_0 c) _ rfl (rest_R_4_1_0 ct c)) $$ [CR410 How PR410]
  · isplitr
    · iexact HR
    isplitl [CR410]
    · iexact CR410
    isplitl [How]
    · iexact How
    isplitr
    · iapply (mayWait_cell c 3 4 1 0 38 (by decide +kernel)); iexact Hlev
    iexact PR410
  iintro H
  icases H with ⟨How, VR410, GR410⟩
  ihave L := (Entails.of_eq (held_src_ag_3_1_1 c fullShare (fun (i : S1024x1024.Idx) (v : Elt F .bf16) => pOut ct (sh := S1024x1024) i v rfl)).symm) $$ GR410
  ihave L := (heldV_shr c (src_ag_3_1_1 c) 3 4 rfl (fun i v => pOut ct (sh := S1024x1024) i v rfl)).1 $$ L
  icases L with ⟨B3_1, Y3_1⟩
  -- exchange 3, column block 1, piece 1: the transfer
  iapply (ag_send ct c (peer 1 3 c) _ (dev_ag_3_1_1 c) (src_ag_3_1_1 c) (dsem 2 3 1 1) (dsem 3 3 1 1) (shr 3) (fun i v => pOut ct (sh := S1024x1024) i v rfl)
    (owedFrom c 39) (amtIx (dsem 2 3 1 1).val)
    (duty_mem ct c 2 3 1 1 rfl) (duty_mem ct (peer 1 3 c) 3 3 1 1 rfl) rfl rfl rfl (owed_step_38 c) rfl
    (recv_at_peer_3_1_1 ct c)) $$ [B3_1 LD311 How TS311 TR311]
  · isplitr
    · iapply (inv_dma ct K c 2 3 1 1 rfl); iexact HR
    isplitr
    · iapply (inv_dma ct K (peer 1 3 c) 3 3 1 1 rfl); iexact HR
    isplitl [B3_1]
    · iexact B3_1
    isplitl [LD311]
    · iexact LD311
    isplitl [How]
    · iexact How
    isplitl [TS311]
    · iexact TS311
    isplitr
    · iapply (reached_dma ct K c 2 3 1 1 rfl); iexact HR
    isplitl [TR311]
    · iexact TR311
    iapply (reached_dma ct K (peer 1 3 c) 3 3 1 1 rfl); iexact HR
  iintro H
  icases H with ⟨CS311, How⟩
  -- exchange 3, column block 2, piece 0: the transfer
  iapply (ag_send ct c (peer 2 3 c) _ (dev_ag_3_2_0 c) (src_ag_3_2_0 c) (dsem 2 3 2 0) (dsem 3 3 2 0) (shr 3) (fun i v => pOut ct (sh := S1024x1024) i v rfl)
    (owedFrom c 40) (amtIx (dsem 2 3 2 0).val)
    (duty_mem ct c 2 3 2 0 rfl) (duty_mem ct (peer 2 3 c) 3 3 2 0 rfl) rfl rfl rfl (owed_step_39 c) rfl
    (recv_at_peer_3_2_0 ct c)) $$ [A3_2 LD320 How TS320 TR320]
  · isplitr
    · iapply (inv_dma ct K c 2 3 2 0 rfl); iexact HR
    isplitr
    · iapply (inv_dma ct K (peer 2 3 c) 3 3 2 0 rfl); iexact HR
    isplitl [A3_2]
    · iexact A3_2
    isplitl [LD320]
    · iexact LD320
    isplitl [How]
    · iexact How
    isplitl [TS320]
    · iexact TS320
    isplitr
    · iapply (reached_dma ct K c 2 3 2 0 rfl); iexact HR
    isplitl [TR320]
    · iexact TR320
    iapply (reached_dma ct K (peer 2 3 c) 3 3 2 0 rfl); iexact HR
  iintro H
  icases H with ⟨CS320, How⟩
  -- exchange 4, column block 2, piece 0: the wait on the departure cell, and the cell closed
  iapply (ag_wait ct K c 2 4 2 0 rfl (src_ag_4_2_0 c) _ rfl (rest_S_4_2_0 ct c)) $$ [CS420 How PS420]
  · isplitr
    · iexact HR
    isplitl [CS420]
    · iexact CS420
    isplitl [How]
    · iexact How
    isplitr
    · iapply (mayWait_cell c 2 4 2 0 40 (by decide +kernel)); iexact Hlev
    iexact PS420
  iintro H
  icases H with ⟨How, VS420, GS420⟩
  -- exchange 4, column block 2, piece 0: the wait on the arrival cell, and the cell closed
  iapply (ag_wait ct K c 3 4 2 0 rfl (src_ag_4_2_0 c) _ rfl (rest_R_4_2_0 ct c)) $$ [CR420 How PR420]
  · isplitr
    · iexact HR
    isplitl [CR420]
    · iexact CR420
    isplitl [How]
    · iexact How
    isplitr
    · iapply (mayWait_cell c 3 4 2 0 40 (by decide +kernel)); iexact Hlev
    iexact PR420
  iintro H
  icases H with ⟨How, VR420, GR420⟩
  ihave L := (Entails.of_eq (held_src_ag_3_2_1 c fullShare (fun (i : S1024x1024.Idx) (v : Elt F .bf16) => pOut ct (sh := S1024x1024) i v rfl)).symm) $$ GR420
  ihave L := (heldV_shr c (src_ag_3_2_1 c) 3 4 rfl (fun i v => pOut ct (sh := S1024x1024) i v rfl)).1 $$ L
  icases L with ⟨B3_2, Y3_2⟩
  -- exchange 3, column block 2, piece 1: the transfer
  iapply (ag_send ct c (peer 2 3 c) _ (dev_ag_3_2_1 c) (src_ag_3_2_1 c) (dsem 2 3 2 1) (dsem 3 3 2 1) (shr 3) (fun i v => pOut ct (sh := S1024x1024) i v rfl)
    (owedFrom c 41) (amtIx (dsem 2 3 2 1).val)
    (duty_mem ct c 2 3 2 1 rfl) (duty_mem ct (peer 2 3 c) 3 3 2 1 rfl) rfl rfl rfl (owed_step_40 c) rfl
    (recv_at_peer_3_2_1 ct c)) $$ [B3_2 LD321 How TS321 TR321]
  · isplitr
    · iapply (inv_dma ct K c 2 3 2 1 rfl); iexact HR
    isplitr
    · iapply (inv_dma ct K (peer 2 3 c) 3 3 2 1 rfl); iexact HR
    isplitl [B3_2]
    · iexact B3_2
    isplitl [LD321]
    · iexact LD321
    isplitl [How]
    · iexact How
    isplitl [TS321]
    · iexact TS321
    isplitr
    · iapply (reached_dma ct K c 2 3 2 1 rfl); iexact HR
    isplitl [TR321]
    · iexact TR321
    iapply (reached_dma ct K (peer 2 3 c) 3 3 2 1 rfl); iexact HR
  iintro H
  icases H with ⟨CS321, How⟩
  ihave Z2_0 := (held_src_ag_2_0_0 c (shr 4) (fun (i : S1024x1024.Idx) (v : Elt F .bf16) => pOut ct (sh := S1024x1024) i v rfl)).2 $$ [GS400 Y3_0]
  · isplitl [GS400]
    · iexact GS400
    · iexact Y3_0
  ihave Z2_0 := (heldV_cast c (src_ag_2_0_0 c) shr42 (fun i v => pOut ct (sh := S1024x1024) i v rfl)) $$ Z2_0
  -- exchange 2, column block 0, piece 0: the transfer
  iapply (ag_send ct c (peer 0 2 c) _ (dev_ag_2_0_0 c) (src_ag_2_0_0 c) (dsem 2 2 0 0) (dsem 3 2 0 0) (shr 2) (fun i v => pOut ct (sh := S1024x1024) i v rfl)
    (owedFrom c 42) (amtIx (dsem 2 2 0 0).val)
    (duty_mem ct c 2 2 0 0 rfl) (duty_mem ct (peer 0 2 c) 3 2 0 0 rfl) rfl rfl rfl (owed_step_41 c) rfl
    (recv_at_peer_2_0_0 ct c)) $$ [Z2_0 LD200 How TS200 TR200]
  · isplitr
    · iapply (inv_dma ct K c 2 2 0 0 rfl); iexact HR
    isplitr
    · iapply (inv_dma ct K (peer 0 2 c) 3 2 0 0 rfl); iexact HR
    isplitl [Z2_0]
    · iexact Z2_0
    isplitl [LD200]
    · iexact LD200
    isplitl [How]
    · iexact How
    isplitl [TS200]
    · iexact TS200
    isplitr
    · iapply (reached_dma ct K c 2 2 0 0 rfl); iexact HR
    isplitl [TR200]
    · iexact TR200
    iapply (reached_dma ct K (peer 0 2 c) 3 2 0 0 rfl); iexact HR
  iintro H
  icases H with ⟨CS200, How⟩
  -- exchange 3, column block 0, piece 0: the wait on the departure cell, and the cell closed
  iapply (ag_wait ct K c 2 3 0 0 rfl (src_ag_3_0_0 c) _ rfl (rest_S_3_0_0 ct c)) $$ [CS300 How PS300]
  · isplitr
    · iexact HR
    isplitl [CS300]
    · iexact CS300
    isplitl [How]
    · iexact How
    isplitr
    · iapply (mayWait_cell c 2 3 0 0 42 (by decide +kernel)); iexact Hlev
    iexact PS300
  iintro H
  icases H with ⟨How, VS300, GS300⟩
  -- exchange 3, column block 0, piece 0: the wait on the arrival cell, and the cell closed
  iapply (ag_wait ct K c 3 3 0 0 rfl (src_ag_3_0_0 c) _ rfl (rest_R_3_0_0 ct c)) $$ [CR300 How PR300]
  · isplitr
    · iexact HR
    isplitl [CR300]
    · iexact CR300
    isplitl [How]
    · iexact How
    isplitr
    · iapply (mayWait_cell c 3 3 0 0 42 (by decide +kernel)); iexact Hlev
    iexact PR300
  iintro H
  icases H with ⟨How, VR300, GR300⟩
  -- exchange 3, column block 0, piece 1: the wait on the departure cell, and the cell closed
  iapply (ag_wait ct K c 2 3 0 1 rfl (src_ag_3_0_1 c) _ rfl (rest_S_3_0_1 ct c)) $$ [CS301 How PS301]
  · isplitr
    · iexact HR
    isplitl [CS301]
    · iexact CS301
    isplitl [How]
    · iexact How
    isplitr
    · iapply (mayWait_cell c 2 3 0 1 42 (by decide +kernel)); iexact Hlev
    iexact PS301
  iintro H
  icases H with ⟨How, VS301, GS301⟩
  -- exchange 3, column block 0, piece 1: the wait on the arrival cell, and the cell closed
  iapply (ag_wait ct K c 3 3 0 1 rfl (src_ag_3_0_1 c) _ rfl (rest_R_3_0_1 ct c)) $$ [CR301 How PR301]
  · isplitr
    · iexact HR
    isplitl [CR301]
    · iexact CR301
    isplitl [How]
    · iexact How
    isplitr
    · iapply (mayWait_cell c 3 3 0 1 42 (by decide +kernel)); iexact Hlev
    iexact PR301
  iintro H
  icases H with ⟨How, VR301, GR301⟩
  ihave L := (held_src_ag_2_0_1 c fullShare (fun (i : S1024x1024.Idx) (v : Elt F .bf16) => pOut ct (sh := S1024x1024) i v rfl)).2 $$ [GR300 GR301]
  · isplitl [GR300]
    · iexact GR300
    · iexact GR301
  ihave L := (heldV_shr c (src_ag_2_0_1 c) 2 3 rfl (fun i v => pOut ct (sh := S1024x1024) i v rfl)).1 $$ L
  icases L with ⟨B2_0, Y2_0⟩
  -- exchange 2, column block 0, piece 1: the transfer
  iapply (ag_send ct c (peer 0 2 c) _ (dev_ag_2_0_1 c) (src_ag_2_0_1 c) (dsem 2 2 0 1) (dsem 3 2 0 1) (shr 2) (fun i v => pOut ct (sh := S1024x1024) i v rfl)
    (owedFrom c 43) (amtIx (dsem 2 2 0 1).val)
    (duty_mem ct c 2 2 0 1 rfl) (duty_mem ct (peer 0 2 c) 3 2 0 1 rfl) rfl rfl rfl (owed_step_42 c) rfl
    (recv_at_peer_2_0_1 ct c)) $$ [B2_0 LD201 How TS201 TR201]
  · isplitr
    · iapply (inv_dma ct K c 2 2 0 1 rfl); iexact HR
    isplitr
    · iapply (inv_dma ct K (peer 0 2 c) 3 2 0 1 rfl); iexact HR
    isplitl [B2_0]
    · iexact B2_0
    isplitl [LD201]
    · iexact LD201
    isplitl [How]
    · iexact How
    isplitl [TS201]
    · iexact TS201
    isplitr
    · iapply (reached_dma ct K c 2 2 0 1 rfl); iexact HR
    isplitl [TR201]
    · iexact TR201
    iapply (reached_dma ct K (peer 0 2 c) 3 2 0 1 rfl); iexact HR
  iintro H
  icases H with ⟨CS201, How⟩
  ihave Z2_1 := (held_src_ag_2_1_0 c (shr 4) (fun (i : S1024x1024.Idx) (v : Elt F .bf16) => pOut ct (sh := S1024x1024) i v rfl)).2 $$ [GS410 Y3_1]
  · isplitl [GS410]
    · iexact GS410
    · iexact Y3_1
  ihave Z2_1 := (heldV_cast c (src_ag_2_1_0 c) shr42 (fun i v => pOut ct (sh := S1024x1024) i v rfl)) $$ Z2_1
  -- exchange 2, column block 1, piece 0: the transfer
  iapply (ag_send ct c (peer 1 2 c) _ (dev_ag_2_1_0 c) (src_ag_2_1_0 c) (dsem 2 2 1 0) (dsem 3 2 1 0) (shr 2) (fun i v => pOut ct (sh := S1024x1024) i v rfl)
    (owedFrom c 44) (amtIx (dsem 2 2 1 0).val)
    (duty_mem ct c 2 2 1 0 rfl) (duty_mem ct (peer 1 2 c) 3 2 1 0 rfl) rfl rfl rfl (owed_step_43 c) rfl
    (recv_at_peer_2_1_0 ct c)) $$ [Z2_1 LD210 How TS210 TR210]
  · isplitr
    · iapply (inv_dma ct K c 2 2 1 0 rfl); iexact HR
    isplitr
    · iapply (inv_dma ct K (peer 1 2 c) 3 2 1 0 rfl); iexact HR
    isplitl [Z2_1]
    · iexact Z2_1
    isplitl [LD210]
    · iexact LD210
    isplitl [How]
    · iexact How
    isplitl [TS210]
    · iexact TS210
    isplitr
    · iapply (reached_dma ct K c 2 2 1 0 rfl); iexact HR
    isplitl [TR210]
    · iexact TR210
    iapply (reached_dma ct K (peer 1 2 c) 3 2 1 0 rfl); iexact HR
  iintro H
  icases H with ⟨CS210, How⟩
  -- exchange 3, column block 1, piece 0: the wait on the departure cell, and the cell closed
  iapply (ag_wait ct K c 2 3 1 0 rfl (src_ag_3_1_0 c) _ rfl (rest_S_3_1_0 ct c)) $$ [CS310 How PS310]
  · isplitr
    · iexact HR
    isplitl [CS310]
    · iexact CS310
    isplitl [How]
    · iexact How
    isplitr
    · iapply (mayWait_cell c 2 3 1 0 44 (by decide +kernel)); iexact Hlev
    iexact PS310
  iintro H
  icases H with ⟨How, VS310, GS310⟩
  -- exchange 3, column block 1, piece 0: the wait on the arrival cell, and the cell closed
  iapply (ag_wait ct K c 3 3 1 0 rfl (src_ag_3_1_0 c) _ rfl (rest_R_3_1_0 ct c)) $$ [CR310 How PR310]
  · isplitr
    · iexact HR
    isplitl [CR310]
    · iexact CR310
    isplitl [How]
    · iexact How
    isplitr
    · iapply (mayWait_cell c 3 3 1 0 44 (by decide +kernel)); iexact Hlev
    iexact PR310
  iintro H
  icases H with ⟨How, VR310, GR310⟩
  -- exchange 3, column block 1, piece 1: the wait on the departure cell, and the cell closed
  iapply (ag_wait ct K c 2 3 1 1 rfl (src_ag_3_1_1 c) _ rfl (rest_S_3_1_1 ct c)) $$ [CS311 How PS311]
  · isplitr
    · iexact HR
    isplitl [CS311]
    · iexact CS311
    isplitl [How]
    · iexact How
    isplitr
    · iapply (mayWait_cell c 2 3 1 1 44 (by decide +kernel)); iexact Hlev
    iexact PS311
  iintro H
  icases H with ⟨How, VS311, GS311⟩
  -- exchange 3, column block 1, piece 1: the wait on the arrival cell, and the cell closed
  iapply (ag_wait ct K c 3 3 1 1 rfl (src_ag_3_1_1 c) _ rfl (rest_R_3_1_1 ct c)) $$ [CR311 How PR311]
  · isplitr
    · iexact HR
    isplitl [CR311]
    · iexact CR311
    isplitl [How]
    · iexact How
    isplitr
    · iapply (mayWait_cell c 3 3 1 1 44 (by decide +kernel)); iexact Hlev
    iexact PR311
  iintro H
  icases H with ⟨How, VR311, GR311⟩
  ihave L := (held_src_ag_2_1_1 c fullShare (fun (i : S1024x1024.Idx) (v : Elt F .bf16) => pOut ct (sh := S1024x1024) i v rfl)).2 $$ [GR310 GR311]
  · isplitl [GR310]
    · iexact GR310
    · iexact GR311
  ihave L := (heldV_shr c (src_ag_2_1_1 c) 2 3 rfl (fun i v => pOut ct (sh := S1024x1024) i v rfl)).1 $$ L
  icases L with ⟨B2_1, Y2_1⟩
  -- exchange 2, column block 1, piece 1: the transfer
  iapply (ag_send ct c (peer 1 2 c) _ (dev_ag_2_1_1 c) (src_ag_2_1_1 c) (dsem 2 2 1 1) (dsem 3 2 1 1) (shr 2) (fun i v => pOut ct (sh := S1024x1024) i v rfl)
    (owedFrom c 45) (amtIx (dsem 2 2 1 1).val)
    (duty_mem ct c 2 2 1 1 rfl) (duty_mem ct (peer 1 2 c) 3 2 1 1 rfl) rfl rfl rfl (owed_step_44 c) rfl
    (recv_at_peer_2_1_1 ct c)) $$ [B2_1 LD211 How TS211 TR211]
  · isplitr
    · iapply (inv_dma ct K c 2 2 1 1 rfl); iexact HR
    isplitr
    · iapply (inv_dma ct K (peer 1 2 c) 3 2 1 1 rfl); iexact HR
    isplitl [B2_1]
    · iexact B2_1
    isplitl [LD211]
    · iexact LD211
    isplitl [How]
    · iexact How
    isplitl [TS211]
    · iexact TS211
    isplitr
    · iapply (reached_dma ct K c 2 2 1 1 rfl); iexact HR
    isplitl [TR211]
    · iexact TR211
    iapply (reached_dma ct K (peer 1 2 c) 3 2 1 1 rfl); iexact HR
  iintro H
  icases H with ⟨CS211, How⟩
  ihave Z2_2 := (held_src_ag_2_2_0 c (shr 4) (fun (i : S1024x1024.Idx) (v : Elt F .bf16) => pOut ct (sh := S1024x1024) i v rfl)).2 $$ [GS420 Y3_2]
  · isplitl [GS420]
    · iexact GS420
    · iexact Y3_2
  ihave Z2_2 := (heldV_cast c (src_ag_2_2_0 c) shr42 (fun i v => pOut ct (sh := S1024x1024) i v rfl)) $$ Z2_2
  -- exchange 2, column block 2, piece 0: the transfer
  iapply (ag_send ct c (peer 2 2 c) _ (dev_ag_2_2_0 c) (src_ag_2_2_0 c) (dsem 2 2 2 0) (dsem 3 2 2 0) (shr 2) (fun i v => pOut ct (sh := S1024x1024) i v rfl)
    (owedFrom c 46) (amtIx (dsem 2 2 2 0).val)
    (duty_mem ct c 2 2 2 0 rfl) (duty_mem ct (peer 2 2 c) 3 2 2 0 rfl) rfl rfl rfl (owed_step_45 c) rfl
    (recv_at_peer_2_2_0 ct c)) $$ [Z2_2 LD220 How TS220 TR220]
  · isplitr
    · iapply (inv_dma ct K c 2 2 2 0 rfl); iexact HR
    isplitr
    · iapply (inv_dma ct K (peer 2 2 c) 3 2 2 0 rfl); iexact HR
    isplitl [Z2_2]
    · iexact Z2_2
    isplitl [LD220]
    · iexact LD220
    isplitl [How]
    · iexact How
    isplitl [TS220]
    · iexact TS220
    isplitr
    · iapply (reached_dma ct K c 2 2 2 0 rfl); iexact HR
    isplitl [TR220]
    · iexact TR220
    iapply (reached_dma ct K (peer 2 2 c) 3 2 2 0 rfl); iexact HR
  iintro H
  icases H with ⟨CS220, How⟩
  -- exchange 3, column block 2, piece 0: the wait on the departure cell, and the cell closed
  iapply (ag_wait ct K c 2 3 2 0 rfl (src_ag_3_2_0 c) _ rfl (rest_S_3_2_0 ct c)) $$ [CS320 How PS320]
  · isplitr
    · iexact HR
    isplitl [CS320]
    · iexact CS320
    isplitl [How]
    · iexact How
    isplitr
    · iapply (mayWait_cell c 2 3 2 0 46 (by decide +kernel)); iexact Hlev
    iexact PS320
  iintro H
  icases H with ⟨How, VS320, GS320⟩
  -- exchange 3, column block 2, piece 0: the wait on the arrival cell, and the cell closed
  iapply (ag_wait ct K c 3 3 2 0 rfl (src_ag_3_2_0 c) _ rfl (rest_R_3_2_0 ct c)) $$ [CR320 How PR320]
  · isplitr
    · iexact HR
    isplitl [CR320]
    · iexact CR320
    isplitl [How]
    · iexact How
    isplitr
    · iapply (mayWait_cell c 3 3 2 0 46 (by decide +kernel)); iexact Hlev
    iexact PR320
  iintro H
  icases H with ⟨How, VR320, GR320⟩
  -- exchange 3, column block 2, piece 1: the wait on the departure cell, and the cell closed
  iapply (ag_wait ct K c 2 3 2 1 rfl (src_ag_3_2_1 c) _ rfl (rest_S_3_2_1 ct c)) $$ [CS321 How PS321]
  · isplitr
    · iexact HR
    isplitl [CS321]
    · iexact CS321
    isplitl [How]
    · iexact How
    isplitr
    · iapply (mayWait_cell c 2 3 2 1 46 (by decide +kernel)); iexact Hlev
    iexact PS321
  iintro H
  icases H with ⟨How, VS321, GS321⟩
  -- exchange 3, column block 2, piece 1: the wait on the arrival cell, and the cell closed
  iapply (ag_wait ct K c 3 3 2 1 rfl (src_ag_3_2_1 c) _ rfl (rest_R_3_2_1 ct c)) $$ [CR321 How PR321]
  · isplitr
    · iexact HR
    isplitl [CR321]
    · iexact CR321
    isplitl [How]
    · iexact How
    isplitr
    · iapply (mayWait_cell c 3 3 2 1 46 (by decide +kernel)); iexact Hlev
    iexact PR321
  iintro H
  icases H with ⟨How, VR321, GR321⟩
  ihave L := (held_src_ag_2_2_1 c fullShare (fun (i : S1024x1024.Idx) (v : Elt F .bf16) => pOut ct (sh := S1024x1024) i v rfl)).2 $$ [GR320 GR321]
  · isplitl [GR320]
    · iexact GR320
    · iexact GR321
  ihave L := (heldV_shr c (src_ag_2_2_1 c) 2 3 rfl (fun i v => pOut ct (sh := S1024x1024) i v rfl)).1 $$ L
  icases L with ⟨B2_2, Y2_2⟩
  -- exchange 2, column block 2, piece 1: the transfer
  iapply (ag_send ct c (peer 2 2 c) _ (dev_ag_2_2_1 c) (src_ag_2_2_1 c) (dsem 2 2 2 1) (dsem 3 2 2 1) (shr 2) (fun i v => pOut ct (sh := S1024x1024) i v rfl)
    (owedFrom c 47) (amtIx (dsem 2 2 2 1).val)
    (duty_mem ct c 2 2 2 1 rfl) (duty_mem ct (peer 2 2 c) 3 2 2 1 rfl) rfl rfl rfl (owed_step_46 c) rfl
    (recv_at_peer_2_2_1 ct c)) $$ [B2_2 LD221 How TS221 TR221]
  · isplitr
    · iapply (inv_dma ct K c 2 2 2 1 rfl); iexact HR
    isplitr
    · iapply (inv_dma ct K (peer 2 2 c) 3 2 2 1 rfl); iexact HR
    isplitl [B2_2]
    · iexact B2_2
    isplitl [LD221]
    · iexact LD221
    isplitl [How]
    · iexact How
    isplitl [TS221]
    · iexact TS221
    isplitr
    · iapply (reached_dma ct K c 2 2 2 1 rfl); iexact HR
    isplitl [TR221]
    · iexact TR221
    iapply (reached_dma ct K (peer 2 2 c) 3 2 2 1 rfl); iexact HR
  iintro H
  icases H with ⟨CS221, How⟩
  ihave X2_0 := (held_src_ag_2_0_0 c (shr 3) (fun (i : S1024x1024.Idx) (v : Elt F .bf16) => pOut ct (sh := S1024x1024) i v rfl)).2 $$ [GS300 GS301]
  · isplitl [GS300]
    · iexact GS300
    · iexact GS301
  ihave Z1_0 := (held_src_ag_1_0_0 c (shr 3) (fun (i : S1024x1024.Idx) (v : Elt F .bf16) => pOut ct (sh := S1024x1024) i v rfl)).2 $$ [X2_0 Y2_0]
  · isplitl [X2_0]
    · iexact X2_0
    · iexact Y2_0
  ihave Z1_0 := (heldV_cast c (src_ag_1_0_0 c) shr31 (fun i v => pOut ct (sh := S1024x1024) i v rfl)) $$ Z1_0
  -- exchange 1, column block 0, piece 0: the transfer
  iapply (ag_send ct c (peer 0 1 c) _ (dev_ag_1_0_0 c) (src_ag_1_0_0 c) (dsem 2 1 0 0) (dsem 3 1 0 0) (shr 1) (fun i v => pOut ct (sh := S1024x1024) i v rfl)
    (owedFrom c 48) (amtIx (dsem 2 1 0 0).val)
    (duty_mem ct c 2 1 0 0 rfl) (duty_mem ct (peer 0 1 c) 3 1 0 0 rfl) rfl rfl rfl (owed_step_47 c) rfl
    (recv_at_peer_1_0_0 ct c)) $$ [Z1_0 LD100 How TS100 TR100]
  · isplitr
    · iapply (inv_dma ct K c 2 1 0 0 rfl); iexact HR
    isplitr
    · iapply (inv_dma ct K (peer 0 1 c) 3 1 0 0 rfl); iexact HR
    isplitl [Z1_0]
    · iexact Z1_0
    isplitl [LD100]
    · iexact LD100
    isplitl [How]
    · iexact How
    isplitl [TS100]
    · iexact TS100
    isplitr
    · iapply (reached_dma ct K c 2 1 0 0 rfl); iexact HR
    isplitl [TR100]
    · iexact TR100
    iapply (reached_dma ct K (peer 0 1 c) 3 1 0 0 rfl); iexact HR
  iintro H
  icases H with ⟨CS100, How⟩
  -- exchange 2, column block 0, piece 0: the wait on the departure cell, and the cell closed
  iapply (ag_wait ct K c 2 2 0 0 rfl (src_ag_2_0_0 c) _ rfl (rest_S_2_0_0 ct c)) $$ [CS200 How PS200]
  · isplitr
    · iexact HR
    isplitl [CS200]
    · iexact CS200
    isplitl [How]
    · iexact How
    isplitr
    · iapply (mayWait_cell c 2 2 0 0 48 (by decide +kernel)); iexact Hlev
    iexact PS200
  iintro H
  icases H with ⟨How, VS200, GS200⟩
  -- exchange 2, column block 0, piece 0: the wait on the arrival cell, and the cell closed
  iapply (ag_wait ct K c 3 2 0 0 rfl (src_ag_2_0_0 c) _ rfl (rest_R_2_0_0 ct c)) $$ [CR200 How PR200]
  · isplitr
    · iexact HR
    isplitl [CR200]
    · iexact CR200
    isplitl [How]
    · iexact How
    isplitr
    · iapply (mayWait_cell c 3 2 0 0 48 (by decide +kernel)); iexact Hlev
    iexact PR200
  iintro H
  icases H with ⟨How, VR200, GR200⟩
  -- exchange 2, column block 0, piece 1: the wait on the departure cell, and the cell closed
  iapply (ag_wait ct K c 2 2 0 1 rfl (src_ag_2_0_1 c) _ rfl (rest_S_2_0_1 ct c)) $$ [CS201 How PS201]
  · isplitr
    · iexact HR
    isplitl [CS201]
    · iexact CS201
    isplitl [How]
    · iexact How
    isplitr
    · iapply (mayWait_cell c 2 2 0 1 48 (by decide +kernel)); iexact Hlev
    iexact PS201
  iintro H
  icases H with ⟨How, VS201, GS201⟩
  -- exchange 2, column block 0, piece 1: the wait on the arrival cell, and the cell closed
  iapply (ag_wait ct K c 3 2 0 1 rfl (src_ag_2_0_1 c) _ rfl (rest_R_2_0_1 ct c)) $$ [CR201 How PR201]
  · isplitr
    · iexact HR
    isplitl [CR201]
    · iexact CR201
    isplitl [How]
    · iexact How
    isplitr
    · iapply (mayWait_cell c 3 2 0 1 48 (by decide +kernel)); iexact Hlev
    iexact PR201
  iintro H
  icases H with ⟨How, VR201, GR201⟩
  ihave L := (held_src_ag_1_0_1 c fullShare (fun (i : S1024x1024.Idx) (v : Elt F .bf16) => pOut ct (sh := S1024x1024) i v rfl)).2 $$ [GR200 GR201]
  · isplitl [GR200]
    · iexact GR200
    · iexact GR201
  ihave L := (heldV_shr c (src_ag_1_0_1 c) 1 2 rfl (fun i v => pOut ct (sh := S1024x1024) i v rfl)).1 $$ L
  icases L with ⟨B1_0, Y1_0⟩
  -- exchange 1, column block 0, piece 1: the transfer
  iapply (ag_send ct c (peer 0 1 c) _ (dev_ag_1_0_1 c) (src_ag_1_0_1 c) (dsem 2 1 0 1) (dsem 3 1 0 1) (shr 1) (fun i v => pOut ct (sh := S1024x1024) i v rfl)
    (owedFrom c 49) (amtIx (dsem 2 1 0 1).val)
    (duty_mem ct c 2 1 0 1 rfl) (duty_mem ct (peer 0 1 c) 3 1 0 1 rfl) rfl rfl rfl (owed_step_48 c) rfl
    (recv_at_peer_1_0_1 ct c)) $$ [B1_0 LD101 How TS101 TR101]
  · isplitr
    · iapply (inv_dma ct K c 2 1 0 1 rfl); iexact HR
    isplitr
    · iapply (inv_dma ct K (peer 0 1 c) 3 1 0 1 rfl); iexact HR
    isplitl [B1_0]
    · iexact B1_0
    isplitl [LD101]
    · iexact LD101
    isplitl [How]
    · iexact How
    isplitl [TS101]
    · iexact TS101
    isplitr
    · iapply (reached_dma ct K c 2 1 0 1 rfl); iexact HR
    isplitl [TR101]
    · iexact TR101
    iapply (reached_dma ct K (peer 0 1 c) 3 1 0 1 rfl); iexact HR
  iintro H
  icases H with ⟨CS101, How⟩
  ihave X2_1 := (held_src_ag_2_1_0 c (shr 3) (fun (i : S1024x1024.Idx) (v : Elt F .bf16) => pOut ct (sh := S1024x1024) i v rfl)).2 $$ [GS310 GS311]
  · isplitl [GS310]
    · iexact GS310
    · iexact GS311
  ihave Z1_1 := (held_src_ag_1_1_0 c (shr 3) (fun (i : S1024x1024.Idx) (v : Elt F .bf16) => pOut ct (sh := S1024x1024) i v rfl)).2 $$ [X2_1 Y2_1]
  · isplitl [X2_1]
    · iexact X2_1
    · iexact Y2_1
  ihave Z1_1 := (heldV_cast c (src_ag_1_1_0 c) shr31 (fun i v => pOut ct (sh := S1024x1024) i v rfl)) $$ Z1_1
  -- exchange 1, column block 1, piece 0: the transfer
  iapply (ag_send ct c (peer 1 1 c) _ (dev_ag_1_1_0 c) (src_ag_1_1_0 c) (dsem 2 1 1 0) (dsem 3 1 1 0) (shr 1) (fun i v => pOut ct (sh := S1024x1024) i v rfl)
    (owedFrom c 50) (amtIx (dsem 2 1 1 0).val)
    (duty_mem ct c 2 1 1 0 rfl) (duty_mem ct (peer 1 1 c) 3 1 1 0 rfl) rfl rfl rfl (owed_step_49 c) rfl
    (recv_at_peer_1_1_0 ct c)) $$ [Z1_1 LD110 How TS110 TR110]
  · isplitr
    · iapply (inv_dma ct K c 2 1 1 0 rfl); iexact HR
    isplitr
    · iapply (inv_dma ct K (peer 1 1 c) 3 1 1 0 rfl); iexact HR
    isplitl [Z1_1]
    · iexact Z1_1
    isplitl [LD110]
    · iexact LD110
    isplitl [How]
    · iexact How
    isplitl [TS110]
    · iexact TS110
    isplitr
    · iapply (reached_dma ct K c 2 1 1 0 rfl); iexact HR
    isplitl [TR110]
    · iexact TR110
    iapply (reached_dma ct K (peer 1 1 c) 3 1 1 0 rfl); iexact HR
  iintro H
  icases H with ⟨CS110, How⟩
  -- exchange 2, column block 1, piece 0: the wait on the departure cell, and the cell closed
  iapply (ag_wait ct K c 2 2 1 0 rfl (src_ag_2_1_0 c) _ rfl (rest_S_2_1_0 ct c)) $$ [CS210 How PS210]
  · isplitr
    · iexact HR
    isplitl [CS210]
    · iexact CS210
    isplitl [How]
    · iexact How
    isplitr
    · iapply (mayWait_cell c 2 2 1 0 50 (by decide +kernel)); iexact Hlev
    iexact PS210
  iintro H
  icases H with ⟨How, VS210, GS210⟩
  -- exchange 2, column block 1, piece 0: the wait on the arrival cell, and the cell closed
  iapply (ag_wait ct K c 3 2 1 0 rfl (src_ag_2_1_0 c) _ rfl (rest_R_2_1_0 ct c)) $$ [CR210 How PR210]
  · isplitr
    · iexact HR
    isplitl [CR210]
    · iexact CR210
    isplitl [How]
    · iexact How
    isplitr
    · iapply (mayWait_cell c 3 2 1 0 50 (by decide +kernel)); iexact Hlev
    iexact PR210
  iintro H
  icases H with ⟨How, VR210, GR210⟩
  -- exchange 2, column block 1, piece 1: the wait on the departure cell, and the cell closed
  iapply (ag_wait ct K c 2 2 1 1 rfl (src_ag_2_1_1 c) _ rfl (rest_S_2_1_1 ct c)) $$ [CS211 How PS211]
  · isplitr
    · iexact HR
    isplitl [CS211]
    · iexact CS211
    isplitl [How]
    · iexact How
    isplitr
    · iapply (mayWait_cell c 2 2 1 1 50 (by decide +kernel)); iexact Hlev
    iexact PS211
  iintro H
  icases H with ⟨How, VS211, GS211⟩
  -- exchange 2, column block 1, piece 1: the wait on the arrival cell, and the cell closed
  iapply (ag_wait ct K c 3 2 1 1 rfl (src_ag_2_1_1 c) _ rfl (rest_R_2_1_1 ct c)) $$ [CR211 How PR211]
  · isplitr
    · iexact HR
    isplitl [CR211]
    · iexact CR211
    isplitl [How]
    · iexact How
    isplitr
    · iapply (mayWait_cell c 3 2 1 1 50 (by decide +kernel)); iexact Hlev
    iexact PR211
  iintro H
  icases H with ⟨How, VR211, GR211⟩
  ihave L := (held_src_ag_1_1_1 c fullShare (fun (i : S1024x1024.Idx) (v : Elt F .bf16) => pOut ct (sh := S1024x1024) i v rfl)).2 $$ [GR210 GR211]
  · isplitl [GR210]
    · iexact GR210
    · iexact GR211
  ihave L := (heldV_shr c (src_ag_1_1_1 c) 1 2 rfl (fun i v => pOut ct (sh := S1024x1024) i v rfl)).1 $$ L
  icases L with ⟨B1_1, Y1_1⟩
  -- exchange 1, column block 1, piece 1: the transfer
  iapply (ag_send ct c (peer 1 1 c) _ (dev_ag_1_1_1 c) (src_ag_1_1_1 c) (dsem 2 1 1 1) (dsem 3 1 1 1) (shr 1) (fun i v => pOut ct (sh := S1024x1024) i v rfl)
    (owedFrom c 51) (amtIx (dsem 2 1 1 1).val)
    (duty_mem ct c 2 1 1 1 rfl) (duty_mem ct (peer 1 1 c) 3 1 1 1 rfl) rfl rfl rfl (owed_step_50 c) rfl
    (recv_at_peer_1_1_1 ct c)) $$ [B1_1 LD111 How TS111 TR111]
  · isplitr
    · iapply (inv_dma ct K c 2 1 1 1 rfl); iexact HR
    isplitr
    · iapply (inv_dma ct K (peer 1 1 c) 3 1 1 1 rfl); iexact HR
    isplitl [B1_1]
    · iexact B1_1
    isplitl [LD111]
    · iexact LD111
    isplitl [How]
    · iexact How
    isplitl [TS111]
    · iexact TS111
    isplitr
    · iapply (reached_dma ct K c 2 1 1 1 rfl); iexact HR
    isplitl [TR111]
    · iexact TR111
    iapply (reached_dma ct K (peer 1 1 c) 3 1 1 1 rfl); iexact HR
  iintro H
  icases H with ⟨CS111, How⟩
  ihave X2_2 := (held_src_ag_2_2_0 c (shr 3) (fun (i : S1024x1024.Idx) (v : Elt F .bf16) => pOut ct (sh := S1024x1024) i v rfl)).2 $$ [GS320 GS321]
  · isplitl [GS320]
    · iexact GS320
    · iexact GS321
  ihave Z1_2 := (held_src_ag_1_2_0 c (shr 3) (fun (i : S1024x1024.Idx) (v : Elt F .bf16) => pOut ct (sh := S1024x1024) i v rfl)).2 $$ [X2_2 Y2_2]
  · isplitl [X2_2]
    · iexact X2_2
    · iexact Y2_2
  ihave Z1_2 := (heldV_cast c (src_ag_1_2_0 c) shr31 (fun i v => pOut ct (sh := S1024x1024) i v rfl)) $$ Z1_2
  -- exchange 1, column block 2, piece 0: the transfer
  iapply (ag_send ct c (peer 2 1 c) _ (dev_ag_1_2_0 c) (src_ag_1_2_0 c) (dsem 2 1 2 0) (dsem 3 1 2 0) (shr 1) (fun i v => pOut ct (sh := S1024x1024) i v rfl)
    (owedFrom c 52) (amtIx (dsem 2 1 2 0).val)
    (duty_mem ct c 2 1 2 0 rfl) (duty_mem ct (peer 2 1 c) 3 1 2 0 rfl) rfl rfl rfl (owed_step_51 c) rfl
    (recv_at_peer_1_2_0 ct c)) $$ [Z1_2 LD120 How TS120 TR120]
  · isplitr
    · iapply (inv_dma ct K c 2 1 2 0 rfl); iexact HR
    isplitr
    · iapply (inv_dma ct K (peer 2 1 c) 3 1 2 0 rfl); iexact HR
    isplitl [Z1_2]
    · iexact Z1_2
    isplitl [LD120]
    · iexact LD120
    isplitl [How]
    · iexact How
    isplitl [TS120]
    · iexact TS120
    isplitr
    · iapply (reached_dma ct K c 2 1 2 0 rfl); iexact HR
    isplitl [TR120]
    · iexact TR120
    iapply (reached_dma ct K (peer 2 1 c) 3 1 2 0 rfl); iexact HR
  iintro H
  icases H with ⟨CS120, How⟩
  -- exchange 2, column block 2, piece 0: the wait on the departure cell, and the cell closed
  iapply (ag_wait ct K c 2 2 2 0 rfl (src_ag_2_2_0 c) _ rfl (rest_S_2_2_0 ct c)) $$ [CS220 How PS220]
  · isplitr
    · iexact HR
    isplitl [CS220]
    · iexact CS220
    isplitl [How]
    · iexact How
    isplitr
    · iapply (mayWait_cell c 2 2 2 0 52 (by decide +kernel)); iexact Hlev
    iexact PS220
  iintro H
  icases H with ⟨How, VS220, GS220⟩
  -- exchange 2, column block 2, piece 0: the wait on the arrival cell, and the cell closed
  iapply (ag_wait ct K c 3 2 2 0 rfl (src_ag_2_2_0 c) _ rfl (rest_R_2_2_0 ct c)) $$ [CR220 How PR220]
  · isplitr
    · iexact HR
    isplitl [CR220]
    · iexact CR220
    isplitl [How]
    · iexact How
    isplitr
    · iapply (mayWait_cell c 3 2 2 0 52 (by decide +kernel)); iexact Hlev
    iexact PR220
  iintro H
  icases H with ⟨How, VR220, GR220⟩
  -- exchange 2, column block 2, piece 1: the wait on the departure cell, and the cell closed
  iapply (ag_wait ct K c 2 2 2 1 rfl (src_ag_2_2_1 c) _ rfl (rest_S_2_2_1 ct c)) $$ [CS221 How PS221]
  · isplitr
    · iexact HR
    isplitl [CS221]
    · iexact CS221
    isplitl [How]
    · iexact How
    isplitr
    · iapply (mayWait_cell c 2 2 2 1 52 (by decide +kernel)); iexact Hlev
    iexact PS221
  iintro H
  icases H with ⟨How, VS221, GS221⟩
  -- exchange 2, column block 2, piece 1: the wait on the arrival cell, and the cell closed
  iapply (ag_wait ct K c 3 2 2 1 rfl (src_ag_2_2_1 c) _ rfl (rest_R_2_2_1 ct c)) $$ [CR221 How PR221]
  · isplitr
    · iexact HR
    isplitl [CR221]
    · iexact CR221
    isplitl [How]
    · iexact How
    isplitr
    · iapply (mayWait_cell c 3 2 2 1 52 (by decide +kernel)); iexact Hlev
    iexact PR221
  iintro H
  icases H with ⟨How, VR221, GR221⟩
  ihave L := (held_src_ag_1_2_1 c fullShare (fun (i : S1024x1024.Idx) (v : Elt F .bf16) => pOut ct (sh := S1024x1024) i v rfl)).2 $$ [GR220 GR221]
  · isplitl [GR220]
    · iexact GR220
    · iexact GR221
  ihave L := (heldV_shr c (src_ag_1_2_1 c) 1 2 rfl (fun i v => pOut ct (sh := S1024x1024) i v rfl)).1 $$ L
  icases L with ⟨B1_2, Y1_2⟩
  -- exchange 1, column block 2, piece 1: the transfer
  iapply (ag_send ct c (peer 2 1 c) _ (dev_ag_1_2_1 c) (src_ag_1_2_1 c) (dsem 2 1 2 1) (dsem 3 1 2 1) (shr 1) (fun i v => pOut ct (sh := S1024x1024) i v rfl)
    (owedFrom c 53) (amtIx (dsem 2 1 2 1).val)
    (duty_mem ct c 2 1 2 1 rfl) (duty_mem ct (peer 2 1 c) 3 1 2 1 rfl) rfl rfl rfl (owed_step_52 c) rfl
    (recv_at_peer_1_2_1 ct c)) $$ [B1_2 LD121 How TS121 TR121]
  · isplitr
    · iapply (inv_dma ct K c 2 1 2 1 rfl); iexact HR
    isplitr
    · iapply (inv_dma ct K (peer 2 1 c) 3 1 2 1 rfl); iexact HR
    isplitl [B1_2]
    · iexact B1_2
    isplitl [LD121]
    · iexact LD121
    isplitl [How]
    · iexact How
    isplitl [TS121]
    · iexact TS121
    isplitr
    · iapply (reached_dma ct K c 2 1 2 1 rfl); iexact HR
    isplitl [TR121]
    · iexact TR121
    iapply (reached_dma ct K (peer 2 1 c) 3 1 2 1 rfl); iexact HR
  iintro H
  icases H with ⟨CS121, How⟩
  ihave X1_0 := (held_src_ag_1_0_0 c (shr 2) (fun (i : S1024x1024.Idx) (v : Elt F .bf16) => pOut ct (sh := S1024x1024) i v rfl)).2 $$ [GS200 GS201]
  · isplitl [GS200]
    · iexact GS200
    · iexact GS201
  ihave Z0_0 := (held_src_ag_0_0_0 c (shr 2) (fun (i : S1024x1024.Idx) (v : Elt F .bf16) => pOut ct (sh := S1024x1024) i v rfl)).2 $$ [X1_0 Y1_0]
  · isplitl [X1_0]
    · iexact X1_0
    · iexact Y1_0
  ihave Z0_0 := (heldV_cast c (src_ag_0_0_0 c) shr20 (fun i v => pOut ct (sh := S1024x1024) i v rfl)) $$ Z0_0
  -- exchange 0, column block 0, piece 0: the transfer
  iapply (ag_send ct c (peer 0 0 c) _ (dev_ag_0_0_0 c) (src_ag_0_0_0 c) (dsem 2 0 0 0) (dsem 3 0 0 0) (shr 0) (fun i v => pOut ct (sh := S1024x1024) i v rfl)
    (owedFrom c 54) (amtIx (dsem 2 0 0 0).val)
    (duty_mem ct c 2 0 0 0 rfl) (duty_mem ct (peer 0 0 c) 3 0 0 0 rfl) rfl rfl rfl (owed_step_53 c) rfl
    (recv_at_peer_0_0_0 ct c)) $$ [Z0_0 LD000 How TS000 TR000]
  · isplitr
    · iapply (inv_dma ct K c 2 0 0 0 rfl); iexact HR
    isplitr
    · iapply (inv_dma ct K (peer 0 0 c) 3 0 0 0 rfl); iexact HR
    isplitl [Z0_0]
    · iexact Z0_0
    isplitl [LD000]
    · iexact LD000
    isplitl [How]
    · iexact How
    isplitl [TS000]
    · iexact TS000
    isplitr
    · iapply (reached_dma ct K c 2 0 0 0 rfl); iexact HR
    isplitl [TR000]
    · iexact TR000
    iapply (reached_dma ct K (peer 0 0 c) 3 0 0 0 rfl); iexact HR
  iintro H
  icases H with ⟨CS000, How⟩
  -- exchange 1, column block 0, piece 0: the wait on the departure cell, and the cell closed
  iapply (ag_wait ct K c 2 1 0 0 rfl (src_ag_1_0_0 c) _ rfl (rest_S_1_0_0 ct c)) $$ [CS100 How PS100]
  · isplitr
    · iexact HR
    isplitl [CS100]
    · iexact CS100
    isplitl [How]
    · iexact How
    isplitr
    · iapply (mayWait_cell c 2 1 0 0 54 (by decide +kernel)); iexact Hlev
    iexact PS100
  iintro H
  icases H with ⟨How, VS100, GS100⟩
  -- exchange 1, column block 0, piece 0: the wait on the arrival cell, and the cell closed
  iapply (ag_wait ct K c 3 1 0 0 rfl (src_ag_1_0_0 c) _ rfl (rest_R_1_0_0 ct c)) $$ [CR100 How PR100]
  · isplitr
    · iexact HR
    isplitl [CR100]
    · iexact CR100
    isplitl [How]
    · iexact How
    isplitr
    · iapply (mayWait_cell c 3 1 0 0 54 (by decide +kernel)); iexact Hlev
    iexact PR100
  iintro H
  icases H with ⟨How, VR100, GR100⟩
  -- exchange 1, column block 0, piece 1: the wait on the departure cell, and the cell closed
  iapply (ag_wait ct K c 2 1 0 1 rfl (src_ag_1_0_1 c) _ rfl (rest_S_1_0_1 ct c)) $$ [CS101 How PS101]
  · isplitr
    · iexact HR
    isplitl [CS101]
    · iexact CS101
    isplitl [How]
    · iexact How
    isplitr
    · iapply (mayWait_cell c 2 1 0 1 54 (by decide +kernel)); iexact Hlev
    iexact PS101
  iintro H
  icases H with ⟨How, VS101, GS101⟩
  -- exchange 1, column block 0, piece 1: the wait on the arrival cell, and the cell closed
  iapply (ag_wait ct K c 3 1 0 1 rfl (src_ag_1_0_1 c) _ rfl (rest_R_1_0_1 ct c)) $$ [CR101 How PR101]
  · isplitr
    · iexact HR
    isplitl [CR101]
    · iexact CR101
    isplitl [How]
    · iexact How
    isplitr
    · iapply (mayWait_cell c 3 1 0 1 54 (by decide +kernel)); iexact Hlev
    iexact PR101
  iintro H
  icases H with ⟨How, VR101, GR101⟩
  ihave L := (held_src_ag_0_0_1 c fullShare (fun (i : S1024x1024.Idx) (v : Elt F .bf16) => pOut ct (sh := S1024x1024) i v rfl)).2 $$ [GR100 GR101]
  · isplitl [GR100]
    · iexact GR100
    · iexact GR101
  ihave L := (heldV_shr c (src_ag_0_0_1 c) 0 1 rfl (fun i v => pOut ct (sh := S1024x1024) i v rfl)).1 $$ L
  icases L with ⟨B0_0, Y0_0⟩
  -- exchange 0, column block 0, piece 1: the transfer
  iapply (ag_send ct c (peer 0 0 c) _ (dev_ag_0_0_1 c) (src_ag_0_0_1 c) (dsem 2 0 0 1) (dsem 3 0 0 1) (shr 0) (fun i v => pOut ct (sh := S1024x1024) i v rfl)
    (owedFrom c 55) (amtIx (dsem 2 0 0 1).val)
    (duty_mem ct c 2 0 0 1 rfl) (duty_mem ct (peer 0 0 c) 3 0 0 1 rfl) rfl rfl rfl (owed_step_54 c) rfl
    (recv_at_peer_0_0_1 ct c)) $$ [B0_0 LD001 How TS001 TR001]
  · isplitr
    · iapply (inv_dma ct K c 2 0 0 1 rfl); iexact HR
    isplitr
    · iapply (inv_dma ct K (peer 0 0 c) 3 0 0 1 rfl); iexact HR
    isplitl [B0_0]
    · iexact B0_0
    isplitl [LD001]
    · iexact LD001
    isplitl [How]
    · iexact How
    isplitl [TS001]
    · iexact TS001
    isplitr
    · iapply (reached_dma ct K c 2 0 0 1 rfl); iexact HR
    isplitl [TR001]
    · iexact TR001
    iapply (reached_dma ct K (peer 0 0 c) 3 0 0 1 rfl); iexact HR
  iintro H
  icases H with ⟨CS001, How⟩
  ihave X1_1 := (held_src_ag_1_1_0 c (shr 2) (fun (i : S1024x1024.Idx) (v : Elt F .bf16) => pOut ct (sh := S1024x1024) i v rfl)).2 $$ [GS210 GS211]
  · isplitl [GS210]
    · iexact GS210
    · iexact GS211
  ihave Z0_1 := (held_src_ag_0_1_0 c (shr 2) (fun (i : S1024x1024.Idx) (v : Elt F .bf16) => pOut ct (sh := S1024x1024) i v rfl)).2 $$ [X1_1 Y1_1]
  · isplitl [X1_1]
    · iexact X1_1
    · iexact Y1_1
  ihave Z0_1 := (heldV_cast c (src_ag_0_1_0 c) shr20 (fun i v => pOut ct (sh := S1024x1024) i v rfl)) $$ Z0_1
  -- exchange 0, column block 1, piece 0: the transfer
  iapply (ag_send ct c (peer 1 0 c) _ (dev_ag_0_1_0 c) (src_ag_0_1_0 c) (dsem 2 0 1 0) (dsem 3 0 1 0) (shr 0) (fun i v => pOut ct (sh := S1024x1024) i v rfl)
    (owedFrom c 56) (amtIx (dsem 2 0 1 0).val)
    (duty_mem ct c 2 0 1 0 rfl) (duty_mem ct (peer 1 0 c) 3 0 1 0 rfl) rfl rfl rfl (owed_step_55 c) rfl
    (recv_at_peer_0_1_0 ct c)) $$ [Z0_1 LD010 How TS010 TR010]
  · isplitr
    · iapply (inv_dma ct K c 2 0 1 0 rfl); iexact HR
    isplitr
    · iapply (inv_dma ct K (peer 1 0 c) 3 0 1 0 rfl); iexact HR
    isplitl [Z0_1]
    · iexact Z0_1
    isplitl [LD010]
    · iexact LD010
    isplitl [How]
    · iexact How
    isplitl [TS010]
    · iexact TS010
    isplitr
    · iapply (reached_dma ct K c 2 0 1 0 rfl); iexact HR
    isplitl [TR010]
    · iexact TR010
    iapply (reached_dma ct K (peer 1 0 c) 3 0 1 0 rfl); iexact HR
  iintro H
  icases H with ⟨CS010, How⟩
  -- exchange 1, column block 1, piece 0: the wait on the departure cell, and the cell closed
  iapply (ag_wait ct K c 2 1 1 0 rfl (src_ag_1_1_0 c) _ rfl (rest_S_1_1_0 ct c)) $$ [CS110 How PS110]
  · isplitr
    · iexact HR
    isplitl [CS110]
    · iexact CS110
    isplitl [How]
    · iexact How
    isplitr
    · iapply (mayWait_cell c 2 1 1 0 56 (by decide +kernel)); iexact Hlev
    iexact PS110
  iintro H
  icases H with ⟨How, VS110, GS110⟩
  -- exchange 1, column block 1, piece 0: the wait on the arrival cell, and the cell closed
  iapply (ag_wait ct K c 3 1 1 0 rfl (src_ag_1_1_0 c) _ rfl (rest_R_1_1_0 ct c)) $$ [CR110 How PR110]
  · isplitr
    · iexact HR
    isplitl [CR110]
    · iexact CR110
    isplitl [How]
    · iexact How
    isplitr
    · iapply (mayWait_cell c 3 1 1 0 56 (by decide +kernel)); iexact Hlev
    iexact PR110
  iintro H
  icases H with ⟨How, VR110, GR110⟩
  -- exchange 1, column block 1, piece 1: the wait on the departure cell, and the cell closed
  iapply (ag_wait ct K c 2 1 1 1 rfl (src_ag_1_1_1 c) _ rfl (rest_S_1_1_1 ct c)) $$ [CS111 How PS111]
  · isplitr
    · iexact HR
    isplitl [CS111]
    · iexact CS111
    isplitl [How]
    · iexact How
    isplitr
    · iapply (mayWait_cell c 2 1 1 1 56 (by decide +kernel)); iexact Hlev
    iexact PS111
  iintro H
  icases H with ⟨How, VS111, GS111⟩
  -- exchange 1, column block 1, piece 1: the wait on the arrival cell, and the cell closed
  iapply (ag_wait ct K c 3 1 1 1 rfl (src_ag_1_1_1 c) _ rfl (rest_R_1_1_1 ct c)) $$ [CR111 How PR111]
  · isplitr
    · iexact HR
    isplitl [CR111]
    · iexact CR111
    isplitl [How]
    · iexact How
    isplitr
    · iapply (mayWait_cell c 3 1 1 1 56 (by decide +kernel)); iexact Hlev
    iexact PR111
  iintro H
  icases H with ⟨How, VR111, GR111⟩
  ihave L := (held_src_ag_0_1_1 c fullShare (fun (i : S1024x1024.Idx) (v : Elt F .bf16) => pOut ct (sh := S1024x1024) i v rfl)).2 $$ [GR110 GR111]
  · isplitl [GR110]
    · iexact GR110
    · iexact GR111
  ihave L := (heldV_shr c (src_ag_0_1_1 c) 0 1 rfl (fun i v => pOut ct (sh := S1024x1024) i v rfl)).1 $$ L
  icases L with ⟨B0_1, Y0_1⟩
  -- exchange 0, column block 1, piece 1: the transfer
  iapply (ag_send ct c (peer 1 0 c) _ (dev_ag_0_1_1 c) (src_ag_0_1_1 c) (dsem 2 0 1 1) (dsem 3 0 1 1) (shr 0) (fun i v => pOut ct (sh := S1024x1024) i v rfl)
    (owedFrom c 57) (amtIx (dsem 2 0 1 1).val)
    (duty_mem ct c 2 0 1 1 rfl) (duty_mem ct (peer 1 0 c) 3 0 1 1 rfl) rfl rfl rfl (owed_step_56 c) rfl
    (recv_at_peer_0_1_1 ct c)) $$ [B0_1 LD011 How TS011 TR011]
  · isplitr
    · iapply (inv_dma ct K c 2 0 1 1 rfl); iexact HR
    isplitr
    · iapply (inv_dma ct K (peer 1 0 c) 3 0 1 1 rfl); iexact HR
    isplitl [B0_1]
    · iexact B0_1
    isplitl [LD011]
    · iexact LD011
    isplitl [How]
    · iexact How
    isplitl [TS011]
    · iexact TS011
    isplitr
    · iapply (reached_dma ct K c 2 0 1 1 rfl); iexact HR
    isplitl [TR011]
    · iexact TR011
    iapply (reached_dma ct K (peer 1 0 c) 3 0 1 1 rfl); iexact HR
  iintro H
  icases H with ⟨CS011, How⟩
  ihave X1_2 := (held_src_ag_1_2_0 c (shr 2) (fun (i : S1024x1024.Idx) (v : Elt F .bf16) => pOut ct (sh := S1024x1024) i v rfl)).2 $$ [GS220 GS221]
  · isplitl [GS220]
    · iexact GS220
    · iexact GS221
  ihave Z0_2 := (held_src_ag_0_2_0 c (shr 2) (fun (i : S1024x1024.Idx) (v : Elt F .bf16) => pOut ct (sh := S1024x1024) i v rfl)).2 $$ [X1_2 Y1_2]
  · isplitl [X1_2]
    · iexact X1_2
    · iexact Y1_2
  ihave Z0_2 := (heldV_cast c (src_ag_0_2_0 c) shr20 (fun i v => pOut ct (sh := S1024x1024) i v rfl)) $$ Z0_2
  -- exchange 0, column block 2, piece 0: the transfer
  iapply (ag_send ct c (peer 2 0 c) _ (dev_ag_0_2_0 c) (src_ag_0_2_0 c) (dsem 2 0 2 0) (dsem 3 0 2 0) (shr 0) (fun i v => pOut ct (sh := S1024x1024) i v rfl)
    (owedFrom c 58) (amtIx (dsem 2 0 2 0).val)
    (duty_mem ct c 2 0 2 0 rfl) (duty_mem ct (peer 2 0 c) 3 0 2 0 rfl) rfl rfl rfl (owed_step_57 c) rfl
    (recv_at_peer_0_2_0 ct c)) $$ [Z0_2 LD020 How TS020 TR020]
  · isplitr
    · iapply (inv_dma ct K c 2 0 2 0 rfl); iexact HR
    isplitr
    · iapply (inv_dma ct K (peer 2 0 c) 3 0 2 0 rfl); iexact HR
    isplitl [Z0_2]
    · iexact Z0_2
    isplitl [LD020]
    · iexact LD020
    isplitl [How]
    · iexact How
    isplitl [TS020]
    · iexact TS020
    isplitr
    · iapply (reached_dma ct K c 2 0 2 0 rfl); iexact HR
    isplitl [TR020]
    · iexact TR020
    iapply (reached_dma ct K (peer 2 0 c) 3 0 2 0 rfl); iexact HR
  iintro H
  icases H with ⟨CS020, How⟩
  -- exchange 1, column block 2, piece 0: the wait on the departure cell, and the cell closed
  iapply (ag_wait ct K c 2 1 2 0 rfl (src_ag_1_2_0 c) _ rfl (rest_S_1_2_0 ct c)) $$ [CS120 How PS120]
  · isplitr
    · iexact HR
    isplitl [CS120]
    · iexact CS120
    isplitl [How]
    · iexact How
    isplitr
    · iapply (mayWait_cell c 2 1 2 0 58 (by decide +kernel)); iexact Hlev
    iexact PS120
  iintro H
  icases H with ⟨How, VS120, GS120⟩
  -- exchange 1, column block 2, piece 0: the wait on the arrival cell, and the cell closed
  iapply (ag_wait ct K c 3 1 2 0 rfl (src_ag_1_2_0 c) _ rfl (rest_R_1_2_0 ct c)) $$ [CR120 How PR120]
  · isplitr
    · iexact HR
    isplitl [CR120]
    · iexact CR120
    isplitl [How]
    · iexact How
    isplitr
    · iapply (mayWait_cell c 3 1 2 0 58 (by decide +kernel)); iexact Hlev
    iexact PR120
  iintro H
  icases H with ⟨How, VR120, GR120⟩
  -- exchange 1, column block 2, piece 1: the wait on the departure cell, and the cell closed
  iapply (ag_wait ct K c 2 1 2 1 rfl (src_ag_1_2_1 c) _ rfl (rest_S_1_2_1 ct c)) $$ [CS121 How PS121]
  · isplitr
    · iexact HR
    isplitl [CS121]
    · iexact CS121
    isplitl [How]
    · iexact How
    isplitr
    · iapply (mayWait_cell c 2 1 2 1 58 (by decide +kernel)); iexact Hlev
    iexact PS121
  iintro H
  icases H with ⟨How, VS121, GS121⟩
  -- exchange 1, column block 2, piece 1: the wait on the arrival cell, and the cell closed
  iapply (ag_wait ct K c 3 1 2 1 rfl (src_ag_1_2_1 c) _ rfl (rest_R_1_2_1 ct c)) $$ [CR121 How PR121]
  · isplitr
    · iexact HR
    isplitl [CR121]
    · iexact CR121
    isplitl [How]
    · iexact How
    isplitr
    · iapply (mayWait_cell c 3 1 2 1 58 (by decide +kernel)); iexact Hlev
    iexact PR121
  iintro H
  icases H with ⟨How, VR121, GR121⟩
  ihave L := (held_src_ag_0_2_1 c fullShare (fun (i : S1024x1024.Idx) (v : Elt F .bf16) => pOut ct (sh := S1024x1024) i v rfl)).2 $$ [GR120 GR121]
  · isplitl [GR120]
    · iexact GR120
    · iexact GR121
  ihave L := (heldV_shr c (src_ag_0_2_1 c) 0 1 rfl (fun i v => pOut ct (sh := S1024x1024) i v rfl)).1 $$ L
  icases L with ⟨B0_2, Y0_2⟩
  -- exchange 0, column block 2, piece 1: the transfer
  iapply (ag_send ct c (peer 2 0 c) _ (dev_ag_0_2_1 c) (src_ag_0_2_1 c) (dsem 2 0 2 1) (dsem 3 0 2 1) (shr 0) (fun i v => pOut ct (sh := S1024x1024) i v rfl)
    (owedFrom c 59) (amtIx (dsem 2 0 2 1).val)
    (duty_mem ct c 2 0 2 1 rfl) (duty_mem ct (peer 2 0 c) 3 0 2 1 rfl) rfl rfl rfl (owed_step_58 c) rfl
    (recv_at_peer_0_2_1 ct c)) $$ [B0_2 LD021 How TS021 TR021]
  · isplitr
    · iapply (inv_dma ct K c 2 0 2 1 rfl); iexact HR
    isplitr
    · iapply (inv_dma ct K (peer 2 0 c) 3 0 2 1 rfl); iexact HR
    isplitl [B0_2]
    · iexact B0_2
    isplitl [LD021]
    · iexact LD021
    isplitl [How]
    · iexact How
    isplitl [TS021]
    · iexact TS021
    isplitr
    · iapply (reached_dma ct K c 2 0 2 1 rfl); iexact HR
    isplitl [TR021]
    · iexact TR021
    iapply (reached_dma ct K (peer 2 0 c) 3 0 2 1 rfl); iexact HR
  iintro H
  icases H with ⟨CS021, How⟩
  -- exchange 0, column block 0, piece 0: the wait on the departure cell, and the cell closed
  iapply (ag_wait ct K c 2 0 0 0 rfl (src_ag_0_0_0 c) _ rfl (rest_S_0_0_0 ct c)) $$ [CS000 How PS000]
  · isplitr
    · iexact HR
    isplitl [CS000]
    · iexact CS000
    isplitl [How]
    · iexact How
    isplitr
    · iapply (mayWait_cell c 2 0 0 0 59 (by decide +kernel)); iexact Hlev
    iexact PS000
  iintro H
  icases H with ⟨How, VS000, GS000⟩
  -- exchange 0, column block 0, piece 0: the wait on the arrival cell, and the cell closed
  iapply (ag_wait ct K c 3 0 0 0 rfl (src_ag_0_0_0 c) _ rfl (rest_R_0_0_0 ct c)) $$ [CR000 How PR000]
  · isplitr
    · iexact HR
    isplitl [CR000]
    · iexact CR000
    isplitl [How]
    · iexact How
    isplitr
    · iapply (mayWait_cell c 3 0 0 0 59 (by decide +kernel)); iexact Hlev
    iexact PR000
  iintro H
  icases H with ⟨How, VR000, GR000⟩
  -- exchange 0, column block 0, piece 1: the wait on the departure cell, and the cell closed
  iapply (ag_wait ct K c 2 0 0 1 rfl (src_ag_0_0_1 c) _ rfl (rest_S_0_0_1 ct c)) $$ [CS001 How PS001]
  · isplitr
    · iexact HR
    isplitl [CS001]
    · iexact CS001
    isplitl [How]
    · iexact How
    isplitr
    · iapply (mayWait_cell c 2 0 0 1 59 (by decide +kernel)); iexact Hlev
    iexact PS001
  iintro H
  icases H with ⟨How, VS001, GS001⟩
  -- exchange 0, column block 0, piece 1: the wait on the arrival cell, and the cell closed
  iapply (ag_wait ct K c 3 0 0 1 rfl (src_ag_0_0_1 c) _ rfl (rest_R_0_0_1 ct c)) $$ [CR001 How PR001]
  · isplitr
    · iexact HR
    isplitl [CR001]
    · iexact CR001
    isplitl [How]
    · iexact How
    isplitr
    · iapply (mayWait_cell c 3 0 0 1 59 (by decide +kernel)); iexact Hlev
    iexact PR001
  iintro H
  icases H with ⟨How, VR001, GR001⟩
  -- exchange 0, column block 1, piece 0: the wait on the departure cell, and the cell closed
  iapply (ag_wait ct K c 2 0 1 0 rfl (src_ag_0_1_0 c) _ rfl (rest_S_0_1_0 ct c)) $$ [CS010 How PS010]
  · isplitr
    · iexact HR
    isplitl [CS010]
    · iexact CS010
    isplitl [How]
    · iexact How
    isplitr
    · iapply (mayWait_cell c 2 0 1 0 59 (by decide +kernel)); iexact Hlev
    iexact PS010
  iintro H
  icases H with ⟨How, VS010, GS010⟩
  -- exchange 0, column block 1, piece 0: the wait on the arrival cell, and the cell closed
  iapply (ag_wait ct K c 3 0 1 0 rfl (src_ag_0_1_0 c) _ rfl (rest_R_0_1_0 ct c)) $$ [CR010 How PR010]
  · isplitr
    · iexact HR
    isplitl [CR010]
    · iexact CR010
    isplitl [How]
    · iexact How
    isplitr
    · iapply (mayWait_cell c 3 0 1 0 59 (by decide +kernel)); iexact Hlev
    iexact PR010
  iintro H
  icases H with ⟨How, VR010, GR010⟩
  -- exchange 0, column block 1, piece 1: the wait on the departure cell, and the cell closed
  iapply (ag_wait ct K c 2 0 1 1 rfl (src_ag_0_1_1 c) _ rfl (rest_S_0_1_1 ct c)) $$ [CS011 How PS011]
  · isplitr
    · iexact HR
    isplitl [CS011]
    · iexact CS011
    isplitl [How]
    · iexact How
    isplitr
    · iapply (mayWait_cell c 2 0 1 1 59 (by decide +kernel)); iexact Hlev
    iexact PS011
  iintro H
  icases H with ⟨How, VS011, GS011⟩
  -- exchange 0, column block 1, piece 1: the wait on the arrival cell, and the cell closed
  iapply (ag_wait ct K c 3 0 1 1 rfl (src_ag_0_1_1 c) _ rfl (rest_R_0_1_1 ct c)) $$ [CR011 How PR011]
  · isplitr
    · iexact HR
    isplitl [CR011]
    · iexact CR011
    isplitl [How]
    · iexact How
    isplitr
    · iapply (mayWait_cell c 3 0 1 1 59 (by decide +kernel)); iexact Hlev
    iexact PR011
  iintro H
  icases H with ⟨How, VR011, GR011⟩
  -- exchange 0, column block 2, piece 0: the wait on the departure cell, and the cell closed
  iapply (ag_wait ct K c 2 0 2 0 rfl (src_ag_0_2_0 c) _ rfl (rest_S_0_2_0 ct c)) $$ [CS020 How PS020]
  · isplitr
    · iexact HR
    isplitl [CS020]
    · iexact CS020
    isplitl [How]
    · iexact How
    isplitr
    · iapply (mayWait_cell c 2 0 2 0 59 (by decide +kernel)); iexact Hlev
    iexact PS020
  iintro H
  icases H with ⟨How, VS020, GS020⟩
  -- exchange 0, column block 2, piece 0: the wait on the arrival cell, and the cell closed
  iapply (ag_wait ct K c 3 0 2 0 rfl (src_ag_0_2_0 c) _ rfl (rest_R_0_2_0 ct c)) $$ [CR020 How PR020]
  · isplitr
    · iexact HR
    isplitl [CR020]
    · iexact CR020
    isplitl [How]
    · iexact How
    isplitr
    · iapply (mayWait_cell c 3 0 2 0 59 (by decide +kernel)); iexact Hlev
    iexact PR020
  iintro H
  icases H with ⟨How, VR020, GR020⟩
  -- exchange 0, column block 2, piece 1: the wait on the departure cell, and the cell closed
  iapply (ag_wait ct K c 2 0 2 1 rfl (src_ag_0_2_1 c) _ rfl (rest_S_0_2_1 ct c)) $$ [CS021 How PS021]
  · isplitr
    · iexact HR
    isplitl [CS021]
    · iexact CS021
    isplitl [How]
    · iexact How
    isplitr
    · iapply (mayWait_cell c 2 0 2 1 59 (by decide +kernel)); iexact Hlev
    iexact PS021
  iintro H
  icases H with ⟨How, VS021, GS021⟩
  -- exchange 0, column block 2, piece 1: the wait on the arrival cell, and the cell closed
  iapply (ag_wait ct K c 3 0 2 1 rfl (src_ag_0_2_1 c) _ rfl (rest_R_0_2_1 ct c)) $$ [CR021 How PR021]
  · isplitr
    · iexact HR
    isplitl [CR021]
    · iexact CR021
    isplitl [How]
    · iexact How
    isplitr
    · iapply (mayWait_cell c 3 0 2 1 59 (by decide +kernel)); iexact Hlev
    iexact PR021
  iintro H
  icases H with ⟨How, VR021, GR021⟩
  ihave X0_0 := (held_src_ag_0_0_0 c (shr 1) (fun (i : S1024x1024.Idx) (v : Elt F .bf16) => pOut ct (sh := S1024x1024) i v rfl)).2 $$ [GS100 GS101]
  · isplitl [GS100]
    · iexact GS100
    · iexact GS101
  ihave F0_0 := (heldV_shr c (src_ag_0_0_0 c) 0 1 rfl (fun i v => pOut ct (sh := S1024x1024) i v rfl)).2 $$ [GS000 X0_0]
  · isplitl [GS000]
    · iexact GS000
    · iexact X0_0
  ihave F1_0 := (heldV_shr c (src_ag_0_0_1 c) 0 1 rfl (fun i v => pOut ct (sh := S1024x1024) i v rfl)).2 $$ [GS001 Y0_0]
  · isplitl [GS001]
    · iexact GS001
    · iexact Y0_0
  ihave C0 := (held_colS_0 c fullShare (fun (i : S1024x1024.Idx) (v : Elt F .bf16) => pOut ct (sh := S1024x1024) i v rfl)).2 $$ [F0_0 F1_0 GR000 GR001]
  · isplitl [F0_0 F1_0]
    · isplitl [F0_0]
      · iexact F0_0
      · iexact F1_0
    · isplitl [GR000]
      · iexact GR000
      · iexact GR001
  ihave X0_1 := (held_src_ag_0_1_0 c (shr 1) (fun (i : S1024x1024.Idx) (v : Elt F .bf16) => pOut ct (sh := S1024x1024) i v rfl)).2 $$ [GS110 GS111]
  · isplitl [GS110]
    · iexact GS110
    · iexact GS111
  ihave F0_1 := (heldV_shr c (src_ag_0_1_0 c) 0 1 rfl (fun i v => pOut ct (sh := S1024x1024) i v rfl)).2 $$ [GS010 X0_1]
  · isplitl [GS010]
    · iexact GS010
    · iexact X0_1
  ihave F1_1 := (heldV_shr c (src_ag_0_1_1 c) 0 1 rfl (fun i v => pOut ct (sh := S1024x1024) i v rfl)).2 $$ [GS011 Y0_1]
  · isplitl [GS011]
    · iexact GS011
    · iexact Y0_1
  ihave C1 := (held_colS_1 c fullShare (fun (i : S1024x1024.Idx) (v : Elt F .bf16) => pOut ct (sh := S1024x1024) i v rfl)).2 $$ [F0_1 F1_1 GR010 GR011]
  · isplitl [F0_1 F1_1]
    · isplitl [F0_1]
      · iexact F0_1
      · iexact F1_1
    · isplitl [GR010]
      · iexact GR010
      · iexact GR011
  ihave X0_2 := (held_src_ag_0_2_0 c (shr 1) (fun (i : S1024x1024.Idx) (v : Elt F .bf16) => pOut ct (sh := S1024x1024) i v rfl)).2 $$ [GS120 GS121]
  · isplitl [GS120]
    · iexact GS120
    · iexact GS121
  ihave F0_2 := (heldV_shr c (src_ag_0_2_0 c) 0 1 rfl (fun i v => pOut ct (sh := S1024x1024) i v rfl)).2 $$ [GS020 X0_2]
  · isplitl [GS020]
    · iexact GS020
    · iexact X0_2
  ihave F1_2 := (heldV_shr c (src_ag_0_2_1 c) 0 1 rfl (fun i v => pOut ct (sh := S1024x1024) i v rfl)).2 $$ [GS021 Y0_2]
  · isplitl [GS021]
    · iexact GS021
    · iexact Y0_2
  ihave C2 := (held_colS_2 c fullShare (fun (i : S1024x1024.Idx) (v : Elt F .bf16) => pOut ct (sh := S1024x1024) i v rfl)).2 $$ [F0_2 F1_2 GR020 GR021]
  · isplitl [F0_2 F1_2]
    · isplitl [F0_2]
      · iexact F0_2
      · iexact F1_2
    · isplitl [GR020]
      · iexact GR020
      · iexact GR021
  ihave HX := (held_cols c (fun (i : S1024x1024.Idx) (v : Elt F .bf16) => pOut ct (sh := S1024x1024) i v rfl)) $$ [C0 C1 C2]
  · isplitl [C0]
    · iexact C0
    isplitl [C1]
    · iexact C1
    · iexact C2
  ihave How := (owes_end c _) $$ How
  iapply (le_wp_ret _ _)
  iapply HK
  unfold PostBody closedAG
  isplitl [How]
  · iexists _; iexact How
  isplitl [HcRS]
  · iexact HcRS
  isplitl [VS400 VR400 VS410 VR410 VS420 VR420 VS300 VR300 VS301 VR301 VS310 VR310 VS311 VR311 VS320 VR320 VS321 VR321 VS200 VR200 VS201 VR201 VS210 VR210 VS211 VR211 VS220 VR220 VS221 VR221 VS100 VR100 VS101 VR101 VS110 VR110 VS111 VR111 VS120 VR120 VS121 VR121 VS000 VR000 VS001 VR001 VS010 VR010 VS011 VR011 VS020 VR020 VS021 VR021]
  · isplitl [VS400 VR400]
    · isplitl [VS400]
      · iexact VS400
      · iexact VR400
    isplitl [VS410 VR410]
    · isplitl [VS410]
      · iexact VS410
      · iexact VR410
    isplitl [VS420 VR420]
    · isplitl [VS420]
      · iexact VS420
      · iexact VR420
    isplitl [VS300 VR300]
    · isplitl [VS300]
      · iexact VS300
      · iexact VR300
    isplitl [VS301 VR301]
    · isplitl [VS301]
      · iexact VS301
      · iexact VR301
    isplitl [VS310 VR310]
    · isplitl [VS310]
      · iexact VS310
      · iexact VR310
    isplitl [VS311 VR311]
    · isplitl [VS311]
      · iexact VS311
      · iexact VR311
    isplitl [VS320 VR320]
    · isplitl [VS320]
      · iexact VS320
      · iexact VR320
    isplitl [VS321 VR321]
    · isplitl [VS321]
      · iexact VS321
      · iexact VR321
    isplitl [VS200 VR200]
    · isplitl [VS200]
      · iexact VS200
      · iexact VR200
    isplitl [VS201 VR201]
    · isplitl [VS201]
      · iexact VS201
      · iexact VR201
    isplitl [VS210 VR210]
    · isplitl [VS210]
      · iexact VS210
      · iexact VR210
    isplitl [VS211 VR211]
    · isplitl [VS211]
      · iexact VS211
      · iexact VR211
    isplitl [VS220 VR220]
    · isplitl [VS220]
      · iexact VS220
      · iexact VR220
    isplitl [VS221 VR221]
    · isplitl [VS221]
      · iexact VS221
      · iexact VR221
    isplitl [VS100 VR100]
    · isplitl [VS100]
      · iexact VS100
      · iexact VR100
    isplitl [VS101 VR101]
    · isplitl [VS101]
      · iexact VS101
      · iexact VR101
    isplitl [VS110 VR110]
    · isplitl [VS110]
      · iexact VS110
      · iexact VR110
    isplitl [VS111 VR111]
    · isplitl [VS111]
      · iexact VS111
      · iexact VR111
    isplitl [VS120 VR120]
    · isplitl [VS120]
      · iexact VS120
      · iexact VR120
    isplitl [VS121 VR121]
    · isplitl [VS121]
      · iexact VS121
      · iexact VR121
    isplitl [VS000 VR000]
    · isplitl [VS000]
      · iexact VS000
      · iexact VR000
    isplitl [VS001 VR001]
    · isplitl [VS001]
      · iexact VS001
      · iexact VR001
    isplitl [VS010 VR010]
    · isplitl [VS010]
      · iexact VS010
      · iexact VR010
    isplitl [VS011 VR011]
    · isplitl [VS011]
      · iexact VS011
      · iexact VR011
    isplitl [VS020 VR020]
    · isplitl [VS020]
      · iexact VS020
      · iexact VR020
    isplitl [VS021]
    · iexact VS021
    · iexact VR021
  isplitl [Hidle]
  · iexact Hidle
  isplitl [Hsc]
  · iexact Hsc
  isplitl [HYA]
  · iexact HYA
  isplitl [HYB]
  · iexact HYB
  icases HX with ⟨%X, %hX, HX⟩
  iexists X
  isplitr
  · ipureintro; exact fun i => hX i
  · iexact HX

end Cert.KernelIdeal.SegC

end
-- ==== Proof.ProtoK.lean ====
/-
  The exchange pattern of the kernel, as mathematics.

  Thirty-two devices, indexed by five bits. For each of three column blocks k the devices sum their
  partial products by recursive halving over five stages: at stage s device c exchanges with the
  device whose index differs from c's by the bit pattern `mask k s`, keeps one half of its current
  row range (chosen by the bit `bit k s c`) and sends the other. After the fifth stage each device
  owns 32 rows of each column block; it applies the pointwise function and the devices then gather
  all row chunks by recursive doubling over the same partners in reverse order.

  This module fixes the names: partners, the half-selecting bits, the semaphore cells, and the
  contract `ok` on values that the exchanged pieces carry.
-/
import proofs.«900879_g7700000000000880_dist_matmul_gelu_kshard_i_m1024_n1024_k512_v7x_i32_bf16_1_alg».proof.Proof.Gen.Kernel
import proofs.«900879_g7700000000000880_dist_matmul_gelu_kshard_i_m1024_n1024_k512_v7x_i32_bf16_1_alg».proof.Proof.Gen.Kernel.Skeleton
import proofs.«900879_g7700000000000880_dist_matmul_gelu_kshard_i_m1024_n1024_k512_v7x_i32_bf16_1_alg».proof.Proof.Gen.Kernel.Launch
import proofs.«900879_g7700000000000880_dist_matmul_gelu_kshard_i_m1024_n1024_k512_v7x_i32_bf16_1_alg».proof.Proof.Gen.Kernel.Points
import proofs.«900879_g7700000000000880_dist_matmul_gelu_kshard_i_m1024_n1024_k512_v7x_i32_bf16_1_alg».proof.Proof.Gen.Kernel.Frame
import Idealize.ShloMosaic.Lib.Pipeline.Launch
import Idealize.ShloMosaic.Lib.Pipeline.Kit
import Idealize.ShloMosaic.Lib.Rounds
import Idealize.ShloMosaic.Lib.Tactic

noncomputable section

namespace Cert.Kernel.Proto

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Partners -/

/-- The device whose index is `c`'s with the bits of `μ` flipped. -/
def xr (c : Dev nD) (μ : Fin 32) : Dev nD := ⟨c.val ^^^ μ.val, Nat.xor_lt_two_pow (n := 5) c.isLt μ.isLt⟩

theorem xr_xr : ∀ (c : Dev nD) (μ : Fin 32), xr (xr c μ) μ = c := by decide
theorem xr_inj : ∀ (c d : Dev nD) (μ : Fin 32), xr c μ = xr d μ → c = d := by decide

/-- The bit pattern separating a device from its stage-`s` partner in column block `k`. -/
def mask : Fin 3 → Fin 5 → Fin 32
  | 0 => ![1, 3, 8, 4, 16]
  | 1 => ![3, 8, 1, 16, 4]
  | 2 => ![8, 1, 3, 16, 4]

/-- The five partners of a device, in the order of the entry handshake. -/
def hmask : Fin 5 → Fin 32 := ![1, 3, 8, 4, 16]

theorem hmask_inj : Function.Injective hmask := by decide
/-- Every exchange partner is a handshake partner. -/
theorem mask_mem : ∀ (k : Fin 3) (s : Fin 5), ∃ i : Fin 5, hmask i = mask k s := by decide

/-- The stage-`s` partner of `c` in column block `k`. -/
def peer (k : Fin 3) (s : Fin 5) (c : Dev nD) : Dev nD := xr c (mask k s)

theorem peer_peer (k : Fin 3) (s : Fin 5) (c : Dev nD) : peer k s (peer k s c) = c := xr_xr c _

/-- Bit `i` of a device's index. -/
def dbit (c : Dev nD) (i : ℕ) : ℕ := (c.val >>> i) % 2

/-- The bit that decides which half device `c` keeps at stage `s` of column block `k`. -/
def bit : Fin 3 → Fin 5 → Dev nD → ℕ
  | 0 => fun s c => (![(dbit c 0 + dbit c 1) % 2, dbit c 1, dbit c 3, dbit c 2, dbit c 4] : Fin 5 → ℕ) s
  | 1 => fun s c => (![dbit c 1, dbit c 3, dbit c 0, dbit c 4, dbit c 2] : Fin 5 → ℕ) s
  | 2 => fun s c => (![dbit c 3, (dbit c 0 + dbit c 1) % 2, dbit c 1, dbit c 4, dbit c 2] : Fin 5 → ℕ) s

/-- Partners at stage `s` disagree on the stage's bit and agree on every other stage's bit. -/
theorem bit_peer_self : ∀ (k : Fin 3) (s : Fin 5) (c : Dev nD), bit k s (peer k s c) = 1 - bit k s c := by decide
theorem bit_peer_lt : ∀ (k : Fin 3) (s t : Fin 5) (c : Dev nD), t < s → bit k t (peer k s c) = bit k t c := by decide
theorem bit_peer_succ : ∀ (k : Fin 3) (s t : Fin 5) (c : Dev nD), t.val = s.val + 1 → bit k t (peer k s c) = bit k t c := by decide
theorem bit_le_one : ∀ (k : Fin 3) (s : Fin 5) (c : Dev nD), bit k s c ≤ 1 := by decide

/-- Rows of the range a device still holds after `s` stages: `1024 / 2^s`. -/
def half (s : ℕ) : ℕ := 1024 >>> (s + 1)

/-- First row of the range device `c` holds in column block `k` after `s` stages. -/
def lo (k : Fin 3) (c : Dev nD) : ℕ → ℕ
  | 0 => 0
  | s + 1 => lo k c s + (if h : s < 5 then bit k ⟨s, h⟩ c * half s else 0)

/-- First column and width of column block `k`. -/
def col0 : Fin 3 → ℕ := ![0, 384, 768]
def colw : Fin 3 → ℕ := ![384, 384, 256]

/-! ## Cells -/

/-- The runtime's barrier semaphore of this collective. -/
abbrev barS : Sem sig := (SemArray.scalar (sig.barrier 0 rfl) : Sems sig S_).sem

/-- The four arrays of transfer semaphores: 0 and 1 the summing phase's send and receive cells,
    2 and 3 the gathering phase's; cell `(a, s, k, j)` is piece `j` of stage `s` of column block `k`. -/
def dsem (a : Fin 4) (s : Fin 5) (k : Fin 3) (j : Fin 2) : DmaSem sig :=
  ⟨3 + 30 * a.val + 6 * s.val + 2 * k.val + j.val, by
    have := a.isLt; have := s.isLt; have := k.isLt; have := j.isLt; show _ < 123; omega⟩

abbrev barCell (c : Dev nD) : GSem nD τ sig := ((c : Thread nD τ), .reg barS)
abbrev dcell (c : Dev nD) (a : Fin 4) (s : Fin 5) (k : Fin 3) (j : Fin 2) : GSem nD τ sig := ((c : Thread nD τ), .dma (dsem a s k j))

/-- A stage has two pieces, except the last, which has one. -/
def used (s : Fin 5) (j : Fin 2) : Prop := s.val < 4 ∨ j.val = 0
instance (s : Fin 5) (j : Fin 2) : Decidable (used s j) := by unfold used; infer_instance

theorem dsem_inj : ∀ a a' s s' k k' j j', dsem a s k j = dsem a' s' k' j' → a = a' ∧ s = s' ∧ k = k' ∧ j = j' := by decide

/-! ## The contract on values -/

variable {F : FTy → Type} [FloatOps F]

/-- The column block a column lies in. -/
def blk (q : ℕ) : Fin 3 := if q < 384 then 0 else if q < 768 then 1 else 2

/-- What a certificate over these names assumes of values. The frames take every field true; the
    value claim takes them to be the mathematics of the sum: `okSS s c r q v` — `v` is right for
    local row `r`, column `q` of what device `c` sends at stage `s` —, `okAcc t c r q v` — for row `r`,
    column `q` of device `c`'s running sum over the `2^t` devices it has met —, `okOut r q v` — for
    row `r`, column `q` of the result, the same on every device. -/
structure Contract (F : FTy → Type) [FloatOps F] where
  okSS : Fin 5 → Dev nD → ℕ → ℕ → F .bf16 → Prop
  okAcc : ℕ → Dev nD → ℕ → ℕ → F .f32 → Prop
  okOut : ℕ → ℕ → F .bf16 → Prop

/-- The contract that asks nothing. -/
def Contract.trivial : Contract F := ⟨fun _ _ _ _ _ => True, fun _ _ _ _ _ => True, fun _ _ _ => True⟩

/-- The two algebras side by side: the pipeline library's and the exchange's (duties `Fin 5`: the five
    handshake partners; a transfer cell has the one duty `0`). -/
abbrev UB : Type := URounds (GSem nD τ sig) (Fin 5)
abbrev UU : Type := UR sig nD τ × UB

end Cert.Kernel.Proto

end
-- ==== Proof.TabK.lean ====
import proofs.«900879_g7700000000000880_dist_matmul_gelu_kshard_i_m1024_n1024_k512_v7x_i32_bf16_1_alg».proof.Proof.ProtoK

noncomputable section

namespace Cert.Kernel.Tab

open Cert.Kernel Cert.Kernel.Gen Cert.Kernel.Proto
open Idealize.ShloMosaic Idealize.ShloMosaic.TcCoe Idealize.SL.Sem

/-- summing phase, stage 0, column block 0, piece 0: the rows device `c` sends, in its own buffer and in its partner's -/
abbrev src_rs_0_0_0 (c : Dev nD) : Memref sig .tc .vmem S256x384 .bf16 :=
  (Memref.whole cc0_scratch6 : Memref sig .tc .vmem S512x1024 .bf16).slice (Rect.unit (s := S512x1024) (k0_off2 c) S256x384.size (k0_off2_inb c)) (fun _ => rfl)
abbrev dst_rs_0_0_0 (c : Dev nD) : Memref sig .tc .vmem S256x384 .bf16 :=
  (Memref.whole cc0_scratch1 : Memref sig .tc .vmem S512x1024 .bf16).slice (Rect.unit (s := S512x1024) (k0_off2 c) S256x384.size (k0_off2_inb c)) (fun _ => rfl)
theorem dev_rs_0_0_0 : ∀ c : Dev nD, (⟨k0_dev6 c, k0_dev6_lt c⟩ : Dev nD) = peer 0 0 c := by decide +kernel

/-- summing phase, stage 0, column block 0, piece 1: the rows device `c` sends, in its own buffer and in its partner's -/
abbrev src_rs_0_0_1 (c : Dev nD) : Memref sig .tc .vmem S256x384 .bf16 :=
  (Memref.whole cc0_scratch6 : Memref sig .tc .vmem S512x1024 .bf16).slice (Rect.unit (s := S512x1024) (k0_off3 c) S256x384.size (k0_off3_inb c)) (fun _ => rfl)
abbrev dst_rs_0_0_1 (c : Dev nD) : Memref sig .tc .vmem S256x384 .bf16 :=
  (Memref.whole cc0_scratch1 : Memref sig .tc .vmem S512x1024 .bf16).slice (Rect.unit (s := S512x1024) (k0_off3 c) S256x384.size (k0_off3_inb c)) (fun _ => rfl)
theorem dev_rs_0_0_1 : ∀ c : Dev nD, (⟨k0_dev7 c, k0_dev7_lt c⟩ : Dev nD) = peer 0 0 c := by decide +kernel

/-- summing phase, stage 0, column block 1, piece 0: the rows device `c` sends, in its own buffer and in its partner's -/
abbrev src_rs_0_1_0 (c : Dev nD) : Memref sig .tc .vmem S256x384 .bf16 :=
  (Memref.whole cc0_scratch6 : Memref sig .tc .vmem S512x1024 .bf16).slice (Rect.unit (s := S512x1024) (k0_off5 c) S256x384.size (k0_off5_inb c)) (fun _ => rfl)
abbrev dst_rs_0_1_0 (c : Dev nD) : Memref sig .tc .vmem S256x384 .bf16 :=
  (Memref.whole cc0_scratch1 : Memref sig .tc .vmem S512x1024 .bf16).slice (Rect.unit (s := S512x1024) (k0_off5 c) S256x384.size (k0_off5_inb c)) (fun _ => rfl)
theorem dev_rs_0_1_0 : ∀ c : Dev nD, (⟨k0_dev8 c, k0_dev8_lt c⟩ : Dev nD) = peer 1 0 c := by decide +kernel

/-- summing phase, stage 0, column block 1, piece 1: the rows device `c` sends, in its own buffer and in its partner's -/
abbrev src_rs_0_1_1 (c : Dev nD) : Memref sig .tc .vmem S256x384 .bf16 :=
  (Memref.whole cc0_scratch6 : Memref sig .tc .vmem S512x1024 .bf16).slice (Rect.unit (s := S512x1024) (k0_off6 c) S256x384.size (k0_off6_inb c)) (fun _ => rfl)
abbrev dst_rs_0_1_1 (c : Dev nD) : Memref sig .tc .vmem S256x384 .bf16 :=
  (Memref.whole cc0_scratch1 : Memref sig .tc .vmem S512x1024 .bf16).slice (Rect.unit (s := S512x1024) (k0_off6 c) S256x384.size (k0_off6_inb c)) (fun _ => rfl)
theorem dev_rs_0_1_1 : ∀ c : Dev nD, (⟨k0_dev9 c, k0_dev9_lt c⟩ : Dev nD) = peer 1 0 c := by decide +kernel

/-- summing phase, stage 0, column block 2, piece 0: the rows device `c` sends, in its own buffer and in its partner's -/
abbrev src_rs_0_2_0 (c : Dev nD) : Memref sig .tc .vmem S256x256 .bf16 :=
  (Memref.whole cc0_scratch6 : Memref sig .tc .vmem S512x1024 .bf16).slice (Rect.unit (s := S512x1024) (k0_off7 c) S256x256.size (k0_off7_inb c)) (fun _ => rfl)
abbrev dst_rs_0_2_0 (c : Dev nD) : Memref sig .tc .vmem S256x256 .bf16 :=
  (Memref.whole cc0_scratch1 : Memref sig .tc .vmem S512x1024 .bf16).slice (Rect.unit (s := S512x1024) (k0_off7 c) S256x256.size (k0_off7_inb c)) (fun _ => rfl)
theorem dev_rs_0_2_0 : ∀ c : Dev nD, (⟨k0_dev10 c, k0_dev10_lt c⟩ : Dev nD) = peer 2 0 c := by decide +kernel

/-- summing phase, stage 0, column block 2, piece 1: the rows device `c` sends, in its own buffer and in its partner's -/
abbrev src_rs_0_2_1 (c : Dev nD) : Memref sig .tc .vmem S256x256 .bf16 :=
  (Memref.whole cc0_scratch6 : Memref sig .tc .vmem S512x1024 .bf16).slice (Rect.unit (s := S512x1024) (k0_off8 c) S256x256.size (k0_off8_inb c)) (fun _ => rfl)
abbrev dst_rs_0_2_1 (c : Dev nD) : Memref sig .tc .vmem S256x256 .bf16 :=
  (Memref.whole cc0_scratch1 : Memref sig .tc .vmem S512x1024 .bf16).slice (Rect.unit (s := S512x1024) (k0_off8 c) S256x256.size (k0_off8_inb c)) (fun _ => rfl)
theorem dev_rs_0_2_1 : ∀ c : Dev nD, (⟨k0_dev11 c, k0_dev11_lt c⟩ : Dev nD) = peer 2 0 c := by decide +kernel

/-- summing phase, stage 1, column block 0, piece 0: the rows device `c` sends, in its own buffer and in its partner's -/
abbrev src_rs_1_0_0 (c : Dev nD) : Memref sig .tc .vmem S128x384 .bf16 :=
  (Memref.whole cc0_scratch7 : Memref sig .tc .vmem S256x1024 .bf16).slice (Rect.unit (s := S256x1024) (k0_off16 c) S128x384.size (k0_off16_inb c)) (fun _ => rfl)
abbrev dst_rs_1_0_0 (c : Dev nD) : Memref sig .tc .vmem S128x384 .bf16 :=
  (Memref.whole cc0_scratch2 : Memref sig .tc .vmem S256x1024 .bf16).slice (Rect.unit (s := S256x1024) (k0_off16 c) S128x384.size (k0_off16_inb c)) (fun _ => rfl)
theorem dev_rs_1_0_0 : ∀ c : Dev nD, (⟨k0_dev12 c, k0_dev12_lt c⟩ : Dev nD) = peer 0 1 c := by decide +kernel

/-- summing phase, stage 1, column block 0, piece 1: the rows device `c` sends, in its own buffer and in its partner's -/
abbrev src_rs_1_0_1 (c : Dev nD) : Memref sig .tc .vmem S128x384 .bf16 :=
  (Memref.whole cc0_scratch7 : Memref sig .tc .vmem S256x1024 .bf16).slice (Rect.unit (s := S256x1024) (k0_off17 c) S128x384.size (k0_off17_inb c)) (fun _ => rfl)
abbrev dst_rs_1_0_1 (c : Dev nD) : Memref sig .tc .vmem S128x384 .bf16 :=
  (Memref.whole cc0_scratch2 : Memref sig .tc .vmem S256x1024 .bf16).slice (Rect.unit (s := S256x1024) (k0_off17 c) S128x384.size (k0_off17_inb c)) (fun _ => rfl)
theorem dev_rs_1_0_1 : ∀ c : Dev nD, (⟨k0_dev13 c, k0_dev13_lt c⟩ : Dev nD) = peer 0 1 c := by decide +kernel

/-- summing phase, stage 1, column block 1, piece 0: the rows device `c` sends, in its own buffer and in its partner's -/
abbrev src_rs_1_1_0 (c : Dev nD) : Memref sig .tc .vmem S128x384 .bf16 :=
  (Memref.whole cc0_scratch7 : Memref sig .tc .vmem S256x1024 .bf16).slice (Rect.unit (s := S256x1024) (k0_off20 c) S128x384.size (k0_off20_inb c)) (fun _ => rfl)
abbrev dst_rs_1_1_0 (c : Dev nD) : Memref sig .tc .vmem S128x384 .bf16 :=
  (Memref.whole cc0_scratch2 : Memref sig .tc .vmem S256x1024 .bf16).slice (Rect.unit (s := S256x1024) (k0_off20 c) S128x384.size (k0_off20_inb c)) (fun _ => rfl)
theorem dev_rs_1_1_0 : ∀ c : Dev nD, (⟨k0_dev14 c, k0_dev14_lt c⟩ : Dev nD) = peer 1 1 c := by decide +kernel

/-- summing phase, stage 1, column block 1, piece 1: the rows device `c` sends, in its own buffer and in its partner's -/
abbrev src_rs_1_1_1 (c : Dev nD) : Memref sig .tc .vmem S128x384 .bf16 :=
  (Memref.whole cc0_scratch7 : Memref sig .tc .vmem S256x1024 .bf16).slice (Rect.unit (s := S256x1024) (k0_off21 c) S128x384.size (k0_off21_inb c)) (fun _ => rfl)
abbrev dst_rs_1_1_1 (c : Dev nD) : Memref sig .tc .vmem S128x384 .bf16 :=
  (Memref.whole cc0_scratch2 : Memref sig .tc .vmem S256x1024 .bf16).slice (Rect.unit (s := S256x1024) (k0_off21 c) S128x384.size (k0_off21_inb c)) (fun _ => rfl)
theorem dev_rs_1_1_1 : ∀ c : Dev nD, (⟨k0_dev15 c, k0_dev15_lt c⟩ : Dev nD) = peer 1 1 c := by decide +kernel

/-- summing phase, stage 1, column block 2, piece 0: the rows device `c` sends, in its own buffer and in its partner's -/
abbrev src_rs_1_2_0 (c : Dev nD) : Memref sig .tc .vmem S128x256 .bf16 :=
  (Memref.whole cc0_scratch7 : Memref sig .tc .vmem S256x1024 .bf16).slice (Rect.unit (s := S256x1024) (k0_off24 c) S128x256.size (k0_off24_inb c)) (fun _ => rfl)
abbrev dst_rs_1_2_0 (c : Dev nD) : Memref sig .tc .vmem S128x256 .bf16 :=
  (Memref.whole cc0_scratch2 : Memref sig .tc .vmem S256x1024 .bf16).slice (Rect.unit (s := S256x1024) (k0_off24 c) S128x256.size (k0_off24_inb c)) (fun _ => rfl)
theorem dev_rs_1_2_0 : ∀ c : Dev nD, (⟨k0_dev16 c, k0_dev16_lt c⟩ : Dev nD) = peer 2 1 c := by decide +kernel

/-- summing phase, stage 1, column block 2, piece 1: the rows device `c` sends, in its own buffer and in its partner's -/
abbrev src_rs_1_2_1 (c : Dev nD) : Memref sig .tc .vmem S128x256 .bf16 :=
  (Memref.whole cc0_scratch7 : Memref sig .tc .vmem S256x1024 .bf16).slice (Rect.unit (s := S256x1024) (k0_off25 c) S128x256.size (k0_off25_inb c)) (fun _ => rfl)
abbrev dst_rs_1_2_1 (c : Dev nD) : Memref sig .tc .vmem S128x256 .bf16 :=
  (Memref.whole cc0_scratch2 : Memref sig .tc .vmem S256x1024 .bf16).slice (Rect.unit (s := S256x1024) (k0_off25 c) S128x256.size (k0_off25_inb c)) (fun _ => rfl)
theorem dev_rs_1_2_1 : ∀ c : Dev nD, (⟨k0_dev17 c, k0_dev17_lt c⟩ : Dev nD) = peer 2 1 c := by decide +kernel

/-- summing phase, stage 2, column block 0, piece 0: the rows device `c` sends, in its own buffer and in its partner's -/
abbrev src_rs_2_0_0 (c : Dev nD) : Memref sig .tc .vmem S64x384 .bf16 :=
  (Memref.whole cc0_scratch8 : Memref sig .tc .vmem S128x1024 .bf16).slice (Rect.unit (s := S128x1024) (k0_off34 c) S64x384.size (k0_off34_inb c)) (fun _ => rfl)
abbrev dst_rs_2_0_0 (c : Dev nD) : Memref sig .tc .vmem S64x384 .bf16 :=
  (Memref.whole cc0_scratch3 : Memref sig .tc .vmem S128x1024 .bf16).slice (Rect.unit (s := S128x1024) (k0_off34 c) S64x384.size (k0_off34_inb c)) (fun _ => rfl)
theorem dev_rs_2_0_0 : ∀ c : Dev nD, (⟨k0_dev18 c, k0_dev18_lt c⟩ : Dev nD) = peer 0 2 c := by decide +kernel

/-- summing phase, stage 2, column block 0, piece 1: the rows device `c` sends, in its own buffer and in its partner's -/
abbrev src_rs_2_0_1 (c : Dev nD) : Memref sig .tc .vmem S64x384 .bf16 :=
  (Memref.whole cc0_scratch8 : Memref sig .tc .vmem S128x1024 .bf16).slice (Rect.unit (s := S128x1024) (k0_off35 c) S64x384.size (k0_off35_inb c)) (fun _ => rfl)
abbrev dst_rs_2_0_1 (c : Dev nD) : Memref sig .tc .vmem S64x384 .bf16 :=
  (Memref.whole cc0_scratch3 : Memref sig .tc .vmem S128x1024 .bf16).slice (Rect.unit (s := S128x1024) (k0_off35 c) S64x384.size (k0_off35_inb c)) (fun _ => rfl)
theorem dev_rs_2_0_1 : ∀ c : Dev nD, (⟨k0_dev19 c, k0_dev19_lt c⟩ : Dev nD) = peer 0 2 c := by decide +kernel

/-- summing phase, stage 2, column block 1, piece 0: the rows device `c` sends, in its own buffer and in its partner's -/
abbrev src_rs_2_1_0 (c : Dev nD) : Memref sig .tc .vmem S64x384 .bf16 :=
  (Memref.whole cc0_scratch8 : Memref sig .tc .vmem S128x1024 .bf16).slice (Rect.unit (s := S128x1024) (k0_off38 c) S64x384.size (k0_off38_inb c)) (fun _ => rfl)
abbrev dst_rs_2_1_0 (c : Dev nD) : Memref sig .tc .vmem S64x384 .bf16 :=
  (Memref.whole cc0_scratch3 : Memref sig .tc .vmem S128x1024 .bf16).slice (Rect.unit (s := S128x1024) (k0_off38 c) S64x384.size (k0_off38_inb c)) (fun _ => rfl)
theorem dev_rs_2_1_0 : ∀ c : Dev nD, (⟨k0_dev20 c, k0_dev20_lt c⟩ : Dev nD) = peer 1 2 c := by decide +kernel

/-- summing phase, stage 2, column block 1, piece 1: the rows device `c` sends, in its own buffer and in its partner's -/
abbrev src_rs_2_1_1 (c : Dev nD) : Memref sig .tc .vmem S64x384 .bf16 :=
  (Memref.whole cc0_scratch8 : Memref sig .tc .vmem S128x1024 .bf16).slice (Rect.unit (s := S128x1024) (k0_off39 c) S64x384.size (k0_off39_inb c)) (fun _ => rfl)
abbrev dst_rs_2_1_1 (c : Dev nD) : Memref sig .tc .vmem S64x384 .bf16 :=
  (Memref.whole cc0_scratch3 : Memref sig .tc .vmem S128x1024 .bf16).slice (Rect.unit (s := S128x1024) (k0_off39 c) S64x384.size (k0_off39_inb c)) (fun _ => rfl)
theorem dev_rs_2_1_1 : ∀ c : Dev nD, (⟨k0_dev21 c, k0_dev21_lt c⟩ : Dev nD) = peer 1 2 c := by decide +kernel

/-- summing phase, stage 2, column block 2, piece 0: the rows device `c` sends, in its own buffer and in its partner's -/
abbrev src_rs_2_2_0 (c : Dev nD) : Memref sig .tc .vmem S64x256 .bf16 :=
  (Memref.whole cc0_scratch8 : Memref sig .tc .vmem S128x1024 .bf16).slice (Rect.unit (s := S128x1024) (k0_off42 c) S64x256.size (k0_off42_inb c)) (fun _ => rfl)
abbrev dst_rs_2_2_0 (c : Dev nD) : Memref sig .tc .vmem S64x256 .bf16 :=
  (Memref.whole cc0_scratch3 : Memref sig .tc .vmem S128x1024 .bf16).slice (Rect.unit (s := S128x1024) (k0_off42 c) S64x256.size (k0_off42_inb c)) (fun _ => rfl)
theorem dev_rs_2_2_0 : ∀ c : Dev nD, (⟨k0_dev22 c, k0_dev22_lt c⟩ : Dev nD) = peer 2 2 c := by decide +kernel

/-- summing phase, stage 2, column block 2, piece 1: the rows device `c` sends, in its own buffer and in its partner's -/
abbrev src_rs_2_2_1 (c : Dev nD) : Memref sig .tc .vmem S64x256 .bf16 :=
  (Memref.whole cc0_scratch8 : Memref sig .tc .vmem S128x1024 .bf16).slice (Rect.unit (s := S128x1024) (k0_off43 c) S64x256.size (k0_off43_inb c)) (fun _ => rfl)
abbrev dst_rs_2_2_1 (c : Dev nD) : Memref sig .tc .vmem S64x256 .bf16 :=
  (Memref.whole cc0_scratch3 : Memref sig .tc .vmem S128x1024 .bf16).slice (Rect.unit (s := S128x1024) (k0_off43 c) S64x256.size (k0_off43_inb c)) (fun _ => rfl)
theorem dev_rs_2_2_1 : ∀ c : Dev nD, (⟨k0_dev23 c, k0_dev23_lt c⟩ : Dev nD) = peer 2 2 c := by decide +kernel

/-- summing phase, stage 3, column block 0, piece 0: the rows device `c` sends, in its own buffer and in its partner's -/
abbrev src_rs_3_0_0 (c : Dev nD) : Memref sig .tc .vmem S32x384 .bf16 :=
  (Memref.whole cc0_scratch9 : Memref sig .tc .vmem S64x1024 .bf16).slice (Rect.unit (s := S64x1024) (k0_off52 c) S32x384.size (k0_off52_inb c)) (fun _ => rfl)
abbrev dst_rs_3_0_0 (c : Dev nD) : Memref sig .tc .vmem S32x384 .bf16 :=
  (Memref.whole cc0_scratch4 : Memref sig .tc .vmem S64x1024 .bf16).slice (Rect.unit (s := S64x1024) (k0_off52 c) S32x384.size (k0_off52_inb c)) (fun _ => rfl)
theorem dev_rs_3_0_0 : ∀ c : Dev nD, (⟨k0_dev24 c, k0_dev24_lt c⟩ : Dev nD) = peer 0 3 c := by decide +kernel

/-- summing phase, stage 3, column block 0, piece 1: the rows device `c` sends, in its own buffer and in its partner's -/
abbrev src_rs_3_0_1 (c : Dev nD) : Memref sig .tc .vmem S32x384 .bf16 :=
  (Memref.whole cc0_scratch9 : Memref sig .tc .vmem S64x1024 .bf16).slice (Rect.unit (s := S64x1024) (k0_off53 c) S32x384.size (k0_off53_inb c)) (fun _ => rfl)
abbrev dst_rs_3_0_1 (c : Dev nD) : Memref sig .tc .vmem S32x384 .bf16 :=
  (Memref.whole cc0_scratch4 : Memref sig .tc .vmem S64x1024 .bf16).slice (Rect.unit (s := S64x1024) (k0_off53 c) S32x384.size (k0_off53_inb c)) (fun _ => rfl)
theorem dev_rs_3_0_1 : ∀ c : Dev nD, (⟨k0_dev25 c, k0_dev25_lt c⟩ : Dev nD) = peer 0 3 c := by decide +kernel

/-- summing phase, stage 3, column block 1, piece 0: the rows device `c` sends, in its own buffer and in its partner's -/
abbrev src_rs_3_1_0 (c : Dev nD) : Memref sig .tc .vmem S32x384 .bf16 :=
  (Memref.whole cc0_scratch9 : Memref sig .tc .vmem S64x1024 .bf16).slice (Rect.unit (s := S64x1024) (k0_off56 c) S32x384.size (k0_off56_inb c)) (fun _ => rfl)
abbrev dst_rs_3_1_0 (c : Dev nD) : Memref sig .tc .vmem S32x384 .bf16 :=
  (Memref.whole cc0_scratch4 : Memref sig .tc .vmem S64x1024 .bf16).slice (Rect.unit (s := S64x1024) (k0_off56 c) S32x384.size (k0_off56_inb c)) (fun _ => rfl)
theorem dev_rs_3_1_0 : ∀ c : Dev nD, (⟨k0_dev26 c, k0_dev26_lt c⟩ : Dev nD) = peer 1 3 c := by decide +kernel

/-- summing phase, stage 3, column block 1, piece 1: the rows device `c` sends, in its own buffer and in its partner's -/
abbrev src_rs_3_1_1 (c : Dev nD) : Memref sig .tc .vmem S32x384 .bf16 :=
  (Memref.whole cc0_scratch9 : Memref sig .tc .vmem S64x1024 .bf16).slice (Rect.unit (s := S64x1024) (k0_off57 c) S32x384.size (k0_off57_inb c)) (fun _ => rfl)
abbrev dst_rs_3_1_1 (c : Dev nD) : Memref sig .tc .vmem S32x384 .bf16 :=
  (Memref.whole cc0_scratch4 : Memref sig .tc .vmem S64x1024 .bf16).slice (Rect.unit (s := S64x1024) (k0_off57 c) S32x384.size (k0_off57_inb c)) (fun _ => rfl)
theorem dev_rs_3_1_1 : ∀ c : Dev nD, (⟨k0_dev27 c, k0_dev27_lt c⟩ : Dev nD) = peer 1 3 c := by decide +kernel

/-- summing phase, stage 3, column block 2, piece 0: the rows device `c` sends, in its own buffer and in its partner's -/
abbrev src_rs_3_2_0 (c : Dev nD) : Memref sig .tc .vmem S32x256 .bf16 :=
  (Memref.whole cc0_scratch9 : Memref sig .tc .vmem S64x1024 .bf16).slice (Rect.unit (s := S64x1024) (k0_off60 c) S32x256.size (k0_off60_inb c)) (fun _ => rfl)
abbrev dst_rs_3_2_0 (c : Dev nD) : Memref sig .tc .vmem S32x256 .bf16 :=
  (Memref.whole cc0_scratch4 : Memref sig .tc .vmem S64x1024 .bf16).slice (Rect.unit (s := S64x1024) (k0_off60 c) S32x256.size (k0_off60_inb c)) (fun _ => rfl)
theorem dev_rs_3_2_0 : ∀ c : Dev nD, (⟨k0_dev28 c, k0_dev28_lt c⟩ : Dev nD) = peer 2 3 c := by decide +kernel

/-- summing phase, stage 3, column block 2, piece 1: the rows device `c` sends, in its own buffer and in its partner's -/
abbrev src_rs_3_2_1 (c : Dev nD) : Memref sig .tc .vmem S32x256 .bf16 :=
  (Memref.whole cc0_scratch9 : Memref sig .tc .vmem S64x1024 .bf16).slice (Rect.unit (s := S64x1024) (k0_off61 c) S32x256.size (k0_off61_inb c)) (fun _ => rfl)
abbrev dst_rs_3_2_1 (c : Dev nD) : Memref sig .tc .vmem S32x256 .bf16 :=
  (Memref.whole cc0_scratch4 : Memref sig .tc .vmem S64x1024 .bf16).slice (Rect.unit (s := S64x1024) (k0_off61 c) S32x256.size (k0_off61_inb c)) (fun _ => rfl)
theorem dev_rs_3_2_1 : ∀ c : Dev nD, (⟨k0_dev29 c, k0_dev29_lt c⟩ : Dev nD) = peer 2 3 c := by decide +kernel

/-- summing phase, stage 4, column block 0, piece 0: the rows device `c` sends, in its own buffer and in its partner's -/
abbrev src_rs_4_0_0 (c : Dev nD) : Memref sig .tc .vmem S32x384 .bf16 :=
  (Memref.whole cc0_scratch10 : Memref sig .tc .vmem S32x1024 .bf16).slice (Rect.unit (s := S32x1024) ![0, 0] S32x384.size inb_S32x1024_S32x384_0_0) (fun _ => rfl)
abbrev dst_rs_4_0_0 (c : Dev nD) : Memref sig .tc .vmem S32x384 .bf16 :=
  (Memref.whole cc0_scratch5 : Memref sig .tc .vmem S32x1024 .bf16).slice (Rect.unit (s := S32x1024) ![0, 0] S32x384.size inb_S32x1024_S32x384_0_0) (fun _ => rfl)
theorem dev_rs_4_0_0 : ∀ c : Dev nD, (⟨k0_dev30 c, k0_dev30_lt c⟩ : Dev nD) = peer 0 4 c := by decide +kernel

/-- summing phase, stage 4, column block 1, piece 0: the rows device `c` sends, in its own buffer and in its partner's -/
abbrev src_rs_4_1_0 (c : Dev nD) : Memref sig .tc .vmem S32x384 .bf16 :=
  (Memref.whole cc0_scratch10 : Memref sig .tc .vmem S32x1024 .bf16).slice (Rect.unit (s := S32x1024) ![0, 384] S32x384.size inb_S32x1024_S32x384_0_384) (fun _ => rfl)
abbrev dst_rs_4_1_0 (c : Dev nD) : Memref sig .tc .vmem S32x384 .bf16 :=
  (Memref.whole cc0_scratch5 : Memref sig .tc .vmem S32x1024 .bf16).slice (Rect.unit (s := S32x1024) ![0, 384] S32x384.size inb_S32x1024_S32x384_0_384) (fun _ => rfl)
theorem dev_rs_4_1_0 : ∀ c : Dev nD, (⟨k0_dev31 c, k0_dev31_lt c⟩ : Dev nD) = peer 1 4 c := by decide +kernel

/-- summing phase, stage 4, column block 2, piece 0: the rows device `c` sends, in its own buffer and in its partner's -/
abbrev src_rs_4_2_0 (c : Dev nD) : Memref sig .tc .vmem S32x256 .bf16 :=
  (Memref.whole cc0_scratch10 : Memref sig .tc .vmem S32x1024 .bf16).slice (Rect.unit (s := S32x1024) ![0, 768] S32x256.size inb_S32x1024_S32x256_0_768) (fun _ => rfl)
abbrev dst_rs_4_2_0 (c : Dev nD) : Memref sig .tc .vmem S32x256 .bf16 :=
  (Memref.whole cc0_scratch5 : Memref sig .tc .vmem S32x1024 .bf16).slice (Rect.unit (s := S32x1024) ![0, 768] S32x256.size inb_S32x1024_S32x256_0_768) (fun _ => rfl)
theorem dev_rs_4_2_0 : ∀ c : Dev nD, (⟨k0_dev32 c, k0_dev32_lt c⟩ : Dev nD) = peer 2 4 c := by decide +kernel

/-- gathering phase, stage 4, column block 0, piece 0: the rows device `c` sends, in its own buffer and in its partner's -/
abbrev src_ag_4_0_0 (c : Dev nD) : Memref sig .tc .vmem S32x384 .bf16 :=
  (Memref.whole cc0_stg2_0 : Memref sig .tc .vmem S1024x1024 .bf16).slice (Rect.unit (s := S1024x1024) (k0_off80 c) S32x384.size (k0_off80_inb c)) (fun _ => rfl)
abbrev dst_ag_4_0_0 (c : Dev nD) : Memref sig .tc .vmem S32x384 .bf16 :=
  (Memref.whole cc0_stg2_0 : Memref sig .tc .vmem S1024x1024 .bf16).slice (Rect.unit (s := S1024x1024) (k0_off80 c) S32x384.size (k0_off80_inb c)) (fun _ => rfl)
theorem dev_ag_4_0_0 : ∀ c : Dev nD, (⟨k0_dev33 c, k0_dev33_lt c⟩ : Dev nD) = peer 0 4 c := by decide +kernel

/-- gathering phase, stage 4, column block 1, piece 0: the rows device `c` sends, in its own buffer and in its partner's -/
abbrev src_ag_4_1_0 (c : Dev nD) : Memref sig .tc .vmem S32x384 .bf16 :=
  (Memref.whole cc0_stg2_0 : Memref sig .tc .vmem S1024x1024 .bf16).slice (Rect.unit (s := S1024x1024) (k0_off81 c) S32x384.size (k0_off81_inb c)) (fun _ => rfl)
abbrev dst_ag_4_1_0 (c : Dev nD) : Memref sig .tc .vmem S32x384 .bf16 :=
  (Memref.whole cc0_stg2_0 : Memref sig .tc .vmem S1024x1024 .bf16).slice (Rect.unit (s := S1024x1024) (k0_off81 c) S32x384.size (k0_off81_inb c)) (fun _ => rfl)
theorem dev_ag_4_1_0 : ∀ c : Dev nD, (⟨k0_dev34 c, k0_dev34_lt c⟩ : Dev nD) = peer 1 4 c := by decide +kernel

/-- gathering phase, stage 4, column block 2, piece 0: the rows device `c` sends, in its own buffer and in its partner's -/
abbrev src_ag_4_2_0 (c : Dev nD) : Memref sig .tc .vmem S32x256 .bf16 :=
  (Memref.whole cc0_stg2_0 : Memref sig .tc .vmem S1024x1024 .bf16).slice (Rect.unit (s := S1024x1024) (k0_off82 c) S32x256.size (k0_off82_inb c)) (fun _ => rfl)
abbrev dst_ag_4_2_0 (c : Dev nD) : Memref sig .tc .vmem S32x256 .bf16 :=
  (Memref.whole cc0_stg2_0 : Memref sig .tc .vmem S1024x1024 .bf16).slice (Rect.unit (s := S1024x1024) (k0_off82 c) S32x256.size (k0_off82_inb c)) (fun _ => rfl)
theorem dev_ag_4_2_0 : ∀ c : Dev nD, (⟨k0_dev35 c, k0_dev35_lt c⟩ : Dev nD) = peer 2 4 c := by decide +kernel

/-- gathering phase, stage 3, column block 0, piece 0: the rows device `c` sends, in its own buffer and in its partner's -/
abbrev src_ag_3_0_0 (c : Dev nD) : Memref sig .tc .vmem S32x384 .bf16 :=
  (Memref.whole cc0_stg2_0 : Memref sig .tc .vmem S1024x1024 .bf16).slice (Rect.unit (s := S1024x1024) (k0_off80 c) S32x384.size (k0_off80_inb c)) (fun _ => rfl)
abbrev dst_ag_3_0_0 (c : Dev nD) : Memref sig .tc .vmem S32x384 .bf16 :=
  (Memref.whole cc0_stg2_0 : Memref sig .tc .vmem S1024x1024 .bf16).slice (Rect.unit (s := S1024x1024) (k0_off80 c) S32x384.size (k0_off80_inb c)) (fun _ => rfl)
theorem dev_ag_3_0_0 : ∀ c : Dev nD, (⟨k0_dev36 c, k0_dev36_lt c⟩ : Dev nD) = peer 0 3 c := by decide +kernel

/-- gathering phase, stage 3, column block 0, piece 1: the rows device `c` sends, in its own buffer and in its partner's -/
abbrev src_ag_3_0_1 (c : Dev nD) : Memref sig .tc .vmem S32x384 .bf16 :=
  (Memref.whole cc0_stg2_0 : Memref sig .tc .vmem S1024x1024 .bf16).slice (Rect.unit (s := S1024x1024) (k0_off83 c) S32x384.size (k0_off83_inb c)) (fun _ => rfl)
abbrev dst_ag_3_0_1 (c : Dev nD) : Memref sig .tc .vmem S32x384 .bf16 :=
  (Memref.whole cc0_stg2_0 : Memref sig .tc .vmem S1024x1024 .bf16).slice (Rect.unit (s := S1024x1024) (k0_off83 c) S32x384.size (k0_off83_inb c)) (fun _ => rfl)
theorem dev_ag_3_0_1 : ∀ c : Dev nD, (⟨k0_dev37 c, k0_dev37_lt c⟩ : Dev nD) = peer 0 3 c := by decide +kernel

/-- gathering phase, stage 3, column block 1, piece 0: the rows device `c` sends, in its own buffer and in its partner's -/
abbrev src_ag_3_1_0 (c : Dev nD) : Memref sig .tc .vmem S32x384 .bf16 :=
  (Memref.whole cc0_stg2_0 : Memref sig .tc .vmem S1024x1024 .bf16).slice (Rect.unit (s := S1024x1024) (k0_off81 c) S32x384.size (k0_off81_inb c)) (fun _ => rfl)
abbrev dst_ag_3_1_0 (c : Dev nD) : Memref sig .tc .vmem S32x384 .bf16 :=
  (Memref.whole cc0_stg2_0 : Memref sig .tc .vmem S1024x1024 .bf16).slice (Rect.unit (s := S1024x1024) (k0_off81 c) S32x384.size (k0_off81_inb c)) (fun _ => rfl)
theorem dev_ag_3_1_0 : ∀ c : Dev nD, (⟨k0_dev38 c, k0_dev38_lt c⟩ : Dev nD) = peer 1 3 c := by decide +kernel

/-- gathering phase, stage 3, column block 1, piece 1: the rows device `c` sends, in its own buffer and in its partner's -/
abbrev src_ag_3_1_1 (c : Dev nD) : Memref sig .tc .vmem S32x384 .bf16 :=
  (Memref.whole cc0_stg2_0 : Memref sig .tc .vmem S1024x1024 .bf16).slice (Rect.unit (s := S1024x1024) (k0_off84 c) S32x384.size (k0_off84_inb c)) (fun _ => rfl)
abbrev dst_ag_3_1_1 (c : Dev nD) : Memref sig .tc .vmem S32x384 .bf16 :=
  (Memref.whole cc0_stg2_0 : Memref sig .tc .vmem S1024x1024 .bf16).slice (Rect.unit (s := S1024x1024) (k0_off84 c) S32x384.size (k0_off84_inb c)) (fun _ => rfl)
theorem dev_ag_3_1_1 : ∀ c : Dev nD, (⟨k0_dev39 c, k0_dev39_lt c⟩ : Dev nD) = peer 1 3 c := by decide +kernel

/-- gathering phase, stage 3, column block 2, piece 0: the rows device `c` sends, in its own buffer and in its partner's -/
abbrev src_ag_3_2_0 (c : Dev nD) : Memref sig .tc .vmem S32x256 .bf16 :=
  (Memref.whole cc0_stg2_0 : Memref sig .tc .vmem S1024x1024 .bf16).slice (Rect.unit (s := S1024x1024) (k0_off82 c) S32x256.size (k0_off82_inb c)) (fun _ => rfl)
abbrev dst_ag_3_2_0 (c : Dev nD) : Memref sig .tc .vmem S32x256 .bf16 :=
  (Memref.whole cc0_stg2_0 : Memref sig .tc .vmem S1024x1024 .bf16).slice (Rect.unit (s := S1024x1024) (k0_off82 c) S32x256.size (k0_off82_inb c)) (fun _ => rfl)
theorem dev_ag_3_2_0 : ∀ c : Dev nD, (⟨k0_dev40 c, k0_dev40_lt c⟩ : Dev nD) = peer 2 3 c := by decide +kernel

/-- gathering phase, stage 3, column block 2, piece 1: the rows device `c` sends, in its own buffer and in its partner's -/
abbrev src_ag_3_2_1 (c : Dev nD) : Memref sig .tc .vmem S32x256 .bf16 :=
  (Memref.whole cc0_stg2_0 : Memref sig .tc .vmem S1024x1024 .bf16).slice (Rect.unit (s := S1024x1024) (k0_off85 c) S32x256.size (k0_off85_inb c)) (fun _ => rfl)
abbrev dst_ag_3_2_1 (c : Dev nD) : Memref sig .tc .vmem S32x256 .bf16 :=
  (Memref.whole cc0_stg2_0 : Memref sig .tc .vmem S1024x1024 .bf16).slice (Rect.unit (s := S1024x1024) (k0_off85 c) S32x256.size (k0_off85_inb c)) (fun _ => rfl)
theorem dev_ag_3_2_1 : ∀ c : Dev nD, (⟨k0_dev41 c, k0_dev41_lt c⟩ : Dev nD) = peer 2 3 c := by decide +kernel

/-- gathering phase, stage 2, column block 0, piece 0: the rows device `c` sends, in its own buffer and in its partner's -/
abbrev src_ag_2_0_0 (c : Dev nD) : Memref sig .tc .vmem S64x384 .bf16 :=
  (Memref.whole cc0_stg2_0 : Memref sig .tc .vmem S1024x1024 .bf16).slice (Rect.unit (s := S1024x1024) (k0_off86 c) S64x384.size (k0_off86_inb c)) (fun _ => rfl)
abbrev dst_ag_2_0_0 (c : Dev nD) : Memref sig .tc .vmem S64x384 .bf16 :=
  (Memref.whole cc0_stg2_0 : Memref sig .tc .vmem S1024x1024 .bf16).slice (Rect.unit (s := S1024x1024) (k0_off86 c) S64x384.size (k0_off86_inb c)) (fun _ => rfl)
theorem dev_ag_2_0_0 : ∀ c : Dev nD, (⟨k0_dev42 c, k0_dev42_lt c⟩ : Dev nD) = peer 0 2 c := by decide +kernel

/-- gathering phase, stage 2, column block 0, piece 1: the rows device `c` sends, in its own buffer and in its partner's -/
abbrev src_ag_2_0_1 (c : Dev nD) : Memref sig .tc .vmem S64x384 .bf16 :=
  (Memref.whole cc0_stg2_0 : Memref sig .tc .vmem S1024x1024 .bf16).slice (Rect.unit (s := S1024x1024) (k0_off87 c) S64x384.size (k0_off87_inb c)) (fun _ => rfl)
abbrev dst_ag_2_0_1 (c : Dev nD) : Memref sig .tc .vmem S64x384 .bf16 :=
  (Memref.whole cc0_stg2_0 : Memref sig .tc .vmem S1024x1024 .bf16).slice (Rect.unit (s := S1024x1024) (k0_off87 c) S64x384.size (k0_off87_inb c)) (fun _ => rfl)
theorem dev_ag_2_0_1 : ∀ c : Dev nD, (⟨k0_dev43 c, k0_dev43_lt c⟩ : Dev nD) = peer 0 2 c := by decide +kernel

/-- gathering phase, stage 2, column block 1, piece 0: the rows device `c` sends, in its own buffer and in its partner's -/
abbrev src_ag_2_1_0 (c : Dev nD) : Memref sig .tc .vmem S64x384 .bf16 :=
  (Memref.whole cc0_stg2_0 : Memref sig .tc .vmem S1024x1024 .bf16).slice (Rect.unit (s := S1024x1024) (k0_off88 c) S64x384.size (k0_off88_inb c)) (fun _ => rfl)
abbrev dst_ag_2_1_0 (c : Dev nD) : Memref sig .tc .vmem S64x384 .bf16 :=
  (Memref.whole cc0_stg2_0 : Memref sig .tc .vmem S1024x1024 .bf16).slice (Rect.unit (s := S1024x1024) (k0_off88 c) S64x384.size (k0_off88_inb c)) (fun _ => rfl)
theorem dev_ag_2_1_0 : ∀ c : Dev nD, (⟨k0_dev44 c, k0_dev44_lt c⟩ : Dev nD) = peer 1 2 c := by decide +kernel

/-- gathering phase, stage 2, column block 1, piece 1: the rows device `c` sends, in its own buffer and in its partner's -/
abbrev src_ag_2_1_1 (c : Dev nD) : Memref sig .tc .vmem S64x384 .bf16 :=
  (Memref.whole cc0_stg2_0 : Memref sig .tc .vmem S1024x1024 .bf16).slice (Rect.unit (s := S1024x1024) (k0_off89 c) S64x384.size (k0_off89_inb c)) (fun _ => rfl)
abbrev dst_ag_2_1_1 (c : Dev nD) : Memref sig .tc .vmem S64x384 .bf16 :=
  (Memref.whole cc0_stg2_0 : Memref sig .tc .vmem S1024x1024 .bf16).slice (Rect.unit (s := S1024x1024) (k0_off89 c) S64x384.size (k0_off89_inb c)) (fun _ => rfl)
theorem dev_ag_2_1_1 : ∀ c : Dev nD, (⟨k0_dev45 c, k0_dev45_lt c⟩ : Dev nD) = peer 1 2 c := by decide +kernel

/-- gathering phase, stage 2, column block 2, piece 0: the rows device `c` sends, in its own buffer and in its partner's -/
abbrev src_ag_2_2_0 (c : Dev nD) : Memref sig .tc .vmem S64x256 .bf16 :=
  (Memref.whole cc0_stg2_0 : Memref sig .tc .vmem S1024x1024 .bf16).slice (Rect.unit (s := S1024x1024) (k0_off90 c) S64x256.size (k0_off90_inb c)) (fun _ => rfl)
abbrev dst_ag_2_2_0 (c : Dev nD) : Memref sig .tc .vmem S64x256 .bf16 :=
  (Memref.whole cc0_stg2_0 : Memref sig .tc .vmem S1024x1024 .bf16).slice (Rect.unit (s := S1024x1024) (k0_off90 c) S64x256.size (k0_off90_inb c)) (fun _ => rfl)
theorem dev_ag_2_2_0 : ∀ c : Dev nD, (⟨k0_dev46 c, k0_dev46_lt c⟩ : Dev nD) = peer 2 2 c := by decide +kernel

/-- gathering phase, stage 2, column block 2, piece 1: the rows device `c` sends, in its own buffer and in its partner's -/
abbrev src_ag_2_2_1 (c : Dev nD) : Memref sig .tc .vmem S64x256 .bf16 :=
  (Memref.whole cc0_stg2_0 : Memref sig .tc .vmem S1024x1024 .bf16).slice (Rect.unit (s := S1024x1024) (k0_off91 c) S64x256.size (k0_off91_inb c)) (fun _ => rfl)
abbrev dst_ag_2_2_1 (c : Dev nD) : Memref sig .tc .vmem S64x256 .bf16 :=
  (Memref.whole cc0_stg2_0 : Memref sig .tc .vmem S1024x1024 .bf16).slice (Rect.unit (s := S1024x1024) (k0_off91 c) S64x256.size (k0_off91_inb c)) (fun _ => rfl)
theorem dev_ag_2_2_1 : ∀ c : Dev nD, (⟨k0_dev47 c, k0_dev47_lt c⟩ : Dev nD) = peer 2 2 c := by decide +kernel

/-- gathering phase, stage 1, column block 0, piece 0: the rows device `c` sends, in its own buffer and in its partner's -/
abbrev src_ag_1_0_0 (c : Dev nD) : Memref sig .tc .vmem S128x384 .bf16 :=
  (Memref.whole cc0_stg2_0 : Memref sig .tc .vmem S1024x1024 .bf16).slice (Rect.unit (s := S1024x1024) (k0_off92 c) S128x384.size (k0_off92_inb c)) (fun _ => rfl)
abbrev dst_ag_1_0_0 (c : Dev nD) : Memref sig .tc .vmem S128x384 .bf16 :=
  (Memref.whole cc0_stg2_0 : Memref sig .tc .vmem S1024x1024 .bf16).slice (Rect.unit (s := S1024x1024) (k0_off92 c) S128x384.size (k0_off92_inb c)) (fun _ => rfl)
theorem dev_ag_1_0_0 : ∀ c : Dev nD, (⟨k0_dev48 c, k0_dev48_lt c⟩ : Dev nD) = peer 0 1 c := by decide +kernel

/-- gathering phase, stage 1, column block 0, piece 1: the rows device `c` sends, in its own buffer and in its partner's -/
abbrev src_ag_1_0_1 (c : Dev nD) : Memref sig .tc .vmem S128x384 .bf16 :=
  (Memref.whole cc0_stg2_0 : Memref sig .tc .vmem S1024x1024 .bf16).slice (Rect.unit (s := S1024x1024) (k0_off93 c) S128x384.size (k0_off93_inb c)) (fun _ => rfl)
abbrev dst_ag_1_0_1 (c : Dev nD) : Memref sig .tc .vmem S128x384 .bf16 :=
  (Memref.whole cc0_stg2_0 : Memref sig .tc .vmem S1024x1024 .bf16).slice (Rect.unit (s := S1024x1024) (k0_off93 c) S128x384.size (k0_off93_inb c)) (fun _ => rfl)
theorem dev_ag_1_0_1 : ∀ c : Dev nD, (⟨k0_dev49 c, k0_dev49_lt c⟩ : Dev nD) = peer 0 1 c := by decide +kernel

/-- gathering phase, stage 1, column block 1, piece 0: the rows device `c` sends, in its own buffer and in its partner's -/
abbrev src_ag_1_1_0 (c : Dev nD) : Memref sig .tc .vmem S128x384 .bf16 :=
  (Memref.whole cc0_stg2_0 : Memref sig .tc .vmem S1024x1024 .bf16).slice (Rect.unit (s := S1024x1024) (k0_off94 c) S128x384.size (k0_off94_inb c)) (fun _ => rfl)
abbrev dst_ag_1_1_0 (c : Dev nD) : Memref sig .tc .vmem S128x384 .bf16 :=
  (Memref.whole cc0_stg2_0 : Memref sig .tc .vmem S1024x1024 .bf16).slice (Rect.unit (s := S1024x1024) (k0_off94 c) S128x384.size (k0_off94_inb c)) (fun _ => rfl)
theorem dev_ag_1_1_0 : ∀ c : Dev nD, (⟨k0_dev50 c, k0_dev50_lt c⟩ : Dev nD) = peer 1 1 c := by decide +kernel

/-- gathering phase, stage 1, column block 1, piece 1: the rows device `c` sends, in its own buffer and in its partner's -/
abbrev src_ag_1_1_1 (c : Dev nD) : Memref sig .tc .vmem S128x384 .bf16 :=
  (Memref.whole cc0_stg2_0 : Memref sig .tc .vmem S1024x1024 .bf16).slice (Rect.unit (s := S1024x1024) (k0_off95 c) S128x384.size (k0_off95_inb c)) (fun _ => rfl)
abbrev dst_ag_1_1_1 (c : Dev nD) : Memref sig .tc .vmem S128x384 .bf16 :=
  (Memref.whole cc0_stg2_0 : Memref sig .tc .vmem S1024x1024 .bf16).slice (Rect.unit (s := S1024x1024) (k0_off95 c) S128x384.size (k0_off95_inb c)) (fun _ => rfl)
theorem dev_ag_1_1_1 : ∀ c : Dev nD, (⟨k0_dev51 c, k0_dev51_lt c⟩ : Dev nD) = peer 1 1 c := by decide +kernel

/-- gathering phase, stage 1, column block 2, piece 0: the rows device `c` sends, in its own buffer and in its partner's -/
abbrev src_ag_1_2_0 (c : Dev nD) : Memref sig .tc .vmem S128x256 .bf16 :=
  (Memref.whole cc0_stg2_0 : Memref sig .tc .vmem S1024x1024 .bf16).slice (Rect.unit (s := S1024x1024) (k0_off96 c) S128x256.size (k0_off96_inb c)) (fun _ => rfl)
abbrev dst_ag_1_2_0 (c : Dev nD) : Memref sig .tc .vmem S128x256 .bf16 :=
  (Memref.whole cc0_stg2_0 : Memref sig .tc .vmem S1024x1024 .bf16).slice (Rect.unit (s := S1024x1024) (k0_off96 c) S128x256.size (k0_off96_inb c)) (fun _ => rfl)
theorem dev_ag_1_2_0 : ∀ c : Dev nD, (⟨k0_dev52 c, k0_dev52_lt c⟩ : Dev nD) = peer 2 1 c := by decide +kernel

/-- gathering phase, stage 1, column block 2, piece 1: the rows device `c` sends, in its own buffer and in its partner's -/
abbrev src_ag_1_2_1 (c : Dev nD) : Memref sig .tc .vmem S128x256 .bf16 :=
  (Memref.whole cc0_stg2_0 : Memref sig .tc .vmem S1024x1024 .bf16).slice (Rect.unit (s := S1024x1024) (k0_off97 c) S128x256.size (k0_off97_inb c)) (fun _ => rfl)
abbrev dst_ag_1_2_1 (c : Dev nD) : Memref sig .tc .vmem S128x256 .bf16 :=
  (Memref.whole cc0_stg2_0 : Memref sig .tc .vmem S1024x1024 .bf16).slice (Rect.unit (s := S1024x1024) (k0_off97 c) S128x256.size (k0_off97_inb c)) (fun _ => rfl)
theorem dev_ag_1_2_1 : ∀ c : Dev nD, (⟨k0_dev53 c, k0_dev53_lt c⟩ : Dev nD) = peer 2 1 c := by decide +kernel

/-- gathering phase, stage 0, column block 0, piece 0: the rows device `c` sends, in its own buffer and in its partner's -/
abbrev src_ag_0_0_0 (c : Dev nD) : Memref sig .tc .vmem S256x384 .bf16 :=
  (Memref.whole cc0_stg2_0 : Memref sig .tc .vmem S1024x1024 .bf16).slice (Rect.unit (s := S1024x1024) (k0_off98 c) S256x384.size (k0_off98_inb c)) (fun _ => rfl)
abbrev dst_ag_0_0_0 (c : Dev nD) : Memref sig .tc .vmem S256x384 .bf16 :=
  (Memref.whole cc0_stg2_0 : Memref sig .tc .vmem S1024x1024 .bf16).slice (Rect.unit (s := S1024x1024) (k0_off98 c) S256x384.size (k0_off98_inb c)) (fun _ => rfl)
theorem dev_ag_0_0_0 : ∀ c : Dev nD, (⟨k0_dev54 c, k0_dev54_lt c⟩ : Dev nD) = peer 0 0 c := by decide +kernel

/-- gathering phase, stage 0, column block 0, piece 1: the rows device `c` sends, in its own buffer and in its partner's -/
abbrev src_ag_0_0_1 (c : Dev nD) : Memref sig .tc .vmem S256x384 .bf16 :=
  (Memref.whole cc0_stg2_0 : Memref sig .tc .vmem S1024x1024 .bf16).slice (Rect.unit (s := S1024x1024) (k0_off99 c) S256x384.size (k0_off99_inb c)) (fun _ => rfl)
abbrev dst_ag_0_0_1 (c : Dev nD) : Memref sig .tc .vmem S256x384 .bf16 :=
  (Memref.whole cc0_stg2_0 : Memref sig .tc .vmem S1024x1024 .bf16).slice (Rect.unit (s := S1024x1024) (k0_off99 c) S256x384.size (k0_off99_inb c)) (fun _ => rfl)
theorem dev_ag_0_0_1 : ∀ c : Dev nD, (⟨k0_dev55 c, k0_dev55_lt c⟩ : Dev nD) = peer 0 0 c := by decide +kernel

/-- gathering phase, stage 0, column block 1, piece 0: the rows device `c` sends, in its own buffer and in its partner's -/
abbrev src_ag_0_1_0 (c : Dev nD) : Memref sig .tc .vmem S256x384 .bf16 :=
  (Memref.whole cc0_stg2_0 : Memref sig .tc .vmem S1024x1024 .bf16).slice (Rect.unit (s := S1024x1024) (k0_off100 c) S256x384.size (k0_off100_inb c)) (fun _ => rfl)
abbrev dst_ag_0_1_0 (c : Dev nD) : Memref sig .tc .vmem S256x384 .bf16 :=
  (Memref.whole cc0_stg2_0 : Memref sig .tc .vmem S1024x1024 .bf16).slice (Rect.unit (s := S1024x1024) (k0_off100 c) S256x384.size (k0_off100_inb c)) (fun _ => rfl)
theorem dev_ag_0_1_0 : ∀ c : Dev nD, (⟨k0_dev56 c, k0_dev56_lt c⟩ : Dev nD) = peer 1 0 c := by decide +kernel

/-- gathering phase, stage 0, column block 1, piece 1: the rows device `c` sends, in its own buffer and in its partner's -/
abbrev src_ag_0_1_1 (c : Dev nD) : Memref sig .tc .vmem S256x384 .bf16 :=
  (Memref.whole cc0_stg2_0 : Memref sig .tc .vmem S1024x1024 .bf16).slice (Rect.unit (s := S1024x1024) (k0_off101 c) S256x384.size (k0_off101_inb c)) (fun _ => rfl)
abbrev dst_ag_0_1_1 (c : Dev nD) : Memref sig .tc .vmem S256x384 .bf16 :=
  (Memref.whole cc0_stg2_0 : Memref sig .tc .vmem S1024x1024 .bf16).slice (Rect.unit (s := S1024x1024) (k0_off101 c) S256x384.size (k0_off101_inb c)) (fun _ => rfl)
theorem dev_ag_0_1_1 : ∀ c : Dev nD, (⟨k0_dev57 c, k0_dev57_lt c⟩ : Dev nD) = peer 1 0 c := by decide +kernel

/-- gathering phase, stage 0, column block 2, piece 0: the rows device `c` sends, in its own buffer and in its partner's -/
abbrev src_ag_0_2_0 (c : Dev nD) : Memref sig .tc .vmem S256x256 .bf16 :=
  (Memref.whole cc0_stg2_0 : Memref sig .tc .vmem S1024x1024 .bf16).slice (Rect.unit (s := S1024x1024) (k0_off102 c) S256x256.size (k0_off102_inb c)) (fun _ => rfl)
abbrev dst_ag_0_2_0 (c : Dev nD) : Memref sig .tc .vmem S256x256 .bf16 :=
  (Memref.whole cc0_stg2_0 : Memref sig .tc .vmem S1024x1024 .bf16).slice (Rect.unit (s := S1024x1024) (k0_off102 c) S256x256.size (k0_off102_inb c)) (fun _ => rfl)
theorem dev_ag_0_2_0 : ∀ c : Dev nD, (⟨k0_dev58 c, k0_dev58_lt c⟩ : Dev nD) = peer 2 0 c := by decide +kernel

/-- gathering phase, stage 0, column block 2, piece 1: the rows device `c` sends, in its own buffer and in its partner's -/
abbrev src_ag_0_2_1 (c : Dev nD) : Memref sig .tc .vmem S256x256 .bf16 :=
  (Memref.whole cc0_stg2_0 : Memref sig .tc .vmem S1024x1024 .bf16).slice (Rect.unit (s := S1024x1024) (k0_off103 c) S256x256.size (k0_off103_inb c)) (fun _ => rfl)
abbrev dst_ag_0_2_1 (c : Dev nD) : Memref sig .tc .vmem S256x256 .bf16 :=
  (Memref.whole cc0_stg2_0 : Memref sig .tc .vmem S1024x1024 .bf16).slice (Rect.unit (s := S1024x1024) (k0_off103 c) S256x256.size (k0_off103_inb c)) (fun _ => rfl)
theorem dev_ag_0_2_1 : ∀ c : Dev nD, (⟨k0_dev59 c, k0_dev59_lt c⟩ : Dev nD) = peer 2 0 c := by decide +kernel

/-- the five handshake signals go to the five partners -/
theorem dev_bar_0 : ∀ c : Dev nD, (⟨k0_dev1 c, k0_dev1_lt c⟩ : Dev nD) = xr c (hmask 0) := by decide +kernel
theorem dev_bar_1 : ∀ c : Dev nD, (⟨k0_dev2 c, k0_dev2_lt c⟩ : Dev nD) = xr c (hmask 1) := by decide +kernel
theorem dev_bar_2 : ∀ c : Dev nD, (⟨k0_dev3 c, k0_dev3_lt c⟩ : Dev nD) = xr c (hmask 2) := by decide +kernel
theorem dev_bar_3 : ∀ c : Dev nD, (⟨k0_dev4 c, k0_dev4_lt c⟩ : Dev nD) = xr c (hmask 3) := by decide +kernel
theorem dev_bar_4 : ∀ c : Dev nD, (⟨k0_dev5 c, k0_dev5_lt c⟩ : Dev nD) = xr c (hmask 4) := by decide +kernel

end Cert.Kernel.Tab

end
-- ==== Proof.HeldK.lean ====
/-
  Pieces of buffers as assertions: a piece held with contents that satisfy the contract, and a piece
  lent at any contents. The schedule's payloads are made of these.
-/
import proofs.«900879_g7700000000000880_dist_matmul_gelu_kshard_i_m1024_n1024_k512_v7x_i32_bf16_1_alg».proof.Proof.Gen.Kernel
import proofs.«900879_g7700000000000880_dist_matmul_gelu_kshard_i_m1024_n1024_k512_v7x_i32_bf16_1_alg».proof.Proof.Gen.Kernel.Skeleton
import proofs.«900879_g7700000000000880_dist_matmul_gelu_kshard_i_m1024_n1024_k512_v7x_i32_bf16_1_alg».proof.Proof.Gen.Kernel.Launch
import proofs.«900879_g7700000000000880_dist_matmul_gelu_kshard_i_m1024_n1024_k512_v7x_i32_bf16_1_alg».proof.Proof.Gen.Kernel.Points
import proofs.«900879_g7700000000000880_dist_matmul_gelu_kshard_i_m1024_n1024_k512_v7x_i32_bf16_1_alg».proof.Proof.Gen.Kernel.Frame
import Idealize.ShloMosaic.Lib.Pipeline.Launch
import Idealize.ShloMosaic.Lib.Pipeline.Kit
import Idealize.ShloMosaic.Lib.Rounds
import Idealize.ShloMosaic.Lib.Tactic
import proofs.«900879_g7700000000000880_dist_matmul_gelu_kshard_i_m1024_n1024_k512_v7x_i32_bf16_1_alg».proof.Proof.ProtoK
import proofs.«900879_g7700000000000880_dist_matmul_gelu_kshard_i_m1024_n1024_k512_v7x_i32_bf16_1_alg».proof.Proof.TabK

noncomputable section

namespace Cert.Kernel.Held

open Cert.Kernel Cert.Kernel.Gen Cert.Kernel.Proto Cert.Kernel.Tab
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The elements of the view `v` on device `c`, at share `q`, holding values every one of which
    satisfies `P` at its position. -/
def heldV {sh : Shape} {e : EltTy} (c : Dev nD) (v : Memref sig .tc .vmem sh e) (q : PosShare TreeShare)
    (P : v.view.ty.Idx → Elt F v.view.ty.elt → Prop) : sProp 𝕄 :=
  iprop(∃ f : Buf (Elt F) (v.view.loc (c : Thread nD τ)), (v.view.loc (c : Thread nD τ) ↦[v.view.set]{q} f) ∗ ⌜∀ i ∈ v.view.set, P i (f i)⌝)

/-- The elements of the view `v` on device `c`, whole, at some contents: a landing place lent to the
    device that will write it. -/
def loanV {sh : Shape} {e : EltTy} (c : Dev nD) (v : Memref sig .tc .vmem sh e) : sProp 𝕄 :=
  iprop(∃ f : Buf (Elt F) (v.view.loc (c : Thread nD τ)), (v.view.loc (c : Thread nD τ) ↦[v.view.set]{fullShare} f))

omit [FloatOps F] in
instance heldV_storable {sh : Shape} {e : EltTy} (c : Dev nD) (v : Memref sig .tc .vmem sh e) (q) (P) :
    BI.Storable (upEmb : UEmb _ 𝕄) (heldV (F := F) c v q P) := by unfold heldV; infer_instance
omit [FloatOps F] in
instance loanV_storable {sh : Shape} {e : EltTy} (c : Dev nD) (v : Memref sig .tc .vmem sh e) :
    BI.Storable (upEmb : UEmb _ 𝕄) (loanV (F := F) c v) := by unfold loanV; infer_instance

/-- Two gathering exchanges in flight read the same rows: consecutive stages take opposite halves of the share. -/
def shr (s : Fin 5) : PosShare TreeShare := if s.val % 2 = 0 then fullShare.left else fullShare.right

variable (ct : Contract F)

/-- The contract on a send buffer's positions, on a receive buffer's (what the partner sent), and on the result's. -/
def pSS (s : Fin 5) (c : Dev nD) {sh : Shape} (i : sh.Idx) (v : F .bf16) (h : sh.rank = 2 := by rfl) : Prop :=
  ct.okSS s c (i ⟨0, by omega⟩).val (i ⟨1, by omega⟩).val v
def pRS (s : Fin 5) (c : Dev nD) {sh : Shape} (i : sh.Idx) (v : F .bf16) (h : sh.rank = 2 := by rfl) : Prop :=
  ct.okSS s (peer (blk (i ⟨1, by omega⟩).val) s c) (i ⟨0, by omega⟩).val (i ⟨1, by omega⟩).val v
def pOut {sh : Shape} (i : sh.Idx) (v : F .bf16) (h : sh.rank = 2 := by rfl) : Prop :=
  ct.okOut (i ⟨0, by omega⟩).val (i ⟨1, by omega⟩).val v

-- the shapes fit: a piece of the stage-0 receive buffer of the partner, under the contract
example (p : Dev nD) : sProp 𝕄 := heldV p (dst_rs_0_0_0 (peer 0 0 p)) fullShare (fun i v => pRS ct 0 p (sh := S512x1024) i v)
example (p : Dev nD) : sProp 𝕄 := heldV p (dst_ag_3_1_1 (peer 1 3 p)) (shr 3) (fun i v => pOut ct (sh := S1024x1024) i v)

end Cert.Kernel.Held

end
-- ==== Proof.PayTabK.lean ====
import proofs.«900879_g7700000000000880_dist_matmul_gelu_kshard_i_m1024_n1024_k512_v7x_i32_bf16_1_alg».proof.Proof.HeldK

noncomputable section

namespace Cert.Kernel.PayTab

open Cert.Kernel Cert.Kernel.Gen Cert.Kernel.Proto Cert.Kernel.Tab Cert.Kernel.Held
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ UU ℕ

/-- the sender gets its rows back -/
def send_rs_0_0_0 (ct : Contract F) (c : Dev nD) : sProp 𝕄 := loanV c (src_rs_0_0_0 c)
/-- the receiver gets the rows its partner sent, right under the contract -/
def recv_rs_0_0_0 (ct : Contract F) (p : Dev nD) : sProp 𝕄 :=
  heldV p (dst_rs_0_0_0 (peer 0 0 p)) fullShare (fun i v => pRS ct 0 p (sh := S512x1024) i v)
/-- the sender gets its rows back -/
def send_rs_0_0_1 (ct : Contract F) (c : Dev nD) : sProp 𝕄 := loanV c (src_rs_0_0_1 c)
/-- the receiver gets the rows its partner sent, right under the contract -/
def recv_rs_0_0_1 (ct : Contract F) (p : Dev nD) : sProp 𝕄 :=
  heldV p (dst_rs_0_0_1 (peer 0 0 p)) fullShare (fun i v => pRS ct 0 p (sh := S512x1024) i v)
/-- the sender gets its rows back -/
def send_rs_0_1_0 (ct : Contract F) (c : Dev nD) : sProp 𝕄 := loanV c (src_rs_0_1_0 c)
/-- the receiver gets the rows its partner sent, right under the contract -/
def recv_rs_0_1_0 (ct : Contract F) (p : Dev nD) : sProp 𝕄 :=
  heldV p (dst_rs_0_1_0 (peer 1 0 p)) fullShare (fun i v => pRS ct 0 p (sh := S512x1024) i v)
/-- the sender gets its rows back -/
def send_rs_0_1_1 (ct : Contract F) (c : Dev nD) : sProp 𝕄 := loanV c (src_rs_0_1_1 c)
/-- the receiver gets the rows its partner sent, right under the contract -/
def recv_rs_0_1_1 (ct : Contract F) (p : Dev nD) : sProp 𝕄 :=
  heldV p (dst_rs_0_1_1 (peer 1 0 p)) fullShare (fun i v => pRS ct 0 p (sh := S512x1024) i v)
/-- the sender gets its rows back -/
def send_rs_0_2_0 (ct : Contract F) (c : Dev nD) : sProp 𝕄 := loanV c (src_rs_0_2_0 c)
/-- the receiver gets the rows its partner sent, right under the contract -/
def recv_rs_0_2_0 (ct : Contract F) (p : Dev nD) : sProp 𝕄 :=
  heldV p (dst_rs_0_2_0 (peer 2 0 p)) fullShare (fun i v => pRS ct 0 p (sh := S512x1024) i v)
/-- the sender gets its rows back -/
def send_rs_0_2_1 (ct : Contract F) (c : Dev nD) : sProp 𝕄 := loanV c (src_rs_0_2_1 c)
/-- the receiver gets the rows its partner sent, right under the contract -/
def recv_rs_0_2_1 (ct : Contract F) (p : Dev nD) : sProp 𝕄 :=
  heldV p (dst_rs_0_2_1 (peer 2 0 p)) fullShare (fun i v => pRS ct 0 p (sh := S512x1024) i v)
/-- the sender gets its rows back -/
def send_rs_1_0_0 (ct : Contract F) (c : Dev nD) : sProp 𝕄 := loanV c (src_rs_1_0_0 c)
/-- the receiver gets the rows its partner sent, right under the contract -/
def recv_rs_1_0_0 (ct : Contract F) (p : Dev nD) : sProp 𝕄 :=
  heldV p (dst_rs_1_0_0 (peer 0 1 p)) fullShare (fun i v => pRS ct 1 p (sh := S256x1024) i v)
/-- the sender gets its rows back -/
def send_rs_1_0_1 (ct : Contract F) (c : Dev nD) : sProp 𝕄 := loanV c (src_rs_1_0_1 c)
/-- the receiver gets the rows its partner sent, right under the contract -/
def recv_rs_1_0_1 (ct : Contract F) (p : Dev nD) : sProp 𝕄 :=
  heldV p (dst_rs_1_0_1 (peer 0 1 p)) fullShare (fun i v => pRS ct 1 p (sh := S256x1024) i v)
/-- the sender gets its rows back -/
def send_rs_1_1_0 (ct : Contract F) (c : Dev nD) : sProp 𝕄 := loanV c (src_rs_1_1_0 c)
/-- the receiver gets the rows its partner sent, right under the contract -/
def recv_rs_1_1_0 (ct : Contract F) (p : Dev nD) : sProp 𝕄 :=
  heldV p (dst_rs_1_1_0 (peer 1 1 p)) fullShare (fun i v => pRS ct 1 p (sh := S256x1024) i v)
/-- the sender gets its rows back -/
def send_rs_1_1_1 (ct : Contract F) (c : Dev nD) : sProp 𝕄 := loanV c (src_rs_1_1_1 c)
/-- the receiver gets the rows its partner sent, right under the contract -/
def recv_rs_1_1_1 (ct : Contract F) (p : Dev nD) : sProp 𝕄 :=
  heldV p (dst_rs_1_1_1 (peer 1 1 p)) fullShare (fun i v => pRS ct 1 p (sh := S256x1024) i v)
/-- the sender gets its rows back -/
def send_rs_1_2_0 (ct : Contract F) (c : Dev nD) : sProp 𝕄 := loanV c (src_rs_1_2_0 c)
/-- the receiver gets the rows its partner sent, right under the contract -/
def recv_rs_1_2_0 (ct : Contract F) (p : Dev nD) : sProp 𝕄 :=
  heldV p (dst_rs_1_2_0 (peer 2 1 p)) fullShare (fun i v => pRS ct 1 p (sh := S256x1024) i v)
/-- the sender gets its rows back -/
def send_rs_1_2_1 (ct : Contract F) (c : Dev nD) : sProp 𝕄 := loanV c (src_rs_1_2_1 c)
/-- the receiver gets the rows its partner sent, right under the contract -/
def recv_rs_1_2_1 (ct : Contract F) (p : Dev nD) : sProp 𝕄 :=
  heldV p (dst_rs_1_2_1 (peer 2 1 p)) fullShare (fun i v => pRS ct 1 p (sh := S256x1024) i v)
/-- the sender gets its rows back -/
def send_rs_2_0_0 (ct : Contract F) (c : Dev nD) : sProp 𝕄 := loanV c (src_rs_2_0_0 c)
/-- the receiver gets the rows its partner sent, right under the contract -/
def recv_rs_2_0_0 (ct : Contract F) (p : Dev nD) : sProp 𝕄 :=
  heldV p (dst_rs_2_0_0 (peer 0 2 p)) fullShare (fun i v => pRS ct 2 p (sh := S128x1024) i v)
/-- the sender gets its rows back -/
def send_rs_2_0_1 (ct : Contract F) (c : Dev nD) : sProp 𝕄 := loanV c (src_rs_2_0_1 c)
/-- the receiver gets the rows its partner sent, right under the contract -/
def recv_rs_2_0_1 (ct : Contract F) (p : Dev nD) : sProp 𝕄 :=
  heldV p (dst_rs_2_0_1 (peer 0 2 p)) fullShare (fun i v => pRS ct 2 p (sh := S128x1024) i v)
/-- the sender gets its rows back -/
def send_rs_2_1_0 (ct : Contract F) (c : Dev nD) : sProp 𝕄 := loanV c (src_rs_2_1_0 c)
/-- the receiver gets the rows its partner sent, right under the contract -/
def recv_rs_2_1_0 (ct : Contract F) (p : Dev nD) : sProp 𝕄 :=
  heldV p (dst_rs_2_1_0 (peer 1 2 p)) fullShare (fun i v => pRS ct 2 p (sh := S128x1024) i v)
/-- the sender gets its rows back -/
def send_rs_2_1_1 (ct : Contract F) (c : Dev nD) : sProp 𝕄 := loanV c (src_rs_2_1_1 c)
/-- the receiver gets the rows its partner sent, right under the contract -/
def recv_rs_2_1_1 (ct : Contract F) (p : Dev nD) : sProp 𝕄 :=
  heldV p (dst_rs_2_1_1 (peer 1 2 p)) fullShare (fun i v => pRS ct 2 p (sh := S128x1024) i v)
/-- the sender gets its rows back -/
def send_rs_2_2_0 (ct : Contract F) (c : Dev nD) : sProp 𝕄 := loanV c (src_rs_2_2_0 c)
/-- the receiver gets the rows its partner sent, right under the contract -/
def recv_rs_2_2_0 (ct : Contract F) (p : Dev nD) : sProp 𝕄 :=
  heldV p (dst_rs_2_2_0 (peer 2 2 p)) fullShare (fun i v => pRS ct 2 p (sh := S128x1024) i v)
/-- the sender gets its rows back -/
def send_rs_2_2_1 (ct : Contract F) (c : Dev nD) : sProp 𝕄 := loanV c (src_rs_2_2_1 c)
/-- the receiver gets the rows its partner sent, right under the contract -/
def recv_rs_2_2_1 (ct : Contract F) (p : Dev nD) : sProp 𝕄 :=
  heldV p (dst_rs_2_2_1 (peer 2 2 p)) fullShare (fun i v => pRS ct 2 p (sh := S128x1024) i v)
/-- the sender gets its rows back -/
def send_rs_3_0_0 (ct : Contract F) (c : Dev nD) : sProp 𝕄 := loanV c (src_rs_3_0_0 c)
/-- the receiver gets the rows its partner sent, right under the contract -/
def recv_rs_3_0_0 (ct : Contract F) (p : Dev nD) : sProp 𝕄 :=
  heldV p (dst_rs_3_0_0 (peer 0 3 p)) fullShare (fun i v => pRS ct 3 p (sh := S64x1024) i v)
/-- the sender gets its rows back -/
def send_rs_3_0_1 (ct : Contract F) (c : Dev nD) : sProp 𝕄 := loanV c (src_rs_3_0_1 c)
/-- the receiver gets the rows its partner sent, right under the contract -/
def recv_rs_3_0_1 (ct : Contract F) (p : Dev nD) : sProp 𝕄 :=
  heldV p (dst_rs_3_0_1 (peer 0 3 p)) fullShare (fun i v => pRS ct 3 p (sh := S64x1024) i v)
/-- the sender gets its rows back -/
def send_rs_3_1_0 (ct : Contract F) (c : Dev nD) : sProp 𝕄 := loanV c (src_rs_3_1_0 c)
/-- the receiver gets the rows its partner sent, right under the contract -/
def recv_rs_3_1_0 (ct : Contract F) (p : Dev nD) : sProp 𝕄 :=
  heldV p (dst_rs_3_1_0 (peer 1 3 p)) fullShare (fun i v => pRS ct 3 p (sh := S64x1024) i v)
/-- the sender gets its rows back -/
def send_rs_3_1_1 (ct : Contract F) (c : Dev nD) : sProp 𝕄 := loanV c (src_rs_3_1_1 c)
/-- the receiver gets the rows its partner sent, right under the contract -/
def recv_rs_3_1_1 (ct : Contract F) (p : Dev nD) : sProp 𝕄 :=
  heldV p (dst_rs_3_1_1 (peer 1 3 p)) fullShare (fun i v => pRS ct 3 p (sh := S64x1024) i v)
/-- the sender gets its rows back -/
def send_rs_3_2_0 (ct : Contract F) (c : Dev nD) : sProp 𝕄 := loanV c (src_rs_3_2_0 c)
/-- the receiver gets the rows its partner sent, right under the contract -/
def recv_rs_3_2_0 (ct : Contract F) (p : Dev nD) : sProp 𝕄 :=
  heldV p (dst_rs_3_2_0 (peer 2 3 p)) fullShare (fun i v => pRS ct 3 p (sh := S64x1024) i v)
/-- the sender gets its rows back -/
def send_rs_3_2_1 (ct : Contract F) (c : Dev nD) : sProp 𝕄 := loanV c (src_rs_3_2_1 c)
/-- the receiver gets the rows its partner sent, right under the contract -/
def recv_rs_3_2_1 (ct : Contract F) (p : Dev nD) : sProp 𝕄 :=
  heldV p (dst_rs_3_2_1 (peer 2 3 p)) fullShare (fun i v => pRS ct 3 p (sh := S64x1024) i v)
/-- the sender gets its rows back -/
def send_rs_4_0_0 (ct : Contract F) (c : Dev nD) : sProp 𝕄 := loanV c (src_rs_4_0_0 c)
/-- the receiver gets the rows its partner sent, right under the contract -/
def recv_rs_4_0_0 (ct : Contract F) (p : Dev nD) : sProp 𝕄 :=
  heldV p (dst_rs_4_0_0 (peer 0 4 p)) fullShare (fun i v => pRS ct 4 p (sh := S32x1024) i v)
/-- the sender gets its rows back -/
def send_rs_4_1_0 (ct : Contract F) (c : Dev nD) : sProp 𝕄 := loanV c (src_rs_4_1_0 c)
/-- the receiver gets the rows its partner sent, right under the contract -/
def recv_rs_4_1_0 (ct : Contract F) (p : Dev nD) : sProp 𝕄 :=
  heldV p (dst_rs_4_1_0 (peer 1 4 p)) fullShare (fun i v => pRS ct 4 p (sh := S32x1024) i v)
/-- the sender gets its rows back -/
def send_rs_4_2_0 (ct : Contract F) (c : Dev nD) : sProp 𝕄 := loanV c (src_rs_4_2_0 c)
/-- the receiver gets the rows its partner sent, right under the contract -/
def recv_rs_4_2_0 (ct : Contract F) (p : Dev nD) : sProp 𝕄 :=
  heldV p (dst_rs_4_2_0 (peer 2 4 p)) fullShare (fun i v => pRS ct 4 p (sh := S32x1024) i v)
/-- the sender gets its share of the rows back, as right as they were -/
def send_ag_4_0_0 (ct : Contract F) (c : Dev nD) : sProp 𝕄 :=
  heldV c (src_ag_4_0_0 c) (shr 4) (fun i v => pOut ct (sh := S1024x1024) i v)
/-- the receiver gets the rows of the result its partner sent -/
def recv_ag_4_0_0 (ct : Contract F) (p : Dev nD) : sProp 𝕄 :=
  heldV p (dst_ag_4_0_0 (peer 0 4 p)) fullShare (fun i v => pOut ct (sh := S1024x1024) i v)
/-- the sender gets its share of the rows back, as right as they were -/
def send_ag_4_1_0 (ct : Contract F) (c : Dev nD) : sProp 𝕄 :=
  heldV c (src_ag_4_1_0 c) (shr 4) (fun i v => pOut ct (sh := S1024x1024) i v)
/-- the receiver gets the rows of the result its partner sent -/
def recv_ag_4_1_0 (ct : Contract F) (p : Dev nD) : sProp 𝕄 :=
  heldV p (dst_ag_4_1_0 (peer 1 4 p)) fullShare (fun i v => pOut ct (sh := S1024x1024) i v)
/-- the sender gets its share of the rows back, as right as they were -/
def send_ag_4_2_0 (ct : Contract F) (c : Dev nD) : sProp 𝕄 :=
  heldV c (src_ag_4_2_0 c) (shr 4) (fun i v => pOut ct (sh := S1024x1024) i v)
/-- the receiver gets the rows of the result its partner sent -/
def recv_ag_4_2_0 (ct : Contract F) (p : Dev nD) : sProp 𝕄 :=
  heldV p (dst_ag_4_2_0 (peer 2 4 p)) fullShare (fun i v => pOut ct (sh := S1024x1024) i v)
/-- the sender gets its share of the rows back, as right as they were -/
def send_ag_3_0_0 (ct : Contract F) (c : Dev nD) : sProp 𝕄 :=
  heldV c (src_ag_3_0_0 c) (shr 3) (fun i v => pOut ct (sh := S1024x1024) i v)
/-- the receiver gets the rows of the result its partner sent -/
def recv_ag_3_0_0 (ct : Contract F) (p : Dev nD) : sProp 𝕄 :=
  heldV p (dst_ag_3_0_0 (peer 0 3 p)) fullShare (fun i v => pOut ct (sh := S1024x1024) i v)
/-- the sender gets its share of the rows back, as right as they were -/
def send_ag_3_0_1 (ct : Contract F) (c : Dev nD) : sProp 𝕄 :=
  heldV c (src_ag_3_0_1 c) (shr 3) (fun i v => pOut ct (sh := S1024x1024) i v)
/-- the receiver gets the rows of the result its partner sent -/
def recv_ag_3_0_1 (ct : Contract F) (p : Dev nD) : sProp 𝕄 :=
  heldV p (dst_ag_3_0_1 (peer 0 3 p)) fullShare (fun i v => pOut ct (sh := S1024x1024) i v)
/-- the sender gets its share of the rows back, as right as they were -/
def send_ag_3_1_0 (ct : Contract F) (c : Dev nD) : sProp 𝕄 :=
  heldV c (src_ag_3_1_0 c) (shr 3) (fun i v => pOut ct (sh := S1024x1024) i v)
/-- the receiver gets the rows of the result its partner sent -/
def recv_ag_3_1_0 (ct : Contract F) (p : Dev nD) : sProp 𝕄 :=
  heldV p (dst_ag_3_1_0 (peer 1 3 p)) fullShare (fun i v => pOut ct (sh := S1024x1024) i v)
/-- the sender gets its share of the rows back, as right as they were -/
def send_ag_3_1_1 (ct : Contract F) (c : Dev nD) : sProp 𝕄 :=
  heldV c (src_ag_3_1_1 c) (shr 3) (fun i v => pOut ct (sh := S1024x1024) i v)
/-- the receiver gets the rows of the result its partner sent -/
def recv_ag_3_1_1 (ct : Contract F) (p : Dev nD) : sProp 𝕄 :=
  heldV p (dst_ag_3_1_1 (peer 1 3 p)) fullShare (fun i v => pOut ct (sh := S1024x1024) i v)
/-- the sender gets its share of the rows back, as right as they were -/
def send_ag_3_2_0 (ct : Contract F) (c : Dev nD) : sProp 𝕄 :=
  heldV c (src_ag_3_2_0 c) (shr 3) (fun i v => pOut ct (sh := S1024x1024) i v)
/-- the receiver gets the rows of the result its partner sent -/
def recv_ag_3_2_0 (ct : Contract F) (p : Dev nD) : sProp 𝕄 :=
  heldV p (dst_ag_3_2_0 (peer 2 3 p)) fullShare (fun i v => pOut ct (sh := S1024x1024) i v)
/-- the sender gets its share of the rows back, as right as they were -/
def send_ag_3_2_1 (ct : Contract F) (c : Dev nD) : sProp 𝕄 :=
  heldV c (src_ag_3_2_1 c) (shr 3) (fun i v => pOut ct (sh := S1024x1024) i v)
/-- the receiver gets the rows of the result its partner sent -/
def recv_ag_3_2_1 (ct : Contract F) (p : Dev nD) : sProp 𝕄 :=
  heldV p (dst_ag_3_2_1 (peer 2 3 p)) fullShare (fun i v => pOut ct (sh := S1024x1024) i v)
/-- the sender gets its share of the rows back, as right as they were -/
def send_ag_2_0_0 (ct : Contract F) (c : Dev nD) : sProp 𝕄 :=
  heldV c (src_ag_2_0_0 c) (shr 2) (fun i v => pOut ct (sh := S1024x1024) i v)
/-- the receiver gets the rows of the result its partner sent -/
def recv_ag_2_0_0 (ct : Contract F) (p : Dev nD) : sProp 𝕄 :=
  heldV p (dst_ag_2_0_0 (peer 0 2 p)) fullShare (fun i v => pOut ct (sh := S1024x1024) i v)
/-- the sender gets its share of the rows back, as right as they were -/
def send_ag_2_0_1 (ct : Contract F) (c : Dev nD) : sProp 𝕄 :=
  heldV c (src_ag_2_0_1 c) (shr 2) (fun i v => pOut ct (sh := S1024x1024) i v)
/-- the receiver gets the rows of the result its partner sent -/
def recv_ag_2_0_1 (ct : Contract F) (p : Dev nD) : sProp 𝕄 :=
  heldV p (dst_ag_2_0_1 (peer 0 2 p)) fullShare (fun i v => pOut ct (sh := S1024x1024) i v)
/-- the sender gets its share of the rows back, as right as they were -/
def send_ag_2_1_0 (ct : Contract F) (c : Dev nD) : sProp 𝕄 :=
  heldV c (src_ag_2_1_0 c) (shr 2) (fun i v => pOut ct (sh := S1024x1024) i v)
/-- the receiver gets the rows of the result its partner sent -/
def recv_ag_2_1_0 (ct : Contract F) (p : Dev nD) : sProp 𝕄 :=
  heldV p (dst_ag_2_1_0 (peer 1 2 p)) fullShare (fun i v => pOut ct (sh := S1024x1024) i v)
/-- the sender gets its share of the rows back, as right as they were -/
def send_ag_2_1_1 (ct : Contract F) (c : Dev nD) : sProp 𝕄 :=
  heldV c (src_ag_2_1_1 c) (shr 2) (fun i v => pOut ct (sh := S1024x1024) i v)
/-- the receiver gets the rows of the result its partner sent -/
def recv_ag_2_1_1 (ct : Contract F) (p : Dev nD) : sProp 𝕄 :=
  heldV p (dst_ag_2_1_1 (peer 1 2 p)) fullShare (fun i v => pOut ct (sh := S1024x1024) i v)
/-- the sender gets its share of the rows back, as right as they were -/
def send_ag_2_2_0 (ct : Contract F) (c : Dev nD) : sProp 𝕄 :=
  heldV c (src_ag_2_2_0 c) (shr 2) (fun i v => pOut ct (sh := S1024x1024) i v)
/-- the receiver gets the rows of the result its partner sent -/
def recv_ag_2_2_0 (ct : Contract F) (p : Dev nD) : sProp 𝕄 :=
  heldV p (dst_ag_2_2_0 (peer 2 2 p)) fullShare (fun i v => pOut ct (sh := S1024x1024) i v)
/-- the sender gets its share of the rows back, as right as they were -/
def send_ag_2_2_1 (ct : Contract F) (c : Dev nD) : sProp 𝕄 :=
  heldV c (src_ag_2_2_1 c) (shr 2) (fun i v => pOut ct (sh := S1024x1024) i v)
/-- the receiver gets the rows of the result its partner sent -/
def recv_ag_2_2_1 (ct : Contract F) (p : Dev nD) : sProp 𝕄 :=
  heldV p (dst_ag_2_2_1 (peer 2 2 p)) fullShare (fun i v => pOut ct (sh := S1024x1024) i v)
/-- the sender gets its share of the rows back, as right as they were -/
def send_ag_1_0_0 (ct : Contract F) (c : Dev nD) : sProp 𝕄 :=
  heldV c (src_ag_1_0_0 c) (shr 1) (fun i v => pOut ct (sh := S1024x1024) i v)
/-- the receiver gets the rows of the result its partner sent -/
def recv_ag_1_0_0 (ct : Contract F) (p : Dev nD) : sProp 𝕄 :=
  heldV p (dst_ag_1_0_0 (peer 0 1 p)) fullShare (fun i v => pOut ct (sh := S1024x1024) i v)
/-- the sender gets its share of the rows back, as right as they were -/
def send_ag_1_0_1 (ct : Contract F) (c : Dev nD) : sProp 𝕄 :=
  heldV c (src_ag_1_0_1 c) (shr 1) (fun i v => pOut ct (sh := S1024x1024) i v)
/-- the receiver gets the rows of the result its partner sent -/
def recv_ag_1_0_1 (ct : Contract F) (p : Dev nD) : sProp 𝕄 :=
  heldV p (dst_ag_1_0_1 (peer 0 1 p)) fullShare (fun i v => pOut ct (sh := S1024x1024) i v)
/-- the sender gets its share of the rows back, as right as they were -/
def send_ag_1_1_0 (ct : Contract F) (c : Dev nD) : sProp 𝕄 :=
  heldV c (src_ag_1_1_0 c) (shr 1) (fun i v => pOut ct (sh := S1024x1024) i v)
/-- the receiver gets the rows of the result its partner sent -/
def recv_ag_1_1_0 (ct : Contract F) (p : Dev nD) : sProp 𝕄 :=
  heldV p (dst_ag_1_1_0 (peer 1 1 p)) fullShare (fun i v => pOut ct (sh := S1024x1024) i v)
/-- the sender gets its share of the rows back, as right as they were -/
def send_ag_1_1_1 (ct : Contract F) (c : Dev nD) : sProp 𝕄 :=
  heldV c (src_ag_1_1_1 c) (shr 1) (fun i v => pOut ct (sh := S1024x1024) i v)
/-- the receiver gets the rows of the result its partner sent -/
def recv_ag_1_1_1 (ct : Contract F) (p : Dev nD) : sProp 𝕄 :=
  heldV p (dst_ag_1_1_1 (peer 1 1 p)) fullShare (fun i v => pOut ct (sh := S1024x1024) i v)
/-- the sender gets its share of the rows back, as right as they were -/
def send_ag_1_2_0 (ct : Contract F) (c : Dev nD) : sProp 𝕄 :=
  heldV c (src_ag_1_2_0 c) (shr 1) (fun i v => pOut ct (sh := S1024x1024) i v)
/-- the receiver gets the rows of the result its partner sent -/
def recv_ag_1_2_0 (ct : Contract F) (p : Dev nD) : sProp 𝕄 :=
  heldV p (dst_ag_1_2_0 (peer 2 1 p)) fullShare (fun i v => pOut ct (sh := S1024x1024) i v)
/-- the sender gets its share of the rows back, as right as they were -/
def send_ag_1_2_1 (ct : Contract F) (c : Dev nD) : sProp 𝕄 :=
  heldV c (src_ag_1_2_1 c) (shr 1) (fun i v => pOut ct (sh := S1024x1024) i v)
/-- the receiver gets the rows of the result its partner sent -/
def recv_ag_1_2_1 (ct : Contract F) (p : Dev nD) : sProp 𝕄 :=
  heldV p (dst_ag_1_2_1 (peer 2 1 p)) fullShare (fun i v => pOut ct (sh := S1024x1024) i v)
/-- the sender gets its share of the rows back, as right as they were -/
def send_ag_0_0_0 (ct : Contract F) (c : Dev nD) : sProp 𝕄 :=
  heldV c (src_ag_0_0_0 c) (shr 0) (fun i v => pOut ct (sh := S1024x1024) i v)
/-- the receiver gets the rows of the result its partner sent -/
def recv_ag_0_0_0 (ct : Contract F) (p : Dev nD) : sProp 𝕄 :=
  heldV p (dst_ag_0_0_0 (peer 0 0 p)) fullShare (fun i v => pOut ct (sh := S1024x1024) i v)
/-- the sender gets its share of the rows back, as right as they were -/
def send_ag_0_0_1 (ct : Contract F) (c : Dev nD) : sProp 𝕄 :=
  heldV c (src_ag_0_0_1 c) (shr 0) (fun i v => pOut ct (sh := S1024x1024) i v)
/-- the receiver gets the rows of the result its partner sent -/
def recv_ag_0_0_1 (ct : Contract F) (p : Dev nD) : sProp 𝕄 :=
  heldV p (dst_ag_0_0_1 (peer 0 0 p)) fullShare (fun i v => pOut ct (sh := S1024x1024) i v)
/-- the sender gets its share of the rows back, as right as they were -/
def send_ag_0_1_0 (ct : Contract F) (c : Dev nD) : sProp 𝕄 :=
  heldV c (src_ag_0_1_0 c) (shr 0) (fun i v => pOut ct (sh := S1024x1024) i v)
/-- the receiver gets the rows of the result its partner sent -/
def recv_ag_0_1_0 (ct : Contract F) (p : Dev nD) : sProp 𝕄 :=
  heldV p (dst_ag_0_1_0 (peer 1 0 p)) fullShare (fun i v => pOut ct (sh := S1024x1024) i v)
/-- the sender gets its share of the rows back, as right as they were -/
def send_ag_0_1_1 (ct : Contract F) (c : Dev nD) : sProp 𝕄 :=
  heldV c (src_ag_0_1_1 c) (shr 0) (fun i v => pOut ct (sh := S1024x1024) i v)
/-- the receiver gets the rows of the result its partner sent -/
def recv_ag_0_1_1 (ct : Contract F) (p : Dev nD) : sProp 𝕄 :=
  heldV p (dst_ag_0_1_1 (peer 1 0 p)) fullShare (fun i v => pOut ct (sh := S1024x1024) i v)
/-- the sender gets its share of the rows back, as right as they were -/
def send_ag_0_2_0 (ct : Contract F) (c : Dev nD) : sProp 𝕄 :=
  heldV c (src_ag_0_2_0 c) (shr 0) (fun i v => pOut ct (sh := S1024x1024) i v)
/-- the receiver gets the rows of the result its partner sent -/
def recv_ag_0_2_0 (ct : Contract F) (p : Dev nD) : sProp 𝕄 :=
  heldV p (dst_ag_0_2_0 (peer 2 0 p)) fullShare (fun i v => pOut ct (sh := S1024x1024) i v)
/-- the sender gets its share of the rows back, as right as they were -/
def send_ag_0_2_1 (ct : Contract F) (c : Dev nD) : sProp 𝕄 :=
  heldV c (src_ag_0_2_1 c) (shr 0) (fun i v => pOut ct (sh := S1024x1024) i v)
/-- the receiver gets the rows of the result its partner sent -/
def recv_ag_0_2_1 (ct : Contract F) (p : Dev nD) : sProp 𝕄 :=
  heldV p (dst_ag_0_2_1 (peer 2 0 p)) fullShare (fun i v => pOut ct (sh := S1024x1024) i v)

instance (ct : Contract F) (c : Dev nD) : BI.Storable (upEmb : UEmb _ 𝕄) (send_rs_0_0_0 ct c) := by unfold send_rs_0_0_0; infer_instance
instance (ct : Contract F) (c : Dev nD) : BI.Storable (upEmb : UEmb _ 𝕄) (recv_rs_0_0_0 ct c) := by unfold recv_rs_0_0_0; infer_instance
instance (ct : Contract F) (c : Dev nD) : BI.Storable (upEmb : UEmb _ 𝕄) (send_rs_0_0_1 ct c) := by unfold send_rs_0_0_1; infer_instance
instance (ct : Contract F) (c : Dev nD) : BI.Storable (upEmb : UEmb _ 𝕄) (recv_rs_0_0_1 ct c) := by unfold recv_rs_0_0_1; infer_instance
instance (ct : Contract F) (c : Dev nD) : BI.Storable (upEmb : UEmb _ 𝕄) (send_rs_0_1_0 ct c) := by unfold send_rs_0_1_0; infer_instance
instance (ct : Contract F) (c : Dev nD) : BI.Storable (upEmb : UEmb _ 𝕄) (recv_rs_0_1_0 ct c) := by unfold recv_rs_0_1_0; infer_instance
instance (ct : Contract F) (c : Dev nD) : BI.Storable (upEmb : UEmb _ 𝕄) (send_rs_0_1_1 ct c) := by unfold send_rs_0_1_1; infer_instance
instance (ct : Contract F) (c : Dev nD) : BI.Storable (upEmb : UEmb _ 𝕄) (recv_rs_0_1_1 ct c) := by unfold recv_rs_0_1_1; infer_instance
instance (ct : Contract F) (c : Dev nD) : BI.Storable (upEmb : UEmb _ 𝕄) (send_rs_0_2_0 ct c) := by unfold send_rs_0_2_0; infer_instance
instance (ct : Contract F) (c : Dev nD) : BI.Storable (upEmb : UEmb _ 𝕄) (recv_rs_0_2_0 ct c) := by unfold recv_rs_0_2_0; infer_instance
instance (ct : Contract F) (c : Dev nD) : BI.Storable (upEmb : UEmb _ 𝕄) (send_rs_0_2_1 ct c) := by unfold send_rs_0_2_1; infer_instance
instance (ct : Contract F) (c : Dev nD) : BI.Storable (upEmb : UEmb _ 𝕄) (recv_rs_0_2_1 ct c) := by unfold recv_rs_0_2_1; infer_instance
instance (ct : Contract F) (c : Dev nD) : BI.Storable (upEmb : UEmb _ 𝕄) (send_rs_1_0_0 ct c) := by unfold send_rs_1_0_0; infer_instance
instance (ct : Contract F) (c : Dev nD) : BI.Storable (upEmb : UEmb _ 𝕄) (recv_rs_1_0_0 ct c) := by unfold recv_rs_1_0_0; infer_instance
instance (ct : Contract F) (c : Dev nD) : BI.Storable (upEmb : UEmb _ 𝕄) (send_rs_1_0_1 ct c) := by unfold send_rs_1_0_1; infer_instance
instance (ct : Contract F) (c : Dev nD) : BI.Storable (upEmb : UEmb _ 𝕄) (recv_rs_1_0_1 ct c) := by unfold recv_rs_1_0_1; infer_instance
instance (ct : Contract F) (c : Dev nD) : BI.Storable (upEmb : UEmb _ 𝕄) (send_rs_1_1_0 ct c) := by unfold send_rs_1_1_0; infer_instance
instance (ct : Contract F) (c : Dev nD) : BI.Storable (upEmb : UEmb _ 𝕄) (recv_rs_1_1_0 ct c) := by unfold recv_rs_1_1_0; infer_instance
instance (ct : Contract F) (c : Dev nD) : BI.Storable (upEmb : UEmb _ 𝕄) (send_rs_1_1_1 ct c) := by unfold send_rs_1_1_1; infer_instance
instance (ct : Contract F) (c : Dev nD) : BI.Storable (upEmb : UEmb _ 𝕄) (recv_rs_1_1_1 ct c) := by unfold recv_rs_1_1_1; infer_instance
instance (ct : Contract F) (c : Dev nD) : BI.Storable (upEmb : UEmb _ 𝕄) (send_rs_1_2_0 ct c) := by unfold send_rs_1_2_0; infer_instance
instance (ct : Contract F) (c : Dev nD) : BI.Storable (upEmb : UEmb _ 𝕄) (recv_rs_1_2_0 ct c) := by unfold recv_rs_1_2_0; infer_instance
instance (ct : Contract F) (c : Dev nD) : BI.Storable (upEmb : UEmb _ 𝕄) (send_rs_1_2_1 ct c) := by unfold send_rs_1_2_1; infer_instance
instance (ct : Contract F) (c : Dev nD) : BI.Storable (upEmb : UEmb _ 𝕄) (recv_rs_1_2_1 ct c) := by unfold recv_rs_1_2_1; infer_instance
instance (ct : Contract F) (c : Dev nD) : BI.Storable (upEmb : UEmb _ 𝕄) (send_rs_2_0_0 ct c) := by unfold send_rs_2_0_0; infer_instance
instance (ct : Contract F) (c : Dev nD) : BI.Storable (upEmb : UEmb _ 𝕄) (recv_rs_2_0_0 ct c) := by unfold recv_rs_2_0_0; infer_instance
instance (ct : Contract F) (c : Dev nD) : BI.Storable (upEmb : UEmb _ 𝕄) (send_rs_2_0_1 ct c) := by unfold send_rs_2_0_1; infer_instance
instance (ct : Contract F) (c : Dev nD) : BI.Storable (upEmb : UEmb _ 𝕄) (recv_rs_2_0_1 ct c) := by unfold recv_rs_2_0_1; infer_instance
instance (ct : Contract F) (c : Dev nD) : BI.Storable (upEmb : UEmb _ 𝕄) (send_rs_2_1_0 ct c) := by unfold send_rs_2_1_0; infer_instance
instance (ct : Contract F) (c : Dev nD) : BI.Storable (upEmb : UEmb _ 𝕄) (recv_rs_2_1_0 ct c) := by unfold recv_rs_2_1_0; infer_instance
instance (ct : Contract F) (c : Dev nD) : BI.Storable (upEmb : UEmb _ 𝕄) (send_rs_2_1_1 ct c) := by unfold send_rs_2_1_1; infer_instance
instance (ct : Contract F) (c : Dev nD) : BI.Storable (upEmb : UEmb _ 𝕄) (recv_rs_2_1_1 ct c) := by unfold recv_rs_2_1_1; infer_instance
instance (ct : Contract F) (c : Dev nD) : BI.Storable (upEmb : UEmb _ 𝕄) (send_rs_2_2_0 ct c) := by unfold send_rs_2_2_0; infer_instance
instance (ct : Contract F) (c : Dev nD) : BI.Storable (upEmb : UEmb _ 𝕄) (recv_rs_2_2_0 ct c) := by unfold recv_rs_2_2_0; infer_instance
instance (ct : Contract F) (c : Dev nD) : BI.Storable (upEmb : UEmb _ 𝕄) (send_rs_2_2_1 ct c) := by unfold send_rs_2_2_1; infer_instance
instance (ct : Contract F) (c : Dev nD) : BI.Storable (upEmb : UEmb _ 𝕄) (recv_rs_2_2_1 ct c) := by unfold recv_rs_2_2_1; infer_instance
instance (ct : Contract F) (c : Dev nD) : BI.Storable (upEmb : UEmb _ 𝕄) (send_rs_3_0_0 ct c) := by unfold send_rs_3_0_0; infer_instance
instance (ct : Contract F) (c : Dev nD) : BI.Storable (upEmb : UEmb _ 𝕄) (recv_rs_3_0_0 ct c) := by unfold recv_rs_3_0_0; infer_instance
instance (ct : Contract F) (c : Dev nD) : BI.Storable (upEmb : UEmb _ 𝕄) (send_rs_3_0_1 ct c) := by unfold send_rs_3_0_1; infer_instance
instance (ct : Contract F) (c : Dev nD) : BI.Storable (upEmb : UEmb _ 𝕄) (recv_rs_3_0_1 ct c) := by unfold recv_rs_3_0_1; infer_instance
instance (ct : Contract F) (c : Dev nD) : BI.Storable (upEmb : UEmb _ 𝕄) (send_rs_3_1_0 ct c) := by unfold send_rs_3_1_0; infer_instance
instance (ct : Contract F) (c : Dev nD) : BI.Storable (upEmb : UEmb _ 𝕄) (recv_rs_3_1_0 ct c) := by unfold recv_rs_3_1_0; infer_instance
instance (ct : Contract F) (c : Dev nD) : BI.Storable (upEmb : UEmb _ 𝕄) (send_rs_3_1_1 ct c) := by unfold send_rs_3_1_1; infer_instance
instance (ct : Contract F) (c : Dev nD) : BI.Storable (upEmb : UEmb _ 𝕄) (recv_rs_3_1_1 ct c) := by unfold recv_rs_3_1_1; infer_instance
instance (ct : Contract F) (c : Dev nD) : BI.Storable (upEmb : UEmb _ 𝕄) (send_rs_3_2_0 ct c) := by unfold send_rs_3_2_0; infer_instance
instance (ct : Contract F) (c : Dev nD) : BI.Storable (upEmb : UEmb _ 𝕄) (recv_rs_3_2_0 ct c) := by unfold recv_rs_3_2_0; infer_instance
instance (ct : Contract F) (c : Dev nD) : BI.Storable (upEmb : UEmb _ 𝕄) (send_rs_3_2_1 ct c) := by unfold send_rs_3_2_1; infer_instance
instance (ct : Contract F) (c : Dev nD) : BI.Storable (upEmb : UEmb _ 𝕄) (recv_rs_3_2_1 ct c) := by unfold recv_rs_3_2_1; infer_instance
instance (ct : Contract F) (c : Dev nD) : BI.Storable (upEmb : UEmb _ 𝕄) (send_rs_4_0_0 ct c) := by unfold send_rs_4_0_0; infer_instance
instance (ct : Contract F) (c : Dev nD) : BI.Storable (upEmb : UEmb _ 𝕄) (recv_rs_4_0_0 ct c) := by unfold recv_rs_4_0_0; infer_instance
instance (ct : Contract F) (c : Dev nD) : BI.Storable (upEmb : UEmb _ 𝕄) (send_rs_4_1_0 ct c) := by unfold send_rs_4_1_0; infer_instance
instance (ct : Contract F) (c : Dev nD) : BI.Storable (upEmb : UEmb _ 𝕄) (recv_rs_4_1_0 ct c) := by unfold recv_rs_4_1_0; infer_instance
instance (ct : Contract F) (c : Dev nD) : BI.Storable (upEmb : UEmb _ 𝕄) (send_rs_4_2_0 ct c) := by unfold send_rs_4_2_0; infer_instance
instance (ct : Contract F) (c : Dev nD) : BI.Storable (upEmb : UEmb _ 𝕄) (recv_rs_4_2_0 ct c) := by unfold recv_rs_4_2_0; infer_instance
instance (ct : Contract F) (c : Dev nD) : BI.Storable (upEmb : UEmb _ 𝕄) (send_ag_4_0_0 ct c) := by unfold send_ag_4_0_0; infer_instance
instance (ct : Contract F) (c : Dev nD) : BI.Storable (upEmb : UEmb _ 𝕄) (recv_ag_4_0_0 ct c) := by unfold recv_ag_4_0_0; infer_instance
instance (ct : Contract F) (c : Dev nD) : BI.Storable (upEmb : UEmb _ 𝕄) (send_ag_4_1_0 ct c) := by unfold send_ag_4_1_0; infer_instance
instance (ct : Contract F) (c : Dev nD) : BI.Storable (upEmb : UEmb _ 𝕄) (recv_ag_4_1_0 ct c) := by unfold recv_ag_4_1_0; infer_instance
instance (ct : Contract F) (c : Dev nD) : BI.Storable (upEmb : UEmb _ 𝕄) (send_ag_4_2_0 ct c) := by unfold send_ag_4_2_0; infer_instance
instance (ct : Contract F) (c : Dev nD) : BI.Storable (upEmb : UEmb _ 𝕄) (recv_ag_4_2_0 ct c) := by unfold recv_ag_4_2_0; infer_instance
instance (ct : Contract F) (c : Dev nD) : BI.Storable (upEmb : UEmb _ 𝕄) (send_ag_3_0_0 ct c) := by unfold send_ag_3_0_0; infer_instance
instance (ct : Contract F) (c : Dev nD) : BI.Storable (upEmb : UEmb _ 𝕄) (recv_ag_3_0_0 ct c) := by unfold recv_ag_3_0_0; infer_instance
instance (ct : Contract F) (c : Dev nD) : BI.Storable (upEmb : UEmb _ 𝕄) (send_ag_3_0_1 ct c) := by unfold send_ag_3_0_1; infer_instance
instance (ct : Contract F) (c : Dev nD) : BI.Storable (upEmb : UEmb _ 𝕄) (recv_ag_3_0_1 ct c) := by unfold recv_ag_3_0_1; infer_instance
instance (ct : Contract F) (c : Dev nD) : BI.Storable (upEmb : UEmb _ 𝕄) (send_ag_3_1_0 ct c) := by unfold send_ag_3_1_0; infer_instance
instance (ct : Contract F) (c : Dev nD) : BI.Storable (upEmb : UEmb _ 𝕄) (recv_ag_3_1_0 ct c) := by unfold recv_ag_3_1_0; infer_instance
instance (ct : Contract F) (c : Dev nD) : BI.Storable (upEmb : UEmb _ 𝕄) (send_ag_3_1_1 ct c) := by unfold send_ag_3_1_1; infer_instance
instance (ct : Contract F) (c : Dev nD) : BI.Storable (upEmb : UEmb _ 𝕄) (recv_ag_3_1_1 ct c) := by unfold recv_ag_3_1_1; infer_instance
instance (ct : Contract F) (c : Dev nD) : BI.Storable (upEmb : UEmb _ 𝕄) (send_ag_3_2_0 ct c) := by unfold send_ag_3_2_0; infer_instance
instance (ct : Contract F) (c : Dev nD) : BI.Storable (upEmb : UEmb _ 𝕄) (recv_ag_3_2_0 ct c) := by unfold recv_ag_3_2_0; infer_instance
instance (ct : Contract F) (c : Dev nD) : BI.Storable (upEmb : UEmb _ 𝕄) (send_ag_3_2_1 ct c) := by unfold send_ag_3_2_1; infer_instance
instance (ct : Contract F) (c : Dev nD) : BI.Storable (upEmb : UEmb _ 𝕄) (recv_ag_3_2_1 ct c) := by unfold recv_ag_3_2_1; infer_instance
instance (ct : Contract F) (c : Dev nD) : BI.Storable (upEmb : UEmb _ 𝕄) (send_ag_2_0_0 ct c) := by unfold send_ag_2_0_0; infer_instance
instance (ct : Contract F) (c : Dev nD) : BI.Storable (upEmb : UEmb _ 𝕄) (recv_ag_2_0_0 ct c) := by unfold recv_ag_2_0_0; infer_instance
instance (ct : Contract F) (c : Dev nD) : BI.Storable (upEmb : UEmb _ 𝕄) (send_ag_2_0_1 ct c) := by unfold send_ag_2_0_1; infer_instance
instance (ct : Contract F) (c : Dev nD) : BI.Storable (upEmb : UEmb _ 𝕄) (recv_ag_2_0_1 ct c) := by unfold recv_ag_2_0_1; infer_instance
instance (ct : Contract F) (c : Dev nD) : BI.Storable (upEmb : UEmb _ 𝕄) (send_ag_2_1_0 ct c) := by unfold send_ag_2_1_0; infer_instance
instance (ct : Contract F) (c : Dev nD) : BI.Storable (upEmb : UEmb _ 𝕄) (recv_ag_2_1_0 ct c) := by unfold recv_ag_2_1_0; infer_instance
instance (ct : Contract F) (c : Dev nD) : BI.Storable (upEmb : UEmb _ 𝕄) (send_ag_2_1_1 ct c) := by unfold send_ag_2_1_1; infer_instance
instance (ct : Contract F) (c : Dev nD) : BI.Storable (upEmb : UEmb _ 𝕄) (recv_ag_2_1_1 ct c) := by unfold recv_ag_2_1_1; infer_instance
instance (ct : Contract F) (c : Dev nD) : BI.Storable (upEmb : UEmb _ 𝕄) (send_ag_2_2_0 ct c) := by unfold send_ag_2_2_0; infer_instance
instance (ct : Contract F) (c : Dev nD) : BI.Storable (upEmb : UEmb _ 𝕄) (recv_ag_2_2_0 ct c) := by unfold recv_ag_2_2_0; infer_instance
instance (ct : Contract F) (c : Dev nD) : BI.Storable (upEmb : UEmb _ 𝕄) (send_ag_2_2_1 ct c) := by unfold send_ag_2_2_1; infer_instance
instance (ct : Contract F) (c : Dev nD) : BI.Storable (upEmb : UEmb _ 𝕄) (recv_ag_2_2_1 ct c) := by unfold recv_ag_2_2_1; infer_instance
instance (ct : Contract F) (c : Dev nD) : BI.Storable (upEmb : UEmb _ 𝕄) (send_ag_1_0_0 ct c) := by unfold send_ag_1_0_0; infer_instance
instance (ct : Contract F) (c : Dev nD) : BI.Storable (upEmb : UEmb _ 𝕄) (recv_ag_1_0_0 ct c) := by unfold recv_ag_1_0_0; infer_instance
instance (ct : Contract F) (c : Dev nD) : BI.Storable (upEmb : UEmb _ 𝕄) (send_ag_1_0_1 ct c) := by unfold send_ag_1_0_1; infer_instance
instance (ct : Contract F) (c : Dev nD) : BI.Storable (upEmb : UEmb _ 𝕄) (recv_ag_1_0_1 ct c) := by unfold recv_ag_1_0_1; infer_instance
instance (ct : Contract F) (c : Dev nD) : BI.Storable (upEmb : UEmb _ 𝕄) (send_ag_1_1_0 ct c) := by unfold send_ag_1_1_0; infer_instance
instance (ct : Contract F) (c : Dev nD) : BI.Storable (upEmb : UEmb _ 𝕄) (recv_ag_1_1_0 ct c) := by unfold recv_ag_1_1_0; infer_instance
instance (ct : Contract F) (c : Dev nD) : BI.Storable (upEmb : UEmb _ 𝕄) (send_ag_1_1_1 ct c) := by unfold send_ag_1_1_1; infer_instance
instance (ct : Contract F) (c : Dev nD) : BI.Storable (upEmb : UEmb _ 𝕄) (recv_ag_1_1_1 ct c) := by unfold recv_ag_1_1_1; infer_instance
instance (ct : Contract F) (c : Dev nD) : BI.Storable (upEmb : UEmb _ 𝕄) (send_ag_1_2_0 ct c) := by unfold send_ag_1_2_0; infer_instance
instance (ct : Contract F) (c : Dev nD) : BI.Storable (upEmb : UEmb _ 𝕄) (recv_ag_1_2_0 ct c) := by unfold recv_ag_1_2_0; infer_instance
instance (ct : Contract F) (c : Dev nD) : BI.Storable (upEmb : UEmb _ 𝕄) (send_ag_1_2_1 ct c) := by unfold send_ag_1_2_1; infer_instance
instance (ct : Contract F) (c : Dev nD) : BI.Storable (upEmb : UEmb _ 𝕄) (recv_ag_1_2_1 ct c) := by unfold recv_ag_1_2_1; infer_instance
instance (ct : Contract F) (c : Dev nD) : BI.Storable (upEmb : UEmb _ 𝕄) (send_ag_0_0_0 ct c) := by unfold send_ag_0_0_0; infer_instance
instance (ct : Contract F) (c : Dev nD) : BI.Storable (upEmb : UEmb _ 𝕄) (recv_ag_0_0_0 ct c) := by unfold recv_ag_0_0_0; infer_instance
instance (ct : Contract F) (c : Dev nD) : BI.Storable (upEmb : UEmb _ 𝕄) (send_ag_0_0_1 ct c) := by unfold send_ag_0_0_1; infer_instance
instance (ct : Contract F) (c : Dev nD) : BI.Storable (upEmb : UEmb _ 𝕄) (recv_ag_0_0_1 ct c) := by unfold recv_ag_0_0_1; infer_instance
instance (ct : Contract F) (c : Dev nD) : BI.Storable (upEmb : UEmb _ 𝕄) (send_ag_0_1_0 ct c) := by unfold send_ag_0_1_0; infer_instance
instance (ct : Contract F) (c : Dev nD) : BI.Storable (upEmb : UEmb _ 𝕄) (recv_ag_0_1_0 ct c) := by unfold recv_ag_0_1_0; infer_instance
instance (ct : Contract F) (c : Dev nD) : BI.Storable (upEmb : UEmb _ 𝕄) (send_ag_0_1_1 ct c) := by unfold send_ag_0_1_1; infer_instance
instance (ct : Contract F) (c : Dev nD) : BI.Storable (upEmb : UEmb _ 𝕄) (recv_ag_0_1_1 ct c) := by unfold recv_ag_0_1_1; infer_instance
instance (ct : Contract F) (c : Dev nD) : BI.Storable (upEmb : UEmb _ 𝕄) (send_ag_0_2_0 ct c) := by unfold send_ag_0_2_0; infer_instance
instance (ct : Contract F) (c : Dev nD) : BI.Storable (upEmb : UEmb _ 𝕄) (recv_ag_0_2_0 ct c) := by unfold recv_ag_0_2_0; infer_instance
instance (ct : Contract F) (c : Dev nD) : BI.Storable (upEmb : UEmb _ 𝕄) (send_ag_0_2_1 ct c) := by unfold send_ag_0_2_1; infer_instance
instance (ct : Contract F) (c : Dev nD) : BI.Storable (upEmb : UEmb _ 𝕄) (recv_ag_0_2_1 ct c) := by unfold recv_ag_0_2_1; infer_instance

/-- What partner number `i` of device `p` lends `p` with its handshake signal: the landing rows in its
    buffers that `p` will write. -/
def barPay (p : Dev nD) : Fin 5 → sProp 𝕄
  | 0 => iprop(loanV (peer 0 0 p) (dst_rs_0_0_0 p) ∗ loanV (peer 0 0 p) (dst_rs_0_0_1 p) ∗ loanV (peer 2 1 p) (dst_rs_1_2_0 p) ∗ loanV (peer 2 1 p) (dst_rs_1_2_1 p) ∗ loanV (peer 1 2 p) (dst_rs_2_1_0 p) ∗ loanV (peer 1 2 p) (dst_rs_2_1_1 p) ∗ loanV (peer 1 2 p) (dst_ag_2_1_0 p) ∗ loanV (peer 1 2 p) (dst_ag_2_1_1 p) ∗ loanV (peer 2 1 p) (dst_ag_1_2_0 p) ∗ loanV (peer 2 1 p) (dst_ag_1_2_1 p) ∗ loanV (peer 0 0 p) (dst_ag_0_0_0 p) ∗ loanV (peer 0 0 p) (dst_ag_0_0_1 p))
  | 1 => iprop(loanV (peer 1 0 p) (dst_rs_0_1_0 p) ∗ loanV (peer 1 0 p) (dst_rs_0_1_1 p) ∗ loanV (peer 0 1 p) (dst_rs_1_0_0 p) ∗ loanV (peer 0 1 p) (dst_rs_1_0_1 p) ∗ loanV (peer 2 2 p) (dst_rs_2_2_0 p) ∗ loanV (peer 2 2 p) (dst_rs_2_2_1 p) ∗ loanV (peer 2 2 p) (dst_ag_2_2_0 p) ∗ loanV (peer 2 2 p) (dst_ag_2_2_1 p) ∗ loanV (peer 0 1 p) (dst_ag_1_0_0 p) ∗ loanV (peer 0 1 p) (dst_ag_1_0_1 p) ∗ loanV (peer 1 0 p) (dst_ag_0_1_0 p) ∗ loanV (peer 1 0 p) (dst_ag_0_1_1 p))
  | 2 => iprop(loanV (peer 2 0 p) (dst_rs_0_2_0 p) ∗ loanV (peer 2 0 p) (dst_rs_0_2_1 p) ∗ loanV (peer 1 1 p) (dst_rs_1_1_0 p) ∗ loanV (peer 1 1 p) (dst_rs_1_1_1 p) ∗ loanV (peer 0 2 p) (dst_rs_2_0_0 p) ∗ loanV (peer 0 2 p) (dst_rs_2_0_1 p) ∗ loanV (peer 0 2 p) (dst_ag_2_0_0 p) ∗ loanV (peer 0 2 p) (dst_ag_2_0_1 p) ∗ loanV (peer 1 1 p) (dst_ag_1_1_0 p) ∗ loanV (peer 1 1 p) (dst_ag_1_1_1 p) ∗ loanV (peer 2 0 p) (dst_ag_0_2_0 p) ∗ loanV (peer 2 0 p) (dst_ag_0_2_1 p))
  | 3 => iprop(loanV (peer 0 3 p) (dst_rs_3_0_0 p) ∗ loanV (peer 0 3 p) (dst_rs_3_0_1 p) ∗ loanV (peer 1 4 p) (dst_rs_4_1_0 p) ∗ loanV (peer 2 4 p) (dst_rs_4_2_0 p) ∗ loanV (peer 1 4 p) (dst_ag_4_1_0 p) ∗ loanV (peer 2 4 p) (dst_ag_4_2_0 p) ∗ loanV (peer 0 3 p) (dst_ag_3_0_0 p) ∗ loanV (peer 0 3 p) (dst_ag_3_0_1 p))
  | 4 => iprop(loanV (peer 1 3 p) (dst_rs_3_1_0 p) ∗ loanV (peer 1 3 p) (dst_rs_3_1_1 p) ∗ loanV (peer 2 3 p) (dst_rs_3_2_0 p) ∗ loanV (peer 2 3 p) (dst_rs_3_2_1 p) ∗ loanV (peer 0 4 p) (dst_rs_4_0_0 p) ∗ loanV (peer 0 4 p) (dst_ag_4_0_0 p) ∗ loanV (peer 1 3 p) (dst_ag_3_1_0 p) ∗ loanV (peer 1 3 p) (dst_ag_3_1_1 p) ∗ loanV (peer 2 3 p) (dst_ag_3_2_0 p) ∗ loanV (peer 2 3 p) (dst_ag_3_2_1 p))

/-- The payload of the transfer cell with index `n` on device `c`. -/
def dmaPay (ct : Contract F) (c : Dev nD) (n : ℕ) : sProp 𝕄 :=
  match n with
  | 3 => send_rs_0_0_0 ct c
  | 33 => recv_rs_0_0_0 ct c
  | 4 => send_rs_0_0_1 ct c
  | 34 => recv_rs_0_0_1 ct c
  | 5 => send_rs_0_1_0 ct c
  | 35 => recv_rs_0_1_0 ct c
  | 6 => send_rs_0_1_1 ct c
  | 36 => recv_rs_0_1_1 ct c
  | 7 => send_rs_0_2_0 ct c
  | 37 => recv_rs_0_2_0 ct c
  | 8 => send_rs_0_2_1 ct c
  | 38 => recv_rs_0_2_1 ct c
  | 9 => send_rs_1_0_0 ct c
  | 39 => recv_rs_1_0_0 ct c
  | 10 => send_rs_1_0_1 ct c
  | 40 => recv_rs_1_0_1 ct c
  | 11 => send_rs_1_1_0 ct c
  | 41 => recv_rs_1_1_0 ct c
  | 12 => send_rs_1_1_1 ct c
  | 42 => recv_rs_1_1_1 ct c
  | 13 => send_rs_1_2_0 ct c
  | 43 => recv_rs_1_2_0 ct c
  | 14 => send_rs_1_2_1 ct c
  | 44 => recv_rs_1_2_1 ct c
  | 15 => send_rs_2_0_0 ct c
  | 45 => recv_rs_2_0_0 ct c
  | 16 => send_rs_2_0_1 ct c
  | 46 => recv_rs_2_0_1 ct c
  | 17 => send_rs_2_1_0 ct c
  | 47 => recv_rs_2_1_0 ct c
  | 18 => send_rs_2_1_1 ct c
  | 48 => recv_rs_2_1_1 ct c
  | 19 => send_rs_2_2_0 ct c
  | 49 => recv_rs_2_2_0 ct c
  | 20 => send_rs_2_2_1 ct c
  | 50 => recv_rs_2_2_1 ct c
  | 21 => send_rs_3_0_0 ct c
  | 51 => recv_rs_3_0_0 ct c
  | 22 => send_rs_3_0_1 ct c
  | 52 => recv_rs_3_0_1 ct c
  | 23 => send_rs_3_1_0 ct c
  | 53 => recv_rs_3_1_0 ct c
  | 24 => send_rs_3_1_1 ct c
  | 54 => recv_rs_3_1_1 ct c
  | 25 => send_rs_3_2_0 ct c
  | 55 => recv_rs_3_2_0 ct c
  | 26 => send_rs_3_2_1 ct c
  | 56 => recv_rs_3_2_1 ct c
  | 27 => send_rs_4_0_0 ct c
  | 57 => recv_rs_4_0_0 ct c
  | 29 => send_rs_4_1_0 ct c
  | 59 => recv_rs_4_1_0 ct c
  | 31 => send_rs_4_2_0 ct c
  | 61 => recv_rs_4_2_0 ct c
  | 87 => send_ag_4_0_0 ct c
  | 117 => recv_ag_4_0_0 ct c
  | 89 => send_ag_4_1_0 ct c
  | 119 => recv_ag_4_1_0 ct c
  | 91 => send_ag_4_2_0 ct c
  | 121 => recv_ag_4_2_0 ct c
  | 81 => send_ag_3_0_0 ct c
  | 111 => recv_ag_3_0_0 ct c
  | 82 => send_ag_3_0_1 ct c
  | 112 => recv_ag_3_0_1 ct c
  | 83 => send_ag_3_1_0 ct c
  | 113 => recv_ag_3_1_0 ct c
  | 84 => send_ag_3_1_1 ct c
  | 114 => recv_ag_3_1_1 ct c
  | 85 => send_ag_3_2_0 ct c
  | 115 => recv_ag_3_2_0 ct c
  | 86 => send_ag_3_2_1 ct c
  | 116 => recv_ag_3_2_1 ct c
  | 75 => send_ag_2_0_0 ct c
  | 105 => recv_ag_2_0_0 ct c
  | 76 => send_ag_2_0_1 ct c
  | 106 => recv_ag_2_0_1 ct c
  | 77 => send_ag_2_1_0 ct c
  | 107 => recv_ag_2_1_0 ct c
  | 78 => send_ag_2_1_1 ct c
  | 108 => recv_ag_2_1_1 ct c
  | 79 => send_ag_2_2_0 ct c
  | 109 => recv_ag_2_2_0 ct c
  | 80 => send_ag_2_2_1 ct c
  | 110 => recv_ag_2_2_1 ct c
  | 69 => send_ag_1_0_0 ct c
  | 99 => recv_ag_1_0_0 ct c
  | 70 => send_ag_1_0_1 ct c
  | 100 => recv_ag_1_0_1 ct c
  | 71 => send_ag_1_1_0 ct c
  | 101 => recv_ag_1_1_0 ct c
  | 72 => send_ag_1_1_1 ct c
  | 102 => recv_ag_1_1_1 ct c
  | 73 => send_ag_1_2_0 ct c
  | 103 => recv_ag_1_2_0 ct c
  | 74 => send_ag_1_2_1 ct c
  | 104 => recv_ag_1_2_1 ct c
  | 63 => send_ag_0_0_0 ct c
  | 93 => recv_ag_0_0_0 ct c
  | 64 => send_ag_0_0_1 ct c
  | 94 => recv_ag_0_0_1 ct c
  | 65 => send_ag_0_1_0 ct c
  | 95 => recv_ag_0_1_0 ct c
  | 66 => send_ag_0_1_1 ct c
  | 96 => recv_ag_0_1_1 ct c
  | 67 => send_ag_0_2_0 ct c
  | 97 => recv_ag_0_2_0 ct c
  | 68 => send_ag_0_2_1 ct c
  | 98 => recv_ag_0_2_1 ct c
  | _ => iprop(emp)

/-- The units a transfer on the cell with index `n` credits. -/
def amtIx (n : ℕ) : ℕ :=
  match n with
  | 3 => (dst_rs_0_0_0 (0 : Dev nD)).view.dmaCredit
  | 33 => (dst_rs_0_0_0 (0 : Dev nD)).view.dmaCredit
  | 4 => (dst_rs_0_0_1 (0 : Dev nD)).view.dmaCredit
  | 34 => (dst_rs_0_0_1 (0 : Dev nD)).view.dmaCredit
  | 5 => (dst_rs_0_1_0 (0 : Dev nD)).view.dmaCredit
  | 35 => (dst_rs_0_1_0 (0 : Dev nD)).view.dmaCredit
  | 6 => (dst_rs_0_1_1 (0 : Dev nD)).view.dmaCredit
  | 36 => (dst_rs_0_1_1 (0 : Dev nD)).view.dmaCredit
  | 7 => (dst_rs_0_2_0 (0 : Dev nD)).view.dmaCredit
  | 37 => (dst_rs_0_2_0 (0 : Dev nD)).view.dmaCredit
  | 8 => (dst_rs_0_2_1 (0 : Dev nD)).view.dmaCredit
  | 38 => (dst_rs_0_2_1 (0 : Dev nD)).view.dmaCredit
  | 9 => (dst_rs_1_0_0 (0 : Dev nD)).view.dmaCredit
  | 39 => (dst_rs_1_0_0 (0 : Dev nD)).view.dmaCredit
  | 10 => (dst_rs_1_0_1 (0 : Dev nD)).view.dmaCredit
  | 40 => (dst_rs_1_0_1 (0 : Dev nD)).view.dmaCredit
  | 11 => (dst_rs_1_1_0 (0 : Dev nD)).view.dmaCredit
  | 41 => (dst_rs_1_1_0 (0 : Dev nD)).view.dmaCredit
  | 12 => (dst_rs_1_1_1 (0 : Dev nD)).view.dmaCredit
  | 42 => (dst_rs_1_1_1 (0 : Dev nD)).view.dmaCredit
  | 13 => (dst_rs_1_2_0 (0 : Dev nD)).view.dmaCredit
  | 43 => (dst_rs_1_2_0 (0 : Dev nD)).view.dmaCredit
  | 14 => (dst_rs_1_2_1 (0 : Dev nD)).view.dmaCredit
  | 44 => (dst_rs_1_2_1 (0 : Dev nD)).view.dmaCredit
  | 15 => (dst_rs_2_0_0 (0 : Dev nD)).view.dmaCredit
  | 45 => (dst_rs_2_0_0 (0 : Dev nD)).view.dmaCredit
  | 16 => (dst_rs_2_0_1 (0 : Dev nD)).view.dmaCredit
  | 46 => (dst_rs_2_0_1 (0 : Dev nD)).view.dmaCredit
  | 17 => (dst_rs_2_1_0 (0 : Dev nD)).view.dmaCredit
  | 47 => (dst_rs_2_1_0 (0 : Dev nD)).view.dmaCredit
  | 18 => (dst_rs_2_1_1 (0 : Dev nD)).view.dmaCredit
  | 48 => (dst_rs_2_1_1 (0 : Dev nD)).view.dmaCredit
  | 19 => (dst_rs_2_2_0 (0 : Dev nD)).view.dmaCredit
  | 49 => (dst_rs_2_2_0 (0 : Dev nD)).view.dmaCredit
  | 20 => (dst_rs_2_2_1 (0 : Dev nD)).view.dmaCredit
  | 50 => (dst_rs_2_2_1 (0 : Dev nD)).view.dmaCredit
  | 21 => (dst_rs_3_0_0 (0 : Dev nD)).view.dmaCredit
  | 51 => (dst_rs_3_0_0 (0 : Dev nD)).view.dmaCredit
  | 22 => (dst_rs_3_0_1 (0 : Dev nD)).view.dmaCredit
  | 52 => (dst_rs_3_0_1 (0 : Dev nD)).view.dmaCredit
  | 23 => (dst_rs_3_1_0 (0 : Dev nD)).view.dmaCredit
  | 53 => (dst_rs_3_1_0 (0 : Dev nD)).view.dmaCredit
  | 24 => (dst_rs_3_1_1 (0 : Dev nD)).view.dmaCredit
  | 54 => (dst_rs_3_1_1 (0 : Dev nD)).view.dmaCredit
  | 25 => (dst_rs_3_2_0 (0 : Dev nD)).view.dmaCredit
  | 55 => (dst_rs_3_2_0 (0 : Dev nD)).view.dmaCredit
  | 26 => (dst_rs_3_2_1 (0 : Dev nD)).view.dmaCredit
  | 56 => (dst_rs_3_2_1 (0 : Dev nD)).view.dmaCredit
  | 27 => (dst_rs_4_0_0 (0 : Dev nD)).view.dmaCredit
  | 57 => (dst_rs_4_0_0 (0 : Dev nD)).view.dmaCredit
  | 29 => (dst_rs_4_1_0 (0 : Dev nD)).view.dmaCredit
  | 59 => (dst_rs_4_1_0 (0 : Dev nD)).view.dmaCredit
  | 31 => (dst_rs_4_2_0 (0 : Dev nD)).view.dmaCredit
  | 61 => (dst_rs_4_2_0 (0 : Dev nD)).view.dmaCredit
  | 87 => (dst_ag_4_0_0 (0 : Dev nD)).view.dmaCredit
  | 117 => (dst_ag_4_0_0 (0 : Dev nD)).view.dmaCredit
  | 89 => (dst_ag_4_1_0 (0 : Dev nD)).view.dmaCredit
  | 119 => (dst_ag_4_1_0 (0 : Dev nD)).view.dmaCredit
  | 91 => (dst_ag_4_2_0 (0 : Dev nD)).view.dmaCredit
  | 121 => (dst_ag_4_2_0 (0 : Dev nD)).view.dmaCredit
  | 81 => (dst_ag_3_0_0 (0 : Dev nD)).view.dmaCredit
  | 111 => (dst_ag_3_0_0 (0 : Dev nD)).view.dmaCredit
  | 82 => (dst_ag_3_0_1 (0 : Dev nD)).view.dmaCredit
  | 112 => (dst_ag_3_0_1 (0 : Dev nD)).view.dmaCredit
  | 83 => (dst_ag_3_1_0 (0 : Dev nD)).view.dmaCredit
  | 113 => (dst_ag_3_1_0 (0 : Dev nD)).view.dmaCredit
  | 84 => (dst_ag_3_1_1 (0 : Dev nD)).view.dmaCredit
  | 114 => (dst_ag_3_1_1 (0 : Dev nD)).view.dmaCredit
  | 85 => (dst_ag_3_2_0 (0 : Dev nD)).view.dmaCredit
  | 115 => (dst_ag_3_2_0 (0 : Dev nD)).view.dmaCredit
  | 86 => (dst_ag_3_2_1 (0 : Dev nD)).view.dmaCredit
  | 116 => (dst_ag_3_2_1 (0 : Dev nD)).view.dmaCredit
  | 75 => (dst_ag_2_0_0 (0 : Dev nD)).view.dmaCredit
  | 105 => (dst_ag_2_0_0 (0 : Dev nD)).view.dmaCredit
  | 76 => (dst_ag_2_0_1 (0 : Dev nD)).view.dmaCredit
  | 106 => (dst_ag_2_0_1 (0 : Dev nD)).view.dmaCredit
  | 77 => (dst_ag_2_1_0 (0 : Dev nD)).view.dmaCredit
  | 107 => (dst_ag_2_1_0 (0 : Dev nD)).view.dmaCredit
  | 78 => (dst_ag_2_1_1 (0 : Dev nD)).view.dmaCredit
  | 108 => (dst_ag_2_1_1 (0 : Dev nD)).view.dmaCredit
  | 79 => (dst_ag_2_2_0 (0 : Dev nD)).view.dmaCredit
  | 109 => (dst_ag_2_2_0 (0 : Dev nD)).view.dmaCredit
  | 80 => (dst_ag_2_2_1 (0 : Dev nD)).view.dmaCredit
  | 110 => (dst_ag_2_2_1 (0 : Dev nD)).view.dmaCredit
  | 69 => (dst_ag_1_0_0 (0 : Dev nD)).view.dmaCredit
  | 99 => (dst_ag_1_0_0 (0 : Dev nD)).view.dmaCredit
  | 70 => (dst_ag_1_0_1 (0 : Dev nD)).view.dmaCredit
  | 100 => (dst_ag_1_0_1 (0 : Dev nD)).view.dmaCredit
  | 71 => (dst_ag_1_1_0 (0 : Dev nD)).view.dmaCredit
  | 101 => (dst_ag_1_1_0 (0 : Dev nD)).view.dmaCredit
  | 72 => (dst_ag_1_1_1 (0 : Dev nD)).view.dmaCredit
  | 102 => (dst_ag_1_1_1 (0 : Dev nD)).view.dmaCredit
  | 73 => (dst_ag_1_2_0 (0 : Dev nD)).view.dmaCredit
  | 103 => (dst_ag_1_2_0 (0 : Dev nD)).view.dmaCredit
  | 74 => (dst_ag_1_2_1 (0 : Dev nD)).view.dmaCredit
  | 104 => (dst_ag_1_2_1 (0 : Dev nD)).view.dmaCredit
  | 63 => (dst_ag_0_0_0 (0 : Dev nD)).view.dmaCredit
  | 93 => (dst_ag_0_0_0 (0 : Dev nD)).view.dmaCredit
  | 64 => (dst_ag_0_0_1 (0 : Dev nD)).view.dmaCredit
  | 94 => (dst_ag_0_0_1 (0 : Dev nD)).view.dmaCredit
  | 65 => (dst_ag_0_1_0 (0 : Dev nD)).view.dmaCredit
  | 95 => (dst_ag_0_1_0 (0 : Dev nD)).view.dmaCredit
  | 66 => (dst_ag_0_1_1 (0 : Dev nD)).view.dmaCredit
  | 96 => (dst_ag_0_1_1 (0 : Dev nD)).view.dmaCredit
  | 67 => (dst_ag_0_2_0 (0 : Dev nD)).view.dmaCredit
  | 97 => (dst_ag_0_2_0 (0 : Dev nD)).view.dmaCredit
  | 68 => (dst_ag_0_2_1 (0 : Dev nD)).view.dmaCredit
  | 98 => (dst_ag_0_2_1 (0 : Dev nD)).view.dmaCredit
  | _ => 1

/-- Whether the cell with index `n` carries a transfer at all. -/
def usedIx (n : ℕ) : Bool :=
  match n with
  | 3 | 33 | 4 | 34 | 5 | 35 | 6 | 36 | 7 | 37 | 8 | 38 | 9 | 39 | 10 | 40 | 11 | 41 | 12 | 42 | 13 | 43 | 14 | 44 | 15 | 45 | 16 | 46 | 17 | 47 | 18 | 48 | 19 | 49 | 20 | 50 | 21 | 51 | 22 | 52 | 23 | 53 | 24 | 54 | 25 | 55 | 26 | 56 | 27 | 57 | 29 | 59 | 31 | 61 | 87 | 117 | 89 | 119 | 91 | 121 | 81 | 111 | 82 | 112 | 83 | 113 | 84 | 114 | 85 | 115 | 86 | 116 | 75 | 105 | 76 | 106 | 77 | 107 | 78 | 108 | 79 | 109 | 80 | 110 | 69 | 99 | 70 | 100 | 71 | 101 | 72 | 102 | 73 | 103 | 74 | 104 | 63 | 93 | 64 | 94 | 65 | 95 | 66 | 96 | 67 | 97 | 68 | 98 => true
  | _ => false

end Cert.Kernel.PayTab

end
-- ==== Proof.SchedK.lean ====
/-
  The schedule of the exchange: which semaphore expects what, from whom, carrying what.

  Every cell has ONE round. A device's handshake cell expects five signals of one unit, one from each
  partner, each lending the landing rows that partner's buffers offer; a transfer cell expects the one
  transfer that names it, whose payload is the rows it moved (to the receiver: right under the
  contract; to the sender: its own rows back).
-/
import proofs.«900879_g7700000000000880_dist_matmul_gelu_kshard_i_m1024_n1024_k512_v7x_i32_bf16_1_alg».proof.Proof.Gen.Kernel
import proofs.«900879_g7700000000000880_dist_matmul_gelu_kshard_i_m1024_n1024_k512_v7x_i32_bf16_1_alg».proof.Proof.Gen.Kernel.Skeleton
import proofs.«900879_g7700000000000880_dist_matmul_gelu_kshard_i_m1024_n1024_k512_v7x_i32_bf16_1_alg».proof.Proof.Gen.Kernel.Launch
import proofs.«900879_g7700000000000880_dist_matmul_gelu_kshard_i_m1024_n1024_k512_v7x_i32_bf16_1_alg».proof.Proof.Gen.Kernel.Points
import proofs.«900879_g7700000000000880_dist_matmul_gelu_kshard_i_m1024_n1024_k512_v7x_i32_bf16_1_alg».proof.Proof.Gen.Kernel.Frame
import Idealize.ShloMosaic.Lib.Pipeline.Launch
import Idealize.ShloMosaic.Lib.Pipeline.Kit
import Idealize.ShloMosaic.Lib.Rounds
import Idealize.ShloMosaic.Lib.Tactic
import proofs.«900879_g7700000000000880_dist_matmul_gelu_kshard_i_m1024_n1024_k512_v7x_i32_bf16_1_alg».proof.Proof.PayTabK

noncomputable section

namespace Cert.Kernel.Sched

open Cert.Kernel Cert.Kernel.Gen Cert.Kernel.Proto Cert.Kernel.Tab Cert.Kernel.Held Cert.Kernel.PayTab
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ct : Contract F)

/-- The duties of a cell: the five partners' signals on a TensorCore's handshake cell, the one transfer
    on a transfer cell in use. -/
def dutiesOf (g : GSem nD τ sig) : Finset (Fin 5) :=
  if g.1.2 = .tc then
    (match g.2 with
      | .reg s => if s = barS then Finset.univ else ∅
      | .dma q => if usedIx q.val = true then {0} else ∅)
  else ∅

def amountOfCell (g : GSem nD τ sig) : ℕ :=
  match g.2 with
  | .reg _ => 1
  | .dma q => amtIx q.val

def payloadOf (g : GSem nD τ sig) (d : Fin 5) : sProp 𝕄 :=
  match g.2 with
  | .reg _ => barPay g.1.1 d
  | .dma q => dmaPay ct g.1.1 q.val

theorem amtIx_pos (n : ℕ) : 0 < amtIx n := by
  unfold amtIx
  split <;> first | exact Nat.one_pos | exact View.dmaCredit_pos _ (by decide)

/-- One round, round 0. -/
def sched : Rounds.Schedule (GSem nD τ sig) (Fin 5) 𝕄 where
  duties g r := if r = 0 then dutiesOf g else ∅
  amount g _ _ := amountOfCell g
  payload g _ d := payloadOf ct g d
  amount_pos g _ _ _ := by
    unfold amountOfCell
    split
    · exact Nat.one_pos
    · exact amtIx_pos _

theorem duties_later (g : GSem nD τ sig) : ∀ r, 1 ≤ r → (sched ct).duties g r = ∅ :=
  fun r hr => by dsimp only [sched]; rw [if_neg (by omega)]

section Tables
variable (c : Dev nD)

theorem duties_bar : (sched ct).duties (barCell c) 0 = Finset.univ := by
  dsimp only [sched]; rw [if_pos rfl]; unfold dutiesOf; rw [if_pos rfl]; exact if_pos rfl

theorem duties_dma (a : Fin 4) (s : Fin 5) (k : Fin 3) (j : Fin 2) (h : usedIx (dsem a s k j).val = true) :
    (sched ct).duties (dcell c a s k j) 0 = {0} := by
  dsimp only [sched]; rw [if_pos rfl]; unfold dutiesOf; rw [if_pos rfl]; exact if_pos h

theorem amount_bar (d : Fin 5) : (sched ct).amount (barCell c) 0 d = 1 := rfl
theorem amount_dma (a : Fin 4) (s : Fin 5) (k : Fin 3) (j : Fin 2) (d : Fin 5) :
    (sched ct).amount (dcell c a s k j) 0 d = amtIx (dsem a s k j).val := rfl

theorem expect_bar : (sched ct).expect (barCell c) 0 = 5 := by
  unfold Schedule.expect Schedule.amountOf
  rw [duties_bar, Finset.sum_congr rfl fun d _ => amount_bar ct c d, Finset.sum_const, Finset.card_univ, Fintype.card_fin, smul_eq_mul]

theorem expect_dma (a : Fin 4) (s : Fin 5) (k : Fin 3) (j : Fin 2) (h : usedIx (dsem a s k j).val = true) :
    (sched ct).expect (dcell c a s k j) 0 = amtIx (dsem a s k j).val := by
  unfold Schedule.expect Schedule.amountOf; rw [duties_dma ct c a s k j h, Finset.sum_singleton, amount_dma]

theorem payload_bar (d : Fin 5) : (sched ct).payload (barCell c) 0 d = barPay c d := rfl
theorem payload_dma (a : Fin 4) (s : Fin 5) (k : Fin 3) (j : Fin 2) (d : Fin 5) :
    (sched ct).payload (dcell c a s k j) 0 d = dmaPay ct c (dsem a s k j).val := rfl

/-- The rest of a transfer cell's round, nothing taken: its one payload. -/
theorem rest_dma (a : Fin 4) (s : Fin 5) (k : Fin 3) (j : Fin 2) (h : usedIx (dsem a s k j).val = true) :
    bigSep ((sched ct).duties (dcell c a s k j) 0 \ ∅) (fun d => (sched ct).payload (dcell c a s k j) 0 d)
      = dmaPay ct c (dsem a s k j).val := by
  rw [Finset.sdiff_empty, duties_dma ct c a s k j h, bigSep_singleton, payload_dma]

/-- The rest of the handshake cell's round, nothing taken: the five partners' loans. -/
theorem rest_bar :
    bigSep ((sched ct).duties (barCell c) 0 \ ∅) (fun d => (sched ct).payload (barCell c) 0 d)
      = iprop(barPay (F := F) c 0 ∗ barPay c 1 ∗ barPay c 2 ∗ barPay c 3 ∗ barPay c 4) := by
  rw [Finset.sdiff_empty, duties_bar, bigSep_univ_eq_bigSepL [(0 : Fin 5), 1, 2, 3, 4] (by decide) (by decide)]
  simp only [bigSepL_cons_cons, bigSepL_singleton, payload_bar]
  rfl

end Tables

instance sched_payload_storable (g : GSem nD τ sig) (r : ℕ) (d : Fin 5) :
    BI.Storable (upEmb : UEmb _ 𝕄) ((sched ct).payload g r d) := by
  show BI.Storable upEmb (payloadOf ct g d)
  unfold payloadOf
  split
  · unfold barPay; split <;> infer_instance
  · unfold dmaPay; split <;> infer_instance

end Cert.Kernel.Sched

end
-- ==== Proof.GhostTabK.lean ====
import proofs.«900879_g7700000000000880_dist_matmul_gelu_kshard_i_m1024_n1024_k512_v7x_i32_bf16_1_alg».proof.Proof.SchedK

noncomputable section

namespace Cert.Kernel.GhostTab

open Cert.Kernel Cert.Kernel.Gen Cert.Kernel.Proto Cert.Kernel.Held Cert.Kernel.PayTab
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

local notation "𝕄" => MT nD τ sig Unit (Elt F) ℕ UU ℕ

/-- The tokens of the five handshake duties device `c` pays: duty `i` of partner `i`'s cell. -/
def barToks (c : Dev nD) : sProp 𝕄 :=
  iprop(dutyTok ER (barCell (xr c (hmask 0))) 0 0 ∗ dutyTok ER (barCell (xr c (hmask 1))) 0 1 ∗ dutyTok ER (barCell (xr c (hmask 2))) 0 2 ∗ dutyTok ER (barCell (xr c (hmask 3))) 0 3 ∗ dutyTok ER (barCell (xr c (hmask 4))) 0 4)

/-- Per transfer, in program order: the token of its own send cell's duty and of its partner's receive cell's duty. -/
def xferToks (c : Dev nD) : sProp 𝕄 :=
  iprop((dutyTok ER (dcell c 0 0 0 0) 0 0 ∗ dutyTok ER (dcell (peer 0 0 c) 1 0 0 0) 0 0)
    ∗ (dutyTok ER (dcell c 0 0 0 1) 0 0 ∗ dutyTok ER (dcell (peer 0 0 c) 1 0 0 1) 0 0)
    ∗ (dutyTok ER (dcell c 0 0 1 0) 0 0 ∗ dutyTok ER (dcell (peer 1 0 c) 1 0 1 0) 0 0)
    ∗ (dutyTok ER (dcell c 0 0 1 1) 0 0 ∗ dutyTok ER (dcell (peer 1 0 c) 1 0 1 1) 0 0)
    ∗ (dutyTok ER (dcell c 0 0 2 0) 0 0 ∗ dutyTok ER (dcell (peer 2 0 c) 1 0 2 0) 0 0)
    ∗ (dutyTok ER (dcell c 0 0 2 1) 0 0 ∗ dutyTok ER (dcell (peer 2 0 c) 1 0 2 1) 0 0)
    ∗ (dutyTok ER (dcell c 0 1 0 0) 0 0 ∗ dutyTok ER (dcell (peer 0 1 c) 1 1 0 0) 0 0)
    ∗ (dutyTok ER (dcell c 0 1 0 1) 0 0 ∗ dutyTok ER (dcell (peer 0 1 c) 1 1 0 1) 0 0)
    ∗ (dutyTok ER (dcell c 0 1 1 0) 0 0 ∗ dutyTok ER (dcell (peer 1 1 c) 1 1 1 0) 0 0)
    ∗ (dutyTok ER (dcell c 0 1 1 1) 0 0 ∗ dutyTok ER (dcell (peer 1 1 c) 1 1 1 1) 0 0)
    ∗ (dutyTok ER (dcell c 0 1 2 0) 0 0 ∗ dutyTok ER (dcell (peer 2 1 c) 1 1 2 0) 0 0)
    ∗ (dutyTok ER (dcell c 0 1 2 1) 0 0 ∗ dutyTok ER (dcell (peer 2 1 c) 1 1 2 1) 0 0)
    ∗ (dutyTok ER (dcell c 0 2 0 0) 0 0 ∗ dutyTok ER (dcell (peer 0 2 c) 1 2 0 0) 0 0)
    ∗ (dutyTok ER (dcell c 0 2 0 1) 0 0 ∗ dutyTok ER (dcell (peer 0 2 c) 1 2 0 1) 0 0)
    ∗ (dutyTok ER (dcell c 0 2 1 0) 0 0 ∗ dutyTok ER (dcell (peer 1 2 c) 1 2 1 0) 0 0)
    ∗ (dutyTok ER (dcell c 0 2 1 1) 0 0 ∗ dutyTok ER (dcell (peer 1 2 c) 1 2 1 1) 0 0)
    ∗ (dutyTok ER (dcell c 0 2 2 0) 0 0 ∗ dutyTok ER (dcell (peer 2 2 c) 1 2 2 0) 0 0)
    ∗ (dutyTok ER (dcell c 0 2 2 1) 0 0 ∗ dutyTok ER (dcell (peer 2 2 c) 1 2 2 1) 0 0)
    ∗ (dutyTok ER (dcell c 0 3 0 0) 0 0 ∗ dutyTok ER (dcell (peer 0 3 c) 1 3 0 0) 0 0)
    ∗ (dutyTok ER (dcell c 0 3 0 1) 0 0 ∗ dutyTok ER (dcell (peer 0 3 c) 1 3 0 1) 0 0)
    ∗ (dutyTok ER (dcell c 0 3 1 0) 0 0 ∗ dutyTok ER (dcell (peer 1 3 c) 1 3 1 0) 0 0)
    ∗ (dutyTok ER (dcell c 0 3 1 1) 0 0 ∗ dutyTok ER (dcell (peer 1 3 c) 1 3 1 1) 0 0)
    ∗ (dutyTok ER (dcell c 0 3 2 0) 0 0 ∗ dutyTok ER (dcell (peer 2 3 c) 1 3 2 0) 0 0)
    ∗ (dutyTok ER (dcell c 0 3 2 1) 0 0 ∗ dutyTok ER (dcell (peer 2 3 c) 1 3 2 1) 0 0)
    ∗ (dutyTok ER (dcell c 0 4 0 0) 0 0 ∗ dutyTok ER (dcell (peer 0 4 c) 1 4 0 0) 0 0)
    ∗ (dutyTok ER (dcell c 0 4 1 0) 0 0 ∗ dutyTok ER (dcell (peer 1 4 c) 1 4 1 0) 0 0)
    ∗ (dutyTok ER (dcell c 0 4 2 0) 0 0 ∗ dutyTok ER (dcell (peer 2 4 c) 1 4 2 0) 0 0)
    ∗ (dutyTok ER (dcell c 2 4 0 0) 0 0 ∗ dutyTok ER (dcell (peer 0 4 c) 3 4 0 0) 0 0)
    ∗ (dutyTok ER (dcell c 2 4 1 0) 0 0 ∗ dutyTok ER (dcell (peer 1 4 c) 3 4 1 0) 0 0)
    ∗ (dutyTok ER (dcell c 2 4 2 0) 0 0 ∗ dutyTok ER (dcell (peer 2 4 c) 3 4 2 0) 0 0)
    ∗ (dutyTok ER (dcell c 2 3 0 0) 0 0 ∗ dutyTok ER (dcell (peer 0 3 c) 3 3 0 0) 0 0)
    ∗ (dutyTok ER (dcell c 2 3 0 1) 0 0 ∗ dutyTok ER (dcell (peer 0 3 c) 3 3 0 1) 0 0)
    ∗ (dutyTok ER (dcell c 2 3 1 0) 0 0 ∗ dutyTok ER (dcell (peer 1 3 c) 3 3 1 0) 0 0)
    ∗ (dutyTok ER (dcell c 2 3 1 1) 0 0 ∗ dutyTok ER (dcell (peer 1 3 c) 3 3 1 1) 0 0)
    ∗ (dutyTok ER (dcell c 2 3 2 0) 0 0 ∗ dutyTok ER (dcell (peer 2 3 c) 3 3 2 0) 0 0)
    ∗ (dutyTok ER (dcell c 2 3 2 1) 0 0 ∗ dutyTok ER (dcell (peer 2 3 c) 3 3 2 1) 0 0)
    ∗ (dutyTok ER (dcell c 2 2 0 0) 0 0 ∗ dutyTok ER (dcell (peer 0 2 c) 3 2 0 0) 0 0)
    ∗ (dutyTok ER (dcell c 2 2 0 1) 0 0 ∗ dutyTok ER (dcell (peer 0 2 c) 3 2 0 1) 0 0)
    ∗ (dutyTok ER (dcell c 2 2 1 0) 0 0 ∗ dutyTok ER (dcell (peer 1 2 c) 3 2 1 0) 0 0)
    ∗ (dutyTok ER (dcell c 2 2 1 1) 0 0 ∗ dutyTok ER (dcell (peer 1 2 c) 3 2 1 1) 0 0)
    ∗ (dutyTok ER (dcell c 2 2 2 0) 0 0 ∗ dutyTok ER (dcell (peer 2 2 c) 3 2 2 0) 0 0)
    ∗ (dutyTok ER (dcell c 2 2 2 1) 0 0 ∗ dutyTok ER (dcell (peer 2 2 c) 3 2 2 1) 0 0)
    ∗ (dutyTok ER (dcell c 2 1 0 0) 0 0 ∗ dutyTok ER (dcell (peer 0 1 c) 3 1 0 0) 0 0)
    ∗ (dutyTok ER (dcell c 2 1 0 1) 0 0 ∗ dutyTok ER (dcell (peer 0 1 c) 3 1 0 1) 0 0)
    ∗ (dutyTok ER (dcell c 2 1 1 0) 0 0 ∗ dutyTok ER (dcell (peer 1 1 c) 3 1 1 0) 0 0)
    ∗ (dutyTok ER (dcell c 2 1 1 1) 0 0 ∗ dutyTok ER (dcell (peer 1 1 c) 3 1 1 1) 0 0)
    ∗ (dutyTok ER (dcell c 2 1 2 0) 0 0 ∗ dutyTok ER (dcell (peer 2 1 c) 3 1 2 0) 0 0)
    ∗ (dutyTok ER (dcell c 2 1 2 1) 0 0 ∗ dutyTok ER (dcell (peer 2 1 c) 3 1 2 1) 0 0)
    ∗ (dutyTok ER (dcell c 2 0 0 0) 0 0 ∗ dutyTok ER (dcell (peer 0 0 c) 3 0 0 0) 0 0)
    ∗ (dutyTok ER (dcell c 2 0 0 1) 0 0 ∗ dutyTok ER (dcell (peer 0 0 c) 3 0 0 1) 0 0)
    ∗ (dutyTok ER (dcell c 2 0 1 0) 0 0 ∗ dutyTok ER (dcell (peer 1 0 c) 3 0 1 0) 0 0)
    ∗ (dutyTok ER (dcell c 2 0 1 1) 0 0 ∗ dutyTok ER (dcell (peer 1 0 c) 3 0 1 1) 0 0)
    ∗ (dutyTok ER (dcell c 2 0 2 0) 0 0 ∗ dutyTok ER (dcell (peer 2 0 c) 3 0 2 0) 0 0)
    ∗ (dutyTok ER (dcell c 2 0 2 1) 0 0 ∗ dutyTok ER (dcell (peer 2 0 c) 3 0 2 1) 0 0))

/-- Its positions: on its handshake cell and, per transfer, on its own send and receive cells. -/
def positions (c : Dev nD) : sProp 𝕄 :=
  iprop(atPos ER (barCell c) 0 ∅ 0
    ∗ (atPos ER (dcell c 0 0 0 0) 0 ∅ 0 ∗ atPos ER (dcell c 1 0 0 0) 0 ∅ 0)
    ∗ (atPos ER (dcell c 0 0 0 1) 0 ∅ 0 ∗ atPos ER (dcell c 1 0 0 1) 0 ∅ 0)
    ∗ (atPos ER (dcell c 0 0 1 0) 0 ∅ 0 ∗ atPos ER (dcell c 1 0 1 0) 0 ∅ 0)
    ∗ (atPos ER (dcell c 0 0 1 1) 0 ∅ 0 ∗ atPos ER (dcell c 1 0 1 1) 0 ∅ 0)
    ∗ (atPos ER (dcell c 0 0 2 0) 0 ∅ 0 ∗ atPos ER (dcell c 1 0 2 0) 0 ∅ 0)
    ∗ (atPos ER (dcell c 0 0 2 1) 0 ∅ 0 ∗ atPos ER (dcell c 1 0 2 1) 0 ∅ 0)
    ∗ (atPos ER (dcell c 0 1 0 0) 0 ∅ 0 ∗ atPos ER (dcell c 1 1 0 0) 0 ∅ 0)
    ∗ (atPos ER (dcell c 0 1 0 1) 0 ∅ 0 ∗ atPos ER (dcell c 1 1 0 1) 0 ∅ 0)
    ∗ (atPos ER (dcell c 0 1 1 0) 0 ∅ 0 ∗ atPos ER (dcell c 1 1 1 0) 0 ∅ 0)
    ∗ (atPos ER (dcell c 0 1 1 1) 0 ∅ 0 ∗ atPos ER (dcell c 1 1 1 1) 0 ∅ 0)
    ∗ (atPos ER (dcell c 0 1 2 0) 0 ∅ 0 ∗ atPos ER (dcell c 1 1 2 0) 0 ∅ 0)
    ∗ (atPos ER (dcell c 0 1 2 1) 0 ∅ 0 ∗ atPos ER (dcell c 1 1 2 1) 0 ∅ 0)
    ∗ (atPos ER (dcell c 0 2 0 0) 0 ∅ 0 ∗ atPos ER (dcell c 1 2 0 0) 0 ∅ 0)
    ∗ (atPos ER (dcell c 0 2 0 1) 0 ∅ 0 ∗ atPos ER (dcell c 1 2 0 1) 0 ∅ 0)
    ∗ (atPos ER (dcell c 0 2 1 0) 0 ∅ 0 ∗ atPos ER (dcell c 1 2 1 0) 0 ∅ 0)
    ∗ (atPos ER (dcell c 0 2 1 1) 0 ∅ 0 ∗ atPos ER (dcell c 1 2 1 1) 0 ∅ 0)
    ∗ (atPos ER (dcell c 0 2 2 0) 0 ∅ 0 ∗ atPos ER (dcell c 1 2 2 0) 0 ∅ 0)
    ∗ (atPos ER (dcell c 0 2 2 1) 0 ∅ 0 ∗ atPos ER (dcell c 1 2 2 1) 0 ∅ 0)
    ∗ (atPos ER (dcell c 0 3 0 0) 0 ∅ 0 ∗ atPos ER (dcell c 1 3 0 0) 0 ∅ 0)
    ∗ (atPos ER (dcell c 0 3 0 1) 0 ∅ 0 ∗ atPos ER (dcell c 1 3 0 1) 0 ∅ 0)
    ∗ (atPos ER (dcell c 0 3 1 0) 0 ∅ 0 ∗ atPos ER (dcell c 1 3 1 0) 0 ∅ 0)
    ∗ (atPos ER (dcell c 0 3 1 1) 0 ∅ 0 ∗ atPos ER (dcell c 1 3 1 1) 0 ∅ 0)
    ∗ (atPos ER (dcell c 0 3 2 0) 0 ∅ 0 ∗ atPos ER (dcell c 1 3 2 0) 0 ∅ 0)
    ∗ (atPos ER (dcell c 0 3 2 1) 0 ∅ 0 ∗ atPos ER (dcell c 1 3 2 1) 0 ∅ 0)
    ∗ (atPos ER (dcell c 0 4 0 0) 0 ∅ 0 ∗ atPos ER (dcell c 1 4 0 0) 0 ∅ 0)
    ∗ (atPos ER (dcell c 0 4 1 0) 0 ∅ 0 ∗ atPos ER (dcell c 1 4 1 0) 0 ∅ 0)
    ∗ (atPos ER (dcell c 0 4 2 0) 0 ∅ 0 ∗ atPos ER (dcell c 1 4 2 0) 0 ∅ 0)
    ∗ (atPos ER (dcell c 2 4 0 0) 0 ∅ 0 ∗ atPos ER (dcell c 3 4 0 0) 0 ∅ 0)
    ∗ (atPos ER (dcell c 2 4 1 0) 0 ∅ 0 ∗ atPos ER (dcell c 3 4 1 0) 0 ∅ 0)
    ∗ (atPos ER (dcell c 2 4 2 0) 0 ∅ 0 ∗ atPos ER (dcell c 3 4 2 0) 0 ∅ 0)
    ∗ (atPos ER (dcell c 2 3 0 0) 0 ∅ 0 ∗ atPos ER (dcell c 3 3 0 0) 0 ∅ 0)
    ∗ (atPos ER (dcell c 2 3 0 1) 0 ∅ 0 ∗ atPos ER (dcell c 3 3 0 1) 0 ∅ 0)
    ∗ (atPos ER (dcell c 2 3 1 0) 0 ∅ 0 ∗ atPos ER (dcell c 3 3 1 0) 0 ∅ 0)
    ∗ (atPos ER (dcell c 2 3 1 1) 0 ∅ 0 ∗ atPos ER (dcell c 3 3 1 1) 0 ∅ 0)
    ∗ (atPos ER (dcell c 2 3 2 0) 0 ∅ 0 ∗ atPos ER (dcell c 3 3 2 0) 0 ∅ 0)
    ∗ (atPos ER (dcell c 2 3 2 1) 0 ∅ 0 ∗ atPos ER (dcell c 3 3 2 1) 0 ∅ 0)
    ∗ (atPos ER (dcell c 2 2 0 0) 0 ∅ 0 ∗ atPos ER (dcell c 3 2 0 0) 0 ∅ 0)
    ∗ (atPos ER (dcell c 2 2 0 1) 0 ∅ 0 ∗ atPos ER (dcell c 3 2 0 1) 0 ∅ 0)
    ∗ (atPos ER (dcell c 2 2 1 0) 0 ∅ 0 ∗ atPos ER (dcell c 3 2 1 0) 0 ∅ 0)
    ∗ (atPos ER (dcell c 2 2 1 1) 0 ∅ 0 ∗ atPos ER (dcell c 3 2 1 1) 0 ∅ 0)
    ∗ (atPos ER (dcell c 2 2 2 0) 0 ∅ 0 ∗ atPos ER (dcell c 3 2 2 0) 0 ∅ 0)
    ∗ (atPos ER (dcell c 2 2 2 1) 0 ∅ 0 ∗ atPos ER (dcell c 3 2 2 1) 0 ∅ 0)
    ∗ (atPos ER (dcell c 2 1 0 0) 0 ∅ 0 ∗ atPos ER (dcell c 3 1 0 0) 0 ∅ 0)
    ∗ (atPos ER (dcell c 2 1 0 1) 0 ∅ 0 ∗ atPos ER (dcell c 3 1 0 1) 0 ∅ 0)
    ∗ (atPos ER (dcell c 2 1 1 0) 0 ∅ 0 ∗ atPos ER (dcell c 3 1 1 0) 0 ∅ 0)
    ∗ (atPos ER (dcell c 2 1 1 1) 0 ∅ 0 ∗ atPos ER (dcell c 3 1 1 1) 0 ∅ 0)
    ∗ (atPos ER (dcell c 2 1 2 0) 0 ∅ 0 ∗ atPos ER (dcell c 3 1 2 0) 0 ∅ 0)
    ∗ (atPos ER (dcell c 2 1 2 1) 0 ∅ 0 ∗ atPos ER (dcell c 3 1 2 1) 0 ∅ 0)
    ∗ (atPos ER (dcell c 2 0 0 0) 0 ∅ 0 ∗ atPos ER (dcell c 3 0 0 0) 0 ∅ 0)
    ∗ (atPos ER (dcell c 2 0 0 1) 0 ∅ 0 ∗ atPos ER (dcell c 3 0 0 1) 0 ∅ 0)
    ∗ (atPos ER (dcell c 2 0 1 0) 0 ∅ 0 ∗ atPos ER (dcell c 3 0 1 0) 0 ∅ 0)
    ∗ (atPos ER (dcell c 2 0 1 1) 0 ∅ 0 ∗ atPos ER (dcell c 3 0 1 1) 0 ∅ 0)
    ∗ (atPos ER (dcell c 2 0 2 0) 0 ∅ 0 ∗ atPos ER (dcell c 3 0 2 0) 0 ∅ 0)
    ∗ (atPos ER (dcell c 2 0 2 1) 0 ∅ 0 ∗ atPos ER (dcell c 3 0 2 1) 0 ∅ 0))

/-- The credit dealt at launch: five units on its handshake cell, a transfer's units on each receive cell. -/
def credits (c : Dev nD) : sProp 𝕄 :=
  iprop(cred (tallyAt (barCell c) () 5)
    ∗ cred (tallyAt (dcell c 1 0 0 0) () (amtIx (dsem 1 0 0 0).val))
    ∗ cred (tallyAt (dcell c 1 0 0 1) () (amtIx (dsem 1 0 0 1).val))
    ∗ cred (tallyAt (dcell c 1 0 1 0) () (amtIx (dsem 1 0 1 0).val))
    ∗ cred (tallyAt (dcell c 1 0 1 1) () (amtIx (dsem 1 0 1 1).val))
    ∗ cred (tallyAt (dcell c 1 0 2 0) () (amtIx (dsem 1 0 2 0).val))
    ∗ cred (tallyAt (dcell c 1 0 2 1) () (amtIx (dsem 1 0 2 1).val))
    ∗ cred (tallyAt (dcell c 1 1 0 0) () (amtIx (dsem 1 1 0 0).val))
    ∗ cred (tallyAt (dcell c 1 1 0 1) () (amtIx (dsem 1 1 0 1).val))
    ∗ cred (tallyAt (dcell c 1 1 1 0) () (amtIx (dsem 1 1 1 0).val))
    ∗ cred (tallyAt (dcell c 1 1 1 1) () (amtIx (dsem 1 1 1 1).val))
    ∗ cred (tallyAt (dcell c 1 1 2 0) () (amtIx (dsem 1 1 2 0).val))
    ∗ cred (tallyAt (dcell c 1 1 2 1) () (amtIx (dsem 1 1 2 1).val))
    ∗ cred (tallyAt (dcell c 1 2 0 0) () (amtIx (dsem 1 2 0 0).val))
    ∗ cred (tallyAt (dcell c 1 2 0 1) () (amtIx (dsem 1 2 0 1).val))
    ∗ cred (tallyAt (dcell c 1 2 1 0) () (amtIx (dsem 1 2 1 0).val))
    ∗ cred (tallyAt (dcell c 1 2 1 1) () (amtIx (dsem 1 2 1 1).val))
    ∗ cred (tallyAt (dcell c 1 2 2 0) () (amtIx (dsem 1 2 2 0).val))
    ∗ cred (tallyAt (dcell c 1 2 2 1) () (amtIx (dsem 1 2 2 1).val))
    ∗ cred (tallyAt (dcell c 1 3 0 0) () (amtIx (dsem 1 3 0 0).val))
    ∗ cred (tallyAt (dcell c 1 3 0 1) () (amtIx (dsem 1 3 0 1).val))
    ∗ cred (tallyAt (dcell c 1 3 1 0) () (amtIx (dsem 1 3 1 0).val))
    ∗ cred (tallyAt (dcell c 1 3 1 1) () (amtIx (dsem 1 3 1 1).val))
    ∗ cred (tallyAt (dcell c 1 3 2 0) () (amtIx (dsem 1 3 2 0).val))
    ∗ cred (tallyAt (dcell c 1 3 2 1) () (amtIx (dsem 1 3 2 1).val))
    ∗ cred (tallyAt (dcell c 1 4 0 0) () (amtIx (dsem 1 4 0 0).val))
    ∗ cred (tallyAt (dcell c 1 4 1 0) () (amtIx (dsem 1 4 1 0).val))
    ∗ cred (tallyAt (dcell c 1 4 2 0) () (amtIx (dsem 1 4 2 0).val))
    ∗ cred (tallyAt (dcell c 3 4 0 0) () (amtIx (dsem 3 4 0 0).val))
    ∗ cred (tallyAt (dcell c 3 4 1 0) () (amtIx (dsem 3 4 1 0).val))
    ∗ cred (tallyAt (dcell c 3 4 2 0) () (amtIx (dsem 3 4 2 0).val))
    ∗ cred (tallyAt (dcell c 3 3 0 0) () (amtIx (dsem 3 3 0 0).val))
    ∗ cred (tallyAt (dcell c 3 3 0 1) () (amtIx (dsem 3 3 0 1).val))
    ∗ cred (tallyAt (dcell c 3 3 1 0) () (amtIx (dsem 3 3 1 0).val))
    ∗ cred (tallyAt (dcell c 3 3 1 1) () (amtIx (dsem 3 3 1 1).val))
    ∗ cred (tallyAt (dcell c 3 3 2 0) () (amtIx (dsem 3 3 2 0).val))
    ∗ cred (tallyAt (dcell c 3 3 2 1) () (amtIx (dsem 3 3 2 1).val))
    ∗ cred (tallyAt (dcell c 3 2 0 0) () (amtIx (dsem 3 2 0 0).val))
    ∗ cred (tallyAt (dcell c 3 2 0 1) () (amtIx (dsem 3 2 0 1).val))
    ∗ cred (tallyAt (dcell c 3 2 1 0) () (amtIx (dsem 3 2 1 0).val))
    ∗ cred (tallyAt (dcell c 3 2 1 1) () (amtIx (dsem 3 2 1 1).val))
    ∗ cred (tallyAt (dcell c 3 2 2 0) () (amtIx (dsem 3 2 2 0).val))
    ∗ cred (tallyAt (dcell c 3 2 2 1) () (amtIx (dsem 3 2 2 1).val))
    ∗ cred (tallyAt (dcell c 3 1 0 0) () (amtIx (dsem 3 1 0 0).val))
    ∗ cred (tallyAt (dcell c 3 1 0 1) () (amtIx (dsem 3 1 0 1).val))
    ∗ cred (tallyAt (dcell c 3 1 1 0) () (amtIx (dsem 3 1 1 0).val))
    ∗ cred (tallyAt (dcell c 3 1 1 1) () (amtIx (dsem 3 1 1 1).val))
    ∗ cred (tallyAt (dcell c 3 1 2 0) () (amtIx (dsem 3 1 2 0).val))
    ∗ cred (tallyAt (dcell c 3 1 2 1) () (amtIx (dsem 3 1 2 1).val))
    ∗ cred (tallyAt (dcell c 3 0 0 0) () (amtIx (dsem 3 0 0 0).val))
    ∗ cred (tallyAt (dcell c 3 0 0 1) () (amtIx (dsem 3 0 0 1).val))
    ∗ cred (tallyAt (dcell c 3 0 1 0) () (amtIx (dsem 3 0 1 0).val))
    ∗ cred (tallyAt (dcell c 3 0 1 1) () (amtIx (dsem 3 0 1 1).val))
    ∗ cred (tallyAt (dcell c 3 0 2 0) () (amtIx (dsem 3 0 2 0).val))
    ∗ cred (tallyAt (dcell c 3 0 2 1) () (amtIx (dsem 3 0 2 1).val)))

/-- The twelve transfer semaphores no transfer uses (the last stage has one piece), at zero throughout. -/
def idle (c : Dev nD) : sProp 𝕄 :=
  iprop(semVal (dcell c 0 4 0 1) 0 ∗ semVal (dcell c 0 4 1 1) 0 ∗ semVal (dcell c 0 4 2 1) 0 ∗ semVal (dcell c 1 4 0 1) 0 ∗ semVal (dcell c 1 4 1 1) 0 ∗ semVal (dcell c 1 4 2 1) 0 ∗ semVal (dcell c 2 4 0 1) 0 ∗ semVal (dcell c 2 4 1 1) 0 ∗ semVal (dcell c 2 4 2 1) 0 ∗ semVal (dcell c 3 4 0 1) 0 ∗ semVal (dcell c 3 4 1 1) 0 ∗ semVal (dcell c 3 4 2 1) 0)

end Cert.Kernel.GhostTab

end
-- ==== Proof.OwedK.lean ====
/-
  What each device owes, payment by payment.

  A device pays fifty-nine times, in program order: five handshake signals of one unit, one to each
  partner's handshake cell; then the fifty-four transfers, each crediting the receive cell of the
  partner it is addressed to with the units of the block it moves — the summing phase stage by stage,
  then the gathering phase in the reverse order of stages. `owedFrom c n` is what device `c` still owes
  after its first `n` payments.

  Levels. The handshake cells sit at level 1, the summing phase's cells of stage `s` at `2 + s`, the
  gathering phase's cells of stage `s` at `11 - s`, the staging cells at 0: the levels of the payments
  never decrease along the program, so a device that waits on a cell of its own strictly below the
  next payment's level waits below everything it still owes.

  Launch credit. Every payment is addressed to the device whose index differs from the payer's by a
  fixed bit pattern, so summed over the payers each cell receives one payment per entry of the table
  that names its semaphore: five units on a handshake cell, the block's units on a receive cell in use,
  nothing anywhere else.
-/
import proofs.«900879_g7700000000000880_dist_matmul_gelu_kshard_i_m1024_n1024_k512_v7x_i32_bf16_1_alg».proof.Proof.SchedK

noncomputable section

namespace Cert.Kernel.Owed

open Cert.Kernel Cert.Kernel.Gen Cert.Kernel.Proto Cert.Kernel.PayTab
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The payments -/

/-- The fifty-nine payments of device `c`, in program order: the cell credited and the units. -/
def pays (c : Dev nD) : List (GSem nD τ sig × ℕ) :=
  [ (barCell (xr c (hmask 0)), 1),
    (barCell (xr c (hmask 1)), 1),
    (barCell (xr c (hmask 2)), 1),
    (barCell (xr c (hmask 3)), 1),
    (barCell (xr c (hmask 4)), 1),
    (dcell (peer 0 0 c) 1 0 0 0, amtIx (dsem 1 0 0 0).val),
    (dcell (peer 0 0 c) 1 0 0 1, amtIx (dsem 1 0 0 1).val),
    (dcell (peer 1 0 c) 1 0 1 0, amtIx (dsem 1 0 1 0).val),
    (dcell (peer 1 0 c) 1 0 1 1, amtIx (dsem 1 0 1 1).val),
    (dcell (peer 2 0 c) 1 0 2 0, amtIx (dsem 1 0 2 0).val),
    (dcell (peer 2 0 c) 1 0 2 1, amtIx (dsem 1 0 2 1).val),
    (dcell (peer 0 1 c) 1 1 0 0, amtIx (dsem 1 1 0 0).val),
    (dcell (peer 0 1 c) 1 1 0 1, amtIx (dsem 1 1 0 1).val),
    (dcell (peer 1 1 c) 1 1 1 0, amtIx (dsem 1 1 1 0).val),
    (dcell (peer 1 1 c) 1 1 1 1, amtIx (dsem 1 1 1 1).val),
    (dcell (peer 2 1 c) 1 1 2 0, amtIx (dsem 1 1 2 0).val),
    (dcell (peer 2 1 c) 1 1 2 1, amtIx (dsem 1 1 2 1).val),
    (dcell (peer 0 2 c) 1 2 0 0, amtIx (dsem 1 2 0 0).val),
    (dcell (peer 0 2 c) 1 2 0 1, amtIx (dsem 1 2 0 1).val),
    (dcell (peer 1 2 c) 1 2 1 0, amtIx (dsem 1 2 1 0).val),
    (dcell (peer 1 2 c) 1 2 1 1, amtIx (dsem 1 2 1 1).val),
    (dcell (peer 2 2 c) 1 2 2 0, amtIx (dsem 1 2 2 0).val),
    (dcell (peer 2 2 c) 1 2 2 1, amtIx (dsem 1 2 2 1).val),
    (dcell (peer 0 3 c) 1 3 0 0, amtIx (dsem 1 3 0 0).val),
    (dcell (peer 0 3 c) 1 3 0 1, amtIx (dsem 1 3 0 1).val),
    (dcell (peer 1 3 c) 1 3 1 0, amtIx (dsem 1 3 1 0).val),
    (dcell (peer 1 3 c) 1 3 1 1, amtIx (dsem 1 3 1 1).val),
    (dcell (peer 2 3 c) 1 3 2 0, amtIx (dsem 1 3 2 0).val),
    (dcell (peer 2 3 c) 1 3 2 1, amtIx (dsem 1 3 2 1).val),
    (dcell (peer 0 4 c) 1 4 0 0, amtIx (dsem 1 4 0 0).val),
    (dcell (peer 1 4 c) 1 4 1 0, amtIx (dsem 1 4 1 0).val),
    (dcell (peer 2 4 c) 1 4 2 0, amtIx (dsem 1 4 2 0).val),
    (dcell (peer 0 4 c) 3 4 0 0, amtIx (dsem 3 4 0 0).val),
    (dcell (peer 1 4 c) 3 4 1 0, amtIx (dsem 3 4 1 0).val),
    (dcell (peer 2 4 c) 3 4 2 0, amtIx (dsem 3 4 2 0).val),
    (dcell (peer 0 3 c) 3 3 0 0, amtIx (dsem 3 3 0 0).val),
    (dcell (peer 0 3 c) 3 3 0 1, amtIx (dsem 3 3 0 1).val),
    (dcell (peer 1 3 c) 3 3 1 0, amtIx (dsem 3 3 1 0).val),
    (dcell (peer 1 3 c) 3 3 1 1, amtIx (dsem 3 3 1 1).val),
    (dcell (peer 2 3 c) 3 3 2 0, amtIx (dsem 3 3 2 0).val),
    (dcell (peer 2 3 c) 3 3 2 1, amtIx (dsem 3 3 2 1).val),
    (dcell (peer 0 2 c) 3 2 0 0, amtIx (dsem 3 2 0 0).val),
    (dcell (peer 0 2 c) 3 2 0 1, amtIx (dsem 3 2 0 1).val),
    (dcell (peer 1 2 c) 3 2 1 0, amtIx (dsem 3 2 1 0).val),
    (dcell (peer 1 2 c) 3 2 1 1, amtIx (dsem 3 2 1 1).val),
    (dcell (peer 2 2 c) 3 2 2 0, amtIx (dsem 3 2 2 0).val),
    (dcell (peer 2 2 c) 3 2 2 1, amtIx (dsem 3 2 2 1).val),
    (dcell (peer 0 1 c) 3 1 0 0, amtIx (dsem 3 1 0 0).val),
    (dcell (peer 0 1 c) 3 1 0 1, amtIx (dsem 3 1 0 1).val),
    (dcell (peer 1 1 c) 3 1 1 0, amtIx (dsem 3 1 1 0).val),
    (dcell (peer 1 1 c) 3 1 1 1, amtIx (dsem 3 1 1 1).val),
    (dcell (peer 2 1 c) 3 1 2 0, amtIx (dsem 3 1 2 0).val),
    (dcell (peer 2 1 c) 3 1 2 1, amtIx (dsem 3 1 2 1).val),
    (dcell (peer 0 0 c) 3 0 0 0, amtIx (dsem 3 0 0 0).val),
    (dcell (peer 0 0 c) 3 0 0 1, amtIx (dsem 3 0 0 1).val),
    (dcell (peer 1 0 c) 3 0 1 0, amtIx (dsem 3 0 1 0).val),
    (dcell (peer 1 0 c) 3 0 1 1, amtIx (dsem 3 0 1 1).val),
    (dcell (peer 2 0 c) 3 0 2 0, amtIx (dsem 3 0 2 0).val),
    (dcell (peer 2 0 c) 3 0 2 1, amtIx (dsem 3 0 2 1).val) ]

/-- The tallies a list of payments adds up to. -/
def tallyOf (l : List (GSem nD τ sig × ℕ)) : CellTallies nD τ sig Unit :=
  l.foldr (fun p acc => acc + tallyAt p.1 () p.2) 0

/-- What device `c` still owes after its first `n` payments. -/
def owedFrom (c : Dev nD) (n : ℕ) : CellTallies nD τ sig Unit :=
  ((pays c).drop n).foldr (fun p acc => acc + tallyAt p.1 () p.2) 0

theorem owedFrom_eq (c : Dev nD) (n : ℕ) : owedFrom c n = tallyOf ((pays c).drop n) := rfl

theorem pays_length (c : Dev nD) : (pays c).length = 59 := rfl

/-- After the last payment nothing is owed. -/
theorem owedFrom_59 (c : Dev nD) : owedFrom c 59 = 0 := rfl

/-! ### One payment at a time -/

theorem owed_step_0 (c : Dev nD) : owedFrom c 0 = owedFrom c 1 + tallyAt (barCell (xr c (hmask 0))) () (1) := rfl
theorem owed_step_1 (c : Dev nD) : owedFrom c 1 = owedFrom c 2 + tallyAt (barCell (xr c (hmask 1))) () (1) := rfl
theorem owed_step_2 (c : Dev nD) : owedFrom c 2 = owedFrom c 3 + tallyAt (barCell (xr c (hmask 2))) () (1) := rfl
theorem owed_step_3 (c : Dev nD) : owedFrom c 3 = owedFrom c 4 + tallyAt (barCell (xr c (hmask 3))) () (1) := rfl
theorem owed_step_4 (c : Dev nD) : owedFrom c 4 = owedFrom c 5 + tallyAt (barCell (xr c (hmask 4))) () (1) := rfl
theorem owed_step_5 (c : Dev nD) : owedFrom c 5 = owedFrom c 6 + tallyAt (dcell (peer 0 0 c) 1 0 0 0) () (amtIx (dsem 1 0 0 0).val) := rfl
theorem owed_step_6 (c : Dev nD) : owedFrom c 6 = owedFrom c 7 + tallyAt (dcell (peer 0 0 c) 1 0 0 1) () (amtIx (dsem 1 0 0 1).val) := rfl
theorem owed_step_7 (c : Dev nD) : owedFrom c 7 = owedFrom c 8 + tallyAt (dcell (peer 1 0 c) 1 0 1 0) () (amtIx (dsem 1 0 1 0).val) := rfl
theorem owed_step_8 (c : Dev nD) : owedFrom c 8 = owedFrom c 9 + tallyAt (dcell (peer 1 0 c) 1 0 1 1) () (amtIx (dsem 1 0 1 1).val) := rfl
theorem owed_step_9 (c : Dev nD) : owedFrom c 9 = owedFrom c 10 + tallyAt (dcell (peer 2 0 c) 1 0 2 0) () (amtIx (dsem 1 0 2 0).val) := rfl
theorem owed_step_10 (c : Dev nD) : owedFrom c 10 = owedFrom c 11 + tallyAt (dcell (peer 2 0 c) 1 0 2 1) () (amtIx (dsem 1 0 2 1).val) := rfl
theorem owed_step_11 (c : Dev nD) : owedFrom c 11 = owedFrom c 12 + tallyAt (dcell (peer 0 1 c) 1 1 0 0) () (amtIx (dsem 1 1 0 0).val) := rfl
theorem owed_step_12 (c : Dev nD) : owedFrom c 12 = owedFrom c 13 + tallyAt (dcell (peer 0 1 c) 1 1 0 1) () (amtIx (dsem 1 1 0 1).val) := rfl
theorem owed_step_13 (c : Dev nD) : owedFrom c 13 = owedFrom c 14 + tallyAt (dcell (peer 1 1 c) 1 1 1 0) () (amtIx (dsem 1 1 1 0).val) := rfl
theorem owed_step_14 (c : Dev nD) : owedFrom c 14 = owedFrom c 15 + tallyAt (dcell (peer 1 1 c) 1 1 1 1) () (amtIx (dsem 1 1 1 1).val) := rfl
theorem owed_step_15 (c : Dev nD) : owedFrom c 15 = owedFrom c 16 + tallyAt (dcell (peer 2 1 c) 1 1 2 0) () (amtIx (dsem 1 1 2 0).val) := rfl
theorem owed_step_16 (c : Dev nD) : owedFrom c 16 = owedFrom c 17 + tallyAt (dcell (peer 2 1 c) 1 1 2 1) () (amtIx (dsem 1 1 2 1).val) := rfl
theorem owed_step_17 (c : Dev nD) : owedFrom c 17 = owedFrom c 18 + tallyAt (dcell (peer 0 2 c) 1 2 0 0) () (amtIx (dsem 1 2 0 0).val) := rfl
theorem owed_step_18 (c : Dev nD) : owedFrom c 18 = owedFrom c 19 + tallyAt (dcell (peer 0 2 c) 1 2 0 1) () (amtIx (dsem 1 2 0 1).val) := rfl
theorem owed_step_19 (c : Dev nD) : owedFrom c 19 = owedFrom c 20 + tallyAt (dcell (peer 1 2 c) 1 2 1 0) () (amtIx (dsem 1 2 1 0).val) := rfl
theorem owed_step_20 (c : Dev nD) : owedFrom c 20 = owedFrom c 21 + tallyAt (dcell (peer 1 2 c) 1 2 1 1) () (amtIx (dsem 1 2 1 1).val) := rfl
theorem owed_step_21 (c : Dev nD) : owedFrom c 21 = owedFrom c 22 + tallyAt (dcell (peer 2 2 c) 1 2 2 0) () (amtIx (dsem 1 2 2 0).val) := rfl
theorem owed_step_22 (c : Dev nD) : owedFrom c 22 = owedFrom c 23 + tallyAt (dcell (peer 2 2 c) 1 2 2 1) () (amtIx (dsem 1 2 2 1).val) := rfl
theorem owed_step_23 (c : Dev nD) : owedFrom c 23 = owedFrom c 24 + tallyAt (dcell (peer 0 3 c) 1 3 0 0) () (amtIx (dsem 1 3 0 0).val) := rfl
theorem owed_step_24 (c : Dev nD) : owedFrom c 24 = owedFrom c 25 + tallyAt (dcell (peer 0 3 c) 1 3 0 1) () (amtIx (dsem 1 3 0 1).val) := rfl
theorem owed_step_25 (c : Dev nD) : owedFrom c 25 = owedFrom c 26 + tallyAt (dcell (peer 1 3 c) 1 3 1 0) () (amtIx (dsem 1 3 1 0).val) := rfl
theorem owed_step_26 (c : Dev nD) : owedFrom c 26 = owedFrom c 27 + tallyAt (dcell (peer 1 3 c) 1 3 1 1) () (amtIx (dsem 1 3 1 1).val) := rfl
theorem owed_step_27 (c : Dev nD) : owedFrom c 27 = owedFrom c 28 + tallyAt (dcell (peer 2 3 c) 1 3 2 0) () (amtIx (dsem 1 3 2 0).val) := rfl
theorem owed_step_28 (c : Dev nD) : owedFrom c 28 = owedFrom c 29 + tallyAt (dcell (peer 2 3 c) 1 3 2 1) () (amtIx (dsem 1 3 2 1).val) := rfl
theorem owed_step_29 (c : Dev nD) : owedFrom c 29 = owedFrom c 30 + tallyAt (dcell (peer 0 4 c) 1 4 0 0) () (amtIx (dsem 1 4 0 0).val) := rfl
theorem owed_step_30 (c : Dev nD) : owedFrom c 30 = owedFrom c 31 + tallyAt (dcell (peer 1 4 c) 1 4 1 0) () (amtIx (dsem 1 4 1 0).val) := rfl
theorem owed_step_31 (c : Dev nD) : owedFrom c 31 = owedFrom c 32 + tallyAt (dcell (peer 2 4 c) 1 4 2 0) () (amtIx (dsem 1 4 2 0).val) := rfl
theorem owed_step_32 (c : Dev nD) : owedFrom c 32 = owedFrom c 33 + tallyAt (dcell (peer 0 4 c) 3 4 0 0) () (amtIx (dsem 3 4 0 0).val) := rfl
theorem owed_step_33 (c : Dev nD) : owedFrom c 33 = owedFrom c 34 + tallyAt (dcell (peer 1 4 c) 3 4 1 0) () (amtIx (dsem 3 4 1 0).val) := rfl
theorem owed_step_34 (c : Dev nD) : owedFrom c 34 = owedFrom c 35 + tallyAt (dcell (peer 2 4 c) 3 4 2 0) () (amtIx (dsem 3 4 2 0).val) := rfl
theorem owed_step_35 (c : Dev nD) : owedFrom c 35 = owedFrom c 36 + tallyAt (dcell (peer 0 3 c) 3 3 0 0) () (amtIx (dsem 3 3 0 0).val) := rfl
theorem owed_step_36 (c : Dev nD) : owedFrom c 36 = owedFrom c 37 + tallyAt (dcell (peer 0 3 c) 3 3 0 1) () (amtIx (dsem 3 3 0 1).val) := rfl
theorem owed_step_37 (c : Dev nD) : owedFrom c 37 = owedFrom c 38 + tallyAt (dcell (peer 1 3 c) 3 3 1 0) () (amtIx (dsem 3 3 1 0).val) := rfl
theorem owed_step_38 (c : Dev nD) : owedFrom c 38 = owedFrom c 39 + tallyAt (dcell (peer 1 3 c) 3 3 1 1) () (amtIx (dsem 3 3 1 1).val) := rfl
theorem owed_step_39 (c : Dev nD) : owedFrom c 39 = owedFrom c 40 + tallyAt (dcell (peer 2 3 c) 3 3 2 0) () (amtIx (dsem 3 3 2 0).val) := rfl
theorem owed_step_40 (c : Dev nD) : owedFrom c 40 = owedFrom c 41 + tallyAt (dcell (peer 2 3 c) 3 3 2 1) () (amtIx (dsem 3 3 2 1).val) := rfl
theorem owed_step_41 (c : Dev nD) : owedFrom c 41 = owedFrom c 42 + tallyAt (dcell (peer 0 2 c) 3 2 0 0) () (amtIx (dsem 3 2 0 0).val) := rfl
theorem owed_step_42 (c : Dev nD) : owedFrom c 42 = owedFrom c 43 + tallyAt (dcell (peer 0 2 c) 3 2 0 1) () (amtIx (dsem 3 2 0 1).val) := rfl
theorem owed_step_43 (c : Dev nD) : owedFrom c 43 = owedFrom c 44 + tallyAt (dcell (peer 1 2 c) 3 2 1 0) () (amtIx (dsem 3 2 1 0).val) := rfl
theorem owed_step_44 (c : Dev nD) : owedFrom c 44 = owedFrom c 45 + tallyAt (dcell (peer 1 2 c) 3 2 1 1) () (amtIx (dsem 3 2 1 1).val) := rfl
theorem owed_step_45 (c : Dev nD) : owedFrom c 45 = owedFrom c 46 + tallyAt (dcell (peer 2 2 c) 3 2 2 0) () (amtIx (dsem 3 2 2 0).val) := rfl
theorem owed_step_46 (c : Dev nD) : owedFrom c 46 = owedFrom c 47 + tallyAt (dcell (peer 2 2 c) 3 2 2 1) () (amtIx (dsem 3 2 2 1).val) := rfl
theorem owed_step_47 (c : Dev nD) : owedFrom c 47 = owedFrom c 48 + tallyAt (dcell (peer 0 1 c) 3 1 0 0) () (amtIx (dsem 3 1 0 0).val) := rfl
theorem owed_step_48 (c : Dev nD) : owedFrom c 48 = owedFrom c 49 + tallyAt (dcell (peer 0 1 c) 3 1 0 1) () (amtIx (dsem 3 1 0 1).val) := rfl
theorem owed_step_49 (c : Dev nD) : owedFrom c 49 = owedFrom c 50 + tallyAt (dcell (peer 1 1 c) 3 1 1 0) () (amtIx (dsem 3 1 1 0).val) := rfl
theorem owed_step_50 (c : Dev nD) : owedFrom c 50 = owedFrom c 51 + tallyAt (dcell (peer 1 1 c) 3 1 1 1) () (amtIx (dsem 3 1 1 1).val) := rfl
theorem owed_step_51 (c : Dev nD) : owedFrom c 51 = owedFrom c 52 + tallyAt (dcell (peer 2 1 c) 3 1 2 0) () (amtIx (dsem 3 1 2 0).val) := rfl
theorem owed_step_52 (c : Dev nD) : owedFrom c 52 = owedFrom c 53 + tallyAt (dcell (peer 2 1 c) 3 1 2 1) () (amtIx (dsem 3 1 2 1).val) := rfl
theorem owed_step_53 (c : Dev nD) : owedFrom c 53 = owedFrom c 54 + tallyAt (dcell (peer 0 0 c) 3 0 0 0) () (amtIx (dsem 3 0 0 0).val) := rfl
theorem owed_step_54 (c : Dev nD) : owedFrom c 54 = owedFrom c 55 + tallyAt (dcell (peer 0 0 c) 3 0 0 1) () (amtIx (dsem 3 0 0 1).val) := rfl
theorem owed_step_55 (c : Dev nD) : owedFrom c 55 = owedFrom c 56 + tallyAt (dcell (peer 1 0 c) 3 0 1 0) () (amtIx (dsem 3 0 1 0).val) := rfl
theorem owed_step_56 (c : Dev nD) : owedFrom c 56 = owedFrom c 57 + tallyAt (dcell (peer 1 0 c) 3 0 1 1) () (amtIx (dsem 3 0 1 1).val) := rfl
theorem owed_step_57 (c : Dev nD) : owedFrom c 57 = owedFrom c 58 + tallyAt (dcell (peer 2 0 c) 3 0 2 0) () (amtIx (dsem 3 0 2 0).val) := rfl
theorem owed_step_58 (c : Dev nD) : owedFrom c 58 = owedFrom c 59 + tallyAt (dcell (peer 2 0 c) 3 0 2 1) () (amtIx (dsem 3 0 2 1).val) := rfl

/-! ## The table behind the payments -/

/-- Each payment as the bit pattern separating the payer from the payee, and the payee's semaphore. -/
def payTab : List (Fin 32 × SemLoc sig) :=
  [ (hmask 0, .reg barS), (hmask 1, .reg barS), (hmask 2, .reg barS),
    (hmask 3, .reg barS), (hmask 4, .reg barS), (mask 0 0, .dma (dsem 1 0 0 0)),
    (mask 0 0, .dma (dsem 1 0 0 1)), (mask 1 0, .dma (dsem 1 0 1 0)), (mask 1 0, .dma (dsem 1 0 1 1)),
    (mask 2 0, .dma (dsem 1 0 2 0)), (mask 2 0, .dma (dsem 1 0 2 1)), (mask 0 1, .dma (dsem 1 1 0 0)),
    (mask 0 1, .dma (dsem 1 1 0 1)), (mask 1 1, .dma (dsem 1 1 1 0)), (mask 1 1, .dma (dsem 1 1 1 1)),
    (mask 2 1, .dma (dsem 1 1 2 0)), (mask 2 1, .dma (dsem 1 1 2 1)), (mask 0 2, .dma (dsem 1 2 0 0)),
    (mask 0 2, .dma (dsem 1 2 0 1)), (mask 1 2, .dma (dsem 1 2 1 0)), (mask 1 2, .dma (dsem 1 2 1 1)),
    (mask 2 2, .dma (dsem 1 2 2 0)), (mask 2 2, .dma (dsem 1 2 2 1)), (mask 0 3, .dma (dsem 1 3 0 0)),
    (mask 0 3, .dma (dsem 1 3 0 1)), (mask 1 3, .dma (dsem 1 3 1 0)), (mask 1 3, .dma (dsem 1 3 1 1)),
    (mask 2 3, .dma (dsem 1 3 2 0)), (mask 2 3, .dma (dsem 1 3 2 1)), (mask 0 4, .dma (dsem 1 4 0 0)),
    (mask 1 4, .dma (dsem 1 4 1 0)), (mask 2 4, .dma (dsem 1 4 2 0)), (mask 0 4, .dma (dsem 3 4 0 0)),
    (mask 1 4, .dma (dsem 3 4 1 0)), (mask 2 4, .dma (dsem 3 4 2 0)), (mask 0 3, .dma (dsem 3 3 0 0)),
    (mask 0 3, .dma (dsem 3 3 0 1)), (mask 1 3, .dma (dsem 3 3 1 0)), (mask 1 3, .dma (dsem 3 3 1 1)),
    (mask 2 3, .dma (dsem 3 3 2 0)), (mask 2 3, .dma (dsem 3 3 2 1)), (mask 0 2, .dma (dsem 3 2 0 0)),
    (mask 0 2, .dma (dsem 3 2 0 1)), (mask 1 2, .dma (dsem 3 2 1 0)), (mask 1 2, .dma (dsem 3 2 1 1)),
    (mask 2 2, .dma (dsem 3 2 2 0)), (mask 2 2, .dma (dsem 3 2 2 1)), (mask 0 1, .dma (dsem 3 1 0 0)),
    (mask 0 1, .dma (dsem 3 1 0 1)), (mask 1 1, .dma (dsem 3 1 1 0)), (mask 1 1, .dma (dsem 3 1 1 1)),
    (mask 2 1, .dma (dsem 3 1 2 0)), (mask 2 1, .dma (dsem 3 1 2 1)), (mask 0 0, .dma (dsem 3 0 0 0)),
    (mask 0 0, .dma (dsem 3 0 0 1)), (mask 1 0, .dma (dsem 3 0 1 0)), (mask 1 0, .dma (dsem 3 0 1 1)),
    (mask 2 0, .dma (dsem 3 0 2 0)), (mask 2 0, .dma (dsem 3 0 2 1)) ]

/-- The cell an entry of the table names, seen from the payer `c`. -/
def cellOf (c : Dev nD) (e : Fin 32 × SemLoc sig) : GSem nD τ sig := ((xr c e.1).tc, e.2)

/-- The units a payment to a semaphore carries: one for a signal, the block's units for a transfer. -/
def amtOf : SemLoc sig → ℕ
  | .reg _ => 1
  | .dma q => amtIx q.val

theorem pays_eq (c : Dev nD) : pays c = payTab.map fun e => (cellOf c e, amtOf e.2) := rfl

theorem payTab_length : payTab.length = 59 := rfl

/-! ## Where something is still owed -/

/-- A sum of payments is positive only at a cell one of them credits. -/
theorem tallyOf_pos {l : List (GSem nD τ sig × ℕ)} {g : GSem nD τ sig} {u : Unit} (h : 0 < tallyOf l g u) : ∃ p ∈ l, g = p.1 := by
  induction l with
  | nil => exact absurd (show (0 : ℕ) < 0 from h) (Nat.lt_irrefl 0)
  | cons p l ih =>
    rcases Pipeline.add_pos_cases (D₁ := tallyOf l) (D₂ := tallyAt p.1 () p.2) h with h | h
    · obtain ⟨q, hq, hg⟩ := ih h
      exact ⟨q, List.mem_cons_of_mem _ hq, hg⟩
    · exact ⟨p, List.mem_cons_self, (Pipeline.tallyAt_pos h).1⟩

/-- What is still owed after `n` payments is owed to a cell named by a later entry of the table. -/
theorem owed_mem {c : Dev nD} {n : ℕ} {g : GSem nD τ sig} {u : Unit} (h : 0 < owedFrom c n g u) :
    ∃ e ∈ payTab.drop n, g = cellOf c e := by
  obtain ⟨p, hp, hg⟩ := tallyOf_pos (l := (pays c).drop n) h
  rw [pays_eq, ← List.map_drop] at hp
  obtain ⟨e, he, rfl⟩ := List.mem_map.mp hp
  exact ⟨e, he, hg⟩

/-- What is still owed after `n` payments is owed to the cell of a payment not yet made. -/
theorem owed_pos {c : Dev nD} {n : ℕ} {g : GSem nD τ sig} {u : Unit} (h : 0 < owedFrom c n g u) :
    ∃ i, ∃ hi : i < (pays c).length, n ≤ i ∧ i < 59 ∧ g = ((pays c)[i]'hi).1 := by
  obtain ⟨p, hp, hg⟩ := tallyOf_pos (l := (pays c).drop n) h
  obtain ⟨i, hi, rfl⟩ := List.mem_iff_getElem.mp hp
  rw [List.length_drop] at hi
  have hi' : n + i < (pays c).length := by omega
  refine ⟨n + i, hi', Nat.le_add_right n i, by rw [pays_length] at hi'; exact hi', ?_⟩
  rw [hg, List.getElem_drop]

/-! ## Levels -/

/-- Only a TensorCore's cells carry a level. -/
def L (g : GSem nD τ sig) : Finset Unit := if g.1.2 = .tc then {()} else ∅

/-- The level of the transfer semaphore with index `n`: the three staging semaphores at 0; the summing phase's
    cells of stage `s` at `2 + s`; the gathering phase's at `11 - s`. -/
def lvIx (n : ℕ) : ℕ :=
  if n < 3 then 0 else if (n - 3) / 30 < 2 then 2 + ((n - 3) % 30) / 6 else 11 - ((n - 3) % 30) / 6

/-- The level of a semaphore: the handshake semaphore (every regular one) at 1, a transfer semaphore by its index. -/
def lvSem : SemLoc sig → ℕ
  | .reg _ => 1
  | .dma q => lvIx q.val

def lv (g : GSem nD τ sig) (_ : Unit) : ℕ := lvSem g.2

theorem lv_reg (t : Thread nD τ) (s : Sem sig) (u : Unit) : lv (t, .reg s) u = 1 := rfl
theorem lv_dma (t : Thread nD τ) (q : DmaSem sig) (u : Unit) : lv (t, .dma q) u = lvIx q.val := rfl

theorem L_of_ne (g : GSem nD τ sig) (h : g.1.2 ≠ .tc) : L g = ∅ := if_neg h
theorem L_tc (c : Dev nD) (sm : SemLoc sig) : L ((c : Thread nD τ), sm) = {()} := if_pos rfl
theorem L_cell (c : Dev nD) (e : Fin 32 × SemLoc sig) : L (cellOf c e) = {()} := if_pos rfl
theorem lv_cell (c : Dev nD) (e : Fin 32 × SemLoc sig) (u : Unit) : lv (cellOf c e) u = lvSem e.2 := rfl

/-- The level of the `n`-th payment — the least level still owed after `n` payments; above every level once all are made. -/
def lvPayMin (n : ℕ) : ℕ :=
  match payTab.drop n with
  | [] => 12
  | e :: _ => lvSem e.2

/-- The payments' levels never decrease along the program. -/
theorem lvPay_mono_fin : ∀ n : Fin 60, (payTab.drop n.val).all (fun e => decide (lvPayMin n.val ≤ lvSem e.2)) = true := by decide +kernel

theorem lvPay_mono (n : ℕ) : ∀ e ∈ payTab.drop n, lvPayMin n ≤ lvSem e.2 := by
  by_cases hn : n < 60
  · intro e he
    exact of_decide_eq_true (List.all_eq_true.mp (lvPay_mono_fin ⟨n, hn⟩) e he)
  · intro e he
    rw [List.drop_eq_nil_of_le (by rw [payTab_length]; omega)] at he
    exact absurd he List.not_mem_nil

/-! ## The launch credit -/

/-- A cell is the one an entry names, seen from payer `d`, exactly when `d` is the cell's device with the entry's bits
    flipped and the semaphore is the entry's. -/
theorem cell_eq_iff (c d : Dev nD) (e : Fin 32 × SemLoc sig) (sm : SemLoc sig) :
    Iff (((c : Thread nD τ), sm) = cellOf d e) (d = xr c e.1 ∧ e.2 = sm) := by
  constructor
  · intro h
    have h1 : c = xr d e.1 := congrArg (fun g : GSem nD τ sig => g.1.1) h
    have h2 : sm = e.2 := congrArg (fun g : GSem nD τ sig => g.2) h
    exact ⟨by rw [h1, xr_xr], h2.symm⟩
  · rintro ⟨rfl, rfl⟩
    unfold cellOf; rw [xr_xr]

/-- Summed over the payers, a cell receives one payment for every entry of the table that names its semaphore. -/
theorem sum_owed (l : List (Fin 32 × SemLoc sig)) (c : Dev nD) (sm : SemLoc sig) :
    ∑ d : Dev nD, tallyOf (l.map fun e => (cellOf d e, amtOf e.2)) ((c : Thread nD τ), sm) ()
      = (l.filter fun e => e.2 = sm).length * amtOf sm := by
  induction l with
  | nil => exact (Finset.sum_const_zero).trans (Nat.zero_mul _).symm
  | cons e l ih =>
    have step (d : Dev nD) : tallyOf ((e :: l).map fun e => (cellOf d e, amtOf e.2)) ((c : Thread nD τ), sm) ()
        = tallyOf (l.map fun e => (cellOf d e, amtOf e.2)) ((c : Thread nD τ), sm) ()
          + (if d = xr c e.1 then (if e.2 = sm then amtOf sm else 0) else 0) := by
      show (tallyOf (l.map fun e => (cellOf d e, amtOf e.2)) + tallyAt (cellOf d e) () (amtOf e.2)) ((c : Thread nD τ), sm) () = _
      rw [Pi.add_apply, Finsupp.add_apply, tallyAt_apply]
      refine congrArg (fun x => tallyOf (l.map fun e => (cellOf d e, amtOf e.2)) ((c : Thread nD τ), sm) () + x) ?_
      by_cases h : d = xr c e.1 ∧ e.2 = sm
      · rw [if_pos ⟨(cell_eq_iff c d e sm).mpr h, rfl⟩, if_pos h.1, if_pos h.2, h.2]
      · rw [if_neg (fun h' => h ((cell_eq_iff c d e sm).mp h'.1))]
        by_cases h1 : d = xr c e.1
        · rw [if_pos h1, if_neg (fun h2 => h ⟨h1, h2⟩)]
        · rw [if_neg h1]
    refine (Finset.sum_congr rfl fun d _ => step d).trans ?_
    rw [Finset.sum_add_distrib, ih,
      Finset.sum_ite_eq' Finset.univ (xr c e.1) fun _ => if e.2 = sm then amtOf sm else 0, if_pos (Finset.mem_univ _)]
    by_cases hs : e.2 = sm
    · rw [if_pos hs, List.filter_cons_of_pos (by simpa using hs), List.length_cons, Nat.succ_mul]
    · rw [if_neg hs, List.filter_cons_of_neg (by simpa using hs), Nat.add_zero]

/-- The launch credit of a TensorCore's cell: the entries naming its semaphore, times the units of one payment. -/
theorem launch_at (c : Dev nD) (sm : SemLoc sig) :
    launchCredit (Pipeline.owing fun d => owedFrom d 0) 0 ((c : Thread nD τ), sm) ()
      = (payTab.filter fun e => e.2 = sm).length * amtOf sm := by
  rw [Pipeline.launchCredit_owing]
  exact sum_owed payTab c sm

/-- How many payments name each semaphore: five the handshake semaphore, one a receive semaphore in use, none any other. -/
theorem count_bar : (payTab.filter fun e => e.2 = SemLoc.reg barS).length = 5 := by decide +kernel
theorem count_recv : ∀ (a : Fin 4) (s : Fin 5) (k : Fin 3) (j : Fin 2), a = 1 ∨ a = 3 → used s j →
    (payTab.filter fun e => e.2 = SemLoc.dma (dsem a s k j)).length = 1 := by decide +kernel
theorem count_send : ∀ (a : Fin 4) (s : Fin 5) (k : Fin 3) (j : Fin 2), a = 0 ∨ a = 2 →
    (payTab.filter fun e => e.2 = SemLoc.dma (dsem a s k j)).length = 0 := by decide +kernel
theorem count_unused : ∀ (a : Fin 4) (s : Fin 5) (k : Fin 3) (j : Fin 2), ¬ used s j →
    (payTab.filter fun e => e.2 = SemLoc.dma (dsem a s k j)).length = 0 := by decide +kernel
theorem count_stage : ∀ q : DmaSem sig, q.val < 3 → (payTab.filter fun e => e.2 = SemLoc.dma q).length = 0 := by decide +kernel
theorem count_reg : ∀ s : Sem sig, s ≠ barS → (payTab.filter fun e => e.2 = SemLoc.reg s).length = 0 := by decide +kernel

/-- A handshake cell is dealt five units: one per partner. -/
theorem launch_bar (c : Dev nD) :
    tallyOn (barCell c) (launchCredit (Pipeline.owing fun d => owedFrom d 0) 0 (barCell c))
      = (tallyAt (barCell c) () 5 : CellTallies nD τ sig Unit) := by
  unfold tallyAt; refine congrArg _ (Finsupp.ext fun u => ?_); cases u
  rw [launch_at, count_bar, Finsupp.single_eq_same]; rfl

/-- A receive cell in use is dealt the units of the one block that lands under it. -/
theorem launch_recv (c : Dev nD) (a : Fin 4) (s : Fin 5) (k : Fin 3) (j : Fin 2) (ha : a = 1 ∨ a = 3) (hu : used s j) :
    tallyOn (dcell c a s k j) (launchCredit (Pipeline.owing fun d => owedFrom d 0) 0 (dcell c a s k j))
      = (tallyAt (dcell c a s k j) () (amtIx (dsem a s k j).val) : CellTallies nD τ sig Unit) := by
  unfold tallyAt; refine congrArg _ (Finsupp.ext fun u => ?_); cases u
  rw [launch_at, count_recv a s k j ha hu, Finsupp.single_eq_same, Nat.one_mul]; rfl

/-- A cell whose semaphore no payment names is dealt nothing. -/
theorem launch_zero (c : Dev nD) (sm : SemLoc sig) (h : (payTab.filter fun e => e.2 = sm).length = 0) :
    launchCredit (Pipeline.owing fun d => owedFrom d 0) 0 ((c : Thread nD τ), sm) = 0 :=
  Finsupp.ext fun u => by cases u; rw [launch_at, h, Nat.zero_mul]; rfl

theorem launch_send (c : Dev nD) (a : Fin 4) (s : Fin 5) (k : Fin 3) (j : Fin 2) (ha : a = 0 ∨ a = 2) :
    launchCredit (Pipeline.owing fun d => owedFrom d 0) 0 (dcell c a s k j) = 0 :=
  launch_zero c _ (count_send a s k j ha)

theorem launch_unused (c : Dev nD) (a : Fin 4) (s : Fin 5) (k : Fin 3) (j : Fin 2) (hu : ¬ used s j) :
    launchCredit (Pipeline.owing fun d => owedFrom d 0) 0 (dcell c a s k j) = 0 :=
  launch_zero c _ (count_unused a s k j hu)

theorem launch_stage (c : Dev nD) (q : DmaSem sig) (hq : q.val < 3) :
    launchCredit (Pipeline.owing fun d => owedFrom d 0) 0 ((c : Thread nD τ), .dma q) = 0 :=
  launch_zero c _ (count_stage q hq)

theorem launch_reg (c : Dev nD) (s : Sem sig) (hs : s ≠ barS) :
    launchCredit (Pipeline.owing fun d => owedFrom d 0) 0 ((c : Thread nD τ), .reg s) = 0 :=
  launch_zero c _ (count_reg s hs)

/-! ## The evidence a wait presents -/

variable {F : FTy → Type} [FloatOps F]

local notation "𝕄" => MT nD τ sig Unit (Elt F) ℕ UU ℕ

/-- A device that has made `n` payments may wait on any cell of its own that lies strictly below the level of the next one. -/
theorem mayWait_sem (c : Dev nD) (w : SemLoc sig) (n : ℕ) (h : lvSem w < lvPayMin n) :
    (levAts L lv : sProp 𝕄) ⊢ MayWait (c : Thread nD τ) w () (owedFrom c n) :=
  Pipeline.mayWait_of_levAts (L := L) (lev := lv) (by rw [L_tc]; exact Finset.mem_singleton_self _)
    (fun g u hg => by
      obtain ⟨e, he, rfl⟩ := owed_mem hg
      exact ⟨by rw [L_cell]; exact Finset.mem_singleton.mpr rfl, lt_of_lt_of_le h (lvPay_mono n e he)⟩)

/-- The same, the payments still to come named one by one. -/
theorem mayWait_from (c : Dev nD) (w : SemLoc sig) (n : ℕ)
    (hw : ∀ i (hi : i < (pays c).length), n ≤ i → lv ((c : Thread nD τ), w) () < lv ((pays c)[i]'hi).1 ()) :
    (levAts L lv : sProp 𝕄) ⊢ MayWait (c : Thread nD τ) w () (owedFrom c n) :=
  Pipeline.mayWait_of_levAts (L := L) (lev := lv) (by rw [L_tc]; exact Finset.mem_singleton_self _)
    (fun g u hg => by
      obtain ⟨e, _, hge⟩ := owed_mem hg
      obtain ⟨i, hi, hni, _, rfl⟩ := owed_pos hg
      exact ⟨by rw [hge, L_cell]; exact Finset.mem_singleton.mpr rfl, hw i hi hni⟩)

/-- The wait on one of the device's own transfer cells. -/
theorem mayWait_cell (c : Dev nD) (a : Fin 4) (s : Fin 5) (k : Fin 3) (j : Fin 2) (n : ℕ) (h : lvIx (dsem a s k j).val < lvPayMin n) :
    (levAts L lv : sProp 𝕄) ⊢ MayWait (c : Thread nD τ) (.dma (dsem a s k j)) () (owedFrom c n) :=
  mayWait_sem c _ n h

/-- The handshake wait: the five signals are out, every transfer is still owed, and all of those lie above level 1. -/
theorem mayWait_bar (c : Dev nD) :
    (levAts L lv : sProp 𝕄) ⊢ MayWait (c : Thread nD τ) (.reg barS) () (owedFrom c 5) :=
  mayWait_sem c _ 5 (by decide +kernel)

/-- The staging waits of the pipeline: level 0, below everything. -/
theorem mayWait_stage (c : Dev nD) (q : DmaSem sig) (hq : q.val < 3) (O : CellTallies nD τ sig Unit) (hO : O = owedFrom c 0 ∨ O = 0) :
    (levAts L lv : sProp 𝕄) ⊢ MayWait (c : Thread nD τ) (.dma q) () O := by
  rcases hO with rfl | rfl
  · exact mayWait_sem c _ 0 (by show lvIx q.val < lvPayMin 0; unfold lvIx; rw [if_pos hq]; decide +kernel)
  · rw [MayWait_zero]; iintro -; iempintro

end Cert.Kernel.Owed

end
-- ==== Proof.GhostK.lean ====
/-
  What each device holds through the kernel: the cells' invariants (shared by all devices), its own
  positions, tokens and credit, its scratch buffers; and the pipeline's proof data over them. The data are
  relational: an input window's staging buffer is left as found, the result window's is left with every
  value right under the contract.
-/
import proofs.«900879_g7700000000000880_dist_matmul_gelu_kshard_i_m1024_n1024_k512_v7x_i32_bf16_1_alg».proof.Proof.Gen.Kernel
import proofs.«900879_g7700000000000880_dist_matmul_gelu_kshard_i_m1024_n1024_k512_v7x_i32_bf16_1_alg».proof.Proof.Gen.Kernel.Skeleton
import proofs.«900879_g7700000000000880_dist_matmul_gelu_kshard_i_m1024_n1024_k512_v7x_i32_bf16_1_alg».proof.Proof.Gen.Kernel.Launch
import proofs.«900879_g7700000000000880_dist_matmul_gelu_kshard_i_m1024_n1024_k512_v7x_i32_bf16_1_alg».proof.Proof.Gen.Kernel.Points
import proofs.«900879_g7700000000000880_dist_matmul_gelu_kshard_i_m1024_n1024_k512_v7x_i32_bf16_1_alg».proof.Proof.Gen.Kernel.Frame
import Idealize.ShloMosaic.Lib.Pipeline.Launch
import Idealize.ShloMosaic.Lib.Pipeline.Kit
import Idealize.ShloMosaic.Lib.Rounds
import Idealize.ShloMosaic.Lib.Tactic
import proofs.«900879_g7700000000000880_dist_matmul_gelu_kshard_i_m1024_n1024_k512_v7x_i32_bf16_1_alg».proof.Proof.GhostTabK
import proofs.«900879_g7700000000000880_dist_matmul_gelu_kshard_i_m1024_n1024_k512_v7x_i32_bf16_1_alg».proof.Proof.OwedK

noncomputable section

namespace Cert.Kernel.Ghost

open Cert.Kernel Cert.Kernel.Gen Cert.Kernel.Proto Cert.Kernel.Tab Cert.Kernel.Held Cert.Kernel.PayTab
open Cert.Kernel.Sched Cert.Kernel.GhostTab Cert.Kernel.Owed
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (ct : Contract F)

/-! ## Cells by index -/

/-- Index 0..122: the transfer semaphores; index 123: the handshake semaphore. -/
def cix (n : Fin 124) : SemLoc sig := if h : n.val < 123 then .dma ⟨n.val, h⟩ else .reg barS
abbrev kcell (p : Dev nD × Fin 124) : GSem nD τ sig := ((p.1 : Thread nD τ), cix p.2)

theorem cix_inj : Function.Injective cix := by
  intro a b h
  unfold cix at h
  split at h <;> split at h
  · exact Fin.ext (by injection h with h; exact Fin.mk.inj h)
  · cases h
  · cases h
  · exact Fin.ext (by omega)

theorem kcell_inj : Function.Injective (kcell : Dev nD × Fin 124 → GSem nD τ sig) := by
  rintro ⟨c, n⟩ ⟨c', n'⟩ h
  have h1 : c = c' := congrArg (fun g : GSem nD τ sig => g.1.1) h
  have h2 : cix n = cix n' := congrArg Prod.snd h
  rw [h1, cix_inj h2]

/-- The cells the exchange uses: every device's handshake cell and its transfer cells in use. -/
def ours (n : Fin 124) : Bool := decide (n.val = 123) || usedIx n.val
def ourIx : Finset (Dev nD × Fin 124) := Finset.univ.filter fun p => ours p.2 = true

theorem kcell_bar (c : Dev nD) : kcell (c, (123 : Fin 124)) = barCell c := rfl
theorem kcell_dma (c : Dev nD) (a : Fin 4) (s : Fin 5) (k : Fin 3) (j : Fin 2) :
    kcell (c, ⟨(dsem a s k j).val, Nat.lt_trans (dsem a s k j).isLt (by decide)⟩) = dcell c a s k j := by
  unfold kcell cix; rw [dif_pos (dsem a s k j).isLt]

/-! ## The records every device holds -/

def records (K : Dev nD × Fin 124 → ℕ) : sProp 𝕄 :=
  iprop((bigSep ourIx fun p => cellInv ER (sched ct) (K p) (kcell p)) ∗ bigSep ourIx fun p => reached ER (kcell p) 0)

instance records_persistent (K : Dev nD × Fin 124 → ℕ) : BI.Persistent (records ct K) := by unfold records; infer_instance

theorem inv_at (K : Dev nD × Fin 124 → ℕ) (p : Dev nD × Fin 124) (hp : p ∈ ourIx) :
    records ct K ⊢ cellInv ER (sched ct) (K p) (kcell p) := by
  unfold records
  exact sep_elim_left.trans (bigSep_elim (s := ourIx) (Φ := fun p => (cellInv ER (sched ct) (K p) (kcell p) : sProp 𝕄)) hp)
theorem reached_at (K : Dev nD × Fin 124 → ℕ) (p : Dev nD × Fin 124) (hp : p ∈ ourIx) :
    records ct K ⊢ reached ER (kcell p) 0 := by
  unfold records
  exact sep_elim_right.trans (bigSep_elim (s := ourIx) (Φ := fun p => (reached ER (kcell p) 0 : sProp 𝕄)) hp)

/-! ## What a device starts from, and the invariant around the one point -/

/-- The kernel's own semaphores: the 120 transfer semaphores. -/
abbrev osem : Fin 120 → SemLoc sig := fun i => .dma ⟨3 + i.val, by have := i.isLt; show _ < 123; omega⟩

def start (c : Dev nD) : sProp 𝕄 :=
  iprop((∃ K, records ct K ∗ positions c ∗ barToks c ∗ xferToks c) ∗ credits c ∗ idle c ∗ levAts L lv)

def Φ₀ (c : Dev nD) : sProp 𝕄 :=
  iprop(start ct c ∗ Pipeline.scopedRest (Ix := Unit) (Name := ℕ) (U := UU) (Lvl := ℕ) (Val := Elt F) spec0 c)

def Φ₁ (c : Dev nD) : sProp 𝕄 :=
  iprop(Pipeline.scopedRest (Ix := Unit) (Name := ℕ) (U := UU) (Lvl := ℕ) (Val := Elt F) spec0 c
    ∗ Pipeline.ownSems0 (Ix := Unit) (Name := ℕ) (U := UU) (Lvl := ℕ) (Val := Elt F) (τ := τ) osem c)

variable (m : (ℓ : Loc nD τ sig) → Buf (Elt F) ℓ)

/-- The proof data: the argument windows are left as found; the result window is left right under the contract. -/
def rdats (_ : Fin 1) (c : Dev nD) : RDat τ (Elt F) Unit ℕ UU ℕ cfg0 c where
  A w := m ((cfg0.win w).arr.view.loc (c : Thread nD τ))
  after w _ Y X := match w, Y, X with
    | ⟨0, _⟩, Y, X => X = Y
    | ⟨1, _⟩, Y, X => X = Y
    | ⟨2, _⟩, _, X => ∀ i : S1024x1024.Idx, ct.okOut (i 0).val (i 1).val (X i)
    | ⟨n + 3, h⟩, _, _ => False.elim (by have : cfg0.W = 3 := rfl; omega)
  Φ t := match t with
    | ⟨0, _⟩ => Φ₀ ct c
    | ⟨_ + 1, _⟩ => Φ₁ c
  q _ := fullShare
  owed t := match t with
    | ⟨0, _⟩ => owedFrom c 0
    | ⟨_ + 1, _⟩ => 0

end Cert.Kernel.Ghost

end
-- ==== Proof.RunK.lean ====
/-
  The launch: from the launch's resources to each device's starting holdings, the run of the program
  under the exchange's schedule, and what the final arrays hold.
-/
import proofs.«900879_g7700000000000880_dist_matmul_gelu_kshard_i_m1024_n1024_k512_v7x_i32_bf16_1_alg».proof.Proof.GhostK

noncomputable section

namespace Cert.Kernel.Run

open Cert.Kernel Cert.Kernel.Gen Cert.Kernel.Proto Cert.Kernel.Tab Cert.Kernel.Held Cert.Kernel.PayTab
open Cert.Kernel.Sched Cert.Kernel.GhostTab Cert.Kernel.Owed Cert.Kernel.Ghost
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

/-! ## The credit a device is dealt -/

/-- The semaphores whose cells are dealt credit, in the order the device holds the credit: the handshake semaphore,
    then the receive semaphore of every transfer in program order. -/
def credList : List (SemLoc sig) :=
  [ .reg barS,
    .dma (dsem 1 0 0 0), .dma (dsem 1 0 0 1), .dma (dsem 1 0 1 0), .dma (dsem 1 0 1 1), .dma (dsem 1 0 2 0), .dma (dsem 1 0 2 1),
    .dma (dsem 1 1 0 0), .dma (dsem 1 1 0 1), .dma (dsem 1 1 1 0), .dma (dsem 1 1 1 1), .dma (dsem 1 1 2 0), .dma (dsem 1 1 2 1),
    .dma (dsem 1 2 0 0), .dma (dsem 1 2 0 1), .dma (dsem 1 2 1 0), .dma (dsem 1 2 1 1), .dma (dsem 1 2 2 0), .dma (dsem 1 2 2 1),
    .dma (dsem 1 3 0 0), .dma (dsem 1 3 0 1), .dma (dsem 1 3 1 0), .dma (dsem 1 3 1 1), .dma (dsem 1 3 2 0), .dma (dsem 1 3 2 1),
    .dma (dsem 1 4 0 0), .dma (dsem 1 4 1 0), .dma (dsem 1 4 2 0), .dma (dsem 3 4 0 0), .dma (dsem 3 4 1 0), .dma (dsem 3 4 2 0),
    .dma (dsem 3 3 0 0), .dma (dsem 3 3 0 1), .dma (dsem 3 3 1 0), .dma (dsem 3 3 1 1), .dma (dsem 3 3 2 0), .dma (dsem 3 3 2 1),
    .dma (dsem 3 2 0 0), .dma (dsem 3 2 0 1), .dma (dsem 3 2 1 0), .dma (dsem 3 2 1 1), .dma (dsem 3 2 2 0), .dma (dsem 3 2 2 1),
    .dma (dsem 3 1 0 0), .dma (dsem 3 1 0 1), .dma (dsem 3 1 1 0), .dma (dsem 3 1 1 1), .dma (dsem 3 1 2 0), .dma (dsem 3 1 2 1),
    .dma (dsem 3 0 0 0), .dma (dsem 3 0 0 1), .dma (dsem 3 0 1 0), .dma (dsem 3 0 1 1), .dma (dsem 3 0 2 0), .dma (dsem 3 0 2 1) ]

theorem credList_nodup : credList.Nodup := by decide +kernel

/-- The payments naming a credited semaphore: five for the handshake semaphore, one for a receive semaphore. -/
def cnt : SemLoc sig → ℕ
  | .reg _ => 5
  | .dma _ => 1

theorem credList_cnt : credList.all (fun sm => decide ((payTab.filter fun e => e.2 = sm).length = cnt sm)) = true := by decide +kernel

/-- The units dealt to a credited semaphore's cell. -/
def creditAmt : SemLoc sig → ℕ
  | .reg _ => 5
  | .dma q => amtIx q.val

theorem credit_units (sm : SemLoc sig) (h : (payTab.filter fun e => e.2 = sm).length = cnt sm) :
    (payTab.filter fun e => e.2 = sm).length * amtOf sm = creditAmt sm := by
  rw [h]
  cases sm with
  | reg s => exact Nat.mul_one 5
  | dma q => exact Nat.one_mul _

variable {F : FTy → Type} [FloatOps F]

local notation "𝕄" => MT nD τ sig Unit (Elt F) ℕ UU ℕ

/-- A chain over a list depends only on the summands at the list's members. -/
theorem bigSepL_congr {I : Type} (l : List I) (Φ Ψ : I → sProp 𝕄) (h : ∀ i ∈ l, Φ i = Ψ i) : bigSepL l Φ = bigSepL l Ψ := by
  induction l with
  | nil => rfl
  | cons i l ih =>
    rw [bigSepL_cons, bigSepL_cons, h i List.mem_cons_self, ih fun j hj => h j (List.mem_cons_of_mem _ hj)]

/-- The launch credit of a credited cell, as one tally. -/
theorem cred_cell (c : Dev nD) (sm : SemLoc sig) (h : (payTab.filter fun e => e.2 = sm).length = cnt sm) :
    tallyOn ((c : Thread nD τ), sm) (launchCredit (Pipeline.owing fun d => owedFrom d 0) 0 ((c : Thread nD τ), sm))
      = (tallyAt ((c : Thread nD τ), sm) () (creditAmt sm) : CellTallies nD τ sig Unit) := by
  unfold tallyAt; refine congrArg _ (Finsupp.ext fun u => ?_); cases u
  rw [launch_at, Finsupp.single_eq_same, credit_units sm h]

/-- Of the credit the launch deals a device it keeps that of its handshake cell and of its receive cells. -/
theorem creds (c : Dev nD) : (Pipeline.launchCred (fun d => owedFrom d 0) c : sProp 𝕄) ⊢ credits c := by
  unfold Pipeline.launchCred
  refine (bigSep_subset (Finset.subset_univ credList.toFinset)).trans ?_
  rw [bigSep_eq_bigSepL credList credList_nodup,
    bigSepL_congr credList _ (fun sm => (cred (tallyAt ((c : Thread nD τ), sm) () (creditAmt sm)) : sProp 𝕄)) fun sm hsm =>
      congrArg _ (cred_cell c sm (of_decide_eq_true (List.all_eq_true.mp credList_cnt sm hsm)))]
  have e : bigSepL credList (fun sm => (cred (tallyAt ((c : Thread nD τ), sm) () (creditAmt sm)) : sProp 𝕄)) = credits c := rfl
  rw [e]
  exact BI.Entails.refl _

/-! ## The layout facts of the launch -/

/-- The kernel's own semaphores are scoped, distinct, and none is a staging semaphore. -/
theorem ownSemFacts : Pipeline.OwnSemFacts cfg0.spec osem := by decide +kernel

variable (ct : Contract F) (m : (ℓ : Loc nD τ sig) → Buf (Elt F) ℓ) (ρ : Dev nD → PrngReg)

theorem share_eq (c : Dev nD) (w : Fin cfg0.W) : (rdats ct m 0 c).share w = fullShare := by unfold RDat.share; split <;> rfl

/-- The staging waits of the pipeline sit below everything a device owes. -/
theorem waits (c : Dev nD) : (levAts L lv : sProp 𝕄) ⊢ Pipeline.RDat.cellsWaits cfgs (rdats ct m) () 0 c :=
  Pipeline.RDat.cellsWaits_intro cfgs (rdats ct m) () 0 c fun w s t =>
    mayWait_stage c _ (by fin_cases w <;> fin_cases s <;> decide) _ (by
      rcases t with ⟨_ | _, ht⟩
      · exact Or.inl rfl
      · exact Or.inr rfl)

/-! ## Into and out of the one point -/

/-- What the global step of the launch leaves each device: the records of every cell of the exchange, its own positions
    and the tokens of the duties it pays, and its idle semaphores at zero. -/
def held (c : Dev nD) : sProp 𝕄 :=
  iprop((∃ K, records ct K ∗ positions c ∗ barToks c ∗ xferToks c) ∗ idle c)

/-- What the launch hands a device, with the records and tokens the global step made, is what it starts from. -/
theorem start_intro (c : Dev nD) :
    iprop(Pipeline.unscopedRestP Pipeline.Prefetch.none cfg0.spec c (fun b => m ((c : Thread nD τ).loc b)) ∗ levAts L lv
        ∗ Pipeline.launchCred (fun d => owedFrom d 0) c ∗ prngReg c (ρ c) ∗ held ct c)
      ⊢ |={Set.univ}=> iprop(start ct c ∗ emp) := by
  unfold held
  iintro ⟨-, Hlev, Hcr, -, HGI⟩
  icases HGI with ⟨HG, Hidle⟩
  ihave Hc := (creds (F := F) c) $$ Hcr
  imodintro
  unfold start
  isplitl
  · isplitl [HG]
    · iexact HG
    isplitl [Hc]
    · iexact Hc
    isplitl [Hidle]
    · iexact Hidle
    iexact Hlev
  · iempintro

theorem phi0_intro (c : Dev nD) :
    iprop(start ct c ∗ Pipeline.prefHeld Pipeline.Prefetch.none c (fun _ => fullShare.right) (fun k => k.elim0) ∗ Pipeline.scopedRest cfg0.spec c)
      ⊢ (rdats ct m 0 c).Φ 0 := by
  rw [show (rdats ct m 0 c).Φ 0 = Φ₀ ct c from rfl]
  unfold Φ₀
  iintro ⟨Hs, -, Hr⟩
  isplitl [Hs]; · iexact Hs
  iexact Hr

theorem phi1_exit (c : Dev nD) :
    (rdats ct m 0 c).Φ (Fin.last cfg0.N) ⊢ iprop(emp ∗ Pipeline.ownSems0 osem c ∗ Pipeline.scopedRest cfg0.spec c) := by
  rw [show (rdats ct m 0 c).Φ (Fin.last cfg0.N) = Φ₁ c from rfl]
  unfold Φ₁
  iintro ⟨Hr, Hs⟩
  isplitr; · iempintro
  isplitl [Hs]; · iexact Hs
  iexact Hr

/-! ## The run -/

section Launch

variable (u₀ : UU) (G : Dev nD → sProp (MT nD τ sig Unit (Elt F) ℕ UU ℕ))
  (hu₀ : (ownU u₀ : sProp (MT nD τ sig Unit (Elt F) ℕ UU ℕ))
    ⊢ |={Set.univ}=> iprop(BI.own (EP (initOf (Pipeline.cells cfgs cellOf_inj) (Pipeline.launchToks cfgs cellOf_inj))) ∗ bigSep Finset.univ G))
  (hglob : (bigSep Finset.univ fun c => iprop(Pipeline.ownSems0 (Ix := Unit) (Name := ℕ) (U := UU) (Lvl := ℕ) (Val := Elt F) (τ := τ) osem c
      ∗ unscopedSems0 c ∗ G c) : sProp (MT nD τ sig Unit (Elt F) ℕ UU ℕ)) ⊢ |={Set.univ}=> bigSep Finset.univ (held ct))

/-- What the run establishes: on every device, every windowed array holds contents it may hold after the point's write-back. -/
def QR : PUnit × MemSt nD τ sig (Elt F) → Prop := fun r =>
  ∀ c : Dev nD, ∀ w : Fin cfg0.W, (rdats ct m 0 c).ArrAt w cfg0.N (r.2.mem ((cfg0.win w).arr.view.loc (c : Thread nD τ)))

include hu₀ hglob in
set_option maxRecDepth 8000 in
/-- On the thirty-two devices, for any float values, from any memory with zero counters: every weakly fair execution of
    the program terminates, and every final state has each device's arrays at contents the proof data admit. -/
theorem run_main (hbody : ∀ c, (rdats ct m 0 c).BodyObligation (defs₀ (F := F)) Variants.none () Set.univ) :
    θ_run defs (onTc (τ := τ) (main (F := F))) ⟨m, fun _ => 0, ρ⟩ (QR ct m) :=
  Pipeline.RDat.θ_run_region_owing_glob_pf (fun p => (cfgs p).toPCfg) (fun p => (cfgs p).toPCfg_adm) (rdats ct m) () cellOf_inj (0 : Fin 1)
    winFacts0.to₀ ownSemFacts (Pipeline.PreFacts.none _) EP defs₀ Variants.none m ρ main
    (hmain := fun _ => rfl)
    (hbody := hbody) (hne := block_pos0) (harr := arr_whole0) (hstage := stage_whole0) (hshare := share_eq ct m)
    (hdistinct := winFacts0.arr_inj)
    (O₀ := fun d => owedFrom d 0) (howed₀ := fun _ => rfl) (howedN := fun _ => rfl)
    (L := L) (lv := lv) (hL := L_of_ne) (hwaits := waits ct m)
    (G := G) (G' := held ct) (u₀ := u₀) (hu₀ := hu₀) (hglob := hglob)
    (hA := fun _ _ => rfl) (hpf := fun _ k => k.elim0)
    (X := start ct) (Y := fun _ => iprop(emp)) (Z := fun _ => iprop(emp))
    (hX := start_intro ct m ρ) (hin := phi0_intro ct m) (hout := phi1_exit ct m)
    (QY := fun _ _ => True)
    (hY := fun c s' => by
      iintro ⟨-, -, HSI⟩
      imodintro
      isplitr; · ipureintro; trivial
      iexact HSI)
    (hQ := fun _ h c w => (h c).1 w)

end Launch

/-! ## What the arrays hold at the end -/

/-- An argument array ends as it began. -/
theorem final_in (c : Dev nD) (w : Fin cfg0.W) (hw : (cfg0.win w).isOut = false)
    (X : Buf (Elt F) ((cfg0.win w).arr.view.loc (c : Thread nD τ))) (h : (rdats ct m 0 c).ArrAt w cfg0.N X) :
    X = m ((cfg0.win w).arr.view.loc (c : Thread nD τ)) := by
  rw [Pipeline.RDat.ArrAt_in (rdats ct m 0 c) w hw] at h
  exact h

/-- The result array ends with every value right under the contract: its one block is the whole array, written back
    once, from contents the body left in the relation the proof data name. -/
theorem final_out (c : Dev nD) (X : Buf (Elt F) ((cfg0.win (2 : Fin 3)).arr.view.loc (c : Thread nD τ)))
    (h : (rdats ct m 0 c).ArrAt (2 : Fin 3) cfg0.N X) :
    ∀ i : S1024x1024.Idx, ct.okOut (i 0).val (i 1).val (X i) := by
  have h1 : (rdats ct m 0 c).ArrAt (2 : Fin 3) (t0_0.val + 1) X := h
  rw [Pipeline.RDat.ArrAt_succ (rdats ct m 0 c) (2 : Fin 3) t0_0, if_pos (by decide)] at h1
  obtain ⟨G₀, Y, -, ⟨Y₀, -, hY⟩, rfl⟩ := h1
  have hY' : ∀ i : S1024x1024.Idx, ct.okOut (i 0).val (i 1).val (Y i) := hY
  intro i
  have hw : ((cfg0.win (2 : Fin 3)).blk t0_0).view.write (Elt F) G₀ ((cfg0.win (2 : Fin 3)).cut (cfg0.grid.coords t0_0) Y) Finset.univ = Y :=
    Memref.write_access_unit_zero_univ (Elt F) main_v1 (off := fun a => 0 * (main_v1 : Ref sig .tc).ty.shape.size a)
      (funext fun a => Nat.zero_mul _) _ G₀ Y
  rw [hw]
  exact hY' i

end Cert.Kernel.Run

end
-- ==== Proof.FrameK.lean ====
/-
  The word-level kernel's frame: the run under the contract that asks nothing leaves the two argument
  arrays as they were.
-/
import proofs.«900879_g7700000000000880_dist_matmul_gelu_kshard_i_m1024_n1024_k512_v7x_i32_bf16_1_alg».proof.Defs
import proofs.«900879_g7700000000000880_dist_matmul_gelu_kshard_i_m1024_n1024_k512_v7x_i32_bf16_1_alg».proof.Proof.Gen.Pre_finite_inputs_Kernel
import proofs.«900879_g7700000000000880_dist_matmul_gelu_kshard_i_m1024_n1024_k512_v7x_i32_bf16_1_alg».proof.Proof.RunK

noncomputable section

namespace Cert.Kernel.Frame

open Cert.Kernel Cert.Kernel.Gen Cert.Kernel.Proto Cert.Kernel.Held Cert.Kernel.Ghost Cert.Kernel.Run
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (RDat)

/-- The kernel as printed runs and leaves its two argument arrays as they were. -/
theorem frame_of_run (u₀ : UU) (G : Dev nD → sProp (MT nD τ sig Unit (Elt Bits) ℕ UU ℕ))
    (hu₀ : (ownU u₀ : sProp (MT nD τ sig Unit (Elt Bits) ℕ UU ℕ))
      ⊢ |={Set.univ}=> iprop(BI.own (EP (F := Bits) (initOf (Pipeline.cells cfgs cellOf_inj) (Pipeline.launchToks cfgs cellOf_inj))) ∗ bigSep Finset.univ G))
    (hglob : (bigSep Finset.univ fun c => iprop(Pipeline.ownSems0 (Ix := Unit) (Name := ℕ) (U := UU) (Lvl := ℕ) (Val := Elt Bits) (τ := τ) osem c
        ∗ unscopedSems0 c ∗ G c) : sProp (MT nD τ sig Unit (Elt Bits) ℕ UU ℕ)) ⊢ |={Set.univ}=> bigSep Finset.univ (held (Contract.trivial (F := Bits))))
    (hbody : ∀ (m : (ℓ : Loc nD τ sig) → Buf (Elt Bits) ℓ) (c : Dev nD),
      (rdats (Contract.trivial (F := Bits)) m 0 c).BodyObligation (defs₀ (F := Bits)) Variants.none () Set.univ) :
    Cert.frame_Kernel := fun m g _ =>
  (θ_run (defs (F := Bits)) _ _).mono
    (fun r h c => ⟨final_in Contract.trivial m c (0 : Fin 3) rfl _ (h c 0), final_in Contract.trivial m c (1 : Fin 3) rfl _ (h c 1)⟩)
    (run_main Contract.trivial m g u₀ G hu₀ hglob (hbody m))

end Cert.Kernel.Frame

end
-- ==== Proof.FundK.lean ====
/-
  The ghost funding of the launch.

  At launch one element of the ghost algebra is owned: the pipeline library's part, and for the exchange
  every cell in use in its launch state together with one token per duty of each cell. This module splits
  that element into what each device is dealt (its cells' round states, its positions, its own cells'
  tokens), allocates every cell's invariant from the semaphores at zero, and deals the tokens around to
  the devices that pay them: a handshake duty's to the partner that sends the signal, a receive cell's to
  the sender of the transfer; a send cell's stays. The twelve transfer semaphores no transfer uses are
  kept at zero by their device.
-/
import proofs.«900879_g7700000000000880_dist_matmul_gelu_kshard_i_m1024_n1024_k512_v7x_i32_bf16_1_alg».proof.Proof.GhostK

noncomputable section

namespace Cert.Kernel.Fund

open Cert.Kernel Cert.Kernel.Gen Cert.Kernel.Proto Cert.Kernel.Tab Cert.Kernel.Held Cert.Kernel.PayTab
open Cert.Kernel.Sched Cert.Kernel.GhostTab Cert.Kernel.Owed Cert.Kernel.Ghost
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (ct : Contract F)

/-! ## The cells and the tokens minted at launch -/

/-- The cells of the exchange: every device's handshake cell and its transfer cells in use. -/
def ringCells : Finset (GSem nD τ sig) := ourIx.map ⟨kcell, kcell_inj⟩

/-- The indices of a device's cells in use. -/
def ourN : Finset (Fin 124) := Finset.univ.filter fun n => ours n = true

/-- Duty `x.2` is a duty of the cell with index `x.1`: all five on the handshake cell, duty `0` on a transfer cell in use. -/
def tokOk (x : Fin 124 × Fin 5) : Prop := x.1.val = 123 ∨ (usedIx x.1.val = true ∧ x.2 = 0)
instance : DecidablePred tokOk := fun x => by unfold tokOk; infer_instance

/-- The duties of one device's cells. -/
def tokN : Finset (Fin 124 × Fin 5) := Finset.univ.filter tokOk

/-- The duties of all devices' cells. -/
def tokIx : Finset (Dev nD × Fin 124 × Fin 5) := Finset.univ.filter fun x => tokOk x.2

/-- The token of a duty: its cell, round 0, the duty. -/
abbrev tokOf (x : Dev nD × Fin 124 × Fin 5) : GSem nD τ sig × ℕ × Fin 5 := (kcell (x.1, x.2.1), 0, x.2.2)

theorem tokOf_inj : Function.Injective (tokOf : Dev nD × Fin 124 × Fin 5 → GSem nD τ sig × ℕ × Fin 5) := by
  rintro ⟨c, n, i⟩ ⟨c', n', i'⟩ h
  have h1 : kcell (c, n) = kcell (c', n') := congrArg (fun x : GSem nD τ sig × ℕ × Fin 5 => x.1) h
  have h2 : i = i' := congrArg (fun x : GSem nD τ sig × ℕ × Fin 5 => x.2.2) h
  have h3 := kcell_inj h1
  rw [Prod.mk.injEq] at h3
  rw [h3.1, h3.2, h2]

def ringToks : Finset (GSem nD τ sig × ℕ × Fin 5) := tokIx.map ⟨tokOf, tokOf_inj⟩

/-- The launch element: the pipeline library's, and the exchange's cells with their tokens. -/
def u₀ : UU :=
  (initOf (Pipeline.cells cfgs cellOf_inj) (Pipeline.launchToks cfgs cellOf_inj), initOf ringCells ringToks)

/-- What the launch element deals device `c`: its cells' round states, its positions on them with round 0
    reached, and the tokens of its own cells' duties. -/
def G (c : Dev nD) : sProp 𝕄 :=
  iprop((bigSep ourN fun n => roundState ER (sched ct) (kcell (c, n)) 0)
    ∗ (bigSep ourN fun n => iprop(atPos ER (kcell (c, n)) 0 ∅ 0 ∗ reached ER (kcell (c, n)) 0))
    ∗ bigSep tokN fun x => dutyTok ER (kcell (c, x.1)) 0 x.2)

/-- What the global step makes of it. -/
def G' (c : Dev nD) : sProp 𝕄 :=
  iprop((∃ K, records ct K ∗ positions c ∗ barToks c ∗ xferToks c) ∗ idle c)

omit [FloatOps F] in
/-- A sum over the pairs whose second coordinate passes a test is the iterated sum. -/
theorem bigSep_filter_snd {α β : Type} [Fintype α] [Fintype β] [DecidableEq α] [DecidableEq β] (p : β → Prop) [DecidablePred p]
    (Ψ : α × β → sProp 𝕄) :
    bigSep (Finset.univ.filter fun x : α × β => p x.2) Ψ
      = bigSep Finset.univ fun a => bigSep (Finset.univ.filter p) fun b => Ψ (a, b) := by
  rw [bigSep_filter, bigSep_univ_prod]
  exact bigSep_congr fun a _ => (bigSep_filter Finset.univ p fun b => Ψ (a, b)).symm

omit [FloatOps F] in
theorem ringCells_sep (Φ : GSem nD τ sig → sProp 𝕄) :
    bigSep ringCells Φ = bigSep Finset.univ fun c : Dev nD => bigSep ourN fun n => Φ (kcell (c, n)) := by
  unfold ringCells ourIx ourN
  rw [bigSep_map, bigSep_filter_snd (fun n : Fin 124 => ours n = true)]
  rfl

omit [FloatOps F] in
theorem ringToks_sep :
    bigSep ringToks (fun x => (dutyTok ER x.1 x.2.1 x.2.2 : sProp 𝕄))
      = bigSep Finset.univ fun c : Dev nD => bigSep tokN fun x => dutyTok ER (kcell (c, x.1)) 0 x.2 := by
  unfold ringToks tokIx tokN
  rw [bigSep_map, bigSep_filter_snd tokOk]
  rfl

theorem fund_ring : BI.own (ER (initOf ringCells ringToks)) ⊢ (|==> bigSep Finset.univ (G ct) : sProp 𝕄) := by
  iintro HX
  imod (Rounds.fund ER (sched ct) ringCells ringToks) $$ HX with ⟨Hst, Hr, Hat, Htok⟩
  imodintro
  ihave Hst' := (Entails.of_eq (ringCells_sep fun g => roundState ER (sched ct) g 0)) $$ Hst
  ihave Hat' := (Entails.of_eq (ringCells_sep fun g => atPos ER g 0 ∅ 0)) $$ Hat
  ihave Hr' := (Entails.of_eq (ringCells_sep fun g => reached ER g 0)) $$ Hr
  ihave Htok' := (Entails.of_eq ringToks_sep) $$ Htok
  unfold G; simp only [bigSep_sep']
  isplitl [Hst']; · iexact Hst'
  isplitl [Hat' Hr']
  · isplitl [Hat'] <;> iassumption
  iexact Htok'

/-- The launch element funds the pipeline library's cells and every device's share of the exchange's. -/
theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G ct)) := by
  unfold u₀
  iintro Hu
  ihave H := (ownU_pair _ _) $$ Hu
  icases H with ⟨HP, HX⟩
  imod (fund_ring ct) $$ HX with HG
  imodintro
  isplitl [HP] <;> iassumption

/-! ## The semaphores at zero: the cells in use and the idle ones -/

/-- The kernel's own semaphore `i` is the cell with index `3 + i`. -/
def emb120 : Fin 120 ↪ Fin 124 :=
  ⟨fun i => ⟨3 + i.val, by have := i.isLt; omega⟩, fun a b h => Fin.ext (by have := congrArg Fin.val h; simp only at this; omega)⟩

omit [FloatOps F] in
theorem kcell_emb120 (c : Dev nD) (i : Fin 120) : kcell (c, emb120 i) = ((c : Thread nD τ), osem i) := by
  unfold kcell cix
  have h : (emb120 i).val < 123 := by show 3 + i.val < 123; have := i.isLt; omega
  rw [dif_pos h]
  rfl

/-- Of the kernel's own 120 semaphores, those in use are the device's transfer cells in use. -/
theorem used120 : (Finset.univ.filter fun i : Fin 120 => usedIx (3 + i.val) = true).map emb120 = ourN.erase (123 : Fin 124) := by decide

/-- The twelve others. -/
theorem idle120 : (Finset.univ.filter fun i : Fin 120 => ¬ usedIx (3 + i.val) = true)
    = ([25, 27, 29, 55, 57, 59, 85, 87, 89, 115, 117, 119] : List (Fin 120)).toFinset := by decide

omit [FloatOps F] in
/-- The handshake semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own semaphores and the handshake semaphore, all at zero, are the device's cells in use at zero
    and the twelve idle ones. -/
theorem sems0_eq (c : Dev nD) :
    iprop(Pipeline.ownSems0 (Ix := Unit) (Name := ℕ) (U := UU) (Lvl := ℕ) (Val := Elt F) (τ := τ) osem c ∗ unscopedSems0 c)
      ⊢ iprop((bigSep ourN fun n => semVal (kcell (c, n)) 0) ∗ idle c : sProp 𝕄) := by
  have hown : (Pipeline.ownSems0 (Ix := Unit) (Name := ℕ) (U := UU) (Lvl := ℕ) (Val := Elt F) (τ := τ) osem c : sProp 𝕄)
      = iprop((bigSep (ourN.erase (123 : Fin 124)) fun n => semVal (kcell (c, n)) 0) ∗ idle c) := by
    unfold Pipeline.ownSems0
    rw [bigSep_filter_split Finset.univ (fun i : Fin 120 => usedIx (3 + i.val) = true), ← used120, bigSep_map,
      bigSep_eq_bigSepL_of_eq _ idle120 (by decide)]
    congr 1
  have hN : (bigSep ourN fun n => (semVal (kcell (c, n)) 0 : sProp 𝕄))
      = iprop(semVal (barCell c) 0 ∗ bigSep (ourN.erase (123 : Fin 124)) fun n => semVal (kcell (c, n)) 0) :=
    bigSep_erase (show (123 : Fin 124) ∈ ourN by decide)
  rw [hown, unscopedSems0_eq, hN]
  iintro ⟨⟨Hu, Hi⟩, Hb⟩
  isplitr [Hi]
  · isplitl [Hb]; · iexact Hb
    iexact Hu
  iexact Hi

/-- Each cell in use gets its invariant; the idle semaphores stay as they are. -/
theorem core_alloc (c : Dev nD) :
    iprop(Pipeline.ownSems0 (Ix := Unit) (Name := ℕ) (U := UU) (Lvl := ℕ) (Val := Elt F) (τ := τ) osem c ∗ unscopedSems0 c ∗ G ct c)
      ⊢ |={Set.univ}=> iprop((bigSep ourN fun n => iprop(∃ κ : ℕ, cellInv ER (sched ct) κ (kcell (c, n))))
          ∗ (bigSep ourN fun n => iprop(atPos ER (kcell (c, n)) 0 ∅ 0 ∗ reached ER (kcell (c, n)) 0))
          ∗ (bigSep tokN fun x => dutyTok ER (kcell (c, x.1)) 0 x.2) ∗ idle c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep ourN fun n => semVal (kcell (c, n)) 0) ∗ bigSep ourN fun n => roundState ER (sched ct) (kcell (c, n)) 0)
      ⊢ (|={Set.univ}=> bigSep ourN fun n => iprop(∃ κ : ℕ, cellInv ER (sched ct) κ (kcell (c, n))) : sProp 𝕄) from by
        rw [← bigSep_sep']
        exact (bigSep_mono fun n _ => (Rounds.body_intro ER (sched ct) (kcell (c, n))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-! ## The transfers of a device, in program order -/

/-- A transfer: the phase (0 summing, 1 gathering), the stage, the column block, the piece. -/
abbrev Tr : Type := Fin 2 × Fin 5 × Fin 3 × Fin 2

/-- The last stage has one piece. -/
def usedT (t : Tr) : Prop := t.2.1.val < 4 ∨ t.2.2.2.val = 0
instance : DecidablePred usedT := fun t => by unfold usedT; infer_instance

/-- The transfers that take place. -/
abbrev Tu : Type := {t : Tr // usedT t}

/-- The send and the receive semaphore array of a phase. -/
def sa : Fin 2 → Fin 4
  | 0 => 0
  | 1 => 2
def ra : Fin 2 → Fin 4
  | 0 => 1
  | 1 => 3

/-- The index of a transfer's send cell and of its receive cell. -/
def sIx (t : Tr) : Fin 124 := ⟨(dsem (sa t.1) t.2.1 t.2.2.1 t.2.2.2).val, Nat.lt_trans (dsem (sa t.1) t.2.1 t.2.2.1 t.2.2.2).isLt (by decide)⟩
def rIx (t : Tr) : Fin 124 := ⟨(dsem (ra t.1) t.2.1 t.2.2.1 t.2.2.2).val, Nat.lt_trans (dsem (ra t.1) t.2.1 t.2.2.1 t.2.2.2).isLt (by decide)⟩

theorem sIx_inj : Function.Injective sIx := by decide
theorem rIx_inj : Function.Injective rIx := by decide

/-- A device's cells in use: its handshake cell, and the send and the receive cell of every transfer. -/
theorem ourN_eq : ourN = insert (123 : Fin 124)
    (((Finset.univ.filter usedT).map ⟨sIx, sIx_inj⟩) ∪ ((Finset.univ.filter usedT).map ⟨rIx, rIx_inj⟩)) := by decide

theorem ourN_disj : Disjoint ((Finset.univ.filter usedT).map ⟨sIx, sIx_inj⟩) ((Finset.univ.filter usedT).map ⟨rIx, rIx_inj⟩) := by decide

theorem ourN_bar : (123 : Fin 124) ∉ (((Finset.univ.filter usedT).map ⟨sIx, sIx_inj⟩) ∪ ((Finset.univ.filter usedT).map ⟨rIx, rIx_inj⟩)) := by decide

omit [FloatOps F] in
/-- A sum over a device's cells in use, by kind of cell. -/
theorem ourN_sep (Φ : Fin 124 → sProp 𝕄) :
    bigSep ourN Φ = iprop(Φ 123 ∗ bigSep (Finset.univ.filter usedT) fun t => iprop(Φ (sIx t) ∗ Φ (rIx t))) := by
  rw [ourN_eq, bigSep_insert ourN_bar, bigSep_union ourN_disj, bigSep_map, bigSep_map, bigSep_sep']
  rfl

/-- The transfers in program order: the summing phase by rising stage, the gathering phase by falling stage. -/
def xl : List Tr :=
  [(0, 0, 0, 0), (0, 0, 0, 1), (0, 0, 1, 0), (0, 0, 1, 1), (0, 0, 2, 0), (0, 0, 2, 1),
   (0, 1, 0, 0), (0, 1, 0, 1), (0, 1, 1, 0), (0, 1, 1, 1), (0, 1, 2, 0), (0, 1, 2, 1),
   (0, 2, 0, 0), (0, 2, 0, 1), (0, 2, 1, 0), (0, 2, 1, 1), (0, 2, 2, 0), (0, 2, 2, 1),
   (0, 3, 0, 0), (0, 3, 0, 1), (0, 3, 1, 0), (0, 3, 1, 1), (0, 3, 2, 0), (0, 3, 2, 1),
   (0, 4, 0, 0), (0, 4, 1, 0), (0, 4, 2, 0),
   (1, 4, 0, 0), (1, 4, 1, 0), (1, 4, 2, 0),
   (1, 3, 0, 0), (1, 3, 0, 1), (1, 3, 1, 0), (1, 3, 1, 1), (1, 3, 2, 0), (1, 3, 2, 1),
   (1, 2, 0, 0), (1, 2, 0, 1), (1, 2, 1, 0), (1, 2, 1, 1), (1, 2, 2, 0), (1, 2, 2, 1),
   (1, 1, 0, 0), (1, 1, 0, 1), (1, 1, 1, 0), (1, 1, 1, 1), (1, 1, 2, 0), (1, 1, 2, 1),
   (1, 0, 0, 0), (1, 0, 0, 1), (1, 0, 1, 0), (1, 0, 1, 1), (1, 0, 2, 0), (1, 0, 2, 1)]

theorem xl_eq : Finset.univ.filter usedT = xl.toFinset := by decide
theorem xl_nodup : xl.Nodup := by decide

/-- A transfer's send cell on device `c`, and its receive cell. -/
abbrev sCell (c : Dev nD) (t : Tr) : GSem nD τ sig := dcell c (sa t.1) t.2.1 t.2.2.1 t.2.2.2
abbrev rCell (c : Dev nD) (t : Tr) : GSem nD τ sig := dcell c (ra t.1) t.2.1 t.2.2.1 t.2.2.2

omit [FloatOps F] in
theorem kcell_sIx (c : Dev nD) (t : Tr) : kcell (c, sIx t) = sCell c t := kcell_dma c _ _ _ _
omit [FloatOps F] in
theorem kcell_rIx (c : Dev nD) (t : Tr) : kcell (c, rIx t) = rCell c t := kcell_dma c _ _ _ _

omit [FloatOps F] in
/-- A device's positions, as a sum over its transfers. -/
theorem positions_eq (c : Dev nD) :
    (positions c : sProp 𝕄)
      = iprop(atPos ER (barCell c) 0 ∅ 0 ∗ bigSep (Finset.univ.filter usedT) fun t => iprop(atPos ER (sCell c t) 0 ∅ 0 ∗ atPos ER (rCell c t) 0 ∅ 0)) := by
  rw [bigSep_eq_bigSepL_of_eq xl xl_eq xl_nodup]
  rfl

omit [FloatOps F] in
/-- The tokens a device pays its transfers with, as a sum over its transfers. -/
theorem xferToks_eq (c : Dev nD) :
    (xferToks c : sProp 𝕄)
      = bigSep (Finset.univ.filter usedT) fun t => iprop(dutyTok ER (sCell c t) 0 0 ∗ dutyTok ER (rCell (peer t.2.2.1 t.2.1 c) t) 0 0) := by
  rw [bigSep_eq_bigSepL_of_eq xl xl_eq xl_nodup]
  rfl

omit [FloatOps F] in
/-- The tokens a device pays its handshakes with, as a sum over the five partners. -/
theorem barToks_eq (c : Dev nD) :
    (barToks c : sProp 𝕄) = bigSep Finset.univ fun i : Fin 5 => dutyTok ER (barCell (xr c (hmask i))) 0 i := by
  rw [bigSep_univ_eq_bigSepL [(0 : Fin 5), 1, 2, 3, 4] (by decide) (by decide)]
  rfl

/-! ## The tokens dealt around -/

/-- Flipping the bits of `μ` is a permutation of the devices. -/
def xrE (μ : Fin 32) : Dev nD ≃ Dev nD := ⟨fun c => xr c μ, fun c => xr c μ, fun c => xr_xr c μ, fun c => xr_xr c μ⟩

omit [FloatOps F] in
/-- Dealing around: in a sum over devices and kinds, each kind's summands may be handed to a permuted device. -/
theorem deal {T : Type} [Fintype T] (e : T → Dev nD ≃ Dev nD) (B : Dev nD → T → sProp 𝕄) :
    (bigSep Finset.univ fun c => bigSep Finset.univ fun t => B c t)
      = bigSep Finset.univ fun c => bigSep Finset.univ fun t => B (e t c) t := by
  rw [bigSep_univ_comm, bigSep_congr (fun t _ => bigSep_univ_equiv (e t) (fun c => B c t)), bigSep_univ_comm]

def bTok : Fin 5 ↪ Fin 124 × Fin 5 := ⟨fun i => (123, i), fun a b h => congrArg Prod.snd h⟩
def sTok : Tr ↪ Fin 124 × Fin 5 := ⟨fun t => (sIx t, 0), fun a b h => sIx_inj (congrArg Prod.fst h)⟩
def rTok : Tr ↪ Fin 124 × Fin 5 := ⟨fun t => (rIx t, 0), fun a b h => rIx_inj (congrArg Prod.fst h)⟩

/-- The duties of a device's cells: the five of its handshake cell, one per send cell, one per receive cell. -/
theorem tokN_eq : tokN = Finset.univ.map bTok ∪ ((Finset.univ.filter usedT).map sTok ∪ (Finset.univ.filter usedT).map rTok) := by decide
theorem tokN_disj1 : Disjoint (Finset.univ.map bTok) ((Finset.univ.filter usedT).map sTok ∪ (Finset.univ.filter usedT).map rTok) := by decide
theorem tokN_disj2 : Disjoint ((Finset.univ.filter usedT).map sTok) ((Finset.univ.filter usedT).map rTok) := by decide

omit [FloatOps F] in
theorem tokN_sep (Ψ : Fin 124 × Fin 5 → sProp 𝕄) :
    bigSep tokN Ψ = iprop((bigSep Finset.univ fun i : Fin 5 => Ψ (123, i))
      ∗ ((bigSep (Finset.univ.filter usedT) fun t => Ψ (sIx t, 0)) ∗ bigSep (Finset.univ.filter usedT) fun t => Ψ (rIx t, 0))) := by
  rw [tokN_eq, bigSep_union tokN_disj1, bigSep_union tokN_disj2, bigSep_map, bigSep_map, bigSep_map]
  rfl

omit [FloatOps F] in
/-- Every device's own cells' tokens, dealt around: a handshake duty's to the partner that pays it, a receive
    cell's to the sender; a send cell's stays. -/
theorem toks_around :
    (bigSep Finset.univ fun c : Dev nD => bigSep tokN fun x => (dutyTok ER (kcell (c, x.1)) 0 x.2 : sProp 𝕄))
      = bigSep Finset.univ fun c : Dev nD => iprop(barToks c ∗ xferToks c) := by
  have hL (c : Dev nD) : (bigSep tokN fun x => (dutyTok ER (kcell (c, x.1)) 0 x.2 : sProp 𝕄))
      = iprop((bigSep Finset.univ fun i : Fin 5 => dutyTok ER (barCell c) 0 i)
        ∗ ((bigSep Finset.univ fun t : Tu => dutyTok ER (sCell c t.1) 0 0) ∗ bigSep Finset.univ fun t : Tu => dutyTok ER (rCell c t.1) 0 0)) := by
    rw [tokN_sep, bigSep_subtype usedT (fun t => (dutyTok ER (sCell c t) 0 0 : sProp 𝕄)),
      bigSep_subtype usedT (fun t => (dutyTok ER (rCell c t) 0 0 : sProp 𝕄))]
    simp only [kcell_sIx, kcell_rIx]
    rfl
  have hR (c : Dev nD) : (iprop(barToks c ∗ xferToks c) : sProp 𝕄)
      = iprop((bigSep Finset.univ fun i : Fin 5 => dutyTok ER (barCell (xrE (hmask i) c)) 0 i)
        ∗ ((bigSep Finset.univ fun t : Tu => dutyTok ER (sCell c t.1) 0 0)
          ∗ bigSep Finset.univ fun t : Tu => dutyTok ER (rCell (xrE (mask t.1.2.2.1 t.1.2.1) c) t.1) 0 0)) := by
    rw [barToks_eq, xferToks_eq, bigSep_sep', bigSep_subtype usedT (fun t => (dutyTok ER (sCell c t) 0 0 : sProp 𝕄)),
      bigSep_subtype usedT (fun t => (dutyTok ER (rCell (xrE (mask t.2.2.1 t.2.1) c) t) 0 0 : sProp 𝕄))]
    rfl
  rw [bigSep_congr (fun c _ => hL c), bigSep_congr (fun c _ => hR c), bigSep_sep', bigSep_sep', bigSep_sep', bigSep_sep',
    deal (fun i : Fin 5 => xrE (hmask i)) (fun c i => (dutyTok ER (barCell c) 0 i : sProp 𝕄)),
    deal (fun t : Tu => xrE (mask t.1.2.2.1 t.1.2.1)) (fun c t => (dutyTok ER (rCell c t.1) 0 0 : sProp 𝕄))]

/-! ## The global step -/

omit [FloatOps F] in
theorem ourIx_sep (Ψ : Dev nD × Fin 124 → sProp 𝕄) :
    bigSep ourIx Ψ = bigSep Finset.univ fun c : Dev nD => bigSep ourN fun n => Ψ (c, n) := by
  unfold ourIx ourN
  exact bigSep_filter_snd (fun n : Fin 124 => ours n = true) Ψ

omit [FloatOps F] in
/-- A device's positions are its positions on its cells in use. -/
theorem positions_ourN (c : Dev nD) :
    (bigSep ourN fun n => (atPos ER (kcell (c, n)) 0 ∅ 0 : sProp 𝕄)) = positions c := by
  rw [ourN_sep, positions_eq]
  simp only [kcell_sIx, kcell_rIx]
  rfl

/-- What stays with device `c`: its positions, the tokens of the duties it pays, its idle semaphores. -/
def linear (c : Dev nD) : sProp 𝕄 := iprop(positions c ∗ iprop(barToks c ∗ xferToks c) ∗ idle c)

omit [FloatOps F] in
theorem linear_sep :
    (iprop(bigSep Finset.univ (fun c : Dev nD => (positions c : sProp 𝕄))
      ∗ (bigSep Finset.univ fun c : Dev nD => iprop(barToks c ∗ xferToks c)) ∗ bigSep Finset.univ fun c : Dev nD => idle c) : sProp 𝕄)
      = bigSep Finset.univ fun c : Dev nD => linear c := by
  unfold linear
  exact ((bigSep_sep' Finset.univ (fun c : Dev nD => (positions c : sProp 𝕄)) (fun c => iprop(iprop(barToks c ∗ xferToks c) ∗ idle c))).trans
    (congrArg (fun X => iprop(bigSep Finset.univ (fun c : Dev nD => (positions c : sProp 𝕄)) ∗ X))
      (bigSep_sep' Finset.univ (fun c : Dev nD => (iprop(barToks c ∗ xferToks c) : sProp 𝕄)) (fun c => idle c)))).symm

theorem ghost_intro (K : Dev nD × Fin 124 → ℕ) (c : Dev nD) : iprop(records ct K ∗ linear c) ⊢ G' ct c := by
  unfold linear G'
  iintro ⟨#HR, Hp, ⟨Hb, Hx⟩, Hi⟩
  isplitr [Hi]
  · iexists K
    isplitr; · iexact HR
    isplitl [Hp]; · iexact Hp
    isplitl [Hb]; · iexact Hb
    iexact Hx
  iexact Hi

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep ourN fun n => iprop(∃ κ : ℕ, cellInv ER (sched ct) κ (kcell (c, n))))
          ∗ (bigSep ourN fun n => iprop(atPos ER (kcell (c, n)) 0 ∅ 0 ∗ reached ER (kcell (c, n)) 0))
          ∗ (bigSep tokN fun x => dutyTok ER (kcell (c, x.1)) 0 x.2) ∗ idle c) : sProp 𝕄)
      ⊢ bigSep Finset.univ (G' ct) := by
  rw [bigSep_sep', bigSep_sep', bigSep_sep',
    ← ourIx_sep (fun p : Dev nD × Fin 124 => iprop(∃ κ : ℕ, cellInv ER (sched ct) κ (kcell p))),
    bigSep_congr (s := Finset.univ) (fun (c : Dev nD) _ => bigSep_sep' ourN (fun n => (atPos ER (kcell (c, n)) 0 ∅ 0 : sProp 𝕄)) (fun n => reached ER (kcell (c, n)) 0)),
    bigSep_sep', ← ourIx_sep (fun p : Dev nD × Fin 124 => (reached ER (kcell p) 0 : sProp 𝕄)),
    bigSep_congr (s := Finset.univ) (fun (c : Dev nD) _ => positions_ourN c), toks_around]
  iintro ⟨HI, ⟨Hat, #HR⟩, Htok, Hidle⟩
  ihave HK := (BI.bigSep_exists_pi ourIx (fun (p : Dev nD × Fin 124) (κ : ℕ) => (cellInv ER (sched ct) κ (kcell p) : sProp 𝕄))) $$ HI
  icases HK with ⟨%K, #HI⟩
  iapply (bigSep_with_persistent (R := records ct K) fun c _ => ghost_intro ct K c)
  isplitr
  · unfold records; isplitl; · iexact HI
    iexact HR
  · iapply (Entails.of_eq (linear_sep (F := F)))
    isplitl [Hat]; · iexact Hat
    isplitl [Htok]; · iexact Htok
    iexact Hidle

/-- The global step: the own and the unscoped semaphores of every device at once. -/
theorem hglob : (bigSep Finset.univ fun c => iprop(Pipeline.ownSems0 (Ix := Unit) (Name := ℕ) (U := UU) (Lvl := ℕ) (Val := Elt F) (τ := τ) osem c ∗ unscopedSems0 c ∗ G ct c) : sProp 𝕄)
    ⊢ |={Set.univ}=> bigSep Finset.univ (G' ct) :=
  ((bigSep_mono fun c _ => core_alloc ct c).trans (bigSep_fupd _ _)).trans (BI.fupd_mono (regroup ct))

end Cert.Kernel.Fund
end

/-- info: 'Cert.Kernel.Fund.hu₀' depends on axioms: [propext, Classical.choice, Quot.sound] -/
#guard_msgs in #print axioms Cert.Kernel.Fund.hu₀

/-- info: 'Cert.Kernel.Fund.core_alloc' depends on axioms: [propext, Classical.choice, Quot.sound] -/
#guard_msgs in #print axioms Cert.Kernel.Fund.core_alloc

/-- info: 'Cert.Kernel.Fund.toks_around' depends on axioms: [propext, Classical.choice, Quot.sound] -/
#guard_msgs in #print axioms Cert.Kernel.Fund.toks_around

/-- info: 'Cert.Kernel.Fund.regroup' depends on axioms: [propext, Classical.choice, Quot.sound] -/
#guard_msgs in #print axioms Cert.Kernel.Fund.regroup

/-- info: 'Cert.Kernel.Fund.hglob' depends on axioms: [propext, Classical.choice, Quot.sound] -/
#guard_msgs in #print axioms Cert.Kernel.Fund.hglob
-- ==== Proof.StateTabK.lean ====
import proofs.«900879_g7700000000000880_dist_matmul_gelu_kshard_i_m1024_n1024_k512_v7x_i32_bf16_1_alg».proof.Proof.GhostK

noncomputable section

namespace Cert.Kernel.StateTab

open Cert.Kernel Cert.Kernel.Gen Cert.Kernel.Proto Cert.Kernel.Tab Cert.Kernel.Held Cert.Kernel.PayTab
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

local notation "𝕄" => MT nD τ sig Unit (Elt F) ℕ UU ℕ

/-- The tokens of the transfers after the first stage's six. -/
def toksFrom6 (c : Dev nD) : sProp 𝕄 :=
  iprop((dutyTok ER (dcell c 0 1 0 0) 0 0 ∗ dutyTok ER (dcell (peer 0 1 c) 1 1 0 0) 0 0)
    ∗ (dutyTok ER (dcell c 0 1 0 1) 0 0 ∗ dutyTok ER (dcell (peer 0 1 c) 1 1 0 1) 0 0)
    ∗ (dutyTok ER (dcell c 0 1 1 0) 0 0 ∗ dutyTok ER (dcell (peer 1 1 c) 1 1 1 0) 0 0)
    ∗ (dutyTok ER (dcell c 0 1 1 1) 0 0 ∗ dutyTok ER (dcell (peer 1 1 c) 1 1 1 1) 0 0)
    ∗ (dutyTok ER (dcell c 0 1 2 0) 0 0 ∗ dutyTok ER (dcell (peer 2 1 c) 1 1 2 0) 0 0)
    ∗ (dutyTok ER (dcell c 0 1 2 1) 0 0 ∗ dutyTok ER (dcell (peer 2 1 c) 1 1 2 1) 0 0)
    ∗ (dutyTok ER (dcell c 0 2 0 0) 0 0 ∗ dutyTok ER (dcell (peer 0 2 c) 1 2 0 0) 0 0)
    ∗ (dutyTok ER (dcell c 0 2 0 1) 0 0 ∗ dutyTok ER (dcell (peer 0 2 c) 1 2 0 1) 0 0)
    ∗ (dutyTok ER (dcell c 0 2 1 0) 0 0 ∗ dutyTok ER (dcell (peer 1 2 c) 1 2 1 0) 0 0)
    ∗ (dutyTok ER (dcell c 0 2 1 1) 0 0 ∗ dutyTok ER (dcell (peer 1 2 c) 1 2 1 1) 0 0)
    ∗ (dutyTok ER (dcell c 0 2 2 0) 0 0 ∗ dutyTok ER (dcell (peer 2 2 c) 1 2 2 0) 0 0)
    ∗ (dutyTok ER (dcell c 0 2 2 1) 0 0 ∗ dutyTok ER (dcell (peer 2 2 c) 1 2 2 1) 0 0)
    ∗ (dutyTok ER (dcell c 0 3 0 0) 0 0 ∗ dutyTok ER (dcell (peer 0 3 c) 1 3 0 0) 0 0)
    ∗ (dutyTok ER (dcell c 0 3 0 1) 0 0 ∗ dutyTok ER (dcell (peer 0 3 c) 1 3 0 1) 0 0)
    ∗ (dutyTok ER (dcell c 0 3 1 0) 0 0 ∗ dutyTok ER (dcell (peer 1 3 c) 1 3 1 0) 0 0)
    ∗ (dutyTok ER (dcell c 0 3 1 1) 0 0 ∗ dutyTok ER (dcell (peer 1 3 c) 1 3 1 1) 0 0)
    ∗ (dutyTok ER (dcell c 0 3 2 0) 0 0 ∗ dutyTok ER (dcell (peer 2 3 c) 1 3 2 0) 0 0)
    ∗ (dutyTok ER (dcell c 0 3 2 1) 0 0 ∗ dutyTok ER (dcell (peer 2 3 c) 1 3 2 1) 0 0)
    ∗ (dutyTok ER (dcell c 0 4 0 0) 0 0 ∗ dutyTok ER (dcell (peer 0 4 c) 1 4 0 0) 0 0)
    ∗ (dutyTok ER (dcell c 0 4 1 0) 0 0 ∗ dutyTok ER (dcell (peer 1 4 c) 1 4 1 0) 0 0)
    ∗ (dutyTok ER (dcell c 0 4 2 0) 0 0 ∗ dutyTok ER (dcell (peer 2 4 c) 1 4 2 0) 0 0)
    ∗ (dutyTok ER (dcell c 2 4 0 0) 0 0 ∗ dutyTok ER (dcell (peer 0 4 c) 3 4 0 0) 0 0)
    ∗ (dutyTok ER (dcell c 2 4 1 0) 0 0 ∗ dutyTok ER (dcell (peer 1 4 c) 3 4 1 0) 0 0)
    ∗ (dutyTok ER (dcell c 2 4 2 0) 0 0 ∗ dutyTok ER (dcell (peer 2 4 c) 3 4 2 0) 0 0)
    ∗ (dutyTok ER (dcell c 2 3 0 0) 0 0 ∗ dutyTok ER (dcell (peer 0 3 c) 3 3 0 0) 0 0)
    ∗ (dutyTok ER (dcell c 2 3 0 1) 0 0 ∗ dutyTok ER (dcell (peer 0 3 c) 3 3 0 1) 0 0)
    ∗ (dutyTok ER (dcell c 2 3 1 0) 0 0 ∗ dutyTok ER (dcell (peer 1 3 c) 3 3 1 0) 0 0)
    ∗ (dutyTok ER (dcell c 2 3 1 1) 0 0 ∗ dutyTok ER (dcell (peer 1 3 c) 3 3 1 1) 0 0)
    ∗ (dutyTok ER (dcell c 2 3 2 0) 0 0 ∗ dutyTok ER (dcell (peer 2 3 c) 3 3 2 0) 0 0)
    ∗ (dutyTok ER (dcell c 2 3 2 1) 0 0 ∗ dutyTok ER (dcell (peer 2 3 c) 3 3 2 1) 0 0)
    ∗ (dutyTok ER (dcell c 2 2 0 0) 0 0 ∗ dutyTok ER (dcell (peer 0 2 c) 3 2 0 0) 0 0)
    ∗ (dutyTok ER (dcell c 2 2 0 1) 0 0 ∗ dutyTok ER (dcell (peer 0 2 c) 3 2 0 1) 0 0)
    ∗ (dutyTok ER (dcell c 2 2 1 0) 0 0 ∗ dutyTok ER (dcell (peer 1 2 c) 3 2 1 0) 0 0)
    ∗ (dutyTok ER (dcell c 2 2 1 1) 0 0 ∗ dutyTok ER (dcell (peer 1 2 c) 3 2 1 1) 0 0)
    ∗ (dutyTok ER (dcell c 2 2 2 0) 0 0 ∗ dutyTok ER (dcell (peer 2 2 c) 3 2 2 0) 0 0)
    ∗ (dutyTok ER (dcell c 2 2 2 1) 0 0 ∗ dutyTok ER (dcell (peer 2 2 c) 3 2 2 1) 0 0)
    ∗ (dutyTok ER (dcell c 2 1 0 0) 0 0 ∗ dutyTok ER (dcell (peer 0 1 c) 3 1 0 0) 0 0)
    ∗ (dutyTok ER (dcell c 2 1 0 1) 0 0 ∗ dutyTok ER (dcell (peer 0 1 c) 3 1 0 1) 0 0)
    ∗ (dutyTok ER (dcell c 2 1 1 0) 0 0 ∗ dutyTok ER (dcell (peer 1 1 c) 3 1 1 0) 0 0)
    ∗ (dutyTok ER (dcell c 2 1 1 1) 0 0 ∗ dutyTok ER (dcell (peer 1 1 c) 3 1 1 1) 0 0)
    ∗ (dutyTok ER (dcell c 2 1 2 0) 0 0 ∗ dutyTok ER (dcell (peer 2 1 c) 3 1 2 0) 0 0)
    ∗ (dutyTok ER (dcell c 2 1 2 1) 0 0 ∗ dutyTok ER (dcell (peer 2 1 c) 3 1 2 1) 0 0)
    ∗ (dutyTok ER (dcell c 2 0 0 0) 0 0 ∗ dutyTok ER (dcell (peer 0 0 c) 3 0 0 0) 0 0)
    ∗ (dutyTok ER (dcell c 2 0 0 1) 0 0 ∗ dutyTok ER (dcell (peer 0 0 c) 3 0 0 1) 0 0)
    ∗ (dutyTok ER (dcell c 2 0 1 0) 0 0 ∗ dutyTok ER (dcell (peer 1 0 c) 3 0 1 0) 0 0)
    ∗ (dutyTok ER (dcell c 2 0 1 1) 0 0 ∗ dutyTok ER (dcell (peer 1 0 c) 3 0 1 1) 0 0)
    ∗ (dutyTok ER (dcell c 2 0 2 0) 0 0 ∗ dutyTok ER (dcell (peer 2 0 c) 3 0 2 0) 0 0)
    ∗ (dutyTok ER (dcell c 2 0 2 1) 0 0 ∗ dutyTok ER (dcell (peer 2 0 c) 3 0 2 1) 0 0))

/-- The tokens of the gathering phase's 27 transfers. -/
def toksAG (c : Dev nD) : sProp 𝕄 :=
  iprop((dutyTok ER (dcell c 2 4 0 0) 0 0 ∗ dutyTok ER (dcell (peer 0 4 c) 3 4 0 0) 0 0)
    ∗ (dutyTok ER (dcell c 2 4 1 0) 0 0 ∗ dutyTok ER (dcell (peer 1 4 c) 3 4 1 0) 0 0)
    ∗ (dutyTok ER (dcell c 2 4 2 0) 0 0 ∗ dutyTok ER (dcell (peer 2 4 c) 3 4 2 0) 0 0)
    ∗ (dutyTok ER (dcell c 2 3 0 0) 0 0 ∗ dutyTok ER (dcell (peer 0 3 c) 3 3 0 0) 0 0)
    ∗ (dutyTok ER (dcell c 2 3 0 1) 0 0 ∗ dutyTok ER (dcell (peer 0 3 c) 3 3 0 1) 0 0)
    ∗ (dutyTok ER (dcell c 2 3 1 0) 0 0 ∗ dutyTok ER (dcell (peer 1 3 c) 3 3 1 0) 0 0)
    ∗ (dutyTok ER (dcell c 2 3 1 1) 0 0 ∗ dutyTok ER (dcell (peer 1 3 c) 3 3 1 1) 0 0)
    ∗ (dutyTok ER (dcell c 2 3 2 0) 0 0 ∗ dutyTok ER (dcell (peer 2 3 c) 3 3 2 0) 0 0)
    ∗ (dutyTok ER (dcell c 2 3 2 1) 0 0 ∗ dutyTok ER (dcell (peer 2 3 c) 3 3 2 1) 0 0)
    ∗ (dutyTok ER (dcell c 2 2 0 0) 0 0 ∗ dutyTok ER (dcell (peer 0 2 c) 3 2 0 0) 0 0)
    ∗ (dutyTok ER (dcell c 2 2 0 1) 0 0 ∗ dutyTok ER (dcell (peer 0 2 c) 3 2 0 1) 0 0)
    ∗ (dutyTok ER (dcell c 2 2 1 0) 0 0 ∗ dutyTok ER (dcell (peer 1 2 c) 3 2 1 0) 0 0)
    ∗ (dutyTok ER (dcell c 2 2 1 1) 0 0 ∗ dutyTok ER (dcell (peer 1 2 c) 3 2 1 1) 0 0)
    ∗ (dutyTok ER (dcell c 2 2 2 0) 0 0 ∗ dutyTok ER (dcell (peer 2 2 c) 3 2 2 0) 0 0)
    ∗ (dutyTok ER (dcell c 2 2 2 1) 0 0 ∗ dutyTok ER (dcell (peer 2 2 c) 3 2 2 1) 0 0)
    ∗ (dutyTok ER (dcell c 2 1 0 0) 0 0 ∗ dutyTok ER (dcell (peer 0 1 c) 3 1 0 0) 0 0)
    ∗ (dutyTok ER (dcell c 2 1 0 1) 0 0 ∗ dutyTok ER (dcell (peer 0 1 c) 3 1 0 1) 0 0)
    ∗ (dutyTok ER (dcell c 2 1 1 0) 0 0 ∗ dutyTok ER (dcell (peer 1 1 c) 3 1 1 0) 0 0)
    ∗ (dutyTok ER (dcell c 2 1 1 1) 0 0 ∗ dutyTok ER (dcell (peer 1 1 c) 3 1 1 1) 0 0)
    ∗ (dutyTok ER (dcell c 2 1 2 0) 0 0 ∗ dutyTok ER (dcell (peer 2 1 c) 3 1 2 0) 0 0)
    ∗ (dutyTok ER (dcell c 2 1 2 1) 0 0 ∗ dutyTok ER (dcell (peer 2 1 c) 3 1 2 1) 0 0)
    ∗ (dutyTok ER (dcell c 2 0 0 0) 0 0 ∗ dutyTok ER (dcell (peer 0 0 c) 3 0 0 0) 0 0)
    ∗ (dutyTok ER (dcell c 2 0 0 1) 0 0 ∗ dutyTok ER (dcell (peer 0 0 c) 3 0 0 1) 0 0)
    ∗ (dutyTok ER (dcell c 2 0 1 0) 0 0 ∗ dutyTok ER (dcell (peer 1 0 c) 3 0 1 0) 0 0)
    ∗ (dutyTok ER (dcell c 2 0 1 1) 0 0 ∗ dutyTok ER (dcell (peer 1 0 c) 3 0 1 1) 0 0)
    ∗ (dutyTok ER (dcell c 2 0 2 0) 0 0 ∗ dutyTok ER (dcell (peer 2 0 c) 3 0 2 0) 0 0)
    ∗ (dutyTok ER (dcell c 2 0 2 1) 0 0 ∗ dutyTok ER (dcell (peer 2 0 c) 3 0 2 1) 0 0))

/-- The positions on the summing phase's cells, none waited yet. -/
def posRS (c : Dev nD) : sProp 𝕄 :=
  iprop((atPos ER (dcell c 0 0 0 0) 0 ∅ 0 ∗ atPos ER (dcell c 1 0 0 0) 0 ∅ 0)
    ∗ (atPos ER (dcell c 0 0 0 1) 0 ∅ 0 ∗ atPos ER (dcell c 1 0 0 1) 0 ∅ 0)
    ∗ (atPos ER (dcell c 0 0 1 0) 0 ∅ 0 ∗ atPos ER (dcell c 1 0 1 0) 0 ∅ 0)
    ∗ (atPos ER (dcell c 0 0 1 1) 0 ∅ 0 ∗ atPos ER (dcell c 1 0 1 1) 0 ∅ 0)
    ∗ (atPos ER (dcell c 0 0 2 0) 0 ∅ 0 ∗ atPos ER (dcell c 1 0 2 0) 0 ∅ 0)
    ∗ (atPos ER (dcell c 0 0 2 1) 0 ∅ 0 ∗ atPos ER (dcell c 1 0 2 1) 0 ∅ 0)
    ∗ (atPos ER (dcell c 0 1 0 0) 0 ∅ 0 ∗ atPos ER (dcell c 1 1 0 0) 0 ∅ 0)
    ∗ (atPos ER (dcell c 0 1 0 1) 0 ∅ 0 ∗ atPos ER (dcell c 1 1 0 1) 0 ∅ 0)
    ∗ (atPos ER (dcell c 0 1 1 0) 0 ∅ 0 ∗ atPos ER (dcell c 1 1 1 0) 0 ∅ 0)
    ∗ (atPos ER (dcell c 0 1 1 1) 0 ∅ 0 ∗ atPos ER (dcell c 1 1 1 1) 0 ∅ 0)
    ∗ (atPos ER (dcell c 0 1 2 0) 0 ∅ 0 ∗ atPos ER (dcell c 1 1 2 0) 0 ∅ 0)
    ∗ (atPos ER (dcell c 0 1 2 1) 0 ∅ 0 ∗ atPos ER (dcell c 1 1 2 1) 0 ∅ 0)
    ∗ (atPos ER (dcell c 0 2 0 0) 0 ∅ 0 ∗ atPos ER (dcell c 1 2 0 0) 0 ∅ 0)
    ∗ (atPos ER (dcell c 0 2 0 1) 0 ∅ 0 ∗ atPos ER (dcell c 1 2 0 1) 0 ∅ 0)
    ∗ (atPos ER (dcell c 0 2 1 0) 0 ∅ 0 ∗ atPos ER (dcell c 1 2 1 0) 0 ∅ 0)
    ∗ (atPos ER (dcell c 0 2 1 1) 0 ∅ 0 ∗ atPos ER (dcell c 1 2 1 1) 0 ∅ 0)
    ∗ (atPos ER (dcell c 0 2 2 0) 0 ∅ 0 ∗ atPos ER (dcell c 1 2 2 0) 0 ∅ 0)
    ∗ (atPos ER (dcell c 0 2 2 1) 0 ∅ 0 ∗ atPos ER (dcell c 1 2 2 1) 0 ∅ 0)
    ∗ (atPos ER (dcell c 0 3 0 0) 0 ∅ 0 ∗ atPos ER (dcell c 1 3 0 0) 0 ∅ 0)
    ∗ (atPos ER (dcell c 0 3 0 1) 0 ∅ 0 ∗ atPos ER (dcell c 1 3 0 1) 0 ∅ 0)
    ∗ (atPos ER (dcell c 0 3 1 0) 0 ∅ 0 ∗ atPos ER (dcell c 1 3 1 0) 0 ∅ 0)
    ∗ (atPos ER (dcell c 0 3 1 1) 0 ∅ 0 ∗ atPos ER (dcell c 1 3 1 1) 0 ∅ 0)
    ∗ (atPos ER (dcell c 0 3 2 0) 0 ∅ 0 ∗ atPos ER (dcell c 1 3 2 0) 0 ∅ 0)
    ∗ (atPos ER (dcell c 0 3 2 1) 0 ∅ 0 ∗ atPos ER (dcell c 1 3 2 1) 0 ∅ 0)
    ∗ (atPos ER (dcell c 0 4 0 0) 0 ∅ 0 ∗ atPos ER (dcell c 1 4 0 0) 0 ∅ 0)
    ∗ (atPos ER (dcell c 0 4 1 0) 0 ∅ 0 ∗ atPos ER (dcell c 1 4 1 0) 0 ∅ 0)
    ∗ (atPos ER (dcell c 0 4 2 0) 0 ∅ 0 ∗ atPos ER (dcell c 1 4 2 0) 0 ∅ 0))

/-- The positions on the gathering phase's cells, none waited yet. -/
def posAG (c : Dev nD) : sProp 𝕄 :=
  iprop((atPos ER (dcell c 2 4 0 0) 0 ∅ 0 ∗ atPos ER (dcell c 3 4 0 0) 0 ∅ 0)
    ∗ (atPos ER (dcell c 2 4 1 0) 0 ∅ 0 ∗ atPos ER (dcell c 3 4 1 0) 0 ∅ 0)
    ∗ (atPos ER (dcell c 2 4 2 0) 0 ∅ 0 ∗ atPos ER (dcell c 3 4 2 0) 0 ∅ 0)
    ∗ (atPos ER (dcell c 2 3 0 0) 0 ∅ 0 ∗ atPos ER (dcell c 3 3 0 0) 0 ∅ 0)
    ∗ (atPos ER (dcell c 2 3 0 1) 0 ∅ 0 ∗ atPos ER (dcell c 3 3 0 1) 0 ∅ 0)
    ∗ (atPos ER (dcell c 2 3 1 0) 0 ∅ 0 ∗ atPos ER (dcell c 3 3 1 0) 0 ∅ 0)
    ∗ (atPos ER (dcell c 2 3 1 1) 0 ∅ 0 ∗ atPos ER (dcell c 3 3 1 1) 0 ∅ 0)
    ∗ (atPos ER (dcell c 2 3 2 0) 0 ∅ 0 ∗ atPos ER (dcell c 3 3 2 0) 0 ∅ 0)
    ∗ (atPos ER (dcell c 2 3 2 1) 0 ∅ 0 ∗ atPos ER (dcell c 3 3 2 1) 0 ∅ 0)
    ∗ (atPos ER (dcell c 2 2 0 0) 0 ∅ 0 ∗ atPos ER (dcell c 3 2 0 0) 0 ∅ 0)
    ∗ (atPos ER (dcell c 2 2 0 1) 0 ∅ 0 ∗ atPos ER (dcell c 3 2 0 1) 0 ∅ 0)
    ∗ (atPos ER (dcell c 2 2 1 0) 0 ∅ 0 ∗ atPos ER (dcell c 3 2 1 0) 0 ∅ 0)
    ∗ (atPos ER (dcell c 2 2 1 1) 0 ∅ 0 ∗ atPos ER (dcell c 3 2 1 1) 0 ∅ 0)
    ∗ (atPos ER (dcell c 2 2 2 0) 0 ∅ 0 ∗ atPos ER (dcell c 3 2 2 0) 0 ∅ 0)
    ∗ (atPos ER (dcell c 2 2 2 1) 0 ∅ 0 ∗ atPos ER (dcell c 3 2 2 1) 0 ∅ 0)
    ∗ (atPos ER (dcell c 2 1 0 0) 0 ∅ 0 ∗ atPos ER (dcell c 3 1 0 0) 0 ∅ 0)
    ∗ (atPos ER (dcell c 2 1 0 1) 0 ∅ 0 ∗ atPos ER (dcell c 3 1 0 1) 0 ∅ 0)
    ∗ (atPos ER (dcell c 2 1 1 0) 0 ∅ 0 ∗ atPos ER (dcell c 3 1 1 0) 0 ∅ 0)
    ∗ (atPos ER (dcell c 2 1 1 1) 0 ∅ 0 ∗ atPos ER (dcell c 3 1 1 1) 0 ∅ 0)
    ∗ (atPos ER (dcell c 2 1 2 0) 0 ∅ 0 ∗ atPos ER (dcell c 3 1 2 0) 0 ∅ 0)
    ∗ (atPos ER (dcell c 2 1 2 1) 0 ∅ 0 ∗ atPos ER (dcell c 3 1 2 1) 0 ∅ 0)
    ∗ (atPos ER (dcell c 2 0 0 0) 0 ∅ 0 ∗ atPos ER (dcell c 3 0 0 0) 0 ∅ 0)
    ∗ (atPos ER (dcell c 2 0 0 1) 0 ∅ 0 ∗ atPos ER (dcell c 3 0 0 1) 0 ∅ 0)
    ∗ (atPos ER (dcell c 2 0 1 0) 0 ∅ 0 ∗ atPos ER (dcell c 3 0 1 0) 0 ∅ 0)
    ∗ (atPos ER (dcell c 2 0 1 1) 0 ∅ 0 ∗ atPos ER (dcell c 3 0 1 1) 0 ∅ 0)
    ∗ (atPos ER (dcell c 2 0 2 0) 0 ∅ 0 ∗ atPos ER (dcell c 3 0 2 0) 0 ∅ 0)
    ∗ (atPos ER (dcell c 2 0 2 1) 0 ∅ 0 ∗ atPos ER (dcell c 3 0 2 1) 0 ∅ 0))

/-- The launch credit on the summing phase's receive cells. -/
def credRS (c : Dev nD) : sProp 𝕄 :=
  iprop(cred (tallyAt (dcell c 1 0 0 0) () (amtIx (dsem 1 0 0 0).val))
    ∗ cred (tallyAt (dcell c 1 0 0 1) () (amtIx (dsem 1 0 0 1).val))
    ∗ cred (tallyAt (dcell c 1 0 1 0) () (amtIx (dsem 1 0 1 0).val))
    ∗ cred (tallyAt (dcell c 1 0 1 1) () (amtIx (dsem 1 0 1 1).val))
    ∗ cred (tallyAt (dcell c 1 0 2 0) () (amtIx (dsem 1 0 2 0).val))
    ∗ cred (tallyAt (dcell c 1 0 2 1) () (amtIx (dsem 1 0 2 1).val))
    ∗ cred (tallyAt (dcell c 1 1 0 0) () (amtIx (dsem 1 1 0 0).val))
    ∗ cred (tallyAt (dcell c 1 1 0 1) () (amtIx (dsem 1 1 0 1).val))
    ∗ cred (tallyAt (dcell c 1 1 1 0) () (amtIx (dsem 1 1 1 0).val))
    ∗ cred (tallyAt (dcell c 1 1 1 1) () (amtIx (dsem 1 1 1 1).val))
    ∗ cred (tallyAt (dcell c 1 1 2 0) () (amtIx (dsem 1 1 2 0).val))
    ∗ cred (tallyAt (dcell c 1 1 2 1) () (amtIx (dsem 1 1 2 1).val))
    ∗ cred (tallyAt (dcell c 1 2 0 0) () (amtIx (dsem 1 2 0 0).val))
    ∗ cred (tallyAt (dcell c 1 2 0 1) () (amtIx (dsem 1 2 0 1).val))
    ∗ cred (tallyAt (dcell c 1 2 1 0) () (amtIx (dsem 1 2 1 0).val))
    ∗ cred (tallyAt (dcell c 1 2 1 1) () (amtIx (dsem 1 2 1 1).val))
    ∗ cred (tallyAt (dcell c 1 2 2 0) () (amtIx (dsem 1 2 2 0).val))
    ∗ cred (tallyAt (dcell c 1 2 2 1) () (amtIx (dsem 1 2 2 1).val))
    ∗ cred (tallyAt (dcell c 1 3 0 0) () (amtIx (dsem 1 3 0 0).val))
    ∗ cred (tallyAt (dcell c 1 3 0 1) () (amtIx (dsem 1 3 0 1).val))
    ∗ cred (tallyAt (dcell c 1 3 1 0) () (amtIx (dsem 1 3 1 0).val))
    ∗ cred (tallyAt (dcell c 1 3 1 1) () (amtIx (dsem 1 3 1 1).val))
    ∗ cred (tallyAt (dcell c 1 3 2 0) () (amtIx (dsem 1 3 2 0).val))
    ∗ cred (tallyAt (dcell c 1 3 2 1) () (amtIx (dsem 1 3 2 1).val))
    ∗ cred (tallyAt (dcell c 1 4 0 0) () (amtIx (dsem 1 4 0 0).val))
    ∗ cred (tallyAt (dcell c 1 4 1 0) () (amtIx (dsem 1 4 1 0).val))
    ∗ cred (tallyAt (dcell c 1 4 2 0) () (amtIx (dsem 1 4 2 0).val)))

/-- The launch credit on the gathering phase's receive cells. -/
def credAG (c : Dev nD) : sProp 𝕄 :=
  iprop(cred (tallyAt (dcell c 3 4 0 0) () (amtIx (dsem 3 4 0 0).val))
    ∗ cred (tallyAt (dcell c 3 4 1 0) () (amtIx (dsem 3 4 1 0).val))
    ∗ cred (tallyAt (dcell c 3 4 2 0) () (amtIx (dsem 3 4 2 0).val))
    ∗ cred (tallyAt (dcell c 3 3 0 0) () (amtIx (dsem 3 3 0 0).val))
    ∗ cred (tallyAt (dcell c 3 3 0 1) () (amtIx (dsem 3 3 0 1).val))
    ∗ cred (tallyAt (dcell c 3 3 1 0) () (amtIx (dsem 3 3 1 0).val))
    ∗ cred (tallyAt (dcell c 3 3 1 1) () (amtIx (dsem 3 3 1 1).val))
    ∗ cred (tallyAt (dcell c 3 3 2 0) () (amtIx (dsem 3 3 2 0).val))
    ∗ cred (tallyAt (dcell c 3 3 2 1) () (amtIx (dsem 3 3 2 1).val))
    ∗ cred (tallyAt (dcell c 3 2 0 0) () (amtIx (dsem 3 2 0 0).val))
    ∗ cred (tallyAt (dcell c 3 2 0 1) () (amtIx (dsem 3 2 0 1).val))
    ∗ cred (tallyAt (dcell c 3 2 1 0) () (amtIx (dsem 3 2 1 0).val))
    ∗ cred (tallyAt (dcell c 3 2 1 1) () (amtIx (dsem 3 2 1 1).val))
    ∗ cred (tallyAt (dcell c 3 2 2 0) () (amtIx (dsem 3 2 2 0).val))
    ∗ cred (tallyAt (dcell c 3 2 2 1) () (amtIx (dsem 3 2 2 1).val))
    ∗ cred (tallyAt (dcell c 3 1 0 0) () (amtIx (dsem 3 1 0 0).val))
    ∗ cred (tallyAt (dcell c 3 1 0 1) () (amtIx (dsem 3 1 0 1).val))
    ∗ cred (tallyAt (dcell c 3 1 1 0) () (amtIx (dsem 3 1 1 0).val))
    ∗ cred (tallyAt (dcell c 3 1 1 1) () (amtIx (dsem 3 1 1 1).val))
    ∗ cred (tallyAt (dcell c 3 1 2 0) () (amtIx (dsem 3 1 2 0).val))
    ∗ cred (tallyAt (dcell c 3 1 2 1) () (amtIx (dsem 3 1 2 1).val))
    ∗ cred (tallyAt (dcell c 3 0 0 0) () (amtIx (dsem 3 0 0 0).val))
    ∗ cred (tallyAt (dcell c 3 0 0 1) () (amtIx (dsem 3 0 0 1).val))
    ∗ cred (tallyAt (dcell c 3 0 1 0) () (amtIx (dsem 3 0 1 0).val))
    ∗ cred (tallyAt (dcell c 3 0 1 1) () (amtIx (dsem 3 0 1 1).val))
    ∗ cred (tallyAt (dcell c 3 0 2 0) () (amtIx (dsem 3 0 2 0).val))
    ∗ cred (tallyAt (dcell c 3 0 2 1) () (amtIx (dsem 3 0 2 1).val)))

/-- The credit the first stage's six transfers returned on their send cells. -/
def sendCred0 (c : Dev nD) : sProp 𝕄 :=
  iprop(cred (tallyAt (dcell c 0 0 0 0) () (amtIx (dsem 0 0 0 0).val))
    ∗ cred (tallyAt (dcell c 0 0 0 1) () (amtIx (dsem 0 0 0 1).val))
    ∗ cred (tallyAt (dcell c 0 0 1 0) () (amtIx (dsem 0 0 1 0).val))
    ∗ cred (tallyAt (dcell c 0 0 1 1) () (amtIx (dsem 0 0 1 1).val))
    ∗ cred (tallyAt (dcell c 0 0 2 0) () (amtIx (dsem 0 0 2 0).val))
    ∗ cred (tallyAt (dcell c 0 0 2 1) () (amtIx (dsem 0 0 2 1).val)))

/-- The landing rows on the partners still lent to this device: those of the transfers after the first six. -/
def landFrom6 (c : Dev nD) : sProp 𝕄 :=
  iprop(loanV (peer 0 1 c) (dst_rs_1_0_0 c)
    ∗ loanV (peer 0 1 c) (dst_rs_1_0_1 c)
    ∗ loanV (peer 1 1 c) (dst_rs_1_1_0 c)
    ∗ loanV (peer 1 1 c) (dst_rs_1_1_1 c)
    ∗ loanV (peer 2 1 c) (dst_rs_1_2_0 c)
    ∗ loanV (peer 2 1 c) (dst_rs_1_2_1 c)
    ∗ loanV (peer 0 2 c) (dst_rs_2_0_0 c)
    ∗ loanV (peer 0 2 c) (dst_rs_2_0_1 c)
    ∗ loanV (peer 1 2 c) (dst_rs_2_1_0 c)
    ∗ loanV (peer 1 2 c) (dst_rs_2_1_1 c)
    ∗ loanV (peer 2 2 c) (dst_rs_2_2_0 c)
    ∗ loanV (peer 2 2 c) (dst_rs_2_2_1 c)
    ∗ loanV (peer 0 3 c) (dst_rs_3_0_0 c)
    ∗ loanV (peer 0 3 c) (dst_rs_3_0_1 c)
    ∗ loanV (peer 1 3 c) (dst_rs_3_1_0 c)
    ∗ loanV (peer 1 3 c) (dst_rs_3_1_1 c)
    ∗ loanV (peer 2 3 c) (dst_rs_3_2_0 c)
    ∗ loanV (peer 2 3 c) (dst_rs_3_2_1 c)
    ∗ loanV (peer 0 4 c) (dst_rs_4_0_0 c)
    ∗ loanV (peer 1 4 c) (dst_rs_4_1_0 c)
    ∗ loanV (peer 2 4 c) (dst_rs_4_2_0 c)
    ∗ loanV (peer 0 4 c) (dst_ag_4_0_0 c)
    ∗ loanV (peer 1 4 c) (dst_ag_4_1_0 c)
    ∗ loanV (peer 2 4 c) (dst_ag_4_2_0 c)
    ∗ loanV (peer 0 3 c) (dst_ag_3_0_0 c)
    ∗ loanV (peer 0 3 c) (dst_ag_3_0_1 c)
    ∗ loanV (peer 1 3 c) (dst_ag_3_1_0 c)
    ∗ loanV (peer 1 3 c) (dst_ag_3_1_1 c)
    ∗ loanV (peer 2 3 c) (dst_ag_3_2_0 c)
    ∗ loanV (peer 2 3 c) (dst_ag_3_2_1 c)
    ∗ loanV (peer 0 2 c) (dst_ag_2_0_0 c)
    ∗ loanV (peer 0 2 c) (dst_ag_2_0_1 c)
    ∗ loanV (peer 1 2 c) (dst_ag_2_1_0 c)
    ∗ loanV (peer 1 2 c) (dst_ag_2_1_1 c)
    ∗ loanV (peer 2 2 c) (dst_ag_2_2_0 c)
    ∗ loanV (peer 2 2 c) (dst_ag_2_2_1 c)
    ∗ loanV (peer 0 1 c) (dst_ag_1_0_0 c)
    ∗ loanV (peer 0 1 c) (dst_ag_1_0_1 c)
    ∗ loanV (peer 1 1 c) (dst_ag_1_1_0 c)
    ∗ loanV (peer 1 1 c) (dst_ag_1_1_1 c)
    ∗ loanV (peer 2 1 c) (dst_ag_1_2_0 c)
    ∗ loanV (peer 2 1 c) (dst_ag_1_2_1 c)
    ∗ loanV (peer 0 0 c) (dst_ag_0_0_0 c)
    ∗ loanV (peer 0 0 c) (dst_ag_0_0_1 c)
    ∗ loanV (peer 1 0 c) (dst_ag_0_1_0 c)
    ∗ loanV (peer 1 0 c) (dst_ag_0_1_1 c)
    ∗ loanV (peer 2 0 c) (dst_ag_0_2_0 c)
    ∗ loanV (peer 2 0 c) (dst_ag_0_2_1 c))

/-- The landing rows on the partners for the gathering phase. -/
def landAG (c : Dev nD) : sProp 𝕄 :=
  iprop(loanV (peer 0 4 c) (dst_ag_4_0_0 c)
    ∗ loanV (peer 1 4 c) (dst_ag_4_1_0 c)
    ∗ loanV (peer 2 4 c) (dst_ag_4_2_0 c)
    ∗ loanV (peer 0 3 c) (dst_ag_3_0_0 c)
    ∗ loanV (peer 0 3 c) (dst_ag_3_0_1 c)
    ∗ loanV (peer 1 3 c) (dst_ag_3_1_0 c)
    ∗ loanV (peer 1 3 c) (dst_ag_3_1_1 c)
    ∗ loanV (peer 2 3 c) (dst_ag_3_2_0 c)
    ∗ loanV (peer 2 3 c) (dst_ag_3_2_1 c)
    ∗ loanV (peer 0 2 c) (dst_ag_2_0_0 c)
    ∗ loanV (peer 0 2 c) (dst_ag_2_0_1 c)
    ∗ loanV (peer 1 2 c) (dst_ag_2_1_0 c)
    ∗ loanV (peer 1 2 c) (dst_ag_2_1_1 c)
    ∗ loanV (peer 2 2 c) (dst_ag_2_2_0 c)
    ∗ loanV (peer 2 2 c) (dst_ag_2_2_1 c)
    ∗ loanV (peer 0 1 c) (dst_ag_1_0_0 c)
    ∗ loanV (peer 0 1 c) (dst_ag_1_0_1 c)
    ∗ loanV (peer 1 1 c) (dst_ag_1_1_0 c)
    ∗ loanV (peer 1 1 c) (dst_ag_1_1_1 c)
    ∗ loanV (peer 2 1 c) (dst_ag_1_2_0 c)
    ∗ loanV (peer 2 1 c) (dst_ag_1_2_1 c)
    ∗ loanV (peer 0 0 c) (dst_ag_0_0_0 c)
    ∗ loanV (peer 0 0 c) (dst_ag_0_0_1 c)
    ∗ loanV (peer 1 0 c) (dst_ag_0_1_0 c)
    ∗ loanV (peer 1 0 c) (dst_ag_0_1_1 c)
    ∗ loanV (peer 2 0 c) (dst_ag_0_2_0 c)
    ∗ loanV (peer 2 0 c) (dst_ag_0_2_1 c))

/-- The summing phase's cells, waited and closed: their semaphores at zero again. -/
def closedRS (c : Dev nD) : sProp 𝕄 :=
  iprop((semVal (dcell c 0 0 0 0) 0 ∗ semVal (dcell c 1 0 0 0) 0)
    ∗ (semVal (dcell c 0 0 0 1) 0 ∗ semVal (dcell c 1 0 0 1) 0)
    ∗ (semVal (dcell c 0 0 1 0) 0 ∗ semVal (dcell c 1 0 1 0) 0)
    ∗ (semVal (dcell c 0 0 1 1) 0 ∗ semVal (dcell c 1 0 1 1) 0)
    ∗ (semVal (dcell c 0 0 2 0) 0 ∗ semVal (dcell c 1 0 2 0) 0)
    ∗ (semVal (dcell c 0 0 2 1) 0 ∗ semVal (dcell c 1 0 2 1) 0)
    ∗ (semVal (dcell c 0 1 0 0) 0 ∗ semVal (dcell c 1 1 0 0) 0)
    ∗ (semVal (dcell c 0 1 0 1) 0 ∗ semVal (dcell c 1 1 0 1) 0)
    ∗ (semVal (dcell c 0 1 1 0) 0 ∗ semVal (dcell c 1 1 1 0) 0)
    ∗ (semVal (dcell c 0 1 1 1) 0 ∗ semVal (dcell c 1 1 1 1) 0)
    ∗ (semVal (dcell c 0 1 2 0) 0 ∗ semVal (dcell c 1 1 2 0) 0)
    ∗ (semVal (dcell c 0 1 2 1) 0 ∗ semVal (dcell c 1 1 2 1) 0)
    ∗ (semVal (dcell c 0 2 0 0) 0 ∗ semVal (dcell c 1 2 0 0) 0)
    ∗ (semVal (dcell c 0 2 0 1) 0 ∗ semVal (dcell c 1 2 0 1) 0)
    ∗ (semVal (dcell c 0 2 1 0) 0 ∗ semVal (dcell c 1 2 1 0) 0)
    ∗ (semVal (dcell c 0 2 1 1) 0 ∗ semVal (dcell c 1 2 1 1) 0)
    ∗ (semVal (dcell c 0 2 2 0) 0 ∗ semVal (dcell c 1 2 2 0) 0)
    ∗ (semVal (dcell c 0 2 2 1) 0 ∗ semVal (dcell c 1 2 2 1) 0)
    ∗ (semVal (dcell c 0 3 0 0) 0 ∗ semVal (dcell c 1 3 0 0) 0)
    ∗ (semVal (dcell c 0 3 0 1) 0 ∗ semVal (dcell c 1 3 0 1) 0)
    ∗ (semVal (dcell c 0 3 1 0) 0 ∗ semVal (dcell c 1 3 1 0) 0)
    ∗ (semVal (dcell c 0 3 1 1) 0 ∗ semVal (dcell c 1 3 1 1) 0)
    ∗ (semVal (dcell c 0 3 2 0) 0 ∗ semVal (dcell c 1 3 2 0) 0)
    ∗ (semVal (dcell c 0 3 2 1) 0 ∗ semVal (dcell c 1 3 2 1) 0)
    ∗ (semVal (dcell c 0 4 0 0) 0 ∗ semVal (dcell c 1 4 0 0) 0)
    ∗ (semVal (dcell c 0 4 1 0) 0 ∗ semVal (dcell c 1 4 1 0) 0)
    ∗ (semVal (dcell c 0 4 2 0) 0 ∗ semVal (dcell c 1 4 2 0) 0))

/-- The gathering phase's cells, waited and closed. -/
def closedAG (c : Dev nD) : sProp 𝕄 :=
  iprop((semVal (dcell c 2 4 0 0) 0 ∗ semVal (dcell c 3 4 0 0) 0)
    ∗ (semVal (dcell c 2 4 1 0) 0 ∗ semVal (dcell c 3 4 1 0) 0)
    ∗ (semVal (dcell c 2 4 2 0) 0 ∗ semVal (dcell c 3 4 2 0) 0)
    ∗ (semVal (dcell c 2 3 0 0) 0 ∗ semVal (dcell c 3 3 0 0) 0)
    ∗ (semVal (dcell c 2 3 0 1) 0 ∗ semVal (dcell c 3 3 0 1) 0)
    ∗ (semVal (dcell c 2 3 1 0) 0 ∗ semVal (dcell c 3 3 1 0) 0)
    ∗ (semVal (dcell c 2 3 1 1) 0 ∗ semVal (dcell c 3 3 1 1) 0)
    ∗ (semVal (dcell c 2 3 2 0) 0 ∗ semVal (dcell c 3 3 2 0) 0)
    ∗ (semVal (dcell c 2 3 2 1) 0 ∗ semVal (dcell c 3 3 2 1) 0)
    ∗ (semVal (dcell c 2 2 0 0) 0 ∗ semVal (dcell c 3 2 0 0) 0)
    ∗ (semVal (dcell c 2 2 0 1) 0 ∗ semVal (dcell c 3 2 0 1) 0)
    ∗ (semVal (dcell c 2 2 1 0) 0 ∗ semVal (dcell c 3 2 1 0) 0)
    ∗ (semVal (dcell c 2 2 1 1) 0 ∗ semVal (dcell c 3 2 1 1) 0)
    ∗ (semVal (dcell c 2 2 2 0) 0 ∗ semVal (dcell c 3 2 2 0) 0)
    ∗ (semVal (dcell c 2 2 2 1) 0 ∗ semVal (dcell c 3 2 2 1) 0)
    ∗ (semVal (dcell c 2 1 0 0) 0 ∗ semVal (dcell c 3 1 0 0) 0)
    ∗ (semVal (dcell c 2 1 0 1) 0 ∗ semVal (dcell c 3 1 0 1) 0)
    ∗ (semVal (dcell c 2 1 1 0) 0 ∗ semVal (dcell c 3 1 1 0) 0)
    ∗ (semVal (dcell c 2 1 1 1) 0 ∗ semVal (dcell c 3 1 1 1) 0)
    ∗ (semVal (dcell c 2 1 2 0) 0 ∗ semVal (dcell c 3 1 2 0) 0)
    ∗ (semVal (dcell c 2 1 2 1) 0 ∗ semVal (dcell c 3 1 2 1) 0)
    ∗ (semVal (dcell c 2 0 0 0) 0 ∗ semVal (dcell c 3 0 0 0) 0)
    ∗ (semVal (dcell c 2 0 0 1) 0 ∗ semVal (dcell c 3 0 0 1) 0)
    ∗ (semVal (dcell c 2 0 1 0) 0 ∗ semVal (dcell c 3 0 1 0) 0)
    ∗ (semVal (dcell c 2 0 1 1) 0 ∗ semVal (dcell c 3 0 1 1) 0)
    ∗ (semVal (dcell c 2 0 2 0) 0 ∗ semVal (dcell c 3 0 2 0) 0)
    ∗ (semVal (dcell c 2 0 2 1) 0 ∗ semVal (dcell c 3 0 2 1) 0))

end Cert.Kernel.StateTab

end
-- ==== Proof.LawsK.lean ====
/-
  What the exchange needs of the contract on values, device by device: each computing step of the
  kernel carries right values to right values. The frames take the trivial contract, for which every
  field is trivial; the value claim proves them from the mathematics of the sum.
-/
import proofs.«900879_g7700000000000880_dist_matmul_gelu_kshard_i_m1024_n1024_k512_v7x_i32_bf16_1_alg».proof.Proof.Gen.Kernel
import proofs.«900879_g7700000000000880_dist_matmul_gelu_kshard_i_m1024_n1024_k512_v7x_i32_bf16_1_alg».proof.Proof.Gen.Kernel.Skeleton
import proofs.«900879_g7700000000000880_dist_matmul_gelu_kshard_i_m1024_n1024_k512_v7x_i32_bf16_1_alg».proof.Proof.Gen.Kernel.Launch
import proofs.«900879_g7700000000000880_dist_matmul_gelu_kshard_i_m1024_n1024_k512_v7x_i32_bf16_1_alg».proof.Proof.Gen.Kernel.Points
import proofs.«900879_g7700000000000880_dist_matmul_gelu_kshard_i_m1024_n1024_k512_v7x_i32_bf16_1_alg».proof.Proof.Gen.Kernel.Frame
import Idealize.ShloMosaic.Lib.Pipeline.Launch
import Idealize.ShloMosaic.Lib.Pipeline.Kit
import Idealize.ShloMosaic.Lib.Rounds
import Idealize.ShloMosaic.Lib.Tactic
import proofs.«900879_g7700000000000880_dist_matmul_gelu_kshard_i_m1024_n1024_k512_v7x_i32_bf16_1_alg».proof.Proof.GhostK

noncomputable section

namespace Cert.Kernel.Laws

open Cert.Kernel Cert.Kernel.Gen Cert.Kernel.Proto
open Idealize.ShloMosaic Idealize.ShloMosaic.TcCoe Idealize.SL.Sem

variable {F : FTy → Type} [FloatOps F]

/-- The pointwise function the kernel applies to a finished sum `z`, operation by operation as the program
    prints it: `(h·z)·(u + tanh(s·(z + ((a·z)·z)·z)))`, then the change of format. -/
def geluS (z : F .f32) : F .bf16 :=
  FloatOps.truncf .bf16 bitsLt_bf16_f32
    (FloatOps.mulf (FloatOps.mulf (Scalar.ofBits .f32 0x3F000000#32) z)
      (FloatOps.addf (Scalar.ofBits .f32 0x3F800000#32)
        (FloatOps.tanh (FloatOps.mulf (Scalar.ofBits .f32 0x3F4C422A#32)
          (FloatOps.addf z (FloatOps.mulf (FloatOps.mulf (FloatOps.mulf (Scalar.ofBits .f32 0x3D372713#32) z) z) z))))))

/-- The laws at device `c`, whose argument blocks hold `YA` (1024 × 512) and `YB` (512 × 1024). -/
structure Laws (ct : Contract F) (c : Dev nD) (YA : S1024x512.Idx → F .f32) (YB : S512x1024.Idx → F .f32) : Prop where
  /-- the first stage's products of the half that is sent, column blocks 0, 1, 2 -/
  mm_ss0 : ∀ (x : Vec F S512x512 .f32) (y : Vec F S512x384 .f32),
    (∀ j i, (i 0).val = (1 - bit 0 0 c) * 512 + (j 0).val → (i 1).val = (j 1).val → x j = YA i) →
    (∀ j i, (i 0).val = (j 0).val → (i 1).val = (j 1).val → y j = YB i) →
    ∀ j, ct.okSS 0 c (j 0).val (j 1).val (k0_pay1 x y j)
  mm_ss1 : ∀ (x : Vec F S512x512 .f32) (y : Vec F S512x384 .f32),
    (∀ j i, (i 0).val = (1 - bit 1 0 c) * 512 + (j 0).val → (i 1).val = (j 1).val → x j = YA i) →
    (∀ j i, (i 0).val = (j 0).val → (i 1).val = 384 + (j 1).val → y j = YB i) →
    ∀ j, ct.okSS 0 c (j 0).val (384 + (j 1).val) (k0_pay3 (k0_pay2 x y) j)
  mm_ss2 : ∀ (x : Vec F S512x512 .f32) (y : Vec F S512x256 .f32),
    (∀ j i, (i 0).val = (1 - bit 2 0 c) * 512 + (j 0).val → (i 1).val = (j 1).val → x j = YA i) →
    (∀ j i, (i 0).val = (j 0).val → (i 1).val = 768 + (j 1).val → y j = YB i) →
    ∀ j, ct.okSS 0 c (j 0).val (768 + (j 1).val) (k0_pay5 (k0_pay4 x) y j)
  /-- the first stage's products of the half that is kept -/
  mm_acc0 : ∀ (x : Vec F S512x512 .f32) (y : Vec F S512x384 .f32),
    (∀ j i, (i 0).val = lo 0 c 1 + (j 0).val → (i 1).val = (j 1).val → x j = YA i) →
    (∀ j i, (i 0).val = (j 0).val → (i 1).val = (j 1).val → y j = YB i) →
    ∀ j, ct.okAcc 0 c (lo 0 c 1 + (j 0).val) (j 1).val (k0_pay6 x y j)
  mm_acc1 : ∀ (x : Vec F S512x512 .f32) (y : Vec F S512x384 .f32),
    (∀ j i, (i 0).val = lo 1 c 1 + (j 0).val → (i 1).val = (j 1).val → x j = YA i) →
    (∀ j i, (i 0).val = (j 0).val → (i 1).val = 384 + (j 1).val → y j = YB i) →
    ∀ j, ct.okAcc 0 c (lo 1 c 1 + (j 0).val) (384 + (j 1).val) (k0_pay7 x y j)
  mm_acc2 : ∀ (x : Vec F S512x512 .f32) (y : Vec F S512x256 .f32),
    (∀ j i, (i 0).val = lo 2 c 1 + (j 0).val → (i 1).val = (j 1).val → x j = YA i) →
    (∀ j i, (i 0).val = (j 0).val → (i 1).val = 768 + (j 1).val → y j = YB i) →
    ∀ j, ct.okAcc 0 c (lo 2 c 1 + (j 0).val) (768 + (j 1).val) (k0_pay8 x y j)
  /-- adding what the stage-`s` partner sent: the running sum doubles its devices -/
  add_ok : ∀ (s : Fin 5) (k : Fin 3) (r q : ℕ) (v : F .f32) (w : F .bf16), s.val < 4 → blk q = k →
    ct.okAcc s.val c (lo k c (s.val + 1) + r) q v → ct.okSS s (peer k s c) r q w →
    ct.okAcc (s.val + 1) c (lo k c (s.val + 1) + r) q (FloatOps.addf v (FloatOps.extf .f32 bitsLt_bf16_f32 w))
  /-- what is sent at stage `s ≥ 1` is the running sum on the rows given away -/
  trunc_ok : ∀ (s : Fin 5) (k : Fin 3) (r q : ℕ) (v : F .f32), 0 < s.val → blk q = k →
    ct.okAcc s.val c (lo k c s.val + (1 - bit k s c) * half s.val + r) q v →
    ct.okSS s c r q (FloatOps.truncf .bf16 bitsLt_bf16_f32 v)
  /-- the last partner's rows complete the sum; the pointwise function gives the result -/
  out_ok : ∀ (k : Fin 3) (r q : ℕ) (v : F .f32) (w : F .bf16), blk q = k →
    ct.okAcc 4 c (lo k c 5 + r) q v → ct.okSS 4 (peer k 4 c) r q w →
    ct.okOut (lo k c 5 + r) q (geluS (FloatOps.addf v (FloatOps.extf .f32 bitsLt_bf16_f32 w)))

end Cert.Kernel.Laws

end
-- ==== Proof.CutK.lean ====
import proofs.«900879_g7700000000000880_dist_matmul_gelu_kshard_i_m1024_n1024_k512_v7x_i32_bf16_1_alg».proof.Proof.Gen.Kernel.Skeleton

set_option synthInstance.maxSize 4096
set_option maxRecDepth 65536

noncomputable section

namespace Cert.Kernel.Cut

open Cert.Kernel Cert.Kernel.Gen Idealize.ShloMosaic Idealize.SL.Sem

variable {F : FTy → Type} [FloatOps F]

/-- The gathering phase: the chain from its fortieth part on. -/
noncomputable def rest40 (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2) (d0 : Dev nD) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v827 : BitVec 32) (v868 : BitVec 32) (v909 : BitVec 32) :
    Prog (TpuEff nD τ sig (Elt F) Λ₀ .tc) (Σ' (d0 : Dev nD) (v3 : BitVec 32) (v8 : BitVec 32) (v13 : BitVec 32) (v28 : BitVec 32), BitVec 32) := do
  k0_part40 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6 v12 v17 v827 v868 v909
  k0_part41 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6 v7 v26 v827
  let ⟨v1162, v1182, c1_i32_1173⟩ : Σ' (v1162 : BitVec 32) (v1182 : BitVec 32), BitVec 32 ← k0_part42 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v11 v12 v22 v26 v827 v868
  let v1196 : BitVec 32 ← k0_part43 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v11 v16 v22 v868 v909 v1182 c1_i32_1173
  let v1230 : BitVec 32 ← k0_part44 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v16 v17 v22 v909 v1162
  let c1_i32_1273 : BitVec 32 ← k0_part45 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6
  let v1274 : BitVec 32 ← k0_part46 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v6 v10 v22 v1162 v1196 c1_i32_1273
  k0_part47 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v11
  let v1318 : BitVec 32 ← k0_part48 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v10 v15 v26 v1196 v1230
  let v1350 : BitVec 32 ← k0_part49 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v16 v26
  let v1362 : BitVec 32 ← k0_part50 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v15 v26 v1230 v1274 v1350
  k0_part51 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v24 v1274
  let v1406 : BitVec 32 ← k0_part52 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v9 v10 v24 v1274 v1318
  k0_part53 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v9 v10 v18 v1318
  let v1450 : BitVec 32 ← k0_part54 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v14 v15 v18 v1318 v1362
  let v1494 : BitVec 32 ← k0_part55 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v14 v15 v20 v1362
  k0_part56 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v1406
  k0_part57 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v8 v20 v1406 v1450
  k0_part58 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v9
  k0_part59 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v8 v9 v13 v24 v1450 v1494
  k0_part60 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v14
  pure ⟨d0, v3, v8, v13, v28, v1494⟩

/-- Stages one to four of the summing phase and the pointwise function, then the gathering phase. -/
noncomputable def rest7 (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2) (d0 : Dev nD) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v40 : BitVec 32) (v74 : BitVec 32) (v108 : BitVec 32) (v179 : BitVec 32) (v182 : BitVec 32) :
    Prog (TpuEff nD τ sig (Elt F) Λ₀ .tc) (Σ' (d0 : Dev nD) (v3 : BitVec 32) (v8 : BitVec 32) (v13 : BitVec 32) (v28 : BitVec 32), BitVec 32) := do
  let c128_i32_165 : BitVec 32 ← k0_part7 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v24 v40 v182
  let ⟨v229, v231, v234⟩ : Σ' (v229 : BitVec 32) (v231 : BitVec 32), BitVec 32 ← k0_part8 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v24 v40 v74 v179 c128_i32_165
  k0_part9 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v8 v9 v18 v74 v234
  let ⟨v281, v283, v286, v291, c0_i32_256⟩ : Σ' (v281 : BitVec 32) (v283 : BitVec 32) (v286 : BitVec 32) (v291 : BitVec 32), BitVec 32 ← k0_part10 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v9 v13 v28 v74 v108 v231
  k0_part11 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v14 v20 v108 v286 v291 c0_i32_256
  let ⟨v333, v349, v351⟩ : Σ' (v333 : BitVec 32) (v349 : FVec F S256x384 .f32), Vec F S256x384 .f32 ← k0_part12 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v14 v108 v179 v229 v283
  k0_part13 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v8 v231 v281 v349 v351
  let ⟨v395, v398⟩ : Σ' (v395 : BitVec 32), BitVec 32 ← k0_part14 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v13 v24 v179 v283 v333
  k0_part15 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v5 v22 v179 v398
  let ⟨v445, v447, v450⟩ : Σ' (v445 : BitVec 32) (v447 : BitVec 32), BitVec 32 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v9 v18 v179 v231 v395
  let ⟨v489, c0_i32_452⟩ : Σ' (v489 : BitVec 32), BitVec 32 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v10 v26 v231 v450
  let ⟨v497, v499, v502, v519⟩ : Σ' (v497 : BitVec 32) (v499 : BitVec 32) (v502 : BitVec 32), FVec F S128x256 .f32 ← k0_part18 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v14 v20 v231 v283 v447 v489 c0_i32_452
  let v549 : BitVec 32 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v15 v26 v283 v499 v502 v519
  k0_part20 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v395 v445
  k0_part21 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v9 v14 v447 v497
  let ⟨v611, v614, v627⟩ : Σ' (v611 : BitVec 32) (v614 : BitVec 32), Vec F S64x384 .f32 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v22 v395 v499 v549
  k0_part23 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6 v26 v614 v627
  let ⟨v661, v663⟩ : Σ' (v661 : BitVec 32), BitVec 32 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v10 v26 v395 v447 v611
  let ⟨v713, v715, v717⟩ : Σ' (v713 : BitVec 32) (v715 : BitVec 32), BitVec 32 ← k0_part25 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v11 v22 v26 v447 v499 v663
  let ⟨v746, c32_i32_703⟩ : Σ' (v746 : BitVec 32), BitVec 32 ← k0_part26 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v15 v22 v499 v717
  let v765 : BitVec 32 ← k0_part27 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v16 v22 v499 v715 v746 c32_i32_703
  k0_part28 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v10 v611 v661 v663
  let v827 : BitVec 32 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v15 v26 v611 v663 v713 v715 v765
  let v857 : FVec F S32x384 .bf16 ← k0_part30 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6 v26 v611
  let ⟨v866, v868, v871⟩ : Σ' (v866 : BitVec 32) (v868 : BitVec 32), BitVec 32 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v7 v11 v22 v611 v663 v827 v857
  let ⟨v907, v909, v912⟩ : Σ' (v907 : BitVec 32) (v909 : BitVec 32), BitVec 32 ← k0_part32 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v12 v22 v663 v715 v868 v871
  let c1_i32_905 : BitVec 32 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v16 v715 v912
  let v948 : BitVec 32 ← k0_part34 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6 v17 v715 v827 v866 v909 c1_i32_905
  k0_part35 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v11 v868 v907
  k0_part36 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v7 v16 v909 v948
  let ⟨v1044, c0_i32_1026⟩ : Σ' (v1044 : BitVec 32), BitVec 32 ← k0_part37 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v12 v827
  k0_part38 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v868 v1044 c0_i32_1026
  k0_part39 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v7 v17 v827 v909
  rest40 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v5 v6 v7 v8 v9 v10 v11 v12 v13 v14 v15 v16 v17 v18 v20 v22 v24 v26 v28 v827 v868 v909

/-- The chain is its first six parts followed by `rest7`. -/
theorem part64_cut7 (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2) :
    k0_part64_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 = (do
  let ⟨d0, v3, v4, v5, v6, v7, v8, v9, v10, v11, v12, v13, v14, v15, v16, v17, v18, v20, v22, v24, v26, v27, v28, v29, v30⟩ : Σ' (d0 : Dev nD) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v27 : BitVec 32) (v28 : BitVec 32) (v29 : Sems sig S_), BitVec 32 ← k0_part1 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17
  let ⟨v40, c256_i32_40⟩ : Σ' (v40 : BitVec 32), BitVec 32 ← k0_part2 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v5 v6 v7 v20 v27 v29 v30
  let ⟨v74, v85⟩ : Σ' (v74 : BitVec 32), FVec F S512x384 .bf16 ← k0_part3 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v20 c256_i32_40
  let ⟨v108, v114⟩ : Σ' (v108 : BitVec 32), FVec F S512x512 .bf16 ← k0_part4 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v8 v24 v85
  let v143 : Vec F S512x512 .f32 ← k0_part5 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v13 v28 v40 v114
  let ⟨v179, v182⟩ : Σ' (v179 : BitVec 32), BitVec 32 ← k0_part6 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v20 v40 v74 v108 v143
  rest7 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v5 v6 v7 v8 v9 v10 v11 v12 v13 v14 v15 v16 v17 v18 v20 v22 v24 v26 v28 v40 v74 v108 v179 v182) := rfl

/-- The end of the gathering phase: the body after its chain of sixty parts. -/
noncomputable def tail61 (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2) (d0 : Dev nD) (v3 : BitVec 32) (v8 : BitVec 32) (v13 : BitVec 32) (v28 : BitVec 32) (v1494 : BitVec 32) :
    Prog (TpuEff nD τ sig (Elt F) Λ₀ .tc) PUnit := do
  k0_part61 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v13 v28 v1494
  k0_part62 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v8
  k0_part63 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v8 v13
  let v1670 : Memref sig .tc .vmem S256x256 .bf16 := arg2.slice (Rect.unit (s := S1024x1024) (k0_off102 d0) S256x256.size (k0_off102_inb d0)) (fun _ => rfl)
  let v1667 : DmaSems sig S1x1x1 := arg17.slice (Rect.unit (s := S5x3x2) ![0, 2, 0] S1x1x1.size inb_S5x3x2_S1x1x1_0_2_0)
  let v1668 : DmaSems sig S_ := v1667.squeeze S_ squeezes_S1x1x1_S_
  let v1669 : Memref sig .tc .vmem S256x256 .bf16 := arg2.slice (Rect.unit (s := S1024x1024) (k0_off102 d0) S256x256.size (k0_off102_inb d0)) (fun _ => rfl)
  Prog.lift (.waitDma2 v1668.sem v1670 v1669 (harg2.wordExact_slice rfl _ (k0_off102_wordsbf16 d0)) (harg2.wordExact_slice rfl _ (k0_off102_wordsbf16 d0)))
  let v1671 : DmaSems sig S1x1x1 := arg16.slice (Rect.unit (s := S5x3x2) ![0, 2, 1] S1x1x1.size inb_S5x3x2_S1x1x1_0_2_1)
  let v1672 : DmaSems sig S_ := v1671.squeeze S_ squeezes_S1x1x1_S_
  let v1673 : Memref sig .tc .vmem S256x256 .bf16 := arg2.slice (Rect.unit (s := S1024x1024) (k0_off103 d0) S256x256.size (k0_off103_inb d0)) (fun _ => rfl)
  let v1674 : Memref sig .tc .vmem S256x256 .bf16 := arg2.slice (Rect.unit (s := S1024x1024) (k0_off103 d0) S256x256.size (k0_off103_inb d0)) (fun _ => rfl)
  Prog.lift (.waitDma2 v1672.sem v1674 v1673 (harg2.wordExact_slice rfl _ (k0_off103_wordsbf16 d0)) (harg2.wordExact_slice rfl _ (k0_off103_wordsbf16 d0)))
  let v1677 : DmaSems sig S1x1x1 := arg17.slice (Rect.unit (s := S5x3x2) ![0, 2, 1] S1x1x1.size inb_S5x3x2_S1x1x1_0_2_1)
  let v1678 : DmaSems sig S_ := v1677.squeeze S_ squeezes_S1x1x1_S_
  let v1679 : Memref sig .tc .vmem S256x256 .bf16 := arg2.slice (Rect.unit (s := S1024x1024) (k0_off103 d0) S256x256.size (k0_off103_inb d0)) (fun _ => rfl)
  let v1680 : Memref sig .tc .vmem S256x256 .bf16 := arg2.slice (Rect.unit (s := S1024x1024) (k0_off103 d0) S256x256.size (k0_off103_inb d0)) (fun _ => rfl)
  Prog.lift (.waitDma2 v1678.sem v1680 v1679 (harg2.wordExact_slice rfl _ (k0_off103_wordsbf16 d0)) (harg2.wordExact_slice rfl _ (k0_off103_wordsbf16 d0)))
  pure ⟨⟩

/-- The body is its chain of sixty parts followed by `tail61`. -/
theorem body_cut (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2) :
    cc0_body_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 = (do
  let ⟨d0, v3, v8, v13, v28, v1494⟩ ← k0_part64 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17
  tail61 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v8 v13 v28 v1494) := rfl

end Cert.Kernel.Cut

end
-- ==== Proof.SegsK.lean ====
/-
  The body in three segments: the handshake and the first stage of the summing phase; stages one to
  four and the pointwise function; the gathering phase. Between them, what a device holds is stated
  whole: the records, what it still owes, its remaining tokens, positions and credit, and every piece of
  every buffer with what is known of its contents.
-/
import proofs.«900879_g7700000000000880_dist_matmul_gelu_kshard_i_m1024_n1024_k512_v7x_i32_bf16_1_alg».proof.Proof.Gen.Kernel
import proofs.«900879_g7700000000000880_dist_matmul_gelu_kshard_i_m1024_n1024_k512_v7x_i32_bf16_1_alg».proof.Proof.Gen.Kernel.Skeleton
import proofs.«900879_g7700000000000880_dist_matmul_gelu_kshard_i_m1024_n1024_k512_v7x_i32_bf16_1_alg».proof.Proof.Gen.Kernel.Launch
import proofs.«900879_g7700000000000880_dist_matmul_gelu_kshard_i_m1024_n1024_k512_v7x_i32_bf16_1_alg».proof.Proof.Gen.Kernel.Points
import proofs.«900879_g7700000000000880_dist_matmul_gelu_kshard_i_m1024_n1024_k512_v7x_i32_bf16_1_alg».proof.Proof.Gen.Kernel.Frame
import Idealize.ShloMosaic.Lib.Pipeline.Launch
import Idealize.ShloMosaic.Lib.Pipeline.Kit
import Idealize.ShloMosaic.Lib.Rounds
import Idealize.ShloMosaic.Lib.Tactic
import proofs.«900879_g7700000000000880_dist_matmul_gelu_kshard_i_m1024_n1024_k512_v7x_i32_bf16_1_alg».proof.Proof.StateTabK
import proofs.«900879_g7700000000000880_dist_matmul_gelu_kshard_i_m1024_n1024_k512_v7x_i32_bf16_1_alg».proof.Proof.LawsK
import proofs.«900879_g7700000000000880_dist_matmul_gelu_kshard_i_m1024_n1024_k512_v7x_i32_bf16_1_alg».proof.Proof.CutK

noncomputable section

namespace Cert.Kernel.Segs

open Cert.Kernel Cert.Kernel.Gen Cert.Kernel.Proto Cert.Kernel.Tab Cert.Kernel.Held Cert.Kernel.PayTab
open Cert.Kernel.Sched Cert.Kernel.GhostTab Cert.Kernel.Owed Cert.Kernel.Ghost Cert.Kernel.StateTab
open Cert.Kernel.Laws Cert.Kernel.Cut
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ct : Contract F) (K : Dev nD × Fin 124 → ℕ) (c : Dev nD)
variable (YA : S1024x512.Idx → F .f32) (YB : S512x1024.Idx → F .f32)

abbrev 𝒱₀ : Variants := Variants.none

/-- A whole buffer at some contents. -/
abbrev someAt (b : Ref sig .tc) : sProp 𝕄 := iprop(∃ f : Buf (Elt F) ((c : Thread nD τ).loc b), ((c : Thread nD τ).loc b) ↦{fullShare} f)

/-- The rows of the accumulator that hold column block `k`'s kept half after the first stage. -/
abbrev accKeep0_0 : Finset S1024x1024.Idx := ((Memref.whole cc0_scratch0 : Memref sig .tc .vmem S1024x1024 .f32).access (Rect.unit (s := S1024x1024) (k0_off10 c) S512x384.size (k0_off10_inb c))).set
abbrev accKeep0_1 : Finset S1024x1024.Idx := ((Memref.whole cc0_scratch0 : Memref sig .tc .vmem S1024x1024 .f32).access (Rect.unit (s := S1024x1024) (k0_off12 c) S512x384.size (k0_off12_inb c))).set
abbrev accKeep0_2 : Finset S1024x1024.Idx := ((Memref.whole cc0_scratch0 : Memref sig .tc .vmem S1024x1024 .f32).access (Rect.unit (s := S1024x1024) (k0_off13 c) S512x256.size (k0_off13_inb c))).set

/-- Before the body: what the launch hands it, the records' names opened. -/
def PreA : sProp 𝕄 :=
  iprop(records ct K ∗ levAts L lv ∗ (∃ W, owes (c : Thread nD τ) (owedFrom c 0) W)
    ∗ positions c ∗ barToks c ∗ xferToks c ∗ credits c ∗ idle c
    ∗ Pipeline.scopedRest (Ix := Unit) (Name := ℕ) (U := UU) (Lvl := ℕ) (Val := Elt F) spec0 c
    ∗ (((c : Thread nD τ).loc cc0_stg0_0) ↦{fullShare} YA) ∗ (((c : Thread nD τ).loc cc0_stg1_0) ↦{fullShare} YB)
    ∗ someAt c cc0_stg2_0)

/-- After the first stage: six transfers in flight; the accumulator holds the kept halves' products. -/
def Pre7 : sProp 𝕄 :=
  iprop(records ct K ∗ levAts L lv ∗ (∃ W, owes (c : Thread nD τ) (owedFrom c 11) W)
    ∗ toksFrom6 c ∗ posRS c ∗ posAG c ∗ credRS c ∗ credAG c ∗ sendCred0 c ∗ idle c
    ∗ (((c : Thread nD τ).loc cc0_stg0_0) ↦{fullShare} YA) ∗ (((c : Thread nD τ).loc cc0_stg1_0) ↦{fullShare} YB)
    ∗ (loanV c (src_ag_4_0_0 c) ∗ loanV c (src_ag_4_1_0 c) ∗ loanV c (src_ag_4_2_0 c))
    ∗ (∃ fa : Buf (Elt F) ((c : Thread nD τ).loc cc0_scratch0), (((c : Thread nD τ).loc cc0_scratch0) ↦{fullShare} fa)
        ∗ ⌜(∀ i ∈ accKeep0_0 c, ct.okAcc 0 c (i 0).val (i 1).val (fa i)) ∧ (∀ i ∈ accKeep0_1 c, ct.okAcc 0 c (i 0).val (i 1).val (fa i))
            ∧ (∀ i ∈ accKeep0_2 c, ct.okAcc 0 c (i 0).val (i 1).val (fa i))⌝)
    ∗ (someAt c cc0_scratch7 ∗ someAt c cc0_scratch8 ∗ someAt c cc0_scratch9 ∗ someAt c cc0_scratch10)
    ∗ landFrom6 c)

/-- After the pointwise function: the summing phase's cells closed, its buffers whole again; the device's own
    32 rows of each column block hold the result. -/
def Pre40 : sProp 𝕄 :=
  iprop(records ct K ∗ levAts L lv ∗ (∃ W, owes (c : Thread nD τ) (owedFrom c 32) W)
    ∗ toksAG c ∗ posAG c ∗ credAG c ∗ closedRS c ∗ idle c
    ∗ (((c : Thread nD τ).loc cc0_stg0_0) ↦{fullShare} YA) ∗ (((c : Thread nD τ).loc cc0_stg1_0) ↦{fullShare} YB)
    ∗ (heldV c (src_ag_4_0_0 c) fullShare (fun i v => pOut ct (sh := S1024x1024) i v)
        ∗ heldV c (src_ag_4_1_0 c) fullShare (fun i v => pOut ct (sh := S1024x1024) i v)
        ∗ heldV c (src_ag_4_2_0 c) fullShare (fun i v => pOut ct (sh := S1024x1024) i v))
    ∗ Pipeline.scopedRest (Ix := Unit) (Name := ℕ) (U := UU) (Lvl := ℕ) (Val := Elt F) spec0 c
    ∗ landAG c)

/-- After the body: every scratch buffer whole, every own semaphore at zero, nothing owed; the arguments'
    blocks as found, the result right under the contract. -/
def PostBody : sProp 𝕄 :=
  iprop((∃ W, owes (c : Thread nD τ) 0 W) ∗ closedRS c ∗ closedAG c ∗ idle c
    ∗ Pipeline.scopedRest (Ix := Unit) (Name := ℕ) (U := UU) (Lvl := ℕ) (Val := Elt F) spec0 c
    ∗ (((c : Thread nD τ).loc cc0_stg0_0) ↦{fullShare} YA) ∗ (((c : Thread nD τ).loc cc0_stg1_0) ↦{fullShare} YB)
    ∗ (∃ X : Buf (Elt F) ((c : Thread nD τ).loc cc0_stg2_0), ⌜∀ i : S1024x1024.Idx, ct.okOut (i 0).val (i 1).val (X i)⌝ ∗ (((c : Thread nD τ).loc cc0_stg2_0) ↦{fullShare} X)))

/-- The first segment: the handshake and the first stage. -/
def SegA {R : Type} (T : (Σ' (d0 : Dev nD) (v3 : BitVec 32) (v8 : BitVec 32) (v13 : BitVec 32) (v28 : BitVec 32), BitVec 32) → Prog (TpuEff nD τ sig (Elt F) Λ₀ .tc) R) (Kt : R → sProp (MT nD τ sig Unit (Elt F) ℕ UU ℕ)) : Prop :=
  iprop(PreA ct K c YA YB ∗ (∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v40 : BitVec 32) (v74 : BitVec 32) (v108 : BitVec 32) (v179 : BitVec 32) (v182 : BitVec 32), Pre7 ct K c YA YB -∗
        wp frame (wpE (defs₀ (F := F)) 𝒱₀ (c : Thread nD τ) none) Set.univ (rest7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v40 v74 v108 v179 v182 >>= T) Kt))
    ⊢ wp frame (wpE (defs₀ (F := F)) 𝒱₀ (c : Thread nD τ) none) Set.univ (k0_part64_skel (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 >>= T) Kt

/-- The second segment: stages one to four of the summing phase and the pointwise function. -/
def SegB {R : Type} (T : (Σ' (d0 : Dev nD) (v3 : BitVec 32) (v8 : BitVec 32) (v13 : BitVec 32) (v28 : BitVec 32), BitVec 32) → Prog (TpuEff nD τ sig (Elt F) Λ₀ .tc) R) (Kt : R → sProp (MT nD τ sig Unit (Elt F) ℕ UU ℕ)) : Prop :=
  ∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v40 : BitVec 32) (v74 : BitVec 32) (v108 : BitVec 32) (v179 : BitVec 32) (v182 : BitVec 32),
  iprop(Pre7 ct K c YA YB ∗ (∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v827 : BitVec 32) (v868 : BitVec 32) (v909 : BitVec 32), Pre40 ct K c YA YB -∗
        wp frame (wpE (defs₀ (F := F)) 𝒱₀ (c : Thread nD τ) none) Set.univ (rest40 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v827 v868 v909 >>= T) Kt))
    ⊢ wp frame (wpE (defs₀ (F := F)) 𝒱₀ (c : Thread nD τ) none) Set.univ (rest7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v40 v74 v108 v179 v182 >>= T) Kt

/-- The third segment: the gathering phase, to the end of the body. -/
def SegC (Kt : PUnit → sProp (MT nD τ sig Unit (Elt F) ℕ UU ℕ)) : Prop :=
  ∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v827 : BitVec 32) (v868 : BitVec 32) (v909 : BitVec 32),
  iprop(Pre40 ct K c YA YB ∗ (PostBody ct c YA YB -∗ Kt ⟨⟩))
    ⊢ wp frame (wpE (defs₀ (F := F)) 𝒱₀ (c : Thread nD τ) none) Set.univ
        (rest40 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v827 v868 v909 >>= fun r => tail61 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 r.1 r.2.1 r.2.2.1 r.2.2.2.1 r.2.2.2.2.1 r.2.2.2.2.2) Kt

end Cert.Kernel.Segs

end
-- ==== Proof.LawsTrivK.lean ====
import proofs.«900879_g7700000000000880_dist_matmul_gelu_kshard_i_m1024_n1024_k512_v7x_i32_bf16_1_alg».proof.Proof.LawsK

noncomputable section

namespace Cert.Kernel.LawsTriv

open Cert.Kernel Cert.Kernel.Gen Cert.Kernel.Proto Cert.Kernel.Laws
open Idealize.ShloMosaic Idealize.ShloMosaic.TcCoe Idealize.SL.Sem

/-- Under the contract that asks nothing every law holds. -/
theorem laws_trivial {F : FTy → Type} [FloatOps F] (c : Dev nD) (YA : S1024x512.Idx → F .f32) (YB : S512x1024.Idx → F .f32) :
    Laws (Contract.trivial (F := F)) c YA YB := by
  constructor <;> intros <;> trivial

end Cert.Kernel.LawsTriv
end

/-- info: 'Cert.Kernel.LawsTriv.laws_trivial' depends on axioms: [propext, Classical.choice, Quot.sound] -/
#guard_msgs in #print axioms Cert.Kernel.LawsTriv.laws_trivial
-- ==== Proof.BodyObK.lean ====
/-
  From the three segments of the body to the body obligation of the proof data: what the obligation
  hands the body is the first segment's precondition, and what the last segment leaves is what the
  obligation asks back.
-/
import proofs.«900879_g7700000000000880_dist_matmul_gelu_kshard_i_m1024_n1024_k512_v7x_i32_bf16_1_alg».proof.Proof.SegsK
import proofs.«900879_g7700000000000880_dist_matmul_gelu_kshard_i_m1024_n1024_k512_v7x_i32_bf16_1_alg».proof.Proof.FundK
import proofs.«900879_g7700000000000880_dist_matmul_gelu_kshard_i_m1024_n1024_k512_v7x_i32_bf16_1_alg».proof.Proof.LawsTrivK

noncomputable section

namespace Cert.Kernel.BodyOb

open Cert.Kernel Cert.Kernel.Gen Cert.Kernel.Proto Cert.Kernel.Tab Cert.Kernel.Held Cert.Kernel.PayTab
open Cert.Kernel.Sched Cert.Kernel.GhostTab Cert.Kernel.Owed Cert.Kernel.Ghost Cert.Kernel.StateTab
open Cert.Kernel.Laws Cert.Kernel.Cut Cert.Kernel.Segs Cert.Kernel.Fund
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ UU ℕ

variable (ct : Contract F) (m : (ℓ : Loc nD τ sig) → Buf (Elt F) ℓ) (c : Dev nD)

/-! ## What the body finds in the argument windows -/

/-- The one point's fetch fills the first argument's staging buffer with the whole array. -/
theorem finds_0 (Y : (cfg0.win (0 : Fin 3)).block.Idx → Elt F (cfg0.win (0 : Fin 3)).elt) (h : (rdats ct m 0 c).Finds (0 : Fin 3) t0_0 Y) :
    Y = m ((c : Thread nD τ).loc main_arg0) := by
  rw [(rdats ct m 0 c).finds_of_fetch (fetch0_0 t0_0)] at h
  obtain ⟨d, rfl⟩ := h
  have hb : (rdats ct m 0 c).blockOf (0 : Fin 3) t0_0 = m ((c : Thread nD τ).loc main_arg0) :=
    Memref.read_access_unit_zero (Elt F) main_arg0 (off := fun a => 0 * (main_arg0 : Ref sig .tc).ty.shape.size a)
      (funext fun a => Nat.zero_mul _) _ _
  funext j
  exact ((cfg0.win (0 : Fin 3)).fill_xinj (cfg0.grid.coords t0_0) d _ j).trans (congrFun hb j)

/-- And the second argument's with the whole array. -/
theorem finds_1 (Y : (cfg0.win (1 : Fin 3)).block.Idx → Elt F (cfg0.win (1 : Fin 3)).elt) (h : (rdats ct m 0 c).Finds (1 : Fin 3) t0_0 Y) :
    Y = m ((c : Thread nD τ).loc main_arg1) := by
  rw [(rdats ct m 0 c).finds_of_fetch (fetch0_1 t0_0)] at h
  obtain ⟨d, rfl⟩ := h
  have hb : (rdats ct m 0 c).blockOf (1 : Fin 3) t0_0 = m ((c : Thread nD τ).loc main_arg1) :=
    Memref.read_access_unit_zero (Elt F) main_arg1 (off := fun a => 0 * (main_arg1 : Ref sig .tc).ty.shape.size a)
      (funext fun a => Nat.zero_mul _) _ _
  funext j
  exact ((cfg0.win (1 : Fin 3)).fill_xinj (cfg0.grid.coords t0_0) d _ j).trans (congrFun hb j)

/-! ## The kernel's own semaphores, closed -/

omit [FloatOps F] in
/-- A chain over two lists in turn is the two chains. -/
theorem bigSepL_append {I : Type} (l₁ l₂ : List I) (Φ : I → sProp 𝕄) :
    bigSepL (l₁ ++ l₂) Φ = iprop(bigSepL l₁ Φ ∗ bigSepL l₂ Φ) := by
  induction l₁ with
  | nil => exact (equiv_iff.mp emp_sep).symm
  | cons i l ih => rw [List.cons_append, bigSepL_cons, ih, bigSepL_cons]; exact (equiv_iff.mp ⟨Idealize.SL.BI.sep_assoc, Idealize.SL.BI.sep_assoc'⟩).symm

omit [FloatOps F] in
/-- The transfer cells in use, all at zero, are the closed cells of the two phases. -/
theorem closed_eq :
    (bigSep (ourN.erase (123 : Fin 124)) fun n => semVal (kcell (c, n)) 0 : sProp 𝕄) = iprop(closedRS c ∗ closedAG c) := by
  have he : ourN.erase (123 : Fin 124)
      = (Finset.univ.filter usedT).map ⟨sIx, sIx_inj⟩ ∪ (Finset.univ.filter usedT).map ⟨rIx, rIx_inj⟩ := by
    rw [ourN_eq, Finset.erase_insert ourN_bar]
  rw [he, bigSep_union ourN_disj, bigSep_map, bigSep_map, ← bigSep_sep, bigSep_eq_bigSepL_of_eq xl xl_eq xl_nodup]
  simp only [Function.Embedding.coeFn_mk, kcell_sIx, kcell_rIx]
  rw [← List.take_append_drop 27 xl, bigSepL_append]
  rfl

omit [FloatOps F] in
/-- The kernel's 120 own semaphores at zero: the closed cells of the two phases and the twelve idle ones. -/
theorem ownSems0_closed :
    iprop(closedRS c ∗ closedAG c ∗ idle c)
      ⊢ (Pipeline.ownSems0 (Ix := Unit) (Name := ℕ) (U := UU) (Lvl := ℕ) (Val := Elt F) (τ := τ) osem c : sProp 𝕄) := by
  have hown : (Pipeline.ownSems0 (Ix := Unit) (Name := ℕ) (U := UU) (Lvl := ℕ) (Val := Elt F) (τ := τ) osem c : sProp 𝕄)
      = iprop((bigSep (ourN.erase (123 : Fin 124)) fun n => semVal (kcell (c, n)) 0) ∗ idle c) := by
    unfold Pipeline.ownSems0
    rw [bigSep_filter_split Finset.univ (fun i : Fin 120 => usedIx (3 + i.val) = true), ← used120, bigSep_map,
      bigSep_eq_bigSepL_of_eq _ idle120 (by decide)]
    congr 1
  rw [hown, closed_eq]
  iintro ⟨HRS, HAG, Hidle⟩
  isplitr [Hidle]
  · isplitl [HRS]
    · iexact HRS
    iexact HAG
  iexact Hidle

/-! ## The segments in turn -/

/-- What the chain of parts hands the end of the body. -/
abbrev Sg : Type := Σ' (d0 : Dev nD) (v3 : BitVec 32) (v8 : BitVec 32) (v13 : BitVec 32) (v28 : BitVec 32), BitVec 32

/-- The body is its chain of parts followed by its end, the end read off the chain's result by its components. -/
theorem body_cut' :
    cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14
      = (k0_part64_skel (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 >>= (fun r => tail61 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 r.1 r.2.1 r.2.2.1 r.2.2.2.1 r.2.2.2.2.1 r.2.2.2.2.2)) := by
  rw [cc0_body_eq_skeleton, body_cut, k0_part64_eq_skeleton]

variable (K : Dev nD × Fin 124 → ℕ) (YA : S1024x512.Idx → F .f32) (YB : S512x1024.Idx → F .f32)

/-- The three segments one after the other run the whole body from the first one's precondition to the last one's
    postcondition. -/
theorem body_of_segs
    (hA : ∀ {R : Type} (T : Sg → Prog (TpuEff nD τ sig (Elt F) Λ₀ .tc) R) (Kt : R → sProp (MT nD τ sig Unit (Elt F) ℕ UU ℕ)), SegA ct K c YA YB T Kt)
    (hB : ∀ {R : Type} (T : Sg → Prog (TpuEff nD τ sig (Elt F) Λ₀ .tc) R) (Kt : R → sProp (MT nD τ sig Unit (Elt F) ℕ UU ℕ)), SegB ct K c YA YB T Kt)
    (hC : ∀ (Kt : PUnit → sProp (MT nD τ sig Unit (Elt F) ℕ UU ℕ)), SegC ct K c YA YB Kt)
    (Kt : PUnit → sProp (MT nD τ sig Unit (Elt F) ℕ UU ℕ)) :
    iprop(PreA ct K c YA YB ∗ (PostBody ct c YA YB -∗ Kt ⟨⟩))
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14) Kt := by
  rw [body_cut']
  unfold SegB at hB
  unfold SegC at hC
  iintro ⟨HP, HK⟩
  have hA' := hA (fun r => tail61 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 r.1 r.2.1 r.2.2.1 r.2.2.2.1 r.2.2.2.2.1 r.2.2.2.2.2) Kt
  unfold SegA at hA'
  iapply hA'
  isplitl [HP]
  · iexact HP
  iintro %v3 %v4 %v5 %v6 %v7 %v8 %v9 %v10 %v11 %v12 %v13 %v14 %v15 %v16 %v17 %v18 %v20 %v22 %v24 %v26 %v28 %v40 %v74 %v108 %v179 %v182
  iintro H7
  have hB' := hB (fun r => tail61 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 r.1 r.2.1 r.2.2.1 r.2.2.2.1 r.2.2.2.2.1 r.2.2.2.2.2) Kt v3 v4 v5 v6 v7 v8 v9 v10 v11 v12 v13 v14 v15 v16 v17 v18 v20 v22 v24 v26 v28 v40 v74 v108 v179 v182
  iapply hB'
  isplitl [H7]
  · iexact H7
  iintro %w3 %w4 %w5 %w6 %w7 %w8 %w9 %w10 %w11 %w12 %w13 %w14 %w15 %w16 %w17 %w18 %w20 %w22 %w24 %w26 %w28 %w827 %w868 %w909
  iintro H40
  have hC' := hC Kt w3 w4 w5 w6 w7 w8 w9 w10 w11 w12 w13 w14 w15 w16 w17 w18 w20 w22 w24 w26 w28 w827 w868 w909
  iapply hC'
  isplitl [H40]
  · iexact H40
  iexact HK

/-! ## The obligation -/

/-- What the obligation hands the body is the first segment's precondition, the cells' names opened. -/
theorem pre_of (Y : (w : Fin cfg0.W) → (cfg0.win w).block.Idx → Elt F (cfg0.win w).elt)
    (h0 : Y (0 : Fin 3) = m ((c : Thread nD τ).loc main_arg0)) (h1 : Y (1 : Fin 3) = m ((c : Thread nD τ).loc main_arg1)) :
    iprop((rdats ct m 0 c).Φ t0_0.castSucc ∗ (rdats ct m 0 c).owesAt () t0_0.castSucc
        ∗ bigSep Finset.univ fun w => owns (c : Thread nD τ) ((cfg0.win w).stage (cfg0.slots t0_0 w)) fullShare (Y w))
      ⊢ iprop(∃ K, PreA ct K c (m ((c : Thread nD τ).loc main_arg0)) (m ((c : Thread nD τ).loc main_arg1))) := by
  rw [bigSep_W0]
  show iprop(Φ₀ ct c ∗ (∃ W, ⌜↑W ⊆ (rdats ct m 0 c).bound () t0_0.castSucc⌝ ∗ owes (c : Thread nD τ) (owedFrom c 0) W)
      ∗ owns (c : Thread nD τ) (Memref.whole cc0_stg0_0) fullShare (Y (0 : Fin 3))
      ∗ owns (c : Thread nD τ) (Memref.whole cc0_stg1_0) fullShare (Y (1 : Fin 3))
      ∗ owns (c : Thread nD τ) (Memref.whole cc0_stg2_0) fullShare (Y (2 : Fin 3))) ⊢ _
  rw [owns_whole, owns_whole, owns_whole, h0, h1]
  unfold Φ₀ start PreA someAt
  iintro ⟨HΦ, Ho, H0, H1, H2⟩
  icases HΦ with ⟨Hs, Hrest⟩
  icases Hs with ⟨HK, Hcred, Hidle, Hlev⟩
  icases HK with ⟨%K, Hrec, Hpos, Hbar, Hx⟩
  icases Ho with ⟨%W, -, Ho⟩
  iexists K
  isplitl [Hrec]
  · iexact Hrec
  isplitl [Hlev]
  · iexact Hlev
  isplitl [Ho]
  · iexists W; iexact Ho
  isplitl [Hpos]
  · iexact Hpos
  isplitl [Hbar]
  · iexact Hbar
  isplitl [Hx]
  · iexact Hx
  isplitl [Hcred]
  · iexact Hcred
  isplitl [Hidle]
  · iexact Hidle
  isplitl [Hrest]
  · iexact Hrest
  isplitl [H0]
  · iexact H0
  isplitl [H1]
  · iexact H1
  iexists _; iexact H2

/-- What the last segment leaves is what the obligation asks back. -/
theorem post_of (Y : (w : Fin cfg0.W) → (cfg0.win w).block.Idx → Elt F (cfg0.win w).elt)
    (h0 : Y (0 : Fin 3) = m ((c : Thread nD τ).loc main_arg0)) (h1 : Y (1 : Fin 3) = m ((c : Thread nD τ).loc main_arg1)) :
    PostBody ct c (m ((c : Thread nD τ).loc main_arg0)) (m ((c : Thread nD τ).loc main_arg1))
      ⊢ iprop((rdats ct m 0 c).Φ t0_0.succ ∗ (rdats ct m 0 c).owesAt () t0_0.succ
          ∗ bigSep Finset.univ fun w => iprop(∃ X, ⌜(rdats ct m 0 c).after w t0_0 (Y w) X⌝
              ∗ owns (c : Thread nD τ) ((cfg0.win w).stage (cfg0.slots t0_0 w)) fullShare X)) := by
  rw [bigSep_W0]
  show _ ⊢ iprop(Φ₁ c ∗ (∃ W, ⌜↑W ⊆ (rdats ct m 0 c).bound () t0_0.succ⌝ ∗ owes (c : Thread nD τ) 0 W)
      ∗ (∃ X, ⌜X = Y (0 : Fin 3)⌝ ∗ owns (c : Thread nD τ) (Memref.whole cc0_stg0_0) fullShare X)
      ∗ (∃ X, ⌜X = Y (1 : Fin 3)⌝ ∗ owns (c : Thread nD τ) (Memref.whole cc0_stg1_0) fullShare X)
      ∗ (∃ X, ⌜∀ i : S1024x1024.Idx, ct.okOut (i 0).val (i 1).val (X i)⌝ ∗ owns (c : Thread nD τ) (Memref.whole cc0_stg2_0) fullShare X))
  simp only [owns_whole]
  unfold PostBody Φ₁
  iintro ⟨Ho, HRS, HAG, Hidle, Hrest, H0, H1, H2⟩
  icases Ho with ⟨%W, Ho⟩
  isplitl [HRS HAG Hidle Hrest]
  · isplitl [Hrest]
    · iexact Hrest
    iapply (ownSems0_closed (F := F) c)
    isplitl [HRS]
    · iexact HRS
    isplitl [HAG]
    · iexact HAG
    iexact Hidle
  isplitl [Ho]
  · iexists W
    isplitr
    · ipureintro; exact fun _ _ => Or.inl trivial
    iexact Ho
  isplitl [H0]
  · iexists _
    isplitr
    · ipureintro; exact h0.symm
    iexact H0
  isplitl [H1]
  · iexists _
    isplitr
    · ipureintro; exact h1.symm
    iexact H1
  iexact H2

/-- The library's body obligation on device `c`, from the three segments and the laws at the argument arrays. -/
theorem body_obligation
    (laws : Laws ct c (m ((c : Thread nD τ).loc main_arg0)) (m ((c : Thread nD τ).loc main_arg1)))
    (hA : ∀ (K : Dev nD × Fin 124 → ℕ) (YA : S1024x512.Idx → F .f32) (YB : S512x1024.Idx → F .f32), Laws ct c YA YB →
      ∀ {R : Type} (T : Sg → Prog (TpuEff nD τ sig (Elt F) Λ₀ .tc) R) (Kt : R → sProp (MT nD τ sig Unit (Elt F) ℕ UU ℕ)), SegA ct K c YA YB T Kt)
    (hB : ∀ (K : Dev nD × Fin 124 → ℕ) (YA : S1024x512.Idx → F .f32) (YB : S512x1024.Idx → F .f32), Laws ct c YA YB →
      ∀ {R : Type} (T : Sg → Prog (TpuEff nD τ sig (Elt F) Λ₀ .tc) R) (Kt : R → sProp (MT nD τ sig Unit (Elt F) ℕ UU ℕ)), SegB ct K c YA YB T Kt)
    (hC : ∀ (K : Dev nD × Fin 124 → ℕ) (YA : S1024x512.Idx → F .f32) (YB : S512x1024.Idx → F .f32), Laws ct c YA YB →
      ∀ (Kt : PUnit → sProp (MT nD τ sig Unit (Elt F) ℕ UU ℕ)), SegC ct K c YA YB Kt) :
    (rdats ct m 0 c).BodyObligation (defs₀ (F := F)) Variants.none () Set.univ := by
  intro t Y hY
  obtain rfl := fin_N0 t
  have h0 := finds_0 ct m c (Y (0 : Fin 3)) (hY 0)
  have h1 := finds_1 ct m c (Y (1 : Fin 3)) (hY 1)
  refine (pre_of ct m c Y h0 h1).trans ?_
  show iprop(∃ K, PreA ct K c (m ((c : Thread nD τ).loc main_arg0)) (m ((c : Thread nD τ).loc main_arg1))) ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14) _
  iintro ⟨%K, HP⟩
  iapply (body_of_segs ct c K _ _ (hA K _ _ laws) (hB K _ _ laws) (hC K _ _ laws) _)
  isplitl [HP]
  · iexact HP
  iintro HQ
  iapply (post_of ct m c Y h0 h1)
  iexact HQ

/-- Under the contract that asks nothing the laws hold of any contents: the obligation of the frame claim. -/
theorem body_trivial
    (hA : ∀ (K : Dev nD × Fin 124 → ℕ) (YA : S1024x512.Idx → F .f32) (YB : S512x1024.Idx → F .f32), Laws (Contract.trivial (F := F)) c YA YB →
      ∀ {R : Type} (T : Sg → Prog (TpuEff nD τ sig (Elt F) Λ₀ .tc) R) (Kt : R → sProp (MT nD τ sig Unit (Elt F) ℕ UU ℕ)), SegA (Contract.trivial (F := F)) K c YA YB T Kt)
    (hB : ∀ (K : Dev nD × Fin 124 → ℕ) (YA : S1024x512.Idx → F .f32) (YB : S512x1024.Idx → F .f32), Laws (Contract.trivial (F := F)) c YA YB →
      ∀ {R : Type} (T : Sg → Prog (TpuEff nD τ sig (Elt F) Λ₀ .tc) R) (Kt : R → sProp (MT nD τ sig Unit (Elt F) ℕ UU ℕ)), SegB (Contract.trivial (F := F)) K c YA YB T Kt)
    (hC : ∀ (K : Dev nD × Fin 124 → ℕ) (YA : S1024x512.Idx → F .f32) (YB : S512x1024.Idx → F .f32), Laws (Contract.trivial (F := F)) c YA YB →
      ∀ (Kt : PUnit → sProp (MT nD τ sig Unit (Elt F) ℕ UU ℕ)), SegC (Contract.trivial (F := F)) K c YA YB Kt) :
    (rdats (Contract.trivial (F := F)) m 0 c).BodyObligation (defs₀ (F := F)) Variants.none () Set.univ :=
  body_obligation Contract.trivial m c (Cert.Kernel.LawsTriv.laws_trivial c _ _) hA hB hC

end Cert.Kernel.BodyOb

end
-- ==== Proof.GeoK.lean ====
/-
  The kernel's addresses in closed form.

  Every row and column at which the kernel reads, writes or transfers a block is computed from the
  device's index by word arithmetic. Here each such pair is identified, on all thirty-two devices,
  with its meaning in the exchange pattern: `bit k s c` selects the half device `c` keeps at stage `s`
  of column block `k`, `lo k c s` is the first row of the range it still holds after `s` stages, the
  halves have 512, 256, 128, 64, 32 rows, and the column blocks start at columns 0, 384, 768.

  Summing phase, stage `s`, column block `k`: the half that is sent starts at row
  `lo k c s + (1 - bit k s c) * half s` of the accumulator and at row `(1 - bit k s c) * half s` of the
  previous stage's receive buffer; the half that is kept at `lo k c (s + 1)` and `bit k s c * half s`; the
  two pieces of the send buffer at rows `(1 - bit k (s+1) c) * half (s+1)` and `bit k (s+1) c * half (s+1)`.
  Gathering phase, stage `s` (descending): the device sends the range it holds, starting at
  `lo k c (s + 2)`, and then its sibling range, starting at `lo k c (s + 1) + (1 - bit k (s+1) c) * half (s+1)`.
-/
import proofs.«900879_g7700000000000880_dist_matmul_gelu_kshard_i_m1024_n1024_k512_v7x_i32_bf16_1_alg».proof.Proof.ProtoK

namespace Cert.Kernel.Geo

open Cert.Kernel Cert.Kernel.Proto
open Idealize.ShloMosaic

/-! ## Summing phase, stage 0: the two products of each column block, and the pieces sent -/

theorem off1_eq : ∀ c : Dev nD, k0_off1 c = ![(1 - bit 0 0 c) * 512, 0] := by decide +kernel
theorem off2_eq : ∀ c : Dev nD, k0_off2 c = ![(1 - bit 0 1 c) * 256, 0] := by decide +kernel
theorem off3_eq : ∀ c : Dev nD, k0_off3 c = ![bit 0 1 c * 256, 0] := by decide +kernel
theorem off4_1_eq : ∀ c : Dev nD, k0_off4 c 1#32 = ![(1 - bit 1 0 c) * 512, 0] := by decide +kernel
theorem off4_3_eq : ∀ c : Dev nD, k0_off4 c 3#32 = ![(1 - bit 2 0 c) * 512, 0] := by decide +kernel
theorem off5_eq : ∀ c : Dev nD, k0_off5 c = ![(1 - bit 1 1 c) * 256, 384] := by decide +kernel
theorem off6_eq : ∀ c : Dev nD, k0_off6 c = ![bit 1 1 c * 256, 384] := by decide +kernel
theorem off7_eq : ∀ c : Dev nD, k0_off7 c = ![(1 - bit 2 1 c) * 256, 768] := by decide +kernel
theorem off8_eq : ∀ c : Dev nD, k0_off8 c = ![bit 2 1 c * 256, 768] := by decide +kernel
theorem off9_eq : ∀ c : Dev nD, k0_off9 c = ![lo 0 c 1, 0] := by decide +kernel
theorem off10_eq : ∀ c : Dev nD, k0_off10 c = ![lo 0 c 1, 0] := by decide +kernel
theorem off11_1_eq : ∀ c : Dev nD, k0_off11 c 1#32 = ![lo 1 c 1, 0] := by decide +kernel
theorem off11_3_eq : ∀ c : Dev nD, k0_off11 c 3#32 = ![lo 2 c 1, 0] := by decide +kernel
theorem off12_eq : ∀ c : Dev nD, k0_off12 c = ![lo 1 c 1, 384] := by decide +kernel
theorem off13_eq : ∀ c : Dev nD, k0_off13 c = ![lo 2 c 1, 768] := by decide +kernel

/-! ## Summing phase, stage 1 -/

theorem off14_eq : ∀ c : Dev nD, k0_off14 c = ![lo 0 c 1 + (1 - bit 0 1 c) * 256, 0] := by decide +kernel
theorem off15_eq : ∀ c : Dev nD, k0_off15 c = ![(1 - bit 0 1 c) * 256, 0] := by decide +kernel
theorem off16_eq : ∀ c : Dev nD, k0_off16 c = ![(1 - bit 0 2 c) * 128, 0] := by decide +kernel
theorem off17_eq : ∀ c : Dev nD, k0_off17 c = ![bit 0 2 c * 128, 0] := by decide +kernel
theorem off18_eq : ∀ c : Dev nD, k0_off18 c = ![lo 1 c 1 + (1 - bit 1 1 c) * 256, 384] := by decide +kernel
theorem off19_eq : ∀ c : Dev nD, k0_off19 c = ![(1 - bit 1 1 c) * 256, 384] := by decide +kernel
theorem off20_eq : ∀ c : Dev nD, k0_off20 c = ![(1 - bit 1 2 c) * 128, 384] := by decide +kernel
theorem off21_eq : ∀ c : Dev nD, k0_off21 c = ![bit 1 2 c * 128, 384] := by decide +kernel
theorem off22_eq : ∀ c : Dev nD, k0_off22 c = ![lo 2 c 1 + (1 - bit 2 1 c) * 256, 768] := by decide +kernel
theorem off23_eq : ∀ c : Dev nD, k0_off23 c = ![(1 - bit 2 1 c) * 256, 768] := by decide +kernel
theorem off24_eq : ∀ c : Dev nD, k0_off24 c = ![(1 - bit 2 2 c) * 128, 768] := by decide +kernel
theorem off25_eq : ∀ c : Dev nD, k0_off25 c = ![bit 2 2 c * 128, 768] := by decide +kernel
theorem off26_eq : ∀ c : Dev nD, k0_off26 c = ![lo 0 c 2, 0] := by decide +kernel
theorem off27_eq : ∀ c : Dev nD, k0_off27 c = ![bit 0 1 c * 256, 0] := by decide +kernel
theorem off28_eq : ∀ c : Dev nD, k0_off28 c = ![lo 1 c 2, 384] := by decide +kernel
theorem off29_eq : ∀ c : Dev nD, k0_off29 c = ![bit 1 1 c * 256, 384] := by decide +kernel
theorem off30_eq : ∀ c : Dev nD, k0_off30 c = ![lo 2 c 2, 768] := by decide +kernel
theorem off31_eq : ∀ c : Dev nD, k0_off31 c = ![bit 2 1 c * 256, 768] := by decide +kernel

/-! ## Summing phase, stage 2 -/

theorem off32_eq : ∀ c : Dev nD, k0_off32 c = ![lo 0 c 2 + (1 - bit 0 2 c) * 128, 0] := by decide +kernel
theorem off33_eq : ∀ c : Dev nD, k0_off33 c = ![(1 - bit 0 2 c) * 128, 0] := by decide +kernel
theorem off34_eq : ∀ c : Dev nD, k0_off34 c = ![(1 - bit 0 3 c) * 64, 0] := by decide +kernel
theorem off35_eq : ∀ c : Dev nD, k0_off35 c = ![bit 0 3 c * 64, 0] := by decide +kernel
theorem off36_eq : ∀ c : Dev nD, k0_off36 c = ![lo 1 c 2 + (1 - bit 1 2 c) * 128, 384] := by decide +kernel
theorem off37_eq : ∀ c : Dev nD, k0_off37 c = ![(1 - bit 1 2 c) * 128, 384] := by decide +kernel
theorem off38_eq : ∀ c : Dev nD, k0_off38 c = ![(1 - bit 1 3 c) * 64, 384] := by decide +kernel
theorem off39_eq : ∀ c : Dev nD, k0_off39 c = ![bit 1 3 c * 64, 384] := by decide +kernel
theorem off40_eq : ∀ c : Dev nD, k0_off40 c = ![lo 2 c 2 + (1 - bit 2 2 c) * 128, 768] := by decide +kernel
theorem off41_eq : ∀ c : Dev nD, k0_off41 c = ![(1 - bit 2 2 c) * 128, 768] := by decide +kernel
theorem off42_eq : ∀ c : Dev nD, k0_off42 c = ![(1 - bit 2 3 c) * 64, 768] := by decide +kernel
theorem off43_eq : ∀ c : Dev nD, k0_off43 c = ![bit 2 3 c * 64, 768] := by decide +kernel
theorem off44_eq : ∀ c : Dev nD, k0_off44 c = ![lo 0 c 3, 0] := by decide +kernel
theorem off45_eq : ∀ c : Dev nD, k0_off45 c = ![bit 0 2 c * 128, 0] := by decide +kernel
theorem off46_eq : ∀ c : Dev nD, k0_off46 c = ![lo 1 c 3, 384] := by decide +kernel
theorem off47_eq : ∀ c : Dev nD, k0_off47 c = ![bit 1 2 c * 128, 384] := by decide +kernel
theorem off48_eq : ∀ c : Dev nD, k0_off48 c = ![lo 2 c 3, 768] := by decide +kernel
theorem off49_eq : ∀ c : Dev nD, k0_off49 c = ![bit 2 2 c * 128, 768] := by decide +kernel

/-! ## Summing phase, stage 3 -/

theorem off50_eq : ∀ c : Dev nD, k0_off50 c = ![lo 0 c 3 + (1 - bit 0 3 c) * 64, 0] := by decide +kernel
theorem off51_eq : ∀ c : Dev nD, k0_off51 c = ![(1 - bit 0 3 c) * 64, 0] := by decide +kernel
theorem off52_eq : ∀ c : Dev nD, k0_off52 c = ![(1 - bit 0 4 c) * 32, 0] := by decide +kernel
theorem off53_eq : ∀ c : Dev nD, k0_off53 c = ![bit 0 4 c * 32, 0] := by decide +kernel
theorem off54_eq : ∀ c : Dev nD, k0_off54 c = ![lo 1 c 3 + (1 - bit 1 3 c) * 64, 384] := by decide +kernel
theorem off55_eq : ∀ c : Dev nD, k0_off55 c = ![(1 - bit 1 3 c) * 64, 384] := by decide +kernel
theorem off56_eq : ∀ c : Dev nD, k0_off56 c = ![(1 - bit 1 4 c) * 32, 384] := by decide +kernel
theorem off57_eq : ∀ c : Dev nD, k0_off57 c = ![bit 1 4 c * 32, 384] := by decide +kernel
theorem off58_eq : ∀ c : Dev nD, k0_off58 c = ![lo 2 c 3 + (1 - bit 2 3 c) * 64, 768] := by decide +kernel
theorem off59_eq : ∀ c : Dev nD, k0_off59 c = ![(1 - bit 2 3 c) * 64, 768] := by decide +kernel
theorem off60_eq : ∀ c : Dev nD, k0_off60 c = ![(1 - bit 2 4 c) * 32, 768] := by decide +kernel
theorem off61_eq : ∀ c : Dev nD, k0_off61 c = ![bit 2 4 c * 32, 768] := by decide +kernel
theorem off62_eq : ∀ c : Dev nD, k0_off62 c = ![lo 0 c 4, 0] := by decide +kernel
theorem off63_eq : ∀ c : Dev nD, k0_off63 c = ![bit 0 3 c * 64, 0] := by decide +kernel
theorem off64_eq : ∀ c : Dev nD, k0_off64 c = ![lo 1 c 4, 384] := by decide +kernel
theorem off65_eq : ∀ c : Dev nD, k0_off65 c = ![bit 1 3 c * 64, 384] := by decide +kernel
theorem off66_eq : ∀ c : Dev nD, k0_off66 c = ![lo 2 c 4, 768] := by decide +kernel
theorem off67_eq : ∀ c : Dev nD, k0_off67 c = ![bit 2 3 c * 64, 768] := by decide +kernel

/-! ## Summing phase, stage 4, and the rows each device owns at the end -/

theorem off68_eq : ∀ c : Dev nD, k0_off68 c = ![lo 0 c 4 + (1 - bit 0 4 c) * 32, 0] := by decide +kernel
theorem off69_eq : ∀ c : Dev nD, k0_off69 c = ![(1 - bit 0 4 c) * 32, 0] := by decide +kernel
theorem off70_eq : ∀ c : Dev nD, k0_off70 c = ![lo 1 c 4 + (1 - bit 1 4 c) * 32, 384] := by decide +kernel
theorem off71_eq : ∀ c : Dev nD, k0_off71 c = ![(1 - bit 1 4 c) * 32, 384] := by decide +kernel
theorem off72_eq : ∀ c : Dev nD, k0_off72 c = ![lo 2 c 4 + (1 - bit 2 4 c) * 32, 768] := by decide +kernel
theorem off73_eq : ∀ c : Dev nD, k0_off73 c = ![(1 - bit 2 4 c) * 32, 768] := by decide +kernel
theorem off74_eq : ∀ c : Dev nD, k0_off74 c = ![lo 0 c 5, 0] := by decide +kernel
theorem off75_eq : ∀ c : Dev nD, k0_off75 c = ![bit 0 4 c * 32, 0] := by decide +kernel
theorem off76_eq : ∀ c : Dev nD, k0_off76 c = ![lo 1 c 5, 384] := by decide +kernel
theorem off77_eq : ∀ c : Dev nD, k0_off77 c = ![bit 1 4 c * 32, 384] := by decide +kernel
theorem off78_eq : ∀ c : Dev nD, k0_off78 c = ![lo 2 c 5, 768] := by decide +kernel
theorem off79_eq : ∀ c : Dev nD, k0_off79 c = ![bit 2 4 c * 32, 768] := by decide +kernel

/-! ## Gathering phase: the range held, then the sibling range, stage by stage -/

theorem off80_eq : ∀ c : Dev nD, k0_off80 c = ![lo 0 c 5, 0] := by decide +kernel
theorem off81_eq : ∀ c : Dev nD, k0_off81 c = ![lo 1 c 5, 384] := by decide +kernel
theorem off82_eq : ∀ c : Dev nD, k0_off82 c = ![lo 2 c 5, 768] := by decide +kernel
theorem off83_eq : ∀ c : Dev nD, k0_off83 c = ![lo 0 c 4 + (1 - bit 0 4 c) * 32, 0] := by decide +kernel
theorem off84_eq : ∀ c : Dev nD, k0_off84 c = ![lo 1 c 4 + (1 - bit 1 4 c) * 32, 384] := by decide +kernel
theorem off85_eq : ∀ c : Dev nD, k0_off85 c = ![lo 2 c 4 + (1 - bit 2 4 c) * 32, 768] := by decide +kernel
theorem off86_eq : ∀ c : Dev nD, k0_off86 c = ![lo 0 c 4, 0] := by decide +kernel
theorem off87_eq : ∀ c : Dev nD, k0_off87 c = ![lo 0 c 3 + (1 - bit 0 3 c) * 64, 0] := by decide +kernel
theorem off88_eq : ∀ c : Dev nD, k0_off88 c = ![lo 1 c 4, 384] := by decide +kernel
theorem off89_eq : ∀ c : Dev nD, k0_off89 c = ![lo 1 c 3 + (1 - bit 1 3 c) * 64, 384] := by decide +kernel
theorem off90_eq : ∀ c : Dev nD, k0_off90 c = ![lo 2 c 4, 768] := by decide +kernel
theorem off91_eq : ∀ c : Dev nD, k0_off91 c = ![lo 2 c 3 + (1 - bit 2 3 c) * 64, 768] := by decide +kernel
theorem off92_eq : ∀ c : Dev nD, k0_off92 c = ![lo 0 c 3, 0] := by decide +kernel
theorem off93_eq : ∀ c : Dev nD, k0_off93 c = ![lo 0 c 2 + (1 - bit 0 2 c) * 128, 0] := by decide +kernel
theorem off94_eq : ∀ c : Dev nD, k0_off94 c = ![lo 1 c 3, 384] := by decide +kernel
theorem off95_eq : ∀ c : Dev nD, k0_off95 c = ![lo 1 c 2 + (1 - bit 1 2 c) * 128, 384] := by decide +kernel
theorem off96_eq : ∀ c : Dev nD, k0_off96 c = ![lo 2 c 3, 768] := by decide +kernel
theorem off97_eq : ∀ c : Dev nD, k0_off97 c = ![lo 2 c 2 + (1 - bit 2 2 c) * 128, 768] := by decide +kernel
theorem off98_eq : ∀ c : Dev nD, k0_off98 c = ![lo 0 c 2, 0] := by decide +kernel
theorem off99_eq : ∀ c : Dev nD, k0_off99 c = ![lo 0 c 1 + (1 - bit 0 1 c) * 256, 0] := by decide +kernel
theorem off100_eq : ∀ c : Dev nD, k0_off100 c = ![lo 1 c 2, 384] := by decide +kernel
theorem off101_eq : ∀ c : Dev nD, k0_off101 c = ![lo 1 c 1 + (1 - bit 1 1 c) * 256, 384] := by decide +kernel
theorem off102_eq : ∀ c : Dev nD, k0_off102 c = ![lo 2 c 2, 768] := by decide +kernel
theorem off103_eq : ∀ c : Dev nD, k0_off103 c = ![lo 2 c 1 + (1 - bit 2 1 c) * 256, 768] := by decide +kernel

/-! ## The row words the gathering phase declares aligned are the same rows -/

theorem mult1_eq : ∀ c : Dev nD, (k0_mult1 c).toNat = lo 0 c 5 := by decide +kernel
theorem mult2_eq : ∀ c : Dev nD, (k0_mult2 c).toNat = lo 1 c 5 := by decide +kernel
theorem mult3_eq : ∀ c : Dev nD, (k0_mult3 c).toNat = lo 2 c 5 := by decide +kernel
theorem mult4_eq : ∀ c : Dev nD, (k0_mult4 c).toNat = lo 0 c 5 := by decide +kernel
theorem mult5_eq : ∀ c : Dev nD, (k0_mult5 c).toNat = lo 0 c 4 + (1 - bit 0 4 c) * 32 := by decide +kernel
theorem mult6_eq : ∀ c : Dev nD, (k0_mult6 c).toNat = lo 1 c 5 := by decide +kernel
theorem mult7_eq : ∀ c : Dev nD, (k0_mult7 c).toNat = lo 1 c 4 + (1 - bit 1 4 c) * 32 := by decide +kernel
theorem mult8_eq : ∀ c : Dev nD, (k0_mult8 c).toNat = lo 2 c 5 := by decide +kernel
theorem mult9_eq : ∀ c : Dev nD, (k0_mult9 c).toNat = lo 2 c 4 + (1 - bit 2 4 c) * 32 := by decide +kernel
theorem mult10_eq : ∀ c : Dev nD, (k0_mult10 c).toNat = lo 0 c 4 := by decide +kernel
theorem mult11_eq : ∀ c : Dev nD, (k0_mult11 c).toNat = lo 0 c 3 + (1 - bit 0 3 c) * 64 := by decide +kernel
theorem mult12_eq : ∀ c : Dev nD, (k0_mult12 c).toNat = lo 1 c 4 := by decide +kernel
theorem mult13_eq : ∀ c : Dev nD, (k0_mult13 c).toNat = lo 1 c 3 + (1 - bit 1 3 c) * 64 := by decide +kernel
theorem mult14_eq : ∀ c : Dev nD, (k0_mult14 c).toNat = lo 2 c 4 := by decide +kernel
theorem mult15_eq : ∀ c : Dev nD, (k0_mult15 c).toNat = lo 2 c 3 + (1 - bit 2 3 c) * 64 := by decide +kernel
theorem mult16_eq : ∀ c : Dev nD, (k0_mult16 c).toNat = lo 0 c 3 := by decide +kernel
theorem mult17_eq : ∀ c : Dev nD, (k0_mult17 c).toNat = lo 0 c 2 + (1 - bit 0 2 c) * 128 := by decide +kernel
theorem mult18_eq : ∀ c : Dev nD, (k0_mult18 c).toNat = lo 1 c 3 := by decide +kernel
theorem mult19_eq : ∀ c : Dev nD, (k0_mult19 c).toNat = lo 1 c 2 + (1 - bit 1 2 c) * 128 := by decide +kernel
theorem mult20_eq : ∀ c : Dev nD, (k0_mult20 c).toNat = lo 2 c 3 := by decide +kernel
theorem mult21_eq : ∀ c : Dev nD, (k0_mult21 c).toNat = lo 2 c 2 + (1 - bit 2 2 c) * 128 := by decide +kernel
theorem mult22_eq : ∀ c : Dev nD, (k0_mult22 c).toNat = lo 0 c 2 := by decide +kernel
theorem mult23_eq : ∀ c : Dev nD, (k0_mult23 c).toNat = lo 0 c 1 + (1 - bit 0 1 c) * 256 := by decide +kernel
theorem mult24_eq : ∀ c : Dev nD, (k0_mult24 c).toNat = lo 1 c 2 := by decide +kernel
theorem mult25_eq : ∀ c : Dev nD, (k0_mult25 c).toNat = lo 1 c 1 + (1 - bit 1 1 c) * 256 := by decide +kernel
theorem mult26_eq : ∀ c : Dev nD, (k0_mult26 c).toNat = lo 2 c 2 := by decide +kernel
theorem mult27_eq : ∀ c : Dev nD, (k0_mult27 c).toNat = lo 2 c 1 + (1 - bit 2 1 c) * 256 := by decide +kernel

end Cert.Kernel.Geo
-- ==== Proof.RegionsCutK.lean ====
/-
  Cutting a buffer into rectangles.

  A buffer of two axes is covered by its three column blocks, and a column block by two row pieces
  stacked one on the other. Here: the rectangles as sets of positions (membership is a pair of
  interval conditions, one per axis, so disjointness and covering are linear arithmetic), and the
  matching laws of the points-to assertion, both at named contents and at some contents.
-/
import proofs.«900879_g7700000000000880_dist_matmul_gelu_kshard_i_m1024_n1024_k512_v7x_i32_bf16_1_alg».proof.Proof.HeldK
import Idealize.ShloMosaic.Rules.PointsTo

noncomputable section

namespace Cert.Kernel.RegionsCut

open Cert.Kernel Cert.Kernel.Gen Cert.Kernel.Proto Cert.Kernel.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Rectangles of a two-axis shape as sets of positions -/

section Sets
variable {d : Fin 2 → ℕ}

/-- A position lies in a unit-stride rectangle when its row lies in the rectangle's rows and its
    column in the rectangle's columns. -/
theorem mem_unit2 {off size : Fin 2 → ℕ} {inb : ∀ a, off a + size a ≤ (⟨2, d⟩ : Shape).size a} {i : (⟨2, d⟩ : Shape).Idx} :
    i ∈ (Rect.unit (s := ⟨2, d⟩) off size inb).set
      ↔ (off 0 ≤ (i 0 : ℕ) ∧ (i 0 : ℕ) < off 0 + size 0) ∧ (off 1 ≤ (i 1 : ℕ) ∧ (i 1 : ℕ) < off 1 + size 1) := by
  rw [Rect.mem_set_unit]; exact Fin.forall_fin_two

/-- Two rectangles over the columns of a block `K`, one starting at `K`'s first row and the other
    where the first ends (in either order), whose heights add up to `K`'s: they are disjoint and
    cover `K`. -/
theorem rows_part {oA oB oK zA zB zK : Fin 2 → ℕ} {inbA inbB inbK}
    (hcol : oA 1 = oK 1 ∧ oB 1 = oK 1 ∧ zA 1 = zK 1 ∧ zB 1 = zK 1)
    (hrow : zA 0 + zB 0 = zK 0 ∧ ((oA 0 = oK 0 ∧ oB 0 = oK 0 + zA 0) ∨ (oB 0 = oK 0 ∧ oA 0 = oK 0 + zB 0))) :
    Disjoint (Rect.unit (s := ⟨2, d⟩) oA zA inbA).set (Rect.unit (s := ⟨2, d⟩) oB zB inbB).set
      ∧ (Rect.unit (s := ⟨2, d⟩) oA zA inbA).set ∪ (Rect.unit (s := ⟨2, d⟩) oB zB inbB).set
          = (Rect.unit (s := ⟨2, d⟩) oK zK inbK).set := by
  refine ⟨Finset.disjoint_left.mpr fun i hA hB => ?_, Finset.ext fun i => ?_⟩
  · rw [mem_unit2] at hA hB; omega
  · rw [Finset.mem_union, mem_unit2, mem_unit2, mem_unit2]; omega

/-- Three rectangles of all rows whose column ranges follow one another from column 0 to the last:
    they are pairwise disjoint and cover the shape. -/
theorem cols_part {o0 o1 o2 z0 z1 z2 : Fin 2 → ℕ} {inb0 inb1 inb2}
    (hrow : (o0 0 = 0 ∧ o1 0 = 0 ∧ o2 0 = 0) ∧ z0 0 = d 0 ∧ z1 0 = d 0 ∧ z2 0 = d 0)
    (hcol : o0 1 = 0 ∧ o1 1 = z0 1 ∧ o2 1 = z0 1 + z1 1 ∧ z0 1 + z1 1 + z2 1 = d 1) :
    (Disjoint (Rect.unit (s := ⟨2, d⟩) o0 z0 inb0).set (Rect.unit (s := ⟨2, d⟩) o1 z1 inb1).set
      ∧ Disjoint (Rect.unit (s := ⟨2, d⟩) o0 z0 inb0).set (Rect.unit (s := ⟨2, d⟩) o2 z2 inb2).set
      ∧ Disjoint (Rect.unit (s := ⟨2, d⟩) o1 z1 inb1).set (Rect.unit (s := ⟨2, d⟩) o2 z2 inb2).set)
      ∧ (Rect.unit (s := ⟨2, d⟩) o0 z0 inb0).set ∪ ((Rect.unit (s := ⟨2, d⟩) o1 z1 inb1).set ∪ (Rect.unit (s := ⟨2, d⟩) o2 z2 inb2).set)
          = Finset.univ := by
  refine ⟨⟨Finset.disjoint_left.mpr fun i hA hB => ?_, Finset.disjoint_left.mpr fun i hA hB => ?_,
    Finset.disjoint_left.mpr fun i hA hB => ?_⟩, Finset.ext fun i => ?_⟩
  · rw [mem_unit2] at hA hB; omega
  · rw [mem_unit2] at hA hB; omega
  · rw [mem_unit2] at hA hB; omega
  · have h0 : (i 0 : ℕ) < d 0 := (i 0).isLt
    have h1 : (i 1 : ℕ) < d 1 := (i 1).isLt
    rw [Finset.mem_union, Finset.mem_union, mem_unit2, mem_unit2, mem_unit2]
    simp only [Finset.mem_univ, iff_true]; omega

end Sets

/-- A half-selecting bit is 0 or 1. -/
theorem bit01 (k : Fin 3) (s : Fin 5) (c : Dev nD) : bit k s c = 0 ∨ bit k s c = 1 := by
  have := bit_le_one k s c; omega

/-! ## The same partitions under other spellings of the sets -/

theorem part2_congr {α : Type} [DecidableEq α] {A B K A' B' K' : Finset α} (hA : A' = A) (hB : B' = B) (hK : K' = K)
    (h : Disjoint A B ∧ A ∪ B = K) : Disjoint A' B' ∧ A' ∪ B' = K' := by
  subst hA hB hK; exact h

theorem part3_congr {α : Type} [DecidableEq α] {A B C K A' B' C' K' : Finset α} (hA : A' = A) (hB : B' = B) (hC : C' = C) (hK : K' = K)
    (h : (Disjoint A B ∧ Disjoint A C ∧ Disjoint B C) ∧ A ∪ (B ∪ C) = K) :
    (Disjoint A' B' ∧ Disjoint A' C' ∧ Disjoint B' C') ∧ A' ∪ (B' ∪ C') = K' := by
  subst hA hB hC hK; exact h

/-! ## The points-to assertion along a partition -/

section Cut
variable {ℓ : Loc nD τ sig} {q : PosShare TreeShare}

/-! ### At named contents -/

omit [FloatOps F] in
theorem at_cut2 {A B S : Finset (Idx ℓ)} (h : Disjoint A B ∧ A ∪ B = S) (f : Buf (Elt F) ℓ) :
    (ℓ ↦[S]{q} f : sProp 𝕄) ⊣⊢ iprop((ℓ ↦[A]{q} f) ∗ ℓ ↦[B]{q} f) := by
  obtain ⟨hd, rfl⟩ := h
  exact pointsTo_union hd

omit [FloatOps F] in
theorem at_cut3 {A B C S : Finset (Idx ℓ)} (h : (Disjoint A B ∧ Disjoint A C ∧ Disjoint B C) ∧ A ∪ (B ∪ C) = S) (f : Buf (Elt F) ℓ) :
    (ℓ ↦[S]{q} f : sProp 𝕄) ⊣⊢ iprop((ℓ ↦[A]{q} f) ∗ (ℓ ↦[B]{q} f) ∗ ℓ ↦[C]{q} f) := by
  obtain ⟨⟨hab, hac, hbc⟩, rfl⟩ := h
  have h1 : (ℓ ↦[A ∪ (B ∪ C)]{q} f : sProp 𝕄) ⊣⊢ iprop((ℓ ↦[A]{q} f) ∗ ℓ ↦[B ∪ C]{q} f) :=
    pointsTo_union (Finset.disjoint_union_right.mpr ⟨hab, hac⟩)
  have h2 : (ℓ ↦[B ∪ C]{q} f : sProp 𝕄) ⊣⊢ iprop((ℓ ↦[B]{q} f) ∗ ℓ ↦[C]{q} f) := pointsTo_union hbc
  exact ⟨h1.1.trans (sep_mono .rfl h2.1), (sep_mono .rfl h2.2).trans h1.2⟩

/-! ### At some contents -/

omit [FloatOps F] in
theorem any_split2 {A B S : Finset (Idx ℓ)} (h : Disjoint A B ∧ A ∪ B = S) :
    (iprop(∃ f : Buf (Elt F) ℓ, ℓ ↦[S]{q} f) : sProp 𝕄)
      ⊢ iprop((∃ f : Buf (Elt F) ℓ, ℓ ↦[A]{q} f) ∗ (∃ f : Buf (Elt F) ℓ, ℓ ↦[B]{q} f)) := by
  iintro ⟨%f, H⟩
  ihave H' := (at_cut2 h f).1 $$ H
  icases H' with ⟨H1, H2⟩
  isplitl [H1]
  · iexists f; iexact H1
  · iexists f; iexact H2

omit [FloatOps F] in
theorem any_join2 {A B S : Finset (Idx ℓ)} (h : Disjoint A B ∧ A ∪ B = S) :
    (iprop((∃ f : Buf (Elt F) ℓ, ℓ ↦[A]{q} f) ∗ (∃ f : Buf (Elt F) ℓ, ℓ ↦[B]{q} f)) : sProp 𝕄)
      ⊢ iprop(∃ f : Buf (Elt F) ℓ, ℓ ↦[S]{q} f) := by
  obtain ⟨hd, rfl⟩ := h
  iintro ⟨⟨%f, H1⟩, ⟨%g, H2⟩⟩
  iexists (B.piecewise g f)
  iapply (pointsTo_join hd)
  isplitl [H1]
  · iexact H1
  · iexact H2

omit [FloatOps F] in
theorem any_split3 {A B C S : Finset (Idx ℓ)} (h : (Disjoint A B ∧ Disjoint A C ∧ Disjoint B C) ∧ A ∪ (B ∪ C) = S) :
    (iprop(∃ f : Buf (Elt F) ℓ, ℓ ↦[S]{q} f) : sProp 𝕄)
      ⊢ iprop((∃ f : Buf (Elt F) ℓ, ℓ ↦[A]{q} f) ∗ (∃ f : Buf (Elt F) ℓ, ℓ ↦[B]{q} f) ∗ (∃ f : Buf (Elt F) ℓ, ℓ ↦[C]{q} f)) := by
  obtain ⟨⟨hab, hac, hbc⟩, hu⟩ := h
  iintro H
  ihave H := (any_split2 (A := A) (B := B ∪ C) ⟨Finset.disjoint_union_right.mpr ⟨hab, hac⟩, hu⟩) $$ H
  icases H with ⟨HA, HBC⟩
  isplitl [HA]
  · iexact HA
  · iapply (any_split2 (A := B) (B := C) ⟨hbc, rfl⟩) $$ HBC

omit [FloatOps F] in
theorem any_join3 {A B C S : Finset (Idx ℓ)} (h : (Disjoint A B ∧ Disjoint A C ∧ Disjoint B C) ∧ A ∪ (B ∪ C) = S) :
    (iprop((∃ f : Buf (Elt F) ℓ, ℓ ↦[A]{q} f) ∗ (∃ f : Buf (Elt F) ℓ, ℓ ↦[B]{q} f) ∗ (∃ f : Buf (Elt F) ℓ, ℓ ↦[C]{q} f)) : sProp 𝕄)
      ⊢ iprop(∃ f : Buf (Elt F) ℓ, ℓ ↦[S]{q} f) := by
  obtain ⟨⟨hab, hac, hbc⟩, hu⟩ := h
  iintro ⟨HA, HBC⟩
  ihave HBC := (any_join2 (A := B) (B := C) ⟨hbc, rfl⟩) $$ HBC
  iapply (any_join2 (A := A) (B := B ∪ C) ⟨Finset.disjoint_union_right.mpr ⟨hab, hac⟩, hu⟩)
  isplitl [HA]
  · iexact HA
  · iexact HBC

omit [FloatOps F] in
/-- The whole buffer into three column blocks and each of these into two row pieces. -/
theorem any_split6 {K0 K1 K2 A0 A1 B0 B1 C0 C1 : Finset (Idx ℓ)}
    (hK : (Disjoint K0 K1 ∧ Disjoint K0 K2 ∧ Disjoint K1 K2) ∧ K0 ∪ (K1 ∪ K2) = Finset.univ)
    (hA : Disjoint A0 A1 ∧ A0 ∪ A1 = K0) (hB : Disjoint B0 B1 ∧ B0 ∪ B1 = K1) (hC : Disjoint C0 C1 ∧ C0 ∪ C1 = K2) :
    (iprop(∃ f : Buf (Elt F) ℓ, ℓ ↦{q} f) : sProp 𝕄)
      ⊢ iprop((∃ f : Buf (Elt F) ℓ, ℓ ↦[A0]{q} f) ∗ (∃ f : Buf (Elt F) ℓ, ℓ ↦[A1]{q} f)
          ∗ (∃ f : Buf (Elt F) ℓ, ℓ ↦[B0]{q} f) ∗ (∃ f : Buf (Elt F) ℓ, ℓ ↦[B1]{q} f)
          ∗ (∃ f : Buf (Elt F) ℓ, ℓ ↦[C0]{q} f) ∗ (∃ f : Buf (Elt F) ℓ, ℓ ↦[C1]{q} f)) := by
  iintro H
  ihave H := (any_split3 hK) $$ H
  icases H with ⟨H0, H1, H2⟩
  ihave H0 := (any_split2 hA) $$ H0
  ihave H1 := (any_split2 hB) $$ H1
  ihave H2 := (any_split2 hC) $$ H2
  icases H0 with ⟨H00, H01⟩
  icases H1 with ⟨H10, H11⟩
  icases H2 with ⟨H20, H21⟩
  isplitl [H00]; · iexact H00
  isplitl [H01]; · iexact H01
  isplitl [H10]; · iexact H10
  isplitl [H11]; · iexact H11
  isplitl [H20]; · iexact H20
  iexact H21

omit [FloatOps F] in
theorem any_join6 {K0 K1 K2 A0 A1 B0 B1 C0 C1 : Finset (Idx ℓ)}
    (hK : (Disjoint K0 K1 ∧ Disjoint K0 K2 ∧ Disjoint K1 K2) ∧ K0 ∪ (K1 ∪ K2) = Finset.univ)
    (hA : Disjoint A0 A1 ∧ A0 ∪ A1 = K0) (hB : Disjoint B0 B1 ∧ B0 ∪ B1 = K1) (hC : Disjoint C0 C1 ∧ C0 ∪ C1 = K2) :
    (iprop((∃ f : Buf (Elt F) ℓ, ℓ ↦[A0]{q} f) ∗ (∃ f : Buf (Elt F) ℓ, ℓ ↦[A1]{q} f)
          ∗ (∃ f : Buf (Elt F) ℓ, ℓ ↦[B0]{q} f) ∗ (∃ f : Buf (Elt F) ℓ, ℓ ↦[B1]{q} f)
          ∗ (∃ f : Buf (Elt F) ℓ, ℓ ↦[C0]{q} f) ∗ (∃ f : Buf (Elt F) ℓ, ℓ ↦[C1]{q} f)) : sProp 𝕄)
      ⊢ iprop(∃ f : Buf (Elt F) ℓ, ℓ ↦{q} f) := by
  iintro ⟨H00, H01, H10, H11, H20, H21⟩
  iapply (any_join3 hK)
  isplitl [H00 H01]
  · iapply (any_join2 hA)
    isplitl [H00]
    · iexact H00
    · iexact H01
  isplitl [H10 H11]
  · iapply (any_join2 hB)
    isplitl [H10]
    · iexact H10
    · iexact H11
  · iapply (any_join2 hC)
    isplitl [H20]
    · iexact H20
    · iexact H21

end Cut

end Cert.Kernel.RegionsCut

end
-- ==== Proof.RegionsRSK.lean ====
import proofs.«900879_g7700000000000880_dist_matmul_gelu_kshard_i_m1024_n1024_k512_v7x_i32_bf16_1_alg».proof.Proof.HeldK
import proofs.«900879_g7700000000000880_dist_matmul_gelu_kshard_i_m1024_n1024_k512_v7x_i32_bf16_1_alg».proof.Proof.GeoK
import proofs.«900879_g7700000000000880_dist_matmul_gelu_kshard_i_m1024_n1024_k512_v7x_i32_bf16_1_alg».proof.Proof.RegionsCutK

noncomputable section

namespace Cert.Kernel.RegionsRS

open Cert.Kernel Cert.Kernel.Gen Cert.Kernel.Proto Cert.Kernel.Tab Cert.Kernel.Held Cert.Kernel.Geo Cert.Kernel.RegionsCut
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Stage 0: buffers of 512 rows -/

/-- The three column blocks are pairwise disjoint and cover the buffer. -/
theorem cols_0 :
    (Disjoint (Rect.unit (s := S512x1024) ![0, 0] S512x384.size inb_S512x1024_S512x384_0_0).set (Rect.unit (s := S512x1024) ![0, 384] S512x384.size inb_S512x1024_S512x384_0_384).set ∧ Disjoint (Rect.unit (s := S512x1024) ![0, 0] S512x384.size inb_S512x1024_S512x384_0_0).set (Rect.unit (s := S512x1024) ![0, 768] S512x256.size inb_S512x1024_S512x256_0_768).set ∧ Disjoint (Rect.unit (s := S512x1024) ![0, 384] S512x384.size inb_S512x1024_S512x384_0_384).set (Rect.unit (s := S512x1024) ![0, 768] S512x256.size inb_S512x1024_S512x256_0_768).set) ∧ (Rect.unit (s := S512x1024) ![0, 0] S512x384.size inb_S512x1024_S512x384_0_0).set ∪ ((Rect.unit (s := S512x1024) ![0, 384] S512x384.size inb_S512x1024_S512x384_0_384).set ∪ (Rect.unit (s := S512x1024) ![0, 768] S512x256.size inb_S512x1024_S512x256_0_768).set) = Finset.univ :=
  cols_part (by decide) (by decide)

/-- Column block 0 of the stage's send buffer: the positions its store goes through. -/
abbrev ssCol_0_0 : Finset S512x1024.Idx := ((Memref.whole cc0_scratch6 : Memref sig .tc .vmem S512x1024 .bf16).access (Rect.unit (s := S512x1024) ![0, 0] S512x384.size inb_S512x1024_S512x384_0_0)).set
theorem ssCol_0_0_eq : ssCol_0_0 = (Rect.unit (s := S512x1024) ![0, 0] S512x384.size inb_S512x1024_S512x384_0_0).set := View.set_slice_whole _ _

/-- Column block 1 of the stage's send buffer: the positions its store goes through. -/
abbrev ssCol_0_1 : Finset S512x1024.Idx := ((Memref.whole cc0_scratch6 : Memref sig .tc .vmem S512x1024 .bf16).access (Rect.unit (s := S512x1024) ![0, 384] S512x384.size inb_S512x1024_S512x384_0_384)).set
theorem ssCol_0_1_eq : ssCol_0_1 = (Rect.unit (s := S512x1024) ![0, 384] S512x384.size inb_S512x1024_S512x384_0_384).set := View.set_slice_whole _ _

/-- Column block 2 of the stage's send buffer: the positions its store goes through. -/
abbrev ssCol_0_2 : Finset S512x1024.Idx := ((Memref.whole cc0_scratch6 : Memref sig .tc .vmem S512x1024 .bf16).access (Rect.unit (s := S512x1024) ![0, 768] S512x256.size inb_S512x1024_S512x256_0_768)).set
theorem ssCol_0_2_eq : ssCol_0_2 = (Rect.unit (s := S512x1024) ![0, 768] S512x256.size inb_S512x1024_S512x256_0_768).set := View.set_slice_whole _ _

theorem colsSS_0 : (Disjoint ssCol_0_0 ssCol_0_1 ∧ Disjoint ssCol_0_0 ssCol_0_2 ∧ Disjoint ssCol_0_1 ssCol_0_2) ∧ ssCol_0_0 ∪ (ssCol_0_1 ∪ ssCol_0_2) = Finset.univ :=
  part3_congr ssCol_0_0_eq ssCol_0_1_eq ssCol_0_2_eq rfl cols_0

/-- The two row pieces of column block 0, at any device's offsets, are disjoint and cover the block. -/
theorem rows_0_0 (p : Dev nD) :
    Disjoint (Rect.unit (s := S512x1024) (k0_off2 p) S256x384.size (k0_off2_inb p)).set (Rect.unit (s := S512x1024) (k0_off3 p) S256x384.size (k0_off3_inb p)).set ∧ (Rect.unit (s := S512x1024) (k0_off2 p) S256x384.size (k0_off2_inb p)).set ∪ (Rect.unit (s := S512x1024) (k0_off3 p) S256x384.size (k0_off3_inb p)).set = (Rect.unit (s := S512x1024) ![0, 0] S512x384.size inb_S512x1024_S512x384_0_0).set :=
  rows_part (by rw [off2_eq, off3_eq]; exact ⟨rfl, rfl, rfl, rfl⟩)
    (by obtain h | h := bit01 0 1 p <;> rw [off2_eq, off3_eq, h] <;> decide)
theorem rowsRS_0_0 (p : Dev nD) : Disjoint (dst_rs_0_0_0 p).view.set (dst_rs_0_0_1 p).view.set ∧ (dst_rs_0_0_0 p).view.set ∪ (dst_rs_0_0_1 p).view.set = (Rect.unit (s := S512x1024) ![0, 0] S512x384.size inb_S512x1024_S512x384_0_0).set :=
  part2_congr (View.set_slice_whole _ _) (View.set_slice_whole _ _) rfl (rows_0_0 p)
theorem rowsSS_0_0 (p : Dev nD) : Disjoint (src_rs_0_0_0 p).view.set (src_rs_0_0_1 p).view.set ∧ (src_rs_0_0_0 p).view.set ∪ (src_rs_0_0_1 p).view.set = (Rect.unit (s := S512x1024) ![0, 0] S512x384.size inb_S512x1024_S512x384_0_0).set :=
  part2_congr (View.set_slice_whole _ _) (View.set_slice_whole _ _) rfl (rows_0_0 p)
theorem rowsSSc_0_0 (p : Dev nD) : Disjoint (src_rs_0_0_0 p).view.set (src_rs_0_0_1 p).view.set ∧ (src_rs_0_0_0 p).view.set ∪ (src_rs_0_0_1 p).view.set = ssCol_0_0 :=
  part2_congr (View.set_slice_whole _ _) (View.set_slice_whole _ _) ssCol_0_0_eq (rows_0_0 p)

/-- The two row pieces of column block 1, at any device's offsets, are disjoint and cover the block. -/
theorem rows_0_1 (p : Dev nD) :
    Disjoint (Rect.unit (s := S512x1024) (k0_off5 p) S256x384.size (k0_off5_inb p)).set (Rect.unit (s := S512x1024) (k0_off6 p) S256x384.size (k0_off6_inb p)).set ∧ (Rect.unit (s := S512x1024) (k0_off5 p) S256x384.size (k0_off5_inb p)).set ∪ (Rect.unit (s := S512x1024) (k0_off6 p) S256x384.size (k0_off6_inb p)).set = (Rect.unit (s := S512x1024) ![0, 384] S512x384.size inb_S512x1024_S512x384_0_384).set :=
  rows_part (by rw [off5_eq, off6_eq]; exact ⟨rfl, rfl, rfl, rfl⟩)
    (by obtain h | h := bit01 1 1 p <;> rw [off5_eq, off6_eq, h] <;> decide)
theorem rowsRS_0_1 (p : Dev nD) : Disjoint (dst_rs_0_1_0 p).view.set (dst_rs_0_1_1 p).view.set ∧ (dst_rs_0_1_0 p).view.set ∪ (dst_rs_0_1_1 p).view.set = (Rect.unit (s := S512x1024) ![0, 384] S512x384.size inb_S512x1024_S512x384_0_384).set :=
  part2_congr (View.set_slice_whole _ _) (View.set_slice_whole _ _) rfl (rows_0_1 p)
theorem rowsSS_0_1 (p : Dev nD) : Disjoint (src_rs_0_1_0 p).view.set (src_rs_0_1_1 p).view.set ∧ (src_rs_0_1_0 p).view.set ∪ (src_rs_0_1_1 p).view.set = (Rect.unit (s := S512x1024) ![0, 384] S512x384.size inb_S512x1024_S512x384_0_384).set :=
  part2_congr (View.set_slice_whole _ _) (View.set_slice_whole _ _) rfl (rows_0_1 p)
theorem rowsSSc_0_1 (p : Dev nD) : Disjoint (src_rs_0_1_0 p).view.set (src_rs_0_1_1 p).view.set ∧ (src_rs_0_1_0 p).view.set ∪ (src_rs_0_1_1 p).view.set = ssCol_0_1 :=
  part2_congr (View.set_slice_whole _ _) (View.set_slice_whole _ _) ssCol_0_1_eq (rows_0_1 p)

/-- The two row pieces of column block 2, at any device's offsets, are disjoint and cover the block. -/
theorem rows_0_2 (p : Dev nD) :
    Disjoint (Rect.unit (s := S512x1024) (k0_off7 p) S256x256.size (k0_off7_inb p)).set (Rect.unit (s := S512x1024) (k0_off8 p) S256x256.size (k0_off8_inb p)).set ∧ (Rect.unit (s := S512x1024) (k0_off7 p) S256x256.size (k0_off7_inb p)).set ∪ (Rect.unit (s := S512x1024) (k0_off8 p) S256x256.size (k0_off8_inb p)).set = (Rect.unit (s := S512x1024) ![0, 768] S512x256.size inb_S512x1024_S512x256_0_768).set :=
  rows_part (by rw [off7_eq, off8_eq]; exact ⟨rfl, rfl, rfl, rfl⟩)
    (by obtain h | h := bit01 2 1 p <;> rw [off7_eq, off8_eq, h] <;> decide)
theorem rowsRS_0_2 (p : Dev nD) : Disjoint (dst_rs_0_2_0 p).view.set (dst_rs_0_2_1 p).view.set ∧ (dst_rs_0_2_0 p).view.set ∪ (dst_rs_0_2_1 p).view.set = (Rect.unit (s := S512x1024) ![0, 768] S512x256.size inb_S512x1024_S512x256_0_768).set :=
  part2_congr (View.set_slice_whole _ _) (View.set_slice_whole _ _) rfl (rows_0_2 p)
theorem rowsSS_0_2 (p : Dev nD) : Disjoint (src_rs_0_2_0 p).view.set (src_rs_0_2_1 p).view.set ∧ (src_rs_0_2_0 p).view.set ∪ (src_rs_0_2_1 p).view.set = (Rect.unit (s := S512x1024) ![0, 768] S512x256.size inb_S512x1024_S512x256_0_768).set :=
  part2_congr (View.set_slice_whole _ _) (View.set_slice_whole _ _) rfl (rows_0_2 p)
theorem rowsSSc_0_2 (p : Dev nD) : Disjoint (src_rs_0_2_0 p).view.set (src_rs_0_2_1 p).view.set ∧ (src_rs_0_2_0 p).view.set ∪ (src_rs_0_2_1 p).view.set = ssCol_0_2 :=
  part2_congr (View.set_slice_whole _ _) (View.set_slice_whole _ _) ssCol_0_2_eq (rows_0_2 p)

/-- The stage's receive buffer, lent piece by piece at the partners' offsets. -/
theorem rs_split_0 (c : Dev nD) :
    (iprop(∃ f : Buf (Elt F) ((c : Thread nD τ).loc cc0_scratch1), ((c : Thread nD τ).loc cc0_scratch1) ↦{fullShare} f) : sProp 𝕄)
      ⊢ iprop(loanV c (dst_rs_0_0_0 (peer 0 0 c)) ∗ loanV c (dst_rs_0_0_1 (peer 0 0 c)) ∗ loanV c (dst_rs_0_1_0 (peer 1 0 c)) ∗ loanV c (dst_rs_0_1_1 (peer 1 0 c)) ∗ loanV c (dst_rs_0_2_0 (peer 2 0 c)) ∗ loanV c (dst_rs_0_2_1 (peer 2 0 c))) :=
  any_split6 (F := F) (ℓ := ((c : Thread nD τ).loc cc0_scratch1)) (q := fullShare) cols_0 (rowsRS_0_0 (peer 0 0 c)) (rowsRS_0_1 (peer 1 0 c)) (rowsRS_0_2 (peer 2 0 c))

theorem rs_join_0 (c : Dev nD) :
    (iprop(loanV c (dst_rs_0_0_0 (peer 0 0 c)) ∗ loanV c (dst_rs_0_0_1 (peer 0 0 c)) ∗ loanV c (dst_rs_0_1_0 (peer 1 0 c)) ∗ loanV c (dst_rs_0_1_1 (peer 1 0 c)) ∗ loanV c (dst_rs_0_2_0 (peer 2 0 c)) ∗ loanV c (dst_rs_0_2_1 (peer 2 0 c))) : sProp 𝕄)
      ⊢ iprop(∃ f : Buf (Elt F) ((c : Thread nD τ).loc cc0_scratch1), ((c : Thread nD τ).loc cc0_scratch1) ↦{fullShare} f) :=
  any_join6 (F := F) (ℓ := ((c : Thread nD τ).loc cc0_scratch1)) (q := fullShare) cols_0 (rowsRS_0_0 (peer 0 0 c)) (rowsRS_0_1 (peer 1 0 c)) (rowsRS_0_2 (peer 2 0 c))

/-- The stage's send buffer, piece by piece at the device's own offsets. -/
theorem ss_split_0 (c : Dev nD) :
    (iprop(∃ f : Buf (Elt F) ((c : Thread nD τ).loc cc0_scratch6), ((c : Thread nD τ).loc cc0_scratch6) ↦{fullShare} f) : sProp 𝕄)
      ⊢ iprop(loanV c (src_rs_0_0_0 c) ∗ loanV c (src_rs_0_0_1 c) ∗ loanV c (src_rs_0_1_0 c) ∗ loanV c (src_rs_0_1_1 c) ∗ loanV c (src_rs_0_2_0 c) ∗ loanV c (src_rs_0_2_1 c)) :=
  any_split6 (F := F) (ℓ := ((c : Thread nD τ).loc cc0_scratch6)) (q := fullShare) cols_0 (rowsSS_0_0 c) (rowsSS_0_1 c) (rowsSS_0_2 c)

theorem ss_join_0 (c : Dev nD) :
    (iprop(loanV c (src_rs_0_0_0 c) ∗ loanV c (src_rs_0_0_1 c) ∗ loanV c (src_rs_0_1_0 c) ∗ loanV c (src_rs_0_1_1 c) ∗ loanV c (src_rs_0_2_0 c) ∗ loanV c (src_rs_0_2_1 c)) : sProp 𝕄)
      ⊢ iprop(∃ f : Buf (Elt F) ((c : Thread nD τ).loc cc0_scratch6), ((c : Thread nD τ).loc cc0_scratch6) ↦{fullShare} f) :=
  any_join6 (F := F) (ℓ := ((c : Thread nD τ).loc cc0_scratch6)) (q := fullShare) cols_0 (rowsSS_0_0 c) (rowsSS_0_1 c) (rowsSS_0_2 c)

/-- The send buffer into the column blocks its stores go through, and back. -/
theorem ss_cols_0 (c : Dev nD) :
    (iprop(∃ f : Buf (Elt F) ((c : Thread nD τ).loc cc0_scratch6), ((c : Thread nD τ).loc cc0_scratch6) ↦{fullShare} f) : sProp 𝕄)
      ⊢ iprop((∃ f : Buf (Elt F) ((c : Thread nD τ).loc cc0_scratch6), ((c : Thread nD τ).loc cc0_scratch6) ↦[ssCol_0_0]{fullShare} f) ∗ (∃ f : Buf (Elt F) ((c : Thread nD τ).loc cc0_scratch6), ((c : Thread nD τ).loc cc0_scratch6) ↦[ssCol_0_1]{fullShare} f) ∗ (∃ f : Buf (Elt F) ((c : Thread nD τ).loc cc0_scratch6), ((c : Thread nD τ).loc cc0_scratch6) ↦[ssCol_0_2]{fullShare} f)) :=
  any_split3 (F := F) (ℓ := ((c : Thread nD τ).loc cc0_scratch6)) (q := fullShare) colsSS_0

theorem ss_cols_join_0 (c : Dev nD) :
    (iprop((∃ f : Buf (Elt F) ((c : Thread nD τ).loc cc0_scratch6), ((c : Thread nD τ).loc cc0_scratch6) ↦[ssCol_0_0]{fullShare} f) ∗ (∃ f : Buf (Elt F) ((c : Thread nD τ).loc cc0_scratch6), ((c : Thread nD τ).loc cc0_scratch6) ↦[ssCol_0_1]{fullShare} f) ∗ (∃ f : Buf (Elt F) ((c : Thread nD τ).loc cc0_scratch6), ((c : Thread nD τ).loc cc0_scratch6) ↦[ssCol_0_2]{fullShare} f)) : sProp 𝕄)
      ⊢ iprop(∃ f : Buf (Elt F) ((c : Thread nD τ).loc cc0_scratch6), ((c : Thread nD τ).loc cc0_scratch6) ↦{fullShare} f) :=
  any_join3 (F := F) (ℓ := ((c : Thread nD τ).loc cc0_scratch6)) (q := fullShare) colsSS_0

/-- The same at named contents and any share. -/
theorem ss_cols_at_0 (c : Dev nD) (q : PosShare TreeShare) (f : Buf (Elt F) ((c : Thread nD τ).loc cc0_scratch6)) :
    ((((c : Thread nD τ).loc cc0_scratch6) ↦{q} f) : sProp 𝕄)
      ⊣⊢ iprop((((c : Thread nD τ).loc cc0_scratch6) ↦[ssCol_0_0]{q} f) ∗ (((c : Thread nD τ).loc cc0_scratch6) ↦[ssCol_0_1]{q} f) ∗ (((c : Thread nD τ).loc cc0_scratch6) ↦[ssCol_0_2]{q} f)) :=
  at_cut3 (F := F) (ℓ := ((c : Thread nD τ).loc cc0_scratch6)) (q := q) colsSS_0 f

/-- Column block 0 of the send buffer into the two row pieces the device sends, and back. -/
theorem ss_rows_0_0 (c : Dev nD) :
    (iprop(∃ f : Buf (Elt F) ((c : Thread nD τ).loc cc0_scratch6), ((c : Thread nD τ).loc cc0_scratch6) ↦[ssCol_0_0]{fullShare} f) : sProp 𝕄)
      ⊢ iprop(loanV c (src_rs_0_0_0 c) ∗ loanV c (src_rs_0_0_1 c)) :=
  any_split2 (F := F) (ℓ := ((c : Thread nD τ).loc cc0_scratch6)) (q := fullShare) (rowsSSc_0_0 c)

theorem ss_rows_join_0_0 (c : Dev nD) :
    (iprop(loanV c (src_rs_0_0_0 c) ∗ loanV c (src_rs_0_0_1 c)) : sProp 𝕄)
      ⊢ iprop(∃ f : Buf (Elt F) ((c : Thread nD τ).loc cc0_scratch6), ((c : Thread nD τ).loc cc0_scratch6) ↦[ssCol_0_0]{fullShare} f) :=
  any_join2 (F := F) (ℓ := ((c : Thread nD τ).loc cc0_scratch6)) (q := fullShare) (rowsSSc_0_0 c)

theorem ss_rows_at_0_0 (c : Dev nD) (q : PosShare TreeShare) (f : Buf (Elt F) ((c : Thread nD τ).loc cc0_scratch6)) :
    ((((c : Thread nD τ).loc cc0_scratch6) ↦[ssCol_0_0]{q} f) : sProp 𝕄)
      ⊣⊢ iprop((((c : Thread nD τ).loc cc0_scratch6) ↦[(src_rs_0_0_0 c).view.set]{q} f) ∗ (((c : Thread nD τ).loc cc0_scratch6) ↦[(src_rs_0_0_1 c).view.set]{q} f)) :=
  at_cut2 (F := F) (ℓ := ((c : Thread nD τ).loc cc0_scratch6)) (q := q) (rowsSSc_0_0 c) f

/-- Column block 1 of the send buffer into the two row pieces the device sends, and back. -/
theorem ss_rows_0_1 (c : Dev nD) :
    (iprop(∃ f : Buf (Elt F) ((c : Thread nD τ).loc cc0_scratch6), ((c : Thread nD τ).loc cc0_scratch6) ↦[ssCol_0_1]{fullShare} f) : sProp 𝕄)
      ⊢ iprop(loanV c (src_rs_0_1_0 c) ∗ loanV c (src_rs_0_1_1 c)) :=
  any_split2 (F := F) (ℓ := ((c : Thread nD τ).loc cc0_scratch6)) (q := fullShare) (rowsSSc_0_1 c)

theorem ss_rows_join_0_1 (c : Dev nD) :
    (iprop(loanV c (src_rs_0_1_0 c) ∗ loanV c (src_rs_0_1_1 c)) : sProp 𝕄)
      ⊢ iprop(∃ f : Buf (Elt F) ((c : Thread nD τ).loc cc0_scratch6), ((c : Thread nD τ).loc cc0_scratch6) ↦[ssCol_0_1]{fullShare} f) :=
  any_join2 (F := F) (ℓ := ((c : Thread nD τ).loc cc0_scratch6)) (q := fullShare) (rowsSSc_0_1 c)

theorem ss_rows_at_0_1 (c : Dev nD) (q : PosShare TreeShare) (f : Buf (Elt F) ((c : Thread nD τ).loc cc0_scratch6)) :
    ((((c : Thread nD τ).loc cc0_scratch6) ↦[ssCol_0_1]{q} f) : sProp 𝕄)
      ⊣⊢ iprop((((c : Thread nD τ).loc cc0_scratch6) ↦[(src_rs_0_1_0 c).view.set]{q} f) ∗ (((c : Thread nD τ).loc cc0_scratch6) ↦[(src_rs_0_1_1 c).view.set]{q} f)) :=
  at_cut2 (F := F) (ℓ := ((c : Thread nD τ).loc cc0_scratch6)) (q := q) (rowsSSc_0_1 c) f

/-- Column block 2 of the send buffer into the two row pieces the device sends, and back. -/
theorem ss_rows_0_2 (c : Dev nD) :
    (iprop(∃ f : Buf (Elt F) ((c : Thread nD τ).loc cc0_scratch6), ((c : Thread nD τ).loc cc0_scratch6) ↦[ssCol_0_2]{fullShare} f) : sProp 𝕄)
      ⊢ iprop(loanV c (src_rs_0_2_0 c) ∗ loanV c (src_rs_0_2_1 c)) :=
  any_split2 (F := F) (ℓ := ((c : Thread nD τ).loc cc0_scratch6)) (q := fullShare) (rowsSSc_0_2 c)

theorem ss_rows_join_0_2 (c : Dev nD) :
    (iprop(loanV c (src_rs_0_2_0 c) ∗ loanV c (src_rs_0_2_1 c)) : sProp 𝕄)
      ⊢ iprop(∃ f : Buf (Elt F) ((c : Thread nD τ).loc cc0_scratch6), ((c : Thread nD τ).loc cc0_scratch6) ↦[ssCol_0_2]{fullShare} f) :=
  any_join2 (F := F) (ℓ := ((c : Thread nD τ).loc cc0_scratch6)) (q := fullShare) (rowsSSc_0_2 c)

theorem ss_rows_at_0_2 (c : Dev nD) (q : PosShare TreeShare) (f : Buf (Elt F) ((c : Thread nD τ).loc cc0_scratch6)) :
    ((((c : Thread nD τ).loc cc0_scratch6) ↦[ssCol_0_2]{q} f) : sProp 𝕄)
      ⊣⊢ iprop((((c : Thread nD τ).loc cc0_scratch6) ↦[(src_rs_0_2_0 c).view.set]{q} f) ∗ (((c : Thread nD τ).loc cc0_scratch6) ↦[(src_rs_0_2_1 c).view.set]{q} f)) :=
  at_cut2 (F := F) (ℓ := ((c : Thread nD τ).loc cc0_scratch6)) (q := q) (rowsSSc_0_2 c) f

/-! ### Stage 0: the partner's offsets are the device's own, and the loads from the receive buffer read the pieces -/

theorem off2_peer : ∀ c : Dev nD, k0_off2 (peer 0 0 c) = k0_off2 c := by decide +kernel
theorem dst_rs_0_0_0_peer (c : Dev nD) : dst_rs_0_0_0 (peer 0 0 c) = dst_rs_0_0_0 c := by
  have h := off2_peer c
  unfold dst_rs_0_0_0
  congr 2
theorem off15_eq_off2 : ∀ c : Dev nD, k0_off15 c = k0_off2 c := by decide +kernel
theorem rsLoad_0_0_0 (c : Dev nD) :
    ((Memref.whole cc0_scratch1 : Memref sig .tc .vmem S512x1024 .bf16).access (Rect.unit (s := S512x1024) (k0_off15 c) S256x384.size (k0_off15_inb c))).set
      = (dst_rs_0_0_0 (peer 0 0 c)).view.set := by
  have h : k0_off15 c = k0_off2 (peer 0 0 c) := (off15_eq_off2 c).trans (off2_peer c).symm
  refine (View.set_slice_whole _ _).trans (Eq.trans ?_ (View.set_slice_whole _ _).symm)
  congr 3

theorem off3_peer : ∀ c : Dev nD, k0_off3 (peer 0 0 c) = k0_off3 c := by decide +kernel
theorem dst_rs_0_0_1_peer (c : Dev nD) : dst_rs_0_0_1 (peer 0 0 c) = dst_rs_0_0_1 c := by
  have h := off3_peer c
  unfold dst_rs_0_0_1
  congr 2
theorem off27_eq_off3 : ∀ c : Dev nD, k0_off27 c = k0_off3 c := by decide +kernel
theorem rsLoad_0_0_1 (c : Dev nD) :
    ((Memref.whole cc0_scratch1 : Memref sig .tc .vmem S512x1024 .bf16).access (Rect.unit (s := S512x1024) (k0_off27 c) S256x384.size (k0_off27_inb c))).set
      = (dst_rs_0_0_1 (peer 0 0 c)).view.set := by
  have h : k0_off27 c = k0_off3 (peer 0 0 c) := (off27_eq_off3 c).trans (off3_peer c).symm
  refine (View.set_slice_whole _ _).trans (Eq.trans ?_ (View.set_slice_whole _ _).symm)
  congr 3

theorem off5_peer : ∀ c : Dev nD, k0_off5 (peer 1 0 c) = k0_off5 c := by decide +kernel
theorem dst_rs_0_1_0_peer (c : Dev nD) : dst_rs_0_1_0 (peer 1 0 c) = dst_rs_0_1_0 c := by
  have h := off5_peer c
  unfold dst_rs_0_1_0
  congr 2
theorem off19_eq_off5 : ∀ c : Dev nD, k0_off19 c = k0_off5 c := by decide +kernel
theorem rsLoad_0_1_0 (c : Dev nD) :
    ((Memref.whole cc0_scratch1 : Memref sig .tc .vmem S512x1024 .bf16).access (Rect.unit (s := S512x1024) (k0_off19 c) S256x384.size (k0_off19_inb c))).set
      = (dst_rs_0_1_0 (peer 1 0 c)).view.set := by
  have h : k0_off19 c = k0_off5 (peer 1 0 c) := (off19_eq_off5 c).trans (off5_peer c).symm
  refine (View.set_slice_whole _ _).trans (Eq.trans ?_ (View.set_slice_whole _ _).symm)
  congr 3

theorem off6_peer : ∀ c : Dev nD, k0_off6 (peer 1 0 c) = k0_off6 c := by decide +kernel
theorem dst_rs_0_1_1_peer (c : Dev nD) : dst_rs_0_1_1 (peer 1 0 c) = dst_rs_0_1_1 c := by
  have h := off6_peer c
  unfold dst_rs_0_1_1
  congr 2
theorem off29_eq_off6 : ∀ c : Dev nD, k0_off29 c = k0_off6 c := by decide +kernel
theorem rsLoad_0_1_1 (c : Dev nD) :
    ((Memref.whole cc0_scratch1 : Memref sig .tc .vmem S512x1024 .bf16).access (Rect.unit (s := S512x1024) (k0_off29 c) S256x384.size (k0_off29_inb c))).set
      = (dst_rs_0_1_1 (peer 1 0 c)).view.set := by
  have h : k0_off29 c = k0_off6 (peer 1 0 c) := (off29_eq_off6 c).trans (off6_peer c).symm
  refine (View.set_slice_whole _ _).trans (Eq.trans ?_ (View.set_slice_whole _ _).symm)
  congr 3

theorem off7_peer : ∀ c : Dev nD, k0_off7 (peer 2 0 c) = k0_off7 c := by decide +kernel
theorem dst_rs_0_2_0_peer (c : Dev nD) : dst_rs_0_2_0 (peer 2 0 c) = dst_rs_0_2_0 c := by
  have h := off7_peer c
  unfold dst_rs_0_2_0
  congr 2
theorem off23_eq_off7 : ∀ c : Dev nD, k0_off23 c = k0_off7 c := by decide +kernel
theorem rsLoad_0_2_0 (c : Dev nD) :
    ((Memref.whole cc0_scratch1 : Memref sig .tc .vmem S512x1024 .bf16).access (Rect.unit (s := S512x1024) (k0_off23 c) S256x256.size (k0_off23_inb c))).set
      = (dst_rs_0_2_0 (peer 2 0 c)).view.set := by
  have h : k0_off23 c = k0_off7 (peer 2 0 c) := (off23_eq_off7 c).trans (off7_peer c).symm
  refine (View.set_slice_whole _ _).trans (Eq.trans ?_ (View.set_slice_whole _ _).symm)
  congr 3

theorem off8_peer : ∀ c : Dev nD, k0_off8 (peer 2 0 c) = k0_off8 c := by decide +kernel
theorem dst_rs_0_2_1_peer (c : Dev nD) : dst_rs_0_2_1 (peer 2 0 c) = dst_rs_0_2_1 c := by
  have h := off8_peer c
  unfold dst_rs_0_2_1
  congr 2
theorem off31_eq_off8 : ∀ c : Dev nD, k0_off31 c = k0_off8 c := by decide +kernel
theorem rsLoad_0_2_1 (c : Dev nD) :
    ((Memref.whole cc0_scratch1 : Memref sig .tc .vmem S512x1024 .bf16).access (Rect.unit (s := S512x1024) (k0_off31 c) S256x256.size (k0_off31_inb c))).set
      = (dst_rs_0_2_1 (peer 2 0 c)).view.set := by
  have h : k0_off31 c = k0_off8 (peer 2 0 c) := (off31_eq_off8 c).trans (off8_peer c).symm
  refine (View.set_slice_whole _ _).trans (Eq.trans ?_ (View.set_slice_whole _ _).symm)
  congr 3

/-! ## Stage 1: buffers of 256 rows -/

/-- The three column blocks are pairwise disjoint and cover the buffer. -/
theorem cols_1 :
    (Disjoint (Rect.unit (s := S256x1024) ![0, 0] S256x384.size inb_S256x1024_S256x384_0_0).set (Rect.unit (s := S256x1024) ![0, 384] S256x384.size inb_S256x1024_S256x384_0_384).set ∧ Disjoint (Rect.unit (s := S256x1024) ![0, 0] S256x384.size inb_S256x1024_S256x384_0_0).set (Rect.unit (s := S256x1024) ![0, 768] S256x256.size inb_S256x1024_S256x256_0_768).set ∧ Disjoint (Rect.unit (s := S256x1024) ![0, 384] S256x384.size inb_S256x1024_S256x384_0_384).set (Rect.unit (s := S256x1024) ![0, 768] S256x256.size inb_S256x1024_S256x256_0_768).set) ∧ (Rect.unit (s := S256x1024) ![0, 0] S256x384.size inb_S256x1024_S256x384_0_0).set ∪ ((Rect.unit (s := S256x1024) ![0, 384] S256x384.size inb_S256x1024_S256x384_0_384).set ∪ (Rect.unit (s := S256x1024) ![0, 768] S256x256.size inb_S256x1024_S256x256_0_768).set) = Finset.univ :=
  cols_part (by decide) (by decide)

/-- Column block 0 of the stage's send buffer: the positions its store goes through. -/
abbrev ssCol_1_0 : Finset S256x1024.Idx := ((Memref.whole cc0_scratch7 : Memref sig .tc .vmem S256x1024 .bf16).access (Rect.unit (s := S256x1024) ![0, 0] S256x384.size inb_S256x1024_S256x384_0_0)).set
theorem ssCol_1_0_eq : ssCol_1_0 = (Rect.unit (s := S256x1024) ![0, 0] S256x384.size inb_S256x1024_S256x384_0_0).set := View.set_slice_whole _ _

/-- Column block 1 of the stage's send buffer: the positions its store goes through. -/
abbrev ssCol_1_1 : Finset S256x1024.Idx := ((Memref.whole cc0_scratch7 : Memref sig .tc .vmem S256x1024 .bf16).access (Rect.unit (s := S256x1024) ![0, 384] S256x384.size inb_S256x1024_S256x384_0_384)).set
theorem ssCol_1_1_eq : ssCol_1_1 = (Rect.unit (s := S256x1024) ![0, 384] S256x384.size inb_S256x1024_S256x384_0_384).set := View.set_slice_whole _ _

/-- Column block 2 of the stage's send buffer: the positions its store goes through. -/
abbrev ssCol_1_2 : Finset S256x1024.Idx := ((Memref.whole cc0_scratch7 : Memref sig .tc .vmem S256x1024 .bf16).access (Rect.unit (s := S256x1024) ![0, 768] S256x256.size inb_S256x1024_S256x256_0_768)).set
theorem ssCol_1_2_eq : ssCol_1_2 = (Rect.unit (s := S256x1024) ![0, 768] S256x256.size inb_S256x1024_S256x256_0_768).set := View.set_slice_whole _ _

theorem colsSS_1 : (Disjoint ssCol_1_0 ssCol_1_1 ∧ Disjoint ssCol_1_0 ssCol_1_2 ∧ Disjoint ssCol_1_1 ssCol_1_2) ∧ ssCol_1_0 ∪ (ssCol_1_1 ∪ ssCol_1_2) = Finset.univ :=
  part3_congr ssCol_1_0_eq ssCol_1_1_eq ssCol_1_2_eq rfl cols_1

/-- The two row pieces of column block 0, at any device's offsets, are disjoint and cover the block. -/
theorem rows_1_0 (p : Dev nD) :
    Disjoint (Rect.unit (s := S256x1024) (k0_off16 p) S128x384.size (k0_off16_inb p)).set (Rect.unit (s := S256x1024) (k0_off17 p) S128x384.size (k0_off17_inb p)).set ∧ (Rect.unit (s := S256x1024) (k0_off16 p) S128x384.size (k0_off16_inb p)).set ∪ (Rect.unit (s := S256x1024) (k0_off17 p) S128x384.size (k0_off17_inb p)).set = (Rect.unit (s := S256x1024) ![0, 0] S256x384.size inb_S256x1024_S256x384_0_0).set :=
  rows_part (by rw [off16_eq, off17_eq]; exact ⟨rfl, rfl, rfl, rfl⟩)
    (by obtain h | h := bit01 0 2 p <;> rw [off16_eq, off17_eq, h] <;> decide)
theorem rowsRS_1_0 (p : Dev nD) : Disjoint (dst_rs_1_0_0 p).view.set (dst_rs_1_0_1 p).view.set ∧ (dst_rs_1_0_0 p).view.set ∪ (dst_rs_1_0_1 p).view.set = (Rect.unit (s := S256x1024) ![0, 0] S256x384.size inb_S256x1024_S256x384_0_0).set :=
  part2_congr (View.set_slice_whole _ _) (View.set_slice_whole _ _) rfl (rows_1_0 p)
theorem rowsSS_1_0 (p : Dev nD) : Disjoint (src_rs_1_0_0 p).view.set (src_rs_1_0_1 p).view.set ∧ (src_rs_1_0_0 p).view.set ∪ (src_rs_1_0_1 p).view.set = (Rect.unit (s := S256x1024) ![0, 0] S256x384.size inb_S256x1024_S256x384_0_0).set :=
  part2_congr (View.set_slice_whole _ _) (View.set_slice_whole _ _) rfl (rows_1_0 p)
theorem rowsSSc_1_0 (p : Dev nD) : Disjoint (src_rs_1_0_0 p).view.set (src_rs_1_0_1 p).view.set ∧ (src_rs_1_0_0 p).view.set ∪ (src_rs_1_0_1 p).view.set = ssCol_1_0 :=
  part2_congr (View.set_slice_whole _ _) (View.set_slice_whole _ _) ssCol_1_0_eq (rows_1_0 p)

/-- The two row pieces of column block 1, at any device's offsets, are disjoint and cover the block. -/
theorem rows_1_1 (p : Dev nD) :
    Disjoint (Rect.unit (s := S256x1024) (k0_off20 p) S128x384.size (k0_off20_inb p)).set (Rect.unit (s := S256x1024) (k0_off21 p) S128x384.size (k0_off21_inb p)).set ∧ (Rect.unit (s := S256x1024) (k0_off20 p) S128x384.size (k0_off20_inb p)).set ∪ (Rect.unit (s := S256x1024) (k0_off21 p) S128x384.size (k0_off21_inb p)).set = (Rect.unit (s := S256x1024) ![0, 384] S256x384.size inb_S256x1024_S256x384_0_384).set :=
  rows_part (by rw [off20_eq, off21_eq]; exact ⟨rfl, rfl, rfl, rfl⟩)
    (by obtain h | h := bit01 1 2 p <;> rw [off20_eq, off21_eq, h] <;> decide)
theorem rowsRS_1_1 (p : Dev nD) : Disjoint (dst_rs_1_1_0 p).view.set (dst_rs_1_1_1 p).view.set ∧ (dst_rs_1_1_0 p).view.set ∪ (dst_rs_1_1_1 p).view.set = (Rect.unit (s := S256x1024) ![0, 384] S256x384.size inb_S256x1024_S256x384_0_384).set :=
  part2_congr (View.set_slice_whole _ _) (View.set_slice_whole _ _) rfl (rows_1_1 p)
theorem rowsSS_1_1 (p : Dev nD) : Disjoint (src_rs_1_1_0 p).view.set (src_rs_1_1_1 p).view.set ∧ (src_rs_1_1_0 p).view.set ∪ (src_rs_1_1_1 p).view.set = (Rect.unit (s := S256x1024) ![0, 384] S256x384.size inb_S256x1024_S256x384_0_384).set :=
  part2_congr (View.set_slice_whole _ _) (View.set_slice_whole _ _) rfl (rows_1_1 p)
theorem rowsSSc_1_1 (p : Dev nD) : Disjoint (src_rs_1_1_0 p).view.set (src_rs_1_1_1 p).view.set ∧ (src_rs_1_1_0 p).view.set ∪ (src_rs_1_1_1 p).view.set = ssCol_1_1 :=
  part2_congr (View.set_slice_whole _ _) (View.set_slice_whole _ _) ssCol_1_1_eq (rows_1_1 p)

/-- The two row pieces of column block 2, at any device's offsets, are disjoint and cover the block. -/
theorem rows_1_2 (p : Dev nD) :
    Disjoint (Rect.unit (s := S256x1024) (k0_off24 p) S128x256.size (k0_off24_inb p)).set (Rect.unit (s := S256x1024) (k0_off25 p) S128x256.size (k0_off25_inb p)).set ∧ (Rect.unit (s := S256x1024) (k0_off24 p) S128x256.size (k0_off24_inb p)).set ∪ (Rect.unit (s := S256x1024) (k0_off25 p) S128x256.size (k0_off25_inb p)).set = (Rect.unit (s := S256x1024) ![0, 768] S256x256.size inb_S256x1024_S256x256_0_768).set :=
  rows_part (by rw [off24_eq, off25_eq]; exact ⟨rfl, rfl, rfl, rfl⟩)
    (by obtain h | h := bit01 2 2 p <;> rw [off24_eq, off25_eq, h] <;> decide)
theorem rowsRS_1_2 (p : Dev nD) : Disjoint (dst_rs_1_2_0 p).view.set (dst_rs_1_2_1 p).view.set ∧ (dst_rs_1_2_0 p).view.set ∪ (dst_rs_1_2_1 p).view.set = (Rect.unit (s := S256x1024) ![0, 768] S256x256.size inb_S256x1024_S256x256_0_768).set :=
  part2_congr (View.set_slice_whole _ _) (View.set_slice_whole _ _) rfl (rows_1_2 p)
theorem rowsSS_1_2 (p : Dev nD) : Disjoint (src_rs_1_2_0 p).view.set (src_rs_1_2_1 p).view.set ∧ (src_rs_1_2_0 p).view.set ∪ (src_rs_1_2_1 p).view.set = (Rect.unit (s := S256x1024) ![0, 768] S256x256.size inb_S256x1024_S256x256_0_768).set :=
  part2_congr (View.set_slice_whole _ _) (View.set_slice_whole _ _) rfl (rows_1_2 p)
theorem rowsSSc_1_2 (p : Dev nD) : Disjoint (src_rs_1_2_0 p).view.set (src_rs_1_2_1 p).view.set ∧ (src_rs_1_2_0 p).view.set ∪ (src_rs_1_2_1 p).view.set = ssCol_1_2 :=
  part2_congr (View.set_slice_whole _ _) (View.set_slice_whole _ _) ssCol_1_2_eq (rows_1_2 p)

/-- The stage's receive buffer, lent piece by piece at the partners' offsets. -/
theorem rs_split_1 (c : Dev nD) :
    (iprop(∃ f : Buf (Elt F) ((c : Thread nD τ).loc cc0_scratch2), ((c : Thread nD τ).loc cc0_scratch2) ↦{fullShare} f) : sProp 𝕄)
      ⊢ iprop(loanV c (dst_rs_1_0_0 (peer 0 1 c)) ∗ loanV c (dst_rs_1_0_1 (peer 0 1 c)) ∗ loanV c (dst_rs_1_1_0 (peer 1 1 c)) ∗ loanV c (dst_rs_1_1_1 (peer 1 1 c)) ∗ loanV c (dst_rs_1_2_0 (peer 2 1 c)) ∗ loanV c (dst_rs_1_2_1 (peer 2 1 c))) :=
  any_split6 (F := F) (ℓ := ((c : Thread nD τ).loc cc0_scratch2)) (q := fullShare) cols_1 (rowsRS_1_0 (peer 0 1 c)) (rowsRS_1_1 (peer 1 1 c)) (rowsRS_1_2 (peer 2 1 c))

theorem rs_join_1 (c : Dev nD) :
    (iprop(loanV c (dst_rs_1_0_0 (peer 0 1 c)) ∗ loanV c (dst_rs_1_0_1 (peer 0 1 c)) ∗ loanV c (dst_rs_1_1_0 (peer 1 1 c)) ∗ loanV c (dst_rs_1_1_1 (peer 1 1 c)) ∗ loanV c (dst_rs_1_2_0 (peer 2 1 c)) ∗ loanV c (dst_rs_1_2_1 (peer 2 1 c))) : sProp 𝕄)
      ⊢ iprop(∃ f : Buf (Elt F) ((c : Thread nD τ).loc cc0_scratch2), ((c : Thread nD τ).loc cc0_scratch2) ↦{fullShare} f) :=
  any_join6 (F := F) (ℓ := ((c : Thread nD τ).loc cc0_scratch2)) (q := fullShare) cols_1 (rowsRS_1_0 (peer 0 1 c)) (rowsRS_1_1 (peer 1 1 c)) (rowsRS_1_2 (peer 2 1 c))

/-- The stage's send buffer, piece by piece at the device's own offsets. -/
theorem ss_split_1 (c : Dev nD) :
    (iprop(∃ f : Buf (Elt F) ((c : Thread nD τ).loc cc0_scratch7), ((c : Thread nD τ).loc cc0_scratch7) ↦{fullShare} f) : sProp 𝕄)
      ⊢ iprop(loanV c (src_rs_1_0_0 c) ∗ loanV c (src_rs_1_0_1 c) ∗ loanV c (src_rs_1_1_0 c) ∗ loanV c (src_rs_1_1_1 c) ∗ loanV c (src_rs_1_2_0 c) ∗ loanV c (src_rs_1_2_1 c)) :=
  any_split6 (F := F) (ℓ := ((c : Thread nD τ).loc cc0_scratch7)) (q := fullShare) cols_1 (rowsSS_1_0 c) (rowsSS_1_1 c) (rowsSS_1_2 c)

theorem ss_join_1 (c : Dev nD) :
    (iprop(loanV c (src_rs_1_0_0 c) ∗ loanV c (src_rs_1_0_1 c) ∗ loanV c (src_rs_1_1_0 c) ∗ loanV c (src_rs_1_1_1 c) ∗ loanV c (src_rs_1_2_0 c) ∗ loanV c (src_rs_1_2_1 c)) : sProp 𝕄)
      ⊢ iprop(∃ f : Buf (Elt F) ((c : Thread nD τ).loc cc0_scratch7), ((c : Thread nD τ).loc cc0_scratch7) ↦{fullShare} f) :=
  any_join6 (F := F) (ℓ := ((c : Thread nD τ).loc cc0_scratch7)) (q := fullShare) cols_1 (rowsSS_1_0 c) (rowsSS_1_1 c) (rowsSS_1_2 c)

/-- The send buffer into the column blocks its stores go through, and back. -/
theorem ss_cols_1 (c : Dev nD) :
    (iprop(∃ f : Buf (Elt F) ((c : Thread nD τ).loc cc0_scratch7), ((c : Thread nD τ).loc cc0_scratch7) ↦{fullShare} f) : sProp 𝕄)
      ⊢ iprop((∃ f : Buf (Elt F) ((c : Thread nD τ).loc cc0_scratch7), ((c : Thread nD τ).loc cc0_scratch7) ↦[ssCol_1_0]{fullShare} f) ∗ (∃ f : Buf (Elt F) ((c : Thread nD τ).loc cc0_scratch7), ((c : Thread nD τ).loc cc0_scratch7) ↦[ssCol_1_1]{fullShare} f) ∗ (∃ f : Buf (Elt F) ((c : Thread nD τ).loc cc0_scratch7), ((c : Thread nD τ).loc cc0_scratch7) ↦[ssCol_1_2]{fullShare} f)) :=
  any_split3 (F := F) (ℓ := ((c : Thread nD τ).loc cc0_scratch7)) (q := fullShare) colsSS_1

theorem ss_cols_join_1 (c : Dev nD) :
    (iprop((∃ f : Buf (Elt F) ((c : Thread nD τ).loc cc0_scratch7), ((c : Thread nD τ).loc cc0_scratch7) ↦[ssCol_1_0]{fullShare} f) ∗ (∃ f : Buf (Elt F) ((c : Thread nD τ).loc cc0_scratch7), ((c : Thread nD τ).loc cc0_scratch7) ↦[ssCol_1_1]{fullShare} f) ∗ (∃ f : Buf (Elt F) ((c : Thread nD τ).loc cc0_scratch7), ((c : Thread nD τ).loc cc0_scratch7) ↦[ssCol_1_2]{fullShare} f)) : sProp 𝕄)
      ⊢ iprop(∃ f : Buf (Elt F) ((c : Thread nD τ).loc cc0_scratch7), ((c : Thread nD τ).loc cc0_scratch7) ↦{fullShare} f) :=
  any_join3 (F := F) (ℓ := ((c : Thread nD τ).loc cc0_scratch7)) (q := fullShare) colsSS_1

/-- The same at named contents and any share. -/
theorem ss_cols_at_1 (c : Dev nD) (q : PosShare TreeShare) (f : Buf (Elt F) ((c : Thread nD τ).loc cc0_scratch7)) :
    ((((c : Thread nD τ).loc cc0_scratch7) ↦{q} f) : sProp 𝕄)
      ⊣⊢ iprop((((c : Thread nD τ).loc cc0_scratch7) ↦[ssCol_1_0]{q} f) ∗ (((c : Thread nD τ).loc cc0_scratch7) ↦[ssCol_1_1]{q} f) ∗ (((c : Thread nD τ).loc cc0_scratch7) ↦[ssCol_1_2]{q} f)) :=
  at_cut3 (F := F) (ℓ := ((c : Thread nD τ).loc cc0_scratch7)) (q := q) colsSS_1 f

/-- Column block 0 of the send buffer into the two row pieces the device sends, and back. -/
theorem ss_rows_1_0 (c : Dev nD) :
    (iprop(∃ f : Buf (Elt F) ((c : Thread nD τ).loc cc0_scratch7), ((c : Thread nD τ).loc cc0_scratch7) ↦[ssCol_1_0]{fullShare} f) : sProp 𝕄)
      ⊢ iprop(loanV c (src_rs_1_0_0 c) ∗ loanV c (src_rs_1_0_1 c)) :=
  any_split2 (F := F) (ℓ := ((c : Thread nD τ).loc cc0_scratch7)) (q := fullShare) (rowsSSc_1_0 c)

theorem ss_rows_join_1_0 (c : Dev nD) :
    (iprop(loanV c (src_rs_1_0_0 c) ∗ loanV c (src_rs_1_0_1 c)) : sProp 𝕄)
      ⊢ iprop(∃ f : Buf (Elt F) ((c : Thread nD τ).loc cc0_scratch7), ((c : Thread nD τ).loc cc0_scratch7) ↦[ssCol_1_0]{fullShare} f) :=
  any_join2 (F := F) (ℓ := ((c : Thread nD τ).loc cc0_scratch7)) (q := fullShare) (rowsSSc_1_0 c)

theorem ss_rows_at_1_0 (c : Dev nD) (q : PosShare TreeShare) (f : Buf (Elt F) ((c : Thread nD τ).loc cc0_scratch7)) :
    ((((c : Thread nD τ).loc cc0_scratch7) ↦[ssCol_1_0]{q} f) : sProp 𝕄)
      ⊣⊢ iprop((((c : Thread nD τ).loc cc0_scratch7) ↦[(src_rs_1_0_0 c).view.set]{q} f) ∗ (((c : Thread nD τ).loc cc0_scratch7) ↦[(src_rs_1_0_1 c).view.set]{q} f)) :=
  at_cut2 (F := F) (ℓ := ((c : Thread nD τ).loc cc0_scratch7)) (q := q) (rowsSSc_1_0 c) f

/-- Column block 1 of the send buffer into the two row pieces the device sends, and back. -/
theorem ss_rows_1_1 (c : Dev nD) :
    (iprop(∃ f : Buf (Elt F) ((c : Thread nD τ).loc cc0_scratch7), ((c : Thread nD τ).loc cc0_scratch7) ↦[ssCol_1_1]{fullShare} f) : sProp 𝕄)
      ⊢ iprop(loanV c (src_rs_1_1_0 c) ∗ loanV c (src_rs_1_1_1 c)) :=
  any_split2 (F := F) (ℓ := ((c : Thread nD τ).loc cc0_scratch7)) (q := fullShare) (rowsSSc_1_1 c)

theorem ss_rows_join_1_1 (c : Dev nD) :
    (iprop(loanV c (src_rs_1_1_0 c) ∗ loanV c (src_rs_1_1_1 c)) : sProp 𝕄)
      ⊢ iprop(∃ f : Buf (Elt F) ((c : Thread nD τ).loc cc0_scratch7), ((c : Thread nD τ).loc cc0_scratch7) ↦[ssCol_1_1]{fullShare} f) :=
  any_join2 (F := F) (ℓ := ((c : Thread nD τ).loc cc0_scratch7)) (q := fullShare) (rowsSSc_1_1 c)

theorem ss_rows_at_1_1 (c : Dev nD) (q : PosShare TreeShare) (f : Buf (Elt F) ((c : Thread nD τ).loc cc0_scratch7)) :
    ((((c : Thread nD τ).loc cc0_scratch7) ↦[ssCol_1_1]{q} f) : sProp 𝕄)
      ⊣⊢ iprop((((c : Thread nD τ).loc cc0_scratch7) ↦[(src_rs_1_1_0 c).view.set]{q} f) ∗ (((c : Thread nD τ).loc cc0_scratch7) ↦[(src_rs_1_1_1 c).view.set]{q} f)) :=
  at_cut2 (F := F) (ℓ := ((c : Thread nD τ).loc cc0_scratch7)) (q := q) (rowsSSc_1_1 c) f

/-- Column block 2 of the send buffer into the two row pieces the device sends, and back. -/
theorem ss_rows_1_2 (c : Dev nD) :
    (iprop(∃ f : Buf (Elt F) ((c : Thread nD τ).loc cc0_scratch7), ((c : Thread nD τ).loc cc0_scratch7) ↦[ssCol_1_2]{fullShare} f) : sProp 𝕄)
      ⊢ iprop(loanV c (src_rs_1_2_0 c) ∗ loanV c (src_rs_1_2_1 c)) :=
  any_split2 (F := F) (ℓ := ((c : Thread nD τ).loc cc0_scratch7)) (q := fullShare) (rowsSSc_1_2 c)

theorem ss_rows_join_1_2 (c : Dev nD) :
    (iprop(loanV c (src_rs_1_2_0 c) ∗ loanV c (src_rs_1_2_1 c)) : sProp 𝕄)
      ⊢ iprop(∃ f : Buf (Elt F) ((c : Thread nD τ).loc cc0_scratch7), ((c : Thread nD τ).loc cc0_scratch7) ↦[ssCol_1_2]{fullShare} f) :=
  any_join2 (F := F) (ℓ := ((c : Thread nD τ).loc cc0_scratch7)) (q := fullShare) (rowsSSc_1_2 c)

theorem ss_rows_at_1_2 (c : Dev nD) (q : PosShare TreeShare) (f : Buf (Elt F) ((c : Thread nD τ).loc cc0_scratch7)) :
    ((((c : Thread nD τ).loc cc0_scratch7) ↦[ssCol_1_2]{q} f) : sProp 𝕄)
      ⊣⊢ iprop((((c : Thread nD τ).loc cc0_scratch7) ↦[(src_rs_1_2_0 c).view.set]{q} f) ∗ (((c : Thread nD τ).loc cc0_scratch7) ↦[(src_rs_1_2_1 c).view.set]{q} f)) :=
  at_cut2 (F := F) (ℓ := ((c : Thread nD τ).loc cc0_scratch7)) (q := q) (rowsSSc_1_2 c) f

/-! ### Stage 1: the partner's offsets are the device's own, and the loads from the receive buffer read the pieces -/

theorem off16_peer : ∀ c : Dev nD, k0_off16 (peer 0 1 c) = k0_off16 c := by decide +kernel
theorem dst_rs_1_0_0_peer (c : Dev nD) : dst_rs_1_0_0 (peer 0 1 c) = dst_rs_1_0_0 c := by
  have h := off16_peer c
  unfold dst_rs_1_0_0
  congr 2
theorem off33_eq_off16 : ∀ c : Dev nD, k0_off33 c = k0_off16 c := by decide +kernel
theorem rsLoad_1_0_0 (c : Dev nD) :
    ((Memref.whole cc0_scratch2 : Memref sig .tc .vmem S256x1024 .bf16).access (Rect.unit (s := S256x1024) (k0_off33 c) S128x384.size (k0_off33_inb c))).set
      = (dst_rs_1_0_0 (peer 0 1 c)).view.set := by
  have h : k0_off33 c = k0_off16 (peer 0 1 c) := (off33_eq_off16 c).trans (off16_peer c).symm
  refine (View.set_slice_whole _ _).trans (Eq.trans ?_ (View.set_slice_whole _ _).symm)
  congr 3

theorem off17_peer : ∀ c : Dev nD, k0_off17 (peer 0 1 c) = k0_off17 c := by decide +kernel
theorem dst_rs_1_0_1_peer (c : Dev nD) : dst_rs_1_0_1 (peer 0 1 c) = dst_rs_1_0_1 c := by
  have h := off17_peer c
  unfold dst_rs_1_0_1
  congr 2
theorem off45_eq_off17 : ∀ c : Dev nD, k0_off45 c = k0_off17 c := by decide +kernel
theorem rsLoad_1_0_1 (c : Dev nD) :
    ((Memref.whole cc0_scratch2 : Memref sig .tc .vmem S256x1024 .bf16).access (Rect.unit (s := S256x1024) (k0_off45 c) S128x384.size (k0_off45_inb c))).set
      = (dst_rs_1_0_1 (peer 0 1 c)).view.set := by
  have h : k0_off45 c = k0_off17 (peer 0 1 c) := (off45_eq_off17 c).trans (off17_peer c).symm
  refine (View.set_slice_whole _ _).trans (Eq.trans ?_ (View.set_slice_whole _ _).symm)
  congr 3

theorem off20_peer : ∀ c : Dev nD, k0_off20 (peer 1 1 c) = k0_off20 c := by decide +kernel
theorem dst_rs_1_1_0_peer (c : Dev nD) : dst_rs_1_1_0 (peer 1 1 c) = dst_rs_1_1_0 c := by
  have h := off20_peer c
  unfold dst_rs_1_1_0
  congr 2
theorem off37_eq_off20 : ∀ c : Dev nD, k0_off37 c = k0_off20 c := by decide +kernel
theorem rsLoad_1_1_0 (c : Dev nD) :
    ((Memref.whole cc0_scratch2 : Memref sig .tc .vmem S256x1024 .bf16).access (Rect.unit (s := S256x1024) (k0_off37 c) S128x384.size (k0_off37_inb c))).set
      = (dst_rs_1_1_0 (peer 1 1 c)).view.set := by
  have h : k0_off37 c = k0_off20 (peer 1 1 c) := (off37_eq_off20 c).trans (off20_peer c).symm
  refine (View.set_slice_whole _ _).trans (Eq.trans ?_ (View.set_slice_whole _ _).symm)
  congr 3

theorem off21_peer : ∀ c : Dev nD, k0_off21 (peer 1 1 c) = k0_off21 c := by decide +kernel
theorem dst_rs_1_1_1_peer (c : Dev nD) : dst_rs_1_1_1 (peer 1 1 c) = dst_rs_1_1_1 c := by
  have h := off21_peer c
  unfold dst_rs_1_1_1
  congr 2
theorem off47_eq_off21 : ∀ c : Dev nD, k0_off47 c = k0_off21 c := by decide +kernel
theorem rsLoad_1_1_1 (c : Dev nD) :
    ((Memref.whole cc0_scratch2 : Memref sig .tc .vmem S256x1024 .bf16).access (Rect.unit (s := S256x1024) (k0_off47 c) S128x384.size (k0_off47_inb c))).set
      = (dst_rs_1_1_1 (peer 1 1 c)).view.set := by
  have h : k0_off47 c = k0_off21 (peer 1 1 c) := (off47_eq_off21 c).trans (off21_peer c).symm
  refine (View.set_slice_whole _ _).trans (Eq.trans ?_ (View.set_slice_whole _ _).symm)
  congr 3

theorem off24_peer : ∀ c : Dev nD, k0_off24 (peer 2 1 c) = k0_off24 c := by decide +kernel
theorem dst_rs_1_2_0_peer (c : Dev nD) : dst_rs_1_2_0 (peer 2 1 c) = dst_rs_1_2_0 c := by
  have h := off24_peer c
  unfold dst_rs_1_2_0
  congr 2
theorem off41_eq_off24 : ∀ c : Dev nD, k0_off41 c = k0_off24 c := by decide +kernel
theorem rsLoad_1_2_0 (c : Dev nD) :
    ((Memref.whole cc0_scratch2 : Memref sig .tc .vmem S256x1024 .bf16).access (Rect.unit (s := S256x1024) (k0_off41 c) S128x256.size (k0_off41_inb c))).set
      = (dst_rs_1_2_0 (peer 2 1 c)).view.set := by
  have h : k0_off41 c = k0_off24 (peer 2 1 c) := (off41_eq_off24 c).trans (off24_peer c).symm
  refine (View.set_slice_whole _ _).trans (Eq.trans ?_ (View.set_slice_whole _ _).symm)
  congr 3

theorem off25_peer : ∀ c : Dev nD, k0_off25 (peer 2 1 c) = k0_off25 c := by decide +kernel
theorem dst_rs_1_2_1_peer (c : Dev nD) : dst_rs_1_2_1 (peer 2 1 c) = dst_rs_1_2_1 c := by
  have h := off25_peer c
  unfold dst_rs_1_2_1
  congr 2
theorem off49_eq_off25 : ∀ c : Dev nD, k0_off49 c = k0_off25 c := by decide +kernel
theorem rsLoad_1_2_1 (c : Dev nD) :
    ((Memref.whole cc0_scratch2 : Memref sig .tc .vmem S256x1024 .bf16).access (Rect.unit (s := S256x1024) (k0_off49 c) S128x256.size (k0_off49_inb c))).set
      = (dst_rs_1_2_1 (peer 2 1 c)).view.set := by
  have h : k0_off49 c = k0_off25 (peer 2 1 c) := (off49_eq_off25 c).trans (off25_peer c).symm
  refine (View.set_slice_whole _ _).trans (Eq.trans ?_ (View.set_slice_whole _ _).symm)
  congr 3

/-! ## Stage 2: buffers of 128 rows -/

/-- The three column blocks are pairwise disjoint and cover the buffer. -/
theorem cols_2 :
    (Disjoint (Rect.unit (s := S128x1024) ![0, 0] S128x384.size inb_S128x1024_S128x384_0_0).set (Rect.unit (s := S128x1024) ![0, 384] S128x384.size inb_S128x1024_S128x384_0_384).set ∧ Disjoint (Rect.unit (s := S128x1024) ![0, 0] S128x384.size inb_S128x1024_S128x384_0_0).set (Rect.unit (s := S128x1024) ![0, 768] S128x256.size inb_S128x1024_S128x256_0_768).set ∧ Disjoint (Rect.unit (s := S128x1024) ![0, 384] S128x384.size inb_S128x1024_S128x384_0_384).set (Rect.unit (s := S128x1024) ![0, 768] S128x256.size inb_S128x1024_S128x256_0_768).set) ∧ (Rect.unit (s := S128x1024) ![0, 0] S128x384.size inb_S128x1024_S128x384_0_0).set ∪ ((Rect.unit (s := S128x1024) ![0, 384] S128x384.size inb_S128x1024_S128x384_0_384).set ∪ (Rect.unit (s := S128x1024) ![0, 768] S128x256.size inb_S128x1024_S128x256_0_768).set) = Finset.univ :=
  cols_part (by decide) (by decide)

/-- Column block 0 of the stage's send buffer: the positions its store goes through. -/
abbrev ssCol_2_0 : Finset S128x1024.Idx := ((Memref.whole cc0_scratch8 : Memref sig .tc .vmem S128x1024 .bf16).access (Rect.unit (s := S128x1024) ![0, 0] S128x384.size inb_S128x1024_S128x384_0_0)).set
theorem ssCol_2_0_eq : ssCol_2_0 = (Rect.unit (s := S128x1024) ![0, 0] S128x384.size inb_S128x1024_S128x384_0_0).set := View.set_slice_whole _ _

/-- Column block 1 of the stage's send buffer: the positions its store goes through. -/
abbrev ssCol_2_1 : Finset S128x1024.Idx := ((Memref.whole cc0_scratch8 : Memref sig .tc .vmem S128x1024 .bf16).access (Rect.unit (s := S128x1024) ![0, 384] S128x384.size inb_S128x1024_S128x384_0_384)).set
theorem ssCol_2_1_eq : ssCol_2_1 = (Rect.unit (s := S128x1024) ![0, 384] S128x384.size inb_S128x1024_S128x384_0_384).set := View.set_slice_whole _ _

/-- Column block 2 of the stage's send buffer: the positions its store goes through. -/
abbrev ssCol_2_2 : Finset S128x1024.Idx := ((Memref.whole cc0_scratch8 : Memref sig .tc .vmem S128x1024 .bf16).access (Rect.unit (s := S128x1024) ![0, 768] S128x256.size inb_S128x1024_S128x256_0_768)).set
theorem ssCol_2_2_eq : ssCol_2_2 = (Rect.unit (s := S128x1024) ![0, 768] S128x256.size inb_S128x1024_S128x256_0_768).set := View.set_slice_whole _ _

theorem colsSS_2 : (Disjoint ssCol_2_0 ssCol_2_1 ∧ Disjoint ssCol_2_0 ssCol_2_2 ∧ Disjoint ssCol_2_1 ssCol_2_2) ∧ ssCol_2_0 ∪ (ssCol_2_1 ∪ ssCol_2_2) = Finset.univ :=
  part3_congr ssCol_2_0_eq ssCol_2_1_eq ssCol_2_2_eq rfl cols_2

/-- The two row pieces of column block 0, at any device's offsets, are disjoint and cover the block. -/
theorem rows_2_0 (p : Dev nD) :
    Disjoint (Rect.unit (s := S128x1024) (k0_off34 p) S64x384.size (k0_off34_inb p)).set (Rect.unit (s := S128x1024) (k0_off35 p) S64x384.size (k0_off35_inb p)).set ∧ (Rect.unit (s := S128x1024) (k0_off34 p) S64x384.size (k0_off34_inb p)).set ∪ (Rect.unit (s := S128x1024) (k0_off35 p) S64x384.size (k0_off35_inb p)).set = (Rect.unit (s := S128x1024) ![0, 0] S128x384.size inb_S128x1024_S128x384_0_0).set :=
  rows_part (by rw [off34_eq, off35_eq]; exact ⟨rfl, rfl, rfl, rfl⟩)
    (by obtain h | h := bit01 0 3 p <;> rw [off34_eq, off35_eq, h] <;> decide)
theorem rowsRS_2_0 (p : Dev nD) : Disjoint (dst_rs_2_0_0 p).view.set (dst_rs_2_0_1 p).view.set ∧ (dst_rs_2_0_0 p).view.set ∪ (dst_rs_2_0_1 p).view.set = (Rect.unit (s := S128x1024) ![0, 0] S128x384.size inb_S128x1024_S128x384_0_0).set :=
  part2_congr (View.set_slice_whole _ _) (View.set_slice_whole _ _) rfl (rows_2_0 p)
theorem rowsSS_2_0 (p : Dev nD) : Disjoint (src_rs_2_0_0 p).view.set (src_rs_2_0_1 p).view.set ∧ (src_rs_2_0_0 p).view.set ∪ (src_rs_2_0_1 p).view.set = (Rect.unit (s := S128x1024) ![0, 0] S128x384.size inb_S128x1024_S128x384_0_0).set :=
  part2_congr (View.set_slice_whole _ _) (View.set_slice_whole _ _) rfl (rows_2_0 p)
theorem rowsSSc_2_0 (p : Dev nD) : Disjoint (src_rs_2_0_0 p).view.set (src_rs_2_0_1 p).view.set ∧ (src_rs_2_0_0 p).view.set ∪ (src_rs_2_0_1 p).view.set = ssCol_2_0 :=
  part2_congr (View.set_slice_whole _ _) (View.set_slice_whole _ _) ssCol_2_0_eq (rows_2_0 p)

/-- The two row pieces of column block 1, at any device's offsets, are disjoint and cover the block. -/
theorem rows_2_1 (p : Dev nD) :
    Disjoint (Rect.unit (s := S128x1024) (k0_off38 p) S64x384.size (k0_off38_inb p)).set (Rect.unit (s := S128x1024) (k0_off39 p) S64x384.size (k0_off39_inb p)).set ∧ (Rect.unit (s := S128x1024) (k0_off38 p) S64x384.size (k0_off38_inb p)).set ∪ (Rect.unit (s := S128x1024) (k0_off39 p) S64x384.size (k0_off39_inb p)).set = (Rect.unit (s := S128x1024) ![0, 384] S128x384.size inb_S128x1024_S128x384_0_384).set :=
  rows_part (by rw [off38_eq, off39_eq]; exact ⟨rfl, rfl, rfl, rfl⟩)
    (by obtain h | h := bit01 1 3 p <;> rw [off38_eq, off39_eq, h] <;> decide)
theorem rowsRS_2_1 (p : Dev nD) : Disjoint (dst_rs_2_1_0 p).view.set (dst_rs_2_1_1 p).view.set ∧ (dst_rs_2_1_0 p).view.set ∪ (dst_rs_2_1_1 p).view.set = (Rect.unit (s := S128x1024) ![0, 384] S128x384.size inb_S128x1024_S128x384_0_384).set :=
  part2_congr (View.set_slice_whole _ _) (View.set_slice_whole _ _) rfl (rows_2_1 p)
theorem rowsSS_2_1 (p : Dev nD) : Disjoint (src_rs_2_1_0 p).view.set (src_rs_2_1_1 p).view.set ∧ (src_rs_2_1_0 p).view.set ∪ (src_rs_2_1_1 p).view.set = (Rect.unit (s := S128x1024) ![0, 384] S128x384.size inb_S128x1024_S128x384_0_384).set :=
  part2_congr (View.set_slice_whole _ _) (View.set_slice_whole _ _) rfl (rows_2_1 p)
theorem rowsSSc_2_1 (p : Dev nD) : Disjoint (src_rs_2_1_0 p).view.set (src_rs_2_1_1 p).view.set ∧ (src_rs_2_1_0 p).view.set ∪ (src_rs_2_1_1 p).view.set = ssCol_2_1 :=
  part2_congr (View.set_slice_whole _ _) (View.set_slice_whole _ _) ssCol_2_1_eq (rows_2_1 p)

/-- The two row pieces of column block 2, at any device's offsets, are disjoint and cover the block. -/
theorem rows_2_2 (p : Dev nD) :
    Disjoint (Rect.unit (s := S128x1024) (k0_off42 p) S64x256.size (k0_off42_inb p)).set (Rect.unit (s := S128x1024) (k0_off43 p) S64x256.size (k0_off43_inb p)).set ∧ (Rect.unit (s := S128x1024) (k0_off42 p) S64x256.size (k0_off42_inb p)).set ∪ (Rect.unit (s := S128x1024) (k0_off43 p) S64x256.size (k0_off43_inb p)).set = (Rect.unit (s := S128x1024) ![0, 768] S128x256.size inb_S128x1024_S128x256_0_768).set :=
  rows_part (by rw [off42_eq, off43_eq]; exact ⟨rfl, rfl, rfl, rfl⟩)
    (by obtain h | h := bit01 2 3 p <;> rw [off42_eq, off43_eq, h] <;> decide)
theorem rowsRS_2_2 (p : Dev nD) : Disjoint (dst_rs_2_2_0 p).view.set (dst_rs_2_2_1 p).view.set ∧ (dst_rs_2_2_0 p).view.set ∪ (dst_rs_2_2_1 p).view.set = (Rect.unit (s := S128x1024) ![0, 768] S128x256.size inb_S128x1024_S128x256_0_768).set :=
  part2_congr (View.set_slice_whole _ _) (View.set_slice_whole _ _) rfl (rows_2_2 p)
theorem rowsSS_2_2 (p : Dev nD) : Disjoint (src_rs_2_2_0 p).view.set (src_rs_2_2_1 p).view.set ∧ (src_rs_2_2_0 p).view.set ∪ (src_rs_2_2_1 p).view.set = (Rect.unit (s := S128x1024) ![0, 768] S128x256.size inb_S128x1024_S128x256_0_768).set :=
  part2_congr (View.set_slice_whole _ _) (View.set_slice_whole _ _) rfl (rows_2_2 p)
theorem rowsSSc_2_2 (p : Dev nD) : Disjoint (src_rs_2_2_0 p).view.set (src_rs_2_2_1 p).view.set ∧ (src_rs_2_2_0 p).view.set ∪ (src_rs_2_2_1 p).view.set = ssCol_2_2 :=
  part2_congr (View.set_slice_whole _ _) (View.set_slice_whole _ _) ssCol_2_2_eq (rows_2_2 p)

/-- The stage's receive buffer, lent piece by piece at the partners' offsets. -/
theorem rs_split_2 (c : Dev nD) :
    (iprop(∃ f : Buf (Elt F) ((c : Thread nD τ).loc cc0_scratch3), ((c : Thread nD τ).loc cc0_scratch3) ↦{fullShare} f) : sProp 𝕄)
      ⊢ iprop(loanV c (dst_rs_2_0_0 (peer 0 2 c)) ∗ loanV c (dst_rs_2_0_1 (peer 0 2 c)) ∗ loanV c (dst_rs_2_1_0 (peer 1 2 c)) ∗ loanV c (dst_rs_2_1_1 (peer 1 2 c)) ∗ loanV c (dst_rs_2_2_0 (peer 2 2 c)) ∗ loanV c (dst_rs_2_2_1 (peer 2 2 c))) :=
  any_split6 (F := F) (ℓ := ((c : Thread nD τ).loc cc0_scratch3)) (q := fullShare) cols_2 (rowsRS_2_0 (peer 0 2 c)) (rowsRS_2_1 (peer 1 2 c)) (rowsRS_2_2 (peer 2 2 c))

theorem rs_join_2 (c : Dev nD) :
    (iprop(loanV c (dst_rs_2_0_0 (peer 0 2 c)) ∗ loanV c (dst_rs_2_0_1 (peer 0 2 c)) ∗ loanV c (dst_rs_2_1_0 (peer 1 2 c)) ∗ loanV c (dst_rs_2_1_1 (peer 1 2 c)) ∗ loanV c (dst_rs_2_2_0 (peer 2 2 c)) ∗ loanV c (dst_rs_2_2_1 (peer 2 2 c))) : sProp 𝕄)
      ⊢ iprop(∃ f : Buf (Elt F) ((c : Thread nD τ).loc cc0_scratch3), ((c : Thread nD τ).loc cc0_scratch3) ↦{fullShare} f) :=
  any_join6 (F := F) (ℓ := ((c : Thread nD τ).loc cc0_scratch3)) (q := fullShare) cols_2 (rowsRS_2_0 (peer 0 2 c)) (rowsRS_2_1 (peer 1 2 c)) (rowsRS_2_2 (peer 2 2 c))

/-- The stage's send buffer, piece by piece at the device's own offsets. -/
theorem ss_split_2 (c : Dev nD) :
    (iprop(∃ f : Buf (Elt F) ((c : Thread nD τ).loc cc0_scratch8), ((c : Thread nD τ).loc cc0_scratch8) ↦{fullShare} f) : sProp 𝕄)
      ⊢ iprop(loanV c (src_rs_2_0_0 c) ∗ loanV c (src_rs_2_0_1 c) ∗ loanV c (src_rs_2_1_0 c) ∗ loanV c (src_rs_2_1_1 c) ∗ loanV c (src_rs_2_2_0 c) ∗ loanV c (src_rs_2_2_1 c)) :=
  any_split6 (F := F) (ℓ := ((c : Thread nD τ).loc cc0_scratch8)) (q := fullShare) cols_2 (rowsSS_2_0 c) (rowsSS_2_1 c) (rowsSS_2_2 c)

theorem ss_join_2 (c : Dev nD) :
    (iprop(loanV c (src_rs_2_0_0 c) ∗ loanV c (src_rs_2_0_1 c) ∗ loanV c (src_rs_2_1_0 c) ∗ loanV c (src_rs_2_1_1 c) ∗ loanV c (src_rs_2_2_0 c) ∗ loanV c (src_rs_2_2_1 c)) : sProp 𝕄)
      ⊢ iprop(∃ f : Buf (Elt F) ((c : Thread nD τ).loc cc0_scratch8), ((c : Thread nD τ).loc cc0_scratch8) ↦{fullShare} f) :=
  any_join6 (F := F) (ℓ := ((c : Thread nD τ).loc cc0_scratch8)) (q := fullShare) cols_2 (rowsSS_2_0 c) (rowsSS_2_1 c) (rowsSS_2_2 c)

/-- The send buffer into the column blocks its stores go through, and back. -/
theorem ss_cols_2 (c : Dev nD) :
    (iprop(∃ f : Buf (Elt F) ((c : Thread nD τ).loc cc0_scratch8), ((c : Thread nD τ).loc cc0_scratch8) ↦{fullShare} f) : sProp 𝕄)
      ⊢ iprop((∃ f : Buf (Elt F) ((c : Thread nD τ).loc cc0_scratch8), ((c : Thread nD τ).loc cc0_scratch8) ↦[ssCol_2_0]{fullShare} f) ∗ (∃ f : Buf (Elt F) ((c : Thread nD τ).loc cc0_scratch8), ((c : Thread nD τ).loc cc0_scratch8) ↦[ssCol_2_1]{fullShare} f) ∗ (∃ f : Buf (Elt F) ((c : Thread nD τ).loc cc0_scratch8), ((c : Thread nD τ).loc cc0_scratch8) ↦[ssCol_2_2]{fullShare} f)) :=
  any_split3 (F := F) (ℓ := ((c : Thread nD τ).loc cc0_scratch8)) (q := fullShare) colsSS_2

theorem ss_cols_join_2 (c : Dev nD) :
    (iprop((∃ f : Buf (Elt F) ((c : Thread nD τ).loc cc0_scratch8), ((c : Thread nD τ).loc cc0_scratch8) ↦[ssCol_2_0]{fullShare} f) ∗ (∃ f : Buf (Elt F) ((c : Thread nD τ).loc cc0_scratch8), ((c : Thread nD τ).loc cc0_scratch8) ↦[ssCol_2_1]{fullShare} f) ∗ (∃ f : Buf (Elt F) ((c : Thread nD τ).loc cc0_scratch8), ((c : Thread nD τ).loc cc0_scratch8) ↦[ssCol_2_2]{fullShare} f)) : sProp 𝕄)
      ⊢ iprop(∃ f : Buf (Elt F) ((c : Thread nD τ).loc cc0_scratch8), ((c : Thread nD τ).loc cc0_scratch8) ↦{fullShare} f) :=
  any_join3 (F := F) (ℓ := ((c : Thread nD τ).loc cc0_scratch8)) (q := fullShare) colsSS_2

/-- The same at named contents and any share. -/
theorem ss_cols_at_2 (c : Dev nD) (q : PosShare TreeShare) (f : Buf (Elt F) ((c : Thread nD τ).loc cc0_scratch8)) :
    ((((c : Thread nD τ).loc cc0_scratch8) ↦{q} f) : sProp 𝕄)
      ⊣⊢ iprop((((c : Thread nD τ).loc cc0_scratch8) ↦[ssCol_2_0]{q} f) ∗ (((c : Thread nD τ).loc cc0_scratch8) ↦[ssCol_2_1]{q} f) ∗ (((c : Thread nD τ).loc cc0_scratch8) ↦[ssCol_2_2]{q} f)) :=
  at_cut3 (F := F) (ℓ := ((c : Thread nD τ).loc cc0_scratch8)) (q := q) colsSS_2 f

/-- Column block 0 of the send buffer into the two row pieces the device sends, and back. -/
theorem ss_rows_2_0 (c : Dev nD) :
    (iprop(∃ f : Buf (Elt F) ((c : Thread nD τ).loc cc0_scratch8), ((c : Thread nD τ).loc cc0_scratch8) ↦[ssCol_2_0]{fullShare} f) : sProp 𝕄)
      ⊢ iprop(loanV c (src_rs_2_0_0 c) ∗ loanV c (src_rs_2_0_1 c)) :=
  any_split2 (F := F) (ℓ := ((c : Thread nD τ).loc cc0_scratch8)) (q := fullShare) (rowsSSc_2_0 c)

theorem ss_rows_join_2_0 (c : Dev nD) :
    (iprop(loanV c (src_rs_2_0_0 c) ∗ loanV c (src_rs_2_0_1 c)) : sProp 𝕄)
      ⊢ iprop(∃ f : Buf (Elt F) ((c : Thread nD τ).loc cc0_scratch8), ((c : Thread nD τ).loc cc0_scratch8) ↦[ssCol_2_0]{fullShare} f) :=
  any_join2 (F := F) (ℓ := ((c : Thread nD τ).loc cc0_scratch8)) (q := fullShare) (rowsSSc_2_0 c)

theorem ss_rows_at_2_0 (c : Dev nD) (q : PosShare TreeShare) (f : Buf (Elt F) ((c : Thread nD τ).loc cc0_scratch8)) :
    ((((c : Thread nD τ).loc cc0_scratch8) ↦[ssCol_2_0]{q} f) : sProp 𝕄)
      ⊣⊢ iprop((((c : Thread nD τ).loc cc0_scratch8) ↦[(src_rs_2_0_0 c).view.set]{q} f) ∗ (((c : Thread nD τ).loc cc0_scratch8) ↦[(src_rs_2_0_1 c).view.set]{q} f)) :=
  at_cut2 (F := F) (ℓ := ((c : Thread nD τ).loc cc0_scratch8)) (q := q) (rowsSSc_2_0 c) f

/-- Column block 1 of the send buffer into the two row pieces the device sends, and back. -/
theorem ss_rows_2_1 (c : Dev nD) :
    (iprop(∃ f : Buf (Elt F) ((c : Thread nD τ).loc cc0_scratch8), ((c : Thread nD τ).loc cc0_scratch8) ↦[ssCol_2_1]{fullShare} f) : sProp 𝕄)
      ⊢ iprop(loanV c (src_rs_2_1_0 c) ∗ loanV c (src_rs_2_1_1 c)) :=
  any_split2 (F := F) (ℓ := ((c : Thread nD τ).loc cc0_scratch8)) (q := fullShare) (rowsSSc_2_1 c)

theorem ss_rows_join_2_1 (c : Dev nD) :
    (iprop(loanV c (src_rs_2_1_0 c) ∗ loanV c (src_rs_2_1_1 c)) : sProp 𝕄)
      ⊢ iprop(∃ f : Buf (Elt F) ((c : Thread nD τ).loc cc0_scratch8), ((c : Thread nD τ).loc cc0_scratch8) ↦[ssCol_2_1]{fullShare} f) :=
  any_join2 (F := F) (ℓ := ((c : Thread nD τ).loc cc0_scratch8)) (q := fullShare) (rowsSSc_2_1 c)

theorem ss_rows_at_2_1 (c : Dev nD) (q : PosShare TreeShare) (f : Buf (Elt F) ((c : Thread nD τ).loc cc0_scratch8)) :
    ((((c : Thread nD τ).loc cc0_scratch8) ↦[ssCol_2_1]{q} f) : sProp 𝕄)
      ⊣⊢ iprop((((c : Thread nD τ).loc cc0_scratch8) ↦[(src_rs_2_1_0 c).view.set]{q} f) ∗ (((c : Thread nD τ).loc cc0_scratch8) ↦[(src_rs_2_1_1 c).view.set]{q} f)) :=
  at_cut2 (F := F) (ℓ := ((c : Thread nD τ).loc cc0_scratch8)) (q := q) (rowsSSc_2_1 c) f

/-- Column block 2 of the send buffer into the two row pieces the device sends, and back. -/
theorem ss_rows_2_2 (c : Dev nD) :
    (iprop(∃ f : Buf (Elt F) ((c : Thread nD τ).loc cc0_scratch8), ((c : Thread nD τ).loc cc0_scratch8) ↦[ssCol_2_2]{fullShare} f) : sProp 𝕄)
      ⊢ iprop(loanV c (src_rs_2_2_0 c) ∗ loanV c (src_rs_2_2_1 c)) :=
  any_split2 (F := F) (ℓ := ((c : Thread nD τ).loc cc0_scratch8)) (q := fullShare) (rowsSSc_2_2 c)

theorem ss_rows_join_2_2 (c : Dev nD) :
    (iprop(loanV c (src_rs_2_2_0 c) ∗ loanV c (src_rs_2_2_1 c)) : sProp 𝕄)
      ⊢ iprop(∃ f : Buf (Elt F) ((c : Thread nD τ).loc cc0_scratch8), ((c : Thread nD τ).loc cc0_scratch8) ↦[ssCol_2_2]{fullShare} f) :=
  any_join2 (F := F) (ℓ := ((c : Thread nD τ).loc cc0_scratch8)) (q := fullShare) (rowsSSc_2_2 c)

theorem ss_rows_at_2_2 (c : Dev nD) (q : PosShare TreeShare) (f : Buf (Elt F) ((c : Thread nD τ).loc cc0_scratch8)) :
    ((((c : Thread nD τ).loc cc0_scratch8) ↦[ssCol_2_2]{q} f) : sProp 𝕄)
      ⊣⊢ iprop((((c : Thread nD τ).loc cc0_scratch8) ↦[(src_rs_2_2_0 c).view.set]{q} f) ∗ (((c : Thread nD τ).loc cc0_scratch8) ↦[(src_rs_2_2_1 c).view.set]{q} f)) :=
  at_cut2 (F := F) (ℓ := ((c : Thread nD τ).loc cc0_scratch8)) (q := q) (rowsSSc_2_2 c) f

/-! ### Stage 2: the partner's offsets are the device's own, and the loads from the receive buffer read the pieces -/

theorem off34_peer : ∀ c : Dev nD, k0_off34 (peer 0 2 c) = k0_off34 c := by decide +kernel
theorem dst_rs_2_0_0_peer (c : Dev nD) : dst_rs_2_0_0 (peer 0 2 c) = dst_rs_2_0_0 c := by
  have h := off34_peer c
  unfold dst_rs_2_0_0
  congr 2
theorem off51_eq_off34 : ∀ c : Dev nD, k0_off51 c = k0_off34 c := by decide +kernel
theorem rsLoad_2_0_0 (c : Dev nD) :
    ((Memref.whole cc0_scratch3 : Memref sig .tc .vmem S128x1024 .bf16).access (Rect.unit (s := S128x1024) (k0_off51 c) S64x384.size (k0_off51_inb c))).set
      = (dst_rs_2_0_0 (peer 0 2 c)).view.set := by
  have h : k0_off51 c = k0_off34 (peer 0 2 c) := (off51_eq_off34 c).trans (off34_peer c).symm
  refine (View.set_slice_whole _ _).trans (Eq.trans ?_ (View.set_slice_whole _ _).symm)
  congr 3

theorem off35_peer : ∀ c : Dev nD, k0_off35 (peer 0 2 c) = k0_off35 c := by decide +kernel
theorem dst_rs_2_0_1_peer (c : Dev nD) : dst_rs_2_0_1 (peer 0 2 c) = dst_rs_2_0_1 c := by
  have h := off35_peer c
  unfold dst_rs_2_0_1
  congr 2
theorem off63_eq_off35 : ∀ c : Dev nD, k0_off63 c = k0_off35 c := by decide +kernel
theorem rsLoad_2_0_1 (c : Dev nD) :
    ((Memref.whole cc0_scratch3 : Memref sig .tc .vmem S128x1024 .bf16).access (Rect.unit (s := S128x1024) (k0_off63 c) S64x384.size (k0_off63_inb c))).set
      = (dst_rs_2_0_1 (peer 0 2 c)).view.set := by
  have h : k0_off63 c = k0_off35 (peer 0 2 c) := (off63_eq_off35 c).trans (off35_peer c).symm
  refine (View.set_slice_whole _ _).trans (Eq.trans ?_ (View.set_slice_whole _ _).symm)
  congr 3

theorem off38_peer : ∀ c : Dev nD, k0_off38 (peer 1 2 c) = k0_off38 c := by decide +kernel
theorem dst_rs_2_1_0_peer (c : Dev nD) : dst_rs_2_1_0 (peer 1 2 c) = dst_rs_2_1_0 c := by
  have h := off38_peer c
  unfold dst_rs_2_1_0
  congr 2
theorem off55_eq_off38 : ∀ c : Dev nD, k0_off55 c = k0_off38 c := by decide +kernel
theorem rsLoad_2_1_0 (c : Dev nD) :
    ((Memref.whole cc0_scratch3 : Memref sig .tc .vmem S128x1024 .bf16).access (Rect.unit (s := S128x1024) (k0_off55 c) S64x384.size (k0_off55_inb c))).set
      = (dst_rs_2_1_0 (peer 1 2 c)).view.set := by
  have h : k0_off55 c = k0_off38 (peer 1 2 c) := (off55_eq_off38 c).trans (off38_peer c).symm
  refine (View.set_slice_whole _ _).trans (Eq.trans ?_ (View.set_slice_whole _ _).symm)
  congr 3

theorem off39_peer : ∀ c : Dev nD, k0_off39 (peer 1 2 c) = k0_off39 c := by decide +kernel
theorem dst_rs_2_1_1_peer (c : Dev nD) : dst_rs_2_1_1 (peer 1 2 c) = dst_rs_2_1_1 c := by
  have h := off39_peer c
  unfold dst_rs_2_1_1
  congr 2
theorem off65_eq_off39 : ∀ c : Dev nD, k0_off65 c = k0_off39 c := by decide +kernel
theorem rsLoad_2_1_1 (c : Dev nD) :
    ((Memref.whole cc0_scratch3 : Memref sig .tc .vmem S128x1024 .bf16).access (Rect.unit (s := S128x1024) (k0_off65 c) S64x384.size (k0_off65_inb c))).set
      = (dst_rs_2_1_1 (peer 1 2 c)).view.set := by
  have h : k0_off65 c = k0_off39 (peer 1 2 c) := (off65_eq_off39 c).trans (off39_peer c).symm
  refine (View.set_slice_whole _ _).trans (Eq.trans ?_ (View.set_slice_whole _ _).symm)
  congr 3

theorem off42_peer : ∀ c : Dev nD, k0_off42 (peer 2 2 c) = k0_off42 c := by decide +kernel
theorem dst_rs_2_2_0_peer (c : Dev nD) : dst_rs_2_2_0 (peer 2 2 c) = dst_rs_2_2_0 c := by
  have h := off42_peer c
  unfold dst_rs_2_2_0
  congr 2
theorem off59_eq_off42 : ∀ c : Dev nD, k0_off59 c = k0_off42 c := by decide +kernel
theorem rsLoad_2_2_0 (c : Dev nD) :
    ((Memref.whole cc0_scratch3 : Memref sig .tc .vmem S128x1024 .bf16).access (Rect.unit (s := S128x1024) (k0_off59 c) S64x256.size (k0_off59_inb c))).set
      = (dst_rs_2_2_0 (peer 2 2 c)).view.set := by
  have h : k0_off59 c = k0_off42 (peer 2 2 c) := (off59_eq_off42 c).trans (off42_peer c).symm
  refine (View.set_slice_whole _ _).trans (Eq.trans ?_ (View.set_slice_whole _ _).symm)
  congr 3

theorem off43_peer : ∀ c : Dev nD, k0_off43 (peer 2 2 c) = k0_off43 c := by decide +kernel
theorem dst_rs_2_2_1_peer (c : Dev nD) : dst_rs_2_2_1 (peer 2 2 c) = dst_rs_2_2_1 c := by
  have h := off43_peer c
  unfold dst_rs_2_2_1
  congr 2
theorem off67_eq_off43 : ∀ c : Dev nD, k0_off67 c = k0_off43 c := by decide +kernel
theorem rsLoad_2_2_1 (c : Dev nD) :
    ((Memref.whole cc0_scratch3 : Memref sig .tc .vmem S128x1024 .bf16).access (Rect.unit (s := S128x1024) (k0_off67 c) S64x256.size (k0_off67_inb c))).set
      = (dst_rs_2_2_1 (peer 2 2 c)).view.set := by
  have h : k0_off67 c = k0_off43 (peer 2 2 c) := (off67_eq_off43 c).trans (off43_peer c).symm
  refine (View.set_slice_whole _ _).trans (Eq.trans ?_ (View.set_slice_whole _ _).symm)
  congr 3

/-! ## Stage 3: buffers of 64 rows -/

/-- The three column blocks are pairwise disjoint and cover the buffer. -/
theorem cols_3 :
    (Disjoint (Rect.unit (s := S64x1024) ![0, 0] S64x384.size inb_S64x1024_S64x384_0_0).set (Rect.unit (s := S64x1024) ![0, 384] S64x384.size inb_S64x1024_S64x384_0_384).set ∧ Disjoint (Rect.unit (s := S64x1024) ![0, 0] S64x384.size inb_S64x1024_S64x384_0_0).set (Rect.unit (s := S64x1024) ![0, 768] S64x256.size inb_S64x1024_S64x256_0_768).set ∧ Disjoint (Rect.unit (s := S64x1024) ![0, 384] S64x384.size inb_S64x1024_S64x384_0_384).set (Rect.unit (s := S64x1024) ![0, 768] S64x256.size inb_S64x1024_S64x256_0_768).set) ∧ (Rect.unit (s := S64x1024) ![0, 0] S64x384.size inb_S64x1024_S64x384_0_0).set ∪ ((Rect.unit (s := S64x1024) ![0, 384] S64x384.size inb_S64x1024_S64x384_0_384).set ∪ (Rect.unit (s := S64x1024) ![0, 768] S64x256.size inb_S64x1024_S64x256_0_768).set) = Finset.univ :=
  cols_part (by decide) (by decide)

/-- Column block 0 of the stage's send buffer: the positions its store goes through. -/
abbrev ssCol_3_0 : Finset S64x1024.Idx := ((Memref.whole cc0_scratch9 : Memref sig .tc .vmem S64x1024 .bf16).access (Rect.unit (s := S64x1024) ![0, 0] S64x384.size inb_S64x1024_S64x384_0_0)).set
theorem ssCol_3_0_eq : ssCol_3_0 = (Rect.unit (s := S64x1024) ![0, 0] S64x384.size inb_S64x1024_S64x384_0_0).set := View.set_slice_whole _ _

/-- Column block 1 of the stage's send buffer: the positions its store goes through. -/
abbrev ssCol_3_1 : Finset S64x1024.Idx := ((Memref.whole cc0_scratch9 : Memref sig .tc .vmem S64x1024 .bf16).access (Rect.unit (s := S64x1024) ![0, 384] S64x384.size inb_S64x1024_S64x384_0_384)).set
theorem ssCol_3_1_eq : ssCol_3_1 = (Rect.unit (s := S64x1024) ![0, 384] S64x384.size inb_S64x1024_S64x384_0_384).set := View.set_slice_whole _ _

/-- Column block 2 of the stage's send buffer: the positions its store goes through. -/
abbrev ssCol_3_2 : Finset S64x1024.Idx := ((Memref.whole cc0_scratch9 : Memref sig .tc .vmem S64x1024 .bf16).access (Rect.unit (s := S64x1024) ![0, 768] S64x256.size inb_S64x1024_S64x256_0_768)).set
theorem ssCol_3_2_eq : ssCol_3_2 = (Rect.unit (s := S64x1024) ![0, 768] S64x256.size inb_S64x1024_S64x256_0_768).set := View.set_slice_whole _ _

theorem colsSS_3 : (Disjoint ssCol_3_0 ssCol_3_1 ∧ Disjoint ssCol_3_0 ssCol_3_2 ∧ Disjoint ssCol_3_1 ssCol_3_2) ∧ ssCol_3_0 ∪ (ssCol_3_1 ∪ ssCol_3_2) = Finset.univ :=
  part3_congr ssCol_3_0_eq ssCol_3_1_eq ssCol_3_2_eq rfl cols_3

/-- The two row pieces of column block 0, at any device's offsets, are disjoint and cover the block. -/
theorem rows_3_0 (p : Dev nD) :
    Disjoint (Rect.unit (s := S64x1024) (k0_off52 p) S32x384.size (k0_off52_inb p)).set (Rect.unit (s := S64x1024) (k0_off53 p) S32x384.size (k0_off53_inb p)).set ∧ (Rect.unit (s := S64x1024) (k0_off52 p) S32x384.size (k0_off52_inb p)).set ∪ (Rect.unit (s := S64x1024) (k0_off53 p) S32x384.size (k0_off53_inb p)).set = (Rect.unit (s := S64x1024) ![0, 0] S64x384.size inb_S64x1024_S64x384_0_0).set :=
  rows_part (by rw [off52_eq, off53_eq]; exact ⟨rfl, rfl, rfl, rfl⟩)
    (by obtain h | h := bit01 0 4 p <;> rw [off52_eq, off53_eq, h] <;> decide)
theorem rowsRS_3_0 (p : Dev nD) : Disjoint (dst_rs_3_0_0 p).view.set (dst_rs_3_0_1 p).view.set ∧ (dst_rs_3_0_0 p).view.set ∪ (dst_rs_3_0_1 p).view.set = (Rect.unit (s := S64x1024) ![0, 0] S64x384.size inb_S64x1024_S64x384_0_0).set :=
  part2_congr (View.set_slice_whole _ _) (View.set_slice_whole _ _) rfl (rows_3_0 p)
theorem rowsSS_3_0 (p : Dev nD) : Disjoint (src_rs_3_0_0 p).view.set (src_rs_3_0_1 p).view.set ∧ (src_rs_3_0_0 p).view.set ∪ (src_rs_3_0_1 p).view.set = (Rect.unit (s := S64x1024) ![0, 0] S64x384.size inb_S64x1024_S64x384_0_0).set :=
  part2_congr (View.set_slice_whole _ _) (View.set_slice_whole _ _) rfl (rows_3_0 p)
theorem rowsSSc_3_0 (p : Dev nD) : Disjoint (src_rs_3_0_0 p).view.set (src_rs_3_0_1 p).view.set ∧ (src_rs_3_0_0 p).view.set ∪ (src_rs_3_0_1 p).view.set = ssCol_3_0 :=
  part2_congr (View.set_slice_whole _ _) (View.set_slice_whole _ _) ssCol_3_0_eq (rows_3_0 p)

/-- The two row pieces of column block 1, at any device's offsets, are disjoint and cover the block. -/
theorem rows_3_1 (p : Dev nD) :
    Disjoint (Rect.unit (s := S64x1024) (k0_off56 p) S32x384.size (k0_off56_inb p)).set (Rect.unit (s := S64x1024) (k0_off57 p) S32x384.size (k0_off57_inb p)).set ∧ (Rect.unit (s := S64x1024) (k0_off56 p) S32x384.size (k0_off56_inb p)).set ∪ (Rect.unit (s := S64x1024) (k0_off57 p) S32x384.size (k0_off57_inb p)).set = (Rect.unit (s := S64x1024) ![0, 384] S64x384.size inb_S64x1024_S64x384_0_384).set :=
  rows_part (by rw [off56_eq, off57_eq]; exact ⟨rfl, rfl, rfl, rfl⟩)
    (by obtain h | h := bit01 1 4 p <;> rw [off56_eq, off57_eq, h] <;> decide)
theorem rowsRS_3_1 (p : Dev nD) : Disjoint (dst_rs_3_1_0 p).view.set (dst_rs_3_1_1 p).view.set ∧ (dst_rs_3_1_0 p).view.set ∪ (dst_rs_3_1_1 p).view.set = (Rect.unit (s := S64x1024) ![0, 384] S64x384.size inb_S64x1024_S64x384_0_384).set :=
  part2_congr (View.set_slice_whole _ _) (View.set_slice_whole _ _) rfl (rows_3_1 p)
theorem rowsSS_3_1 (p : Dev nD) : Disjoint (src_rs_3_1_0 p).view.set (src_rs_3_1_1 p).view.set ∧ (src_rs_3_1_0 p).view.set ∪ (src_rs_3_1_1 p).view.set = (Rect.unit (s := S64x1024) ![0, 384] S64x384.size inb_S64x1024_S64x384_0_384).set :=
  part2_congr (View.set_slice_whole _ _) (View.set_slice_whole _ _) rfl (rows_3_1 p)
theorem rowsSSc_3_1 (p : Dev nD) : Disjoint (src_rs_3_1_0 p).view.set (src_rs_3_1_1 p).view.set ∧ (src_rs_3_1_0 p).view.set ∪ (src_rs_3_1_1 p).view.set = ssCol_3_1 :=
  part2_congr (View.set_slice_whole _ _) (View.set_slice_whole _ _) ssCol_3_1_eq (rows_3_1 p)

/-- The two row pieces of column block 2, at any device's offsets, are disjoint and cover the block. -/
theorem rows_3_2 (p : Dev nD) :
    Disjoint (Rect.unit (s := S64x1024) (k0_off60 p) S32x256.size (k0_off60_inb p)).set (Rect.unit (s := S64x1024) (k0_off61 p) S32x256.size (k0_off61_inb p)).set ∧ (Rect.unit (s := S64x1024) (k0_off60 p) S32x256.size (k0_off60_inb p)).set ∪ (Rect.unit (s := S64x1024) (k0_off61 p) S32x256.size (k0_off61_inb p)).set = (Rect.unit (s := S64x1024) ![0, 768] S64x256.size inb_S64x1024_S64x256_0_768).set :=
  rows_part (by rw [off60_eq, off61_eq]; exact ⟨rfl, rfl, rfl, rfl⟩)
    (by obtain h | h := bit01 2 4 p <;> rw [off60_eq, off61_eq, h] <;> decide)
theorem rowsRS_3_2 (p : Dev nD) : Disjoint (dst_rs_3_2_0 p).view.set (dst_rs_3_2_1 p).view.set ∧ (dst_rs_3_2_0 p).view.set ∪ (dst_rs_3_2_1 p).view.set = (Rect.unit (s := S64x1024) ![0, 768] S64x256.size inb_S64x1024_S64x256_0_768).set :=
  part2_congr (View.set_slice_whole _ _) (View.set_slice_whole _ _) rfl (rows_3_2 p)
theorem rowsSS_3_2 (p : Dev nD) : Disjoint (src_rs_3_2_0 p).view.set (src_rs_3_2_1 p).view.set ∧ (src_rs_3_2_0 p).view.set ∪ (src_rs_3_2_1 p).view.set = (Rect.unit (s := S64x1024) ![0, 768] S64x256.size inb_S64x1024_S64x256_0_768).set :=
  part2_congr (View.set_slice_whole _ _) (View.set_slice_whole _ _) rfl (rows_3_2 p)
theorem rowsSSc_3_2 (p : Dev nD) : Disjoint (src_rs_3_2_0 p).view.set (src_rs_3_2_1 p).view.set ∧ (src_rs_3_2_0 p).view.set ∪ (src_rs_3_2_1 p).view.set = ssCol_3_2 :=
  part2_congr (View.set_slice_whole _ _) (View.set_slice_whole _ _) ssCol_3_2_eq (rows_3_2 p)

/-- The stage's receive buffer, lent piece by piece at the partners' offsets. -/
theorem rs_split_3 (c : Dev nD) :
    (iprop(∃ f : Buf (Elt F) ((c : Thread nD τ).loc cc0_scratch4), ((c : Thread nD τ).loc cc0_scratch4) ↦{fullShare} f) : sProp 𝕄)
      ⊢ iprop(loanV c (dst_rs_3_0_0 (peer 0 3 c)) ∗ loanV c (dst_rs_3_0_1 (peer 0 3 c)) ∗ loanV c (dst_rs_3_1_0 (peer 1 3 c)) ∗ loanV c (dst_rs_3_1_1 (peer 1 3 c)) ∗ loanV c (dst_rs_3_2_0 (peer 2 3 c)) ∗ loanV c (dst_rs_3_2_1 (peer 2 3 c))) :=
  any_split6 (F := F) (ℓ := ((c : Thread nD τ).loc cc0_scratch4)) (q := fullShare) cols_3 (rowsRS_3_0 (peer 0 3 c)) (rowsRS_3_1 (peer 1 3 c)) (rowsRS_3_2 (peer 2 3 c))

theorem rs_join_3 (c : Dev nD) :
    (iprop(loanV c (dst_rs_3_0_0 (peer 0 3 c)) ∗ loanV c (dst_rs_3_0_1 (peer 0 3 c)) ∗ loanV c (dst_rs_3_1_0 (peer 1 3 c)) ∗ loanV c (dst_rs_3_1_1 (peer 1 3 c)) ∗ loanV c (dst_rs_3_2_0 (peer 2 3 c)) ∗ loanV c (dst_rs_3_2_1 (peer 2 3 c))) : sProp 𝕄)
      ⊢ iprop(∃ f : Buf (Elt F) ((c : Thread nD τ).loc cc0_scratch4), ((c : Thread nD τ).loc cc0_scratch4) ↦{fullShare} f) :=
  any_join6 (F := F) (ℓ := ((c : Thread nD τ).loc cc0_scratch4)) (q := fullShare) cols_3 (rowsRS_3_0 (peer 0 3 c)) (rowsRS_3_1 (peer 1 3 c)) (rowsRS_3_2 (peer 2 3 c))

/-- The stage's send buffer, piece by piece at the device's own offsets. -/
theorem ss_split_3 (c : Dev nD) :
    (iprop(∃ f : Buf (Elt F) ((c : Thread nD τ).loc cc0_scratch9), ((c : Thread nD τ).loc cc0_scratch9) ↦{fullShare} f) : sProp 𝕄)
      ⊢ iprop(loanV c (src_rs_3_0_0 c) ∗ loanV c (src_rs_3_0_1 c) ∗ loanV c (src_rs_3_1_0 c) ∗ loanV c (src_rs_3_1_1 c) ∗ loanV c (src_rs_3_2_0 c) ∗ loanV c (src_rs_3_2_1 c)) :=
  any_split6 (F := F) (ℓ := ((c : Thread nD τ).loc cc0_scratch9)) (q := fullShare) cols_3 (rowsSS_3_0 c) (rowsSS_3_1 c) (rowsSS_3_2 c)

theorem ss_join_3 (c : Dev nD) :
    (iprop(loanV c (src_rs_3_0_0 c) ∗ loanV c (src_rs_3_0_1 c) ∗ loanV c (src_rs_3_1_0 c) ∗ loanV c (src_rs_3_1_1 c) ∗ loanV c (src_rs_3_2_0 c) ∗ loanV c (src_rs_3_2_1 c)) : sProp 𝕄)
      ⊢ iprop(∃ f : Buf (Elt F) ((c : Thread nD τ).loc cc0_scratch9), ((c : Thread nD τ).loc cc0_scratch9) ↦{fullShare} f) :=
  any_join6 (F := F) (ℓ := ((c : Thread nD τ).loc cc0_scratch9)) (q := fullShare) cols_3 (rowsSS_3_0 c) (rowsSS_3_1 c) (rowsSS_3_2 c)

/-- The send buffer into the column blocks its stores go through, and back. -/
theorem ss_cols_3 (c : Dev nD) :
    (iprop(∃ f : Buf (Elt F) ((c : Thread nD τ).loc cc0_scratch9), ((c : Thread nD τ).loc cc0_scratch9) ↦{fullShare} f) : sProp 𝕄)
      ⊢ iprop((∃ f : Buf (Elt F) ((c : Thread nD τ).loc cc0_scratch9), ((c : Thread nD τ).loc cc0_scratch9) ↦[ssCol_3_0]{fullShare} f) ∗ (∃ f : Buf (Elt F) ((c : Thread nD τ).loc cc0_scratch9), ((c : Thread nD τ).loc cc0_scratch9) ↦[ssCol_3_1]{fullShare} f) ∗ (∃ f : Buf (Elt F) ((c : Thread nD τ).loc cc0_scratch9), ((c : Thread nD τ).loc cc0_scratch9) ↦[ssCol_3_2]{fullShare} f)) :=
  any_split3 (F := F) (ℓ := ((c : Thread nD τ).loc cc0_scratch9)) (q := fullShare) colsSS_3

theorem ss_cols_join_3 (c : Dev nD) :
    (iprop((∃ f : Buf (Elt F) ((c : Thread nD τ).loc cc0_scratch9), ((c : Thread nD τ).loc cc0_scratch9) ↦[ssCol_3_0]{fullShare} f) ∗ (∃ f : Buf (Elt F) ((c : Thread nD τ).loc cc0_scratch9), ((c : Thread nD τ).loc cc0_scratch9) ↦[ssCol_3_1]{fullShare} f) ∗ (∃ f : Buf (Elt F) ((c : Thread nD τ).loc cc0_scratch9), ((c : Thread nD τ).loc cc0_scratch9) ↦[ssCol_3_2]{fullShare} f)) : sProp 𝕄)
      ⊢ iprop(∃ f : Buf (Elt F) ((c : Thread nD τ).loc cc0_scratch9), ((c : Thread nD τ).loc cc0_scratch9) ↦{fullShare} f) :=
  any_join3 (F := F) (ℓ := ((c : Thread nD τ).loc cc0_scratch9)) (q := fullShare) colsSS_3

/-- The same at named contents and any share. -/
theorem ss_cols_at_3 (c : Dev nD) (q : PosShare TreeShare) (f : Buf (Elt F) ((c : Thread nD τ).loc cc0_scratch9)) :
    ((((c : Thread nD τ).loc cc0_scratch9) ↦{q} f) : sProp 𝕄)
      ⊣⊢ iprop((((c : Thread nD τ).loc cc0_scratch9) ↦[ssCol_3_0]{q} f) ∗ (((c : Thread nD τ).loc cc0_scratch9) ↦[ssCol_3_1]{q} f) ∗ (((c : Thread nD τ).loc cc0_scratch9) ↦[ssCol_3_2]{q} f)) :=
  at_cut3 (F := F) (ℓ := ((c : Thread nD τ).loc cc0_scratch9)) (q := q) colsSS_3 f

/-- Column block 0 of the send buffer into the two row pieces the device sends, and back. -/
theorem ss_rows_3_0 (c : Dev nD) :
    (iprop(∃ f : Buf (Elt F) ((c : Thread nD τ).loc cc0_scratch9), ((c : Thread nD τ).loc cc0_scratch9) ↦[ssCol_3_0]{fullShare} f) : sProp 𝕄)
      ⊢ iprop(loanV c (src_rs_3_0_0 c) ∗ loanV c (src_rs_3_0_1 c)) :=
  any_split2 (F := F) (ℓ := ((c : Thread nD τ).loc cc0_scratch9)) (q := fullShare) (rowsSSc_3_0 c)

theorem ss_rows_join_3_0 (c : Dev nD) :
    (iprop(loanV c (src_rs_3_0_0 c) ∗ loanV c (src_rs_3_0_1 c)) : sProp 𝕄)
      ⊢ iprop(∃ f : Buf (Elt F) ((c : Thread nD τ).loc cc0_scratch9), ((c : Thread nD τ).loc cc0_scratch9) ↦[ssCol_3_0]{fullShare} f) :=
  any_join2 (F := F) (ℓ := ((c : Thread nD τ).loc cc0_scratch9)) (q := fullShare) (rowsSSc_3_0 c)

theorem ss_rows_at_3_0 (c : Dev nD) (q : PosShare TreeShare) (f : Buf (Elt F) ((c : Thread nD τ).loc cc0_scratch9)) :
    ((((c : Thread nD τ).loc cc0_scratch9) ↦[ssCol_3_0]{q} f) : sProp 𝕄)
      ⊣⊢ iprop((((c : Thread nD τ).loc cc0_scratch9) ↦[(src_rs_3_0_0 c).view.set]{q} f) ∗ (((c : Thread nD τ).loc cc0_scratch9) ↦[(src_rs_3_0_1 c).view.set]{q} f)) :=
  at_cut2 (F := F) (ℓ := ((c : Thread nD τ).loc cc0_scratch9)) (q := q) (rowsSSc_3_0 c) f

/-- Column block 1 of the send buffer into the two row pieces the device sends, and back. -/
theorem ss_rows_3_1 (c : Dev nD) :
    (iprop(∃ f : Buf (Elt F) ((c : Thread nD τ).loc cc0_scratch9), ((c : Thread nD τ).loc cc0_scratch9) ↦[ssCol_3_1]{fullShare} f) : sProp 𝕄)
      ⊢ iprop(loanV c (src_rs_3_1_0 c) ∗ loanV c (src_rs_3_1_1 c)) :=
  any_split2 (F := F) (ℓ := ((c : Thread nD τ).loc cc0_scratch9)) (q := fullShare) (rowsSSc_3_1 c)

theorem ss_rows_join_3_1 (c : Dev nD) :
    (iprop(loanV c (src_rs_3_1_0 c) ∗ loanV c (src_rs_3_1_1 c)) : sProp 𝕄)
      ⊢ iprop(∃ f : Buf (Elt F) ((c : Thread nD τ).loc cc0_scratch9), ((c : Thread nD τ).loc cc0_scratch9) ↦[ssCol_3_1]{fullShare} f) :=
  any_join2 (F := F) (ℓ := ((c : Thread nD τ).loc cc0_scratch9)) (q := fullShare) (rowsSSc_3_1 c)

theorem ss_rows_at_3_1 (c : Dev nD) (q : PosShare TreeShare) (f : Buf (Elt F) ((c : Thread nD τ).loc cc0_scratch9)) :
    ((((c : Thread nD τ).loc cc0_scratch9) ↦[ssCol_3_1]{q} f) : sProp 𝕄)
      ⊣⊢ iprop((((c : Thread nD τ).loc cc0_scratch9) ↦[(src_rs_3_1_0 c).view.set]{q} f) ∗ (((c : Thread nD τ).loc cc0_scratch9) ↦[(src_rs_3_1_1 c).view.set]{q} f)) :=
  at_cut2 (F := F) (ℓ := ((c : Thread nD τ).loc cc0_scratch9)) (q := q) (rowsSSc_3_1 c) f

/-- Column block 2 of the send buffer into the two row pieces the device sends, and back. -/
theorem ss_rows_3_2 (c : Dev nD) :
    (iprop(∃ f : Buf (Elt F) ((c : Thread nD τ).loc cc0_scratch9), ((c : Thread nD τ).loc cc0_scratch9) ↦[ssCol_3_2]{fullShare} f) : sProp 𝕄)
      ⊢ iprop(loanV c (src_rs_3_2_0 c) ∗ loanV c (src_rs_3_2_1 c)) :=
  any_split2 (F := F) (ℓ := ((c : Thread nD τ).loc cc0_scratch9)) (q := fullShare) (rowsSSc_3_2 c)

theorem ss_rows_join_3_2 (c : Dev nD) :
    (iprop(loanV c (src_rs_3_2_0 c) ∗ loanV c (src_rs_3_2_1 c)) : sProp 𝕄)
      ⊢ iprop(∃ f : Buf (Elt F) ((c : Thread nD τ).loc cc0_scratch9), ((c : Thread nD τ).loc cc0_scratch9) ↦[ssCol_3_2]{fullShare} f) :=
  any_join2 (F := F) (ℓ := ((c : Thread nD τ).loc cc0_scratch9)) (q := fullShare) (rowsSSc_3_2 c)

theorem ss_rows_at_3_2 (c : Dev nD) (q : PosShare TreeShare) (f : Buf (Elt F) ((c : Thread nD τ).loc cc0_scratch9)) :
    ((((c : Thread nD τ).loc cc0_scratch9) ↦[ssCol_3_2]{q} f) : sProp 𝕄)
      ⊣⊢ iprop((((c : Thread nD τ).loc cc0_scratch9) ↦[(src_rs_3_2_0 c).view.set]{q} f) ∗ (((c : Thread nD τ).loc cc0_scratch9) ↦[(src_rs_3_2_1 c).view.set]{q} f)) :=
  at_cut2 (F := F) (ℓ := ((c : Thread nD τ).loc cc0_scratch9)) (q := q) (rowsSSc_3_2 c) f

/-! ### Stage 3: the partner's offsets are the device's own, and the loads from the receive buffer read the pieces -/

theorem off52_peer : ∀ c : Dev nD, k0_off52 (peer 0 3 c) = k0_off52 c := by decide +kernel
theorem dst_rs_3_0_0_peer (c : Dev nD) : dst_rs_3_0_0 (peer 0 3 c) = dst_rs_3_0_0 c := by
  have h := off52_peer c
  unfold dst_rs_3_0_0
  congr 2
theorem off69_eq_off52 : ∀ c : Dev nD, k0_off69 c = k0_off52 c := by decide +kernel
theorem rsLoad_3_0_0 (c : Dev nD) :
    ((Memref.whole cc0_scratch4 : Memref sig .tc .vmem S64x1024 .bf16).access (Rect.unit (s := S64x1024) (k0_off69 c) S32x384.size (k0_off69_inb c))).set
      = (dst_rs_3_0_0 (peer 0 3 c)).view.set := by
  have h : k0_off69 c = k0_off52 (peer 0 3 c) := (off69_eq_off52 c).trans (off52_peer c).symm
  refine (View.set_slice_whole _ _).trans (Eq.trans ?_ (View.set_slice_whole _ _).symm)
  congr 3

theorem off53_peer : ∀ c : Dev nD, k0_off53 (peer 0 3 c) = k0_off53 c := by decide +kernel
theorem dst_rs_3_0_1_peer (c : Dev nD) : dst_rs_3_0_1 (peer 0 3 c) = dst_rs_3_0_1 c := by
  have h := off53_peer c
  unfold dst_rs_3_0_1
  congr 2
theorem off75_eq_off53 : ∀ c : Dev nD, k0_off75 c = k0_off53 c := by decide +kernel
theorem rsLoad_3_0_1 (c : Dev nD) :
    ((Memref.whole cc0_scratch4 : Memref sig .tc .vmem S64x1024 .bf16).access (Rect.unit (s := S64x1024) (k0_off75 c) S32x384.size (k0_off75_inb c))).set
      = (dst_rs_3_0_1 (peer 0 3 c)).view.set := by
  have h : k0_off75 c = k0_off53 (peer 0 3 c) := (off75_eq_off53 c).trans (off53_peer c).symm
  refine (View.set_slice_whole _ _).trans (Eq.trans ?_ (View.set_slice_whole _ _).symm)
  congr 3

theorem off56_peer : ∀ c : Dev nD, k0_off56 (peer 1 3 c) = k0_off56 c := by decide +kernel
theorem dst_rs_3_1_0_peer (c : Dev nD) : dst_rs_3_1_0 (peer 1 3 c) = dst_rs_3_1_0 c := by
  have h := off56_peer c
  unfold dst_rs_3_1_0
  congr 2
theorem off71_eq_off56 : ∀ c : Dev nD, k0_off71 c = k0_off56 c := by decide +kernel
theorem rsLoad_3_1_0 (c : Dev nD) :
    ((Memref.whole cc0_scratch4 : Memref sig .tc .vmem S64x1024 .bf16).access (Rect.unit (s := S64x1024) (k0_off71 c) S32x384.size (k0_off71_inb c))).set
      = (dst_rs_3_1_0 (peer 1 3 c)).view.set := by
  have h : k0_off71 c = k0_off56 (peer 1 3 c) := (off71_eq_off56 c).trans (off56_peer c).symm
  refine (View.set_slice_whole _ _).trans (Eq.trans ?_ (View.set_slice_whole _ _).symm)
  congr 3

theorem off57_peer : ∀ c : Dev nD, k0_off57 (peer 1 3 c) = k0_off57 c := by decide +kernel
theorem dst_rs_3_1_1_peer (c : Dev nD) : dst_rs_3_1_1 (peer 1 3 c) = dst_rs_3_1_1 c := by
  have h := off57_peer c
  unfold dst_rs_3_1_1
  congr 2
theorem off77_eq_off57 : ∀ c : Dev nD, k0_off77 c = k0_off57 c := by decide +kernel
theorem rsLoad_3_1_1 (c : Dev nD) :
    ((Memref.whole cc0_scratch4 : Memref sig .tc .vmem S64x1024 .bf16).access (Rect.unit (s := S64x1024) (k0_off77 c) S32x384.size (k0_off77_inb c))).set
      = (dst_rs_3_1_1 (peer 1 3 c)).view.set := by
  have h : k0_off77 c = k0_off57 (peer 1 3 c) := (off77_eq_off57 c).trans (off57_peer c).symm
  refine (View.set_slice_whole _ _).trans (Eq.trans ?_ (View.set_slice_whole _ _).symm)
  congr 3

theorem off60_peer : ∀ c : Dev nD, k0_off60 (peer 2 3 c) = k0_off60 c := by decide +kernel
theorem dst_rs_3_2_0_peer (c : Dev nD) : dst_rs_3_2_0 (peer 2 3 c) = dst_rs_3_2_0 c := by
  have h := off60_peer c
  unfold dst_rs_3_2_0
  congr 2
theorem off73_eq_off60 : ∀ c : Dev nD, k0_off73 c = k0_off60 c := by decide +kernel
theorem rsLoad_3_2_0 (c : Dev nD) :
    ((Memref.whole cc0_scratch4 : Memref sig .tc .vmem S64x1024 .bf16).access (Rect.unit (s := S64x1024) (k0_off73 c) S32x256.size (k0_off73_inb c))).set
      = (dst_rs_3_2_0 (peer 2 3 c)).view.set := by
  have h : k0_off73 c = k0_off60 (peer 2 3 c) := (off73_eq_off60 c).trans (off60_peer c).symm
  refine (View.set_slice_whole _ _).trans (Eq.trans ?_ (View.set_slice_whole _ _).symm)
  congr 3

theorem off61_peer : ∀ c : Dev nD, k0_off61 (peer 2 3 c) = k0_off61 c := by decide +kernel
theorem dst_rs_3_2_1_peer (c : Dev nD) : dst_rs_3_2_1 (peer 2 3 c) = dst_rs_3_2_1 c := by
  have h := off61_peer c
  unfold dst_rs_3_2_1
  congr 2
theorem off79_eq_off61 : ∀ c : Dev nD, k0_off79 c = k0_off61 c := by decide +kernel
theorem rsLoad_3_2_1 (c : Dev nD) :
    ((Memref.whole cc0_scratch4 : Memref sig .tc .vmem S64x1024 .bf16).access (Rect.unit (s := S64x1024) (k0_off79 c) S32x256.size (k0_off79_inb c))).set
      = (dst_rs_3_2_1 (peer 2 3 c)).view.set := by
  have h : k0_off79 c = k0_off61 (peer 2 3 c) := (off79_eq_off61 c).trans (off61_peer c).symm
  refine (View.set_slice_whole _ _).trans (Eq.trans ?_ (View.set_slice_whole _ _).symm)
  congr 3

/-! ## Stage 4: buffers of 32 rows -/

/-- The three column blocks are pairwise disjoint and cover the buffer. -/
theorem cols_4 :
    (Disjoint (Rect.unit (s := S32x1024) ![0, 0] S32x384.size inb_S32x1024_S32x384_0_0).set (Rect.unit (s := S32x1024) ![0, 384] S32x384.size inb_S32x1024_S32x384_0_384).set ∧ Disjoint (Rect.unit (s := S32x1024) ![0, 0] S32x384.size inb_S32x1024_S32x384_0_0).set (Rect.unit (s := S32x1024) ![0, 768] S32x256.size inb_S32x1024_S32x256_0_768).set ∧ Disjoint (Rect.unit (s := S32x1024) ![0, 384] S32x384.size inb_S32x1024_S32x384_0_384).set (Rect.unit (s := S32x1024) ![0, 768] S32x256.size inb_S32x1024_S32x256_0_768).set) ∧ (Rect.unit (s := S32x1024) ![0, 0] S32x384.size inb_S32x1024_S32x384_0_0).set ∪ ((Rect.unit (s := S32x1024) ![0, 384] S32x384.size inb_S32x1024_S32x384_0_384).set ∪ (Rect.unit (s := S32x1024) ![0, 768] S32x256.size inb_S32x1024_S32x256_0_768).set) = Finset.univ :=
  cols_part (by decide) (by decide)

/-- Column block 0 of the stage's send buffer: the positions its store goes through. -/
abbrev ssCol_4_0 : Finset S32x1024.Idx := ((Memref.whole cc0_scratch10 : Memref sig .tc .vmem S32x1024 .bf16).access (Rect.unit (s := S32x1024) ![0, 0] S32x384.size inb_S32x1024_S32x384_0_0)).set
theorem ssCol_4_0_eq : ssCol_4_0 = (Rect.unit (s := S32x1024) ![0, 0] S32x384.size inb_S32x1024_S32x384_0_0).set := View.set_slice_whole _ _

/-- Column block 1 of the stage's send buffer: the positions its store goes through. -/
abbrev ssCol_4_1 : Finset S32x1024.Idx := ((Memref.whole cc0_scratch10 : Memref sig .tc .vmem S32x1024 .bf16).access (Rect.unit (s := S32x1024) ![0, 384] S32x384.size inb_S32x1024_S32x384_0_384)).set
theorem ssCol_4_1_eq : ssCol_4_1 = (Rect.unit (s := S32x1024) ![0, 384] S32x384.size inb_S32x1024_S32x384_0_384).set := View.set_slice_whole _ _

/-- Column block 2 of the stage's send buffer: the positions its store goes through. -/
abbrev ssCol_4_2 : Finset S32x1024.Idx := ((Memref.whole cc0_scratch10 : Memref sig .tc .vmem S32x1024 .bf16).access (Rect.unit (s := S32x1024) ![0, 768] S32x256.size inb_S32x1024_S32x256_0_768)).set
theorem ssCol_4_2_eq : ssCol_4_2 = (Rect.unit (s := S32x1024) ![0, 768] S32x256.size inb_S32x1024_S32x256_0_768).set := View.set_slice_whole _ _

theorem colsSS_4 : (Disjoint ssCol_4_0 ssCol_4_1 ∧ Disjoint ssCol_4_0 ssCol_4_2 ∧ Disjoint ssCol_4_1 ssCol_4_2) ∧ ssCol_4_0 ∪ (ssCol_4_1 ∪ ssCol_4_2) = Finset.univ :=
  part3_congr ssCol_4_0_eq ssCol_4_1_eq ssCol_4_2_eq rfl cols_4

/-- At the last stage the pieces are the column blocks. -/
theorem colsRS_4 (c : Dev nD) : (Disjoint (dst_rs_4_0_0 c).view.set (dst_rs_4_1_0 c).view.set ∧ Disjoint (dst_rs_4_0_0 c).view.set (dst_rs_4_2_0 c).view.set ∧ Disjoint (dst_rs_4_1_0 c).view.set (dst_rs_4_2_0 c).view.set) ∧ (dst_rs_4_0_0 c).view.set ∪ ((dst_rs_4_1_0 c).view.set ∪ (dst_rs_4_2_0 c).view.set) = Finset.univ :=
  part3_congr (View.set_slice_whole _ _) (View.set_slice_whole _ _) (View.set_slice_whole _ _) rfl cols_4
theorem colsSSv_4 (c : Dev nD) : (Disjoint (src_rs_4_0_0 c).view.set (src_rs_4_1_0 c).view.set ∧ Disjoint (src_rs_4_0_0 c).view.set (src_rs_4_2_0 c).view.set ∧ Disjoint (src_rs_4_1_0 c).view.set (src_rs_4_2_0 c).view.set) ∧ (src_rs_4_0_0 c).view.set ∪ ((src_rs_4_1_0 c).view.set ∪ (src_rs_4_2_0 c).view.set) = Finset.univ :=
  part3_congr (View.set_slice_whole _ _) (View.set_slice_whole _ _) (View.set_slice_whole _ _) rfl cols_4

/-- The stage's receive buffer, lent piece by piece at the partners' offsets. -/
theorem rs_split_4 (c : Dev nD) :
    (iprop(∃ f : Buf (Elt F) ((c : Thread nD τ).loc cc0_scratch5), ((c : Thread nD τ).loc cc0_scratch5) ↦{fullShare} f) : sProp 𝕄)
      ⊢ iprop(loanV c (dst_rs_4_0_0 (peer 0 4 c)) ∗ loanV c (dst_rs_4_1_0 (peer 1 4 c)) ∗ loanV c (dst_rs_4_2_0 (peer 2 4 c))) :=
  any_split3 (F := F) (ℓ := ((c : Thread nD τ).loc cc0_scratch5)) (q := fullShare) (colsRS_4 c)

theorem rs_join_4 (c : Dev nD) :
    (iprop(loanV c (dst_rs_4_0_0 (peer 0 4 c)) ∗ loanV c (dst_rs_4_1_0 (peer 1 4 c)) ∗ loanV c (dst_rs_4_2_0 (peer 2 4 c))) : sProp 𝕄)
      ⊢ iprop(∃ f : Buf (Elt F) ((c : Thread nD τ).loc cc0_scratch5), ((c : Thread nD τ).loc cc0_scratch5) ↦{fullShare} f) :=
  any_join3 (F := F) (ℓ := ((c : Thread nD τ).loc cc0_scratch5)) (q := fullShare) (colsRS_4 c)

/-- The stage's send buffer, piece by piece at the device's own offsets. -/
theorem ss_split_4 (c : Dev nD) :
    (iprop(∃ f : Buf (Elt F) ((c : Thread nD τ).loc cc0_scratch10), ((c : Thread nD τ).loc cc0_scratch10) ↦{fullShare} f) : sProp 𝕄)
      ⊢ iprop(loanV c (src_rs_4_0_0 c) ∗ loanV c (src_rs_4_1_0 c) ∗ loanV c (src_rs_4_2_0 c)) :=
  any_split3 (F := F) (ℓ := ((c : Thread nD τ).loc cc0_scratch10)) (q := fullShare) (colsSSv_4 c)

theorem ss_join_4 (c : Dev nD) :
    (iprop(loanV c (src_rs_4_0_0 c) ∗ loanV c (src_rs_4_1_0 c) ∗ loanV c (src_rs_4_2_0 c)) : sProp 𝕄)
      ⊢ iprop(∃ f : Buf (Elt F) ((c : Thread nD τ).loc cc0_scratch10), ((c : Thread nD τ).loc cc0_scratch10) ↦{fullShare} f) :=
  any_join3 (F := F) (ℓ := ((c : Thread nD τ).loc cc0_scratch10)) (q := fullShare) (colsSSv_4 c)

/-- The send buffer into the column blocks its stores go through, and back. -/
theorem ss_cols_4 (c : Dev nD) :
    (iprop(∃ f : Buf (Elt F) ((c : Thread nD τ).loc cc0_scratch10), ((c : Thread nD τ).loc cc0_scratch10) ↦{fullShare} f) : sProp 𝕄)
      ⊢ iprop((∃ f : Buf (Elt F) ((c : Thread nD τ).loc cc0_scratch10), ((c : Thread nD τ).loc cc0_scratch10) ↦[ssCol_4_0]{fullShare} f) ∗ (∃ f : Buf (Elt F) ((c : Thread nD τ).loc cc0_scratch10), ((c : Thread nD τ).loc cc0_scratch10) ↦[ssCol_4_1]{fullShare} f) ∗ (∃ f : Buf (Elt F) ((c : Thread nD τ).loc cc0_scratch10), ((c : Thread nD τ).loc cc0_scratch10) ↦[ssCol_4_2]{fullShare} f)) :=
  any_split3 (F := F) (ℓ := ((c : Thread nD τ).loc cc0_scratch10)) (q := fullShare) colsSS_4

theorem ss_cols_join_4 (c : Dev nD) :
    (iprop((∃ f : Buf (Elt F) ((c : Thread nD τ).loc cc0_scratch10), ((c : Thread nD τ).loc cc0_scratch10) ↦[ssCol_4_0]{fullShare} f) ∗ (∃ f : Buf (Elt F) ((c : Thread nD τ).loc cc0_scratch10), ((c : Thread nD τ).loc cc0_scratch10) ↦[ssCol_4_1]{fullShare} f) ∗ (∃ f : Buf (Elt F) ((c : Thread nD τ).loc cc0_scratch10), ((c : Thread nD τ).loc cc0_scratch10) ↦[ssCol_4_2]{fullShare} f)) : sProp 𝕄)
      ⊢ iprop(∃ f : Buf (Elt F) ((c : Thread nD τ).loc cc0_scratch10), ((c : Thread nD τ).loc cc0_scratch10) ↦{fullShare} f) :=
  any_join3 (F := F) (ℓ := ((c : Thread nD τ).loc cc0_scratch10)) (q := fullShare) colsSS_4

/-- The same at named contents and any share. -/
theorem ss_cols_at_4 (c : Dev nD) (q : PosShare TreeShare) (f : Buf (Elt F) ((c : Thread nD τ).loc cc0_scratch10)) :
    ((((c : Thread nD τ).loc cc0_scratch10) ↦{q} f) : sProp 𝕄)
      ⊣⊢ iprop((((c : Thread nD τ).loc cc0_scratch10) ↦[ssCol_4_0]{q} f) ∗ (((c : Thread nD τ).loc cc0_scratch10) ↦[ssCol_4_1]{q} f) ∗ (((c : Thread nD τ).loc cc0_scratch10) ↦[ssCol_4_2]{q} f)) :=
  at_cut3 (F := F) (ℓ := ((c : Thread nD τ).loc cc0_scratch10)) (q := q) colsSS_4 f

/-- At the last stage column block 0 is the one piece the device sends. -/
theorem ss_rows_4_0 (c : Dev nD) :
    (iprop(∃ f : Buf (Elt F) ((c : Thread nD τ).loc cc0_scratch10), ((c : Thread nD τ).loc cc0_scratch10) ↦[ssCol_4_0]{fullShare} f) : sProp 𝕄) = loanV c (src_rs_4_0_0 c) := rfl

/-- At the last stage column block 1 is the one piece the device sends. -/
theorem ss_rows_4_1 (c : Dev nD) :
    (iprop(∃ f : Buf (Elt F) ((c : Thread nD τ).loc cc0_scratch10), ((c : Thread nD τ).loc cc0_scratch10) ↦[ssCol_4_1]{fullShare} f) : sProp 𝕄) = loanV c (src_rs_4_1_0 c) := rfl

/-- At the last stage column block 2 is the one piece the device sends. -/
theorem ss_rows_4_2 (c : Dev nD) :
    (iprop(∃ f : Buf (Elt F) ((c : Thread nD τ).loc cc0_scratch10), ((c : Thread nD τ).loc cc0_scratch10) ↦[ssCol_4_2]{fullShare} f) : sProp 𝕄) = loanV c (src_rs_4_2_0 c) := rfl

/-! ### Stage 4: the partner's offsets are the device's own, and the loads from the receive buffer read the pieces -/

theorem dst_rs_4_0_0_peer (c : Dev nD) : dst_rs_4_0_0 (peer 0 4 c) = dst_rs_4_0_0 c := rfl
theorem rsLoad_4_0_0 (c : Dev nD) :
    ((Memref.whole cc0_scratch5 : Memref sig .tc .vmem S32x1024 .bf16).access (Rect.unit (s := S32x1024) ![0, 0] S32x384.size inb_S32x1024_S32x384_0_0)).set
      = (dst_rs_4_0_0 (peer 0 4 c)).view.set := rfl

theorem dst_rs_4_1_0_peer (c : Dev nD) : dst_rs_4_1_0 (peer 1 4 c) = dst_rs_4_1_0 c := rfl
theorem rsLoad_4_1_0 (c : Dev nD) :
    ((Memref.whole cc0_scratch5 : Memref sig .tc .vmem S32x1024 .bf16).access (Rect.unit (s := S32x1024) ![0, 384] S32x384.size inb_S32x1024_S32x384_0_384)).set
      = (dst_rs_4_1_0 (peer 1 4 c)).view.set := rfl

theorem dst_rs_4_2_0_peer (c : Dev nD) : dst_rs_4_2_0 (peer 2 4 c) = dst_rs_4_2_0 c := rfl
theorem rsLoad_4_2_0 (c : Dev nD) :
    ((Memref.whole cc0_scratch5 : Memref sig .tc .vmem S32x1024 .bf16).access (Rect.unit (s := S32x1024) ![0, 768] S32x256.size inb_S32x1024_S32x256_0_768)).set
      = (dst_rs_4_2_0 (peer 2 4 c)).view.set := rfl

end Cert.Kernel.RegionsRS

end
-- ==== Proof.RegionsOutK.lean ====
/-
  The result buffer during the gathering phase.

  After the summing phase device `c` owns, in each of the three column blocks `k`, the 32 rows
  `[lo k c 5, lo k c 5 + 32)` of the result. The gathering phase doubles this range five times: at
  exchange `s` (4, 3, 2, 1, 0) the device sends the rows it holds, `[lo k c (s + 1), + 2 · half (s + 1))`
  (at exchange 4, its own 32 rows), to the partner `peer k s c`, and the partner writes its own rows of the
  same size into the sibling range. The rows a device holds before exchange `s` are sent as two pieces: the
  range it held one exchange earlier, and the range the previous exchange brought.

  This module states that geometry on the printed slices of the buffer, as identities between sets of
  positions, and lifts it to assertions: a piece lent (whole, at any contents) or held (at a share, under a
  contract on the values) is the two pieces it is made of; the buffer is the thirty pieces — the device's
  own rows of the three column blocks and the twenty-seven landing places —, and the thirty pieces, filled,
  are the buffer.
-/
import proofs.«900879_g7700000000000880_dist_matmul_gelu_kshard_i_m1024_n1024_k512_v7x_i32_bf16_1_alg».proof.Proof.HeldK
import proofs.«900879_g7700000000000880_dist_matmul_gelu_kshard_i_m1024_n1024_k512_v7x_i32_bf16_1_alg».proof.Proof.GeoK
import Idealize.ShloMosaic.Rules.PointsTo
import Mathlib.Data.Finset.Piecewise
import Mathlib.Data.Finset.Disjoint
import Mathlib.Data.Finset.Lattice.Basic
import Mathlib.Data.Fin.VecNotation

noncomputable section

namespace Cert.Kernel.RegionsOut

open Cert.Kernel Cert.Kernel.Gen Cert.Kernel.Proto Cert.Kernel.Tab Cert.Kernel.Held
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The first rows, unfolded: `lo k c (t + 1) = lo k c t + bit k t c * half t` -/

theorem lo5 (k : Fin 3) (c : Dev nD) : lo k c 5 = lo k c 4 + bit k 4 c * 32 := rfl
theorem lo4 (k : Fin 3) (c : Dev nD) : lo k c 4 = lo k c 3 + bit k 3 c * 64 := rfl
theorem lo3 (k : Fin 3) (c : Dev nD) : lo k c 3 = lo k c 2 + bit k 2 c * 128 := rfl
theorem lo2 (k : Fin 3) (c : Dev nD) : lo k c 2 = lo k c 1 + bit k 1 c * 256 := rfl
theorem lo1 (k : Fin 3) (c : Dev nD) : lo k c 1 = bit k 0 c * 512 := by
  show 0 + bit k 0 c * 512 = _; omega

theorem col0_0 : col0 0 = 0 := rfl
theorem col0_1 : col0 1 = 384 := rfl
theorem col0_2 : col0 2 = 768 := rfl
theorem colw_0 : colw 0 = 384 := rfl
theorem colw_1 : colw 1 = 384 := rfl
theorem colw_2 : colw 2 = 256 := rfl

/-- Membership in a unit-stride slice of the result buffer, axis by axis. -/
theorem mem_out {off size : Fin 2 → ℕ} {inb} {i : S1024x1024.Idx} :
    i ∈ ((View.whole cc0_stg2_0 : View sig .tc .vmem S1024x1024 .bf16).slice
          (Rect.unit (s := S1024x1024) off size inb)).set ↔
      (off 0 ≤ (i 0).val ∧ (i 0).val < off 0 + size 0) ∧ (off 1 ≤ (i 1).val ∧ (i 1).val < off 1 + size 1) :=
  (Finset.ext_iff.mp (View.set_slice_whole cc0_stg2_0 (Rect.unit (s := S1024x1024) off size inb)) i).trans
    (Rect.mem_set_unit.trans Fin.forall_fin_two)

/-! ## Pieces of one buffer, as assertions on sets of positions -/

section Pieces

variable {ℓ : Loc nD τ sig} {I A B : Finset (Idx ℓ)} {q : PosShare TreeShare}

/-- The positions `I` of the buffer at `ℓ`, whole, at some contents. -/
def slotS (ℓ : Loc nD τ sig) (I : Finset (Idx ℓ)) : sProp 𝕄 :=
  iprop(∃ f : Buf (Elt F) ℓ, ℓ ↦[I]{fullShare} f)

/-- The positions `I` of the buffer at `ℓ`, at share `q`, holding values every one of which satisfies `P`
    at its position. -/
def heldS (ℓ : Loc nD τ sig) (I : Finset (Idx ℓ)) (q : PosShare TreeShare)
    (P : Idx ℓ → Elt F ℓ.ty.elt → Prop) : sProp 𝕄 :=
  iprop(∃ f : Buf (Elt F) ℓ, (ℓ ↦[I]{q} f) ∗ ⌜∀ i ∈ I, P i (f i)⌝)

omit [FloatOps F] in
/-- Two disjoint sets of positions at some contents are their union at some contents, and back. -/
theorem slotS_union (hd : Disjoint A B) :
    slotS (F := F) ℓ (A ∪ B) ⊣⊢ iprop(slotS ℓ A ∗ slotS ℓ B) := by
  unfold slotS
  constructor
  · iintro ⟨%f, H⟩
    ihave H' := (pointsTo_union hd).1 $$ H
    icases H' with ⟨HA, HB⟩
    isplitl [HA]
    · iexists f; iexact HA
    · iexists f; iexact HB
  · iintro ⟨⟨%f, HA⟩, ⟨%g, HB⟩⟩
    iexists (B.piecewise g f)
    iapply (pointsTo_join hd); isplitl [HA]
    · iexact HA
    · iexact HB

omit [FloatOps F] in
/-- The same with the contract on the values: it holds on the union exactly when it holds on both parts. -/
theorem heldS_union (hd : Disjoint A B) (P : Idx ℓ → Elt F ℓ.ty.elt → Prop) :
    heldS (F := F) ℓ (A ∪ B) q P ⊣⊢ iprop(heldS ℓ A q P ∗ heldS ℓ B q P) := by
  unfold heldS
  constructor
  · iintro ⟨%f, H, %hP⟩
    ihave H' := (pointsTo_union hd).1 $$ H
    icases H' with ⟨HA, HB⟩
    isplitl [HA]
    · iexists f; isplitl [HA]
      · iexact HA
      · ipureintro; exact fun i hi => hP i (Finset.mem_union_left _ hi)
    · iexists f; isplitl [HB]
      · iexact HB
      · ipureintro; exact fun i hi => hP i (Finset.mem_union_right _ hi)
  · iintro ⟨⟨%f, HA, %hf⟩, ⟨%g, HB, %hg⟩⟩
    iexists (B.piecewise g f)
    isplitl [HA HB]
    · iapply (pointsTo_join hd); isplitl [HA]
      · iexact HA
      · iexact HB
    · ipureintro; intro i hi; by_cases hB : i ∈ B
      · rw [Finset.piecewise_eq_of_mem _ _ _ hB]; exact hg i hB
      · rw [Finset.piecewise_eq_of_notMem _ _ _ hB]
        exact hf i ((Finset.mem_union.mp hi).resolve_right hB)

omit [FloatOps F] in
/-- A piece held whole is held as its two half shares, and back. -/
theorem pointsTo_halves (f : Buf (Elt F) ℓ) :
    (ℓ ↦[I]{fullShare} f : sProp 𝕄) ⊣⊢ iprop((ℓ ↦[I]{fullShare.left} f) ∗ ℓ ↦[I]{fullShare.right} f) :=
  pointsTo_share (PosShare.mem_left_op_right fullShare)

omit [FloatOps F] in
/-- Every position held under the contract: the buffer holds values that satisfy it everywhere. -/
theorem heldS_univ (P : Idx ℓ → Elt F ℓ.ty.elt → Prop) :
    heldS (F := F) ℓ Finset.univ q P ⊢ iprop(∃ X : Buf (Elt F) ℓ, ⌜∀ i, P i (X i)⌝ ∗ ℓ ↦{q} X) := by
  unfold heldS
  iintro ⟨%X, H, %hX⟩
  iexists X
  isplitr
  · ipureintro; exact fun i => hX i (Finset.mem_univ i)
  · iexact H

end Pieces

section Shares

open PCS

variable {ℓ : Loc nD τ sig} {I : Finset (Idx ℓ)}

omit [FloatOps F] in
/-- Consecutive exchanges take opposite halves of the share: a piece held whole is the share of the one
    and the share of the other. -/
theorem pointsTo_shr (s t : Fin 5) (h : t.val = s.val + 1) (f : Buf (Elt F) ℓ) :
    (ℓ ↦[I]{fullShare} f : sProp 𝕄) ⊣⊢ iprop((ℓ ↦[I]{shr s} f) ∗ ℓ ↦[I]{shr t} f) := by
  by_cases hs : s.val % 2 = 0
  · have ht : ¬ t.val % 2 = 0 := by omega
    rw [shr, shr, if_pos hs, if_neg ht]
    exact pointsTo_share (PosShare.mem_left_op_right fullShare)
  · have ht : t.val % 2 = 0 := by omega
    rw [shr, shr, if_neg hs, if_pos ht]
    exact pointsTo_share (PCS.mem_op_comm.mp (PosShare.mem_left_op_right fullShare))

omit [FloatOps F] in
/-- Two complementary shares of one piece, each under the contract, are the piece whole under the contract,
    and back: the two holders agree on the contents. -/
theorem heldS_share {q q₁ q₂ : PosShare TreeShare} (hq : q ∈ q₁ ·? q₂) (P : Idx ℓ → Elt F ℓ.ty.elt → Prop) :
    heldS (F := F) ℓ I q P ⊣⊢ iprop(heldS ℓ I q₁ P ∗ heldS ℓ I q₂ P) := by
  unfold heldS
  constructor
  · iintro ⟨%f, H, %hP⟩
    ihave H' := (pointsTo_share hq).1 $$ H
    icases H' with ⟨HA, HB⟩
    isplitl [HA]
    · iexists f; isplitl [HA]
      · iexact HA
      · ipureintro; exact hP
    · iexists f; isplitl [HB]
      · iexact HB
      · ipureintro; exact hP
  · iintro ⟨⟨%f, HA, %hf⟩, ⟨%g, HB, %hg⟩⟩
    icombine HA HB gives %hfg
    have e : (ℓ ↦[I]{q₂} g : sProp 𝕄) = ℓ ↦[I]{q₂} f :=
      pointsTo_congr fun i hi => ((hfg i (Finset.mem_inter.mpr ⟨hi, hi⟩)).1).symm
    ihave HB := (Entails.of_eq e) $$ HB
    iexists f
    isplitl [HA HB]
    · iapply (pointsTo_share hq).2; isplitl [HA]
      · iexact HA
      · iexact HB
    · ipureintro; exact hf

omit [FloatOps F] in
theorem heldS_shr (s t : Fin 5) (h : t.val = s.val + 1) (P : Idx ℓ → Elt F ℓ.ty.elt → Prop) :
    heldS (F := F) ℓ I fullShare P ⊣⊢ iprop(heldS ℓ I (shr s) P ∗ heldS ℓ I (shr t) P) := by
  by_cases hs : s.val % 2 = 0
  · have ht : ¬ t.val % 2 = 0 := by omega
    rw [shr, shr, if_pos hs, if_neg ht]
    exact heldS_share (PosShare.mem_left_op_right fullShare) P
  · have ht : t.val % 2 = 0 := by omega
    rw [shr, shr, if_neg hs, if_pos ht]
    exact heldS_share (PCS.mem_op_comm.mp (PosShare.mem_left_op_right fullShare)) P

end Shares

/-! ## Pieces named by a slice -/

section Bridge

variable {sh : Shape} {e : EltTy}

omit [FloatOps F] in
theorem heldV_eq (c : Dev nD) (v : Memref sig .tc .vmem sh e) (q : PosShare TreeShare)
    (P : v.view.ty.Idx → Elt F v.view.ty.elt → Prop) :
    heldV c v q P = heldS (F := F) (v.view.loc (c : Thread nD τ)) v.view.set q P := rfl

omit [FloatOps F] in
theorem loanV_eq (c : Dev nD) (v : Memref sig .tc .vmem sh e) :
    loanV (F := F) c v = slotS (v.view.loc (c : Thread nD τ)) v.view.set := rfl

omit [FloatOps F] in
/-- A piece held whole under the contract is the shares of two consecutive exchanges, each under the contract. -/
theorem heldV_shr (c : Dev nD) (v : Memref sig .tc .vmem sh e) (s t : Fin 5) (h : t.val = s.val + 1)
    (P : v.view.ty.Idx → Elt F v.view.ty.elt → Prop) :
    heldV c v fullShare P ⊣⊢ iprop(heldV c v (shr s) P ∗ heldV c v (shr t) P) :=
  heldS_shr (F := F) (ℓ := v.view.loc (c : Thread nD τ)) (I := v.view.set) s t h P

end Bridge

/-! ## The rows of the gathering phase

Before exchange `s` device `c` holds, in column block `k`, the rows of its block after `s + 1` halvings;
the piece it sends first is the part it held one exchange earlier, the piece it sends second is the
part the previous exchange brought. Each identity below says so of the printed slices. -/

/-- exchange 3, column block 0: the two pieces are apart -/
theorem src_ag_3_0_disj (c : Dev nD) :
    Disjoint (src_ag_3_0_0 c).view.set (src_ag_3_0_1 c).view.set := by
  refine Finset.disjoint_left.mpr fun (i : S1024x1024.Idx) hi hj => ?_
  have h1 := mem_out.mp hi
  have h2 := mem_out.mp hj
  simp only [Geo.off80_eq, Geo.off83_eq, lo5, lo4, lo3, lo2, lo1, Matrix.cons_val_zero, Matrix.cons_val_one, Matrix.head_cons] at h1 h2
  have hb0 := bit_le_one 0 0 c
  have hb1 := bit_le_one 0 1 c
  have hb2 := bit_le_one 0 2 c
  have hb3 := bit_le_one 0 3 c
  have hb4 := bit_le_one 0 4 c
  omega
theorem dst_ag_3_0_disj (p : Dev nD) :
    Disjoint (dst_ag_3_0_0 p).view.set (dst_ag_3_0_1 p).view.set := src_ag_3_0_disj p

/-- exchange 2, column block 0: the two pieces are apart -/
theorem src_ag_2_0_disj (c : Dev nD) :
    Disjoint (src_ag_2_0_0 c).view.set (src_ag_2_0_1 c).view.set := by
  refine Finset.disjoint_left.mpr fun (i : S1024x1024.Idx) hi hj => ?_
  have h1 := mem_out.mp hi
  have h2 := mem_out.mp hj
  simp only [Geo.off86_eq, Geo.off87_eq, lo5, lo4, lo3, lo2, lo1, Matrix.cons_val_zero, Matrix.cons_val_one, Matrix.head_cons] at h1 h2
  have hb0 := bit_le_one 0 0 c
  have hb1 := bit_le_one 0 1 c
  have hb2 := bit_le_one 0 2 c
  have hb3 := bit_le_one 0 3 c
  have hb4 := bit_le_one 0 4 c
  omega
theorem dst_ag_2_0_disj (p : Dev nD) :
    Disjoint (dst_ag_2_0_0 p).view.set (dst_ag_2_0_1 p).view.set := src_ag_2_0_disj p

/-- exchange 1, column block 0: the two pieces are apart -/
theorem src_ag_1_0_disj (c : Dev nD) :
    Disjoint (src_ag_1_0_0 c).view.set (src_ag_1_0_1 c).view.set := by
  refine Finset.disjoint_left.mpr fun (i : S1024x1024.Idx) hi hj => ?_
  have h1 := mem_out.mp hi
  have h2 := mem_out.mp hj
  simp only [Geo.off92_eq, Geo.off93_eq, lo5, lo4, lo3, lo2, lo1, Matrix.cons_val_zero, Matrix.cons_val_one, Matrix.head_cons] at h1 h2
  have hb0 := bit_le_one 0 0 c
  have hb1 := bit_le_one 0 1 c
  have hb2 := bit_le_one 0 2 c
  have hb3 := bit_le_one 0 3 c
  have hb4 := bit_le_one 0 4 c
  omega
theorem dst_ag_1_0_disj (p : Dev nD) :
    Disjoint (dst_ag_1_0_0 p).view.set (dst_ag_1_0_1 p).view.set := src_ag_1_0_disj p

/-- exchange 0, column block 0: the two pieces are apart -/
theorem src_ag_0_0_disj (c : Dev nD) :
    Disjoint (src_ag_0_0_0 c).view.set (src_ag_0_0_1 c).view.set := by
  refine Finset.disjoint_left.mpr fun (i : S1024x1024.Idx) hi hj => ?_
  have h1 := mem_out.mp hi
  have h2 := mem_out.mp hj
  simp only [Geo.off98_eq, Geo.off99_eq, lo5, lo4, lo3, lo2, lo1, Matrix.cons_val_zero, Matrix.cons_val_one, Matrix.head_cons] at h1 h2
  have hb0 := bit_le_one 0 0 c
  have hb1 := bit_le_one 0 1 c
  have hb2 := bit_le_one 0 2 c
  have hb3 := bit_le_one 0 3 c
  have hb4 := bit_le_one 0 4 c
  omega
theorem dst_ag_0_0_disj (p : Dev nD) :
    Disjoint (dst_ag_0_0_0 p).view.set (dst_ag_0_0_1 p).view.set := src_ag_0_0_disj p

/-- exchange 2, column block 0: the first piece is the two pieces of exchange 3 -/
theorem src_ag_2_0_0_eq (c : Dev nD) :
    (src_ag_2_0_0 c).view.set = (src_ag_3_0_0 c).view.set ∪ (src_ag_3_0_1 c).view.set := by
  refine Finset.ext fun (i : S1024x1024.Idx) => ?_
  refine mem_out.trans (Iff.trans ?_ (Finset.mem_union.trans (or_congr mem_out mem_out)).symm)
  simp only [Geo.off86_eq, Geo.off80_eq, Geo.off83_eq, lo5, lo4, lo3, lo2, lo1, Matrix.cons_val_zero, Matrix.cons_val_one, Matrix.head_cons]
  have hb0 := bit_le_one 0 0 c
  have hb1 := bit_le_one 0 1 c
  have hb2 := bit_le_one 0 2 c
  have hb3 := bit_le_one 0 3 c
  have hb4 := bit_le_one 0 4 c
  omega

/-- exchange 1, column block 0: the first piece is the two pieces of exchange 2 -/
theorem src_ag_1_0_0_eq (c : Dev nD) :
    (src_ag_1_0_0 c).view.set = (src_ag_2_0_0 c).view.set ∪ (src_ag_2_0_1 c).view.set := by
  refine Finset.ext fun (i : S1024x1024.Idx) => ?_
  refine mem_out.trans (Iff.trans ?_ (Finset.mem_union.trans (or_congr mem_out mem_out)).symm)
  simp only [Geo.off92_eq, Geo.off86_eq, Geo.off87_eq, lo5, lo4, lo3, lo2, lo1, Matrix.cons_val_zero, Matrix.cons_val_one, Matrix.head_cons]
  have hb0 := bit_le_one 0 0 c
  have hb1 := bit_le_one 0 1 c
  have hb2 := bit_le_one 0 2 c
  have hb3 := bit_le_one 0 3 c
  have hb4 := bit_le_one 0 4 c
  omega

/-- exchange 0, column block 0: the first piece is the two pieces of exchange 1 -/
theorem src_ag_0_0_0_eq (c : Dev nD) :
    (src_ag_0_0_0 c).view.set = (src_ag_1_0_0 c).view.set ∪ (src_ag_1_0_1 c).view.set := by
  refine Finset.ext fun (i : S1024x1024.Idx) => ?_
  refine mem_out.trans (Iff.trans ?_ (Finset.mem_union.trans (or_congr mem_out mem_out)).symm)
  simp only [Geo.off98_eq, Geo.off92_eq, Geo.off93_eq, lo5, lo4, lo3, lo2, lo1, Matrix.cons_val_zero, Matrix.cons_val_one, Matrix.head_cons]
  have hb0 := bit_le_one 0 0 c
  have hb1 := bit_le_one 0 1 c
  have hb2 := bit_le_one 0 2 c
  have hb3 := bit_le_one 0 3 c
  have hb4 := bit_le_one 0 4 c
  omega

/-- exchange 3, column block 0: the first piece is the device's own rows -/
theorem src_ag_3_0_0_eq (c : Dev nD) : (src_ag_3_0_0 c).view.set = (src_ag_4_0_0 c).view.set := rfl

/-- exchange 2, column block 0: the second piece is what the partner of exchange 3 wrote -/
theorem src_ag_2_0_1_eq (c : Dev nD) :
    (src_ag_2_0_1 c).view.set =
      (dst_ag_3_0_0 (peer 0 3 c)).view.set ∪ (dst_ag_3_0_1 (peer 0 3 c)).view.set := by
  refine Finset.ext fun (i : S1024x1024.Idx) => ?_
  refine mem_out.trans (Iff.trans ?_ (Finset.mem_union.trans (or_congr mem_out mem_out)).symm)
  simp only [Geo.off87_eq, Geo.off80_eq, Geo.off83_eq, lo5, lo4, lo3, lo2, lo1, Matrix.cons_val_zero, Matrix.cons_val_one, Matrix.head_cons, bit_peer_self 0 3 c, bit_peer_lt 0 3 0 c (by decide), bit_peer_lt 0 3 1 c (by decide), bit_peer_lt 0 3 2 c (by decide), bit_peer_succ 0 3 4 c rfl]
  have hb0 := bit_le_one 0 0 c
  have hb1 := bit_le_one 0 1 c
  have hb2 := bit_le_one 0 2 c
  have hb3 := bit_le_one 0 3 c
  have hb4 := bit_le_one 0 4 c
  omega

/-- exchange 1, column block 0: the second piece is what the partner of exchange 2 wrote -/
theorem src_ag_1_0_1_eq (c : Dev nD) :
    (src_ag_1_0_1 c).view.set =
      (dst_ag_2_0_0 (peer 0 2 c)).view.set ∪ (dst_ag_2_0_1 (peer 0 2 c)).view.set := by
  refine Finset.ext fun (i : S1024x1024.Idx) => ?_
  refine mem_out.trans (Iff.trans ?_ (Finset.mem_union.trans (or_congr mem_out mem_out)).symm)
  simp only [Geo.off93_eq, Geo.off86_eq, Geo.off87_eq, lo5, lo4, lo3, lo2, lo1, Matrix.cons_val_zero, Matrix.cons_val_one, Matrix.head_cons, bit_peer_self 0 2 c, bit_peer_lt 0 2 0 c (by decide), bit_peer_lt 0 2 1 c (by decide), bit_peer_succ 0 2 3 c rfl]
  have hb0 := bit_le_one 0 0 c
  have hb1 := bit_le_one 0 1 c
  have hb2 := bit_le_one 0 2 c
  have hb3 := bit_le_one 0 3 c
  have hb4 := bit_le_one 0 4 c
  omega

/-- exchange 0, column block 0: the second piece is what the partner of exchange 1 wrote -/
theorem src_ag_0_0_1_eq (c : Dev nD) :
    (src_ag_0_0_1 c).view.set =
      (dst_ag_1_0_0 (peer 0 1 c)).view.set ∪ (dst_ag_1_0_1 (peer 0 1 c)).view.set := by
  refine Finset.ext fun (i : S1024x1024.Idx) => ?_
  refine mem_out.trans (Iff.trans ?_ (Finset.mem_union.trans (or_congr mem_out mem_out)).symm)
  simp only [Geo.off99_eq, Geo.off92_eq, Geo.off93_eq, lo5, lo4, lo3, lo2, lo1, Matrix.cons_val_zero, Matrix.cons_val_one, Matrix.head_cons, bit_peer_self 0 1 c, bit_peer_lt 0 1 0 c (by decide), bit_peer_succ 0 1 2 c rfl]
  have hb0 := bit_le_one 0 0 c
  have hb1 := bit_le_one 0 1 c
  have hb2 := bit_le_one 0 2 c
  have hb3 := bit_le_one 0 3 c
  have hb4 := bit_le_one 0 4 c
  omega

/-- exchange 3, column block 0: the second piece is what the partner of exchange 4 wrote -/
theorem src_ag_3_0_1_eq (c : Dev nD) :
    (src_ag_3_0_1 c).view.set = (dst_ag_4_0_0 (peer 0 4 c)).view.set := by
  refine Finset.ext fun (i : S1024x1024.Idx) => ?_
  refine mem_out.trans (Iff.trans ?_ mem_out.symm)
  simp only [Geo.off83_eq, Geo.off80_eq, lo5, lo4, lo3, lo2, lo1, Matrix.cons_val_zero, Matrix.cons_val_one, Matrix.head_cons, bit_peer_self 0 4 c, bit_peer_lt 0 4 0 c (by decide), bit_peer_lt 0 4 1 c (by decide), bit_peer_lt 0 4 2 c (by decide), bit_peer_lt 0 4 3 c (by decide)]

/-- exchange 3, column block 1: the two pieces are apart -/
theorem src_ag_3_1_disj (c : Dev nD) :
    Disjoint (src_ag_3_1_0 c).view.set (src_ag_3_1_1 c).view.set := by
  refine Finset.disjoint_left.mpr fun (i : S1024x1024.Idx) hi hj => ?_
  have h1 := mem_out.mp hi
  have h2 := mem_out.mp hj
  simp only [Geo.off81_eq, Geo.off84_eq, lo5, lo4, lo3, lo2, lo1, Matrix.cons_val_zero, Matrix.cons_val_one, Matrix.head_cons] at h1 h2
  have hb0 := bit_le_one 1 0 c
  have hb1 := bit_le_one 1 1 c
  have hb2 := bit_le_one 1 2 c
  have hb3 := bit_le_one 1 3 c
  have hb4 := bit_le_one 1 4 c
  omega
theorem dst_ag_3_1_disj (p : Dev nD) :
    Disjoint (dst_ag_3_1_0 p).view.set (dst_ag_3_1_1 p).view.set := src_ag_3_1_disj p

/-- exchange 2, column block 1: the two pieces are apart -/
theorem src_ag_2_1_disj (c : Dev nD) :
    Disjoint (src_ag_2_1_0 c).view.set (src_ag_2_1_1 c).view.set := by
  refine Finset.disjoint_left.mpr fun (i : S1024x1024.Idx) hi hj => ?_
  have h1 := mem_out.mp hi
  have h2 := mem_out.mp hj
  simp only [Geo.off88_eq, Geo.off89_eq, lo5, lo4, lo3, lo2, lo1, Matrix.cons_val_zero, Matrix.cons_val_one, Matrix.head_cons] at h1 h2
  have hb0 := bit_le_one 1 0 c
  have hb1 := bit_le_one 1 1 c
  have hb2 := bit_le_one 1 2 c
  have hb3 := bit_le_one 1 3 c
  have hb4 := bit_le_one 1 4 c
  omega
theorem dst_ag_2_1_disj (p : Dev nD) :
    Disjoint (dst_ag_2_1_0 p).view.set (dst_ag_2_1_1 p).view.set := src_ag_2_1_disj p

/-- exchange 1, column block 1: the two pieces are apart -/
theorem src_ag_1_1_disj (c : Dev nD) :
    Disjoint (src_ag_1_1_0 c).view.set (src_ag_1_1_1 c).view.set := by
  refine Finset.disjoint_left.mpr fun (i : S1024x1024.Idx) hi hj => ?_
  have h1 := mem_out.mp hi
  have h2 := mem_out.mp hj
  simp only [Geo.off94_eq, Geo.off95_eq, lo5, lo4, lo3, lo2, lo1, Matrix.cons_val_zero, Matrix.cons_val_one, Matrix.head_cons] at h1 h2
  have hb0 := bit_le_one 1 0 c
  have hb1 := bit_le_one 1 1 c
  have hb2 := bit_le_one 1 2 c
  have hb3 := bit_le_one 1 3 c
  have hb4 := bit_le_one 1 4 c
  omega
theorem dst_ag_1_1_disj (p : Dev nD) :
    Disjoint (dst_ag_1_1_0 p).view.set (dst_ag_1_1_1 p).view.set := src_ag_1_1_disj p

/-- exchange 0, column block 1: the two pieces are apart -/
theorem src_ag_0_1_disj (c : Dev nD) :
    Disjoint (src_ag_0_1_0 c).view.set (src_ag_0_1_1 c).view.set := by
  refine Finset.disjoint_left.mpr fun (i : S1024x1024.Idx) hi hj => ?_
  have h1 := mem_out.mp hi
  have h2 := mem_out.mp hj
  simp only [Geo.off100_eq, Geo.off101_eq, lo5, lo4, lo3, lo2, lo1, Matrix.cons_val_zero, Matrix.cons_val_one, Matrix.head_cons] at h1 h2
  have hb0 := bit_le_one 1 0 c
  have hb1 := bit_le_one 1 1 c
  have hb2 := bit_le_one 1 2 c
  have hb3 := bit_le_one 1 3 c
  have hb4 := bit_le_one 1 4 c
  omega
theorem dst_ag_0_1_disj (p : Dev nD) :
    Disjoint (dst_ag_0_1_0 p).view.set (dst_ag_0_1_1 p).view.set := src_ag_0_1_disj p

/-- exchange 2, column block 1: the first piece is the two pieces of exchange 3 -/
theorem src_ag_2_1_0_eq (c : Dev nD) :
    (src_ag_2_1_0 c).view.set = (src_ag_3_1_0 c).view.set ∪ (src_ag_3_1_1 c).view.set := by
  refine Finset.ext fun (i : S1024x1024.Idx) => ?_
  refine mem_out.trans (Iff.trans ?_ (Finset.mem_union.trans (or_congr mem_out mem_out)).symm)
  simp only [Geo.off88_eq, Geo.off81_eq, Geo.off84_eq, lo5, lo4, lo3, lo2, lo1, Matrix.cons_val_zero, Matrix.cons_val_one, Matrix.head_cons]
  have hb0 := bit_le_one 1 0 c
  have hb1 := bit_le_one 1 1 c
  have hb2 := bit_le_one 1 2 c
  have hb3 := bit_le_one 1 3 c
  have hb4 := bit_le_one 1 4 c
  omega

/-- exchange 1, column block 1: the first piece is the two pieces of exchange 2 -/
theorem src_ag_1_1_0_eq (c : Dev nD) :
    (src_ag_1_1_0 c).view.set = (src_ag_2_1_0 c).view.set ∪ (src_ag_2_1_1 c).view.set := by
  refine Finset.ext fun (i : S1024x1024.Idx) => ?_
  refine mem_out.trans (Iff.trans ?_ (Finset.mem_union.trans (or_congr mem_out mem_out)).symm)
  simp only [Geo.off94_eq, Geo.off88_eq, Geo.off89_eq, lo5, lo4, lo3, lo2, lo1, Matrix.cons_val_zero, Matrix.cons_val_one, Matrix.head_cons]
  have hb0 := bit_le_one 1 0 c
  have hb1 := bit_le_one 1 1 c
  have hb2 := bit_le_one 1 2 c
  have hb3 := bit_le_one 1 3 c
  have hb4 := bit_le_one 1 4 c
  omega

/-- exchange 0, column block 1: the first piece is the two pieces of exchange 1 -/
theorem src_ag_0_1_0_eq (c : Dev nD) :
    (src_ag_0_1_0 c).view.set = (src_ag_1_1_0 c).view.set ∪ (src_ag_1_1_1 c).view.set := by
  refine Finset.ext fun (i : S1024x1024.Idx) => ?_
  refine mem_out.trans (Iff.trans ?_ (Finset.mem_union.trans (or_congr mem_out mem_out)).symm)
  simp only [Geo.off100_eq, Geo.off94_eq, Geo.off95_eq, lo5, lo4, lo3, lo2, lo1, Matrix.cons_val_zero, Matrix.cons_val_one, Matrix.head_cons]
  have hb0 := bit_le_one 1 0 c
  have hb1 := bit_le_one 1 1 c
  have hb2 := bit_le_one 1 2 c
  have hb3 := bit_le_one 1 3 c
  have hb4 := bit_le_one 1 4 c
  omega

/-- exchange 3, column block 1: the first piece is the device's own rows -/
theorem src_ag_3_1_0_eq (c : Dev nD) : (src_ag_3_1_0 c).view.set = (src_ag_4_1_0 c).view.set := rfl

/-- exchange 2, column block 1: the second piece is what the partner of exchange 3 wrote -/
theorem src_ag_2_1_1_eq (c : Dev nD) :
    (src_ag_2_1_1 c).view.set =
      (dst_ag_3_1_0 (peer 1 3 c)).view.set ∪ (dst_ag_3_1_1 (peer 1 3 c)).view.set := by
  refine Finset.ext fun (i : S1024x1024.Idx) => ?_
  refine mem_out.trans (Iff.trans ?_ (Finset.mem_union.trans (or_congr mem_out mem_out)).symm)
  simp only [Geo.off89_eq, Geo.off81_eq, Geo.off84_eq, lo5, lo4, lo3, lo2, lo1, Matrix.cons_val_zero, Matrix.cons_val_one, Matrix.head_cons, bit_peer_self 1 3 c, bit_peer_lt 1 3 0 c (by decide), bit_peer_lt 1 3 1 c (by decide), bit_peer_lt 1 3 2 c (by decide), bit_peer_succ 1 3 4 c rfl]
  have hb0 := bit_le_one 1 0 c
  have hb1 := bit_le_one 1 1 c
  have hb2 := bit_le_one 1 2 c
  have hb3 := bit_le_one 1 3 c
  have hb4 := bit_le_one 1 4 c
  omega

/-- exchange 1, column block 1: the second piece is what the partner of exchange 2 wrote -/
theorem src_ag_1_1_1_eq (c : Dev nD) :
    (src_ag_1_1_1 c).view.set =
      (dst_ag_2_1_0 (peer 1 2 c)).view.set ∪ (dst_ag_2_1_1 (peer 1 2 c)).view.set := by
  refine Finset.ext fun (i : S1024x1024.Idx) => ?_
  refine mem_out.trans (Iff.trans ?_ (Finset.mem_union.trans (or_congr mem_out mem_out)).symm)
  simp only [Geo.off95_eq, Geo.off88_eq, Geo.off89_eq, lo5, lo4, lo3, lo2, lo1, Matrix.cons_val_zero, Matrix.cons_val_one, Matrix.head_cons, bit_peer_self 1 2 c, bit_peer_lt 1 2 0 c (by decide), bit_peer_lt 1 2 1 c (by decide), bit_peer_succ 1 2 3 c rfl]
  have hb0 := bit_le_one 1 0 c
  have hb1 := bit_le_one 1 1 c
  have hb2 := bit_le_one 1 2 c
  have hb3 := bit_le_one 1 3 c
  have hb4 := bit_le_one 1 4 c
  omega

/-- exchange 0, column block 1: the second piece is what the partner of exchange 1 wrote -/
theorem src_ag_0_1_1_eq (c : Dev nD) :
    (src_ag_0_1_1 c).view.set =
      (dst_ag_1_1_0 (peer 1 1 c)).view.set ∪ (dst_ag_1_1_1 (peer 1 1 c)).view.set := by
  refine Finset.ext fun (i : S1024x1024.Idx) => ?_
  refine mem_out.trans (Iff.trans ?_ (Finset.mem_union.trans (or_congr mem_out mem_out)).symm)
  simp only [Geo.off101_eq, Geo.off94_eq, Geo.off95_eq, lo5, lo4, lo3, lo2, lo1, Matrix.cons_val_zero, Matrix.cons_val_one, Matrix.head_cons, bit_peer_self 1 1 c, bit_peer_lt 1 1 0 c (by decide), bit_peer_succ 1 1 2 c rfl]
  have hb0 := bit_le_one 1 0 c
  have hb1 := bit_le_one 1 1 c
  have hb2 := bit_le_one 1 2 c
  have hb3 := bit_le_one 1 3 c
  have hb4 := bit_le_one 1 4 c
  omega

/-- exchange 3, column block 1: the second piece is what the partner of exchange 4 wrote -/
theorem src_ag_3_1_1_eq (c : Dev nD) :
    (src_ag_3_1_1 c).view.set = (dst_ag_4_1_0 (peer 1 4 c)).view.set := by
  refine Finset.ext fun (i : S1024x1024.Idx) => ?_
  refine mem_out.trans (Iff.trans ?_ mem_out.symm)
  simp only [Geo.off84_eq, Geo.off81_eq, lo5, lo4, lo3, lo2, lo1, Matrix.cons_val_zero, Matrix.cons_val_one, Matrix.head_cons, bit_peer_self 1 4 c, bit_peer_lt 1 4 0 c (by decide), bit_peer_lt 1 4 1 c (by decide), bit_peer_lt 1 4 2 c (by decide), bit_peer_lt 1 4 3 c (by decide)]

/-- exchange 3, column block 2: the two pieces are apart -/
theorem src_ag_3_2_disj (c : Dev nD) :
    Disjoint (src_ag_3_2_0 c).view.set (src_ag_3_2_1 c).view.set := by
  refine Finset.disjoint_left.mpr fun (i : S1024x1024.Idx) hi hj => ?_
  have h1 := mem_out.mp hi
  have h2 := mem_out.mp hj
  simp only [Geo.off82_eq, Geo.off85_eq, lo5, lo4, lo3, lo2, lo1, Matrix.cons_val_zero, Matrix.cons_val_one, Matrix.head_cons] at h1 h2
  have hb0 := bit_le_one 2 0 c
  have hb1 := bit_le_one 2 1 c
  have hb2 := bit_le_one 2 2 c
  have hb3 := bit_le_one 2 3 c
  have hb4 := bit_le_one 2 4 c
  omega
theorem dst_ag_3_2_disj (p : Dev nD) :
    Disjoint (dst_ag_3_2_0 p).view.set (dst_ag_3_2_1 p).view.set := src_ag_3_2_disj p

/-- exchange 2, column block 2: the two pieces are apart -/
theorem src_ag_2_2_disj (c : Dev nD) :
    Disjoint (src_ag_2_2_0 c).view.set (src_ag_2_2_1 c).view.set := by
  refine Finset.disjoint_left.mpr fun (i : S1024x1024.Idx) hi hj => ?_
  have h1 := mem_out.mp hi
  have h2 := mem_out.mp hj
  simp only [Geo.off90_eq, Geo.off91_eq, lo5, lo4, lo3, lo2, lo1, Matrix.cons_val_zero, Matrix.cons_val_one, Matrix.head_cons] at h1 h2
  have hb0 := bit_le_one 2 0 c
  have hb1 := bit_le_one 2 1 c
  have hb2 := bit_le_one 2 2 c
  have hb3 := bit_le_one 2 3 c
  have hb4 := bit_le_one 2 4 c
  omega
theorem dst_ag_2_2_disj (p : Dev nD) :
    Disjoint (dst_ag_2_2_0 p).view.set (dst_ag_2_2_1 p).view.set := src_ag_2_2_disj p

/-- exchange 1, column block 2: the two pieces are apart -/
theorem src_ag_1_2_disj (c : Dev nD) :
    Disjoint (src_ag_1_2_0 c).view.set (src_ag_1_2_1 c).view.set := by
  refine Finset.disjoint_left.mpr fun (i : S1024x1024.Idx) hi hj => ?_
  have h1 := mem_out.mp hi
  have h2 := mem_out.mp hj
  simp only [Geo.off96_eq, Geo.off97_eq, lo5, lo4, lo3, lo2, lo1, Matrix.cons_val_zero, Matrix.cons_val_one, Matrix.head_cons] at h1 h2
  have hb0 := bit_le_one 2 0 c
  have hb1 := bit_le_one 2 1 c
  have hb2 := bit_le_one 2 2 c
  have hb3 := bit_le_one 2 3 c
  have hb4 := bit_le_one 2 4 c
  omega
theorem dst_ag_1_2_disj (p : Dev nD) :
    Disjoint (dst_ag_1_2_0 p).view.set (dst_ag_1_2_1 p).view.set := src_ag_1_2_disj p

/-- exchange 0, column block 2: the two pieces are apart -/
theorem src_ag_0_2_disj (c : Dev nD) :
    Disjoint (src_ag_0_2_0 c).view.set (src_ag_0_2_1 c).view.set := by
  refine Finset.disjoint_left.mpr fun (i : S1024x1024.Idx) hi hj => ?_
  have h1 := mem_out.mp hi
  have h2 := mem_out.mp hj
  simp only [Geo.off102_eq, Geo.off103_eq, lo5, lo4, lo3, lo2, lo1, Matrix.cons_val_zero, Matrix.cons_val_one, Matrix.head_cons] at h1 h2
  have hb0 := bit_le_one 2 0 c
  have hb1 := bit_le_one 2 1 c
  have hb2 := bit_le_one 2 2 c
  have hb3 := bit_le_one 2 3 c
  have hb4 := bit_le_one 2 4 c
  omega
theorem dst_ag_0_2_disj (p : Dev nD) :
    Disjoint (dst_ag_0_2_0 p).view.set (dst_ag_0_2_1 p).view.set := src_ag_0_2_disj p

/-- exchange 2, column block 2: the first piece is the two pieces of exchange 3 -/
theorem src_ag_2_2_0_eq (c : Dev nD) :
    (src_ag_2_2_0 c).view.set = (src_ag_3_2_0 c).view.set ∪ (src_ag_3_2_1 c).view.set := by
  refine Finset.ext fun (i : S1024x1024.Idx) => ?_
  refine mem_out.trans (Iff.trans ?_ (Finset.mem_union.trans (or_congr mem_out mem_out)).symm)
  simp only [Geo.off90_eq, Geo.off82_eq, Geo.off85_eq, lo5, lo4, lo3, lo2, lo1, Matrix.cons_val_zero, Matrix.cons_val_one, Matrix.head_cons]
  have hb0 := bit_le_one 2 0 c
  have hb1 := bit_le_one 2 1 c
  have hb2 := bit_le_one 2 2 c
  have hb3 := bit_le_one 2 3 c
  have hb4 := bit_le_one 2 4 c
  omega

/-- exchange 1, column block 2: the first piece is the two pieces of exchange 2 -/
theorem src_ag_1_2_0_eq (c : Dev nD) :
    (src_ag_1_2_0 c).view.set = (src_ag_2_2_0 c).view.set ∪ (src_ag_2_2_1 c).view.set := by
  refine Finset.ext fun (i : S1024x1024.Idx) => ?_
  refine mem_out.trans (Iff.trans ?_ (Finset.mem_union.trans (or_congr mem_out mem_out)).symm)
  simp only [Geo.off96_eq, Geo.off90_eq, Geo.off91_eq, lo5, lo4, lo3, lo2, lo1, Matrix.cons_val_zero, Matrix.cons_val_one, Matrix.head_cons]
  have hb0 := bit_le_one 2 0 c
  have hb1 := bit_le_one 2 1 c
  have hb2 := bit_le_one 2 2 c
  have hb3 := bit_le_one 2 3 c
  have hb4 := bit_le_one 2 4 c
  omega

/-- exchange 0, column block 2: the first piece is the two pieces of exchange 1 -/
theorem src_ag_0_2_0_eq (c : Dev nD) :
    (src_ag_0_2_0 c).view.set = (src_ag_1_2_0 c).view.set ∪ (src_ag_1_2_1 c).view.set := by
  refine Finset.ext fun (i : S1024x1024.Idx) => ?_
  refine mem_out.trans (Iff.trans ?_ (Finset.mem_union.trans (or_congr mem_out mem_out)).symm)
  simp only [Geo.off102_eq, Geo.off96_eq, Geo.off97_eq, lo5, lo4, lo3, lo2, lo1, Matrix.cons_val_zero, Matrix.cons_val_one, Matrix.head_cons]
  have hb0 := bit_le_one 2 0 c
  have hb1 := bit_le_one 2 1 c
  have hb2 := bit_le_one 2 2 c
  have hb3 := bit_le_one 2 3 c
  have hb4 := bit_le_one 2 4 c
  omega

/-- exchange 3, column block 2: the first piece is the device's own rows -/
theorem src_ag_3_2_0_eq (c : Dev nD) : (src_ag_3_2_0 c).view.set = (src_ag_4_2_0 c).view.set := rfl

/-- exchange 2, column block 2: the second piece is what the partner of exchange 3 wrote -/
theorem src_ag_2_2_1_eq (c : Dev nD) :
    (src_ag_2_2_1 c).view.set =
      (dst_ag_3_2_0 (peer 2 3 c)).view.set ∪ (dst_ag_3_2_1 (peer 2 3 c)).view.set := by
  refine Finset.ext fun (i : S1024x1024.Idx) => ?_
  refine mem_out.trans (Iff.trans ?_ (Finset.mem_union.trans (or_congr mem_out mem_out)).symm)
  simp only [Geo.off91_eq, Geo.off82_eq, Geo.off85_eq, lo5, lo4, lo3, lo2, lo1, Matrix.cons_val_zero, Matrix.cons_val_one, Matrix.head_cons, bit_peer_self 2 3 c, bit_peer_lt 2 3 0 c (by decide), bit_peer_lt 2 3 1 c (by decide), bit_peer_lt 2 3 2 c (by decide), bit_peer_succ 2 3 4 c rfl]
  have hb0 := bit_le_one 2 0 c
  have hb1 := bit_le_one 2 1 c
  have hb2 := bit_le_one 2 2 c
  have hb3 := bit_le_one 2 3 c
  have hb4 := bit_le_one 2 4 c
  omega

/-- exchange 1, column block 2: the second piece is what the partner of exchange 2 wrote -/
theorem src_ag_1_2_1_eq (c : Dev nD) :
    (src_ag_1_2_1 c).view.set =
      (dst_ag_2_2_0 (peer 2 2 c)).view.set ∪ (dst_ag_2_2_1 (peer 2 2 c)).view.set := by
  refine Finset.ext fun (i : S1024x1024.Idx) => ?_
  refine mem_out.trans (Iff.trans ?_ (Finset.mem_union.trans (or_congr mem_out mem_out)).symm)
  simp only [Geo.off97_eq, Geo.off90_eq, Geo.off91_eq, lo5, lo4, lo3, lo2, lo1, Matrix.cons_val_zero, Matrix.cons_val_one, Matrix.head_cons, bit_peer_self 2 2 c, bit_peer_lt 2 2 0 c (by decide), bit_peer_lt 2 2 1 c (by decide), bit_peer_succ 2 2 3 c rfl]
  have hb0 := bit_le_one 2 0 c
  have hb1 := bit_le_one 2 1 c
  have hb2 := bit_le_one 2 2 c
  have hb3 := bit_le_one 2 3 c
  have hb4 := bit_le_one 2 4 c
  omega

/-- exchange 0, column block 2: the second piece is what the partner of exchange 1 wrote -/
theorem src_ag_0_2_1_eq (c : Dev nD) :
    (src_ag_0_2_1 c).view.set =
      (dst_ag_1_2_0 (peer 2 1 c)).view.set ∪ (dst_ag_1_2_1 (peer 2 1 c)).view.set := by
  refine Finset.ext fun (i : S1024x1024.Idx) => ?_
  refine mem_out.trans (Iff.trans ?_ (Finset.mem_union.trans (or_congr mem_out mem_out)).symm)
  simp only [Geo.off103_eq, Geo.off96_eq, Geo.off97_eq, lo5, lo4, lo3, lo2, lo1, Matrix.cons_val_zero, Matrix.cons_val_one, Matrix.head_cons, bit_peer_self 2 1 c, bit_peer_lt 2 1 0 c (by decide), bit_peer_succ 2 1 2 c rfl]
  have hb0 := bit_le_one 2 0 c
  have hb1 := bit_le_one 2 1 c
  have hb2 := bit_le_one 2 2 c
  have hb3 := bit_le_one 2 3 c
  have hb4 := bit_le_one 2 4 c
  omega

/-- exchange 3, column block 2: the second piece is what the partner of exchange 4 wrote -/
theorem src_ag_3_2_1_eq (c : Dev nD) :
    (src_ag_3_2_1 c).view.set = (dst_ag_4_2_0 (peer 2 4 c)).view.set := by
  refine Finset.ext fun (i : S1024x1024.Idx) => ?_
  refine mem_out.trans (Iff.trans ?_ mem_out.symm)
  simp only [Geo.off85_eq, Geo.off82_eq, lo5, lo4, lo3, lo2, lo1, Matrix.cons_val_zero, Matrix.cons_val_one, Matrix.head_cons, bit_peer_self 2 4 c, bit_peer_lt 2 4 0 c (by decide), bit_peer_lt 2 4 1 c (by decide), bit_peer_lt 2 4 2 c (by decide), bit_peer_lt 2 4 3 c (by decide)]

/-! ## The column blocks

The rows of column block `k` are the half that holds the device's own rows — the two pieces of the
last exchange — and the other half, which the partner of the last exchange writes. -/

/-- The positions of column block `k`. -/
def colS (k : Fin 3) : Finset S1024x1024.Idx :=
  Finset.univ.filter fun i => col0 k ≤ (i 1).val ∧ (i 1).val < col0 k + colw k

theorem mem_colS {k : Fin 3} {i : S1024x1024.Idx} : i ∈ colS k ↔ col0 k ≤ (i 1).val ∧ (i 1).val < col0 k + colw k := by
  unfold colS; rw [Finset.mem_filter]; exact and_iff_right (Finset.mem_univ i)

theorem univ_eq_cols : (Finset.univ : Finset S1024x1024.Idx) = colS 0 ∪ (colS 1 ∪ colS 2) := by
  refine Finset.ext fun i => ?_
  simp only [Finset.mem_univ, Finset.mem_union, mem_colS, col0_0, col0_1, col0_2, colw_0, colw_1, colw_2, true_iff]
  have : (i 1).val < 1024 := (i 1).isLt
  omega
theorem colS_disj_0 : Disjoint (colS 0) (colS 1 ∪ colS 2) := by
  refine Finset.disjoint_left.mpr fun i hi hj => ?_
  simp only [Finset.mem_union, mem_colS, col0_0, col0_1, col0_2, colw_0, colw_1, colw_2] at hi hj
  omega
theorem colS_disj_1 : Disjoint (colS 1) (colS 2) := by
  refine Finset.disjoint_left.mpr fun i hi hj => ?_
  simp only [mem_colS, col0_0, col0_1, col0_2, colw_0, colw_1, colw_2] at hi hj
  omega

/-- column block 0: the two pieces of the last exchange and the two the last partner writes -/
theorem colS_0_eq (c : Dev nD) :
    colS 0 = ((src_ag_0_0_0 c).view.set ∪ (src_ag_0_0_1 c).view.set) ∪
      ((dst_ag_0_0_0 (peer 0 0 c)).view.set ∪ (dst_ag_0_0_1 (peer 0 0 c)).view.set) := by
  refine Finset.ext fun (i : S1024x1024.Idx) => ?_
  refine mem_colS.trans (Iff.trans ?_ (Finset.mem_union.trans (or_congr
    (Finset.mem_union.trans (or_congr mem_out mem_out)) (Finset.mem_union.trans (or_congr mem_out mem_out)))).symm)
  simp only [Geo.off98_eq, Geo.off99_eq, lo5, lo4, lo3, lo2, lo1, Matrix.cons_val_zero, Matrix.cons_val_one, Matrix.head_cons, col0_0, col0_1, col0_2, colw_0, colw_1, colw_2, bit_peer_self 0 0 c, bit_peer_succ 0 0 1 c rfl]
  have hb0 := bit_le_one 0 0 c
  have hb1 := bit_le_one 0 1 c
  have hb2 := bit_le_one 0 2 c
  have hb3 := bit_le_one 0 3 c
  have hb4 := bit_le_one 0 4 c
  have : (i 0).val < 1024 := (i 0).isLt
  omega
theorem colS_0_disj (c : Dev nD) :
    Disjoint ((src_ag_0_0_0 c).view.set ∪ (src_ag_0_0_1 c).view.set)
      ((dst_ag_0_0_0 (peer 0 0 c)).view.set ∪ (dst_ag_0_0_1 (peer 0 0 c)).view.set) := by
  refine Finset.disjoint_left.mpr fun (i : S1024x1024.Idx) hi hj => ?_
  have h1 := (Finset.mem_union.trans (or_congr mem_out mem_out)).mp hi
  have h2 := (Finset.mem_union.trans (or_congr mem_out mem_out)).mp hj
  simp only [Geo.off98_eq, Geo.off99_eq, lo5, lo4, lo3, lo2, lo1, Matrix.cons_val_zero, Matrix.cons_val_one, Matrix.head_cons, bit_peer_self 0 0 c, bit_peer_succ 0 0 1 c rfl] at h1 h2
  have hb0 := bit_le_one 0 0 c
  have hb1 := bit_le_one 0 1 c
  have hb2 := bit_le_one 0 2 c
  have hb3 := bit_le_one 0 3 c
  have hb4 := bit_le_one 0 4 c
  omega

/-- column block 1: the two pieces of the last exchange and the two the last partner writes -/
theorem colS_1_eq (c : Dev nD) :
    colS 1 = ((src_ag_0_1_0 c).view.set ∪ (src_ag_0_1_1 c).view.set) ∪
      ((dst_ag_0_1_0 (peer 1 0 c)).view.set ∪ (dst_ag_0_1_1 (peer 1 0 c)).view.set) := by
  refine Finset.ext fun (i : S1024x1024.Idx) => ?_
  refine mem_colS.trans (Iff.trans ?_ (Finset.mem_union.trans (or_congr
    (Finset.mem_union.trans (or_congr mem_out mem_out)) (Finset.mem_union.trans (or_congr mem_out mem_out)))).symm)
  simp only [Geo.off100_eq, Geo.off101_eq, lo5, lo4, lo3, lo2, lo1, Matrix.cons_val_zero, Matrix.cons_val_one, Matrix.head_cons, col0_0, col0_1, col0_2, colw_0, colw_1, colw_2, bit_peer_self 1 0 c, bit_peer_succ 1 0 1 c rfl]
  have hb0 := bit_le_one 1 0 c
  have hb1 := bit_le_one 1 1 c
  have hb2 := bit_le_one 1 2 c
  have hb3 := bit_le_one 1 3 c
  have hb4 := bit_le_one 1 4 c
  have : (i 0).val < 1024 := (i 0).isLt
  omega
theorem colS_1_disj (c : Dev nD) :
    Disjoint ((src_ag_0_1_0 c).view.set ∪ (src_ag_0_1_1 c).view.set)
      ((dst_ag_0_1_0 (peer 1 0 c)).view.set ∪ (dst_ag_0_1_1 (peer 1 0 c)).view.set) := by
  refine Finset.disjoint_left.mpr fun (i : S1024x1024.Idx) hi hj => ?_
  have h1 := (Finset.mem_union.trans (or_congr mem_out mem_out)).mp hi
  have h2 := (Finset.mem_union.trans (or_congr mem_out mem_out)).mp hj
  simp only [Geo.off100_eq, Geo.off101_eq, lo5, lo4, lo3, lo2, lo1, Matrix.cons_val_zero, Matrix.cons_val_one, Matrix.head_cons, bit_peer_self 1 0 c, bit_peer_succ 1 0 1 c rfl] at h1 h2
  have hb0 := bit_le_one 1 0 c
  have hb1 := bit_le_one 1 1 c
  have hb2 := bit_le_one 1 2 c
  have hb3 := bit_le_one 1 3 c
  have hb4 := bit_le_one 1 4 c
  omega

/-- column block 2: the two pieces of the last exchange and the two the last partner writes -/
theorem colS_2_eq (c : Dev nD) :
    colS 2 = ((src_ag_0_2_0 c).view.set ∪ (src_ag_0_2_1 c).view.set) ∪
      ((dst_ag_0_2_0 (peer 2 0 c)).view.set ∪ (dst_ag_0_2_1 (peer 2 0 c)).view.set) := by
  refine Finset.ext fun (i : S1024x1024.Idx) => ?_
  refine mem_colS.trans (Iff.trans ?_ (Finset.mem_union.trans (or_congr
    (Finset.mem_union.trans (or_congr mem_out mem_out)) (Finset.mem_union.trans (or_congr mem_out mem_out)))).symm)
  simp only [Geo.off102_eq, Geo.off103_eq, lo5, lo4, lo3, lo2, lo1, Matrix.cons_val_zero, Matrix.cons_val_one, Matrix.head_cons, col0_0, col0_1, col0_2, colw_0, colw_1, colw_2, bit_peer_self 2 0 c, bit_peer_succ 2 0 1 c rfl]
  have hb0 := bit_le_one 2 0 c
  have hb1 := bit_le_one 2 1 c
  have hb2 := bit_le_one 2 2 c
  have hb3 := bit_le_one 2 3 c
  have hb4 := bit_le_one 2 4 c
  have : (i 0).val < 1024 := (i 0).isLt
  omega
theorem colS_2_disj (c : Dev nD) :
    Disjoint ((src_ag_0_2_0 c).view.set ∪ (src_ag_0_2_1 c).view.set)
      ((dst_ag_0_2_0 (peer 2 0 c)).view.set ∪ (dst_ag_0_2_1 (peer 2 0 c)).view.set) := by
  refine Finset.disjoint_left.mpr fun (i : S1024x1024.Idx) hi hj => ?_
  have h1 := (Finset.mem_union.trans (or_congr mem_out mem_out)).mp hi
  have h2 := (Finset.mem_union.trans (or_congr mem_out mem_out)).mp hj
  simp only [Geo.off102_eq, Geo.off103_eq, lo5, lo4, lo3, lo2, lo1, Matrix.cons_val_zero, Matrix.cons_val_one, Matrix.head_cons, bit_peer_self 2 0 c, bit_peer_succ 2 0 1 c rfl] at h1 h2
  have hb0 := bit_le_one 2 0 c
  have hb1 := bit_le_one 2 1 c
  have hb2 := bit_le_one 2 2 c
  have hb3 := bit_le_one 2 3 c
  have hb4 := bit_le_one 2 4 c
  omega

/-! ## The same identities on assertions

A piece lent, or held under a contract, is the two pieces it is made of, lent or held the same way. -/

theorem loan_src_ag_2_0_0 (c : Dev nD) :
    loanV (F := F) c (src_ag_2_0_0 c) ⊣⊢ iprop(loanV c (src_ag_3_0_0 c) ∗ loanV c (src_ag_3_0_1 c)) := by
  have h := slotS_union (F := F) (ℓ := (src_ag_2_0_0 c).view.loc (c : Thread nD τ)) (src_ag_3_0_disj c)
  rw [← src_ag_2_0_0_eq c] at h
  exact h
theorem held_src_ag_2_0_0 (c : Dev nD) (q : PosShare TreeShare) (P : S1024x1024.Idx → Elt F .bf16 → Prop) :
    heldV c (src_ag_2_0_0 c) q (fun i v => P i v) ⊣⊢
      iprop(heldV c (src_ag_3_0_0 c) q (fun i v => P i v) ∗ heldV c (src_ag_3_0_1 c) q (fun i v => P i v)) := by
  have h := heldS_union (F := F) (ℓ := (src_ag_2_0_0 c).view.loc (c : Thread nD τ)) (q := q) (src_ag_3_0_disj c) P
  rw [← src_ag_2_0_0_eq c] at h
  exact h
theorem loan_src_ag_2_0_1 (c : Dev nD) :
    loanV (F := F) c (src_ag_2_0_1 c) ⊣⊢
      iprop(loanV c (dst_ag_3_0_0 (peer 0 3 c)) ∗ loanV c (dst_ag_3_0_1 (peer 0 3 c))) := by
  have h := slotS_union (F := F) (ℓ := (src_ag_2_0_1 c).view.loc (c : Thread nD τ)) (dst_ag_3_0_disj (peer 0 3 c))
  rw [← src_ag_2_0_1_eq c] at h
  exact h
theorem held_src_ag_2_0_1 (c : Dev nD) (q : PosShare TreeShare) (P : S1024x1024.Idx → Elt F .bf16 → Prop) :
    heldV c (src_ag_2_0_1 c) q (fun i v => P i v) ⊣⊢
      iprop(heldV c (dst_ag_3_0_0 (peer 0 3 c)) q (fun i v => P i v) ∗
        heldV c (dst_ag_3_0_1 (peer 0 3 c)) q (fun i v => P i v)) := by
  have h := heldS_union (F := F) (ℓ := (src_ag_2_0_1 c).view.loc (c : Thread nD τ)) (q := q) (dst_ag_3_0_disj (peer 0 3 c)) P
  rw [← src_ag_2_0_1_eq c] at h
  exact h

theorem loan_src_ag_1_0_0 (c : Dev nD) :
    loanV (F := F) c (src_ag_1_0_0 c) ⊣⊢ iprop(loanV c (src_ag_2_0_0 c) ∗ loanV c (src_ag_2_0_1 c)) := by
  have h := slotS_union (F := F) (ℓ := (src_ag_1_0_0 c).view.loc (c : Thread nD τ)) (src_ag_2_0_disj c)
  rw [← src_ag_1_0_0_eq c] at h
  exact h
theorem held_src_ag_1_0_0 (c : Dev nD) (q : PosShare TreeShare) (P : S1024x1024.Idx → Elt F .bf16 → Prop) :
    heldV c (src_ag_1_0_0 c) q (fun i v => P i v) ⊣⊢
      iprop(heldV c (src_ag_2_0_0 c) q (fun i v => P i v) ∗ heldV c (src_ag_2_0_1 c) q (fun i v => P i v)) := by
  have h := heldS_union (F := F) (ℓ := (src_ag_1_0_0 c).view.loc (c : Thread nD τ)) (q := q) (src_ag_2_0_disj c) P
  rw [← src_ag_1_0_0_eq c] at h
  exact h
theorem loan_src_ag_1_0_1 (c : Dev nD) :
    loanV (F := F) c (src_ag_1_0_1 c) ⊣⊢
      iprop(loanV c (dst_ag_2_0_0 (peer 0 2 c)) ∗ loanV c (dst_ag_2_0_1 (peer 0 2 c))) := by
  have h := slotS_union (F := F) (ℓ := (src_ag_1_0_1 c).view.loc (c : Thread nD τ)) (dst_ag_2_0_disj (peer 0 2 c))
  rw [← src_ag_1_0_1_eq c] at h
  exact h
theorem held_src_ag_1_0_1 (c : Dev nD) (q : PosShare TreeShare) (P : S1024x1024.Idx → Elt F .bf16 → Prop) :
    heldV c (src_ag_1_0_1 c) q (fun i v => P i v) ⊣⊢
      iprop(heldV c (dst_ag_2_0_0 (peer 0 2 c)) q (fun i v => P i v) ∗
        heldV c (dst_ag_2_0_1 (peer 0 2 c)) q (fun i v => P i v)) := by
  have h := heldS_union (F := F) (ℓ := (src_ag_1_0_1 c).view.loc (c : Thread nD τ)) (q := q) (dst_ag_2_0_disj (peer 0 2 c)) P
  rw [← src_ag_1_0_1_eq c] at h
  exact h

theorem loan_src_ag_0_0_0 (c : Dev nD) :
    loanV (F := F) c (src_ag_0_0_0 c) ⊣⊢ iprop(loanV c (src_ag_1_0_0 c) ∗ loanV c (src_ag_1_0_1 c)) := by
  have h := slotS_union (F := F) (ℓ := (src_ag_0_0_0 c).view.loc (c : Thread nD τ)) (src_ag_1_0_disj c)
  rw [← src_ag_0_0_0_eq c] at h
  exact h
theorem held_src_ag_0_0_0 (c : Dev nD) (q : PosShare TreeShare) (P : S1024x1024.Idx → Elt F .bf16 → Prop) :
    heldV c (src_ag_0_0_0 c) q (fun i v => P i v) ⊣⊢
      iprop(heldV c (src_ag_1_0_0 c) q (fun i v => P i v) ∗ heldV c (src_ag_1_0_1 c) q (fun i v => P i v)) := by
  have h := heldS_union (F := F) (ℓ := (src_ag_0_0_0 c).view.loc (c : Thread nD τ)) (q := q) (src_ag_1_0_disj c) P
  rw [← src_ag_0_0_0_eq c] at h
  exact h
theorem loan_src_ag_0_0_1 (c : Dev nD) :
    loanV (F := F) c (src_ag_0_0_1 c) ⊣⊢
      iprop(loanV c (dst_ag_1_0_0 (peer 0 1 c)) ∗ loanV c (dst_ag_1_0_1 (peer 0 1 c))) := by
  have h := slotS_union (F := F) (ℓ := (src_ag_0_0_1 c).view.loc (c : Thread nD τ)) (dst_ag_1_0_disj (peer 0 1 c))
  rw [← src_ag_0_0_1_eq c] at h
  exact h
theorem held_src_ag_0_0_1 (c : Dev nD) (q : PosShare TreeShare) (P : S1024x1024.Idx → Elt F .bf16 → Prop) :
    heldV c (src_ag_0_0_1 c) q (fun i v => P i v) ⊣⊢
      iprop(heldV c (dst_ag_1_0_0 (peer 0 1 c)) q (fun i v => P i v) ∗
        heldV c (dst_ag_1_0_1 (peer 0 1 c)) q (fun i v => P i v)) := by
  have h := heldS_union (F := F) (ℓ := (src_ag_0_0_1 c).view.loc (c : Thread nD τ)) (q := q) (dst_ag_1_0_disj (peer 0 1 c)) P
  rw [← src_ag_0_0_1_eq c] at h
  exact h

theorem loan_src_ag_3_0_1 (c : Dev nD) :
    loanV (F := F) c (src_ag_3_0_1 c) = loanV c (dst_ag_4_0_0 (peer 0 4 c)) := by
  unfold loanV; rw [src_ag_3_0_1_eq c]
theorem held_src_ag_3_0_1 (c : Dev nD) (q : PosShare TreeShare) (P : S1024x1024.Idx → Elt F .bf16 → Prop) :
    heldV c (src_ag_3_0_1 c) q (fun i v => P i v) = heldV c (dst_ag_4_0_0 (peer 0 4 c)) q (fun i v => P i v) := by
  unfold heldV; rw [src_ag_3_0_1_eq c]
theorem loan_colS_0 (c : Dev nD) :
    slotS (F := F) ((c : Thread nD τ).loc cc0_stg2_0) (colS 0) ⊣⊢
      iprop((loanV c (src_ag_0_0_0 c) ∗ loanV c (src_ag_0_0_1 c)) ∗
        (loanV c (dst_ag_0_0_0 (peer 0 0 c)) ∗ loanV c (dst_ag_0_0_1 (peer 0 0 c)))) := by
  have h := slotS_union (F := F) (ℓ := (c : Thread nD τ).loc cc0_stg2_0) (colS_0_disj c)
  rw [← colS_0_eq c] at h
  have h1 := slotS_union (F := F) (ℓ := (c : Thread nD τ).loc cc0_stg2_0) (src_ag_0_0_disj c)
  have h2 := slotS_union (F := F) (ℓ := (c : Thread nD τ).loc cc0_stg2_0) (dst_ag_0_0_disj (peer 0 0 c))
  exact ⟨h.1.trans (BIClass.sep_mono h1.1 h2.1), (BIClass.sep_mono h1.2 h2.2).trans h.2⟩
theorem held_colS_0 (c : Dev nD) (q : PosShare TreeShare) (P : S1024x1024.Idx → Elt F .bf16 → Prop) :
    heldS (F := F) ((c : Thread nD τ).loc cc0_stg2_0) (colS 0) q (fun i v => P i v) ⊣⊢
      iprop((heldV c (src_ag_0_0_0 c) q (fun i v => P i v) ∗ heldV c (src_ag_0_0_1 c) q (fun i v => P i v)) ∗
        (heldV c (dst_ag_0_0_0 (peer 0 0 c)) q (fun i v => P i v) ∗ heldV c (dst_ag_0_0_1 (peer 0 0 c)) q (fun i v => P i v))) := by
  have h := heldS_union (F := F) (ℓ := (c : Thread nD τ).loc cc0_stg2_0) (q := q) (colS_0_disj c) P
  rw [← colS_0_eq c] at h
  have h1 := heldS_union (F := F) (ℓ := (c : Thread nD τ).loc cc0_stg2_0) (q := q) (src_ag_0_0_disj c) P
  have h2 := heldS_union (F := F) (ℓ := (c : Thread nD τ).loc cc0_stg2_0) (q := q) (dst_ag_0_0_disj (peer 0 0 c)) P
  exact ⟨h.1.trans (BIClass.sep_mono h1.1 h2.1), (BIClass.sep_mono h1.2 h2.2).trans h.2⟩

theorem loan_src_ag_2_1_0 (c : Dev nD) :
    loanV (F := F) c (src_ag_2_1_0 c) ⊣⊢ iprop(loanV c (src_ag_3_1_0 c) ∗ loanV c (src_ag_3_1_1 c)) := by
  have h := slotS_union (F := F) (ℓ := (src_ag_2_1_0 c).view.loc (c : Thread nD τ)) (src_ag_3_1_disj c)
  rw [← src_ag_2_1_0_eq c] at h
  exact h
theorem held_src_ag_2_1_0 (c : Dev nD) (q : PosShare TreeShare) (P : S1024x1024.Idx → Elt F .bf16 → Prop) :
    heldV c (src_ag_2_1_0 c) q (fun i v => P i v) ⊣⊢
      iprop(heldV c (src_ag_3_1_0 c) q (fun i v => P i v) ∗ heldV c (src_ag_3_1_1 c) q (fun i v => P i v)) := by
  have h := heldS_union (F := F) (ℓ := (src_ag_2_1_0 c).view.loc (c : Thread nD τ)) (q := q) (src_ag_3_1_disj c) P
  rw [← src_ag_2_1_0_eq c] at h
  exact h
theorem loan_src_ag_2_1_1 (c : Dev nD) :
    loanV (F := F) c (src_ag_2_1_1 c) ⊣⊢
      iprop(loanV c (dst_ag_3_1_0 (peer 1 3 c)) ∗ loanV c (dst_ag_3_1_1 (peer 1 3 c))) := by
  have h := slotS_union (F := F) (ℓ := (src_ag_2_1_1 c).view.loc (c : Thread nD τ)) (dst_ag_3_1_disj (peer 1 3 c))
  rw [← src_ag_2_1_1_eq c] at h
  exact h
theorem held_src_ag_2_1_1 (c : Dev nD) (q : PosShare TreeShare) (P : S1024x1024.Idx → Elt F .bf16 → Prop) :
    heldV c (src_ag_2_1_1 c) q (fun i v => P i v) ⊣⊢
      iprop(heldV c (dst_ag_3_1_0 (peer 1 3 c)) q (fun i v => P i v) ∗
        heldV c (dst_ag_3_1_1 (peer 1 3 c)) q (fun i v => P i v)) := by
  have h := heldS_union (F := F) (ℓ := (src_ag_2_1_1 c).view.loc (c : Thread nD τ)) (q := q) (dst_ag_3_1_disj (peer 1 3 c)) P
  rw [← src_ag_2_1_1_eq c] at h
  exact h

theorem loan_src_ag_1_1_0 (c : Dev nD) :
    loanV (F := F) c (src_ag_1_1_0 c) ⊣⊢ iprop(loanV c (src_ag_2_1_0 c) ∗ loanV c (src_ag_2_1_1 c)) := by
  have h := slotS_union (F := F) (ℓ := (src_ag_1_1_0 c).view.loc (c : Thread nD τ)) (src_ag_2_1_disj c)
  rw [← src_ag_1_1_0_eq c] at h
  exact h
theorem held_src_ag_1_1_0 (c : Dev nD) (q : PosShare TreeShare) (P : S1024x1024.Idx → Elt F .bf16 → Prop) :
    heldV c (src_ag_1_1_0 c) q (fun i v => P i v) ⊣⊢
      iprop(heldV c (src_ag_2_1_0 c) q (fun i v => P i v) ∗ heldV c (src_ag_2_1_1 c) q (fun i v => P i v)) := by
  have h := heldS_union (F := F) (ℓ := (src_ag_1_1_0 c).view.loc (c : Thread nD τ)) (q := q) (src_ag_2_1_disj c) P
  rw [← src_ag_1_1_0_eq c] at h
  exact h
theorem loan_src_ag_1_1_1 (c : Dev nD) :
    loanV (F := F) c (src_ag_1_1_1 c) ⊣⊢
      iprop(loanV c (dst_ag_2_1_0 (peer 1 2 c)) ∗ loanV c (dst_ag_2_1_1 (peer 1 2 c))) := by
  have h := slotS_union (F := F) (ℓ := (src_ag_1_1_1 c).view.loc (c : Thread nD τ)) (dst_ag_2_1_disj (peer 1 2 c))
  rw [← src_ag_1_1_1_eq c] at h
  exact h
theorem held_src_ag_1_1_1 (c : Dev nD) (q : PosShare TreeShare) (P : S1024x1024.Idx → Elt F .bf16 → Prop) :
    heldV c (src_ag_1_1_1 c) q (fun i v => P i v) ⊣⊢
      iprop(heldV c (dst_ag_2_1_0 (peer 1 2 c)) q (fun i v => P i v) ∗
        heldV c (dst_ag_2_1_1 (peer 1 2 c)) q (fun i v => P i v)) := by
  have h := heldS_union (F := F) (ℓ := (src_ag_1_1_1 c).view.loc (c : Thread nD τ)) (q := q) (dst_ag_2_1_disj (peer 1 2 c)) P
  rw [← src_ag_1_1_1_eq c] at h
  exact h

theorem loan_src_ag_0_1_0 (c : Dev nD) :
    loanV (F := F) c (src_ag_0_1_0 c) ⊣⊢ iprop(loanV c (src_ag_1_1_0 c) ∗ loanV c (src_ag_1_1_1 c)) := by
  have h := slotS_union (F := F) (ℓ := (src_ag_0_1_0 c).view.loc (c : Thread nD τ)) (src_ag_1_1_disj c)
  rw [← src_ag_0_1_0_eq c] at h
  exact h
theorem held_src_ag_0_1_0 (c : Dev nD) (q : PosShare TreeShare) (P : S1024x1024.Idx → Elt F .bf16 → Prop) :
    heldV c (src_ag_0_1_0 c) q (fun i v => P i v) ⊣⊢
      iprop(heldV c (src_ag_1_1_0 c) q (fun i v => P i v) ∗ heldV c (src_ag_1_1_1 c) q (fun i v => P i v)) := by
  have h := heldS_union (F := F) (ℓ := (src_ag_0_1_0 c).view.loc (c : Thread nD τ)) (q := q) (src_ag_1_1_disj c) P
  rw [← src_ag_0_1_0_eq c] at h
  exact h
theorem loan_src_ag_0_1_1 (c : Dev nD) :
    loanV (F := F) c (src_ag_0_1_1 c) ⊣⊢
      iprop(loanV c (dst_ag_1_1_0 (peer 1 1 c)) ∗ loanV c (dst_ag_1_1_1 (peer 1 1 c))) := by
  have h := slotS_union (F := F) (ℓ := (src_ag_0_1_1 c).view.loc (c : Thread nD τ)) (dst_ag_1_1_disj (peer 1 1 c))
  rw [← src_ag_0_1_1_eq c] at h
  exact h
theorem held_src_ag_0_1_1 (c : Dev nD) (q : PosShare TreeShare) (P : S1024x1024.Idx → Elt F .bf16 → Prop) :
    heldV c (src_ag_0_1_1 c) q (fun i v => P i v) ⊣⊢
      iprop(heldV c (dst_ag_1_1_0 (peer 1 1 c)) q (fun i v => P i v) ∗
        heldV c (dst_ag_1_1_1 (peer 1 1 c)) q (fun i v => P i v)) := by
  have h := heldS_union (F := F) (ℓ := (src_ag_0_1_1 c).view.loc (c : Thread nD τ)) (q := q) (dst_ag_1_1_disj (peer 1 1 c)) P
  rw [← src_ag_0_1_1_eq c] at h
  exact h

theorem loan_src_ag_3_1_1 (c : Dev nD) :
    loanV (F := F) c (src_ag_3_1_1 c) = loanV c (dst_ag_4_1_0 (peer 1 4 c)) := by
  unfold loanV; rw [src_ag_3_1_1_eq c]
theorem held_src_ag_3_1_1 (c : Dev nD) (q : PosShare TreeShare) (P : S1024x1024.Idx → Elt F .bf16 → Prop) :
    heldV c (src_ag_3_1_1 c) q (fun i v => P i v) = heldV c (dst_ag_4_1_0 (peer 1 4 c)) q (fun i v => P i v) := by
  unfold heldV; rw [src_ag_3_1_1_eq c]
theorem loan_colS_1 (c : Dev nD) :
    slotS (F := F) ((c : Thread nD τ).loc cc0_stg2_0) (colS 1) ⊣⊢
      iprop((loanV c (src_ag_0_1_0 c) ∗ loanV c (src_ag_0_1_1 c)) ∗
        (loanV c (dst_ag_0_1_0 (peer 1 0 c)) ∗ loanV c (dst_ag_0_1_1 (peer 1 0 c)))) := by
  have h := slotS_union (F := F) (ℓ := (c : Thread nD τ).loc cc0_stg2_0) (colS_1_disj c)
  rw [← colS_1_eq c] at h
  have h1 := slotS_union (F := F) (ℓ := (c : Thread nD τ).loc cc0_stg2_0) (src_ag_0_1_disj c)
  have h2 := slotS_union (F := F) (ℓ := (c : Thread nD τ).loc cc0_stg2_0) (dst_ag_0_1_disj (peer 1 0 c))
  exact ⟨h.1.trans (BIClass.sep_mono h1.1 h2.1), (BIClass.sep_mono h1.2 h2.2).trans h.2⟩
theorem held_colS_1 (c : Dev nD) (q : PosShare TreeShare) (P : S1024x1024.Idx → Elt F .bf16 → Prop) :
    heldS (F := F) ((c : Thread nD τ).loc cc0_stg2_0) (colS 1) q (fun i v => P i v) ⊣⊢
      iprop((heldV c (src_ag_0_1_0 c) q (fun i v => P i v) ∗ heldV c (src_ag_0_1_1 c) q (fun i v => P i v)) ∗
        (heldV c (dst_ag_0_1_0 (peer 1 0 c)) q (fun i v => P i v) ∗ heldV c (dst_ag_0_1_1 (peer 1 0 c)) q (fun i v => P i v))) := by
  have h := heldS_union (F := F) (ℓ := (c : Thread nD τ).loc cc0_stg2_0) (q := q) (colS_1_disj c) P
  rw [← colS_1_eq c] at h
  have h1 := heldS_union (F := F) (ℓ := (c : Thread nD τ).loc cc0_stg2_0) (q := q) (src_ag_0_1_disj c) P
  have h2 := heldS_union (F := F) (ℓ := (c : Thread nD τ).loc cc0_stg2_0) (q := q) (dst_ag_0_1_disj (peer 1 0 c)) P
  exact ⟨h.1.trans (BIClass.sep_mono h1.1 h2.1), (BIClass.sep_mono h1.2 h2.2).trans h.2⟩

theorem loan_src_ag_2_2_0 (c : Dev nD) :
    loanV (F := F) c (src_ag_2_2_0 c) ⊣⊢ iprop(loanV c (src_ag_3_2_0 c) ∗ loanV c (src_ag_3_2_1 c)) := by
  have h := slotS_union (F := F) (ℓ := (src_ag_2_2_0 c).view.loc (c : Thread nD τ)) (src_ag_3_2_disj c)
  rw [← src_ag_2_2_0_eq c] at h
  exact h
theorem held_src_ag_2_2_0 (c : Dev nD) (q : PosShare TreeShare) (P : S1024x1024.Idx → Elt F .bf16 → Prop) :
    heldV c (src_ag_2_2_0 c) q (fun i v => P i v) ⊣⊢
      iprop(heldV c (src_ag_3_2_0 c) q (fun i v => P i v) ∗ heldV c (src_ag_3_2_1 c) q (fun i v => P i v)) := by
  have h := heldS_union (F := F) (ℓ := (src_ag_2_2_0 c).view.loc (c : Thread nD τ)) (q := q) (src_ag_3_2_disj c) P
  rw [← src_ag_2_2_0_eq c] at h
  exact h
theorem loan_src_ag_2_2_1 (c : Dev nD) :
    loanV (F := F) c (src_ag_2_2_1 c) ⊣⊢
      iprop(loanV c (dst_ag_3_2_0 (peer 2 3 c)) ∗ loanV c (dst_ag_3_2_1 (peer 2 3 c))) := by
  have h := slotS_union (F := F) (ℓ := (src_ag_2_2_1 c).view.loc (c : Thread nD τ)) (dst_ag_3_2_disj (peer 2 3 c))
  rw [← src_ag_2_2_1_eq c] at h
  exact h
theorem held_src_ag_2_2_1 (c : Dev nD) (q : PosShare TreeShare) (P : S1024x1024.Idx → Elt F .bf16 → Prop) :
    heldV c (src_ag_2_2_1 c) q (fun i v => P i v) ⊣⊢
      iprop(heldV c (dst_ag_3_2_0 (peer 2 3 c)) q (fun i v => P i v) ∗
        heldV c (dst_ag_3_2_1 (peer 2 3 c)) q (fun i v => P i v)) := by
  have h := heldS_union (F := F) (ℓ := (src_ag_2_2_1 c).view.loc (c : Thread nD τ)) (q := q) (dst_ag_3_2_disj (peer 2 3 c)) P
  rw [← src_ag_2_2_1_eq c] at h
  exact h

theorem loan_src_ag_1_2_0 (c : Dev nD) :
    loanV (F := F) c (src_ag_1_2_0 c) ⊣⊢ iprop(loanV c (src_ag_2_2_0 c) ∗ loanV c (src_ag_2_2_1 c)) := by
  have h := slotS_union (F := F) (ℓ := (src_ag_1_2_0 c).view.loc (c : Thread nD τ)) (src_ag_2_2_disj c)
  rw [← src_ag_1_2_0_eq c] at h
  exact h
theorem held_src_ag_1_2_0 (c : Dev nD) (q : PosShare TreeShare) (P : S1024x1024.Idx → Elt F .bf16 → Prop) :
    heldV c (src_ag_1_2_0 c) q (fun i v => P i v) ⊣⊢
      iprop(heldV c (src_ag_2_2_0 c) q (fun i v => P i v) ∗ heldV c (src_ag_2_2_1 c) q (fun i v => P i v)) := by
  have h := heldS_union (F := F) (ℓ := (src_ag_1_2_0 c).view.loc (c : Thread nD τ)) (q := q) (src_ag_2_2_disj c) P
  rw [← src_ag_1_2_0_eq c] at h
  exact h
theorem loan_src_ag_1_2_1 (c : Dev nD) :
    loanV (F := F) c (src_ag_1_2_1 c) ⊣⊢
      iprop(loanV c (dst_ag_2_2_0 (peer 2 2 c)) ∗ loanV c (dst_ag_2_2_1 (peer 2 2 c))) := by
  have h := slotS_union (F := F) (ℓ := (src_ag_1_2_1 c).view.loc (c : Thread nD τ)) (dst_ag_2_2_disj (peer 2 2 c))
  rw [← src_ag_1_2_1_eq c] at h
  exact h
theorem held_src_ag_1_2_1 (c : Dev nD) (q : PosShare TreeShare) (P : S1024x1024.Idx → Elt F .bf16 → Prop) :
    heldV c (src_ag_1_2_1 c) q (fun i v => P i v) ⊣⊢
      iprop(heldV c (dst_ag_2_2_0 (peer 2 2 c)) q (fun i v => P i v) ∗
        heldV c (dst_ag_2_2_1 (peer 2 2 c)) q (fun i v => P i v)) := by
  have h := heldS_union (F := F) (ℓ := (src_ag_1_2_1 c).view.loc (c : Thread nD τ)) (q := q) (dst_ag_2_2_disj (peer 2 2 c)) P
  rw [← src_ag_1_2_1_eq c] at h
  exact h

theorem loan_src_ag_0_2_0 (c : Dev nD) :
    loanV (F := F) c (src_ag_0_2_0 c) ⊣⊢ iprop(loanV c (src_ag_1_2_0 c) ∗ loanV c (src_ag_1_2_1 c)) := by
  have h := slotS_union (F := F) (ℓ := (src_ag_0_2_0 c).view.loc (c : Thread nD τ)) (src_ag_1_2_disj c)
  rw [← src_ag_0_2_0_eq c] at h
  exact h
theorem held_src_ag_0_2_0 (c : Dev nD) (q : PosShare TreeShare) (P : S1024x1024.Idx → Elt F .bf16 → Prop) :
    heldV c (src_ag_0_2_0 c) q (fun i v => P i v) ⊣⊢
      iprop(heldV c (src_ag_1_2_0 c) q (fun i v => P i v) ∗ heldV c (src_ag_1_2_1 c) q (fun i v => P i v)) := by
  have h := heldS_union (F := F) (ℓ := (src_ag_0_2_0 c).view.loc (c : Thread nD τ)) (q := q) (src_ag_1_2_disj c) P
  rw [← src_ag_0_2_0_eq c] at h
  exact h
theorem loan_src_ag_0_2_1 (c : Dev nD) :
    loanV (F := F) c (src_ag_0_2_1 c) ⊣⊢
      iprop(loanV c (dst_ag_1_2_0 (peer 2 1 c)) ∗ loanV c (dst_ag_1_2_1 (peer 2 1 c))) := by
  have h := slotS_union (F := F) (ℓ := (src_ag_0_2_1 c).view.loc (c : Thread nD τ)) (dst_ag_1_2_disj (peer 2 1 c))
  rw [← src_ag_0_2_1_eq c] at h
  exact h
theorem held_src_ag_0_2_1 (c : Dev nD) (q : PosShare TreeShare) (P : S1024x1024.Idx → Elt F .bf16 → Prop) :
    heldV c (src_ag_0_2_1 c) q (fun i v => P i v) ⊣⊢
      iprop(heldV c (dst_ag_1_2_0 (peer 2 1 c)) q (fun i v => P i v) ∗
        heldV c (dst_ag_1_2_1 (peer 2 1 c)) q (fun i v => P i v)) := by
  have h := heldS_union (F := F) (ℓ := (src_ag_0_2_1 c).view.loc (c : Thread nD τ)) (q := q) (dst_ag_1_2_disj (peer 2 1 c)) P
  rw [← src_ag_0_2_1_eq c] at h
  exact h

theorem loan_src_ag_3_2_1 (c : Dev nD) :
    loanV (F := F) c (src_ag_3_2_1 c) = loanV c (dst_ag_4_2_0 (peer 2 4 c)) := by
  unfold loanV; rw [src_ag_3_2_1_eq c]
theorem held_src_ag_3_2_1 (c : Dev nD) (q : PosShare TreeShare) (P : S1024x1024.Idx → Elt F .bf16 → Prop) :
    heldV c (src_ag_3_2_1 c) q (fun i v => P i v) = heldV c (dst_ag_4_2_0 (peer 2 4 c)) q (fun i v => P i v) := by
  unfold heldV; rw [src_ag_3_2_1_eq c]
theorem loan_colS_2 (c : Dev nD) :
    slotS (F := F) ((c : Thread nD τ).loc cc0_stg2_0) (colS 2) ⊣⊢
      iprop((loanV c (src_ag_0_2_0 c) ∗ loanV c (src_ag_0_2_1 c)) ∗
        (loanV c (dst_ag_0_2_0 (peer 2 0 c)) ∗ loanV c (dst_ag_0_2_1 (peer 2 0 c)))) := by
  have h := slotS_union (F := F) (ℓ := (c : Thread nD τ).loc cc0_stg2_0) (colS_2_disj c)
  rw [← colS_2_eq c] at h
  have h1 := slotS_union (F := F) (ℓ := (c : Thread nD τ).loc cc0_stg2_0) (src_ag_0_2_disj c)
  have h2 := slotS_union (F := F) (ℓ := (c : Thread nD τ).loc cc0_stg2_0) (dst_ag_0_2_disj (peer 2 0 c))
  exact ⟨h.1.trans (BIClass.sep_mono h1.1 h2.1), (BIClass.sep_mono h1.2 h2.2).trans h.2⟩
theorem held_colS_2 (c : Dev nD) (q : PosShare TreeShare) (P : S1024x1024.Idx → Elt F .bf16 → Prop) :
    heldS (F := F) ((c : Thread nD τ).loc cc0_stg2_0) (colS 2) q (fun i v => P i v) ⊣⊢
      iprop((heldV c (src_ag_0_2_0 c) q (fun i v => P i v) ∗ heldV c (src_ag_0_2_1 c) q (fun i v => P i v)) ∗
        (heldV c (dst_ag_0_2_0 (peer 2 0 c)) q (fun i v => P i v) ∗ heldV c (dst_ag_0_2_1 (peer 2 0 c)) q (fun i v => P i v))) := by
  have h := heldS_union (F := F) (ℓ := (c : Thread nD τ).loc cc0_stg2_0) (q := q) (colS_2_disj c) P
  rw [← colS_2_eq c] at h
  have h1 := heldS_union (F := F) (ℓ := (c : Thread nD τ).loc cc0_stg2_0) (q := q) (src_ag_0_2_disj c) P
  have h2 := heldS_union (F := F) (ℓ := (c : Thread nD τ).loc cc0_stg2_0) (q := q) (dst_ag_0_2_disj (peer 2 0 c)) P
  exact ⟨h.1.trans (BIClass.sep_mono h1.1 h2.1), (BIClass.sep_mono h1.2 h2.2).trans h.2⟩

/-! ## The whole result buffer

At the start of the gathering phase the buffer is the device's own rows of the three column blocks
and the twenty-seven landing places of the partners' pieces; at the end, those thirty pieces, each
holding values that satisfy the contract, are the buffer holding such values everywhere. -/

omit [FloatOps F] in
theorem slot_cols (c : Dev nD) :
    iprop(∃ f : Buf (Elt F) ((c : Thread nD τ).loc cc0_stg2_0), ((c : Thread nD τ).loc cc0_stg2_0) ↦{fullShare} f) ⊢
      (iprop(slotS ((c : Thread nD τ).loc cc0_stg2_0) (colS 0) ∗ slotS ((c : Thread nD τ).loc cc0_stg2_0) (colS 1) ∗ slotS ((c : Thread nD τ).loc cc0_stg2_0) (colS 2)) : sProp 𝕄) := by
  have h := slotS_union (F := F) (ℓ := ((c : Thread nD τ).loc cc0_stg2_0)) colS_disj_0
  rw [← univ_eq_cols] at h
  have h' := slotS_union (F := F) (ℓ := ((c : Thread nD τ).loc cc0_stg2_0)) colS_disj_1
  exact h.1.trans (BIClass.sep_mono (BIClass.entails_refl _) h'.1)

omit [FloatOps F] in
theorem held_cols (c : Dev nD) (P : S1024x1024.Idx → Elt F .bf16 → Prop) :
    iprop(heldS ((c : Thread nD τ).loc cc0_stg2_0) (colS 0) fullShare (fun i v => P i v) ∗ heldS ((c : Thread nD τ).loc cc0_stg2_0) (colS 1) fullShare (fun i v => P i v) ∗
        heldS ((c : Thread nD τ).loc cc0_stg2_0) (colS 2) fullShare (fun i v => P i v)) ⊢
      (iprop(∃ X : Buf (Elt F) ((c : Thread nD τ).loc cc0_stg2_0), ⌜∀ i, P i (X i)⌝ ∗ ((c : Thread nD τ).loc cc0_stg2_0) ↦{fullShare} X) : sProp 𝕄) := by
  have h := heldS_union (F := F) (ℓ := ((c : Thread nD τ).loc cc0_stg2_0)) (q := fullShare) colS_disj_0 P
  rw [← univ_eq_cols] at h
  have h' := heldS_union (F := F) (ℓ := ((c : Thread nD τ).loc cc0_stg2_0)) (q := fullShare) colS_disj_1 P
  exact ((BIClass.sep_mono (BIClass.entails_refl _) h'.2).trans h.2).trans (heldS_univ _)

/-- The buffer, whole, at any contents, is the device's own rows of the three column blocks and the
    landing places of the twenty-seven pieces its partners send it, each at any contents. The landing place
    of a piece is named by its sender's slice. -/
theorem out_split (c : Dev nD) :
    iprop(∃ f : Buf (Elt F) ((c : Thread nD τ).loc cc0_stg2_0), ((c : Thread nD τ).loc cc0_stg2_0) ↦{fullShare} f) ⊢
      (iprop(loanV c (src_ag_4_0_0 c) ∗
        loanV c (src_ag_4_1_0 c) ∗
        loanV c (src_ag_4_2_0 c) ∗
        loanV c (dst_ag_4_0_0 (peer 0 4 c)) ∗
        loanV c (dst_ag_4_1_0 (peer 1 4 c)) ∗
        loanV c (dst_ag_4_2_0 (peer 2 4 c)) ∗
        loanV c (dst_ag_3_0_0 (peer 0 3 c)) ∗
        loanV c (dst_ag_3_0_1 (peer 0 3 c)) ∗
        loanV c (dst_ag_3_1_0 (peer 1 3 c)) ∗
        loanV c (dst_ag_3_1_1 (peer 1 3 c)) ∗
        loanV c (dst_ag_3_2_0 (peer 2 3 c)) ∗
        loanV c (dst_ag_3_2_1 (peer 2 3 c)) ∗
        loanV c (dst_ag_2_0_0 (peer 0 2 c)) ∗
        loanV c (dst_ag_2_0_1 (peer 0 2 c)) ∗
        loanV c (dst_ag_2_1_0 (peer 1 2 c)) ∗
        loanV c (dst_ag_2_1_1 (peer 1 2 c)) ∗
        loanV c (dst_ag_2_2_0 (peer 2 2 c)) ∗
        loanV c (dst_ag_2_2_1 (peer 2 2 c)) ∗
        loanV c (dst_ag_1_0_0 (peer 0 1 c)) ∗
        loanV c (dst_ag_1_0_1 (peer 0 1 c)) ∗
        loanV c (dst_ag_1_1_0 (peer 1 1 c)) ∗
        loanV c (dst_ag_1_1_1 (peer 1 1 c)) ∗
        loanV c (dst_ag_1_2_0 (peer 2 1 c)) ∗
        loanV c (dst_ag_1_2_1 (peer 2 1 c)) ∗
        loanV c (dst_ag_0_0_0 (peer 0 0 c)) ∗
        loanV c (dst_ag_0_0_1 (peer 0 0 c)) ∗
        loanV c (dst_ag_0_1_0 (peer 1 0 c)) ∗
        loanV c (dst_ag_0_1_1 (peer 1 0 c)) ∗
        loanV c (dst_ag_0_2_0 (peer 2 0 c)) ∗
        loanV c (dst_ag_0_2_1 (peer 2 0 c))) : sProp 𝕄) := by
  iintro H
  ihave H := (slot_cols c) $$ H
  icases H with ⟨C0, C1, C2⟩
  -- column block 0, from the last exchange down to the first
  ihave C0 := (loan_colS_0 c).1 $$ C0
  icases C0 with ⟨⟨R, L⟩, ⟨D000, D001⟩⟩
  ihave L := (loan_src_ag_0_0_1 c).1 $$ L
  icases L with ⟨D100, D101⟩
  ihave R := (loan_src_ag_0_0_0 c).1 $$ R
  icases R with ⟨R, L⟩
  ihave L := (loan_src_ag_1_0_1 c).1 $$ L
  icases L with ⟨D200, D201⟩
  ihave R := (loan_src_ag_1_0_0 c).1 $$ R
  icases R with ⟨R, L⟩
  ihave L := (loan_src_ag_2_0_1 c).1 $$ L
  icases L with ⟨D300, D301⟩
  ihave R := (loan_src_ag_2_0_0 c).1 $$ R
  icases R with ⟨O0, L⟩
  ihave D400 := (Entails.of_eq (loan_src_ag_3_0_1 (F := F) c)) $$ L
  -- column block 1, from the last exchange down to the first
  ihave C1 := (loan_colS_1 c).1 $$ C1
  icases C1 with ⟨⟨R, L⟩, ⟨D010, D011⟩⟩
  ihave L := (loan_src_ag_0_1_1 c).1 $$ L
  icases L with ⟨D110, D111⟩
  ihave R := (loan_src_ag_0_1_0 c).1 $$ R
  icases R with ⟨R, L⟩
  ihave L := (loan_src_ag_1_1_1 c).1 $$ L
  icases L with ⟨D210, D211⟩
  ihave R := (loan_src_ag_1_1_0 c).1 $$ R
  icases R with ⟨R, L⟩
  ihave L := (loan_src_ag_2_1_1 c).1 $$ L
  icases L with ⟨D310, D311⟩
  ihave R := (loan_src_ag_2_1_0 c).1 $$ R
  icases R with ⟨O1, L⟩
  ihave D410 := (Entails.of_eq (loan_src_ag_3_1_1 (F := F) c)) $$ L
  -- column block 2, from the last exchange down to the first
  ihave C2 := (loan_colS_2 c).1 $$ C2
  icases C2 with ⟨⟨R, L⟩, ⟨D020, D021⟩⟩
  ihave L := (loan_src_ag_0_2_1 c).1 $$ L
  icases L with ⟨D120, D121⟩
  ihave R := (loan_src_ag_0_2_0 c).1 $$ R
  icases R with ⟨R, L⟩
  ihave L := (loan_src_ag_1_2_1 c).1 $$ L
  icases L with ⟨D220, D221⟩
  ihave R := (loan_src_ag_1_2_0 c).1 $$ R
  icases R with ⟨R, L⟩
  ihave L := (loan_src_ag_2_2_1 c).1 $$ L
  icases L with ⟨D320, D321⟩
  ihave R := (loan_src_ag_2_2_0 c).1 $$ R
  icases R with ⟨O2, L⟩
  ihave D420 := (Entails.of_eq (loan_src_ag_3_2_1 (F := F) c)) $$ L
  isplitl [O0]
  · iexact O0
  isplitl [O1]
  · iexact O1
  isplitl [O2]
  · iexact O2
  isplitl [D400]
  · iexact D400
  isplitl [D410]
  · iexact D410
  isplitl [D420]
  · iexact D420
  isplitl [D300]
  · iexact D300
  isplitl [D301]
  · iexact D301
  isplitl [D310]
  · iexact D310
  isplitl [D311]
  · iexact D311
  isplitl [D320]
  · iexact D320
  isplitl [D321]
  · iexact D321
  isplitl [D200]
  · iexact D200
  isplitl [D201]
  · iexact D201
  isplitl [D210]
  · iexact D210
  isplitl [D211]
  · iexact D211
  isplitl [D220]
  · iexact D220
  isplitl [D221]
  · iexact D221
  isplitl [D100]
  · iexact D100
  isplitl [D101]
  · iexact D101
  isplitl [D110]
  · iexact D110
  isplitl [D111]
  · iexact D111
  isplitl [D120]
  · iexact D120
  isplitl [D121]
  · iexact D121
  isplitl [D000]
  · iexact D000
  isplitl [D001]
  · iexact D001
  isplitl [D010]
  · iexact D010
  isplitl [D011]
  · iexact D011
  isplitl [D020]
  · iexact D020
  iexact D021

/-- The thirty pieces, each whole and holding values that satisfy `P` at their positions, are the buffer,
    whole, holding values that satisfy `P` everywhere. -/
theorem out_join (c : Dev nD) (P : S1024x1024.Idx → Elt F .bf16 → Prop) :
    iprop(heldV c (src_ag_4_0_0 c) fullShare (fun i v => P i v) ∗
        heldV c (src_ag_4_1_0 c) fullShare (fun i v => P i v) ∗
        heldV c (src_ag_4_2_0 c) fullShare (fun i v => P i v) ∗
        heldV c (dst_ag_4_0_0 (peer 0 4 c)) fullShare (fun i v => P i v) ∗
        heldV c (dst_ag_4_1_0 (peer 1 4 c)) fullShare (fun i v => P i v) ∗
        heldV c (dst_ag_4_2_0 (peer 2 4 c)) fullShare (fun i v => P i v) ∗
        heldV c (dst_ag_3_0_0 (peer 0 3 c)) fullShare (fun i v => P i v) ∗
        heldV c (dst_ag_3_0_1 (peer 0 3 c)) fullShare (fun i v => P i v) ∗
        heldV c (dst_ag_3_1_0 (peer 1 3 c)) fullShare (fun i v => P i v) ∗
        heldV c (dst_ag_3_1_1 (peer 1 3 c)) fullShare (fun i v => P i v) ∗
        heldV c (dst_ag_3_2_0 (peer 2 3 c)) fullShare (fun i v => P i v) ∗
        heldV c (dst_ag_3_2_1 (peer 2 3 c)) fullShare (fun i v => P i v) ∗
        heldV c (dst_ag_2_0_0 (peer 0 2 c)) fullShare (fun i v => P i v) ∗
        heldV c (dst_ag_2_0_1 (peer 0 2 c)) fullShare (fun i v => P i v) ∗
        heldV c (dst_ag_2_1_0 (peer 1 2 c)) fullShare (fun i v => P i v) ∗
        heldV c (dst_ag_2_1_1 (peer 1 2 c)) fullShare (fun i v => P i v) ∗
        heldV c (dst_ag_2_2_0 (peer 2 2 c)) fullShare (fun i v => P i v) ∗
        heldV c (dst_ag_2_2_1 (peer 2 2 c)) fullShare (fun i v => P i v) ∗
        heldV c (dst_ag_1_0_0 (peer 0 1 c)) fullShare (fun i v => P i v) ∗
        heldV c (dst_ag_1_0_1 (peer 0 1 c)) fullShare (fun i v => P i v) ∗
        heldV c (dst_ag_1_1_0 (peer 1 1 c)) fullShare (fun i v => P i v) ∗
        heldV c (dst_ag_1_1_1 (peer 1 1 c)) fullShare (fun i v => P i v) ∗
        heldV c (dst_ag_1_2_0 (peer 2 1 c)) fullShare (fun i v => P i v) ∗
        heldV c (dst_ag_1_2_1 (peer 2 1 c)) fullShare (fun i v => P i v) ∗
        heldV c (dst_ag_0_0_0 (peer 0 0 c)) fullShare (fun i v => P i v) ∗
        heldV c (dst_ag_0_0_1 (peer 0 0 c)) fullShare (fun i v => P i v) ∗
        heldV c (dst_ag_0_1_0 (peer 1 0 c)) fullShare (fun i v => P i v) ∗
        heldV c (dst_ag_0_1_1 (peer 1 0 c)) fullShare (fun i v => P i v) ∗
        heldV c (dst_ag_0_2_0 (peer 2 0 c)) fullShare (fun i v => P i v) ∗
        heldV c (dst_ag_0_2_1 (peer 2 0 c)) fullShare (fun i v => P i v)) ⊢
      (iprop(∃ X : Buf (Elt F) ((c : Thread nD τ).loc cc0_stg2_0), ⌜∀ i, P i (X i)⌝ ∗ ((c : Thread nD τ).loc cc0_stg2_0) ↦{fullShare} X) : sProp 𝕄) := by
  iintro ⟨O0, O1, O2, D400, D410, D420, D300, D301, D310, D311, D320, D321, D200, D201, D210, D211, D220, D221, D100, D101, D110, D111, D120, D121, D000, D001, D010, D011, D020, D021⟩
  -- column block 0, from the first exchange up to the last
  ihave L := (Entails.of_eq (held_src_ag_3_0_1 c fullShare P).symm) $$ D400
  ihave R := (held_src_ag_2_0_0 c fullShare P).2 $$ [O0 L]
  · isplitl [O0]
    · iexact O0
    · iexact L
  ihave L := (held_src_ag_2_0_1 c fullShare P).2 $$ [D300 D301]
  · isplitl [D300]
    · iexact D300
    · iexact D301
  ihave R := (held_src_ag_1_0_0 c fullShare P).2 $$ [R L]
  · isplitl [R]
    · iexact R
    · iexact L
  ihave L := (held_src_ag_1_0_1 c fullShare P).2 $$ [D200 D201]
  · isplitl [D200]
    · iexact D200
    · iexact D201
  ihave R := (held_src_ag_0_0_0 c fullShare P).2 $$ [R L]
  · isplitl [R]
    · iexact R
    · iexact L
  ihave L := (held_src_ag_0_0_1 c fullShare P).2 $$ [D100 D101]
  · isplitl [D100]
    · iexact D100
    · iexact D101
  ihave C0 := (held_colS_0 c fullShare P).2 $$ [R L D000 D001]
  · isplitl [R L]
    · isplitl [R]
      · iexact R
      · iexact L
    · isplitl [D000]
      · iexact D000
      · iexact D001
  -- column block 1, from the first exchange up to the last
  ihave L := (Entails.of_eq (held_src_ag_3_1_1 c fullShare P).symm) $$ D410
  ihave R := (held_src_ag_2_1_0 c fullShare P).2 $$ [O1 L]
  · isplitl [O1]
    · iexact O1
    · iexact L
  ihave L := (held_src_ag_2_1_1 c fullShare P).2 $$ [D310 D311]
  · isplitl [D310]
    · iexact D310
    · iexact D311
  ihave R := (held_src_ag_1_1_0 c fullShare P).2 $$ [R L]
  · isplitl [R]
    · iexact R
    · iexact L
  ihave L := (held_src_ag_1_1_1 c fullShare P).2 $$ [D210 D211]
  · isplitl [D210]
    · iexact D210
    · iexact D211
  ihave R := (held_src_ag_0_1_0 c fullShare P).2 $$ [R L]
  · isplitl [R]
    · iexact R
    · iexact L
  ihave L := (held_src_ag_0_1_1 c fullShare P).2 $$ [D110 D111]
  · isplitl [D110]
    · iexact D110
    · iexact D111
  ihave C1 := (held_colS_1 c fullShare P).2 $$ [R L D010 D011]
  · isplitl [R L]
    · isplitl [R]
      · iexact R
      · iexact L
    · isplitl [D010]
      · iexact D010
      · iexact D011
  -- column block 2, from the first exchange up to the last
  ihave L := (Entails.of_eq (held_src_ag_3_2_1 c fullShare P).symm) $$ D420
  ihave R := (held_src_ag_2_2_0 c fullShare P).2 $$ [O2 L]
  · isplitl [O2]
    · iexact O2
    · iexact L
  ihave L := (held_src_ag_2_2_1 c fullShare P).2 $$ [D320 D321]
  · isplitl [D320]
    · iexact D320
    · iexact D321
  ihave R := (held_src_ag_1_2_0 c fullShare P).2 $$ [R L]
  · isplitl [R]
    · iexact R
    · iexact L
  ihave L := (held_src_ag_1_2_1 c fullShare P).2 $$ [D220 D221]
  · isplitl [D220]
    · iexact D220
    · iexact D221
  ihave R := (held_src_ag_0_2_0 c fullShare P).2 $$ [R L]
  · isplitl [R]
    · iexact R
    · iexact L
  ihave L := (held_src_ag_0_2_1 c fullShare P).2 $$ [D120 D121]
  · isplitl [D120]
    · iexact D120
    · iexact D121
  ihave C2 := (held_colS_2 c fullShare P).2 $$ [R L D020 D021]
  · isplitl [R L]
    · isplitl [R]
      · iexact R
      · iexact L
    · isplitl [D020]
      · iexact D020
      · iexact D021
  iapply (held_cols c P)
  isplitl [C0]
  · iexact C0
  isplitl [C1]
  · iexact C1
  · iexact C2

end Cert.Kernel.RegionsOut

end
-- ==== Proof.SendStepK.lean ====
/-
  One addressed transfer of the exchange as a single rule: the rows a device sends come back to it with
  the credit of its own cell, and the rows landed at the partner are handed to the partner's cell
  together with the fact that they satisfy the predicate that cell's payload states.
-/
import proofs.«900879_g7700000000000880_dist_matmul_gelu_kshard_i_m1024_n1024_k512_v7x_i32_bf16_1_alg».proof.Proof.SchedK
import Idealize.ShloMosaic.Lib.Tactic

noncomputable section

namespace Cert.Kernel.SendStep

open Cert.Kernel Cert.Kernel.Gen Cert.Kernel.Proto Cert.Kernel.Tab Cert.Kernel.Held Cert.Kernel.PayTab Cert.Kernel.Sched
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ UU ℕ

variable (ct : Contract F)

abbrev 𝒱₀ : Variants := Variants.none

/-- One addressed transfer of the exchange, generic over the two pieces: the sender's rows go back to it with
    its own cell's credit; the rows landed at the partner satisfy the receive cell's contract. -/
theorem send_step {s : Shape} {e : EltTy} (K₁ K₂ : ℕ) (c n p : Dev nD) (hn : n = p)
    (src dst : Memref sig .tc .vmem s e) (js jr : DmaSem sig)
    {hsc : (dst : Memref sig (Dev.tc n : Thread nD τ).2.kind .vmem s e).view.ref.isScScratch = false}
    {hsrc : src.view.WordExact} {hdst : dst.view.WordExact}
    {hsem : DmaTarget.Typed .vmem (.dma jr) (.remote (Dev.tc n : Thread nD τ) dst (.dma js) hsc)}
    {α : Type} {Q : α → sProp 𝕄} {k : PUnit → Prog (TpuEff nD τ sig (Elt F) Λ₀ .tc) α}
    (fs : Buf (Elt F) (src.view.loc (c : Thread nD τ))) (fd : Buf (Elt F) (dst.view.loc (p : Thread nD τ)))
    (O : CellTallies nD τ sig Unit) (W : Waits sig Unit)
    (P : dst.view.ty.Idx → Elt F dst.view.ty.elt → Prop)
    (hds : (sched ct).duties ((c : Thread nD τ), .dma js) 0 = {0})
    (hdr : (sched ct).duties ((p : Thread nD τ), .dma jr) 0 = {0})
    (N : ℕ) (hN : dst.view.amount (.dma jr) = N) (hks : amtIx js.val = N) (hkr : amtIx jr.val = N)
    (hps : dmaPay ct c js.val = loanV c src)
    (hpr : dmaPay ct p jr.val = heldV p dst fullShare P)
    (hlaw : ∀ i ∈ dst.view.set, P i ((dst.view.write (Elt F) fd (src.view.read (Elt F) fs) Finset.univ) i)) :
    iprop(cellInv ER (sched ct) K₁ ((c : Thread nD τ), .dma js) ∗ cellInv ER (sched ct) K₂ ((p : Thread nD τ), .dma jr)
        ∗ (src.view.loc (c : Thread nD τ) ↦[src.view.set]{fullShare} fs) ∗ (dst.view.loc (p : Thread nD τ) ↦[dst.view.set]{fullShare} fd)
        ∗ owes (c : Thread nD τ) (O + tallyAt ((p : Thread nD τ), .dma jr) () N) W
        ∗ dutyTok ER ((c : Thread nD τ), .dma js) 0 (0 : Fin 5) ∗ reached ER ((c : Thread nD τ), .dma js) 0
        ∗ dutyTok ER ((p : Thread nD τ), .dma jr) 0 (0 : Fin 5) ∗ reached ER ((p : Thread nD τ), .dma jr) 0)
      ⊢ iprop(((cred (tallyAt ((c : Thread nD τ), .dma js) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma js) hsc) (.dma jr) hsrc hdst hsem) k) Q) := by
  subst hn
  exact Rounds.wp_send_pointsTo 𝒱₀ ER (sched ct) (c : Thread nD τ) none (κ₁ := K₁) (κ₂ := K₂)
    (r₁ := 0) (r₂ := 0) (d₁ := (0 : Fin 5)) (d₂ := (0 : Fin 5)) (fd := fd) (fs := fs) (q := fullShare)
    (src := src) (dst := dst) (sS := SemLoc.dma js) (sem := SemLoc.dma jr) (c' := (n : Thread nD τ))
    (by rw [hds]; exact Finset.mem_singleton_self _) (by rw [hdr]; exact Finset.mem_singleton_self _)
    () () N hN ((rfl : (sched ct).amount ((c : Thread nD τ), SemLoc.dma js) 0 0 = amtIx js.val).trans hks)
    ((rfl : (sched ct).amount ((n : Thread nD τ), SemLoc.dma jr) 0 0 = amtIx jr.val).trans hkr) O rfl
    (by
      show _ ⊢ dmaPay ct c js.val
      rw [hps]; unfold loanV; exact exists_intro (Φ := fun f => iprop(src.view.loc (c : Thread nD τ) ↦[src.view.set]{fullShare} f)) fs)
    (by
      show _ ⊢ dmaPay ct n jr.val
      rw [hpr]; unfold heldV
      iintro H; iexists _; isplitl [H]; · iexact H
      ipureintro; exact hlaw)

end Cert.Kernel.SendStep

end
-- ==== Proof.PlumbK.lean ====
/-
  Reading and writing a buffer through rectangles, index by index: what a load at a rectangle reads, what
  a store through a rectangle leaves, and what a transfer between the same rectangle of two buffers of one
  shape moves. Stated over the coordinates, with the rectangle's offsets given by an equation.
-/
import proofs.«900879_g7700000000000880_dist_matmul_gelu_kshard_i_m1024_n1024_k512_v7x_i32_bf16_1_alg».proof.Proof.HeldK
import proofs.«900879_g7700000000000880_dist_matmul_gelu_kshard_i_m1024_n1024_k512_v7x_i32_bf16_1_alg».proof.Proof.GeoK
import Idealize.ShloMosaic.Lib.WritesUnit
import Idealize.ShloMosaic.Lib.Pipeline.Value

noncomputable section

namespace Cert.Kernel.Plumb

open Idealize.ShloMosaic Idealize.ShloMosaic.TcCoe Idealize.SL.Sem

variable {sig : RefSig} {κ κ' : Kind} {sp sp' : Space} {s : Shape} {e : EltTy} {Val : EltTy → Type}

/-- The index of the buffer under index `x` of a unit-stride rectangle: the offsets plus `x`. -/
theorem emb_unit_val {off size : Fin s.rank → ℕ} (inb : ∀ a, off a + size a ≤ s.size a)
    (x : (Rect.unit off size inb).shape.Idx) (a : Fin s.rank) :
    ((Rect.unit off size inb).emb x a).val = off a + (x a).val := by
  show off a + 1 * (x a).val = _
  rw [Nat.one_mul]

/-- An index whose coordinates are the offsets plus `x`'s is the one under `x`. -/
theorem emb_unit_eq {off off' size : Fin s.rank → ℕ} (inb : ∀ a, off a + size a ≤ s.size a)
    (x : (Rect.unit off size inb).shape.Idx) (y : s.Idx) (heq : off = off')
    (hy : ∀ a, (y a).val = off' a + (x a).val) : (Rect.unit off size inb).emb x = y := by
  subst heq
  exact funext fun a => Fin.ext (by rw [emb_unit_val, hy a])

/-- A load at a unit-stride rectangle reads, at `j`, the view's element at the offsets plus `j`. -/
theorem readAt_unit (v : View sig κ sp s e) {off off' size : Fin s.rank → ℕ} (inb : ∀ a, off a + size a ≤ s.size a)
    (f : v.ty.Contents Val) (j : (Rect.unit off size inb).shape.Idx) (y : s.Idx) (heq : off = off')
    (hy : ∀ a, (y a).val = off' a + (j a).val) :
    v.readAt Val (Rect.unit off size inb).toLoadRect f j = v.read Val f y := by
  rw [View.readAt_apply]
  exact congrArg (v.read Val f) (emb_unit_eq inb j y heq hy)

/-- For a whole buffer: the load reads the contents at the offsets plus `j`. -/
theorem readAt_unit_whole (b : Ref sig κ) {off off' size : Fin b.ty.shape.rank → ℕ} (inb : ∀ a, off a + size a ≤ b.ty.shape.size a)
    (f : b.ty.Contents Val) (j : (Rect.unit off size inb).shape.Idx) (y : b.ty.shape.Idx) (heq : off = off')
    (hy : ∀ a, (y a).val = off' a + (j a).val) :
    (Memref.whole b).view.readAt Val (Rect.unit off size inb).toLoadRect f j = f y :=
  readAt_unit (View.whole b) inb f j y heq hy

/-- After a list of stores whose newest goes through a unit-stride rectangle, a whole buffer holds, at the
    offsets plus `x`, the newest payload at `x`; -/
theorem writes_unit_whole_of_mem (b : Ref sig κ) (f : b.ty.Contents Val) {off off' size : Fin b.ty.shape.rank → ℕ}
    (inb : ∀ a, off a + size a ≤ b.ty.shape.size a) (w : (Rect.unit off size inb).shape.Idx → Val b.ty.elt)
    (L : List (View.Piece Val b.ty.shape b.ty.elt)) (y : b.ty.shape.Idx) (x : (Rect.unit off size inb).shape.Idx)
    (heq : off = off') (hx : ∀ a, (y a).val = off' a + (x a).val) :
    (Memref.whole b).view.writes Val f ((⟨Rect.unit off size inb, w⟩ : View.Piece Val b.ty.shape b.ty.elt) :: L) y = w x :=
  View.read_writes_cons_unit_of_mem (View.whole b) f inb w L y x heq hx

/-- Outside the rectangle on some axis, what the rest of the list left. -/
theorem writes_unit_whole_of_not_mem (b : Ref sig κ) (f : b.ty.Contents Val) {off off' size : Fin b.ty.shape.rank → ℕ}
    (inb : ∀ a, off a + size a ≤ b.ty.shape.size a) (w : (Rect.unit off size inb).shape.Idx → Val b.ty.elt)
    (L : List (View.Piece Val b.ty.shape b.ty.elt)) (y : b.ty.shape.Idx) (heq : off = off')
    (a : Fin b.ty.shape.rank) (ha : (y a).val < off' a ∨ off' a + size a ≤ (y a).val) :
    (Memref.whole b).view.writes Val f ((⟨Rect.unit off size inb, w⟩ : View.Piece Val b.ty.shape b.ty.elt) :: L) y
      = (Memref.whole b).view.writes Val f L y :=
  View.read_writes_cons_unit_of_not_mem (View.whole b) f inb w L y heq a ha

/-- A transfer between the same rectangle of two views of one shape: the destination, read at an index of
    the rectangle, holds what the source read there. -/
theorem xfer_read (vd : View sig κ sp s e) (vs : View sig κ' sp' s e) (r : Rect s) (fd : vd.ty.Contents Val)
    (fs : vs.ty.Contents Val) (x : r.shape.Idx) :
    vd.read Val ((vd.slice r).write Val fd ((vs.slice r).read Val fs) Finset.univ) (r.emb x) = vs.read Val fs (r.emb x) :=
  View.read_slice_write_emb r fd _ (Finset.mem_univ x)

/-- Every element the destination rectangle covers is under one of the rectangle's indices. -/
theorem mem_slice_set (vd : View sig κ sp s e) (r : Rect s) {i : vd.ty.Idx} (h : i ∈ (vd.slice r).set) :
    ∃ x : r.shape.Idx, vd.emb (r.emb x) = i :=
  View.exists_emb_of_mem_set (vd.slice r) h

/-- For whole buffers of one shape and element type (`bs`'s stated through `hs`, `he`), sliced by one
    unit-stride rectangle: at every element the destination covers, the transfer leaves the source's contents at
    the same coordinates. -/
theorem xfer_whole (bd : Ref sig κ) (vs : View sig κ' sp' bd.ty.shape bd.ty.elt) {off size : Fin bd.ty.shape.rank → ℕ}
    (inb : ∀ a, off a + size a ≤ bd.ty.shape.size a) (fd : bd.ty.Contents Val) (fs : vs.ty.Contents Val)
    (i : bd.ty.shape.Idx) (hi : i ∈ ((View.whole bd).slice (Rect.unit off size inb)).set) :
    ((View.whole bd).slice (Rect.unit off size inb)).write Val fd ((vs.slice (Rect.unit off size inb)).read Val fs) Finset.univ i
      = vs.read Val fs i := by
  obtain ⟨x, rfl⟩ := mem_slice_set (View.whole bd) (Rect.unit off size inb) hi
  exact xfer_read (View.whole bd) vs (Rect.unit off size inb) fd fs x

/-- An index of the buffer lies under a unit-stride rectangle of a whole buffer exactly when every coordinate lies
    in the rectangle's range. -/
theorem mem_slice_unit_whole (b : Ref sig κ) {off off' size : Fin b.ty.shape.rank → ℕ} (inb : ∀ a, off a + size a ≤ b.ty.shape.size a)
    (heq : off = off') (i : b.ty.shape.Idx) :
    i ∈ ((View.whole b).slice (Rect.unit off size inb)).set ↔ ∀ a, off' a ≤ (i a).val ∧ (i a).val < off' a + size a := by
  subst heq
  rw [View.set_slice_whole, Rect.mem_set_unit]

/-- One store through a unit-stride rectangle of a whole buffer leaves, at the offsets plus `x`, the payload
    at `x`; -/
theorem write_unit_whole_of_mem (b : Ref sig κ) (f : b.ty.Contents Val) {off off' size : Fin b.ty.shape.rank → ℕ}
    (inb : ∀ a, off a + size a ≤ b.ty.shape.size a) (w : (Rect.unit off size inb).shape.Idx → Val b.ty.elt)
    (y : b.ty.shape.Idx) (x : (Rect.unit off size inb).shape.Idx)
    (heq : off = off') (hx : ∀ a, (y a).val = off' a + (x a).val) :
    ((View.whole b).slice (Rect.unit off size inb)).write Val f w Finset.univ y = w x :=
  writes_unit_whole_of_mem b f inb w [] y x heq hx

/-- Outside the rectangle on some axis, what the buffer held. -/
theorem write_unit_whole_of_not_mem (b : Ref sig κ) (f : b.ty.Contents Val) {off off' size : Fin b.ty.shape.rank → ℕ}
    (inb : ∀ a, off a + size a ≤ b.ty.shape.size a) (w : (Rect.unit off size inb).shape.Idx → Val b.ty.elt)
    (y : b.ty.shape.Idx) (heq : off = off')
    (a : Fin b.ty.shape.rank) (ha : (y a).val < off' a ∨ off' a + size a ≤ (y a).val) :
    ((View.whole b).slice (Rect.unit off size inb)).write Val f w Finset.univ y = f y :=
  writes_unit_whole_of_not_mem b f inb w [] y heq a ha

/-- A landed piece is right wherever the source's contents are: if the source's contents satisfy `P` at every
    element the rectangle covers, so does the destination after the transfer. -/
theorem xfer_whole_of_forall (bd : Ref sig κ) (vs : View sig κ' sp' bd.ty.shape bd.ty.elt) {off size : Fin bd.ty.shape.rank → ℕ}
    (inb : ∀ a, off a + size a ≤ bd.ty.shape.size a) (fd : bd.ty.Contents Val) (fs : vs.ty.Contents Val)
    (P : bd.ty.shape.Idx → Val bd.ty.elt → Prop)
    (h : ∀ i ∈ ((View.whole bd).slice (Rect.unit off size inb)).set, P i (vs.read Val fs i)) :
    ∀ i ∈ ((View.whole bd).slice (Rect.unit off size inb)).set,
      P i (((View.whole bd).slice (Rect.unit off size inb)).write Val fd ((vs.slice (Rect.unit off size inb)).read Val fs) Finset.univ i) := by
  intro i hi
  rw [xfer_whole bd vs inb fd fs i hi]
  exact h i hi

/-- A store through a unit-stride rectangle of a whole buffer is right on the rectangle if the payload is,
    index by index: whatever `P` says of the payload at `x`, placed at the offsets plus `x`, it says of the
    buffer's contents there after the store. -/
theorem write_unit_whole_forall (b : Ref sig κ) (f : b.ty.Contents Val) {off off' size : Fin b.ty.shape.rank → ℕ}
    (inb : ∀ a, off a + size a ≤ b.ty.shape.size a) (w : (Rect.unit off size inb).shape.Idx → Val b.ty.elt)
    (heq : off = off') (P : b.ty.shape.Idx → Val b.ty.elt → Prop)
    (hw : ∀ (x : (Rect.unit off size inb).shape.Idx) (y : b.ty.shape.Idx), (∀ a, (y a).val = off' a + (x a).val) → P y (w x))
    (y : b.ty.shape.Idx) (hy : ∀ a, off' a ≤ (y a).val ∧ (y a).val < off' a + size a) :
    P y (((View.whole b).slice (Rect.unit off size inb)).write Val f w Finset.univ y) := by
  have hx : ∀ a, (y a).val = off' a + ((Rect.unitLocal (s := b.ty.shape) (off := off') (size := size) y hy) a).val := fun a => by
    have := hy a
    rw [Rect.unitLocal_val]
    omega
  rw [write_unit_whole_of_mem b f inb w y (Rect.unitLocal (s := b.ty.shape) (off := off') (size := size) y hy) heq hx]
  exact hw _ y hx

end Cert.Kernel.Plumb
end

/-- info: 'Cert.Kernel.Plumb.readAt_unit_whole' depends on axioms: [propext, Classical.choice, Quot.sound] -/
#guard_msgs in #print axioms Cert.Kernel.Plumb.readAt_unit_whole

/-- info: 'Cert.Kernel.Plumb.writes_unit_whole_of_mem' depends on axioms: [propext, Classical.choice, Quot.sound] -/
#guard_msgs in #print axioms Cert.Kernel.Plumb.writes_unit_whole_of_mem

/-- info: 'Cert.Kernel.Plumb.writes_unit_whole_of_not_mem' depends on axioms: [propext, Classical.choice, Quot.sound] -/
#guard_msgs in #print axioms Cert.Kernel.Plumb.writes_unit_whole_of_not_mem

/-- info: 'Cert.Kernel.Plumb.xfer_whole' depends on axioms: [propext, Classical.choice, Quot.sound] -/
#guard_msgs in #print axioms Cert.Kernel.Plumb.xfer_whole

/-- info: 'Cert.Kernel.Plumb.mem_slice_unit_whole' depends on axioms: [propext, Classical.choice, Quot.sound] -/
#guard_msgs in #print axioms Cert.Kernel.Plumb.mem_slice_unit_whole
-- ==== Proof.SegAValPK.lean ====
/-
  The values of the first stage, stated over the terms its stores write: the send buffer is right on the
  columns of each block once that block's product is stored; a piece of it landed at the partner is right
  under the partner's receive contract; the accumulator is right on the rows kept.
-/
import proofs.«900879_g7700000000000880_dist_matmul_gelu_kshard_i_m1024_n1024_k512_v7x_i32_bf16_1_alg».proof.Proof.LawsK
import proofs.«900879_g7700000000000880_dist_matmul_gelu_kshard_i_m1024_n1024_k512_v7x_i32_bf16_1_alg».proof.Proof.PlumbK

noncomputable section

namespace Cert.Kernel.SegAValP

open Cert.Kernel Cert.Kernel.Gen Cert.Kernel.Proto Cert.Kernel.Tab Cert.Kernel.Held
open Cert.Kernel.Laws Cert.Kernel.Plumb
open Idealize.ShloMosaic Idealize.ShloMosaic.TcCoe Idealize.SL.Sem

variable {F : FTy → Type} [FloatOps F]
variable (ct : Contract F) (c : Dev nD) (YA : S1024x512.Idx → F .f32) (YB : S512x1024.Idx → F .f32)

theorem blk_of_lt {q : ℕ} (h : q < 384) : blk q = 0 := by unfold blk; rw [if_pos h]
theorem blk_of_mid {q : ℕ} (h1 : 384 ≤ q) (h2 : q < 768) : blk q = 1 := by
  unfold blk; rw [if_neg (by omega), if_pos h2]
theorem blk_of_ge {q : ℕ} (h : 768 ≤ q) : blk q = 2 := by
  unfold blk; rw [if_neg (by omega), if_neg (by omega)]

/-- A piece of the first send buffer, landed in the partner's first receive buffer through the same rectangle, is
    right under the partner's receive contract wherever the send buffer is right under the sender's. -/
theorem landed0 (k : Fin 3) {off size : Fin 2 → ℕ} {r1 q0 : ℕ} (inb : ∀ a, off a + size a ≤ S512x1024.size a)
    (heq : off = ![r1, q0]) (hblk : ∀ q, q0 ≤ q → q < q0 + size 1 → blk q = k)
    (FS : S512x1024.Idx → F .bf16)
    (hFS : ∀ i : S512x1024.Idx, q0 ≤ (i 1).val → (i 1).val < q0 + size 1 → ct.okSS 0 c (i 0).val (i 1).val (FS i))
    (fd : S512x1024.Idx → F .bf16) :
    ∀ i ∈ ((View.whole cc0_scratch1).slice (Rect.unit (s := S512x1024) off size inb)).set,
      pRS ct 0 (peer k 0 c) (sh := S512x1024) i
        ((((View.whole cc0_scratch1).slice (Rect.unit (s := S512x1024) off size inb)).write (Elt F) fd
          (((View.whole cc0_scratch6).slice (Rect.unit (s := S512x1024) off size inb)).read (Elt F) FS) Finset.univ) i) := by
  refine xfer_whole_of_forall (Val := Elt F) cc0_scratch1 (View.whole cc0_scratch6) inb fd FS
    (fun i v => pRS ct 0 (peer k 0 c) (sh := S512x1024) i v) ?_
  intro i hi
  have hm := (mem_slice_unit_whole cc0_scratch1 inb heq i).mp hi
  have h1 := hm 1
  have hq0 : q0 ≤ (i 1).val := h1.1
  have hq1 : (i 1).val < q0 + size 1 := h1.2
  rw [View.read_whole]
  show ct.okSS 0 (peer (blk (i 1).val) 0 (peer k 0 c)) (i 0).val (i 1).val (FS i)
  rw [hblk _ hq0 hq1, peer_peer]
  exact hFS i hq0 hq1

/-! ## What the loads of the first stage read -/

/-- A load of 512 rows of the left block from row `r0` reads, at `j`, the block at row `r0 + j 0`, column `j 1`. -/
theorem loadA {off : Fin 2 → ℕ} {r0 : ℕ} (inb : ∀ a, off a + S512x512.size a ≤ S1024x512.size a) (heq : off = ![r0, 0]) :
    ∀ (j : S512x512.Idx) (i : S1024x512.Idx), (i 0).val = r0 + (j 0).val → (i 1).val = (j 1).val →
      View.readAt (Elt F) (Memref.whole cc0_stg0_0 : Memref sig .tc .vmem S1024x512 .f32).view (Rect.unit (s := S1024x512) off S512x512.size inb).toLoadRect YA j = YA i :=
  fun j i a b => readAt_unit_whole (Val := Elt F) cc0_stg0_0 inb YA j i heq
    (Fin.forall_fin_two.mpr ⟨a, b.trans (Nat.zero_add _).symm⟩)

/-- A load of the columns of the right block from column `q0` reads, at `j`, the block at row `j 0`, column `q0 + j 1`. -/
theorem loadB {W q0 : ℕ} {off : Fin 2 → ℕ} (inb : ∀ a, off a + (![512, W] : Fin 2 → ℕ) a ≤ S512x1024.size a) (heq : off = ![0, q0]) :
    ∀ (j : (⟨2, ![512, W]⟩ : Shape).Idx) (i : S512x1024.Idx), (i 0).val = (j 0).val → (i 1).val = q0 + (j 1).val →
      View.readAt (Elt F) (Memref.whole cc0_stg1_0 : Memref sig .tc .vmem S512x1024 .f32).view (Rect.unit (s := S512x1024) off ![512, W] inb).toLoadRect YB j = YB i :=
  fun j i a b => readAt_unit_whole (Val := Elt F) cc0_stg1_0 inb YB j i heq
    (Fin.forall_fin_two.mpr ⟨a.trans (Nat.zero_add _).symm, b⟩)

/-! ## The send buffer after each block's store -/

/-- After the store of column block 0 the first send buffer is right on columns `0 … 383`. -/
theorem ss_core0 (laws : Laws ct c YA YB) (g : S512x1024.Idx → F .bf16) (x : Vec F S512x512 .f32) (y : Vec F S512x384 .f32)
    (hx : ∀ j i, (i 0).val = (1 - bit 0 0 c) * 512 + (j 0).val → (i 1).val = (j 1).val → x j = YA i)
    (hy : ∀ j i, (i 0).val = (j 0).val → (i 1).val = (j 1).val → y j = YB i) :
    ∀ i : S512x1024.Idx, 0 ≤ (i 1).val → (i 1).val < 0 + S512x384.size 1 → ct.okSS 0 c (i 0).val (i 1).val
      ((((View.whole cc0_scratch6).slice (Rect.unit (s := S512x1024) ![0, 0] S512x384.size inb_S512x1024_S512x384_0_0)).write (Elt F) g (k0_pay1 x y) Finset.univ) i) := by
  intro i h1 h2
  refine write_unit_whole_forall (Val := Elt F) cc0_scratch6 g inb_S512x1024_S512x384_0_0 (k0_pay1 x y) rfl
    (fun i v => ct.okSS 0 c (i 0).val (i 1).val v) ?_ i (Fin.forall_fin_two.mpr ⟨⟨Nat.zero_le _, ?_⟩, ⟨h1, h2⟩⟩)
  · intro j i' hi'
    have e0 : (i' 0).val = (j 0).val := (hi' 0).trans (Nat.zero_add _)
    have e1 : (i' 1).val = (j 1).val := (hi' 1).trans (Nat.zero_add _)
    show ct.okSS 0 c (i' 0).val (i' 1).val (k0_pay1 x y j)
    rw [e0, e1]
    exact laws.mm_ss0 x y hx hy j
  · show (i 0).val < 0 + 512
    have h512 : (i 0).val < 512 := (i 0).isLt
    omega

/-- After the store of column block 1 the first send buffer is right on columns `384 … 767`. -/
theorem ss_core1 (laws : Laws ct c YA YB) (g : S512x1024.Idx → F .bf16) (x : Vec F S512x512 .f32) (y : Vec F S512x384 .f32)
    (hx : ∀ j i, (i 0).val = (1 - bit 1 0 c) * 512 + (j 0).val → (i 1).val = (j 1).val → x j = YA i)
    (hy : ∀ j i, (i 0).val = (j 0).val → (i 1).val = 384 + (j 1).val → y j = YB i) :
    ∀ i : S512x1024.Idx, 384 ≤ (i 1).val → (i 1).val < 384 + S512x384.size 1 → ct.okSS 0 c (i 0).val (i 1).val
      ((((View.whole cc0_scratch6).slice (Rect.unit (s := S512x1024) ![0, 384] S512x384.size inb_S512x1024_S512x384_0_384)).write (Elt F) g (k0_pay3 (k0_pay2 x y)) Finset.univ) i) := by
  intro i h1 h2
  have h512 : (i 0).val < 512 := (i 0).isLt
  refine write_unit_whole_forall (Val := Elt F) cc0_scratch6 g inb_S512x1024_S512x384_0_384 (k0_pay3 (k0_pay2 x y)) rfl
    (fun i v => ct.okSS 0 c (i 0).val (i 1).val v) ?_ i (Fin.forall_fin_two.mpr ⟨⟨Nat.zero_le _, ?_⟩, ⟨h1, h2⟩⟩)
  · intro j i' hi'
    have e0 : (i' 0).val = (j 0).val := (hi' 0).trans (Nat.zero_add _)
    have e1 : (i' 1).val = 384 + (j 1).val := hi' 1
    show ct.okSS 0 c (i' 0).val (i' 1).val (k0_pay3 (k0_pay2 x y) j)
    rw [e0, e1]
    exact laws.mm_ss1 x y hx hy j
  · show (i 0).val < 0 + 512
    omega

/-- After the store of column block 2 the first send buffer is right on columns `768 … 1023`. -/
theorem ss_core2 (laws : Laws ct c YA YB) (g : S512x1024.Idx → F .bf16) (x : Vec F S512x512 .f32) (y : Vec F S512x256 .f32)
    (hx : ∀ j i, (i 0).val = (1 - bit 2 0 c) * 512 + (j 0).val → (i 1).val = (j 1).val → x j = YA i)
    (hy : ∀ j i, (i 0).val = (j 0).val → (i 1).val = 768 + (j 1).val → y j = YB i) :
    ∀ i : S512x1024.Idx, 768 ≤ (i 1).val → (i 1).val < 768 + S512x256.size 1 → ct.okSS 0 c (i 0).val (i 1).val
      ((((View.whole cc0_scratch6).slice (Rect.unit (s := S512x1024) ![0, 768] S512x256.size inb_S512x1024_S512x256_0_768)).write (Elt F) g (k0_pay5 (k0_pay4 x) y) Finset.univ) i) := by
  intro i h1 h2
  have h512 : (i 0).val < 512 := (i 0).isLt
  refine write_unit_whole_forall (Val := Elt F) cc0_scratch6 g inb_S512x1024_S512x256_0_768 (k0_pay5 (k0_pay4 x) y) rfl
    (fun i v => ct.okSS 0 c (i 0).val (i 1).val v) ?_ i (Fin.forall_fin_two.mpr ⟨⟨Nat.zero_le _, ?_⟩, ⟨h1, h2⟩⟩)
  · intro j i' hi'
    have e0 : (i' 0).val = (j 0).val := (hi' 0).trans (Nat.zero_add _)
    have e1 : (i' 1).val = 768 + (j 1).val := hi' 1
    show ct.okSS 0 c (i' 0).val (i' 1).val (k0_pay5 (k0_pay4 x) y j)
    rw [e0, e1]
    exact laws.mm_ss2 x y hx hy j
  · show (i 0).val < 0 + 512
    omega

/-! ## The accumulator after each block's store -/

/-- After the store of column block 0 the accumulator is right on the rows kept, columns `0 … 383`. -/
theorem acc_core0 (laws : Laws ct c YA YB) (g : S1024x1024.Idx → F .f32) (x : Vec F S512x512 .f32) (y : Vec F S512x384 .f32)
    {off : Fin 2 → ℕ} (inb : ∀ a, off a + S512x384.size a ≤ S1024x1024.size a) (heq : off = ![lo 0 c 1, 0])
    (hx : ∀ j i, (i 0).val = lo 0 c 1 + (j 0).val → (i 1).val = (j 1).val → x j = YA i)
    (hy : ∀ j i, (i 0).val = (j 0).val → (i 1).val = (j 1).val → y j = YB i) :
    ∀ i : S1024x1024.Idx, (∀ a, (![lo 0 c 1, 0] : Fin 2 → ℕ) a ≤ (i a).val ∧ (i a).val < (![lo 0 c 1, 0] : Fin 2 → ℕ) a + S512x384.size a) →
      ct.okAcc 0 c (i 0).val (i 1).val
        ((((View.whole cc0_scratch0).slice (Rect.unit (s := S1024x1024) off S512x384.size inb)).write (Elt F) g (k0_pay6 x y) Finset.univ) i) := by
  intro i hi
  refine write_unit_whole_forall (Val := Elt F) cc0_scratch0 g inb (k0_pay6 x y) heq
    (fun i v => ct.okAcc 0 c (i 0).val (i 1).val v) ?_ i hi
  intro j i' hi'
  have e0 : (i' 0).val = lo 0 c 1 + (j 0).val := hi' 0
  have e1 : (i' 1).val = (j 1).val := (hi' 1).trans (Nat.zero_add _)
  show ct.okAcc 0 c (i' 0).val (i' 1).val (k0_pay6 x y j)
  rw [e0, e1]
  exact laws.mm_acc0 x y hx hy j

/-- After the store of column block 1 the accumulator is right on the rows kept, columns `384 … 767`. -/
theorem acc_core1 (laws : Laws ct c YA YB) (g : S1024x1024.Idx → F .f32) (x : Vec F S512x512 .f32) (y : Vec F S512x384 .f32)
    {off : Fin 2 → ℕ} (inb : ∀ a, off a + S512x384.size a ≤ S1024x1024.size a) (heq : off = ![lo 1 c 1, 384])
    (hx : ∀ j i, (i 0).val = lo 1 c 1 + (j 0).val → (i 1).val = (j 1).val → x j = YA i)
    (hy : ∀ j i, (i 0).val = (j 0).val → (i 1).val = 384 + (j 1).val → y j = YB i) :
    ∀ i : S1024x1024.Idx, (∀ a, (![lo 1 c 1, 384] : Fin 2 → ℕ) a ≤ (i a).val ∧ (i a).val < (![lo 1 c 1, 384] : Fin 2 → ℕ) a + S512x384.size a) →
      ct.okAcc 0 c (i 0).val (i 1).val
        ((((View.whole cc0_scratch0).slice (Rect.unit (s := S1024x1024) off S512x384.size inb)).write (Elt F) g (k0_pay7 x y) Finset.univ) i) := by
  intro i hi
  refine write_unit_whole_forall (Val := Elt F) cc0_scratch0 g inb (k0_pay7 x y) heq
    (fun i v => ct.okAcc 0 c (i 0).val (i 1).val v) ?_ i hi
  intro j i' hi'
  have e0 : (i' 0).val = lo 1 c 1 + (j 0).val := hi' 0
  have e1 : (i' 1).val = 384 + (j 1).val := hi' 1
  show ct.okAcc 0 c (i' 0).val (i' 1).val (k0_pay7 x y j)
  rw [e0, e1]
  exact laws.mm_acc1 x y hx hy j

/-- After the store of column block 2 the accumulator is right on the rows kept, columns `768 … 1023`. -/
theorem acc_core2 (laws : Laws ct c YA YB) (g : S1024x1024.Idx → F .f32) (x : Vec F S512x512 .f32) (y : Vec F S512x256 .f32)
    {off : Fin 2 → ℕ} (inb : ∀ a, off a + S512x256.size a ≤ S1024x1024.size a) (heq : off = ![lo 2 c 1, 768])
    (hx : ∀ j i, (i 0).val = lo 2 c 1 + (j 0).val → (i 1).val = (j 1).val → x j = YA i)
    (hy : ∀ j i, (i 0).val = (j 0).val → (i 1).val = 768 + (j 1).val → y j = YB i) :
    ∀ i : S1024x1024.Idx, (∀ a, (![lo 2 c 1, 768] : Fin 2 → ℕ) a ≤ (i a).val ∧ (i a).val < (![lo 2 c 1, 768] : Fin 2 → ℕ) a + S512x256.size a) →
      ct.okAcc 0 c (i 0).val (i 1).val
        ((((View.whole cc0_scratch0).slice (Rect.unit (s := S1024x1024) off S512x256.size inb)).write (Elt F) g (k0_pay8 x y) Finset.univ) i) := by
  intro i hi
  refine write_unit_whole_forall (Val := Elt F) cc0_scratch0 g inb (k0_pay8 x y) heq
    (fun i v => ct.okAcc 0 c (i 0).val (i 1).val v) ?_ i hi
  intro j i' hi'
  have e0 : (i' 0).val = lo 2 c 1 + (j 0).val := hi' 0
  have e1 : (i' 1).val = 768 + (j 1).val := hi' 1
  show ct.okAcc 0 c (i' 0).val (i' 1).val (k0_pay8 x y j)
  rw [e0, e1]
  exact laws.mm_acc2 x y hx hy j

end Cert.Kernel.SegAValP
end
-- ==== Proof.SegAValK.lean ====
/-
  The values of the first segment: what the first stage's stores put into the send buffer and the accumulator
  satisfies the contract, stated over the very terms the stores write.
-/
import proofs.«900879_g7700000000000880_dist_matmul_gelu_kshard_i_m1024_n1024_k512_v7x_i32_bf16_1_alg».proof.Proof.SegsK
import proofs.«900879_g7700000000000880_dist_matmul_gelu_kshard_i_m1024_n1024_k512_v7x_i32_bf16_1_alg».proof.Proof.GeoK
import proofs.«900879_g7700000000000880_dist_matmul_gelu_kshard_i_m1024_n1024_k512_v7x_i32_bf16_1_alg».proof.Proof.SegAValPK

noncomputable section

namespace Cert.Kernel.SegAVal

open Cert.Kernel Cert.Kernel.Gen Cert.Kernel.Proto Cert.Kernel.Tab Cert.Kernel.Held Cert.Kernel.PayTab
open Cert.Kernel.Laws Cert.Kernel.Segs Cert.Kernel.Geo
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
variable (ct : Contract F) (c : Dev nD) (YA : S1024x512.Idx → F .f32) (YB : S512x1024.Idx → F .f32)

/-- The send buffer's column block 0 after its store: the product of the rows of `YA` the device gives away in that
    block and the block's columns of `YB`, written over whatever the buffer held. -/
def ssW0 (g : Buf (Elt F) ((c : Thread nD τ).loc cc0_scratch6)) : Buf (Elt F) ((c : Thread nD τ).loc cc0_scratch6) :=
  View.write (Elt F) ((Memref.whole cc0_scratch6 : Memref sig .tc .vmem S512x1024 .bf16).access (Rect.unit (s := S512x1024) ![0, 0] S512x384.size inb_S512x1024_S512x384_0_0))
    g
    (k0_pay1 (View.readAt (Elt F) (Memref.whole cc0_stg0_0 : Memref sig .tc .vmem S1024x512 .f32).view (Rect.unit (s := S1024x512) (k0_off1 c) S512x512.size (k0_off1_inb c)).toLoadRect YA) (View.readAt (Elt F) (Memref.whole cc0_stg1_0 : Memref sig .tc .vmem S512x1024 .f32).view (Rect.unit (s := S512x1024) ![0, 0] S512x384.size inb_S512x1024_S512x384_0_0).toLoadRect YB))
    Finset.univ

/-- Piece 0 of column block 0, landed at the partner, is right under the partner's receive contract. -/
theorem hlaw_0_0_0 (laws : Laws ct c YA YB) (g : Buf (Elt F) ((c : Thread nD τ).loc cc0_scratch6))
    (fd : Buf (Elt F) ((dst_rs_0_0_0 c).view.loc (peer 0 0 c : Thread nD τ))) :
    ∀ i ∈ (dst_rs_0_0_0 c).view.set, pRS ct 0 (peer 0 0 c) (sh := S512x1024) i
      (((dst_rs_0_0_0 c).view.write (Elt F) fd ((src_rs_0_0_0 c).view.read (Elt F) (ssW0 c YA YB g)) Finset.univ) i) := by
  have hcore := SegAValP.ss_core0 ct c YA YB laws g _ _
    (SegAValP.loadA YA (k0_off1_inb c) (Geo.off1_eq c))
    (fun j i a b => SegAValP.loadB (W := 384) (q0 := 0) YB inb_S512x1024_S512x384_0_0 rfl j i a (b.trans (Nat.zero_add _).symm))
  exact SegAValP.landed0 ct c 0 (k0_off2_inb c) (Geo.off2_eq c)
    (fun q _ h => SegAValP.blk_of_lt (by have : q < 0 + 384 := h; omega)) (ssW0 c YA YB g) hcore fd

/-- Piece 1 of column block 0, landed at the partner, is right under the partner's receive contract. -/
theorem hlaw_0_0_1 (laws : Laws ct c YA YB) (g : Buf (Elt F) ((c : Thread nD τ).loc cc0_scratch6))
    (fd : Buf (Elt F) ((dst_rs_0_0_1 c).view.loc (peer 0 0 c : Thread nD τ))) :
    ∀ i ∈ (dst_rs_0_0_1 c).view.set, pRS ct 0 (peer 0 0 c) (sh := S512x1024) i
      (((dst_rs_0_0_1 c).view.write (Elt F) fd ((src_rs_0_0_1 c).view.read (Elt F) (ssW0 c YA YB g)) Finset.univ) i) := by
  have hcore := SegAValP.ss_core0 ct c YA YB laws g _ _
    (SegAValP.loadA YA (k0_off1_inb c) (Geo.off1_eq c))
    (fun j i a b => SegAValP.loadB (W := 384) (q0 := 0) YB inb_S512x1024_S512x384_0_0 rfl j i a (b.trans (Nat.zero_add _).symm))
  exact SegAValP.landed0 ct c 0 (k0_off3_inb c) (Geo.off3_eq c)
    (fun q _ h => SegAValP.blk_of_lt (by have : q < 0 + 384 := h; omega)) (ssW0 c YA YB g) hcore fd

/-- The send buffer's column block 1 after its store: the product of the rows of `YA` the device gives away in that
    block and the block's columns of `YB`, written over whatever the buffer held. -/
def ssW1 (g : Buf (Elt F) ((c : Thread nD τ).loc cc0_scratch6)) : Buf (Elt F) ((c : Thread nD τ).loc cc0_scratch6) :=
  View.write (Elt F) ((Memref.whole cc0_scratch6 : Memref sig .tc .vmem S512x1024 .bf16).access (Rect.unit (s := S512x1024) ![0, 384] S512x384.size inb_S512x1024_S512x384_0_384))
    g
    (k0_pay3 (k0_pay2 (View.readAt (Elt F) (Memref.whole cc0_stg0_0 : Memref sig .tc .vmem S1024x512 .f32).view (Rect.unit (s := S1024x512) (k0_off4 c 1#32) S512x512.size (k0_off4_inb c 0)).toLoadRect YA) (View.readAt (Elt F) (Memref.whole cc0_stg1_0 : Memref sig .tc .vmem S512x1024 .f32).view (Rect.unit (s := S512x1024) ![0, 384] S512x384.size inb_S512x1024_S512x384_0_384).toLoadRect YB)))
    Finset.univ

/-- Piece 0 of column block 1, landed at the partner, is right under the partner's receive contract. -/
theorem hlaw_0_1_0 (laws : Laws ct c YA YB) (g : Buf (Elt F) ((c : Thread nD τ).loc cc0_scratch6))
    (fd : Buf (Elt F) ((dst_rs_0_1_0 c).view.loc (peer 1 0 c : Thread nD τ))) :
    ∀ i ∈ (dst_rs_0_1_0 c).view.set, pRS ct 0 (peer 1 0 c) (sh := S512x1024) i
      (((dst_rs_0_1_0 c).view.write (Elt F) fd ((src_rs_0_1_0 c).view.read (Elt F) (ssW1 c YA YB g)) Finset.univ) i) := by
  have hcore := SegAValP.ss_core1 ct c YA YB laws g _ _
    (SegAValP.loadA YA (k0_off4_inb c 0) (Geo.off4_1_eq c))
    (SegAValP.loadB (W := 384) (q0 := 384) YB inb_S512x1024_S512x384_0_384 rfl)
  exact SegAValP.landed0 ct c 1 (k0_off5_inb c) (Geo.off5_eq c)
    (fun q h1 h2 => SegAValP.blk_of_mid h1 (by have : q < 384 + 384 := h2; omega)) (ssW1 c YA YB g) hcore fd

/-- Piece 1 of column block 1, landed at the partner, is right under the partner's receive contract. -/
theorem hlaw_0_1_1 (laws : Laws ct c YA YB) (g : Buf (Elt F) ((c : Thread nD τ).loc cc0_scratch6))
    (fd : Buf (Elt F) ((dst_rs_0_1_1 c).view.loc (peer 1 0 c : Thread nD τ))) :
    ∀ i ∈ (dst_rs_0_1_1 c).view.set, pRS ct 0 (peer 1 0 c) (sh := S512x1024) i
      (((dst_rs_0_1_1 c).view.write (Elt F) fd ((src_rs_0_1_1 c).view.read (Elt F) (ssW1 c YA YB g)) Finset.univ) i) := by
  have hcore := SegAValP.ss_core1 ct c YA YB laws g _ _
    (SegAValP.loadA YA (k0_off4_inb c 0) (Geo.off4_1_eq c))
    (SegAValP.loadB (W := 384) (q0 := 384) YB inb_S512x1024_S512x384_0_384 rfl)
  exact SegAValP.landed0 ct c 1 (k0_off6_inb c) (Geo.off6_eq c)
    (fun q h1 h2 => SegAValP.blk_of_mid h1 (by have : q < 384 + 384 := h2; omega)) (ssW1 c YA YB g) hcore fd

/-- The send buffer's column block 2 after its store: the product of the rows of `YA` the device gives away in that
    block and the block's columns of `YB`, written over whatever the buffer held. -/
def ssW2 (g : Buf (Elt F) ((c : Thread nD τ).loc cc0_scratch6)) : Buf (Elt F) ((c : Thread nD τ).loc cc0_scratch6) :=
  View.write (Elt F) ((Memref.whole cc0_scratch6 : Memref sig .tc .vmem S512x1024 .bf16).access (Rect.unit (s := S512x1024) ![0, 768] S512x256.size inb_S512x1024_S512x256_0_768))
    g
    (k0_pay5 (k0_pay4 (View.readAt (Elt F) (Memref.whole cc0_stg0_0 : Memref sig .tc .vmem S1024x512 .f32).view (Rect.unit (s := S1024x512) (k0_off4 c 3#32) S512x512.size (k0_off4_inb c 1)).toLoadRect YA)) (View.readAt (Elt F) (Memref.whole cc0_stg1_0 : Memref sig .tc .vmem S512x1024 .f32).view (Rect.unit (s := S512x1024) ![0, 768] S512x256.size inb_S512x1024_S512x256_0_768).toLoadRect YB))
    Finset.univ

/-- Piece 0 of column block 2, landed at the partner, is right under the partner's receive contract. -/
theorem hlaw_0_2_0 (laws : Laws ct c YA YB) (g : Buf (Elt F) ((c : Thread nD τ).loc cc0_scratch6))
    (fd : Buf (Elt F) ((dst_rs_0_2_0 c).view.loc (peer 2 0 c : Thread nD τ))) :
    ∀ i ∈ (dst_rs_0_2_0 c).view.set, pRS ct 0 (peer 2 0 c) (sh := S512x1024) i
      (((dst_rs_0_2_0 c).view.write (Elt F) fd ((src_rs_0_2_0 c).view.read (Elt F) (ssW2 c YA YB g)) Finset.univ) i) := by
  have hcore := SegAValP.ss_core2 ct c YA YB laws g _ _
    (SegAValP.loadA YA (k0_off4_inb c 1) (Geo.off4_3_eq c))
    (SegAValP.loadB (W := 256) (q0 := 768) YB inb_S512x1024_S512x256_0_768 rfl)
  exact SegAValP.landed0 ct c 2 (k0_off7_inb c) (Geo.off7_eq c)
    (fun q h1 _ => SegAValP.blk_of_ge h1) (ssW2 c YA YB g) hcore fd

/-- Piece 1 of column block 2, landed at the partner, is right under the partner's receive contract. -/
theorem hlaw_0_2_1 (laws : Laws ct c YA YB) (g : Buf (Elt F) ((c : Thread nD τ).loc cc0_scratch6))
    (fd : Buf (Elt F) ((dst_rs_0_2_1 c).view.loc (peer 2 0 c : Thread nD τ))) :
    ∀ i ∈ (dst_rs_0_2_1 c).view.set, pRS ct 0 (peer 2 0 c) (sh := S512x1024) i
      (((dst_rs_0_2_1 c).view.write (Elt F) fd ((src_rs_0_2_1 c).view.read (Elt F) (ssW2 c YA YB g)) Finset.univ) i) := by
  have hcore := SegAValP.ss_core2 ct c YA YB laws g _ _
    (SegAValP.loadA YA (k0_off4_inb c 1) (Geo.off4_3_eq c))
    (SegAValP.loadB (W := 256) (q0 := 768) YB inb_S512x1024_S512x256_0_768 rfl)
  exact SegAValP.landed0 ct c 2 (k0_off8_inb c) (Geo.off8_eq c)
    (fun q h1 _ => SegAValP.blk_of_ge h1) (ssW2 c YA YB g) hcore fd

/-- The accumulator after the three stores of the kept halves' products, over whatever it held. -/
def accW (fa : Buf (Elt F) ((c : Thread nD τ).loc cc0_scratch0)) : Buf (Elt F) ((c : Thread nD τ).loc cc0_scratch0) :=
  (Memref.whole cc0_scratch0 : Memref sig .tc .vmem S1024x1024 .f32).view.writes (Elt F) fa
    [⟨Rect.unit (s := S1024x1024) (k0_off13 c) S512x256.size (k0_off13_inb c),
        k0_pay8 (View.readAt (Elt F) (Memref.whole cc0_stg0_0 : Memref sig .tc .vmem S1024x512 .f32).view (Rect.unit (s := S1024x512) (k0_off11 c 3#32) S512x512.size (k0_off11_inb c 1)).toLoadRect YA) (View.readAt (Elt F) (Memref.whole cc0_stg1_0 : Memref sig .tc .vmem S512x1024 .f32).view (Rect.unit (s := S512x1024) ![0, 768] S512x256.size inb_S512x1024_S512x256_0_768).toLoadRect YB)⟩,
      ⟨Rect.unit (s := S1024x1024) (k0_off12 c) S512x384.size (k0_off12_inb c),
        k0_pay7 (View.readAt (Elt F) (Memref.whole cc0_stg0_0 : Memref sig .tc .vmem S1024x512 .f32).view (Rect.unit (s := S1024x512) (k0_off11 c 1#32) S512x512.size (k0_off11_inb c 0)).toLoadRect YA) (View.readAt (Elt F) (Memref.whole cc0_stg1_0 : Memref sig .tc .vmem S512x1024 .f32).view (Rect.unit (s := S512x1024) ![0, 384] S512x384.size inb_S512x1024_S512x384_0_384).toLoadRect YB)⟩,
      ⟨Rect.unit (s := S1024x1024) (k0_off10 c) S512x384.size (k0_off10_inb c),
        k0_pay6 (View.readAt (Elt F) (Memref.whole cc0_stg0_0 : Memref sig .tc .vmem S1024x512 .f32).view (Rect.unit (s := S1024x512) (k0_off9 c) S512x512.size (k0_off9_inb c)).toLoadRect YA) (View.readAt (Elt F) (Memref.whole cc0_stg1_0 : Memref sig .tc .vmem S512x1024 .f32).view (Rect.unit (s := S512x1024) ![0, 0] S512x384.size inb_S512x1024_S512x384_0_0).toLoadRect YB)⟩]

/-- The kept halves' products in the accumulator are right under the contract, column block by column block. -/
theorem acc_law (laws : Laws ct c YA YB) (fa : Buf (Elt F) ((c : Thread nD τ).loc cc0_scratch0)) :
    (∀ i ∈ accKeep0_0 c, ct.okAcc 0 c (i 0).val (i 1).val (accW c YA YB fa i))
      ∧ (∀ i ∈ accKeep0_1 c, ct.okAcc 0 c (i 0).val (i 1).val (accW c YA YB fa i))
      ∧ (∀ i ∈ accKeep0_2 c, ct.okAcc 0 c (i 0).val (i 1).val (accW c YA YB fa i)) := by
  have hA0 := SegAValP.loadA YA (k0_off9_inb c) (Geo.off9_eq c)
  have hA1 := SegAValP.loadA YA (k0_off11_inb c 0) (Geo.off11_1_eq c)
  have hA2 := SegAValP.loadA YA (k0_off11_inb c 1) (Geo.off11_3_eq c)
  have hB0 : ∀ (j : S512x384.Idx) (i : S512x1024.Idx), (i 0).val = (j 0).val → (i 1).val = (j 1).val → _ = YB i :=
    fun j i a b => SegAValP.loadB (W := 384) (q0 := 0) YB inb_S512x1024_S512x384_0_0 rfl j i a (b.trans (Nat.zero_add _).symm)
  have hB1 := SegAValP.loadB (W := 384) (q0 := 384) YB inb_S512x1024_S512x384_0_384 rfl
  have hB2 := SegAValP.loadB (W := 256) (q0 := 768) YB inb_S512x1024_S512x256_0_768 rfl
  refine ⟨fun i hi => ?_, fun i hi => ?_, fun i hi => ?_⟩
  · have hm := (Plumb.mem_slice_unit_whole cc0_scratch0 (k0_off10_inb c) (Geo.off10_eq c) i).mp hi
    have h1 := (hm 1).2
    unfold accW
    rw [Plumb.writes_unit_whole_of_not_mem (Val := Elt F) cc0_scratch0 fa (k0_off13_inb c) _ _ i (Geo.off13_eq c) 1
        (Or.inl (by have : (i 1).val < 0 + 384 := h1; show (i 1).val < 768; omega)),
      Plumb.writes_unit_whole_of_not_mem (Val := Elt F) cc0_scratch0 fa (k0_off12_inb c) _ _ i (Geo.off12_eq c) 1
        (Or.inl (by have : (i 1).val < 0 + 384 := h1; show (i 1).val < 384; omega))]
    exact SegAValP.acc_core0 ct c YA YB laws fa _ _ (k0_off10_inb c) (Geo.off10_eq c) hA0 hB0 i hm
  · have hm := (Plumb.mem_slice_unit_whole cc0_scratch0 (k0_off12_inb c) (Geo.off12_eq c) i).mp hi
    have h1 := (hm 1).1
    unfold accW
    rw [Plumb.writes_unit_whole_of_not_mem (Val := Elt F) cc0_scratch0 fa (k0_off13_inb c) _ _ i (Geo.off13_eq c) 1
        (Or.inl (by have h2 := (hm 1).2; have : (i 1).val < 384 + 384 := h2; show (i 1).val < 768; omega))]
    exact SegAValP.acc_core1 ct c YA YB laws _ _ _ (k0_off12_inb c) (Geo.off12_eq c) hA1 hB1 i hm
  · have hm := (Plumb.mem_slice_unit_whole cc0_scratch0 (k0_off13_inb c) (Geo.off13_eq c) i).mp hi
    unfold accW
    exact SegAValP.acc_core2 ct c YA YB laws _ _ _ (k0_off13_inb c) (Geo.off13_eq c) hA2 hB2 i hm

end Cert.Kernel.SegAVal

end
-- ==== Proof.SegAK.lean ====
/-
  The first segment of the body: the entry handshake and the first stage of the summing phase.
-/
import proofs.«900879_g7700000000000880_dist_matmul_gelu_kshard_i_m1024_n1024_k512_v7x_i32_bf16_1_alg».proof.Proof.SegsK
import proofs.«900879_g7700000000000880_dist_matmul_gelu_kshard_i_m1024_n1024_k512_v7x_i32_bf16_1_alg».proof.Proof.RegionsRSK
import proofs.«900879_g7700000000000880_dist_matmul_gelu_kshard_i_m1024_n1024_k512_v7x_i32_bf16_1_alg».proof.Proof.RegionsOutK
import proofs.«900879_g7700000000000880_dist_matmul_gelu_kshard_i_m1024_n1024_k512_v7x_i32_bf16_1_alg».proof.Proof.SendStepK
import proofs.«900879_g7700000000000880_dist_matmul_gelu_kshard_i_m1024_n1024_k512_v7x_i32_bf16_1_alg».proof.Proof.SegAValK
set_option synthInstance.maxSize 4096
set_option maxRecDepth 65536

noncomputable section

namespace Cert.Kernel.SegA

open Cert.Kernel Cert.Kernel.Gen Cert.Kernel.Proto Cert.Kernel.Tab Cert.Kernel.Held Cert.Kernel.PayTab
open Cert.Kernel.Sched Cert.Kernel.GhostTab Cert.Kernel.Owed Cert.Kernel.Ghost Cert.Kernel.StateTab
open Cert.Kernel.Laws Cert.Kernel.Cut Cert.Kernel.Segs Cert.Kernel.RegionsRS Cert.Kernel.RegionsOut Cert.Kernel.Geo Cert.Kernel.RegionsCut
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Kernel.SendStep (send_step)

variable {F : FTy → Type} [FloatOps F]

/-- The chain's first six parts, then any continuation of the words they leave. -/
noncomputable def front {R : Type} (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2)
    (G : Dev nD → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → Prog (TpuEff nD τ sig (Elt F) Λ₀ .tc) R) :
    Prog (TpuEff nD τ sig (Elt F) Λ₀ .tc) R := do
  let ⟨d0, v3, v4, v5, v6, v7, v8, v9, v10, v11, v12, v13, v14, v15, v16, v17, v18, v20, v22, v24, v26, v27, v28, v29, v30⟩ : Σ' (d0 : Dev nD) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v27 : BitVec 32) (v28 : BitVec 32) (v29 : Sems sig S_), BitVec 32 ← k0_part1 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17
  let ⟨v40, c256_i32_40⟩ : Σ' (v40 : BitVec 32), BitVec 32 ← k0_part2 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v5 v6 v7 v20 v27 v29 v30
  let ⟨v74, v85⟩ : Σ' (v74 : BitVec 32), FVec F S512x384 .bf16 ← k0_part3 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v20 c256_i32_40
  let ⟨v108, v114⟩ : Σ' (v108 : BitVec 32), FVec F S512x512 .bf16 ← k0_part4 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v8 v24 v85
  let v143 : Vec F S512x512 .f32 ← k0_part5 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v13 v28 v40 v114
  let ⟨v179, v182⟩ : Σ' (v179 : BitVec 32), BitVec 32 ← k0_part6 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v20 v40 v74 v108 v143
  G d0 v3 v4 v5 v6 v7 v8 v9 v10 v11 v12 v13 v14 v15 v16 v17 v18 v20 v22 v24 v26 v28 v40 v74 v108 v179 v182

/-- The chain followed by a continuation is its first six parts followed by the rest under that continuation. -/
theorem front_eq {R : Type} (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2)
    (T : (Σ' (d0 : Dev nD) (v3 : BitVec 32) (v8 : BitVec 32) (v13 : BitVec 32) (v28 : BitVec 32), BitVec 32) → Prog (TpuEff nD τ sig (Elt F) Λ₀ .tc) R) :
    (k0_part64_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 >>= T)
      = front arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 (fun d0 v3 v4 v5 v6 v7 v8 v9 v10 v11 v12 v13 v14 v15 v16 v17 v18 v20 v22 v24 v26 v28 v40 v74 v108 v179 v182 => rest7 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v5 v6 v7 v8 v9 v10 v11 v12 v13 v14 v15 v16 v17 v18 v20 v22 v24 v26 v28 v40 v74 v108 v179 v182 >>= T) := by
  rw [part64_cut7]
  rfl

theorem peer_xr : ∀ (k : Fin 3) (s : Fin 5) (i : Fin 5) (c : Dev nD), mask k s = hmask i → peer k s (xr c (hmask i)) = c := by decide

theorem sep_assoc_eq (P Q R : sProp (MT nD τ sig Unit (Elt F) ℕ UU ℕ)) : iprop((P ∗ Q) ∗ R) = iprop(P ∗ Q ∗ R) := equiv_iff.mp ⟨BI.sep_assoc, BI.sep_assoc'⟩
theorem sep_spell (P Q : sProp (MT nD τ sig Unit (Elt F) ℕ UU ℕ)) : Idealize.SL.BI.sep P Q = iprop(P ∗ Q) := rfl

/-- What device `c` lends its partner number `0` with the handshake signal, spelt from `c`'s side. -/
theorem barPay_self_0 (c : Dev nD) : barPay (F := F) (xr c (hmask 0)) 0 = iprop(loanV c (dst_rs_0_0_0 (peer 0 0 c)) ∗ loanV c (dst_rs_0_0_1 (peer 0 0 c)) ∗ loanV c (dst_rs_1_2_0 (peer 2 1 c)) ∗ loanV c (dst_rs_1_2_1 (peer 2 1 c)) ∗ loanV c (dst_rs_2_1_0 (peer 1 2 c)) ∗ loanV c (dst_rs_2_1_1 (peer 1 2 c)) ∗ loanV c (dst_ag_2_1_0 (peer 1 2 c)) ∗ loanV c (dst_ag_2_1_1 (peer 1 2 c)) ∗ loanV c (dst_ag_1_2_0 (peer 2 1 c)) ∗ loanV c (dst_ag_1_2_1 (peer 2 1 c)) ∗ loanV c (dst_ag_0_0_0 (peer 0 0 c)) ∗ loanV c (dst_ag_0_0_1 (peer 0 0 c))) := by
  show iprop(loanV (peer 0 0 (xr c (hmask 0))) (dst_rs_0_0_0 (xr c (hmask 0))) ∗ loanV (peer 0 0 (xr c (hmask 0))) (dst_rs_0_0_1 (xr c (hmask 0))) ∗ loanV (peer 2 1 (xr c (hmask 0))) (dst_rs_1_2_0 (xr c (hmask 0))) ∗ loanV (peer 2 1 (xr c (hmask 0))) (dst_rs_1_2_1 (xr c (hmask 0))) ∗ loanV (peer 1 2 (xr c (hmask 0))) (dst_rs_2_1_0 (xr c (hmask 0))) ∗ loanV (peer 1 2 (xr c (hmask 0))) (dst_rs_2_1_1 (xr c (hmask 0))) ∗ loanV (peer 1 2 (xr c (hmask 0))) (dst_ag_2_1_0 (xr c (hmask 0))) ∗ loanV (peer 1 2 (xr c (hmask 0))) (dst_ag_2_1_1 (xr c (hmask 0))) ∗ loanV (peer 2 1 (xr c (hmask 0))) (dst_ag_1_2_0 (xr c (hmask 0))) ∗ loanV (peer 2 1 (xr c (hmask 0))) (dst_ag_1_2_1 (xr c (hmask 0))) ∗ loanV (peer 0 0 (xr c (hmask 0))) (dst_ag_0_0_0 (xr c (hmask 0))) ∗ loanV (peer 0 0 (xr c (hmask 0))) (dst_ag_0_0_1 (xr c (hmask 0)))) = _
  rw [peer_xr 0 0 0 c (by decide), peer_xr 2 1 0 c (by decide), peer_xr 1 2 0 c (by decide)]
  rfl

/-- What device `c` lends its partner number `1` with the handshake signal, spelt from `c`'s side. -/
theorem barPay_self_1 (c : Dev nD) : barPay (F := F) (xr c (hmask 1)) 1 = iprop(loanV c (dst_rs_0_1_0 (peer 1 0 c)) ∗ loanV c (dst_rs_0_1_1 (peer 1 0 c)) ∗ loanV c (dst_rs_1_0_0 (peer 0 1 c)) ∗ loanV c (dst_rs_1_0_1 (peer 0 1 c)) ∗ loanV c (dst_rs_2_2_0 (peer 2 2 c)) ∗ loanV c (dst_rs_2_2_1 (peer 2 2 c)) ∗ loanV c (dst_ag_2_2_0 (peer 2 2 c)) ∗ loanV c (dst_ag_2_2_1 (peer 2 2 c)) ∗ loanV c (dst_ag_1_0_0 (peer 0 1 c)) ∗ loanV c (dst_ag_1_0_1 (peer 0 1 c)) ∗ loanV c (dst_ag_0_1_0 (peer 1 0 c)) ∗ loanV c (dst_ag_0_1_1 (peer 1 0 c))) := by
  show iprop(loanV (peer 1 0 (xr c (hmask 1))) (dst_rs_0_1_0 (xr c (hmask 1))) ∗ loanV (peer 1 0 (xr c (hmask 1))) (dst_rs_0_1_1 (xr c (hmask 1))) ∗ loanV (peer 0 1 (xr c (hmask 1))) (dst_rs_1_0_0 (xr c (hmask 1))) ∗ loanV (peer 0 1 (xr c (hmask 1))) (dst_rs_1_0_1 (xr c (hmask 1))) ∗ loanV (peer 2 2 (xr c (hmask 1))) (dst_rs_2_2_0 (xr c (hmask 1))) ∗ loanV (peer 2 2 (xr c (hmask 1))) (dst_rs_2_2_1 (xr c (hmask 1))) ∗ loanV (peer 2 2 (xr c (hmask 1))) (dst_ag_2_2_0 (xr c (hmask 1))) ∗ loanV (peer 2 2 (xr c (hmask 1))) (dst_ag_2_2_1 (xr c (hmask 1))) ∗ loanV (peer 0 1 (xr c (hmask 1))) (dst_ag_1_0_0 (xr c (hmask 1))) ∗ loanV (peer 0 1 (xr c (hmask 1))) (dst_ag_1_0_1 (xr c (hmask 1))) ∗ loanV (peer 1 0 (xr c (hmask 1))) (dst_ag_0_1_0 (xr c (hmask 1))) ∗ loanV (peer 1 0 (xr c (hmask 1))) (dst_ag_0_1_1 (xr c (hmask 1)))) = _
  rw [peer_xr 1 0 1 c (by decide), peer_xr 0 1 1 c (by decide), peer_xr 2 2 1 c (by decide)]
  rfl

/-- What device `c` lends its partner number `2` with the handshake signal, spelt from `c`'s side. -/
theorem barPay_self_2 (c : Dev nD) : barPay (F := F) (xr c (hmask 2)) 2 = iprop(loanV c (dst_rs_0_2_0 (peer 2 0 c)) ∗ loanV c (dst_rs_0_2_1 (peer 2 0 c)) ∗ loanV c (dst_rs_1_1_0 (peer 1 1 c)) ∗ loanV c (dst_rs_1_1_1 (peer 1 1 c)) ∗ loanV c (dst_rs_2_0_0 (peer 0 2 c)) ∗ loanV c (dst_rs_2_0_1 (peer 0 2 c)) ∗ loanV c (dst_ag_2_0_0 (peer 0 2 c)) ∗ loanV c (dst_ag_2_0_1 (peer 0 2 c)) ∗ loanV c (dst_ag_1_1_0 (peer 1 1 c)) ∗ loanV c (dst_ag_1_1_1 (peer 1 1 c)) ∗ loanV c (dst_ag_0_2_0 (peer 2 0 c)) ∗ loanV c (dst_ag_0_2_1 (peer 2 0 c))) := by
  show iprop(loanV (peer 2 0 (xr c (hmask 2))) (dst_rs_0_2_0 (xr c (hmask 2))) ∗ loanV (peer 2 0 (xr c (hmask 2))) (dst_rs_0_2_1 (xr c (hmask 2))) ∗ loanV (peer 1 1 (xr c (hmask 2))) (dst_rs_1_1_0 (xr c (hmask 2))) ∗ loanV (peer 1 1 (xr c (hmask 2))) (dst_rs_1_1_1 (xr c (hmask 2))) ∗ loanV (peer 0 2 (xr c (hmask 2))) (dst_rs_2_0_0 (xr c (hmask 2))) ∗ loanV (peer 0 2 (xr c (hmask 2))) (dst_rs_2_0_1 (xr c (hmask 2))) ∗ loanV (peer 0 2 (xr c (hmask 2))) (dst_ag_2_0_0 (xr c (hmask 2))) ∗ loanV (peer 0 2 (xr c (hmask 2))) (dst_ag_2_0_1 (xr c (hmask 2))) ∗ loanV (peer 1 1 (xr c (hmask 2))) (dst_ag_1_1_0 (xr c (hmask 2))) ∗ loanV (peer 1 1 (xr c (hmask 2))) (dst_ag_1_1_1 (xr c (hmask 2))) ∗ loanV (peer 2 0 (xr c (hmask 2))) (dst_ag_0_2_0 (xr c (hmask 2))) ∗ loanV (peer 2 0 (xr c (hmask 2))) (dst_ag_0_2_1 (xr c (hmask 2)))) = _
  rw [peer_xr 2 0 2 c (by decide), peer_xr 1 1 2 c (by decide), peer_xr 0 2 2 c (by decide)]
  rfl

/-- What device `c` lends its partner number `3` with the handshake signal, spelt from `c`'s side. -/
theorem barPay_self_3 (c : Dev nD) : barPay (F := F) (xr c (hmask 3)) 3 = iprop(loanV c (dst_rs_3_0_0 (peer 0 3 c)) ∗ loanV c (dst_rs_3_0_1 (peer 0 3 c)) ∗ loanV c (dst_rs_4_1_0 (peer 1 4 c)) ∗ loanV c (dst_rs_4_2_0 (peer 2 4 c)) ∗ loanV c (dst_ag_4_1_0 (peer 1 4 c)) ∗ loanV c (dst_ag_4_2_0 (peer 2 4 c)) ∗ loanV c (dst_ag_3_0_0 (peer 0 3 c)) ∗ loanV c (dst_ag_3_0_1 (peer 0 3 c))) := by
  show iprop(loanV (peer 0 3 (xr c (hmask 3))) (dst_rs_3_0_0 (xr c (hmask 3))) ∗ loanV (peer 0 3 (xr c (hmask 3))) (dst_rs_3_0_1 (xr c (hmask 3))) ∗ loanV (peer 1 4 (xr c (hmask 3))) (dst_rs_4_1_0 (xr c (hmask 3))) ∗ loanV (peer 2 4 (xr c (hmask 3))) (dst_rs_4_2_0 (xr c (hmask 3))) ∗ loanV (peer 1 4 (xr c (hmask 3))) (dst_ag_4_1_0 (xr c (hmask 3))) ∗ loanV (peer 2 4 (xr c (hmask 3))) (dst_ag_4_2_0 (xr c (hmask 3))) ∗ loanV (peer 0 3 (xr c (hmask 3))) (dst_ag_3_0_0 (xr c (hmask 3))) ∗ loanV (peer 0 3 (xr c (hmask 3))) (dst_ag_3_0_1 (xr c (hmask 3)))) = _
  rw [peer_xr 0 3 3 c (by decide), peer_xr 1 4 3 c (by decide), peer_xr 2 4 3 c (by decide)]
  rfl

/-- What device `c` lends its partner number `4` with the handshake signal, spelt from `c`'s side. -/
theorem barPay_self_4 (c : Dev nD) : barPay (F := F) (xr c (hmask 4)) 4 = iprop(loanV c (dst_rs_3_1_0 (peer 1 3 c)) ∗ loanV c (dst_rs_3_1_1 (peer 1 3 c)) ∗ loanV c (dst_rs_3_2_0 (peer 2 3 c)) ∗ loanV c (dst_rs_3_2_1 (peer 2 3 c)) ∗ loanV c (dst_rs_4_0_0 (peer 0 4 c)) ∗ loanV c (dst_ag_4_0_0 (peer 0 4 c)) ∗ loanV c (dst_ag_3_1_0 (peer 1 3 c)) ∗ loanV c (dst_ag_3_1_1 (peer 1 3 c)) ∗ loanV c (dst_ag_3_2_0 (peer 2 3 c)) ∗ loanV c (dst_ag_3_2_1 (peer 2 3 c))) := by
  show iprop(loanV (peer 1 3 (xr c (hmask 4))) (dst_rs_3_1_0 (xr c (hmask 4))) ∗ loanV (peer 1 3 (xr c (hmask 4))) (dst_rs_3_1_1 (xr c (hmask 4))) ∗ loanV (peer 2 3 (xr c (hmask 4))) (dst_rs_3_2_0 (xr c (hmask 4))) ∗ loanV (peer 2 3 (xr c (hmask 4))) (dst_rs_3_2_1 (xr c (hmask 4))) ∗ loanV (peer 0 4 (xr c (hmask 4))) (dst_rs_4_0_0 (xr c (hmask 4))) ∗ loanV (peer 0 4 (xr c (hmask 4))) (dst_ag_4_0_0 (xr c (hmask 4))) ∗ loanV (peer 1 3 (xr c (hmask 4))) (dst_ag_3_1_0 (xr c (hmask 4))) ∗ loanV (peer 1 3 (xr c (hmask 4))) (dst_ag_3_1_1 (xr c (hmask 4))) ∗ loanV (peer 2 3 (xr c (hmask 4))) (dst_ag_3_2_0 (xr c (hmask 4))) ∗ loanV (peer 2 3 (xr c (hmask 4))) (dst_ag_3_2_1 (xr c (hmask 4)))) = _
  rw [peer_xr 1 3 4 c (by decide), peer_xr 2 3 4 c (by decide), peer_xr 0 4 4 c (by decide)]
  rfl

/-- The five partners' loans, piece by piece. -/
theorem rest_bar_flat (c : Dev nD) : bigSep (Finset.univ : Finset (Fin 5)) (fun d => barPay (F := F) c d)
    = iprop(loanV (peer 0 0 c) (dst_rs_0_0_0 c) ∗ loanV (peer 0 0 c) (dst_rs_0_0_1 c) ∗ loanV (peer 2 1 c) (dst_rs_1_2_0 c) ∗ loanV (peer 2 1 c) (dst_rs_1_2_1 c) ∗ loanV (peer 1 2 c) (dst_rs_2_1_0 c) ∗ loanV (peer 1 2 c) (dst_rs_2_1_1 c) ∗ loanV (peer 1 2 c) (dst_ag_2_1_0 c) ∗ loanV (peer 1 2 c) (dst_ag_2_1_1 c) ∗ loanV (peer 2 1 c) (dst_ag_1_2_0 c) ∗ loanV (peer 2 1 c) (dst_ag_1_2_1 c) ∗ loanV (peer 0 0 c) (dst_ag_0_0_0 c) ∗ loanV (peer 0 0 c) (dst_ag_0_0_1 c) ∗ loanV (peer 1 0 c) (dst_rs_0_1_0 c) ∗ loanV (peer 1 0 c) (dst_rs_0_1_1 c) ∗ loanV (peer 0 1 c) (dst_rs_1_0_0 c) ∗ loanV (peer 0 1 c) (dst_rs_1_0_1 c) ∗ loanV (peer 2 2 c) (dst_rs_2_2_0 c) ∗ loanV (peer 2 2 c) (dst_rs_2_2_1 c) ∗ loanV (peer 2 2 c) (dst_ag_2_2_0 c) ∗ loanV (peer 2 2 c) (dst_ag_2_2_1 c) ∗ loanV (peer 0 1 c) (dst_ag_1_0_0 c) ∗ loanV (peer 0 1 c) (dst_ag_1_0_1 c) ∗ loanV (peer 1 0 c) (dst_ag_0_1_0 c) ∗ loanV (peer 1 0 c) (dst_ag_0_1_1 c) ∗ loanV (peer 2 0 c) (dst_rs_0_2_0 c) ∗ loanV (peer 2 0 c) (dst_rs_0_2_1 c) ∗ loanV (peer 1 1 c) (dst_rs_1_1_0 c) ∗ loanV (peer 1 1 c) (dst_rs_1_1_1 c) ∗ loanV (peer 0 2 c) (dst_rs_2_0_0 c) ∗ loanV (peer 0 2 c) (dst_rs_2_0_1 c) ∗ loanV (peer 0 2 c) (dst_ag_2_0_0 c) ∗ loanV (peer 0 2 c) (dst_ag_2_0_1 c) ∗ loanV (peer 1 1 c) (dst_ag_1_1_0 c) ∗ loanV (peer 1 1 c) (dst_ag_1_1_1 c) ∗ loanV (peer 2 0 c) (dst_ag_0_2_0 c) ∗ loanV (peer 2 0 c) (dst_ag_0_2_1 c) ∗ loanV (peer 0 3 c) (dst_rs_3_0_0 c) ∗ loanV (peer 0 3 c) (dst_rs_3_0_1 c) ∗ loanV (peer 1 4 c) (dst_rs_4_1_0 c) ∗ loanV (peer 2 4 c) (dst_rs_4_2_0 c) ∗ loanV (peer 1 4 c) (dst_ag_4_1_0 c) ∗ loanV (peer 2 4 c) (dst_ag_4_2_0 c) ∗ loanV (peer 0 3 c) (dst_ag_3_0_0 c) ∗ loanV (peer 0 3 c) (dst_ag_3_0_1 c) ∗ loanV (peer 1 3 c) (dst_rs_3_1_0 c) ∗ loanV (peer 1 3 c) (dst_rs_3_1_1 c) ∗ loanV (peer 2 3 c) (dst_rs_3_2_0 c) ∗ loanV (peer 2 3 c) (dst_rs_3_2_1 c) ∗ loanV (peer 0 4 c) (dst_rs_4_0_0 c) ∗ loanV (peer 0 4 c) (dst_ag_4_0_0 c) ∗ loanV (peer 1 3 c) (dst_ag_3_1_0 c) ∗ loanV (peer 1 3 c) (dst_ag_3_1_1 c) ∗ loanV (peer 2 3 c) (dst_ag_3_2_0 c) ∗ loanV (peer 2 3 c) (dst_ag_3_2_1 c)) := by
  rw [bigSep_univ_eq_bigSepL [(0 : Fin 5), 1, 2, 3, 4] (by decide) (by decide)]
  simp only [bigSepL_cons_cons, bigSepL_singleton, barPay, sep_spell, sep_assoc_eq]

variable (ct : Contract F) (K : Dev nD × Fin 124 → ℕ)

theorem mem_bar (d : Dev nD) : (d, (123 : Fin 124)) ∈ (ourIx : Finset (Dev nD × Fin 124)) :=
  Finset.mem_filter.mpr ⟨Finset.mem_univ _, (by decide : ours (123 : Fin 124) = true)⟩
theorem inv_bar (d : Dev nD) : records ct K ⊢ cellInv ER (sched ct) (K (d, 123)) (barCell d) := inv_at ct K (d, 123) (mem_bar d)
theorem reached_bar (d : Dev nD) : records ct K ⊢ reached ER (barCell d) 0 := reached_at ct K (d, 123) (mem_bar d)
theorem inv_dma (d : Dev nD) (a : Fin 4) (s : Fin 5) (k : Fin 3) (j : Fin 2)
    (h : ours ⟨(dsem a s k j).val, Nat.lt_trans (dsem a s k j).isLt (by decide)⟩ = true) :
    records ct K ⊢ cellInv ER (sched ct) (K (d, ⟨(dsem a s k j).val, Nat.lt_trans (dsem a s k j).isLt (by decide)⟩)) (dcell d a s k j) := by
  rw [← kcell_dma d a s k j]; exact inv_at ct K _ (Finset.mem_filter.mpr ⟨Finset.mem_univ _, h⟩)
theorem reached_dma (d : Dev nD) (a : Fin 4) (s : Fin 5) (k : Fin 3) (j : Fin 2)
    (h : ours ⟨(dsem a s k j).val, Nat.lt_trans (dsem a s k j).isLt (by decide)⟩ = true) :
    records ct K ⊢ reached ER (dcell d a s k j) 0 := by
  rw [← kcell_dma d a s k j]; exact reached_at ct K _ (Finset.mem_filter.mpr ⟨Finset.mem_univ _, h⟩)

attribute [local sl_rounds] duties_bar amount_bar expect_bar payload_bar rest_bar_flat barPay_self_0 barPay_self_1 barPay_self_2 barPay_self_3 barPay_self_4
attribute [local sl_canon] dev_bar_0 dev_bar_1 dev_bar_2 dev_bar_3 dev_bar_4

variable (c : Dev nD) (YA : S1024x512.Idx → F .f32) (YB : S512x1024.Idx → F .f32)

/-- A whole buffer, spelt through its whole view. -/
theorem ptsA (c : Dev nD) (q : PosShare TreeShare) (f : Buf (Elt F) ((c : Thread nD τ).loc cc0_stg0_0)) :
    ((((c : Thread nD τ).loc cc0_stg0_0) ↦{q} f) : sProp (MT nD τ sig Unit (Elt F) ℕ UU ℕ))
      ⊢ ((Memref.whole cc0_stg0_0 : Memref sig .tc .vmem S1024x512 .f32).view.loc (c : Thread nD τ) ↦{q} f) := BI.Entails.refl _
theorem ptsB (c : Dev nD) (q : PosShare TreeShare) (f : Buf (Elt F) ((c : Thread nD τ).loc cc0_stg1_0)) :
    ((((c : Thread nD τ).loc cc0_stg1_0) ↦{q} f) : sProp (MT nD τ sig Unit (Elt F) ℕ UU ℕ))
      ⊢ ((Memref.whole cc0_stg1_0 : Memref sig .tc .vmem S512x1024 .f32).view.loc (c : Thread nD τ) ↦{q} f) := BI.Entails.refl _
theorem ptsAcc (c : Dev nD) (q : PosShare TreeShare) (f : Buf (Elt F) ((c : Thread nD τ).loc cc0_scratch0)) :
    ((((c : Thread nD τ).loc cc0_scratch0) ↦{q} f) : sProp (MT nD τ sig Unit (Elt F) ℕ UU ℕ))
      ⊢ ((Memref.whole cc0_scratch0 : Memref sig .tc .vmem S1024x1024 .f32).view.loc (c : Thread nD τ) ↦{q} f) := BI.Entails.refl _
theorem ptsSS0 (c : Dev nD) (q : PosShare TreeShare) (f : Buf (Elt F) ((c : Thread nD τ).loc cc0_scratch6)) :
    ((((c : Thread nD τ).loc cc0_scratch6) ↦{q} f) : sProp (MT nD τ sig Unit (Elt F) ℕ UU ℕ))
      ⊢ ((Memref.whole cc0_scratch6 : Memref sig .tc .vmem S512x1024 .bf16).view.loc (c : Thread nD τ) ↦{q} f) := BI.Entails.refl _

/-- The send buffer's column blocks as memrefs. -/
abbrev ssM0 : Memref sig .tc .vmem S512x384 .bf16 :=
  (Memref.whole cc0_scratch6 : Memref sig .tc .vmem S512x1024 .bf16).slice (Rect.unit (s := S512x1024) ![0, 0] S512x384.size inb_S512x1024_S512x384_0_0) (fun _ => rfl)
theorem colpts0 (c : Dev nD) (q : PosShare TreeShare) (f : Buf (Elt F) ((c : Thread nD τ).loc cc0_scratch6)) :
    ((((c : Thread nD τ).loc cc0_scratch6) ↦[ssCol_0_0]{q} f) : sProp (MT nD τ sig Unit (Elt F) ℕ UU ℕ))
      ⊢ ((ssM0).view.loc (c : Thread nD τ) ↦[(ssM0).view.set]{q} f) := BI.Entails.refl _
theorem colpts0' (c : Dev nD) (q : PosShare TreeShare) (f : Buf (Elt F) ((c : Thread nD τ).loc cc0_scratch6)) :
    (((ssM0).view.loc (c : Thread nD τ) ↦[(ssM0).view.set]{q} f) : sProp (MT nD τ sig Unit (Elt F) ℕ UU ℕ))
      ⊢ (((c : Thread nD τ).loc cc0_scratch6) ↦[ssCol_0_0]{q} f) := BI.Entails.refl _
abbrev ssM1 : Memref sig .tc .vmem S512x384 .bf16 :=
  (Memref.whole cc0_scratch6 : Memref sig .tc .vmem S512x1024 .bf16).slice (Rect.unit (s := S512x1024) ![0, 384] S512x384.size inb_S512x1024_S512x384_0_384) (fun _ => rfl)
theorem colpts1 (c : Dev nD) (q : PosShare TreeShare) (f : Buf (Elt F) ((c : Thread nD τ).loc cc0_scratch6)) :
    ((((c : Thread nD τ).loc cc0_scratch6) ↦[ssCol_0_1]{q} f) : sProp (MT nD τ sig Unit (Elt F) ℕ UU ℕ))
      ⊢ ((ssM1).view.loc (c : Thread nD τ) ↦[(ssM1).view.set]{q} f) := BI.Entails.refl _
theorem colpts1' (c : Dev nD) (q : PosShare TreeShare) (f : Buf (Elt F) ((c : Thread nD τ).loc cc0_scratch6)) :
    (((ssM1).view.loc (c : Thread nD τ) ↦[(ssM1).view.set]{q} f) : sProp (MT nD τ sig Unit (Elt F) ℕ UU ℕ))
      ⊢ (((c : Thread nD τ).loc cc0_scratch6) ↦[ssCol_0_1]{q} f) := BI.Entails.refl _
abbrev ssM2 : Memref sig .tc .vmem S512x256 .bf16 :=
  (Memref.whole cc0_scratch6 : Memref sig .tc .vmem S512x1024 .bf16).slice (Rect.unit (s := S512x1024) ![0, 768] S512x256.size inb_S512x1024_S512x256_0_768) (fun _ => rfl)
theorem colpts2 (c : Dev nD) (q : PosShare TreeShare) (f : Buf (Elt F) ((c : Thread nD τ).loc cc0_scratch6)) :
    ((((c : Thread nD τ).loc cc0_scratch6) ↦[ssCol_0_2]{q} f) : sProp (MT nD τ sig Unit (Elt F) ℕ UU ℕ))
      ⊢ ((ssM2).view.loc (c : Thread nD τ) ↦[(ssM2).view.set]{q} f) := BI.Entails.refl _
theorem colpts2' (c : Dev nD) (q : PosShare TreeShare) (f : Buf (Elt F) ((c : Thread nD τ).loc cc0_scratch6)) :
    (((ssM2).view.loc (c : Thread nD τ) ↦[(ssM2).view.set]{q} f) : sProp (MT nD τ sig Unit (Elt F) ℕ UU ℕ))
      ⊢ (((c : Thread nD τ).loc cc0_scratch6) ↦[ssCol_0_2]{q} f) := BI.Entails.refl _
theorem rowpts_0_0 (c : Dev nD) (q : PosShare TreeShare) (f : Buf (Elt F) ((c : Thread nD τ).loc cc0_scratch6)) :
    ((((c : Thread nD τ).loc cc0_scratch6) ↦[(src_rs_0_0_0 c).view.set]{q} f) : sProp (MT nD τ sig Unit (Elt F) ℕ UU ℕ))
      ⊢ ((src_rs_0_0_0 c).view.loc (c : Thread nD τ) ↦[(src_rs_0_0_0 c).view.set]{q} f) := BI.Entails.refl _
theorem rowpts_0_1 (c : Dev nD) (q : PosShare TreeShare) (f : Buf (Elt F) ((c : Thread nD τ).loc cc0_scratch6)) :
    ((((c : Thread nD τ).loc cc0_scratch6) ↦[(src_rs_0_0_1 c).view.set]{q} f) : sProp (MT nD τ sig Unit (Elt F) ℕ UU ℕ))
      ⊢ ((src_rs_0_0_1 c).view.loc (c : Thread nD τ) ↦[(src_rs_0_0_1 c).view.set]{q} f) := BI.Entails.refl _
theorem rowpts_1_0 (c : Dev nD) (q : PosShare TreeShare) (f : Buf (Elt F) ((c : Thread nD τ).loc cc0_scratch6)) :
    ((((c : Thread nD τ).loc cc0_scratch6) ↦[(src_rs_0_1_0 c).view.set]{q} f) : sProp (MT nD τ sig Unit (Elt F) ℕ UU ℕ))
      ⊢ ((src_rs_0_1_0 c).view.loc (c : Thread nD τ) ↦[(src_rs_0_1_0 c).view.set]{q} f) := BI.Entails.refl _
theorem rowpts_1_1 (c : Dev nD) (q : PosShare TreeShare) (f : Buf (Elt F) ((c : Thread nD τ).loc cc0_scratch6)) :
    ((((c : Thread nD τ).loc cc0_scratch6) ↦[(src_rs_0_1_1 c).view.set]{q} f) : sProp (MT nD τ sig Unit (Elt F) ℕ UU ℕ))
      ⊢ ((src_rs_0_1_1 c).view.loc (c : Thread nD τ) ↦[(src_rs_0_1_1 c).view.set]{q} f) := BI.Entails.refl _
theorem rowpts_2_0 (c : Dev nD) (q : PosShare TreeShare) (f : Buf (Elt F) ((c : Thread nD τ).loc cc0_scratch6)) :
    ((((c : Thread nD τ).loc cc0_scratch6) ↦[(src_rs_0_2_0 c).view.set]{q} f) : sProp (MT nD τ sig Unit (Elt F) ℕ UU ℕ))
      ⊢ ((src_rs_0_2_0 c).view.loc (c : Thread nD τ) ↦[(src_rs_0_2_0 c).view.set]{q} f) := BI.Entails.refl _
theorem rowpts_2_1 (c : Dev nD) (q : PosShare TreeShare) (f : Buf (Elt F) ((c : Thread nD τ).loc cc0_scratch6)) :
    ((((c : Thread nD τ).loc cc0_scratch6) ↦[(src_rs_0_2_1 c).view.set]{q} f) : sProp (MT nD τ sig Unit (Elt F) ℕ UU ℕ))
      ⊢ ((src_rs_0_2_1 c).view.loc (c : Thread nD τ) ↦[(src_rs_0_2_1 c).view.set]{q} f) := BI.Entails.refl _

theorem loanV_open {sh : Shape} {e : EltTy} (d : Dev nD) (v : Memref sig .tc .vmem sh e) :
    (loanV (F := F) d v : sProp (MT nD τ sig Unit (Elt F) ℕ UU ℕ)) ⊢ iprop(∃ f : Buf (Elt F) (v.view.loc (d : Thread nD τ)), (v.view.loc (d : Thread nD τ) ↦[v.view.set]{fullShare} f)) := BI.Entails.refl _
theorem heldV_unfold {sh : Shape} {e : EltTy} (d : Dev nD) (v : Memref sig .tc .vmem sh e) (q : PosShare TreeShare)
    (P : v.view.ty.Idx → Elt F v.view.ty.elt → Prop) :
    heldV (F := F) d v q P = iprop(∃ f : Buf (Elt F) (v.view.loc (d : Thread nD τ)), (v.view.loc (d : Thread nD τ) ↦[v.view.set]{q} f) ∗ ⌜∀ i ∈ v.view.set, P i (f i)⌝) := rfl
theorem loanV_unfold {sh : Shape} {e : EltTy} (d : Dev nD) (v : Memref sig .tc .vmem sh e) :
    loanV (F := F) d v = iprop(∃ f : Buf (Elt F) (v.view.loc (d : Thread nD τ)), (v.view.loc (d : Thread nD τ) ↦[v.view.set]{fullShare} f)) := rfl

theorem duties_S_0_0 (d : Dev nD) : (sched ct).duties (dcell d 0 0 0 0) 0 = {0} := duties_dma ct d 0 0 0 0 rfl
theorem duties_R_0_0 (d : Dev nD) : (sched ct).duties (dcell d 1 0 0 0) 0 = {0} := duties_dma ct d 1 0 0 0 rfl
theorem pay_S_0_0 (d : Dev nD) : dmaPay ct d (dsem 0 0 0 0).val = iprop(∃ f : Buf (Elt F) ((src_rs_0_0_0 d).view.loc (d : Thread nD τ)), ((src_rs_0_0_0 d).view.loc (d : Thread nD τ) ↦[(src_rs_0_0_0 d).view.set]{fullShare} f)) := rfl
theorem pay_R_0_0 (c : Dev nD) : dmaPay ct (peer 0 0 c) (dsem 1 0 0 0).val
    = heldV (peer 0 0 c) (dst_rs_0_0_0 c) fullShare (fun i v => pRS ct 0 (peer 0 0 c) (sh := S512x1024) i v) := by
  show recv_rs_0_0_0 ct (peer 0 0 c) = _
  unfold recv_rs_0_0_0; rw [peer_peer]
theorem duties_S_0_1 (d : Dev nD) : (sched ct).duties (dcell d 0 0 0 1) 0 = {0} := duties_dma ct d 0 0 0 1 rfl
theorem duties_R_0_1 (d : Dev nD) : (sched ct).duties (dcell d 1 0 0 1) 0 = {0} := duties_dma ct d 1 0 0 1 rfl
theorem pay_S_0_1 (d : Dev nD) : dmaPay ct d (dsem 0 0 0 1).val = iprop(∃ f : Buf (Elt F) ((src_rs_0_0_1 d).view.loc (d : Thread nD τ)), ((src_rs_0_0_1 d).view.loc (d : Thread nD τ) ↦[(src_rs_0_0_1 d).view.set]{fullShare} f)) := rfl
theorem pay_R_0_1 (c : Dev nD) : dmaPay ct (peer 0 0 c) (dsem 1 0 0 1).val
    = heldV (peer 0 0 c) (dst_rs_0_0_1 c) fullShare (fun i v => pRS ct 0 (peer 0 0 c) (sh := S512x1024) i v) := by
  show recv_rs_0_0_1 ct (peer 0 0 c) = _
  unfold recv_rs_0_0_1; rw [peer_peer]
theorem duties_S_1_0 (d : Dev nD) : (sched ct).duties (dcell d 0 0 1 0) 0 = {0} := duties_dma ct d 0 0 1 0 rfl
theorem duties_R_1_0 (d : Dev nD) : (sched ct).duties (dcell d 1 0 1 0) 0 = {0} := duties_dma ct d 1 0 1 0 rfl
theorem pay_S_1_0 (d : Dev nD) : dmaPay ct d (dsem 0 0 1 0).val = iprop(∃ f : Buf (Elt F) ((src_rs_0_1_0 d).view.loc (d : Thread nD τ)), ((src_rs_0_1_0 d).view.loc (d : Thread nD τ) ↦[(src_rs_0_1_0 d).view.set]{fullShare} f)) := rfl
theorem pay_R_1_0 (c : Dev nD) : dmaPay ct (peer 1 0 c) (dsem 1 0 1 0).val
    = heldV (peer 1 0 c) (dst_rs_0_1_0 c) fullShare (fun i v => pRS ct 0 (peer 1 0 c) (sh := S512x1024) i v) := by
  show recv_rs_0_1_0 ct (peer 1 0 c) = _
  unfold recv_rs_0_1_0; rw [peer_peer]
theorem duties_S_1_1 (d : Dev nD) : (sched ct).duties (dcell d 0 0 1 1) 0 = {0} := duties_dma ct d 0 0 1 1 rfl
theorem duties_R_1_1 (d : Dev nD) : (sched ct).duties (dcell d 1 0 1 1) 0 = {0} := duties_dma ct d 1 0 1 1 rfl
theorem pay_S_1_1 (d : Dev nD) : dmaPay ct d (dsem 0 0 1 1).val = iprop(∃ f : Buf (Elt F) ((src_rs_0_1_1 d).view.loc (d : Thread nD τ)), ((src_rs_0_1_1 d).view.loc (d : Thread nD τ) ↦[(src_rs_0_1_1 d).view.set]{fullShare} f)) := rfl
theorem pay_R_1_1 (c : Dev nD) : dmaPay ct (peer 1 0 c) (dsem 1 0 1 1).val
    = heldV (peer 1 0 c) (dst_rs_0_1_1 c) fullShare (fun i v => pRS ct 0 (peer 1 0 c) (sh := S512x1024) i v) := by
  show recv_rs_0_1_1 ct (peer 1 0 c) = _
  unfold recv_rs_0_1_1; rw [peer_peer]
theorem duties_S_2_0 (d : Dev nD) : (sched ct).duties (dcell d 0 0 2 0) 0 = {0} := duties_dma ct d 0 0 2 0 rfl
theorem duties_R_2_0 (d : Dev nD) : (sched ct).duties (dcell d 1 0 2 0) 0 = {0} := duties_dma ct d 1 0 2 0 rfl
theorem pay_S_2_0 (d : Dev nD) : dmaPay ct d (dsem 0 0 2 0).val = iprop(∃ f : Buf (Elt F) ((src_rs_0_2_0 d).view.loc (d : Thread nD τ)), ((src_rs_0_2_0 d).view.loc (d : Thread nD τ) ↦[(src_rs_0_2_0 d).view.set]{fullShare} f)) := rfl
theorem pay_R_2_0 (c : Dev nD) : dmaPay ct (peer 2 0 c) (dsem 1 0 2 0).val
    = heldV (peer 2 0 c) (dst_rs_0_2_0 c) fullShare (fun i v => pRS ct 0 (peer 2 0 c) (sh := S512x1024) i v) := by
  show recv_rs_0_2_0 ct (peer 2 0 c) = _
  unfold recv_rs_0_2_0; rw [peer_peer]
theorem duties_S_2_1 (d : Dev nD) : (sched ct).duties (dcell d 0 0 2 1) 0 = {0} := duties_dma ct d 0 0 2 1 rfl
theorem duties_R_2_1 (d : Dev nD) : (sched ct).duties (dcell d 1 0 2 1) 0 = {0} := duties_dma ct d 1 0 2 1 rfl
theorem pay_S_2_1 (d : Dev nD) : dmaPay ct d (dsem 0 0 2 1).val = iprop(∃ f : Buf (Elt F) ((src_rs_0_2_1 d).view.loc (d : Thread nD τ)), ((src_rs_0_2_1 d).view.loc (d : Thread nD τ) ↦[(src_rs_0_2_1 d).view.set]{fullShare} f)) := rfl
theorem pay_R_2_1 (c : Dev nD) : dmaPay ct (peer 2 0 c) (dsem 1 0 2 1).val
    = heldV (peer 2 0 c) (dst_rs_0_2_1 c) fullShare (fun i v => pRS ct 0 (peer 2 0 c) (sh := S512x1024) i v) := by
  show recv_rs_0_2_1 ct (peer 2 0 c) = _
  unfold recv_rs_0_2_1; rw [peer_peer]

attribute [local sl_rounds] amount_dma payload_dma heldV_unfold duties_S_0_0 duties_R_0_0 pay_S_0_0 pay_R_0_0 duties_S_0_1 duties_R_0_1 pay_S_0_1 pay_R_0_1 duties_S_1_0 duties_R_1_0 pay_S_1_0 pay_R_1_0 duties_S_1_1 duties_R_1_1 pay_S_1_1 pay_R_1_1 duties_S_2_0 duties_R_2_0 pay_S_2_0 pay_R_2_0 duties_S_2_1 duties_R_2_1 pay_S_2_1 pay_R_2_1
attribute [local sl_canon] dev_rs_0_0_0 dev_rs_0_0_1 dev_rs_0_1_0 dev_rs_0_1_1 dev_rs_0_2_0 dev_rs_0_2_1

/-- The positions: the handshake cell's, the summing phase's, the gathering phase's. -/
theorem positions_eq3 (c : Dev nD) : positions (F := F) c = iprop(atPos ER (barCell c) 0 ∅ 0 ∗ posRS c ∗ posAG c) := by
  unfold positions posRS posAG; simp only [sep_assoc_eq]
/-- The launch credit: the handshake cell's, the summing phase's, the gathering phase's. -/
theorem credits_eq3 (c : Dev nD) : credits (F := F) c = iprop(cred (tallyAt (barCell c) () 5) ∗ credRS c ∗ credAG c) := by
  unfold credits credRS credAG; simp only [sep_assoc_eq]
/-- The transfers' tokens: the first stage's six pairs, then the rest. -/
theorem xferToks_eq6 (c : Dev nD) : xferToks (F := F) c = iprop((dutyTok ER (dcell c 0 0 0 0) 0 0 ∗ dutyTok ER (dcell (peer 0 0 c) 1 0 0 0) 0 0) ∗ (dutyTok ER (dcell c 0 0 0 1) 0 0 ∗ dutyTok ER (dcell (peer 0 0 c) 1 0 0 1) 0 0) ∗ (dutyTok ER (dcell c 0 0 1 0) 0 0 ∗ dutyTok ER (dcell (peer 1 0 c) 1 0 1 0) 0 0) ∗ (dutyTok ER (dcell c 0 0 1 1) 0 0 ∗ dutyTok ER (dcell (peer 1 0 c) 1 0 1 1) 0 0) ∗ (dutyTok ER (dcell c 0 0 2 0) 0 0 ∗ dutyTok ER (dcell (peer 2 0 c) 1 0 2 0) 0 0) ∗ (dutyTok ER (dcell c 0 0 2 1) 0 0 ∗ dutyTok ER (dcell (peer 2 0 c) 1 0 2 1) 0 0) ∗ toksFrom6 c) := by
  unfold xferToks toksFrom6; rfl

theorem prog_ret_bind {E : Type → Type} {α β : Type} (a : α) (k : α → Prog E β) : (Prog.ret a).bind k = k a := rfl

set_option maxHeartbeats 4000000 in
theorem segA_core (laws : Laws ct c YA YB) {R : Type}
    (G : Dev nD → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → BitVec 32 → Prog (TpuEff nD τ sig (Elt F) Λ₀ .tc) R)
    (Kt : R → sProp (MT nD τ sig Unit (Elt F) ℕ UU ℕ)) :
    iprop(PreA ct K c YA YB ∗ (∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v40 : BitVec 32) (v74 : BitVec 32) (v108 : BitVec 32) (v179 : BitVec 32) (v182 : BitVec 32), Pre7 ct K c YA YB -∗
        wp frame (wpE (defs₀ (F := F)) 𝒱₀ (c : Thread nD τ) none) Set.univ (G c v3 v4 v5 v6 v7 v8 v9 v10 v11 v12 v13 v14 v15 v16 v17 v18 v20 v22 v24 v26 v28 v40 v74 v108 v179 v182) Kt))
      ⊢ wp frame (wpE (defs₀ (F := F)) 𝒱₀ (c : Thread nD τ) none) Set.univ (front (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 G) Kt := by
  unfold front PreA
  rw [scopedRest0_eq]
  rw [owed_step_0 c, owed_step_1 c, owed_step_2 c, owed_step_3 c, owed_step_4 c]
  rw [positions_eq3 c, credits_eq3 c, xferToks_eq6 c]
  unfold barToks
  iintro ⟨Hpre, Hk⟩
  icases Hpre with ⟨#Hrec, #Hlev, HOw, Hpos, Hbt, Hxt, Hcr, Hidle, Hsc, HA, HB, Hout⟩
  icases HOw with ⟨%W, HO⟩
  icases Hbt with ⟨Ht0, Ht1, Ht2, Ht3, Ht4⟩
  icases Hpos with ⟨HatB, HposRS, HposAG⟩
  icases Hcr with ⟨HcrB, HcrRS, HcrAG⟩
  icases Hsc with ⟨Hacc, Hrs0, Hrs1, Hrs2, Hrs3, Hrs4, Hss0, Hss1, Hss2, Hss3, Hss4⟩
  ihave Hl0 := (rs_split_0 (F := F) c) $$ Hrs0
  ihave Hl1 := (rs_split_1 (F := F) c) $$ Hrs1
  ihave Hl2 := (rs_split_2 (F := F) c) $$ Hrs2
  ihave Hl3 := (rs_split_3 (F := F) c) $$ Hrs3
  ihave Hl4 := (rs_split_4 (F := F) c) $$ Hrs4
  ihave Hlo := (out_split (F := F) c) $$ Hout
  icases Hl0 with ⟨Hl0_0, Hl0_1, Hl0_2, Hl0_3, Hl0_4, Hl0_5⟩
  icases Hl1 with ⟨Hl1_0, Hl1_1, Hl1_2, Hl1_3, Hl1_4, Hl1_5⟩
  icases Hl2 with ⟨Hl2_0, Hl2_1, Hl2_2, Hl2_3, Hl2_4, Hl2_5⟩
  icases Hl3 with ⟨Hl3_0, Hl3_1, Hl3_2, Hl3_3, Hl3_4, Hl3_5⟩
  icases Hl4 with ⟨Hl4_0, Hl4_1, Hl4_2⟩
  icases Hlo with ⟨Hown0, Hown1, Hown2, Hlo0, Hlo1, Hlo2, Hlo3, Hlo4, Hlo5, Hlo6, Hlo7, Hlo8, Hlo9, Hlo10, Hlo11, Hlo12, Hlo13, Hlo14, Hlo15, Hlo16, Hlo17, Hlo18, Hlo19, Hlo20, Hlo21, Hlo22, Hlo23, Hlo24, Hlo25, Hlo26⟩
  ihave #HIc := (inv_bar ct K c) $$ Hrec
  ihave #HI0 := (inv_bar ct K (xr c (hmask 0))) $$ Hrec
  ihave #Hr0 := (reached_bar ct K (xr c (hmask 0))) $$ Hrec
  ihave #HI1 := (inv_bar ct K (xr c (hmask 1))) $$ Hrec
  ihave #Hr1 := (reached_bar ct K (xr c (hmask 1))) $$ Hrec
  ihave #HI2 := (inv_bar ct K (xr c (hmask 2))) $$ Hrec
  ihave #Hr2 := (reached_bar ct K (xr c (hmask 2))) $$ Hrec
  ihave #HI3 := (inv_bar ct K (xr c (hmask 3))) $$ Hrec
  ihave #Hr3 := (reached_bar ct K (xr c (hmask 3))) $$ Hrec
  ihave #HI4 := (inv_bar ct K (xr c (hmask 4))) $$ Hrec
  ihave #Hr4 := (reached_bar ct K (xr c (hmask 4))) $$ Hrec
  ihave #Hmw := (mayWait_bar (F := F) c) $$ Hlev
  ihave HA := (ptsA c fullShare YA) $$ HA
  ihave HB := (ptsB c fullShare YB) $$ HB
  icases Hacc with ⟨%facc, Hacc⟩
  ihave Hacc := (ptsAcc c fullShare facc) $$ Hacc
  ihave Hcols := (ss_cols_0 (F := F) c) $$ Hss0
  icases Hcols with ⟨⟨%g0, Hc0⟩, ⟨%g1, Hc1⟩, ⟨%g2, Hc2⟩⟩
  ihave Hc0 := (colpts0 c fullShare g0) $$ Hc0
  ihave Hc1 := (colpts1 c fullShare g1) $$ Hc1
  ihave Hc2 := (colpts2 c fullShare g2) $$ Hc2
  icases Hxt with ⟨⟨Hts00, Htr00⟩, ⟨Hts01, Htr01⟩, ⟨Hts10, Htr10⟩, ⟨Hts11, Htr11⟩, ⟨Hts20, Htr20⟩, ⟨Hts21, Htr21⟩, Hxt⟩
  ihave #HIs00 := (inv_dma ct K c 0 0 0 0 (by decide)) $$ Hrec
  ihave #HIr00 := (inv_dma ct K (peer 0 0 c) 1 0 0 0 (by decide)) $$ Hrec
  ihave #Hrs00 := (reached_dma ct K c 0 0 0 0 (by decide)) $$ Hrec
  ihave #Hrr00 := (reached_dma ct K (peer 0 0 c) 1 0 0 0 (by decide)) $$ Hrec
  ihave #HIs01 := (inv_dma ct K c 0 0 0 1 (by decide)) $$ Hrec
  ihave #HIr01 := (inv_dma ct K (peer 0 0 c) 1 0 0 1 (by decide)) $$ Hrec
  ihave #Hrs01 := (reached_dma ct K c 0 0 0 1 (by decide)) $$ Hrec
  ihave #Hrr01 := (reached_dma ct K (peer 0 0 c) 1 0 0 1 (by decide)) $$ Hrec
  ihave #HIs10 := (inv_dma ct K c 0 0 1 0 (by decide)) $$ Hrec
  ihave #HIr10 := (inv_dma ct K (peer 1 0 c) 1 0 1 0 (by decide)) $$ Hrec
  ihave #Hrs10 := (reached_dma ct K c 0 0 1 0 (by decide)) $$ Hrec
  ihave #Hrr10 := (reached_dma ct K (peer 1 0 c) 1 0 1 0 (by decide)) $$ Hrec
  ihave #HIs11 := (inv_dma ct K c 0 0 1 1 (by decide)) $$ Hrec
  ihave #HIr11 := (inv_dma ct K (peer 1 0 c) 1 0 1 1 (by decide)) $$ Hrec
  ihave #Hrs11 := (reached_dma ct K c 0 0 1 1 (by decide)) $$ Hrec
  ihave #Hrr11 := (reached_dma ct K (peer 1 0 c) 1 0 1 1 (by decide)) $$ Hrec
  ihave #HIs20 := (inv_dma ct K c 0 0 2 0 (by decide)) $$ Hrec
  ihave #HIr20 := (inv_dma ct K (peer 2 0 c) 1 0 2 0 (by decide)) $$ Hrec
  ihave #Hrs20 := (reached_dma ct K c 0 0 2 0 (by decide)) $$ Hrec
  ihave #Hrr20 := (reached_dma ct K (peer 2 0 c) 1 0 2 0 (by decide)) $$ Hrec
  ihave #HIs21 := (inv_dma ct K c 0 0 2 1 (by decide)) $$ Hrec
  ihave #HIr21 := (inv_dma ct K (peer 2 0 c) 1 0 2 1 (by decide)) $$ Hrec
  ihave #Hrs21 := (reached_dma ct K c 0 0 2 1 (by decide)) $$ Hrec
  ihave #Hrr21 := (reached_dma ct K (peer 2 0 c) 1 0 2 1 (by decide)) $$ Hrec
  sl_exec
  -- column block 0 of the send buffer into the two row pieces sent
  ihave Hc0 := (colpts0' c fullShare _) $$ Hc0
  ihave Hrows0 := ((ss_rows_at_0_0 (F := F) c fullShare _).1) $$ Hc0
  icases Hrows0 with ⟨Hs00, Hs01⟩
  ihave Hs00 := (rowpts_0_0 c fullShare _) $$ Hs00
  ihave Hs01 := (rowpts_0_1 c fullShare _) $$ Hs01
  -- the transfer of piece 0 of column block 0
  ihave Hd00 := (loanV_open (peer 0 0 c) (dst_rs_0_0_0 c)) $$ HatB_pay1
  icases Hd00 with ⟨%fd00, Hd00⟩
  rw [owed_step_5 c]
  iapply (send_step ct (K _) (K _) c _ (peer 0 0 c) (dev_rs_0_0_0 c)
      (src_rs_0_0_0 c) (dst_rs_0_0_0 c) (dsem 0 0 0 0) (dsem 1 0 0 0) _ fd00
      (owedFrom c 6) _ _
      (duties_S_0_0 ct c) (duties_R_0_0 ct (peer 0 0 c)) (amtIx (dsem 1 0 0 0).val) rfl rfl rfl rfl (pay_R_0_0 ct c) (SegAVal.hlaw_0_0_0 ct c YA YB laws g0 fd00))
    $$ [Hs00 Hd00 HO Hts00 Htr00]
  · isplitr; · iexact HIs00
    isplitr; · iexact HIr00
    isplitl [Hs00]; · iexact Hs00
    isplitl [Hd00]; · iexact Hd00
    isplitl [HO]; · iexact HO
    isplitl [Hts00]; · iexact Hts00
    isplitr; · iexact Hrs00
    isplitl [Htr00]; · iexact Htr00
    iexact Hrr00
  iintro ⟨Hcs00, HO⟩
  -- the transfer of piece 1 of column block 0
  ihave Hd01 := (loanV_open (peer 0 0 c) (dst_rs_0_0_1 c)) $$ HatB_pay2
  icases Hd01 with ⟨%fd01, Hd01⟩
  rw [owed_step_6 c]
  iapply (send_step ct (K _) (K _) c _ (peer 0 0 c) (dev_rs_0_0_1 c)
      (src_rs_0_0_1 c) (dst_rs_0_0_1 c) (dsem 0 0 0 1) (dsem 1 0 0 1) _ fd01
      (owedFrom c 7) _ _
      (duties_S_0_1 ct c) (duties_R_0_1 ct (peer 0 0 c)) (amtIx (dsem 1 0 0 1).val) rfl rfl rfl rfl (pay_R_0_1 ct c) (SegAVal.hlaw_0_0_1 ct c YA YB laws g0 fd01))
    $$ [Hs01 Hd01 HO Hts01 Htr01]
  · isplitr; · iexact HIs01
    isplitr; · iexact HIr01
    isplitl [Hs01]; · iexact Hs01
    isplitl [Hd01]; · iexact Hd01
    isplitl [HO]; · iexact HO
    isplitl [Hts01]; · iexact Hts01
    isplitr; · iexact Hrs01
    isplitl [Htr01]; · iexact Htr01
    iexact Hrr01
  iintro ⟨Hcs01, HO⟩
  rw [prog_ret_bind]
  sl_exec
  -- column block 1 of the send buffer into the two row pieces sent
  ihave Hc1 := (colpts1' c fullShare _) $$ Hc1
  ihave Hrows1 := ((ss_rows_at_0_1 (F := F) c fullShare _).1) $$ Hc1
  icases Hrows1 with ⟨Hs10, Hs11⟩
  ihave Hs10 := (rowpts_1_0 c fullShare _) $$ Hs10
  ihave Hs11 := (rowpts_1_1 c fullShare _) $$ Hs11
  -- the transfer of piece 0 of column block 1
  ihave Hd10 := (loanV_open (peer 1 0 c) (dst_rs_0_1_0 c)) $$ HatB_pay13
  icases Hd10 with ⟨%fd10, Hd10⟩
  rw [owed_step_7 c]
  iapply (send_step ct (K _) (K _) c _ (peer 1 0 c) (dev_rs_0_1_0 c)
      (src_rs_0_1_0 c) (dst_rs_0_1_0 c) (dsem 0 0 1 0) (dsem 1 0 1 0) _ fd10
      (owedFrom c 8) _ _
      (duties_S_1_0 ct c) (duties_R_1_0 ct (peer 1 0 c)) (amtIx (dsem 1 0 1 0).val) rfl rfl rfl rfl (pay_R_1_0 ct c) (SegAVal.hlaw_0_1_0 ct c YA YB laws g1 fd10))
    $$ [Hs10 Hd10 HO Hts10 Htr10]
  · isplitr; · iexact HIs10
    isplitr; · iexact HIr10
    isplitl [Hs10]; · iexact Hs10
    isplitl [Hd10]; · iexact Hd10
    isplitl [HO]; · iexact HO
    isplitl [Hts10]; · iexact Hts10
    isplitr; · iexact Hrs10
    isplitl [Htr10]; · iexact Htr10
    iexact Hrr10
  iintro ⟨Hcs10, HO⟩
  -- the transfer of piece 1 of column block 1
  ihave Hd11 := (loanV_open (peer 1 0 c) (dst_rs_0_1_1 c)) $$ HatB_pay14
  icases Hd11 with ⟨%fd11, Hd11⟩
  rw [owed_step_8 c]
  iapply (send_step ct (K _) (K _) c _ (peer 1 0 c) (dev_rs_0_1_1 c)
      (src_rs_0_1_1 c) (dst_rs_0_1_1 c) (dsem 0 0 1 1) (dsem 1 0 1 1) _ fd11
      (owedFrom c 9) _ _
      (duties_S_1_1 ct c) (duties_R_1_1 ct (peer 1 0 c)) (amtIx (dsem 1 0 1 1).val) rfl rfl rfl rfl (pay_R_1_1 ct c) (SegAVal.hlaw_0_1_1 ct c YA YB laws g1 fd11))
    $$ [Hs11 Hd11 HO Hts11 Htr11]
  · isplitr; · iexact HIs11
    isplitr; · iexact HIr11
    isplitl [Hs11]; · iexact Hs11
    isplitl [Hd11]; · iexact Hd11
    isplitl [HO]; · iexact HO
    isplitl [Hts11]; · iexact Hts11
    isplitr; · iexact Hrs11
    isplitl [Htr11]; · iexact Htr11
    iexact Hrr11
  iintro ⟨Hcs11, HO⟩
  rw [prog_ret_bind]
  sl_exec
  -- column block 2 of the send buffer into the two row pieces sent
  ihave Hc2 := (colpts2' c fullShare _) $$ Hc2
  ihave Hrows2 := ((ss_rows_at_0_2 (F := F) c fullShare _).1) $$ Hc2
  icases Hrows2 with ⟨Hs20, Hs21⟩
  ihave Hs20 := (rowpts_2_0 c fullShare _) $$ Hs20
  ihave Hs21 := (rowpts_2_1 c fullShare _) $$ Hs21
  -- the transfer of piece 0 of column block 2
  ihave Hd20 := (loanV_open (peer 2 0 c) (dst_rs_0_2_0 c)) $$ HatB_pay25
  icases Hd20 with ⟨%fd20, Hd20⟩
  rw [owed_step_9 c]
  iapply (send_step ct (K _) (K _) c _ (peer 2 0 c) (dev_rs_0_2_0 c)
      (src_rs_0_2_0 c) (dst_rs_0_2_0 c) (dsem 0 0 2 0) (dsem 1 0 2 0) _ fd20
      (owedFrom c 10) _ _
      (duties_S_2_0 ct c) (duties_R_2_0 ct (peer 2 0 c)) (amtIx (dsem 1 0 2 0).val) rfl rfl rfl rfl (pay_R_2_0 ct c) (SegAVal.hlaw_0_2_0 ct c YA YB laws g2 fd20))
    $$ [Hs20 Hd20 HO Hts20 Htr20]
  · isplitr; · iexact HIs20
    isplitr; · iexact HIr20
    isplitl [Hs20]; · iexact Hs20
    isplitl [Hd20]; · iexact Hd20
    isplitl [HO]; · iexact HO
    isplitl [Hts20]; · iexact Hts20
    isplitr; · iexact Hrs20
    isplitl [Htr20]; · iexact Htr20
    iexact Hrr20
  iintro ⟨Hcs20, HO⟩
  -- the transfer of piece 1 of column block 2
  ihave Hd21 := (loanV_open (peer 2 0 c) (dst_rs_0_2_1 c)) $$ HatB_pay26
  icases Hd21 with ⟨%fd21, Hd21⟩
  rw [owed_step_10 c]
  iapply (send_step ct (K _) (K _) c _ (peer 2 0 c) (dev_rs_0_2_1 c)
      (src_rs_0_2_1 c) (dst_rs_0_2_1 c) (dsem 0 0 2 1) (dsem 1 0 2 1) _ fd21
      (owedFrom c 11) _ _
      (duties_S_2_1 ct c) (duties_R_2_1 ct (peer 2 0 c)) (amtIx (dsem 1 0 2 1).val) rfl rfl rfl rfl (pay_R_2_1 ct c) (SegAVal.hlaw_0_2_1 ct c YA YB laws g2 fd21))
    $$ [Hs21 Hd21 HO Hts21 Htr21]
  · isplitr; · iexact HIs21
    isplitr; · iexact HIr21
    isplitl [Hs21]; · iexact Hs21
    isplitl [Hd21]; · iexact Hd21
    isplitl [HO]; · iexact HO
    isplitl [Hts21]; · iexact Hts21
    isplitr; · iexact Hrs21
    isplitl [Htr21]; · iexact Htr21
    iexact Hrr21
  iintro ⟨Hcs21, HO⟩
  rw [prog_ret_bind]
  sl_exec
  -- the state after the first stage
  iapply Hk
  unfold Pre7
  isplitr; · iexact Hrec
  isplitr; · iexact Hlev
  isplitl [HO]; · iexists _; iexact HO
  isplitl [Hxt]; · iexact Hxt
  isplitl [HposRS]; · iexact HposRS
  isplitl [HposAG]; · iexact HposAG
  isplitl [HcrRS]; · iexact HcrRS
  isplitl [HcrAG]; · iexact HcrAG
  isplitl [Hcs00 Hcs01 Hcs10 Hcs11 Hcs20 Hcs21]
  · unfold sendCred0
    isplitl [Hcs00]; · iexact Hcs00
    isplitl [Hcs01]; · iexact Hcs01
    isplitl [Hcs10]; · iexact Hcs10
    isplitl [Hcs11]; · iexact Hcs11
    isplitl [Hcs20]; · iexact Hcs20
    iexact Hcs21
  isplitl [Hidle]; · iexact Hidle
  isplitl [HA]; · iexact HA
  isplitl [HB]; · iexact HB
  isplitl [Hown0 Hown1 Hown2]
  · isplitl [Hown0]; · iexact Hown0
    isplitl [Hown1]; · iexact Hown1
    iexact Hown2
  isplitl [Hacc]
  · iexists _
    isplitl [Hacc]; · iexact Hacc
    ipureintro
    exact (SegAVal.acc_law ct c YA YB laws facc)
  isplitl [Hss1 Hss2 Hss3 Hss4]
  · isplitl [Hss1]; · iexact Hss1
    isplitl [Hss2]; · iexact Hss2
    isplitl [Hss3]; · iexact Hss3
    iexact Hss4
  unfold landFrom6
  isplitl [HatB_pay15]; · iexact HatB_pay15
  isplitl [HatB_pay16]; · iexact HatB_pay16
  isplitl [HatB_pay27]; · iexact HatB_pay27
  isplitl [HatB_pay28]; · iexact HatB_pay28
  isplitl [HatB_pay3]; · iexact HatB_pay3
  isplitl [HatB_pay4]; · iexact HatB_pay4
  isplitl [HatB_pay29]; · iexact HatB_pay29
  isplitl [HatB_pay30]; · iexact HatB_pay30
  isplitl [HatB_pay5]; · iexact HatB_pay5
  isplitl [HatB_pay6]; · iexact HatB_pay6
  isplitl [HatB_pay17]; · iexact HatB_pay17
  isplitl [HatB_pay18]; · iexact HatB_pay18
  isplitl [HatB_pay37]; · iexact HatB_pay37
  isplitl [HatB_pay38]; · iexact HatB_pay38
  isplitl [HatB_pay45]; · iexact HatB_pay45
  isplitl [HatB_pay46]; · iexact HatB_pay46
  isplitl [HatB_pay47]; · iexact HatB_pay47
  isplitl [HatB_pay48]; · iexact HatB_pay48
  isplitl [HatB_pay49]; · iexact HatB_pay49
  isplitl [HatB_pay39]; · iexact HatB_pay39
  isplitl [HatB_pay40]; · iexact HatB_pay40
  isplitl [HatB_pay50]; · iexact HatB_pay50
  isplitl [HatB_pay41]; · iexact HatB_pay41
  isplitl [HatB_pay42]; · iexact HatB_pay42
  isplitl [HatB_pay43]; · iexact HatB_pay43
  isplitl [HatB_pay44]; · iexact HatB_pay44
  isplitl [HatB_pay51]; · iexact HatB_pay51
  isplitl [HatB_pay52]; · iexact HatB_pay52
  isplitl [HatB_pay53]; · iexact HatB_pay53
  isplitl [HatB_pay54]; · iexact HatB_pay54
  isplitl [HatB_pay31]; · iexact HatB_pay31
  isplitl [HatB_pay32]; · iexact HatB_pay32
  isplitl [HatB_pay7]; · iexact HatB_pay7
  isplitl [HatB_pay8]; · iexact HatB_pay8
  isplitl [HatB_pay19]; · iexact HatB_pay19
  isplitl [HatB_pay20]; · iexact HatB_pay20
  isplitl [HatB_pay21]; · iexact HatB_pay21
  isplitl [HatB_pay22]; · iexact HatB_pay22
  isplitl [HatB_pay33]; · iexact HatB_pay33
  isplitl [HatB_pay34]; · iexact HatB_pay34
  isplitl [HatB_pay9]; · iexact HatB_pay9
  isplitl [HatB_pay10]; · iexact HatB_pay10
  isplitl [HatB_pay11]; · iexact HatB_pay11
  isplitl [HatB_pay12]; · iexact HatB_pay12
  isplitl [HatB_pay23]; · iexact HatB_pay23
  isplitl [HatB_pay24]; · iexact HatB_pay24
  isplitl [HatB_pay35]; · iexact HatB_pay35
  iexact HatB_pay36

/-- The first segment: the handshake and the first stage. -/
theorem segA (laws : Laws ct c YA YB) {R : Type}
    (T : (Σ' (d0 : Dev nD) (v3 : BitVec 32) (v8 : BitVec 32) (v13 : BitVec 32) (v28 : BitVec 32), BitVec 32) → Prog (TpuEff nD τ sig (Elt F) Λ₀ .tc) R)
    (Kt : R → sProp (MT nD τ sig Unit (Elt F) ℕ UU ℕ)) : SegA ct K c YA YB T Kt := by
  unfold SegA
  rw [front_eq]
  exact segA_core (ct := ct) (K := K) (c := c) (YA := YA) (YB := YB) laws (fun d0 v3 v4 v5 v6 v7 v8 v9 v10 v11 v12 v13 v14 v15 v16 v17 v18 v20 v22 v24 v26 v28 v40 v74 v108 v179 v182 => rest7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 d0 v3 v4 v5 v6 v7 v8 v9 v10 v11 v12 v13 v14 v15 v16 v17 v18 v20 v22 v24 v26 v28 v40 v74 v108 v179 v182 >>= T) Kt

end Cert.Kernel.SegA

end
-- ==== Proof.SegBMidK.lean ====
import proofs.«900879_g7700000000000880_dist_matmul_gelu_kshard_i_m1024_n1024_k512_v7x_i32_bf16_1_alg».proof.Proof.SegsK

set_option synthInstance.maxSize 4096
set_option maxRecDepth 65536

noncomputable section

namespace Cert.Kernel.SegBMid

open Cert.Kernel Cert.Kernel.Gen Cert.Kernel.Proto Cert.Kernel.Tab Cert.Kernel.Held Cert.Kernel.PayTab
open Cert.Kernel.Sched Cert.Kernel.GhostTab Cert.Kernel.Owed Cert.Kernel.Ghost Cert.Kernel.StateTab
open Cert.Kernel.Laws Cert.Kernel.Cut Cert.Kernel.Segs
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Stage four and the pointwise function, then the gathering phase: the chain from its thirtieth part on. -/
noncomputable def rest30 (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2) (d0 : Dev nD) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v611 : BitVec 32) (v663 : BitVec 32) (v715 : BitVec 32) (v827 : BitVec 32) :
    Prog (TpuEff nD τ sig (Elt F) Λ₀ .tc) (Σ' (d0 : Dev nD) (v3 : BitVec 32) (v8 : BitVec 32) (v13 : BitVec 32) (v28 : BitVec 32), BitVec 32) := do
  let v857 : FVec F S32x384 .bf16 ← k0_part30 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6 v26 v611
  let ⟨v866, v868, v871⟩ : Σ' (v866 : BitVec 32) (v868 : BitVec 32), BitVec 32 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v7 v11 v22 v611 v663 v827 v857
  let ⟨v907, v909, v912⟩ : Σ' (v907 : BitVec 32) (v909 : BitVec 32), BitVec 32 ← k0_part32 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v12 v22 v663 v715 v868 v871
  let c1_i32_905 : BitVec 32 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v16 v715 v912
  let v948 : BitVec 32 ← k0_part34 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6 v17 v715 v827 v866 v909 c1_i32_905
  k0_part35 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v11 v868 v907
  k0_part36 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v7 v16 v909 v948
  let ⟨v1044, c0_i32_1026⟩ : Σ' (v1044 : BitVec 32), BitVec 32 ← k0_part37 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v12 v827
  k0_part38 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v868 v1044 c0_i32_1026
  k0_part39 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v7 v17 v827 v909
  rest40 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v5 v6 v7 v8 v9 v10 v11 v12 v13 v14 v15 v16 v17 v18 v20 v22 v24 v26 v28 v827 v868 v909

/-- The second stage's kept halves and stage three, then the rest: the chain from its twentieth part on. -/
noncomputable def rest20 (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2) (d0 : Dev nD) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v395 : BitVec 32) (v445 : BitVec 32) (v447 : BitVec 32) (v497 : BitVec 32) (v499 : BitVec 32) (v549 : BitVec 32) :
    Prog (TpuEff nD τ sig (Elt F) Λ₀ .tc) (Σ' (d0 : Dev nD) (v3 : BitVec 32) (v8 : BitVec 32) (v13 : BitVec 32) (v28 : BitVec 32), BitVec 32) := do
  k0_part20 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v395 v445
  k0_part21 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v9 v14 v447 v497
  let ⟨v611, v614, v627⟩ : Σ' (v611 : BitVec 32) (v614 : BitVec 32), Vec F S64x384 .f32 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v22 v395 v499 v549
  k0_part23 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v6 v26 v614 v627
  let ⟨v661, v663⟩ : Σ' (v661 : BitVec 32), BitVec 32 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v10 v26 v395 v447 v611
  let ⟨v713, v715, v717⟩ : Σ' (v713 : BitVec 32) (v715 : BitVec 32), BitVec 32 ← k0_part25 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v11 v22 v26 v447 v499 v663
  let ⟨v746, c32_i32_703⟩ : Σ' (v746 : BitVec 32), BitVec 32 ← k0_part26 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v15 v22 v499 v717
  let v765 : BitVec 32 ← k0_part27 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v16 v22 v499 v715 v746 c32_i32_703
  k0_part28 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v10 v611 v661 v663
  let v827 : BitVec 32 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v15 v26 v611 v663 v713 v715 v765
  rest30 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v5 v6 v7 v8 v9 v10 v11 v12 v13 v14 v15 v16 v17 v18 v20 v22 v24 v26 v28 v611 v663 v715 v827

/-- The chain from its seventh part on is its parts 7 to 19 followed by the chain from its twentieth. -/
theorem rest7_cut20 (arg0 : Memref sig .tc .vmem S1024x512 .f32) (harg0 : arg0.IsWhole) (arg1 : Memref sig .tc .vmem S512x1024 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S128x1024 .bf16) (harg6 : arg6.IsWhole) (arg7 : Memref sig .tc .vmem S64x1024 .bf16) (harg7 : arg7.IsWhole) (arg8 : Memref sig .tc .vmem S32x1024 .bf16) (harg8 : arg8.IsWhole) (arg9 : Memref sig .tc .vmem S512x1024 .bf16) (harg9 : arg9.IsWhole) (arg10 : Memref sig .tc .vmem S256x1024 .bf16) (harg10 : arg10.IsWhole) (arg11 : Memref sig .tc .vmem S128x1024 .bf16) (harg11 : arg11.IsWhole) (arg12 : Memref sig .tc .vmem S64x1024 .bf16) (harg12 : arg12.IsWhole) (arg13 : Memref sig .tc .vmem S32x1024 .bf16) (harg13 : arg13.IsWhole) (arg14 : DmaSems sig S5x3x2) (arg15 : DmaSems sig S5x3x2) (arg16 : DmaSems sig S5x3x2) (arg17 : DmaSems sig S5x3x2) (d0 : Dev nD) (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v40 : BitVec 32) (v74 : BitVec 32) (v108 : BitVec 32) (v179 : BitVec 32) (v182 : BitVec 32) :
    rest7 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v5 v6 v7 v8 v9 v10 v11 v12 v13 v14 v15 v16 v17 v18 v20 v22 v24 v26 v28 v40 v74 v108 v179 v182 = (do
  let c128_i32_165 : BitVec 32 ← k0_part7 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v24 v40 v182
  let ⟨v229, v231, v234⟩ : Σ' (v229 : BitVec 32) (v231 : BitVec 32), BitVec 32 ← k0_part8 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v24 v40 v74 v179 c128_i32_165
  k0_part9 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v8 v9 v18 v74 v234
  let ⟨v281, v283, v286, v291, c0_i32_256⟩ : Σ' (v281 : BitVec 32) (v283 : BitVec 32) (v286 : BitVec 32) (v291 : BitVec 32), BitVec 32 ← k0_part10 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v9 v13 v28 v74 v108 v231
  k0_part11 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v14 v20 v108 v286 v291 c0_i32_256
  let ⟨v333, v349, v351⟩ : Σ' (v333 : BitVec 32) (v349 : FVec F S256x384 .f32), Vec F S256x384 .f32 ← k0_part12 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v14 v108 v179 v229 v283
  k0_part13 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v8 v231 v281 v349 v351
  let ⟨v395, v398⟩ : Σ' (v395 : BitVec 32), BitVec 32 ← k0_part14 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v13 v24 v179 v283 v333
  k0_part15 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v4 v5 v22 v179 v398
  let ⟨v445, v447, v450⟩ : Σ' (v445 : BitVec 32) (v447 : BitVec 32), BitVec 32 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v5 v9 v18 v179 v231 v395
  let ⟨v489, c0_i32_452⟩ : Σ' (v489 : BitVec 32), BitVec 32 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v10 v26 v231 v450
  let ⟨v497, v499, v502, v519⟩ : Σ' (v497 : BitVec 32) (v499 : BitVec 32) (v502 : BitVec 32), FVec F S128x256 .f32 ← k0_part18 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v14 v20 v231 v283 v447 v489 c0_i32_452
  let v549 : BitVec 32 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v15 v26 v283 v499 v502 v519
  rest20 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 d0 v3 v4 v5 v6 v7 v8 v9 v10 v11 v12 v13 v14 v15 v16 v17 v18 v20 v22 v24 v26 v28 v395 v445 v447 v497 v499 v549) := rfl

variable (ct : Contract F) (K : Dev nD × Fin 124 → ℕ) (c : Dev nD)
variable (YA : S1024x512.Idx → F .f32) (YB : S512x1024.Idx → F .f32)

/-! ## Before part 20: stages 0 and 1 done but for stage 1's second pieces; stage 2's sends out -/

/-- The tokens of the summing phase's transfers not yet issued before part 20. -/
def toks20 (c : Dev nD) : sProp (MT nD τ sig Unit (Elt F) ℕ UU ℕ) :=
  iprop((dutyTok ER (dcell c 0 3 0 0) 0 0 ∗ dutyTok ER (dcell (peer 0 3 c) 1 3 0 0) 0 0)
    ∗ (dutyTok ER (dcell c 0 3 0 1) 0 0 ∗ dutyTok ER (dcell (peer 0 3 c) 1 3 0 1) 0 0)
    ∗ (dutyTok ER (dcell c 0 3 1 0) 0 0 ∗ dutyTok ER (dcell (peer 1 3 c) 1 3 1 0) 0 0)
    ∗ (dutyTok ER (dcell c 0 3 1 1) 0 0 ∗ dutyTok ER (dcell (peer 1 3 c) 1 3 1 1) 0 0)
    ∗ (dutyTok ER (dcell c 0 3 2 0) 0 0 ∗ dutyTok ER (dcell (peer 2 3 c) 1 3 2 0) 0 0)
    ∗ (dutyTok ER (dcell c 0 3 2 1) 0 0 ∗ dutyTok ER (dcell (peer 2 3 c) 1 3 2 1) 0 0)
    ∗ (dutyTok ER (dcell c 0 4 0 0) 0 0 ∗ dutyTok ER (dcell (peer 0 4 c) 1 4 0 0) 0 0)
    ∗ (dutyTok ER (dcell c 0 4 1 0) 0 0 ∗ dutyTok ER (dcell (peer 1 4 c) 1 4 1 0) 0 0)
    ∗ (dutyTok ER (dcell c 0 4 2 0) 0 0 ∗ dutyTok ER (dcell (peer 2 4 c) 1 4 2 0) 0 0))

/-- The positions on the summing phase's cells not yet waited before part 20. -/
def pos20 (c : Dev nD) : sProp (MT nD τ sig Unit (Elt F) ℕ UU ℕ) :=
  iprop((atPos ER (dcell c 0 1 0 1) 0 ∅ 0 ∗ atPos ER (dcell c 1 1 0 1) 0 ∅ 0)
    ∗ (atPos ER (dcell c 0 1 1 1) 0 ∅ 0 ∗ atPos ER (dcell c 1 1 1 1) 0 ∅ 0)
    ∗ (atPos ER (dcell c 0 1 2 1) 0 ∅ 0 ∗ atPos ER (dcell c 1 1 2 1) 0 ∅ 0)
    ∗ (atPos ER (dcell c 0 2 0 0) 0 ∅ 0 ∗ atPos ER (dcell c 1 2 0 0) 0 ∅ 0)
    ∗ (atPos ER (dcell c 0 2 0 1) 0 ∅ 0 ∗ atPos ER (dcell c 1 2 0 1) 0 ∅ 0)
    ∗ (atPos ER (dcell c 0 2 1 0) 0 ∅ 0 ∗ atPos ER (dcell c 1 2 1 0) 0 ∅ 0)
    ∗ (atPos ER (dcell c 0 2 1 1) 0 ∅ 0 ∗ atPos ER (dcell c 1 2 1 1) 0 ∅ 0)
    ∗ (atPos ER (dcell c 0 2 2 0) 0 ∅ 0 ∗ atPos ER (dcell c 1 2 2 0) 0 ∅ 0)
    ∗ (atPos ER (dcell c 0 2 2 1) 0 ∅ 0 ∗ atPos ER (dcell c 1 2 2 1) 0 ∅ 0)
    ∗ (atPos ER (dcell c 0 3 0 0) 0 ∅ 0 ∗ atPos ER (dcell c 1 3 0 0) 0 ∅ 0)
    ∗ (atPos ER (dcell c 0 3 0 1) 0 ∅ 0 ∗ atPos ER (dcell c 1 3 0 1) 0 ∅ 0)
    ∗ (atPos ER (dcell c 0 3 1 0) 0 ∅ 0 ∗ atPos ER (dcell c 1 3 1 0) 0 ∅ 0)
    ∗ (atPos ER (dcell c 0 3 1 1) 0 ∅ 0 ∗ atPos ER (dcell c 1 3 1 1) 0 ∅ 0)
    ∗ (atPos ER (dcell c 0 3 2 0) 0 ∅ 0 ∗ atPos ER (dcell c 1 3 2 0) 0 ∅ 0)
    ∗ (atPos ER (dcell c 0 3 2 1) 0 ∅ 0 ∗ atPos ER (dcell c 1 3 2 1) 0 ∅ 0)
    ∗ (atPos ER (dcell c 0 4 0 0) 0 ∅ 0 ∗ atPos ER (dcell c 1 4 0 0) 0 ∅ 0)
    ∗ (atPos ER (dcell c 0 4 1 0) 0 ∅ 0 ∗ atPos ER (dcell c 1 4 1 0) 0 ∅ 0)
    ∗ (atPos ER (dcell c 0 4 2 0) 0 ∅ 0 ∗ atPos ER (dcell c 1 4 2 0) 0 ∅ 0))

/-- The summing phase's cells waited and closed before part 20. -/
def closed20 (c : Dev nD) : sProp (MT nD τ sig Unit (Elt F) ℕ UU ℕ) :=
  iprop((semVal (dcell c 0 0 0 0) 0 ∗ semVal (dcell c 1 0 0 0) 0)
    ∗ (semVal (dcell c 0 0 0 1) 0 ∗ semVal (dcell c 1 0 0 1) 0)
    ∗ (semVal (dcell c 0 0 1 0) 0 ∗ semVal (dcell c 1 0 1 0) 0)
    ∗ (semVal (dcell c 0 0 1 1) 0 ∗ semVal (dcell c 1 0 1 1) 0)
    ∗ (semVal (dcell c 0 0 2 0) 0 ∗ semVal (dcell c 1 0 2 0) 0)
    ∗ (semVal (dcell c 0 0 2 1) 0 ∗ semVal (dcell c 1 0 2 1) 0)
    ∗ (semVal (dcell c 0 1 0 0) 0 ∗ semVal (dcell c 1 1 0 0) 0)
    ∗ (semVal (dcell c 0 1 1 0) 0 ∗ semVal (dcell c 1 1 1 0) 0)
    ∗ (semVal (dcell c 0 1 2 0) 0 ∗ semVal (dcell c 1 1 2 0) 0))

/-- The credit for the receive waits still to come before part 20. -/
def credR20 (c : Dev nD) : sProp (MT nD τ sig Unit (Elt F) ℕ UU ℕ) :=
  iprop(cred (tallyAt (dcell c 1 1 0 1) () (amtIx (dsem 1 1 0 1).val))
    ∗ cred (tallyAt (dcell c 1 1 1 1) () (amtIx (dsem 1 1 1 1).val))
    ∗ cred (tallyAt (dcell c 1 1 2 1) () (amtIx (dsem 1 1 2 1).val))
    ∗ cred (tallyAt (dcell c 1 2 0 0) () (amtIx (dsem 1 2 0 0).val))
    ∗ cred (tallyAt (dcell c 1 2 0 1) () (amtIx (dsem 1 2 0 1).val))
    ∗ cred (tallyAt (dcell c 1 2 1 0) () (amtIx (dsem 1 2 1 0).val))
    ∗ cred (tallyAt (dcell c 1 2 1 1) () (amtIx (dsem 1 2 1 1).val))
    ∗ cred (tallyAt (dcell c 1 2 2 0) () (amtIx (dsem 1 2 2 0).val))
    ∗ cred (tallyAt (dcell c 1 2 2 1) () (amtIx (dsem 1 2 2 1).val))
    ∗ cred (tallyAt (dcell c 1 3 0 0) () (amtIx (dsem 1 3 0 0).val))
    ∗ cred (tallyAt (dcell c 1 3 0 1) () (amtIx (dsem 1 3 0 1).val))
    ∗ cred (tallyAt (dcell c 1 3 1 0) () (amtIx (dsem 1 3 1 0).val))
    ∗ cred (tallyAt (dcell c 1 3 1 1) () (amtIx (dsem 1 3 1 1).val))
    ∗ cred (tallyAt (dcell c 1 3 2 0) () (amtIx (dsem 1 3 2 0).val))
    ∗ cred (tallyAt (dcell c 1 3 2 1) () (amtIx (dsem 1 3 2 1).val))
    ∗ cred (tallyAt (dcell c 1 4 0 0) () (amtIx (dsem 1 4 0 0).val))
    ∗ cred (tallyAt (dcell c 1 4 1 0) () (amtIx (dsem 1 4 1 0).val))
    ∗ cred (tallyAt (dcell c 1 4 2 0) () (amtIx (dsem 1 4 2 0).val)))

/-- The credit for the send waits of the transfers in flight before part 20. -/
def credS20 (c : Dev nD) : sProp (MT nD τ sig Unit (Elt F) ℕ UU ℕ) :=
  iprop(cred (tallyAt (dcell c 0 1 0 1) () (amtIx (dsem 0 1 0 1).val))
    ∗ cred (tallyAt (dcell c 0 1 1 1) () (amtIx (dsem 0 1 1 1).val))
    ∗ cred (tallyAt (dcell c 0 1 2 1) () (amtIx (dsem 0 1 2 1).val))
    ∗ cred (tallyAt (dcell c 0 2 0 0) () (amtIx (dsem 0 2 0 0).val))
    ∗ cred (tallyAt (dcell c 0 2 0 1) () (amtIx (dsem 0 2 0 1).val))
    ∗ cred (tallyAt (dcell c 0 2 1 0) () (amtIx (dsem 0 2 1 0).val))
    ∗ cred (tallyAt (dcell c 0 2 1 1) () (amtIx (dsem 0 2 1 1).val))
    ∗ cred (tallyAt (dcell c 0 2 2 0) () (amtIx (dsem 0 2 2 0).val))
    ∗ cred (tallyAt (dcell c 0 2 2 1) () (amtIx (dsem 0 2 2 1).val)))

/-- The landing rows on the partners still lent to this device before part 20: the summing phase's. -/
def land20 (c : Dev nD) : sProp (MT nD τ sig Unit (Elt F) ℕ UU ℕ) :=
  iprop(loanV (peer 0 3 c) (dst_rs_3_0_0 c)
    ∗ loanV (peer 0 3 c) (dst_rs_3_0_1 c)
    ∗ loanV (peer 1 3 c) (dst_rs_3_1_0 c)
    ∗ loanV (peer 1 3 c) (dst_rs_3_1_1 c)
    ∗ loanV (peer 2 3 c) (dst_rs_3_2_0 c)
    ∗ loanV (peer 2 3 c) (dst_rs_3_2_1 c)
    ∗ loanV (peer 0 4 c) (dst_rs_4_0_0 c)
    ∗ loanV (peer 1 4 c) (dst_rs_4_1_0 c)
    ∗ loanV (peer 2 4 c) (dst_rs_4_2_0 c))

/-- The rows of the accumulator that hold column block `k`'s kept half of the second stage. -/
abbrev accRows20_0 : Finset S1024x1024.Idx := ((Memref.whole cc0_scratch0 : Memref sig .tc .vmem S1024x1024 .f32).access (Rect.unit (s := S1024x1024) (k0_off44 c) S128x384.size (k0_off44_inb c))).set
abbrev accRows20_1 : Finset S1024x1024.Idx := ((Memref.whole cc0_scratch0 : Memref sig .tc .vmem S1024x1024 .f32).access (Rect.unit (s := S1024x1024) (k0_off46 c) S128x384.size (k0_off46_inb c))).set
abbrev accRows20_2 : Finset S1024x1024.Idx := ((Memref.whole cc0_scratch0 : Memref sig .tc .vmem S1024x1024 .f32).access (Rect.unit (s := S1024x1024) (k0_off48 c) S128x256.size (k0_off48_inb c))).set

/-- Before part 20. The first stage's buffers are whole again; of the second stage's (RS1, SS1) the first pieces
    are back and the second in flight; the third stage's send buffer is all in flight; the accumulator's kept
    rows of the second stage hold the sum over two devices. -/
def Pre20 : sProp (MT nD τ sig Unit (Elt F) ℕ UU ℕ) :=
  iprop(records ct K ∗ levAts L lv ∗ (∃ W, owes (c : Thread nD τ) (owedFrom c 23) W)
    ∗ toks20 c ∗ toksAG c ∗ pos20 c ∗ posAG c ∗ closed20 c ∗ credR20 c ∗ credS20 c ∗ credAG c ∗ idle c
    ∗ (((c : Thread nD τ).loc cc0_stg0_0) ↦{fullShare} YA) ∗ (((c : Thread nD τ).loc cc0_stg1_0) ↦{fullShare} YB)
    ∗ (loanV c (src_ag_4_0_0 c) ∗ loanV c (src_ag_4_1_0 c) ∗ loanV c (src_ag_4_2_0 c))
    ∗ (∃ fa : Buf (Elt F) ((c : Thread nD τ).loc cc0_scratch0), (((c : Thread nD τ).loc cc0_scratch0) ↦{fullShare} fa)
        ∗ ⌜(∀ i ∈ accRows20_0 c, ct.okAcc 1 c (i 0).val (i 1).val (fa i)) ∧ (∀ i ∈ accRows20_1 c, ct.okAcc 1 c (i 0).val (i 1).val (fa i)) ∧ (∀ i ∈ accRows20_2 c, ct.okAcc 1 c (i 0).val (i 1).val (fa i))⌝)
    ∗ (someAt c cc0_scratch1 ∗ someAt c cc0_scratch6)
    ∗ (loanV c (dst_rs_1_0_0 (peer 0 1 c)) ∗ loanV c (dst_rs_1_1_0 (peer 1 1 c)) ∗ loanV c (dst_rs_1_2_0 (peer 2 1 c)))
    ∗ (loanV c (src_rs_1_0_0 c) ∗ loanV c (src_rs_1_1_0 c) ∗ loanV c (src_rs_1_2_0 c))
    ∗ (someAt c cc0_scratch9 ∗ someAt c cc0_scratch10)
    ∗ land20 c ∗ landAG c)

/-! ## Before part 30: stages 0 to 2 done; stage 3's sends out -/

/-- The tokens of the summing phase's transfers not yet issued before part 30. -/
def toks30 (c : Dev nD) : sProp (MT nD τ sig Unit (Elt F) ℕ UU ℕ) :=
  iprop((dutyTok ER (dcell c 0 4 0 0) 0 0 ∗ dutyTok ER (dcell (peer 0 4 c) 1 4 0 0) 0 0)
    ∗ (dutyTok ER (dcell c 0 4 1 0) 0 0 ∗ dutyTok ER (dcell (peer 1 4 c) 1 4 1 0) 0 0)
    ∗ (dutyTok ER (dcell c 0 4 2 0) 0 0 ∗ dutyTok ER (dcell (peer 2 4 c) 1 4 2 0) 0 0))

/-- The positions on the summing phase's cells not yet waited before part 30. -/
def pos30 (c : Dev nD) : sProp (MT nD τ sig Unit (Elt F) ℕ UU ℕ) :=
  iprop((atPos ER (dcell c 0 3 0 0) 0 ∅ 0 ∗ atPos ER (dcell c 1 3 0 0) 0 ∅ 0)
    ∗ (atPos ER (dcell c 0 3 0 1) 0 ∅ 0 ∗ atPos ER (dcell c 1 3 0 1) 0 ∅ 0)
    ∗ (atPos ER (dcell c 0 3 1 0) 0 ∅ 0 ∗ atPos ER (dcell c 1 3 1 0) 0 ∅ 0)
    ∗ (atPos ER (dcell c 0 3 1 1) 0 ∅ 0 ∗ atPos ER (dcell c 1 3 1 1) 0 ∅ 0)
    ∗ (atPos ER (dcell c 0 3 2 0) 0 ∅ 0 ∗ atPos ER (dcell c 1 3 2 0) 0 ∅ 0)
    ∗ (atPos ER (dcell c 0 3 2 1) 0 ∅ 0 ∗ atPos ER (dcell c 1 3 2 1) 0 ∅ 0)
    ∗ (atPos ER (dcell c 0 4 0 0) 0 ∅ 0 ∗ atPos ER (dcell c 1 4 0 0) 0 ∅ 0)
    ∗ (atPos ER (dcell c 0 4 1 0) 0 ∅ 0 ∗ atPos ER (dcell c 1 4 1 0) 0 ∅ 0)
    ∗ (atPos ER (dcell c 0 4 2 0) 0 ∅ 0 ∗ atPos ER (dcell c 1 4 2 0) 0 ∅ 0))

/-- The summing phase's cells waited and closed before part 30. -/
def closed30 (c : Dev nD) : sProp (MT nD τ sig Unit (Elt F) ℕ UU ℕ) :=
  iprop((semVal (dcell c 0 0 0 0) 0 ∗ semVal (dcell c 1 0 0 0) 0)
    ∗ (semVal (dcell c 0 0 0 1) 0 ∗ semVal (dcell c 1 0 0 1) 0)
    ∗ (semVal (dcell c 0 0 1 0) 0 ∗ semVal (dcell c 1 0 1 0) 0)
    ∗ (semVal (dcell c 0 0 1 1) 0 ∗ semVal (dcell c 1 0 1 1) 0)
    ∗ (semVal (dcell c 0 0 2 0) 0 ∗ semVal (dcell c 1 0 2 0) 0)
    ∗ (semVal (dcell c 0 0 2 1) 0 ∗ semVal (dcell c 1 0 2 1) 0)
    ∗ (semVal (dcell c 0 1 0 0) 0 ∗ semVal (dcell c 1 1 0 0) 0)
    ∗ (semVal (dcell c 0 1 0 1) 0 ∗ semVal (dcell c 1 1 0 1) 0)
    ∗ (semVal (dcell c 0 1 1 0) 0 ∗ semVal (dcell c 1 1 1 0) 0)
    ∗ (semVal (dcell c 0 1 1 1) 0 ∗ semVal (dcell c 1 1 1 1) 0)
    ∗ (semVal (dcell c 0 1 2 0) 0 ∗ semVal (dcell c 1 1 2 0) 0)
    ∗ (semVal (dcell c 0 1 2 1) 0 ∗ semVal (dcell c 1 1 2 1) 0)
    ∗ (semVal (dcell c 0 2 0 0) 0 ∗ semVal (dcell c 1 2 0 0) 0)
    ∗ (semVal (dcell c 0 2 0 1) 0 ∗ semVal (dcell c 1 2 0 1) 0)
    ∗ (semVal (dcell c 0 2 1 0) 0 ∗ semVal (dcell c 1 2 1 0) 0)
    ∗ (semVal (dcell c 0 2 1 1) 0 ∗ semVal (dcell c 1 2 1 1) 0)
    ∗ (semVal (dcell c 0 2 2 0) 0 ∗ semVal (dcell c 1 2 2 0) 0)
    ∗ (semVal (dcell c 0 2 2 1) 0 ∗ semVal (dcell c 1 2 2 1) 0))

/-- The credit for the receive waits still to come before part 30. -/
def credR30 (c : Dev nD) : sProp (MT nD τ sig Unit (Elt F) ℕ UU ℕ) :=
  iprop(cred (tallyAt (dcell c 1 3 0 0) () (amtIx (dsem 1 3 0 0).val))
    ∗ cred (tallyAt (dcell c 1 3 0 1) () (amtIx (dsem 1 3 0 1).val))
    ∗ cred (tallyAt (dcell c 1 3 1 0) () (amtIx (dsem 1 3 1 0).val))
    ∗ cred (tallyAt (dcell c 1 3 1 1) () (amtIx (dsem 1 3 1 1).val))
    ∗ cred (tallyAt (dcell c 1 3 2 0) () (amtIx (dsem 1 3 2 0).val))
    ∗ cred (tallyAt (dcell c 1 3 2 1) () (amtIx (dsem 1 3 2 1).val))
    ∗ cred (tallyAt (dcell c 1 4 0 0) () (amtIx (dsem 1 4 0 0).val))
    ∗ cred (tallyAt (dcell c 1 4 1 0) () (amtIx (dsem 1 4 1 0).val))
    ∗ cred (tallyAt (dcell c 1 4 2 0) () (amtIx (dsem 1 4 2 0).val)))

/-- The credit for the send waits of the transfers in flight before part 30. -/
def credS30 (c : Dev nD) : sProp (MT nD τ sig Unit (Elt F) ℕ UU ℕ) :=
  iprop(cred (tallyAt (dcell c 0 3 0 0) () (amtIx (dsem 0 3 0 0).val))
    ∗ cred (tallyAt (dcell c 0 3 0 1) () (amtIx (dsem 0 3 0 1).val))
    ∗ cred (tallyAt (dcell c 0 3 1 0) () (amtIx (dsem 0 3 1 0).val))
    ∗ cred (tallyAt (dcell c 0 3 1 1) () (amtIx (dsem 0 3 1 1).val))
    ∗ cred (tallyAt (dcell c 0 3 2 0) () (amtIx (dsem 0 3 2 0).val))
    ∗ cred (tallyAt (dcell c 0 3 2 1) () (amtIx (dsem 0 3 2 1).val)))

/-- The landing rows on the partners still lent to this device before part 30: the summing phase's. -/
def land30 (c : Dev nD) : sProp (MT nD τ sig Unit (Elt F) ℕ UU ℕ) :=
  iprop(loanV (peer 0 4 c) (dst_rs_4_0_0 c)
    ∗ loanV (peer 1 4 c) (dst_rs_4_1_0 c)
    ∗ loanV (peer 2 4 c) (dst_rs_4_2_0 c))

/-- The rows of the accumulator that hold column block `k`'s kept half of the fourth stage. -/
abbrev accRows30_0 : Finset S1024x1024.Idx := ((Memref.whole cc0_scratch0 : Memref sig .tc .vmem S1024x1024 .f32).access (Rect.unit (s := S1024x1024) (k0_off62 c) S64x384.size (k0_off62_inb c))).set
abbrev accRows30_1 : Finset S1024x1024.Idx := ((Memref.whole cc0_scratch0 : Memref sig .tc .vmem S1024x1024 .f32).access (Rect.unit (s := S1024x1024) (k0_off64 c) S64x384.size (k0_off64_inb c))).set
abbrev accRows30_2 : Finset S1024x1024.Idx := ((Memref.whole cc0_scratch0 : Memref sig .tc .vmem S1024x1024 .f32).access (Rect.unit (s := S1024x1024) (k0_off66 c) S64x256.size (k0_off66_inb c))).set

/-- Before part 30. The buffers of stages 0 to 2 are whole again; the fourth stage's send buffer is all in
    flight; the accumulator's kept rows hold the sum over eight devices. -/
def Pre30 : sProp (MT nD τ sig Unit (Elt F) ℕ UU ℕ) :=
  iprop(records ct K ∗ levAts L lv ∗ (∃ W, owes (c : Thread nD τ) (owedFrom c 29) W)
    ∗ toks30 c ∗ toksAG c ∗ pos30 c ∗ posAG c ∗ closed30 c ∗ credR30 c ∗ credS30 c ∗ credAG c ∗ idle c
    ∗ (((c : Thread nD τ).loc cc0_stg0_0) ↦{fullShare} YA) ∗ (((c : Thread nD τ).loc cc0_stg1_0) ↦{fullShare} YB)
    ∗ (loanV c (src_ag_4_0_0 c) ∗ loanV c (src_ag_4_1_0 c) ∗ loanV c (src_ag_4_2_0 c))
    ∗ (∃ fa : Buf (Elt F) ((c : Thread nD τ).loc cc0_scratch0), (((c : Thread nD τ).loc cc0_scratch0) ↦{fullShare} fa)
        ∗ ⌜(∀ i ∈ accRows30_0 c, ct.okAcc 3 c (i 0).val (i 1).val (fa i)) ∧ (∀ i ∈ accRows30_1 c, ct.okAcc 3 c (i 0).val (i 1).val (fa i)) ∧ (∀ i ∈ accRows30_2 c, ct.okAcc 3 c (i 0).val (i 1).val (fa i))⌝)
    ∗ (someAt c cc0_scratch1 ∗ someAt c cc0_scratch2 ∗ someAt c cc0_scratch3 ∗ someAt c cc0_scratch6 ∗ someAt c cc0_scratch7 ∗ someAt c cc0_scratch8)
    ∗ someAt c cc0_scratch10
    ∗ land30 c ∗ landAG c)

/-- Parts 7 to 19: stage one, and stage two as far as its sends. -/
def SegB1 {R : Type} (T : (Σ' (d0 : Dev nD) (v3 : BitVec 32) (v8 : BitVec 32) (v13 : BitVec 32) (v28 : BitVec 32), BitVec 32) → Prog (TpuEff nD τ sig (Elt F) Λ₀ .tc) R) (Kt : R → sProp (MT nD τ sig Unit (Elt F) ℕ UU ℕ)) : Prop :=
  ∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v40 : BitVec 32) (v74 : BitVec 32) (v108 : BitVec 32) (v179 : BitVec 32) (v182 : BitVec 32),
  iprop(Pre7 ct K c YA YB ∗ (∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v395 : BitVec 32) (v445 : BitVec 32) (v447 : BitVec 32) (v497 : BitVec 32) (v499 : BitVec 32) (v549 : BitVec 32), Pre20 ct K c YA YB -∗
        wp frame (wpE (defs₀ (F := F)) 𝒱₀ (c : Thread nD τ) none) Set.univ (rest20 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v395 v445 v447 v497 v499 v549 >>= T) Kt))
    ⊢ wp frame (wpE (defs₀ (F := F)) 𝒱₀ (c : Thread nD τ) none) Set.univ (rest7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v40 v74 v108 v179 v182 >>= T) Kt

/-- Parts 20 to 29: stage two's kept halves and stage three. -/
def SegB2 {R : Type} (T : (Σ' (d0 : Dev nD) (v3 : BitVec 32) (v8 : BitVec 32) (v13 : BitVec 32) (v28 : BitVec 32), BitVec 32) → Prog (TpuEff nD τ sig (Elt F) Λ₀ .tc) R) (Kt : R → sProp (MT nD τ sig Unit (Elt F) ℕ UU ℕ)) : Prop :=
  ∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v395 : BitVec 32) (v445 : BitVec 32) (v447 : BitVec 32) (v497 : BitVec 32) (v499 : BitVec 32) (v549 : BitVec 32),
  iprop(Pre20 ct K c YA YB ∗ (∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v611 : BitVec 32) (v663 : BitVec 32) (v715 : BitVec 32) (v827 : BitVec 32), Pre30 ct K c YA YB -∗
        wp frame (wpE (defs₀ (F := F)) 𝒱₀ (c : Thread nD τ) none) Set.univ (rest30 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v611 v663 v715 v827 >>= T) Kt))
    ⊢ wp frame (wpE (defs₀ (F := F)) 𝒱₀ (c : Thread nD τ) none) Set.univ (rest20 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v395 v445 v447 v497 v499 v549 >>= T) Kt

/-- Parts 30 to 39: stage four and the pointwise function. -/
def SegB3 {R : Type} (T : (Σ' (d0 : Dev nD) (v3 : BitVec 32) (v8 : BitVec 32) (v13 : BitVec 32) (v28 : BitVec 32), BitVec 32) → Prog (TpuEff nD τ sig (Elt F) Λ₀ .tc) R) (Kt : R → sProp (MT nD τ sig Unit (Elt F) ℕ UU ℕ)) : Prop :=
  ∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v611 : BitVec 32) (v663 : BitVec 32) (v715 : BitVec 32) (v827 : BitVec 32),
  iprop(Pre30 ct K c YA YB ∗ (∀ (v3 : BitVec 32) (v4 : BitVec 32) (v5 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v827 : BitVec 32) (v868 : BitVec 32) (v909 : BitVec 32), Pre40 ct K c YA YB -∗
        wp frame (wpE (defs₀ (F := F)) 𝒱₀ (c : Thread nD τ) none) Set.univ (rest40 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v827 v868 v909 >>= T) Kt))
    ⊢ wp frame (wpE (defs₀ (F := F)) 𝒱₀ (c : Thread nD τ) none) Set.univ (rest30 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 c v3 v4 v5 v6 v7 v8 v9 v10 v11 v12 v13 v14 v15 v16 v17 v18 v20 v22 v24 v26 v28 v611 v663 v715 v827 >>= T) Kt

end Cert.Kernel.SegBMid

end
-- ==== Proof.SegBGlueK.lean ====
/-
  The second segment from its three pieces: parts 7 to 19, parts 20 to 29, parts 30 to 39.
-/
import proofs.«900879_g7700000000000880_dist_matmul_gelu_kshard_i_m1024_n1024_k512_v7x_i32_bf16_1_alg».proof.Proof.SegBMidK

noncomputable section

namespace Cert.Kernel.SegBGlue

open Cert.Kernel Cert.Kernel.Gen Cert.Kernel.Proto Cert.Kernel.Held
open Cert.Kernel.Laws Cert.Kernel.Cut Cert.Kernel.Segs Cert.Kernel.SegBMid
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The three pieces in sequence: each hands the next its state and the values the chain has bound. -/
theorem segB_of_parts (ct : Contract F) (K : Dev nD × Fin 124 → ℕ) (c : Dev nD)
    (YA : S1024x512.Idx → F .f32) (YB : S512x1024.Idx → F .f32) {R : Type}
    (T : (Σ' (d0 : Dev nD) (v3 : BitVec 32) (v8 : BitVec 32) (v13 : BitVec 32) (v28 : BitVec 32), BitVec 32) → Prog (TpuEff nD τ sig (Elt F) Λ₀ .tc) R)
    (Kt : R → sProp (MT nD τ sig Unit (Elt F) ℕ UU ℕ))
    (h1 : SegB1 ct K c YA YB T Kt) (h2 : SegB2 ct K c YA YB T Kt) (h3 : SegB3 ct K c YA YB T Kt) :
    SegB ct K c YA YB T Kt := by
  intro v3 v4 v5 v6 v7 v8 v9 v10 v11 v12 v13 v14 v15 v16 v17 v18 v20 v22 v24 v26 v28 v40 v74 v108 v179 v182
  refine BIBase.Entails.trans ?_ (h1 v3 v4 v5 v6 v7 v8 v9 v10 v11 v12 v13 v14 v15 v16 v17 v18 v20 v22 v24 v26 v28 v40 v74 v108 v179 v182)
  iintro ⟨Hpre, Hk⟩
  isplitl [Hpre]
  · iexact Hpre
  iintro %a3 %a4 %a5 %a6 %a7 %a8 %a9 %a10 %a11 %a12 %a13 %a14 %a15 %a16 %a17 %a18 %a20 %a22 %a24 %a26 %a28 %a395 %a445 %a447 %a497 %a499 %a549 H20
  iapply (h2 a3 a4 a5 a6 a7 a8 a9 a10 a11 a12 a13 a14 a15 a16 a17 a18 a20 a22 a24 a26 a28 a395 a445 a447 a497 a499 a549)
  isplitl [H20]
  · iexact H20
  iintro %b3 %b4 %b5 %b6 %b7 %b8 %b9 %b10 %b11 %b12 %b13 %b14 %b15 %b16 %b17 %b18 %b20 %b22 %b24 %b26 %b28 %b611 %b663 %b715 %b827 H30
  iapply (h3 b3 b4 b5 b6 b7 b8 b9 b10 b11 b12 b13 b14 b15 b16 b17 b18 b20 b22 b24 b26 b28 b611 b663 b715 b827)
  isplitl [H30]
  · iexact H30
  iintro %d3 %d4 %d5 %d6 %d7 %d8 %d9 %d10 %d11 %d12 %d13 %d14 %d15 %d16 %d17 %d18 %d20 %d22 %d24 %d26 %d28 %d827 %d868 %d909 H40
  iapply Hk $$ %d3 %d4 %d5 %d6 %d7 %d8 %d9 %d10 %d11 %d12 %d13 %d14 %d15 %d16 %d17 %d18 %d20 %d22 %d24 %d26 %d28 %d827 %d868 %d909
  iexact H40

end Cert.Kernel.SegBGlue

end
-- ==== Proof.PayPointK.lean ====
import proofs.«900879_g7700000000000880_dist_matmul_gelu_kshard_i_m1024_n1024_k512_v7x_i32_bf16_1_alg».proof.Proof.LawsK
import Idealize.ShloMosaic.Lib.Pipeline.Value

noncomputable section

namespace Cert.Kernel.PayPoint

open Cert.Kernel Cert.Kernel.Gen Cert.Kernel.Laws
open Idealize.ShloMosaic Idealize.SL.Sem

variable {F : FTy → Type} [FloatOps F]

theorem pay3_at (x : FVec F S512x384 .bf16) (j : S512x384.Idx) : k0_pay3 x j = x j := by
  unfold k0_pay3
  rw [shapeCast_self]

theorem pay4_at (x : Vec F S512x512 .f32) (j : S512x512.Idx) :
    k0_pay4 x j = FloatOps.truncf .bf16 bitsLt_bf16_f32 (x j) := by
  unfold k0_pay4
  rw [shapeCast_self]
  rfl

theorem pay9_at (x : Vec F S256x384 .f32) (y : Vec F S256x384 .bf16) (j : S256x384.Idx) :
    k0_pay9 x y j = FloatOps.addf (x j) (FloatOps.extf .f32 bitsLt_bf16_f32 (y j)) := by
  unfold k0_pay9
  rw [shapeCast_self]
  rfl

theorem pay10_at (x : Vec F S256x384 .f32) (j : S256x384.Idx) :
    k0_pay10 x j = FloatOps.truncf .bf16 bitsLt_bf16_f32 (x j) := by
  unfold k0_pay10
  rw [shapeCast_self]
  rfl

theorem pay11_at (x : Vec F S256x384 .f32) (y : Vec F S256x384 .bf16) (j : S256x384.Idx) :
    k0_pay11 x y j = FloatOps.addf (x j) (FloatOps.extf .f32 bitsLt_bf16_f32 (y j)) := by
  unfold k0_pay11
  rw [shapeCast_self]
  rfl

theorem pay12_at (x : Vec F S256x384 .f32) (j : S256x384.Idx) :
    k0_pay12 x j = FloatOps.truncf .bf16 bitsLt_bf16_f32 (x j) := by
  unfold k0_pay12
  rw [shapeCast_self]
  rfl

theorem pay13_at (x : Vec F S256x256 .f32) (y : Vec F S256x256 .bf16) (j : S256x256.Idx) :
    k0_pay13 x y j = FloatOps.addf (x j) (FloatOps.extf .f32 bitsLt_bf16_f32 (y j)) := by
  unfold k0_pay13
  rw [shapeCast_self]
  rfl

theorem pay14_at (x : Vec F S256x256 .f32) (j : S256x256.Idx) :
    k0_pay14 x j = FloatOps.truncf .bf16 bitsLt_bf16_f32 (x j) := by
  unfold k0_pay14
  rw [shapeCast_self]
  rfl

theorem pay15_at (x : Vec F S256x384 .f32) (y : Vec F S256x384 .bf16) (j : S256x384.Idx) :
    k0_pay15 x y j = FloatOps.addf (x j) (FloatOps.extf .f32 bitsLt_bf16_f32 (y j)) := by
  unfold k0_pay15
  rfl

theorem pay16_at (x : FVec F S256x384 .f32) (j : S256x384.Idx) : k0_pay16 x j = x j := by
  unfold k0_pay16
  rw [shapeCast_self]

theorem pay17_at (x : Vec F S256x384 .f32) (y : Vec F S256x384 .bf16) (j : S256x384.Idx) :
    k0_pay17 x y j = FloatOps.addf (x j) (FloatOps.extf .f32 bitsLt_bf16_f32 (y j)) := by
  unfold k0_pay17
  rw [shapeCast_self]
  rfl

theorem pay18_at (x : Vec F S256x256 .f32) (y : Vec F S256x256 .bf16) (j : S256x256.Idx) :
    k0_pay18 x y j = FloatOps.addf (x j) (FloatOps.extf .f32 bitsLt_bf16_f32 (y j)) := by
  unfold k0_pay18
  rw [shapeCast_self]
  rfl

theorem pay19_at (x : Vec F S128x384 .f32) (y : Vec F S128x384 .bf16) (j : S128x384.Idx) :
    k0_pay19 x y j = FloatOps.addf (x j) (FloatOps.extf .f32 bitsLt_bf16_f32 (y j)) := by
  unfold k0_pay19
  rw [shapeCast_self]
  rfl

theorem pay20_at (x : Vec F S128x384 .f32) (j : S128x384.Idx) :
    k0_pay20 x j = FloatOps.truncf .bf16 bitsLt_bf16_f32 (x j) := by
  unfold k0_pay20
  rw [shapeCast_self]
  rfl

theorem pay21_at (x : Vec F S128x384 .f32) (y : Vec F S128x384 .bf16) (j : S128x384.Idx) :
    k0_pay21 x y j = FloatOps.addf (x j) (FloatOps.extf .f32 bitsLt_bf16_f32 (y j)) := by
  unfold k0_pay21
  rw [shapeCast_self]
  rfl

theorem pay22_at (x : Vec F S128x384 .f32) (j : S128x384.Idx) :
    k0_pay22 x j = FloatOps.truncf .bf16 bitsLt_bf16_f32 (x j) := by
  unfold k0_pay22
  rw [shapeCast_self]
  rfl

theorem pay23_at (x : Vec F S128x256 .f32) (y : Vec F S128x256 .bf16) (j : S128x256.Idx) :
    k0_pay23 x y j = FloatOps.addf (x j) (FloatOps.extf .f32 bitsLt_bf16_f32 (y j)) := by
  unfold k0_pay23
  rfl

theorem pay24_at (x : FVec F S128x256 .f32) (j : S128x256.Idx) : k0_pay24 x j = x j := by
  unfold k0_pay24
  rw [shapeCast_self]

theorem pay25_at (x : Vec F S128x256 .f32) (j : S128x256.Idx) :
    k0_pay25 x j = FloatOps.truncf .bf16 bitsLt_bf16_f32 (x j) := by
  unfold k0_pay25
  rw [shapeCast_self]
  rfl

theorem pay26_at (x : Vec F S128x384 .f32) (y : Vec F S128x384 .bf16) (j : S128x384.Idx) :
    k0_pay26 x y j = FloatOps.addf (x j) (FloatOps.extf .f32 bitsLt_bf16_f32 (y j)) := by
  unfold k0_pay26
  rw [shapeCast_self]
  rfl

theorem pay27_at (x : Vec F S128x384 .f32) (y : Vec F S128x384 .bf16) (j : S128x384.Idx) :
    k0_pay27 x y j = FloatOps.addf (x j) (FloatOps.extf .f32 bitsLt_bf16_f32 (y j)) := by
  unfold k0_pay27
  rw [shapeCast_self]
  rfl

theorem pay28_at (x : Vec F S128x256 .f32) (y : Vec F S128x256 .bf16) (j : S128x256.Idx) :
    k0_pay28 x y j = FloatOps.addf (x j) (FloatOps.extf .f32 bitsLt_bf16_f32 (y j)) := by
  unfold k0_pay28
  rw [shapeCast_self]
  rfl

theorem pay29_at (x : Vec F S64x384 .f32) (y : Vec F S64x384 .bf16) (j : S64x384.Idx) :
    k0_pay29 x y j = FloatOps.addf (x j) (FloatOps.extf .f32 bitsLt_bf16_f32 (y j)) := by
  unfold k0_pay29
  rw [shapeCast_self]
  rfl

theorem pay30_at (x : Vec F S64x384 .f32) (j : S64x384.Idx) :
    k0_pay30 x j = FloatOps.truncf .bf16 bitsLt_bf16_f32 (x j) := by
  unfold k0_pay30
  rw [shapeCast_self]
  rfl

theorem pay31_at (x : Vec F S64x384 .f32) (y : Vec F S64x384 .bf16) (j : S64x384.Idx) :
    k0_pay31 x y j = FloatOps.addf (x j) (FloatOps.extf .f32 bitsLt_bf16_f32 (y j)) := by
  unfold k0_pay31
  rw [shapeCast_self]
  rfl

theorem pay32_at (x : Vec F S64x384 .f32) (j : S64x384.Idx) :
    k0_pay32 x j = FloatOps.truncf .bf16 bitsLt_bf16_f32 (x j) := by
  unfold k0_pay32
  rw [shapeCast_self]
  rfl

theorem pay33_at (x : Vec F S64x256 .f32) (y : Vec F S64x256 .bf16) (j : S64x256.Idx) :
    k0_pay33 x y j = FloatOps.addf (x j) (FloatOps.extf .f32 bitsLt_bf16_f32 (y j)) := by
  unfold k0_pay33
  rw [shapeCast_self]
  rfl

theorem pay34_at (x : Vec F S64x256 .f32) (j : S64x256.Idx) :
    k0_pay34 x j = FloatOps.truncf .bf16 bitsLt_bf16_f32 (x j) := by
  unfold k0_pay34
  rw [shapeCast_self]
  rfl

theorem pay35_at (x : Vec F S64x384 .f32) (y : Vec F S64x384 .bf16) (j : S64x384.Idx) :
    k0_pay35 x y j = FloatOps.addf (x j) (FloatOps.extf .f32 bitsLt_bf16_f32 (y j)) := by
  unfold k0_pay35
  rw [shapeCast_self]
  rfl

theorem pay36_at (x : Vec F S64x384 .f32) (y : Vec F S64x384 .bf16) (j : S64x384.Idx) :
    k0_pay36 x y j = FloatOps.addf (x j) (FloatOps.extf .f32 bitsLt_bf16_f32 (y j)) := by
  unfold k0_pay36
  rw [shapeCast_self]
  rfl

theorem pay37_at (x : Vec F S64x256 .f32) (y : Vec F S64x256 .bf16) (j : S64x256.Idx) :
    k0_pay37 x y j = FloatOps.addf (x j) (FloatOps.extf .f32 bitsLt_bf16_f32 (y j)) := by
  unfold k0_pay37
  rw [shapeCast_self]
  rfl

theorem pay38_at (x : Vec F S32x384 .f32) (y : Vec F S32x384 .bf16) (j : S32x384.Idx) :
    k0_pay38 x y j = FloatOps.addf (x j) (FloatOps.extf .f32 bitsLt_bf16_f32 (y j)) := by
  unfold k0_pay38
  rw [shapeCast_self]
  rfl

theorem pay39_at (x : Vec F S32x384 .f32) (j : S32x384.Idx) :
    k0_pay39 x j = FloatOps.truncf .bf16 bitsLt_bf16_f32 (x j) := by
  unfold k0_pay39
  rw [shapeCast_self]
  rfl

theorem pay40_at (x : Vec F S32x384 .f32) (y : Vec F S32x384 .bf16) (j : S32x384.Idx) :
    k0_pay40 x y j = FloatOps.addf (x j) (FloatOps.extf .f32 bitsLt_bf16_f32 (y j)) := by
  unfold k0_pay40
  rw [shapeCast_self]
  rfl

theorem pay41_at (x : Vec F S32x384 .f32) (j : S32x384.Idx) :
    k0_pay41 x j = FloatOps.truncf .bf16 bitsLt_bf16_f32 (x j) := by
  unfold k0_pay41
  rw [shapeCast_self]
  rfl

theorem pay42_at (x : Vec F S32x256 .f32) (y : Vec F S32x256 .bf16) (j : S32x256.Idx) :
    k0_pay42 x y j = FloatOps.addf (x j) (FloatOps.extf .f32 bitsLt_bf16_f32 (y j)) := by
  unfold k0_pay42
  rw [shapeCast_self]
  rfl

theorem pay43_at (x : Vec F S32x256 .f32) (j : S32x256.Idx) :
    k0_pay43 x j = FloatOps.truncf .bf16 bitsLt_bf16_f32 (x j) := by
  unfold k0_pay43
  rw [shapeCast_self]
  rfl

theorem pay44_at (x : Vec F S32x384 .f32) (y : Vec F S32x384 .bf16) (j : S32x384.Idx) :
    k0_pay44 x y j = FloatOps.addf (x j) (FloatOps.extf .f32 bitsLt_bf16_f32 (y j)) := by
  unfold k0_pay44
  rw [shapeCast_self]
  rfl

theorem pay45_at (x : Vec F S32x384 .f32) (y : Vec F S32x384 .bf16) (j : S32x384.Idx) :
    k0_pay45 x y j = FloatOps.addf (x j) (FloatOps.extf .f32 bitsLt_bf16_f32 (y j)) := by
  unfold k0_pay45
  rw [shapeCast_self]
  rfl

theorem pay46_at (x : Vec F S32x256 .f32) (y : Vec F S32x256 .bf16) (j : S32x256.Idx) :
    k0_pay46 x y j = FloatOps.addf (x j) (FloatOps.extf .f32 bitsLt_bf16_f32 (y j)) := by
  unfold k0_pay46
  rw [shapeCast_self]
  rfl

theorem pay47_at (x : Vec F S32x384 .f32) (y : Vec F S32x384 .bf16) (j : S32x384.Idx) :
    k0_pay47 x y j = geluS (FloatOps.addf (x j) (FloatOps.extf .f32 bitsLt_bf16_f32 (y j))) := rfl

theorem pay48_at (x : Vec F S32x384 .f32) (y : Vec F S32x384 .bf16) (j : S32x384.Idx) :
    k0_pay48 x y j = geluS (FloatOps.addf (x j) (FloatOps.extf .f32 bitsLt_bf16_f32 (y j))) := rfl

theorem pay49_at (x : Vec F S32x256 .f32) (y : Vec F S32x256 .bf16) (j : S32x256.Idx) :
    k0_pay49 x y j = geluS (FloatOps.addf (x j) (FloatOps.extf .f32 bitsLt_bf16_f32 (y j))) := rfl

end Cert.Kernel.PayPoint

end
-- ==== Proof.SegBValPK.lean ====
import proofs.«900879_g7700000000000880_dist_matmul_gelu_kshard_i_m1024_n1024_k512_v7x_i32_bf16_1_alg».proof.Proof.LawsK
import proofs.«900879_g7700000000000880_dist_matmul_gelu_kshard_i_m1024_n1024_k512_v7x_i32_bf16_1_alg».proof.Proof.PlumbK

noncomputable section

namespace Cert.Kernel.SegBValP

open Cert.Kernel Cert.Kernel.Gen Cert.Kernel.Proto Cert.Kernel.Tab Cert.Kernel.Held
open Cert.Kernel.Laws Cert.Kernel.Plumb
open Idealize.ShloMosaic Idealize.ShloMosaic.TcCoe Idealize.SL.Sem

variable {F : FTy → Type} [FloatOps F]
variable (ct : Contract F) (c : Dev nD)

/-! ## A piece landed at the partner -/

/-- Stage 1: a piece of the send buffer landed in the partner's receive buffer through the same rectangle is right
    under the partner's receive contract wherever the send buffer is right under the sender's. -/
theorem landed1 (k : Fin 3) {off size : Fin 2 → ℕ} {r1 q0 : ℕ} (inb : ∀ a, off a + size a ≤ S256x1024.size a)
    (heq : off = ![r1, q0]) (hblk : ∀ q, q0 ≤ q → q < q0 + size 1 → blk q = k)
    (FS : S256x1024.Idx → F .bf16)
    (hFS : ∀ i : S256x1024.Idx, (∀ a, (![r1, q0] : Fin 2 → ℕ) a ≤ (i a).val ∧ (i a).val < (![r1, q0] : Fin 2 → ℕ) a + size a) →
      ct.okSS 1 c (i 0).val (i 1).val (FS i))
    (fd : S256x1024.Idx → F .bf16) :
    ∀ i ∈ ((View.whole cc0_scratch2).slice (Rect.unit (s := S256x1024) off size inb)).set,
      pRS ct 1 (peer k 1 c) (sh := S256x1024) i
        ((((View.whole cc0_scratch2).slice (Rect.unit (s := S256x1024) off size inb)).write (Elt F) fd
          (((View.whole cc0_scratch7).slice (Rect.unit (s := S256x1024) off size inb)).read (Elt F) FS) Finset.univ) i) := by
  refine xfer_whole_of_forall (Val := Elt F) cc0_scratch2 (View.whole cc0_scratch7) inb fd FS
    (fun i v => pRS ct 1 (peer k 1 c) (sh := S256x1024) i v) ?_
  intro i hi
  have hm := (mem_slice_unit_whole cc0_scratch2 inb heq i).mp hi
  have h1 := hm 1
  rw [View.read_whole]
  show ct.okSS 1 (peer (blk (i 1).val) 1 (peer k 1 c)) (i 0).val (i 1).val (FS i)
  rw [hblk _ h1.1 h1.2, peer_peer]
  exact hFS i hm

/-- Stage 2: a piece of the send buffer landed in the partner's receive buffer through the same rectangle is right
    under the partner's receive contract wherever the send buffer is right under the sender's. -/
theorem landed2 (k : Fin 3) {off size : Fin 2 → ℕ} {r1 q0 : ℕ} (inb : ∀ a, off a + size a ≤ S128x1024.size a)
    (heq : off = ![r1, q0]) (hblk : ∀ q, q0 ≤ q → q < q0 + size 1 → blk q = k)
    (FS : S128x1024.Idx → F .bf16)
    (hFS : ∀ i : S128x1024.Idx, (∀ a, (![r1, q0] : Fin 2 → ℕ) a ≤ (i a).val ∧ (i a).val < (![r1, q0] : Fin 2 → ℕ) a + size a) →
      ct.okSS 2 c (i 0).val (i 1).val (FS i))
    (fd : S128x1024.Idx → F .bf16) :
    ∀ i ∈ ((View.whole cc0_scratch3).slice (Rect.unit (s := S128x1024) off size inb)).set,
      pRS ct 2 (peer k 2 c) (sh := S128x1024) i
        ((((View.whole cc0_scratch3).slice (Rect.unit (s := S128x1024) off size inb)).write (Elt F) fd
          (((View.whole cc0_scratch8).slice (Rect.unit (s := S128x1024) off size inb)).read (Elt F) FS) Finset.univ) i) := by
  refine xfer_whole_of_forall (Val := Elt F) cc0_scratch3 (View.whole cc0_scratch8) inb fd FS
    (fun i v => pRS ct 2 (peer k 2 c) (sh := S128x1024) i v) ?_
  intro i hi
  have hm := (mem_slice_unit_whole cc0_scratch3 inb heq i).mp hi
  have h1 := hm 1
  rw [View.read_whole]
  show ct.okSS 2 (peer (blk (i 1).val) 2 (peer k 2 c)) (i 0).val (i 1).val (FS i)
  rw [hblk _ h1.1 h1.2, peer_peer]
  exact hFS i hm

/-- Stage 3: a piece of the send buffer landed in the partner's receive buffer through the same rectangle is right
    under the partner's receive contract wherever the send buffer is right under the sender's. -/
theorem landed3 (k : Fin 3) {off size : Fin 2 → ℕ} {r1 q0 : ℕ} (inb : ∀ a, off a + size a ≤ S64x1024.size a)
    (heq : off = ![r1, q0]) (hblk : ∀ q, q0 ≤ q → q < q0 + size 1 → blk q = k)
    (FS : S64x1024.Idx → F .bf16)
    (hFS : ∀ i : S64x1024.Idx, (∀ a, (![r1, q0] : Fin 2 → ℕ) a ≤ (i a).val ∧ (i a).val < (![r1, q0] : Fin 2 → ℕ) a + size a) →
      ct.okSS 3 c (i 0).val (i 1).val (FS i))
    (fd : S64x1024.Idx → F .bf16) :
    ∀ i ∈ ((View.whole cc0_scratch4).slice (Rect.unit (s := S64x1024) off size inb)).set,
      pRS ct 3 (peer k 3 c) (sh := S64x1024) i
        ((((View.whole cc0_scratch4).slice (Rect.unit (s := S64x1024) off size inb)).write (Elt F) fd
          (((View.whole cc0_scratch9).slice (Rect.unit (s := S64x1024) off size inb)).read (Elt F) FS) Finset.univ) i) := by
  refine xfer_whole_of_forall (Val := Elt F) cc0_scratch4 (View.whole cc0_scratch9) inb fd FS
    (fun i v => pRS ct 3 (peer k 3 c) (sh := S64x1024) i v) ?_
  intro i hi
  have hm := (mem_slice_unit_whole cc0_scratch4 inb heq i).mp hi
  have h1 := hm 1
  rw [View.read_whole]
  show ct.okSS 3 (peer (blk (i 1).val) 3 (peer k 3 c)) (i 0).val (i 1).val (FS i)
  rw [hblk _ h1.1 h1.2, peer_peer]
  exact hFS i hm

/-- Stage 4: a piece of the send buffer landed in the partner's receive buffer through the same rectangle is right
    under the partner's receive contract wherever the send buffer is right under the sender's. -/
theorem landed4 (k : Fin 3) {off size : Fin 2 → ℕ} {r1 q0 : ℕ} (inb : ∀ a, off a + size a ≤ S32x1024.size a)
    (heq : off = ![r1, q0]) (hblk : ∀ q, q0 ≤ q → q < q0 + size 1 → blk q = k)
    (FS : S32x1024.Idx → F .bf16)
    (hFS : ∀ i : S32x1024.Idx, (∀ a, (![r1, q0] : Fin 2 → ℕ) a ≤ (i a).val ∧ (i a).val < (![r1, q0] : Fin 2 → ℕ) a + size a) →
      ct.okSS 4 c (i 0).val (i 1).val (FS i))
    (fd : S32x1024.Idx → F .bf16) :
    ∀ i ∈ ((View.whole cc0_scratch5).slice (Rect.unit (s := S32x1024) off size inb)).set,
      pRS ct 4 (peer k 4 c) (sh := S32x1024) i
        ((((View.whole cc0_scratch5).slice (Rect.unit (s := S32x1024) off size inb)).write (Elt F) fd
          (((View.whole cc0_scratch10).slice (Rect.unit (s := S32x1024) off size inb)).read (Elt F) FS) Finset.univ) i) := by
  refine xfer_whole_of_forall (Val := Elt F) cc0_scratch5 (View.whole cc0_scratch10) inb fd FS
    (fun i v => pRS ct 4 (peer k 4 c) (sh := S32x1024) i v) ?_
  intro i hi
  have hm := (mem_slice_unit_whole cc0_scratch5 inb heq i).mp hi
  have h1 := hm 1
  rw [View.read_whole]
  show ct.okSS 4 (peer (blk (i 1).val) 4 (peer k 4 c)) (i 0).val (i 1).val (FS i)
  rw [hblk _ h1.1 h1.2, peer_peer]
  exact hFS i hm

/-- The gathering phase: a piece of the result landed in the partner's result buffer through the same rectangle is
    right wherever the sender's is: the result's contract is the same on every device. -/
theorem landedOut {off size : Fin 2 → ℕ} (inb : ∀ a, off a + size a ≤ S1024x1024.size a)
    (FS : S1024x1024.Idx → F .bf16)
    (hFS : ∀ i ∈ ((View.whole cc0_stg2_0).slice (Rect.unit (s := S1024x1024) off size inb)).set, ct.okOut (i 0).val (i 1).val (FS i))
    (fd : S1024x1024.Idx → F .bf16) :
    ∀ i ∈ ((View.whole cc0_stg2_0).slice (Rect.unit (s := S1024x1024) off size inb)).set,
      pOut ct (sh := S1024x1024) i
        ((((View.whole cc0_stg2_0).slice (Rect.unit (s := S1024x1024) off size inb)).write (Elt F) fd
          (((View.whole cc0_stg2_0).slice (Rect.unit (s := S1024x1024) off size inb)).read (Elt F) FS) Finset.univ) i) := by
  refine xfer_whole_of_forall (Val := Elt F) cc0_stg2_0 (View.whole cc0_stg2_0) inb fd FS
    (fun i v => pOut ct (sh := S1024x1024) i v) ?_
  intro i hi
  rw [View.read_whole]
  exact hFS i hi

/-! ## What a load reads is right where the buffer is -/

/-- A load at a unit-stride rectangle of a whole buffer reads, at `j`, the contents at the index whose coordinates are
    the offsets plus `j`'s; whatever holds of the contents on the rectangle holds of what is read. -/
theorem load_ok {sig : RefSig} {κ : Kind} {Val : EltTy → Type} (b : Ref sig κ) {off off' size : Fin b.ty.shape.rank → ℕ}
    (inb : ∀ a, off a + size a ≤ b.ty.shape.size a) (f : b.ty.Contents Val) (heq : off = off')
    (P : b.ty.shape.Idx → Val b.ty.elt → Prop)
    (hf : ∀ y : b.ty.shape.Idx, (∀ a, off' a ≤ (y a).val ∧ (y a).val < off' a + size a) → P y (f y))
    (j : (Rect.unit off size inb).shape.Idx) :
    ∃ y : b.ty.shape.Idx, (∀ a, (y a).val = off' a + (j a).val) ∧
      P y ((Memref.whole b).view.readAt Val (Rect.unit off size inb).toLoadRect f j) := by
  subst heq
  refine ⟨(Rect.unit off size inb).emb j, fun a => emb_unit_val inb j a, ?_⟩
  rw [readAt_unit_whole b inb f j ((Rect.unit off size inb).emb j) rfl (fun a => emb_unit_val inb j a)]
  exact hf _ fun a => by
    rw [emb_unit_val inb j a]
    have := (j a).isLt
    exact ⟨Nat.le_add_right _ _, Nat.add_lt_add_left this _⟩

/-! ## The stores of a stage: adding the partner's piece, handing on the half given away, the result -/

/-- Adding what the stage-`s` partner sent into the rows `lo k c (s + 1) + ρ …` of the accumulator: if the payload is,
    index by index, the sum of a right running sum and a right received piece, the accumulator is right at stage
    `s + 1` on the rectangle stored. -/
theorem add_store_ok (YA : S1024x512.Idx → F .f32) (YB : S512x1024.Idx → F .f32) (laws : Laws ct c YA YB)
    (s : Fin 5) (hs : s.val < 4) (k : Fin 3) {off sz : Fin 2 → ℕ} {ρ q0 : ℕ}
    (inb : ∀ a, off a + sz a ≤ S1024x1024.size a) (heq : off = ![lo k c (s.val + 1) + ρ, q0])
    (hblk : ∀ q, q0 ≤ q → q < q0 + sz 1 → blk q = k)
    (g : S1024x1024.Idx → F .f32) (w X : (⟨2, sz⟩ : Shape).Idx → F .f32) (Y : (⟨2, sz⟩ : Shape).Idx → F .bf16)
    (hw : ∀ j, w j = FloatOps.addf (X j) (FloatOps.extf .f32 bitsLt_bf16_f32 (Y j)))
    (hX : ∀ j, ct.okAcc s.val c (lo k c (s.val + 1) + (ρ + (j 0).val)) (q0 + (j 1).val) (X j))
    (hY : ∀ j, ct.okSS s (peer k s c) (ρ + (j 0).val) (q0 + (j 1).val) (Y j)) :
    ∀ i : S1024x1024.Idx, (∀ a, (![lo k c (s.val + 1) + ρ, q0] : Fin 2 → ℕ) a ≤ (i a).val ∧ (i a).val < (![lo k c (s.val + 1) + ρ, q0] : Fin 2 → ℕ) a + sz a) →
      ct.okAcc (s.val + 1) c (i 0).val (i 1).val
        ((((View.whole cc0_scratch0).slice (Rect.unit (s := S1024x1024) off sz inb)).write (Elt F) g w Finset.univ) i) := by
  intro i hi
  refine write_unit_whole_forall (Val := Elt F) cc0_scratch0 g inb w heq
    (fun i v => ct.okAcc (s.val + 1) c (i 0).val (i 1).val v) ?_ i hi
  intro j i' hi'
  have e0 : (i' 0).val = lo k c (s.val + 1) + (ρ + (j 0).val) := (hi' 0).trans (Nat.add_assoc _ _ _)
  have e1 : (i' 1).val = q0 + (j 1).val := hi' 1
  have hj1 : (j 1).val < sz 1 := (j 1).isLt
  show ct.okAcc (s.val + 1) c (i' 0).val (i' 1).val (w j)
  rw [e0, e1, hw j]
  exact laws.add_ok s k (ρ + (j 0).val) (q0 + (j 1).val) (X j) (Y j) hs
    (hblk _ (Nat.le_add_right _ _) (Nat.add_lt_add_left hj1 _)) (hX j) (hY j)

/-- Handing on the half given away at stage `s ≥ 1`: if the payload is, index by index, a right running sum on the
    rows given away, narrowed, it is right for the send buffer's local rows. -/
theorem trunc_store_ok (YA : S1024x512.Idx → F .f32) (YB : S512x1024.Idx → F .f32) (laws : Laws ct c YA YB)
    (s : Fin 5) (hs : 0 < s.val) (k : Fin 3) {sz : Fin 2 → ℕ} {q0 : ℕ}
    (hblk : ∀ q, q0 ≤ q → q < q0 + sz 1 → blk q = k)
    (w : (⟨2, sz⟩ : Shape).Idx → F .bf16) (X : (⟨2, sz⟩ : Shape).Idx → F .f32)
    (hw : ∀ j, w j = FloatOps.truncf .bf16 bitsLt_bf16_f32 (X j))
    (hX : ∀ j, ct.okAcc s.val c (lo k c s.val + (1 - bit k s c) * half s.val + (j 0).val) (q0 + (j 1).val) (X j)) :
    ∀ j : (⟨2, sz⟩ : Shape).Idx, ct.okSS s c (j 0).val (q0 + (j 1).val) (w j) := by
  intro j
  have hj1 : (j 1).val < sz 1 := (j 1).isLt
  rw [hw j]
  exact laws.trunc_ok s k (j 0).val (q0 + (j 1).val) (X j) hs
    (hblk _ (Nat.le_add_right _ _) (Nat.add_lt_add_left hj1 _)) (hX j)

/-- The result: if the payload is, index by index, the pointwise function of a right running sum plus the last
    partner's right piece, the rows of the result stored are right. -/
theorem out_point_ok (YA : S1024x512.Idx → F .f32) (YB : S512x1024.Idx → F .f32) (laws : Laws ct c YA YB)
    (k : Fin 3) {sz : Fin 2 → ℕ} {q0 : ℕ}
    (hblk : ∀ q, q0 ≤ q → q < q0 + sz 1 → blk q = k)
    (w : (⟨2, sz⟩ : Shape).Idx → F .bf16) (X : (⟨2, sz⟩ : Shape).Idx → F .f32) (Y : (⟨2, sz⟩ : Shape).Idx → F .bf16)
    (hw : ∀ j, w j = geluS (FloatOps.addf (X j) (FloatOps.extf .f32 bitsLt_bf16_f32 (Y j))))
    (hX : ∀ j, ct.okAcc 4 c (lo k c 5 + (j 0).val) (q0 + (j 1).val) (X j))
    (hY : ∀ j, ct.okSS 4 (peer k 4 c) (j 0).val (q0 + (j 1).val) (Y j)) :
    ∀ j : (⟨2, sz⟩ : Shape).Idx, ct.okOut (lo k c 5 + (j 0).val) (q0 + (j 1).val) (w j) := by
  intro j
  have hj1 : (j 1).val < sz 1 := (j 1).isLt
  rw [hw j]
  exact laws.out_ok k (j 0).val (q0 + (j 1).val) (X j) (Y j)
    (hblk _ (Nat.le_add_right _ _) (Nat.add_lt_add_left hj1 _)) (hX j) (hY j)

end Cert.Kernel.SegBValP

end
-- ==== Proof.SegBCoreK.lean ====
/-
  The value steps of a stage, independent of the buffers: what stays right off a store's rectangle, what a
  load of a right piece reads, and the two computing steps — adding the partner's piece to the rows handed on
  and narrowing them for sending; adding it to the rows kept.
-/
import proofs.«900879_g7700000000000880_dist_matmul_gelu_kshard_i_m1024_n1024_k512_v7x_i32_bf16_1_alg».proof.Proof.LawsK
import proofs.«900879_g7700000000000880_dist_matmul_gelu_kshard_i_m1024_n1024_k512_v7x_i32_bf16_1_alg».proof.Proof.PlumbK

noncomputable section

namespace Cert.Kernel.SegBCore

open Cert.Kernel Cert.Kernel.Gen Cert.Kernel.Proto Cert.Kernel.Tab Cert.Kernel.Held
open Cert.Kernel.Laws Cert.Kernel.Plumb
open Idealize.ShloMosaic Idealize.ShloMosaic.TcCoe Idealize.SL.Sem

/-! ## Rows -/

theorem lo_succ (k : Fin 3) (c : Dev nD) (s : Fin 5) : lo k c (s.val + 1) = lo k c s.val + bit k s c * half s.val := by
  show lo k c s.val + (if h : s.val < 5 then bit k ⟨s.val, h⟩ c * half s.val else 0) = _
  rw [dif_pos s.isLt]

theorem half_0 : half 0 = 512 := by decide
theorem half_1 : half 1 = 256 := by decide
theorem half_2 : half 2 = 128 := by decide
theorem half_3 : half 3 = 64 := by decide
theorem half_4 : half 4 = 32 := by decide

theorem lo_1 (k : Fin 3) (c : Dev nD) : lo k c 1 = bit k 0 c * 512 := by
  have h : lo k c 1 = lo k c 0 + bit k 0 c * half 0 := lo_succ k c 0
  rw [half_0] at h
  exact h.trans (Nat.zero_add _)
theorem lo_2 (k : Fin 3) (c : Dev nD) : lo k c 2 = lo k c 1 + bit k 1 c * 256 := by
  have h : lo k c 2 = lo k c 1 + bit k 1 c * half 1 := lo_succ k c 1
  rw [half_1] at h; exact h
theorem lo_3 (k : Fin 3) (c : Dev nD) : lo k c 3 = lo k c 2 + bit k 2 c * 128 := by
  have h : lo k c 3 = lo k c 2 + bit k 2 c * half 2 := lo_succ k c 2
  rw [half_2] at h; exact h
theorem lo_4 (k : Fin 3) (c : Dev nD) : lo k c 4 = lo k c 3 + bit k 3 c * 64 := by
  have h : lo k c 4 = lo k c 3 + bit k 3 c * half 3 := lo_succ k c 3
  rw [half_3] at h; exact h
theorem lo_5 (k : Fin 3) (c : Dev nD) : lo k c 5 = lo k c 4 + bit k 4 c * 32 := by
  have h : lo k c 5 = lo k c 4 + bit k 4 c * half 4 := lo_succ k c 4
  rw [half_4] at h; exact h

/-! ## Off a store's rectangle; inside a right rectangle -/

section Generic
variable {sig : RefSig} {κ : Kind} {Val : EltTy → Type}

/-- What holds of a buffer's contents on a rectangle `T` holds, after a store through a rectangle `W`, on every
    rectangle `S` inside `T` that misses `W` on some axis. -/
theorem keep_of (b : Ref sig κ) (f : b.ty.Contents Val) (P : b.ty.shape.Idx → Val b.ty.elt → Prop)
    {offW offW' szW : Fin b.ty.shape.rank → ℕ} (inbW : ∀ a, offW a + szW a ≤ b.ty.shape.size a) (heqW : offW = offW')
    (w : (Rect.unit offW szW inbW).shape.Idx → Val b.ty.elt)
    {offT offT' szT : Fin b.ty.shape.rank → ℕ} (inbT : ∀ a, offT a + szT a ≤ b.ty.shape.size a) (heqT : offT = offT')
    {offS offS' szS : Fin b.ty.shape.rank → ℕ} (inbS : ∀ a, offS a + szS a ≤ b.ty.shape.size a) (heqS : offS = offS')
    (hT : ∀ i ∈ ((View.whole b).slice (Rect.unit offT szT inbT)).set, P i (f i))
    (hsub : ∀ a, offT' a ≤ offS' a ∧ offS' a + szS a ≤ offT' a + szT a)
    (hdis : ∃ a, offS' a + szS a ≤ offW' a ∨ offW' a + szW a ≤ offS' a) :
    ∀ i ∈ ((View.whole b).slice (Rect.unit offS szS inbS)).set,
      P i (((View.whole b).slice (Rect.unit offW szW inbW)).write Val f w Finset.univ i) := by
  intro i hi
  have hm := (mem_slice_unit_whole b inbS heqS i).mp hi
  obtain ⟨a, ha⟩ := hdis
  rw [write_unit_whole_of_not_mem b f inbW w i heqW a (by have := hm a; omega)]
  exact hT i ((mem_slice_unit_whole b inbT heqT i).mpr fun a' => by
    have h1 := hm a'
    have h2 := hsub a'
    omega)

/-- What holds of a buffer's contents on a rectangle holds of what a load inside the rectangle reads. -/
theorem load_sub_ok (b : Ref sig κ) (g : b.ty.Contents Val) (P : b.ty.shape.Idx → Val b.ty.elt → Prop)
    {offP offP' szP : Fin b.ty.shape.rank → ℕ} (inbP : ∀ a, offP a + szP a ≤ b.ty.shape.size a) (heqP : offP = offP')
    (hg : ∀ i ∈ ((View.whole b).slice (Rect.unit offP szP inbP)).set, P i (g i))
    {offR offR' szR : Fin b.ty.shape.rank → ℕ} (inbR : ∀ a, offR a + szR a ≤ b.ty.shape.size a) (heqR : offR = offR')
    (hin : ∀ a, offP' a ≤ offR' a ∧ offR' a + szR a ≤ offP' a + szP a)
    (j : (Rect.unit offR szR inbR).shape.Idx) :
    ∃ y : b.ty.shape.Idx, (∀ a, (y a).val = offR' a + (j a).val) ∧
      P y ((Memref.whole b).view.readAt Val (Rect.unit offR szR inbR).toLoadRect g j) := by
  subst heqR
  refine ⟨(Rect.unit offR szR inbR).emb j, fun a => emb_unit_val inbR j a, ?_⟩
  rw [readAt_unit_whole b inbR g j ((Rect.unit offR szR inbR).emb j) rfl (fun a => emb_unit_val inbR j a)]
  exact hg _ ((mem_slice_unit_whole b inbP heqP _).mpr fun a => by
    rw [emb_unit_val inbR j a]
    have h1 := hin a
    have h2 : (j a).val < szR a := (j a).isLt
    omega)

end Generic

variable {F : FTy → Type} [FloatOps F]
variable (ct : Contract F) (c : Dev nD) (YA : S1024x512.Idx → F .f32) (YB : S512x1024.Idx → F .f32)

/-! ## The two computing steps of a stage -/

/-- The rows handed on: a right running sum of stage `s` plus the stage-`s` partner's right piece, narrowed, is right
    for the stage-`s + 1` send buffer's local rows. -/
theorem send_point (laws : Laws ct c YA YB) (s s1 : Fin 5) (hs : s.val < 4) (hs1 : s1.val = s.val + 1) (k : Fin 3)
    (r q : ℕ) (hq : blk q = k) (v : F .f32) (w : F .bf16)
    (hv : ct.okAcc s.val c (lo k c (s.val + 1) + ((1 - bit k s1 c) * half s1.val + r)) q v)
    (hw : ct.okSS s (peer k s c) ((1 - bit k s1 c) * half s1.val + r) q w) :
    ct.okSS s1 c r q (FloatOps.truncf .bf16 bitsLt_bf16_f32 (FloatOps.addf v (FloatOps.extf .f32 bitsLt_bf16_f32 w))) := by
  have h1 := laws.add_ok s k ((1 - bit k s1 c) * half s1.val + r) q v w hs hq hv hw
  refine laws.trunc_ok s1 k r q _ (by omega) hq ?_
  rw [hs1, ← Nat.add_assoc] at *
  exact h1

/-- The contract on a received element, read as the sender's send contract. -/
theorem pRS_to_okSS (s : Fin 5) (k : Fin 3) (c' : Dev nD) {sh : Shape} (h2 : sh.rank = 2) (y : sh.Idx) (v : F .bf16) (r q : ℕ)
    (e0 : (y ⟨0, by omega⟩).val = r) (e1 : (y ⟨1, by omega⟩).val = q) (hb : blk q = k)
    (h : pRS ct s c' y v h2) : ct.okSS s (peer k s c') r q v := by
  unfold pRS at h
  rw [e0, e1, hb] at h
  exact h

/-- The rows handed on at stage `s1 = s + 1` of column block `k`: the accumulator is right at level `s` on the rectangle
    `RA` of those rows, the received piece `Y` is right; the part adds `Y` into `RA` (payload `wA`) and narrows what
    `RA` then holds (payload `wT`): `wT` is right for the stage's send buffer, index by index. -/
theorem ss_core (laws : Laws ct c YA YB) (s s1 : Fin 5) (hs : s.val < 4) (hs1 : s1.val = s.val + 1) (k : Fin 3)
    {offA sz : Fin 2 → ℕ} {q0 : ℕ} (inbA : ∀ a, offA a + sz a ≤ S1024x1024.size a)
    (heqA : offA = ![lo k c (s.val + 1) + (1 - bit k s1 c) * half s1.val, q0])
    (hblk : ∀ q, q0 ≤ q → q < q0 + sz 1 → blk q = k)
    (fa : S1024x1024.Idx → F .f32)
    (hA : ∀ i ∈ ((View.whole cc0_scratch0).slice (Rect.unit (s := S1024x1024) offA sz inbA)).set, ct.okAcc s.val c (i 0).val (i 1).val (fa i))
    (Y : (⟨2, sz⟩ : Shape).Idx → F .bf16)
    (hY : ∀ j, ct.okSS s (peer k s c) ((1 - bit k s1 c) * half s1.val + (j 0).val) (q0 + (j 1).val) (Y j))
    (wA : (⟨2, sz⟩ : Shape).Idx → F .f32)
    (hwA : ∀ j, wA j = FloatOps.addf ((Memref.whole cc0_scratch0).view.readAt (Elt F) (Rect.unit (s := S1024x1024) offA sz inbA).toLoadRect fa j)
      (FloatOps.extf .f32 bitsLt_bf16_f32 (Y j)))
    (wT : (⟨2, sz⟩ : Shape).Idx → F .bf16)
    (hwT : ∀ j, wT j = FloatOps.truncf .bf16 bitsLt_bf16_f32 ((Memref.whole cc0_scratch0).view.readAt (Elt F) (Rect.unit (s := S1024x1024) offA sz inbA).toLoadRect
      (((View.whole cc0_scratch0).slice (Rect.unit (s := S1024x1024) offA sz inbA)).write (Elt F) fa wA Finset.univ) j)) :
    ∀ j : (⟨2, sz⟩ : Shape).Idx, ct.okSS s1 c (j 0).val (q0 + (j 1).val) (wT j) := by
  intro j
  have hy : ∀ a, (((Rect.unit (s := S1024x1024) offA sz inbA).emb j) a).val
      = (![lo k c (s.val + 1) + (1 - bit k s1 c) * half s1.val, q0] : Fin 2 → ℕ) a + (j a).val := fun a => by
    rw [emb_unit_val inbA j a]
    exact congrArg (fun o : Fin 2 → ℕ => o a + (j a).val) heqA
  have hj1 : (j 1).val < sz 1 := (j 1).isLt
  rw [hwT j, readAt_unit_whole (Val := Elt F) cc0_scratch0 inbA _ j _ heqA hy,
    write_unit_whole_of_mem (Val := Elt F) cc0_scratch0 fa inbA wA _ j heqA hy, hwA j,
    readAt_unit_whole (Val := Elt F) cc0_scratch0 inbA fa j _ heqA hy]
  refine send_point ct c YA YB laws s s1 hs hs1 k (j 0).val (q0 + (j 1).val)
    (hblk _ (Nat.le_add_right _ _) (Nat.add_lt_add_left hj1 _)) _ _ ?_ (hY j)
  have hmem := hA _ ((mem_slice_unit_whole cc0_scratch0 inbA heqA _).mpr fun a => by
    rw [hy a]
    have h2 : (j a).val < sz a := (j a).isLt
    omega)
  have e0 := hy 0
  have e1 := hy 1
  rw [e0, e1] at hmem
  rw [← Nat.add_assoc]
  exact hmem

/-- The rows kept at stage `s1 = s + 1` of column block `k`: the accumulator is right at level `s` on the rectangle of
    those rows and the received piece `Y` is right; after the part adds `Y` into them they are right at level `s + 1`. -/
theorem keep_core (laws : Laws ct c YA YB) (s s1 : Fin 5) (hs : s.val < 4) (hs1 : s1.val = s.val + 1) (k : Fin 3)
    {offA sz : Fin 2 → ℕ} {q0 : ℕ} (inbA : ∀ a, offA a + sz a ≤ S1024x1024.size a)
    (heqA : offA = ![lo k c (s.val + 1) + bit k s1 c * half s1.val, q0])
    (hblk : ∀ q, q0 ≤ q → q < q0 + sz 1 → blk q = k)
    (fa : S1024x1024.Idx → F .f32)
    (hA : ∀ i ∈ ((View.whole cc0_scratch0).slice (Rect.unit (s := S1024x1024) offA sz inbA)).set, ct.okAcc s.val c (i 0).val (i 1).val (fa i))
    (Y : (⟨2, sz⟩ : Shape).Idx → F .bf16)
    (hY : ∀ j, ct.okSS s (peer k s c) (bit k s1 c * half s1.val + (j 0).val) (q0 + (j 1).val) (Y j))
    (wA : (⟨2, sz⟩ : Shape).Idx → F .f32)
    (hwA : ∀ j, wA j = FloatOps.addf ((Memref.whole cc0_scratch0).view.readAt (Elt F) (Rect.unit (s := S1024x1024) offA sz inbA).toLoadRect fa j)
      (FloatOps.extf .f32 bitsLt_bf16_f32 (Y j))) :
    ∀ i ∈ ((View.whole cc0_scratch0).slice (Rect.unit (s := S1024x1024) offA sz inbA)).set,
      ct.okAcc (s.val + 1) c (i 0).val (i 1).val
        ((((View.whole cc0_scratch0).slice (Rect.unit (s := S1024x1024) offA sz inbA)).write (Elt F) fa wA Finset.univ) i) := by
  intro i hi
  have hm := (mem_slice_unit_whole cc0_scratch0 inbA heqA i).mp hi
  refine write_unit_whole_forall (Val := Elt F) cc0_scratch0 fa inbA wA heqA
    (fun i v => ct.okAcc (s.val + 1) c (i 0).val (i 1).val v) ?_ i hm
  intro j i' hi'
  have e0 : (i' 0).val = lo k c (s.val + 1) + (bit k s1 c * half s1.val + (j 0).val) := (hi' 0).trans (Nat.add_assoc _ _ _)
  have e1 : (i' 1).val = q0 + (j 1).val := hi' 1
  have hj1 : (j 1).val < sz 1 := (j 1).isLt
  show ct.okAcc (s.val + 1) c (i' 0).val (i' 1).val (wA j)
  rw [e0, e1, hwA j, readAt_unit_whole (Val := Elt F) cc0_scratch0 inbA fa j i' heqA hi']
  refine laws.add_ok s k (bit k s1 c * half s1.val + (j 0).val) (q0 + (j 1).val) (fa i') (Y j) hs
    (hblk _ (Nat.le_add_right _ _) (Nat.add_lt_add_left hj1 _)) ?_ (hY j)
  have hmem := hA i' ((mem_slice_unit_whole cc0_scratch0 inbA heqA i').mpr fun a => by
    rw [hi' a]
    have h2 : (j a).val < sz a := (j a).isLt
    omega)
  rw [e0, e1] at hmem
  exact hmem

end Cert.Kernel.SegBCore
end
-- ==== Proof.SegB1AltValK.lean ====
/-
  The values along the second and third stages of the summing phase: the accumulator's and the two send
  buffers' contents step by step, what the twelve pieces sent carry, and what the kept rows hold at the end.
-/
import proofs.«900879_g7700000000000880_dist_matmul_gelu_kshard_i_m1024_n1024_k512_v7x_i32_bf16_1_alg».proof.Proof.SegBMidK
import proofs.«900879_g7700000000000880_dist_matmul_gelu_kshard_i_m1024_n1024_k512_v7x_i32_bf16_1_alg».proof.Proof.GeoK
import proofs.«900879_g7700000000000880_dist_matmul_gelu_kshard_i_m1024_n1024_k512_v7x_i32_bf16_1_alg».proof.Proof.PlumbK
import proofs.«900879_g7700000000000880_dist_matmul_gelu_kshard_i_m1024_n1024_k512_v7x_i32_bf16_1_alg».proof.Proof.PayPointK
import proofs.«900879_g7700000000000880_dist_matmul_gelu_kshard_i_m1024_n1024_k512_v7x_i32_bf16_1_alg».proof.Proof.SegAValPK
import proofs.«900879_g7700000000000880_dist_matmul_gelu_kshard_i_m1024_n1024_k512_v7x_i32_bf16_1_alg».proof.Proof.SegBValPK
import proofs.«900879_g7700000000000880_dist_matmul_gelu_kshard_i_m1024_n1024_k512_v7x_i32_bf16_1_alg».proof.Proof.SegBCoreK

noncomputable section

namespace Cert.Kernel.SegB1AltVal

open Cert.Kernel Cert.Kernel.Gen Cert.Kernel.Proto Cert.Kernel.Tab Cert.Kernel.Held Cert.Kernel.PayTab
open Cert.Kernel.Laws
open Idealize.ShloMosaic Idealize.ShloMosaic.TcCoe Idealize.SL.Sem

variable {F : FTy → Type} [FloatOps F]

/-! ## The rectangles the segment reads and writes -/

abbrev RA14 (c : Dev nD) : Rect S1024x1024 := Rect.unit (s := S1024x1024) (k0_off14 c) S256x384.size (k0_off14_inb c)
abbrev RR15 (c : Dev nD) : Rect S512x1024 := Rect.unit (s := S512x1024) (k0_off15 c) S256x384.size (k0_off15_inb c)
abbrev RA26 (c : Dev nD) : Rect S1024x1024 := Rect.unit (s := S1024x1024) (k0_off26 c) S256x384.size (k0_off26_inb c)
abbrev RR27 (c : Dev nD) : Rect S512x1024 := Rect.unit (s := S512x1024) (k0_off27 c) S256x384.size (k0_off27_inb c)
abbrev RA32 (c : Dev nD) : Rect S1024x1024 := Rect.unit (s := S1024x1024) (k0_off32 c) S128x384.size (k0_off32_inb c)
abbrev RR33 (c : Dev nD) : Rect S256x1024 := Rect.unit (s := S256x1024) (k0_off33 c) S128x384.size (k0_off33_inb c)
abbrev RC1b0 : Rect S256x1024 := Rect.unit (s := S256x1024) ![0, 0] S256x384.size inb_S256x1024_S256x384_0_0
abbrev RC2b0 : Rect S128x1024 := Rect.unit (s := S128x1024) ![0, 0] S128x384.size inb_S128x1024_S128x384_0_0
abbrev RA18 (c : Dev nD) : Rect S1024x1024 := Rect.unit (s := S1024x1024) (k0_off18 c) S256x384.size (k0_off18_inb c)
abbrev RR19 (c : Dev nD) : Rect S512x1024 := Rect.unit (s := S512x1024) (k0_off19 c) S256x384.size (k0_off19_inb c)
abbrev RA28 (c : Dev nD) : Rect S1024x1024 := Rect.unit (s := S1024x1024) (k0_off28 c) S256x384.size (k0_off28_inb c)
abbrev RR29 (c : Dev nD) : Rect S512x1024 := Rect.unit (s := S512x1024) (k0_off29 c) S256x384.size (k0_off29_inb c)
abbrev RA36 (c : Dev nD) : Rect S1024x1024 := Rect.unit (s := S1024x1024) (k0_off36 c) S128x384.size (k0_off36_inb c)
abbrev RR37 (c : Dev nD) : Rect S256x1024 := Rect.unit (s := S256x1024) (k0_off37 c) S128x384.size (k0_off37_inb c)
abbrev RC1b1 : Rect S256x1024 := Rect.unit (s := S256x1024) ![0, 384] S256x384.size inb_S256x1024_S256x384_0_384
abbrev RC2b1 : Rect S128x1024 := Rect.unit (s := S128x1024) ![0, 384] S128x384.size inb_S128x1024_S128x384_0_384
abbrev RA22 (c : Dev nD) : Rect S1024x1024 := Rect.unit (s := S1024x1024) (k0_off22 c) S256x256.size (k0_off22_inb c)
abbrev RR23 (c : Dev nD) : Rect S512x1024 := Rect.unit (s := S512x1024) (k0_off23 c) S256x256.size (k0_off23_inb c)
abbrev RA30 (c : Dev nD) : Rect S1024x1024 := Rect.unit (s := S1024x1024) (k0_off30 c) S256x256.size (k0_off30_inb c)
abbrev RR31 (c : Dev nD) : Rect S512x1024 := Rect.unit (s := S512x1024) (k0_off31 c) S256x256.size (k0_off31_inb c)
abbrev RA40 (c : Dev nD) : Rect S1024x1024 := Rect.unit (s := S1024x1024) (k0_off40 c) S128x256.size (k0_off40_inb c)
abbrev RR41 (c : Dev nD) : Rect S256x1024 := Rect.unit (s := S256x1024) (k0_off41 c) S128x256.size (k0_off41_inb c)
abbrev RC1b2 : Rect S256x1024 := Rect.unit (s := S256x1024) ![0, 768] S256x256.size inb_S256x1024_S256x256_0_768
abbrev RC2b2 : Rect S128x1024 := Rect.unit (s := S128x1024) ![0, 768] S128x256.size inb_S128x1024_S128x256_0_768

/-! ## One addition, one rounding -/

/-- The accumulator after the partner's rows of the second stage, column block 0, are added on the rows given away. -/
def addP0 (c : Dev nD) (a : Buf (Elt F) ((c : Thread nD τ).loc cc0_scratch0)) (g : Buf (Elt F) ((c : Thread nD τ).loc cc0_scratch1)) : Buf (Elt F) ((c : Thread nD τ).loc cc0_scratch0) :=
  ((Memref.whole cc0_scratch0 : Memref sig .tc .vmem S1024x1024 .f32).access (RA14 c)).write (Elt F) a
    (k0_pay9 ((Memref.whole cc0_scratch0 : Memref sig .tc .vmem S1024x1024 .f32).view.readAt (Elt F) (RA14 c).toLoadRect a) ((Memref.whole cc0_scratch1 : Memref sig .tc .vmem S512x1024 .bf16).view.readAt (Elt F) (RR15 c).toLoadRect g)) Finset.univ
/-- The second stage's send buffer after column block 0's rows to give away are rounded into it. -/
def sendP0 (c : Dev nD) (a : Buf (Elt F) ((c : Thread nD τ).loc cc0_scratch0)) (g7 : Buf (Elt F) ((c : Thread nD τ).loc cc0_scratch7)) : Buf (Elt F) ((c : Thread nD τ).loc cc0_scratch7) :=
  ((Memref.whole cc0_scratch7 : Memref sig .tc .vmem S256x1024 .bf16).access RC1b0).write (Elt F) g7 (k0_pay10 ((Memref.whole cc0_scratch0 : Memref sig .tc .vmem S1024x1024 .f32).view.readAt (Elt F) (RA14 c).toLoadRect a)) Finset.univ
/-- The accumulator after the partner's rows of the second stage, column block 0, are added on the rows kept. -/
def addQ0 (c : Dev nD) (a : Buf (Elt F) ((c : Thread nD τ).loc cc0_scratch0)) (g : Buf (Elt F) ((c : Thread nD τ).loc cc0_scratch1)) : Buf (Elt F) ((c : Thread nD τ).loc cc0_scratch0) :=
  ((Memref.whole cc0_scratch0 : Memref sig .tc .vmem S1024x1024 .f32).access (RA26 c)).write (Elt F) a
    (k0_pay16 (k0_pay15 ((Memref.whole cc0_scratch0 : Memref sig .tc .vmem S1024x1024 .f32).view.readAt (Elt F) (RA26 c).toLoadRect a) ((Memref.whole cc0_scratch1 : Memref sig .tc .vmem S512x1024 .bf16).view.readAt (Elt F) (RR27 c).toLoadRect g))) Finset.univ
/-- The accumulator after the partner's rows of the third stage, column block 0, are added on the rows given away. -/
def addR0 (c : Dev nD) (a : Buf (Elt F) ((c : Thread nD τ).loc cc0_scratch0)) (g : Buf (Elt F) ((c : Thread nD τ).loc cc0_scratch2)) : Buf (Elt F) ((c : Thread nD τ).loc cc0_scratch0) :=
  ((Memref.whole cc0_scratch0 : Memref sig .tc .vmem S1024x1024 .f32).access (RA32 c)).write (Elt F) a
    (k0_pay19 ((Memref.whole cc0_scratch0 : Memref sig .tc .vmem S1024x1024 .f32).view.readAt (Elt F) (RA32 c).toLoadRect a) ((Memref.whole cc0_scratch2 : Memref sig .tc .vmem S256x1024 .bf16).view.readAt (Elt F) (RR33 c).toLoadRect g)) Finset.univ
/-- The third stage's send buffer after column block 0's rows to give away are rounded into it. -/
def sendR0 (c : Dev nD) (a : Buf (Elt F) ((c : Thread nD τ).loc cc0_scratch0)) (g8 : Buf (Elt F) ((c : Thread nD τ).loc cc0_scratch8)) : Buf (Elt F) ((c : Thread nD τ).loc cc0_scratch8) :=
  ((Memref.whole cc0_scratch8 : Memref sig .tc .vmem S128x1024 .bf16).access RC2b0).write (Elt F) g8 (k0_pay20 ((Memref.whole cc0_scratch0 : Memref sig .tc .vmem S1024x1024 .f32).view.readAt (Elt F) (RA32 c).toLoadRect a)) Finset.univ

/-- The accumulator after the partner's rows of the second stage, column block 1, are added on the rows given away. -/
def addP1 (c : Dev nD) (a : Buf (Elt F) ((c : Thread nD τ).loc cc0_scratch0)) (g : Buf (Elt F) ((c : Thread nD τ).loc cc0_scratch1)) : Buf (Elt F) ((c : Thread nD τ).loc cc0_scratch0) :=
  ((Memref.whole cc0_scratch0 : Memref sig .tc .vmem S1024x1024 .f32).access (RA18 c)).write (Elt F) a
    (k0_pay11 ((Memref.whole cc0_scratch0 : Memref sig .tc .vmem S1024x1024 .f32).view.readAt (Elt F) (RA18 c).toLoadRect a) ((Memref.whole cc0_scratch1 : Memref sig .tc .vmem S512x1024 .bf16).view.readAt (Elt F) (RR19 c).toLoadRect g)) Finset.univ
/-- The second stage's send buffer after column block 1's rows to give away are rounded into it. -/
def sendP1 (c : Dev nD) (a : Buf (Elt F) ((c : Thread nD τ).loc cc0_scratch0)) (g7 : Buf (Elt F) ((c : Thread nD τ).loc cc0_scratch7)) : Buf (Elt F) ((c : Thread nD τ).loc cc0_scratch7) :=
  ((Memref.whole cc0_scratch7 : Memref sig .tc .vmem S256x1024 .bf16).access RC1b1).write (Elt F) g7 (k0_pay12 ((Memref.whole cc0_scratch0 : Memref sig .tc .vmem S1024x1024 .f32).view.readAt (Elt F) (RA18 c).toLoadRect a)) Finset.univ
/-- The accumulator after the partner's rows of the second stage, column block 1, are added on the rows kept. -/
def addQ1 (c : Dev nD) (a : Buf (Elt F) ((c : Thread nD τ).loc cc0_scratch0)) (g : Buf (Elt F) ((c : Thread nD τ).loc cc0_scratch1)) : Buf (Elt F) ((c : Thread nD τ).loc cc0_scratch0) :=
  ((Memref.whole cc0_scratch0 : Memref sig .tc .vmem S1024x1024 .f32).access (RA28 c)).write (Elt F) a
    (k0_pay17 ((Memref.whole cc0_scratch0 : Memref sig .tc .vmem S1024x1024 .f32).view.readAt (Elt F) (RA28 c).toLoadRect a) ((Memref.whole cc0_scratch1 : Memref sig .tc .vmem S512x1024 .bf16).view.readAt (Elt F) (RR29 c).toLoadRect g)) Finset.univ
/-- The accumulator after the partner's rows of the third stage, column block 1, are added on the rows given away. -/
def addR1 (c : Dev nD) (a : Buf (Elt F) ((c : Thread nD τ).loc cc0_scratch0)) (g : Buf (Elt F) ((c : Thread nD τ).loc cc0_scratch2)) : Buf (Elt F) ((c : Thread nD τ).loc cc0_scratch0) :=
  ((Memref.whole cc0_scratch0 : Memref sig .tc .vmem S1024x1024 .f32).access (RA36 c)).write (Elt F) a
    (k0_pay21 ((Memref.whole cc0_scratch0 : Memref sig .tc .vmem S1024x1024 .f32).view.readAt (Elt F) (RA36 c).toLoadRect a) ((Memref.whole cc0_scratch2 : Memref sig .tc .vmem S256x1024 .bf16).view.readAt (Elt F) (RR37 c).toLoadRect g)) Finset.univ
/-- The third stage's send buffer after column block 1's rows to give away are rounded into it. -/
def sendR1 (c : Dev nD) (a : Buf (Elt F) ((c : Thread nD τ).loc cc0_scratch0)) (g8 : Buf (Elt F) ((c : Thread nD τ).loc cc0_scratch8)) : Buf (Elt F) ((c : Thread nD τ).loc cc0_scratch8) :=
  ((Memref.whole cc0_scratch8 : Memref sig .tc .vmem S128x1024 .bf16).access RC2b1).write (Elt F) g8 (k0_pay22 ((Memref.whole cc0_scratch0 : Memref sig .tc .vmem S1024x1024 .f32).view.readAt (Elt F) (RA36 c).toLoadRect a)) Finset.univ

/-- The accumulator after the partner's rows of the second stage, column block 2, are added on the rows given away. -/
def addP2 (c : Dev nD) (a : Buf (Elt F) ((c : Thread nD τ).loc cc0_scratch0)) (g : Buf (Elt F) ((c : Thread nD τ).loc cc0_scratch1)) : Buf (Elt F) ((c : Thread nD τ).loc cc0_scratch0) :=
  ((Memref.whole cc0_scratch0 : Memref sig .tc .vmem S1024x1024 .f32).access (RA22 c)).write (Elt F) a
    (k0_pay13 ((Memref.whole cc0_scratch0 : Memref sig .tc .vmem S1024x1024 .f32).view.readAt (Elt F) (RA22 c).toLoadRect a) ((Memref.whole cc0_scratch1 : Memref sig .tc .vmem S512x1024 .bf16).view.readAt (Elt F) (RR23 c).toLoadRect g)) Finset.univ
/-- The second stage's send buffer after column block 2's rows to give away are rounded into it. -/
def sendP2 (c : Dev nD) (a : Buf (Elt F) ((c : Thread nD τ).loc cc0_scratch0)) (g7 : Buf (Elt F) ((c : Thread nD τ).loc cc0_scratch7)) : Buf (Elt F) ((c : Thread nD τ).loc cc0_scratch7) :=
  ((Memref.whole cc0_scratch7 : Memref sig .tc .vmem S256x1024 .bf16).access RC1b2).write (Elt F) g7 (k0_pay14 ((Memref.whole cc0_scratch0 : Memref sig .tc .vmem S1024x1024 .f32).view.readAt (Elt F) (RA22 c).toLoadRect a)) Finset.univ
/-- The accumulator after the partner's rows of the second stage, column block 2, are added on the rows kept. -/
def addQ2 (c : Dev nD) (a : Buf (Elt F) ((c : Thread nD τ).loc cc0_scratch0)) (g : Buf (Elt F) ((c : Thread nD τ).loc cc0_scratch1)) : Buf (Elt F) ((c : Thread nD τ).loc cc0_scratch0) :=
  ((Memref.whole cc0_scratch0 : Memref sig .tc .vmem S1024x1024 .f32).access (RA30 c)).write (Elt F) a
    (k0_pay18 ((Memref.whole cc0_scratch0 : Memref sig .tc .vmem S1024x1024 .f32).view.readAt (Elt F) (RA30 c).toLoadRect a) ((Memref.whole cc0_scratch1 : Memref sig .tc .vmem S512x1024 .bf16).view.readAt (Elt F) (RR31 c).toLoadRect g)) Finset.univ
/-- The accumulator after the partner's rows of the third stage, column block 2, are added on the rows given away. -/
def addR2 (c : Dev nD) (a : Buf (Elt F) ((c : Thread nD τ).loc cc0_scratch0)) (g : Buf (Elt F) ((c : Thread nD τ).loc cc0_scratch2)) : Buf (Elt F) ((c : Thread nD τ).loc cc0_scratch0) :=
  ((Memref.whole cc0_scratch0 : Memref sig .tc .vmem S1024x1024 .f32).access (RA40 c)).write (Elt F) a
    (k0_pay24 (k0_pay23 ((Memref.whole cc0_scratch0 : Memref sig .tc .vmem S1024x1024 .f32).view.readAt (Elt F) (RA40 c).toLoadRect a) ((Memref.whole cc0_scratch2 : Memref sig .tc .vmem S256x1024 .bf16).view.readAt (Elt F) (RR41 c).toLoadRect g))) Finset.univ
/-- The third stage's send buffer after column block 2's rows to give away are rounded into it. -/
def sendR2 (c : Dev nD) (a : Buf (Elt F) ((c : Thread nD τ).loc cc0_scratch0)) (g8 : Buf (Elt F) ((c : Thread nD τ).loc cc0_scratch8)) : Buf (Elt F) ((c : Thread nD τ).loc cc0_scratch8) :=
  ((Memref.whole cc0_scratch8 : Memref sig .tc .vmem S128x1024 .bf16).access RC2b2).write (Elt F) g8 (k0_pay25 ((Memref.whole cc0_scratch0 : Memref sig .tc .vmem S1024x1024 .f32).view.readAt (Elt F) (RA40 c).toLoadRect a)) Finset.univ

/-- The accumulator's contents along the segment, from its contents `fa` at entry and the rows received. -/
def dcc1 (c : Dev nD) (fa : Buf (Elt F) ((c : Thread nD τ).loc cc0_scratch0)) (g000 : Buf (Elt F) ((c : Thread nD τ).loc cc0_scratch1)) : Buf (Elt F) ((c : Thread nD τ).loc cc0_scratch0) := addP0 c (fa) g000
def dcc2 (c : Dev nD) (fa : Buf (Elt F) ((c : Thread nD τ).loc cc0_scratch0)) (g000 g010 : Buf (Elt F) ((c : Thread nD τ).loc cc0_scratch1)) : Buf (Elt F) ((c : Thread nD τ).loc cc0_scratch0) := addP1 c (dcc1 c fa g000) g010
def dcc3 (c : Dev nD) (fa : Buf (Elt F) ((c : Thread nD τ).loc cc0_scratch0)) (g000 g010 g020 : Buf (Elt F) ((c : Thread nD τ).loc cc0_scratch1)) : Buf (Elt F) ((c : Thread nD τ).loc cc0_scratch0) := addP2 c (dcc2 c fa g000 g010) g020
def dcc4 (c : Dev nD) (fa : Buf (Elt F) ((c : Thread nD τ).loc cc0_scratch0)) (g000 g010 g020 g001 : Buf (Elt F) ((c : Thread nD τ).loc cc0_scratch1)) : Buf (Elt F) ((c : Thread nD τ).loc cc0_scratch0) := addQ0 c (dcc3 c fa g000 g010 g020) g001
def dcc5 (c : Dev nD) (fa : Buf (Elt F) ((c : Thread nD τ).loc cc0_scratch0)) (g000 g010 g020 g001 g011 : Buf (Elt F) ((c : Thread nD τ).loc cc0_scratch1)) : Buf (Elt F) ((c : Thread nD τ).loc cc0_scratch0) := addQ1 c (dcc4 c fa g000 g010 g020 g001) g011
def dcc6 (c : Dev nD) (fa : Buf (Elt F) ((c : Thread nD τ).loc cc0_scratch0)) (g000 g010 g020 g001 g011 g021 : Buf (Elt F) ((c : Thread nD τ).loc cc0_scratch1)) : Buf (Elt F) ((c : Thread nD τ).loc cc0_scratch0) := addQ2 c (dcc5 c fa g000 g010 g020 g001 g011) g021
def dcc7 (c : Dev nD) (fa : Buf (Elt F) ((c : Thread nD τ).loc cc0_scratch0)) (g000 g010 g020 g001 g011 g021 : Buf (Elt F) ((c : Thread nD τ).loc cc0_scratch1)) (g100 : Buf (Elt F) ((c : Thread nD τ).loc cc0_scratch2)) : Buf (Elt F) ((c : Thread nD τ).loc cc0_scratch0) := addR0 c (dcc6 c fa g000 g010 g020 g001 g011 g021) g100
def dcc8 (c : Dev nD) (fa : Buf (Elt F) ((c : Thread nD τ).loc cc0_scratch0)) (g000 g010 g020 g001 g011 g021 : Buf (Elt F) ((c : Thread nD τ).loc cc0_scratch1)) (g100 g110 : Buf (Elt F) ((c : Thread nD τ).loc cc0_scratch2)) : Buf (Elt F) ((c : Thread nD τ).loc cc0_scratch0) := addR1 c (dcc7 c fa g000 g010 g020 g001 g011 g021 g100) g110
def dcc9 (c : Dev nD) (fa : Buf (Elt F) ((c : Thread nD τ).loc cc0_scratch0)) (g000 g010 g020 g001 g011 g021 : Buf (Elt F) ((c : Thread nD τ).loc cc0_scratch1)) (g100 g110 g120 : Buf (Elt F) ((c : Thread nD τ).loc cc0_scratch2)) : Buf (Elt F) ((c : Thread nD τ).loc cc0_scratch0) := addR2 c (dcc8 c fa g000 g010 g020 g001 g011 g021 g100 g110) g120

variable (ct : Contract F) (c : Dev nD) (YA : S1024x512.Idx → F .f32) (YB : S512x1024.Idx → F .f32)

/-! ## The steps of the segment, one column block at a time -/

/-- What a store into the accumulator leaves untouched: right contents on a rectangle that misses the stored one on some axis stay right. -/
theorem fr (lvl : ℕ) {offW szW offS szS : Fin 2 → ℕ} {rW qW rS qS : ℕ} (inbW : ∀ a, offW a + szW a ≤ S1024x1024.size a) (heqW : offW = ![rW, qW])
    (w : (Rect.unit (s := S1024x1024) offW szW inbW).shape.Idx → F .f32) (inbS : ∀ a, offS a + szS a ≤ S1024x1024.size a) (heqS : offS = ![rS, qS])
    (a : S1024x1024.Idx → F .f32)
    (h : ∀ i ∈ ((View.whole cc0_scratch0).slice (Rect.unit (s := S1024x1024) offS szS inbS)).set, ct.okAcc lvl c (i 0).val (i 1).val (a i))
    (hd : (rS + szS 0 ≤ rW ∨ rW + szW 0 ≤ rS) ∨ (qS + szS 1 ≤ qW ∨ qW + szW 1 ≤ qS)) :
    ∀ i ∈ ((View.whole cc0_scratch0).slice (Rect.unit (s := S1024x1024) offS szS inbS)).set,
      ct.okAcc lvl c (i 0).val (i 1).val ((((View.whole cc0_scratch0).slice (Rect.unit (s := S1024x1024) offW szW inbW)).write (Elt F) a w Finset.univ) i) :=
  SegBCore.keep_of (Val := Elt F) cc0_scratch0 a (fun i v => ct.okAcc lvl c (i 0).val (i 1).val v) inbW heqW w inbS heqS inbS heqS h
    (fun _ => ⟨Nat.le_refl _, Nat.le_refl _⟩) (hd.elim (fun h0 => ⟨0, h0⟩) (fun h1 => ⟨1, h1⟩))

/-- Column block 0: the rows handed on at stage 1, after the stage-0 partner's first piece is added and the sum rounded, are right for the send buffer. -/
theorem stepP0 (laws : Laws ct c YA YB) (a : S1024x1024.Idx → F .f32) (g : S512x1024.Idx → F .bf16)
    (ha : ∀ i ∈ ((View.whole cc0_scratch0).slice (Rect.unit (s := S1024x1024) (k0_off10 c) S512x384.size (k0_off10_inb c))).set, ct.okAcc 0 c (i 0).val (i 1).val (a i))
    (hg : ∀ i ∈ (dst_rs_0_0_0 (peer 0 0 c)).view.set, pRS ct 0 c (sh := S512x1024) i (g i)) :
    ∀ j : S256x384.Idx, ct.okSS 1 c (j 0).val (0 + (j 1).val)
      (k0_pay10 ((Memref.whole cc0_scratch0 : Memref sig .tc .vmem S1024x1024 .f32).view.readAt (Elt F) (RA14 c).toLoadRect (addP0 c a g)) j) := by
  have hb := bit_le_one 0 1 c
  have hpeer : k0_off2 (peer 0 0 c) = ![(1 - bit 0 1 c) * 256, 0] := by
    rw [Geo.off2_eq, bit_peer_succ 0 0 1 c rfl]
  have hY : ∀ j : S256x384.Idx, ct.okSS 0 (peer 0 0 c) ((1 - bit 0 1 c) * half 1 + (j 0).val) (0 + (j 1).val)
      ((Memref.whole cc0_scratch1 : Memref sig .tc .vmem S512x1024 .bf16).view.readAt (Elt F) (Rect.unit (s := S512x1024) (k0_off15 c) S256x384.size (k0_off15_inb c)).toLoadRect g j) := fun j => by
    obtain ⟨y, hy, hP⟩ := SegBCore.load_sub_ok (Val := Elt F) cc0_scratch1 g (fun i v => pRS ct 0 c (sh := S512x1024) i v)
      (k0_off2_inb (peer 0 0 c)) hpeer hg (k0_off15_inb c) (Geo.off15_eq c) (fun a => ⟨Nat.le_refl _, Nat.le_refl _⟩) j
    have hj1 : (j 1).val < 384 := (j 1).isLt
    rw [SegBCore.half_1]
    exact SegBCore.pRS_to_okSS ct 0 0 c rfl y _ _ _ (hy 0) (hy 1) (SegAValP.blk_of_lt (by omega)) hP
  have hA : ∀ i ∈ ((View.whole cc0_scratch0).slice (Rect.unit (s := S1024x1024) (k0_off14 c) S256x384.size (k0_off14_inb c))).set, ct.okAcc 0 c (i 0).val (i 1).val (a i) := fun i hi => ha i (by
    have hm := (Plumb.mem_slice_unit_whole cc0_scratch0 (k0_off14_inb c) (Geo.off14_eq c) i).mp hi
    exact (Plumb.mem_slice_unit_whole cc0_scratch0 (k0_off10_inb c) (Geo.off10_eq c) i).mpr (Fin.forall_fin_two.mpr
      ⟨by have h' : lo 0 c 1 + (1 - bit 0 1 c) * 256 ≤ (i 0).val ∧ (i 0).val < lo 0 c 1 + (1 - bit 0 1 c) * 256 + 256 := hm 0
          show lo 0 c 1 ≤ (i 0).val ∧ (i 0).val < lo 0 c 1 + 512
          omega, hm 1⟩))
  unfold addP0
  exact SegBCore.ss_core ct c YA YB laws 0 1 (by decide) rfl 0 (k0_off14_inb c)
    ((Geo.off14_eq c).trans (by show _ = ![lo 0 c 1 + (1 - bit 0 1 c) * half 1, 0]; rw [SegBCore.half_1]))
    (fun q h1 h2 => SegAValP.blk_of_lt (by have h2' : q < 0 + 384 := h2; omega)) a hA _ hY _
    (fun j => PayPoint.pay9_at _ _ j) _ (fun j => PayPoint.pay10_at _ j)

theorem frP0 (lvl : ℕ) {offS szS : Fin 2 → ℕ} {rS qS : ℕ} (inbS : ∀ a, offS a + szS a ≤ S1024x1024.size a) (heqS : offS = ![rS, qS])
    (a : S1024x1024.Idx → F .f32) (g : S512x1024.Idx → F .bf16)
    (h : ∀ i ∈ ((View.whole cc0_scratch0).slice (Rect.unit (s := S1024x1024) offS szS inbS)).set, ct.okAcc lvl c (i 0).val (i 1).val (a i))
    (hd : (rS + szS 0 ≤ lo 0 c 1 + (1 - bit 0 1 c) * 256 ∨ lo 0 c 1 + (1 - bit 0 1 c) * 256 + 256 ≤ rS) ∨ (qS + szS 1 ≤ 0 ∨ 0 + 384 ≤ qS)) :
    ∀ i ∈ ((View.whole cc0_scratch0).slice (Rect.unit (s := S1024x1024) offS szS inbS)).set, ct.okAcc lvl c (i 0).val (i 1).val (addP0 c a g i) := by
  unfold addP0
  exact fr ct c lvl (k0_off14_inb c) (Geo.off14_eq c) _ inbS heqS a h hd

/-- Column block 0: adding the second piece of the stage-0 partner to the rows kept brings them to the sum over two devices. -/
theorem stepQ0 (laws : Laws ct c YA YB) (a : S1024x1024.Idx → F .f32) (g : S512x1024.Idx → F .bf16)
    (ha : ∀ i ∈ ((View.whole cc0_scratch0).slice (Rect.unit (s := S1024x1024) (k0_off26 c) S256x384.size (k0_off26_inb c))).set, ct.okAcc 0 c (i 0).val (i 1).val (a i))
    (hg : ∀ i ∈ (dst_rs_0_0_1 (peer 0 0 c)).view.set, pRS ct 0 c (sh := S512x1024) i (g i)) :
    ∀ i ∈ ((View.whole cc0_scratch0).slice (Rect.unit (s := S1024x1024) (k0_off26 c) S256x384.size (k0_off26_inb c))).set, ct.okAcc 1 c (i 0).val (i 1).val (addQ0 c a g i) := by
  have hpeer : k0_off3 (peer 0 0 c) = ![bit 0 1 c * 256, 0] := by
    rw [Geo.off3_eq, bit_peer_succ 0 0 1 c rfl]
  have hY : ∀ j : S256x384.Idx, ct.okSS 0 (peer 0 0 c) (bit 0 1 c * half 1 + (j 0).val) (0 + (j 1).val)
      ((Memref.whole cc0_scratch1 : Memref sig .tc .vmem S512x1024 .bf16).view.readAt (Elt F) (Rect.unit (s := S512x1024) (k0_off27 c) S256x384.size (k0_off27_inb c)).toLoadRect g j) := fun j => by
    obtain ⟨y, hy, hP⟩ := SegBCore.load_sub_ok (Val := Elt F) cc0_scratch1 g (fun i v => pRS ct 0 c (sh := S512x1024) i v)
      (k0_off3_inb (peer 0 0 c)) hpeer hg (k0_off27_inb c) (Geo.off27_eq c) (fun a => ⟨Nat.le_refl _, Nat.le_refl _⟩) j
    have hj1 : (j 1).val < 384 := (j 1).isLt
    rw [SegBCore.half_1]
    exact SegBCore.pRS_to_okSS ct 0 0 c rfl y _ _ _ (hy 0) (hy 1) (SegAValP.blk_of_lt (by omega)) hP
  unfold addQ0
  exact SegBCore.keep_core ct c YA YB laws 0 1 (by decide) rfl 0 (k0_off26_inb c)
    ((Geo.off26_eq c).trans (by show ![lo 0 c 2, 0] = ![lo 0 c 1 + bit 0 1 c * half 1, 0]; rw [show lo 0 c 2 = lo 0 c 1 + bit 0 1 c * half 1 from SegBCore.lo_succ 0 c 1]))
    (fun q h1 h2 => SegAValP.blk_of_lt (by have h2' : q < 0 + 384 := h2; omega)) a ha _ hY _ (fun j => (PayPoint.pay16_at _ j).trans (PayPoint.pay15_at _ _ j))

theorem frQ0 (lvl : ℕ) {offS szS : Fin 2 → ℕ} {rS qS : ℕ} (inbS : ∀ a, offS a + szS a ≤ S1024x1024.size a) (heqS : offS = ![rS, qS])
    (a : S1024x1024.Idx → F .f32) (g : S512x1024.Idx → F .bf16)
    (h : ∀ i ∈ ((View.whole cc0_scratch0).slice (Rect.unit (s := S1024x1024) offS szS inbS)).set, ct.okAcc lvl c (i 0).val (i 1).val (a i))
    (hd : (rS + szS 0 ≤ lo 0 c 2 ∨ lo 0 c 2 + 256 ≤ rS) ∨ (qS + szS 1 ≤ 0 ∨ 0 + 384 ≤ qS)) :
    ∀ i ∈ ((View.whole cc0_scratch0).slice (Rect.unit (s := S1024x1024) offS szS inbS)).set, ct.okAcc lvl c (i 0).val (i 1).val (addQ0 c a g i) := by
  unfold addQ0
  exact fr ct c lvl (k0_off26_inb c) (Geo.off26_eq c) _ inbS heqS a h hd

/-- Column block 0: the rows handed on at stage 2, after the stage-1 partner's first piece is added and the sum rounded, are right for the send buffer. -/
theorem stepR0 (laws : Laws ct c YA YB) (a : S1024x1024.Idx → F .f32) (g : S256x1024.Idx → F .bf16)
    (ha : ∀ i ∈ ((View.whole cc0_scratch0).slice (Rect.unit (s := S1024x1024) (k0_off26 c) S256x384.size (k0_off26_inb c))).set, ct.okAcc 1 c (i 0).val (i 1).val (a i))
    (hg : ∀ i ∈ (dst_rs_1_0_0 (peer 0 1 c)).view.set, pRS ct 1 c (sh := S256x1024) i (g i)) :
    ∀ j : S128x384.Idx, ct.okSS 2 c (j 0).val (0 + (j 1).val)
      (k0_pay20 ((Memref.whole cc0_scratch0 : Memref sig .tc .vmem S1024x1024 .f32).view.readAt (Elt F) (RA32 c).toLoadRect (addR0 c a g)) j) := by
  have hb := bit_le_one 0 2 c
  have hpeer : k0_off16 (peer 0 1 c) = ![(1 - bit 0 2 c) * 128, 0] := by
    rw [Geo.off16_eq, bit_peer_succ 0 1 2 c rfl]
  have hY : ∀ j : S128x384.Idx, ct.okSS 1 (peer 0 1 c) ((1 - bit 0 2 c) * half 2 + (j 0).val) (0 + (j 1).val)
      ((Memref.whole cc0_scratch2 : Memref sig .tc .vmem S256x1024 .bf16).view.readAt (Elt F) (Rect.unit (s := S256x1024) (k0_off33 c) S128x384.size (k0_off33_inb c)).toLoadRect g j) := fun j => by
    obtain ⟨y, hy, hP⟩ := SegBCore.load_sub_ok (Val := Elt F) cc0_scratch2 g (fun i v => pRS ct 1 c (sh := S256x1024) i v)
      (k0_off16_inb (peer 0 1 c)) hpeer hg (k0_off33_inb c) (Geo.off33_eq c) (fun a => ⟨Nat.le_refl _, Nat.le_refl _⟩) j
    have hj1 : (j 1).val < 384 := (j 1).isLt
    rw [SegBCore.half_2]
    exact SegBCore.pRS_to_okSS ct 1 0 c rfl y _ _ _ (hy 0) (hy 1) (SegAValP.blk_of_lt (by omega)) hP
  have hA : ∀ i ∈ ((View.whole cc0_scratch0).slice (Rect.unit (s := S1024x1024) (k0_off32 c) S128x384.size (k0_off32_inb c))).set, ct.okAcc 1 c (i 0).val (i 1).val (a i) := fun i hi => ha i (by
    have hm := (Plumb.mem_slice_unit_whole cc0_scratch0 (k0_off32_inb c) (Geo.off32_eq c) i).mp hi
    exact (Plumb.mem_slice_unit_whole cc0_scratch0 (k0_off26_inb c) (Geo.off26_eq c) i).mpr (Fin.forall_fin_two.mpr
      ⟨by have h' : lo 0 c 2 + (1 - bit 0 2 c) * 128 ≤ (i 0).val ∧ (i 0).val < lo 0 c 2 + (1 - bit 0 2 c) * 128 + 128 := hm 0
          show lo 0 c 2 ≤ (i 0).val ∧ (i 0).val < lo 0 c 2 + 256
          omega, hm 1⟩))
  unfold addR0
  exact SegBCore.ss_core ct c YA YB laws 1 2 (by decide) rfl 0 (k0_off32_inb c)
    ((Geo.off32_eq c).trans (by show _ = ![lo 0 c 2 + (1 - bit 0 2 c) * half 2, 0]; rw [SegBCore.half_2]))
    (fun q h1 h2 => SegAValP.blk_of_lt (by have h2' : q < 0 + 384 := h2; omega)) a hA _ hY _
    (fun j => PayPoint.pay19_at _ _ j) _ (fun j => PayPoint.pay20_at _ j)

theorem frR0 (lvl : ℕ) {offS szS : Fin 2 → ℕ} {rS qS : ℕ} (inbS : ∀ a, offS a + szS a ≤ S1024x1024.size a) (heqS : offS = ![rS, qS])
    (a : S1024x1024.Idx → F .f32) (g : S256x1024.Idx → F .bf16)
    (h : ∀ i ∈ ((View.whole cc0_scratch0).slice (Rect.unit (s := S1024x1024) offS szS inbS)).set, ct.okAcc lvl c (i 0).val (i 1).val (a i))
    (hd : (rS + szS 0 ≤ lo 0 c 2 + (1 - bit 0 2 c) * 128 ∨ lo 0 c 2 + (1 - bit 0 2 c) * 128 + 128 ≤ rS) ∨ (qS + szS 1 ≤ 0 ∨ 0 + 384 ≤ qS)) :
    ∀ i ∈ ((View.whole cc0_scratch0).slice (Rect.unit (s := S1024x1024) offS szS inbS)).set, ct.okAcc lvl c (i 0).val (i 1).val (addR0 c a g i) := by
  unfold addR0
  exact fr ct c lvl (k0_off32_inb c) (Geo.off32_eq c) _ inbS heqS a h hd

/-- Column block 1: the rows handed on at stage 1, after the stage-0 partner's first piece is added and the sum rounded, are right for the send buffer. -/
theorem stepP1 (laws : Laws ct c YA YB) (a : S1024x1024.Idx → F .f32) (g : S512x1024.Idx → F .bf16)
    (ha : ∀ i ∈ ((View.whole cc0_scratch0).slice (Rect.unit (s := S1024x1024) (k0_off12 c) S512x384.size (k0_off12_inb c))).set, ct.okAcc 0 c (i 0).val (i 1).val (a i))
    (hg : ∀ i ∈ (dst_rs_0_1_0 (peer 1 0 c)).view.set, pRS ct 0 c (sh := S512x1024) i (g i)) :
    ∀ j : S256x384.Idx, ct.okSS 1 c (j 0).val (384 + (j 1).val)
      (k0_pay12 ((Memref.whole cc0_scratch0 : Memref sig .tc .vmem S1024x1024 .f32).view.readAt (Elt F) (RA18 c).toLoadRect (addP1 c a g)) j) := by
  have hb := bit_le_one 1 1 c
  have hpeer : k0_off5 (peer 1 0 c) = ![(1 - bit 1 1 c) * 256, 384] := by
    rw [Geo.off5_eq, bit_peer_succ 1 0 1 c rfl]
  have hY : ∀ j : S256x384.Idx, ct.okSS 0 (peer 1 0 c) ((1 - bit 1 1 c) * half 1 + (j 0).val) (384 + (j 1).val)
      ((Memref.whole cc0_scratch1 : Memref sig .tc .vmem S512x1024 .bf16).view.readAt (Elt F) (Rect.unit (s := S512x1024) (k0_off19 c) S256x384.size (k0_off19_inb c)).toLoadRect g j) := fun j => by
    obtain ⟨y, hy, hP⟩ := SegBCore.load_sub_ok (Val := Elt F) cc0_scratch1 g (fun i v => pRS ct 0 c (sh := S512x1024) i v)
      (k0_off5_inb (peer 1 0 c)) hpeer hg (k0_off19_inb c) (Geo.off19_eq c) (fun a => ⟨Nat.le_refl _, Nat.le_refl _⟩) j
    have hj1 : (j 1).val < 384 := (j 1).isLt
    rw [SegBCore.half_1]
    exact SegBCore.pRS_to_okSS ct 0 1 c rfl y _ _ _ (hy 0) (hy 1) (SegAValP.blk_of_mid (by omega) (by omega)) hP
  have hA : ∀ i ∈ ((View.whole cc0_scratch0).slice (Rect.unit (s := S1024x1024) (k0_off18 c) S256x384.size (k0_off18_inb c))).set, ct.okAcc 0 c (i 0).val (i 1).val (a i) := fun i hi => ha i (by
    have hm := (Plumb.mem_slice_unit_whole cc0_scratch0 (k0_off18_inb c) (Geo.off18_eq c) i).mp hi
    exact (Plumb.mem_slice_unit_whole cc0_scratch0 (k0_off12_inb c) (Geo.off12_eq c) i).mpr (Fin.forall_fin_two.mpr
      ⟨by have h' : lo 1 c 1 + (1 - bit 1 1 c) * 256 ≤ (i 0).val ∧ (i 0).val < lo 1 c 1 + (1 - bit 1 1 c) * 256 + 256 := hm 0
          show lo 1 c 1 ≤ (i 0).val ∧ (i 0).val < lo 1 c 1 + 512
          omega, hm 1⟩))
  unfold addP1
  exact SegBCore.ss_core ct c YA YB laws 0 1 (by decide) rfl 1 (k0_off18_inb c)
    ((Geo.off18_eq c).trans (by show _ = ![lo 1 c 1 + (1 - bit 1 1 c) * half 1, 384]; rw [SegBCore.half_1]))
    (fun q h1 h2 => SegAValP.blk_of_mid (by have h2' : q < 384 + 384 := h2; omega) (by have h2' : q < 384 + 384 := h2; omega)) a hA _ hY _
    (fun j => PayPoint.pay11_at _ _ j) _ (fun j => PayPoint.pay12_at _ j)

theorem frP1 (lvl : ℕ) {offS szS : Fin 2 → ℕ} {rS qS : ℕ} (inbS : ∀ a, offS a + szS a ≤ S1024x1024.size a) (heqS : offS = ![rS, qS])
    (a : S1024x1024.Idx → F .f32) (g : S512x1024.Idx → F .bf16)
    (h : ∀ i ∈ ((View.whole cc0_scratch0).slice (Rect.unit (s := S1024x1024) offS szS inbS)).set, ct.okAcc lvl c (i 0).val (i 1).val (a i))
    (hd : (rS + szS 0 ≤ lo 1 c 1 + (1 - bit 1 1 c) * 256 ∨ lo 1 c 1 + (1 - bit 1 1 c) * 256 + 256 ≤ rS) ∨ (qS + szS 1 ≤ 384 ∨ 384 + 384 ≤ qS)) :
    ∀ i ∈ ((View.whole cc0_scratch0).slice (Rect.unit (s := S1024x1024) offS szS inbS)).set, ct.okAcc lvl c (i 0).val (i 1).val (addP1 c a g i) := by
  unfold addP1
  exact fr ct c lvl (k0_off18_inb c) (Geo.off18_eq c) _ inbS heqS a h hd

/-- Column block 1: adding the second piece of the stage-0 partner to the rows kept brings them to the sum over two devices. -/
theorem stepQ1 (laws : Laws ct c YA YB) (a : S1024x1024.Idx → F .f32) (g : S512x1024.Idx → F .bf16)
    (ha : ∀ i ∈ ((View.whole cc0_scratch0).slice (Rect.unit (s := S1024x1024) (k0_off28 c) S256x384.size (k0_off28_inb c))).set, ct.okAcc 0 c (i 0).val (i 1).val (a i))
    (hg : ∀ i ∈ (dst_rs_0_1_1 (peer 1 0 c)).view.set, pRS ct 0 c (sh := S512x1024) i (g i)) :
    ∀ i ∈ ((View.whole cc0_scratch0).slice (Rect.unit (s := S1024x1024) (k0_off28 c) S256x384.size (k0_off28_inb c))).set, ct.okAcc 1 c (i 0).val (i 1).val (addQ1 c a g i) := by
  have hpeer : k0_off6 (peer 1 0 c) = ![bit 1 1 c * 256, 384] := by
    rw [Geo.off6_eq, bit_peer_succ 1 0 1 c rfl]
  have hY : ∀ j : S256x384.Idx, ct.okSS 0 (peer 1 0 c) (bit 1 1 c * half 1 + (j 0).val) (384 + (j 1).val)
      ((Memref.whole cc0_scratch1 : Memref sig .tc .vmem S512x1024 .bf16).view.readAt (Elt F) (Rect.unit (s := S512x1024) (k0_off29 c) S256x384.size (k0_off29_inb c)).toLoadRect g j) := fun j => by
    obtain ⟨y, hy, hP⟩ := SegBCore.load_sub_ok (Val := Elt F) cc0_scratch1 g (fun i v => pRS ct 0 c (sh := S512x1024) i v)
      (k0_off6_inb (peer 1 0 c)) hpeer hg (k0_off29_inb c) (Geo.off29_eq c) (fun a => ⟨Nat.le_refl _, Nat.le_refl _⟩) j
    have hj1 : (j 1).val < 384 := (j 1).isLt
    rw [SegBCore.half_1]
    exact SegBCore.pRS_to_okSS ct 0 1 c rfl y _ _ _ (hy 0) (hy 1) (SegAValP.blk_of_mid (by omega) (by omega)) hP
  unfold addQ1
  exact SegBCore.keep_core ct c YA YB laws 0 1 (by decide) rfl 1 (k0_off28_inb c)
    ((Geo.off28_eq c).trans (by show ![lo 1 c 2, 384] = ![lo 1 c 1 + bit 1 1 c * half 1, 384]; rw [show lo 1 c 2 = lo 1 c 1 + bit 1 1 c * half 1 from SegBCore.lo_succ 1 c 1]))
    (fun q h1 h2 => SegAValP.blk_of_mid (by have h2' : q < 384 + 384 := h2; omega) (by have h2' : q < 384 + 384 := h2; omega)) a ha _ hY _ (fun j => PayPoint.pay17_at _ _ j)

theorem frQ1 (lvl : ℕ) {offS szS : Fin 2 → ℕ} {rS qS : ℕ} (inbS : ∀ a, offS a + szS a ≤ S1024x1024.size a) (heqS : offS = ![rS, qS])
    (a : S1024x1024.Idx → F .f32) (g : S512x1024.Idx → F .bf16)
    (h : ∀ i ∈ ((View.whole cc0_scratch0).slice (Rect.unit (s := S1024x1024) offS szS inbS)).set, ct.okAcc lvl c (i 0).val (i 1).val (a i))
    (hd : (rS + szS 0 ≤ lo 1 c 2 ∨ lo 1 c 2 + 256 ≤ rS) ∨ (qS + szS 1 ≤ 384 ∨ 384 + 384 ≤ qS)) :
    ∀ i ∈ ((View.whole cc0_scratch0).slice (Rect.unit (s := S1024x1024) offS szS inbS)).set, ct.okAcc lvl c (i 0).val (i 1).val (addQ1 c a g i) := by
  unfold addQ1
  exact fr ct c lvl (k0_off28_inb c) (Geo.off28_eq c) _ inbS heqS a h hd

/-- Column block 1: the rows handed on at stage 2, after the stage-1 partner's first piece is added and the sum rounded, are right for the send buffer. -/
theorem stepR1 (laws : Laws ct c YA YB) (a : S1024x1024.Idx → F .f32) (g : S256x1024.Idx → F .bf16)
    (ha : ∀ i ∈ ((View.whole cc0_scratch0).slice (Rect.unit (s := S1024x1024) (k0_off28 c) S256x384.size (k0_off28_inb c))).set, ct.okAcc 1 c (i 0).val (i 1).val (a i))
    (hg : ∀ i ∈ (dst_rs_1_1_0 (peer 1 1 c)).view.set, pRS ct 1 c (sh := S256x1024) i (g i)) :
    ∀ j : S128x384.Idx, ct.okSS 2 c (j 0).val (384 + (j 1).val)
      (k0_pay22 ((Memref.whole cc0_scratch0 : Memref sig .tc .vmem S1024x1024 .f32).view.readAt (Elt F) (RA36 c).toLoadRect (addR1 c a g)) j) := by
  have hb := bit_le_one 1 2 c
  have hpeer : k0_off20 (peer 1 1 c) = ![(1 - bit 1 2 c) * 128, 384] := by
    rw [Geo.off20_eq, bit_peer_succ 1 1 2 c rfl]
  have hY : ∀ j : S128x384.Idx, ct.okSS 1 (peer 1 1 c) ((1 - bit 1 2 c) * half 2 + (j 0).val) (384 + (j 1).val)
      ((Memref.whole cc0_scratch2 : Memref sig .tc .vmem S256x1024 .bf16).view.readAt (Elt F) (Rect.unit (s := S256x1024) (k0_off37 c) S128x384.size (k0_off37_inb c)).toLoadRect g j) := fun j => by
    obtain ⟨y, hy, hP⟩ := SegBCore.load_sub_ok (Val := Elt F) cc0_scratch2 g (fun i v => pRS ct 1 c (sh := S256x1024) i v)
      (k0_off20_inb (peer 1 1 c)) hpeer hg (k0_off37_inb c) (Geo.off37_eq c) (fun a => ⟨Nat.le_refl _, Nat.le_refl _⟩) j
    have hj1 : (j 1).val < 384 := (j 1).isLt
    rw [SegBCore.half_2]
    exact SegBCore.pRS_to_okSS ct 1 1 c rfl y _ _ _ (hy 0) (hy 1) (SegAValP.blk_of_mid (by omega) (by omega)) hP
  have hA : ∀ i ∈ ((View.whole cc0_scratch0).slice (Rect.unit (s := S1024x1024) (k0_off36 c) S128x384.size (k0_off36_inb c))).set, ct.okAcc 1 c (i 0).val (i 1).val (a i) := fun i hi => ha i (by
    have hm := (Plumb.mem_slice_unit_whole cc0_scratch0 (k0_off36_inb c) (Geo.off36_eq c) i).mp hi
    exact (Plumb.mem_slice_unit_whole cc0_scratch0 (k0_off28_inb c) (Geo.off28_eq c) i).mpr (Fin.forall_fin_two.mpr
      ⟨by have h' : lo 1 c 2 + (1 - bit 1 2 c) * 128 ≤ (i 0).val ∧ (i 0).val < lo 1 c 2 + (1 - bit 1 2 c) * 128 + 128 := hm 0
          show lo 1 c 2 ≤ (i 0).val ∧ (i 0).val < lo 1 c 2 + 256
          omega, hm 1⟩))
  unfold addR1
  exact SegBCore.ss_core ct c YA YB laws 1 2 (by decide) rfl 1 (k0_off36_inb c)
    ((Geo.off36_eq c).trans (by show _ = ![lo 1 c 2 + (1 - bit 1 2 c) * half 2, 384]; rw [SegBCore.half_2]))
    (fun q h1 h2 => SegAValP.blk_of_mid (by have h2' : q < 384 + 384 := h2; omega) (by have h2' : q < 384 + 384 := h2; omega)) a hA _ hY _
    (fun j => PayPoint.pay21_at _ _ j) _ (fun j => PayPoint.pay22_at _ j)

theorem frR1 (lvl : ℕ) {offS szS : Fin 2 → ℕ} {rS qS : ℕ} (inbS : ∀ a, offS a + szS a ≤ S1024x1024.size a) (heqS : offS = ![rS, qS])
    (a : S1024x1024.Idx → F .f32) (g : S256x1024.Idx → F .bf16)
    (h : ∀ i ∈ ((View.whole cc0_scratch0).slice (Rect.unit (s := S1024x1024) offS szS inbS)).set, ct.okAcc lvl c (i 0).val (i 1).val (a i))
    (hd : (rS + szS 0 ≤ lo 1 c 2 + (1 - bit 1 2 c) * 128 ∨ lo 1 c 2 + (1 - bit 1 2 c) * 128 + 128 ≤ rS) ∨ (qS + szS 1 ≤ 384 ∨ 384 + 384 ≤ qS)) :
    ∀ i ∈ ((View.whole cc0_scratch0).slice (Rect.unit (s := S1024x1024) offS szS inbS)).set, ct.okAcc lvl c (i 0).val (i 1).val (addR1 c a g i) := by
  unfold addR1
  exact fr ct c lvl (k0_off36_inb c) (Geo.off36_eq c) _ inbS heqS a h hd

/-- Column block 2: the rows handed on at stage 1, after the stage-0 partner's first piece is added and the sum rounded, are right for the send buffer. -/
theorem stepP2 (laws : Laws ct c YA YB) (a : S1024x1024.Idx → F .f32) (g : S512x1024.Idx → F .bf16)
    (ha : ∀ i ∈ ((View.whole cc0_scratch0).slice (Rect.unit (s := S1024x1024) (k0_off13 c) S512x256.size (k0_off13_inb c))).set, ct.okAcc 0 c (i 0).val (i 1).val (a i))
    (hg : ∀ i ∈ (dst_rs_0_2_0 (peer 2 0 c)).view.set, pRS ct 0 c (sh := S512x1024) i (g i)) :
    ∀ j : S256x256.Idx, ct.okSS 1 c (j 0).val (768 + (j 1).val)
      (k0_pay14 ((Memref.whole cc0_scratch0 : Memref sig .tc .vmem S1024x1024 .f32).view.readAt (Elt F) (RA22 c).toLoadRect (addP2 c a g)) j) := by
  have hb := bit_le_one 2 1 c
  have hpeer : k0_off7 (peer 2 0 c) = ![(1 - bit 2 1 c) * 256, 768] := by
    rw [Geo.off7_eq, bit_peer_succ 2 0 1 c rfl]
  have hY : ∀ j : S256x256.Idx, ct.okSS 0 (peer 2 0 c) ((1 - bit 2 1 c) * half 1 + (j 0).val) (768 + (j 1).val)
      ((Memref.whole cc0_scratch1 : Memref sig .tc .vmem S512x1024 .bf16).view.readAt (Elt F) (Rect.unit (s := S512x1024) (k0_off23 c) S256x256.size (k0_off23_inb c)).toLoadRect g j) := fun j => by
    obtain ⟨y, hy, hP⟩ := SegBCore.load_sub_ok (Val := Elt F) cc0_scratch1 g (fun i v => pRS ct 0 c (sh := S512x1024) i v)
      (k0_off7_inb (peer 2 0 c)) hpeer hg (k0_off23_inb c) (Geo.off23_eq c) (fun a => ⟨Nat.le_refl _, Nat.le_refl _⟩) j
    have hj1 : (j 1).val < 256 := (j 1).isLt
    rw [SegBCore.half_1]
    exact SegBCore.pRS_to_okSS ct 0 2 c rfl y _ _ _ (hy 0) (hy 1) (SegAValP.blk_of_ge (by omega)) hP
  have hA : ∀ i ∈ ((View.whole cc0_scratch0).slice (Rect.unit (s := S1024x1024) (k0_off22 c) S256x256.size (k0_off22_inb c))).set, ct.okAcc 0 c (i 0).val (i 1).val (a i) := fun i hi => ha i (by
    have hm := (Plumb.mem_slice_unit_whole cc0_scratch0 (k0_off22_inb c) (Geo.off22_eq c) i).mp hi
    exact (Plumb.mem_slice_unit_whole cc0_scratch0 (k0_off13_inb c) (Geo.off13_eq c) i).mpr (Fin.forall_fin_two.mpr
      ⟨by have h' : lo 2 c 1 + (1 - bit 2 1 c) * 256 ≤ (i 0).val ∧ (i 0).val < lo 2 c 1 + (1 - bit 2 1 c) * 256 + 256 := hm 0
          show lo 2 c 1 ≤ (i 0).val ∧ (i 0).val < lo 2 c 1 + 512
          omega, hm 1⟩))
  unfold addP2
  exact SegBCore.ss_core ct c YA YB laws 0 1 (by decide) rfl 2 (k0_off22_inb c)
    ((Geo.off22_eq c).trans (by show _ = ![lo 2 c 1 + (1 - bit 2 1 c) * half 1, 768]; rw [SegBCore.half_1]))
    (fun q h1 h2 => SegAValP.blk_of_ge (by have h2' : q < 768 + 256 := h2; omega)) a hA _ hY _
    (fun j => PayPoint.pay13_at _ _ j) _ (fun j => PayPoint.pay14_at _ j)

theorem frP2 (lvl : ℕ) {offS szS : Fin 2 → ℕ} {rS qS : ℕ} (inbS : ∀ a, offS a + szS a ≤ S1024x1024.size a) (heqS : offS = ![rS, qS])
    (a : S1024x1024.Idx → F .f32) (g : S512x1024.Idx → F .bf16)
    (h : ∀ i ∈ ((View.whole cc0_scratch0).slice (Rect.unit (s := S1024x1024) offS szS inbS)).set, ct.okAcc lvl c (i 0).val (i 1).val (a i))
    (hd : (rS + szS 0 ≤ lo 2 c 1 + (1 - bit 2 1 c) * 256 ∨ lo 2 c 1 + (1 - bit 2 1 c) * 256 + 256 ≤ rS) ∨ (qS + szS 1 ≤ 768 ∨ 768 + 256 ≤ qS)) :
    ∀ i ∈ ((View.whole cc0_scratch0).slice (Rect.unit (s := S1024x1024) offS szS inbS)).set, ct.okAcc lvl c (i 0).val (i 1).val (addP2 c a g i) := by
  unfold addP2
  exact fr ct c lvl (k0_off22_inb c) (Geo.off22_eq c) _ inbS heqS a h hd

/-- Column block 2: adding the second piece of the stage-0 partner to the rows kept brings them to the sum over two devices. -/
theorem stepQ2 (laws : Laws ct c YA YB) (a : S1024x1024.Idx → F .f32) (g : S512x1024.Idx → F .bf16)
    (ha : ∀ i ∈ ((View.whole cc0_scratch0).slice (Rect.unit (s := S1024x1024) (k0_off30 c) S256x256.size (k0_off30_inb c))).set, ct.okAcc 0 c (i 0).val (i 1).val (a i))
    (hg : ∀ i ∈ (dst_rs_0_2_1 (peer 2 0 c)).view.set, pRS ct 0 c (sh := S512x1024) i (g i)) :
    ∀ i ∈ ((View.whole cc0_scratch0).slice (Rect.unit (s := S1024x1024) (k0_off30 c) S256x256.size (k0_off30_inb c))).set, ct.okAcc 1 c (i 0).val (i 1).val (addQ2 c a g i) := by
  have hpeer : k0_off8 (peer 2 0 c) = ![bit 2 1 c * 256, 768] := by
    rw [Geo.off8_eq, bit_peer_succ 2 0 1 c rfl]
  have hY : ∀ j : S256x256.Idx, ct.okSS 0 (peer 2 0 c) (bit 2 1 c * half 1 + (j 0).val) (768 + (j 1).val)
      ((Memref.whole cc0_scratch1 : Memref sig .tc .vmem S512x1024 .bf16).view.readAt (Elt F) (Rect.unit (s := S512x1024) (k0_off31 c) S256x256.size (k0_off31_inb c)).toLoadRect g j) := fun j => by
    obtain ⟨y, hy, hP⟩ := SegBCore.load_sub_ok (Val := Elt F) cc0_scratch1 g (fun i v => pRS ct 0 c (sh := S512x1024) i v)
      (k0_off8_inb (peer 2 0 c)) hpeer hg (k0_off31_inb c) (Geo.off31_eq c) (fun a => ⟨Nat.le_refl _, Nat.le_refl _⟩) j
    have hj1 : (j 1).val < 256 := (j 1).isLt
    rw [SegBCore.half_1]
    exact SegBCore.pRS_to_okSS ct 0 2 c rfl y _ _ _ (hy 0) (hy 1) (SegAValP.blk_of_ge (by omega)) hP
  unfold addQ2
  exact SegBCore.keep_core ct c YA YB laws 0 1 (by decide) rfl 2 (k0_off30_inb c)
    ((Geo.off30_eq c).trans (by show ![lo 2 c 2, 768] = ![lo 2 c 1 + bit 2 1 c * half 1, 768]; rw [show lo 2 c 2 = lo 2 c 1 + bit 2 1 c * half 1 from SegBCore.lo_succ 2 c 1]))
    (fun q h1 h2 => SegAValP.blk_of_ge (by have h2' : q < 768 + 256 := h2; omega)) a ha _ hY _ (fun j => PayPoint.pay18_at _ _ j)

theorem frQ2 (lvl : ℕ) {offS szS : Fin 2 → ℕ} {rS qS : ℕ} (inbS : ∀ a, offS a + szS a ≤ S1024x1024.size a) (heqS : offS = ![rS, qS])
    (a : S1024x1024.Idx → F .f32) (g : S512x1024.Idx → F .bf16)
    (h : ∀ i ∈ ((View.whole cc0_scratch0).slice (Rect.unit (s := S1024x1024) offS szS inbS)).set, ct.okAcc lvl c (i 0).val (i 1).val (a i))
    (hd : (rS + szS 0 ≤ lo 2 c 2 ∨ lo 2 c 2 + 256 ≤ rS) ∨ (qS + szS 1 ≤ 768 ∨ 768 + 256 ≤ qS)) :
    ∀ i ∈ ((View.whole cc0_scratch0).slice (Rect.unit (s := S1024x1024) offS szS inbS)).set, ct.okAcc lvl c (i 0).val (i 1).val (addQ2 c a g i) := by
  unfold addQ2
  exact fr ct c lvl (k0_off30_inb c) (Geo.off30_eq c) _ inbS heqS a h hd

/-- Column block 2: the rows handed on at stage 2, after the stage-1 partner's first piece is added and the sum rounded, are right for the send buffer. -/
theorem stepR2 (laws : Laws ct c YA YB) (a : S1024x1024.Idx → F .f32) (g : S256x1024.Idx → F .bf16)
    (ha : ∀ i ∈ ((View.whole cc0_scratch0).slice (Rect.unit (s := S1024x1024) (k0_off30 c) S256x256.size (k0_off30_inb c))).set, ct.okAcc 1 c (i 0).val (i 1).val (a i))
    (hg : ∀ i ∈ (dst_rs_1_2_0 (peer 2 1 c)).view.set, pRS ct 1 c (sh := S256x1024) i (g i)) :
    ∀ j : S128x256.Idx, ct.okSS 2 c (j 0).val (768 + (j 1).val)
      (k0_pay25 ((Memref.whole cc0_scratch0 : Memref sig .tc .vmem S1024x1024 .f32).view.readAt (Elt F) (RA40 c).toLoadRect (addR2 c a g)) j) := by
  have hb := bit_le_one 2 2 c
  have hpeer : k0_off24 (peer 2 1 c) = ![(1 - bit 2 2 c) * 128, 768] := by
    rw [Geo.off24_eq, bit_peer_succ 2 1 2 c rfl]
  have hY : ∀ j : S128x256.Idx, ct.okSS 1 (peer 2 1 c) ((1 - bit 2 2 c) * half 2 + (j 0).val) (768 + (j 1).val)
      ((Memref.whole cc0_scratch2 : Memref sig .tc .vmem S256x1024 .bf16).view.readAt (Elt F) (Rect.unit (s := S256x1024) (k0_off41 c) S128x256.size (k0_off41_inb c)).toLoadRect g j) := fun j => by
    obtain ⟨y, hy, hP⟩ := SegBCore.load_sub_ok (Val := Elt F) cc0_scratch2 g (fun i v => pRS ct 1 c (sh := S256x1024) i v)
      (k0_off24_inb (peer 2 1 c)) hpeer hg (k0_off41_inb c) (Geo.off41_eq c) (fun a => ⟨Nat.le_refl _, Nat.le_refl _⟩) j
    have hj1 : (j 1).val < 256 := (j 1).isLt
    rw [SegBCore.half_2]
    exact SegBCore.pRS_to_okSS ct 1 2 c rfl y _ _ _ (hy 0) (hy 1) (SegAValP.blk_of_ge (by omega)) hP
  have hA : ∀ i ∈ ((View.whole cc0_scratch0).slice (Rect.unit (s := S1024x1024) (k0_off40 c) S128x256.size (k0_off40_inb c))).set, ct.okAcc 1 c (i 0).val (i 1).val (a i) := fun i hi => ha i (by
    have hm := (Plumb.mem_slice_unit_whole cc0_scratch0 (k0_off40_inb c) (Geo.off40_eq c) i).mp hi
    exact (Plumb.mem_slice_unit_whole cc0_scratch0 (k0_off30_inb c) (Geo.off30_eq c) i).mpr (Fin.forall_fin_two.mpr
      ⟨by have h' : lo 2 c 2 + (1 - bit 2 2 c) * 128 ≤ (i 0).val ∧ (i 0).val < lo 2 c 2 + (1 - bit 2 2 c) * 128 + 128 := hm 0
          show lo 2 c 2 ≤ (i 0).val ∧ (i 0).val < lo 2 c 2 + 256
          omega, hm 1⟩))
  unfold addR2
  exact SegBCore.ss_core ct c YA YB laws 1 2 (by decide) rfl 2 (k0_off40_inb c)
    ((Geo.off40_eq c).trans (by show _ = ![lo 2 c 2 + (1 - bit 2 2 c) * half 2, 768]; rw [SegBCore.half_2]))
    (fun q h1 h2 => SegAValP.blk_of_ge (by have h2' : q < 768 + 256 := h2; omega)) a hA _ hY _
    (fun j => (PayPoint.pay24_at _ j).trans (PayPoint.pay23_at _ _ j)) _ (fun j => PayPoint.pay25_at _ j)

theorem frR2 (lvl : ℕ) {offS szS : Fin 2 → ℕ} {rS qS : ℕ} (inbS : ∀ a, offS a + szS a ≤ S1024x1024.size a) (heqS : offS = ![rS, qS])
    (a : S1024x1024.Idx → F .f32) (g : S256x1024.Idx → F .bf16)
    (h : ∀ i ∈ ((View.whole cc0_scratch0).slice (Rect.unit (s := S1024x1024) offS szS inbS)).set, ct.okAcc lvl c (i 0).val (i 1).val (a i))
    (hd : (rS + szS 0 ≤ lo 2 c 2 + (1 - bit 2 2 c) * 128 ∨ lo 2 c 2 + (1 - bit 2 2 c) * 128 + 128 ≤ rS) ∨ (qS + szS 1 ≤ 768 ∨ 768 + 256 ≤ qS)) :
    ∀ i ∈ ((View.whole cc0_scratch0).slice (Rect.unit (s := S1024x1024) offS szS inbS)).set, ct.okAcc lvl c (i 0).val (i 1).val (addR2 c a g i) := by
  unfold addR2
  exact fr ct c lvl (k0_off40_inb c) (Geo.off40_eq c) _ inbS heqS a h hd

/-! ## What the pieces sent carry, and what the kept rows hold -/

/-- What lands at the partner of the second stage, column block 0, piece 0, is right under the contract. -/
theorem sent_1_0_0 (laws : Laws ct c YA YB) (fa : Buf (Elt F) ((c : Thread nD τ).loc cc0_scratch0)) (g000 : Buf (Elt F) ((c : Thread nD τ).loc cc0_scratch1)) (g7 : Buf (Elt F) ((c : Thread nD τ).loc cc0_scratch7))
    (fd : Buf (Elt F) ((dst_rs_1_0_0 c).view.loc ((peer 0 1 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) :
    ∀ i ∈ (dst_rs_1_0_0 c).view.set, pRS ct 1 (peer 0 1 c) (sh := S256x1024) i
      (((dst_rs_1_0_0 c).view.write (Elt F) fd ((src_rs_1_0_0 c).view.read (Elt F) (sendP0 c (dcc1 c fa g000) g7)) Finset.univ) i) := by
  have hA : ∀ i ∈ ((View.whole cc0_scratch0).slice (Rect.unit (s := S1024x1024) (k0_off10 c) S512x384.size (k0_off10_inb c))).set, ct.okAcc 0 c (i 0).val (i 1).val ((fa) i) := by
    exact hfa.1
  have hcore := stepP0 ct c YA YB laws _ _ hA hg000
  refine SegBValP.landed1 ct c 0 (k0_off16_inb c) (Geo.off16_eq c)
    (fun q h1 h2 => SegAValP.blk_of_lt (by have h2' : q < 0 + 384 := h2; omega)) (sendP0 c (dcc1 c fa g000) g7) ?_ fd
  intro i hi
  unfold sendP0 dcc1
  refine Plumb.write_unit_whole_forall (Val := Elt F) cc0_scratch7 g7 inb_S256x1024_S256x384_0_0 _ rfl
    (fun i v => ct.okSS 1 c (i 0).val (i 1).val v) ?_ i (Fin.forall_fin_two.mpr
      ⟨⟨Nat.zero_le _, by have h' : (i 0).val < 256 := (i 0).isLt; show (i 0).val < 0 + 256; omega⟩, hi 1⟩)
  intro j i' hi'
  have e0 : (i' 0).val = (j 0).val := (hi' 0).trans (Nat.zero_add _)
  have e1 : (i' 1).val = 0 + (j 1).val := hi' 1
  show ct.okSS 1 c (i' 0).val (i' 1).val _
  rw [e0, e1]
  exact hcore j

/-- What lands at the partner of the second stage, column block 0, piece 1, is right under the contract. -/
theorem sent_1_0_1 (laws : Laws ct c YA YB) (fa : Buf (Elt F) ((c : Thread nD τ).loc cc0_scratch0)) (g000 : Buf (Elt F) ((c : Thread nD τ).loc cc0_scratch1)) (g7 : Buf (Elt F) ((c : Thread nD τ).loc cc0_scratch7))
    (fd : Buf (Elt F) ((dst_rs_1_0_1 c).view.loc ((peer 0 1 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) :
    ∀ i ∈ (dst_rs_1_0_1 c).view.set, pRS ct 1 (peer 0 1 c) (sh := S256x1024) i
      (((dst_rs_1_0_1 c).view.write (Elt F) fd ((src_rs_1_0_1 c).view.read (Elt F) (sendP0 c (dcc1 c fa g000) g7)) Finset.univ) i) := by
  have hA : ∀ i ∈ ((View.whole cc0_scratch0).slice (Rect.unit (s := S1024x1024) (k0_off10 c) S512x384.size (k0_off10_inb c))).set, ct.okAcc 0 c (i 0).val (i 1).val ((fa) i) := by
    exact hfa.1
  have hcore := stepP0 ct c YA YB laws _ _ hA hg000
  refine SegBValP.landed1 ct c 0 (k0_off17_inb c) (Geo.off17_eq c)
    (fun q h1 h2 => SegAValP.blk_of_lt (by have h2' : q < 0 + 384 := h2; omega)) (sendP0 c (dcc1 c fa g000) g7) ?_ fd
  intro i hi
  unfold sendP0 dcc1
  refine Plumb.write_unit_whole_forall (Val := Elt F) cc0_scratch7 g7 inb_S256x1024_S256x384_0_0 _ rfl
    (fun i v => ct.okSS 1 c (i 0).val (i 1).val v) ?_ i (Fin.forall_fin_two.mpr
      ⟨⟨Nat.zero_le _, by have h' : (i 0).val < 256 := (i 0).isLt; show (i 0).val < 0 + 256; omega⟩, hi 1⟩)
  intro j i' hi'
  have e0 : (i' 0).val = (j 0).val := (hi' 0).trans (Nat.zero_add _)
  have e1 : (i' 1).val = 0 + (j 1).val := hi' 1
  show ct.okSS 1 c (i' 0).val (i' 1).val _
  rw [e0, e1]
  exact hcore j

/-- What lands at the partner of the second stage, column block 1, piece 0, is right under the contract. -/
theorem sent_1_1_0 (laws : Laws ct c YA YB) (fa : Buf (Elt F) ((c : Thread nD τ).loc cc0_scratch0)) (g000 g010 : Buf (Elt F) ((c : Thread nD τ).loc cc0_scratch1)) (g7 : Buf (Elt F) ((c : Thread nD τ).loc cc0_scratch7))
    (fd : Buf (Elt F) ((dst_rs_1_1_0 c).view.loc ((peer 1 1 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) :
    ∀ i ∈ (dst_rs_1_1_0 c).view.set, pRS ct 1 (peer 1 1 c) (sh := S256x1024) i
      (((dst_rs_1_1_0 c).view.write (Elt F) fd ((src_rs_1_1_0 c).view.read (Elt F) (sendP1 c (dcc2 c fa g000 g010) g7)) Finset.univ) i) := by
  have hA : ∀ i ∈ ((View.whole cc0_scratch0).slice (Rect.unit (s := S1024x1024) (k0_off12 c) S512x384.size (k0_off12_inb c))).set, ct.okAcc 0 c (i 0).val (i 1).val ((dcc1 c fa g000) i) := by
    unfold dcc1
    exact frP0 ct c 0 (k0_off12_inb c) (Geo.off12_eq c) _ _ (hfa.2.1) (Or.inr (by show 384 + 384 ≤ 0 ∨ 0 + 384 ≤ 384; omega))
  have hcore := stepP1 ct c YA YB laws _ _ hA hg010
  refine SegBValP.landed1 ct c 1 (k0_off20_inb c) (Geo.off20_eq c)
    (fun q h1 h2 => SegAValP.blk_of_mid (by have h2' : q < 384 + 384 := h2; omega) (by have h2' : q < 384 + 384 := h2; omega)) (sendP1 c (dcc2 c fa g000 g010) g7) ?_ fd
  intro i hi
  unfold sendP1 dcc2
  refine Plumb.write_unit_whole_forall (Val := Elt F) cc0_scratch7 g7 inb_S256x1024_S256x384_0_384 _ rfl
    (fun i v => ct.okSS 1 c (i 0).val (i 1).val v) ?_ i (Fin.forall_fin_two.mpr
      ⟨⟨Nat.zero_le _, by have h' : (i 0).val < 256 := (i 0).isLt; show (i 0).val < 0 + 256; omega⟩, hi 1⟩)
  intro j i' hi'
  have e0 : (i' 0).val = (j 0).val := (hi' 0).trans (Nat.zero_add _)
  have e1 : (i' 1).val = 384 + (j 1).val := hi' 1
  show ct.okSS 1 c (i' 0).val (i' 1).val _
  rw [e0, e1]
  exact hcore j

/-- What lands at the partner of the second stage, column block 1, piece 1, is right under the contract. -/
theorem sent_1_1_1 (laws : Laws ct c YA YB) (fa : Buf (Elt F) ((c : Thread nD τ).loc cc0_scratch0)) (g000 g010 : Buf (Elt F) ((c : Thread nD τ).loc cc0_scratch1)) (g7 : Buf (Elt F) ((c : Thread nD τ).loc cc0_scratch7))
    (fd : Buf (Elt F) ((dst_rs_1_1_1 c).view.loc ((peer 1 1 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) :
    ∀ i ∈ (dst_rs_1_1_1 c).view.set, pRS ct 1 (peer 1 1 c) (sh := S256x1024) i
      (((dst_rs_1_1_1 c).view.write (Elt F) fd ((src_rs_1_1_1 c).view.read (Elt F) (sendP1 c (dcc2 c fa g000 g010) g7)) Finset.univ) i) := by
  have hA : ∀ i ∈ ((View.whole cc0_scratch0).slice (Rect.unit (s := S1024x1024) (k0_off12 c) S512x384.size (k0_off12_inb c))).set, ct.okAcc 0 c (i 0).val (i 1).val ((dcc1 c fa g000) i) := by
    unfold dcc1
    exact frP0 ct c 0 (k0_off12_inb c) (Geo.off12_eq c) _ _ (hfa.2.1) (Or.inr (by show 384 + 384 ≤ 0 ∨ 0 + 384 ≤ 384; omega))
  have hcore := stepP1 ct c YA YB laws _ _ hA hg010
  refine SegBValP.landed1 ct c 1 (k0_off21_inb c) (Geo.off21_eq c)
    (fun q h1 h2 => SegAValP.blk_of_mid (by have h2' : q < 384 + 384 := h2; omega) (by have h2' : q < 384 + 384 := h2; omega)) (sendP1 c (dcc2 c fa g000 g010) g7) ?_ fd
  intro i hi
  unfold sendP1 dcc2
  refine Plumb.write_unit_whole_forall (Val := Elt F) cc0_scratch7 g7 inb_S256x1024_S256x384_0_384 _ rfl
    (fun i v => ct.okSS 1 c (i 0).val (i 1).val v) ?_ i (Fin.forall_fin_two.mpr
      ⟨⟨Nat.zero_le _, by have h' : (i 0).val < 256 := (i 0).isLt; show (i 0).val < 0 + 256; omega⟩, hi 1⟩)
  intro j i' hi'
  have e0 : (i' 0).val = (j 0).val := (hi' 0).trans (Nat.zero_add _)
  have e1 : (i' 1).val = 384 + (j 1).val := hi' 1
  show ct.okSS 1 c (i' 0).val (i' 1).val _
  rw [e0, e1]
  exact hcore j

/-- What lands at the partner of the second stage, column block 2, piece 0, is right under the contract. -/
theorem sent_1_2_0 (laws : Laws ct c YA YB) (fa : Buf (Elt F) ((c : Thread nD τ).loc cc0_scratch0)) (g000 g010 g020 : Buf (Elt F) ((c : Thread nD τ).loc cc0_scratch1)) (g7 : Buf (Elt F) ((c : Thread nD τ).loc cc0_scratch7))
    (fd : Buf (Elt F) ((dst_rs_1_2_0 c).view.loc ((peer 2 1 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) :
    ∀ i ∈ (dst_rs_1_2_0 c).view.set, pRS ct 1 (peer 2 1 c) (sh := S256x1024) i
      (((dst_rs_1_2_0 c).view.write (Elt F) fd ((src_rs_1_2_0 c).view.read (Elt F) (sendP2 c (dcc3 c fa g000 g010 g020) g7)) Finset.univ) i) := by
  have hA : ∀ i ∈ ((View.whole cc0_scratch0).slice (Rect.unit (s := S1024x1024) (k0_off13 c) S512x256.size (k0_off13_inb c))).set, ct.okAcc 0 c (i 0).val (i 1).val ((dcc2 c fa g000 g010) i) := by
    unfold dcc2 dcc1
    exact frP1 ct c 0 (k0_off13_inb c) (Geo.off13_eq c) _ _ (frP0 ct c 0 (k0_off13_inb c) (Geo.off13_eq c) _ _ (hfa.2.2) (Or.inr (by show 768 + 256 ≤ 0 ∨ 0 + 384 ≤ 768; omega))) (Or.inr (by show 768 + 256 ≤ 384 ∨ 384 + 384 ≤ 768; omega))
  have hcore := stepP2 ct c YA YB laws _ _ hA hg020
  refine SegBValP.landed1 ct c 2 (k0_off24_inb c) (Geo.off24_eq c)
    (fun q h1 h2 => SegAValP.blk_of_ge (by have h2' : q < 768 + 256 := h2; omega)) (sendP2 c (dcc3 c fa g000 g010 g020) g7) ?_ fd
  intro i hi
  unfold sendP2 dcc3
  refine Plumb.write_unit_whole_forall (Val := Elt F) cc0_scratch7 g7 inb_S256x1024_S256x256_0_768 _ rfl
    (fun i v => ct.okSS 1 c (i 0).val (i 1).val v) ?_ i (Fin.forall_fin_two.mpr
      ⟨⟨Nat.zero_le _, by have h' : (i 0).val < 256 := (i 0).isLt; show (i 0).val < 0 + 256; omega⟩, hi 1⟩)
  intro j i' hi'
  have e0 : (i' 0).val = (j 0).val := (hi' 0).trans (Nat.zero_add _)
  have e1 : (i' 1).val = 768 + (j 1).val := hi' 1
  show ct.okSS 1 c (i' 0).val (i' 1).val _
  rw [e0, e1]
  exact hcore j

/-- What lands at the partner of the second stage, column block 2, piece 1, is right under the contract. -/
theorem sent_1_2_1 (laws : Laws ct c YA YB) (fa : Buf (Elt F) ((c : Thread nD τ).loc cc0_scratch0)) (g000 g010 g020 : Buf (Elt F) ((c : Thread nD τ).loc cc0_scratch1)) (g7 : Buf (Elt F) ((c : Thread nD τ).loc cc0_scratch7))
    (fd : Buf (Elt F) ((dst_rs_1_2_1 c).view.loc ((peer 2 1 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) :
    ∀ i ∈ (dst_rs_1_2_1 c).view.set, pRS ct 1 (peer 2 1 c) (sh := S256x1024) i
      (((dst_rs_1_2_1 c).view.write (Elt F) fd ((src_rs_1_2_1 c).view.read (Elt F) (sendP2 c (dcc3 c fa g000 g010 g020) g7)) Finset.univ) i) := by
  have hA : ∀ i ∈ ((View.whole cc0_scratch0).slice (Rect.unit (s := S1024x1024) (k0_off13 c) S512x256.size (k0_off13_inb c))).set, ct.okAcc 0 c (i 0).val (i 1).val ((dcc2 c fa g000 g010) i) := by
    unfold dcc2 dcc1
    exact frP1 ct c 0 (k0_off13_inb c) (Geo.off13_eq c) _ _ (frP0 ct c 0 (k0_off13_inb c) (Geo.off13_eq c) _ _ (hfa.2.2) (Or.inr (by show 768 + 256 ≤ 0 ∨ 0 + 384 ≤ 768; omega))) (Or.inr (by show 768 + 256 ≤ 384 ∨ 384 + 384 ≤ 768; omega))
  have hcore := stepP2 ct c YA YB laws _ _ hA hg020
  refine SegBValP.landed1 ct c 2 (k0_off25_inb c) (Geo.off25_eq c)
    (fun q h1 h2 => SegAValP.blk_of_ge (by have h2' : q < 768 + 256 := h2; omega)) (sendP2 c (dcc3 c fa g000 g010 g020) g7) ?_ fd
  intro i hi
  unfold sendP2 dcc3
  refine Plumb.write_unit_whole_forall (Val := Elt F) cc0_scratch7 g7 inb_S256x1024_S256x256_0_768 _ rfl
    (fun i v => ct.okSS 1 c (i 0).val (i 1).val v) ?_ i (Fin.forall_fin_two.mpr
      ⟨⟨Nat.zero_le _, by have h' : (i 0).val < 256 := (i 0).isLt; show (i 0).val < 0 + 256; omega⟩, hi 1⟩)
  intro j i' hi'
  have e0 : (i' 0).val = (j 0).val := (hi' 0).trans (Nat.zero_add _)
  have e1 : (i' 1).val = 768 + (j 1).val := hi' 1
  show ct.okSS 1 c (i' 0).val (i' 1).val _
  rw [e0, e1]
  exact hcore j

/-- What lands at the partner of the third stage, column block 0, piece 0, is right under the contract. -/
theorem sent_2_0_0 (laws : Laws ct c YA YB) (fa : Buf (Elt F) ((c : Thread nD τ).loc cc0_scratch0)) (g000 g010 g020 g001 g011 g021 : Buf (Elt F) ((c : Thread nD τ).loc cc0_scratch1)) (g100 : Buf (Elt F) ((c : Thread nD τ).loc cc0_scratch2)) (g8 : Buf (Elt F) ((c : Thread nD τ).loc cc0_scratch8))
    (fd : Buf (Elt F) ((dst_rs_2_0_0 c).view.loc ((peer 0 2 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) :
    ∀ i ∈ (dst_rs_2_0_0 c).view.set, pRS ct 2 (peer 0 2 c) (sh := S128x1024) i
      (((dst_rs_2_0_0 c).view.write (Elt F) fd ((src_rs_2_0_0 c).view.read (Elt F) (sendR0 c (dcc7 c fa g000 g010 g020 g001 g011 g021 g100) g8)) Finset.univ) i) := by
  have hb := bit_le_one 0 1 c
  have hl := SegBCore.lo_2 0 c
  have hb2 := bit_le_one 0 2 c
  have hl3 := SegBCore.lo_3 0 c
  have h0 : ∀ i ∈ ((View.whole cc0_scratch0).slice (Rect.unit (s := S1024x1024) (k0_off26 c) S256x384.size (k0_off26_inb c))).set, ct.okAcc 0 c (i 0).val (i 1).val (fa i) := fun i hi => hfa.1 i (by
    have hm := (Plumb.mem_slice_unit_whole cc0_scratch0 (k0_off26_inb c) (Geo.off26_eq c) i).mp hi
    exact (Plumb.mem_slice_unit_whole cc0_scratch0 (k0_off10_inb c) (Geo.off10_eq c) i).mpr (Fin.forall_fin_two.mpr
      ⟨by have h' : lo 0 c 2 ≤ (i 0).val ∧ (i 0).val < lo 0 c 2 + 256 := hm 0
          show lo 0 c 1 ≤ (i 0).val ∧ (i 0).val < lo 0 c 1 + 512
          omega, hm 1⟩))
  have h3 : ∀ i ∈ ((View.whole cc0_scratch0).slice (Rect.unit (s := S1024x1024) (k0_off26 c) S256x384.size (k0_off26_inb c))).set, ct.okAcc 0 c (i 0).val (i 1).val (dcc3 c fa g000 g010 g020 i) := by
    unfold dcc3 dcc2 dcc1
    exact frP2 ct c 0 (k0_off26_inb c) (Geo.off26_eq c) _ _ (frP1 ct c 0 (k0_off26_inb c) (Geo.off26_eq c) _ _ (frP0 ct c 0 (k0_off26_inb c) (Geo.off26_eq c) _ _ (h0) (Or.inl (by show lo 0 c 2 + 256 ≤ lo 0 c 1 + (1 - bit 0 1 c) * 256 ∨ lo 0 c 1 + (1 - bit 0 1 c) * 256 + 256 ≤ lo 0 c 2; omega))) (Or.inr (by show 0 + 384 ≤ 384 ∨ 384 + 384 ≤ 0; omega))) (Or.inr (by show 0 + 384 ≤ 768 ∨ 768 + 256 ≤ 0; omega))
  have h6 : ∀ i ∈ ((View.whole cc0_scratch0).slice (Rect.unit (s := S1024x1024) (k0_off26 c) S256x384.size (k0_off26_inb c))).set, ct.okAcc 1 c (i 0).val (i 1).val (dcc6 c fa g000 g010 g020 g001 g011 g021 i) := by
    unfold dcc6 dcc5 dcc4
    exact frQ2 ct c 1 (k0_off26_inb c) (Geo.off26_eq c) _ _ (frQ1 ct c 1 (k0_off26_inb c) (Geo.off26_eq c) _ _ (stepQ0 ct c YA YB laws _ _ (h3) hg001) (Or.inr (by show 0 + 384 ≤ 384 ∨ 384 + 384 ≤ 0; omega))) (Or.inr (by show 0 + 384 ≤ 768 ∨ 768 + 256 ≤ 0; omega))
  have hA : ∀ i ∈ ((View.whole cc0_scratch0).slice (Rect.unit (s := S1024x1024) (k0_off26 c) S256x384.size (k0_off26_inb c))).set, ct.okAcc 1 c (i 0).val (i 1).val ((dcc6 c fa g000 g010 g020 g001 g011 g021) i) := by
    exact h6
  have hcore := stepR0 ct c YA YB laws _ _ hA hg100
  refine SegBValP.landed2 ct c 0 (k0_off34_inb c) (Geo.off34_eq c)
    (fun q h1 h2 => SegAValP.blk_of_lt (by have h2' : q < 0 + 384 := h2; omega)) (sendR0 c (dcc7 c fa g000 g010 g020 g001 g011 g021 g100) g8) ?_ fd
  intro i hi
  unfold sendR0 dcc7
  refine Plumb.write_unit_whole_forall (Val := Elt F) cc0_scratch8 g8 inb_S128x1024_S128x384_0_0 _ rfl
    (fun i v => ct.okSS 2 c (i 0).val (i 1).val v) ?_ i (Fin.forall_fin_two.mpr
      ⟨⟨Nat.zero_le _, by have h' : (i 0).val < 128 := (i 0).isLt; show (i 0).val < 0 + 128; omega⟩, hi 1⟩)
  intro j i' hi'
  have e0 : (i' 0).val = (j 0).val := (hi' 0).trans (Nat.zero_add _)
  have e1 : (i' 1).val = 0 + (j 1).val := hi' 1
  show ct.okSS 2 c (i' 0).val (i' 1).val _
  rw [e0, e1]
  exact hcore j

/-- What lands at the partner of the third stage, column block 0, piece 1, is right under the contract. -/
theorem sent_2_0_1 (laws : Laws ct c YA YB) (fa : Buf (Elt F) ((c : Thread nD τ).loc cc0_scratch0)) (g000 g010 g020 g001 g011 g021 : Buf (Elt F) ((c : Thread nD τ).loc cc0_scratch1)) (g100 : Buf (Elt F) ((c : Thread nD τ).loc cc0_scratch2)) (g8 : Buf (Elt F) ((c : Thread nD τ).loc cc0_scratch8))
    (fd : Buf (Elt F) ((dst_rs_2_0_1 c).view.loc ((peer 0 2 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) :
    ∀ i ∈ (dst_rs_2_0_1 c).view.set, pRS ct 2 (peer 0 2 c) (sh := S128x1024) i
      (((dst_rs_2_0_1 c).view.write (Elt F) fd ((src_rs_2_0_1 c).view.read (Elt F) (sendR0 c (dcc7 c fa g000 g010 g020 g001 g011 g021 g100) g8)) Finset.univ) i) := by
  have hb := bit_le_one 0 1 c
  have hl := SegBCore.lo_2 0 c
  have hb2 := bit_le_one 0 2 c
  have hl3 := SegBCore.lo_3 0 c
  have h0 : ∀ i ∈ ((View.whole cc0_scratch0).slice (Rect.unit (s := S1024x1024) (k0_off26 c) S256x384.size (k0_off26_inb c))).set, ct.okAcc 0 c (i 0).val (i 1).val (fa i) := fun i hi => hfa.1 i (by
    have hm := (Plumb.mem_slice_unit_whole cc0_scratch0 (k0_off26_inb c) (Geo.off26_eq c) i).mp hi
    exact (Plumb.mem_slice_unit_whole cc0_scratch0 (k0_off10_inb c) (Geo.off10_eq c) i).mpr (Fin.forall_fin_two.mpr
      ⟨by have h' : lo 0 c 2 ≤ (i 0).val ∧ (i 0).val < lo 0 c 2 + 256 := hm 0
          show lo 0 c 1 ≤ (i 0).val ∧ (i 0).val < lo 0 c 1 + 512
          omega, hm 1⟩))
  have h3 : ∀ i ∈ ((View.whole cc0_scratch0).slice (Rect.unit (s := S1024x1024) (k0_off26 c) S256x384.size (k0_off26_inb c))).set, ct.okAcc 0 c (i 0).val (i 1).val (dcc3 c fa g000 g010 g020 i) := by
    unfold dcc3 dcc2 dcc1
    exact frP2 ct c 0 (k0_off26_inb c) (Geo.off26_eq c) _ _ (frP1 ct c 0 (k0_off26_inb c) (Geo.off26_eq c) _ _ (frP0 ct c 0 (k0_off26_inb c) (Geo.off26_eq c) _ _ (h0) (Or.inl (by show lo 0 c 2 + 256 ≤ lo 0 c 1 + (1 - bit 0 1 c) * 256 ∨ lo 0 c 1 + (1 - bit 0 1 c) * 256 + 256 ≤ lo 0 c 2; omega))) (Or.inr (by show 0 + 384 ≤ 384 ∨ 384 + 384 ≤ 0; omega))) (Or.inr (by show 0 + 384 ≤ 768 ∨ 768 + 256 ≤ 0; omega))
  have h6 : ∀ i ∈ ((View.whole cc0_scratch0).slice (Rect.unit (s := S1024x1024) (k0_off26 c) S256x384.size (k0_off26_inb c))).set, ct.okAcc 1 c (i 0).val (i 1).val (dcc6 c fa g000 g010 g020 g001 g011 g021 i) := by
    unfold dcc6 dcc5 dcc4
    exact frQ2 ct c 1 (k0_off26_inb c) (Geo.off26_eq c) _ _ (frQ1 ct c 1 (k0_off26_inb c) (Geo.off26_eq c) _ _ (stepQ0 ct c YA YB laws _ _ (h3) hg001) (Or.inr (by show 0 + 384 ≤ 384 ∨ 384 + 384 ≤ 0; omega))) (Or.inr (by show 0 + 384 ≤ 768 ∨ 768 + 256 ≤ 0; omega))
  have hA : ∀ i ∈ ((View.whole cc0_scratch0).slice (Rect.unit (s := S1024x1024) (k0_off26 c) S256x384.size (k0_off26_inb c))).set, ct.okAcc 1 c (i 0).val (i 1).val ((dcc6 c fa g000 g010 g020 g001 g011 g021) i) := by
    exact h6
  have hcore := stepR0 ct c YA YB laws _ _ hA hg100
  refine SegBValP.landed2 ct c 0 (k0_off35_inb c) (Geo.off35_eq c)
    (fun q h1 h2 => SegAValP.blk_of_lt (by have h2' : q < 0 + 384 := h2; omega)) (sendR0 c (dcc7 c fa g000 g010 g020 g001 g011 g021 g100) g8) ?_ fd
  intro i hi
  unfold sendR0 dcc7
  refine Plumb.write_unit_whole_forall (Val := Elt F) cc0_scratch8 g8 inb_S128x1024_S128x384_0_0 _ rfl
    (fun i v => ct.okSS 2 c (i 0).val (i 1).val v) ?_ i (Fin.forall_fin_two.mpr
      ⟨⟨Nat.zero_le _, by have h' : (i 0).val < 128 := (i 0).isLt; show (i 0).val < 0 + 128; omega⟩, hi 1⟩)
  intro j i' hi'
  have e0 : (i' 0).val = (j 0).val := (hi' 0).trans (Nat.zero_add _)
  have e1 : (i' 1).val = 0 + (j 1).val := hi' 1
  show ct.okSS 2 c (i' 0).val (i' 1).val _
  rw [e0, e1]
  exact hcore j

/-- What lands at the partner of the third stage, column block 1, piece 0, is right under the contract. -/
theorem sent_2_1_0 (laws : Laws ct c YA YB) (fa : Buf (Elt F) ((c : Thread nD τ).loc cc0_scratch0)) (g000 g010 g020 g001 g011 g021 : Buf (Elt F) ((c : Thread nD τ).loc cc0_scratch1)) (g100 g110 : Buf (Elt F) ((c : Thread nD τ).loc cc0_scratch2)) (g8 : Buf (Elt F) ((c : Thread nD τ).loc cc0_scratch8))
    (fd : Buf (Elt F) ((dst_rs_2_1_0 c).view.loc ((peer 1 2 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) (hg110 : ∀ i ∈ (dst_rs_1_1_0 (peer 1 1 c)).view.set, pRS ct 1 c (sh := S256x1024) i (g110 i)) :
    ∀ i ∈ (dst_rs_2_1_0 c).view.set, pRS ct 2 (peer 1 2 c) (sh := S128x1024) i
      (((dst_rs_2_1_0 c).view.write (Elt F) fd ((src_rs_2_1_0 c).view.read (Elt F) (sendR1 c (dcc8 c fa g000 g010 g020 g001 g011 g021 g100 g110) g8)) Finset.univ) i) := by
  have hb := bit_le_one 1 1 c
  have hl := SegBCore.lo_2 1 c
  have hb2 := bit_le_one 1 2 c
  have hl3 := SegBCore.lo_3 1 c
  have h0 : ∀ i ∈ ((View.whole cc0_scratch0).slice (Rect.unit (s := S1024x1024) (k0_off28 c) S256x384.size (k0_off28_inb c))).set, ct.okAcc 0 c (i 0).val (i 1).val (fa i) := fun i hi => hfa.2.1 i (by
    have hm := (Plumb.mem_slice_unit_whole cc0_scratch0 (k0_off28_inb c) (Geo.off28_eq c) i).mp hi
    exact (Plumb.mem_slice_unit_whole cc0_scratch0 (k0_off12_inb c) (Geo.off12_eq c) i).mpr (Fin.forall_fin_two.mpr
      ⟨by have h' : lo 1 c 2 ≤ (i 0).val ∧ (i 0).val < lo 1 c 2 + 256 := hm 0
          show lo 1 c 1 ≤ (i 0).val ∧ (i 0).val < lo 1 c 1 + 512
          omega, hm 1⟩))
  have h3 : ∀ i ∈ ((View.whole cc0_scratch0).slice (Rect.unit (s := S1024x1024) (k0_off28 c) S256x384.size (k0_off28_inb c))).set, ct.okAcc 0 c (i 0).val (i 1).val (dcc3 c fa g000 g010 g020 i) := by
    unfold dcc3 dcc2 dcc1
    exact frP2 ct c 0 (k0_off28_inb c) (Geo.off28_eq c) _ _ (frP1 ct c 0 (k0_off28_inb c) (Geo.off28_eq c) _ _ (frP0 ct c 0 (k0_off28_inb c) (Geo.off28_eq c) _ _ (h0) (Or.inr (by show 384 + 384 ≤ 0 ∨ 0 + 384 ≤ 384; omega))) (Or.inl (by show lo 1 c 2 + 256 ≤ lo 1 c 1 + (1 - bit 1 1 c) * 256 ∨ lo 1 c 1 + (1 - bit 1 1 c) * 256 + 256 ≤ lo 1 c 2; omega))) (Or.inr (by show 384 + 384 ≤ 768 ∨ 768 + 256 ≤ 384; omega))
  have h6 : ∀ i ∈ ((View.whole cc0_scratch0).slice (Rect.unit (s := S1024x1024) (k0_off28 c) S256x384.size (k0_off28_inb c))).set, ct.okAcc 1 c (i 0).val (i 1).val (dcc6 c fa g000 g010 g020 g001 g011 g021 i) := by
    unfold dcc6 dcc5 dcc4
    exact frQ2 ct c 1 (k0_off28_inb c) (Geo.off28_eq c) _ _ (stepQ1 ct c YA YB laws _ _ (frQ0 ct c 0 (k0_off28_inb c) (Geo.off28_eq c) _ _ (h3) (Or.inr (by show 384 + 384 ≤ 0 ∨ 0 + 384 ≤ 384; omega))) hg011) (Or.inr (by show 384 + 384 ≤ 768 ∨ 768 + 256 ≤ 384; omega))
  have hA : ∀ i ∈ ((View.whole cc0_scratch0).slice (Rect.unit (s := S1024x1024) (k0_off28 c) S256x384.size (k0_off28_inb c))).set, ct.okAcc 1 c (i 0).val (i 1).val ((dcc7 c fa g000 g010 g020 g001 g011 g021 g100) i) := by
    unfold dcc7
    exact frR0 ct c 1 (k0_off28_inb c) (Geo.off28_eq c) _ _ (h6) (Or.inr (by show 384 + 384 ≤ 0 ∨ 0 + 384 ≤ 384; omega))
  have hcore := stepR1 ct c YA YB laws _ _ hA hg110
  refine SegBValP.landed2 ct c 1 (k0_off38_inb c) (Geo.off38_eq c)
    (fun q h1 h2 => SegAValP.blk_of_mid (by have h2' : q < 384 + 384 := h2; omega) (by have h2' : q < 384 + 384 := h2; omega)) (sendR1 c (dcc8 c fa g000 g010 g020 g001 g011 g021 g100 g110) g8) ?_ fd
  intro i hi
  unfold sendR1 dcc8
  refine Plumb.write_unit_whole_forall (Val := Elt F) cc0_scratch8 g8 inb_S128x1024_S128x384_0_384 _ rfl
    (fun i v => ct.okSS 2 c (i 0).val (i 1).val v) ?_ i (Fin.forall_fin_two.mpr
      ⟨⟨Nat.zero_le _, by have h' : (i 0).val < 128 := (i 0).isLt; show (i 0).val < 0 + 128; omega⟩, hi 1⟩)
  intro j i' hi'
  have e0 : (i' 0).val = (j 0).val := (hi' 0).trans (Nat.zero_add _)
  have e1 : (i' 1).val = 384 + (j 1).val := hi' 1
  show ct.okSS 2 c (i' 0).val (i' 1).val _
  rw [e0, e1]
  exact hcore j

/-- What lands at the partner of the third stage, column block 1, piece 1, is right under the contract. -/
theorem sent_2_1_1 (laws : Laws ct c YA YB) (fa : Buf (Elt F) ((c : Thread nD τ).loc cc0_scratch0)) (g000 g010 g020 g001 g011 g021 : Buf (Elt F) ((c : Thread nD τ).loc cc0_scratch1)) (g100 g110 : Buf (Elt F) ((c : Thread nD τ).loc cc0_scratch2)) (g8 : Buf (Elt F) ((c : Thread nD τ).loc cc0_scratch8))
    (fd : Buf (Elt F) ((dst_rs_2_1_1 c).view.loc ((peer 1 2 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) (hg110 : ∀ i ∈ (dst_rs_1_1_0 (peer 1 1 c)).view.set, pRS ct 1 c (sh := S256x1024) i (g110 i)) :
    ∀ i ∈ (dst_rs_2_1_1 c).view.set, pRS ct 2 (peer 1 2 c) (sh := S128x1024) i
      (((dst_rs_2_1_1 c).view.write (Elt F) fd ((src_rs_2_1_1 c).view.read (Elt F) (sendR1 c (dcc8 c fa g000 g010 g020 g001 g011 g021 g100 g110) g8)) Finset.univ) i) := by
  have hb := bit_le_one 1 1 c
  have hl := SegBCore.lo_2 1 c
  have hb2 := bit_le_one 1 2 c
  have hl3 := SegBCore.lo_3 1 c
  have h0 : ∀ i ∈ ((View.whole cc0_scratch0).slice (Rect.unit (s := S1024x1024) (k0_off28 c) S256x384.size (k0_off28_inb c))).set, ct.okAcc 0 c (i 0).val (i 1).val (fa i) := fun i hi => hfa.2.1 i (by
    have hm := (Plumb.mem_slice_unit_whole cc0_scratch0 (k0_off28_inb c) (Geo.off28_eq c) i).mp hi
    exact (Plumb.mem_slice_unit_whole cc0_scratch0 (k0_off12_inb c) (Geo.off12_eq c) i).mpr (Fin.forall_fin_two.mpr
      ⟨by have h' : lo 1 c 2 ≤ (i 0).val ∧ (i 0).val < lo 1 c 2 + 256 := hm 0
          show lo 1 c 1 ≤ (i 0).val ∧ (i 0).val < lo 1 c 1 + 512
          omega, hm 1⟩))
  have h3 : ∀ i ∈ ((View.whole cc0_scratch0).slice (Rect.unit (s := S1024x1024) (k0_off28 c) S256x384.size (k0_off28_inb c))).set, ct.okAcc 0 c (i 0).val (i 1).val (dcc3 c fa g000 g010 g020 i) := by
    unfold dcc3 dcc2 dcc1
    exact frP2 ct c 0 (k0_off28_inb c) (Geo.off28_eq c) _ _ (frP1 ct c 0 (k0_off28_inb c) (Geo.off28_eq c) _ _ (frP0 ct c 0 (k0_off28_inb c) (Geo.off28_eq c) _ _ (h0) (Or.inr (by show 384 + 384 ≤ 0 ∨ 0 + 384 ≤ 384; omega))) (Or.inl (by show lo 1 c 2 + 256 ≤ lo 1 c 1 + (1 - bit 1 1 c) * 256 ∨ lo 1 c 1 + (1 - bit 1 1 c) * 256 + 256 ≤ lo 1 c 2; omega))) (Or.inr (by show 384 + 384 ≤ 768 ∨ 768 + 256 ≤ 384; omega))
  have h6 : ∀ i ∈ ((View.whole cc0_scratch0).slice (Rect.unit (s := S1024x1024) (k0_off28 c) S256x384.size (k0_off28_inb c))).set, ct.okAcc 1 c (i 0).val (i 1).val (dcc6 c fa g000 g010 g020 g001 g011 g021 i) := by
    unfold dcc6 dcc5 dcc4
    exact frQ2 ct c 1 (k0_off28_inb c) (Geo.off28_eq c) _ _ (stepQ1 ct c YA YB laws _ _ (frQ0 ct c 0 (k0_off28_inb c) (Geo.off28_eq c) _ _ (h3) (Or.inr (by show 384 + 384 ≤ 0 ∨ 0 + 384 ≤ 384; omega))) hg011) (Or.inr (by show 384 + 384 ≤ 768 ∨ 768 + 256 ≤ 384; omega))
  have hA : ∀ i ∈ ((View.whole cc0_scratch0).slice (Rect.unit (s := S1024x1024) (k0_off28 c) S256x384.size (k0_off28_inb c))).set, ct.okAcc 1 c (i 0).val (i 1).val ((dcc7 c fa g000 g010 g020 g001 g011 g021 g100) i) := by
    unfold dcc7
    exact frR0 ct c 1 (k0_off28_inb c) (Geo.off28_eq c) _ _ (h6) (Or.inr (by show 384 + 384 ≤ 0 ∨ 0 + 384 ≤ 384; omega))
  have hcore := stepR1 ct c YA YB laws _ _ hA hg110
  refine SegBValP.landed2 ct c 1 (k0_off39_inb c) (Geo.off39_eq c)
    (fun q h1 h2 => SegAValP.blk_of_mid (by have h2' : q < 384 + 384 := h2; omega) (by have h2' : q < 384 + 384 := h2; omega)) (sendR1 c (dcc8 c fa g000 g010 g020 g001 g011 g021 g100 g110) g8) ?_ fd
  intro i hi
  unfold sendR1 dcc8
  refine Plumb.write_unit_whole_forall (Val := Elt F) cc0_scratch8 g8 inb_S128x1024_S128x384_0_384 _ rfl
    (fun i v => ct.okSS 2 c (i 0).val (i 1).val v) ?_ i (Fin.forall_fin_two.mpr
      ⟨⟨Nat.zero_le _, by have h' : (i 0).val < 128 := (i 0).isLt; show (i 0).val < 0 + 128; omega⟩, hi 1⟩)
  intro j i' hi'
  have e0 : (i' 0).val = (j 0).val := (hi' 0).trans (Nat.zero_add _)
  have e1 : (i' 1).val = 384 + (j 1).val := hi' 1
  show ct.okSS 2 c (i' 0).val (i' 1).val _
  rw [e0, e1]
  exact hcore j

/-- What lands at the partner of the third stage, column block 2, piece 0, is right under the contract. -/
theorem sent_2_2_0 (laws : Laws ct c YA YB) (fa : Buf (Elt F) ((c : Thread nD τ).loc cc0_scratch0)) (g000 g010 g020 g001 g011 g021 : Buf (Elt F) ((c : Thread nD τ).loc cc0_scratch1)) (g100 g110 g120 : Buf (Elt F) ((c : Thread nD τ).loc cc0_scratch2)) (g8 : Buf (Elt F) ((c : Thread nD τ).loc cc0_scratch8))
    (fd : Buf (Elt F) ((dst_rs_2_2_0 c).view.loc ((peer 2 2 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) (hg110 : ∀ i ∈ (dst_rs_1_1_0 (peer 1 1 c)).view.set, pRS ct 1 c (sh := S256x1024) i (g110 i)) (hg120 : ∀ i ∈ (dst_rs_1_2_0 (peer 2 1 c)).view.set, pRS ct 1 c (sh := S256x1024) i (g120 i)) :
    ∀ i ∈ (dst_rs_2_2_0 c).view.set, pRS ct 2 (peer 2 2 c) (sh := S128x1024) i
      (((dst_rs_2_2_0 c).view.write (Elt F) fd ((src_rs_2_2_0 c).view.read (Elt F) (sendR2 c (dcc9 c fa g000 g010 g020 g001 g011 g021 g100 g110 g120) g8)) Finset.univ) i) := by
  have hb := bit_le_one 2 1 c
  have hl := SegBCore.lo_2 2 c
  have hb2 := bit_le_one 2 2 c
  have hl3 := SegBCore.lo_3 2 c
  have h0 : ∀ i ∈ ((View.whole cc0_scratch0).slice (Rect.unit (s := S1024x1024) (k0_off30 c) S256x256.size (k0_off30_inb c))).set, ct.okAcc 0 c (i 0).val (i 1).val (fa i) := fun i hi => hfa.2.2 i (by
    have hm := (Plumb.mem_slice_unit_whole cc0_scratch0 (k0_off30_inb c) (Geo.off30_eq c) i).mp hi
    exact (Plumb.mem_slice_unit_whole cc0_scratch0 (k0_off13_inb c) (Geo.off13_eq c) i).mpr (Fin.forall_fin_two.mpr
      ⟨by have h' : lo 2 c 2 ≤ (i 0).val ∧ (i 0).val < lo 2 c 2 + 256 := hm 0
          show lo 2 c 1 ≤ (i 0).val ∧ (i 0).val < lo 2 c 1 + 512
          omega, hm 1⟩))
  have h3 : ∀ i ∈ ((View.whole cc0_scratch0).slice (Rect.unit (s := S1024x1024) (k0_off30 c) S256x256.size (k0_off30_inb c))).set, ct.okAcc 0 c (i 0).val (i 1).val (dcc3 c fa g000 g010 g020 i) := by
    unfold dcc3 dcc2 dcc1
    exact frP2 ct c 0 (k0_off30_inb c) (Geo.off30_eq c) _ _ (frP1 ct c 0 (k0_off30_inb c) (Geo.off30_eq c) _ _ (frP0 ct c 0 (k0_off30_inb c) (Geo.off30_eq c) _ _ (h0) (Or.inr (by show 768 + 256 ≤ 0 ∨ 0 + 384 ≤ 768; omega))) (Or.inr (by show 768 + 256 ≤ 384 ∨ 384 + 384 ≤ 768; omega))) (Or.inl (by show lo 2 c 2 + 256 ≤ lo 2 c 1 + (1 - bit 2 1 c) * 256 ∨ lo 2 c 1 + (1 - bit 2 1 c) * 256 + 256 ≤ lo 2 c 2; omega))
  have h6 : ∀ i ∈ ((View.whole cc0_scratch0).slice (Rect.unit (s := S1024x1024) (k0_off30 c) S256x256.size (k0_off30_inb c))).set, ct.okAcc 1 c (i 0).val (i 1).val (dcc6 c fa g000 g010 g020 g001 g011 g021 i) := by
    unfold dcc6 dcc5 dcc4
    exact stepQ2 ct c YA YB laws _ _ (frQ1 ct c 0 (k0_off30_inb c) (Geo.off30_eq c) _ _ (frQ0 ct c 0 (k0_off30_inb c) (Geo.off30_eq c) _ _ (h3) (Or.inr (by show 768 + 256 ≤ 0 ∨ 0 + 384 ≤ 768; omega))) (Or.inr (by show 768 + 256 ≤ 384 ∨ 384 + 384 ≤ 768; omega))) hg021
  have hA : ∀ i ∈ ((View.whole cc0_scratch0).slice (Rect.unit (s := S1024x1024) (k0_off30 c) S256x256.size (k0_off30_inb c))).set, ct.okAcc 1 c (i 0).val (i 1).val ((dcc8 c fa g000 g010 g020 g001 g011 g021 g100 g110) i) := by
    unfold dcc8 dcc7
    exact frR1 ct c 1 (k0_off30_inb c) (Geo.off30_eq c) _ _ (frR0 ct c 1 (k0_off30_inb c) (Geo.off30_eq c) _ _ (h6) (Or.inr (by show 768 + 256 ≤ 0 ∨ 0 + 384 ≤ 768; omega))) (Or.inr (by show 768 + 256 ≤ 384 ∨ 384 + 384 ≤ 768; omega))
  have hcore := stepR2 ct c YA YB laws _ _ hA hg120
  refine SegBValP.landed2 ct c 2 (k0_off42_inb c) (Geo.off42_eq c)
    (fun q h1 h2 => SegAValP.blk_of_ge (by have h2' : q < 768 + 256 := h2; omega)) (sendR2 c (dcc9 c fa g000 g010 g020 g001 g011 g021 g100 g110 g120) g8) ?_ fd
  intro i hi
  unfold sendR2 dcc9
  refine Plumb.write_unit_whole_forall (Val := Elt F) cc0_scratch8 g8 inb_S128x1024_S128x256_0_768 _ rfl
    (fun i v => ct.okSS 2 c (i 0).val (i 1).val v) ?_ i (Fin.forall_fin_two.mpr
      ⟨⟨Nat.zero_le _, by have h' : (i 0).val < 128 := (i 0).isLt; show (i 0).val < 0 + 128; omega⟩, hi 1⟩)
  intro j i' hi'
  have e0 : (i' 0).val = (j 0).val := (hi' 0).trans (Nat.zero_add _)
  have e1 : (i' 1).val = 768 + (j 1).val := hi' 1
  show ct.okSS 2 c (i' 0).val (i' 1).val _
  rw [e0, e1]
  exact hcore j

/-- What lands at the partner of the third stage, column block 2, piece 1, is right under the contract. -/
theorem sent_2_2_1 (laws : Laws ct c YA YB) (fa : Buf (Elt F) ((c : Thread nD τ).loc cc0_scratch0)) (g000 g010 g020 g001 g011 g021 : Buf (Elt F) ((c : Thread nD τ).loc cc0_scratch1)) (g100 g110 g120 : Buf (Elt F) ((c : Thread nD τ).loc cc0_scratch2)) (g8 : Buf (Elt F) ((c : Thread nD τ).loc cc0_scratch8))
    (fd : Buf (Elt F) ((dst_rs_2_2_1 c).view.loc ((peer 2 2 c : Dev nD) : Thread nD τ)))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) (hg110 : ∀ i ∈ (dst_rs_1_1_0 (peer 1 1 c)).view.set, pRS ct 1 c (sh := S256x1024) i (g110 i)) (hg120 : ∀ i ∈ (dst_rs_1_2_0 (peer 2 1 c)).view.set, pRS ct 1 c (sh := S256x1024) i (g120 i)) :
    ∀ i ∈ (dst_rs_2_2_1 c).view.set, pRS ct 2 (peer 2 2 c) (sh := S128x1024) i
      (((dst_rs_2_2_1 c).view.write (Elt F) fd ((src_rs_2_2_1 c).view.read (Elt F) (sendR2 c (dcc9 c fa g000 g010 g020 g001 g011 g021 g100 g110 g120) g8)) Finset.univ) i) := by
  have hb := bit_le_one 2 1 c
  have hl := SegBCore.lo_2 2 c
  have hb2 := bit_le_one 2 2 c
  have hl3 := SegBCore.lo_3 2 c
  have h0 : ∀ i ∈ ((View.whole cc0_scratch0).slice (Rect.unit (s := S1024x1024) (k0_off30 c) S256x256.size (k0_off30_inb c))).set, ct.okAcc 0 c (i 0).val (i 1).val (fa i) := fun i hi => hfa.2.2 i (by
    have hm := (Plumb.mem_slice_unit_whole cc0_scratch0 (k0_off30_inb c) (Geo.off30_eq c) i).mp hi
    exact (Plumb.mem_slice_unit_whole cc0_scratch0 (k0_off13_inb c) (Geo.off13_eq c) i).mpr (Fin.forall_fin_two.mpr
      ⟨by have h' : lo 2 c 2 ≤ (i 0).val ∧ (i 0).val < lo 2 c 2 + 256 := hm 0
          show lo 2 c 1 ≤ (i 0).val ∧ (i 0).val < lo 2 c 1 + 512
          omega, hm 1⟩))
  have h3 : ∀ i ∈ ((View.whole cc0_scratch0).slice (Rect.unit (s := S1024x1024) (k0_off30 c) S256x256.size (k0_off30_inb c))).set, ct.okAcc 0 c (i 0).val (i 1).val (dcc3 c fa g000 g010 g020 i) := by
    unfold dcc3 dcc2 dcc1
    exact frP2 ct c 0 (k0_off30_inb c) (Geo.off30_eq c) _ _ (frP1 ct c 0 (k0_off30_inb c) (Geo.off30_eq c) _ _ (frP0 ct c 0 (k0_off30_inb c) (Geo.off30_eq c) _ _ (h0) (Or.inr (by show 768 + 256 ≤ 0 ∨ 0 + 384 ≤ 768; omega))) (Or.inr (by show 768 + 256 ≤ 384 ∨ 384 + 384 ≤ 768; omega))) (Or.inl (by show lo 2 c 2 + 256 ≤ lo 2 c 1 + (1 - bit 2 1 c) * 256 ∨ lo 2 c 1 + (1 - bit 2 1 c) * 256 + 256 ≤ lo 2 c 2; omega))
  have h6 : ∀ i ∈ ((View.whole cc0_scratch0).slice (Rect.unit (s := S1024x1024) (k0_off30 c) S256x256.size (k0_off30_inb c))).set, ct.okAcc 1 c (i 0).val (i 1).val (dcc6 c fa g000 g010 g020 g001 g011 g021 i) := by
    unfold dcc6 dcc5 dcc4
    exact stepQ2 ct c YA YB laws _ _ (frQ1 ct c 0 (k0_off30_inb c) (Geo.off30_eq c) _ _ (frQ0 ct c 0 (k0_off30_inb c) (Geo.off30_eq c) _ _ (h3) (Or.inr (by show 768 + 256 ≤ 0 ∨ 0 + 384 ≤ 768; omega))) (Or.inr (by show 768 + 256 ≤ 384 ∨ 384 + 384 ≤ 768; omega))) hg021
  have hA : ∀ i ∈ ((View.whole cc0_scratch0).slice (Rect.unit (s := S1024x1024) (k0_off30 c) S256x256.size (k0_off30_inb c))).set, ct.okAcc 1 c (i 0).val (i 1).val ((dcc8 c fa g000 g010 g020 g001 g011 g021 g100 g110) i) := by
    unfold dcc8 dcc7
    exact frR1 ct c 1 (k0_off30_inb c) (Geo.off30_eq c) _ _ (frR0 ct c 1 (k0_off30_inb c) (Geo.off30_eq c) _ _ (h6) (Or.inr (by show 768 + 256 ≤ 0 ∨ 0 + 384 ≤ 768; omega))) (Or.inr (by show 768 + 256 ≤ 384 ∨ 384 + 384 ≤ 768; omega))
  have hcore := stepR2 ct c YA YB laws _ _ hA hg120
  refine SegBValP.landed2 ct c 2 (k0_off43_inb c) (Geo.off43_eq c)
    (fun q h1 h2 => SegAValP.blk_of_ge (by have h2' : q < 768 + 256 := h2; omega)) (sendR2 c (dcc9 c fa g000 g010 g020 g001 g011 g021 g100 g110 g120) g8) ?_ fd
  intro i hi
  unfold sendR2 dcc9
  refine Plumb.write_unit_whole_forall (Val := Elt F) cc0_scratch8 g8 inb_S128x1024_S128x256_0_768 _ rfl
    (fun i v => ct.okSS 2 c (i 0).val (i 1).val v) ?_ i (Fin.forall_fin_two.mpr
      ⟨⟨Nat.zero_le _, by have h' : (i 0).val < 128 := (i 0).isLt; show (i 0).val < 0 + 128; omega⟩, hi 1⟩)
  intro j i' hi'
  have e0 : (i' 0).val = (j 0).val := (hi' 0).trans (Nat.zero_add _)
  have e1 : (i' 1).val = 768 + (j 1).val := hi' 1
  show ct.okSS 2 c (i' 0).val (i' 1).val _
  rw [e0, e1]
  exact hcore j

/-- The kept rows of the third stage, column block 0, hold the sum over two devices. -/
theorem kept_0 (laws : Laws ct c YA YB) (fa : Buf (Elt F) ((c : Thread nD τ).loc cc0_scratch0)) (g000 g010 g020 g001 g011 g021 : Buf (Elt F) ((c : Thread nD τ).loc cc0_scratch1)) (g100 g110 g120 : Buf (Elt F) ((c : Thread nD τ).loc cc0_scratch2))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) (hg110 : ∀ i ∈ (dst_rs_1_1_0 (peer 1 1 c)).view.set, pRS ct 1 c (sh := S256x1024) i (g110 i)) (hg120 : ∀ i ∈ (dst_rs_1_2_0 (peer 2 1 c)).view.set, pRS ct 1 c (sh := S256x1024) i (g120 i)) :
    ∀ i ∈ SegBMid.accRows20_0 c, ct.okAcc 1 c (i 0).val (i 1).val (dcc9 c fa g000 g010 g020 g001 g011 g021 g100 g110 g120 i) := by
  have hb := bit_le_one 0 1 c
  have hl := SegBCore.lo_2 0 c
  have hb2 := bit_le_one 0 2 c
  have hl3 := SegBCore.lo_3 0 c
  have h0 : ∀ i ∈ ((View.whole cc0_scratch0).slice (Rect.unit (s := S1024x1024) (k0_off26 c) S256x384.size (k0_off26_inb c))).set, ct.okAcc 0 c (i 0).val (i 1).val (fa i) := fun i hi => hfa.1 i (by
    have hm := (Plumb.mem_slice_unit_whole cc0_scratch0 (k0_off26_inb c) (Geo.off26_eq c) i).mp hi
    exact (Plumb.mem_slice_unit_whole cc0_scratch0 (k0_off10_inb c) (Geo.off10_eq c) i).mpr (Fin.forall_fin_two.mpr
      ⟨by have h' : lo 0 c 2 ≤ (i 0).val ∧ (i 0).val < lo 0 c 2 + 256 := hm 0
          show lo 0 c 1 ≤ (i 0).val ∧ (i 0).val < lo 0 c 1 + 512
          omega, hm 1⟩))
  have h3 : ∀ i ∈ ((View.whole cc0_scratch0).slice (Rect.unit (s := S1024x1024) (k0_off26 c) S256x384.size (k0_off26_inb c))).set, ct.okAcc 0 c (i 0).val (i 1).val (dcc3 c fa g000 g010 g020 i) := by
    unfold dcc3 dcc2 dcc1
    exact frP2 ct c 0 (k0_off26_inb c) (Geo.off26_eq c) _ _ (frP1 ct c 0 (k0_off26_inb c) (Geo.off26_eq c) _ _ (frP0 ct c 0 (k0_off26_inb c) (Geo.off26_eq c) _ _ (h0) (Or.inl (by show lo 0 c 2 + 256 ≤ lo 0 c 1 + (1 - bit 0 1 c) * 256 ∨ lo 0 c 1 + (1 - bit 0 1 c) * 256 + 256 ≤ lo 0 c 2; omega))) (Or.inr (by show 0 + 384 ≤ 384 ∨ 384 + 384 ≤ 0; omega))) (Or.inr (by show 0 + 384 ≤ 768 ∨ 768 + 256 ≤ 0; omega))
  have h6 : ∀ i ∈ ((View.whole cc0_scratch0).slice (Rect.unit (s := S1024x1024) (k0_off26 c) S256x384.size (k0_off26_inb c))).set, ct.okAcc 1 c (i 0).val (i 1).val (dcc6 c fa g000 g010 g020 g001 g011 g021 i) := by
    unfold dcc6 dcc5 dcc4
    exact frQ2 ct c 1 (k0_off26_inb c) (Geo.off26_eq c) _ _ (frQ1 ct c 1 (k0_off26_inb c) (Geo.off26_eq c) _ _ (stepQ0 ct c YA YB laws _ _ (h3) hg001) (Or.inr (by show 0 + 384 ≤ 384 ∨ 384 + 384 ≤ 0; omega))) (Or.inr (by show 0 + 384 ≤ 768 ∨ 768 + 256 ≤ 0; omega))
  have h6' : ∀ i ∈ ((View.whole cc0_scratch0).slice (Rect.unit (s := S1024x1024) (k0_off44 c) S128x384.size (k0_off44_inb c))).set, ct.okAcc 1 c (i 0).val (i 1).val (dcc6 c fa g000 g010 g020 g001 g011 g021 i) := fun i hi => h6 i (by
    have hm := (Plumb.mem_slice_unit_whole cc0_scratch0 (k0_off44_inb c) (Geo.off44_eq c) i).mp hi
    exact (Plumb.mem_slice_unit_whole cc0_scratch0 (k0_off26_inb c) (Geo.off26_eq c) i).mpr (Fin.forall_fin_two.mpr
      ⟨by have h' : lo 0 c 3 ≤ (i 0).val ∧ (i 0).val < lo 0 c 3 + 128 := hm 0
          show lo 0 c 2 ≤ (i 0).val ∧ (i 0).val < lo 0 c 2 + 256
          omega, hm 1⟩))
  unfold dcc9 dcc8 dcc7
  exact frR2 ct c 1 (k0_off44_inb c) (Geo.off44_eq c) _ _ (frR1 ct c 1 (k0_off44_inb c) (Geo.off44_eq c) _ _ (frR0 ct c 1 (k0_off44_inb c) (Geo.off44_eq c) _ _ (h6') (Or.inl (by show lo 0 c 3 + 128 ≤ lo 0 c 2 + (1 - bit 0 2 c) * 128 ∨ lo 0 c 2 + (1 - bit 0 2 c) * 128 + 128 ≤ lo 0 c 3; omega))) (Or.inr (by show 0 + 384 ≤ 384 ∨ 384 + 384 ≤ 0; omega))) (Or.inr (by show 0 + 384 ≤ 768 ∨ 768 + 256 ≤ 0; omega))

/-- The kept rows of the third stage, column block 1, hold the sum over two devices. -/
theorem kept_1 (laws : Laws ct c YA YB) (fa : Buf (Elt F) ((c : Thread nD τ).loc cc0_scratch0)) (g000 g010 g020 g001 g011 g021 : Buf (Elt F) ((c : Thread nD τ).loc cc0_scratch1)) (g100 g110 g120 : Buf (Elt F) ((c : Thread nD τ).loc cc0_scratch2))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) (hg110 : ∀ i ∈ (dst_rs_1_1_0 (peer 1 1 c)).view.set, pRS ct 1 c (sh := S256x1024) i (g110 i)) (hg120 : ∀ i ∈ (dst_rs_1_2_0 (peer 2 1 c)).view.set, pRS ct 1 c (sh := S256x1024) i (g120 i)) :
    ∀ i ∈ SegBMid.accRows20_1 c, ct.okAcc 1 c (i 0).val (i 1).val (dcc9 c fa g000 g010 g020 g001 g011 g021 g100 g110 g120 i) := by
  have hb := bit_le_one 1 1 c
  have hl := SegBCore.lo_2 1 c
  have hb2 := bit_le_one 1 2 c
  have hl3 := SegBCore.lo_3 1 c
  have h0 : ∀ i ∈ ((View.whole cc0_scratch0).slice (Rect.unit (s := S1024x1024) (k0_off28 c) S256x384.size (k0_off28_inb c))).set, ct.okAcc 0 c (i 0).val (i 1).val (fa i) := fun i hi => hfa.2.1 i (by
    have hm := (Plumb.mem_slice_unit_whole cc0_scratch0 (k0_off28_inb c) (Geo.off28_eq c) i).mp hi
    exact (Plumb.mem_slice_unit_whole cc0_scratch0 (k0_off12_inb c) (Geo.off12_eq c) i).mpr (Fin.forall_fin_two.mpr
      ⟨by have h' : lo 1 c 2 ≤ (i 0).val ∧ (i 0).val < lo 1 c 2 + 256 := hm 0
          show lo 1 c 1 ≤ (i 0).val ∧ (i 0).val < lo 1 c 1 + 512
          omega, hm 1⟩))
  have h3 : ∀ i ∈ ((View.whole cc0_scratch0).slice (Rect.unit (s := S1024x1024) (k0_off28 c) S256x384.size (k0_off28_inb c))).set, ct.okAcc 0 c (i 0).val (i 1).val (dcc3 c fa g000 g010 g020 i) := by
    unfold dcc3 dcc2 dcc1
    exact frP2 ct c 0 (k0_off28_inb c) (Geo.off28_eq c) _ _ (frP1 ct c 0 (k0_off28_inb c) (Geo.off28_eq c) _ _ (frP0 ct c 0 (k0_off28_inb c) (Geo.off28_eq c) _ _ (h0) (Or.inr (by show 384 + 384 ≤ 0 ∨ 0 + 384 ≤ 384; omega))) (Or.inl (by show lo 1 c 2 + 256 ≤ lo 1 c 1 + (1 - bit 1 1 c) * 256 ∨ lo 1 c 1 + (1 - bit 1 1 c) * 256 + 256 ≤ lo 1 c 2; omega))) (Or.inr (by show 384 + 384 ≤ 768 ∨ 768 + 256 ≤ 384; omega))
  have h6 : ∀ i ∈ ((View.whole cc0_scratch0).slice (Rect.unit (s := S1024x1024) (k0_off28 c) S256x384.size (k0_off28_inb c))).set, ct.okAcc 1 c (i 0).val (i 1).val (dcc6 c fa g000 g010 g020 g001 g011 g021 i) := by
    unfold dcc6 dcc5 dcc4
    exact frQ2 ct c 1 (k0_off28_inb c) (Geo.off28_eq c) _ _ (stepQ1 ct c YA YB laws _ _ (frQ0 ct c 0 (k0_off28_inb c) (Geo.off28_eq c) _ _ (h3) (Or.inr (by show 384 + 384 ≤ 0 ∨ 0 + 384 ≤ 384; omega))) hg011) (Or.inr (by show 384 + 384 ≤ 768 ∨ 768 + 256 ≤ 384; omega))
  have h6' : ∀ i ∈ ((View.whole cc0_scratch0).slice (Rect.unit (s := S1024x1024) (k0_off46 c) S128x384.size (k0_off46_inb c))).set, ct.okAcc 1 c (i 0).val (i 1).val (dcc6 c fa g000 g010 g020 g001 g011 g021 i) := fun i hi => h6 i (by
    have hm := (Plumb.mem_slice_unit_whole cc0_scratch0 (k0_off46_inb c) (Geo.off46_eq c) i).mp hi
    exact (Plumb.mem_slice_unit_whole cc0_scratch0 (k0_off28_inb c) (Geo.off28_eq c) i).mpr (Fin.forall_fin_two.mpr
      ⟨by have h' : lo 1 c 3 ≤ (i 0).val ∧ (i 0).val < lo 1 c 3 + 128 := hm 0
          show lo 1 c 2 ≤ (i 0).val ∧ (i 0).val < lo 1 c 2 + 256
          omega, hm 1⟩))
  unfold dcc9 dcc8 dcc7
  exact frR2 ct c 1 (k0_off46_inb c) (Geo.off46_eq c) _ _ (frR1 ct c 1 (k0_off46_inb c) (Geo.off46_eq c) _ _ (frR0 ct c 1 (k0_off46_inb c) (Geo.off46_eq c) _ _ (h6') (Or.inr (by show 384 + 384 ≤ 0 ∨ 0 + 384 ≤ 384; omega))) (Or.inl (by show lo 1 c 3 + 128 ≤ lo 1 c 2 + (1 - bit 1 2 c) * 128 ∨ lo 1 c 2 + (1 - bit 1 2 c) * 128 + 128 ≤ lo 1 c 3; omega))) (Or.inr (by show 384 + 384 ≤ 768 ∨ 768 + 256 ≤ 384; omega))

/-- The kept rows of the third stage, column block 2, hold the sum over two devices. -/
theorem kept_2 (laws : Laws ct c YA YB) (fa : Buf (Elt F) ((c : Thread nD τ).loc cc0_scratch0)) (g000 g010 g020 g001 g011 g021 : Buf (Elt F) ((c : Thread nD τ).loc cc0_scratch1)) (g100 g110 g120 : Buf (Elt F) ((c : Thread nD τ).loc cc0_scratch2))
    (hfa : (∀ i ∈ Segs.accKeep0_0 c, ct.okAcc 0 c (i 0).val (i 1).val (fa i)) ∧ (∀ i ∈ Segs.accKeep0_1 c, ct.okAcc 0 c (i 0).val (i 1).val (fa i)) ∧ (∀ i ∈ Segs.accKeep0_2 c, ct.okAcc 0 c (i 0).val (i 1).val (fa i)))
    (hg000 : ∀ i ∈ (dst_rs_0_0_0 (peer 0 0 c)).view.set, pRS ct 0 c (sh := S512x1024) i (g000 i)) (hg010 : ∀ i ∈ (dst_rs_0_1_0 (peer 1 0 c)).view.set, pRS ct 0 c (sh := S512x1024) i (g010 i)) (hg020 : ∀ i ∈ (dst_rs_0_2_0 (peer 2 0 c)).view.set, pRS ct 0 c (sh := S512x1024) i (g020 i)) (hg001 : ∀ i ∈ (dst_rs_0_0_1 (peer 0 0 c)).view.set, pRS ct 0 c (sh := S512x1024) i (g001 i)) (hg011 : ∀ i ∈ (dst_rs_0_1_1 (peer 1 0 c)).view.set, pRS ct 0 c (sh := S512x1024) i (g011 i)) (hg021 : ∀ i ∈ (dst_rs_0_2_1 (peer 2 0 c)).view.set, pRS ct 0 c (sh := S512x1024) i (g021 i)) (hg100 : ∀ i ∈ (dst_rs_1_0_0 (peer 0 1 c)).view.set, pRS ct 1 c (sh := S256x1024) i (g100 i)) (hg110 : ∀ i ∈ (dst_rs_1_1_0 (peer 1 1 c)).view.set, pRS ct 1 c (sh := S256x1024) i (g110 i)) (hg120 : ∀ i ∈ (dst_rs_1_2_0 (peer 2 1 c)).view.set, pRS ct 1 c (sh := S256x1024) i (g120 i)) :
    ∀ i ∈ SegBMid.accRows20_2 c, ct.okAcc 1 c (i 0).val (i 1).val (dcc9 c fa g000 g010 g020 g001 g011 g021 g100 g110 g120 i) := by
  have hb := bit_le_one 2 1 c
  have hl := SegBCore.lo_2 2 c
  have hb2 := bit_le_one 2 2 c
  have hl3 := SegBCore.lo_3 2 c
  have h0 : ∀ i ∈ ((View.whole cc0_scratch0).slice (Rect.unit (s := S1024x1024) (k0_off30 c) S256x256.size (k0_off30_inb c))).set, ct.okAcc 0 c (i 0).val (i 1).val (fa i) := fun i hi => hfa.2.2 i (by
    have hm := (Plumb.mem_slice_unit_whole cc0_scratch0 (k0_off30_inb c) (Geo.off30_eq c) i).mp hi
    exact (Plumb.mem_slice_unit_whole cc0_scratch0 (k0_off13_inb c) (Geo.off13_eq c) i).mpr (Fin.forall_fin_two.mpr
      ⟨by have h' : lo 2 c 2 ≤ (i 0).val ∧ (i 0).val < lo 2 c 2 + 256 := hm 0
          show lo 2 c 1 ≤ (i 0).val ∧ (i 0).val < lo 2 c 1 + 512
          omega, hm 1⟩))
  have h3 : ∀ i ∈ ((View.whole cc0_scratch0).slice (Rect.unit (s := S1024x1024) (k0_off30 c) S256x256.size (k0_off30_inb c))).set, ct.okAcc 0 c (i 0).val (i 1).val (dcc3 c fa g000 g010 g020 i) := by
    unfold dcc3 dcc2 dcc1
    exact frP2 ct c 0 (k0_off30_inb c) (Geo.off30_eq c) _ _ (frP1 ct c 0 (k0_off30_inb c) (Geo.off30_eq c) _ _ (frP0 ct c 0 (k0_off30_inb c) (Geo.off30_eq c) _ _ (h0) (Or.inr (by show 768 + 256 ≤ 0 ∨ 0 + 384 ≤ 768; omega))) (Or.inr (by show 768 + 256 ≤ 384 ∨ 384 + 384 ≤ 768; omega))) (Or.inl (by show lo 2 c 2 + 256 ≤ lo 2 c 1 + (1 - bit 2 1 c) * 256 ∨ lo 2 c 1 + (1 - bit 2 1 c) * 256 + 256 ≤ lo 2 c 2; omega))
  have h6 : ∀ i ∈ ((View.whole cc0_scratch0).slice (Rect.unit (s := S1024x1024) (k0_off30 c) S256x256.size (k0_off30_inb c))).set, ct.okAcc 1 c (i 0).val (i 1).val (dcc6 c fa g000 g010 g020 g001 g011 g021 i) := by
    unfold dcc6 dcc5 dcc4
    exact stepQ2 ct c YA YB laws _ _ (frQ1 ct c 0 (k0_off30_inb c) (Geo.off30_eq c) _ _ (frQ0 ct c 0 (k0_off30_inb c) (Geo.off30_eq c) _ _ (h3) (Or.inr (by show 768 + 256 ≤ 0 ∨ 0 + 384 ≤ 768; omega))) (Or.inr (by show 768 + 256 ≤ 384 ∨ 384 + 384 ≤ 768; omega))) hg021
  have h6' : ∀ i ∈ ((View.whole cc0_scratch0).slice (Rect.unit (s := S1024x1024) (k0_off48 c) S128x256.size (k0_off48_inb c))).set, ct.okAcc 1 c (i 0).val (i 1).val (dcc6 c fa g000 g010 g020 g001 g011 g021 i) := fun i hi => h6 i (by
    have hm := (Plumb.mem_slice_unit_whole cc0_scratch0 (k0_off48_inb c) (Geo.off48_eq c) i).mp hi
    exact (Plumb.mem_slice_unit_whole cc0_scratch0 (k0_off30_inb c) (Geo.off30_eq c) i).mpr (Fin.forall_fin_two.mpr
      ⟨by have h' : lo 2 c 3 ≤ (i 0).val ∧ (i 0).val < lo 2 c 3 + 128 := hm 0
          show lo 2 c 2 ≤ (i 0).val ∧ (i 0).val < lo 2 c 2 + 256
          omega, hm 1⟩))
  unfold dcc9 dcc8 dcc7
  exact frR2 ct c 1 (k0_off48_inb c) (Geo.off48_eq c) _ _ (frR1 ct c 1 (k0_off48_inb c) (Geo.off48_eq c) _ _ (frR0 ct c 1 (k0_off48_inb c) (Geo.off48_eq c) _ _ (h6') (Or.inr (by show 768 + 256 ≤ 0 ∨ 0 + 384 ≤ 768; omega))) (Or.inr (by show 768 + 256 ≤ 384 ∨ 384 + 384 ≤ 768; omega))) (Or.inl (by show lo 2 c 3 + 128 ≤ lo 2 c 2 + (1 - bit 2 2 c) * 128 ∨ lo 2 c 2 + (1 - bit 2 2 c) * 128 + 128 ≤ lo 2 c 3; omega))

end Cert.Kernel.SegB1AltVal

end
-- ==== Proof.SegB1AltK.lean ====
/-
  The second and third stages of the summing phase: per column block the partner's rows added to the
  half that is given away, that half rounded into the stage's send buffer and sent in two pieces; between
  the two stages the kept halves of the second stage added.
-/
import proofs.«900879_g7700000000000880_dist_matmul_gelu_kshard_i_m1024_n1024_k512_v7x_i32_bf16_1_alg».proof.Proof.SegsK
import proofs.«900879_g7700000000000880_dist_matmul_gelu_kshard_i_m1024_n1024_k512_v7x_i32_bf16_1_alg».proof.Proof.SendStepK
import proofs.«900879_g7700000000000880_dist_matmul_gelu_kshard_i_m1024_n1024_k512_v7x_i32_bf16_1_alg».proof.Proof.SegBMidK
import proofs.«900879_g7700000000000880_dist_matmul_gelu_kshard_i_m1024_n1024_k512_v7x_i32_bf16_1_alg».proof.Proof.SegB1AltValK
import proofs.«900879_g7700000000000880_dist_matmul_gelu_kshard_i_m1024_n1024_k512_v7x_i32_bf16_1_alg».proof.Proof.RegionsRSK
import proofs.«900879_g7700000000000880_dist_matmul_gelu_kshard_i_m1024_n1024_k512_v7x_i32_bf16_1_alg».proof.Proof.RegionsOutK
set_option synthInstance.maxSize 4096
set_option maxRecDepth 65536

noncomputable section

namespace Cert.Kernel.SegB1Alt

open Cert.Kernel Cert.Kernel.Gen Cert.Kernel.Proto Cert.Kernel.Tab Cert.Kernel.Held Cert.Kernel.PayTab
open Cert.Kernel.Sched Cert.Kernel.GhostTab Cert.Kernel.Owed Cert.Kernel.Ghost Cert.Kernel.StateTab
open Cert.Kernel.Laws Cert.Kernel.Cut Cert.Kernel.Segs Cert.Kernel.RegionsRS Cert.Kernel.RegionsOut Cert.Kernel.RegionsCut
open Cert.Kernel.SendStep
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (ct : Contract F) (K : Dev nD × Fin 124 → ℕ)

/-! ## The cells' records, one cell at a time -/

theorem inv_dma (c : Dev nD) (a : Fin 4) (s : Fin 5) (k : Fin 3) (j : Fin 2) (h : usedIx (dsem a s k j).val = true) :
    (records ct K : sProp (MT nD τ sig Unit (Elt F) ℕ UU ℕ)) ⊢
      cellInv ER (sched ct) (K (c, ⟨(dsem a s k j).val, Nat.lt_trans (dsem a s k j).isLt (by decide)⟩)) (dcell c a s k j) := by
  have h0 := inv_at ct K (c, ⟨(dsem a s k j).val, Nat.lt_trans (dsem a s k j).isLt (by decide)⟩)
    (by unfold ourIx; rw [Finset.mem_filter]; exact ⟨Finset.mem_univ _, by unfold ours; rw [h]; exact Bool.or_true _⟩)
  rw [kcell_dma] at h0
  exact h0

theorem reached_dma (c : Dev nD) (a : Fin 4) (s : Fin 5) (k : Fin 3) (j : Fin 2) (h : usedIx (dsem a s k j).val = true) :
    (records ct K : sProp (MT nD τ sig Unit (Elt F) ℕ UU ℕ)) ⊢ reached ER (dcell c a s k j) 0 := by
  have h0 := reached_at ct K (c, ⟨(dsem a s k j).val, Nat.lt_trans (dsem a s k j).isLt (by decide)⟩)
    (by unfold ourIx; rw [Finset.mem_filter]; exact ⟨Finset.mem_univ _, by unfold ours; rw [h]; exact Bool.or_true _⟩)
  rw [kcell_dma] at h0
  exact h0

theorem heldV_open {sh : Shape} {e : EltTy} (d : Dev nD) (v : Memref sig .tc .vmem sh e) (q : PosShare TreeShare)
    (P : v.view.ty.Idx → Elt F v.view.ty.elt → Prop) :
    (heldV (F := F) d v q P : sProp (MT nD τ sig Unit (Elt F) ℕ UU ℕ))
      ⊢ iprop(∃ f : Buf (Elt F) (v.view.loc (d : Thread nD τ)), (v.view.loc (d : Thread nD τ) ↦[v.view.set]{q} f) ∗ ⌜∀ i ∈ v.view.set, P i (f i)⌝) := BI.Entails.refl _
theorem loanV_open {sh : Shape} {e : EltTy} (d : Dev nD) (v : Memref sig .tc .vmem sh e) :
    (loanV (F := F) d v : sProp (MT nD τ sig Unit (Elt F) ℕ UU ℕ))
      ⊢ iprop(∃ f : Buf (Elt F) (v.view.loc (d : Thread nD τ)), (v.view.loc (d : Thread nD τ) ↦[v.view.set]{fullShare} f)) := BI.Entails.refl _

theorem loanV_fold {sh : Shape} {e : EltTy} (d : Dev nD) (v : Memref sig .tc .vmem sh e) (f : Buf (Elt F) (v.view.loc (d : Thread nD τ))) :
    ((v.view.loc (d : Thread nD τ) ↦[v.view.set]{fullShare} f) : sProp (MT nD τ sig Unit (Elt F) ℕ UU ℕ)) ⊢ loanV (F := F) d v := by
  unfold loanV; iintro H; iexists f; iexact H

variable (c : Dev nD) (YA : S1024x512.Idx → F .f32) (YB : S512x1024.Idx → F .f32)

set_option maxHeartbeats 4000000 in
theorem segB1 (laws : Laws ct c YA YB) {R : Type}
    (T : (Σ' (d0 : Dev nD) (v3 : BitVec 32) (v8 : BitVec 32) (v13 : BitVec 32) (v28 : BitVec 32), BitVec 32) → Prog (TpuEff nD τ sig (Elt F) Λ₀ .tc) R)
    (Kt : R → sProp (MT nD τ sig Unit (Elt F) ℕ UU ℕ)) : SegBMid.SegB1 ct K c YA YB T Kt := by
  unfold SegBMid.SegB1
  intro v3 v4 v5 v6 v7 v8 v9 v10 v11 v12 v13 v14 v15 v16 v17 v18 v20 v22 v24 v26 v28 v40 v74 v108 v179 v182
  rw [SegBMid.rest7_cut20]
  simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part7_skel k0_part8_skel k0_part9_skel k0_part10_skel k0_part11_skel k0_part12_skel k0_part13_skel k0_part14_skel k0_part15_skel k0_part16_skel k0_part17_skel k0_part18_skel k0_part19_skel
  simp only [Prog.lift, Prog.bind_op, Prog.bind_ret, Prog.pure_eq_ret, bind_assoc, Prog.bind_assoc]
  unfold Segs.Pre7 toksFrom6 posRS credRS sendCred0 landFrom6
  iintro H
  icases H with ⟨Hpre, Hk⟩
  icases Hpre with ⟨#HR, #Hlev, HowE, Htoks, Hpos, HposAG, HcredR, HcredAG, HcredS, Hidle, HA, HB, Hown, Hacc, Hsomes, Hland⟩
  icases HowE with ⟨%W, How⟩
  icases Htoks with ⟨⟨TS100, TR100⟩, ⟨TS101, TR101⟩, ⟨TS110, TR110⟩, ⟨TS111, TR111⟩, ⟨TS120, TR120⟩, ⟨TS121, TR121⟩, ⟨TS200, TR200⟩, ⟨TS201, TR201⟩, ⟨TS210, TR210⟩, ⟨TS211, TR211⟩, ⟨TS220, TR220⟩, ⟨TS221, TR221⟩, Q300, Q301, Q310, Q311, Q320, Q321, Q400, Q410, Q420, HtoksAG⟩
  icases Hpos with ⟨⟨PS000, PR000⟩, ⟨PS001, PR001⟩, ⟨PS010, PR010⟩, ⟨PS011, PR011⟩, ⟨PS020, PR020⟩, ⟨PS021, PR021⟩, ⟨PS100, PR100⟩, PP101, ⟨PS110, PR110⟩, PP111, ⟨PS120, PR120⟩, PP121, PP200, PP201, PP210, PP211, PP220, PP221, PP300, PP301, PP310, PP311, PP320, PP321, PP400, PP410, PP420⟩
  icases HcredR with ⟨CR000, CR001, CR010, CR011, CR020, CR021, CR100, CR101, CR110, CR111, CR120, CR121, CR200, CR201, CR210, CR211, CR220, CR221, CR300, CR301, CR310, CR311, CR320, CR321, CR400, CR410, CR420⟩
  icases HcredS with ⟨CS000, CS001, CS010, CS011, CS020, CS021⟩
  icases Hland with ⟨LD100, LD101, LD110, LD111, LD120, LD121, LD200, LD201, LD210, LD211, LD220, LD221, LD300, LD301, LD310, LD311, LD320, LD321, LD400, LD410, LD420, HlandAG⟩
  icases Hacc with ⟨%fa, Hacc, %hfa⟩
  icases Hsomes with ⟨Hs7, Hs8, Hs9, Hs10⟩
  ihave Hcols := (ss_cols_1 (F := F) c) $$ Hs7
  icases Hcols with ⟨He0, He1, He2⟩
  icases He0 with ⟨%g70, He0⟩
  icases He1 with ⟨%g71, He1⟩
  icases He2 with ⟨%g72, He2⟩
  ihave Hcols := (ss_cols_2 (F := F) c) $$ Hs8
  icases Hcols with ⟨Hf0, Hf1, Hf2⟩
  icases Hf0 with ⟨%g80, Hf0⟩
  icases Hf1 with ⟨%g81, Hf1⟩
  icases Hf2 with ⟨%g82, Hf2⟩
  -- the wait on cell (0, 0, 0, 0), and the cell closed
  ihave #MWS000 := (mayWait_cell (F := F) c 0 0 0 0 11 (by decide +kernel)) $$ Hlev
  ihave #HIS000 := (inv_dma ct K c 0 0 0 0 rfl) $$ HR
  iapply (Rounds.wp_wait_rest_token Segs.𝒱₀ ER (sched ct) (c : Thread nD τ) none (κ := (K (c, ⟨(dsem 0 0 0 0).val, Nat.lt_trans (dsem 0 0 0 0).isLt (by decide)⟩))) (sm := SemLoc.dma (dsem 0 0 0 0))
      (wpE_waitDma2_eq Segs.𝒱₀ (c : Thread nD τ) none Set.univ) (Set.mem_univ _) () (O := owedFrom c 11) (W := W) (R := 0) (m := 0) (T := ∅)
      (by rw [Nat.zero_add, expect_dma ct c 0 0 0 0 rfl]; rfl)) $$ [CS000 How PS000]
  · isplitr
    · iexact HIS000
    isplitl [CS000]
    · iexact CS000
    isplitl [How]
    · iexact How
    isplitr
    · iexact MWS000
    iexact PS000
  iintro ⟨How, PS000, -, Hpay⟩
  imod (Rounds.cell_close ER (sched ct) (g := dcell c 0 0 0 0) (Set.mem_univ _) (fun h => h) (R := 1)
    (fun r hr => duties_later ct _ r hr)) $$ [PS000] with VS000
  · isplitr
    · iexact HIS000
    iexact PS000
  ihave BS000 := (Entails.of_eq (show bigSep ((sched ct).duties (dcell c 0 0 0 0) 0 \ ∅) (fun d => (sched ct).payload (dcell c 0 0 0 0) 0 d)
      = loanV c (src_rs_0_0_0 c) from rest_dma ct c 0 0 0 0 rfl)) $$ Hpay
  -- the wait on cell (1, 0, 0, 0), and the cell closed
  ihave #MWR000 := (mayWait_cell (F := F) c 1 0 0 0 11 (by decide +kernel)) $$ Hlev
  ihave #HIR000 := (inv_dma ct K c 1 0 0 0 rfl) $$ HR
  iapply (Rounds.wp_wait_rest_token Segs.𝒱₀ ER (sched ct) (c : Thread nD τ) none (κ := (K (c, ⟨(dsem 1 0 0 0).val, Nat.lt_trans (dsem 1 0 0 0).isLt (by decide)⟩))) (sm := SemLoc.dma (dsem 1 0 0 0))
      (wpE_waitDma2_eq Segs.𝒱₀ (c : Thread nD τ) none Set.univ) (Set.mem_univ _) () (O := owedFrom c 11) (W := (insert (SemLoc.dma (dsem 0 0 0 0), ()) W)) (R := 0) (m := 0) (T := ∅)
      (by rw [Nat.zero_add, expect_dma ct c 1 0 0 0 rfl]; rfl)) $$ [CR000 How PR000]
  · isplitr
    · iexact HIR000
    isplitl [CR000]
    · iexact CR000
    isplitl [How]
    · iexact How
    isplitr
    · iexact MWR000
    iexact PR000
  iintro ⟨How, PR000, -, Hpay⟩
  imod (Rounds.cell_close ER (sched ct) (g := dcell c 1 0 0 0) (Set.mem_univ _) (fun h => h) (R := 1)
    (fun r hr => duties_later ct _ r hr)) $$ [PR000] with VR000
  · isplitr
    · iexact HIR000
    iexact PR000
  ihave BR000 := (Entails.of_eq (show bigSep ((sched ct).duties (dcell c 1 0 0 0) 0 \ ∅) (fun d => (sched ct).payload (dcell c 1 0 0 0) 0 d)
      = heldV c (dst_rs_0_0_0 (peer 0 0 c)) fullShare (fun i v => pRS ct 0 c (sh := S512x1024) i v) from rest_dma ct c 1 0 0 0 rfl)) $$ Hpay
  ihave BR000 := (heldV_open (F := F) c _ fullShare _) $$ BR000
  icases BR000 with ⟨%g000, BR000, %hg000⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch1 : Memref sig .tc .vmem S512x1024 .bf16))
      (S := (dst_rs_0_0_0 (peer 0 0 c)).view.set) (by rw [← rsLoad_0_0_0 c]; exact (View.set_slice _ _).symm.subset)) $$ BR000; iintro BR000
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off14 c) S256x384.size (k0_off14_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch7 : Memref sig .tc .vmem S256x1024 .bf16))
      (S := ssCol_1_0) ((View.set_slice _ _).symm.subset)) $$ He0; iintro He0
  iapply (wp_store Segs.𝒱₀ (c : Thread nD τ) none Set.univ (m := (Memref.whole cc0_scratch7 : Memref sig .tc .vmem S256x1024 .bf16)) (r := Rect.unit (s := S256x1024) ![0, 0] S256x384.size inb_S256x1024_S256x384_0_0) (Mk := Finset.univ)
      (S := ssCol_1_0) (Finset.Subset.refl _)) $$ He0; iintro He0
  ihave Hrows := ((ss_rows_at_1_0 (F := F) c fullShare _).1) $$ He0
  icases Hrows with ⟨Hsrc100, Hsrc101⟩
  ihave LD100 := (loanV_open (F := F) (peer 0 1 c) (dst_rs_1_0_0 c)) $$ LD100
  icases LD100 with ⟨%fd100, LD100⟩
  ihave #HIS100 := (inv_dma ct K c 0 1 0 0 rfl) $$ HR
  ihave #HIR100 := (inv_dma ct K (peer 0 1 c) 1 1 0 0 rfl) $$ HR
  ihave #HrS100 := (reached_dma ct K c 0 1 0 0 rfl) $$ HR
  ihave #HrR100 := (reached_dma ct K (peer 0 1 c) 1 1 0 0 rfl) $$ HR
  iapply (send_step ct (K (c, ⟨(dsem 0 1 0 0).val, Nat.lt_trans (dsem 0 1 0 0).isLt (by decide)⟩)) (K (peer 0 1 c, ⟨(dsem 1 1 0 0).val, Nat.lt_trans (dsem 1 1 0 0).isLt (by decide)⟩)) c _ (peer 0 1 c) (dev_rs_1_0_0 c) (src_rs_1_0_0 c) (dst_rs_1_0_0 c) (dsem 0 1 0 0) (dsem 1 1 0 0)
      (SegB1AltVal.sendP0 c (SegB1AltVal.dcc1 c fa g000) g70) fd100 (owedFrom c 12) (insert (SemLoc.dma (dsem 1 0 0 0), ()) (insert (SemLoc.dma (dsem 0 0 0 0), ()) W))
      (fun i v => pRS ct 1 (peer 0 1 c) (sh := S256x1024) i v)
      (duties_dma ct c 0 1 0 0 rfl) (duties_dma ct (peer 0 1 c) 1 1 0 0 rfl) (amtIx (dsem 1 1 0 0).val) rfl rfl rfl rfl
      (by show recv_rs_1_0_0 ct (peer 0 1 c) = _; unfold recv_rs_1_0_0; rw [peer_peer])
      (SegB1AltVal.sent_1_0_0 ct c YA YB laws fa g000 g70 fd100 hfa hg000)) $$ [Hsrc100 LD100 How TS100 TR100]
  · isplitr
    · iexact HIS100
    isplitr
    · iexact HIR100
    isplitl [Hsrc100]
    · iexact Hsrc100
    isplitl [LD100]
    · iexact LD100
    isplitl [How]
    · iexact How
    isplitl [TS100]
    · iexact TS100
    isplitr
    · iexact HrS100
    isplitl [TR100]
    · iexact TR100
    iexact HrR100
  iintro ⟨CS100, How⟩
  ihave LD101 := (loanV_open (F := F) (peer 0 1 c) (dst_rs_1_0_1 c)) $$ LD101
  icases LD101 with ⟨%fd101, LD101⟩
  ihave #HIS101 := (inv_dma ct K c 0 1 0 1 rfl) $$ HR
  ihave #HIR101 := (inv_dma ct K (peer 0 1 c) 1 1 0 1 rfl) $$ HR
  ihave #HrS101 := (reached_dma ct K c 0 1 0 1 rfl) $$ HR
  ihave #HrR101 := (reached_dma ct K (peer 0 1 c) 1 1 0 1 rfl) $$ HR
  iapply (send_step ct (K (c, ⟨(dsem 0 1 0 1).val, Nat.lt_trans (dsem 0 1 0 1).isLt (by decide)⟩)) (K (peer 0 1 c, ⟨(dsem 1 1 0 1).val, Nat.lt_trans (dsem 1 1 0 1).isLt (by decide)⟩)) c _ (peer 0 1 c) (dev_rs_1_0_1 c) (src_rs_1_0_1 c) (dst_rs_1_0_1 c) (dsem 0 1 0 1) (dsem 1 1 0 1)
      (SegB1AltVal.sendP0 c (SegB1AltVal.dcc1 c fa g000) g70) fd101 (owedFrom c 13) (insert (SemLoc.dma (dsem 1 0 0 0), ()) (insert (SemLoc.dma (dsem 0 0 0 0), ()) W))
      (fun i v => pRS ct 1 (peer 0 1 c) (sh := S256x1024) i v)
      (duties_dma ct c 0 1 0 1 rfl) (duties_dma ct (peer 0 1 c) 1 1 0 1 rfl) (amtIx (dsem 1 1 0 1).val) rfl rfl rfl rfl
      (by show recv_rs_1_0_1 ct (peer 0 1 c) = _; unfold recv_rs_1_0_1; rw [peer_peer])
      (SegB1AltVal.sent_1_0_1 ct c YA YB laws fa g000 g70 fd101 hfa hg000)) $$ [Hsrc101 LD101 How TS101 TR101]
  · isplitr
    · iexact HIS101
    isplitr
    · iexact HIR101
    isplitl [Hsrc101]
    · iexact Hsrc101
    isplitl [LD101]
    · iexact LD101
    isplitl [How]
    · iexact How
    isplitl [TS101]
    · iexact TS101
    isplitr
    · iexact HrS101
    isplitl [TR101]
    · iexact TR101
    iexact HrR101
  iintro ⟨CS101, How⟩
  -- the wait on cell (0, 0, 1, 0), and the cell closed
  ihave #MWS010 := (mayWait_cell (F := F) c 0 0 1 0 13 (by decide +kernel)) $$ Hlev
  ihave #HIS010 := (inv_dma ct K c 0 0 1 0 rfl) $$ HR
  iapply (Rounds.wp_wait_rest_token Segs.𝒱₀ ER (sched ct) (c : Thread nD τ) none (κ := (K (c, ⟨(dsem 0 0 1 0).val, Nat.lt_trans (dsem 0 0 1 0).isLt (by decide)⟩))) (sm := SemLoc.dma (dsem 0 0 1 0))
      (wpE_waitDma2_eq Segs.𝒱₀ (c : Thread nD τ) none Set.univ) (Set.mem_univ _) () (O := owedFrom c 13) (W := (insert (SemLoc.dma (dsem 1 0 0 0), ()) (insert (SemLoc.dma (dsem 0 0 0 0), ()) W))) (R := 0) (m := 0) (T := ∅)
      (by rw [Nat.zero_add, expect_dma ct c 0 0 1 0 rfl]; rfl)) $$ [CS010 How PS010]
  · isplitr
    · iexact HIS010
    isplitl [CS010]
    · iexact CS010
    isplitl [How]
    · iexact How
    isplitr
    · iexact MWS010
    iexact PS010
  iintro ⟨How, PS010, -, Hpay⟩
  imod (Rounds.cell_close ER (sched ct) (g := dcell c 0 0 1 0) (Set.mem_univ _) (fun h => h) (R := 1)
    (fun r hr => duties_later ct _ r hr)) $$ [PS010] with VS010
  · isplitr
    · iexact HIS010
    iexact PS010
  ihave BS010 := (Entails.of_eq (show bigSep ((sched ct).duties (dcell c 0 0 1 0) 0 \ ∅) (fun d => (sched ct).payload (dcell c 0 0 1 0) 0 d)
      = loanV c (src_rs_0_1_0 c) from rest_dma ct c 0 0 1 0 rfl)) $$ Hpay
  -- the wait on cell (1, 0, 1, 0), and the cell closed
  ihave #MWR010 := (mayWait_cell (F := F) c 1 0 1 0 13 (by decide +kernel)) $$ Hlev
  ihave #HIR010 := (inv_dma ct K c 1 0 1 0 rfl) $$ HR
  iapply (Rounds.wp_wait_rest_token Segs.𝒱₀ ER (sched ct) (c : Thread nD τ) none (κ := (K (c, ⟨(dsem 1 0 1 0).val, Nat.lt_trans (dsem 1 0 1 0).isLt (by decide)⟩))) (sm := SemLoc.dma (dsem 1 0 1 0))
      (wpE_waitDma2_eq Segs.𝒱₀ (c : Thread nD τ) none Set.univ) (Set.mem_univ _) () (O := owedFrom c 13) (W := (insert (SemLoc.dma (dsem 0 0 1 0), ()) (insert (SemLoc.dma (dsem 1 0 0 0), ()) (insert (SemLoc.dma (dsem 0 0 0 0), ()) W)))) (R := 0) (m := 0) (T := ∅)
      (by rw [Nat.zero_add, expect_dma ct c 1 0 1 0 rfl]; rfl)) $$ [CR010 How PR010]
  · isplitr
    · iexact HIR010
    isplitl [CR010]
    · iexact CR010
    isplitl [How]
    · iexact How
    isplitr
    · iexact MWR010
    iexact PR010
  iintro ⟨How, PR010, -, Hpay⟩
  imod (Rounds.cell_close ER (sched ct) (g := dcell c 1 0 1 0) (Set.mem_univ _) (fun h => h) (R := 1)
    (fun r hr => duties_later ct _ r hr)) $$ [PR010] with VR010
  · isplitr
    · iexact HIR010
    iexact PR010
  ihave BR010 := (Entails.of_eq (show bigSep ((sched ct).duties (dcell c 1 0 1 0) 0 \ ∅) (fun d => (sched ct).payload (dcell c 1 0 1 0) 0 d)
      = heldV c (dst_rs_0_1_0 (peer 1 0 c)) fullShare (fun i v => pRS ct 0 c (sh := S512x1024) i v) from rest_dma ct c 1 0 1 0 rfl)) $$ Hpay
  ihave BR010 := (heldV_open (F := F) c _ fullShare _) $$ BR010
  icases BR010 with ⟨%g010, BR010, %hg010⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch1 : Memref sig .tc .vmem S512x1024 .bf16))
      (S := (dst_rs_0_1_0 (peer 1 0 c)).view.set) (by rw [← rsLoad_0_1_0 c]; exact (View.set_slice _ _).symm.subset)) $$ BR010; iintro BR010
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off18 c) S256x384.size (k0_off18_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch7 : Memref sig .tc .vmem S256x1024 .bf16))
      (S := ssCol_1_1) ((View.set_slice _ _).symm.subset)) $$ He1; iintro He1
  iapply (wp_store Segs.𝒱₀ (c : Thread nD τ) none Set.univ (m := (Memref.whole cc0_scratch7 : Memref sig .tc .vmem S256x1024 .bf16)) (r := Rect.unit (s := S256x1024) ![0, 384] S256x384.size inb_S256x1024_S256x384_0_384) (Mk := Finset.univ)
      (S := ssCol_1_1) (Finset.Subset.refl _)) $$ He1; iintro He1
  ihave Hrows := ((ss_rows_at_1_1 (F := F) c fullShare _).1) $$ He1
  icases Hrows with ⟨Hsrc110, Hsrc111⟩
  ihave LD110 := (loanV_open (F := F) (peer 1 1 c) (dst_rs_1_1_0 c)) $$ LD110
  icases LD110 with ⟨%fd110, LD110⟩
  ihave #HIS110 := (inv_dma ct K c 0 1 1 0 rfl) $$ HR
  ihave #HIR110 := (inv_dma ct K (peer 1 1 c) 1 1 1 0 rfl) $$ HR
  ihave #HrS110 := (reached_dma ct K c 0 1 1 0 rfl) $$ HR
  ihave #HrR110 := (reached_dma ct K (peer 1 1 c) 1 1 1 0 rfl) $$ HR
  iapply (send_step ct (K (c, ⟨(dsem 0 1 1 0).val, Nat.lt_trans (dsem 0 1 1 0).isLt (by decide)⟩)) (K (peer 1 1 c, ⟨(dsem 1 1 1 0).val, Nat.lt_trans (dsem 1 1 1 0).isLt (by decide)⟩)) c _ (peer 1 1 c) (dev_rs_1_1_0 c) (src_rs_1_1_0 c) (dst_rs_1_1_0 c) (dsem 0 1 1 0) (dsem 1 1 1 0)
      (SegB1AltVal.sendP1 c (SegB1AltVal.dcc2 c fa g000 g010) g71) fd110 (owedFrom c 14) (insert (SemLoc.dma (dsem 1 0 1 0), ()) (insert (SemLoc.dma (dsem 0 0 1 0), ()) (insert (SemLoc.dma (dsem 1 0 0 0), ()) (insert (SemLoc.dma (dsem 0 0 0 0), ()) W))))
      (fun i v => pRS ct 1 (peer 1 1 c) (sh := S256x1024) i v)
      (duties_dma ct c 0 1 1 0 rfl) (duties_dma ct (peer 1 1 c) 1 1 1 0 rfl) (amtIx (dsem 1 1 1 0).val) rfl rfl rfl rfl
      (by show recv_rs_1_1_0 ct (peer 1 1 c) = _; unfold recv_rs_1_1_0; rw [peer_peer])
      (SegB1AltVal.sent_1_1_0 ct c YA YB laws fa g000 g010 g71 fd110 hfa hg000 hg010)) $$ [Hsrc110 LD110 How TS110 TR110]
  · isplitr
    · iexact HIS110
    isplitr
    · iexact HIR110
    isplitl [Hsrc110]
    · iexact Hsrc110
    isplitl [LD110]
    · iexact LD110
    isplitl [How]
    · iexact How
    isplitl [TS110]
    · iexact TS110
    isplitr
    · iexact HrS110
    isplitl [TR110]
    · iexact TR110
    iexact HrR110
  iintro ⟨CS110, How⟩
  ihave LD111 := (loanV_open (F := F) (peer 1 1 c) (dst_rs_1_1_1 c)) $$ LD111
  icases LD111 with ⟨%fd111, LD111⟩
  ihave #HIS111 := (inv_dma ct K c 0 1 1 1 rfl) $$ HR
  ihave #HIR111 := (inv_dma ct K (peer 1 1 c) 1 1 1 1 rfl) $$ HR
  ihave #HrS111 := (reached_dma ct K c 0 1 1 1 rfl) $$ HR
  ihave #HrR111 := (reached_dma ct K (peer 1 1 c) 1 1 1 1 rfl) $$ HR
  iapply (send_step ct (K (c, ⟨(dsem 0 1 1 1).val, Nat.lt_trans (dsem 0 1 1 1).isLt (by decide)⟩)) (K (peer 1 1 c, ⟨(dsem 1 1 1 1).val, Nat.lt_trans (dsem 1 1 1 1).isLt (by decide)⟩)) c _ (peer 1 1 c) (dev_rs_1_1_1 c) (src_rs_1_1_1 c) (dst_rs_1_1_1 c) (dsem 0 1 1 1) (dsem 1 1 1 1)
      (SegB1AltVal.sendP1 c (SegB1AltVal.dcc2 c fa g000 g010) g71) fd111 (owedFrom c 15) (insert (SemLoc.dma (dsem 1 0 1 0), ()) (insert (SemLoc.dma (dsem 0 0 1 0), ()) (insert (SemLoc.dma (dsem 1 0 0 0), ()) (insert (SemLoc.dma (dsem 0 0 0 0), ()) W))))
      (fun i v => pRS ct 1 (peer 1 1 c) (sh := S256x1024) i v)
      (duties_dma ct c 0 1 1 1 rfl) (duties_dma ct (peer 1 1 c) 1 1 1 1 rfl) (amtIx (dsem 1 1 1 1).val) rfl rfl rfl rfl
      (by show recv_rs_1_1_1 ct (peer 1 1 c) = _; unfold recv_rs_1_1_1; rw [peer_peer])
      (SegB1AltVal.sent_1_1_1 ct c YA YB laws fa g000 g010 g71 fd111 hfa hg000 hg010)) $$ [Hsrc111 LD111 How TS111 TR111]
  · isplitr
    · iexact HIS111
    isplitr
    · iexact HIR111
    isplitl [Hsrc111]
    · iexact Hsrc111
    isplitl [LD111]
    · iexact LD111
    isplitl [How]
    · iexact How
    isplitl [TS111]
    · iexact TS111
    isplitr
    · iexact HrS111
    isplitl [TR111]
    · iexact TR111
    iexact HrR111
  iintro ⟨CS111, How⟩
  -- the wait on cell (0, 0, 2, 0), and the cell closed
  ihave #MWS020 := (mayWait_cell (F := F) c 0 0 2 0 15 (by decide +kernel)) $$ Hlev
  ihave #HIS020 := (inv_dma ct K c 0 0 2 0 rfl) $$ HR
  iapply (Rounds.wp_wait_rest_token Segs.𝒱₀ ER (sched ct) (c : Thread nD τ) none (κ := (K (c, ⟨(dsem 0 0 2 0).val, Nat.lt_trans (dsem 0 0 2 0).isLt (by decide)⟩))) (sm := SemLoc.dma (dsem 0 0 2 0))
      (wpE_waitDma2_eq Segs.𝒱₀ (c : Thread nD τ) none Set.univ) (Set.mem_univ _) () (O := owedFrom c 15) (W := (insert (SemLoc.dma (dsem 1 0 1 0), ()) (insert (SemLoc.dma (dsem 0 0 1 0), ()) (insert (SemLoc.dma (dsem 1 0 0 0), ()) (insert (SemLoc.dma (dsem 0 0 0 0), ()) W))))) (R := 0) (m := 0) (T := ∅)
      (by rw [Nat.zero_add, expect_dma ct c 0 0 2 0 rfl]; rfl)) $$ [CS020 How PS020]
  · isplitr
    · iexact HIS020
    isplitl [CS020]
    · iexact CS020
    isplitl [How]
    · iexact How
    isplitr
    · iexact MWS020
    iexact PS020
  iintro ⟨How, PS020, -, Hpay⟩
  imod (Rounds.cell_close ER (sched ct) (g := dcell c 0 0 2 0) (Set.mem_univ _) (fun h => h) (R := 1)
    (fun r hr => duties_later ct _ r hr)) $$ [PS020] with VS020
  · isplitr
    · iexact HIS020
    iexact PS020
  ihave BS020 := (Entails.of_eq (show bigSep ((sched ct).duties (dcell c 0 0 2 0) 0 \ ∅) (fun d => (sched ct).payload (dcell c 0 0 2 0) 0 d)
      = loanV c (src_rs_0_2_0 c) from rest_dma ct c 0 0 2 0 rfl)) $$ Hpay
  -- the wait on cell (1, 0, 2, 0), and the cell closed
  ihave #MWR020 := (mayWait_cell (F := F) c 1 0 2 0 15 (by decide +kernel)) $$ Hlev
  ihave #HIR020 := (inv_dma ct K c 1 0 2 0 rfl) $$ HR
  iapply (Rounds.wp_wait_rest_token Segs.𝒱₀ ER (sched ct) (c : Thread nD τ) none (κ := (K (c, ⟨(dsem 1 0 2 0).val, Nat.lt_trans (dsem 1 0 2 0).isLt (by decide)⟩))) (sm := SemLoc.dma (dsem 1 0 2 0))
      (wpE_waitDma2_eq Segs.𝒱₀ (c : Thread nD τ) none Set.univ) (Set.mem_univ _) () (O := owedFrom c 15) (W := (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W)))))) (R := 0) (m := 0) (T := ∅)
      (by rw [Nat.zero_add, expect_dma ct c 1 0 2 0 rfl]; rfl)) $$ [CR020 How PR020]
  · isplitr
    · iexact HIR020
    isplitl [CR020]
    · iexact CR020
    isplitl [How]
    · iexact How
    isplitr
    · iexact MWR020
    iexact PR020
  iintro ⟨How, PR020, -, Hpay⟩
  imod (Rounds.cell_close ER (sched ct) (g := dcell c 1 0 2 0) (Set.mem_univ _) (fun h => h) (R := 1)
    (fun r hr => duties_later ct _ r hr)) $$ [PR020] with VR020
  · isplitr
    · iexact HIR020
    iexact PR020
  ihave BR020 := (Entails.of_eq (show bigSep ((sched ct).duties (dcell c 1 0 2 0) 0 \ ∅) (fun d => (sched ct).payload (dcell c 1 0 2 0) 0 d)
      = heldV c (dst_rs_0_2_0 (peer 2 0 c)) fullShare (fun i v => pRS ct 0 c (sh := S512x1024) i v) from rest_dma ct c 1 0 2 0 rfl)) $$ Hpay
  ihave BR020 := (heldV_open (F := F) c _ fullShare _) $$ BR020
  icases BR020 with ⟨%g020, BR020, %hg020⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch1 : Memref sig .tc .vmem S512x1024 .bf16))
      (S := (dst_rs_0_2_0 (peer 2 0 c)).view.set) (by rw [← rsLoad_0_2_0 c]; exact (View.set_slice _ _).symm.subset)) $$ BR020; iintro BR020
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off22 c) S256x256.size (k0_off22_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch7 : Memref sig .tc .vmem S256x1024 .bf16))
      (S := ssCol_1_2) ((View.set_slice _ _).symm.subset)) $$ He2; iintro He2
  iapply (wp_store Segs.𝒱₀ (c : Thread nD τ) none Set.univ (m := (Memref.whole cc0_scratch7 : Memref sig .tc .vmem S256x1024 .bf16)) (r := Rect.unit (s := S256x1024) ![0, 768] S256x256.size inb_S256x1024_S256x256_0_768) (Mk := Finset.univ)
      (S := ssCol_1_2) (Finset.Subset.refl _)) $$ He2; iintro He2
  ihave Hrows := ((ss_rows_at_1_2 (F := F) c fullShare _).1) $$ He2
  icases Hrows with ⟨Hsrc120, Hsrc121⟩
  ihave LD120 := (loanV_open (F := F) (peer 2 1 c) (dst_rs_1_2_0 c)) $$ LD120
  icases LD120 with ⟨%fd120, LD120⟩
  ihave #HIS120 := (inv_dma ct K c 0 1 2 0 rfl) $$ HR
  ihave #HIR120 := (inv_dma ct K (peer 2 1 c) 1 1 2 0 rfl) $$ HR
  ihave #HrS120 := (reached_dma ct K c 0 1 2 0 rfl) $$ HR
  ihave #HrR120 := (reached_dma ct K (peer 2 1 c) 1 1 2 0 rfl) $$ HR
  iapply (send_step ct (K (c, ⟨(dsem 0 1 2 0).val, Nat.lt_trans (dsem 0 1 2 0).isLt (by decide)⟩)) (K (peer 2 1 c, ⟨(dsem 1 1 2 0).val, Nat.lt_trans (dsem 1 1 2 0).isLt (by decide)⟩)) c _ (peer 2 1 c) (dev_rs_1_2_0 c) (src_rs_1_2_0 c) (dst_rs_1_2_0 c) (dsem 0 1 2 0) (dsem 1 1 2 0)
      (SegB1AltVal.sendP2 c (SegB1AltVal.dcc3 c fa g000 g010 g020) g72) fd120 (owedFrom c 16) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))
      (fun i v => pRS ct 1 (peer 2 1 c) (sh := S256x1024) i v)
      (duties_dma ct c 0 1 2 0 rfl) (duties_dma ct (peer 2 1 c) 1 1 2 0 rfl) (amtIx (dsem 1 1 2 0).val) rfl rfl rfl rfl
      (by show recv_rs_1_2_0 ct (peer 2 1 c) = _; unfold recv_rs_1_2_0; rw [peer_peer])
      (SegB1AltVal.sent_1_2_0 ct c YA YB laws fa g000 g010 g020 g72 fd120 hfa hg000 hg010 hg020)) $$ [Hsrc120 LD120 How TS120 TR120]
  · isplitr
    · iexact HIS120
    isplitr
    · iexact HIR120
    isplitl [Hsrc120]
    · iexact Hsrc120
    isplitl [LD120]
    · iexact LD120
    isplitl [How]
    · iexact How
    isplitl [TS120]
    · iexact TS120
    isplitr
    · iexact HrS120
    isplitl [TR120]
    · iexact TR120
    iexact HrR120
  iintro ⟨CS120, How⟩
  ihave LD121 := (loanV_open (F := F) (peer 2 1 c) (dst_rs_1_2_1 c)) $$ LD121
  icases LD121 with ⟨%fd121, LD121⟩
  ihave #HIS121 := (inv_dma ct K c 0 1 2 1 rfl) $$ HR
  ihave #HIR121 := (inv_dma ct K (peer 2 1 c) 1 1 2 1 rfl) $$ HR
  ihave #HrS121 := (reached_dma ct K c 0 1 2 1 rfl) $$ HR
  ihave #HrR121 := (reached_dma ct K (peer 2 1 c) 1 1 2 1 rfl) $$ HR
  iapply (send_step ct (K (c, ⟨(dsem 0 1 2 1).val, Nat.lt_trans (dsem 0 1 2 1).isLt (by decide)⟩)) (K (peer 2 1 c, ⟨(dsem 1 1 2 1).val, Nat.lt_trans (dsem 1 1 2 1).isLt (by decide)⟩)) c _ (peer 2 1 c) (dev_rs_1_2_1 c) (src_rs_1_2_1 c) (dst_rs_1_2_1 c) (dsem 0 1 2 1) (dsem 1 1 2 1)
      (SegB1AltVal.sendP2 c (SegB1AltVal.dcc3 c fa g000 g010 g020) g72) fd121 (owedFrom c 17) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))
      (fun i v => pRS ct 1 (peer 2 1 c) (sh := S256x1024) i v)
      (duties_dma ct c 0 1 2 1 rfl) (duties_dma ct (peer 2 1 c) 1 1 2 1 rfl) (amtIx (dsem 1 1 2 1).val) rfl rfl rfl rfl
      (by show recv_rs_1_2_1 ct (peer 2 1 c) = _; unfold recv_rs_1_2_1; rw [peer_peer])
      (SegB1AltVal.sent_1_2_1 ct c YA YB laws fa g000 g010 g020 g72 fd121 hfa hg000 hg010 hg020)) $$ [Hsrc121 LD121 How TS121 TR121]
  · isplitr
    · iexact HIS121
    isplitr
    · iexact HIR121
    isplitl [Hsrc121]
    · iexact Hsrc121
    isplitl [LD121]
    · iexact LD121
    isplitl [How]
    · iexact How
    isplitl [TS121]
    · iexact TS121
    isplitr
    · iexact HrS121
    isplitl [TR121]
    · iexact TR121
    iexact HrR121
  iintro ⟨CS121, How⟩
  -- the wait on cell (0, 0, 0, 1), and the cell closed
  ihave #MWS001 := (mayWait_cell (F := F) c 0 0 0 1 17 (by decide +kernel)) $$ Hlev
  ihave #HIS001 := (inv_dma ct K c 0 0 0 1 rfl) $$ HR
  iapply (Rounds.wp_wait_rest_token Segs.𝒱₀ ER (sched ct) (c : Thread nD τ) none (κ := (K (c, ⟨(dsem 0 0 0 1).val, Nat.lt_trans (dsem 0 0 0 1).isLt (by decide)⟩))) (sm := SemLoc.dma (dsem 0 0 0 1))
      (wpE_waitDma2_eq Segs.𝒱₀ (c : Thread nD τ) none Set.univ) (Set.mem_univ _) () (O := owedFrom c 17) (W := (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))) (R := 0) (m := 0) (T := ∅)
      (by rw [Nat.zero_add, expect_dma ct c 0 0 0 1 rfl]; rfl)) $$ [CS001 How PS001]
  · isplitr
    · iexact HIS001
    isplitl [CS001]
    · iexact CS001
    isplitl [How]
    · iexact How
    isplitr
    · iexact MWS001
    iexact PS001
  iintro ⟨How, PS001, -, Hpay⟩
  imod (Rounds.cell_close ER (sched ct) (g := dcell c 0 0 0 1) (Set.mem_univ _) (fun h => h) (R := 1)
    (fun r hr => duties_later ct _ r hr)) $$ [PS001] with VS001
  · isplitr
    · iexact HIS001
    iexact PS001
  ihave BS001 := (Entails.of_eq (show bigSep ((sched ct).duties (dcell c 0 0 0 1) 0 \ ∅) (fun d => (sched ct).payload (dcell c 0 0 0 1) 0 d)
      = loanV c (src_rs_0_0_1 c) from rest_dma ct c 0 0 0 1 rfl)) $$ Hpay
  -- the wait on cell (1, 0, 0, 1), and the cell closed
  ihave #MWR001 := (mayWait_cell (F := F) c 1 0 0 1 17 (by decide +kernel)) $$ Hlev
  ihave #HIR001 := (inv_dma ct K c 1 0 0 1 rfl) $$ HR
  iapply (Rounds.wp_wait_rest_token Segs.𝒱₀ ER (sched ct) (c : Thread nD τ) none (κ := (K (c, ⟨(dsem 1 0 0 1).val, Nat.lt_trans (dsem 1 0 0 1).isLt (by decide)⟩))) (sm := SemLoc.dma (dsem 1 0 0 1))
      (wpE_waitDma2_eq Segs.𝒱₀ (c : Thread nD τ) none Set.univ) (Set.mem_univ _) () (O := owedFrom c 17) (W := (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W)))))))) (R := 0) (m := 0) (T := ∅)
      (by rw [Nat.zero_add, expect_dma ct c 1 0 0 1 rfl]; rfl)) $$ [CR001 How PR001]
  · isplitr
    · iexact HIR001
    isplitl [CR001]
    · iexact CR001
    isplitl [How]
    · iexact How
    isplitr
    · iexact MWR001
    iexact PR001
  iintro ⟨How, PR001, -, Hpay⟩
  imod (Rounds.cell_close ER (sched ct) (g := dcell c 1 0 0 1) (Set.mem_univ _) (fun h => h) (R := 1)
    (fun r hr => duties_later ct _ r hr)) $$ [PR001] with VR001
  · isplitr
    · iexact HIR001
    iexact PR001
  ihave BR001 := (Entails.of_eq (show bigSep ((sched ct).duties (dcell c 1 0 0 1) 0 \ ∅) (fun d => (sched ct).payload (dcell c 1 0 0 1) 0 d)
      = heldV c (dst_rs_0_0_1 (peer 0 0 c)) fullShare (fun i v => pRS ct 0 c (sh := S512x1024) i v) from rest_dma ct c 1 0 0 1 rfl)) $$ Hpay
  ihave BR001 := (heldV_open (F := F) c _ fullShare _) $$ BR001
  icases BR001 with ⟨%g001, BR001, %hg001⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch1 : Memref sig .tc .vmem S512x1024 .bf16))
      (S := (dst_rs_0_0_1 (peer 0 0 c)).view.set) (by rw [← rsLoad_0_0_1 c]; exact (View.set_slice _ _).symm.subset)) $$ BR001; iintro BR001
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off26 c) S256x384.size (k0_off26_inb c)) (Mk := Finset.univ) (Finset.subset_univ _)) $$ Hacc; iintro Hacc
  -- the wait on cell (0, 0, 1, 1), and the cell closed
  ihave #MWS011 := (mayWait_cell (F := F) c 0 0 1 1 17 (by decide +kernel)) $$ Hlev
  ihave #HIS011 := (inv_dma ct K c 0 0 1 1 rfl) $$ HR
  iapply (Rounds.wp_wait_rest_token Segs.𝒱₀ ER (sched ct) (c : Thread nD τ) none (κ := (K (c, ⟨(dsem 0 0 1 1).val, Nat.lt_trans (dsem 0 0 1 1).isLt (by decide)⟩))) (sm := SemLoc.dma (dsem 0 0 1 1))
      (wpE_waitDma2_eq Segs.𝒱₀ (c : Thread nD τ) none Set.univ) (Set.mem_univ _) () (O := owedFrom c 17) (W := (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))) (R := 0) (m := 0) (T := ∅)
      (by rw [Nat.zero_add, expect_dma ct c 0 0 1 1 rfl]; rfl)) $$ [CS011 How PS011]
  · isplitr
    · iexact HIS011
    isplitl [CS011]
    · iexact CS011
    isplitl [How]
    · iexact How
    isplitr
    · iexact MWS011
    iexact PS011
  iintro ⟨How, PS011, -, Hpay⟩
  imod (Rounds.cell_close ER (sched ct) (g := dcell c 0 0 1 1) (Set.mem_univ _) (fun h => h) (R := 1)
    (fun r hr => duties_later ct _ r hr)) $$ [PS011] with VS011
  · isplitr
    · iexact HIS011
    iexact PS011
  ihave BS011 := (Entails.of_eq (show bigSep ((sched ct).duties (dcell c 0 0 1 1) 0 \ ∅) (fun d => (sched ct).payload (dcell c 0 0 1 1) 0 d)
      = loanV c (src_rs_0_1_1 c) from rest_dma ct c 0 0 1 1 rfl)) $$ Hpay
  -- the wait on cell (1, 0, 1, 1), and the cell closed
  ihave #MWR011 := (mayWait_cell (F := F) c 1 0 1 1 17 (by decide +kernel)) $$ Hlev
  ihave #HIR011 := (inv_dma ct K c 1 0 1 1 rfl) $$ HR
  iapply (Rounds.wp_wait_rest_token Segs.𝒱₀ ER (sched ct) (c : Thread nD τ) none (κ := (K (c, ⟨(dsem 1 0 1 1).val, Nat.lt_trans (dsem 1 0 1 1).isLt (by decide)⟩))) (sm := SemLoc.dma (dsem 1 0 1 1))
      (wpE_waitDma2_eq Segs.𝒱₀ (c : Thread nD τ) none Set.univ) (Set.mem_univ _) () (O := owedFrom c 17) (W := (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W)))))))))) (R := 0) (m := 0) (T := ∅)
      (by rw [Nat.zero_add, expect_dma ct c 1 0 1 1 rfl]; rfl)) $$ [CR011 How PR011]
  · isplitr
    · iexact HIR011
    isplitl [CR011]
    · iexact CR011
    isplitl [How]
    · iexact How
    isplitr
    · iexact MWR011
    iexact PR011
  iintro ⟨How, PR011, -, Hpay⟩
  imod (Rounds.cell_close ER (sched ct) (g := dcell c 1 0 1 1) (Set.mem_univ _) (fun h => h) (R := 1)
    (fun r hr => duties_later ct _ r hr)) $$ [PR011] with VR011
  · isplitr
    · iexact HIR011
    iexact PR011
  ihave BR011 := (Entails.of_eq (show bigSep ((sched ct).duties (dcell c 1 0 1 1) 0 \ ∅) (fun d => (sched ct).payload (dcell c 1 0 1 1) 0 d)
      = heldV c (dst_rs_0_1_1 (peer 1 0 c)) fullShare (fun i v => pRS ct 0 c (sh := S512x1024) i v) from rest_dma ct c 1 0 1 1 rfl)) $$ Hpay
  ihave BR011 := (heldV_open (F := F) c _ fullShare _) $$ BR011
  icases BR011 with ⟨%g011, BR011, %hg011⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch1 : Memref sig .tc .vmem S512x1024 .bf16))
      (S := (dst_rs_0_1_1 (peer 1 0 c)).view.set) (by rw [← rsLoad_0_1_1 c]; exact (View.set_slice _ _).symm.subset)) $$ BR011; iintro BR011
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off28 c) S256x384.size (k0_off28_inb c)) (Mk := Finset.univ) (Finset.subset_univ _)) $$ Hacc; iintro Hacc
  -- the wait on cell (0, 0, 2, 1), and the cell closed
  ihave #MWS021 := (mayWait_cell (F := F) c 0 0 2 1 17 (by decide +kernel)) $$ Hlev
  ihave #HIS021 := (inv_dma ct K c 0 0 2 1 rfl) $$ HR
  iapply (Rounds.wp_wait_rest_token Segs.𝒱₀ ER (sched ct) (c : Thread nD τ) none (κ := (K (c, ⟨(dsem 0 0 2 1).val, Nat.lt_trans (dsem 0 0 2 1).isLt (by decide)⟩))) (sm := SemLoc.dma (dsem 0 0 2 1))
      (wpE_waitDma2_eq Segs.𝒱₀ (c : Thread nD τ) none Set.univ) (Set.mem_univ _) () (O := owedFrom c 17) (W := (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))) (R := 0) (m := 0) (T := ∅)
      (by rw [Nat.zero_add, expect_dma ct c 0 0 2 1 rfl]; rfl)) $$ [CS021 How PS021]
  · isplitr
    · iexact HIS021
    isplitl [CS021]
    · iexact CS021
    isplitl [How]
    · iexact How
    isplitr
    · iexact MWS021
    iexact PS021
  iintro ⟨How, PS021, -, Hpay⟩
  imod (Rounds.cell_close ER (sched ct) (g := dcell c 0 0 2 1) (Set.mem_univ _) (fun h => h) (R := 1)
    (fun r hr => duties_later ct _ r hr)) $$ [PS021] with VS021
  · isplitr
    · iexact HIS021
    iexact PS021
  ihave BS021 := (Entails.of_eq (show bigSep ((sched ct).duties (dcell c 0 0 2 1) 0 \ ∅) (fun d => (sched ct).payload (dcell c 0 0 2 1) 0 d)
      = loanV c (src_rs_0_2_1 c) from rest_dma ct c 0 0 2 1 rfl)) $$ Hpay
  -- the wait on cell (1, 0, 2, 1), and the cell closed
  ihave #MWR021 := (mayWait_cell (F := F) c 1 0 2 1 17 (by decide +kernel)) $$ Hlev
  ihave #HIR021 := (inv_dma ct K c 1 0 2 1 rfl) $$ HR
  iapply (Rounds.wp_wait_rest_token Segs.𝒱₀ ER (sched ct) (c : Thread nD τ) none (κ := (K (c, ⟨(dsem 1 0 2 1).val, Nat.lt_trans (dsem 1 0 2 1).isLt (by decide)⟩))) (sm := SemLoc.dma (dsem 1 0 2 1))
      (wpE_waitDma2_eq Segs.𝒱₀ (c : Thread nD τ) none Set.univ) (Set.mem_univ _) () (O := owedFrom c 17) (W := (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W)))))))))))) (R := 0) (m := 0) (T := ∅)
      (by rw [Nat.zero_add, expect_dma ct c 1 0 2 1 rfl]; rfl)) $$ [CR021 How PR021]
  · isplitr
    · iexact HIR021
    isplitl [CR021]
    · iexact CR021
    isplitl [How]
    · iexact How
    isplitr
    · iexact MWR021
    iexact PR021
  iintro ⟨How, PR021, -, Hpay⟩
  imod (Rounds.cell_close ER (sched ct) (g := dcell c 1 0 2 1) (Set.mem_univ _) (fun h => h) (R := 1)
    (fun r hr => duties_later ct _ r hr)) $$ [PR021] with VR021
  · isplitr
    · iexact HIR021
    iexact PR021
  ihave BR021 := (Entails.of_eq (show bigSep ((sched ct).duties (dcell c 1 0 2 1) 0 \ ∅) (fun d => (sched ct).payload (dcell c 1 0 2 1) 0 d)
      = heldV c (dst_rs_0_2_1 (peer 2 0 c)) fullShare (fun i v => pRS ct 0 c (sh := S512x1024) i v) from rest_dma ct c 1 0 2 1 rfl)) $$ Hpay
  ihave BR021 := (heldV_open (F := F) c _ fullShare _) $$ BR021
  icases BR021 with ⟨%g021, BR021, %hg021⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch1 : Memref sig .tc .vmem S512x1024 .bf16))
      (S := (dst_rs_0_2_1 (peer 2 0 c)).view.set) (by rw [← rsLoad_0_2_1 c]; exact (View.set_slice _ _).symm.subset)) $$ BR021; iintro BR021
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off30 c) S256x256.size (k0_off30_inb c)) (Mk := Finset.univ) (Finset.subset_univ _)) $$ Hacc; iintro Hacc
  -- the wait on cell (0, 1, 0, 0), and the cell closed
  ihave #MWS100 := (mayWait_cell (F := F) c 0 1 0 0 17 (by decide +kernel)) $$ Hlev
  ihave #HIS100 := (inv_dma ct K c 0 1 0 0 rfl) $$ HR
  iapply (Rounds.wp_wait_rest_token Segs.𝒱₀ ER (sched ct) (c : Thread nD τ) none (κ := (K (c, ⟨(dsem 0 1 0 0).val, Nat.lt_trans (dsem 0 1 0 0).isLt (by decide)⟩))) (sm := SemLoc.dma (dsem 0 1 0 0))
      (wpE_waitDma2_eq Segs.𝒱₀ (c : Thread nD τ) none Set.univ) (Set.mem_univ _) () (O := owedFrom c 17) (W := (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))) (R := 0) (m := 0) (T := ∅)
      (by rw [Nat.zero_add, expect_dma ct c 0 1 0 0 rfl]; rfl)) $$ [CS100 How PS100]
  · isplitr
    · iexact HIS100
    isplitl [CS100]
    · iexact CS100
    isplitl [How]
    · iexact How
    isplitr
    · iexact MWS100
    iexact PS100
  iintro ⟨How, PS100, -, Hpay⟩
  imod (Rounds.cell_close ER (sched ct) (g := dcell c 0 1 0 0) (Set.mem_univ _) (fun h => h) (R := 1)
    (fun r hr => duties_later ct _ r hr)) $$ [PS100] with VS100
  · isplitr
    · iexact HIS100
    iexact PS100
  ihave BS100 := (Entails.of_eq (show bigSep ((sched ct).duties (dcell c 0 1 0 0) 0 \ ∅) (fun d => (sched ct).payload (dcell c 0 1 0 0) 0 d)
      = loanV c (src_rs_1_0_0 c) from rest_dma ct c 0 1 0 0 rfl)) $$ Hpay
  -- the wait on cell (1, 1, 0, 0), and the cell closed
  ihave #MWR100 := (mayWait_cell (F := F) c 1 1 0 0 17 (by decide +kernel)) $$ Hlev
  ihave #HIR100 := (inv_dma ct K c 1 1 0 0 rfl) $$ HR
  iapply (Rounds.wp_wait_rest_token Segs.𝒱₀ ER (sched ct) (c : Thread nD τ) none (κ := (K (c, ⟨(dsem 1 1 0 0).val, Nat.lt_trans (dsem 1 1 0 0).isLt (by decide)⟩))) (sm := SemLoc.dma (dsem 1 1 0 0))
      (wpE_waitDma2_eq Segs.𝒱₀ (c : Thread nD τ) none Set.univ) (Set.mem_univ _) () (O := owedFrom c 17) (W := (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W)))))))))))))) (R := 0) (m := 0) (T := ∅)
      (by rw [Nat.zero_add, expect_dma ct c 1 1 0 0 rfl]; rfl)) $$ [CR100 How PR100]
  · isplitr
    · iexact HIR100
    isplitl [CR100]
    · iexact CR100
    isplitl [How]
    · iexact How
    isplitr
    · iexact MWR100
    iexact PR100
  iintro ⟨How, PR100, -, Hpay⟩
  imod (Rounds.cell_close ER (sched ct) (g := dcell c 1 1 0 0) (Set.mem_univ _) (fun h => h) (R := 1)
    (fun r hr => duties_later ct _ r hr)) $$ [PR100] with VR100
  · isplitr
    · iexact HIR100
    iexact PR100
  ihave BR100 := (Entails.of_eq (show bigSep ((sched ct).duties (dcell c 1 1 0 0) 0 \ ∅) (fun d => (sched ct).payload (dcell c 1 1 0 0) 0 d)
      = heldV c (dst_rs_1_0_0 (peer 0 1 c)) fullShare (fun i v => pRS ct 1 c (sh := S256x1024) i v) from rest_dma ct c 1 1 0 0 rfl)) $$ Hpay
  ihave BR100 := (heldV_open (F := F) c _ fullShare _) $$ BR100
  icases BR100 with ⟨%g100, BR100, %hg100⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch2 : Memref sig .tc .vmem S256x1024 .bf16))
      (S := (dst_rs_1_0_0 (peer 0 1 c)).view.set) (by rw [← rsLoad_1_0_0 c]; exact (View.set_slice _ _).symm.subset)) $$ BR100; iintro BR100
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off32 c) S128x384.size (k0_off32_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch8 : Memref sig .tc .vmem S128x1024 .bf16))
      (S := ssCol_2_0) ((View.set_slice _ _).symm.subset)) $$ Hf0; iintro Hf0
  iapply (wp_store Segs.𝒱₀ (c : Thread nD τ) none Set.univ (m := (Memref.whole cc0_scratch8 : Memref sig .tc .vmem S128x1024 .bf16)) (r := Rect.unit (s := S128x1024) ![0, 0] S128x384.size inb_S128x1024_S128x384_0_0) (Mk := Finset.univ)
      (S := ssCol_2_0) (Finset.Subset.refl _)) $$ Hf0; iintro Hf0
  ihave Hrows := ((ss_rows_at_2_0 (F := F) c fullShare _).1) $$ Hf0
  icases Hrows with ⟨Hsrc200, Hsrc201⟩
  ihave LD200 := (loanV_open (F := F) (peer 0 2 c) (dst_rs_2_0_0 c)) $$ LD200
  icases LD200 with ⟨%fd200, LD200⟩
  ihave #HIS200 := (inv_dma ct K c 0 2 0 0 rfl) $$ HR
  ihave #HIR200 := (inv_dma ct K (peer 0 2 c) 1 2 0 0 rfl) $$ HR
  ihave #HrS200 := (reached_dma ct K c 0 2 0 0 rfl) $$ HR
  ihave #HrR200 := (reached_dma ct K (peer 0 2 c) 1 2 0 0 rfl) $$ HR
  iapply (send_step ct (K (c, ⟨(dsem 0 2 0 0).val, Nat.lt_trans (dsem 0 2 0 0).isLt (by decide)⟩)) (K (peer 0 2 c, ⟨(dsem 1 2 0 0).val, Nat.lt_trans (dsem 1 2 0 0).isLt (by decide)⟩)) c _ (peer 0 2 c) (dev_rs_2_0_0 c) (src_rs_2_0_0 c) (dst_rs_2_0_0 c) (dsem 0 2 0 0) (dsem 1 2 0 0)
      (SegB1AltVal.sendR0 c (SegB1AltVal.dcc7 c fa g000 g010 g020 g001 g011 g021 g100) g80) fd200 (owedFrom c 18) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))))
      (fun i v => pRS ct 2 (peer 0 2 c) (sh := S128x1024) i v)
      (duties_dma ct c 0 2 0 0 rfl) (duties_dma ct (peer 0 2 c) 1 2 0 0 rfl) (amtIx (dsem 1 2 0 0).val) rfl rfl rfl rfl
      (by show recv_rs_2_0_0 ct (peer 0 2 c) = _; unfold recv_rs_2_0_0; rw [peer_peer])
      (SegB1AltVal.sent_2_0_0 ct c YA YB laws fa g000 g010 g020 g001 g011 g021 g100 g80 fd200 hfa hg000 hg010 hg020 hg001 hg011 hg021 hg100)) $$ [Hsrc200 LD200 How TS200 TR200]
  · isplitr
    · iexact HIS200
    isplitr
    · iexact HIR200
    isplitl [Hsrc200]
    · iexact Hsrc200
    isplitl [LD200]
    · iexact LD200
    isplitl [How]
    · iexact How
    isplitl [TS200]
    · iexact TS200
    isplitr
    · iexact HrS200
    isplitl [TR200]
    · iexact TR200
    iexact HrR200
  iintro ⟨CS200, How⟩
  ihave LD201 := (loanV_open (F := F) (peer 0 2 c) (dst_rs_2_0_1 c)) $$ LD201
  icases LD201 with ⟨%fd201, LD201⟩
  ihave #HIS201 := (inv_dma ct K c 0 2 0 1 rfl) $$ HR
  ihave #HIR201 := (inv_dma ct K (peer 0 2 c) 1 2 0 1 rfl) $$ HR
  ihave #HrS201 := (reached_dma ct K c 0 2 0 1 rfl) $$ HR
  ihave #HrR201 := (reached_dma ct K (peer 0 2 c) 1 2 0 1 rfl) $$ HR
  iapply (send_step ct (K (c, ⟨(dsem 0 2 0 1).val, Nat.lt_trans (dsem 0 2 0 1).isLt (by decide)⟩)) (K (peer 0 2 c, ⟨(dsem 1 2 0 1).val, Nat.lt_trans (dsem 1 2 0 1).isLt (by decide)⟩)) c _ (peer 0 2 c) (dev_rs_2_0_1 c) (src_rs_2_0_1 c) (dst_rs_2_0_1 c) (dsem 0 2 0 1) (dsem 1 2 0 1)
      (SegB1AltVal.sendR0 c (SegB1AltVal.dcc7 c fa g000 g010 g020 g001 g011 g021 g100) g80) fd201 (owedFrom c 19) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))))
      (fun i v => pRS ct 2 (peer 0 2 c) (sh := S128x1024) i v)
      (duties_dma ct c 0 2 0 1 rfl) (duties_dma ct (peer 0 2 c) 1 2 0 1 rfl) (amtIx (dsem 1 2 0 1).val) rfl rfl rfl rfl
      (by show recv_rs_2_0_1 ct (peer 0 2 c) = _; unfold recv_rs_2_0_1; rw [peer_peer])
      (SegB1AltVal.sent_2_0_1 ct c YA YB laws fa g000 g010 g020 g001 g011 g021 g100 g80 fd201 hfa hg000 hg010 hg020 hg001 hg011 hg021 hg100)) $$ [Hsrc201 LD201 How TS201 TR201]
  · isplitr
    · iexact HIS201
    isplitr
    · iexact HIR201
    isplitl [Hsrc201]
    · iexact Hsrc201
    isplitl [LD201]
    · iexact LD201
    isplitl [How]
    · iexact How
    isplitl [TS201]
    · iexact TS201
    isplitr
    · iexact HrS201
    isplitl [TR201]
    · iexact TR201
    iexact HrR201
  iintro ⟨CS201, How⟩
  -- the wait on cell (0, 1, 1, 0), and the cell closed
  ihave #MWS110 := (mayWait_cell (F := F) c 0 1 1 0 19 (by decide +kernel)) $$ Hlev
  ihave #HIS110 := (inv_dma ct K c 0 1 1 0 rfl) $$ HR
  iapply (Rounds.wp_wait_rest_token Segs.𝒱₀ ER (sched ct) (c : Thread nD τ) none (κ := (K (c, ⟨(dsem 0 1 1 0).val, Nat.lt_trans (dsem 0 1 1 0).isLt (by decide)⟩))) (sm := SemLoc.dma (dsem 0 1 1 0))
      (wpE_waitDma2_eq Segs.𝒱₀ (c : Thread nD τ) none Set.univ) (Set.mem_univ _) () (O := owedFrom c 19) (W := (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))))) (R := 0) (m := 0) (T := ∅)
      (by rw [Nat.zero_add, expect_dma ct c 0 1 1 0 rfl]; rfl)) $$ [CS110 How PS110]
  · isplitr
    · iexact HIS110
    isplitl [CS110]
    · iexact CS110
    isplitl [How]
    · iexact How
    isplitr
    · iexact MWS110
    iexact PS110
  iintro ⟨How, PS110, -, Hpay⟩
  imod (Rounds.cell_close ER (sched ct) (g := dcell c 0 1 1 0) (Set.mem_univ _) (fun h => h) (R := 1)
    (fun r hr => duties_later ct _ r hr)) $$ [PS110] with VS110
  · isplitr
    · iexact HIS110
    iexact PS110
  ihave BS110 := (Entails.of_eq (show bigSep ((sched ct).duties (dcell c 0 1 1 0) 0 \ ∅) (fun d => (sched ct).payload (dcell c 0 1 1 0) 0 d)
      = loanV c (src_rs_1_1_0 c) from rest_dma ct c 0 1 1 0 rfl)) $$ Hpay
  -- the wait on cell (1, 1, 1, 0), and the cell closed
  ihave #MWR110 := (mayWait_cell (F := F) c 1 1 1 0 19 (by decide +kernel)) $$ Hlev
  ihave #HIR110 := (inv_dma ct K c 1 1 1 0 rfl) $$ HR
  iapply (Rounds.wp_wait_rest_token Segs.𝒱₀ ER (sched ct) (c : Thread nD τ) none (κ := (K (c, ⟨(dsem 1 1 1 0).val, Nat.lt_trans (dsem 1 1 1 0).isLt (by decide)⟩))) (sm := SemLoc.dma (dsem 1 1 1 0))
      (wpE_waitDma2_eq Segs.𝒱₀ (c : Thread nD τ) none Set.univ) (Set.mem_univ _) () (O := owedFrom c 19) (W := (insert (SemLoc.dma (dsem 0 1 1 0), ()) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W)))))))))))))))) (R := 0) (m := 0) (T := ∅)
      (by rw [Nat.zero_add, expect_dma ct c 1 1 1 0 rfl]; rfl)) $$ [CR110 How PR110]
  · isplitr
    · iexact HIR110
    isplitl [CR110]
    · iexact CR110
    isplitl [How]
    · iexact How
    isplitr
    · iexact MWR110
    iexact PR110
  iintro ⟨How, PR110, -, Hpay⟩
  imod (Rounds.cell_close ER (sched ct) (g := dcell c 1 1 1 0) (Set.mem_univ _) (fun h => h) (R := 1)
    (fun r hr => duties_later ct _ r hr)) $$ [PR110] with VR110
  · isplitr
    · iexact HIR110
    iexact PR110
  ihave BR110 := (Entails.of_eq (show bigSep ((sched ct).duties (dcell c 1 1 1 0) 0 \ ∅) (fun d => (sched ct).payload (dcell c 1 1 1 0) 0 d)
      = heldV c (dst_rs_1_1_0 (peer 1 1 c)) fullShare (fun i v => pRS ct 1 c (sh := S256x1024) i v) from rest_dma ct c 1 1 1 0 rfl)) $$ Hpay
  ihave BR110 := (heldV_open (F := F) c _ fullShare _) $$ BR110
  icases BR110 with ⟨%g110, BR110, %hg110⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch2 : Memref sig .tc .vmem S256x1024 .bf16))
      (S := (dst_rs_1_1_0 (peer 1 1 c)).view.set) (by rw [← rsLoad_1_1_0 c]; exact (View.set_slice _ _).symm.subset)) $$ BR110; iintro BR110
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off36 c) S128x384.size (k0_off36_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch8 : Memref sig .tc .vmem S128x1024 .bf16))
      (S := ssCol_2_1) ((View.set_slice _ _).symm.subset)) $$ Hf1; iintro Hf1
  iapply (wp_store Segs.𝒱₀ (c : Thread nD τ) none Set.univ (m := (Memref.whole cc0_scratch8 : Memref sig .tc .vmem S128x1024 .bf16)) (r := Rect.unit (s := S128x1024) ![0, 384] S128x384.size inb_S128x1024_S128x384_0_384) (Mk := Finset.univ)
      (S := ssCol_2_1) (Finset.Subset.refl _)) $$ Hf1; iintro Hf1
  ihave Hrows := ((ss_rows_at_2_1 (F := F) c fullShare _).1) $$ Hf1
  icases Hrows with ⟨Hsrc210, Hsrc211⟩
  ihave LD210 := (loanV_open (F := F) (peer 1 2 c) (dst_rs_2_1_0 c)) $$ LD210
  icases LD210 with ⟨%fd210, LD210⟩
  ihave #HIS210 := (inv_dma ct K c 0 2 1 0 rfl) $$ HR
  ihave #HIR210 := (inv_dma ct K (peer 1 2 c) 1 2 1 0 rfl) $$ HR
  ihave #HrS210 := (reached_dma ct K c 0 2 1 0 rfl) $$ HR
  ihave #HrR210 := (reached_dma ct K (peer 1 2 c) 1 2 1 0 rfl) $$ HR
  iapply (send_step ct (K (c, ⟨(dsem 0 2 1 0).val, Nat.lt_trans (dsem 0 2 1 0).isLt (by decide)⟩)) (K (peer 1 2 c, ⟨(dsem 1 2 1 0).val, Nat.lt_trans (dsem 1 2 1 0).isLt (by decide)⟩)) c _ (peer 1 2 c) (dev_rs_2_1_0 c) (src_rs_2_1_0 c) (dst_rs_2_1_0 c) (dsem 0 2 1 0) (dsem 1 2 1 0)
      (SegB1AltVal.sendR1 c (SegB1AltVal.dcc8 c fa g000 g010 g020 g001 g011 g021 g100 g110) g81) fd210 (owedFrom c 20) (insert (SemLoc.dma (dsem 1 1 1 0), ()) (insert (SemLoc.dma (dsem 0 1 1 0), ()) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))))))
      (fun i v => pRS ct 2 (peer 1 2 c) (sh := S128x1024) i v)
      (duties_dma ct c 0 2 1 0 rfl) (duties_dma ct (peer 1 2 c) 1 2 1 0 rfl) (amtIx (dsem 1 2 1 0).val) rfl rfl rfl rfl
      (by show recv_rs_2_1_0 ct (peer 1 2 c) = _; unfold recv_rs_2_1_0; rw [peer_peer])
      (SegB1AltVal.sent_2_1_0 ct c YA YB laws fa g000 g010 g020 g001 g011 g021 g100 g110 g81 fd210 hfa hg000 hg010 hg020 hg001 hg011 hg021 hg100 hg110)) $$ [Hsrc210 LD210 How TS210 TR210]
  · isplitr
    · iexact HIS210
    isplitr
    · iexact HIR210
    isplitl [Hsrc210]
    · iexact Hsrc210
    isplitl [LD210]
    · iexact LD210
    isplitl [How]
    · iexact How
    isplitl [TS210]
    · iexact TS210
    isplitr
    · iexact HrS210
    isplitl [TR210]
    · iexact TR210
    iexact HrR210
  iintro ⟨CS210, How⟩
  ihave LD211 := (loanV_open (F := F) (peer 1 2 c) (dst_rs_2_1_1 c)) $$ LD211
  icases LD211 with ⟨%fd211, LD211⟩
  ihave #HIS211 := (inv_dma ct K c 0 2 1 1 rfl) $$ HR
  ihave #HIR211 := (inv_dma ct K (peer 1 2 c) 1 2 1 1 rfl) $$ HR
  ihave #HrS211 := (reached_dma ct K c 0 2 1 1 rfl) $$ HR
  ihave #HrR211 := (reached_dma ct K (peer 1 2 c) 1 2 1 1 rfl) $$ HR
  iapply (send_step ct (K (c, ⟨(dsem 0 2 1 1).val, Nat.lt_trans (dsem 0 2 1 1).isLt (by decide)⟩)) (K (peer 1 2 c, ⟨(dsem 1 2 1 1).val, Nat.lt_trans (dsem 1 2 1 1).isLt (by decide)⟩)) c _ (peer 1 2 c) (dev_rs_2_1_1 c) (src_rs_2_1_1 c) (dst_rs_2_1_1 c) (dsem 0 2 1 1) (dsem 1 2 1 1)
      (SegB1AltVal.sendR1 c (SegB1AltVal.dcc8 c fa g000 g010 g020 g001 g011 g021 g100 g110) g81) fd211 (owedFrom c 21) (insert (SemLoc.dma (dsem 1 1 1 0), ()) (insert (SemLoc.dma (dsem 0 1 1 0), ()) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))))))
      (fun i v => pRS ct 2 (peer 1 2 c) (sh := S128x1024) i v)
      (duties_dma ct c 0 2 1 1 rfl) (duties_dma ct (peer 1 2 c) 1 2 1 1 rfl) (amtIx (dsem 1 2 1 1).val) rfl rfl rfl rfl
      (by show recv_rs_2_1_1 ct (peer 1 2 c) = _; unfold recv_rs_2_1_1; rw [peer_peer])
      (SegB1AltVal.sent_2_1_1 ct c YA YB laws fa g000 g010 g020 g001 g011 g021 g100 g110 g81 fd211 hfa hg000 hg010 hg020 hg001 hg011 hg021 hg100 hg110)) $$ [Hsrc211 LD211 How TS211 TR211]
  · isplitr
    · iexact HIS211
    isplitr
    · iexact HIR211
    isplitl [Hsrc211]
    · iexact Hsrc211
    isplitl [LD211]
    · iexact LD211
    isplitl [How]
    · iexact How
    isplitl [TS211]
    · iexact TS211
    isplitr
    · iexact HrS211
    isplitl [TR211]
    · iexact TR211
    iexact HrR211
  iintro ⟨CS211, How⟩
  -- the wait on cell (0, 1, 2, 0), and the cell closed
  ihave #MWS120 := (mayWait_cell (F := F) c 0 1 2 0 21 (by decide +kernel)) $$ Hlev
  ihave #HIS120 := (inv_dma ct K c 0 1 2 0 rfl) $$ HR
  iapply (Rounds.wp_wait_rest_token Segs.𝒱₀ ER (sched ct) (c : Thread nD τ) none (κ := (K (c, ⟨(dsem 0 1 2 0).val, Nat.lt_trans (dsem 0 1 2 0).isLt (by decide)⟩))) (sm := SemLoc.dma (dsem 0 1 2 0))
      (wpE_waitDma2_eq Segs.𝒱₀ (c : Thread nD τ) none Set.univ) (Set.mem_univ _) () (O := owedFrom c 21) (W := (insert (SemLoc.dma (dsem 1 1 1 0), ()) (insert (SemLoc.dma (dsem 0 1 1 0), ()) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))))))) (R := 0) (m := 0) (T := ∅)
      (by rw [Nat.zero_add, expect_dma ct c 0 1 2 0 rfl]; rfl)) $$ [CS120 How PS120]
  · isplitr
    · iexact HIS120
    isplitl [CS120]
    · iexact CS120
    isplitl [How]
    · iexact How
    isplitr
    · iexact MWS120
    iexact PS120
  iintro ⟨How, PS120, -, Hpay⟩
  imod (Rounds.cell_close ER (sched ct) (g := dcell c 0 1 2 0) (Set.mem_univ _) (fun h => h) (R := 1)
    (fun r hr => duties_later ct _ r hr)) $$ [PS120] with VS120
  · isplitr
    · iexact HIS120
    iexact PS120
  ihave BS120 := (Entails.of_eq (show bigSep ((sched ct).duties (dcell c 0 1 2 0) 0 \ ∅) (fun d => (sched ct).payload (dcell c 0 1 2 0) 0 d)
      = loanV c (src_rs_1_2_0 c) from rest_dma ct c 0 1 2 0 rfl)) $$ Hpay
  -- the wait on cell (1, 1, 2, 0), and the cell closed
  ihave #MWR120 := (mayWait_cell (F := F) c 1 1 2 0 21 (by decide +kernel)) $$ Hlev
  ihave #HIR120 := (inv_dma ct K c 1 1 2 0 rfl) $$ HR
  iapply (Rounds.wp_wait_rest_token Segs.𝒱₀ ER (sched ct) (c : Thread nD τ) none (κ := (K (c, ⟨(dsem 1 1 2 0).val, Nat.lt_trans (dsem 1 1 2 0).isLt (by decide)⟩))) (sm := SemLoc.dma (dsem 1 1 2 0))
      (wpE_waitDma2_eq Segs.𝒱₀ (c : Thread nD τ) none Set.univ) (Set.mem_univ _) () (O := owedFrom c 21) (W := (insert (SemLoc.dma (dsem 0 1 2 0), ()) (insert (SemLoc.dma (dsem 1 1 1 0), ()) (insert (SemLoc.dma (dsem 0 1 1 0), ()) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W)))))))))))))))))) (R := 0) (m := 0) (T := ∅)
      (by rw [Nat.zero_add, expect_dma ct c 1 1 2 0 rfl]; rfl)) $$ [CR120 How PR120]
  · isplitr
    · iexact HIR120
    isplitl [CR120]
    · iexact CR120
    isplitl [How]
    · iexact How
    isplitr
    · iexact MWR120
    iexact PR120
  iintro ⟨How, PR120, -, Hpay⟩
  imod (Rounds.cell_close ER (sched ct) (g := dcell c 1 1 2 0) (Set.mem_univ _) (fun h => h) (R := 1)
    (fun r hr => duties_later ct _ r hr)) $$ [PR120] with VR120
  · isplitr
    · iexact HIR120
    iexact PR120
  ihave BR120 := (Entails.of_eq (show bigSep ((sched ct).duties (dcell c 1 1 2 0) 0 \ ∅) (fun d => (sched ct).payload (dcell c 1 1 2 0) 0 d)
      = heldV c (dst_rs_1_2_0 (peer 2 1 c)) fullShare (fun i v => pRS ct 1 c (sh := S256x1024) i v) from rest_dma ct c 1 1 2 0 rfl)) $$ Hpay
  ihave BR120 := (heldV_open (F := F) c _ fullShare _) $$ BR120
  icases BR120 with ⟨%g120, BR120, %hg120⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch2 : Memref sig .tc .vmem S256x1024 .bf16))
      (S := (dst_rs_1_2_0 (peer 2 1 c)).view.set) (by rw [← rsLoad_1_2_0 c]; exact (View.set_slice _ _).symm.subset)) $$ BR120; iintro BR120
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off40 c) S128x256.size (k0_off40_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch8 : Memref sig .tc .vmem S128x1024 .bf16))
      (S := ssCol_2_2) ((View.set_slice _ _).symm.subset)) $$ Hf2; iintro Hf2
  iapply (wp_store Segs.𝒱₀ (c : Thread nD τ) none Set.univ (m := (Memref.whole cc0_scratch8 : Memref sig .tc .vmem S128x1024 .bf16)) (r := Rect.unit (s := S128x1024) ![0, 768] S128x256.size inb_S128x1024_S128x256_0_768) (Mk := Finset.univ)
      (S := ssCol_2_2) (Finset.Subset.refl _)) $$ Hf2; iintro Hf2
  ihave Hrows := ((ss_rows_at_2_2 (F := F) c fullShare _).1) $$ Hf2
  icases Hrows with ⟨Hsrc220, Hsrc221⟩
  ihave LD220 := (loanV_open (F := F) (peer 2 2 c) (dst_rs_2_2_0 c)) $$ LD220
  icases LD220 with ⟨%fd220, LD220⟩
  ihave #HIS220 := (inv_dma ct K c 0 2 2 0 rfl) $$ HR
  ihave #HIR220 := (inv_dma ct K (peer 2 2 c) 1 2 2 0 rfl) $$ HR
  ihave #HrS220 := (reached_dma ct K c 0 2 2 0 rfl) $$ HR
  ihave #HrR220 := (reached_dma ct K (peer 2 2 c) 1 2 2 0 rfl) $$ HR
  iapply (send_step ct (K (c, ⟨(dsem 0 2 2 0).val, Nat.lt_trans (dsem 0 2 2 0).isLt (by decide)⟩)) (K (peer 2 2 c, ⟨(dsem 1 2 2 0).val, Nat.lt_trans (dsem 1 2 2 0).isLt (by decide)⟩)) c _ (peer 2 2 c) (dev_rs_2_2_0 c) (src_rs_2_2_0 c) (dst_rs_2_2_0 c) (dsem 0 2 2 0) (dsem 1 2 2 0)
      (SegB1AltVal.sendR2 c (SegB1AltVal.dcc9 c fa g000 g010 g020 g001 g011 g021 g100 g110 g120) g82) fd220 (owedFrom c 22) (insert (SemLoc.dma (dsem 1 1 2 0), ()) (insert (SemLoc.dma (dsem 0 1 2 0), ()) (insert (SemLoc.dma (dsem 1 1 1 0), ()) (insert (SemLoc.dma (dsem 0 1 1 0), ()) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))))))))
      (fun i v => pRS ct 2 (peer 2 2 c) (sh := S128x1024) i v)
      (duties_dma ct c 0 2 2 0 rfl) (duties_dma ct (peer 2 2 c) 1 2 2 0 rfl) (amtIx (dsem 1 2 2 0).val) rfl rfl rfl rfl
      (by show recv_rs_2_2_0 ct (peer 2 2 c) = _; unfold recv_rs_2_2_0; rw [peer_peer])
      (SegB1AltVal.sent_2_2_0 ct c YA YB laws fa g000 g010 g020 g001 g011 g021 g100 g110 g120 g82 fd220 hfa hg000 hg010 hg020 hg001 hg011 hg021 hg100 hg110 hg120)) $$ [Hsrc220 LD220 How TS220 TR220]
  · isplitr
    · iexact HIS220
    isplitr
    · iexact HIR220
    isplitl [Hsrc220]
    · iexact Hsrc220
    isplitl [LD220]
    · iexact LD220
    isplitl [How]
    · iexact How
    isplitl [TS220]
    · iexact TS220
    isplitr
    · iexact HrS220
    isplitl [TR220]
    · iexact TR220
    iexact HrR220
  iintro ⟨CS220, How⟩
  ihave LD221 := (loanV_open (F := F) (peer 2 2 c) (dst_rs_2_2_1 c)) $$ LD221
  icases LD221 with ⟨%fd221, LD221⟩
  ihave #HIS221 := (inv_dma ct K c 0 2 2 1 rfl) $$ HR
  ihave #HIR221 := (inv_dma ct K (peer 2 2 c) 1 2 2 1 rfl) $$ HR
  ihave #HrS221 := (reached_dma ct K c 0 2 2 1 rfl) $$ HR
  ihave #HrR221 := (reached_dma ct K (peer 2 2 c) 1 2 2 1 rfl) $$ HR
  iapply (send_step ct (K (c, ⟨(dsem 0 2 2 1).val, Nat.lt_trans (dsem 0 2 2 1).isLt (by decide)⟩)) (K (peer 2 2 c, ⟨(dsem 1 2 2 1).val, Nat.lt_trans (dsem 1 2 2 1).isLt (by decide)⟩)) c _ (peer 2 2 c) (dev_rs_2_2_1 c) (src_rs_2_2_1 c) (dst_rs_2_2_1 c) (dsem 0 2 2 1) (dsem 1 2 2 1)
      (SegB1AltVal.sendR2 c (SegB1AltVal.dcc9 c fa g000 g010 g020 g001 g011 g021 g100 g110 g120) g82) fd221 (owedFrom c 23) (insert (SemLoc.dma (dsem 1 1 2 0), ()) (insert (SemLoc.dma (dsem 0 1 2 0), ()) (insert (SemLoc.dma (dsem 1 1 1 0), ()) (insert (SemLoc.dma (dsem 0 1 1 0), ()) (insert (SemLoc.dma (dsem 1 1 0 0), ()) (insert (SemLoc.dma (dsem 0 1 0 0), ()) (insert (SemLoc.dma (dsem 1 0 2 1), ()) (insert (SemLoc.dma (dsem 0 0 2 1), ()) (insert (SemLoc.dma (dsem 1 0 1 1), ()) (insert (SemLoc.dma (dsem 0 0 1 1), ()) (insert (SemLoc.dma (dsem 1 0 0 1), ()) (insert (SemLoc.dma (dsem 0 0 0 1), ()) (insert (SemLoc.dma (dsem 1 0 2 0), ()) (insert (SemLoc.dma (dsem 0 0 2 0), ()) (insert (SemLoc.dma (dsem 1 0 1 0), ()) (insert (SemLoc.dma (dsem 0 0 1 0), ()) (insert (SemLoc.dma (dsem 1 0 0 0), ()) (insert (SemLoc.dma (dsem 0 0 0 0), ()) W))))))))))))))))))
      (fun i v => pRS ct 2 (peer 2 2 c) (sh := S128x1024) i v)
      (duties_dma ct c 0 2 2 1 rfl) (duties_dma ct (peer 2 2 c) 1 2 2 1 rfl) (amtIx (dsem 1 2 2 1).val) rfl rfl rfl rfl
      (by show recv_rs_2_2_1 ct (peer 2 2 c) = _; unfold recv_rs_2_2_1; rw [peer_peer])
      (SegB1AltVal.sent_2_2_1 ct c YA YB laws fa g000 g010 g020 g001 g011 g021 g100 g110 g120 g82 fd221 hfa hg000 hg010 hg020 hg001 hg011 hg021 hg100 hg110 hg120)) $$ [Hsrc221 LD221 How TS221 TR221]
  · isplitr
    · iexact HIS221
    isplitr
    · iexact HIR221
    isplitl [Hsrc221]
    · iexact Hsrc221
    isplitl [LD221]
    · iexact LD221
    isplitl [How]
    · iexact How
    isplitl [TS221]
    · iexact TS221
    isplitr
    · iexact HrS221
    isplitl [TR221]
    · iexact TR221
    iexact HrR221
  iintro ⟨CS221, How⟩
  ihave BR000 := (loanV_fold (F := F) c (dst_rs_0_0_0 (peer 0 0 c)) _) $$ BR000
  ihave BR001 := (loanV_fold (F := F) c (dst_rs_0_0_1 (peer 0 0 c)) _) $$ BR001
  ihave BR010 := (loanV_fold (F := F) c (dst_rs_0_1_0 (peer 1 0 c)) _) $$ BR010
  ihave BR011 := (loanV_fold (F := F) c (dst_rs_0_1_1 (peer 1 0 c)) _) $$ BR011
  ihave BR020 := (loanV_fold (F := F) c (dst_rs_0_2_0 (peer 2 0 c)) _) $$ BR020
  ihave BR021 := (loanV_fold (F := F) c (dst_rs_0_2_1 (peer 2 0 c)) _) $$ BR021
  ihave BR100 := (loanV_fold (F := F) c (dst_rs_1_0_0 (peer 0 1 c)) _) $$ BR100
  ihave BR110 := (loanV_fold (F := F) c (dst_rs_1_1_0 (peer 1 1 c)) _) $$ BR110
  ihave BR120 := (loanV_fold (F := F) c (dst_rs_1_2_0 (peer 2 1 c)) _) $$ BR120
  ihave Hrs0w := (rs_join_0 (F := F) c) $$ [BR000 BR001 BR010 BR011 BR020 BR021]
  · isplitl [BR000]
    · iexact BR000
    isplitl [BR001]
    · iexact BR001
    isplitl [BR010]
    · iexact BR010
    isplitl [BR011]
    · iexact BR011
    isplitl [BR020]
    · iexact BR020
    iexact BR021
  ihave Hss0w := (ss_join_0 (F := F) c) $$ [BS000 BS001 BS010 BS011 BS020 BS021]
  · isplitl [BS000]
    · iexact BS000
    isplitl [BS001]
    · iexact BS001
    isplitl [BS010]
    · iexact BS010
    isplitl [BS011]
    · iexact BS011
    isplitl [BS020]
    · iexact BS020
    iexact BS021
  iapply Hk $$ %v3 %v4 %v5 %v6 %v7 %v8 %v9 %v10 %v11 %v12 %v13 %v14 %v15 %v16 %v17 %v18 %v20 %v22 %v24 %v26 %v28 %(Scalar.addi v179 (Scalar.muli v24 128#32)) %(Scalar.subi (Scalar.addi v179 (Scalar.muli v24 128#32)) v179) %(Scalar.addi (Scalar.addi v74 (Scalar.muli v24 256#32)) (Scalar.muli v18 128#32)) %(Scalar.subi (Scalar.addi (Scalar.addi v74 (Scalar.muli v24 256#32)) (Scalar.muli v18 128#32)) (Scalar.addi v74 (Scalar.muli v24 256#32))) %(Scalar.addi (Scalar.addi v108 (Scalar.muli v28 256#32)) (Scalar.muli v20 128#32)) %(Scalar.subi (Scalar.addi (Scalar.addi v108 (Scalar.muli v28 256#32)) (Scalar.muli v20 128#32)) (Scalar.addi v108 (Scalar.muli v28 256#32)))
  unfold SegBMid.Pre20 SegBMid.toks20 SegBMid.pos20 SegBMid.closed20 SegBMid.credR20 SegBMid.credS20 SegBMid.land20 someAt toksAG landAG
  isplitr
  · iexact HR
  isplitr
  · iexact Hlev
  isplitl [How]
  · iexists _
    iexact How
  isplitl [Q300 Q301 Q310 Q311 Q320 Q321 Q400 Q410 Q420]
  · isplitl [Q300]
    · iexact Q300
    isplitl [Q301]
    · iexact Q301
    isplitl [Q310]
    · iexact Q310
    isplitl [Q311]
    · iexact Q311
    isplitl [Q320]
    · iexact Q320
    isplitl [Q321]
    · iexact Q321
    isplitl [Q400]
    · iexact Q400
    isplitl [Q410]
    · iexact Q410
    iexact Q420
  isplitl [HtoksAG]
  · iexact HtoksAG
  isplitl [PP101 PP111 PP121 PP200 PP201 PP210 PP211 PP220 PP221 PP300 PP301 PP310 PP311 PP320 PP321 PP400 PP410 PP420]
  · isplitl [PP101]
    · iexact PP101
    isplitl [PP111]
    · iexact PP111
    isplitl [PP121]
    · iexact PP121
    isplitl [PP200]
    · iexact PP200
    isplitl [PP201]
    · iexact PP201
    isplitl [PP210]
    · iexact PP210
    isplitl [PP211]
    · iexact PP211
    isplitl [PP220]
    · iexact PP220
    isplitl [PP221]
    · iexact PP221
    isplitl [PP300]
    · iexact PP300
    isplitl [PP301]
    · iexact PP301
    isplitl [PP310]
    · iexact PP310
    isplitl [PP311]
    · iexact PP311
    isplitl [PP320]
    · iexact PP320
    isplitl [PP321]
    · iexact PP321
    isplitl [PP400]
    · iexact PP400
    isplitl [PP410]
    · iexact PP410
    iexact PP420
  isplitl [HposAG]
  · iexact HposAG
  isplitl [VS000 VR000 VS001 VR001 VS010 VR010 VS011 VR011 VS020 VR020 VS021 VR021 VS100 VR100 VS110 VR110 VS120 VR120]
  · isplitl [VS000 VR000]
    · isplitl [VS000]
      · iexact VS000
      iexact VR000
    isplitl [VS001 VR001]
    · isplitl [VS001]
      · iexact VS001
      iexact VR001
    isplitl [VS010 VR010]
    · isplitl [VS010]
      · iexact VS010
      iexact VR010
    isplitl [VS011 VR011]
    · isplitl [VS011]
      · iexact VS011
      iexact VR011
    isplitl [VS020 VR020]
    · isplitl [VS020]
      · iexact VS020
      iexact VR020
    isplitl [VS021 VR021]
    · isplitl [VS021]
      · iexact VS021
      iexact VR021
    isplitl [VS100 VR100]
    · isplitl [VS100]
      · iexact VS100
      iexact VR100
    isplitl [VS110 VR110]
    · isplitl [VS110]
      · iexact VS110
      iexact VR110
    isplitl [VS120]
    · iexact VS120
    iexact VR120
  isplitl [CR101 CR111 CR121 CR200 CR201 CR210 CR211 CR220 CR221 CR300 CR301 CR310 CR311 CR320 CR321 CR400 CR410 CR420]
  · isplitl [CR101]
    · iexact CR101
    isplitl [CR111]
    · iexact CR111
    isplitl [CR121]
    · iexact CR121
    isplitl [CR200]
    · iexact CR200
    isplitl [CR201]
    · iexact CR201
    isplitl [CR210]
    · iexact CR210
    isplitl [CR211]
    · iexact CR211
    isplitl [CR220]
    · iexact CR220
    isplitl [CR221]
    · iexact CR221
    isplitl [CR300]
    · iexact CR300
    isplitl [CR301]
    · iexact CR301
    isplitl [CR310]
    · iexact CR310
    isplitl [CR311]
    · iexact CR311
    isplitl [CR320]
    · iexact CR320
    isplitl [CR321]
    · iexact CR321
    isplitl [CR400]
    · iexact CR400
    isplitl [CR410]
    · iexact CR410
    iexact CR420
  isplitl [CS101 CS111 CS121 CS200 CS201 CS210 CS211 CS220 CS221]
  · isplitl [CS101]
    · iexact CS101
    isplitl [CS111]
    · iexact CS111
    isplitl [CS121]
    · iexact CS121
    isplitl [CS200]
    · iexact CS200
    isplitl [CS201]
    · iexact CS201
    isplitl [CS210]
    · iexact CS210
    isplitl [CS211]
    · iexact CS211
    isplitl [CS220]
    · iexact CS220
    iexact CS221
  isplitl [HcredAG]
  · iexact HcredAG
  isplitl [Hidle]
  · iexact Hidle
  isplitl [HA]
  · iexact HA
  isplitl [HB]
  · iexact HB
  isplitl [Hown]
  · iexact Hown
  isplitl [Hacc]
  · iexists _
    isplitl [Hacc]
    · iexact Hacc
    ipureintro
    exact ⟨SegB1AltVal.kept_0 ct c YA YB laws fa g000 g010 g020 g001 g011 g021 g100 g110 g120 hfa hg000 hg010 hg020 hg001 hg011 hg021 hg100 hg110 hg120,
      SegB1AltVal.kept_1 ct c YA YB laws fa g000 g010 g020 g001 g011 g021 g100 g110 g120 hfa hg000 hg010 hg020 hg001 hg011 hg021 hg100 hg110 hg120,
      SegB1AltVal.kept_2 ct c YA YB laws fa g000 g010 g020 g001 g011 g021 g100 g110 g120 hfa hg000 hg010 hg020 hg001 hg011 hg021 hg100 hg110 hg120⟩
  isplitl [Hrs0w Hss0w]
  · isplitl [Hrs0w]
    · iexact Hrs0w
    iexact Hss0w
  isplitl [BR100 BR110 BR120]
  · isplitl [BR100]
    · iexact BR100
    isplitl [BR110]
    · iexact BR110
    iexact BR120
  isplitl [BS100 BS110 BS120]
  · isplitl [BS100]
    · iexact BS100
    isplitl [BS110]
    · iexact BS110
    iexact BS120
  isplitl [Hs9 Hs10]
  · isplitl [Hs9]
    · iexact Hs9
    iexact Hs10
  isplitl [LD300 LD301 LD310 LD311 LD320 LD321 LD400 LD410 LD420]
  · isplitl [LD300]
    · iexact LD300
    isplitl [LD301]
    · iexact LD301
    isplitl [LD310]
    · iexact LD310
    isplitl [LD311]
    · iexact LD311
    isplitl [LD320]
    · iexact LD320
    isplitl [LD321]
    · iexact LD321
    isplitl [LD400]
    · iexact LD400
    isplitl [LD410]
    · iexact LD410
    iexact LD420
  iexact HlandAG

end Cert.Kernel.SegB1Alt

end
-- ==== Proof.SegB2ValK.lean ====
/-
  The values along the middle of the summing phase: the accumulator's and the fourth stage's send buffer's
  contents step by step, what the six pieces sent carry, and what the kept rows hold at the end.
-/
import proofs.«900879_g7700000000000880_dist_matmul_gelu_kshard_i_m1024_n1024_k512_v7x_i32_bf16_1_alg».proof.Proof.SegBMidK
import proofs.«900879_g7700000000000880_dist_matmul_gelu_kshard_i_m1024_n1024_k512_v7x_i32_bf16_1_alg».proof.Proof.GeoK
import proofs.«900879_g7700000000000880_dist_matmul_gelu_kshard_i_m1024_n1024_k512_v7x_i32_bf16_1_alg».proof.Proof.PlumbK
import proofs.«900879_g7700000000000880_dist_matmul_gelu_kshard_i_m1024_n1024_k512_v7x_i32_bf16_1_alg».proof.Proof.PayPointK
import proofs.«900879_g7700000000000880_dist_matmul_gelu_kshard_i_m1024_n1024_k512_v7x_i32_bf16_1_alg».proof.Proof.SegAValPK
import proofs.«900879_g7700000000000880_dist_matmul_gelu_kshard_i_m1024_n1024_k512_v7x_i32_bf16_1_alg».proof.Proof.SegBValPK
import proofs.«900879_g7700000000000880_dist_matmul_gelu_kshard_i_m1024_n1024_k512_v7x_i32_bf16_1_alg».proof.Proof.SegBCoreK

noncomputable section

namespace Cert.Kernel.SegB2Val

open Cert.Kernel Cert.Kernel.Gen Cert.Kernel.Proto Cert.Kernel.Tab Cert.Kernel.Held Cert.Kernel.PayTab
open Cert.Kernel.Laws
open Idealize.ShloMosaic Idealize.ShloMosaic.TcCoe Idealize.SL.Sem

variable {F : FTy → Type} [FloatOps F]

/-! ## The rectangles the segment reads and writes -/

abbrev RA44 (c : Dev nD) : Rect S1024x1024 := Rect.unit (s := S1024x1024) (k0_off44 c) S128x384.size (k0_off44_inb c)
abbrev RR45 (c : Dev nD) : Rect S256x1024 := Rect.unit (s := S256x1024) (k0_off45 c) S128x384.size (k0_off45_inb c)
abbrev RA46 (c : Dev nD) : Rect S1024x1024 := Rect.unit (s := S1024x1024) (k0_off46 c) S128x384.size (k0_off46_inb c)
abbrev RR47 (c : Dev nD) : Rect S256x1024 := Rect.unit (s := S256x1024) (k0_off47 c) S128x384.size (k0_off47_inb c)
abbrev RA48 (c : Dev nD) : Rect S1024x1024 := Rect.unit (s := S1024x1024) (k0_off48 c) S128x256.size (k0_off48_inb c)
abbrev RR49 (c : Dev nD) : Rect S256x1024 := Rect.unit (s := S256x1024) (k0_off49 c) S128x256.size (k0_off49_inb c)
abbrev RA50 (c : Dev nD) : Rect S1024x1024 := Rect.unit (s := S1024x1024) (k0_off50 c) S64x384.size (k0_off50_inb c)
abbrev RR51 (c : Dev nD) : Rect S128x1024 := Rect.unit (s := S128x1024) (k0_off51 c) S64x384.size (k0_off51_inb c)
abbrev RA54 (c : Dev nD) : Rect S1024x1024 := Rect.unit (s := S1024x1024) (k0_off54 c) S64x384.size (k0_off54_inb c)
abbrev RR55 (c : Dev nD) : Rect S128x1024 := Rect.unit (s := S128x1024) (k0_off55 c) S64x384.size (k0_off55_inb c)
abbrev RA58 (c : Dev nD) : Rect S1024x1024 := Rect.unit (s := S1024x1024) (k0_off58 c) S64x256.size (k0_off58_inb c)
abbrev RR59 (c : Dev nD) : Rect S128x1024 := Rect.unit (s := S128x1024) (k0_off59 c) S64x256.size (k0_off59_inb c)
abbrev RA62 (c : Dev nD) : Rect S1024x1024 := Rect.unit (s := S1024x1024) (k0_off62 c) S64x384.size (k0_off62_inb c)
abbrev RR63 (c : Dev nD) : Rect S128x1024 := Rect.unit (s := S128x1024) (k0_off63 c) S64x384.size (k0_off63_inb c)
abbrev RA64 (c : Dev nD) : Rect S1024x1024 := Rect.unit (s := S1024x1024) (k0_off64 c) S64x384.size (k0_off64_inb c)
abbrev RR65 (c : Dev nD) : Rect S128x1024 := Rect.unit (s := S128x1024) (k0_off65 c) S64x384.size (k0_off65_inb c)
abbrev RA66 (c : Dev nD) : Rect S1024x1024 := Rect.unit (s := S1024x1024) (k0_off66 c) S64x256.size (k0_off66_inb c)
abbrev RR67 (c : Dev nD) : Rect S128x1024 := Rect.unit (s := S128x1024) (k0_off67 c) S64x256.size (k0_off67_inb c)

/-! ## One addition, one rounding -/

/-- The accumulator after the partner's rows of stage 1, column block 0, are added on the rows at offset 44. -/
def addK0 (c : Dev nD) (a : Buf (Elt F) ((c : Thread nD τ).loc cc0_scratch0)) (g : Buf (Elt F) ((c : Thread nD τ).loc cc0_scratch2)) : Buf (Elt F) ((c : Thread nD τ).loc cc0_scratch0) :=
  ((Memref.whole cc0_scratch0 : Memref sig .tc .vmem S1024x1024 .f32).access (RA44 c)).write (Elt F) a
    (k0_pay26 ((Memref.whole cc0_scratch0 : Memref sig .tc .vmem S1024x1024 .f32).view.readAt (Elt F) (RA44 c).toLoadRect a) ((Memref.whole cc0_scratch2 : Memref sig .tc .vmem S256x1024 .bf16).view.readAt (Elt F) (RR45 c).toLoadRect g)) Finset.univ

/-- The accumulator after the partner's rows of stage 1, column block 1, are added on the rows at offset 46. -/
def addK1 (c : Dev nD) (a : Buf (Elt F) ((c : Thread nD τ).loc cc0_scratch0)) (g : Buf (Elt F) ((c : Thread nD τ).loc cc0_scratch2)) : Buf (Elt F) ((c : Thread nD τ).loc cc0_scratch0) :=
  ((Memref.whole cc0_scratch0 : Memref sig .tc .vmem S1024x1024 .f32).access (RA46 c)).write (Elt F) a
    (k0_pay27 ((Memref.whole cc0_scratch0 : Memref sig .tc .vmem S1024x1024 .f32).view.readAt (Elt F) (RA46 c).toLoadRect a) ((Memref.whole cc0_scratch2 : Memref sig .tc .vmem S256x1024 .bf16).view.readAt (Elt F) (RR47 c).toLoadRect g)) Finset.univ

/-- The accumulator after the partner's rows of stage 1, column block 2, are added on the rows at offset 48. -/
def addK2 (c : Dev nD) (a : Buf (Elt F) ((c : Thread nD τ).loc cc0_scratch0)) (g : Buf (Elt F) ((c : Thread nD τ).loc cc0_scratch2)) : Buf (Elt F) ((c : Thread nD τ).loc cc0_scratch0) :=
  ((Memref.whole cc0_scratch0 : Memref sig .tc .vmem S1024x1024 .f32).access (RA48 c)).write (Elt F) a
    (k0_pay28 ((Memref.whole cc0_scratch0 : Memref sig .tc .vmem S1024x1024 .f32).view.readAt (Elt F) (RA48 c).toLoadRect a) ((Memref.whole cc0_scratch2 : Memref sig .tc .vmem S256x1024 .bf16).view.readAt (Elt F) (RR49 c).toLoadRect g)) Finset.univ

/-- The accumulator after the partner's rows of stage 2, column block 0, are added on the rows at offset 50. -/
def addS0 (c : Dev nD) (a : Buf (Elt F) ((c : Thread nD τ).loc cc0_scratch0)) (g : Buf (Elt F) ((c : Thread nD τ).loc cc0_scratch3)) : Buf (Elt F) ((c : Thread nD τ).loc cc0_scratch0) :=
  ((Memref.whole cc0_scratch0 : Memref sig .tc .vmem S1024x1024 .f32).access (RA50 c)).write (Elt F) a
    (k0_pay29 ((Memref.whole cc0_scratch0 : Memref sig .tc .vmem S1024x1024 .f32).view.readAt (Elt F) (RA50 c).toLoadRect a) ((Memref.whole cc0_scratch3 : Memref sig .tc .vmem S128x1024 .bf16).view.readAt (Elt F) (RR51 c).toLoadRect g)) Finset.univ

/-- The accumulator after the partner's rows of stage 2, column block 1, are added on the rows at offset 54. -/
def addS1 (c : Dev nD) (a : Buf (Elt F) ((c : Thread nD τ).loc cc0_scratch0)) (g : Buf (Elt F) ((c : Thread nD τ).loc cc0_scratch3)) : Buf (Elt F) ((c : Thread nD τ).loc cc0_scratch0) :=
  ((Memref.whole cc0_scratch0 : Memref sig .tc .vmem S1024x1024 .f32).access (RA54 c)).write (Elt F) a
    (k0_pay31 ((Memref.whole cc0_scratch0 : Memref sig .tc .vmem S1024x1024 .f32).view.readAt (Elt F) (RA54 c).toLoadRect a) ((Memref.whole cc0_scratch3 : Memref sig .tc .vmem S128x1024 .bf16).view.readAt (Elt F) (RR55 c).toLoadRect g)) Finset.univ

/-- The accumulator after the partner's rows of stage 2, column block 2, are added on the rows at offset 58. -/
def addS2 (c : Dev nD) (a : Buf (Elt F) ((c : Thread nD τ).loc cc0_scratch0)) (g : Buf (Elt F) ((c : Thread nD τ).loc cc0_scratch3)) : Buf (Elt F) ((c : Thread nD τ).loc cc0_scratch0) :=
  ((Memref.whole cc0_scratch0 : Memref sig .tc .vmem S1024x1024 .f32).access (RA58 c)).write (Elt F) a
    (k0_pay33 ((Memref.whole cc0_scratch0 : Memref sig .tc .vmem S1024x1024 .f32).view.readAt (Elt F) (RA58 c).toLoadRect a) ((Memref.whole cc0_scratch3 : Memref sig .tc .vmem S128x1024 .bf16).view.readAt (Elt F) (RR59 c).toLoadRect g)) Finset.univ

/-- The accumulator after the partner's rows of stage 2, column block 0, are added on the rows at offset 62. -/
def addL0 (c : Dev nD) (a : Buf (Elt F) ((c : Thread nD τ).loc cc0_scratch0)) (g : Buf (Elt F) ((c : Thread nD τ).loc cc0_scratch3)) : Buf (Elt F) ((c : Thread nD τ).loc cc0_scratch0) :=
  ((Memref.whole cc0_scratch0 : Memref sig .tc .vmem S1024x1024 .f32).access (RA62 c)).write (Elt F) a
    (k0_pay35 ((Memref.whole cc0_scratch0 : Memref sig .tc .vmem S1024x1024 .f32).view.readAt (Elt F) (RA62 c).toLoadRect a) ((Memref.whole cc0_scratch3 : Memref sig .tc .vmem S128x1024 .bf16).view.readAt (Elt F) (RR63 c).toLoadRect g)) Finset.univ

/-- The accumulator after the partner's rows of stage 2, column block 1, are added on the rows at offset 64. -/
def addL1 (c : Dev nD) (a : Buf (Elt F) ((c : Thread nD τ).loc cc0_scratch0)) (g : Buf (Elt F) ((c : Thread nD τ).loc cc0_scratch3)) : Buf (Elt F) ((c : Thread nD τ).loc cc0_scratch0) :=
  ((Memref.whole cc0_scratch0 : Memref sig .tc .vmem S1024x1024 .f32).access (RA64 c)).write (Elt F) a
    (k0_pay36 ((Memref.whole cc0_scratch0 : Memref sig .tc .vmem S1024x1024 .f32).view.readAt (Elt F) (RA64 c).toLoadRect a) ((Memref.whole cc0_scratch3 : Memref sig .tc .vmem S128x1024 .bf16).view.readAt (Elt F) (RR65 c).toLoadRect g)) Finset.univ

/-- The accumulator after the partner's rows of stage 2, column block 2, are added on the rows at offset 66. -/
def addL2 (c : Dev nD) (a : Buf (Elt F) ((c : Thread nD τ).loc cc0_scratch0)) (g : Buf (Elt F) ((c : Thread nD τ).loc cc0_scratch3)) : Buf (Elt F) ((c : Thread nD τ).loc cc0_scratch0) :=
  ((Memref.whole cc0_scratch0 : Memref sig .tc .vmem S1024x1024 .f32).access (RA66 c)).write (Elt F) a
    (k0_pay37 ((Memref.whole cc0_scratch0 : Memref sig .tc .vmem S1024x1024 .f32).view.readAt (Elt F) (RA66 c).toLoadRect a) ((Memref.whole cc0_scratch3 : Memref sig .tc .vmem S128x1024 .bf16).view.readAt (Elt F) (RR67 c).toLoadRect g)) Finset.univ

abbrev RS3b0 : Rect S64x1024 := Rect.unit (s := S64x1024) ![0, 0] S64x384.size inb_S64x1024_S64x384_0_0
/-- The fourth stage's send buffer after column block 0's rows to give away are rounded into it. -/
def sendK0 (c : Dev nD) (a : Buf (Elt F) ((c : Thread nD τ).loc cc0_scratch0)) (g9 : Buf (Elt F) ((c : Thread nD τ).loc cc0_scratch9)) : Buf (Elt F) ((c : Thread nD τ).loc cc0_scratch9) :=
  ((Memref.whole cc0_scratch9 : Memref sig .tc .vmem S64x1024 .bf16).access RS3b0).write (Elt F) g9 (k0_pay30 ((Memref.whole cc0_scratch0 : Memref sig .tc .vmem S1024x1024 .f32).view.readAt (Elt F) (RA50 c).toLoadRect a)) Finset.univ

abbrev RS3b1 : Rect S64x1024 := Rect.unit (s := S64x1024) ![0, 384] S64x384.size inb_S64x1024_S64x384_0_384
/-- The fourth stage's send buffer after column block 1's rows to give away are rounded into it. -/
def sendK1 (c : Dev nD) (a : Buf (Elt F) ((c : Thread nD τ).loc cc0_scratch0)) (g9 : Buf (Elt F) ((c : Thread nD τ).loc cc0_scratch9)) : Buf (Elt F) ((c : Thread nD τ).loc cc0_scratch9) :=
  ((Memref.whole cc0_scratch9 : Memref sig .tc .vmem S64x1024 .bf16).access RS3b1).write (Elt F) g9 (k0_pay32 ((Memref.whole cc0_scratch0 : Memref sig .tc .vmem S1024x1024 .f32).view.readAt (Elt F) (RA54 c).toLoadRect a)) Finset.univ

abbrev RS3b2 : Rect S64x1024 := Rect.unit (s := S64x1024) ![0, 768] S64x256.size inb_S64x1024_S64x256_0_768
/-- The fourth stage's send buffer after column block 2's rows to give away are rounded into it. -/
def sendK2 (c : Dev nD) (a : Buf (Elt F) ((c : Thread nD τ).loc cc0_scratch0)) (g9 : Buf (Elt F) ((c : Thread nD τ).loc cc0_scratch9)) : Buf (Elt F) ((c : Thread nD τ).loc cc0_scratch9) :=
  ((Memref.whole cc0_scratch9 : Memref sig .tc .vmem S64x1024 .bf16).access RS3b2).write (Elt F) g9 (k0_pay34 ((Memref.whole cc0_scratch0 : Memref sig .tc .vmem S1024x1024 .f32).view.readAt (Elt F) (RA58 c).toLoadRect a)) Finset.univ

/-- The accumulator's contents along the segment, from its contents `fa` at entry and the rows received. -/
def acc1 (c : Dev nD) (fa : Buf (Elt F) ((c : Thread nD τ).loc cc0_scratch0)) (g101 : Buf (Elt F) ((c : Thread nD τ).loc cc0_scratch2)) : Buf (Elt F) ((c : Thread nD τ).loc cc0_scratch0) := addK0 c fa g101
def acc2 (c : Dev nD) (fa : Buf (Elt F) ((c : Thread nD τ).loc cc0_scratch0)) (g101 g111 : Buf (Elt F) ((c : Thread nD τ).loc cc0_scratch2)) : Buf (Elt F) ((c : Thread nD τ).loc cc0_scratch0) := addK1 c (acc1 c fa g101) g111
def acc3 (c : Dev nD) (fa : Buf (Elt F) ((c : Thread nD τ).loc cc0_scratch0)) (g101 g111 g121 : Buf (Elt F) ((c : Thread nD τ).loc cc0_scratch2)) : Buf (Elt F) ((c : Thread nD τ).loc cc0_scratch0) := addK2 c (acc2 c fa g101 g111) g121
def acc4 (c : Dev nD) (fa : Buf (Elt F) ((c : Thread nD τ).loc cc0_scratch0)) (g101 g111 g121 : Buf (Elt F) ((c : Thread nD τ).loc cc0_scratch2)) (g200 : Buf (Elt F) ((c : Thread nD τ).loc cc0_scratch3)) : Buf (Elt F) ((c : Thread nD τ).loc cc0_scratch0) := addS0 c (acc3 c fa g101 g111 g121) g200
def acc5 (c : Dev nD) (fa : Buf (Elt F) ((c : Thread nD τ).loc cc0_scratch0)) (g101 g111 g121 : Buf (Elt F) ((c : Thread nD τ).loc cc0_scratch2)) (g200 g210 : Buf (Elt F) ((c : Thread nD τ).loc cc0_scratch3)) : Buf (Elt F) ((c : Thread nD τ).loc cc0_scratch0) := addS1 c (acc4 c fa g101 g111 g121 g200) g210
def acc6 (c : Dev nD) (fa : Buf (Elt F) ((c : Thread nD τ).loc cc0_scratch0)) (g101 g111 g121 : Buf (Elt F) ((c : Thread nD τ).loc cc0_scratch2)) (g200 g210 g220 : Buf (Elt F) ((c : Thread nD τ).loc cc0_scratch3)) : Buf (Elt F) ((c : Thread nD τ).loc cc0_scratch0) := addS2 c (acc5 c fa g101 g111 g121 g200 g210) g220
def acc7 (c : Dev nD) (fa : Buf (Elt F) ((c : Thread nD τ).loc cc0_scratch0)) (g101 g111 g121 : Buf (Elt F) ((c : Thread nD τ).loc cc0_scratch2)) (g200 g210 g220 g201 : Buf (Elt F) ((c : Thread nD τ).loc cc0_scratch3)) : Buf (Elt F) ((c : Thread nD τ).loc cc0_scratch0) := addL0 c (acc6 c fa g101 g111 g121 g200 g210 g220) g201
def acc8 (c : Dev nD) (fa : Buf (Elt F) ((c : Thread nD τ).loc cc0_scratch0)) (g101 g111 g121 : Buf (Elt F) ((c : Thread nD τ).loc cc0_scratch2)) (g200 g210 g220 g201 g211 : Buf (Elt F) ((c : Thread nD τ).loc cc0_scratch3)) : Buf (Elt F) ((c : Thread nD τ).loc cc0_scratch0) := addL1 c (acc7 c fa g101 g111 g121 g200 g210 g220 g201) g211
def acc9 (c : Dev nD) (fa : Buf (Elt F) ((c : Thread nD τ).loc cc0_scratch0)) (g101 g111 g121 : Buf (Elt F) ((c : Thread nD τ).loc cc0_scratch2)) (g200 g210 g220 g201 g211 g221 : Buf (Elt F) ((c : Thread nD τ).loc cc0_scratch3)) : Buf (Elt F) ((c : Thread nD τ).loc cc0_scratch0) := addL2 c (acc8 c fa g101 g111 g121 g200 g210 g220 g201 g211) g221

variable (ct : Contract F) (c : Dev nD) (YA : S1024x512.Idx → F .f32) (YB : S512x1024.Idx → F .f32)

/-! ## The steps of the segment, one column block at a time -/

/-- What a store into the accumulator leaves untouched: right contents on a rectangle that misses the stored one on some axis stay right. -/
theorem fr (lvl : ℕ) {offW szW offS szS : Fin 2 → ℕ} {rW qW rS qS : ℕ} (inbW : ∀ a, offW a + szW a ≤ S1024x1024.size a) (heqW : offW = ![rW, qW])
    (w : (Rect.unit (s := S1024x1024) offW szW inbW).shape.Idx → F .f32) (inbS : ∀ a, offS a + szS a ≤ S1024x1024.size a) (heqS : offS = ![rS, qS])
    (a : S1024x1024.Idx → F .f32)
    (h : ∀ i ∈ ((View.whole cc0_scratch0).slice (Rect.unit (s := S1024x1024) offS szS inbS)).set, ct.okAcc lvl c (i 0).val (i 1).val (a i))
    (hd : (rS + szS 0 ≤ rW ∨ rW + szW 0 ≤ rS) ∨ (qS + szS 1 ≤ qW ∨ qW + szW 1 ≤ qS)) :
    ∀ i ∈ ((View.whole cc0_scratch0).slice (Rect.unit (s := S1024x1024) offS szS inbS)).set,
      ct.okAcc lvl c (i 0).val (i 1).val ((((View.whole cc0_scratch0).slice (Rect.unit (s := S1024x1024) offW szW inbW)).write (Elt F) a w Finset.univ) i) :=
  SegBCore.keep_of (Val := Elt F) cc0_scratch0 a (fun i v => ct.okAcc lvl c (i 0).val (i 1).val v) inbW heqW w inbS heqS inbS heqS h
    (fun _ => ⟨Nat.le_refl _, Nat.le_refl _⟩) (hd.elim (fun h0 => ⟨0, h0⟩) (fun h1 => ⟨1, h1⟩))

/-- Column block 0: adding the second piece of the stage-1 partner to the rows kept brings them to the sum over four devices. -/
theorem stepK0 (laws : Laws ct c YA YB) (a : S1024x1024.Idx → F .f32) (g : S256x1024.Idx → F .bf16)
    (ha : ∀ i ∈ ((View.whole cc0_scratch0).slice (Rect.unit (s := S1024x1024) (k0_off44 c) S128x384.size (k0_off44_inb c))).set, ct.okAcc 1 c (i 0).val (i 1).val (a i))
    (hg : ∀ i ∈ (dst_rs_1_0_1 (peer 0 1 c)).view.set, pRS ct 1 c (sh := S256x1024) i (g i)) :
    ∀ i ∈ ((View.whole cc0_scratch0).slice (Rect.unit (s := S1024x1024) (k0_off44 c) S128x384.size (k0_off44_inb c))).set, ct.okAcc 2 c (i 0).val (i 1).val (addK0 c a g i) := by
  have hpeer : k0_off17 (peer 0 1 c) = ![bit 0 2 c * 128, 0] := by
    rw [Geo.off17_eq, bit_peer_succ 0 1 2 c rfl]
  have hY : ∀ j : S128x384.Idx, ct.okSS 1 (peer 0 1 c) (bit 0 2 c * half 2 + (j 0).val) (0 + (j 1).val)
      ((Memref.whole cc0_scratch2 : Memref sig .tc .vmem S256x1024 .bf16).view.readAt (Elt F) (Rect.unit (s := S256x1024) (k0_off45 c) S128x384.size (k0_off45_inb c)).toLoadRect g j) := fun j => by
    obtain ⟨y, hy, hP⟩ := SegBCore.load_sub_ok (Val := Elt F) cc0_scratch2 g (fun i v => pRS ct 1 c (sh := S256x1024) i v)
      (k0_off17_inb (peer 0 1 c)) hpeer hg (k0_off45_inb c) (Geo.off45_eq c) (fun a => ⟨Nat.le_refl _, Nat.le_refl _⟩) j
    have hj1 : (j 1).val < 384 := (j 1).isLt
    rw [SegBCore.half_2]
    exact SegBCore.pRS_to_okSS ct 1 0 c rfl y _ _ _ (hy 0) (hy 1) (SegAValP.blk_of_lt (by omega)) hP
  unfold addK0
  exact SegBCore.keep_core ct c YA YB laws 1 2 (by decide) rfl 0 (k0_off44_inb c)
    ((Geo.off44_eq c).trans (by show ![lo 0 c 3, 0] = ![lo 0 c 2 + bit 0 2 c * half 2, 0]; rw [show lo 0 c 3 = lo 0 c 2 + bit 0 2 c * half 2 from SegBCore.lo_succ 0 c 2]))
    (fun q h1 h2 => SegAValP.blk_of_lt (by have h2' : q < 0 + 384 := h2; omega)) a ha _ hY _ (fun j => PayPoint.pay26_at _ _ j)

theorem frK0 (lvl : ℕ) {offS szS : Fin 2 → ℕ} {rS qS : ℕ} (inbS : ∀ a, offS a + szS a ≤ S1024x1024.size a) (heqS : offS = ![rS, qS])
    (a : S1024x1024.Idx → F .f32) (g : S256x1024.Idx → F .bf16)
    (h : ∀ i ∈ ((View.whole cc0_scratch0).slice (Rect.unit (s := S1024x1024) offS szS inbS)).set, ct.okAcc lvl c (i 0).val (i 1).val (a i))
    (hd : (rS + szS 0 ≤ lo 0 c 3 ∨ lo 0 c 3 + 128 ≤ rS) ∨ (qS + szS 1 ≤ 0 ∨ 0 + 384 ≤ qS)) :
    ∀ i ∈ ((View.whole cc0_scratch0).slice (Rect.unit (s := S1024x1024) offS szS inbS)).set, ct.okAcc lvl c (i 0).val (i 1).val (addK0 c a g i) := by
  unfold addK0
  exact fr ct c lvl (k0_off44_inb c) (Geo.off44_eq c) _ inbS heqS a h hd

/-- Column block 0: the rows handed on at the fourth stage, after the stage-2 partner's first piece is added and the sum rounded, are right for the send buffer. -/
theorem stepS0 (laws : Laws ct c YA YB) (a : S1024x1024.Idx → F .f32) (g : S128x1024.Idx → F .bf16)
    (ha : ∀ i ∈ ((View.whole cc0_scratch0).slice (Rect.unit (s := S1024x1024) (k0_off44 c) S128x384.size (k0_off44_inb c))).set, ct.okAcc 2 c (i 0).val (i 1).val (a i))
    (hg : ∀ i ∈ (dst_rs_2_0_0 (peer 0 2 c)).view.set, pRS ct 2 c (sh := S128x1024) i (g i)) :
    ∀ j : S64x384.Idx, ct.okSS 3 c (j 0).val (0 + (j 1).val)
      (k0_pay30 ((Memref.whole cc0_scratch0 : Memref sig .tc .vmem S1024x1024 .f32).view.readAt (Elt F) (RA50 c).toLoadRect (addS0 c a g)) j) := by
  have hb := bit_le_one 0 3 c
  have hpeer : k0_off34 (peer 0 2 c) = ![(1 - bit 0 3 c) * 64, 0] := by
    rw [Geo.off34_eq, bit_peer_succ 0 2 3 c rfl]
  have hY : ∀ j : S64x384.Idx, ct.okSS 2 (peer 0 2 c) ((1 - bit 0 3 c) * half 3 + (j 0).val) (0 + (j 1).val)
      ((Memref.whole cc0_scratch3 : Memref sig .tc .vmem S128x1024 .bf16).view.readAt (Elt F) (Rect.unit (s := S128x1024) (k0_off51 c) S64x384.size (k0_off51_inb c)).toLoadRect g j) := fun j => by
    obtain ⟨y, hy, hP⟩ := SegBCore.load_sub_ok (Val := Elt F) cc0_scratch3 g (fun i v => pRS ct 2 c (sh := S128x1024) i v)
      (k0_off34_inb (peer 0 2 c)) hpeer hg (k0_off51_inb c) (Geo.off51_eq c) (fun a => ⟨Nat.le_refl _, Nat.le_refl _⟩) j
    have hj1 : (j 1).val < 384 := (j 1).isLt
    rw [SegBCore.half_3]
    exact SegBCore.pRS_to_okSS ct 2 0 c rfl y _ _ _ (hy 0) (hy 1) (SegAValP.blk_of_lt (by omega)) hP
  have hA : ∀ i ∈ ((View.whole cc0_scratch0).slice (Rect.unit (s := S1024x1024) (k0_off50 c) S64x384.size (k0_off50_inb c))).set, ct.okAcc 2 c (i 0).val (i 1).val (a i) := fun i hi => ha i (by
    have hm := (Plumb.mem_slice_unit_whole cc0_scratch0 (k0_off50_inb c) (Geo.off50_eq c) i).mp hi
    exact (Plumb.mem_slice_unit_whole cc0_scratch0 (k0_off44_inb c) (Geo.off44_eq c) i).mpr (Fin.forall_fin_two.mpr
      ⟨by have h' : lo 0 c 3 + (1 - bit 0 3 c) * 64 ≤ (i 0).val ∧ (i 0).val < lo 0 c 3 + (1 - bit 0 3 c) * 64 + 64 := hm 0
          show lo 0 c 3 ≤ (i 0).val ∧ (i 0).val < lo 0 c 3 + 128
          omega, hm 1⟩))
  unfold addS0
  exact SegBCore.ss_core ct c YA YB laws 2 3 (by decide) rfl 0 (k0_off50_inb c)
    ((Geo.off50_eq c).trans (by show _ = ![lo 0 c 3 + (1 - bit 0 3 c) * half 3, 0]; rw [SegBCore.half_3]))
    (fun q h1 h2 => SegAValP.blk_of_lt (by have h2' : q < 0 + 384 := h2; omega)) a hA _ hY _
    (fun j => PayPoint.pay29_at _ _ j) _ (fun j => PayPoint.pay30_at _ j)

theorem frS0 (lvl : ℕ) {offS szS : Fin 2 → ℕ} {rS qS : ℕ} (inbS : ∀ a, offS a + szS a ≤ S1024x1024.size a) (heqS : offS = ![rS, qS])
    (a : S1024x1024.Idx → F .f32) (g : S128x1024.Idx → F .bf16)
    (h : ∀ i ∈ ((View.whole cc0_scratch0).slice (Rect.unit (s := S1024x1024) offS szS inbS)).set, ct.okAcc lvl c (i 0).val (i 1).val (a i))
    (hd : (rS + szS 0 ≤ lo 0 c 3 + (1 - bit 0 3 c) * 64 ∨ lo 0 c 3 + (1 - bit 0 3 c) * 64 + 64 ≤ rS) ∨ (qS + szS 1 ≤ 0 ∨ 0 + 384 ≤ qS)) :
    ∀ i ∈ ((View.whole cc0_scratch0).slice (Rect.unit (s := S1024x1024) offS szS inbS)).set, ct.okAcc lvl c (i 0).val (i 1).val (addS0 c a g i) := by
  unfold addS0
  exact fr ct c lvl (k0_off50_inb c) (Geo.off50_eq c) _ inbS heqS a h hd

/-- Column block 0: adding the second piece of the stage-2 partner to the rows kept brings them to the sum over eight devices. -/
theorem stepL0 (laws : Laws ct c YA YB) (a : S1024x1024.Idx → F .f32) (g : S128x1024.Idx → F .bf16)
    (ha : ∀ i ∈ ((View.whole cc0_scratch0).slice (Rect.unit (s := S1024x1024) (k0_off62 c) S64x384.size (k0_off62_inb c))).set, ct.okAcc 2 c (i 0).val (i 1).val (a i))
    (hg : ∀ i ∈ (dst_rs_2_0_1 (peer 0 2 c)).view.set, pRS ct 2 c (sh := S128x1024) i (g i)) :
    ∀ i ∈ ((View.whole cc0_scratch0).slice (Rect.unit (s := S1024x1024) (k0_off62 c) S64x384.size (k0_off62_inb c))).set, ct.okAcc 3 c (i 0).val (i 1).val (addL0 c a g i) := by
  have hpeer : k0_off35 (peer 0 2 c) = ![bit 0 3 c * 64, 0] := by
    rw [Geo.off35_eq, bit_peer_succ 0 2 3 c rfl]
  have hY : ∀ j : S64x384.Idx, ct.okSS 2 (peer 0 2 c) (bit 0 3 c * half 3 + (j 0).val) (0 + (j 1).val)
      ((Memref.whole cc0_scratch3 : Memref sig .tc .vmem S128x1024 .bf16).view.readAt (Elt F) (Rect.unit (s := S128x1024) (k0_off63 c) S64x384.size (k0_off63_inb c)).toLoadRect g j) := fun j => by
    obtain ⟨y, hy, hP⟩ := SegBCore.load_sub_ok (Val := Elt F) cc0_scratch3 g (fun i v => pRS ct 2 c (sh := S128x1024) i v)
      (k0_off35_inb (peer 0 2 c)) hpeer hg (k0_off63_inb c) (Geo.off63_eq c) (fun a => ⟨Nat.le_refl _, Nat.le_refl _⟩) j
    have hj1 : (j 1).val < 384 := (j 1).isLt
    rw [SegBCore.half_3]
    exact SegBCore.pRS_to_okSS ct 2 0 c rfl y _ _ _ (hy 0) (hy 1) (SegAValP.blk_of_lt (by omega)) hP
  unfold addL0
  exact SegBCore.keep_core ct c YA YB laws 2 3 (by decide) rfl 0 (k0_off62_inb c)
    ((Geo.off62_eq c).trans (by show ![lo 0 c 4, 0] = ![lo 0 c 3 + bit 0 3 c * half 3, 0]; rw [show lo 0 c 4 = lo 0 c 3 + bit 0 3 c * half 3 from SegBCore.lo_succ 0 c 3]))
    (fun q h1 h2 => SegAValP.blk_of_lt (by have h2' : q < 0 + 384 := h2; omega)) a ha _ hY _ (fun j => PayPoint.pay35_at _ _ j)

theorem frL0 (lvl : ℕ) {offS szS : Fin 2 → ℕ} {rS qS : ℕ} (inbS : ∀ a, offS a + szS a ≤ S1024x1024.size a) (heqS : offS = ![rS, qS])
    (a : S1024x1024.Idx → F .f32) (g : S128x1024.Idx → F .bf16)
    (h : ∀ i ∈ ((View.whole cc0_scratch0).slice (Rect.unit (s := S1024x1024) offS szS inbS)).set, ct.okAcc lvl c (i 0).val (i 1).val (a i))
    (hd : (rS + szS 0 ≤ lo 0 c 4 ∨ lo 0 c 4 + 64 ≤ rS) ∨ (qS + szS 1 ≤ 0 ∨ 0 + 384 ≤ qS)) :
    ∀ i ∈ ((View.whole cc0_scratch0).slice (Rect.unit (s := S1024x1024) offS szS inbS)).set, ct.okAcc lvl c (i 0).val (i 1).val (addL0 c a g i) := by
  unfold addL0
  exact fr ct c lvl (k0_off62_inb c) (Geo.off62_eq c) _ inbS heqS a h hd

/-- Column block 1: adding the second piece of the stage-1 partner to the rows kept brings them to the sum over four devices. -/
theorem stepK1 (laws : Laws ct c YA YB) (a : S1024x1024.Idx → F .f32) (g : S256x1024.Idx → F .bf16)
    (ha : ∀ i ∈ ((View.whole cc0_scratch0).slice (Rect.unit (s := S1024x1024) (k0_off46 c) S128x384.size (k0_off46_inb c))).set, ct.okAcc 1 c (i 0).val (i 1).val (a i))
    (hg : ∀ i ∈ (dst_rs_1_1_1 (peer 1 1 c)).view.set, pRS ct 1 c (sh := S256x1024) i (g i)) :
    ∀ i ∈ ((View.whole cc0_scratch0).slice (Rect.unit (s := S1024x1024) (k0_off46 c) S128x384.size (k0_off46_inb c))).set, ct.okAcc 2 c (i 0).val (i 1).val (addK1 c a g i) := by
  have hpeer : k0_off21 (peer 1 1 c) = ![bit 1 2 c * 128, 384] := by
    rw [Geo.off21_eq, bit_peer_succ 1 1 2 c rfl]
  have hY : ∀ j : S128x384.Idx, ct.okSS 1 (peer 1 1 c) (bit 1 2 c * half 2 + (j 0).val) (384 + (j 1).val)
      ((Memref.whole cc0_scratch2 : Memref sig .tc .vmem S256x1024 .bf16).view.readAt (Elt F) (Rect.unit (s := S256x1024) (k0_off47 c) S128x384.size (k0_off47_inb c)).toLoadRect g j) := fun j => by
    obtain ⟨y, hy, hP⟩ := SegBCore.load_sub_ok (Val := Elt F) cc0_scratch2 g (fun i v => pRS ct 1 c (sh := S256x1024) i v)
      (k0_off21_inb (peer 1 1 c)) hpeer hg (k0_off47_inb c) (Geo.off47_eq c) (fun a => ⟨Nat.le_refl _, Nat.le_refl _⟩) j
    have hj1 : (j 1).val < 384 := (j 1).isLt
    rw [SegBCore.half_2]
    exact SegBCore.pRS_to_okSS ct 1 1 c rfl y _ _ _ (hy 0) (hy 1) (SegAValP.blk_of_mid (by omega) (by omega)) hP
  unfold addK1
  exact SegBCore.keep_core ct c YA YB laws 1 2 (by decide) rfl 1 (k0_off46_inb c)
    ((Geo.off46_eq c).trans (by show ![lo 1 c 3, 384] = ![lo 1 c 2 + bit 1 2 c * half 2, 384]; rw [show lo 1 c 3 = lo 1 c 2 + bit 1 2 c * half 2 from SegBCore.lo_succ 1 c 2]))
    (fun q h1 h2 => SegAValP.blk_of_mid (by have h2' : q < 384 + 384 := h2; omega) (by have h2' : q < 384 + 384 := h2; omega)) a ha _ hY _ (fun j => PayPoint.pay27_at _ _ j)

theorem frK1 (lvl : ℕ) {offS szS : Fin 2 → ℕ} {rS qS : ℕ} (inbS : ∀ a, offS a + szS a ≤ S1024x1024.size a) (heqS : offS = ![rS, qS])
    (a : S1024x1024.Idx → F .f32) (g : S256x1024.Idx → F .bf16)
    (h : ∀ i ∈ ((View.whole cc0_scratch0).slice (Rect.unit (s := S1024x1024) offS szS inbS)).set, ct.okAcc lvl c (i 0).val (i 1).val (a i))
    (hd : (rS + szS 0 ≤ lo 1 c 3 ∨ lo 1 c 3 + 128 ≤ rS) ∨ (qS + szS 1 ≤ 384 ∨ 384 + 384 ≤ qS)) :
    ∀ i ∈ ((View.whole cc0_scratch0).slice (Rect.unit (s := S1024x1024) offS szS inbS)).set, ct.okAcc lvl c (i 0).val (i 1).val (addK1 c a g i) := by
  unfold addK1
  exact fr ct c lvl (k0_off46_inb c) (Geo.off46_eq c) _ inbS heqS a h hd

/-- Column block 1: the rows handed on at the fourth stage, after the stage-2 partner's first piece is added and the sum rounded, are right for the send buffer. -/
theorem stepS1 (laws : Laws ct c YA YB) (a : S1024x1024.Idx → F .f32) (g : S128x1024.Idx → F .bf16)
    (ha : ∀ i ∈ ((View.whole cc0_scratch0).slice (Rect.unit (s := S1024x1024) (k0_off46 c) S128x384.size (k0_off46_inb c))).set, ct.okAcc 2 c (i 0).val (i 1).val (a i))
    (hg : ∀ i ∈ (dst_rs_2_1_0 (peer 1 2 c)).view.set, pRS ct 2 c (sh := S128x1024) i (g i)) :
    ∀ j : S64x384.Idx, ct.okSS 3 c (j 0).val (384 + (j 1).val)
      (k0_pay32 ((Memref.whole cc0_scratch0 : Memref sig .tc .vmem S1024x1024 .f32).view.readAt (Elt F) (RA54 c).toLoadRect (addS1 c a g)) j) := by
  have hb := bit_le_one 1 3 c
  have hpeer : k0_off38 (peer 1 2 c) = ![(1 - bit 1 3 c) * 64, 384] := by
    rw [Geo.off38_eq, bit_peer_succ 1 2 3 c rfl]
  have hY : ∀ j : S64x384.Idx, ct.okSS 2 (peer 1 2 c) ((1 - bit 1 3 c) * half 3 + (j 0).val) (384 + (j 1).val)
      ((Memref.whole cc0_scratch3 : Memref sig .tc .vmem S128x1024 .bf16).view.readAt (Elt F) (Rect.unit (s := S128x1024) (k0_off55 c) S64x384.size (k0_off55_inb c)).toLoadRect g j) := fun j => by
    obtain ⟨y, hy, hP⟩ := SegBCore.load_sub_ok (Val := Elt F) cc0_scratch3 g (fun i v => pRS ct 2 c (sh := S128x1024) i v)
      (k0_off38_inb (peer 1 2 c)) hpeer hg (k0_off55_inb c) (Geo.off55_eq c) (fun a => ⟨Nat.le_refl _, Nat.le_refl _⟩) j
    have hj1 : (j 1).val < 384 := (j 1).isLt
    rw [SegBCore.half_3]
    exact SegBCore.pRS_to_okSS ct 2 1 c rfl y _ _ _ (hy 0) (hy 1) (SegAValP.blk_of_mid (by omega) (by omega)) hP
  have hA : ∀ i ∈ ((View.whole cc0_scratch0).slice (Rect.unit (s := S1024x1024) (k0_off54 c) S64x384.size (k0_off54_inb c))).set, ct.okAcc 2 c (i 0).val (i 1).val (a i) := fun i hi => ha i (by
    have hm := (Plumb.mem_slice_unit_whole cc0_scratch0 (k0_off54_inb c) (Geo.off54_eq c) i).mp hi
    exact (Plumb.mem_slice_unit_whole cc0_scratch0 (k0_off46_inb c) (Geo.off46_eq c) i).mpr (Fin.forall_fin_two.mpr
      ⟨by have h' : lo 1 c 3 + (1 - bit 1 3 c) * 64 ≤ (i 0).val ∧ (i 0).val < lo 1 c 3 + (1 - bit 1 3 c) * 64 + 64 := hm 0
          show lo 1 c 3 ≤ (i 0).val ∧ (i 0).val < lo 1 c 3 + 128
          omega, hm 1⟩))
  unfold addS1
  exact SegBCore.ss_core ct c YA YB laws 2 3 (by decide) rfl 1 (k0_off54_inb c)
    ((Geo.off54_eq c).trans (by show _ = ![lo 1 c 3 + (1 - bit 1 3 c) * half 3, 384]; rw [SegBCore.half_3]))
    (fun q h1 h2 => SegAValP.blk_of_mid (by have h2' : q < 384 + 384 := h2; omega) (by have h2' : q < 384 + 384 := h2; omega)) a hA _ hY _
    (fun j => PayPoint.pay31_at _ _ j) _ (fun j => PayPoint.pay32_at _ j)

theorem frS1 (lvl : ℕ) {offS szS : Fin 2 → ℕ} {rS qS : ℕ} (inbS : ∀ a, offS a + szS a ≤ S1024x1024.size a) (heqS : offS = ![rS, qS])
    (a : S1024x1024.Idx → F .f32) (g : S128x1024.Idx → F .bf16)
    (h : ∀ i ∈ ((View.whole cc0_scratch0).slice (Rect.unit (s := S1024x1024) offS szS inbS)).set, ct.okAcc lvl c (i 0).val (i 1).val (a i))
    (hd : (rS + szS 0 ≤ lo 1 c 3 + (1 - bit 1 3 c) * 64 ∨ lo 1 c 3 + (1 - bit 1 3 c) * 64 + 64 ≤ rS) ∨ (qS + szS 1 ≤ 384 ∨ 384 + 384 ≤ qS)) :
    ∀ i ∈ ((View.whole cc0_scratch0).slice (Rect.unit (s := S1024x1024) offS szS inbS)).set, ct.okAcc lvl c (i 0).val (i 1).val (addS1 c a g i) := by
  unfold addS1
  exact fr ct c lvl (k0_off54_inb c) (Geo.off54_eq c) _ inbS heqS a h hd

/-- Column block 1: adding the second piece of the stage-2 partner to the rows kept brings them to the sum over eight devices. -/
theorem stepL1 (laws : Laws ct c YA YB) (a : S1024x1024.Idx → F .f32) (g : S128x1024.Idx → F .bf16)
    (ha : ∀ i ∈ ((View.whole cc0_scratch0).slice (Rect.unit (s := S1024x1024) (k0_off64 c) S64x384.size (k0_off64_inb c))).set, ct.okAcc 2 c (i 0).val (i 1).val (a i))
    (hg : ∀ i ∈ (dst_rs_2_1_1 (peer 1 2 c)).view.set, pRS ct 2 c (sh := S128x1024) i (g i)) :
    ∀ i ∈ ((View.whole cc0_scratch0).slice (Rect.unit (s := S1024x1024) (k0_off64 c) S64x384.size (k0_off64_inb c))).set, ct.okAcc 3 c (i 0).val (i 1).val (addL1 c a g i) := by
  have hpeer : k0_off39 (peer 1 2 c) = ![bit 1 3 c * 64, 384] := by
    rw [Geo.off39_eq, bit_peer_succ 1 2 3 c rfl]
  have hY : ∀ j : S64x384.Idx, ct.okSS 2 (peer 1 2 c) (bit 1 3 c * half 3 + (j 0).val) (384 + (j 1).val)
      ((Memref.whole cc0_scratch3 : Memref sig .tc .vmem S128x1024 .bf16).view.readAt (Elt F) (Rect.unit (s := S128x1024) (k0_off65 c) S64x384.size (k0_off65_inb c)).toLoadRect g j) := fun j => by
    obtain ⟨y, hy, hP⟩ := SegBCore.load_sub_ok (Val := Elt F) cc0_scratch3 g (fun i v => pRS ct 2 c (sh := S128x1024) i v)
      (k0_off39_inb (peer 1 2 c)) hpeer hg (k0_off65_inb c) (Geo.off65_eq c) (fun a => ⟨Nat.le_refl _, Nat.le_refl _⟩) j
    have hj1 : (j 1).val < 384 := (j 1).isLt
    rw [SegBCore.half_3]
    exact SegBCore.pRS_to_okSS ct 2 1 c rfl y _ _ _ (hy 0) (hy 1) (SegAValP.blk_of_mid (by omega) (by omega)) hP
  unfold addL1
  exact SegBCore.keep_core ct c YA YB laws 2 3 (by decide) rfl 1 (k0_off64_inb c)
    ((Geo.off64_eq c).trans (by show ![lo 1 c 4, 384] = ![lo 1 c 3 + bit 1 3 c * half 3, 384]; rw [show lo 1 c 4 = lo 1 c 3 + bit 1 3 c * half 3 from SegBCore.lo_succ 1 c 3]))
    (fun q h1 h2 => SegAValP.blk_of_mid (by have h2' : q < 384 + 384 := h2; omega) (by have h2' : q < 384 + 384 := h2; omega)) a ha _ hY _ (fun j => PayPoint.pay36_at _ _ j)

theorem frL1 (lvl : ℕ) {offS szS : Fin 2 → ℕ} {rS qS : ℕ} (inbS : ∀ a, offS a + szS a ≤ S1024x1024.size a) (heqS : offS = ![rS, qS])
    (a : S1024x1024.Idx → F .f32) (g : S128x1024.Idx → F .bf16)
    (h : ∀ i ∈ ((View.whole cc0_scratch0).slice (Rect.unit (s := S1024x1024) offS szS inbS)).set, ct.okAcc lvl c (i 0).val (i 1).val (a i))
    (hd : (rS + szS 0 ≤ lo 1 c 4 ∨ lo 1 c 4 + 64 ≤ rS) ∨ (qS + szS 1 ≤ 384 ∨ 384 + 384 ≤ qS)) :
    ∀ i ∈ ((View.whole cc0_scratch0).slice (Rect.unit (s := S1024x1024) offS szS inbS)).set, ct.okAcc lvl c (i 0).val (i 1).val (addL1 c a g i) := by
  unfold addL1
  exact fr ct c lvl (k0_off64_inb c) (Geo.off64_eq c) _ inbS heqS a h hd

/-- Column block 2: adding the second piece of the stage-1 partner to the rows kept brings them to the sum over four devices. -/
theorem stepK2 (laws : Laws ct c YA YB) (a : S1024x1024.Idx → F .f32) (g : S256x1024.Idx → F .bf16)
    (ha : ∀ i ∈ ((View.whole cc0_scratch0).slice (Rect.unit (s := S1024x1024) (k0_off48 c) S128x256.size (k0_off48_inb c))).set, ct.okAcc 1 c (i 0).val (i 1).val (a i))
    (hg : ∀ i ∈ (dst_rs_1_2_1 (peer 2 1 c)).view.set, pRS ct 1 c (sh := S256x1024) i (g i)) :
    ∀ i ∈ ((View.whole cc0_scratch0).slice (Rect.unit (s := S1024x1024) (k0_off48 c) S128x256.size (k0_off48_inb c))).set, ct.okAcc 2 c (i 0).val (i 1).val (addK2 c a g i) := by
  have hpeer : k0_off25 (peer 2 1 c) = ![bit 2 2 c * 128, 768] := by
    rw [Geo.off25_eq, bit_peer_succ 2 1 2 c rfl]
  have hY : ∀ j : S128x256.Idx, ct.okSS 1 (peer 2 1 c) (bit 2 2 c * half 2 + (j 0).val) (768 + (j 1).val)
      ((Memref.whole cc0_scratch2 : Memref sig .tc .vmem S256x1024 .bf16).view.readAt (Elt F) (Rect.unit (s := S256x1024) (k0_off49 c) S128x256.size (k0_off49_inb c)).toLoadRect g j) := fun j => by
    obtain ⟨y, hy, hP⟩ := SegBCore.load_sub_ok (Val := Elt F) cc0_scratch2 g (fun i v => pRS ct 1 c (sh := S256x1024) i v)
      (k0_off25_inb (peer 2 1 c)) hpeer hg (k0_off49_inb c) (Geo.off49_eq c) (fun a => ⟨Nat.le_refl _, Nat.le_refl _⟩) j
    have hj1 : (j 1).val < 256 := (j 1).isLt
    rw [SegBCore.half_2]
    exact SegBCore.pRS_to_okSS ct 1 2 c rfl y _ _ _ (hy 0) (hy 1) (SegAValP.blk_of_ge (by omega)) hP
  unfold addK2
  exact SegBCore.keep_core ct c YA YB laws 1 2 (by decide) rfl 2 (k0_off48_inb c)
    ((Geo.off48_eq c).trans (by show ![lo 2 c 3, 768] = ![lo 2 c 2 + bit 2 2 c * half 2, 768]; rw [show lo 2 c 3 = lo 2 c 2 + bit 2 2 c * half 2 from SegBCore.lo_succ 2 c 2]))
    (fun q h1 h2 => SegAValP.blk_of_ge (by have h2' : q < 768 + 256 := h2; omega)) a ha _ hY _ (fun j => PayPoint.pay28_at _ _ j)

theorem frK2 (lvl : ℕ) {offS szS : Fin 2 → ℕ} {rS qS : ℕ} (inbS : ∀ a, offS a + szS a ≤ S1024x1024.size a) (heqS : offS = ![rS, qS])
    (a : S1024x1024.Idx → F .f32) (g : S256x1024.Idx → F .bf16)
    (h : ∀ i ∈ ((View.whole cc0_scratch0).slice (Rect.unit (s := S1024x1024) offS szS inbS)).set, ct.okAcc lvl c (i 0).val (i 1).val (a i))
    (hd : (rS + szS 0 ≤ lo 2 c 3 ∨ lo 2 c 3 + 128 ≤ rS) ∨ (qS + szS 1 ≤ 768 ∨ 768 + 256 ≤ qS)) :
    ∀ i ∈ ((View.whole cc0_scratch0).slice (Rect.unit (s := S1024x1024) offS szS inbS)).set, ct.okAcc lvl c (i 0).val (i 1).val (addK2 c a g i) := by
  unfold addK2
  exact fr ct c lvl (k0_off48_inb c) (Geo.off48_eq c) _ inbS heqS a h hd

/-- Column block 2: the rows handed on at the fourth stage, after the stage-2 partner's first piece is added and the sum rounded, are right for the send buffer. -/
theorem stepS2 (laws : Laws ct c YA YB) (a : S1024x1024.Idx → F .f32) (g : S128x1024.Idx → F .bf16)
    (ha : ∀ i ∈ ((View.whole cc0_scratch0).slice (Rect.unit (s := S1024x1024) (k0_off48 c) S128x256.size (k0_off48_inb c))).set, ct.okAcc 2 c (i 0).val (i 1).val (a i))
    (hg : ∀ i ∈ (dst_rs_2_2_0 (peer 2 2 c)).view.set, pRS ct 2 c (sh := S128x1024) i (g i)) :
    ∀ j : S64x256.Idx, ct.okSS 3 c (j 0).val (768 + (j 1).val)
      (k0_pay34 ((Memref.whole cc0_scratch0 : Memref sig .tc .vmem S1024x1024 .f32).view.readAt (Elt F) (RA58 c).toLoadRect (addS2 c a g)) j) := by
  have hb := bit_le_one 2 3 c
  have hpeer : k0_off42 (peer 2 2 c) = ![(1 - bit 2 3 c) * 64, 768] := by
    rw [Geo.off42_eq, bit_peer_succ 2 2 3 c rfl]
  have hY : ∀ j : S64x256.Idx, ct.okSS 2 (peer 2 2 c) ((1 - bit 2 3 c) * half 3 + (j 0).val) (768 + (j 1).val)
      ((Memref.whole cc0_scratch3 : Memref sig .tc .vmem S128x1024 .bf16).view.readAt (Elt F) (Rect.unit (s := S128x1024) (k0_off59 c) S64x256.size (k0_off59_inb c)).toLoadRect g j) := fun j => by
    obtain ⟨y, hy, hP⟩ := SegBCore.load_sub_ok (Val := Elt F) cc0_scratch3 g (fun i v => pRS ct 2 c (sh := S128x1024) i v)
      (k0_off42_inb (peer 2 2 c)) hpeer hg (k0_off59_inb c) (Geo.off59_eq c) (fun a => ⟨Nat.le_refl _, Nat.le_refl _⟩) j
    have hj1 : (j 1).val < 256 := (j 1).isLt
    rw [SegBCore.half_3]
    exact SegBCore.pRS_to_okSS ct 2 2 c rfl y _ _ _ (hy 0) (hy 1) (SegAValP.blk_of_ge (by omega)) hP
  have hA : ∀ i ∈ ((View.whole cc0_scratch0).slice (Rect.unit (s := S1024x1024) (k0_off58 c) S64x256.size (k0_off58_inb c))).set, ct.okAcc 2 c (i 0).val (i 1).val (a i) := fun i hi => ha i (by
    have hm := (Plumb.mem_slice_unit_whole cc0_scratch0 (k0_off58_inb c) (Geo.off58_eq c) i).mp hi
    exact (Plumb.mem_slice_unit_whole cc0_scratch0 (k0_off48_inb c) (Geo.off48_eq c) i).mpr (Fin.forall_fin_two.mpr
      ⟨by have h' : lo 2 c 3 + (1 - bit 2 3 c) * 64 ≤ (i 0).val ∧ (i 0).val < lo 2 c 3 + (1 - bit 2 3 c) * 64 + 64 := hm 0
          show lo 2 c 3 ≤ (i 0).val ∧ (i 0).val < lo 2 c 3 + 128
          omega, hm 1⟩))
  unfold addS2
  exact SegBCore.ss_core ct c YA YB laws 2 3 (by decide) rfl 2 (k0_off58_inb c)
    ((Geo.off58_eq c).trans (by show _ = ![lo 2 c 3 + (1 - bit 2 3 c) * half 3, 768]; rw [SegBCore.half_3]))
    (fun q h1 h2 => SegAValP.blk_of_ge (by have h2' : q < 768 + 256 := h2; omega)) a hA _ hY _
    (fun j => PayPoint.pay33_at _ _ j) _ (fun j => PayPoint.pay34_at _ j)

theorem frS2 (lvl : ℕ) {offS szS : Fin 2 → ℕ} {rS qS : ℕ} (inbS : ∀ a, offS a + szS a ≤ S1024x1024.size a) (heqS : offS = ![rS, qS])
    (a : S1024x1024.Idx → F .f32) (g : S128x1024.Idx → F .bf16)
    (h : ∀ i ∈ ((View.whole cc0_scratch0).slice (Rect.unit (s := S1024x1024) offS szS inbS)).set, ct.okAcc lvl c (i 0).val (i 1).val (a i))
    (hd : (rS + szS 0 ≤ lo 2 c 3 + (1 - bit 2 3 c) * 64 ∨ lo 2 c 3 + (1 - bit 2 3 c) * 64 + 64 ≤ rS) ∨ (qS + szS 1 ≤ 768 ∨ 768 + 256 ≤ qS)) :
    ∀ i ∈ ((View.whole cc0_scratch0).slice (Rect.unit (s := S1024x1024) offS szS inbS)).set, ct.okAcc lvl c (i 0).val (i 1).val (addS2 c a g i) := by
  unfold addS2
  exact fr ct c lvl (k0_off58_inb c) (Geo.off58_eq c) _ inbS heqS a h hd

/-- Column block 2: adding the second piece of the stage-2 partner to the rows kept brings them to the sum over eight devices. -/
theorem stepL2 (laws : Laws ct c YA YB) (a : S1024x1024.Idx → F .f32) (g : S128x1024.Idx → F .bf16)
    (ha : ∀ i ∈ ((View.whole cc0_scratch0).slice (Rect.unit (s := S1024x1024) (k0_off66 c) S64x256.size (k0_off66_inb c))).set, ct.okAcc 2 c (i 0).val (i 1).val (a i))
    (hg : ∀ i ∈ (dst_rs_2_2_1 (peer 2 2 c)).view.set, pRS ct 2 c (sh := S128x1024) i (g i)) :
    ∀ i ∈ ((View.whole cc0_scratch0).slice (Rect.unit (s := S1024x1024) (k0_off66 c) S64x256.size (k0_off66_inb c))).set, ct.okAcc 3 c (i 0).val (i 1).val (addL2 c a g i) := by
  have hpeer : k0_off43 (peer 2 2 c) = ![bit 2 3 c * 64, 768] := by
    rw [Geo.off43_eq, bit_peer_succ 2 2 3 c rfl]
  have hY : ∀ j : S64x256.Idx, ct.okSS 2 (peer 2 2 c) (bit 2 3 c * half 3 + (j 0).val) (768 + (j 1).val)
      ((Memref.whole cc0_scratch3 : Memref sig .tc .vmem S128x1024 .bf16).view.readAt (Elt F) (Rect.unit (s := S128x1024) (k0_off67 c) S64x256.size (k0_off67_inb c)).toLoadRect g j) := fun j => by
    obtain ⟨y, hy, hP⟩ := SegBCore.load_sub_ok (Val := Elt F) cc0_scratch3 g (fun i v => pRS ct 2 c (sh := S128x1024) i v)
      (k0_off43_inb (peer 2 2 c)) hpeer hg (k0_off67_inb c) (Geo.off67_eq c) (fun a => ⟨Nat.le_refl _, Nat.le_refl _⟩) j
    have hj1 : (j 1).val < 256 := (j 1).isLt
    rw [SegBCore.half_3]
    exact SegBCore.pRS_to_okSS ct 2 2 c rfl y _ _ _ (hy 0) (hy 1) (SegAValP.blk_of_ge (by omega)) hP
  unfold addL2
  exact SegBCore.keep_core ct c YA YB laws 2 3 (by decide) rfl 2 (k0_off66_inb c)
    ((Geo.off66_eq c).trans (by show ![lo 2 c 4, 768] = ![lo 2 c 3 + bit 2 3 c * half 3, 768]; rw [show lo 2 c 4 = lo 2 c 3 + bit 2 3 c * half 3 from SegBCore.lo_succ 2 c 3]))
    (fun q h1 h2 => SegAValP.blk_of_ge (by have h2' : q < 768 + 256 := h2; omega)) a ha _ hY _ (fun j => PayPoint.pay37_at _ _ j)

theorem frL2 (lvl : ℕ) {offS szS : Fin 2 → ℕ} {rS qS : ℕ} (inbS : ∀ a, offS a + szS a ≤ S1024x1024.size a) (heqS : offS = ![rS, qS])
    (a : S1024x1024.Idx → F .f32) (g : S128x1024.Idx → F .bf16)
    (h : ∀ i ∈ ((View.whole cc0_scratch0).slice (Rect.unit (s := S1024x1024) offS szS inbS)).set, ct.okAcc lvl c (i 0).val (i 1).val (a i))
    (hd : (rS + szS 0 ≤ lo 2 c 4 ∨ lo 2 c 4 + 64 ≤ rS) ∨ (qS + szS 1 ≤ 768 ∨ 768 + 256 ≤ qS)) :
    ∀ i ∈ ((View.whole cc0_scratch0).slice (Rect.unit (s := S1024x1024) offS szS inbS)).set, ct.okAcc lvl c (i 0).val (i 1).val (addL2 c a g i) := by
  unfold addL2
  exact fr ct c lvl (k0_off66_inb c) (Geo.off66_eq c) _ inbS heqS a h hd

/-! ## What the pieces sent carry -/

/-- What lands at the partner of the fourth stage, column block 0, piece 0, is right under the contract. -/
theorem sent_3_0_0 (laws : Laws ct c YA YB) (fa : Buf (Elt F) ((c : Thread nD τ).loc cc0_scratch0)) (g101 g111 g121 : Buf (Elt F) ((c : Thread nD τ).loc cc0_scratch2)) (g200 : Buf (Elt F) ((c : Thread nD τ).loc cc0_scratch3)) (g9 : Buf (Elt F) ((c : Thread nD τ).loc cc0_scratch9))
    (fd : Buf (Elt F) ((dst_rs_3_0_0 c).view.loc ((peer 0 3 c : Dev nD) : Thread nD τ)))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) :
    ∀ i ∈ (dst_rs_3_0_0 c).view.set, pRS ct 3 (peer 0 3 c) (sh := S64x1024) i
      (((dst_rs_3_0_0 c).view.write (Elt F) fd ((src_rs_3_0_0 c).view.read (Elt F) (sendK0 c (acc4 c fa g101 g111 g121 g200) g9)) Finset.univ) i) := by
  have hA : ∀ i ∈ ((View.whole cc0_scratch0).slice (Rect.unit (s := S1024x1024) (k0_off44 c) S128x384.size (k0_off44_inb c))).set, ct.okAcc 2 c (i 0).val (i 1).val (acc3 c fa g101 g111 g121 i) := by
    unfold acc3 acc2 acc1
    exact frK2 ct c 2 (k0_off44_inb c) (Geo.off44_eq c) _ _ (frK1 ct c 2 (k0_off44_inb c) (Geo.off44_eq c) _ _ (stepK0 ct c YA YB laws _ _ (hfa.1) hg101) (Or.inr (by show 0 + 384 ≤ 384 ∨ 384 + 384 ≤ 0; omega))) (Or.inr (by show 0 + 384 ≤ 768 ∨ 768 + 256 ≤ 0; omega))
  have hcore := stepS0 ct c YA YB laws _ _ hA hg200
  refine SegBValP.landed3 ct c 0 (k0_off52_inb c) (Geo.off52_eq c)
    (fun q h1 h2 => SegAValP.blk_of_lt (by have h2' : q < 0 + 384 := h2; omega)) (sendK0 c (acc4 c fa g101 g111 g121 g200) g9) ?_ fd
  intro i hi
  unfold sendK0 acc4
  refine Plumb.write_unit_whole_forall (Val := Elt F) cc0_scratch9 g9 inb_S64x1024_S64x384_0_0 _ rfl
    (fun i v => ct.okSS 3 c (i 0).val (i 1).val v) ?_ i (Fin.forall_fin_two.mpr
      ⟨⟨Nat.zero_le _, by have h' : (i 0).val < 64 := (i 0).isLt; show (i 0).val < 0 + 64; omega⟩, hi 1⟩)
  intro j i' hi'
  have e0 : (i' 0).val = (j 0).val := (hi' 0).trans (Nat.zero_add _)
  have e1 : (i' 1).val = 0 + (j 1).val := hi' 1
  show ct.okSS 3 c (i' 0).val (i' 1).val _
  rw [e0, e1]
  exact hcore j

/-- What lands at the partner of the fourth stage, column block 0, piece 1, is right under the contract. -/
theorem sent_3_0_1 (laws : Laws ct c YA YB) (fa : Buf (Elt F) ((c : Thread nD τ).loc cc0_scratch0)) (g101 g111 g121 : Buf (Elt F) ((c : Thread nD τ).loc cc0_scratch2)) (g200 : Buf (Elt F) ((c : Thread nD τ).loc cc0_scratch3)) (g9 : Buf (Elt F) ((c : Thread nD τ).loc cc0_scratch9))
    (fd : Buf (Elt F) ((dst_rs_3_0_1 c).view.loc ((peer 0 3 c : Dev nD) : Thread nD τ)))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) :
    ∀ i ∈ (dst_rs_3_0_1 c).view.set, pRS ct 3 (peer 0 3 c) (sh := S64x1024) i
      (((dst_rs_3_0_1 c).view.write (Elt F) fd ((src_rs_3_0_1 c).view.read (Elt F) (sendK0 c (acc4 c fa g101 g111 g121 g200) g9)) Finset.univ) i) := by
  have hA : ∀ i ∈ ((View.whole cc0_scratch0).slice (Rect.unit (s := S1024x1024) (k0_off44 c) S128x384.size (k0_off44_inb c))).set, ct.okAcc 2 c (i 0).val (i 1).val (acc3 c fa g101 g111 g121 i) := by
    unfold acc3 acc2 acc1
    exact frK2 ct c 2 (k0_off44_inb c) (Geo.off44_eq c) _ _ (frK1 ct c 2 (k0_off44_inb c) (Geo.off44_eq c) _ _ (stepK0 ct c YA YB laws _ _ (hfa.1) hg101) (Or.inr (by show 0 + 384 ≤ 384 ∨ 384 + 384 ≤ 0; omega))) (Or.inr (by show 0 + 384 ≤ 768 ∨ 768 + 256 ≤ 0; omega))
  have hcore := stepS0 ct c YA YB laws _ _ hA hg200
  refine SegBValP.landed3 ct c 0 (k0_off53_inb c) (Geo.off53_eq c)
    (fun q h1 h2 => SegAValP.blk_of_lt (by have h2' : q < 0 + 384 := h2; omega)) (sendK0 c (acc4 c fa g101 g111 g121 g200) g9) ?_ fd
  intro i hi
  unfold sendK0 acc4
  refine Plumb.write_unit_whole_forall (Val := Elt F) cc0_scratch9 g9 inb_S64x1024_S64x384_0_0 _ rfl
    (fun i v => ct.okSS 3 c (i 0).val (i 1).val v) ?_ i (Fin.forall_fin_two.mpr
      ⟨⟨Nat.zero_le _, by have h' : (i 0).val < 64 := (i 0).isLt; show (i 0).val < 0 + 64; omega⟩, hi 1⟩)
  intro j i' hi'
  have e0 : (i' 0).val = (j 0).val := (hi' 0).trans (Nat.zero_add _)
  have e1 : (i' 1).val = 0 + (j 1).val := hi' 1
  show ct.okSS 3 c (i' 0).val (i' 1).val _
  rw [e0, e1]
  exact hcore j

/-- What lands at the partner of the fourth stage, column block 1, piece 0, is right under the contract. -/
theorem sent_3_1_0 (laws : Laws ct c YA YB) (fa : Buf (Elt F) ((c : Thread nD τ).loc cc0_scratch0)) (g101 g111 g121 : Buf (Elt F) ((c : Thread nD τ).loc cc0_scratch2)) (g200 g210 : Buf (Elt F) ((c : Thread nD τ).loc cc0_scratch3)) (g9 : Buf (Elt F) ((c : Thread nD τ).loc cc0_scratch9))
    (fd : Buf (Elt F) ((dst_rs_3_1_0 c).view.loc ((peer 1 3 c : Dev nD) : Thread nD τ)))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) (hg210 : ∀ i ∈ (dst_rs_2_1_0 (peer 1 2 c)).view.set, pRS ct 2 c (sh := S128x1024) i (g210 i)) :
    ∀ i ∈ (dst_rs_3_1_0 c).view.set, pRS ct 3 (peer 1 3 c) (sh := S64x1024) i
      (((dst_rs_3_1_0 c).view.write (Elt F) fd ((src_rs_3_1_0 c).view.read (Elt F) (sendK1 c (acc5 c fa g101 g111 g121 g200 g210) g9)) Finset.univ) i) := by
  have hA : ∀ i ∈ ((View.whole cc0_scratch0).slice (Rect.unit (s := S1024x1024) (k0_off46 c) S128x384.size (k0_off46_inb c))).set, ct.okAcc 2 c (i 0).val (i 1).val (acc4 c fa g101 g111 g121 g200 i) := by
    unfold acc4 acc3 acc2 acc1
    exact frS0 ct c 2 (k0_off46_inb c) (Geo.off46_eq c) _ _ (frK2 ct c 2 (k0_off46_inb c) (Geo.off46_eq c) _ _ (stepK1 ct c YA YB laws _ _ (frK0 ct c 1 (k0_off46_inb c) (Geo.off46_eq c) _ _ (hfa.2.1) (Or.inr (by show 384 + 384 ≤ 0 ∨ 0 + 384 ≤ 384; omega))) hg111) (Or.inr (by show 384 + 384 ≤ 768 ∨ 768 + 256 ≤ 384; omega))) (Or.inr (by show 384 + 384 ≤ 0 ∨ 0 + 384 ≤ 384; omega))
  have hcore := stepS1 ct c YA YB laws _ _ hA hg210
  refine SegBValP.landed3 ct c 1 (k0_off56_inb c) (Geo.off56_eq c)
    (fun q h1 h2 => SegAValP.blk_of_mid (by have h2' : q < 384 + 384 := h2; omega) (by have h2' : q < 384 + 384 := h2; omega)) (sendK1 c (acc5 c fa g101 g111 g121 g200 g210) g9) ?_ fd
  intro i hi
  unfold sendK1 acc5
  refine Plumb.write_unit_whole_forall (Val := Elt F) cc0_scratch9 g9 inb_S64x1024_S64x384_0_384 _ rfl
    (fun i v => ct.okSS 3 c (i 0).val (i 1).val v) ?_ i (Fin.forall_fin_two.mpr
      ⟨⟨Nat.zero_le _, by have h' : (i 0).val < 64 := (i 0).isLt; show (i 0).val < 0 + 64; omega⟩, hi 1⟩)
  intro j i' hi'
  have e0 : (i' 0).val = (j 0).val := (hi' 0).trans (Nat.zero_add _)
  have e1 : (i' 1).val = 384 + (j 1).val := hi' 1
  show ct.okSS 3 c (i' 0).val (i' 1).val _
  rw [e0, e1]
  exact hcore j

/-- What lands at the partner of the fourth stage, column block 1, piece 1, is right under the contract. -/
theorem sent_3_1_1 (laws : Laws ct c YA YB) (fa : Buf (Elt F) ((c : Thread nD τ).loc cc0_scratch0)) (g101 g111 g121 : Buf (Elt F) ((c : Thread nD τ).loc cc0_scratch2)) (g200 g210 : Buf (Elt F) ((c : Thread nD τ).loc cc0_scratch3)) (g9 : Buf (Elt F) ((c : Thread nD τ).loc cc0_scratch9))
    (fd : Buf (Elt F) ((dst_rs_3_1_1 c).view.loc ((peer 1 3 c : Dev nD) : Thread nD τ)))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) (hg210 : ∀ i ∈ (dst_rs_2_1_0 (peer 1 2 c)).view.set, pRS ct 2 c (sh := S128x1024) i (g210 i)) :
    ∀ i ∈ (dst_rs_3_1_1 c).view.set, pRS ct 3 (peer 1 3 c) (sh := S64x1024) i
      (((dst_rs_3_1_1 c).view.write (Elt F) fd ((src_rs_3_1_1 c).view.read (Elt F) (sendK1 c (acc5 c fa g101 g111 g121 g200 g210) g9)) Finset.univ) i) := by
  have hA : ∀ i ∈ ((View.whole cc0_scratch0).slice (Rect.unit (s := S1024x1024) (k0_off46 c) S128x384.size (k0_off46_inb c))).set, ct.okAcc 2 c (i 0).val (i 1).val (acc4 c fa g101 g111 g121 g200 i) := by
    unfold acc4 acc3 acc2 acc1
    exact frS0 ct c 2 (k0_off46_inb c) (Geo.off46_eq c) _ _ (frK2 ct c 2 (k0_off46_inb c) (Geo.off46_eq c) _ _ (stepK1 ct c YA YB laws _ _ (frK0 ct c 1 (k0_off46_inb c) (Geo.off46_eq c) _ _ (hfa.2.1) (Or.inr (by show 384 + 384 ≤ 0 ∨ 0 + 384 ≤ 384; omega))) hg111) (Or.inr (by show 384 + 384 ≤ 768 ∨ 768 + 256 ≤ 384; omega))) (Or.inr (by show 384 + 384 ≤ 0 ∨ 0 + 384 ≤ 384; omega))
  have hcore := stepS1 ct c YA YB laws _ _ hA hg210
  refine SegBValP.landed3 ct c 1 (k0_off57_inb c) (Geo.off57_eq c)
    (fun q h1 h2 => SegAValP.blk_of_mid (by have h2' : q < 384 + 384 := h2; omega) (by have h2' : q < 384 + 384 := h2; omega)) (sendK1 c (acc5 c fa g101 g111 g121 g200 g210) g9) ?_ fd
  intro i hi
  unfold sendK1 acc5
  refine Plumb.write_unit_whole_forall (Val := Elt F) cc0_scratch9 g9 inb_S64x1024_S64x384_0_384 _ rfl
    (fun i v => ct.okSS 3 c (i 0).val (i 1).val v) ?_ i (Fin.forall_fin_two.mpr
      ⟨⟨Nat.zero_le _, by have h' : (i 0).val < 64 := (i 0).isLt; show (i 0).val < 0 + 64; omega⟩, hi 1⟩)
  intro j i' hi'
  have e0 : (i' 0).val = (j 0).val := (hi' 0).trans (Nat.zero_add _)
  have e1 : (i' 1).val = 384 + (j 1).val := hi' 1
  show ct.okSS 3 c (i' 0).val (i' 1).val _
  rw [e0, e1]
  exact hcore j

/-- What lands at the partner of the fourth stage, column block 2, piece 0, is right under the contract. -/
theorem sent_3_2_0 (laws : Laws ct c YA YB) (fa : Buf (Elt F) ((c : Thread nD τ).loc cc0_scratch0)) (g101 g111 g121 : Buf (Elt F) ((c : Thread nD τ).loc cc0_scratch2)) (g200 g210 g220 : Buf (Elt F) ((c : Thread nD τ).loc cc0_scratch3)) (g9 : Buf (Elt F) ((c : Thread nD τ).loc cc0_scratch9))
    (fd : Buf (Elt F) ((dst_rs_3_2_0 c).view.loc ((peer 2 3 c : Dev nD) : Thread nD τ)))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) (hg210 : ∀ i ∈ (dst_rs_2_1_0 (peer 1 2 c)).view.set, pRS ct 2 c (sh := S128x1024) i (g210 i)) (hg220 : ∀ i ∈ (dst_rs_2_2_0 (peer 2 2 c)).view.set, pRS ct 2 c (sh := S128x1024) i (g220 i)) :
    ∀ i ∈ (dst_rs_3_2_0 c).view.set, pRS ct 3 (peer 2 3 c) (sh := S64x1024) i
      (((dst_rs_3_2_0 c).view.write (Elt F) fd ((src_rs_3_2_0 c).view.read (Elt F) (sendK2 c (acc6 c fa g101 g111 g121 g200 g210 g220) g9)) Finset.univ) i) := by
  have hA : ∀ i ∈ ((View.whole cc0_scratch0).slice (Rect.unit (s := S1024x1024) (k0_off48 c) S128x256.size (k0_off48_inb c))).set, ct.okAcc 2 c (i 0).val (i 1).val (acc5 c fa g101 g111 g121 g200 g210 i) := by
    unfold acc5 acc4 acc3 acc2 acc1
    exact frS1 ct c 2 (k0_off48_inb c) (Geo.off48_eq c) _ _ (frS0 ct c 2 (k0_off48_inb c) (Geo.off48_eq c) _ _ (stepK2 ct c YA YB laws _ _ (frK1 ct c 1 (k0_off48_inb c) (Geo.off48_eq c) _ _ (frK0 ct c 1 (k0_off48_inb c) (Geo.off48_eq c) _ _ (hfa.2.2) (Or.inr (by show 768 + 256 ≤ 0 ∨ 0 + 384 ≤ 768; omega))) (Or.inr (by show 768 + 256 ≤ 384 ∨ 384 + 384 ≤ 768; omega))) hg121) (Or.inr (by show 768 + 256 ≤ 0 ∨ 0 + 384 ≤ 768; omega))) (Or.inr (by show 768 + 256 ≤ 384 ∨ 384 + 384 ≤ 768; omega))
  have hcore := stepS2 ct c YA YB laws _ _ hA hg220
  refine SegBValP.landed3 ct c 2 (k0_off60_inb c) (Geo.off60_eq c)
    (fun q h1 h2 => SegAValP.blk_of_ge (by have h2' : q < 768 + 256 := h2; omega)) (sendK2 c (acc6 c fa g101 g111 g121 g200 g210 g220) g9) ?_ fd
  intro i hi
  unfold sendK2 acc6
  refine Plumb.write_unit_whole_forall (Val := Elt F) cc0_scratch9 g9 inb_S64x1024_S64x256_0_768 _ rfl
    (fun i v => ct.okSS 3 c (i 0).val (i 1).val v) ?_ i (Fin.forall_fin_two.mpr
      ⟨⟨Nat.zero_le _, by have h' : (i 0).val < 64 := (i 0).isLt; show (i 0).val < 0 + 64; omega⟩, hi 1⟩)
  intro j i' hi'
  have e0 : (i' 0).val = (j 0).val := (hi' 0).trans (Nat.zero_add _)
  have e1 : (i' 1).val = 768 + (j 1).val := hi' 1
  show ct.okSS 3 c (i' 0).val (i' 1).val _
  rw [e0, e1]
  exact hcore j

/-- What lands at the partner of the fourth stage, column block 2, piece 1, is right under the contract. -/
theorem sent_3_2_1 (laws : Laws ct c YA YB) (fa : Buf (Elt F) ((c : Thread nD τ).loc cc0_scratch0)) (g101 g111 g121 : Buf (Elt F) ((c : Thread nD τ).loc cc0_scratch2)) (g200 g210 g220 : Buf (Elt F) ((c : Thread nD τ).loc cc0_scratch3)) (g9 : Buf (Elt F) ((c : Thread nD τ).loc cc0_scratch9))
    (fd : Buf (Elt F) ((dst_rs_3_2_1 c).view.loc ((peer 2 3 c : Dev nD) : Thread nD τ)))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) (hg210 : ∀ i ∈ (dst_rs_2_1_0 (peer 1 2 c)).view.set, pRS ct 2 c (sh := S128x1024) i (g210 i)) (hg220 : ∀ i ∈ (dst_rs_2_2_0 (peer 2 2 c)).view.set, pRS ct 2 c (sh := S128x1024) i (g220 i)) :
    ∀ i ∈ (dst_rs_3_2_1 c).view.set, pRS ct 3 (peer 2 3 c) (sh := S64x1024) i
      (((dst_rs_3_2_1 c).view.write (Elt F) fd ((src_rs_3_2_1 c).view.read (Elt F) (sendK2 c (acc6 c fa g101 g111 g121 g200 g210 g220) g9)) Finset.univ) i) := by
  have hA : ∀ i ∈ ((View.whole cc0_scratch0).slice (Rect.unit (s := S1024x1024) (k0_off48 c) S128x256.size (k0_off48_inb c))).set, ct.okAcc 2 c (i 0).val (i 1).val (acc5 c fa g101 g111 g121 g200 g210 i) := by
    unfold acc5 acc4 acc3 acc2 acc1
    exact frS1 ct c 2 (k0_off48_inb c) (Geo.off48_eq c) _ _ (frS0 ct c 2 (k0_off48_inb c) (Geo.off48_eq c) _ _ (stepK2 ct c YA YB laws _ _ (frK1 ct c 1 (k0_off48_inb c) (Geo.off48_eq c) _ _ (frK0 ct c 1 (k0_off48_inb c) (Geo.off48_eq c) _ _ (hfa.2.2) (Or.inr (by show 768 + 256 ≤ 0 ∨ 0 + 384 ≤ 768; omega))) (Or.inr (by show 768 + 256 ≤ 384 ∨ 384 + 384 ≤ 768; omega))) hg121) (Or.inr (by show 768 + 256 ≤ 0 ∨ 0 + 384 ≤ 768; omega))) (Or.inr (by show 768 + 256 ≤ 384 ∨ 384 + 384 ≤ 768; omega))
  have hcore := stepS2 ct c YA YB laws _ _ hA hg220
  refine SegBValP.landed3 ct c 2 (k0_off61_inb c) (Geo.off61_eq c)
    (fun q h1 h2 => SegAValP.blk_of_ge (by have h2' : q < 768 + 256 := h2; omega)) (sendK2 c (acc6 c fa g101 g111 g121 g200 g210 g220) g9) ?_ fd
  intro i hi
  unfold sendK2 acc6
  refine Plumb.write_unit_whole_forall (Val := Elt F) cc0_scratch9 g9 inb_S64x1024_S64x256_0_768 _ rfl
    (fun i v => ct.okSS 3 c (i 0).val (i 1).val v) ?_ i (Fin.forall_fin_two.mpr
      ⟨⟨Nat.zero_le _, by have h' : (i 0).val < 64 := (i 0).isLt; show (i 0).val < 0 + 64; omega⟩, hi 1⟩)
  intro j i' hi'
  have e0 : (i' 0).val = (j 0).val := (hi' 0).trans (Nat.zero_add _)
  have e1 : (i' 1).val = 768 + (j 1).val := hi' 1
  show ct.okSS 3 c (i' 0).val (i' 1).val _
  rw [e0, e1]
  exact hcore j

/-! ## What the kept rows hold at the end -/

/-- The kept rows of the fourth stage, column block 0, hold the sum over eight devices. -/
theorem kept_0 (laws : Laws ct c YA YB) (fa : Buf (Elt F) ((c : Thread nD τ).loc cc0_scratch0)) (g101 g111 g121 : Buf (Elt F) ((c : Thread nD τ).loc cc0_scratch2)) (g200 g210 g220 g201 g211 g221 : Buf (Elt F) ((c : Thread nD τ).loc cc0_scratch3))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) (hg210 : ∀ i ∈ (dst_rs_2_1_0 (peer 1 2 c)).view.set, pRS ct 2 c (sh := S128x1024) i (g210 i)) (hg220 : ∀ i ∈ (dst_rs_2_2_0 (peer 2 2 c)).view.set, pRS ct 2 c (sh := S128x1024) i (g220 i)) (hg201 : ∀ i ∈ (dst_rs_2_0_1 (peer 0 2 c)).view.set, pRS ct 2 c (sh := S128x1024) i (g201 i)) (hg211 : ∀ i ∈ (dst_rs_2_1_1 (peer 1 2 c)).view.set, pRS ct 2 c (sh := S128x1024) i (g211 i)) (hg221 : ∀ i ∈ (dst_rs_2_2_1 (peer 2 2 c)).view.set, pRS ct 2 c (sh := S128x1024) i (g221 i)) :
    ∀ i ∈ SegBMid.accRows30_0 c, ct.okAcc 3 c (i 0).val (i 1).val (acc9 c fa g101 g111 g121 g200 g210 g220 g201 g211 g221 i) := by
  have hb := bit_le_one 0 3 c
  have hl := SegBCore.lo_4 0 c
  have h3 : ∀ i ∈ ((View.whole cc0_scratch0).slice (Rect.unit (s := S1024x1024) (k0_off44 c) S128x384.size (k0_off44_inb c))).set, ct.okAcc 2 c (i 0).val (i 1).val (acc3 c fa g101 g111 g121 i) := by
    unfold acc3 acc2 acc1
    exact frK2 ct c 2 (k0_off44_inb c) (Geo.off44_eq c) _ _ (frK1 ct c 2 (k0_off44_inb c) (Geo.off44_eq c) _ _ (stepK0 ct c YA YB laws _ _ (hfa.1) hg101) (Or.inr (by show 0 + 384 ≤ 384 ∨ 384 + 384 ≤ 0; omega))) (Or.inr (by show 0 + 384 ≤ 768 ∨ 768 + 256 ≤ 0; omega))
  have h3' : ∀ i ∈ ((View.whole cc0_scratch0).slice (Rect.unit (s := S1024x1024) (k0_off62 c) S64x384.size (k0_off62_inb c))).set, ct.okAcc 2 c (i 0).val (i 1).val (acc3 c fa g101 g111 g121 i) := fun i hi => h3 i (by
    have hm := (Plumb.mem_slice_unit_whole cc0_scratch0 (k0_off62_inb c) (Geo.off62_eq c) i).mp hi
    exact (Plumb.mem_slice_unit_whole cc0_scratch0 (k0_off44_inb c) (Geo.off44_eq c) i).mpr (Fin.forall_fin_two.mpr
      ⟨by have h' : lo 0 c 4 ≤ (i 0).val ∧ (i 0).val < lo 0 c 4 + 64 := hm 0
          show lo 0 c 3 ≤ (i 0).val ∧ (i 0).val < lo 0 c 3 + 128
          omega, hm 1⟩))
  have h6 : ∀ i ∈ ((View.whole cc0_scratch0).slice (Rect.unit (s := S1024x1024) (k0_off62 c) S64x384.size (k0_off62_inb c))).set, ct.okAcc 2 c (i 0).val (i 1).val (acc6 c fa g101 g111 g121 g200 g210 g220 i) := by
    unfold acc6 acc5 acc4
    exact frS2 ct c 2 (k0_off62_inb c) (Geo.off62_eq c) _ _ (frS1 ct c 2 (k0_off62_inb c) (Geo.off62_eq c) _ _ (frS0 ct c 2 (k0_off62_inb c) (Geo.off62_eq c) _ _ (h3') (Or.inl (by have hb := bit_le_one 0 3 c; have hl := SegBCore.lo_4 0 c; show lo 0 c 4 + 64 ≤ lo 0 c 3 + (1 - bit 0 3 c) * 64 ∨ lo 0 c 3 + (1 - bit 0 3 c) * 64 + 64 ≤ lo 0 c 4; omega))) (Or.inr (by show 0 + 384 ≤ 384 ∨ 384 + 384 ≤ 0; omega))) (Or.inr (by show 0 + 384 ≤ 768 ∨ 768 + 256 ≤ 0; omega))
  unfold acc9 acc8 acc7
  exact frL2 ct c 3 (k0_off62_inb c) (Geo.off62_eq c) _ _ (frL1 ct c 3 (k0_off62_inb c) (Geo.off62_eq c) _ _ (stepL0 ct c YA YB laws _ _ (h6) hg201) (Or.inr (by show 0 + 384 ≤ 384 ∨ 384 + 384 ≤ 0; omega))) (Or.inr (by show 0 + 384 ≤ 768 ∨ 768 + 256 ≤ 0; omega))

/-- The kept rows of the fourth stage, column block 1, hold the sum over eight devices. -/
theorem kept_1 (laws : Laws ct c YA YB) (fa : Buf (Elt F) ((c : Thread nD τ).loc cc0_scratch0)) (g101 g111 g121 : Buf (Elt F) ((c : Thread nD τ).loc cc0_scratch2)) (g200 g210 g220 g201 g211 g221 : Buf (Elt F) ((c : Thread nD τ).loc cc0_scratch3))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) (hg210 : ∀ i ∈ (dst_rs_2_1_0 (peer 1 2 c)).view.set, pRS ct 2 c (sh := S128x1024) i (g210 i)) (hg220 : ∀ i ∈ (dst_rs_2_2_0 (peer 2 2 c)).view.set, pRS ct 2 c (sh := S128x1024) i (g220 i)) (hg201 : ∀ i ∈ (dst_rs_2_0_1 (peer 0 2 c)).view.set, pRS ct 2 c (sh := S128x1024) i (g201 i)) (hg211 : ∀ i ∈ (dst_rs_2_1_1 (peer 1 2 c)).view.set, pRS ct 2 c (sh := S128x1024) i (g211 i)) (hg221 : ∀ i ∈ (dst_rs_2_2_1 (peer 2 2 c)).view.set, pRS ct 2 c (sh := S128x1024) i (g221 i)) :
    ∀ i ∈ SegBMid.accRows30_1 c, ct.okAcc 3 c (i 0).val (i 1).val (acc9 c fa g101 g111 g121 g200 g210 g220 g201 g211 g221 i) := by
  have hb := bit_le_one 1 3 c
  have hl := SegBCore.lo_4 1 c
  have h3 : ∀ i ∈ ((View.whole cc0_scratch0).slice (Rect.unit (s := S1024x1024) (k0_off46 c) S128x384.size (k0_off46_inb c))).set, ct.okAcc 2 c (i 0).val (i 1).val (acc3 c fa g101 g111 g121 i) := by
    unfold acc3 acc2 acc1
    exact frK2 ct c 2 (k0_off46_inb c) (Geo.off46_eq c) _ _ (stepK1 ct c YA YB laws _ _ (frK0 ct c 1 (k0_off46_inb c) (Geo.off46_eq c) _ _ (hfa.2.1) (Or.inr (by show 384 + 384 ≤ 0 ∨ 0 + 384 ≤ 384; omega))) hg111) (Or.inr (by show 384 + 384 ≤ 768 ∨ 768 + 256 ≤ 384; omega))
  have h3' : ∀ i ∈ ((View.whole cc0_scratch0).slice (Rect.unit (s := S1024x1024) (k0_off64 c) S64x384.size (k0_off64_inb c))).set, ct.okAcc 2 c (i 0).val (i 1).val (acc3 c fa g101 g111 g121 i) := fun i hi => h3 i (by
    have hm := (Plumb.mem_slice_unit_whole cc0_scratch0 (k0_off64_inb c) (Geo.off64_eq c) i).mp hi
    exact (Plumb.mem_slice_unit_whole cc0_scratch0 (k0_off46_inb c) (Geo.off46_eq c) i).mpr (Fin.forall_fin_two.mpr
      ⟨by have h' : lo 1 c 4 ≤ (i 0).val ∧ (i 0).val < lo 1 c 4 + 64 := hm 0
          show lo 1 c 3 ≤ (i 0).val ∧ (i 0).val < lo 1 c 3 + 128
          omega, hm 1⟩))
  have h6 : ∀ i ∈ ((View.whole cc0_scratch0).slice (Rect.unit (s := S1024x1024) (k0_off64 c) S64x384.size (k0_off64_inb c))).set, ct.okAcc 2 c (i 0).val (i 1).val (acc6 c fa g101 g111 g121 g200 g210 g220 i) := by
    unfold acc6 acc5 acc4
    exact frS2 ct c 2 (k0_off64_inb c) (Geo.off64_eq c) _ _ (frS1 ct c 2 (k0_off64_inb c) (Geo.off64_eq c) _ _ (frS0 ct c 2 (k0_off64_inb c) (Geo.off64_eq c) _ _ (h3') (Or.inr (by show 384 + 384 ≤ 0 ∨ 0 + 384 ≤ 384; omega))) (Or.inl (by have hb := bit_le_one 1 3 c; have hl := SegBCore.lo_4 1 c; show lo 1 c 4 + 64 ≤ lo 1 c 3 + (1 - bit 1 3 c) * 64 ∨ lo 1 c 3 + (1 - bit 1 3 c) * 64 + 64 ≤ lo 1 c 4; omega))) (Or.inr (by show 384 + 384 ≤ 768 ∨ 768 + 256 ≤ 384; omega))
  unfold acc9 acc8 acc7
  exact frL2 ct c 3 (k0_off64_inb c) (Geo.off64_eq c) _ _ (stepL1 ct c YA YB laws _ _ (frL0 ct c 2 (k0_off64_inb c) (Geo.off64_eq c) _ _ (h6) (Or.inr (by show 384 + 384 ≤ 0 ∨ 0 + 384 ≤ 384; omega))) hg211) (Or.inr (by show 384 + 384 ≤ 768 ∨ 768 + 256 ≤ 384; omega))

/-- The kept rows of the fourth stage, column block 2, hold the sum over eight devices. -/
theorem kept_2 (laws : Laws ct c YA YB) (fa : Buf (Elt F) ((c : Thread nD τ).loc cc0_scratch0)) (g101 g111 g121 : Buf (Elt F) ((c : Thread nD τ).loc cc0_scratch2)) (g200 g210 g220 g201 g211 g221 : Buf (Elt F) ((c : Thread nD τ).loc cc0_scratch3))
    (hfa : (∀ i ∈ SegBMid.accRows20_0 c, ct.okAcc 1 c (i 0).val (i 1).val (fa i)) ∧ (∀ i ∈ SegBMid.accRows20_1 c, ct.okAcc 1 c (i 0).val (i 1).val (fa i)) ∧ (∀ i ∈ SegBMid.accRows20_2 c, ct.okAcc 1 c (i 0).val (i 1).val (fa i)))
    (hg101 : ∀ i ∈ (dst_rs_1_0_1 (peer 0 1 c)).view.set, pRS ct 1 c (sh := S256x1024) i (g101 i)) (hg111 : ∀ i ∈ (dst_rs_1_1_1 (peer 1 1 c)).view.set, pRS ct 1 c (sh := S256x1024) i (g111 i)) (hg121 : ∀ i ∈ (dst_rs_1_2_1 (peer 2 1 c)).view.set, pRS ct 1 c (sh := S256x1024) i (g121 i))
    (hg200 : ∀ i ∈ (dst_rs_2_0_0 (peer 0 2 c)).view.set, pRS ct 2 c (sh := S128x1024) i (g200 i)) (hg210 : ∀ i ∈ (dst_rs_2_1_0 (peer 1 2 c)).view.set, pRS ct 2 c (sh := S128x1024) i (g210 i)) (hg220 : ∀ i ∈ (dst_rs_2_2_0 (peer 2 2 c)).view.set, pRS ct 2 c (sh := S128x1024) i (g220 i)) (hg201 : ∀ i ∈ (dst_rs_2_0_1 (peer 0 2 c)).view.set, pRS ct 2 c (sh := S128x1024) i (g201 i)) (hg211 : ∀ i ∈ (dst_rs_2_1_1 (peer 1 2 c)).view.set, pRS ct 2 c (sh := S128x1024) i (g211 i)) (hg221 : ∀ i ∈ (dst_rs_2_2_1 (peer 2 2 c)).view.set, pRS ct 2 c (sh := S128x1024) i (g221 i)) :
    ∀ i ∈ SegBMid.accRows30_2 c, ct.okAcc 3 c (i 0).val (i 1).val (acc9 c fa g101 g111 g121 g200 g210 g220 g201 g211 g221 i) := by
  have hb := bit_le_one 2 3 c
  have hl := SegBCore.lo_4 2 c
  have h3 : ∀ i ∈ ((View.whole cc0_scratch0).slice (Rect.unit (s := S1024x1024) (k0_off48 c) S128x256.size (k0_off48_inb c))).set, ct.okAcc 2 c (i 0).val (i 1).val (acc3 c fa g101 g111 g121 i) := by
    unfold acc3 acc2 acc1
    exact stepK2 ct c YA YB laws _ _ (frK1 ct c 1 (k0_off48_inb c) (Geo.off48_eq c) _ _ (frK0 ct c 1 (k0_off48_inb c) (Geo.off48_eq c) _ _ (hfa.2.2) (Or.inr (by show 768 + 256 ≤ 0 ∨ 0 + 384 ≤ 768; omega))) (Or.inr (by show 768 + 256 ≤ 384 ∨ 384 + 384 ≤ 768; omega))) hg121
  have h3' : ∀ i ∈ ((View.whole cc0_scratch0).slice (Rect.unit (s := S1024x1024) (k0_off66 c) S64x256.size (k0_off66_inb c))).set, ct.okAcc 2 c (i 0).val (i 1).val (acc3 c fa g101 g111 g121 i) := fun i hi => h3 i (by
    have hm := (Plumb.mem_slice_unit_whole cc0_scratch0 (k0_off66_inb c) (Geo.off66_eq c) i).mp hi
    exact (Plumb.mem_slice_unit_whole cc0_scratch0 (k0_off48_inb c) (Geo.off48_eq c) i).mpr (Fin.forall_fin_two.mpr
      ⟨by have h' : lo 2 c 4 ≤ (i 0).val ∧ (i 0).val < lo 2 c 4 + 64 := hm 0
          show lo 2 c 3 ≤ (i 0).val ∧ (i 0).val < lo 2 c 3 + 128
          omega, hm 1⟩))
  have h6 : ∀ i ∈ ((View.whole cc0_scratch0).slice (Rect.unit (s := S1024x1024) (k0_off66 c) S64x256.size (k0_off66_inb c))).set, ct.okAcc 2 c (i 0).val (i 1).val (acc6 c fa g101 g111 g121 g200 g210 g220 i) := by
    unfold acc6 acc5 acc4
    exact frS2 ct c 2 (k0_off66_inb c) (Geo.off66_eq c) _ _ (frS1 ct c 2 (k0_off66_inb c) (Geo.off66_eq c) _ _ (frS0 ct c 2 (k0_off66_inb c) (Geo.off66_eq c) _ _ (h3') (Or.inr (by show 768 + 256 ≤ 0 ∨ 0 + 384 ≤ 768; omega))) (Or.inr (by show 768 + 256 ≤ 384 ∨ 384 + 384 ≤ 768; omega))) (Or.inl (by have hb := bit_le_one 2 3 c; have hl := SegBCore.lo_4 2 c; show lo 2 c 4 + 64 ≤ lo 2 c 3 + (1 - bit 2 3 c) * 64 ∨ lo 2 c 3 + (1 - bit 2 3 c) * 64 + 64 ≤ lo 2 c 4; omega))
  unfold acc9 acc8 acc7
  exact stepL2 ct c YA YB laws _ _ (frL1 ct c 2 (k0_off66_inb c) (Geo.off66_eq c) _ _ (frL0 ct c 2 (k0_off66_inb c) (Geo.off66_eq c) _ _ (h6) (Or.inr (by show 768 + 256 ≤ 0 ∨ 0 + 384 ≤ 768; omega))) (Or.inr (by show 768 + 256 ≤ 384 ∨ 384 + 384 ≤ 768; omega))) hg221

end Cert.Kernel.SegB2Val

end
-- ==== Proof.SegB2K.lean ====
/-
  The middle of the summing phase: the kept halves of its third stage added, then its fourth stage —
  per column block the partner's rows added to the half that is given away, that half rounded into the
  send buffer and sent in two pieces — and the kept halves of the fourth stage added.
-/
import proofs.«900879_g7700000000000880_dist_matmul_gelu_kshard_i_m1024_n1024_k512_v7x_i32_bf16_1_alg».proof.Proof.SegsK
import proofs.«900879_g7700000000000880_dist_matmul_gelu_kshard_i_m1024_n1024_k512_v7x_i32_bf16_1_alg».proof.Proof.SendStepK
import proofs.«900879_g7700000000000880_dist_matmul_gelu_kshard_i_m1024_n1024_k512_v7x_i32_bf16_1_alg».proof.Proof.SegBMidK
import proofs.«900879_g7700000000000880_dist_matmul_gelu_kshard_i_m1024_n1024_k512_v7x_i32_bf16_1_alg».proof.Proof.SegB2ValK
import proofs.«900879_g7700000000000880_dist_matmul_gelu_kshard_i_m1024_n1024_k512_v7x_i32_bf16_1_alg».proof.Proof.RegionsRSK
import proofs.«900879_g7700000000000880_dist_matmul_gelu_kshard_i_m1024_n1024_k512_v7x_i32_bf16_1_alg».proof.Proof.RegionsOutK
set_option synthInstance.maxSize 4096
set_option maxRecDepth 65536

noncomputable section

namespace Cert.Kernel.SegB2

open Cert.Kernel Cert.Kernel.Gen Cert.Kernel.Proto Cert.Kernel.Tab Cert.Kernel.Held Cert.Kernel.PayTab
open Cert.Kernel.Sched Cert.Kernel.GhostTab Cert.Kernel.Owed Cert.Kernel.Ghost Cert.Kernel.StateTab
open Cert.Kernel.Laws Cert.Kernel.Cut Cert.Kernel.Segs Cert.Kernel.RegionsRS Cert.Kernel.RegionsOut Cert.Kernel.RegionsCut
open Cert.Kernel.SendStep
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (ct : Contract F) (K : Dev nD × Fin 124 → ℕ)

/-! ## The cells' records, one cell at a time -/

theorem inv_dma (c : Dev nD) (a : Fin 4) (s : Fin 5) (k : Fin 3) (j : Fin 2) (h : usedIx (dsem a s k j).val = true) :
    (records ct K : sProp (MT nD τ sig Unit (Elt F) ℕ UU ℕ)) ⊢
      cellInv ER (sched ct) (K (c, ⟨(dsem a s k j).val, Nat.lt_trans (dsem a s k j).isLt (by decide)⟩)) (dcell c a s k j) := by
  have h0 := inv_at ct K (c, ⟨(dsem a s k j).val, Nat.lt_trans (dsem a s k j).isLt (by decide)⟩)
    (by unfold ourIx; rw [Finset.mem_filter]; exact ⟨Finset.mem_univ _, by unfold ours; rw [h]; exact Bool.or_true _⟩)
  rw [kcell_dma] at h0
  exact h0

theorem reached_dma (c : Dev nD) (a : Fin 4) (s : Fin 5) (k : Fin 3) (j : Fin 2) (h : usedIx (dsem a s k j).val = true) :
    (records ct K : sProp (MT nD τ sig Unit (Elt F) ℕ UU ℕ)) ⊢ reached ER (dcell c a s k j) 0 := by
  have h0 := reached_at ct K (c, ⟨(dsem a s k j).val, Nat.lt_trans (dsem a s k j).isLt (by decide)⟩)
    (by unfold ourIx; rw [Finset.mem_filter]; exact ⟨Finset.mem_univ _, by unfold ours; rw [h]; exact Bool.or_true _⟩)
  rw [kcell_dma] at h0
  exact h0

/-! ## Pieces opened at their contents, and folded back -/

theorem heldV_open {sh : Shape} {e : EltTy} (d : Dev nD) (v : Memref sig .tc .vmem sh e) (q : PosShare TreeShare)
    (P : v.view.ty.Idx → Elt F v.view.ty.elt → Prop) :
    (heldV (F := F) d v q P : sProp (MT nD τ sig Unit (Elt F) ℕ UU ℕ))
      ⊢ iprop(∃ f : Buf (Elt F) (v.view.loc (d : Thread nD τ)), (v.view.loc (d : Thread nD τ) ↦[v.view.set]{q} f) ∗ ⌜∀ i ∈ v.view.set, P i (f i)⌝) := BI.Entails.refl _
theorem loanV_open {sh : Shape} {e : EltTy} (d : Dev nD) (v : Memref sig .tc .vmem sh e) :
    (loanV (F := F) d v : sProp (MT nD τ sig Unit (Elt F) ℕ UU ℕ))
      ⊢ iprop(∃ f : Buf (Elt F) (v.view.loc (d : Thread nD τ)), (v.view.loc (d : Thread nD τ) ↦[v.view.set]{fullShare} f)) := BI.Entails.refl _

theorem loanV_fold {sh : Shape} {e : EltTy} (d : Dev nD) (v : Memref sig .tc .vmem sh e) (f : Buf (Elt F) (v.view.loc (d : Thread nD τ))) :
    ((v.view.loc (d : Thread nD τ) ↦[v.view.set]{fullShare} f) : sProp (MT nD τ sig Unit (Elt F) ℕ UU ℕ)) ⊢ loanV (F := F) d v := by
  unfold loanV; iintro H; iexists f; iexact H

variable (c : Dev nD) (YA : S1024x512.Idx → F .f32) (YB : S512x1024.Idx → F .f32)

set_option maxHeartbeats 4000000 in
theorem segB2 (laws : Laws ct c YA YB) {R : Type}
    (T : (Σ' (d0 : Dev nD) (v3 : BitVec 32) (v8 : BitVec 32) (v13 : BitVec 32) (v28 : BitVec 32), BitVec 32) → Prog (TpuEff nD τ sig (Elt F) Λ₀ .tc) R)
    (Kt : R → sProp (MT nD τ sig Unit (Elt F) ℕ UU ℕ)) : SegBMid.SegB2 ct K c YA YB T Kt := by
  unfold SegBMid.SegB2
  intro v3 v4 v5 v6 v7 v8 v9 v10 v11 v12 v13 v14 v15 v16 v17 v18 v20 v22 v24 v26 v28 v395 v445 v447 v497 v499 v549
  unfold SegBMid.rest20
  simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold k0_part20_skel k0_part21_skel k0_part22_skel k0_part23_skel k0_part24_skel k0_part25_skel k0_part26_skel k0_part27_skel k0_part28_skel k0_part29_skel
  simp only [Prog.lift, Prog.bind_op, Prog.bind_ret, Prog.pure_eq_ret, bind_assoc, Prog.bind_assoc]
  unfold SegBMid.Pre20 SegBMid.toks20 SegBMid.pos20 SegBMid.closed20 SegBMid.credR20 SegBMid.credS20 SegBMid.land20
  iintro H
  icases H with ⟨Hpre, Hk⟩
  icases Hpre with ⟨#HR, #Hlev, HowE, Htoks, HtoksAG, Hpos, HposAG, Hclosed, HcredR, HcredS, HcredAG, Hidle, HA, HB, Hown, Hacc, Hs16, Hrs1a, Hss1a, Hs910, Hland, HlandAG⟩
  icases HowE with ⟨%W, How⟩
  icases Hpos with ⟨⟨PS101, PR101⟩, ⟨PS111, PR111⟩, ⟨PS121, PR121⟩, ⟨PS200, PR200⟩, ⟨PS201, PR201⟩, ⟨PS210, PR210⟩, ⟨PS211, PR211⟩, ⟨PS220, PR220⟩, ⟨PS221, PR221⟩, ⟨PS300, PR300⟩, ⟨PS301, PR301⟩, ⟨PS310, PR310⟩, ⟨PS311, PR311⟩, ⟨PS320, PR320⟩, ⟨PS321, PR321⟩, ⟨PS400, PR400⟩, ⟨PS410, PR410⟩, ⟨PS420, PR420⟩⟩
  icases HcredR with ⟨CR101, CR111, CR121, CR200, CR201, CR210, CR211, CR220, CR221, CR300, CR301, CR310, CR311, CR320, CR321, CR400, CR410, CR420⟩
  icases HcredS with ⟨CS101, CS111, CS121, CS200, CS201, CS210, CS211, CS220, CS221⟩
  icases Htoks with ⟨⟨TS300, TR300⟩, ⟨TS301, TR301⟩, ⟨TS310, TR310⟩, ⟨TS311, TR311⟩, ⟨TS320, TR320⟩, ⟨TS321, TR321⟩, ⟨TS400, TR400⟩, ⟨TS410, TR410⟩, ⟨TS420, TR420⟩⟩
  icases Hland with ⟨LD300, LD301, LD310, LD311, LD320, LD321, LD400, LD410, LD420⟩
  icases Hacc with ⟨%fa, Hacc, %hfa⟩
  icases Hs910 with ⟨Hs9, Hs10⟩
  ihave Hcols := (ss_cols_3 (F := F) c) $$ Hs9
  icases Hcols with ⟨Hc0, Hc1, Hc2⟩
  icases Hc0 with ⟨%g90, Hc0⟩
  icases Hc1 with ⟨%g91, Hc1⟩
  icases Hc2 with ⟨%g92, Hc2⟩
  -- the wait on cell (0, 1, 0, 1), and the cell closed
  ihave #MWS101 := (mayWait_cell (F := F) c 0 1 0 1 23 (by decide +kernel)) $$ Hlev
  ihave #HIS101 := (inv_dma ct K c 0 1 0 1 rfl) $$ HR
  iapply (Rounds.wp_wait_rest_token Segs.𝒱₀ ER (sched ct) (c : Thread nD τ) none (κ := (K (c, ⟨(dsem 0 1 0 1).val, Nat.lt_trans (dsem 0 1 0 1).isLt (by decide)⟩))) (sm := SemLoc.dma (dsem 0 1 0 1))
      (wpE_waitDma2_eq Segs.𝒱₀ (c : Thread nD τ) none Set.univ) (Set.mem_univ _) () (O := owedFrom c 23) (W := W) (R := 0) (m := 0) (T := ∅)
      (by rw [Nat.zero_add, expect_dma ct c 0 1 0 1 rfl]; rfl)) $$ [CS101 How PS101]
  · isplitr
    · iexact HIS101
    isplitl [CS101]
    · iexact CS101
    isplitl [How]
    · iexact How
    isplitr
    · iexact MWS101
    iexact PS101
  iintro ⟨How, PS101, -, Hpay⟩
  imod (Rounds.cell_close ER (sched ct) (g := dcell c 0 1 0 1) (Set.mem_univ _) (fun h => h) (R := 1)
    (fun r hr => duties_later ct _ r hr)) $$ [PS101] with VS101
  · isplitr
    · iexact HIS101
    iexact PS101
  ihave BS101 := (Entails.of_eq (show bigSep ((sched ct).duties (dcell c 0 1 0 1) 0 \ ∅) (fun d => (sched ct).payload (dcell c 0 1 0 1) 0 d)
      = loanV c (src_rs_1_0_1 c) from rest_dma ct c 0 1 0 1 rfl)) $$ Hpay
  -- the wait on cell (1, 1, 0, 1), and the cell closed
  ihave #MWR101 := (mayWait_cell (F := F) c 1 1 0 1 23 (by decide +kernel)) $$ Hlev
  ihave #HIR101 := (inv_dma ct K c 1 1 0 1 rfl) $$ HR
  iapply (Rounds.wp_wait_rest_token Segs.𝒱₀ ER (sched ct) (c : Thread nD τ) none (κ := (K (c, ⟨(dsem 1 1 0 1).val, Nat.lt_trans (dsem 1 1 0 1).isLt (by decide)⟩))) (sm := SemLoc.dma (dsem 1 1 0 1))
      (wpE_waitDma2_eq Segs.𝒱₀ (c : Thread nD τ) none Set.univ) (Set.mem_univ _) () (O := owedFrom c 23) (W := (insert (SemLoc.dma (dsem 0 1 0 1), ()) W)) (R := 0) (m := 0) (T := ∅)
      (by rw [Nat.zero_add, expect_dma ct c 1 1 0 1 rfl]; rfl)) $$ [CR101 How PR101]
  · isplitr
    · iexact HIR101
    isplitl [CR101]
    · iexact CR101
    isplitl [How]
    · iexact How
    isplitr
    · iexact MWR101
    iexact PR101
  iintro ⟨How, PR101, -, Hpay⟩
  imod (Rounds.cell_close ER (sched ct) (g := dcell c 1 1 0 1) (Set.mem_univ _) (fun h => h) (R := 1)
    (fun r hr => duties_later ct _ r hr)) $$ [PR101] with VR101
  · isplitr
    · iexact HIR101
    iexact PR101
  ihave BR101 := (Entails.of_eq (show bigSep ((sched ct).duties (dcell c 1 1 0 1) 0 \ ∅) (fun d => (sched ct).payload (dcell c 1 1 0 1) 0 d)
      = heldV c (dst_rs_1_0_1 (peer 0 1 c)) fullShare (fun i v => pRS ct 1 c (sh := S256x1024) i v) from rest_dma ct c 1 1 0 1 rfl)) $$ Hpay
  -- the partner's rows opened at their contents
  ihave BR101 := (heldV_open (F := F) c _ fullShare _) $$ BR101
  icases BR101 with ⟨%g101, BR101, %hg101⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch2 : Memref sig .tc .vmem S256x1024 .bf16))
      (S := (dst_rs_1_0_1 (peer 0 1 c)).view.set) (by rw [← rsLoad_1_0_1 c]; exact (View.set_slice _ _).symm.subset)) $$ BR101; iintro BR101
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off44 c) S128x384.size (k0_off44_inb c)) (Mk := Finset.univ) (Finset.subset_univ _)) $$ Hacc; iintro Hacc
  -- the wait on cell (0, 1, 1, 1), and the cell closed
  ihave #MWS111 := (mayWait_cell (F := F) c 0 1 1 1 23 (by decide +kernel)) $$ Hlev
  ihave #HIS111 := (inv_dma ct K c 0 1 1 1 rfl) $$ HR
  iapply (Rounds.wp_wait_rest_token Segs.𝒱₀ ER (sched ct) (c : Thread nD τ) none (κ := (K (c, ⟨(dsem 0 1 1 1).val, Nat.lt_trans (dsem 0 1 1 1).isLt (by decide)⟩))) (sm := SemLoc.dma (dsem 0 1 1 1))
      (wpE_waitDma2_eq Segs.𝒱₀ (c : Thread nD τ) none Set.univ) (Set.mem_univ _) () (O := owedFrom c 23) (W := (insert (SemLoc.dma (dsem 1 1 0 1), ()) (insert (SemLoc.dma (dsem 0 1 0 1), ()) W))) (R := 0) (m := 0) (T := ∅)
      (by rw [Nat.zero_add, expect_dma ct c 0 1 1 1 rfl]; rfl)) $$ [CS111 How PS111]
  · isplitr
    · iexact HIS111
    isplitl [CS111]
    · iexact CS111
    isplitl [How]
    · iexact How
    isplitr
    · iexact MWS111
    iexact PS111
  iintro ⟨How, PS111, -, Hpay⟩
  imod (Rounds.cell_close ER (sched ct) (g := dcell c 0 1 1 1) (Set.mem_univ _) (fun h => h) (R := 1)
    (fun r hr => duties_later ct _ r hr)) $$ [PS111] with VS111
  · isplitr
    · iexact HIS111
    iexact PS111
  ihave BS111 := (Entails.of_eq (show bigSep ((sched ct).duties (dcell c 0 1 1 1) 0 \ ∅) (fun d => (sched ct).payload (dcell c 0 1 1 1) 0 d)
      = loanV c (src_rs_1_1_1 c) from rest_dma ct c 0 1 1 1 rfl)) $$ Hpay
  -- the wait on cell (1, 1, 1, 1), and the cell closed
  ihave #MWR111 := (mayWait_cell (F := F) c 1 1 1 1 23 (by decide +kernel)) $$ Hlev
  ihave #HIR111 := (inv_dma ct K c 1 1 1 1 rfl) $$ HR
  iapply (Rounds.wp_wait_rest_token Segs.𝒱₀ ER (sched ct) (c : Thread nD τ) none (κ := (K (c, ⟨(dsem 1 1 1 1).val, Nat.lt_trans (dsem 1 1 1 1).isLt (by decide)⟩))) (sm := SemLoc.dma (dsem 1 1 1 1))
      (wpE_waitDma2_eq Segs.𝒱₀ (c : Thread nD τ) none Set.univ) (Set.mem_univ _) () (O := owedFrom c 23) (W := (insert (SemLoc.dma (dsem 0 1 1 1), ()) (insert (SemLoc.dma (dsem 1 1 0 1), ()) (insert (SemLoc.dma (dsem 0 1 0 1), ()) W)))) (R := 0) (m := 0) (T := ∅)
      (by rw [Nat.zero_add, expect_dma ct c 1 1 1 1 rfl]; rfl)) $$ [CR111 How PR111]
  · isplitr
    · iexact HIR111
    isplitl [CR111]
    · iexact CR111
    isplitl [How]
    · iexact How
    isplitr
    · iexact MWR111
    iexact PR111
  iintro ⟨How, PR111, -, Hpay⟩
  imod (Rounds.cell_close ER (sched ct) (g := dcell c 1 1 1 1) (Set.mem_univ _) (fun h => h) (R := 1)
    (fun r hr => duties_later ct _ r hr)) $$ [PR111] with VR111
  · isplitr
    · iexact HIR111
    iexact PR111
  ihave BR111 := (Entails.of_eq (show bigSep ((sched ct).duties (dcell c 1 1 1 1) 0 \ ∅) (fun d => (sched ct).payload (dcell c 1 1 1 1) 0 d)
      = heldV c (dst_rs_1_1_1 (peer 1 1 c)) fullShare (fun i v => pRS ct 1 c (sh := S256x1024) i v) from rest_dma ct c 1 1 1 1 rfl)) $$ Hpay
  -- the partner's rows opened at their contents
  ihave BR111 := (heldV_open (F := F) c _ fullShare _) $$ BR111
  icases BR111 with ⟨%g111, BR111, %hg111⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch2 : Memref sig .tc .vmem S256x1024 .bf16))
      (S := (dst_rs_1_1_1 (peer 1 1 c)).view.set) (by rw [← rsLoad_1_1_1 c]; exact (View.set_slice _ _).symm.subset)) $$ BR111; iintro BR111
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off46 c) S128x384.size (k0_off46_inb c)) (Mk := Finset.univ) (Finset.subset_univ _)) $$ Hacc; iintro Hacc
  -- the wait on cell (0, 1, 2, 1), and the cell closed
  ihave #MWS121 := (mayWait_cell (F := F) c 0 1 2 1 23 (by decide +kernel)) $$ Hlev
  ihave #HIS121 := (inv_dma ct K c 0 1 2 1 rfl) $$ HR
  iapply (Rounds.wp_wait_rest_token Segs.𝒱₀ ER (sched ct) (c : Thread nD τ) none (κ := (K (c, ⟨(dsem 0 1 2 1).val, Nat.lt_trans (dsem 0 1 2 1).isLt (by decide)⟩))) (sm := SemLoc.dma (dsem 0 1 2 1))
      (wpE_waitDma2_eq Segs.𝒱₀ (c : Thread nD τ) none Set.univ) (Set.mem_univ _) () (O := owedFrom c 23) (W := (insert (SemLoc.dma (dsem 1 1 1 1), ()) (insert (SemLoc.dma (dsem 0 1 1 1), ()) (insert (SemLoc.dma (dsem 1 1 0 1), ()) (insert (SemLoc.dma (dsem 0 1 0 1), ()) W))))) (R := 0) (m := 0) (T := ∅)
      (by rw [Nat.zero_add, expect_dma ct c 0 1 2 1 rfl]; rfl)) $$ [CS121 How PS121]
  · isplitr
    · iexact HIS121
    isplitl [CS121]
    · iexact CS121
    isplitl [How]
    · iexact How
    isplitr
    · iexact MWS121
    iexact PS121
  iintro ⟨How, PS121, -, Hpay⟩
  imod (Rounds.cell_close ER (sched ct) (g := dcell c 0 1 2 1) (Set.mem_univ _) (fun h => h) (R := 1)
    (fun r hr => duties_later ct _ r hr)) $$ [PS121] with VS121
  · isplitr
    · iexact HIS121
    iexact PS121
  ihave BS121 := (Entails.of_eq (show bigSep ((sched ct).duties (dcell c 0 1 2 1) 0 \ ∅) (fun d => (sched ct).payload (dcell c 0 1 2 1) 0 d)
      = loanV c (src_rs_1_2_1 c) from rest_dma ct c 0 1 2 1 rfl)) $$ Hpay
  -- the wait on cell (1, 1, 2, 1), and the cell closed
  ihave #MWR121 := (mayWait_cell (F := F) c 1 1 2 1 23 (by decide +kernel)) $$ Hlev
  ihave #HIR121 := (inv_dma ct K c 1 1 2 1 rfl) $$ HR
  iapply (Rounds.wp_wait_rest_token Segs.𝒱₀ ER (sched ct) (c : Thread nD τ) none (κ := (K (c, ⟨(dsem 1 1 2 1).val, Nat.lt_trans (dsem 1 1 2 1).isLt (by decide)⟩))) (sm := SemLoc.dma (dsem 1 1 2 1))
      (wpE_waitDma2_eq Segs.𝒱₀ (c : Thread nD τ) none Set.univ) (Set.mem_univ _) () (O := owedFrom c 23) (W := (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W)))))) (R := 0) (m := 0) (T := ∅)
      (by rw [Nat.zero_add, expect_dma ct c 1 1 2 1 rfl]; rfl)) $$ [CR121 How PR121]
  · isplitr
    · iexact HIR121
    isplitl [CR121]
    · iexact CR121
    isplitl [How]
    · iexact How
    isplitr
    · iexact MWR121
    iexact PR121
  iintro ⟨How, PR121, -, Hpay⟩
  imod (Rounds.cell_close ER (sched ct) (g := dcell c 1 1 2 1) (Set.mem_univ _) (fun h => h) (R := 1)
    (fun r hr => duties_later ct _ r hr)) $$ [PR121] with VR121
  · isplitr
    · iexact HIR121
    iexact PR121
  ihave BR121 := (Entails.of_eq (show bigSep ((sched ct).duties (dcell c 1 1 2 1) 0 \ ∅) (fun d => (sched ct).payload (dcell c 1 1 2 1) 0 d)
      = heldV c (dst_rs_1_2_1 (peer 2 1 c)) fullShare (fun i v => pRS ct 1 c (sh := S256x1024) i v) from rest_dma ct c 1 1 2 1 rfl)) $$ Hpay
  -- the partner's rows opened at their contents
  ihave BR121 := (heldV_open (F := F) c _ fullShare _) $$ BR121
  icases BR121 with ⟨%g121, BR121, %hg121⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch2 : Memref sig .tc .vmem S256x1024 .bf16))
      (S := (dst_rs_1_2_1 (peer 2 1 c)).view.set) (by rw [← rsLoad_1_2_1 c]; exact (View.set_slice _ _).symm.subset)) $$ BR121; iintro BR121
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off48 c) S128x256.size (k0_off48_inb c)) (Mk := Finset.univ) (Finset.subset_univ _)) $$ Hacc; iintro Hacc
  -- the wait on cell (0, 2, 0, 0), and the cell closed
  ihave #MWS200 := (mayWait_cell (F := F) c 0 2 0 0 23 (by decide +kernel)) $$ Hlev
  ihave #HIS200 := (inv_dma ct K c 0 2 0 0 rfl) $$ HR
  iapply (Rounds.wp_wait_rest_token Segs.𝒱₀ ER (sched ct) (c : Thread nD τ) none (κ := (K (c, ⟨(dsem 0 2 0 0).val, Nat.lt_trans (dsem 0 2 0 0).isLt (by decide)⟩))) (sm := SemLoc.dma (dsem 0 2 0 0))
      (wpE_waitDma2_eq Segs.𝒱₀ (c : Thread nD τ) none Set.univ) (Set.mem_univ _) () (O := owedFrom c 23) (W := (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))) (R := 0) (m := 0) (T := ∅)
      (by rw [Nat.zero_add, expect_dma ct c 0 2 0 0 rfl]; rfl)) $$ [CS200 How PS200]
  · isplitr
    · iexact HIS200
    isplitl [CS200]
    · iexact CS200
    isplitl [How]
    · iexact How
    isplitr
    · iexact MWS200
    iexact PS200
  iintro ⟨How, PS200, -, Hpay⟩
  imod (Rounds.cell_close ER (sched ct) (g := dcell c 0 2 0 0) (Set.mem_univ _) (fun h => h) (R := 1)
    (fun r hr => duties_later ct _ r hr)) $$ [PS200] with VS200
  · isplitr
    · iexact HIS200
    iexact PS200
  ihave BS200 := (Entails.of_eq (show bigSep ((sched ct).duties (dcell c 0 2 0 0) 0 \ ∅) (fun d => (sched ct).payload (dcell c 0 2 0 0) 0 d)
      = loanV c (src_rs_2_0_0 c) from rest_dma ct c 0 2 0 0 rfl)) $$ Hpay
  -- the wait on cell (1, 2, 0, 0), and the cell closed
  ihave #MWR200 := (mayWait_cell (F := F) c 1 2 0 0 23 (by decide +kernel)) $$ Hlev
  ihave #HIR200 := (inv_dma ct K c 1 2 0 0 rfl) $$ HR
  iapply (Rounds.wp_wait_rest_token Segs.𝒱₀ ER (sched ct) (c : Thread nD τ) none (κ := (K (c, ⟨(dsem 1 2 0 0).val, Nat.lt_trans (dsem 1 2 0 0).isLt (by decide)⟩))) (sm := SemLoc.dma (dsem 1 2 0 0))
      (wpE_waitDma2_eq Segs.𝒱₀ (c : Thread nD τ) none Set.univ) (Set.mem_univ _) () (O := owedFrom c 23) (W := (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W)))))))) (R := 0) (m := 0) (T := ∅)
      (by rw [Nat.zero_add, expect_dma ct c 1 2 0 0 rfl]; rfl)) $$ [CR200 How PR200]
  · isplitr
    · iexact HIR200
    isplitl [CR200]
    · iexact CR200
    isplitl [How]
    · iexact How
    isplitr
    · iexact MWR200
    iexact PR200
  iintro ⟨How, PR200, -, Hpay⟩
  imod (Rounds.cell_close ER (sched ct) (g := dcell c 1 2 0 0) (Set.mem_univ _) (fun h => h) (R := 1)
    (fun r hr => duties_later ct _ r hr)) $$ [PR200] with VR200
  · isplitr
    · iexact HIR200
    iexact PR200
  ihave BR200 := (Entails.of_eq (show bigSep ((sched ct).duties (dcell c 1 2 0 0) 0 \ ∅) (fun d => (sched ct).payload (dcell c 1 2 0 0) 0 d)
      = heldV c (dst_rs_2_0_0 (peer 0 2 c)) fullShare (fun i v => pRS ct 2 c (sh := S128x1024) i v) from rest_dma ct c 1 2 0 0 rfl)) $$ Hpay
  ihave BR200 := (heldV_open (F := F) c _ fullShare _) $$ BR200
  icases BR200 with ⟨%g200, BR200, %hg200⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch3 : Memref sig .tc .vmem S128x1024 .bf16))
      (S := (dst_rs_2_0_0 (peer 0 2 c)).view.set) (by rw [← rsLoad_2_0_0 c]; exact (View.set_slice _ _).symm.subset)) $$ BR200; iintro BR200
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off50 c) S64x384.size (k0_off50_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch9 : Memref sig .tc .vmem S64x1024 .bf16))
      (S := ssCol_3_0) ((View.set_slice _ _).symm.subset)) $$ Hc0; iintro Hc0
  iapply (wp_store Segs.𝒱₀ (c : Thread nD τ) none Set.univ (m := (Memref.whole cc0_scratch9 : Memref sig .tc .vmem S64x1024 .bf16)) (r := Rect.unit (s := S64x1024) ![0, 0] S64x384.size inb_S64x1024_S64x384_0_0) (Mk := Finset.univ)
      (S := ssCol_3_0) (Finset.Subset.refl _)) $$ Hc0; iintro Hc0
  -- column block 0 of the send buffer, cut into the two pieces sent
  ihave Hrows := ((ss_rows_at_3_0 (F := F) c fullShare _).1) $$ Hc0
  icases Hrows with ⟨Hsrc00, Hsrc01⟩
  -- piece 0 goes to the partner
  ihave LD300 := (loanV_open (F := F) (peer 0 3 c) (dst_rs_3_0_0 c)) $$ LD300
  icases LD300 with ⟨%fd300, LD300⟩
  ihave #HIS300 := (inv_dma ct K c 0 3 0 0 rfl) $$ HR
  ihave #HIR300 := (inv_dma ct K (peer 0 3 c) 1 3 0 0 rfl) $$ HR
  ihave #HrS300 := (reached_dma ct K c 0 3 0 0 rfl) $$ HR
  ihave #HrR300 := (reached_dma ct K (peer 0 3 c) 1 3 0 0 rfl) $$ HR
  iapply (send_step ct (K (c, ⟨(dsem 0 3 0 0).val, Nat.lt_trans (dsem 0 3 0 0).isLt (by decide)⟩)) (K (peer 0 3 c, ⟨(dsem 1 3 0 0).val, Nat.lt_trans (dsem 1 3 0 0).isLt (by decide)⟩)) c _ (peer 0 3 c) (dev_rs_3_0_0 c) (src_rs_3_0_0 c) (dst_rs_3_0_0 c) (dsem 0 3 0 0) (dsem 1 3 0 0)
      (SegB2Val.sendK0 c (SegB2Val.acc4 c fa g101 g111 g121 g200) g90) fd300 (owedFrom c 24) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))
      (fun i v => pRS ct 3 (peer 0 3 c) (sh := S64x1024) i v)
      (duties_dma ct c 0 3 0 0 rfl) (duties_dma ct (peer 0 3 c) 1 3 0 0 rfl) (amtIx (dsem 1 3 0 0).val) rfl rfl rfl rfl
      (by show recv_rs_3_0_0 ct (peer 0 3 c) = _; unfold recv_rs_3_0_0; rw [peer_peer])
      (SegB2Val.sent_3_0_0 ct c YA YB laws fa g101 g111 g121 g200 g90 fd300 hfa hg101 hg111 hg121 hg200)) $$ [Hsrc00 LD300 How TS300 TR300]
  · isplitr
    · iexact HIS300
    isplitr
    · iexact HIR300
    isplitl [Hsrc00]
    · iexact Hsrc00
    isplitl [LD300]
    · iexact LD300
    isplitl [How]
    · iexact How
    isplitl [TS300]
    · iexact TS300
    isplitr
    · iexact HrS300
    isplitl [TR300]
    · iexact TR300
    iexact HrR300
  iintro ⟨CS300, How⟩
  -- piece 1 goes to the partner
  ihave LD301 := (loanV_open (F := F) (peer 0 3 c) (dst_rs_3_0_1 c)) $$ LD301
  icases LD301 with ⟨%fd301, LD301⟩
  ihave #HIS301 := (inv_dma ct K c 0 3 0 1 rfl) $$ HR
  ihave #HIR301 := (inv_dma ct K (peer 0 3 c) 1 3 0 1 rfl) $$ HR
  ihave #HrS301 := (reached_dma ct K c 0 3 0 1 rfl) $$ HR
  ihave #HrR301 := (reached_dma ct K (peer 0 3 c) 1 3 0 1 rfl) $$ HR
  iapply (send_step ct (K (c, ⟨(dsem 0 3 0 1).val, Nat.lt_trans (dsem 0 3 0 1).isLt (by decide)⟩)) (K (peer 0 3 c, ⟨(dsem 1 3 0 1).val, Nat.lt_trans (dsem 1 3 0 1).isLt (by decide)⟩)) c _ (peer 0 3 c) (dev_rs_3_0_1 c) (src_rs_3_0_1 c) (dst_rs_3_0_1 c) (dsem 0 3 0 1) (dsem 1 3 0 1)
      (SegB2Val.sendK0 c (SegB2Val.acc4 c fa g101 g111 g121 g200) g90) fd301 (owedFrom c 25) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))
      (fun i v => pRS ct 3 (peer 0 3 c) (sh := S64x1024) i v)
      (duties_dma ct c 0 3 0 1 rfl) (duties_dma ct (peer 0 3 c) 1 3 0 1 rfl) (amtIx (dsem 1 3 0 1).val) rfl rfl rfl rfl
      (by show recv_rs_3_0_1 ct (peer 0 3 c) = _; unfold recv_rs_3_0_1; rw [peer_peer])
      (SegB2Val.sent_3_0_1 ct c YA YB laws fa g101 g111 g121 g200 g90 fd301 hfa hg101 hg111 hg121 hg200)) $$ [Hsrc01 LD301 How TS301 TR301]
  · isplitr
    · iexact HIS301
    isplitr
    · iexact HIR301
    isplitl [Hsrc01]
    · iexact Hsrc01
    isplitl [LD301]
    · iexact LD301
    isplitl [How]
    · iexact How
    isplitl [TS301]
    · iexact TS301
    isplitr
    · iexact HrS301
    isplitl [TR301]
    · iexact TR301
    iexact HrR301
  iintro ⟨CS301, How⟩
  -- the wait on cell (0, 2, 1, 0), and the cell closed
  ihave #MWS210 := (mayWait_cell (F := F) c 0 2 1 0 25 (by decide +kernel)) $$ Hlev
  ihave #HIS210 := (inv_dma ct K c 0 2 1 0 rfl) $$ HR
  iapply (Rounds.wp_wait_rest_token Segs.𝒱₀ ER (sched ct) (c : Thread nD τ) none (κ := (K (c, ⟨(dsem 0 2 1 0).val, Nat.lt_trans (dsem 0 2 1 0).isLt (by decide)⟩))) (sm := SemLoc.dma (dsem 0 2 1 0))
      (wpE_waitDma2_eq Segs.𝒱₀ (c : Thread nD τ) none Set.univ) (Set.mem_univ _) () (O := owedFrom c 25) (W := (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))) (R := 0) (m := 0) (T := ∅)
      (by rw [Nat.zero_add, expect_dma ct c 0 2 1 0 rfl]; rfl)) $$ [CS210 How PS210]
  · isplitr
    · iexact HIS210
    isplitl [CS210]
    · iexact CS210
    isplitl [How]
    · iexact How
    isplitr
    · iexact MWS210
    iexact PS210
  iintro ⟨How, PS210, -, Hpay⟩
  imod (Rounds.cell_close ER (sched ct) (g := dcell c 0 2 1 0) (Set.mem_univ _) (fun h => h) (R := 1)
    (fun r hr => duties_later ct _ r hr)) $$ [PS210] with VS210
  · isplitr
    · iexact HIS210
    iexact PS210
  ihave BS210 := (Entails.of_eq (show bigSep ((sched ct).duties (dcell c 0 2 1 0) 0 \ ∅) (fun d => (sched ct).payload (dcell c 0 2 1 0) 0 d)
      = loanV c (src_rs_2_1_0 c) from rest_dma ct c 0 2 1 0 rfl)) $$ Hpay
  -- the wait on cell (1, 2, 1, 0), and the cell closed
  ihave #MWR210 := (mayWait_cell (F := F) c 1 2 1 0 25 (by decide +kernel)) $$ Hlev
  ihave #HIR210 := (inv_dma ct K c 1 2 1 0 rfl) $$ HR
  iapply (Rounds.wp_wait_rest_token Segs.𝒱₀ ER (sched ct) (c : Thread nD τ) none (κ := (K (c, ⟨(dsem 1 2 1 0).val, Nat.lt_trans (dsem 1 2 1 0).isLt (by decide)⟩))) (sm := SemLoc.dma (dsem 1 2 1 0))
      (wpE_waitDma2_eq Segs.𝒱₀ (c : Thread nD τ) none Set.univ) (Set.mem_univ _) () (O := owedFrom c 25) (W := (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W)))))))))) (R := 0) (m := 0) (T := ∅)
      (by rw [Nat.zero_add, expect_dma ct c 1 2 1 0 rfl]; rfl)) $$ [CR210 How PR210]
  · isplitr
    · iexact HIR210
    isplitl [CR210]
    · iexact CR210
    isplitl [How]
    · iexact How
    isplitr
    · iexact MWR210
    iexact PR210
  iintro ⟨How, PR210, -, Hpay⟩
  imod (Rounds.cell_close ER (sched ct) (g := dcell c 1 2 1 0) (Set.mem_univ _) (fun h => h) (R := 1)
    (fun r hr => duties_later ct _ r hr)) $$ [PR210] with VR210
  · isplitr
    · iexact HIR210
    iexact PR210
  ihave BR210 := (Entails.of_eq (show bigSep ((sched ct).duties (dcell c 1 2 1 0) 0 \ ∅) (fun d => (sched ct).payload (dcell c 1 2 1 0) 0 d)
      = heldV c (dst_rs_2_1_0 (peer 1 2 c)) fullShare (fun i v => pRS ct 2 c (sh := S128x1024) i v) from rest_dma ct c 1 2 1 0 rfl)) $$ Hpay
  ihave BR210 := (heldV_open (F := F) c _ fullShare _) $$ BR210
  icases BR210 with ⟨%g210, BR210, %hg210⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch3 : Memref sig .tc .vmem S128x1024 .bf16))
      (S := (dst_rs_2_1_0 (peer 1 2 c)).view.set) (by rw [← rsLoad_2_1_0 c]; exact (View.set_slice _ _).symm.subset)) $$ BR210; iintro BR210
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off54 c) S64x384.size (k0_off54_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch9 : Memref sig .tc .vmem S64x1024 .bf16))
      (S := ssCol_3_1) ((View.set_slice _ _).symm.subset)) $$ Hc1; iintro Hc1
  iapply (wp_store Segs.𝒱₀ (c : Thread nD τ) none Set.univ (m := (Memref.whole cc0_scratch9 : Memref sig .tc .vmem S64x1024 .bf16)) (r := Rect.unit (s := S64x1024) ![0, 384] S64x384.size inb_S64x1024_S64x384_0_384) (Mk := Finset.univ)
      (S := ssCol_3_1) (Finset.Subset.refl _)) $$ Hc1; iintro Hc1
  -- column block 1 of the send buffer, cut into the two pieces sent
  ihave Hrows := ((ss_rows_at_3_1 (F := F) c fullShare _).1) $$ Hc1
  icases Hrows with ⟨Hsrc10, Hsrc11⟩
  -- piece 0 goes to the partner
  ihave LD310 := (loanV_open (F := F) (peer 1 3 c) (dst_rs_3_1_0 c)) $$ LD310
  icases LD310 with ⟨%fd310, LD310⟩
  ihave #HIS310 := (inv_dma ct K c 0 3 1 0 rfl) $$ HR
  ihave #HIR310 := (inv_dma ct K (peer 1 3 c) 1 3 1 0 rfl) $$ HR
  ihave #HrS310 := (reached_dma ct K c 0 3 1 0 rfl) $$ HR
  ihave #HrR310 := (reached_dma ct K (peer 1 3 c) 1 3 1 0 rfl) $$ HR
  iapply (send_step ct (K (c, ⟨(dsem 0 3 1 0).val, Nat.lt_trans (dsem 0 3 1 0).isLt (by decide)⟩)) (K (peer 1 3 c, ⟨(dsem 1 3 1 0).val, Nat.lt_trans (dsem 1 3 1 0).isLt (by decide)⟩)) c _ (peer 1 3 c) (dev_rs_3_1_0 c) (src_rs_3_1_0 c) (dst_rs_3_1_0 c) (dsem 0 3 1 0) (dsem 1 3 1 0)
      (SegB2Val.sendK1 c (SegB2Val.acc5 c fa g101 g111 g121 g200 g210) g91) fd310 (owedFrom c 26) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))))
      (fun i v => pRS ct 3 (peer 1 3 c) (sh := S64x1024) i v)
      (duties_dma ct c 0 3 1 0 rfl) (duties_dma ct (peer 1 3 c) 1 3 1 0 rfl) (amtIx (dsem 1 3 1 0).val) rfl rfl rfl rfl
      (by show recv_rs_3_1_0 ct (peer 1 3 c) = _; unfold recv_rs_3_1_0; rw [peer_peer])
      (SegB2Val.sent_3_1_0 ct c YA YB laws fa g101 g111 g121 g200 g210 g91 fd310 hfa hg101 hg111 hg121 hg200 hg210)) $$ [Hsrc10 LD310 How TS310 TR310]
  · isplitr
    · iexact HIS310
    isplitr
    · iexact HIR310
    isplitl [Hsrc10]
    · iexact Hsrc10
    isplitl [LD310]
    · iexact LD310
    isplitl [How]
    · iexact How
    isplitl [TS310]
    · iexact TS310
    isplitr
    · iexact HrS310
    isplitl [TR310]
    · iexact TR310
    iexact HrR310
  iintro ⟨CS310, How⟩
  -- piece 1 goes to the partner
  ihave LD311 := (loanV_open (F := F) (peer 1 3 c) (dst_rs_3_1_1 c)) $$ LD311
  icases LD311 with ⟨%fd311, LD311⟩
  ihave #HIS311 := (inv_dma ct K c 0 3 1 1 rfl) $$ HR
  ihave #HIR311 := (inv_dma ct K (peer 1 3 c) 1 3 1 1 rfl) $$ HR
  ihave #HrS311 := (reached_dma ct K c 0 3 1 1 rfl) $$ HR
  ihave #HrR311 := (reached_dma ct K (peer 1 3 c) 1 3 1 1 rfl) $$ HR
  iapply (send_step ct (K (c, ⟨(dsem 0 3 1 1).val, Nat.lt_trans (dsem 0 3 1 1).isLt (by decide)⟩)) (K (peer 1 3 c, ⟨(dsem 1 3 1 1).val, Nat.lt_trans (dsem 1 3 1 1).isLt (by decide)⟩)) c _ (peer 1 3 c) (dev_rs_3_1_1 c) (src_rs_3_1_1 c) (dst_rs_3_1_1 c) (dsem 0 3 1 1) (dsem 1 3 1 1)
      (SegB2Val.sendK1 c (SegB2Val.acc5 c fa g101 g111 g121 g200 g210) g91) fd311 (owedFrom c 27) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))))
      (fun i v => pRS ct 3 (peer 1 3 c) (sh := S64x1024) i v)
      (duties_dma ct c 0 3 1 1 rfl) (duties_dma ct (peer 1 3 c) 1 3 1 1 rfl) (amtIx (dsem 1 3 1 1).val) rfl rfl rfl rfl
      (by show recv_rs_3_1_1 ct (peer 1 3 c) = _; unfold recv_rs_3_1_1; rw [peer_peer])
      (SegB2Val.sent_3_1_1 ct c YA YB laws fa g101 g111 g121 g200 g210 g91 fd311 hfa hg101 hg111 hg121 hg200 hg210)) $$ [Hsrc11 LD311 How TS311 TR311]
  · isplitr
    · iexact HIS311
    isplitr
    · iexact HIR311
    isplitl [Hsrc11]
    · iexact Hsrc11
    isplitl [LD311]
    · iexact LD311
    isplitl [How]
    · iexact How
    isplitl [TS311]
    · iexact TS311
    isplitr
    · iexact HrS311
    isplitl [TR311]
    · iexact TR311
    iexact HrR311
  iintro ⟨CS311, How⟩
  -- the wait on cell (0, 2, 2, 0), and the cell closed
  ihave #MWS220 := (mayWait_cell (F := F) c 0 2 2 0 27 (by decide +kernel)) $$ Hlev
  ihave #HIS220 := (inv_dma ct K c 0 2 2 0 rfl) $$ HR
  iapply (Rounds.wp_wait_rest_token Segs.𝒱₀ ER (sched ct) (c : Thread nD τ) none (κ := (K (c, ⟨(dsem 0 2 2 0).val, Nat.lt_trans (dsem 0 2 2 0).isLt (by decide)⟩))) (sm := SemLoc.dma (dsem 0 2 2 0))
      (wpE_waitDma2_eq Segs.𝒱₀ (c : Thread nD τ) none Set.univ) (Set.mem_univ _) () (O := owedFrom c 27) (W := (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))))) (R := 0) (m := 0) (T := ∅)
      (by rw [Nat.zero_add, expect_dma ct c 0 2 2 0 rfl]; rfl)) $$ [CS220 How PS220]
  · isplitr
    · iexact HIS220
    isplitl [CS220]
    · iexact CS220
    isplitl [How]
    · iexact How
    isplitr
    · iexact MWS220
    iexact PS220
  iintro ⟨How, PS220, -, Hpay⟩
  imod (Rounds.cell_close ER (sched ct) (g := dcell c 0 2 2 0) (Set.mem_univ _) (fun h => h) (R := 1)
    (fun r hr => duties_later ct _ r hr)) $$ [PS220] with VS220
  · isplitr
    · iexact HIS220
    iexact PS220
  ihave BS220 := (Entails.of_eq (show bigSep ((sched ct).duties (dcell c 0 2 2 0) 0 \ ∅) (fun d => (sched ct).payload (dcell c 0 2 2 0) 0 d)
      = loanV c (src_rs_2_2_0 c) from rest_dma ct c 0 2 2 0 rfl)) $$ Hpay
  -- the wait on cell (1, 2, 2, 0), and the cell closed
  ihave #MWR220 := (mayWait_cell (F := F) c 1 2 2 0 27 (by decide +kernel)) $$ Hlev
  ihave #HIR220 := (inv_dma ct K c 1 2 2 0 rfl) $$ HR
  iapply (Rounds.wp_wait_rest_token Segs.𝒱₀ ER (sched ct) (c : Thread nD τ) none (κ := (K (c, ⟨(dsem 1 2 2 0).val, Nat.lt_trans (dsem 1 2 2 0).isLt (by decide)⟩))) (sm := SemLoc.dma (dsem 1 2 2 0))
      (wpE_waitDma2_eq Segs.𝒱₀ (c : Thread nD τ) none Set.univ) (Set.mem_univ _) () (O := owedFrom c 27) (W := (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W)))))))))))) (R := 0) (m := 0) (T := ∅)
      (by rw [Nat.zero_add, expect_dma ct c 1 2 2 0 rfl]; rfl)) $$ [CR220 How PR220]
  · isplitr
    · iexact HIR220
    isplitl [CR220]
    · iexact CR220
    isplitl [How]
    · iexact How
    isplitr
    · iexact MWR220
    iexact PR220
  iintro ⟨How, PR220, -, Hpay⟩
  imod (Rounds.cell_close ER (sched ct) (g := dcell c 1 2 2 0) (Set.mem_univ _) (fun h => h) (R := 1)
    (fun r hr => duties_later ct _ r hr)) $$ [PR220] with VR220
  · isplitr
    · iexact HIR220
    iexact PR220
  ihave BR220 := (Entails.of_eq (show bigSep ((sched ct).duties (dcell c 1 2 2 0) 0 \ ∅) (fun d => (sched ct).payload (dcell c 1 2 2 0) 0 d)
      = heldV c (dst_rs_2_2_0 (peer 2 2 c)) fullShare (fun i v => pRS ct 2 c (sh := S128x1024) i v) from rest_dma ct c 1 2 2 0 rfl)) $$ Hpay
  ihave BR220 := (heldV_open (F := F) c _ fullShare _) $$ BR220
  icases BR220 with ⟨%g220, BR220, %hg220⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch3 : Memref sig .tc .vmem S128x1024 .bf16))
      (S := (dst_rs_2_2_0 (peer 2 2 c)).view.set) (by rw [← rsLoad_2_2_0 c]; exact (View.set_slice _ _).symm.subset)) $$ BR220; iintro BR220
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off58 c) S64x256.size (k0_off58_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch9 : Memref sig .tc .vmem S64x1024 .bf16))
      (S := ssCol_3_2) ((View.set_slice _ _).symm.subset)) $$ Hc2; iintro Hc2
  iapply (wp_store Segs.𝒱₀ (c : Thread nD τ) none Set.univ (m := (Memref.whole cc0_scratch9 : Memref sig .tc .vmem S64x1024 .bf16)) (r := Rect.unit (s := S64x1024) ![0, 768] S64x256.size inb_S64x1024_S64x256_0_768) (Mk := Finset.univ)
      (S := ssCol_3_2) (Finset.Subset.refl _)) $$ Hc2; iintro Hc2
  -- column block 2 of the send buffer, cut into the two pieces sent
  ihave Hrows := ((ss_rows_at_3_2 (F := F) c fullShare _).1) $$ Hc2
  icases Hrows with ⟨Hsrc20, Hsrc21⟩
  -- piece 0 goes to the partner
  ihave LD320 := (loanV_open (F := F) (peer 2 3 c) (dst_rs_3_2_0 c)) $$ LD320
  icases LD320 with ⟨%fd320, LD320⟩
  ihave #HIS320 := (inv_dma ct K c 0 3 2 0 rfl) $$ HR
  ihave #HIR320 := (inv_dma ct K (peer 2 3 c) 1 3 2 0 rfl) $$ HR
  ihave #HrS320 := (reached_dma ct K c 0 3 2 0 rfl) $$ HR
  ihave #HrR320 := (reached_dma ct K (peer 2 3 c) 1 3 2 0 rfl) $$ HR
  iapply (send_step ct (K (c, ⟨(dsem 0 3 2 0).val, Nat.lt_trans (dsem 0 3 2 0).isLt (by decide)⟩)) (K (peer 2 3 c, ⟨(dsem 1 3 2 0).val, Nat.lt_trans (dsem 1 3 2 0).isLt (by decide)⟩)) c _ (peer 2 3 c) (dev_rs_3_2_0 c) (src_rs_3_2_0 c) (dst_rs_3_2_0 c) (dsem 0 3 2 0) (dsem 1 3 2 0)
      (SegB2Val.sendK2 c (SegB2Val.acc6 c fa g101 g111 g121 g200 g210 g220) g92) fd320 (owedFrom c 28) (insert (SemLoc.dma (dsem 1 2 2 0), ()) (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))))))
      (fun i v => pRS ct 3 (peer 2 3 c) (sh := S64x1024) i v)
      (duties_dma ct c 0 3 2 0 rfl) (duties_dma ct (peer 2 3 c) 1 3 2 0 rfl) (amtIx (dsem 1 3 2 0).val) rfl rfl rfl rfl
      (by show recv_rs_3_2_0 ct (peer 2 3 c) = _; unfold recv_rs_3_2_0; rw [peer_peer])
      (SegB2Val.sent_3_2_0 ct c YA YB laws fa g101 g111 g121 g200 g210 g220 g92 fd320 hfa hg101 hg111 hg121 hg200 hg210 hg220)) $$ [Hsrc20 LD320 How TS320 TR320]
  · isplitr
    · iexact HIS320
    isplitr
    · iexact HIR320
    isplitl [Hsrc20]
    · iexact Hsrc20
    isplitl [LD320]
    · iexact LD320
    isplitl [How]
    · iexact How
    isplitl [TS320]
    · iexact TS320
    isplitr
    · iexact HrS320
    isplitl [TR320]
    · iexact TR320
    iexact HrR320
  iintro ⟨CS320, How⟩
  -- piece 1 goes to the partner
  ihave LD321 := (loanV_open (F := F) (peer 2 3 c) (dst_rs_3_2_1 c)) $$ LD321
  icases LD321 with ⟨%fd321, LD321⟩
  ihave #HIS321 := (inv_dma ct K c 0 3 2 1 rfl) $$ HR
  ihave #HIR321 := (inv_dma ct K (peer 2 3 c) 1 3 2 1 rfl) $$ HR
  ihave #HrS321 := (reached_dma ct K c 0 3 2 1 rfl) $$ HR
  ihave #HrR321 := (reached_dma ct K (peer 2 3 c) 1 3 2 1 rfl) $$ HR
  iapply (send_step ct (K (c, ⟨(dsem 0 3 2 1).val, Nat.lt_trans (dsem 0 3 2 1).isLt (by decide)⟩)) (K (peer 2 3 c, ⟨(dsem 1 3 2 1).val, Nat.lt_trans (dsem 1 3 2 1).isLt (by decide)⟩)) c _ (peer 2 3 c) (dev_rs_3_2_1 c) (src_rs_3_2_1 c) (dst_rs_3_2_1 c) (dsem 0 3 2 1) (dsem 1 3 2 1)
      (SegB2Val.sendK2 c (SegB2Val.acc6 c fa g101 g111 g121 g200 g210 g220) g92) fd321 (owedFrom c 29) (insert (SemLoc.dma (dsem 1 2 2 0), ()) (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))))))
      (fun i v => pRS ct 3 (peer 2 3 c) (sh := S64x1024) i v)
      (duties_dma ct c 0 3 2 1 rfl) (duties_dma ct (peer 2 3 c) 1 3 2 1 rfl) (amtIx (dsem 1 3 2 1).val) rfl rfl rfl rfl
      (by show recv_rs_3_2_1 ct (peer 2 3 c) = _; unfold recv_rs_3_2_1; rw [peer_peer])
      (SegB2Val.sent_3_2_1 ct c YA YB laws fa g101 g111 g121 g200 g210 g220 g92 fd321 hfa hg101 hg111 hg121 hg200 hg210 hg220)) $$ [Hsrc21 LD321 How TS321 TR321]
  · isplitr
    · iexact HIS321
    isplitr
    · iexact HIR321
    isplitl [Hsrc21]
    · iexact Hsrc21
    isplitl [LD321]
    · iexact LD321
    isplitl [How]
    · iexact How
    isplitl [TS321]
    · iexact TS321
    isplitr
    · iexact HrS321
    isplitl [TR321]
    · iexact TR321
    iexact HrR321
  iintro ⟨CS321, How⟩
  -- the wait on cell (0, 2, 0, 1), and the cell closed
  ihave #MWS201 := (mayWait_cell (F := F) c 0 2 0 1 29 (by decide +kernel)) $$ Hlev
  ihave #HIS201 := (inv_dma ct K c 0 2 0 1 rfl) $$ HR
  iapply (Rounds.wp_wait_rest_token Segs.𝒱₀ ER (sched ct) (c : Thread nD τ) none (κ := (K (c, ⟨(dsem 0 2 0 1).val, Nat.lt_trans (dsem 0 2 0 1).isLt (by decide)⟩))) (sm := SemLoc.dma (dsem 0 2 0 1))
      (wpE_waitDma2_eq Segs.𝒱₀ (c : Thread nD τ) none Set.univ) (Set.mem_univ _) () (O := owedFrom c 29) (W := (insert (SemLoc.dma (dsem 1 2 2 0), ()) (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))))))) (R := 0) (m := 0) (T := ∅)
      (by rw [Nat.zero_add, expect_dma ct c 0 2 0 1 rfl]; rfl)) $$ [CS201 How PS201]
  · isplitr
    · iexact HIS201
    isplitl [CS201]
    · iexact CS201
    isplitl [How]
    · iexact How
    isplitr
    · iexact MWS201
    iexact PS201
  iintro ⟨How, PS201, -, Hpay⟩
  imod (Rounds.cell_close ER (sched ct) (g := dcell c 0 2 0 1) (Set.mem_univ _) (fun h => h) (R := 1)
    (fun r hr => duties_later ct _ r hr)) $$ [PS201] with VS201
  · isplitr
    · iexact HIS201
    iexact PS201
  ihave BS201 := (Entails.of_eq (show bigSep ((sched ct).duties (dcell c 0 2 0 1) 0 \ ∅) (fun d => (sched ct).payload (dcell c 0 2 0 1) 0 d)
      = loanV c (src_rs_2_0_1 c) from rest_dma ct c 0 2 0 1 rfl)) $$ Hpay
  -- the wait on cell (1, 2, 0, 1), and the cell closed
  ihave #MWR201 := (mayWait_cell (F := F) c 1 2 0 1 29 (by decide +kernel)) $$ Hlev
  ihave #HIR201 := (inv_dma ct K c 1 2 0 1 rfl) $$ HR
  iapply (Rounds.wp_wait_rest_token Segs.𝒱₀ ER (sched ct) (c : Thread nD τ) none (κ := (K (c, ⟨(dsem 1 2 0 1).val, Nat.lt_trans (dsem 1 2 0 1).isLt (by decide)⟩))) (sm := SemLoc.dma (dsem 1 2 0 1))
      (wpE_waitDma2_eq Segs.𝒱₀ (c : Thread nD τ) none Set.univ) (Set.mem_univ _) () (O := owedFrom c 29) (W := (insert (SemLoc.dma (dsem 0 2 0 1), ()) (insert (SemLoc.dma (dsem 1 2 2 0), ()) (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W)))))))))))))) (R := 0) (m := 0) (T := ∅)
      (by rw [Nat.zero_add, expect_dma ct c 1 2 0 1 rfl]; rfl)) $$ [CR201 How PR201]
  · isplitr
    · iexact HIR201
    isplitl [CR201]
    · iexact CR201
    isplitl [How]
    · iexact How
    isplitr
    · iexact MWR201
    iexact PR201
  iintro ⟨How, PR201, -, Hpay⟩
  imod (Rounds.cell_close ER (sched ct) (g := dcell c 1 2 0 1) (Set.mem_univ _) (fun h => h) (R := 1)
    (fun r hr => duties_later ct _ r hr)) $$ [PR201] with VR201
  · isplitr
    · iexact HIR201
    iexact PR201
  ihave BR201 := (Entails.of_eq (show bigSep ((sched ct).duties (dcell c 1 2 0 1) 0 \ ∅) (fun d => (sched ct).payload (dcell c 1 2 0 1) 0 d)
      = heldV c (dst_rs_2_0_1 (peer 0 2 c)) fullShare (fun i v => pRS ct 2 c (sh := S128x1024) i v) from rest_dma ct c 1 2 0 1 rfl)) $$ Hpay
  -- the partner's rows opened at their contents
  ihave BR201 := (heldV_open (F := F) c _ fullShare _) $$ BR201
  icases BR201 with ⟨%g201, BR201, %hg201⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch3 : Memref sig .tc .vmem S128x1024 .bf16))
      (S := (dst_rs_2_0_1 (peer 0 2 c)).view.set) (by rw [← rsLoad_2_0_1 c]; exact (View.set_slice _ _).symm.subset)) $$ BR201; iintro BR201
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off62 c) S64x384.size (k0_off62_inb c)) (Mk := Finset.univ) (Finset.subset_univ _)) $$ Hacc; iintro Hacc
  -- the wait on cell (0, 2, 1, 1), and the cell closed
  ihave #MWS211 := (mayWait_cell (F := F) c 0 2 1 1 29 (by decide +kernel)) $$ Hlev
  ihave #HIS211 := (inv_dma ct K c 0 2 1 1 rfl) $$ HR
  iapply (Rounds.wp_wait_rest_token Segs.𝒱₀ ER (sched ct) (c : Thread nD τ) none (κ := (K (c, ⟨(dsem 0 2 1 1).val, Nat.lt_trans (dsem 0 2 1 1).isLt (by decide)⟩))) (sm := SemLoc.dma (dsem 0 2 1 1))
      (wpE_waitDma2_eq Segs.𝒱₀ (c : Thread nD τ) none Set.univ) (Set.mem_univ _) () (O := owedFrom c 29) (W := (insert (SemLoc.dma (dsem 1 2 0 1), ()) (insert (SemLoc.dma (dsem 0 2 0 1), ()) (insert (SemLoc.dma (dsem 1 2 2 0), ()) (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))))))))) (R := 0) (m := 0) (T := ∅)
      (by rw [Nat.zero_add, expect_dma ct c 0 2 1 1 rfl]; rfl)) $$ [CS211 How PS211]
  · isplitr
    · iexact HIS211
    isplitl [CS211]
    · iexact CS211
    isplitl [How]
    · iexact How
    isplitr
    · iexact MWS211
    iexact PS211
  iintro ⟨How, PS211, -, Hpay⟩
  imod (Rounds.cell_close ER (sched ct) (g := dcell c 0 2 1 1) (Set.mem_univ _) (fun h => h) (R := 1)
    (fun r hr => duties_later ct _ r hr)) $$ [PS211] with VS211
  · isplitr
    · iexact HIS211
    iexact PS211
  ihave BS211 := (Entails.of_eq (show bigSep ((sched ct).duties (dcell c 0 2 1 1) 0 \ ∅) (fun d => (sched ct).payload (dcell c 0 2 1 1) 0 d)
      = loanV c (src_rs_2_1_1 c) from rest_dma ct c 0 2 1 1 rfl)) $$ Hpay
  -- the wait on cell (1, 2, 1, 1), and the cell closed
  ihave #MWR211 := (mayWait_cell (F := F) c 1 2 1 1 29 (by decide +kernel)) $$ Hlev
  ihave #HIR211 := (inv_dma ct K c 1 2 1 1 rfl) $$ HR
  iapply (Rounds.wp_wait_rest_token Segs.𝒱₀ ER (sched ct) (c : Thread nD τ) none (κ := (K (c, ⟨(dsem 1 2 1 1).val, Nat.lt_trans (dsem 1 2 1 1).isLt (by decide)⟩))) (sm := SemLoc.dma (dsem 1 2 1 1))
      (wpE_waitDma2_eq Segs.𝒱₀ (c : Thread nD τ) none Set.univ) (Set.mem_univ _) () (O := owedFrom c 29) (W := (insert (SemLoc.dma (dsem 0 2 1 1), ()) (insert (SemLoc.dma (dsem 1 2 0 1), ()) (insert (SemLoc.dma (dsem 0 2 0 1), ()) (insert (SemLoc.dma (dsem 1 2 2 0), ()) (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W)))))))))))))))) (R := 0) (m := 0) (T := ∅)
      (by rw [Nat.zero_add, expect_dma ct c 1 2 1 1 rfl]; rfl)) $$ [CR211 How PR211]
  · isplitr
    · iexact HIR211
    isplitl [CR211]
    · iexact CR211
    isplitl [How]
    · iexact How
    isplitr
    · iexact MWR211
    iexact PR211
  iintro ⟨How, PR211, -, Hpay⟩
  imod (Rounds.cell_close ER (sched ct) (g := dcell c 1 2 1 1) (Set.mem_univ _) (fun h => h) (R := 1)
    (fun r hr => duties_later ct _ r hr)) $$ [PR211] with VR211
  · isplitr
    · iexact HIR211
    iexact PR211
  ihave BR211 := (Entails.of_eq (show bigSep ((sched ct).duties (dcell c 1 2 1 1) 0 \ ∅) (fun d => (sched ct).payload (dcell c 1 2 1 1) 0 d)
      = heldV c (dst_rs_2_1_1 (peer 1 2 c)) fullShare (fun i v => pRS ct 2 c (sh := S128x1024) i v) from rest_dma ct c 1 2 1 1 rfl)) $$ Hpay
  -- the partner's rows opened at their contents
  ihave BR211 := (heldV_open (F := F) c _ fullShare _) $$ BR211
  icases BR211 with ⟨%g211, BR211, %hg211⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch3 : Memref sig .tc .vmem S128x1024 .bf16))
      (S := (dst_rs_2_1_1 (peer 1 2 c)).view.set) (by rw [← rsLoad_2_1_1 c]; exact (View.set_slice _ _).symm.subset)) $$ BR211; iintro BR211
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off64 c) S64x384.size (k0_off64_inb c)) (Mk := Finset.univ) (Finset.subset_univ _)) $$ Hacc; iintro Hacc
  -- the wait on cell (0, 2, 2, 1), and the cell closed
  ihave #MWS221 := (mayWait_cell (F := F) c 0 2 2 1 29 (by decide +kernel)) $$ Hlev
  ihave #HIS221 := (inv_dma ct K c 0 2 2 1 rfl) $$ HR
  iapply (Rounds.wp_wait_rest_token Segs.𝒱₀ ER (sched ct) (c : Thread nD τ) none (κ := (K (c, ⟨(dsem 0 2 2 1).val, Nat.lt_trans (dsem 0 2 2 1).isLt (by decide)⟩))) (sm := SemLoc.dma (dsem 0 2 2 1))
      (wpE_waitDma2_eq Segs.𝒱₀ (c : Thread nD τ) none Set.univ) (Set.mem_univ _) () (O := owedFrom c 29) (W := (insert (SemLoc.dma (dsem 1 2 1 1), ()) (insert (SemLoc.dma (dsem 0 2 1 1), ()) (insert (SemLoc.dma (dsem 1 2 0 1), ()) (insert (SemLoc.dma (dsem 0 2 0 1), ()) (insert (SemLoc.dma (dsem 1 2 2 0), ()) (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W))))))))))))))))) (R := 0) (m := 0) (T := ∅)
      (by rw [Nat.zero_add, expect_dma ct c 0 2 2 1 rfl]; rfl)) $$ [CS221 How PS221]
  · isplitr
    · iexact HIS221
    isplitl [CS221]
    · iexact CS221
    isplitl [How]
    · iexact How
    isplitr
    · iexact MWS221
    iexact PS221
  iintro ⟨How, PS221, -, Hpay⟩
  imod (Rounds.cell_close ER (sched ct) (g := dcell c 0 2 2 1) (Set.mem_univ _) (fun h => h) (R := 1)
    (fun r hr => duties_later ct _ r hr)) $$ [PS221] with VS221
  · isplitr
    · iexact HIS221
    iexact PS221
  ihave BS221 := (Entails.of_eq (show bigSep ((sched ct).duties (dcell c 0 2 2 1) 0 \ ∅) (fun d => (sched ct).payload (dcell c 0 2 2 1) 0 d)
      = loanV c (src_rs_2_2_1 c) from rest_dma ct c 0 2 2 1 rfl)) $$ Hpay
  -- the wait on cell (1, 2, 2, 1), and the cell closed
  ihave #MWR221 := (mayWait_cell (F := F) c 1 2 2 1 29 (by decide +kernel)) $$ Hlev
  ihave #HIR221 := (inv_dma ct K c 1 2 2 1 rfl) $$ HR
  iapply (Rounds.wp_wait_rest_token Segs.𝒱₀ ER (sched ct) (c : Thread nD τ) none (κ := (K (c, ⟨(dsem 1 2 2 1).val, Nat.lt_trans (dsem 1 2 2 1).isLt (by decide)⟩))) (sm := SemLoc.dma (dsem 1 2 2 1))
      (wpE_waitDma2_eq Segs.𝒱₀ (c : Thread nD τ) none Set.univ) (Set.mem_univ _) () (O := owedFrom c 29) (W := (insert (SemLoc.dma (dsem 0 2 2 1), ()) (insert (SemLoc.dma (dsem 1 2 1 1), ()) (insert (SemLoc.dma (dsem 0 2 1 1), ()) (insert (SemLoc.dma (dsem 1 2 0 1), ()) (insert (SemLoc.dma (dsem 0 2 0 1), ()) (insert (SemLoc.dma (dsem 1 2 2 0), ()) (insert (SemLoc.dma (dsem 0 2 2 0), ()) (insert (SemLoc.dma (dsem 1 2 1 0), ()) (insert (SemLoc.dma (dsem 0 2 1 0), ()) (insert (SemLoc.dma (dsem 1 2 0 0), ()) (insert (SemLoc.dma (dsem 0 2 0 0), ()) (insert (SemLoc.dma (dsem 1 1 2 1), ()) (insert (SemLoc.dma (dsem 0 1 2 1), ()) (insert (SemLoc.dma (dsem 1 1 1 1), ()) (insert (SemLoc.dma (dsem 0 1 1 1), ()) (insert (SemLoc.dma (dsem 1 1 0 1), ()) (insert (SemLoc.dma (dsem 0 1 0 1), ()) W)))))))))))))))))) (R := 0) (m := 0) (T := ∅)
      (by rw [Nat.zero_add, expect_dma ct c 1 2 2 1 rfl]; rfl)) $$ [CR221 How PR221]
  · isplitr
    · iexact HIR221
    isplitl [CR221]
    · iexact CR221
    isplitl [How]
    · iexact How
    isplitr
    · iexact MWR221
    iexact PR221
  iintro ⟨How, PR221, -, Hpay⟩
  imod (Rounds.cell_close ER (sched ct) (g := dcell c 1 2 2 1) (Set.mem_univ _) (fun h => h) (R := 1)
    (fun r hr => duties_later ct _ r hr)) $$ [PR221] with VR221
  · isplitr
    · iexact HIR221
    iexact PR221
  ihave BR221 := (Entails.of_eq (show bigSep ((sched ct).duties (dcell c 1 2 2 1) 0 \ ∅) (fun d => (sched ct).payload (dcell c 1 2 2 1) 0 d)
      = heldV c (dst_rs_2_2_1 (peer 2 2 c)) fullShare (fun i v => pRS ct 2 c (sh := S128x1024) i v) from rest_dma ct c 1 2 2 1 rfl)) $$ Hpay
  -- the partner's rows opened at their contents
  ihave BR221 := (heldV_open (F := F) c _ fullShare _) $$ BR221
  icases BR221 with ⟨%g221, BR221, %hg221⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch3 : Memref sig .tc .vmem S128x1024 .bf16))
      (S := (dst_rs_2_2_1 (peer 2 2 c)).view.set) (by rw [← rsLoad_2_2_1 c]; exact (View.set_slice _ _).symm.subset)) $$ BR221; iintro BR221
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off66 c) S64x256.size (k0_off66_inb c)) (Mk := Finset.univ) (Finset.subset_univ _)) $$ Hacc; iintro Hacc
  icases Hclosed with ⟨⟨VS000, VR000⟩, ⟨VS001, VR001⟩, ⟨VS010, VR010⟩, ⟨VS011, VR011⟩, ⟨VS020, VR020⟩, ⟨VS021, VR021⟩, ⟨VS100, VR100⟩, ⟨VS110, VR110⟩, ⟨VS120, VR120⟩⟩
  icases Hrs1a with ⟨L100, L110, L120⟩
  icases Hss1a with ⟨M100, M110, M120⟩
  icases Hs16 with ⟨Hs1, Hs6⟩
  ihave BR101 := (loanV_fold (F := F) c (dst_rs_1_0_1 (peer 0 1 c)) _) $$ BR101
  ihave BR111 := (loanV_fold (F := F) c (dst_rs_1_1_1 (peer 1 1 c)) _) $$ BR111
  ihave BR121 := (loanV_fold (F := F) c (dst_rs_1_2_1 (peer 2 1 c)) _) $$ BR121
  ihave BR200 := (loanV_fold (F := F) c (dst_rs_2_0_0 (peer 0 2 c)) _) $$ BR200
  ihave BR201 := (loanV_fold (F := F) c (dst_rs_2_0_1 (peer 0 2 c)) _) $$ BR201
  ihave BR210 := (loanV_fold (F := F) c (dst_rs_2_1_0 (peer 1 2 c)) _) $$ BR210
  ihave BR211 := (loanV_fold (F := F) c (dst_rs_2_1_1 (peer 1 2 c)) _) $$ BR211
  ihave BR220 := (loanV_fold (F := F) c (dst_rs_2_2_0 (peer 2 2 c)) _) $$ BR220
  ihave BR221 := (loanV_fold (F := F) c (dst_rs_2_2_1 (peer 2 2 c)) _) $$ BR221
  ihave Hrs1w := (rs_join_1 (F := F) c) $$ [L100 BR101 L110 BR111 L120 BR121]
  · isplitl [L100]
    · iexact L100
    isplitl [BR101]
    · iexact BR101
    isplitl [L110]
    · iexact L110
    isplitl [BR111]
    · iexact BR111
    isplitl [L120]
    · iexact L120
    iexact BR121
  ihave Hrs2w := (rs_join_2 (F := F) c) $$ [BR200 BR201 BR210 BR211 BR220 BR221]
  · isplitl [BR200]
    · iexact BR200
    isplitl [BR201]
    · iexact BR201
    isplitl [BR210]
    · iexact BR210
    isplitl [BR211]
    · iexact BR211
    isplitl [BR220]
    · iexact BR220
    iexact BR221
  ihave Hss1w := (ss_join_1 (F := F) c) $$ [M100 BS101 M110 BS111 M120 BS121]
  · isplitl [M100]
    · iexact M100
    isplitl [BS101]
    · iexact BS101
    isplitl [M110]
    · iexact M110
    isplitl [BS111]
    · iexact BS111
    isplitl [M120]
    · iexact M120
    iexact BS121
  ihave Hss2w := (ss_join_2 (F := F) c) $$ [BS200 BS201 BS210 BS211 BS220 BS221]
  · isplitl [BS200]
    · iexact BS200
    isplitl [BS201]
    · iexact BS201
    isplitl [BS210]
    · iexact BS210
    isplitl [BS211]
    · iexact BS211
    isplitl [BS220]
    · iexact BS220
    iexact BS221
  iapply Hk $$ %v3 %v4 %v5 %v6 %v7 %v8 %v9 %v10 %v11 %v12 %v13 %v14 %v15 %v16 %v17 %v18 %v20 %v22 %v24 %v26 %v28 %(Scalar.addi v395 (Scalar.muli v22 64#32)) %(Scalar.addi v447 (Scalar.muli v26 64#32)) %(Scalar.addi v499 (Scalar.muli v26 64#32)) %(Scalar.addi (Scalar.addi v395 (Scalar.muli v22 64#32)) (Scalar.muli v26 32#32))
  unfold SegBMid.Pre30 SegBMid.toks30 SegBMid.pos30 SegBMid.closed30 SegBMid.credR30 SegBMid.credS30 SegBMid.land30 someAt
  isplitr
  · iexact HR
  isplitr
  · iexact Hlev
  isplitl [How]
  · iexists _
    iexact How
  isplitl [TS400 TR400 TS410 TR410 TS420 TR420]
  · isplitl [TS400 TR400]
    · isplitl [TS400]
      · iexact TS400
      iexact TR400
    isplitl [TS410 TR410]
    · isplitl [TS410]
      · iexact TS410
      iexact TR410
    isplitl [TS420]
    · iexact TS420
    iexact TR420
  isplitl [HtoksAG]
  · iexact HtoksAG
  isplitl [PS300 PR300 PS301 PR301 PS310 PR310 PS311 PR311 PS320 PR320 PS321 PR321 PS400 PR400 PS410 PR410 PS420 PR420]
  · isplitl [PS300 PR300]
    · isplitl [PS300]
      · iexact PS300
      iexact PR300
    isplitl [PS301 PR301]
    · isplitl [PS301]
      · iexact PS301
      iexact PR301
    isplitl [PS310 PR310]
    · isplitl [PS310]
      · iexact PS310
      iexact PR310
    isplitl [PS311 PR311]
    · isplitl [PS311]
      · iexact PS311
      iexact PR311
    isplitl [PS320 PR320]
    · isplitl [PS320]
      · iexact PS320
      iexact PR320
    isplitl [PS321 PR321]
    · isplitl [PS321]
      · iexact PS321
      iexact PR321
    isplitl [PS400 PR400]
    · isplitl [PS400]
      · iexact PS400
      iexact PR400
    isplitl [PS410 PR410]
    · isplitl [PS410]
      · iexact PS410
      iexact PR410
    isplitl [PS420]
    · iexact PS420
    iexact PR420
  isplitl [HposAG]
  · iexact HposAG
  isplitl [VS000 VR000 VS001 VR001 VS010 VR010 VS011 VR011 VS020 VR020 VS021 VR021 VS100 VR100 VS101 VR101 VS110 VR110 VS111 VR111 VS120 VR120 VS121 VR121 VS200 VR200 VS201 VR201 VS210 VR210 VS211 VR211 VS220 VR220 VS221 VR221]
  · isplitl [VS000 VR000]
    · isplitl [VS000]
      · iexact VS000
      iexact VR000
    isplitl [VS001 VR001]
    · isplitl [VS001]
      · iexact VS001
      iexact VR001
    isplitl [VS010 VR010]
    · isplitl [VS010]
      · iexact VS010
      iexact VR010
    isplitl [VS011 VR011]
    · isplitl [VS011]
      · iexact VS011
      iexact VR011
    isplitl [VS020 VR020]
    · isplitl [VS020]
      · iexact VS020
      iexact VR020
    isplitl [VS021 VR021]
    · isplitl [VS021]
      · iexact VS021
      iexact VR021
    isplitl [VS100 VR100]
    · isplitl [VS100]
      · iexact VS100
      iexact VR100
    isplitl [VS101 VR101]
    · isplitl [VS101]
      · iexact VS101
      iexact VR101
    isplitl [VS110 VR110]
    · isplitl [VS110]
      · iexact VS110
      iexact VR110
    isplitl [VS111 VR111]
    · isplitl [VS111]
      · iexact VS111
      iexact VR111
    isplitl [VS120 VR120]
    · isplitl [VS120]
      · iexact VS120
      iexact VR120
    isplitl [VS121 VR121]
    · isplitl [VS121]
      · iexact VS121
      iexact VR121
    isplitl [VS200 VR200]
    · isplitl [VS200]
      · iexact VS200
      iexact VR200
    isplitl [VS201 VR201]
    · isplitl [VS201]
      · iexact VS201
      iexact VR201
    isplitl [VS210 VR210]
    · isplitl [VS210]
      · iexact VS210
      iexact VR210
    isplitl [VS211 VR211]
    · isplitl [VS211]
      · iexact VS211
      iexact VR211
    isplitl [VS220 VR220]
    · isplitl [VS220]
      · iexact VS220
      iexact VR220
    isplitl [VS221]
    · iexact VS221
    iexact VR221
  isplitl [CR300 CR301 CR310 CR311 CR320 CR321 CR400 CR410 CR420]
  · isplitl [CR300]
    · iexact CR300
    isplitl [CR301]
    · iexact CR301
    isplitl [CR310]
    · iexact CR310
    isplitl [CR311]
    · iexact CR311
    isplitl [CR320]
    · iexact CR320
    isplitl [CR321]
    · iexact CR321
    isplitl [CR400]
    · iexact CR400
    isplitl [CR410]
    · iexact CR410
    iexact CR420
  isplitl [CS300 CS301 CS310 CS311 CS320 CS321]
  · isplitl [CS300]
    · iexact CS300
    isplitl [CS301]
    · iexact CS301
    isplitl [CS310]
    · iexact CS310
    isplitl [CS311]
    · iexact CS311
    isplitl [CS320]
    · iexact CS320
    iexact CS321
  isplitl [HcredAG]
  · iexact HcredAG
  isplitl [Hidle]
  · iexact Hidle
  isplitl [HA]
  · iexact HA
  isplitl [HB]
  · iexact HB
  isplitl [Hown]
  · iexact Hown
  isplitl [Hacc]
  · iexists _
    isplitl [Hacc]
    · iexact Hacc
    ipureintro
    exact ⟨SegB2Val.kept_0 ct c YA YB laws fa g101 g111 g121 g200 g210 g220 g201 g211 g221 hfa hg101 hg111 hg121 hg200 hg210 hg220 hg201 hg211 hg221,
      SegB2Val.kept_1 ct c YA YB laws fa g101 g111 g121 g200 g210 g220 g201 g211 g221 hfa hg101 hg111 hg121 hg200 hg210 hg220 hg201 hg211 hg221,
      SegB2Val.kept_2 ct c YA YB laws fa g101 g111 g121 g200 g210 g220 g201 g211 g221 hfa hg101 hg111 hg121 hg200 hg210 hg220 hg201 hg211 hg221⟩
  isplitl [Hs1 Hrs1w Hrs2w Hs6 Hss1w Hss2w]
  · isplitl [Hs1]
    · iexact Hs1
    isplitl [Hrs1w]
    · iexact Hrs1w
    isplitl [Hrs2w]
    · iexact Hrs2w
    isplitl [Hs6]
    · iexact Hs6
    isplitl [Hss1w]
    · iexact Hss1w
    iexact Hss2w
  isplitl [Hs10]
  · iexact Hs10
  isplitl [LD400 LD410 LD420]
  · isplitl [LD400]
    · iexact LD400
    isplitl [LD410]
    · iexact LD410
    iexact LD420
  iexact HlandAG

end Cert.Kernel.SegB2

end
-- ==== Proof.SegB3ValK.lean ====
/-
  The values along the end of the summing phase: the accumulator's and the last stage's send buffer's
  contents step by step, what the three pieces sent carry, and what the result's own rows hold.
-/
import proofs.«900879_g7700000000000880_dist_matmul_gelu_kshard_i_m1024_n1024_k512_v7x_i32_bf16_1_alg».proof.Proof.SegBMidK
import proofs.«900879_g7700000000000880_dist_matmul_gelu_kshard_i_m1024_n1024_k512_v7x_i32_bf16_1_alg».proof.Proof.GeoK
import proofs.«900879_g7700000000000880_dist_matmul_gelu_kshard_i_m1024_n1024_k512_v7x_i32_bf16_1_alg».proof.Proof.PlumbK
import proofs.«900879_g7700000000000880_dist_matmul_gelu_kshard_i_m1024_n1024_k512_v7x_i32_bf16_1_alg».proof.Proof.PayPointK
import proofs.«900879_g7700000000000880_dist_matmul_gelu_kshard_i_m1024_n1024_k512_v7x_i32_bf16_1_alg».proof.Proof.SegAValPK
import proofs.«900879_g7700000000000880_dist_matmul_gelu_kshard_i_m1024_n1024_k512_v7x_i32_bf16_1_alg».proof.Proof.SegBValPK
import proofs.«900879_g7700000000000880_dist_matmul_gelu_kshard_i_m1024_n1024_k512_v7x_i32_bf16_1_alg».proof.Proof.SegBCoreK

noncomputable section

namespace Cert.Kernel.SegB3Val

open Cert.Kernel Cert.Kernel.Gen Cert.Kernel.Proto Cert.Kernel.Tab Cert.Kernel.Held Cert.Kernel.PayTab
open Cert.Kernel.Laws
open Idealize.ShloMosaic Idealize.ShloMosaic.TcCoe Idealize.SL.Sem

variable {F : FTy → Type} [FloatOps F]

/-! ## The rectangles the segment reads and writes -/

abbrev RA68 (c : Dev nD) : Rect S1024x1024 := Rect.unit (s := S1024x1024) (k0_off68 c) S32x384.size (k0_off68_inb c)
abbrev RR69 (c : Dev nD) : Rect S64x1024 := Rect.unit (s := S64x1024) (k0_off69 c) S32x384.size (k0_off69_inb c)
abbrev RA74 (c : Dev nD) : Rect S1024x1024 := Rect.unit (s := S1024x1024) (k0_off74 c) S32x384.size (k0_off74_inb c)
abbrev RR75 (c : Dev nD) : Rect S64x1024 := Rect.unit (s := S64x1024) (k0_off75 c) S32x384.size (k0_off75_inb c)
abbrev RC4b0 : Rect S32x1024 := Rect.unit (s := S32x1024) ![0, 0] S32x384.size inb_S32x1024_S32x384_0_0
abbrev RA70 (c : Dev nD) : Rect S1024x1024 := Rect.unit (s := S1024x1024) (k0_off70 c) S32x384.size (k0_off70_inb c)
abbrev RR71 (c : Dev nD) : Rect S64x1024 := Rect.unit (s := S64x1024) (k0_off71 c) S32x384.size (k0_off71_inb c)
abbrev RA76 (c : Dev nD) : Rect S1024x1024 := Rect.unit (s := S1024x1024) (k0_off76 c) S32x384.size (k0_off76_inb c)
abbrev RR77 (c : Dev nD) : Rect S64x1024 := Rect.unit (s := S64x1024) (k0_off77 c) S32x384.size (k0_off77_inb c)
abbrev RC4b1 : Rect S32x1024 := Rect.unit (s := S32x1024) ![0, 384] S32x384.size inb_S32x1024_S32x384_0_384
abbrev RA72 (c : Dev nD) : Rect S1024x1024 := Rect.unit (s := S1024x1024) (k0_off72 c) S32x256.size (k0_off72_inb c)
abbrev RR73 (c : Dev nD) : Rect S64x1024 := Rect.unit (s := S64x1024) (k0_off73 c) S32x256.size (k0_off73_inb c)
abbrev RA78 (c : Dev nD) : Rect S1024x1024 := Rect.unit (s := S1024x1024) (k0_off78 c) S32x256.size (k0_off78_inb c)
abbrev RR79 (c : Dev nD) : Rect S64x1024 := Rect.unit (s := S64x1024) (k0_off79 c) S32x256.size (k0_off79_inb c)
abbrev RC4b2 : Rect S32x1024 := Rect.unit (s := S32x1024) ![0, 768] S32x256.size inb_S32x1024_S32x256_0_768

/-! ## One addition, one rounding, one result -/

/-- The accumulator after the partner's rows of the fourth stage, column block 0, are added on the rows given away. -/
def addT0 (c : Dev nD) (a : Buf (Elt F) ((c : Thread nD τ).loc cc0_scratch0)) (g : Buf (Elt F) ((c : Thread nD τ).loc cc0_scratch4)) : Buf (Elt F) ((c : Thread nD τ).loc cc0_scratch0) :=
  ((Memref.whole cc0_scratch0 : Memref sig .tc .vmem S1024x1024 .f32).access (RA68 c)).write (Elt F) a
    (k0_pay38 ((Memref.whole cc0_scratch0 : Memref sig .tc .vmem S1024x1024 .f32).view.readAt (Elt F) (RA68 c).toLoadRect a) ((Memref.whole cc0_scratch4 : Memref sig .tc .vmem S64x1024 .bf16).view.readAt (Elt F) (RR69 c).toLoadRect g)) Finset.univ
/-- The last stage's send buffer after column block 0's rows to give away are rounded into it. -/
def sendQ0 (c : Dev nD) (a : Buf (Elt F) ((c : Thread nD τ).loc cc0_scratch0)) (g10 : Buf (Elt F) ((c : Thread nD τ).loc cc0_scratch10)) : Buf (Elt F) ((c : Thread nD τ).loc cc0_scratch10) :=
  ((Memref.whole cc0_scratch10 : Memref sig .tc .vmem S32x1024 .bf16).access RC4b0).write (Elt F) g10 (k0_pay39 ((Memref.whole cc0_scratch0 : Memref sig .tc .vmem S1024x1024 .f32).view.readAt (Elt F) (RA68 c).toLoadRect a)) Finset.univ
/-- The accumulator after the partner's rows of the fourth stage, column block 0, are added on the rows kept. -/
def addM0 (c : Dev nD) (a : Buf (Elt F) ((c : Thread nD τ).loc cc0_scratch0)) (g : Buf (Elt F) ((c : Thread nD τ).loc cc0_scratch4)) : Buf (Elt F) ((c : Thread nD τ).loc cc0_scratch0) :=
  ((Memref.whole cc0_scratch0 : Memref sig .tc .vmem S1024x1024 .f32).access (RA74 c)).write (Elt F) a
    (k0_pay44 ((Memref.whole cc0_scratch0 : Memref sig .tc .vmem S1024x1024 .f32).view.readAt (Elt F) (RA74 c).toLoadRect a) ((Memref.whole cc0_scratch4 : Memref sig .tc .vmem S64x1024 .bf16).view.readAt (Elt F) (RR75 c).toLoadRect g)) Finset.univ
/-- The result's own rows of column block 0: the last partner's rows added, the pointwise function applied. -/
def outK0 (c : Dev nD) (a : Buf (Elt F) ((c : Thread nD τ).loc cc0_scratch0)) (g : Buf (Elt F) ((c : Thread nD τ).loc cc0_scratch5)) (o : Buf (Elt F) ((c : Thread nD τ).loc cc0_stg2_0)) : Buf (Elt F) ((c : Thread nD τ).loc cc0_stg2_0) :=
  ((Memref.whole cc0_stg2_0 : Memref sig .tc .vmem S1024x1024 .bf16).access (RA74 c)).write (Elt F) o
    (k0_pay47 ((Memref.whole cc0_scratch0 : Memref sig .tc .vmem S1024x1024 .f32).view.readAt (Elt F) (RA74 c).toLoadRect a) ((Memref.whole cc0_scratch5 : Memref sig .tc .vmem S32x1024 .bf16).view.readAt (Elt F) RC4b0.toLoadRect g)) Finset.univ

/-- The accumulator after the partner's rows of the fourth stage, column block 1, are added on the rows given away. -/
def addT1 (c : Dev nD) (a : Buf (Elt F) ((c : Thread nD τ).loc cc0_scratch0)) (g : Buf (Elt F) ((c : Thread nD τ).loc cc0_scratch4)) : Buf (Elt F) ((c : Thread nD τ).loc cc0_scratch0) :=
  ((Memref.whole cc0_scratch0 : Memref sig .tc .vmem S1024x1024 .f32).access (RA70 c)).write (Elt F) a
    (k0_pay40 ((Memref.whole cc0_scratch0 : Memref sig .tc .vmem S1024x1024 .f32).view.readAt (Elt F) (RA70 c).toLoadRect a) ((Memref.whole cc0_scratch4 : Memref sig .tc .vmem S64x1024 .bf16).view.readAt (Elt F) (RR71 c).toLoadRect g)) Finset.univ
/-- The last stage's send buffer after column block 1's rows to give away are rounded into it. -/
def sendQ1 (c : Dev nD) (a : Buf (Elt F) ((c : Thread nD τ).loc cc0_scratch0)) (g10 : Buf (Elt F) ((c : Thread nD τ).loc cc0_scratch10)) : Buf (Elt F) ((c : Thread nD τ).loc cc0_scratch10) :=
  ((Memref.whole cc0_scratch10 : Memref sig .tc .vmem S32x1024 .bf16).access RC4b1).write (Elt F) g10 (k0_pay41 ((Memref.whole cc0_scratch0 : Memref sig .tc .vmem S1024x1024 .f32).view.readAt (Elt F) (RA70 c).toLoadRect a)) Finset.univ
/-- The accumulator after the partner's rows of the fourth stage, column block 1, are added on the rows kept. -/
def addM1 (c : Dev nD) (a : Buf (Elt F) ((c : Thread nD τ).loc cc0_scratch0)) (g : Buf (Elt F) ((c : Thread nD τ).loc cc0_scratch4)) : Buf (Elt F) ((c : Thread nD τ).loc cc0_scratch0) :=
  ((Memref.whole cc0_scratch0 : Memref sig .tc .vmem S1024x1024 .f32).access (RA76 c)).write (Elt F) a
    (k0_pay45 ((Memref.whole cc0_scratch0 : Memref sig .tc .vmem S1024x1024 .f32).view.readAt (Elt F) (RA76 c).toLoadRect a) ((Memref.whole cc0_scratch4 : Memref sig .tc .vmem S64x1024 .bf16).view.readAt (Elt F) (RR77 c).toLoadRect g)) Finset.univ
/-- The result's own rows of column block 1: the last partner's rows added, the pointwise function applied. -/
def outK1 (c : Dev nD) (a : Buf (Elt F) ((c : Thread nD τ).loc cc0_scratch0)) (g : Buf (Elt F) ((c : Thread nD τ).loc cc0_scratch5)) (o : Buf (Elt F) ((c : Thread nD τ).loc cc0_stg2_0)) : Buf (Elt F) ((c : Thread nD τ).loc cc0_stg2_0) :=
  ((Memref.whole cc0_stg2_0 : Memref sig .tc .vmem S1024x1024 .bf16).access (RA76 c)).write (Elt F) o
    (k0_pay48 ((Memref.whole cc0_scratch0 : Memref sig .tc .vmem S1024x1024 .f32).view.readAt (Elt F) (RA76 c).toLoadRect a) ((Memref.whole cc0_scratch5 : Memref sig .tc .vmem S32x1024 .bf16).view.readAt (Elt F) RC4b1.toLoadRect g)) Finset.univ

/-- The accumulator after the partner's rows of the fourth stage, column block 2, are added on the rows given away. -/
def addT2 (c : Dev nD) (a : Buf (Elt F) ((c : Thread nD τ).loc cc0_scratch0)) (g : Buf (Elt F) ((c : Thread nD τ).loc cc0_scratch4)) : Buf (Elt F) ((c : Thread nD τ).loc cc0_scratch0) :=
  ((Memref.whole cc0_scratch0 : Memref sig .tc .vmem S1024x1024 .f32).access (RA72 c)).write (Elt F) a
    (k0_pay42 ((Memref.whole cc0_scratch0 : Memref sig .tc .vmem S1024x1024 .f32).view.readAt (Elt F) (RA72 c).toLoadRect a) ((Memref.whole cc0_scratch4 : Memref sig .tc .vmem S64x1024 .bf16).view.readAt (Elt F) (RR73 c).toLoadRect g)) Finset.univ
/-- The last stage's send buffer after column block 2's rows to give away are rounded into it. -/
def sendQ2 (c : Dev nD) (a : Buf (Elt F) ((c : Thread nD τ).loc cc0_scratch0)) (g10 : Buf (Elt F) ((c : Thread nD τ).loc cc0_scratch10)) : Buf (Elt F) ((c : Thread nD τ).loc cc0_scratch10) :=
  ((Memref.whole cc0_scratch10 : Memref sig .tc .vmem S32x1024 .bf16).access RC4b2).write (Elt F) g10 (k0_pay43 ((Memref.whole cc0_scratch0 : Memref sig .tc .vmem S1024x1024 .f32).view.readAt (Elt F) (RA72 c).toLoadRect a)) Finset.univ
/-- The accumulator after the partner's rows of the fourth stage, column block 2, are added on the rows kept. -/
def addM2 (c : Dev nD) (a : Buf (Elt F) ((c : Thread nD τ).loc cc0_scratch0)) (g : Buf (Elt F) ((c : Thread nD τ).loc cc0_scratch4)) : Buf (Elt F) ((c : Thread nD τ).loc cc0_scratch0) :=
  ((Memref.whole cc0_scratch0 : Memref sig .tc .vmem S1024x1024 .f32).access (RA78 c)).write (Elt F) a
    (k0_pay46 ((Memref.whole cc0_scratch0 : Memref sig .tc .vmem S1024x1024 .f32).view.readAt (Elt F) (RA78 c).toLoadRect a) ((Memref.whole cc0_scratch4 : Memref sig .tc .vmem S64x1024 .bf16).view.readAt (Elt F) (RR79 c).toLoadRect g)) Finset.univ
/-- The result's own rows of column block 2: the last partner's rows added, the pointwise function applied. -/
def outK2 (c : Dev nD) (a : Buf (Elt F) ((c : Thread nD τ).loc cc0_scratch0)) (g : Buf (Elt F) ((c : Thread nD τ).loc cc0_scratch5)) (o : Buf (Elt F) ((c : Thread nD τ).loc cc0_stg2_0)) : Buf (Elt F) ((c : Thread nD τ).loc cc0_stg2_0) :=
  ((Memref.whole cc0_stg2_0 : Memref sig .tc .vmem S1024x1024 .bf16).access (RA78 c)).write (Elt F) o
    (k0_pay49 ((Memref.whole cc0_scratch0 : Memref sig .tc .vmem S1024x1024 .f32).view.readAt (Elt F) (RA78 c).toLoadRect a) ((Memref.whole cc0_scratch5 : Memref sig .tc .vmem S32x1024 .bf16).view.readAt (Elt F) RC4b2.toLoadRect g)) Finset.univ

/-- The accumulator's contents along the segment, from its contents `fa` at entry and the rows received. -/
def bcc1 (c : Dev nD) (fa : Buf (Elt F) ((c : Thread nD τ).loc cc0_scratch0)) (g300 : Buf (Elt F) ((c : Thread nD τ).loc cc0_scratch4)) : Buf (Elt F) ((c : Thread nD τ).loc cc0_scratch0) := addT0 c fa g300
def bcc2 (c : Dev nD) (fa : Buf (Elt F) ((c : Thread nD τ).loc cc0_scratch0)) (g300 g310 : Buf (Elt F) ((c : Thread nD τ).loc cc0_scratch4)) : Buf (Elt F) ((c : Thread nD τ).loc cc0_scratch0) := addT1 c (bcc1 c fa g300) g310
def bcc3 (c : Dev nD) (fa : Buf (Elt F) ((c : Thread nD τ).loc cc0_scratch0)) (g300 g310 g320 : Buf (Elt F) ((c : Thread nD τ).loc cc0_scratch4)) : Buf (Elt F) ((c : Thread nD τ).loc cc0_scratch0) := addT2 c (bcc2 c fa g300 g310) g320
def bcc4 (c : Dev nD) (fa : Buf (Elt F) ((c : Thread nD τ).loc cc0_scratch0)) (g300 g310 g320 g301 : Buf (Elt F) ((c : Thread nD τ).loc cc0_scratch4)) : Buf (Elt F) ((c : Thread nD τ).loc cc0_scratch0) := addM0 c (bcc3 c fa g300 g310 g320) g301
def bcc5 (c : Dev nD) (fa : Buf (Elt F) ((c : Thread nD τ).loc cc0_scratch0)) (g300 g310 g320 g301 g311 : Buf (Elt F) ((c : Thread nD τ).loc cc0_scratch4)) : Buf (Elt F) ((c : Thread nD τ).loc cc0_scratch0) := addM1 c (bcc4 c fa g300 g310 g320 g301) g311
def bcc6 (c : Dev nD) (fa : Buf (Elt F) ((c : Thread nD τ).loc cc0_scratch0)) (g300 g310 g320 g301 g311 g321 : Buf (Elt F) ((c : Thread nD τ).loc cc0_scratch4)) : Buf (Elt F) ((c : Thread nD τ).loc cc0_scratch0) := addM2 c (bcc5 c fa g300 g310 g320 g301 g311) g321

variable (ct : Contract F) (c : Dev nD) (YA : S1024x512.Idx → F .f32) (YB : S512x1024.Idx → F .f32)

/-! ## The steps of the segment, one column block at a time -/

/-- What a store into the accumulator leaves untouched: right contents on a rectangle that misses the stored one on some axis stay right. -/
theorem fr (lvl : ℕ) {offW szW offS szS : Fin 2 → ℕ} {rW qW rS qS : ℕ} (inbW : ∀ a, offW a + szW a ≤ S1024x1024.size a) (heqW : offW = ![rW, qW])
    (w : (Rect.unit (s := S1024x1024) offW szW inbW).shape.Idx → F .f32) (inbS : ∀ a, offS a + szS a ≤ S1024x1024.size a) (heqS : offS = ![rS, qS])
    (a : S1024x1024.Idx → F .f32)
    (h : ∀ i ∈ ((View.whole cc0_scratch0).slice (Rect.unit (s := S1024x1024) offS szS inbS)).set, ct.okAcc lvl c (i 0).val (i 1).val (a i))
    (hd : (rS + szS 0 ≤ rW ∨ rW + szW 0 ≤ rS) ∨ (qS + szS 1 ≤ qW ∨ qW + szW 1 ≤ qS)) :
    ∀ i ∈ ((View.whole cc0_scratch0).slice (Rect.unit (s := S1024x1024) offS szS inbS)).set,
      ct.okAcc lvl c (i 0).val (i 1).val ((((View.whole cc0_scratch0).slice (Rect.unit (s := S1024x1024) offW szW inbW)).write (Elt F) a w Finset.univ) i) :=
  SegBCore.keep_of (Val := Elt F) cc0_scratch0 a (fun i v => ct.okAcc lvl c (i 0).val (i 1).val v) inbW heqW w inbS heqS inbS heqS h
    (fun _ => ⟨Nat.le_refl _, Nat.le_refl _⟩) (hd.elim (fun h0 => ⟨0, h0⟩) (fun h1 => ⟨1, h1⟩))

/-- Column block 0: the rows handed on at the last stage, after the stage-3 partner's first piece is added and the sum rounded, are right for the send buffer. -/
theorem stepT0 (laws : Laws ct c YA YB) (a : S1024x1024.Idx → F .f32) (g : S64x1024.Idx → F .bf16)
    (ha : ∀ i ∈ ((View.whole cc0_scratch0).slice (Rect.unit (s := S1024x1024) (k0_off62 c) S64x384.size (k0_off62_inb c))).set, ct.okAcc 3 c (i 0).val (i 1).val (a i))
    (hg : ∀ i ∈ (dst_rs_3_0_0 (peer 0 3 c)).view.set, pRS ct 3 c (sh := S64x1024) i (g i)) :
    ∀ j : S32x384.Idx, ct.okSS 4 c (j 0).val (0 + (j 1).val)
      (k0_pay39 ((Memref.whole cc0_scratch0 : Memref sig .tc .vmem S1024x1024 .f32).view.readAt (Elt F) (RA68 c).toLoadRect (addT0 c a g)) j) := by
  have hb := bit_le_one 0 4 c
  have hpeer : k0_off52 (peer 0 3 c) = ![(1 - bit 0 4 c) * 32, 0] := by
    rw [Geo.off52_eq, bit_peer_succ 0 3 4 c rfl]
  have hY : ∀ j : S32x384.Idx, ct.okSS 3 (peer 0 3 c) ((1 - bit 0 4 c) * half 4 + (j 0).val) (0 + (j 1).val)
      ((Memref.whole cc0_scratch4 : Memref sig .tc .vmem S64x1024 .bf16).view.readAt (Elt F) (Rect.unit (s := S64x1024) (k0_off69 c) S32x384.size (k0_off69_inb c)).toLoadRect g j) := fun j => by
    obtain ⟨y, hy, hP⟩ := SegBCore.load_sub_ok (Val := Elt F) cc0_scratch4 g (fun i v => pRS ct 3 c (sh := S64x1024) i v)
      (k0_off52_inb (peer 0 3 c)) hpeer hg (k0_off69_inb c) (Geo.off69_eq c) (fun a => ⟨Nat.le_refl _, Nat.le_refl _⟩) j
    have hj1 : (j 1).val < 384 := (j 1).isLt
    rw [SegBCore.half_4]
    exact SegBCore.pRS_to_okSS ct 3 0 c rfl y _ _ _ (hy 0) (hy 1) (SegAValP.blk_of_lt (by omega)) hP
  have hA : ∀ i ∈ ((View.whole cc0_scratch0).slice (Rect.unit (s := S1024x1024) (k0_off68 c) S32x384.size (k0_off68_inb c))).set, ct.okAcc 3 c (i 0).val (i 1).val (a i) := fun i hi => ha i (by
    have hm := (Plumb.mem_slice_unit_whole cc0_scratch0 (k0_off68_inb c) (Geo.off68_eq c) i).mp hi
    exact (Plumb.mem_slice_unit_whole cc0_scratch0 (k0_off62_inb c) (Geo.off62_eq c) i).mpr (Fin.forall_fin_two.mpr
      ⟨by have h' : lo 0 c 4 + (1 - bit 0 4 c) * 32 ≤ (i 0).val ∧ (i 0).val < lo 0 c 4 + (1 - bit 0 4 c) * 32 + 32 := hm 0
          show lo 0 c 4 ≤ (i 0).val ∧ (i 0).val < lo 0 c 4 + 64
          omega, hm 1⟩))
  unfold addT0
  exact SegBCore.ss_core ct c YA YB laws 3 4 (by decide) rfl 0 (k0_off68_inb c)
    ((Geo.off68_eq c).trans (by show _ = ![lo 0 c 4 + (1 - bit 0 4 c) * half 4, 0]; rw [SegBCore.half_4]))
    (fun q h1 h2 => SegAValP.blk_of_lt (by have h2' : q < 0 + 384 := h2; omega)) a hA _ hY _
    (fun j => PayPoint.pay38_at _ _ j) _ (fun j => PayPoint.pay39_at _ j)

theorem frT0 (lvl : ℕ) {offS szS : Fin 2 → ℕ} {rS qS : ℕ} (inbS : ∀ a, offS a + szS a ≤ S1024x1024.size a) (heqS : offS = ![rS, qS])
    (a : S1024x1024.Idx → F .f32) (g : S64x1024.Idx → F .bf16)
    (h : ∀ i ∈ ((View.whole cc0_scratch0).slice (Rect.unit (s := S1024x1024) offS szS inbS)).set, ct.okAcc lvl c (i 0).val (i 1).val (a i))
    (hd : (rS + szS 0 ≤ lo 0 c 4 + (1 - bit 0 4 c) * 32 ∨ lo 0 c 4 + (1 - bit 0 4 c) * 32 + 32 ≤ rS) ∨ (qS + szS 1 ≤ 0 ∨ 0 + 384 ≤ qS)) :
    ∀ i ∈ ((View.whole cc0_scratch0).slice (Rect.unit (s := S1024x1024) offS szS inbS)).set, ct.okAcc lvl c (i 0).val (i 1).val (addT0 c a g i) := by
  unfold addT0
  exact fr ct c lvl (k0_off68_inb c) (Geo.off68_eq c) _ inbS heqS a h hd

/-- Column block 0: adding the second piece of the stage-3 partner to the rows kept brings them to the sum over sixteen devices. -/
theorem stepM0 (laws : Laws ct c YA YB) (a : S1024x1024.Idx → F .f32) (g : S64x1024.Idx → F .bf16)
    (ha : ∀ i ∈ ((View.whole cc0_scratch0).slice (Rect.unit (s := S1024x1024) (k0_off74 c) S32x384.size (k0_off74_inb c))).set, ct.okAcc 3 c (i 0).val (i 1).val (a i))
    (hg : ∀ i ∈ (dst_rs_3_0_1 (peer 0 3 c)).view.set, pRS ct 3 c (sh := S64x1024) i (g i)) :
    ∀ i ∈ ((View.whole cc0_scratch0).slice (Rect.unit (s := S1024x1024) (k0_off74 c) S32x384.size (k0_off74_inb c))).set, ct.okAcc 4 c (i 0).val (i 1).val (addM0 c a g i) := by
  have hpeer : k0_off53 (peer 0 3 c) = ![bit 0 4 c * 32, 0] := by
    rw [Geo.off53_eq, bit_peer_succ 0 3 4 c rfl]
  have hY : ∀ j : S32x384.Idx, ct.okSS 3 (peer 0 3 c) (bit 0 4 c * half 4 + (j 0).val) (0 + (j 1).val)
      ((Memref.whole cc0_scratch4 : Memref sig .tc .vmem S64x1024 .bf16).view.readAt (Elt F) (Rect.unit (s := S64x1024) (k0_off75 c) S32x384.size (k0_off75_inb c)).toLoadRect g j) := fun j => by
    obtain ⟨y, hy, hP⟩ := SegBCore.load_sub_ok (Val := Elt F) cc0_scratch4 g (fun i v => pRS ct 3 c (sh := S64x1024) i v)
      (k0_off53_inb (peer 0 3 c)) hpeer hg (k0_off75_inb c) (Geo.off75_eq c) (fun a => ⟨Nat.le_refl _, Nat.le_refl _⟩) j
    have hj1 : (j 1).val < 384 := (j 1).isLt
    rw [SegBCore.half_4]
    exact SegBCore.pRS_to_okSS ct 3 0 c rfl y _ _ _ (hy 0) (hy 1) (SegAValP.blk_of_lt (by omega)) hP
  unfold addM0
  exact SegBCore.keep_core ct c YA YB laws 3 4 (by decide) rfl 0 (k0_off74_inb c)
    ((Geo.off74_eq c).trans (by show ![lo 0 c 5, 0] = ![lo 0 c 4 + bit 0 4 c * half 4, 0]; rw [show lo 0 c 5 = lo 0 c 4 + bit 0 4 c * half 4 from SegBCore.lo_succ 0 c 4]))
    (fun q h1 h2 => SegAValP.blk_of_lt (by have h2' : q < 0 + 384 := h2; omega)) a ha _ hY _ (fun j => PayPoint.pay44_at _ _ j)

theorem frM0 (lvl : ℕ) {offS szS : Fin 2 → ℕ} {rS qS : ℕ} (inbS : ∀ a, offS a + szS a ≤ S1024x1024.size a) (heqS : offS = ![rS, qS])
    (a : S1024x1024.Idx → F .f32) (g : S64x1024.Idx → F .bf16)
    (h : ∀ i ∈ ((View.whole cc0_scratch0).slice (Rect.unit (s := S1024x1024) offS szS inbS)).set, ct.okAcc lvl c (i 0).val (i 1).val (a i))
    (hd : (rS + szS 0 ≤ lo 0 c 5 ∨ lo 0 c 5 + 32 ≤ rS) ∨ (qS + szS 1 ≤ 0 ∨ 0 + 384 ≤ qS)) :
    ∀ i ∈ ((View.whole cc0_scratch0).slice (Rect.unit (s := S1024x1024) offS szS inbS)).set, ct.okAcc lvl c (i 0).val (i 1).val (addM0 c a g i) := by
  unfold addM0
  exact fr ct c lvl (k0_off74_inb c) (Geo.off74_eq c) _ inbS heqS a h hd

/-- Column block 1: the rows handed on at the last stage, after the stage-3 partner's first piece is added and the sum rounded, are right for the send buffer. -/
theorem stepT1 (laws : Laws ct c YA YB) (a : S1024x1024.Idx → F .f32) (g : S64x1024.Idx → F .bf16)
    (ha : ∀ i ∈ ((View.whole cc0_scratch0).slice (Rect.unit (s := S1024x1024) (k0_off64 c) S64x384.size (k0_off64_inb c))).set, ct.okAcc 3 c (i 0).val (i 1).val (a i))
    (hg : ∀ i ∈ (dst_rs_3_1_0 (peer 1 3 c)).view.set, pRS ct 3 c (sh := S64x1024) i (g i)) :
    ∀ j : S32x384.Idx, ct.okSS 4 c (j 0).val (384 + (j 1).val)
      (k0_pay41 ((Memref.whole cc0_scratch0 : Memref sig .tc .vmem S1024x1024 .f32).view.readAt (Elt F) (RA70 c).toLoadRect (addT1 c a g)) j) := by
  have hb := bit_le_one 1 4 c
  have hpeer : k0_off56 (peer 1 3 c) = ![(1 - bit 1 4 c) * 32, 384] := by
    rw [Geo.off56_eq, bit_peer_succ 1 3 4 c rfl]
  have hY : ∀ j : S32x384.Idx, ct.okSS 3 (peer 1 3 c) ((1 - bit 1 4 c) * half 4 + (j 0).val) (384 + (j 1).val)
      ((Memref.whole cc0_scratch4 : Memref sig .tc .vmem S64x1024 .bf16).view.readAt (Elt F) (Rect.unit (s := S64x1024) (k0_off71 c) S32x384.size (k0_off71_inb c)).toLoadRect g j) := fun j => by
    obtain ⟨y, hy, hP⟩ := SegBCore.load_sub_ok (Val := Elt F) cc0_scratch4 g (fun i v => pRS ct 3 c (sh := S64x1024) i v)
      (k0_off56_inb (peer 1 3 c)) hpeer hg (k0_off71_inb c) (Geo.off71_eq c) (fun a => ⟨Nat.le_refl _, Nat.le_refl _⟩) j
    have hj1 : (j 1).val < 384 := (j 1).isLt
    rw [SegBCore.half_4]
    exact SegBCore.pRS_to_okSS ct 3 1 c rfl y _ _ _ (hy 0) (hy 1) (SegAValP.blk_of_mid (by omega) (by omega)) hP
  have hA : ∀ i ∈ ((View.whole cc0_scratch0).slice (Rect.unit (s := S1024x1024) (k0_off70 c) S32x384.size (k0_off70_inb c))).set, ct.okAcc 3 c (i 0).val (i 1).val (a i) := fun i hi => ha i (by
    have hm := (Plumb.mem_slice_unit_whole cc0_scratch0 (k0_off70_inb c) (Geo.off70_eq c) i).mp hi
    exact (Plumb.mem_slice_unit_whole cc0_scratch0 (k0_off64_inb c) (Geo.off64_eq c) i).mpr (Fin.forall_fin_two.mpr
      ⟨by have h' : lo 1 c 4 + (1 - bit 1 4 c) * 32 ≤ (i 0).val ∧ (i 0).val < lo 1 c 4 + (1 - bit 1 4 c) * 32 + 32 := hm 0
          show lo 1 c 4 ≤ (i 0).val ∧ (i 0).val < lo 1 c 4 + 64
          omega, hm 1⟩))
  unfold addT1
  exact SegBCore.ss_core ct c YA YB laws 3 4 (by decide) rfl 1 (k0_off70_inb c)
    ((Geo.off70_eq c).trans (by show _ = ![lo 1 c 4 + (1 - bit 1 4 c) * half 4, 384]; rw [SegBCore.half_4]))
    (fun q h1 h2 => SegAValP.blk_of_mid (by have h2' : q < 384 + 384 := h2; omega) (by have h2' : q < 384 + 384 := h2; omega)) a hA _ hY _
    (fun j => PayPoint.pay40_at _ _ j) _ (fun j => PayPoint.pay41_at _ j)

theorem frT1 (lvl : ℕ) {offS szS : Fin 2 → ℕ} {rS qS : ℕ} (inbS : ∀ a, offS a + szS a ≤ S1024x1024.size a) (heqS : offS = ![rS, qS])
    (a : S1024x1024.Idx → F .f32) (g : S64x1024.Idx → F .bf16)
    (h : ∀ i ∈ ((View.whole cc0_scratch0).slice (Rect.unit (s := S1024x1024) offS szS inbS)).set, ct.okAcc lvl c (i 0).val (i 1).val (a i))
    (hd : (rS + szS 0 ≤ lo 1 c 4 + (1 - bit 1 4 c) * 32 ∨ lo 1 c 4 + (1 - bit 1 4 c) * 32 + 32 ≤ rS) ∨ (qS + szS 1 ≤ 384 ∨ 384 + 384 ≤ qS)) :
    ∀ i ∈ ((View.whole cc0_scratch0).slice (Rect.unit (s := S1024x1024) offS szS inbS)).set, ct.okAcc lvl c (i 0).val (i 1).val (addT1 c a g i) := by
  unfold addT1
  exact fr ct c lvl (k0_off70_inb c) (Geo.off70_eq c) _ inbS heqS a h hd

/-- Column block 1: adding the second piece of the stage-3 partner to the rows kept brings them to the sum over sixteen devices. -/
theorem stepM1 (laws : Laws ct c YA YB) (a : S1024x1024.Idx → F .f32) (g : S64x1024.Idx → F .bf16)
    (ha : ∀ i ∈ ((View.whole cc0_scratch0).slice (Rect.unit (s := S1024x1024) (k0_off76 c) S32x384.size (k0_off76_inb c))).set, ct.okAcc 3 c (i 0).val (i 1).val (a i))
    (hg : ∀ i ∈ (dst_rs_3_1_1 (peer 1 3 c)).view.set, pRS ct 3 c (sh := S64x1024) i (g i)) :
    ∀ i ∈ ((View.whole cc0_scratch0).slice (Rect.unit (s := S1024x1024) (k0_off76 c) S32x384.size (k0_off76_inb c))).set, ct.okAcc 4 c (i 0).val (i 1).val (addM1 c a g i) := by
  have hpeer : k0_off57 (peer 1 3 c) = ![bit 1 4 c * 32, 384] := by
    rw [Geo.off57_eq, bit_peer_succ 1 3 4 c rfl]
  have hY : ∀ j : S32x384.Idx, ct.okSS 3 (peer 1 3 c) (bit 1 4 c * half 4 + (j 0).val) (384 + (j 1).val)
      ((Memref.whole cc0_scratch4 : Memref sig .tc .vmem S64x1024 .bf16).view.readAt (Elt F) (Rect.unit (s := S64x1024) (k0_off77 c) S32x384.size (k0_off77_inb c)).toLoadRect g j) := fun j => by
    obtain ⟨y, hy, hP⟩ := SegBCore.load_sub_ok (Val := Elt F) cc0_scratch4 g (fun i v => pRS ct 3 c (sh := S64x1024) i v)
      (k0_off57_inb (peer 1 3 c)) hpeer hg (k0_off77_inb c) (Geo.off77_eq c) (fun a => ⟨Nat.le_refl _, Nat.le_refl _⟩) j
    have hj1 : (j 1).val < 384 := (j 1).isLt
    rw [SegBCore.half_4]
    exact SegBCore.pRS_to_okSS ct 3 1 c rfl y _ _ _ (hy 0) (hy 1) (SegAValP.blk_of_mid (by omega) (by omega)) hP
  unfold addM1
  exact SegBCore.keep_core ct c YA YB laws 3 4 (by decide) rfl 1 (k0_off76_inb c)
    ((Geo.off76_eq c).trans (by show ![lo 1 c 5, 384] = ![lo 1 c 4 + bit 1 4 c * half 4, 384]; rw [show lo 1 c 5 = lo 1 c 4 + bit 1 4 c * half 4 from SegBCore.lo_succ 1 c 4]))
    (fun q h1 h2 => SegAValP.blk_of_mid (by have h2' : q < 384 + 384 := h2; omega) (by have h2' : q < 384 + 384 := h2; omega)) a ha _ hY _ (fun j => PayPoint.pay45_at _ _ j)

theorem frM1 (lvl : ℕ) {offS szS : Fin 2 → ℕ} {rS qS : ℕ} (inbS : ∀ a, offS a + szS a ≤ S1024x1024.size a) (heqS : offS = ![rS, qS])
    (a : S1024x1024.Idx → F .f32) (g : S64x1024.Idx → F .bf16)
    (h : ∀ i ∈ ((View.whole cc0_scratch0).slice (Rect.unit (s := S1024x1024) offS szS inbS)).set, ct.okAcc lvl c (i 0).val (i 1).val (a i))
    (hd : (rS + szS 0 ≤ lo 1 c 5 ∨ lo 1 c 5 + 32 ≤ rS) ∨ (qS + szS 1 ≤ 384 ∨ 384 + 384 ≤ qS)) :
    ∀ i ∈ ((View.whole cc0_scratch0).slice (Rect.unit (s := S1024x1024) offS szS inbS)).set, ct.okAcc lvl c (i 0).val (i 1).val (addM1 c a g i) := by
  unfold addM1
  exact fr ct c lvl (k0_off76_inb c) (Geo.off76_eq c) _ inbS heqS a h hd

/-- Column block 2: the rows handed on at the last stage, after the stage-3 partner's first piece is added and the sum rounded, are right for the send buffer. -/
theorem stepT2 (laws : Laws ct c YA YB) (a : S1024x1024.Idx → F .f32) (g : S64x1024.Idx → F .bf16)
    (ha : ∀ i ∈ ((View.whole cc0_scratch0).slice (Rect.unit (s := S1024x1024) (k0_off66 c) S64x256.size (k0_off66_inb c))).set, ct.okAcc 3 c (i 0).val (i 1).val (a i))
    (hg : ∀ i ∈ (dst_rs_3_2_0 (peer 2 3 c)).view.set, pRS ct 3 c (sh := S64x1024) i (g i)) :
    ∀ j : S32x256.Idx, ct.okSS 4 c (j 0).val (768 + (j 1).val)
      (k0_pay43 ((Memref.whole cc0_scratch0 : Memref sig .tc .vmem S1024x1024 .f32).view.readAt (Elt F) (RA72 c).toLoadRect (addT2 c a g)) j) := by
  have hb := bit_le_one 2 4 c
  have hpeer : k0_off60 (peer 2 3 c) = ![(1 - bit 2 4 c) * 32, 768] := by
    rw [Geo.off60_eq, bit_peer_succ 2 3 4 c rfl]
  have hY : ∀ j : S32x256.Idx, ct.okSS 3 (peer 2 3 c) ((1 - bit 2 4 c) * half 4 + (j 0).val) (768 + (j 1).val)
      ((Memref.whole cc0_scratch4 : Memref sig .tc .vmem S64x1024 .bf16).view.readAt (Elt F) (Rect.unit (s := S64x1024) (k0_off73 c) S32x256.size (k0_off73_inb c)).toLoadRect g j) := fun j => by
    obtain ⟨y, hy, hP⟩ := SegBCore.load_sub_ok (Val := Elt F) cc0_scratch4 g (fun i v => pRS ct 3 c (sh := S64x1024) i v)
      (k0_off60_inb (peer 2 3 c)) hpeer hg (k0_off73_inb c) (Geo.off73_eq c) (fun a => ⟨Nat.le_refl _, Nat.le_refl _⟩) j
    have hj1 : (j 1).val < 256 := (j 1).isLt
    rw [SegBCore.half_4]
    exact SegBCore.pRS_to_okSS ct 3 2 c rfl y _ _ _ (hy 0) (hy 1) (SegAValP.blk_of_ge (by omega)) hP
  have hA : ∀ i ∈ ((View.whole cc0_scratch0).slice (Rect.unit (s := S1024x1024) (k0_off72 c) S32x256.size (k0_off72_inb c))).set, ct.okAcc 3 c (i 0).val (i 1).val (a i) := fun i hi => ha i (by
    have hm := (Plumb.mem_slice_unit_whole cc0_scratch0 (k0_off72_inb c) (Geo.off72_eq c) i).mp hi
    exact (Plumb.mem_slice_unit_whole cc0_scratch0 (k0_off66_inb c) (Geo.off66_eq c) i).mpr (Fin.forall_fin_two.mpr
      ⟨by have h' : lo 2 c 4 + (1 - bit 2 4 c) * 32 ≤ (i 0).val ∧ (i 0).val < lo 2 c 4 + (1 - bit 2 4 c) * 32 + 32 := hm 0
          show lo 2 c 4 ≤ (i 0).val ∧ (i 0).val < lo 2 c 4 + 64
          omega, hm 1⟩))
  unfold addT2
  exact SegBCore.ss_core ct c YA YB laws 3 4 (by decide) rfl 2 (k0_off72_inb c)
    ((Geo.off72_eq c).trans (by show _ = ![lo 2 c 4 + (1 - bit 2 4 c) * half 4, 768]; rw [SegBCore.half_4]))
    (fun q h1 h2 => SegAValP.blk_of_ge (by have h2' : q < 768 + 256 := h2; omega)) a hA _ hY _
    (fun j => PayPoint.pay42_at _ _ j) _ (fun j => PayPoint.pay43_at _ j)

theorem frT2 (lvl : ℕ) {offS szS : Fin 2 → ℕ} {rS qS : ℕ} (inbS : ∀ a, offS a + szS a ≤ S1024x1024.size a) (heqS : offS = ![rS, qS])
    (a : S1024x1024.Idx → F .f32) (g : S64x1024.Idx → F .bf16)
    (h : ∀ i ∈ ((View.whole cc0_scratch0).slice (Rect.unit (s := S1024x1024) offS szS inbS)).set, ct.okAcc lvl c (i 0).val (i 1).val (a i))
    (hd : (rS + szS 0 ≤ lo 2 c 4 + (1 - bit 2 4 c) * 32 ∨ lo 2 c 4 + (1 - bit 2 4 c) * 32 + 32 ≤ rS) ∨ (qS + szS 1 ≤ 768 ∨ 768 + 256 ≤ qS)) :
    ∀ i ∈ ((View.whole cc0_scratch0).slice (Rect.unit (s := S1024x1024) offS szS inbS)).set, ct.okAcc lvl c (i 0).val (i 1).val (addT2 c a g i) := by
  unfold addT2
  exact fr ct c lvl (k0_off72_inb c) (Geo.off72_eq c) _ inbS heqS a h hd

/-- Column block 2: adding the second piece of the stage-3 partner to the rows kept brings them to the sum over sixteen devices. -/
theorem stepM2 (laws : Laws ct c YA YB) (a : S1024x1024.Idx → F .f32) (g : S64x1024.Idx → F .bf16)
    (ha : ∀ i ∈ ((View.whole cc0_scratch0).slice (Rect.unit (s := S1024x1024) (k0_off78 c) S32x256.size (k0_off78_inb c))).set, ct.okAcc 3 c (i 0).val (i 1).val (a i))
    (hg : ∀ i ∈ (dst_rs_3_2_1 (peer 2 3 c)).view.set, pRS ct 3 c (sh := S64x1024) i (g i)) :
    ∀ i ∈ ((View.whole cc0_scratch0).slice (Rect.unit (s := S1024x1024) (k0_off78 c) S32x256.size (k0_off78_inb c))).set, ct.okAcc 4 c (i 0).val (i 1).val (addM2 c a g i) := by
  have hpeer : k0_off61 (peer 2 3 c) = ![bit 2 4 c * 32, 768] := by
    rw [Geo.off61_eq, bit_peer_succ 2 3 4 c rfl]
  have hY : ∀ j : S32x256.Idx, ct.okSS 3 (peer 2 3 c) (bit 2 4 c * half 4 + (j 0).val) (768 + (j 1).val)
      ((Memref.whole cc0_scratch4 : Memref sig .tc .vmem S64x1024 .bf16).view.readAt (Elt F) (Rect.unit (s := S64x1024) (k0_off79 c) S32x256.size (k0_off79_inb c)).toLoadRect g j) := fun j => by
    obtain ⟨y, hy, hP⟩ := SegBCore.load_sub_ok (Val := Elt F) cc0_scratch4 g (fun i v => pRS ct 3 c (sh := S64x1024) i v)
      (k0_off61_inb (peer 2 3 c)) hpeer hg (k0_off79_inb c) (Geo.off79_eq c) (fun a => ⟨Nat.le_refl _, Nat.le_refl _⟩) j
    have hj1 : (j 1).val < 256 := (j 1).isLt
    rw [SegBCore.half_4]
    exact SegBCore.pRS_to_okSS ct 3 2 c rfl y _ _ _ (hy 0) (hy 1) (SegAValP.blk_of_ge (by omega)) hP
  unfold addM2
  exact SegBCore.keep_core ct c YA YB laws 3 4 (by decide) rfl 2 (k0_off78_inb c)
    ((Geo.off78_eq c).trans (by show ![lo 2 c 5, 768] = ![lo 2 c 4 + bit 2 4 c * half 4, 768]; rw [show lo 2 c 5 = lo 2 c 4 + bit 2 4 c * half 4 from SegBCore.lo_succ 2 c 4]))
    (fun q h1 h2 => SegAValP.blk_of_ge (by have h2' : q < 768 + 256 := h2; omega)) a ha _ hY _ (fun j => PayPoint.pay46_at _ _ j)

theorem frM2 (lvl : ℕ) {offS szS : Fin 2 → ℕ} {rS qS : ℕ} (inbS : ∀ a, offS a + szS a ≤ S1024x1024.size a) (heqS : offS = ![rS, qS])
    (a : S1024x1024.Idx → F .f32) (g : S64x1024.Idx → F .bf16)
    (h : ∀ i ∈ ((View.whole cc0_scratch0).slice (Rect.unit (s := S1024x1024) offS szS inbS)).set, ct.okAcc lvl c (i 0).val (i 1).val (a i))
    (hd : (rS + szS 0 ≤ lo 2 c 5 ∨ lo 2 c 5 + 32 ≤ rS) ∨ (qS + szS 1 ≤ 768 ∨ 768 + 256 ≤ qS)) :
    ∀ i ∈ ((View.whole cc0_scratch0).slice (Rect.unit (s := S1024x1024) offS szS inbS)).set, ct.okAcc lvl c (i 0).val (i 1).val (addM2 c a g i) := by
  unfold addM2
  exact fr ct c lvl (k0_off78_inb c) (Geo.off78_eq c) _ inbS heqS a h hd

/-! ## What the pieces sent carry -/

/-- What lands at the partner of the last stage, column block 0, is right under the contract. -/
theorem sent_4_0 (laws : Laws ct c YA YB) (fa : Buf (Elt F) ((c : Thread nD τ).loc cc0_scratch0)) (g300 : Buf (Elt F) ((c : Thread nD τ).loc cc0_scratch4)) (g10 : Buf (Elt F) ((c : Thread nD τ).loc cc0_scratch10))
    (fd : Buf (Elt F) ((dst_rs_4_0_0 c).view.loc ((peer 0 4 c : Dev nD) : Thread nD τ)))
    (hfa : (∀ i ∈ SegBMid.accRows30_0 c, ct.okAcc 3 c (i 0).val (i 1).val (fa i)) ∧ (∀ i ∈ SegBMid.accRows30_1 c, ct.okAcc 3 c (i 0).val (i 1).val (fa i)) ∧ (∀ i ∈ SegBMid.accRows30_2 c, ct.okAcc 3 c (i 0).val (i 1).val (fa i)))
    (hg300 : ∀ i ∈ (dst_rs_3_0_0 (peer 0 3 c)).view.set, pRS ct 3 c (sh := S64x1024) i (g300 i)) :
    ∀ i ∈ (dst_rs_4_0_0 c).view.set, pRS ct 4 (peer 0 4 c) (sh := S32x1024) i
      (((dst_rs_4_0_0 c).view.write (Elt F) fd ((src_rs_4_0_0 c).view.read (Elt F) (sendQ0 c (bcc1 c fa g300) g10)) Finset.univ) i) := by
  have hA : ∀ i ∈ ((View.whole cc0_scratch0).slice (Rect.unit (s := S1024x1024) (k0_off62 c) S64x384.size (k0_off62_inb c))).set, ct.okAcc 3 c (i 0).val (i 1).val ((fa) i) := by
    exact hfa.1
  have hcore := stepT0 ct c YA YB laws _ _ hA hg300
  refine SegBValP.landed4 ct c 0 inb_S32x1024_S32x384_0_0 rfl
    (fun q h1 h2 => SegAValP.blk_of_lt (by have h2' : q < 0 + 384 := h2; omega)) (sendQ0 c (bcc1 c fa g300) g10) ?_ fd
  intro i hi
  unfold sendQ0 bcc1
  refine Plumb.write_unit_whole_forall (Val := Elt F) cc0_scratch10 g10 inb_S32x1024_S32x384_0_0 _ rfl
    (fun i v => ct.okSS 4 c (i 0).val (i 1).val v) ?_ i (Fin.forall_fin_two.mpr
      ⟨⟨Nat.zero_le _, by have h' : (i 0).val < 32 := (i 0).isLt; show (i 0).val < 0 + 32; omega⟩, hi 1⟩)
  intro j i' hi'
  have e0 : (i' 0).val = (j 0).val := (hi' 0).trans (Nat.zero_add _)
  have e1 : (i' 1).val = 0 + (j 1).val := hi' 1
  show ct.okSS 4 c (i' 0).val (i' 1).val _
  rw [e0, e1]
  exact hcore j

/-- What lands at the partner of the last stage, column block 1, is right under the contract. -/
theorem sent_4_1 (laws : Laws ct c YA YB) (fa : Buf (Elt F) ((c : Thread nD τ).loc cc0_scratch0)) (g300 g310 : Buf (Elt F) ((c : Thread nD τ).loc cc0_scratch4)) (g10 : Buf (Elt F) ((c : Thread nD τ).loc cc0_scratch10))
    (fd : Buf (Elt F) ((dst_rs_4_1_0 c).view.loc ((peer 1 4 c : Dev nD) : Thread nD τ)))
    (hfa : (∀ i ∈ SegBMid.accRows30_0 c, ct.okAcc 3 c (i 0).val (i 1).val (fa i)) ∧ (∀ i ∈ SegBMid.accRows30_1 c, ct.okAcc 3 c (i 0).val (i 1).val (fa i)) ∧ (∀ i ∈ SegBMid.accRows30_2 c, ct.okAcc 3 c (i 0).val (i 1).val (fa i)))
    (hg300 : ∀ i ∈ (dst_rs_3_0_0 (peer 0 3 c)).view.set, pRS ct 3 c (sh := S64x1024) i (g300 i)) (hg310 : ∀ i ∈ (dst_rs_3_1_0 (peer 1 3 c)).view.set, pRS ct 3 c (sh := S64x1024) i (g310 i)) :
    ∀ i ∈ (dst_rs_4_1_0 c).view.set, pRS ct 4 (peer 1 4 c) (sh := S32x1024) i
      (((dst_rs_4_1_0 c).view.write (Elt F) fd ((src_rs_4_1_0 c).view.read (Elt F) (sendQ1 c (bcc2 c fa g300 g310) g10)) Finset.univ) i) := by
  have hA : ∀ i ∈ ((View.whole cc0_scratch0).slice (Rect.unit (s := S1024x1024) (k0_off64 c) S64x384.size (k0_off64_inb c))).set, ct.okAcc 3 c (i 0).val (i 1).val ((bcc1 c fa g300) i) := by
    unfold bcc1
    exact frT0 ct c 3 (k0_off64_inb c) (Geo.off64_eq c) _ _ (hfa.2.1) (Or.inr (by show 384 + 384 ≤ 0 ∨ 0 + 384 ≤ 384; omega))
  have hcore := stepT1 ct c YA YB laws _ _ hA hg310
  refine SegBValP.landed4 ct c 1 inb_S32x1024_S32x384_0_384 rfl
    (fun q h1 h2 => SegAValP.blk_of_mid (by have h2' : q < 384 + 384 := h2; omega) (by have h2' : q < 384 + 384 := h2; omega)) (sendQ1 c (bcc2 c fa g300 g310) g10) ?_ fd
  intro i hi
  unfold sendQ1 bcc2
  refine Plumb.write_unit_whole_forall (Val := Elt F) cc0_scratch10 g10 inb_S32x1024_S32x384_0_384 _ rfl
    (fun i v => ct.okSS 4 c (i 0).val (i 1).val v) ?_ i (Fin.forall_fin_two.mpr
      ⟨⟨Nat.zero_le _, by have h' : (i 0).val < 32 := (i 0).isLt; show (i 0).val < 0 + 32; omega⟩, hi 1⟩)
  intro j i' hi'
  have e0 : (i' 0).val = (j 0).val := (hi' 0).trans (Nat.zero_add _)
  have e1 : (i' 1).val = 384 + (j 1).val := hi' 1
  show ct.okSS 4 c (i' 0).val (i' 1).val _
  rw [e0, e1]
  exact hcore j

/-- What lands at the partner of the last stage, column block 2, is right under the contract. -/
theorem sent_4_2 (laws : Laws ct c YA YB) (fa : Buf (Elt F) ((c : Thread nD τ).loc cc0_scratch0)) (g300 g310 g320 : Buf (Elt F) ((c : Thread nD τ).loc cc0_scratch4)) (g10 : Buf (Elt F) ((c : Thread nD τ).loc cc0_scratch10))
    (fd : Buf (Elt F) ((dst_rs_4_2_0 c).view.loc ((peer 2 4 c : Dev nD) : Thread nD τ)))
    (hfa : (∀ i ∈ SegBMid.accRows30_0 c, ct.okAcc 3 c (i 0).val (i 1).val (fa i)) ∧ (∀ i ∈ SegBMid.accRows30_1 c, ct.okAcc 3 c (i 0).val (i 1).val (fa i)) ∧ (∀ i ∈ SegBMid.accRows30_2 c, ct.okAcc 3 c (i 0).val (i 1).val (fa i)))
    (hg300 : ∀ i ∈ (dst_rs_3_0_0 (peer 0 3 c)).view.set, pRS ct 3 c (sh := S64x1024) i (g300 i)) (hg310 : ∀ i ∈ (dst_rs_3_1_0 (peer 1 3 c)).view.set, pRS ct 3 c (sh := S64x1024) i (g310 i)) (hg320 : ∀ i ∈ (dst_rs_3_2_0 (peer 2 3 c)).view.set, pRS ct 3 c (sh := S64x1024) i (g320 i)) :
    ∀ i ∈ (dst_rs_4_2_0 c).view.set, pRS ct 4 (peer 2 4 c) (sh := S32x1024) i
      (((dst_rs_4_2_0 c).view.write (Elt F) fd ((src_rs_4_2_0 c).view.read (Elt F) (sendQ2 c (bcc3 c fa g300 g310 g320) g10)) Finset.univ) i) := by
  have hA : ∀ i ∈ ((View.whole cc0_scratch0).slice (Rect.unit (s := S1024x1024) (k0_off66 c) S64x256.size (k0_off66_inb c))).set, ct.okAcc 3 c (i 0).val (i 1).val ((bcc2 c fa g300 g310) i) := by
    unfold bcc2 bcc1
    exact frT1 ct c 3 (k0_off66_inb c) (Geo.off66_eq c) _ _ (frT0 ct c 3 (k0_off66_inb c) (Geo.off66_eq c) _ _ (hfa.2.2) (Or.inr (by show 768 + 256 ≤ 0 ∨ 0 + 384 ≤ 768; omega))) (Or.inr (by show 768 + 256 ≤ 384 ∨ 384 + 384 ≤ 768; omega))
  have hcore := stepT2 ct c YA YB laws _ _ hA hg320
  refine SegBValP.landed4 ct c 2 inb_S32x1024_S32x256_0_768 rfl
    (fun q h1 h2 => SegAValP.blk_of_ge (by have h2' : q < 768 + 256 := h2; omega)) (sendQ2 c (bcc3 c fa g300 g310 g320) g10) ?_ fd
  intro i hi
  unfold sendQ2 bcc3
  refine Plumb.write_unit_whole_forall (Val := Elt F) cc0_scratch10 g10 inb_S32x1024_S32x256_0_768 _ rfl
    (fun i v => ct.okSS 4 c (i 0).val (i 1).val v) ?_ i (Fin.forall_fin_two.mpr
      ⟨⟨Nat.zero_le _, by have h' : (i 0).val < 32 := (i 0).isLt; show (i 0).val < 0 + 32; omega⟩, hi 1⟩)
  intro j i' hi'
  have e0 : (i' 0).val = (j 0).val := (hi' 0).trans (Nat.zero_add _)
  have e1 : (i' 1).val = 768 + (j 1).val := hi' 1
  show ct.okSS 4 c (i' 0).val (i' 1).val _
  rw [e0, e1]
  exact hcore j

/-! ## What the result's own rows hold -/

/-- The result's own rows of column block 0 are right under the contract. -/
theorem out_0 (laws : Laws ct c YA YB) (fa : Buf (Elt F) ((c : Thread nD τ).loc cc0_scratch0)) (g300 g310 g320 g301 g311 g321 : Buf (Elt F) ((c : Thread nD τ).loc cc0_scratch4)) (g4 : Buf (Elt F) ((c : Thread nD τ).loc cc0_scratch5)) (o : Buf (Elt F) ((c : Thread nD τ).loc cc0_stg2_0))
    (hfa : (∀ i ∈ SegBMid.accRows30_0 c, ct.okAcc 3 c (i 0).val (i 1).val (fa i)) ∧ (∀ i ∈ SegBMid.accRows30_1 c, ct.okAcc 3 c (i 0).val (i 1).val (fa i)) ∧ (∀ i ∈ SegBMid.accRows30_2 c, ct.okAcc 3 c (i 0).val (i 1).val (fa i)))
    (hg300 : ∀ i ∈ (dst_rs_3_0_0 (peer 0 3 c)).view.set, pRS ct 3 c (sh := S64x1024) i (g300 i)) (hg310 : ∀ i ∈ (dst_rs_3_1_0 (peer 1 3 c)).view.set, pRS ct 3 c (sh := S64x1024) i (g310 i)) (hg320 : ∀ i ∈ (dst_rs_3_2_0 (peer 2 3 c)).view.set, pRS ct 3 c (sh := S64x1024) i (g320 i)) (hg301 : ∀ i ∈ (dst_rs_3_0_1 (peer 0 3 c)).view.set, pRS ct 3 c (sh := S64x1024) i (g301 i)) (hg311 : ∀ i ∈ (dst_rs_3_1_1 (peer 1 3 c)).view.set, pRS ct 3 c (sh := S64x1024) i (g311 i)) (hg321 : ∀ i ∈ (dst_rs_3_2_1 (peer 2 3 c)).view.set, pRS ct 3 c (sh := S64x1024) i (g321 i))
    (hg4 : ∀ i ∈ (dst_rs_4_0_0 (peer 0 4 c)).view.set, pRS ct 4 c (sh := S32x1024) i (g4 i)) :
    ∀ i ∈ (src_ag_4_0_0 c).view.set, pOut ct (sh := S1024x1024) i (outK0 c (bcc6 c fa g300 g310 g320 g301 g311 g321) g4 o i) := by
  have hb := bit_le_one 0 4 c
  have hl := SegBCore.lo_5 0 c
  have h0 : ∀ i ∈ ((View.whole cc0_scratch0).slice (Rect.unit (s := S1024x1024) (k0_off74 c) S32x384.size (k0_off74_inb c))).set, ct.okAcc 3 c (i 0).val (i 1).val (fa i) := fun i hi => hfa.1 i (by
    have hm := (Plumb.mem_slice_unit_whole cc0_scratch0 (k0_off74_inb c) (Geo.off74_eq c) i).mp hi
    exact (Plumb.mem_slice_unit_whole cc0_scratch0 (k0_off62_inb c) (Geo.off62_eq c) i).mpr (Fin.forall_fin_two.mpr
      ⟨by have h' : lo 0 c 5 ≤ (i 0).val ∧ (i 0).val < lo 0 c 5 + 32 := hm 0
          show lo 0 c 4 ≤ (i 0).val ∧ (i 0).val < lo 0 c 4 + 64
          omega, hm 1⟩))
  have h3 : ∀ i ∈ ((View.whole cc0_scratch0).slice (Rect.unit (s := S1024x1024) (k0_off74 c) S32x384.size (k0_off74_inb c))).set, ct.okAcc 3 c (i 0).val (i 1).val (bcc3 c fa g300 g310 g320 i) := by
    unfold bcc3 bcc2 bcc1
    exact frT2 ct c 3 (k0_off74_inb c) (Geo.off74_eq c) _ _ (frT1 ct c 3 (k0_off74_inb c) (Geo.off74_eq c) _ _ (frT0 ct c 3 (k0_off74_inb c) (Geo.off74_eq c) _ _ (h0) (Or.inl (by show lo 0 c 5 + 32 ≤ lo 0 c 4 + (1 - bit 0 4 c) * 32 ∨ lo 0 c 4 + (1 - bit 0 4 c) * 32 + 32 ≤ lo 0 c 5; omega))) (Or.inr (by show 0 + 384 ≤ 384 ∨ 384 + 384 ≤ 0; omega))) (Or.inr (by show 0 + 384 ≤ 768 ∨ 768 + 256 ≤ 0; omega))
  have h6 : ∀ i ∈ ((View.whole cc0_scratch0).slice (Rect.unit (s := S1024x1024) (k0_off74 c) S32x384.size (k0_off74_inb c))).set, ct.okAcc 4 c (i 0).val (i 1).val (bcc6 c fa g300 g310 g320 g301 g311 g321 i) := by
    unfold bcc6 bcc5 bcc4
    exact frM2 ct c 4 (k0_off74_inb c) (Geo.off74_eq c) _ _ (frM1 ct c 4 (k0_off74_inb c) (Geo.off74_eq c) _ _ (stepM0 ct c YA YB laws _ _ (h3) hg301) (Or.inr (by show 0 + 384 ≤ 384 ∨ 384 + 384 ≤ 0; omega))) (Or.inr (by show 0 + 384 ≤ 768 ∨ 768 + 256 ≤ 0; omega))
  have hX : ∀ j : S32x384.Idx, ct.okAcc 4 c (lo 0 c 5 + (j 0).val) (0 + (j 1).val)
      ((Memref.whole cc0_scratch0 : Memref sig .tc .vmem S1024x1024 .f32).view.readAt (Elt F) (RA74 c).toLoadRect (bcc6 c fa g300 g310 g320 g301 g311 g321) j) := fun j => by
    obtain ⟨y, hy, hP⟩ := SegBCore.load_sub_ok (Val := Elt F) cc0_scratch0 (bcc6 c fa g300 g310 g320 g301 g311 g321) (fun i v => ct.okAcc 4 c (i 0).val (i 1).val v)
      (k0_off74_inb c) (Geo.off74_eq c) h6 (k0_off74_inb c) (Geo.off74_eq c) (fun a => ⟨Nat.le_refl _, Nat.le_refl _⟩) j
    have e0 : (y 0).val = lo 0 c 5 + (j 0).val := hy 0
    have e1 : (y 1).val = 0 + (j 1).val := hy 1
    have hP' : ct.okAcc 4 c (y 0).val (y 1).val _ := hP
    rw [e0, e1] at hP'
    exact hP'
  have hY : ∀ j : S32x384.Idx, ct.okSS 4 (peer 0 4 c) (j 0).val (0 + (j 1).val)
      ((Memref.whole cc0_scratch5 : Memref sig .tc .vmem S32x1024 .bf16).view.readAt (Elt F) RC4b0.toLoadRect g4 j) := fun j => by
    obtain ⟨y, hy, hP⟩ := SegBCore.load_sub_ok (Val := Elt F) cc0_scratch5 g4 (fun i v => pRS ct 4 c (sh := S32x1024) i v)
      inb_S32x1024_S32x384_0_0 rfl hg4 inb_S32x1024_S32x384_0_0 rfl (fun a => ⟨Nat.le_refl _, Nat.le_refl _⟩) j
    have hj1 : (j 1).val < 384 := (j 1).isLt
    exact SegBCore.pRS_to_okSS ct 4 0 c rfl y _ _ _ ((hy 0).trans (Nat.zero_add _)) (hy 1) (SegAValP.blk_of_lt (by omega)) hP
  have hpt := SegBValP.out_point_ok ct c YA YB laws 0 (sz := S32x384.size) (q0 := 0)
    (fun q h1 h2 => SegAValP.blk_of_lt (by have h2' : q < 0 + 384 := h2; omega)) _ _ _ (fun j => PayPoint.pay47_at _ _ j) hX hY
  intro i hi
  have hm := (Plumb.mem_slice_unit_whole cc0_stg2_0 (k0_off80_inb c) (Geo.off80_eq c) i).mp hi
  unfold outK0
  refine Plumb.write_unit_whole_forall (Val := Elt F) cc0_stg2_0 o (k0_off74_inb c) _ (Geo.off74_eq c)
    (fun i v => pOut ct (sh := S1024x1024) i v) ?_ i hm
  intro j i' hi'
  have e0 : (i' 0).val = lo 0 c 5 + (j 0).val := hi' 0
  have e1 : (i' 1).val = 0 + (j 1).val := hi' 1
  show ct.okOut (i' 0).val (i' 1).val _
  rw [e0, e1]
  exact hpt j

/-- The result's own rows of column block 1 are right under the contract. -/
theorem out_1 (laws : Laws ct c YA YB) (fa : Buf (Elt F) ((c : Thread nD τ).loc cc0_scratch0)) (g300 g310 g320 g301 g311 g321 : Buf (Elt F) ((c : Thread nD τ).loc cc0_scratch4)) (g4 : Buf (Elt F) ((c : Thread nD τ).loc cc0_scratch5)) (o : Buf (Elt F) ((c : Thread nD τ).loc cc0_stg2_0))
    (hfa : (∀ i ∈ SegBMid.accRows30_0 c, ct.okAcc 3 c (i 0).val (i 1).val (fa i)) ∧ (∀ i ∈ SegBMid.accRows30_1 c, ct.okAcc 3 c (i 0).val (i 1).val (fa i)) ∧ (∀ i ∈ SegBMid.accRows30_2 c, ct.okAcc 3 c (i 0).val (i 1).val (fa i)))
    (hg300 : ∀ i ∈ (dst_rs_3_0_0 (peer 0 3 c)).view.set, pRS ct 3 c (sh := S64x1024) i (g300 i)) (hg310 : ∀ i ∈ (dst_rs_3_1_0 (peer 1 3 c)).view.set, pRS ct 3 c (sh := S64x1024) i (g310 i)) (hg320 : ∀ i ∈ (dst_rs_3_2_0 (peer 2 3 c)).view.set, pRS ct 3 c (sh := S64x1024) i (g320 i)) (hg301 : ∀ i ∈ (dst_rs_3_0_1 (peer 0 3 c)).view.set, pRS ct 3 c (sh := S64x1024) i (g301 i)) (hg311 : ∀ i ∈ (dst_rs_3_1_1 (peer 1 3 c)).view.set, pRS ct 3 c (sh := S64x1024) i (g311 i)) (hg321 : ∀ i ∈ (dst_rs_3_2_1 (peer 2 3 c)).view.set, pRS ct 3 c (sh := S64x1024) i (g321 i))
    (hg4 : ∀ i ∈ (dst_rs_4_1_0 (peer 1 4 c)).view.set, pRS ct 4 c (sh := S32x1024) i (g4 i)) :
    ∀ i ∈ (src_ag_4_1_0 c).view.set, pOut ct (sh := S1024x1024) i (outK1 c (bcc6 c fa g300 g310 g320 g301 g311 g321) g4 o i) := by
  have hb := bit_le_one 1 4 c
  have hl := SegBCore.lo_5 1 c
  have h0 : ∀ i ∈ ((View.whole cc0_scratch0).slice (Rect.unit (s := S1024x1024) (k0_off76 c) S32x384.size (k0_off76_inb c))).set, ct.okAcc 3 c (i 0).val (i 1).val (fa i) := fun i hi => hfa.2.1 i (by
    have hm := (Plumb.mem_slice_unit_whole cc0_scratch0 (k0_off76_inb c) (Geo.off76_eq c) i).mp hi
    exact (Plumb.mem_slice_unit_whole cc0_scratch0 (k0_off64_inb c) (Geo.off64_eq c) i).mpr (Fin.forall_fin_two.mpr
      ⟨by have h' : lo 1 c 5 ≤ (i 0).val ∧ (i 0).val < lo 1 c 5 + 32 := hm 0
          show lo 1 c 4 ≤ (i 0).val ∧ (i 0).val < lo 1 c 4 + 64
          omega, hm 1⟩))
  have h3 : ∀ i ∈ ((View.whole cc0_scratch0).slice (Rect.unit (s := S1024x1024) (k0_off76 c) S32x384.size (k0_off76_inb c))).set, ct.okAcc 3 c (i 0).val (i 1).val (bcc3 c fa g300 g310 g320 i) := by
    unfold bcc3 bcc2 bcc1
    exact frT2 ct c 3 (k0_off76_inb c) (Geo.off76_eq c) _ _ (frT1 ct c 3 (k0_off76_inb c) (Geo.off76_eq c) _ _ (frT0 ct c 3 (k0_off76_inb c) (Geo.off76_eq c) _ _ (h0) (Or.inr (by show 384 + 384 ≤ 0 ∨ 0 + 384 ≤ 384; omega))) (Or.inl (by show lo 1 c 5 + 32 ≤ lo 1 c 4 + (1 - bit 1 4 c) * 32 ∨ lo 1 c 4 + (1 - bit 1 4 c) * 32 + 32 ≤ lo 1 c 5; omega))) (Or.inr (by show 384 + 384 ≤ 768 ∨ 768 + 256 ≤ 384; omega))
  have h6 : ∀ i ∈ ((View.whole cc0_scratch0).slice (Rect.unit (s := S1024x1024) (k0_off76 c) S32x384.size (k0_off76_inb c))).set, ct.okAcc 4 c (i 0).val (i 1).val (bcc6 c fa g300 g310 g320 g301 g311 g321 i) := by
    unfold bcc6 bcc5 bcc4
    exact frM2 ct c 4 (k0_off76_inb c) (Geo.off76_eq c) _ _ (stepM1 ct c YA YB laws _ _ (frM0 ct c 3 (k0_off76_inb c) (Geo.off76_eq c) _ _ (h3) (Or.inr (by show 384 + 384 ≤ 0 ∨ 0 + 384 ≤ 384; omega))) hg311) (Or.inr (by show 384 + 384 ≤ 768 ∨ 768 + 256 ≤ 384; omega))
  have hX : ∀ j : S32x384.Idx, ct.okAcc 4 c (lo 1 c 5 + (j 0).val) (384 + (j 1).val)
      ((Memref.whole cc0_scratch0 : Memref sig .tc .vmem S1024x1024 .f32).view.readAt (Elt F) (RA76 c).toLoadRect (bcc6 c fa g300 g310 g320 g301 g311 g321) j) := fun j => by
    obtain ⟨y, hy, hP⟩ := SegBCore.load_sub_ok (Val := Elt F) cc0_scratch0 (bcc6 c fa g300 g310 g320 g301 g311 g321) (fun i v => ct.okAcc 4 c (i 0).val (i 1).val v)
      (k0_off76_inb c) (Geo.off76_eq c) h6 (k0_off76_inb c) (Geo.off76_eq c) (fun a => ⟨Nat.le_refl _, Nat.le_refl _⟩) j
    have e0 : (y 0).val = lo 1 c 5 + (j 0).val := hy 0
    have e1 : (y 1).val = 384 + (j 1).val := hy 1
    have hP' : ct.okAcc 4 c (y 0).val (y 1).val _ := hP
    rw [e0, e1] at hP'
    exact hP'
  have hY : ∀ j : S32x384.Idx, ct.okSS 4 (peer 1 4 c) (j 0).val (384 + (j 1).val)
      ((Memref.whole cc0_scratch5 : Memref sig .tc .vmem S32x1024 .bf16).view.readAt (Elt F) RC4b1.toLoadRect g4 j) := fun j => by
    obtain ⟨y, hy, hP⟩ := SegBCore.load_sub_ok (Val := Elt F) cc0_scratch5 g4 (fun i v => pRS ct 4 c (sh := S32x1024) i v)
      inb_S32x1024_S32x384_0_384 rfl hg4 inb_S32x1024_S32x384_0_384 rfl (fun a => ⟨Nat.le_refl _, Nat.le_refl _⟩) j
    have hj1 : (j 1).val < 384 := (j 1).isLt
    exact SegBCore.pRS_to_okSS ct 4 1 c rfl y _ _ _ ((hy 0).trans (Nat.zero_add _)) (hy 1) (SegAValP.blk_of_mid (by omega) (by omega)) hP
  have hpt := SegBValP.out_point_ok ct c YA YB laws 1 (sz := S32x384.size) (q0 := 384)
    (fun q h1 h2 => SegAValP.blk_of_mid (by have h2' : q < 384 + 384 := h2; omega) (by have h2' : q < 384 + 384 := h2; omega)) _ _ _ (fun j => PayPoint.pay48_at _ _ j) hX hY
  intro i hi
  have hm := (Plumb.mem_slice_unit_whole cc0_stg2_0 (k0_off81_inb c) (Geo.off81_eq c) i).mp hi
  unfold outK1
  refine Plumb.write_unit_whole_forall (Val := Elt F) cc0_stg2_0 o (k0_off76_inb c) _ (Geo.off76_eq c)
    (fun i v => pOut ct (sh := S1024x1024) i v) ?_ i hm
  intro j i' hi'
  have e0 : (i' 0).val = lo 1 c 5 + (j 0).val := hi' 0
  have e1 : (i' 1).val = 384 + (j 1).val := hi' 1
  show ct.okOut (i' 0).val (i' 1).val _
  rw [e0, e1]
  exact hpt j

/-- The result's own rows of column block 2 are right under the contract. -/
theorem out_2 (laws : Laws ct c YA YB) (fa : Buf (Elt F) ((c : Thread nD τ).loc cc0_scratch0)) (g300 g310 g320 g301 g311 g321 : Buf (Elt F) ((c : Thread nD τ).loc cc0_scratch4)) (g4 : Buf (Elt F) ((c : Thread nD τ).loc cc0_scratch5)) (o : Buf (Elt F) ((c : Thread nD τ).loc cc0_stg2_0))
    (hfa : (∀ i ∈ SegBMid.accRows30_0 c, ct.okAcc 3 c (i 0).val (i 1).val (fa i)) ∧ (∀ i ∈ SegBMid.accRows30_1 c, ct.okAcc 3 c (i 0).val (i 1).val (fa i)) ∧ (∀ i ∈ SegBMid.accRows30_2 c, ct.okAcc 3 c (i 0).val (i 1).val (fa i)))
    (hg300 : ∀ i ∈ (dst_rs_3_0_0 (peer 0 3 c)).view.set, pRS ct 3 c (sh := S64x1024) i (g300 i)) (hg310 : ∀ i ∈ (dst_rs_3_1_0 (peer 1 3 c)).view.set, pRS ct 3 c (sh := S64x1024) i (g310 i)) (hg320 : ∀ i ∈ (dst_rs_3_2_0 (peer 2 3 c)).view.set, pRS ct 3 c (sh := S64x1024) i (g320 i)) (hg301 : ∀ i ∈ (dst_rs_3_0_1 (peer 0 3 c)).view.set, pRS ct 3 c (sh := S64x1024) i (g301 i)) (hg311 : ∀ i ∈ (dst_rs_3_1_1 (peer 1 3 c)).view.set, pRS ct 3 c (sh := S64x1024) i (g311 i)) (hg321 : ∀ i ∈ (dst_rs_3_2_1 (peer 2 3 c)).view.set, pRS ct 3 c (sh := S64x1024) i (g321 i))
    (hg4 : ∀ i ∈ (dst_rs_4_2_0 (peer 2 4 c)).view.set, pRS ct 4 c (sh := S32x1024) i (g4 i)) :
    ∀ i ∈ (src_ag_4_2_0 c).view.set, pOut ct (sh := S1024x1024) i (outK2 c (bcc6 c fa g300 g310 g320 g301 g311 g321) g4 o i) := by
  have hb := bit_le_one 2 4 c
  have hl := SegBCore.lo_5 2 c
  have h0 : ∀ i ∈ ((View.whole cc0_scratch0).slice (Rect.unit (s := S1024x1024) (k0_off78 c) S32x256.size (k0_off78_inb c))).set, ct.okAcc 3 c (i 0).val (i 1).val (fa i) := fun i hi => hfa.2.2 i (by
    have hm := (Plumb.mem_slice_unit_whole cc0_scratch0 (k0_off78_inb c) (Geo.off78_eq c) i).mp hi
    exact (Plumb.mem_slice_unit_whole cc0_scratch0 (k0_off66_inb c) (Geo.off66_eq c) i).mpr (Fin.forall_fin_two.mpr
      ⟨by have h' : lo 2 c 5 ≤ (i 0).val ∧ (i 0).val < lo 2 c 5 + 32 := hm 0
          show lo 2 c 4 ≤ (i 0).val ∧ (i 0).val < lo 2 c 4 + 64
          omega, hm 1⟩))
  have h3 : ∀ i ∈ ((View.whole cc0_scratch0).slice (Rect.unit (s := S1024x1024) (k0_off78 c) S32x256.size (k0_off78_inb c))).set, ct.okAcc 3 c (i 0).val (i 1).val (bcc3 c fa g300 g310 g320 i) := by
    unfold bcc3 bcc2 bcc1
    exact frT2 ct c 3 (k0_off78_inb c) (Geo.off78_eq c) _ _ (frT1 ct c 3 (k0_off78_inb c) (Geo.off78_eq c) _ _ (frT0 ct c 3 (k0_off78_inb c) (Geo.off78_eq c) _ _ (h0) (Or.inr (by show 768 + 256 ≤ 0 ∨ 0 + 384 ≤ 768; omega))) (Or.inr (by show 768 + 256 ≤ 384 ∨ 384 + 384 ≤ 768; omega))) (Or.inl (by show lo 2 c 5 + 32 ≤ lo 2 c 4 + (1 - bit 2 4 c) * 32 ∨ lo 2 c 4 + (1 - bit 2 4 c) * 32 + 32 ≤ lo 2 c 5; omega))
  have h6 : ∀ i ∈ ((View.whole cc0_scratch0).slice (Rect.unit (s := S1024x1024) (k0_off78 c) S32x256.size (k0_off78_inb c))).set, ct.okAcc 4 c (i 0).val (i 1).val (bcc6 c fa g300 g310 g320 g301 g311 g321 i) := by
    unfold bcc6 bcc5 bcc4
    exact stepM2 ct c YA YB laws _ _ (frM1 ct c 3 (k0_off78_inb c) (Geo.off78_eq c) _ _ (frM0 ct c 3 (k0_off78_inb c) (Geo.off78_eq c) _ _ (h3) (Or.inr (by show 768 + 256 ≤ 0 ∨ 0 + 384 ≤ 768; omega))) (Or.inr (by show 768 + 256 ≤ 384 ∨ 384 + 384 ≤ 768; omega))) hg321
  have hX : ∀ j : S32x256.Idx, ct.okAcc 4 c (lo 2 c 5 + (j 0).val) (768 + (j 1).val)
      ((Memref.whole cc0_scratch0 : Memref sig .tc .vmem S1024x1024 .f32).view.readAt (Elt F) (RA78 c).toLoadRect (bcc6 c fa g300 g310 g320 g301 g311 g321) j) := fun j => by
    obtain ⟨y, hy, hP⟩ := SegBCore.load_sub_ok (Val := Elt F) cc0_scratch0 (bcc6 c fa g300 g310 g320 g301 g311 g321) (fun i v => ct.okAcc 4 c (i 0).val (i 1).val v)
      (k0_off78_inb c) (Geo.off78_eq c) h6 (k0_off78_inb c) (Geo.off78_eq c) (fun a => ⟨Nat.le_refl _, Nat.le_refl _⟩) j
    have e0 : (y 0).val = lo 2 c 5 + (j 0).val := hy 0
    have e1 : (y 1).val = 768 + (j 1).val := hy 1
    have hP' : ct.okAcc 4 c (y 0).val (y 1).val _ := hP
    rw [e0, e1] at hP'
    exact hP'
  have hY : ∀ j : S32x256.Idx, ct.okSS 4 (peer 2 4 c) (j 0).val (768 + (j 1).val)
      ((Memref.whole cc0_scratch5 : Memref sig .tc .vmem S32x1024 .bf16).view.readAt (Elt F) RC4b2.toLoadRect g4 j) := fun j => by
    obtain ⟨y, hy, hP⟩ := SegBCore.load_sub_ok (Val := Elt F) cc0_scratch5 g4 (fun i v => pRS ct 4 c (sh := S32x1024) i v)
      inb_S32x1024_S32x256_0_768 rfl hg4 inb_S32x1024_S32x256_0_768 rfl (fun a => ⟨Nat.le_refl _, Nat.le_refl _⟩) j
    have hj1 : (j 1).val < 256 := (j 1).isLt
    exact SegBCore.pRS_to_okSS ct 4 2 c rfl y _ _ _ ((hy 0).trans (Nat.zero_add _)) (hy 1) (SegAValP.blk_of_ge (by omega)) hP
  have hpt := SegBValP.out_point_ok ct c YA YB laws 2 (sz := S32x256.size) (q0 := 768)
    (fun q h1 h2 => SegAValP.blk_of_ge (by have h2' : q < 768 + 256 := h2; omega)) _ _ _ (fun j => PayPoint.pay49_at _ _ j) hX hY
  intro i hi
  have hm := (Plumb.mem_slice_unit_whole cc0_stg2_0 (k0_off82_inb c) (Geo.off82_eq c) i).mp hi
  unfold outK2
  refine Plumb.write_unit_whole_forall (Val := Elt F) cc0_stg2_0 o (k0_off78_inb c) _ (Geo.off78_eq c)
    (fun i v => pOut ct (sh := S1024x1024) i v) ?_ i hm
  intro j i' hi'
  have e0 : (i' 0).val = lo 2 c 5 + (j 0).val := hi' 0
  have e1 : (i' 1).val = 768 + (j 1).val := hi' 1
  show ct.okOut (i' 0).val (i' 1).val _
  rw [e0, e1]
  exact hpt j

end Cert.Kernel.SegB3Val

end
-- ==== Proof.SegB3K.lean ====
/-
  The end of the summing phase: its last stage — per column block the partner's rows added to the half
  that is given away, that half rounded into the send buffer and sent whole —, the kept halves of the
  stage before added, and, the last partner's rows in, the pointwise function applied on the rows the
  device owns.
-/
import proofs.«900879_g7700000000000880_dist_matmul_gelu_kshard_i_m1024_n1024_k512_v7x_i32_bf16_1_alg».proof.Proof.SegsK
import proofs.«900879_g7700000000000880_dist_matmul_gelu_kshard_i_m1024_n1024_k512_v7x_i32_bf16_1_alg».proof.Proof.SendStepK
import proofs.«900879_g7700000000000880_dist_matmul_gelu_kshard_i_m1024_n1024_k512_v7x_i32_bf16_1_alg».proof.Proof.SegBMidK
import proofs.«900879_g7700000000000880_dist_matmul_gelu_kshard_i_m1024_n1024_k512_v7x_i32_bf16_1_alg».proof.Proof.SegB3ValK
import proofs.«900879_g7700000000000880_dist_matmul_gelu_kshard_i_m1024_n1024_k512_v7x_i32_bf16_1_alg».proof.Proof.RegionsRSK
import proofs.«900879_g7700000000000880_dist_matmul_gelu_kshard_i_m1024_n1024_k512_v7x_i32_bf16_1_alg».proof.Proof.RegionsOutK
set_option synthInstance.maxSize 4096
set_option maxRecDepth 65536

noncomputable section

namespace Cert.Kernel.SegB3

open Cert.Kernel Cert.Kernel.Gen Cert.Kernel.Proto Cert.Kernel.Tab Cert.Kernel.Held Cert.Kernel.PayTab
open Cert.Kernel.Sched Cert.Kernel.GhostTab Cert.Kernel.Owed Cert.Kernel.Ghost Cert.Kernel.StateTab
open Cert.Kernel.Laws Cert.Kernel.Cut Cert.Kernel.Segs Cert.Kernel.RegionsRS Cert.Kernel.RegionsOut Cert.Kernel.RegionsCut
open Cert.Kernel.SendStep
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (ct : Contract F) (K : Dev nD × Fin 124 → ℕ)

/-! ## The cells' records, one cell at a time -/

theorem inv_dma (c : Dev nD) (a : Fin 4) (s : Fin 5) (k : Fin 3) (j : Fin 2) (h : usedIx (dsem a s k j).val = true) :
    (records ct K : sProp (MT nD τ sig Unit (Elt F) ℕ UU ℕ)) ⊢
      cellInv ER (sched ct) (K (c, ⟨(dsem a s k j).val, Nat.lt_trans (dsem a s k j).isLt (by decide)⟩)) (dcell c a s k j) := by
  have h0 := inv_at ct K (c, ⟨(dsem a s k j).val, Nat.lt_trans (dsem a s k j).isLt (by decide)⟩)
    (by unfold ourIx; rw [Finset.mem_filter]; exact ⟨Finset.mem_univ _, by unfold ours; rw [h]; exact Bool.or_true _⟩)
  rw [kcell_dma] at h0
  exact h0

theorem reached_dma (c : Dev nD) (a : Fin 4) (s : Fin 5) (k : Fin 3) (j : Fin 2) (h : usedIx (dsem a s k j).val = true) :
    (records ct K : sProp (MT nD τ sig Unit (Elt F) ℕ UU ℕ)) ⊢ reached ER (dcell c a s k j) 0 := by
  have h0 := reached_at ct K (c, ⟨(dsem a s k j).val, Nat.lt_trans (dsem a s k j).isLt (by decide)⟩)
    (by unfold ourIx; rw [Finset.mem_filter]; exact ⟨Finset.mem_univ _, by unfold ours; rw [h]; exact Bool.or_true _⟩)
  rw [kcell_dma] at h0
  exact h0

theorem heldV_open {sh : Shape} {e : EltTy} (d : Dev nD) (v : Memref sig .tc .vmem sh e) (q : PosShare TreeShare)
    (P : v.view.ty.Idx → Elt F v.view.ty.elt → Prop) :
    (heldV (F := F) d v q P : sProp (MT nD τ sig Unit (Elt F) ℕ UU ℕ))
      ⊢ iprop(∃ f : Buf (Elt F) (v.view.loc (d : Thread nD τ)), (v.view.loc (d : Thread nD τ) ↦[v.view.set]{q} f) ∗ ⌜∀ i ∈ v.view.set, P i (f i)⌝) := BI.Entails.refl _
theorem loanV_open {sh : Shape} {e : EltTy} (d : Dev nD) (v : Memref sig .tc .vmem sh e) :
    (loanV (F := F) d v : sProp (MT nD τ sig Unit (Elt F) ℕ UU ℕ))
      ⊢ iprop(∃ f : Buf (Elt F) (v.view.loc (d : Thread nD τ)), (v.view.loc (d : Thread nD τ) ↦[v.view.set]{fullShare} f)) := BI.Entails.refl _

theorem loanV_fold {sh : Shape} {e : EltTy} (d : Dev nD) (v : Memref sig .tc .vmem sh e) (f : Buf (Elt F) (v.view.loc (d : Thread nD τ))) :
    ((v.view.loc (d : Thread nD τ) ↦[v.view.set]{fullShare} f) : sProp (MT nD τ sig Unit (Elt F) ℕ UU ℕ)) ⊢ loanV (F := F) d v := by
  unfold loanV; iintro H; iexists f; iexact H

/-! ## The result's own rows, as the program addresses them -/

theorem off80_eq_off74 : ∀ c : Dev nD, k0_off80 c = k0_off74 c := by decide +kernel
theorem off81_eq_off76 : ∀ c : Dev nD, k0_off81 c = k0_off76 c := by decide +kernel
theorem off82_eq_off78 : ∀ c : Dev nD, k0_off82 c = k0_off78 c := by decide +kernel
abbrev outM_0 (c : Dev nD) : Memref sig .tc .vmem S32x384 .bf16 :=
  (Memref.whole cc0_stg2_0 : Memref sig .tc .vmem S1024x1024 .bf16).slice (Rect.unit (s := S1024x1024) (k0_off74 c) S32x384.size (k0_off74_inb c)) (fun _ => rfl)
theorem outM_0_set (c : Dev nD) : (outM_0 c).view.set = (src_ag_4_0_0 c).view.set := by
  have h : k0_off74 c = k0_off80 c := (off80_eq_off74 c).symm
  refine (View.set_slice_whole _ _).trans (Eq.trans ?_ (View.set_slice_whole _ _).symm)
  congr 3
abbrev outM_1 (c : Dev nD) : Memref sig .tc .vmem S32x384 .bf16 :=
  (Memref.whole cc0_stg2_0 : Memref sig .tc .vmem S1024x1024 .bf16).slice (Rect.unit (s := S1024x1024) (k0_off76 c) S32x384.size (k0_off76_inb c)) (fun _ => rfl)
theorem outM_1_set (c : Dev nD) : (outM_1 c).view.set = (src_ag_4_1_0 c).view.set := by
  have h : k0_off76 c = k0_off81 c := (off81_eq_off76 c).symm
  refine (View.set_slice_whole _ _).trans (Eq.trans ?_ (View.set_slice_whole _ _).symm)
  congr 3
abbrev outM_2 (c : Dev nD) : Memref sig .tc .vmem S32x256 .bf16 :=
  (Memref.whole cc0_stg2_0 : Memref sig .tc .vmem S1024x1024 .bf16).slice (Rect.unit (s := S1024x1024) (k0_off78 c) S32x256.size (k0_off78_inb c)) (fun _ => rfl)
theorem outM_2_set (c : Dev nD) : (outM_2 c).view.set = (src_ag_4_2_0 c).view.set := by
  have h : k0_off78 c = k0_off82 c := (off82_eq_off78 c).symm
  refine (View.set_slice_whole _ _).trans (Eq.trans ?_ (View.set_slice_whole _ _).symm)
  congr 3

theorem heldV_fold {sh : Shape} {e : EltTy} (d : Dev nD) (v : Memref sig .tc .vmem sh e) (q : PosShare TreeShare)
    (P : v.view.ty.Idx → Elt F v.view.ty.elt → Prop) (f : Buf (Elt F) (v.view.loc (d : Thread nD τ))) (h : ∀ i ∈ v.view.set, P i (f i)) :
    ((v.view.loc (d : Thread nD τ) ↦[v.view.set]{q} f) : sProp (MT nD τ sig Unit (Elt F) ℕ UU ℕ)) ⊢ heldV (F := F) d v q P := by
  unfold heldV; iintro H; iexists f; isplitl [H]
  · iexact H
  ipureintro; exact h

variable (c : Dev nD) (YA : S1024x512.Idx → F .f32) (YB : S512x1024.Idx → F .f32)

set_option maxHeartbeats 4000000 in
theorem segB3 (laws : Laws ct c YA YB) {R : Type}
    (T : (Σ' (d0 : Dev nD) (v3 : BitVec 32) (v8 : BitVec 32) (v13 : BitVec 32) (v28 : BitVec 32), BitVec 32) → Prog (TpuEff nD τ sig (Elt F) Λ₀ .tc) R)
    (Kt : R → sProp (MT nD τ sig Unit (Elt F) ℕ UU ℕ)) : SegBMid.SegB3 ct K c YA YB T Kt := by
  unfold SegBMid.SegB3
  intro v3 v4 v5 v6 v7 v8 v9 v10 v11 v12 v13 v14 v15 v16 v17 v18 v20 v22 v24 v26 v28 v611 v663 v715 v827
  unfold SegBMid.rest30
  simp only [k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
  unfold k0_part30_skel k0_part31_skel k0_part32_skel k0_part33_skel k0_part34_skel k0_part35_skel k0_part36_skel k0_part37_skel k0_part38_skel k0_part39_skel
  simp only [Prog.lift, Prog.bind_op, Prog.bind_ret, Prog.pure_eq_ret, bind_assoc, Prog.bind_assoc]
  unfold SegBMid.Pre30 SegBMid.toks30 SegBMid.pos30 SegBMid.closed30 SegBMid.credR30 SegBMid.credS30 SegBMid.land30
  iintro H
  icases H with ⟨Hpre, Hk⟩
  icases Hpre with ⟨#HR, #Hlev, HowE, Htoks, HtoksAG, Hpos, HposAG, Hclosed, HcredR, HcredS, HcredAG, Hidle, HA, HB, Hown, Hacc, Hsomes, Hs10, Hland, HlandAG⟩
  icases HowE with ⟨%W, How⟩
  icases Hpos with ⟨⟨PS300, PR300⟩, ⟨PS301, PR301⟩, ⟨PS310, PR310⟩, ⟨PS311, PR311⟩, ⟨PS320, PR320⟩, ⟨PS321, PR321⟩, ⟨PS400, PR400⟩, ⟨PS410, PR410⟩, ⟨PS420, PR420⟩⟩
  icases HcredR with ⟨CR300, CR301, CR310, CR311, CR320, CR321, CR400, CR410, CR420⟩
  icases HcredS with ⟨CS300, CS301, CS310, CS311, CS320, CS321⟩
  icases Htoks with ⟨⟨TS400, TR400⟩, ⟨TS410, TR410⟩, ⟨TS420, TR420⟩⟩
  icases Hland with ⟨LD400, LD410, LD420⟩
  icases Hclosed with ⟨⟨VS000, VR000⟩, ⟨VS001, VR001⟩, ⟨VS010, VR010⟩, ⟨VS011, VR011⟩, ⟨VS020, VR020⟩, ⟨VS021, VR021⟩, ⟨VS100, VR100⟩, ⟨VS101, VR101⟩, ⟨VS110, VR110⟩, ⟨VS111, VR111⟩, ⟨VS120, VR120⟩, ⟨VS121, VR121⟩, ⟨VS200, VR200⟩, ⟨VS201, VR201⟩, ⟨VS210, VR210⟩, ⟨VS211, VR211⟩, ⟨VS220, VR220⟩, ⟨VS221, VR221⟩⟩
  icases Hsomes with ⟨Hs1, Hs2, Hs3, Hs6, Hs7, Hs8⟩
  icases Hacc with ⟨%fa, Hacc, %hfa⟩
  icases Hown with ⟨Ho0, Ho1, Ho2⟩
  ihave Ho0 := (loanV_open (F := F) c (src_ag_4_0_0 c)) $$ Ho0
  icases Ho0 with ⟨%o0, Ho0⟩
  ihave Ho1 := (loanV_open (F := F) c (src_ag_4_1_0 c)) $$ Ho1
  icases Ho1 with ⟨%o1, Ho1⟩
  ihave Ho2 := (loanV_open (F := F) c (src_ag_4_2_0 c)) $$ Ho2
  icases Ho2 with ⟨%o2, Ho2⟩
  ihave Hcols := (ss_cols_4 (F := F) c) $$ Hs10
  icases Hcols with ⟨Hd0, Hd1, Hd2⟩
  icases Hd0 with ⟨%g100, Hd0⟩
  icases Hd1 with ⟨%g101, Hd1⟩
  icases Hd2 with ⟨%g102, Hd2⟩
  -- the wait on cell (0, 3, 0, 0), and the cell closed
  ihave #MWS300 := (mayWait_cell (F := F) c 0 3 0 0 29 (by decide +kernel)) $$ Hlev
  ihave #HIS300 := (inv_dma ct K c 0 3 0 0 rfl) $$ HR
  iapply (Rounds.wp_wait_rest_token Segs.𝒱₀ ER (sched ct) (c : Thread nD τ) none (κ := (K (c, ⟨(dsem 0 3 0 0).val, Nat.lt_trans (dsem 0 3 0 0).isLt (by decide)⟩))) (sm := SemLoc.dma (dsem 0 3 0 0))
      (wpE_waitDma2_eq Segs.𝒱₀ (c : Thread nD τ) none Set.univ) (Set.mem_univ _) () (O := owedFrom c 29) (W := W) (R := 0) (m := 0) (T := ∅)
      (by rw [Nat.zero_add, expect_dma ct c 0 3 0 0 rfl]; rfl)) $$ [CS300 How PS300]
  · isplitr
    · iexact HIS300
    isplitl [CS300]
    · iexact CS300
    isplitl [How]
    · iexact How
    isplitr
    · iexact MWS300
    iexact PS300
  iintro ⟨How, PS300, -, Hpay⟩
  imod (Rounds.cell_close ER (sched ct) (g := dcell c 0 3 0 0) (Set.mem_univ _) (fun h => h) (R := 1)
    (fun r hr => duties_later ct _ r hr)) $$ [PS300] with VS300
  · isplitr
    · iexact HIS300
    iexact PS300
  ihave BS300 := (Entails.of_eq (show bigSep ((sched ct).duties (dcell c 0 3 0 0) 0 \ ∅) (fun d => (sched ct).payload (dcell c 0 3 0 0) 0 d)
      = loanV c (src_rs_3_0_0 c) from rest_dma ct c 0 3 0 0 rfl)) $$ Hpay
  -- the wait on cell (1, 3, 0, 0), and the cell closed
  ihave #MWR300 := (mayWait_cell (F := F) c 1 3 0 0 29 (by decide +kernel)) $$ Hlev
  ihave #HIR300 := (inv_dma ct K c 1 3 0 0 rfl) $$ HR
  iapply (Rounds.wp_wait_rest_token Segs.𝒱₀ ER (sched ct) (c : Thread nD τ) none (κ := (K (c, ⟨(dsem 1 3 0 0).val, Nat.lt_trans (dsem 1 3 0 0).isLt (by decide)⟩))) (sm := SemLoc.dma (dsem 1 3 0 0))
      (wpE_waitDma2_eq Segs.𝒱₀ (c : Thread nD τ) none Set.univ) (Set.mem_univ _) () (O := owedFrom c 29) (W := (insert (SemLoc.dma (dsem 0 3 0 0), ()) W)) (R := 0) (m := 0) (T := ∅)
      (by rw [Nat.zero_add, expect_dma ct c 1 3 0 0 rfl]; rfl)) $$ [CR300 How PR300]
  · isplitr
    · iexact HIR300
    isplitl [CR300]
    · iexact CR300
    isplitl [How]
    · iexact How
    isplitr
    · iexact MWR300
    iexact PR300
  iintro ⟨How, PR300, -, Hpay⟩
  imod (Rounds.cell_close ER (sched ct) (g := dcell c 1 3 0 0) (Set.mem_univ _) (fun h => h) (R := 1)
    (fun r hr => duties_later ct _ r hr)) $$ [PR300] with VR300
  · isplitr
    · iexact HIR300
    iexact PR300
  ihave BR300 := (Entails.of_eq (show bigSep ((sched ct).duties (dcell c 1 3 0 0) 0 \ ∅) (fun d => (sched ct).payload (dcell c 1 3 0 0) 0 d)
      = heldV c (dst_rs_3_0_0 (peer 0 3 c)) fullShare (fun i v => pRS ct 3 c (sh := S64x1024) i v) from rest_dma ct c 1 3 0 0 rfl)) $$ Hpay
  ihave BR300 := (heldV_open (F := F) c _ fullShare _) $$ BR300
  icases BR300 with ⟨%g300, BR300, %hg300⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch4 : Memref sig .tc .vmem S64x1024 .bf16))
      (S := (dst_rs_3_0_0 (peer 0 3 c)).view.set) (by rw [← rsLoad_3_0_0 c]; exact (View.set_slice _ _).symm.subset)) $$ BR300; iintro BR300
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off68 c) S32x384.size (k0_off68_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch10 : Memref sig .tc .vmem S32x1024 .bf16))
      (S := ssCol_4_0) ((View.set_slice _ _).symm.subset)) $$ Hd0; iintro Hd0
  iapply (wp_store Segs.𝒱₀ (c : Thread nD τ) none Set.univ (m := (Memref.whole cc0_scratch10 : Memref sig .tc .vmem S32x1024 .bf16)) (r := Rect.unit (s := S32x1024) ![0, 0] S32x384.size inb_S32x1024_S32x384_0_0) (Mk := Finset.univ)
      (S := ssCol_4_0) (Finset.Subset.refl _)) $$ Hd0; iintro Hd0
  -- the column block goes to the partner
  ihave LD400 := (loanV_open (F := F) (peer 0 4 c) (dst_rs_4_0_0 c)) $$ LD400
  icases LD400 with ⟨%fd400, LD400⟩
  ihave #HIS400 := (inv_dma ct K c 0 4 0 0 rfl) $$ HR
  ihave #HIR400 := (inv_dma ct K (peer 0 4 c) 1 4 0 0 rfl) $$ HR
  ihave #HrS400 := (reached_dma ct K c 0 4 0 0 rfl) $$ HR
  ihave #HrR400 := (reached_dma ct K (peer 0 4 c) 1 4 0 0 rfl) $$ HR
  iapply (send_step ct (K (c, ⟨(dsem 0 4 0 0).val, Nat.lt_trans (dsem 0 4 0 0).isLt (by decide)⟩)) (K (peer 0 4 c, ⟨(dsem 1 4 0 0).val, Nat.lt_trans (dsem 1 4 0 0).isLt (by decide)⟩)) c _ (peer 0 4 c) (dev_rs_4_0_0 c) (src_rs_4_0_0 c) (dst_rs_4_0_0 c) (dsem 0 4 0 0) (dsem 1 4 0 0)
      (SegB3Val.sendQ0 c (SegB3Val.bcc1 c fa g300) g100) fd400 (owedFrom c 30) (insert (SemLoc.dma (dsem 1 3 0 0), ()) (insert (SemLoc.dma (dsem 0 3 0 0), ()) W))
      (fun i v => pRS ct 4 (peer 0 4 c) (sh := S32x1024) i v)
      (duties_dma ct c 0 4 0 0 rfl) (duties_dma ct (peer 0 4 c) 1 4 0 0 rfl) (amtIx (dsem 1 4 0 0).val) rfl rfl rfl rfl
      (by show recv_rs_4_0_0 ct (peer 0 4 c) = _; unfold recv_rs_4_0_0; rw [peer_peer])
      (SegB3Val.sent_4_0 ct c YA YB laws fa g300 g100 fd400 hfa hg300)) $$ [Hd0 LD400 How TS400 TR400]
  · isplitr
    · iexact HIS400
    isplitr
    · iexact HIR400
    isplitl [Hd0]
    · iexact Hd0
    isplitl [LD400]
    · iexact LD400
    isplitl [How]
    · iexact How
    isplitl [TS400]
    · iexact TS400
    isplitr
    · iexact HrS400
    isplitl [TR400]
    · iexact TR400
    iexact HrR400
  iintro ⟨CS400, How⟩
  -- the wait on cell (0, 3, 1, 0), and the cell closed
  ihave #MWS310 := (mayWait_cell (F := F) c 0 3 1 0 30 (by decide +kernel)) $$ Hlev
  ihave #HIS310 := (inv_dma ct K c 0 3 1 0 rfl) $$ HR
  iapply (Rounds.wp_wait_rest_token Segs.𝒱₀ ER (sched ct) (c : Thread nD τ) none (κ := (K (c, ⟨(dsem 0 3 1 0).val, Nat.lt_trans (dsem 0 3 1 0).isLt (by decide)⟩))) (sm := SemLoc.dma (dsem 0 3 1 0))
      (wpE_waitDma2_eq Segs.𝒱₀ (c : Thread nD τ) none Set.univ) (Set.mem_univ _) () (O := owedFrom c 30) (W := (insert (SemLoc.dma (dsem 1 3 0 0), ()) (insert (SemLoc.dma (dsem 0 3 0 0), ()) W))) (R := 0) (m := 0) (T := ∅)
      (by rw [Nat.zero_add, expect_dma ct c 0 3 1 0 rfl]; rfl)) $$ [CS310 How PS310]
  · isplitr
    · iexact HIS310
    isplitl [CS310]
    · iexact CS310
    isplitl [How]
    · iexact How
    isplitr
    · iexact MWS310
    iexact PS310
  iintro ⟨How, PS310, -, Hpay⟩
  imod (Rounds.cell_close ER (sched ct) (g := dcell c 0 3 1 0) (Set.mem_univ _) (fun h => h) (R := 1)
    (fun r hr => duties_later ct _ r hr)) $$ [PS310] with VS310
  · isplitr
    · iexact HIS310
    iexact PS310
  ihave BS310 := (Entails.of_eq (show bigSep ((sched ct).duties (dcell c 0 3 1 0) 0 \ ∅) (fun d => (sched ct).payload (dcell c 0 3 1 0) 0 d)
      = loanV c (src_rs_3_1_0 c) from rest_dma ct c 0 3 1 0 rfl)) $$ Hpay
  -- the wait on cell (1, 3, 1, 0), and the cell closed
  ihave #MWR310 := (mayWait_cell (F := F) c 1 3 1 0 30 (by decide +kernel)) $$ Hlev
  ihave #HIR310 := (inv_dma ct K c 1 3 1 0 rfl) $$ HR
  iapply (Rounds.wp_wait_rest_token Segs.𝒱₀ ER (sched ct) (c : Thread nD τ) none (κ := (K (c, ⟨(dsem 1 3 1 0).val, Nat.lt_trans (dsem 1 3 1 0).isLt (by decide)⟩))) (sm := SemLoc.dma (dsem 1 3 1 0))
      (wpE_waitDma2_eq Segs.𝒱₀ (c : Thread nD τ) none Set.univ) (Set.mem_univ _) () (O := owedFrom c 30) (W := (insert (SemLoc.dma (dsem 0 3 1 0), ()) (insert (SemLoc.dma (dsem 1 3 0 0), ()) (insert (SemLoc.dma (dsem 0 3 0 0), ()) W)))) (R := 0) (m := 0) (T := ∅)
      (by rw [Nat.zero_add, expect_dma ct c 1 3 1 0 rfl]; rfl)) $$ [CR310 How PR310]
  · isplitr
    · iexact HIR310
    isplitl [CR310]
    · iexact CR310
    isplitl [How]
    · iexact How
    isplitr
    · iexact MWR310
    iexact PR310
  iintro ⟨How, PR310, -, Hpay⟩
  imod (Rounds.cell_close ER (sched ct) (g := dcell c 1 3 1 0) (Set.mem_univ _) (fun h => h) (R := 1)
    (fun r hr => duties_later ct _ r hr)) $$ [PR310] with VR310
  · isplitr
    · iexact HIR310
    iexact PR310
  ihave BR310 := (Entails.of_eq (show bigSep ((sched ct).duties (dcell c 1 3 1 0) 0 \ ∅) (fun d => (sched ct).payload (dcell c 1 3 1 0) 0 d)
      = heldV c (dst_rs_3_1_0 (peer 1 3 c)) fullShare (fun i v => pRS ct 3 c (sh := S64x1024) i v) from rest_dma ct c 1 3 1 0 rfl)) $$ Hpay
  ihave BR310 := (heldV_open (F := F) c _ fullShare _) $$ BR310
  icases BR310 with ⟨%g310, BR310, %hg310⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch4 : Memref sig .tc .vmem S64x1024 .bf16))
      (S := (dst_rs_3_1_0 (peer 1 3 c)).view.set) (by rw [← rsLoad_3_1_0 c]; exact (View.set_slice _ _).symm.subset)) $$ BR310; iintro BR310
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off70 c) S32x384.size (k0_off70_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch10 : Memref sig .tc .vmem S32x1024 .bf16))
      (S := ssCol_4_1) ((View.set_slice _ _).symm.subset)) $$ Hd1; iintro Hd1
  iapply (wp_store Segs.𝒱₀ (c : Thread nD τ) none Set.univ (m := (Memref.whole cc0_scratch10 : Memref sig .tc .vmem S32x1024 .bf16)) (r := Rect.unit (s := S32x1024) ![0, 384] S32x384.size inb_S32x1024_S32x384_0_384) (Mk := Finset.univ)
      (S := ssCol_4_1) (Finset.Subset.refl _)) $$ Hd1; iintro Hd1
  -- the column block goes to the partner
  ihave LD410 := (loanV_open (F := F) (peer 1 4 c) (dst_rs_4_1_0 c)) $$ LD410
  icases LD410 with ⟨%fd410, LD410⟩
  ihave #HIS410 := (inv_dma ct K c 0 4 1 0 rfl) $$ HR
  ihave #HIR410 := (inv_dma ct K (peer 1 4 c) 1 4 1 0 rfl) $$ HR
  ihave #HrS410 := (reached_dma ct K c 0 4 1 0 rfl) $$ HR
  ihave #HrR410 := (reached_dma ct K (peer 1 4 c) 1 4 1 0 rfl) $$ HR
  iapply (send_step ct (K (c, ⟨(dsem 0 4 1 0).val, Nat.lt_trans (dsem 0 4 1 0).isLt (by decide)⟩)) (K (peer 1 4 c, ⟨(dsem 1 4 1 0).val, Nat.lt_trans (dsem 1 4 1 0).isLt (by decide)⟩)) c _ (peer 1 4 c) (dev_rs_4_1_0 c) (src_rs_4_1_0 c) (dst_rs_4_1_0 c) (dsem 0 4 1 0) (dsem 1 4 1 0)
      (SegB3Val.sendQ1 c (SegB3Val.bcc2 c fa g300 g310) g101) fd410 (owedFrom c 31) (insert (SemLoc.dma (dsem 1 3 1 0), ()) (insert (SemLoc.dma (dsem 0 3 1 0), ()) (insert (SemLoc.dma (dsem 1 3 0 0), ()) (insert (SemLoc.dma (dsem 0 3 0 0), ()) W))))
      (fun i v => pRS ct 4 (peer 1 4 c) (sh := S32x1024) i v)
      (duties_dma ct c 0 4 1 0 rfl) (duties_dma ct (peer 1 4 c) 1 4 1 0 rfl) (amtIx (dsem 1 4 1 0).val) rfl rfl rfl rfl
      (by show recv_rs_4_1_0 ct (peer 1 4 c) = _; unfold recv_rs_4_1_0; rw [peer_peer])
      (SegB3Val.sent_4_1 ct c YA YB laws fa g300 g310 g101 fd410 hfa hg300 hg310)) $$ [Hd1 LD410 How TS410 TR410]
  · isplitr
    · iexact HIS410
    isplitr
    · iexact HIR410
    isplitl [Hd1]
    · iexact Hd1
    isplitl [LD410]
    · iexact LD410
    isplitl [How]
    · iexact How
    isplitl [TS410]
    · iexact TS410
    isplitr
    · iexact HrS410
    isplitl [TR410]
    · iexact TR410
    iexact HrR410
  iintro ⟨CS410, How⟩
  -- the wait on cell (0, 3, 2, 0), and the cell closed
  ihave #MWS320 := (mayWait_cell (F := F) c 0 3 2 0 31 (by decide +kernel)) $$ Hlev
  ihave #HIS320 := (inv_dma ct K c 0 3 2 0 rfl) $$ HR
  iapply (Rounds.wp_wait_rest_token Segs.𝒱₀ ER (sched ct) (c : Thread nD τ) none (κ := (K (c, ⟨(dsem 0 3 2 0).val, Nat.lt_trans (dsem 0 3 2 0).isLt (by decide)⟩))) (sm := SemLoc.dma (dsem 0 3 2 0))
      (wpE_waitDma2_eq Segs.𝒱₀ (c : Thread nD τ) none Set.univ) (Set.mem_univ _) () (O := owedFrom c 31) (W := (insert (SemLoc.dma (dsem 1 3 1 0), ()) (insert (SemLoc.dma (dsem 0 3 1 0), ()) (insert (SemLoc.dma (dsem 1 3 0 0), ()) (insert (SemLoc.dma (dsem 0 3 0 0), ()) W))))) (R := 0) (m := 0) (T := ∅)
      (by rw [Nat.zero_add, expect_dma ct c 0 3 2 0 rfl]; rfl)) $$ [CS320 How PS320]
  · isplitr
    · iexact HIS320
    isplitl [CS320]
    · iexact CS320
    isplitl [How]
    · iexact How
    isplitr
    · iexact MWS320
    iexact PS320
  iintro ⟨How, PS320, -, Hpay⟩
  imod (Rounds.cell_close ER (sched ct) (g := dcell c 0 3 2 0) (Set.mem_univ _) (fun h => h) (R := 1)
    (fun r hr => duties_later ct _ r hr)) $$ [PS320] with VS320
  · isplitr
    · iexact HIS320
    iexact PS320
  ihave BS320 := (Entails.of_eq (show bigSep ((sched ct).duties (dcell c 0 3 2 0) 0 \ ∅) (fun d => (sched ct).payload (dcell c 0 3 2 0) 0 d)
      = loanV c (src_rs_3_2_0 c) from rest_dma ct c 0 3 2 0 rfl)) $$ Hpay
  -- the wait on cell (1, 3, 2, 0), and the cell closed
  ihave #MWR320 := (mayWait_cell (F := F) c 1 3 2 0 31 (by decide +kernel)) $$ Hlev
  ihave #HIR320 := (inv_dma ct K c 1 3 2 0 rfl) $$ HR
  iapply (Rounds.wp_wait_rest_token Segs.𝒱₀ ER (sched ct) (c : Thread nD τ) none (κ := (K (c, ⟨(dsem 1 3 2 0).val, Nat.lt_trans (dsem 1 3 2 0).isLt (by decide)⟩))) (sm := SemLoc.dma (dsem 1 3 2 0))
      (wpE_waitDma2_eq Segs.𝒱₀ (c : Thread nD τ) none Set.univ) (Set.mem_univ _) () (O := owedFrom c 31) (W := (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W)))))) (R := 0) (m := 0) (T := ∅)
      (by rw [Nat.zero_add, expect_dma ct c 1 3 2 0 rfl]; rfl)) $$ [CR320 How PR320]
  · isplitr
    · iexact HIR320
    isplitl [CR320]
    · iexact CR320
    isplitl [How]
    · iexact How
    isplitr
    · iexact MWR320
    iexact PR320
  iintro ⟨How, PR320, -, Hpay⟩
  imod (Rounds.cell_close ER (sched ct) (g := dcell c 1 3 2 0) (Set.mem_univ _) (fun h => h) (R := 1)
    (fun r hr => duties_later ct _ r hr)) $$ [PR320] with VR320
  · isplitr
    · iexact HIR320
    iexact PR320
  ihave BR320 := (Entails.of_eq (show bigSep ((sched ct).duties (dcell c 1 3 2 0) 0 \ ∅) (fun d => (sched ct).payload (dcell c 1 3 2 0) 0 d)
      = heldV c (dst_rs_3_2_0 (peer 2 3 c)) fullShare (fun i v => pRS ct 3 c (sh := S64x1024) i v) from rest_dma ct c 1 3 2 0 rfl)) $$ Hpay
  ihave BR320 := (heldV_open (F := F) c _ fullShare _) $$ BR320
  icases BR320 with ⟨%g320, BR320, %hg320⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch4 : Memref sig .tc .vmem S64x1024 .bf16))
      (S := (dst_rs_3_2_0 (peer 2 3 c)).view.set) (by rw [← rsLoad_3_2_0 c]; exact (View.set_slice _ _).symm.subset)) $$ BR320; iintro BR320
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off72 c) S32x256.size (k0_off72_inb c)) (Mk := Finset.univ) (Finset.subset_univ _)) $$ Hacc; iintro Hacc
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch10 : Memref sig .tc .vmem S32x1024 .bf16))
      (S := ssCol_4_2) ((View.set_slice _ _).symm.subset)) $$ Hd2; iintro Hd2
  iapply (wp_store Segs.𝒱₀ (c : Thread nD τ) none Set.univ (m := (Memref.whole cc0_scratch10 : Memref sig .tc .vmem S32x1024 .bf16)) (r := Rect.unit (s := S32x1024) ![0, 768] S32x256.size inb_S32x1024_S32x256_0_768) (Mk := Finset.univ)
      (S := ssCol_4_2) (Finset.Subset.refl _)) $$ Hd2; iintro Hd2
  -- the column block goes to the partner
  ihave LD420 := (loanV_open (F := F) (peer 2 4 c) (dst_rs_4_2_0 c)) $$ LD420
  icases LD420 with ⟨%fd420, LD420⟩
  ihave #HIS420 := (inv_dma ct K c 0 4 2 0 rfl) $$ HR
  ihave #HIR420 := (inv_dma ct K (peer 2 4 c) 1 4 2 0 rfl) $$ HR
  ihave #HrS420 := (reached_dma ct K c 0 4 2 0 rfl) $$ HR
  ihave #HrR420 := (reached_dma ct K (peer 2 4 c) 1 4 2 0 rfl) $$ HR
  iapply (send_step ct (K (c, ⟨(dsem 0 4 2 0).val, Nat.lt_trans (dsem 0 4 2 0).isLt (by decide)⟩)) (K (peer 2 4 c, ⟨(dsem 1 4 2 0).val, Nat.lt_trans (dsem 1 4 2 0).isLt (by decide)⟩)) c _ (peer 2 4 c) (dev_rs_4_2_0 c) (src_rs_4_2_0 c) (dst_rs_4_2_0 c) (dsem 0 4 2 0) (dsem 1 4 2 0)
      (SegB3Val.sendQ2 c (SegB3Val.bcc3 c fa g300 g310 g320) g102) fd420 (owedFrom c 32) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W))))))
      (fun i v => pRS ct 4 (peer 2 4 c) (sh := S32x1024) i v)
      (duties_dma ct c 0 4 2 0 rfl) (duties_dma ct (peer 2 4 c) 1 4 2 0 rfl) (amtIx (dsem 1 4 2 0).val) rfl rfl rfl rfl
      (by show recv_rs_4_2_0 ct (peer 2 4 c) = _; unfold recv_rs_4_2_0; rw [peer_peer])
      (SegB3Val.sent_4_2 ct c YA YB laws fa g300 g310 g320 g102 fd420 hfa hg300 hg310 hg320)) $$ [Hd2 LD420 How TS420 TR420]
  · isplitr
    · iexact HIS420
    isplitr
    · iexact HIR420
    isplitl [Hd2]
    · iexact Hd2
    isplitl [LD420]
    · iexact LD420
    isplitl [How]
    · iexact How
    isplitl [TS420]
    · iexact TS420
    isplitr
    · iexact HrS420
    isplitl [TR420]
    · iexact TR420
    iexact HrR420
  iintro ⟨CS420, How⟩
  -- the wait on cell (0, 3, 0, 1), and the cell closed
  ihave #MWS301 := (mayWait_cell (F := F) c 0 3 0 1 32 (by decide +kernel)) $$ Hlev
  ihave #HIS301 := (inv_dma ct K c 0 3 0 1 rfl) $$ HR
  iapply (Rounds.wp_wait_rest_token Segs.𝒱₀ ER (sched ct) (c : Thread nD τ) none (κ := (K (c, ⟨(dsem 0 3 0 1).val, Nat.lt_trans (dsem 0 3 0 1).isLt (by decide)⟩))) (sm := SemLoc.dma (dsem 0 3 0 1))
      (wpE_waitDma2_eq Segs.𝒱₀ (c : Thread nD τ) none Set.univ) (Set.mem_univ _) () (O := owedFrom c 32) (W := (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W))))))) (R := 0) (m := 0) (T := ∅)
      (by rw [Nat.zero_add, expect_dma ct c 0 3 0 1 rfl]; rfl)) $$ [CS301 How PS301]
  · isplitr
    · iexact HIS301
    isplitl [CS301]
    · iexact CS301
    isplitl [How]
    · iexact How
    isplitr
    · iexact MWS301
    iexact PS301
  iintro ⟨How, PS301, -, Hpay⟩
  imod (Rounds.cell_close ER (sched ct) (g := dcell c 0 3 0 1) (Set.mem_univ _) (fun h => h) (R := 1)
    (fun r hr => duties_later ct _ r hr)) $$ [PS301] with VS301
  · isplitr
    · iexact HIS301
    iexact PS301
  ihave BS301 := (Entails.of_eq (show bigSep ((sched ct).duties (dcell c 0 3 0 1) 0 \ ∅) (fun d => (sched ct).payload (dcell c 0 3 0 1) 0 d)
      = loanV c (src_rs_3_0_1 c) from rest_dma ct c 0 3 0 1 rfl)) $$ Hpay
  -- the wait on cell (1, 3, 0, 1), and the cell closed
  ihave #MWR301 := (mayWait_cell (F := F) c 1 3 0 1 32 (by decide +kernel)) $$ Hlev
  ihave #HIR301 := (inv_dma ct K c 1 3 0 1 rfl) $$ HR
  iapply (Rounds.wp_wait_rest_token Segs.𝒱₀ ER (sched ct) (c : Thread nD τ) none (κ := (K (c, ⟨(dsem 1 3 0 1).val, Nat.lt_trans (dsem 1 3 0 1).isLt (by decide)⟩))) (sm := SemLoc.dma (dsem 1 3 0 1))
      (wpE_waitDma2_eq Segs.𝒱₀ (c : Thread nD τ) none Set.univ) (Set.mem_univ _) () (O := owedFrom c 32) (W := (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W)))))))) (R := 0) (m := 0) (T := ∅)
      (by rw [Nat.zero_add, expect_dma ct c 1 3 0 1 rfl]; rfl)) $$ [CR301 How PR301]
  · isplitr
    · iexact HIR301
    isplitl [CR301]
    · iexact CR301
    isplitl [How]
    · iexact How
    isplitr
    · iexact MWR301
    iexact PR301
  iintro ⟨How, PR301, -, Hpay⟩
  imod (Rounds.cell_close ER (sched ct) (g := dcell c 1 3 0 1) (Set.mem_univ _) (fun h => h) (R := 1)
    (fun r hr => duties_later ct _ r hr)) $$ [PR301] with VR301
  · isplitr
    · iexact HIR301
    iexact PR301
  ihave BR301 := (Entails.of_eq (show bigSep ((sched ct).duties (dcell c 1 3 0 1) 0 \ ∅) (fun d => (sched ct).payload (dcell c 1 3 0 1) 0 d)
      = heldV c (dst_rs_3_0_1 (peer 0 3 c)) fullShare (fun i v => pRS ct 3 c (sh := S64x1024) i v) from rest_dma ct c 1 3 0 1 rfl)) $$ Hpay
  ihave BR301 := (heldV_open (F := F) c _ fullShare _) $$ BR301
  icases BR301 with ⟨%g301, BR301, %hg301⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch4 : Memref sig .tc .vmem S64x1024 .bf16))
      (S := (dst_rs_3_0_1 (peer 0 3 c)).view.set) (by rw [← rsLoad_3_0_1 c]; exact (View.set_slice _ _).symm.subset)) $$ BR301; iintro BR301
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off74 c) S32x384.size (k0_off74_inb c)) (Mk := Finset.univ) (Finset.subset_univ _)) $$ Hacc; iintro Hacc
  -- the wait on cell (0, 3, 1, 1), and the cell closed
  ihave #MWS311 := (mayWait_cell (F := F) c 0 3 1 1 32 (by decide +kernel)) $$ Hlev
  ihave #HIS311 := (inv_dma ct K c 0 3 1 1 rfl) $$ HR
  iapply (Rounds.wp_wait_rest_token Segs.𝒱₀ ER (sched ct) (c : Thread nD τ) none (κ := (K (c, ⟨(dsem 0 3 1 1).val, Nat.lt_trans (dsem 0 3 1 1).isLt (by decide)⟩))) (sm := SemLoc.dma (dsem 0 3 1 1))
      (wpE_waitDma2_eq Segs.𝒱₀ (c : Thread nD τ) none Set.univ) (Set.mem_univ _) () (O := owedFrom c 32) (W := (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W))))))))) (R := 0) (m := 0) (T := ∅)
      (by rw [Nat.zero_add, expect_dma ct c 0 3 1 1 rfl]; rfl)) $$ [CS311 How PS311]
  · isplitr
    · iexact HIS311
    isplitl [CS311]
    · iexact CS311
    isplitl [How]
    · iexact How
    isplitr
    · iexact MWS311
    iexact PS311
  iintro ⟨How, PS311, -, Hpay⟩
  imod (Rounds.cell_close ER (sched ct) (g := dcell c 0 3 1 1) (Set.mem_univ _) (fun h => h) (R := 1)
    (fun r hr => duties_later ct _ r hr)) $$ [PS311] with VS311
  · isplitr
    · iexact HIS311
    iexact PS311
  ihave BS311 := (Entails.of_eq (show bigSep ((sched ct).duties (dcell c 0 3 1 1) 0 \ ∅) (fun d => (sched ct).payload (dcell c 0 3 1 1) 0 d)
      = loanV c (src_rs_3_1_1 c) from rest_dma ct c 0 3 1 1 rfl)) $$ Hpay
  -- the wait on cell (1, 3, 1, 1), and the cell closed
  ihave #MWR311 := (mayWait_cell (F := F) c 1 3 1 1 32 (by decide +kernel)) $$ Hlev
  ihave #HIR311 := (inv_dma ct K c 1 3 1 1 rfl) $$ HR
  iapply (Rounds.wp_wait_rest_token Segs.𝒱₀ ER (sched ct) (c : Thread nD τ) none (κ := (K (c, ⟨(dsem 1 3 1 1).val, Nat.lt_trans (dsem 1 3 1 1).isLt (by decide)⟩))) (sm := SemLoc.dma (dsem 1 3 1 1))
      (wpE_waitDma2_eq Segs.𝒱₀ (c : Thread nD τ) none Set.univ) (Set.mem_univ _) () (O := owedFrom c 32) (W := (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W)))))))))) (R := 0) (m := 0) (T := ∅)
      (by rw [Nat.zero_add, expect_dma ct c 1 3 1 1 rfl]; rfl)) $$ [CR311 How PR311]
  · isplitr
    · iexact HIR311
    isplitl [CR311]
    · iexact CR311
    isplitl [How]
    · iexact How
    isplitr
    · iexact MWR311
    iexact PR311
  iintro ⟨How, PR311, -, Hpay⟩
  imod (Rounds.cell_close ER (sched ct) (g := dcell c 1 3 1 1) (Set.mem_univ _) (fun h => h) (R := 1)
    (fun r hr => duties_later ct _ r hr)) $$ [PR311] with VR311
  · isplitr
    · iexact HIR311
    iexact PR311
  ihave BR311 := (Entails.of_eq (show bigSep ((sched ct).duties (dcell c 1 3 1 1) 0 \ ∅) (fun d => (sched ct).payload (dcell c 1 3 1 1) 0 d)
      = heldV c (dst_rs_3_1_1 (peer 1 3 c)) fullShare (fun i v => pRS ct 3 c (sh := S64x1024) i v) from rest_dma ct c 1 3 1 1 rfl)) $$ Hpay
  ihave BR311 := (heldV_open (F := F) c _ fullShare _) $$ BR311
  icases BR311 with ⟨%g311, BR311, %hg311⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch4 : Memref sig .tc .vmem S64x1024 .bf16))
      (S := (dst_rs_3_1_1 (peer 1 3 c)).view.set) (by rw [← rsLoad_3_1_1 c]; exact (View.set_slice _ _).symm.subset)) $$ BR311; iintro BR311
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off76 c) S32x384.size (k0_off76_inb c)) (Mk := Finset.univ) (Finset.subset_univ _)) $$ Hacc; iintro Hacc
  -- the wait on cell (0, 3, 2, 1), and the cell closed
  ihave #MWS321 := (mayWait_cell (F := F) c 0 3 2 1 32 (by decide +kernel)) $$ Hlev
  ihave #HIS321 := (inv_dma ct K c 0 3 2 1 rfl) $$ HR
  iapply (Rounds.wp_wait_rest_token Segs.𝒱₀ ER (sched ct) (c : Thread nD τ) none (κ := (K (c, ⟨(dsem 0 3 2 1).val, Nat.lt_trans (dsem 0 3 2 1).isLt (by decide)⟩))) (sm := SemLoc.dma (dsem 0 3 2 1))
      (wpE_waitDma2_eq Segs.𝒱₀ (c : Thread nD τ) none Set.univ) (Set.mem_univ _) () (O := owedFrom c 32) (W := (insert (SemLoc.dma (dsem 1 3 1 1), ()) (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W))))))))))) (R := 0) (m := 0) (T := ∅)
      (by rw [Nat.zero_add, expect_dma ct c 0 3 2 1 rfl]; rfl)) $$ [CS321 How PS321]
  · isplitr
    · iexact HIS321
    isplitl [CS321]
    · iexact CS321
    isplitl [How]
    · iexact How
    isplitr
    · iexact MWS321
    iexact PS321
  iintro ⟨How, PS321, -, Hpay⟩
  imod (Rounds.cell_close ER (sched ct) (g := dcell c 0 3 2 1) (Set.mem_univ _) (fun h => h) (R := 1)
    (fun r hr => duties_later ct _ r hr)) $$ [PS321] with VS321
  · isplitr
    · iexact HIS321
    iexact PS321
  ihave BS321 := (Entails.of_eq (show bigSep ((sched ct).duties (dcell c 0 3 2 1) 0 \ ∅) (fun d => (sched ct).payload (dcell c 0 3 2 1) 0 d)
      = loanV c (src_rs_3_2_1 c) from rest_dma ct c 0 3 2 1 rfl)) $$ Hpay
  -- the wait on cell (1, 3, 2, 1), and the cell closed
  ihave #MWR321 := (mayWait_cell (F := F) c 1 3 2 1 32 (by decide +kernel)) $$ Hlev
  ihave #HIR321 := (inv_dma ct K c 1 3 2 1 rfl) $$ HR
  iapply (Rounds.wp_wait_rest_token Segs.𝒱₀ ER (sched ct) (c : Thread nD τ) none (κ := (K (c, ⟨(dsem 1 3 2 1).val, Nat.lt_trans (dsem 1 3 2 1).isLt (by decide)⟩))) (sm := SemLoc.dma (dsem 1 3 2 1))
      (wpE_waitDma2_eq Segs.𝒱₀ (c : Thread nD τ) none Set.univ) (Set.mem_univ _) () (O := owedFrom c 32) (W := (insert (SemLoc.dma (dsem 0 3 2 1), ()) (insert (SemLoc.dma (dsem 1 3 1 1), ()) (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W)))))))))))) (R := 0) (m := 0) (T := ∅)
      (by rw [Nat.zero_add, expect_dma ct c 1 3 2 1 rfl]; rfl)) $$ [CR321 How PR321]
  · isplitr
    · iexact HIR321
    isplitl [CR321]
    · iexact CR321
    isplitl [How]
    · iexact How
    isplitr
    · iexact MWR321
    iexact PR321
  iintro ⟨How, PR321, -, Hpay⟩
  imod (Rounds.cell_close ER (sched ct) (g := dcell c 1 3 2 1) (Set.mem_univ _) (fun h => h) (R := 1)
    (fun r hr => duties_later ct _ r hr)) $$ [PR321] with VR321
  · isplitr
    · iexact HIR321
    iexact PR321
  ihave BR321 := (Entails.of_eq (show bigSep ((sched ct).duties (dcell c 1 3 2 1) 0 \ ∅) (fun d => (sched ct).payload (dcell c 1 3 2 1) 0 d)
      = heldV c (dst_rs_3_2_1 (peer 2 3 c)) fullShare (fun i v => pRS ct 3 c (sh := S64x1024) i v) from rest_dma ct c 1 3 2 1 rfl)) $$ Hpay
  ihave BR321 := (heldV_open (F := F) c _ fullShare _) $$ BR321
  icases BR321 with ⟨%g321, BR321, %hg321⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch4 : Memref sig .tc .vmem S64x1024 .bf16))
      (S := (dst_rs_3_2_1 (peer 2 3 c)).view.set) (by rw [← rsLoad_3_2_1 c]; exact (View.set_slice _ _).symm.subset)) $$ BR321; iintro BR321
  iapply (wp_load Segs.𝒱₀ (c : Thread nD τ) none Set.univ (m := (Memref.whole cc0_scratch0 : Memref sig .tc .vmem S1024x1024 .f32)) (Finset.subset_univ _)) $$ Hacc; iintro Hacc
  iapply (wp_store Segs.𝒱₀ (c : Thread nD τ) none Set.univ (m := (Memref.whole cc0_scratch0 : Memref sig .tc .vmem S1024x1024 .f32)) (r := Rect.unit (s := S1024x1024) (k0_off78 c) S32x256.size (k0_off78_inb c)) (Mk := Finset.univ) (Finset.subset_univ _)) $$ Hacc; iintro Hacc
  -- the wait on cell (0, 4, 0, 0), and the cell closed
  ihave #MWS400 := (mayWait_cell (F := F) c 0 4 0 0 32 (by decide +kernel)) $$ Hlev
  ihave #HIS400 := (inv_dma ct K c 0 4 0 0 rfl) $$ HR
  iapply (Rounds.wp_wait_rest_token Segs.𝒱₀ ER (sched ct) (c : Thread nD τ) none (κ := (K (c, ⟨(dsem 0 4 0 0).val, Nat.lt_trans (dsem 0 4 0 0).isLt (by decide)⟩))) (sm := SemLoc.dma (dsem 0 4 0 0))
      (wpE_waitDma2_eq Segs.𝒱₀ (c : Thread nD τ) none Set.univ) (Set.mem_univ _) () (O := owedFrom c 32) (W := (insert (SemLoc.dma (dsem 1 3 2 1), ()) (insert (SemLoc.dma (dsem 0 3 2 1), ()) (insert (SemLoc.dma (dsem 1 3 1 1), ()) (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W))))))))))))) (R := 0) (m := 0) (T := ∅)
      (by rw [Nat.zero_add, expect_dma ct c 0 4 0 0 rfl]; rfl)) $$ [CS400 How PS400]
  · isplitr
    · iexact HIS400
    isplitl [CS400]
    · iexact CS400
    isplitl [How]
    · iexact How
    isplitr
    · iexact MWS400
    iexact PS400
  iintro ⟨How, PS400, -, Hpay⟩
  imod (Rounds.cell_close ER (sched ct) (g := dcell c 0 4 0 0) (Set.mem_univ _) (fun h => h) (R := 1)
    (fun r hr => duties_later ct _ r hr)) $$ [PS400] with VS400
  · isplitr
    · iexact HIS400
    iexact PS400
  ihave BS400 := (Entails.of_eq (show bigSep ((sched ct).duties (dcell c 0 4 0 0) 0 \ ∅) (fun d => (sched ct).payload (dcell c 0 4 0 0) 0 d)
      = loanV c (src_rs_4_0_0 c) from rest_dma ct c 0 4 0 0 rfl)) $$ Hpay
  -- the wait on cell (1, 4, 0, 0), and the cell closed
  ihave #MWR400 := (mayWait_cell (F := F) c 1 4 0 0 32 (by decide +kernel)) $$ Hlev
  ihave #HIR400 := (inv_dma ct K c 1 4 0 0 rfl) $$ HR
  iapply (Rounds.wp_wait_rest_token Segs.𝒱₀ ER (sched ct) (c : Thread nD τ) none (κ := (K (c, ⟨(dsem 1 4 0 0).val, Nat.lt_trans (dsem 1 4 0 0).isLt (by decide)⟩))) (sm := SemLoc.dma (dsem 1 4 0 0))
      (wpE_waitDma2_eq Segs.𝒱₀ (c : Thread nD τ) none Set.univ) (Set.mem_univ _) () (O := owedFrom c 32) (W := (insert (SemLoc.dma (dsem 0 4 0 0), ()) (insert (SemLoc.dma (dsem 1 3 2 1), ()) (insert (SemLoc.dma (dsem 0 3 2 1), ()) (insert (SemLoc.dma (dsem 1 3 1 1), ()) (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W)))))))))))))) (R := 0) (m := 0) (T := ∅)
      (by rw [Nat.zero_add, expect_dma ct c 1 4 0 0 rfl]; rfl)) $$ [CR400 How PR400]
  · isplitr
    · iexact HIR400
    isplitl [CR400]
    · iexact CR400
    isplitl [How]
    · iexact How
    isplitr
    · iexact MWR400
    iexact PR400
  iintro ⟨How, PR400, -, Hpay⟩
  imod (Rounds.cell_close ER (sched ct) (g := dcell c 1 4 0 0) (Set.mem_univ _) (fun h => h) (R := 1)
    (fun r hr => duties_later ct _ r hr)) $$ [PR400] with VR400
  · isplitr
    · iexact HIR400
    iexact PR400
  ihave BR400 := (Entails.of_eq (show bigSep ((sched ct).duties (dcell c 1 4 0 0) 0 \ ∅) (fun d => (sched ct).payload (dcell c 1 4 0 0) 0 d)
      = heldV c (dst_rs_4_0_0 (peer 0 4 c)) fullShare (fun i v => pRS ct 4 c (sh := S32x1024) i v) from rest_dma ct c 1 4 0 0 rfl)) $$ Hpay
  ihave BR400 := (heldV_open (F := F) c _ fullShare _) $$ BR400
  icases BR400 with ⟨%g400, BR400, %hg400⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch5 : Memref sig .tc .vmem S32x1024 .bf16))
      (S := (dst_rs_4_0_0 (peer 0 4 c)).view.set) (by rw [← rsLoad_4_0_0 c]; exact (View.set_slice _ _).symm.subset)) $$ BR400; iintro BR400
  iapply (wp_load Segs.𝒱₀ (c : Thread nD τ) none Set.univ (m := (Memref.whole cc0_stg2_0 : Memref sig .tc .vmem S1024x1024 .bf16))
      (S := (src_ag_4_0_0 c).view.set) (by rw [← outM_0_set c]; exact (View.set_slice _ _).symm.subset)) $$ Ho0; iintro Ho0
  iapply (wp_store Segs.𝒱₀ (c : Thread nD τ) none Set.univ (m := (Memref.whole cc0_stg2_0 : Memref sig .tc .vmem S1024x1024 .bf16)) (r := Rect.unit (s := S1024x1024) (k0_off74 c) S32x384.size (k0_off74_inb c)) (Mk := Finset.univ)
      (S := (src_ag_4_0_0 c).view.set) (by rw [← outM_0_set c]; exact Finset.Subset.refl _)) $$ Ho0; iintro Ho0
  -- the wait on cell (0, 4, 1, 0), and the cell closed
  ihave #MWS410 := (mayWait_cell (F := F) c 0 4 1 0 32 (by decide +kernel)) $$ Hlev
  ihave #HIS410 := (inv_dma ct K c 0 4 1 0 rfl) $$ HR
  iapply (Rounds.wp_wait_rest_token Segs.𝒱₀ ER (sched ct) (c : Thread nD τ) none (κ := (K (c, ⟨(dsem 0 4 1 0).val, Nat.lt_trans (dsem 0 4 1 0).isLt (by decide)⟩))) (sm := SemLoc.dma (dsem 0 4 1 0))
      (wpE_waitDma2_eq Segs.𝒱₀ (c : Thread nD τ) none Set.univ) (Set.mem_univ _) () (O := owedFrom c 32) (W := (insert (SemLoc.dma (dsem 1 4 0 0), ()) (insert (SemLoc.dma (dsem 0 4 0 0), ()) (insert (SemLoc.dma (dsem 1 3 2 1), ()) (insert (SemLoc.dma (dsem 0 3 2 1), ()) (insert (SemLoc.dma (dsem 1 3 1 1), ()) (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W))))))))))))))) (R := 0) (m := 0) (T := ∅)
      (by rw [Nat.zero_add, expect_dma ct c 0 4 1 0 rfl]; rfl)) $$ [CS410 How PS410]
  · isplitr
    · iexact HIS410
    isplitl [CS410]
    · iexact CS410
    isplitl [How]
    · iexact How
    isplitr
    · iexact MWS410
    iexact PS410
  iintro ⟨How, PS410, -, Hpay⟩
  imod (Rounds.cell_close ER (sched ct) (g := dcell c 0 4 1 0) (Set.mem_univ _) (fun h => h) (R := 1)
    (fun r hr => duties_later ct _ r hr)) $$ [PS410] with VS410
  · isplitr
    · iexact HIS410
    iexact PS410
  ihave BS410 := (Entails.of_eq (show bigSep ((sched ct).duties (dcell c 0 4 1 0) 0 \ ∅) (fun d => (sched ct).payload (dcell c 0 4 1 0) 0 d)
      = loanV c (src_rs_4_1_0 c) from rest_dma ct c 0 4 1 0 rfl)) $$ Hpay
  -- the wait on cell (1, 4, 1, 0), and the cell closed
  ihave #MWR410 := (mayWait_cell (F := F) c 1 4 1 0 32 (by decide +kernel)) $$ Hlev
  ihave #HIR410 := (inv_dma ct K c 1 4 1 0 rfl) $$ HR
  iapply (Rounds.wp_wait_rest_token Segs.𝒱₀ ER (sched ct) (c : Thread nD τ) none (κ := (K (c, ⟨(dsem 1 4 1 0).val, Nat.lt_trans (dsem 1 4 1 0).isLt (by decide)⟩))) (sm := SemLoc.dma (dsem 1 4 1 0))
      (wpE_waitDma2_eq Segs.𝒱₀ (c : Thread nD τ) none Set.univ) (Set.mem_univ _) () (O := owedFrom c 32) (W := (insert (SemLoc.dma (dsem 0 4 1 0), ()) (insert (SemLoc.dma (dsem 1 4 0 0), ()) (insert (SemLoc.dma (dsem 0 4 0 0), ()) (insert (SemLoc.dma (dsem 1 3 2 1), ()) (insert (SemLoc.dma (dsem 0 3 2 1), ()) (insert (SemLoc.dma (dsem 1 3 1 1), ()) (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W)))))))))))))))) (R := 0) (m := 0) (T := ∅)
      (by rw [Nat.zero_add, expect_dma ct c 1 4 1 0 rfl]; rfl)) $$ [CR410 How PR410]
  · isplitr
    · iexact HIR410
    isplitl [CR410]
    · iexact CR410
    isplitl [How]
    · iexact How
    isplitr
    · iexact MWR410
    iexact PR410
  iintro ⟨How, PR410, -, Hpay⟩
  imod (Rounds.cell_close ER (sched ct) (g := dcell c 1 4 1 0) (Set.mem_univ _) (fun h => h) (R := 1)
    (fun r hr => duties_later ct _ r hr)) $$ [PR410] with VR410
  · isplitr
    · iexact HIR410
    iexact PR410
  ihave BR410 := (Entails.of_eq (show bigSep ((sched ct).duties (dcell c 1 4 1 0) 0 \ ∅) (fun d => (sched ct).payload (dcell c 1 4 1 0) 0 d)
      = heldV c (dst_rs_4_1_0 (peer 1 4 c)) fullShare (fun i v => pRS ct 4 c (sh := S32x1024) i v) from rest_dma ct c 1 4 1 0 rfl)) $$ Hpay
  ihave BR410 := (heldV_open (F := F) c _ fullShare _) $$ BR410
  icases BR410 with ⟨%g410, BR410, %hg410⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch5 : Memref sig .tc .vmem S32x1024 .bf16))
      (S := (dst_rs_4_1_0 (peer 1 4 c)).view.set) (by rw [← rsLoad_4_1_0 c]; exact (View.set_slice _ _).symm.subset)) $$ BR410; iintro BR410
  iapply (wp_load Segs.𝒱₀ (c : Thread nD τ) none Set.univ (m := (Memref.whole cc0_stg2_0 : Memref sig .tc .vmem S1024x1024 .bf16))
      (S := (src_ag_4_1_0 c).view.set) (by rw [← outM_1_set c]; exact (View.set_slice _ _).symm.subset)) $$ Ho1; iintro Ho1
  iapply (wp_store Segs.𝒱₀ (c : Thread nD τ) none Set.univ (m := (Memref.whole cc0_stg2_0 : Memref sig .tc .vmem S1024x1024 .bf16)) (r := Rect.unit (s := S1024x1024) (k0_off76 c) S32x384.size (k0_off76_inb c)) (Mk := Finset.univ)
      (S := (src_ag_4_1_0 c).view.set) (by rw [← outM_1_set c]; exact Finset.Subset.refl _)) $$ Ho1; iintro Ho1
  -- the wait on cell (0, 4, 2, 0), and the cell closed
  ihave #MWS420 := (mayWait_cell (F := F) c 0 4 2 0 32 (by decide +kernel)) $$ Hlev
  ihave #HIS420 := (inv_dma ct K c 0 4 2 0 rfl) $$ HR
  iapply (Rounds.wp_wait_rest_token Segs.𝒱₀ ER (sched ct) (c : Thread nD τ) none (κ := (K (c, ⟨(dsem 0 4 2 0).val, Nat.lt_trans (dsem 0 4 2 0).isLt (by decide)⟩))) (sm := SemLoc.dma (dsem 0 4 2 0))
      (wpE_waitDma2_eq Segs.𝒱₀ (c : Thread nD τ) none Set.univ) (Set.mem_univ _) () (O := owedFrom c 32) (W := (insert (SemLoc.dma (dsem 1 4 1 0), ()) (insert (SemLoc.dma (dsem 0 4 1 0), ()) (insert (SemLoc.dma (dsem 1 4 0 0), ()) (insert (SemLoc.dma (dsem 0 4 0 0), ()) (insert (SemLoc.dma (dsem 1 3 2 1), ()) (insert (SemLoc.dma (dsem 0 3 2 1), ()) (insert (SemLoc.dma (dsem 1 3 1 1), ()) (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W))))))))))))))))) (R := 0) (m := 0) (T := ∅)
      (by rw [Nat.zero_add, expect_dma ct c 0 4 2 0 rfl]; rfl)) $$ [CS420 How PS420]
  · isplitr
    · iexact HIS420
    isplitl [CS420]
    · iexact CS420
    isplitl [How]
    · iexact How
    isplitr
    · iexact MWS420
    iexact PS420
  iintro ⟨How, PS420, -, Hpay⟩
  imod (Rounds.cell_close ER (sched ct) (g := dcell c 0 4 2 0) (Set.mem_univ _) (fun h => h) (R := 1)
    (fun r hr => duties_later ct _ r hr)) $$ [PS420] with VS420
  · isplitr
    · iexact HIS420
    iexact PS420
  ihave BS420 := (Entails.of_eq (show bigSep ((sched ct).duties (dcell c 0 4 2 0) 0 \ ∅) (fun d => (sched ct).payload (dcell c 0 4 2 0) 0 d)
      = loanV c (src_rs_4_2_0 c) from rest_dma ct c 0 4 2 0 rfl)) $$ Hpay
  -- the wait on cell (1, 4, 2, 0), and the cell closed
  ihave #MWR420 := (mayWait_cell (F := F) c 1 4 2 0 32 (by decide +kernel)) $$ Hlev
  ihave #HIR420 := (inv_dma ct K c 1 4 2 0 rfl) $$ HR
  iapply (Rounds.wp_wait_rest_token Segs.𝒱₀ ER (sched ct) (c : Thread nD τ) none (κ := (K (c, ⟨(dsem 1 4 2 0).val, Nat.lt_trans (dsem 1 4 2 0).isLt (by decide)⟩))) (sm := SemLoc.dma (dsem 1 4 2 0))
      (wpE_waitDma2_eq Segs.𝒱₀ (c : Thread nD τ) none Set.univ) (Set.mem_univ _) () (O := owedFrom c 32) (W := (insert (SemLoc.dma (dsem 0 4 2 0), ()) (insert (SemLoc.dma (dsem 1 4 1 0), ()) (insert (SemLoc.dma (dsem 0 4 1 0), ()) (insert (SemLoc.dma (dsem 1 4 0 0), ()) (insert (SemLoc.dma (dsem 0 4 0 0), ()) (insert (SemLoc.dma (dsem 1 3 2 1), ()) (insert (SemLoc.dma (dsem 0 3 2 1), ()) (insert (SemLoc.dma (dsem 1 3 1 1), ()) (insert (SemLoc.dma (dsem 0 3 1 1), ()) (insert (SemLoc.dma (dsem 1 3 0 1), ()) (insert (SemLoc.dma (dsem 0 3 0 1), ()) (insert (SemLoc.dma (dsem 1 3 2 0), ()) (insert (SemLoc.dma (dsem 0 3 2 0), ()) (insert (SemLoc.dma (dsem 1 3 1 0), ()) (insert (SemLoc.dma (dsem 0 3 1 0), ()) (insert (SemLoc.dma (dsem 1 3 0 0), ()) (insert (SemLoc.dma (dsem 0 3 0 0), ()) W)))))))))))))))))) (R := 0) (m := 0) (T := ∅)
      (by rw [Nat.zero_add, expect_dma ct c 1 4 2 0 rfl]; rfl)) $$ [CR420 How PR420]
  · isplitr
    · iexact HIR420
    isplitl [CR420]
    · iexact CR420
    isplitl [How]
    · iexact How
    isplitr
    · iexact MWR420
    iexact PR420
  iintro ⟨How, PR420, -, Hpay⟩
  imod (Rounds.cell_close ER (sched ct) (g := dcell c 1 4 2 0) (Set.mem_univ _) (fun h => h) (R := 1)
    (fun r hr => duties_later ct _ r hr)) $$ [PR420] with VR420
  · isplitr
    · iexact HIR420
    iexact PR420
  ihave BR420 := (Entails.of_eq (show bigSep ((sched ct).duties (dcell c 1 4 2 0) 0 \ ∅) (fun d => (sched ct).payload (dcell c 1 4 2 0) 0 d)
      = heldV c (dst_rs_4_2_0 (peer 2 4 c)) fullShare (fun i v => pRS ct 4 c (sh := S32x1024) i v) from rest_dma ct c 1 4 2 0 rfl)) $$ Hpay
  ihave BR420 := (heldV_open (F := F) c _ fullShare _) $$ BR420
  icases BR420 with ⟨%g420, BR420, %hg420⟩
  iapply (wp_load Segs.𝒱₀ (c : Thread nD τ) none Set.univ (m := (Memref.whole cc0_scratch0 : Memref sig .tc .vmem S1024x1024 .f32)) (Finset.subset_univ _)) $$ Hacc; iintro Hacc
  iapply (wp_load Segs.𝒱₀ (c : Thread nD τ) none Set.univ (m := (Memref.whole cc0_scratch5 : Memref sig .tc .vmem S32x1024 .bf16))
      (S := (dst_rs_4_2_0 (peer 2 4 c)).view.set) (by rw [← rsLoad_4_2_0 c]; exact (View.set_slice _ _).symm.subset)) $$ BR420; iintro BR420
  iapply (wp_load Segs.𝒱₀ (c : Thread nD τ) none Set.univ (m := (Memref.whole cc0_stg2_0 : Memref sig .tc .vmem S1024x1024 .bf16))
      (S := (src_ag_4_2_0 c).view.set) (by rw [← outM_2_set c]; exact (View.set_slice _ _).symm.subset)) $$ Ho2; iintro Ho2
  iapply (wp_store Segs.𝒱₀ (c : Thread nD τ) none Set.univ (m := (Memref.whole cc0_stg2_0 : Memref sig .tc .vmem S1024x1024 .bf16)) (r := Rect.unit (s := S1024x1024) (k0_off78 c) S32x256.size (k0_off78_inb c)) (Mk := Finset.univ)
      (S := (src_ag_4_2_0 c).view.set) (by rw [← outM_2_set c]; exact Finset.Subset.refl _)) $$ Ho2; iintro Ho2
  ihave BR300 := (loanV_fold (F := F) c (dst_rs_3_0_0 (peer 0 3 c)) _) $$ BR300
  ihave BR301 := (loanV_fold (F := F) c (dst_rs_3_0_1 (peer 0 3 c)) _) $$ BR301
  ihave BR310 := (loanV_fold (F := F) c (dst_rs_3_1_0 (peer 1 3 c)) _) $$ BR310
  ihave BR311 := (loanV_fold (F := F) c (dst_rs_3_1_1 (peer 1 3 c)) _) $$ BR311
  ihave BR320 := (loanV_fold (F := F) c (dst_rs_3_2_0 (peer 2 3 c)) _) $$ BR320
  ihave BR321 := (loanV_fold (F := F) c (dst_rs_3_2_1 (peer 2 3 c)) _) $$ BR321
  ihave BR400 := (loanV_fold (F := F) c (dst_rs_4_0_0 (peer 0 4 c)) _) $$ BR400
  ihave BR410 := (loanV_fold (F := F) c (dst_rs_4_1_0 (peer 1 4 c)) _) $$ BR410
  ihave BR420 := (loanV_fold (F := F) c (dst_rs_4_2_0 (peer 2 4 c)) _) $$ BR420
  ihave Hrs3w := (rs_join_3 (F := F) c) $$ [BR300 BR301 BR310 BR311 BR320 BR321]
  · isplitl [BR300]
    · iexact BR300
    isplitl [BR301]
    · iexact BR301
    isplitl [BR310]
    · iexact BR310
    isplitl [BR311]
    · iexact BR311
    isplitl [BR320]
    · iexact BR320
    iexact BR321
  ihave Hrs4w := (rs_join_4 (F := F) c) $$ [BR400 BR410 BR420]
  · isplitl [BR400]
    · iexact BR400
    isplitl [BR410]
    · iexact BR410
    iexact BR420
  ihave Hss3w := (ss_join_3 (F := F) c) $$ [BS300 BS301 BS310 BS311 BS320 BS321]
  · isplitl [BS300]
    · iexact BS300
    isplitl [BS301]
    · iexact BS301
    isplitl [BS310]
    · iexact BS310
    isplitl [BS311]
    · iexact BS311
    isplitl [BS320]
    · iexact BS320
    iexact BS321
  ihave Hss4w := (ss_join_4 (F := F) c) $$ [BS400 BS410 BS420]
  · isplitl [BS400]
    · iexact BS400
    isplitl [BS410]
    · iexact BS410
    iexact BS420
  iapply Hk $$ %v3 %v4 %v5 %v6 %v7 %v8 %v9 %v10 %v11 %v12 %v13 %v14 %v15 %v16 %v17 %v18 %v20 %v22 %v24 %v26 %v28 %v827 %(Scalar.addi v663 (Scalar.muli v22 32#32)) %(Scalar.addi v715 (Scalar.muli v22 32#32))
  unfold Segs.Pre40 closedRS
  rw [scopedRest0_eq]
  isplitr
  · iexact HR
  isplitr
  · iexact Hlev
  isplitl [How]
  · iexists _
    iexact How
  isplitl [HtoksAG]
  · iexact HtoksAG
  isplitl [HposAG]
  · iexact HposAG
  isplitl [HcredAG]
  · iexact HcredAG
  isplitl [VS000 VR000 VS001 VR001 VS010 VR010 VS011 VR011 VS020 VR020 VS021 VR021 VS100 VR100 VS101 VR101 VS110 VR110 VS111 VR111 VS120 VR120 VS121 VR121 VS200 VR200 VS201 VR201 VS210 VR210 VS211 VR211 VS220 VR220 VS221 VR221 VS300 VR300 VS301 VR301 VS310 VR310 VS311 VR311 VS320 VR320 VS321 VR321 VS400 VR400 VS410 VR410 VS420 VR420]
  · isplitl [VS000 VR000]
    · isplitl [VS000]
      · iexact VS000
      iexact VR000
    isplitl [VS001 VR001]
    · isplitl [VS001]
      · iexact VS001
      iexact VR001
    isplitl [VS010 VR010]
    · isplitl [VS010]
      · iexact VS010
      iexact VR010
    isplitl [VS011 VR011]
    · isplitl [VS011]
      · iexact VS011
      iexact VR011
    isplitl [VS020 VR020]
    · isplitl [VS020]
      · iexact VS020
      iexact VR020
    isplitl [VS021 VR021]
    · isplitl [VS021]
      · iexact VS021
      iexact VR021
    isplitl [VS100 VR100]
    · isplitl [VS100]
      · iexact VS100
      iexact VR100
    isplitl [VS101 VR101]
    · isplitl [VS101]
      · iexact VS101
      iexact VR101
    isplitl [VS110 VR110]
    · isplitl [VS110]
      · iexact VS110
      iexact VR110
    isplitl [VS111 VR111]
    · isplitl [VS111]
      · iexact VS111
      iexact VR111
    isplitl [VS120 VR120]
    · isplitl [VS120]
      · iexact VS120
      iexact VR120
    isplitl [VS121 VR121]
    · isplitl [VS121]
      · iexact VS121
      iexact VR121
    isplitl [VS200 VR200]
    · isplitl [VS200]
      · iexact VS200
      iexact VR200
    isplitl [VS201 VR201]
    · isplitl [VS201]
      · iexact VS201
      iexact VR201
    isplitl [VS210 VR210]
    · isplitl [VS210]
      · iexact VS210
      iexact VR210
    isplitl [VS211 VR211]
    · isplitl [VS211]
      · iexact VS211
      iexact VR211
    isplitl [VS220 VR220]
    · isplitl [VS220]
      · iexact VS220
      iexact VR220
    isplitl [VS221 VR221]
    · isplitl [VS221]
      · iexact VS221
      iexact VR221
    isplitl [VS300 VR300]
    · isplitl [VS300]
      · iexact VS300
      iexact VR300
    isplitl [VS301 VR301]
    · isplitl [VS301]
      · iexact VS301
      iexact VR301
    isplitl [VS310 VR310]
    · isplitl [VS310]
      · iexact VS310
      iexact VR310
    isplitl [VS311 VR311]
    · isplitl [VS311]
      · iexact VS311
      iexact VR311
    isplitl [VS320 VR320]
    · isplitl [VS320]
      · iexact VS320
      iexact VR320
    isplitl [VS321 VR321]
    · isplitl [VS321]
      · iexact VS321
      iexact VR321
    isplitl [VS400 VR400]
    · isplitl [VS400]
      · iexact VS400
      iexact VR400
    isplitl [VS410 VR410]
    · isplitl [VS410]
      · iexact VS410
      iexact VR410
    isplitl [VS420]
    · iexact VS420
    iexact VR420
  isplitl [Hidle]
  · iexact Hidle
  isplitl [HA]
  · iexact HA
  isplitl [HB]
  · iexact HB
  isplitl [Ho0 Ho1 Ho2]
  · isplitl [Ho0]
    · iapply (heldV_fold (F := F) c (src_ag_4_0_0 c) fullShare _ _ (SegB3Val.out_0 ct c YA YB laws fa g300 g310 g320 g301 g311 g321 g400 o0 hfa hg300 hg310 hg320 hg301 hg311 hg321 hg400))
      iexact Ho0
    isplitl [Ho1]
    · iapply (heldV_fold (F := F) c (src_ag_4_1_0 c) fullShare _ _ (SegB3Val.out_1 ct c YA YB laws fa g300 g310 g320 g301 g311 g321 g410 o1 hfa hg300 hg310 hg320 hg301 hg311 hg321 hg410))
      iexact Ho1
    iapply (heldV_fold (F := F) c (src_ag_4_2_0 c) fullShare _ _ (SegB3Val.out_2 ct c YA YB laws fa g300 g310 g320 g301 g311 g321 g420 o2 hfa hg300 hg310 hg320 hg301 hg311 hg321 hg420))
    iexact Ho2
  isplitl [Hacc Hs1 Hs2 Hs3 Hrs3w Hrs4w Hs6 Hs7 Hs8 Hss3w Hss4w]
  · isplitl [Hacc]
    · iexists _
      iexact Hacc
    isplitl [Hs1]
    · iexact Hs1
    isplitl [Hs2]
    · iexact Hs2
    isplitl [Hs3]
    · iexact Hs3
    isplitl [Hrs3w]
    · iexact Hrs3w
    isplitl [Hrs4w]
    · iexact Hrs4w
    isplitl [Hs6]
    · iexact Hs6
    isplitl [Hs7]
    · iexact Hs7
    isplitl [Hs8]
    · iexact Hs8
    isplitl [Hss3w]
    · iexact Hss3w
    iexact Hss4w
  iexact HlandAG

end Cert.Kernel.SegB3

end
-- ==== Proof.SegBK.lean ====
/-
  The second segment of the body: stages one to four of the summing phase and the pointwise function.
-/
import proofs.«900879_g7700000000000880_dist_matmul_gelu_kshard_i_m1024_n1024_k512_v7x_i32_bf16_1_alg».proof.Proof.SegBGlueK
import proofs.«900879_g7700000000000880_dist_matmul_gelu_kshard_i_m1024_n1024_k512_v7x_i32_bf16_1_alg».proof.Proof.SegB1AltK
import proofs.«900879_g7700000000000880_dist_matmul_gelu_kshard_i_m1024_n1024_k512_v7x_i32_bf16_1_alg».proof.Proof.SegB2K
import proofs.«900879_g7700000000000880_dist_matmul_gelu_kshard_i_m1024_n1024_k512_v7x_i32_bf16_1_alg».proof.Proof.SegB3K

noncomputable section

namespace Cert.Kernel.SegB

open Cert.Kernel Cert.Kernel.Gen Cert.Kernel.Proto Cert.Kernel.Held
open Cert.Kernel.Laws Cert.Kernel.Segs Cert.Kernel.SegBMid
open Idealize.ShloMosaic Idealize.ShloMosaic.TcCoe Idealize.SL Idealize.SL.BI Idealize.SL.Sem

variable {F : FTy → Type} [FloatOps F]

theorem segB (ct : Contract F) (K : Dev nD × Fin 124 → ℕ) (c : Dev nD)
    (YA : S1024x512.Idx → F .f32) (YB : S512x1024.Idx → F .f32) (laws : Laws ct c YA YB) {R : Type}
    (T : (Σ' (d0 : Dev nD) (v3 : BitVec 32) (v8 : BitVec 32) (v13 : BitVec 32) (v28 : BitVec 32), BitVec 32) → Prog (TpuEff nD τ sig (Elt F) Λ₀ .tc) R)
    (Kt : R → sProp (MT nD τ sig Unit (Elt F) ℕ UU ℕ)) : SegB ct K c YA YB T Kt :=
  SegBGlue.segB_of_parts ct K c YA YB T Kt (SegB1Alt.segB1 ct K c YA YB laws T Kt) (SegB2.segB2 ct K c YA YB laws T Kt) (SegB3.segB3 ct K c YA YB laws T Kt)

end Cert.Kernel.SegB

end
-- ==== Proof.SegCK.lean ====
/-
  The gathering phase: the third segment of the body.

  Each device sends, for each column block, its own 32 rows to the partner of exchange 4, and then, exchange
  by exchange (3, 2, 1, 0), the rows it holds as two pieces: the part it held one exchange earlier and the part
  the previous exchange brought. A piece goes out at one half of its share while the transfer of the previous
  exchange, which reads the same rows, still holds the other half; the halves alternate with the exchange.
  Every transfer returns its source share on the departure cell with the contract's fact about the rows, and
  hands the partner the landed rows under the same fact: the rows land at the positions they were read from.
  Each cell is closed right after its wait. At the end every share is home; the thirty pieces of the result
  buffer, whole and right, are the buffer.
-/
import proofs.«900879_g7700000000000880_dist_matmul_gelu_kshard_i_m1024_n1024_k512_v7x_i32_bf16_1_alg».proof.Proof.SegsK
import proofs.«900879_g7700000000000880_dist_matmul_gelu_kshard_i_m1024_n1024_k512_v7x_i32_bf16_1_alg».proof.Proof.RegionsOutK
import Idealize.ShloMosaic.Lib.Rounds
import Idealize.ShloMosaic.Rules.Footprints
set_option maxRecDepth 65536

noncomputable section

namespace Cert.Kernel.SegC

open Cert.Kernel Cert.Kernel.Gen Cert.Kernel.Proto Cert.Kernel.Tab Cert.Kernel.Held Cert.Kernel.PayTab
open Cert.Kernel.Sched Cert.Kernel.GhostTab Cert.Kernel.Owed Cert.Kernel.Ghost Cert.Kernel.StateTab
open Cert.Kernel.Laws Cert.Kernel.Cut Cert.Kernel.Segs Cert.Kernel.RegionsOut
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A piece at known contents that satisfy the contract is the piece held under the contract. -/
theorem hpay1 {sh : Shape} (c : Dev nD) (m : Memref sig .tc .vmem sh .bf16) (q : PosShare TreeShare)
    (P : m.view.ty.Idx → Elt F m.view.ty.elt → Prop)
    (fs : Buf (Elt F) (m.view.loc (c : Thread nD τ))) (h : ∀ i ∈ m.view.set, P i (fs i)) :
    (m.view.loc (c : Thread nD τ) ↦[m.view.set]{q} fs : sProp (MT nD τ sig Unit (Elt F) ℕ UU ℕ)) ⊢ heldV c m q P := by
  unfold heldV
  iintro H
  iexists fs
  isplitl [H]
  · iexact H
  · ipureintro; exact h

/-- Rows copied onto the same rows of another device satisfy there what they satisfied at home. -/
theorem hpay2 {sh : Shape} (c p : Dev nD) (m : Memref sig .tc .vmem sh .bf16)
    (P : m.view.ty.Idx → Elt F m.view.ty.elt → Prop)
    (fs : Buf (Elt F) (m.view.loc (c : Thread nD τ))) (fd : Buf (Elt F) (m.view.loc (p : Thread nD τ)))
    (h : ∀ i ∈ m.view.set, P i (fs i)) :
    (m.view.loc (p : Thread nD τ) ↦[m.view.set]{fullShare} (m.view.write (Elt F) fd (m.view.read (Elt F) fs) Finset.univ)
      : sProp (MT nD τ sig Unit (Elt F) ℕ UU ℕ)) ⊢ heldV p m fullShare P := by
  refine hpay1 p m fullShare P _ ?_
  intro i hi
  rw [View.write_read_eq_piecewise, View.setOn_univ, Finset.piecewise_eq_of_mem _ _ _ hi]
  exact h i hi

/-- The source held under the contract and the landing place lent, opened at their contents. -/
theorem open_send {sh : Shape} (c p : Dev nD) (m : Memref sig .tc .vmem sh .bf16) (q : PosShare TreeShare)
    (P : m.view.ty.Idx → Elt F m.view.ty.elt → Prop) {A₁ A₂ B G : sProp (MT nD τ sig Unit (Elt F) ℕ UU ℕ)}
    (h : ∀ (fs : Buf (Elt F) (m.view.loc (c : Thread nD τ))) (fd : Buf (Elt F) (m.view.loc (p : Thread nD τ))),
        (∀ i ∈ m.view.set, P i (fs i)) →
        iprop(A₁ ∗ A₂ ∗ (m.view.loc (c : Thread nD τ) ↦[m.view.set]{q} fs)
          ∗ (m.view.loc (p : Thread nD τ) ↦[m.view.set]{fullShare} fd) ∗ B) ⊢ G) :
    iprop(A₁ ∗ A₂ ∗ heldV c m q P ∗ loanV p m ∗ B) ⊢ G := by
  unfold heldV loanV
  iintro H
  icases H with ⟨HA₁, HA₂, HS, HD, HB⟩
  icases HS with ⟨%fs, Hs, %hfs⟩
  icases HD with ⟨%fd, Hd⟩
  iapply (h fs fd hfs)
  isplitl [HA₁]
  · iexact HA₁
  isplitl [HA₂]
  · iexact HA₂
  isplitl [Hs]
  · iexact Hs
  isplitl [Hd]
  · iexact Hd
  iexact HB

variable (ct : Contract F) (K : Dev nD × Fin 124 → ℕ)

theorem inv_dma (c : Dev nD) (a : Fin 4) (s : Fin 5) (k : Fin 3) (j : Fin 2) (h : usedIx (dsem a s k j).val = true) :
    (records ct K : sProp (MT nD τ sig Unit (Elt F) ℕ UU ℕ)) ⊢
      cellInv ER (sched ct) (K (c, ⟨(dsem a s k j).val, Nat.lt_trans (dsem a s k j).isLt (by decide)⟩)) (dcell c a s k j) := by
  have h0 := inv_at ct K (c, ⟨(dsem a s k j).val, Nat.lt_trans (dsem a s k j).isLt (by decide)⟩)
    (by unfold ourIx; rw [Finset.mem_filter]; exact ⟨Finset.mem_univ _, by unfold ours; rw [h]; exact Bool.or_true _⟩)
  rw [kcell_dma] at h0
  exact h0

theorem reached_dma (c : Dev nD) (a : Fin 4) (s : Fin 5) (k : Fin 3) (j : Fin 2) (h : usedIx (dsem a s k j).val = true) :
    (records ct K : sProp (MT nD τ sig Unit (Elt F) ℕ UU ℕ)) ⊢ reached ER (dcell c a s k j) 0 := by
  have h0 := reached_at ct K (c, ⟨(dsem a s k j).val, Nat.lt_trans (dsem a s k j).isLt (by decide)⟩)
    (by unfold ourIx; rw [Finset.mem_filter]; exact ⟨Finset.mem_univ _, by unfold ours; rw [h]; exact Bool.or_true _⟩)
  rw [kcell_dma] at h0
  exact h0

theorem heldV_cast {sh : Shape} {e : EltTy} (c : Dev nD) (v : Memref sig .tc .vmem sh e) {q q' : PosShare TreeShare} (h : q = q')
    (P : v.view.ty.Idx → Elt F v.view.ty.elt → Prop) :
    (heldV c v q P : sProp (MT nD τ sig Unit (Elt F) ℕ UU ℕ)) ⊢ heldV c v q' P := by subst h; exact .rfl
theorem shr42 : shr (4 : Fin 5) = shr 2 := rfl
theorem shr31 : shr (3 : Fin 5) = shr 1 := rfl
theorem shr20 : shr (2 : Fin 5) = shr 0 := rfl

theorem duty_mem (c : Dev nD) (a : Fin 4) (s : Fin 5) (k : Fin 3) (j : Fin 2) (h : usedIx (dsem a s k j).val = true) :
    (0 : Fin 5) ∈ (sched ct).duties (dcell c a s k j) 0 := by
  rw [duties_dma ct c a s k j h]; exact Finset.mem_singleton_self _
theorem expect_at (c : Dev nD) (a : Fin 4) (s : Fin 5) (k : Fin 3) (j : Fin 2) (h : usedIx (dsem a s k j).val = true) :
    0 + amtIx (dsem a s k j).val = (sched ct).expect (dcell c a s k j) 0 := by
  rw [expect_dma ct c a s k j h, Nat.zero_add]

theorem recv_at_peer_4_0_0 (c : Dev nD) :
    (sched ct).payload (dcell (peer 0 4 c) 3 4 0 0) 0 0 = heldV (peer 0 4 c) (dst_ag_4_0_0 c) fullShare (fun i v => pOut ct (sh := S1024x1024) i v rfl) := by
  show recv_ag_4_0_0 ct (peer 0 4 c) = _
  unfold recv_ag_4_0_0; rw [peer_peer]
theorem rest_S_4_0_0 (c : Dev nD) :
    bigSep ((sched ct).duties (dcell c 2 4 0 0) 0 \ ∅) (fun d => (sched ct).payload (dcell c 2 4 0 0) 0 d)
      = heldV c (src_ag_4_0_0 c) (shr 4) (fun i v => pOut ct (sh := S1024x1024) i v rfl) := rest_dma ct c 2 4 0 0 rfl
theorem rest_R_4_0_0 (c : Dev nD) :
    bigSep ((sched ct).duties (dcell c 3 4 0 0) 0 \ ∅) (fun d => (sched ct).payload (dcell c 3 4 0 0) 0 d)
      = heldV c (dst_ag_4_0_0 (peer 0 4 c)) fullShare (fun i v => pOut ct (sh := S1024x1024) i v rfl) := rest_dma ct c 3 4 0 0 rfl

theorem recv_at_peer_4_1_0 (c : Dev nD) :
    (sched ct).payload (dcell (peer 1 4 c) 3 4 1 0) 0 0 = heldV (peer 1 4 c) (dst_ag_4_1_0 c) fullShare (fun i v => pOut ct (sh := S1024x1024) i v rfl) := by
  show recv_ag_4_1_0 ct (peer 1 4 c) = _
  unfold recv_ag_4_1_0; rw [peer_peer]
theorem rest_S_4_1_0 (c : Dev nD) :
    bigSep ((sched ct).duties (dcell c 2 4 1 0) 0 \ ∅) (fun d => (sched ct).payload (dcell c 2 4 1 0) 0 d)
      = heldV c (src_ag_4_1_0 c) (shr 4) (fun i v => pOut ct (sh := S1024x1024) i v rfl) := rest_dma ct c 2 4 1 0 rfl
theorem rest_R_4_1_0 (c : Dev nD) :
    bigSep ((sched ct).duties (dcell c 3 4 1 0) 0 \ ∅) (fun d => (sched ct).payload (dcell c 3 4 1 0) 0 d)
      = heldV c (dst_ag_4_1_0 (peer 1 4 c)) fullShare (fun i v => pOut ct (sh := S1024x1024) i v rfl) := rest_dma ct c 3 4 1 0 rfl

theorem recv_at_peer_4_2_0 (c : Dev nD) :
    (sched ct).payload (dcell (peer 2 4 c) 3 4 2 0) 0 0 = heldV (peer 2 4 c) (dst_ag_4_2_0 c) fullShare (fun i v => pOut ct (sh := S1024x1024) i v rfl) := by
  show recv_ag_4_2_0 ct (peer 2 4 c) = _
  unfold recv_ag_4_2_0; rw [peer_peer]
theorem rest_S_4_2_0 (c : Dev nD) :
    bigSep ((sched ct).duties (dcell c 2 4 2 0) 0 \ ∅) (fun d => (sched ct).payload (dcell c 2 4 2 0) 0 d)
      = heldV c (src_ag_4_2_0 c) (shr 4) (fun i v => pOut ct (sh := S1024x1024) i v rfl) := rest_dma ct c 2 4 2 0 rfl
theorem rest_R_4_2_0 (c : Dev nD) :
    bigSep ((sched ct).duties (dcell c 3 4 2 0) 0 \ ∅) (fun d => (sched ct).payload (dcell c 3 4 2 0) 0 d)
      = heldV c (dst_ag_4_2_0 (peer 2 4 c)) fullShare (fun i v => pOut ct (sh := S1024x1024) i v rfl) := rest_dma ct c 3 4 2 0 rfl

theorem recv_at_peer_3_0_0 (c : Dev nD) :
    (sched ct).payload (dcell (peer 0 3 c) 3 3 0 0) 0 0 = heldV (peer 0 3 c) (dst_ag_3_0_0 c) fullShare (fun i v => pOut ct (sh := S1024x1024) i v rfl) := by
  show recv_ag_3_0_0 ct (peer 0 3 c) = _
  unfold recv_ag_3_0_0; rw [peer_peer]
theorem rest_S_3_0_0 (c : Dev nD) :
    bigSep ((sched ct).duties (dcell c 2 3 0 0) 0 \ ∅) (fun d => (sched ct).payload (dcell c 2 3 0 0) 0 d)
      = heldV c (src_ag_3_0_0 c) (shr 3) (fun i v => pOut ct (sh := S1024x1024) i v rfl) := rest_dma ct c 2 3 0 0 rfl
theorem rest_R_3_0_0 (c : Dev nD) :
    bigSep ((sched ct).duties (dcell c 3 3 0 0) 0 \ ∅) (fun d => (sched ct).payload (dcell c 3 3 0 0) 0 d)
      = heldV c (dst_ag_3_0_0 (peer 0 3 c)) fullShare (fun i v => pOut ct (sh := S1024x1024) i v rfl) := rest_dma ct c 3 3 0 0 rfl

theorem recv_at_peer_3_0_1 (c : Dev nD) :
    (sched ct).payload (dcell (peer 0 3 c) 3 3 0 1) 0 0 = heldV (peer 0 3 c) (dst_ag_3_0_1 c) fullShare (fun i v => pOut ct (sh := S1024x1024) i v rfl) := by
  show recv_ag_3_0_1 ct (peer 0 3 c) = _
  unfold recv_ag_3_0_1; rw [peer_peer]
theorem rest_S_3_0_1 (c : Dev nD) :
    bigSep ((sched ct).duties (dcell c 2 3 0 1) 0 \ ∅) (fun d => (sched ct).payload (dcell c 2 3 0 1) 0 d)
      = heldV c (src_ag_3_0_1 c) (shr 3) (fun i v => pOut ct (sh := S1024x1024) i v rfl) := rest_dma ct c 2 3 0 1 rfl
theorem rest_R_3_0_1 (c : Dev nD) :
    bigSep ((sched ct).duties (dcell c 3 3 0 1) 0 \ ∅) (fun d => (sched ct).payload (dcell c 3 3 0 1) 0 d)
      = heldV c (dst_ag_3_0_1 (peer 0 3 c)) fullShare (fun i v => pOut ct (sh := S1024x1024) i v rfl) := rest_dma ct c 3 3 0 1 rfl

theorem recv_at_peer_3_1_0 (c : Dev nD) :
    (sched ct).payload (dcell (peer 1 3 c) 3 3 1 0) 0 0 = heldV (peer 1 3 c) (dst_ag_3_1_0 c) fullShare (fun i v => pOut ct (sh := S1024x1024) i v rfl) := by
  show recv_ag_3_1_0 ct (peer 1 3 c) = _
  unfold recv_ag_3_1_0; rw [peer_peer]
theorem rest_S_3_1_0 (c : Dev nD) :
    bigSep ((sched ct).duties (dcell c 2 3 1 0) 0 \ ∅) (fun d => (sched ct).payload (dcell c 2 3 1 0) 0 d)
      = heldV c (src_ag_3_1_0 c) (shr 3) (fun i v => pOut ct (sh := S1024x1024) i v rfl) := rest_dma ct c 2 3 1 0 rfl
theorem rest_R_3_1_0 (c : Dev nD) :
    bigSep ((sched ct).duties (dcell c 3 3 1 0) 0 \ ∅) (fun d => (sched ct).payload (dcell c 3 3 1 0) 0 d)
      = heldV c (dst_ag_3_1_0 (peer 1 3 c)) fullShare (fun i v => pOut ct (sh := S1024x1024) i v rfl) := rest_dma ct c 3 3 1 0 rfl

theorem recv_at_peer_3_1_1 (c : Dev nD) :
    (sched ct).payload (dcell (peer 1 3 c) 3 3 1 1) 0 0 = heldV (peer 1 3 c) (dst_ag_3_1_1 c) fullShare (fun i v => pOut ct (sh := S1024x1024) i v rfl) := by
  show recv_ag_3_1_1 ct (peer 1 3 c) = _
  unfold recv_ag_3_1_1; rw [peer_peer]
theorem rest_S_3_1_1 (c : Dev nD) :
    bigSep ((sched ct).duties (dcell c 2 3 1 1) 0 \ ∅) (fun d => (sched ct).payload (dcell c 2 3 1 1) 0 d)
      = heldV c (src_ag_3_1_1 c) (shr 3) (fun i v => pOut ct (sh := S1024x1024) i v rfl) := rest_dma ct c 2 3 1 1 rfl
theorem rest_R_3_1_1 (c : Dev nD) :
    bigSep ((sched ct).duties (dcell c 3 3 1 1) 0 \ ∅) (fun d => (sched ct).payload (dcell c 3 3 1 1) 0 d)
      = heldV c (dst_ag_3_1_1 (peer 1 3 c)) fullShare (fun i v => pOut ct (sh := S1024x1024) i v rfl) := rest_dma ct c 3 3 1 1 rfl

theorem recv_at_peer_3_2_0 (c : Dev nD) :
    (sched ct).payload (dcell (peer 2 3 c) 3 3 2 0) 0 0 = heldV (peer 2 3 c) (dst_ag_3_2_0 c) fullShare (fun i v => pOut ct (sh := S1024x1024) i v rfl) := by
  show recv_ag_3_2_0 ct (peer 2 3 c) = _
  unfold recv_ag_3_2_0; rw [peer_peer]
theorem rest_S_3_2_0 (c : Dev nD) :
    bigSep ((sched ct).duties (dcell c 2 3 2 0) 0 \ ∅) (fun d => (sched ct).payload (dcell c 2 3 2 0) 0 d)
      = heldV c (src_ag_3_2_0 c) (shr 3) (fun i v => pOut ct (sh := S1024x1024) i v rfl) := rest_dma ct c 2 3 2 0 rfl
theorem rest_R_3_2_0 (c : Dev nD) :
    bigSep ((sched ct).duties (dcell c 3 3 2 0) 0 \ ∅) (fun d => (sched ct).payload (dcell c 3 3 2 0) 0 d)
      = heldV c (dst_ag_3_2_0 (peer 2 3 c)) fullShare (fun i v => pOut ct (sh := S1024x1024) i v rfl) := rest_dma ct c 3 3 2 0 rfl

theorem recv_at_peer_3_2_1 (c : Dev nD) :
    (sched ct).payload (dcell (peer 2 3 c) 3 3 2 1) 0 0 = heldV (peer 2 3 c) (dst_ag_3_2_1 c) fullShare (fun i v => pOut ct (sh := S1024x1024) i v rfl) := by
  show recv_ag_3_2_1 ct (peer 2 3 c) = _
  unfold recv_ag_3_2_1; rw [peer_peer]
theorem rest_S_3_2_1 (c : Dev nD) :
    bigSep ((sched ct).duties (dcell c 2 3 2 1) 0 \ ∅) (fun d => (sched ct).payload (dcell c 2 3 2 1) 0 d)
      = heldV c (src_ag_3_2_1 c) (shr 3) (fun i v => pOut ct (sh := S1024x1024) i v rfl) := rest_dma ct c 2 3 2 1 rfl
theorem rest_R_3_2_1 (c : Dev nD) :
    bigSep ((sched ct).duties (dcell c 3 3 2 1) 0 \ ∅) (fun d => (sched ct).payload (dcell c 3 3 2 1) 0 d)
      = heldV c (dst_ag_3_2_1 (peer 2 3 c)) fullShare (fun i v => pOut ct (sh := S1024x1024) i v rfl) := rest_dma ct c 3 3 2 1 rfl

theorem recv_at_peer_2_0_0 (c : Dev nD) :
    (sched ct).payload (dcell (peer 0 2 c) 3 2 0 0) 0 0 = heldV (peer 0 2 c) (dst_ag_2_0_0 c) fullShare (fun i v => pOut ct (sh := S1024x1024) i v rfl) := by
  show recv_ag_2_0_0 ct (peer 0 2 c) = _
  unfold recv_ag_2_0_0; rw [peer_peer]
theorem rest_S_2_0_0 (c : Dev nD) :
    bigSep ((sched ct).duties (dcell c 2 2 0 0) 0 \ ∅) (fun d => (sched ct).payload (dcell c 2 2 0 0) 0 d)
      = heldV c (src_ag_2_0_0 c) (shr 2) (fun i v => pOut ct (sh := S1024x1024) i v rfl) := rest_dma ct c 2 2 0 0 rfl
theorem rest_R_2_0_0 (c : Dev nD) :
    bigSep ((sched ct).duties (dcell c 3 2 0 0) 0 \ ∅) (fun d => (sched ct).payload (dcell c 3 2 0 0) 0 d)
      = heldV c (dst_ag_2_0_0 (peer 0 2 c)) fullShare (fun i v => pOut ct (sh := S1024x1024) i v rfl) := rest_dma ct c 3 2 0 0 rfl

theorem recv_at_peer_2_0_1 (c : Dev nD) :
    (sched ct).payload (dcell (peer 0 2 c) 3 2 0 1) 0 0 = heldV (peer 0 2 c) (dst_ag_2_0_1 c) fullShare (fun i v => pOut ct (sh := S1024x1024) i v rfl) := by
  show recv_ag_2_0_1 ct (peer 0 2 c) = _
  unfold recv_ag_2_0_1; rw [peer_peer]
theorem rest_S_2_0_1 (c : Dev nD) :
    bigSep ((sched ct).duties (dcell c 2 2 0 1) 0 \ ∅) (fun d => (sched ct).payload (dcell c 2 2 0 1) 0 d)
      = heldV c (src_ag_2_0_1 c) (shr 2) (fun i v => pOut ct (sh := S1024x1024) i v rfl) := rest_dma ct c 2 2 0 1 rfl
theorem rest_R_2_0_1 (c : Dev nD) :
    bigSep ((sched ct).duties (dcell c 3 2 0 1) 0 \ ∅) (fun d => (sched ct).payload (dcell c 3 2 0 1) 0 d)
      = heldV c (dst_ag_2_0_1 (peer 0 2 c)) fullShare (fun i v => pOut ct (sh := S1024x1024) i v rfl) := rest_dma ct c 3 2 0 1 rfl

theorem recv_at_peer_2_1_0 (c : Dev nD) :
    (sched ct).payload (dcell (peer 1 2 c) 3 2 1 0) 0 0 = heldV (peer 1 2 c) (dst_ag_2_1_0 c) fullShare (fun i v => pOut ct (sh := S1024x1024) i v rfl) := by
  show recv_ag_2_1_0 ct (peer 1 2 c) = _
  unfold recv_ag_2_1_0; rw [peer_peer]
theorem rest_S_2_1_0 (c : Dev nD) :
    bigSep ((sched ct).duties (dcell c 2 2 1 0) 0 \ ∅) (fun d => (sched ct).payload (dcell c 2 2 1 0) 0 d)
      = heldV c (src_ag_2_1_0 c) (shr 2) (fun i v => pOut ct (sh := S1024x1024) i v rfl) := rest_dma ct c 2 2 1 0 rfl
theorem rest_R_2_1_0 (c : Dev nD) :
    bigSep ((sched ct).duties (dcell c 3 2 1 0) 0 \ ∅) (fun d => (sched ct).payload (dcell c 3 2 1 0) 0 d)
      = heldV c (dst_ag_2_1_0 (peer 1 2 c)) fullShare (fun i v => pOut ct (sh := S1024x1024) i v rfl) := rest_dma ct c 3 2 1 0 rfl

theorem recv_at_peer_2_1_1 (c : Dev nD) :
    (sched ct).payload (dcell (peer 1 2 c) 3 2 1 1) 0 0 = heldV (peer 1 2 c) (dst_ag_2_1_1 c) fullShare (fun i v => pOut ct (sh := S1024x1024) i v rfl) := by
  show recv_ag_2_1_1 ct (peer 1 2 c) = _
  unfold recv_ag_2_1_1; rw [peer_peer]
theorem rest_S_2_1_1 (c : Dev nD) :
    bigSep ((sched ct).duties (dcell c 2 2 1 1) 0 \ ∅) (fun d => (sched ct).payload (dcell c 2 2 1 1) 0 d)
      = heldV c (src_ag_2_1_1 c) (shr 2) (fun i v => pOut ct (sh := S1024x1024) i v rfl) := rest_dma ct c 2 2 1 1 rfl
theorem rest_R_2_1_1 (c : Dev nD) :
    bigSep ((sched ct).duties (dcell c 3 2 1 1) 0 \ ∅) (fun d => (sched ct).payload (dcell c 3 2 1 1) 0 d)
      = heldV c (dst_ag_2_1_1 (peer 1 2 c)) fullShare (fun i v => pOut ct (sh := S1024x1024) i v rfl) := rest_dma ct c 3 2 1 1 rfl

theorem recv_at_peer_2_2_0 (c : Dev nD) :
    (sched ct).payload (dcell (peer 2 2 c) 3 2 2 0) 0 0 = heldV (peer 2 2 c) (dst_ag_2_2_0 c) fullShare (fun i v => pOut ct (sh := S1024x1024) i v rfl) := by
  show recv_ag_2_2_0 ct (peer 2 2 c) = _
  unfold recv_ag_2_2_0; rw [peer_peer]
theorem rest_S_2_2_0 (c : Dev nD) :
    bigSep ((sched ct).duties (dcell c 2 2 2 0) 0 \ ∅) (fun d => (sched ct).payload (dcell c 2 2 2 0) 0 d)
      = heldV c (src_ag_2_2_0 c) (shr 2) (fun i v => pOut ct (sh := S1024x1024) i v rfl) := rest_dma ct c 2 2 2 0 rfl
theorem rest_R_2_2_0 (c : Dev nD) :
    bigSep ((sched ct).duties (dcell c 3 2 2 0) 0 \ ∅) (fun d => (sched ct).payload (dcell c 3 2 2 0) 0 d)
      = heldV c (dst_ag_2_2_0 (peer 2 2 c)) fullShare (fun i v => pOut ct (sh := S1024x1024) i v rfl) := rest_dma ct c 3 2 2 0 rfl

theorem recv_at_peer_2_2_1 (c : Dev nD) :
    (sched ct).payload (dcell (peer 2 2 c) 3 2 2 1) 0 0 = heldV (peer 2 2 c) (dst_ag_2_2_1 c) fullShare (fun i v => pOut ct (sh := S1024x1024) i v rfl) := by
  show recv_ag_2_2_1 ct (peer 2 2 c) = _
  unfold recv_ag_2_2_1; rw [peer_peer]
theorem rest_S_2_2_1 (c : Dev nD) :
    bigSep ((sched ct).duties (dcell c 2 2 2 1) 0 \ ∅) (fun d => (sched ct).payload (dcell c 2 2 2 1) 0 d)
      = heldV c (src_ag_2_2_1 c) (shr 2) (fun i v => pOut ct (sh := S1024x1024) i v rfl) := rest_dma ct c 2 2 2 1 rfl
theorem rest_R_2_2_1 (c : Dev nD) :
    bigSep ((sched ct).duties (dcell c 3 2 2 1) 0 \ ∅) (fun d => (sched ct).payload (dcell c 3 2 2 1) 0 d)
      = heldV c (dst_ag_2_2_1 (peer 2 2 c)) fullShare (fun i v => pOut ct (sh := S1024x1024) i v rfl) := rest_dma ct c 3 2 2 1 rfl

theorem recv_at_peer_1_0_0 (c : Dev nD) :
    (sched ct).payload (dcell (peer 0 1 c) 3 1 0 0) 0 0 = heldV (peer 0 1 c) (dst_ag_1_0_0 c) fullShare (fun i v => pOut ct (sh := S1024x1024) i v rfl) := by
  show recv_ag_1_0_0 ct (peer 0 1 c) = _
  unfold recv_ag_1_0_0; rw [peer_peer]
theorem rest_S_1_0_0 (c : Dev nD) :
    bigSep ((sched ct).duties (dcell c 2 1 0 0) 0 \ ∅) (fun d => (sched ct).payload (dcell c 2 1 0 0) 0 d)
      = heldV c (src_ag_1_0_0 c) (shr 1) (fun i v => pOut ct (sh := S1024x1024) i v rfl) := rest_dma ct c 2 1 0 0 rfl
theorem rest_R_1_0_0 (c : Dev nD) :
    bigSep ((sched ct).duties (dcell c 3 1 0 0) 0 \ ∅) (fun d => (sched ct).payload (dcell c 3 1 0 0) 0 d)
      = heldV c (dst_ag_1_0_0 (peer 0 1 c)) fullShare (fun i v => pOut ct (sh := S1024x1024) i v rfl) := rest_dma ct c 3 1 0 0 rfl

theorem recv_at_peer_1_0_1 (c : Dev nD) :
    (sched ct).payload (dcell (peer 0 1 c) 3 1 0 1) 0 0 = heldV (peer 0 1 c) (dst_ag_1_0_1 c) fullShare (fun i v => pOut ct (sh := S1024x1024) i v rfl) := by
  show recv_ag_1_0_1 ct (peer 0 1 c) = _
  unfold recv_ag_1_0_1; rw [peer_peer]
theorem rest_S_1_0_1 (c : Dev nD) :
    bigSep ((sched ct).duties (dcell c 2 1 0 1) 0 \ ∅) (fun d => (sched ct).payload (dcell c 2 1 0 1) 0 d)
      = heldV c (src_ag_1_0_1 c) (shr 1) (fun i v => pOut ct (sh := S1024x1024) i v rfl) := rest_dma ct c 2 1 0 1 rfl
theorem rest_R_1_0_1 (c : Dev nD) :
    bigSep ((sched ct).duties (dcell c 3 1 0 1) 0 \ ∅) (fun d => (sched ct).payload (dcell c 3 1 0 1) 0 d)
      = heldV c (dst_ag_1_0_1 (peer 0 1 c)) fullShare (fun i v => pOut ct (sh := S1024x1024) i v rfl) := rest_dma ct c 3 1 0 1 rfl

theorem recv_at_peer_1_1_0 (c : Dev nD) :
    (sched ct).payload (dcell (peer 1 1 c) 3 1 1 0) 0 0 = heldV (peer 1 1 c) (dst_ag_1_1_0 c) fullShare (fun i v => pOut ct (sh := S1024x1024) i v rfl) := by
  show recv_ag_1_1_0 ct (peer 1 1 c) = _
  unfold recv_ag_1_1_0; rw [peer_peer]
theorem rest_S_1_1_0 (c : Dev nD) :
    bigSep ((sched ct).duties (dcell c 2 1 1 0) 0 \ ∅) (fun d => (sched ct).payload (dcell c 2 1 1 0) 0 d)
      = heldV c (src_ag_1_1_0 c) (shr 1) (fun i v => pOut ct (sh := S1024x1024) i v rfl) := rest_dma ct c 2 1 1 0 rfl
theorem rest_R_1_1_0 (c : Dev nD) :
    bigSep ((sched ct).duties (dcell c 3 1 1 0) 0 \ ∅) (fun d => (sched ct).payload (dcell c 3 1 1 0) 0 d)
      = heldV c (dst_ag_1_1_0 (peer 1 1 c)) fullShare (fun i v => pOut ct (sh := S1024x1024) i v rfl) := rest_dma ct c 3 1 1 0 rfl

theorem recv_at_peer_1_1_1 (c : Dev nD) :
    (sched ct).payload (dcell (peer 1 1 c) 3 1 1 1) 0 0 = heldV (peer 1 1 c) (dst_ag_1_1_1 c) fullShare (fun i v => pOut ct (sh := S1024x1024) i v rfl) := by
  show recv_ag_1_1_1 ct (peer 1 1 c) = _
  unfold recv_ag_1_1_1; rw [peer_peer]
theorem rest_S_1_1_1 (c : Dev nD) :
    bigSep ((sched ct).duties (dcell c 2 1 1 1) 0 \ ∅) (fun d => (sched ct).payload (dcell c 2 1 1 1) 0 d)
      = heldV c (src_ag_1_1_1 c) (shr 1) (fun i v => pOut ct (sh := S1024x1024) i v rfl) := rest_dma ct c 2 1 1 1 rfl
theorem rest_R_1_1_1 (c : Dev nD) :
    bigSep ((sched ct).duties (dcell c 3 1 1 1) 0 \ ∅) (fun d => (sched ct).payload (dcell c 3 1 1 1) 0 d)
      = heldV c (dst_ag_1_1_1 (peer 1 1 c)) fullShare (fun i v => pOut ct (sh := S1024x1024) i v rfl) := rest_dma ct c 3 1 1 1 rfl

theorem recv_at_peer_1_2_0 (c : Dev nD) :
    (sched ct).payload (dcell (peer 2 1 c) 3 1 2 0) 0 0 = heldV (peer 2 1 c) (dst_ag_1_2_0 c) fullShare (fun i v => pOut ct (sh := S1024x1024) i v rfl) := by
  show recv_ag_1_2_0 ct (peer 2 1 c) = _
  unfold recv_ag_1_2_0; rw [peer_peer]
theorem rest_S_1_2_0 (c : Dev nD) :
    bigSep ((sched ct).duties (dcell c 2 1 2 0) 0 \ ∅) (fun d => (sched ct).payload (dcell c 2 1 2 0) 0 d)
      = heldV c (src_ag_1_2_0 c) (shr 1) (fun i v => pOut ct (sh := S1024x1024) i v rfl) := rest_dma ct c 2 1 2 0 rfl
theorem rest_R_1_2_0 (c : Dev nD) :
    bigSep ((sched ct).duties (dcell c 3 1 2 0) 0 \ ∅) (fun d => (sched ct).payload (dcell c 3 1 2 0) 0 d)
      = heldV c (dst_ag_1_2_0 (peer 2 1 c)) fullShare (fun i v => pOut ct (sh := S1024x1024) i v rfl) := rest_dma ct c 3 1 2 0 rfl

theorem recv_at_peer_1_2_1 (c : Dev nD) :
    (sched ct).payload (dcell (peer 2 1 c) 3 1 2 1) 0 0 = heldV (peer 2 1 c) (dst_ag_1_2_1 c) fullShare (fun i v => pOut ct (sh := S1024x1024) i v rfl) := by
  show recv_ag_1_2_1 ct (peer 2 1 c) = _
  unfold recv_ag_1_2_1; rw [peer_peer]
theorem rest_S_1_2_1 (c : Dev nD) :
    bigSep ((sched ct).duties (dcell c 2 1 2 1) 0 \ ∅) (fun d => (sched ct).payload (dcell c 2 1 2 1) 0 d)
      = heldV c (src_ag_1_2_1 c) (shr 1) (fun i v => pOut ct (sh := S1024x1024) i v rfl) := rest_dma ct c 2 1 2 1 rfl
theorem rest_R_1_2_1 (c : Dev nD) :
    bigSep ((sched ct).duties (dcell c 3 1 2 1) 0 \ ∅) (fun d => (sched ct).payload (dcell c 3 1 2 1) 0 d)
      = heldV c (dst_ag_1_2_1 (peer 2 1 c)) fullShare (fun i v => pOut ct (sh := S1024x1024) i v rfl) := rest_dma ct c 3 1 2 1 rfl

theorem recv_at_peer_0_0_0 (c : Dev nD) :
    (sched ct).payload (dcell (peer 0 0 c) 3 0 0 0) 0 0 = heldV (peer 0 0 c) (dst_ag_0_0_0 c) fullShare (fun i v => pOut ct (sh := S1024x1024) i v rfl) := by
  show recv_ag_0_0_0 ct (peer 0 0 c) = _
  unfold recv_ag_0_0_0; rw [peer_peer]
theorem rest_S_0_0_0 (c : Dev nD) :
    bigSep ((sched ct).duties (dcell c 2 0 0 0) 0 \ ∅) (fun d => (sched ct).payload (dcell c 2 0 0 0) 0 d)
      = heldV c (src_ag_0_0_0 c) (shr 0) (fun i v => pOut ct (sh := S1024x1024) i v rfl) := rest_dma ct c 2 0 0 0 rfl
theorem rest_R_0_0_0 (c : Dev nD) :
    bigSep ((sched ct).duties (dcell c 3 0 0 0) 0 \ ∅) (fun d => (sched ct).payload (dcell c 3 0 0 0) 0 d)
      = heldV c (dst_ag_0_0_0 (peer 0 0 c)) fullShare (fun i v => pOut ct (sh := S1024x1024) i v rfl) := rest_dma ct c 3 0 0 0 rfl

theorem recv_at_peer_0_0_1 (c : Dev nD) :
    (sched ct).payload (dcell (peer 0 0 c) 3 0 0 1) 0 0 = heldV (peer 0 0 c) (dst_ag_0_0_1 c) fullShare (fun i v => pOut ct (sh := S1024x1024) i v rfl) := by
  show recv_ag_0_0_1 ct (peer 0 0 c) = _
  unfold recv_ag_0_0_1; rw [peer_peer]
theorem rest_S_0_0_1 (c : Dev nD) :
    bigSep ((sched ct).duties (dcell c 2 0 0 1) 0 \ ∅) (fun d => (sched ct).payload (dcell c 2 0 0 1) 0 d)
      = heldV c (src_ag_0_0_1 c) (shr 0) (fun i v => pOut ct (sh := S1024x1024) i v rfl) := rest_dma ct c 2 0 0 1 rfl
theorem rest_R_0_0_1 (c : Dev nD) :
    bigSep ((sched ct).duties (dcell c 3 0 0 1) 0 \ ∅) (fun d => (sched ct).payload (dcell c 3 0 0 1) 0 d)
      = heldV c (dst_ag_0_0_1 (peer 0 0 c)) fullShare (fun i v => pOut ct (sh := S1024x1024) i v rfl) := rest_dma ct c 3 0 0 1 rfl

theorem recv_at_peer_0_1_0 (c : Dev nD) :
    (sched ct).payload (dcell (peer 1 0 c) 3 0 1 0) 0 0 = heldV (peer 1 0 c) (dst_ag_0_1_0 c) fullShare (fun i v => pOut ct (sh := S1024x1024) i v rfl) := by
  show recv_ag_0_1_0 ct (peer 1 0 c) = _
  unfold recv_ag_0_1_0; rw [peer_peer]
theorem rest_S_0_1_0 (c : Dev nD) :
    bigSep ((sched ct).duties (dcell c 2 0 1 0) 0 \ ∅) (fun d => (sched ct).payload (dcell c 2 0 1 0) 0 d)
      = heldV c (src_ag_0_1_0 c) (shr 0) (fun i v => pOut ct (sh := S1024x1024) i v rfl) := rest_dma ct c 2 0 1 0 rfl
theorem rest_R_0_1_0 (c : Dev nD) :
    bigSep ((sched ct).duties (dcell c 3 0 1 0) 0 \ ∅) (fun d => (sched ct).payload (dcell c 3 0 1 0) 0 d)
      = heldV c (dst_ag_0_1_0 (peer 1 0 c)) fullShare (fun i v => pOut ct (sh := S1024x1024) i v rfl) := rest_dma ct c 3 0 1 0 rfl

theorem recv_at_peer_0_1_1 (c : Dev nD) :
    (sched ct).payload (dcell (peer 1 0 c) 3 0 1 1) 0 0 = heldV (peer 1 0 c) (dst_ag_0_1_1 c) fullShare (fun i v => pOut ct (sh := S1024x1024) i v rfl) := by
  show recv_ag_0_1_1 ct (peer 1 0 c) = _
  unfold recv_ag_0_1_1; rw [peer_peer]
theorem rest_S_0_1_1 (c : Dev nD) :
    bigSep ((sched ct).duties (dcell c 2 0 1 1) 0 \ ∅) (fun d => (sched ct).payload (dcell c 2 0 1 1) 0 d)
      = heldV c (src_ag_0_1_1 c) (shr 0) (fun i v => pOut ct (sh := S1024x1024) i v rfl) := rest_dma ct c 2 0 1 1 rfl
theorem rest_R_0_1_1 (c : Dev nD) :
    bigSep ((sched ct).duties (dcell c 3 0 1 1) 0 \ ∅) (fun d => (sched ct).payload (dcell c 3 0 1 1) 0 d)
      = heldV c (dst_ag_0_1_1 (peer 1 0 c)) fullShare (fun i v => pOut ct (sh := S1024x1024) i v rfl) := rest_dma ct c 3 0 1 1 rfl

theorem recv_at_peer_0_2_0 (c : Dev nD) :
    (sched ct).payload (dcell (peer 2 0 c) 3 0 2 0) 0 0 = heldV (peer 2 0 c) (dst_ag_0_2_0 c) fullShare (fun i v => pOut ct (sh := S1024x1024) i v rfl) := by
  show recv_ag_0_2_0 ct (peer 2 0 c) = _
  unfold recv_ag_0_2_0; rw [peer_peer]
theorem rest_S_0_2_0 (c : Dev nD) :
    bigSep ((sched ct).duties (dcell c 2 0 2 0) 0 \ ∅) (fun d => (sched ct).payload (dcell c 2 0 2 0) 0 d)
      = heldV c (src_ag_0_2_0 c) (shr 0) (fun i v => pOut ct (sh := S1024x1024) i v rfl) := rest_dma ct c 2 0 2 0 rfl
theorem rest_R_0_2_0 (c : Dev nD) :
    bigSep ((sched ct).duties (dcell c 3 0 2 0) 0 \ ∅) (fun d => (sched ct).payload (dcell c 3 0 2 0) 0 d)
      = heldV c (dst_ag_0_2_0 (peer 2 0 c)) fullShare (fun i v => pOut ct (sh := S1024x1024) i v rfl) := rest_dma ct c 3 0 2 0 rfl

theorem recv_at_peer_0_2_1 (c : Dev nD) :
    (sched ct).payload (dcell (peer 2 0 c) 3 0 2 1) 0 0 = heldV (peer 2 0 c) (dst_ag_0_2_1 c) fullShare (fun i v => pOut ct (sh := S1024x1024) i v rfl) := by
  show recv_ag_0_2_1 ct (peer 2 0 c) = _
  unfold recv_ag_0_2_1; rw [peer_peer]
theorem rest_S_0_2_1 (c : Dev nD) :
    bigSep ((sched ct).duties (dcell c 2 0 2 1) 0 \ ∅) (fun d => (sched ct).payload (dcell c 2 0 2 1) 0 d)
      = heldV c (src_ag_0_2_1 c) (shr 0) (fun i v => pOut ct (sh := S1024x1024) i v rfl) := rest_dma ct c 2 0 2 1 rfl
theorem rest_R_0_2_1 (c : Dev nD) :
    bigSep ((sched ct).duties (dcell c 3 0 2 1) 0 \ ∅) (fun d => (sched ct).payload (dcell c 3 0 2 1) 0 d)
      = heldV c (dst_ag_0_2_1 (peer 2 0 c)) fullShare (fun i v => pOut ct (sh := S1024x1024) i v rfl) := rest_dma ct c 3 0 2 1 rfl

theorem owes_end (c : Dev nD) (W : Waits sig Unit) :
    (owes (c : Thread nD τ) (owedFrom c 59) W : sProp (MT nD τ sig Unit (Elt F) ℕ UU ℕ)) ⊢ owes (c : Thread nD τ) 0 W :=
  Entails.of_eq (by rw [owedFrom_59])

/-- One transfer of the gathering phase: the source rows held at a share under the contract and the partner's
    landing rows lent go out; the departure's credit comes back and one payment less is owed. The partner is
    named by the program's word for it. -/
theorem ag_send {sh : Shape} (c p p' : Dev nD) (hp : p' = p) (m : Memref sig .tc .vmem sh .bf16) (semS semR : DmaSem sig)
    {hsc : m.view.ref.isScScratch = false} {hsrc hdst : m.view.WordExact}
    {hsem : DmaTarget.Typed (nD := nD) (τ := τ) .vmem (SemLoc.dma semR) (.remote ((p' : Dev nD) : Thread nD τ) m (SemLoc.dma semS) hsc)}
    {α : Type} {k : PUnit → Prog (TpuEff nD τ sig (Elt F) Λ₀ .tc) α} {Q : α → sProp (MT nD τ sig Unit (Elt F) ℕ UU ℕ)}
    (q : PosShare TreeShare) (P : m.view.ty.Idx → Elt F m.view.ty.elt → Prop)
    {κ₁ κ₂ : ℕ} {O₀ : CellTallies nD τ sig Unit} (O : CellTallies nD τ sig Unit) {W : Waits sig Unit} (N : ℕ)
    (hd₁ : (0 : Fin 5) ∈ (sched ct).duties ((c : Thread nD τ), SemLoc.dma semS) 0)
    (hd₂ : (0 : Fin 5) ∈ (sched ct).duties ((p : Thread nD τ), SemLoc.dma semR) 0)
    (hN : m.view.amount (SemLoc.dma semR) = N)
    (hk₁ : (sched ct).amount ((c : Thread nD τ), SemLoc.dma semS) 0 0 = N)
    (hk₂ : (sched ct).amount ((p : Thread nD τ), SemLoc.dma semR) 0 0 = N)
    (hO : O₀ = O + tallyAt ((p : Thread nD τ), SemLoc.dma semR) () N)
    (hp₁ : (sched ct).payload ((c : Thread nD τ), SemLoc.dma semS) 0 0 = heldV c m q P)
    (hp₂ : (sched ct).payload ((p : Thread nD τ), SemLoc.dma semR) 0 0 = heldV p m fullShare P) :
    iprop(cellInv ER (sched ct) κ₁ ((c : Thread nD τ), SemLoc.dma semS) ∗ cellInv ER (sched ct) κ₂ ((p : Thread nD τ), SemLoc.dma semR)
        ∗ heldV c m q P ∗ loanV p m ∗ owes (c : Thread nD τ) O₀ W
        ∗ dutyTok ER ((c : Thread nD τ), SemLoc.dma semS) 0 0 ∗ reached ER ((c : Thread nD τ), SemLoc.dma semS) 0
        ∗ dutyTok ER ((p : Thread nD τ), SemLoc.dma semR) 0 0 ∗ reached ER ((p : Thread nD τ), SemLoc.dma semR) 0)
      ⊢ iprop(((cred (tallyAt ((c : Thread nD τ), SemLoc.dma semS) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma m (.remote ((p' : Dev nD) : Thread nD τ) m (SemLoc.dma semS) hsc) (SemLoc.dma semR) hsrc hdst hsem) k) Q) := by
  subst hp
  exact open_send c p' m q P (fun fs fd hfs =>
    Rounds.wp_send_pointsTo 𝒱₀ ER (sched ct) (c : Thread nD τ) none (c' := ((p' : Dev nD) : Thread nD τ))
      (src := m) (dst := m) (sS := SemLoc.dma semS) (sem := SemLoc.dma semR)
      (q := q) (fs := fs) (fd := fd) (r₁ := 0) (r₂ := 0) (d₁ := 0) (d₂ := 0)
      hd₁ hd₂ () () N hN hk₁ hk₂ O hO
      ((hpay1 c m q P fs hfs).trans (Entails.of_eq hp₁.symm))
      ((hpay2 c p' m P fs fd hfs).trans (Entails.of_eq hp₂.symm)) (hr := Topo.routes_tc _ _))

/-- One wait of the gathering phase on one of the device's own transfer cells, and the cell closed: the round's
    payload comes out and the semaphore is at zero again. -/
theorem ag_wait {sh : Shape} (c : Dev nD) (a : Fin 4) (s : Fin 5) (k : Fin 3) (j : Fin 2) (h : usedIx (dsem a s k j).val = true)
    (m : Memref sig .tc .vmem sh .bf16) {hsrc hdst : m.view.WordExact}
    {α : Type} {kk : PUnit → Prog (TpuEff nD τ sig (Elt F) Λ₀ .tc) α} {Q : α → sProp (MT nD τ sig Unit (Elt F) ℕ UU ℕ)}
    {O : CellTallies nD τ sig Unit} {W : Waits sig Unit} (Pay : sProp (MT nD τ sig Unit (Elt F) ℕ UU ℕ))
    (hcred : m.view.dmaCredit = amtIx (dsem a s k j).val)
    (hrest : bigSep ((sched ct).duties (dcell c a s k j) 0 \ ∅) (fun d => (sched ct).payload (dcell c a s k j) 0 d) = Pay) :
    iprop(records ct K ∗ cred (tallyAt (dcell c a s k j) () (amtIx (dsem a s k j).val)) ∗ owes (c : Thread nD τ) O W
        ∗ MayWait (c : Thread nD τ) (SemLoc.dma (dsem a s k j)) () O ∗ atPos ER (dcell c a s k j) 0 ∅ 0)
      ⊢ iprop(((owes (c : Thread nD τ) O (insert (SemLoc.dma (dsem a s k j), ()) W) ∗ semVal (dcell c a s k j) 0 ∗ Pay)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (dsem a s k j) m m hsrc hdst) kk) Q) := by
  subst hrest
  have hw : ∀ Kc : PUnit → sProp (MT nD τ sig Unit (Elt F) ℕ UU ℕ),
      wpE (defs₀ (F := F)) 𝒱₀ (c : Thread nD τ) none Set.univ (.waitDma2 (dsem a s k j) m m hsrc hdst) Kc
        = waitSpec (c : Thread nD τ) Set.univ (SemLoc.dma (dsem a s k j)) (amtIx (dsem a s k j).val) Kc :=
    fun Kc => hcred ▸ wpE_waitDma2_eq 𝒱₀ (c : Thread nD τ) none Set.univ Kc
  iintro H Hk
  icases H with ⟨#HR, Hc, How, #Hmw, Hat⟩
  ihave HI := (inv_dma ct K c a s k j h) $$ HR
  icases HI with #HI
  iapply (Rounds.wp_wait_rest_token 𝒱₀ ER (sched ct) (c : Thread nD τ) none hw
    (Set.mem_univ _) () (R := 0) (T := ∅) (m := 0) (expect_at ct c a s k j h)) $$ [Hc How Hat]
  · isplitr
    · iexact HI
    isplitl [Hc]
    · iexact Hc
    isplitl [How]
    · iexact How
    isplitr
    · iexact Hmw
    iexact Hat
  iintro H
  icases H with ⟨How, Hat, -, Hpay⟩
  imod (Rounds.cell_close ER (sched ct) (g := dcell c a s k j) (Set.mem_univ _) (fun h => h) (R := 1)
    (fun r hr => duties_later ct _ r hr)) $$ [Hat] with Hv
  · isplitr
    · iexact HI
    iexact Hat
  iapply Hk
  isplitl [How]
  · iexact How
  isplitl [Hv]
  · iexact Hv
  iexact Hpay

variable (c : Dev nD) (YA : S1024x512.Idx → F .f32) (YB : S512x1024.Idx → F .f32)

set_option maxHeartbeats 4000000 in
theorem segC (Kt : PUnit → sProp (MT nD τ sig Unit (Elt F) ℕ UU ℕ)) : SegC ct K c YA YB Kt := by
  unfold SegC
  intro v3 v4 v5 v6 v7 v8 v9 v10 v11 v12 v13 v14 v15 v16 v17 v18 v20 v22 v24 v26 v28 v827 v868 v909
  unfold Pre40 toksAG posAG credAG landAG
  iintro H
  icases H with ⟨H, HK⟩
  icases H with ⟨#HR, #Hlev, HowE, Htoks, Hpos, Hcred, HcRS, Hidle, HYA, HYB, Hown, Hsc, Hland⟩
  icases HowE with ⟨%W, How⟩
  icases Htoks with ⟨⟨TS400, TR400⟩, ⟨TS410, TR410⟩, ⟨TS420, TR420⟩, ⟨TS300, TR300⟩, ⟨TS301, TR301⟩, ⟨TS310, TR310⟩, ⟨TS311, TR311⟩, ⟨TS320, TR320⟩, ⟨TS321, TR321⟩, ⟨TS200, TR200⟩, ⟨TS201, TR201⟩, ⟨TS210, TR210⟩, ⟨TS211, TR211⟩, ⟨TS220, TR220⟩, ⟨TS221, TR221⟩, ⟨TS100, TR100⟩, ⟨TS101, TR101⟩, ⟨TS110, TR110⟩, ⟨TS111, TR111⟩, ⟨TS120, TR120⟩, ⟨TS121, TR121⟩, ⟨TS000, TR000⟩, ⟨TS001, TR001⟩, ⟨TS010, TR010⟩, ⟨TS011, TR011⟩, ⟨TS020, TR020⟩, ⟨TS021, TR021⟩⟩
  icases Hpos with ⟨⟨PS400, PR400⟩, ⟨PS410, PR410⟩, ⟨PS420, PR420⟩, ⟨PS300, PR300⟩, ⟨PS301, PR301⟩, ⟨PS310, PR310⟩, ⟨PS311, PR311⟩, ⟨PS320, PR320⟩, ⟨PS321, PR321⟩, ⟨PS200, PR200⟩, ⟨PS201, PR201⟩, ⟨PS210, PR210⟩, ⟨PS211, PR211⟩, ⟨PS220, PR220⟩, ⟨PS221, PR221⟩, ⟨PS100, PR100⟩, ⟨PS101, PR101⟩, ⟨PS110, PR110⟩, ⟨PS111, PR111⟩, ⟨PS120, PR120⟩, ⟨PS121, PR121⟩, ⟨PS000, PR000⟩, ⟨PS001, PR001⟩, ⟨PS010, PR010⟩, ⟨PS011, PR011⟩, ⟨PS020, PR020⟩, ⟨PS021, PR021⟩⟩
  icases Hcred with ⟨CR400, CR410, CR420, CR300, CR301, CR310, CR311, CR320, CR321, CR200, CR201, CR210, CR211, CR220, CR221, CR100, CR101, CR110, CR111, CR120, CR121, CR000, CR001, CR010, CR011, CR020, CR021⟩
  icases Hland with ⟨LD400, LD410, LD420, LD300, LD301, LD310, LD311, LD320, LD321, LD200, LD201, LD210, LD211, LD220, LD221, LD100, LD101, LD110, LD111, LD120, LD121, LD000, LD001, LD010, LD011, LD020, LD021⟩
  icases Hown with ⟨O0, O1, O2⟩
  ihave O0 := (heldV_shr c (src_ag_4_0_0 c) 3 4 rfl (fun i v => pOut ct (sh := S1024x1024) i v rfl)).1 $$ O0
  icases O0 with ⟨A3_0, A4_0⟩
  ihave O1 := (heldV_shr c (src_ag_4_1_0 c) 3 4 rfl (fun i v => pOut ct (sh := S1024x1024) i v rfl)).1 $$ O1
  icases O1 with ⟨A3_1, A4_1⟩
  ihave O2 := (heldV_shr c (src_ag_4_2_0 c) 3 4 rfl (fun i v => pOut ct (sh := S1024x1024) i v rfl)).1 $$ O2
  icases O2 with ⟨A3_2, A4_2⟩
  -- exchange 4, column block 0, piece 0: the transfer
  iapply (ag_send ct c (peer 0 4 c) _ (dev_ag_4_0_0 c) (src_ag_4_0_0 c) (dsem 2 4 0 0) (dsem 3 4 0 0) (shr 4) (fun i v => pOut ct (sh := S1024x1024) i v rfl)
    (owedFrom c 33) (amtIx (dsem 2 4 0 0).val)
    (duty_mem ct c 2 4 0 0 rfl) (duty_mem ct (peer 0 4 c) 3 4 0 0 rfl) rfl rfl rfl (owed_step_32 c) rfl
    (recv_at_peer_4_0_0 ct c)) $$ [A4_0 LD400 How TS400 TR400]
  · isplitr
    · iapply (inv_dma ct K c 2 4 0 0 rfl); iexact HR
    isplitr
    · iapply (inv_dma ct K (peer 0 4 c) 3 4 0 0 rfl); iexact HR
    isplitl [A4_0]
    · iexact A4_0
    isplitl [LD400]
    · iexact LD400
    isplitl [How]
    · iexact How
    isplitl [TS400]
    · iexact TS400
    isplitr
    · iapply (reached_dma ct K c 2 4 0 0 rfl); iexact HR
    isplitl [TR400]
    · iexact TR400
    iapply (reached_dma ct K (peer 0 4 c) 3 4 0 0 rfl); iexact HR
  iintro H
  icases H with ⟨CS400, How⟩
  -- exchange 4, column block 1, piece 0: the transfer
  iapply (ag_send ct c (peer 1 4 c) _ (dev_ag_4_1_0 c) (src_ag_4_1_0 c) (dsem 2 4 1 0) (dsem 3 4 1 0) (shr 4) (fun i v => pOut ct (sh := S1024x1024) i v rfl)
    (owedFrom c 34) (amtIx (dsem 2 4 1 0).val)
    (duty_mem ct c 2 4 1 0 rfl) (duty_mem ct (peer 1 4 c) 3 4 1 0 rfl) rfl rfl rfl (owed_step_33 c) rfl
    (recv_at_peer_4_1_0 ct c)) $$ [A4_1 LD410 How TS410 TR410]
  · isplitr
    · iapply (inv_dma ct K c 2 4 1 0 rfl); iexact HR
    isplitr
    · iapply (inv_dma ct K (peer 1 4 c) 3 4 1 0 rfl); iexact HR
    isplitl [A4_1]
    · iexact A4_1
    isplitl [LD410]
    · iexact LD410
    isplitl [How]
    · iexact How
    isplitl [TS410]
    · iexact TS410
    isplitr
    · iapply (reached_dma ct K c 2 4 1 0 rfl); iexact HR
    isplitl [TR410]
    · iexact TR410
    iapply (reached_dma ct K (peer 1 4 c) 3 4 1 0 rfl); iexact HR
  iintro H
  icases H with ⟨CS410, How⟩
  -- exchange 4, column block 2, piece 0: the transfer
  iapply (ag_send ct c (peer 2 4 c) _ (dev_ag_4_2_0 c) (src_ag_4_2_0 c) (dsem 2 4 2 0) (dsem 3 4 2 0) (shr 4) (fun i v => pOut ct (sh := S1024x1024) i v rfl)
    (owedFrom c 35) (amtIx (dsem 2 4 2 0).val)
    (duty_mem ct c 2 4 2 0 rfl) (duty_mem ct (peer 2 4 c) 3 4 2 0 rfl) rfl rfl rfl (owed_step_34 c) rfl
    (recv_at_peer_4_2_0 ct c)) $$ [A4_2 LD420 How TS420 TR420]
  · isplitr
    · iapply (inv_dma ct K c 2 4 2 0 rfl); iexact HR
    isplitr
    · iapply (inv_dma ct K (peer 2 4 c) 3 4 2 0 rfl); iexact HR
    isplitl [A4_2]
    · iexact A4_2
    isplitl [LD420]
    · iexact LD420
    isplitl [How]
    · iexact How
    isplitl [TS420]
    · iexact TS420
    isplitr
    · iapply (reached_dma ct K c 2 4 2 0 rfl); iexact HR
    isplitl [TR420]
    · iexact TR420
    iapply (reached_dma ct K (peer 2 4 c) 3 4 2 0 rfl); iexact HR
  iintro H
  icases H with ⟨CS420, How⟩
  -- exchange 3, column block 0, piece 0: the transfer
  iapply (ag_send ct c (peer 0 3 c) _ (dev_ag_3_0_0 c) (src_ag_3_0_0 c) (dsem 2 3 0 0) (dsem 3 3 0 0) (shr 3) (fun i v => pOut ct (sh := S1024x1024) i v rfl)
    (owedFrom c 36) (amtIx (dsem 2 3 0 0).val)
    (duty_mem ct c 2 3 0 0 rfl) (duty_mem ct (peer 0 3 c) 3 3 0 0 rfl) rfl rfl rfl (owed_step_35 c) rfl
    (recv_at_peer_3_0_0 ct c)) $$ [A3_0 LD300 How TS300 TR300]
  · isplitr
    · iapply (inv_dma ct K c 2 3 0 0 rfl); iexact HR
    isplitr
    · iapply (inv_dma ct K (peer 0 3 c) 3 3 0 0 rfl); iexact HR
    isplitl [A3_0]
    · iexact A3_0
    isplitl [LD300]
    · iexact LD300
    isplitl [How]
    · iexact How
    isplitl [TS300]
    · iexact TS300
    isplitr
    · iapply (reached_dma ct K c 2 3 0 0 rfl); iexact HR
    isplitl [TR300]
    · iexact TR300
    iapply (reached_dma ct K (peer 0 3 c) 3 3 0 0 rfl); iexact HR
  iintro H
  icases H with ⟨CS300, How⟩
  -- exchange 4, column block 0, piece 0: the wait on the departure cell, and the cell closed
  iapply (ag_wait ct K c 2 4 0 0 rfl (src_ag_4_0_0 c) _ rfl (rest_S_4_0_0 ct c)) $$ [CS400 How PS400]
  · isplitr
    · iexact HR
    isplitl [CS400]
    · iexact CS400
    isplitl [How]
    · iexact How
    isplitr
    · iapply (mayWait_cell c 2 4 0 0 36 (by decide +kernel)); iexact Hlev
    iexact PS400
  iintro H
  icases H with ⟨How, VS400, GS400⟩
  -- exchange 4, column block 0, piece 0: the wait on the arrival cell, and the cell closed
  iapply (ag_wait ct K c 3 4 0 0 rfl (src_ag_4_0_0 c) _ rfl (rest_R_4_0_0 ct c)) $$ [CR400 How PR400]
  · isplitr
    · iexact HR
    isplitl [CR400]
    · iexact CR400
    isplitl [How]
    · iexact How
    isplitr
    · iapply (mayWait_cell c 3 4 0 0 36 (by decide +kernel)); iexact Hlev
    iexact PR400
  iintro H
  icases H with ⟨How, VR400, GR400⟩
  ihave L := (Entails.of_eq (held_src_ag_3_0_1 c fullShare (fun (i : S1024x1024.Idx) (v : Elt F .bf16) => pOut ct (sh := S1024x1024) i v rfl)).symm) $$ GR400
  ihave L := (heldV_shr c (src_ag_3_0_1 c) 3 4 rfl (fun i v => pOut ct (sh := S1024x1024) i v rfl)).1 $$ L
  icases L with ⟨B3_0, Y3_0⟩
  -- exchange 3, column block 0, piece 1: the transfer
  iapply (ag_send ct c (peer 0 3 c) _ (dev_ag_3_0_1 c) (src_ag_3_0_1 c) (dsem 2 3 0 1) (dsem 3 3 0 1) (shr 3) (fun i v => pOut ct (sh := S1024x1024) i v rfl)
    (owedFrom c 37) (amtIx (dsem 2 3 0 1).val)
    (duty_mem ct c 2 3 0 1 rfl) (duty_mem ct (peer 0 3 c) 3 3 0 1 rfl) rfl rfl rfl (owed_step_36 c) rfl
    (recv_at_peer_3_0_1 ct c)) $$ [B3_0 LD301 How TS301 TR301]
  · isplitr
    · iapply (inv_dma ct K c 2 3 0 1 rfl); iexact HR
    isplitr
    · iapply (inv_dma ct K (peer 0 3 c) 3 3 0 1 rfl); iexact HR
    isplitl [B3_0]
    · iexact B3_0
    isplitl [LD301]
    · iexact LD301
    isplitl [How]
    · iexact How
    isplitl [TS301]
    · iexact TS301
    isplitr
    · iapply (reached_dma ct K c 2 3 0 1 rfl); iexact HR
    isplitl [TR301]
    · iexact TR301
    iapply (reached_dma ct K (peer 0 3 c) 3 3 0 1 rfl); iexact HR
  iintro H
  icases H with ⟨CS301, How⟩
  -- exchange 3, column block 1, piece 0: the transfer
  iapply (ag_send ct c (peer 1 3 c) _ (dev_ag_3_1_0 c) (src_ag_3_1_0 c) (dsem 2 3 1 0) (dsem 3 3 1 0) (shr 3) (fun i v => pOut ct (sh := S1024x1024) i v rfl)
    (owedFrom c 38) (amtIx (dsem 2 3 1 0).val)
    (duty_mem ct c 2 3 1 0 rfl) (duty_mem ct (peer 1 3 c) 3 3 1 0 rfl) rfl rfl rfl (owed_step_37 c) rfl
    (recv_at_peer_3_1_0 ct c)) $$ [A3_1 LD310 How TS310 TR310]
  · isplitr
    · iapply (inv_dma ct K c 2 3 1 0 rfl); iexact HR
    isplitr
    · iapply (inv_dma ct K (peer 1 3 c) 3 3 1 0 rfl); iexact HR
    isplitl [A3_1]
    · iexact A3_1
    isplitl [LD310]
    · iexact LD310
    isplitl [How]
    · iexact How
    isplitl [TS310]
    · iexact TS310
    isplitr
    · iapply (reached_dma ct K c 2 3 1 0 rfl); iexact HR
    isplitl [TR310]
    · iexact TR310
    iapply (reached_dma ct K (peer 1 3 c) 3 3 1 0 rfl); iexact HR
  iintro H
  icases H with ⟨CS310, How⟩
  -- exchange 4, column block 1, piece 0: the wait on the departure cell, and the cell closed
  iapply (ag_wait ct K c 2 4 1 0 rfl (src_ag_4_1_0 c) _ rfl (rest_S_4_1_0 ct c)) $$ [CS410 How PS410]
  · isplitr
    · iexact HR
    isplitl [CS410]
    · iexact CS410
    isplitl [How]
    · iexact How
    isplitr
    · iapply (mayWait_cell c 2 4 1 0 38 (by decide +kernel)); iexact Hlev
    iexact PS410
  iintro H
  icases H with ⟨How, VS410, GS410⟩
  -- exchange 4, column block 1, piece 0: the wait on the arrival cell, and the cell closed
  iapply (ag_wait ct K c 3 4 1 0 rfl (src_ag_4_1_0 c) _ rfl (rest_R_4_1_0 ct c)) $$ [CR410 How PR410]
  · isplitr
    · iexact HR
    isplitl [CR410]
    · iexact CR410
    isplitl [How]
    · iexact How
    isplitr
    · iapply (mayWait_cell c 3 4 1 0 38 (by decide +kernel)); iexact Hlev
    iexact PR410
  iintro H
  icases H with ⟨How, VR410, GR410⟩
  ihave L := (Entails.of_eq (held_src_ag_3_1_1 c fullShare (fun (i : S1024x1024.Idx) (v : Elt F .bf16) => pOut ct (sh := S1024x1024) i v rfl)).symm) $$ GR410
  ihave L := (heldV_shr c (src_ag_3_1_1 c) 3 4 rfl (fun i v => pOut ct (sh := S1024x1024) i v rfl)).1 $$ L
  icases L with ⟨B3_1, Y3_1⟩
  -- exchange 3, column block 1, piece 1: the transfer
  iapply (ag_send ct c (peer 1 3 c) _ (dev_ag_3_1_1 c) (src_ag_3_1_1 c) (dsem 2 3 1 1) (dsem 3 3 1 1) (shr 3) (fun i v => pOut ct (sh := S1024x1024) i v rfl)
    (owedFrom c 39) (amtIx (dsem 2 3 1 1).val)
    (duty_mem ct c 2 3 1 1 rfl) (duty_mem ct (peer 1 3 c) 3 3 1 1 rfl) rfl rfl rfl (owed_step_38 c) rfl
    (recv_at_peer_3_1_1 ct c)) $$ [B3_1 LD311 How TS311 TR311]
  · isplitr
    · iapply (inv_dma ct K c 2 3 1 1 rfl); iexact HR
    isplitr
    · iapply (inv_dma ct K (peer 1 3 c) 3 3 1 1 rfl); iexact HR
    isplitl [B3_1]
    · iexact B3_1
    isplitl [LD311]
    · iexact LD311
    isplitl [How]
    · iexact How
    isplitl [TS311]
    · iexact TS311
    isplitr
    · iapply (reached_dma ct K c 2 3 1 1 rfl); iexact HR
    isplitl [TR311]
    · iexact TR311
    iapply (reached_dma ct K (peer 1 3 c) 3 3 1 1 rfl); iexact HR
  iintro H
  icases H with ⟨CS311, How⟩
  -- exchange 3, column block 2, piece 0: the transfer
  iapply (ag_send ct c (peer 2 3 c) _ (dev_ag_3_2_0 c) (src_ag_3_2_0 c) (dsem 2 3 2 0) (dsem 3 3 2 0) (shr 3) (fun i v => pOut ct (sh := S1024x1024) i v rfl)
    (owedFrom c 40) (amtIx (dsem 2 3 2 0).val)
    (duty_mem ct c 2 3 2 0 rfl) (duty_mem ct (peer 2 3 c) 3 3 2 0 rfl) rfl rfl rfl (owed_step_39 c) rfl
    (recv_at_peer_3_2_0 ct c)) $$ [A3_2 LD320 How TS320 TR320]
  · isplitr
    · iapply (inv_dma ct K c 2 3 2 0 rfl); iexact HR
    isplitr
    · iapply (inv_dma ct K (peer 2 3 c) 3 3 2 0 rfl); iexact HR
    isplitl [A3_2]
    · iexact A3_2
    isplitl [LD320]
    · iexact LD320
    isplitl [How]
    · iexact How
    isplitl [TS320]
    · iexact TS320
    isplitr
    · iapply (reached_dma ct K c 2 3 2 0 rfl); iexact HR
    isplitl [TR320]
    · iexact TR320
    iapply (reached_dma ct K (peer 2 3 c) 3 3 2 0 rfl); iexact HR
  iintro H
  icases H with ⟨CS320, How⟩
  -- exchange 4, column block 2, piece 0: the wait on the departure cell, and the cell closed
  iapply (ag_wait ct K c 2 4 2 0 rfl (src_ag_4_2_0 c) _ rfl (rest_S_4_2_0 ct c)) $$ [CS420 How PS420]
  · isplitr
    · iexact HR
    isplitl [CS420]
    · iexact CS420
    isplitl [How]
    · iexact How
    isplitr
    · iapply (mayWait_cell c 2 4 2 0 40 (by decide +kernel)); iexact Hlev
    iexact PS420
  iintro H
  icases H with ⟨How, VS420, GS420⟩
  -- exchange 4, column block 2, piece 0: the wait on the arrival cell, and the cell closed
  iapply (ag_wait ct K c 3 4 2 0 rfl (src_ag_4_2_0 c) _ rfl (rest_R_4_2_0 ct c)) $$ [CR420 How PR420]
  · isplitr
    · iexact HR
    isplitl [CR420]
    · iexact CR420
    isplitl [How]
    · iexact How
    isplitr
    · iapply (mayWait_cell c 3 4 2 0 40 (by decide +kernel)); iexact Hlev
    iexact PR420
  iintro H
  icases H with ⟨How, VR420, GR420⟩
  ihave L := (Entails.of_eq (held_src_ag_3_2_1 c fullShare (fun (i : S1024x1024.Idx) (v : Elt F .bf16) => pOut ct (sh := S1024x1024) i v rfl)).symm) $$ GR420
  ihave L := (heldV_shr c (src_ag_3_2_1 c) 3 4 rfl (fun i v => pOut ct (sh := S1024x1024) i v rfl)).1 $$ L
  icases L with ⟨B3_2, Y3_2⟩
  -- exchange 3, column block 2, piece 1: the transfer
  iapply (ag_send ct c (peer 2 3 c) _ (dev_ag_3_2_1 c) (src_ag_3_2_1 c) (dsem 2 3 2 1) (dsem 3 3 2 1) (shr 3) (fun i v => pOut ct (sh := S1024x1024) i v rfl)
    (owedFrom c 41) (amtIx (dsem 2 3 2 1).val)
    (duty_mem ct c 2 3 2 1 rfl) (duty_mem ct (peer 2 3 c) 3 3 2 1 rfl) rfl rfl rfl (owed_step_40 c) rfl
    (recv_at_peer_3_2_1 ct c)) $$ [B3_2 LD321 How TS321 TR321]
  · isplitr
    · iapply (inv_dma ct K c 2 3 2 1 rfl); iexact HR
    isplitr
    · iapply (inv_dma ct K (peer 2 3 c) 3 3 2 1 rfl); iexact HR
    isplitl [B3_2]
    · iexact B3_2
    isplitl [LD321]
    · iexact LD321
    isplitl [How]
    · iexact How
    isplitl [TS321]
    · iexact TS321
    isplitr
    · iapply (reached_dma ct K c 2 3 2 1 rfl); iexact HR
    isplitl [TR321]
    · iexact TR321
    iapply (reached_dma ct K (peer 2 3 c) 3 3 2 1 rfl); iexact HR
  iintro H
  icases H with ⟨CS321, How⟩
  ihave Z2_0 := (held_src_ag_2_0_0 c (shr 4) (fun (i : S1024x1024.Idx) (v : Elt F .bf16) => pOut ct (sh := S1024x1024) i v rfl)).2 $$ [GS400 Y3_0]
  · isplitl [GS400]
    · iexact GS400
    · iexact Y3_0
  ihave Z2_0 := (heldV_cast c (src_ag_2_0_0 c) shr42 (fun i v => pOut ct (sh := S1024x1024) i v rfl)) $$ Z2_0
  -- exchange 2, column block 0, piece 0: the transfer
  iapply (ag_send ct c (peer 0 2 c) _ (dev_ag_2_0_0 c) (src_ag_2_0_0 c) (dsem 2 2 0 0) (dsem 3 2 0 0) (shr 2) (fun i v => pOut ct (sh := S1024x1024) i v rfl)
    (owedFrom c 42) (amtIx (dsem 2 2 0 0).val)
    (duty_mem ct c 2 2 0 0 rfl) (duty_mem ct (peer 0 2 c) 3 2 0 0 rfl) rfl rfl rfl (owed_step_41 c) rfl
    (recv_at_peer_2_0_0 ct c)) $$ [Z2_0 LD200 How TS200 TR200]
  · isplitr
    · iapply (inv_dma ct K c 2 2 0 0 rfl); iexact HR
    isplitr
    · iapply (inv_dma ct K (peer 0 2 c) 3 2 0 0 rfl); iexact HR
    isplitl [Z2_0]
    · iexact Z2_0
    isplitl [LD200]
    · iexact LD200
    isplitl [How]
    · iexact How
    isplitl [TS200]
    · iexact TS200
    isplitr
    · iapply (reached_dma ct K c 2 2 0 0 rfl); iexact HR
    isplitl [TR200]
    · iexact TR200
    iapply (reached_dma ct K (peer 0 2 c) 3 2 0 0 rfl); iexact HR
  iintro H
  icases H with ⟨CS200, How⟩
  -- exchange 3, column block 0, piece 0: the wait on the departure cell, and the cell closed
  iapply (ag_wait ct K c 2 3 0 0 rfl (src_ag_3_0_0 c) _ rfl (rest_S_3_0_0 ct c)) $$ [CS300 How PS300]
  · isplitr
    · iexact HR
    isplitl [CS300]
    · iexact CS300
    isplitl [How]
    · iexact How
    isplitr
    · iapply (mayWait_cell c 2 3 0 0 42 (by decide +kernel)); iexact Hlev
    iexact PS300
  iintro H
  icases H with ⟨How, VS300, GS300⟩
  -- exchange 3, column block 0, piece 0: the wait on the arrival cell, and the cell closed
  iapply (ag_wait ct K c 3 3 0 0 rfl (src_ag_3_0_0 c) _ rfl (rest_R_3_0_0 ct c)) $$ [CR300 How PR300]
  · isplitr
    · iexact HR
    isplitl [CR300]
    · iexact CR300
    isplitl [How]
    · iexact How
    isplitr
    · iapply (mayWait_cell c 3 3 0 0 42 (by decide +kernel)); iexact Hlev
    iexact PR300
  iintro H
  icases H with ⟨How, VR300, GR300⟩
  -- exchange 3, column block 0, piece 1: the wait on the departure cell, and the cell closed
  iapply (ag_wait ct K c 2 3 0 1 rfl (src_ag_3_0_1 c) _ rfl (rest_S_3_0_1 ct c)) $$ [CS301 How PS301]
  · isplitr
    · iexact HR
    isplitl [CS301]
    · iexact CS301
    isplitl [How]
    · iexact How
    isplitr
    · iapply (mayWait_cell c 2 3 0 1 42 (by decide +kernel)); iexact Hlev
    iexact PS301
  iintro H
  icases H with ⟨How, VS301, GS301⟩
  -- exchange 3, column block 0, piece 1: the wait on the arrival cell, and the cell closed
  iapply (ag_wait ct K c 3 3 0 1 rfl (src_ag_3_0_1 c) _ rfl (rest_R_3_0_1 ct c)) $$ [CR301 How PR301]
  · isplitr
    · iexact HR
    isplitl [CR301]
    · iexact CR301
    isplitl [How]
    · iexact How
    isplitr
    · iapply (mayWait_cell c 3 3 0 1 42 (by decide +kernel)); iexact Hlev
    iexact PR301
  iintro H
  icases H with ⟨How, VR301, GR301⟩
  ihave L := (held_src_ag_2_0_1 c fullShare (fun (i : S1024x1024.Idx) (v : Elt F .bf16) => pOut ct (sh := S1024x1024) i v rfl)).2 $$ [GR300 GR301]
  · isplitl [GR300]
    · iexact GR300
    · iexact GR301
  ihave L := (heldV_shr c (src_ag_2_0_1 c) 2 3 rfl (fun i v => pOut ct (sh := S1024x1024) i v rfl)).1 $$ L
  icases L with ⟨B2_0, Y2_0⟩
  -- exchange 2, column block 0, piece 1: the transfer
  iapply (ag_send ct c (peer 0 2 c) _ (dev_ag_2_0_1 c) (src_ag_2_0_1 c) (dsem 2 2 0 1) (dsem 3 2 0 1) (shr 2) (fun i v => pOut ct (sh := S1024x1024) i v rfl)
    (owedFrom c 43) (amtIx (dsem 2 2 0 1).val)
    (duty_mem ct c 2 2 0 1 rfl) (duty_mem ct (peer 0 2 c) 3 2 0 1 rfl) rfl rfl rfl (owed_step_42 c) rfl
    (recv_at_peer_2_0_1 ct c)) $$ [B2_0 LD201 How TS201 TR201]
  · isplitr
    · iapply (inv_dma ct K c 2 2 0 1 rfl); iexact HR
    isplitr
    · iapply (inv_dma ct K (peer 0 2 c) 3 2 0 1 rfl); iexact HR
    isplitl [B2_0]
    · iexact B2_0
    isplitl [LD201]
    · iexact LD201
    isplitl [How]
    · iexact How
    isplitl [TS201]
    · iexact TS201
    isplitr
    · iapply (reached_dma ct K c 2 2 0 1 rfl); iexact HR
    isplitl [TR201]
    · iexact TR201
    iapply (reached_dma ct K (peer 0 2 c) 3 2 0 1 rfl); iexact HR
  iintro H
  icases H with ⟨CS201, How⟩
  ihave Z2_1 := (held_src_ag_2_1_0 c (shr 4) (fun (i : S1024x1024.Idx) (v : Elt F .bf16) => pOut ct (sh := S1024x1024) i v rfl)).2 $$ [GS410 Y3_1]
  · isplitl [GS410]
    · iexact GS410
    · iexact Y3_1
  ihave Z2_1 := (heldV_cast c (src_ag_2_1_0 c) shr42 (fun i v => pOut ct (sh := S1024x1024) i v rfl)) $$ Z2_1
  -- exchange 2, column block 1, piece 0: the transfer
  iapply (ag_send ct c (peer 1 2 c) _ (dev_ag_2_1_0 c) (src_ag_2_1_0 c) (dsem 2 2 1 0) (dsem 3 2 1 0) (shr 2) (fun i v => pOut ct (sh := S1024x1024) i v rfl)
    (owedFrom c 44) (amtIx (dsem 2 2 1 0).val)
    (duty_mem ct c 2 2 1 0 rfl) (duty_mem ct (peer 1 2 c) 3 2 1 0 rfl) rfl rfl rfl (owed_step_43 c) rfl
    (recv_at_peer_2_1_0 ct c)) $$ [Z2_1 LD210 How TS210 TR210]
  · isplitr
    · iapply (inv_dma ct K c 2 2 1 0 rfl); iexact HR
    isplitr
    · iapply (inv_dma ct K (peer 1 2 c) 3 2 1 0 rfl); iexact HR
    isplitl [Z2_1]
    · iexact Z2_1
    isplitl [LD210]
    · iexact LD210
    isplitl [How]
    · iexact How
    isplitl [TS210]
    · iexact TS210
    isplitr
    · iapply (reached_dma ct K c 2 2 1 0 rfl); iexact HR
    isplitl [TR210]
    · iexact TR210
    iapply (reached_dma ct K (peer 1 2 c) 3 2 1 0 rfl); iexact HR
  iintro H
  icases H with ⟨CS210, How⟩
  -- exchange 3, column block 1, piece 0: the wait on the departure cell, and the cell closed
  iapply (ag_wait ct K c 2 3 1 0 rfl (src_ag_3_1_0 c) _ rfl (rest_S_3_1_0 ct c)) $$ [CS310 How PS310]
  · isplitr
    · iexact HR
    isplitl [CS310]
    · iexact CS310
    isplitl [How]
    · iexact How
    isplitr
    · iapply (mayWait_cell c 2 3 1 0 44 (by decide +kernel)); iexact Hlev
    iexact PS310
  iintro H
  icases H with ⟨How, VS310, GS310⟩
  -- exchange 3, column block 1, piece 0: the wait on the arrival cell, and the cell closed
  iapply (ag_wait ct K c 3 3 1 0 rfl (src_ag_3_1_0 c) _ rfl (rest_R_3_1_0 ct c)) $$ [CR310 How PR310]
  · isplitr
    · iexact HR
    isplitl [CR310]
    · iexact CR310
    isplitl [How]
    · iexact How
    isplitr
    · iapply (mayWait_cell c 3 3 1 0 44 (by decide +kernel)); iexact Hlev
    iexact PR310
  iintro H
  icases H with ⟨How, VR310, GR310⟩
  -- exchange 3, column block 1, piece 1: the wait on the departure cell, and the cell closed
  iapply (ag_wait ct K c 2 3 1 1 rfl (src_ag_3_1_1 c) _ rfl (rest_S_3_1_1 ct c)) $$ [CS311 How PS311]
  · isplitr
    · iexact HR
    isplitl [CS311]
    · iexact CS311
    isplitl [How]
    · iexact How
    isplitr
    · iapply (mayWait_cell c 2 3 1 1 44 (by decide +kernel)); iexact Hlev
    iexact PS311
  iintro H
  icases H with ⟨How, VS311, GS311⟩
  -- exchange 3, column block 1, piece 1: the wait on the arrival cell, and the cell closed
  iapply (ag_wait ct K c 3 3 1 1 rfl (src_ag_3_1_1 c) _ rfl (rest_R_3_1_1 ct c)) $$ [CR311 How PR311]
  · isplitr
    · iexact HR
    isplitl [CR311]
    · iexact CR311
    isplitl [How]
    · iexact How
    isplitr
    · iapply (mayWait_cell c 3 3 1 1 44 (by decide +kernel)); iexact Hlev
    iexact PR311
  iintro H
  icases H with ⟨How, VR311, GR311⟩
  ihave L := (held_src_ag_2_1_1 c fullShare (fun (i : S1024x1024.Idx) (v : Elt F .bf16) => pOut ct (sh := S1024x1024) i v rfl)).2 $$ [GR310 GR311]
  · isplitl [GR310]
    · iexact GR310
    · iexact GR311
  ihave L := (heldV_shr c (src_ag_2_1_1 c) 2 3 rfl (fun i v => pOut ct (sh := S1024x1024) i v rfl)).1 $$ L
  icases L with ⟨B2_1, Y2_1⟩
  -- exchange 2, column block 1, piece 1: the transfer
  iapply (ag_send ct c (peer 1 2 c) _ (dev_ag_2_1_1 c) (src_ag_2_1_1 c) (dsem 2 2 1 1) (dsem 3 2 1 1) (shr 2) (fun i v => pOut ct (sh := S1024x1024) i v rfl)
    (owedFrom c 45) (amtIx (dsem 2 2 1 1).val)
    (duty_mem ct c 2 2 1 1 rfl) (duty_mem ct (peer 1 2 c) 3 2 1 1 rfl) rfl rfl rfl (owed_step_44 c) rfl
    (recv_at_peer_2_1_1 ct c)) $$ [B2_1 LD211 How TS211 TR211]
  · isplitr
    · iapply (inv_dma ct K c 2 2 1 1 rfl); iexact HR
    isplitr
    · iapply (inv_dma ct K (peer 1 2 c) 3 2 1 1 rfl); iexact HR
    isplitl [B2_1]
    · iexact B2_1
    isplitl [LD211]
    · iexact LD211
    isplitl [How]
    · iexact How
    isplitl [TS211]
    · iexact TS211
    isplitr
    · iapply (reached_dma ct K c 2 2 1 1 rfl); iexact HR
    isplitl [TR211]
    · iexact TR211
    iapply (reached_dma ct K (peer 1 2 c) 3 2 1 1 rfl); iexact HR
  iintro H
  icases H with ⟨CS211, How⟩
  ihave Z2_2 := (held_src_ag_2_2_0 c (shr 4) (fun (i : S1024x1024.Idx) (v : Elt F .bf16) => pOut ct (sh := S1024x1024) i v rfl)).2 $$ [GS420 Y3_2]
  · isplitl [GS420]
    · iexact GS420
    · iexact Y3_2
  ihave Z2_2 := (heldV_cast c (src_ag_2_2_0 c) shr42 (fun i v => pOut ct (sh := S1024x1024) i v rfl)) $$ Z2_2
  -- exchange 2, column block 2, piece 0: the transfer
  iapply (ag_send ct c (peer 2 2 c) _ (dev_ag_2_2_0 c) (src_ag_2_2_0 c) (dsem 2 2 2 0) (dsem 3 2 2 0) (shr 2) (fun i v => pOut ct (sh := S1024x1024) i v rfl)
    (owedFrom c 46) (amtIx (dsem 2 2 2 0).val)
    (duty_mem ct c 2 2 2 0 rfl) (duty_mem ct (peer 2 2 c) 3 2 2 0 rfl) rfl rfl rfl (owed_step_45 c) rfl
    (recv_at_peer_2_2_0 ct c)) $$ [Z2_2 LD220 How TS220 TR220]
  · isplitr
    · iapply (inv_dma ct K c 2 2 2 0 rfl); iexact HR
    isplitr
    · iapply (inv_dma ct K (peer 2 2 c) 3 2 2 0 rfl); iexact HR
    isplitl [Z2_2]
    · iexact Z2_2
    isplitl [LD220]
    · iexact LD220
    isplitl [How]
    · iexact How
    isplitl [TS220]
    · iexact TS220
    isplitr
    · iapply (reached_dma ct K c 2 2 2 0 rfl); iexact HR
    isplitl [TR220]
    · iexact TR220
    iapply (reached_dma ct K (peer 2 2 c) 3 2 2 0 rfl); iexact HR
  iintro H
  icases H with ⟨CS220, How⟩
  -- exchange 3, column block 2, piece 0: the wait on the departure cell, and the cell closed
  iapply (ag_wait ct K c 2 3 2 0 rfl (src_ag_3_2_0 c) _ rfl (rest_S_3_2_0 ct c)) $$ [CS320 How PS320]
  · isplitr
    · iexact HR
    isplitl [CS320]
    · iexact CS320
    isplitl [How]
    · iexact How
    isplitr
    · iapply (mayWait_cell c 2 3 2 0 46 (by decide +kernel)); iexact Hlev
    iexact PS320
  iintro H
  icases H with ⟨How, VS320, GS320⟩
  -- exchange 3, column block 2, piece 0: the wait on the arrival cell, and the cell closed
  iapply (ag_wait ct K c 3 3 2 0 rfl (src_ag_3_2_0 c) _ rfl (rest_R_3_2_0 ct c)) $$ [CR320 How PR320]
  · isplitr
    · iexact HR
    isplitl [CR320]
    · iexact CR320
    isplitl [How]
    · iexact How
    isplitr
    · iapply (mayWait_cell c 3 3 2 0 46 (by decide +kernel)); iexact Hlev
    iexact PR320
  iintro H
  icases H with ⟨How, VR320, GR320⟩
  -- exchange 3, column block 2, piece 1: the wait on the departure cell, and the cell closed
  iapply (ag_wait ct K c 2 3 2 1 rfl (src_ag_3_2_1 c) _ rfl (rest_S_3_2_1 ct c)) $$ [CS321 How PS321]
  · isplitr
    · iexact HR
    isplitl [CS321]
    · iexact CS321
    isplitl [How]
    · iexact How
    isplitr
    · iapply (mayWait_cell c 2 3 2 1 46 (by decide +kernel)); iexact Hlev
    iexact PS321
  iintro H
  icases H with ⟨How, VS321, GS321⟩
  -- exchange 3, column block 2, piece 1: the wait on the arrival cell, and the cell closed
  iapply (ag_wait ct K c 3 3 2 1 rfl (src_ag_3_2_1 c) _ rfl (rest_R_3_2_1 ct c)) $$ [CR321 How PR321]
  · isplitr
    · iexact HR
    isplitl [CR321]
    · iexact CR321
    isplitl [How]
    · iexact How
    isplitr
    · iapply (mayWait_cell c 3 3 2 1 46 (by decide +kernel)); iexact Hlev
    iexact PR321
  iintro H
  icases H with ⟨How, VR321, GR321⟩
  ihave L := (held_src_ag_2_2_1 c fullShare (fun (i : S1024x1024.Idx) (v : Elt F .bf16) => pOut ct (sh := S1024x1024) i v rfl)).2 $$ [GR320 GR321]
  · isplitl [GR320]
    · iexact GR320
    · iexact GR321
  ihave L := (heldV_shr c (src_ag_2_2_1 c) 2 3 rfl (fun i v => pOut ct (sh := S1024x1024) i v rfl)).1 $$ L
  icases L with ⟨B2_2, Y2_2⟩
  -- exchange 2, column block 2, piece 1: the transfer
  iapply (ag_send ct c (peer 2 2 c) _ (dev_ag_2_2_1 c) (src_ag_2_2_1 c) (dsem 2 2 2 1) (dsem 3 2 2 1) (shr 2) (fun i v => pOut ct (sh := S1024x1024) i v rfl)
    (owedFrom c 47) (amtIx (dsem 2 2 2 1).val)
    (duty_mem ct c 2 2 2 1 rfl) (duty_mem ct (peer 2 2 c) 3 2 2 1 rfl) rfl rfl rfl (owed_step_46 c) rfl
    (recv_at_peer_2_2_1 ct c)) $$ [B2_2 LD221 How TS221 TR221]
  · isplitr
    · iapply (inv_dma ct K c 2 2 2 1 rfl); iexact HR
    isplitr
    · iapply (inv_dma ct K (peer 2 2 c) 3 2 2 1 rfl); iexact HR
    isplitl [B2_2]
    · iexact B2_2
    isplitl [LD221]
    · iexact LD221
    isplitl [How]
    · iexact How
    isplitl [TS221]
    · iexact TS221
    isplitr
    · iapply (reached_dma ct K c 2 2 2 1 rfl); iexact HR
    isplitl [TR221]
    · iexact TR221
    iapply (reached_dma ct K (peer 2 2 c) 3 2 2 1 rfl); iexact HR
  iintro H
  icases H with ⟨CS221, How⟩
  ihave X2_0 := (held_src_ag_2_0_0 c (shr 3) (fun (i : S1024x1024.Idx) (v : Elt F .bf16) => pOut ct (sh := S1024x1024) i v rfl)).2 $$ [GS300 GS301]
  · isplitl [GS300]
    · iexact GS300
    · iexact GS301
  ihave Z1_0 := (held_src_ag_1_0_0 c (shr 3) (fun (i : S1024x1024.Idx) (v : Elt F .bf16) => pOut ct (sh := S1024x1024) i v rfl)).2 $$ [X2_0 Y2_0]
  · isplitl [X2_0]
    · iexact X2_0
    · iexact Y2_0
  ihave Z1_0 := (heldV_cast c (src_ag_1_0_0 c) shr31 (fun i v => pOut ct (sh := S1024x1024) i v rfl)) $$ Z1_0
  -- exchange 1, column block 0, piece 0: the transfer
  iapply (ag_send ct c (peer 0 1 c) _ (dev_ag_1_0_0 c) (src_ag_1_0_0 c) (dsem 2 1 0 0) (dsem 3 1 0 0) (shr 1) (fun i v => pOut ct (sh := S1024x1024) i v rfl)
    (owedFrom c 48) (amtIx (dsem 2 1 0 0).val)
    (duty_mem ct c 2 1 0 0 rfl) (duty_mem ct (peer 0 1 c) 3 1 0 0 rfl) rfl rfl rfl (owed_step_47 c) rfl
    (recv_at_peer_1_0_0 ct c)) $$ [Z1_0 LD100 How TS100 TR100]
  · isplitr
    · iapply (inv_dma ct K c 2 1 0 0 rfl); iexact HR
    isplitr
    · iapply (inv_dma ct K (peer 0 1 c) 3 1 0 0 rfl); iexact HR
    isplitl [Z1_0]
    · iexact Z1_0
    isplitl [LD100]
    · iexact LD100
    isplitl [How]
    · iexact How
    isplitl [TS100]
    · iexact TS100
    isplitr
    · iapply (reached_dma ct K c 2 1 0 0 rfl); iexact HR
    isplitl [TR100]
    · iexact TR100
    iapply (reached_dma ct K (peer 0 1 c) 3 1 0 0 rfl); iexact HR
  iintro H
  icases H with ⟨CS100, How⟩
  -- exchange 2, column block 0, piece 0: the wait on the departure cell, and the cell closed
  iapply (ag_wait ct K c 2 2 0 0 rfl (src_ag_2_0_0 c) _ rfl (rest_S_2_0_0 ct c)) $$ [CS200 How PS200]
  · isplitr
    · iexact HR
    isplitl [CS200]
    · iexact CS200
    isplitl [How]
    · iexact How
    isplitr
    · iapply (mayWait_cell c 2 2 0 0 48 (by decide +kernel)); iexact Hlev
    iexact PS200
  iintro H
  icases H with ⟨How, VS200, GS200⟩
  -- exchange 2, column block 0, piece 0: the wait on the arrival cell, and the cell closed
  iapply (ag_wait ct K c 3 2 0 0 rfl (src_ag_2_0_0 c) _ rfl (rest_R_2_0_0 ct c)) $$ [CR200 How PR200]
  · isplitr
    · iexact HR
    isplitl [CR200]
    · iexact CR200
    isplitl [How]
    · iexact How
    isplitr
    · iapply (mayWait_cell c 3 2 0 0 48 (by decide +kernel)); iexact Hlev
    iexact PR200
  iintro H
  icases H with ⟨How, VR200, GR200⟩
  -- exchange 2, column block 0, piece 1: the wait on the departure cell, and the cell closed
  iapply (ag_wait ct K c 2 2 0 1 rfl (src_ag_2_0_1 c) _ rfl (rest_S_2_0_1 ct c)) $$ [CS201 How PS201]
  · isplitr
    · iexact HR
    isplitl [CS201]
    · iexact CS201
    isplitl [How]
    · iexact How
    isplitr
    · iapply (mayWait_cell c 2 2 0 1 48 (by decide +kernel)); iexact Hlev
    iexact PS201
  iintro H
  icases H with ⟨How, VS201, GS201⟩
  -- exchange 2, column block 0, piece 1: the wait on the arrival cell, and the cell closed
  iapply (ag_wait ct K c 3 2 0 1 rfl (src_ag_2_0_1 c) _ rfl (rest_R_2_0_1 ct c)) $$ [CR201 How PR201]
  · isplitr
    · iexact HR
    isplitl [CR201]
    · iexact CR201
    isplitl [How]
    · iexact How
    isplitr
    · iapply (mayWait_cell c 3 2 0 1 48 (by decide +kernel)); iexact Hlev
    iexact PR201
  iintro H
  icases H with ⟨How, VR201, GR201⟩
  ihave L := (held_src_ag_1_0_1 c fullShare (fun (i : S1024x1024.Idx) (v : Elt F .bf16) => pOut ct (sh := S1024x1024) i v rfl)).2 $$ [GR200 GR201]
  · isplitl [GR200]
    · iexact GR200
    · iexact GR201
  ihave L := (heldV_shr c (src_ag_1_0_1 c) 1 2 rfl (fun i v => pOut ct (sh := S1024x1024) i v rfl)).1 $$ L
  icases L with ⟨B1_0, Y1_0⟩
  -- exchange 1, column block 0, piece 1: the transfer
  iapply (ag_send ct c (peer 0 1 c) _ (dev_ag_1_0_1 c) (src_ag_1_0_1 c) (dsem 2 1 0 1) (dsem 3 1 0 1) (shr 1) (fun i v => pOut ct (sh := S1024x1024) i v rfl)
    (owedFrom c 49) (amtIx (dsem 2 1 0 1).val)
    (duty_mem ct c 2 1 0 1 rfl) (duty_mem ct (peer 0 1 c) 3 1 0 1 rfl) rfl rfl rfl (owed_step_48 c) rfl
    (recv_at_peer_1_0_1 ct c)) $$ [B1_0 LD101 How TS101 TR101]
  · isplitr
    · iapply (inv_dma ct K c 2 1 0 1 rfl); iexact HR
    isplitr
    · iapply (inv_dma ct K (peer 0 1 c) 3 1 0 1 rfl); iexact HR
    isplitl [B1_0]
    · iexact B1_0
    isplitl [LD101]
    · iexact LD101
    isplitl [How]
    · iexact How
    isplitl [TS101]
    · iexact TS101
    isplitr
    · iapply (reached_dma ct K c 2 1 0 1 rfl); iexact HR
    isplitl [TR101]
    · iexact TR101
    iapply (reached_dma ct K (peer 0 1 c) 3 1 0 1 rfl); iexact HR
  iintro H
  icases H with ⟨CS101, How⟩
  ihave X2_1 := (held_src_ag_2_1_0 c (shr 3) (fun (i : S1024x1024.Idx) (v : Elt F .bf16) => pOut ct (sh := S1024x1024) i v rfl)).2 $$ [GS310 GS311]
  · isplitl [GS310]
    · iexact GS310
    · iexact GS311
  ihave Z1_1 := (held_src_ag_1_1_0 c (shr 3) (fun (i : S1024x1024.Idx) (v : Elt F .bf16) => pOut ct (sh := S1024x1024) i v rfl)).2 $$ [X2_1 Y2_1]
  · isplitl [X2_1]
    · iexact X2_1
    · iexact Y2_1
  ihave Z1_1 := (heldV_cast c (src_ag_1_1_0 c) shr31 (fun i v => pOut ct (sh := S1024x1024) i v rfl)) $$ Z1_1
  -- exchange 1, column block 1, piece 0: the transfer
  iapply (ag_send ct c (peer 1 1 c) _ (dev_ag_1_1_0 c) (src_ag_1_1_0 c) (dsem 2 1 1 0) (dsem 3 1 1 0) (shr 1) (fun i v => pOut ct (sh := S1024x1024) i v rfl)
    (owedFrom c 50) (amtIx (dsem 2 1 1 0).val)
    (duty_mem ct c 2 1 1 0 rfl) (duty_mem ct (peer 1 1 c) 3 1 1 0 rfl) rfl rfl rfl (owed_step_49 c) rfl
    (recv_at_peer_1_1_0 ct c)) $$ [Z1_1 LD110 How TS110 TR110]
  · isplitr
    · iapply (inv_dma ct K c 2 1 1 0 rfl); iexact HR
    isplitr
    · iapply (inv_dma ct K (peer 1 1 c) 3 1 1 0 rfl); iexact HR
    isplitl [Z1_1]
    · iexact Z1_1
    isplitl [LD110]
    · iexact LD110
    isplitl [How]
    · iexact How
    isplitl [TS110]
    · iexact TS110
    isplitr
    · iapply (reached_dma ct K c 2 1 1 0 rfl); iexact HR
    isplitl [TR110]
    · iexact TR110
    iapply (reached_dma ct K (peer 1 1 c) 3 1 1 0 rfl); iexact HR
  iintro H
  icases H with ⟨CS110, How⟩
  -- exchange 2, column block 1, piece 0: the wait on the departure cell, and the cell closed
  iapply (ag_wait ct K c 2 2 1 0 rfl (src_ag_2_1_0 c) _ rfl (rest_S_2_1_0 ct c)) $$ [CS210 How PS210]
  · isplitr
    · iexact HR
    isplitl [CS210]
    · iexact CS210
    isplitl [How]
    · iexact How
    isplitr
    · iapply (mayWait_cell c 2 2 1 0 50 (by decide +kernel)); iexact Hlev
    iexact PS210
  iintro H
  icases H with ⟨How, VS210, GS210⟩
  -- exchange 2, column block 1, piece 0: the wait on the arrival cell, and the cell closed
  iapply (ag_wait ct K c 3 2 1 0 rfl (src_ag_2_1_0 c) _ rfl (rest_R_2_1_0 ct c)) $$ [CR210 How PR210]
  · isplitr
    · iexact HR
    isplitl [CR210]
    · iexact CR210
    isplitl [How]
    · iexact How
    isplitr
    · iapply (mayWait_cell c 3 2 1 0 50 (by decide +kernel)); iexact Hlev
    iexact PR210
  iintro H
  icases H with ⟨How, VR210, GR210⟩
  -- exchange 2, column block 1, piece 1: the wait on the departure cell, and the cell closed
  iapply (ag_wait ct K c 2 2 1 1 rfl (src_ag_2_1_1 c) _ rfl (rest_S_2_1_1 ct c)) $$ [CS211 How PS211]
  · isplitr
    · iexact HR
    isplitl [CS211]
    · iexact CS211
    isplitl [How]
    · iexact How
    isplitr
    · iapply (mayWait_cell c 2 2 1 1 50 (by decide +kernel)); iexact Hlev
    iexact PS211
  iintro H
  icases H with ⟨How, VS211, GS211⟩
  -- exchange 2, column block 1, piece 1: the wait on the arrival cell, and the cell closed
  iapply (ag_wait ct K c 3 2 1 1 rfl (src_ag_2_1_1 c) _ rfl (rest_R_2_1_1 ct c)) $$ [CR211 How PR211]
  · isplitr
    · iexact HR
    isplitl [CR211]
    · iexact CR211
    isplitl [How]
    · iexact How
    isplitr
    · iapply (mayWait_cell c 3 2 1 1 50 (by decide +kernel)); iexact Hlev
    iexact PR211
  iintro H
  icases H with ⟨How, VR211, GR211⟩
  ihave L := (held_src_ag_1_1_1 c fullShare (fun (i : S1024x1024.Idx) (v : Elt F .bf16) => pOut ct (sh := S1024x1024) i v rfl)).2 $$ [GR210 GR211]
  · isplitl [GR210]
    · iexact GR210
    · iexact GR211
  ihave L := (heldV_shr c (src_ag_1_1_1 c) 1 2 rfl (fun i v => pOut ct (sh := S1024x1024) i v rfl)).1 $$ L
  icases L with ⟨B1_1, Y1_1⟩
  -- exchange 1, column block 1, piece 1: the transfer
  iapply (ag_send ct c (peer 1 1 c) _ (dev_ag_1_1_1 c) (src_ag_1_1_1 c) (dsem 2 1 1 1) (dsem 3 1 1 1) (shr 1) (fun i v => pOut ct (sh := S1024x1024) i v rfl)
    (owedFrom c 51) (amtIx (dsem 2 1 1 1).val)
    (duty_mem ct c 2 1 1 1 rfl) (duty_mem ct (peer 1 1 c) 3 1 1 1 rfl) rfl rfl rfl (owed_step_50 c) rfl
    (recv_at_peer_1_1_1 ct c)) $$ [B1_1 LD111 How TS111 TR111]
  · isplitr
    · iapply (inv_dma ct K c 2 1 1 1 rfl); iexact HR
    isplitr
    · iapply (inv_dma ct K (peer 1 1 c) 3 1 1 1 rfl); iexact HR
    isplitl [B1_1]
    · iexact B1_1
    isplitl [LD111]
    · iexact LD111
    isplitl [How]
    · iexact How
    isplitl [TS111]
    · iexact TS111
    isplitr
    · iapply (reached_dma ct K c 2 1 1 1 rfl); iexact HR
    isplitl [TR111]
    · iexact TR111
    iapply (reached_dma ct K (peer 1 1 c) 3 1 1 1 rfl); iexact HR
  iintro H
  icases H with ⟨CS111, How⟩
  ihave X2_2 := (held_src_ag_2_2_0 c (shr 3) (fun (i : S1024x1024.Idx) (v : Elt F .bf16) => pOut ct (sh := S1024x1024) i v rfl)).2 $$ [GS320 GS321]
  · isplitl [GS320]
    · iexact GS320
    · iexact GS321
  ihave Z1_2 := (held_src_ag_1_2_0 c (shr 3) (fun (i : S1024x1024.Idx) (v : Elt F .bf16) => pOut ct (sh := S1024x1024) i v rfl)).2 $$ [X2_2 Y2_2]
  · isplitl [X2_2]
    · iexact X2_2
    · iexact Y2_2
  ihave Z1_2 := (heldV_cast c (src_ag_1_2_0 c) shr31 (fun i v => pOut ct (sh := S1024x1024) i v rfl)) $$ Z1_2
  -- exchange 1, column block 2, piece 0: the transfer
  iapply (ag_send ct c (peer 2 1 c) _ (dev_ag_1_2_0 c) (src_ag_1_2_0 c) (dsem 2 1 2 0) (dsem 3 1 2 0) (shr 1) (fun i v => pOut ct (sh := S1024x1024) i v rfl)
    (owedFrom c 52) (amtIx (dsem 2 1 2 0).val)
    (duty_mem ct c 2 1 2 0 rfl) (duty_mem ct (peer 2 1 c) 3 1 2 0 rfl) rfl rfl rfl (owed_step_51 c) rfl
    (recv_at_peer_1_2_0 ct c)) $$ [Z1_2 LD120 How TS120 TR120]
  · isplitr
    · iapply (inv_dma ct K c 2 1 2 0 rfl); iexact HR
    isplitr
    · iapply (inv_dma ct K (peer 2 1 c) 3 1 2 0 rfl); iexact HR
    isplitl [Z1_2]
    · iexact Z1_2
    isplitl [LD120]
    · iexact LD120
    isplitl [How]
    · iexact How
    isplitl [TS120]
    · iexact TS120
    isplitr
    · iapply (reached_dma ct K c 2 1 2 0 rfl); iexact HR
    isplitl [TR120]
    · iexact TR120
    iapply (reached_dma ct K (peer 2 1 c) 3 1 2 0 rfl); iexact HR
  iintro H
  icases H with ⟨CS120, How⟩
  -- exchange 2, column block 2, piece 0: the wait on the departure cell, and the cell closed
  iapply (ag_wait ct K c 2 2 2 0 rfl (src_ag_2_2_0 c) _ rfl (rest_S_2_2_0 ct c)) $$ [CS220 How PS220]
  · isplitr
    · iexact HR
    isplitl [CS220]
    · iexact CS220
    isplitl [How]
    · iexact How
    isplitr
    · iapply (mayWait_cell c 2 2 2 0 52 (by decide +kernel)); iexact Hlev
    iexact PS220
  iintro H
  icases H with ⟨How, VS220, GS220⟩
  -- exchange 2, column block 2, piece 0: the wait on the arrival cell, and the cell closed
  iapply (ag_wait ct K c 3 2 2 0 rfl (src_ag_2_2_0 c) _ rfl (rest_R_2_2_0 ct c)) $$ [CR220 How PR220]
  · isplitr
    · iexact HR
    isplitl [CR220]
    · iexact CR220
    isplitl [How]
    · iexact How
    isplitr
    · iapply (mayWait_cell c 3 2 2 0 52 (by decide +kernel)); iexact Hlev
    iexact PR220
  iintro H
  icases H with ⟨How, VR220, GR220⟩
  -- exchange 2, column block 2, piece 1: the wait on the departure cell, and the cell closed
  iapply (ag_wait ct K c 2 2 2 1 rfl (src_ag_2_2_1 c) _ rfl (rest_S_2_2_1 ct c)) $$ [CS221 How PS221]
  · isplitr
    · iexact HR
    isplitl [CS221]
    · iexact CS221
    isplitl [How]
    · iexact How
    isplitr
    · iapply (mayWait_cell c 2 2 2 1 52 (by decide +kernel)); iexact Hlev
    iexact PS221
  iintro H
  icases H with ⟨How, VS221, GS221⟩
  -- exchange 2, column block 2, piece 1: the wait on the arrival cell, and the cell closed
  iapply (ag_wait ct K c 3 2 2 1 rfl (src_ag_2_2_1 c) _ rfl (rest_R_2_2_1 ct c)) $$ [CR221 How PR221]
  · isplitr
    · iexact HR
    isplitl [CR221]
    · iexact CR221
    isplitl [How]
    · iexact How
    isplitr
    · iapply (mayWait_cell c 3 2 2 1 52 (by decide +kernel)); iexact Hlev
    iexact PR221
  iintro H
  icases H with ⟨How, VR221, GR221⟩
  ihave L := (held_src_ag_1_2_1 c fullShare (fun (i : S1024x1024.Idx) (v : Elt F .bf16) => pOut ct (sh := S1024x1024) i v rfl)).2 $$ [GR220 GR221]
  · isplitl [GR220]
    · iexact GR220
    · iexact GR221
  ihave L := (heldV_shr c (src_ag_1_2_1 c) 1 2 rfl (fun i v => pOut ct (sh := S1024x1024) i v rfl)).1 $$ L
  icases L with ⟨B1_2, Y1_2⟩
  -- exchange 1, column block 2, piece 1: the transfer
  iapply (ag_send ct c (peer 2 1 c) _ (dev_ag_1_2_1 c) (src_ag_1_2_1 c) (dsem 2 1 2 1) (dsem 3 1 2 1) (shr 1) (fun i v => pOut ct (sh := S1024x1024) i v rfl)
    (owedFrom c 53) (amtIx (dsem 2 1 2 1).val)
    (duty_mem ct c 2 1 2 1 rfl) (duty_mem ct (peer 2 1 c) 3 1 2 1 rfl) rfl rfl rfl (owed_step_52 c) rfl
    (recv_at_peer_1_2_1 ct c)) $$ [B1_2 LD121 How TS121 TR121]
  · isplitr
    · iapply (inv_dma ct K c 2 1 2 1 rfl); iexact HR
    isplitr
    · iapply (inv_dma ct K (peer 2 1 c) 3 1 2 1 rfl); iexact HR
    isplitl [B1_2]
    · iexact B1_2
    isplitl [LD121]
    · iexact LD121
    isplitl [How]
    · iexact How
    isplitl [TS121]
    · iexact TS121
    isplitr
    · iapply (reached_dma ct K c 2 1 2 1 rfl); iexact HR
    isplitl [TR121]
    · iexact TR121
    iapply (reached_dma ct K (peer 2 1 c) 3 1 2 1 rfl); iexact HR
  iintro H
  icases H with ⟨CS121, How⟩
  ihave X1_0 := (held_src_ag_1_0_0 c (shr 2) (fun (i : S1024x1024.Idx) (v : Elt F .bf16) => pOut ct (sh := S1024x1024) i v rfl)).2 $$ [GS200 GS201]
  · isplitl [GS200]
    · iexact GS200
    · iexact GS201
  ihave Z0_0 := (held_src_ag_0_0_0 c (shr 2) (fun (i : S1024x1024.Idx) (v : Elt F .bf16) => pOut ct (sh := S1024x1024) i v rfl)).2 $$ [X1_0 Y1_0]
  · isplitl [X1_0]
    · iexact X1_0
    · iexact Y1_0
  ihave Z0_0 := (heldV_cast c (src_ag_0_0_0 c) shr20 (fun i v => pOut ct (sh := S1024x1024) i v rfl)) $$ Z0_0
  -- exchange 0, column block 0, piece 0: the transfer
  iapply (ag_send ct c (peer 0 0 c) _ (dev_ag_0_0_0 c) (src_ag_0_0_0 c) (dsem 2 0 0 0) (dsem 3 0 0 0) (shr 0) (fun i v => pOut ct (sh := S1024x1024) i v rfl)
    (owedFrom c 54) (amtIx (dsem 2 0 0 0).val)
    (duty_mem ct c 2 0 0 0 rfl) (duty_mem ct (peer 0 0 c) 3 0 0 0 rfl) rfl rfl rfl (owed_step_53 c) rfl
    (recv_at_peer_0_0_0 ct c)) $$ [Z0_0 LD000 How TS000 TR000]
  · isplitr
    · iapply (inv_dma ct K c 2 0 0 0 rfl); iexact HR
    isplitr
    · iapply (inv_dma ct K (peer 0 0 c) 3 0 0 0 rfl); iexact HR
    isplitl [Z0_0]
    · iexact Z0_0
    isplitl [LD000]
    · iexact LD000
    isplitl [How]
    · iexact How
    isplitl [TS000]
    · iexact TS000
    isplitr
    · iapply (reached_dma ct K c 2 0 0 0 rfl); iexact HR
    isplitl [TR000]
    · iexact TR000
    iapply (reached_dma ct K (peer 0 0 c) 3 0 0 0 rfl); iexact HR
  iintro H
  icases H with ⟨CS000, How⟩
  -- exchange 1, column block 0, piece 0: the wait on the departure cell, and the cell closed
  iapply (ag_wait ct K c 2 1 0 0 rfl (src_ag_1_0_0 c) _ rfl (rest_S_1_0_0 ct c)) $$ [CS100 How PS100]
  · isplitr
    · iexact HR
    isplitl [CS100]
    · iexact CS100
    isplitl [How]
    · iexact How
    isplitr
    · iapply (mayWait_cell c 2 1 0 0 54 (by decide +kernel)); iexact Hlev
    iexact PS100
  iintro H
  icases H with ⟨How, VS100, GS100⟩
  -- exchange 1, column block 0, piece 0: the wait on the arrival cell, and the cell closed
  iapply (ag_wait ct K c 3 1 0 0 rfl (src_ag_1_0_0 c) _ rfl (rest_R_1_0_0 ct c)) $$ [CR100 How PR100]
  · isplitr
    · iexact HR
    isplitl [CR100]
    · iexact CR100
    isplitl [How]
    · iexact How
    isplitr
    · iapply (mayWait_cell c 3 1 0 0 54 (by decide +kernel)); iexact Hlev
    iexact PR100
  iintro H
  icases H with ⟨How, VR100, GR100⟩
  -- exchange 1, column block 0, piece 1: the wait on the departure cell, and the cell closed
  iapply (ag_wait ct K c 2 1 0 1 rfl (src_ag_1_0_1 c) _ rfl (rest_S_1_0_1 ct c)) $$ [CS101 How PS101]
  · isplitr
    · iexact HR
    isplitl [CS101]
    · iexact CS101
    isplitl [How]
    · iexact How
    isplitr
    · iapply (mayWait_cell c 2 1 0 1 54 (by decide +kernel)); iexact Hlev
    iexact PS101
  iintro H
  icases H with ⟨How, VS101, GS101⟩
  -- exchange 1, column block 0, piece 1: the wait on the arrival cell, and the cell closed
  iapply (ag_wait ct K c 3 1 0 1 rfl (src_ag_1_0_1 c) _ rfl (rest_R_1_0_1 ct c)) $$ [CR101 How PR101]
  · isplitr
    · iexact HR
    isplitl [CR101]
    · iexact CR101
    isplitl [How]
    · iexact How
    isplitr
    · iapply (mayWait_cell c 3 1 0 1 54 (by decide +kernel)); iexact Hlev
    iexact PR101
  iintro H
  icases H with ⟨How, VR101, GR101⟩
  ihave L := (held_src_ag_0_0_1 c fullShare (fun (i : S1024x1024.Idx) (v : Elt F .bf16) => pOut ct (sh := S1024x1024) i v rfl)).2 $$ [GR100 GR101]
  · isplitl [GR100]
    · iexact GR100
    · iexact GR101
  ihave L := (heldV_shr c (src_ag_0_0_1 c) 0 1 rfl (fun i v => pOut ct (sh := S1024x1024) i v rfl)).1 $$ L
  icases L with ⟨B0_0, Y0_0⟩
  -- exchange 0, column block 0, piece 1: the transfer
  iapply (ag_send ct c (peer 0 0 c) _ (dev_ag_0_0_1 c) (src_ag_0_0_1 c) (dsem 2 0 0 1) (dsem 3 0 0 1) (shr 0) (fun i v => pOut ct (sh := S1024x1024) i v rfl)
    (owedFrom c 55) (amtIx (dsem 2 0 0 1).val)
    (duty_mem ct c 2 0 0 1 rfl) (duty_mem ct (peer 0 0 c) 3 0 0 1 rfl) rfl rfl rfl (owed_step_54 c) rfl
    (recv_at_peer_0_0_1 ct c)) $$ [B0_0 LD001 How TS001 TR001]
  · isplitr
    · iapply (inv_dma ct K c 2 0 0 1 rfl); iexact HR
    isplitr
    · iapply (inv_dma ct K (peer 0 0 c) 3 0 0 1 rfl); iexact HR
    isplitl [B0_0]
    · iexact B0_0
    isplitl [LD001]
    · iexact LD001
    isplitl [How]
    · iexact How
    isplitl [TS001]
    · iexact TS001
    isplitr
    · iapply (reached_dma ct K c 2 0 0 1 rfl); iexact HR
    isplitl [TR001]
    · iexact TR001
    iapply (reached_dma ct K (peer 0 0 c) 3 0 0 1 rfl); iexact HR
  iintro H
  icases H with ⟨CS001, How⟩
  ihave X1_1 := (held_src_ag_1_1_0 c (shr 2) (fun (i : S1024x1024.Idx) (v : Elt F .bf16) => pOut ct (sh := S1024x1024) i v rfl)).2 $$ [GS210 GS211]
  · isplitl [GS210]
    · iexact GS210
    · iexact GS211
  ihave Z0_1 := (held_src_ag_0_1_0 c (shr 2) (fun (i : S1024x1024.Idx) (v : Elt F .bf16) => pOut ct (sh := S1024x1024) i v rfl)).2 $$ [X1_1 Y1_1]
  · isplitl [X1_1]
    · iexact X1_1
    · iexact Y1_1
  ihave Z0_1 := (heldV_cast c (src_ag_0_1_0 c) shr20 (fun i v => pOut ct (sh := S1024x1024) i v rfl)) $$ Z0_1
  -- exchange 0, column block 1, piece 0: the transfer
  iapply (ag_send ct c (peer 1 0 c) _ (dev_ag_0_1_0 c) (src_ag_0_1_0 c) (dsem 2 0 1 0) (dsem 3 0 1 0) (shr 0) (fun i v => pOut ct (sh := S1024x1024) i v rfl)
    (owedFrom c 56) (amtIx (dsem 2 0 1 0).val)
    (duty_mem ct c 2 0 1 0 rfl) (duty_mem ct (peer 1 0 c) 3 0 1 0 rfl) rfl rfl rfl (owed_step_55 c) rfl
    (recv_at_peer_0_1_0 ct c)) $$ [Z0_1 LD010 How TS010 TR010]
  · isplitr
    · iapply (inv_dma ct K c 2 0 1 0 rfl); iexact HR
    isplitr
    · iapply (inv_dma ct K (peer 1 0 c) 3 0 1 0 rfl); iexact HR
    isplitl [Z0_1]
    · iexact Z0_1
    isplitl [LD010]
    · iexact LD010
    isplitl [How]
    · iexact How
    isplitl [TS010]
    · iexact TS010
    isplitr
    · iapply (reached_dma ct K c 2 0 1 0 rfl); iexact HR
    isplitl [TR010]
    · iexact TR010
    iapply (reached_dma ct K (peer 1 0 c) 3 0 1 0 rfl); iexact HR
  iintro H
  icases H with ⟨CS010, How⟩
  -- exchange 1, column block 1, piece 0: the wait on the departure cell, and the cell closed
  iapply (ag_wait ct K c 2 1 1 0 rfl (src_ag_1_1_0 c) _ rfl (rest_S_1_1_0 ct c)) $$ [CS110 How PS110]
  · isplitr
    · iexact HR
    isplitl [CS110]
    · iexact CS110
    isplitl [How]
    · iexact How
    isplitr
    · iapply (mayWait_cell c 2 1 1 0 56 (by decide +kernel)); iexact Hlev
    iexact PS110
  iintro H
  icases H with ⟨How, VS110, GS110⟩
  -- exchange 1, column block 1, piece 0: the wait on the arrival cell, and the cell closed
  iapply (ag_wait ct K c 3 1 1 0 rfl (src_ag_1_1_0 c) _ rfl (rest_R_1_1_0 ct c)) $$ [CR110 How PR110]
  · isplitr
    · iexact HR
    isplitl [CR110]
    · iexact CR110
    isplitl [How]
    · iexact How
    isplitr
    · iapply (mayWait_cell c 3 1 1 0 56 (by decide +kernel)); iexact Hlev
    iexact PR110
  iintro H
  icases H with ⟨How, VR110, GR110⟩
  -- exchange 1, column block 1, piece 1: the wait on the departure cell, and the cell closed
  iapply (ag_wait ct K c 2 1 1 1 rfl (src_ag_1_1_1 c) _ rfl (rest_S_1_1_1 ct c)) $$ [CS111 How PS111]
  · isplitr
    · iexact HR
    isplitl [CS111]
    · iexact CS111
    isplitl [How]
    · iexact How
    isplitr
    · iapply (mayWait_cell c 2 1 1 1 56 (by decide +kernel)); iexact Hlev
    iexact PS111
  iintro H
  icases H with ⟨How, VS111, GS111⟩
  -- exchange 1, column block 1, piece 1: the wait on the arrival cell, and the cell closed
  iapply (ag_wait ct K c 3 1 1 1 rfl (src_ag_1_1_1 c) _ rfl (rest_R_1_1_1 ct c)) $$ [CR111 How PR111]
  · isplitr
    · iexact HR
    isplitl [CR111]
    · iexact CR111
    isplitl [How]
    · iexact How
    isplitr
    · iapply (mayWait_cell c 3 1 1 1 56 (by decide +kernel)); iexact Hlev
    iexact PR111
  iintro H
  icases H with ⟨How, VR111, GR111⟩
  ihave L := (held_src_ag_0_1_1 c fullShare (fun (i : S1024x1024.Idx) (v : Elt F .bf16) => pOut ct (sh := S1024x1024) i v rfl)).2 $$ [GR110 GR111]
  · isplitl [GR110]
    · iexact GR110
    · iexact GR111
  ihave L := (heldV_shr c (src_ag_0_1_1 c) 0 1 rfl (fun i v => pOut ct (sh := S1024x1024) i v rfl)).1 $$ L
  icases L with ⟨B0_1, Y0_1⟩
  -- exchange 0, column block 1, piece 1: the transfer
  iapply (ag_send ct c (peer 1 0 c) _ (dev_ag_0_1_1 c) (src_ag_0_1_1 c) (dsem 2 0 1 1) (dsem 3 0 1 1) (shr 0) (fun i v => pOut ct (sh := S1024x1024) i v rfl)
    (owedFrom c 57) (amtIx (dsem 2 0 1 1).val)
    (duty_mem ct c 2 0 1 1 rfl) (duty_mem ct (peer 1 0 c) 3 0 1 1 rfl) rfl rfl rfl (owed_step_56 c) rfl
    (recv_at_peer_0_1_1 ct c)) $$ [B0_1 LD011 How TS011 TR011]
  · isplitr
    · iapply (inv_dma ct K c 2 0 1 1 rfl); iexact HR
    isplitr
    · iapply (inv_dma ct K (peer 1 0 c) 3 0 1 1 rfl); iexact HR
    isplitl [B0_1]
    · iexact B0_1
    isplitl [LD011]
    · iexact LD011
    isplitl [How]
    · iexact How
    isplitl [TS011]
    · iexact TS011
    isplitr
    · iapply (reached_dma ct K c 2 0 1 1 rfl); iexact HR
    isplitl [TR011]
    · iexact TR011
    iapply (reached_dma ct K (peer 1 0 c) 3 0 1 1 rfl); iexact HR
  iintro H
  icases H with ⟨CS011, How⟩
  ihave X1_2 := (held_src_ag_1_2_0 c (shr 2) (fun (i : S1024x1024.Idx) (v : Elt F .bf16) => pOut ct (sh := S1024x1024) i v rfl)).2 $$ [GS220 GS221]
  · isplitl [GS220]
    · iexact GS220
    · iexact GS221
  ihave Z0_2 := (held_src_ag_0_2_0 c (shr 2) (fun (i : S1024x1024.Idx) (v : Elt F .bf16) => pOut ct (sh := S1024x1024) i v rfl)).2 $$ [X1_2 Y1_2]
  · isplitl [X1_2]
    · iexact X1_2
    · iexact Y1_2
  ihave Z0_2 := (heldV_cast c (src_ag_0_2_0 c) shr20 (fun i v => pOut ct (sh := S1024x1024) i v rfl)) $$ Z0_2
  -- exchange 0, column block 2, piece 0: the transfer
  iapply (ag_send ct c (peer 2 0 c) _ (dev_ag_0_2_0 c) (src_ag_0_2_0 c) (dsem 2 0 2 0) (dsem 3 0 2 0) (shr 0) (fun i v => pOut ct (sh := S1024x1024) i v rfl)
    (owedFrom c 58) (amtIx (dsem 2 0 2 0).val)
    (duty_mem ct c 2 0 2 0 rfl) (duty_mem ct (peer 2 0 c) 3 0 2 0 rfl) rfl rfl rfl (owed_step_57 c) rfl
    (recv_at_peer_0_2_0 ct c)) $$ [Z0_2 LD020 How TS020 TR020]
  · isplitr
    · iapply (inv_dma ct K c 2 0 2 0 rfl); iexact HR
    isplitr
    · iapply (inv_dma ct K (peer 2 0 c) 3 0 2 0 rfl); iexact HR
    isplitl [Z0_2]
    · iexact Z0_2
    isplitl [LD020]
    · iexact LD020
    isplitl [How]
    · iexact How
    isplitl [TS020]
    · iexact TS020
    isplitr
    · iapply (reached_dma ct K c 2 0 2 0 rfl); iexact HR
    isplitl [TR020]
    · iexact TR020
    iapply (reached_dma ct K (peer 2 0 c) 3 0 2 0 rfl); iexact HR
  iintro H
  icases H with ⟨CS020, How⟩
  -- exchange 1, column block 2, piece 0: the wait on the departure cell, and the cell closed
  iapply (ag_wait ct K c 2 1 2 0 rfl (src_ag_1_2_0 c) _ rfl (rest_S_1_2_0 ct c)) $$ [CS120 How PS120]
  · isplitr
    · iexact HR
    isplitl [CS120]
    · iexact CS120
    isplitl [How]
    · iexact How
    isplitr
    · iapply (mayWait_cell c 2 1 2 0 58 (by decide +kernel)); iexact Hlev
    iexact PS120
  iintro H
  icases H with ⟨How, VS120, GS120⟩
  -- exchange 1, column block 2, piece 0: the wait on the arrival cell, and the cell closed
  iapply (ag_wait ct K c 3 1 2 0 rfl (src_ag_1_2_0 c) _ rfl (rest_R_1_2_0 ct c)) $$ [CR120 How PR120]
  · isplitr
    · iexact HR
    isplitl [CR120]
    · iexact CR120
    isplitl [How]
    · iexact How
    isplitr
    · iapply (mayWait_cell c 3 1 2 0 58 (by decide +kernel)); iexact Hlev
    iexact PR120
  iintro H
  icases H with ⟨How, VR120, GR120⟩
  -- exchange 1, column block 2, piece 1: the wait on the departure cell, and the cell closed
  iapply (ag_wait ct K c 2 1 2 1 rfl (src_ag_1_2_1 c) _ rfl (rest_S_1_2_1 ct c)) $$ [CS121 How PS121]
  · isplitr
    · iexact HR
    isplitl [CS121]
    · iexact CS121
    isplitl [How]
    · iexact How
    isplitr
    · iapply (mayWait_cell c 2 1 2 1 58 (by decide +kernel)); iexact Hlev
    iexact PS121
  iintro H
  icases H with ⟨How, VS121, GS121⟩
  -- exchange 1, column block 2, piece 1: the wait on the arrival cell, and the cell closed
  iapply (ag_wait ct K c 3 1 2 1 rfl (src_ag_1_2_1 c) _ rfl (rest_R_1_2_1 ct c)) $$ [CR121 How PR121]
  · isplitr
    · iexact HR
    isplitl [CR121]
    · iexact CR121
    isplitl [How]
    · iexact How
    isplitr
    · iapply (mayWait_cell c 3 1 2 1 58 (by decide +kernel)); iexact Hlev
    iexact PR121
  iintro H
  icases H with ⟨How, VR121, GR121⟩
  ihave L := (held_src_ag_0_2_1 c fullShare (fun (i : S1024x1024.Idx) (v : Elt F .bf16) => pOut ct (sh := S1024x1024) i v rfl)).2 $$ [GR120 GR121]
  · isplitl [GR120]
    · iexact GR120
    · iexact GR121
  ihave L := (heldV_shr c (src_ag_0_2_1 c) 0 1 rfl (fun i v => pOut ct (sh := S1024x1024) i v rfl)).1 $$ L
  icases L with ⟨B0_2, Y0_2⟩
  -- exchange 0, column block 2, piece 1: the transfer
  iapply (ag_send ct c (peer 2 0 c) _ (dev_ag_0_2_1 c) (src_ag_0_2_1 c) (dsem 2 0 2 1) (dsem 3 0 2 1) (shr 0) (fun i v => pOut ct (sh := S1024x1024) i v rfl)
    (owedFrom c 59) (amtIx (dsem 2 0 2 1).val)
    (duty_mem ct c 2 0 2 1 rfl) (duty_mem ct (peer 2 0 c) 3 0 2 1 rfl) rfl rfl rfl (owed_step_58 c) rfl
    (recv_at_peer_0_2_1 ct c)) $$ [B0_2 LD021 How TS021 TR021]
  · isplitr
    · iapply (inv_dma ct K c 2 0 2 1 rfl); iexact HR
    isplitr
    · iapply (inv_dma ct K (peer 2 0 c) 3 0 2 1 rfl); iexact HR
    isplitl [B0_2]
    · iexact B0_2
    isplitl [LD021]
    · iexact LD021
    isplitl [How]
    · iexact How
    isplitl [TS021]
    · iexact TS021
    isplitr
    · iapply (reached_dma ct K c 2 0 2 1 rfl); iexact HR
    isplitl [TR021]
    · iexact TR021
    iapply (reached_dma ct K (peer 2 0 c) 3 0 2 1 rfl); iexact HR
  iintro H
  icases H with ⟨CS021, How⟩
  -- exchange 0, column block 0, piece 0: the wait on the departure cell, and the cell closed
  iapply (ag_wait ct K c 2 0 0 0 rfl (src_ag_0_0_0 c) _ rfl (rest_S_0_0_0 ct c)) $$ [CS000 How PS000]
  · isplitr
    · iexact HR
    isplitl [CS000]
    · iexact CS000
    isplitl [How]
    · iexact How
    isplitr
    · iapply (mayWait_cell c 2 0 0 0 59 (by decide +kernel)); iexact Hlev
    iexact PS000
  iintro H
  icases H with ⟨How, VS000, GS000⟩
  -- exchange 0, column block 0, piece 0: the wait on the arrival cell, and the cell closed
  iapply (ag_wait ct K c 3 0 0 0 rfl (src_ag_0_0_0 c) _ rfl (rest_R_0_0_0 ct c)) $$ [CR000 How PR000]
  · isplitr
    · iexact HR
    isplitl [CR000]
    · iexact CR000
    isplitl [How]
    · iexact How
    isplitr
    · iapply (mayWait_cell c 3 0 0 0 59 (by decide +kernel)); iexact Hlev
    iexact PR000
  iintro H
  icases H with ⟨How, VR000, GR000⟩
  -- exchange 0, column block 0, piece 1: the wait on the departure cell, and the cell closed
  iapply (ag_wait ct K c 2 0 0 1 rfl (src_ag_0_0_1 c) _ rfl (rest_S_0_0_1 ct c)) $$ [CS001 How PS001]
  · isplitr
    · iexact HR
    isplitl [CS001]
    · iexact CS001
    isplitl [How]
    · iexact How
    isplitr
    · iapply (mayWait_cell c 2 0 0 1 59 (by decide +kernel)); iexact Hlev
    iexact PS001
  iintro H
  icases H with ⟨How, VS001, GS001⟩
  -- exchange 0, column block 0, piece 1: the wait on the arrival cell, and the cell closed
  iapply (ag_wait ct K c 3 0 0 1 rfl (src_ag_0_0_1 c) _ rfl (rest_R_0_0_1 ct c)) $$ [CR001 How PR001]
  · isplitr
    · iexact HR
    isplitl [CR001]
    · iexact CR001
    isplitl [How]
    · iexact How
    isplitr
    · iapply (mayWait_cell c 3 0 0 1 59 (by decide +kernel)); iexact Hlev
    iexact PR001
  iintro H
  icases H with ⟨How, VR001, GR001⟩
  -- exchange 0, column block 1, piece 0: the wait on the departure cell, and the cell closed
  iapply (ag_wait ct K c 2 0 1 0 rfl (src_ag_0_1_0 c) _ rfl (rest_S_0_1_0 ct c)) $$ [CS010 How PS010]
  · isplitr
    · iexact HR
    isplitl [CS010]
    · iexact CS010
    isplitl [How]
    · iexact How
    isplitr
    · iapply (mayWait_cell c 2 0 1 0 59 (by decide +kernel)); iexact Hlev
    iexact PS010
  iintro H
  icases H with ⟨How, VS010, GS010⟩
  -- exchange 0, column block 1, piece 0: the wait on the arrival cell, and the cell closed
  iapply (ag_wait ct K c 3 0 1 0 rfl (src_ag_0_1_0 c) _ rfl (rest_R_0_1_0 ct c)) $$ [CR010 How PR010]
  · isplitr
    · iexact HR
    isplitl [CR010]
    · iexact CR010
    isplitl [How]
    · iexact How
    isplitr
    · iapply (mayWait_cell c 3 0 1 0 59 (by decide +kernel)); iexact Hlev
    iexact PR010
  iintro H
  icases H with ⟨How, VR010, GR010⟩
  -- exchange 0, column block 1, piece 1: the wait on the departure cell, and the cell closed
  iapply (ag_wait ct K c 2 0 1 1 rfl (src_ag_0_1_1 c) _ rfl (rest_S_0_1_1 ct c)) $$ [CS011 How PS011]
  · isplitr
    · iexact HR
    isplitl [CS011]
    · iexact CS011
    isplitl [How]
    · iexact How
    isplitr
    · iapply (mayWait_cell c 2 0 1 1 59 (by decide +kernel)); iexact Hlev
    iexact PS011
  iintro H
  icases H with ⟨How, VS011, GS011⟩
  -- exchange 0, column block 1, piece 1: the wait on the arrival cell, and the cell closed
  iapply (ag_wait ct K c 3 0 1 1 rfl (src_ag_0_1_1 c) _ rfl (rest_R_0_1_1 ct c)) $$ [CR011 How PR011]
  · isplitr
    · iexact HR
    isplitl [CR011]
    · iexact CR011
    isplitl [How]
    · iexact How
    isplitr
    · iapply (mayWait_cell c 3 0 1 1 59 (by decide +kernel)); iexact Hlev
    iexact PR011
  iintro H
  icases H with ⟨How, VR011, GR011⟩
  -- exchange 0, column block 2, piece 0: the wait on the departure cell, and the cell closed
  iapply (ag_wait ct K c 2 0 2 0 rfl (src_ag_0_2_0 c) _ rfl (rest_S_0_2_0 ct c)) $$ [CS020 How PS020]
  · isplitr
    · iexact HR
    isplitl [CS020]
    · iexact CS020
    isplitl [How]
    · iexact How
    isplitr
    · iapply (mayWait_cell c 2 0 2 0 59 (by decide +kernel)); iexact Hlev
    iexact PS020
  iintro H
  icases H with ⟨How, VS020, GS020⟩
  -- exchange 0, column block 2, piece 0: the wait on the arrival cell, and the cell closed
  iapply (ag_wait ct K c 3 0 2 0 rfl (src_ag_0_2_0 c) _ rfl (rest_R_0_2_0 ct c)) $$ [CR020 How PR020]
  · isplitr
    · iexact HR
    isplitl [CR020]
    · iexact CR020
    isplitl [How]
    · iexact How
    isplitr
    · iapply (mayWait_cell c 3 0 2 0 59 (by decide +kernel)); iexact Hlev
    iexact PR020
  iintro H
  icases H with ⟨How, VR020, GR020⟩
  -- exchange 0, column block 2, piece 1: the wait on the departure cell, and the cell closed
  iapply (ag_wait ct K c 2 0 2 1 rfl (src_ag_0_2_1 c) _ rfl (rest_S_0_2_1 ct c)) $$ [CS021 How PS021]
  · isplitr
    · iexact HR
    isplitl [CS021]
    · iexact CS021
    isplitl [How]
    · iexact How
    isplitr
    · iapply (mayWait_cell c 2 0 2 1 59 (by decide +kernel)); iexact Hlev
    iexact PS021
  iintro H
  icases H with ⟨How, VS021, GS021⟩
  -- exchange 0, column block 2, piece 1: the wait on the arrival cell, and the cell closed
  iapply (ag_wait ct K c 3 0 2 1 rfl (src_ag_0_2_1 c) _ rfl (rest_R_0_2_1 ct c)) $$ [CR021 How PR021]
  · isplitr
    · iexact HR
    isplitl [CR021]
    · iexact CR021
    isplitl [How]
    · iexact How
    isplitr
    · iapply (mayWait_cell c 3 0 2 1 59 (by decide +kernel)); iexact Hlev
    iexact PR021
  iintro H
  icases H with ⟨How, VR021, GR021⟩
  ihave X0_0 := (held_src_ag_0_0_0 c (shr 1) (fun (i : S1024x1024.Idx) (v : Elt F .bf16) => pOut ct (sh := S1024x1024) i v rfl)).2 $$ [GS100 GS101]
  · isplitl [GS100]
    · iexact GS100
    · iexact GS101
  ihave F0_0 := (heldV_shr c (src_ag_0_0_0 c) 0 1 rfl (fun i v => pOut ct (sh := S1024x1024) i v rfl)).2 $$ [GS000 X0_0]
  · isplitl [GS000]
    · iexact GS000
    · iexact X0_0
  ihave F1_0 := (heldV_shr c (src_ag_0_0_1 c) 0 1 rfl (fun i v => pOut ct (sh := S1024x1024) i v rfl)).2 $$ [GS001 Y0_0]
  · isplitl [GS001]
    · iexact GS001
    · iexact Y0_0
  ihave C0 := (held_colS_0 c fullShare (fun (i : S1024x1024.Idx) (v : Elt F .bf16) => pOut ct (sh := S1024x1024) i v rfl)).2 $$ [F0_0 F1_0 GR000 GR001]
  · isplitl [F0_0 F1_0]
    · isplitl [F0_0]
      · iexact F0_0
      · iexact F1_0
    · isplitl [GR000]
      · iexact GR000
      · iexact GR001
  ihave X0_1 := (held_src_ag_0_1_0 c (shr 1) (fun (i : S1024x1024.Idx) (v : Elt F .bf16) => pOut ct (sh := S1024x1024) i v rfl)).2 $$ [GS110 GS111]
  · isplitl [GS110]
    · iexact GS110
    · iexact GS111
  ihave F0_1 := (heldV_shr c (src_ag_0_1_0 c) 0 1 rfl (fun i v => pOut ct (sh := S1024x1024) i v rfl)).2 $$ [GS010 X0_1]
  · isplitl [GS010]
    · iexact GS010
    · iexact X0_1
  ihave F1_1 := (heldV_shr c (src_ag_0_1_1 c) 0 1 rfl (fun i v => pOut ct (sh := S1024x1024) i v rfl)).2 $$ [GS011 Y0_1]
  · isplitl [GS011]
    · iexact GS011
    · iexact Y0_1
  ihave C1 := (held_colS_1 c fullShare (fun (i : S1024x1024.Idx) (v : Elt F .bf16) => pOut ct (sh := S1024x1024) i v rfl)).2 $$ [F0_1 F1_1 GR010 GR011]
  · isplitl [F0_1 F1_1]
    · isplitl [F0_1]
      · iexact F0_1
      · iexact F1_1
    · isplitl [GR010]
      · iexact GR010
      · iexact GR011
  ihave X0_2 := (held_src_ag_0_2_0 c (shr 1) (fun (i : S1024x1024.Idx) (v : Elt F .bf16) => pOut ct (sh := S1024x1024) i v rfl)).2 $$ [GS120 GS121]
  · isplitl [GS120]
    · iexact GS120
    · iexact GS121
  ihave F0_2 := (heldV_shr c (src_ag_0_2_0 c) 0 1 rfl (fun i v => pOut ct (sh := S1024x1024) i v rfl)).2 $$ [GS020 X0_2]
  · isplitl [GS020]
    · iexact GS020
    · iexact X0_2
  ihave F1_2 := (heldV_shr c (src_ag_0_2_1 c) 0 1 rfl (fun i v => pOut ct (sh := S1024x1024) i v rfl)).2 $$ [GS021 Y0_2]
  · isplitl [GS021]
    · iexact GS021
    · iexact Y0_2
  ihave C2 := (held_colS_2 c fullShare (fun (i : S1024x1024.Idx) (v : Elt F .bf16) => pOut ct (sh := S1024x1024) i v rfl)).2 $$ [F0_2 F1_2 GR020 GR021]
  · isplitl [F0_2 F1_2]
    · isplitl [F0_2]
      · iexact F0_2
      · iexact F1_2
    · isplitl [GR020]
      · iexact GR020
      · iexact GR021
  ihave HX := (held_cols c (fun (i : S1024x1024.Idx) (v : Elt F .bf16) => pOut ct (sh := S1024x1024) i v rfl)) $$ [C0 C1 C2]
  · isplitl [C0]
    · iexact C0
    isplitl [C1]
    · iexact C1
    · iexact C2
  ihave How := (owes_end c _) $$ How
  iapply (le_wp_ret _ _)
  iapply HK
  unfold PostBody closedAG
  isplitl [How]
  · iexists _; iexact How
  isplitl [HcRS]
  · iexact HcRS
  isplitl [VS400 VR400 VS410 VR410 VS420 VR420 VS300 VR300 VS301 VR301 VS310 VR310 VS311 VR311 VS320 VR320 VS321 VR321 VS200 VR200 VS201 VR201 VS210 VR210 VS211 VR211 VS220 VR220 VS221 VR221 VS100 VR100 VS101 VR101 VS110 VR110 VS111 VR111 VS120 VR120 VS121 VR121 VS000 VR000 VS001 VR001 VS010 VR010 VS011 VR011 VS020 VR020 VS021 VR021]
  · isplitl [VS400 VR400]
    · isplitl [VS400]
      · iexact VS400
      · iexact VR400
    isplitl [VS410 VR410]
    · isplitl [VS410]
      · iexact VS410
      · iexact VR410
    isplitl [VS420 VR420]
    · isplitl [VS420]
      · iexact VS420
      · iexact VR420
    isplitl [VS300 VR300]
    · isplitl [VS300]
      · iexact VS300
      · iexact VR300
    isplitl [VS301 VR301]
    · isplitl [VS301]
      · iexact VS301
      · iexact VR301
    isplitl [VS310 VR310]
    · isplitl [VS310]
      · iexact VS310
      · iexact VR310
    isplitl [VS311 VR311]
    · isplitl [VS311]
      · iexact VS311
      · iexact VR311
    isplitl [VS320 VR320]
    · isplitl [VS320]
      · iexact VS320
      · iexact VR320
    isplitl [VS321 VR321]
    · isplitl [VS321]
      · iexact VS321
      · iexact VR321
    isplitl [VS200 VR200]
    · isplitl [VS200]
      · iexact VS200
      · iexact VR200
    isplitl [VS201 VR201]
    · isplitl [VS201]
      · iexact VS201
      · iexact VR201
    isplitl [VS210 VR210]
    · isplitl [VS210]
      · iexact VS210
      · iexact VR210
    isplitl [VS211 VR211]
    · isplitl [VS211]
      · iexact VS211
      · iexact VR211
    isplitl [VS220 VR220]
    · isplitl [VS220]
      · iexact VS220
      · iexact VR220
    isplitl [VS221 VR221]
    · isplitl [VS221]
      · iexact VS221
      · iexact VR221
    isplitl [VS100 VR100]
    · isplitl [VS100]
      · iexact VS100
      · iexact VR100
    isplitl [VS101 VR101]
    · isplitl [VS101]
      · iexact VS101
      · iexact VR101
    isplitl [VS110 VR110]
    · isplitl [VS110]
      · iexact VS110
      · iexact VR110
    isplitl [VS111 VR111]
    · isplitl [VS111]
      · iexact VS111
      · iexact VR111
    isplitl [VS120 VR120]
    · isplitl [VS120]
      · iexact VS120
      · iexact VR120
    isplitl [VS121 VR121]
    · isplitl [VS121]
      · iexact VS121
      · iexact VR121
    isplitl [VS000 VR000]
    · isplitl [VS000]
      · iexact VS000
      · iexact VR000
    isplitl [VS001 VR001]
    · isplitl [VS001]
      · iexact VS001
      · iexact VR001
    isplitl [VS010 VR010]
    · isplitl [VS010]
      · iexact VS010
      · iexact VR010
    isplitl [VS011 VR011]
    · isplitl [VS011]
      · iexact VS011
      · iexact VR011
    isplitl [VS020 VR020]
    · isplitl [VS020]
      · iexact VS020
      · iexact VR020
    isplitl [VS021]
    · iexact VS021
    · iexact VR021
  isplitl [Hidle]
  · iexact Hidle
  isplitl [Hsc]
  · iexact Hsc
  isplitl [HYA]
  · iexact HYA
  isplitl [HYB]
  · iexact HYB
  icases HX with ⟨%X, %hX, HX⟩
  iexists X
  isplitr
  · ipureintro; exact fun i => hX i
  · iexact HX

end Cert.Kernel.SegC

end
-- ==== Proof.lean ====
/-
  The certificate of the distributed matmul + GELU kernel on thirty-two devices against its one-device
  reference.

  Each device holds a 512-wide slice of the contraction axis of A (1024 × 16384) and B (16384 × 1024). It
  multiplies its slices, and for each of three column blocks the devices sum their products by recursive
  halving over five exchanges with partners at bit patterns 1, 3, 8, 4, 16 (in a block-dependent order): at
  every stage a device sends the half of its row range its partner keeps and adds what it receives, so that
  after five stages it owns 32 rows of the full sum, Σ_d A_d·B_d = A·B (a sum of extended reals regrouped:
  commutativity and associativity only). It applies the pointwise function to its rows, and the devices
  gather all rows by recursive doubling over the same partners in reverse order.

  The proof: one exchange schedule (every semaphore expects one transfer, the handshake semaphore five
  signals), carried by a contract on values that the word-level frame takes trivially true and the value
  claim takes to be the partial sums over cosets of devices; the launch over relational proof data; the body
  in segments, run symbolically between the transfers; the reference's run read back as
  gelu (Σ_k A i k · B k j).
-/
import proofs.«900879_g7700000000000880_dist_matmul_gelu_kshard_i_m1024_n1024_k512_v7x_i32_bf16_1_alg».proof.Defs
import proofs.«900879_g7700000000000880_dist_matmul_gelu_kshard_i_m1024_n1024_k512_v7x_i32_bf16_1_alg».proof.Proof.Gen.Kernel
import proofs.«900879_g7700000000000880_dist_matmul_gelu_kshard_i_m1024_n1024_k512_v7x_i32_bf16_1_alg».proof.Proof.Gen.KernelIdeal
import proofs.«900879_g7700000000000880_dist_matmul_gelu_kshard_i_m1024_n1024_k512_v7x_i32_bf16_1_alg».proof.Proof.Gen.ReferenceIdeal
import proofs.«900879_g7700000000000880_dist_matmul_gelu_kshard_i_m1024_n1024_k512_v7x_i32_bf16_1_alg».proof.Proof.Gen.Pre_finite_inputs_Kernel
import proofs.«900879_g7700000000000880_dist_matmul_gelu_kshard_i_m1024_n1024_k512_v7x_i32_bf16_1_alg».proof.Proof.Gen.Pre_finite_inputs_ReferenceIdeal
import proofs.«900879_g7700000000000880_dist_matmul_gelu_kshard_i_m1024_n1024_k512_v7x_i32_bf16_1_alg».proof.Proof.RefSide
import proofs.«900879_g7700000000000880_dist_matmul_gelu_kshard_i_m1024_n1024_k512_v7x_i32_bf16_1_alg».proof.Proof.Claims
import proofs.«900879_g7700000000000880_dist_matmul_gelu_kshard_i_m1024_n1024_k512_v7x_i32_bf16_1_alg».proof.Proof.Fund
import proofs.«900879_g7700000000000880_dist_matmul_gelu_kshard_i_m1024_n1024_k512_v7x_i32_bf16_1_alg».proof.Proof.BodyOb
import proofs.«900879_g7700000000000880_dist_matmul_gelu_kshard_i_m1024_n1024_k512_v7x_i32_bf16_1_alg».proof.Proof.BodyIdeal
import proofs.«900879_g7700000000000880_dist_matmul_gelu_kshard_i_m1024_n1024_k512_v7x_i32_bf16_1_alg».proof.Proof.SegA
import proofs.«900879_g7700000000000880_dist_matmul_gelu_kshard_i_m1024_n1024_k512_v7x_i32_bf16_1_alg».proof.Proof.SegB
import proofs.«900879_g7700000000000880_dist_matmul_gelu_kshard_i_m1024_n1024_k512_v7x_i32_bf16_1_alg».proof.Proof.SegC
import proofs.«900879_g7700000000000880_dist_matmul_gelu_kshard_i_m1024_n1024_k512_v7x_i32_bf16_1_alg».proof.Proof.FrameK
import proofs.«900879_g7700000000000880_dist_matmul_gelu_kshard_i_m1024_n1024_k512_v7x_i32_bf16_1_alg».proof.Proof.FundK
import proofs.«900879_g7700000000000880_dist_matmul_gelu_kshard_i_m1024_n1024_k512_v7x_i32_bf16_1_alg».proof.Proof.BodyObK
import proofs.«900879_g7700000000000880_dist_matmul_gelu_kshard_i_m1024_n1024_k512_v7x_i32_bf16_1_alg».proof.Proof.SegAK
import proofs.«900879_g7700000000000880_dist_matmul_gelu_kshard_i_m1024_n1024_k512_v7x_i32_bf16_1_alg».proof.Proof.SegBK
import proofs.«900879_g7700000000000880_dist_matmul_gelu_kshard_i_m1024_n1024_k512_v7x_i32_bf16_1_alg».proof.Proof.SegCK
import Idealize.ShloMosaic.Adequacy
import Idealize.ShloMosaic.Init

noncomputable section

namespace Cert.Proof

open Idealize.ShloMosaic Idealize.SL.Sem

/-- The kernel as printed: the exchange under the contract that asks nothing. -/
theorem frame_kernel : Cert.frame_Kernel :=
  Cert.Kernel.Frame.frame_of_run Cert.Kernel.Fund.u₀ (Cert.Kernel.Fund.G Cert.Kernel.Proto.Contract.trivial)
    (Cert.Kernel.Fund.hu₀ _) (Cert.Kernel.Fund.hglob _)
    (fun m c => Cert.Kernel.BodyOb.body_trivial (m := m) (c := c)
      (fun K YA YB laws _ T Kt => Cert.Kernel.SegA.segA _ K c YA YB laws T Kt)
      (fun K YA YB laws _ T Kt => Cert.Kernel.SegB.segB _ K c YA YB laws T Kt)
      (fun K YA YB _ Kt => Cert.Kernel.SegC.segC _ K c YA YB Kt))

/-- The idealized kernel: the same run at the ideal instance. -/
theorem frame_kernel_ideal : Cert.frame_KernelIdeal :=
  Cert.KernelIdeal.Run.frame_of_run Cert.KernelIdeal.Fund.u₀ (fun ct => Cert.KernelIdeal.Fund.G ct)
    (fun ct => Cert.KernelIdeal.Fund.hu₀ ct) (fun ct => Cert.KernelIdeal.Fund.hglob ct)
    (fun m c => Cert.KernelIdeal.BodyOb.body_trivial (m := m) (c := c)
      (fun K YA YB laws _ T Kt => Cert.KernelIdeal.SegA.segA _ K c YA YB laws T Kt)
      (fun K YA YB laws _ T Kt => Cert.KernelIdeal.SegB.segB _ K c YA YB laws T Kt)
      (fun K YA YB _ Kt => Cert.KernelIdeal.SegC.segC _ K c YA YB Kt))

/-- Kernel and reference end with equal results: the run under the contract of the partial sums, whose last
    stage is the whole sum, against the reference's run read back. -/
theorem algebraic : Cert.algebraic_KernelIdeal_ReferenceIdeal :=
  Cert.KernelIdeal.Run.algebraic_of_run Cert.KernelIdeal.Fund.u₀ (fun ct => Cert.KernelIdeal.Fund.G ct)
    (fun ct => Cert.KernelIdeal.Fund.hu₀ ct) (fun ct => Cert.KernelIdeal.Fund.hglob ct)
    (fun m c => Cert.KernelIdeal.BodyIdeal.body_ideal m c
      (fun K YA YB laws _ T Kt => Cert.KernelIdeal.SegA.segA _ K c YA YB laws T Kt)
      (fun K YA YB laws _ T Kt => Cert.KernelIdeal.SegB.segB _ K c YA YB laws T Kt)
      (fun K YA YB _ Kt => Cert.KernelIdeal.SegC.segC _ K c YA YB Kt))

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernel_ideal, Cert.RefSide.frame_ri, trivial, algebraic⟩

end Cert.Proof

end
